-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 1024]⟩ ⟨2, ![4096, 2048]⟩ (Layout.meshBlock [2, 2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x4096x2048 : Shape := ⟨3, ![1, 4096, 2048]⟩
abbrev S_ : Shape := ⟨0, ![]⟩

class Facts : Prop where
  bcast_S_S1x4096x2048 : S_.BroadcastsInDim S1x4096x2048 (![] : Fin 0 → Fin S1x4096x2048.rank)
  reducesTo_S1x4096x2048_S_d0_1_2 : S1x4096x2048.ReducesTo [0, 1, 2] S_
  h_S_ : 0 < S_.numel

variable [Facts]

def fn {F : FTy → Type} [FloatOps F] (main_arg0 : FVec F S1x4096x2048 .f32) : IVec S_ 1 :=
  let main_v0 : FVec F S1x4096x2048 .f32 := Host.absf main_arg0
  let main_cst : FVec F S_ .f32 := constant S_ .f32 0x7F800000#32
  let main_v1 : FVec F S1x4096x2048 .f32 := broadcastInDim S1x4096x2048 ![] bcast_S_S1x4096x2048 main_cst
  let main_v2 : IVec S1x4096x2048 1 := cmpf .olt main_v0 main_v1
  let main_c : IVec S_ 1 := constantI S_ 1 1#1
  let main_v3 : IVec S_ 1 := (fun x v => Host.reduce IntOp.andi x v reducesTo_S1x4096x2048_S_d0_1_2 h_S_) main_v2 main_c
  main_v3
-- ==== Pre_finite_inputs_ReferenceIdeal.lean ====
abbrev S2x4096x2048 : Shape := ⟨3, ![2, 4096, 2048]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel

variable [Facts]

def fn {F : FTy → Type} [FloatOps F] (main_arg0 : FVec F S2x4096x2048 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  main_v3
-- ==== Kernel.lean ====
abbrev S1x4096x2048 : Shape := ⟨3, ![1, 4096, 2048]⟩
abbrev S4096x1024 : Shape := ⟨2, ![4096, 1024]⟩
abbrev S4x4096x256 : Shape := ⟨3, ![4, 4096, 256]⟩
abbrev S4096x256 : Shape := ⟨2, ![4096, 256]⟩
abbrev S1536x256 : Shape := ⟨2, ![1536, 256]⟩
abbrev S8 : Shape := ⟨1, ![8]⟩
abbrev S3 : Shape := ⟨1, ![3]⟩
abbrev S8x4 : Shape := ⟨2, ![8, 4]⟩
abbrev S_ : Shape := ⟨0, ![]⟩
abbrev S1 : Shape := ⟨1, ![1]⟩
abbrev S512x256 : Shape := ⟨2, ![512, 256]⟩
abbrev S1x512x256 : Shape := ⟨3, ![1, 512, 256]⟩
abbrev S1x512x128 : Shape := ⟨3, ![1, 512, 128]⟩
abbrev S512x128 : Shape := ⟨2, ![512, 128]⟩
abbrev S1x1 : Shape := ⟨2, ![1, 1]⟩

abbrev nBuf : Space → Nat
  | .hbm => 2
  | .vmem => 9
  | .smem => 0
  | _ => 0

abbrev bufTy : (tb : Table) → Fin (tcTables nBuf tb) → BufTy
  | .hbm, ⟨0, _⟩ => ⟨S1x4096x2048, .f32⟩
  | .hbm, ⟨1, _⟩ => ⟨S4096x1024, .bf16⟩
  | .local _ .vmem, ⟨0, _⟩ => ⟨S4x4096x256, .bf16⟩
  | .local _ .vmem, ⟨1, _⟩ => ⟨S4096x256, .bf16⟩
  | .local _ .vmem, ⟨2, _⟩ => ⟨S4096x256, .bf16⟩
  | .local _ .vmem, ⟨3, _⟩ => ⟨S1536x256, .bf16⟩
  | .local _ .vmem, ⟨4, _⟩ => ⟨S1536x256, .bf16⟩
  | .local _ .vmem, ⟨5, _⟩ => ⟨S4096x256, .f32⟩
  | .local _ .vmem, ⟨6, _⟩ => ⟨S4096x256, .f32⟩
  | .local _ .vmem, ⟨7, _⟩ => ⟨S1536x256, .f32⟩
  | .local _ .vmem, ⟨8, _⟩ => ⟨S1536x256, .f32⟩
  | _, _ => ⟨S1x4096x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 140 → Bool
  | ⟨i, _⟩ => dmaSemScopedAt i

abbrev sig : RefSig :=
  (ofTc nBuf bufTy 1 140 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_15 : BitVec 32 := 4#32
  let v25 : BitVec 32 := Scalar.muli v9 c4_i32_15
  let v26 : BitVec 32 := Scalar.addi c0_i32 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v27 : BitVec 32 := Scalar.muli v5 c2_i32_16
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v29 : BitVec 32 := Scalar.muli v8 c1_i32_17
  let v30 : BitVec 32 := Scalar.addi v28 v29
  v30.toNat
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v31 : BitVec 32 := Scalar.muli v2 c4_i32_19
  let v32 : BitVec 32 := Scalar.addi c0_i32_20 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v33 : BitVec 32 := Scalar.muli v5 c2_i32_21
  let v34 : BitVec 32 := Scalar.addi v32 v33
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_22 : BitVec 32 := 1#32
  let v35 : BitVec 32 := Scalar.muli v10 c1_i32_22
  let v36 : BitVec 32 := Scalar.addi v34 v35
  v36.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v37 : BitVec 32 := Scalar.muli v2 c4_i32_24
  let v38 : BitVec 32 := Scalar.addi c0_i32_25 v37
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_26 : BitVec 32 := 2#32
  let v39 : BitVec 32 := Scalar.muli v11 c2_i32_26
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v41 : BitVec 32 := Scalar.muli v8 c1_i32_27
  let v42 : BitVec 32 := Scalar.addi v40 v41
  v42.toNat
def k0_off1 (d0 : Dev nD) : Fin 3 → Nat :=
  let c0_i32_29 : BitVec 32 := 0#32
  let c0_i32_33 : BitVec 32 := 0#32
  let c1_i32_28 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v43 : BitVec 32 := Scalar.subi c1_i32_28 v2
  let c1024_i32 : BitVec 32 := 1024#32
  let v44 : BitVec 32 := Scalar.muli v43 c1024_i32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32 : BitVec 32 := 256#32
  let v45 : BitVec 32 := Scalar.muli v13 c256_i32
  let v46 : BitVec 32 := Scalar.addi v44 v45
  ![0, 0, v46.toNat]
def k0_off2 (d0 : Dev nD) : Fin 3 → Nat :=
  let c0_i32_36 : BitVec 32 := 0#32
  let c0_i32_40 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_34 : BitVec 32 := 1024#32
  let v52 : BitVec 32 := Scalar.muli v2 c1024_i32_34
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32_35 : BitVec 32 := 256#32
  let v53 : BitVec 32 := Scalar.muli v13 c256_i32_35
  let v54 : BitVec 32 := Scalar.addi v52 v53
  ![0, 0, v54.toNat]
def k0_off3 (d0 : Dev nD) : Fin 3 → Nat :=
  let c0_i32_44 : BitVec 32 := 0#32
  let c512_i32_47 : BitVec 32 := 512#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v60 : BitVec 32 := Scalar.subi c1_i32_41 v2
  let c1024_i32_42 : BitVec 32 := 1024#32
  let v61 : BitVec 32 := Scalar.muli v60 c1024_i32_42
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32_43 : BitVec 32 := 256#32
  let v62 : BitVec 32 := Scalar.muli v13 c256_i32_43
  let v63 : BitVec 32 := Scalar.addi v61 v62
  ![0, 512, v63.toNat]
def k0_off4 (d0 : Dev nD) : Fin 3 → Nat :=
  let c0_i32_50 : BitVec 32 := 0#32
  let c512_i32_54 : BitVec 32 := 512#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_48 : BitVec 32 := 1024#32
  let v69 : BitVec 32 := Scalar.muli v2 c1024_i32_48
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32_49 : BitVec 32 := 256#32
  let v70 : BitVec 32 := Scalar.muli v13 c256_i32_49
  let v71 : BitVec 32 := Scalar.addi v69 v70
  ![0, 512, v71.toNat]
def k0_off5 (d0 : Dev nD) : Fin 3 → Nat :=
  let c0_i32_58 : BitVec 32 := 0#32
  let c1024_i32_62 : BitVec 32 := 1024#32
  let c1_i32_55 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_55 v2
  let c1024_i32_56 : BitVec 32 := 1024#32
  let v78 : BitVec 32 := Scalar.muli v77 c1024_i32_56
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32_57 : BitVec 32 := 256#32
  let v79 : BitVec 32 := Scalar.muli v13 c256_i32_57
  let v80 : BitVec 32 := Scalar.addi v78 v79
  ![0, 1024, v80.toNat]
def k0_off6 (d0 : Dev nD) : Fin 3 → Nat :=
  let c0_i32_65 : BitVec 32 := 0#32
  let c1024_i32_69 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_63 : BitVec 32 := 1024#32
  let v86 : BitVec 32 := Scalar.muli v2 c1024_i32_63
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32_64 : BitVec 32 := 256#32
  let v87 : BitVec 32 := Scalar.muli v13 c256_i32_64
  let v88 : BitVec 32 := Scalar.addi v86 v87
  ![0, 1024, v88.toNat]
def k0_off7 (d0 : Dev nD) : Fin 3 → Nat :=
  let c0_i32_73 : BitVec 32 := 0#32
  let c1536_i32_76 : BitVec 32 := 1536#32
  let c1_i32_70 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v94 : BitVec 32 := Scalar.subi c1_i32_70 v2
  let c1024_i32_71 : BitVec 32 := 1024#32
  let v95 : BitVec 32 := Scalar.muli v94 c1024_i32_71
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32_72 : BitVec 32 := 256#32
  let v96 : BitVec 32 := Scalar.muli v13 c256_i32_72
  let v97 : BitVec 32 := Scalar.addi v95 v96
  ![0, 1536, v97.toNat]
def k0_off8 (d0 : Dev nD) : Fin 3 → Nat :=
  let c0_i32_79 : BitVec 32 := 0#32
  let c1536_i32_83 : BitVec 32 := 1536#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_77 : BitVec 32 := 1024#32
  let v103 : BitVec 32 := Scalar.muli v2 c1024_i32_77
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32_78 : BitVec 32 := 256#32
  let v104 : BitVec 32 := Scalar.muli v13 c256_i32_78
  let v105 : BitVec 32 := Scalar.addi v103 v104
  ![0, 1536, v105.toNat]
def k0_off9 (d0 : Dev nD) : Fin 3 → Nat :=
  let c0_i32_87 : BitVec 32 := 0#32
  let c2048_i32_90 : BitVec 32 := 2048#32
  let c1_i32_84 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v111 : BitVec 32 := Scalar.subi c1_i32_84 v2
  let c1024_i32_85 : BitVec 32 := 1024#32
  let v112 : BitVec 32 := Scalar.muli v111 c1024_i32_85
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32_86 : BitVec 32 := 256#32
  let v113 : BitVec 32 := Scalar.muli v13 c256_i32_86
  let v114 : BitVec 32 := Scalar.addi v112 v113
  ![0, 2048, v114.toNat]
def k0_off10 (d0 : Dev nD) : Fin 3 → Nat :=
  let c0_i32_93 : BitVec 32 := 0#32
  let c2048_i32_97 : BitVec 32 := 2048#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_91 : BitVec 32 := 1024#32
  let v120 : BitVec 32 := Scalar.muli v2 c1024_i32_91
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32_92 : BitVec 32 := 256#32
  let v121 : BitVec 32 := Scalar.muli v13 c256_i32_92
  let v122 : BitVec 32 := Scalar.addi v120 v121
  ![0, 2048, v122.toNat]
def k0_off11 (d0 : Dev nD) : Fin 3 → Nat :=
  let c0_i32_101 : BitVec 32 := 0#32
  let c2560_i32_103 : BitVec 32 := 2560#32
  let c1_i32_98 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v128 : BitVec 32 := Scalar.subi c1_i32_98 v2
  let c1024_i32_99 : BitVec 32 := 1024#32
  let v129 : BitVec 32 := Scalar.muli v128 c1024_i32_99
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32_100 : BitVec 32 := 256#32
  let v130 : BitVec 32 := Scalar.muli v13 c256_i32_100
  let v131 : BitVec 32 := Scalar.addi v129 v130
  ![0, 2560, v131.toNat]
def k0_off12 (d0 : Dev nD) : Fin 3 → Nat :=
  let c0_i32_106 : BitVec 32 := 0#32
  let c2560_i32_110 : BitVec 32 := 2560#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_104 : BitVec 32 := 1024#32
  let v137 : BitVec 32 := Scalar.muli v2 c1024_i32_104
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32_105 : BitVec 32 := 256#32
  let v138 : BitVec 32 := Scalar.muli v13 c256_i32_105
  let v139 : BitVec 32 := Scalar.addi v137 v138
  ![0, 2560, v139.toNat]
def k0_off13 (d0 : Dev nD) : Fin 3 → Nat :=
  let c0_i32_114 : BitVec 32 := 0#32
  let c3072_i32_116 : BitVec 32 := 3072#32
  let c1_i32_111 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v145 : BitVec 32 := Scalar.subi c1_i32_111 v2
  let c1024_i32_112 : BitVec 32 := 1024#32
  let v146 : BitVec 32 := Scalar.muli v145 c1024_i32_112
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32_113 : BitVec 32 := 256#32
  let v147 : BitVec 32 := Scalar.muli v13 c256_i32_113
  let v148 : BitVec 32 := Scalar.addi v146 v147
  ![0, 3072, v148.toNat]
def k0_off14 (d0 : Dev nD) : Fin 3 → Nat :=
  let c0_i32_119 : BitVec 32 := 0#32
  let c3072_i32_123 : BitVec 32 := 3072#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_117 : BitVec 32 := 1024#32
  let v154 : BitVec 32 := Scalar.muli v2 c1024_i32_117
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32_118 : BitVec 32 := 256#32
  let v155 : BitVec 32 := Scalar.muli v13 c256_i32_118
  let v156 : BitVec 32 := Scalar.addi v154 v155
  ![0, 3072, v156.toNat]
def k0_off15 (d0 : Dev nD) : Fin 3 → Nat :=
  let c0_i32_127 : BitVec 32 := 0#32
  let c3584_i32_129 : BitVec 32 := 3584#32
  let c1_i32_124 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v162 : BitVec 32 := Scalar.subi c1_i32_124 v2
  let c1024_i32_125 : BitVec 32 := 1024#32
  let v163 : BitVec 32 := Scalar.muli v162 c1024_i32_125
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32_126 : BitVec 32 := 256#32
  let v164 : BitVec 32 := Scalar.muli v13 c256_i32_126
  let v165 : BitVec 32 := Scalar.addi v163 v164
  ![0, 3584, v165.toNat]
def k0_off16 (d0 : Dev nD) : Fin 3 → Nat :=
  let c0_i32_132 : BitVec 32 := 0#32
  let c3584_i32_136 : BitVec 32 := 3584#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_130 : BitVec 32 := 1024#32
  let v171 : BitVec 32 := Scalar.muli v2 c1024_i32_130
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32_131 : BitVec 32 := 256#32
  let v172 : BitVec 32 := Scalar.muli v13 c256_i32_131
  let v173 : BitVec 32 := Scalar.addi v171 v172
  ![0, 3584, v173.toNat]
def k0_off17 (d0 : Dev nD) : Fin 3 → Nat :=
  let c0_i32_140 : BitVec 32 := 0#32
  let c0_i32_144 : BitVec 32 := 0#32
  let c1_i32_137 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v179 : BitVec 32 := Scalar.subi c1_i32_137 v2
  let c1024_i32_138 : BitVec 32 := 1024#32
  let v180 : BitVec 32 := Scalar.muli v179 c1024_i32_138
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c256_i32_139 : BitVec 32 := 256#32
  let v181 : BitVec 32 := Scalar.muli v23 c256_i32_139
  let v182 : BitVec 32 := Scalar.addi v180 v181
  ![0, 0, v182.toNat]
def k0_off18 (d0 : Dev nD) : Fin 3 → Nat :=
  let c0_i32_147 : BitVec 32 := 0#32
  let c0_i32_151 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_145 : BitVec 32 := 1024#32
  let v188 : BitVec 32 := Scalar.muli v2 c1024_i32_145
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c256_i32_146 : BitVec 32 := 256#32
  let v189 : BitVec 32 := Scalar.muli v23 c256_i32_146
  let v190 : BitVec 32 := Scalar.addi v188 v189
  ![0, 0, v190.toNat]
def k0_off19 (d0 : Dev nD) : Fin 3 → Nat :=
  let c0_i32_155 : BitVec 32 := 0#32
  let c512_i32_159 : BitVec 32 := 512#32
  let c1_i32_152 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v196 : BitVec 32 := Scalar.subi c1_i32_152 v2
  let c1024_i32_153 : BitVec 32 := 1024#32
  let v197 : BitVec 32 := Scalar.muli v196 c1024_i32_153
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c256_i32_154 : BitVec 32 := 256#32
  let v198 : BitVec 32 := Scalar.muli v23 c256_i32_154
  let v199 : BitVec 32 := Scalar.addi v197 v198
  ![0, 512, v199.toNat]
def k0_off20 (d0 : Dev nD) : Fin 3 → Nat :=
  let c0_i32_162 : BitVec 32 := 0#32
  let c512_i32_166 : BitVec 32 := 512#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_160 : BitVec 32 := 1024#32
  let v205 : BitVec 32 := Scalar.muli v2 c1024_i32_160
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c256_i32_161 : BitVec 32 := 256#32
  let v206 : BitVec 32 := Scalar.muli v23 c256_i32_161
  let v207 : BitVec 32 := Scalar.addi v205 v206
  ![0, 512, v207.toNat]
def k0_off21 (d0 : Dev nD) : Fin 3 → Nat :=
  let c0_i32_170 : BitVec 32 := 0#32
  let c1024_i32_174 : BitVec 32 := 1024#32
  let c1_i32_167 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v213 : BitVec 32 := Scalar.subi c1_i32_167 v2
  let c1024_i32_168 : BitVec 32 := 1024#32
  let v214 : BitVec 32 := Scalar.muli v213 c1024_i32_168
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c256_i32_169 : BitVec 32 := 256#32
  let v215 : BitVec 32 := Scalar.muli v23 c256_i32_169
  let v216 : BitVec 32 := Scalar.addi v214 v215
  ![0, 1024, v216.toNat]
def k0_off22 (d0 : Dev nD) : Fin 3 → Nat :=
  let c0_i32_177 : BitVec 32 := 0#32
  let c1024_i32_181 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_175 : BitVec 32 := 1024#32
  let v222 : BitVec 32 := Scalar.muli v2 c1024_i32_175
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c256_i32_176 : BitVec 32 := 256#32
  let v223 : BitVec 32 := Scalar.muli v23 c256_i32_176
  let v224 : BitVec 32 := Scalar.addi v222 v223
  ![0, 1024, v224.toNat]
def k0_dev4 (d0 : Dev nD) : Nat :=
  let c0_i32_193 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_192 : BitVec 32 := 4#32
  let v240 : BitVec 32 := Scalar.muli v9 c4_i32_192
  let v241 : BitVec 32 := Scalar.addi c0_i32_193 v240
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_194 : BitVec 32 := 2#32
  let v242 : BitVec 32 := Scalar.muli v5 c2_i32_194
  let v243 : BitVec 32 := Scalar.addi v241 v242
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_195 : BitVec 32 := 1#32
  let v244 : BitVec 32 := Scalar.muli v8 c1_i32_195
  let v245 : BitVec 32 := Scalar.addi v243 v244
  v245.toNat
def k0_dev5 (d0 : Dev nD) : Nat :=
  let c0_i32_211 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_210 : BitVec 32 := 4#32
  let v262 : BitVec 32 := Scalar.muli v9 c4_i32_210
  let v263 : BitVec 32 := Scalar.addi c0_i32_211 v262
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_212 : BitVec 32 := 2#32
  let v264 : BitVec 32 := Scalar.muli v5 c2_i32_212
  let v265 : BitVec 32 := Scalar.addi v263 v264
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_213 : BitVec 32 := 1#32
  let v266 : BitVec 32 := Scalar.muli v8 c1_i32_213
  let v267 : BitVec 32 := Scalar.addi v265 v266
  v267.toNat
def k0_dev6 (d0 : Dev nD) : Nat :=
  let c0_i32_229 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_228 : BitVec 32 := 4#32
  let v284 : BitVec 32 := Scalar.muli v9 c4_i32_228
  let v285 : BitVec 32 := Scalar.addi c0_i32_229 v284
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_230 : BitVec 32 := 2#32
  let v286 : BitVec 32 := Scalar.muli v5 c2_i32_230
  let v287 : BitVec 32 := Scalar.addi v285 v286
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_231 : BitVec 32 := 1#32
  let v288 : BitVec 32 := Scalar.muli v8 c1_i32_231
  let v289 : BitVec 32 := Scalar.addi v287 v288
  v289.toNat
def k0_dev7 (d0 : Dev nD) : Nat :=
  let c0_i32_247 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_246 : BitVec 32 := 4#32
  let v306 : BitVec 32 := Scalar.muli v9 c4_i32_246
  let v307 : BitVec 32 := Scalar.addi c0_i32_247 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_248 : BitVec 32 := 2#32
  let v308 : BitVec 32 := Scalar.muli v5 c2_i32_248
  let v309 : BitVec 32 := Scalar.addi v307 v308
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_249 : BitVec 32 := 1#32
  let v310 : BitVec 32 := Scalar.muli v8 c1_i32_249
  let v311 : BitVec 32 := Scalar.addi v309 v310
  v311.toNat
def k0_dev8 (d0 : Dev nD) : Nat :=
  let c0_i32_265 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_264 : BitVec 32 := 4#32
  let v328 : BitVec 32 := Scalar.muli v9 c4_i32_264
  let v329 : BitVec 32 := Scalar.addi c0_i32_265 v328
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_266 : BitVec 32 := 2#32
  let v330 : BitVec 32 := Scalar.muli v5 c2_i32_266
  let v331 : BitVec 32 := Scalar.addi v329 v330
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_267 : BitVec 32 := 1#32
  let v332 : BitVec 32 := Scalar.muli v8 c1_i32_267
  let v333 : BitVec 32 := Scalar.addi v331 v332
  v333.toNat
def k0_dev9 (d0 : Dev nD) : Nat :=
  let c0_i32_283 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_282 : BitVec 32 := 4#32
  let v350 : BitVec 32 := Scalar.muli v9 c4_i32_282
  let v351 : BitVec 32 := Scalar.addi c0_i32_283 v350
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_284 : BitVec 32 := 2#32
  let v352 : BitVec 32 := Scalar.muli v5 c2_i32_284
  let v353 : BitVec 32 := Scalar.addi v351 v352
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_285 : BitVec 32 := 1#32
  let v354 : BitVec 32 := Scalar.muli v8 c1_i32_285
  let v355 : BitVec 32 := Scalar.addi v353 v354
  v355.toNat
def k0_dev10 (d0 : Dev nD) : Nat :=
  let c0_i32_301 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_300 : BitVec 32 := 4#32
  let v372 : BitVec 32 := Scalar.muli v9 c4_i32_300
  let v373 : BitVec 32 := Scalar.addi c0_i32_301 v372
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_302 : BitVec 32 := 2#32
  let v374 : BitVec 32 := Scalar.muli v5 c2_i32_302
  let v375 : BitVec 32 := Scalar.addi v373 v374
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_303 : BitVec 32 := 1#32
  let v376 : BitVec 32 := Scalar.muli v8 c1_i32_303
  let v377 : BitVec 32 := Scalar.addi v375 v376
  v377.toNat
def k0_dev11 (d0 : Dev nD) : Nat :=
  let c0_i32_319 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_318 : BitVec 32 := 4#32
  let v394 : BitVec 32 := Scalar.muli v9 c4_i32_318
  let v395 : BitVec 32 := Scalar.addi c0_i32_319 v394
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_320 : BitVec 32 := 2#32
  let v396 : BitVec 32 := Scalar.muli v5 c2_i32_320
  let v397 : BitVec 32 := Scalar.addi v395 v396
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_321 : BitVec 32 := 1#32
  let v398 : BitVec 32 := Scalar.muli v8 c1_i32_321
  let v399 : BitVec 32 := Scalar.addi v397 v398
  v399.toNat
def k0_dev12 (d0 : Dev nD) : Nat :=
  let c0_i32_338 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_337 : BitVec 32 := 4#32
  let v416 : BitVec 32 := Scalar.muli v9 c4_i32_337
  let v417 : BitVec 32 := Scalar.addi c0_i32_338 v416
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_339 : BitVec 32 := 2#32
  let v418 : BitVec 32 := Scalar.muli v5 c2_i32_339
  let v419 : BitVec 32 := Scalar.addi v417 v418
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_340 : BitVec 32 := 1#32
  let v420 : BitVec 32 := Scalar.muli v8 c1_i32_340
  let v421 : BitVec 32 := Scalar.addi v419 v420
  v421.toNat
def k0_dev13 (d0 : Dev nD) : Nat :=
  let c0_i32_357 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_356 : BitVec 32 := 4#32
  let v438 : BitVec 32 := Scalar.muli v9 c4_i32_356
  let v439 : BitVec 32 := Scalar.addi c0_i32_357 v438
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_358 : BitVec 32 := 2#32
  let v440 : BitVec 32 := Scalar.muli v5 c2_i32_358
  let v441 : BitVec 32 := Scalar.addi v439 v440
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_359 : BitVec 32 := 1#32
  let v442 : BitVec 32 := Scalar.muli v8 c1_i32_359
  let v443 : BitVec 32 := Scalar.addi v441 v442
  v443.toNat
def k0_dev14 (d0 : Dev nD) : Nat :=
  let c0_i32_376 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_375 : BitVec 32 := 4#32
  let v460 : BitVec 32 := Scalar.muli v9 c4_i32_375
  let v461 : BitVec 32 := Scalar.addi c0_i32_376 v460
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_377 : BitVec 32 := 2#32
  let v462 : BitVec 32 := Scalar.muli v5 c2_i32_377
  let v463 : BitVec 32 := Scalar.addi v461 v462
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_378 : BitVec 32 := 1#32
  let v464 : BitVec 32 := Scalar.muli v8 c1_i32_378
  let v465 : BitVec 32 := Scalar.addi v463 v464
  v465.toNat
def k0_off23 (d0 : Dev nD) : Fin 3 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v492 : Index := Scalar.indexCast v13
  let c0_402 : Index := 0#32
  let c0_403 : Index := 0#32
  ![v492.toNat, 0, 0]
def k0_off24 (d0 : Dev nD) : Fin 3 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_410 : BitVec 32 := 0#32
  let c0_i32_411 : BitVec 32 := 0#32
  ![v13.toNat, 0, 0]
def k0_dev15 (d0 : Dev nD) : Nat :=
  let c0_i32_407 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_406 : BitVec 32 := 4#32
  let v496 : BitVec 32 := Scalar.muli v2 c4_i32_406
  let v497 : BitVec 32 := Scalar.addi c0_i32_407 v496
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_408 : BitVec 32 := 2#32
  let v498 : BitVec 32 := Scalar.muli v5 c2_i32_408
  let v499 : BitVec 32 := Scalar.addi v497 v498
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_409 : BitVec 32 := 1#32
  let v500 : BitVec 32 := Scalar.muli v10 c1_i32_409
  let v501 : BitVec 32 := Scalar.addi v499 v500
  v501.toNat
def k0_dev16 (d0 : Dev nD) : Nat :=
  let c0_i32_417 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_416 : BitVec 32 := 4#32
  let v510 : BitVec 32 := Scalar.muli v2 c4_i32_416
  let v511 : BitVec 32 := Scalar.addi c0_i32_417 v510
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_418 : BitVec 32 := 2#32
  let v512 : BitVec 32 := Scalar.muli v11 c2_i32_418
  let v513 : BitVec 32 := Scalar.addi v511 v512
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_419 : BitVec 32 := 1#32
  let v514 : BitVec 32 := Scalar.muli v8 c1_i32_419
  let v515 : BitVec 32 := Scalar.addi v513 v514
  v515.toNat
def k0_off25 (d0 : Dev nD) : Fin 3 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v544 : Index := Scalar.indexCast v13
  let c512_443 : Index := 512#32
  let c0_444 : Index := 0#32
  ![v544.toNat, 512, 0]
def k0_off26 (d0 : Dev nD) : Fin 3 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32_451 : BitVec 32 := 512#32
  let c0_i32_452 : BitVec 32 := 0#32
  ![v13.toNat, 512, 0]
def k0_dev17 (d0 : Dev nD) : Nat :=
  let c0_i32_448 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_447 : BitVec 32 := 4#32
  let v548 : BitVec 32 := Scalar.muli v2 c4_i32_447
  let v549 : BitVec 32 := Scalar.addi c0_i32_448 v548
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_449 : BitVec 32 := 2#32
  let v550 : BitVec 32 := Scalar.muli v5 c2_i32_449
  let v551 : BitVec 32 := Scalar.addi v549 v550
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_450 : BitVec 32 := 1#32
  let v552 : BitVec 32 := Scalar.muli v10 c1_i32_450
  let v553 : BitVec 32 := Scalar.addi v551 v552
  v553.toNat
def k0_dev18 (d0 : Dev nD) : Nat :=
  let c0_i32_458 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_457 : BitVec 32 := 4#32
  let v562 : BitVec 32 := Scalar.muli v2 c4_i32_457
  let v563 : BitVec 32 := Scalar.addi c0_i32_458 v562
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_459 : BitVec 32 := 2#32
  let v564 : BitVec 32 := Scalar.muli v11 c2_i32_459
  let v565 : BitVec 32 := Scalar.addi v563 v564
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_460 : BitVec 32 := 1#32
  let v566 : BitVec 32 := Scalar.muli v8 c1_i32_460
  let v567 : BitVec 32 := Scalar.addi v565 v566
  v567.toNat
def k0_off27 (d0 : Dev nD) : Fin 3 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v620 : Index := Scalar.indexCast v13
  let c1024_504 : Index := 1024#32
  let c0_505 : Index := 0#32
  ![v620.toNat, 1024, 0]
def k0_off28 (d0 : Dev nD) : Fin 3 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_512 : BitVec 32 := 1024#32
  let c0_i32_513 : BitVec 32 := 0#32
  ![v13.toNat, 1024, 0]
def k0_dev19 (d0 : Dev nD) : Nat :=
  let c0_i32_509 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_508 : BitVec 32 := 4#32
  let v624 : BitVec 32 := Scalar.muli v2 c4_i32_508
  let v625 : BitVec 32 := Scalar.addi c0_i32_509 v624
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_510 : BitVec 32 := 2#32
  let v626 : BitVec 32 := Scalar.muli v5 c2_i32_510
  let v627 : BitVec 32 := Scalar.addi v625 v626
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_511 : BitVec 32 := 1#32
  let v628 : BitVec 32 := Scalar.muli v10 c1_i32_511
  let v629 : BitVec 32 := Scalar.addi v627 v628
  v629.toNat
def k0_dev20 (d0 : Dev nD) : Nat :=
  let c0_i32_519 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_518 : BitVec 32 := 4#32
  let v638 : BitVec 32 := Scalar.muli v2 c4_i32_518
  let v639 : BitVec 32 := Scalar.addi c0_i32_519 v638
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_520 : BitVec 32 := 2#32
  let v640 : BitVec 32 := Scalar.muli v11 c2_i32_520
  let v641 : BitVec 32 := Scalar.addi v639 v640
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_521 : BitVec 32 := 1#32
  let v642 : BitVec 32 := Scalar.muli v8 c1_i32_521
  let v643 : BitVec 32 := Scalar.addi v641 v642
  v643.toNat
def k0_off29 (d0 : Dev nD) : Fin 3 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v696 : Index := Scalar.indexCast v13
  let c1536_565 : Index := 1536#32
  let c0_566 : Index := 0#32
  ![v696.toNat, 1536, 0]
def k0_off30 (d0 : Dev nD) : Fin 3 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1536_i32_573 : BitVec 32 := 1536#32
  let c0_i32_574 : BitVec 32 := 0#32
  ![v13.toNat, 1536, 0]
def k0_dev21 (d0 : Dev nD) : Nat :=
  let c0_i32_570 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_569 : BitVec 32 := 4#32
  let v700 : BitVec 32 := Scalar.muli v2 c4_i32_569
  let v701 : BitVec 32 := Scalar.addi c0_i32_570 v700
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_571 : BitVec 32 := 2#32
  let v702 : BitVec 32 := Scalar.muli v5 c2_i32_571
  let v703 : BitVec 32 := Scalar.addi v701 v702
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_572 : BitVec 32 := 1#32
  let v704 : BitVec 32 := Scalar.muli v10 c1_i32_572
  let v705 : BitVec 32 := Scalar.addi v703 v704
  v705.toNat
def k0_dev22 (d0 : Dev nD) : Nat :=
  let c0_i32_580 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_579 : BitVec 32 := 4#32
  let v714 : BitVec 32 := Scalar.muli v2 c4_i32_579
  let v715 : BitVec 32 := Scalar.addi c0_i32_580 v714
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_581 : BitVec 32 := 2#32
  let v716 : BitVec 32 := Scalar.muli v11 c2_i32_581
  let v717 : BitVec 32 := Scalar.addi v715 v716
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_582 : BitVec 32 := 1#32
  let v718 : BitVec 32 := Scalar.muli v8 c1_i32_582
  let v719 : BitVec 32 := Scalar.addi v717 v718
  v719.toNat
def k0_off31 (d0 : Dev nD) : Fin 3 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v772 : Index := Scalar.indexCast v13
  let c2048_626 : Index := 2048#32
  let c0_627 : Index := 0#32
  ![v772.toNat, 2048, 0]
def k0_off32 (d0 : Dev nD) : Fin 3 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c2048_i32_634 : BitVec 32 := 2048#32
  let c0_i32_635 : BitVec 32 := 0#32
  ![v13.toNat, 2048, 0]
def k0_dev23 (d0 : Dev nD) : Nat :=
  let c0_i32_631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_630 : BitVec 32 := 4#32
  let v776 : BitVec 32 := Scalar.muli v2 c4_i32_630
  let v777 : BitVec 32 := Scalar.addi c0_i32_631 v776
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_632 : BitVec 32 := 2#32
  let v778 : BitVec 32 := Scalar.muli v5 c2_i32_632
  let v779 : BitVec 32 := Scalar.addi v777 v778
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_633 : BitVec 32 := 1#32
  let v780 : BitVec 32 := Scalar.muli v10 c1_i32_633
  let v781 : BitVec 32 := Scalar.addi v779 v780
  v781.toNat
def k0_dev24 (d0 : Dev nD) : Nat :=
  let c0_i32_641 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_640 : BitVec 32 := 4#32
  let v790 : BitVec 32 := Scalar.muli v2 c4_i32_640
  let v791 : BitVec 32 := Scalar.addi c0_i32_641 v790
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_642 : BitVec 32 := 2#32
  let v792 : BitVec 32 := Scalar.muli v11 c2_i32_642
  let v793 : BitVec 32 := Scalar.addi v791 v792
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_643 : BitVec 32 := 1#32
  let v794 : BitVec 32 := Scalar.muli v8 c1_i32_643
  let v795 : BitVec 32 := Scalar.addi v793 v794
  v795.toNat
def k0_off33 (d0 : Dev nD) : Fin 3 → Nat :=
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_7 v5
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let v16 : BitVec 32 := Scalar.addi v14 v15
  let c1536_i32_674 : BitVec 32 := 1536#32
  let c128_i32 : BitVec 32 := 128#32
  ![v16.toNat, 1536, 128]
def k0_dev25 (d0 : Dev nD) : Nat :=
  let c0_i32_671 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_670 : BitVec 32 := 4#32
  let v828 : BitVec 32 := Scalar.muli v2 c4_i32_670
  let v829 : BitVec 32 := Scalar.addi c0_i32_671 v828
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_672 : BitVec 32 := 2#32
  let v830 : BitVec 32 := Scalar.muli v11 c2_i32_672
  let v831 : BitVec 32 := Scalar.addi v829 v830
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_673 : BitVec 32 := 1#32
  let v832 : BitVec 32 := Scalar.muli v8 c1_i32_673
  let v833 : BitVec 32 := Scalar.addi v831 v832
  v833.toNat
def k0_off34 (d0 : Dev nD) : Fin 3 → Nat :=
  let c2_i32_10 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c1536_i32_683 : BitVec 32 := 1536#32
  let c0_i32_684 : BitVec 32 := 0#32
  ![v19.toNat, 1536, 0]
def k0_dev26 (d0 : Dev nD) : Nat :=
  let c0_i32_680 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_679 : BitVec 32 := 4#32
  let v842 : BitVec 32 := Scalar.muli v2 c4_i32_679
  let v843 : BitVec 32 := Scalar.addi c0_i32_680 v842
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_681 : BitVec 32 := 2#32
  let v844 : BitVec 32 := Scalar.muli v5 c2_i32_681
  let v845 : BitVec 32 := Scalar.addi v843 v844
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_682 : BitVec 32 := 1#32
  let v846 : BitVec 32 := Scalar.muli v10 c1_i32_682
  let v847 : BitVec 32 := Scalar.addi v845 v846
  v847.toNat
def k0_off35 (d0 : Dev nD) : Fin 3 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v876 : Index := Scalar.indexCast v13
  let c2560_706 : Index := 2560#32
  let c0_707 : Index := 0#32
  ![v876.toNat, 2560, 0]
def k0_off36 (d0 : Dev nD) : Fin 3 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c2560_i32_714 : BitVec 32 := 2560#32
  let c0_i32_715 : BitVec 32 := 0#32
  ![v13.toNat, 2560, 0]
def k0_dev27 (d0 : Dev nD) : Nat :=
  let c0_i32_711 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_710 : BitVec 32 := 4#32
  let v880 : BitVec 32 := Scalar.muli v2 c4_i32_710
  let v881 : BitVec 32 := Scalar.addi c0_i32_711 v880
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_712 : BitVec 32 := 2#32
  let v882 : BitVec 32 := Scalar.muli v5 c2_i32_712
  let v883 : BitVec 32 := Scalar.addi v881 v882
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_713 : BitVec 32 := 1#32
  let v884 : BitVec 32 := Scalar.muli v10 c1_i32_713
  let v885 : BitVec 32 := Scalar.addi v883 v884
  v885.toNat
def k0_dev28 (d0 : Dev nD) : Nat :=
  let c0_i32_721 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_720 : BitVec 32 := 4#32
  let v894 : BitVec 32 := Scalar.muli v2 c4_i32_720
  let v895 : BitVec 32 := Scalar.addi c0_i32_721 v894
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_722 : BitVec 32 := 2#32
  let v896 : BitVec 32 := Scalar.muli v11 c2_i32_722
  let v897 : BitVec 32 := Scalar.addi v895 v896
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_723 : BitVec 32 := 1#32
  let v898 : BitVec 32 := Scalar.muli v8 c1_i32_723
  let v899 : BitVec 32 := Scalar.addi v897 v898
  v899.toNat
def k0_off37 (d0 : Dev nD) : Fin 3 → Nat :=
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_7 v5
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let v16 : BitVec 32 := Scalar.addi v14 v15
  let c2048_i32_754 : BitVec 32 := 2048#32
  let c128_i32_755 : BitVec 32 := 128#32
  ![v16.toNat, 2048, 128]
def k0_dev29 (d0 : Dev nD) : Nat :=
  let c0_i32_751 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_750 : BitVec 32 := 4#32
  let v932 : BitVec 32 := Scalar.muli v2 c4_i32_750
  let v933 : BitVec 32 := Scalar.addi c0_i32_751 v932
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_752 : BitVec 32 := 2#32
  let v934 : BitVec 32 := Scalar.muli v11 c2_i32_752
  let v935 : BitVec 32 := Scalar.addi v933 v934
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_753 : BitVec 32 := 1#32
  let v936 : BitVec 32 := Scalar.muli v8 c1_i32_753
  let v937 : BitVec 32 := Scalar.addi v935 v936
  v937.toNat
def k0_off38 (d0 : Dev nD) : Fin 3 → Nat :=
  let c2_i32_10 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c2048_i32_764 : BitVec 32 := 2048#32
  let c0_i32_765 : BitVec 32 := 0#32
  ![v19.toNat, 2048, 0]
def k0_dev30 (d0 : Dev nD) : Nat :=
  let c0_i32_761 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_760 : BitVec 32 := 4#32
  let v946 : BitVec 32 := Scalar.muli v2 c4_i32_760
  let v947 : BitVec 32 := Scalar.addi c0_i32_761 v946
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_762 : BitVec 32 := 2#32
  let v948 : BitVec 32 := Scalar.muli v5 c2_i32_762
  let v949 : BitVec 32 := Scalar.addi v947 v948
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_763 : BitVec 32 := 1#32
  let v950 : BitVec 32 := Scalar.muli v10 c1_i32_763
  let v951 : BitVec 32 := Scalar.addi v949 v950
  v951.toNat
def k0_off39 (d0 : Dev nD) : Fin 3 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v1024 : Index := Scalar.indexCast v13
  let c3072_834 : Index := 3072#32
  let c0_835 : Index := 0#32
  ![v1024.toNat, 3072, 0]
def k0_off40 (d0 : Dev nD) : Fin 3 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c3072_i32_842 : BitVec 32 := 3072#32
  let c0_i32_843 : BitVec 32 := 0#32
  ![v13.toNat, 3072, 0]
def k0_dev31 (d0 : Dev nD) : Nat :=
  let c0_i32_839 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_838 : BitVec 32 := 4#32
  let v1028 : BitVec 32 := Scalar.muli v2 c4_i32_838
  let v1029 : BitVec 32 := Scalar.addi c0_i32_839 v1028
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_840 : BitVec 32 := 2#32
  let v1030 : BitVec 32 := Scalar.muli v5 c2_i32_840
  let v1031 : BitVec 32 := Scalar.addi v1029 v1030
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_841 : BitVec 32 := 1#32
  let v1032 : BitVec 32 := Scalar.muli v10 c1_i32_841
  let v1033 : BitVec 32 := Scalar.addi v1031 v1032
  v1033.toNat
def k0_dev32 (d0 : Dev nD) : Nat :=
  let c0_i32_849 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_848 : BitVec 32 := 4#32
  let v1042 : BitVec 32 := Scalar.muli v2 c4_i32_848
  let v1043 : BitVec 32 := Scalar.addi c0_i32_849 v1042
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_850 : BitVec 32 := 2#32
  let v1044 : BitVec 32 := Scalar.muli v11 c2_i32_850
  let v1045 : BitVec 32 := Scalar.addi v1043 v1044
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_851 : BitVec 32 := 1#32
  let v1046 : BitVec 32 := Scalar.muli v8 c1_i32_851
  let v1047 : BitVec 32 := Scalar.addi v1045 v1046
  v1047.toNat
def k0_off41 (d0 : Dev nD) : Fin 3 → Nat :=
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_7 v5
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let v16 : BitVec 32 := Scalar.addi v14 v15
  let c2560_i32_882 : BitVec 32 := 2560#32
  let c128_i32_883 : BitVec 32 := 128#32
  ![v16.toNat, 2560, 128]
def k0_dev33 (d0 : Dev nD) : Nat :=
  let c0_i32_879 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_878 : BitVec 32 := 4#32
  let v1080 : BitVec 32 := Scalar.muli v2 c4_i32_878
  let v1081 : BitVec 32 := Scalar.addi c0_i32_879 v1080
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_880 : BitVec 32 := 2#32
  let v1082 : BitVec 32 := Scalar.muli v11 c2_i32_880
  let v1083 : BitVec 32 := Scalar.addi v1081 v1082
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_881 : BitVec 32 := 1#32
  let v1084 : BitVec 32 := Scalar.muli v8 c1_i32_881
  let v1085 : BitVec 32 := Scalar.addi v1083 v1084
  v1085.toNat
def k0_off42 (d0 : Dev nD) : Fin 3 → Nat :=
  let c2_i32_10 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c2560_i32_892 : BitVec 32 := 2560#32
  let c0_i32_893 : BitVec 32 := 0#32
  ![v19.toNat, 2560, 0]
def k0_dev34 (d0 : Dev nD) : Nat :=
  let c0_i32_889 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_888 : BitVec 32 := 4#32
  let v1094 : BitVec 32 := Scalar.muli v2 c4_i32_888
  let v1095 : BitVec 32 := Scalar.addi c0_i32_889 v1094
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_890 : BitVec 32 := 2#32
  let v1096 : BitVec 32 := Scalar.muli v5 c2_i32_890
  let v1097 : BitVec 32 := Scalar.addi v1095 v1096
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_891 : BitVec 32 := 1#32
  let v1098 : BitVec 32 := Scalar.muli v10 c1_i32_891
  let v1099 : BitVec 32 := Scalar.addi v1097 v1098
  v1099.toNat
def k0_off43 (d0 : Dev nD) : Fin 3 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v1172 : Index := Scalar.indexCast v13
  let c3584_963 : Index := 3584#32
  let c0_964 : Index := 0#32
  ![v1172.toNat, 3584, 0]
def k0_off44 (d0 : Dev nD) : Fin 3 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c3584_i32_971 : BitVec 32 := 3584#32
  let c0_i32_972 : BitVec 32 := 0#32
  ![v13.toNat, 3584, 0]
def k0_dev35 (d0 : Dev nD) : Nat :=
  let c0_i32_968 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_967 : BitVec 32 := 4#32
  let v1176 : BitVec 32 := Scalar.muli v2 c4_i32_967
  let v1177 : BitVec 32 := Scalar.addi c0_i32_968 v1176
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_969 : BitVec 32 := 2#32
  let v1178 : BitVec 32 := Scalar.muli v5 c2_i32_969
  let v1179 : BitVec 32 := Scalar.addi v1177 v1178
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_970 : BitVec 32 := 1#32
  let v1180 : BitVec 32 := Scalar.muli v10 c1_i32_970
  let v1181 : BitVec 32 := Scalar.addi v1179 v1180
  v1181.toNat
def k0_dev36 (d0 : Dev nD) : Nat :=
  let c0_i32_978 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_977 : BitVec 32 := 4#32
  let v1190 : BitVec 32 := Scalar.muli v2 c4_i32_977
  let v1191 : BitVec 32 := Scalar.addi c0_i32_978 v1190
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_979 : BitVec 32 := 2#32
  let v1192 : BitVec 32 := Scalar.muli v11 c2_i32_979
  let v1193 : BitVec 32 := Scalar.addi v1191 v1192
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_980 : BitVec 32 := 1#32
  let v1194 : BitVec 32 := Scalar.muli v8 c1_i32_980
  let v1195 : BitVec 32 := Scalar.addi v1193 v1194
  v1195.toNat
def k0_off45 (d0 : Dev nD) : Fin 3 → Nat :=
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_7 v5
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let v16 : BitVec 32 := Scalar.addi v14 v15
  let c3072_i32_1011 : BitVec 32 := 3072#32
  let c128_i32_1012 : BitVec 32 := 128#32
  ![v16.toNat, 3072, 128]
def k0_dev37 (d0 : Dev nD) : Nat :=
  let c0_i32_1008 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1007 : BitVec 32 := 4#32
  let v1228 : BitVec 32 := Scalar.muli v2 c4_i32_1007
  let v1229 : BitVec 32 := Scalar.addi c0_i32_1008 v1228
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1009 : BitVec 32 := 2#32
  let v1230 : BitVec 32 := Scalar.muli v11 c2_i32_1009
  let v1231 : BitVec 32 := Scalar.addi v1229 v1230
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1010 : BitVec 32 := 1#32
  let v1232 : BitVec 32 := Scalar.muli v8 c1_i32_1010
  let v1233 : BitVec 32 := Scalar.addi v1231 v1232
  v1233.toNat
def k0_off46 (d0 : Dev nD) : Fin 3 → Nat :=
  let c2_i32_10 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c3072_i32_1021 : BitVec 32 := 3072#32
  let c0_i32_1022 : BitVec 32 := 0#32
  ![v19.toNat, 3072, 0]
def k0_dev38 (d0 : Dev nD) : Nat :=
  let c0_i32_1018 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1017 : BitVec 32 := 4#32
  let v1242 : BitVec 32 := Scalar.muli v2 c4_i32_1017
  let v1243 : BitVec 32 := Scalar.addi c0_i32_1018 v1242
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1019 : BitVec 32 := 2#32
  let v1244 : BitVec 32 := Scalar.muli v5 c2_i32_1019
  let v1245 : BitVec 32 := Scalar.addi v1243 v1244
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1020 : BitVec 32 := 1#32
  let v1246 : BitVec 32 := Scalar.muli v10 c1_i32_1020
  let v1247 : BitVec 32 := Scalar.addi v1245 v1246
  v1247.toNat
def k0_off47 (d0 : Dev nD) : Fin 3 → Nat :=
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_7 v5
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let v16 : BitVec 32 := Scalar.addi v14 v15
  let c3584_i32_1099 : BitVec 32 := 3584#32
  let c128_i32_1100 : BitVec 32 := 128#32
  ![v16.toNat, 3584, 128]
def k0_dev39 (d0 : Dev nD) : Nat :=
  let c0_i32_1096 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1095 : BitVec 32 := 4#32
  let v1324 : BitVec 32 := Scalar.muli v2 c4_i32_1095
  let v1325 : BitVec 32 := Scalar.addi c0_i32_1096 v1324
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1097 : BitVec 32 := 2#32
  let v1326 : BitVec 32 := Scalar.muli v11 c2_i32_1097
  let v1327 : BitVec 32 := Scalar.addi v1325 v1326
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1098 : BitVec 32 := 1#32
  let v1328 : BitVec 32 := Scalar.muli v8 c1_i32_1098
  let v1329 : BitVec 32 := Scalar.addi v1327 v1328
  v1329.toNat
def k0_off48 (d0 : Dev nD) : Fin 3 → Nat :=
  let c2_i32_10 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c3584_i32_1109 : BitVec 32 := 3584#32
  let c0_i32_1110 : BitVec 32 := 0#32
  ![v19.toNat, 3584, 0]
def k0_dev40 (d0 : Dev nD) : Nat :=
  let c0_i32_1106 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1105 : BitVec 32 := 4#32
  let v1338 : BitVec 32 := Scalar.muli v2 c4_i32_1105
  let v1339 : BitVec 32 := Scalar.addi c0_i32_1106 v1338
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1107 : BitVec 32 := 2#32
  let v1340 : BitVec 32 := Scalar.muli v5 c2_i32_1107
  let v1341 : BitVec 32 := Scalar.addi v1339 v1340
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1108 : BitVec 32 := 1#32
  let v1342 : BitVec 32 := Scalar.muli v10 c1_i32_1108
  let v1343 : BitVec 32 := Scalar.addi v1341 v1342
  v1343.toNat
def k0_off49 (d0 : Dev nD) : Fin 3 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let v1372 : Index := Scalar.indexCast v23
  let c0_1132 : Index := 0#32
  let c0_1133 : Index := 0#32
  ![v1372.toNat, 0, 0]
def k0_off50 (d0 : Dev nD) : Fin 3 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let v1416 : Index := Scalar.indexCast v23
  let c512_1181 : Index := 512#32
  let c0_1182 : Index := 0#32
  ![v1416.toNat, 512, 0]
def k0_off51 (d0 : Dev nD) : Fin 3 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let v1460 : Index := Scalar.indexCast v23
  let c1024_1230 : Index := 1024#32
  let c0_1231 : Index := 0#32
  ![v1460.toNat, 1024, 0]

class Facts₀ : Prop where
  hamt_1 : (1#32 : BitVec 32).msb = false
  hamt_3 : (3#32 : BitVec 32).msb = false
  inb_S8_S1_0 : ∀ a, (![0] : Fin 1 → Nat) a + S1.size a ≤ S8.size a
  squeezes_S1_S_ : S1.Squeezes S_
  inb_S4096x256_S512x256_0_0 : ∀ a, (![0, 0] : Fin 2 → Nat) a + S512x256.size a ≤ S4096x256.size a
  squeezes_S1x512x256_S512x256 : S1x512x256.Squeezes S512x256
  inb_S8_S1_1 : ∀ a, (![1] : Fin 1 → Nat) a + S1.size a ≤ S8.size a
  inb_S4096x256_S512x256_512_0 : ∀ a, (![512, 0] : Fin 2 → Nat) a + S512x256.size a ≤ S4096x256.size a
  inb_S8_S1_2 : ∀ a, (![2] : Fin 1 → Nat) a + S1.size a ≤ S8.size a
  inb_S4096x256_S512x256_1024_0 : ∀ a, (![1024, 0] : Fin 2 → Nat) a + S512x256.size a ≤ S4096x256.size a
  inb_S8_S1_3 : ∀ a, (![3] : Fin 1 → Nat) a + S1.size a ≤ S8.size a
  inb_S4096x256_S512x256_1536_0 : ∀ a, (![1536, 0] : Fin 2 → Nat) a + S512x256.size a ≤ S4096x256.size a
  inb_S8_S1_4 : ∀ a, (![4] : Fin 1 → Nat) a + S1.size a ≤ S8.size a
  inb_S4096x256_S512x256_2048_0 : ∀ a, (![2048, 0] : Fin 2 → Nat) a + S512x256.size a ≤ S4096x256.size a
  inb_S8_S1_5 : ∀ a, (![5] : Fin 1 → Nat) a + S1.size a ≤ S8.size a
  inb_S4096x256_S512x256_2560_0 : ∀ a, (![2560, 0] : Fin 2 → Nat) a + S512x256.size a ≤ S4096x256.size a
  inb_S8_S1_6 : ∀ a, (![6] : Fin 1 → Nat) a + S1.size a ≤ S8.size a
  inb_S4096x256_S512x256_3072_0 : ∀ a, (![3072, 0] : Fin 2 → Nat) a + S512x256.size a ≤ S4096x256.size a
  inb_S8_S1_7 : ∀ a, (![7] : Fin 1 → Nat) a + S1.size a ≤ S8.size a
  inb_S4096x256_S512x256_3584_0 : ∀ a, (![3584, 0] : Fin 2 → Nat) a + S512x256.size a ≤ S4096x256.size a
  inb_S3_S1_0 : ∀ a, (![0] : Fin 1 → Nat) a + S1.size a ≤ S3.size a
  inb_S1536x256_S512x256_0_0 : ∀ a, (![0, 0] : Fin 2 → Nat) a + S512x256.size a ≤ S1536x256.size a
  inb_S3_S1_1 : ∀ a, (![1] : Fin 1 → Nat) a + S1.size a ≤ S3.size a
  inb_S1536x256_S512x256_512_0 : ∀ a, (![512, 0] : Fin 2 → Nat) a + S512x256.size a ≤ S1536x256.size a
  inb_S3_S1_2 : ∀ a, (![2] : Fin 1 → Nat) a + S1.size a ≤ S3.size a
  inb_S1536x256_S512x256_1024_0 : ∀ a, (![1024, 0] : Fin 2 → Nat) a + S512x256.size a ≤ S1536x256.size a
  h_S512x256 : 0 < S512x256.numel
  bitsLt_bf16_f32 : FTy.bits .bf16 < FTy.bits .f32
  shapeCasts_S512x256_S512x256 : S512x256.ShapeCasts S512x256
  packedbf16_S4096x256_S512x256_0_0 : (Rect.unit (s := S4096x256) ![0, 0] S512x256.size inb_S4096x256_S512x256_0_0).PackedRows (EltTy.packing .bf16)
  wordsbf16_S4096x256_S512x256_0_0 : (Rect.unit (s := S4096x256) ![0, 0] S512x256.size inb_S4096x256_S512x256_0_0).WholeWords (EltTy.packing .bf16)
  packedbf16_S4096x256_S512x256_512_0 : (Rect.unit (s := S4096x256) ![512, 0] S512x256.size inb_S4096x256_S512x256_512_0).PackedRows (EltTy.packing .bf16)
  wordsbf16_S4096x256_S512x256_512_0 : (Rect.unit (s := S4096x256) ![512, 0] S512x256.size inb_S4096x256_S512x256_512_0).WholeWords (EltTy.packing .bf16)
  packedbf16_S4096x256_S512x256_1024_0 : (Rect.unit (s := S4096x256) ![1024, 0] S512x256.size inb_S4096x256_S512x256_1024_0).PackedRows (EltTy.packing .bf16)
  wordsbf16_S4096x256_S512x256_1024_0 : (Rect.unit (s := S4096x256) ![1024, 0] S512x256.size inb_S4096x256_S512x256_1024_0).WholeWords (EltTy.packing .bf16)
  packedbf16_S4096x256_S512x256_1536_0 : (Rect.unit (s := S4096x256) ![1536, 0] S512x256.size inb_S4096x256_S512x256_1536_0).PackedRows (EltTy.packing .bf16)
  wordsbf16_S4096x256_S512x256_1536_0 : (Rect.unit (s := S4096x256) ![1536, 0] S512x256.size inb_S4096x256_S512x256_1536_0).WholeWords (EltTy.packing .bf16)
  packedbf16_S4096x256_S512x256_2048_0 : (Rect.unit (s := S4096x256) ![2048, 0] S512x256.size inb_S4096x256_S512x256_2048_0).PackedRows (EltTy.packing .bf16)
  wordsbf16_S4096x256_S512x256_2048_0 : (Rect.unit (s := S4096x256) ![2048, 0] S512x256.size inb_S4096x256_S512x256_2048_0).WholeWords (EltTy.packing .bf16)
  packedbf16_S4096x256_S512x256_2560_0 : (Rect.unit (s := S4096x256) ![2560, 0] S512x256.size inb_S4096x256_S512x256_2560_0).PackedRows (EltTy.packing .bf16)
  wordsbf16_S4096x256_S512x256_2560_0 : (Rect.unit (s := S4096x256) ![2560, 0] S512x256.size inb_S4096x256_S512x256_2560_0).WholeWords (EltTy.packing .bf16)
  packedbf16_S4096x256_S512x256_3072_0 : (Rect.unit (s := S4096x256) ![3072, 0] S512x256.size inb_S4096x256_S512x256_3072_0).PackedRows (EltTy.packing .bf16)
  wordsbf16_S4096x256_S512x256_3072_0 : (Rect.unit (s := S4096x256) ![3072, 0] S512x256.size inb_S4096x256_S512x256_3072_0).WholeWords (EltTy.packing .bf16)
  packedbf16_S4096x256_S512x256_3584_0 : (Rect.unit (s := S4096x256) ![3584, 0] S512x256.size inb_S4096x256_S512x256_3584_0).PackedRows (EltTy.packing .bf16)
  wordsbf16_S4096x256_S512x256_3584_0 : (Rect.unit (s := S4096x256) ![3584, 0] S512x256.size inb_S4096x256_S512x256_3584_0).WholeWords (EltTy.packing .bf16)
  packedbf16_S1536x256_S512x256_0_0 : (Rect.unit (s := S1536x256) ![0, 0] S512x256.size inb_S1536x256_S512x256_0_0).PackedRows (EltTy.packing .bf16)
  wordsbf16_S1536x256_S512x256_0_0 : (Rect.unit (s := S1536x256) ![0, 0] S512x256.size inb_S1536x256_S512x256_0_0).WholeWords (EltTy.packing .bf16)
  packedbf16_S1536x256_S512x256_512_0 : (Rect.unit (s := S1536x256) ![512, 0] S512x256.size inb_S1536x256_S512x256_512_0).PackedRows (EltTy.packing .bf16)
  wordsbf16_S1536x256_S512x256_512_0 : (Rect.unit (s := S1536x256) ![512, 0] S512x256.size inb_S1536x256_S512x256_512_0).WholeWords (EltTy.packing .bf16)
  packedbf16_S1536x256_S512x256_1024_0 : (Rect.unit (s := S1536x256) ![1024, 0] S512x256.size inb_S1536x256_S512x256_1024_0).PackedRows (EltTy.packing .bf16)
  wordsbf16_S1536x256_S512x256_1024_0 : (Rect.unit (s := S1536x256) ![1024, 0] S512x256.size inb_S1536x256_S512x256_1024_0).WholeWords (EltTy.packing .bf16)
  h_S1x512x256 : 0 < S1x512x256.numel
  shapeCasts_S1x512x256_S512x256 : S1x512x256.ShapeCasts S512x256
  shapeCasts_S512x256_S1x512x256 : S512x256.ShapeCasts S1x512x256
  squeezes_S1x512x128_S512x128 : S1x512x128.Squeezes S512x128
  inb_S8x4_S1x1_3_0 : ∀ a, (![3, 0] : Fin 2 → Nat) a + S1x1.size a ≤ S8x4.size a
  squeezes_S1x1_S_ : S1x1.Squeezes S_
  inb_S4096x1024_S512x256_1536_0 : ∀ a, (![1536, 0] : Fin 2 → Nat) a + S512x256.size a ≤ S4096x1024.size a
  inb_S4x4096x256_S1x512x256_0_1536_0 : ∀ a, (![0, 1536, 0] : Fin 3 → Nat) a + S1x512x256.size a ≤ S4x4096x256.size a
  wordsbf16_S4x4096x256_S1x512x256_0_1536_0 : (Rect.unit (s := S4x4096x256) ![0, 1536, 0] S1x512x256.size inb_S4x4096x256_S1x512x256_0_1536_0).WholeWords (EltTy.packing .bf16)
  wordsbf16_S4096x1024_S512x256_1536_0 : (Rect.unit (s := S4096x1024) ![1536, 0] S512x256.size inb_S4096x1024_S512x256_1536_0).WholeWords (EltTy.packing .bf16)
  inb_S8x4_S1x1_3_1 : ∀ a, (![3, 1] : Fin 2 → Nat) a + S1x1.size a ≤ S8x4.size a
  inb_S4096x1024_S512x256_1536_256 : ∀ a, (![1536, 256] : Fin 2 → Nat) a + S512x256.size a ≤ S4096x1024.size a
  inb_S4x4096x256_S1x512x256_1_1536_0 : ∀ a, (![1, 1536, 0] : Fin 3 → Nat) a + S1x512x256.size a ≤ S4x4096x256.size a
  wordsbf16_S4x4096x256_S1x512x256_1_1536_0 : (Rect.unit (s := S4x4096x256) ![1, 1536, 0] S1x512x256.size inb_S4x4096x256_S1x512x256_1_1536_0).WholeWords (EltTy.packing .bf16)
  wordsbf16_S4096x1024_S512x256_1536_256 : (Rect.unit (s := S4096x1024) ![1536, 256] S512x256.size inb_S4096x1024_S512x256_1536_256).WholeWords (EltTy.packing .bf16)
  inb_S8x4_S1x1_3_2 : ∀ a, (![3, 2] : Fin 2 → Nat) a + S1x1.size a ≤ S8x4.size a
  inb_S4096x1024_S512x256_1536_512 : ∀ a, (![1536, 512] : Fin 2 → Nat) a + S512x256.size a ≤ S4096x1024.size a
  inb_S4x4096x256_S1x512x256_2_1536_0 : ∀ a, (![2, 1536, 0] : Fin 3 → Nat) a + S1x512x256.size a ≤ S4x4096x256.size a
  wordsbf16_S4x4096x256_S1x512x256_2_1536_0 : (Rect.unit (s := S4x4096x256) ![2, 1536, 0] S1x512x256.size inb_S4x4096x256_S1x512x256_2_1536_0).WholeWords (EltTy.packing .bf16)
  wordsbf16_S4096x1024_S512x256_1536_512 : (Rect.unit (s := S4096x1024) ![1536, 512] S512x256.size inb_S4096x1024_S512x256_1536_512).WholeWords (EltTy.packing .bf16)
  inb_S8x4_S1x1_3_3 : ∀ a, (![3, 3] : Fin 2 → Nat) a + S1x1.size a ≤ S8x4.size a
  inb_S4096x1024_S512x256_1536_768 : ∀ a, (![1536, 768] : Fin 2 → Nat) a + S512x256.size a ≤ S4096x1024.size a
  inb_S4x4096x256_S1x512x256_3_1536_0 : ∀ a, (![3, 1536, 0] : Fin 3 → Nat) a + S1x512x256.size a ≤ S4x4096x256.size a
  wordsbf16_S4x4096x256_S1x512x256_3_1536_0 : (Rect.unit (s := S4x4096x256) ![3, 1536, 0] S1x512x256.size inb_S4x4096x256_S1x512x256_3_1536_0).WholeWords (EltTy.packing .bf16)
  wordsbf16_S4096x1024_S512x256_1536_768 : (Rect.unit (s := S4096x1024) ![1536, 768] S512x256.size inb_S4096x1024_S512x256_1536_768).WholeWords (EltTy.packing .bf16)
  inb_S8x4_S1x1_4_0 : ∀ a, (![4, 0] : Fin 2 → Nat) a + S1x1.size a ≤ S8x4.size a
  inb_S4096x1024_S512x256_2048_0 : ∀ a, (![2048, 0] : Fin 2 → Nat) a + S512x256.size a ≤ S4096x1024.size a
  inb_S4x4096x256_S1x512x256_0_2048_0 : ∀ a, (![0, 2048, 0] : Fin 3 → Nat) a + S1x512x256.size a ≤ S4x4096x256.size a
  wordsbf16_S4x4096x256_S1x512x256_0_2048_0 : (Rect.unit (s := S4x4096x256) ![0, 2048, 0] S1x512x256.size inb_S4x4096x256_S1x512x256_0_2048_0).WholeWords (EltTy.packing .bf16)
  wordsbf16_S4096x1024_S512x256_2048_0 : (Rect.unit (s := S4096x1024) ![2048, 0] S512x256.size inb_S4096x1024_S512x256_2048_0).WholeWords (EltTy.packing .bf16)
  inb_S8x4_S1x1_4_1 : ∀ a, (![4, 1] : Fin 2 → Nat) a + S1x1.size a ≤ S8x4.size a
  inb_S4096x1024_S512x256_2048_256 : ∀ a, (![2048, 256] : Fin 2 → Nat) a + S512x256.size a ≤ S4096x1024.size a
  inb_S4x4096x256_S1x512x256_1_2048_0 : ∀ a, (![1, 2048, 0] : Fin 3 → Nat) a + S1x512x256.size a ≤ S4x4096x256.size a
  wordsbf16_S4x4096x256_S1x512x256_1_2048_0 : (Rect.unit (s := S4x4096x256) ![1, 2048, 0] S1x512x256.size inb_S4x4096x256_S1x512x256_1_2048_0).WholeWords (EltTy.packing .bf16)
  wordsbf16_S4096x1024_S512x256_2048_256 : (Rect.unit (s := S4096x1024) ![2048, 256] S512x256.size inb_S4096x1024_S512x256_2048_256).WholeWords (EltTy.packing .bf16)
  inb_S8x4_S1x1_4_2 : ∀ a, (![4, 2] : Fin 2 → Nat) a + S1x1.size a ≤ S8x4.size a
  inb_S4096x1024_S512x256_2048_512 : ∀ a, (![2048, 512] : Fin 2 → Nat) a + S512x256.size a ≤ S4096x1024.size a
  inb_S4x4096x256_S1x512x256_2_2048_0 : ∀ a, (![2, 2048, 0] : Fin 3 → Nat) a + S1x512x256.size a ≤ S4x4096x256.size a
  wordsbf16_S4x4096x256_S1x512x256_2_2048_0 : (Rect.unit (s := S4x4096x256) ![2, 2048, 0] S1x512x256.size inb_S4x4096x256_S1x512x256_2_2048_0).WholeWords (EltTy.packing .bf16)
  wordsbf16_S4096x1024_S512x256_2048_512 : (Rect.unit (s := S4096x1024) ![2048, 512] S512x256.size inb_S4096x1024_S512x256_2048_512).WholeWords (EltTy.packing .bf16)
  inb_S8x4_S1x1_4_3 : ∀ a, (![4, 3] : Fin 2 → Nat) a + S1x1.size a ≤ S8x4.size a
  inb_S4096x1024_S512x256_2048_768 : ∀ a, (![2048, 768] : Fin 2 → Nat) a + S512x256.size a ≤ S4096x1024.size a
  inb_S4x4096x256_S1x512x256_3_2048_0 : ∀ a, (![3, 2048, 0] : Fin 3 → Nat) a + S1x512x256.size a ≤ S4x4096x256.size a
  wordsbf16_S4x4096x256_S1x512x256_3_2048_0 : (Rect.unit (s := S4x4096x256) ![3, 2048, 0] S1x512x256.size inb_S4x4096x256_S1x512x256_3_2048_0).WholeWords (EltTy.packing .bf16)
  wordsbf16_S4096x1024_S512x256_2048_768 : (Rect.unit (s := S4096x1024) ![2048, 768] S512x256.size inb_S4096x1024_S512x256_2048_768).WholeWords (EltTy.packing .bf16)
  inb_S8x4_S1x1_5_0 : ∀ a, (![5, 0] : Fin 2 → Nat) a + S1x1.size a ≤ S8x4.size a
  inb_S4096x1024_S512x256_2560_0 : ∀ a, (![2560, 0] : Fin 2 → Nat) a + S512x256.size a ≤ S4096x1024.size a
  inb_S4x4096x256_S1x512x256_0_2560_0 : ∀ a, (![0, 2560, 0] : Fin 3 → Nat) a + S1x512x256.size a ≤ S4x4096x256.size a
  wordsbf16_S4x4096x256_S1x512x256_0_2560_0 : (Rect.unit (s := S4x4096x256) ![0, 2560, 0] S1x512x256.size inb_S4x4096x256_S1x512x256_0_2560_0).WholeWords (EltTy.packing .bf16)
  wordsbf16_S4096x1024_S512x256_2560_0 : (Rect.unit (s := S4096x1024) ![2560, 0] S512x256.size inb_S4096x1024_S512x256_2560_0).WholeWords (EltTy.packing .bf16)
  inb_S8x4_S1x1_5_1 : ∀ a, (![5, 1] : Fin 2 → Nat) a + S1x1.size a ≤ S8x4.size a
  inb_S4096x1024_S512x256_2560_256 : ∀ a, (![2560, 256] : Fin 2 → Nat) a + S512x256.size a ≤ S4096x1024.size a
  inb_S4x4096x256_S1x512x256_1_2560_0 : ∀ a, (![1, 2560, 0] : Fin 3 → Nat) a + S1x512x256.size a ≤ S4x4096x256.size a
  wordsbf16_S4x4096x256_S1x512x256_1_2560_0 : (Rect.unit (s := S4x4096x256) ![1, 2560, 0] S1x512x256.size inb_S4x4096x256_S1x512x256_1_2560_0).WholeWords (EltTy.packing .bf16)
  wordsbf16_S4096x1024_S512x256_2560_256 : (Rect.unit (s := S4096x1024) ![2560, 256] S512x256.size inb_S4096x1024_S512x256_2560_256).WholeWords (EltTy.packing .bf16)
  inb_S8x4_S1x1_5_2 : ∀ a, (![5, 2] : Fin 2 → Nat) a + S1x1.size a ≤ S8x4.size a
  inb_S4096x1024_S512x256_2560_512 : ∀ a, (![2560, 512] : Fin 2 → Nat) a + S512x256.size a ≤ S4096x1024.size a
  inb_S4x4096x256_S1x512x256_2_2560_0 : ∀ a, (![2, 2560, 0] : Fin 3 → Nat) a + S1x512x256.size a ≤ S4x4096x256.size a
  wordsbf16_S4x4096x256_S1x512x256_2_2560_0 : (Rect.unit (s := S4x4096x256) ![2, 2560, 0] S1x512x256.size inb_S4x4096x256_S1x512x256_2_2560_0).WholeWords (EltTy.packing .bf16)
  wordsbf16_S4096x1024_S512x256_2560_512 : (Rect.unit (s := S4096x1024) ![2560, 512] S512x256.size inb_S4096x1024_S512x256_2560_512).WholeWords (EltTy.packing .bf16)
  inb_S8x4_S1x1_5_3 : ∀ a, (![5, 3] : Fin 2 → Nat) a + S1x1.size a ≤ S8x4.size a
  inb_S4096x1024_S512x256_2560_768 : ∀ a, (![2560, 768] : Fin 2 → Nat) a + S512x256.size a ≤ S4096x1024.size a
  inb_S4x4096x256_S1x512x256_3_2560_0 : ∀ a, (![3, 2560, 0] : Fin 3 → Nat) a + S1x512x256.size a ≤ S4x4096x256.size a
  wordsbf16_S4x4096x256_S1x512x256_3_2560_0 : (Rect.unit (s := S4x4096x256) ![3, 2560, 0] S1x512x256.size inb_S4x4096x256_S1x512x256_3_2560_0).WholeWords (EltTy.packing .bf16)
  wordsbf16_S4096x1024_S512x256_2560_768 : (Rect.unit (s := S4096x1024) ![2560, 768] S512x256.size inb_S4096x1024_S512x256_2560_768).WholeWords (EltTy.packing .bf16)
  inb_S8x4_S1x1_0_0 : ∀ a, (![0, 0] : Fin 2 → Nat) a + S1x1.size a ≤ S8x4.size a
  inb_S4096x1024_S512x256_0_0 : ∀ a, (![0, 0] : Fin 2 → Nat) a + S512x256.size a ≤ S4096x1024.size a
  inb_S4x4096x256_S1x512x256_0_0_0 : ∀ a, (![0, 0, 0] : Fin 3 → Nat) a + S1x512x256.size a ≤ S4x4096x256.size a
  wordsbf16_S4x4096x256_S1x512x256_0_0_0 : (Rect.unit (s := S4x4096x256) ![0, 0, 0] S1x512x256.size inb_S4x4096x256_S1x512x256_0_0_0).WholeWords (EltTy.packing .bf16)
  wordsbf16_S4096x1024_S512x256_0_0 : (Rect.unit (s := S4096x1024) ![0, 0] S512x256.size inb_S4096x1024_S512x256_0_0).WholeWords (EltTy.packing .bf16)
  inb_S8x4_S1x1_0_1 : ∀ a, (![0, 1] : Fin 2 → Nat) a + S1x1.size a ≤ S8x4.size a
  inb_S4096x1024_S512x256_0_256 : ∀ a, (![0, 256] : Fin 2 → Nat) a + S512x256.size a ≤ S4096x1024.size a
  inb_S4x4096x256_S1x512x256_1_0_0 : ∀ a, (![1, 0, 0] : Fin 3 → Nat) a + S1x512x256.size a ≤ S4x4096x256.size a
  wordsbf16_S4x4096x256_S1x512x256_1_0_0 : (Rect.unit (s := S4x4096x256) ![1, 0, 0] S1x512x256.size inb_S4x4096x256_S1x512x256_1_0_0).WholeWords (EltTy.packing .bf16)
  wordsbf16_S4096x1024_S512x256_0_256 : (Rect.unit (s := S4096x1024) ![0, 256] S512x256.size inb_S4096x1024_S512x256_0_256).WholeWords (EltTy.packing .bf16)
  inb_S8x4_S1x1_0_2 : ∀ a, (![0, 2] : Fin 2 → Nat) a + S1x1.size a ≤ S8x4.size a
  inb_S4096x1024_S512x256_0_512 : ∀ a, (![0, 512] : Fin 2 → Nat) a + S512x256.size a ≤ S4096x1024.size a
  inb_S4x4096x256_S1x512x256_2_0_0 : ∀ a, (![2, 0, 0] : Fin 3 → Nat) a + S1x512x256.size a ≤ S4x4096x256.size a
  wordsbf16_S4x4096x256_S1x512x256_2_0_0 : (Rect.unit (s := S4x4096x256) ![2, 0, 0] S1x512x256.size inb_S4x4096x256_S1x512x256_2_0_0).WholeWords (EltTy.packing .bf16)
  wordsbf16_S4096x1024_S512x256_0_512 : (Rect.unit (s := S4096x1024) ![0, 512] S512x256.size inb_S4096x1024_S512x256_0_512).WholeWords (EltTy.packing .bf16)
  inb_S8x4_S1x1_0_3 : ∀ a, (![0, 3] : Fin 2 → Nat) a + S1x1.size a ≤ S8x4.size a
  inb_S4096x1024_S512x256_0_768 : ∀ a, (![0, 768] : Fin 2 → Nat) a + S512x256.size a ≤ S4096x1024.size a
  inb_S4x4096x256_S1x512x256_3_0_0 : ∀ a, (![3, 0, 0] : Fin 3 → Nat) a + S1x512x256.size a ≤ S4x4096x256.size a
  wordsbf16_S4x4096x256_S1x512x256_3_0_0 : (Rect.unit (s := S4x4096x256) ![3, 0, 0] S1x512x256.size inb_S4x4096x256_S1x512x256_3_0_0).WholeWords (EltTy.packing .bf16)
  wordsbf16_S4096x1024_S512x256_0_768 : (Rect.unit (s := S4096x1024) ![0, 768] S512x256.size inb_S4096x1024_S512x256_0_768).WholeWords (EltTy.packing .bf16)
  inb_S8x4_S1x1_1_0 : ∀ a, (![1, 0] : Fin 2 → Nat) a + S1x1.size a ≤ S8x4.size a
  inb_S4096x1024_S512x256_512_0 : ∀ a, (![512, 0] : Fin 2 → Nat) a + S512x256.size a ≤ S4096x1024.size a
  inb_S4x4096x256_S1x512x256_0_512_0 : ∀ a, (![0, 512, 0] : Fin 3 → Nat) a + S1x512x256.size a ≤ S4x4096x256.size a
  wordsbf16_S4x4096x256_S1x512x256_0_512_0 : (Rect.unit (s := S4x4096x256) ![0, 512, 0] S1x512x256.size inb_S4x4096x256_S1x512x256_0_512_0).WholeWords (EltTy.packing .bf16)
  wordsbf16_S4096x1024_S512x256_512_0 : (Rect.unit (s := S4096x1024) ![512, 0] S512x256.size inb_S4096x1024_S512x256_512_0).WholeWords (EltTy.packing .bf16)
  inb_S8x4_S1x1_1_1 : ∀ a, (![1, 1] : Fin 2 → Nat) a + S1x1.size a ≤ S8x4.size a
  inb_S4096x1024_S512x256_512_256 : ∀ a, (![512, 256] : Fin 2 → Nat) a + S512x256.size a ≤ S4096x1024.size a
  inb_S4x4096x256_S1x512x256_1_512_0 : ∀ a, (![1, 512, 0] : Fin 3 → Nat) a + S1x512x256.size a ≤ S4x4096x256.size a
  wordsbf16_S4x4096x256_S1x512x256_1_512_0 : (Rect.unit (s := S4x4096x256) ![1, 512, 0] S1x512x256.size inb_S4x4096x256_S1x512x256_1_512_0).WholeWords (EltTy.packing .bf16)
  wordsbf16_S4096x1024_S512x256_512_256 : (Rect.unit (s := S4096x1024) ![512, 256] S512x256.size inb_S4096x1024_S512x256_512_256).WholeWords (EltTy.packing .bf16)
  inb_S8x4_S1x1_1_2 : ∀ a, (![1, 2] : Fin 2 → Nat) a + S1x1.size a ≤ S8x4.size a
  inb_S4096x1024_S512x256_512_512 : ∀ a, (![512, 512] : Fin 2 → Nat) a + S512x256.size a ≤ S4096x1024.size a
  inb_S4x4096x256_S1x512x256_2_512_0 : ∀ a, (![2, 512, 0] : Fin 3 → Nat) a + S1x512x256.size a ≤ S4x4096x256.size a
  wordsbf16_S4x4096x256_S1x512x256_2_512_0 : (Rect.unit (s := S4x4096x256) ![2, 512, 0] S1x512x256.size inb_S4x4096x256_S1x512x256_2_512_0).WholeWords (EltTy.packing .bf16)
  wordsbf16_S4096x1024_S512x256_512_512 : (Rect.unit (s := S4096x1024) ![512, 512] S512x256.size inb_S4096x1024_S512x256_512_512).WholeWords (EltTy.packing .bf16)
  inb_S8x4_S1x1_1_3 : ∀ a, (![1, 3] : Fin 2 → Nat) a + S1x1.size a ≤ S8x4.size a
  inb_S4096x1024_S512x256_512_768 : ∀ a, (![512, 768] : Fin 2 → Nat) a + S512x256.size a ≤ S4096x1024.size a
  inb_S4x4096x256_S1x512x256_3_512_0 : ∀ a, (![3, 512, 0] : Fin 3 → Nat) a + S1x512x256.size a ≤ S4x4096x256.size a
  wordsbf16_S4x4096x256_S1x512x256_3_512_0 : (Rect.unit (s := S4x4096x256) ![3, 512, 0] S1x512x256.size inb_S4x4096x256_S1x512x256_3_512_0).WholeWords (EltTy.packing .bf16)
  wordsbf16_S4096x1024_S512x256_512_768 : (Rect.unit (s := S4096x1024) ![512, 768] S512x256.size inb_S4096x1024_S512x256_512_768).WholeWords (EltTy.packing .bf16)
  inb_S8x4_S1x1_2_0 : ∀ a, (![2, 0] : Fin 2 → Nat) a + S1x1.size a ≤ S8x4.size a
  inb_S4096x1024_S512x256_1024_0 : ∀ a, (![1024, 0] : Fin 2 → Nat) a + S512x256.size a ≤ S4096x1024.size a
  inb_S4x4096x256_S1x512x256_0_1024_0 : ∀ a, (![0, 1024, 0] : Fin 3 → Nat) a + S1x512x256.size a ≤ S4x4096x256.size a
  wordsbf16_S4x4096x256_S1x512x256_0_1024_0 : (Rect.unit (s := S4x4096x256) ![0, 1024, 0] S1x512x256.size inb_S4x4096x256_S1x512x256_0_1024_0).WholeWords (EltTy.packing .bf16)
  wordsbf16_S4096x1024_S512x256_1024_0 : (Rect.unit (s := S4096x1024) ![1024, 0] S512x256.size inb_S4096x1024_S512x256_1024_0).WholeWords (EltTy.packing .bf16)
  inb_S8x4_S1x1_2_1 : ∀ a, (![2, 1] : Fin 2 → Nat) a + S1x1.size a ≤ S8x4.size a
  inb_S4096x1024_S512x256_1024_256 : ∀ a, (![1024, 256] : Fin 2 → Nat) a + S512x256.size a ≤ S4096x1024.size a
  inb_S4x4096x256_S1x512x256_1_1024_0 : ∀ a, (![1, 1024, 0] : Fin 3 → Nat) a + S1x512x256.size a ≤ S4x4096x256.size a
  wordsbf16_S4x4096x256_S1x512x256_1_1024_0 : (Rect.unit (s := S4x4096x256) ![1, 1024, 0] S1x512x256.size inb_S4x4096x256_S1x512x256_1_1024_0).WholeWords (EltTy.packing .bf16)
  wordsbf16_S4096x1024_S512x256_1024_256 : (Rect.unit (s := S4096x1024) ![1024, 256] S512x256.size inb_S4096x1024_S512x256_1024_256).WholeWords (EltTy.packing .bf16)
  inb_S8x4_S1x1_2_2 : ∀ a, (![2, 2] : Fin 2 → Nat) a + S1x1.size a ≤ S8x4.size a
  inb_S4096x1024_S512x256_1024_512 : ∀ a, (![1024, 512] : Fin 2 → Nat) a + S512x256.size a ≤ S4096x1024.size a
  inb_S4x4096x256_S1x512x256_2_1024_0 : ∀ a, (![2, 1024, 0] : Fin 3 → Nat) a + S1x512x256.size a ≤ S4x4096x256.size a
  wordsbf16_S4x4096x256_S1x512x256_2_1024_0 : (Rect.unit (s := S4x4096x256) ![2, 1024, 0] S1x512x256.size inb_S4x4096x256_S1x512x256_2_1024_0).WholeWords (EltTy.packing .bf16)
  wordsbf16_S4096x1024_S512x256_1024_512 : (Rect.unit (s := S4096x1024) ![1024, 512] S512x256.size inb_S4096x1024_S512x256_1024_512).WholeWords (EltTy.packing .bf16)
  inb_S8x4_S1x1_2_3 : ∀ a, (![2, 3] : Fin 2 → Nat) a + S1x1.size a ≤ S8x4.size a
  inb_S4096x1024_S512x256_1024_768 : ∀ a, (![1024, 768] : Fin 2 → Nat) a + S512x256.size a ≤ S4096x1024.size a
  inb_S4x4096x256_S1x512x256_3_1024_0 : ∀ a, (![3, 1024, 0] : Fin 3 → Nat) a + S1x512x256.size a ≤ S4x4096x256.size a
  wordsbf16_S4x4096x256_S1x512x256_3_1024_0 : (Rect.unit (s := S4x4096x256) ![3, 1024, 0] S1x512x256.size inb_S4x4096x256_S1x512x256_3_1024_0).WholeWords (EltTy.packing .bf16)
  wordsbf16_S4096x1024_S512x256_1024_768 : (Rect.unit (s := S4096x1024) ![1024, 768] S512x256.size inb_S4096x1024_S512x256_1024_768).WholeWords (EltTy.packing .bf16)
  inb_S8x4_S1x1_6_0 : ∀ a, (![6, 0] : Fin 2 → Nat) a + S1x1.size a ≤ S8x4.size a
  inb_S4096x1024_S512x256_3072_0 : ∀ a, (![3072, 0] : Fin 2 → Nat) a + S512x256.size a ≤ S4096x1024.size a
  inb_S4x4096x256_S1x512x256_0_3072_0 : ∀ a, (![0, 3072, 0] : Fin 3 → Nat) a + S1x512x256.size a ≤ S4x4096x256.size a
  wordsbf16_S4x4096x256_S1x512x256_0_3072_0 : (Rect.unit (s := S4x4096x256) ![0, 3072, 0] S1x512x256.size inb_S4x4096x256_S1x512x256_0_3072_0).WholeWords (EltTy.packing .bf16)
  wordsbf16_S4096x1024_S512x256_3072_0 : (Rect.unit (s := S4096x1024) ![3072, 0] S512x256.size inb_S4096x1024_S512x256_3072_0).WholeWords (EltTy.packing .bf16)
  inb_S8x4_S1x1_6_1 : ∀ a, (![6, 1] : Fin 2 → Nat) a + S1x1.size a ≤ S8x4.size a
  inb_S4096x1024_S512x256_3072_256 : ∀ a, (![3072, 256] : Fin 2 → Nat) a + S512x256.size a ≤ S4096x1024.size a
  inb_S4x4096x256_S1x512x256_1_3072_0 : ∀ a, (![1, 3072, 0] : Fin 3 → Nat) a + S1x512x256.size a ≤ S4x4096x256.size a
  wordsbf16_S4x4096x256_S1x512x256_1_3072_0 : (Rect.unit (s := S4x4096x256) ![1, 3072, 0] S1x512x256.size inb_S4x4096x256_S1x512x256_1_3072_0).WholeWords (EltTy.packing .bf16)
  wordsbf16_S4096x1024_S512x256_3072_256 : (Rect.unit (s := S4096x1024) ![3072, 256] S512x256.size inb_S4096x1024_S512x256_3072_256).WholeWords (EltTy.packing .bf16)
  inb_S8x4_S1x1_6_2 : ∀ a, (![6, 2] : Fin 2 → Nat) a + S1x1.size a ≤ S8x4.size a
  inb_S4096x1024_S512x256_3072_512 : ∀ a, (![3072, 512] : Fin 2 → Nat) a + S512x256.size a ≤ S4096x1024.size a
  inb_S4x4096x256_S1x512x256_2_3072_0 : ∀ a, (![2, 3072, 0] : Fin 3 → Nat) a + S1x512x256.size a ≤ S4x4096x256.size a
  wordsbf16_S4x4096x256_S1x512x256_2_3072_0 : (Rect.unit (s := S4x4096x256) ![2, 3072, 0] S1x512x256.size inb_S4x4096x256_S1x512x256_2_3072_0).WholeWords (EltTy.packing .bf16)
  wordsbf16_S4096x1024_S512x256_3072_512 : (Rect.unit (s := S4096x1024) ![3072, 512] S512x256.size inb_S4096x1024_S512x256_3072_512).WholeWords (EltTy.packing .bf16)
  inb_S8x4_S1x1_6_3 : ∀ a, (![6, 3] : Fin 2 → Nat) a + S1x1.size a ≤ S8x4.size a
  inb_S4096x1024_S512x256_3072_768 : ∀ a, (![3072, 768] : Fin 2 → Nat) a + S512x256.size a ≤ S4096x1024.size a
  inb_S4x4096x256_S1x512x256_3_3072_0 : ∀ a, (![3, 3072, 0] : Fin 3 → Nat) a + S1x512x256.size a ≤ S4x4096x256.size a
  wordsbf16_S4x4096x256_S1x512x256_3_3072_0 : (Rect.unit (s := S4x4096x256) ![3, 3072, 0] S1x512x256.size inb_S4x4096x256_S1x512x256_3_3072_0).WholeWords (EltTy.packing .bf16)
  wordsbf16_S4096x1024_S512x256_3072_768 : (Rect.unit (s := S4096x1024) ![3072, 768] S512x256.size inb_S4096x1024_S512x256_3072_768).WholeWords (EltTy.packing .bf16)
  inb_S8x4_S1x1_7_0 : ∀ a, (![7, 0] : Fin 2 → Nat) a + S1x1.size a ≤ S8x4.size a
  inb_S4096x1024_S512x256_3584_0 : ∀ a, (![3584, 0] : Fin 2 → Nat) a + S512x256.size a ≤ S4096x1024.size a
  inb_S4x4096x256_S1x512x256_0_3584_0 : ∀ a, (![0, 3584, 0] : Fin 3 → Nat) a + S1x512x256.size a ≤ S4x4096x256.size a
  wordsbf16_S4x4096x256_S1x512x256_0_3584_0 : (Rect.unit (s := S4x4096x256) ![0, 3584, 0] S1x512x256.size inb_S4x4096x256_S1x512x256_0_3584_0).WholeWords (EltTy.packing .bf16)
  wordsbf16_S4096x1024_S512x256_3584_0 : (Rect.unit (s := S4096x1024) ![3584, 0] S512x256.size inb_S4096x1024_S512x256_3584_0).WholeWords (EltTy.packing .bf16)
  inb_S8x4_S1x1_7_1 : ∀ a, (![7, 1] : Fin 2 → Nat) a + S1x1.size a ≤ S8x4.size a
  inb_S4096x1024_S512x256_3584_256 : ∀ a, (![3584, 256] : Fin 2 → Nat) a + S512x256.size a ≤ S4096x1024.size a
  inb_S4x4096x256_S1x512x256_1_3584_0 : ∀ a, (![1, 3584, 0] : Fin 3 → Nat) a + S1x512x256.size a ≤ S4x4096x256.size a
  wordsbf16_S4x4096x256_S1x512x256_1_3584_0 : (Rect.unit (s := S4x4096x256) ![1, 3584, 0] S1x512x256.size inb_S4x4096x256_S1x512x256_1_3584_0).WholeWords (EltTy.packing .bf16)
  wordsbf16_S4096x1024_S512x256_3584_256 : (Rect.unit (s := S4096x1024) ![3584, 256] S512x256.size inb_S4096x1024_S512x256_3584_256).WholeWords (EltTy.packing .bf16)
  inb_S8x4_S1x1_7_2 : ∀ a, (![7, 2] : Fin 2 → Nat) a + S1x1.size a ≤ S8x4.size a
  inb_S4096x1024_S512x256_3584_512 : ∀ a, (![3584, 512] : Fin 2 → Nat) a + S512x256.size a ≤ S4096x1024.size a
  inb_S4x4096x256_S1x512x256_2_3584_0 : ∀ a, (![2, 3584, 0] : Fin 3 → Nat) a + S1x512x256.size a ≤ S4x4096x256.size a
  wordsbf16_S4x4096x256_S1x512x256_2_3584_0 : (Rect.unit (s := S4x4096x256) ![2, 3584, 0] S1x512x256.size inb_S4x4096x256_S1x512x256_2_3584_0).WholeWords (EltTy.packing .bf16)
  wordsbf16_S4096x1024_S512x256_3584_512 : (Rect.unit (s := S4096x1024) ![3584, 512] S512x256.size inb_S4096x1024_S512x256_3584_512).WholeWords (EltTy.packing .bf16)
  inb_S8x4_S1x1_7_3 : ∀ a, (![7, 3] : Fin 2 → Nat) a + S1x1.size a ≤ S8x4.size a
  inb_S4096x1024_S512x256_3584_768 : ∀ a, (![3584, 768] : Fin 2 → Nat) a + S512x256.size a ≤ S4096x1024.size a
  inb_S4x4096x256_S1x512x256_3_3584_0 : ∀ a, (![3, 3584, 0] : Fin 3 → Nat) a + S1x512x256.size a ≤ S4x4096x256.size a
  wordsbf16_S4x4096x256_S1x512x256_3_3584_0 : (Rect.unit (s := S4x4096x256) ![3, 3584, 0] S1x512x256.size inb_S4x4096x256_S1x512x256_3_3584_0).WholeWords (EltTy.packing .bf16)
  wordsbf16_S4096x1024_S512x256_3584_768 : (Rect.unit (s := S4096x1024) ![3584, 768] S512x256.size inb_S4096x1024_S512x256_3584_768).WholeWords (EltTy.packing .bf16)
  hcc0_scratch9 : 0 + S8.numel ≤ 140
  hcc0_scratch10 : 8 + S8.numel ≤ 140
  hcc0_scratch11 : 16 + S3.numel ≤ 140
  hcc0_scratch12 : 19 + S3.numel ≤ 140
  hcc0_scratch13 : 22 + S8.numel ≤ 140
  hcc0_scratch14 : 30 + S8.numel ≤ 140
  hcc0_scratch15 : 38 + S3.numel ≤ 140
  hcc0_scratch16 : 41 + S3.numel ≤ 140
  hcc0_scratch17 : 44 + S8.numel ≤ 140
  hcc0_scratch18 : 52 + S8.numel ≤ 140
  hcc0_scratch19 : 60 + S8.numel ≤ 140
  hcc0_scratch20 : 68 + S8.numel ≤ 140
  hcc0_scratch21 : 76 + S8.numel ≤ 140
  hcc0_scratch22 : 84 + S8.numel ≤ 140
  hcc0_scratch23 : 92 + S8.numel ≤ 140
  hcc0_scratch24 : 100 + S8.numel ≤ 140
  hcc0_scratch25 : 108 + S8x4.numel ≤ 140
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S1x512x256.size a ≤ S1x4096x2048.size a
  k0_off2_inb : ∀ d0 : Dev nD, ∀ a, (k0_off2 d0) a + S1x512x256.size a ≤ S1x4096x2048.size a
  k0_off3_inb : ∀ d0 : Dev nD, ∀ a, (k0_off3 d0) a + S1x512x256.size a ≤ S1x4096x2048.size a
  k0_off4_inb : ∀ d0 : Dev nD, ∀ a, (k0_off4 d0) a + S1x512x256.size a ≤ S1x4096x2048.size a
  k0_off5_inb : ∀ d0 : Dev nD, ∀ a, (k0_off5 d0) a + S1x512x256.size a ≤ S1x4096x2048.size a
  k0_off6_inb : ∀ d0 : Dev nD, ∀ a, (k0_off6 d0) a + S1x512x256.size a ≤ S1x4096x2048.size a
  k0_off7_inb : ∀ d0 : Dev nD, ∀ a, (k0_off7 d0) a + S1x512x256.size a ≤ S1x4096x2048.size a
  k0_off8_inb : ∀ d0 : Dev nD, ∀ a, (k0_off8 d0) a + S1x512x256.size a ≤ S1x4096x2048.size a
  k0_off9_inb : ∀ d0 : Dev nD, ∀ a, (k0_off9 d0) a + S1x512x256.size a ≤ S1x4096x2048.size a
  k0_off10_inb : ∀ d0 : Dev nD, ∀ a, (k0_off10 d0) a + S1x512x256.size a ≤ S1x4096x2048.size a
  k0_off11_inb : ∀ d0 : Dev nD, ∀ a, (k0_off11 d0) a + S1x512x256.size a ≤ S1x4096x2048.size a
  k0_off12_inb : ∀ d0 : Dev nD, ∀ a, (k0_off12 d0) a + S1x512x256.size a ≤ S1x4096x2048.size a
  k0_off13_inb : ∀ d0 : Dev nD, ∀ a, (k0_off13 d0) a + S1x512x256.size a ≤ S1x4096x2048.size a
  k0_off14_inb : ∀ d0 : Dev nD, ∀ a, (k0_off14 d0) a + S1x512x256.size a ≤ S1x4096x2048.size a
  k0_off15_inb : ∀ d0 : Dev nD, ∀ a, (k0_off15 d0) a + S1x512x256.size a ≤ S1x4096x2048.size a
  k0_off16_inb : ∀ d0 : Dev nD, ∀ a, (k0_off16 d0) a + S1x512x256.size a ≤ S1x4096x2048.size a
  k0_off17_inb : ∀ d0 : Dev nD, ∀ a, (k0_off17 d0) a + S1x512x256.size a ≤ S1x4096x2048.size a
  k0_off18_inb : ∀ d0 : Dev nD, ∀ a, (k0_off18 d0) a + S1x512x256.size a ≤ S1x4096x2048.size a
  k0_off19_inb : ∀ d0 : Dev nD, ∀ a, (k0_off19 d0) a + S1x512x256.size a ≤ S1x4096x2048.size a
  k0_off20_inb : ∀ d0 : Dev nD, ∀ a, (k0_off20 d0) a + S1x512x256.size a ≤ S1x4096x2048.size a
  k0_off21_inb : ∀ d0 : Dev nD, ∀ a, (k0_off21 d0) a + S1x512x256.size a ≤ S1x4096x2048.size a
  k0_off22_inb : ∀ d0 : Dev nD, ∀ a, (k0_off22 d0) a + S1x512x256.size a ≤ S1x4096x2048.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off23_inb : ∀ d0 : Dev nD, ∀ a, (k0_off23 d0) a + S1x512x256.size a ≤ S4x4096x256.size a
  k0_off23_packedbf16 : ∀ d0 : Dev nD, (Rect.unit (s := S4x4096x256) (k0_off23 d0) S1x512x256.size (k0_off23_inb d0)).PackedRows (EltTy.packing .bf16)
  k0_off24_inb : ∀ d0 : Dev nD, ∀ a, (k0_off24 d0) a + S1x512x256.size a ≤ S4x4096x256.size a
  k0_off24_wordsbf16 : ∀ d0 : Dev nD, (Rect.unit (s := S4x4096x256) (k0_off24 d0) S1x512x256.size (k0_off24_inb d0)).WholeWords (EltTy.packing .bf16)
  k0_dev15_lt : ∀ d0 : Dev nD, (k0_dev15 d0) < nD
  k0_dev16_lt : ∀ d0 : Dev nD, (k0_dev16 d0) < nD
  k0_off25_inb : ∀ d0 : Dev nD, ∀ a, (k0_off25 d0) a + S1x512x256.size a ≤ S4x4096x256.size a
  k0_off25_packedbf16 : ∀ d0 : Dev nD, (Rect.unit (s := S4x4096x256) (k0_off25 d0) S1x512x256.size (k0_off25_inb d0)).PackedRows (EltTy.packing .bf16)
  k0_off26_inb : ∀ d0 : Dev nD, ∀ a, (k0_off26 d0) a + S1x512x256.size a ≤ S4x4096x256.size a
  k0_off26_wordsbf16 : ∀ d0 : Dev nD, (Rect.unit (s := S4x4096x256) (k0_off26 d0) S1x512x256.size (k0_off26_inb d0)).WholeWords (EltTy.packing .bf16)
  k0_dev17_lt : ∀ d0 : Dev nD, (k0_dev17 d0) < nD
  k0_dev18_lt : ∀ d0 : Dev nD, (k0_dev18 d0) < nD
  k0_off27_inb : ∀ d0 : Dev nD, ∀ a, (k0_off27 d0) a + S1x512x256.size a ≤ S4x4096x256.size a
  k0_off27_packedbf16 : ∀ d0 : Dev nD, (Rect.unit (s := S4x4096x256) (k0_off27 d0) S1x512x256.size (k0_off27_inb d0)).PackedRows (EltTy.packing .bf16)
  k0_off28_inb : ∀ d0 : Dev nD, ∀ a, (k0_off28 d0) a + S1x512x256.size a ≤ S4x4096x256.size a
  k0_off28_wordsbf16 : ∀ d0 : Dev nD, (Rect.unit (s := S4x4096x256) (k0_off28 d0) S1x512x256.size (k0_off28_inb d0)).WholeWords (EltTy.packing .bf16)
  k0_dev19_lt : ∀ d0 : Dev nD, (k0_dev19 d0) < nD
  k0_dev20_lt : ∀ d0 : Dev nD, (k0_dev20 d0) < nD
  k0_off29_inb : ∀ d0 : Dev nD, ∀ a, (k0_off29 d0) a + S1x512x256.size a ≤ S4x4096x256.size a
  k0_off29_packedbf16 : ∀ d0 : Dev nD, (Rect.unit (s := S4x4096x256) (k0_off29 d0) S1x512x256.size (k0_off29_inb d0)).PackedRows (EltTy.packing .bf16)
  k0_off30_inb : ∀ d0 : Dev nD, ∀ a, (k0_off30 d0) a + S1x512x256.size a ≤ S4x4096x256.size a
  k0_off30_wordsbf16 : ∀ d0 : Dev nD, (Rect.unit (s := S4x4096x256) (k0_off30 d0) S1x512x256.size (k0_off30_inb d0)).WholeWords (EltTy.packing .bf16)
  k0_dev21_lt : ∀ d0 : Dev nD, (k0_dev21 d0) < nD
  k0_dev22_lt : ∀ d0 : Dev nD, (k0_dev22 d0) < nD
  k0_off31_inb : ∀ d0 : Dev nD, ∀ a, (k0_off31 d0) a + S1x512x256.size a ≤ S4x4096x256.size a
  k0_off31_packedbf16 : ∀ d0 : Dev nD, (Rect.unit (s := S4x4096x256) (k0_off31 d0) S1x512x256.size (k0_off31_inb d0)).PackedRows (EltTy.packing .bf16)
  k0_off32_inb : ∀ d0 : Dev nD, ∀ a, (k0_off32 d0) a + S1x512x256.size a ≤ S4x4096x256.size a
  k0_off32_wordsbf16 : ∀ d0 : Dev nD, (Rect.unit (s := S4x4096x256) (k0_off32 d0) S1x512x256.size (k0_off32_inb d0)).WholeWords (EltTy.packing .bf16)
  k0_dev23_lt : ∀ d0 : Dev nD, (k0_dev23 d0) < nD
  k0_dev24_lt : ∀ d0 : Dev nD, (k0_dev24 d0) < nD
  k0_off33_inb : ∀ d0 : Dev nD, ∀ a, (k0_off33 d0) a + S1x512x128.size a ≤ S4x4096x256.size a
  k0_off33_wordsbf16 : ∀ d0 : Dev nD, (Rect.unit (s := S4x4096x256) (k0_off33 d0) S1x512x128.size (k0_off33_inb d0)).WholeWords (EltTy.packing .bf16)
  k0_dev25_lt : ∀ d0 : Dev nD, (k0_dev25 d0) < nD
  k0_off34_inb : ∀ d0 : Dev nD, ∀ a, (k0_off34 d0) a + S1x512x128.size a ≤ S4x4096x256.size a
  k0_off34_wordsbf16 : ∀ d0 : Dev nD, (Rect.unit (s := S4x4096x256) (k0_off34 d0) S1x512x128.size (k0_off34_inb d0)).WholeWords (EltTy.packing .bf16)
  k0_dev26_lt : ∀ d0 : Dev nD, (k0_dev26 d0) < nD
  k0_off35_inb : ∀ d0 : Dev nD, ∀ a, (k0_off35 d0) a + S1x512x256.size a ≤ S4x4096x256.size a
  k0_off35_packedbf16 : ∀ d0 : Dev nD, (Rect.unit (s := S4x4096x256) (k0_off35 d0) S1x512x256.size (k0_off35_inb d0)).PackedRows (EltTy.packing .bf16)
  k0_off36_inb : ∀ d0 : Dev nD, ∀ a, (k0_off36 d0) a + S1x512x256.size a ≤ S4x4096x256.size a
  k0_off36_wordsbf16 : ∀ d0 : Dev nD, (Rect.unit (s := S4x4096x256) (k0_off36 d0) S1x512x256.size (k0_off36_inb d0)).WholeWords (EltTy.packing .bf16)
  k0_dev27_lt : ∀ d0 : Dev nD, (k0_dev27 d0) < nD
  k0_dev28_lt : ∀ d0 : Dev nD, (k0_dev28 d0) < nD
  k0_off37_inb : ∀ d0 : Dev nD, ∀ a, (k0_off37 d0) a + S1x512x128.size a ≤ S4x4096x256.size a
  k0_off37_wordsbf16 : ∀ d0 : Dev nD, (Rect.unit (s := S4x4096x256) (k0_off37 d0) S1x512x128.size (k0_off37_inb d0)).WholeWords (EltTy.packing .bf16)
  k0_dev29_lt : ∀ d0 : Dev nD, (k0_dev29 d0) < nD
  k0_off38_inb : ∀ d0 : Dev nD, ∀ a, (k0_off38 d0) a + S1x512x128.size a ≤ S4x4096x256.size a
  k0_off38_wordsbf16 : ∀ d0 : Dev nD, (Rect.unit (s := S4x4096x256) (k0_off38 d0) S1x512x128.size (k0_off38_inb d0)).WholeWords (EltTy.packing .bf16)
  k0_dev30_lt : ∀ d0 : Dev nD, (k0_dev30 d0) < nD
  k0_off39_inb : ∀ d0 : Dev nD, ∀ a, (k0_off39 d0) a + S1x512x256.size a ≤ S4x4096x256.size a
  k0_off39_packedbf16 : ∀ d0 : Dev nD, (Rect.unit (s := S4x4096x256) (k0_off39 d0) S1x512x256.size (k0_off39_inb d0)).PackedRows (EltTy.packing .bf16)
  k0_off40_inb : ∀ d0 : Dev nD, ∀ a, (k0_off40 d0) a + S1x512x256.size a ≤ S4x4096x256.size a
  k0_off40_wordsbf16 : ∀ d0 : Dev nD, (Rect.unit (s := S4x4096x256) (k0_off40 d0) S1x512x256.size (k0_off40_inb d0)).WholeWords (EltTy.packing .bf16)
  k0_dev31_lt : ∀ d0 : Dev nD, (k0_dev31 d0) < nD
  k0_dev32_lt : ∀ d0 : Dev nD, (k0_dev32 d0) < nD
  k0_off41_inb : ∀ d0 : Dev nD, ∀ a, (k0_off41 d0) a + S1x512x128.size a ≤ S4x4096x256.size a
  k0_off41_wordsbf16 : ∀ d0 : Dev nD, (Rect.unit (s := S4x4096x256) (k0_off41 d0) S1x512x128.size (k0_off41_inb d0)).WholeWords (EltTy.packing .bf16)
  k0_dev33_lt : ∀ d0 : Dev nD, (k0_dev33 d0) < nD
  k0_off42_inb : ∀ d0 : Dev nD, ∀ a, (k0_off42 d0) a + S1x512x128.size a ≤ S4x4096x256.size a
  k0_off42_wordsbf16 : ∀ d0 : Dev nD, (Rect.unit (s := S4x4096x256) (k0_off42 d0) S1x512x128.size (k0_off42_inb d0)).WholeWords (EltTy.packing .bf16)
  k0_dev34_lt : ∀ d0 : Dev nD, (k0_dev34 d0) < nD
  k0_off43_inb : ∀ d0 : Dev nD, ∀ a, (k0_off43 d0) a + S1x512x256.size a ≤ S4x4096x256.size a
  k0_off43_packedbf16 : ∀ d0 : Dev nD, (Rect.unit (s := S4x4096x256) (k0_off43 d0) S1x512x256.size (k0_off43_inb d0)).PackedRows (EltTy.packing .bf16)
  k0_off44_inb : ∀ d0 : Dev nD, ∀ a, (k0_off44 d0) a + S1x512x256.size a ≤ S4x4096x256.size a
  k0_off44_wordsbf16 : ∀ d0 : Dev nD, (Rect.unit (s := S4x4096x256) (k0_off44 d0) S1x512x256.size (k0_off44_inb d0)).WholeWords (EltTy.packing .bf16)
  k0_dev35_lt : ∀ d0 : Dev nD, (k0_dev35 d0) < nD
  k0_dev36_lt : ∀ d0 : Dev nD, (k0_dev36 d0) < nD
  k0_off45_inb : ∀ d0 : Dev nD, ∀ a, (k0_off45 d0) a + S1x512x128.size a ≤ S4x4096x256.size a
  k0_off45_wordsbf16 : ∀ d0 : Dev nD, (Rect.unit (s := S4x4096x256) (k0_off45 d0) S1x512x128.size (k0_off45_inb d0)).WholeWords (EltTy.packing .bf16)
  k0_dev37_lt : ∀ d0 : Dev nD, (k0_dev37 d0) < nD
  k0_off46_inb : ∀ d0 : Dev nD, ∀ a, (k0_off46 d0) a + S1x512x128.size a ≤ S4x4096x256.size a
  k0_off46_wordsbf16 : ∀ d0 : Dev nD, (Rect.unit (s := S4x4096x256) (k0_off46 d0) S1x512x128.size (k0_off46_inb d0)).WholeWords (EltTy.packing .bf16)
  k0_dev38_lt : ∀ d0 : Dev nD, (k0_dev38 d0) < nD
  k0_off47_inb : ∀ d0 : Dev nD, ∀ a, (k0_off47 d0) a + S1x512x128.size a ≤ S4x4096x256.size a
  k0_off47_wordsbf16 : ∀ d0 : Dev nD, (Rect.unit (s := S4x4096x256) (k0_off47 d0) S1x512x128.size (k0_off47_inb d0)).WholeWords (EltTy.packing .bf16)
  k0_dev39_lt : ∀ d0 : Dev nD, (k0_dev39 d0) < nD
  k0_off48_inb : ∀ d0 : Dev nD, ∀ a, (k0_off48 d0) a + S1x512x128.size a ≤ S4x4096x256.size a
  k0_off48_wordsbf16 : ∀ d0 : Dev nD, (Rect.unit (s := S4x4096x256) (k0_off48 d0) S1x512x128.size (k0_off48_inb d0)).WholeWords (EltTy.packing .bf16)
  k0_dev40_lt : ∀ d0 : Dev nD, (k0_dev40 d0) < nD
  k0_off49_inb : ∀ d0 : Dev nD, ∀ a, (k0_off49 d0) a + S1x512x256.size a ≤ S4x4096x256.size a
  k0_off49_packedbf16 : ∀ d0 : Dev nD, (Rect.unit (s := S4x4096x256) (k0_off49 d0) S1x512x256.size (k0_off49_inb d0)).PackedRows (EltTy.packing .bf16)
  k0_off50_inb : ∀ d0 : Dev nD, ∀ a, (k0_off50 d0) a + S1x512x256.size a ≤ S4x4096x256.size a
  k0_off50_packedbf16 : ∀ d0 : Dev nD, (Rect.unit (s := S4x4096x256) (k0_off50 d0) S1x512x256.size (k0_off50_inb d0)).PackedRows (EltTy.packing .bf16)
  k0_off51_inb : ∀ d0 : Dev nD, ∀ a, (k0_off51 d0) a + S1x512x256.size a ≤ S4x4096x256.size a
  k0_off51_packedbf16 : ∀ d0 : Dev nD, (Rect.unit (s := S4x4096x256) (k0_off51 d0) S1x512x256.size (k0_off51_inb d0)).PackedRows (EltTy.packing .bf16)

variable [Facts₀]

abbrev cc0_scratch9 : DmaSems sig S8 := SemArray.consecutive 0 S8 hcc0_scratch9
abbrev cc0_scratch10 : DmaSems sig S8 := SemArray.consecutive 8 S8 hcc0_scratch10
abbrev cc0_scratch11 : DmaSems sig S3 := SemArray.consecutive 16 S3 hcc0_scratch11
abbrev cc0_scratch12 : DmaSems sig S3 := SemArray.consecutive 19 S3 hcc0_scratch12
abbrev cc0_scratch13 : DmaSems sig S8 := SemArray.consecutive 22 S8 hcc0_scratch13
abbrev cc0_scratch14 : DmaSems sig S8 := SemArray.consecutive 30 S8 hcc0_scratch14
abbrev cc0_scratch15 : DmaSems sig S3 := SemArray.consecutive 38 S3 hcc0_scratch15
abbrev cc0_scratch16 : DmaSems sig S3 := SemArray.consecutive 41 S3 hcc0_scratch16
abbrev cc0_scratch17 : DmaSems sig S8 := SemArray.consecutive 44 S8 hcc0_scratch17
abbrev cc0_scratch18 : DmaSems sig S8 := SemArray.consecutive 52 S8 hcc0_scratch18
abbrev cc0_scratch19 : DmaSems sig S8 := SemArray.consecutive 60 S8 hcc0_scratch19
abbrev cc0_scratch20 : DmaSems sig S8 := SemArray.consecutive 68 S8 hcc0_scratch20
abbrev cc0_scratch21 : DmaSems sig S8 := SemArray.consecutive 76 S8 hcc0_scratch21
abbrev cc0_scratch22 : DmaSems sig S8 := SemArray.consecutive 84 S8 hcc0_scratch22
abbrev cc0_scratch23 : DmaSems sig S8 := SemArray.consecutive 92 S8 hcc0_scratch23
abbrev cc0_scratch24 : DmaSems sig S8 := SemArray.consecutive 100 S8 hcc0_scratch24
abbrev cc0_scratch25 : DmaSems sig S8x4 := SemArray.consecutive 108 S8x4 hcc0_scratch25

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S2x4096x2048 : Shape := ⟨3, ![2, 4096, 2048]⟩
abbrev S_ : Shape := ⟨0, ![]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S_, .f32⟩
  | .hbm, ⟨2, _⟩ => ⟨S4096x2048, .f32⟩
  | .hbm, ⟨3, _⟩ => ⟨S4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2x4096x2048_S4096x2048_d0 : S2x4096x2048.ReducesTo [0] S4096x2048
  h_S_ : 0 < S_.numel
  bitsLt_bf16_f32 : FTy.bits .bf16 < FTy.bits .f32

variable [Facts₀]

class Facts : Prop extends Facts₀ where

variable [Facts]
-- ==== Proof.Mesh.lean ====
import proofs.«901022_g7700000000001023_dist_rs_v7x_xyz2x2x2_x_m4096_n1024_bf16_1_alg».proof.Proof.Gen.KernelIdeal
import Idealize.ShloMosaic.Lib.ValueIdx

/-! The 2×2×2 mesh: a device's linear id is 4·x + 2·y + z. Its three neighbours differ from it in exactly one
    coordinate; the quarter of the result columns a device computes itself is numbered 2·y + z. -/

noncomputable section

namespace Cert.KernelIdeal.RS

open Cert.KernelIdeal Cert.KernelIdeal.Gen
open Idealize.ShloMosaic Idealize.ShloMosaic.TcCoe

/-- The device's coordinate along the mesh axis x (the axis the input is cut along). -/
def mx (c : Dev nD) : ℕ := c.val / 4
/-- Its coordinate along y. -/
def my (c : Dev nD) : ℕ := (c.val / 2) % 2
/-- Its coordinate along z. -/
def mz (c : Dev nD) : ℕ := c.val % 2
/-- The quarter of its result's columns the device adds up itself. -/
def mq (c : Dev nD) : ℕ := 2 * my c + mz c
/-- The quarter its z-neighbour adds up. -/
def zq (c : Dev nD) : ℕ := (2 * my c + 1) - mz c
/-- The quarter its y-neighbour adds up. -/
def yq (c : Dev nD) : ℕ := (mz c + 2) - 2 * my c
/-- The quarter the device diagonally opposite in the (y, z) plane adds up. -/
def dq (c : Dev nD) : ℕ := 3 - mq c

/-- The neighbour across x: the other half of the input. -/
def px (c : Dev nD) : Dev nD := ⟨(2 * ((c.val / 2) % 2) + (c.val % 2) + 4) - 4 * (c.val / 4), by revert c; decide⟩
/-- The neighbour across z. -/
def pz (c : Dev nD) : Dev nD := ⟨(4 * (c.val / 4) + 2 * ((c.val / 2) % 2) + 1) - (c.val % 2), by revert c; decide⟩
/-- The neighbour across y. -/
def py (c : Dev nD) : Dev nD := ⟨(4 * (c.val / 4) + (c.val % 2) + 2) - 2 * ((c.val / 2) % 2), by revert c; decide⟩

theorem px_px (c : Dev nD) : px (px c) = c := by revert c; decide
theorem py_py (c : Dev nD) : py (py c) = c := by revert c; decide
theorem pz_pz (c : Dev nD) : pz (pz c) = c := by revert c; decide
theorem py_pz (c : Dev nD) : py (pz c) = pz (py c) := by revert c; decide
theorem px_ne (c : Dev nD) : px c ≠ c := by revert c; decide
theorem py_ne (c : Dev nD) : py c ≠ c := by revert c; decide
theorem pz_ne (c : Dev nD) : pz c ≠ c := by revert c; decide
theorem px_ne_py (c : Dev nD) : px c ≠ py c := by revert c; decide
theorem px_ne_pz (c : Dev nD) : px c ≠ pz c := by revert c; decide
theorem py_ne_pz (c : Dev nD) : py c ≠ pz c := by revert c; decide

/-- Crossing x flips the x coordinate and keeps the quarter. -/
theorem mx_px (c : Dev nD) : mx (px c) = 1 - mx c := by revert c; decide
theorem mq_px (c : Dev nD) : mq (px c) = mq c := by revert c; decide
theorem dq_px (c : Dev nD) : dq (px c) = dq c := by revert c; decide
/-- Crossing y or z keeps the x coordinate and permutes the quarters. -/
theorem mx_py (c : Dev nD) : mx (py c) = mx c := by revert c; decide
theorem mx_pz (c : Dev nD) : mx (pz c) = mx c := by revert c; decide
theorem mq_pz (c : Dev nD) : mq (pz c) = zq c := by revert c; decide
theorem mq_py (c : Dev nD) : mq (py c) = yq c := by revert c; decide
theorem zq_pz (c : Dev nD) : zq (pz c) = mq c := by revert c; decide
theorem yq_py (c : Dev nD) : yq (py c) = mq c := by revert c; decide
theorem dq_pz (c : Dev nD) : dq (pz c) = yq c := by revert c; decide
theorem dq_py (c : Dev nD) : dq (py c) = zq c := by revert c; decide
theorem zq_py (c : Dev nD) : zq (py c) = dq c := by revert c; decide
theorem yq_pz (c : Dev nD) : yq (pz c) = dq c := by revert c; decide
theorem mq_py_pz (c : Dev nD) : mq (py (pz c)) = dq c := by revert c; decide
theorem mx_lt (c : Dev nD) : mx c < 2 := by revert c; decide
theorem mq_lt (c : Dev nD) : mq c < 4 := by revert c; decide
/-- The four quarters of a device are its own, its two neighbours' and the diagonal one: pairwise distinct. -/
theorem quarters (c : Dev nD) : mq c ≠ zq c ∧ mq c ≠ yq c ∧ mq c ≠ dq c ∧ zq c ≠ yq c ∧ zq c ≠ dq c ∧ yq c ≠ dq c ∧ zq c < 4 ∧ yq c < 4 ∧ dq c < 4 := by
  revert c; decide

end Cert.KernelIdeal.RS

end
-- ==== Proof.Spec.lean ====
import proofs.«901022_g7700000000001023_dist_rs_v7x_xyz2x2x2_x_m4096_n1024_bf16_1_alg».proof.Proof.Mesh

/-! What every buffer of every device finally holds, as a pure function of the devices' input blocks.
    Each element of each scratch buffer is written exactly once in a run, so "the final contents" is the one
    thing any landing, store or copy ever puts there.

    With N = 1024 the width of a device's result, W = 256 a quarter of it, and x_t device t's block f32[1, 4096, 2048]:
    * the two staging buffers of quarter q = mq t hold the columns of x_t that t's x-neighbour needs (stP) and the ones t keeps (stL);
    * sb is stP rounded to bf16 and is what travels across x; rb is what arrives: the x-neighbour's sb;
    * own t = bf16 (stL t + f32 (rb t)) is quarter mq t of t's result;
    * the same with the diagonal quarter dq t, for the first 1536 rows only (stP2, stL2, sb2, rb2, dgn);
    * r4 t, the four quarters side by side: t's own, its z-neighbour's, its y-neighbour's, and the diagonal one — computed by t
      itself on rows below 1536 and by the diagonal device (forwarded in two halves through the two neighbours) on the rest;
    * out t (i, 256 q + j) = r4 t (q, i, j). -/

noncomputable section

namespace Cert.KernelIdeal.RS

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-- Device t's block of the input. -/
def xin (t : Dev nD) : Vec F S1x4096x2048 .f32 := m ((t : Thread nD τ).loc main_arg0)

/-- Entry (0, i, col) of device t's block (row and column reduced into range, which changes nothing where they are used). -/
def xat (t : Dev nD) (i col : ℕ) : F .f32 :=
  xin m t (ix3 (0 : Fin 1) (⟨i % 4096, Nat.mod_lt _ (by decide)⟩ : Fin 4096) (⟨col % 2048, Nat.mod_lt _ (by decide)⟩ : Fin 2048))

/-- The columns of quarter q of the half that belongs to the device with x coordinate a. -/
def colOf (a q j : ℕ) : ℕ := 1024 * a + 256 * q + j

/-- What device t contributes to column j of quarter q of ITS OWN half, row i. -/
def keep (t : Dev nD) (q i j : ℕ) : F .f32 := xat m t i (colOf (mx t) q j)
/-- What device t contributes to its x-neighbour's half, rounded to bf16 for the wire. -/
def give (t : Dev nD) (q i j : ℕ) : F .bf16 := FloatOps.truncf .bf16 bitsLt_bf16_f32 (xat m t i (colOf (1 - mx t) q j))
/-- Entry (i, j) of quarter q of device t's result: its own contribution plus its x-neighbour's, rounded to bf16. -/
def cellv (t : Dev nD) (q i j : ℕ) : F .bf16 :=
  FloatOps.truncf .bf16 bitsLt_bf16_f32 (FloatOps.addf (keep m t q i j) (FloatOps.extf .f32 bitsLt_bf16_f32 (give m (px t) q i j)))

def stP (t : Dev nD) : Vec F S4096x256 .f32 := fun y => xat m t (y 0).val (colOf (1 - mx t) (mq t) (y 1).val)
def stL (t : Dev nD) : Vec F S4096x256 .f32 := fun y => keep m t (mq t) (y 0).val (y 1).val
def stP2 (t : Dev nD) : Vec F S1536x256 .f32 := fun y => xat m t (y 0).val (colOf (1 - mx t) (dq t) (y 1).val)
def stL2 (t : Dev nD) : Vec F S1536x256 .f32 := fun y => keep m t (dq t) (y 0).val (y 1).val
def sb (t : Dev nD) : Vec F S4096x256 .bf16 := fun y => give m t (mq t) (y 0).val (y 1).val
def sb2 (t : Dev nD) : Vec F S1536x256 .bf16 := fun y => give m t (dq t) (y 0).val (y 1).val
def rb (t : Dev nD) : Vec F S4096x256 .bf16 := sb m (px t)
def rb2 (t : Dev nD) : Vec F S1536x256 .bf16 := sb2 m (px t)

/-- The device that adds up quarter q of device t's result rows i: t, a neighbour, or the diagonal device. -/
def ownerOf (t : Dev nD) (q : ℕ) : Dev nD :=
  if q = mq t then t else if q = zq t then pz t else if q = yq t then py t else py (pz t)

/-- The four quarters as device t finally holds them. (Every owner has t's x coordinate, so the columns are t's.) -/
def r4 (t : Dev nD) : Vec F S4x4096x256 .bf16 := fun y =>
  if (y 0).val = dq t ∧ (y 1).val < 1536 then cellv m t (dq t) (y 1).val (y 2).val
  else cellv m (ownerOf t (y 0).val) (y 0).val (y 1).val (y 2).val

/-- Device t's result. -/
def out (t : Dev nD) : Vec F S4096x1024 .bf16 := fun y =>
  r4 m t (ix3 (⟨(y 1).val / 256, by have := (y 1).isLt; change _ < 1024 at this; omega⟩ : Fin 4) (⟨(y 0).val, by have := (y 0).isLt; exact this⟩ : Fin 4096) (⟨(y 1).val % 256, Nat.mod_lt _ (by decide)⟩ : Fin 256))

end Cert.KernelIdeal.RS

end
-- ==== Proof.Sched.lean ====
import proofs.«901022_g7700000000001023_dist_rs_v7x_xyz2x2x2_x_m4096_n1024_bf16_1_alg».proof.Proof.Gen.KernelIdeal.Skeleton
import proofs.«901022_g7700000000001023_dist_rs_v7x_xyz2x2x2_x_m4096_n1024_bf16_1_alg».proof.Proof.Gen.KernelIdeal.Launch
import proofs.«901022_g7700000000001023_dist_rs_v7x_xyz2x2x2_x_m4096_n1024_bf16_1_alg».proof.Proof.Gen.KernelIdeal.Points
import proofs.«901022_g7700000000001023_dist_rs_v7x_xyz2x2x2_x_m4096_n1024_bf16_1_alg».proof.Proof.Spec
import Idealize.ShloMosaic.Lib.Pipeline.Launch
import Idealize.ShloMosaic.Lib.Pipeline.Kit
import Idealize.ShloMosaic.Lib.Tactic

/-! The protocol. Every remote copy moves one chunk (512 rows of a quarter, or half the columns of one) and has a
    send semaphore on the sender and a receive semaphore on the receiver, each used once: one round, one duty.
    The barrier semaphore of a device is signalled once by each of its three neighbours and waited for 3: one
    round, three duties; with its signal a neighbour hands over the parts of ITS buffers this device will write.
    What a landing hands the receiver is the chunk holding its final contents (Spec); what a departure hands back to
    the sender is the share of the source chunk it lent. -/

noncomputable section

namespace Cert.KernelIdeal.RS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Duty names: on a barrier cell 0, 1, 2 are the signals of the neighbours across x, y, z; every other cell has the one duty 0. -/
abbrev DD : Type := Fin 3
abbrev UB : Type := URounds (GSem nD τ sig) DD
/-- The pipeline library's copy of the rounds algebra, this protocol's, and the counters of the local copies. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

abbrev 𝒱₀ : Variants := Variants.none

variable (m : (ℓ : Loc nD τ sig) → Buf (Elt F) ℓ)

/-! ## The chunks -/

theorem rows8_inb : ∀ k : Fin 8, ∀ a : Fin 2, (![512 * k.val, 0] : Fin 2 → ℕ) a + S512x256.size a ≤ S4096x256.size a := by decide
theorem rows3_inb : ∀ k : Fin 3, ∀ a : Fin 2, (![512 * k.val, 0] : Fin 2 → ℕ) a + S512x256.size a ≤ S1536x256.size a := by decide
theorem chunk_inb : ∀ (q : Fin 4) (k : Fin 8), ∀ a : Fin 3, (![q.val, 512 * k.val, 0] : Fin 3 → ℕ) a + S1x512x256.size a ≤ S4x4096x256.size a := by decide
theorem half_inb : ∀ (q : Fin 4) (k : Fin 8) (h : Fin 2), ∀ a : Fin 3, (![q.val, 512 * k.val, 128 * h.val] : Fin 3 → ℕ) a + S1x512x128.size a ≤ S4x4096x256.size a := by decide

/-- Rows 512k … 512k+511 of the buffer sent across x, of the buffer it lands in, and of their three-chunk siblings. -/
abbrev sbR (k : Fin 8) : Memref sig .tc .vmem S512x256 .bf16 :=
  (Memref.whole cc0_scratch1 : Memref sig .tc .vmem S4096x256 .bf16).slice (Rect.unit (s := S4096x256) ![512 * k.val, 0] S512x256.size (rows8_inb k)) (fun _ => rfl)
abbrev rbR (k : Fin 8) : Memref sig .tc .vmem S512x256 .bf16 :=
  (Memref.whole cc0_scratch2 : Memref sig .tc .vmem S4096x256 .bf16).slice (Rect.unit (s := S4096x256) ![512 * k.val, 0] S512x256.size (rows8_inb k)) (fun _ => rfl)
abbrev sb2R (k : Fin 3) : Memref sig .tc .vmem S512x256 .bf16 :=
  (Memref.whole cc0_scratch3 : Memref sig .tc .vmem S1536x256 .bf16).slice (Rect.unit (s := S1536x256) ![512 * k.val, 0] S512x256.size (rows3_inb k)) (fun _ => rfl)
abbrev rb2R (k : Fin 3) : Memref sig .tc .vmem S512x256 .bf16 :=
  (Memref.whole cc0_scratch4 : Memref sig .tc .vmem S1536x256 .bf16).slice (Rect.unit (s := S1536x256) ![512 * k.val, 0] S512x256.size (rows3_inb k)) (fun _ => rfl)
/-- Chunk k of quarter q of the four-quarter buffer, and its left (h = 0) or right (h = 1) half. -/
abbrev r4R (q : Fin 4) (k : Fin 8) : Memref sig .tc .vmem S512x256 .bf16 :=
  ((Memref.whole cc0_scratch0 : Memref sig .tc .vmem S4x4096x256 .bf16).slice (Rect.unit (s := S4x4096x256) ![q.val, 512 * k.val, 0] S1x512x256.size (chunk_inb q k)) (fun _ => rfl)).squeeze S512x256 squeezes_S1x512x256_S512x256
abbrev r4H (q : Fin 4) (k : Fin 8) (h : Fin 2) : Memref sig .tc .vmem S512x128 .bf16 :=
  ((Memref.whole cc0_scratch0 : Memref sig .tc .vmem S4x4096x256 .bf16).slice (Rect.unit (s := S4x4096x256) ![q.val, 512 * k.val, 128 * h.val] S1x512x128.size (half_inb q k h)) (fun _ => rfl)).squeeze S512x128 squeezes_S1x512x128_S512x128

/-- The quarters as indices. -/
def mqF (t : Dev nD) : Fin 4 := ⟨mq t, mq_lt t⟩
def zqF (t : Dev nD) : Fin 4 := ⟨zq t, (quarters t).2.2.2.2.2.2.1⟩
def yqF (t : Dev nD) : Fin 4 := ⟨yq t, (quarters t).2.2.2.2.2.2.2.1⟩
def dqF (t : Dev nD) : Fin 4 := ⟨dq t, (quarters t).2.2.2.2.2.2.2.2⟩

/-- "The elements of this view on device t, at this share, hold f". -/
abbrev pts {sp : Space} {s : Shape} {e : EltTy} (M : Memref sig .tc sp s e) (t : Dev nD) (q : PosShare TreeShare) (f : Buf (Elt F) (M.view.loc (t : Thread nD τ))) : sProp 𝕄 :=
  M.view.loc (t : Thread nD τ) ↦[M.view.set]{q} f
/-- The same at some contents. -/
abbrev junk {sp : Space} {s : Shape} {e : EltTy} (M : Memref sig .tc sp s e) (t : Dev nD) : sProp 𝕄 :=
  iprop(∃ f : Buf (Elt F) (M.view.loc (t : Thread nD τ)), M.view.loc (t : Thread nD τ) ↦[M.view.set]{fullShare} f)

/-! ## The cells -/

/-- Semaphore j of the pool of DMA semaphores. The kernel's arrays lie in it in order: per-chunk send and receive
    semaphores of the copies across x at 22… and 30… (their three-chunk siblings at 38… and 41…), of a device's own
    quarter to its z-neighbour at 44… and 52…, to its y-neighbour at 60… and 68…, of the forwarded halves through z at
    76… and 84…, through y at 92… and 100…. -/
abbrev dsem (j : Fin 140) : SemLoc sig := .dma j
abbrev barS : Sem sig := (SemArray.scalar (sig.barrier 0 rfl) : Sems sig S_).sem
abbrev cellAt (t : Dev nD) (j : Fin 140) : GSem nD τ sig := ((t : Thread nD τ), dsem j)
abbrev barCell (t : Dev nD) : GSem nD τ sig := ((t : Thread nD τ), .reg barS)

/-- The unit of credit of a whole chunk and of a half chunk. -/
abbrev NA : ℕ := (sbR 0).view.dmaCredit
abbrev NH : ℕ := (r4H 0 3 0).view.dmaCredit

/-- The three shares a device's own chunk is lent at: to the copy to z, to the copy to y, and the rest it keeps (for the copy into the result). -/
abbrev shZ : PosShare TreeShare := fullShare.left
abbrev shY : PosShare TreeShare := fullShare.right.left
abbrev shK : PosShare TreeShare := fullShare.right.right
/-- A received chunk is lent to the forward at one half and kept at the other. -/
abbrev shF : PosShare TreeShare := fullShare.left
abbrev shG : PosShare TreeShare := fullShare.right

/-- Which rounds cell a DMA semaphore is, if any: (array, chunk). Arrays: 0 x-send, 1 x-receive, 2, 3 their siblings,
    4 z-send, 5 z-receive, 6 y-send, 7 y-receive, 8 z-forward send, 9 z-forward receive, 10 y-forward send, 11 y-forward receive. -/
def kindOf (j : ℕ) : Option (ℕ × ℕ) :=
  if 22 ≤ j ∧ j < 30 then some (0, j - 22) else if 30 ≤ j ∧ j < 38 then some (1, j - 30)
  else if 38 ≤ j ∧ j < 41 then some (2, j - 38) else if 41 ≤ j ∧ j < 44 then some (3, j - 41)
  else if 44 ≤ j ∧ j < 52 then some (4, j - 44) else if 52 ≤ j ∧ j < 60 then some (5, j - 52)
  else if 60 ≤ j ∧ j < 68 then some (6, j - 60) else if 68 ≤ j ∧ j < 76 then some (7, j - 68)
  else if 79 ≤ j ∧ j < 84 then some (8, j - 76) else if 87 ≤ j ∧ j < 92 then some (9, j - 84)
  else if 95 ≤ j ∧ j < 100 then some (10, j - 92) else if 103 ≤ j ∧ j < 108 then some (11, j - 100)
  else none

def f8 (k : ℕ) : Fin 8 := ⟨k % 8, Nat.mod_lt _ (by decide)⟩
def f3 (k : ℕ) : Fin 3 := ⟨k % 3, Nat.mod_lt _ (by decide)⟩

/-- What the one duty of a DMA cell of device t hands its owner. -/
def dmaPay (t : Dev nD) (j : ℕ) : sProp 𝕄 :=
  match kindOf j with
  | some (0, k) => pts (sbR (f8 k)) t fullShare (sb m t)
  | some (1, k) => pts (rbR (f8 k)) t fullShare (rb m t)
  | some (2, k) => pts (sb2R (f3 k)) t fullShare (sb2 m t)
  | some (3, k) => pts (rb2R (f3 k)) t fullShare (rb2 m t)
  | some (4, k) => pts (r4R (mqF t) (f8 k)) t shZ (r4 m t)
  | some (5, k) => pts (r4R (zqF t) (f8 k)) t fullShare (r4 m t)
  | some (6, k) => pts (r4R (mqF t) (f8 k)) t shY (r4 m t)
  | some (7, k) => pts (r4R (yqF t) (f8 k)) t fullShare (r4 m t)
  | some (8, k) => pts (r4H (yqF t) (f8 k) 0) t shF (r4 m t)
  | some (9, k) => pts (r4H (dqF t) (f8 k) 0) t fullShare (r4 m t)
  | some (10, k) => pts (r4H (zqF t) (f8 k) 1) t shF (r4 m t)
  | some (11, k) => pts (r4H (dqF t) (f8 k) 1) t fullShare (r4 m t)
  | _ => iprop(emp)

/-- What neighbour p hands over with its barrier signal: across x its two landing buffers whole; across y (side = 1) or
    z (side = 0) the quarter of its four-quarter buffer that the receiver adds up, chunk by chunk, and the half of the
    forwarded chunks 3 … 7 of its diagonal quarter that the receiver forwards into. -/
def giveX (p : Dev nD) : sProp 𝕄 :=
  iprop(junk (F := F) (Memref.whole cc0_scratch2 : Memref sig .tc .vmem S4096x256 .bf16) p ∗ junk (F := F) (Memref.whole cc0_scratch4 : Memref sig .tc .vmem S1536x256 .bf16) p)
def giveQ (p : Dev nD) (q : Fin 4) : sProp 𝕄 :=
  iprop(junk (F := F) (r4R q 0) p ∗ junk (F := F) (r4R q 1) p ∗ junk (F := F) (r4R q 2) p ∗ junk (F := F) (r4R q 3) p
    ∗ junk (F := F) (r4R q 4) p ∗ junk (F := F) (r4R q 5) p ∗ junk (F := F) (r4R q 6) p ∗ junk (F := F) (r4R q 7) p)
def giveH (p : Dev nD) (h : Fin 2) : sProp 𝕄 :=
  iprop(junk (F := F) (r4H (dqF p) 3 h) p ∗ junk (F := F) (r4H (dqF p) 4 h) p ∗ junk (F := F) (r4H (dqF p) 5 h) p
    ∗ junk (F := F) (r4H (dqF p) 6 h) p ∗ junk (F := F) (r4H (dqF p) 7 h) p)
def barPay (t : Dev nD) (d : DD) : sProp 𝕄 :=
  if d = 0 then giveX (F := F) (px t)
  else if d = 1 then iprop(giveQ (F := F) (py t) (yqF (py t)) ∗ giveH (F := F) (py t) 1)
  else iprop(giveQ (F := F) (pz t) (zqF (pz t)) ∗ giveH (F := F) (pz t) 0)

/-- One round: a TensorCore's barrier cell has the three signals of one unit; a rounds DMA cell its one duty of a chunk's
    (arrays 0 … 7) or a half chunk's (arrays 8 … 11) credit. -/
def rsRd : Rounds.Schedule (GSem nD τ sig) DD 𝕄 where
  duties g r :=
    if r = 0 ∧ g.1.2 = .tc then
      (match g.2 with
       | .reg s => if s = barS then Finset.univ else ∅
       | .dma j => if (kindOf j.val).isSome then {0} else ∅)
    else ∅
  unitless _ := False
  amount g _ _ :=
    match g.2 with
    | .reg _ => 1
    | .dma j => (match kindOf j.val with | some (a, _) => if a < 8 then NA else NH | none => 1)
  payload g _ d :=
    match g.2 with
    | .reg _ => barPay (F := F) g.1.1 d
    | .dma j => dmaPay m g.1.1 j.val
  amount_pos g _ _ _ := by
    rcases g with ⟨th, sm⟩
    cases sm with
    | reg s => exact Nat.one_pos
    | dma j =>
      show 0 < (match kindOf j.val with | some (a, _) => if a < 8 then NA else NH | none => 1)
      split
      · split
        · exact View.dmaCredit_pos _ (by decide)
        · exact View.dmaCredit_pos _ (by decide)
      · exact Nat.one_pos

end Cert.KernelIdeal.RS

end
-- ==== Proof.MeshDevs.lean ====
import proofs.«901022_g7700000000001023_dist_rs_v7x_xyz2x2x2_x_m4096_n1024_bf16_1_alg».proof.Proof.Mesh

noncomputable section

namespace Cert.KernelIdeal.RS

open Cert.KernelIdeal Cert.KernelIdeal.Gen
open Idealize.ShloMosaic Idealize.ShloMosaic.TcCoe

theorem dev1_eq (c : Dev nD) : (⟨k0_dev1 c, k0_dev1_lt c⟩ : Dev nD) = px c := Fin.ext (k0_dev1_eq c)
theorem dev2_eq (c : Dev nD) : (⟨k0_dev2 c, k0_dev2_lt c⟩ : Dev nD) = pz c := Fin.ext (k0_dev2_eq c)
theorem dev3_eq (c : Dev nD) : (⟨k0_dev3 c, k0_dev3_lt c⟩ : Dev nD) = py c := Fin.ext (k0_dev3_eq c)
theorem dev4_eq (c : Dev nD) : (⟨k0_dev4 c, k0_dev4_lt c⟩ : Dev nD) = px c := Fin.ext (k0_dev4_eq c)
theorem dev5_eq (c : Dev nD) : (⟨k0_dev5 c, k0_dev5_lt c⟩ : Dev nD) = px c := Fin.ext (k0_dev5_eq c)
theorem dev6_eq (c : Dev nD) : (⟨k0_dev6 c, k0_dev6_lt c⟩ : Dev nD) = px c := Fin.ext (k0_dev6_eq c)
theorem dev7_eq (c : Dev nD) : (⟨k0_dev7 c, k0_dev7_lt c⟩ : Dev nD) = px c := Fin.ext (k0_dev7_eq c)
theorem dev8_eq (c : Dev nD) : (⟨k0_dev8 c, k0_dev8_lt c⟩ : Dev nD) = px c := Fin.ext (k0_dev8_eq c)
theorem dev9_eq (c : Dev nD) : (⟨k0_dev9 c, k0_dev9_lt c⟩ : Dev nD) = px c := Fin.ext (k0_dev9_eq c)
theorem dev10_eq (c : Dev nD) : (⟨k0_dev10 c, k0_dev10_lt c⟩ : Dev nD) = px c := Fin.ext (k0_dev10_eq c)
theorem dev11_eq (c : Dev nD) : (⟨k0_dev11 c, k0_dev11_lt c⟩ : Dev nD) = px c := Fin.ext (k0_dev11_eq c)
theorem dev12_eq (c : Dev nD) : (⟨k0_dev12 c, k0_dev12_lt c⟩ : Dev nD) = px c := Fin.ext (k0_dev12_eq c)
theorem dev13_eq (c : Dev nD) : (⟨k0_dev13 c, k0_dev13_lt c⟩ : Dev nD) = px c := Fin.ext (k0_dev13_eq c)
theorem dev14_eq (c : Dev nD) : (⟨k0_dev14 c, k0_dev14_lt c⟩ : Dev nD) = px c := Fin.ext (k0_dev14_eq c)
theorem dev15_eq (c : Dev nD) : (⟨k0_dev15 c, k0_dev15_lt c⟩ : Dev nD) = pz c := Fin.ext (k0_dev15_eq c)
theorem dev16_eq (c : Dev nD) : (⟨k0_dev16 c, k0_dev16_lt c⟩ : Dev nD) = py c := Fin.ext (k0_dev16_eq c)
theorem dev17_eq (c : Dev nD) : (⟨k0_dev17 c, k0_dev17_lt c⟩ : Dev nD) = pz c := Fin.ext (k0_dev17_eq c)
theorem dev18_eq (c : Dev nD) : (⟨k0_dev18 c, k0_dev18_lt c⟩ : Dev nD) = py c := Fin.ext (k0_dev18_eq c)
theorem dev19_eq (c : Dev nD) : (⟨k0_dev19 c, k0_dev19_lt c⟩ : Dev nD) = pz c := Fin.ext (k0_dev19_eq c)
theorem dev20_eq (c : Dev nD) : (⟨k0_dev20 c, k0_dev20_lt c⟩ : Dev nD) = py c := Fin.ext (k0_dev20_eq c)
theorem dev21_eq (c : Dev nD) : (⟨k0_dev21 c, k0_dev21_lt c⟩ : Dev nD) = pz c := Fin.ext (k0_dev21_eq c)
theorem dev22_eq (c : Dev nD) : (⟨k0_dev22 c, k0_dev22_lt c⟩ : Dev nD) = py c := Fin.ext (k0_dev22_eq c)
theorem dev23_eq (c : Dev nD) : (⟨k0_dev23 c, k0_dev23_lt c⟩ : Dev nD) = pz c := Fin.ext (k0_dev23_eq c)
theorem dev24_eq (c : Dev nD) : (⟨k0_dev24 c, k0_dev24_lt c⟩ : Dev nD) = py c := Fin.ext (k0_dev24_eq c)
theorem dev25_eq (c : Dev nD) : (⟨k0_dev25 c, k0_dev25_lt c⟩ : Dev nD) = py c := Fin.ext (k0_dev25_eq c)
theorem dev26_eq (c : Dev nD) : (⟨k0_dev26 c, k0_dev26_lt c⟩ : Dev nD) = pz c := Fin.ext (k0_dev26_eq c)
theorem dev27_eq (c : Dev nD) : (⟨k0_dev27 c, k0_dev27_lt c⟩ : Dev nD) = pz c := Fin.ext (k0_dev27_eq c)
theorem dev28_eq (c : Dev nD) : (⟨k0_dev28 c, k0_dev28_lt c⟩ : Dev nD) = py c := Fin.ext (k0_dev28_eq c)
theorem dev29_eq (c : Dev nD) : (⟨k0_dev29 c, k0_dev29_lt c⟩ : Dev nD) = py c := Fin.ext (k0_dev29_eq c)
theorem dev30_eq (c : Dev nD) : (⟨k0_dev30 c, k0_dev30_lt c⟩ : Dev nD) = pz c := Fin.ext (k0_dev30_eq c)
theorem dev31_eq (c : Dev nD) : (⟨k0_dev31 c, k0_dev31_lt c⟩ : Dev nD) = pz c := Fin.ext (k0_dev31_eq c)
theorem dev32_eq (c : Dev nD) : (⟨k0_dev32 c, k0_dev32_lt c⟩ : Dev nD) = py c := Fin.ext (k0_dev32_eq c)
theorem dev33_eq (c : Dev nD) : (⟨k0_dev33 c, k0_dev33_lt c⟩ : Dev nD) = py c := Fin.ext (k0_dev33_eq c)
theorem dev34_eq (c : Dev nD) : (⟨k0_dev34 c, k0_dev34_lt c⟩ : Dev nD) = pz c := Fin.ext (k0_dev34_eq c)
theorem dev35_eq (c : Dev nD) : (⟨k0_dev35 c, k0_dev35_lt c⟩ : Dev nD) = pz c := Fin.ext (k0_dev35_eq c)
theorem dev36_eq (c : Dev nD) : (⟨k0_dev36 c, k0_dev36_lt c⟩ : Dev nD) = py c := Fin.ext (k0_dev36_eq c)
theorem dev37_eq (c : Dev nD) : (⟨k0_dev37 c, k0_dev37_lt c⟩ : Dev nD) = py c := Fin.ext (k0_dev37_eq c)
theorem dev38_eq (c : Dev nD) : (⟨k0_dev38 c, k0_dev38_lt c⟩ : Dev nD) = pz c := Fin.ext (k0_dev38_eq c)
theorem dev39_eq (c : Dev nD) : (⟨k0_dev39 c, k0_dev39_lt c⟩ : Dev nD) = py c := Fin.ext (k0_dev39_eq c)
theorem dev40_eq (c : Dev nD) : (⟨k0_dev40 c, k0_dev40_lt c⟩ : Dev nD) = pz c := Fin.ext (k0_dev40_eq c)

end Cert.KernelIdeal.RS

end
-- ==== Proof.Records.lean ====
import proofs.«901022_g7700000000001023_dist_rs_v7x_xyz2x2x2_x_m4096_n1024_bf16_1_alg».proof.Proof.Sched
import proofs.«901022_g7700000000001023_dist_rs_v7x_xyz2x2x2_x_m4096_n1024_bf16_1_alg».proof.Proof.MeshDevs

/-! The records every device's body works from: the invariants of all the protocol's cells and that each is at its
    first round, both persistent, over the finite set of cells. -/

noncomputable section

namespace Cert.KernelIdeal.RS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : GSem nD τ sig → ℕ)

/-- The pool indices of the DMA semaphores that are cells of the protocol. -/
def roundsJ : Finset (Fin 140) := Finset.univ.filter fun j => (kindOf j.val).isSome

/-- Every cell of the protocol, on every device: the barrier cell and the protocol's DMA cells. -/
def rsCells : Finset (GSem nD τ sig) :=
  (Finset.univ.image fun t : Dev nD => barCell t) ∪ ((Finset.univ ×ˢ roundsJ).image fun tj : Dev nD × Fin 140 => cellAt tj.1 tj.2)

theorem mem_rsCells_bar (t : Dev nD) : barCell t ∈ (rsCells : Finset (GSem nD τ sig)) :=
  Finset.mem_union_left _ (Finset.mem_image_of_mem _ (Finset.mem_univ t))
theorem mem_rsCells_dma (t : Dev nD) (j : Fin 140) (h : (kindOf j.val).isSome = true) : cellAt t j ∈ (rsCells : Finset (GSem nD τ sig)) :=
  Finset.mem_union_right _ (Finset.mem_image.mpr ⟨(t, j), Finset.mem_product.mpr ⟨Finset.mem_univ _, Finset.mem_filter.mpr ⟨Finset.mem_univ _, h⟩⟩, rfl⟩)

/-- All the cells' invariants, cell g's under the name K g. -/
def invsAll : sProp 𝕄 := bigSep rsCells fun g => cellInv ER (rsRd m) (K g) g
/-- Every cell has reached its first (and only) round. -/
def reachedAll : sProp 𝕄 := bigSep (rsCells : Finset (GSem nD τ sig)) fun g => reached ER g 0

instance invsAll_persistent : BI.Persistent (invsAll m K) := by unfold invsAll; infer_instance
omit [FloatOps F] in
instance reachedAll_persistent : BI.Persistent (reachedAll (F := F)) := by unfold reachedAll; infer_instance

theorem inv_bar (t : Dev nD) : invsAll m K ⊢ cellInv ER (rsRd m) (K (barCell t)) (barCell t) := bigSep_elim (mem_rsCells_bar t)
theorem inv_dma (t : Dev nD) (j : Fin 140) (h : (kindOf j.val).isSome = true) : invsAll m K ⊢ cellInv ER (rsRd m) (K (cellAt t j)) (cellAt t j) :=
  bigSep_elim (mem_rsCells_dma t j h)
omit [FloatOps F] in
theorem reached_bar (t : Dev nD) : (reachedAll (F := F)) ⊢ reached ER (barCell t) 0 := bigSep_elim (mem_rsCells_bar t)
omit [FloatOps F] in
theorem reached_dma (t : Dev nD) (j : Fin 140) (h : (kindOf j.val).isSome = true) : (reachedAll (F := F)) ⊢ reached ER (cellAt t j) 0 :=
  bigSep_elim (mem_rsCells_dma t j h)

end Cert.KernelIdeal.RS

end
-- ==== Proof.Owed.lean ====
import proofs.«901022_g7700000000001023_dist_rs_v7x_xyz2x2x2_x_m4096_n1024_bf16_1_alg».proof.Proof.Records

/-! What a device owes, in the order it pays, and why no wait can deadlock: every cell has a level, a device's own
    receive cells in the order it waits on them, and whatever a device still owes when it waits lies above the cell it waits on. -/

noncomputable section

namespace Cert.KernelIdeal.RS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What a device owes, as a list of (cell, units) in the order the program pays them: the three barrier signals,
    the chunks across x, then per step of the main loop its own chunk to z and to y and, from the fifth step on, the two
    forwarded halves of the chunk before; the last two halves after the loop. -/
def paysL (c : Dev nD) : List (GSem nD τ sig × ℕ) :=
  [(barCell (px c), 1),
   (barCell (pz c), 1),
   (barCell (py c), 1),
   (cellAt (px c) (⟨30, by decide⟩ : Fin 140), NA),
   (cellAt (px c) (⟨31, by decide⟩ : Fin 140), NA),
   (cellAt (px c) (⟨32, by decide⟩ : Fin 140), NA),
   (cellAt (px c) (⟨33, by decide⟩ : Fin 140), NA),
   (cellAt (px c) (⟨34, by decide⟩ : Fin 140), NA),
   (cellAt (px c) (⟨35, by decide⟩ : Fin 140), NA),
   (cellAt (px c) (⟨36, by decide⟩ : Fin 140), NA),
   (cellAt (px c) (⟨37, by decide⟩ : Fin 140), NA),
   (cellAt (px c) (⟨41, by decide⟩ : Fin 140), NA),
   (cellAt (px c) (⟨42, by decide⟩ : Fin 140), NA),
   (cellAt (px c) (⟨43, by decide⟩ : Fin 140), NA),
   (cellAt (pz c) (⟨52, by decide⟩ : Fin 140), NA),
   (cellAt (py c) (⟨68, by decide⟩ : Fin 140), NA),
   (cellAt (pz c) (⟨53, by decide⟩ : Fin 140), NA),
   (cellAt (py c) (⟨69, by decide⟩ : Fin 140), NA),
   (cellAt (pz c) (⟨54, by decide⟩ : Fin 140), NA),
   (cellAt (py c) (⟨70, by decide⟩ : Fin 140), NA),
   (cellAt (pz c) (⟨55, by decide⟩ : Fin 140), NA),
   (cellAt (py c) (⟨71, by decide⟩ : Fin 140), NA),
   (cellAt (pz c) (⟨56, by decide⟩ : Fin 140), NA),
   (cellAt (py c) (⟨72, by decide⟩ : Fin 140), NA),
   (cellAt (py c) (⟨103, by decide⟩ : Fin 140), NH),
   (cellAt (pz c) (⟨87, by decide⟩ : Fin 140), NH),
   (cellAt (pz c) (⟨57, by decide⟩ : Fin 140), NA),
   (cellAt (py c) (⟨73, by decide⟩ : Fin 140), NA),
   (cellAt (py c) (⟨104, by decide⟩ : Fin 140), NH),
   (cellAt (pz c) (⟨88, by decide⟩ : Fin 140), NH),
   (cellAt (pz c) (⟨58, by decide⟩ : Fin 140), NA),
   (cellAt (py c) (⟨74, by decide⟩ : Fin 140), NA),
   (cellAt (py c) (⟨105, by decide⟩ : Fin 140), NH),
   (cellAt (pz c) (⟨89, by decide⟩ : Fin 140), NH),
   (cellAt (pz c) (⟨59, by decide⟩ : Fin 140), NA),
   (cellAt (py c) (⟨75, by decide⟩ : Fin 140), NA),
   (cellAt (py c) (⟨106, by decide⟩ : Fin 140), NH),
   (cellAt (pz c) (⟨90, by decide⟩ : Fin 140), NH),
   (cellAt (py c) (⟨107, by decide⟩ : Fin 140), NH),
   (cellAt (pz c) (⟨91, by decide⟩ : Fin 140), NH)]

/-- The tallies of a list of payments, the first to be paid the last summand. -/
def owedL : List (GSem nD τ sig × ℕ) → CellTallies nD τ sig Unit
  | [] => 0
  | p :: l => owedL l + tallyAt p.1 () p.2

theorem owedL_cons (p : GSem nD τ sig × ℕ) (l : List (GSem nD τ sig × ℕ)) : owedL (p :: l) = owedL l + tallyAt p.1 () p.2 := rfl
theorem owedL_nil : owedL ([] : List (GSem nD τ sig × ℕ)) = 0 := rfl

/-- What device c owes at launch. -/
def O₀ (c : Dev nD) : CellTallies nD τ sig Unit := owedL (paysL c)

theorem owedL_pos {l : List (GSem nD τ sig × ℕ)} {g : GSem nD τ sig} {u : Unit} (h : 0 < owedL l g u) : ∃ p ∈ l, p.1 = g := by
  induction l with
  | nil => exact absurd h (Nat.lt_irrefl 0)
  | cons p l ih =>
    rw [owedL_cons, Pi.add_apply, Finsupp.add_apply, tallyAt_apply] at h
    by_cases hp : g = p.1 ∧ u = ()
    · exact ⟨p, List.mem_cons_self, hp.1.symm⟩
    · rw [if_neg hp, Nat.add_zero] at h
      obtain ⟨q, hq, hqg⟩ := ih h
      exact ⟨q, List.mem_cons_of_mem _ hq, hqg⟩

/-- Only TensorCore cells carry levels. -/
def LL (g : GSem nD τ sig) : Finset Unit := if g.1.2 = .tc then {()} else ∅
/-- The level of a DMA cell by its pool index: a receive cell's place in its owner's order of waits; 0 for the others. -/
def lvJ (j : ℕ) : ℕ :=
  if 30 ≤ j ∧ j < 38 then 10 * (j - 30) + 2 else if 41 ≤ j ∧ j < 44 then 2
  else if 52 ≤ j ∧ j < 60 then 10 * (j - 52 + 1) + 3 else if 68 ≤ j ∧ j < 76 then 10 * (j - 68 + 1) + 4
  else if 84 ≤ j ∧ j < 92 then 10 * (j - 84 + 2) + 5 else if 100 ≤ j ∧ j < 108 then 10 * (j - 100 + 2) + 6 else 0
/-- Barrier cells at 1. -/
def lvv (g : GSem nD τ sig) (_ : Unit) : ℕ := match g.2 with | .reg _ => 1 | .dma j => lvJ j.val

theorem LL_of_ne (g : GSem nD τ sig) (h : g.1.2 ≠ .tc) : LL g = ∅ := if_neg h
theorem LL_tc (c : Dev nD) (sm : SemLoc sig) : LL ((c : Thread nD τ), sm) = {()} := if_pos rfl

omit [FloatOps F] in
/-- A device may wait on one of its cells while it owes the payments l if every cell in l lies above that cell. -/
theorem mayWait_list (c : Dev nD) (sm : SemLoc sig) (l : List (GSem nD τ sig × ℕ))
    (h : ∀ p ∈ l, p.1.1.2 = .tc ∧ lvv ((c : Thread nD τ), sm) () < lvv p.1 ()) :
    (levAts LL lvv : sProp 𝕄) ⊢ MayWait (c : Thread nD τ) sm () (owedL l) :=
  MayOwe.of_cut (L := LL) (lev := lvv) (lvv ((c : Thread nD τ), sm) ())
    (fun p hp => by rw [Finset.mem_singleton.mp hp, LL_tc]; exact Finset.mem_singleton_self _)
    (fun g u hg => by
      obtain ⟨p, hp, rfl⟩ := owedL_pos hg
      unfold LL; rw [if_pos (h p hp).1]; exact Finset.mem_singleton_self _)
    (fun p hp => by rw [Finset.mem_singleton.mp hp])
    (fun g u hg => by
      obtain ⟨p, hp, rfl⟩ := owedL_pos hg
      exact (h p hp).2)

end Cert.KernelIdeal.RS

end
-- ==== Proof.SepL.lean ====
import Idealize.ShloMosaic.Lib.Pipeline.Kit

/-! Chains of separating conjunctions over listed index sets: appending, mapping, exchanging with a conjunction over all
    devices, and the conjunction over a listed subtype. -/

noncomputable section

namespace Idealize.SL.BI

open Idealize.SL.RA Idealize.SL.BI.BIBase Idealize.SL.BI.Laws Idealize.SL.ProofMode
open scoped Idealize.SL.BI

variable {M : Type _} [URA M] {I : Type _}

theorem sep_emp_eq (P : sProp M) : iprop(P ∗ emp) = P := equiv_iff.mp sep_emp
theorem emp_sep_eq (P : sProp M) : iprop(emp ∗ P) = P := equiv_iff.mp emp_sep
theorem sep_assoc_eq (P Q R : sProp M) : iprop((P ∗ Q) ∗ R) = iprop(P ∗ Q ∗ R) := Entails.antisymm sep_assoc sep_assoc'
theorem sep_comm_eq (P Q : sProp M) : iprop(P ∗ Q) = iprop(Q ∗ P) := Entails.antisymm sep_comm sep_comm
theorem sep_left_comm_eq (P Q R : sProp M) : iprop(P ∗ Q ∗ R) = iprop(Q ∗ P ∗ R) := by
  rw [← sep_assoc_eq, sep_comm_eq P Q, sep_assoc_eq]

/-- The chain over a list with a head, stated with the logic's own conjunction. -/
theorem bigSepL_cons' (i : I) (l : List I) (Φ : I → sProp M) : bigSepL (i :: l) Φ = iprop(Φ i ∗ bigSepL l Φ) := bigSepL_cons i l Φ

/-- The chain over an appended list is the two chains. -/
theorem bigSepL_append (l₁ l₂ : List I) (Φ : I → sProp M) :
    bigSepL (l₁ ++ l₂) Φ = iprop(bigSepL l₁ Φ ∗ bigSepL l₂ Φ) := by
  induction l₁ with
  | nil => exact (emp_sep_eq _).symm
  | cons i l ih => rw [List.cons_append, bigSepL_cons, ih, bigSepL_cons]; exact (sep_assoc_eq _ _ _).symm

/-- The chain over a mapped list. -/
theorem bigSepL_map {J : Type _} (f : J → I) (l : List J) (Φ : I → sProp M) :
    bigSepL (l.map f) Φ = bigSepL l fun x => Φ (f x) := by
  induction l with
  | nil => rfl
  | cons j l ih => rw [List.map_cons, bigSepL_cons, ih, bigSepL_cons]

theorem bigSepL_congr {l : List I} {Φ Ψ : I → sProp M} (h : ∀ i ∈ l, Φ i = Ψ i) : bigSepL l Φ = bigSepL l Ψ := by
  induction l with
  | nil => rfl
  | cons i l ih =>
    rw [bigSepL_cons, bigSepL_cons, h i List.mem_cons_self, ih fun j hj => h j (List.mem_cons_of_mem _ hj)]

theorem bigSepL_mono {l : List I} {Φ Ψ : I → sProp M} (h : ∀ i ∈ l, Φ i ⊢ Ψ i) : bigSepL l Φ ⊢ bigSepL l Ψ := by
  induction l with
  | nil => exact BI.Entails.refl _
  | cons i l ih =>
    rw [bigSepL_cons, bigSepL_cons]
    exact sep_mono (h i List.mem_cons_self) (ih fun j hj => h j (List.mem_cons_of_mem _ hj))

theorem bigSepL_sep (l : List I) (Φ Ψ : I → sProp M) :
    (bigSepL l fun i => iprop(Φ i ∗ Ψ i)) = iprop(bigSepL l Φ ∗ bigSepL l Ψ) := by
  induction l with
  | nil => exact (emp_sep_eq _).symm
  | cons i l ih =>
    rw [bigSepL_cons, bigSepL_cons, bigSepL_cons, ih]
    show iprop((Φ i ∗ Ψ i) ∗ bigSepL l Φ ∗ bigSepL l Ψ) = iprop((Φ i ∗ bigSepL l Φ) ∗ Ψ i ∗ bigSepL l Ψ)
    rw [sep_assoc_eq, sep_assoc_eq, sep_left_comm_eq (Ψ i)]

/-- A conjunction over a finite type of chains is the chain of the conjunctions. -/
theorem bigSep_bigSepL_comm {A : Type _} (s : Finset A) (l : List I) (Φ : A → I → sProp M) :
    (bigSep s fun a => bigSepL l fun i => Φ a i) = bigSepL l fun i => bigSep s fun a => Φ a i := by
  induction l with
  | nil => exact bigSep_emp_const s
  | cons i l ih =>
    rw [bigSepL_cons, ← ih, ← bigSep_sep]
    exact bigSep_congr fun a _ => bigSepL_cons i l (Φ a)

/-- The conjunction over the subtype of a list's members is the list's chain. -/
theorem bigSep_univ_subtype_list [Fintype I] [DecidableEq I] (l : List I) (hl : l.Nodup) (Ψ : I → sProp M) :
    (bigSep (Finset.univ : Finset {x : I // x ∈ l}) fun x => Ψ x.1) = bigSepL l Ψ := by
  have e := bigSep_subtype (fun x => x ∈ l) Ψ
  have h : (Finset.univ.filter fun x => x ∈ l) = l.toFinset := by
    ext x; simp
  rw [h, bigSep_eq_bigSepL l hl] at e
  refine Eq.trans ?_ e
  congr 1
  exact Finset.ext fun x => by simp only [Finset.mem_univ]

/-- One conjunct out of a chain. -/
theorem bigSepL_elim {l : List I} {i : I} (h : i ∈ l) (Φ : I → sProp M) : bigSepL l Φ ⊢ Φ i := by
  induction l with
  | nil => exact absurd h List.not_mem_nil
  | cons j l ih =>
    rw [bigSepL_cons']
    rcases List.mem_cons.mp h with rfl | h'
    · exact sep_and.trans and_elimL
    · exact (sep_and.trans and_elimR).trans (ih h')

/-- A persistent assertion gives every conjunct of a chain it gives one by one. -/
theorem bigSepL_of_persistent {R : sProp M} [Persistent R] (l : List I) (Φ : I → sProp M) (h : ∀ i ∈ l, R ⊢ Φ i) :
    R ⊢ bigSepL l Φ := by
  induction l with
  | nil => iintro -; iempintro
  | cons j l ih =>
    rw [bigSepL_cons']
    iintro #H
    isplitr
    · iapply (h j List.mem_cons_self); iexact H
    · iapply (ih fun i hi => h i (List.mem_cons_of_mem _ hi)); iexact H

instance bigSepL_persistent (l : List I) (Φ : I → sProp M) [∀ i, Persistent (Φ i)] : Persistent (bigSepL l Φ) := by
  induction l with
  | nil => show Persistent (BIBase.emp : sProp M); infer_instance
  | cons j l ih => rw [bigSepL_cons']; infer_instance

/-- The conjunction over the positions of a list is the list's chain. -/
theorem bigSep_fin_get (l : List I) (Ψ : I → sProp M) :
    (bigSep (Finset.univ : Finset (Fin l.length)) fun i => Ψ (l.get i)) = bigSepL l Ψ := by
  rw [bigSep_univ_eq_bigSepL (List.finRange l.length) (by ext i; simp) (List.nodup_finRange _),
    ← bigSepL_map (fun i : Fin l.length => l.get i) (List.finRange l.length) Ψ]
  congr 1
  exact List.map_get_finRange l

/-- Two listings of one set give the same chain. -/
theorem bigSepL_of_toFinset_eq [DecidableEq I] (l l' : List I) (hl : l.Nodup) (hl' : l'.Nodup) (h : l.toFinset = l'.toFinset)
    (Φ : I → sProp M) : bigSepL l Φ = bigSepL l' Φ := by
  rw [← bigSep_eq_bigSepL l hl, ← bigSep_eq_bigSepL l' hl', h]

end Idealize.SL.BI

end
-- ==== Proof.Data.lean ====
import proofs.«901022_g7700000000001023_dist_rs_v7x_xyz2x2x2_x_m4096_n1024_bf16_1_alg».proof.Proof.Sched
import proofs.«901022_g7700000000001023_dist_rs_v7x_xyz2x2x2_x_m4096_n1024_bf16_1_alg».proof.Proof.Records
import proofs.«901022_g7700000000001023_dist_rs_v7x_xyz2x2x2_x_m4096_n1024_bf16_1_alg».proof.Proof.Owed
import proofs.«901022_g7700000000001023_dist_rs_v7x_xyz2x2x2_x_m4096_n1024_bf16_1_alg».proof.Proof.SepL
import Idealize.ShloMosaic.Lib.Pipeline.Launch
import Idealize.ShloMosaic.Lib.Pipeline.Kit
import Idealize.ShloMosaic.Lib.Tactic

/-! What each device starts its body from and ends it with: its positions at its own cells, the tokens of the duties it
    pays, the credit of its receive cells, what it owes its neighbours in the order it pays, the levels that order its
    waits, and the pipeline's proof data (no window: the body's buffers are scratch, the argument and the result). -/

noncomputable section

namespace Cert.KernelIdeal.RS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of one device, listed -/

/-- The pool indices of the protocol's DMA cells, ascending. -/
abbrev rsJ : List (Fin 140) := [22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 79, 80, 81, 82, 83, 87, 88, 89, 90, 91, 95, 96, 97, 98, 99, 103, 104, 105, 106, 107]
/-- The other pool indices: the semaphores of the local copies, plain counters. -/
abbrev idleJ : List (Fin 140) := [0, 1, 2, 3, 4, 5, 6, 7, 8, 9, 10, 11, 12, 13, 14, 15, 16, 17, 18, 19, 20, 21, 76, 77, 78, 84, 85, 86, 92, 93, 94, 100, 101, 102, 108, 109, 110, 111, 112, 113, 114, 115, 116, 117, 118, 119, 120, 121, 122, 123, 124, 125, 126, 127, 128, 129, 130, 131, 132, 133, 134, 135, 136, 137, 138, 139]
/-- A device's cells of the protocol: its barrier cell, then its DMA cells ascending. -/
abbrev csemL : List (SemLoc sig) := (.reg barS : SemLoc sig) :: rsJ.map dsem

theorem rsJ_nodup : rsJ.Nodup := by decide
theorem idleJ_nodup : idleJ.Nodup := by decide
theorem rsJ_isSome : ∀ j ∈ rsJ, (kindOf j.val).isSome = true := by decide
theorem isSome_mem_rsJ : ∀ j : Fin 140, (kindOf j.val).isSome = true → j ∈ rsJ := by decide
theorem idleJ_isNone : ∀ j ∈ idleJ, (kindOf j.val).isSome = false := by decide
theorem isNone_mem_idleJ : ∀ j : Fin 140, (kindOf j.val).isSome = false → j ∈ idleJ := by decide

/-- The neighbour in direction `i`: the device itself, or the one across x, y, z. -/
def nbr (i : Fin 4) (c : Dev nD) : Dev nD := match i with | 0 => c | 1 => px c | 2 => py c | 3 => pz c
theorem nbr_nbr (i : Fin 4) (c : Dev nD) : nbr i (nbr i c) = c := by
  match i with
  | 0 => rfl
  | 1 => exact px_px c
  | 2 => exact py_py c
  | 3 => exact pz_pz c

/-! ## Positions, tokens, credit -/

/-- The device's position at round 0 of each of its cells. -/
def myPos (c : Dev nD) : sProp 𝕄 := bigSepL csemL fun sm => atPos ER ((c : Thread nD τ), sm) 0 ∅ 0
omit [FloatOps F] in
theorem myPos_unfold (c : Dev nD) : (myPos c : sProp 𝕄) = iprop(atPos ER (barCell c) 0 ∅ 0
    ∗ atPos ER (cellAt c 22) 0 ∅ 0 ∗ atPos ER (cellAt c 23) 0 ∅ 0 ∗ atPos ER (cellAt c 24) 0 ∅ 0
    ∗ atPos ER (cellAt c 25) 0 ∅ 0 ∗ atPos ER (cellAt c 26) 0 ∅ 0 ∗ atPos ER (cellAt c 27) 0 ∅ 0
    ∗ atPos ER (cellAt c 28) 0 ∅ 0 ∗ atPos ER (cellAt c 29) 0 ∅ 0 ∗ atPos ER (cellAt c 30) 0 ∅ 0
    ∗ atPos ER (cellAt c 31) 0 ∅ 0 ∗ atPos ER (cellAt c 32) 0 ∅ 0 ∗ atPos ER (cellAt c 33) 0 ∅ 0
    ∗ atPos ER (cellAt c 34) 0 ∅ 0 ∗ atPos ER (cellAt c 35) 0 ∅ 0 ∗ atPos ER (cellAt c 36) 0 ∅ 0
    ∗ atPos ER (cellAt c 37) 0 ∅ 0 ∗ atPos ER (cellAt c 38) 0 ∅ 0 ∗ atPos ER (cellAt c 39) 0 ∅ 0
    ∗ atPos ER (cellAt c 40) 0 ∅ 0 ∗ atPos ER (cellAt c 41) 0 ∅ 0 ∗ atPos ER (cellAt c 42) 0 ∅ 0
    ∗ atPos ER (cellAt c 43) 0 ∅ 0 ∗ atPos ER (cellAt c 44) 0 ∅ 0 ∗ atPos ER (cellAt c 45) 0 ∅ 0
    ∗ atPos ER (cellAt c 46) 0 ∅ 0 ∗ atPos ER (cellAt c 47) 0 ∅ 0 ∗ atPos ER (cellAt c 48) 0 ∅ 0
    ∗ atPos ER (cellAt c 49) 0 ∅ 0 ∗ atPos ER (cellAt c 50) 0 ∅ 0 ∗ atPos ER (cellAt c 51) 0 ∅ 0
    ∗ atPos ER (cellAt c 52) 0 ∅ 0 ∗ atPos ER (cellAt c 53) 0 ∅ 0 ∗ atPos ER (cellAt c 54) 0 ∅ 0
    ∗ atPos ER (cellAt c 55) 0 ∅ 0 ∗ atPos ER (cellAt c 56) 0 ∅ 0 ∗ atPos ER (cellAt c 57) 0 ∅ 0
    ∗ atPos ER (cellAt c 58) 0 ∅ 0 ∗ atPos ER (cellAt c 59) 0 ∅ 0 ∗ atPos ER (cellAt c 60) 0 ∅ 0
    ∗ atPos ER (cellAt c 61) 0 ∅ 0 ∗ atPos ER (cellAt c 62) 0 ∅ 0 ∗ atPos ER (cellAt c 63) 0 ∅ 0
    ∗ atPos ER (cellAt c 64) 0 ∅ 0 ∗ atPos ER (cellAt c 65) 0 ∅ 0 ∗ atPos ER (cellAt c 66) 0 ∅ 0
    ∗ atPos ER (cellAt c 67) 0 ∅ 0 ∗ atPos ER (cellAt c 68) 0 ∅ 0 ∗ atPos ER (cellAt c 69) 0 ∅ 0
    ∗ atPos ER (cellAt c 70) 0 ∅ 0 ∗ atPos ER (cellAt c 71) 0 ∅ 0 ∗ atPos ER (cellAt c 72) 0 ∅ 0
    ∗ atPos ER (cellAt c 73) 0 ∅ 0 ∗ atPos ER (cellAt c 74) 0 ∅ 0 ∗ atPos ER (cellAt c 75) 0 ∅ 0
    ∗ atPos ER (cellAt c 79) 0 ∅ 0 ∗ atPos ER (cellAt c 80) 0 ∅ 0 ∗ atPos ER (cellAt c 81) 0 ∅ 0
    ∗ atPos ER (cellAt c 82) 0 ∅ 0 ∗ atPos ER (cellAt c 83) 0 ∅ 0 ∗ atPos ER (cellAt c 87) 0 ∅ 0
    ∗ atPos ER (cellAt c 88) 0 ∅ 0 ∗ atPos ER (cellAt c 89) 0 ∅ 0 ∗ atPos ER (cellAt c 90) 0 ∅ 0
    ∗ atPos ER (cellAt c 91) 0 ∅ 0 ∗ atPos ER (cellAt c 95) 0 ∅ 0 ∗ atPos ER (cellAt c 96) 0 ∅ 0
    ∗ atPos ER (cellAt c 97) 0 ∅ 0 ∗ atPos ER (cellAt c 98) 0 ∅ 0 ∗ atPos ER (cellAt c 99) 0 ∅ 0
    ∗ atPos ER (cellAt c 103) 0 ∅ 0 ∗ atPos ER (cellAt c 104) 0 ∅ 0 ∗ atPos ER (cellAt c 105) 0 ∅ 0
    ∗ atPos ER (cellAt c 106) 0 ∅ 0 ∗ atPos ER (cellAt c 107) 0 ∅ 0) := rfl

/-- The duty tokens a device pays, in the order it uses them: (semaphore, duty, direction of the cell's owner). -/
abbrev tokL : List (SemLoc sig × DD × Fin 4) := [(.reg barS, 0, 1), (.reg barS, 2, 3), (.reg barS, 1, 2), (dsem 22, 0, 0), (dsem 30, 0, 1), (dsem 23, 0, 0), (dsem 31, 0, 1), (dsem 24, 0, 0), (dsem 32, 0, 1), (dsem 25, 0, 0), (dsem 33, 0, 1), (dsem 26, 0, 0), (dsem 34, 0, 1), (dsem 27, 0, 0), (dsem 35, 0, 1), (dsem 28, 0, 0), (dsem 36, 0, 1), (dsem 29, 0, 0), (dsem 37, 0, 1), (dsem 38, 0, 0), (dsem 41, 0, 1), (dsem 39, 0, 0), (dsem 42, 0, 1), (dsem 40, 0, 0), (dsem 43, 0, 1), (dsem 44, 0, 0), (dsem 52, 0, 3), (dsem 45, 0, 0), (dsem 53, 0, 3), (dsem 46, 0, 0), (dsem 54, 0, 3), (dsem 47, 0, 0), (dsem 55, 0, 3), (dsem 48, 0, 0), (dsem 56, 0, 3), (dsem 49, 0, 0), (dsem 57, 0, 3), (dsem 50, 0, 0), (dsem 58, 0, 3), (dsem 51, 0, 0), (dsem 59, 0, 3), (dsem 60, 0, 0), (dsem 68, 0, 2), (dsem 61, 0, 0), (dsem 69, 0, 2), (dsem 62, 0, 0), (dsem 70, 0, 2), (dsem 63, 0, 0), (dsem 71, 0, 2), (dsem 64, 0, 0), (dsem 72, 0, 2), (dsem 65, 0, 0), (dsem 73, 0, 2), (dsem 66, 0, 0), (dsem 74, 0, 2), (dsem 67, 0, 0), (dsem 75, 0, 2), (dsem 79, 0, 0), (dsem 87, 0, 3), (dsem 80, 0, 0), (dsem 88, 0, 3), (dsem 81, 0, 0), (dsem 89, 0, 3), (dsem 82, 0, 0), (dsem 90, 0, 3), (dsem 83, 0, 0), (dsem 91, 0, 3), (dsem 95, 0, 0), (dsem 103, 0, 2), (dsem 96, 0, 0), (dsem 104, 0, 2), (dsem 97, 0, 0), (dsem 105, 0, 2), (dsem 98, 0, 0), (dsem 106, 0, 2), (dsem 99, 0, 0), (dsem 107, 0, 2)]
def myToks (c : Dev nD) : sProp 𝕄 := bigSepL tokL fun x => dutyTok ER (((nbr x.2.2 c : Dev nD) : Thread nD τ), x.1) 0 x.2.1
omit [FloatOps F] in
theorem myToks_unfold (c : Dev nD) : (myToks c : sProp 𝕄) = iprop(dutyTok ER (barCell (px c)) 0 0 ∗ dutyTok ER (barCell (pz c)) 0 2
    ∗ dutyTok ER (barCell (py c)) 0 1 ∗ dutyTok ER (cellAt c 22) 0 0
    ∗ dutyTok ER (cellAt (px c) 30) 0 0 ∗ dutyTok ER (cellAt c 23) 0 0
    ∗ dutyTok ER (cellAt (px c) 31) 0 0 ∗ dutyTok ER (cellAt c 24) 0 0
    ∗ dutyTok ER (cellAt (px c) 32) 0 0 ∗ dutyTok ER (cellAt c 25) 0 0
    ∗ dutyTok ER (cellAt (px c) 33) 0 0 ∗ dutyTok ER (cellAt c 26) 0 0
    ∗ dutyTok ER (cellAt (px c) 34) 0 0 ∗ dutyTok ER (cellAt c 27) 0 0
    ∗ dutyTok ER (cellAt (px c) 35) 0 0 ∗ dutyTok ER (cellAt c 28) 0 0
    ∗ dutyTok ER (cellAt (px c) 36) 0 0 ∗ dutyTok ER (cellAt c 29) 0 0
    ∗ dutyTok ER (cellAt (px c) 37) 0 0 ∗ dutyTok ER (cellAt c 38) 0 0
    ∗ dutyTok ER (cellAt (px c) 41) 0 0 ∗ dutyTok ER (cellAt c 39) 0 0
    ∗ dutyTok ER (cellAt (px c) 42) 0 0 ∗ dutyTok ER (cellAt c 40) 0 0
    ∗ dutyTok ER (cellAt (px c) 43) 0 0 ∗ dutyTok ER (cellAt c 44) 0 0
    ∗ dutyTok ER (cellAt (pz c) 52) 0 0 ∗ dutyTok ER (cellAt c 45) 0 0
    ∗ dutyTok ER (cellAt (pz c) 53) 0 0 ∗ dutyTok ER (cellAt c 46) 0 0
    ∗ dutyTok ER (cellAt (pz c) 54) 0 0 ∗ dutyTok ER (cellAt c 47) 0 0
    ∗ dutyTok ER (cellAt (pz c) 55) 0 0 ∗ dutyTok ER (cellAt c 48) 0 0
    ∗ dutyTok ER (cellAt (pz c) 56) 0 0 ∗ dutyTok ER (cellAt c 49) 0 0
    ∗ dutyTok ER (cellAt (pz c) 57) 0 0 ∗ dutyTok ER (cellAt c 50) 0 0
    ∗ dutyTok ER (cellAt (pz c) 58) 0 0 ∗ dutyTok ER (cellAt c 51) 0 0
    ∗ dutyTok ER (cellAt (pz c) 59) 0 0 ∗ dutyTok ER (cellAt c 60) 0 0
    ∗ dutyTok ER (cellAt (py c) 68) 0 0 ∗ dutyTok ER (cellAt c 61) 0 0
    ∗ dutyTok ER (cellAt (py c) 69) 0 0 ∗ dutyTok ER (cellAt c 62) 0 0
    ∗ dutyTok ER (cellAt (py c) 70) 0 0 ∗ dutyTok ER (cellAt c 63) 0 0
    ∗ dutyTok ER (cellAt (py c) 71) 0 0 ∗ dutyTok ER (cellAt c 64) 0 0
    ∗ dutyTok ER (cellAt (py c) 72) 0 0 ∗ dutyTok ER (cellAt c 65) 0 0
    ∗ dutyTok ER (cellAt (py c) 73) 0 0 ∗ dutyTok ER (cellAt c 66) 0 0
    ∗ dutyTok ER (cellAt (py c) 74) 0 0 ∗ dutyTok ER (cellAt c 67) 0 0
    ∗ dutyTok ER (cellAt (py c) 75) 0 0 ∗ dutyTok ER (cellAt c 79) 0 0
    ∗ dutyTok ER (cellAt (pz c) 87) 0 0 ∗ dutyTok ER (cellAt c 80) 0 0
    ∗ dutyTok ER (cellAt (pz c) 88) 0 0 ∗ dutyTok ER (cellAt c 81) 0 0
    ∗ dutyTok ER (cellAt (pz c) 89) 0 0 ∗ dutyTok ER (cellAt c 82) 0 0
    ∗ dutyTok ER (cellAt (pz c) 90) 0 0 ∗ dutyTok ER (cellAt c 83) 0 0
    ∗ dutyTok ER (cellAt (pz c) 91) 0 0 ∗ dutyTok ER (cellAt c 95) 0 0
    ∗ dutyTok ER (cellAt (py c) 103) 0 0 ∗ dutyTok ER (cellAt c 96) 0 0
    ∗ dutyTok ER (cellAt (py c) 104) 0 0 ∗ dutyTok ER (cellAt c 97) 0 0
    ∗ dutyTok ER (cellAt (py c) 105) 0 0 ∗ dutyTok ER (cellAt c 98) 0 0
    ∗ dutyTok ER (cellAt (py c) 106) 0 0 ∗ dutyTok ER (cellAt c 99) 0 0
    ∗ dutyTok ER (cellAt (py c) 107) 0 0) := rfl

/-- The credit of one duty of a DMA cell: a chunk's or a half chunk's. -/
def amtOf (j : ℕ) : ℕ := match kindOf j with | some (a, _) => if a < 8 then NA else NH | none => 1
/-- The device's receive cells, in the order of the arrays. -/
abbrev recvJ : List (Fin 140) := [30, 31, 32, 33, 34, 35, 36, 37, 41, 42, 43, 52, 53, 54, 55, 56, 57, 58, 59, 68, 69, 70, 71, 72, 73, 74, 75, 87, 88, 89, 90, 91, 103, 104, 105, 106, 107]
/-- The credit tokens of the device's waits that others pay: its barrier's three units and each receive cell's credit. -/
def myCred (c : Dev nD) : sProp 𝕄 :=
  iprop(cred (tallyAt (barCell c) () 3) ∗ bigSepL recvJ fun j => cred (tallyAt (cellAt c j) () (amtOf j.val)))
omit [FloatOps F] in
theorem myCred_unfold (c : Dev nD) : (myCred c : sProp 𝕄) = iprop(cred (tallyAt (barCell c) () 3)
    ∗ cred (tallyAt (cellAt c 30) () NA) ∗ cred (tallyAt (cellAt c 31) () NA) ∗ cred (tallyAt (cellAt c 32) () NA)
    ∗ cred (tallyAt (cellAt c 33) () NA) ∗ cred (tallyAt (cellAt c 34) () NA) ∗ cred (tallyAt (cellAt c 35) () NA)
    ∗ cred (tallyAt (cellAt c 36) () NA) ∗ cred (tallyAt (cellAt c 37) () NA) ∗ cred (tallyAt (cellAt c 41) () NA)
    ∗ cred (tallyAt (cellAt c 42) () NA) ∗ cred (tallyAt (cellAt c 43) () NA) ∗ cred (tallyAt (cellAt c 52) () NA)
    ∗ cred (tallyAt (cellAt c 53) () NA) ∗ cred (tallyAt (cellAt c 54) () NA) ∗ cred (tallyAt (cellAt c 55) () NA)
    ∗ cred (tallyAt (cellAt c 56) () NA) ∗ cred (tallyAt (cellAt c 57) () NA) ∗ cred (tallyAt (cellAt c 58) () NA)
    ∗ cred (tallyAt (cellAt c 59) () NA) ∗ cred (tallyAt (cellAt c 68) () NA) ∗ cred (tallyAt (cellAt c 69) () NA)
    ∗ cred (tallyAt (cellAt c 70) () NA) ∗ cred (tallyAt (cellAt c 71) () NA) ∗ cred (tallyAt (cellAt c 72) () NA)
    ∗ cred (tallyAt (cellAt c 73) () NA) ∗ cred (tallyAt (cellAt c 74) () NA) ∗ cred (tallyAt (cellAt c 75) () NA)
    ∗ cred (tallyAt (cellAt c 87) () NH) ∗ cred (tallyAt (cellAt c 88) () NH) ∗ cred (tallyAt (cellAt c 89) () NH)
    ∗ cred (tallyAt (cellAt c 90) () NH) ∗ cred (tallyAt (cellAt c 91) () NH) ∗ cred (tallyAt (cellAt c 103) () NH)
    ∗ cred (tallyAt (cellAt c 104) () NH) ∗ cred (tallyAt (cellAt c 105) () NH) ∗ cred (tallyAt (cellAt c 106) () NH)
    ∗ cred (tallyAt (cellAt c 107) () NH)) := rfl

/-! ## The cells' records, device by device -/

theorem mem_csemL_bar : (.reg barS : SemLoc sig) ∈ (csemL : List (SemLoc sig)) := List.mem_cons_self ..
theorem mem_csemL_dma (j : Fin 140) (h : (kindOf j.val).isSome = true) : dsem j ∈ (csemL : List (SemLoc sig)) :=
  List.mem_cons_of_mem _ (List.mem_map.mpr ⟨j, isSome_mem_rsJ j h, rfl⟩)

/-- Every cell's invariant, device by device, the cell `(t, sm)`'s under the name `K (t, sm)`. -/
def invsL (K : GSem nD τ sig → ℕ) : sProp 𝕄 :=
  bigSep (Finset.univ : Finset (Dev nD)) fun t => bigSepL csemL fun sm => cellInv ER (rsRd m) (K ((t : Thread nD τ), sm)) ((t : Thread nD τ), sm)
/-- Every cell has reached its first (and only) round. -/
def reachedL : sProp 𝕄 :=
  bigSep (Finset.univ : Finset (Dev nD)) fun t => bigSepL csemL fun sm => reached ER ((t : Thread nD τ), sm) 0

instance invsL_persistent (K : GSem nD τ sig → ℕ) : BI.Persistent (invsL m K) := by unfold invsL; infer_instance
omit [FloatOps F] in
instance reachedL_persistent : BI.Persistent (reachedL (F := F)) := by unfold reachedL; infer_instance

theorem invL_at (K : GSem nD τ sig → ℕ) (t : Dev nD) {sm : SemLoc sig} (h : sm ∈ (csemL : List (SemLoc sig))) :
    invsL m K ⊢ cellInv ER (rsRd m) (K ((t : Thread nD τ), sm)) ((t : Thread nD τ), sm) :=
  (bigSep_elim (Finset.mem_univ t)).trans (bigSepL_elim h _)
omit [FloatOps F] in
theorem reachedL_at (t : Dev nD) {sm : SemLoc sig} (h : sm ∈ (csemL : List (SemLoc sig))) :
    (reachedL (F := F)) ⊢ reached ER ((t : Thread nD τ), sm) 0 :=
  (bigSep_elim (Finset.mem_univ t)).trans (bigSepL_elim h _)
theorem invL_bar (K : GSem nD τ sig → ℕ) (t : Dev nD) : invsL m K ⊢ cellInv ER (rsRd m) (K (barCell t)) (barCell t) := invL_at m K t mem_csemL_bar
theorem invL_dma (K : GSem nD τ sig → ℕ) (t : Dev nD) (j : Fin 140) (h : (kindOf j.val).isSome = true) :
    invsL m K ⊢ cellInv ER (rsRd m) (K (cellAt t j)) (cellAt t j) := invL_at m K t (mem_csemL_dma j h)
omit [FloatOps F] in
theorem reachedL_bar (t : Dev nD) : (reachedL (F := F)) ⊢ reached ER (barCell t) 0 := reachedL_at t mem_csemL_bar
omit [FloatOps F] in
theorem reachedL_dma (t : Dev nD) (j : Fin 140) (h : (kindOf j.val).isSome = true) : (reachedL (F := F)) ⊢ reached ER (cellAt t j) 0 :=
  reachedL_at t (mem_csemL_dma j h)

/-! ## The proof data -/

/-- What device `c`'s body works from: every cell's invariant and first round reached, its positions, the tokens it pays. -/
def ghost (K : GSem nD τ sig → ℕ) (c : Dev nD) : sProp 𝕄 := iprop(invsL m K ∗ reachedL (F := F) ∗ myPos c ∗ myToks c)
/-- That at some names, the credit of its waits, and the level facts. -/
def start (c : Dev nD) : sProp 𝕄 := iprop((∃ K, ghost m K c) ∗ myCred c ∗ levAts LL lvv)

/-- The nine scratch buffers, each whole at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f)
    ∗ (∃ f : Buf (Elt F) ((c : Thread nD τ).loc cc0_scratch8), ((c : Thread nD τ).loc cc0_scratch8) ↦{fullShare} f))
/-- The semaphores of the local copies, plain counters at zero; -/
def idleSems (c : Dev nD) : sProp 𝕄 := bigSepL idleJ fun j => semVal (cellAt c j) 0
/-- the protocol's DMA cells closed, their counters back at zero. -/
def rsSems0 (c : Dev nD) : sProp 𝕄 := bigSepL rsJ fun j => semVal (cellAt c j) 0
omit [FloatOps F] in
theorem idleSems_unfold (c : Dev nD) : (idleSems c : sProp 𝕄) = iprop(semVal (cellAt c 0) 0 ∗ semVal (cellAt c 1) 0 ∗ semVal (cellAt c 2) 0 ∗ semVal (cellAt c 3) 0
    ∗ semVal (cellAt c 4) 0 ∗ semVal (cellAt c 5) 0 ∗ semVal (cellAt c 6) 0 ∗ semVal (cellAt c 7) 0
    ∗ semVal (cellAt c 8) 0 ∗ semVal (cellAt c 9) 0 ∗ semVal (cellAt c 10) 0 ∗ semVal (cellAt c 11) 0
    ∗ semVal (cellAt c 12) 0 ∗ semVal (cellAt c 13) 0 ∗ semVal (cellAt c 14) 0 ∗ semVal (cellAt c 15) 0
    ∗ semVal (cellAt c 16) 0 ∗ semVal (cellAt c 17) 0 ∗ semVal (cellAt c 18) 0 ∗ semVal (cellAt c 19) 0
    ∗ semVal (cellAt c 20) 0 ∗ semVal (cellAt c 21) 0 ∗ semVal (cellAt c 76) 0 ∗ semVal (cellAt c 77) 0
    ∗ semVal (cellAt c 78) 0 ∗ semVal (cellAt c 84) 0 ∗ semVal (cellAt c 85) 0 ∗ semVal (cellAt c 86) 0
    ∗ semVal (cellAt c 92) 0 ∗ semVal (cellAt c 93) 0 ∗ semVal (cellAt c 94) 0 ∗ semVal (cellAt c 100) 0
    ∗ semVal (cellAt c 101) 0 ∗ semVal (cellAt c 102) 0 ∗ semVal (cellAt c 108) 0 ∗ semVal (cellAt c 109) 0
    ∗ semVal (cellAt c 110) 0 ∗ semVal (cellAt c 111) 0 ∗ semVal (cellAt c 112) 0 ∗ semVal (cellAt c 113) 0
    ∗ semVal (cellAt c 114) 0 ∗ semVal (cellAt c 115) 0 ∗ semVal (cellAt c 116) 0 ∗ semVal (cellAt c 117) 0
    ∗ semVal (cellAt c 118) 0 ∗ semVal (cellAt c 119) 0 ∗ semVal (cellAt c 120) 0 ∗ semVal (cellAt c 121) 0
    ∗ semVal (cellAt c 122) 0 ∗ semVal (cellAt c 123) 0 ∗ semVal (cellAt c 124) 0 ∗ semVal (cellAt c 125) 0
    ∗ semVal (cellAt c 126) 0 ∗ semVal (cellAt c 127) 0 ∗ semVal (cellAt c 128) 0 ∗ semVal (cellAt c 129) 0
    ∗ semVal (cellAt c 130) 0 ∗ semVal (cellAt c 131) 0 ∗ semVal (cellAt c 132) 0 ∗ semVal (cellAt c 133) 0
    ∗ semVal (cellAt c 134) 0 ∗ semVal (cellAt c 135) 0 ∗ semVal (cellAt c 136) 0 ∗ semVal (cellAt c 137) 0
    ∗ semVal (cellAt c 138) 0 ∗ semVal (cellAt c 139) 0) := rfl
omit [FloatOps F] in
theorem rsSems0_unfold (c : Dev nD) : (rsSems0 c : sProp 𝕄) = iprop(semVal (cellAt c 22) 0 ∗ semVal (cellAt c 23) 0 ∗ semVal (cellAt c 24) 0 ∗ semVal (cellAt c 25) 0
    ∗ semVal (cellAt c 26) 0 ∗ semVal (cellAt c 27) 0 ∗ semVal (cellAt c 28) 0 ∗ semVal (cellAt c 29) 0
    ∗ semVal (cellAt c 30) 0 ∗ semVal (cellAt c 31) 0 ∗ semVal (cellAt c 32) 0 ∗ semVal (cellAt c 33) 0
    ∗ semVal (cellAt c 34) 0 ∗ semVal (cellAt c 35) 0 ∗ semVal (cellAt c 36) 0 ∗ semVal (cellAt c 37) 0
    ∗ semVal (cellAt c 38) 0 ∗ semVal (cellAt c 39) 0 ∗ semVal (cellAt c 40) 0 ∗ semVal (cellAt c 41) 0
    ∗ semVal (cellAt c 42) 0 ∗ semVal (cellAt c 43) 0 ∗ semVal (cellAt c 44) 0 ∗ semVal (cellAt c 45) 0
    ∗ semVal (cellAt c 46) 0 ∗ semVal (cellAt c 47) 0 ∗ semVal (cellAt c 48) 0 ∗ semVal (cellAt c 49) 0
    ∗ semVal (cellAt c 50) 0 ∗ semVal (cellAt c 51) 0 ∗ semVal (cellAt c 52) 0 ∗ semVal (cellAt c 53) 0
    ∗ semVal (cellAt c 54) 0 ∗ semVal (cellAt c 55) 0 ∗ semVal (cellAt c 56) 0 ∗ semVal (cellAt c 57) 0
    ∗ semVal (cellAt c 58) 0 ∗ semVal (cellAt c 59) 0 ∗ semVal (cellAt c 60) 0 ∗ semVal (cellAt c 61) 0
    ∗ semVal (cellAt c 62) 0 ∗ semVal (cellAt c 63) 0 ∗ semVal (cellAt c 64) 0 ∗ semVal (cellAt c 65) 0
    ∗ semVal (cellAt c 66) 0 ∗ semVal (cellAt c 67) 0 ∗ semVal (cellAt c 68) 0 ∗ semVal (cellAt c 69) 0
    ∗ semVal (cellAt c 70) 0 ∗ semVal (cellAt c 71) 0 ∗ semVal (cellAt c 72) 0 ∗ semVal (cellAt c 73) 0
    ∗ semVal (cellAt c 74) 0 ∗ semVal (cellAt c 75) 0 ∗ semVal (cellAt c 79) 0 ∗ semVal (cellAt c 80) 0
    ∗ semVal (cellAt c 81) 0 ∗ semVal (cellAt c 82) 0 ∗ semVal (cellAt c 83) 0 ∗ semVal (cellAt c 87) 0
    ∗ semVal (cellAt c 88) 0 ∗ semVal (cellAt c 89) 0 ∗ semVal (cellAt c 90) 0 ∗ semVal (cellAt c 91) 0
    ∗ semVal (cellAt c 95) 0 ∗ semVal (cellAt c 96) 0 ∗ semVal (cellAt c 97) 0 ∗ semVal (cellAt c 98) 0
    ∗ semVal (cellAt c 99) 0 ∗ semVal (cellAt c 103) 0 ∗ semVal (cellAt c 104) 0 ∗ semVal (cellAt c 105) 0
    ∗ semVal (cellAt c 106) 0 ∗ semVal (cellAt c 107) 0) := rfl

/-- Before the body: the ghost state, the scratch buffers at anything, the argument as launched, the result at anything,
    the local copies' semaphores at zero. -/
def Φ₀ (c : Dev nD) : sProp 𝕄 :=
  iprop(start m c ∗ scr c ∗ (((c : Thread nD τ).loc main_arg0) ↦{fullShare} m ((c : Thread nD τ).loc main_arg0))
    ∗ (∃ f : Buf (Elt F) ((c : Thread nD τ).loc main_v1), ((c : Thread nD τ).loc main_v1) ↦{fullShare} f) ∗ idleSems c)
/-- After it: the scratch buffers at anything, the argument as launched, the result at its final contents, every own
    semaphore at zero. -/
def Φ₁ (c : Dev nD) : sProp 𝕄 :=
  iprop(scr c ∗ (((c : Thread nD τ).loc main_arg0) ↦{fullShare} m ((c : Thread nD τ).loc main_arg0))
    ∗ (((c : Thread nD τ).loc main_v1) ↦{fullShare} (out m c : Buf (Elt F) ((c : Thread nD τ).loc main_v1))) ∗ idleSems c ∗ rsSems0 c)

/-- The pipeline's proof data on device `c`: no window; the invariant before and after the one point; what is owed. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.RS

end
-- ==== Proof.LaunchCells.lean ====
import proofs.«901022_g7700000000001023_dist_rs_v7x_xyz2x2x2_x_m4096_n1024_bf16_1_alg».proof.Proof.Data
import proofs.«901022_g7700000000001023_dist_rs_v7x_xyz2x2x2_x_m4096_n1024_bf16_1_alg».proof.Proof.SepL
import Idealize.ShloMosaic.Lib.Invariants

/-! The launch's ghost state: the protocol's cells and duty tokens of all devices funded from one launch element, every
    cell's invariant allocated under one update, and the tokens dealt to the devices that pay them. -/

noncomputable section

namespace Cert.KernelIdeal.RS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a landing hands over can be stored in an invariant -/

set_option synthInstance.maxHeartbeats 0 in
omit [FloatOps F] in
instance giveX_storable_L (p : Dev nD) : BI.Storable (upEmb : UEmb _ 𝕄) (giveX (F := F) p) := by
  unfold giveX; infer_instance
set_option synthInstance.maxHeartbeats 0 in
omit [FloatOps F] in
instance giveQ_storable_L (p : Dev nD) (q : Fin 4) : BI.Storable (upEmb : UEmb _ 𝕄) (giveQ (F := F) p q) := by
  unfold giveQ; infer_instance
set_option synthInstance.maxHeartbeats 0 in
omit [FloatOps F] in
instance giveH_storable_L (p : Dev nD) (h : Fin 2) : BI.Storable (upEmb : UEmb _ 𝕄) (giveH (F := F) p h) := by
  unfold giveH; infer_instance
omit [FloatOps F] in
instance barPay_storable_L (t : Dev nD) (d : DD) : BI.Storable (upEmb : UEmb _ 𝕄) (barPay (F := F) t d) := by
  unfold barPay
  split
  · infer_instance
  · split <;> infer_instance
set_option synthInstance.maxHeartbeats 0 in
instance dmaPay_storable_L (t : Dev nD) (j : ℕ) : BI.Storable (upEmb : UEmb _ 𝕄) (dmaPay m t j) := by
  unfold dmaPay
  split <;> infer_instance

instance rsRd_payload_storable_L (g : GSem nD τ sig) (r : ℕ) (d : DD) :
    BI.Storable (upEmb : UEmb _ 𝕄) ((rsRd (F := F) m).payload g r d) := by
  rcases g with ⟨⟨t, p⟩, sm⟩
  cases sm with
  | reg s => exact barPay_storable_L t d
  | dma j => exact dmaPay_storable_L m t j.val

/-! ## The cells, device by device -/

theorem csemL_nodup : (csemL : List (SemLoc sig)).Nodup :=
  List.nodup_cons.mpr ⟨(fun h => by obtain ⟨j, _, hj⟩ := List.mem_map.mp h; cases hj),
    List.Nodup.map (fun a b h => SemLoc.dma.inj h) rsJ_nodup⟩

/-- The positions in a device's list of cells. -/
abbrev NC : ℕ := (csemL : List (SemLoc sig)).length
abbrev cell75 (ck : Dev nD × Fin NC) : GSem nD τ sig := ((ck.1 : Thread nD τ), (csemL : List (SemLoc sig)).get ck.2)
theorem cell75_injective : Function.Injective (cell75 : Dev nD × Fin NC → GSem nD τ sig) := by
  rintro ⟨c, i⟩ ⟨c', i'⟩ h
  have h1 : c = c' := congrArg (fun g : GSem nD τ sig => g.1.1) h
  have h2 : (csemL : List (SemLoc sig)).get i = (csemL : List (SemLoc sig)).get i' := congrArg Prod.snd h
  have h3 : i = i' := (List.Nodup.get_inj_iff csemL_nodup).mp h2
  subst h1; subst h3; rfl
/-- Every cell of the protocol, on every device. -/
def rsSet : Finset (GSem nD τ sig) := Finset.univ.map ⟨cell75, cell75_injective⟩

omit [FloatOps F] in
/-- A conjunction over all the cells, device by device and cell by cell. -/
theorem bigSep_rsSet (Φ : GSem nD τ sig → sProp 𝕄) :
    bigSep rsSet Φ = bigSep Finset.univ fun c : Dev nD => bigSepL csemL fun sm => Φ ((c : Thread nD τ), sm) := by
  unfold rsSet
  rw [bigSep_map, bigSep_univ_prod]
  exact bigSep_congr fun c _ => bigSep_fin_get csemL fun sm => Φ ((c : Thread nD τ), sm)

/-- Every (cell, duty name) pair gets a token at launch (a DMA cell's duties 1 and 2 do not exist: those tokens are never used). -/
abbrev tokOf (p : (Dev nD × Fin NC) × DD) : GSem nD τ sig × ℕ × DD := (cell75 p.1, 0, p.2)
theorem tokOf_injective : Function.Injective (tokOf : (Dev nD × Fin NC) × DD → GSem nD τ sig × ℕ × DD) := by
  rintro ⟨ck, d⟩ ⟨ck', d'⟩ h
  have h1 : ck = ck' := cell75_injective (congrArg (fun x : GSem nD τ sig × ℕ × DD => x.1) h)
  have h2 : d = d' := congrArg (fun x : GSem nD τ sig × ℕ × DD => x.2.2) h
  subst h1; subst h2; rfl
def rsToks : Finset (GSem nD τ sig × ℕ × DD) := Finset.univ.map ⟨tokOf, tokOf_injective⟩

omit [FloatOps F] in
theorem bigSep_rsToks (Ψ : GSem nD τ sig × ℕ × DD → sProp 𝕄) :
    bigSep rsToks Ψ = bigSep Finset.univ fun c : Dev nD => bigSepL csemL fun sm => bigSep Finset.univ fun d : DD => Ψ (((c : Thread nD τ), sm), 0, d) := by
  unfold rsToks
  rw [bigSep_map, bigSep_univ_prod, bigSep_univ_prod]
  exact bigSep_congr fun c _ => bigSep_fin_get csemL fun sm => bigSep Finset.univ fun d : DD => Ψ (((c : Thread nD τ), sm), 0, d)

/-! ## Funding -/

/-- What the launch element deals device `c`: its cells' round states, that each has reached round 0, its positions, and
    the tokens of its own cells' duties. -/
def G (c : Dev nD) : sProp 𝕄 :=
  iprop((bigSepL csemL fun sm => roundState ER (rsRd m) ((c : Thread nD τ), sm) 0)
    ∗ (bigSepL csemL fun sm => reached ER ((c : Thread nD τ), sm) 0)
    ∗ myPos c
    ∗ bigSepL csemL fun sm => bigSep Finset.univ fun d : DD => dutyTok ER ((c : Thread nD τ), sm) 0 d)

theorem fund_rs : BI.own (ER (initOf rsSet rsToks)) ⊢ (|==> bigSep Finset.univ (G m) : sProp 𝕄) := by
  iintro HX
  imod (Rounds.fund ER (rsRd m) rsSet rsToks) $$ HX with ⟨Hst, Hr, Hat, Htok⟩
  imodintro
  ihave Hst' := (Entails.of_eq (bigSep_rsSet fun g => roundState ER (rsRd m) g 0)) $$ Hst
  ihave Hr' := (Entails.of_eq (bigSep_rsSet (F := F) fun g => reached ER g 0)) $$ Hr
  ihave Hat' := (Entails.of_eq (bigSep_rsSet (F := F) fun g => atPos ER g 0 ∅ 0)) $$ Hat
  ihave Htok' := (Entails.of_eq (bigSep_rsToks (F := F) fun x => dutyTok ER x.1 x.2.1 x.2.2)) $$ Htok
  unfold G myPos
  simp only [bigSep_sep']
  isplitl [Hst']; · iexact Hst'
  isplitl [Hr']; · iexact Hr'
  isplitl [Hat']; · iexact Hat'
  iexact Htok'

end Cert.KernelIdeal.RS

end
-- ==== Proof.Sems.lean ====
import proofs.«901022_g7700000000001023_dist_rs_v7x_xyz2x2x2_x_m4096_n1024_bf16_1_alg».proof.Proof.Data
import proofs.«901022_g7700000000001023_dist_rs_v7x_xyz2x2x2_x_m4096_n1024_bf16_1_alg».proof.Proof.SepL

/-! A device's own semaphores at launch, listed: the pool of DMA semaphores split into the protocol's cells and the plain counters, and the one unscoped semaphore, the barrier's. -/

noncomputable section

namespace Cert.KernelIdeal.RS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## The semaphores at launch -/

/-- The kernel's own semaphores: the pool of 140 DMA semaphores. -/
abbrev osem : Fin 140 → SemLoc sig := fun j => .dma j
theorem ownSemFacts : Pipeline.OwnSemFacts cfg0.spec osem := by decide

abbrev allJ : List (Fin 140) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131, 132, 133, 134, 135, 136, 137, 138, 139]
theorem allJ_univ : (Finset.univ : Finset (Fin 140)) = allJ.toFinset := by
  ext j; simp only [Finset.mem_univ, List.mem_toFinset, true_iff]; revert j; decide

omit [FloatOps F] in
theorem ownSems0_eq (c : Dev nD) :
    (Pipeline.ownSems0 (Ix := Unit) (Name := ℕ) (U := UU) (Lvl := ℕ) (Val := Elt F) (τ := τ) osem c : sProp 𝕄)
      = bigSepL allJ fun j => semVal (cellAt c j) 0 :=
  Pipeline.ownSems0_eq_of_list c osem allJ allJ_univ (by decide)

omit [FloatOps F] in
theorem allSems_split (c : Dev nD) :
    (bigSepL allJ fun j => (semVal (cellAt c j) 0 : sProp 𝕄)) = iprop(idleSems c ∗ rsSems0 c) := by
  rw [bigSepL_of_toFinset_eq allJ (idleJ ++ rsJ) (by decide) (by decide) (by decide), bigSepL_append]
  rfl

omit [FloatOps F] in
/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem csem_vals (c : Dev nD) :
    (bigSepL csemL fun sm => (semVal ((c : Thread nD τ), sm) 0 : sProp 𝕄)) = iprop(semVal (barCell c) 0 ∗ rsSems0 c) := by
  rw [bigSepL_cons, bigSepL_map]; rfl

end Cert.KernelIdeal.RS

end
-- ==== Proof.LaunchToks.lean ====
import proofs.«901022_g7700000000001023_dist_rs_v7x_xyz2x2x2_x_m4096_n1024_bf16_1_alg».proof.Proof.Data
import proofs.«901022_g7700000000001023_dist_rs_v7x_xyz2x2x2_x_m4096_n1024_bf16_1_alg».proof.Proof.SepL

/-! The duty tokens minted for each device's own cells are, all devices together, the tokens each device pays with: a device's payments go to its neighbours' cells, and crossing to a neighbour is an involution. -/

noncomputable section

namespace Cert.KernelIdeal.RS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## The tokens, dealt to the devices that pay them -/

def nbrEquiv (i : Fin 4) : Dev nD ≃ Dev nD := ⟨nbr i, nbr i, nbr_nbr i, nbr_nbr i⟩

/-- The DMA cells in the order of the token list. -/
abbrev tokJ : List (Fin 140) := [22, 30, 23, 31, 24, 32, 25, 33, 26, 34, 27, 35, 28, 36, 29, 37, 38, 41, 39, 42, 40, 43, 44, 52, 45, 53, 46, 54, 47, 55, 48, 56, 49, 57, 50, 58, 51, 59, 60, 68, 61, 69, 62, 70, 63, 71, 64, 72, 65, 73, 66, 74, 67, 75, 79, 87, 80, 88, 81, 89, 82, 90, 83, 91, 95, 103, 96, 104, 97, 105, 98, 106, 99, 107]

omit [FloatOps F] in
/-- A device's own cells' tokens, listed as the paying devices use them. -/
theorem own_to_list (c : Dev nD) :
    (bigSepL csemL fun sm => bigSep Finset.univ fun d : DD => (dutyTok ER ((c : Thread nD τ), sm) 0 d : sProp 𝕄))
      ⊢ bigSepL tokL fun x => dutyTok ER ((c : Thread nD τ), x.1) 0 x.2.1 := by
  have hB : (bigSep Finset.univ fun d : DD => (dutyTok ER (barCell c) 0 d : sProp 𝕄))
      = iprop(dutyTok ER (barCell c) 0 0 ∗ dutyTok ER (barCell c) 0 1 ∗ dutyTok ER (barCell c) 0 2) :=
    bigSep_univ_eq_bigSepL [0, 1, 2] (by decide) (by decide) _
  have hD : (bigSepL (rsJ.map dsem) fun sm => bigSep Finset.univ fun d : DD => (dutyTok ER ((c : Thread nD τ), sm) 0 d : sProp 𝕄))
      ⊢ bigSepL (tokL.drop 3) fun x => dutyTok ER ((c : Thread nD τ), x.1) 0 x.2.1 := by
    have e1 : (bigSepL (tokL.drop 3) fun x : SemLoc sig × DD × Fin 4 => (dutyTok ER ((c : Thread nD τ), x.1) 0 x.2.1 : sProp 𝕄))
        = bigSepL tokJ fun j => dutyTok ER (cellAt c j) 0 0 := by
      rw [← bigSepL_map (fun x : SemLoc sig × DD × Fin 4 => (x.1, x.2.1)) (tokL.drop 3) (fun y : SemLoc sig × DD => (dutyTok ER ((c : Thread nD τ), y.1) 0 y.2 : sProp 𝕄)),
        show (tokL.drop 3).map (fun x : SemLoc sig × DD × Fin 4 => (x.1, x.2.1)) = tokJ.map (fun j => (dsem j, (0 : DD))) from rfl, bigSepL_map]
    rw [e1, bigSepL_map, bigSepL_of_toFinset_eq tokJ rsJ (by decide) rsJ_nodup (by decide)]
    exact bigSepL_mono fun j _ => bigSep_elim (Finset.mem_univ (0 : DD))
  rw [show (tokL : List (SemLoc sig × DD × Fin 4)) = tokL.take 3 ++ tokL.drop 3 from (List.take_append_drop 3 tokL).symm, bigSepL_append, bigSepL_cons']
  refine BI.sep_mono ?_ hD
  show (bigSep Finset.univ fun d : DD => (dutyTok ER (barCell c) 0 d : sProp 𝕄))
    ⊢ iprop(dutyTok ER (barCell c) 0 0 ∗ dutyTok ER (barCell c) 0 2 ∗ dutyTok ER (barCell c) 0 1)
  rw [hB]
  iintro ⟨H0, H1, H2⟩
  isplitl [H0]; · iexact H0
  isplitl [H2] <;> iassumption

omit [FloatOps F] in
theorem toks_around :
    (bigSep Finset.univ fun c : Dev nD => bigSepL csemL fun sm => bigSep Finset.univ fun d : DD => (dutyTok ER ((c : Thread nD τ), sm) 0 d : sProp 𝕄))
      ⊢ bigSep Finset.univ fun c : Dev nD => myToks c := by
  refine (bigSep_mono fun c _ => own_to_list c).trans ?_
  unfold myToks
  rw [bigSep_bigSepL_comm, bigSep_bigSepL_comm]
  exact Entails.of_eq (bigSepL_congr fun x _ =>
    bigSep_univ_equiv (nbrEquiv x.2.2) fun c : Dev nD => (dutyTok ER ((c : Thread nD τ), x.1) 0 x.2.1 : sProp 𝕄))

end Cert.KernelIdeal.RS

end
-- ==== Proof.LaunchGlob.lean ====
import proofs.«901022_g7700000000001023_dist_rs_v7x_xyz2x2x2_x_m4096_n1024_bf16_1_alg».proof.Proof.LaunchCells
import proofs.«901022_g7700000000001023_dist_rs_v7x_xyz2x2x2_x_m4096_n1024_bf16_1_alg».proof.Proof.Sems
import proofs.«901022_g7700000000001023_dist_rs_v7x_xyz2x2x2_x_m4096_n1024_bf16_1_alg».proof.Proof.LaunchToks
import Idealize.ShloMosaic.Lib.Invariants

/-! The global step of the launch: from every device's semaphores at zero and its share of the launch element, every cell's invariant allocated under one update, and each device's ghost state made. -/

noncomputable section

namespace Cert.KernelIdeal.RS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## The global step -/

/-- What device `c` has after the global step: its ghost state at some names, and the local copies' semaphores at zero. -/
def G' (c : Dev nD) : sProp 𝕄 := iprop((∃ K, ghost m K c) ∗ idleSems c)

theorem ghost_intro (K : GSem nD τ sig → ℕ) (c : Dev nD) :
    iprop((invsL m K ∗ reachedL (F := F)) ∗ (idleSems c ∗ myPos c ∗ myToks c)) ⊢ G' m c := by
  unfold G' ghost
  iintro ⟨⟨#HI, #HR⟩, Hid, Hat, Htk⟩
  isplitr [Hid]
  · iexists K
    isplitr; · iexact HI
    isplitr; · iexact HR
    isplitl [Hat] <;> iassumption
  · iexact Hid

omit [FloatOps F] in
theorem sems_regroup (c : Dev nD) :
    iprop(Pipeline.ownSems0 (Ix := Unit) (Name := ℕ) (U := UU) (Lvl := ℕ) (Val := Elt F) (τ := τ) osem c ∗ unscopedSems0 c)
      ⊢ (iprop(idleSems c ∗ bigSepL csemL fun sm => semVal ((c : Thread nD τ), sm) 0) : sProp 𝕄) := by
  rw [ownSems0_eq, allSems_split, unscopedSems0_eq, csem_vals]
  iintro ⟨⟨Hid, Hrs⟩, Hb⟩
  isplitl [Hid]; · iexact Hid
  isplitl [Hb] <;> iassumption

theorem core_regroup (c : Dev nD) :
    iprop(Pipeline.ownSems0 (Ix := Unit) (Name := ℕ) (U := UU) (Lvl := ℕ) (Val := Elt F) (τ := τ) osem c ∗ unscopedSems0 c ∗ G m c)
      ⊢ (iprop(idleSems c ∗ (bigSepL csemL fun sm => semVal ((c : Thread nD τ), sm) 0)
          ∗ (bigSepL csemL fun sm => roundState ER (rsRd m) ((c : Thread nD τ), sm) 0)
          ∗ (bigSepL csemL fun sm => reached ER ((c : Thread nD τ), sm) 0)
          ∗ myPos c
          ∗ bigSepL csemL fun sm => bigSep Finset.univ fun d : DD => dutyTok ER ((c : Thread nD τ), sm) 0 d) : sProp 𝕄) := by
  unfold G
  iintro ⟨Hos, Hus, Hst, Hr, Hat, Htok⟩
  ihave Hs := (sems_regroup (F := F) c) $$ [Hos Hus]
  · isplitl [Hos] <;> iassumption
  icases Hs with ⟨Hid, Hv⟩
  isplitl [Hid]; · iexact Hid
  isplitl [Hv]; · iexact Hv
  isplitl [Hst]; · iexact Hst
  isplitl [Hr]; · iexact Hr
  isplitl [Hat] <;> iassumption

/-- The cells' names as a function of the cell, from names by (device, position). -/
def Kof (ι : Dev nD × Fin NC → ℕ) (g : GSem nD τ sig) : ℕ := by
  classical exact if h : ∃ k, cell75 k = g then ι h.choose else 0
theorem Kof_cell (ι : Dev nD × Fin NC → ℕ) (k : Dev nD × Fin NC) : Kof ι (cell75 k) = ι k := by
  classical
  unfold Kof
  rw [dif_pos ⟨k, rfl⟩]
  exact congrArg ι (cell75_injective (Classical.choose_spec (⟨k, rfl⟩ : ∃ k', cell75 k' = cell75 k)))

theorem invsL_of_positions (ι : Dev nD × Fin NC → ℕ) :
    (bigSep Finset.univ fun k : Dev nD × Fin NC => (inv (ι k) (body ER (rsRd m) (cell75 k)) : sProp 𝕄)) = invsL m (Kof ι) := by
  unfold invsL
  rw [bigSep_univ_prod]
  refine bigSep_congr fun c _ => ?_
  rw [← bigSep_fin_get csemL fun sm => cellInv ER (rsRd m) (Kof ι ((c : Thread nD τ), sm)) ((c : Thread nD τ), sm)]
  refine bigSep_congr fun i _ => ?_
  show (inv (ι (c, i)) (body ER (rsRd m) (cell75 (c, i))) : sProp 𝕄) = inv (Kof ι (cell75 (c, i))) (body ER (rsRd m) (cell75 (c, i)))
  rw [Kof_cell]

/-- The bodies of all cells' invariants, by (device, position), from their counters at zero and their round states. -/
theorem bodies_positions :
    iprop((bigSep Finset.univ fun c : Dev nD => bigSepL csemL fun sm => (semVal ((c : Thread nD τ), sm) 0 : sProp 𝕄))
        ∗ bigSep Finset.univ fun c : Dev nD => bigSepL csemL fun sm => roundState ER (rsRd m) ((c : Thread nD τ), sm) 0)
      ⊢ bigSep Finset.univ fun k : Dev nD × Fin NC => body ER (rsRd m) (cell75 k) := by
  rw [← bigSep_sep', bigSep_univ_prod]
  refine bigSep_mono fun c _ => ?_
  rw [bigSep_fin_get csemL fun sm => body ER (rsRd m) ((c : Thread nD τ), sm), ← bigSepL_sep]
  exact bigSepL_mono fun sm _ => body_intro ER (rsRd m) ((c : Thread nD τ), sm)

/-- All the cells' invariants allocated from their counters at zero and their round states. -/
theorem cells_alloc :
    iprop((bigSep Finset.univ fun c : Dev nD => bigSepL csemL fun sm => (semVal ((c : Thread nD τ), sm) 0 : sProp 𝕄))
        ∗ bigSep Finset.univ fun c : Dev nD => bigSepL csemL fun sm => roundState ER (rsRd m) ((c : Thread nD τ), sm) 0)
      ⊢ |={Set.univ}=> ∃ K : GSem nD τ sig → ℕ, invsL m K := by
  refine (bodies_positions m).trans ?_
  have h := inv_alloc_family (nD := nD) (τ := τ) (sig := sig) (Ix := Unit) (Val := Elt F) (Name := ℕ) (U := UU) (Lvl := ℕ) (E := Set.univ)
    Finset.univ (fun k : Dev nD × Fin NC => body ER (rsRd m) (cell75 k)) ∅
  refine h.trans (BI.fupd_mono ?_)
  show (_ : sProp 𝕄) ⊢ _
  iintro ⟨%ι, -, HI⟩
  iexists (Kof ι)
  iapply (Entails.of_eq (invsL_of_positions m ι))
  iexact HI

theorem glob :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) := by
  refine (bigSep_mono fun c _ => core_regroup m c).trans ?_
  rw [bigSep_sep', bigSep_sep', bigSep_sep', bigSep_sep', bigSep_sep']
  show (_ : sProp 𝕄) ⊢ _
  iintro ⟨Hid, Hv, Hst, Hr, Hat, Htok⟩
  imod (cells_alloc m) $$ [Hv Hst] with ⟨%K, HI⟩
  · isplitl [Hv] <;> iassumption
  imodintro
  ihave Htk := (toks_around (F := F)) $$ Htok
  iapply (bigSep_with_persistent (R := iprop(invsL m K ∗ reachedL (F := F))) (Φ := fun c : Dev nD => iprop(idleSems c ∗ myPos c ∗ myToks c))
    fun c _ => ghost_intro m K c)
  isplitl [HI Hr]
  · isplitl [HI]; · iexact HI
    unfold reachedL; iexact Hr
  · rw [bigSep_sep', bigSep_sep']
    isplitl [Hid]; · iexact Hid
    isplitl [Hat] <;> iassumption

end Cert.KernelIdeal.RS

end
-- ==== Proof.LaunchCred.lean ====
import proofs.«901022_g7700000000001023_dist_rs_v7x_xyz2x2x2_x_m4096_n1024_bf16_1_alg».proof.Proof.Data
import proofs.«901022_g7700000000001023_dist_rs_v7x_xyz2x2x2_x_m4096_n1024_bf16_1_alg».proof.Proof.SepL

/-! The launch credit: what all devices owe a device's cells, summed, is the credit of that device's waits — each receive cell is paid by exactly one neighbour, the barrier cell by three. -/

noncomputable section

namespace Cert.KernelIdeal.RS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

/-- The payments of Owed's table by (semaphore, direction of the owner, amount). -/
abbrev payD : List (SemLoc sig × Fin 4 × ℕ) := [(.reg barS, 1, 1), (.reg barS, 3, 1), (.reg barS, 2, 1), (dsem 30, 1, NA), (dsem 31, 1, NA), (dsem 32, 1, NA), (dsem 33, 1, NA), (dsem 34, 1, NA), (dsem 35, 1, NA), (dsem 36, 1, NA), (dsem 37, 1, NA), (dsem 41, 1, NA), (dsem 42, 1, NA), (dsem 43, 1, NA), (dsem 52, 3, NA), (dsem 68, 2, NA), (dsem 53, 3, NA), (dsem 69, 2, NA), (dsem 54, 3, NA), (dsem 70, 2, NA), (dsem 55, 3, NA), (dsem 71, 2, NA), (dsem 56, 3, NA), (dsem 72, 2, NA), (dsem 103, 2, NH), (dsem 87, 3, NH), (dsem 57, 3, NA), (dsem 73, 2, NA), (dsem 104, 2, NH), (dsem 88, 3, NH), (dsem 58, 3, NA), (dsem 74, 2, NA), (dsem 105, 2, NH), (dsem 89, 3, NH), (dsem 59, 3, NA), (dsem 75, 2, NA), (dsem 106, 2, NH), (dsem 90, 3, NH), (dsem 107, 2, NH), (dsem 91, 3, NH)]
abbrev pd (d : Dev nD) (x : SemLoc sig × Fin 4 × ℕ) : GSem nD τ sig × ℕ := ((((nbr x.2.1 d : Dev nD) : Thread nD τ), x.1), x.2.2)
theorem paysL_eq (d : Dev nD) : paysL d = payD.map (pd d) := rfl
/-- The receive cells in the order they are paid. -/
abbrev payJ : List (Fin 140) := [30, 31, 32, 33, 34, 35, 36, 37, 41, 42, 43, 52, 68, 53, 69, 54, 70, 55, 71, 56, 72, 103, 87, 57, 73, 104, 88, 58, 74, 105, 89, 59, 75, 106, 90, 107, 91]

omit [FloatOps F] in
theorem launchCred_list (c : Dev nD) (l : List (SemLoc sig × Fin 4 × ℕ)) :
    (Pipeline.launchCred (fun d => owedL (l.map (pd d))) c : sProp 𝕄)
      ⊢ bigSepL l fun x => cred (tallyAt ((c : Thread nD τ), x.1) () x.2.2) := by
  induction l with
  | nil =>
    show (Pipeline.launchCred (fun _ : Dev nD => (0 : CellTallies nD τ sig Unit)) c : sProp 𝕄) ⊢ _
    rw [Pipeline.launchCred_zero]; exact BI.Entails.refl _
  | cons x l ih =>
    show (Pipeline.launchCred (fun d => owedL (l.map (pd d)) + tallyAt (((nbr x.2.1 d : Dev nD) : Thread nD τ), x.1) () x.2.2) c : sProp 𝕄) ⊢ _
    rw [Pipeline.launchCred_add, bigSepL_cons']
    iintro ⟨H1, H2⟩
    isplitl [H2]
    · iapply (Pipeline.launchCred_tallyAt x.1 (nbr x.2.1) (nbr x.2.1) (nbr_nbr x.2.1) (nbr_nbr x.2.1) () x.2.2 c); iexact H2
    · iapply ih; iexact H1

omit [FloatOps F] in
/-- The launch deals each device the credit of its waits that others pay. -/
theorem creds (c : Dev nD) : (Pipeline.launchCred O₀ c : sProp 𝕄) ⊢ myCred c := by
  have h0 : (Pipeline.launchCred O₀ c : sProp 𝕄) = Pipeline.launchCred (fun d => owedL (payD.map (pd d))) c := rfl
  rw [h0]
  refine (launchCred_list c payD).trans ?_
  rw [show (payD : List (SemLoc sig × Fin 4 × ℕ)) = payD.take 3 ++ payD.drop 3 from (List.take_append_drop 3 payD).symm, bigSepL_append]
  unfold myCred
  refine BI.sep_mono ?_ ?_
  · show iprop(cred (tallyAt (barCell c) () 1) ∗ cred (tallyAt (barCell c) () 1) ∗ cred (tallyAt (barCell c) () 1)) ⊢ cred (tallyAt (barCell c) () 3)
    rw [show (tallyAt (barCell c) () 3 : CellTallies nD τ sig Unit) = tallyAt (barCell c) () 1 + (tallyAt (barCell c) () 1 + tallyAt (barCell c) () 1) from by
      rw [tallyAt_add, tallyAt_add]]
    exact (sep_mono_right (cred_add _ _).2).trans (cred_add _ _).2
  · have e1 : (bigSepL (payD.drop 3) fun x : SemLoc sig × Fin 4 × ℕ => (cred (tallyAt ((c : Thread nD τ), x.1) () x.2.2) : sProp 𝕄))
        = bigSepL payJ fun j => cred (tallyAt (cellAt c j) () (amtOf j.val)) := by
      rw [← bigSepL_map (fun x : SemLoc sig × Fin 4 × ℕ => (x.1, x.2.2)) (payD.drop 3) (fun y : SemLoc sig × ℕ => (cred (tallyAt ((c : Thread nD τ), y.1) () y.2) : sProp 𝕄)),
        show (payD.drop 3).map (fun x : SemLoc sig × Fin 4 × ℕ => (x.1, x.2.2)) = payJ.map (fun j => (dsem j, amtOf j.val)) from rfl, bigSepL_map]
    rw [e1, bigSepL_of_toFinset_eq payJ recvJ (by decide) (by decide) (by decide)]
    exact BI.Entails.refl _

end Cert.KernelIdeal.RS

end
-- ==== Proof.LaunchRS.lean ====
import proofs.«901022_g7700000000001023_dist_rs_v7x_xyz2x2x2_x_m4096_n1024_bf16_1_alg».proof.Proof.LaunchGlob
import proofs.«901022_g7700000000001023_dist_rs_v7x_xyz2x2x2_x_m4096_n1024_bf16_1_alg».proof.Proof.LaunchCred

/-! The launch: the region's run from the body's obligation on every device, by the library's launch theorem for cores that owe at launch and whose protocol also runs on an unscoped semaphore. -/

noncomputable section

namespace Cert.KernelIdeal.RS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## The theorem's side conditions -/

/-- What a device routes into the pipeline's invariant from the launch: its start, the argument as launched, the result at
    anything, the local copies' semaphores. -/
def X (c : Dev nD) : sProp 𝕄 :=
  iprop(start m c ∗ (((c : Thread nD τ).loc main_arg0) ↦{fullShare} m ((c : Thread nD τ).loc main_arg0))
    ∗ (∃ f : Buf (Elt F) ((c : Thread nD τ).loc main_v1), ((c : Thread nD τ).loc main_v1) ↦{fullShare} f) ∗ idleSems c)
/-- What it takes out at the end: the argument as launched and the result at its final contents. -/
def Y (c : Dev nD) : sProp 𝕄 :=
  iprop((((c : Thread nD τ).loc main_arg0) ↦{fullShare} m ((c : Thread nD τ).loc main_arg0))
    ∗ (((c : Thread nD τ).loc main_v1) ↦{fullShare} (out m c : Buf (Elt F) ((c : Thread nD τ).loc main_v1))))

theorem start_intro (c : Dev nD) :
    iprop(Pipeline.unscopedRestP Pipeline.Prefetch.none cfg0.spec c (fun b => m ((c : Thread nD τ).loc b)) ∗ levAts LL lvv
        ∗ Pipeline.launchCred O₀ c ∗ prngReg c (ρ c) ∗ G' m c)
      ⊢ |={Set.univ}=> iprop(X m c ∗ emp) := by
  rw [Pipeline.unscopedRestP_none, unscopedRest0_eq]
  unfold G'
  iintro ⟨⟨Harg, Hv1⟩, Hlev, Hcr, -, Hgh, Hid⟩
  ihave Hc := (creds (F := F) c) $$ Hcr
  imodintro
  unfold X start
  isplitl
  · isplitl [Hgh Hc Hlev]
    · isplitl [Hgh]; · iexact Hgh
      isplitl [Hc] <;> iassumption
    isplitl [Harg]; · iexact Harg
    isplitl [Hv1]; · iexists _; iexact Hv1
    iexact Hid
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X scr
  iintro ⟨⟨Hs, Harg, Hv1, Hid⟩, -, Hscr⟩
  isplitl [Hs]; · iexact Hs
  isplitl [Hscr]; · iexact Hscr
  isplitl [Harg]; · iexact Harg
  isplitl [Hv1] <;> iassumption

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq, allSems_split]
  unfold Φ₁ Y scr
  iintro ⟨Hscr, Harg, Hv1, Hid, Hrs⟩
  isplitl [Harg Hv1]
  · isplitl [Harg] <;> iassumption
  isplitl [Hid Hrs]
  · isplitl [Hid] <;> iassumption
  iexact Hscr

theorem waits (c : Dev nD) : (levAts LL lvv : sProp 𝕄) ⊢ Pipeline.cellsWaits cfgs (dats m) () 0 c :=
  Pipeline.cellsWaits_intro cfgs (dats m) () 0 c fun w s t => w.elim0

/-! ## The run -/

/-- The launch element: the pipeline library's (no staging cell), the protocol's cells and tokens, no counter yet. -/
def u₀ : UU := (initOf (Pipeline.cells cfgs cellOf_inj) (Pipeline.launchToks cfgs cellOf_inj), (initOf rsSet rsToks, 1))

set_option maxRecDepth 100000 in
set_option maxHeartbeats 1600000 in
/-- At the compiled mesh of eight devices, for any float values, from any memory with zero counters, given the body's
    obligation on every device: every weakly fair execution of @main terminates, and every final state has each device's
    result array at `out` and its argument array unchanged. -/
theorem run_main (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = out m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun _ w => w.elim0)
    (hdistinct := winFacts0.arr_inj)
    (O₀ := O₀) (howed₀ := fun _ => rfl) (howedN := fun _ => rfl)
    (L := LL) (lv := lvv) (hL := LL_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb (embR : Emb (UB × Counters) (MT nD τ sig Unit (Elt F) ℕ UU ℕ)) (initOf rsSet rsToks) (1 : Counters)) $$ HX
      icases H2 with ⟨HB, -⟩
      imod (fund_rs m) $$ HB with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c.tc : Thread nD τ).loc main_v1) = out m c
      ∧ s.mem ((c.tc : Thread nD τ).loc main_arg0) = m ((c.tc : Thread nD τ).loc main_arg0))
    (hY := fun c s' => by
      unfold Y
      iintro ⟨⟨Harg, Hv1⟩, -, HSI⟩
      icombine HSI Harg gives %h1
      icombine HSI Hv1 gives %h2
      imodintro
      isplitr; · ipureintro; exact ⟨Buf.eq_of_forall_mem_univ h2, Buf.eq_of_forall_mem_univ h1⟩
      iexact HSI)
    (hQ := fun _ h c => (h c).2.2)

/-- info: 'Cert.KernelIdeal.RS.run_main' depends on axioms: [propext, Classical.choice, Quot.sound] -/
#guard_msgs in #print axioms run_main

end Cert.KernelIdeal.RS

end
-- ==== Proof.BodyPre.lean ====
import proofs.«901022_g7700000000001023_dist_rs_v7x_xyz2x2x2_x_m4096_n1024_bf16_1_alg».proof.Proof.Owed

set_option maxRecDepth 8000

noncomputable section

namespace Cert.KernelIdeal.RS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What device c's kernel body starts from: the invariants of the cells it pays (in the order of payment) and of its own barrier and receive cells (in the order it waits on them), that the cells it pays have reached their round, and the levels; what it owes; its credits (its barrier's, then its receive cells' in the order it waits on them); its positions on those cells in the same order, and on its send cells in the order of their final waits; the tokens of the duties it pays, in the order it pays them; its buffers; and the plain counters of its local copies (into the staging buffers, into the result, unused). -/
def bodyPre (m : (ℓ : Loc nD τ sig) → Buf (Elt F) ℓ) (K : GSem nD τ sig → ℕ) (c : Dev nD) (W : Waits sig Unit) : sProp 𝕄 :=
  iprop((cellInv ER (rsRd m) (K (barCell (px c))) (barCell (px c))
      ∗ cellInv ER (rsRd m) (K (barCell (pz c))) (barCell (pz c))
      ∗ cellInv ER (rsRd m) (K (barCell (py c))) (barCell (py c))
      ∗ cellInv ER (rsRd m) (K (cellAt c (⟨22, by decide⟩ : Fin 140))) (cellAt c (⟨22, by decide⟩ : Fin 140))
      ∗ cellInv ER (rsRd m) (K (cellAt (px c) (⟨30, by decide⟩ : Fin 140))) (cellAt (px c) (⟨30, by decide⟩ : Fin 140))
      ∗ cellInv ER (rsRd m) (K (cellAt c (⟨23, by decide⟩ : Fin 140))) (cellAt c (⟨23, by decide⟩ : Fin 140))
      ∗ cellInv ER (rsRd m) (K (cellAt (px c) (⟨31, by decide⟩ : Fin 140))) (cellAt (px c) (⟨31, by decide⟩ : Fin 140))
      ∗ cellInv ER (rsRd m) (K (cellAt c (⟨24, by decide⟩ : Fin 140))) (cellAt c (⟨24, by decide⟩ : Fin 140))
      ∗ cellInv ER (rsRd m) (K (cellAt (px c) (⟨32, by decide⟩ : Fin 140))) (cellAt (px c) (⟨32, by decide⟩ : Fin 140))
      ∗ cellInv ER (rsRd m) (K (cellAt c (⟨25, by decide⟩ : Fin 140))) (cellAt c (⟨25, by decide⟩ : Fin 140))
      ∗ cellInv ER (rsRd m) (K (cellAt (px c) (⟨33, by decide⟩ : Fin 140))) (cellAt (px c) (⟨33, by decide⟩ : Fin 140))
      ∗ cellInv ER (rsRd m) (K (cellAt c (⟨26, by decide⟩ : Fin 140))) (cellAt c (⟨26, by decide⟩ : Fin 140))
      ∗ cellInv ER (rsRd m) (K (cellAt (px c) (⟨34, by decide⟩ : Fin 140))) (cellAt (px c) (⟨34, by decide⟩ : Fin 140))
      ∗ cellInv ER (rsRd m) (K (cellAt c (⟨27, by decide⟩ : Fin 140))) (cellAt c (⟨27, by decide⟩ : Fin 140))
      ∗ cellInv ER (rsRd m) (K (cellAt (px c) (⟨35, by decide⟩ : Fin 140))) (cellAt (px c) (⟨35, by decide⟩ : Fin 140))
      ∗ cellInv ER (rsRd m) (K (cellAt c (⟨28, by decide⟩ : Fin 140))) (cellAt c (⟨28, by decide⟩ : Fin 140))
      ∗ cellInv ER (rsRd m) (K (cellAt (px c) (⟨36, by decide⟩ : Fin 140))) (cellAt (px c) (⟨36, by decide⟩ : Fin 140))
      ∗ cellInv ER (rsRd m) (K (cellAt c (⟨29, by decide⟩ : Fin 140))) (cellAt c (⟨29, by decide⟩ : Fin 140))
      ∗ cellInv ER (rsRd m) (K (cellAt (px c) (⟨37, by decide⟩ : Fin 140))) (cellAt (px c) (⟨37, by decide⟩ : Fin 140))
      ∗ cellInv ER (rsRd m) (K (cellAt c (⟨38, by decide⟩ : Fin 140))) (cellAt c (⟨38, by decide⟩ : Fin 140))
      ∗ cellInv ER (rsRd m) (K (cellAt (px c) (⟨41, by decide⟩ : Fin 140))) (cellAt (px c) (⟨41, by decide⟩ : Fin 140))
      ∗ cellInv ER (rsRd m) (K (cellAt c (⟨39, by decide⟩ : Fin 140))) (cellAt c (⟨39, by decide⟩ : Fin 140))
      ∗ cellInv ER (rsRd m) (K (cellAt (px c) (⟨42, by decide⟩ : Fin 140))) (cellAt (px c) (⟨42, by decide⟩ : Fin 140))
      ∗ cellInv ER (rsRd m) (K (cellAt c (⟨40, by decide⟩ : Fin 140))) (cellAt c (⟨40, by decide⟩ : Fin 140))
      ∗ cellInv ER (rsRd m) (K (cellAt (px c) (⟨43, by decide⟩ : Fin 140))) (cellAt (px c) (⟨43, by decide⟩ : Fin 140))
      ∗ cellInv ER (rsRd m) (K (cellAt c (⟨44, by decide⟩ : Fin 140))) (cellAt c (⟨44, by decide⟩ : Fin 140))
      ∗ cellInv ER (rsRd m) (K (cellAt (pz c) (⟨52, by decide⟩ : Fin 140))) (cellAt (pz c) (⟨52, by decide⟩ : Fin 140))
      ∗ cellInv ER (rsRd m) (K (cellAt c (⟨60, by decide⟩ : Fin 140))) (cellAt c (⟨60, by decide⟩ : Fin 140))
      ∗ cellInv ER (rsRd m) (K (cellAt (py c) (⟨68, by decide⟩ : Fin 140))) (cellAt (py c) (⟨68, by decide⟩ : Fin 140))
      ∗ cellInv ER (rsRd m) (K (cellAt c (⟨45, by decide⟩ : Fin 140))) (cellAt c (⟨45, by decide⟩ : Fin 140))
      ∗ cellInv ER (rsRd m) (K (cellAt (pz c) (⟨53, by decide⟩ : Fin 140))) (cellAt (pz c) (⟨53, by decide⟩ : Fin 140))
      ∗ cellInv ER (rsRd m) (K (cellAt c (⟨61, by decide⟩ : Fin 140))) (cellAt c (⟨61, by decide⟩ : Fin 140))
      ∗ cellInv ER (rsRd m) (K (cellAt (py c) (⟨69, by decide⟩ : Fin 140))) (cellAt (py c) (⟨69, by decide⟩ : Fin 140))
      ∗ cellInv ER (rsRd m) (K (cellAt c (⟨46, by decide⟩ : Fin 140))) (cellAt c (⟨46, by decide⟩ : Fin 140))
      ∗ cellInv ER (rsRd m) (K (cellAt (pz c) (⟨54, by decide⟩ : Fin 140))) (cellAt (pz c) (⟨54, by decide⟩ : Fin 140))
      ∗ cellInv ER (rsRd m) (K (cellAt c (⟨62, by decide⟩ : Fin 140))) (cellAt c (⟨62, by decide⟩ : Fin 140))
      ∗ cellInv ER (rsRd m) (K (cellAt (py c) (⟨70, by decide⟩ : Fin 140))) (cellAt (py c) (⟨70, by decide⟩ : Fin 140))
      ∗ cellInv ER (rsRd m) (K (cellAt c (⟨47, by decide⟩ : Fin 140))) (cellAt c (⟨47, by decide⟩ : Fin 140))
      ∗ cellInv ER (rsRd m) (K (cellAt (pz c) (⟨55, by decide⟩ : Fin 140))) (cellAt (pz c) (⟨55, by decide⟩ : Fin 140))
      ∗ cellInv ER (rsRd m) (K (cellAt c (⟨63, by decide⟩ : Fin 140))) (cellAt c (⟨63, by decide⟩ : Fin 140))
      ∗ cellInv ER (rsRd m) (K (cellAt (py c) (⟨71, by decide⟩ : Fin 140))) (cellAt (py c) (⟨71, by decide⟩ : Fin 140))
      ∗ cellInv ER (rsRd m) (K (cellAt c (⟨48, by decide⟩ : Fin 140))) (cellAt c (⟨48, by decide⟩ : Fin 140))
      ∗ cellInv ER (rsRd m) (K (cellAt (pz c) (⟨56, by decide⟩ : Fin 140))) (cellAt (pz c) (⟨56, by decide⟩ : Fin 140))
      ∗ cellInv ER (rsRd m) (K (cellAt c (⟨64, by decide⟩ : Fin 140))) (cellAt c (⟨64, by decide⟩ : Fin 140))
      ∗ cellInv ER (rsRd m) (K (cellAt (py c) (⟨72, by decide⟩ : Fin 140))) (cellAt (py c) (⟨72, by decide⟩ : Fin 140))
      ∗ cellInv ER (rsRd m) (K (cellAt c (⟨95, by decide⟩ : Fin 140))) (cellAt c (⟨95, by decide⟩ : Fin 140))
      ∗ cellInv ER (rsRd m) (K (cellAt (py c) (⟨103, by decide⟩ : Fin 140))) (cellAt (py c) (⟨103, by decide⟩ : Fin 140))
      ∗ cellInv ER (rsRd m) (K (cellAt c (⟨79, by decide⟩ : Fin 140))) (cellAt c (⟨79, by decide⟩ : Fin 140))
      ∗ cellInv ER (rsRd m) (K (cellAt (pz c) (⟨87, by decide⟩ : Fin 140))) (cellAt (pz c) (⟨87, by decide⟩ : Fin 140))
      ∗ cellInv ER (rsRd m) (K (cellAt c (⟨49, by decide⟩ : Fin 140))) (cellAt c (⟨49, by decide⟩ : Fin 140))
      ∗ cellInv ER (rsRd m) (K (cellAt (pz c) (⟨57, by decide⟩ : Fin 140))) (cellAt (pz c) (⟨57, by decide⟩ : Fin 140))
      ∗ cellInv ER (rsRd m) (K (cellAt c (⟨65, by decide⟩ : Fin 140))) (cellAt c (⟨65, by decide⟩ : Fin 140))
      ∗ cellInv ER (rsRd m) (K (cellAt (py c) (⟨73, by decide⟩ : Fin 140))) (cellAt (py c) (⟨73, by decide⟩ : Fin 140))
      ∗ cellInv ER (rsRd m) (K (cellAt c (⟨96, by decide⟩ : Fin 140))) (cellAt c (⟨96, by decide⟩ : Fin 140))
      ∗ cellInv ER (rsRd m) (K (cellAt (py c) (⟨104, by decide⟩ : Fin 140))) (cellAt (py c) (⟨104, by decide⟩ : Fin 140))
      ∗ cellInv ER (rsRd m) (K (cellAt c (⟨80, by decide⟩ : Fin 140))) (cellAt c (⟨80, by decide⟩ : Fin 140))
      ∗ cellInv ER (rsRd m) (K (cellAt (pz c) (⟨88, by decide⟩ : Fin 140))) (cellAt (pz c) (⟨88, by decide⟩ : Fin 140))
      ∗ cellInv ER (rsRd m) (K (cellAt c (⟨50, by decide⟩ : Fin 140))) (cellAt c (⟨50, by decide⟩ : Fin 140))
      ∗ cellInv ER (rsRd m) (K (cellAt (pz c) (⟨58, by decide⟩ : Fin 140))) (cellAt (pz c) (⟨58, by decide⟩ : Fin 140))
      ∗ cellInv ER (rsRd m) (K (cellAt c (⟨66, by decide⟩ : Fin 140))) (cellAt c (⟨66, by decide⟩ : Fin 140))
      ∗ cellInv ER (rsRd m) (K (cellAt (py c) (⟨74, by decide⟩ : Fin 140))) (cellAt (py c) (⟨74, by decide⟩ : Fin 140))
      ∗ cellInv ER (rsRd m) (K (cellAt c (⟨97, by decide⟩ : Fin 140))) (cellAt c (⟨97, by decide⟩ : Fin 140))
      ∗ cellInv ER (rsRd m) (K (cellAt (py c) (⟨105, by decide⟩ : Fin 140))) (cellAt (py c) (⟨105, by decide⟩ : Fin 140))
      ∗ cellInv ER (rsRd m) (K (cellAt c (⟨81, by decide⟩ : Fin 140))) (cellAt c (⟨81, by decide⟩ : Fin 140))
      ∗ cellInv ER (rsRd m) (K (cellAt (pz c) (⟨89, by decide⟩ : Fin 140))) (cellAt (pz c) (⟨89, by decide⟩ : Fin 140))
      ∗ cellInv ER (rsRd m) (K (cellAt c (⟨51, by decide⟩ : Fin 140))) (cellAt c (⟨51, by decide⟩ : Fin 140))
      ∗ cellInv ER (rsRd m) (K (cellAt (pz c) (⟨59, by decide⟩ : Fin 140))) (cellAt (pz c) (⟨59, by decide⟩ : Fin 140))
      ∗ cellInv ER (rsRd m) (K (cellAt c (⟨67, by decide⟩ : Fin 140))) (cellAt c (⟨67, by decide⟩ : Fin 140))
      ∗ cellInv ER (rsRd m) (K (cellAt (py c) (⟨75, by decide⟩ : Fin 140))) (cellAt (py c) (⟨75, by decide⟩ : Fin 140))
      ∗ cellInv ER (rsRd m) (K (cellAt c (⟨98, by decide⟩ : Fin 140))) (cellAt c (⟨98, by decide⟩ : Fin 140))
      ∗ cellInv ER (rsRd m) (K (cellAt (py c) (⟨106, by decide⟩ : Fin 140))) (cellAt (py c) (⟨106, by decide⟩ : Fin 140))
      ∗ cellInv ER (rsRd m) (K (cellAt c (⟨82, by decide⟩ : Fin 140))) (cellAt c (⟨82, by decide⟩ : Fin 140))
      ∗ cellInv ER (rsRd m) (K (cellAt (pz c) (⟨90, by decide⟩ : Fin 140))) (cellAt (pz c) (⟨90, by decide⟩ : Fin 140))
      ∗ cellInv ER (rsRd m) (K (cellAt c (⟨99, by decide⟩ : Fin 140))) (cellAt c (⟨99, by decide⟩ : Fin 140))
      ∗ cellInv ER (rsRd m) (K (cellAt (py c) (⟨107, by decide⟩ : Fin 140))) (cellAt (py c) (⟨107, by decide⟩ : Fin 140))
      ∗ cellInv ER (rsRd m) (K (cellAt c (⟨83, by decide⟩ : Fin 140))) (cellAt c (⟨83, by decide⟩ : Fin 140))
      ∗ cellInv ER (rsRd m) (K (cellAt (pz c) (⟨91, by decide⟩ : Fin 140))) (cellAt (pz c) (⟨91, by decide⟩ : Fin 140)))
    ∗ (cellInv ER (rsRd m) (K (barCell c)) (barCell c)
      ∗ cellInv ER (rsRd m) (K (cellAt c (⟨30, by decide⟩ : Fin 140))) (cellAt c (⟨30, by decide⟩ : Fin 140))
      ∗ cellInv ER (rsRd m) (K (cellAt c (⟨31, by decide⟩ : Fin 140))) (cellAt c (⟨31, by decide⟩ : Fin 140))
      ∗ cellInv ER (rsRd m) (K (cellAt c (⟨52, by decide⟩ : Fin 140))) (cellAt c (⟨52, by decide⟩ : Fin 140))
      ∗ cellInv ER (rsRd m) (K (cellAt c (⟨68, by decide⟩ : Fin 140))) (cellAt c (⟨68, by decide⟩ : Fin 140))
      ∗ cellInv ER (rsRd m) (K (cellAt c (⟨32, by decide⟩ : Fin 140))) (cellAt c (⟨32, by decide⟩ : Fin 140))
      ∗ cellInv ER (rsRd m) (K (cellAt c (⟨53, by decide⟩ : Fin 140))) (cellAt c (⟨53, by decide⟩ : Fin 140))
      ∗ cellInv ER (rsRd m) (K (cellAt c (⟨69, by decide⟩ : Fin 140))) (cellAt c (⟨69, by decide⟩ : Fin 140))
      ∗ cellInv ER (rsRd m) (K (cellAt c (⟨33, by decide⟩ : Fin 140))) (cellAt c (⟨33, by decide⟩ : Fin 140))
      ∗ cellInv ER (rsRd m) (K (cellAt c (⟨54, by decide⟩ : Fin 140))) (cellAt c (⟨54, by decide⟩ : Fin 140))
      ∗ cellInv ER (rsRd m) (K (cellAt c (⟨70, by decide⟩ : Fin 140))) (cellAt c (⟨70, by decide⟩ : Fin 140))
      ∗ cellInv ER (rsRd m) (K (cellAt c (⟨34, by decide⟩ : Fin 140))) (cellAt c (⟨34, by decide⟩ : Fin 140))
      ∗ cellInv ER (rsRd m) (K (cellAt c (⟨55, by decide⟩ : Fin 140))) (cellAt c (⟨55, by decide⟩ : Fin 140))
      ∗ cellInv ER (rsRd m) (K (cellAt c (⟨71, by decide⟩ : Fin 140))) (cellAt c (⟨71, by decide⟩ : Fin 140))
      ∗ cellInv ER (rsRd m) (K (cellAt c (⟨35, by decide⟩ : Fin 140))) (cellAt c (⟨35, by decide⟩ : Fin 140))
      ∗ cellInv ER (rsRd m) (K (cellAt c (⟨56, by decide⟩ : Fin 140))) (cellAt c (⟨56, by decide⟩ : Fin 140))
      ∗ cellInv ER (rsRd m) (K (cellAt c (⟨72, by decide⟩ : Fin 140))) (cellAt c (⟨72, by decide⟩ : Fin 140))
      ∗ cellInv ER (rsRd m) (K (cellAt c (⟨87, by decide⟩ : Fin 140))) (cellAt c (⟨87, by decide⟩ : Fin 140))
      ∗ cellInv ER (rsRd m) (K (cellAt c (⟨103, by decide⟩ : Fin 140))) (cellAt c (⟨103, by decide⟩ : Fin 140))
      ∗ cellInv ER (rsRd m) (K (cellAt c (⟨36, by decide⟩ : Fin 140))) (cellAt c (⟨36, by decide⟩ : Fin 140))
      ∗ cellInv ER (rsRd m) (K (cellAt c (⟨57, by decide⟩ : Fin 140))) (cellAt c (⟨57, by decide⟩ : Fin 140))
      ∗ cellInv ER (rsRd m) (K (cellAt c (⟨73, by decide⟩ : Fin 140))) (cellAt c (⟨73, by decide⟩ : Fin 140))
      ∗ cellInv ER (rsRd m) (K (cellAt c (⟨88, by decide⟩ : Fin 140))) (cellAt c (⟨88, by decide⟩ : Fin 140))
      ∗ cellInv ER (rsRd m) (K (cellAt c (⟨104, by decide⟩ : Fin 140))) (cellAt c (⟨104, by decide⟩ : Fin 140))
      ∗ cellInv ER (rsRd m) (K (cellAt c (⟨37, by decide⟩ : Fin 140))) (cellAt c (⟨37, by decide⟩ : Fin 140))
      ∗ cellInv ER (rsRd m) (K (cellAt c (⟨58, by decide⟩ : Fin 140))) (cellAt c (⟨58, by decide⟩ : Fin 140))
      ∗ cellInv ER (rsRd m) (K (cellAt c (⟨74, by decide⟩ : Fin 140))) (cellAt c (⟨74, by decide⟩ : Fin 140))
      ∗ cellInv ER (rsRd m) (K (cellAt c (⟨89, by decide⟩ : Fin 140))) (cellAt c (⟨89, by decide⟩ : Fin 140))
      ∗ cellInv ER (rsRd m) (K (cellAt c (⟨105, by decide⟩ : Fin 140))) (cellAt c (⟨105, by decide⟩ : Fin 140))
      ∗ cellInv ER (rsRd m) (K (cellAt c (⟨59, by decide⟩ : Fin 140))) (cellAt c (⟨59, by decide⟩ : Fin 140))
      ∗ cellInv ER (rsRd m) (K (cellAt c (⟨75, by decide⟩ : Fin 140))) (cellAt c (⟨75, by decide⟩ : Fin 140))
      ∗ cellInv ER (rsRd m) (K (cellAt c (⟨41, by decide⟩ : Fin 140))) (cellAt c (⟨41, by decide⟩ : Fin 140))
      ∗ cellInv ER (rsRd m) (K (cellAt c (⟨42, by decide⟩ : Fin 140))) (cellAt c (⟨42, by decide⟩ : Fin 140))
      ∗ cellInv ER (rsRd m) (K (cellAt c (⟨43, by decide⟩ : Fin 140))) (cellAt c (⟨43, by decide⟩ : Fin 140))
      ∗ cellInv ER (rsRd m) (K (cellAt c (⟨90, by decide⟩ : Fin 140))) (cellAt c (⟨90, by decide⟩ : Fin 140))
      ∗ cellInv ER (rsRd m) (K (cellAt c (⟨106, by decide⟩ : Fin 140))) (cellAt c (⟨106, by decide⟩ : Fin 140))
      ∗ cellInv ER (rsRd m) (K (cellAt c (⟨91, by decide⟩ : Fin 140))) (cellAt c (⟨91, by decide⟩ : Fin 140))
      ∗ cellInv ER (rsRd m) (K (cellAt c (⟨107, by decide⟩ : Fin 140))) (cellAt c (⟨107, by decide⟩ : Fin 140)))
    ∗ (reached ER (barCell (px c)) 0
      ∗ reached ER (barCell (pz c)) 0
      ∗ reached ER (barCell (py c)) 0
      ∗ reached ER (cellAt c (⟨22, by decide⟩ : Fin 140)) 0
      ∗ reached ER (cellAt (px c) (⟨30, by decide⟩ : Fin 140)) 0
      ∗ reached ER (cellAt c (⟨23, by decide⟩ : Fin 140)) 0
      ∗ reached ER (cellAt (px c) (⟨31, by decide⟩ : Fin 140)) 0
      ∗ reached ER (cellAt c (⟨24, by decide⟩ : Fin 140)) 0
      ∗ reached ER (cellAt (px c) (⟨32, by decide⟩ : Fin 140)) 0
      ∗ reached ER (cellAt c (⟨25, by decide⟩ : Fin 140)) 0
      ∗ reached ER (cellAt (px c) (⟨33, by decide⟩ : Fin 140)) 0
      ∗ reached ER (cellAt c (⟨26, by decide⟩ : Fin 140)) 0
      ∗ reached ER (cellAt (px c) (⟨34, by decide⟩ : Fin 140)) 0
      ∗ reached ER (cellAt c (⟨27, by decide⟩ : Fin 140)) 0
      ∗ reached ER (cellAt (px c) (⟨35, by decide⟩ : Fin 140)) 0
      ∗ reached ER (cellAt c (⟨28, by decide⟩ : Fin 140)) 0
      ∗ reached ER (cellAt (px c) (⟨36, by decide⟩ : Fin 140)) 0
      ∗ reached ER (cellAt c (⟨29, by decide⟩ : Fin 140)) 0
      ∗ reached ER (cellAt (px c) (⟨37, by decide⟩ : Fin 140)) 0
      ∗ reached ER (cellAt c (⟨38, by decide⟩ : Fin 140)) 0
      ∗ reached ER (cellAt (px c) (⟨41, by decide⟩ : Fin 140)) 0
      ∗ reached ER (cellAt c (⟨39, by decide⟩ : Fin 140)) 0
      ∗ reached ER (cellAt (px c) (⟨42, by decide⟩ : Fin 140)) 0
      ∗ reached ER (cellAt c (⟨40, by decide⟩ : Fin 140)) 0
      ∗ reached ER (cellAt (px c) (⟨43, by decide⟩ : Fin 140)) 0
      ∗ reached ER (cellAt c (⟨44, by decide⟩ : Fin 140)) 0
      ∗ reached ER (cellAt (pz c) (⟨52, by decide⟩ : Fin 140)) 0
      ∗ reached ER (cellAt c (⟨60, by decide⟩ : Fin 140)) 0
      ∗ reached ER (cellAt (py c) (⟨68, by decide⟩ : Fin 140)) 0
      ∗ reached ER (cellAt c (⟨45, by decide⟩ : Fin 140)) 0
      ∗ reached ER (cellAt (pz c) (⟨53, by decide⟩ : Fin 140)) 0
      ∗ reached ER (cellAt c (⟨61, by decide⟩ : Fin 140)) 0
      ∗ reached ER (cellAt (py c) (⟨69, by decide⟩ : Fin 140)) 0
      ∗ reached ER (cellAt c (⟨46, by decide⟩ : Fin 140)) 0
      ∗ reached ER (cellAt (pz c) (⟨54, by decide⟩ : Fin 140)) 0
      ∗ reached ER (cellAt c (⟨62, by decide⟩ : Fin 140)) 0
      ∗ reached ER (cellAt (py c) (⟨70, by decide⟩ : Fin 140)) 0
      ∗ reached ER (cellAt c (⟨47, by decide⟩ : Fin 140)) 0
      ∗ reached ER (cellAt (pz c) (⟨55, by decide⟩ : Fin 140)) 0
      ∗ reached ER (cellAt c (⟨63, by decide⟩ : Fin 140)) 0
      ∗ reached ER (cellAt (py c) (⟨71, by decide⟩ : Fin 140)) 0
      ∗ reached ER (cellAt c (⟨48, by decide⟩ : Fin 140)) 0
      ∗ reached ER (cellAt (pz c) (⟨56, by decide⟩ : Fin 140)) 0
      ∗ reached ER (cellAt c (⟨64, by decide⟩ : Fin 140)) 0
      ∗ reached ER (cellAt (py c) (⟨72, by decide⟩ : Fin 140)) 0
      ∗ reached ER (cellAt c (⟨95, by decide⟩ : Fin 140)) 0
      ∗ reached ER (cellAt (py c) (⟨103, by decide⟩ : Fin 140)) 0
      ∗ reached ER (cellAt c (⟨79, by decide⟩ : Fin 140)) 0
      ∗ reached ER (cellAt (pz c) (⟨87, by decide⟩ : Fin 140)) 0
      ∗ reached ER (cellAt c (⟨49, by decide⟩ : Fin 140)) 0
      ∗ reached ER (cellAt (pz c) (⟨57, by decide⟩ : Fin 140)) 0
      ∗ reached ER (cellAt c (⟨65, by decide⟩ : Fin 140)) 0
      ∗ reached ER (cellAt (py c) (⟨73, by decide⟩ : Fin 140)) 0
      ∗ reached ER (cellAt c (⟨96, by decide⟩ : Fin 140)) 0
      ∗ reached ER (cellAt (py c) (⟨104, by decide⟩ : Fin 140)) 0
      ∗ reached ER (cellAt c (⟨80, by decide⟩ : Fin 140)) 0
      ∗ reached ER (cellAt (pz c) (⟨88, by decide⟩ : Fin 140)) 0
      ∗ reached ER (cellAt c (⟨50, by decide⟩ : Fin 140)) 0
      ∗ reached ER (cellAt (pz c) (⟨58, by decide⟩ : Fin 140)) 0
      ∗ reached ER (cellAt c (⟨66, by decide⟩ : Fin 140)) 0
      ∗ reached ER (cellAt (py c) (⟨74, by decide⟩ : Fin 140)) 0
      ∗ reached ER (cellAt c (⟨97, by decide⟩ : Fin 140)) 0
      ∗ reached ER (cellAt (py c) (⟨105, by decide⟩ : Fin 140)) 0
      ∗ reached ER (cellAt c (⟨81, by decide⟩ : Fin 140)) 0
      ∗ reached ER (cellAt (pz c) (⟨89, by decide⟩ : Fin 140)) 0
      ∗ reached ER (cellAt c (⟨51, by decide⟩ : Fin 140)) 0
      ∗ reached ER (cellAt (pz c) (⟨59, by decide⟩ : Fin 140)) 0
      ∗ reached ER (cellAt c (⟨67, by decide⟩ : Fin 140)) 0
      ∗ reached ER (cellAt (py c) (⟨75, by decide⟩ : Fin 140)) 0
      ∗ reached ER (cellAt c (⟨98, by decide⟩ : Fin 140)) 0
      ∗ reached ER (cellAt (py c) (⟨106, by decide⟩ : Fin 140)) 0
      ∗ reached ER (cellAt c (⟨82, by decide⟩ : Fin 140)) 0
      ∗ reached ER (cellAt (pz c) (⟨90, by decide⟩ : Fin 140)) 0
      ∗ reached ER (cellAt c (⟨99, by decide⟩ : Fin 140)) 0
      ∗ reached ER (cellAt (py c) (⟨107, by decide⟩ : Fin 140)) 0
      ∗ reached ER (cellAt c (⟨83, by decide⟩ : Fin 140)) 0
      ∗ reached ER (cellAt (pz c) (⟨91, by decide⟩ : Fin 140)) 0)
    ∗ levAts LL lvv
    ∗ owes (c : Thread nD τ) (O₀ c) W
    ∗ (cred (tallyAt (barCell c) () 3)
      ∗ cred (tallyAt (cellAt c (⟨30, by decide⟩ : Fin 140)) () NA)
      ∗ cred (tallyAt (cellAt c (⟨31, by decide⟩ : Fin 140)) () NA)
      ∗ cred (tallyAt (cellAt c (⟨52, by decide⟩ : Fin 140)) () NA)
      ∗ cred (tallyAt (cellAt c (⟨68, by decide⟩ : Fin 140)) () NA)
      ∗ cred (tallyAt (cellAt c (⟨32, by decide⟩ : Fin 140)) () NA)
      ∗ cred (tallyAt (cellAt c (⟨53, by decide⟩ : Fin 140)) () NA)
      ∗ cred (tallyAt (cellAt c (⟨69, by decide⟩ : Fin 140)) () NA)
      ∗ cred (tallyAt (cellAt c (⟨33, by decide⟩ : Fin 140)) () NA)
      ∗ cred (tallyAt (cellAt c (⟨54, by decide⟩ : Fin 140)) () NA)
      ∗ cred (tallyAt (cellAt c (⟨70, by decide⟩ : Fin 140)) () NA)
      ∗ cred (tallyAt (cellAt c (⟨34, by decide⟩ : Fin 140)) () NA)
      ∗ cred (tallyAt (cellAt c (⟨55, by decide⟩ : Fin 140)) () NA)
      ∗ cred (tallyAt (cellAt c (⟨71, by decide⟩ : Fin 140)) () NA)
      ∗ cred (tallyAt (cellAt c (⟨35, by decide⟩ : Fin 140)) () NA)
      ∗ cred (tallyAt (cellAt c (⟨56, by decide⟩ : Fin 140)) () NA)
      ∗ cred (tallyAt (cellAt c (⟨72, by decide⟩ : Fin 140)) () NA)
      ∗ cred (tallyAt (cellAt c (⟨87, by decide⟩ : Fin 140)) () NH)
      ∗ cred (tallyAt (cellAt c (⟨103, by decide⟩ : Fin 140)) () NH)
      ∗ cred (tallyAt (cellAt c (⟨36, by decide⟩ : Fin 140)) () NA)
      ∗ cred (tallyAt (cellAt c (⟨57, by decide⟩ : Fin 140)) () NA)
      ∗ cred (tallyAt (cellAt c (⟨73, by decide⟩ : Fin 140)) () NA)
      ∗ cred (tallyAt (cellAt c (⟨88, by decide⟩ : Fin 140)) () NH)
      ∗ cred (tallyAt (cellAt c (⟨104, by decide⟩ : Fin 140)) () NH)
      ∗ cred (tallyAt (cellAt c (⟨37, by decide⟩ : Fin 140)) () NA)
      ∗ cred (tallyAt (cellAt c (⟨58, by decide⟩ : Fin 140)) () NA)
      ∗ cred (tallyAt (cellAt c (⟨74, by decide⟩ : Fin 140)) () NA)
      ∗ cred (tallyAt (cellAt c (⟨89, by decide⟩ : Fin 140)) () NH)
      ∗ cred (tallyAt (cellAt c (⟨105, by decide⟩ : Fin 140)) () NH)
      ∗ cred (tallyAt (cellAt c (⟨59, by decide⟩ : Fin 140)) () NA)
      ∗ cred (tallyAt (cellAt c (⟨75, by decide⟩ : Fin 140)) () NA)
      ∗ cred (tallyAt (cellAt c (⟨41, by decide⟩ : Fin 140)) () NA)
      ∗ cred (tallyAt (cellAt c (⟨42, by decide⟩ : Fin 140)) () NA)
      ∗ cred (tallyAt (cellAt c (⟨43, by decide⟩ : Fin 140)) () NA)
      ∗ cred (tallyAt (cellAt c (⟨90, by decide⟩ : Fin 140)) () NH)
      ∗ cred (tallyAt (cellAt c (⟨106, by decide⟩ : Fin 140)) () NH)
      ∗ cred (tallyAt (cellAt c (⟨91, by decide⟩ : Fin 140)) () NH)
      ∗ cred (tallyAt (cellAt c (⟨107, by decide⟩ : Fin 140)) () NH))
    ∗ (atPos ER (barCell c) 0 ∅ 0
      ∗ atPos ER (cellAt c (⟨30, by decide⟩ : Fin 140)) 0 ∅ 0
      ∗ atPos ER (cellAt c (⟨31, by decide⟩ : Fin 140)) 0 ∅ 0
      ∗ atPos ER (cellAt c (⟨52, by decide⟩ : Fin 140)) 0 ∅ 0
      ∗ atPos ER (cellAt c (⟨68, by decide⟩ : Fin 140)) 0 ∅ 0
      ∗ atPos ER (cellAt c (⟨32, by decide⟩ : Fin 140)) 0 ∅ 0
      ∗ atPos ER (cellAt c (⟨53, by decide⟩ : Fin 140)) 0 ∅ 0
      ∗ atPos ER (cellAt c (⟨69, by decide⟩ : Fin 140)) 0 ∅ 0
      ∗ atPos ER (cellAt c (⟨33, by decide⟩ : Fin 140)) 0 ∅ 0
      ∗ atPos ER (cellAt c (⟨54, by decide⟩ : Fin 140)) 0 ∅ 0
      ∗ atPos ER (cellAt c (⟨70, by decide⟩ : Fin 140)) 0 ∅ 0
      ∗ atPos ER (cellAt c (⟨34, by decide⟩ : Fin 140)) 0 ∅ 0
      ∗ atPos ER (cellAt c (⟨55, by decide⟩ : Fin 140)) 0 ∅ 0
      ∗ atPos ER (cellAt c (⟨71, by decide⟩ : Fin 140)) 0 ∅ 0
      ∗ atPos ER (cellAt c (⟨35, by decide⟩ : Fin 140)) 0 ∅ 0
      ∗ atPos ER (cellAt c (⟨56, by decide⟩ : Fin 140)) 0 ∅ 0
      ∗ atPos ER (cellAt c (⟨72, by decide⟩ : Fin 140)) 0 ∅ 0
      ∗ atPos ER (cellAt c (⟨87, by decide⟩ : Fin 140)) 0 ∅ 0
      ∗ atPos ER (cellAt c (⟨103, by decide⟩ : Fin 140)) 0 ∅ 0
      ∗ atPos ER (cellAt c (⟨36, by decide⟩ : Fin 140)) 0 ∅ 0
      ∗ atPos ER (cellAt c (⟨57, by decide⟩ : Fin 140)) 0 ∅ 0
      ∗ atPos ER (cellAt c (⟨73, by decide⟩ : Fin 140)) 0 ∅ 0
      ∗ atPos ER (cellAt c (⟨88, by decide⟩ : Fin 140)) 0 ∅ 0
      ∗ atPos ER (cellAt c (⟨104, by decide⟩ : Fin 140)) 0 ∅ 0
      ∗ atPos ER (cellAt c (⟨37, by decide⟩ : Fin 140)) 0 ∅ 0
      ∗ atPos ER (cellAt c (⟨58, by decide⟩ : Fin 140)) 0 ∅ 0
      ∗ atPos ER (cellAt c (⟨74, by decide⟩ : Fin 140)) 0 ∅ 0
      ∗ atPos ER (cellAt c (⟨89, by decide⟩ : Fin 140)) 0 ∅ 0
      ∗ atPos ER (cellAt c (⟨105, by decide⟩ : Fin 140)) 0 ∅ 0
      ∗ atPos ER (cellAt c (⟨59, by decide⟩ : Fin 140)) 0 ∅ 0
      ∗ atPos ER (cellAt c (⟨75, by decide⟩ : Fin 140)) 0 ∅ 0
      ∗ atPos ER (cellAt c (⟨41, by decide⟩ : Fin 140)) 0 ∅ 0
      ∗ atPos ER (cellAt c (⟨42, by decide⟩ : Fin 140)) 0 ∅ 0
      ∗ atPos ER (cellAt c (⟨43, by decide⟩ : Fin 140)) 0 ∅ 0
      ∗ atPos ER (cellAt c (⟨90, by decide⟩ : Fin 140)) 0 ∅ 0
      ∗ atPos ER (cellAt c (⟨106, by decide⟩ : Fin 140)) 0 ∅ 0
      ∗ atPos ER (cellAt c (⟨91, by decide⟩ : Fin 140)) 0 ∅ 0
      ∗ atPos ER (cellAt c (⟨107, by decide⟩ : Fin 140)) 0 ∅ 0)
    ∗ (atPos ER (cellAt c (⟨22, by decide⟩ : Fin 140)) 0 ∅ 0
      ∗ atPos ER (cellAt c (⟨44, by decide⟩ : Fin 140)) 0 ∅ 0
      ∗ atPos ER (cellAt c (⟨60, by decide⟩ : Fin 140)) 0 ∅ 0
      ∗ atPos ER (cellAt c (⟨23, by decide⟩ : Fin 140)) 0 ∅ 0
      ∗ atPos ER (cellAt c (⟨45, by decide⟩ : Fin 140)) 0 ∅ 0
      ∗ atPos ER (cellAt c (⟨61, by decide⟩ : Fin 140)) 0 ∅ 0
      ∗ atPos ER (cellAt c (⟨24, by decide⟩ : Fin 140)) 0 ∅ 0
      ∗ atPos ER (cellAt c (⟨46, by decide⟩ : Fin 140)) 0 ∅ 0
      ∗ atPos ER (cellAt c (⟨62, by decide⟩ : Fin 140)) 0 ∅ 0
      ∗ atPos ER (cellAt c (⟨25, by decide⟩ : Fin 140)) 0 ∅ 0
      ∗ atPos ER (cellAt c (⟨47, by decide⟩ : Fin 140)) 0 ∅ 0
      ∗ atPos ER (cellAt c (⟨63, by decide⟩ : Fin 140)) 0 ∅ 0
      ∗ atPos ER (cellAt c (⟨79, by decide⟩ : Fin 140)) 0 ∅ 0
      ∗ atPos ER (cellAt c (⟨95, by decide⟩ : Fin 140)) 0 ∅ 0
      ∗ atPos ER (cellAt c (⟨26, by decide⟩ : Fin 140)) 0 ∅ 0
      ∗ atPos ER (cellAt c (⟨48, by decide⟩ : Fin 140)) 0 ∅ 0
      ∗ atPos ER (cellAt c (⟨64, by decide⟩ : Fin 140)) 0 ∅ 0
      ∗ atPos ER (cellAt c (⟨80, by decide⟩ : Fin 140)) 0 ∅ 0
      ∗ atPos ER (cellAt c (⟨96, by decide⟩ : Fin 140)) 0 ∅ 0
      ∗ atPos ER (cellAt c (⟨27, by decide⟩ : Fin 140)) 0 ∅ 0
      ∗ atPos ER (cellAt c (⟨49, by decide⟩ : Fin 140)) 0 ∅ 0
      ∗ atPos ER (cellAt c (⟨65, by decide⟩ : Fin 140)) 0 ∅ 0
      ∗ atPos ER (cellAt c (⟨81, by decide⟩ : Fin 140)) 0 ∅ 0
      ∗ atPos ER (cellAt c (⟨97, by decide⟩ : Fin 140)) 0 ∅ 0
      ∗ atPos ER (cellAt c (⟨28, by decide⟩ : Fin 140)) 0 ∅ 0
      ∗ atPos ER (cellAt c (⟨50, by decide⟩ : Fin 140)) 0 ∅ 0
      ∗ atPos ER (cellAt c (⟨66, by decide⟩ : Fin 140)) 0 ∅ 0
      ∗ atPos ER (cellAt c (⟨82, by decide⟩ : Fin 140)) 0 ∅ 0
      ∗ atPos ER (cellAt c (⟨98, by decide⟩ : Fin 140)) 0 ∅ 0
      ∗ atPos ER (cellAt c (⟨29, by decide⟩ : Fin 140)) 0 ∅ 0
      ∗ atPos ER (cellAt c (⟨51, by decide⟩ : Fin 140)) 0 ∅ 0
      ∗ atPos ER (cellAt c (⟨67, by decide⟩ : Fin 140)) 0 ∅ 0
      ∗ atPos ER (cellAt c (⟨83, by decide⟩ : Fin 140)) 0 ∅ 0
      ∗ atPos ER (cellAt c (⟨99, by decide⟩ : Fin 140)) 0 ∅ 0
      ∗ atPos ER (cellAt c (⟨38, by decide⟩ : Fin 140)) 0 ∅ 0
      ∗ atPos ER (cellAt c (⟨39, by decide⟩ : Fin 140)) 0 ∅ 0
      ∗ atPos ER (cellAt c (⟨40, by decide⟩ : Fin 140)) 0 ∅ 0)
    ∗ (dutyTok ER (barCell (px c)) 0 0
      ∗ dutyTok ER (barCell (pz c)) 0 2
      ∗ dutyTok ER (barCell (py c)) 0 1
      ∗ dutyTok ER (cellAt c (⟨22, by decide⟩ : Fin 140)) 0 0
      ∗ dutyTok ER (cellAt (px c) (⟨30, by decide⟩ : Fin 140)) 0 0
      ∗ dutyTok ER (cellAt c (⟨23, by decide⟩ : Fin 140)) 0 0
      ∗ dutyTok ER (cellAt (px c) (⟨31, by decide⟩ : Fin 140)) 0 0
      ∗ dutyTok ER (cellAt c (⟨24, by decide⟩ : Fin 140)) 0 0
      ∗ dutyTok ER (cellAt (px c) (⟨32, by decide⟩ : Fin 140)) 0 0
      ∗ dutyTok ER (cellAt c (⟨25, by decide⟩ : Fin 140)) 0 0
      ∗ dutyTok ER (cellAt (px c) (⟨33, by decide⟩ : Fin 140)) 0 0
      ∗ dutyTok ER (cellAt c (⟨26, by decide⟩ : Fin 140)) 0 0
      ∗ dutyTok ER (cellAt (px c) (⟨34, by decide⟩ : Fin 140)) 0 0
      ∗ dutyTok ER (cellAt c (⟨27, by decide⟩ : Fin 140)) 0 0
      ∗ dutyTok ER (cellAt (px c) (⟨35, by decide⟩ : Fin 140)) 0 0
      ∗ dutyTok ER (cellAt c (⟨28, by decide⟩ : Fin 140)) 0 0
      ∗ dutyTok ER (cellAt (px c) (⟨36, by decide⟩ : Fin 140)) 0 0
      ∗ dutyTok ER (cellAt c (⟨29, by decide⟩ : Fin 140)) 0 0
      ∗ dutyTok ER (cellAt (px c) (⟨37, by decide⟩ : Fin 140)) 0 0
      ∗ dutyTok ER (cellAt c (⟨38, by decide⟩ : Fin 140)) 0 0
      ∗ dutyTok ER (cellAt (px c) (⟨41, by decide⟩ : Fin 140)) 0 0
      ∗ dutyTok ER (cellAt c (⟨39, by decide⟩ : Fin 140)) 0 0
      ∗ dutyTok ER (cellAt (px c) (⟨42, by decide⟩ : Fin 140)) 0 0
      ∗ dutyTok ER (cellAt c (⟨40, by decide⟩ : Fin 140)) 0 0
      ∗ dutyTok ER (cellAt (px c) (⟨43, by decide⟩ : Fin 140)) 0 0
      ∗ dutyTok ER (cellAt c (⟨44, by decide⟩ : Fin 140)) 0 0
      ∗ dutyTok ER (cellAt (pz c) (⟨52, by decide⟩ : Fin 140)) 0 0
      ∗ dutyTok ER (cellAt c (⟨60, by decide⟩ : Fin 140)) 0 0
      ∗ dutyTok ER (cellAt (py c) (⟨68, by decide⟩ : Fin 140)) 0 0
      ∗ dutyTok ER (cellAt c (⟨45, by decide⟩ : Fin 140)) 0 0
      ∗ dutyTok ER (cellAt (pz c) (⟨53, by decide⟩ : Fin 140)) 0 0
      ∗ dutyTok ER (cellAt c (⟨61, by decide⟩ : Fin 140)) 0 0
      ∗ dutyTok ER (cellAt (py c) (⟨69, by decide⟩ : Fin 140)) 0 0
      ∗ dutyTok ER (cellAt c (⟨46, by decide⟩ : Fin 140)) 0 0
      ∗ dutyTok ER (cellAt (pz c) (⟨54, by decide⟩ : Fin 140)) 0 0
      ∗ dutyTok ER (cellAt c (⟨62, by decide⟩ : Fin 140)) 0 0
      ∗ dutyTok ER (cellAt (py c) (⟨70, by decide⟩ : Fin 140)) 0 0
      ∗ dutyTok ER (cellAt c (⟨47, by decide⟩ : Fin 140)) 0 0
      ∗ dutyTok ER (cellAt (pz c) (⟨55, by decide⟩ : Fin 140)) 0 0
      ∗ dutyTok ER (cellAt c (⟨63, by decide⟩ : Fin 140)) 0 0
      ∗ dutyTok ER (cellAt (py c) (⟨71, by decide⟩ : Fin 140)) 0 0
      ∗ dutyTok ER (cellAt c (⟨48, by decide⟩ : Fin 140)) 0 0
      ∗ dutyTok ER (cellAt (pz c) (⟨56, by decide⟩ : Fin 140)) 0 0
      ∗ dutyTok ER (cellAt c (⟨64, by decide⟩ : Fin 140)) 0 0
      ∗ dutyTok ER (cellAt (py c) (⟨72, by decide⟩ : Fin 140)) 0 0
      ∗ dutyTok ER (cellAt c (⟨95, by decide⟩ : Fin 140)) 0 0
      ∗ dutyTok ER (cellAt (py c) (⟨103, by decide⟩ : Fin 140)) 0 0
      ∗ dutyTok ER (cellAt c (⟨79, by decide⟩ : Fin 140)) 0 0
      ∗ dutyTok ER (cellAt (pz c) (⟨87, by decide⟩ : Fin 140)) 0 0
      ∗ dutyTok ER (cellAt c (⟨49, by decide⟩ : Fin 140)) 0 0
      ∗ dutyTok ER (cellAt (pz c) (⟨57, by decide⟩ : Fin 140)) 0 0
      ∗ dutyTok ER (cellAt c (⟨65, by decide⟩ : Fin 140)) 0 0
      ∗ dutyTok ER (cellAt (py c) (⟨73, by decide⟩ : Fin 140)) 0 0
      ∗ dutyTok ER (cellAt c (⟨96, by decide⟩ : Fin 140)) 0 0
      ∗ dutyTok ER (cellAt (py c) (⟨104, by decide⟩ : Fin 140)) 0 0
      ∗ dutyTok ER (cellAt c (⟨80, by decide⟩ : Fin 140)) 0 0
      ∗ dutyTok ER (cellAt (pz c) (⟨88, by decide⟩ : Fin 140)) 0 0
      ∗ dutyTok ER (cellAt c (⟨50, by decide⟩ : Fin 140)) 0 0
      ∗ dutyTok ER (cellAt (pz c) (⟨58, by decide⟩ : Fin 140)) 0 0
      ∗ dutyTok ER (cellAt c (⟨66, by decide⟩ : Fin 140)) 0 0
      ∗ dutyTok ER (cellAt (py c) (⟨74, by decide⟩ : Fin 140)) 0 0
      ∗ dutyTok ER (cellAt c (⟨97, by decide⟩ : Fin 140)) 0 0
      ∗ dutyTok ER (cellAt (py c) (⟨105, by decide⟩ : Fin 140)) 0 0
      ∗ dutyTok ER (cellAt c (⟨81, by decide⟩ : Fin 140)) 0 0
      ∗ dutyTok ER (cellAt (pz c) (⟨89, by decide⟩ : Fin 140)) 0 0
      ∗ dutyTok ER (cellAt c (⟨51, by decide⟩ : Fin 140)) 0 0
      ∗ dutyTok ER (cellAt (pz c) (⟨59, by decide⟩ : Fin 140)) 0 0
      ∗ dutyTok ER (cellAt c (⟨67, by decide⟩ : Fin 140)) 0 0
      ∗ dutyTok ER (cellAt (py c) (⟨75, by decide⟩ : Fin 140)) 0 0
      ∗ dutyTok ER (cellAt c (⟨98, by decide⟩ : Fin 140)) 0 0
      ∗ dutyTok ER (cellAt (py c) (⟨106, by decide⟩ : Fin 140)) 0 0
      ∗ dutyTok ER (cellAt c (⟨82, by decide⟩ : Fin 140)) 0 0
      ∗ dutyTok ER (cellAt (pz c) (⟨90, by decide⟩ : Fin 140)) 0 0
      ∗ dutyTok ER (cellAt c (⟨99, by decide⟩ : Fin 140)) 0 0
      ∗ dutyTok ER (cellAt (py c) (⟨107, by decide⟩ : Fin 140)) 0 0
      ∗ dutyTok ER (cellAt c (⟨83, by decide⟩ : Fin 140)) 0 0
      ∗ dutyTok ER (cellAt (pz c) (⟨91, by decide⟩ : Fin 140)) 0 0)
    ∗ pts (F := F) (Memref.whole main_arg0 : Memref sig .tc .hbm S1x4096x2048 .f32) c fullShare (xin m c)
    ∗ junk (F := F) (Memref.whole main_v1 : Memref sig .tc .hbm S4096x1024 .bf16) c
    ∗ junk (F := F) (Memref.whole cc0_scratch0 : Memref sig .tc .vmem S4x4096x256 .bf16) c
    ∗ junk (F := F) (Memref.whole cc0_scratch1 : Memref sig .tc .vmem S4096x256 .bf16) c
    ∗ junk (F := F) (Memref.whole cc0_scratch2 : Memref sig .tc .vmem S4096x256 .bf16) c
    ∗ junk (F := F) (Memref.whole cc0_scratch3 : Memref sig .tc .vmem S1536x256 .bf16) c
    ∗ junk (F := F) (Memref.whole cc0_scratch4 : Memref sig .tc .vmem S1536x256 .bf16) c
    ∗ junk (F := F) (Memref.whole cc0_scratch5 : Memref sig .tc .vmem S4096x256 .f32) c
    ∗ junk (F := F) (Memref.whole cc0_scratch6 : Memref sig .tc .vmem S4096x256 .f32) c
    ∗ junk (F := F) (Memref.whole cc0_scratch7 : Memref sig .tc .vmem S1536x256 .f32) c
    ∗ junk (F := F) (Memref.whole cc0_scratch8 : Memref sig .tc .vmem S1536x256 .f32) c
    ∗ (semVal (cellAt c (⟨0, by decide⟩ : Fin 140)) 0
      ∗ semVal (cellAt c (⟨8, by decide⟩ : Fin 140)) 0
      ∗ semVal (cellAt c (⟨1, by decide⟩ : Fin 140)) 0
      ∗ semVal (cellAt c (⟨9, by decide⟩ : Fin 140)) 0
      ∗ semVal (cellAt c (⟨2, by decide⟩ : Fin 140)) 0
      ∗ semVal (cellAt c (⟨10, by decide⟩ : Fin 140)) 0
      ∗ semVal (cellAt c (⟨3, by decide⟩ : Fin 140)) 0
      ∗ semVal (cellAt c (⟨11, by decide⟩ : Fin 140)) 0
      ∗ semVal (cellAt c (⟨4, by decide⟩ : Fin 140)) 0
      ∗ semVal (cellAt c (⟨12, by decide⟩ : Fin 140)) 0
      ∗ semVal (cellAt c (⟨5, by decide⟩ : Fin 140)) 0
      ∗ semVal (cellAt c (⟨13, by decide⟩ : Fin 140)) 0
      ∗ semVal (cellAt c (⟨6, by decide⟩ : Fin 140)) 0
      ∗ semVal (cellAt c (⟨14, by decide⟩ : Fin 140)) 0
      ∗ semVal (cellAt c (⟨7, by decide⟩ : Fin 140)) 0
      ∗ semVal (cellAt c (⟨15, by decide⟩ : Fin 140)) 0
      ∗ semVal (cellAt c (⟨16, by decide⟩ : Fin 140)) 0
      ∗ semVal (cellAt c (⟨19, by decide⟩ : Fin 140)) 0
      ∗ semVal (cellAt c (⟨17, by decide⟩ : Fin 140)) 0
      ∗ semVal (cellAt c (⟨20, by decide⟩ : Fin 140)) 0
      ∗ semVal (cellAt c (⟨18, by decide⟩ : Fin 140)) 0
      ∗ semVal (cellAt c (⟨21, by decide⟩ : Fin 140)) 0)
    ∗ (semVal (cellAt c (⟨120, by decide⟩ : Fin 140)) 0
      ∗ semVal (cellAt c (⟨121, by decide⟩ : Fin 140)) 0
      ∗ semVal (cellAt c (⟨122, by decide⟩ : Fin 140)) 0
      ∗ semVal (cellAt c (⟨123, by decide⟩ : Fin 140)) 0
      ∗ semVal (cellAt c (⟨124, by decide⟩ : Fin 140)) 0
      ∗ semVal (cellAt c (⟨125, by decide⟩ : Fin 140)) 0
      ∗ semVal (cellAt c (⟨126, by decide⟩ : Fin 140)) 0
      ∗ semVal (cellAt c (⟨127, by decide⟩ : Fin 140)) 0
      ∗ semVal (cellAt c (⟨128, by decide⟩ : Fin 140)) 0
      ∗ semVal (cellAt c (⟨129, by decide⟩ : Fin 140)) 0
      ∗ semVal (cellAt c (⟨130, by decide⟩ : Fin 140)) 0
      ∗ semVal (cellAt c (⟨131, by decide⟩ : Fin 140)) 0
      ∗ semVal (cellAt c (⟨108, by decide⟩ : Fin 140)) 0
      ∗ semVal (cellAt c (⟨109, by decide⟩ : Fin 140)) 0
      ∗ semVal (cellAt c (⟨110, by decide⟩ : Fin 140)) 0
      ∗ semVal (cellAt c (⟨111, by decide⟩ : Fin 140)) 0
      ∗ semVal (cellAt c (⟨112, by decide⟩ : Fin 140)) 0
      ∗ semVal (cellAt c (⟨113, by decide⟩ : Fin 140)) 0
      ∗ semVal (cellAt c (⟨114, by decide⟩ : Fin 140)) 0
      ∗ semVal (cellAt c (⟨115, by decide⟩ : Fin 140)) 0
      ∗ semVal (cellAt c (⟨116, by decide⟩ : Fin 140)) 0
      ∗ semVal (cellAt c (⟨117, by decide⟩ : Fin 140)) 0
      ∗ semVal (cellAt c (⟨118, by decide⟩ : Fin 140)) 0
      ∗ semVal (cellAt c (⟨119, by decide⟩ : Fin 140)) 0
      ∗ semVal (cellAt c (⟨132, by decide⟩ : Fin 140)) 0
      ∗ semVal (cellAt c (⟨133, by decide⟩ : Fin 140)) 0
      ∗ semVal (cellAt c (⟨134, by decide⟩ : Fin 140)) 0
      ∗ semVal (cellAt c (⟨135, by decide⟩ : Fin 140)) 0
      ∗ semVal (cellAt c (⟨136, by decide⟩ : Fin 140)) 0
      ∗ semVal (cellAt c (⟨137, by decide⟩ : Fin 140)) 0
      ∗ semVal (cellAt c (⟨138, by decide⟩ : Fin 140)) 0
      ∗ semVal (cellAt c (⟨139, by decide⟩ : Fin 140)) 0)
    ∗ (semVal (cellAt c (⟨76, by decide⟩ : Fin 140)) 0
      ∗ semVal (cellAt c (⟨77, by decide⟩ : Fin 140)) 0
      ∗ semVal (cellAt c (⟨78, by decide⟩ : Fin 140)) 0
      ∗ semVal (cellAt c (⟨84, by decide⟩ : Fin 140)) 0
      ∗ semVal (cellAt c (⟨85, by decide⟩ : Fin 140)) 0
      ∗ semVal (cellAt c (⟨86, by decide⟩ : Fin 140)) 0
      ∗ semVal (cellAt c (⟨92, by decide⟩ : Fin 140)) 0
      ∗ semVal (cellAt c (⟨93, by decide⟩ : Fin 140)) 0
      ∗ semVal (cellAt c (⟨94, by decide⟩ : Fin 140)) 0
      ∗ semVal (cellAt c (⟨100, by decide⟩ : Fin 140)) 0
      ∗ semVal (cellAt c (⟨101, by decide⟩ : Fin 140)) 0
      ∗ semVal (cellAt c (⟨102, by decide⟩ : Fin 140)) 0))

/- the intro pattern of the groups, in the same order:
⟨HIt, HIw, HRt, #Hlev, HO, Hcr, HpR, HpS, Htk, HX, Hout, HS0, HS1, HS2, HS3, HS4, HS5, HS6, HS7, HS8, HvI, HvO, HvU⟩
-/

end Cert.KernelIdeal.RS

end
-- ==== Proof.BodyGlue.lean ====
import proofs.«901022_g7700000000001023_dist_rs_v7x_xyz2x2x2_x_m4096_n1024_bf16_1_alg».proof.Proof.Data
import proofs.«901022_g7700000000001023_dist_rs_v7x_xyz2x2x2_x_m4096_n1024_bf16_1_alg».proof.Proof.BodyPre
import proofs.«901022_g7700000000001023_dist_rs_v7x_xyz2x2x2_x_m4096_n1024_bf16_1_alg».proof.Proof.SepL
import proofs.«901022_g7700000000001023_dist_rs_v7x_xyz2x2x2_x_m4096_n1024_bf16_1_alg».proof.Proof.Sems

/-! Between the pipeline's invariant and the body's own statement: what the body ends with, and the body's precondition
    reached from the invariant before the point — each of its groups is one of the invariant's lists in another order. -/

noncomputable section

namespace Cert.KernelIdeal.RS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body ends with -/

/-- After the body: the scratch buffers at anything, the argument as it was, the result at its final contents, every own
    semaphore at zero, nothing owed. -/
def bodyPost (c : Dev nD) : sProp 𝕄 :=
  iprop(junk (F := F) (Memref.whole cc0_scratch0 : Memref sig .tc .vmem S4x4096x256 .bf16) c
    ∗ junk (F := F) (Memref.whole cc0_scratch1 : Memref sig .tc .vmem S4096x256 .bf16) c
    ∗ junk (F := F) (Memref.whole cc0_scratch2 : Memref sig .tc .vmem S4096x256 .bf16) c
    ∗ junk (F := F) (Memref.whole cc0_scratch3 : Memref sig .tc .vmem S1536x256 .bf16) c
    ∗ junk (F := F) (Memref.whole cc0_scratch4 : Memref sig .tc .vmem S1536x256 .bf16) c
    ∗ junk (F := F) (Memref.whole cc0_scratch5 : Memref sig .tc .vmem S4096x256 .f32) c
    ∗ junk (F := F) (Memref.whole cc0_scratch6 : Memref sig .tc .vmem S4096x256 .f32) c
    ∗ junk (F := F) (Memref.whole cc0_scratch7 : Memref sig .tc .vmem S1536x256 .f32) c
    ∗ junk (F := F) (Memref.whole cc0_scratch8 : Memref sig .tc .vmem S1536x256 .f32) c
    ∗ pts (F := F) (Memref.whole main_arg0 : Memref sig .tc .hbm S1x4096x2048 .f32) c fullShare (xin m c)
    ∗ pts (F := F) (Memref.whole main_v1 : Memref sig .tc .hbm S4096x1024 .bf16) c fullShare (out m c)
    ∗ (bigSepL allJ fun j => semVal (cellAt c j) 0)
    ∗ ∃ W' : Waits sig Unit, owes (c : Thread nD τ) 0 W')

/-! ## Whole buffers -/

omit [FloatOps F] in
theorem pts_of_set {sp : Space} {s : Shape} {e : EltTy} (M : Memref sig .tc sp s e) (t : Dev nD) (q : PosShare TreeShare)
    (f : Buf (Elt F) (M.view.loc (t : Thread nD τ))) (h : M.view.set = Finset.univ) :
    pts M t q f = (M.view.loc (t : Thread nD τ) ↦{q} f : sProp 𝕄) := by
  show (M.view.loc (t : Thread nD τ) ↦[M.view.set]{q} f : sProp 𝕄) = _
  rw [h]
omit [FloatOps F] in
theorem junk_of_set {sp : Space} {s : Shape} {e : EltTy} (M : Memref sig .tc sp s e) (t : Dev nD) (h : M.view.set = Finset.univ) :
    junk (F := F) M t = (iprop(∃ f : Buf (Elt F) (M.view.loc (t : Thread nD τ)), M.view.loc (t : Thread nD τ) ↦{fullShare} f) : sProp 𝕄) := by
  show (iprop(∃ f : Buf (Elt F) (M.view.loc (t : Thread nD τ)), M.view.loc (t : Thread nD τ) ↦[M.view.set]{fullShare} f) : sProp 𝕄) = _
  rw [h]

/-- The nine scratch buffers whole at anything, as views. -/
theorem scr_junk (c : Dev nD) : (scr c : sProp 𝕄) = iprop(junk (F := F) (Memref.whole cc0_scratch0 : Memref sig .tc .vmem S4x4096x256 .bf16) c
    ∗ junk (F := F) (Memref.whole cc0_scratch1 : Memref sig .tc .vmem S4096x256 .bf16) c
    ∗ junk (F := F) (Memref.whole cc0_scratch2 : Memref sig .tc .vmem S4096x256 .bf16) c
    ∗ junk (F := F) (Memref.whole cc0_scratch3 : Memref sig .tc .vmem S1536x256 .bf16) c
    ∗ junk (F := F) (Memref.whole cc0_scratch4 : Memref sig .tc .vmem S1536x256 .bf16) c
    ∗ junk (F := F) (Memref.whole cc0_scratch5 : Memref sig .tc .vmem S4096x256 .f32) c
    ∗ junk (F := F) (Memref.whole cc0_scratch6 : Memref sig .tc .vmem S4096x256 .f32) c
    ∗ junk (F := F) (Memref.whole cc0_scratch7 : Memref sig .tc .vmem S1536x256 .f32) c
    ∗ junk (F := F) (Memref.whole cc0_scratch8 : Memref sig .tc .vmem S1536x256 .f32) c) := by
  rw [junk_of_set (Memref.whole cc0_scratch0 : Memref sig .tc .vmem S4x4096x256 .bf16) c (View.set_whole _),
    junk_of_set (Memref.whole cc0_scratch1 : Memref sig .tc .vmem S4096x256 .bf16) c (View.set_whole _),
    junk_of_set (Memref.whole cc0_scratch2 : Memref sig .tc .vmem S4096x256 .bf16) c (View.set_whole _),
    junk_of_set (Memref.whole cc0_scratch3 : Memref sig .tc .vmem S1536x256 .bf16) c (View.set_whole _),
    junk_of_set (Memref.whole cc0_scratch4 : Memref sig .tc .vmem S1536x256 .bf16) c (View.set_whole _),
    junk_of_set (Memref.whole cc0_scratch5 : Memref sig .tc .vmem S4096x256 .f32) c (View.set_whole _),
    junk_of_set (Memref.whole cc0_scratch6 : Memref sig .tc .vmem S4096x256 .f32) c (View.set_whole _),
    junk_of_set (Memref.whole cc0_scratch7 : Memref sig .tc .vmem S1536x256 .f32) c (View.set_whole _),
    junk_of_set (Memref.whole cc0_scratch8 : Memref sig .tc .vmem S1536x256 .f32) c (View.set_whole _)]
  rfl
theorem arg_pts (c : Dev nD) :
    pts (F := F) (Memref.whole main_arg0 : Memref sig .tc .hbm S1x4096x2048 .f32) c fullShare (xin m c) = ((((c : Thread nD τ).loc main_arg0) ↦{fullShare} m ((c : Thread nD τ).loc main_arg0)) : sProp 𝕄) := by
  rw [pts_of_set (Memref.whole main_arg0 : Memref sig .tc .hbm S1x4096x2048 .f32) c fullShare _ (View.set_whole _)]; rfl
theorem out_pts (c : Dev nD) :
    pts (F := F) (Memref.whole main_v1 : Memref sig .tc .hbm S4096x1024 .bf16) c fullShare (out m c)
      = ((((c : Thread nD τ).loc main_v1) ↦{fullShare} (out m c : Buf (Elt F) ((c : Thread nD τ).loc main_v1))) : sProp 𝕄) := by
  rw [pts_of_set (Memref.whole main_v1 : Memref sig .tc .hbm S4096x1024 .bf16) c fullShare _ (View.set_whole _)]
omit [FloatOps F] in
theorem v1_junk (c : Dev nD) :
    junk (F := F) (Memref.whole main_v1 : Memref sig .tc .hbm S4096x1024 .bf16) c = (iprop(∃ f : Buf (Elt F) ((c : Thread nD τ).loc main_v1), ((c : Thread nD τ).loc main_v1) ↦{fullShare} f) : sProp 𝕄) := by
  rw [junk_of_set (Memref.whole main_v1 : Memref sig .tc .hbm S4096x1024 .bf16) c (View.set_whole _)]

/-! ## The invariant's lists in the body's orders -/

/-- The receive cells in the order their owner waits on them; the send cells in the order of their final waits. -/
abbrev waitJ : List (Fin 140) := [30, 31, 52, 68, 32, 53, 69, 33, 54, 70, 34, 55, 71, 35, 56, 72, 87, 103, 36, 57, 73, 88, 104, 37, 58, 74, 89, 105, 59, 75, 41, 42, 43, 90, 106, 91, 107]
abbrev sendJ : List (Fin 140) := [22, 44, 60, 23, 45, 61, 24, 46, 62, 25, 47, 63, 79, 95, 26, 48, 64, 80, 96, 27, 49, 65, 81, 97, 28, 50, 66, 82, 98, 29, 51, 67, 83, 99, 38, 39, 40]
/-- The tokens in the order they are paid with. -/
abbrev tokL2 : List (SemLoc sig × DD × Fin 4) := [(.reg barS, 0, 1), (.reg barS, 2, 3), (.reg barS, 1, 2), (dsem 22, 0, 0), (dsem 30, 0, 1), (dsem 23, 0, 0), (dsem 31, 0, 1), (dsem 24, 0, 0), (dsem 32, 0, 1), (dsem 25, 0, 0), (dsem 33, 0, 1), (dsem 26, 0, 0), (dsem 34, 0, 1), (dsem 27, 0, 0), (dsem 35, 0, 1), (dsem 28, 0, 0), (dsem 36, 0, 1), (dsem 29, 0, 0), (dsem 37, 0, 1), (dsem 38, 0, 0), (dsem 41, 0, 1), (dsem 39, 0, 0), (dsem 42, 0, 1), (dsem 40, 0, 0), (dsem 43, 0, 1), (dsem 44, 0, 0), (dsem 52, 0, 3), (dsem 60, 0, 0), (dsem 68, 0, 2), (dsem 45, 0, 0), (dsem 53, 0, 3), (dsem 61, 0, 0), (dsem 69, 0, 2), (dsem 46, 0, 0), (dsem 54, 0, 3), (dsem 62, 0, 0), (dsem 70, 0, 2), (dsem 47, 0, 0), (dsem 55, 0, 3), (dsem 63, 0, 0), (dsem 71, 0, 2), (dsem 48, 0, 0), (dsem 56, 0, 3), (dsem 64, 0, 0), (dsem 72, 0, 2), (dsem 95, 0, 0), (dsem 103, 0, 2), (dsem 79, 0, 0), (dsem 87, 0, 3), (dsem 49, 0, 0), (dsem 57, 0, 3), (dsem 65, 0, 0), (dsem 73, 0, 2), (dsem 96, 0, 0), (dsem 104, 0, 2), (dsem 80, 0, 0), (dsem 88, 0, 3), (dsem 50, 0, 0), (dsem 58, 0, 3), (dsem 66, 0, 0), (dsem 74, 0, 2), (dsem 97, 0, 0), (dsem 105, 0, 2), (dsem 81, 0, 0), (dsem 89, 0, 3), (dsem 51, 0, 0), (dsem 59, 0, 3), (dsem 67, 0, 0), (dsem 75, 0, 2), (dsem 98, 0, 0), (dsem 106, 0, 2), (dsem 82, 0, 0), (dsem 90, 0, 3), (dsem 99, 0, 0), (dsem 107, 0, 2), (dsem 83, 0, 0), (dsem 91, 0, 3)]
abbrev tokJ2 : List (Fin 140) := [22, 30, 23, 31, 24, 32, 25, 33, 26, 34, 27, 35, 28, 36, 29, 37, 38, 41, 39, 42, 40, 43, 44, 52, 60, 68, 45, 53, 61, 69, 46, 54, 62, 70, 47, 55, 63, 71, 48, 56, 64, 72, 95, 103, 79, 87, 49, 57, 65, 73, 96, 104, 80, 88, 50, 58, 66, 74, 97, 105, 81, 89, 51, 59, 67, 75, 98, 106, 82, 90, 99, 107, 83, 91]
abbrev tokJ1 : List (Fin 140) := [22, 30, 23, 31, 24, 32, 25, 33, 26, 34, 27, 35, 28, 36, 29, 37, 38, 41, 39, 42, 40, 43, 44, 52, 45, 53, 46, 54, 47, 55, 48, 56, 49, 57, 50, 58, 51, 59, 60, 68, 61, 69, 62, 70, 63, 71, 64, 72, 65, 73, 66, 74, 67, 75, 79, 87, 80, 88, 81, 89, 82, 90, 83, 91, 95, 103, 96, 104, 97, 105, 98, 106, 99, 107]
/-- Whose cell a DMA cell's token pays into: a send cell's the device's own, a receive cell's the neighbour's. -/
def dirOf (j : Fin 140) : Fin 4 :=
  match kindOf j.val with
  | some (1, _) => 1 | some (3, _) => 1
  | some (5, _) => 3 | some (9, _) => 3
  | some (7, _) => 2 | some (11, _) => 2
  | _ => 0
/-- The plain counters: of the copies into the staging buffers, of the copies into the result, unused. -/
abbrev idleI : List (Fin 140) := [0, 8, 1, 9, 2, 10, 3, 11, 4, 12, 5, 13, 6, 14, 7, 15, 16, 19, 17, 20, 18, 21]
abbrev idleO : List (Fin 140) := [120, 121, 122, 123, 124, 125, 126, 127, 128, 129, 130, 131, 108, 109, 110, 111, 112, 113, 114, 115, 116, 117, 118, 119, 132, 133, 134, 135, 136, 137, 138, 139]
abbrev idleU : List (Fin 140) := [76, 77, 78, 84, 85, 86, 92, 93, 94, 100, 101, 102]

/-- The body's groups, each as the chain over its list. -/
def credW (c : Dev nD) : sProp 𝕄 :=
  iprop(cred (tallyAt (barCell c) () 3) ∗ bigSepL waitJ fun j => cred (tallyAt (cellAt c j) () (amtOf j.val)))
def posR (c : Dev nD) : sProp 𝕄 := iprop(atPos ER (barCell c) 0 ∅ 0 ∗ bigSepL waitJ fun j => atPos ER (cellAt c j) 0 ∅ 0)
def posS (c : Dev nD) : sProp 𝕄 := bigSepL sendJ fun j => atPos ER (cellAt c j) 0 ∅ 0
def toksP (c : Dev nD) : sProp 𝕄 := bigSepL tokL2 fun x => dutyTok ER (((nbr x.2.2 c : Dev nD) : Thread nD τ), x.1) 0 x.2.1
def idI (c : Dev nD) : sProp 𝕄 := bigSepL idleI fun j => semVal (cellAt c j) 0
def idO (c : Dev nD) : sProp 𝕄 := bigSepL idleO fun j => semVal (cellAt c j) 0
def idU (c : Dev nD) : sProp 𝕄 := bigSepL idleU fun j => semVal (cellAt c j) 0

omit [FloatOps F] in
theorem myCred_eq (c : Dev nD) : (myCred c : sProp 𝕄) = credW c := by
  unfold myCred credW
  rw [bigSepL_of_toFinset_eq recvJ waitJ (by decide) (by decide) (by decide)]
omit [FloatOps F] in
theorem myPos_eq (c : Dev nD) : (myPos c : sProp 𝕄) = iprop(posR c ∗ posS c) := by
  unfold myPos posR posS
  rw [bigSepL_cons', bigSepL_map, bigSepL_of_toFinset_eq rsJ (waitJ ++ sendJ) rsJ_nodup (by decide) (by decide), bigSepL_append, ← sep_assoc_eq]
omit [FloatOps F] in
theorem myToks_eq (c : Dev nD) : (myToks c : sProp 𝕄) = toksP c := by
  unfold myToks toksP
  have e (J : List (Fin 140)) : (bigSepL (J.map fun j => (dsem j, (0 : DD), dirOf j)) fun x : SemLoc sig × DD × Fin 4 => (dutyTok ER (((nbr x.2.2 c : Dev nD) : Thread nD τ), x.1) 0 x.2.1 : sProp 𝕄))
      = bigSepL J fun j => dutyTok ER (((nbr (dirOf j) c : Dev nD) : Thread nD τ), dsem j) 0 0 := bigSepL_map _ J _
  rw [show (tokL : List (SemLoc sig × DD × Fin 4)) = tokL.take 3 ++ tokJ1.map (fun j => (dsem j, (0 : DD), dirOf j)) from rfl,
    show (tokL2 : List (SemLoc sig × DD × Fin 4)) = tokL.take 3 ++ tokJ2.map (fun j => (dsem j, (0 : DD), dirOf j)) from rfl,
    bigSepL_append, bigSepL_append, e, e, bigSepL_of_toFinset_eq tokJ1 tokJ2 (by decide) (by decide) (by decide)]
omit [FloatOps F] in
theorem idle_eq (c : Dev nD) : (idleSems c : sProp 𝕄) = iprop(idI c ∗ idO c ∗ idU c) := by
  unfold idleSems idI idO idU
  rw [bigSepL_of_toFinset_eq idleJ (idleI ++ (idleO ++ idleU)) idleJ_nodup (by decide) (by decide), bigSepL_append, bigSepL_append]

/-- The records the body uses: the invariants of the cells it pays into (in payment order) and of the cells it waits on
    (its barrier cell, then its receive cells in wait order), and that the cells it pays into have reached their round. -/
def invT (K : GSem nD τ sig → ℕ) (c : Dev nD) : sProp 𝕄 :=
  bigSepL tokL2 fun x => cellInv ER (rsRd m) (K (((nbr x.2.2 c : Dev nD) : Thread nD τ), x.1)) (((nbr x.2.2 c : Dev nD) : Thread nD τ), x.1)
def invW (K : GSem nD τ sig → ℕ) (c : Dev nD) : sProp 𝕄 :=
  iprop(cellInv ER (rsRd m) (K (barCell c)) (barCell c) ∗ bigSepL waitJ fun j => cellInv ER (rsRd m) (K (cellAt c j)) (cellAt c j))
def reaT (c : Dev nD) : sProp 𝕄 := bigSepL tokL2 fun x => reached ER (((nbr x.2.2 c : Dev nD) : Thread nD τ), x.1) 0

theorem tokL2_split : (tokL2 : List (SemLoc sig × DD × Fin 4)) = tokL.take 3 ++ tokJ2.map (fun j => (dsem j, (0 : DD), dirOf j)) := rfl
theorem tokJ2_isSome : ∀ j ∈ tokJ2, (kindOf j.val).isSome = true := by decide
theorem waitJ_isSome : ∀ j ∈ waitJ, (kindOf j.val).isSome = true := by decide
/-- Every token's semaphore is one of a device's cells. -/
theorem tokL2_mem : ∀ x ∈ (tokL2 : List (SemLoc sig × DD × Fin 4)), x.1 ∈ (csemL : List (SemLoc sig)) := by
  intro x hx
  rw [tokL2_split] at hx
  rcases List.mem_append.mp hx with h | h
  · have h3 : x = (.reg barS, 0, 1) ∨ x = (.reg barS, 2, 3) ∨ x = (.reg barS, 1, 2) := by
      have : (tokL.take 3 : List (SemLoc sig × DD × Fin 4)) = [(.reg barS, 0, 1), (.reg barS, 2, 3), (.reg barS, 1, 2)] := rfl
      rw [this] at h
      simpa using h
    rcases h3 with rfl | rfl | rfl <;> exact mem_csemL_bar
  · obtain ⟨j, hj, rfl⟩ := List.mem_map.mp h
    exact mem_csemL_dma j (tokJ2_isSome j hj)

omit [FloatOps F] in
theorem pers_sep {R A B : sProp 𝕄} [BI.Persistent R] (h1 : R ⊢ A) (h2 : R ⊢ B) : R ⊢ iprop(A ∗ B) := by
  iintro #H
  isplitr
  · iapply h1; iexact H
  · iapply h2; iexact H

theorem invT_of (K : GSem nD τ sig → ℕ) (c : Dev nD) : invsL m K ⊢ invT m K c :=
  bigSepL_of_persistent tokL2 _ fun x hx => invL_at m K (nbr x.2.2 c) (tokL2_mem x hx)
theorem invW_of (K : GSem nD τ sig → ℕ) (c : Dev nD) : invsL m K ⊢ invW m K c :=
  pers_sep (invL_bar m K c) (bigSepL_of_persistent waitJ _ fun j hj => invL_dma m K c j (waitJ_isSome j hj))
omit [FloatOps F] in
theorem reaT_of (c : Dev nD) : (reachedL (F := F)) ⊢ reaT c :=
  bigSepL_of_persistent tokL2 _ fun x hx => reachedL_at (nbr x.2.2 c) (tokL2_mem x hx)

set_option maxRecDepth 100000 in
/-- The body's precondition is its records, what it owes, and its groups. -/
theorem bodyPre_fold (K : GSem nD τ sig → ℕ) (c : Dev nD) (W : Waits sig Unit) :
    bodyPre m K c W = iprop(invT m K c ∗ invW m K c ∗ reaT (F := F) c ∗ levAts LL lvv ∗ owes (c : Thread nD τ) (O₀ c) W
      ∗ credW c ∗ posR c ∗ posS c ∗ toksP c
      ∗ pts (F := F) (Memref.whole main_arg0 : Memref sig .tc .hbm S1x4096x2048 .f32) c fullShare (xin m c)
      ∗ junk (F := F) (Memref.whole main_v1 : Memref sig .tc .hbm S4096x1024 .bf16) c
      ∗ junk (F := F) (Memref.whole cc0_scratch0 : Memref sig .tc .vmem S4x4096x256 .bf16) c
      ∗ junk (F := F) (Memref.whole cc0_scratch1 : Memref sig .tc .vmem S4096x256 .bf16) c
      ∗ junk (F := F) (Memref.whole cc0_scratch2 : Memref sig .tc .vmem S4096x256 .bf16) c
      ∗ junk (F := F) (Memref.whole cc0_scratch3 : Memref sig .tc .vmem S1536x256 .bf16) c
      ∗ junk (F := F) (Memref.whole cc0_scratch4 : Memref sig .tc .vmem S1536x256 .bf16) c
      ∗ junk (F := F) (Memref.whole cc0_scratch5 : Memref sig .tc .vmem S4096x256 .f32) c
      ∗ junk (F := F) (Memref.whole cc0_scratch6 : Memref sig .tc .vmem S4096x256 .f32) c
      ∗ junk (F := F) (Memref.whole cc0_scratch7 : Memref sig .tc .vmem S1536x256 .f32) c
      ∗ junk (F := F) (Memref.whole cc0_scratch8 : Memref sig .tc .vmem S1536x256 .f32) c
      ∗ idI c ∗ idO c ∗ idU c) := rfl

/-! ## The two bridges -/

/-- The invariant before the point, with what the device owes, is the body's precondition at some names. -/
theorem pre_bridge (c : Dev nD) (W : Waits sig Unit) :
    iprop(Φ₀ m c ∗ owes (c : Thread nD τ) (O₀ c) W) ⊢ ∃ K, bodyPre m K c W := by
  unfold Φ₀ start ghost
  iintro ⟨⟨⟨⟨%K, #HI, #HR, Hpos, Htok⟩, Hcred, Hlev⟩, Hscr, Harg, Hv1, Hid⟩, HO⟩
  iexists K
  rw [bodyPre_fold]
  ihave HIt := (invT_of m K c) $$ HI
  ihave HIw := (invW_of m K c) $$ HI
  ihave HRt := (reaT_of (F := F) c) $$ HR
  ihave Hcr := (Entails.of_eq (myCred_eq (F := F) c)) $$ Hcred
  ihave Hp := (Entails.of_eq (myPos_eq (F := F) c)) $$ Hpos
  icases Hp with ⟨HpR, HpS⟩
  ihave Htk := (Entails.of_eq (myToks_eq (F := F) c)) $$ Htok
  ihave Hv := (Entails.of_eq (idle_eq (F := F) c)) $$ Hid
  icases Hv with ⟨HvI, HvO, HvU⟩
  ihave Hs := (Entails.of_eq (scr_junk (F := F) c)) $$ Hscr
  icases Hs with ⟨HS0, HS1, HS2, HS3, HS4, HS5, HS6, HS7, HS8⟩
  ihave HX := (Entails.of_eq (arg_pts m c).symm) $$ Harg
  ihave Hout := (Entails.of_eq (v1_junk (F := F) c).symm) $$ Hv1
  isplitl [HIt]; · iexact HIt
  isplitl [HIw]; · iexact HIw
  isplitl [HRt]; · iexact HRt
  isplitl [Hlev]; · iexact Hlev
  isplitl [HO]; · iexact HO
  isplitl [Hcr]; · iexact Hcr
  isplitl [HpR]; · iexact HpR
  isplitl [HpS]; · iexact HpS
  isplitl [Htk]; · iexact Htk
  isplitl [HX]; · iexact HX
  isplitl [Hout]; · iexact Hout
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HvI]; · iexact HvI
  isplitl [HvO]; · iexact HvO
  iexact HvU

/-- What the body ends with is the invariant after the point, nothing owed. -/
theorem post_bridge (c : Dev nD) :
    bodyPost m c ⊢ iprop(Φ₁ m c ∗ ∃ W' : Waits sig Unit, owes (c : Thread nD τ) 0 W') := by
  unfold bodyPost Φ₁
  rw [allSems_split, scr_junk, out_pts, arg_pts]
  iintro ⟨HS0, HS1, HS2, HS3, HS4, HS5, HS6, HS7, HS8, HX, Hout, ⟨Hid, Hrs⟩, HO⟩
  isplitr [HO]
  · isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    isplitl [HX]; · iexact HX
    isplitl [Hout]; · iexact Hout
    isplitl [Hid] <;> iassumption
  · iexact HO

/-! ## The body obligation from the body's own statement -/

set_option maxRecDepth 100000 in
theorem body_obligation_of
    (hsound : ∀ (K : GSem nD τ sig → ℕ) (c : Dev nD) (W : Waits sig Unit) (Kt : PUnit → sProp 𝕄),
      iprop(bodyPre m K c W ∗ (bodyPost m c -∗ Kt ⟨⟩))
        ⊢ wp frame (wpE (defs₀ (F := F)) 𝒱₀ c none) Set.univ (bodyAt0 (F := F) t0_0) Kt)
    (c : Dev nD) : BodyObligation (dats (F := F) m 0 c) (defs₀ (F := F)) 𝒱₀ () Set.univ := fun t => by
  obtain rfl := fin_N0 t
  rw [show (Finset.univ : Finset (Fin cfg0.W)) = ∅ from rfl, bigSep_empty, bigSep_empty]
  rw [show (dats m 0 c).Φ t0_0.castSucc = Φ₀ m c from rfl, show (dats m 0 c).Φ t0_0.succ = Φ₁ m c from rfl]
  unfold Dat.owesAt Pipeline.owesWithin
  rw [show (dats m 0 c).owed t0_0.castSucc = O₀ c from rfl, show (dats m 0 c).owed t0_0.succ = 0 from rfl]
  show _ ⊢ wp frame (wpE (defs₀ (F := F)) 𝒱₀ c none) Set.univ (bodyAt0 (F := F) t0_0) _
  iintro ⟨HΦ, ⟨%W, %hW, HO⟩, -⟩
  ihave Hpre := (pre_bridge m c W) $$ [HΦ HO]
  · isplitl [HΦ] <;> iassumption
  icases Hpre with ⟨%K, Hpre⟩
  iapply (hsound K c W _)
  isplitl [Hpre]; · iexact Hpre
  iintro Hpost
  ihave H := (post_bridge m c) $$ Hpost
  icases H with ⟨HΦ1, ⟨%W', HO⟩⟩
  isplitl [HΦ1]; · iexact HΦ1
  isplitl [HO]
  · iexists W'; isplitr; · ipureintro; exact fun _ _ => Or.inl trivial
    iexact HO
  · iempintro

end Cert.KernelIdeal.RS

end
-- ==== Proof.FrameOf.lean ====
import proofs.«901022_g7700000000001023_dist_rs_v7x_xyz2x2x2_x_m4096_n1024_bf16_1_alg».proof.Proof.LaunchRS
import proofs.«901022_g7700000000001023_dist_rs_v7x_xyz2x2x2_x_m4096_n1024_bf16_1_alg».proof.Proof.BodyGlue

/-! The program's run and frame from the body's own statement, at any float instance. -/

noncomputable section

namespace Cert.KernelIdeal.RS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The body's own statement, at a launch memory `m`. -/
def BodySound (m : (ℓ : Loc nD τ sig) → Buf (Elt F) ℓ) : Prop :=
  ∀ (K : GSem nD τ sig → ℕ) (c : Dev nD) (W : Waits sig Unit) (Kt : PUnit → sProp (MT nD τ sig Unit (Elt F) ℕ UU ℕ)),
    iprop(bodyPre m K c W ∗ (bodyPost m c -∗ Kt ⟨⟩))
      ⊢ wp frame (wpE (defs₀ (F := F)) 𝒱₀ c none) Set.univ (bodyAt0 (F := F) t0_0) Kt

/-- The run, from the body's statement: every device's result ends at `out`, its argument unchanged. -/
theorem run_of_body (m : (ℓ : Loc nD τ sig) → Buf (Elt F) ℓ) (ρ : Dev nD → PrngReg) (hs : BodySound m) :
    θ_run defs (onTc (τ := τ) (main (F := F))) ⟨m, fun _ => 0, ρ⟩ (fun r => ∀ c : Dev nD,
      r.2.mem ((c.tc : Thread nD τ).loc main_v1) = out m c
      ∧ r.2.mem ((c.tc : Thread nD τ).loc main_arg0) = m ((c.tc : Thread nD τ).loc main_arg0)) :=
  run_main m ρ (body_obligation_of m hs)

/-- The frame: the program runs and leaves every device's argument array unchanged. -/
theorem frame_of_sound (hs : ∀ m : (ℓ : Loc nD τ sig) → Buf (Elt F) ℓ, BodySound m)
    (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_arg0) = m ((c.tc : Thread nD τ).loc main_arg0)) :=
  (θ_run defs _ _).mono (fun _ h c => (h c).2) (run_of_body m g (hs m))

end Cert.KernelIdeal.RS

end
-- ==== Proof.LaySide.lean ====
/-
  How the two arrays of the claim lie across the eight devices, read at one index.

  The devices are numbered row-major over a mesh of three axes of two: device `c` has coordinate
  `c / 4` on the outermost axis. The argument array `[2, 4096, 2048]` is cut along its dimension 0
  by that axis, the result array `[4096, 2048]` along its dimension 1 by the same axis. So device
  `c`'s block of the argument is the slab `c / 4`, and its block of the result is the columns
  `1024 * (c / 4) + j`, `j < 1024`.
-/
import proofs.«901022_g7700000000001023_dist_rs_v7x_xyz2x2x2_x_m4096_n1024_bf16_1_alg».proof.Defs
import Idealize.ShloMosaic.Lib.Layout
import Idealize.ShloMosaic.Lib.ValueIdx

namespace Cert.RS.Lay

open Idealize.ShloMosaic Idealize.ShloMosaic.ValueIdx

/-- On a mesh of three axes of two, numbered row-major, the coordinate of device `c` on the outermost axis,
    linearised alone, is `c / 4`. -/
theorem meshLin_axis0 (c : Fin 8) : Layout.meshLin [2, 2, 2] c.val [0] = c.val / 4 := by
  have h : c.val < 8 := c.isLt
  show (c.val / (2 * (2 * 1))) % 2 * 1 + 0 = c.val / 4
  omega

/-- A dimension that no axis cuts is in one block, the block `0`. -/
theorem meshLin_nil (c : Fin 8) : Layout.meshLin [2, 2, 2] c.val [] = 0 := rfl

/-- The slab of device `c` is below 2. -/
theorem slab_lt (c : Fin 8) : c.val / 4 < 2 := by
  have h : c.val < 8 := c.isLt
  omega

/-- The column `1024 * (c / 4) + j` of the whole result is below 2048. -/
theorem col_lt (c : Fin 8) (j : Fin 1024) : 1024 * (c.val / 4) + j.val < 2048 := by
  have h : c.val < 8 := c.isLt
  have hj : j.val < 1024 := j.isLt
  omega

/-- The slab of device `c`, as a coordinate of the whole argument array. -/
abbrev slab (c : Fin 8) : Fin 2 := ⟨c.val / 4, slab_lt c⟩

/-- The column of the whole result that column `j` of device `c`'s block is. -/
abbrev col (c : Fin 8) (j : Fin 1024) : Fin 2048 := ⟨1024 * (c.val / 4) + j.val, col_lt c j⟩

/-- THE ARGUMENT'S BLOCK AT AN INDEX: device `c`'s block of the whole argument array `A`, at `(0, i, j)`, is `A` at
    `(c / 4, i, j)`. -/
theorem arg_block_apply {α : Type} (c : Fin 8) (A : (⟨3, ![2, 4096, 2048]⟩ : Shape).Idx → α)
    (i : Fin 4096) (j : Fin 2048) :
    (Layout.blockN ⟨3, ![1, 4096, 2048]⟩ ⟨3, ![2, 4096, 2048]⟩ (Layout.meshBlock [2, 2, 2] ![[0], [], []] c) A)
        (ix3 0 i j)
      = A (ix3 (slab c) i j) := by
  show A _ = A _
  congr 1
  funext b
  refine Fin.ext ?_
  match b with
  | ⟨0, _⟩ =>
    show Layout.meshLin [2, 2, 2] c.val [0] * 1 + 0 = c.val / 4
    rw [meshLin_axis0]; omega
  | ⟨1, _⟩ =>
    show Layout.meshLin [2, 2, 2] c.val [] * 4096 + i.val = i.val
    rw [meshLin_nil]; omega
  | ⟨2, _⟩ =>
    show Layout.meshLin [2, 2, 2] c.val [] * 2048 + j.val = j.val
    rw [meshLin_nil]; omega

/-- The same at any index of the block: its first coordinate is `0`. -/
theorem arg_block_apply' {α : Type} (c : Fin 8) (A : (⟨3, ![2, 4096, 2048]⟩ : Shape).Idx → α)
    (y : (⟨3, ![1, 4096, 2048]⟩ : Shape).Idx) :
    (Layout.blockN ⟨3, ![1, 4096, 2048]⟩ ⟨3, ![2, 4096, 2048]⟩ (Layout.meshBlock [2, 2, 2] ![[0], [], []] c) A) y
      = A (ix3 (slab c) (y 1) (y 2)) := by
  have hy : y = ix3 (0 : Fin 1) (y 1) (y 2) := by
    funext a
    match a with
    | ⟨0, _⟩ => exact Subsingleton.elim (α := Fin 1) _ _
    | ⟨1, _⟩ => rfl
    | ⟨2, _⟩ => rfl
  exact (congrArg _ hy).trans (arg_block_apply c A (y 1) (y 2))

/-- THE RESULT'S BLOCK AT AN INDEX: device `c`'s block of the whole result `v`, at `(i, j)`, is `v` at
    `(i, 1024 * (c / 4) + j)`. -/
theorem res_block_apply {α : Type} (c : Fin 8) (v : (⟨2, ![4096, 2048]⟩ : Shape).Idx → α)
    (i : Fin 4096) (j : Fin 1024) :
    (Layout.blockN ⟨2, ![4096, 1024]⟩ ⟨2, ![4096, 2048]⟩ (Layout.meshBlock [2, 2, 2] ![[], [0]] c) v) (ix2 i j)
      = v (ix2 i (col c j)) := by
  show v _ = v _
  congr 1
  funext b
  refine Fin.ext ?_
  match b with
  | ⟨0, _⟩ =>
    show Layout.meshLin [2, 2, 2] c.val [] * 4096 + i.val = i.val
    rw [meshLin_nil]; omega
  | ⟨1, _⟩ =>
    show Layout.meshLin [2, 2, 2] c.val [0] * 1024 + j.val = 1024 * (c.val / 4) + j.val
    rw [meshLin_axis0]; omega

/-- Two per-device result buffers that agree with the blocks' elements are the blocks: the block of `v` is the
    function `(i, j) ↦ v (i, 1024 * (c / 4) + j)`. -/
theorem res_block_eq {α : Type} (c : Fin 8) (v : (⟨2, ![4096, 2048]⟩ : Shape).Idx → α) :
    Layout.blockN ⟨2, ![4096, 1024]⟩ ⟨2, ![4096, 2048]⟩ (Layout.meshBlock [2, 2, 2] ![[], [0]] c) v
      = fun y => v (ix2 (y 0) (col c (y 1))) := by
  funext y
  rw [eq_ix2 y]
  exact res_block_apply c v (y 0) (y 1)

/-- The block of the argument as a function of the block's index. -/
theorem arg_block_eq {α : Type} (c : Fin 8) (A : (⟨3, ![2, 4096, 2048]⟩ : Shape).Idx → α) :
    Layout.blockN ⟨3, ![1, 4096, 2048]⟩ ⟨3, ![2, 4096, 2048]⟩ (Layout.meshBlock [2, 2, 2] ![[0], [], []] c) A
      = fun y => A (ix3 (slab c) (y 1) (y 2)) :=
  funext fun y => arg_block_apply' c A y

end Cert.RS.Lay
-- ==== Proof.RefSide.lean ====
/-
  The reference side: what the one-device program computes of its whole argument, index by index, and its run.

  The program sums the argument `[2, 4096, 2048]` over its dimension 0 from the initial value zero and changes the
  format, which on the extended reals is the identity: at `(i, j)` the result is `X (0, i, j) + X (1, i, j)`.
-/
import proofs.«901022_g7700000000001023_dist_rs_v7x_xyz2x2x2_x_m4096_n1024_bf16_1_alg».proof.Defs
import proofs.«901022_g7700000000001023_dist_rs_v7x_xyz2x2x2_x_m4096_n1024_bf16_1_alg».proof.Proof.Gen.ReferenceIdeal
import proofs.«901022_g7700000000001023_dist_rs_v7x_xyz2x2x2_x_m4096_n1024_bf16_1_alg».proof.Proof.Gen.ReferenceIdeal.Run
import proofs.«901022_g7700000000001023_dist_rs_v7x_xyz2x2x2_x_m4096_n1024_bf16_1_alg».proof.Proof.Gen.ReferenceIdeal.Read
import proofs.«901022_g7700000000001023_dist_rs_v7x_xyz2x2x2_x_m4096_n1024_bf16_1_alg».proof.Proof.Gen.Pre_finite_inputs_ReferenceIdeal
import Idealize.ShloMosaic.Lib.ValueIdx
import Idealize.ShloMosaic.PureOps.Ideal.Laws

noncomputable section

open scoped BigOperators

namespace Cert.RS.Ref

open Idealize.ShloMosaic Idealize.ShloMosaic.ValueIdx Idealize.ShloMosaic.TcCoe Idealize.SL.Sem
open Cert.ReferenceIdeal Cert.ReferenceIdeal.Gen

/-- The whole argument array of the reference, on the extended reals. -/
abbrev ArgBuf : Type := (⟨S2x4096x2048, .f32⟩ : BufTy).Contents (Elt Ideal)
/-- The whole result array of the reference, on the extended reals. -/
abbrev ResBuf : Type := (⟨S4096x2048, .bf16⟩ : BufTy).Contents (Elt Ideal)

/-- THE REFERENCE'S RESULT as a function of its whole argument: at `(i, j)` the sum of the two slabs' elements there. -/
def refOut (X : ArgBuf) : ResBuf :=
  fun y => (show EReal from X (ix3 (0 : Fin 2) (y 0 : Fin 4096) (y 1 : Fin 2048)))
    + (show EReal from X (ix3 (1 : Fin 2) (y 0 : Fin 4096) (y 1 : Fin 2048)))

/-- The result at `(i, j)` is `X (0, i, j) + X (1, i, j)`. -/
theorem refOut_apply (X : ArgBuf) (i : Fin 4096) (j : Fin 2048) :
    refOut X (ix2 i j) = (show EReal from X (ix3 0 i j)) + (show EReal from X (ix3 1 i j)) := rfl

/-- The index the sum over dimension 0 reads at its `k`-th term is `(k, i, j)`. -/
theorem idx_sum (y : S4096x2048.Idx) (k : Fin 2) :
    Read.idx_main_v0 y k = ix3 k (y 0 : Fin 4096) (y 1 : Fin 2048) :=
  funext fun a => Fin.ext (by match a with | ⟨0, _⟩ => rfl | ⟨1, _⟩ => rfl | ⟨2, _⟩ => rfl)

/-- The run's composed term of the argument is `refOut`: zero plus the sum of the two slabs, the change of format the
    identity. -/
theorem term_eq (X : ArgBuf) :
    truncf (F := Ideal) .bf16 (Host.reduceAdd (F := Ideal) X (constant (F := Ideal) S_ .f32 0x00000000#32) reducesTo_S2x4096x2048_S4096x2048_d0 h_S_) bitsLt_bf16_f32
      = refOut X := by
  rw [Read.val_main_v1_eq]
  funext y
  rw [Read.val_main_v1_apply, Read.val_main_v0_apply, Read.val_main_cst_apply, Fin.sum_univ_two, idx_sum, idx_sum]
  simp only [Ideal.truncf_def, Ideal.ofBits_def, Ideal.ofBits_zero_f32]
  exact zero_add _

/-- THE REFERENCE'S RUN: from any memory with zero counters every weakly fair execution terminates with the result
    array at `refOut` of the argument array and the argument array unchanged. -/
theorem run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1)
          = refOut (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run Cert.ReferenceIdeal.defs _ _).mono (fun _ h => ⟨(h 0).1.trans (term_eq _), (h 0).2⟩)
    (Cert.ReferenceIdeal.Value.run (F := Ideal) m' g')

/-- The reference runs and leaves its argument array unchanged. -/
theorem frame : Cert.frame_ReferenceIdeal := fun m ρ _ =>
  (θ_run Cert.ReferenceIdeal.defs _ _).mono (fun _ h c => (h c).2) (Cert.ReferenceIdeal.Value.run (F := Ideal) m ρ)

end Cert.RS.Ref

end
-- ==== Proof.ValueSide.lean ====
/-
  The value of the kernel's result against the reference, on the extended reals.

  Every device's argument buffer is its slab of the whole array `X : [2, 4096, 2048]`: device `u` holds slab `mx u`. Entry
  `(i, j)` of quarter `q` of a device's result is added up by a device `u` of the same x coordinate from its own element at
  column `1024 * mx u + 256 * q + j` and the element its neighbour across x holds there; the two slabs are `mx u` and
  `1 - mx u`, so the sum is `X (0, i, col) + X (1, i, col)` in one order or the other — the reference's value at
  `(i, col)`. Changes of format are the identity and `+` is commutative on the extended reals; nothing needs finiteness.
-/
import proofs.«901022_g7700000000001023_dist_rs_v7x_xyz2x2x2_x_m4096_n1024_bf16_1_alg».proof.Proof.Spec
import proofs.«901022_g7700000000001023_dist_rs_v7x_xyz2x2x2_x_m4096_n1024_bf16_1_alg».proof.Proof.LaySide
import proofs.«901022_g7700000000001023_dist_rs_v7x_xyz2x2x2_x_m4096_n1024_bf16_1_alg».proof.Proof.RefSide
import Idealize.ShloMosaic.PureOps.Ideal
import Idealize.ShloMosaic.Lib.ValueIdx

noncomputable section

namespace Cert.KernelIdeal.RS.Val

open Cert.KernelIdeal Cert.KernelIdeal.Gen
open Idealize.ShloMosaic Idealize.ShloMosaic.TcCoe Idealize.ShloMosaic.ValueIdx Idealize.SL.Sem

/-- Two reads of the whole array at indices with the same coordinates. -/
theorem read_congr (X : Cert.RS.Ref.ArgBuf) {a a' : Fin 2} {i i' : Fin 4096} {j j' : Fin 2048}
    (ha : a.val = a'.val) (hi : i.val = i'.val) (hj : j.val = j'.val) :
    X (ix3 a i j) = X (ix3 a' i' j') := by
  obtain rfl := Fin.ext ha
  obtain rfl := Fin.ext hi
  obtain rfl := Fin.ext hj
  rfl

variable (m : (ℓ : Loc nD τ sig) → Buf (Elt Ideal) ℓ) (X : Cert.RS.Ref.ArgBuf)

/-- Device `u`'s entry `(0, i, col)` is the whole array's entry `(mx u, i, col)`. -/
theorem xat_eq
    (hm : ∀ c : Dev nD, m ((c.tc : Thread nD τ).loc main_arg0)
      = Layout.blockN ⟨3, ![1, 4096, 2048]⟩ ⟨3, ![2, 4096, 2048]⟩ (Layout.meshBlock [2, 2, 2] ![[0], [], []] c) X)
    (u : Dev nD) (i col : ℕ) (hi : i < 4096) (hc : col < 2048) :
    xat (F := Ideal) m u i col = X (ix3 (Cert.RS.Lay.slab u) ⟨i, hi⟩ ⟨col, hc⟩) := by
  have h := Cert.RS.Lay.arg_block_apply u X ⟨i % 4096, Nat.mod_lt _ (by decide)⟩ ⟨col % 2048, Nat.mod_lt _ (by decide)⟩
  unfold xat xin
  rw [hm u]
  exact h.trans (read_congr X rfl (Nat.mod_eq_of_lt hi) (Nat.mod_eq_of_lt hc))

/-- The column `1024 * mx u + 256 * q + j` is a column of the whole array. -/
theorem col_lt (u : Dev nD) (q j : ℕ) (hq : q < 4) (hj : j < 256) : 1024 * mx u + 256 * q + j < 2048 := by
  have := mx_lt u
  omega

/-- ONE ENTRY OF A QUARTER: what device `u` adds up at `(i, j)` of quarter `q` is the sum of the two slabs' elements at
    row `i`, column `1024 * mx u + 256 * q + j`. -/
theorem cellv_eq
    (hm : ∀ c : Dev nD, m ((c.tc : Thread nD τ).loc main_arg0)
      = Layout.blockN ⟨3, ![1, 4096, 2048]⟩ ⟨3, ![2, 4096, 2048]⟩ (Layout.meshBlock [2, 2, 2] ![[0], [], []] c) X)
    (u : Dev nD) (q i j : ℕ) (hq : q < 4) (hi : i < 4096) (hj : j < 256) :
    cellv (F := Ideal) m u q i j
      = (show EReal from X (ix3 (0 : Fin 2) ⟨i, hi⟩ ⟨1024 * mx u + 256 * q + j, col_lt u q j hq hj⟩))
        + (show EReal from X (ix3 (1 : Fin 2) ⟨i, hi⟩ ⟨1024 * mx u + 256 * q + j, col_lt u q j hq hj⟩)) := by
  have hx := mx_lt u
  have hpx := mx_px u
  have h0 : (Cert.RS.Lay.slab u).val = mx u := rfl
  have h1 : (Cert.RS.Lay.slab (px u)).val = mx (px u) := rfl
  unfold cellv keep give colOf
  simp only [Ideal.truncf_def, Ideal.extf_def, Ideal.addf_def]
  rw [xat_eq m X hm u i (1024 * mx u + 256 * q + j) hi (by omega),
    xat_eq m X hm (px u) i (1024 * (1 - mx (px u)) + 256 * q + j) hi (by omega)]
  rcases (by omega : mx u = 0 ∨ mx u = 1) with h | h
  · exact congrArg₂ (fun p r : EReal => p + r)
      (read_congr X (by rw [h0, h]; rfl) rfl rfl)
      (read_congr X (by rw [h1, hpx, h]; rfl) rfl (by show 1024 * (1 - mx (px u)) + 256 * q + j = 1024 * mx u + 256 * q + j; omega))
  · refine (add_comm (G := EReal) _ _).trans ?_
    exact congrArg₂ (fun p r : EReal => p + r)
      (read_congr X (by rw [h1, hpx, h]; rfl) rfl (by show 1024 * (1 - mx (px u)) + 256 * q + j = 1024 * mx u + 256 * q + j; omega))
      (read_congr X (by rw [h0, h]; rfl) rfl rfl)

/-- Every device that adds up a quarter of device `c`'s result has `c`'s x coordinate. -/
theorem mx_ownerOf (c : Dev nD) (q : ℕ) : mx (ownerOf c q) = mx c := by
  unfold ownerOf
  split_ifs
  · rfl
  · exact mx_pz c
  · exact mx_py c
  · exact (mx_py (pz c)).trans (mx_pz c)

/-- An entry added up by a device of `c`'s x coordinate is the reference's value at `c`'s column. -/
theorem cellv_ref
    (hm : ∀ c : Dev nD, m ((c.tc : Thread nD τ).loc main_arg0)
      = Layout.blockN ⟨3, ![1, 4096, 2048]⟩ ⟨3, ![2, 4096, 2048]⟩ (Layout.meshBlock [2, 2, 2] ![[0], [], []] c) X)
    (c u : Dev nD) (hu : mx u = mx c) (a : Fin 4096) (b : Fin 1024) (q : ℕ) (hq : q = b.val / 256) :
    cellv (F := Ideal) m u q a.val (b.val % 256) = Cert.RS.Ref.refOut X (ix2 a (Cert.RS.Lay.col c b)) := by
  have hb : b.val < 1024 := b.isLt
  rw [cellv_eq m X hm u q a.val (b.val % 256) (by omega) a.isLt (Nat.mod_lt _ (by decide)), Cert.RS.Ref.refOut_apply]
  have hcol : 1024 * mx u + 256 * q + b.val % 256 = (Cert.RS.Lay.col c b).val := by
    rw [hu]
    show 1024 * (c.val / 4) + 256 * q + b.val % 256 = 1024 * (c.val / 4) + b.val
    omega
  exact congrArg₂ (fun p r : EReal => p + r) (read_congr X rfl rfl hcol) (read_congr X rfl rfl hcol)

/-- THE RESULT AT AN INDEX: device `c`'s result at `(a, b)` is the reference's result at `(a, 1024 * (c / 4) + b)`. -/
theorem out_apply
    (hm : ∀ c : Dev nD, m ((c.tc : Thread nD τ).loc main_arg0)
      = Layout.blockN ⟨3, ![1, 4096, 2048]⟩ ⟨3, ![2, 4096, 2048]⟩ (Layout.meshBlock [2, 2, 2] ![[0], [], []] c) X)
    (c : Dev nD) (a : Fin 4096) (b : Fin 1024) :
    out (F := Ideal) m c (ix2 a b) = Cert.RS.Ref.refOut X (ix2 a (Cert.RS.Lay.col c b)) := by
  show (if b.val / 256 = dq c ∧ a.val < 1536 then cellv (F := Ideal) m c (dq c) a.val (b.val % 256)
      else cellv (F := Ideal) m (ownerOf c (b.val / 256)) (b.val / 256) a.val (b.val % 256)) = _
  split_ifs with h
  · exact cellv_ref m X hm c c rfl a b _ h.1.symm
  · exact cellv_ref m X hm c _ (mx_ownerOf c _) a b _ rfl

/-- THE VALUE: when every device's argument buffer is its block of the reference's argument array, every device's result
    is its block of the reference's result. -/
theorem out_eq_block
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hm : ∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 2] ![[0], [], []] c) (m' (((0 : Dev Cert.ReferenceIdeal.nD).tc : Thread Cert.ReferenceIdeal.nD Cert.ReferenceIdeal.τ).loc Cert.ReferenceIdeal.main_arg0)))
    (c : Dev Cert.KernelIdeal.nD) :
    (out (F := Ideal) m c : Buf (Elt Ideal) ((c.tc : Thread Cert.KernelIdeal.nD Cert.KernelIdeal.τ).loc Cert.KernelIdeal.main_v1))
      = Layout.blockN ⟨2, ![4096, 1024]⟩ ⟨2, ![4096, 2048]⟩ (Layout.meshBlock [2, 2, 2] ![[], [0]] c)
          (Cert.RS.Ref.refOut (m' (((0 : Dev Cert.ReferenceIdeal.nD).tc : Thread Cert.ReferenceIdeal.nD Cert.ReferenceIdeal.τ).loc Cert.ReferenceIdeal.main_arg0))) := by
  rw [Cert.RS.Lay.res_block_eq]
  funext (y : (⟨2, ![4096, 1024]⟩ : Shape).Idx)
  rw [eq_ix2 y]
  exact out_apply m _ hm c (y 0) (y 1)

end Cert.KernelIdeal.RS.Val

end
-- ==== Proof.Assemble.lean ====
import proofs.«901022_g7700000000001023_dist_rs_v7x_xyz2x2x2_x_m4096_n1024_bf16_1_alg».proof.Defs
import proofs.«901022_g7700000000001023_dist_rs_v7x_xyz2x2x2_x_m4096_n1024_bf16_1_alg».proof.Proof.FrameOf
import proofs.«901022_g7700000000001023_dist_rs_v7x_xyz2x2x2_x_m4096_n1024_bf16_1_alg».proof.Proof.ValueSide
import proofs.«901022_g7700000000001023_dist_rs_v7x_xyz2x2x2_x_m4096_n1024_bf16_1_alg».proof.Proof.RefSide
import proofs.«901022_g7700000000001023_dist_rs_v7x_xyz2x2x2_x_m4096_n1024_bf16_1_alg».proof.Proof.Gen.Pre_finite_inputs_Kernel

/-! The claims about the idealized kernel from the body's own statement: its frame, and against the reference — the
    launch's run names each device's result, which is its block of the reference's. -/

noncomputable section

namespace Cert.KernelIdeal.RS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The idealized kernel runs and leaves its argument arrays unchanged. -/
theorem frame_ideal (hs : ∀ m : (ℓ : Loc nD τ sig) → Buf (Elt Ideal) ℓ, BodySound m) : Cert.frame_KernelIdeal :=
  fun m g _ => frame_of_sound hs m g

/-- Against the reference: each device's result ends as its block of the reference's result. -/
theorem algebraic_ideal (hs : ∀ m : (ℓ : Loc nD τ sig) → Buf (Elt Ideal) ℓ, BodySound m) : Cert.algebraic_KernelIdeal_ReferenceIdeal := by
  intro m g m' g' _ hagree
  refine ⟨Cert.RS.Ref.refOut (m' (((0 : Dev Cert.ReferenceIdeal.nD).tc : Thread Cert.ReferenceIdeal.nD Cert.ReferenceIdeal.τ).loc Cert.ReferenceIdeal.main_arg0)), ?_,
    Cert.RS.Ref.run m' g'⟩
  exact (θ_run Cert.KernelIdeal.defs _ _).mono
    (fun _ h c => ⟨(h c).1.trans (Val.out_eq_block m m' hagree c), (h c).2⟩) (run_of_body m g (hs m))

end Cert.KernelIdeal.RS

end
-- ==== Proof.SchedTab.lean ====
import proofs.«901022_g7700000000001023_dist_rs_v7x_xyz2x2x2_x_m4096_n1024_bf16_1_alg».proof.Proof.Sched

/-! The tables of the one-round schedule, cell by cell: which duties a cell has, what a duty is worth, what the round
    expects in all, what a duty hands over, and what is left of the round when no duty has been taken. A barrier cell
    has the three duties of its neighbours; a copy's semaphore (array a, chunk k, at place b(a) + k of the pool) has the one
    duty 0, worth a chunk's credit for the whole-chunk copies (arrays 0 … 7) and a half chunk's for the forwarded halves
    (arrays 8 … 11, chunks 3 … 7 only). -/

noncomputable section

namespace Cert.KernelIdeal.RS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a duty hands over can be stored in an invariant -/

theorem pts_st {sp : Space} {s : Shape} {e : EltTy} (M : Memref sig .tc sp s e) (t : Dev nD) (q : PosShare TreeShare)
    (f : Buf (Elt F) (M.view.loc (t : Thread nD τ))) : BI.Storable (upEmb : UEmb _ 𝕄) (pts (F := F) M t q f) := inferInstance
theorem junk_st {sp : Space} {s : Shape} {e : EltTy} (M : Memref sig .tc sp s e) (t : Dev nD) :
    BI.Storable (upEmb : UEmb _ 𝕄) (junk (F := F) M t) := inferInstance
theorem sep_st {P Q : sProp 𝕄} (hP : BI.Storable (upEmb : UEmb _ 𝕄) P) (hQ : BI.Storable (upEmb : UEmb _ 𝕄) Q) :
    BI.Storable (upEmb : UEmb _ 𝕄) iprop(P ∗ Q) := inferInstance

instance giveX_storable (p : Dev nD) : BI.Storable (upEmb : UEmb _ 𝕄) (giveX (F := F) p) :=
  sep_st (junk_st _ p) (junk_st _ p)
instance giveQ_storable (p : Dev nD) (q : Fin 4) : BI.Storable (upEmb : UEmb _ 𝕄) (giveQ (F := F) p q) :=
  sep_st (junk_st (r4R q 0) p) (sep_st (junk_st (r4R q 1) p) (sep_st (junk_st (r4R q 2) p) (sep_st (junk_st (r4R q 3) p)
    (sep_st (junk_st (r4R q 4) p) (sep_st (junk_st (r4R q 5) p) (sep_st (junk_st (r4R q 6) p) (junk_st (r4R q 7) p)))))))
instance giveH_storable (p : Dev nD) (h : Fin 2) : BI.Storable (upEmb : UEmb _ 𝕄) (giveH (F := F) p h) :=
  sep_st (junk_st (r4H (dqF p) 3 h) p) (sep_st (junk_st (r4H (dqF p) 4 h) p) (sep_st (junk_st (r4H (dqF p) 5 h) p)
    (sep_st (junk_st (r4H (dqF p) 6 h) p) (junk_st (r4H (dqF p) 7 h) p))))
instance barPay_storable (t : Dev nD) (d : DD) : BI.Storable (upEmb : UEmb _ 𝕄) (barPay (F := F) t d) := by
  unfold barPay; (repeat' split) <;> infer_instance
instance dmaPay_storable (t : Dev nD) (j : ℕ) : BI.Storable (upEmb : UEmb _ 𝕄) (dmaPay m t j) := by
  unfold dmaPay; split <;> first | exact pts_st _ _ _ _ | infer_instance

instance rsRd_payload_storable (g : GSem nD τ sig) (r : ℕ) (d : DD) :
    BI.Storable (upEmb : UEmb _ 𝕄) ((rsRd (F := F) m).payload g r d) := by
  rcases g with ⟨th, sm⟩
  cases sm with
  | reg s => exact barPay_storable (F := F) th.1 d
  | dma j => exact dmaPay_storable m th.1 j.val

/-! ## The barrier cell of a device: three duties of one unit -/

section Bar
variable (t : Dev nD)

theorem duties_bar : (rsRd (F := F) m).duties (barCell t) 0 = Finset.univ := by
  dsimp only [rsRd]; rw [if_pos ⟨rfl, rfl⟩]; exact if_pos rfl

theorem amount_bar (d : DD) : (rsRd (F := F) m).amount (barCell t) 0 d = 1 := rfl

theorem expect_bar : (rsRd (F := F) m).expect (barCell t) 0 = 3 := by
  unfold Schedule.expect Schedule.amountOf
  rw [duties_bar, Finset.sum_congr rfl fun d _ => amount_bar m t d, Finset.sum_const, Finset.card_univ, Fintype.card_fin, smul_eq_mul]

theorem payload_bar (d : DD) : (rsRd (F := F) m).payload (barCell t) 0 d = barPay (F := F) t d := rfl

/-- Across x the neighbour hands over its two landing buffers. -/
theorem barPay_zero : barPay (F := F) t 0 = giveX (F := F) (px t) := by unfold barPay; rw [if_pos rfl]
/-- Across y: the quarter this device adds up for it, and the right halves of its forwarded chunks. -/
theorem barPay_one : barPay (F := F) t 1 = iprop(giveQ (F := F) (py t) (yqF (py t)) ∗ giveH (F := F) (py t) 1) := by
  unfold barPay; rw [if_neg (by decide), if_pos rfl]
/-- Across z: the quarter this device adds up for it, and the left halves of its forwarded chunks. -/
theorem barPay_two : barPay (F := F) t 2 = iprop(giveQ (F := F) (pz t) (zqF (pz t)) ∗ giveH (F := F) (pz t) 0) := by
  unfold barPay; rw [if_neg (by decide), if_neg (by decide)]

/-- The rest of the barrier cell's round, no duty taken: the three neighbours' hand-overs. -/
theorem rest_bar : bigSep ((rsRd (F := F) m).duties (barCell t) 0 \ ∅) (fun d => (rsRd (F := F) m).payload (barCell t) 0 d)
    = iprop(barPay (F := F) t 0 ∗ barPay (F := F) t 1 ∗ barPay (F := F) t 2) := by
  rw [Finset.sdiff_empty, duties_bar, bigSep_univ_eq_bigSepL [0, 1, 2] (by decide) (by decide), bigSepL_cons_cons, bigSepL_cons_cons,
    bigSepL_singleton, payload_bar, payload_bar, payload_bar]
  rfl

end Bar

/-! ## The cells of the copies: one duty of a chunk's (or a half chunk's) credit -/

theorem f8_val (k : Fin 8) : f8 k.val = k := Fin.ext (Nat.mod_eq_of_lt k.isLt)
theorem f3_val (k : Fin 3) : f3 k.val = k := Fin.ext (Nat.mod_eq_of_lt k.isLt)

/-- Which array and chunk the semaphore at place b(a) + k is. -/
theorem kind_a0 : ∀ k : Fin 8, kindOf (22 + k.val) = some (0, k.val) := by decide
theorem kind_a1 : ∀ k : Fin 8, kindOf (30 + k.val) = some (1, k.val) := by decide
theorem kind_a2 : ∀ k : Fin 3, kindOf (38 + k.val) = some (2, k.val) := by decide
theorem kind_a3 : ∀ k : Fin 3, kindOf (41 + k.val) = some (3, k.val) := by decide
theorem kind_a4 : ∀ k : Fin 8, kindOf (44 + k.val) = some (4, k.val) := by decide
theorem kind_a5 : ∀ k : Fin 8, kindOf (52 + k.val) = some (5, k.val) := by decide
theorem kind_a6 : ∀ k : Fin 8, kindOf (60 + k.val) = some (6, k.val) := by decide
theorem kind_a7 : ∀ k : Fin 8, kindOf (68 + k.val) = some (7, k.val) := by decide
theorem kind_a8 : ∀ k : Fin 8, 3 ≤ k.val → kindOf (76 + k.val) = some (8, k.val) := by decide
theorem kind_a9 : ∀ k : Fin 8, 3 ≤ k.val → kindOf (84 + k.val) = some (9, k.val) := by decide
theorem kind_a10 : ∀ k : Fin 8, 3 ≤ k.val → kindOf (92 + k.val) = some (10, k.val) := by decide
theorem kind_a11 : ∀ k : Fin 8, 3 ≤ k.val → kindOf (100 + k.val) = some (11, k.val) := by decide

section Dma
variable (t : Dev nD)

/-! ### Any place of the pool -/

theorem duties_some (j : Fin 140) (h : (kindOf j.val).isSome = true) : (rsRd (F := F) m).duties (cellAt t j) 0 = {0} := by
  dsimp only [rsRd]; rw [if_pos ⟨rfl, rfl⟩]; exact if_pos h

/-- A semaphore of the pool that is no copy's has no duty. -/
theorem duties_none (j : Fin 140) (h : kindOf j.val = none) : (rsRd (F := F) m).duties (cellAt t j) 0 = ∅ := by
  dsimp only [rsRd]; rw [if_pos ⟨rfl, rfl⟩]; exact if_neg (by rw [h]; exact Bool.false_ne_true)

/-- There is one round. -/
theorem duties_later (g : GSem nD τ sig) (r : ℕ) (hr : 1 ≤ r) : (rsRd (F := F) m).duties g r = ∅ := by
  dsimp only [rsRd]; exact if_neg fun h => by omega

theorem amount_kind (j : Fin 140) (a k : ℕ) (h : kindOf j.val = some (a, k)) (d : DD) :
    (rsRd (F := F) m).amount (cellAt t j) 0 d = if a < 8 then NA else NH := by
  show (match kindOf j.val with | some (a, _) => if a < 8 then NA else NH | none => 1) = _
  rw [h]

theorem expect_kind (j : Fin 140) (a k : ℕ) (h : kindOf j.val = some (a, k)) :
    (rsRd (F := F) m).expect (cellAt t j) 0 = if a < 8 then NA else NH := by
  unfold Schedule.expect Schedule.amountOf
  rw [duties_some m t j (by rw [h]; rfl), Finset.sum_singleton, amount_kind m t j a k h]

/-- The tables at any place of the pool, by its kind. -/
theorem duties_dma (j : Fin 140) : (rsRd (F := F) m).duties (cellAt t j) 0 = if (kindOf j.val).isSome = true then {0} else ∅ := by
  dsimp only [rsRd]; rw [if_pos ⟨rfl, rfl⟩]
theorem amount_dma (j : Fin 140) (d : DD) : (rsRd (F := F) m).amount (cellAt t j) 0 d
    = (match kindOf j.val with | some (a, _) => if a < 8 then NA else NH | none => 1) := rfl

theorem payload_dma (j : Fin 140) (d : DD) : (rsRd (F := F) m).payload (cellAt t j) 0 d = dmaPay m t j.val := rfl

theorem rest_some (j : Fin 140) (h : (kindOf j.val).isSome = true) :
    bigSep ((rsRd (F := F) m).duties (cellAt t j) 0 \ ∅) (fun d => (rsRd (F := F) m).payload (cellAt t j) 0 d) = dmaPay m t j.val := by
  rw [Finset.sdiff_empty, duties_some m t j h, bigSep_singleton, payload_dma]

/-! ### Array 0, at 22 + k — send semaphores of the copies across x: the chunk of the buffer sent comes back whole -/

theorem dmaPay_a0 (k : Fin 8) : dmaPay m t (22 + k.val) = pts (sbR k) t fullShare (sb m t) := by
  simp only [dmaPay, kind_a0 k]; rw [f8_val]
theorem duties_a0 (k : Fin 8) : (rsRd (F := F) m).duties (cellAt t ⟨22 + k.val, by have := k.isLt; omega⟩) 0 = {0} :=
  duties_some m t _ (by show (kindOf (22 + k.val)).isSome = true; rw [kind_a0 k]; rfl)
theorem amount_a0 (k : Fin 8) (d : DD) : (rsRd (F := F) m).amount (cellAt t ⟨22 + k.val, by have := k.isLt; omega⟩) 0 d = NA :=
  amount_kind m t _ 0 k.val (kind_a0 k) d
theorem expect_a0 (k : Fin 8) : (rsRd (F := F) m).expect (cellAt t ⟨22 + k.val, by have := k.isLt; omega⟩) 0 = NA :=
  expect_kind m t _ 0 k.val (kind_a0 k)
theorem payload_a0 (k : Fin 8) (d : DD) : (rsRd (F := F) m).payload (cellAt t ⟨22 + k.val, by have := k.isLt; omega⟩) 0 d = pts (sbR k) t fullShare (sb m t) :=
  dmaPay_a0 m t k
theorem rest_a0 (k : Fin 8) : bigSep ((rsRd (F := F) m).duties (cellAt t ⟨22 + k.val, by have := k.isLt; omega⟩) 0 \ ∅) (fun d => (rsRd (F := F) m).payload (cellAt t ⟨22 + k.val, by have := k.isLt; omega⟩) 0 d) = pts (sbR k) t fullShare (sb m t) := by
  rw [Finset.sdiff_empty, duties_a0 m t k, bigSep_singleton, payload_a0 m t k]

/-! ### Array 1, at 30 + k — receive semaphores of the copies across x: the chunk of the landing buffer, holding what the x-neighbour sent -/

theorem dmaPay_a1 (k : Fin 8) : dmaPay m t (30 + k.val) = pts (rbR k) t fullShare (rb m t) := by
  simp only [dmaPay, kind_a1 k]; rw [f8_val]
theorem duties_a1 (k : Fin 8) : (rsRd (F := F) m).duties (cellAt t ⟨30 + k.val, by have := k.isLt; omega⟩) 0 = {0} :=
  duties_some m t _ (by show (kindOf (30 + k.val)).isSome = true; rw [kind_a1 k]; rfl)
theorem amount_a1 (k : Fin 8) (d : DD) : (rsRd (F := F) m).amount (cellAt t ⟨30 + k.val, by have := k.isLt; omega⟩) 0 d = NA :=
  amount_kind m t _ 1 k.val (kind_a1 k) d
theorem expect_a1 (k : Fin 8) : (rsRd (F := F) m).expect (cellAt t ⟨30 + k.val, by have := k.isLt; omega⟩) 0 = NA :=
  expect_kind m t _ 1 k.val (kind_a1 k)
theorem payload_a1 (k : Fin 8) (d : DD) : (rsRd (F := F) m).payload (cellAt t ⟨30 + k.val, by have := k.isLt; omega⟩) 0 d = pts (rbR k) t fullShare (rb m t) :=
  dmaPay_a1 m t k
theorem rest_a1 (k : Fin 8) : bigSep ((rsRd (F := F) m).duties (cellAt t ⟨30 + k.val, by have := k.isLt; omega⟩) 0 \ ∅) (fun d => (rsRd (F := F) m).payload (cellAt t ⟨30 + k.val, by have := k.isLt; omega⟩) 0 d) = pts (rbR k) t fullShare (rb m t) := by
  rw [Finset.sdiff_empty, duties_a1 m t k, bigSep_singleton, payload_a1 m t k]

/-! ### Array 2, at 38 + k — send semaphores of the three-chunk copies across x -/

theorem dmaPay_a2 (k : Fin 3) : dmaPay m t (38 + k.val) = pts (sb2R k) t fullShare (sb2 m t) := by
  simp only [dmaPay, kind_a2 k]; rw [f3_val]
theorem duties_a2 (k : Fin 3) : (rsRd (F := F) m).duties (cellAt t ⟨38 + k.val, by have := k.isLt; omega⟩) 0 = {0} :=
  duties_some m t _ (by show (kindOf (38 + k.val)).isSome = true; rw [kind_a2 k]; rfl)
theorem amount_a2 (k : Fin 3) (d : DD) : (rsRd (F := F) m).amount (cellAt t ⟨38 + k.val, by have := k.isLt; omega⟩) 0 d = NA :=
  amount_kind m t _ 2 k.val (kind_a2 k) d
theorem expect_a2 (k : Fin 3) : (rsRd (F := F) m).expect (cellAt t ⟨38 + k.val, by have := k.isLt; omega⟩) 0 = NA :=
  expect_kind m t _ 2 k.val (kind_a2 k)
theorem payload_a2 (k : Fin 3) (d : DD) : (rsRd (F := F) m).payload (cellAt t ⟨38 + k.val, by have := k.isLt; omega⟩) 0 d = pts (sb2R k) t fullShare (sb2 m t) :=
  dmaPay_a2 m t k
theorem rest_a2 (k : Fin 3) : bigSep ((rsRd (F := F) m).duties (cellAt t ⟨38 + k.val, by have := k.isLt; omega⟩) 0 \ ∅) (fun d => (rsRd (F := F) m).payload (cellAt t ⟨38 + k.val, by have := k.isLt; omega⟩) 0 d) = pts (sb2R k) t fullShare (sb2 m t) := by
  rw [Finset.sdiff_empty, duties_a2 m t k, bigSep_singleton, payload_a2 m t k]

/-! ### Array 3, at 41 + k — receive semaphores of the three-chunk copies across x -/

theorem dmaPay_a3 (k : Fin 3) : dmaPay m t (41 + k.val) = pts (rb2R k) t fullShare (rb2 m t) := by
  simp only [dmaPay, kind_a3 k]; rw [f3_val]
theorem duties_a3 (k : Fin 3) : (rsRd (F := F) m).duties (cellAt t ⟨41 + k.val, by have := k.isLt; omega⟩) 0 = {0} :=
  duties_some m t _ (by show (kindOf (41 + k.val)).isSome = true; rw [kind_a3 k]; rfl)
theorem amount_a3 (k : Fin 3) (d : DD) : (rsRd (F := F) m).amount (cellAt t ⟨41 + k.val, by have := k.isLt; omega⟩) 0 d = NA :=
  amount_kind m t _ 3 k.val (kind_a3 k) d
theorem expect_a3 (k : Fin 3) : (rsRd (F := F) m).expect (cellAt t ⟨41 + k.val, by have := k.isLt; omega⟩) 0 = NA :=
  expect_kind m t _ 3 k.val (kind_a3 k)
theorem payload_a3 (k : Fin 3) (d : DD) : (rsRd (F := F) m).payload (cellAt t ⟨41 + k.val, by have := k.isLt; omega⟩) 0 d = pts (rb2R k) t fullShare (rb2 m t) :=
  dmaPay_a3 m t k
theorem rest_a3 (k : Fin 3) : bigSep ((rsRd (F := F) m).duties (cellAt t ⟨41 + k.val, by have := k.isLt; omega⟩) 0 \ ∅) (fun d => (rsRd (F := F) m).payload (cellAt t ⟨41 + k.val, by have := k.isLt; omega⟩) 0 d) = pts (rb2R k) t fullShare (rb2 m t) := by
  rw [Finset.sdiff_empty, duties_a3 m t k, bigSep_singleton, payload_a3 m t k]

/-! ### Array 4, at 44 + k — send semaphores of the own quarter to the z-neighbour: the share lent to that copy -/

theorem dmaPay_a4 (k : Fin 8) : dmaPay m t (44 + k.val) = pts (r4R (mqF t) k) t shZ (r4 m t) := by
  simp only [dmaPay, kind_a4 k]; rw [f8_val]
theorem duties_a4 (k : Fin 8) : (rsRd (F := F) m).duties (cellAt t ⟨44 + k.val, by have := k.isLt; omega⟩) 0 = {0} :=
  duties_some m t _ (by show (kindOf (44 + k.val)).isSome = true; rw [kind_a4 k]; rfl)
theorem amount_a4 (k : Fin 8) (d : DD) : (rsRd (F := F) m).amount (cellAt t ⟨44 + k.val, by have := k.isLt; omega⟩) 0 d = NA :=
  amount_kind m t _ 4 k.val (kind_a4 k) d
theorem expect_a4 (k : Fin 8) : (rsRd (F := F) m).expect (cellAt t ⟨44 + k.val, by have := k.isLt; omega⟩) 0 = NA :=
  expect_kind m t _ 4 k.val (kind_a4 k)
theorem payload_a4 (k : Fin 8) (d : DD) : (rsRd (F := F) m).payload (cellAt t ⟨44 + k.val, by have := k.isLt; omega⟩) 0 d = pts (r4R (mqF t) k) t shZ (r4 m t) :=
  dmaPay_a4 m t k
theorem rest_a4 (k : Fin 8) : bigSep ((rsRd (F := F) m).duties (cellAt t ⟨44 + k.val, by have := k.isLt; omega⟩) 0 \ ∅) (fun d => (rsRd (F := F) m).payload (cellAt t ⟨44 + k.val, by have := k.isLt; omega⟩) 0 d) = pts (r4R (mqF t) k) t shZ (r4 m t) := by
  rw [Finset.sdiff_empty, duties_a4 m t k, bigSep_singleton, payload_a4 m t k]

/-! ### Array 5, at 52 + k — receive semaphores from the z-neighbour: the chunk of its quarter -/

theorem dmaPay_a5 (k : Fin 8) : dmaPay m t (52 + k.val) = pts (r4R (zqF t) k) t fullShare (r4 m t) := by
  simp only [dmaPay, kind_a5 k]; rw [f8_val]
theorem duties_a5 (k : Fin 8) : (rsRd (F := F) m).duties (cellAt t ⟨52 + k.val, by have := k.isLt; omega⟩) 0 = {0} :=
  duties_some m t _ (by show (kindOf (52 + k.val)).isSome = true; rw [kind_a5 k]; rfl)
theorem amount_a5 (k : Fin 8) (d : DD) : (rsRd (F := F) m).amount (cellAt t ⟨52 + k.val, by have := k.isLt; omega⟩) 0 d = NA :=
  amount_kind m t _ 5 k.val (kind_a5 k) d
theorem expect_a5 (k : Fin 8) : (rsRd (F := F) m).expect (cellAt t ⟨52 + k.val, by have := k.isLt; omega⟩) 0 = NA :=
  expect_kind m t _ 5 k.val (kind_a5 k)
theorem payload_a5 (k : Fin 8) (d : DD) : (rsRd (F := F) m).payload (cellAt t ⟨52 + k.val, by have := k.isLt; omega⟩) 0 d = pts (r4R (zqF t) k) t fullShare (r4 m t) :=
  dmaPay_a5 m t k
theorem rest_a5 (k : Fin 8) : bigSep ((rsRd (F := F) m).duties (cellAt t ⟨52 + k.val, by have := k.isLt; omega⟩) 0 \ ∅) (fun d => (rsRd (F := F) m).payload (cellAt t ⟨52 + k.val, by have := k.isLt; omega⟩) 0 d) = pts (r4R (zqF t) k) t fullShare (r4 m t) := by
  rw [Finset.sdiff_empty, duties_a5 m t k, bigSep_singleton, payload_a5 m t k]

/-! ### Array 6, at 60 + k — send semaphores of the own quarter to the y-neighbour: the share lent to that copy -/

theorem dmaPay_a6 (k : Fin 8) : dmaPay m t (60 + k.val) = pts (r4R (mqF t) k) t shY (r4 m t) := by
  simp only [dmaPay, kind_a6 k]; rw [f8_val]
theorem duties_a6 (k : Fin 8) : (rsRd (F := F) m).duties (cellAt t ⟨60 + k.val, by have := k.isLt; omega⟩) 0 = {0} :=
  duties_some m t _ (by show (kindOf (60 + k.val)).isSome = true; rw [kind_a6 k]; rfl)
theorem amount_a6 (k : Fin 8) (d : DD) : (rsRd (F := F) m).amount (cellAt t ⟨60 + k.val, by have := k.isLt; omega⟩) 0 d = NA :=
  amount_kind m t _ 6 k.val (kind_a6 k) d
theorem expect_a6 (k : Fin 8) : (rsRd (F := F) m).expect (cellAt t ⟨60 + k.val, by have := k.isLt; omega⟩) 0 = NA :=
  expect_kind m t _ 6 k.val (kind_a6 k)
theorem payload_a6 (k : Fin 8) (d : DD) : (rsRd (F := F) m).payload (cellAt t ⟨60 + k.val, by have := k.isLt; omega⟩) 0 d = pts (r4R (mqF t) k) t shY (r4 m t) :=
  dmaPay_a6 m t k
theorem rest_a6 (k : Fin 8) : bigSep ((rsRd (F := F) m).duties (cellAt t ⟨60 + k.val, by have := k.isLt; omega⟩) 0 \ ∅) (fun d => (rsRd (F := F) m).payload (cellAt t ⟨60 + k.val, by have := k.isLt; omega⟩) 0 d) = pts (r4R (mqF t) k) t shY (r4 m t) := by
  rw [Finset.sdiff_empty, duties_a6 m t k, bigSep_singleton, payload_a6 m t k]

/-! ### Array 7, at 68 + k — receive semaphores from the y-neighbour: the chunk of its quarter -/

theorem dmaPay_a7 (k : Fin 8) : dmaPay m t (68 + k.val) = pts (r4R (yqF t) k) t fullShare (r4 m t) := by
  simp only [dmaPay, kind_a7 k]; rw [f8_val]
theorem duties_a7 (k : Fin 8) : (rsRd (F := F) m).duties (cellAt t ⟨68 + k.val, by have := k.isLt; omega⟩) 0 = {0} :=
  duties_some m t _ (by show (kindOf (68 + k.val)).isSome = true; rw [kind_a7 k]; rfl)
theorem amount_a7 (k : Fin 8) (d : DD) : (rsRd (F := F) m).amount (cellAt t ⟨68 + k.val, by have := k.isLt; omega⟩) 0 d = NA :=
  amount_kind m t _ 7 k.val (kind_a7 k) d
theorem expect_a7 (k : Fin 8) : (rsRd (F := F) m).expect (cellAt t ⟨68 + k.val, by have := k.isLt; omega⟩) 0 = NA :=
  expect_kind m t _ 7 k.val (kind_a7 k)
theorem payload_a7 (k : Fin 8) (d : DD) : (rsRd (F := F) m).payload (cellAt t ⟨68 + k.val, by have := k.isLt; omega⟩) 0 d = pts (r4R (yqF t) k) t fullShare (r4 m t) :=
  dmaPay_a7 m t k
theorem rest_a7 (k : Fin 8) : bigSep ((rsRd (F := F) m).duties (cellAt t ⟨68 + k.val, by have := k.isLt; omega⟩) 0 \ ∅) (fun d => (rsRd (F := F) m).payload (cellAt t ⟨68 + k.val, by have := k.isLt; omega⟩) 0 d) = pts (r4R (yqF t) k) t fullShare (r4 m t) := by
  rw [Finset.sdiff_empty, duties_a7 m t k, bigSep_singleton, payload_a7 m t k]

/-! ### Array 8, at 76 + k — send semaphores of the left halves forwarded through z: the share of the y-neighbour's chunk lent to the forward -/

theorem dmaPay_a8 (k : Fin 8) (hk : 3 ≤ k.val) : dmaPay m t (76 + k.val) = pts (r4H (yqF t) k 0) t shF (r4 m t) := by
  simp only [dmaPay, kind_a8 k hk]; rw [f8_val]
theorem duties_a8 (k : Fin 8) (hk : 3 ≤ k.val) : (rsRd (F := F) m).duties (cellAt t ⟨76 + k.val, by have := k.isLt; omega⟩) 0 = {0} :=
  duties_some m t _ (by show (kindOf (76 + k.val)).isSome = true; rw [kind_a8 k hk]; rfl)
theorem amount_a8 (k : Fin 8) (hk : 3 ≤ k.val) (d : DD) : (rsRd (F := F) m).amount (cellAt t ⟨76 + k.val, by have := k.isLt; omega⟩) 0 d = NH :=
  amount_kind m t _ 8 k.val (kind_a8 k hk) d
theorem expect_a8 (k : Fin 8) (hk : 3 ≤ k.val) : (rsRd (F := F) m).expect (cellAt t ⟨76 + k.val, by have := k.isLt; omega⟩) 0 = NH :=
  expect_kind m t _ 8 k.val (kind_a8 k hk)
theorem payload_a8 (k : Fin 8) (hk : 3 ≤ k.val) (d : DD) : (rsRd (F := F) m).payload (cellAt t ⟨76 + k.val, by have := k.isLt; omega⟩) 0 d = pts (r4H (yqF t) k 0) t shF (r4 m t) :=
  dmaPay_a8 m t k hk
theorem rest_a8 (k : Fin 8) (hk : 3 ≤ k.val) : bigSep ((rsRd (F := F) m).duties (cellAt t ⟨76 + k.val, by have := k.isLt; omega⟩) 0 \ ∅) (fun d => (rsRd (F := F) m).payload (cellAt t ⟨76 + k.val, by have := k.isLt; omega⟩) 0 d) = pts (r4H (yqF t) k 0) t shF (r4 m t) := by
  rw [Finset.sdiff_empty, duties_a8 m t k hk, bigSep_singleton, payload_a8 m t k hk]

/-! ### Array 9, at 84 + k — receive semaphores of the left halves forwarded through z: the left half of the diagonal quarter's chunk -/

theorem dmaPay_a9 (k : Fin 8) (hk : 3 ≤ k.val) : dmaPay m t (84 + k.val) = pts (r4H (dqF t) k 0) t fullShare (r4 m t) := by
  simp only [dmaPay, kind_a9 k hk]; rw [f8_val]
theorem duties_a9 (k : Fin 8) (hk : 3 ≤ k.val) : (rsRd (F := F) m).duties (cellAt t ⟨84 + k.val, by have := k.isLt; omega⟩) 0 = {0} :=
  duties_some m t _ (by show (kindOf (84 + k.val)).isSome = true; rw [kind_a9 k hk]; rfl)
theorem amount_a9 (k : Fin 8) (hk : 3 ≤ k.val) (d : DD) : (rsRd (F := F) m).amount (cellAt t ⟨84 + k.val, by have := k.isLt; omega⟩) 0 d = NH :=
  amount_kind m t _ 9 k.val (kind_a9 k hk) d
theorem expect_a9 (k : Fin 8) (hk : 3 ≤ k.val) : (rsRd (F := F) m).expect (cellAt t ⟨84 + k.val, by have := k.isLt; omega⟩) 0 = NH :=
  expect_kind m t _ 9 k.val (kind_a9 k hk)
theorem payload_a9 (k : Fin 8) (hk : 3 ≤ k.val) (d : DD) : (rsRd (F := F) m).payload (cellAt t ⟨84 + k.val, by have := k.isLt; omega⟩) 0 d = pts (r4H (dqF t) k 0) t fullShare (r4 m t) :=
  dmaPay_a9 m t k hk
theorem rest_a9 (k : Fin 8) (hk : 3 ≤ k.val) : bigSep ((rsRd (F := F) m).duties (cellAt t ⟨84 + k.val, by have := k.isLt; omega⟩) 0 \ ∅) (fun d => (rsRd (F := F) m).payload (cellAt t ⟨84 + k.val, by have := k.isLt; omega⟩) 0 d) = pts (r4H (dqF t) k 0) t fullShare (r4 m t) := by
  rw [Finset.sdiff_empty, duties_a9 m t k hk, bigSep_singleton, payload_a9 m t k hk]

/-! ### Array 10, at 92 + k — send semaphores of the right halves forwarded through y: the share of the z-neighbour's chunk lent to the forward -/

theorem dmaPay_a10 (k : Fin 8) (hk : 3 ≤ k.val) : dmaPay m t (92 + k.val) = pts (r4H (zqF t) k 1) t shF (r4 m t) := by
  simp only [dmaPay, kind_a10 k hk]; rw [f8_val]
theorem duties_a10 (k : Fin 8) (hk : 3 ≤ k.val) : (rsRd (F := F) m).duties (cellAt t ⟨92 + k.val, by have := k.isLt; omega⟩) 0 = {0} :=
  duties_some m t _ (by show (kindOf (92 + k.val)).isSome = true; rw [kind_a10 k hk]; rfl)
theorem amount_a10 (k : Fin 8) (hk : 3 ≤ k.val) (d : DD) : (rsRd (F := F) m).amount (cellAt t ⟨92 + k.val, by have := k.isLt; omega⟩) 0 d = NH :=
  amount_kind m t _ 10 k.val (kind_a10 k hk) d
theorem expect_a10 (k : Fin 8) (hk : 3 ≤ k.val) : (rsRd (F := F) m).expect (cellAt t ⟨92 + k.val, by have := k.isLt; omega⟩) 0 = NH :=
  expect_kind m t _ 10 k.val (kind_a10 k hk)
theorem payload_a10 (k : Fin 8) (hk : 3 ≤ k.val) (d : DD) : (rsRd (F := F) m).payload (cellAt t ⟨92 + k.val, by have := k.isLt; omega⟩) 0 d = pts (r4H (zqF t) k 1) t shF (r4 m t) :=
  dmaPay_a10 m t k hk
theorem rest_a10 (k : Fin 8) (hk : 3 ≤ k.val) : bigSep ((rsRd (F := F) m).duties (cellAt t ⟨92 + k.val, by have := k.isLt; omega⟩) 0 \ ∅) (fun d => (rsRd (F := F) m).payload (cellAt t ⟨92 + k.val, by have := k.isLt; omega⟩) 0 d) = pts (r4H (zqF t) k 1) t shF (r4 m t) := by
  rw [Finset.sdiff_empty, duties_a10 m t k hk, bigSep_singleton, payload_a10 m t k hk]

/-! ### Array 11, at 100 + k — receive semaphores of the right halves forwarded through y: the right half of the diagonal quarter's chunk -/

theorem dmaPay_a11 (k : Fin 8) (hk : 3 ≤ k.val) : dmaPay m t (100 + k.val) = pts (r4H (dqF t) k 1) t fullShare (r4 m t) := by
  simp only [dmaPay, kind_a11 k hk]; rw [f8_val]
theorem duties_a11 (k : Fin 8) (hk : 3 ≤ k.val) : (rsRd (F := F) m).duties (cellAt t ⟨100 + k.val, by have := k.isLt; omega⟩) 0 = {0} :=
  duties_some m t _ (by show (kindOf (100 + k.val)).isSome = true; rw [kind_a11 k hk]; rfl)
theorem amount_a11 (k : Fin 8) (hk : 3 ≤ k.val) (d : DD) : (rsRd (F := F) m).amount (cellAt t ⟨100 + k.val, by have := k.isLt; omega⟩) 0 d = NH :=
  amount_kind m t _ 11 k.val (kind_a11 k hk) d
theorem expect_a11 (k : Fin 8) (hk : 3 ≤ k.val) : (rsRd (F := F) m).expect (cellAt t ⟨100 + k.val, by have := k.isLt; omega⟩) 0 = NH :=
  expect_kind m t _ 11 k.val (kind_a11 k hk)
theorem payload_a11 (k : Fin 8) (hk : 3 ≤ k.val) (d : DD) : (rsRd (F := F) m).payload (cellAt t ⟨100 + k.val, by have := k.isLt; omega⟩) 0 d = pts (r4H (dqF t) k 1) t fullShare (r4 m t) :=
  dmaPay_a11 m t k hk
theorem rest_a11 (k : Fin 8) (hk : 3 ≤ k.val) : bigSep ((rsRd (F := F) m).duties (cellAt t ⟨100 + k.val, by have := k.isLt; omega⟩) 0 \ ∅) (fun d => (rsRd (F := F) m).payload (cellAt t ⟨100 + k.val, by have := k.isLt; omega⟩) 0 d) = pts (r4H (dqF t) k 1) t fullShare (r4 m t) := by
  rw [Finset.sdiff_empty, duties_a11 m t k hk, bigSep_singleton, payload_a11 m t k hk]

end Dma

/-! ## The same for a semaphore given as any place j of the pool with j = b(a) + k -/

section DmaAt
variable (t : Dev nD)

theorem duties_a0_at (j : Fin 140) (k : Fin 8) (hj : j.val = 22 + k.val) : (rsRd (F := F) m).duties (cellAt t j) 0 = {0} := by
  obtain ⟨v, hv⟩ := j; subst hj; exact duties_a0 m t k
theorem amount_a0_at (j : Fin 140) (k : Fin 8) (hj : j.val = 22 + k.val) (d : DD) : (rsRd (F := F) m).amount (cellAt t j) 0 d = NA := by
  obtain ⟨v, hv⟩ := j; subst hj; exact amount_a0 m t k d
theorem expect_a0_at (j : Fin 140) (k : Fin 8) (hj : j.val = 22 + k.val) : (rsRd (F := F) m).expect (cellAt t j) 0 = NA := by
  obtain ⟨v, hv⟩ := j; subst hj; exact expect_a0 m t k
theorem payload_a0_at (j : Fin 140) (k : Fin 8) (hj : j.val = 22 + k.val) (d : DD) : (rsRd (F := F) m).payload (cellAt t j) 0 d = pts (sbR k) t fullShare (sb m t) := by
  obtain ⟨v, hv⟩ := j; subst hj; exact payload_a0 m t k d
theorem rest_a0_at (j : Fin 140) (k : Fin 8) (hj : j.val = 22 + k.val) : bigSep ((rsRd (F := F) m).duties (cellAt t j) 0 \ ∅) (fun d => (rsRd (F := F) m).payload (cellAt t j) 0 d) = pts (sbR k) t fullShare (sb m t) := by
  obtain ⟨v, hv⟩ := j; subst hj; exact rest_a0 m t k

theorem duties_a1_at (j : Fin 140) (k : Fin 8) (hj : j.val = 30 + k.val) : (rsRd (F := F) m).duties (cellAt t j) 0 = {0} := by
  obtain ⟨v, hv⟩ := j; subst hj; exact duties_a1 m t k
theorem amount_a1_at (j : Fin 140) (k : Fin 8) (hj : j.val = 30 + k.val) (d : DD) : (rsRd (F := F) m).amount (cellAt t j) 0 d = NA := by
  obtain ⟨v, hv⟩ := j; subst hj; exact amount_a1 m t k d
theorem expect_a1_at (j : Fin 140) (k : Fin 8) (hj : j.val = 30 + k.val) : (rsRd (F := F) m).expect (cellAt t j) 0 = NA := by
  obtain ⟨v, hv⟩ := j; subst hj; exact expect_a1 m t k
theorem payload_a1_at (j : Fin 140) (k : Fin 8) (hj : j.val = 30 + k.val) (d : DD) : (rsRd (F := F) m).payload (cellAt t j) 0 d = pts (rbR k) t fullShare (rb m t) := by
  obtain ⟨v, hv⟩ := j; subst hj; exact payload_a1 m t k d
theorem rest_a1_at (j : Fin 140) (k : Fin 8) (hj : j.val = 30 + k.val) : bigSep ((rsRd (F := F) m).duties (cellAt t j) 0 \ ∅) (fun d => (rsRd (F := F) m).payload (cellAt t j) 0 d) = pts (rbR k) t fullShare (rb m t) := by
  obtain ⟨v, hv⟩ := j; subst hj; exact rest_a1 m t k

theorem duties_a2_at (j : Fin 140) (k : Fin 3) (hj : j.val = 38 + k.val) : (rsRd (F := F) m).duties (cellAt t j) 0 = {0} := by
  obtain ⟨v, hv⟩ := j; subst hj; exact duties_a2 m t k
theorem amount_a2_at (j : Fin 140) (k : Fin 3) (hj : j.val = 38 + k.val) (d : DD) : (rsRd (F := F) m).amount (cellAt t j) 0 d = NA := by
  obtain ⟨v, hv⟩ := j; subst hj; exact amount_a2 m t k d
theorem expect_a2_at (j : Fin 140) (k : Fin 3) (hj : j.val = 38 + k.val) : (rsRd (F := F) m).expect (cellAt t j) 0 = NA := by
  obtain ⟨v, hv⟩ := j; subst hj; exact expect_a2 m t k
theorem payload_a2_at (j : Fin 140) (k : Fin 3) (hj : j.val = 38 + k.val) (d : DD) : (rsRd (F := F) m).payload (cellAt t j) 0 d = pts (sb2R k) t fullShare (sb2 m t) := by
  obtain ⟨v, hv⟩ := j; subst hj; exact payload_a2 m t k d
theorem rest_a2_at (j : Fin 140) (k : Fin 3) (hj : j.val = 38 + k.val) : bigSep ((rsRd (F := F) m).duties (cellAt t j) 0 \ ∅) (fun d => (rsRd (F := F) m).payload (cellAt t j) 0 d) = pts (sb2R k) t fullShare (sb2 m t) := by
  obtain ⟨v, hv⟩ := j; subst hj; exact rest_a2 m t k

theorem duties_a3_at (j : Fin 140) (k : Fin 3) (hj : j.val = 41 + k.val) : (rsRd (F := F) m).duties (cellAt t j) 0 = {0} := by
  obtain ⟨v, hv⟩ := j; subst hj; exact duties_a3 m t k
theorem amount_a3_at (j : Fin 140) (k : Fin 3) (hj : j.val = 41 + k.val) (d : DD) : (rsRd (F := F) m).amount (cellAt t j) 0 d = NA := by
  obtain ⟨v, hv⟩ := j; subst hj; exact amount_a3 m t k d
theorem expect_a3_at (j : Fin 140) (k : Fin 3) (hj : j.val = 41 + k.val) : (rsRd (F := F) m).expect (cellAt t j) 0 = NA := by
  obtain ⟨v, hv⟩ := j; subst hj; exact expect_a3 m t k
theorem payload_a3_at (j : Fin 140) (k : Fin 3) (hj : j.val = 41 + k.val) (d : DD) : (rsRd (F := F) m).payload (cellAt t j) 0 d = pts (rb2R k) t fullShare (rb2 m t) := by
  obtain ⟨v, hv⟩ := j; subst hj; exact payload_a3 m t k d
theorem rest_a3_at (j : Fin 140) (k : Fin 3) (hj : j.val = 41 + k.val) : bigSep ((rsRd (F := F) m).duties (cellAt t j) 0 \ ∅) (fun d => (rsRd (F := F) m).payload (cellAt t j) 0 d) = pts (rb2R k) t fullShare (rb2 m t) := by
  obtain ⟨v, hv⟩ := j; subst hj; exact rest_a3 m t k

theorem duties_a4_at (j : Fin 140) (k : Fin 8) (hj : j.val = 44 + k.val) : (rsRd (F := F) m).duties (cellAt t j) 0 = {0} := by
  obtain ⟨v, hv⟩ := j; subst hj; exact duties_a4 m t k
theorem amount_a4_at (j : Fin 140) (k : Fin 8) (hj : j.val = 44 + k.val) (d : DD) : (rsRd (F := F) m).amount (cellAt t j) 0 d = NA := by
  obtain ⟨v, hv⟩ := j; subst hj; exact amount_a4 m t k d
theorem expect_a4_at (j : Fin 140) (k : Fin 8) (hj : j.val = 44 + k.val) : (rsRd (F := F) m).expect (cellAt t j) 0 = NA := by
  obtain ⟨v, hv⟩ := j; subst hj; exact expect_a4 m t k
theorem payload_a4_at (j : Fin 140) (k : Fin 8) (hj : j.val = 44 + k.val) (d : DD) : (rsRd (F := F) m).payload (cellAt t j) 0 d = pts (r4R (mqF t) k) t shZ (r4 m t) := by
  obtain ⟨v, hv⟩ := j; subst hj; exact payload_a4 m t k d
theorem rest_a4_at (j : Fin 140) (k : Fin 8) (hj : j.val = 44 + k.val) : bigSep ((rsRd (F := F) m).duties (cellAt t j) 0 \ ∅) (fun d => (rsRd (F := F) m).payload (cellAt t j) 0 d) = pts (r4R (mqF t) k) t shZ (r4 m t) := by
  obtain ⟨v, hv⟩ := j; subst hj; exact rest_a4 m t k

theorem duties_a5_at (j : Fin 140) (k : Fin 8) (hj : j.val = 52 + k.val) : (rsRd (F := F) m).duties (cellAt t j) 0 = {0} := by
  obtain ⟨v, hv⟩ := j; subst hj; exact duties_a5 m t k
theorem amount_a5_at (j : Fin 140) (k : Fin 8) (hj : j.val = 52 + k.val) (d : DD) : (rsRd (F := F) m).amount (cellAt t j) 0 d = NA := by
  obtain ⟨v, hv⟩ := j; subst hj; exact amount_a5 m t k d
theorem expect_a5_at (j : Fin 140) (k : Fin 8) (hj : j.val = 52 + k.val) : (rsRd (F := F) m).expect (cellAt t j) 0 = NA := by
  obtain ⟨v, hv⟩ := j; subst hj; exact expect_a5 m t k
theorem payload_a5_at (j : Fin 140) (k : Fin 8) (hj : j.val = 52 + k.val) (d : DD) : (rsRd (F := F) m).payload (cellAt t j) 0 d = pts (r4R (zqF t) k) t fullShare (r4 m t) := by
  obtain ⟨v, hv⟩ := j; subst hj; exact payload_a5 m t k d
theorem rest_a5_at (j : Fin 140) (k : Fin 8) (hj : j.val = 52 + k.val) : bigSep ((rsRd (F := F) m).duties (cellAt t j) 0 \ ∅) (fun d => (rsRd (F := F) m).payload (cellAt t j) 0 d) = pts (r4R (zqF t) k) t fullShare (r4 m t) := by
  obtain ⟨v, hv⟩ := j; subst hj; exact rest_a5 m t k

theorem duties_a6_at (j : Fin 140) (k : Fin 8) (hj : j.val = 60 + k.val) : (rsRd (F := F) m).duties (cellAt t j) 0 = {0} := by
  obtain ⟨v, hv⟩ := j; subst hj; exact duties_a6 m t k
theorem amount_a6_at (j : Fin 140) (k : Fin 8) (hj : j.val = 60 + k.val) (d : DD) : (rsRd (F := F) m).amount (cellAt t j) 0 d = NA := by
  obtain ⟨v, hv⟩ := j; subst hj; exact amount_a6 m t k d
theorem expect_a6_at (j : Fin 140) (k : Fin 8) (hj : j.val = 60 + k.val) : (rsRd (F := F) m).expect (cellAt t j) 0 = NA := by
  obtain ⟨v, hv⟩ := j; subst hj; exact expect_a6 m t k
theorem payload_a6_at (j : Fin 140) (k : Fin 8) (hj : j.val = 60 + k.val) (d : DD) : (rsRd (F := F) m).payload (cellAt t j) 0 d = pts (r4R (mqF t) k) t shY (r4 m t) := by
  obtain ⟨v, hv⟩ := j; subst hj; exact payload_a6 m t k d
theorem rest_a6_at (j : Fin 140) (k : Fin 8) (hj : j.val = 60 + k.val) : bigSep ((rsRd (F := F) m).duties (cellAt t j) 0 \ ∅) (fun d => (rsRd (F := F) m).payload (cellAt t j) 0 d) = pts (r4R (mqF t) k) t shY (r4 m t) := by
  obtain ⟨v, hv⟩ := j; subst hj; exact rest_a6 m t k

theorem duties_a7_at (j : Fin 140) (k : Fin 8) (hj : j.val = 68 + k.val) : (rsRd (F := F) m).duties (cellAt t j) 0 = {0} := by
  obtain ⟨v, hv⟩ := j; subst hj; exact duties_a7 m t k
theorem amount_a7_at (j : Fin 140) (k : Fin 8) (hj : j.val = 68 + k.val) (d : DD) : (rsRd (F := F) m).amount (cellAt t j) 0 d = NA := by
  obtain ⟨v, hv⟩ := j; subst hj; exact amount_a7 m t k d
theorem expect_a7_at (j : Fin 140) (k : Fin 8) (hj : j.val = 68 + k.val) : (rsRd (F := F) m).expect (cellAt t j) 0 = NA := by
  obtain ⟨v, hv⟩ := j; subst hj; exact expect_a7 m t k
theorem payload_a7_at (j : Fin 140) (k : Fin 8) (hj : j.val = 68 + k.val) (d : DD) : (rsRd (F := F) m).payload (cellAt t j) 0 d = pts (r4R (yqF t) k) t fullShare (r4 m t) := by
  obtain ⟨v, hv⟩ := j; subst hj; exact payload_a7 m t k d
theorem rest_a7_at (j : Fin 140) (k : Fin 8) (hj : j.val = 68 + k.val) : bigSep ((rsRd (F := F) m).duties (cellAt t j) 0 \ ∅) (fun d => (rsRd (F := F) m).payload (cellAt t j) 0 d) = pts (r4R (yqF t) k) t fullShare (r4 m t) := by
  obtain ⟨v, hv⟩ := j; subst hj; exact rest_a7 m t k

theorem duties_a8_at (j : Fin 140) (k : Fin 8) (hj : j.val = 76 + k.val) (hk : 3 ≤ k.val) : (rsRd (F := F) m).duties (cellAt t j) 0 = {0} := by
  obtain ⟨v, hv⟩ := j; subst hj; exact duties_a8 m t k hk
theorem amount_a8_at (j : Fin 140) (k : Fin 8) (hj : j.val = 76 + k.val) (hk : 3 ≤ k.val) (d : DD) : (rsRd (F := F) m).amount (cellAt t j) 0 d = NH := by
  obtain ⟨v, hv⟩ := j; subst hj; exact amount_a8 m t k hk d
theorem expect_a8_at (j : Fin 140) (k : Fin 8) (hj : j.val = 76 + k.val) (hk : 3 ≤ k.val) : (rsRd (F := F) m).expect (cellAt t j) 0 = NH := by
  obtain ⟨v, hv⟩ := j; subst hj; exact expect_a8 m t k hk
theorem payload_a8_at (j : Fin 140) (k : Fin 8) (hj : j.val = 76 + k.val) (hk : 3 ≤ k.val) (d : DD) : (rsRd (F := F) m).payload (cellAt t j) 0 d = pts (r4H (yqF t) k 0) t shF (r4 m t) := by
  obtain ⟨v, hv⟩ := j; subst hj; exact payload_a8 m t k hk d
theorem rest_a8_at (j : Fin 140) (k : Fin 8) (hj : j.val = 76 + k.val) (hk : 3 ≤ k.val) : bigSep ((rsRd (F := F) m).duties (cellAt t j) 0 \ ∅) (fun d => (rsRd (F := F) m).payload (cellAt t j) 0 d) = pts (r4H (yqF t) k 0) t shF (r4 m t) := by
  obtain ⟨v, hv⟩ := j; subst hj; exact rest_a8 m t k hk

theorem duties_a9_at (j : Fin 140) (k : Fin 8) (hj : j.val = 84 + k.val) (hk : 3 ≤ k.val) : (rsRd (F := F) m).duties (cellAt t j) 0 = {0} := by
  obtain ⟨v, hv⟩ := j; subst hj; exact duties_a9 m t k hk
theorem amount_a9_at (j : Fin 140) (k : Fin 8) (hj : j.val = 84 + k.val) (hk : 3 ≤ k.val) (d : DD) : (rsRd (F := F) m).amount (cellAt t j) 0 d = NH := by
  obtain ⟨v, hv⟩ := j; subst hj; exact amount_a9 m t k hk d
theorem expect_a9_at (j : Fin 140) (k : Fin 8) (hj : j.val = 84 + k.val) (hk : 3 ≤ k.val) : (rsRd (F := F) m).expect (cellAt t j) 0 = NH := by
  obtain ⟨v, hv⟩ := j; subst hj; exact expect_a9 m t k hk
theorem payload_a9_at (j : Fin 140) (k : Fin 8) (hj : j.val = 84 + k.val) (hk : 3 ≤ k.val) (d : DD) : (rsRd (F := F) m).payload (cellAt t j) 0 d = pts (r4H (dqF t) k 0) t fullShare (r4 m t) := by
  obtain ⟨v, hv⟩ := j; subst hj; exact payload_a9 m t k hk d
theorem rest_a9_at (j : Fin 140) (k : Fin 8) (hj : j.val = 84 + k.val) (hk : 3 ≤ k.val) : bigSep ((rsRd (F := F) m).duties (cellAt t j) 0 \ ∅) (fun d => (rsRd (F := F) m).payload (cellAt t j) 0 d) = pts (r4H (dqF t) k 0) t fullShare (r4 m t) := by
  obtain ⟨v, hv⟩ := j; subst hj; exact rest_a9 m t k hk

theorem duties_a10_at (j : Fin 140) (k : Fin 8) (hj : j.val = 92 + k.val) (hk : 3 ≤ k.val) : (rsRd (F := F) m).duties (cellAt t j) 0 = {0} := by
  obtain ⟨v, hv⟩ := j; subst hj; exact duties_a10 m t k hk
theorem amount_a10_at (j : Fin 140) (k : Fin 8) (hj : j.val = 92 + k.val) (hk : 3 ≤ k.val) (d : DD) : (rsRd (F := F) m).amount (cellAt t j) 0 d = NH := by
  obtain ⟨v, hv⟩ := j; subst hj; exact amount_a10 m t k hk d
theorem expect_a10_at (j : Fin 140) (k : Fin 8) (hj : j.val = 92 + k.val) (hk : 3 ≤ k.val) : (rsRd (F := F) m).expect (cellAt t j) 0 = NH := by
  obtain ⟨v, hv⟩ := j; subst hj; exact expect_a10 m t k hk
theorem payload_a10_at (j : Fin 140) (k : Fin 8) (hj : j.val = 92 + k.val) (hk : 3 ≤ k.val) (d : DD) : (rsRd (F := F) m).payload (cellAt t j) 0 d = pts (r4H (zqF t) k 1) t shF (r4 m t) := by
  obtain ⟨v, hv⟩ := j; subst hj; exact payload_a10 m t k hk d
theorem rest_a10_at (j : Fin 140) (k : Fin 8) (hj : j.val = 92 + k.val) (hk : 3 ≤ k.val) : bigSep ((rsRd (F := F) m).duties (cellAt t j) 0 \ ∅) (fun d => (rsRd (F := F) m).payload (cellAt t j) 0 d) = pts (r4H (zqF t) k 1) t shF (r4 m t) := by
  obtain ⟨v, hv⟩ := j; subst hj; exact rest_a10 m t k hk

theorem duties_a11_at (j : Fin 140) (k : Fin 8) (hj : j.val = 100 + k.val) (hk : 3 ≤ k.val) : (rsRd (F := F) m).duties (cellAt t j) 0 = {0} := by
  obtain ⟨v, hv⟩ := j; subst hj; exact duties_a11 m t k hk
theorem amount_a11_at (j : Fin 140) (k : Fin 8) (hj : j.val = 100 + k.val) (hk : 3 ≤ k.val) (d : DD) : (rsRd (F := F) m).amount (cellAt t j) 0 d = NH := by
  obtain ⟨v, hv⟩ := j; subst hj; exact amount_a11 m t k hk d
theorem expect_a11_at (j : Fin 140) (k : Fin 8) (hj : j.val = 100 + k.val) (hk : 3 ≤ k.val) : (rsRd (F := F) m).expect (cellAt t j) 0 = NH := by
  obtain ⟨v, hv⟩ := j; subst hj; exact expect_a11 m t k hk
theorem payload_a11_at (j : Fin 140) (k : Fin 8) (hj : j.val = 100 + k.val) (hk : 3 ≤ k.val) (d : DD) : (rsRd (F := F) m).payload (cellAt t j) 0 d = pts (r4H (dqF t) k 1) t fullShare (r4 m t) := by
  obtain ⟨v, hv⟩ := j; subst hj; exact payload_a11 m t k hk d
theorem rest_a11_at (j : Fin 140) (k : Fin 8) (hj : j.val = 100 + k.val) (hk : 3 ≤ k.val) : bigSep ((rsRd (F := F) m).duties (cellAt t j) 0 \ ∅) (fun d => (rsRd (F := F) m).payload (cellAt t j) 0 d) = pts (r4H (dqF t) k 1) t fullShare (r4 m t) := by
  obtain ⟨v, hv⟩ := j; subst hj; exact rest_a11 m t k hk

end DmaAt

/-! ## Membership; no cell is unitless -/

section Mem
variable (t : Dev nD)

theorem mem_bar (d : DD) : d ∈ (rsRd (F := F) m).duties (barCell t) 0 := by rw [duties_bar]; exact Finset.mem_univ d
theorem mem_some (j : Fin 140) (h : (kindOf j.val).isSome = true) : (0 : DD) ∈ (rsRd (F := F) m).duties (cellAt t j) 0 := by
  rw [duties_some m t j h]; exact Finset.mem_singleton_self 0
theorem not_unitless (g : GSem nD τ sig) : ¬ (rsRd (F := F) m).unitless g := fun h => h
theorem mem_a0_at (j : Fin 140) (k : Fin 8) (hj : j.val = 22 + k.val) : (0 : DD) ∈ (rsRd (F := F) m).duties (cellAt t j) 0 := by
  rw [duties_a0_at m t j k hj]; exact Finset.mem_singleton_self 0
theorem mem_a1_at (j : Fin 140) (k : Fin 8) (hj : j.val = 30 + k.val) : (0 : DD) ∈ (rsRd (F := F) m).duties (cellAt t j) 0 := by
  rw [duties_a1_at m t j k hj]; exact Finset.mem_singleton_self 0
theorem mem_a2_at (j : Fin 140) (k : Fin 3) (hj : j.val = 38 + k.val) : (0 : DD) ∈ (rsRd (F := F) m).duties (cellAt t j) 0 := by
  rw [duties_a2_at m t j k hj]; exact Finset.mem_singleton_self 0
theorem mem_a3_at (j : Fin 140) (k : Fin 3) (hj : j.val = 41 + k.val) : (0 : DD) ∈ (rsRd (F := F) m).duties (cellAt t j) 0 := by
  rw [duties_a3_at m t j k hj]; exact Finset.mem_singleton_self 0
theorem mem_a4_at (j : Fin 140) (k : Fin 8) (hj : j.val = 44 + k.val) : (0 : DD) ∈ (rsRd (F := F) m).duties (cellAt t j) 0 := by
  rw [duties_a4_at m t j k hj]; exact Finset.mem_singleton_self 0
theorem mem_a5_at (j : Fin 140) (k : Fin 8) (hj : j.val = 52 + k.val) : (0 : DD) ∈ (rsRd (F := F) m).duties (cellAt t j) 0 := by
  rw [duties_a5_at m t j k hj]; exact Finset.mem_singleton_self 0
theorem mem_a6_at (j : Fin 140) (k : Fin 8) (hj : j.val = 60 + k.val) : (0 : DD) ∈ (rsRd (F := F) m).duties (cellAt t j) 0 := by
  rw [duties_a6_at m t j k hj]; exact Finset.mem_singleton_self 0
theorem mem_a7_at (j : Fin 140) (k : Fin 8) (hj : j.val = 68 + k.val) : (0 : DD) ∈ (rsRd (F := F) m).duties (cellAt t j) 0 := by
  rw [duties_a7_at m t j k hj]; exact Finset.mem_singleton_self 0
theorem mem_a8_at (j : Fin 140) (k : Fin 8) (hj : j.val = 76 + k.val) (hk : 3 ≤ k.val) : (0 : DD) ∈ (rsRd (F := F) m).duties (cellAt t j) 0 := by
  rw [duties_a8_at m t j k hj hk]; exact Finset.mem_singleton_self 0
theorem mem_a9_at (j : Fin 140) (k : Fin 8) (hj : j.val = 84 + k.val) (hk : 3 ≤ k.val) : (0 : DD) ∈ (rsRd (F := F) m).duties (cellAt t j) 0 := by
  rw [duties_a9_at m t j k hj hk]; exact Finset.mem_singleton_self 0
theorem mem_a10_at (j : Fin 140) (k : Fin 8) (hj : j.val = 92 + k.val) (hk : 3 ≤ k.val) : (0 : DD) ∈ (rsRd (F := F) m).duties (cellAt t j) 0 := by
  rw [duties_a10_at m t j k hj hk]; exact Finset.mem_singleton_self 0
theorem mem_a11_at (j : Fin 140) (k : Fin 8) (hj : j.val = 100 + k.val) (hk : 3 ≤ k.val) : (0 : DD) ∈ (rsRd (F := F) m).duties (cellAt t j) 0 := by
  rw [duties_a11_at m t j k hj hk]; exact Finset.mem_singleton_self 0

end Mem

/-! ## Credits: what a landing in a chunk adds to its semaphores -/

theorem NA_pos : 0 < NA := View.dmaCredit_pos _ (by decide)
theorem NH_pos : 0 < NH := View.dmaCredit_pos _ (by decide)

theorem credit_sbR (k : Fin 8) : (sbR k).view.dmaCredit = NA := rfl
theorem credit_rbR (k : Fin 8) : (rbR k).view.dmaCredit = NA := rfl
theorem credit_sb2R (k : Fin 3) : (sb2R k).view.dmaCredit = NA := rfl
theorem credit_rb2R (k : Fin 3) : (rb2R k).view.dmaCredit = NA := rfl
theorem credit_r4R (q : Fin 4) (k : Fin 8) : (r4R q k).view.dmaCredit = NA := rfl
theorem credit_r4H (q : Fin 4) (k : Fin 8) (h : Fin 2) : (r4H q k h).view.dmaCredit = NH := rfl

/-- What a landing in the chunk adds on any semaphore of the pool. -/
theorem amount_sbR (k : Fin 8) (j : Fin 140) : (sbR k).view.amount (dsem j) = NA := rfl
theorem amount_rbR (k : Fin 8) (j : Fin 140) : (rbR k).view.amount (dsem j) = NA := rfl
theorem amount_sb2R (k : Fin 3) (j : Fin 140) : (sb2R k).view.amount (dsem j) = NA := rfl
theorem amount_rb2R (k : Fin 3) (j : Fin 140) : (rb2R k).view.amount (dsem j) = NA := rfl
theorem amount_r4R (q : Fin 4) (k : Fin 8) (j : Fin 140) : (r4R q k).view.amount (dsem j) = NA := rfl
theorem amount_r4H (q : Fin 4) (k : Fin 8) (h : Fin 2) (j : Fin 140) : (r4H q k h).view.amount (dsem j) = NH := rfl

/-! ## The tables as rewriting rules, entry on the left -/

attribute [sl_rounds] duties_bar amount_bar expect_bar payload_bar
  duties_a0 amount_a0 expect_a0 payload_a0 duties_a1 amount_a1 expect_a1 payload_a1 duties_a2 amount_a2 expect_a2 payload_a2 duties_a3 amount_a3 expect_a3 payload_a3
  duties_a4 amount_a4 expect_a4 payload_a4 duties_a5 amount_a5 expect_a5 payload_a5 duties_a6 amount_a6 expect_a6 payload_a6 duties_a7 amount_a7 expect_a7 payload_a7
  duties_a8 amount_a8 expect_a8 payload_a8 duties_a9 amount_a9 expect_a9 payload_a9 duties_a10 amount_a10 expect_a10 payload_a10 duties_a11 amount_a11 expect_a11 payload_a11

end Cert.KernelIdeal.RS

end
-- ==== Proof.SendRules.lean ====
import proofs.«901022_g7700000000001023_dist_rs_v7x_xyz2x2x2_x_m4096_n1024_bf16_1_alg».proof.Proof.SchedTab
import Idealize.ShloMosaic.Rules.PointsTo
import Idealize.ShloMosaic.Lib.Pipeline.Value
import Idealize.ShloMosaic.Lib.ValueLayout
import Idealize.ShloMosaic.Lib.Rounds

/-! The rule for a remote chunk copy under the one-round schedule, and what each kind of copy lands.
    A copy reads the source chunk under each index of the chunk's shape and writes it under the same index of the
    destination chunk; source and destination chunks are the same rectangle of buffers of one shape, so on the
    destination chunk's elements the result is the source buffer's contents at the same coordinates — and those are
    the receiver's final contents there (Spec). -/

noncomputable section

namespace Cert.KernelIdeal.RS

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A copy between two views indexed by one shape: on the destination's elements the result is any g that, under
    each index, holds what the source holds under that index. -/
theorem copy_on {κ κ' : Kind} {sp sp' : Space} {s : Shape} {e : EltTy} {Val : EltTy → Type}
    (vs : View sig κ sp s e) (vd : View sig κ' sp' s e) (fs : vs.ty.Contents Val) (fd g : vd.ty.Contents Val)
    (h : ∀ x : s.Idx, g (vd.emb x) = cast (congrArg Val vd.elt_eq.symm) (cast (congrArg Val vs.elt_eq) (fs (vs.emb x)))) :
    ∀ i ∈ vd.set, vd.write Val fd (vs.read Val fs) Finset.univ i = g i := by
  intro i hi
  obtain ⟨x, rfl⟩ := View.exists_emb_of_mem_set vd hi
  rw [View.write_emb_of_mem _ _ (Finset.mem_univ x), View.read_apply, h]

/-- Entry (q, i, j) of the four quarters device t finally holds, by coordinates. -/
def r4v (t : Dev nD) (q i j : ℕ) : F .bf16 :=
  if q = dq t ∧ i < 1536 then cellv m t (dq t) i j else cellv m (ownerOf t q) q i j

theorem r4_eq (t : Dev nD) (y : S4x4096x256.Idx) : r4 m t y = r4v m t (y 0).val (y 1).val (y 2).val := rfl

/-- Off the rows a device adds up itself of its diagonal quarter, an entry is its owner's sum. -/
theorem r4v_owner (t : Dev nD) (q i j : ℕ) (h : q ≠ dq t ∨ 1536 ≤ i) : r4v m t q i j = cellv m (ownerOf t q) q i j := by
  unfold r4v; rw [if_neg]; rintro ⟨h1, h2⟩; rcases h with h | h
  · exact h h1
  · omega

/-- The element of the four-quarter buffer under index x of chunk k of quarter q. -/
theorem r4R_emb (q : Fin 4) (k : Fin 8) (x : S512x256.Idx) :
    (((r4R q k).view.emb x : S4x4096x256.Idx) 0).val = q.val
      ∧ (((r4R q k).view.emb x : S4x4096x256.Idx) 1).val = 512 * k.val + (x 0).val
      ∧ (((r4R q k).view.emb x : S4x4096x256.Idx) 2).val = (x 1).val := by
  obtain ⟨a, b, rfl⟩ : ∃ a b, x = ix2 a b := ⟨x 0, x 1, eq_ix2 x⟩
  show (((Rect.unit (s := S4x4096x256) ![q.val, 512 * k.val, 0] S1x512x256.size (chunk_inb q k)).emb (Shape.reshapeEquiv squeezes_S1x512x256_S512x256.numel_eq (ix2 a b))) 0).val = _
    ∧ (((Rect.unit (s := S4x4096x256) ![q.val, 512 * k.val, 0] S1x512x256.size (chunk_inb q k)).emb (Shape.reshapeEquiv squeezes_S1x512x256_S512x256.numel_eq (ix2 a b))) 1).val = _
    ∧ (((Rect.unit (s := S4x4096x256) ![q.val, 512 * k.val, 0] S1x512x256.size (chunk_inb q k)).emb (Shape.reshapeEquiv squeezes_S1x512x256_S512x256.numel_eq (ix2 a b))) 2).val = _
  rw [reshapeEquiv_ix2_1ab]
  refine ⟨?_, ?_, ?_⟩
  · show q.val + 1 * 0 = q.val; omega
  · show 512 * k.val + 1 * a.val = 512 * k.val + a.val; omega
  · show 0 + 1 * b.val = b.val; omega

theorem r4H_emb (q : Fin 4) (k : Fin 8) (h : Fin 2) (x : S512x128.Idx) :
    (((r4H q k h).view.emb x : S4x4096x256.Idx) 0).val = q.val
      ∧ (((r4H q k h).view.emb x : S4x4096x256.Idx) 1).val = 512 * k.val + (x 0).val
      ∧ (((r4H q k h).view.emb x : S4x4096x256.Idx) 2).val = 128 * h.val + (x 1).val := by
  obtain ⟨a, b, rfl⟩ : ∃ a b, x = ix2 a b := ⟨x 0, x 1, eq_ix2 x⟩
  show (((Rect.unit (s := S4x4096x256) ![q.val, 512 * k.val, 128 * h.val] S1x512x128.size (half_inb q k h)).emb (Shape.reshapeEquiv squeezes_S1x512x128_S512x128.numel_eq (ix2 a b))) 0).val = _
    ∧ (((Rect.unit (s := S4x4096x256) ![q.val, 512 * k.val, 128 * h.val] S1x512x128.size (half_inb q k h)).emb (Shape.reshapeEquiv squeezes_S1x512x128_S512x128.numel_eq (ix2 a b))) 1).val = _
    ∧ (((Rect.unit (s := S4x4096x256) ![q.val, 512 * k.val, 128 * h.val] S1x512x128.size (half_inb q k h)).emb (Shape.reshapeEquiv squeezes_S1x512x128_S512x128.numel_eq (ix2 a b))) 2).val = _
  rw [reshapeEquiv_ix2_1ab]
  refine ⟨?_, ?_, ?_⟩
  · show q.val + 1 * 0 = q.val; omega
  · show 512 * k.val + 1 * a.val = 512 * k.val + a.val; omega
  · show 128 * h.val + 1 * b.val = 128 * h.val + b.val; omega

/-- What a device holds under index x of a chunk, and of a half chunk, of its four-quarter buffer. -/
theorem r4_r4R (t : Dev nD) (q : Fin 4) (k : Fin 8) (x : S512x256.Idx) :
    r4 m t ((r4R q k).view.emb x) = r4v m t q.val (512 * k.val + (x 0).val) (x 1).val := by
  obtain ⟨h0, h1, h2⟩ := r4R_emb q k x
  exact (r4_eq m t _).trans (by rw [h0, h1, h2])

theorem r4_r4H (t : Dev nD) (q : Fin 4) (k : Fin 8) (h : Fin 2) (x : S512x128.Idx) :
    r4 m t ((r4H q k h).view.emb x) = r4v m t q.val (512 * k.val + (x 0).val) (128 * h.val + (x 1).val) := by
  obtain ⟨h0, h1, h2⟩ := r4H_emb q k h x
  exact (r4_eq m t _).trans (by rw [h0, h1, h2])

/-! ## What lands, per kind of copy: on the destination chunk's elements, the receiver's final contents -/

/-- Who adds up which quarter, seen from a device and from its two neighbours in the (y, z) plane. -/
theorem own_mq (c : Dev nD) : ownerOf c (mq c) = c := by revert c; decide
theorem own_pz_mq (c : Dev nD) : ownerOf (pz c) (mq c) = c := by revert c; decide
theorem own_py_mq (c : Dev nD) : ownerOf (py c) (mq c) = c := by revert c; decide
theorem own_yq (c : Dev nD) : ownerOf c (yq c) = py c := by revert c; decide
theorem own_pz_yq (c : Dev nD) : ownerOf (pz c) (yq c) = py c := by revert c; decide
theorem own_zq (c : Dev nD) : ownerOf c (zq c) = pz c := by revert c; decide
theorem own_py_zq (c : Dev nD) : ownerOf (py c) (zq c) = pz c := by revert c; decide
theorem mq_ne_dq_pz (c : Dev nD) : mq c ≠ dq (pz c) := by revert c; decide
theorem mq_ne_dq_py (c : Dev nD) : mq c ≠ dq (py c) := by revert c; decide

/-- The quarters as indices, across a neighbour. -/
theorem zqF_pz (c : Dev nD) : zqF (pz c) = mqF c := Fin.ext (zq_pz c)
theorem yqF_py (c : Dev nD) : yqF (py c) = mqF c := Fin.ext (yq_py c)
theorem dqF_pz (c : Dev nD) : dqF (pz c) = yqF c := Fin.ext (dq_pz c)
theorem dqF_py (c : Dev nD) : dqF (py c) = zqF c := Fin.ext (dq_py c)

/-- Across x: chunk k of the travelling buffer lands as chunk k of the neighbour's landing buffer. -/
theorem land_x (c : Dev nD) (k : Fin 8) (fd : Buf (Elt F) ((rbR k).view.loc (px c : Thread nD τ))) :
    ∀ i ∈ (rbR k).view.set, (rbR k).view.write (Elt F) fd ((sbR k).view.read (Elt F) (sb m c)) Finset.univ i = rb m (px c) i := by
  refine copy_on (sbR k).view (rbR k).view (sb m c) fd (rb m (px c)) (fun x => ?_)
  show rb m (px c) ((rbR k).view.emb x) = sb m c ((sbR k).view.emb x)
  unfold rb; rw [px_px]; rfl

/-- The same for the three-chunk siblings. -/
theorem land_x2 (c : Dev nD) (k : Fin 3) (fd : Buf (Elt F) ((rb2R k).view.loc (px c : Thread nD τ))) :
    ∀ i ∈ (rb2R k).view.set, (rb2R k).view.write (Elt F) fd ((sb2R k).view.read (Elt F) (sb2 m c)) Finset.univ i = rb2 m (px c) i := by
  refine copy_on (sb2R k).view (rb2R k).view (sb2 m c) fd (rb2 m (px c)) (fun x => ?_)
  show rb2 m (px c) ((rb2R k).view.emb x) = sb2 m c ((sb2R k).view.emb x)
  unfold rb2; rw [px_px]; rfl

/-- Across z: a device's own quarter is the quarter its z-neighbour holds for it. -/
theorem land_z (c : Dev nD) (k : Fin 8) (fd : Buf (Elt F) ((r4R (mqF c) k).view.loc (pz c : Thread nD τ))) :
    ∀ i ∈ (r4R (mqF c) k).view.set,
      (r4R (mqF c) k).view.write (Elt F) fd ((r4R (mqF c) k).view.read (Elt F) (r4 m c)) Finset.univ i = r4 m (pz c) i := by
  refine copy_on (r4R (mqF c) k).view (r4R (mqF c) k).view (r4 m c) fd (r4 m (pz c)) (fun x => ?_)
  show r4 m (pz c) ((r4R (mqF c) k).view.emb x) = r4 m c ((r4R (mqF c) k).view.emb x)
  rw [r4_r4R, r4_r4R]
  show r4v m (pz c) (mq c) _ _ = r4v m c (mq c) _ _
  rw [r4v_owner m (pz c) _ _ _ (Or.inl (mq_ne_dq_pz c)), r4v_owner m c _ _ _ (Or.inl (quarters c).2.2.1)]
  show cellv m (ownerOf (pz c) (mq c)) _ _ _ = cellv m (ownerOf c (mq c)) _ _ _
  rw [own_pz_mq, own_mq]

/-- Across y likewise. -/
theorem land_y (c : Dev nD) (k : Fin 8) (fd : Buf (Elt F) ((r4R (mqF c) k).view.loc (py c : Thread nD τ))) :
    ∀ i ∈ (r4R (mqF c) k).view.set,
      (r4R (mqF c) k).view.write (Elt F) fd ((r4R (mqF c) k).view.read (Elt F) (r4 m c)) Finset.univ i = r4 m (py c) i := by
  refine copy_on (r4R (mqF c) k).view (r4R (mqF c) k).view (r4 m c) fd (r4 m (py c)) (fun x => ?_)
  show r4 m (py c) ((r4R (mqF c) k).view.emb x) = r4 m c ((r4R (mqF c) k).view.emb x)
  rw [r4_r4R, r4_r4R]
  show r4v m (py c) (mq c) _ _ = r4v m c (mq c) _ _
  rw [r4v_owner m (py c) _ _ _ (Or.inl (mq_ne_dq_py c)), r4v_owner m c _ _ _ (Or.inl (quarters c).2.2.1)]
  show cellv m (ownerOf (py c) (mq c)) _ _ _ = cellv m (ownerOf c (mq c)) _ _ _
  rw [own_py_mq, own_mq]

/-- Forwarded through z: the left half of a chunk (rows from 1536 on) of the y-neighbour's quarter is, at the
    z-neighbour, the left half of that chunk of its diagonal quarter. -/
theorem land_zf (c : Dev nD) (k : Fin 8) (hk : 3 ≤ k.val) (fd : Buf (Elt F) ((r4H (yqF c) k 0).view.loc (pz c : Thread nD τ))) :
    ∀ i ∈ (r4H (yqF c) k 0).view.set,
      (r4H (yqF c) k 0).view.write (Elt F) fd ((r4H (yqF c) k 0).view.read (Elt F) (r4 m c)) Finset.univ i = r4 m (pz c) i := by
  refine copy_on (r4H (yqF c) k 0).view (r4H (yqF c) k 0).view (r4 m c) fd (r4 m (pz c)) (fun x => ?_)
  show r4 m (pz c) ((r4H (yqF c) k 0).view.emb x) = r4 m c ((r4H (yqF c) k 0).view.emb x)
  rw [r4_r4H, r4_r4H, r4v_owner m (pz c) _ _ _ (Or.inr (by omega)), r4v_owner m c _ _ _ (Or.inr (by omega))]
  show cellv m (ownerOf (pz c) (yq c)) _ _ _ = cellv m (ownerOf c (yq c)) _ _ _
  rw [own_pz_yq, own_yq]

/-- Forwarded through y: the right half of a chunk of the z-neighbour's quarter likewise. -/
theorem land_yf (c : Dev nD) (k : Fin 8) (hk : 3 ≤ k.val) (fd : Buf (Elt F) ((r4H (zqF c) k 1).view.loc (py c : Thread nD τ))) :
    ∀ i ∈ (r4H (zqF c) k 1).view.set,
      (r4H (zqF c) k 1).view.write (Elt F) fd ((r4H (zqF c) k 1).view.read (Elt F) (r4 m c)) Finset.univ i = r4 m (py c) i := by
  refine copy_on (r4H (zqF c) k 1).view (r4H (zqF c) k 1).view (r4 m c) fd (r4 m (py c)) (fun x => ?_)
  show r4 m (py c) ((r4H (zqF c) k 1).view.emb x) = r4 m c ((r4H (zqF c) k 1).view.emb x)
  rw [r4_r4H, r4_r4H, r4v_owner m (py c) _ _ _ (Or.inr (by omega)), r4v_owner m c _ _ _ (Or.inr (by omega))]
  show cellv m (ownerOf (py c) (zq c)) _ _ _ = cellv m (ownerOf c (zq c)) _ _ _
  rw [own_py_zq, own_zq]

/-- The library's rule for an addressed copy at this protocol's cells: sender c, receiver n = p (substituted), source
    chunk src lent at share q, destination chunk dst on p owned outright; one duty on the sender's cell js and one on the
    receiver's cell jr, both of the chunk's credit N. -/
theorem send_chunk {s : Shape} {e : EltTy} (c n p : Dev nD) (hn : n = p)
    (src dst : Memref sig .tc .vmem s e) (js jr : Fin 140)
    {hsc : (dst : Memref sig (Dev.tc n : Thread nD τ).2.kind .vmem s e).view.ref.isScScratch = false}
    {hsrc : src.view.WordExact} {hdst : dst.view.WordExact}
    {hsem : DmaTarget.Typed .vmem (.dma jr) (.remote (Dev.tc n : Thread nD τ) dst (.dma js) hsc)}
    {α : Type} {Q : α → sProp 𝕄} {k : PUnit → Prog (TpuEff nD τ sig (Elt F) Λ₀ .tc) α}
    {q : PosShare TreeShare} (fs : Buf (Elt F) (src.view.loc (c : Thread nD τ))) (fd : Buf (Elt F) (dst.view.loc (p : Thread nD τ)))
    {κ₁ κ₂ : ℕ} (N : ℕ) (hN : dst.view.dmaCredit = N)
    (hd₁ : (0 : DD) ∈ (rsRd m).duties (cellAt c js) 0) (hd₂ : (0 : DD) ∈ (rsRd m).duties (cellAt p jr) 0)
    (hk₁ : (rsRd m).amount (cellAt c js) 0 0 = N) (hk₂ : (rsRd m).amount (cellAt p jr) 0 0 = N)
    {O₀ : CellTallies nD τ sig Unit} (O : CellTallies nD τ sig Unit) (hO : O₀ = O + tallyAt (cellAt p jr) () N) (W : Waits sig Unit)
    (hpay₁ : pts src c q fs ⊢ (rsRd m).payload (cellAt c js) 0 0)
    (hpay₂ : pts dst p fullShare (dst.view.write (Elt F) fd (src.view.read (Elt F) fs) Finset.univ) ⊢ (rsRd m).payload (cellAt p jr) 0 0) :
    iprop(cellInv ER (rsRd m) κ₁ (cellAt c js) ∗ cellInv ER (rsRd m) κ₂ (cellAt p jr)
        ∗ pts src c q fs ∗ pts dst p fullShare fd
        ∗ owes (c : Thread nD τ) O₀ W
        ∗ dutyTok ER (cellAt c js) 0 0 ∗ reached ER (cellAt c js) 0
        ∗ dutyTok ER (cellAt p jr) 0 0 ∗ reached ER (cellAt p jr) 0)
      ⊢ iprop(((cred (tallyAt (cellAt c js) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma js) hsc) (.dma jr) hsrc hdst hsem) k) Q) := by
  subst hn
  exact Rounds.wp_send_pointsTo 𝒱₀ ER (rsRd m) (c : Thread nD τ) none (κ₁ := κ₁) (κ₂ := κ₂)
    (r₁ := 0) (r₂ := 0) (d₁ := 0) (d₂ := 0) (fd := fd) hd₁ hd₂ () () N hN hk₁ hk₂ O hO (W := W) hpay₁ hpay₂

/-! ## The six kinds of copy -/

/-- The places in the pool of DMA semaphores of chunk k's send and receive semaphores, array by array. -/
abbrev jXS (k : Fin 8) : Fin 140 := ⟨22 + k.val, by omega⟩
abbrev jXR (k : Fin 8) : Fin 140 := ⟨30 + k.val, by omega⟩
abbrev jX2S (k : Fin 3) : Fin 140 := ⟨38 + k.val, by omega⟩
abbrev jX2R (k : Fin 3) : Fin 140 := ⟨41 + k.val, by omega⟩
abbrev jZS (k : Fin 8) : Fin 140 := ⟨44 + k.val, by omega⟩
abbrev jZR (k : Fin 8) : Fin 140 := ⟨52 + k.val, by omega⟩
abbrev jYS (k : Fin 8) : Fin 140 := ⟨60 + k.val, by omega⟩
abbrev jYR (k : Fin 8) : Fin 140 := ⟨68 + k.val, by omega⟩
abbrev jZFS (k : Fin 8) : Fin 140 := ⟨76 + k.val, by omega⟩
abbrev jZFR (k : Fin 8) : Fin 140 := ⟨84 + k.val, by omega⟩
abbrev jYFS (k : Fin 8) : Fin 140 := ⟨92 + k.val, by omega⟩
abbrev jYFR (k : Fin 8) : Fin 140 := ⟨100 + k.val, by omega⟩

theorem mem_zero_of_eq {S : Finset DD} (h : S = {0}) : (0 : DD) ∈ S := h ▸ Finset.mem_singleton_self _

/-- Across x: chunk k of the travelling buffer, lent whole, into chunk k of the neighbour's landing buffer. -/
theorem send_x (c n : Dev nD) (hn : n = px c) (k : Fin 8)
    {hsc : (rbR k : Memref sig (Dev.tc n : Thread nD τ).2.kind .vmem _ .bf16).view.ref.isScScratch = false}
    {hsrc : (sbR k).view.WordExact} {hdst : (rbR k).view.WordExact}
    {hsem : DmaTarget.Typed .vmem (.dma (jXR k)) (.remote (Dev.tc n : Thread nD τ) (rbR k) (.dma (jXS k)) hsc)}
    {α : Type} {Q : α → sProp 𝕄} {k' : PUnit → Prog (TpuEff nD τ sig (Elt F) Λ₀ .tc) α}
    (fd : Buf (Elt F) ((rbR k).view.loc (px c : Thread nD τ))) {κ₁ κ₂ : ℕ}
    {O₀ : CellTallies nD τ sig Unit} (O : CellTallies nD τ sig Unit) (hO : O₀ = O + tallyAt (cellAt (px c) (jXR k)) () NA) (W : Waits sig Unit) :
    iprop(cellInv ER (rsRd m) κ₁ (cellAt c (jXS k)) ∗ cellInv ER (rsRd m) κ₂ (cellAt (px c) (jXR k))
        ∗ pts (sbR k) c fullShare (sb m c) ∗ pts (rbR k) (px c) fullShare fd
        ∗ owes (c : Thread nD τ) O₀ W
        ∗ dutyTok ER (cellAt c (jXS k)) 0 0 ∗ reached ER (cellAt c (jXS k)) 0
        ∗ dutyTok ER (cellAt (px c) (jXR k)) 0 0 ∗ reached ER (cellAt (px c) (jXR k)) 0)
      ⊢ iprop(((cred (tallyAt (cellAt c (jXS k)) () NA) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (sbR k) (.remote (Dev.tc n : Thread nD τ) (rbR k) (.dma (jXS k)) hsc) (.dma (jXR k)) hsrc hdst hsem) k') Q) := by
  have hp₂ := payload_a1 m (px c) k 0
  exact send_chunk m c n (px c) hn (sbR k) (rbR k) (jXS k) (jXR k) (sb m c) fd NA rfl
    (mem_zero_of_eq (duties_a0 m c k)) (mem_zero_of_eq (duties_a1 m (px c) k))
    (amount_a0 m c k 0) (amount_a1 m (px c) k 0) O hO W
    (Entails.of_eq (payload_a0 m c k 0).symm)
    (Entails.of_eq ((pointsTo_congr (land_x m c k fd)).trans hp₂.symm))

/-- The same for the three-chunk siblings. -/
theorem send_x2 (c n : Dev nD) (hn : n = px c) (k : Fin 3)
    {hsc : (rb2R k : Memref sig (Dev.tc n : Thread nD τ).2.kind .vmem _ .bf16).view.ref.isScScratch = false}
    {hsrc : (sb2R k).view.WordExact} {hdst : (rb2R k).view.WordExact}
    {hsem : DmaTarget.Typed .vmem (.dma (jX2R k)) (.remote (Dev.tc n : Thread nD τ) (rb2R k) (.dma (jX2S k)) hsc)}
    {α : Type} {Q : α → sProp 𝕄} {k' : PUnit → Prog (TpuEff nD τ sig (Elt F) Λ₀ .tc) α}
    (fd : Buf (Elt F) ((rb2R k).view.loc (px c : Thread nD τ))) {κ₁ κ₂ : ℕ}
    {O₀ : CellTallies nD τ sig Unit} (O : CellTallies nD τ sig Unit) (hO : O₀ = O + tallyAt (cellAt (px c) (jX2R k)) () NA) (W : Waits sig Unit) :
    iprop(cellInv ER (rsRd m) κ₁ (cellAt c (jX2S k)) ∗ cellInv ER (rsRd m) κ₂ (cellAt (px c) (jX2R k))
        ∗ pts (sb2R k) c fullShare (sb2 m c) ∗ pts (rb2R k) (px c) fullShare fd
        ∗ owes (c : Thread nD τ) O₀ W
        ∗ dutyTok ER (cellAt c (jX2S k)) 0 0 ∗ reached ER (cellAt c (jX2S k)) 0
        ∗ dutyTok ER (cellAt (px c) (jX2R k)) 0 0 ∗ reached ER (cellAt (px c) (jX2R k)) 0)
      ⊢ iprop(((cred (tallyAt (cellAt c (jX2S k)) () NA) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (sb2R k) (.remote (Dev.tc n : Thread nD τ) (rb2R k) (.dma (jX2S k)) hsc) (.dma (jX2R k)) hsrc hdst hsem) k') Q) := by
  have hp₂ := payload_a3 m (px c) k 0
  exact send_chunk m c n (px c) hn (sb2R k) (rb2R k) (jX2S k) (jX2R k) (sb2 m c) fd NA rfl
    (mem_zero_of_eq (duties_a2 m c k)) (mem_zero_of_eq (duties_a3 m (px c) k))
    (amount_a2 m c k 0) (amount_a3 m (px c) k 0) O hO W
    (Entails.of_eq (payload_a2 m c k 0).symm)
    (Entails.of_eq ((pointsTo_congr (land_x2 m c k fd)).trans hp₂.symm))

/-- Across z: chunk k of a device's own quarter, lent at the z share, into the same chunk of the quarter its z-neighbour keeps for it. -/
theorem send_z (c n : Dev nD) (hn : n = pz c) (k : Fin 8)
    {hsc : (r4R (mqF c) k : Memref sig (Dev.tc n : Thread nD τ).2.kind .vmem _ .bf16).view.ref.isScScratch = false}
    {hsrc : (r4R (mqF c) k).view.WordExact} {hdst : (r4R (mqF c) k).view.WordExact}
    {hsem : DmaTarget.Typed .vmem (.dma (jZR k)) (.remote (Dev.tc n : Thread nD τ) (r4R (mqF c) k) (.dma (jZS k)) hsc)}
    {α : Type} {Q : α → sProp 𝕄} {k' : PUnit → Prog (TpuEff nD τ sig (Elt F) Λ₀ .tc) α}
    (fd : Buf (Elt F) ((r4R (mqF c) k).view.loc (pz c : Thread nD τ))) {κ₁ κ₂ : ℕ}
    {O₀ : CellTallies nD τ sig Unit} (O : CellTallies nD τ sig Unit) (hO : O₀ = O + tallyAt (cellAt (pz c) (jZR k)) () NA) (W : Waits sig Unit) :
    iprop(cellInv ER (rsRd m) κ₁ (cellAt c (jZS k)) ∗ cellInv ER (rsRd m) κ₂ (cellAt (pz c) (jZR k))
        ∗ pts (r4R (mqF c) k) c shZ (r4 m c) ∗ pts (r4R (mqF c) k) (pz c) fullShare fd
        ∗ owes (c : Thread nD τ) O₀ W
        ∗ dutyTok ER (cellAt c (jZS k)) 0 0 ∗ reached ER (cellAt c (jZS k)) 0
        ∗ dutyTok ER (cellAt (pz c) (jZR k)) 0 0 ∗ reached ER (cellAt (pz c) (jZR k)) 0)
      ⊢ iprop(((cred (tallyAt (cellAt c (jZS k)) () NA) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (r4R (mqF c) k) (.remote (Dev.tc n : Thread nD τ) (r4R (mqF c) k) (.dma (jZS k)) hsc) (.dma (jZR k)) hsrc hdst hsem) k') Q) := by
  have hp₂ := payload_a5 m (pz c) k 0
  rw [zqF_pz] at hp₂
  exact send_chunk m c n (pz c) hn (r4R (mqF c) k) (r4R (mqF c) k) (jZS k) (jZR k) (r4 m c) fd NA rfl
    (mem_zero_of_eq (duties_a4 m c k)) (mem_zero_of_eq (duties_a5 m (pz c) k))
    (amount_a4 m c k 0) (amount_a5 m (pz c) k 0) O hO W
    (Entails.of_eq (payload_a4 m c k 0).symm)
    (Entails.of_eq ((pointsTo_congr (land_z m c k fd)).trans hp₂.symm))

/-- Across y likewise, at the y share. -/
theorem send_y (c n : Dev nD) (hn : n = py c) (k : Fin 8)
    {hsc : (r4R (mqF c) k : Memref sig (Dev.tc n : Thread nD τ).2.kind .vmem _ .bf16).view.ref.isScScratch = false}
    {hsrc : (r4R (mqF c) k).view.WordExact} {hdst : (r4R (mqF c) k).view.WordExact}
    {hsem : DmaTarget.Typed .vmem (.dma (jYR k)) (.remote (Dev.tc n : Thread nD τ) (r4R (mqF c) k) (.dma (jYS k)) hsc)}
    {α : Type} {Q : α → sProp 𝕄} {k' : PUnit → Prog (TpuEff nD τ sig (Elt F) Λ₀ .tc) α}
    (fd : Buf (Elt F) ((r4R (mqF c) k).view.loc (py c : Thread nD τ))) {κ₁ κ₂ : ℕ}
    {O₀ : CellTallies nD τ sig Unit} (O : CellTallies nD τ sig Unit) (hO : O₀ = O + tallyAt (cellAt (py c) (jYR k)) () NA) (W : Waits sig Unit) :
    iprop(cellInv ER (rsRd m) κ₁ (cellAt c (jYS k)) ∗ cellInv ER (rsRd m) κ₂ (cellAt (py c) (jYR k))
        ∗ pts (r4R (mqF c) k) c shY (r4 m c) ∗ pts (r4R (mqF c) k) (py c) fullShare fd
        ∗ owes (c : Thread nD τ) O₀ W
        ∗ dutyTok ER (cellAt c (jYS k)) 0 0 ∗ reached ER (cellAt c (jYS k)) 0
        ∗ dutyTok ER (cellAt (py c) (jYR k)) 0 0 ∗ reached ER (cellAt (py c) (jYR k)) 0)
      ⊢ iprop(((cred (tallyAt (cellAt c (jYS k)) () NA) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (r4R (mqF c) k) (.remote (Dev.tc n : Thread nD τ) (r4R (mqF c) k) (.dma (jYS k)) hsc) (.dma (jYR k)) hsrc hdst hsem) k') Q) := by
  have hp₂ := payload_a7 m (py c) k 0
  rw [yqF_py] at hp₂
  exact send_chunk m c n (py c) hn (r4R (mqF c) k) (r4R (mqF c) k) (jYS k) (jYR k) (r4 m c) fd NA rfl
    (mem_zero_of_eq (duties_a6 m c k)) (mem_zero_of_eq (duties_a7 m (py c) k))
    (amount_a6 m c k 0) (amount_a7 m (py c) k 0) O hO W
    (Entails.of_eq (payload_a6 m c k 0).symm)
    (Entails.of_eq ((pointsTo_congr (land_y m c k fd)).trans hp₂.symm))

/-- Forwarded through z: the left half of chunk k ≥ 3 of the y-neighbour's quarter, lent at the forward share, into the z-neighbour's diagonal quarter. -/
theorem send_zf (c n : Dev nD) (hn : n = pz c) (k : Fin 8) (hk : 3 ≤ k.val)
    {hsc : (r4H (yqF c) k 0 : Memref sig (Dev.tc n : Thread nD τ).2.kind .vmem _ .bf16).view.ref.isScScratch = false}
    {hsrc : (r4H (yqF c) k 0).view.WordExact} {hdst : (r4H (yqF c) k 0).view.WordExact}
    {hsem : DmaTarget.Typed .vmem (.dma (jZFR k)) (.remote (Dev.tc n : Thread nD τ) (r4H (yqF c) k 0) (.dma (jZFS k)) hsc)}
    {α : Type} {Q : α → sProp 𝕄} {k' : PUnit → Prog (TpuEff nD τ sig (Elt F) Λ₀ .tc) α}
    (fd : Buf (Elt F) ((r4H (yqF c) k 0).view.loc (pz c : Thread nD τ))) {κ₁ κ₂ : ℕ}
    {O₀ : CellTallies nD τ sig Unit} (O : CellTallies nD τ sig Unit) (hO : O₀ = O + tallyAt (cellAt (pz c) (jZFR k)) () NH) (W : Waits sig Unit) :
    iprop(cellInv ER (rsRd m) κ₁ (cellAt c (jZFS k)) ∗ cellInv ER (rsRd m) κ₂ (cellAt (pz c) (jZFR k))
        ∗ pts (r4H (yqF c) k 0) c shF (r4 m c) ∗ pts (r4H (yqF c) k 0) (pz c) fullShare fd
        ∗ owes (c : Thread nD τ) O₀ W
        ∗ dutyTok ER (cellAt c (jZFS k)) 0 0 ∗ reached ER (cellAt c (jZFS k)) 0
        ∗ dutyTok ER (cellAt (pz c) (jZFR k)) 0 0 ∗ reached ER (cellAt (pz c) (jZFR k)) 0)
      ⊢ iprop(((cred (tallyAt (cellAt c (jZFS k)) () NH) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (r4H (yqF c) k 0) (.remote (Dev.tc n : Thread nD τ) (r4H (yqF c) k 0) (.dma (jZFS k)) hsc) (.dma (jZFR k)) hsrc hdst hsem) k') Q) := by
  have hp₂ := payload_a9 m (pz c) k hk 0
  rw [dqF_pz] at hp₂
  exact send_chunk m c n (pz c) hn (r4H (yqF c) k 0) (r4H (yqF c) k 0) (jZFS k) (jZFR k) (r4 m c) fd NH rfl
    (mem_zero_of_eq (duties_a8 m c k hk)) (mem_zero_of_eq (duties_a9 m (pz c) k hk))
    (amount_a8 m c k hk 0) (amount_a9 m (pz c) k hk 0) O hO W
    (Entails.of_eq (payload_a8 m c k hk 0).symm)
    (Entails.of_eq ((pointsTo_congr (land_zf m c k hk fd)).trans hp₂.symm))

/-- Forwarded through y: the right half of chunk k ≥ 3 of the z-neighbour's quarter likewise. -/
theorem send_yf (c n : Dev nD) (hn : n = py c) (k : Fin 8) (hk : 3 ≤ k.val)
    {hsc : (r4H (zqF c) k 1 : Memref sig (Dev.tc n : Thread nD τ).2.kind .vmem _ .bf16).view.ref.isScScratch = false}
    {hsrc : (r4H (zqF c) k 1).view.WordExact} {hdst : (r4H (zqF c) k 1).view.WordExact}
    {hsem : DmaTarget.Typed .vmem (.dma (jYFR k)) (.remote (Dev.tc n : Thread nD τ) (r4H (zqF c) k 1) (.dma (jYFS k)) hsc)}
    {α : Type} {Q : α → sProp 𝕄} {k' : PUnit → Prog (TpuEff nD τ sig (Elt F) Λ₀ .tc) α}
    (fd : Buf (Elt F) ((r4H (zqF c) k 1).view.loc (py c : Thread nD τ))) {κ₁ κ₂ : ℕ}
    {O₀ : CellTallies nD τ sig Unit} (O : CellTallies nD τ sig Unit) (hO : O₀ = O + tallyAt (cellAt (py c) (jYFR k)) () NH) (W : Waits sig Unit) :
    iprop(cellInv ER (rsRd m) κ₁ (cellAt c (jYFS k)) ∗ cellInv ER (rsRd m) κ₂ (cellAt (py c) (jYFR k))
        ∗ pts (r4H (zqF c) k 1) c shF (r4 m c) ∗ pts (r4H (zqF c) k 1) (py c) fullShare fd
        ∗ owes (c : Thread nD τ) O₀ W
        ∗ dutyTok ER (cellAt c (jYFS k)) 0 0 ∗ reached ER (cellAt c (jYFS k)) 0
        ∗ dutyTok ER (cellAt (py c) (jYFR k)) 0 0 ∗ reached ER (cellAt (py c) (jYFR k)) 0)
      ⊢ iprop(((cred (tallyAt (cellAt c (jYFS k)) () NH) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (r4H (zqF c) k 1) (.remote (Dev.tc n : Thread nD τ) (r4H (zqF c) k 1) (.dma (jYFS k)) hsc) (.dma (jYFR k)) hsrc hdst hsem) k') Q) := by
  have hp₂ := payload_a11 m (py c) k hk 0
  rw [dqF_py] at hp₂
  exact send_chunk m c n (py c) hn (r4H (zqF c) k 1) (r4H (zqF c) k 1) (jYFS k) (jYFR k) (r4 m c) fd NH rfl
    (mem_zero_of_eq (duties_a10 m c k hk)) (mem_zero_of_eq (duties_a11 m (py c) k hk))
    (amount_a10 m c k hk 0) (amount_a11 m (py c) k hk 0) O hO W
    (Entails.of_eq (payload_a10 m c k hk 0).symm)
    (Entails.of_eq ((pointsTo_congr (land_yf m c k hk fd)).trans hp₂.symm))

end Cert.KernelIdeal.RS

end
-- ==== Proof.SendAt.lean ====
import proofs.«901022_g7700000000001023_dist_rs_v7x_xyz2x2x2_x_m4096_n1024_bf16_1_alg».proof.Proof.SendRules
import Idealize.ShloMosaic.Lib.Pipeline.Value
import Idealize.ShloMosaic.Lib.ValueLayout
import Idealize.ShloMosaic.Lib.Rounds

/-! The remote copies of the four-quarter buffer and the barrier signals, in the spelling the program has them:
    a chunk written as the slab at the offsets the program computes from the device's number, a neighbour written
    as the program's device chain, the signalled amount as the word the program passes. Each is the plain rule
    after the offsets, the device and the amount are replaced by what they equal. -/

noncomputable section

namespace Cert.KernelIdeal.RS

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The copies of the four-quarter buffer, with the chunk named by the offsets the program computes -/

/-- The copy of chunk k of a device's own quarter across z, the chunk written as the slab at offsets off with its leading axis dropped. -/
theorem send_z_at (c n : Dev nD) (hn : n = pz c) (k : Fin 8) (off : Fin 3 → ℕ)
    (inb : ∀ a, off a + S1x512x256.size a ≤ S4x4096x256.size a) (h : off = ![mq c, 512 * k.val, 0])
    {hsc : (((Memref.whole cc0_scratch0 : Memref sig .tc .vmem S4x4096x256 .bf16).slice (Rect.unit (s := S4x4096x256) off S1x512x256.size inb) (fun _ => rfl)).squeeze S512x256 squeezes_S1x512x256_S512x256 : Memref sig (Dev.tc n : Thread nD τ).2.kind .vmem _ .bf16).view.ref.isScScratch = false}
    {hsrc : (((Memref.whole cc0_scratch0 : Memref sig .tc .vmem S4x4096x256 .bf16).slice (Rect.unit (s := S4x4096x256) off S1x512x256.size inb) (fun _ => rfl)).squeeze S512x256 squeezes_S1x512x256_S512x256).view.WordExact} {hdst : (((Memref.whole cc0_scratch0 : Memref sig .tc .vmem S4x4096x256 .bf16).slice (Rect.unit (s := S4x4096x256) off S1x512x256.size inb) (fun _ => rfl)).squeeze S512x256 squeezes_S1x512x256_S512x256).view.WordExact}
    {hsem : DmaTarget.Typed .vmem (.dma (jZR k)) (.remote (Dev.tc n : Thread nD τ) (((Memref.whole cc0_scratch0 : Memref sig .tc .vmem S4x4096x256 .bf16).slice (Rect.unit (s := S4x4096x256) off S1x512x256.size inb) (fun _ => rfl)).squeeze S512x256 squeezes_S1x512x256_S512x256) (.dma (jZS k)) hsc)}
    {α : Type} {Q : α → sProp 𝕄} {k' : PUnit → Prog (TpuEff nD τ sig (Elt F) Λ₀ .tc) α}
    (fd : Buf (Elt F) ((r4R (mqF c) k).view.loc (pz c : Thread nD τ))) {κ₁ κ₂ : ℕ}
    {O₀ : CellTallies nD τ sig Unit} (O : CellTallies nD τ sig Unit) (hO : O₀ = O + tallyAt (cellAt (pz c) (jZR k)) () NA) (W : Waits sig Unit) :
    iprop(cellInv ER (rsRd m) κ₁ (cellAt c (jZS k)) ∗ cellInv ER (rsRd m) κ₂ (cellAt (pz c) (jZR k))
        ∗ pts (r4R (mqF c) k) c shZ (r4 m c) ∗ pts (r4R (mqF c) k) (pz c) fullShare fd
        ∗ owes (c : Thread nD τ) O₀ W
        ∗ dutyTok ER (cellAt c (jZS k)) 0 0 ∗ reached ER (cellAt c (jZS k)) 0
        ∗ dutyTok ER (cellAt (pz c) (jZR k)) 0 0 ∗ reached ER (cellAt (pz c) (jZR k)) 0)
      ⊢ iprop(((cred (tallyAt (cellAt c (jZS k)) () NA) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (((Memref.whole cc0_scratch0 : Memref sig .tc .vmem S4x4096x256 .bf16).slice (Rect.unit (s := S4x4096x256) off S1x512x256.size inb) (fun _ => rfl)).squeeze S512x256 squeezes_S1x512x256_S512x256) (.remote (Dev.tc n : Thread nD τ) (((Memref.whole cc0_scratch0 : Memref sig .tc .vmem S4x4096x256 .bf16).slice (Rect.unit (s := S4x4096x256) off S1x512x256.size inb) (fun _ => rfl)).squeeze S512x256 squeezes_S1x512x256_S512x256) (.dma (jZS k)) hsc) (.dma (jZR k)) hsrc hdst hsem) k') Q) := by
  subst h
  exact send_z m c n hn k fd O hO W

/-- The same across y. -/
theorem send_y_at (c n : Dev nD) (hn : n = py c) (k : Fin 8) (off : Fin 3 → ℕ)
    (inb : ∀ a, off a + S1x512x256.size a ≤ S4x4096x256.size a) (h : off = ![mq c, 512 * k.val, 0])
    {hsc : (((Memref.whole cc0_scratch0 : Memref sig .tc .vmem S4x4096x256 .bf16).slice (Rect.unit (s := S4x4096x256) off S1x512x256.size inb) (fun _ => rfl)).squeeze S512x256 squeezes_S1x512x256_S512x256 : Memref sig (Dev.tc n : Thread nD τ).2.kind .vmem _ .bf16).view.ref.isScScratch = false}
    {hsrc : (((Memref.whole cc0_scratch0 : Memref sig .tc .vmem S4x4096x256 .bf16).slice (Rect.unit (s := S4x4096x256) off S1x512x256.size inb) (fun _ => rfl)).squeeze S512x256 squeezes_S1x512x256_S512x256).view.WordExact} {hdst : (((Memref.whole cc0_scratch0 : Memref sig .tc .vmem S4x4096x256 .bf16).slice (Rect.unit (s := S4x4096x256) off S1x512x256.size inb) (fun _ => rfl)).squeeze S512x256 squeezes_S1x512x256_S512x256).view.WordExact}
    {hsem : DmaTarget.Typed .vmem (.dma (jYR k)) (.remote (Dev.tc n : Thread nD τ) (((Memref.whole cc0_scratch0 : Memref sig .tc .vmem S4x4096x256 .bf16).slice (Rect.unit (s := S4x4096x256) off S1x512x256.size inb) (fun _ => rfl)).squeeze S512x256 squeezes_S1x512x256_S512x256) (.dma (jYS k)) hsc)}
    {α : Type} {Q : α → sProp 𝕄} {k' : PUnit → Prog (TpuEff nD τ sig (Elt F) Λ₀ .tc) α}
    (fd : Buf (Elt F) ((r4R (mqF c) k).view.loc (py c : Thread nD τ))) {κ₁ κ₂ : ℕ}
    {O₀ : CellTallies nD τ sig Unit} (O : CellTallies nD τ sig Unit) (hO : O₀ = O + tallyAt (cellAt (py c) (jYR k)) () NA) (W : Waits sig Unit) :
    iprop(cellInv ER (rsRd m) κ₁ (cellAt c (jYS k)) ∗ cellInv ER (rsRd m) κ₂ (cellAt (py c) (jYR k))
        ∗ pts (r4R (mqF c) k) c shY (r4 m c) ∗ pts (r4R (mqF c) k) (py c) fullShare fd
        ∗ owes (c : Thread nD τ) O₀ W
        ∗ dutyTok ER (cellAt c (jYS k)) 0 0 ∗ reached ER (cellAt c (jYS k)) 0
        ∗ dutyTok ER (cellAt (py c) (jYR k)) 0 0 ∗ reached ER (cellAt (py c) (jYR k)) 0)
      ⊢ iprop(((cred (tallyAt (cellAt c (jYS k)) () NA) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (((Memref.whole cc0_scratch0 : Memref sig .tc .vmem S4x4096x256 .bf16).slice (Rect.unit (s := S4x4096x256) off S1x512x256.size inb) (fun _ => rfl)).squeeze S512x256 squeezes_S1x512x256_S512x256) (.remote (Dev.tc n : Thread nD τ) (((Memref.whole cc0_scratch0 : Memref sig .tc .vmem S4x4096x256 .bf16).slice (Rect.unit (s := S4x4096x256) off S1x512x256.size inb) (fun _ => rfl)).squeeze S512x256 squeezes_S1x512x256_S512x256) (.dma (jYS k)) hsc) (.dma (jYR k)) hsrc hdst hsem) k') Q) := by
  subst h
  exact send_y m c n hn k fd O hO W

/-- The forward through z of the left half of chunk k ≥ 3 of the y-neighbour's quarter, written by its offsets. -/
theorem send_zf_at (c n : Dev nD) (hn : n = pz c) (k : Fin 8) (hk : 3 ≤ k.val) (off : Fin 3 → ℕ)
    (inb : ∀ a, off a + S1x512x128.size a ≤ S4x4096x256.size a) (h : off = ![yq c, 512 * k.val, 0])
    {hsc : (((Memref.whole cc0_scratch0 : Memref sig .tc .vmem S4x4096x256 .bf16).slice (Rect.unit (s := S4x4096x256) off S1x512x128.size inb) (fun _ => rfl)).squeeze S512x128 squeezes_S1x512x128_S512x128 : Memref sig (Dev.tc n : Thread nD τ).2.kind .vmem _ .bf16).view.ref.isScScratch = false}
    {hsrc : (((Memref.whole cc0_scratch0 : Memref sig .tc .vmem S4x4096x256 .bf16).slice (Rect.unit (s := S4x4096x256) off S1x512x128.size inb) (fun _ => rfl)).squeeze S512x128 squeezes_S1x512x128_S512x128).view.WordExact} {hdst : (((Memref.whole cc0_scratch0 : Memref sig .tc .vmem S4x4096x256 .bf16).slice (Rect.unit (s := S4x4096x256) off S1x512x128.size inb) (fun _ => rfl)).squeeze S512x128 squeezes_S1x512x128_S512x128).view.WordExact}
    {hsem : DmaTarget.Typed .vmem (.dma (jZFR k)) (.remote (Dev.tc n : Thread nD τ) (((Memref.whole cc0_scratch0 : Memref sig .tc .vmem S4x4096x256 .bf16).slice (Rect.unit (s := S4x4096x256) off S1x512x128.size inb) (fun _ => rfl)).squeeze S512x128 squeezes_S1x512x128_S512x128) (.dma (jZFS k)) hsc)}
    {α : Type} {Q : α → sProp 𝕄} {k' : PUnit → Prog (TpuEff nD τ sig (Elt F) Λ₀ .tc) α}
    (fd : Buf (Elt F) ((r4H (yqF c) k 0).view.loc (pz c : Thread nD τ))) {κ₁ κ₂ : ℕ}
    {O₀ : CellTallies nD τ sig Unit} (O : CellTallies nD τ sig Unit) (hO : O₀ = O + tallyAt (cellAt (pz c) (jZFR k)) () NH) (W : Waits sig Unit) :
    iprop(cellInv ER (rsRd m) κ₁ (cellAt c (jZFS k)) ∗ cellInv ER (rsRd m) κ₂ (cellAt (pz c) (jZFR k))
        ∗ pts (r4H (yqF c) k 0) c shF (r4 m c) ∗ pts (r4H (yqF c) k 0) (pz c) fullShare fd
        ∗ owes (c : Thread nD τ) O₀ W
        ∗ dutyTok ER (cellAt c (jZFS k)) 0 0 ∗ reached ER (cellAt c (jZFS k)) 0
        ∗ dutyTok ER (cellAt (pz c) (jZFR k)) 0 0 ∗ reached ER (cellAt (pz c) (jZFR k)) 0)
      ⊢ iprop(((cred (tallyAt (cellAt c (jZFS k)) () NH) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (((Memref.whole cc0_scratch0 : Memref sig .tc .vmem S4x4096x256 .bf16).slice (Rect.unit (s := S4x4096x256) off S1x512x128.size inb) (fun _ => rfl)).squeeze S512x128 squeezes_S1x512x128_S512x128) (.remote (Dev.tc n : Thread nD τ) (((Memref.whole cc0_scratch0 : Memref sig .tc .vmem S4x4096x256 .bf16).slice (Rect.unit (s := S4x4096x256) off S1x512x128.size inb) (fun _ => rfl)).squeeze S512x128 squeezes_S1x512x128_S512x128) (.dma (jZFS k)) hsc) (.dma (jZFR k)) hsrc hdst hsem) k') Q) := by
  subst h
  exact send_zf m c n hn k hk fd O hO W

/-- The forward through y of the right half of chunk k ≥ 3 of the z-neighbour's quarter, written by its offsets. -/
theorem send_yf_at (c n : Dev nD) (hn : n = py c) (k : Fin 8) (hk : 3 ≤ k.val) (off : Fin 3 → ℕ)
    (inb : ∀ a, off a + S1x512x128.size a ≤ S4x4096x256.size a) (h : off = ![zq c, 512 * k.val, 128])
    {hsc : (((Memref.whole cc0_scratch0 : Memref sig .tc .vmem S4x4096x256 .bf16).slice (Rect.unit (s := S4x4096x256) off S1x512x128.size inb) (fun _ => rfl)).squeeze S512x128 squeezes_S1x512x128_S512x128 : Memref sig (Dev.tc n : Thread nD τ).2.kind .vmem _ .bf16).view.ref.isScScratch = false}
    {hsrc : (((Memref.whole cc0_scratch0 : Memref sig .tc .vmem S4x4096x256 .bf16).slice (Rect.unit (s := S4x4096x256) off S1x512x128.size inb) (fun _ => rfl)).squeeze S512x128 squeezes_S1x512x128_S512x128).view.WordExact} {hdst : (((Memref.whole cc0_scratch0 : Memref sig .tc .vmem S4x4096x256 .bf16).slice (Rect.unit (s := S4x4096x256) off S1x512x128.size inb) (fun _ => rfl)).squeeze S512x128 squeezes_S1x512x128_S512x128).view.WordExact}
    {hsem : DmaTarget.Typed .vmem (.dma (jYFR k)) (.remote (Dev.tc n : Thread nD τ) (((Memref.whole cc0_scratch0 : Memref sig .tc .vmem S4x4096x256 .bf16).slice (Rect.unit (s := S4x4096x256) off S1x512x128.size inb) (fun _ => rfl)).squeeze S512x128 squeezes_S1x512x128_S512x128) (.dma (jYFS k)) hsc)}
    {α : Type} {Q : α → sProp 𝕄} {k' : PUnit → Prog (TpuEff nD τ sig (Elt F) Λ₀ .tc) α}
    (fd : Buf (Elt F) ((r4H (zqF c) k 1).view.loc (py c : Thread nD τ))) {κ₁ κ₂ : ℕ}
    {O₀ : CellTallies nD τ sig Unit} (O : CellTallies nD τ sig Unit) (hO : O₀ = O + tallyAt (cellAt (py c) (jYFR k)) () NH) (W : Waits sig Unit) :
    iprop(cellInv ER (rsRd m) κ₁ (cellAt c (jYFS k)) ∗ cellInv ER (rsRd m) κ₂ (cellAt (py c) (jYFR k))
        ∗ pts (r4H (zqF c) k 1) c shF (r4 m c) ∗ pts (r4H (zqF c) k 1) (py c) fullShare fd
        ∗ owes (c : Thread nD τ) O₀ W
        ∗ dutyTok ER (cellAt c (jYFS k)) 0 0 ∗ reached ER (cellAt c (jYFS k)) 0
        ∗ dutyTok ER (cellAt (py c) (jYFR k)) 0 0 ∗ reached ER (cellAt (py c) (jYFR k)) 0)
      ⊢ iprop(((cred (tallyAt (cellAt c (jYFS k)) () NH) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (((Memref.whole cc0_scratch0 : Memref sig .tc .vmem S4x4096x256 .bf16).slice (Rect.unit (s := S4x4096x256) off S1x512x128.size inb) (fun _ => rfl)).squeeze S512x128 squeezes_S1x512x128_S512x128) (.remote (Dev.tc n : Thread nD τ) (((Memref.whole cc0_scratch0 : Memref sig .tc .vmem S4x4096x256 .bf16).slice (Rect.unit (s := S4x4096x256) off S1x512x128.size inb) (fun _ => rfl)).squeeze S512x128 squeezes_S1x512x128_S512x128) (.dma (jYFS k)) hsc) (.dma (jYFR k)) hsrc hdst hsem) k') Q) := by
  subst h
  exact send_yf m c n hn k hk fd O hO W

/-- The offsets the program computes are of those forms: the first chunk of the own quarter and the first forwarded halves. -/
example (c : Dev nD) : k0_off24 c = ![mq c, 512 * (0 : Fin 8).val, 0] := k0_off24_eq c
example (c : Dev nD) : k0_off34 c = ![yq c, 512 * (3 : Fin 8).val, 0] := k0_off34_eq c
example (c : Dev nD) : k0_off33 c = ![zq c, 512 * (3 : Fin 8).val, 128] := k0_off33_eq c

/-! ## A barrier signal -/

/-- A barrier signal to the neighbour p, named in the program by a device chain n: it pays duty d of p's barrier cell
    and hands over that duty's payload. -/
theorem sig_bar (c n p : Dev nD) (hn : n = p) (d : DD) {κ : ℕ} {amt : ℕ} (ha : amt = 1)
    {α : Type} {Q : α → sProp 𝕄} {k' : PUnit → Prog (TpuEff nD τ sig (Elt F) Λ₀ .tc) α}
    {O₁ : CellTallies nD τ sig Unit} (O : CellTallies nD τ sig Unit) (hO : O₁ = O + tallyAt (barCell p) () 1) {W : Waits sig Unit} :
    iprop(cellInv ER (rsRd m) κ (barCell p) ∗ owes (c : Thread nD τ) O₁ W ∗ dutyTok ER (barCell p) 0 d
        ∗ barPay (F := F) p d ∗ reached ER (barCell p) 0)
      ⊢ iprop((owes (c : Thread nD τ) O W -∗ wp frame (wpE (defs₀ (F := F)) 𝒱₀ (c : Thread nD τ) none) Set.univ (k' ⟨⟩) Q)
          -∗ wp frame (wpE (defs₀ (F := F)) 𝒱₀ (c : Thread nD τ) none) Set.univ
              (.op (.semSignal ((n : Dev nD) : Thread nD τ) barS amt) k') Q) := by
  subst hn; subst ha
  exact Rounds.wp_signal 𝒱₀ ER (rsRd m) (c : Thread nD τ) none (dst := (n : Thread nD τ)) (sem := barS) (κ := κ) (r := 0)
    (d := d) ((duties_bar m n).symm ▸ Finset.mem_univ d) (amount_bar m n d) () O hO

end Cert.KernelIdeal.RS

end
-- ==== Proof.WaitRules.lean ====
import proofs.«901022_g7700000000001023_dist_rs_v7x_xyz2x2x2_x_m4096_n1024_bf16_1_alg».proof.Proof.SchedTab
import proofs.«901022_g7700000000001023_dist_rs_v7x_xyz2x2x2_x_m4096_n1024_bf16_1_alg».proof.Proof.Records
import proofs.«901022_g7700000000001023_dist_rs_v7x_xyz2x2x2_x_m4096_n1024_bf16_1_alg».proof.Proof.Owed
import Idealize.ShloMosaic.Lib.Rounds

/-! The waits under the one-round schedule. A device waits on each of its cells once, for all the round expects: on
    the semaphore of a copy for the chunk's (or half chunk's) credit, on its barrier semaphore for 3. The wait ends the
    round — the cell stands at the start of round 1, which has no duty — and hands the device what the round's duties
    handed the cell: the chunk a landing filled, the share a departure lent, the three neighbours' hand-overs. A copy's
    cell, its only round over, is then closed: its counter, at zero, is the device's again. -/

noncomputable section

namespace Cert.KernelIdeal.RS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The wait on a copy's semaphore, at any place of the pool -/

/-- A wait on cell j of device t for N, all that the cell's round expects, through a destination view of credit N:
    the round ends and the rest of its duties' hand-overs (no duty taken: all of them) come to the device. -/
theorem wait_cell (t : Dev nD) (j : Fin 140) (N : ℕ) (hE : (rsRd (F := F) m).expect (cellAt t j) 0 = N)
    {sp' sp : Space} {s' s : Shape} {e' e : EltTy} {κ' : Kind}
    {srcw : Memref sig .tc sp' s' e'} {dstw : Memref sig κ' sp s e}
    {hsrc : srcw.view.WordExact} {hdst : dstw.view.WordExact} (hN : dstw.view.dmaCredit = N)
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () N) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ bigSep ((rsRd (F := F) m).duties (cellAt t j) 0 \ ∅) (fun d => (rsRd (F := F) m).payload (cellAt t j) 0 d))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  subst hN
  exact Rounds.wp_wait_rest_token 𝒱₀ ER (rsRd m) (t : Thread nD τ) none (κ := κ)
    (wpE_waitDma2_eq 𝒱₀ (t : Thread nD τ) none Set.univ) (Set.mem_univ _) () (O := O) (W := W) (R := 0) (m := 0) (T := ∅)
    (by rw [Nat.zero_add, hE])

/-- A copy's cell after its wait: its one round over, the cell closes and its counter, at zero, is the device's. -/
theorem close_cell (t : Dev nD) (j : Fin 140) (h : (kindOf j.val).isSome = true) {κ : ℕ} :
    iprop(cellInv ER (rsRd m) κ (cellAt t j) ∗ atPos ER (cellAt t j) 1 ∅ 0) ⊢ iprop(|={Set.univ}=> semVal (cellAt t j) 0) :=
  Rounds.cell_close ER (rsRd m) (Set.mem_univ κ) (not_unitless m (cellAt t j)) (R := 1) (duties_later m (cellAt t j))

/-! ## Array by array: the wait hands the device the chunk (or the share) the cell's one duty handed the cell -/

/-- Array 0 (send): once chunk k has left, the share of the source chunk the copy was lent is the sender's again. -/
theorem wait_a0_at (t : Dev nD) (j : Fin 140) (k : Fin 8) (hj : j.val = 22 + k.val)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NA) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (sbR k) t fullShare (sb m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NA (expect_a0_at m t j k hj) (srcw := srcw) (dstw := dstw) (hsrc := hsrc) (hdst := hdst) rfl
    (Q := Q) (k' := k') (κ := κ) (O := O) (W := W)
  rw [rest_a0_at m t j k hj] at h
  exact h
theorem wait_a0 (t : Dev nD) (k : Fin 8)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨22 + k.val, by omega⟩ : Fin 140)) ∗ cred (tallyAt (cellAt t (⟨22 + k.val, by omega⟩ : Fin 140)) () NA) ∗ owes (t : Thread nD τ) O W
        ∗ MayWait (t : Thread nD τ) (dsem (⟨22 + k.val, by omega⟩ : Fin 140)) () O ∗ atPos ER (cellAt t (⟨22 + k.val, by omega⟩ : Fin 140)) 0 ∅ 0)
      ⊢ iprop(((owes (t : Thread nD τ) O (insert (dsem (⟨22 + k.val, by omega⟩ : Fin 140), ()) W)
              ∗ atPos ER (cellAt t (⟨22 + k.val, by omega⟩ : Fin 140)) 1 ∅ 0 ∗ reached ER (cellAt t (⟨22 + k.val, by omega⟩ : Fin 140)) 1
              ∗ pts (sbR k) t fullShare (sb m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨22 + k.val, by omega⟩ : Fin 140) srcw dstw hsrc hdst) k') Q) :=
  wait_a0_at m t _ k rfl

/-- Array 1 (receive): once chunk k has landed, the receiver holds the chunk, at its final contents. -/
theorem wait_a1_at (t : Dev nD) (j : Fin 140) (k : Fin 8) (hj : j.val = 30 + k.val)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NA) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (rbR k) t fullShare (rb m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NA (expect_a1_at m t j k hj) (srcw := srcw) (dstw := dstw) (hsrc := hsrc) (hdst := hdst) rfl
    (Q := Q) (k' := k') (κ := κ) (O := O) (W := W)
  rw [rest_a1_at m t j k hj] at h
  exact h
theorem wait_a1 (t : Dev nD) (k : Fin 8)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨30 + k.val, by omega⟩ : Fin 140)) ∗ cred (tallyAt (cellAt t (⟨30 + k.val, by omega⟩ : Fin 140)) () NA) ∗ owes (t : Thread nD τ) O W
        ∗ MayWait (t : Thread nD τ) (dsem (⟨30 + k.val, by omega⟩ : Fin 140)) () O ∗ atPos ER (cellAt t (⟨30 + k.val, by omega⟩ : Fin 140)) 0 ∅ 0)
      ⊢ iprop(((owes (t : Thread nD τ) O (insert (dsem (⟨30 + k.val, by omega⟩ : Fin 140), ()) W)
              ∗ atPos ER (cellAt t (⟨30 + k.val, by omega⟩ : Fin 140)) 1 ∅ 0 ∗ reached ER (cellAt t (⟨30 + k.val, by omega⟩ : Fin 140)) 1
              ∗ pts (rbR k) t fullShare (rb m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨30 + k.val, by omega⟩ : Fin 140) srcw dstw hsrc hdst) k') Q) :=
  wait_a1_at m t _ k rfl

/-- Array 2 (send): once chunk k has left, the share of the source chunk the copy was lent is the sender's again. -/
theorem wait_a2_at (t : Dev nD) (j : Fin 140) (k : Fin 3) (hj : j.val = 38 + k.val)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NA) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (sb2R k) t fullShare (sb2 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NA (expect_a2_at m t j k hj) (srcw := srcw) (dstw := dstw) (hsrc := hsrc) (hdst := hdst) rfl
    (Q := Q) (k' := k') (κ := κ) (O := O) (W := W)
  rw [rest_a2_at m t j k hj] at h
  exact h
theorem wait_a2 (t : Dev nD) (k : Fin 3)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨38 + k.val, by omega⟩ : Fin 140)) ∗ cred (tallyAt (cellAt t (⟨38 + k.val, by omega⟩ : Fin 140)) () NA) ∗ owes (t : Thread nD τ) O W
        ∗ MayWait (t : Thread nD τ) (dsem (⟨38 + k.val, by omega⟩ : Fin 140)) () O ∗ atPos ER (cellAt t (⟨38 + k.val, by omega⟩ : Fin 140)) 0 ∅ 0)
      ⊢ iprop(((owes (t : Thread nD τ) O (insert (dsem (⟨38 + k.val, by omega⟩ : Fin 140), ()) W)
              ∗ atPos ER (cellAt t (⟨38 + k.val, by omega⟩ : Fin 140)) 1 ∅ 0 ∗ reached ER (cellAt t (⟨38 + k.val, by omega⟩ : Fin 140)) 1
              ∗ pts (sb2R k) t fullShare (sb2 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨38 + k.val, by omega⟩ : Fin 140) srcw dstw hsrc hdst) k') Q) :=
  wait_a2_at m t _ k rfl

/-- Array 3 (receive): once chunk k has landed, the receiver holds the chunk, at its final contents. -/
theorem wait_a3_at (t : Dev nD) (j : Fin 140) (k : Fin 3) (hj : j.val = 41 + k.val)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NA) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (rb2R k) t fullShare (rb2 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NA (expect_a3_at m t j k hj) (srcw := srcw) (dstw := dstw) (hsrc := hsrc) (hdst := hdst) rfl
    (Q := Q) (k' := k') (κ := κ) (O := O) (W := W)
  rw [rest_a3_at m t j k hj] at h
  exact h
theorem wait_a3 (t : Dev nD) (k : Fin 3)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨41 + k.val, by omega⟩ : Fin 140)) ∗ cred (tallyAt (cellAt t (⟨41 + k.val, by omega⟩ : Fin 140)) () NA) ∗ owes (t : Thread nD τ) O W
        ∗ MayWait (t : Thread nD τ) (dsem (⟨41 + k.val, by omega⟩ : Fin 140)) () O ∗ atPos ER (cellAt t (⟨41 + k.val, by omega⟩ : Fin 140)) 0 ∅ 0)
      ⊢ iprop(((owes (t : Thread nD τ) O (insert (dsem (⟨41 + k.val, by omega⟩ : Fin 140), ()) W)
              ∗ atPos ER (cellAt t (⟨41 + k.val, by omega⟩ : Fin 140)) 1 ∅ 0 ∗ reached ER (cellAt t (⟨41 + k.val, by omega⟩ : Fin 140)) 1
              ∗ pts (rb2R k) t fullShare (rb2 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨41 + k.val, by omega⟩ : Fin 140) srcw dstw hsrc hdst) k') Q) :=
  wait_a3_at m t _ k rfl

/-- Array 4 (send): once chunk k has left, the share of the source chunk the copy was lent is the sender's again. -/
theorem wait_a4_at (t : Dev nD) (j : Fin 140) (k : Fin 8) (hj : j.val = 44 + k.val)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NA) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (r4R (mqF t) k) t shZ (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NA (expect_a4_at m t j k hj) (srcw := srcw) (dstw := dstw) (hsrc := hsrc) (hdst := hdst) rfl
    (Q := Q) (k' := k') (κ := κ) (O := O) (W := W)
  rw [rest_a4_at m t j k hj] at h
  exact h
theorem wait_a4 (t : Dev nD) (k : Fin 8)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨44 + k.val, by omega⟩ : Fin 140)) ∗ cred (tallyAt (cellAt t (⟨44 + k.val, by omega⟩ : Fin 140)) () NA) ∗ owes (t : Thread nD τ) O W
        ∗ MayWait (t : Thread nD τ) (dsem (⟨44 + k.val, by omega⟩ : Fin 140)) () O ∗ atPos ER (cellAt t (⟨44 + k.val, by omega⟩ : Fin 140)) 0 ∅ 0)
      ⊢ iprop(((owes (t : Thread nD τ) O (insert (dsem (⟨44 + k.val, by omega⟩ : Fin 140), ()) W)
              ∗ atPos ER (cellAt t (⟨44 + k.val, by omega⟩ : Fin 140)) 1 ∅ 0 ∗ reached ER (cellAt t (⟨44 + k.val, by omega⟩ : Fin 140)) 1
              ∗ pts (r4R (mqF t) k) t shZ (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨44 + k.val, by omega⟩ : Fin 140) srcw dstw hsrc hdst) k') Q) :=
  wait_a4_at m t _ k rfl

/-- Array 5 (receive): once chunk k has landed, the receiver holds the chunk, at its final contents. -/
theorem wait_a5_at (t : Dev nD) (j : Fin 140) (k : Fin 8) (hj : j.val = 52 + k.val)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NA) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (r4R (zqF t) k) t fullShare (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NA (expect_a5_at m t j k hj) (srcw := srcw) (dstw := dstw) (hsrc := hsrc) (hdst := hdst) rfl
    (Q := Q) (k' := k') (κ := κ) (O := O) (W := W)
  rw [rest_a5_at m t j k hj] at h
  exact h
theorem wait_a5 (t : Dev nD) (k : Fin 8)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨52 + k.val, by omega⟩ : Fin 140)) ∗ cred (tallyAt (cellAt t (⟨52 + k.val, by omega⟩ : Fin 140)) () NA) ∗ owes (t : Thread nD τ) O W
        ∗ MayWait (t : Thread nD τ) (dsem (⟨52 + k.val, by omega⟩ : Fin 140)) () O ∗ atPos ER (cellAt t (⟨52 + k.val, by omega⟩ : Fin 140)) 0 ∅ 0)
      ⊢ iprop(((owes (t : Thread nD τ) O (insert (dsem (⟨52 + k.val, by omega⟩ : Fin 140), ()) W)
              ∗ atPos ER (cellAt t (⟨52 + k.val, by omega⟩ : Fin 140)) 1 ∅ 0 ∗ reached ER (cellAt t (⟨52 + k.val, by omega⟩ : Fin 140)) 1
              ∗ pts (r4R (zqF t) k) t fullShare (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨52 + k.val, by omega⟩ : Fin 140) srcw dstw hsrc hdst) k') Q) :=
  wait_a5_at m t _ k rfl

/-- Array 6 (send): once chunk k has left, the share of the source chunk the copy was lent is the sender's again. -/
theorem wait_a6_at (t : Dev nD) (j : Fin 140) (k : Fin 8) (hj : j.val = 60 + k.val)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NA) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (r4R (mqF t) k) t shY (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NA (expect_a6_at m t j k hj) (srcw := srcw) (dstw := dstw) (hsrc := hsrc) (hdst := hdst) rfl
    (Q := Q) (k' := k') (κ := κ) (O := O) (W := W)
  rw [rest_a6_at m t j k hj] at h
  exact h
theorem wait_a6 (t : Dev nD) (k : Fin 8)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨60 + k.val, by omega⟩ : Fin 140)) ∗ cred (tallyAt (cellAt t (⟨60 + k.val, by omega⟩ : Fin 140)) () NA) ∗ owes (t : Thread nD τ) O W
        ∗ MayWait (t : Thread nD τ) (dsem (⟨60 + k.val, by omega⟩ : Fin 140)) () O ∗ atPos ER (cellAt t (⟨60 + k.val, by omega⟩ : Fin 140)) 0 ∅ 0)
      ⊢ iprop(((owes (t : Thread nD τ) O (insert (dsem (⟨60 + k.val, by omega⟩ : Fin 140), ()) W)
              ∗ atPos ER (cellAt t (⟨60 + k.val, by omega⟩ : Fin 140)) 1 ∅ 0 ∗ reached ER (cellAt t (⟨60 + k.val, by omega⟩ : Fin 140)) 1
              ∗ pts (r4R (mqF t) k) t shY (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨60 + k.val, by omega⟩ : Fin 140) srcw dstw hsrc hdst) k') Q) :=
  wait_a6_at m t _ k rfl

/-- Array 7 (receive): once chunk k has landed, the receiver holds the chunk, at its final contents. -/
theorem wait_a7_at (t : Dev nD) (j : Fin 140) (k : Fin 8) (hj : j.val = 68 + k.val)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NA) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (r4R (yqF t) k) t fullShare (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NA (expect_a7_at m t j k hj) (srcw := srcw) (dstw := dstw) (hsrc := hsrc) (hdst := hdst) rfl
    (Q := Q) (k' := k') (κ := κ) (O := O) (W := W)
  rw [rest_a7_at m t j k hj] at h
  exact h
theorem wait_a7 (t : Dev nD) (k : Fin 8)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨68 + k.val, by omega⟩ : Fin 140)) ∗ cred (tallyAt (cellAt t (⟨68 + k.val, by omega⟩ : Fin 140)) () NA) ∗ owes (t : Thread nD τ) O W
        ∗ MayWait (t : Thread nD τ) (dsem (⟨68 + k.val, by omega⟩ : Fin 140)) () O ∗ atPos ER (cellAt t (⟨68 + k.val, by omega⟩ : Fin 140)) 0 ∅ 0)
      ⊢ iprop(((owes (t : Thread nD τ) O (insert (dsem (⟨68 + k.val, by omega⟩ : Fin 140), ()) W)
              ∗ atPos ER (cellAt t (⟨68 + k.val, by omega⟩ : Fin 140)) 1 ∅ 0 ∗ reached ER (cellAt t (⟨68 + k.val, by omega⟩ : Fin 140)) 1
              ∗ pts (r4R (yqF t) k) t fullShare (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨68 + k.val, by omega⟩ : Fin 140) srcw dstw hsrc hdst) k') Q) :=
  wait_a7_at m t _ k rfl

/-- Array 8 (send): once the half of chunk k has left, the share of it the forward was lent is the sender's again. -/
theorem wait_a8_at (t : Dev nD) (j : Fin 140) (k : Fin 8) (hj : j.val = 76 + k.val) (hk : 3 ≤ k.val)
    {sp' spw : Space} {s' : Shape} {e' : EltTy}
    {srcw : Memref sig .tc sp' s' e'} {dstw : Memref sig .tc spw S512x128 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NH) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (r4H (yqF t) k 0) t shF (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NH (expect_a8_at m t j k hj hk) (srcw := srcw) (dstw := dstw) (hsrc := hsrc) (hdst := hdst) rfl
    (Q := Q) (k' := k') (κ := κ) (O := O) (W := W)
  rw [rest_a8_at m t j k hj hk] at h
  exact h
theorem wait_a8 (t : Dev nD) (k : Fin 8) (hk : 3 ≤ k.val)
    {sp' spw : Space} {s' : Shape} {e' : EltTy}
    {srcw : Memref sig .tc sp' s' e'} {dstw : Memref sig .tc spw S512x128 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨76 + k.val, by omega⟩ : Fin 140)) ∗ cred (tallyAt (cellAt t (⟨76 + k.val, by omega⟩ : Fin 140)) () NH) ∗ owes (t : Thread nD τ) O W
        ∗ MayWait (t : Thread nD τ) (dsem (⟨76 + k.val, by omega⟩ : Fin 140)) () O ∗ atPos ER (cellAt t (⟨76 + k.val, by omega⟩ : Fin 140)) 0 ∅ 0)
      ⊢ iprop(((owes (t : Thread nD τ) O (insert (dsem (⟨76 + k.val, by omega⟩ : Fin 140), ()) W)
              ∗ atPos ER (cellAt t (⟨76 + k.val, by omega⟩ : Fin 140)) 1 ∅ 0 ∗ reached ER (cellAt t (⟨76 + k.val, by omega⟩ : Fin 140)) 1
              ∗ pts (r4H (yqF t) k 0) t shF (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨76 + k.val, by omega⟩ : Fin 140) srcw dstw hsrc hdst) k') Q) :=
  wait_a8_at m t _ k rfl hk

/-- Array 9 (receive): once the half of chunk k has landed, the receiver holds that half, at its final contents. -/
theorem wait_a9_at (t : Dev nD) (j : Fin 140) (k : Fin 8) (hj : j.val = 84 + k.val) (hk : 3 ≤ k.val)
    {sp' spw : Space} {s' : Shape} {e' : EltTy}
    {srcw : Memref sig .tc sp' s' e'} {dstw : Memref sig .tc spw S512x128 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NH) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (r4H (dqF t) k 0) t fullShare (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NH (expect_a9_at m t j k hj hk) (srcw := srcw) (dstw := dstw) (hsrc := hsrc) (hdst := hdst) rfl
    (Q := Q) (k' := k') (κ := κ) (O := O) (W := W)
  rw [rest_a9_at m t j k hj hk] at h
  exact h
theorem wait_a9 (t : Dev nD) (k : Fin 8) (hk : 3 ≤ k.val)
    {sp' spw : Space} {s' : Shape} {e' : EltTy}
    {srcw : Memref sig .tc sp' s' e'} {dstw : Memref sig .tc spw S512x128 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨84 + k.val, by omega⟩ : Fin 140)) ∗ cred (tallyAt (cellAt t (⟨84 + k.val, by omega⟩ : Fin 140)) () NH) ∗ owes (t : Thread nD τ) O W
        ∗ MayWait (t : Thread nD τ) (dsem (⟨84 + k.val, by omega⟩ : Fin 140)) () O ∗ atPos ER (cellAt t (⟨84 + k.val, by omega⟩ : Fin 140)) 0 ∅ 0)
      ⊢ iprop(((owes (t : Thread nD τ) O (insert (dsem (⟨84 + k.val, by omega⟩ : Fin 140), ()) W)
              ∗ atPos ER (cellAt t (⟨84 + k.val, by omega⟩ : Fin 140)) 1 ∅ 0 ∗ reached ER (cellAt t (⟨84 + k.val, by omega⟩ : Fin 140)) 1
              ∗ pts (r4H (dqF t) k 0) t fullShare (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨84 + k.val, by omega⟩ : Fin 140) srcw dstw hsrc hdst) k') Q) :=
  wait_a9_at m t _ k rfl hk

/-- Array 10 (send): once the half of chunk k has left, the share of it the forward was lent is the sender's again. -/
theorem wait_a10_at (t : Dev nD) (j : Fin 140) (k : Fin 8) (hj : j.val = 92 + k.val) (hk : 3 ≤ k.val)
    {sp' spw : Space} {s' : Shape} {e' : EltTy}
    {srcw : Memref sig .tc sp' s' e'} {dstw : Memref sig .tc spw S512x128 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NH) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (r4H (zqF t) k 1) t shF (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NH (expect_a10_at m t j k hj hk) (srcw := srcw) (dstw := dstw) (hsrc := hsrc) (hdst := hdst) rfl
    (Q := Q) (k' := k') (κ := κ) (O := O) (W := W)
  rw [rest_a10_at m t j k hj hk] at h
  exact h
theorem wait_a10 (t : Dev nD) (k : Fin 8) (hk : 3 ≤ k.val)
    {sp' spw : Space} {s' : Shape} {e' : EltTy}
    {srcw : Memref sig .tc sp' s' e'} {dstw : Memref sig .tc spw S512x128 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨92 + k.val, by omega⟩ : Fin 140)) ∗ cred (tallyAt (cellAt t (⟨92 + k.val, by omega⟩ : Fin 140)) () NH) ∗ owes (t : Thread nD τ) O W
        ∗ MayWait (t : Thread nD τ) (dsem (⟨92 + k.val, by omega⟩ : Fin 140)) () O ∗ atPos ER (cellAt t (⟨92 + k.val, by omega⟩ : Fin 140)) 0 ∅ 0)
      ⊢ iprop(((owes (t : Thread nD τ) O (insert (dsem (⟨92 + k.val, by omega⟩ : Fin 140), ()) W)
              ∗ atPos ER (cellAt t (⟨92 + k.val, by omega⟩ : Fin 140)) 1 ∅ 0 ∗ reached ER (cellAt t (⟨92 + k.val, by omega⟩ : Fin 140)) 1
              ∗ pts (r4H (zqF t) k 1) t shF (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨92 + k.val, by omega⟩ : Fin 140) srcw dstw hsrc hdst) k') Q) :=
  wait_a10_at m t _ k rfl hk

/-- Array 11 (receive): once the half of chunk k has landed, the receiver holds that half, at its final contents. -/
theorem wait_a11_at (t : Dev nD) (j : Fin 140) (k : Fin 8) (hj : j.val = 100 + k.val) (hk : 3 ≤ k.val)
    {sp' spw : Space} {s' : Shape} {e' : EltTy}
    {srcw : Memref sig .tc sp' s' e'} {dstw : Memref sig .tc spw S512x128 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NH) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (r4H (dqF t) k 1) t fullShare (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NH (expect_a11_at m t j k hj hk) (srcw := srcw) (dstw := dstw) (hsrc := hsrc) (hdst := hdst) rfl
    (Q := Q) (k' := k') (κ := κ) (O := O) (W := W)
  rw [rest_a11_at m t j k hj hk] at h
  exact h
theorem wait_a11 (t : Dev nD) (k : Fin 8) (hk : 3 ≤ k.val)
    {sp' spw : Space} {s' : Shape} {e' : EltTy}
    {srcw : Memref sig .tc sp' s' e'} {dstw : Memref sig .tc spw S512x128 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨100 + k.val, by omega⟩ : Fin 140)) ∗ cred (tallyAt (cellAt t (⟨100 + k.val, by omega⟩ : Fin 140)) () NH) ∗ owes (t : Thread nD τ) O W
        ∗ MayWait (t : Thread nD τ) (dsem (⟨100 + k.val, by omega⟩ : Fin 140)) () O ∗ atPos ER (cellAt t (⟨100 + k.val, by omega⟩ : Fin 140)) 0 ∅ 0)
      ⊢ iprop(((owes (t : Thread nD τ) O (insert (dsem (⟨100 + k.val, by omega⟩ : Fin 140), ()) W)
              ∗ atPos ER (cellAt t (⟨100 + k.val, by omega⟩ : Fin 140)) 1 ∅ 0 ∗ reached ER (cellAt t (⟨100 + k.val, by omega⟩ : Fin 140)) 1
              ∗ pts (r4H (dqF t) k 1) t fullShare (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨100 + k.val, by omega⟩ : Fin 140) srcw dstw hsrc hdst) k') Q) :=
  wait_a11_at m t _ k rfl hk

/-! ## The barrier -/

/-- The wait for 3 on a device's barrier semaphore: its three neighbours have signalled, and with their signals came
    the parts of their buffers the device will write. (The barrier cell is not closed: its semaphore is not the launch's.) -/
theorem wait_bar (t : Dev nD) {n : ℕ} (hn : n = 3)
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (barCell t) ∗ cred (tallyAt (barCell t) () 3) ∗ owes (t : Thread nD τ) O W
        ∗ MayWait (t : Thread nD τ) (.reg barS) () O ∗ atPos ER (barCell t) 0 ∅ 0)
      ⊢ iprop(((owes (t : Thread nD τ) O (insert (SemLoc.reg barS, ()) W)
              ∗ atPos ER (barCell t) 1 ∅ 0 ∗ reached ER (barCell t) 1
              ∗ (barPay (F := F) t 0 ∗ barPay (F := F) t 1 ∗ barPay (F := F) t 2))
            -∗ wp frame (wpE (defs₀ (F := F)) 𝒱₀ (t : Thread nD τ) none) Set.univ (k' ⟨⟩) Q)
          -∗ wp frame (wpE (defs₀ (F := F)) 𝒱₀ (t : Thread nD τ) none) Set.univ (.op (.semWait barS n) k') Q) := by
  subst hn
  have h := Rounds.wp_wait_rest_token (defs := defs₀ (F := F)) 𝒱₀ ER (rsRd m) (t : Thread nD τ) none (κ := κ) (Q := Q) (k := k')
    (wpE_semWait_eq 𝒱₀ (t : Thread nD τ) none Set.univ (sem := barS) (k := 3)) (Set.mem_univ _) () (O := O) (W := W) (R := 0) (m := 0) (T := ∅)
    (by rw [Nat.zero_add, expect_bar])
  rw [rest_bar m t] at h
  exact h

end Cert.KernelIdeal.RS

end
-- ==== Proof.OutChunks.lean ====
import proofs.«901022_g7700000000001023_dist_rs_v7x_xyz2x2x2_x_m4096_n1024_bf16_1_alg».proof.Proof.Sched

/-! The result array cut into the 32 blocks the kernel writes: eight blocks of 512 rows by four quarters of 256 columns. -/

noncomputable section

namespace Cert.KernelIdeal.RS

open Cert.KernelIdeal Cert.KernelIdeal.Gen
open Idealize.ShloMosaic Idealize.ShloMosaic.TcCoe

theorem out_inb : ∀ (k : Fin 8) (q : Fin 4), ∀ a : Fin 2,
    (![512 * k.val, 256 * q.val] : Fin 2 → ℕ) a + S512x256.size a ≤ S4096x1024.size a := by decide

/-- Rows 512k … 512k+511 and columns 256q … 256q+255 of the result. -/
abbrev outR (k : Fin 8) (q : Fin 4) : Memref sig .tc .hbm S512x256 .bf16 :=
  (Memref.whole main_v1 : Memref sig .tc .hbm S4096x1024 .bf16).slice
    (Rect.unit (s := S4096x1024) ![512 * k.val, 256 * q.val] S512x256.size (out_inb k q)) (fun _ => rfl)

end Cert.KernelIdeal.RS

end
-- ==== Proof.Regions.lean ====
import proofs.«901022_g7700000000001023_dist_rs_v7x_xyz2x2x2_x_m4096_n1024_bf16_1_alg».proof.Proof.Sched
import proofs.«901022_g7700000000001023_dist_rs_v7x_xyz2x2x2_x_m4096_n1024_bf16_1_alg».proof.Proof.OutChunks
import Idealize.ShloMosaic.Rules.PointsTo
import Idealize.ShloMosaic.Lib.Pipeline.Value

/-! Cutting a buffer's ownership into the chunk regions the protocol moves, and putting it back: along shares,
    along the eight (three) row blocks of a staging buffer, along the four quarters, their chunks and the
    two column halves of a chunk of the four-quarter buffer, and along the 32 blocks of the result. -/

noncomputable section

namespace Cert.KernelIdeal.RS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Along shares, and along contents -/

section Shares
variable {sp : Space} {s : Shape} {e : EltTy} (M : Memref sig .tc sp s e) (t : Dev nD)

/-- A share of a region is its two halves. -/
theorem share_split (q : PosShare TreeShare) (f : Buf (Elt F) (M.view.loc (t : Thread nD τ))) :
    pts M t q f ⊣⊢ iprop(pts M t q.left f ∗ pts M t q.right f) :=
  pointsTo_share (PosShare.mem_left_op_right q)

theorem share_split_eq (q : PosShare TreeShare) (f : Buf (Elt F) (M.view.loc (t : Thread nD τ))) :
    pts M t q f = iprop(pts M t q.left f ∗ pts M t q.right f) :=
  BI.equiv_iff.mp ⟨(share_split M t q f).1, (share_split M t q f).2⟩

/-- The whole share is the share lent across z, the share lent across y and the share kept. -/
theorem share_ZYK (f : Buf (Elt F) (M.view.loc (t : Thread nD τ))) :
    pts M t fullShare f ⊣⊢ iprop(pts M t shZ f ∗ pts M t shY f ∗ pts M t shK f) := by
  constructor
  · refine (share_split M t fullShare f).1.trans (sep_mono_right ?_)
    exact (share_split M t fullShare.right f).1
  · refine (sep_mono_right ?_).trans (share_split M t fullShare f).2
    exact (share_split M t fullShare.right f).2

theorem share_ZYK_eq (f : Buf (Elt F) (M.view.loc (t : Thread nD τ))) :
    pts M t fullShare f = iprop(pts M t shZ f ∗ pts M t shY f ∗ pts M t shK f) :=
  BI.equiv_iff.mp ⟨(share_ZYK M t f).1, (share_ZYK M t f).2⟩

/-- The whole share is the share lent to the forward and the share kept. -/
theorem share_FG (f : Buf (Elt F) (M.view.loc (t : Thread nD τ))) :
    pts M t fullShare f ⊣⊢ iprop(pts M t shF f ∗ pts M t shG f) :=
  share_split M t fullShare f

theorem share_FG_eq (f : Buf (Elt F) (M.view.loc (t : Thread nD τ))) :
    pts M t fullShare f = iprop(pts M t shF f ∗ pts M t shG f) :=
  share_split_eq M t fullShare f

/-- Contents that agree on the region are the same assertion. -/
theorem congr_eq (q : PosShare TreeShare) (f g : Buf (Elt F) (M.view.loc (t : Thread nD τ)))
    (h : ∀ i ∈ M.view.set, f i = g i) : pts M t q f = pts M t q g :=
  pointsTo_congr h

theorem congr (q : PosShare TreeShare) (f g : Buf (Elt F) (M.view.loc (t : Thread nD τ)))
    (h : ∀ i ∈ M.view.set, f i = g i) : pts M t q f ⊢ pts M t q g :=
  Entails.of_eq (congr_eq M t q f g h)

/-- A region at known contents is a region at some contents. -/
theorem junk_of_pts (f : Buf (Elt F) (M.view.loc (t : Thread nD τ))) : pts M t fullShare f ⊢ junk (F := F) M t := by
  iintro H
  iexists f
  iexact H

end Shares

/-! ## A finite family written out -/

section Chains
variable {M' : Type} [URA M']

theorem bigSep_fin3 (Φ : Fin 3 → sProp M') : bigSep Finset.univ Φ = iprop(Φ 0 ∗ Φ 1 ∗ Φ 2) := by
  rw [show (Finset.univ : Finset (Fin 3)) = {0, 1, 2} by decide,
    bigSep_insert (by decide), bigSep_insert (by decide), bigSep_singleton]
  rfl

theorem bigSep_fin4 (Φ : Fin 4 → sProp M') : bigSep Finset.univ Φ = iprop(Φ 0 ∗ Φ 1 ∗ Φ 2 ∗ Φ 3) := by
  rw [show (Finset.univ : Finset (Fin 4)) = {0, 1, 2, 3} by decide,
    bigSep_insert (by decide), bigSep_insert (by decide), bigSep_insert (by decide), bigSep_singleton]
  rfl

theorem bigSep_fin8 (Φ : Fin 8 → sProp M') :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    bigSep_insert (by decide), bigSep_insert (by decide), bigSep_insert (by decide), bigSep_insert (by decide),
    bigSep_insert (by decide), bigSep_insert (by decide), bigSep_insert (by decide), bigSep_singleton]
  rfl

end Chains

/-! ## A region cut into a finite family of pairwise disjoint parts -/

section Cut
variable {ℓ : Loc nD τ sig} {T : Type} [DecidableEq T]

/-- Held at one contents, the region is the parts. -/
theorem cut_eq [Fintype T] (S : Finset (Idx ℓ)) (K : T → Finset (Idx ℓ)) (q : PosShare TreeShare) (f : Buf (Elt F) ℓ)
    (hd : ∀ a b : T, a ≠ b → Disjoint (K a) (K b)) (hS : ∀ i, i ∈ S ↔ ∃ a, i ∈ K a) :
    (ℓ ↦[S]{q} f : sProp 𝕄) = bigSep Finset.univ fun a => (ℓ ↦[K a]{q} f : sProp 𝕄) := by
  rw [← pointsTo_biUnion Finset.univ K (fun a _ b _ h => hd a b h)]
  congr 1
  ext i
  rw [hS i, Finset.mem_biUnion]
  exact ⟨fun ⟨a, h⟩ => ⟨a, Finset.mem_univ a, h⟩, fun ⟨a, _, h⟩ => ⟨a, h⟩⟩

/-- Parts of a subfamily, each at contents of its own, are their union at some contents. -/
theorem join_sub (A : Finset T) (K : T → Finset (Idx ℓ)) (q : PosShare TreeShare) (f₀ : Buf (Elt F) ℓ)
    (hd : ∀ a b : T, a ≠ b → Disjoint (K a) (K b)) :
    bigSep A (fun a => (iprop(∃ f : Buf (Elt F) ℓ, ℓ ↦[K a]{q} f) : sProp 𝕄))
      ⊢ (iprop(∃ g : Buf (Elt F) ℓ, ℓ ↦[A.biUnion K]{q} g) : sProp 𝕄) := by
  induction A using Finset.induction_on with
  | empty =>
    iintro -
    iexists f₀
    rw [Finset.biUnion_empty, pointsTo_empty]
    iempintro
  | insert a A ha ih =>
    rw [bigSep_insert ha, Finset.biUnion_insert]
    have hda : Disjoint (K a) (A.biUnion K) :=
      (Finset.disjoint_biUnion_right _ _ _).mpr fun b hb => hd a b (fun e => ha (e ▸ hb))
    refine (sep_mono_right ih).trans ?_
    iintro ⟨⟨%f, Ha⟩, ⟨%g, HA⟩⟩
    iexists (A.biUnion K).piecewise g f
    iapply (pointsTo_join hda)
    isplitl [Ha]
    · iexact Ha
    · iexact HA

/-- The parts, each at contents of its own, are the region at some contents. -/
theorem cut_join [Fintype T] [Nonempty T] (S : Finset (Idx ℓ)) (K : T → Finset (Idx ℓ)) (q : PosShare TreeShare)
    (hd : ∀ a b : T, a ≠ b → Disjoint (K a) (K b)) (hS : ∀ i, i ∈ S ↔ ∃ a, i ∈ K a) :
    bigSep Finset.univ (fun a => (iprop(∃ f : Buf (Elt F) ℓ, ℓ ↦[K a]{q} f) : sProp 𝕄))
      ⊢ (iprop(∃ g : Buf (Elt F) ℓ, ℓ ↦[S]{q} g) : sProp 𝕄) := by
  obtain ⟨a₀⟩ := ‹Nonempty T›
  have hU : (Finset.univ : Finset T).biUnion K = S := by
    ext i
    rw [hS i, Finset.mem_biUnion]
    exact ⟨fun ⟨a, _, h⟩ => ⟨a, h⟩, fun ⟨a, h⟩ => ⟨a, Finset.mem_univ a, h⟩⟩
  rw [bigSep_univ_split a₀]
  refine (show iprop((∃ f : Buf (Elt F) ℓ, ℓ ↦[K a₀]{q} f)
      ∗ bigSep (Finset.univ.erase a₀) (fun a => (iprop(∃ f : Buf (Elt F) ℓ, ℓ ↦[K a]{q} f) : sProp 𝕄))) ⊢ _ from ?_)
  iintro ⟨⟨%f, Ha⟩, Hr⟩
  ihave Hr' := (join_sub (F := F) (Finset.univ.erase a₀) K q f hd) $$ Hr
  icases Hr' with ⟨%g, Hr'⟩
  have hda : Disjoint (K a₀) ((Finset.univ.erase a₀).biUnion K) :=
    (Finset.disjoint_biUnion_right _ _ _).mpr fun b hb => hd a₀ b (fun e => (Finset.ne_of_mem_erase hb) e.symm)
  iexists ((Finset.univ.erase a₀).biUnion K).piecewise g f
  have hU' : K a₀ ∪ (Finset.univ.erase a₀).biUnion K = S := by
    rw [← hU, ← Finset.biUnion_insert, Finset.insert_erase (Finset.mem_univ a₀)]
  rw [← hU']
  iapply (pointsTo_join hda)
  isplitl [Ha]
  · iexact Ha
  · iexact Hr'

end Cut

/-! ## A unit-stride rectangle cut into slabs along one axis -/

/-- The facts that say the rectangles (offK j, sizeK), j < n, are the slabs of thickness w of the rectangle
    (off, size) along axis a₀. They are decided on literals. -/
def SlabOK {r : ℕ} (a₀ : Fin r) (n w : ℕ) (off size : Fin r → ℕ) (offK : Fin n → Fin r → ℕ) (sizeK : Fin r → ℕ) : Prop :=
  0 < w ∧ sizeK a₀ = w ∧ size a₀ = n * w ∧
    ∀ j : Fin n, offK j a₀ = off a₀ + j.val * w ∧ ∀ a, a ≠ a₀ → offK j a = off a ∧ sizeK a = size a

instance {r : ℕ} (a₀ : Fin r) (n w : ℕ) (off size : Fin r → ℕ) (offK : Fin n → Fin r → ℕ) (sizeK : Fin r → ℕ) :
    Decidable (SlabOK a₀ n w off size offK sizeK) := by unfold SlabOK; infer_instance

/-- An element lies in the rectangle exactly when it lies in one of its slabs: the one that its coordinate on the
    axis, counted from the rectangle's offset and divided by the thickness, names. -/
theorem mem_slab_iff {s : Shape} {a₀ : Fin s.rank} {n w : ℕ} {off size : Fin s.rank → ℕ} {offK : Fin n → Fin s.rank → ℕ}
    {sizeK : Fin s.rank → ℕ} (ok : SlabOK a₀ n w off size offK sizeK)
    (inb : ∀ a, off a + size a ≤ s.size a) (inbK : ∀ j a, offK j a + sizeK a ≤ s.size a) (i : s.Idx) :
    i ∈ (Rect.unit off size inb).set ↔ ∃ j : Fin n, i ∈ (Rect.unit (offK j) sizeK (inbK j)).set := by
  obtain ⟨hw, hwK, hsz, hj⟩ := ok
  constructor
  · intro hi
    have hi' := Rect.mem_set_unit.mp hi
    have h0 := hi' a₀
    have hlt : ((i a₀ : ℕ) - off a₀) / w < n := by
      rw [Nat.div_lt_iff_lt_mul hw]; omega
    refine ⟨⟨((i a₀ : ℕ) - off a₀) / w, hlt⟩, Rect.mem_set_unit.mpr fun a => ?_⟩
    by_cases h : a = a₀
    · subst h
      have e := (hj ⟨((i a : ℕ) - off a) / w, hlt⟩).1
      have l1 : ((i a : ℕ) - off a) / w * w ≤ (i a : ℕ) - off a := Nat.div_mul_le_self _ _
      have l2 : (i a : ℕ) - off a < ((i a : ℕ) - off a) / w * w + w := Nat.lt_div_mul_add hw
      simp only at e
      omega
    · have e := (hj ⟨((i a₀ : ℕ) - off a₀) / w, hlt⟩).2 a h
      have := hi' a
      omega
  · rintro ⟨j, hi⟩
    have hi' := Rect.mem_set_unit.mp hi
    refine Rect.mem_set_unit.mpr fun a => ?_
    by_cases h : a = a₀
    · subst h
      have e := (hj j).1
      have l : (j.val + 1) * w ≤ n * w := Nat.mul_le_mul_right w j.isLt
      rw [Nat.succ_mul] at l
      have := hi' a
      omega
    · have e := (hj j).2 a h
      have := hi' a
      omega

/-- Different slabs are disjoint. -/
theorem slab_disjoint {s : Shape} {a₀ : Fin s.rank} {n w : ℕ} {off size : Fin s.rank → ℕ} {offK : Fin n → Fin s.rank → ℕ}
    {sizeK : Fin s.rank → ℕ} (ok : SlabOK a₀ n w off size offK sizeK)
    (inbK : ∀ j a, offK j a + sizeK a ≤ s.size a) (j j' : Fin n) (h : j ≠ j') :
    Disjoint (Rect.unit (offK j) sizeK (inbK j)).set (Rect.unit (offK j') sizeK (inbK j')).set := by
  obtain ⟨hw, hwK, hsz, hj⟩ := ok
  refine Rect.unit_disjoint a₀ ?_
  have e := (hj j).1
  have e' := (hj j').1
  rcases Nat.lt_or_gt_of_ne (fun e => h (Fin.ext e)) with hlt | hgt
  · left
    have l : (j.val + 1) * w ≤ j'.val * w := Nat.mul_le_mul_right w hlt
    rw [Nat.succ_mul] at l
    omega
  · right
    have l : (j'.val + 1) * w ≤ j.val * w := Nat.mul_le_mul_right w hgt
    rw [Nat.succ_mul] at l
    omega

/-- Every element lies in the rectangle of the shape's own sizes at offset zero. -/
theorem mem_unit_zero {s : Shape} (inb : ∀ a, (fun _ => 0 : Fin s.rank → ℕ) a + s.size a ≤ s.size a) (i : s.Idx) :
    i ∈ (Rect.unit (fun _ => 0) s.size inb).set :=
  Rect.mem_set_unit.mpr fun a => ⟨Nat.zero_le _, by have := (i a).isLt; omega⟩

/-- The parts K a are pairwise disjoint and together make up S. -/
structure IsCut {ℓ : Loc nD τ sig} {T : Type} (S : Finset (Idx ℓ)) (K : T → Finset (Idx ℓ)) : Prop where
  disj : ∀ a b : T, a ≠ b → Disjoint (K a) (K b)
  mem : ∀ i, i ∈ S ↔ ∃ a, i ∈ K a

section IsCut
variable {ℓ : Loc nD τ sig} {T : Type} [DecidableEq T] [Fintype T] {S : Finset (Idx ℓ)} {K : T → Finset (Idx ℓ)}

theorem IsCut.pts_eq (c : IsCut S K) (q : PosShare TreeShare) (f : Buf (Elt F) ℓ) :
    (ℓ ↦[S]{q} f : sProp 𝕄) = bigSep Finset.univ fun a => (ℓ ↦[K a]{q} f : sProp 𝕄) :=
  cut_eq S K q f c.disj c.mem

theorem IsCut.junk_split (c : IsCut S K) (q : PosShare TreeShare) :
    (iprop(∃ f : Buf (Elt F) ℓ, ℓ ↦[S]{q} f) : sProp 𝕄)
      ⊢ bigSep Finset.univ fun a => (iprop(∃ f : Buf (Elt F) ℓ, ℓ ↦[K a]{q} f) : sProp 𝕄) := by
  refine exists_elim fun f => ?_
  exact (Entails.of_eq (c.pts_eq q f)).trans
    (bigSep_mono fun a _ => exists_intro (Φ := fun g : Buf (Elt F) ℓ => (ℓ ↦[K a]{q} g : sProp 𝕄)) f)

theorem IsCut.junk_join [Nonempty T] (c : IsCut S K) (q : PosShare TreeShare) :
    bigSep Finset.univ (fun a => (iprop(∃ f : Buf (Elt F) ℓ, ℓ ↦[K a]{q} f) : sProp 𝕄))
      ⊢ (iprop(∃ g : Buf (Elt F) ℓ, ℓ ↦[S]{q} g) : sProp 𝕄) :=
  cut_join S K q c.disj c.mem

end IsCut

/-! ## The row blocks of the staging buffers -/

/-- Rows 512k … 512k+511 of the four f32 staging buffers. -/
abbrev stPR (k : Fin 8) : Memref sig .tc .vmem S512x256 .f32 :=
  (Memref.whole cc0_scratch5 : Memref sig .tc .vmem S4096x256 .f32).slice (Rect.unit (s := S4096x256) ![512 * k.val, 0] S512x256.size (rows8_inb k)) (fun _ => rfl)
abbrev stLR (k : Fin 8) : Memref sig .tc .vmem S512x256 .f32 :=
  (Memref.whole cc0_scratch6 : Memref sig .tc .vmem S4096x256 .f32).slice (Rect.unit (s := S4096x256) ![512 * k.val, 0] S512x256.size (rows8_inb k)) (fun _ => rfl)
abbrev stP2R (k : Fin 3) : Memref sig .tc .vmem S512x256 .f32 :=
  (Memref.whole cc0_scratch7 : Memref sig .tc .vmem S1536x256 .f32).slice (Rect.unit (s := S1536x256) ![512 * k.val, 0] S512x256.size (rows3_inb k)) (fun _ => rfl)
abbrev stL2R (k : Fin 3) : Memref sig .tc .vmem S512x256 .f32 :=
  (Memref.whole cc0_scratch8 : Memref sig .tc .vmem S1536x256 .f32).slice (Rect.unit (s := S1536x256) ![512 * k.val, 0] S512x256.size (rows3_inb k)) (fun _ => rfl)

abbrev rect8 (k : Fin 8) : Rect S4096x256 := Rect.unit (s := S4096x256) ![512 * k.val, 0] S512x256.size (rows8_inb k)
abbrev rect3 (k : Fin 3) : Rect S1536x256 := Rect.unit (s := S1536x256) ![512 * k.val, 0] S512x256.size (rows3_inb k)

theorem rows8_ok : SlabOK (r := 2) 0 8 512 (fun _ => 0) S4096x256.size (fun k : Fin 8 => ![512 * k.val, 0]) S512x256.size := by decide
theorem rows3_ok : SlabOK (r := 2) 0 3 512 (fun _ => 0) S1536x256.size (fun k : Fin 3 => ![512 * k.val, 0]) S512x256.size := by decide

/-- Eight blocks of 512 rows are the 4096 rows; three are the 1536. -/
theorem rows8_sets (K : Fin 8 → Finset S4096x256.Idx) (e : ∀ k, K k = (rect8 k).set) :
    (∀ a b, a ≠ b → Disjoint (K a) (K b)) ∧ ∀ i, i ∈ (Finset.univ : Finset S4096x256.Idx) ↔ ∃ k, i ∈ K k := by
  refine ⟨fun a b h => ?_, fun i => ?_⟩
  · have := slab_disjoint (s := S4096x256) rows8_ok rows8_inb a b h
    rw [e a, e b]; exact this
  · refine ⟨fun _ => ?_, fun _ => Finset.mem_univ i⟩
    obtain ⟨k, hk⟩ := (mem_slab_iff (s := S4096x256) rows8_ok (fun a => Nat.le_of_eq (Nat.zero_add _)) rows8_inb i).mp (mem_unit_zero _ i)
    exact ⟨k, by rw [e k]; exact hk⟩

theorem rows3_sets (K : Fin 3 → Finset S1536x256.Idx) (e : ∀ k, K k = (rect3 k).set) :
    (∀ a b, a ≠ b → Disjoint (K a) (K b)) ∧ ∀ i, i ∈ (Finset.univ : Finset S1536x256.Idx) ↔ ∃ k, i ∈ K k := by
  refine ⟨fun a b h => ?_, fun i => ?_⟩
  · have := slab_disjoint (s := S1536x256) rows3_ok rows3_inb a b h
    rw [e a, e b]; exact this
  · refine ⟨fun _ => ?_, fun _ => Finset.mem_univ i⟩
    obtain ⟨k, hk⟩ := (mem_slab_iff (s := S1536x256) rows3_ok (fun a => Nat.le_of_eq (Nat.zero_add _)) rows3_inb i).mp (mem_unit_zero _ i)
    exact ⟨k, by rw [e k]; exact hk⟩

section Rows
variable (t : Dev nD)

theorem sbR_cut : IsCut (ℓ := (t : Thread nD τ).loc cc0_scratch1) Finset.univ (fun k : Fin 8 => (sbR k).view.set) :=
  have h := rows8_sets (fun k => (sbR k).view.set) (fun k => View.set_slice_whole _ _); ⟨h.1, h.2⟩
theorem rbR_cut : IsCut (ℓ := (t : Thread nD τ).loc cc0_scratch2) Finset.univ (fun k : Fin 8 => (rbR k).view.set) :=
  have h := rows8_sets (fun k => (rbR k).view.set) (fun k => View.set_slice_whole _ _); ⟨h.1, h.2⟩
theorem sb2R_cut : IsCut (ℓ := (t : Thread nD τ).loc cc0_scratch3) Finset.univ (fun k : Fin 3 => (sb2R k).view.set) :=
  have h := rows3_sets (fun k => (sb2R k).view.set) (fun k => View.set_slice_whole _ _); ⟨h.1, h.2⟩
theorem rb2R_cut : IsCut (ℓ := (t : Thread nD τ).loc cc0_scratch4) Finset.univ (fun k : Fin 3 => (rb2R k).view.set) :=
  have h := rows3_sets (fun k => (rb2R k).view.set) (fun k => View.set_slice_whole _ _); ⟨h.1, h.2⟩
theorem stPR_cut : IsCut (ℓ := (t : Thread nD τ).loc cc0_scratch5) Finset.univ (fun k : Fin 8 => (stPR k).view.set) :=
  have h := rows8_sets (fun k => (stPR k).view.set) (fun k => View.set_slice_whole _ _); ⟨h.1, h.2⟩
theorem stLR_cut : IsCut (ℓ := (t : Thread nD τ).loc cc0_scratch6) Finset.univ (fun k : Fin 8 => (stLR k).view.set) :=
  have h := rows8_sets (fun k => (stLR k).view.set) (fun k => View.set_slice_whole _ _); ⟨h.1, h.2⟩
theorem stP2R_cut : IsCut (ℓ := (t : Thread nD τ).loc cc0_scratch7) Finset.univ (fun k : Fin 3 => (stP2R k).view.set) :=
  have h := rows3_sets (fun k => (stP2R k).view.set) (fun k => View.set_slice_whole _ _); ⟨h.1, h.2⟩
theorem stL2R_cut : IsCut (ℓ := (t : Thread nD τ).loc cc0_scratch8) Finset.univ (fun k : Fin 3 => (stL2R k).view.set) :=
  have h := rows3_sets (fun k => (stL2R k).view.set) (fun k => View.set_slice_whole _ _); ⟨h.1, h.2⟩

/-- A whole buffer, spelt through its memref, is the buffer. -/
theorem pts_whole (B : Ref sig .tc) (q : PosShare TreeShare) (f : Buf (Elt F) ((t : Thread nD τ).loc B)) :
    pts (Memref.whole B) t q f = ((t : Thread nD τ).loc B ↦{q} f : sProp 𝕄) := by
  show ((t : Thread nD τ).loc B ↦[(View.whole B).set]{q} f : sProp 𝕄) = _
  rw [View.set_whole]

theorem junk_whole (B : Ref sig .tc) :
    junk (F := F) (Memref.whole B) t
      = (iprop(∃ f : Buf (Elt F) ((t : Thread nD τ).loc B), (t : Thread nD τ).loc B ↦{fullShare} f) : sProp 𝕄) := by
  show (iprop(∃ f : Buf (Elt F) ((t : Thread nD τ).loc B), (t : Thread nD τ).loc B ↦[(View.whole B).set]{fullShare} f) : sProp 𝕄) = _
  rw [View.set_whole]

/-! Each staging buffer at one contents is its row blocks at that contents. -/

theorem sb_rows (q : PosShare TreeShare) (f : Buf (Elt F) ((t : Thread nD τ).loc cc0_scratch1)) :
    ((t : Thread nD τ).loc cc0_scratch1 ↦{q} f : sProp 𝕄) =
      iprop(pts (sbR 0) t q f ∗ pts (sbR 1) t q f ∗ pts (sbR 2) t q f ∗ pts (sbR 3) t q f
        ∗ pts (sbR 4) t q f ∗ pts (sbR 5) t q f ∗ pts (sbR 6) t q f ∗ pts (sbR 7) t q f) :=
  ((sbR_cut t).pts_eq q f).trans (bigSep_fin8 _)

theorem rb_rows (q : PosShare TreeShare) (f : Buf (Elt F) ((t : Thread nD τ).loc cc0_scratch2)) :
    ((t : Thread nD τ).loc cc0_scratch2 ↦{q} f : sProp 𝕄) =
      iprop(pts (rbR 0) t q f ∗ pts (rbR 1) t q f ∗ pts (rbR 2) t q f ∗ pts (rbR 3) t q f
        ∗ pts (rbR 4) t q f ∗ pts (rbR 5) t q f ∗ pts (rbR 6) t q f ∗ pts (rbR 7) t q f) :=
  ((rbR_cut t).pts_eq q f).trans (bigSep_fin8 _)

theorem sb2_rows (q : PosShare TreeShare) (f : Buf (Elt F) ((t : Thread nD τ).loc cc0_scratch3)) :
    ((t : Thread nD τ).loc cc0_scratch3 ↦{q} f : sProp 𝕄) =
      iprop(pts (sb2R 0) t q f ∗ pts (sb2R 1) t q f ∗ pts (sb2R 2) t q f) :=
  ((sb2R_cut t).pts_eq q f).trans (bigSep_fin3 _)

theorem rb2_rows (q : PosShare TreeShare) (f : Buf (Elt F) ((t : Thread nD τ).loc cc0_scratch4)) :
    ((t : Thread nD τ).loc cc0_scratch4 ↦{q} f : sProp 𝕄) =
      iprop(pts (rb2R 0) t q f ∗ pts (rb2R 1) t q f ∗ pts (rb2R 2) t q f) :=
  ((rb2R_cut t).pts_eq q f).trans (bigSep_fin3 _)

theorem stP_rows (q : PosShare TreeShare) (f : Buf (Elt F) ((t : Thread nD τ).loc cc0_scratch5)) :
    ((t : Thread nD τ).loc cc0_scratch5 ↦{q} f : sProp 𝕄) =
      iprop(pts (stPR 0) t q f ∗ pts (stPR 1) t q f ∗ pts (stPR 2) t q f ∗ pts (stPR 3) t q f
        ∗ pts (stPR 4) t q f ∗ pts (stPR 5) t q f ∗ pts (stPR 6) t q f ∗ pts (stPR 7) t q f) :=
  ((stPR_cut t).pts_eq q f).trans (bigSep_fin8 _)

theorem stL_rows (q : PosShare TreeShare) (f : Buf (Elt F) ((t : Thread nD τ).loc cc0_scratch6)) :
    ((t : Thread nD τ).loc cc0_scratch6 ↦{q} f : sProp 𝕄) =
      iprop(pts (stLR 0) t q f ∗ pts (stLR 1) t q f ∗ pts (stLR 2) t q f ∗ pts (stLR 3) t q f
        ∗ pts (stLR 4) t q f ∗ pts (stLR 5) t q f ∗ pts (stLR 6) t q f ∗ pts (stLR 7) t q f) :=
  ((stLR_cut t).pts_eq q f).trans (bigSep_fin8 _)

theorem stP2_rows (q : PosShare TreeShare) (f : Buf (Elt F) ((t : Thread nD τ).loc cc0_scratch7)) :
    ((t : Thread nD τ).loc cc0_scratch7 ↦{q} f : sProp 𝕄) =
      iprop(pts (stP2R 0) t q f ∗ pts (stP2R 1) t q f ∗ pts (stP2R 2) t q f) :=
  ((stP2R_cut t).pts_eq q f).trans (bigSep_fin3 _)

theorem stL2_rows (q : PosShare TreeShare) (f : Buf (Elt F) ((t : Thread nD τ).loc cc0_scratch8)) :
    ((t : Thread nD τ).loc cc0_scratch8 ↦{q} f : sProp 𝕄) =
      iprop(pts (stL2R 0) t q f ∗ pts (stL2R 1) t q f ∗ pts (stL2R 2) t q f) :=
  ((stL2R_cut t).pts_eq q f).trans (bigSep_fin3 _)

/-! Row blocks held at contents of their own are the buffer at some contents. -/

theorem sb_rows_join :
    (iprop(junk (F := F) (sbR 0) t ∗ junk (F := F) (sbR 1) t ∗ junk (F := F) (sbR 2) t ∗ junk (F := F) (sbR 3) t
        ∗ junk (F := F) (sbR 4) t ∗ junk (F := F) (sbR 5) t ∗ junk (F := F) (sbR 6) t ∗ junk (F := F) (sbR 7) t) : sProp 𝕄) ⊢
      iprop(∃ f : Buf (Elt F) ((t : Thread nD τ).loc cc0_scratch1), (t : Thread nD τ).loc cc0_scratch1 ↦{fullShare} f) :=
  (Entails.of_eq (bigSep_fin8 (fun k : Fin 8 => junk (F := F) (sbR k) t)).symm).trans ((sbR_cut t).junk_join fullShare)

theorem rb_rows_join :
    (iprop(junk (F := F) (rbR 0) t ∗ junk (F := F) (rbR 1) t ∗ junk (F := F) (rbR 2) t ∗ junk (F := F) (rbR 3) t
        ∗ junk (F := F) (rbR 4) t ∗ junk (F := F) (rbR 5) t ∗ junk (F := F) (rbR 6) t ∗ junk (F := F) (rbR 7) t) : sProp 𝕄) ⊢
      iprop(∃ f : Buf (Elt F) ((t : Thread nD τ).loc cc0_scratch2), (t : Thread nD τ).loc cc0_scratch2 ↦{fullShare} f) :=
  (Entails.of_eq (bigSep_fin8 (fun k : Fin 8 => junk (F := F) (rbR k) t)).symm).trans ((rbR_cut t).junk_join fullShare)

theorem sb2_rows_join :
    (iprop(junk (F := F) (sb2R 0) t ∗ junk (F := F) (sb2R 1) t ∗ junk (F := F) (sb2R 2) t) : sProp 𝕄) ⊢
      iprop(∃ f : Buf (Elt F) ((t : Thread nD τ).loc cc0_scratch3), (t : Thread nD τ).loc cc0_scratch3 ↦{fullShare} f) :=
  (Entails.of_eq (bigSep_fin3 (fun k : Fin 3 => junk (F := F) (sb2R k) t)).symm).trans ((sb2R_cut t).junk_join fullShare)

theorem rb2_rows_join :
    (iprop(junk (F := F) (rb2R 0) t ∗ junk (F := F) (rb2R 1) t ∗ junk (F := F) (rb2R 2) t) : sProp 𝕄) ⊢
      iprop(∃ f : Buf (Elt F) ((t : Thread nD τ).loc cc0_scratch4), (t : Thread nD τ).loc cc0_scratch4 ↦{fullShare} f) :=
  (Entails.of_eq (bigSep_fin3 (fun k : Fin 3 => junk (F := F) (rb2R k) t)).symm).trans ((rb2R_cut t).junk_join fullShare)

theorem stP_rows_join :
    (iprop(junk (F := F) (stPR 0) t ∗ junk (F := F) (stPR 1) t ∗ junk (F := F) (stPR 2) t ∗ junk (F := F) (stPR 3) t
        ∗ junk (F := F) (stPR 4) t ∗ junk (F := F) (stPR 5) t ∗ junk (F := F) (stPR 6) t ∗ junk (F := F) (stPR 7) t) : sProp 𝕄) ⊢
      iprop(∃ f : Buf (Elt F) ((t : Thread nD τ).loc cc0_scratch5), (t : Thread nD τ).loc cc0_scratch5 ↦{fullShare} f) :=
  (Entails.of_eq (bigSep_fin8 (fun k : Fin 8 => junk (F := F) (stPR k) t)).symm).trans ((stPR_cut t).junk_join fullShare)

theorem stL_rows_join :
    (iprop(junk (F := F) (stLR 0) t ∗ junk (F := F) (stLR 1) t ∗ junk (F := F) (stLR 2) t ∗ junk (F := F) (stLR 3) t
        ∗ junk (F := F) (stLR 4) t ∗ junk (F := F) (stLR 5) t ∗ junk (F := F) (stLR 6) t ∗ junk (F := F) (stLR 7) t) : sProp 𝕄) ⊢
      iprop(∃ f : Buf (Elt F) ((t : Thread nD τ).loc cc0_scratch6), (t : Thread nD τ).loc cc0_scratch6 ↦{fullShare} f) :=
  (Entails.of_eq (bigSep_fin8 (fun k : Fin 8 => junk (F := F) (stLR k) t)).symm).trans ((stLR_cut t).junk_join fullShare)

theorem stP2_rows_join :
    (iprop(junk (F := F) (stP2R 0) t ∗ junk (F := F) (stP2R 1) t ∗ junk (F := F) (stP2R 2) t) : sProp 𝕄) ⊢
      iprop(∃ f : Buf (Elt F) ((t : Thread nD τ).loc cc0_scratch7), (t : Thread nD τ).loc cc0_scratch7 ↦{fullShare} f) :=
  (Entails.of_eq (bigSep_fin3 (fun k : Fin 3 => junk (F := F) (stP2R k) t)).symm).trans ((stP2R_cut t).junk_join fullShare)

theorem stL2_rows_join :
    (iprop(junk (F := F) (stL2R 0) t ∗ junk (F := F) (stL2R 1) t ∗ junk (F := F) (stL2R 2) t) : sProp 𝕄) ⊢
      iprop(∃ f : Buf (Elt F) ((t : Thread nD τ).loc cc0_scratch8), (t : Thread nD τ).loc cc0_scratch8 ↦{fullShare} f) :=
  (Entails.of_eq (bigSep_fin3 (fun k : Fin 3 => junk (F := F) (stL2R k) t)).symm).trans ((stL2R_cut t).junk_join fullShare)

/-- The two landing buffers a neighbour across x hands over whole are their row blocks, each at some contents. -/
theorem giveX_rows : giveX (F := F) t ⊢
    iprop((junk (F := F) (rbR 0) t ∗ junk (F := F) (rbR 1) t ∗ junk (F := F) (rbR 2) t ∗ junk (F := F) (rbR 3) t
        ∗ junk (F := F) (rbR 4) t ∗ junk (F := F) (rbR 5) t ∗ junk (F := F) (rbR 6) t ∗ junk (F := F) (rbR 7) t)
      ∗ (junk (F := F) (rb2R 0) t ∗ junk (F := F) (rb2R 1) t ∗ junk (F := F) (rb2R 2) t)) := by
  unfold giveX
  refine BIClass.sep_mono ?_ ?_
  · exact (Entails.of_eq (junk_whole t cc0_scratch2)).trans
      (((rbR_cut t).junk_split fullShare).trans (Entails.of_eq (bigSep_fin8 _)))
  · exact (Entails.of_eq (junk_whole t cc0_scratch4)).trans
      (((rb2R_cut t).junk_split fullShare).trans (Entails.of_eq (bigSep_fin3 _)))

end Rows

/-! ## The four-quarter buffer

It is cut along its first axis into the four quarters, a quarter along its rows into eight chunks, a chunk along its
columns into two halves. A device names its quarters in the order own, z-neighbour's, y-neighbour's, diagonal. -/

theorem quarter_inb : ∀ (q : Fin 4), ∀ a : Fin 3,
    (![q.val, 0, 0] : Fin 3 → ℕ) a + (![1, 4096, 256] : Fin 3 → ℕ) a ≤ S4x4096x256.size a := by decide

abbrev rectQ (q : Fin 4) : Rect S4x4096x256 := Rect.unit (s := S4x4096x256) ![q.val, 0, 0] ![1, 4096, 256] (quarter_inb q)
abbrev rectC (q : Fin 4) (k : Fin 8) : Rect S4x4096x256 :=
  Rect.unit (s := S4x4096x256) ![q.val, 512 * k.val, 0] S1x512x256.size (chunk_inb q k)
abbrev rectH (q : Fin 4) (k : Fin 8) (h : Fin 2) : Rect S4x4096x256 :=
  Rect.unit (s := S4x4096x256) ![q.val, 512 * k.val, 128 * h.val] S1x512x128.size (half_inb q k h)

theorem quarters_ok : SlabOK (r := 3) 0 4 1 (fun _ => 0) S4x4096x256.size (fun q : Fin 4 => ![q.val, 0, 0]) ![1, 4096, 256] := by
  decide
theorem chunks_ok : ∀ q : Fin 4, SlabOK (r := 3) 1 8 512 ![q.val, 0, 0] ![1, 4096, 256]
    (fun k : Fin 8 => ![q.val, 512 * k.val, 0]) S1x512x256.size := by decide
theorem halves_ok : ∀ (q : Fin 4) (k : Fin 8), SlabOK (r := 3) 2 2 128 ![q.val, 512 * k.val, 0] S1x512x256.size
    (fun h : Fin 2 => ![q.val, 512 * k.val, 128 * h.val]) S1x512x128.size := by decide

theorem quarters_sets (K : Fin 4 → Finset S4x4096x256.Idx) (e : ∀ q, K q = (rectQ q).set) :
    (∀ a b, a ≠ b → Disjoint (K a) (K b)) ∧ ∀ i, i ∈ (Finset.univ : Finset S4x4096x256.Idx) ↔ ∃ q, i ∈ K q := by
  refine ⟨fun a b h => ?_, fun i => ?_⟩
  · have := slab_disjoint (s := S4x4096x256) quarters_ok quarter_inb a b h
    rw [e a, e b]; exact this
  · refine ⟨fun _ => ?_, fun _ => Finset.mem_univ i⟩
    obtain ⟨q, hq⟩ := (mem_slab_iff (s := S4x4096x256) quarters_ok (fun a => Nat.le_of_eq (Nat.zero_add _)) quarter_inb i).mp
      (mem_unit_zero _ i)
    exact ⟨q, by rw [e q]; exact hq⟩

theorem chunks_sets (q : Fin 4) (K : Fin 8 → Finset S4x4096x256.Idx) (e : ∀ k, K k = (rectC q k).set) :
    (∀ a b, a ≠ b → Disjoint (K a) (K b)) ∧ ∀ i, i ∈ (rectQ q).set ↔ ∃ k, i ∈ K k := by
  refine ⟨fun a b h => ?_, fun i => ?_⟩
  · have := slab_disjoint (s := S4x4096x256) (chunks_ok q) (chunk_inb q) a b h
    rw [e a, e b]; exact this
  · have := mem_slab_iff (s := S4x4096x256) (chunks_ok q) (quarter_inb q) (chunk_inb q) i
    exact this.trans (exists_congr fun k => by rw [e k])

theorem halves_sets (q : Fin 4) (k : Fin 8) (S : Finset S4x4096x256.Idx) (eS : S = (rectC q k).set)
    (K : Fin 2 → Finset S4x4096x256.Idx) (e : ∀ h, K h = (rectH q k h).set) :
    (∀ a b, a ≠ b → Disjoint (K a) (K b)) ∧ ∀ i, i ∈ S ↔ ∃ h, i ∈ K h := by
  refine ⟨fun a b h => ?_, fun i => ?_⟩
  · have := slab_disjoint (s := S4x4096x256) (halves_ok q k) (half_inb q k) a b h
    rw [e a, e b]; exact this
  · have := mem_slab_iff (s := S4x4096x256) (halves_ok q k) (chunk_inb q k) (half_inb q k) i
    rw [eS]
    exact this.trans (exists_congr fun h => by rw [e h])

theorem r4R_set (q : Fin 4) (k : Fin 8) : (r4R q k).view.set = (rectC q k).set :=
  (View.set_reshape _ _).trans (View.set_slice_whole _ _)
theorem r4H_set (q : Fin 4) (k : Fin 8) (h : Fin 2) : (r4H q k h).view.set = (rectH q k h).set :=
  (View.set_reshape _ _).trans (View.set_slice_whole _ _)

/-- A device's four quarters in the order own, z-neighbour's, y-neighbour's, diagonal: all four. -/
def qsel (t : Dev nD) : Fin 4 → Fin 4 := ![mqF t, zqF t, yqF t, dqF t]
theorem qsel_bij : ∀ t : Dev nD, Function.Bijective (qsel t) := by decide

theorem IsCut.reindex {ℓ : Loc nD τ sig} {T T' : Type} {S : Finset (Idx ℓ)} {K : T → Finset (Idx ℓ)} (c : IsCut S K)
    (σ : T' → T) (hσ : Function.Bijective σ) : IsCut S (fun a => K (σ a)) :=
  ⟨fun a b h => c.disj _ _ (fun e => h (hσ.1 e)),
   fun i => (c.mem i).trans ⟨fun ⟨a, h⟩ => let ⟨a', ha'⟩ := hσ.2 a; ⟨a', by rw [ha']; exact h⟩, fun ⟨a, h⟩ => ⟨σ a, h⟩⟩⟩

/-- Thirteen assertions, the last ten in five pairs, regrouped as the first three, the pairs' first and the pairs' second components. -/
theorem regroup13_bi {M' : Type} [URA M'] (d0 d1 d2 a3 b3 a4 b4 a5 b5 a6 b6 a7 b7 : sProp M') :
    (iprop(d0 ∗ d1 ∗ d2 ∗ (a3 ∗ b3) ∗ (a4 ∗ b4) ∗ (a5 ∗ b5) ∗ (a6 ∗ b6) ∗ (a7 ∗ b7)) : sProp M')
      ⊣⊢ iprop((d0 ∗ d1 ∗ d2) ∗ (a3 ∗ a4 ∗ a5 ∗ a6 ∗ a7) ∗ (b3 ∗ b4 ∗ b5 ∗ b6 ∗ b7)) := by
  constructor
  · iintro ⟨D0, D1, D2, ⟨A3, B3⟩, ⟨A4, B4⟩, ⟨A5, B5⟩, ⟨A6, B6⟩, A7, B7⟩
    iframe
  · iintro ⟨⟨D0, D1, D2⟩, ⟨A3, A4, A5, A6, A7⟩, B3, B4, B5, B6, B7⟩
    iframe

theorem regroup13 {M' : Type} [URA M'] (d0 d1 d2 a3 b3 a4 b4 a5 b5 a6 b6 a7 b7 : sProp M') :
    (iprop(d0 ∗ d1 ∗ d2 ∗ (a3 ∗ b3) ∗ (a4 ∗ b4) ∗ (a5 ∗ b5) ∗ (a6 ∗ b6) ∗ (a7 ∗ b7)) : sProp M')
      = iprop((d0 ∗ d1 ∗ d2) ∗ (a3 ∗ a4 ∗ a5 ∗ a6 ∗ a7) ∗ (b3 ∗ b4 ∗ b5 ∗ b6 ∗ b7)) :=
  BI.equiv_iff.mp ⟨(regroup13_bi d0 d1 d2 a3 b3 a4 b4 a5 b5 a6 b6 a7 b7).1, (regroup13_bi d0 d1 d2 a3 b3 a4 b4 a5 b5 a6 b6 a7 b7).2⟩

/-- Equal parts, equal wholes. -/
theorem sep_congr {M' : Type} [URA M'] {a a' b b' : sProp M'} (ha : a = a') (hb : b = b') :
    (iprop(a ∗ b) : sProp M') = iprop(a' ∗ b') := by rw [ha, hb]

section Quarters
variable (t : Dev nD)

theorem quarters_cut : IsCut (ℓ := (t : Thread nD τ).loc cc0_scratch0) Finset.univ (fun q : Fin 4 => (rectQ q).set) :=
  have h := quarters_sets (fun q => (rectQ q).set) (fun _ => rfl); ⟨h.1, h.2⟩
theorem myq_cut : IsCut (ℓ := (t : Thread nD τ).loc cc0_scratch0) Finset.univ (fun j : Fin 4 => (rectQ (qsel t j)).set) :=
  (quarters_cut t).reindex (qsel t) (qsel_bij t)
theorem chunks_cut (q : Fin 4) :
    IsCut (ℓ := (t : Thread nD τ).loc cc0_scratch0) (rectQ q).set (fun k : Fin 8 => (r4R q k).view.set) :=
  have h := chunks_sets q (fun k => (r4R q k).view.set) (r4R_set q); ⟨h.1, h.2⟩
theorem halves_cut (q : Fin 4) (k : Fin 8) :
    IsCut (ℓ := (t : Thread nD τ).loc cc0_scratch0) (r4R q k).view.set (fun h : Fin 2 => (r4H q k h).view.set) :=
  have h := halves_sets q k _ (r4R_set q k) (fun h => (r4H q k h).view.set) (r4H_set q k); ⟨h.1, h.2⟩

/-- The buffer is the device's four quarters. -/
theorem r4_quarters (q' : PosShare TreeShare) (f : Buf (Elt F) ((t : Thread nD τ).loc cc0_scratch0)) :
    ((t : Thread nD τ).loc cc0_scratch0 ↦{q'} f : sProp 𝕄) =
      iprop(((t : Thread nD τ).loc cc0_scratch0 ↦[(rectQ (mqF t)).set]{q'} f)
        ∗ ((t : Thread nD τ).loc cc0_scratch0 ↦[(rectQ (zqF t)).set]{q'} f)
        ∗ ((t : Thread nD τ).loc cc0_scratch0 ↦[(rectQ (yqF t)).set]{q'} f)
        ∗ ((t : Thread nD τ).loc cc0_scratch0 ↦[(rectQ (dqF t)).set]{q'} f)) :=
  ((myq_cut t).pts_eq q' f).trans (bigSep_fin4 _)

/-- A quarter is its eight chunks. -/
theorem quarter_chunks (q : Fin 4) (q' : PosShare TreeShare) (f : Buf (Elt F) ((t : Thread nD τ).loc cc0_scratch0)) :
    ((t : Thread nD τ).loc cc0_scratch0 ↦[(rectQ q).set]{q'} f : sProp 𝕄) =
      iprop(pts (r4R q 0) t q' f ∗ pts (r4R q 1) t q' f ∗ pts (r4R q 2) t q' f ∗ pts (r4R q 3) t q' f
        ∗ pts (r4R q 4) t q' f ∗ pts (r4R q 5) t q' f ∗ pts (r4R q 6) t q' f ∗ pts (r4R q 7) t q' f) :=
  ((chunks_cut t q).pts_eq q' f).trans (bigSep_fin8 _)

/-- A chunk is its two halves. -/
theorem chunk_halves (q : Fin 4) (k : Fin 8) (q' : PosShare TreeShare) (f : Buf (Elt F) ((t : Thread nD τ).loc cc0_scratch0)) :
    pts (r4R q k) t q' f = (iprop(pts (r4H q k 0) t q' f ∗ pts (r4H q k 1) t q' f) : sProp 𝕄) :=
  ((halves_cut t q k).pts_eq q' f).trans (bigSep_fin_two _)

theorem chunk_halves_junk (q : Fin 4) (k : Fin 8) :
    junk (F := F) (r4R q k) t ⊢ iprop(junk (F := F) (r4H q k 0) t ∗ junk (F := F) (r4H q k 1) t) :=
  ((halves_cut t q k).junk_split fullShare).trans (Entails.of_eq (bigSep_fin_two _))

theorem chunk_halves_join (q : Fin 4) (k : Fin 8) :
    (iprop(junk (F := F) (r4H q k 0) t ∗ junk (F := F) (r4H q k 1) t) : sProp 𝕄) ⊢ junk (F := F) (r4R q k) t :=
  (Entails.of_eq (bigSep_fin_two (fun h : Fin 2 => junk (F := F) (r4H q k h) t)).symm).trans
    ((halves_cut t q k).junk_join fullShare)

/-- Eight chunks at contents of their own are their quarter at some contents. -/
theorem quarter_join (q : Fin 4) :
    (iprop(junk (F := F) (r4R q 0) t ∗ junk (F := F) (r4R q 1) t ∗ junk (F := F) (r4R q 2) t ∗ junk (F := F) (r4R q 3) t
        ∗ junk (F := F) (r4R q 4) t ∗ junk (F := F) (r4R q 5) t ∗ junk (F := F) (r4R q 6) t ∗ junk (F := F) (r4R q 7) t) : sProp 𝕄) ⊢
      iprop(∃ f : Buf (Elt F) ((t : Thread nD τ).loc cc0_scratch0), (t : Thread nD τ).loc cc0_scratch0 ↦[(rectQ q).set]{fullShare} f) :=
  (Entails.of_eq (bigSep_fin8 (fun k : Fin 8 => junk (F := F) (r4R q k) t)).symm).trans ((chunks_cut t q).junk_join fullShare)

/-- The buffer at one contents is the 37 pieces the protocol moves: the chunks of the own quarter and of the two
    neighbours' quarters, the first three chunks of the diagonal quarter, and the left and the right halves of its
    other five. -/
theorem r4_split (q' : PosShare TreeShare) (f : Buf (Elt F) ((t : Thread nD τ).loc cc0_scratch0)) :
    ((t : Thread nD τ).loc cc0_scratch0 ↦{q'} f : sProp 𝕄) =
      iprop((pts (r4R (mqF t) 0) t q' f ∗ pts (r4R (mqF t) 1) t q' f ∗ pts (r4R (mqF t) 2) t q' f ∗ pts (r4R (mqF t) 3) t q' f
          ∗ pts (r4R (mqF t) 4) t q' f ∗ pts (r4R (mqF t) 5) t q' f ∗ pts (r4R (mqF t) 6) t q' f ∗ pts (r4R (mqF t) 7) t q' f)
        ∗ (pts (r4R (zqF t) 0) t q' f ∗ pts (r4R (zqF t) 1) t q' f ∗ pts (r4R (zqF t) 2) t q' f ∗ pts (r4R (zqF t) 3) t q' f
          ∗ pts (r4R (zqF t) 4) t q' f ∗ pts (r4R (zqF t) 5) t q' f ∗ pts (r4R (zqF t) 6) t q' f ∗ pts (r4R (zqF t) 7) t q' f)
        ∗ (pts (r4R (yqF t) 0) t q' f ∗ pts (r4R (yqF t) 1) t q' f ∗ pts (r4R (yqF t) 2) t q' f ∗ pts (r4R (yqF t) 3) t q' f
          ∗ pts (r4R (yqF t) 4) t q' f ∗ pts (r4R (yqF t) 5) t q' f ∗ pts (r4R (yqF t) 6) t q' f ∗ pts (r4R (yqF t) 7) t q' f)
        ∗ (pts (r4R (dqF t) 0) t q' f ∗ pts (r4R (dqF t) 1) t q' f ∗ pts (r4R (dqF t) 2) t q' f)
        ∗ (pts (r4H (dqF t) 3 0) t q' f ∗ pts (r4H (dqF t) 4 0) t q' f ∗ pts (r4H (dqF t) 5 0) t q' f
          ∗ pts (r4H (dqF t) 6 0) t q' f ∗ pts (r4H (dqF t) 7 0) t q' f)
        ∗ (pts (r4H (dqF t) 3 1) t q' f ∗ pts (r4H (dqF t) 4 1) t q' f ∗ pts (r4H (dqF t) 5 1) t q' f
          ∗ pts (r4H (dqF t) 6 1) t q' f ∗ pts (r4H (dqF t) 7 1) t q' f)) := by
  refine (r4_quarters t q' f).trans ?_
  refine sep_congr (quarter_chunks t (mqF t) q' f) (sep_congr (quarter_chunks t (zqF t) q' f)
    (sep_congr (quarter_chunks t (yqF t) q' f) ?_))
  refine (quarter_chunks t (dqF t) q' f).trans ?_
  refine (sep_congr rfl (sep_congr rfl (sep_congr rfl (sep_congr (chunk_halves t (dqF t) 3 q' f)
    (sep_congr (chunk_halves t (dqF t) 4 q' f) (sep_congr (chunk_halves t (dqF t) 5 q' f)
      (sep_congr (chunk_halves t (dqF t) 6 q' f) (chunk_halves t (dqF t) 7 q' f)))))))).trans ?_
  exact regroup13 _ _ _ _ _ _ _ _ _ _ _ _ _

end Quarters

section QuartersJoin
variable (t : Dev nD)

/-- The 37 pieces, each at contents of its own, are the buffer at some contents. -/
theorem r4_join :
    (iprop((junk (F := F) (r4R (mqF t) 0) t ∗ junk (F := F) (r4R (mqF t) 1) t ∗ junk (F := F) (r4R (mqF t) 2) t ∗ junk (F := F) (r4R (mqF t) 3) t
          ∗ junk (F := F) (r4R (mqF t) 4) t ∗ junk (F := F) (r4R (mqF t) 5) t ∗ junk (F := F) (r4R (mqF t) 6) t ∗ junk (F := F) (r4R (mqF t) 7) t)
        ∗ (junk (F := F) (r4R (zqF t) 0) t ∗ junk (F := F) (r4R (zqF t) 1) t ∗ junk (F := F) (r4R (zqF t) 2) t ∗ junk (F := F) (r4R (zqF t) 3) t
          ∗ junk (F := F) (r4R (zqF t) 4) t ∗ junk (F := F) (r4R (zqF t) 5) t ∗ junk (F := F) (r4R (zqF t) 6) t ∗ junk (F := F) (r4R (zqF t) 7) t)
        ∗ (junk (F := F) (r4R (yqF t) 0) t ∗ junk (F := F) (r4R (yqF t) 1) t ∗ junk (F := F) (r4R (yqF t) 2) t ∗ junk (F := F) (r4R (yqF t) 3) t
          ∗ junk (F := F) (r4R (yqF t) 4) t ∗ junk (F := F) (r4R (yqF t) 5) t ∗ junk (F := F) (r4R (yqF t) 6) t ∗ junk (F := F) (r4R (yqF t) 7) t)
        ∗ (junk (F := F) (r4R (dqF t) 0) t ∗ junk (F := F) (r4R (dqF t) 1) t ∗ junk (F := F) (r4R (dqF t) 2) t)
        ∗ (junk (F := F) (r4H (dqF t) 3 0) t ∗ junk (F := F) (r4H (dqF t) 4 0) t ∗ junk (F := F) (r4H (dqF t) 5 0) t
          ∗ junk (F := F) (r4H (dqF t) 6 0) t ∗ junk (F := F) (r4H (dqF t) 7 0) t)
        ∗ (junk (F := F) (r4H (dqF t) 3 1) t ∗ junk (F := F) (r4H (dqF t) 4 1) t ∗ junk (F := F) (r4H (dqF t) 5 1) t
          ∗ junk (F := F) (r4H (dqF t) 6 1) t ∗ junk (F := F) (r4H (dqF t) 7 1) t)) : sProp 𝕄) ⊢
      iprop(∃ f : Buf (Elt F) ((t : Thread nD τ).loc cc0_scratch0), (t : Thread nD τ).loc cc0_scratch0 ↦{fullShare} f) := by
  -- the diagonal quarter: pair the halves, join each pair into its chunk, then the eight chunks into the quarter
  have hd : (iprop((junk (F := F) (r4R (dqF t) 0) t ∗ junk (F := F) (r4R (dqF t) 1) t ∗ junk (F := F) (r4R (dqF t) 2) t)
        ∗ (junk (F := F) (r4H (dqF t) 3 0) t ∗ junk (F := F) (r4H (dqF t) 4 0) t ∗ junk (F := F) (r4H (dqF t) 5 0) t
          ∗ junk (F := F) (r4H (dqF t) 6 0) t ∗ junk (F := F) (r4H (dqF t) 7 0) t)
        ∗ (junk (F := F) (r4H (dqF t) 3 1) t ∗ junk (F := F) (r4H (dqF t) 4 1) t ∗ junk (F := F) (r4H (dqF t) 5 1) t
          ∗ junk (F := F) (r4H (dqF t) 6 1) t ∗ junk (F := F) (r4H (dqF t) 7 1) t)) : sProp 𝕄) ⊢
      iprop(∃ f : Buf (Elt F) ((t : Thread nD τ).loc cc0_scratch0), (t : Thread nD τ).loc cc0_scratch0 ↦[(rectQ (dqF t)).set]{fullShare} f) := by
    refine (Entails.of_eq (regroup13 _ _ _ _ _ _ _ _ _ _ _ _ _).symm).trans ?_
    refine (BIClass.sep_mono .rfl (BIClass.sep_mono .rfl (BIClass.sep_mono .rfl
      (BIClass.sep_mono (chunk_halves_join t (dqF t) 3) (BIClass.sep_mono (chunk_halves_join t (dqF t) 4)
        (BIClass.sep_mono (chunk_halves_join t (dqF t) 5) (BIClass.sep_mono (chunk_halves_join t (dqF t) 6)
          (chunk_halves_join t (dqF t) 7)))))))).trans ?_
    exact quarter_join t (dqF t)
  refine (BIClass.sep_mono (quarter_join t (mqF t)) (BIClass.sep_mono (quarter_join t (zqF t))
    (BIClass.sep_mono (quarter_join t (yqF t)) hd))).trans ?_
  exact (Entails.of_eq (bigSep_fin4 (fun j : Fin 4 => (iprop(∃ f : Buf (Elt F) ((t : Thread nD τ).loc cc0_scratch0),
      (t : Thread nD τ).loc cc0_scratch0 ↦[(rectQ (qsel t j)).set]{fullShare} f) : sProp 𝕄))).symm).trans
    ((myq_cut t).junk_join fullShare)

/-- The chunks of a quarter at one contents are what a neighbour is handed with the barrier signal. -/
theorem giveQ_of_pts (q : Fin 4) (f : Buf (Elt F) ((t : Thread nD τ).loc cc0_scratch0)) :
    (iprop(pts (r4R q 0) t fullShare f ∗ pts (r4R q 1) t fullShare f ∗ pts (r4R q 2) t fullShare f ∗ pts (r4R q 3) t fullShare f
      ∗ pts (r4R q 4) t fullShare f ∗ pts (r4R q 5) t fullShare f ∗ pts (r4R q 6) t fullShare f ∗ pts (r4R q 7) t fullShare f) : sProp 𝕄)
      ⊢ giveQ (F := F) t q := by
  unfold giveQ
  exact BIClass.sep_mono (junk_of_pts (r4R q 0) t f) (BIClass.sep_mono (junk_of_pts (r4R q 1) t f)
    (BIClass.sep_mono (junk_of_pts (r4R q 2) t f) (BIClass.sep_mono (junk_of_pts (r4R q 3) t f)
      (BIClass.sep_mono (junk_of_pts (r4R q 4) t f) (BIClass.sep_mono (junk_of_pts (r4R q 5) t f)
        (BIClass.sep_mono (junk_of_pts (r4R q 6) t f) (junk_of_pts (r4R q 7) t f)))))))

/-- The left (h = 0) or right (h = 1) halves of chunks 3 … 7 of the diagonal quarter likewise. -/
theorem giveH_of_pts (h : Fin 2) (f : Buf (Elt F) ((t : Thread nD τ).loc cc0_scratch0)) :
    (iprop(pts (r4H (dqF t) 3 h) t fullShare f ∗ pts (r4H (dqF t) 4 h) t fullShare f ∗ pts (r4H (dqF t) 5 h) t fullShare f
      ∗ pts (r4H (dqF t) 6 h) t fullShare f ∗ pts (r4H (dqF t) 7 h) t fullShare f) : sProp 𝕄)
      ⊢ giveH (F := F) t h := by
  unfold giveH
  exact BIClass.sep_mono (junk_of_pts (r4H (dqF t) 3 h) t f) (BIClass.sep_mono (junk_of_pts (r4H (dqF t) 4 h) t f)
    (BIClass.sep_mono (junk_of_pts (r4H (dqF t) 5 h) t f) (BIClass.sep_mono (junk_of_pts (r4H (dqF t) 6 h) t f)
      (junk_of_pts (r4H (dqF t) 7 h) t f))))

/-- At the kernel's entry: the buffer at one contents is what the device keeps (its own quarter's chunks and the
    first three chunks of the diagonal quarter, at that contents) and what it hands its z- and y-neighbour. -/
theorem r4_entry (f : Buf (Elt F) ((t : Thread nD τ).loc cc0_scratch0)) :
    ((t : Thread nD τ).loc cc0_scratch0 ↦{fullShare} f : sProp 𝕄) ⊢
      iprop((pts (r4R (mqF t) 0) t fullShare f ∗ pts (r4R (mqF t) 1) t fullShare f ∗ pts (r4R (mqF t) 2) t fullShare f
          ∗ pts (r4R (mqF t) 3) t fullShare f ∗ pts (r4R (mqF t) 4) t fullShare f ∗ pts (r4R (mqF t) 5) t fullShare f
          ∗ pts (r4R (mqF t) 6) t fullShare f ∗ pts (r4R (mqF t) 7) t fullShare f)
        ∗ giveQ (F := F) t (zqF t) ∗ giveQ (F := F) t (yqF t)
        ∗ (pts (r4R (dqF t) 0) t fullShare f ∗ pts (r4R (dqF t) 1) t fullShare f ∗ pts (r4R (dqF t) 2) t fullShare f)
        ∗ giveH (F := F) t 0 ∗ giveH (F := F) t 1) := by
  refine (Entails.of_eq (r4_split t fullShare f)).trans ?_
  exact BIClass.sep_mono .rfl (BIClass.sep_mono (giveQ_of_pts t (zqF t) f) (BIClass.sep_mono (giveQ_of_pts t (yqF t) f)
    (BIClass.sep_mono .rfl (BIClass.sep_mono (giveH_of_pts t 0 f) (giveH_of_pts t 1 f)))))

end QuartersJoin

/-! ## The result array: eight blocks of rows, each four blocks of columns -/

theorem orow_inb : ∀ (k : Fin 8), ∀ a : Fin 2,
    (![512 * k.val, 0] : Fin 2 → ℕ) a + (![512, 1024] : Fin 2 → ℕ) a ≤ S4096x1024.size a := by decide

abbrev rectOR (k : Fin 8) : Rect S4096x1024 := Rect.unit (s := S4096x1024) ![512 * k.val, 0] ![512, 1024] (orow_inb k)
abbrev rectO (k : Fin 8) (q : Fin 4) : Rect S4096x1024 :=
  Rect.unit (s := S4096x1024) ![512 * k.val, 256 * q.val] S512x256.size (out_inb k q)

theorem orows_ok : SlabOK (r := 2) 0 8 512 (fun _ => 0) S4096x1024.size (fun k : Fin 8 => ![512 * k.val, 0]) ![512, 1024] := by
  decide
theorem ocols_ok : ∀ k : Fin 8, SlabOK (r := 2) 1 4 256 ![512 * k.val, 0] ![512, 1024]
    (fun q : Fin 4 => ![512 * k.val, 256 * q.val]) S512x256.size := by decide

theorem orows_sets (K : Fin 8 → Finset S4096x1024.Idx) (e : ∀ k, K k = (rectOR k).set) :
    (∀ a b, a ≠ b → Disjoint (K a) (K b)) ∧ ∀ i, i ∈ (Finset.univ : Finset S4096x1024.Idx) ↔ ∃ k, i ∈ K k := by
  refine ⟨fun a b h => ?_, fun i => ?_⟩
  · have := slab_disjoint (s := S4096x1024) orows_ok orow_inb a b h
    rw [e a, e b]; exact this
  · refine ⟨fun _ => ?_, fun _ => Finset.mem_univ i⟩
    obtain ⟨k, hk⟩ := (mem_slab_iff (s := S4096x1024) orows_ok (fun a => Nat.le_of_eq (Nat.zero_add _)) orow_inb i).mp
      (mem_unit_zero _ i)
    exact ⟨k, by rw [e k]; exact hk⟩

theorem ocols_sets (k : Fin 8) (K : Fin 4 → Finset S4096x1024.Idx) (e : ∀ q, K q = (rectO k q).set) :
    (∀ a b, a ≠ b → Disjoint (K a) (K b)) ∧ ∀ i, i ∈ (rectOR k).set ↔ ∃ q, i ∈ K q := by
  refine ⟨fun a b h => ?_, fun i => ?_⟩
  · have := slab_disjoint (s := S4096x1024) (ocols_ok k) (out_inb k) a b h
    rw [e a, e b]; exact this
  · have := mem_slab_iff (s := S4096x1024) (ocols_ok k) (orow_inb k) (out_inb k) i
    exact this.trans (exists_congr fun q => by rw [e q])

/-- Four assertions in front of a rest, written without the bracket. -/
theorem assoc4_bi {M' : Type} [URA M'] (a b c d R : sProp M') :
    (iprop((a ∗ b ∗ c ∗ d) ∗ R) : sProp M') ⊣⊢ iprop(a ∗ b ∗ c ∗ d ∗ R) := by
  constructor
  · iintro ⟨⟨A, B, C, D⟩, HR⟩
    iframe
  · iintro ⟨A, B, C, D, HR⟩
    iframe

theorem flat_step {M' : Type} [URA M'] {a b c d R R' : sProp M'} (h : R = R') :
    (iprop((a ∗ b ∗ c ∗ d) ∗ R) : sProp M') = iprop(a ∗ b ∗ c ∗ d ∗ R') := by
  rw [h]
  exact BI.equiv_iff.mp ⟨(assoc4_bi a b c d R').1, (assoc4_bi a b c d R').2⟩

section Out
variable (t : Dev nD)

theorem orows_cut : IsCut (ℓ := (t : Thread nD τ).loc main_v1) Finset.univ (fun k : Fin 8 => (rectOR k).set) :=
  have h := orows_sets (fun k => (rectOR k).set) (fun _ => rfl); ⟨h.1, h.2⟩
theorem ocols_cut (k : Fin 8) :
    IsCut (ℓ := (t : Thread nD τ).loc main_v1) (rectOR k).set (fun q : Fin 4 => (outR k q).view.set) :=
  have h := ocols_sets k (fun q => (outR k q).view.set) (fun q => View.set_slice_whole _ _); ⟨h.1, h.2⟩

/-- The result is its eight blocks of rows. -/
theorem out_rows (q' : PosShare TreeShare) (f : Buf (Elt F) ((t : Thread nD τ).loc main_v1)) :
    ((t : Thread nD τ).loc main_v1 ↦{q'} f : sProp 𝕄) =
      iprop(((t : Thread nD τ).loc main_v1 ↦[(rectOR 0).set]{q'} f) ∗ ((t : Thread nD τ).loc main_v1 ↦[(rectOR 1).set]{q'} f)
        ∗ ((t : Thread nD τ).loc main_v1 ↦[(rectOR 2).set]{q'} f) ∗ ((t : Thread nD τ).loc main_v1 ↦[(rectOR 3).set]{q'} f)
        ∗ ((t : Thread nD τ).loc main_v1 ↦[(rectOR 4).set]{q'} f) ∗ ((t : Thread nD τ).loc main_v1 ↦[(rectOR 5).set]{q'} f)
        ∗ ((t : Thread nD τ).loc main_v1 ↦[(rectOR 6).set]{q'} f) ∗ ((t : Thread nD τ).loc main_v1 ↦[(rectOR 7).set]{q'} f)) :=
  ((orows_cut t).pts_eq q' f).trans (bigSep_fin8 _)

/-- A block of rows is its four blocks of columns. -/
theorem out_row_blocks (k : Fin 8) (q' : PosShare TreeShare) (f : Buf (Elt F) ((t : Thread nD τ).loc main_v1)) :
    ((t : Thread nD τ).loc main_v1 ↦[(rectOR k).set]{q'} f : sProp 𝕄) =
      iprop(pts (outR k 0) t q' f ∗ pts (outR k 1) t q' f ∗ pts (outR k 2) t q' f ∗ pts (outR k 3) t q' f) :=
  ((ocols_cut t k).pts_eq q' f).trans (bigSep_fin4 _)

theorem out_row_blocks_junk (k : Fin 8) :
    (iprop(∃ f : Buf (Elt F) ((t : Thread nD τ).loc main_v1), (t : Thread nD τ).loc main_v1 ↦[(rectOR k).set]{fullShare} f) : sProp 𝕄) ⊢
      iprop(junk (F := F) (outR k 0) t ∗ junk (F := F) (outR k 1) t ∗ junk (F := F) (outR k 2) t ∗ junk (F := F) (outR k 3) t) :=
  ((ocols_cut t k).junk_split fullShare).trans (Entails.of_eq (bigSep_fin4 _))

/-- The result at one contents is its 32 blocks at that contents. -/
theorem out_blocks (q' : PosShare TreeShare) (f : Buf (Elt F) ((t : Thread nD τ).loc main_v1)) :
    pts (Memref.whole main_v1) t q' f =
      (iprop(pts (outR 0 0) t q' f ∗ pts (outR 0 1) t q' f ∗ pts (outR 0 2) t q' f ∗ pts (outR 0 3) t q' f
        ∗ pts (outR 1 0) t q' f ∗ pts (outR 1 1) t q' f ∗ pts (outR 1 2) t q' f ∗ pts (outR 1 3) t q' f
        ∗ pts (outR 2 0) t q' f ∗ pts (outR 2 1) t q' f ∗ pts (outR 2 2) t q' f ∗ pts (outR 2 3) t q' f
        ∗ pts (outR 3 0) t q' f ∗ pts (outR 3 1) t q' f ∗ pts (outR 3 2) t q' f ∗ pts (outR 3 3) t q' f
        ∗ pts (outR 4 0) t q' f ∗ pts (outR 4 1) t q' f ∗ pts (outR 4 2) t q' f ∗ pts (outR 4 3) t q' f
        ∗ pts (outR 5 0) t q' f ∗ pts (outR 5 1) t q' f ∗ pts (outR 5 2) t q' f ∗ pts (outR 5 3) t q' f
        ∗ pts (outR 6 0) t q' f ∗ pts (outR 6 1) t q' f ∗ pts (outR 6 2) t q' f ∗ pts (outR 6 3) t q' f
        ∗ pts (outR 7 0) t q' f ∗ pts (outR 7 1) t q' f ∗ pts (outR 7 2) t q' f ∗ pts (outR 7 3) t q' f) : sProp 𝕄) := by
  refine (pts_whole t main_v1 q' f).trans ((out_rows t q' f).trans ?_)
  refine (sep_congr (out_row_blocks t 0 q' f) (sep_congr (out_row_blocks t 1 q' f) (sep_congr (out_row_blocks t 2 q' f)
    (sep_congr (out_row_blocks t 3 q' f) (sep_congr (out_row_blocks t 4 q' f) (sep_congr (out_row_blocks t 5 q' f)
      (sep_congr (out_row_blocks t 6 q' f) (out_row_blocks t 7 q' f)))))))).trans ?_
  exact flat_step (flat_step (flat_step (flat_step (flat_step (flat_step (flat_step rfl))))))

/-- The 32 blocks at one contents are the result at that contents. -/
theorem out_join (f : Buf (Elt F) ((t : Thread nD τ).loc main_v1)) :
    (iprop(pts (outR 0 0) t fullShare f ∗ pts (outR 0 1) t fullShare f ∗ pts (outR 0 2) t fullShare f ∗ pts (outR 0 3) t fullShare f
        ∗ pts (outR 1 0) t fullShare f ∗ pts (outR 1 1) t fullShare f ∗ pts (outR 1 2) t fullShare f ∗ pts (outR 1 3) t fullShare f
        ∗ pts (outR 2 0) t fullShare f ∗ pts (outR 2 1) t fullShare f ∗ pts (outR 2 2) t fullShare f ∗ pts (outR 2 3) t fullShare f
        ∗ pts (outR 3 0) t fullShare f ∗ pts (outR 3 1) t fullShare f ∗ pts (outR 3 2) t fullShare f ∗ pts (outR 3 3) t fullShare f
        ∗ pts (outR 4 0) t fullShare f ∗ pts (outR 4 1) t fullShare f ∗ pts (outR 4 2) t fullShare f ∗ pts (outR 4 3) t fullShare f
        ∗ pts (outR 5 0) t fullShare f ∗ pts (outR 5 1) t fullShare f ∗ pts (outR 5 2) t fullShare f ∗ pts (outR 5 3) t fullShare f
        ∗ pts (outR 6 0) t fullShare f ∗ pts (outR 6 1) t fullShare f ∗ pts (outR 6 2) t fullShare f ∗ pts (outR 6 3) t fullShare f
        ∗ pts (outR 7 0) t fullShare f ∗ pts (outR 7 1) t fullShare f ∗ pts (outR 7 2) t fullShare f ∗ pts (outR 7 3) t fullShare f) : sProp 𝕄)
      ⊢ pts (Memref.whole main_v1) t fullShare f :=
  Entails.of_eq (out_blocks t fullShare f).symm

/-- The result at some contents is its 32 blocks, each at some contents. -/
theorem out_split_junk :
    junk (F := F) (Memref.whole main_v1) t ⊢
      iprop(junk (F := F) (outR 0 0) t ∗ junk (F := F) (outR 0 1) t ∗ junk (F := F) (outR 0 2) t ∗ junk (F := F) (outR 0 3) t
        ∗ junk (F := F) (outR 1 0) t ∗ junk (F := F) (outR 1 1) t ∗ junk (F := F) (outR 1 2) t ∗ junk (F := F) (outR 1 3) t
        ∗ junk (F := F) (outR 2 0) t ∗ junk (F := F) (outR 2 1) t ∗ junk (F := F) (outR 2 2) t ∗ junk (F := F) (outR 2 3) t
        ∗ junk (F := F) (outR 3 0) t ∗ junk (F := F) (outR 3 1) t ∗ junk (F := F) (outR 3 2) t ∗ junk (F := F) (outR 3 3) t
        ∗ junk (F := F) (outR 4 0) t ∗ junk (F := F) (outR 4 1) t ∗ junk (F := F) (outR 4 2) t ∗ junk (F := F) (outR 4 3) t
        ∗ junk (F := F) (outR 5 0) t ∗ junk (F := F) (outR 5 1) t ∗ junk (F := F) (outR 5 2) t ∗ junk (F := F) (outR 5 3) t
        ∗ junk (F := F) (outR 6 0) t ∗ junk (F := F) (outR 6 1) t ∗ junk (F := F) (outR 6 2) t ∗ junk (F := F) (outR 6 3) t
        ∗ junk (F := F) (outR 7 0) t ∗ junk (F := F) (outR 7 1) t ∗ junk (F := F) (outR 7 2) t ∗ junk (F := F) (outR 7 3) t) := by
  refine (Entails.of_eq (junk_whole t main_v1)).trans ?_
  refine (((orows_cut t).junk_split fullShare).trans (Entails.of_eq (bigSep_fin8 _))).trans ?_
  refine (BIClass.sep_mono (out_row_blocks_junk t 0) (BIClass.sep_mono (out_row_blocks_junk t 1)
    (BIClass.sep_mono (out_row_blocks_junk t 2) (BIClass.sep_mono (out_row_blocks_junk t 3)
      (BIClass.sep_mono (out_row_blocks_junk t 4) (BIClass.sep_mono (out_row_blocks_junk t 5)
        (BIClass.sep_mono (out_row_blocks_junk t 6) (out_row_blocks_junk t 7)))))))).trans ?_
  exact Entails.of_eq (flat_step (flat_step (flat_step (flat_step (flat_step (flat_step (flat_step rfl)))))))

end Out

end Cert.KernelIdeal.RS

end
-- ==== Proof.OutRules.lean ====
import proofs.«901022_g7700000000001023_dist_rs_v7x_xyz2x2x2_x_m4096_n1024_bf16_1_alg».proof.Proof.SendRules
import proofs.«901022_g7700000000001023_dist_rs_v7x_xyz2x2x2_x_m4096_n1024_bf16_1_alg».proof.Proof.OutChunks
import proofs.«901022_g7700000000001023_dist_rs_v7x_xyz2x2x2_x_m4096_n1024_bf16_1_alg».proof.Proof.Regions
import Idealize.ShloMosaic.Lib.Pipeline.Value
import Idealize.ShloMosaic.Lib.ValueLayout
import Idealize.ShloMosaic.Lib.ValueIdx
import Idealize.ShloMosaic.Rules.PointsTo

/-! The local copies and stores of the kernel, by what they leave: a block of the input copied into a staging buffer
    is that buffer's final block; a staged block rounded (or summed with the landed block and rounded) is the final
    block of the buffer it is stored to; a chunk of the four-quarter buffer copied out is a block of the result. -/

noncomputable section

namespace Cert.KernelIdeal.RS

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## A chunk of the four-quarter buffer copied out is a block of the result -/

/-- The result by coordinates: entry (i, 256 q + j) is entry (q, i, j) of the four quarters. -/
theorem out_eq (t : Dev nD) (y : S4096x1024.Idx) : out m t y = r4v m t ((y 1).val / 256) (y 0).val ((y 1).val % 256) := rfl

/-- The element of the result under index x of block (k, q). -/
theorem outR_emb (k : Fin 8) (q : Fin 4) (x : S512x256.Idx) :
    (((outR k q).view.emb x : S4096x1024.Idx) 0).val = 512 * k.val + (x 0).val
      ∧ (((outR k q).view.emb x : S4096x1024.Idx) 1).val = 256 * q.val + (x 1).val := by
  refine ⟨?_, ?_⟩
  · show 512 * k.val + 1 * (x 0).val = _; omega
  · show 256 * q.val + 1 * (x 1).val = _; omega

theorem out_outR (t : Dev nD) (k : Fin 8) (q : Fin 4) (x : S512x256.Idx) :
    out m t ((outR k q).view.emb x) = r4v m t q.val (512 * k.val + (x 0).val) (x 1).val := by
  obtain ⟨h0, h1⟩ := outR_emb k q x
  have hx : (x 1).val < 256 := (x 1).isLt
  refine (out_eq m t _).trans ?_
  rw [h0, h1, show (256 * q.val + (x 1).val) / 256 = q.val by omega, show (256 * q.val + (x 1).val) % 256 = (x 1).val by omega]

/-- Chunk k of quarter q, copied into block (k, q) of the result, leaves the result's final contents there. -/
theorem land_out (c : Dev nD) (k : Fin 8) (q : Fin 4) (fd : Buf (Elt F) ((outR k q).view.loc (c : Thread nD τ))) :
    ∀ i ∈ (outR k q).view.set,
      (outR k q).view.write (Elt F) fd ((r4R q k).view.read (Elt F) (r4 m c)) Finset.univ i = out m c i := by
  refine copy_on (r4R q k).view (outR k q).view (r4 m c) fd (out m c) (fun x => ?_)
  show out m c ((outR k q).view.emb x) = r4 m c ((r4R q k).view.emb x)
  rw [out_outR, r4_r4R]

/-! ## A block of the input copied into a staging buffer is that buffer's final block -/

/-- A block of 512 rows and 256 columns of a device's input block, named by its offsets. -/
abbrev xinR (off : Fin 3 → ℕ) (inb : ∀ a, off a + S1x512x256.size a ≤ S1x4096x2048.size a) : Memref sig .tc .hbm S512x256 .f32 :=
  ((Memref.whole main_arg0 : Memref sig .tc .hbm S1x4096x2048 .f32).slice (Rect.unit (s := S1x4096x2048) off S1x512x256.size inb) (fun _ => rfl)).squeeze S512x256 squeezes_S1x512x256_S512x256

/-- The first column of the block of columns a device sends across x (own quarter, diagonal quarter) and keeps, as the
    program computes it from the device's number. -/
abbrev colP (c : Dev nD) : ℕ := (512 * ((c.val / 2) % 2) + 256 * (c.val % 2) + 1024) - 1024 * (c.val / 4)
abbrev colL (c : Dev nD) : ℕ := 1024 * (c.val / 4) + 512 * ((c.val / 2) % 2) + 256 * (c.val % 2)
abbrev colP2 (c : Dev nD) : ℕ := 1792 - (1024 * (c.val / 4) + 512 * ((c.val / 2) % 2) + 256 * (c.val % 2))
abbrev colL2 (c : Dev nD) : ℕ := (1024 * (c.val / 4) + 768) - (512 * ((c.val / 2) % 2) + 256 * (c.val % 2))

theorem colP_eq (c : Dev nD) : colP c = colOf (1 - mx c) (mq c) 0 := by revert c; decide
theorem colL_eq (c : Dev nD) : colL c = colOf (mx c) (mq c) 0 := by revert c; decide
theorem colP2_eq (c : Dev nD) : colP2 c = colOf (1 - mx c) (dq c) 0 := by revert c; decide
theorem colL2_eq (c : Dev nD) : colL2 c = colOf (mx c) (dq c) 0 := by revert c; decide
theorem colOf_add (a q j : ℕ) : colOf a q 0 + j = colOf a q j := by unfold colOf; omega

/-- An entry of a device's input block by its row and column. -/
theorem xin_at (t : Dev nD) (y : S1x4096x2048.Idx) : xin m t y = xat m t (y 1).val (y 2).val := by
  have h0 : (y 0).val < 1 := (y 0).isLt
  have h1 : (y 1).val < 4096 := (y 1).isLt
  have h2 : (y 2).val < 2048 := (y 2).isLt
  unfold xat
  refine congrArg (xin m t) ?_
  funext a
  match a with
  | ⟨0, _⟩ => exact Fin.ext (by show (y 0).val = 0; omega)
  | ⟨1, _⟩ => exact Fin.ext (by show (y 1).val = (y 1).val % 4096; omega)
  | ⟨2, _⟩ => exact Fin.ext (by show (y 2).val = (y 2).val % 2048; omega)

theorem xinR_emb (off : Fin 3 → ℕ) (inb : ∀ a, off a + S1x512x256.size a ≤ S1x4096x2048.size a) (x : S512x256.Idx) :
    (((xinR off inb).view.emb x : S1x4096x2048.Idx) 1).val = off 1 + (x 0).val
      ∧ (((xinR off inb).view.emb x : S1x4096x2048.Idx) 2).val = off 2 + (x 1).val := by
  obtain ⟨a, b, rfl⟩ : ∃ a b, x = ix2 a b := ⟨x 0, x 1, eq_ix2 x⟩
  show (((Rect.unit (s := S1x4096x2048) off S1x512x256.size inb).emb (Shape.reshapeEquiv squeezes_S1x512x256_S512x256.numel_eq (ix2 a b))) 1).val = _
    ∧ (((Rect.unit (s := S1x4096x2048) off S1x512x256.size inb).emb (Shape.reshapeEquiv squeezes_S1x512x256_S512x256.numel_eq (ix2 a b))) 2).val = _
  rw [reshapeEquiv_ix2_1ab]
  refine ⟨?_, ?_⟩
  · show off 1 + 1 * a.val = off 1 + a.val; omega
  · show off 2 + 1 * b.val = off 2 + b.val; omega

theorem xin_xinR (t : Dev nD) (off : Fin 3 → ℕ) (inb : ∀ a, off a + S1x512x256.size a ≤ S1x4096x2048.size a) (x : S512x256.Idx) :
    xin m t ((xinR off inb).view.emb x) = xat m t (off 1 + (x 0).val) (off 2 + (x 1).val) := by
  obtain ⟨h1, h2⟩ := xinR_emb off inb x
  exact (xin_at m t _).trans (by rw [h1, h2])

/-- The element of a staging buffer under index x of its row block k. -/
theorem rows8_emb (k : Fin 8) (x : S512x256.Idx) :
    (((Rect.unit (s := S4096x256) ![512 * k.val, 0] S512x256.size (rows8_inb k)).emb x) 0).val = 512 * k.val + (x 0).val
      ∧ (((Rect.unit (s := S4096x256) ![512 * k.val, 0] S512x256.size (rows8_inb k)).emb x) 1).val = (x 1).val := by
  refine ⟨?_, ?_⟩
  · show 512 * k.val + 1 * (x 0).val = _; omega
  · show 0 + 1 * (x 1).val = _; omega
theorem rows3_emb (k : Fin 3) (x : S512x256.Idx) :
    (((Rect.unit (s := S1536x256) ![512 * k.val, 0] S512x256.size (rows3_inb k)).emb x) 0).val = 512 * k.val + (x 0).val
      ∧ (((Rect.unit (s := S1536x256) ![512 * k.val, 0] S512x256.size (rows3_inb k)).emb x) 1).val = (x 1).val := by
  refine ⟨?_, ?_⟩
  · show 512 * k.val + 1 * (x 0).val = _; omega
  · show 0 + 1 * (x 1).val = _; omega

theorem stP_eq (t : Dev nD) (y : S4096x256.Idx) : stP m t y = xat m t (y 0).val (colOf (1 - mx t) (mq t) (y 1).val) := rfl
theorem stL_eq (t : Dev nD) (y : S4096x256.Idx) : stL m t y = xat m t (y 0).val (colOf (mx t) (mq t) (y 1).val) := rfl
theorem stP2_eq (t : Dev nD) (y : S1536x256.Idx) : stP2 m t y = xat m t (y 0).val (colOf (1 - mx t) (dq t) (y 1).val) := rfl
theorem stL2_eq (t : Dev nD) (y : S1536x256.Idx) : stL2 m t y = xat m t (y 0).val (colOf (mx t) (dq t) (y 1).val) := rfl

theorem stP_stPR (t : Dev nD) (k : Fin 8) (x : S512x256.Idx) :
    stP m t ((stPR k).view.emb x) = xat m t (512 * k.val + (x 0).val) (colOf (1 - mx t) (mq t) (x 1).val) := by
  obtain ⟨h0, h1⟩ := rows8_emb k x
  have h0' : (((stPR k).view.emb x : S4096x256.Idx) 0).val = 512 * k.val + (x 0).val := h0
  have h1' : (((stPR k).view.emb x : S4096x256.Idx) 1).val = (x 1).val := h1
  exact (stP_eq m t _).trans (by rw [h0', h1'])
theorem stL_stLR (t : Dev nD) (k : Fin 8) (x : S512x256.Idx) :
    stL m t ((stLR k).view.emb x) = xat m t (512 * k.val + (x 0).val) (colOf (mx t) (mq t) (x 1).val) := by
  obtain ⟨h0, h1⟩ := rows8_emb k x
  have h0' : (((stLR k).view.emb x : S4096x256.Idx) 0).val = 512 * k.val + (x 0).val := h0
  have h1' : (((stLR k).view.emb x : S4096x256.Idx) 1).val = (x 1).val := h1
  exact (stL_eq m t _).trans (by rw [h0', h1'])
theorem stP2_stP2R (t : Dev nD) (k : Fin 3) (x : S512x256.Idx) :
    stP2 m t ((stP2R k).view.emb x) = xat m t (512 * k.val + (x 0).val) (colOf (1 - mx t) (dq t) (x 1).val) := by
  obtain ⟨h0, h1⟩ := rows3_emb k x
  have h0' : (((stP2R k).view.emb x : S1536x256.Idx) 0).val = 512 * k.val + (x 0).val := h0
  have h1' : (((stP2R k).view.emb x : S1536x256.Idx) 1).val = (x 1).val := h1
  exact (stP2_eq m t _).trans (by rw [h0', h1'])
theorem stL2_stL2R (t : Dev nD) (k : Fin 3) (x : S512x256.Idx) :
    stL2 m t ((stL2R k).view.emb x) = xat m t (512 * k.val + (x 0).val) (colOf (mx t) (dq t) (x 1).val) := by
  obtain ⟨h0, h1⟩ := rows3_emb k x
  have h0' : (((stL2R k).view.emb x : S1536x256.Idx) 0).val = 512 * k.val + (x 0).val := h0
  have h1' : (((stL2R k).view.emb x : S1536x256.Idx) 1).val = (x 1).val := h1
  exact (stL2_eq m t _).trans (by rw [h0', h1'])

/-- The block of the input at rows 512k … and the columns the device sends across x for its own quarter, copied into
    row block k of the first staging buffer, leaves that buffer's final contents there; likewise the three others. -/
theorem land_stP (c : Dev nD) (k : Fin 8) (off : Fin 3 → ℕ) (inb : ∀ a, off a + S1x512x256.size a ≤ S1x4096x2048.size a)
    (h : off = ![0, 512 * k.val, colP c]) (fd : Buf (Elt F) ((stPR k).view.loc (c : Thread nD τ))) :
    ∀ i ∈ (stPR k).view.set, (stPR k).view.write (Elt F) fd ((xinR off inb).view.read (Elt F) (xin m c)) Finset.univ i = stP m c i := by
  refine copy_on (xinR off inb).view (stPR k).view (xin m c) fd (stP m c) (fun x => ?_)
  show stP m c ((stPR k).view.emb x) = xin m c ((xinR off inb).view.emb x)
  rw [stP_stPR, xin_xinR, ← colOf_add, ← colP_eq]; subst h; rfl
theorem land_stL (c : Dev nD) (k : Fin 8) (off : Fin 3 → ℕ) (inb : ∀ a, off a + S1x512x256.size a ≤ S1x4096x2048.size a)
    (h : off = ![0, 512 * k.val, colL c]) (fd : Buf (Elt F) ((stLR k).view.loc (c : Thread nD τ))) :
    ∀ i ∈ (stLR k).view.set, (stLR k).view.write (Elt F) fd ((xinR off inb).view.read (Elt F) (xin m c)) Finset.univ i = stL m c i := by
  refine copy_on (xinR off inb).view (stLR k).view (xin m c) fd (stL m c) (fun x => ?_)
  show stL m c ((stLR k).view.emb x) = xin m c ((xinR off inb).view.emb x)
  rw [stL_stLR, xin_xinR, ← colOf_add, ← colL_eq]; subst h; rfl
theorem land_stP2 (c : Dev nD) (k : Fin 3) (off : Fin 3 → ℕ) (inb : ∀ a, off a + S1x512x256.size a ≤ S1x4096x2048.size a)
    (h : off = ![0, 512 * k.val, colP2 c]) (fd : Buf (Elt F) ((stP2R k).view.loc (c : Thread nD τ))) :
    ∀ i ∈ (stP2R k).view.set, (stP2R k).view.write (Elt F) fd ((xinR off inb).view.read (Elt F) (xin m c)) Finset.univ i = stP2 m c i := by
  refine copy_on (xinR off inb).view (stP2R k).view (xin m c) fd (stP2 m c) (fun x => ?_)
  show stP2 m c ((stP2R k).view.emb x) = xin m c ((xinR off inb).view.emb x)
  rw [stP2_stP2R, xin_xinR, ← colOf_add, ← colP2_eq]; subst h; rfl
theorem land_stL2 (c : Dev nD) (k : Fin 3) (off : Fin 3 → ℕ) (inb : ∀ a, off a + S1x512x256.size a ≤ S1x4096x2048.size a)
    (h : off = ![0, 512 * k.val, colL2 c]) (fd : Buf (Elt F) ((stL2R k).view.loc (c : Thread nD τ))) :
    ∀ i ∈ (stL2R k).view.set, (stL2R k).view.write (Elt F) fd ((xinR off inb).view.read (Elt F) (xin m c)) Finset.univ i = stL2 m c i := by
  refine copy_on (xinR off inb).view (stL2R k).view (xin m c) fd (stL2 m c) (fun x => ?_)
  show stL2 m c ((stL2R k).view.emb x) = xin m c ((xinR off inb).view.emb x)
  rw [stL2_stL2R, xin_xinR, ← colOf_add, ← colL2_eq]; subst h; rfl

/-- The offsets the program computes are of that form: row block 0 of the first buffer, row block 1 of the second and of the third. -/
example (c : Dev nD) : k0_off1 c = ![0, 512 * (0 : Fin 8).val, colP c] := k0_off1_eq c
example (c : Dev nD) : k0_off4 c = ![0, 512 * (1 : Fin 8).val, colL c] := k0_off4_eq c
example (c : Dev nD) : k0_off19 c = ![0, 512 * (1 : Fin 3).val, colP2 c] := k0_off19_eq c

/-! ## What the stores leave -/

/-- A store through a view leaves, on the view's elements, any g that under each index holds the stored value. -/
theorem write_on {κ : Kind} {sp : Space} {s : Shape} {e : EltTy} {Val : EltTy → Type}
    (v : View sig κ sp s e) (fd g : v.ty.Contents Val) (w : s.Idx → Val e)
    (h : ∀ x : s.Idx, g (v.emb x) = cast (congrArg Val v.elt_eq.symm) (w x)) :
    ∀ i ∈ v.set, v.write Val fd w Finset.univ i = g i := by
  intro i hi
  obtain ⟨x, rfl⟩ := View.exists_emb_of_mem_set v hi
  rw [View.write_emb_of_mem _ _ (Finset.mem_univ x), h]

/-- A staged block rounded to bf16: what is stored into the buffers that travel across x. -/
def roundv (v : Vec F S512x256 .f32) : FVec F S512x256 .bf16 :=
  shapeCast S512x256 (truncf .bf16 v bitsLt_bf16_f32) shapeCasts_S512x256_S512x256
/-- A staged block plus the landed block widened, rounded to bf16, as one slab of the four-quarter buffer. -/
def sumv (v : Vec F S512x256 .f32) (w : Vec F S512x256 .bf16) : FVec F S1x512x256 .bf16 :=
  shapeCast S1x512x256 (truncf .bf16 (addf v (extf .f32 w bitsLt_bf16_f32)) bitsLt_bf16_f32) shapeCasts_S512x256_S1x512x256

/-- The printed payloads are these two functions. -/
theorem k0_pay1_eq (v : Vec F S512x256 .f32) : k0_pay1 v = roundv v := rfl
theorem k0_pay2_eq (v : Vec F S512x256 .f32) : k0_pay2 v = roundv v := rfl
theorem k0_pay3_eq (v : Vec F S512x256 .f32) : k0_pay3 v = roundv v := rfl
theorem k0_pay4_eq (v : Vec F S512x256 .f32) : k0_pay4 v = roundv v := rfl
theorem k0_pay5_eq (v : Vec F S512x256 .f32) : k0_pay5 v = roundv v := rfl
theorem k0_pay6_eq (v : Vec F S512x256 .f32) : k0_pay6 v = roundv v := rfl
theorem k0_pay7_eq (v : Vec F S512x256 .f32) : k0_pay7 v = roundv v := rfl
theorem k0_pay9_eq (v : Vec F S512x256 .f32) : k0_pay9 (k0_pay8 v) = roundv v := rfl
theorem k0_pay10_eq (v : Vec F S512x256 .f32) : k0_pay10 v = roundv v := rfl
theorem k0_pay11_eq (v : Vec F S512x256 .f32) : k0_pay11 v = roundv v := rfl
theorem k0_pay12_eq (v : Vec F S512x256 .f32) : k0_pay12 v = roundv v := rfl
theorem k0_pay13_eq (v : Vec F S512x256 .f32) (w : Vec F S512x256 .bf16) : k0_pay13 v w = sumv v w := rfl
theorem k0_pay15_eq (v : Vec F S512x256 .f32) (w : Vec F S512x256 .bf16) : k0_pay15 (k0_pay14 v w) = sumv v w := rfl
theorem k0_pay16_eq (v : Vec F S512x256 .f32) (w : Vec F S512x256 .bf16) : k0_pay16 v w = sumv v w := rfl
theorem k0_pay17_eq (v : Vec F S512x256 .f32) (w : Vec F S512x256 .bf16) : k0_pay17 v w = sumv v w := rfl
theorem k0_pay18_eq (v : Vec F S512x256 .f32) (w : Vec F S512x256 .bf16) : k0_pay18 v w = sumv v w := rfl
theorem k0_pay19_eq (v : Vec F S512x256 .f32) (w : Vec F S512x256 .bf16) : k0_pay19 v w = sumv v w := rfl
theorem k0_pay20_eq (v : Vec F S512x256 .f32) (w : Vec F S512x256 .bf16) : k0_pay20 v w = sumv v w := rfl
theorem k0_pay21_eq (v : Vec F S512x256 .f32) (w : Vec F S512x256 .bf16) : k0_pay21 v w = sumv v w := rfl
theorem k0_pay22_eq (v : Vec F S512x256 .f32) (w : Vec F S512x256 .bf16) : k0_pay22 v w = sumv v w := rfl
theorem k0_pay23_eq (v : Vec F S512x256 .f32) (w : Vec F S512x256 .bf16) : k0_pay23 v w = sumv v w := rfl
theorem k0_pay25_eq (v : Vec F S512x256 .f32) (w : Vec F S512x256 .bf16) : k0_pay25 (k0_pay24 v w) = sumv v w := rfl

theorem roundv_apply (v : Vec F S512x256 .f32) (x : S512x256.Idx) :
    roundv v x = FloatOps.truncf .bf16 bitsLt_bf16_f32 (v x) := by
  unfold roundv shapeCast; rw [Shape.reshapeEquiv_self]; rfl

theorem sumv_apply (v : Vec F S512x256 .f32) (w : Vec F S512x256 .bf16) (u : Fin 1) (i : Fin 512) (j : Fin 256) :
    sumv v w (ix3 u i j)
      = FloatOps.truncf .bf16 bitsLt_bf16_f32 (FloatOps.addf (v (ix2 i j)) (FloatOps.extf .f32 bitsLt_bf16_f32 (w (ix2 i j)))) := by
  unfold sumv; rw [shapeCast_ab_1ab_apply]; rfl

/-- A slab of 512 rows of one quarter of the four-quarter buffer, named by its offsets (the rectangle the stores go through;
    chunk k of quarter q is this slab with its leading axis dropped). -/
abbrev r4S (off : Fin 3 → ℕ) (inb : ∀ a, off a + S1x512x256.size a ≤ S4x4096x256.size a) : Memref sig .tc .vmem S1x512x256 .bf16 :=
  (Memref.whole cc0_scratch0 : Memref sig .tc .vmem S4x4096x256 .bf16).slice (Rect.unit (s := S4x4096x256) off S1x512x256.size inb) (fun _ => rfl)

theorem r4R_set_slab (q : Fin 4) (k : Fin 8) : (r4R q k).view.set = (r4S ![q.val, 512 * k.val, 0] (chunk_inb q k)).view.set :=
  View.set_reshape _ _

theorem r4_r4S (t : Dev nD) (off : Fin 3 → ℕ) (inb : ∀ a, off a + S1x512x256.size a ≤ S4x4096x256.size a)
    (u : Fin 1) (i : Fin 512) (j : Fin 256) :
    r4 m t ((r4S off inb).view.emb (ix3 u i j)) = r4v m t (off 0) (off 1 + i.val) (off 2 + j.val) := by
  have hu : u.val = 0 := by omega
  have h0 : (((r4S off inb).view.emb (ix3 u i j) : S4x4096x256.Idx) 0).val = off 0 := by
    show off 0 + 1 * u.val = off 0; omega
  have h1 : (((r4S off inb).view.emb (ix3 u i j) : S4x4096x256.Idx) 1).val = off 1 + i.val := by
    show off 1 + 1 * i.val = off 1 + i.val; omega
  have h2 : (((r4S off inb).view.emb (ix3 u i j) : S4x4096x256.Idx) 2).val = off 2 + j.val := by
    show off 2 + 1 * j.val = off 2 + j.val; omega
  exact (r4_eq m t _).trans (by rw [h0, h1, h2])

theorem sb_eq (t : Dev nD) (y : S4096x256.Idx) : sb m t y = give m t (mq t) (y 0).val (y 1).val := rfl
theorem sb2_eq (t : Dev nD) (y : S1536x256.Idx) : sb2 m t y = give m t (dq t) (y 0).val (y 1).val := rfl

theorem sb_sbR (t : Dev nD) (k : Fin 8) (x : S512x256.Idx) :
    sb m t ((sbR k).view.emb x) = give m t (mq t) (512 * k.val + (x 0).val) (x 1).val := by
  obtain ⟨h0, h1⟩ := rows8_emb k x
  have h0' : (((sbR k).view.emb x : S4096x256.Idx) 0).val = 512 * k.val + (x 0).val := h0
  have h1' : (((sbR k).view.emb x : S4096x256.Idx) 1).val = (x 1).val := h1
  exact (sb_eq m t _).trans (by rw [h0', h1'])
theorem rb_rbR (t : Dev nD) (k : Fin 8) (x : S512x256.Idx) :
    rb m t ((rbR k).view.emb x) = give m (px t) (mq t) (512 * k.val + (x 0).val) (x 1).val := by
  obtain ⟨h0, h1⟩ := rows8_emb k x
  have h0' : (((rbR k).view.emb x : S4096x256.Idx) 0).val = 512 * k.val + (x 0).val := h0
  have h1' : (((rbR k).view.emb x : S4096x256.Idx) 1).val = (x 1).val := h1
  refine (sb_eq m (px t) _).trans ?_
  rw [h0', h1', mq_px]
theorem sb2_sb2R (t : Dev nD) (k : Fin 3) (x : S512x256.Idx) :
    sb2 m t ((sb2R k).view.emb x) = give m t (dq t) (512 * k.val + (x 0).val) (x 1).val := by
  obtain ⟨h0, h1⟩ := rows3_emb k x
  have h0' : (((sb2R k).view.emb x : S1536x256.Idx) 0).val = 512 * k.val + (x 0).val := h0
  have h1' : (((sb2R k).view.emb x : S1536x256.Idx) 1).val = (x 1).val := h1
  exact (sb2_eq m t _).trans (by rw [h0', h1'])
theorem rb2_rb2R (t : Dev nD) (k : Fin 3) (x : S512x256.Idx) :
    rb2 m t ((rb2R k).view.emb x) = give m (px t) (dq t) (512 * k.val + (x 0).val) (x 1).val := by
  obtain ⟨h0, h1⟩ := rows3_emb k x
  have h0' : (((rb2R k).view.emb x : S1536x256.Idx) 0).val = 512 * k.val + (x 0).val := h0
  have h1' : (((rb2R k).view.emb x : S1536x256.Idx) 1).val = (x 1).val := h1
  refine (sb2_eq m (px t) _).trans ?_
  rw [h0', h1', dq_px]

/-- Row block k of the first staging buffer, rounded and stored, is row block k of the buffer sent across x. -/
theorem store_sb (c : Dev nD) (k : Fin 8) (fd : Buf (Elt F) ((sbR k).view.loc (c : Thread nD τ))) :
    ∀ i ∈ (sbR k).view.set,
      (sbR k).view.write (Elt F) fd (roundv ((stPR k).view.read (Elt F) (stP m c))) Finset.univ i = sb m c i := by
  refine write_on (sbR k).view fd (sb m c) _ (fun x => ?_)
  show sb m c ((sbR k).view.emb x) = roundv ((stPR k).view.read (Elt F) (stP m c)) x
  rw [roundv_apply, sb_sbR]
  show _ = FloatOps.truncf .bf16 bitsLt_bf16_f32 (stP m c ((stPR k).view.emb x))
  rw [stP_stPR]; rfl
theorem store_sb2 (c : Dev nD) (k : Fin 3) (fd : Buf (Elt F) ((sb2R k).view.loc (c : Thread nD τ))) :
    ∀ i ∈ (sb2R k).view.set,
      (sb2R k).view.write (Elt F) fd (roundv ((stP2R k).view.read (Elt F) (stP2 m c))) Finset.univ i = sb2 m c i := by
  refine write_on (sb2R k).view fd (sb2 m c) _ (fun x => ?_)
  show sb2 m c ((sb2R k).view.emb x) = roundv ((stP2R k).view.read (Elt F) (stP2 m c)) x
  rw [roundv_apply, sb2_sb2R]
  show _ = FloatOps.truncf .bf16 bitsLt_bf16_f32 (stP2 m c ((stP2R k).view.emb x))
  rw [stP2_stP2R]; rfl

/-- Row block k of the second staging buffer plus what landed from across x, rounded and stored, is chunk k of the
    device's own quarter. -/
theorem store_own (c : Dev nD) (k : Fin 8) (off : Fin 3 → ℕ) (inb : ∀ a, off a + S1x512x256.size a ≤ S4x4096x256.size a)
    (h : off = ![mq c, 512 * k.val, 0]) (fd : Buf (Elt F) ((r4S off inb).view.loc (c : Thread nD τ))) :
    ∀ i ∈ (r4S off inb).view.set,
      (r4S off inb).view.write (Elt F) fd (sumv ((stLR k).view.read (Elt F) (stL m c)) ((rbR k).view.read (Elt F) (rb m c))) Finset.univ i
        = r4 m c i := by
  refine write_on (r4S off inb).view fd (r4 m c) _ (fun x => ?_)
  obtain ⟨u, i, j, rfl⟩ : ∃ u i j, x = ix3 u i j := ⟨x 0, x 1, x 2, eq_ix3 x⟩
  show r4 m c ((r4S off inb).view.emb (ix3 u i j)) = sumv ((stLR k).view.read (Elt F) (stL m c)) ((rbR k).view.read (Elt F) (rb m c)) (ix3 u i j)
  rw [sumv_apply, r4_r4S]
  show _ = FloatOps.truncf .bf16 bitsLt_bf16_f32 (FloatOps.addf (stL m c ((stLR k).view.emb (ix2 i j)))
    (FloatOps.extf .f32 bitsLt_bf16_f32 (rb m c ((rbR k).view.emb (ix2 i j)))))
  rw [stL_stLR, rb_rbR]; subst h
  show r4v m c (mq c) (512 * k.val + i.val) (0 + j.val) = _
  rw [r4v_owner m c _ _ _ (Or.inl (quarters c).2.2.1), own_mq, Nat.zero_add]; rfl

/-- The same for the rows below 1536 of the diagonal quarter, from the three-chunk siblings. -/
theorem store_dgn (c : Dev nD) (k : Fin 3) (off : Fin 3 → ℕ) (inb : ∀ a, off a + S1x512x256.size a ≤ S4x4096x256.size a)
    (h : off = ![dq c, 512 * k.val, 0]) (fd : Buf (Elt F) ((r4S off inb).view.loc (c : Thread nD τ))) :
    ∀ i ∈ (r4S off inb).view.set,
      (r4S off inb).view.write (Elt F) fd (sumv ((stL2R k).view.read (Elt F) (stL2 m c)) ((rb2R k).view.read (Elt F) (rb2 m c))) Finset.univ i
        = r4 m c i := by
  refine write_on (r4S off inb).view fd (r4 m c) _ (fun x => ?_)
  obtain ⟨u, i, j, rfl⟩ : ∃ u i j, x = ix3 u i j := ⟨x 0, x 1, x 2, eq_ix3 x⟩
  show r4 m c ((r4S off inb).view.emb (ix3 u i j)) = sumv ((stL2R k).view.read (Elt F) (stL2 m c)) ((rb2R k).view.read (Elt F) (rb2 m c)) (ix3 u i j)
  rw [sumv_apply, r4_r4S]
  show _ = FloatOps.truncf .bf16 bitsLt_bf16_f32 (FloatOps.addf (stL2 m c ((stL2R k).view.emb (ix2 i j)))
    (FloatOps.extf .f32 bitsLt_bf16_f32 (rb2 m c ((rb2R k).view.emb (ix2 i j)))))
  rw [stL2_stL2R, rb2_rb2R]; subst h
  show r4v m c (dq c) (512 * k.val + i.val) (0 + j.val) = _
  have hi : 512 * k.val + i.val < 1536 := by have := k.isLt; have := i.isLt; omega
  unfold r4v; rw [if_pos ⟨rfl, hi⟩, Nat.zero_add]; rfl

/-- The offsets the program stores at are of that form: chunks 0 and 1 of the own quarter, chunk 1 of the diagonal one. -/
example (c : Dev nD) : k0_off23 c = ![mq c, 512 * (0 : Fin 8).val, 0] := k0_off23_eq c
example (c : Dev nD) : k0_off25 c = ![mq c, 512 * (1 : Fin 8).val, 0] := k0_off25_eq c
example (c : Dev nD) : k0_off50 c = ![dq c, 512 * (1 : Fin 3).val, 0] := k0_off50_eq c

end Cert.KernelIdeal.RS

end
-- ==== Proof.Glue.lean ====
import proofs.«901022_g7700000000001023_dist_rs_v7x_xyz2x2x2_x_m4096_n1024_bf16_1_alg».proof.Proof.OutRules
import proofs.«901022_g7700000000001023_dist_rs_v7x_xyz2x2x2_x_m4096_n1024_bf16_1_alg».proof.Proof.Regions
import Idealize.ShloMosaic.Lib.Writes
import Idealize.ShloMosaic.Lib.Pipeline.Value
import Idealize.ShloMosaic.Lib.ValueLayout
import Idealize.ShloMosaic.Lib.ValueIdx
import Idealize.ShloMosaic.Rules.PointsTo

/-! The contents the run leaves in a chunk, in the form the run writes them — a store of a payload computed from loads
    of what earlier copies wrote over unknown contents —, are on the chunk's elements the final contents (Spec). -/

noncomputable section

namespace Cert.KernelIdeal.RS

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## One copy over unknown contents, read back -/

/-- What one write through the whole of a view leaves under index x is the payload at x. -/
theorem read_writes_whole {κ : Kind} {sp : Space} {s : Shape} {e : EltTy} {Val : EltTy → Type}
    (v : View sig κ sp s e) (f : v.ty.Contents Val) (w : s.Idx → Val e) :
    v.read Val (v.writes Val f [⟨Rect.whole s, w⟩]) = w := by
  funext x
  have h := View.read_writes_cons_emb v f (Rect.whole s) w [] x
  rwa [Rect.emb_whole_apply] at h

/-- One write through the whole of a view leaves, on the view's elements, any g that under each index holds the payload. -/
theorem writes_whole_on {κ : Kind} {sp : Space} {s : Shape} {e : EltTy} {Val : EltTy → Type}
    (v : View sig κ sp s e) (f g : v.ty.Contents Val) (w : s.Idx → Val e)
    (h : ∀ x : s.Idx, g (v.emb x) = cast (congrArg Val v.elt_eq.symm) (w x)) :
    ∀ i ∈ v.set, v.writes Val f [⟨Rect.whole s, w⟩] i = g i := by
  intro i hi
  obtain ⟨x, rfl⟩ := View.exists_emb_of_mem_set v hi
  have hr := read_writes_whole v f w
  have hx : v.read Val (v.writes Val f [⟨Rect.whole s, w⟩]) x = w x := congrFun hr x
  rw [View.read_apply] at hx
  rw [h, ← hx, cast_cast, cast_eq]

/-- An input block copied over unknown contents of a staging block reads back as the staging buffer's final block. -/
theorem stP_read (c : Dev nD) (k : Fin 8) (off : Fin 3 → ℕ) (inb : ∀ a, off a + S1x512x256.size a ≤ S1x4096x2048.size a)
    (h : off = ![0, 512 * k.val, colP c]) :
    (stPR k).view.read (Elt F) ((stPR k).view.writes (Elt F) (stPR k).view.junk
        [⟨Rect.whole S512x256, ReadAs.same.apply (View.read (Elt F) (xinR off inb).view (xin m c))⟩])
      = (stPR k).view.read (Elt F) (stP m c) := by
  rw [read_writes_whole]
  funext x
  show xin m c ((xinR off inb).view.emb x) = stP m c ((stPR k).view.emb x)
  rw [stP_stPR, xin_xinR, ← colOf_add, ← colP_eq]; subst h; rfl
theorem stL_read (c : Dev nD) (k : Fin 8) (off : Fin 3 → ℕ) (inb : ∀ a, off a + S1x512x256.size a ≤ S1x4096x2048.size a)
    (h : off = ![0, 512 * k.val, colL c]) :
    (stLR k).view.read (Elt F) ((stLR k).view.writes (Elt F) (stLR k).view.junk
        [⟨Rect.whole S512x256, ReadAs.same.apply (View.read (Elt F) (xinR off inb).view (xin m c))⟩])
      = (stLR k).view.read (Elt F) (stL m c) := by
  rw [read_writes_whole]
  funext x
  show xin m c ((xinR off inb).view.emb x) = stL m c ((stLR k).view.emb x)
  rw [stL_stLR, xin_xinR, ← colOf_add, ← colL_eq]; subst h; rfl
theorem stP2_read (c : Dev nD) (k : Fin 3) (off : Fin 3 → ℕ) (inb : ∀ a, off a + S1x512x256.size a ≤ S1x4096x2048.size a)
    (h : off = ![0, 512 * k.val, colP2 c]) :
    (stP2R k).view.read (Elt F) ((stP2R k).view.writes (Elt F) (stP2R k).view.junk
        [⟨Rect.whole S512x256, ReadAs.same.apply (View.read (Elt F) (xinR off inb).view (xin m c))⟩])
      = (stP2R k).view.read (Elt F) (stP2 m c) := by
  rw [read_writes_whole]
  funext x
  show xin m c ((xinR off inb).view.emb x) = stP2 m c ((stP2R k).view.emb x)
  rw [stP2_stP2R, xin_xinR, ← colOf_add, ← colP2_eq]; subst h; rfl
theorem stL2_read (c : Dev nD) (k : Fin 3) (off : Fin 3 → ℕ) (inb : ∀ a, off a + S1x512x256.size a ≤ S1x4096x2048.size a)
    (h : off = ![0, 512 * k.val, colL2 c]) :
    (stL2R k).view.read (Elt F) ((stL2R k).view.writes (Elt F) (stL2R k).view.junk
        [⟨Rect.whole S512x256, ReadAs.same.apply (View.read (Elt F) (xinR off inb).view (xin m c))⟩])
      = (stL2R k).view.read (Elt F) (stL2 m c) := by
  rw [read_writes_whole]
  funext x
  show xin m c ((xinR off inb).view.emb x) = stL2 m c ((stL2R k).view.emb x)
  rw [stL2_stL2R, xin_xinR, ← colOf_add, ← colL2_eq]; subst h; rfl

/-! ## The chunks as the run leaves them -/

/-- Row block k of the buffer sent across x: the staged block (an input block copied over unknown contents, loaded)
    rounded and stored. -/
theorem glue_sb (c : Dev nD) (k : Fin 8) (off : Fin 3 → ℕ) (inb : ∀ a, off a + S1x512x256.size a ≤ S1x4096x2048.size a)
    (h : off = ![0, 512 * k.val, colP c]) (f1 : Buf (Elt F) ((sbR k).view.loc (c : Thread nD τ))) :
    ∀ i ∈ (sbR k).view.set,
      View.write (Elt F) ((Memref.whole cc0_scratch1 : Memref sig .tc .vmem S4096x256 .bf16).access (Rect.unit (s := S4096x256) ![512 * k.val, 0] S512x256.size (rows8_inb k))) f1
        (roundv (View.readAt (Elt F) (Memref.whole cc0_scratch5 : Memref sig .tc .vmem S4096x256 .f32).view (Rect.unit (s := S4096x256) ![512 * k.val, 0] S512x256.size (rows8_inb k)).toLoadRect
          ((stPR k).view.writes (Elt F) (stPR k).view.junk [⟨Rect.whole S512x256, ReadAs.same.apply (View.read (Elt F) (xinR off inb).view (xin m c))⟩])))
        Finset.univ i = sb m c i := by
  intro i hi
  have hA := stP_read m c k off inb h
  show (sbR k).view.write (Elt F) f1 (roundv ((stPR k).view.read (Elt F) ((stPR k).view.writes (Elt F) (stPR k).view.junk
    [⟨Rect.whole S512x256, ReadAs.same.apply (View.read (Elt F) (xinR off inb).view (xin m c))⟩]))) Finset.univ i = sb m c i
  rw [hA]
  exact store_sb m c k f1 i hi

theorem glue_sb2 (c : Dev nD) (k : Fin 3) (off : Fin 3 → ℕ) (inb : ∀ a, off a + S1x512x256.size a ≤ S1x4096x2048.size a)
    (h : off = ![0, 512 * k.val, colP2 c]) (f3 : Buf (Elt F) ((sb2R k).view.loc (c : Thread nD τ))) :
    ∀ i ∈ (sb2R k).view.set,
      View.write (Elt F) ((Memref.whole cc0_scratch3 : Memref sig .tc .vmem S1536x256 .bf16).access (Rect.unit (s := S1536x256) ![512 * k.val, 0] S512x256.size (rows3_inb k))) f3
        (roundv (View.readAt (Elt F) (Memref.whole cc0_scratch7 : Memref sig .tc .vmem S1536x256 .f32).view (Rect.unit (s := S1536x256) ![512 * k.val, 0] S512x256.size (rows3_inb k)).toLoadRect
          ((stP2R k).view.writes (Elt F) (stP2R k).view.junk [⟨Rect.whole S512x256, ReadAs.same.apply (View.read (Elt F) (xinR off inb).view (xin m c))⟩])))
        Finset.univ i = sb2 m c i := by
  intro i hi
  have hA := stP2_read m c k off inb h
  show (sb2R k).view.write (Elt F) f3 (roundv ((stP2R k).view.read (Elt F) ((stP2R k).view.writes (Elt F) (stP2R k).view.junk
    [⟨Rect.whole S512x256, ReadAs.same.apply (View.read (Elt F) (xinR off inb).view (xin m c))⟩]))) Finset.univ i = sb2 m c i
  rw [hA]
  exact store_sb2 m c k f3 i hi

/-- Chunk k of a device's own quarter: the staged block plus the block landed from across x, rounded and stored
    through the slab at the offsets the program computes. -/
theorem glue_own (c : Dev nD) (k : Fin 8) (offL : Fin 3 → ℕ) (inbL : ∀ a, offL a + S1x512x256.size a ≤ S1x4096x2048.size a)
    (hL : offL = ![0, 512 * k.val, colL c]) (off4 : Fin 3 → ℕ) (inb4 : ∀ a, off4 a + S1x512x256.size a ≤ S4x4096x256.size a)
    (h4 : off4 = ![mq c, 512 * k.val, 0]) (f0 : Buf (Elt F) ((r4R (mqF c) k).view.loc (c : Thread nD τ))) :
    ∀ i ∈ (r4R (mqF c) k).view.set,
      View.write (Elt F) ((Memref.whole cc0_scratch0 : Memref sig .tc .vmem S4x4096x256 .bf16).access (Rect.unit (s := S4x4096x256) off4 S1x512x256.size inb4)) f0
        (sumv (View.readAt (Elt F) (Memref.whole cc0_scratch6 : Memref sig .tc .vmem S4096x256 .f32).view (Rect.unit (s := S4096x256) ![512 * k.val, 0] S512x256.size (rows8_inb k)).toLoadRect
            ((stLR k).view.writes (Elt F) (stLR k).view.junk [⟨Rect.whole S512x256, ReadAs.same.apply (View.read (Elt F) (xinR offL inbL).view (xin m c))⟩]))
          (View.readAt (Elt F) (Memref.whole cc0_scratch2 : Memref sig .tc .vmem S4096x256 .bf16).view (Rect.unit (s := S4096x256) ![512 * k.val, 0] S512x256.size (rows8_inb k)).toLoadRect (rb m c)))
        Finset.univ i = r4 m c i := by
  intro i hi
  have hA := stL_read m c k offL inbL hL
  have hi' : i ∈ (r4S off4 inb4).view.set := by subst h4; exact (r4R_set_slab (mqF c) k) ▸ hi
  show (r4S off4 inb4).view.write (Elt F) f0 (sumv ((stLR k).view.read (Elt F) ((stLR k).view.writes (Elt F) (stLR k).view.junk
    [⟨Rect.whole S512x256, ReadAs.same.apply (View.read (Elt F) (xinR offL inbL).view (xin m c))⟩])) ((rbR k).view.read (Elt F) (rb m c))) Finset.univ i = r4 m c i
  rw [hA]
  exact store_own m c k off4 inb4 h4 f0 i hi'

theorem r4S_set_congr (off off' : Fin 3 → ℕ) (inb : ∀ a, off a + S1x512x256.size a ≤ S4x4096x256.size a)
    (inb' : ∀ a, off' a + S1x512x256.size a ≤ S4x4096x256.size a) (h : off = off') :
    (r4S off inb).view.set = (r4S off' inb').view.set := by subst h; rfl

/-- Chunk k < 3 of the diagonal quarter, from the three-chunk siblings. -/
theorem glue_dgn (c : Dev nD) (k : Fin 3) (k8 : Fin 8) (hk : k8.val = k.val) (offL : Fin 3 → ℕ) (inbL : ∀ a, offL a + S1x512x256.size a ≤ S1x4096x2048.size a)
    (hL : offL = ![0, 512 * k.val, colL2 c]) (off4 : Fin 3 → ℕ) (inb4 : ∀ a, off4 a + S1x512x256.size a ≤ S4x4096x256.size a)
    (h4 : off4 = ![dq c, 512 * k.val, 0]) (f0 : Buf (Elt F) ((r4R (dqF c) k8).view.loc (c : Thread nD τ))) :
    ∀ i ∈ (r4R (dqF c) k8).view.set,
      View.write (Elt F) ((Memref.whole cc0_scratch0 : Memref sig .tc .vmem S4x4096x256 .bf16).access (Rect.unit (s := S4x4096x256) off4 S1x512x256.size inb4)) f0
        (sumv (View.readAt (Elt F) (Memref.whole cc0_scratch8 : Memref sig .tc .vmem S1536x256 .f32).view (Rect.unit (s := S1536x256) ![512 * k.val, 0] S512x256.size (rows3_inb k)).toLoadRect
            ((stL2R k).view.writes (Elt F) (stL2R k).view.junk [⟨Rect.whole S512x256, ReadAs.same.apply (View.read (Elt F) (xinR offL inbL).view (xin m c))⟩]))
          (View.readAt (Elt F) (Memref.whole cc0_scratch4 : Memref sig .tc .vmem S1536x256 .bf16).view (Rect.unit (s := S1536x256) ![512 * k.val, 0] S512x256.size (rows3_inb k)).toLoadRect (rb2 m c)))
        Finset.univ i = r4 m c i := by
  intro i hi
  have hA := stL2_read m c k offL inbL hL
  have hi' : i ∈ (r4S off4 inb4).view.set := by
    subst h4
    have e := r4R_set_slab (dqF c) k8
    rw [e] at hi
    have e2 : (![(dqF c).val, 512 * k8.val, 0] : Fin 3 → ℕ) = ![dq c, 512 * k.val, 0] := by rw [hk]; rfl
    rwa [r4S_set_congr _ _ (chunk_inb (dqF c) k8) inb4 e2] at hi
  show (r4S off4 inb4).view.write (Elt F) f0 (sumv ((stL2R k).view.read (Elt F) ((stL2R k).view.writes (Elt F) (stL2R k).view.junk
    [⟨Rect.whole S512x256, ReadAs.same.apply (View.read (Elt F) (xinR offL inbL).view (xin m c))⟩])) ((rb2R k).view.read (Elt F) (rb2 m c))) Finset.univ i = r4 m c i
  rw [hA]
  exact store_dgn m c k off4 inb4 h4 f0 i hi'

/-- Block (k, q) of the result: chunk k of quarter q copied over unknown contents. -/
theorem glue_out (c : Dev nD) (k : Fin 8) (q : Fin 4) :
    ∀ i ∈ (outR k q).view.set,
      (outR k q).view.writes (Elt F) (outR k q).view.junk [⟨Rect.whole S512x256, ReadAs.same.apply (View.read (Elt F) (r4R q k).view (r4 m c))⟩] i = out m c i := by
  refine writes_whole_on (outR k q).view _ (out m c) _ (fun x => ?_)
  show out m c ((outR k q).view.emb x) = r4 m c ((r4R q k).view.emb x)
  rw [out_outR, r4_r4R]

/-- The same over whatever the block held before: the copy overwrites the whole block. -/
theorem glue_out' (c : Dev nD) (k : Fin 8) (q : Fin 4) (g : Buf (Elt F) ((outR k q).view.loc (c : Thread nD τ))) :
    ∀ i ∈ (outR k q).view.set,
      (outR k q).view.writes (Elt F) g [⟨Rect.whole S512x256, ReadAs.same.apply (View.read (Elt F) (r4R q k).view (r4 m c))⟩] i = out m c i := by
  refine writes_whole_on (outR k q).view _ (out m c) _ (fun x => ?_)
  show out m c ((outR k q).view.emb x) = r4 m c ((r4R q k).view.emb x)
  rw [out_outR, r4_r4R]

end Cert.KernelIdeal.RS

end
-- ==== Proof.ExitRules.lean ====
import proofs.«901022_g7700000000001023_dist_rs_v7x_xyz2x2x2_x_m4096_n1024_bf16_1_alg».proof.Proof.Regions

/-! Putting the pieces back at the kernel's exit: a chunk lent out by shares is the chunk again, a chunk lent to a
    forward (one half share whole, the other in its two column halves) likewise, the four-quarter buffer from its
    pieces as they stand at the exit, and the result from its 32 written blocks. -/

noncomputable section

namespace Cert.KernelIdeal.RS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Back
variable (t : Dev nD)

/-- The three shares a device's own chunk was lent at are the chunk. -/
theorem own_back (k : Fin 8) (f : Buf (Elt F) ((t : Thread nD τ).loc cc0_scratch0)) :
    (iprop(pts (r4R (mqF t) k) t shZ f ∗ pts (r4R (mqF t) k) t shY f ∗ pts (r4R (mqF t) k) t shK f) : sProp 𝕄)
      ⊢ junk (F := F) (r4R (mqF t) k) t :=
  (share_ZYK (r4R (mqF t) k) t f).2.trans (junk_of_pts (r4R (mqF t) k) t f)

/-- A chunk lent to a forward: the share kept, whole, and the share lent, in its two column halves, are the chunk. -/
theorem nbr_back (q : Fin 4) (k : Fin 8) (f : Buf (Elt F) ((t : Thread nD τ).loc cc0_scratch0)) :
    (iprop(pts (r4R q k) t shG f ∗ pts (r4H q k 0) t shF f ∗ pts (r4H q k 1) t shF f) : sProp 𝕄)
      ⊢ junk (F := F) (r4R q k) t := by
  refine (BIClass.sep_mono .rfl (Entails.of_eq (chunk_halves t q k shF f).symm)).trans ?_
  refine (Laws.sep_comm (P := pts (r4R q k) t shG f) (Q := pts (r4R q k) t shF f)).1.trans ?_
  exact (share_FG (r4R q k) t f).2.trans (junk_of_pts (r4R q k) t f)

/-- A chunk at one contents is its two halves, each at some contents. -/
theorem chunk_to_halves (q : Fin 4) (k : Fin 8) (f : Buf (Elt F) ((t : Thread nD τ).loc cc0_scratch0)) :
    pts (r4R q k) t fullShare f ⊢ iprop(junk (F := F) (r4H q k 0) t ∗ junk (F := F) (r4H q k 1) t) :=
  (Entails.of_eq (chunk_halves t q k fullShare f)).trans
    (BIClass.sep_mono (junk_of_pts (r4H q k 0) t f) (junk_of_pts (r4H q k 1) t f))

theorem dq_halves (k : Fin 8) (f : Buf (Elt F) ((t : Thread nD τ).loc cc0_scratch0)) :
    pts (r4R (dqF t) k) t fullShare f ⊢ iprop(junk (F := F) (r4H (dqF t) k 0) t ∗ junk (F := F) (r4H (dqF t) k 1) t) :=
  chunk_to_halves t (dqF t) k f

/-- Three assertions in front of a rest, written without the bracket. -/
theorem assoc3_bi {M' : Type} [URA M'] (a b c R : sProp M') :
    (iprop((a ∗ b ∗ c) ∗ R) : sProp M') ⊣⊢ iprop(a ∗ b ∗ c ∗ R) := by
  constructor
  · iintro ⟨⟨A, B, C⟩, HR⟩
    iframe
  · iintro ⟨A, B, C, HR⟩
    iframe

/-- The pieces of the four-quarter buffer as they stand at the exit — the chunks of the own and of the two neighbours'
    quarters, the first three chunks of the diagonal quarter, and the other five as pairs of halves — each at contents
    of its own, are the buffer at some contents. -/
theorem r4_back :
    (iprop((junk (F := F) (r4R (mqF t) 0) t ∗ junk (F := F) (r4R (mqF t) 1) t ∗ junk (F := F) (r4R (mqF t) 2) t ∗ junk (F := F) (r4R (mqF t) 3) t
          ∗ junk (F := F) (r4R (mqF t) 4) t ∗ junk (F := F) (r4R (mqF t) 5) t ∗ junk (F := F) (r4R (mqF t) 6) t ∗ junk (F := F) (r4R (mqF t) 7) t)
        ∗ (junk (F := F) (r4R (zqF t) 0) t ∗ junk (F := F) (r4R (zqF t) 1) t ∗ junk (F := F) (r4R (zqF t) 2) t ∗ junk (F := F) (r4R (zqF t) 3) t
          ∗ junk (F := F) (r4R (zqF t) 4) t ∗ junk (F := F) (r4R (zqF t) 5) t ∗ junk (F := F) (r4R (zqF t) 6) t ∗ junk (F := F) (r4R (zqF t) 7) t)
        ∗ (junk (F := F) (r4R (yqF t) 0) t ∗ junk (F := F) (r4R (yqF t) 1) t ∗ junk (F := F) (r4R (yqF t) 2) t ∗ junk (F := F) (r4R (yqF t) 3) t
          ∗ junk (F := F) (r4R (yqF t) 4) t ∗ junk (F := F) (r4R (yqF t) 5) t ∗ junk (F := F) (r4R (yqF t) 6) t ∗ junk (F := F) (r4R (yqF t) 7) t)
        ∗ (junk (F := F) (r4R (dqF t) 0) t ∗ junk (F := F) (r4R (dqF t) 1) t ∗ junk (F := F) (r4R (dqF t) 2) t)
        ∗ (junk (F := F) (r4H (dqF t) 3 0) t ∗ junk (F := F) (r4H (dqF t) 3 1) t)
        ∗ (junk (F := F) (r4H (dqF t) 4 0) t ∗ junk (F := F) (r4H (dqF t) 4 1) t)
        ∗ (junk (F := F) (r4H (dqF t) 5 0) t ∗ junk (F := F) (r4H (dqF t) 5 1) t)
        ∗ (junk (F := F) (r4H (dqF t) 6 0) t ∗ junk (F := F) (r4H (dqF t) 6 1) t)
        ∗ (junk (F := F) (r4H (dqF t) 7 0) t ∗ junk (F := F) (r4H (dqF t) 7 1) t)) : sProp 𝕄) ⊢
      iprop(∃ f : Buf (Elt F) ((t : Thread nD τ).loc cc0_scratch0), (t : Thread nD τ).loc cc0_scratch0 ↦{fullShare} f) := by
  refine (BIClass.sep_mono .rfl (BIClass.sep_mono .rfl (BIClass.sep_mono .rfl ?_))).trans (r4_join t)
  exact (assoc3_bi _ _ _ _).1.trans (Entails.of_eq (regroup13 _ _ _ _ _ _ _ _ _ _ _ _ _))

end Back

section OutBack
variable (m : (ℓ : Loc nD τ sig) → Buf (Elt F) ℓ) (t : Dev nD)

/-- What the copy of chunk k of quarter q into the result writes there. -/
abbrev outW (k : Fin 8) (q : Fin 4) : Buf (Elt F) ((t : Thread nD τ).loc main_v1) :=
  (outR k q).view.writes (Elt F) (outR k q).view.junk
    [⟨Rect.whole S512x256, ReadAs.same.apply (View.read (Elt F) (r4R q k).view (r4 m t))⟩]

/-- The 32 blocks of the result, each holding what its copy wrote, are the result at its final contents, given that
    each written block agrees with the final contents on its elements. -/
theorem out_back (hg : ∀ (k : Fin 8) (q : Fin 4), ∀ i ∈ (outR k q).view.set, outW m t k q i = out m t i) :
    (iprop(pts (outR 0 0) t fullShare (outW m t 0 0) ∗ pts (outR 0 1) t fullShare (outW m t 0 1) ∗ pts (outR 0 2) t fullShare (outW m t 0 2) ∗ pts (outR 0 3) t fullShare (outW m t 0 3)
        ∗ pts (outR 1 0) t fullShare (outW m t 1 0) ∗ pts (outR 1 1) t fullShare (outW m t 1 1) ∗ pts (outR 1 2) t fullShare (outW m t 1 2) ∗ pts (outR 1 3) t fullShare (outW m t 1 3)
        ∗ pts (outR 2 0) t fullShare (outW m t 2 0) ∗ pts (outR 2 1) t fullShare (outW m t 2 1) ∗ pts (outR 2 2) t fullShare (outW m t 2 2) ∗ pts (outR 2 3) t fullShare (outW m t 2 3)
        ∗ pts (outR 3 0) t fullShare (outW m t 3 0) ∗ pts (outR 3 1) t fullShare (outW m t 3 1) ∗ pts (outR 3 2) t fullShare (outW m t 3 2) ∗ pts (outR 3 3) t fullShare (outW m t 3 3)
        ∗ pts (outR 4 0) t fullShare (outW m t 4 0) ∗ pts (outR 4 1) t fullShare (outW m t 4 1) ∗ pts (outR 4 2) t fullShare (outW m t 4 2) ∗ pts (outR 4 3) t fullShare (outW m t 4 3)
        ∗ pts (outR 5 0) t fullShare (outW m t 5 0) ∗ pts (outR 5 1) t fullShare (outW m t 5 1) ∗ pts (outR 5 2) t fullShare (outW m t 5 2) ∗ pts (outR 5 3) t fullShare (outW m t 5 3)
        ∗ pts (outR 6 0) t fullShare (outW m t 6 0) ∗ pts (outR 6 1) t fullShare (outW m t 6 1) ∗ pts (outR 6 2) t fullShare (outW m t 6 2) ∗ pts (outR 6 3) t fullShare (outW m t 6 3)
        ∗ pts (outR 7 0) t fullShare (outW m t 7 0) ∗ pts (outR 7 1) t fullShare (outW m t 7 1) ∗ pts (outR 7 2) t fullShare (outW m t 7 2) ∗ pts (outR 7 3) t fullShare (outW m t 7 3)) : sProp 𝕄)
      ⊢ pts (Memref.whole main_v1) t fullShare (out m t) := by
  have c : ∀ (k : Fin 8) (q : Fin 4), pts (outR k q) t fullShare (outW m t k q) = (pts (outR k q) t fullShare (out m t) : sProp 𝕄) :=
    fun k q => congr_eq (outR k q) t fullShare (outW m t k q) (out m t) (hg k q)
  refine (Entails.of_eq ?_).trans (out_join t (out m t))
  exact sep_congr (c 0 0) (sep_congr (c 0 1) (sep_congr (c 0 2) (sep_congr (c 0 3)
    (sep_congr (c 1 0) (sep_congr (c 1 1) (sep_congr (c 1 2) (sep_congr (c 1 3)
    (sep_congr (c 2 0) (sep_congr (c 2 1) (sep_congr (c 2 2) (sep_congr (c 2 3)
    (sep_congr (c 3 0) (sep_congr (c 3 1) (sep_congr (c 3 2) (sep_congr (c 3 3)
    (sep_congr (c 4 0) (sep_congr (c 4 1) (sep_congr (c 4 2) (sep_congr (c 4 3)
    (sep_congr (c 5 0) (sep_congr (c 5 1) (sep_congr (c 5 2) (sep_congr (c 5 3)
    (sep_congr (c 6 0) (sep_congr (c 6 1) (sep_congr (c 6 2) (sep_congr (c 6 3)
    (sep_congr (c 7 0) (sep_congr (c 7 1) (sep_congr (c 7 2) (c 7 3)))))))))))))))))))))))))))))))

end OutBack

end Cert.KernelIdeal.RS

end
-- ==== Proof.BodyAux.lean ====
import proofs.«901022_g7700000000001023_dist_rs_v7x_xyz2x2x2_x_m4096_n1024_bf16_1_alg».proof.Proof.BodyGlue
import proofs.«901022_g7700000000001023_dist_rs_v7x_xyz2x2x2_x_m4096_n1024_bf16_1_alg».proof.Proof.SendAt
import proofs.«901022_g7700000000001023_dist_rs_v7x_xyz2x2x2_x_m4096_n1024_bf16_1_alg».proof.Proof.WaitRules
import proofs.«901022_g7700000000001023_dist_rs_v7x_xyz2x2x2_x_m4096_n1024_bf16_1_alg».proof.Proof.Glue
import proofs.«901022_g7700000000001023_dist_rs_v7x_xyz2x2x2_x_m4096_n1024_bf16_1_alg».proof.Proof.ExitRules

/-! Three small facts the devices' body proofs share: a device may wait on a local copy's semaphore (level 0) under
    payments that all lie above level 0; and a neighbour's hand-over written out chunk by chunk. -/

noncomputable section

namespace Cert.KernelIdeal.RS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
/-- A device may wait on a semaphore of level 0 (a local copy's, a send cell) under payments that all lie above level 0. -/
theorem mayWait_local (c : Dev nD) (s : DmaSem sig) (hs : lvJ s.val = 0) (l : List (GSem nD τ sig × ℕ))
    (h : ∀ p ∈ l, p.1.1.2 = .tc ∧ 0 < lvv p.1 ()) :
    (levAts LL lvv : sProp 𝕄) ⊢ MayWait (c : Thread nD τ) (.dma s) () (owedL l) :=
  mayWait_list (F := F) c (.dma s) l (fun p hp => ⟨(h p hp).1, by show lvJ s.val < lvv p.1 (); rw [hs]; exact (h p hp).2⟩)

/-- A quarter handed over, chunk by chunk. -/
theorem giveQ_eq (p : Dev nD) (q : Fin 4) : giveQ (F := F) p q = iprop(junk (F := F) (r4R q 0) p ∗ junk (F := F) (r4R q 1) p ∗ junk (F := F) (r4R q 2) p ∗ junk (F := F) (r4R q 3) p
    ∗ junk (F := F) (r4R q 4) p ∗ junk (F := F) (r4R q 5) p ∗ junk (F := F) (r4R q 6) p ∗ junk (F := F) (r4R q 7) p) := rfl
/-- The forwarded halves handed over, chunk by chunk. -/
theorem giveH_eq (p : Dev nD) (h : Fin 2) : giveH (F := F) p h = iprop(junk (F := F) (r4H (dqF p) 3 h) p ∗ junk (F := F) (r4H (dqF p) 4 h) p ∗ junk (F := F) (r4H (dqF p) 5 h) p
    ∗ junk (F := F) (r4H (dqF p) 6 h) p ∗ junk (F := F) (r4H (dqF p) 7 h) p) := rfl

end Cert.KernelIdeal.RS

end
-- ==== Proof.Body0.lean ====
import proofs.«901022_g7700000000001023_dist_rs_v7x_xyz2x2x2_x_m4096_n1024_bf16_1_alg».proof.Proof.BodyAux
import proofs.«901022_g7700000000001023_dist_rs_v7x_xyz2x2x2_x_m4096_n1024_bf16_1_alg».proof.Proof.BodyPre
import proofs.«901022_g7700000000001023_dist_rs_v7x_xyz2x2x2_x_m4096_n1024_bf16_1_alg».proof.Proof.OutRules

/-! The body of the kernel on device 0 of the mesh, from its precondition (BodyPre) to its postcondition (bodyPost).

    The program is straight-line code of 4045 statements. Its local steps — the 54 copies between the input, the staging
    buffers, the four-quarter buffer and the result, their waits, the loads and the stores — are run by the library's symbolic
    executor on hypotheses that hold each 512-row chunk through the slice the program itself names. Its remote steps are
    taken by the rounds library's rules, one application each: three barrier signals and the wait for the three
    neighbours; 37 copies to a neighbour, each lending the source chunk (at a share, where the chunk is also read by another
    copy) and landing the chunk's final contents; the waits on the 37 receive cells, which hand back the landed chunks; the
    final waits on the 37 send cells, which hand back what was lent. Whenever a chunk has been written (by a landing copy or
    by a store) it is restated as "holds its final contents" (Spec), which is what the next copy's payload asks for.
    A wait is allowed because whatever the device still owes at that point lies above the awaited cell (Owed): decided on the
    list of payments not yet made. At the end every cell has had its one round and is closed, and the pieces of every
    buffer are put back. -/

set_option maxRecDepth 8000

noncomputable section

namespace Cert.KernelIdeal.RS.D0

open Cert.KernelIdeal Cert.KernelIdeal.Gen Cert.KernelIdeal.RS
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local notation "cc" => (Fin.mk 0 (Nat.le_of_ble_eq_true rfl) : Dev nD)

set_option maxHeartbeats 1600000 in
theorem dev (m : (ℓ : Loc nD τ sig) → Buf (Elt F) ℓ) (K : GSem nD τ sig → ℕ) (W : Waits sig Unit) (Kt : PUnit → sProp 𝕄) :
    iprop(bodyPre m K cc W ∗ (bodyPost m cc -∗ Kt ⟨⟩))
      ⊢ wp frame (wpE (defs₀ (F := F)) 𝒱₀ (cc : Thread nD τ) none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25) Kt := by
  unfold bodyPre O₀
  iintro ⟨⟨HIt, HIw, HRt, #Hlev, HO, Hcr, HpR, HpS, Htk, HX, Hout, HS0, HS1, HS2, HS3, HS4, HS5, HS6, HS7, HS8, HvI, HvO, HvU⟩, Hk⟩
  rw [cc0_body_eq_skeleton]; unfold cc0_body_skel
  -- the four-quarter buffer in the pieces that travel
  ihave H0 := (Entails.of_eq (junk_whole (F := F) cc cc0_scratch0)) $$ HS0
  icases H0 with ⟨%f0, H0⟩
  ihave H4 := (r4_entry (F := F) cc f0) $$ H0
  icases H4 with ⟨Hown, HgZ, HgY, Hdg, HhZ, HhY⟩
  sl_exec

  icases Htk with ⟨Htb, Htk⟩
  icases HIt with ⟨#HIbpx, HIt⟩
  icases HRt with ⟨#HRbpx, HRt⟩
  iapply (sig_bar m cc _ (px cc) (dev1_eq cc) 0 (by decide) (owedL (List.drop 1 (paysL cc))) rfl) $$ [HO Htb HS2 HS4]
  · isplitr; · iexact HIbpx
    isplitl [HO]; · iexact HO
    isplitl [Htb]; · iexact Htb
    isplitl [HS2 HS4]
    · iapply (Entails.of_eq ((barPay_zero (F := F) (px cc)).trans (by rw [px_px])).symm)
      unfold giveX
      isplitl [HS2]; · iexact HS2
      iexact HS4
    · iexact HRbpx
  iintro HO
  sl_exec

  icases Htk with ⟨Htb, Htk⟩
  icases HIt with ⟨#HIbpz, HIt⟩
  icases HRt with ⟨#HRbpz, HRt⟩
  iapply (sig_bar m cc _ (pz cc) (dev2_eq cc) 2 (by decide) (owedL (List.drop 2 (paysL cc))) rfl) $$ [HO Htb HgZ HhZ]
  · isplitr; · iexact HIbpz
    isplitl [HO]; · iexact HO
    isplitl [Htb]; · iexact Htb
    isplitl [HgZ HhZ]
    · iapply (Entails.of_eq ((barPay_two (F := F) (pz cc)).trans (by rw [pz_pz])).symm)
      isplitl [HgZ]; · iexact HgZ
      iexact HhZ
    · iexact HRbpz
  iintro HO
  sl_exec

  icases Htk with ⟨Htb, Htk⟩
  icases HIt with ⟨#HIbpy, HIt⟩
  icases HRt with ⟨#HRbpy, HRt⟩
  iapply (sig_bar m cc _ (py cc) (dev3_eq cc) 1 (by decide) (owedL (List.drop 3 (paysL cc))) rfl) $$ [HO Htb HgY HhY]
  · isplitr; · iexact HIbpy
    isplitl [HO]; · iexact HO
    isplitl [Htb]; · iexact Htb
    isplitl [HgY HhY]
    · iapply (Entails.of_eq ((barPay_one (F := F) (py cc)).trans (by rw [py_py])).symm)
      isplitl [HgY]; · iexact HgY
      iexact HhY
    · iexact HRbpy
  iintro HO
  sl_exec
  -- the wait for the three neighbours
  icases Hcr with ⟨Hcb, Hcr⟩
  icases HpR with ⟨Hpb, HpR⟩
  icases HIw with ⟨#HIb, HIw⟩
  ihave Hmw := (mayWait_list (F := F) cc (.reg barS) (List.drop 3 (paysL cc)) (by decide)) $$ Hlev
  iapply (wait_bar m cc (by decide)) $$ [Hcb HO Hmw Hpb]
  · isplitr; · iexact HIb
    isplitl [Hcb]; · iexact Hcb
    isplitl [HO]; · iexact HO
    isplitl [Hmw]; · iexact Hmw
    iexact Hpb
  iintro ⟨HO, Hpb, -, Hgx, Hgy, Hgz⟩
  -- what they handed over: the x-neighbour's landing buffers chunk by chunk, the y- and z-neighbours' quarter and halves
  ihave Hgx := (Entails.of_eq (barPay_zero (F := F) cc)) $$ Hgx
  ihave Hgx := (giveX_rows (F := F) (px cc)) $$ Hgx
  icases Hgx with ⟨Hrbp, Hrb2p⟩
  ihave Hgy := (Entails.of_eq (barPay_one (F := F) cc)) $$ Hgy
  icases Hgy with ⟨HqY, HhYp⟩
  ihave Hgz := (Entails.of_eq (barPay_two (F := F) cc)) $$ Hgz
  icases Hgz with ⟨HqZ, HhZp⟩
  -- this device's staging buffers and send buffers chunk by chunk
  ihave H5 := (Entails.of_eq (junk_whole (F := F) cc cc0_scratch5)) $$ HS5
  icases H5 with ⟨%f5, H5⟩
  ihave H5 := (Entails.of_eq (stP_rows (F := F) cc fullShare f5)) $$ H5
  icases H5 with ⟨HP0, HP1, HP2, HP3, HP4, HP5, HP6, HP7⟩
  ihave H6 := (Entails.of_eq (junk_whole (F := F) cc cc0_scratch6)) $$ HS6
  icases H6 with ⟨%f6, H6⟩
  ihave H6 := (Entails.of_eq (stL_rows (F := F) cc fullShare f6)) $$ H6
  icases H6 with ⟨HL0, HL1, HL2, HL3, HL4, HL5, HL6, HL7⟩
  ihave H7 := (Entails.of_eq (junk_whole (F := F) cc cc0_scratch7)) $$ HS7
  icases H7 with ⟨%f7, H7⟩
  ihave H7 := (Entails.of_eq (stP2_rows (F := F) cc fullShare f7)) $$ H7
  icases H7 with ⟨HP20, HP21, HP22⟩
  ihave H8 := (Entails.of_eq (junk_whole (F := F) cc cc0_scratch8)) $$ HS8
  icases H8 with ⟨%f8, H8⟩
  ihave H8 := (Entails.of_eq (stL2_rows (F := F) cc fullShare f8)) $$ H8
  icases H8 with ⟨HL20, HL21, HL22⟩
  ihave H1 := (Entails.of_eq (junk_whole (F := F) cc cc0_scratch1)) $$ HS1
  icases H1 with ⟨%f1, H1⟩
  ihave H1 := (Entails.of_eq (sb_rows (F := F) cc fullShare f1)) $$ H1
  icases H1 with ⟨HB0, HB1, HB2, HB3, HB4, HB5, HB6, HB7⟩
  ihave H3 := (Entails.of_eq (junk_whole (F := F) cc cc0_scratch3)) $$ HS3
  icases H3 with ⟨%f3, H3⟩
  ihave H3 := (Entails.of_eq (sb2_rows (F := F) cc fullShare f3)) $$ H3
  icases H3 with ⟨HB20, HB21, HB22⟩
  -- the counters of the 22 copies into the staging buffers
  icases HvI with ⟨Hv0, Hv8, Hv1, Hv9, Hv2, Hv10, Hv3, Hv11, Hv4, Hv12, Hv5, Hv13, Hv6, Hv14, Hv7, Hv15, Hv16, Hv19, Hv17, Hv20, Hv18, Hv21⟩
  sl_exec
  -- chunk 0 across x: wait for its copy into the staging buffer, round it into the send buffer, send it
  have hled3 : ∀ (s : DmaSem sig), lvJ s.val = 0 → ((levAts LL lvv : sProp 𝕄) ⊢ MayWait (cc : Thread nD τ) (.dma s) () (owedL (List.drop 3 (paysL cc)))) :=
    fun s hs => mayWait_local (F := F) cc s hs _ (by decide)
  sl_exec
  clear hled3
  ihave HB0 := (congr (F := F) (sbR 0) cc fullShare (dev.sl.HB0_w1 m f1) (sb m cc) (fun i hi => glue_sb m cc 0 _ (k0_off1_inb cc) (k0_off1_eq cc) f1 i hi)) $$ HB0
  -- the copy
  icases Htk with ⟨Hts, Htr, Htk⟩
  icases HIt with ⟨#HIc22, #HIr, HIt⟩
  icases HRt with ⟨#HRs, #HRr, HRt⟩
  icases Hrbp with ⟨⟨%fd, Hd⟩, Hrbp⟩
  iapply (send_x m cc _ (dev4_eq cc) 0 fd (owedL (List.drop 4 (paysL cc))) rfl _) $$ [HB0 Hd HO Hts Htr]
  · isplitr; · iexact HIc22
    isplitr; · iexact HIr
    isplitl [HB0]; · iexact HB0
    isplitl [Hd]; · iexact Hd
    isplitl [HO]; · iexact HO
    isplitl [Hts]; · iexact Hts
    isplitr; · iexact HRs
    isplitl [Htr]; · iexact Htr
    iexact HRr
  iintro ⟨Hcxs0, HO⟩
  iclear HIr HRs HRr
  -- chunk 1 across x: wait for its copy into the staging buffer, round it into the send buffer, send it
  have hled4 : ∀ (s : DmaSem sig), lvJ s.val = 0 → ((levAts LL lvv : sProp 𝕄) ⊢ MayWait (cc : Thread nD τ) (.dma s) () (owedL (List.drop 4 (paysL cc)))) :=
    fun s hs => mayWait_local (F := F) cc s hs _ (by decide)
  sl_exec
  clear hled4
  ihave HB1 := (congr (F := F) (sbR 1) cc fullShare (dev.sl.HB1_w1 m f1) (sb m cc) (fun i hi => glue_sb m cc 1 _ (k0_off3_inb cc) (k0_off3_eq cc) f1 i hi)) $$ HB1
  -- the copy
  icases Htk with ⟨Hts, Htr, Htk⟩
  icases HIt with ⟨#HIc23, #HIr, HIt⟩
  icases HRt with ⟨#HRs, #HRr, HRt⟩
  icases Hrbp with ⟨⟨%fd, Hd⟩, Hrbp⟩
  iapply (send_x m cc _ (dev5_eq cc) 1 fd (owedL (List.drop 5 (paysL cc))) rfl _) $$ [HB1 Hd HO Hts Htr]
  · isplitr; · iexact HIc23
    isplitr; · iexact HIr
    isplitl [HB1]; · iexact HB1
    isplitl [Hd]; · iexact Hd
    isplitl [HO]; · iexact HO
    isplitl [Hts]; · iexact Hts
    isplitr; · iexact HRs
    isplitl [Htr]; · iexact Htr
    iexact HRr
  iintro ⟨Hcxs1, HO⟩
  iclear HIr HRs HRr
  -- chunk 2 across x: wait for its copy into the staging buffer, round it into the send buffer, send it
  have hled5 : ∀ (s : DmaSem sig), lvJ s.val = 0 → ((levAts LL lvv : sProp 𝕄) ⊢ MayWait (cc : Thread nD τ) (.dma s) () (owedL (List.drop 5 (paysL cc)))) :=
    fun s hs => mayWait_local (F := F) cc s hs _ (by decide)
  sl_exec
  clear hled5
  ihave HB2 := (congr (F := F) (sbR 2) cc fullShare (dev.sl.HB2_w1 m f1) (sb m cc) (fun i hi => glue_sb m cc 2 _ (k0_off5_inb cc) (k0_off5_eq cc) f1 i hi)) $$ HB2
  -- the copy
  icases Htk with ⟨Hts, Htr, Htk⟩
  icases HIt with ⟨#HIc24, #HIr, HIt⟩
  icases HRt with ⟨#HRs, #HRr, HRt⟩
  icases Hrbp with ⟨⟨%fd, Hd⟩, Hrbp⟩
  iapply (send_x m cc _ (dev6_eq cc) 2 fd (owedL (List.drop 6 (paysL cc))) rfl _) $$ [HB2 Hd HO Hts Htr]
  · isplitr; · iexact HIc24
    isplitr; · iexact HIr
    isplitl [HB2]; · iexact HB2
    isplitl [Hd]; · iexact Hd
    isplitl [HO]; · iexact HO
    isplitl [Hts]; · iexact Hts
    isplitr; · iexact HRs
    isplitl [Htr]; · iexact Htr
    iexact HRr
  iintro ⟨Hcxs2, HO⟩
  iclear HIr HRs HRr
  -- chunk 3 across x: wait for its copy into the staging buffer, round it into the send buffer, send it
  have hled6 : ∀ (s : DmaSem sig), lvJ s.val = 0 → ((levAts LL lvv : sProp 𝕄) ⊢ MayWait (cc : Thread nD τ) (.dma s) () (owedL (List.drop 6 (paysL cc)))) :=
    fun s hs => mayWait_local (F := F) cc s hs _ (by decide)
  sl_exec
  clear hled6
  ihave HB3 := (congr (F := F) (sbR 3) cc fullShare (dev.sl.HB3_w1 m f1) (sb m cc) (fun i hi => glue_sb m cc 3 _ (k0_off7_inb cc) (k0_off7_eq cc) f1 i hi)) $$ HB3
  -- the copy
  icases Htk with ⟨Hts, Htr, Htk⟩
  icases HIt with ⟨#HIc25, #HIr, HIt⟩
  icases HRt with ⟨#HRs, #HRr, HRt⟩
  icases Hrbp with ⟨⟨%fd, Hd⟩, Hrbp⟩
  iapply (send_x m cc _ (dev7_eq cc) 3 fd (owedL (List.drop 7 (paysL cc))) rfl _) $$ [HB3 Hd HO Hts Htr]
  · isplitr; · iexact HIc25
    isplitr; · iexact HIr
    isplitl [HB3]; · iexact HB3
    isplitl [Hd]; · iexact Hd
    isplitl [HO]; · iexact HO
    isplitl [Hts]; · iexact Hts
    isplitr; · iexact HRs
    isplitl [Htr]; · iexact Htr
    iexact HRr
  iintro ⟨Hcxs3, HO⟩
  iclear HIr HRs HRr
  -- chunk 4 across x: wait for its copy into the staging buffer, round it into the send buffer, send it
  have hled7 : ∀ (s : DmaSem sig), lvJ s.val = 0 → ((levAts LL lvv : sProp 𝕄) ⊢ MayWait (cc : Thread nD τ) (.dma s) () (owedL (List.drop 7 (paysL cc)))) :=
    fun s hs => mayWait_local (F := F) cc s hs _ (by decide)
  sl_exec
  clear hled7
  ihave HB4 := (congr (F := F) (sbR 4) cc fullShare (dev.sl.HB4_w1 m f1) (sb m cc) (fun i hi => glue_sb m cc 4 _ (k0_off9_inb cc) (k0_off9_eq cc) f1 i hi)) $$ HB4
  -- the copy
  icases Htk with ⟨Hts, Htr, Htk⟩
  icases HIt with ⟨#HIc26, #HIr, HIt⟩
  icases HRt with ⟨#HRs, #HRr, HRt⟩
  icases Hrbp with ⟨⟨%fd, Hd⟩, Hrbp⟩
  iapply (send_x m cc _ (dev8_eq cc) 4 fd (owedL (List.drop 8 (paysL cc))) rfl _) $$ [HB4 Hd HO Hts Htr]
  · isplitr; · iexact HIc26
    isplitr; · iexact HIr
    isplitl [HB4]; · iexact HB4
    isplitl [Hd]; · iexact Hd
    isplitl [HO]; · iexact HO
    isplitl [Hts]; · iexact Hts
    isplitr; · iexact HRs
    isplitl [Htr]; · iexact Htr
    iexact HRr
  iintro ⟨Hcxs4, HO⟩
  iclear HIr HRs HRr
  -- chunk 5 across x: wait for its copy into the staging buffer, round it into the send buffer, send it
  have hled8 : ∀ (s : DmaSem sig), lvJ s.val = 0 → ((levAts LL lvv : sProp 𝕄) ⊢ MayWait (cc : Thread nD τ) (.dma s) () (owedL (List.drop 8 (paysL cc)))) :=
    fun s hs => mayWait_local (F := F) cc s hs _ (by decide)
  sl_exec
  clear hled8
  ihave HB5 := (congr (F := F) (sbR 5) cc fullShare (dev.sl.HB5_w1 m f1) (sb m cc) (fun i hi => glue_sb m cc 5 _ (k0_off11_inb cc) (k0_off11_eq cc) f1 i hi)) $$ HB5
  -- the copy
  icases Htk with ⟨Hts, Htr, Htk⟩
  icases HIt with ⟨#HIc27, #HIr, HIt⟩
  icases HRt with ⟨#HRs, #HRr, HRt⟩
  icases Hrbp with ⟨⟨%fd, Hd⟩, Hrbp⟩
  iapply (send_x m cc _ (dev9_eq cc) 5 fd (owedL (List.drop 9 (paysL cc))) rfl _) $$ [HB5 Hd HO Hts Htr]
  · isplitr; · iexact HIc27
    isplitr; · iexact HIr
    isplitl [HB5]; · iexact HB5
    isplitl [Hd]; · iexact Hd
    isplitl [HO]; · iexact HO
    isplitl [Hts]; · iexact Hts
    isplitr; · iexact HRs
    isplitl [Htr]; · iexact Htr
    iexact HRr
  iintro ⟨Hcxs5, HO⟩
  iclear HIr HRs HRr
  -- chunk 6 across x: wait for its copy into the staging buffer, round it into the send buffer, send it
  have hled9 : ∀ (s : DmaSem sig), lvJ s.val = 0 → ((levAts LL lvv : sProp 𝕄) ⊢ MayWait (cc : Thread nD τ) (.dma s) () (owedL (List.drop 9 (paysL cc)))) :=
    fun s hs => mayWait_local (F := F) cc s hs _ (by decide)
  sl_exec
  clear hled9
  ihave HB6 := (congr (F := F) (sbR 6) cc fullShare (dev.sl.HB6_w1 m f1) (sb m cc) (fun i hi => glue_sb m cc 6 _ (k0_off13_inb cc) (k0_off13_eq cc) f1 i hi)) $$ HB6
  -- the copy
  icases Htk with ⟨Hts, Htr, Htk⟩
  icases HIt with ⟨#HIc28, #HIr, HIt⟩
  icases HRt with ⟨#HRs, #HRr, HRt⟩
  icases Hrbp with ⟨⟨%fd, Hd⟩, Hrbp⟩
  iapply (send_x m cc _ (dev10_eq cc) 6 fd (owedL (List.drop 10 (paysL cc))) rfl _) $$ [HB6 Hd HO Hts Htr]
  · isplitr; · iexact HIc28
    isplitr; · iexact HIr
    isplitl [HB6]; · iexact HB6
    isplitl [Hd]; · iexact Hd
    isplitl [HO]; · iexact HO
    isplitl [Hts]; · iexact Hts
    isplitr; · iexact HRs
    isplitl [Htr]; · iexact Htr
    iexact HRr
  iintro ⟨Hcxs6, HO⟩
  iclear HIr HRs HRr
  -- chunk 7 across x: wait for its copy into the staging buffer, round it into the send buffer, send it
  have hled10 : ∀ (s : DmaSem sig), lvJ s.val = 0 → ((levAts LL lvv : sProp 𝕄) ⊢ MayWait (cc : Thread nD τ) (.dma s) () (owedL (List.drop 10 (paysL cc)))) :=
    fun s hs => mayWait_local (F := F) cc s hs _ (by decide)
  sl_exec
  clear hled10
  ihave HB7 := (congr (F := F) (sbR 7) cc fullShare (dev.sl.HB7_w1 m f1) (sb m cc) (fun i hi => glue_sb m cc 7 _ (k0_off15_inb cc) (k0_off15_eq cc) f1 i hi)) $$ HB7
  -- the copy
  icases Htk with ⟨Hts, Htr, Htk⟩
  icases HIt with ⟨#HIc29, #HIr, HIt⟩
  icases HRt with ⟨#HRs, #HRr, HRt⟩
  icases Hrbp with ⟨%fd, Hd⟩
  iapply (send_x m cc _ (dev11_eq cc) 7 fd (owedL (List.drop 11 (paysL cc))) rfl _) $$ [HB7 Hd HO Hts Htr]
  · isplitr; · iexact HIc29
    isplitr; · iexact HIr
    isplitl [HB7]; · iexact HB7
    isplitl [Hd]; · iexact Hd
    isplitl [HO]; · iexact HO
    isplitl [Hts]; · iexact Hts
    isplitr; · iexact HRs
    isplitl [Htr]; · iexact Htr
    iexact HRr
  iintro ⟨Hcxs7, HO⟩
  iclear HIr HRs HRr
  -- chunk 0 across x (the diagonal quarter's): wait for its copy into the staging buffer, round it into the send buffer, send it
  have hled11 : ∀ (s : DmaSem sig), lvJ s.val = 0 → ((levAts LL lvv : sProp 𝕄) ⊢ MayWait (cc : Thread nD τ) (.dma s) () (owedL (List.drop 11 (paysL cc)))) :=
    fun s hs => mayWait_local (F := F) cc s hs _ (by decide)
  sl_exec
  clear hled11
  ihave HB20 := (congr (F := F) (sb2R 0) cc fullShare (dev.sl.HB20_w1 m f3) (sb2 m cc) (fun i hi => glue_sb2 m cc 0 _ (k0_off17_inb cc) (k0_off17_eq cc) f3 i hi)) $$ HB20
  -- the copy
  icases Htk with ⟨Hts, Htr, Htk⟩
  icases HIt with ⟨#HIc38, #HIr, HIt⟩
  icases HRt with ⟨#HRs, #HRr, HRt⟩
  icases Hrb2p with ⟨⟨%fd, Hd⟩, Hrb2p⟩
  iapply (send_x2 m cc _ (dev12_eq cc) 0 fd (owedL (List.drop 12 (paysL cc))) rfl _) $$ [HB20 Hd HO Hts Htr]
  · isplitr; · iexact HIc38
    isplitr; · iexact HIr
    isplitl [HB20]; · iexact HB20
    isplitl [Hd]; · iexact Hd
    isplitl [HO]; · iexact HO
    isplitl [Hts]; · iexact Hts
    isplitr; · iexact HRs
    isplitl [Htr]; · iexact Htr
    iexact HRr
  iintro ⟨Hcds0, HO⟩
  iclear HIr HRs HRr
  -- chunk 1 across x (the diagonal quarter's): wait for its copy into the staging buffer, round it into the send buffer, send it
  have hled12 : ∀ (s : DmaSem sig), lvJ s.val = 0 → ((levAts LL lvv : sProp 𝕄) ⊢ MayWait (cc : Thread nD τ) (.dma s) () (owedL (List.drop 12 (paysL cc)))) :=
    fun s hs => mayWait_local (F := F) cc s hs _ (by decide)
  sl_exec
  clear hled12
  ihave HB21 := (congr (F := F) (sb2R 1) cc fullShare (dev.sl.HB21_w1 m f3) (sb2 m cc) (fun i hi => glue_sb2 m cc 1 _ (k0_off19_inb cc) (k0_off19_eq cc) f3 i hi)) $$ HB21
  -- the copy
  icases Htk with ⟨Hts, Htr, Htk⟩
  icases HIt with ⟨#HIc39, #HIr, HIt⟩
  icases HRt with ⟨#HRs, #HRr, HRt⟩
  icases Hrb2p with ⟨⟨%fd, Hd⟩, Hrb2p⟩
  iapply (send_x2 m cc _ (dev13_eq cc) 1 fd (owedL (List.drop 13 (paysL cc))) rfl _) $$ [HB21 Hd HO Hts Htr]
  · isplitr; · iexact HIc39
    isplitr; · iexact HIr
    isplitl [HB21]; · iexact HB21
    isplitl [Hd]; · iexact Hd
    isplitl [HO]; · iexact HO
    isplitl [Hts]; · iexact Hts
    isplitr; · iexact HRs
    isplitl [Htr]; · iexact Htr
    iexact HRr
  iintro ⟨Hcds1, HO⟩
  iclear HIr HRs HRr
  -- chunk 2 across x (the diagonal quarter's): wait for its copy into the staging buffer, round it into the send buffer, send it
  have hled13 : ∀ (s : DmaSem sig), lvJ s.val = 0 → ((levAts LL lvv : sProp 𝕄) ⊢ MayWait (cc : Thread nD τ) (.dma s) () (owedL (List.drop 13 (paysL cc)))) :=
    fun s hs => mayWait_local (F := F) cc s hs _ (by decide)
  sl_exec
  clear hled13
  ihave HB22 := (congr (F := F) (sb2R 2) cc fullShare (dev.sl.HB22_w1 m f3) (sb2 m cc) (fun i hi => glue_sb2 m cc 2 _ (k0_off21_inb cc) (k0_off21_eq cc) f3 i hi)) $$ HB22
  -- the copy
  icases Htk with ⟨Hts, Htr, Htk⟩
  icases HIt with ⟨#HIc40, #HIr, HIt⟩
  icases HRt with ⟨#HRs, #HRr, HRt⟩
  icases Hrb2p with ⟨%fd, Hd⟩
  iapply (send_x2 m cc _ (dev14_eq cc) 2 fd (owedL (List.drop 14 (paysL cc))) rfl _) $$ [HB22 Hd HO Hts Htr]
  · isplitr; · iexact HIc40
    isplitr; · iexact HIr
    isplitl [HB22]; · iexact HB22
    isplitl [Hd]; · iexact Hd
    isplitl [HO]; · iexact HO
    isplitl [Hts]; · iexact Hts
    isplitr; · iexact HRs
    isplitl [Htr]; · iexact Htr
    iexact HRr
  iintro ⟨Hcds2, HO⟩
  iclear HIr HRs HRr
  sl_exec
  -- the result array in its 32 blocks
  ihave Hout := (out_split_junk (F := F) cc) $$ Hout
  icases Hout with ⟨⟨%g00, HU00⟩, ⟨%g01, HU01⟩, ⟨%g02, HU02⟩, ⟨%g03, HU03⟩, ⟨%g10, HU10⟩, ⟨%g11, HU11⟩, ⟨%g12, HU12⟩, ⟨%g13, HU13⟩, ⟨%g20, HU20⟩, ⟨%g21, HU21⟩, ⟨%g22, HU22⟩, ⟨%g23, HU23⟩, ⟨%g30, HU30⟩, ⟨%g31, HU31⟩, ⟨%g32, HU32⟩, ⟨%g33, HU33⟩, ⟨%g40, HU40⟩, ⟨%g41, HU41⟩, ⟨%g42, HU42⟩, ⟨%g43, HU43⟩, ⟨%g50, HU50⟩, ⟨%g51, HU51⟩, ⟨%g52, HU52⟩, ⟨%g53, HU53⟩, ⟨%g60, HU60⟩, ⟨%g61, HU61⟩, ⟨%g62, HU62⟩, ⟨%g63, HU63⟩, ⟨%g70, HU70⟩, ⟨%g71, HU71⟩, ⟨%g72, HU72⟩, ⟨%g73, HU73⟩⟩
  ihave HqZ := (Entails.of_eq (giveQ_eq (F := F) (pz cc) (zqF (pz cc)))) $$ HqZ
  ihave HqY := (Entails.of_eq (giveQ_eq (F := F) (py cc) (yqF (py cc)))) $$ HqY
  ihave HhZp := (Entails.of_eq (giveH_eq (F := F) (pz cc) 0)) $$ HhZp
  ihave HhYp := (Entails.of_eq (giveH_eq (F := F) (py cc) 1)) $$ HhYp
  -- step 0 of the main loop: the x-neighbour's chunk 0 has landed
  icases Hcr with ⟨Hc, Hcr⟩
  icases HpR with ⟨Hp, HpR⟩
  icases HIw with ⟨#HIc30, HIw⟩
  ihave Hmw := (mayWait_list (F := F) cc (dsem (⟨30, by decide⟩ : Fin 140)) (List.drop 14 (paysL cc)) (by decide)) $$ Hlev
  iapply (wait_a1_at m cc _ 0 rfl) $$ [Hc HO Hmw Hp]
  · isplitr; · iexact HIc30
    isplitl [Hc]; · iexact Hc
    isplitl [HO]; · iexact HO
    isplitl [Hmw]; · iexact Hmw
    iexact Hp
  iintro ⟨HO, Hq30, -, Hrb0⟩
  icases Hown with ⟨Ho0, Hown⟩
  have hled14 : ∀ (s : DmaSem sig), lvJ s.val = 0 → ((levAts LL lvv : sProp 𝕄) ⊢ MayWait (cc : Thread nD τ) (.dma s) () (owedL (List.drop 14 (paysL cc)))) :=
    fun s hs => mayWait_local (F := F) cc s hs _ (by decide)
  sl_exec
  clear hled14
  ihave Ho0 := (congr (F := F) (r4R (mqF cc) 0) cc fullShare (dev.sl.Ho0_w1 m f0) (r4 m cc) (fun i hi => glue_own m cc 0 _ (k0_off2_inb cc) (k0_off2_eq cc) _ (k0_off23_inb cc) (k0_off23_eq cc) f0 i hi)) $$ Ho0
  ihave Ho0 := (Entails.of_eq (share_ZYK_eq (F := F) (r4R (mqF cc) 0) cc (r4 m cc))) $$ Ho0
  icases Ho0 with ⟨HoZ0, HoY0, HoK0⟩
  -- own chunk 0 to the z-neighbour
  icases Htk with ⟨Hts, Htr, Htk⟩
  icases HIt with ⟨#HIc44, #HIr, HIt⟩
  icases HRt with ⟨#HRs, #HRr, HRt⟩
  icases HqZ with ⟨⟨%fd, Hd⟩, HqZ⟩
  iapply (send_z_at m cc _ (dev15_eq cc) 0 _ _ (k0_off24_eq cc) fd (owedL (List.drop 15 (paysL cc))) rfl _) $$ [HoZ0 Hd HO Hts Htr]
  · isplitr; · iexact HIc44
    isplitr; · iexact HIr
    isplitl [HoZ0]; · iexact HoZ0
    isplitl [Hd]; · iexact Hd
    isplitl [HO]; · iexact HO
    isplitl [Hts]; · iexact Hts
    isplitr; · iexact HRs
    isplitl [Htr]; · iexact Htr
    iexact HRr
  iintro ⟨Hczs0, HO⟩
  iclear HIr HRs HRr
  sl_exec
  -- own chunk 0 to the y-neighbour
  icases Htk with ⟨Hts, Htr, Htk⟩
  icases HIt with ⟨#HIc60, #HIr, HIt⟩
  icases HRt with ⟨#HRs, #HRr, HRt⟩
  icases HqY with ⟨⟨%fd, Hd⟩, HqY⟩
  iapply (send_y_at m cc _ (dev16_eq cc) 0 _ _ (k0_off24_eq cc) fd (owedL (List.drop 16 (paysL cc))) rfl _) $$ [HoY0 Hd HO Hts Htr]
  · isplitr; · iexact HIc60
    isplitr; · iexact HIr
    isplitl [HoY0]; · iexact HoY0
    isplitl [Hd]; · iexact Hd
    isplitl [HO]; · iexact HO
    isplitl [Hts]; · iexact Hts
    isplitr; · iexact HRs
    isplitl [Htr]; · iexact Htr
    iexact HRr
  iintro ⟨Hcys0, HO⟩
  iclear HIr HRs HRr
  sl_exec
  -- step 1 of the main loop: the x-neighbour's chunk 1 has landed
  icases Hcr with ⟨Hc, Hcr⟩
  icases HpR with ⟨Hp, HpR⟩
  icases HIw with ⟨#HIc31, HIw⟩
  ihave Hmw := (mayWait_list (F := F) cc (dsem (⟨31, by decide⟩ : Fin 140)) (List.drop 16 (paysL cc)) (by decide)) $$ Hlev
  iapply (wait_a1_at m cc _ 1 rfl) $$ [Hc HO Hmw Hp]
  · isplitr; · iexact HIc31
    isplitl [Hc]; · iexact Hc
    isplitl [HO]; · iexact HO
    isplitl [Hmw]; · iexact Hmw
    iexact Hp
  iintro ⟨HO, Hq31, -, Hrb1⟩
  icases Hown with ⟨Ho1, Hown⟩
  have hled16 : ∀ (s : DmaSem sig), lvJ s.val = 0 → ((levAts LL lvv : sProp 𝕄) ⊢ MayWait (cc : Thread nD τ) (.dma s) () (owedL (List.drop 16 (paysL cc)))) :=
    fun s hs => mayWait_local (F := F) cc s hs _ (by decide)
  sl_exec
  clear hled16
  ihave Ho1 := (congr (F := F) (r4R (mqF cc) 1) cc fullShare (dev.sl.Ho1_w1 m f0) (r4 m cc) (fun i hi => glue_own m cc 1 _ (k0_off4_inb cc) (k0_off4_eq cc) _ (k0_off25_inb cc) (k0_off25_eq cc) f0 i hi)) $$ Ho1
  ihave Ho1 := (Entails.of_eq (share_ZYK_eq (F := F) (r4R (mqF cc) 1) cc (r4 m cc))) $$ Ho1
  icases Ho1 with ⟨HoZ1, HoY1, HoK1⟩
  -- own chunk 1 to the z-neighbour
  icases Htk with ⟨Hts, Htr, Htk⟩
  icases HIt with ⟨#HIc45, #HIr, HIt⟩
  icases HRt with ⟨#HRs, #HRr, HRt⟩
  icases HqZ with ⟨⟨%fd, Hd⟩, HqZ⟩
  iapply (send_z_at m cc _ (dev17_eq cc) 1 _ _ (k0_off26_eq cc) fd (owedL (List.drop 17 (paysL cc))) rfl _) $$ [HoZ1 Hd HO Hts Htr]
  · isplitr; · iexact HIc45
    isplitr; · iexact HIr
    isplitl [HoZ1]; · iexact HoZ1
    isplitl [Hd]; · iexact Hd
    isplitl [HO]; · iexact HO
    isplitl [Hts]; · iexact Hts
    isplitr; · iexact HRs
    isplitl [Htr]; · iexact Htr
    iexact HRr
  iintro ⟨Hczs1, HO⟩
  iclear HIr HRs HRr
  sl_exec
  -- own chunk 1 to the y-neighbour
  icases Htk with ⟨Hts, Htr, Htk⟩
  icases HIt with ⟨#HIc61, #HIr, HIt⟩
  icases HRt with ⟨#HRs, #HRr, HRt⟩
  icases HqY with ⟨⟨%fd, Hd⟩, HqY⟩
  iapply (send_y_at m cc _ (dev18_eq cc) 1 _ _ (k0_off26_eq cc) fd (owedL (List.drop 18 (paysL cc))) rfl _) $$ [HoY1 Hd HO Hts Htr]
  · isplitr; · iexact HIc61
    isplitr; · iexact HIr
    isplitl [HoY1]; · iexact HoY1
    isplitl [Hd]; · iexact Hd
    isplitl [HO]; · iexact HO
    isplitl [Hts]; · iexact Hts
    isplitr; · iexact HRs
    isplitl [Htr]; · iexact Htr
    iexact HRr
  iintro ⟨Hcys1, HO⟩
  iclear HIr HRs HRr
  sl_exec
  -- the z-neighbour's chunk 0 has landed
  icases Hcr with ⟨Hc, Hcr⟩
  icases HpR with ⟨Hp, HpR⟩
  icases HIw with ⟨#HIc52, HIw⟩
  ihave Hmw := (mayWait_list (F := F) cc (dsem (⟨52, by decide⟩ : Fin 140)) (List.drop 18 (paysL cc)) (by decide)) $$ Hlev
  iapply (wait_a5_at m cc _ 0 rfl) $$ [Hc HO Hmw Hp]
  · isplitr; · iexact HIc52
    isplitl [Hc]; · iexact Hc
    isplitl [HO]; · iexact HO
    isplitl [Hmw]; · iexact Hmw
    iexact Hp
  iintro ⟨HO, Hq52, -, Hz0⟩
  sl_exec
  -- the y-neighbour's chunk 0 has landed
  icases Hcr with ⟨Hc, Hcr⟩
  icases HpR with ⟨Hp, HpR⟩
  icases HIw with ⟨#HIc68, HIw⟩
  ihave Hmw := (mayWait_list (F := F) cc (dsem (⟨68, by decide⟩ : Fin 140)) (List.drop 18 (paysL cc)) (by decide)) $$ Hlev
  iapply (wait_a7_at m cc _ 0 rfl) $$ [Hc HO Hmw Hp]
  · isplitr; · iexact HIc68
    isplitl [Hc]; · iexact Hc
    isplitl [HO]; · iexact HO
    isplitl [Hmw]; · iexact Hmw
    iexact Hp
  iintro ⟨HO, Hq68, -, Hy0⟩
  sl_exec
  -- step 2 of the main loop: the x-neighbour's chunk 2 has landed
  icases Hcr with ⟨Hc, Hcr⟩
  icases HpR with ⟨Hp, HpR⟩
  icases HIw with ⟨#HIc32, HIw⟩
  ihave Hmw := (mayWait_list (F := F) cc (dsem (⟨32, by decide⟩ : Fin 140)) (List.drop 18 (paysL cc)) (by decide)) $$ Hlev
  iapply (wait_a1_at m cc _ 2 rfl) $$ [Hc HO Hmw Hp]
  · isplitr; · iexact HIc32
    isplitl [Hc]; · iexact Hc
    isplitl [HO]; · iexact HO
    isplitl [Hmw]; · iexact Hmw
    iexact Hp
  iintro ⟨HO, Hq32, -, Hrb2⟩
  icases Hown with ⟨Ho2, Hown⟩
  have hled18 : ∀ (s : DmaSem sig), lvJ s.val = 0 → ((levAts LL lvv : sProp 𝕄) ⊢ MayWait (cc : Thread nD τ) (.dma s) () (owedL (List.drop 18 (paysL cc)))) :=
    fun s hs => mayWait_local (F := F) cc s hs _ (by decide)
  sl_exec
  clear hled18
  ihave Ho2 := (congr (F := F) (r4R (mqF cc) 2) cc fullShare (dev.sl.Ho2_w1 m f0) (r4 m cc) (fun i hi => glue_own m cc 2 _ (k0_off6_inb cc) (k0_off6_eq cc) _ (k0_off27_inb cc) (k0_off27_eq cc) f0 i hi)) $$ Ho2
  ihave Ho2 := (Entails.of_eq (share_ZYK_eq (F := F) (r4R (mqF cc) 2) cc (r4 m cc))) $$ Ho2
  icases Ho2 with ⟨HoZ2, HoY2, HoK2⟩
  -- own chunk 2 to the z-neighbour
  icases Htk with ⟨Hts, Htr, Htk⟩
  icases HIt with ⟨#HIc46, #HIr, HIt⟩
  icases HRt with ⟨#HRs, #HRr, HRt⟩
  icases HqZ with ⟨⟨%fd, Hd⟩, HqZ⟩
  iapply (send_z_at m cc _ (dev19_eq cc) 2 _ _ (k0_off28_eq cc) fd (owedL (List.drop 19 (paysL cc))) rfl _) $$ [HoZ2 Hd HO Hts Htr]
  · isplitr; · iexact HIc46
    isplitr; · iexact HIr
    isplitl [HoZ2]; · iexact HoZ2
    isplitl [Hd]; · iexact Hd
    isplitl [HO]; · iexact HO
    isplitl [Hts]; · iexact Hts
    isplitr; · iexact HRs
    isplitl [Htr]; · iexact Htr
    iexact HRr
  iintro ⟨Hczs2, HO⟩
  iclear HIr HRs HRr
  sl_exec
  -- own chunk 2 to the y-neighbour
  icases Htk with ⟨Hts, Htr, Htk⟩
  icases HIt with ⟨#HIc62, #HIr, HIt⟩
  icases HRt with ⟨#HRs, #HRr, HRt⟩
  icases HqY with ⟨⟨%fd, Hd⟩, HqY⟩
  iapply (send_y_at m cc _ (dev20_eq cc) 2 _ _ (k0_off28_eq cc) fd (owedL (List.drop 20 (paysL cc))) rfl _) $$ [HoY2 Hd HO Hts Htr]
  · isplitr; · iexact HIc62
    isplitr; · iexact HIr
    isplitl [HoY2]; · iexact HoY2
    isplitl [Hd]; · iexact Hd
    isplitl [HO]; · iexact HO
    isplitl [Hts]; · iexact Hts
    isplitr; · iexact HRs
    isplitl [Htr]; · iexact Htr
    iexact HRr
  iintro ⟨Hcys2, HO⟩
  iclear HIr HRs HRr
  sl_exec
  -- the z-neighbour's chunk 1 has landed
  icases Hcr with ⟨Hc, Hcr⟩
  icases HpR with ⟨Hp, HpR⟩
  icases HIw with ⟨#HIc53, HIw⟩
  ihave Hmw := (mayWait_list (F := F) cc (dsem (⟨53, by decide⟩ : Fin 140)) (List.drop 20 (paysL cc)) (by decide)) $$ Hlev
  iapply (wait_a5_at m cc _ 1 rfl) $$ [Hc HO Hmw Hp]
  · isplitr; · iexact HIc53
    isplitl [Hc]; · iexact Hc
    isplitl [HO]; · iexact HO
    isplitl [Hmw]; · iexact Hmw
    iexact Hp
  iintro ⟨HO, Hq53, -, Hz1⟩
  sl_exec
  -- the y-neighbour's chunk 1 has landed
  icases Hcr with ⟨Hc, Hcr⟩
  icases HpR with ⟨Hp, HpR⟩
  icases HIw with ⟨#HIc69, HIw⟩
  ihave Hmw := (mayWait_list (F := F) cc (dsem (⟨69, by decide⟩ : Fin 140)) (List.drop 20 (paysL cc)) (by decide)) $$ Hlev
  iapply (wait_a7_at m cc _ 1 rfl) $$ [Hc HO Hmw Hp]
  · isplitr; · iexact HIc69
    isplitl [Hc]; · iexact Hc
    isplitl [HO]; · iexact HO
    isplitl [Hmw]; · iexact Hmw
    iexact Hp
  iintro ⟨HO, Hq69, -, Hy1⟩
  sl_exec
  -- step 3 of the main loop: the x-neighbour's chunk 3 has landed
  icases Hcr with ⟨Hc, Hcr⟩
  icases HpR with ⟨Hp, HpR⟩
  icases HIw with ⟨#HIc33, HIw⟩
  ihave Hmw := (mayWait_list (F := F) cc (dsem (⟨33, by decide⟩ : Fin 140)) (List.drop 20 (paysL cc)) (by decide)) $$ Hlev
  iapply (wait_a1_at m cc _ 3 rfl) $$ [Hc HO Hmw Hp]
  · isplitr; · iexact HIc33
    isplitl [Hc]; · iexact Hc
    isplitl [HO]; · iexact HO
    isplitl [Hmw]; · iexact Hmw
    iexact Hp
  iintro ⟨HO, Hq33, -, Hrb3⟩
  icases Hown with ⟨Ho3, Hown⟩
  have hled20 : ∀ (s : DmaSem sig), lvJ s.val = 0 → ((levAts LL lvv : sProp 𝕄) ⊢ MayWait (cc : Thread nD τ) (.dma s) () (owedL (List.drop 20 (paysL cc)))) :=
    fun s hs => mayWait_local (F := F) cc s hs _ (by decide)
  sl_exec
  clear hled20
  ihave Ho3 := (congr (F := F) (r4R (mqF cc) 3) cc fullShare (dev.sl.Ho3_w1 m f0) (r4 m cc) (fun i hi => glue_own m cc 3 _ (k0_off8_inb cc) (k0_off8_eq cc) _ (k0_off29_inb cc) (k0_off29_eq cc) f0 i hi)) $$ Ho3
  ihave Ho3 := (Entails.of_eq (share_ZYK_eq (F := F) (r4R (mqF cc) 3) cc (r4 m cc))) $$ Ho3
  icases Ho3 with ⟨HoZ3, HoY3, HoK3⟩
  -- own chunk 3 to the z-neighbour
  icases Htk with ⟨Hts, Htr, Htk⟩
  icases HIt with ⟨#HIc47, #HIr, HIt⟩
  icases HRt with ⟨#HRs, #HRr, HRt⟩
  icases HqZ with ⟨⟨%fd, Hd⟩, HqZ⟩
  iapply (send_z_at m cc _ (dev21_eq cc) 3 _ _ (k0_off30_eq cc) fd (owedL (List.drop 21 (paysL cc))) rfl _) $$ [HoZ3 Hd HO Hts Htr]
  · isplitr; · iexact HIc47
    isplitr; · iexact HIr
    isplitl [HoZ3]; · iexact HoZ3
    isplitl [Hd]; · iexact Hd
    isplitl [HO]; · iexact HO
    isplitl [Hts]; · iexact Hts
    isplitr; · iexact HRs
    isplitl [Htr]; · iexact Htr
    iexact HRr
  iintro ⟨Hczs3, HO⟩
  iclear HIr HRs HRr
  sl_exec
  -- own chunk 3 to the y-neighbour
  icases Htk with ⟨Hts, Htr, Htk⟩
  icases HIt with ⟨#HIc63, #HIr, HIt⟩
  icases HRt with ⟨#HRs, #HRr, HRt⟩
  icases HqY with ⟨⟨%fd, Hd⟩, HqY⟩
  iapply (send_y_at m cc _ (dev22_eq cc) 3 _ _ (k0_off30_eq cc) fd (owedL (List.drop 22 (paysL cc))) rfl _) $$ [HoY3 Hd HO Hts Htr]
  · isplitr; · iexact HIc63
    isplitr; · iexact HIr
    isplitl [HoY3]; · iexact HoY3
    isplitl [Hd]; · iexact Hd
    isplitl [HO]; · iexact HO
    isplitl [Hts]; · iexact Hts
    isplitr; · iexact HRs
    isplitl [Htr]; · iexact Htr
    iexact HRr
  iintro ⟨Hcys3, HO⟩
  iclear HIr HRs HRr
  sl_exec
  -- the z-neighbour's chunk 2 has landed
  icases Hcr with ⟨Hc, Hcr⟩
  icases HpR with ⟨Hp, HpR⟩
  icases HIw with ⟨#HIc54, HIw⟩
  ihave Hmw := (mayWait_list (F := F) cc (dsem (⟨54, by decide⟩ : Fin 140)) (List.drop 22 (paysL cc)) (by decide)) $$ Hlev
  iapply (wait_a5_at m cc _ 2 rfl) $$ [Hc HO Hmw Hp]
  · isplitr; · iexact HIc54
    isplitl [Hc]; · iexact Hc
    isplitl [HO]; · iexact HO
    isplitl [Hmw]; · iexact Hmw
    iexact Hp
  iintro ⟨HO, Hq54, -, Hz2⟩
  sl_exec
  -- the y-neighbour's chunk 2 has landed
  icases Hcr with ⟨Hc, Hcr⟩
  icases HpR with ⟨Hp, HpR⟩
  icases HIw with ⟨#HIc70, HIw⟩
  ihave Hmw := (mayWait_list (F := F) cc (dsem (⟨70, by decide⟩ : Fin 140)) (List.drop 22 (paysL cc)) (by decide)) $$ Hlev
  iapply (wait_a7_at m cc _ 2 rfl) $$ [Hc HO Hmw Hp]
  · isplitr; · iexact HIc70
    isplitl [Hc]; · iexact Hc
    isplitl [HO]; · iexact HO
    isplitl [Hmw]; · iexact Hmw
    iexact Hp
  iintro ⟨HO, Hq70, -, Hy2⟩
  sl_exec
  -- step 4 of the main loop: the x-neighbour's chunk 4 has landed
  icases Hcr with ⟨Hc, Hcr⟩
  icases HpR with ⟨Hp, HpR⟩
  icases HIw with ⟨#HIc34, HIw⟩
  ihave Hmw := (mayWait_list (F := F) cc (dsem (⟨34, by decide⟩ : Fin 140)) (List.drop 22 (paysL cc)) (by decide)) $$ Hlev
  iapply (wait_a1_at m cc _ 4 rfl) $$ [Hc HO Hmw Hp]
  · isplitr; · iexact HIc34
    isplitl [Hc]; · iexact Hc
    isplitl [HO]; · iexact HO
    isplitl [Hmw]; · iexact Hmw
    iexact Hp
  iintro ⟨HO, Hq34, -, Hrb4⟩
  icases Hown with ⟨Ho4, Hown⟩
  have hled22 : ∀ (s : DmaSem sig), lvJ s.val = 0 → ((levAts LL lvv : sProp 𝕄) ⊢ MayWait (cc : Thread nD τ) (.dma s) () (owedL (List.drop 22 (paysL cc)))) :=
    fun s hs => mayWait_local (F := F) cc s hs _ (by decide)
  sl_exec
  clear hled22
  ihave Ho4 := (congr (F := F) (r4R (mqF cc) 4) cc fullShare (dev.sl.Ho4_w1 m f0) (r4 m cc) (fun i hi => glue_own m cc 4 _ (k0_off10_inb cc) (k0_off10_eq cc) _ (k0_off31_inb cc) (k0_off31_eq cc) f0 i hi)) $$ Ho4
  ihave Ho4 := (Entails.of_eq (share_ZYK_eq (F := F) (r4R (mqF cc) 4) cc (r4 m cc))) $$ Ho4
  icases Ho4 with ⟨HoZ4, HoY4, HoK4⟩
  -- own chunk 4 to the z-neighbour
  icases Htk with ⟨Hts, Htr, Htk⟩
  icases HIt with ⟨#HIc48, #HIr, HIt⟩
  icases HRt with ⟨#HRs, #HRr, HRt⟩
  icases HqZ with ⟨⟨%fd, Hd⟩, HqZ⟩
  iapply (send_z_at m cc _ (dev23_eq cc) 4 _ _ (k0_off32_eq cc) fd (owedL (List.drop 23 (paysL cc))) rfl _) $$ [HoZ4 Hd HO Hts Htr]
  · isplitr; · iexact HIc48
    isplitr; · iexact HIr
    isplitl [HoZ4]; · iexact HoZ4
    isplitl [Hd]; · iexact Hd
    isplitl [HO]; · iexact HO
    isplitl [Hts]; · iexact Hts
    isplitr; · iexact HRs
    isplitl [Htr]; · iexact Htr
    iexact HRr
  iintro ⟨Hczs4, HO⟩
  iclear HIr HRs HRr
  sl_exec
  -- own chunk 4 to the y-neighbour
  icases Htk with ⟨Hts, Htr, Htk⟩
  icases HIt with ⟨#HIc64, #HIr, HIt⟩
  icases HRt with ⟨#HRs, #HRr, HRt⟩
  icases HqY with ⟨⟨%fd, Hd⟩, HqY⟩
  iapply (send_y_at m cc _ (dev24_eq cc) 4 _ _ (k0_off32_eq cc) fd (owedL (List.drop 24 (paysL cc))) rfl _) $$ [HoY4 Hd HO Hts Htr]
  · isplitr; · iexact HIc64
    isplitr; · iexact HIr
    isplitl [HoY4]; · iexact HoY4
    isplitl [Hd]; · iexact Hd
    isplitl [HO]; · iexact HO
    isplitl [Hts]; · iexact Hts
    isplitr; · iexact HRs
    isplitl [Htr]; · iexact Htr
    iexact HRr
  iintro ⟨Hcys4, HO⟩
  iclear HIr HRs HRr
  sl_exec
  -- the z-neighbour's chunk 3 has landed
  icases Hcr with ⟨Hc, Hcr⟩
  icases HpR with ⟨Hp, HpR⟩
  icases HIw with ⟨#HIc55, HIw⟩
  ihave Hmw := (mayWait_list (F := F) cc (dsem (⟨55, by decide⟩ : Fin 140)) (List.drop 24 (paysL cc)) (by decide)) $$ Hlev
  iapply (wait_a5_at m cc _ 3 rfl) $$ [Hc HO Hmw Hp]
  · isplitr; · iexact HIc55
    isplitl [Hc]; · iexact Hc
    isplitl [HO]; · iexact HO
    isplitl [Hmw]; · iexact Hmw
    iexact Hp
  iintro ⟨HO, Hq55, -, Hz3⟩
  sl_exec
  -- the y-neighbour's chunk 3 has landed
  icases Hcr with ⟨Hc, Hcr⟩
  icases HpR with ⟨Hp, HpR⟩
  icases HIw with ⟨#HIc71, HIw⟩
  ihave Hmw := (mayWait_list (F := F) cc (dsem (⟨71, by decide⟩ : Fin 140)) (List.drop 24 (paysL cc)) (by decide)) $$ Hlev
  iapply (wait_a7_at m cc _ 3 rfl) $$ [Hc HO Hmw Hp]
  · isplitr; · iexact HIc71
    isplitl [Hc]; · iexact Hc
    isplitl [HO]; · iexact HO
    isplitl [Hmw]; · iexact Hmw
    iexact Hp
  iintro ⟨HO, Hq71, -, Hy3⟩
  -- chunk 3 of the two neighbours' quarters: half its ownership stays for the copy into the result, of the other half one column half travels on
  ihave Hz3 := (Entails.of_eq (share_FG_eq (F := F) (r4R (zqF cc) 3) cc (r4 m cc))) $$ Hz3
  icases Hz3 with ⟨HzF3, HzG3⟩
  ihave HzF3 := (Entails.of_eq (chunk_halves (F := F) cc (zqF cc) 3 shF (r4 m cc))) $$ HzF3
  icases HzF3 with ⟨HzFl3, HzFr3⟩
  ihave Hy3 := (Entails.of_eq (share_FG_eq (F := F) (r4R (yqF cc) 3) cc (r4 m cc))) $$ Hy3
  icases Hy3 with ⟨HyF3, HyG3⟩
  ihave HyF3 := (Entails.of_eq (chunk_halves (F := F) cc (yqF cc) 3 shF (r4 m cc))) $$ HyF3
  icases HyF3 with ⟨HyFl3, HyFr3⟩
  sl_exec
  -- the right half of the z-neighbour's chunk 3 on to the y-neighbour
  icases Htk with ⟨Hts, Htr, Htk⟩
  icases HIt with ⟨#HIc95, #HIr, HIt⟩
  icases HRt with ⟨#HRs, #HRr, HRt⟩
  icases HhYp with ⟨⟨%fd, Hd⟩, HhYp⟩
  iapply (send_yf_at m cc _ (dev25_eq cc) 3 (by decide) _ _ (k0_off33_eq cc) fd (owedL (List.drop 25 (paysL cc))) rfl _) $$ [HzFr3 Hd HO Hts Htr]
  · isplitr; · iexact HIc95
    isplitr; · iexact HIr
    isplitl [HzFr3]; · iexact HzFr3
    isplitl [Hd]; · iexact Hd
    isplitl [HO]; · iexact HO
    isplitl [Hts]; · iexact Hts
    isplitr; · iexact HRs
    isplitl [Htr]; · iexact Htr
    iexact HRr
  iintro ⟨Hcyfs3, HO⟩
  iclear HIr HRs HRr
  sl_exec
  -- the left half of the y-neighbour's chunk 3 on to the z-neighbour
  icases Htk with ⟨Hts, Htr, Htk⟩
  icases HIt with ⟨#HIc79, #HIr, HIt⟩
  icases HRt with ⟨#HRs, #HRr, HRt⟩
  icases HhZp with ⟨⟨%fd, Hd⟩, HhZp⟩
  iapply (send_zf_at m cc _ (dev26_eq cc) 3 (by decide) _ _ (k0_off34_eq cc) fd (owedL (List.drop 26 (paysL cc))) rfl _) $$ [HyFl3 Hd HO Hts Htr]
  · isplitr; · iexact HIc79
    isplitr; · iexact HIr
    isplitl [HyFl3]; · iexact HyFl3
    isplitl [Hd]; · iexact Hd
    isplitl [HO]; · iexact HO
    isplitl [Hts]; · iexact Hts
    isplitr; · iexact HRs
    isplitl [Htr]; · iexact Htr
    iexact HRr
  iintro ⟨Hczfs3, HO⟩
  iclear HIr HRs HRr
  sl_exec
  -- step 5 of the main loop: the x-neighbour's chunk 5 has landed
  icases Hcr with ⟨Hc, Hcr⟩
  icases HpR with ⟨Hp, HpR⟩
  icases HIw with ⟨#HIc35, HIw⟩
  ihave Hmw := (mayWait_list (F := F) cc (dsem (⟨35, by decide⟩ : Fin 140)) (List.drop 26 (paysL cc)) (by decide)) $$ Hlev
  iapply (wait_a1_at m cc _ 5 rfl) $$ [Hc HO Hmw Hp]
  · isplitr; · iexact HIc35
    isplitl [Hc]; · iexact Hc
    isplitl [HO]; · iexact HO
    isplitl [Hmw]; · iexact Hmw
    iexact Hp
  iintro ⟨HO, Hq35, -, Hrb5⟩
  icases Hown with ⟨Ho5, Hown⟩
  have hled26 : ∀ (s : DmaSem sig), lvJ s.val = 0 → ((levAts LL lvv : sProp 𝕄) ⊢ MayWait (cc : Thread nD τ) (.dma s) () (owedL (List.drop 26 (paysL cc)))) :=
    fun s hs => mayWait_local (F := F) cc s hs _ (by decide)
  sl_exec
  clear hled26
  ihave Ho5 := (congr (F := F) (r4R (mqF cc) 5) cc fullShare (dev.sl.Ho5_w1 m f0) (r4 m cc) (fun i hi => glue_own m cc 5 _ (k0_off12_inb cc) (k0_off12_eq cc) _ (k0_off35_inb cc) (k0_off35_eq cc) f0 i hi)) $$ Ho5
  ihave Ho5 := (Entails.of_eq (share_ZYK_eq (F := F) (r4R (mqF cc) 5) cc (r4 m cc))) $$ Ho5
  icases Ho5 with ⟨HoZ5, HoY5, HoK5⟩
  -- own chunk 5 to the z-neighbour
  icases Htk with ⟨Hts, Htr, Htk⟩
  icases HIt with ⟨#HIc49, #HIr, HIt⟩
  icases HRt with ⟨#HRs, #HRr, HRt⟩
  icases HqZ with ⟨⟨%fd, Hd⟩, HqZ⟩
  iapply (send_z_at m cc _ (dev27_eq cc) 5 _ _ (k0_off36_eq cc) fd (owedL (List.drop 27 (paysL cc))) rfl _) $$ [HoZ5 Hd HO Hts Htr]
  · isplitr; · iexact HIc49
    isplitr; · iexact HIr
    isplitl [HoZ5]; · iexact HoZ5
    isplitl [Hd]; · iexact Hd
    isplitl [HO]; · iexact HO
    isplitl [Hts]; · iexact Hts
    isplitr; · iexact HRs
    isplitl [Htr]; · iexact Htr
    iexact HRr
  iintro ⟨Hczs5, HO⟩
  iclear HIr HRs HRr
  sl_exec
  -- own chunk 5 to the y-neighbour
  icases Htk with ⟨Hts, Htr, Htk⟩
  icases HIt with ⟨#HIc65, #HIr, HIt⟩
  icases HRt with ⟨#HRs, #HRr, HRt⟩
  icases HqY with ⟨⟨%fd, Hd⟩, HqY⟩
  iapply (send_y_at m cc _ (dev28_eq cc) 5 _ _ (k0_off36_eq cc) fd (owedL (List.drop 28 (paysL cc))) rfl _) $$ [HoY5 Hd HO Hts Htr]
  · isplitr; · iexact HIc65
    isplitr; · iexact HIr
    isplitl [HoY5]; · iexact HoY5
    isplitl [Hd]; · iexact Hd
    isplitl [HO]; · iexact HO
    isplitl [Hts]; · iexact Hts
    isplitr; · iexact HRs
    isplitl [Htr]; · iexact Htr
    iexact HRr
  iintro ⟨Hcys5, HO⟩
  iclear HIr HRs HRr
  sl_exec
  -- the z-neighbour's chunk 4 has landed
  icases Hcr with ⟨Hc, Hcr⟩
  icases HpR with ⟨Hp, HpR⟩
  icases HIw with ⟨#HIc56, HIw⟩
  ihave Hmw := (mayWait_list (F := F) cc (dsem (⟨56, by decide⟩ : Fin 140)) (List.drop 28 (paysL cc)) (by decide)) $$ Hlev
  iapply (wait_a5_at m cc _ 4 rfl) $$ [Hc HO Hmw Hp]
  · isplitr; · iexact HIc56
    isplitl [Hc]; · iexact Hc
    isplitl [HO]; · iexact HO
    isplitl [Hmw]; · iexact Hmw
    iexact Hp
  iintro ⟨HO, Hq56, -, Hz4⟩
  sl_exec
  -- the y-neighbour's chunk 4 has landed
  icases Hcr with ⟨Hc, Hcr⟩
  icases HpR with ⟨Hp, HpR⟩
  icases HIw with ⟨#HIc72, HIw⟩
  ihave Hmw := (mayWait_list (F := F) cc (dsem (⟨72, by decide⟩ : Fin 140)) (List.drop 28 (paysL cc)) (by decide)) $$ Hlev
  iapply (wait_a7_at m cc _ 4 rfl) $$ [Hc HO Hmw Hp]
  · isplitr; · iexact HIc72
    isplitl [Hc]; · iexact Hc
    isplitl [HO]; · iexact HO
    isplitl [Hmw]; · iexact Hmw
    iexact Hp
  iintro ⟨HO, Hq72, -, Hy4⟩
  -- chunk 4 of the two neighbours' quarters: half its ownership stays for the copy into the result, of the other half one column half travels on
  ihave Hz4 := (Entails.of_eq (share_FG_eq (F := F) (r4R (zqF cc) 4) cc (r4 m cc))) $$ Hz4
  icases Hz4 with ⟨HzF4, HzG4⟩
  ihave HzF4 := (Entails.of_eq (chunk_halves (F := F) cc (zqF cc) 4 shF (r4 m cc))) $$ HzF4
  icases HzF4 with ⟨HzFl4, HzFr4⟩
  ihave Hy4 := (Entails.of_eq (share_FG_eq (F := F) (r4R (yqF cc) 4) cc (r4 m cc))) $$ Hy4
  icases Hy4 with ⟨HyF4, HyG4⟩
  ihave HyF4 := (Entails.of_eq (chunk_halves (F := F) cc (yqF cc) 4 shF (r4 m cc))) $$ HyF4
  icases HyF4 with ⟨HyFl4, HyFr4⟩
  sl_exec
  -- the right half of the z-neighbour's chunk 4 on to the y-neighbour
  icases Htk with ⟨Hts, Htr, Htk⟩
  icases HIt with ⟨#HIc96, #HIr, HIt⟩
  icases HRt with ⟨#HRs, #HRr, HRt⟩
  icases HhYp with ⟨⟨%fd, Hd⟩, HhYp⟩
  iapply (send_yf_at m cc _ (dev29_eq cc) 4 (by decide) _ _ (k0_off37_eq cc) fd (owedL (List.drop 29 (paysL cc))) rfl _) $$ [HzFr4 Hd HO Hts Htr]
  · isplitr; · iexact HIc96
    isplitr; · iexact HIr
    isplitl [HzFr4]; · iexact HzFr4
    isplitl [Hd]; · iexact Hd
    isplitl [HO]; · iexact HO
    isplitl [Hts]; · iexact Hts
    isplitr; · iexact HRs
    isplitl [Htr]; · iexact Htr
    iexact HRr
  iintro ⟨Hcyfs4, HO⟩
  iclear HIr HRs HRr
  sl_exec
  -- the left half of the y-neighbour's chunk 4 on to the z-neighbour
  icases Htk with ⟨Hts, Htr, Htk⟩
  icases HIt with ⟨#HIc80, #HIr, HIt⟩
  icases HRt with ⟨#HRs, #HRr, HRt⟩
  icases HhZp with ⟨⟨%fd, Hd⟩, HhZp⟩
  iapply (send_zf_at m cc _ (dev30_eq cc) 4 (by decide) _ _ (k0_off38_eq cc) fd (owedL (List.drop 30 (paysL cc))) rfl _) $$ [HyFl4 Hd HO Hts Htr]
  · isplitr; · iexact HIc80
    isplitr; · iexact HIr
    isplitl [HyFl4]; · iexact HyFl4
    isplitl [Hd]; · iexact Hd
    isplitl [HO]; · iexact HO
    isplitl [Hts]; · iexact Hts
    isplitr; · iexact HRs
    isplitl [Htr]; · iexact Htr
    iexact HRr
  iintro ⟨Hczfs4, HO⟩
  iclear HIr HRs HRr
  sl_exec
  -- the left half of chunk 3 of the diagonal quarter has landed
  icases Hcr with ⟨Hc, Hcr⟩
  icases HpR with ⟨Hp, HpR⟩
  icases HIw with ⟨#HIc87, HIw⟩
  ihave Hmw := (mayWait_list (F := F) cc (dsem (⟨87, by decide⟩ : Fin 140)) (List.drop 30 (paysL cc)) (by decide)) $$ Hlev
  iapply (wait_a9_at m cc _ 3 rfl (by decide)) $$ [Hc HO Hmw Hp]
  · isplitr; · iexact HIc87
    isplitl [Hc]; · iexact Hc
    isplitl [HO]; · iexact HO
    isplitl [Hmw]; · iexact Hmw
    iexact Hp
  iintro ⟨HO, Hq87, -, Hdl3⟩
  sl_exec
  -- its right half has landed
  icases Hcr with ⟨Hc, Hcr⟩
  icases HpR with ⟨Hp, HpR⟩
  icases HIw with ⟨#HIc103, HIw⟩
  ihave Hmw := (mayWait_list (F := F) cc (dsem (⟨103, by decide⟩ : Fin 140)) (List.drop 30 (paysL cc)) (by decide)) $$ Hlev
  iapply (wait_a11_at m cc _ 3 rfl (by decide)) $$ [Hc HO Hmw Hp]
  · isplitr; · iexact HIc103
    isplitl [Hc]; · iexact Hc
    isplitl [HO]; · iexact HO
    isplitl [Hmw]; · iexact Hmw
    iexact Hp
  iintro ⟨HO, Hq103, -, Hdr3⟩
  ihave Hd3 := (Entails.of_eq (chunk_halves (F := F) cc (dqF cc) 3 fullShare (r4 m cc)).symm) $$ [Hdl3 Hdr3]
  · isplitl [Hdl3]; · iexact Hdl3
    iexact Hdr3
  -- the four copies of chunk 3 into the result
  icases HvO with ⟨Hw3a, Hw3b, Hw3c, Hw3d, HvO⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  -- step 6 of the main loop: the x-neighbour's chunk 6 has landed
  icases Hcr with ⟨Hc, Hcr⟩
  icases HpR with ⟨Hp, HpR⟩
  icases HIw with ⟨#HIc36, HIw⟩
  ihave Hmw := (mayWait_list (F := F) cc (dsem (⟨36, by decide⟩ : Fin 140)) (List.drop 30 (paysL cc)) (by decide)) $$ Hlev
  iapply (wait_a1_at m cc _ 6 rfl) $$ [Hc HO Hmw Hp]
  · isplitr; · iexact HIc36
    isplitl [Hc]; · iexact Hc
    isplitl [HO]; · iexact HO
    isplitl [Hmw]; · iexact Hmw
    iexact Hp
  iintro ⟨HO, Hq36, -, Hrb6⟩
  icases Hown with ⟨Ho6, Hown⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  ihave Ho6 := (congr (F := F) (r4R (mqF cc) 6) cc fullShare (dev.sl.Ho6_w1 m f0) (r4 m cc) (fun i hi => glue_own m cc 6 _ (k0_off14_inb cc) (k0_off14_eq cc) _ (k0_off39_inb cc) (k0_off39_eq cc) f0 i hi)) $$ Ho6
  ihave Ho6 := (Entails.of_eq (share_ZYK_eq (F := F) (r4R (mqF cc) 6) cc (r4 m cc))) $$ Ho6
  icases Ho6 with ⟨HoZ6, HoY6, HoK6⟩
  -- own chunk 6 to the z-neighbour
  icases Htk with ⟨Hts, Htr, Htk⟩
  icases HIt with ⟨#HIc50, #HIr, HIt⟩
  icases HRt with ⟨#HRs, #HRr, HRt⟩
  icases HqZ with ⟨⟨%fd, Hd⟩, HqZ⟩
  iapply (send_z_at m cc _ (dev31_eq cc) 6 _ _ (k0_off40_eq cc) fd (owedL (List.drop 31 (paysL cc))) rfl _) $$ [HoZ6 Hd HO Hts Htr]
  · isplitr; · iexact HIc50
    isplitr; · iexact HIr
    isplitl [HoZ6]; · iexact HoZ6
    isplitl [Hd]; · iexact Hd
    isplitl [HO]; · iexact HO
    isplitl [Hts]; · iexact Hts
    isplitr; · iexact HRs
    isplitl [Htr]; · iexact Htr
    iexact HRr
  iintro ⟨Hczs6, HO⟩
  iclear HIr HRs HRr
  sl_exec
  -- own chunk 6 to the y-neighbour
  icases Htk with ⟨Hts, Htr, Htk⟩
  icases HIt with ⟨#HIc66, #HIr, HIt⟩
  icases HRt with ⟨#HRs, #HRr, HRt⟩
  icases HqY with ⟨⟨%fd, Hd⟩, HqY⟩
  iapply (send_y_at m cc _ (dev32_eq cc) 6 _ _ (k0_off40_eq cc) fd (owedL (List.drop 32 (paysL cc))) rfl _) $$ [HoY6 Hd HO Hts Htr]
  · isplitr; · iexact HIc66
    isplitr; · iexact HIr
    isplitl [HoY6]; · iexact HoY6
    isplitl [Hd]; · iexact Hd
    isplitl [HO]; · iexact HO
    isplitl [Hts]; · iexact Hts
    isplitr; · iexact HRs
    isplitl [Htr]; · iexact Htr
    iexact HRr
  iintro ⟨Hcys6, HO⟩
  iclear HIr HRs HRr
  sl_exec
  -- the z-neighbour's chunk 5 has landed
  icases Hcr with ⟨Hc, Hcr⟩
  icases HpR with ⟨Hp, HpR⟩
  icases HIw with ⟨#HIc57, HIw⟩
  ihave Hmw := (mayWait_list (F := F) cc (dsem (⟨57, by decide⟩ : Fin 140)) (List.drop 32 (paysL cc)) (by decide)) $$ Hlev
  iapply (wait_a5_at m cc _ 5 rfl) $$ [Hc HO Hmw Hp]
  · isplitr; · iexact HIc57
    isplitl [Hc]; · iexact Hc
    isplitl [HO]; · iexact HO
    isplitl [Hmw]; · iexact Hmw
    iexact Hp
  iintro ⟨HO, Hq57, -, Hz5⟩
  sl_exec
  -- the y-neighbour's chunk 5 has landed
  icases Hcr with ⟨Hc, Hcr⟩
  icases HpR with ⟨Hp, HpR⟩
  icases HIw with ⟨#HIc73, HIw⟩
  ihave Hmw := (mayWait_list (F := F) cc (dsem (⟨73, by decide⟩ : Fin 140)) (List.drop 32 (paysL cc)) (by decide)) $$ Hlev
  iapply (wait_a7_at m cc _ 5 rfl) $$ [Hc HO Hmw Hp]
  · isplitr; · iexact HIc73
    isplitl [Hc]; · iexact Hc
    isplitl [HO]; · iexact HO
    isplitl [Hmw]; · iexact Hmw
    iexact Hp
  iintro ⟨HO, Hq73, -, Hy5⟩
  -- chunk 5 of the two neighbours' quarters: half its ownership stays for the copy into the result, of the other half one column half travels on
  ihave Hz5 := (Entails.of_eq (share_FG_eq (F := F) (r4R (zqF cc) 5) cc (r4 m cc))) $$ Hz5
  icases Hz5 with ⟨HzF5, HzG5⟩
  ihave HzF5 := (Entails.of_eq (chunk_halves (F := F) cc (zqF cc) 5 shF (r4 m cc))) $$ HzF5
  icases HzF5 with ⟨HzFl5, HzFr5⟩
  ihave Hy5 := (Entails.of_eq (share_FG_eq (F := F) (r4R (yqF cc) 5) cc (r4 m cc))) $$ Hy5
  icases Hy5 with ⟨HyF5, HyG5⟩
  ihave HyF5 := (Entails.of_eq (chunk_halves (F := F) cc (yqF cc) 5 shF (r4 m cc))) $$ HyF5
  icases HyF5 with ⟨HyFl5, HyFr5⟩
  sl_exec
  -- the right half of the z-neighbour's chunk 5 on to the y-neighbour
  icases Htk with ⟨Hts, Htr, Htk⟩
  icases HIt with ⟨#HIc97, #HIr, HIt⟩
  icases HRt with ⟨#HRs, #HRr, HRt⟩
  icases HhYp with ⟨⟨%fd, Hd⟩, HhYp⟩
  iapply (send_yf_at m cc _ (dev33_eq cc) 5 (by decide) _ _ (k0_off41_eq cc) fd (owedL (List.drop 33 (paysL cc))) rfl _) $$ [HzFr5 Hd HO Hts Htr]
  · isplitr; · iexact HIc97
    isplitr; · iexact HIr
    isplitl [HzFr5]; · iexact HzFr5
    isplitl [Hd]; · iexact Hd
    isplitl [HO]; · iexact HO
    isplitl [Hts]; · iexact Hts
    isplitr; · iexact HRs
    isplitl [Htr]; · iexact Htr
    iexact HRr
  iintro ⟨Hcyfs5, HO⟩
  iclear HIr HRs HRr
  sl_exec
  -- the left half of the y-neighbour's chunk 5 on to the z-neighbour
  icases Htk with ⟨Hts, Htr, Htk⟩
  icases HIt with ⟨#HIc81, #HIr, HIt⟩
  icases HRt with ⟨#HRs, #HRr, HRt⟩
  icases HhZp with ⟨⟨%fd, Hd⟩, HhZp⟩
  iapply (send_zf_at m cc _ (dev34_eq cc) 5 (by decide) _ _ (k0_off42_eq cc) fd (owedL (List.drop 34 (paysL cc))) rfl _) $$ [HyFl5 Hd HO Hts Htr]
  · isplitr; · iexact HIc81
    isplitr; · iexact HIr
    isplitl [HyFl5]; · iexact HyFl5
    isplitl [Hd]; · iexact Hd
    isplitl [HO]; · iexact HO
    isplitl [Hts]; · iexact Hts
    isplitr; · iexact HRs
    isplitl [Htr]; · iexact Htr
    iexact HRr
  iintro ⟨Hczfs5, HO⟩
  iclear HIr HRs HRr
  sl_exec
  -- the left half of chunk 4 of the diagonal quarter has landed
  icases Hcr with ⟨Hc, Hcr⟩
  icases HpR with ⟨Hp, HpR⟩
  icases HIw with ⟨#HIc88, HIw⟩
  ihave Hmw := (mayWait_list (F := F) cc (dsem (⟨88, by decide⟩ : Fin 140)) (List.drop 34 (paysL cc)) (by decide)) $$ Hlev
  iapply (wait_a9_at m cc _ 4 rfl (by decide)) $$ [Hc HO Hmw Hp]
  · isplitr; · iexact HIc88
    isplitl [Hc]; · iexact Hc
    isplitl [HO]; · iexact HO
    isplitl [Hmw]; · iexact Hmw
    iexact Hp
  iintro ⟨HO, Hq88, -, Hdl4⟩
  sl_exec
  -- its right half has landed
  icases Hcr with ⟨Hc, Hcr⟩
  icases HpR with ⟨Hp, HpR⟩
  icases HIw with ⟨#HIc104, HIw⟩
  ihave Hmw := (mayWait_list (F := F) cc (dsem (⟨104, by decide⟩ : Fin 140)) (List.drop 34 (paysL cc)) (by decide)) $$ Hlev
  iapply (wait_a11_at m cc _ 4 rfl (by decide)) $$ [Hc HO Hmw Hp]
  · isplitr; · iexact HIc104
    isplitl [Hc]; · iexact Hc
    isplitl [HO]; · iexact HO
    isplitl [Hmw]; · iexact Hmw
    iexact Hp
  iintro ⟨HO, Hq104, -, Hdr4⟩
  ihave Hd4 := (Entails.of_eq (chunk_halves (F := F) cc (dqF cc) 4 fullShare (r4 m cc)).symm) $$ [Hdl4 Hdr4]
  · isplitl [Hdl4]; · iexact Hdl4
    iexact Hdr4
  -- the four copies of chunk 4 into the result
  icases HvO with ⟨Hw4a, Hw4b, Hw4c, Hw4d, HvO⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  -- step 7 of the main loop: the x-neighbour's chunk 7 has landed
  icases Hcr with ⟨Hc, Hcr⟩
  icases HpR with ⟨Hp, HpR⟩
  icases HIw with ⟨#HIc37, HIw⟩
  ihave Hmw := (mayWait_list (F := F) cc (dsem (⟨37, by decide⟩ : Fin 140)) (List.drop 34 (paysL cc)) (by decide)) $$ Hlev
  iapply (wait_a1_at m cc _ 7 rfl) $$ [Hc HO Hmw Hp]
  · isplitr; · iexact HIc37
    isplitl [Hc]; · iexact Hc
    isplitl [HO]; · iexact HO
    isplitl [Hmw]; · iexact Hmw
    iexact Hp
  iintro ⟨HO, Hq37, -, Hrb7⟩
  icases Hown with ⟨Ho7⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  ihave Ho7 := (congr (F := F) (r4R (mqF cc) 7) cc fullShare (dev.sl.Ho7_w1 m f0) (r4 m cc) (fun i hi => glue_own m cc 7 _ (k0_off16_inb cc) (k0_off16_eq cc) _ (k0_off43_inb cc) (k0_off43_eq cc) f0 i hi)) $$ Ho7
  ihave Ho7 := (Entails.of_eq (share_ZYK_eq (F := F) (r4R (mqF cc) 7) cc (r4 m cc))) $$ Ho7
  icases Ho7 with ⟨HoZ7, HoY7, HoK7⟩
  -- own chunk 7 to the z-neighbour
  icases Htk with ⟨Hts, Htr, Htk⟩
  icases HIt with ⟨#HIc51, #HIr, HIt⟩
  icases HRt with ⟨#HRs, #HRr, HRt⟩
  icases HqZ with ⟨%fd, Hd⟩
  iapply (send_z_at m cc _ (dev35_eq cc) 7 _ _ (k0_off44_eq cc) fd (owedL (List.drop 35 (paysL cc))) rfl _) $$ [HoZ7 Hd HO Hts Htr]
  · isplitr; · iexact HIc51
    isplitr; · iexact HIr
    isplitl [HoZ7]; · iexact HoZ7
    isplitl [Hd]; · iexact Hd
    isplitl [HO]; · iexact HO
    isplitl [Hts]; · iexact Hts
    isplitr; · iexact HRs
    isplitl [Htr]; · iexact Htr
    iexact HRr
  iintro ⟨Hczs7, HO⟩
  iclear HIr HRs HRr
  sl_exec
  -- own chunk 7 to the y-neighbour
  icases Htk with ⟨Hts, Htr, Htk⟩
  icases HIt with ⟨#HIc67, #HIr, HIt⟩
  icases HRt with ⟨#HRs, #HRr, HRt⟩
  icases HqY with ⟨%fd, Hd⟩
  iapply (send_y_at m cc _ (dev36_eq cc) 7 _ _ (k0_off44_eq cc) fd (owedL (List.drop 36 (paysL cc))) rfl _) $$ [HoY7 Hd HO Hts Htr]
  · isplitr; · iexact HIc67
    isplitr; · iexact HIr
    isplitl [HoY7]; · iexact HoY7
    isplitl [Hd]; · iexact Hd
    isplitl [HO]; · iexact HO
    isplitl [Hts]; · iexact Hts
    isplitr; · iexact HRs
    isplitl [Htr]; · iexact Htr
    iexact HRr
  iintro ⟨Hcys7, HO⟩
  iclear HIr HRs HRr
  sl_exec
  -- the z-neighbour's chunk 6 has landed
  icases Hcr with ⟨Hc, Hcr⟩
  icases HpR with ⟨Hp, HpR⟩
  icases HIw with ⟨#HIc58, HIw⟩
  ihave Hmw := (mayWait_list (F := F) cc (dsem (⟨58, by decide⟩ : Fin 140)) (List.drop 36 (paysL cc)) (by decide)) $$ Hlev
  iapply (wait_a5_at m cc _ 6 rfl) $$ [Hc HO Hmw Hp]
  · isplitr; · iexact HIc58
    isplitl [Hc]; · iexact Hc
    isplitl [HO]; · iexact HO
    isplitl [Hmw]; · iexact Hmw
    iexact Hp
  iintro ⟨HO, Hq58, -, Hz6⟩
  sl_exec
  -- the y-neighbour's chunk 6 has landed
  icases Hcr with ⟨Hc, Hcr⟩
  icases HpR with ⟨Hp, HpR⟩
  icases HIw with ⟨#HIc74, HIw⟩
  ihave Hmw := (mayWait_list (F := F) cc (dsem (⟨74, by decide⟩ : Fin 140)) (List.drop 36 (paysL cc)) (by decide)) $$ Hlev
  iapply (wait_a7_at m cc _ 6 rfl) $$ [Hc HO Hmw Hp]
  · isplitr; · iexact HIc74
    isplitl [Hc]; · iexact Hc
    isplitl [HO]; · iexact HO
    isplitl [Hmw]; · iexact Hmw
    iexact Hp
  iintro ⟨HO, Hq74, -, Hy6⟩
  -- chunk 6 of the two neighbours' quarters: half its ownership stays for the copy into the result, of the other half one column half travels on
  ihave Hz6 := (Entails.of_eq (share_FG_eq (F := F) (r4R (zqF cc) 6) cc (r4 m cc))) $$ Hz6
  icases Hz6 with ⟨HzF6, HzG6⟩
  ihave HzF6 := (Entails.of_eq (chunk_halves (F := F) cc (zqF cc) 6 shF (r4 m cc))) $$ HzF6
  icases HzF6 with ⟨HzFl6, HzFr6⟩
  ihave Hy6 := (Entails.of_eq (share_FG_eq (F := F) (r4R (yqF cc) 6) cc (r4 m cc))) $$ Hy6
  icases Hy6 with ⟨HyF6, HyG6⟩
  ihave HyF6 := (Entails.of_eq (chunk_halves (F := F) cc (yqF cc) 6 shF (r4 m cc))) $$ HyF6
  icases HyF6 with ⟨HyFl6, HyFr6⟩
  sl_exec
  -- the right half of the z-neighbour's chunk 6 on to the y-neighbour
  icases Htk with ⟨Hts, Htr, Htk⟩
  icases HIt with ⟨#HIc98, #HIr, HIt⟩
  icases HRt with ⟨#HRs, #HRr, HRt⟩
  icases HhYp with ⟨⟨%fd, Hd⟩, HhYp⟩
  iapply (send_yf_at m cc _ (dev37_eq cc) 6 (by decide) _ _ (k0_off45_eq cc) fd (owedL (List.drop 37 (paysL cc))) rfl _) $$ [HzFr6 Hd HO Hts Htr]
  · isplitr; · iexact HIc98
    isplitr; · iexact HIr
    isplitl [HzFr6]; · iexact HzFr6
    isplitl [Hd]; · iexact Hd
    isplitl [HO]; · iexact HO
    isplitl [Hts]; · iexact Hts
    isplitr; · iexact HRs
    isplitl [Htr]; · iexact Htr
    iexact HRr
  iintro ⟨Hcyfs6, HO⟩
  iclear HIr HRs HRr
  sl_exec
  -- the left half of the y-neighbour's chunk 6 on to the z-neighbour
  icases Htk with ⟨Hts, Htr, Htk⟩
  icases HIt with ⟨#HIc82, #HIr, HIt⟩
  icases HRt with ⟨#HRs, #HRr, HRt⟩
  icases HhZp with ⟨⟨%fd, Hd⟩, HhZp⟩
  iapply (send_zf_at m cc _ (dev38_eq cc) 6 (by decide) _ _ (k0_off46_eq cc) fd (owedL (List.drop 38 (paysL cc))) rfl _) $$ [HyFl6 Hd HO Hts Htr]
  · isplitr; · iexact HIc82
    isplitr; · iexact HIr
    isplitl [HyFl6]; · iexact HyFl6
    isplitl [Hd]; · iexact Hd
    isplitl [HO]; · iexact HO
    isplitl [Hts]; · iexact Hts
    isplitr; · iexact HRs
    isplitl [Htr]; · iexact Htr
    iexact HRr
  iintro ⟨Hczfs6, HO⟩
  iclear HIr HRs HRr
  sl_exec
  -- the left half of chunk 5 of the diagonal quarter has landed
  icases Hcr with ⟨Hc, Hcr⟩
  icases HpR with ⟨Hp, HpR⟩
  icases HIw with ⟨#HIc89, HIw⟩
  ihave Hmw := (mayWait_list (F := F) cc (dsem (⟨89, by decide⟩ : Fin 140)) (List.drop 38 (paysL cc)) (by decide)) $$ Hlev
  iapply (wait_a9_at m cc _ 5 rfl (by decide)) $$ [Hc HO Hmw Hp]
  · isplitr; · iexact HIc89
    isplitl [Hc]; · iexact Hc
    isplitl [HO]; · iexact HO
    isplitl [Hmw]; · iexact Hmw
    iexact Hp
  iintro ⟨HO, Hq89, -, Hdl5⟩
  sl_exec
  -- its right half has landed
  icases Hcr with ⟨Hc, Hcr⟩
  icases HpR with ⟨Hp, HpR⟩
  icases HIw with ⟨#HIc105, HIw⟩
  ihave Hmw := (mayWait_list (F := F) cc (dsem (⟨105, by decide⟩ : Fin 140)) (List.drop 38 (paysL cc)) (by decide)) $$ Hlev
  iapply (wait_a11_at m cc _ 5 rfl (by decide)) $$ [Hc HO Hmw Hp]
  · isplitr; · iexact HIc105
    isplitl [Hc]; · iexact Hc
    isplitl [HO]; · iexact HO
    isplitl [Hmw]; · iexact Hmw
    iexact Hp
  iintro ⟨HO, Hq105, -, Hdr5⟩
  ihave Hd5 := (Entails.of_eq (chunk_halves (F := F) cc (dqF cc) 5 fullShare (r4 m cc)).symm) $$ [Hdl5 Hdr5]
  · isplitl [Hdl5]; · iexact Hdl5
    iexact Hdr5
  -- the four copies of chunk 5 into the result
  icases HvO with ⟨Hw5a, Hw5b, Hw5c, Hw5d, HvO⟩
  have hled38 : ∀ (s : DmaSem sig), lvJ s.val = 0 → ((levAts LL lvv : sProp 𝕄) ⊢ MayWait (cc : Thread nD τ) (.dma s) () (owedL (List.drop 38 (paysL cc)))) :=
    fun s hs => mayWait_local (F := F) cc s hs _ (by decide)
  sl_exec
  clear hled38
  -- after the loop: the z-neighbour's last chunk has landed
  icases Hcr with ⟨Hc, Hcr⟩
  icases HpR with ⟨Hp, HpR⟩
  icases HIw with ⟨#HIc59, HIw⟩
  ihave Hmw := (mayWait_list (F := F) cc (dsem (⟨59, by decide⟩ : Fin 140)) (List.drop 38 (paysL cc)) (by decide)) $$ Hlev
  iapply (wait_a5_at m cc _ 7 rfl) $$ [Hc HO Hmw Hp]
  · isplitr; · iexact HIc59
    isplitl [Hc]; · iexact Hc
    isplitl [HO]; · iexact HO
    isplitl [Hmw]; · iexact Hmw
    iexact Hp
  iintro ⟨HO, Hq59, -, Hz7⟩
  sl_exec
  -- the y-neighbour's last chunk has landed
  icases Hcr with ⟨Hc, Hcr⟩
  icases HpR with ⟨Hp, HpR⟩
  icases HIw with ⟨#HIc75, HIw⟩
  ihave Hmw := (mayWait_list (F := F) cc (dsem (⟨75, by decide⟩ : Fin 140)) (List.drop 38 (paysL cc)) (by decide)) $$ Hlev
  iapply (wait_a7_at m cc _ 7 rfl) $$ [Hc HO Hmw Hp]
  · isplitr; · iexact HIc75
    isplitl [Hc]; · iexact Hc
    isplitl [HO]; · iexact HO
    isplitl [Hmw]; · iexact Hmw
    iexact Hp
  iintro ⟨HO, Hq75, -, Hy7⟩
  -- chunk 7 of the two neighbours' quarters: half its ownership stays for the copy into the result, of the other half one column half travels on
  ihave Hz7 := (Entails.of_eq (share_FG_eq (F := F) (r4R (zqF cc) 7) cc (r4 m cc))) $$ Hz7
  icases Hz7 with ⟨HzF7, HzG7⟩
  ihave HzF7 := (Entails.of_eq (chunk_halves (F := F) cc (zqF cc) 7 shF (r4 m cc))) $$ HzF7
  icases HzF7 with ⟨HzFl7, HzFr7⟩
  ihave Hy7 := (Entails.of_eq (share_FG_eq (F := F) (r4R (yqF cc) 7) cc (r4 m cc))) $$ Hy7
  icases Hy7 with ⟨HyF7, HyG7⟩
  ihave HyF7 := (Entails.of_eq (chunk_halves (F := F) cc (yqF cc) 7 shF (r4 m cc))) $$ HyF7
  icases HyF7 with ⟨HyFl7, HyFr7⟩
  sl_exec
  -- the right half of the z-neighbour's last chunk on to the y-neighbour
  icases Htk with ⟨Hts, Htr, Htk⟩
  icases HIt with ⟨#HIc99, #HIr, HIt⟩
  icases HRt with ⟨#HRs, #HRr, HRt⟩
  icases HhYp with ⟨%fd, Hd⟩
  iapply (send_yf_at m cc _ (dev39_eq cc) 7 (by decide) _ _ (k0_off47_eq cc) fd (owedL (List.drop 39 (paysL cc))) rfl _) $$ [HzFr7 Hd HO Hts Htr]
  · isplitr; · iexact HIc99
    isplitr; · iexact HIr
    isplitl [HzFr7]; · iexact HzFr7
    isplitl [Hd]; · iexact Hd
    isplitl [HO]; · iexact HO
    isplitl [Hts]; · iexact Hts
    isplitr; · iexact HRs
    isplitl [Htr]; · iexact Htr
    iexact HRr
  iintro ⟨Hcyfs7, HO⟩
  iclear HIr HRs HRr
  sl_exec
  -- the left half of the y-neighbour's last chunk on to the z-neighbour
  icases Htk with ⟨Hts, Htr⟩
  icases HIt with ⟨#HIc83, #HIr⟩
  icases HRt with ⟨#HRs, #HRr⟩
  icases HhZp with ⟨%fd, Hd⟩
  iapply (send_zf_at m cc _ (dev40_eq cc) 7 (by decide) _ _ (k0_off48_eq cc) fd (owedL (List.drop 40 (paysL cc))) rfl _) $$ [HyFl7 Hd HO Hts Htr]
  · isplitr; · iexact HIc83
    isplitr; · iexact HIr
    isplitl [HyFl7]; · iexact HyFl7
    isplitl [Hd]; · iexact Hd
    isplitl [HO]; · iexact HO
    isplitl [Hts]; · iexact Hts
    isplitr; · iexact HRs
    isplitl [Htr]; · iexact Htr
    iexact HRr
  iintro ⟨Hczfs7, HO⟩
  iclear HIr HRs HRr
  sl_exec
  -- chunk 0 of the diagonal quarter: the x-neighbour's chunk has landed
  icases Hcr with ⟨Hc, Hcr⟩
  icases HpR with ⟨Hp, HpR⟩
  icases HIw with ⟨#HIc41, HIw⟩
  ihave Hmw := (mayWait_list (F := F) cc (dsem (⟨41, by decide⟩ : Fin 140)) (List.drop 40 (paysL cc)) (by decide)) $$ Hlev
  iapply (wait_a3_at m cc _ 0 rfl) $$ [Hc HO Hmw Hp]
  · isplitr; · iexact HIc41
    isplitl [Hc]; · iexact Hc
    isplitl [HO]; · iexact HO
    isplitl [Hmw]; · iexact Hmw
    iexact Hp
  iintro ⟨HO, Hq41, -, Hrb20⟩
  icases Hdg with ⟨Hdq0, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq0 := (congr (F := F) (r4R (dqF cc) 0) cc fullShare (dev.sl.Hdq0_w1 m f0) (r4 m cc) (fun i hi => glue_dgn m cc 0 0 rfl _ (k0_off18_inb cc) (k0_off18_eq cc) _ (k0_off49_inb cc) (k0_off49_eq cc) f0 i hi)) $$ Hdq0
  -- the four copies of chunk 0 into the result
  icases HvO with ⟨Hw0a, Hw0b, Hw0c, Hw0d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 1 of the diagonal quarter: the x-neighbour's chunk has landed
  icases Hcr with ⟨Hc, Hcr⟩
  icases HpR with ⟨Hp, HpR⟩
  icases HIw with ⟨#HIc42, HIw⟩
  ihave Hmw := (mayWait_list (F := F) cc (dsem (⟨42, by decide⟩ : Fin 140)) (List.drop 40 (paysL cc)) (by decide)) $$ Hlev
  iapply (wait_a3_at m cc _ 1 rfl) $$ [Hc HO Hmw Hp]
  · isplitr; · iexact HIc42
    isplitl [Hc]; · iexact Hc
    isplitl [HO]; · iexact HO
    isplitl [Hmw]; · iexact Hmw
    iexact Hp
  iintro ⟨HO, Hq42, -, Hrb21⟩
  icases Hdg with ⟨Hdq1, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq1 := (congr (F := F) (r4R (dqF cc) 1) cc fullShare (dev.sl.Hdq1_w1 m f0) (r4 m cc) (fun i hi => glue_dgn m cc 1 1 rfl _ (k0_off20_inb cc) (k0_off20_eq cc) _ (k0_off50_inb cc) (k0_off50_eq cc) f0 i hi)) $$ Hdq1
  -- the four copies of chunk 1 into the result
  icases HvO with ⟨Hw1a, Hw1b, Hw1c, Hw1d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 2 of the diagonal quarter: the x-neighbour's chunk has landed
  icases Hcr with ⟨Hc, Hcr⟩
  icases HpR with ⟨Hp, HpR⟩
  icases HIw with ⟨#HIc43, HIw⟩
  ihave Hmw := (mayWait_list (F := F) cc (dsem (⟨43, by decide⟩ : Fin 140)) (List.drop 40 (paysL cc)) (by decide)) $$ Hlev
  iapply (wait_a3_at m cc _ 2 rfl) $$ [Hc HO Hmw Hp]
  · isplitr; · iexact HIc43
    isplitl [Hc]; · iexact Hc
    isplitl [HO]; · iexact HO
    isplitl [Hmw]; · iexact Hmw
    iexact Hp
  iintro ⟨HO, Hq43, -, Hrb22⟩
  icases Hdg with ⟨Hdq2⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq2 := (congr (F := F) (r4R (dqF cc) 2) cc fullShare (dev.sl.Hdq2_w1 m f0) (r4 m cc) (fun i hi => glue_dgn m cc 2 2 rfl _ (k0_off22_inb cc) (k0_off22_eq cc) _ (k0_off51_inb cc) (k0_off51_eq cc) f0 i hi)) $$ Hdq2
  -- the four copies of chunk 2 into the result
  icases HvO with ⟨Hw2a, Hw2b, Hw2c, Hw2d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 6 of the diagonal quarter has landed
  icases Hcr with ⟨Hc, Hcr⟩
  icases HpR with ⟨Hp, HpR⟩
  icases HIw with ⟨#HIc90, HIw⟩
  ihave Hmw := (mayWait_list (F := F) cc (dsem (⟨90, by decide⟩ : Fin 140)) (List.drop 40 (paysL cc)) (by decide)) $$ Hlev
  iapply (wait_a9_at m cc _ 6 rfl (by decide)) $$ [Hc HO Hmw Hp]
  · isplitr; · iexact HIc90
    isplitl [Hc]; · iexact Hc
    isplitl [HO]; · iexact HO
    isplitl [Hmw]; · iexact Hmw
    iexact Hp
  iintro ⟨HO, Hq90, -, Hdl6⟩
  sl_exec
  -- its right half has landed
  icases Hcr with ⟨Hc, Hcr⟩
  icases HpR with ⟨Hp, HpR⟩
  icases HIw with ⟨#HIc106, HIw⟩
  ihave Hmw := (mayWait_list (F := F) cc (dsem (⟨106, by decide⟩ : Fin 140)) (List.drop 40 (paysL cc)) (by decide)) $$ Hlev
  iapply (wait_a11_at m cc _ 6 rfl (by decide)) $$ [Hc HO Hmw Hp]
  · isplitr; · iexact HIc106
    isplitl [Hc]; · iexact Hc
    isplitl [HO]; · iexact HO
    isplitl [Hmw]; · iexact Hmw
    iexact Hp
  iintro ⟨HO, Hq106, -, Hdr6⟩
  ihave Hd6 := (Entails.of_eq (chunk_halves (F := F) cc (dqF cc) 6 fullShare (r4 m cc)).symm) $$ [Hdl6 Hdr6]
  · isplitl [Hdl6]; · iexact Hdl6
    iexact Hdr6
  -- the four copies of chunk 6 into the result
  icases HvO with ⟨Hw6a, Hw6b, Hw6c, Hw6d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 7 of the diagonal quarter has landed
  icases Hcr with ⟨Hc, Hcr⟩
  icases HpR with ⟨Hp, HpR⟩
  icases HIw with ⟨#HIc91, HIw⟩
  ihave Hcr := ((sep_emp (PROP := sProp 𝕄)).2) $$ Hcr
  ihave Hmw := (mayWait_list (F := F) cc (dsem (⟨91, by decide⟩ : Fin 140)) (List.drop 40 (paysL cc)) (by decide)) $$ Hlev
  iapply (wait_a9_at m cc _ 7 rfl (by decide)) $$ [Hc HO Hmw Hp]
  · isplitr; · iexact HIc91
    isplitl [Hc]; · iexact Hc
    isplitl [HO]; · iexact HO
    isplitl [Hmw]; · iexact Hmw
    iexact Hp
  iintro ⟨HO, Hq91, -, Hdl7⟩
  sl_exec
  -- its right half has landed
  icases HIw with #HIc107
  icases Hcr with ⟨Hcr, -⟩
  ihave Hmw := (mayWait_list (F := F) cc (dsem (⟨107, by decide⟩ : Fin 140)) (List.drop 40 (paysL cc)) (by decide)) $$ Hlev
  iapply (wait_a11_at m cc _ 7 rfl (by decide)) $$ [Hcr HO Hmw HpR]
  · isplitr; · iexact HIc107
    isplitl [Hcr]; · iexact Hcr
    isplitl [HO]; · iexact HO
    isplitl [Hmw]; · iexact Hmw
    iexact HpR
  iintro ⟨HO, Hq107, -, Hdr7⟩
  ihave Hd7 := (Entails.of_eq (chunk_halves (F := F) cc (dqF cc) 7 fullShare (r4 m cc)).symm) $$ [Hdl7 Hdr7]
  · isplitl [Hdl7]; · iexact Hdl7
    iexact Hdr7
  -- the four copies of chunk 7 into the result
  icases HvO with ⟨Hw7a, Hw7b, Hw7c, Hw7d⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- nothing is owed any more: the level fact for the remaining local waits, once
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  -- the departure of chunk 0 across x
  icases HpS with ⟨Hp, HpS⟩
  ihave Hmw := (mayWait_list (F := F) cc (dsem (⟨22, by decide⟩ : Fin 140)) (List.drop 40 (paysL cc)) (by decide)) $$ Hlev
  iapply (wait_a0_at m cc _ 0 rfl) $$ [Hcxs0 HO Hmw Hp]
  · isplitr; · iexact HIc22
    isplitl [Hcxs0]; · iexact Hcxs0
    isplitl [HO]; · iexact HO
    isplitl [Hmw]; · iexact Hmw
    iexact Hp
  iintro ⟨HO, Hq22, -, HBs0⟩
  sl_exec
  -- of own chunk 0 to z
  icases HpS with ⟨Hp, HpS⟩
  ihave Hmw := (mayWait_list (F := F) cc (dsem (⟨44, by decide⟩ : Fin 140)) (List.drop 40 (paysL cc)) (by decide)) $$ Hlev
  iapply (wait_a4_at m cc _ 0 rfl) $$ [Hczs0 HO Hmw Hp]
  · isplitr; · iexact HIc44
    isplitl [Hczs0]; · iexact Hczs0
    isplitl [HO]; · iexact HO
    isplitl [Hmw]; · iexact Hmw
    iexact Hp
  iintro ⟨HO, Hq44, -, HoZb0⟩
  sl_exec
  -- of own chunk 0 to y
  icases HpS with ⟨Hp, HpS⟩
  ihave Hmw := (mayWait_list (F := F) cc (dsem (⟨60, by decide⟩ : Fin 140)) (List.drop 40 (paysL cc)) (by decide)) $$ Hlev
  iapply (wait_a6_at m cc _ 0 rfl) $$ [Hcys0 HO Hmw Hp]
  · isplitr; · iexact HIc60
    isplitl [Hcys0]; · iexact Hcys0
    isplitl [HO]; · iexact HO
    isplitl [Hmw]; · iexact Hmw
    iexact Hp
  iintro ⟨HO, Hq60, -, HoYb0⟩
  sl_exec
  -- the departure of chunk 1 across x
  icases HpS with ⟨Hp, HpS⟩
  ihave Hmw := (mayWait_list (F := F) cc (dsem (⟨23, by decide⟩ : Fin 140)) (List.drop 40 (paysL cc)) (by decide)) $$ Hlev
  iapply (wait_a0_at m cc _ 1 rfl) $$ [Hcxs1 HO Hmw Hp]
  · isplitr; · iexact HIc23
    isplitl [Hcxs1]; · iexact Hcxs1
    isplitl [HO]; · iexact HO
    isplitl [Hmw]; · iexact Hmw
    iexact Hp
  iintro ⟨HO, Hq23, -, HBs1⟩
  sl_exec
  -- of own chunk 1 to z
  icases HpS with ⟨Hp, HpS⟩
  ihave Hmw := (mayWait_list (F := F) cc (dsem (⟨45, by decide⟩ : Fin 140)) (List.drop 40 (paysL cc)) (by decide)) $$ Hlev
  iapply (wait_a4_at m cc _ 1 rfl) $$ [Hczs1 HO Hmw Hp]
  · isplitr; · iexact HIc45
    isplitl [Hczs1]; · iexact Hczs1
    isplitl [HO]; · iexact HO
    isplitl [Hmw]; · iexact Hmw
    iexact Hp
  iintro ⟨HO, Hq45, -, HoZb1⟩
  sl_exec
  -- of own chunk 1 to y
  icases HpS with ⟨Hp, HpS⟩
  ihave Hmw := (mayWait_list (F := F) cc (dsem (⟨61, by decide⟩ : Fin 140)) (List.drop 40 (paysL cc)) (by decide)) $$ Hlev
  iapply (wait_a6_at m cc _ 1 rfl) $$ [Hcys1 HO Hmw Hp]
  · isplitr; · iexact HIc61
    isplitl [Hcys1]; · iexact Hcys1
    isplitl [HO]; · iexact HO
    isplitl [Hmw]; · iexact Hmw
    iexact Hp
  iintro ⟨HO, Hq61, -, HoYb1⟩
  sl_exec
  -- the departure of chunk 2 across x
  icases HpS with ⟨Hp, HpS⟩
  ihave Hmw := (mayWait_list (F := F) cc (dsem (⟨24, by decide⟩ : Fin 140)) (List.drop 40 (paysL cc)) (by decide)) $$ Hlev
  iapply (wait_a0_at m cc _ 2 rfl) $$ [Hcxs2 HO Hmw Hp]
  · isplitr; · iexact HIc24
    isplitl [Hcxs2]; · iexact Hcxs2
    isplitl [HO]; · iexact HO
    isplitl [Hmw]; · iexact Hmw
    iexact Hp
  iintro ⟨HO, Hq24, -, HBs2⟩
  sl_exec
  -- of own chunk 2 to z
  icases HpS with ⟨Hp, HpS⟩
  ihave Hmw := (mayWait_list (F := F) cc (dsem (⟨46, by decide⟩ : Fin 140)) (List.drop 40 (paysL cc)) (by decide)) $$ Hlev
  iapply (wait_a4_at m cc _ 2 rfl) $$ [Hczs2 HO Hmw Hp]
  · isplitr; · iexact HIc46
    isplitl [Hczs2]; · iexact Hczs2
    isplitl [HO]; · iexact HO
    isplitl [Hmw]; · iexact Hmw
    iexact Hp
  iintro ⟨HO, Hq46, -, HoZb2⟩
  sl_exec
  -- of own chunk 2 to y
  icases HpS with ⟨Hp, HpS⟩
  ihave Hmw := (mayWait_list (F := F) cc (dsem (⟨62, by decide⟩ : Fin 140)) (List.drop 40 (paysL cc)) (by decide)) $$ Hlev
  iapply (wait_a6_at m cc _ 2 rfl) $$ [Hcys2 HO Hmw Hp]
  · isplitr; · iexact HIc62
    isplitl [Hcys2]; · iexact Hcys2
    isplitl [HO]; · iexact HO
    isplitl [Hmw]; · iexact Hmw
    iexact Hp
  iintro ⟨HO, Hq62, -, HoYb2⟩
  sl_exec
  -- the departure of chunk 3 across x
  icases HpS with ⟨Hp, HpS⟩
  ihave Hmw := (mayWait_list (F := F) cc (dsem (⟨25, by decide⟩ : Fin 140)) (List.drop 40 (paysL cc)) (by decide)) $$ Hlev
  iapply (wait_a0_at m cc _ 3 rfl) $$ [Hcxs3 HO Hmw Hp]
  · isplitr; · iexact HIc25
    isplitl [Hcxs3]; · iexact Hcxs3
    isplitl [HO]; · iexact HO
    isplitl [Hmw]; · iexact Hmw
    iexact Hp
  iintro ⟨HO, Hq25, -, HBs3⟩
  sl_exec
  -- of own chunk 3 to z
  icases HpS with ⟨Hp, HpS⟩
  ihave Hmw := (mayWait_list (F := F) cc (dsem (⟨47, by decide⟩ : Fin 140)) (List.drop 40 (paysL cc)) (by decide)) $$ Hlev
  iapply (wait_a4_at m cc _ 3 rfl) $$ [Hczs3 HO Hmw Hp]
  · isplitr; · iexact HIc47
    isplitl [Hczs3]; · iexact Hczs3
    isplitl [HO]; · iexact HO
    isplitl [Hmw]; · iexact Hmw
    iexact Hp
  iintro ⟨HO, Hq47, -, HoZb3⟩
  sl_exec
  -- of own chunk 3 to y
  icases HpS with ⟨Hp, HpS⟩
  ihave Hmw := (mayWait_list (F := F) cc (dsem (⟨63, by decide⟩ : Fin 140)) (List.drop 40 (paysL cc)) (by decide)) $$ Hlev
  iapply (wait_a6_at m cc _ 3 rfl) $$ [Hcys3 HO Hmw Hp]
  · isplitr; · iexact HIc63
    isplitl [Hcys3]; · iexact Hcys3
    isplitl [HO]; · iexact HO
    isplitl [Hmw]; · iexact Hmw
    iexact Hp
  iintro ⟨HO, Hq63, -, HoYb3⟩
  sl_exec
  -- of the forwarded half to z
  icases HpS with ⟨Hp, HpS⟩
  ihave Hmw := (mayWait_list (F := F) cc (dsem (⟨79, by decide⟩ : Fin 140)) (List.drop 40 (paysL cc)) (by decide)) $$ Hlev
  iapply (wait_a8_at m cc _ 3 rfl (by decide)) $$ [Hczfs3 HO Hmw Hp]
  · isplitr; · iexact HIc79
    isplitl [Hczfs3]; · iexact Hczfs3
    isplitl [HO]; · iexact HO
    isplitl [Hmw]; · iexact Hmw
    iexact Hp
  iintro ⟨HO, Hq79, -, HyFlb3⟩
  sl_exec
  -- of the forwarded half to y
  icases HpS with ⟨Hp, HpS⟩
  ihave Hmw := (mayWait_list (F := F) cc (dsem (⟨95, by decide⟩ : Fin 140)) (List.drop 40 (paysL cc)) (by decide)) $$ Hlev
  iapply (wait_a10_at m cc _ 3 rfl (by decide)) $$ [Hcyfs3 HO Hmw Hp]
  · isplitr; · iexact HIc95
    isplitl [Hcyfs3]; · iexact Hcyfs3
    isplitl [HO]; · iexact HO
    isplitl [Hmw]; · iexact Hmw
    iexact Hp
  iintro ⟨HO, Hq95, -, HzFrb3⟩
  sl_exec
  -- the departure of chunk 4 across x
  icases HpS with ⟨Hp, HpS⟩
  ihave Hmw := (mayWait_list (F := F) cc (dsem (⟨26, by decide⟩ : Fin 140)) (List.drop 40 (paysL cc)) (by decide)) $$ Hlev
  iapply (wait_a0_at m cc _ 4 rfl) $$ [Hcxs4 HO Hmw Hp]
  · isplitr; · iexact HIc26
    isplitl [Hcxs4]; · iexact Hcxs4
    isplitl [HO]; · iexact HO
    isplitl [Hmw]; · iexact Hmw
    iexact Hp
  iintro ⟨HO, Hq26, -, HBs4⟩
  sl_exec
  -- of own chunk 4 to z
  icases HpS with ⟨Hp, HpS⟩
  ihave Hmw := (mayWait_list (F := F) cc (dsem (⟨48, by decide⟩ : Fin 140)) (List.drop 40 (paysL cc)) (by decide)) $$ Hlev
  iapply (wait_a4_at m cc _ 4 rfl) $$ [Hczs4 HO Hmw Hp]
  · isplitr; · iexact HIc48
    isplitl [Hczs4]; · iexact Hczs4
    isplitl [HO]; · iexact HO
    isplitl [Hmw]; · iexact Hmw
    iexact Hp
  iintro ⟨HO, Hq48, -, HoZb4⟩
  sl_exec
  -- of own chunk 4 to y
  icases HpS with ⟨Hp, HpS⟩
  ihave Hmw := (mayWait_list (F := F) cc (dsem (⟨64, by decide⟩ : Fin 140)) (List.drop 40 (paysL cc)) (by decide)) $$ Hlev
  iapply (wait_a6_at m cc _ 4 rfl) $$ [Hcys4 HO Hmw Hp]
  · isplitr; · iexact HIc64
    isplitl [Hcys4]; · iexact Hcys4
    isplitl [HO]; · iexact HO
    isplitl [Hmw]; · iexact Hmw
    iexact Hp
  iintro ⟨HO, Hq64, -, HoYb4⟩
  sl_exec
  -- of the forwarded half to z
  icases HpS with ⟨Hp, HpS⟩
  ihave Hmw := (mayWait_list (F := F) cc (dsem (⟨80, by decide⟩ : Fin 140)) (List.drop 40 (paysL cc)) (by decide)) $$ Hlev
  iapply (wait_a8_at m cc _ 4 rfl (by decide)) $$ [Hczfs4 HO Hmw Hp]
  · isplitr; · iexact HIc80
    isplitl [Hczfs4]; · iexact Hczfs4
    isplitl [HO]; · iexact HO
    isplitl [Hmw]; · iexact Hmw
    iexact Hp
  iintro ⟨HO, Hq80, -, HyFlb4⟩
  sl_exec
  -- of the forwarded half to y
  icases HpS with ⟨Hp, HpS⟩
  ihave Hmw := (mayWait_list (F := F) cc (dsem (⟨96, by decide⟩ : Fin 140)) (List.drop 40 (paysL cc)) (by decide)) $$ Hlev
  iapply (wait_a10_at m cc _ 4 rfl (by decide)) $$ [Hcyfs4 HO Hmw Hp]
  · isplitr; · iexact HIc96
    isplitl [Hcyfs4]; · iexact Hcyfs4
    isplitl [HO]; · iexact HO
    isplitl [Hmw]; · iexact Hmw
    iexact Hp
  iintro ⟨HO, Hq96, -, HzFrb4⟩
  sl_exec
  -- the departure of chunk 5 across x
  icases HpS with ⟨Hp, HpS⟩
  ihave Hmw := (mayWait_list (F := F) cc (dsem (⟨27, by decide⟩ : Fin 140)) (List.drop 40 (paysL cc)) (by decide)) $$ Hlev
  iapply (wait_a0_at m cc _ 5 rfl) $$ [Hcxs5 HO Hmw Hp]
  · isplitr; · iexact HIc27
    isplitl [Hcxs5]; · iexact Hcxs5
    isplitl [HO]; · iexact HO
    isplitl [Hmw]; · iexact Hmw
    iexact Hp
  iintro ⟨HO, Hq27, -, HBs5⟩
  sl_exec
  -- of own chunk 5 to z
  icases HpS with ⟨Hp, HpS⟩
  ihave Hmw := (mayWait_list (F := F) cc (dsem (⟨49, by decide⟩ : Fin 140)) (List.drop 40 (paysL cc)) (by decide)) $$ Hlev
  iapply (wait_a4_at m cc _ 5 rfl) $$ [Hczs5 HO Hmw Hp]
  · isplitr; · iexact HIc49
    isplitl [Hczs5]; · iexact Hczs5
    isplitl [HO]; · iexact HO
    isplitl [Hmw]; · iexact Hmw
    iexact Hp
  iintro ⟨HO, Hq49, -, HoZb5⟩
  sl_exec
  -- of own chunk 5 to y
  icases HpS with ⟨Hp, HpS⟩
  ihave Hmw := (mayWait_list (F := F) cc (dsem (⟨65, by decide⟩ : Fin 140)) (List.drop 40 (paysL cc)) (by decide)) $$ Hlev
  iapply (wait_a6_at m cc _ 5 rfl) $$ [Hcys5 HO Hmw Hp]
  · isplitr; · iexact HIc65
    isplitl [Hcys5]; · iexact Hcys5
    isplitl [HO]; · iexact HO
    isplitl [Hmw]; · iexact Hmw
    iexact Hp
  iintro ⟨HO, Hq65, -, HoYb5⟩
  sl_exec
  -- of the forwarded half to z
  icases HpS with ⟨Hp, HpS⟩
  ihave Hmw := (mayWait_list (F := F) cc (dsem (⟨81, by decide⟩ : Fin 140)) (List.drop 40 (paysL cc)) (by decide)) $$ Hlev
  iapply (wait_a8_at m cc _ 5 rfl (by decide)) $$ [Hczfs5 HO Hmw Hp]
  · isplitr; · iexact HIc81
    isplitl [Hczfs5]; · iexact Hczfs5
    isplitl [HO]; · iexact HO
    isplitl [Hmw]; · iexact Hmw
    iexact Hp
  iintro ⟨HO, Hq81, -, HyFlb5⟩
  sl_exec
  -- of the forwarded half to y
  icases HpS with ⟨Hp, HpS⟩
  ihave Hmw := (mayWait_list (F := F) cc (dsem (⟨97, by decide⟩ : Fin 140)) (List.drop 40 (paysL cc)) (by decide)) $$ Hlev
  iapply (wait_a10_at m cc _ 5 rfl (by decide)) $$ [Hcyfs5 HO Hmw Hp]
  · isplitr; · iexact HIc97
    isplitl [Hcyfs5]; · iexact Hcyfs5
    isplitl [HO]; · iexact HO
    isplitl [Hmw]; · iexact Hmw
    iexact Hp
  iintro ⟨HO, Hq97, -, HzFrb5⟩
  sl_exec
  -- the departure of chunk 6 across x
  icases HpS with ⟨Hp, HpS⟩
  ihave Hmw := (mayWait_list (F := F) cc (dsem (⟨28, by decide⟩ : Fin 140)) (List.drop 40 (paysL cc)) (by decide)) $$ Hlev
  iapply (wait_a0_at m cc _ 6 rfl) $$ [Hcxs6 HO Hmw Hp]
  · isplitr; · iexact HIc28
    isplitl [Hcxs6]; · iexact Hcxs6
    isplitl [HO]; · iexact HO
    isplitl [Hmw]; · iexact Hmw
    iexact Hp
  iintro ⟨HO, Hq28, -, HBs6⟩
  sl_exec
  -- of own chunk 6 to z
  icases HpS with ⟨Hp, HpS⟩
  ihave Hmw := (mayWait_list (F := F) cc (dsem (⟨50, by decide⟩ : Fin 140)) (List.drop 40 (paysL cc)) (by decide)) $$ Hlev
  iapply (wait_a4_at m cc _ 6 rfl) $$ [Hczs6 HO Hmw Hp]
  · isplitr; · iexact HIc50
    isplitl [Hczs6]; · iexact Hczs6
    isplitl [HO]; · iexact HO
    isplitl [Hmw]; · iexact Hmw
    iexact Hp
  iintro ⟨HO, Hq50, -, HoZb6⟩
  sl_exec
  -- of own chunk 6 to y
  icases HpS with ⟨Hp, HpS⟩
  ihave Hmw := (mayWait_list (F := F) cc (dsem (⟨66, by decide⟩ : Fin 140)) (List.drop 40 (paysL cc)) (by decide)) $$ Hlev
  iapply (wait_a6_at m cc _ 6 rfl) $$ [Hcys6 HO Hmw Hp]
  · isplitr; · iexact HIc66
    isplitl [Hcys6]; · iexact Hcys6
    isplitl [HO]; · iexact HO
    isplitl [Hmw]; · iexact Hmw
    iexact Hp
  iintro ⟨HO, Hq66, -, HoYb6⟩
  sl_exec
  -- of the forwarded half to z
  icases HpS with ⟨Hp, HpS⟩
  ihave Hmw := (mayWait_list (F := F) cc (dsem (⟨82, by decide⟩ : Fin 140)) (List.drop 40 (paysL cc)) (by decide)) $$ Hlev
  iapply (wait_a8_at m cc _ 6 rfl (by decide)) $$ [Hczfs6 HO Hmw Hp]
  · isplitr; · iexact HIc82
    isplitl [Hczfs6]; · iexact Hczfs6
    isplitl [HO]; · iexact HO
    isplitl [Hmw]; · iexact Hmw
    iexact Hp
  iintro ⟨HO, Hq82, -, HyFlb6⟩
  sl_exec
  -- of the forwarded half to y
  icases HpS with ⟨Hp, HpS⟩
  ihave Hmw := (mayWait_list (F := F) cc (dsem (⟨98, by decide⟩ : Fin 140)) (List.drop 40 (paysL cc)) (by decide)) $$ Hlev
  iapply (wait_a10_at m cc _ 6 rfl (by decide)) $$ [Hcyfs6 HO Hmw Hp]
  · isplitr; · iexact HIc98
    isplitl [Hcyfs6]; · iexact Hcyfs6
    isplitl [HO]; · iexact HO
    isplitl [Hmw]; · iexact Hmw
    iexact Hp
  iintro ⟨HO, Hq98, -, HzFrb6⟩
  sl_exec
  -- the departure of chunk 7 across x
  icases HpS with ⟨Hp, HpS⟩
  ihave Hmw := (mayWait_list (F := F) cc (dsem (⟨29, by decide⟩ : Fin 140)) (List.drop 40 (paysL cc)) (by decide)) $$ Hlev
  iapply (wait_a0_at m cc _ 7 rfl) $$ [Hcxs7 HO Hmw Hp]
  · isplitr; · iexact HIc29
    isplitl [Hcxs7]; · iexact Hcxs7
    isplitl [HO]; · iexact HO
    isplitl [Hmw]; · iexact Hmw
    iexact Hp
  iintro ⟨HO, Hq29, -, HBs7⟩
  sl_exec
  -- of own chunk 7 to z
  icases HpS with ⟨Hp, HpS⟩
  ihave Hmw := (mayWait_list (F := F) cc (dsem (⟨51, by decide⟩ : Fin 140)) (List.drop 40 (paysL cc)) (by decide)) $$ Hlev
  iapply (wait_a4_at m cc _ 7 rfl) $$ [Hczs7 HO Hmw Hp]
  · isplitr; · iexact HIc51
    isplitl [Hczs7]; · iexact Hczs7
    isplitl [HO]; · iexact HO
    isplitl [Hmw]; · iexact Hmw
    iexact Hp
  iintro ⟨HO, Hq51, -, HoZb7⟩
  sl_exec
  -- of own chunk 7 to y
  icases HpS with ⟨Hp, HpS⟩
  ihave Hmw := (mayWait_list (F := F) cc (dsem (⟨67, by decide⟩ : Fin 140)) (List.drop 40 (paysL cc)) (by decide)) $$ Hlev
  iapply (wait_a6_at m cc _ 7 rfl) $$ [Hcys7 HO Hmw Hp]
  · isplitr; · iexact HIc67
    isplitl [Hcys7]; · iexact Hcys7
    isplitl [HO]; · iexact HO
    isplitl [Hmw]; · iexact Hmw
    iexact Hp
  iintro ⟨HO, Hq67, -, HoYb7⟩
  sl_exec
  -- of the forwarded half to z
  icases HpS with ⟨Hp, HpS⟩
  ihave Hmw := (mayWait_list (F := F) cc (dsem (⟨83, by decide⟩ : Fin 140)) (List.drop 40 (paysL cc)) (by decide)) $$ Hlev
  iapply (wait_a8_at m cc _ 7 rfl (by decide)) $$ [Hczfs7 HO Hmw Hp]
  · isplitr; · iexact HIc83
    isplitl [Hczfs7]; · iexact Hczfs7
    isplitl [HO]; · iexact HO
    isplitl [Hmw]; · iexact Hmw
    iexact Hp
  iintro ⟨HO, Hq83, -, HyFlb7⟩
  sl_exec
  -- of the forwarded half to y
  icases HpS with ⟨Hp, HpS⟩
  ihave Hmw := (mayWait_list (F := F) cc (dsem (⟨99, by decide⟩ : Fin 140)) (List.drop 40 (paysL cc)) (by decide)) $$ Hlev
  iapply (wait_a10_at m cc _ 7 rfl (by decide)) $$ [Hcyfs7 HO Hmw Hp]
  · isplitr; · iexact HIc99
    isplitl [Hcyfs7]; · iexact Hcyfs7
    isplitl [HO]; · iexact HO
    isplitl [Hmw]; · iexact Hmw
    iexact Hp
  iintro ⟨HO, Hq99, -, HzFrb7⟩
  sl_exec
  -- of chunk 0 of the diagonal quarter across x
  icases HpS with ⟨Hp, HpS⟩
  ihave Hmw := (mayWait_list (F := F) cc (dsem (⟨38, by decide⟩ : Fin 140)) (List.drop 40 (paysL cc)) (by decide)) $$ Hlev
  iapply (wait_a2_at m cc _ 0 rfl) $$ [Hcds0 HO Hmw Hp]
  · isplitr; · iexact HIc38
    isplitl [Hcds0]; · iexact Hcds0
    isplitl [HO]; · iexact HO
    isplitl [Hmw]; · iexact Hmw
    iexact Hp
  iintro ⟨HO, Hq38, -, HB2s0⟩
  sl_exec
  -- of chunk 1 of the diagonal quarter across x
  icases HpS with ⟨Hp, HpS⟩
  ihave HpS := ((sep_emp (PROP := sProp 𝕄)).2) $$ HpS
  ihave Hmw := (mayWait_list (F := F) cc (dsem (⟨39, by decide⟩ : Fin 140)) (List.drop 40 (paysL cc)) (by decide)) $$ Hlev
  iapply (wait_a2_at m cc _ 1 rfl) $$ [Hcds1 HO Hmw Hp]
  · isplitr; · iexact HIc39
    isplitl [Hcds1]; · iexact Hcds1
    isplitl [HO]; · iexact HO
    isplitl [Hmw]; · iexact Hmw
    iexact Hp
  iintro ⟨HO, Hq39, -, HB2s1⟩
  sl_exec
  -- of chunk 2 of the diagonal quarter across x

  icases HpS with ⟨HpS, -⟩
  ihave Hmw := (mayWait_list (F := F) cc (dsem (⟨40, by decide⟩ : Fin 140)) (List.drop 40 (paysL cc)) (by decide)) $$ Hlev
  iapply (wait_a2_at m cc _ 2 rfl) $$ [Hcds2 HO Hmw HpS]
  · isplitr; · iexact HIc40
    isplitl [Hcds2]; · iexact Hcds2
    isplitl [HO]; · iexact HO
    isplitl [Hmw]; · iexact Hmw
    iexact HpS
  iintro ⟨HO, Hq40, -, HB2s2⟩
  sl_exec
  -- every cell of the protocol on this device has had its one round: close them, their counters are the device's again
  imod (close_cell (F := F) m cc (⟨22, by decide⟩ : Fin 140) (by decide)) $$ [Hq22] with Hv22
  · isplitr; · iexact HIc22
    iexact Hq22
  imod (close_cell (F := F) m cc (⟨23, by decide⟩ : Fin 140) (by decide)) $$ [Hq23] with Hv23
  · isplitr; · iexact HIc23
    iexact Hq23
  imod (close_cell (F := F) m cc (⟨24, by decide⟩ : Fin 140) (by decide)) $$ [Hq24] with Hv24
  · isplitr; · iexact HIc24
    iexact Hq24
  imod (close_cell (F := F) m cc (⟨25, by decide⟩ : Fin 140) (by decide)) $$ [Hq25] with Hv25
  · isplitr; · iexact HIc25
    iexact Hq25
  imod (close_cell (F := F) m cc (⟨26, by decide⟩ : Fin 140) (by decide)) $$ [Hq26] with Hv26
  · isplitr; · iexact HIc26
    iexact Hq26
  imod (close_cell (F := F) m cc (⟨27, by decide⟩ : Fin 140) (by decide)) $$ [Hq27] with Hv27
  · isplitr; · iexact HIc27
    iexact Hq27
  imod (close_cell (F := F) m cc (⟨28, by decide⟩ : Fin 140) (by decide)) $$ [Hq28] with Hv28
  · isplitr; · iexact HIc28
    iexact Hq28
  imod (close_cell (F := F) m cc (⟨29, by decide⟩ : Fin 140) (by decide)) $$ [Hq29] with Hv29
  · isplitr; · iexact HIc29
    iexact Hq29
  imod (close_cell (F := F) m cc (⟨30, by decide⟩ : Fin 140) (by decide)) $$ [Hq30] with Hv30
  · isplitr; · iexact HIc30
    iexact Hq30
  imod (close_cell (F := F) m cc (⟨31, by decide⟩ : Fin 140) (by decide)) $$ [Hq31] with Hv31
  · isplitr; · iexact HIc31
    iexact Hq31
  imod (close_cell (F := F) m cc (⟨32, by decide⟩ : Fin 140) (by decide)) $$ [Hq32] with Hv32
  · isplitr; · iexact HIc32
    iexact Hq32
  imod (close_cell (F := F) m cc (⟨33, by decide⟩ : Fin 140) (by decide)) $$ [Hq33] with Hv33
  · isplitr; · iexact HIc33
    iexact Hq33
  imod (close_cell (F := F) m cc (⟨34, by decide⟩ : Fin 140) (by decide)) $$ [Hq34] with Hv34
  · isplitr; · iexact HIc34
    iexact Hq34
  imod (close_cell (F := F) m cc (⟨35, by decide⟩ : Fin 140) (by decide)) $$ [Hq35] with Hv35
  · isplitr; · iexact HIc35
    iexact Hq35
  imod (close_cell (F := F) m cc (⟨36, by decide⟩ : Fin 140) (by decide)) $$ [Hq36] with Hv36
  · isplitr; · iexact HIc36
    iexact Hq36
  imod (close_cell (F := F) m cc (⟨37, by decide⟩ : Fin 140) (by decide)) $$ [Hq37] with Hv37
  · isplitr; · iexact HIc37
    iexact Hq37
  imod (close_cell (F := F) m cc (⟨38, by decide⟩ : Fin 140) (by decide)) $$ [Hq38] with Hv38
  · isplitr; · iexact HIc38
    iexact Hq38
  imod (close_cell (F := F) m cc (⟨39, by decide⟩ : Fin 140) (by decide)) $$ [Hq39] with Hv39
  · isplitr; · iexact HIc39
    iexact Hq39
  imod (close_cell (F := F) m cc (⟨40, by decide⟩ : Fin 140) (by decide)) $$ [Hq40] with Hv40
  · isplitr; · iexact HIc40
    iexact Hq40
  imod (close_cell (F := F) m cc (⟨41, by decide⟩ : Fin 140) (by decide)) $$ [Hq41] with Hv41
  · isplitr; · iexact HIc41
    iexact Hq41
  imod (close_cell (F := F) m cc (⟨42, by decide⟩ : Fin 140) (by decide)) $$ [Hq42] with Hv42
  · isplitr; · iexact HIc42
    iexact Hq42
  imod (close_cell (F := F) m cc (⟨43, by decide⟩ : Fin 140) (by decide)) $$ [Hq43] with Hv43
  · isplitr; · iexact HIc43
    iexact Hq43
  imod (close_cell (F := F) m cc (⟨44, by decide⟩ : Fin 140) (by decide)) $$ [Hq44] with Hv44
  · isplitr; · iexact HIc44
    iexact Hq44
  imod (close_cell (F := F) m cc (⟨45, by decide⟩ : Fin 140) (by decide)) $$ [Hq45] with Hv45
  · isplitr; · iexact HIc45
    iexact Hq45
  imod (close_cell (F := F) m cc (⟨46, by decide⟩ : Fin 140) (by decide)) $$ [Hq46] with Hv46
  · isplitr; · iexact HIc46
    iexact Hq46
  imod (close_cell (F := F) m cc (⟨47, by decide⟩ : Fin 140) (by decide)) $$ [Hq47] with Hv47
  · isplitr; · iexact HIc47
    iexact Hq47
  imod (close_cell (F := F) m cc (⟨48, by decide⟩ : Fin 140) (by decide)) $$ [Hq48] with Hv48
  · isplitr; · iexact HIc48
    iexact Hq48
  imod (close_cell (F := F) m cc (⟨49, by decide⟩ : Fin 140) (by decide)) $$ [Hq49] with Hv49
  · isplitr; · iexact HIc49
    iexact Hq49
  imod (close_cell (F := F) m cc (⟨50, by decide⟩ : Fin 140) (by decide)) $$ [Hq50] with Hv50
  · isplitr; · iexact HIc50
    iexact Hq50
  imod (close_cell (F := F) m cc (⟨51, by decide⟩ : Fin 140) (by decide)) $$ [Hq51] with Hv51
  · isplitr; · iexact HIc51
    iexact Hq51
  imod (close_cell (F := F) m cc (⟨52, by decide⟩ : Fin 140) (by decide)) $$ [Hq52] with Hv52
  · isplitr; · iexact HIc52
    iexact Hq52
  imod (close_cell (F := F) m cc (⟨53, by decide⟩ : Fin 140) (by decide)) $$ [Hq53] with Hv53
  · isplitr; · iexact HIc53
    iexact Hq53
  imod (close_cell (F := F) m cc (⟨54, by decide⟩ : Fin 140) (by decide)) $$ [Hq54] with Hv54
  · isplitr; · iexact HIc54
    iexact Hq54
  imod (close_cell (F := F) m cc (⟨55, by decide⟩ : Fin 140) (by decide)) $$ [Hq55] with Hv55
  · isplitr; · iexact HIc55
    iexact Hq55
  imod (close_cell (F := F) m cc (⟨56, by decide⟩ : Fin 140) (by decide)) $$ [Hq56] with Hv56
  · isplitr; · iexact HIc56
    iexact Hq56
  imod (close_cell (F := F) m cc (⟨57, by decide⟩ : Fin 140) (by decide)) $$ [Hq57] with Hv57
  · isplitr; · iexact HIc57
    iexact Hq57
  imod (close_cell (F := F) m cc (⟨58, by decide⟩ : Fin 140) (by decide)) $$ [Hq58] with Hv58
  · isplitr; · iexact HIc58
    iexact Hq58
  imod (close_cell (F := F) m cc (⟨59, by decide⟩ : Fin 140) (by decide)) $$ [Hq59] with Hv59
  · isplitr; · iexact HIc59
    iexact Hq59
  imod (close_cell (F := F) m cc (⟨60, by decide⟩ : Fin 140) (by decide)) $$ [Hq60] with Hv60
  · isplitr; · iexact HIc60
    iexact Hq60
  imod (close_cell (F := F) m cc (⟨61, by decide⟩ : Fin 140) (by decide)) $$ [Hq61] with Hv61
  · isplitr; · iexact HIc61
    iexact Hq61
  imod (close_cell (F := F) m cc (⟨62, by decide⟩ : Fin 140) (by decide)) $$ [Hq62] with Hv62
  · isplitr; · iexact HIc62
    iexact Hq62
  imod (close_cell (F := F) m cc (⟨63, by decide⟩ : Fin 140) (by decide)) $$ [Hq63] with Hv63
  · isplitr; · iexact HIc63
    iexact Hq63
  imod (close_cell (F := F) m cc (⟨64, by decide⟩ : Fin 140) (by decide)) $$ [Hq64] with Hv64
  · isplitr; · iexact HIc64
    iexact Hq64
  imod (close_cell (F := F) m cc (⟨65, by decide⟩ : Fin 140) (by decide)) $$ [Hq65] with Hv65
  · isplitr; · iexact HIc65
    iexact Hq65
  imod (close_cell (F := F) m cc (⟨66, by decide⟩ : Fin 140) (by decide)) $$ [Hq66] with Hv66
  · isplitr; · iexact HIc66
    iexact Hq66
  imod (close_cell (F := F) m cc (⟨67, by decide⟩ : Fin 140) (by decide)) $$ [Hq67] with Hv67
  · isplitr; · iexact HIc67
    iexact Hq67
  imod (close_cell (F := F) m cc (⟨68, by decide⟩ : Fin 140) (by decide)) $$ [Hq68] with Hv68
  · isplitr; · iexact HIc68
    iexact Hq68
  imod (close_cell (F := F) m cc (⟨69, by decide⟩ : Fin 140) (by decide)) $$ [Hq69] with Hv69
  · isplitr; · iexact HIc69
    iexact Hq69
  imod (close_cell (F := F) m cc (⟨70, by decide⟩ : Fin 140) (by decide)) $$ [Hq70] with Hv70
  · isplitr; · iexact HIc70
    iexact Hq70
  imod (close_cell (F := F) m cc (⟨71, by decide⟩ : Fin 140) (by decide)) $$ [Hq71] with Hv71
  · isplitr; · iexact HIc71
    iexact Hq71
  imod (close_cell (F := F) m cc (⟨72, by decide⟩ : Fin 140) (by decide)) $$ [Hq72] with Hv72
  · isplitr; · iexact HIc72
    iexact Hq72
  imod (close_cell (F := F) m cc (⟨73, by decide⟩ : Fin 140) (by decide)) $$ [Hq73] with Hv73
  · isplitr; · iexact HIc73
    iexact Hq73
  imod (close_cell (F := F) m cc (⟨74, by decide⟩ : Fin 140) (by decide)) $$ [Hq74] with Hv74
  · isplitr; · iexact HIc74
    iexact Hq74
  imod (close_cell (F := F) m cc (⟨75, by decide⟩ : Fin 140) (by decide)) $$ [Hq75] with Hv75
  · isplitr; · iexact HIc75
    iexact Hq75
  imod (close_cell (F := F) m cc (⟨79, by decide⟩ : Fin 140) (by decide)) $$ [Hq79] with Hv79
  · isplitr; · iexact HIc79
    iexact Hq79
  imod (close_cell (F := F) m cc (⟨80, by decide⟩ : Fin 140) (by decide)) $$ [Hq80] with Hv80
  · isplitr; · iexact HIc80
    iexact Hq80
  imod (close_cell (F := F) m cc (⟨81, by decide⟩ : Fin 140) (by decide)) $$ [Hq81] with Hv81
  · isplitr; · iexact HIc81
    iexact Hq81
  imod (close_cell (F := F) m cc (⟨82, by decide⟩ : Fin 140) (by decide)) $$ [Hq82] with Hv82
  · isplitr; · iexact HIc82
    iexact Hq82
  imod (close_cell (F := F) m cc (⟨83, by decide⟩ : Fin 140) (by decide)) $$ [Hq83] with Hv83
  · isplitr; · iexact HIc83
    iexact Hq83
  imod (close_cell (F := F) m cc (⟨87, by decide⟩ : Fin 140) (by decide)) $$ [Hq87] with Hv87
  · isplitr; · iexact HIc87
    iexact Hq87
  imod (close_cell (F := F) m cc (⟨88, by decide⟩ : Fin 140) (by decide)) $$ [Hq88] with Hv88
  · isplitr; · iexact HIc88
    iexact Hq88
  imod (close_cell (F := F) m cc (⟨89, by decide⟩ : Fin 140) (by decide)) $$ [Hq89] with Hv89
  · isplitr; · iexact HIc89
    iexact Hq89
  imod (close_cell (F := F) m cc (⟨90, by decide⟩ : Fin 140) (by decide)) $$ [Hq90] with Hv90
  · isplitr; · iexact HIc90
    iexact Hq90
  imod (close_cell (F := F) m cc (⟨91, by decide⟩ : Fin 140) (by decide)) $$ [Hq91] with Hv91
  · isplitr; · iexact HIc91
    iexact Hq91
  imod (close_cell (F := F) m cc (⟨95, by decide⟩ : Fin 140) (by decide)) $$ [Hq95] with Hv95
  · isplitr; · iexact HIc95
    iexact Hq95
  imod (close_cell (F := F) m cc (⟨96, by decide⟩ : Fin 140) (by decide)) $$ [Hq96] with Hv96
  · isplitr; · iexact HIc96
    iexact Hq96
  imod (close_cell (F := F) m cc (⟨97, by decide⟩ : Fin 140) (by decide)) $$ [Hq97] with Hv97
  · isplitr; · iexact HIc97
    iexact Hq97
  imod (close_cell (F := F) m cc (⟨98, by decide⟩ : Fin 140) (by decide)) $$ [Hq98] with Hv98
  · isplitr; · iexact HIc98
    iexact Hq98
  imod (close_cell (F := F) m cc (⟨99, by decide⟩ : Fin 140) (by decide)) $$ [Hq99] with Hv99
  · isplitr; · iexact HIc99
    iexact Hq99
  imod (close_cell (F := F) m cc (⟨103, by decide⟩ : Fin 140) (by decide)) $$ [Hq103] with Hv103
  · isplitr; · iexact HIc103
    iexact Hq103
  imod (close_cell (F := F) m cc (⟨104, by decide⟩ : Fin 140) (by decide)) $$ [Hq104] with Hv104
  · isplitr; · iexact HIc104
    iexact Hq104
  imod (close_cell (F := F) m cc (⟨105, by decide⟩ : Fin 140) (by decide)) $$ [Hq105] with Hv105
  · isplitr; · iexact HIc105
    iexact Hq105
  imod (close_cell (F := F) m cc (⟨106, by decide⟩ : Fin 140) (by decide)) $$ [Hq106] with Hv106
  · isplitr; · iexact HIc106
    iexact Hq106
  imod (close_cell (F := F) m cc (⟨107, by decide⟩ : Fin 140) (by decide)) $$ [Hq107] with Hv107
  · isplitr; · iexact HIc107
    iexact Hq107
  -- the program is over: hand everything back
  icases HvU with ⟨Hu76, Hu77, Hu78, Hu84, Hu85, Hu86, Hu92, Hu93, Hu94, Hu100, Hu101, Hu102⟩
  ihave HO := (Entails.of_eq (show owes (cc : Thread nD τ) (owedL (List.drop 40 (paysL cc))) _ = owes (cc : Thread nD τ) 0 _ from rfl)) $$ HO
  -- each block of the result holds what its copy wrote: the final contents
  ihave HU00 := (congr (F := F) (outR 0 0) cc fullShare ((outR 0 0).view.writes (Elt F) g00 [⟨Rect.whole S512x256, dev.sl.dma0_34 m⟩]) (out m cc) (fun i hi => glue_out' m cc 0 0 g00 i hi)) $$ HU00
  ihave HU01 := (congr (F := F) (outR 0 1) cc fullShare ((outR 0 1).view.writes (Elt F) g01 [⟨Rect.whole S512x256, dev.sl.dma0_35 m⟩]) (out m cc) (fun i hi => glue_out' m cc 0 1 g01 i hi)) $$ HU01
  ihave HU02 := (congr (F := F) (outR 0 2) cc fullShare ((outR 0 2).view.writes (Elt F) g02 [⟨Rect.whole S512x256, dev.sl.dma0_36 m⟩]) (out m cc) (fun i hi => glue_out' m cc 0 2 g02 i hi)) $$ HU02
  ihave HU03 := (congr (F := F) (outR 0 3) cc fullShare ((outR 0 3).view.writes (Elt F) g03 [⟨Rect.whole S512x256, dev.sl.dma0_37 m⟩]) (out m cc) (fun i hi => glue_out' m cc 0 3 g03 i hi)) $$ HU03
  ihave HU10 := (congr (F := F) (outR 1 0) cc fullShare ((outR 1 0).view.writes (Elt F) g10 [⟨Rect.whole S512x256, dev.sl.dma0_38 m⟩]) (out m cc) (fun i hi => glue_out' m cc 1 0 g10 i hi)) $$ HU10
  ihave HU11 := (congr (F := F) (outR 1 1) cc fullShare ((outR 1 1).view.writes (Elt F) g11 [⟨Rect.whole S512x256, dev.sl.dma0_39 m⟩]) (out m cc) (fun i hi => glue_out' m cc 1 1 g11 i hi)) $$ HU11
  ihave HU12 := (congr (F := F) (outR 1 2) cc fullShare ((outR 1 2).view.writes (Elt F) g12 [⟨Rect.whole S512x256, dev.sl.dma0_40 m⟩]) (out m cc) (fun i hi => glue_out' m cc 1 2 g12 i hi)) $$ HU12
  ihave HU13 := (congr (F := F) (outR 1 3) cc fullShare ((outR 1 3).view.writes (Elt F) g13 [⟨Rect.whole S512x256, dev.sl.dma0_41 m⟩]) (out m cc) (fun i hi => glue_out' m cc 1 3 g13 i hi)) $$ HU13
  ihave HU20 := (congr (F := F) (outR 2 0) cc fullShare ((outR 2 0).view.writes (Elt F) g20 [⟨Rect.whole S512x256, dev.sl.dma0_42 m⟩]) (out m cc) (fun i hi => glue_out' m cc 2 0 g20 i hi)) $$ HU20
  ihave HU21 := (congr (F := F) (outR 2 1) cc fullShare ((outR 2 1).view.writes (Elt F) g21 [⟨Rect.whole S512x256, dev.sl.dma0_43 m⟩]) (out m cc) (fun i hi => glue_out' m cc 2 1 g21 i hi)) $$ HU21
  ihave HU22 := (congr (F := F) (outR 2 2) cc fullShare ((outR 2 2).view.writes (Elt F) g22 [⟨Rect.whole S512x256, dev.sl.dma0_44 m⟩]) (out m cc) (fun i hi => glue_out' m cc 2 2 g22 i hi)) $$ HU22
  ihave HU23 := (congr (F := F) (outR 2 3) cc fullShare ((outR 2 3).view.writes (Elt F) g23 [⟨Rect.whole S512x256, dev.sl.dma0_45 m⟩]) (out m cc) (fun i hi => glue_out' m cc 2 3 g23 i hi)) $$ HU23
  ihave HU30 := (congr (F := F) (outR 3 0) cc fullShare ((outR 3 0).view.writes (Elt F) g30 [⟨Rect.whole S512x256, dev.sl.dma0_22 m⟩]) (out m cc) (fun i hi => glue_out' m cc 3 0 g30 i hi)) $$ HU30
  ihave HU31 := (congr (F := F) (outR 3 1) cc fullShare ((outR 3 1).view.writes (Elt F) g31 [⟨Rect.whole S512x256, dev.sl.dma0_23 m⟩]) (out m cc) (fun i hi => glue_out' m cc 3 1 g31 i hi)) $$ HU31
  ihave HU32 := (congr (F := F) (outR 3 2) cc fullShare ((outR 3 2).view.writes (Elt F) g32 [⟨Rect.whole S512x256, dev.sl.dma0_24 m⟩]) (out m cc) (fun i hi => glue_out' m cc 3 2 g32 i hi)) $$ HU32
  ihave HU33 := (congr (F := F) (outR 3 3) cc fullShare ((outR 3 3).view.writes (Elt F) g33 [⟨Rect.whole S512x256, dev.sl.dma0_25 m⟩]) (out m cc) (fun i hi => glue_out' m cc 3 3 g33 i hi)) $$ HU33
  ihave HU40 := (congr (F := F) (outR 4 0) cc fullShare ((outR 4 0).view.writes (Elt F) g40 [⟨Rect.whole S512x256, dev.sl.dma0_26 m⟩]) (out m cc) (fun i hi => glue_out' m cc 4 0 g40 i hi)) $$ HU40
  ihave HU41 := (congr (F := F) (outR 4 1) cc fullShare ((outR 4 1).view.writes (Elt F) g41 [⟨Rect.whole S512x256, dev.sl.dma0_27 m⟩]) (out m cc) (fun i hi => glue_out' m cc 4 1 g41 i hi)) $$ HU41
  ihave HU42 := (congr (F := F) (outR 4 2) cc fullShare ((outR 4 2).view.writes (Elt F) g42 [⟨Rect.whole S512x256, dev.sl.dma0_28 m⟩]) (out m cc) (fun i hi => glue_out' m cc 4 2 g42 i hi)) $$ HU42
  ihave HU43 := (congr (F := F) (outR 4 3) cc fullShare ((outR 4 3).view.writes (Elt F) g43 [⟨Rect.whole S512x256, dev.sl.dma0_29 m⟩]) (out m cc) (fun i hi => glue_out' m cc 4 3 g43 i hi)) $$ HU43
  ihave HU50 := (congr (F := F) (outR 5 0) cc fullShare ((outR 5 0).view.writes (Elt F) g50 [⟨Rect.whole S512x256, dev.sl.dma0_30 m⟩]) (out m cc) (fun i hi => glue_out' m cc 5 0 g50 i hi)) $$ HU50
  ihave HU51 := (congr (F := F) (outR 5 1) cc fullShare ((outR 5 1).view.writes (Elt F) g51 [⟨Rect.whole S512x256, dev.sl.dma0_31 m⟩]) (out m cc) (fun i hi => glue_out' m cc 5 1 g51 i hi)) $$ HU51
  ihave HU52 := (congr (F := F) (outR 5 2) cc fullShare ((outR 5 2).view.writes (Elt F) g52 [⟨Rect.whole S512x256, dev.sl.dma0_32 m⟩]) (out m cc) (fun i hi => glue_out' m cc 5 2 g52 i hi)) $$ HU52
  ihave HU53 := (congr (F := F) (outR 5 3) cc fullShare ((outR 5 3).view.writes (Elt F) g53 [⟨Rect.whole S512x256, dev.sl.dma0_33 m⟩]) (out m cc) (fun i hi => glue_out' m cc 5 3 g53 i hi)) $$ HU53
  ihave HU60 := (congr (F := F) (outR 6 0) cc fullShare ((outR 6 0).view.writes (Elt F) g60 [⟨Rect.whole S512x256, dev.sl.dma0_46 m⟩]) (out m cc) (fun i hi => glue_out' m cc 6 0 g60 i hi)) $$ HU60
  ihave HU61 := (congr (F := F) (outR 6 1) cc fullShare ((outR 6 1).view.writes (Elt F) g61 [⟨Rect.whole S512x256, dev.sl.dma0_47 m⟩]) (out m cc) (fun i hi => glue_out' m cc 6 1 g61 i hi)) $$ HU61
  ihave HU62 := (congr (F := F) (outR 6 2) cc fullShare ((outR 6 2).view.writes (Elt F) g62 [⟨Rect.whole S512x256, dev.sl.dma0_48 m⟩]) (out m cc) (fun i hi => glue_out' m cc 6 2 g62 i hi)) $$ HU62
  ihave HU63 := (congr (F := F) (outR 6 3) cc fullShare ((outR 6 3).view.writes (Elt F) g63 [⟨Rect.whole S512x256, dev.sl.dma0_49 m⟩]) (out m cc) (fun i hi => glue_out' m cc 6 3 g63 i hi)) $$ HU63
  ihave HU70 := (congr (F := F) (outR 7 0) cc fullShare ((outR 7 0).view.writes (Elt F) g70 [⟨Rect.whole S512x256, dev.sl.dma0_50 m⟩]) (out m cc) (fun i hi => glue_out' m cc 7 0 g70 i hi)) $$ HU70
  ihave HU71 := (congr (F := F) (outR 7 1) cc fullShare ((outR 7 1).view.writes (Elt F) g71 [⟨Rect.whole S512x256, dev.sl.dma0_51 m⟩]) (out m cc) (fun i hi => glue_out' m cc 7 1 g71 i hi)) $$ HU71
  ihave HU72 := (congr (F := F) (outR 7 2) cc fullShare ((outR 7 2).view.writes (Elt F) g72 [⟨Rect.whole S512x256, dev.sl.dma0_52 m⟩]) (out m cc) (fun i hi => glue_out' m cc 7 2 g72 i hi)) $$ HU72
  ihave HU73 := (congr (F := F) (outR 7 3) cc fullShare ((outR 7 3).view.writes (Elt F) g73 [⟨Rect.whole S512x256, dev.sl.dma0_53 m⟩]) (out m cc) (fun i hi => glue_out' m cc 7 3 g73 i hi)) $$ HU73
  sl_step
  iapply Hk
  unfold bodyPost
  isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7 Hz0 Hz1 Hz2 HzG3 HzFl3 HzFrb3 HzG4 HzFl4 HzFrb4 HzG5 HzFl5 HzFrb5 HzG6 HzFl6 HzFrb6 HzG7 HzFl7 HzFrb7 Hy0 Hy1 Hy2 HyG3 HyFlb3 HyFr3 HyG4 HyFlb4 HyFr4 HyG5 HyFlb5 HyFr5 HyG6 HyFlb6 HyFr6 HyG7 HyFlb7 HyFr7 Hdq0 Hdq1 Hdq2 Hd3 Hd4 Hd5 Hd6 Hd7]
  · iapply (Entails.of_eq (junk_whole (F := F) cc cc0_scratch0).symm)
    iapply (r4_back (F := F) cc)
    isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7]
    · isplitl [HoZb0 HoYb0 HoK0]
      · iapply (own_back (F := F) cc 0 (r4 m cc))
        isplitl [HoZb0]
        · iexact HoZb0
        isplitl [HoYb0]
        · iexact HoYb0
        iexact HoK0
      isplitl [HoZb1 HoYb1 HoK1]
      · iapply (own_back (F := F) cc 1 (r4 m cc))
        isplitl [HoZb1]
        · iexact HoZb1
        isplitl [HoYb1]
        · iexact HoYb1
        iexact HoK1
      isplitl [HoZb2 HoYb2 HoK2]
      · iapply (own_back (F := F) cc 2 (r4 m cc))
        isplitl [HoZb2]
        · iexact HoZb2
        isplitl [HoYb2]
        · iexact HoYb2
        iexact HoK2
      isplitl [HoZb3 HoYb3 HoK3]
      · iapply (own_back (F := F) cc 3 (r4 m cc))
        isplitl [HoZb3]
        · iexact HoZb3
        isplitl [HoYb3]
        · iexact HoYb3
        iexact HoK3
      isplitl [HoZb4 HoYb4 HoK4]
      · iapply (own_back (F := F) cc 4 (r4 m cc))
        isplitl [HoZb4]
        · iexact HoZb4
        isplitl [HoYb4]
        · iexact HoYb4
        iexact HoK4
      isplitl [HoZb5 HoYb5 HoK5]
      · iapply (own_back (F := F) cc 5 (r4 m cc))
        isplitl [HoZb5]
        · iexact HoZb5
        isplitl [HoYb5]
        · iexact HoYb5
        iexact HoK5
      isplitl [HoZb6 HoYb6 HoK6]
      · iapply (own_back (F := F) cc 6 (r4 m cc))
        isplitl [HoZb6]
        · iexact HoZb6
        isplitl [HoYb6]
        · iexact HoYb6
        iexact HoK6
      iapply (own_back (F := F) cc 7 (r4 m cc))
      isplitl [HoZb7]
      · iexact HoZb7
      isplitl [HoYb7]
      · iexact HoYb7
      iexact HoK7
    isplitl [Hz0 Hz1 Hz2 HzG3 HzFl3 HzFrb3 HzG4 HzFl4 HzFrb4 HzG5 HzFl5 HzFrb5 HzG6 HzFl6 HzFrb6 HzG7 HzFl7 HzFrb7]
    · isplitl [Hz0]
      · iexists _; iexact Hz0
      isplitl [Hz1]
      · iexists _; iexact Hz1
      isplitl [Hz2]
      · iexists _; iexact Hz2
      isplitl [HzG3 HzFl3 HzFrb3]
      · iapply (nbr_back (F := F) cc (zqF cc) 3 (r4 m cc))
        isplitl [HzG3]
        · iexact HzG3
        isplitl [HzFl3]
        · iexact HzFl3
        iexact HzFrb3
      isplitl [HzG4 HzFl4 HzFrb4]
      · iapply (nbr_back (F := F) cc (zqF cc) 4 (r4 m cc))
        isplitl [HzG4]
        · iexact HzG4
        isplitl [HzFl4]
        · iexact HzFl4
        iexact HzFrb4
      isplitl [HzG5 HzFl5 HzFrb5]
      · iapply (nbr_back (F := F) cc (zqF cc) 5 (r4 m cc))
        isplitl [HzG5]
        · iexact HzG5
        isplitl [HzFl5]
        · iexact HzFl5
        iexact HzFrb5
      isplitl [HzG6 HzFl6 HzFrb6]
      · iapply (nbr_back (F := F) cc (zqF cc) 6 (r4 m cc))
        isplitl [HzG6]
        · iexact HzG6
        isplitl [HzFl6]
        · iexact HzFl6
        iexact HzFrb6
      iapply (nbr_back (F := F) cc (zqF cc) 7 (r4 m cc))
      isplitl [HzG7]
      · iexact HzG7
      isplitl [HzFl7]
      · iexact HzFl7
      iexact HzFrb7
    isplitl [Hy0 Hy1 Hy2 HyG3 HyFlb3 HyFr3 HyG4 HyFlb4 HyFr4 HyG5 HyFlb5 HyFr5 HyG6 HyFlb6 HyFr6 HyG7 HyFlb7 HyFr7]
    · isplitl [Hy0]
      · iexists _; iexact Hy0
      isplitl [Hy1]
      · iexists _; iexact Hy1
      isplitl [Hy2]
      · iexists _; iexact Hy2
      isplitl [HyG3 HyFlb3 HyFr3]
      · iapply (nbr_back (F := F) cc (yqF cc) 3 (r4 m cc))
        isplitl [HyG3]
        · iexact HyG3
        isplitl [HyFlb3]
        · iexact HyFlb3
        iexact HyFr3
      isplitl [HyG4 HyFlb4 HyFr4]
      · iapply (nbr_back (F := F) cc (yqF cc) 4 (r4 m cc))
        isplitl [HyG4]
        · iexact HyG4
        isplitl [HyFlb4]
        · iexact HyFlb4
        iexact HyFr4
      isplitl [HyG5 HyFlb5 HyFr5]
      · iapply (nbr_back (F := F) cc (yqF cc) 5 (r4 m cc))
        isplitl [HyG5]
        · iexact HyG5
        isplitl [HyFlb5]
        · iexact HyFlb5
        iexact HyFr5
      isplitl [HyG6 HyFlb6 HyFr6]
      · iapply (nbr_back (F := F) cc (yqF cc) 6 (r4 m cc))
        isplitl [HyG6]
        · iexact HyG6
        isplitl [HyFlb6]
        · iexact HyFlb6
        iexact HyFr6
      iapply (nbr_back (F := F) cc (yqF cc) 7 (r4 m cc))
      isplitl [HyG7]
      · iexact HyG7
      isplitl [HyFlb7]
      · iexact HyFlb7
      iexact HyFr7
    isplitl [Hdq0 Hdq1 Hdq2]
    · isplitl [Hdq0]
      · iexists _; iexact Hdq0
      isplitl [Hdq1]
      · iexists _; iexact Hdq1
      iexists _; iexact Hdq2
    isplitl [Hd3]
    · iapply (dq_halves (F := F) cc 3 (r4 m cc))
      iexact Hd3
    isplitl [Hd4]
    · iapply (dq_halves (F := F) cc 4 (r4 m cc))
      iexact Hd4
    isplitl [Hd5]
    · iapply (dq_halves (F := F) cc 5 (r4 m cc))
      iexact Hd5
    isplitl [Hd6]
    · iapply (dq_halves (F := F) cc 6 (r4 m cc))
      iexact Hd6
    iapply (dq_halves (F := F) cc 7 (r4 m cc))
    iexact Hd7
  isplitl [HBs0 HBs1 HBs2 HBs3 HBs4 HBs5 HBs6 HBs7]
  · iapply (Entails.of_eq (junk_whole (F := F) cc cc0_scratch1).symm)
    iapply (sb_rows_join (F := F) cc)
    isplitl [HBs0]
    · iexists _; iexact HBs0
    isplitl [HBs1]
    · iexists _; iexact HBs1
    isplitl [HBs2]
    · iexists _; iexact HBs2
    isplitl [HBs3]
    · iexists _; iexact HBs3
    isplitl [HBs4]
    · iexists _; iexact HBs4
    isplitl [HBs5]
    · iexists _; iexact HBs5
    isplitl [HBs6]
    · iexists _; iexact HBs6
    iexists _; iexact HBs7
  isplitl [Hrb0 Hrb1 Hrb2 Hrb3 Hrb4 Hrb5 Hrb6 Hrb7]
  · iapply (Entails.of_eq (junk_whole (F := F) cc cc0_scratch2).symm)
    iapply (rb_rows_join (F := F) cc)
    isplitl [Hrb0]
    · iexists _; iexact Hrb0
    isplitl [Hrb1]
    · iexists _; iexact Hrb1
    isplitl [Hrb2]
    · iexists _; iexact Hrb2
    isplitl [Hrb3]
    · iexists _; iexact Hrb3
    isplitl [Hrb4]
    · iexists _; iexact Hrb4
    isplitl [Hrb5]
    · iexists _; iexact Hrb5
    isplitl [Hrb6]
    · iexists _; iexact Hrb6
    iexists _; iexact Hrb7
  isplitl [HB2s0 HB2s1 HB2s2]
  · iapply (Entails.of_eq (junk_whole (F := F) cc cc0_scratch3).symm)
    iapply (sb2_rows_join (F := F) cc)
    isplitl [HB2s0]
    · iexists _; iexact HB2s0
    isplitl [HB2s1]
    · iexists _; iexact HB2s1
    iexists _; iexact HB2s2
  isplitl [Hrb20 Hrb21 Hrb22]
  · iapply (Entails.of_eq (junk_whole (F := F) cc cc0_scratch4).symm)
    iapply (rb2_rows_join (F := F) cc)
    isplitl [Hrb20]
    · iexists _; iexact Hrb20
    isplitl [Hrb21]
    · iexists _; iexact Hrb21
    iexists _; iexact Hrb22
  isplitl [HP0 HP1 HP2 HP3 HP4 HP5 HP6 HP7]
  · iapply (Entails.of_eq (junk_whole (F := F) cc cc0_scratch5).symm)
    iapply (stP_rows_join (F := F) cc)
    isplitl [HP0]
    · iexists _; iexact HP0
    isplitl [HP1]
    · iexists _; iexact HP1
    isplitl [HP2]
    · iexists _; iexact HP2
    isplitl [HP3]
    · iexists _; iexact HP3
    isplitl [HP4]
    · iexists _; iexact HP4
    isplitl [HP5]
    · iexists _; iexact HP5
    isplitl [HP6]
    · iexists _; iexact HP6
    iexists _; iexact HP7
  isplitl [HL0 HL1 HL2 HL3 HL4 HL5 HL6 HL7]
  · iapply (Entails.of_eq (junk_whole (F := F) cc cc0_scratch6).symm)
    iapply (stL_rows_join (F := F) cc)
    isplitl [HL0]
    · iexists _; iexact HL0
    isplitl [HL1]
    · iexists _; iexact HL1
    isplitl [HL2]
    · iexists _; iexact HL2
    isplitl [HL3]
    · iexists _; iexact HL3
    isplitl [HL4]
    · iexists _; iexact HL4
    isplitl [HL5]
    · iexists _; iexact HL5
    isplitl [HL6]
    · iexists _; iexact HL6
    iexists _; iexact HL7
  isplitl [HP20 HP21 HP22]
  · iapply (Entails.of_eq (junk_whole (F := F) cc cc0_scratch7).symm)
    iapply (stP2_rows_join (F := F) cc)
    isplitl [HP20]
    · iexists _; iexact HP20
    isplitl [HP21]
    · iexists _; iexact HP21
    iexists _; iexact HP22
  isplitl [HL20 HL21 HL22]
  · iapply (Entails.of_eq (junk_whole (F := F) cc cc0_scratch8).symm)
    iapply (stL2_rows_join (F := F) cc)
    isplitl [HL20]
    · iexists _; iexact HL20
    isplitl [HL21]
    · iexists _; iexact HL21
    iexists _; iexact HL22
  isplitl [HX]
  · iexact HX
  isplitl [HU00 HU01 HU02 HU03 HU10 HU11 HU12 HU13 HU20 HU21 HU22 HU23 HU30 HU31 HU32 HU33 HU40 HU41 HU42 HU43 HU50 HU51 HU52 HU53 HU60 HU61 HU62 HU63 HU70 HU71 HU72 HU73]
  · iapply (out_join (F := F) cc (out m cc))
    isplitl [HU00]
    · iexact HU00
    isplitl [HU01]
    · iexact HU01
    isplitl [HU02]
    · iexact HU02
    isplitl [HU03]
    · iexact HU03
    isplitl [HU10]
    · iexact HU10
    isplitl [HU11]
    · iexact HU11
    isplitl [HU12]
    · iexact HU12
    isplitl [HU13]
    · iexact HU13
    isplitl [HU20]
    · iexact HU20
    isplitl [HU21]
    · iexact HU21
    isplitl [HU22]
    · iexact HU22
    isplitl [HU23]
    · iexact HU23
    isplitl [HU30]
    · iexact HU30
    isplitl [HU31]
    · iexact HU31
    isplitl [HU32]
    · iexact HU32
    isplitl [HU33]
    · iexact HU33
    isplitl [HU40]
    · iexact HU40
    isplitl [HU41]
    · iexact HU41
    isplitl [HU42]
    · iexact HU42
    isplitl [HU43]
    · iexact HU43
    isplitl [HU50]
    · iexact HU50
    isplitl [HU51]
    · iexact HU51
    isplitl [HU52]
    · iexact HU52
    isplitl [HU53]
    · iexact HU53
    isplitl [HU60]
    · iexact HU60
    isplitl [HU61]
    · iexact HU61
    isplitl [HU62]
    · iexact HU62
    isplitl [HU63]
    · iexact HU63
    isplitl [HU70]
    · iexact HU70
    isplitl [HU71]
    · iexact HU71
    isplitl [HU72]
    · iexact HU72
    iexact HU73
  isplitl [Hv0 Hv1 Hv2 Hv3 Hv4 Hv5 Hv6 Hv7 Hv8 Hv9 Hv10 Hv11 Hv12 Hv13 Hv14 Hv15 Hv16 Hv17 Hv18 Hv19 Hv20 Hv21 Hv22 Hv23 Hv24 Hv25 Hv26 Hv27 Hv28 Hv29 Hv30 Hv31 Hv32 Hv33 Hv34 Hv35 Hv36 Hv37 Hv38 Hv39 Hv40 Hv41 Hv42 Hv43 Hv44 Hv45 Hv46 Hv47 Hv48 Hv49 Hv50 Hv51 Hv52 Hv53 Hv54 Hv55 Hv56 Hv57 Hv58 Hv59 Hv60 Hv61 Hv62 Hv63 Hv64 Hv65 Hv66 Hv67 Hv68 Hv69 Hv70 Hv71 Hv72 Hv73 Hv74 Hv75 Hu76 Hu77 Hu78 Hv79 Hv80 Hv81 Hv82 Hv83 Hu84 Hu85 Hu86 Hv87 Hv88 Hv89 Hv90 Hv91 Hu92 Hu93 Hu94 Hv95 Hv96 Hv97 Hv98 Hv99 Hu100 Hu101 Hu102 Hv103 Hv104 Hv105 Hv106 Hv107 Hw0a Hw0b Hw0c Hw0d Hw1a Hw1b Hw1c Hw1d Hw2a Hw2b Hw2c Hw2d Hw3a Hw3b Hw3c Hw3d Hw4a Hw4b Hw4c Hw4d Hw5a Hw5b Hw5c Hw5d Hw6a Hw6b Hw6c Hw6d Hw7a Hw7b Hw7c Hw7d]
  · iapply (Entails.of_eq (show (iprop(semVal (cellAt cc (⟨0, Nat.le_of_ble_eq_true rfl⟩ : Fin 140)) 0 ∗ semVal (cellAt cc (⟨1, Nat.le_of_ble_eq_true rfl⟩ : Fin 140)) 0 ∗ semVal (cellAt cc (⟨2, Nat.le_of_ble_eq_true rfl⟩ : Fin 140)) 0 ∗ semVal (cellAt cc (⟨3, Nat.le_of_ble_eq_true rfl⟩ : Fin 140)) 0 ∗ semVal (cellAt cc (⟨4, Nat.le_of_ble_eq_true rfl⟩ : Fin 140)) 0 ∗ semVal (cellAt cc (⟨5, Nat.le_of_ble_eq_true rfl⟩ : Fin 140)) 0 ∗ semVal (cellAt cc (⟨6, Nat.le_of_ble_eq_true rfl⟩ : Fin 140)) 0 ∗ semVal (cellAt cc (⟨7, Nat.le_of_ble_eq_true rfl⟩ : Fin 140)) 0 ∗ semVal (cellAt cc (⟨8, Nat.le_of_ble_eq_true rfl⟩ : Fin 140)) 0 ∗ semVal (cellAt cc (⟨9, Nat.le_of_ble_eq_true rfl⟩ : Fin 140)) 0 ∗ semVal (cellAt cc (⟨10, Nat.le_of_ble_eq_true rfl⟩ : Fin 140)) 0 ∗ semVal (cellAt cc (⟨11, Nat.le_of_ble_eq_true rfl⟩ : Fin 140)) 0 ∗ semVal (cellAt cc (⟨12, Nat.le_of_ble_eq_true rfl⟩ : Fin 140)) 0 ∗ semVal (cellAt cc (⟨13, Nat.le_of_ble_eq_true rfl⟩ : Fin 140)) 0 ∗ semVal (cellAt cc (⟨14, Nat.le_of_ble_eq_true rfl⟩ : Fin 140)) 0 ∗ semVal (cellAt cc (⟨15, Nat.le_of_ble_eq_true rfl⟩ : Fin 140)) 0 ∗ semVal (cellAt cc (⟨16, Nat.le_of_ble_eq_true rfl⟩ : Fin 140)) 0 ∗ semVal (cellAt cc (⟨17, Nat.le_of_ble_eq_true rfl⟩ : Fin 140)) 0 ∗ semVal (cellAt cc (⟨18, Nat.le_of_ble_eq_true rfl⟩ : Fin 140)) 0 ∗ semVal (cellAt cc (⟨19, Nat.le_of_ble_eq_true rfl⟩ : Fin 140)) 0 ∗ semVal (cellAt cc (⟨20, Nat.le_of_ble_eq_true rfl⟩ : Fin 140)) 0 ∗ semVal (cellAt cc (⟨21, Nat.le_of_ble_eq_true rfl⟩ : Fin 140)) 0 ∗ semVal (cellAt cc (⟨22, Nat.le_of_ble_eq_true rfl⟩ : Fin 140)) 0 ∗ semVal (cellAt cc (⟨23, Nat.le_of_ble_eq_true rfl⟩ : Fin 140)) 0 ∗ semVal (cellAt cc (⟨24, Nat.le_of_ble_eq_true rfl⟩ : Fin 140)) 0 ∗ semVal (cellAt cc (⟨25, Nat.le_of_ble_eq_true rfl⟩ : Fin 140)) 0 ∗ semVal (cellAt cc (⟨26, Nat.le_of_ble_eq_true rfl⟩ : Fin 140)) 0 ∗ semVal (cellAt cc (⟨27, Nat.le_of_ble_eq_true rfl⟩ : Fin 140)) 0 ∗ semVal (cellAt cc (⟨28, Nat.le_of_ble_eq_true rfl⟩ : Fin 140)) 0 ∗ semVal (cellAt cc (⟨29, Nat.le_of_ble_eq_true rfl⟩ : Fin 140)) 0 ∗ semVal (cellAt cc (⟨30, Nat.le_of_ble_eq_true rfl⟩ : Fin 140)) 0 ∗ semVal (cellAt cc (⟨31, Nat.le_of_ble_eq_true rfl⟩ : Fin 140)) 0 ∗ semVal (cellAt cc (⟨32, Nat.le_of_ble_eq_true rfl⟩ : Fin 140)) 0 ∗ semVal (cellAt cc (⟨33, Nat.le_of_ble_eq_true rfl⟩ : Fin 140)) 0 ∗ semVal (cellAt cc (⟨34, Nat.le_of_ble_eq_true rfl⟩ : Fin 140)) 0 ∗ semVal (cellAt cc (⟨35, Nat.le_of_ble_eq_true rfl⟩ : Fin 140)) 0 ∗ semVal (cellAt cc (⟨36, Nat.le_of_ble_eq_true rfl⟩ : Fin 140)) 0 ∗ semVal (cellAt cc (⟨37, Nat.le_of_ble_eq_true rfl⟩ : Fin 140)) 0 ∗ semVal (cellAt cc (⟨38, Nat.le_of_ble_eq_true rfl⟩ : Fin 140)) 0 ∗ semVal (cellAt cc (⟨39, Nat.le_of_ble_eq_true rfl⟩ : Fin 140)) 0 ∗ semVal (cellAt cc (⟨40, Nat.le_of_ble_eq_true rfl⟩ : Fin 140)) 0 ∗ semVal (cellAt cc (⟨41, Nat.le_of_ble_eq_true rfl⟩ : Fin 140)) 0 ∗ semVal (cellAt cc (⟨42, Nat.le_of_ble_eq_true rfl⟩ : Fin 140)) 0 ∗ semVal (cellAt cc (⟨43, Nat.le_of_ble_eq_true rfl⟩ : Fin 140)) 0 ∗ semVal (cellAt cc (⟨44, Nat.le_of_ble_eq_true rfl⟩ : Fin 140)) 0 ∗ semVal (cellAt cc (⟨45, Nat.le_of_ble_eq_true rfl⟩ : Fin 140)) 0 ∗ semVal (cellAt cc (⟨46, Nat.le_of_ble_eq_true rfl⟩ : Fin 140)) 0 ∗ semVal (cellAt cc (⟨47, Nat.le_of_ble_eq_true rfl⟩ : Fin 140)) 0 ∗ semVal (cellAt cc (⟨48, Nat.le_of_ble_eq_true rfl⟩ : Fin 140)) 0 ∗ semVal (cellAt cc (⟨49, Nat.le_of_ble_eq_true rfl⟩ : Fin 140)) 0 ∗ semVal (cellAt cc (⟨50, Nat.le_of_ble_eq_true rfl⟩ : Fin 140)) 0 ∗ semVal (cellAt cc (⟨51, Nat.le_of_ble_eq_true rfl⟩ : Fin 140)) 0 ∗ semVal (cellAt cc (⟨52, Nat.le_of_ble_eq_true rfl⟩ : Fin 140)) 0 ∗ semVal (cellAt cc (⟨53, Nat.le_of_ble_eq_true rfl⟩ : Fin 140)) 0 ∗ semVal (cellAt cc (⟨54, Nat.le_of_ble_eq_true rfl⟩ : Fin 140)) 0 ∗ semVal (cellAt cc (⟨55, Nat.le_of_ble_eq_true rfl⟩ : Fin 140)) 0 ∗ semVal (cellAt cc (⟨56, Nat.le_of_ble_eq_true rfl⟩ : Fin 140)) 0 ∗ semVal (cellAt cc (⟨57, Nat.le_of_ble_eq_true rfl⟩ : Fin 140)) 0 ∗ semVal (cellAt cc (⟨58, Nat.le_of_ble_eq_true rfl⟩ : Fin 140)) 0 ∗ semVal (cellAt cc (⟨59, Nat.le_of_ble_eq_true rfl⟩ : Fin 140)) 0 ∗ semVal (cellAt cc (⟨60, Nat.le_of_ble_eq_true rfl⟩ : Fin 140)) 0 ∗ semVal (cellAt cc (⟨61, Nat.le_of_ble_eq_true rfl⟩ : Fin 140)) 0 ∗ semVal (cellAt cc (⟨62, Nat.le_of_ble_eq_true rfl⟩ : Fin 140)) 0 ∗ semVal (cellAt cc (⟨63, Nat.le_of_ble_eq_true rfl⟩ : Fin 140)) 0 ∗ semVal (cellAt cc (⟨64, Nat.le_of_ble_eq_true rfl⟩ : Fin 140)) 0 ∗ semVal (cellAt cc (⟨65, Nat.le_of_ble_eq_true rfl⟩ : Fin 140)) 0 ∗ semVal (cellAt cc (⟨66, Nat.le_of_ble_eq_true rfl⟩ : Fin 140)) 0 ∗ semVal (cellAt cc (⟨67, Nat.le_of_ble_eq_true rfl⟩ : Fin 140)) 0 ∗ semVal (cellAt cc (⟨68, Nat.le_of_ble_eq_true rfl⟩ : Fin 140)) 0 ∗ semVal (cellAt cc (⟨69, Nat.le_of_ble_eq_true rfl⟩ : Fin 140)) 0 ∗ semVal (cellAt cc (⟨70, Nat.le_of_ble_eq_true rfl⟩ : Fin 140)) 0 ∗ semVal (cellAt cc (⟨71, Nat.le_of_ble_eq_true rfl⟩ : Fin 140)) 0 ∗ semVal (cellAt cc (⟨72, Nat.le_of_ble_eq_true rfl⟩ : Fin 140)) 0 ∗ semVal (cellAt cc (⟨73, Nat.le_of_ble_eq_true rfl⟩ : Fin 140)) 0 ∗ semVal (cellAt cc (⟨74, Nat.le_of_ble_eq_true rfl⟩ : Fin 140)) 0 ∗ semVal (cellAt cc (⟨75, Nat.le_of_ble_eq_true rfl⟩ : Fin 140)) 0 ∗ semVal (cellAt cc (⟨76, Nat.le_of_ble_eq_true rfl⟩ : Fin 140)) 0 ∗ semVal (cellAt cc (⟨77, Nat.le_of_ble_eq_true rfl⟩ : Fin 140)) 0 ∗ semVal (cellAt cc (⟨78, Nat.le_of_ble_eq_true rfl⟩ : Fin 140)) 0 ∗ semVal (cellAt cc (⟨79, Nat.le_of_ble_eq_true rfl⟩ : Fin 140)) 0 ∗ semVal (cellAt cc (⟨80, Nat.le_of_ble_eq_true rfl⟩ : Fin 140)) 0 ∗ semVal (cellAt cc (⟨81, Nat.le_of_ble_eq_true rfl⟩ : Fin 140)) 0 ∗ semVal (cellAt cc (⟨82, Nat.le_of_ble_eq_true rfl⟩ : Fin 140)) 0 ∗ semVal (cellAt cc (⟨83, Nat.le_of_ble_eq_true rfl⟩ : Fin 140)) 0 ∗ semVal (cellAt cc (⟨84, Nat.le_of_ble_eq_true rfl⟩ : Fin 140)) 0 ∗ semVal (cellAt cc (⟨85, Nat.le_of_ble_eq_true rfl⟩ : Fin 140)) 0 ∗ semVal (cellAt cc (⟨86, Nat.le_of_ble_eq_true rfl⟩ : Fin 140)) 0 ∗ semVal (cellAt cc (⟨87, Nat.le_of_ble_eq_true rfl⟩ : Fin 140)) 0 ∗ semVal (cellAt cc (⟨88, Nat.le_of_ble_eq_true rfl⟩ : Fin 140)) 0 ∗ semVal (cellAt cc (⟨89, Nat.le_of_ble_eq_true rfl⟩ : Fin 140)) 0 ∗ semVal (cellAt cc (⟨90, Nat.le_of_ble_eq_true rfl⟩ : Fin 140)) 0 ∗ semVal (cellAt cc (⟨91, Nat.le_of_ble_eq_true rfl⟩ : Fin 140)) 0 ∗ semVal (cellAt cc (⟨92, Nat.le_of_ble_eq_true rfl⟩ : Fin 140)) 0 ∗ semVal (cellAt cc (⟨93, Nat.le_of_ble_eq_true rfl⟩ : Fin 140)) 0 ∗ semVal (cellAt cc (⟨94, Nat.le_of_ble_eq_true rfl⟩ : Fin 140)) 0 ∗ semVal (cellAt cc (⟨95, Nat.le_of_ble_eq_true rfl⟩ : Fin 140)) 0 ∗ semVal (cellAt cc (⟨96, Nat.le_of_ble_eq_true rfl⟩ : Fin 140)) 0 ∗ semVal (cellAt cc (⟨97, Nat.le_of_ble_eq_true rfl⟩ : Fin 140)) 0 ∗ semVal (cellAt cc (⟨98, Nat.le_of_ble_eq_true rfl⟩ : Fin 140)) 0 ∗ semVal (cellAt cc (⟨99, Nat.le_of_ble_eq_true rfl⟩ : Fin 140)) 0 ∗ semVal (cellAt cc (⟨100, Nat.le_of_ble_eq_true rfl⟩ : Fin 140)) 0 ∗ semVal (cellAt cc (⟨101, Nat.le_of_ble_eq_true rfl⟩ : Fin 140)) 0 ∗ semVal (cellAt cc (⟨102, Nat.le_of_ble_eq_true rfl⟩ : Fin 140)) 0 ∗ semVal (cellAt cc (⟨103, Nat.le_of_ble_eq_true rfl⟩ : Fin 140)) 0 ∗ semVal (cellAt cc (⟨104, Nat.le_of_ble_eq_true rfl⟩ : Fin 140)) 0 ∗ semVal (cellAt cc (⟨105, Nat.le_of_ble_eq_true rfl⟩ : Fin 140)) 0 ∗ semVal (cellAt cc (⟨106, Nat.le_of_ble_eq_true rfl⟩ : Fin 140)) 0 ∗ semVal (cellAt cc (⟨107, Nat.le_of_ble_eq_true rfl⟩ : Fin 140)) 0 ∗ semVal (cellAt cc (⟨108, Nat.le_of_ble_eq_true rfl⟩ : Fin 140)) 0 ∗ semVal (cellAt cc (⟨109, Nat.le_of_ble_eq_true rfl⟩ : Fin 140)) 0 ∗ semVal (cellAt cc (⟨110, Nat.le_of_ble_eq_true rfl⟩ : Fin 140)) 0 ∗ semVal (cellAt cc (⟨111, Nat.le_of_ble_eq_true rfl⟩ : Fin 140)) 0 ∗ semVal (cellAt cc (⟨112, Nat.le_of_ble_eq_true rfl⟩ : Fin 140)) 0 ∗ semVal (cellAt cc (⟨113, Nat.le_of_ble_eq_true rfl⟩ : Fin 140)) 0 ∗ semVal (cellAt cc (⟨114, Nat.le_of_ble_eq_true rfl⟩ : Fin 140)) 0 ∗ semVal (cellAt cc (⟨115, Nat.le_of_ble_eq_true rfl⟩ : Fin 140)) 0 ∗ semVal (cellAt cc (⟨116, Nat.le_of_ble_eq_true rfl⟩ : Fin 140)) 0 ∗ semVal (cellAt cc (⟨117, Nat.le_of_ble_eq_true rfl⟩ : Fin 140)) 0 ∗ semVal (cellAt cc (⟨118, Nat.le_of_ble_eq_true rfl⟩ : Fin 140)) 0 ∗ semVal (cellAt cc (⟨119, Nat.le_of_ble_eq_true rfl⟩ : Fin 140)) 0 ∗ semVal (cellAt cc (⟨120, Nat.le_of_ble_eq_true rfl⟩ : Fin 140)) 0 ∗ semVal (cellAt cc (⟨121, Nat.le_of_ble_eq_true rfl⟩ : Fin 140)) 0 ∗ semVal (cellAt cc (⟨122, Nat.le_of_ble_eq_true rfl⟩ : Fin 140)) 0 ∗ semVal (cellAt cc (⟨123, Nat.le_of_ble_eq_true rfl⟩ : Fin 140)) 0 ∗ semVal (cellAt cc (⟨124, Nat.le_of_ble_eq_true rfl⟩ : Fin 140)) 0 ∗ semVal (cellAt cc (⟨125, Nat.le_of_ble_eq_true rfl⟩ : Fin 140)) 0 ∗ semVal (cellAt cc (⟨126, Nat.le_of_ble_eq_true rfl⟩ : Fin 140)) 0 ∗ semVal (cellAt cc (⟨127, Nat.le_of_ble_eq_true rfl⟩ : Fin 140)) 0 ∗ semVal (cellAt cc (⟨128, Nat.le_of_ble_eq_true rfl⟩ : Fin 140)) 0 ∗ semVal (cellAt cc (⟨129, Nat.le_of_ble_eq_true rfl⟩ : Fin 140)) 0 ∗ semVal (cellAt cc (⟨130, Nat.le_of_ble_eq_true rfl⟩ : Fin 140)) 0 ∗ semVal (cellAt cc (⟨131, Nat.le_of_ble_eq_true rfl⟩ : Fin 140)) 0 ∗ semVal (cellAt cc (⟨132, Nat.le_of_ble_eq_true rfl⟩ : Fin 140)) 0 ∗ semVal (cellAt cc (⟨133, Nat.le_of_ble_eq_true rfl⟩ : Fin 140)) 0 ∗ semVal (cellAt cc (⟨134, Nat.le_of_ble_eq_true rfl⟩ : Fin 140)) 0 ∗ semVal (cellAt cc (⟨135, Nat.le_of_ble_eq_true rfl⟩ : Fin 140)) 0 ∗ semVal (cellAt cc (⟨136, Nat.le_of_ble_eq_true rfl⟩ : Fin 140)) 0 ∗ semVal (cellAt cc (⟨137, Nat.le_of_ble_eq_true rfl⟩ : Fin 140)) 0 ∗ semVal (cellAt cc (⟨138, Nat.le_of_ble_eq_true rfl⟩ : Fin 140)) 0 ∗ semVal (cellAt cc (⟨139, Nat.le_of_ble_eq_true rfl⟩ : Fin 140)) 0) : sProp 𝕄) = (bigSepL allJ fun j => semVal (cellAt cc j) 0) from rfl))
    isplitl [Hv0]
    · iexact Hv0
    isplitl [Hv1]
    · iexact Hv1
    isplitl [Hv2]
    · iexact Hv2
    isplitl [Hv3]
    · iexact Hv3
    isplitl [Hv4]
    · iexact Hv4
    isplitl [Hv5]
    · iexact Hv5
    isplitl [Hv6]
    · iexact Hv6
    isplitl [Hv7]
    · iexact Hv7
    isplitl [Hv8]
    · iexact Hv8
    isplitl [Hv9]
    · iexact Hv9
    isplitl [Hv10]
    · iexact Hv10
    isplitl [Hv11]
    · iexact Hv11
    isplitl [Hv12]
    · iexact Hv12
    isplitl [Hv13]
    · iexact Hv13
    isplitl [Hv14]
    · iexact Hv14
    isplitl [Hv15]
    · iexact Hv15
    isplitl [Hv16]
    · iexact Hv16
    isplitl [Hv17]
    · iexact Hv17
    isplitl [Hv18]
    · iexact Hv18
    isplitl [Hv19]
    · iexact Hv19
    isplitl [Hv20]
    · iexact Hv20
    isplitl [Hv21]
    · iexact Hv21
    isplitl [Hv22]
    · iexact Hv22
    isplitl [Hv23]
    · iexact Hv23
    isplitl [Hv24]
    · iexact Hv24
    isplitl [Hv25]
    · iexact Hv25
    isplitl [Hv26]
    · iexact Hv26
    isplitl [Hv27]
    · iexact Hv27
    isplitl [Hv28]
    · iexact Hv28
    isplitl [Hv29]
    · iexact Hv29
    isplitl [Hv30]
    · iexact Hv30
    isplitl [Hv31]
    · iexact Hv31
    isplitl [Hv32]
    · iexact Hv32
    isplitl [Hv33]
    · iexact Hv33
    isplitl [Hv34]
    · iexact Hv34
    isplitl [Hv35]
    · iexact Hv35
    isplitl [Hv36]
    · iexact Hv36
    isplitl [Hv37]
    · iexact Hv37
    isplitl [Hv38]
    · iexact Hv38
    isplitl [Hv39]
    · iexact Hv39
    isplitl [Hv40]
    · iexact Hv40
    isplitl [Hv41]
    · iexact Hv41
    isplitl [Hv42]
    · iexact Hv42
    isplitl [Hv43]
    · iexact Hv43
    isplitl [Hv44]
    · iexact Hv44
    isplitl [Hv45]
    · iexact Hv45
    isplitl [Hv46]
    · iexact Hv46
    isplitl [Hv47]
    · iexact Hv47
    isplitl [Hv48]
    · iexact Hv48
    isplitl [Hv49]
    · iexact Hv49
    isplitl [Hv50]
    · iexact Hv50
    isplitl [Hv51]
    · iexact Hv51
    isplitl [Hv52]
    · iexact Hv52
    isplitl [Hv53]
    · iexact Hv53
    isplitl [Hv54]
    · iexact Hv54
    isplitl [Hv55]
    · iexact Hv55
    isplitl [Hv56]
    · iexact Hv56
    isplitl [Hv57]
    · iexact Hv57
    isplitl [Hv58]
    · iexact Hv58
    isplitl [Hv59]
    · iexact Hv59
    isplitl [Hv60]
    · iexact Hv60
    isplitl [Hv61]
    · iexact Hv61
    isplitl [Hv62]
    · iexact Hv62
    isplitl [Hv63]
    · iexact Hv63
    isplitl [Hv64]
    · iexact Hv64
    isplitl [Hv65]
    · iexact Hv65
    isplitl [Hv66]
    · iexact Hv66
    isplitl [Hv67]
    · iexact Hv67
    isplitl [Hv68]
    · iexact Hv68
    isplitl [Hv69]
    · iexact Hv69
    isplitl [Hv70]
    · iexact Hv70
    isplitl [Hv71]
    · iexact Hv71
    isplitl [Hv72]
    · iexact Hv72
    isplitl [Hv73]
    · iexact Hv73
    isplitl [Hv74]
    · iexact Hv74
    isplitl [Hv75]
    · iexact Hv75
    isplitl [Hu76]
    · iexact Hu76
    isplitl [Hu77]
    · iexact Hu77
    isplitl [Hu78]
    · iexact Hu78
    isplitl [Hv79]
    · iexact Hv79
    isplitl [Hv80]
    · iexact Hv80
    isplitl [Hv81]
    · iexact Hv81
    isplitl [Hv82]
    · iexact Hv82
    isplitl [Hv83]
    · iexact Hv83
    isplitl [Hu84]
    · iexact Hu84
    isplitl [Hu85]
    · iexact Hu85
    isplitl [Hu86]
    · iexact Hu86
    isplitl [Hv87]
    · iexact Hv87
    isplitl [Hv88]
    · iexact Hv88
    isplitl [Hv89]
    · iexact Hv89
    isplitl [Hv90]
    · iexact Hv90
    isplitl [Hv91]
    · iexact Hv91
    isplitl [Hu92]
    · iexact Hu92
    isplitl [Hu93]
    · iexact Hu93
    isplitl [Hu94]
    · iexact Hu94
    isplitl [Hv95]
    · iexact Hv95
    isplitl [Hv96]
    · iexact Hv96
    isplitl [Hv97]
    · iexact Hv97
    isplitl [Hv98]
    · iexact Hv98
    isplitl [Hv99]
    · iexact Hv99
    isplitl [Hu100]
    · iexact Hu100
    isplitl [Hu101]
    · iexact Hu101
    isplitl [Hu102]
    · iexact Hu102
    isplitl [Hv103]
    · iexact Hv103
    isplitl [Hv104]
    · iexact Hv104
    isplitl [Hv105]
    · iexact Hv105
    isplitl [Hv106]
    · iexact Hv106
    isplitl [Hv107]
    · iexact Hv107
    isplitl [Hw0a]
    · iexact Hw0a
    isplitl [Hw0b]
    · iexact Hw0b
    isplitl [Hw0c]
    · iexact Hw0c
    isplitl [Hw0d]
    · iexact Hw0d
    isplitl [Hw1a]
    · iexact Hw1a
    isplitl [Hw1b]
    · iexact Hw1b
    isplitl [Hw1c]
    · iexact Hw1c
    isplitl [Hw1d]
    · iexact Hw1d
    isplitl [Hw2a]
    · iexact Hw2a
    isplitl [Hw2b]
    · iexact Hw2b
    isplitl [Hw2c]
    · iexact Hw2c
    isplitl [Hw2d]
    · iexact Hw2d
    isplitl [Hw3a]
    · iexact Hw3a
    isplitl [Hw3b]
    · iexact Hw3b
    isplitl [Hw3c]
    · iexact Hw3c
    isplitl [Hw3d]
    · iexact Hw3d
    isplitl [Hw4a]
    · iexact Hw4a
    isplitl [Hw4b]
    · iexact Hw4b
    isplitl [Hw4c]
    · iexact Hw4c
    isplitl [Hw4d]
    · iexact Hw4d
    isplitl [Hw5a]
    · iexact Hw5a
    isplitl [Hw5b]
    · iexact Hw5b
    isplitl [Hw5c]
    · iexact Hw5c
    isplitl [Hw5d]
    · iexact Hw5d
    isplitl [Hw6a]
    · iexact Hw6a
    isplitl [Hw6b]
    · iexact Hw6b
    isplitl [Hw6c]
    · iexact Hw6c
    isplitl [Hw6d]
    · iexact Hw6d
    isplitl [Hw7a]
    · iexact Hw7a
    isplitl [Hw7b]
    · iexact Hw7b
    isplitl [Hw7c]
    · iexact Hw7c
    iexact Hw7d
  iexists _; iexact HO

end Cert.KernelIdeal.RS.D0

end
-- ==== Proof.Body1.lean ====
import proofs.«901022_g7700000000001023_dist_rs_v7x_xyz2x2x2_x_m4096_n1024_bf16_1_alg».proof.Proof.BodyAux
import proofs.«901022_g7700000000001023_dist_rs_v7x_xyz2x2x2_x_m4096_n1024_bf16_1_alg».proof.Proof.BodyPre
import proofs.«901022_g7700000000001023_dist_rs_v7x_xyz2x2x2_x_m4096_n1024_bf16_1_alg».proof.Proof.OutRules

/-! The body of the kernel on device 1 of the mesh, from its precondition (BodyPre) to its postcondition (bodyPost).

    The program is straight-line code of 4045 statements. Its local steps — the 54 copies between the input, the staging
    buffers, the four-quarter buffer and the result, their waits, the loads and the stores — are run by the library's symbolic
    executor on hypotheses that hold each 512-row chunk through the slice the program itself names. Its remote steps are
    taken by the rounds library's rules, one application each: three barrier signals and the wait for the three
    neighbours; 37 copies to a neighbour, each lending the source chunk (at a share, where the chunk is also read by another
    copy) and landing the chunk's final contents; the waits on the 37 receive cells, which hand back the landed chunks; the
    final waits on the 37 send cells, which hand back what was lent. Whenever a chunk has been written (by a landing copy or
    by a store) it is restated as "holds its final contents" (Spec), which is what the next copy's payload asks for.
    A wait is allowed because whatever the device still owes at that point lies above the awaited cell (Owed): decided on the
    list of payments not yet made. At the end every cell has had its one round and is closed, and the pieces of every
    buffer are put back. -/

set_option maxRecDepth 8000

noncomputable section

namespace Cert.KernelIdeal.RS.D1

open Cert.KernelIdeal Cert.KernelIdeal.Gen Cert.KernelIdeal.RS
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local notation "cc" => (Fin.mk 1 (Nat.le_of_ble_eq_true rfl) : Dev nD)

set_option maxHeartbeats 1600000 in
theorem dev (m : (ℓ : Loc nD τ sig) → Buf (Elt F) ℓ) (K : GSem nD τ sig → ℕ) (W : Waits sig Unit) (Kt : PUnit → sProp 𝕄) :
    iprop(bodyPre m K cc W ∗ (bodyPost m cc -∗ Kt ⟨⟩))
      ⊢ wp frame (wpE (defs₀ (F := F)) 𝒱₀ (cc : Thread nD τ) none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25) Kt := by
  unfold bodyPre O₀
  iintro ⟨⟨HIt, HIw, HRt, #Hlev, HO, Hcr, HpR, HpS, Htk, HX, Hout, HS0, HS1, HS2, HS3, HS4, HS5, HS6, HS7, HS8, HvI, HvO, HvU⟩, Hk⟩
  rw [cc0_body_eq_skeleton]; unfold cc0_body_skel
  -- the four-quarter buffer in the pieces that travel
  ihave H0 := (Entails.of_eq (junk_whole (F := F) cc cc0_scratch0)) $$ HS0
  icases H0 with ⟨%f0, H0⟩
  ihave H4 := (r4_entry (F := F) cc f0) $$ H0
  icases H4 with ⟨Hown, HgZ, HgY, Hdg, HhZ, HhY⟩
  sl_exec

  icases Htk with ⟨Htb, Htk⟩
  icases HIt with ⟨#HIbpx, HIt⟩
  icases HRt with ⟨#HRbpx, HRt⟩
  iapply (sig_bar m cc _ (px cc) (dev1_eq cc) 0 (by decide) (owedL (List.drop 1 (paysL cc))) rfl) $$ [HO Htb HS2 HS4]
  · isplitr; · iexact HIbpx
    isplitl [HO]; · iexact HO
    isplitl [Htb]; · iexact Htb
    isplitl [HS2 HS4]
    · iapply (Entails.of_eq ((barPay_zero (F := F) (px cc)).trans (by rw [px_px])).symm)
      unfold giveX
      isplitl [HS2]; · iexact HS2
      iexact HS4
    · iexact HRbpx
  iintro HO
  sl_exec

  icases Htk with ⟨Htb, Htk⟩
  icases HIt with ⟨#HIbpz, HIt⟩
  icases HRt with ⟨#HRbpz, HRt⟩
  iapply (sig_bar m cc _ (pz cc) (dev2_eq cc) 2 (by decide) (owedL (List.drop 2 (paysL cc))) rfl) $$ [HO Htb HgZ HhZ]
  · isplitr; · iexact HIbpz
    isplitl [HO]; · iexact HO
    isplitl [Htb]; · iexact Htb
    isplitl [HgZ HhZ]
    · iapply (Entails.of_eq ((barPay_two (F := F) (pz cc)).trans (by rw [pz_pz])).symm)
      isplitl [HgZ]; · iexact HgZ
      iexact HhZ
    · iexact HRbpz
  iintro HO
  sl_exec

  icases Htk with ⟨Htb, Htk⟩
  icases HIt with ⟨#HIbpy, HIt⟩
  icases HRt with ⟨#HRbpy, HRt⟩
  iapply (sig_bar m cc _ (py cc) (dev3_eq cc) 1 (by decide) (owedL (List.drop 3 (paysL cc))) rfl) $$ [HO Htb HgY HhY]
  · isplitr; · iexact HIbpy
    isplitl [HO]; · iexact HO
    isplitl [Htb]; · iexact Htb
    isplitl [HgY HhY]
    · iapply (Entails.of_eq ((barPay_one (F := F) (py cc)).trans (by rw [py_py])).symm)
      isplitl [HgY]; · iexact HgY
      iexact HhY
    · iexact HRbpy
  iintro HO
  sl_exec
  -- the wait for the three neighbours
  icases Hcr with ⟨Hcb, Hcr⟩
  icases HpR with ⟨Hpb, HpR⟩
  icases HIw with ⟨#HIb, HIw⟩
  ihave Hmw := (mayWait_list (F := F) cc (.reg barS) (List.drop 3 (paysL cc)) (by decide)) $$ Hlev
  iapply (wait_bar m cc (by decide)) $$ [Hcb HO Hmw Hpb]
  · isplitr; · iexact HIb
    isplitl [Hcb]; · iexact Hcb
    isplitl [HO]; · iexact HO
    isplitl [Hmw]; · iexact Hmw
    iexact Hpb
  iintro ⟨HO, Hpb, -, Hgx, Hgy, Hgz⟩
  -- what they handed over: the x-neighbour's landing buffers chunk by chunk, the y- and z-neighbours' quarter and halves
  ihave Hgx := (Entails.of_eq (barPay_zero (F := F) cc)) $$ Hgx
  ihave Hgx := (giveX_rows (F := F) (px cc)) $$ Hgx
  icases Hgx with ⟨Hrbp, Hrb2p⟩
  ihave Hgy := (Entails.of_eq (barPay_one (F := F) cc)) $$ Hgy
  icases Hgy with ⟨HqY, HhYp⟩
  ihave Hgz := (Entails.of_eq (barPay_two (F := F) cc)) $$ Hgz
  icases Hgz with ⟨HqZ, HhZp⟩
  -- this device's staging buffers and send buffers chunk by chunk
  ihave H5 := (Entails.of_eq (junk_whole (F := F) cc cc0_scratch5)) $$ HS5
  icases H5 with ⟨%f5, H5⟩
  ihave H5 := (Entails.of_eq (stP_rows (F := F) cc fullShare f5)) $$ H5
  icases H5 with ⟨HP0, HP1, HP2, HP3, HP4, HP5, HP6, HP7⟩
  ihave H6 := (Entails.of_eq (junk_whole (F := F) cc cc0_scratch6)) $$ HS6
  icases H6 with ⟨%f6, H6⟩
  ihave H6 := (Entails.of_eq (stL_rows (F := F) cc fullShare f6)) $$ H6
  icases H6 with ⟨HL0, HL1, HL2, HL3, HL4, HL5, HL6, HL7⟩
  ihave H7 := (Entails.of_eq (junk_whole (F := F) cc cc0_scratch7)) $$ HS7
  icases H7 with ⟨%f7, H7⟩
  ihave H7 := (Entails.of_eq (stP2_rows (F := F) cc fullShare f7)) $$ H7
  icases H7 with ⟨HP20, HP21, HP22⟩
  ihave H8 := (Entails.of_eq (junk_whole (F := F) cc cc0_scratch8)) $$ HS8
  icases H8 with ⟨%f8, H8⟩
  ihave H8 := (Entails.of_eq (stL2_rows (F := F) cc fullShare f8)) $$ H8
  icases H8 with ⟨HL20, HL21, HL22⟩
  ihave H1 := (Entails.of_eq (junk_whole (F := F) cc cc0_scratch1)) $$ HS1
  icases H1 with ⟨%f1, H1⟩
  ihave H1 := (Entails.of_eq (sb_rows (F := F) cc fullShare f1)) $$ H1
  icases H1 with ⟨HB0, HB1, HB2, HB3, HB4, HB5, HB6, HB7⟩
  ihave H3 := (Entails.of_eq (junk_whole (F := F) cc cc0_scratch3)) $$ HS3
  icases H3 with ⟨%f3, H3⟩
  ihave H3 := (Entails.of_eq (sb2_rows (F := F) cc fullShare f3)) $$ H3
  icases H3 with ⟨HB20, HB21, HB22⟩
  -- the counters of the 22 copies into the staging buffers
  icases HvI with ⟨Hv0, Hv8, Hv1, Hv9, Hv2, Hv10, Hv3, Hv11, Hv4, Hv12, Hv5, Hv13, Hv6, Hv14, Hv7, Hv15, Hv16, Hv19, Hv17, Hv20, Hv18, Hv21⟩
  sl_exec
  -- chunk 0 across x: wait for its copy into the staging buffer, round it into the send buffer, send it
  have hled3 : ∀ (s : DmaSem sig), lvJ s.val = 0 → ((levAts LL lvv : sProp 𝕄) ⊢ MayWait (cc : Thread nD τ) (.dma s) () (owedL (List.drop 3 (paysL cc)))) :=
    fun s hs => mayWait_local (F := F) cc s hs _ (by decide)
  sl_exec
  clear hled3
  ihave HB0 := (congr (F := F) (sbR 0) cc fullShare (dev.sl.HB0_w1 m f1) (sb m cc) (fun i hi => glue_sb m cc 0 _ (k0_off1_inb cc) (k0_off1_eq cc) f1 i hi)) $$ HB0
  -- the copy
  icases Htk with ⟨Hts, Htr, Htk⟩
  icases HIt with ⟨#HIc22, #HIr, HIt⟩
  icases HRt with ⟨#HRs, #HRr, HRt⟩
  icases Hrbp with ⟨⟨%fd, Hd⟩, Hrbp⟩
  iapply (send_x m cc _ (dev4_eq cc) 0 fd (owedL (List.drop 4 (paysL cc))) rfl _) $$ [HB0 Hd HO Hts Htr]
  · isplitr; · iexact HIc22
    isplitr; · iexact HIr
    isplitl [HB0]; · iexact HB0
    isplitl [Hd]; · iexact Hd
    isplitl [HO]; · iexact HO
    isplitl [Hts]; · iexact Hts
    isplitr; · iexact HRs
    isplitl [Htr]; · iexact Htr
    iexact HRr
  iintro ⟨Hcxs0, HO⟩
  iclear HIr HRs HRr
  -- chunk 1 across x: wait for its copy into the staging buffer, round it into the send buffer, send it
  have hled4 : ∀ (s : DmaSem sig), lvJ s.val = 0 → ((levAts LL lvv : sProp 𝕄) ⊢ MayWait (cc : Thread nD τ) (.dma s) () (owedL (List.drop 4 (paysL cc)))) :=
    fun s hs => mayWait_local (F := F) cc s hs _ (by decide)
  sl_exec
  clear hled4
  ihave HB1 := (congr (F := F) (sbR 1) cc fullShare (dev.sl.HB1_w1 m f1) (sb m cc) (fun i hi => glue_sb m cc 1 _ (k0_off3_inb cc) (k0_off3_eq cc) f1 i hi)) $$ HB1
  -- the copy
  icases Htk with ⟨Hts, Htr, Htk⟩
  icases HIt with ⟨#HIc23, #HIr, HIt⟩
  icases HRt with ⟨#HRs, #HRr, HRt⟩
  icases Hrbp with ⟨⟨%fd, Hd⟩, Hrbp⟩
  iapply (send_x m cc _ (dev5_eq cc) 1 fd (owedL (List.drop 5 (paysL cc))) rfl _) $$ [HB1 Hd HO Hts Htr]
  · isplitr; · iexact HIc23
    isplitr; · iexact HIr
    isplitl [HB1]; · iexact HB1
    isplitl [Hd]; · iexact Hd
    isplitl [HO]; · iexact HO
    isplitl [Hts]; · iexact Hts
    isplitr; · iexact HRs
    isplitl [Htr]; · iexact Htr
    iexact HRr
  iintro ⟨Hcxs1, HO⟩
  iclear HIr HRs HRr
  -- chunk 2 across x: wait for its copy into the staging buffer, round it into the send buffer, send it
  have hled5 : ∀ (s : DmaSem sig), lvJ s.val = 0 → ((levAts LL lvv : sProp 𝕄) ⊢ MayWait (cc : Thread nD τ) (.dma s) () (owedL (List.drop 5 (paysL cc)))) :=
    fun s hs => mayWait_local (F := F) cc s hs _ (by decide)
  sl_exec
  clear hled5
  ihave HB2 := (congr (F := F) (sbR 2) cc fullShare (dev.sl.HB2_w1 m f1) (sb m cc) (fun i hi => glue_sb m cc 2 _ (k0_off5_inb cc) (k0_off5_eq cc) f1 i hi)) $$ HB2
  -- the copy
  icases Htk with ⟨Hts, Htr, Htk⟩
  icases HIt with ⟨#HIc24, #HIr, HIt⟩
  icases HRt with ⟨#HRs, #HRr, HRt⟩
  icases Hrbp with ⟨⟨%fd, Hd⟩, Hrbp⟩
  iapply (send_x m cc _ (dev6_eq cc) 2 fd (owedL (List.drop 6 (paysL cc))) rfl _) $$ [HB2 Hd HO Hts Htr]
  · isplitr; · iexact HIc24
    isplitr; · iexact HIr
    isplitl [HB2]; · iexact HB2
    isplitl [Hd]; · iexact Hd
    isplitl [HO]; · iexact HO
    isplitl [Hts]; · iexact Hts
    isplitr; · iexact HRs
    isplitl [Htr]; · iexact Htr
    iexact HRr
  iintro ⟨Hcxs2, HO⟩
  iclear HIr HRs HRr
  -- chunk 3 across x: wait for its copy into the staging buffer, round it into the send buffer, send it
  have hled6 : ∀ (s : DmaSem sig), lvJ s.val = 0 → ((levAts LL lvv : sProp 𝕄) ⊢ MayWait (cc : Thread nD τ) (.dma s) () (owedL (List.drop 6 (paysL cc)))) :=
    fun s hs => mayWait_local (F := F) cc s hs _ (by decide)
  sl_exec
  clear hled6
  ihave HB3 := (congr (F := F) (sbR 3) cc fullShare (dev.sl.HB3_w1 m f1) (sb m cc) (fun i hi => glue_sb m cc 3 _ (k0_off7_inb cc) (k0_off7_eq cc) f1 i hi)) $$ HB3
  -- the copy
  icases Htk with ⟨Hts, Htr, Htk⟩
  icases HIt with ⟨#HIc25, #HIr, HIt⟩
  icases HRt with ⟨#HRs, #HRr, HRt⟩
  icases Hrbp with ⟨⟨%fd, Hd⟩, Hrbp⟩
  iapply (send_x m cc _ (dev7_eq cc) 3 fd (owedL (List.drop 7 (paysL cc))) rfl _) $$ [HB3 Hd HO Hts Htr]
  · isplitr; · iexact HIc25
    isplitr; · iexact HIr
    isplitl [HB3]; · iexact HB3
    isplitl [Hd]; · iexact Hd
    isplitl [HO]; · iexact HO
    isplitl [Hts]; · iexact Hts
    isplitr; · iexact HRs
    isplitl [Htr]; · iexact Htr
    iexact HRr
  iintro ⟨Hcxs3, HO⟩
  iclear HIr HRs HRr
  -- chunk 4 across x: wait for its copy into the staging buffer, round it into the send buffer, send it
  have hled7 : ∀ (s : DmaSem sig), lvJ s.val = 0 → ((levAts LL lvv : sProp 𝕄) ⊢ MayWait (cc : Thread nD τ) (.dma s) () (owedL (List.drop 7 (paysL cc)))) :=
    fun s hs => mayWait_local (F := F) cc s hs _ (by decide)
  sl_exec
  clear hled7
  ihave HB4 := (congr (F := F) (sbR 4) cc fullShare (dev.sl.HB4_w1 m f1) (sb m cc) (fun i hi => glue_sb m cc 4 _ (k0_off9_inb cc) (k0_off9_eq cc) f1 i hi)) $$ HB4
  -- the copy
  icases Htk with ⟨Hts, Htr, Htk⟩
  icases HIt with ⟨#HIc26, #HIr, HIt⟩
  icases HRt with ⟨#HRs, #HRr, HRt⟩
  icases Hrbp with ⟨⟨%fd, Hd⟩, Hrbp⟩
  iapply (send_x m cc _ (dev8_eq cc) 4 fd (owedL (List.drop 8 (paysL cc))) rfl _) $$ [HB4 Hd HO Hts Htr]
  · isplitr; · iexact HIc26
    isplitr; · iexact HIr
    isplitl [HB4]; · iexact HB4
    isplitl [Hd]; · iexact Hd
    isplitl [HO]; · iexact HO
    isplitl [Hts]; · iexact Hts
    isplitr; · iexact HRs
    isplitl [Htr]; · iexact Htr
    iexact HRr
  iintro ⟨Hcxs4, HO⟩
  iclear HIr HRs HRr
  -- chunk 5 across x: wait for its copy into the staging buffer, round it into the send buffer, send it
  have hled8 : ∀ (s : DmaSem sig), lvJ s.val = 0 → ((levAts LL lvv : sProp 𝕄) ⊢ MayWait (cc : Thread nD τ) (.dma s) () (owedL (List.drop 8 (paysL cc)))) :=
    fun s hs => mayWait_local (F := F) cc s hs _ (by decide)
  sl_exec
  clear hled8
  ihave HB5 := (congr (F := F) (sbR 5) cc fullShare (dev.sl.HB5_w1 m f1) (sb m cc) (fun i hi => glue_sb m cc 5 _ (k0_off11_inb cc) (k0_off11_eq cc) f1 i hi)) $$ HB5
  -- the copy
  icases Htk with ⟨Hts, Htr, Htk⟩
  icases HIt with ⟨#HIc27, #HIr, HIt⟩
  icases HRt with ⟨#HRs, #HRr, HRt⟩
  icases Hrbp with ⟨⟨%fd, Hd⟩, Hrbp⟩
  iapply (send_x m cc _ (dev9_eq cc) 5 fd (owedL (List.drop 9 (paysL cc))) rfl _) $$ [HB5 Hd HO Hts Htr]
  · isplitr; · iexact HIc27
    isplitr; · iexact HIr
    isplitl [HB5]; · iexact HB5
    isplitl [Hd]; · iexact Hd
    isplitl [HO]; · iexact HO
    isplitl [Hts]; · iexact Hts
    isplitr; · iexact HRs
    isplitl [Htr]; · iexact Htr
    iexact HRr
  iintro ⟨Hcxs5, HO⟩
  iclear HIr HRs HRr
  -- chunk 6 across x: wait for its copy into the staging buffer, round it into the send buffer, send it
  have hled9 : ∀ (s : DmaSem sig), lvJ s.val = 0 → ((levAts LL lvv : sProp 𝕄) ⊢ MayWait (cc : Thread nD τ) (.dma s) () (owedL (List.drop 9 (paysL cc)))) :=
    fun s hs => mayWait_local (F := F) cc s hs _ (by decide)
  sl_exec
  clear hled9
  ihave HB6 := (congr (F := F) (sbR 6) cc fullShare (dev.sl.HB6_w1 m f1) (sb m cc) (fun i hi => glue_sb m cc 6 _ (k0_off13_inb cc) (k0_off13_eq cc) f1 i hi)) $$ HB6
  -- the copy
  icases Htk with ⟨Hts, Htr, Htk⟩
  icases HIt with ⟨#HIc28, #HIr, HIt⟩
  icases HRt with ⟨#HRs, #HRr, HRt⟩
  icases Hrbp with ⟨⟨%fd, Hd⟩, Hrbp⟩
  iapply (send_x m cc _ (dev10_eq cc) 6 fd (owedL (List.drop 10 (paysL cc))) rfl _) $$ [HB6 Hd HO Hts Htr]
  · isplitr; · iexact HIc28
    isplitr; · iexact HIr
    isplitl [HB6]; · iexact HB6
    isplitl [Hd]; · iexact Hd
    isplitl [HO]; · iexact HO
    isplitl [Hts]; · iexact Hts
    isplitr; · iexact HRs
    isplitl [Htr]; · iexact Htr
    iexact HRr
  iintro ⟨Hcxs6, HO⟩
  iclear HIr HRs HRr
  -- chunk 7 across x: wait for its copy into the staging buffer, round it into the send buffer, send it
  have hled10 : ∀ (s : DmaSem sig), lvJ s.val = 0 → ((levAts LL lvv : sProp 𝕄) ⊢ MayWait (cc : Thread nD τ) (.dma s) () (owedL (List.drop 10 (paysL cc)))) :=
    fun s hs => mayWait_local (F := F) cc s hs _ (by decide)
  sl_exec
  clear hled10
  ihave HB7 := (congr (F := F) (sbR 7) cc fullShare (dev.sl.HB7_w1 m f1) (sb m cc) (fun i hi => glue_sb m cc 7 _ (k0_off15_inb cc) (k0_off15_eq cc) f1 i hi)) $$ HB7
  -- the copy
  icases Htk with ⟨Hts, Htr, Htk⟩
  icases HIt with ⟨#HIc29, #HIr, HIt⟩
  icases HRt with ⟨#HRs, #HRr, HRt⟩
  icases Hrbp with ⟨%fd, Hd⟩
  iapply (send_x m cc _ (dev11_eq cc) 7 fd (owedL (List.drop 11 (paysL cc))) rfl _) $$ [HB7 Hd HO Hts Htr]
  · isplitr; · iexact HIc29
    isplitr; · iexact HIr
    isplitl [HB7]; · iexact HB7
    isplitl [Hd]; · iexact Hd
    isplitl [HO]; · iexact HO
    isplitl [Hts]; · iexact Hts
    isplitr; · iexact HRs
    isplitl [Htr]; · iexact Htr
    iexact HRr
  iintro ⟨Hcxs7, HO⟩
  iclear HIr HRs HRr
  -- chunk 0 across x (the diagonal quarter's): wait for its copy into the staging buffer, round it into the send buffer, send it
  have hled11 : ∀ (s : DmaSem sig), lvJ s.val = 0 → ((levAts LL lvv : sProp 𝕄) ⊢ MayWait (cc : Thread nD τ) (.dma s) () (owedL (List.drop 11 (paysL cc)))) :=
    fun s hs => mayWait_local (F := F) cc s hs _ (by decide)
  sl_exec
  clear hled11
  ihave HB20 := (congr (F := F) (sb2R 0) cc fullShare (dev.sl.HB20_w1 m f3) (sb2 m cc) (fun i hi => glue_sb2 m cc 0 _ (k0_off17_inb cc) (k0_off17_eq cc) f3 i hi)) $$ HB20
  -- the copy
  icases Htk with ⟨Hts, Htr, Htk⟩
  icases HIt with ⟨#HIc38, #HIr, HIt⟩
  icases HRt with ⟨#HRs, #HRr, HRt⟩
  icases Hrb2p with ⟨⟨%fd, Hd⟩, Hrb2p⟩
  iapply (send_x2 m cc _ (dev12_eq cc) 0 fd (owedL (List.drop 12 (paysL cc))) rfl _) $$ [HB20 Hd HO Hts Htr]
  · isplitr; · iexact HIc38
    isplitr; · iexact HIr
    isplitl [HB20]; · iexact HB20
    isplitl [Hd]; · iexact Hd
    isplitl [HO]; · iexact HO
    isplitl [Hts]; · iexact Hts
    isplitr; · iexact HRs
    isplitl [Htr]; · iexact Htr
    iexact HRr
  iintro ⟨Hcds0, HO⟩
  iclear HIr HRs HRr
  -- chunk 1 across x (the diagonal quarter's): wait for its copy into the staging buffer, round it into the send buffer, send it
  have hled12 : ∀ (s : DmaSem sig), lvJ s.val = 0 → ((levAts LL lvv : sProp 𝕄) ⊢ MayWait (cc : Thread nD τ) (.dma s) () (owedL (List.drop 12 (paysL cc)))) :=
    fun s hs => mayWait_local (F := F) cc s hs _ (by decide)
  sl_exec
  clear hled12
  ihave HB21 := (congr (F := F) (sb2R 1) cc fullShare (dev.sl.HB21_w1 m f3) (sb2 m cc) (fun i hi => glue_sb2 m cc 1 _ (k0_off19_inb cc) (k0_off19_eq cc) f3 i hi)) $$ HB21
  -- the copy
  icases Htk with ⟨Hts, Htr, Htk⟩
  icases HIt with ⟨#HIc39, #HIr, HIt⟩
  icases HRt with ⟨#HRs, #HRr, HRt⟩
  icases Hrb2p with ⟨⟨%fd, Hd⟩, Hrb2p⟩
  iapply (send_x2 m cc _ (dev13_eq cc) 1 fd (owedL (List.drop 13 (paysL cc))) rfl _) $$ [HB21 Hd HO Hts Htr]
  · isplitr; · iexact HIc39
    isplitr; · iexact HIr
    isplitl [HB21]; · iexact HB21
    isplitl [Hd]; · iexact Hd
    isplitl [HO]; · iexact HO
    isplitl [Hts]; · iexact Hts
    isplitr; · iexact HRs
    isplitl [Htr]; · iexact Htr
    iexact HRr
  iintro ⟨Hcds1, HO⟩
  iclear HIr HRs HRr
  -- chunk 2 across x (the diagonal quarter's): wait for its copy into the staging buffer, round it into the send buffer, send it
  have hled13 : ∀ (s : DmaSem sig), lvJ s.val = 0 → ((levAts LL lvv : sProp 𝕄) ⊢ MayWait (cc : Thread nD τ) (.dma s) () (owedL (List.drop 13 (paysL cc)))) :=
    fun s hs => mayWait_local (F := F) cc s hs _ (by decide)
  sl_exec
  clear hled13
  ihave HB22 := (congr (F := F) (sb2R 2) cc fullShare (dev.sl.HB22_w1 m f3) (sb2 m cc) (fun i hi => glue_sb2 m cc 2 _ (k0_off21_inb cc) (k0_off21_eq cc) f3 i hi)) $$ HB22
  -- the copy
  icases Htk with ⟨Hts, Htr, Htk⟩
  icases HIt with ⟨#HIc40, #HIr, HIt⟩
  icases HRt with ⟨#HRs, #HRr, HRt⟩
  icases Hrb2p with ⟨%fd, Hd⟩
  iapply (send_x2 m cc _ (dev14_eq cc) 2 fd (owedL (List.drop 14 (paysL cc))) rfl _) $$ [HB22 Hd HO Hts Htr]
  · isplitr; · iexact HIc40
    isplitr; · iexact HIr
    isplitl [HB22]; · iexact HB22
    isplitl [Hd]; · iexact Hd
    isplitl [HO]; · iexact HO
    isplitl [Hts]; · iexact Hts
    isplitr; · iexact HRs
    isplitl [Htr]; · iexact Htr
    iexact HRr
  iintro ⟨Hcds2, HO⟩
  iclear HIr HRs HRr
  sl_exec
  -- the result array in its 32 blocks
  ihave Hout := (out_split_junk (F := F) cc) $$ Hout
  icases Hout with ⟨⟨%g00, HU00⟩, ⟨%g01, HU01⟩, ⟨%g02, HU02⟩, ⟨%g03, HU03⟩, ⟨%g10, HU10⟩, ⟨%g11, HU11⟩, ⟨%g12, HU12⟩, ⟨%g13, HU13⟩, ⟨%g20, HU20⟩, ⟨%g21, HU21⟩, ⟨%g22, HU22⟩, ⟨%g23, HU23⟩, ⟨%g30, HU30⟩, ⟨%g31, HU31⟩, ⟨%g32, HU32⟩, ⟨%g33, HU33⟩, ⟨%g40, HU40⟩, ⟨%g41, HU41⟩, ⟨%g42, HU42⟩, ⟨%g43, HU43⟩, ⟨%g50, HU50⟩, ⟨%g51, HU51⟩, ⟨%g52, HU52⟩, ⟨%g53, HU53⟩, ⟨%g60, HU60⟩, ⟨%g61, HU61⟩, ⟨%g62, HU62⟩, ⟨%g63, HU63⟩, ⟨%g70, HU70⟩, ⟨%g71, HU71⟩, ⟨%g72, HU72⟩, ⟨%g73, HU73⟩⟩
  ihave HqZ := (Entails.of_eq (giveQ_eq (F := F) (pz cc) (zqF (pz cc)))) $$ HqZ
  ihave HqY := (Entails.of_eq (giveQ_eq (F := F) (py cc) (yqF (py cc)))) $$ HqY
  ihave HhZp := (Entails.of_eq (giveH_eq (F := F) (pz cc) 0)) $$ HhZp
  ihave HhYp := (Entails.of_eq (giveH_eq (F := F) (py cc) 1)) $$ HhYp
  -- step 0 of the main loop: the x-neighbour's chunk 0 has landed
  icases Hcr with ⟨Hc, Hcr⟩
  icases HpR with ⟨Hp, HpR⟩
  icases HIw with ⟨#HIc30, HIw⟩
  ihave Hmw := (mayWait_list (F := F) cc (dsem (⟨30, by decide⟩ : Fin 140)) (List.drop 14 (paysL cc)) (by decide)) $$ Hlev
  iapply (wait_a1_at m cc _ 0 rfl) $$ [Hc HO Hmw Hp]
  · isplitr; · iexact HIc30
    isplitl [Hc]; · iexact Hc
    isplitl [HO]; · iexact HO
    isplitl [Hmw]; · iexact Hmw
    iexact Hp
  iintro ⟨HO, Hq30, -, Hrb0⟩
  icases Hown with ⟨Ho0, Hown⟩
  have hled14 : ∀ (s : DmaSem sig), lvJ s.val = 0 → ((levAts LL lvv : sProp 𝕄) ⊢ MayWait (cc : Thread nD τ) (.dma s) () (owedL (List.drop 14 (paysL cc)))) :=
    fun s hs => mayWait_local (F := F) cc s hs _ (by decide)
  sl_exec
  clear hled14
  ihave Ho0 := (congr (F := F) (r4R (mqF cc) 0) cc fullShare (dev.sl.Ho0_w1 m f0) (r4 m cc) (fun i hi => glue_own m cc 0 _ (k0_off2_inb cc) (k0_off2_eq cc) _ (k0_off23_inb cc) (k0_off23_eq cc) f0 i hi)) $$ Ho0
  ihave Ho0 := (Entails.of_eq (share_ZYK_eq (F := F) (r4R (mqF cc) 0) cc (r4 m cc))) $$ Ho0
  icases Ho0 with ⟨HoZ0, HoY0, HoK0⟩
  -- own chunk 0 to the z-neighbour
  icases Htk with ⟨Hts, Htr, Htk⟩
  icases HIt with ⟨#HIc44, #HIr, HIt⟩
  icases HRt with ⟨#HRs, #HRr, HRt⟩
  icases HqZ with ⟨⟨%fd, Hd⟩, HqZ⟩
  iapply (send_z_at m cc _ (dev15_eq cc) 0 _ _ (k0_off24_eq cc) fd (owedL (List.drop 15 (paysL cc))) rfl _) $$ [HoZ0 Hd HO Hts Htr]
  · isplitr; · iexact HIc44
    isplitr; · iexact HIr
    isplitl [HoZ0]; · iexact HoZ0
    isplitl [Hd]; · iexact Hd
    isplitl [HO]; · iexact HO
    isplitl [Hts]; · iexact Hts
    isplitr; · iexact HRs
    isplitl [Htr]; · iexact Htr
    iexact HRr
  iintro ⟨Hczs0, HO⟩
  iclear HIr HRs HRr
  sl_exec
  -- own chunk 0 to the y-neighbour
  icases Htk with ⟨Hts, Htr, Htk⟩
  icases HIt with ⟨#HIc60, #HIr, HIt⟩
  icases HRt with ⟨#HRs, #HRr, HRt⟩
  icases HqY with ⟨⟨%fd, Hd⟩, HqY⟩
  iapply (send_y_at m cc _ (dev16_eq cc) 0 _ _ (k0_off24_eq cc) fd (owedL (List.drop 16 (paysL cc))) rfl _) $$ [HoY0 Hd HO Hts Htr]
  · isplitr; · iexact HIc60
    isplitr; · iexact HIr
    isplitl [HoY0]; · iexact HoY0
    isplitl [Hd]; · iexact Hd
    isplitl [HO]; · iexact HO
    isplitl [Hts]; · iexact Hts
    isplitr; · iexact HRs
    isplitl [Htr]; · iexact Htr
    iexact HRr
  iintro ⟨Hcys0, HO⟩
  iclear HIr HRs HRr
  sl_exec
  -- step 1 of the main loop: the x-neighbour's chunk 1 has landed
  icases Hcr with ⟨Hc, Hcr⟩
  icases HpR with ⟨Hp, HpR⟩
  icases HIw with ⟨#HIc31, HIw⟩
  ihave Hmw := (mayWait_list (F := F) cc (dsem (⟨31, by decide⟩ : Fin 140)) (List.drop 16 (paysL cc)) (by decide)) $$ Hlev
  iapply (wait_a1_at m cc _ 1 rfl) $$ [Hc HO Hmw Hp]
  · isplitr; · iexact HIc31
    isplitl [Hc]; · iexact Hc
    isplitl [HO]; · iexact HO
    isplitl [Hmw]; · iexact Hmw
    iexact Hp
  iintro ⟨HO, Hq31, -, Hrb1⟩
  icases Hown with ⟨Ho1, Hown⟩
  have hled16 : ∀ (s : DmaSem sig), lvJ s.val = 0 → ((levAts LL lvv : sProp 𝕄) ⊢ MayWait (cc : Thread nD τ) (.dma s) () (owedL (List.drop 16 (paysL cc)))) :=
    fun s hs => mayWait_local (F := F) cc s hs _ (by decide)
  sl_exec
  clear hled16
  ihave Ho1 := (congr (F := F) (r4R (mqF cc) 1) cc fullShare (dev.sl.Ho1_w1 m f0) (r4 m cc) (fun i hi => glue_own m cc 1 _ (k0_off4_inb cc) (k0_off4_eq cc) _ (k0_off25_inb cc) (k0_off25_eq cc) f0 i hi)) $$ Ho1
  ihave Ho1 := (Entails.of_eq (share_ZYK_eq (F := F) (r4R (mqF cc) 1) cc (r4 m cc))) $$ Ho1
  icases Ho1 with ⟨HoZ1, HoY1, HoK1⟩
  -- own chunk 1 to the z-neighbour
  icases Htk with ⟨Hts, Htr, Htk⟩
  icases HIt with ⟨#HIc45, #HIr, HIt⟩
  icases HRt with ⟨#HRs, #HRr, HRt⟩
  icases HqZ with ⟨⟨%fd, Hd⟩, HqZ⟩
  iapply (send_z_at m cc _ (dev17_eq cc) 1 _ _ (k0_off26_eq cc) fd (owedL (List.drop 17 (paysL cc))) rfl _) $$ [HoZ1 Hd HO Hts Htr]
  · isplitr; · iexact HIc45
    isplitr; · iexact HIr
    isplitl [HoZ1]; · iexact HoZ1
    isplitl [Hd]; · iexact Hd
    isplitl [HO]; · iexact HO
    isplitl [Hts]; · iexact Hts
    isplitr; · iexact HRs
    isplitl [Htr]; · iexact Htr
    iexact HRr
  iintro ⟨Hczs1, HO⟩
  iclear HIr HRs HRr
  sl_exec
  -- own chunk 1 to the y-neighbour
  icases Htk with ⟨Hts, Htr, Htk⟩
  icases HIt with ⟨#HIc61, #HIr, HIt⟩
  icases HRt with ⟨#HRs, #HRr, HRt⟩
  icases HqY with ⟨⟨%fd, Hd⟩, HqY⟩
  iapply (send_y_at m cc _ (dev18_eq cc) 1 _ _ (k0_off26_eq cc) fd (owedL (List.drop 18 (paysL cc))) rfl _) $$ [HoY1 Hd HO Hts Htr]
  · isplitr; · iexact HIc61
    isplitr; · iexact HIr
    isplitl [HoY1]; · iexact HoY1
    isplitl [Hd]; · iexact Hd
    isplitl [HO]; · iexact HO
    isplitl [Hts]; · iexact Hts
    isplitr; · iexact HRs
    isplitl [Htr]; · iexact Htr
    iexact HRr
  iintro ⟨Hcys1, HO⟩
  iclear HIr HRs HRr
  sl_exec
  -- the z-neighbour's chunk 0 has landed
  icases Hcr with ⟨Hc, Hcr⟩
  icases HpR with ⟨Hp, HpR⟩
  icases HIw with ⟨#HIc52, HIw⟩
  ihave Hmw := (mayWait_list (F := F) cc (dsem (⟨52, by decide⟩ : Fin 140)) (List.drop 18 (paysL cc)) (by decide)) $$ Hlev
  iapply (wait_a5_at m cc _ 0 rfl) $$ [Hc HO Hmw Hp]
  · isplitr; · iexact HIc52
    isplitl [Hc]; · iexact Hc
    isplitl [HO]; · iexact HO
    isplitl [Hmw]; · iexact Hmw
    iexact Hp
  iintro ⟨HO, Hq52, -, Hz0⟩
  sl_exec
  -- the y-neighbour's chunk 0 has landed
  icases Hcr with ⟨Hc, Hcr⟩
  icases HpR with ⟨Hp, HpR⟩
  icases HIw with ⟨#HIc68, HIw⟩
  ihave Hmw := (mayWait_list (F := F) cc (dsem (⟨68, by decide⟩ : Fin 140)) (List.drop 18 (paysL cc)) (by decide)) $$ Hlev
  iapply (wait_a7_at m cc _ 0 rfl) $$ [Hc HO Hmw Hp]
  · isplitr; · iexact HIc68
    isplitl [Hc]; · iexact Hc
    isplitl [HO]; · iexact HO
    isplitl [Hmw]; · iexact Hmw
    iexact Hp
  iintro ⟨HO, Hq68, -, Hy0⟩
  sl_exec
  -- step 2 of the main loop: the x-neighbour's chunk 2 has landed
  icases Hcr with ⟨Hc, Hcr⟩
  icases HpR with ⟨Hp, HpR⟩
  icases HIw with ⟨#HIc32, HIw⟩
  ihave Hmw := (mayWait_list (F := F) cc (dsem (⟨32, by decide⟩ : Fin 140)) (List.drop 18 (paysL cc)) (by decide)) $$ Hlev
  iapply (wait_a1_at m cc _ 2 rfl) $$ [Hc HO Hmw Hp]
  · isplitr; · iexact HIc32
    isplitl [Hc]; · iexact Hc
    isplitl [HO]; · iexact HO
    isplitl [Hmw]; · iexact Hmw
    iexact Hp
  iintro ⟨HO, Hq32, -, Hrb2⟩
  icases Hown with ⟨Ho2, Hown⟩
  have hled18 : ∀ (s : DmaSem sig), lvJ s.val = 0 → ((levAts LL lvv : sProp 𝕄) ⊢ MayWait (cc : Thread nD τ) (.dma s) () (owedL (List.drop 18 (paysL cc)))) :=
    fun s hs => mayWait_local (F := F) cc s hs _ (by decide)
  sl_exec
  clear hled18
  ihave Ho2 := (congr (F := F) (r4R (mqF cc) 2) cc fullShare (dev.sl.Ho2_w1 m f0) (r4 m cc) (fun i hi => glue_own m cc 2 _ (k0_off6_inb cc) (k0_off6_eq cc) _ (k0_off27_inb cc) (k0_off27_eq cc) f0 i hi)) $$ Ho2
  ihave Ho2 := (Entails.of_eq (share_ZYK_eq (F := F) (r4R (mqF cc) 2) cc (r4 m cc))) $$ Ho2
  icases Ho2 with ⟨HoZ2, HoY2, HoK2⟩
  -- own chunk 2 to the z-neighbour
  icases Htk with ⟨Hts, Htr, Htk⟩
  icases HIt with ⟨#HIc46, #HIr, HIt⟩
  icases HRt with ⟨#HRs, #HRr, HRt⟩
  icases HqZ with ⟨⟨%fd, Hd⟩, HqZ⟩
  iapply (send_z_at m cc _ (dev19_eq cc) 2 _ _ (k0_off28_eq cc) fd (owedL (List.drop 19 (paysL cc))) rfl _) $$ [HoZ2 Hd HO Hts Htr]
  · isplitr; · iexact HIc46
    isplitr; · iexact HIr
    isplitl [HoZ2]; · iexact HoZ2
    isplitl [Hd]; · iexact Hd
    isplitl [HO]; · iexact HO
    isplitl [Hts]; · iexact Hts
    isplitr; · iexact HRs
    isplitl [Htr]; · iexact Htr
    iexact HRr
  iintro ⟨Hczs2, HO⟩
  iclear HIr HRs HRr
  sl_exec
  -- own chunk 2 to the y-neighbour
  icases Htk with ⟨Hts, Htr, Htk⟩
  icases HIt with ⟨#HIc62, #HIr, HIt⟩
  icases HRt with ⟨#HRs, #HRr, HRt⟩
  icases HqY with ⟨⟨%fd, Hd⟩, HqY⟩
  iapply (send_y_at m cc _ (dev20_eq cc) 2 _ _ (k0_off28_eq cc) fd (owedL (List.drop 20 (paysL cc))) rfl _) $$ [HoY2 Hd HO Hts Htr]
  · isplitr; · iexact HIc62
    isplitr; · iexact HIr
    isplitl [HoY2]; · iexact HoY2
    isplitl [Hd]; · iexact Hd
    isplitl [HO]; · iexact HO
    isplitl [Hts]; · iexact Hts
    isplitr; · iexact HRs
    isplitl [Htr]; · iexact Htr
    iexact HRr
  iintro ⟨Hcys2, HO⟩
  iclear HIr HRs HRr
  sl_exec
  -- the z-neighbour's chunk 1 has landed
  icases Hcr with ⟨Hc, Hcr⟩
  icases HpR with ⟨Hp, HpR⟩
  icases HIw with ⟨#HIc53, HIw⟩
  ihave Hmw := (mayWait_list (F := F) cc (dsem (⟨53, by decide⟩ : Fin 140)) (List.drop 20 (paysL cc)) (by decide)) $$ Hlev
  iapply (wait_a5_at m cc _ 1 rfl) $$ [Hc HO Hmw Hp]
  · isplitr; · iexact HIc53
    isplitl [Hc]; · iexact Hc
    isplitl [HO]; · iexact HO
    isplitl [Hmw]; · iexact Hmw
    iexact Hp
  iintro ⟨HO, Hq53, -, Hz1⟩
  sl_exec
  -- the y-neighbour's chunk 1 has landed
  icases Hcr with ⟨Hc, Hcr⟩
  icases HpR with ⟨Hp, HpR⟩
  icases HIw with ⟨#HIc69, HIw⟩
  ihave Hmw := (mayWait_list (F := F) cc (dsem (⟨69, by decide⟩ : Fin 140)) (List.drop 20 (paysL cc)) (by decide)) $$ Hlev
  iapply (wait_a7_at m cc _ 1 rfl) $$ [Hc HO Hmw Hp]
  · isplitr; · iexact HIc69
    isplitl [Hc]; · iexact Hc
    isplitl [HO]; · iexact HO
    isplitl [Hmw]; · iexact Hmw
    iexact Hp
  iintro ⟨HO, Hq69, -, Hy1⟩
  sl_exec
  -- step 3 of the main loop: the x-neighbour's chunk 3 has landed
  icases Hcr with ⟨Hc, Hcr⟩
  icases HpR with ⟨Hp, HpR⟩
  icases HIw with ⟨#HIc33, HIw⟩
  ihave Hmw := (mayWait_list (F := F) cc (dsem (⟨33, by decide⟩ : Fin 140)) (List.drop 20 (paysL cc)) (by decide)) $$ Hlev
  iapply (wait_a1_at m cc _ 3 rfl) $$ [Hc HO Hmw Hp]
  · isplitr; · iexact HIc33
    isplitl [Hc]; · iexact Hc
    isplitl [HO]; · iexact HO
    isplitl [Hmw]; · iexact Hmw
    iexact Hp
  iintro ⟨HO, Hq33, -, Hrb3⟩
  icases Hown with ⟨Ho3, Hown⟩
  have hled20 : ∀ (s : DmaSem sig), lvJ s.val = 0 → ((levAts LL lvv : sProp 𝕄) ⊢ MayWait (cc : Thread nD τ) (.dma s) () (owedL (List.drop 20 (paysL cc)))) :=
    fun s hs => mayWait_local (F := F) cc s hs _ (by decide)
  sl_exec
  clear hled20
  ihave Ho3 := (congr (F := F) (r4R (mqF cc) 3) cc fullShare (dev.sl.Ho3_w1 m f0) (r4 m cc) (fun i hi => glue_own m cc 3 _ (k0_off8_inb cc) (k0_off8_eq cc) _ (k0_off29_inb cc) (k0_off29_eq cc) f0 i hi)) $$ Ho3
  ihave Ho3 := (Entails.of_eq (share_ZYK_eq (F := F) (r4R (mqF cc) 3) cc (r4 m cc))) $$ Ho3
  icases Ho3 with ⟨HoZ3, HoY3, HoK3⟩
  -- own chunk 3 to the z-neighbour
  icases Htk with ⟨Hts, Htr, Htk⟩
  icases HIt with ⟨#HIc47, #HIr, HIt⟩
  icases HRt with ⟨#HRs, #HRr, HRt⟩
  icases HqZ with ⟨⟨%fd, Hd⟩, HqZ⟩
  iapply (send_z_at m cc _ (dev21_eq cc) 3 _ _ (k0_off30_eq cc) fd (owedL (List.drop 21 (paysL cc))) rfl _) $$ [HoZ3 Hd HO Hts Htr]
  · isplitr; · iexact HIc47
    isplitr; · iexact HIr
    isplitl [HoZ3]; · iexact HoZ3
    isplitl [Hd]; · iexact Hd
    isplitl [HO]; · iexact HO
    isplitl [Hts]; · iexact Hts
    isplitr; · iexact HRs
    isplitl [Htr]; · iexact Htr
    iexact HRr
  iintro ⟨Hczs3, HO⟩
  iclear HIr HRs HRr
  sl_exec
  -- own chunk 3 to the y-neighbour
  icases Htk with ⟨Hts, Htr, Htk⟩
  icases HIt with ⟨#HIc63, #HIr, HIt⟩
  icases HRt with ⟨#HRs, #HRr, HRt⟩
  icases HqY with ⟨⟨%fd, Hd⟩, HqY⟩
  iapply (send_y_at m cc _ (dev22_eq cc) 3 _ _ (k0_off30_eq cc) fd (owedL (List.drop 22 (paysL cc))) rfl _) $$ [HoY3 Hd HO Hts Htr]
  · isplitr; · iexact HIc63
    isplitr; · iexact HIr
    isplitl [HoY3]; · iexact HoY3
    isplitl [Hd]; · iexact Hd
    isplitl [HO]; · iexact HO
    isplitl [Hts]; · iexact Hts
    isplitr; · iexact HRs
    isplitl [Htr]; · iexact Htr
    iexact HRr
  iintro ⟨Hcys3, HO⟩
  iclear HIr HRs HRr
  sl_exec
  -- the z-neighbour's chunk 2 has landed
  icases Hcr with ⟨Hc, Hcr⟩
  icases HpR with ⟨Hp, HpR⟩
  icases HIw with ⟨#HIc54, HIw⟩
  ihave Hmw := (mayWait_list (F := F) cc (dsem (⟨54, by decide⟩ : Fin 140)) (List.drop 22 (paysL cc)) (by decide)) $$ Hlev
  iapply (wait_a5_at m cc _ 2 rfl) $$ [Hc HO Hmw Hp]
  · isplitr; · iexact HIc54
    isplitl [Hc]; · iexact Hc
    isplitl [HO]; · iexact HO
    isplitl [Hmw]; · iexact Hmw
    iexact Hp
  iintro ⟨HO, Hq54, -, Hz2⟩
  sl_exec
  -- the y-neighbour's chunk 2 has landed
  icases Hcr with ⟨Hc, Hcr⟩
  icases HpR with ⟨Hp, HpR⟩
  icases HIw with ⟨#HIc70, HIw⟩
  ihave Hmw := (mayWait_list (F := F) cc (dsem (⟨70, by decide⟩ : Fin 140)) (List.drop 22 (paysL cc)) (by decide)) $$ Hlev
  iapply (wait_a7_at m cc _ 2 rfl) $$ [Hc HO Hmw Hp]
  · isplitr; · iexact HIc70
    isplitl [Hc]; · iexact Hc
    isplitl [HO]; · iexact HO
    isplitl [Hmw]; · iexact Hmw
    iexact Hp
  iintro ⟨HO, Hq70, -, Hy2⟩
  sl_exec
  -- step 4 of the main loop: the x-neighbour's chunk 4 has landed
  icases Hcr with ⟨Hc, Hcr⟩
  icases HpR with ⟨Hp, HpR⟩
  icases HIw with ⟨#HIc34, HIw⟩
  ihave Hmw := (mayWait_list (F := F) cc (dsem (⟨34, by decide⟩ : Fin 140)) (List.drop 22 (paysL cc)) (by decide)) $$ Hlev
  iapply (wait_a1_at m cc _ 4 rfl) $$ [Hc HO Hmw Hp]
  · isplitr; · iexact HIc34
    isplitl [Hc]; · iexact Hc
    isplitl [HO]; · iexact HO
    isplitl [Hmw]; · iexact Hmw
    iexact Hp
  iintro ⟨HO, Hq34, -, Hrb4⟩
  icases Hown with ⟨Ho4, Hown⟩
  have hled22 : ∀ (s : DmaSem sig), lvJ s.val = 0 → ((levAts LL lvv : sProp 𝕄) ⊢ MayWait (cc : Thread nD τ) (.dma s) () (owedL (List.drop 22 (paysL cc)))) :=
    fun s hs => mayWait_local (F := F) cc s hs _ (by decide)
  sl_exec
  clear hled22
  ihave Ho4 := (congr (F := F) (r4R (mqF cc) 4) cc fullShare (dev.sl.Ho4_w1 m f0) (r4 m cc) (fun i hi => glue_own m cc 4 _ (k0_off10_inb cc) (k0_off10_eq cc) _ (k0_off31_inb cc) (k0_off31_eq cc) f0 i hi)) $$ Ho4
  ihave Ho4 := (Entails.of_eq (share_ZYK_eq (F := F) (r4R (mqF cc) 4) cc (r4 m cc))) $$ Ho4
  icases Ho4 with ⟨HoZ4, HoY4, HoK4⟩
  -- own chunk 4 to the z-neighbour
  icases Htk with ⟨Hts, Htr, Htk⟩
  icases HIt with ⟨#HIc48, #HIr, HIt⟩
  icases HRt with ⟨#HRs, #HRr, HRt⟩
  icases HqZ with ⟨⟨%fd, Hd⟩, HqZ⟩
  iapply (send_z_at m cc _ (dev23_eq cc) 4 _ _ (k0_off32_eq cc) fd (owedL (List.drop 23 (paysL cc))) rfl _) $$ [HoZ4 Hd HO Hts Htr]
  · isplitr; · iexact HIc48
    isplitr; · iexact HIr
    isplitl [HoZ4]; · iexact HoZ4
    isplitl [Hd]; · iexact Hd
    isplitl [HO]; · iexact HO
    isplitl [Hts]; · iexact Hts
    isplitr; · iexact HRs
    isplitl [Htr]; · iexact Htr
    iexact HRr
  iintro ⟨Hczs4, HO⟩
  iclear HIr HRs HRr
  sl_exec
  -- own chunk 4 to the y-neighbour
  icases Htk with ⟨Hts, Htr, Htk⟩
  icases HIt with ⟨#HIc64, #HIr, HIt⟩
  icases HRt with ⟨#HRs, #HRr, HRt⟩
  icases HqY with ⟨⟨%fd, Hd⟩, HqY⟩
  iapply (send_y_at m cc _ (dev24_eq cc) 4 _ _ (k0_off32_eq cc) fd (owedL (List.drop 24 (paysL cc))) rfl _) $$ [HoY4 Hd HO Hts Htr]
  · isplitr; · iexact HIc64
    isplitr; · iexact HIr
    isplitl [HoY4]; · iexact HoY4
    isplitl [Hd]; · iexact Hd
    isplitl [HO]; · iexact HO
    isplitl [Hts]; · iexact Hts
    isplitr; · iexact HRs
    isplitl [Htr]; · iexact Htr
    iexact HRr
  iintro ⟨Hcys4, HO⟩
  iclear HIr HRs HRr
  sl_exec
  -- the z-neighbour's chunk 3 has landed
  icases Hcr with ⟨Hc, Hcr⟩
  icases HpR with ⟨Hp, HpR⟩
  icases HIw with ⟨#HIc55, HIw⟩
  ihave Hmw := (mayWait_list (F := F) cc (dsem (⟨55, by decide⟩ : Fin 140)) (List.drop 24 (paysL cc)) (by decide)) $$ Hlev
  iapply (wait_a5_at m cc _ 3 rfl) $$ [Hc HO Hmw Hp]
  · isplitr; · iexact HIc55
    isplitl [Hc]; · iexact Hc
    isplitl [HO]; · iexact HO
    isplitl [Hmw]; · iexact Hmw
    iexact Hp
  iintro ⟨HO, Hq55, -, Hz3⟩
  sl_exec
  -- the y-neighbour's chunk 3 has landed
  icases Hcr with ⟨Hc, Hcr⟩
  icases HpR with ⟨Hp, HpR⟩
  icases HIw with ⟨#HIc71, HIw⟩
  ihave Hmw := (mayWait_list (F := F) cc (dsem (⟨71, by decide⟩ : Fin 140)) (List.drop 24 (paysL cc)) (by decide)) $$ Hlev
  iapply (wait_a7_at m cc _ 3 rfl) $$ [Hc HO Hmw Hp]
  · isplitr; · iexact HIc71
    isplitl [Hc]; · iexact Hc
    isplitl [HO]; · iexact HO
    isplitl [Hmw]; · iexact Hmw
    iexact Hp
  iintro ⟨HO, Hq71, -, Hy3⟩
  -- chunk 3 of the two neighbours' quarters: half its ownership stays for the copy into the result, of the other half one column half travels on
  ihave Hz3 := (Entails.of_eq (share_FG_eq (F := F) (r4R (zqF cc) 3) cc (r4 m cc))) $$ Hz3
  icases Hz3 with ⟨HzF3, HzG3⟩
  ihave HzF3 := (Entails.of_eq (chunk_halves (F := F) cc (zqF cc) 3 shF (r4 m cc))) $$ HzF3
  icases HzF3 with ⟨HzFl3, HzFr3⟩
  ihave Hy3 := (Entails.of_eq (share_FG_eq (F := F) (r4R (yqF cc) 3) cc (r4 m cc))) $$ Hy3
  icases Hy3 with ⟨HyF3, HyG3⟩
  ihave HyF3 := (Entails.of_eq (chunk_halves (F := F) cc (yqF cc) 3 shF (r4 m cc))) $$ HyF3
  icases HyF3 with ⟨HyFl3, HyFr3⟩
  sl_exec
  -- the right half of the z-neighbour's chunk 3 on to the y-neighbour
  icases Htk with ⟨Hts, Htr, Htk⟩
  icases HIt with ⟨#HIc95, #HIr, HIt⟩
  icases HRt with ⟨#HRs, #HRr, HRt⟩
  icases HhYp with ⟨⟨%fd, Hd⟩, HhYp⟩
  iapply (send_yf_at m cc _ (dev25_eq cc) 3 (by decide) _ _ (k0_off33_eq cc) fd (owedL (List.drop 25 (paysL cc))) rfl _) $$ [HzFr3 Hd HO Hts Htr]
  · isplitr; · iexact HIc95
    isplitr; · iexact HIr
    isplitl [HzFr3]; · iexact HzFr3
    isplitl [Hd]; · iexact Hd
    isplitl [HO]; · iexact HO
    isplitl [Hts]; · iexact Hts
    isplitr; · iexact HRs
    isplitl [Htr]; · iexact Htr
    iexact HRr
  iintro ⟨Hcyfs3, HO⟩
  iclear HIr HRs HRr
  sl_exec
  -- the left half of the y-neighbour's chunk 3 on to the z-neighbour
  icases Htk with ⟨Hts, Htr, Htk⟩
  icases HIt with ⟨#HIc79, #HIr, HIt⟩
  icases HRt with ⟨#HRs, #HRr, HRt⟩
  icases HhZp with ⟨⟨%fd, Hd⟩, HhZp⟩
  iapply (send_zf_at m cc _ (dev26_eq cc) 3 (by decide) _ _ (k0_off34_eq cc) fd (owedL (List.drop 26 (paysL cc))) rfl _) $$ [HyFl3 Hd HO Hts Htr]
  · isplitr; · iexact HIc79
    isplitr; · iexact HIr
    isplitl [HyFl3]; · iexact HyFl3
    isplitl [Hd]; · iexact Hd
    isplitl [HO]; · iexact HO
    isplitl [Hts]; · iexact Hts
    isplitr; · iexact HRs
    isplitl [Htr]; · iexact Htr
    iexact HRr
  iintro ⟨Hczfs3, HO⟩
  iclear HIr HRs HRr
  sl_exec
  -- step 5 of the main loop: the x-neighbour's chunk 5 has landed
  icases Hcr with ⟨Hc, Hcr⟩
  icases HpR with ⟨Hp, HpR⟩
  icases HIw with ⟨#HIc35, HIw⟩
  ihave Hmw := (mayWait_list (F := F) cc (dsem (⟨35, by decide⟩ : Fin 140)) (List.drop 26 (paysL cc)) (by decide)) $$ Hlev
  iapply (wait_a1_at m cc _ 5 rfl) $$ [Hc HO Hmw Hp]
  · isplitr; · iexact HIc35
    isplitl [Hc]; · iexact Hc
    isplitl [HO]; · iexact HO
    isplitl [Hmw]; · iexact Hmw
    iexact Hp
  iintro ⟨HO, Hq35, -, Hrb5⟩
  icases Hown with ⟨Ho5, Hown⟩
  have hled26 : ∀ (s : DmaSem sig), lvJ s.val = 0 → ((levAts LL lvv : sProp 𝕄) ⊢ MayWait (cc : Thread nD τ) (.dma s) () (owedL (List.drop 26 (paysL cc)))) :=
    fun s hs => mayWait_local (F := F) cc s hs _ (by decide)
  sl_exec
  clear hled26
  ihave Ho5 := (congr (F := F) (r4R (mqF cc) 5) cc fullShare (dev.sl.Ho5_w1 m f0) (r4 m cc) (fun i hi => glue_own m cc 5 _ (k0_off12_inb cc) (k0_off12_eq cc) _ (k0_off35_inb cc) (k0_off35_eq cc) f0 i hi)) $$ Ho5
  ihave Ho5 := (Entails.of_eq (share_ZYK_eq (F := F) (r4R (mqF cc) 5) cc (r4 m cc))) $$ Ho5
  icases Ho5 with ⟨HoZ5, HoY5, HoK5⟩
  -- own chunk 5 to the z-neighbour
  icases Htk with ⟨Hts, Htr, Htk⟩
  icases HIt with ⟨#HIc49, #HIr, HIt⟩
  icases HRt with ⟨#HRs, #HRr, HRt⟩
  icases HqZ with ⟨⟨%fd, Hd⟩, HqZ⟩
  iapply (send_z_at m cc _ (dev27_eq cc) 5 _ _ (k0_off36_eq cc) fd (owedL (List.drop 27 (paysL cc))) rfl _) $$ [HoZ5 Hd HO Hts Htr]
  · isplitr; · iexact HIc49
    isplitr; · iexact HIr
    isplitl [HoZ5]; · iexact HoZ5
    isplitl [Hd]; · iexact Hd
    isplitl [HO]; · iexact HO
    isplitl [Hts]; · iexact Hts
    isplitr; · iexact HRs
    isplitl [Htr]; · iexact Htr
    iexact HRr
  iintro ⟨Hczs5, HO⟩
  iclear HIr HRs HRr
  sl_exec
  -- own chunk 5 to the y-neighbour
  icases Htk with ⟨Hts, Htr, Htk⟩
  icases HIt with ⟨#HIc65, #HIr, HIt⟩
  icases HRt with ⟨#HRs, #HRr, HRt⟩
  icases HqY with ⟨⟨%fd, Hd⟩, HqY⟩
  iapply (send_y_at m cc _ (dev28_eq cc) 5 _ _ (k0_off36_eq cc) fd (owedL (List.drop 28 (paysL cc))) rfl _) $$ [HoY5 Hd HO Hts Htr]
  · isplitr; · iexact HIc65
    isplitr; · iexact HIr
    isplitl [HoY5]; · iexact HoY5
    isplitl [Hd]; · iexact Hd
    isplitl [HO]; · iexact HO
    isplitl [Hts]; · iexact Hts
    isplitr; · iexact HRs
    isplitl [Htr]; · iexact Htr
    iexact HRr
  iintro ⟨Hcys5, HO⟩
  iclear HIr HRs HRr
  sl_exec
  -- the z-neighbour's chunk 4 has landed
  icases Hcr with ⟨Hc, Hcr⟩
  icases HpR with ⟨Hp, HpR⟩
  icases HIw with ⟨#HIc56, HIw⟩
  ihave Hmw := (mayWait_list (F := F) cc (dsem (⟨56, by decide⟩ : Fin 140)) (List.drop 28 (paysL cc)) (by decide)) $$ Hlev
  iapply (wait_a5_at m cc _ 4 rfl) $$ [Hc HO Hmw Hp]
  · isplitr; · iexact HIc56
    isplitl [Hc]; · iexact Hc
    isplitl [HO]; · iexact HO
    isplitl [Hmw]; · iexact Hmw
    iexact Hp
  iintro ⟨HO, Hq56, -, Hz4⟩
  sl_exec
  -- the y-neighbour's chunk 4 has landed
  icases Hcr with ⟨Hc, Hcr⟩
  icases HpR with ⟨Hp, HpR⟩
  icases HIw with ⟨#HIc72, HIw⟩
  ihave Hmw := (mayWait_list (F := F) cc (dsem (⟨72, by decide⟩ : Fin 140)) (List.drop 28 (paysL cc)) (by decide)) $$ Hlev
  iapply (wait_a7_at m cc _ 4 rfl) $$ [Hc HO Hmw Hp]
  · isplitr; · iexact HIc72
    isplitl [Hc]; · iexact Hc
    isplitl [HO]; · iexact HO
    isplitl [Hmw]; · iexact Hmw
    iexact Hp
  iintro ⟨HO, Hq72, -, Hy4⟩
  -- chunk 4 of the two neighbours' quarters: half its ownership stays for the copy into the result, of the other half one column half travels on
  ihave Hz4 := (Entails.of_eq (share_FG_eq (F := F) (r4R (zqF cc) 4) cc (r4 m cc))) $$ Hz4
  icases Hz4 with ⟨HzF4, HzG4⟩
  ihave HzF4 := (Entails.of_eq (chunk_halves (F := F) cc (zqF cc) 4 shF (r4 m cc))) $$ HzF4
  icases HzF4 with ⟨HzFl4, HzFr4⟩
  ihave Hy4 := (Entails.of_eq (share_FG_eq (F := F) (r4R (yqF cc) 4) cc (r4 m cc))) $$ Hy4
  icases Hy4 with ⟨HyF4, HyG4⟩
  ihave HyF4 := (Entails.of_eq (chunk_halves (F := F) cc (yqF cc) 4 shF (r4 m cc))) $$ HyF4
  icases HyF4 with ⟨HyFl4, HyFr4⟩
  sl_exec
  -- the right half of the z-neighbour's chunk 4 on to the y-neighbour
  icases Htk with ⟨Hts, Htr, Htk⟩
  icases HIt with ⟨#HIc96, #HIr, HIt⟩
  icases HRt with ⟨#HRs, #HRr, HRt⟩
  icases HhYp with ⟨⟨%fd, Hd⟩, HhYp⟩
  iapply (send_yf_at m cc _ (dev29_eq cc) 4 (by decide) _ _ (k0_off37_eq cc) fd (owedL (List.drop 29 (paysL cc))) rfl _) $$ [HzFr4 Hd HO Hts Htr]
  · isplitr; · iexact HIc96
    isplitr; · iexact HIr
    isplitl [HzFr4]; · iexact HzFr4
    isplitl [Hd]; · iexact Hd
    isplitl [HO]; · iexact HO
    isplitl [Hts]; · iexact Hts
    isplitr; · iexact HRs
    isplitl [Htr]; · iexact Htr
    iexact HRr
  iintro ⟨Hcyfs4, HO⟩
  iclear HIr HRs HRr
  sl_exec
  -- the left half of the y-neighbour's chunk 4 on to the z-neighbour
  icases Htk with ⟨Hts, Htr, Htk⟩
  icases HIt with ⟨#HIc80, #HIr, HIt⟩
  icases HRt with ⟨#HRs, #HRr, HRt⟩
  icases HhZp with ⟨⟨%fd, Hd⟩, HhZp⟩
  iapply (send_zf_at m cc _ (dev30_eq cc) 4 (by decide) _ _ (k0_off38_eq cc) fd (owedL (List.drop 30 (paysL cc))) rfl _) $$ [HyFl4 Hd HO Hts Htr]
  · isplitr; · iexact HIc80
    isplitr; · iexact HIr
    isplitl [HyFl4]; · iexact HyFl4
    isplitl [Hd]; · iexact Hd
    isplitl [HO]; · iexact HO
    isplitl [Hts]; · iexact Hts
    isplitr; · iexact HRs
    isplitl [Htr]; · iexact Htr
    iexact HRr
  iintro ⟨Hczfs4, HO⟩
  iclear HIr HRs HRr
  sl_exec
  -- the left half of chunk 3 of the diagonal quarter has landed
  icases Hcr with ⟨Hc, Hcr⟩
  icases HpR with ⟨Hp, HpR⟩
  icases HIw with ⟨#HIc87, HIw⟩
  ihave Hmw := (mayWait_list (F := F) cc (dsem (⟨87, by decide⟩ : Fin 140)) (List.drop 30 (paysL cc)) (by decide)) $$ Hlev
  iapply (wait_a9_at m cc _ 3 rfl (by decide)) $$ [Hc HO Hmw Hp]
  · isplitr; · iexact HIc87
    isplitl [Hc]; · iexact Hc
    isplitl [HO]; · iexact HO
    isplitl [Hmw]; · iexact Hmw
    iexact Hp
  iintro ⟨HO, Hq87, -, Hdl3⟩
  sl_exec
  -- its right half has landed
  icases Hcr with ⟨Hc, Hcr⟩
  icases HpR with ⟨Hp, HpR⟩
  icases HIw with ⟨#HIc103, HIw⟩
  ihave Hmw := (mayWait_list (F := F) cc (dsem (⟨103, by decide⟩ : Fin 140)) (List.drop 30 (paysL cc)) (by decide)) $$ Hlev
  iapply (wait_a11_at m cc _ 3 rfl (by decide)) $$ [Hc HO Hmw Hp]
  · isplitr; · iexact HIc103
    isplitl [Hc]; · iexact Hc
    isplitl [HO]; · iexact HO
    isplitl [Hmw]; · iexact Hmw
    iexact Hp
  iintro ⟨HO, Hq103, -, Hdr3⟩
  ihave Hd3 := (Entails.of_eq (chunk_halves (F := F) cc (dqF cc) 3 fullShare (r4 m cc)).symm) $$ [Hdl3 Hdr3]
  · isplitl [Hdl3]; · iexact Hdl3
    iexact Hdr3
  -- the four copies of chunk 3 into the result
  icases HvO with ⟨Hw3a, Hw3b, Hw3c, Hw3d, HvO⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  -- step 6 of the main loop: the x-neighbour's chunk 6 has landed
  icases Hcr with ⟨Hc, Hcr⟩
  icases HpR with ⟨Hp, HpR⟩
  icases HIw with ⟨#HIc36, HIw⟩
  ihave Hmw := (mayWait_list (F := F) cc (dsem (⟨36, by decide⟩ : Fin 140)) (List.drop 30 (paysL cc)) (by decide)) $$ Hlev
  iapply (wait_a1_at m cc _ 6 rfl) $$ [Hc HO Hmw Hp]
  · isplitr; · iexact HIc36
    isplitl [Hc]; · iexact Hc
    isplitl [HO]; · iexact HO
    isplitl [Hmw]; · iexact Hmw
    iexact Hp
  iintro ⟨HO, Hq36, -, Hrb6⟩
  icases Hown with ⟨Ho6, Hown⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  ihave Ho6 := (congr (F := F) (r4R (mqF cc) 6) cc fullShare (dev.sl.Ho6_w1 m f0) (r4 m cc) (fun i hi => glue_own m cc 6 _ (k0_off14_inb cc) (k0_off14_eq cc) _ (k0_off39_inb cc) (k0_off39_eq cc) f0 i hi)) $$ Ho6
  ihave Ho6 := (Entails.of_eq (share_ZYK_eq (F := F) (r4R (mqF cc) 6) cc (r4 m cc))) $$ Ho6
  icases Ho6 with ⟨HoZ6, HoY6, HoK6⟩
  -- own chunk 6 to the z-neighbour
  icases Htk with ⟨Hts, Htr, Htk⟩
  icases HIt with ⟨#HIc50, #HIr, HIt⟩
  icases HRt with ⟨#HRs, #HRr, HRt⟩
  icases HqZ with ⟨⟨%fd, Hd⟩, HqZ⟩
  iapply (send_z_at m cc _ (dev31_eq cc) 6 _ _ (k0_off40_eq cc) fd (owedL (List.drop 31 (paysL cc))) rfl _) $$ [HoZ6 Hd HO Hts Htr]
  · isplitr; · iexact HIc50
    isplitr; · iexact HIr
    isplitl [HoZ6]; · iexact HoZ6
    isplitl [Hd]; · iexact Hd
    isplitl [HO]; · iexact HO
    isplitl [Hts]; · iexact Hts
    isplitr; · iexact HRs
    isplitl [Htr]; · iexact Htr
    iexact HRr
  iintro ⟨Hczs6, HO⟩
  iclear HIr HRs HRr
  sl_exec
  -- own chunk 6 to the y-neighbour
  icases Htk with ⟨Hts, Htr, Htk⟩
  icases HIt with ⟨#HIc66, #HIr, HIt⟩
  icases HRt with ⟨#HRs, #HRr, HRt⟩
  icases HqY with ⟨⟨%fd, Hd⟩, HqY⟩
  iapply (send_y_at m cc _ (dev32_eq cc) 6 _ _ (k0_off40_eq cc) fd (owedL (List.drop 32 (paysL cc))) rfl _) $$ [HoY6 Hd HO Hts Htr]
  · isplitr; · iexact HIc66
    isplitr; · iexact HIr
    isplitl [HoY6]; · iexact HoY6
    isplitl [Hd]; · iexact Hd
    isplitl [HO]; · iexact HO
    isplitl [Hts]; · iexact Hts
    isplitr; · iexact HRs
    isplitl [Htr]; · iexact Htr
    iexact HRr
  iintro ⟨Hcys6, HO⟩
  iclear HIr HRs HRr
  sl_exec
  -- the z-neighbour's chunk 5 has landed
  icases Hcr with ⟨Hc, Hcr⟩
  icases HpR with ⟨Hp, HpR⟩
  icases HIw with ⟨#HIc57, HIw⟩
  ihave Hmw := (mayWait_list (F := F) cc (dsem (⟨57, by decide⟩ : Fin 140)) (List.drop 32 (paysL cc)) (by decide)) $$ Hlev
  iapply (wait_a5_at m cc _ 5 rfl) $$ [Hc HO Hmw Hp]
  · isplitr; · iexact HIc57
    isplitl [Hc]; · iexact Hc
    isplitl [HO]; · iexact HO
    isplitl [Hmw]; · iexact Hmw
    iexact Hp
  iintro ⟨HO, Hq57, -, Hz5⟩
  sl_exec
  -- the y-neighbour's chunk 5 has landed
  icases Hcr with ⟨Hc, Hcr⟩
  icases HpR with ⟨Hp, HpR⟩
  icases HIw with ⟨#HIc73, HIw⟩
  ihave Hmw := (mayWait_list (F := F) cc (dsem (⟨73, by decide⟩ : Fin 140)) (List.drop 32 (paysL cc)) (by decide)) $$ Hlev
  iapply (wait_a7_at m cc _ 5 rfl) $$ [Hc HO Hmw Hp]
  · isplitr; · iexact HIc73
    isplitl [Hc]; · iexact Hc
    isplitl [HO]; · iexact HO
    isplitl [Hmw]; · iexact Hmw
    iexact Hp
  iintro ⟨HO, Hq73, -, Hy5⟩
  -- chunk 5 of the two neighbours' quarters: half its ownership stays for the copy into the result, of the other half one column half travels on
  ihave Hz5 := (Entails.of_eq (share_FG_eq (F := F) (r4R (zqF cc) 5) cc (r4 m cc))) $$ Hz5
  icases Hz5 with ⟨HzF5, HzG5⟩
  ihave HzF5 := (Entails.of_eq (chunk_halves (F := F) cc (zqF cc) 5 shF (r4 m cc))) $$ HzF5
  icases HzF5 with ⟨HzFl5, HzFr5⟩
  ihave Hy5 := (Entails.of_eq (share_FG_eq (F := F) (r4R (yqF cc) 5) cc (r4 m cc))) $$ Hy5
  icases Hy5 with ⟨HyF5, HyG5⟩
  ihave HyF5 := (Entails.of_eq (chunk_halves (F := F) cc (yqF cc) 5 shF (r4 m cc))) $$ HyF5
  icases HyF5 with ⟨HyFl5, HyFr5⟩
  sl_exec
  -- the right half of the z-neighbour's chunk 5 on to the y-neighbour
  icases Htk with ⟨Hts, Htr, Htk⟩
  icases HIt with ⟨#HIc97, #HIr, HIt⟩
  icases HRt with ⟨#HRs, #HRr, HRt⟩
  icases HhYp with ⟨⟨%fd, Hd⟩, HhYp⟩
  iapply (send_yf_at m cc _ (dev33_eq cc) 5 (by decide) _ _ (k0_off41_eq cc) fd (owedL (List.drop 33 (paysL cc))) rfl _) $$ [HzFr5 Hd HO Hts Htr]
  · isplitr; · iexact HIc97
    isplitr; · iexact HIr
    isplitl [HzFr5]; · iexact HzFr5
    isplitl [Hd]; · iexact Hd
    isplitl [HO]; · iexact HO
    isplitl [Hts]; · iexact Hts
    isplitr; · iexact HRs
    isplitl [Htr]; · iexact Htr
    iexact HRr
  iintro ⟨Hcyfs5, HO⟩
  iclear HIr HRs HRr
  sl_exec
  -- the left half of the y-neighbour's chunk 5 on to the z-neighbour
  icases Htk with ⟨Hts, Htr, Htk⟩
  icases HIt with ⟨#HIc81, #HIr, HIt⟩
  icases HRt with ⟨#HRs, #HRr, HRt⟩
  icases HhZp with ⟨⟨%fd, Hd⟩, HhZp⟩
  iapply (send_zf_at m cc _ (dev34_eq cc) 5 (by decide) _ _ (k0_off42_eq cc) fd (owedL (List.drop 34 (paysL cc))) rfl _) $$ [HyFl5 Hd HO Hts Htr]
  · isplitr; · iexact HIc81
    isplitr; · iexact HIr
    isplitl [HyFl5]; · iexact HyFl5
    isplitl [Hd]; · iexact Hd
    isplitl [HO]; · iexact HO
    isplitl [Hts]; · iexact Hts
    isplitr; · iexact HRs
    isplitl [Htr]; · iexact Htr
    iexact HRr
  iintro ⟨Hczfs5, HO⟩
  iclear HIr HRs HRr
  sl_exec
  -- the left half of chunk 4 of the diagonal quarter has landed
  icases Hcr with ⟨Hc, Hcr⟩
  icases HpR with ⟨Hp, HpR⟩
  icases HIw with ⟨#HIc88, HIw⟩
  ihave Hmw := (mayWait_list (F := F) cc (dsem (⟨88, by decide⟩ : Fin 140)) (List.drop 34 (paysL cc)) (by decide)) $$ Hlev
  iapply (wait_a9_at m cc _ 4 rfl (by decide)) $$ [Hc HO Hmw Hp]
  · isplitr; · iexact HIc88
    isplitl [Hc]; · iexact Hc
    isplitl [HO]; · iexact HO
    isplitl [Hmw]; · iexact Hmw
    iexact Hp
  iintro ⟨HO, Hq88, -, Hdl4⟩
  sl_exec
  -- its right half has landed
  icases Hcr with ⟨Hc, Hcr⟩
  icases HpR with ⟨Hp, HpR⟩
  icases HIw with ⟨#HIc104, HIw⟩
  ihave Hmw := (mayWait_list (F := F) cc (dsem (⟨104, by decide⟩ : Fin 140)) (List.drop 34 (paysL cc)) (by decide)) $$ Hlev
  iapply (wait_a11_at m cc _ 4 rfl (by decide)) $$ [Hc HO Hmw Hp]
  · isplitr; · iexact HIc104
    isplitl [Hc]; · iexact Hc
    isplitl [HO]; · iexact HO
    isplitl [Hmw]; · iexact Hmw
    iexact Hp
  iintro ⟨HO, Hq104, -, Hdr4⟩
  ihave Hd4 := (Entails.of_eq (chunk_halves (F := F) cc (dqF cc) 4 fullShare (r4 m cc)).symm) $$ [Hdl4 Hdr4]
  · isplitl [Hdl4]; · iexact Hdl4
    iexact Hdr4
  -- the four copies of chunk 4 into the result
  icases HvO with ⟨Hw4a, Hw4b, Hw4c, Hw4d, HvO⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  -- step 7 of the main loop: the x-neighbour's chunk 7 has landed
  icases Hcr with ⟨Hc, Hcr⟩
  icases HpR with ⟨Hp, HpR⟩
  icases HIw with ⟨#HIc37, HIw⟩
  ihave Hmw := (mayWait_list (F := F) cc (dsem (⟨37, by decide⟩ : Fin 140)) (List.drop 34 (paysL cc)) (by decide)) $$ Hlev
  iapply (wait_a1_at m cc _ 7 rfl) $$ [Hc HO Hmw Hp]
  · isplitr; · iexact HIc37
    isplitl [Hc]; · iexact Hc
    isplitl [HO]; · iexact HO
    isplitl [Hmw]; · iexact Hmw
    iexact Hp
  iintro ⟨HO, Hq37, -, Hrb7⟩
  icases Hown with ⟨Ho7⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  ihave Ho7 := (congr (F := F) (r4R (mqF cc) 7) cc fullShare (dev.sl.Ho7_w1 m f0) (r4 m cc) (fun i hi => glue_own m cc 7 _ (k0_off16_inb cc) (k0_off16_eq cc) _ (k0_off43_inb cc) (k0_off43_eq cc) f0 i hi)) $$ Ho7
  ihave Ho7 := (Entails.of_eq (share_ZYK_eq (F := F) (r4R (mqF cc) 7) cc (r4 m cc))) $$ Ho7
  icases Ho7 with ⟨HoZ7, HoY7, HoK7⟩
  -- own chunk 7 to the z-neighbour
  icases Htk with ⟨Hts, Htr, Htk⟩
  icases HIt with ⟨#HIc51, #HIr, HIt⟩
  icases HRt with ⟨#HRs, #HRr, HRt⟩
  icases HqZ with ⟨%fd, Hd⟩
  iapply (send_z_at m cc _ (dev35_eq cc) 7 _ _ (k0_off44_eq cc) fd (owedL (List.drop 35 (paysL cc))) rfl _) $$ [HoZ7 Hd HO Hts Htr]
  · isplitr; · iexact HIc51
    isplitr; · iexact HIr
    isplitl [HoZ7]; · iexact HoZ7
    isplitl [Hd]; · iexact Hd
    isplitl [HO]; · iexact HO
    isplitl [Hts]; · iexact Hts
    isplitr; · iexact HRs
    isplitl [Htr]; · iexact Htr
    iexact HRr
  iintro ⟨Hczs7, HO⟩
  iclear HIr HRs HRr
  sl_exec
  -- own chunk 7 to the y-neighbour
  icases Htk with ⟨Hts, Htr, Htk⟩
  icases HIt with ⟨#HIc67, #HIr, HIt⟩
  icases HRt with ⟨#HRs, #HRr, HRt⟩
  icases HqY with ⟨%fd, Hd⟩
  iapply (send_y_at m cc _ (dev36_eq cc) 7 _ _ (k0_off44_eq cc) fd (owedL (List.drop 36 (paysL cc))) rfl _) $$ [HoY7 Hd HO Hts Htr]
  · isplitr; · iexact HIc67
    isplitr; · iexact HIr
    isplitl [HoY7]; · iexact HoY7
    isplitl [Hd]; · iexact Hd
    isplitl [HO]; · iexact HO
    isplitl [Hts]; · iexact Hts
    isplitr; · iexact HRs
    isplitl [Htr]; · iexact Htr
    iexact HRr
  iintro ⟨Hcys7, HO⟩
  iclear HIr HRs HRr
  sl_exec
  -- the z-neighbour's chunk 6 has landed
  icases Hcr with ⟨Hc, Hcr⟩
  icases HpR with ⟨Hp, HpR⟩
  icases HIw with ⟨#HIc58, HIw⟩
  ihave Hmw := (mayWait_list (F := F) cc (dsem (⟨58, by decide⟩ : Fin 140)) (List.drop 36 (paysL cc)) (by decide)) $$ Hlev
  iapply (wait_a5_at m cc _ 6 rfl) $$ [Hc HO Hmw Hp]
  · isplitr; · iexact HIc58
    isplitl [Hc]; · iexact Hc
    isplitl [HO]; · iexact HO
    isplitl [Hmw]; · iexact Hmw
    iexact Hp
  iintro ⟨HO, Hq58, -, Hz6⟩
  sl_exec
  -- the y-neighbour's chunk 6 has landed
  icases Hcr with ⟨Hc, Hcr⟩
  icases HpR with ⟨Hp, HpR⟩
  icases HIw with ⟨#HIc74, HIw⟩
  ihave Hmw := (mayWait_list (F := F) cc (dsem (⟨74, by decide⟩ : Fin 140)) (List.drop 36 (paysL cc)) (by decide)) $$ Hlev
  iapply (wait_a7_at m cc _ 6 rfl) $$ [Hc HO Hmw Hp]
  · isplitr; · iexact HIc74
    isplitl [Hc]; · iexact Hc
    isplitl [HO]; · iexact HO
    isplitl [Hmw]; · iexact Hmw
    iexact Hp
  iintro ⟨HO, Hq74, -, Hy6⟩
  -- chunk 6 of the two neighbours' quarters: half its ownership stays for the copy into the result, of the other half one column half travels on
  ihave Hz6 := (Entails.of_eq (share_FG_eq (F := F) (r4R (zqF cc) 6) cc (r4 m cc))) $$ Hz6
  icases Hz6 with ⟨HzF6, HzG6⟩
  ihave HzF6 := (Entails.of_eq (chunk_halves (F := F) cc (zqF cc) 6 shF (r4 m cc))) $$ HzF6
  icases HzF6 with ⟨HzFl6, HzFr6⟩
  ihave Hy6 := (Entails.of_eq (share_FG_eq (F := F) (r4R (yqF cc) 6) cc (r4 m cc))) $$ Hy6
  icases Hy6 with ⟨HyF6, HyG6⟩
  ihave HyF6 := (Entails.of_eq (chunk_halves (F := F) cc (yqF cc) 6 shF (r4 m cc))) $$ HyF6
  icases HyF6 with ⟨HyFl6, HyFr6⟩
  sl_exec
  -- the right half of the z-neighbour's chunk 6 on to the y-neighbour
  icases Htk with ⟨Hts, Htr, Htk⟩
  icases HIt with ⟨#HIc98, #HIr, HIt⟩
  icases HRt with ⟨#HRs, #HRr, HRt⟩
  icases HhYp with ⟨⟨%fd, Hd⟩, HhYp⟩
  iapply (send_yf_at m cc _ (dev37_eq cc) 6 (by decide) _ _ (k0_off45_eq cc) fd (owedL (List.drop 37 (paysL cc))) rfl _) $$ [HzFr6 Hd HO Hts Htr]
  · isplitr; · iexact HIc98
    isplitr; · iexact HIr
    isplitl [HzFr6]; · iexact HzFr6
    isplitl [Hd]; · iexact Hd
    isplitl [HO]; · iexact HO
    isplitl [Hts]; · iexact Hts
    isplitr; · iexact HRs
    isplitl [Htr]; · iexact Htr
    iexact HRr
  iintro ⟨Hcyfs6, HO⟩
  iclear HIr HRs HRr
  sl_exec
  -- the left half of the y-neighbour's chunk 6 on to the z-neighbour
  icases Htk with ⟨Hts, Htr, Htk⟩
  icases HIt with ⟨#HIc82, #HIr, HIt⟩
  icases HRt with ⟨#HRs, #HRr, HRt⟩
  icases HhZp with ⟨⟨%fd, Hd⟩, HhZp⟩
  iapply (send_zf_at m cc _ (dev38_eq cc) 6 (by decide) _ _ (k0_off46_eq cc) fd (owedL (List.drop 38 (paysL cc))) rfl _) $$ [HyFl6 Hd HO Hts Htr]
  · isplitr; · iexact HIc82
    isplitr; · iexact HIr
    isplitl [HyFl6]; · iexact HyFl6
    isplitl [Hd]; · iexact Hd
    isplitl [HO]; · iexact HO
    isplitl [Hts]; · iexact Hts
    isplitr; · iexact HRs
    isplitl [Htr]; · iexact Htr
    iexact HRr
  iintro ⟨Hczfs6, HO⟩
  iclear HIr HRs HRr
  sl_exec
  -- the left half of chunk 5 of the diagonal quarter has landed
  icases Hcr with ⟨Hc, Hcr⟩
  icases HpR with ⟨Hp, HpR⟩
  icases HIw with ⟨#HIc89, HIw⟩
  ihave Hmw := (mayWait_list (F := F) cc (dsem (⟨89, by decide⟩ : Fin 140)) (List.drop 38 (paysL cc)) (by decide)) $$ Hlev
  iapply (wait_a9_at m cc _ 5 rfl (by decide)) $$ [Hc HO Hmw Hp]
  · isplitr; · iexact HIc89
    isplitl [Hc]; · iexact Hc
    isplitl [HO]; · iexact HO
    isplitl [Hmw]; · iexact Hmw
    iexact Hp
  iintro ⟨HO, Hq89, -, Hdl5⟩
  sl_exec
  -- its right half has landed
  icases Hcr with ⟨Hc, Hcr⟩
  icases HpR with ⟨Hp, HpR⟩
  icases HIw with ⟨#HIc105, HIw⟩
  ihave Hmw := (mayWait_list (F := F) cc (dsem (⟨105, by decide⟩ : Fin 140)) (List.drop 38 (paysL cc)) (by decide)) $$ Hlev
  iapply (wait_a11_at m cc _ 5 rfl (by decide)) $$ [Hc HO Hmw Hp]
  · isplitr; · iexact HIc105
    isplitl [Hc]; · iexact Hc
    isplitl [HO]; · iexact HO
    isplitl [Hmw]; · iexact Hmw
    iexact Hp
  iintro ⟨HO, Hq105, -, Hdr5⟩
  ihave Hd5 := (Entails.of_eq (chunk_halves (F := F) cc (dqF cc) 5 fullShare (r4 m cc)).symm) $$ [Hdl5 Hdr5]
  · isplitl [Hdl5]; · iexact Hdl5
    iexact Hdr5
  -- the four copies of chunk 5 into the result
  icases HvO with ⟨Hw5a, Hw5b, Hw5c, Hw5d, HvO⟩
  have hled38 : ∀ (s : DmaSem sig), lvJ s.val = 0 → ((levAts LL lvv : sProp 𝕄) ⊢ MayWait (cc : Thread nD τ) (.dma s) () (owedL (List.drop 38 (paysL cc)))) :=
    fun s hs => mayWait_local (F := F) cc s hs _ (by decide)
  sl_exec
  clear hled38
  -- after the loop: the z-neighbour's last chunk has landed
  icases Hcr with ⟨Hc, Hcr⟩
  icases HpR with ⟨Hp, HpR⟩
  icases HIw with ⟨#HIc59, HIw⟩
  ihave Hmw := (mayWait_list (F := F) cc (dsem (⟨59, by decide⟩ : Fin 140)) (List.drop 38 (paysL cc)) (by decide)) $$ Hlev
  iapply (wait_a5_at m cc _ 7 rfl) $$ [Hc HO Hmw Hp]
  · isplitr; · iexact HIc59
    isplitl [Hc]; · iexact Hc
    isplitl [HO]; · iexact HO
    isplitl [Hmw]; · iexact Hmw
    iexact Hp
  iintro ⟨HO, Hq59, -, Hz7⟩
  sl_exec
  -- the y-neighbour's last chunk has landed
  icases Hcr with ⟨Hc, Hcr⟩
  icases HpR with ⟨Hp, HpR⟩
  icases HIw with ⟨#HIc75, HIw⟩
  ihave Hmw := (mayWait_list (F := F) cc (dsem (⟨75, by decide⟩ : Fin 140)) (List.drop 38 (paysL cc)) (by decide)) $$ Hlev
  iapply (wait_a7_at m cc _ 7 rfl) $$ [Hc HO Hmw Hp]
  · isplitr; · iexact HIc75
    isplitl [Hc]; · iexact Hc
    isplitl [HO]; · iexact HO
    isplitl [Hmw]; · iexact Hmw
    iexact Hp
  iintro ⟨HO, Hq75, -, Hy7⟩
  -- chunk 7 of the two neighbours' quarters: half its ownership stays for the copy into the result, of the other half one column half travels on
  ihave Hz7 := (Entails.of_eq (share_FG_eq (F := F) (r4R (zqF cc) 7) cc (r4 m cc))) $$ Hz7
  icases Hz7 with ⟨HzF7, HzG7⟩
  ihave HzF7 := (Entails.of_eq (chunk_halves (F := F) cc (zqF cc) 7 shF (r4 m cc))) $$ HzF7
  icases HzF7 with ⟨HzFl7, HzFr7⟩
  ihave Hy7 := (Entails.of_eq (share_FG_eq (F := F) (r4R (yqF cc) 7) cc (r4 m cc))) $$ Hy7
  icases Hy7 with ⟨HyF7, HyG7⟩
  ihave HyF7 := (Entails.of_eq (chunk_halves (F := F) cc (yqF cc) 7 shF (r4 m cc))) $$ HyF7
  icases HyF7 with ⟨HyFl7, HyFr7⟩
  sl_exec
  -- the right half of the z-neighbour's last chunk on to the y-neighbour
  icases Htk with ⟨Hts, Htr, Htk⟩
  icases HIt with ⟨#HIc99, #HIr, HIt⟩
  icases HRt with ⟨#HRs, #HRr, HRt⟩
  icases HhYp with ⟨%fd, Hd⟩
  iapply (send_yf_at m cc _ (dev39_eq cc) 7 (by decide) _ _ (k0_off47_eq cc) fd (owedL (List.drop 39 (paysL cc))) rfl _) $$ [HzFr7 Hd HO Hts Htr]
  · isplitr; · iexact HIc99
    isplitr; · iexact HIr
    isplitl [HzFr7]; · iexact HzFr7
    isplitl [Hd]; · iexact Hd
    isplitl [HO]; · iexact HO
    isplitl [Hts]; · iexact Hts
    isplitr; · iexact HRs
    isplitl [Htr]; · iexact Htr
    iexact HRr
  iintro ⟨Hcyfs7, HO⟩
  iclear HIr HRs HRr
  sl_exec
  -- the left half of the y-neighbour's last chunk on to the z-neighbour
  icases Htk with ⟨Hts, Htr⟩
  icases HIt with ⟨#HIc83, #HIr⟩
  icases HRt with ⟨#HRs, #HRr⟩
  icases HhZp with ⟨%fd, Hd⟩
  iapply (send_zf_at m cc _ (dev40_eq cc) 7 (by decide) _ _ (k0_off48_eq cc) fd (owedL (List.drop 40 (paysL cc))) rfl _) $$ [HyFl7 Hd HO Hts Htr]
  · isplitr; · iexact HIc83
    isplitr; · iexact HIr
    isplitl [HyFl7]; · iexact HyFl7
    isplitl [Hd]; · iexact Hd
    isplitl [HO]; · iexact HO
    isplitl [Hts]; · iexact Hts
    isplitr; · iexact HRs
    isplitl [Htr]; · iexact Htr
    iexact HRr
  iintro ⟨Hczfs7, HO⟩
  iclear HIr HRs HRr
  sl_exec
  -- chunk 0 of the diagonal quarter: the x-neighbour's chunk has landed
  icases Hcr with ⟨Hc, Hcr⟩
  icases HpR with ⟨Hp, HpR⟩
  icases HIw with ⟨#HIc41, HIw⟩
  ihave Hmw := (mayWait_list (F := F) cc (dsem (⟨41, by decide⟩ : Fin 140)) (List.drop 40 (paysL cc)) (by decide)) $$ Hlev
  iapply (wait_a3_at m cc _ 0 rfl) $$ [Hc HO Hmw Hp]
  · isplitr; · iexact HIc41
    isplitl [Hc]; · iexact Hc
    isplitl [HO]; · iexact HO
    isplitl [Hmw]; · iexact Hmw
    iexact Hp
  iintro ⟨HO, Hq41, -, Hrb20⟩
  icases Hdg with ⟨Hdq0, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq0 := (congr (F := F) (r4R (dqF cc) 0) cc fullShare (dev.sl.Hdq0_w1 m f0) (r4 m cc) (fun i hi => glue_dgn m cc 0 0 rfl _ (k0_off18_inb cc) (k0_off18_eq cc) _ (k0_off49_inb cc) (k0_off49_eq cc) f0 i hi)) $$ Hdq0
  -- the four copies of chunk 0 into the result
  icases HvO with ⟨Hw0a, Hw0b, Hw0c, Hw0d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 1 of the diagonal quarter: the x-neighbour's chunk has landed
  icases Hcr with ⟨Hc, Hcr⟩
  icases HpR with ⟨Hp, HpR⟩
  icases HIw with ⟨#HIc42, HIw⟩
  ihave Hmw := (mayWait_list (F := F) cc (dsem (⟨42, by decide⟩ : Fin 140)) (List.drop 40 (paysL cc)) (by decide)) $$ Hlev
  iapply (wait_a3_at m cc _ 1 rfl) $$ [Hc HO Hmw Hp]
  · isplitr; · iexact HIc42
    isplitl [Hc]; · iexact Hc
    isplitl [HO]; · iexact HO
    isplitl [Hmw]; · iexact Hmw
    iexact Hp
  iintro ⟨HO, Hq42, -, Hrb21⟩
  icases Hdg with ⟨Hdq1, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq1 := (congr (F := F) (r4R (dqF cc) 1) cc fullShare (dev.sl.Hdq1_w1 m f0) (r4 m cc) (fun i hi => glue_dgn m cc 1 1 rfl _ (k0_off20_inb cc) (k0_off20_eq cc) _ (k0_off50_inb cc) (k0_off50_eq cc) f0 i hi)) $$ Hdq1
  -- the four copies of chunk 1 into the result
  icases HvO with ⟨Hw1a, Hw1b, Hw1c, Hw1d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 2 of the diagonal quarter: the x-neighbour's chunk has landed
  icases Hcr with ⟨Hc, Hcr⟩
  icases HpR with ⟨Hp, HpR⟩
  icases HIw with ⟨#HIc43, HIw⟩
  ihave Hmw := (mayWait_list (F := F) cc (dsem (⟨43, by decide⟩ : Fin 140)) (List.drop 40 (paysL cc)) (by decide)) $$ Hlev
  iapply (wait_a3_at m cc _ 2 rfl) $$ [Hc HO Hmw Hp]
  · isplitr; · iexact HIc43
    isplitl [Hc]; · iexact Hc
    isplitl [HO]; · iexact HO
    isplitl [Hmw]; · iexact Hmw
    iexact Hp
  iintro ⟨HO, Hq43, -, Hrb22⟩
  icases Hdg with ⟨Hdq2⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq2 := (congr (F := F) (r4R (dqF cc) 2) cc fullShare (dev.sl.Hdq2_w1 m f0) (r4 m cc) (fun i hi => glue_dgn m cc 2 2 rfl _ (k0_off22_inb cc) (k0_off22_eq cc) _ (k0_off51_inb cc) (k0_off51_eq cc) f0 i hi)) $$ Hdq2
  -- the four copies of chunk 2 into the result
  icases HvO with ⟨Hw2a, Hw2b, Hw2c, Hw2d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 6 of the diagonal quarter has landed
  icases Hcr with ⟨Hc, Hcr⟩
  icases HpR with ⟨Hp, HpR⟩
  icases HIw with ⟨#HIc90, HIw⟩
  ihave Hmw := (mayWait_list (F := F) cc (dsem (⟨90, by decide⟩ : Fin 140)) (List.drop 40 (paysL cc)) (by decide)) $$ Hlev
  iapply (wait_a9_at m cc _ 6 rfl (by decide)) $$ [Hc HO Hmw Hp]
  · isplitr; · iexact HIc90
    isplitl [Hc]; · iexact Hc
    isplitl [HO]; · iexact HO
    isplitl [Hmw]; · iexact Hmw
    iexact Hp
  iintro ⟨HO, Hq90, -, Hdl6⟩
  sl_exec
  -- its right half has landed
  icases Hcr with ⟨Hc, Hcr⟩
  icases HpR with ⟨Hp, HpR⟩
  icases HIw with ⟨#HIc106, HIw⟩
  ihave Hmw := (mayWait_list (F := F) cc (dsem (⟨106, by decide⟩ : Fin 140)) (List.drop 40 (paysL cc)) (by decide)) $$ Hlev
  iapply (wait_a11_at m cc _ 6 rfl (by decide)) $$ [Hc HO Hmw Hp]
  · isplitr; · iexact HIc106
    isplitl [Hc]; · iexact Hc
    isplitl [HO]; · iexact HO
    isplitl [Hmw]; · iexact Hmw
    iexact Hp
  iintro ⟨HO, Hq106, -, Hdr6⟩
  ihave Hd6 := (Entails.of_eq (chunk_halves (F := F) cc (dqF cc) 6 fullShare (r4 m cc)).symm) $$ [Hdl6 Hdr6]
  · isplitl [Hdl6]; · iexact Hdl6
    iexact Hdr6
  -- the four copies of chunk 6 into the result
  icases HvO with ⟨Hw6a, Hw6b, Hw6c, Hw6d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 7 of the diagonal quarter has landed
  icases Hcr with ⟨Hc, Hcr⟩
  icases HpR with ⟨Hp, HpR⟩
  icases HIw with ⟨#HIc91, HIw⟩
  ihave Hcr := ((sep_emp (PROP := sProp 𝕄)).2) $$ Hcr
  ihave Hmw := (mayWait_list (F := F) cc (dsem (⟨91, by decide⟩ : Fin 140)) (List.drop 40 (paysL cc)) (by decide)) $$ Hlev
  iapply (wait_a9_at m cc _ 7 rfl (by decide)) $$ [Hc HO Hmw Hp]
  · isplitr; · iexact HIc91
    isplitl [Hc]; · iexact Hc
    isplitl [HO]; · iexact HO
    isplitl [Hmw]; · iexact Hmw
    iexact Hp
  iintro ⟨HO, Hq91, -, Hdl7⟩
  sl_exec
  -- its right half has landed
  icases HIw with #HIc107
  icases Hcr with ⟨Hcr, -⟩
  ihave Hmw := (mayWait_list (F := F) cc (dsem (⟨107, by decide⟩ : Fin 140)) (List.drop 40 (paysL cc)) (by decide)) $$ Hlev
  iapply (wait_a11_at m cc _ 7 rfl (by decide)) $$ [Hcr HO Hmw HpR]
  · isplitr; · iexact HIc107
    isplitl [Hcr]; · iexact Hcr
    isplitl [HO]; · iexact HO
    isplitl [Hmw]; · iexact Hmw
    iexact HpR
  iintro ⟨HO, Hq107, -, Hdr7⟩
  ihave Hd7 := (Entails.of_eq (chunk_halves (F := F) cc (dqF cc) 7 fullShare (r4 m cc)).symm) $$ [Hdl7 Hdr7]
  · isplitl [Hdl7]; · iexact Hdl7
    iexact Hdr7
  -- the four copies of chunk 7 into the result
  icases HvO with ⟨Hw7a, Hw7b, Hw7c, Hw7d⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- nothing is owed any more: the level fact for the remaining local waits, once
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  -- the departure of chunk 0 across x
  icases HpS with ⟨Hp, HpS⟩
  ihave Hmw := (mayWait_list (F := F) cc (dsem (⟨22, by decide⟩ : Fin 140)) (List.drop 40 (paysL cc)) (by decide)) $$ Hlev
  iapply (wait_a0_at m cc _ 0 rfl) $$ [Hcxs0 HO Hmw Hp]
  · isplitr; · iexact HIc22
    isplitl [Hcxs0]; · iexact Hcxs0
    isplitl [HO]; · iexact HO
    isplitl [Hmw]; · iexact Hmw
    iexact Hp
  iintro ⟨HO, Hq22, -, HBs0⟩
  sl_exec
  -- of own chunk 0 to z
  icases HpS with ⟨Hp, HpS⟩
  ihave Hmw := (mayWait_list (F := F) cc (dsem (⟨44, by decide⟩ : Fin 140)) (List.drop 40 (paysL cc)) (by decide)) $$ Hlev
  iapply (wait_a4_at m cc _ 0 rfl) $$ [Hczs0 HO Hmw Hp]
  · isplitr; · iexact HIc44
    isplitl [Hczs0]; · iexact Hczs0
    isplitl [HO]; · iexact HO
    isplitl [Hmw]; · iexact Hmw
    iexact Hp
  iintro ⟨HO, Hq44, -, HoZb0⟩
  sl_exec
  -- of own chunk 0 to y
  icases HpS with ⟨Hp, HpS⟩
  ihave Hmw := (mayWait_list (F := F) cc (dsem (⟨60, by decide⟩ : Fin 140)) (List.drop 40 (paysL cc)) (by decide)) $$ Hlev
  iapply (wait_a6_at m cc _ 0 rfl) $$ [Hcys0 HO Hmw Hp]
  · isplitr; · iexact HIc60
    isplitl [Hcys0]; · iexact Hcys0
    isplitl [HO]; · iexact HO
    isplitl [Hmw]; · iexact Hmw
    iexact Hp
  iintro ⟨HO, Hq60, -, HoYb0⟩
  sl_exec
  -- the departure of chunk 1 across x
  icases HpS with ⟨Hp, HpS⟩
  ihave Hmw := (mayWait_list (F := F) cc (dsem (⟨23, by decide⟩ : Fin 140)) (List.drop 40 (paysL cc)) (by decide)) $$ Hlev
  iapply (wait_a0_at m cc _ 1 rfl) $$ [Hcxs1 HO Hmw Hp]
  · isplitr; · iexact HIc23
    isplitl [Hcxs1]; · iexact Hcxs1
    isplitl [HO]; · iexact HO
    isplitl [Hmw]; · iexact Hmw
    iexact Hp
  iintro ⟨HO, Hq23, -, HBs1⟩
  sl_exec
  -- of own chunk 1 to z
  icases HpS with ⟨Hp, HpS⟩
  ihave Hmw := (mayWait_list (F := F) cc (dsem (⟨45, by decide⟩ : Fin 140)) (List.drop 40 (paysL cc)) (by decide)) $$ Hlev
  iapply (wait_a4_at m cc _ 1 rfl) $$ [Hczs1 HO Hmw Hp]
  · isplitr; · iexact HIc45
    isplitl [Hczs1]; · iexact Hczs1
    isplitl [HO]; · iexact HO
    isplitl [Hmw]; · iexact Hmw
    iexact Hp
  iintro ⟨HO, Hq45, -, HoZb1⟩
  sl_exec
  -- of own chunk 1 to y
  icases HpS with ⟨Hp, HpS⟩
  ihave Hmw := (mayWait_list (F := F) cc (dsem (⟨61, by decide⟩ : Fin 140)) (List.drop 40 (paysL cc)) (by decide)) $$ Hlev
  iapply (wait_a6_at m cc _ 1 rfl) $$ [Hcys1 HO Hmw Hp]
  · isplitr; · iexact HIc61
    isplitl [Hcys1]; · iexact Hcys1
    isplitl [HO]; · iexact HO
    isplitl [Hmw]; · iexact Hmw
    iexact Hp
  iintro ⟨HO, Hq61, -, HoYb1⟩
  sl_exec
  -- the departure of chunk 2 across x
  icases HpS with ⟨Hp, HpS⟩
  ihave Hmw := (mayWait_list (F := F) cc (dsem (⟨24, by decide⟩ : Fin 140)) (List.drop 40 (paysL cc)) (by decide)) $$ Hlev
  iapply (wait_a0_at m cc _ 2 rfl) $$ [Hcxs2 HO Hmw Hp]
  · isplitr; · iexact HIc24
    isplitl [Hcxs2]; · iexact Hcxs2
    isplitl [HO]; · iexact HO
    isplitl [Hmw]; · iexact Hmw
    iexact Hp
  iintro ⟨HO, Hq24, -, HBs2⟩
  sl_exec
  -- of own chunk 2 to z
  icases HpS with ⟨Hp, HpS⟩
  ihave Hmw := (mayWait_list (F := F) cc (dsem (⟨46, by decide⟩ : Fin 140)) (List.drop 40 (paysL cc)) (by decide)) $$ Hlev
  iapply (wait_a4_at m cc _ 2 rfl) $$ [Hczs2 HO Hmw Hp]
  · isplitr; · iexact HIc46
    isplitl [Hczs2]; · iexact Hczs2
    isplitl [HO]; · iexact HO
    isplitl [Hmw]; · iexact Hmw
    iexact Hp
  iintro ⟨HO, Hq46, -, HoZb2⟩
  sl_exec
  -- of own chunk 2 to y
  icases HpS with ⟨Hp, HpS⟩
  ihave Hmw := (mayWait_list (F := F) cc (dsem (⟨62, by decide⟩ : Fin 140)) (List.drop 40 (paysL cc)) (by decide)) $$ Hlev
  iapply (wait_a6_at m cc _ 2 rfl) $$ [Hcys2 HO Hmw Hp]
  · isplitr; · iexact HIc62
    isplitl [Hcys2]; · iexact Hcys2
    isplitl [HO]; · iexact HO
    isplitl [Hmw]; · iexact Hmw
    iexact Hp
  iintro ⟨HO, Hq62, -, HoYb2⟩
  sl_exec
  -- the departure of chunk 3 across x
  icases HpS with ⟨Hp, HpS⟩
  ihave Hmw := (mayWait_list (F := F) cc (dsem (⟨25, by decide⟩ : Fin 140)) (List.drop 40 (paysL cc)) (by decide)) $$ Hlev
  iapply (wait_a0_at m cc _ 3 rfl) $$ [Hcxs3 HO Hmw Hp]
  · isplitr; · iexact HIc25
    isplitl [Hcxs3]; · iexact Hcxs3
    isplitl [HO]; · iexact HO
    isplitl [Hmw]; · iexact Hmw
    iexact Hp
  iintro ⟨HO, Hq25, -, HBs3⟩
  sl_exec
  -- of own chunk 3 to z
  icases HpS with ⟨Hp, HpS⟩
  ihave Hmw := (mayWait_list (F := F) cc (dsem (⟨47, by decide⟩ : Fin 140)) (List.drop 40 (paysL cc)) (by decide)) $$ Hlev
  iapply (wait_a4_at m cc _ 3 rfl) $$ [Hczs3 HO Hmw Hp]
  · isplitr; · iexact HIc47
    isplitl [Hczs3]; · iexact Hczs3
    isplitl [HO]; · iexact HO
    isplitl [Hmw]; · iexact Hmw
    iexact Hp
  iintro ⟨HO, Hq47, -, HoZb3⟩
  sl_exec
  -- of own chunk 3 to y
  icases HpS with ⟨Hp, HpS⟩
  ihave Hmw := (mayWait_list (F := F) cc (dsem (⟨63, by decide⟩ : Fin 140)) (List.drop 40 (paysL cc)) (by decide)) $$ Hlev
  iapply (wait_a6_at m cc _ 3 rfl) $$ [Hcys3 HO Hmw Hp]
  · isplitr; · iexact HIc63
    isplitl [Hcys3]; · iexact Hcys3
    isplitl [HO]; · iexact HO
    isplitl [Hmw]; · iexact Hmw
    iexact Hp
  iintro ⟨HO, Hq63, -, HoYb3⟩
  sl_exec
  -- of the forwarded half to z
  icases HpS with ⟨Hp, HpS⟩
  ihave Hmw := (mayWait_list (F := F) cc (dsem (⟨79, by decide⟩ : Fin 140)) (List.drop 40 (paysL cc)) (by decide)) $$ Hlev
  iapply (wait_a8_at m cc _ 3 rfl (by decide)) $$ [Hczfs3 HO Hmw Hp]
  · isplitr; · iexact HIc79
    isplitl [Hczfs3]; · iexact Hczfs3
    isplitl [HO]; · iexact HO
    isplitl [Hmw]; · iexact Hmw
    iexact Hp
  iintro ⟨HO, Hq79, -, HyFlb3⟩
  sl_exec
  -- of the forwarded half to y
  icases HpS with ⟨Hp, HpS⟩
  ihave Hmw := (mayWait_list (F := F) cc (dsem (⟨95, by decide⟩ : Fin 140)) (List.drop 40 (paysL cc)) (by decide)) $$ Hlev
  iapply (wait_a10_at m cc _ 3 rfl (by decide)) $$ [Hcyfs3 HO Hmw Hp]
  · isplitr; · iexact HIc95
    isplitl [Hcyfs3]; · iexact Hcyfs3
    isplitl [HO]; · iexact HO
    isplitl [Hmw]; · iexact Hmw
    iexact Hp
  iintro ⟨HO, Hq95, -, HzFrb3⟩
  sl_exec
  -- the departure of chunk 4 across x
  icases HpS with ⟨Hp, HpS⟩
  ihave Hmw := (mayWait_list (F := F) cc (dsem (⟨26, by decide⟩ : Fin 140)) (List.drop 40 (paysL cc)) (by decide)) $$ Hlev
  iapply (wait_a0_at m cc _ 4 rfl) $$ [Hcxs4 HO Hmw Hp]
  · isplitr; · iexact HIc26
    isplitl [Hcxs4]; · iexact Hcxs4
    isplitl [HO]; · iexact HO
    isplitl [Hmw]; · iexact Hmw
    iexact Hp
  iintro ⟨HO, Hq26, -, HBs4⟩
  sl_exec
  -- of own chunk 4 to z
  icases HpS with ⟨Hp, HpS⟩
  ihave Hmw := (mayWait_list (F := F) cc (dsem (⟨48, by decide⟩ : Fin 140)) (List.drop 40 (paysL cc)) (by decide)) $$ Hlev
  iapply (wait_a4_at m cc _ 4 rfl) $$ [Hczs4 HO Hmw Hp]
  · isplitr; · iexact HIc48
    isplitl [Hczs4]; · iexact Hczs4
    isplitl [HO]; · iexact HO
    isplitl [Hmw]; · iexact Hmw
    iexact Hp
  iintro ⟨HO, Hq48, -, HoZb4⟩
  sl_exec
  -- of own chunk 4 to y
  icases HpS with ⟨Hp, HpS⟩
  ihave Hmw := (mayWait_list (F := F) cc (dsem (⟨64, by decide⟩ : Fin 140)) (List.drop 40 (paysL cc)) (by decide)) $$ Hlev
  iapply (wait_a6_at m cc _ 4 rfl) $$ [Hcys4 HO Hmw Hp]
  · isplitr; · iexact HIc64
    isplitl [Hcys4]; · iexact Hcys4
    isplitl [HO]; · iexact HO
    isplitl [Hmw]; · iexact Hmw
    iexact Hp
  iintro ⟨HO, Hq64, -, HoYb4⟩
  sl_exec
  -- of the forwarded half to z
  icases HpS with ⟨Hp, HpS⟩
  ihave Hmw := (mayWait_list (F := F) cc (dsem (⟨80, by decide⟩ : Fin 140)) (List.drop 40 (paysL cc)) (by decide)) $$ Hlev
  iapply (wait_a8_at m cc _ 4 rfl (by decide)) $$ [Hczfs4 HO Hmw Hp]
  · isplitr; · iexact HIc80
    isplitl [Hczfs4]; · iexact Hczfs4
    isplitl [HO]; · iexact HO
    isplitl [Hmw]; · iexact Hmw
    iexact Hp
  iintro ⟨HO, Hq80, -, HyFlb4⟩
  sl_exec
  -- of the forwarded half to y
  icases HpS with ⟨Hp, HpS⟩
  ihave Hmw := (mayWait_list (F := F) cc (dsem (⟨96, by decide⟩ : Fin 140)) (List.drop 40 (paysL cc)) (by decide)) $$ Hlev
  iapply (wait_a10_at m cc _ 4 rfl (by decide)) $$ [Hcyfs4 HO Hmw Hp]
  · isplitr; · iexact HIc96
    isplitl [Hcyfs4]; · iexact Hcyfs4
    isplitl [HO]; · iexact HO
    isplitl [Hmw]; · iexact Hmw
    iexact Hp
  iintro ⟨HO, Hq96, -, HzFrb4⟩
  sl_exec
  -- the departure of chunk 5 across x
  icases HpS with ⟨Hp, HpS⟩
  ihave Hmw := (mayWait_list (F := F) cc (dsem (⟨27, by decide⟩ : Fin 140)) (List.drop 40 (paysL cc)) (by decide)) $$ Hlev
  iapply (wait_a0_at m cc _ 5 rfl) $$ [Hcxs5 HO Hmw Hp]
  · isplitr; · iexact HIc27
    isplitl [Hcxs5]; · iexact Hcxs5
    isplitl [HO]; · iexact HO
    isplitl [Hmw]; · iexact Hmw
    iexact Hp
  iintro ⟨HO, Hq27, -, HBs5⟩
  sl_exec
  -- of own chunk 5 to z
  icases HpS with ⟨Hp, HpS⟩
  ihave Hmw := (mayWait_list (F := F) cc (dsem (⟨49, by decide⟩ : Fin 140)) (List.drop 40 (paysL cc)) (by decide)) $$ Hlev
  iapply (wait_a4_at m cc _ 5 rfl) $$ [Hczs5 HO Hmw Hp]
  · isplitr; · iexact HIc49
    isplitl [Hczs5]; · iexact Hczs5
    isplitl [HO]; · iexact HO
    isplitl [Hmw]; · iexact Hmw
    iexact Hp
  iintro ⟨HO, Hq49, -, HoZb5⟩
  sl_exec
  -- of own chunk 5 to y
  icases HpS with ⟨Hp, HpS⟩
  ihave Hmw := (mayWait_list (F := F) cc (dsem (⟨65, by decide⟩ : Fin 140)) (List.drop 40 (paysL cc)) (by decide)) $$ Hlev
  iapply (wait_a6_at m cc _ 5 rfl) $$ [Hcys5 HO Hmw Hp]
  · isplitr; · iexact HIc65
    isplitl [Hcys5]; · iexact Hcys5
    isplitl [HO]; · iexact HO
    isplitl [Hmw]; · iexact Hmw
    iexact Hp
  iintro ⟨HO, Hq65, -, HoYb5⟩
  sl_exec
  -- of the forwarded half to z
  icases HpS with ⟨Hp, HpS⟩
  ihave Hmw := (mayWait_list (F := F) cc (dsem (⟨81, by decide⟩ : Fin 140)) (List.drop 40 (paysL cc)) (by decide)) $$ Hlev
  iapply (wait_a8_at m cc _ 5 rfl (by decide)) $$ [Hczfs5 HO Hmw Hp]
  · isplitr; · iexact HIc81
    isplitl [Hczfs5]; · iexact Hczfs5
    isplitl [HO]; · iexact HO
    isplitl [Hmw]; · iexact Hmw
    iexact Hp
  iintro ⟨HO, Hq81, -, HyFlb5⟩
  sl_exec
  -- of the forwarded half to y
  icases HpS with ⟨Hp, HpS⟩
  ihave Hmw := (mayWait_list (F := F) cc (dsem (⟨97, by decide⟩ : Fin 140)) (List.drop 40 (paysL cc)) (by decide)) $$ Hlev
  iapply (wait_a10_at m cc _ 5 rfl (by decide)) $$ [Hcyfs5 HO Hmw Hp]
  · isplitr; · iexact HIc97
    isplitl [Hcyfs5]; · iexact Hcyfs5
    isplitl [HO]; · iexact HO
    isplitl [Hmw]; · iexact Hmw
    iexact Hp
  iintro ⟨HO, Hq97, -, HzFrb5⟩
  sl_exec
  -- the departure of chunk 6 across x
  icases HpS with ⟨Hp, HpS⟩
  ihave Hmw := (mayWait_list (F := F) cc (dsem (⟨28, by decide⟩ : Fin 140)) (List.drop 40 (paysL cc)) (by decide)) $$ Hlev
  iapply (wait_a0_at m cc _ 6 rfl) $$ [Hcxs6 HO Hmw Hp]
  · isplitr; · iexact HIc28
    isplitl [Hcxs6]; · iexact Hcxs6
    isplitl [HO]; · iexact HO
    isplitl [Hmw]; · iexact Hmw
    iexact Hp
  iintro ⟨HO, Hq28, -, HBs6⟩
  sl_exec
  -- of own chunk 6 to z
  icases HpS with ⟨Hp, HpS⟩
  ihave Hmw := (mayWait_list (F := F) cc (dsem (⟨50, by decide⟩ : Fin 140)) (List.drop 40 (paysL cc)) (by decide)) $$ Hlev
  iapply (wait_a4_at m cc _ 6 rfl) $$ [Hczs6 HO Hmw Hp]
  · isplitr; · iexact HIc50
    isplitl [Hczs6]; · iexact Hczs6
    isplitl [HO]; · iexact HO
    isplitl [Hmw]; · iexact Hmw
    iexact Hp
  iintro ⟨HO, Hq50, -, HoZb6⟩
  sl_exec
  -- of own chunk 6 to y
  icases HpS with ⟨Hp, HpS⟩
  ihave Hmw := (mayWait_list (F := F) cc (dsem (⟨66, by decide⟩ : Fin 140)) (List.drop 40 (paysL cc)) (by decide)) $$ Hlev
  iapply (wait_a6_at m cc _ 6 rfl) $$ [Hcys6 HO Hmw Hp]
  · isplitr; · iexact HIc66
    isplitl [Hcys6]; · iexact Hcys6
    isplitl [HO]; · iexact HO
    isplitl [Hmw]; · iexact Hmw
    iexact Hp
  iintro ⟨HO, Hq66, -, HoYb6⟩
  sl_exec
  -- of the forwarded half to z
  icases HpS with ⟨Hp, HpS⟩
  ihave Hmw := (mayWait_list (F := F) cc (dsem (⟨82, by decide⟩ : Fin 140)) (List.drop 40 (paysL cc)) (by decide)) $$ Hlev
  iapply (wait_a8_at m cc _ 6 rfl (by decide)) $$ [Hczfs6 HO Hmw Hp]
  · isplitr; · iexact HIc82
    isplitl [Hczfs6]; · iexact Hczfs6
    isplitl [HO]; · iexact HO
    isplitl [Hmw]; · iexact Hmw
    iexact Hp
  iintro ⟨HO, Hq82, -, HyFlb6⟩
  sl_exec
  -- of the forwarded half to y
  icases HpS with ⟨Hp, HpS⟩
  ihave Hmw := (mayWait_list (F := F) cc (dsem (⟨98, by decide⟩ : Fin 140)) (List.drop 40 (paysL cc)) (by decide)) $$ Hlev
  iapply (wait_a10_at m cc _ 6 rfl (by decide)) $$ [Hcyfs6 HO Hmw Hp]
  · isplitr; · iexact HIc98
    isplitl [Hcyfs6]; · iexact Hcyfs6
    isplitl [HO]; · iexact HO
    isplitl [Hmw]; · iexact Hmw
    iexact Hp
  iintro ⟨HO, Hq98, -, HzFrb6⟩
  sl_exec
  -- the departure of chunk 7 across x
  icases HpS with ⟨Hp, HpS⟩
  ihave Hmw := (mayWait_list (F := F) cc (dsem (⟨29, by decide⟩ : Fin 140)) (List.drop 40 (paysL cc)) (by decide)) $$ Hlev
  iapply (wait_a0_at m cc _ 7 rfl) $$ [Hcxs7 HO Hmw Hp]
  · isplitr; · iexact HIc29
    isplitl [Hcxs7]; · iexact Hcxs7
    isplitl [HO]; · iexact HO
    isplitl [Hmw]; · iexact Hmw
    iexact Hp
  iintro ⟨HO, Hq29, -, HBs7⟩
  sl_exec
  -- of own chunk 7 to z
  icases HpS with ⟨Hp, HpS⟩
  ihave Hmw := (mayWait_list (F := F) cc (dsem (⟨51, by decide⟩ : Fin 140)) (List.drop 40 (paysL cc)) (by decide)) $$ Hlev
  iapply (wait_a4_at m cc _ 7 rfl) $$ [Hczs7 HO Hmw Hp]
  · isplitr; · iexact HIc51
    isplitl [Hczs7]; · iexact Hczs7
    isplitl [HO]; · iexact HO
    isplitl [Hmw]; · iexact Hmw
    iexact Hp
  iintro ⟨HO, Hq51, -, HoZb7⟩
  sl_exec
  -- of own chunk 7 to y
  icases HpS with ⟨Hp, HpS⟩
  ihave Hmw := (mayWait_list (F := F) cc (dsem (⟨67, by decide⟩ : Fin 140)) (List.drop 40 (paysL cc)) (by decide)) $$ Hlev
  iapply (wait_a6_at m cc _ 7 rfl) $$ [Hcys7 HO Hmw Hp]
  · isplitr; · iexact HIc67
    isplitl [Hcys7]; · iexact Hcys7
    isplitl [HO]; · iexact HO
    isplitl [Hmw]; · iexact Hmw
    iexact Hp
  iintro ⟨HO, Hq67, -, HoYb7⟩
  sl_exec
  -- of the forwarded half to z
  icases HpS with ⟨Hp, HpS⟩
  ihave Hmw := (mayWait_list (F := F) cc (dsem (⟨83, by decide⟩ : Fin 140)) (List.drop 40 (paysL cc)) (by decide)) $$ Hlev
  iapply (wait_a8_at m cc _ 7 rfl (by decide)) $$ [Hczfs7 HO Hmw Hp]
  · isplitr; · iexact HIc83
    isplitl [Hczfs7]; · iexact Hczfs7
    isplitl [HO]; · iexact HO
    isplitl [Hmw]; · iexact Hmw
    iexact Hp
  iintro ⟨HO, Hq83, -, HyFlb7⟩
  sl_exec
  -- of the forwarded half to y
  icases HpS with ⟨Hp, HpS⟩
  ihave Hmw := (mayWait_list (F := F) cc (dsem (⟨99, by decide⟩ : Fin 140)) (List.drop 40 (paysL cc)) (by decide)) $$ Hlev
  iapply (wait_a10_at m cc _ 7 rfl (by decide)) $$ [Hcyfs7 HO Hmw Hp]
  · isplitr; · iexact HIc99
    isplitl [Hcyfs7]; · iexact Hcyfs7
    isplitl [HO]; · iexact HO
    isplitl [Hmw]; · iexact Hmw
    iexact Hp
  iintro ⟨HO, Hq99, -, HzFrb7⟩
  sl_exec
  -- of chunk 0 of the diagonal quarter across x
  icases HpS with ⟨Hp, HpS⟩
  ihave Hmw := (mayWait_list (F := F) cc (dsem (⟨38, by decide⟩ : Fin 140)) (List.drop 40 (paysL cc)) (by decide)) $$ Hlev
  iapply (wait_a2_at m cc _ 0 rfl) $$ [Hcds0 HO Hmw Hp]
  · isplitr; · iexact HIc38
    isplitl [Hcds0]; · iexact Hcds0
    isplitl [HO]; · iexact HO
    isplitl [Hmw]; · iexact Hmw
    iexact Hp
  iintro ⟨HO, Hq38, -, HB2s0⟩
  sl_exec
  -- of chunk 1 of the diagonal quarter across x
  icases HpS with ⟨Hp, HpS⟩
  ihave HpS := ((sep_emp (PROP := sProp 𝕄)).2) $$ HpS
  ihave Hmw := (mayWait_list (F := F) cc (dsem (⟨39, by decide⟩ : Fin 140)) (List.drop 40 (paysL cc)) (by decide)) $$ Hlev
  iapply (wait_a2_at m cc _ 1 rfl) $$ [Hcds1 HO Hmw Hp]
  · isplitr; · iexact HIc39
    isplitl [Hcds1]; · iexact Hcds1
    isplitl [HO]; · iexact HO
    isplitl [Hmw]; · iexact Hmw
    iexact Hp
  iintro ⟨HO, Hq39, -, HB2s1⟩
  sl_exec
  -- of chunk 2 of the diagonal quarter across x

  icases HpS with ⟨HpS, -⟩
  ihave Hmw := (mayWait_list (F := F) cc (dsem (⟨40, by decide⟩ : Fin 140)) (List.drop 40 (paysL cc)) (by decide)) $$ Hlev
  iapply (wait_a2_at m cc _ 2 rfl) $$ [Hcds2 HO Hmw HpS]
  · isplitr; · iexact HIc40
    isplitl [Hcds2]; · iexact Hcds2
    isplitl [HO]; · iexact HO
    isplitl [Hmw]; · iexact Hmw
    iexact HpS
  iintro ⟨HO, Hq40, -, HB2s2⟩
  sl_exec
  -- every cell of the protocol on this device has had its one round: close them, their counters are the device's again
  imod (close_cell (F := F) m cc (⟨22, by decide⟩ : Fin 140) (by decide)) $$ [Hq22] with Hv22
  · isplitr; · iexact HIc22
    iexact Hq22
  imod (close_cell (F := F) m cc (⟨23, by decide⟩ : Fin 140) (by decide)) $$ [Hq23] with Hv23
  · isplitr; · iexact HIc23
    iexact Hq23
  imod (close_cell (F := F) m cc (⟨24, by decide⟩ : Fin 140) (by decide)) $$ [Hq24] with Hv24
  · isplitr; · iexact HIc24
    iexact Hq24
  imod (close_cell (F := F) m cc (⟨25, by decide⟩ : Fin 140) (by decide)) $$ [Hq25] with Hv25
  · isplitr; · iexact HIc25
    iexact Hq25
  imod (close_cell (F := F) m cc (⟨26, by decide⟩ : Fin 140) (by decide)) $$ [Hq26] with Hv26
  · isplitr; · iexact HIc26
    iexact Hq26
  imod (close_cell (F := F) m cc (⟨27, by decide⟩ : Fin 140) (by decide)) $$ [Hq27] with Hv27
  · isplitr; · iexact HIc27
    iexact Hq27
  imod (close_cell (F := F) m cc (⟨28, by decide⟩ : Fin 140) (by decide)) $$ [Hq28] with Hv28
  · isplitr; · iexact HIc28
    iexact Hq28
  imod (close_cell (F := F) m cc (⟨29, by decide⟩ : Fin 140) (by decide)) $$ [Hq29] with Hv29
  · isplitr; · iexact HIc29
    iexact Hq29
  imod (close_cell (F := F) m cc (⟨30, by decide⟩ : Fin 140) (by decide)) $$ [Hq30] with Hv30
  · isplitr; · iexact HIc30
    iexact Hq30
  imod (close_cell (F := F) m cc (⟨31, by decide⟩ : Fin 140) (by decide)) $$ [Hq31] with Hv31
  · isplitr; · iexact HIc31
    iexact Hq31
  imod (close_cell (F := F) m cc (⟨32, by decide⟩ : Fin 140) (by decide)) $$ [Hq32] with Hv32
  · isplitr; · iexact HIc32
    iexact Hq32
  imod (close_cell (F := F) m cc (⟨33, by decide⟩ : Fin 140) (by decide)) $$ [Hq33] with Hv33
  · isplitr; · iexact HIc33
    iexact Hq33
  imod (close_cell (F := F) m cc (⟨34, by decide⟩ : Fin 140) (by decide)) $$ [Hq34] with Hv34
  · isplitr; · iexact HIc34
    iexact Hq34
  imod (close_cell (F := F) m cc (⟨35, by decide⟩ : Fin 140) (by decide)) $$ [Hq35] with Hv35
  · isplitr; · iexact HIc35
    iexact Hq35
  imod (close_cell (F := F) m cc (⟨36, by decide⟩ : Fin 140) (by decide)) $$ [Hq36] with Hv36
  · isplitr; · iexact HIc36
    iexact Hq36
  imod (close_cell (F := F) m cc (⟨37, by decide⟩ : Fin 140) (by decide)) $$ [Hq37] with Hv37
  · isplitr; · iexact HIc37
    iexact Hq37
  imod (close_cell (F := F) m cc (⟨38, by decide⟩ : Fin 140) (by decide)) $$ [Hq38] with Hv38
  · isplitr; · iexact HIc38
    iexact Hq38
  imod (close_cell (F := F) m cc (⟨39, by decide⟩ : Fin 140) (by decide)) $$ [Hq39] with Hv39
  · isplitr; · iexact HIc39
    iexact Hq39
  imod (close_cell (F := F) m cc (⟨40, by decide⟩ : Fin 140) (by decide)) $$ [Hq40] with Hv40
  · isplitr; · iexact HIc40
    iexact Hq40
  imod (close_cell (F := F) m cc (⟨41, by decide⟩ : Fin 140) (by decide)) $$ [Hq41] with Hv41
  · isplitr; · iexact HIc41
    iexact Hq41
  imod (close_cell (F := F) m cc (⟨42, by decide⟩ : Fin 140) (by decide)) $$ [Hq42] with Hv42
  · isplitr; · iexact HIc42
    iexact Hq42
  imod (close_cell (F := F) m cc (⟨43, by decide⟩ : Fin 140) (by decide)) $$ [Hq43] with Hv43
  · isplitr; · iexact HIc43
    iexact Hq43
  imod (close_cell (F := F) m cc (⟨44, by decide⟩ : Fin 140) (by decide)) $$ [Hq44] with Hv44
  · isplitr; · iexact HIc44
    iexact Hq44
  imod (close_cell (F := F) m cc (⟨45, by decide⟩ : Fin 140) (by decide)) $$ [Hq45] with Hv45
  · isplitr; · iexact HIc45
    iexact Hq45
  imod (close_cell (F := F) m cc (⟨46, by decide⟩ : Fin 140) (by decide)) $$ [Hq46] with Hv46
  · isplitr; · iexact HIc46
    iexact Hq46
  imod (close_cell (F := F) m cc (⟨47, by decide⟩ : Fin 140) (by decide)) $$ [Hq47] with Hv47
  · isplitr; · iexact HIc47
    iexact Hq47
  imod (close_cell (F := F) m cc (⟨48, by decide⟩ : Fin 140) (by decide)) $$ [Hq48] with Hv48
  · isplitr; · iexact HIc48
    iexact Hq48
  imod (close_cell (F := F) m cc (⟨49, by decide⟩ : Fin 140) (by decide)) $$ [Hq49] with Hv49
  · isplitr; · iexact HIc49
    iexact Hq49
  imod (close_cell (F := F) m cc (⟨50, by decide⟩ : Fin 140) (by decide)) $$ [Hq50] with Hv50
  · isplitr; · iexact HIc50
    iexact Hq50
  imod (close_cell (F := F) m cc (⟨51, by decide⟩ : Fin 140) (by decide)) $$ [Hq51] with Hv51
  · isplitr; · iexact HIc51
    iexact Hq51
  imod (close_cell (F := F) m cc (⟨52, by decide⟩ : Fin 140) (by decide)) $$ [Hq52] with Hv52
  · isplitr; · iexact HIc52
    iexact Hq52
  imod (close_cell (F := F) m cc (⟨53, by decide⟩ : Fin 140) (by decide)) $$ [Hq53] with Hv53
  · isplitr; · iexact HIc53
    iexact Hq53
  imod (close_cell (F := F) m cc (⟨54, by decide⟩ : Fin 140) (by decide)) $$ [Hq54] with Hv54
  · isplitr; · iexact HIc54
    iexact Hq54
  imod (close_cell (F := F) m cc (⟨55, by decide⟩ : Fin 140) (by decide)) $$ [Hq55] with Hv55
  · isplitr; · iexact HIc55
    iexact Hq55
  imod (close_cell (F := F) m cc (⟨56, by decide⟩ : Fin 140) (by decide)) $$ [Hq56] with Hv56
  · isplitr; · iexact HIc56
    iexact Hq56
  imod (close_cell (F := F) m cc (⟨57, by decide⟩ : Fin 140) (by decide)) $$ [Hq57] with Hv57
  · isplitr; · iexact HIc57
    iexact Hq57
  imod (close_cell (F := F) m cc (⟨58, by decide⟩ : Fin 140) (by decide)) $$ [Hq58] with Hv58
  · isplitr; · iexact HIc58
    iexact Hq58
  imod (close_cell (F := F) m cc (⟨59, by decide⟩ : Fin 140) (by decide)) $$ [Hq59] with Hv59
  · isplitr; · iexact HIc59
    iexact Hq59
  imod (close_cell (F := F) m cc (⟨60, by decide⟩ : Fin 140) (by decide)) $$ [Hq60] with Hv60
  · isplitr; · iexact HIc60
    iexact Hq60
  imod (close_cell (F := F) m cc (⟨61, by decide⟩ : Fin 140) (by decide)) $$ [Hq61] with Hv61
  · isplitr; · iexact HIc61
    iexact Hq61
  imod (close_cell (F := F) m cc (⟨62, by decide⟩ : Fin 140) (by decide)) $$ [Hq62] with Hv62
  · isplitr; · iexact HIc62
    iexact Hq62
  imod (close_cell (F := F) m cc (⟨63, by decide⟩ : Fin 140) (by decide)) $$ [Hq63] with Hv63
  · isplitr; · iexact HIc63
    iexact Hq63
  imod (close_cell (F := F) m cc (⟨64, by decide⟩ : Fin 140) (by decide)) $$ [Hq64] with Hv64
  · isplitr; · iexact HIc64
    iexact Hq64
  imod (close_cell (F := F) m cc (⟨65, by decide⟩ : Fin 140) (by decide)) $$ [Hq65] with Hv65
  · isplitr; · iexact HIc65
    iexact Hq65
  imod (close_cell (F := F) m cc (⟨66, by decide⟩ : Fin 140) (by decide)) $$ [Hq66] with Hv66
  · isplitr; · iexact HIc66
    iexact Hq66
  imod (close_cell (F := F) m cc (⟨67, by decide⟩ : Fin 140) (by decide)) $$ [Hq67] with Hv67
  · isplitr; · iexact HIc67
    iexact Hq67
  imod (close_cell (F := F) m cc (⟨68, by decide⟩ : Fin 140) (by decide)) $$ [Hq68] with Hv68
  · isplitr; · iexact HIc68
    iexact Hq68
  imod (close_cell (F := F) m cc (⟨69, by decide⟩ : Fin 140) (by decide)) $$ [Hq69] with Hv69
  · isplitr; · iexact HIc69
    iexact Hq69
  imod (close_cell (F := F) m cc (⟨70, by decide⟩ : Fin 140) (by decide)) $$ [Hq70] with Hv70
  · isplitr; · iexact HIc70
    iexact Hq70
  imod (close_cell (F := F) m cc (⟨71, by decide⟩ : Fin 140) (by decide)) $$ [Hq71] with Hv71
  · isplitr; · iexact HIc71
    iexact Hq71
  imod (close_cell (F := F) m cc (⟨72, by decide⟩ : Fin 140) (by decide)) $$ [Hq72] with Hv72
  · isplitr; · iexact HIc72
    iexact Hq72
  imod (close_cell (F := F) m cc (⟨73, by decide⟩ : Fin 140) (by decide)) $$ [Hq73] with Hv73
  · isplitr; · iexact HIc73
    iexact Hq73
  imod (close_cell (F := F) m cc (⟨74, by decide⟩ : Fin 140) (by decide)) $$ [Hq74] with Hv74
  · isplitr; · iexact HIc74
    iexact Hq74
  imod (close_cell (F := F) m cc (⟨75, by decide⟩ : Fin 140) (by decide)) $$ [Hq75] with Hv75
  · isplitr; · iexact HIc75
    iexact Hq75
  imod (close_cell (F := F) m cc (⟨79, by decide⟩ : Fin 140) (by decide)) $$ [Hq79] with Hv79
  · isplitr; · iexact HIc79
    iexact Hq79
  imod (close_cell (F := F) m cc (⟨80, by decide⟩ : Fin 140) (by decide)) $$ [Hq80] with Hv80
  · isplitr; · iexact HIc80
    iexact Hq80
  imod (close_cell (F := F) m cc (⟨81, by decide⟩ : Fin 140) (by decide)) $$ [Hq81] with Hv81
  · isplitr; · iexact HIc81
    iexact Hq81
  imod (close_cell (F := F) m cc (⟨82, by decide⟩ : Fin 140) (by decide)) $$ [Hq82] with Hv82
  · isplitr; · iexact HIc82
    iexact Hq82
  imod (close_cell (F := F) m cc (⟨83, by decide⟩ : Fin 140) (by decide)) $$ [Hq83] with Hv83
  · isplitr; · iexact HIc83
    iexact Hq83
  imod (close_cell (F := F) m cc (⟨87, by decide⟩ : Fin 140) (by decide)) $$ [Hq87] with Hv87
  · isplitr; · iexact HIc87
    iexact Hq87
  imod (close_cell (F := F) m cc (⟨88, by decide⟩ : Fin 140) (by decide)) $$ [Hq88] with Hv88
  · isplitr; · iexact HIc88
    iexact Hq88
  imod (close_cell (F := F) m cc (⟨89, by decide⟩ : Fin 140) (by decide)) $$ [Hq89] with Hv89
  · isplitr; · iexact HIc89
    iexact Hq89
  imod (close_cell (F := F) m cc (⟨90, by decide⟩ : Fin 140) (by decide)) $$ [Hq90] with Hv90
  · isplitr; · iexact HIc90
    iexact Hq90
  imod (close_cell (F := F) m cc (⟨91, by decide⟩ : Fin 140) (by decide)) $$ [Hq91] with Hv91
  · isplitr; · iexact HIc91
    iexact Hq91
  imod (close_cell (F := F) m cc (⟨95, by decide⟩ : Fin 140) (by decide)) $$ [Hq95] with Hv95
  · isplitr; · iexact HIc95
    iexact Hq95
  imod (close_cell (F := F) m cc (⟨96, by decide⟩ : Fin 140) (by decide)) $$ [Hq96] with Hv96
  · isplitr; · iexact HIc96
    iexact Hq96
  imod (close_cell (F := F) m cc (⟨97, by decide⟩ : Fin 140) (by decide)) $$ [Hq97] with Hv97
  · isplitr; · iexact HIc97
    iexact Hq97
  imod (close_cell (F := F) m cc (⟨98, by decide⟩ : Fin 140) (by decide)) $$ [Hq98] with Hv98
  · isplitr; · iexact HIc98
    iexact Hq98
  imod (close_cell (F := F) m cc (⟨99, by decide⟩ : Fin 140) (by decide)) $$ [Hq99] with Hv99
  · isplitr; · iexact HIc99
    iexact Hq99
  imod (close_cell (F := F) m cc (⟨103, by decide⟩ : Fin 140) (by decide)) $$ [Hq103] with Hv103
  · isplitr; · iexact HIc103
    iexact Hq103
  imod (close_cell (F := F) m cc (⟨104, by decide⟩ : Fin 140) (by decide)) $$ [Hq104] with Hv104
  · isplitr; · iexact HIc104
    iexact Hq104
  imod (close_cell (F := F) m cc (⟨105, by decide⟩ : Fin 140) (by decide)) $$ [Hq105] with Hv105
  · isplitr; · iexact HIc105
    iexact Hq105
  imod (close_cell (F := F) m cc (⟨106, by decide⟩ : Fin 140) (by decide)) $$ [Hq106] with Hv106
  · isplitr; · iexact HIc106
    iexact Hq106
  imod (close_cell (F := F) m cc (⟨107, by decide⟩ : Fin 140) (by decide)) $$ [Hq107] with Hv107
  · isplitr; · iexact HIc107
    iexact Hq107
  -- the program is over: hand everything back
  icases HvU with ⟨Hu76, Hu77, Hu78, Hu84, Hu85, Hu86, Hu92, Hu93, Hu94, Hu100, Hu101, Hu102⟩
  ihave HO := (Entails.of_eq (show owes (cc : Thread nD τ) (owedL (List.drop 40 (paysL cc))) _ = owes (cc : Thread nD τ) 0 _ from rfl)) $$ HO
  -- each block of the result holds what its copy wrote: the final contents
  ihave HU00 := (congr (F := F) (outR 0 0) cc fullShare ((outR 0 0).view.writes (Elt F) g00 [⟨Rect.whole S512x256, dev.sl.dma0_34 m⟩]) (out m cc) (fun i hi => glue_out' m cc 0 0 g00 i hi)) $$ HU00
  ihave HU01 := (congr (F := F) (outR 0 1) cc fullShare ((outR 0 1).view.writes (Elt F) g01 [⟨Rect.whole S512x256, dev.sl.dma0_35 m⟩]) (out m cc) (fun i hi => glue_out' m cc 0 1 g01 i hi)) $$ HU01
  ihave HU02 := (congr (F := F) (outR 0 2) cc fullShare ((outR 0 2).view.writes (Elt F) g02 [⟨Rect.whole S512x256, dev.sl.dma0_36 m⟩]) (out m cc) (fun i hi => glue_out' m cc 0 2 g02 i hi)) $$ HU02
  ihave HU03 := (congr (F := F) (outR 0 3) cc fullShare ((outR 0 3).view.writes (Elt F) g03 [⟨Rect.whole S512x256, dev.sl.dma0_37 m⟩]) (out m cc) (fun i hi => glue_out' m cc 0 3 g03 i hi)) $$ HU03
  ihave HU10 := (congr (F := F) (outR 1 0) cc fullShare ((outR 1 0).view.writes (Elt F) g10 [⟨Rect.whole S512x256, dev.sl.dma0_38 m⟩]) (out m cc) (fun i hi => glue_out' m cc 1 0 g10 i hi)) $$ HU10
  ihave HU11 := (congr (F := F) (outR 1 1) cc fullShare ((outR 1 1).view.writes (Elt F) g11 [⟨Rect.whole S512x256, dev.sl.dma0_39 m⟩]) (out m cc) (fun i hi => glue_out' m cc 1 1 g11 i hi)) $$ HU11
  ihave HU12 := (congr (F := F) (outR 1 2) cc fullShare ((outR 1 2).view.writes (Elt F) g12 [⟨Rect.whole S512x256, dev.sl.dma0_40 m⟩]) (out m cc) (fun i hi => glue_out' m cc 1 2 g12 i hi)) $$ HU12
  ihave HU13 := (congr (F := F) (outR 1 3) cc fullShare ((outR 1 3).view.writes (Elt F) g13 [⟨Rect.whole S512x256, dev.sl.dma0_41 m⟩]) (out m cc) (fun i hi => glue_out' m cc 1 3 g13 i hi)) $$ HU13
  ihave HU20 := (congr (F := F) (outR 2 0) cc fullShare ((outR 2 0).view.writes (Elt F) g20 [⟨Rect.whole S512x256, dev.sl.dma0_42 m⟩]) (out m cc) (fun i hi => glue_out' m cc 2 0 g20 i hi)) $$ HU20
  ihave HU21 := (congr (F := F) (outR 2 1) cc fullShare ((outR 2 1).view.writes (Elt F) g21 [⟨Rect.whole S512x256, dev.sl.dma0_43 m⟩]) (out m cc) (fun i hi => glue_out' m cc 2 1 g21 i hi)) $$ HU21
  ihave HU22 := (congr (F := F) (outR 2 2) cc fullShare ((outR 2 2).view.writes (Elt F) g22 [⟨Rect.whole S512x256, dev.sl.dma0_44 m⟩]) (out m cc) (fun i hi => glue_out' m cc 2 2 g22 i hi)) $$ HU22
  ihave HU23 := (congr (F := F) (outR 2 3) cc fullShare ((outR 2 3).view.writes (Elt F) g23 [⟨Rect.whole S512x256, dev.sl.dma0_45 m⟩]) (out m cc) (fun i hi => glue_out' m cc 2 3 g23 i hi)) $$ HU23
  ihave HU30 := (congr (F := F) (outR 3 0) cc fullShare ((outR 3 0).view.writes (Elt F) g30 [⟨Rect.whole S512x256, dev.sl.dma0_22 m⟩]) (out m cc) (fun i hi => glue_out' m cc 3 0 g30 i hi)) $$ HU30
  ihave HU31 := (congr (F := F) (outR 3 1) cc fullShare ((outR 3 1).view.writes (Elt F) g31 [⟨Rect.whole S512x256, dev.sl.dma0_23 m⟩]) (out m cc) (fun i hi => glue_out' m cc 3 1 g31 i hi)) $$ HU31
  ihave HU32 := (congr (F := F) (outR 3 2) cc fullShare ((outR 3 2).view.writes (Elt F) g32 [⟨Rect.whole S512x256, dev.sl.dma0_24 m⟩]) (out m cc) (fun i hi => glue_out' m cc 3 2 g32 i hi)) $$ HU32
  ihave HU33 := (congr (F := F) (outR 3 3) cc fullShare ((outR 3 3).view.writes (Elt F) g33 [⟨Rect.whole S512x256, dev.sl.dma0_25 m⟩]) (out m cc) (fun i hi => glue_out' m cc 3 3 g33 i hi)) $$ HU33
  ihave HU40 := (congr (F := F) (outR 4 0) cc fullShare ((outR 4 0).view.writes (Elt F) g40 [⟨Rect.whole S512x256, dev.sl.dma0_26 m⟩]) (out m cc) (fun i hi => glue_out' m cc 4 0 g40 i hi)) $$ HU40
  ihave HU41 := (congr (F := F) (outR 4 1) cc fullShare ((outR 4 1).view.writes (Elt F) g41 [⟨Rect.whole S512x256, dev.sl.dma0_27 m⟩]) (out m cc) (fun i hi => glue_out' m cc 4 1 g41 i hi)) $$ HU41
  ihave HU42 := (congr (F := F) (outR 4 2) cc fullShare ((outR 4 2).view.writes (Elt F) g42 [⟨Rect.whole S512x256, dev.sl.dma0_28 m⟩]) (out m cc) (fun i hi => glue_out' m cc 4 2 g42 i hi)) $$ HU42
  ihave HU43 := (congr (F := F) (outR 4 3) cc fullShare ((outR 4 3).view.writes (Elt F) g43 [⟨Rect.whole S512x256, dev.sl.dma0_29 m⟩]) (out m cc) (fun i hi => glue_out' m cc 4 3 g43 i hi)) $$ HU43
  ihave HU50 := (congr (F := F) (outR 5 0) cc fullShare ((outR 5 0).view.writes (Elt F) g50 [⟨Rect.whole S512x256, dev.sl.dma0_30 m⟩]) (out m cc) (fun i hi => glue_out' m cc 5 0 g50 i hi)) $$ HU50
  ihave HU51 := (congr (F := F) (outR 5 1) cc fullShare ((outR 5 1).view.writes (Elt F) g51 [⟨Rect.whole S512x256, dev.sl.dma0_31 m⟩]) (out m cc) (fun i hi => glue_out' m cc 5 1 g51 i hi)) $$ HU51
  ihave HU52 := (congr (F := F) (outR 5 2) cc fullShare ((outR 5 2).view.writes (Elt F) g52 [⟨Rect.whole S512x256, dev.sl.dma0_32 m⟩]) (out m cc) (fun i hi => glue_out' m cc 5 2 g52 i hi)) $$ HU52
  ihave HU53 := (congr (F := F) (outR 5 3) cc fullShare ((outR 5 3).view.writes (Elt F) g53 [⟨Rect.whole S512x256, dev.sl.dma0_33 m⟩]) (out m cc) (fun i hi => glue_out' m cc 5 3 g53 i hi)) $$ HU53
  ihave HU60 := (congr (F := F) (outR 6 0) cc fullShare ((outR 6 0).view.writes (Elt F) g60 [⟨Rect.whole S512x256, dev.sl.dma0_46 m⟩]) (out m cc) (fun i hi => glue_out' m cc 6 0 g60 i hi)) $$ HU60
  ihave HU61 := (congr (F := F) (outR 6 1) cc fullShare ((outR 6 1).view.writes (Elt F) g61 [⟨Rect.whole S512x256, dev.sl.dma0_47 m⟩]) (out m cc) (fun i hi => glue_out' m cc 6 1 g61 i hi)) $$ HU61
  ihave HU62 := (congr (F := F) (outR 6 2) cc fullShare ((outR 6 2).view.writes (Elt F) g62 [⟨Rect.whole S512x256, dev.sl.dma0_48 m⟩]) (out m cc) (fun i hi => glue_out' m cc 6 2 g62 i hi)) $$ HU62
  ihave HU63 := (congr (F := F) (outR 6 3) cc fullShare ((outR 6 3).view.writes (Elt F) g63 [⟨Rect.whole S512x256, dev.sl.dma0_49 m⟩]) (out m cc) (fun i hi => glue_out' m cc 6 3 g63 i hi)) $$ HU63
  ihave HU70 := (congr (F := F) (outR 7 0) cc fullShare ((outR 7 0).view.writes (Elt F) g70 [⟨Rect.whole S512x256, dev.sl.dma0_50 m⟩]) (out m cc) (fun i hi => glue_out' m cc 7 0 g70 i hi)) $$ HU70
  ihave HU71 := (congr (F := F) (outR 7 1) cc fullShare ((outR 7 1).view.writes (Elt F) g71 [⟨Rect.whole S512x256, dev.sl.dma0_51 m⟩]) (out m cc) (fun i hi => glue_out' m cc 7 1 g71 i hi)) $$ HU71
  ihave HU72 := (congr (F := F) (outR 7 2) cc fullShare ((outR 7 2).view.writes (Elt F) g72 [⟨Rect.whole S512x256, dev.sl.dma0_52 m⟩]) (out m cc) (fun i hi => glue_out' m cc 7 2 g72 i hi)) $$ HU72
  ihave HU73 := (congr (F := F) (outR 7 3) cc fullShare ((outR 7 3).view.writes (Elt F) g73 [⟨Rect.whole S512x256, dev.sl.dma0_53 m⟩]) (out m cc) (fun i hi => glue_out' m cc 7 3 g73 i hi)) $$ HU73
  sl_step
  iapply Hk
  unfold bodyPost
  isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7 Hz0 Hz1 Hz2 HzG3 HzFl3 HzFrb3 HzG4 HzFl4 HzFrb4 HzG5 HzFl5 HzFrb5 HzG6 HzFl6 HzFrb6 HzG7 HzFl7 HzFrb7 Hy0 Hy1 Hy2 HyG3 HyFlb3 HyFr3 HyG4 HyFlb4 HyFr4 HyG5 HyFlb5 HyFr5 HyG6 HyFlb6 HyFr6 HyG7 HyFlb7 HyFr7 Hdq0 Hdq1 Hdq2 Hd3 Hd4 Hd5 Hd6 Hd7]
  · iapply (Entails.of_eq (junk_whole (F := F) cc cc0_scratch0).symm)
    iapply (r4_back (F := F) cc)
    isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7]
    · isplitl [HoZb0 HoYb0 HoK0]
      · iapply (own_back (F := F) cc 0 (r4 m cc))
        isplitl [HoZb0]
        · iexact HoZb0
        isplitl [HoYb0]
        · iexact HoYb0
        iexact HoK0
      isplitl [HoZb1 HoYb1 HoK1]
      · iapply (own_back (F := F) cc 1 (r4 m cc))
        isplitl [HoZb1]
        · iexact HoZb1
        isplitl [HoYb1]
        · iexact HoYb1
        iexact HoK1
      isplitl [HoZb2 HoYb2 HoK2]
      · iapply (own_back (F := F) cc 2 (r4 m cc))
        isplitl [HoZb2]
        · iexact HoZb2
        isplitl [HoYb2]
        · iexact HoYb2
        iexact HoK2
      isplitl [HoZb3 HoYb3 HoK3]
      · iapply (own_back (F := F) cc 3 (r4 m cc))
        isplitl [HoZb3]
        · iexact HoZb3
        isplitl [HoYb3]
        · iexact HoYb3
        iexact HoK3
      isplitl [HoZb4 HoYb4 HoK4]
      · iapply (own_back (F := F) cc 4 (r4 m cc))
        isplitl [HoZb4]
        · iexact HoZb4
        isplitl [HoYb4]
        · iexact HoYb4
        iexact HoK4
      isplitl [HoZb5 HoYb5 HoK5]
      · iapply (own_back (F := F) cc 5 (r4 m cc))
        isplitl [HoZb5]
        · iexact HoZb5
        isplitl [HoYb5]
        · iexact HoYb5
        iexact HoK5
      isplitl [HoZb6 HoYb6 HoK6]
      · iapply (own_back (F := F) cc 6 (r4 m cc))
        isplitl [HoZb6]
        · iexact HoZb6
        isplitl [HoYb6]
        · iexact HoYb6
        iexact HoK6
      iapply (own_back (F := F) cc 7 (r4 m cc))
      isplitl [HoZb7]
      · iexact HoZb7
      isplitl [HoYb7]
      · iexact HoYb7
      iexact HoK7
    isplitl [Hz0 Hz1 Hz2 HzG3 HzFl3 HzFrb3 HzG4 HzFl4 HzFrb4 HzG5 HzFl5 HzFrb5 HzG6 HzFl6 HzFrb6 HzG7 HzFl7 HzFrb7]
    · isplitl [Hz0]
      · iexists _; iexact Hz0
      isplitl [Hz1]
      · iexists _; iexact Hz1
      isplitl [Hz2]
      · iexists _; iexact Hz2
      isplitl [HzG3 HzFl3 HzFrb3]
      · iapply (nbr_back (F := F) cc (zqF cc) 3 (r4 m cc))
        isplitl [HzG3]
        · iexact HzG3
        isplitl [HzFl3]
        · iexact HzFl3
        iexact HzFrb3
      isplitl [HzG4 HzFl4 HzFrb4]
      · iapply (nbr_back (F := F) cc (zqF cc) 4 (r4 m cc))
        isplitl [HzG4]
        · iexact HzG4
        isplitl [HzFl4]
        · iexact HzFl4
        iexact HzFrb4
      isplitl [HzG5 HzFl5 HzFrb5]
      · iapply (nbr_back (F := F) cc (zqF cc) 5 (r4 m cc))
        isplitl [HzG5]
        · iexact HzG5
        isplitl [HzFl5]
        · iexact HzFl5
        iexact HzFrb5
      isplitl [HzG6 HzFl6 HzFrb6]
      · iapply (nbr_back (F := F) cc (zqF cc) 6 (r4 m cc))
        isplitl [HzG6]
        · iexact HzG6
        isplitl [HzFl6]
        · iexact HzFl6
        iexact HzFrb6
      iapply (nbr_back (F := F) cc (zqF cc) 7 (r4 m cc))
      isplitl [HzG7]
      · iexact HzG7
      isplitl [HzFl7]
      · iexact HzFl7
      iexact HzFrb7
    isplitl [Hy0 Hy1 Hy2 HyG3 HyFlb3 HyFr3 HyG4 HyFlb4 HyFr4 HyG5 HyFlb5 HyFr5 HyG6 HyFlb6 HyFr6 HyG7 HyFlb7 HyFr7]
    · isplitl [Hy0]
      · iexists _; iexact Hy0
      isplitl [Hy1]
      · iexists _; iexact Hy1
      isplitl [Hy2]
      · iexists _; iexact Hy2
      isplitl [HyG3 HyFlb3 HyFr3]
      · iapply (nbr_back (F := F) cc (yqF cc) 3 (r4 m cc))
        isplitl [HyG3]
        · iexact HyG3
        isplitl [HyFlb3]
        · iexact HyFlb3
        iexact HyFr3
      isplitl [HyG4 HyFlb4 HyFr4]
      · iapply (nbr_back (F := F) cc (yqF cc) 4 (r4 m cc))
        isplitl [HyG4]
        · iexact HyG4
        isplitl [HyFlb4]
        · iexact HyFlb4
        iexact HyFr4
      isplitl [HyG5 HyFlb5 HyFr5]
      · iapply (nbr_back (F := F) cc (yqF cc) 5 (r4 m cc))
        isplitl [HyG5]
        · iexact HyG5
        isplitl [HyFlb5]
        · iexact HyFlb5
        iexact HyFr5
      isplitl [HyG6 HyFlb6 HyFr6]
      · iapply (nbr_back (F := F) cc (yqF cc) 6 (r4 m cc))
        isplitl [HyG6]
        · iexact HyG6
        isplitl [HyFlb6]
        · iexact HyFlb6
        iexact HyFr6
      iapply (nbr_back (F := F) cc (yqF cc) 7 (r4 m cc))
      isplitl [HyG7]
      · iexact HyG7
      isplitl [HyFlb7]
      · iexact HyFlb7
      iexact HyFr7
    isplitl [Hdq0 Hdq1 Hdq2]
    · isplitl [Hdq0]
      · iexists _; iexact Hdq0
      isplitl [Hdq1]
      · iexists _; iexact Hdq1
      iexists _; iexact Hdq2
    isplitl [Hd3]
    · iapply (dq_halves (F := F) cc 3 (r4 m cc))
      iexact Hd3
    isplitl [Hd4]
    · iapply (dq_halves (F := F) cc 4 (r4 m cc))
      iexact Hd4
    isplitl [Hd5]
    · iapply (dq_halves (F := F) cc 5 (r4 m cc))
      iexact Hd5
    isplitl [Hd6]
    · iapply (dq_halves (F := F) cc 6 (r4 m cc))
      iexact Hd6
    iapply (dq_halves (F := F) cc 7 (r4 m cc))
    iexact Hd7
  isplitl [HBs0 HBs1 HBs2 HBs3 HBs4 HBs5 HBs6 HBs7]
  · iapply (Entails.of_eq (junk_whole (F := F) cc cc0_scratch1).symm)
    iapply (sb_rows_join (F := F) cc)
    isplitl [HBs0]
    · iexists _; iexact HBs0
    isplitl [HBs1]
    · iexists _; iexact HBs1
    isplitl [HBs2]
    · iexists _; iexact HBs2
    isplitl [HBs3]
    · iexists _; iexact HBs3
    isplitl [HBs4]
    · iexists _; iexact HBs4
    isplitl [HBs5]
    · iexists _; iexact HBs5
    isplitl [HBs6]
    · iexists _; iexact HBs6
    iexists _; iexact HBs7
  isplitl [Hrb0 Hrb1 Hrb2 Hrb3 Hrb4 Hrb5 Hrb6 Hrb7]
  · iapply (Entails.of_eq (junk_whole (F := F) cc cc0_scratch2).symm)
    iapply (rb_rows_join (F := F) cc)
    isplitl [Hrb0]
    · iexists _; iexact Hrb0
    isplitl [Hrb1]
    · iexists _; iexact Hrb1
    isplitl [Hrb2]
    · iexists _; iexact Hrb2
    isplitl [Hrb3]
    · iexists _; iexact Hrb3
    isplitl [Hrb4]
    · iexists _; iexact Hrb4
    isplitl [Hrb5]
    · iexists _; iexact Hrb5
    isplitl [Hrb6]
    · iexists _; iexact Hrb6
    iexists _; iexact Hrb7
  isplitl [HB2s0 HB2s1 HB2s2]
  · iapply (Entails.of_eq (junk_whole (F := F) cc cc0_scratch3).symm)
    iapply (sb2_rows_join (F := F) cc)
    isplitl [HB2s0]
    · iexists _; iexact HB2s0
    isplitl [HB2s1]
    · iexists _; iexact HB2s1
    iexists _; iexact HB2s2
  isplitl [Hrb20 Hrb21 Hrb22]
  · iapply (Entails.of_eq (junk_whole (F := F) cc cc0_scratch4).symm)
    iapply (rb2_rows_join (F := F) cc)
    isplitl [Hrb20]
    · iexists _; iexact Hrb20
    isplitl [Hrb21]
    · iexists _; iexact Hrb21
    iexists _; iexact Hrb22
  isplitl [HP0 HP1 HP2 HP3 HP4 HP5 HP6 HP7]
  · iapply (Entails.of_eq (junk_whole (F := F) cc cc0_scratch5).symm)
    iapply (stP_rows_join (F := F) cc)
    isplitl [HP0]
    · iexists _; iexact HP0
    isplitl [HP1]
    · iexists _; iexact HP1
    isplitl [HP2]
    · iexists _; iexact HP2
    isplitl [HP3]
    · iexists _; iexact HP3
    isplitl [HP4]
    · iexists _; iexact HP4
    isplitl [HP5]
    · iexists _; iexact HP5
    isplitl [HP6]
    · iexists _; iexact HP6
    iexists _; iexact HP7
  isplitl [HL0 HL1 HL2 HL3 HL4 HL5 HL6 HL7]
  · iapply (Entails.of_eq (junk_whole (F := F) cc cc0_scratch6).symm)
    iapply (stL_rows_join (F := F) cc)
    isplitl [HL0]
    · iexists _; iexact HL0
    isplitl [HL1]
    · iexists _; iexact HL1
    isplitl [HL2]
    · iexists _; iexact HL2
    isplitl [HL3]
    · iexists _; iexact HL3
    isplitl [HL4]
    · iexists _; iexact HL4
    isplitl [HL5]
    · iexists _; iexact HL5
    isplitl [HL6]
    · iexists _; iexact HL6
    iexists _; iexact HL7
  isplitl [HP20 HP21 HP22]
  · iapply (Entails.of_eq (junk_whole (F := F) cc cc0_scratch7).symm)
    iapply (stP2_rows_join (F := F) cc)
    isplitl [HP20]
    · iexists _; iexact HP20
    isplitl [HP21]
    · iexists _; iexact HP21
    iexists _; iexact HP22
  isplitl [HL20 HL21 HL22]
  · iapply (Entails.of_eq (junk_whole (F := F) cc cc0_scratch8).symm)
    iapply (stL2_rows_join (F := F) cc)
    isplitl [HL20]
    · iexists _; iexact HL20
    isplitl [HL21]
    · iexists _; iexact HL21
    iexists _; iexact HL22
  isplitl [HX]
  · iexact HX
  isplitl [HU00 HU01 HU02 HU03 HU10 HU11 HU12 HU13 HU20 HU21 HU22 HU23 HU30 HU31 HU32 HU33 HU40 HU41 HU42 HU43 HU50 HU51 HU52 HU53 HU60 HU61 HU62 HU63 HU70 HU71 HU72 HU73]
  · iapply (out_join (F := F) cc (out m cc))
    isplitl [HU00]
    · iexact HU00
    isplitl [HU01]
    · iexact HU01
    isplitl [HU02]
    · iexact HU02
    isplitl [HU03]
    · iexact HU03
    isplitl [HU10]
    · iexact HU10
    isplitl [HU11]
    · iexact HU11
    isplitl [HU12]
    · iexact HU12
    isplitl [HU13]
    · iexact HU13
    isplitl [HU20]
    · iexact HU20
    isplitl [HU21]
    · iexact HU21
    isplitl [HU22]
    · iexact HU22
    isplitl [HU23]
    · iexact HU23
    isplitl [HU30]
    · iexact HU30
    isplitl [HU31]
    · iexact HU31
    isplitl [HU32]
    · iexact HU32
    isplitl [HU33]
    · iexact HU33
    isplitl [HU40]
    · iexact HU40
    isplitl [HU41]
    · iexact HU41
    isplitl [HU42]
    · iexact HU42
    isplitl [HU43]
    · iexact HU43
    isplitl [HU50]
    · iexact HU50
    isplitl [HU51]
    · iexact HU51
    isplitl [HU52]
    · iexact HU52
    isplitl [HU53]
    · iexact HU53
    isplitl [HU60]
    · iexact HU60
    isplitl [HU61]
    · iexact HU61
    isplitl [HU62]
    · iexact HU62
    isplitl [HU63]
    · iexact HU63
    isplitl [HU70]
    · iexact HU70
    isplitl [HU71]
    · iexact HU71
    isplitl [HU72]
    · iexact HU72
    iexact HU73
  isplitl [Hv0 Hv1 Hv2 Hv3 Hv4 Hv5 Hv6 Hv7 Hv8 Hv9 Hv10 Hv11 Hv12 Hv13 Hv14 Hv15 Hv16 Hv17 Hv18 Hv19 Hv20 Hv21 Hv22 Hv23 Hv24 Hv25 Hv26 Hv27 Hv28 Hv29 Hv30 Hv31 Hv32 Hv33 Hv34 Hv35 Hv36 Hv37 Hv38 Hv39 Hv40 Hv41 Hv42 Hv43 Hv44 Hv45 Hv46 Hv47 Hv48 Hv49 Hv50 Hv51 Hv52 Hv53 Hv54 Hv55 Hv56 Hv57 Hv58 Hv59 Hv60 Hv61 Hv62 Hv63 Hv64 Hv65 Hv66 Hv67 Hv68 Hv69 Hv70 Hv71 Hv72 Hv73 Hv74 Hv75 Hu76 Hu77 Hu78 Hv79 Hv80 Hv81 Hv82 Hv83 Hu84 Hu85 Hu86 Hv87 Hv88 Hv89 Hv90 Hv91 Hu92 Hu93 Hu94 Hv95 Hv96 Hv97 Hv98 Hv99 Hu100 Hu101 Hu102 Hv103 Hv104 Hv105 Hv106 Hv107 Hw0a Hw0b Hw0c Hw0d Hw1a Hw1b Hw1c Hw1d Hw2a Hw2b Hw2c Hw2d Hw3a Hw3b Hw3c Hw3d Hw4a Hw4b Hw4c Hw4d Hw5a Hw5b Hw5c Hw5d Hw6a Hw6b Hw6c Hw6d Hw7a Hw7b Hw7c Hw7d]
  · iapply (Entails.of_eq (show (iprop(semVal (cellAt cc (⟨0, Nat.le_of_ble_eq_true rfl⟩ : Fin 140)) 0 ∗ semVal (cellAt cc (⟨1, Nat.le_of_ble_eq_true rfl⟩ : Fin 140)) 0 ∗ semVal (cellAt cc (⟨2, Nat.le_of_ble_eq_true rfl⟩ : Fin 140)) 0 ∗ semVal (cellAt cc (⟨3, Nat.le_of_ble_eq_true rfl⟩ : Fin 140)) 0 ∗ semVal (cellAt cc (⟨4, Nat.le_of_ble_eq_true rfl⟩ : Fin 140)) 0 ∗ semVal (cellAt cc (⟨5, Nat.le_of_ble_eq_true rfl⟩ : Fin 140)) 0 ∗ semVal (cellAt cc (⟨6, Nat.le_of_ble_eq_true rfl⟩ : Fin 140)) 0 ∗ semVal (cellAt cc (⟨7, Nat.le_of_ble_eq_true rfl⟩ : Fin 140)) 0 ∗ semVal (cellAt cc (⟨8, Nat.le_of_ble_eq_true rfl⟩ : Fin 140)) 0 ∗ semVal (cellAt cc (⟨9, Nat.le_of_ble_eq_true rfl⟩ : Fin 140)) 0 ∗ semVal (cellAt cc (⟨10, Nat.le_of_ble_eq_true rfl⟩ : Fin 140)) 0 ∗ semVal (cellAt cc (⟨11, Nat.le_of_ble_eq_true rfl⟩ : Fin 140)) 0 ∗ semVal (cellAt cc (⟨12, Nat.le_of_ble_eq_true rfl⟩ : Fin 140)) 0 ∗ semVal (cellAt cc (⟨13, Nat.le_of_ble_eq_true rfl⟩ : Fin 140)) 0 ∗ semVal (cellAt cc (⟨14, Nat.le_of_ble_eq_true rfl⟩ : Fin 140)) 0 ∗ semVal (cellAt cc (⟨15, Nat.le_of_ble_eq_true rfl⟩ : Fin 140)) 0 ∗ semVal (cellAt cc (⟨16, Nat.le_of_ble_eq_true rfl⟩ : Fin 140)) 0 ∗ semVal (cellAt cc (⟨17, Nat.le_of_ble_eq_true rfl⟩ : Fin 140)) 0 ∗ semVal (cellAt cc (⟨18, Nat.le_of_ble_eq_true rfl⟩ : Fin 140)) 0 ∗ semVal (cellAt cc (⟨19, Nat.le_of_ble_eq_true rfl⟩ : Fin 140)) 0 ∗ semVal (cellAt cc (⟨20, Nat.le_of_ble_eq_true rfl⟩ : Fin 140)) 0 ∗ semVal (cellAt cc (⟨21, Nat.le_of_ble_eq_true rfl⟩ : Fin 140)) 0 ∗ semVal (cellAt cc (⟨22, Nat.le_of_ble_eq_true rfl⟩ : Fin 140)) 0 ∗ semVal (cellAt cc (⟨23, Nat.le_of_ble_eq_true rfl⟩ : Fin 140)) 0 ∗ semVal (cellAt cc (⟨24, Nat.le_of_ble_eq_true rfl⟩ : Fin 140)) 0 ∗ semVal (cellAt cc (⟨25, Nat.le_of_ble_eq_true rfl⟩ : Fin 140)) 0 ∗ semVal (cellAt cc (⟨26, Nat.le_of_ble_eq_true rfl⟩ : Fin 140)) 0 ∗ semVal (cellAt cc (⟨27, Nat.le_of_ble_eq_true rfl⟩ : Fin 140)) 0 ∗ semVal (cellAt cc (⟨28, Nat.le_of_ble_eq_true rfl⟩ : Fin 140)) 0 ∗ semVal (cellAt cc (⟨29, Nat.le_of_ble_eq_true rfl⟩ : Fin 140)) 0 ∗ semVal (cellAt cc (⟨30, Nat.le_of_ble_eq_true rfl⟩ : Fin 140)) 0 ∗ semVal (cellAt cc (⟨31, Nat.le_of_ble_eq_true rfl⟩ : Fin 140)) 0 ∗ semVal (cellAt cc (⟨32, Nat.le_of_ble_eq_true rfl⟩ : Fin 140)) 0 ∗ semVal (cellAt cc (⟨33, Nat.le_of_ble_eq_true rfl⟩ : Fin 140)) 0 ∗ semVal (cellAt cc (⟨34, Nat.le_of_ble_eq_true rfl⟩ : Fin 140)) 0 ∗ semVal (cellAt cc (⟨35, Nat.le_of_ble_eq_true rfl⟩ : Fin 140)) 0 ∗ semVal (cellAt cc (⟨36, Nat.le_of_ble_eq_true rfl⟩ : Fin 140)) 0 ∗ semVal (cellAt cc (⟨37, Nat.le_of_ble_eq_true rfl⟩ : Fin 140)) 0 ∗ semVal (cellAt cc (⟨38, Nat.le_of_ble_eq_true rfl⟩ : Fin 140)) 0 ∗ semVal (cellAt cc (⟨39, Nat.le_of_ble_eq_true rfl⟩ : Fin 140)) 0 ∗ semVal (cellAt cc (⟨40, Nat.le_of_ble_eq_true rfl⟩ : Fin 140)) 0 ∗ semVal (cellAt cc (⟨41, Nat.le_of_ble_eq_true rfl⟩ : Fin 140)) 0 ∗ semVal (cellAt cc (⟨42, Nat.le_of_ble_eq_true rfl⟩ : Fin 140)) 0 ∗ semVal (cellAt cc (⟨43, Nat.le_of_ble_eq_true rfl⟩ : Fin 140)) 0 ∗ semVal (cellAt cc (⟨44, Nat.le_of_ble_eq_true rfl⟩ : Fin 140)) 0 ∗ semVal (cellAt cc (⟨45, Nat.le_of_ble_eq_true rfl⟩ : Fin 140)) 0 ∗ semVal (cellAt cc (⟨46, Nat.le_of_ble_eq_true rfl⟩ : Fin 140)) 0 ∗ semVal (cellAt cc (⟨47, Nat.le_of_ble_eq_true rfl⟩ : Fin 140)) 0 ∗ semVal (cellAt cc (⟨48, Nat.le_of_ble_eq_true rfl⟩ : Fin 140)) 0 ∗ semVal (cellAt cc (⟨49, Nat.le_of_ble_eq_true rfl⟩ : Fin 140)) 0 ∗ semVal (cellAt cc (⟨50, Nat.le_of_ble_eq_true rfl⟩ : Fin 140)) 0 ∗ semVal (cellAt cc (⟨51, Nat.le_of_ble_eq_true rfl⟩ : Fin 140)) 0 ∗ semVal (cellAt cc (⟨52, Nat.le_of_ble_eq_true rfl⟩ : Fin 140)) 0 ∗ semVal (cellAt cc (⟨53, Nat.le_of_ble_eq_true rfl⟩ : Fin 140)) 0 ∗ semVal (cellAt cc (⟨54, Nat.le_of_ble_eq_true rfl⟩ : Fin 140)) 0 ∗ semVal (cellAt cc (⟨55, Nat.le_of_ble_eq_true rfl⟩ : Fin 140)) 0 ∗ semVal (cellAt cc (⟨56, Nat.le_of_ble_eq_true rfl⟩ : Fin 140)) 0 ∗ semVal (cellAt cc (⟨57, Nat.le_of_ble_eq_true rfl⟩ : Fin 140)) 0 ∗ semVal (cellAt cc (⟨58, Nat.le_of_ble_eq_true rfl⟩ : Fin 140)) 0 ∗ semVal (cellAt cc (⟨59, Nat.le_of_ble_eq_true rfl⟩ : Fin 140)) 0 ∗ semVal (cellAt cc (⟨60, Nat.le_of_ble_eq_true rfl⟩ : Fin 140)) 0 ∗ semVal (cellAt cc (⟨61, Nat.le_of_ble_eq_true rfl⟩ : Fin 140)) 0 ∗ semVal (cellAt cc (⟨62, Nat.le_of_ble_eq_true rfl⟩ : Fin 140)) 0 ∗ semVal (cellAt cc (⟨63, Nat.le_of_ble_eq_true rfl⟩ : Fin 140)) 0 ∗ semVal (cellAt cc (⟨64, Nat.le_of_ble_eq_true rfl⟩ : Fin 140)) 0 ∗ semVal (cellAt cc (⟨65, Nat.le_of_ble_eq_true rfl⟩ : Fin 140)) 0 ∗ semVal (cellAt cc (⟨66, Nat.le_of_ble_eq_true rfl⟩ : Fin 140)) 0 ∗ semVal (cellAt cc (⟨67, Nat.le_of_ble_eq_true rfl⟩ : Fin 140)) 0 ∗ semVal (cellAt cc (⟨68, Nat.le_of_ble_eq_true rfl⟩ : Fin 140)) 0 ∗ semVal (cellAt cc (⟨69, Nat.le_of_ble_eq_true rfl⟩ : Fin 140)) 0 ∗ semVal (cellAt cc (⟨70, Nat.le_of_ble_eq_true rfl⟩ : Fin 140)) 0 ∗ semVal (cellAt cc (⟨71, Nat.le_of_ble_eq_true rfl⟩ : Fin 140)) 0 ∗ semVal (cellAt cc (⟨72, Nat.le_of_ble_eq_true rfl⟩ : Fin 140)) 0 ∗ semVal (cellAt cc (⟨73, Nat.le_of_ble_eq_true rfl⟩ : Fin 140)) 0 ∗ semVal (cellAt cc (⟨74, Nat.le_of_ble_eq_true rfl⟩ : Fin 140)) 0 ∗ semVal (cellAt cc (⟨75, Nat.le_of_ble_eq_true rfl⟩ : Fin 140)) 0 ∗ semVal (cellAt cc (⟨76, Nat.le_of_ble_eq_true rfl⟩ : Fin 140)) 0 ∗ semVal (cellAt cc (⟨77, Nat.le_of_ble_eq_true rfl⟩ : Fin 140)) 0 ∗ semVal (cellAt cc (⟨78, Nat.le_of_ble_eq_true rfl⟩ : Fin 140)) 0 ∗ semVal (cellAt cc (⟨79, Nat.le_of_ble_eq_true rfl⟩ : Fin 140)) 0 ∗ semVal (cellAt cc (⟨80, Nat.le_of_ble_eq_true rfl⟩ : Fin 140)) 0 ∗ semVal (cellAt cc (⟨81, Nat.le_of_ble_eq_true rfl⟩ : Fin 140)) 0 ∗ semVal (cellAt cc (⟨82, Nat.le_of_ble_eq_true rfl⟩ : Fin 140)) 0 ∗ semVal (cellAt cc (⟨83, Nat.le_of_ble_eq_true rfl⟩ : Fin 140)) 0 ∗ semVal (cellAt cc (⟨84, Nat.le_of_ble_eq_true rfl⟩ : Fin 140)) 0 ∗ semVal (cellAt cc (⟨85, Nat.le_of_ble_eq_true rfl⟩ : Fin 140)) 0 ∗ semVal (cellAt cc (⟨86, Nat.le_of_ble_eq_true rfl⟩ : Fin 140)) 0 ∗ semVal (cellAt cc (⟨87, Nat.le_of_ble_eq_true rfl⟩ : Fin 140)) 0 ∗ semVal (cellAt cc (⟨88, Nat.le_of_ble_eq_true rfl⟩ : Fin 140)) 0 ∗ semVal (cellAt cc (⟨89, Nat.le_of_ble_eq_true rfl⟩ : Fin 140)) 0 ∗ semVal (cellAt cc (⟨90, Nat.le_of_ble_eq_true rfl⟩ : Fin 140)) 0 ∗ semVal (cellAt cc (⟨91, Nat.le_of_ble_eq_true rfl⟩ : Fin 140)) 0 ∗ semVal (cellAt cc (⟨92, Nat.le_of_ble_eq_true rfl⟩ : Fin 140)) 0 ∗ semVal (cellAt cc (⟨93, Nat.le_of_ble_eq_true rfl⟩ : Fin 140)) 0 ∗ semVal (cellAt cc (⟨94, Nat.le_of_ble_eq_true rfl⟩ : Fin 140)) 0 ∗ semVal (cellAt cc (⟨95, Nat.le_of_ble_eq_true rfl⟩ : Fin 140)) 0 ∗ semVal (cellAt cc (⟨96, Nat.le_of_ble_eq_true rfl⟩ : Fin 140)) 0 ∗ semVal (cellAt cc (⟨97, Nat.le_of_ble_eq_true rfl⟩ : Fin 140)) 0 ∗ semVal (cellAt cc (⟨98, Nat.le_of_ble_eq_true rfl⟩ : Fin 140)) 0 ∗ semVal (cellAt cc (⟨99, Nat.le_of_ble_eq_true rfl⟩ : Fin 140)) 0 ∗ semVal (cellAt cc (⟨100, Nat.le_of_ble_eq_true rfl⟩ : Fin 140)) 0 ∗ semVal (cellAt cc (⟨101, Nat.le_of_ble_eq_true rfl⟩ : Fin 140)) 0 ∗ semVal (cellAt cc (⟨102, Nat.le_of_ble_eq_true rfl⟩ : Fin 140)) 0 ∗ semVal (cellAt cc (⟨103, Nat.le_of_ble_eq_true rfl⟩ : Fin 140)) 0 ∗ semVal (cellAt cc (⟨104, Nat.le_of_ble_eq_true rfl⟩ : Fin 140)) 0 ∗ semVal (cellAt cc (⟨105, Nat.le_of_ble_eq_true rfl⟩ : Fin 140)) 0 ∗ semVal (cellAt cc (⟨106, Nat.le_of_ble_eq_true rfl⟩ : Fin 140)) 0 ∗ semVal (cellAt cc (⟨107, Nat.le_of_ble_eq_true rfl⟩ : Fin 140)) 0 ∗ semVal (cellAt cc (⟨108, Nat.le_of_ble_eq_true rfl⟩ : Fin 140)) 0 ∗ semVal (cellAt cc (⟨109, Nat.le_of_ble_eq_true rfl⟩ : Fin 140)) 0 ∗ semVal (cellAt cc (⟨110, Nat.le_of_ble_eq_true rfl⟩ : Fin 140)) 0 ∗ semVal (cellAt cc (⟨111, Nat.le_of_ble_eq_true rfl⟩ : Fin 140)) 0 ∗ semVal (cellAt cc (⟨112, Nat.le_of_ble_eq_true rfl⟩ : Fin 140)) 0 ∗ semVal (cellAt cc (⟨113, Nat.le_of_ble_eq_true rfl⟩ : Fin 140)) 0 ∗ semVal (cellAt cc (⟨114, Nat.le_of_ble_eq_true rfl⟩ : Fin 140)) 0 ∗ semVal (cellAt cc (⟨115, Nat.le_of_ble_eq_true rfl⟩ : Fin 140)) 0 ∗ semVal (cellAt cc (⟨116, Nat.le_of_ble_eq_true rfl⟩ : Fin 140)) 0 ∗ semVal (cellAt cc (⟨117, Nat.le_of_ble_eq_true rfl⟩ : Fin 140)) 0 ∗ semVal (cellAt cc (⟨118, Nat.le_of_ble_eq_true rfl⟩ : Fin 140)) 0 ∗ semVal (cellAt cc (⟨119, Nat.le_of_ble_eq_true rfl⟩ : Fin 140)) 0 ∗ semVal (cellAt cc (⟨120, Nat.le_of_ble_eq_true rfl⟩ : Fin 140)) 0 ∗ semVal (cellAt cc (⟨121, Nat.le_of_ble_eq_true rfl⟩ : Fin 140)) 0 ∗ semVal (cellAt cc (⟨122, Nat.le_of_ble_eq_true rfl⟩ : Fin 140)) 0 ∗ semVal (cellAt cc (⟨123, Nat.le_of_ble_eq_true rfl⟩ : Fin 140)) 0 ∗ semVal (cellAt cc (⟨124, Nat.le_of_ble_eq_true rfl⟩ : Fin 140)) 0 ∗ semVal (cellAt cc (⟨125, Nat.le_of_ble_eq_true rfl⟩ : Fin 140)) 0 ∗ semVal (cellAt cc (⟨126, Nat.le_of_ble_eq_true rfl⟩ : Fin 140)) 0 ∗ semVal (cellAt cc (⟨127, Nat.le_of_ble_eq_true rfl⟩ : Fin 140)) 0 ∗ semVal (cellAt cc (⟨128, Nat.le_of_ble_eq_true rfl⟩ : Fin 140)) 0 ∗ semVal (cellAt cc (⟨129, Nat.le_of_ble_eq_true rfl⟩ : Fin 140)) 0 ∗ semVal (cellAt cc (⟨130, Nat.le_of_ble_eq_true rfl⟩ : Fin 140)) 0 ∗ semVal (cellAt cc (⟨131, Nat.le_of_ble_eq_true rfl⟩ : Fin 140)) 0 ∗ semVal (cellAt cc (⟨132, Nat.le_of_ble_eq_true rfl⟩ : Fin 140)) 0 ∗ semVal (cellAt cc (⟨133, Nat.le_of_ble_eq_true rfl⟩ : Fin 140)) 0 ∗ semVal (cellAt cc (⟨134, Nat.le_of_ble_eq_true rfl⟩ : Fin 140)) 0 ∗ semVal (cellAt cc (⟨135, Nat.le_of_ble_eq_true rfl⟩ : Fin 140)) 0 ∗ semVal (cellAt cc (⟨136, Nat.le_of_ble_eq_true rfl⟩ : Fin 140)) 0 ∗ semVal (cellAt cc (⟨137, Nat.le_of_ble_eq_true rfl⟩ : Fin 140)) 0 ∗ semVal (cellAt cc (⟨138, Nat.le_of_ble_eq_true rfl⟩ : Fin 140)) 0 ∗ semVal (cellAt cc (⟨139, Nat.le_of_ble_eq_true rfl⟩ : Fin 140)) 0) : sProp 𝕄) = (bigSepL allJ fun j => semVal (cellAt cc j) 0) from rfl))
    isplitl [Hv0]
    · iexact Hv0
    isplitl [Hv1]
    · iexact Hv1
    isplitl [Hv2]
    · iexact Hv2
    isplitl [Hv3]
    · iexact Hv3
    isplitl [Hv4]
    · iexact Hv4
    isplitl [Hv5]
    · iexact Hv5
    isplitl [Hv6]
    · iexact Hv6
    isplitl [Hv7]
    · iexact Hv7
    isplitl [Hv8]
    · iexact Hv8
    isplitl [Hv9]
    · iexact Hv9
    isplitl [Hv10]
    · iexact Hv10
    isplitl [Hv11]
    · iexact Hv11
    isplitl [Hv12]
    · iexact Hv12
    isplitl [Hv13]
    · iexact Hv13
    isplitl [Hv14]
    · iexact Hv14
    isplitl [Hv15]
    · iexact Hv15
    isplitl [Hv16]
    · iexact Hv16
    isplitl [Hv17]
    · iexact Hv17
    isplitl [Hv18]
    · iexact Hv18
    isplitl [Hv19]
    · iexact Hv19
    isplitl [Hv20]
    · iexact Hv20
    isplitl [Hv21]
    · iexact Hv21
    isplitl [Hv22]
    · iexact Hv22
    isplitl [Hv23]
    · iexact Hv23
    isplitl [Hv24]
    · iexact Hv24
    isplitl [Hv25]
    · iexact Hv25
    isplitl [Hv26]
    · iexact Hv26
    isplitl [Hv27]
    · iexact Hv27
    isplitl [Hv28]
    · iexact Hv28
    isplitl [Hv29]
    · iexact Hv29
    isplitl [Hv30]
    · iexact Hv30
    isplitl [Hv31]
    · iexact Hv31
    isplitl [Hv32]
    · iexact Hv32
    isplitl [Hv33]
    · iexact Hv33
    isplitl [Hv34]
    · iexact Hv34
    isplitl [Hv35]
    · iexact Hv35
    isplitl [Hv36]
    · iexact Hv36
    isplitl [Hv37]
    · iexact Hv37
    isplitl [Hv38]
    · iexact Hv38
    isplitl [Hv39]
    · iexact Hv39
    isplitl [Hv40]
    · iexact Hv40
    isplitl [Hv41]
    · iexact Hv41
    isplitl [Hv42]
    · iexact Hv42
    isplitl [Hv43]
    · iexact Hv43
    isplitl [Hv44]
    · iexact Hv44
    isplitl [Hv45]
    · iexact Hv45
    isplitl [Hv46]
    · iexact Hv46
    isplitl [Hv47]
    · iexact Hv47
    isplitl [Hv48]
    · iexact Hv48
    isplitl [Hv49]
    · iexact Hv49
    isplitl [Hv50]
    · iexact Hv50
    isplitl [Hv51]
    · iexact Hv51
    isplitl [Hv52]
    · iexact Hv52
    isplitl [Hv53]
    · iexact Hv53
    isplitl [Hv54]
    · iexact Hv54
    isplitl [Hv55]
    · iexact Hv55
    isplitl [Hv56]
    · iexact Hv56
    isplitl [Hv57]
    · iexact Hv57
    isplitl [Hv58]
    · iexact Hv58
    isplitl [Hv59]
    · iexact Hv59
    isplitl [Hv60]
    · iexact Hv60
    isplitl [Hv61]
    · iexact Hv61
    isplitl [Hv62]
    · iexact Hv62
    isplitl [Hv63]
    · iexact Hv63
    isplitl [Hv64]
    · iexact Hv64
    isplitl [Hv65]
    · iexact Hv65
    isplitl [Hv66]
    · iexact Hv66
    isplitl [Hv67]
    · iexact Hv67
    isplitl [Hv68]
    · iexact Hv68
    isplitl [Hv69]
    · iexact Hv69
    isplitl [Hv70]
    · iexact Hv70
    isplitl [Hv71]
    · iexact Hv71
    isplitl [Hv72]
    · iexact Hv72
    isplitl [Hv73]
    · iexact Hv73
    isplitl [Hv74]
    · iexact Hv74
    isplitl [Hv75]
    · iexact Hv75
    isplitl [Hu76]
    · iexact Hu76
    isplitl [Hu77]
    · iexact Hu77
    isplitl [Hu78]
    · iexact Hu78
    isplitl [Hv79]
    · iexact Hv79
    isplitl [Hv80]
    · iexact Hv80
    isplitl [Hv81]
    · iexact Hv81
    isplitl [Hv82]
    · iexact Hv82
    isplitl [Hv83]
    · iexact Hv83
    isplitl [Hu84]
    · iexact Hu84
    isplitl [Hu85]
    · iexact Hu85
    isplitl [Hu86]
    · iexact Hu86
    isplitl [Hv87]
    · iexact Hv87
    isplitl [Hv88]
    · iexact Hv88
    isplitl [Hv89]
    · iexact Hv89
    isplitl [Hv90]
    · iexact Hv90
    isplitl [Hv91]
    · iexact Hv91
    isplitl [Hu92]
    · iexact Hu92
    isplitl [Hu93]
    · iexact Hu93
    isplitl [Hu94]
    · iexact Hu94
    isplitl [Hv95]
    · iexact Hv95
    isplitl [Hv96]
    · iexact Hv96
    isplitl [Hv97]
    · iexact Hv97
    isplitl [Hv98]
    · iexact Hv98
    isplitl [Hv99]
    · iexact Hv99
    isplitl [Hu100]
    · iexact Hu100
    isplitl [Hu101]
    · iexact Hu101
    isplitl [Hu102]
    · iexact Hu102
    isplitl [Hv103]
    · iexact Hv103
    isplitl [Hv104]
    · iexact Hv104
    isplitl [Hv105]
    · iexact Hv105
    isplitl [Hv106]
    · iexact Hv106
    isplitl [Hv107]
    · iexact Hv107
    isplitl [Hw0a]
    · iexact Hw0a
    isplitl [Hw0b]
    · iexact Hw0b
    isplitl [Hw0c]
    · iexact Hw0c
    isplitl [Hw0d]
    · iexact Hw0d
    isplitl [Hw1a]
    · iexact Hw1a
    isplitl [Hw1b]
    · iexact Hw1b
    isplitl [Hw1c]
    · iexact Hw1c
    isplitl [Hw1d]
    · iexact Hw1d
    isplitl [Hw2a]
    · iexact Hw2a
    isplitl [Hw2b]
    · iexact Hw2b
    isplitl [Hw2c]
    · iexact Hw2c
    isplitl [Hw2d]
    · iexact Hw2d
    isplitl [Hw3a]
    · iexact Hw3a
    isplitl [Hw3b]
    · iexact Hw3b
    isplitl [Hw3c]
    · iexact Hw3c
    isplitl [Hw3d]
    · iexact Hw3d
    isplitl [Hw4a]
    · iexact Hw4a
    isplitl [Hw4b]
    · iexact Hw4b
    isplitl [Hw4c]
    · iexact Hw4c
    isplitl [Hw4d]
    · iexact Hw4d
    isplitl [Hw5a]
    · iexact Hw5a
    isplitl [Hw5b]
    · iexact Hw5b
    isplitl [Hw5c]
    · iexact Hw5c
    isplitl [Hw5d]
    · iexact Hw5d
    isplitl [Hw6a]
    · iexact Hw6a
    isplitl [Hw6b]
    · iexact Hw6b
    isplitl [Hw6c]
    · iexact Hw6c
    isplitl [Hw6d]
    · iexact Hw6d
    isplitl [Hw7a]
    · iexact Hw7a
    isplitl [Hw7b]
    · iexact Hw7b
    isplitl [Hw7c]
    · iexact Hw7c
    iexact Hw7d
  iexists _; iexact HO

end Cert.KernelIdeal.RS.D1

end
-- ==== Proof.Body2.lean ====
import proofs.«901022_g7700000000001023_dist_rs_v7x_xyz2x2x2_x_m4096_n1024_bf16_1_alg».proof.Proof.BodyAux
import proofs.«901022_g7700000000001023_dist_rs_v7x_xyz2x2x2_x_m4096_n1024_bf16_1_alg».proof.Proof.BodyPre
import proofs.«901022_g7700000000001023_dist_rs_v7x_xyz2x2x2_x_m4096_n1024_bf16_1_alg».proof.Proof.OutRules

/-! The body of the kernel on device 2 of the mesh, from its precondition (BodyPre) to its postcondition (bodyPost).

    The program is straight-line code of 4045 statements. Its local steps — the 54 copies between the input, the staging
    buffers, the four-quarter buffer and the result, their waits, the loads and the stores — are run by the library's symbolic
    executor on hypotheses that hold each 512-row chunk through the slice the program itself names. Its remote steps are
    taken by the rounds library's rules, one application each: three barrier signals and the wait for the three
    neighbours; 37 copies to a neighbour, each lending the source chunk (at a share, where the chunk is also read by another
    copy) and landing the chunk's final contents; the waits on the 37 receive cells, which hand back the landed chunks; the
    final waits on the 37 send cells, which hand back what was lent. Whenever a chunk has been written (by a landing copy or
    by a store) it is restated as "holds its final contents" (Spec), which is what the next copy's payload asks for.
    A wait is allowed because whatever the device still owes at that point lies above the awaited cell (Owed): decided on the
    list of payments not yet made. At the end every cell has had its one round and is closed, and the pieces of every
    buffer are put back. -/

set_option maxRecDepth 8000

noncomputable section

namespace Cert.KernelIdeal.RS.D2

open Cert.KernelIdeal Cert.KernelIdeal.Gen Cert.KernelIdeal.RS
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local notation "cc" => (Fin.mk 2 (Nat.le_of_ble_eq_true rfl) : Dev nD)

set_option maxHeartbeats 1600000 in
theorem dev (m : (ℓ : Loc nD τ sig) → Buf (Elt F) ℓ) (K : GSem nD τ sig → ℕ) (W : Waits sig Unit) (Kt : PUnit → sProp 𝕄) :
    iprop(bodyPre m K cc W ∗ (bodyPost m cc -∗ Kt ⟨⟩))
      ⊢ wp frame (wpE (defs₀ (F := F)) 𝒱₀ (cc : Thread nD τ) none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25) Kt := by
  unfold bodyPre O₀
  iintro ⟨⟨HIt, HIw, HRt, #Hlev, HO, Hcr, HpR, HpS, Htk, HX, Hout, HS0, HS1, HS2, HS3, HS4, HS5, HS6, HS7, HS8, HvI, HvO, HvU⟩, Hk⟩
  rw [cc0_body_eq_skeleton]; unfold cc0_body_skel
  -- the four-quarter buffer in the pieces that travel
  ihave H0 := (Entails.of_eq (junk_whole (F := F) cc cc0_scratch0)) $$ HS0
  icases H0 with ⟨%f0, H0⟩
  ihave H4 := (r4_entry (F := F) cc f0) $$ H0
  icases H4 with ⟨Hown, HgZ, HgY, Hdg, HhZ, HhY⟩
  sl_exec

  icases Htk with ⟨Htb, Htk⟩
  icases HIt with ⟨#HIbpx, HIt⟩
  icases HRt with ⟨#HRbpx, HRt⟩
  iapply (sig_bar m cc _ (px cc) (dev1_eq cc) 0 (by decide) (owedL (List.drop 1 (paysL cc))) rfl) $$ [HO Htb HS2 HS4]
  · isplitr; · iexact HIbpx
    isplitl [HO]; · iexact HO
    isplitl [Htb]; · iexact Htb
    isplitl [HS2 HS4]
    · iapply (Entails.of_eq ((barPay_zero (F := F) (px cc)).trans (by rw [px_px])).symm)
      unfold giveX
      isplitl [HS2]; · iexact HS2
      iexact HS4
    · iexact HRbpx
  iintro HO
  sl_exec

  icases Htk with ⟨Htb, Htk⟩
  icases HIt with ⟨#HIbpz, HIt⟩
  icases HRt with ⟨#HRbpz, HRt⟩
  iapply (sig_bar m cc _ (pz cc) (dev2_eq cc) 2 (by decide) (owedL (List.drop 2 (paysL cc))) rfl) $$ [HO Htb HgZ HhZ]
  · isplitr; · iexact HIbpz
    isplitl [HO]; · iexact HO
    isplitl [Htb]; · iexact Htb
    isplitl [HgZ HhZ]
    · iapply (Entails.of_eq ((barPay_two (F := F) (pz cc)).trans (by rw [pz_pz])).symm)
      isplitl [HgZ]; · iexact HgZ
      iexact HhZ
    · iexact HRbpz
  iintro HO
  sl_exec

  icases Htk with ⟨Htb, Htk⟩
  icases HIt with ⟨#HIbpy, HIt⟩
  icases HRt with ⟨#HRbpy, HRt⟩
  iapply (sig_bar m cc _ (py cc) (dev3_eq cc) 1 (by decide) (owedL (List.drop 3 (paysL cc))) rfl) $$ [HO Htb HgY HhY]
  · isplitr; · iexact HIbpy
    isplitl [HO]; · iexact HO
    isplitl [Htb]; · iexact Htb
    isplitl [HgY HhY]
    · iapply (Entails.of_eq ((barPay_one (F := F) (py cc)).trans (by rw [py_py])).symm)
      isplitl [HgY]; · iexact HgY
      iexact HhY
    · iexact HRbpy
  iintro HO
  sl_exec
  -- the wait for the three neighbours
  icases Hcr with ⟨Hcb, Hcr⟩
  icases HpR with ⟨Hpb, HpR⟩
  icases HIw with ⟨#HIb, HIw⟩
  ihave Hmw := (mayWait_list (F := F) cc (.reg barS) (List.drop 3 (paysL cc)) (by decide)) $$ Hlev
  iapply (wait_bar m cc (by decide)) $$ [Hcb HO Hmw Hpb]
  · isplitr; · iexact HIb
    isplitl [Hcb]; · iexact Hcb
    isplitl [HO]; · iexact HO
    isplitl [Hmw]; · iexact Hmw
    iexact Hpb
  iintro ⟨HO, Hpb, -, Hgx, Hgy, Hgz⟩
  -- what they handed over: the x-neighbour's landing buffers chunk by chunk, the y- and z-neighbours' quarter and halves
  ihave Hgx := (Entails.of_eq (barPay_zero (F := F) cc)) $$ Hgx
  ihave Hgx := (giveX_rows (F := F) (px cc)) $$ Hgx
  icases Hgx with ⟨Hrbp, Hrb2p⟩
  ihave Hgy := (Entails.of_eq (barPay_one (F := F) cc)) $$ Hgy
  icases Hgy with ⟨HqY, HhYp⟩
  ihave Hgz := (Entails.of_eq (barPay_two (F := F) cc)) $$ Hgz
  icases Hgz with ⟨HqZ, HhZp⟩
  -- this device's staging buffers and send buffers chunk by chunk
  ihave H5 := (Entails.of_eq (junk_whole (F := F) cc cc0_scratch5)) $$ HS5
  icases H5 with ⟨%f5, H5⟩
  ihave H5 := (Entails.of_eq (stP_rows (F := F) cc fullShare f5)) $$ H5
  icases H5 with ⟨HP0, HP1, HP2, HP3, HP4, HP5, HP6, HP7⟩
  ihave H6 := (Entails.of_eq (junk_whole (F := F) cc cc0_scratch6)) $$ HS6
  icases H6 with ⟨%f6, H6⟩
  ihave H6 := (Entails.of_eq (stL_rows (F := F) cc fullShare f6)) $$ H6
  icases H6 with ⟨HL0, HL1, HL2, HL3, HL4, HL5, HL6, HL7⟩
  ihave H7 := (Entails.of_eq (junk_whole (F := F) cc cc0_scratch7)) $$ HS7
  icases H7 with ⟨%f7, H7⟩
  ihave H7 := (Entails.of_eq (stP2_rows (F := F) cc fullShare f7)) $$ H7
  icases H7 with ⟨HP20, HP21, HP22⟩
  ihave H8 := (Entails.of_eq (junk_whole (F := F) cc cc0_scratch8)) $$ HS8
  icases H8 with ⟨%f8, H8⟩
  ihave H8 := (Entails.of_eq (stL2_rows (F := F) cc fullShare f8)) $$ H8
  icases H8 with ⟨HL20, HL21, HL22⟩
  ihave H1 := (Entails.of_eq (junk_whole (F := F) cc cc0_scratch1)) $$ HS1
  icases H1 with ⟨%f1, H1⟩
  ihave H1 := (Entails.of_eq (sb_rows (F := F) cc fullShare f1)) $$ H1
  icases H1 with ⟨HB0, HB1, HB2, HB3, HB4, HB5, HB6, HB7⟩
  ihave H3 := (Entails.of_eq (junk_whole (F := F) cc cc0_scratch3)) $$ HS3
  icases H3 with ⟨%f3, H3⟩
  ihave H3 := (Entails.of_eq (sb2_rows (F := F) cc fullShare f3)) $$ H3
  icases H3 with ⟨HB20, HB21, HB22⟩
  -- the counters of the 22 copies into the staging buffers
  icases HvI with ⟨Hv0, Hv8, Hv1, Hv9, Hv2, Hv10, Hv3, Hv11, Hv4, Hv12, Hv5, Hv13, Hv6, Hv14, Hv7, Hv15, Hv16, Hv19, Hv17, Hv20, Hv18, Hv21⟩
  sl_exec
  -- chunk 0 across x: wait for its copy into the staging buffer, round it into the send buffer, send it
  have hled3 : ∀ (s : DmaSem sig), lvJ s.val = 0 → ((levAts LL lvv : sProp 𝕄) ⊢ MayWait (cc : Thread nD τ) (.dma s) () (owedL (List.drop 3 (paysL cc)))) :=
    fun s hs => mayWait_local (F := F) cc s hs _ (by decide)
  sl_exec
  clear hled3
  ihave HB0 := (congr (F := F) (sbR 0) cc fullShare (dev.sl.HB0_w1 m f1) (sb m cc) (fun i hi => glue_sb m cc 0 _ (k0_off1_inb cc) (k0_off1_eq cc) f1 i hi)) $$ HB0
  -- the copy
  icases Htk with ⟨Hts, Htr, Htk⟩
  icases HIt with ⟨#HIc22, #HIr, HIt⟩
  icases HRt with ⟨#HRs, #HRr, HRt⟩
  icases Hrbp with ⟨⟨%fd, Hd⟩, Hrbp⟩
  iapply (send_x m cc _ (dev4_eq cc) 0 fd (owedL (List.drop 4 (paysL cc))) rfl _) $$ [HB0 Hd HO Hts Htr]
  · isplitr; · iexact HIc22
    isplitr; · iexact HIr
    isplitl [HB0]; · iexact HB0
    isplitl [Hd]; · iexact Hd
    isplitl [HO]; · iexact HO
    isplitl [Hts]; · iexact Hts
    isplitr; · iexact HRs
    isplitl [Htr]; · iexact Htr
    iexact HRr
  iintro ⟨Hcxs0, HO⟩
  iclear HIr HRs HRr
  -- chunk 1 across x: wait for its copy into the staging buffer, round it into the send buffer, send it
  have hled4 : ∀ (s : DmaSem sig), lvJ s.val = 0 → ((levAts LL lvv : sProp 𝕄) ⊢ MayWait (cc : Thread nD τ) (.dma s) () (owedL (List.drop 4 (paysL cc)))) :=
    fun s hs => mayWait_local (F := F) cc s hs _ (by decide)
  sl_exec
  clear hled4
  ihave HB1 := (congr (F := F) (sbR 1) cc fullShare (dev.sl.HB1_w1 m f1) (sb m cc) (fun i hi => glue_sb m cc 1 _ (k0_off3_inb cc) (k0_off3_eq cc) f1 i hi)) $$ HB1
  -- the copy
  icases Htk with ⟨Hts, Htr, Htk⟩
  icases HIt with ⟨#HIc23, #HIr, HIt⟩
  icases HRt with ⟨#HRs, #HRr, HRt⟩
  icases Hrbp with ⟨⟨%fd, Hd⟩, Hrbp⟩
  iapply (send_x m cc _ (dev5_eq cc) 1 fd (owedL (List.drop 5 (paysL cc))) rfl _) $$ [HB1 Hd HO Hts Htr]
  · isplitr; · iexact HIc23
    isplitr; · iexact HIr
    isplitl [HB1]; · iexact HB1
    isplitl [Hd]; · iexact Hd
    isplitl [HO]; · iexact HO
    isplitl [Hts]; · iexact Hts
    isplitr; · iexact HRs
    isplitl [Htr]; · iexact Htr
    iexact HRr
  iintro ⟨Hcxs1, HO⟩
  iclear HIr HRs HRr
  -- chunk 2 across x: wait for its copy into the staging buffer, round it into the send buffer, send it
  have hled5 : ∀ (s : DmaSem sig), lvJ s.val = 0 → ((levAts LL lvv : sProp 𝕄) ⊢ MayWait (cc : Thread nD τ) (.dma s) () (owedL (List.drop 5 (paysL cc)))) :=
    fun s hs => mayWait_local (F := F) cc s hs _ (by decide)
  sl_exec
  clear hled5
  ihave HB2 := (congr (F := F) (sbR 2) cc fullShare (dev.sl.HB2_w1 m f1) (sb m cc) (fun i hi => glue_sb m cc 2 _ (k0_off5_inb cc) (k0_off5_eq cc) f1 i hi)) $$ HB2
  -- the copy
  icases Htk with ⟨Hts, Htr, Htk⟩
  icases HIt with ⟨#HIc24, #HIr, HIt⟩
  icases HRt with ⟨#HRs, #HRr, HRt⟩
  icases Hrbp with ⟨⟨%fd, Hd⟩, Hrbp⟩
  iapply (send_x m cc _ (dev6_eq cc) 2 fd (owedL (List.drop 6 (paysL cc))) rfl _) $$ [HB2 Hd HO Hts Htr]
  · isplitr; · iexact HIc24
    isplitr; · iexact HIr
    isplitl [HB2]; · iexact HB2
    isplitl [Hd]; · iexact Hd
    isplitl [HO]; · iexact HO
    isplitl [Hts]; · iexact Hts
    isplitr; · iexact HRs
    isplitl [Htr]; · iexact Htr
    iexact HRr
  iintro ⟨Hcxs2, HO⟩
  iclear HIr HRs HRr
  -- chunk 3 across x: wait for its copy into the staging buffer, round it into the send buffer, send it
  have hled6 : ∀ (s : DmaSem sig), lvJ s.val = 0 → ((levAts LL lvv : sProp 𝕄) ⊢ MayWait (cc : Thread nD τ) (.dma s) () (owedL (List.drop 6 (paysL cc)))) :=
    fun s hs => mayWait_local (F := F) cc s hs _ (by decide)
  sl_exec
  clear hled6
  ihave HB3 := (congr (F := F) (sbR 3) cc fullShare (dev.sl.HB3_w1 m f1) (sb m cc) (fun i hi => glue_sb m cc 3 _ (k0_off7_inb cc) (k0_off7_eq cc) f1 i hi)) $$ HB3
  -- the copy
  icases Htk with ⟨Hts, Htr, Htk⟩
  icases HIt with ⟨#HIc25, #HIr, HIt⟩
  icases HRt with ⟨#HRs, #HRr, HRt⟩
  icases Hrbp with ⟨⟨%fd, Hd⟩, Hrbp⟩
  iapply (send_x m cc _ (dev7_eq cc) 3 fd (owedL (List.drop 7 (paysL cc))) rfl _) $$ [HB3 Hd HO Hts Htr]
  · isplitr; · iexact HIc25
    isplitr; · iexact HIr
    isplitl [HB3]; · iexact HB3
    isplitl [Hd]; · iexact Hd
    isplitl [HO]; · iexact HO
    isplitl [Hts]; · iexact Hts
    isplitr; · iexact HRs
    isplitl [Htr]; · iexact Htr
    iexact HRr
  iintro ⟨Hcxs3, HO⟩
  iclear HIr HRs HRr
  -- chunk 4 across x: wait for its copy into the staging buffer, round it into the send buffer, send it
  have hled7 : ∀ (s : DmaSem sig), lvJ s.val = 0 → ((levAts LL lvv : sProp 𝕄) ⊢ MayWait (cc : Thread nD τ) (.dma s) () (owedL (List.drop 7 (paysL cc)))) :=
    fun s hs => mayWait_local (F := F) cc s hs _ (by decide)
  sl_exec
  clear hled7
  ihave HB4 := (congr (F := F) (sbR 4) cc fullShare (dev.sl.HB4_w1 m f1) (sb m cc) (fun i hi => glue_sb m cc 4 _ (k0_off9_inb cc) (k0_off9_eq cc) f1 i hi)) $$ HB4
  -- the copy
  icases Htk with ⟨Hts, Htr, Htk⟩
  icases HIt with ⟨#HIc26, #HIr, HIt⟩
  icases HRt with ⟨#HRs, #HRr, HRt⟩
  icases Hrbp with ⟨⟨%fd, Hd⟩, Hrbp⟩
  iapply (send_x m cc _ (dev8_eq cc) 4 fd (owedL (List.drop 8 (paysL cc))) rfl _) $$ [HB4 Hd HO Hts Htr]
  · isplitr; · iexact HIc26
    isplitr; · iexact HIr
    isplitl [HB4]; · iexact HB4
    isplitl [Hd]; · iexact Hd
    isplitl [HO]; · iexact HO
    isplitl [Hts]; · iexact Hts
    isplitr; · iexact HRs
    isplitl [Htr]; · iexact Htr
    iexact HRr
  iintro ⟨Hcxs4, HO⟩
  iclear HIr HRs HRr
  -- chunk 5 across x: wait for its copy into the staging buffer, round it into the send buffer, send it
  have hled8 : ∀ (s : DmaSem sig), lvJ s.val = 0 → ((levAts LL lvv : sProp 𝕄) ⊢ MayWait (cc : Thread nD τ) (.dma s) () (owedL (List.drop 8 (paysL cc)))) :=
    fun s hs => mayWait_local (F := F) cc s hs _ (by decide)
  sl_exec
  clear hled8
  ihave HB5 := (congr (F := F) (sbR 5) cc fullShare (dev.sl.HB5_w1 m f1) (sb m cc) (fun i hi => glue_sb m cc 5 _ (k0_off11_inb cc) (k0_off11_eq cc) f1 i hi)) $$ HB5
  -- the copy
  icases Htk with ⟨Hts, Htr, Htk⟩
  icases HIt with ⟨#HIc27, #HIr, HIt⟩
  icases HRt with ⟨#HRs, #HRr, HRt⟩
  icases Hrbp with ⟨⟨%fd, Hd⟩, Hrbp⟩
  iapply (send_x m cc _ (dev9_eq cc) 5 fd (owedL (List.drop 9 (paysL cc))) rfl _) $$ [HB5 Hd HO Hts Htr]
  · isplitr; · iexact HIc27
    isplitr; · iexact HIr
    isplitl [HB5]; · iexact HB5
    isplitl [Hd]; · iexact Hd
    isplitl [HO]; · iexact HO
    isplitl [Hts]; · iexact Hts
    isplitr; · iexact HRs
    isplitl [Htr]; · iexact Htr
    iexact HRr
  iintro ⟨Hcxs5, HO⟩
  iclear HIr HRs HRr
  -- chunk 6 across x: wait for its copy into the staging buffer, round it into the send buffer, send it
  have hled9 : ∀ (s : DmaSem sig), lvJ s.val = 0 → ((levAts LL lvv : sProp 𝕄) ⊢ MayWait (cc : Thread nD τ) (.dma s) () (owedL (List.drop 9 (paysL cc)))) :=
    fun s hs => mayWait_local (F := F) cc s hs _ (by decide)
  sl_exec
  clear hled9
  ihave HB6 := (congr (F := F) (sbR 6) cc fullShare (dev.sl.HB6_w1 m f1) (sb m cc) (fun i hi => glue_sb m cc 6 _ (k0_off13_inb cc) (k0_off13_eq cc) f1 i hi)) $$ HB6
  -- the copy
  icases Htk with ⟨Hts, Htr, Htk⟩
  icases HIt with ⟨#HIc28, #HIr, HIt⟩
  icases HRt with ⟨#HRs, #HRr, HRt⟩
  icases Hrbp with ⟨⟨%fd, Hd⟩, Hrbp⟩
  iapply (send_x m cc _ (dev10_eq cc) 6 fd (owedL (List.drop 10 (paysL cc))) rfl _) $$ [HB6 Hd HO Hts Htr]
  · isplitr; · iexact HIc28
    isplitr; · iexact HIr
    isplitl [HB6]; · iexact HB6
    isplitl [Hd]; · iexact Hd
    isplitl [HO]; · iexact HO
    isplitl [Hts]; · iexact Hts
    isplitr; · iexact HRs
    isplitl [Htr]; · iexact Htr
    iexact HRr
  iintro ⟨Hcxs6, HO⟩
  iclear HIr HRs HRr
  -- chunk 7 across x: wait for its copy into the staging buffer, round it into the send buffer, send it
  have hled10 : ∀ (s : DmaSem sig), lvJ s.val = 0 → ((levAts LL lvv : sProp 𝕄) ⊢ MayWait (cc : Thread nD τ) (.dma s) () (owedL (List.drop 10 (paysL cc)))) :=
    fun s hs => mayWait_local (F := F) cc s hs _ (by decide)
  sl_exec
  clear hled10
  ihave HB7 := (congr (F := F) (sbR 7) cc fullShare (dev.sl.HB7_w1 m f1) (sb m cc) (fun i hi => glue_sb m cc 7 _ (k0_off15_inb cc) (k0_off15_eq cc) f1 i hi)) $$ HB7
  -- the copy
  icases Htk with ⟨Hts, Htr, Htk⟩
  icases HIt with ⟨#HIc29, #HIr, HIt⟩
  icases HRt with ⟨#HRs, #HRr, HRt⟩
  icases Hrbp with ⟨%fd, Hd⟩
  iapply (send_x m cc _ (dev11_eq cc) 7 fd (owedL (List.drop 11 (paysL cc))) rfl _) $$ [HB7 Hd HO Hts Htr]
  · isplitr; · iexact HIc29
    isplitr; · iexact HIr
    isplitl [HB7]; · iexact HB7
    isplitl [Hd]; · iexact Hd
    isplitl [HO]; · iexact HO
    isplitl [Hts]; · iexact Hts
    isplitr; · iexact HRs
    isplitl [Htr]; · iexact Htr
    iexact HRr
  iintro ⟨Hcxs7, HO⟩
  iclear HIr HRs HRr
  -- chunk 0 across x (the diagonal quarter's): wait for its copy into the staging buffer, round it into the send buffer, send it
  have hled11 : ∀ (s : DmaSem sig), lvJ s.val = 0 → ((levAts LL lvv : sProp 𝕄) ⊢ MayWait (cc : Thread nD τ) (.dma s) () (owedL (List.drop 11 (paysL cc)))) :=
    fun s hs => mayWait_local (F := F) cc s hs _ (by decide)
  sl_exec
  clear hled11
  ihave HB20 := (congr (F := F) (sb2R 0) cc fullShare (dev.sl.HB20_w1 m f3) (sb2 m cc) (fun i hi => glue_sb2 m cc 0 _ (k0_off17_inb cc) (k0_off17_eq cc) f3 i hi)) $$ HB20
  -- the copy
  icases Htk with ⟨Hts, Htr, Htk⟩
  icases HIt with ⟨#HIc38, #HIr, HIt⟩
  icases HRt with ⟨#HRs, #HRr, HRt⟩
  icases Hrb2p with ⟨⟨%fd, Hd⟩, Hrb2p⟩
  iapply (send_x2 m cc _ (dev12_eq cc) 0 fd (owedL (List.drop 12 (paysL cc))) rfl _) $$ [HB20 Hd HO Hts Htr]
  · isplitr; · iexact HIc38
    isplitr; · iexact HIr
    isplitl [HB20]; · iexact HB20
    isplitl [Hd]; · iexact Hd
    isplitl [HO]; · iexact HO
    isplitl [Hts]; · iexact Hts
    isplitr; · iexact HRs
    isplitl [Htr]; · iexact Htr
    iexact HRr
  iintro ⟨Hcds0, HO⟩
  iclear HIr HRs HRr
  -- chunk 1 across x (the diagonal quarter's): wait for its copy into the staging buffer, round it into the send buffer, send it
  have hled12 : ∀ (s : DmaSem sig), lvJ s.val = 0 → ((levAts LL lvv : sProp 𝕄) ⊢ MayWait (cc : Thread nD τ) (.dma s) () (owedL (List.drop 12 (paysL cc)))) :=
    fun s hs => mayWait_local (F := F) cc s hs _ (by decide)
  sl_exec
  clear hled12
  ihave HB21 := (congr (F := F) (sb2R 1) cc fullShare (dev.sl.HB21_w1 m f3) (sb2 m cc) (fun i hi => glue_sb2 m cc 1 _ (k0_off19_inb cc) (k0_off19_eq cc) f3 i hi)) $$ HB21
  -- the copy
  icases Htk with ⟨Hts, Htr, Htk⟩
  icases HIt with ⟨#HIc39, #HIr, HIt⟩
  icases HRt with ⟨#HRs, #HRr, HRt⟩
  icases Hrb2p with ⟨⟨%fd, Hd⟩, Hrb2p⟩
  iapply (send_x2 m cc _ (dev13_eq cc) 1 fd (owedL (List.drop 13 (paysL cc))) rfl _) $$ [HB21 Hd HO Hts Htr]
  · isplitr; · iexact HIc39
    isplitr; · iexact HIr
    isplitl [HB21]; · iexact HB21
    isplitl [Hd]; · iexact Hd
    isplitl [HO]; · iexact HO
    isplitl [Hts]; · iexact Hts
    isplitr; · iexact HRs
    isplitl [Htr]; · iexact Htr
    iexact HRr
  iintro ⟨Hcds1, HO⟩
  iclear HIr HRs HRr
  -- chunk 2 across x (the diagonal quarter's): wait for its copy into the staging buffer, round it into the send buffer, send it
  have hled13 : ∀ (s : DmaSem sig), lvJ s.val = 0 → ((levAts LL lvv : sProp 𝕄) ⊢ MayWait (cc : Thread nD τ) (.dma s) () (owedL (List.drop 13 (paysL cc)))) :=
    fun s hs => mayWait_local (F := F) cc s hs _ (by decide)
  sl_exec
  clear hled13
  ihave HB22 := (congr (F := F) (sb2R 2) cc fullShare (dev.sl.HB22_w1 m f3) (sb2 m cc) (fun i hi => glue_sb2 m cc 2 _ (k0_off21_inb cc) (k0_off21_eq cc) f3 i hi)) $$ HB22
  -- the copy
  icases Htk with ⟨Hts, Htr, Htk⟩
  icases HIt with ⟨#HIc40, #HIr, HIt⟩
  icases HRt with ⟨#HRs, #HRr, HRt⟩
  icases Hrb2p with ⟨%fd, Hd⟩
  iapply (send_x2 m cc _ (dev14_eq cc) 2 fd (owedL (List.drop 14 (paysL cc))) rfl _) $$ [HB22 Hd HO Hts Htr]
  · isplitr; · iexact HIc40
    isplitr; · iexact HIr
    isplitl [HB22]; · iexact HB22
    isplitl [Hd]; · iexact Hd
    isplitl [HO]; · iexact HO
    isplitl [Hts]; · iexact Hts
    isplitr; · iexact HRs
    isplitl [Htr]; · iexact Htr
    iexact HRr
  iintro ⟨Hcds2, HO⟩
  iclear HIr HRs HRr
  sl_exec
  -- the result array in its 32 blocks
  ihave Hout := (out_split_junk (F := F) cc) $$ Hout
  icases Hout with ⟨⟨%g00, HU00⟩, ⟨%g01, HU01⟩, ⟨%g02, HU02⟩, ⟨%g03, HU03⟩, ⟨%g10, HU10⟩, ⟨%g11, HU11⟩, ⟨%g12, HU12⟩, ⟨%g13, HU13⟩, ⟨%g20, HU20⟩, ⟨%g21, HU21⟩, ⟨%g22, HU22⟩, ⟨%g23, HU23⟩, ⟨%g30, HU30⟩, ⟨%g31, HU31⟩, ⟨%g32, HU32⟩, ⟨%g33, HU33⟩, ⟨%g40, HU40⟩, ⟨%g41, HU41⟩, ⟨%g42, HU42⟩, ⟨%g43, HU43⟩, ⟨%g50, HU50⟩, ⟨%g51, HU51⟩, ⟨%g52, HU52⟩, ⟨%g53, HU53⟩, ⟨%g60, HU60⟩, ⟨%g61, HU61⟩, ⟨%g62, HU62⟩, ⟨%g63, HU63⟩, ⟨%g70, HU70⟩, ⟨%g71, HU71⟩, ⟨%g72, HU72⟩, ⟨%g73, HU73⟩⟩
  ihave HqZ := (Entails.of_eq (giveQ_eq (F := F) (pz cc) (zqF (pz cc)))) $$ HqZ
  ihave HqY := (Entails.of_eq (giveQ_eq (F := F) (py cc) (yqF (py cc)))) $$ HqY
  ihave HhZp := (Entails.of_eq (giveH_eq (F := F) (pz cc) 0)) $$ HhZp
  ihave HhYp := (Entails.of_eq (giveH_eq (F := F) (py cc) 1)) $$ HhYp
  -- step 0 of the main loop: the x-neighbour's chunk 0 has landed
  icases Hcr with ⟨Hc, Hcr⟩
  icases HpR with ⟨Hp, HpR⟩
  icases HIw with ⟨#HIc30, HIw⟩
  ihave Hmw := (mayWait_list (F := F) cc (dsem (⟨30, by decide⟩ : Fin 140)) (List.drop 14 (paysL cc)) (by decide)) $$ Hlev
  iapply (wait_a1_at m cc _ 0 rfl) $$ [Hc HO Hmw Hp]
  · isplitr; · iexact HIc30
    isplitl [Hc]; · iexact Hc
    isplitl [HO]; · iexact HO
    isplitl [Hmw]; · iexact Hmw
    iexact Hp
  iintro ⟨HO, Hq30, -, Hrb0⟩
  icases Hown with ⟨Ho0, Hown⟩
  have hled14 : ∀ (s : DmaSem sig), lvJ s.val = 0 → ((levAts LL lvv : sProp 𝕄) ⊢ MayWait (cc : Thread nD τ) (.dma s) () (owedL (List.drop 14 (paysL cc)))) :=
    fun s hs => mayWait_local (F := F) cc s hs _ (by decide)
  sl_exec
  clear hled14
  ihave Ho0 := (congr (F := F) (r4R (mqF cc) 0) cc fullShare (dev.sl.Ho0_w1 m f0) (r4 m cc) (fun i hi => glue_own m cc 0 _ (k0_off2_inb cc) (k0_off2_eq cc) _ (k0_off23_inb cc) (k0_off23_eq cc) f0 i hi)) $$ Ho0
  ihave Ho0 := (Entails.of_eq (share_ZYK_eq (F := F) (r4R (mqF cc) 0) cc (r4 m cc))) $$ Ho0
  icases Ho0 with ⟨HoZ0, HoY0, HoK0⟩
  -- own chunk 0 to the z-neighbour
  icases Htk with ⟨Hts, Htr, Htk⟩
  icases HIt with ⟨#HIc44, #HIr, HIt⟩
  icases HRt with ⟨#HRs, #HRr, HRt⟩
  icases HqZ with ⟨⟨%fd, Hd⟩, HqZ⟩
  iapply (send_z_at m cc _ (dev15_eq cc) 0 _ _ (k0_off24_eq cc) fd (owedL (List.drop 15 (paysL cc))) rfl _) $$ [HoZ0 Hd HO Hts Htr]
  · isplitr; · iexact HIc44
    isplitr; · iexact HIr
    isplitl [HoZ0]; · iexact HoZ0
    isplitl [Hd]; · iexact Hd
    isplitl [HO]; · iexact HO
    isplitl [Hts]; · iexact Hts
    isplitr; · iexact HRs
    isplitl [Htr]; · iexact Htr
    iexact HRr
  iintro ⟨Hczs0, HO⟩
  iclear HIr HRs HRr
  sl_exec
  -- own chunk 0 to the y-neighbour
  icases Htk with ⟨Hts, Htr, Htk⟩
  icases HIt with ⟨#HIc60, #HIr, HIt⟩
  icases HRt with ⟨#HRs, #HRr, HRt⟩
  icases HqY with ⟨⟨%fd, Hd⟩, HqY⟩
  iapply (send_y_at m cc _ (dev16_eq cc) 0 _ _ (k0_off24_eq cc) fd (owedL (List.drop 16 (paysL cc))) rfl _) $$ [HoY0 Hd HO Hts Htr]
  · isplitr; · iexact HIc60
    isplitr; · iexact HIr
    isplitl [HoY0]; · iexact HoY0
    isplitl [Hd]; · iexact Hd
    isplitl [HO]; · iexact HO
    isplitl [Hts]; · iexact Hts
    isplitr; · iexact HRs
    isplitl [Htr]; · iexact Htr
    iexact HRr
  iintro ⟨Hcys0, HO⟩
  iclear HIr HRs HRr
  sl_exec
  -- step 1 of the main loop: the x-neighbour's chunk 1 has landed
  icases Hcr with ⟨Hc, Hcr⟩
  icases HpR with ⟨Hp, HpR⟩
  icases HIw with ⟨#HIc31, HIw⟩
  ihave Hmw := (mayWait_list (F := F) cc (dsem (⟨31, by decide⟩ : Fin 140)) (List.drop 16 (paysL cc)) (by decide)) $$ Hlev
  iapply (wait_a1_at m cc _ 1 rfl) $$ [Hc HO Hmw Hp]
  · isplitr; · iexact HIc31
    isplitl [Hc]; · iexact Hc
    isplitl [HO]; · iexact HO
    isplitl [Hmw]; · iexact Hmw
    iexact Hp
  iintro ⟨HO, Hq31, -, Hrb1⟩
  icases Hown with ⟨Ho1, Hown⟩
  have hled16 : ∀ (s : DmaSem sig), lvJ s.val = 0 → ((levAts LL lvv : sProp 𝕄) ⊢ MayWait (cc : Thread nD τ) (.dma s) () (owedL (List.drop 16 (paysL cc)))) :=
    fun s hs => mayWait_local (F := F) cc s hs _ (by decide)
  sl_exec
  clear hled16
  ihave Ho1 := (congr (F := F) (r4R (mqF cc) 1) cc fullShare (dev.sl.Ho1_w1 m f0) (r4 m cc) (fun i hi => glue_own m cc 1 _ (k0_off4_inb cc) (k0_off4_eq cc) _ (k0_off25_inb cc) (k0_off25_eq cc) f0 i hi)) $$ Ho1
  ihave Ho1 := (Entails.of_eq (share_ZYK_eq (F := F) (r4R (mqF cc) 1) cc (r4 m cc))) $$ Ho1
  icases Ho1 with ⟨HoZ1, HoY1, HoK1⟩
  -- own chunk 1 to the z-neighbour
  icases Htk with ⟨Hts, Htr, Htk⟩
  icases HIt with ⟨#HIc45, #HIr, HIt⟩
  icases HRt with ⟨#HRs, #HRr, HRt⟩
  icases HqZ with ⟨⟨%fd, Hd⟩, HqZ⟩
  iapply (send_z_at m cc _ (dev17_eq cc) 1 _ _ (k0_off26_eq cc) fd (owedL (List.drop 17 (paysL cc))) rfl _) $$ [HoZ1 Hd HO Hts Htr]
  · isplitr; · iexact HIc45
    isplitr; · iexact HIr
    isplitl [HoZ1]; · iexact HoZ1
    isplitl [Hd]; · iexact Hd
    isplitl [HO]; · iexact HO
    isplitl [Hts]; · iexact Hts
    isplitr; · iexact HRs
    isplitl [Htr]; · iexact Htr
    iexact HRr
  iintro ⟨Hczs1, HO⟩
  iclear HIr HRs HRr
  sl_exec
  -- own chunk 1 to the y-neighbour
  icases Htk with ⟨Hts, Htr, Htk⟩
  icases HIt with ⟨#HIc61, #HIr, HIt⟩
  icases HRt with ⟨#HRs, #HRr, HRt⟩
  icases HqY with ⟨⟨%fd, Hd⟩, HqY⟩
  iapply (send_y_at m cc _ (dev18_eq cc) 1 _ _ (k0_off26_eq cc) fd (owedL (List.drop 18 (paysL cc))) rfl _) $$ [HoY1 Hd HO Hts Htr]
  · isplitr; · iexact HIc61
    isplitr; · iexact HIr
    isplitl [HoY1]; · iexact HoY1
    isplitl [Hd]; · iexact Hd
    isplitl [HO]; · iexact HO
    isplitl [Hts]; · iexact Hts
    isplitr; · iexact HRs
    isplitl [Htr]; · iexact Htr
    iexact HRr
  iintro ⟨Hcys1, HO⟩
  iclear HIr HRs HRr
  sl_exec
  -- the z-neighbour's chunk 0 has landed
  icases Hcr with ⟨Hc, Hcr⟩
  icases HpR with ⟨Hp, HpR⟩
  icases HIw with ⟨#HIc52, HIw⟩
  ihave Hmw := (mayWait_list (F := F) cc (dsem (⟨52, by decide⟩ : Fin 140)) (List.drop 18 (paysL cc)) (by decide)) $$ Hlev
  iapply (wait_a5_at m cc _ 0 rfl) $$ [Hc HO Hmw Hp]
  · isplitr; · iexact HIc52
    isplitl [Hc]; · iexact Hc
    isplitl [HO]; · iexact HO
    isplitl [Hmw]; · iexact Hmw
    iexact Hp
  iintro ⟨HO, Hq52, -, Hz0⟩
  sl_exec
  -- the y-neighbour's chunk 0 has landed
  icases Hcr with ⟨Hc, Hcr⟩
  icases HpR with ⟨Hp, HpR⟩
  icases HIw with ⟨#HIc68, HIw⟩
  ihave Hmw := (mayWait_list (F := F) cc (dsem (⟨68, by decide⟩ : Fin 140)) (List.drop 18 (paysL cc)) (by decide)) $$ Hlev
  iapply (wait_a7_at m cc _ 0 rfl) $$ [Hc HO Hmw Hp]
  · isplitr; · iexact HIc68
    isplitl [Hc]; · iexact Hc
    isplitl [HO]; · iexact HO
    isplitl [Hmw]; · iexact Hmw
    iexact Hp
  iintro ⟨HO, Hq68, -, Hy0⟩
  sl_exec
  -- step 2 of the main loop: the x-neighbour's chunk 2 has landed
  icases Hcr with ⟨Hc, Hcr⟩
  icases HpR with ⟨Hp, HpR⟩
  icases HIw with ⟨#HIc32, HIw⟩
  ihave Hmw := (mayWait_list (F := F) cc (dsem (⟨32, by decide⟩ : Fin 140)) (List.drop 18 (paysL cc)) (by decide)) $$ Hlev
  iapply (wait_a1_at m cc _ 2 rfl) $$ [Hc HO Hmw Hp]
  · isplitr; · iexact HIc32
    isplitl [Hc]; · iexact Hc
    isplitl [HO]; · iexact HO
    isplitl [Hmw]; · iexact Hmw
    iexact Hp
  iintro ⟨HO, Hq32, -, Hrb2⟩
  icases Hown with ⟨Ho2, Hown⟩
  have hled18 : ∀ (s : DmaSem sig), lvJ s.val = 0 → ((levAts LL lvv : sProp 𝕄) ⊢ MayWait (cc : Thread nD τ) (.dma s) () (owedL (List.drop 18 (paysL cc)))) :=
    fun s hs => mayWait_local (F := F) cc s hs _ (by decide)
  sl_exec
  clear hled18
  ihave Ho2 := (congr (F := F) (r4R (mqF cc) 2) cc fullShare (dev.sl.Ho2_w1 m f0) (r4 m cc) (fun i hi => glue_own m cc 2 _ (k0_off6_inb cc) (k0_off6_eq cc) _ (k0_off27_inb cc) (k0_off27_eq cc) f0 i hi)) $$ Ho2
  ihave Ho2 := (Entails.of_eq (share_ZYK_eq (F := F) (r4R (mqF cc) 2) cc (r4 m cc))) $$ Ho2
  icases Ho2 with ⟨HoZ2, HoY2, HoK2⟩
  -- own chunk 2 to the z-neighbour
  icases Htk with ⟨Hts, Htr, Htk⟩
  icases HIt with ⟨#HIc46, #HIr, HIt⟩
  icases HRt with ⟨#HRs, #HRr, HRt⟩
  icases HqZ with ⟨⟨%fd, Hd⟩, HqZ⟩
  iapply (send_z_at m cc _ (dev19_eq cc) 2 _ _ (k0_off28_eq cc) fd (owedL (List.drop 19 (paysL cc))) rfl _) $$ [HoZ2 Hd HO Hts Htr]
  · isplitr; · iexact HIc46
    isplitr; · iexact HIr
    isplitl [HoZ2]; · iexact HoZ2
    isplitl [Hd]; · iexact Hd
    isplitl [HO]; · iexact HO
    isplitl [Hts]; · iexact Hts
    isplitr; · iexact HRs
    isplitl [Htr]; · iexact Htr
    iexact HRr
  iintro ⟨Hczs2, HO⟩
  iclear HIr HRs HRr
  sl_exec
  -- own chunk 2 to the y-neighbour
  icases Htk with ⟨Hts, Htr, Htk⟩
  icases HIt with ⟨#HIc62, #HIr, HIt⟩
  icases HRt with ⟨#HRs, #HRr, HRt⟩
  icases HqY with ⟨⟨%fd, Hd⟩, HqY⟩
  iapply (send_y_at m cc _ (dev20_eq cc) 2 _ _ (k0_off28_eq cc) fd (owedL (List.drop 20 (paysL cc))) rfl _) $$ [HoY2 Hd HO Hts Htr]
  · isplitr; · iexact HIc62
    isplitr; · iexact HIr
    isplitl [HoY2]; · iexact HoY2
    isplitl [Hd]; · iexact Hd
    isplitl [HO]; · iexact HO
    isplitl [Hts]; · iexact Hts
    isplitr; · iexact HRs
    isplitl [Htr]; · iexact Htr
    iexact HRr
  iintro ⟨Hcys2, HO⟩
  iclear HIr HRs HRr
  sl_exec
  -- the z-neighbour's chunk 1 has landed
  icases Hcr with ⟨Hc, Hcr⟩
  icases HpR with ⟨Hp, HpR⟩
  icases HIw with ⟨#HIc53, HIw⟩
  ihave Hmw := (mayWait_list (F := F) cc (dsem (⟨53, by decide⟩ : Fin 140)) (List.drop 20 (paysL cc)) (by decide)) $$ Hlev
  iapply (wait_a5_at m cc _ 1 rfl) $$ [Hc HO Hmw Hp]
  · isplitr; · iexact HIc53
    isplitl [Hc]; · iexact Hc
    isplitl [HO]; · iexact HO
    isplitl [Hmw]; · iexact Hmw
    iexact Hp
  iintro ⟨HO, Hq53, -, Hz1⟩
  sl_exec
  -- the y-neighbour's chunk 1 has landed
  icases Hcr with ⟨Hc, Hcr⟩
  icases HpR with ⟨Hp, HpR⟩
  icases HIw with ⟨#HIc69, HIw⟩
  ihave Hmw := (mayWait_list (F := F) cc (dsem (⟨69, by decide⟩ : Fin 140)) (List.drop 20 (paysL cc)) (by decide)) $$ Hlev
  iapply (wait_a7_at m cc _ 1 rfl) $$ [Hc HO Hmw Hp]
  · isplitr; · iexact HIc69
    isplitl [Hc]; · iexact Hc
    isplitl [HO]; · iexact HO
    isplitl [Hmw]; · iexact Hmw
    iexact Hp
  iintro ⟨HO, Hq69, -, Hy1⟩
  sl_exec
  -- step 3 of the main loop: the x-neighbour's chunk 3 has landed
  icases Hcr with ⟨Hc, Hcr⟩
  icases HpR with ⟨Hp, HpR⟩
  icases HIw with ⟨#HIc33, HIw⟩
  ihave Hmw := (mayWait_list (F := F) cc (dsem (⟨33, by decide⟩ : Fin 140)) (List.drop 20 (paysL cc)) (by decide)) $$ Hlev
  iapply (wait_a1_at m cc _ 3 rfl) $$ [Hc HO Hmw Hp]
  · isplitr; · iexact HIc33
    isplitl [Hc]; · iexact Hc
    isplitl [HO]; · iexact HO
    isplitl [Hmw]; · iexact Hmw
    iexact Hp
  iintro ⟨HO, Hq33, -, Hrb3⟩
  icases Hown with ⟨Ho3, Hown⟩
  have hled20 : ∀ (s : DmaSem sig), lvJ s.val = 0 → ((levAts LL lvv : sProp 𝕄) ⊢ MayWait (cc : Thread nD τ) (.dma s) () (owedL (List.drop 20 (paysL cc)))) :=
    fun s hs => mayWait_local (F := F) cc s hs _ (by decide)
  sl_exec
  clear hled20
  ihave Ho3 := (congr (F := F) (r4R (mqF cc) 3) cc fullShare (dev.sl.Ho3_w1 m f0) (r4 m cc) (fun i hi => glue_own m cc 3 _ (k0_off8_inb cc) (k0_off8_eq cc) _ (k0_off29_inb cc) (k0_off29_eq cc) f0 i hi)) $$ Ho3
  ihave Ho3 := (Entails.of_eq (share_ZYK_eq (F := F) (r4R (mqF cc) 3) cc (r4 m cc))) $$ Ho3
  icases Ho3 with ⟨HoZ3, HoY3, HoK3⟩
  -- own chunk 3 to the z-neighbour
  icases Htk with ⟨Hts, Htr, Htk⟩
  icases HIt with ⟨#HIc47, #HIr, HIt⟩
  icases HRt with ⟨#HRs, #HRr, HRt⟩
  icases HqZ with ⟨⟨%fd, Hd⟩, HqZ⟩
  iapply (send_z_at m cc _ (dev21_eq cc) 3 _ _ (k0_off30_eq cc) fd (owedL (List.drop 21 (paysL cc))) rfl _) $$ [HoZ3 Hd HO Hts Htr]
  · isplitr; · iexact HIc47
    isplitr; · iexact HIr
    isplitl [HoZ3]; · iexact HoZ3
    isplitl [Hd]; · iexact Hd
    isplitl [HO]; · iexact HO
    isplitl [Hts]; · iexact Hts
    isplitr; · iexact HRs
    isplitl [Htr]; · iexact Htr
    iexact HRr
  iintro ⟨Hczs3, HO⟩
  iclear HIr HRs HRr
  sl_exec
  -- own chunk 3 to the y-neighbour
  icases Htk with ⟨Hts, Htr, Htk⟩
  icases HIt with ⟨#HIc63, #HIr, HIt⟩
  icases HRt with ⟨#HRs, #HRr, HRt⟩
  icases HqY with ⟨⟨%fd, Hd⟩, HqY⟩
  iapply (send_y_at m cc _ (dev22_eq cc) 3 _ _ (k0_off30_eq cc) fd (owedL (List.drop 22 (paysL cc))) rfl _) $$ [HoY3 Hd HO Hts Htr]
  · isplitr; · iexact HIc63
    isplitr; · iexact HIr
    isplitl [HoY3]; · iexact HoY3
    isplitl [Hd]; · iexact Hd
    isplitl [HO]; · iexact HO
    isplitl [Hts]; · iexact Hts
    isplitr; · iexact HRs
    isplitl [Htr]; · iexact Htr
    iexact HRr
  iintro ⟨Hcys3, HO⟩
  iclear HIr HRs HRr
  sl_exec
  -- the z-neighbour's chunk 2 has landed
  icases Hcr with ⟨Hc, Hcr⟩
  icases HpR with ⟨Hp, HpR⟩
  icases HIw with ⟨#HIc54, HIw⟩
  ihave Hmw := (mayWait_list (F := F) cc (dsem (⟨54, by decide⟩ : Fin 140)) (List.drop 22 (paysL cc)) (by decide)) $$ Hlev
  iapply (wait_a5_at m cc _ 2 rfl) $$ [Hc HO Hmw Hp]
  · isplitr; · iexact HIc54
    isplitl [Hc]; · iexact Hc
    isplitl [HO]; · iexact HO
    isplitl [Hmw]; · iexact Hmw
    iexact Hp
  iintro ⟨HO, Hq54, -, Hz2⟩
  sl_exec
  -- the y-neighbour's chunk 2 has landed
  icases Hcr with ⟨Hc, Hcr⟩
  icases HpR with ⟨Hp, HpR⟩
  icases HIw with ⟨#HIc70, HIw⟩
  ihave Hmw := (mayWait_list (F := F) cc (dsem (⟨70, by decide⟩ : Fin 140)) (List.drop 22 (paysL cc)) (by decide)) $$ Hlev
  iapply (wait_a7_at m cc _ 2 rfl) $$ [Hc HO Hmw Hp]
  · isplitr; · iexact HIc70
    isplitl [Hc]; · iexact Hc
    isplitl [HO]; · iexact HO
    isplitl [Hmw]; · iexact Hmw
    iexact Hp
  iintro ⟨HO, Hq70, -, Hy2⟩
  sl_exec
  -- step 4 of the main loop: the x-neighbour's chunk 4 has landed
  icases Hcr with ⟨Hc, Hcr⟩
  icases HpR with ⟨Hp, HpR⟩
  icases HIw with ⟨#HIc34, HIw⟩
  ihave Hmw := (mayWait_list (F := F) cc (dsem (⟨34, by decide⟩ : Fin 140)) (List.drop 22 (paysL cc)) (by decide)) $$ Hlev
  iapply (wait_a1_at m cc _ 4 rfl) $$ [Hc HO Hmw Hp]
  · isplitr; · iexact HIc34
    isplitl [Hc]; · iexact Hc
    isplitl [HO]; · iexact HO
    isplitl [Hmw]; · iexact Hmw
    iexact Hp
  iintro ⟨HO, Hq34, -, Hrb4⟩
  icases Hown with ⟨Ho4, Hown⟩
  have hled22 : ∀ (s : DmaSem sig), lvJ s.val = 0 → ((levAts LL lvv : sProp 𝕄) ⊢ MayWait (cc : Thread nD τ) (.dma s) () (owedL (List.drop 22 (paysL cc)))) :=
    fun s hs => mayWait_local (F := F) cc s hs _ (by decide)
  sl_exec
  clear hled22
  ihave Ho4 := (congr (F := F) (r4R (mqF cc) 4) cc fullShare (dev.sl.Ho4_w1 m f0) (r4 m cc) (fun i hi => glue_own m cc 4 _ (k0_off10_inb cc) (k0_off10_eq cc) _ (k0_off31_inb cc) (k0_off31_eq cc) f0 i hi)) $$ Ho4
  ihave Ho4 := (Entails.of_eq (share_ZYK_eq (F := F) (r4R (mqF cc) 4) cc (r4 m cc))) $$ Ho4
  icases Ho4 with ⟨HoZ4, HoY4, HoK4⟩
  -- own chunk 4 to the z-neighbour
  icases Htk with ⟨Hts, Htr, Htk⟩
  icases HIt with ⟨#HIc48, #HIr, HIt⟩
  icases HRt with ⟨#HRs, #HRr, HRt⟩
  icases HqZ with ⟨⟨%fd, Hd⟩, HqZ⟩
  iapply (send_z_at m cc _ (dev23_eq cc) 4 _ _ (k0_off32_eq cc) fd (owedL (List.drop 23 (paysL cc))) rfl _) $$ [HoZ4 Hd HO Hts Htr]
  · isplitr; · iexact HIc48
    isplitr; · iexact HIr
    isplitl [HoZ4]; · iexact HoZ4
    isplitl [Hd]; · iexact Hd
    isplitl [HO]; · iexact HO
    isplitl [Hts]; · iexact Hts
    isplitr; · iexact HRs
    isplitl [Htr]; · iexact Htr
    iexact HRr
  iintro ⟨Hczs4, HO⟩
  iclear HIr HRs HRr
  sl_exec
  -- own chunk 4 to the y-neighbour
  icases Htk with ⟨Hts, Htr, Htk⟩
  icases HIt with ⟨#HIc64, #HIr, HIt⟩
  icases HRt with ⟨#HRs, #HRr, HRt⟩
  icases HqY with ⟨⟨%fd, Hd⟩, HqY⟩
  iapply (send_y_at m cc _ (dev24_eq cc) 4 _ _ (k0_off32_eq cc) fd (owedL (List.drop 24 (paysL cc))) rfl _) $$ [HoY4 Hd HO Hts Htr]
  · isplitr; · iexact HIc64
    isplitr; · iexact HIr
    isplitl [HoY4]; · iexact HoY4
    isplitl [Hd]; · iexact Hd
    isplitl [HO]; · iexact HO
    isplitl [Hts]; · iexact Hts
    isplitr; · iexact HRs
    isplitl [Htr]; · iexact Htr
    iexact HRr
  iintro ⟨Hcys4, HO⟩
  iclear HIr HRs HRr
  sl_exec
  -- the z-neighbour's chunk 3 has landed
  icases Hcr with ⟨Hc, Hcr⟩
  icases HpR with ⟨Hp, HpR⟩
  icases HIw with ⟨#HIc55, HIw⟩
  ihave Hmw := (mayWait_list (F := F) cc (dsem (⟨55, by decide⟩ : Fin 140)) (List.drop 24 (paysL cc)) (by decide)) $$ Hlev
  iapply (wait_a5_at m cc _ 3 rfl) $$ [Hc HO Hmw Hp]
  · isplitr; · iexact HIc55
    isplitl [Hc]; · iexact Hc
    isplitl [HO]; · iexact HO
    isplitl [Hmw]; · iexact Hmw
    iexact Hp
  iintro ⟨HO, Hq55, -, Hz3⟩
  sl_exec
  -- the y-neighbour's chunk 3 has landed
  icases Hcr with ⟨Hc, Hcr⟩
  icases HpR with ⟨Hp, HpR⟩
  icases HIw with ⟨#HIc71, HIw⟩
  ihave Hmw := (mayWait_list (F := F) cc (dsem (⟨71, by decide⟩ : Fin 140)) (List.drop 24 (paysL cc)) (by decide)) $$ Hlev
  iapply (wait_a7_at m cc _ 3 rfl) $$ [Hc HO Hmw Hp]
  · isplitr; · iexact HIc71
    isplitl [Hc]; · iexact Hc
    isplitl [HO]; · iexact HO
    isplitl [Hmw]; · iexact Hmw
    iexact Hp
  iintro ⟨HO, Hq71, -, Hy3⟩
  -- chunk 3 of the two neighbours' quarters: half its ownership stays for the copy into the result, of the other half one column half travels on
  ihave Hz3 := (Entails.of_eq (share_FG_eq (F := F) (r4R (zqF cc) 3) cc (r4 m cc))) $$ Hz3
  icases Hz3 with ⟨HzF3, HzG3⟩
  ihave HzF3 := (Entails.of_eq (chunk_halves (F := F) cc (zqF cc) 3 shF (r4 m cc))) $$ HzF3
  icases HzF3 with ⟨HzFl3, HzFr3⟩
  ihave Hy3 := (Entails.of_eq (share_FG_eq (F := F) (r4R (yqF cc) 3) cc (r4 m cc))) $$ Hy3
  icases Hy3 with ⟨HyF3, HyG3⟩
  ihave HyF3 := (Entails.of_eq (chunk_halves (F := F) cc (yqF cc) 3 shF (r4 m cc))) $$ HyF3
  icases HyF3 with ⟨HyFl3, HyFr3⟩
  sl_exec
  -- the right half of the z-neighbour's chunk 3 on to the y-neighbour
  icases Htk with ⟨Hts, Htr, Htk⟩
  icases HIt with ⟨#HIc95, #HIr, HIt⟩
  icases HRt with ⟨#HRs, #HRr, HRt⟩
  icases HhYp with ⟨⟨%fd, Hd⟩, HhYp⟩
  iapply (send_yf_at m cc _ (dev25_eq cc) 3 (by decide) _ _ (k0_off33_eq cc) fd (owedL (List.drop 25 (paysL cc))) rfl _) $$ [HzFr3 Hd HO Hts Htr]
  · isplitr; · iexact HIc95
    isplitr; · iexact HIr
    isplitl [HzFr3]; · iexact HzFr3
    isplitl [Hd]; · iexact Hd
    isplitl [HO]; · iexact HO
    isplitl [Hts]; · iexact Hts
    isplitr; · iexact HRs
    isplitl [Htr]; · iexact Htr
    iexact HRr
  iintro ⟨Hcyfs3, HO⟩
  iclear HIr HRs HRr
  sl_exec
  -- the left half of the y-neighbour's chunk 3 on to the z-neighbour
  icases Htk with ⟨Hts, Htr, Htk⟩
  icases HIt with ⟨#HIc79, #HIr, HIt⟩
  icases HRt with ⟨#HRs, #HRr, HRt⟩
  icases HhZp with ⟨⟨%fd, Hd⟩, HhZp⟩
  iapply (send_zf_at m cc _ (dev26_eq cc) 3 (by decide) _ _ (k0_off34_eq cc) fd (owedL (List.drop 26 (paysL cc))) rfl _) $$ [HyFl3 Hd HO Hts Htr]
  · isplitr; · iexact HIc79
    isplitr; · iexact HIr
    isplitl [HyFl3]; · iexact HyFl3
    isplitl [Hd]; · iexact Hd
    isplitl [HO]; · iexact HO
    isplitl [Hts]; · iexact Hts
    isplitr; · iexact HRs
    isplitl [Htr]; · iexact Htr
    iexact HRr
  iintro ⟨Hczfs3, HO⟩
  iclear HIr HRs HRr
  sl_exec
  -- step 5 of the main loop: the x-neighbour's chunk 5 has landed
  icases Hcr with ⟨Hc, Hcr⟩
  icases HpR with ⟨Hp, HpR⟩
  icases HIw with ⟨#HIc35, HIw⟩
  ihave Hmw := (mayWait_list (F := F) cc (dsem (⟨35, by decide⟩ : Fin 140)) (List.drop 26 (paysL cc)) (by decide)) $$ Hlev
  iapply (wait_a1_at m cc _ 5 rfl) $$ [Hc HO Hmw Hp]
  · isplitr; · iexact HIc35
    isplitl [Hc]; · iexact Hc
    isplitl [HO]; · iexact HO
    isplitl [Hmw]; · iexact Hmw
    iexact Hp
  iintro ⟨HO, Hq35, -, Hrb5⟩
  icases Hown with ⟨Ho5, Hown⟩
  have hled26 : ∀ (s : DmaSem sig), lvJ s.val = 0 → ((levAts LL lvv : sProp 𝕄) ⊢ MayWait (cc : Thread nD τ) (.dma s) () (owedL (List.drop 26 (paysL cc)))) :=
    fun s hs => mayWait_local (F := F) cc s hs _ (by decide)
  sl_exec
  clear hled26
  ihave Ho5 := (congr (F := F) (r4R (mqF cc) 5) cc fullShare (dev.sl.Ho5_w1 m f0) (r4 m cc) (fun i hi => glue_own m cc 5 _ (k0_off12_inb cc) (k0_off12_eq cc) _ (k0_off35_inb cc) (k0_off35_eq cc) f0 i hi)) $$ Ho5
  ihave Ho5 := (Entails.of_eq (share_ZYK_eq (F := F) (r4R (mqF cc) 5) cc (r4 m cc))) $$ Ho5
  icases Ho5 with ⟨HoZ5, HoY5, HoK5⟩
  -- own chunk 5 to the z-neighbour
  icases Htk with ⟨Hts, Htr, Htk⟩
  icases HIt with ⟨#HIc49, #HIr, HIt⟩
  icases HRt with ⟨#HRs, #HRr, HRt⟩
  icases HqZ with ⟨⟨%fd, Hd⟩, HqZ⟩
  iapply (send_z_at m cc _ (dev27_eq cc) 5 _ _ (k0_off36_eq cc) fd (owedL (List.drop 27 (paysL cc))) rfl _) $$ [HoZ5 Hd HO Hts Htr]
  · isplitr; · iexact HIc49
    isplitr; · iexact HIr
    isplitl [HoZ5]; · iexact HoZ5
    isplitl [Hd]; · iexact Hd
    isplitl [HO]; · iexact HO
    isplitl [Hts]; · iexact Hts
    isplitr; · iexact HRs
    isplitl [Htr]; · iexact Htr
    iexact HRr
  iintro ⟨Hczs5, HO⟩
  iclear HIr HRs HRr
  sl_exec
  -- own chunk 5 to the y-neighbour
  icases Htk with ⟨Hts, Htr, Htk⟩
  icases HIt with ⟨#HIc65, #HIr, HIt⟩
  icases HRt with ⟨#HRs, #HRr, HRt⟩
  icases HqY with ⟨⟨%fd, Hd⟩, HqY⟩
  iapply (send_y_at m cc _ (dev28_eq cc) 5 _ _ (k0_off36_eq cc) fd (owedL (List.drop 28 (paysL cc))) rfl _) $$ [HoY5 Hd HO Hts Htr]
  · isplitr; · iexact HIc65
    isplitr; · iexact HIr
    isplitl [HoY5]; · iexact HoY5
    isplitl [Hd]; · iexact Hd
    isplitl [HO]; · iexact HO
    isplitl [Hts]; · iexact Hts
    isplitr; · iexact HRs
    isplitl [Htr]; · iexact Htr
    iexact HRr
  iintro ⟨Hcys5, HO⟩
  iclear HIr HRs HRr
  sl_exec
  -- the z-neighbour's chunk 4 has landed
  icases Hcr with ⟨Hc, Hcr⟩
  icases HpR with ⟨Hp, HpR⟩
  icases HIw with ⟨#HIc56, HIw⟩
  ihave Hmw := (mayWait_list (F := F) cc (dsem (⟨56, by decide⟩ : Fin 140)) (List.drop 28 (paysL cc)) (by decide)) $$ Hlev
  iapply (wait_a5_at m cc _ 4 rfl) $$ [Hc HO Hmw Hp]
  · isplitr; · iexact HIc56
    isplitl [Hc]; · iexact Hc
    isplitl [HO]; · iexact HO
    isplitl [Hmw]; · iexact Hmw
    iexact Hp
  iintro ⟨HO, Hq56, -, Hz4⟩
  sl_exec
  -- the y-neighbour's chunk 4 has landed
  icases Hcr with ⟨Hc, Hcr⟩
  icases HpR with ⟨Hp, HpR⟩
  icases HIw with ⟨#HIc72, HIw⟩
  ihave Hmw := (mayWait_list (F := F) cc (dsem (⟨72, by decide⟩ : Fin 140)) (List.drop 28 (paysL cc)) (by decide)) $$ Hlev
  iapply (wait_a7_at m cc _ 4 rfl) $$ [Hc HO Hmw Hp]
  · isplitr; · iexact HIc72
    isplitl [Hc]; · iexact Hc
    isplitl [HO]; · iexact HO
    isplitl [Hmw]; · iexact Hmw
    iexact Hp
  iintro ⟨HO, Hq72, -, Hy4⟩
  -- chunk 4 of the two neighbours' quarters: half its ownership stays for the copy into the result, of the other half one column half travels on
  ihave Hz4 := (Entails.of_eq (share_FG_eq (F := F) (r4R (zqF cc) 4) cc (r4 m cc))) $$ Hz4
  icases Hz4 with ⟨HzF4, HzG4⟩
  ihave HzF4 := (Entails.of_eq (chunk_halves (F := F) cc (zqF cc) 4 shF (r4 m cc))) $$ HzF4
  icases HzF4 with ⟨HzFl4, HzFr4⟩
  ihave Hy4 := (Entails.of_eq (share_FG_eq (F := F) (r4R (yqF cc) 4) cc (r4 m cc))) $$ Hy4
  icases Hy4 with ⟨HyF4, HyG4⟩
  ihave HyF4 := (Entails.of_eq (chunk_halves (F := F) cc (yqF cc) 4 shF (r4 m cc))) $$ HyF4
  icases HyF4 with ⟨HyFl4, HyFr4⟩
  sl_exec
  -- the right half of the z-neighbour's chunk 4 on to the y-neighbour
  icases Htk with ⟨Hts, Htr, Htk⟩
  icases HIt with ⟨#HIc96, #HIr, HIt⟩
  icases HRt with ⟨#HRs, #HRr, HRt⟩
  icases HhYp with ⟨⟨%fd, Hd⟩, HhYp⟩
  iapply (send_yf_at m cc _ (dev29_eq cc) 4 (by decide) _ _ (k0_off37_eq cc) fd (owedL (List.drop 29 (paysL cc))) rfl _) $$ [HzFr4 Hd HO Hts Htr]
  · isplitr; · iexact HIc96
    isplitr; · iexact HIr
    isplitl [HzFr4]; · iexact HzFr4
    isplitl [Hd]; · iexact Hd
    isplitl [HO]; · iexact HO
    isplitl [Hts]; · iexact Hts
    isplitr; · iexact HRs
    isplitl [Htr]; · iexact Htr
    iexact HRr
  iintro ⟨Hcyfs4, HO⟩
  iclear HIr HRs HRr
  sl_exec
  -- the left half of the y-neighbour's chunk 4 on to the z-neighbour
  icases Htk with ⟨Hts, Htr, Htk⟩
  icases HIt with ⟨#HIc80, #HIr, HIt⟩
  icases HRt with ⟨#HRs, #HRr, HRt⟩
  icases HhZp with ⟨⟨%fd, Hd⟩, HhZp⟩
  iapply (send_zf_at m cc _ (dev30_eq cc) 4 (by decide) _ _ (k0_off38_eq cc) fd (owedL (List.drop 30 (paysL cc))) rfl _) $$ [HyFl4 Hd HO Hts Htr]
  · isplitr; · iexact HIc80
    isplitr; · iexact HIr
    isplitl [HyFl4]; · iexact HyFl4
    isplitl [Hd]; · iexact Hd
    isplitl [HO]; · iexact HO
    isplitl [Hts]; · iexact Hts
    isplitr; · iexact HRs
    isplitl [Htr]; · iexact Htr
    iexact HRr
  iintro ⟨Hczfs4, HO⟩
  iclear HIr HRs HRr
  sl_exec
  -- the left half of chunk 3 of the diagonal quarter has landed
  icases Hcr with ⟨Hc, Hcr⟩
  icases HpR with ⟨Hp, HpR⟩
  icases HIw with ⟨#HIc87, HIw⟩
  ihave Hmw := (mayWait_list (F := F) cc (dsem (⟨87, by decide⟩ : Fin 140)) (List.drop 30 (paysL cc)) (by decide)) $$ Hlev
  iapply (wait_a9_at m cc _ 3 rfl (by decide)) $$ [Hc HO Hmw Hp]
  · isplitr; · iexact HIc87
    isplitl [Hc]; · iexact Hc
    isplitl [HO]; · iexact HO
    isplitl [Hmw]; · iexact Hmw
    iexact Hp
  iintro ⟨HO, Hq87, -, Hdl3⟩
  sl_exec
  -- its right half has landed
  icases Hcr with ⟨Hc, Hcr⟩
  icases HpR with ⟨Hp, HpR⟩
  icases HIw with ⟨#HIc103, HIw⟩
  ihave Hmw := (mayWait_list (F := F) cc (dsem (⟨103, by decide⟩ : Fin 140)) (List.drop 30 (paysL cc)) (by decide)) $$ Hlev
  iapply (wait_a11_at m cc _ 3 rfl (by decide)) $$ [Hc HO Hmw Hp]
  · isplitr; · iexact HIc103
    isplitl [Hc]; · iexact Hc
    isplitl [HO]; · iexact HO
    isplitl [Hmw]; · iexact Hmw
    iexact Hp
  iintro ⟨HO, Hq103, -, Hdr3⟩
  ihave Hd3 := (Entails.of_eq (chunk_halves (F := F) cc (dqF cc) 3 fullShare (r4 m cc)).symm) $$ [Hdl3 Hdr3]
  · isplitl [Hdl3]; · iexact Hdl3
    iexact Hdr3
  -- the four copies of chunk 3 into the result
  icases HvO with ⟨Hw3a, Hw3b, Hw3c, Hw3d, HvO⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  -- step 6 of the main loop: the x-neighbour's chunk 6 has landed
  icases Hcr with ⟨Hc, Hcr⟩
  icases HpR with ⟨Hp, HpR⟩
  icases HIw with ⟨#HIc36, HIw⟩
  ihave Hmw := (mayWait_list (F := F) cc (dsem (⟨36, by decide⟩ : Fin 140)) (List.drop 30 (paysL cc)) (by decide)) $$ Hlev
  iapply (wait_a1_at m cc _ 6 rfl) $$ [Hc HO Hmw Hp]
  · isplitr; · iexact HIc36
    isplitl [Hc]; · iexact Hc
    isplitl [HO]; · iexact HO
    isplitl [Hmw]; · iexact Hmw
    iexact Hp
  iintro ⟨HO, Hq36, -, Hrb6⟩
  icases Hown with ⟨Ho6, Hown⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  ihave Ho6 := (congr (F := F) (r4R (mqF cc) 6) cc fullShare (dev.sl.Ho6_w1 m f0) (r4 m cc) (fun i hi => glue_own m cc 6 _ (k0_off14_inb cc) (k0_off14_eq cc) _ (k0_off39_inb cc) (k0_off39_eq cc) f0 i hi)) $$ Ho6
  ihave Ho6 := (Entails.of_eq (share_ZYK_eq (F := F) (r4R (mqF cc) 6) cc (r4 m cc))) $$ Ho6
  icases Ho6 with ⟨HoZ6, HoY6, HoK6⟩
  -- own chunk 6 to the z-neighbour
  icases Htk with ⟨Hts, Htr, Htk⟩
  icases HIt with ⟨#HIc50, #HIr, HIt⟩
  icases HRt with ⟨#HRs, #HRr, HRt⟩
  icases HqZ with ⟨⟨%fd, Hd⟩, HqZ⟩
  iapply (send_z_at m cc _ (dev31_eq cc) 6 _ _ (k0_off40_eq cc) fd (owedL (List.drop 31 (paysL cc))) rfl _) $$ [HoZ6 Hd HO Hts Htr]
  · isplitr; · iexact HIc50
    isplitr; · iexact HIr
    isplitl [HoZ6]; · iexact HoZ6
    isplitl [Hd]; · iexact Hd
    isplitl [HO]; · iexact HO
    isplitl [Hts]; · iexact Hts
    isplitr; · iexact HRs
    isplitl [Htr]; · iexact Htr
    iexact HRr
  iintro ⟨Hczs6, HO⟩
  iclear HIr HRs HRr
  sl_exec
  -- own chunk 6 to the y-neighbour
  icases Htk with ⟨Hts, Htr, Htk⟩
  icases HIt with ⟨#HIc66, #HIr, HIt⟩
  icases HRt with ⟨#HRs, #HRr, HRt⟩
  icases HqY with ⟨⟨%fd, Hd⟩, HqY⟩
  iapply (send_y_at m cc _ (dev32_eq cc) 6 _ _ (k0_off40_eq cc) fd (owedL (List.drop 32 (paysL cc))) rfl _) $$ [HoY6 Hd HO Hts Htr]
  · isplitr; · iexact HIc66
    isplitr; · iexact HIr
    isplitl [HoY6]; · iexact HoY6
    isplitl [Hd]; · iexact Hd
    isplitl [HO]; · iexact HO
    isplitl [Hts]; · iexact Hts
    isplitr; · iexact HRs
    isplitl [Htr]; · iexact Htr
    iexact HRr
  iintro ⟨Hcys6, HO⟩
  iclear HIr HRs HRr
  sl_exec
  -- the z-neighbour's chunk 5 has landed
  icases Hcr with ⟨Hc, Hcr⟩
  icases HpR with ⟨Hp, HpR⟩
  icases HIw with ⟨#HIc57, HIw⟩
  ihave Hmw := (mayWait_list (F := F) cc (dsem (⟨57, by decide⟩ : Fin 140)) (List.drop 32 (paysL cc)) (by decide)) $$ Hlev
  iapply (wait_a5_at m cc _ 5 rfl) $$ [Hc HO Hmw Hp]
  · isplitr; · iexact HIc57
    isplitl [Hc]; · iexact Hc
    isplitl [HO]; · iexact HO
    isplitl [Hmw]; · iexact Hmw
    iexact Hp
  iintro ⟨HO, Hq57, -, Hz5⟩
  sl_exec
  -- the y-neighbour's chunk 5 has landed
  icases Hcr with ⟨Hc, Hcr⟩
  icases HpR with ⟨Hp, HpR⟩
  icases HIw with ⟨#HIc73, HIw⟩
  ihave Hmw := (mayWait_list (F := F) cc (dsem (⟨73, by decide⟩ : Fin 140)) (List.drop 32 (paysL cc)) (by decide)) $$ Hlev
  iapply (wait_a7_at m cc _ 5 rfl) $$ [Hc HO Hmw Hp]
  · isplitr; · iexact HIc73
    isplitl [Hc]; · iexact Hc
    isplitl [HO]; · iexact HO
    isplitl [Hmw]; · iexact Hmw
    iexact Hp
  iintro ⟨HO, Hq73, -, Hy5⟩
  -- chunk 5 of the two neighbours' quarters: half its ownership stays for the copy into the result, of the other half one column half travels on
  ihave Hz5 := (Entails.of_eq (share_FG_eq (F := F) (r4R (zqF cc) 5) cc (r4 m cc))) $$ Hz5
  icases Hz5 with ⟨HzF5, HzG5⟩
  ihave HzF5 := (Entails.of_eq (chunk_halves (F := F) cc (zqF cc) 5 shF (r4 m cc))) $$ HzF5
  icases HzF5 with ⟨HzFl5, HzFr5⟩
  ihave Hy5 := (Entails.of_eq (share_FG_eq (F := F) (r4R (yqF cc) 5) cc (r4 m cc))) $$ Hy5
  icases Hy5 with ⟨HyF5, HyG5⟩
  ihave HyF5 := (Entails.of_eq (chunk_halves (F := F) cc (yqF cc) 5 shF (r4 m cc))) $$ HyF5
  icases HyF5 with ⟨HyFl5, HyFr5⟩
  sl_exec
  -- the right half of the z-neighbour's chunk 5 on to the y-neighbour
  icases Htk with ⟨Hts, Htr, Htk⟩
  icases HIt with ⟨#HIc97, #HIr, HIt⟩
  icases HRt with ⟨#HRs, #HRr, HRt⟩
  icases HhYp with ⟨⟨%fd, Hd⟩, HhYp⟩
  iapply (send_yf_at m cc _ (dev33_eq cc) 5 (by decide) _ _ (k0_off41_eq cc) fd (owedL (List.drop 33 (paysL cc))) rfl _) $$ [HzFr5 Hd HO Hts Htr]
  · isplitr; · iexact HIc97
    isplitr; · iexact HIr
    isplitl [HzFr5]; · iexact HzFr5
    isplitl [Hd]; · iexact Hd
    isplitl [HO]; · iexact HO
    isplitl [Hts]; · iexact Hts
    isplitr; · iexact HRs
    isplitl [Htr]; · iexact Htr
    iexact HRr
  iintro ⟨Hcyfs5, HO⟩
  iclear HIr HRs HRr
  sl_exec
  -- the left half of the y-neighbour's chunk 5 on to the z-neighbour
  icases Htk with ⟨Hts, Htr, Htk⟩
  icases HIt with ⟨#HIc81, #HIr, HIt⟩
  icases HRt with ⟨#HRs, #HRr, HRt⟩
  icases HhZp with ⟨⟨%fd, Hd⟩, HhZp⟩
  iapply (send_zf_at m cc _ (dev34_eq cc) 5 (by decide) _ _ (k0_off42_eq cc) fd (owedL (List.drop 34 (paysL cc))) rfl _) $$ [HyFl5 Hd HO Hts Htr]
  · isplitr; · iexact HIc81
    isplitr; · iexact HIr
    isplitl [HyFl5]; · iexact HyFl5
    isplitl [Hd]; · iexact Hd
    isplitl [HO]; · iexact HO
    isplitl [Hts]; · iexact Hts
    isplitr; · iexact HRs
    isplitl [Htr]; · iexact Htr
    iexact HRr
  iintro ⟨Hczfs5, HO⟩
  iclear HIr HRs HRr
  sl_exec
  -- the left half of chunk 4 of the diagonal quarter has landed
  icases Hcr with ⟨Hc, Hcr⟩
  icases HpR with ⟨Hp, HpR⟩
  icases HIw with ⟨#HIc88, HIw⟩
  ihave Hmw := (mayWait_list (F := F) cc (dsem (⟨88, by decide⟩ : Fin 140)) (List.drop 34 (paysL cc)) (by decide)) $$ Hlev
  iapply (wait_a9_at m cc _ 4 rfl (by decide)) $$ [Hc HO Hmw Hp]
  · isplitr; · iexact HIc88
    isplitl [Hc]; · iexact Hc
    isplitl [HO]; · iexact HO
    isplitl [Hmw]; · iexact Hmw
    iexact Hp
  iintro ⟨HO, Hq88, -, Hdl4⟩
  sl_exec
  -- its right half has landed
  icases Hcr with ⟨Hc, Hcr⟩
  icases HpR with ⟨Hp, HpR⟩
  icases HIw with ⟨#HIc104, HIw⟩
  ihave Hmw := (mayWait_list (F := F) cc (dsem (⟨104, by decide⟩ : Fin 140)) (List.drop 34 (paysL cc)) (by decide)) $$ Hlev
  iapply (wait_a11_at m cc _ 4 rfl (by decide)) $$ [Hc HO Hmw Hp]
  · isplitr; · iexact HIc104
    isplitl [Hc]; · iexact Hc
    isplitl [HO]; · iexact HO
    isplitl [Hmw]; · iexact Hmw
    iexact Hp
  iintro ⟨HO, Hq104, -, Hdr4⟩
  ihave Hd4 := (Entails.of_eq (chunk_halves (F := F) cc (dqF cc) 4 fullShare (r4 m cc)).symm) $$ [Hdl4 Hdr4]
  · isplitl [Hdl4]; · iexact Hdl4
    iexact Hdr4
  -- the four copies of chunk 4 into the result
  icases HvO with ⟨Hw4a, Hw4b, Hw4c, Hw4d, HvO⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  -- step 7 of the main loop: the x-neighbour's chunk 7 has landed
  icases Hcr with ⟨Hc, Hcr⟩
  icases HpR with ⟨Hp, HpR⟩
  icases HIw with ⟨#HIc37, HIw⟩
  ihave Hmw := (mayWait_list (F := F) cc (dsem (⟨37, by decide⟩ : Fin 140)) (List.drop 34 (paysL cc)) (by decide)) $$ Hlev
  iapply (wait_a1_at m cc _ 7 rfl) $$ [Hc HO Hmw Hp]
  · isplitr; · iexact HIc37
    isplitl [Hc]; · iexact Hc
    isplitl [HO]; · iexact HO
    isplitl [Hmw]; · iexact Hmw
    iexact Hp
  iintro ⟨HO, Hq37, -, Hrb7⟩
  icases Hown with ⟨Ho7⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  ihave Ho7 := (congr (F := F) (r4R (mqF cc) 7) cc fullShare (dev.sl.Ho7_w1 m f0) (r4 m cc) (fun i hi => glue_own m cc 7 _ (k0_off16_inb cc) (k0_off16_eq cc) _ (k0_off43_inb cc) (k0_off43_eq cc) f0 i hi)) $$ Ho7
  ihave Ho7 := (Entails.of_eq (share_ZYK_eq (F := F) (r4R (mqF cc) 7) cc (r4 m cc))) $$ Ho7
  icases Ho7 with ⟨HoZ7, HoY7, HoK7⟩
  -- own chunk 7 to the z-neighbour
  icases Htk with ⟨Hts, Htr, Htk⟩
  icases HIt with ⟨#HIc51, #HIr, HIt⟩
  icases HRt with ⟨#HRs, #HRr, HRt⟩
  icases HqZ with ⟨%fd, Hd⟩
  iapply (send_z_at m cc _ (dev35_eq cc) 7 _ _ (k0_off44_eq cc) fd (owedL (List.drop 35 (paysL cc))) rfl _) $$ [HoZ7 Hd HO Hts Htr]
  · isplitr; · iexact HIc51
    isplitr; · iexact HIr
    isplitl [HoZ7]; · iexact HoZ7
    isplitl [Hd]; · iexact Hd
    isplitl [HO]; · iexact HO
    isplitl [Hts]; · iexact Hts
    isplitr; · iexact HRs
    isplitl [Htr]; · iexact Htr
    iexact HRr
  iintro ⟨Hczs7, HO⟩
  iclear HIr HRs HRr
  sl_exec
  -- own chunk 7 to the y-neighbour
  icases Htk with ⟨Hts, Htr, Htk⟩
  icases HIt with ⟨#HIc67, #HIr, HIt⟩
  icases HRt with ⟨#HRs, #HRr, HRt⟩
  icases HqY with ⟨%fd, Hd⟩
  iapply (send_y_at m cc _ (dev36_eq cc) 7 _ _ (k0_off44_eq cc) fd (owedL (List.drop 36 (paysL cc))) rfl _) $$ [HoY7 Hd HO Hts Htr]
  · isplitr; · iexact HIc67
    isplitr; · iexact HIr
    isplitl [HoY7]; · iexact HoY7
    isplitl [Hd]; · iexact Hd
    isplitl [HO]; · iexact HO
    isplitl [Hts]; · iexact Hts
    isplitr; · iexact HRs
    isplitl [Htr]; · iexact Htr
    iexact HRr
  iintro ⟨Hcys7, HO⟩
  iclear HIr HRs HRr
  sl_exec
  -- the z-neighbour's chunk 6 has landed
  icases Hcr with ⟨Hc, Hcr⟩
  icases HpR with ⟨Hp, HpR⟩
  icases HIw with ⟨#HIc58, HIw⟩
  ihave Hmw := (mayWait_list (F := F) cc (dsem (⟨58, by decide⟩ : Fin 140)) (List.drop 36 (paysL cc)) (by decide)) $$ Hlev
  iapply (wait_a5_at m cc _ 6 rfl) $$ [Hc HO Hmw Hp]
  · isplitr; · iexact HIc58
    isplitl [Hc]; · iexact Hc
    isplitl [HO]; · iexact HO
    isplitl [Hmw]; · iexact Hmw
    iexact Hp
  iintro ⟨HO, Hq58, -, Hz6⟩
  sl_exec
  -- the y-neighbour's chunk 6 has landed
  icases Hcr with ⟨Hc, Hcr⟩
  icases HpR with ⟨Hp, HpR⟩
  icases HIw with ⟨#HIc74, HIw⟩
  ihave Hmw := (mayWait_list (F := F) cc (dsem (⟨74, by decide⟩ : Fin 140)) (List.drop 36 (paysL cc)) (by decide)) $$ Hlev
  iapply (wait_a7_at m cc _ 6 rfl) $$ [Hc HO Hmw Hp]
  · isplitr; · iexact HIc74
    isplitl [Hc]; · iexact Hc
    isplitl [HO]; · iexact HO
    isplitl [Hmw]; · iexact Hmw
    iexact Hp
  iintro ⟨HO, Hq74, -, Hy6⟩
  -- chunk 6 of the two neighbours' quarters: half its ownership stays for the copy into the result, of the other half one column half travels on
  ihave Hz6 := (Entails.of_eq (share_FG_eq (F := F) (r4R (zqF cc) 6) cc (r4 m cc))) $$ Hz6
  icases Hz6 with ⟨HzF6, HzG6⟩
  ihave HzF6 := (Entails.of_eq (chunk_halves (F := F) cc (zqF cc) 6 shF (r4 m cc))) $$ HzF6
  icases HzF6 with ⟨HzFl6, HzFr6⟩
  ihave Hy6 := (Entails.of_eq (share_FG_eq (F := F) (r4R (yqF cc) 6) cc (r4 m cc))) $$ Hy6
  icases Hy6 with ⟨HyF6, HyG6⟩
  ihave HyF6 := (Entails.of_eq (chunk_halves (F := F) cc (yqF cc) 6 shF (r4 m cc))) $$ HyF6
  icases HyF6 with ⟨HyFl6, HyFr6⟩
  sl_exec
  -- the right half of the z-neighbour's chunk 6 on to the y-neighbour
  icases Htk with ⟨Hts, Htr, Htk⟩
  icases HIt with ⟨#HIc98, #HIr, HIt⟩
  icases HRt with ⟨#HRs, #HRr, HRt⟩
  icases HhYp with ⟨⟨%fd, Hd⟩, HhYp⟩
  iapply (send_yf_at m cc _ (dev37_eq cc) 6 (by decide) _ _ (k0_off45_eq cc) fd (owedL (List.drop 37 (paysL cc))) rfl _) $$ [HzFr6 Hd HO Hts Htr]
  · isplitr; · iexact HIc98
    isplitr; · iexact HIr
    isplitl [HzFr6]; · iexact HzFr6
    isplitl [Hd]; · iexact Hd
    isplitl [HO]; · iexact HO
    isplitl [Hts]; · iexact Hts
    isplitr; · iexact HRs
    isplitl [Htr]; · iexact Htr
    iexact HRr
  iintro ⟨Hcyfs6, HO⟩
  iclear HIr HRs HRr
  sl_exec
  -- the left half of the y-neighbour's chunk 6 on to the z-neighbour
  icases Htk with ⟨Hts, Htr, Htk⟩
  icases HIt with ⟨#HIc82, #HIr, HIt⟩
  icases HRt with ⟨#HRs, #HRr, HRt⟩
  icases HhZp with ⟨⟨%fd, Hd⟩, HhZp⟩
  iapply (send_zf_at m cc _ (dev38_eq cc) 6 (by decide) _ _ (k0_off46_eq cc) fd (owedL (List.drop 38 (paysL cc))) rfl _) $$ [HyFl6 Hd HO Hts Htr]
  · isplitr; · iexact HIc82
    isplitr; · iexact HIr
    isplitl [HyFl6]; · iexact HyFl6
    isplitl [Hd]; · iexact Hd
    isplitl [HO]; · iexact HO
    isplitl [Hts]; · iexact Hts
    isplitr; · iexact HRs
    isplitl [Htr]; · iexact Htr
    iexact HRr
  iintro ⟨Hczfs6, HO⟩
  iclear HIr HRs HRr
  sl_exec
  -- the left half of chunk 5 of the diagonal quarter has landed
  icases Hcr with ⟨Hc, Hcr⟩
  icases HpR with ⟨Hp, HpR⟩
  icases HIw with ⟨#HIc89, HIw⟩
  ihave Hmw := (mayWait_list (F := F) cc (dsem (⟨89, by decide⟩ : Fin 140)) (List.drop 38 (paysL cc)) (by decide)) $$ Hlev
  iapply (wait_a9_at m cc _ 5 rfl (by decide)) $$ [Hc HO Hmw Hp]
  · isplitr; · iexact HIc89
    isplitl [Hc]; · iexact Hc
    isplitl [HO]; · iexact HO
    isplitl [Hmw]; · iexact Hmw
    iexact Hp
  iintro ⟨HO, Hq89, -, Hdl5⟩
  sl_exec
  -- its right half has landed
  icases Hcr with ⟨Hc, Hcr⟩
  icases HpR with ⟨Hp, HpR⟩
  icases HIw with ⟨#HIc105, HIw⟩
  ihave Hmw := (mayWait_list (F := F) cc (dsem (⟨105, by decide⟩ : Fin 140)) (List.drop 38 (paysL cc)) (by decide)) $$ Hlev
  iapply (wait_a11_at m cc _ 5 rfl (by decide)) $$ [Hc HO Hmw Hp]
  · isplitr; · iexact HIc105
    isplitl [Hc]; · iexact Hc
    isplitl [HO]; · iexact HO
    isplitl [Hmw]; · iexact Hmw
    iexact Hp
  iintro ⟨HO, Hq105, -, Hdr5⟩
  ihave Hd5 := (Entails.of_eq (chunk_halves (F := F) cc (dqF cc) 5 fullShare (r4 m cc)).symm) $$ [Hdl5 Hdr5]
  · isplitl [Hdl5]; · iexact Hdl5
    iexact Hdr5
  -- the four copies of chunk 5 into the result
  icases HvO with ⟨Hw5a, Hw5b, Hw5c, Hw5d, HvO⟩
  have hled38 : ∀ (s : DmaSem sig), lvJ s.val = 0 → ((levAts LL lvv : sProp 𝕄) ⊢ MayWait (cc : Thread nD τ) (.dma s) () (owedL (List.drop 38 (paysL cc)))) :=
    fun s hs => mayWait_local (F := F) cc s hs _ (by decide)
  sl_exec
  clear hled38
  -- after the loop: the z-neighbour's last chunk has landed
  icases Hcr with ⟨Hc, Hcr⟩
  icases HpR with ⟨Hp, HpR⟩
  icases HIw with ⟨#HIc59, HIw⟩
  ihave Hmw := (mayWait_list (F := F) cc (dsem (⟨59, by decide⟩ : Fin 140)) (List.drop 38 (paysL cc)) (by decide)) $$ Hlev
  iapply (wait_a5_at m cc _ 7 rfl) $$ [Hc HO Hmw Hp]
  · isplitr; · iexact HIc59
    isplitl [Hc]; · iexact Hc
    isplitl [HO]; · iexact HO
    isplitl [Hmw]; · iexact Hmw
    iexact Hp
  iintro ⟨HO, Hq59, -, Hz7⟩
  sl_exec
  -- the y-neighbour's last chunk has landed
  icases Hcr with ⟨Hc, Hcr⟩
  icases HpR with ⟨Hp, HpR⟩
  icases HIw with ⟨#HIc75, HIw⟩
  ihave Hmw := (mayWait_list (F := F) cc (dsem (⟨75, by decide⟩ : Fin 140)) (List.drop 38 (paysL cc)) (by decide)) $$ Hlev
  iapply (wait_a7_at m cc _ 7 rfl) $$ [Hc HO Hmw Hp]
  · isplitr; · iexact HIc75
    isplitl [Hc]; · iexact Hc
    isplitl [HO]; · iexact HO
    isplitl [Hmw]; · iexact Hmw
    iexact Hp
  iintro ⟨HO, Hq75, -, Hy7⟩
  -- chunk 7 of the two neighbours' quarters: half its ownership stays for the copy into the result, of the other half one column half travels on
  ihave Hz7 := (Entails.of_eq (share_FG_eq (F := F) (r4R (zqF cc) 7) cc (r4 m cc))) $$ Hz7
  icases Hz7 with ⟨HzF7, HzG7⟩
  ihave HzF7 := (Entails.of_eq (chunk_halves (F := F) cc (zqF cc) 7 shF (r4 m cc))) $$ HzF7
  icases HzF7 with ⟨HzFl7, HzFr7⟩
  ihave Hy7 := (Entails.of_eq (share_FG_eq (F := F) (r4R (yqF cc) 7) cc (r4 m cc))) $$ Hy7
  icases Hy7 with ⟨HyF7, HyG7⟩
  ihave HyF7 := (Entails.of_eq (chunk_halves (F := F) cc (yqF cc) 7 shF (r4 m cc))) $$ HyF7
  icases HyF7 with ⟨HyFl7, HyFr7⟩
  sl_exec
  -- the right half of the z-neighbour's last chunk on to the y-neighbour
  icases Htk with ⟨Hts, Htr, Htk⟩
  icases HIt with ⟨#HIc99, #HIr, HIt⟩
  icases HRt with ⟨#HRs, #HRr, HRt⟩
  icases HhYp with ⟨%fd, Hd⟩
  iapply (send_yf_at m cc _ (dev39_eq cc) 7 (by decide) _ _ (k0_off47_eq cc) fd (owedL (List.drop 39 (paysL cc))) rfl _) $$ [HzFr7 Hd HO Hts Htr]
  · isplitr; · iexact HIc99
    isplitr; · iexact HIr
    isplitl [HzFr7]; · iexact HzFr7
    isplitl [Hd]; · iexact Hd
    isplitl [HO]; · iexact HO
    isplitl [Hts]; · iexact Hts
    isplitr; · iexact HRs
    isplitl [Htr]; · iexact Htr
    iexact HRr
  iintro ⟨Hcyfs7, HO⟩
  iclear HIr HRs HRr
  sl_exec
  -- the left half of the y-neighbour's last chunk on to the z-neighbour
  icases Htk with ⟨Hts, Htr⟩
  icases HIt with ⟨#HIc83, #HIr⟩
  icases HRt with ⟨#HRs, #HRr⟩
  icases HhZp with ⟨%fd, Hd⟩
  iapply (send_zf_at m cc _ (dev40_eq cc) 7 (by decide) _ _ (k0_off48_eq cc) fd (owedL (List.drop 40 (paysL cc))) rfl _) $$ [HyFl7 Hd HO Hts Htr]
  · isplitr; · iexact HIc83
    isplitr; · iexact HIr
    isplitl [HyFl7]; · iexact HyFl7
    isplitl [Hd]; · iexact Hd
    isplitl [HO]; · iexact HO
    isplitl [Hts]; · iexact Hts
    isplitr; · iexact HRs
    isplitl [Htr]; · iexact Htr
    iexact HRr
  iintro ⟨Hczfs7, HO⟩
  iclear HIr HRs HRr
  sl_exec
  -- chunk 0 of the diagonal quarter: the x-neighbour's chunk has landed
  icases Hcr with ⟨Hc, Hcr⟩
  icases HpR with ⟨Hp, HpR⟩
  icases HIw with ⟨#HIc41, HIw⟩
  ihave Hmw := (mayWait_list (F := F) cc (dsem (⟨41, by decide⟩ : Fin 140)) (List.drop 40 (paysL cc)) (by decide)) $$ Hlev
  iapply (wait_a3_at m cc _ 0 rfl) $$ [Hc HO Hmw Hp]
  · isplitr; · iexact HIc41
    isplitl [Hc]; · iexact Hc
    isplitl [HO]; · iexact HO
    isplitl [Hmw]; · iexact Hmw
    iexact Hp
  iintro ⟨HO, Hq41, -, Hrb20⟩
  icases Hdg with ⟨Hdq0, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq0 := (congr (F := F) (r4R (dqF cc) 0) cc fullShare (dev.sl.Hdq0_w1 m f0) (r4 m cc) (fun i hi => glue_dgn m cc 0 0 rfl _ (k0_off18_inb cc) (k0_off18_eq cc) _ (k0_off49_inb cc) (k0_off49_eq cc) f0 i hi)) $$ Hdq0
  -- the four copies of chunk 0 into the result
  icases HvO with ⟨Hw0a, Hw0b, Hw0c, Hw0d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 1 of the diagonal quarter: the x-neighbour's chunk has landed
  icases Hcr with ⟨Hc, Hcr⟩
  icases HpR with ⟨Hp, HpR⟩
  icases HIw with ⟨#HIc42, HIw⟩
  ihave Hmw := (mayWait_list (F := F) cc (dsem (⟨42, by decide⟩ : Fin 140)) (List.drop 40 (paysL cc)) (by decide)) $$ Hlev
  iapply (wait_a3_at m cc _ 1 rfl) $$ [Hc HO Hmw Hp]
  · isplitr; · iexact HIc42
    isplitl [Hc]; · iexact Hc
    isplitl [HO]; · iexact HO
    isplitl [Hmw]; · iexact Hmw
    iexact Hp
  iintro ⟨HO, Hq42, -, Hrb21⟩
  icases Hdg with ⟨Hdq1, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq1 := (congr (F := F) (r4R (dqF cc) 1) cc fullShare (dev.sl.Hdq1_w1 m f0) (r4 m cc) (fun i hi => glue_dgn m cc 1 1 rfl _ (k0_off20_inb cc) (k0_off20_eq cc) _ (k0_off50_inb cc) (k0_off50_eq cc) f0 i hi)) $$ Hdq1
  -- the four copies of chunk 1 into the result
  icases HvO with ⟨Hw1a, Hw1b, Hw1c, Hw1d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 2 of the diagonal quarter: the x-neighbour's chunk has landed
  icases Hcr with ⟨Hc, Hcr⟩
  icases HpR with ⟨Hp, HpR⟩
  icases HIw with ⟨#HIc43, HIw⟩
  ihave Hmw := (mayWait_list (F := F) cc (dsem (⟨43, by decide⟩ : Fin 140)) (List.drop 40 (paysL cc)) (by decide)) $$ Hlev
  iapply (wait_a3_at m cc _ 2 rfl) $$ [Hc HO Hmw Hp]
  · isplitr; · iexact HIc43
    isplitl [Hc]; · iexact Hc
    isplitl [HO]; · iexact HO
    isplitl [Hmw]; · iexact Hmw
    iexact Hp
  iintro ⟨HO, Hq43, -, Hrb22⟩
  icases Hdg with ⟨Hdq2⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq2 := (congr (F := F) (r4R (dqF cc) 2) cc fullShare (dev.sl.Hdq2_w1 m f0) (r4 m cc) (fun i hi => glue_dgn m cc 2 2 rfl _ (k0_off22_inb cc) (k0_off22_eq cc) _ (k0_off51_inb cc) (k0_off51_eq cc) f0 i hi)) $$ Hdq2
  -- the four copies of chunk 2 into the result
  icases HvO with ⟨Hw2a, Hw2b, Hw2c, Hw2d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 6 of the diagonal quarter has landed
  icases Hcr with ⟨Hc, Hcr⟩
  icases HpR with ⟨Hp, HpR⟩
  icases HIw with ⟨#HIc90, HIw⟩
  ihave Hmw := (mayWait_list (F := F) cc (dsem (⟨90, by decide⟩ : Fin 140)) (List.drop 40 (paysL cc)) (by decide)) $$ Hlev
  iapply (wait_a9_at m cc _ 6 rfl (by decide)) $$ [Hc HO Hmw Hp]
  · isplitr; · iexact HIc90
    isplitl [Hc]; · iexact Hc
    isplitl [HO]; · iexact HO
    isplitl [Hmw]; · iexact Hmw
    iexact Hp
  iintro ⟨HO, Hq90, -, Hdl6⟩
  sl_exec
  -- its right half has landed
  icases Hcr with ⟨Hc, Hcr⟩
  icases HpR with ⟨Hp, HpR⟩
  icases HIw with ⟨#HIc106, HIw⟩
  ihave Hmw := (mayWait_list (F := F) cc (dsem (⟨106, by decide⟩ : Fin 140)) (List.drop 40 (paysL cc)) (by decide)) $$ Hlev
  iapply (wait_a11_at m cc _ 6 rfl (by decide)) $$ [Hc HO Hmw Hp]
  · isplitr; · iexact HIc106
    isplitl [Hc]; · iexact Hc
    isplitl [HO]; · iexact HO
    isplitl [Hmw]; · iexact Hmw
    iexact Hp
  iintro ⟨HO, Hq106, -, Hdr6⟩
  ihave Hd6 := (Entails.of_eq (chunk_halves (F := F) cc (dqF cc) 6 fullShare (r4 m cc)).symm) $$ [Hdl6 Hdr6]
  · isplitl [Hdl6]; · iexact Hdl6
    iexact Hdr6
  -- the four copies of chunk 6 into the result
  icases HvO with ⟨Hw6a, Hw6b, Hw6c, Hw6d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 7 of the diagonal quarter has landed
  icases Hcr with ⟨Hc, Hcr⟩
  icases HpR with ⟨Hp, HpR⟩
  icases HIw with ⟨#HIc91, HIw⟩
  ihave Hcr := ((sep_emp (PROP := sProp 𝕄)).2) $$ Hcr
  ihave Hmw := (mayWait_list (F := F) cc (dsem (⟨91, by decide⟩ : Fin 140)) (List.drop 40 (paysL cc)) (by decide)) $$ Hlev
  iapply (wait_a9_at m cc _ 7 rfl (by decide)) $$ [Hc HO Hmw Hp]
  · isplitr; · iexact HIc91
    isplitl [Hc]; · iexact Hc
    isplitl [HO]; · iexact HO
    isplitl [Hmw]; · iexact Hmw
    iexact Hp
  iintro ⟨HO, Hq91, -, Hdl7⟩
  sl_exec
  -- its right half has landed
  icases HIw with #HIc107
  icases Hcr with ⟨Hcr, -⟩
  ihave Hmw := (mayWait_list (F := F) cc (dsem (⟨107, by decide⟩ : Fin 140)) (List.drop 40 (paysL cc)) (by decide)) $$ Hlev
  iapply (wait_a11_at m cc _ 7 rfl (by decide)) $$ [Hcr HO Hmw HpR]
  · isplitr; · iexact HIc107
    isplitl [Hcr]; · iexact Hcr
    isplitl [HO]; · iexact HO
    isplitl [Hmw]; · iexact Hmw
    iexact HpR
  iintro ⟨HO, Hq107, -, Hdr7⟩
  ihave Hd7 := (Entails.of_eq (chunk_halves (F := F) cc (dqF cc) 7 fullShare (r4 m cc)).symm) $$ [Hdl7 Hdr7]
  · isplitl [Hdl7]; · iexact Hdl7
    iexact Hdr7
  -- the four copies of chunk 7 into the result
  icases HvO with ⟨Hw7a, Hw7b, Hw7c, Hw7d⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- nothing is owed any more: the level fact for the remaining local waits, once
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  -- the departure of chunk 0 across x
  icases HpS with ⟨Hp, HpS⟩
  ihave Hmw := (mayWait_list (F := F) cc (dsem (⟨22, by decide⟩ : Fin 140)) (List.drop 40 (paysL cc)) (by decide)) $$ Hlev
  iapply (wait_a0_at m cc _ 0 rfl) $$ [Hcxs0 HO Hmw Hp]
  · isplitr; · iexact HIc22
    isplitl [Hcxs0]; · iexact Hcxs0
    isplitl [HO]; · iexact HO
    isplitl [Hmw]; · iexact Hmw
    iexact Hp
  iintro ⟨HO, Hq22, -, HBs0⟩
  sl_exec
  -- of own chunk 0 to z
  icases HpS with ⟨Hp, HpS⟩
  ihave Hmw := (mayWait_list (F := F) cc (dsem (⟨44, by decide⟩ : Fin 140)) (List.drop 40 (paysL cc)) (by decide)) $$ Hlev
  iapply (wait_a4_at m cc _ 0 rfl) $$ [Hczs0 HO Hmw Hp]
  · isplitr; · iexact HIc44
    isplitl [Hczs0]; · iexact Hczs0
    isplitl [HO]; · iexact HO
    isplitl [Hmw]; · iexact Hmw
    iexact Hp
  iintro ⟨HO, Hq44, -, HoZb0⟩
  sl_exec
  -- of own chunk 0 to y
  icases HpS with ⟨Hp, HpS⟩
  ihave Hmw := (mayWait_list (F := F) cc (dsem (⟨60, by decide⟩ : Fin 140)) (List.drop 40 (paysL cc)) (by decide)) $$ Hlev
  iapply (wait_a6_at m cc _ 0 rfl) $$ [Hcys0 HO Hmw Hp]
  · isplitr; · iexact HIc60
    isplitl [Hcys0]; · iexact Hcys0
    isplitl [HO]; · iexact HO
    isplitl [Hmw]; · iexact Hmw
    iexact Hp
  iintro ⟨HO, Hq60, -, HoYb0⟩
  sl_exec
  -- the departure of chunk 1 across x
  icases HpS with ⟨Hp, HpS⟩
  ihave Hmw := (mayWait_list (F := F) cc (dsem (⟨23, by decide⟩ : Fin 140)) (List.drop 40 (paysL cc)) (by decide)) $$ Hlev
  iapply (wait_a0_at m cc _ 1 rfl) $$ [Hcxs1 HO Hmw Hp]
  · isplitr; · iexact HIc23
    isplitl [Hcxs1]; · iexact Hcxs1
    isplitl [HO]; · iexact HO
    isplitl [Hmw]; · iexact Hmw
    iexact Hp
  iintro ⟨HO, Hq23, -, HBs1⟩
  sl_exec
  -- of own chunk 1 to z
  icases HpS with ⟨Hp, HpS⟩
  ihave Hmw := (mayWait_list (F := F) cc (dsem (⟨45, by decide⟩ : Fin 140)) (List.drop 40 (paysL cc)) (by decide)) $$ Hlev
  iapply (wait_a4_at m cc _ 1 rfl) $$ [Hczs1 HO Hmw Hp]
  · isplitr; · iexact HIc45
    isplitl [Hczs1]; · iexact Hczs1
    isplitl [HO]; · iexact HO
    isplitl [Hmw]; · iexact Hmw
    iexact Hp
  iintro ⟨HO, Hq45, -, HoZb1⟩
  sl_exec
  -- of own chunk 1 to y
  icases HpS with ⟨Hp, HpS⟩
  ihave Hmw := (mayWait_list (F := F) cc (dsem (⟨61, by decide⟩ : Fin 140)) (List.drop 40 (paysL cc)) (by decide)) $$ Hlev
  iapply (wait_a6_at m cc _ 1 rfl) $$ [Hcys1 HO Hmw Hp]
  · isplitr; · iexact HIc61
    isplitl [Hcys1]; · iexact Hcys1
    isplitl [HO]; · iexact HO
    isplitl [Hmw]; · iexact Hmw
    iexact Hp
  iintro ⟨HO, Hq61, -, HoYb1⟩
  sl_exec
  -- the departure of chunk 2 across x
  icases HpS with ⟨Hp, HpS⟩
  ihave Hmw := (mayWait_list (F := F) cc (dsem (⟨24, by decide⟩ : Fin 140)) (List.drop 40 (paysL cc)) (by decide)) $$ Hlev
  iapply (wait_a0_at m cc _ 2 rfl) $$ [Hcxs2 HO Hmw Hp]
  · isplitr; · iexact HIc24
    isplitl [Hcxs2]; · iexact Hcxs2
    isplitl [HO]; · iexact HO
    isplitl [Hmw]; · iexact Hmw
    iexact Hp
  iintro ⟨HO, Hq24, -, HBs2⟩
  sl_exec
  -- of own chunk 2 to z
  icases HpS with ⟨Hp, HpS⟩
  ihave Hmw := (mayWait_list (F := F) cc (dsem (⟨46, by decide⟩ : Fin 140)) (List.drop 40 (paysL cc)) (by decide)) $$ Hlev
  iapply (wait_a4_at m cc _ 2 rfl) $$ [Hczs2 HO Hmw Hp]
  · isplitr; · iexact HIc46
    isplitl [Hczs2]; · iexact Hczs2
    isplitl [HO]; · iexact HO
    isplitl [Hmw]; · iexact Hmw
    iexact Hp
  iintro ⟨HO, Hq46, -, HoZb2⟩
  sl_exec
  -- of own chunk 2 to y
  icases HpS with ⟨Hp, HpS⟩
  ihave Hmw := (mayWait_list (F := F) cc (dsem (⟨62, by decide⟩ : Fin 140)) (List.drop 40 (paysL cc)) (by decide)) $$ Hlev
  iapply (wait_a6_at m cc _ 2 rfl) $$ [Hcys2 HO Hmw Hp]
  · isplitr; · iexact HIc62
    isplitl [Hcys2]; · iexact Hcys2
    isplitl [HO]; · iexact HO
    isplitl [Hmw]; · iexact Hmw
    iexact Hp
  iintro ⟨HO, Hq62, -, HoYb2⟩
  sl_exec
  -- the departure of chunk 3 across x
  icases HpS with ⟨Hp, HpS⟩
  ihave Hmw := (mayWait_list (F := F) cc (dsem (⟨25, by decide⟩ : Fin 140)) (List.drop 40 (paysL cc)) (by decide)) $$ Hlev
  iapply (wait_a0_at m cc _ 3 rfl) $$ [Hcxs3 HO Hmw Hp]
  · isplitr; · iexact HIc25
    isplitl [Hcxs3]; · iexact Hcxs3
    isplitl [HO]; · iexact HO
    isplitl [Hmw]; · iexact Hmw
    iexact Hp
  iintro ⟨HO, Hq25, -, HBs3⟩
  sl_exec
  -- of own chunk 3 to z
  icases HpS with ⟨Hp, HpS⟩
  ihave Hmw := (mayWait_list (F := F) cc (dsem (⟨47, by decide⟩ : Fin 140)) (List.drop 40 (paysL cc)) (by decide)) $$ Hlev
  iapply (wait_a4_at m cc _ 3 rfl) $$ [Hczs3 HO Hmw Hp]
  · isplitr; · iexact HIc47
    isplitl [Hczs3]; · iexact Hczs3
    isplitl [HO]; · iexact HO
    isplitl [Hmw]; · iexact Hmw
    iexact Hp
  iintro ⟨HO, Hq47, -, HoZb3⟩
  sl_exec
  -- of own chunk 3 to y
  icases HpS with ⟨Hp, HpS⟩
  ihave Hmw := (mayWait_list (F := F) cc (dsem (⟨63, by decide⟩ : Fin 140)) (List.drop 40 (paysL cc)) (by decide)) $$ Hlev
  iapply (wait_a6_at m cc _ 3 rfl) $$ [Hcys3 HO Hmw Hp]
  · isplitr; · iexact HIc63
    isplitl [Hcys3]; · iexact Hcys3
    isplitl [HO]; · iexact HO
    isplitl [Hmw]; · iexact Hmw
    iexact Hp
  iintro ⟨HO, Hq63, -, HoYb3⟩
  sl_exec
  -- of the forwarded half to z
  icases HpS with ⟨Hp, HpS⟩
  ihave Hmw := (mayWait_list (F := F) cc (dsem (⟨79, by decide⟩ : Fin 140)) (List.drop 40 (paysL cc)) (by decide)) $$ Hlev
  iapply (wait_a8_at m cc _ 3 rfl (by decide)) $$ [Hczfs3 HO Hmw Hp]
  · isplitr; · iexact HIc79
    isplitl [Hczfs3]; · iexact Hczfs3
    isplitl [HO]; · iexact HO
    isplitl [Hmw]; · iexact Hmw
    iexact Hp
  iintro ⟨HO, Hq79, -, HyFlb3⟩
  sl_exec
  -- of the forwarded half to y
  icases HpS with ⟨Hp, HpS⟩
  ihave Hmw := (mayWait_list (F := F) cc (dsem (⟨95, by decide⟩ : Fin 140)) (List.drop 40 (paysL cc)) (by decide)) $$ Hlev
  iapply (wait_a10_at m cc _ 3 rfl (by decide)) $$ [Hcyfs3 HO Hmw Hp]
  · isplitr; · iexact HIc95
    isplitl [Hcyfs3]; · iexact Hcyfs3
    isplitl [HO]; · iexact HO
    isplitl [Hmw]; · iexact Hmw
    iexact Hp
  iintro ⟨HO, Hq95, -, HzFrb3⟩
  sl_exec
  -- the departure of chunk 4 across x
  icases HpS with ⟨Hp, HpS⟩
  ihave Hmw := (mayWait_list (F := F) cc (dsem (⟨26, by decide⟩ : Fin 140)) (List.drop 40 (paysL cc)) (by decide)) $$ Hlev
  iapply (wait_a0_at m cc _ 4 rfl) $$ [Hcxs4 HO Hmw Hp]
  · isplitr; · iexact HIc26
    isplitl [Hcxs4]; · iexact Hcxs4
    isplitl [HO]; · iexact HO
    isplitl [Hmw]; · iexact Hmw
    iexact Hp
  iintro ⟨HO, Hq26, -, HBs4⟩
  sl_exec
  -- of own chunk 4 to z
  icases HpS with ⟨Hp, HpS⟩
  ihave Hmw := (mayWait_list (F := F) cc (dsem (⟨48, by decide⟩ : Fin 140)) (List.drop 40 (paysL cc)) (by decide)) $$ Hlev
  iapply (wait_a4_at m cc _ 4 rfl) $$ [Hczs4 HO Hmw Hp]
  · isplitr; · iexact HIc48
    isplitl [Hczs4]; · iexact Hczs4
    isplitl [HO]; · iexact HO
    isplitl [Hmw]; · iexact Hmw
    iexact Hp
  iintro ⟨HO, Hq48, -, HoZb4⟩
  sl_exec
  -- of own chunk 4 to y
  icases HpS with ⟨Hp, HpS⟩
  ihave Hmw := (mayWait_list (F := F) cc (dsem (⟨64, by decide⟩ : Fin 140)) (List.drop 40 (paysL cc)) (by decide)) $$ Hlev
  iapply (wait_a6_at m cc _ 4 rfl) $$ [Hcys4 HO Hmw Hp]
  · isplitr; · iexact HIc64
    isplitl [Hcys4]; · iexact Hcys4
    isplitl [HO]; · iexact HO
    isplitl [Hmw]; · iexact Hmw
    iexact Hp
  iintro ⟨HO, Hq64, -, HoYb4⟩
  sl_exec
  -- of the forwarded half to z
  icases HpS with ⟨Hp, HpS⟩
  ihave Hmw := (mayWait_list (F := F) cc (dsem (⟨80, by decide⟩ : Fin 140)) (List.drop 40 (paysL cc)) (by decide)) $$ Hlev
  iapply (wait_a8_at m cc _ 4 rfl (by decide)) $$ [Hczfs4 HO Hmw Hp]
  · isplitr; · iexact HIc80
    isplitl [Hczfs4]; · iexact Hczfs4
    isplitl [HO]; · iexact HO
    isplitl [Hmw]; · iexact Hmw
    iexact Hp
  iintro ⟨HO, Hq80, -, HyFlb4⟩
  sl_exec
  -- of the forwarded half to y
  icases HpS with ⟨Hp, HpS⟩
  ihave Hmw := (mayWait_list (F := F) cc (dsem (⟨96, by decide⟩ : Fin 140)) (List.drop 40 (paysL cc)) (by decide)) $$ Hlev
  iapply (wait_a10_at m cc _ 4 rfl (by decide)) $$ [Hcyfs4 HO Hmw Hp]
  · isplitr; · iexact HIc96
    isplitl [Hcyfs4]; · iexact Hcyfs4
    isplitl [HO]; · iexact HO
    isplitl [Hmw]; · iexact Hmw
    iexact Hp
  iintro ⟨HO, Hq96, -, HzFrb4⟩
  sl_exec
  -- the departure of chunk 5 across x
  icases HpS with ⟨Hp, HpS⟩
  ihave Hmw := (mayWait_list (F := F) cc (dsem (⟨27, by decide⟩ : Fin 140)) (List.drop 40 (paysL cc)) (by decide)) $$ Hlev
  iapply (wait_a0_at m cc _ 5 rfl) $$ [Hcxs5 HO Hmw Hp]
  · isplitr; · iexact HIc27
    isplitl [Hcxs5]; · iexact Hcxs5
    isplitl [HO]; · iexact HO
    isplitl [Hmw]; · iexact Hmw
    iexact Hp
  iintro ⟨HO, Hq27, -, HBs5⟩
  sl_exec
  -- of own chunk 5 to z
  icases HpS with ⟨Hp, HpS⟩
  ihave Hmw := (mayWait_list (F := F) cc (dsem (⟨49, by decide⟩ : Fin 140)) (List.drop 40 (paysL cc)) (by decide)) $$ Hlev
  iapply (wait_a4_at m cc _ 5 rfl) $$ [Hczs5 HO Hmw Hp]
  · isplitr; · iexact HIc49
    isplitl [Hczs5]; · iexact Hczs5
    isplitl [HO]; · iexact HO
    isplitl [Hmw]; · iexact Hmw
    iexact Hp
  iintro ⟨HO, Hq49, -, HoZb5⟩
  sl_exec
  -- of own chunk 5 to y
  icases HpS with ⟨Hp, HpS⟩
  ihave Hmw := (mayWait_list (F := F) cc (dsem (⟨65, by decide⟩ : Fin 140)) (List.drop 40 (paysL cc)) (by decide)) $$ Hlev
  iapply (wait_a6_at m cc _ 5 rfl) $$ [Hcys5 HO Hmw Hp]
  · isplitr; · iexact HIc65
    isplitl [Hcys5]; · iexact Hcys5
    isplitl [HO]; · iexact HO
    isplitl [Hmw]; · iexact Hmw
    iexact Hp
  iintro ⟨HO, Hq65, -, HoYb5⟩
  sl_exec
  -- of the forwarded half to z
  icases HpS with ⟨Hp, HpS⟩
  ihave Hmw := (mayWait_list (F := F) cc (dsem (⟨81, by decide⟩ : Fin 140)) (List.drop 40 (paysL cc)) (by decide)) $$ Hlev
  iapply (wait_a8_at m cc _ 5 rfl (by decide)) $$ [Hczfs5 HO Hmw Hp]
  · isplitr; · iexact HIc81
    isplitl [Hczfs5]; · iexact Hczfs5
    isplitl [HO]; · iexact HO
    isplitl [Hmw]; · iexact Hmw
    iexact Hp
  iintro ⟨HO, Hq81, -, HyFlb5⟩
  sl_exec
  -- of the forwarded half to y
  icases HpS with ⟨Hp, HpS⟩
  ihave Hmw := (mayWait_list (F := F) cc (dsem (⟨97, by decide⟩ : Fin 140)) (List.drop 40 (paysL cc)) (by decide)) $$ Hlev
  iapply (wait_a10_at m cc _ 5 rfl (by decide)) $$ [Hcyfs5 HO Hmw Hp]
  · isplitr; · iexact HIc97
    isplitl [Hcyfs5]; · iexact Hcyfs5
    isplitl [HO]; · iexact HO
    isplitl [Hmw]; · iexact Hmw
    iexact Hp
  iintro ⟨HO, Hq97, -, HzFrb5⟩
  sl_exec
  -- the departure of chunk 6 across x
  icases HpS with ⟨Hp, HpS⟩
  ihave Hmw := (mayWait_list (F := F) cc (dsem (⟨28, by decide⟩ : Fin 140)) (List.drop 40 (paysL cc)) (by decide)) $$ Hlev
  iapply (wait_a0_at m cc _ 6 rfl) $$ [Hcxs6 HO Hmw Hp]
  · isplitr; · iexact HIc28
    isplitl [Hcxs6]; · iexact Hcxs6
    isplitl [HO]; · iexact HO
    isplitl [Hmw]; · iexact Hmw
    iexact Hp
  iintro ⟨HO, Hq28, -, HBs6⟩
  sl_exec
  -- of own chunk 6 to z
  icases HpS with ⟨Hp, HpS⟩
  ihave Hmw := (mayWait_list (F := F) cc (dsem (⟨50, by decide⟩ : Fin 140)) (List.drop 40 (paysL cc)) (by decide)) $$ Hlev
  iapply (wait_a4_at m cc _ 6 rfl) $$ [Hczs6 HO Hmw Hp]
  · isplitr; · iexact HIc50
    isplitl [Hczs6]; · iexact Hczs6
    isplitl [HO]; · iexact HO
    isplitl [Hmw]; · iexact Hmw
    iexact Hp
  iintro ⟨HO, Hq50, -, HoZb6⟩
  sl_exec
  -- of own chunk 6 to y
  icases HpS with ⟨Hp, HpS⟩
  ihave Hmw := (mayWait_list (F := F) cc (dsem (⟨66, by decide⟩ : Fin 140)) (List.drop 40 (paysL cc)) (by decide)) $$ Hlev
  iapply (wait_a6_at m cc _ 6 rfl) $$ [Hcys6 HO Hmw Hp]
  · isplitr; · iexact HIc66
    isplitl [Hcys6]; · iexact Hcys6
    isplitl [HO]; · iexact HO
    isplitl [Hmw]; · iexact Hmw
    iexact Hp
  iintro ⟨HO, Hq66, -, HoYb6⟩
  sl_exec
  -- of the forwarded half to z
  icases HpS with ⟨Hp, HpS⟩
  ihave Hmw := (mayWait_list (F := F) cc (dsem (⟨82, by decide⟩ : Fin 140)) (List.drop 40 (paysL cc)) (by decide)) $$ Hlev
  iapply (wait_a8_at m cc _ 6 rfl (by decide)) $$ [Hczfs6 HO Hmw Hp]
  · isplitr; · iexact HIc82
    isplitl [Hczfs6]; · iexact Hczfs6
    isplitl [HO]; · iexact HO
    isplitl [Hmw]; · iexact Hmw
    iexact Hp
  iintro ⟨HO, Hq82, -, HyFlb6⟩
  sl_exec
  -- of the forwarded half to y
  icases HpS with ⟨Hp, HpS⟩
  ihave Hmw := (mayWait_list (F := F) cc (dsem (⟨98, by decide⟩ : Fin 140)) (List.drop 40 (paysL cc)) (by decide)) $$ Hlev
  iapply (wait_a10_at m cc _ 6 rfl (by decide)) $$ [Hcyfs6 HO Hmw Hp]
  · isplitr; · iexact HIc98
    isplitl [Hcyfs6]; · iexact Hcyfs6
    isplitl [HO]; · iexact HO
    isplitl [Hmw]; · iexact Hmw
    iexact Hp
  iintro ⟨HO, Hq98, -, HzFrb6⟩
  sl_exec
  -- the departure of chunk 7 across x
  icases HpS with ⟨Hp, HpS⟩
  ihave Hmw := (mayWait_list (F := F) cc (dsem (⟨29, by decide⟩ : Fin 140)) (List.drop 40 (paysL cc)) (by decide)) $$ Hlev
  iapply (wait_a0_at m cc _ 7 rfl) $$ [Hcxs7 HO Hmw Hp]
  · isplitr; · iexact HIc29
    isplitl [Hcxs7]; · iexact Hcxs7
    isplitl [HO]; · iexact HO
    isplitl [Hmw]; · iexact Hmw
    iexact Hp
  iintro ⟨HO, Hq29, -, HBs7⟩
  sl_exec
  -- of own chunk 7 to z
  icases HpS with ⟨Hp, HpS⟩
  ihave Hmw := (mayWait_list (F := F) cc (dsem (⟨51, by decide⟩ : Fin 140)) (List.drop 40 (paysL cc)) (by decide)) $$ Hlev
  iapply (wait_a4_at m cc _ 7 rfl) $$ [Hczs7 HO Hmw Hp]
  · isplitr; · iexact HIc51
    isplitl [Hczs7]; · iexact Hczs7
    isplitl [HO]; · iexact HO
    isplitl [Hmw]; · iexact Hmw
    iexact Hp
  iintro ⟨HO, Hq51, -, HoZb7⟩
  sl_exec
  -- of own chunk 7 to y
  icases HpS with ⟨Hp, HpS⟩
  ihave Hmw := (mayWait_list (F := F) cc (dsem (⟨67, by decide⟩ : Fin 140)) (List.drop 40 (paysL cc)) (by decide)) $$ Hlev
  iapply (wait_a6_at m cc _ 7 rfl) $$ [Hcys7 HO Hmw Hp]
  · isplitr; · iexact HIc67
    isplitl [Hcys7]; · iexact Hcys7
    isplitl [HO]; · iexact HO
    isplitl [Hmw]; · iexact Hmw
    iexact Hp
  iintro ⟨HO, Hq67, -, HoYb7⟩
  sl_exec
  -- of the forwarded half to z
  icases HpS with ⟨Hp, HpS⟩
  ihave Hmw := (mayWait_list (F := F) cc (dsem (⟨83, by decide⟩ : Fin 140)) (List.drop 40 (paysL cc)) (by decide)) $$ Hlev
  iapply (wait_a8_at m cc _ 7 rfl (by decide)) $$ [Hczfs7 HO Hmw Hp]
  · isplitr; · iexact HIc83
    isplitl [Hczfs7]; · iexact Hczfs7
    isplitl [HO]; · iexact HO
    isplitl [Hmw]; · iexact Hmw
    iexact Hp
  iintro ⟨HO, Hq83, -, HyFlb7⟩
  sl_exec
  -- of the forwarded half to y
  icases HpS with ⟨Hp, HpS⟩
  ihave Hmw := (mayWait_list (F := F) cc (dsem (⟨99, by decide⟩ : Fin 140)) (List.drop 40 (paysL cc)) (by decide)) $$ Hlev
  iapply (wait_a10_at m cc _ 7 rfl (by decide)) $$ [Hcyfs7 HO Hmw Hp]
  · isplitr; · iexact HIc99
    isplitl [Hcyfs7]; · iexact Hcyfs7
    isplitl [HO]; · iexact HO
    isplitl [Hmw]; · iexact Hmw
    iexact Hp
  iintro ⟨HO, Hq99, -, HzFrb7⟩
  sl_exec
  -- of chunk 0 of the diagonal quarter across x
  icases HpS with ⟨Hp, HpS⟩
  ihave Hmw := (mayWait_list (F := F) cc (dsem (⟨38, by decide⟩ : Fin 140)) (List.drop 40 (paysL cc)) (by decide)) $$ Hlev
  iapply (wait_a2_at m cc _ 0 rfl) $$ [Hcds0 HO Hmw Hp]
  · isplitr; · iexact HIc38
    isplitl [Hcds0]; · iexact Hcds0
    isplitl [HO]; · iexact HO
    isplitl [Hmw]; · iexact Hmw
    iexact Hp
  iintro ⟨HO, Hq38, -, HB2s0⟩
  sl_exec
  -- of chunk 1 of the diagonal quarter across x
  icases HpS with ⟨Hp, HpS⟩
  ihave HpS := ((sep_emp (PROP := sProp 𝕄)).2) $$ HpS
  ihave Hmw := (mayWait_list (F := F) cc (dsem (⟨39, by decide⟩ : Fin 140)) (List.drop 40 (paysL cc)) (by decide)) $$ Hlev
  iapply (wait_a2_at m cc _ 1 rfl) $$ [Hcds1 HO Hmw Hp]
  · isplitr; · iexact HIc39
    isplitl [Hcds1]; · iexact Hcds1
    isplitl [HO]; · iexact HO
    isplitl [Hmw]; · iexact Hmw
    iexact Hp
  iintro ⟨HO, Hq39, -, HB2s1⟩
  sl_exec
  -- of chunk 2 of the diagonal quarter across x

  icases HpS with ⟨HpS, -⟩
  ihave Hmw := (mayWait_list (F := F) cc (dsem (⟨40, by decide⟩ : Fin 140)) (List.drop 40 (paysL cc)) (by decide)) $$ Hlev
  iapply (wait_a2_at m cc _ 2 rfl) $$ [Hcds2 HO Hmw HpS]
  · isplitr; · iexact HIc40
    isplitl [Hcds2]; · iexact Hcds2
    isplitl [HO]; · iexact HO
    isplitl [Hmw]; · iexact Hmw
    iexact HpS
  iintro ⟨HO, Hq40, -, HB2s2⟩
  sl_exec
  -- every cell of the protocol on this device has had its one round: close them, their counters are the device's again
  imod (close_cell (F := F) m cc (⟨22, by decide⟩ : Fin 140) (by decide)) $$ [Hq22] with Hv22
  · isplitr; · iexact HIc22
    iexact Hq22
  imod (close_cell (F := F) m cc (⟨23, by decide⟩ : Fin 140) (by decide)) $$ [Hq23] with Hv23
  · isplitr; · iexact HIc23
    iexact Hq23
  imod (close_cell (F := F) m cc (⟨24, by decide⟩ : Fin 140) (by decide)) $$ [Hq24] with Hv24
  · isplitr; · iexact HIc24
    iexact Hq24
  imod (close_cell (F := F) m cc (⟨25, by decide⟩ : Fin 140) (by decide)) $$ [Hq25] with Hv25
  · isplitr; · iexact HIc25
    iexact Hq25
  imod (close_cell (F := F) m cc (⟨26, by decide⟩ : Fin 140) (by decide)) $$ [Hq26] with Hv26
  · isplitr; · iexact HIc26
    iexact Hq26
  imod (close_cell (F := F) m cc (⟨27, by decide⟩ : Fin 140) (by decide)) $$ [Hq27] with Hv27
  · isplitr; · iexact HIc27
    iexact Hq27
  imod (close_cell (F := F) m cc (⟨28, by decide⟩ : Fin 140) (by decide)) $$ [Hq28] with Hv28
  · isplitr; · iexact HIc28
    iexact Hq28
  imod (close_cell (F := F) m cc (⟨29, by decide⟩ : Fin 140) (by decide)) $$ [Hq29] with Hv29
  · isplitr; · iexact HIc29
    iexact Hq29
  imod (close_cell (F := F) m cc (⟨30, by decide⟩ : Fin 140) (by decide)) $$ [Hq30] with Hv30
  · isplitr; · iexact HIc30
    iexact Hq30
  imod (close_cell (F := F) m cc (⟨31, by decide⟩ : Fin 140) (by decide)) $$ [Hq31] with Hv31
  · isplitr; · iexact HIc31
    iexact Hq31
  imod (close_cell (F := F) m cc (⟨32, by decide⟩ : Fin 140) (by decide)) $$ [Hq32] with Hv32
  · isplitr; · iexact HIc32
    iexact Hq32
  imod (close_cell (F := F) m cc (⟨33, by decide⟩ : Fin 140) (by decide)) $$ [Hq33] with Hv33
  · isplitr; · iexact HIc33
    iexact Hq33
  imod (close_cell (F := F) m cc (⟨34, by decide⟩ : Fin 140) (by decide)) $$ [Hq34] with Hv34
  · isplitr; · iexact HIc34
    iexact Hq34
  imod (close_cell (F := F) m cc (⟨35, by decide⟩ : Fin 140) (by decide)) $$ [Hq35] with Hv35
  · isplitr; · iexact HIc35
    iexact Hq35
  imod (close_cell (F := F) m cc (⟨36, by decide⟩ : Fin 140) (by decide)) $$ [Hq36] with Hv36
  · isplitr; · iexact HIc36
    iexact Hq36
  imod (close_cell (F := F) m cc (⟨37, by decide⟩ : Fin 140) (by decide)) $$ [Hq37] with Hv37
  · isplitr; · iexact HIc37
    iexact Hq37
  imod (close_cell (F := F) m cc (⟨38, by decide⟩ : Fin 140) (by decide)) $$ [Hq38] with Hv38
  · isplitr; · iexact HIc38
    iexact Hq38
  imod (close_cell (F := F) m cc (⟨39, by decide⟩ : Fin 140) (by decide)) $$ [Hq39] with Hv39
  · isplitr; · iexact HIc39
    iexact Hq39
  imod (close_cell (F := F) m cc (⟨40, by decide⟩ : Fin 140) (by decide)) $$ [Hq40] with Hv40
  · isplitr; · iexact HIc40
    iexact Hq40
  imod (close_cell (F := F) m cc (⟨41, by decide⟩ : Fin 140) (by decide)) $$ [Hq41] with Hv41
  · isplitr; · iexact HIc41
    iexact Hq41
  imod (close_cell (F := F) m cc (⟨42, by decide⟩ : Fin 140) (by decide)) $$ [Hq42] with Hv42
  · isplitr; · iexact HIc42
    iexact Hq42
  imod (close_cell (F := F) m cc (⟨43, by decide⟩ : Fin 140) (by decide)) $$ [Hq43] with Hv43
  · isplitr; · iexact HIc43
    iexact Hq43
  imod (close_cell (F := F) m cc (⟨44, by decide⟩ : Fin 140) (by decide)) $$ [Hq44] with Hv44
  · isplitr; · iexact HIc44
    iexact Hq44
  imod (close_cell (F := F) m cc (⟨45, by decide⟩ : Fin 140) (by decide)) $$ [Hq45] with Hv45
  · isplitr; · iexact HIc45
    iexact Hq45
  imod (close_cell (F := F) m cc (⟨46, by decide⟩ : Fin 140) (by decide)) $$ [Hq46] with Hv46
  · isplitr; · iexact HIc46
    iexact Hq46
  imod (close_cell (F := F) m cc (⟨47, by decide⟩ : Fin 140) (by decide)) $$ [Hq47] with Hv47
  · isplitr; · iexact HIc47
    iexact Hq47
  imod (close_cell (F := F) m cc (⟨48, by decide⟩ : Fin 140) (by decide)) $$ [Hq48] with Hv48
  · isplitr; · iexact HIc48
    iexact Hq48
  imod (close_cell (F := F) m cc (⟨49, by decide⟩ : Fin 140) (by decide)) $$ [Hq49] with Hv49
  · isplitr; · iexact HIc49
    iexact Hq49
  imod (close_cell (F := F) m cc (⟨50, by decide⟩ : Fin 140) (by decide)) $$ [Hq50] with Hv50
  · isplitr; · iexact HIc50
    iexact Hq50
  imod (close_cell (F := F) m cc (⟨51, by decide⟩ : Fin 140) (by decide)) $$ [Hq51] with Hv51
  · isplitr; · iexact HIc51
    iexact Hq51
  imod (close_cell (F := F) m cc (⟨52, by decide⟩ : Fin 140) (by decide)) $$ [Hq52] with Hv52
  · isplitr; · iexact HIc52
    iexact Hq52
  imod (close_cell (F := F) m cc (⟨53, by decide⟩ : Fin 140) (by decide)) $$ [Hq53] with Hv53
  · isplitr; · iexact HIc53
    iexact Hq53
  imod (close_cell (F := F) m cc (⟨54, by decide⟩ : Fin 140) (by decide)) $$ [Hq54] with Hv54
  · isplitr; · iexact HIc54
    iexact Hq54
  imod (close_cell (F := F) m cc (⟨55, by decide⟩ : Fin 140) (by decide)) $$ [Hq55] with Hv55
  · isplitr; · iexact HIc55
    iexact Hq55
  imod (close_cell (F := F) m cc (⟨56, by decide⟩ : Fin 140) (by decide)) $$ [Hq56] with Hv56
  · isplitr; · iexact HIc56
    iexact Hq56
  imod (close_cell (F := F) m cc (⟨57, by decide⟩ : Fin 140) (by decide)) $$ [Hq57] with Hv57
  · isplitr; · iexact HIc57
    iexact Hq57
  imod (close_cell (F := F) m cc (⟨58, by decide⟩ : Fin 140) (by decide)) $$ [Hq58] with Hv58
  · isplitr; · iexact HIc58
    iexact Hq58
  imod (close_cell (F := F) m cc (⟨59, by decide⟩ : Fin 140) (by decide)) $$ [Hq59] with Hv59
  · isplitr; · iexact HIc59
    iexact Hq59
  imod (close_cell (F := F) m cc (⟨60, by decide⟩ : Fin 140) (by decide)) $$ [Hq60] with Hv60
  · isplitr; · iexact HIc60
    iexact Hq60
  imod (close_cell (F := F) m cc (⟨61, by decide⟩ : Fin 140) (by decide)) $$ [Hq61] with Hv61
  · isplitr; · iexact HIc61
    iexact Hq61
  imod (close_cell (F := F) m cc (⟨62, by decide⟩ : Fin 140) (by decide)) $$ [Hq62] with Hv62
  · isplitr; · iexact HIc62
    iexact Hq62
  imod (close_cell (F := F) m cc (⟨63, by decide⟩ : Fin 140) (by decide)) $$ [Hq63] with Hv63
  · isplitr; · iexact HIc63
    iexact Hq63
  imod (close_cell (F := F) m cc (⟨64, by decide⟩ : Fin 140) (by decide)) $$ [Hq64] with Hv64
  · isplitr; · iexact HIc64
    iexact Hq64
  imod (close_cell (F := F) m cc (⟨65, by decide⟩ : Fin 140) (by decide)) $$ [Hq65] with Hv65
  · isplitr; · iexact HIc65
    iexact Hq65
  imod (close_cell (F := F) m cc (⟨66, by decide⟩ : Fin 140) (by decide)) $$ [Hq66] with Hv66
  · isplitr; · iexact HIc66
    iexact Hq66
  imod (close_cell (F := F) m cc (⟨67, by decide⟩ : Fin 140) (by decide)) $$ [Hq67] with Hv67
  · isplitr; · iexact HIc67
    iexact Hq67
  imod (close_cell (F := F) m cc (⟨68, by decide⟩ : Fin 140) (by decide)) $$ [Hq68] with Hv68
  · isplitr; · iexact HIc68
    iexact Hq68
  imod (close_cell (F := F) m cc (⟨69, by decide⟩ : Fin 140) (by decide)) $$ [Hq69] with Hv69
  · isplitr; · iexact HIc69
    iexact Hq69
  imod (close_cell (F := F) m cc (⟨70, by decide⟩ : Fin 140) (by decide)) $$ [Hq70] with Hv70
  · isplitr; · iexact HIc70
    iexact Hq70
  imod (close_cell (F := F) m cc (⟨71, by decide⟩ : Fin 140) (by decide)) $$ [Hq71] with Hv71
  · isplitr; · iexact HIc71
    iexact Hq71
  imod (close_cell (F := F) m cc (⟨72, by decide⟩ : Fin 140) (by decide)) $$ [Hq72] with Hv72
  · isplitr; · iexact HIc72
    iexact Hq72
  imod (close_cell (F := F) m cc (⟨73, by decide⟩ : Fin 140) (by decide)) $$ [Hq73] with Hv73
  · isplitr; · iexact HIc73
    iexact Hq73
  imod (close_cell (F := F) m cc (⟨74, by decide⟩ : Fin 140) (by decide)) $$ [Hq74] with Hv74
  · isplitr; · iexact HIc74
    iexact Hq74
  imod (close_cell (F := F) m cc (⟨75, by decide⟩ : Fin 140) (by decide)) $$ [Hq75] with Hv75
  · isplitr; · iexact HIc75
    iexact Hq75
  imod (close_cell (F := F) m cc (⟨79, by decide⟩ : Fin 140) (by decide)) $$ [Hq79] with Hv79
  · isplitr; · iexact HIc79
    iexact Hq79
  imod (close_cell (F := F) m cc (⟨80, by decide⟩ : Fin 140) (by decide)) $$ [Hq80] with Hv80
  · isplitr; · iexact HIc80
    iexact Hq80
  imod (close_cell (F := F) m cc (⟨81, by decide⟩ : Fin 140) (by decide)) $$ [Hq81] with Hv81
  · isplitr; · iexact HIc81
    iexact Hq81
  imod (close_cell (F := F) m cc (⟨82, by decide⟩ : Fin 140) (by decide)) $$ [Hq82] with Hv82
  · isplitr; · iexact HIc82
    iexact Hq82
  imod (close_cell (F := F) m cc (⟨83, by decide⟩ : Fin 140) (by decide)) $$ [Hq83] with Hv83
  · isplitr; · iexact HIc83
    iexact Hq83
  imod (close_cell (F := F) m cc (⟨87, by decide⟩ : Fin 140) (by decide)) $$ [Hq87] with Hv87
  · isplitr; · iexact HIc87
    iexact Hq87
  imod (close_cell (F := F) m cc (⟨88, by decide⟩ : Fin 140) (by decide)) $$ [Hq88] with Hv88
  · isplitr; · iexact HIc88
    iexact Hq88
  imod (close_cell (F := F) m cc (⟨89, by decide⟩ : Fin 140) (by decide)) $$ [Hq89] with Hv89
  · isplitr; · iexact HIc89
    iexact Hq89
  imod (close_cell (F := F) m cc (⟨90, by decide⟩ : Fin 140) (by decide)) $$ [Hq90] with Hv90
  · isplitr; · iexact HIc90
    iexact Hq90
  imod (close_cell (F := F) m cc (⟨91, by decide⟩ : Fin 140) (by decide)) $$ [Hq91] with Hv91
  · isplitr; · iexact HIc91
    iexact Hq91
  imod (close_cell (F := F) m cc (⟨95, by decide⟩ : Fin 140) (by decide)) $$ [Hq95] with Hv95
  · isplitr; · iexact HIc95
    iexact Hq95
  imod (close_cell (F := F) m cc (⟨96, by decide⟩ : Fin 140) (by decide)) $$ [Hq96] with Hv96
  · isplitr; · iexact HIc96
    iexact Hq96
  imod (close_cell (F := F) m cc (⟨97, by decide⟩ : Fin 140) (by decide)) $$ [Hq97] with Hv97
  · isplitr; · iexact HIc97
    iexact Hq97
  imod (close_cell (F := F) m cc (⟨98, by decide⟩ : Fin 140) (by decide)) $$ [Hq98] with Hv98
  · isplitr; · iexact HIc98
    iexact Hq98
  imod (close_cell (F := F) m cc (⟨99, by decide⟩ : Fin 140) (by decide)) $$ [Hq99] with Hv99
  · isplitr; · iexact HIc99
    iexact Hq99
  imod (close_cell (F := F) m cc (⟨103, by decide⟩ : Fin 140) (by decide)) $$ [Hq103] with Hv103
  · isplitr; · iexact HIc103
    iexact Hq103
  imod (close_cell (F := F) m cc (⟨104, by decide⟩ : Fin 140) (by decide)) $$ [Hq104] with Hv104
  · isplitr; · iexact HIc104
    iexact Hq104
  imod (close_cell (F := F) m cc (⟨105, by decide⟩ : Fin 140) (by decide)) $$ [Hq105] with Hv105
  · isplitr; · iexact HIc105
    iexact Hq105
  imod (close_cell (F := F) m cc (⟨106, by decide⟩ : Fin 140) (by decide)) $$ [Hq106] with Hv106
  · isplitr; · iexact HIc106
    iexact Hq106
  imod (close_cell (F := F) m cc (⟨107, by decide⟩ : Fin 140) (by decide)) $$ [Hq107] with Hv107
  · isplitr; · iexact HIc107
    iexact Hq107
  -- the program is over: hand everything back
  icases HvU with ⟨Hu76, Hu77, Hu78, Hu84, Hu85, Hu86, Hu92, Hu93, Hu94, Hu100, Hu101, Hu102⟩
  ihave HO := (Entails.of_eq (show owes (cc : Thread nD τ) (owedL (List.drop 40 (paysL cc))) _ = owes (cc : Thread nD τ) 0 _ from rfl)) $$ HO
  -- each block of the result holds what its copy wrote: the final contents
  ihave HU00 := (congr (F := F) (outR 0 0) cc fullShare ((outR 0 0).view.writes (Elt F) g00 [⟨Rect.whole S512x256, dev.sl.dma0_34 m⟩]) (out m cc) (fun i hi => glue_out' m cc 0 0 g00 i hi)) $$ HU00
  ihave HU01 := (congr (F := F) (outR 0 1) cc fullShare ((outR 0 1).view.writes (Elt F) g01 [⟨Rect.whole S512x256, dev.sl.dma0_35 m⟩]) (out m cc) (fun i hi => glue_out' m cc 0 1 g01 i hi)) $$ HU01
  ihave HU02 := (congr (F := F) (outR 0 2) cc fullShare ((outR 0 2).view.writes (Elt F) g02 [⟨Rect.whole S512x256, dev.sl.dma0_36 m⟩]) (out m cc) (fun i hi => glue_out' m cc 0 2 g02 i hi)) $$ HU02
  ihave HU03 := (congr (F := F) (outR 0 3) cc fullShare ((outR 0 3).view.writes (Elt F) g03 [⟨Rect.whole S512x256, dev.sl.dma0_37 m⟩]) (out m cc) (fun i hi => glue_out' m cc 0 3 g03 i hi)) $$ HU03
  ihave HU10 := (congr (F := F) (outR 1 0) cc fullShare ((outR 1 0).view.writes (Elt F) g10 [⟨Rect.whole S512x256, dev.sl.dma0_38 m⟩]) (out m cc) (fun i hi => glue_out' m cc 1 0 g10 i hi)) $$ HU10
  ihave HU11 := (congr (F := F) (outR 1 1) cc fullShare ((outR 1 1).view.writes (Elt F) g11 [⟨Rect.whole S512x256, dev.sl.dma0_39 m⟩]) (out m cc) (fun i hi => glue_out' m cc 1 1 g11 i hi)) $$ HU11
  ihave HU12 := (congr (F := F) (outR 1 2) cc fullShare ((outR 1 2).view.writes (Elt F) g12 [⟨Rect.whole S512x256, dev.sl.dma0_40 m⟩]) (out m cc) (fun i hi => glue_out' m cc 1 2 g12 i hi)) $$ HU12
  ihave HU13 := (congr (F := F) (outR 1 3) cc fullShare ((outR 1 3).view.writes (Elt F) g13 [⟨Rect.whole S512x256, dev.sl.dma0_41 m⟩]) (out m cc) (fun i hi => glue_out' m cc 1 3 g13 i hi)) $$ HU13
  ihave HU20 := (congr (F := F) (outR 2 0) cc fullShare ((outR 2 0).view.writes (Elt F) g20 [⟨Rect.whole S512x256, dev.sl.dma0_42 m⟩]) (out m cc) (fun i hi => glue_out' m cc 2 0 g20 i hi)) $$ HU20
  ihave HU21 := (congr (F := F) (outR 2 1) cc fullShare ((outR 2 1).view.writes (Elt F) g21 [⟨Rect.whole S512x256, dev.sl.dma0_43 m⟩]) (out m cc) (fun i hi => glue_out' m cc 2 1 g21 i hi)) $$ HU21
  ihave HU22 := (congr (F := F) (outR 2 2) cc fullShare ((outR 2 2).view.writes (Elt F) g22 [⟨Rect.whole S512x256, dev.sl.dma0_44 m⟩]) (out m cc) (fun i hi => glue_out' m cc 2 2 g22 i hi)) $$ HU22
  ihave HU23 := (congr (F := F) (outR 2 3) cc fullShare ((outR 2 3).view.writes (Elt F) g23 [⟨Rect.whole S512x256, dev.sl.dma0_45 m⟩]) (out m cc) (fun i hi => glue_out' m cc 2 3 g23 i hi)) $$ HU23
  ihave HU30 := (congr (F := F) (outR 3 0) cc fullShare ((outR 3 0).view.writes (Elt F) g30 [⟨Rect.whole S512x256, dev.sl.dma0_22 m⟩]) (out m cc) (fun i hi => glue_out' m cc 3 0 g30 i hi)) $$ HU30
  ihave HU31 := (congr (F := F) (outR 3 1) cc fullShare ((outR 3 1).view.writes (Elt F) g31 [⟨Rect.whole S512x256, dev.sl.dma0_23 m⟩]) (out m cc) (fun i hi => glue_out' m cc 3 1 g31 i hi)) $$ HU31
  ihave HU32 := (congr (F := F) (outR 3 2) cc fullShare ((outR 3 2).view.writes (Elt F) g32 [⟨Rect.whole S512x256, dev.sl.dma0_24 m⟩]) (out m cc) (fun i hi => glue_out' m cc 3 2 g32 i hi)) $$ HU32
  ihave HU33 := (congr (F := F) (outR 3 3) cc fullShare ((outR 3 3).view.writes (Elt F) g33 [⟨Rect.whole S512x256, dev.sl.dma0_25 m⟩]) (out m cc) (fun i hi => glue_out' m cc 3 3 g33 i hi)) $$ HU33
  ihave HU40 := (congr (F := F) (outR 4 0) cc fullShare ((outR 4 0).view.writes (Elt F) g40 [⟨Rect.whole S512x256, dev.sl.dma0_26 m⟩]) (out m cc) (fun i hi => glue_out' m cc 4 0 g40 i hi)) $$ HU40
  ihave HU41 := (congr (F := F) (outR 4 1) cc fullShare ((outR 4 1).view.writes (Elt F) g41 [⟨Rect.whole S512x256, dev.sl.dma0_27 m⟩]) (out m cc) (fun i hi => glue_out' m cc 4 1 g41 i hi)) $$ HU41
  ihave HU42 := (congr (F := F) (outR 4 2) cc fullShare ((outR 4 2).view.writes (Elt F) g42 [⟨Rect.whole S512x256, dev.sl.dma0_28 m⟩]) (out m cc) (fun i hi => glue_out' m cc 4 2 g42 i hi)) $$ HU42
  ihave HU43 := (congr (F := F) (outR 4 3) cc fullShare ((outR 4 3).view.writes (Elt F) g43 [⟨Rect.whole S512x256, dev.sl.dma0_29 m⟩]) (out m cc) (fun i hi => glue_out' m cc 4 3 g43 i hi)) $$ HU43
  ihave HU50 := (congr (F := F) (outR 5 0) cc fullShare ((outR 5 0).view.writes (Elt F) g50 [⟨Rect.whole S512x256, dev.sl.dma0_30 m⟩]) (out m cc) (fun i hi => glue_out' m cc 5 0 g50 i hi)) $$ HU50
  ihave HU51 := (congr (F := F) (outR 5 1) cc fullShare ((outR 5 1).view.writes (Elt F) g51 [⟨Rect.whole S512x256, dev.sl.dma0_31 m⟩]) (out m cc) (fun i hi => glue_out' m cc 5 1 g51 i hi)) $$ HU51
  ihave HU52 := (congr (F := F) (outR 5 2) cc fullShare ((outR 5 2).view.writes (Elt F) g52 [⟨Rect.whole S512x256, dev.sl.dma0_32 m⟩]) (out m cc) (fun i hi => glue_out' m cc 5 2 g52 i hi)) $$ HU52
  ihave HU53 := (congr (F := F) (outR 5 3) cc fullShare ((outR 5 3).view.writes (Elt F) g53 [⟨Rect.whole S512x256, dev.sl.dma0_33 m⟩]) (out m cc) (fun i hi => glue_out' m cc 5 3 g53 i hi)) $$ HU53
  ihave HU60 := (congr (F := F) (outR 6 0) cc fullShare ((outR 6 0).view.writes (Elt F) g60 [⟨Rect.whole S512x256, dev.sl.dma0_46 m⟩]) (out m cc) (fun i hi => glue_out' m cc 6 0 g60 i hi)) $$ HU60
  ihave HU61 := (congr (F := F) (outR 6 1) cc fullShare ((outR 6 1).view.writes (Elt F) g61 [⟨Rect.whole S512x256, dev.sl.dma0_47 m⟩]) (out m cc) (fun i hi => glue_out' m cc 6 1 g61 i hi)) $$ HU61
  ihave HU62 := (congr (F := F) (outR 6 2) cc fullShare ((outR 6 2).view.writes (Elt F) g62 [⟨Rect.whole S512x256, dev.sl.dma0_48 m⟩]) (out m cc) (fun i hi => glue_out' m cc 6 2 g62 i hi)) $$ HU62
  ihave HU63 := (congr (F := F) (outR 6 3) cc fullShare ((outR 6 3).view.writes (Elt F) g63 [⟨Rect.whole S512x256, dev.sl.dma0_49 m⟩]) (out m cc) (fun i hi => glue_out' m cc 6 3 g63 i hi)) $$ HU63
  ihave HU70 := (congr (F := F) (outR 7 0) cc fullShare ((outR 7 0).view.writes (Elt F) g70 [⟨Rect.whole S512x256, dev.sl.dma0_50 m⟩]) (out m cc) (fun i hi => glue_out' m cc 7 0 g70 i hi)) $$ HU70
  ihave HU71 := (congr (F := F) (outR 7 1) cc fullShare ((outR 7 1).view.writes (Elt F) g71 [⟨Rect.whole S512x256, dev.sl.dma0_51 m⟩]) (out m cc) (fun i hi => glue_out' m cc 7 1 g71 i hi)) $$ HU71
  ihave HU72 := (congr (F := F) (outR 7 2) cc fullShare ((outR 7 2).view.writes (Elt F) g72 [⟨Rect.whole S512x256, dev.sl.dma0_52 m⟩]) (out m cc) (fun i hi => glue_out' m cc 7 2 g72 i hi)) $$ HU72
  ihave HU73 := (congr (F := F) (outR 7 3) cc fullShare ((outR 7 3).view.writes (Elt F) g73 [⟨Rect.whole S512x256, dev.sl.dma0_53 m⟩]) (out m cc) (fun i hi => glue_out' m cc 7 3 g73 i hi)) $$ HU73
  sl_step
  iapply Hk
  unfold bodyPost
  isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7 Hz0 Hz1 Hz2 HzG3 HzFl3 HzFrb3 HzG4 HzFl4 HzFrb4 HzG5 HzFl5 HzFrb5 HzG6 HzFl6 HzFrb6 HzG7 HzFl7 HzFrb7 Hy0 Hy1 Hy2 HyG3 HyFlb3 HyFr3 HyG4 HyFlb4 HyFr4 HyG5 HyFlb5 HyFr5 HyG6 HyFlb6 HyFr6 HyG7 HyFlb7 HyFr7 Hdq0 Hdq1 Hdq2 Hd3 Hd4 Hd5 Hd6 Hd7]
  · iapply (Entails.of_eq (junk_whole (F := F) cc cc0_scratch0).symm)
    iapply (r4_back (F := F) cc)
    isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7]
    · isplitl [HoZb0 HoYb0 HoK0]
      · iapply (own_back (F := F) cc 0 (r4 m cc))
        isplitl [HoZb0]
        · iexact HoZb0
        isplitl [HoYb0]
        · iexact HoYb0
        iexact HoK0
      isplitl [HoZb1 HoYb1 HoK1]
      · iapply (own_back (F := F) cc 1 (r4 m cc))
        isplitl [HoZb1]
        · iexact HoZb1
        isplitl [HoYb1]
        · iexact HoYb1
        iexact HoK1
      isplitl [HoZb2 HoYb2 HoK2]
      · iapply (own_back (F := F) cc 2 (r4 m cc))
        isplitl [HoZb2]
        · iexact HoZb2
        isplitl [HoYb2]
        · iexact HoYb2
        iexact HoK2
      isplitl [HoZb3 HoYb3 HoK3]
      · iapply (own_back (F := F) cc 3 (r4 m cc))
        isplitl [HoZb3]
        · iexact HoZb3
        isplitl [HoYb3]
        · iexact HoYb3
        iexact HoK3
      isplitl [HoZb4 HoYb4 HoK4]
      · iapply (own_back (F := F) cc 4 (r4 m cc))
        isplitl [HoZb4]
        · iexact HoZb4
        isplitl [HoYb4]
        · iexact HoYb4
        iexact HoK4
      isplitl [HoZb5 HoYb5 HoK5]
      · iapply (own_back (F := F) cc 5 (r4 m cc))
        isplitl [HoZb5]
        · iexact HoZb5
        isplitl [HoYb5]
        · iexact HoYb5
        iexact HoK5
      isplitl [HoZb6 HoYb6 HoK6]
      · iapply (own_back (F := F) cc 6 (r4 m cc))
        isplitl [HoZb6]
        · iexact HoZb6
        isplitl [HoYb6]
        · iexact HoYb6
        iexact HoK6
      iapply (own_back (F := F) cc 7 (r4 m cc))
      isplitl [HoZb7]
      · iexact HoZb7
      isplitl [HoYb7]
      · iexact HoYb7
      iexact HoK7
    isplitl [Hz0 Hz1 Hz2 HzG3 HzFl3 HzFrb3 HzG4 HzFl4 HzFrb4 HzG5 HzFl5 HzFrb5 HzG6 HzFl6 HzFrb6 HzG7 HzFl7 HzFrb7]
    · isplitl [Hz0]
      · iexists _; iexact Hz0
      isplitl [Hz1]
      · iexists _; iexact Hz1
      isplitl [Hz2]
      · iexists _; iexact Hz2
      isplitl [HzG3 HzFl3 HzFrb3]
      · iapply (nbr_back (F := F) cc (zqF cc) 3 (r4 m cc))
        isplitl [HzG3]
        · iexact HzG3
        isplitl [HzFl3]
        · iexact HzFl3
        iexact HzFrb3
      isplitl [HzG4 HzFl4 HzFrb4]
      · iapply (nbr_back (F := F) cc (zqF cc) 4 (r4 m cc))
        isplitl [HzG4]
        · iexact HzG4
        isplitl [HzFl4]
        · iexact HzFl4
        iexact HzFrb4
      isplitl [HzG5 HzFl5 HzFrb5]
      · iapply (nbr_back (F := F) cc (zqF cc) 5 (r4 m cc))
        isplitl [HzG5]
        · iexact HzG5
        isplitl [HzFl5]
        · iexact HzFl5
        iexact HzFrb5
      isplitl [HzG6 HzFl6 HzFrb6]
      · iapply (nbr_back (F := F) cc (zqF cc) 6 (r4 m cc))
        isplitl [HzG6]
        · iexact HzG6
        isplitl [HzFl6]
        · iexact HzFl6
        iexact HzFrb6
      iapply (nbr_back (F := F) cc (zqF cc) 7 (r4 m cc))
      isplitl [HzG7]
      · iexact HzG7
      isplitl [HzFl7]
      · iexact HzFl7
      iexact HzFrb7
    isplitl [Hy0 Hy1 Hy2 HyG3 HyFlb3 HyFr3 HyG4 HyFlb4 HyFr4 HyG5 HyFlb5 HyFr5 HyG6 HyFlb6 HyFr6 HyG7 HyFlb7 HyFr7]
    · isplitl [Hy0]
      · iexists _; iexact Hy0
      isplitl [Hy1]
      · iexists _; iexact Hy1
      isplitl [Hy2]
      · iexists _; iexact Hy2
      isplitl [HyG3 HyFlb3 HyFr3]
      · iapply (nbr_back (F := F) cc (yqF cc) 3 (r4 m cc))
        isplitl [HyG3]
        · iexact HyG3
        isplitl [HyFlb3]
        · iexact HyFlb3
        iexact HyFr3
      isplitl [HyG4 HyFlb4 HyFr4]
      · iapply (nbr_back (F := F) cc (yqF cc) 4 (r4 m cc))
        isplitl [HyG4]
        · iexact HyG4
        isplitl [HyFlb4]
        · iexact HyFlb4
        iexact HyFr4
      isplitl [HyG5 HyFlb5 HyFr5]
      · iapply (nbr_back (F := F) cc (yqF cc) 5 (r4 m cc))
        isplitl [HyG5]
        · iexact HyG5
        isplitl [HyFlb5]
        · iexact HyFlb5
        iexact HyFr5
      isplitl [HyG6 HyFlb6 HyFr6]
      · iapply (nbr_back (F := F) cc (yqF cc) 6 (r4 m cc))
        isplitl [HyG6]
        · iexact HyG6
        isplitl [HyFlb6]
        · iexact HyFlb6
        iexact HyFr6
      iapply (nbr_back (F := F) cc (yqF cc) 7 (r4 m cc))
      isplitl [HyG7]
      · iexact HyG7
      isplitl [HyFlb7]
      · iexact HyFlb7
      iexact HyFr7
    isplitl [Hdq0 Hdq1 Hdq2]
    · isplitl [Hdq0]
      · iexists _; iexact Hdq0
      isplitl [Hdq1]
      · iexists _; iexact Hdq1
      iexists _; iexact Hdq2
    isplitl [Hd3]
    · iapply (dq_halves (F := F) cc 3 (r4 m cc))
      iexact Hd3
    isplitl [Hd4]
    · iapply (dq_halves (F := F) cc 4 (r4 m cc))
      iexact Hd4
    isplitl [Hd5]
    · iapply (dq_halves (F := F) cc 5 (r4 m cc))
      iexact Hd5
    isplitl [Hd6]
    · iapply (dq_halves (F := F) cc 6 (r4 m cc))
      iexact Hd6
    iapply (dq_halves (F := F) cc 7 (r4 m cc))
    iexact Hd7
  isplitl [HBs0 HBs1 HBs2 HBs3 HBs4 HBs5 HBs6 HBs7]
  · iapply (Entails.of_eq (junk_whole (F := F) cc cc0_scratch1).symm)
    iapply (sb_rows_join (F := F) cc)
    isplitl [HBs0]
    · iexists _; iexact HBs0
    isplitl [HBs1]
    · iexists _; iexact HBs1
    isplitl [HBs2]
    · iexists _; iexact HBs2
    isplitl [HBs3]
    · iexists _; iexact HBs3
    isplitl [HBs4]
    · iexists _; iexact HBs4
    isplitl [HBs5]
    · iexists _; iexact HBs5
    isplitl [HBs6]
    · iexists _; iexact HBs6
    iexists _; iexact HBs7
  isplitl [Hrb0 Hrb1 Hrb2 Hrb3 Hrb4 Hrb5 Hrb6 Hrb7]
  · iapply (Entails.of_eq (junk_whole (F := F) cc cc0_scratch2).symm)
    iapply (rb_rows_join (F := F) cc)
    isplitl [Hrb0]
    · iexists _; iexact Hrb0
    isplitl [Hrb1]
    · iexists _; iexact Hrb1
    isplitl [Hrb2]
    · iexists _; iexact Hrb2
    isplitl [Hrb3]
    · iexists _; iexact Hrb3
    isplitl [Hrb4]
    · iexists _; iexact Hrb4
    isplitl [Hrb5]
    · iexists _; iexact Hrb5
    isplitl [Hrb6]
    · iexists _; iexact Hrb6
    iexists _; iexact Hrb7
  isplitl [HB2s0 HB2s1 HB2s2]
  · iapply (Entails.of_eq (junk_whole (F := F) cc cc0_scratch3).symm)
    iapply (sb2_rows_join (F := F) cc)
    isplitl [HB2s0]
    · iexists _; iexact HB2s0
    isplitl [HB2s1]
    · iexists _; iexact HB2s1
    iexists _; iexact HB2s2
  isplitl [Hrb20 Hrb21 Hrb22]
  · iapply (Entails.of_eq (junk_whole (F := F) cc cc0_scratch4).symm)
    iapply (rb2_rows_join (F := F) cc)
    isplitl [Hrb20]
    · iexists _; iexact Hrb20
    isplitl [Hrb21]
    · iexists _; iexact Hrb21
    iexists _; iexact Hrb22
  isplitl [HP0 HP1 HP2 HP3 HP4 HP5 HP6 HP7]
  · iapply (Entails.of_eq (junk_whole (F := F) cc cc0_scratch5).symm)
    iapply (stP_rows_join (F := F) cc)
    isplitl [HP0]
    · iexists _; iexact HP0
    isplitl [HP1]
    · iexists _; iexact HP1
    isplitl [HP2]
    · iexists _; iexact HP2
    isplitl [HP3]
    · iexists _; iexact HP3
    isplitl [HP4]
    · iexists _; iexact HP4
    isplitl [HP5]
    · iexists _; iexact HP5
    isplitl [HP6]
    · iexists _; iexact HP6
    iexists _; iexact HP7
  isplitl [HL0 HL1 HL2 HL3 HL4 HL5 HL6 HL7]
  · iapply (Entails.of_eq (junk_whole (F := F) cc cc0_scratch6).symm)
    iapply (stL_rows_join (F := F) cc)
    isplitl [HL0]
    · iexists _; iexact HL0
    isplitl [HL1]
    · iexists _; iexact HL1
    isplitl [HL2]
    · iexists _; iexact HL2
    isplitl [HL3]
    · iexists _; iexact HL3
    isplitl [HL4]
    · iexists _; iexact HL4
    isplitl [HL5]
    · iexists _; iexact HL5
    isplitl [HL6]
    · iexists _; iexact HL6
    iexists _; iexact HL7
  isplitl [HP20 HP21 HP22]
  · iapply (Entails.of_eq (junk_whole (F := F) cc cc0_scratch7).symm)
    iapply (stP2_rows_join (F := F) cc)
    isplitl [HP20]
    · iexists _; iexact HP20
    isplitl [HP21]
    · iexists _; iexact HP21
    iexists _; iexact HP22
  isplitl [HL20 HL21 HL22]
  · iapply (Entails.of_eq (junk_whole (F := F) cc cc0_scratch8).symm)
    iapply (stL2_rows_join (F := F) cc)
    isplitl [HL20]
    · iexists _; iexact HL20
    isplitl [HL21]
    · iexists _; iexact HL21
    iexists _; iexact HL22
  isplitl [HX]
  · iexact HX
  isplitl [HU00 HU01 HU02 HU03 HU10 HU11 HU12 HU13 HU20 HU21 HU22 HU23 HU30 HU31 HU32 HU33 HU40 HU41 HU42 HU43 HU50 HU51 HU52 HU53 HU60 HU61 HU62 HU63 HU70 HU71 HU72 HU73]
  · iapply (out_join (F := F) cc (out m cc))
    isplitl [HU00]
    · iexact HU00
    isplitl [HU01]
    · iexact HU01
    isplitl [HU02]
    · iexact HU02
    isplitl [HU03]
    · iexact HU03
    isplitl [HU10]
    · iexact HU10
    isplitl [HU11]
    · iexact HU11
    isplitl [HU12]
    · iexact HU12
    isplitl [HU13]
    · iexact HU13
    isplitl [HU20]
    · iexact HU20
    isplitl [HU21]
    · iexact HU21
    isplitl [HU22]
    · iexact HU22
    isplitl [HU23]
    · iexact HU23
    isplitl [HU30]
    · iexact HU30
    isplitl [HU31]
    · iexact HU31
    isplitl [HU32]
    · iexact HU32
    isplitl [HU33]
    · iexact HU33
    isplitl [HU40]
    · iexact HU40
    isplitl [HU41]
    · iexact HU41
    isplitl [HU42]
    · iexact HU42
    isplitl [HU43]
    · iexact HU43
    isplitl [HU50]
    · iexact HU50
    isplitl [HU51]
    · iexact HU51
    isplitl [HU52]
    · iexact HU52
    isplitl [HU53]
    · iexact HU53
    isplitl [HU60]
    · iexact HU60
    isplitl [HU61]
    · iexact HU61
    isplitl [HU62]
    · iexact HU62
    isplitl [HU63]
    · iexact HU63
    isplitl [HU70]
    · iexact HU70
    isplitl [HU71]
    · iexact HU71
    isplitl [HU72]
    · iexact HU72
    iexact HU73
  isplitl [Hv0 Hv1 Hv2 Hv3 Hv4 Hv5 Hv6 Hv7 Hv8 Hv9 Hv10 Hv11 Hv12 Hv13 Hv14 Hv15 Hv16 Hv17 Hv18 Hv19 Hv20 Hv21 Hv22 Hv23 Hv24 Hv25 Hv26 Hv27 Hv28 Hv29 Hv30 Hv31 Hv32 Hv33 Hv34 Hv35 Hv36 Hv37 Hv38 Hv39 Hv40 Hv41 Hv42 Hv43 Hv44 Hv45 Hv46 Hv47 Hv48 Hv49 Hv50 Hv51 Hv52 Hv53 Hv54 Hv55 Hv56 Hv57 Hv58 Hv59 Hv60 Hv61 Hv62 Hv63 Hv64 Hv65 Hv66 Hv67 Hv68 Hv69 Hv70 Hv71 Hv72 Hv73 Hv74 Hv75 Hu76 Hu77 Hu78 Hv79 Hv80 Hv81 Hv82 Hv83 Hu84 Hu85 Hu86 Hv87 Hv88 Hv89 Hv90 Hv91 Hu92 Hu93 Hu94 Hv95 Hv96 Hv97 Hv98 Hv99 Hu100 Hu101 Hu102 Hv103 Hv104 Hv105 Hv106 Hv107 Hw0a Hw0b Hw0c Hw0d Hw1a Hw1b Hw1c Hw1d Hw2a Hw2b Hw2c Hw2d Hw3a Hw3b Hw3c Hw3d Hw4a Hw4b Hw4c Hw4d Hw5a Hw5b Hw5c Hw5d Hw6a Hw6b Hw6c Hw6d Hw7a Hw7b Hw7c Hw7d]
  · iapply (Entails.of_eq (show (iprop(semVal (cellAt cc (⟨0, Nat.le_of_ble_eq_true rfl⟩ : Fin 140)) 0 ∗ semVal (cellAt cc (⟨1, Nat.le_of_ble_eq_true rfl⟩ : Fin 140)) 0 ∗ semVal (cellAt cc (⟨2, Nat.le_of_ble_eq_true rfl⟩ : Fin 140)) 0 ∗ semVal (cellAt cc (⟨3, Nat.le_of_ble_eq_true rfl⟩ : Fin 140)) 0 ∗ semVal (cellAt cc (⟨4, Nat.le_of_ble_eq_true rfl⟩ : Fin 140)) 0 ∗ semVal (cellAt cc (⟨5, Nat.le_of_ble_eq_true rfl⟩ : Fin 140)) 0 ∗ semVal (cellAt cc (⟨6, Nat.le_of_ble_eq_true rfl⟩ : Fin 140)) 0 ∗ semVal (cellAt cc (⟨7, Nat.le_of_ble_eq_true rfl⟩ : Fin 140)) 0 ∗ semVal (cellAt cc (⟨8, Nat.le_of_ble_eq_true rfl⟩ : Fin 140)) 0 ∗ semVal (cellAt cc (⟨9, Nat.le_of_ble_eq_true rfl⟩ : Fin 140)) 0 ∗ semVal (cellAt cc (⟨10, Nat.le_of_ble_eq_true rfl⟩ : Fin 140)) 0 ∗ semVal (cellAt cc (⟨11, Nat.le_of_ble_eq_true rfl⟩ : Fin 140)) 0 ∗ semVal (cellAt cc (⟨12, Nat.le_of_ble_eq_true rfl⟩ : Fin 140)) 0 ∗ semVal (cellAt cc (⟨13, Nat.le_of_ble_eq_true rfl⟩ : Fin 140)) 0 ∗ semVal (cellAt cc (⟨14, Nat.le_of_ble_eq_true rfl⟩ : Fin 140)) 0 ∗ semVal (cellAt cc (⟨15, Nat.le_of_ble_eq_true rfl⟩ : Fin 140)) 0 ∗ semVal (cellAt cc (⟨16, Nat.le_of_ble_eq_true rfl⟩ : Fin 140)) 0 ∗ semVal (cellAt cc (⟨17, Nat.le_of_ble_eq_true rfl⟩ : Fin 140)) 0 ∗ semVal (cellAt cc (⟨18, Nat.le_of_ble_eq_true rfl⟩ : Fin 140)) 0 ∗ semVal (cellAt cc (⟨19, Nat.le_of_ble_eq_true rfl⟩ : Fin 140)) 0 ∗ semVal (cellAt cc (⟨20, Nat.le_of_ble_eq_true rfl⟩ : Fin 140)) 0 ∗ semVal (cellAt cc (⟨21, Nat.le_of_ble_eq_true rfl⟩ : Fin 140)) 0 ∗ semVal (cellAt cc (⟨22, Nat.le_of_ble_eq_true rfl⟩ : Fin 140)) 0 ∗ semVal (cellAt cc (⟨23, Nat.le_of_ble_eq_true rfl⟩ : Fin 140)) 0 ∗ semVal (cellAt cc (⟨24, Nat.le_of_ble_eq_true rfl⟩ : Fin 140)) 0 ∗ semVal (cellAt cc (⟨25, Nat.le_of_ble_eq_true rfl⟩ : Fin 140)) 0 ∗ semVal (cellAt cc (⟨26, Nat.le_of_ble_eq_true rfl⟩ : Fin 140)) 0 ∗ semVal (cellAt cc (⟨27, Nat.le_of_ble_eq_true rfl⟩ : Fin 140)) 0 ∗ semVal (cellAt cc (⟨28, Nat.le_of_ble_eq_true rfl⟩ : Fin 140)) 0 ∗ semVal (cellAt cc (⟨29, Nat.le_of_ble_eq_true rfl⟩ : Fin 140)) 0 ∗ semVal (cellAt cc (⟨30, Nat.le_of_ble_eq_true rfl⟩ : Fin 140)) 0 ∗ semVal (cellAt cc (⟨31, Nat.le_of_ble_eq_true rfl⟩ : Fin 140)) 0 ∗ semVal (cellAt cc (⟨32, Nat.le_of_ble_eq_true rfl⟩ : Fin 140)) 0 ∗ semVal (cellAt cc (⟨33, Nat.le_of_ble_eq_true rfl⟩ : Fin 140)) 0 ∗ semVal (cellAt cc (⟨34, Nat.le_of_ble_eq_true rfl⟩ : Fin 140)) 0 ∗ semVal (cellAt cc (⟨35, Nat.le_of_ble_eq_true rfl⟩ : Fin 140)) 0 ∗ semVal (cellAt cc (⟨36, Nat.le_of_ble_eq_true rfl⟩ : Fin 140)) 0 ∗ semVal (cellAt cc (⟨37, Nat.le_of_ble_eq_true rfl⟩ : Fin 140)) 0 ∗ semVal (cellAt cc (⟨38, Nat.le_of_ble_eq_true rfl⟩ : Fin 140)) 0 ∗ semVal (cellAt cc (⟨39, Nat.le_of_ble_eq_true rfl⟩ : Fin 140)) 0 ∗ semVal (cellAt cc (⟨40, Nat.le_of_ble_eq_true rfl⟩ : Fin 140)) 0 ∗ semVal (cellAt cc (⟨41, Nat.le_of_ble_eq_true rfl⟩ : Fin 140)) 0 ∗ semVal (cellAt cc (⟨42, Nat.le_of_ble_eq_true rfl⟩ : Fin 140)) 0 ∗ semVal (cellAt cc (⟨43, Nat.le_of_ble_eq_true rfl⟩ : Fin 140)) 0 ∗ semVal (cellAt cc (⟨44, Nat.le_of_ble_eq_true rfl⟩ : Fin 140)) 0 ∗ semVal (cellAt cc (⟨45, Nat.le_of_ble_eq_true rfl⟩ : Fin 140)) 0 ∗ semVal (cellAt cc (⟨46, Nat.le_of_ble_eq_true rfl⟩ : Fin 140)) 0 ∗ semVal (cellAt cc (⟨47, Nat.le_of_ble_eq_true rfl⟩ : Fin 140)) 0 ∗ semVal (cellAt cc (⟨48, Nat.le_of_ble_eq_true rfl⟩ : Fin 140)) 0 ∗ semVal (cellAt cc (⟨49, Nat.le_of_ble_eq_true rfl⟩ : Fin 140)) 0 ∗ semVal (cellAt cc (⟨50, Nat.le_of_ble_eq_true rfl⟩ : Fin 140)) 0 ∗ semVal (cellAt cc (⟨51, Nat.le_of_ble_eq_true rfl⟩ : Fin 140)) 0 ∗ semVal (cellAt cc (⟨52, Nat.le_of_ble_eq_true rfl⟩ : Fin 140)) 0 ∗ semVal (cellAt cc (⟨53, Nat.le_of_ble_eq_true rfl⟩ : Fin 140)) 0 ∗ semVal (cellAt cc (⟨54, Nat.le_of_ble_eq_true rfl⟩ : Fin 140)) 0 ∗ semVal (cellAt cc (⟨55, Nat.le_of_ble_eq_true rfl⟩ : Fin 140)) 0 ∗ semVal (cellAt cc (⟨56, Nat.le_of_ble_eq_true rfl⟩ : Fin 140)) 0 ∗ semVal (cellAt cc (⟨57, Nat.le_of_ble_eq_true rfl⟩ : Fin 140)) 0 ∗ semVal (cellAt cc (⟨58, Nat.le_of_ble_eq_true rfl⟩ : Fin 140)) 0 ∗ semVal (cellAt cc (⟨59, Nat.le_of_ble_eq_true rfl⟩ : Fin 140)) 0 ∗ semVal (cellAt cc (⟨60, Nat.le_of_ble_eq_true rfl⟩ : Fin 140)) 0 ∗ semVal (cellAt cc (⟨61, Nat.le_of_ble_eq_true rfl⟩ : Fin 140)) 0 ∗ semVal (cellAt cc (⟨62, Nat.le_of_ble_eq_true rfl⟩ : Fin 140)) 0 ∗ semVal (cellAt cc (⟨63, Nat.le_of_ble_eq_true rfl⟩ : Fin 140)) 0 ∗ semVal (cellAt cc (⟨64, Nat.le_of_ble_eq_true rfl⟩ : Fin 140)) 0 ∗ semVal (cellAt cc (⟨65, Nat.le_of_ble_eq_true rfl⟩ : Fin 140)) 0 ∗ semVal (cellAt cc (⟨66, Nat.le_of_ble_eq_true rfl⟩ : Fin 140)) 0 ∗ semVal (cellAt cc (⟨67, Nat.le_of_ble_eq_true rfl⟩ : Fin 140)) 0 ∗ semVal (cellAt cc (⟨68, Nat.le_of_ble_eq_true rfl⟩ : Fin 140)) 0 ∗ semVal (cellAt cc (⟨69, Nat.le_of_ble_eq_true rfl⟩ : Fin 140)) 0 ∗ semVal (cellAt cc (⟨70, Nat.le_of_ble_eq_true rfl⟩ : Fin 140)) 0 ∗ semVal (cellAt cc (⟨71, Nat.le_of_ble_eq_true rfl⟩ : Fin 140)) 0 ∗ semVal (cellAt cc (⟨72, Nat.le_of_ble_eq_true rfl⟩ : Fin 140)) 0 ∗ semVal (cellAt cc (⟨73, Nat.le_of_ble_eq_true rfl⟩ : Fin 140)) 0 ∗ semVal (cellAt cc (⟨74, Nat.le_of_ble_eq_true rfl⟩ : Fin 140)) 0 ∗ semVal (cellAt cc (⟨75, Nat.le_of_ble_eq_true rfl⟩ : Fin 140)) 0 ∗ semVal (cellAt cc (⟨76, Nat.le_of_ble_eq_true rfl⟩ : Fin 140)) 0 ∗ semVal (cellAt cc (⟨77, Nat.le_of_ble_eq_true rfl⟩ : Fin 140)) 0 ∗ semVal (cellAt cc (⟨78, Nat.le_of_ble_eq_true rfl⟩ : Fin 140)) 0 ∗ semVal (cellAt cc (⟨79, Nat.le_of_ble_eq_true rfl⟩ : Fin 140)) 0 ∗ semVal (cellAt cc (⟨80, Nat.le_of_ble_eq_true rfl⟩ : Fin 140)) 0 ∗ semVal (cellAt cc (⟨81, Nat.le_of_ble_eq_true rfl⟩ : Fin 140)) 0 ∗ semVal (cellAt cc (⟨82, Nat.le_of_ble_eq_true rfl⟩ : Fin 140)) 0 ∗ semVal (cellAt cc (⟨83, Nat.le_of_ble_eq_true rfl⟩ : Fin 140)) 0 ∗ semVal (cellAt cc (⟨84, Nat.le_of_ble_eq_true rfl⟩ : Fin 140)) 0 ∗ semVal (cellAt cc (⟨85, Nat.le_of_ble_eq_true rfl⟩ : Fin 140)) 0 ∗ semVal (cellAt cc (⟨86, Nat.le_of_ble_eq_true rfl⟩ : Fin 140)) 0 ∗ semVal (cellAt cc (⟨87, Nat.le_of_ble_eq_true rfl⟩ : Fin 140)) 0 ∗ semVal (cellAt cc (⟨88, Nat.le_of_ble_eq_true rfl⟩ : Fin 140)) 0 ∗ semVal (cellAt cc (⟨89, Nat.le_of_ble_eq_true rfl⟩ : Fin 140)) 0 ∗ semVal (cellAt cc (⟨90, Nat.le_of_ble_eq_true rfl⟩ : Fin 140)) 0 ∗ semVal (cellAt cc (⟨91, Nat.le_of_ble_eq_true rfl⟩ : Fin 140)) 0 ∗ semVal (cellAt cc (⟨92, Nat.le_of_ble_eq_true rfl⟩ : Fin 140)) 0 ∗ semVal (cellAt cc (⟨93, Nat.le_of_ble_eq_true rfl⟩ : Fin 140)) 0 ∗ semVal (cellAt cc (⟨94, Nat.le_of_ble_eq_true rfl⟩ : Fin 140)) 0 ∗ semVal (cellAt cc (⟨95, Nat.le_of_ble_eq_true rfl⟩ : Fin 140)) 0 ∗ semVal (cellAt cc (⟨96, Nat.le_of_ble_eq_true rfl⟩ : Fin 140)) 0 ∗ semVal (cellAt cc (⟨97, Nat.le_of_ble_eq_true rfl⟩ : Fin 140)) 0 ∗ semVal (cellAt cc (⟨98, Nat.le_of_ble_eq_true rfl⟩ : Fin 140)) 0 ∗ semVal (cellAt cc (⟨99, Nat.le_of_ble_eq_true rfl⟩ : Fin 140)) 0 ∗ semVal (cellAt cc (⟨100, Nat.le_of_ble_eq_true rfl⟩ : Fin 140)) 0 ∗ semVal (cellAt cc (⟨101, Nat.le_of_ble_eq_true rfl⟩ : Fin 140)) 0 ∗ semVal (cellAt cc (⟨102, Nat.le_of_ble_eq_true rfl⟩ : Fin 140)) 0 ∗ semVal (cellAt cc (⟨103, Nat.le_of_ble_eq_true rfl⟩ : Fin 140)) 0 ∗ semVal (cellAt cc (⟨104, Nat.le_of_ble_eq_true rfl⟩ : Fin 140)) 0 ∗ semVal (cellAt cc (⟨105, Nat.le_of_ble_eq_true rfl⟩ : Fin 140)) 0 ∗ semVal (cellAt cc (⟨106, Nat.le_of_ble_eq_true rfl⟩ : Fin 140)) 0 ∗ semVal (cellAt cc (⟨107, Nat.le_of_ble_eq_true rfl⟩ : Fin 140)) 0 ∗ semVal (cellAt cc (⟨108, Nat.le_of_ble_eq_true rfl⟩ : Fin 140)) 0 ∗ semVal (cellAt cc (⟨109, Nat.le_of_ble_eq_true rfl⟩ : Fin 140)) 0 ∗ semVal (cellAt cc (⟨110, Nat.le_of_ble_eq_true rfl⟩ : Fin 140)) 0 ∗ semVal (cellAt cc (⟨111, Nat.le_of_ble_eq_true rfl⟩ : Fin 140)) 0 ∗ semVal (cellAt cc (⟨112, Nat.le_of_ble_eq_true rfl⟩ : Fin 140)) 0 ∗ semVal (cellAt cc (⟨113, Nat.le_of_ble_eq_true rfl⟩ : Fin 140)) 0 ∗ semVal (cellAt cc (⟨114, Nat.le_of_ble_eq_true rfl⟩ : Fin 140)) 0 ∗ semVal (cellAt cc (⟨115, Nat.le_of_ble_eq_true rfl⟩ : Fin 140)) 0 ∗ semVal (cellAt cc (⟨116, Nat.le_of_ble_eq_true rfl⟩ : Fin 140)) 0 ∗ semVal (cellAt cc (⟨117, Nat.le_of_ble_eq_true rfl⟩ : Fin 140)) 0 ∗ semVal (cellAt cc (⟨118, Nat.le_of_ble_eq_true rfl⟩ : Fin 140)) 0 ∗ semVal (cellAt cc (⟨119, Nat.le_of_ble_eq_true rfl⟩ : Fin 140)) 0 ∗ semVal (cellAt cc (⟨120, Nat.le_of_ble_eq_true rfl⟩ : Fin 140)) 0 ∗ semVal (cellAt cc (⟨121, Nat.le_of_ble_eq_true rfl⟩ : Fin 140)) 0 ∗ semVal (cellAt cc (⟨122, Nat.le_of_ble_eq_true rfl⟩ : Fin 140)) 0 ∗ semVal (cellAt cc (⟨123, Nat.le_of_ble_eq_true rfl⟩ : Fin 140)) 0 ∗ semVal (cellAt cc (⟨124, Nat.le_of_ble_eq_true rfl⟩ : Fin 140)) 0 ∗ semVal (cellAt cc (⟨125, Nat.le_of_ble_eq_true rfl⟩ : Fin 140)) 0 ∗ semVal (cellAt cc (⟨126, Nat.le_of_ble_eq_true rfl⟩ : Fin 140)) 0 ∗ semVal (cellAt cc (⟨127, Nat.le_of_ble_eq_true rfl⟩ : Fin 140)) 0 ∗ semVal (cellAt cc (⟨128, Nat.le_of_ble_eq_true rfl⟩ : Fin 140)) 0 ∗ semVal (cellAt cc (⟨129, Nat.le_of_ble_eq_true rfl⟩ : Fin 140)) 0 ∗ semVal (cellAt cc (⟨130, Nat.le_of_ble_eq_true rfl⟩ : Fin 140)) 0 ∗ semVal (cellAt cc (⟨131, Nat.le_of_ble_eq_true rfl⟩ : Fin 140)) 0 ∗ semVal (cellAt cc (⟨132, Nat.le_of_ble_eq_true rfl⟩ : Fin 140)) 0 ∗ semVal (cellAt cc (⟨133, Nat.le_of_ble_eq_true rfl⟩ : Fin 140)) 0 ∗ semVal (cellAt cc (⟨134, Nat.le_of_ble_eq_true rfl⟩ : Fin 140)) 0 ∗ semVal (cellAt cc (⟨135, Nat.le_of_ble_eq_true rfl⟩ : Fin 140)) 0 ∗ semVal (cellAt cc (⟨136, Nat.le_of_ble_eq_true rfl⟩ : Fin 140)) 0 ∗ semVal (cellAt cc (⟨137, Nat.le_of_ble_eq_true rfl⟩ : Fin 140)) 0 ∗ semVal (cellAt cc (⟨138, Nat.le_of_ble_eq_true rfl⟩ : Fin 140)) 0 ∗ semVal (cellAt cc (⟨139, Nat.le_of_ble_eq_true rfl⟩ : Fin 140)) 0) : sProp 𝕄) = (bigSepL allJ fun j => semVal (cellAt cc j) 0) from rfl))
    isplitl [Hv0]
    · iexact Hv0
    isplitl [Hv1]
    · iexact Hv1
    isplitl [Hv2]
    · iexact Hv2
    isplitl [Hv3]
    · iexact Hv3
    isplitl [Hv4]
    · iexact Hv4
    isplitl [Hv5]
    · iexact Hv5
    isplitl [Hv6]
    · iexact Hv6
    isplitl [Hv7]
    · iexact Hv7
    isplitl [Hv8]
    · iexact Hv8
    isplitl [Hv9]
    · iexact Hv9
    isplitl [Hv10]
    · iexact Hv10
    isplitl [Hv11]
    · iexact Hv11
    isplitl [Hv12]
    · iexact Hv12
    isplitl [Hv13]
    · iexact Hv13
    isplitl [Hv14]
    · iexact Hv14
    isplitl [Hv15]
    · iexact Hv15
    isplitl [Hv16]
    · iexact Hv16
    isplitl [Hv17]
    · iexact Hv17
    isplitl [Hv18]
    · iexact Hv18
    isplitl [Hv19]
    · iexact Hv19
    isplitl [Hv20]
    · iexact Hv20
    isplitl [Hv21]
    · iexact Hv21
    isplitl [Hv22]
    · iexact Hv22
    isplitl [Hv23]
    · iexact Hv23
    isplitl [Hv24]
    · iexact Hv24
    isplitl [Hv25]
    · iexact Hv25
    isplitl [Hv26]
    · iexact Hv26
    isplitl [Hv27]
    · iexact Hv27
    isplitl [Hv28]
    · iexact Hv28
    isplitl [Hv29]
    · iexact Hv29
    isplitl [Hv30]
    · iexact Hv30
    isplitl [Hv31]
    · iexact Hv31
    isplitl [Hv32]
    · iexact Hv32
    isplitl [Hv33]
    · iexact Hv33
    isplitl [Hv34]
    · iexact Hv34
    isplitl [Hv35]
    · iexact Hv35
    isplitl [Hv36]
    · iexact Hv36
    isplitl [Hv37]
    · iexact Hv37
    isplitl [Hv38]
    · iexact Hv38
    isplitl [Hv39]
    · iexact Hv39
    isplitl [Hv40]
    · iexact Hv40
    isplitl [Hv41]
    · iexact Hv41
    isplitl [Hv42]
    · iexact Hv42
    isplitl [Hv43]
    · iexact Hv43
    isplitl [Hv44]
    · iexact Hv44
    isplitl [Hv45]
    · iexact Hv45
    isplitl [Hv46]
    · iexact Hv46
    isplitl [Hv47]
    · iexact Hv47
    isplitl [Hv48]
    · iexact Hv48
    isplitl [Hv49]
    · iexact Hv49
    isplitl [Hv50]
    · iexact Hv50
    isplitl [Hv51]
    · iexact Hv51
    isplitl [Hv52]
    · iexact Hv52
    isplitl [Hv53]
    · iexact Hv53
    isplitl [Hv54]
    · iexact Hv54
    isplitl [Hv55]
    · iexact Hv55
    isplitl [Hv56]
    · iexact Hv56
    isplitl [Hv57]
    · iexact Hv57
    isplitl [Hv58]
    · iexact Hv58
    isplitl [Hv59]
    · iexact Hv59
    isplitl [Hv60]
    · iexact Hv60
    isplitl [Hv61]
    · iexact Hv61
    isplitl [Hv62]
    · iexact Hv62
    isplitl [Hv63]
    · iexact Hv63
    isplitl [Hv64]
    · iexact Hv64
    isplitl [Hv65]
    · iexact Hv65
    isplitl [Hv66]
    · iexact Hv66
    isplitl [Hv67]
    · iexact Hv67
    isplitl [Hv68]
    · iexact Hv68
    isplitl [Hv69]
    · iexact Hv69
    isplitl [Hv70]
    · iexact Hv70
    isplitl [Hv71]
    · iexact Hv71
    isplitl [Hv72]
    · iexact Hv72
    isplitl [Hv73]
    · iexact Hv73
    isplitl [Hv74]
    · iexact Hv74
    isplitl [Hv75]
    · iexact Hv75
    isplitl [Hu76]
    · iexact Hu76
    isplitl [Hu77]
    · iexact Hu77
    isplitl [Hu78]
    · iexact Hu78
    isplitl [Hv79]
    · iexact Hv79
    isplitl [Hv80]
    · iexact Hv80
    isplitl [Hv81]
    · iexact Hv81
    isplitl [Hv82]
    · iexact Hv82
    isplitl [Hv83]
    · iexact Hv83
    isplitl [Hu84]
    · iexact Hu84
    isplitl [Hu85]
    · iexact Hu85
    isplitl [Hu86]
    · iexact Hu86
    isplitl [Hv87]
    · iexact Hv87
    isplitl [Hv88]
    · iexact Hv88
    isplitl [Hv89]
    · iexact Hv89
    isplitl [Hv90]
    · iexact Hv90
    isplitl [Hv91]
    · iexact Hv91
    isplitl [Hu92]
    · iexact Hu92
    isplitl [Hu93]
    · iexact Hu93
    isplitl [Hu94]
    · iexact Hu94
    isplitl [Hv95]
    · iexact Hv95
    isplitl [Hv96]
    · iexact Hv96
    isplitl [Hv97]
    · iexact Hv97
    isplitl [Hv98]
    · iexact Hv98
    isplitl [Hv99]
    · iexact Hv99
    isplitl [Hu100]
    · iexact Hu100
    isplitl [Hu101]
    · iexact Hu101
    isplitl [Hu102]
    · iexact Hu102
    isplitl [Hv103]
    · iexact Hv103
    isplitl [Hv104]
    · iexact Hv104
    isplitl [Hv105]
    · iexact Hv105
    isplitl [Hv106]
    · iexact Hv106
    isplitl [Hv107]
    · iexact Hv107
    isplitl [Hw0a]
    · iexact Hw0a
    isplitl [Hw0b]
    · iexact Hw0b
    isplitl [Hw0c]
    · iexact Hw0c
    isplitl [Hw0d]
    · iexact Hw0d
    isplitl [Hw1a]
    · iexact Hw1a
    isplitl [Hw1b]
    · iexact Hw1b
    isplitl [Hw1c]
    · iexact Hw1c
    isplitl [Hw1d]
    · iexact Hw1d
    isplitl [Hw2a]
    · iexact Hw2a
    isplitl [Hw2b]
    · iexact Hw2b
    isplitl [Hw2c]
    · iexact Hw2c
    isplitl [Hw2d]
    · iexact Hw2d
    isplitl [Hw3a]
    · iexact Hw3a
    isplitl [Hw3b]
    · iexact Hw3b
    isplitl [Hw3c]
    · iexact Hw3c
    isplitl [Hw3d]
    · iexact Hw3d
    isplitl [Hw4a]
    · iexact Hw4a
    isplitl [Hw4b]
    · iexact Hw4b
    isplitl [Hw4c]
    · iexact Hw4c
    isplitl [Hw4d]
    · iexact Hw4d
    isplitl [Hw5a]
    · iexact Hw5a
    isplitl [Hw5b]
    · iexact Hw5b
    isplitl [Hw5c]
    · iexact Hw5c
    isplitl [Hw5d]
    · iexact Hw5d
    isplitl [Hw6a]
    · iexact Hw6a
    isplitl [Hw6b]
    · iexact Hw6b
    isplitl [Hw6c]
    · iexact Hw6c
    isplitl [Hw6d]
    · iexact Hw6d
    isplitl [Hw7a]
    · iexact Hw7a
    isplitl [Hw7b]
    · iexact Hw7b
    isplitl [Hw7c]
    · iexact Hw7c
    iexact Hw7d
  iexists _; iexact HO

end Cert.KernelIdeal.RS.D2

end
-- ==== Proof.Body3.lean ====
import proofs.«901022_g7700000000001023_dist_rs_v7x_xyz2x2x2_x_m4096_n1024_bf16_1_alg».proof.Proof.BodyAux
import proofs.«901022_g7700000000001023_dist_rs_v7x_xyz2x2x2_x_m4096_n1024_bf16_1_alg».proof.Proof.BodyPre
import proofs.«901022_g7700000000001023_dist_rs_v7x_xyz2x2x2_x_m4096_n1024_bf16_1_alg».proof.Proof.OutRules

/-! The body of the kernel on device 3 of the mesh, from its precondition (BodyPre) to its postcondition (bodyPost).

    The program is straight-line code of 4045 statements. Its local steps — the 54 copies between the input, the staging
    buffers, the four-quarter buffer and the result, their waits, the loads and the stores — are run by the library's symbolic
    executor on hypotheses that hold each 512-row chunk through the slice the program itself names. Its remote steps are
    taken by the rounds library's rules, one application each: three barrier signals and the wait for the three
    neighbours; 37 copies to a neighbour, each lending the source chunk (at a share, where the chunk is also read by another
    copy) and landing the chunk's final contents; the waits on the 37 receive cells, which hand back the landed chunks; the
    final waits on the 37 send cells, which hand back what was lent. Whenever a chunk has been written (by a landing copy or
    by a store) it is restated as "holds its final contents" (Spec), which is what the next copy's payload asks for.
    A wait is allowed because whatever the device still owes at that point lies above the awaited cell (Owed): decided on the
    list of payments not yet made. At the end every cell has had its one round and is closed, and the pieces of every
    buffer are put back. -/

set_option maxRecDepth 8000

noncomputable section

namespace Cert.KernelIdeal.RS.D3

open Cert.KernelIdeal Cert.KernelIdeal.Gen Cert.KernelIdeal.RS
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local notation "cc" => (Fin.mk 3 (Nat.le_of_ble_eq_true rfl) : Dev nD)

set_option maxHeartbeats 1600000 in
theorem dev (m : (ℓ : Loc nD τ sig) → Buf (Elt F) ℓ) (K : GSem nD τ sig → ℕ) (W : Waits sig Unit) (Kt : PUnit → sProp 𝕄) :
    iprop(bodyPre m K cc W ∗ (bodyPost m cc -∗ Kt ⟨⟩))
      ⊢ wp frame (wpE (defs₀ (F := F)) 𝒱₀ (cc : Thread nD τ) none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25) Kt := by
  unfold bodyPre O₀
  iintro ⟨⟨HIt, HIw, HRt, #Hlev, HO, Hcr, HpR, HpS, Htk, HX, Hout, HS0, HS1, HS2, HS3, HS4, HS5, HS6, HS7, HS8, HvI, HvO, HvU⟩, Hk⟩
  rw [cc0_body_eq_skeleton]; unfold cc0_body_skel
  -- the four-quarter buffer in the pieces that travel
  ihave H0 := (Entails.of_eq (junk_whole (F := F) cc cc0_scratch0)) $$ HS0
  icases H0 with ⟨%f0, H0⟩
  ihave H4 := (r4_entry (F := F) cc f0) $$ H0
  icases H4 with ⟨Hown, HgZ, HgY, Hdg, HhZ, HhY⟩
  sl_exec

  icases Htk with ⟨Htb, Htk⟩
  icases HIt with ⟨#HIbpx, HIt⟩
  icases HRt with ⟨#HRbpx, HRt⟩
  iapply (sig_bar m cc _ (px cc) (dev1_eq cc) 0 (by decide) (owedL (List.drop 1 (paysL cc))) rfl) $$ [HO Htb HS2 HS4]
  · isplitr; · iexact HIbpx
    isplitl [HO]; · iexact HO
    isplitl [Htb]; · iexact Htb
    isplitl [HS2 HS4]
    · iapply (Entails.of_eq ((barPay_zero (F := F) (px cc)).trans (by rw [px_px])).symm)
      unfold giveX
      isplitl [HS2]; · iexact HS2
      iexact HS4
    · iexact HRbpx
  iintro HO
  sl_exec

  icases Htk with ⟨Htb, Htk⟩
  icases HIt with ⟨#HIbpz, HIt⟩
  icases HRt with ⟨#HRbpz, HRt⟩
  iapply (sig_bar m cc _ (pz cc) (dev2_eq cc) 2 (by decide) (owedL (List.drop 2 (paysL cc))) rfl) $$ [HO Htb HgZ HhZ]
  · isplitr; · iexact HIbpz
    isplitl [HO]; · iexact HO
    isplitl [Htb]; · iexact Htb
    isplitl [HgZ HhZ]
    · iapply (Entails.of_eq ((barPay_two (F := F) (pz cc)).trans (by rw [pz_pz])).symm)
      isplitl [HgZ]; · iexact HgZ
      iexact HhZ
    · iexact HRbpz
  iintro HO
  sl_exec

  icases Htk with ⟨Htb, Htk⟩
  icases HIt with ⟨#HIbpy, HIt⟩
  icases HRt with ⟨#HRbpy, HRt⟩
  iapply (sig_bar m cc _ (py cc) (dev3_eq cc) 1 (by decide) (owedL (List.drop 3 (paysL cc))) rfl) $$ [HO Htb HgY HhY]
  · isplitr; · iexact HIbpy
    isplitl [HO]; · iexact HO
    isplitl [Htb]; · iexact Htb
    isplitl [HgY HhY]
    · iapply (Entails.of_eq ((barPay_one (F := F) (py cc)).trans (by rw [py_py])).symm)
      isplitl [HgY]; · iexact HgY
      iexact HhY
    · iexact HRbpy
  iintro HO
  sl_exec
  -- the wait for the three neighbours
  icases Hcr with ⟨Hcb, Hcr⟩
  icases HpR with ⟨Hpb, HpR⟩
  icases HIw with ⟨#HIb, HIw⟩
  ihave Hmw := (mayWait_list (F := F) cc (.reg barS) (List.drop 3 (paysL cc)) (by decide)) $$ Hlev
  iapply (wait_bar m cc (by decide)) $$ [Hcb HO Hmw Hpb]
  · isplitr; · iexact HIb
    isplitl [Hcb]; · iexact Hcb
    isplitl [HO]; · iexact HO
    isplitl [Hmw]; · iexact Hmw
    iexact Hpb
  iintro ⟨HO, Hpb, -, Hgx, Hgy, Hgz⟩
  -- what they handed over: the x-neighbour's landing buffers chunk by chunk, the y- and z-neighbours' quarter and halves
  ihave Hgx := (Entails.of_eq (barPay_zero (F := F) cc)) $$ Hgx
  ihave Hgx := (giveX_rows (F := F) (px cc)) $$ Hgx
  icases Hgx with ⟨Hrbp, Hrb2p⟩
  ihave Hgy := (Entails.of_eq (barPay_one (F := F) cc)) $$ Hgy
  icases Hgy with ⟨HqY, HhYp⟩
  ihave Hgz := (Entails.of_eq (barPay_two (F := F) cc)) $$ Hgz
  icases Hgz with ⟨HqZ, HhZp⟩
  -- this device's staging buffers and send buffers chunk by chunk
  ihave H5 := (Entails.of_eq (junk_whole (F := F) cc cc0_scratch5)) $$ HS5
  icases H5 with ⟨%f5, H5⟩
  ihave H5 := (Entails.of_eq (stP_rows (F := F) cc fullShare f5)) $$ H5
  icases H5 with ⟨HP0, HP1, HP2, HP3, HP4, HP5, HP6, HP7⟩
  ihave H6 := (Entails.of_eq (junk_whole (F := F) cc cc0_scratch6)) $$ HS6
  icases H6 with ⟨%f6, H6⟩
  ihave H6 := (Entails.of_eq (stL_rows (F := F) cc fullShare f6)) $$ H6
  icases H6 with ⟨HL0, HL1, HL2, HL3, HL4, HL5, HL6, HL7⟩
  ihave H7 := (Entails.of_eq (junk_whole (F := F) cc cc0_scratch7)) $$ HS7
  icases H7 with ⟨%f7, H7⟩
  ihave H7 := (Entails.of_eq (stP2_rows (F := F) cc fullShare f7)) $$ H7
  icases H7 with ⟨HP20, HP21, HP22⟩
  ihave H8 := (Entails.of_eq (junk_whole (F := F) cc cc0_scratch8)) $$ HS8
  icases H8 with ⟨%f8, H8⟩
  ihave H8 := (Entails.of_eq (stL2_rows (F := F) cc fullShare f8)) $$ H8
  icases H8 with ⟨HL20, HL21, HL22⟩
  ihave H1 := (Entails.of_eq (junk_whole (F := F) cc cc0_scratch1)) $$ HS1
  icases H1 with ⟨%f1, H1⟩
  ihave H1 := (Entails.of_eq (sb_rows (F := F) cc fullShare f1)) $$ H1
  icases H1 with ⟨HB0, HB1, HB2, HB3, HB4, HB5, HB6, HB7⟩
  ihave H3 := (Entails.of_eq (junk_whole (F := F) cc cc0_scratch3)) $$ HS3
  icases H3 with ⟨%f3, H3⟩
  ihave H3 := (Entails.of_eq (sb2_rows (F := F) cc fullShare f3)) $$ H3
  icases H3 with ⟨HB20, HB21, HB22⟩
  -- the counters of the 22 copies into the staging buffers
  icases HvI with ⟨Hv0, Hv8, Hv1, Hv9, Hv2, Hv10, Hv3, Hv11, Hv4, Hv12, Hv5, Hv13, Hv6, Hv14, Hv7, Hv15, Hv16, Hv19, Hv17, Hv20, Hv18, Hv21⟩
  sl_exec
  -- chunk 0 across x: wait for its copy into the staging buffer, round it into the send buffer, send it
  have hled3 : ∀ (s : DmaSem sig), lvJ s.val = 0 → ((levAts LL lvv : sProp 𝕄) ⊢ MayWait (cc : Thread nD τ) (.dma s) () (owedL (List.drop 3 (paysL cc)))) :=
    fun s hs => mayWait_local (F := F) cc s hs _ (by decide)
  sl_exec
  clear hled3
  ihave HB0 := (congr (F := F) (sbR 0) cc fullShare (dev.sl.HB0_w1 m f1) (sb m cc) (fun i hi => glue_sb m cc 0 _ (k0_off1_inb cc) (k0_off1_eq cc) f1 i hi)) $$ HB0
  -- the copy
  icases Htk with ⟨Hts, Htr, Htk⟩
  icases HIt with ⟨#HIc22, #HIr, HIt⟩
  icases HRt with ⟨#HRs, #HRr, HRt⟩
  icases Hrbp with ⟨⟨%fd, Hd⟩, Hrbp⟩
  iapply (send_x m cc _ (dev4_eq cc) 0 fd (owedL (List.drop 4 (paysL cc))) rfl _) $$ [HB0 Hd HO Hts Htr]
  · isplitr; · iexact HIc22
    isplitr; · iexact HIr
    isplitl [HB0]; · iexact HB0
    isplitl [Hd]; · iexact Hd
    isplitl [HO]; · iexact HO
    isplitl [Hts]; · iexact Hts
    isplitr; · iexact HRs
    isplitl [Htr]; · iexact Htr
    iexact HRr
  iintro ⟨Hcxs0, HO⟩
  iclear HIr HRs HRr
  -- chunk 1 across x: wait for its copy into the staging buffer, round it into the send buffer, send it
  have hled4 : ∀ (s : DmaSem sig), lvJ s.val = 0 → ((levAts LL lvv : sProp 𝕄) ⊢ MayWait (cc : Thread nD τ) (.dma s) () (owedL (List.drop 4 (paysL cc)))) :=
    fun s hs => mayWait_local (F := F) cc s hs _ (by decide)
  sl_exec
  clear hled4
  ihave HB1 := (congr (F := F) (sbR 1) cc fullShare (dev.sl.HB1_w1 m f1) (sb m cc) (fun i hi => glue_sb m cc 1 _ (k0_off3_inb cc) (k0_off3_eq cc) f1 i hi)) $$ HB1
  -- the copy
  icases Htk with ⟨Hts, Htr, Htk⟩
  icases HIt with ⟨#HIc23, #HIr, HIt⟩
  icases HRt with ⟨#HRs, #HRr, HRt⟩
  icases Hrbp with ⟨⟨%fd, Hd⟩, Hrbp⟩
  iapply (send_x m cc _ (dev5_eq cc) 1 fd (owedL (List.drop 5 (paysL cc))) rfl _) $$ [HB1 Hd HO Hts Htr]
  · isplitr; · iexact HIc23
    isplitr; · iexact HIr
    isplitl [HB1]; · iexact HB1
    isplitl [Hd]; · iexact Hd
    isplitl [HO]; · iexact HO
    isplitl [Hts]; · iexact Hts
    isplitr; · iexact HRs
    isplitl [Htr]; · iexact Htr
    iexact HRr
  iintro ⟨Hcxs1, HO⟩
  iclear HIr HRs HRr
  -- chunk 2 across x: wait for its copy into the staging buffer, round it into the send buffer, send it
  have hled5 : ∀ (s : DmaSem sig), lvJ s.val = 0 → ((levAts LL lvv : sProp 𝕄) ⊢ MayWait (cc : Thread nD τ) (.dma s) () (owedL (List.drop 5 (paysL cc)))) :=
    fun s hs => mayWait_local (F := F) cc s hs _ (by decide)
  sl_exec
  clear hled5
  ihave HB2 := (congr (F := F) (sbR 2) cc fullShare (dev.sl.HB2_w1 m f1) (sb m cc) (fun i hi => glue_sb m cc 2 _ (k0_off5_inb cc) (k0_off5_eq cc) f1 i hi)) $$ HB2
  -- the copy
  icases Htk with ⟨Hts, Htr, Htk⟩
  icases HIt with ⟨#HIc24, #HIr, HIt⟩
  icases HRt with ⟨#HRs, #HRr, HRt⟩
  icases Hrbp with ⟨⟨%fd, Hd⟩, Hrbp⟩
  iapply (send_x m cc _ (dev6_eq cc) 2 fd (owedL (List.drop 6 (paysL cc))) rfl _) $$ [HB2 Hd HO Hts Htr]
  · isplitr; · iexact HIc24
    isplitr; · iexact HIr
    isplitl [HB2]; · iexact HB2
    isplitl [Hd]; · iexact Hd
    isplitl [HO]; · iexact HO
    isplitl [Hts]; · iexact Hts
    isplitr; · iexact HRs
    isplitl [Htr]; · iexact Htr
    iexact HRr
  iintro ⟨Hcxs2, HO⟩
  iclear HIr HRs HRr
  -- chunk 3 across x: wait for its copy into the staging buffer, round it into the send buffer, send it
  have hled6 : ∀ (s : DmaSem sig), lvJ s.val = 0 → ((levAts LL lvv : sProp 𝕄) ⊢ MayWait (cc : Thread nD τ) (.dma s) () (owedL (List.drop 6 (paysL cc)))) :=
    fun s hs => mayWait_local (F := F) cc s hs _ (by decide)
  sl_exec
  clear hled6
  ihave HB3 := (congr (F := F) (sbR 3) cc fullShare (dev.sl.HB3_w1 m f1) (sb m cc) (fun i hi => glue_sb m cc 3 _ (k0_off7_inb cc) (k0_off7_eq cc) f1 i hi)) $$ HB3
  -- the copy
  icases Htk with ⟨Hts, Htr, Htk⟩
  icases HIt with ⟨#HIc25, #HIr, HIt⟩
  icases HRt with ⟨#HRs, #HRr, HRt⟩
  icases Hrbp with ⟨⟨%fd, Hd⟩, Hrbp⟩
  iapply (send_x m cc _ (dev7_eq cc) 3 fd (owedL (List.drop 7 (paysL cc))) rfl _) $$ [HB3 Hd HO Hts Htr]
  · isplitr; · iexact HIc25
    isplitr; · iexact HIr
    isplitl [HB3]; · iexact HB3
    isplitl [Hd]; · iexact Hd
    isplitl [HO]; · iexact HO
    isplitl [Hts]; · iexact Hts
    isplitr; · iexact HRs
    isplitl [Htr]; · iexact Htr
    iexact HRr
  iintro ⟨Hcxs3, HO⟩
  iclear HIr HRs HRr
  -- chunk 4 across x: wait for its copy into the staging buffer, round it into the send buffer, send it
  have hled7 : ∀ (s : DmaSem sig), lvJ s.val = 0 → ((levAts LL lvv : sProp 𝕄) ⊢ MayWait (cc : Thread nD τ) (.dma s) () (owedL (List.drop 7 (paysL cc)))) :=
    fun s hs => mayWait_local (F := F) cc s hs _ (by decide)
  sl_exec
  clear hled7
  ihave HB4 := (congr (F := F) (sbR 4) cc fullShare (dev.sl.HB4_w1 m f1) (sb m cc) (fun i hi => glue_sb m cc 4 _ (k0_off9_inb cc) (k0_off9_eq cc) f1 i hi)) $$ HB4
  -- the copy
  icases Htk with ⟨Hts, Htr, Htk⟩
  icases HIt with ⟨#HIc26, #HIr, HIt⟩
  icases HRt with ⟨#HRs, #HRr, HRt⟩
  icases Hrbp with ⟨⟨%fd, Hd⟩, Hrbp⟩
  iapply (send_x m cc _ (dev8_eq cc) 4 fd (owedL (List.drop 8 (paysL cc))) rfl _) $$ [HB4 Hd HO Hts Htr]
  · isplitr; · iexact HIc26
    isplitr; · iexact HIr
    isplitl [HB4]; · iexact HB4
    isplitl [Hd]; · iexact Hd
    isplitl [HO]; · iexact HO
    isplitl [Hts]; · iexact Hts
    isplitr; · iexact HRs
    isplitl [Htr]; · iexact Htr
    iexact HRr
  iintro ⟨Hcxs4, HO⟩
  iclear HIr HRs HRr
  -- chunk 5 across x: wait for its copy into the staging buffer, round it into the send buffer, send it
  have hled8 : ∀ (s : DmaSem sig), lvJ s.val = 0 → ((levAts LL lvv : sProp 𝕄) ⊢ MayWait (cc : Thread nD τ) (.dma s) () (owedL (List.drop 8 (paysL cc)))) :=
    fun s hs => mayWait_local (F := F) cc s hs _ (by decide)
  sl_exec
  clear hled8
  ihave HB5 := (congr (F := F) (sbR 5) cc fullShare (dev.sl.HB5_w1 m f1) (sb m cc) (fun i hi => glue_sb m cc 5 _ (k0_off11_inb cc) (k0_off11_eq cc) f1 i hi)) $$ HB5
  -- the copy
  icases Htk with ⟨Hts, Htr, Htk⟩
  icases HIt with ⟨#HIc27, #HIr, HIt⟩
  icases HRt with ⟨#HRs, #HRr, HRt⟩
  icases Hrbp with ⟨⟨%fd, Hd⟩, Hrbp⟩
  iapply (send_x m cc _ (dev9_eq cc) 5 fd (owedL (List.drop 9 (paysL cc))) rfl _) $$ [HB5 Hd HO Hts Htr]
  · isplitr; · iexact HIc27
    isplitr; · iexact HIr
    isplitl [HB5]; · iexact HB5
    isplitl [Hd]; · iexact Hd
    isplitl [HO]; · iexact HO
    isplitl [Hts]; · iexact Hts
    isplitr; · iexact HRs
    isplitl [Htr]; · iexact Htr
    iexact HRr
  iintro ⟨Hcxs5, HO⟩
  iclear HIr HRs HRr
  -- chunk 6 across x: wait for its copy into the staging buffer, round it into the send buffer, send it
  have hled9 : ∀ (s : DmaSem sig), lvJ s.val = 0 → ((levAts LL lvv : sProp 𝕄) ⊢ MayWait (cc : Thread nD τ) (.dma s) () (owedL (List.drop 9 (paysL cc)))) :=
    fun s hs => mayWait_local (F := F) cc s hs _ (by decide)
  sl_exec
  clear hled9
  ihave HB6 := (congr (F := F) (sbR 6) cc fullShare (dev.sl.HB6_w1 m f1) (sb m cc) (fun i hi => glue_sb m cc 6 _ (k0_off13_inb cc) (k0_off13_eq cc) f1 i hi)) $$ HB6
  -- the copy
  icases Htk with ⟨Hts, Htr, Htk⟩
  icases HIt with ⟨#HIc28, #HIr, HIt⟩
  icases HRt with ⟨#HRs, #HRr, HRt⟩
  icases Hrbp with ⟨⟨%fd, Hd⟩, Hrbp⟩
  iapply (send_x m cc _ (dev10_eq cc) 6 fd (owedL (List.drop 10 (paysL cc))) rfl _) $$ [HB6 Hd HO Hts Htr]
  · isplitr; · iexact HIc28
    isplitr; · iexact HIr
    isplitl [HB6]; · iexact HB6
    isplitl [Hd]; · iexact Hd
    isplitl [HO]; · iexact HO
    isplitl [Hts]; · iexact Hts
    isplitr; · iexact HRs
    isplitl [Htr]; · iexact Htr
    iexact HRr
  iintro ⟨Hcxs6, HO⟩
  iclear HIr HRs HRr
  -- chunk 7 across x: wait for its copy into the staging buffer, round it into the send buffer, send it
  have hled10 : ∀ (s : DmaSem sig), lvJ s.val = 0 → ((levAts LL lvv : sProp 𝕄) ⊢ MayWait (cc : Thread nD τ) (.dma s) () (owedL (List.drop 10 (paysL cc)))) :=
    fun s hs => mayWait_local (F := F) cc s hs _ (by decide)
  sl_exec
  clear hled10
  ihave HB7 := (congr (F := F) (sbR 7) cc fullShare (dev.sl.HB7_w1 m f1) (sb m cc) (fun i hi => glue_sb m cc 7 _ (k0_off15_inb cc) (k0_off15_eq cc) f1 i hi)) $$ HB7
  -- the copy
  icases Htk with ⟨Hts, Htr, Htk⟩
  icases HIt with ⟨#HIc29, #HIr, HIt⟩
  icases HRt with ⟨#HRs, #HRr, HRt⟩
  icases Hrbp with ⟨%fd, Hd⟩
  iapply (send_x m cc _ (dev11_eq cc) 7 fd (owedL (List.drop 11 (paysL cc))) rfl _) $$ [HB7 Hd HO Hts Htr]
  · isplitr; · iexact HIc29
    isplitr; · iexact HIr
    isplitl [HB7]; · iexact HB7
    isplitl [Hd]; · iexact Hd
    isplitl [HO]; · iexact HO
    isplitl [Hts]; · iexact Hts
    isplitr; · iexact HRs
    isplitl [Htr]; · iexact Htr
    iexact HRr
  iintro ⟨Hcxs7, HO⟩
  iclear HIr HRs HRr
  -- chunk 0 across x (the diagonal quarter's): wait for its copy into the staging buffer, round it into the send buffer, send it
  have hled11 : ∀ (s : DmaSem sig), lvJ s.val = 0 → ((levAts LL lvv : sProp 𝕄) ⊢ MayWait (cc : Thread nD τ) (.dma s) () (owedL (List.drop 11 (paysL cc)))) :=
    fun s hs => mayWait_local (F := F) cc s hs _ (by decide)
  sl_exec
  clear hled11
  ihave HB20 := (congr (F := F) (sb2R 0) cc fullShare (dev.sl.HB20_w1 m f3) (sb2 m cc) (fun i hi => glue_sb2 m cc 0 _ (k0_off17_inb cc) (k0_off17_eq cc) f3 i hi)) $$ HB20
  -- the copy
  icases Htk with ⟨Hts, Htr, Htk⟩
  icases HIt with ⟨#HIc38, #HIr, HIt⟩
  icases HRt with ⟨#HRs, #HRr, HRt⟩
  icases Hrb2p with ⟨⟨%fd, Hd⟩, Hrb2p⟩
  iapply (send_x2 m cc _ (dev12_eq cc) 0 fd (owedL (List.drop 12 (paysL cc))) rfl _) $$ [HB20 Hd HO Hts Htr]
  · isplitr; · iexact HIc38
    isplitr; · iexact HIr
    isplitl [HB20]; · iexact HB20
    isplitl [Hd]; · iexact Hd
    isplitl [HO]; · iexact HO
    isplitl [Hts]; · iexact Hts
    isplitr; · iexact HRs
    isplitl [Htr]; · iexact Htr
    iexact HRr
  iintro ⟨Hcds0, HO⟩
  iclear HIr HRs HRr
  -- chunk 1 across x (the diagonal quarter's): wait for its copy into the staging buffer, round it into the send buffer, send it
  have hled12 : ∀ (s : DmaSem sig), lvJ s.val = 0 → ((levAts LL lvv : sProp 𝕄) ⊢ MayWait (cc : Thread nD τ) (.dma s) () (owedL (List.drop 12 (paysL cc)))) :=
    fun s hs => mayWait_local (F := F) cc s hs _ (by decide)
  sl_exec
  clear hled12
  ihave HB21 := (congr (F := F) (sb2R 1) cc fullShare (dev.sl.HB21_w1 m f3) (sb2 m cc) (fun i hi => glue_sb2 m cc 1 _ (k0_off19_inb cc) (k0_off19_eq cc) f3 i hi)) $$ HB21
  -- the copy
  icases Htk with ⟨Hts, Htr, Htk⟩
  icases HIt with ⟨#HIc39, #HIr, HIt⟩
  icases HRt with ⟨#HRs, #HRr, HRt⟩
  icases Hrb2p with ⟨⟨%fd, Hd⟩, Hrb2p⟩
  iapply (send_x2 m cc _ (dev13_eq cc) 1 fd (owedL (List.drop 13 (paysL cc))) rfl _) $$ [HB21 Hd HO Hts Htr]
  · isplitr; · iexact HIc39
    isplitr; · iexact HIr
    isplitl [HB21]; · iexact HB21
    isplitl [Hd]; · iexact Hd
    isplitl [HO]; · iexact HO
    isplitl [Hts]; · iexact Hts
    isplitr; · iexact HRs
    isplitl [Htr]; · iexact Htr
    iexact HRr
  iintro ⟨Hcds1, HO⟩
  iclear HIr HRs HRr
  -- chunk 2 across x (the diagonal quarter's): wait for its copy into the staging buffer, round it into the send buffer, send it
  have hled13 : ∀ (s : DmaSem sig), lvJ s.val = 0 → ((levAts LL lvv : sProp 𝕄) ⊢ MayWait (cc : Thread nD τ) (.dma s) () (owedL (List.drop 13 (paysL cc)))) :=
    fun s hs => mayWait_local (F := F) cc s hs _ (by decide)
  sl_exec
  clear hled13
  ihave HB22 := (congr (F := F) (sb2R 2) cc fullShare (dev.sl.HB22_w1 m f3) (sb2 m cc) (fun i hi => glue_sb2 m cc 2 _ (k0_off21_inb cc) (k0_off21_eq cc) f3 i hi)) $$ HB22
  -- the copy
  icases Htk with ⟨Hts, Htr, Htk⟩
  icases HIt with ⟨#HIc40, #HIr, HIt⟩
  icases HRt with ⟨#HRs, #HRr, HRt⟩
  icases Hrb2p with ⟨%fd, Hd⟩
  iapply (send_x2 m cc _ (dev14_eq cc) 2 fd (owedL (List.drop 14 (paysL cc))) rfl _) $$ [HB22 Hd HO Hts Htr]
  · isplitr; · iexact HIc40
    isplitr; · iexact HIr
    isplitl [HB22]; · iexact HB22
    isplitl [Hd]; · iexact Hd
    isplitl [HO]; · iexact HO
    isplitl [Hts]; · iexact Hts
    isplitr; · iexact HRs
    isplitl [Htr]; · iexact Htr
    iexact HRr
  iintro ⟨Hcds2, HO⟩
  iclear HIr HRs HRr
  sl_exec
  -- the result array in its 32 blocks
  ihave Hout := (out_split_junk (F := F) cc) $$ Hout
  icases Hout with ⟨⟨%g00, HU00⟩, ⟨%g01, HU01⟩, ⟨%g02, HU02⟩, ⟨%g03, HU03⟩, ⟨%g10, HU10⟩, ⟨%g11, HU11⟩, ⟨%g12, HU12⟩, ⟨%g13, HU13⟩, ⟨%g20, HU20⟩, ⟨%g21, HU21⟩, ⟨%g22, HU22⟩, ⟨%g23, HU23⟩, ⟨%g30, HU30⟩, ⟨%g31, HU31⟩, ⟨%g32, HU32⟩, ⟨%g33, HU33⟩, ⟨%g40, HU40⟩, ⟨%g41, HU41⟩, ⟨%g42, HU42⟩, ⟨%g43, HU43⟩, ⟨%g50, HU50⟩, ⟨%g51, HU51⟩, ⟨%g52, HU52⟩, ⟨%g53, HU53⟩, ⟨%g60, HU60⟩, ⟨%g61, HU61⟩, ⟨%g62, HU62⟩, ⟨%g63, HU63⟩, ⟨%g70, HU70⟩, ⟨%g71, HU71⟩, ⟨%g72, HU72⟩, ⟨%g73, HU73⟩⟩
  ihave HqZ := (Entails.of_eq (giveQ_eq (F := F) (pz cc) (zqF (pz cc)))) $$ HqZ
  ihave HqY := (Entails.of_eq (giveQ_eq (F := F) (py cc) (yqF (py cc)))) $$ HqY
  ihave HhZp := (Entails.of_eq (giveH_eq (F := F) (pz cc) 0)) $$ HhZp
  ihave HhYp := (Entails.of_eq (giveH_eq (F := F) (py cc) 1)) $$ HhYp
  -- step 0 of the main loop: the x-neighbour's chunk 0 has landed
  icases Hcr with ⟨Hc, Hcr⟩
  icases HpR with ⟨Hp, HpR⟩
  icases HIw with ⟨#HIc30, HIw⟩
  ihave Hmw := (mayWait_list (F := F) cc (dsem (⟨30, by decide⟩ : Fin 140)) (List.drop 14 (paysL cc)) (by decide)) $$ Hlev
  iapply (wait_a1_at m cc _ 0 rfl) $$ [Hc HO Hmw Hp]
  · isplitr; · iexact HIc30
    isplitl [Hc]; · iexact Hc
    isplitl [HO]; · iexact HO
    isplitl [Hmw]; · iexact Hmw
    iexact Hp
  iintro ⟨HO, Hq30, -, Hrb0⟩
  icases Hown with ⟨Ho0, Hown⟩
  have hled14 : ∀ (s : DmaSem sig), lvJ s.val = 0 → ((levAts LL lvv : sProp 𝕄) ⊢ MayWait (cc : Thread nD τ) (.dma s) () (owedL (List.drop 14 (paysL cc)))) :=
    fun s hs => mayWait_local (F := F) cc s hs _ (by decide)
  sl_exec
  clear hled14
  ihave Ho0 := (congr (F := F) (r4R (mqF cc) 0) cc fullShare (dev.sl.Ho0_w1 m f0) (r4 m cc) (fun i hi => glue_own m cc 0 _ (k0_off2_inb cc) (k0_off2_eq cc) _ (k0_off23_inb cc) (k0_off23_eq cc) f0 i hi)) $$ Ho0
  ihave Ho0 := (Entails.of_eq (share_ZYK_eq (F := F) (r4R (mqF cc) 0) cc (r4 m cc))) $$ Ho0
  icases Ho0 with ⟨HoZ0, HoY0, HoK0⟩
  -- own chunk 0 to the z-neighbour
  icases Htk with ⟨Hts, Htr, Htk⟩
  icases HIt with ⟨#HIc44, #HIr, HIt⟩
  icases HRt with ⟨#HRs, #HRr, HRt⟩
  icases HqZ with ⟨⟨%fd, Hd⟩, HqZ⟩
  iapply (send_z_at m cc _ (dev15_eq cc) 0 _ _ (k0_off24_eq cc) fd (owedL (List.drop 15 (paysL cc))) rfl _) $$ [HoZ0 Hd HO Hts Htr]
  · isplitr; · iexact HIc44
    isplitr; · iexact HIr
    isplitl [HoZ0]; · iexact HoZ0
    isplitl [Hd]; · iexact Hd
    isplitl [HO]; · iexact HO
    isplitl [Hts]; · iexact Hts
    isplitr; · iexact HRs
    isplitl [Htr]; · iexact Htr
    iexact HRr
  iintro ⟨Hczs0, HO⟩
  iclear HIr HRs HRr
  sl_exec
  -- own chunk 0 to the y-neighbour
  icases Htk with ⟨Hts, Htr, Htk⟩
  icases HIt with ⟨#HIc60, #HIr, HIt⟩
  icases HRt with ⟨#HRs, #HRr, HRt⟩
  icases HqY with ⟨⟨%fd, Hd⟩, HqY⟩
  iapply (send_y_at m cc _ (dev16_eq cc) 0 _ _ (k0_off24_eq cc) fd (owedL (List.drop 16 (paysL cc))) rfl _) $$ [HoY0 Hd HO Hts Htr]
  · isplitr; · iexact HIc60
    isplitr; · iexact HIr
    isplitl [HoY0]; · iexact HoY0
    isplitl [Hd]; · iexact Hd
    isplitl [HO]; · iexact HO
    isplitl [Hts]; · iexact Hts
    isplitr; · iexact HRs
    isplitl [Htr]; · iexact Htr
    iexact HRr
  iintro ⟨Hcys0, HO⟩
  iclear HIr HRs HRr
  sl_exec
  -- step 1 of the main loop: the x-neighbour's chunk 1 has landed
  icases Hcr with ⟨Hc, Hcr⟩
  icases HpR with ⟨Hp, HpR⟩
  icases HIw with ⟨#HIc31, HIw⟩
  ihave Hmw := (mayWait_list (F := F) cc (dsem (⟨31, by decide⟩ : Fin 140)) (List.drop 16 (paysL cc)) (by decide)) $$ Hlev
  iapply (wait_a1_at m cc _ 1 rfl) $$ [Hc HO Hmw Hp]
  · isplitr; · iexact HIc31
    isplitl [Hc]; · iexact Hc
    isplitl [HO]; · iexact HO
    isplitl [Hmw]; · iexact Hmw
    iexact Hp
  iintro ⟨HO, Hq31, -, Hrb1⟩
  icases Hown with ⟨Ho1, Hown⟩
  have hled16 : ∀ (s : DmaSem sig), lvJ s.val = 0 → ((levAts LL lvv : sProp 𝕄) ⊢ MayWait (cc : Thread nD τ) (.dma s) () (owedL (List.drop 16 (paysL cc)))) :=
    fun s hs => mayWait_local (F := F) cc s hs _ (by decide)
  sl_exec
  clear hled16
  ihave Ho1 := (congr (F := F) (r4R (mqF cc) 1) cc fullShare (dev.sl.Ho1_w1 m f0) (r4 m cc) (fun i hi => glue_own m cc 1 _ (k0_off4_inb cc) (k0_off4_eq cc) _ (k0_off25_inb cc) (k0_off25_eq cc) f0 i hi)) $$ Ho1
  ihave Ho1 := (Entails.of_eq (share_ZYK_eq (F := F) (r4R (mqF cc) 1) cc (r4 m cc))) $$ Ho1
  icases Ho1 with ⟨HoZ1, HoY1, HoK1⟩
  -- own chunk 1 to the z-neighbour
  icases Htk with ⟨Hts, Htr, Htk⟩
  icases HIt with ⟨#HIc45, #HIr, HIt⟩
  icases HRt with ⟨#HRs, #HRr, HRt⟩
  icases HqZ with ⟨⟨%fd, Hd⟩, HqZ⟩
  iapply (send_z_at m cc _ (dev17_eq cc) 1 _ _ (k0_off26_eq cc) fd (owedL (List.drop 17 (paysL cc))) rfl _) $$ [HoZ1 Hd HO Hts Htr]
  · isplitr; · iexact HIc45
    isplitr; · iexact HIr
    isplitl [HoZ1]; · iexact HoZ1
    isplitl [Hd]; · iexact Hd
    isplitl [HO]; · iexact HO
    isplitl [Hts]; · iexact Hts
    isplitr; · iexact HRs
    isplitl [Htr]; · iexact Htr
    iexact HRr
  iintro ⟨Hczs1, HO⟩
  iclear HIr HRs HRr
  sl_exec
  -- own chunk 1 to the y-neighbour
  icases Htk with ⟨Hts, Htr, Htk⟩
  icases HIt with ⟨#HIc61, #HIr, HIt⟩
  icases HRt with ⟨#HRs, #HRr, HRt⟩
  icases HqY with ⟨⟨%fd, Hd⟩, HqY⟩
  iapply (send_y_at m cc _ (dev18_eq cc) 1 _ _ (k0_off26_eq cc) fd (owedL (List.drop 18 (paysL cc))) rfl _) $$ [HoY1 Hd HO Hts Htr]
  · isplitr; · iexact HIc61
    isplitr; · iexact HIr
    isplitl [HoY1]; · iexact HoY1
    isplitl [Hd]; · iexact Hd
    isplitl [HO]; · iexact HO
    isplitl [Hts]; · iexact Hts
    isplitr; · iexact HRs
    isplitl [Htr]; · iexact Htr
    iexact HRr
  iintro ⟨Hcys1, HO⟩
  iclear HIr HRs HRr
  sl_exec
  -- the z-neighbour's chunk 0 has landed
  icases Hcr with ⟨Hc, Hcr⟩
  icases HpR with ⟨Hp, HpR⟩
  icases HIw with ⟨#HIc52, HIw⟩
  ihave Hmw := (mayWait_list (F := F) cc (dsem (⟨52, by decide⟩ : Fin 140)) (List.drop 18 (paysL cc)) (by decide)) $$ Hlev
  iapply (wait_a5_at m cc _ 0 rfl) $$ [Hc HO Hmw Hp]
  · isplitr; · iexact HIc52
    isplitl [Hc]; · iexact Hc
    isplitl [HO]; · iexact HO
    isplitl [Hmw]; · iexact Hmw
    iexact Hp
  iintro ⟨HO, Hq52, -, Hz0⟩
  sl_exec
  -- the y-neighbour's chunk 0 has landed
  icases Hcr with ⟨Hc, Hcr⟩
  icases HpR with ⟨Hp, HpR⟩
  icases HIw with ⟨#HIc68, HIw⟩
  ihave Hmw := (mayWait_list (F := F) cc (dsem (⟨68, by decide⟩ : Fin 140)) (List.drop 18 (paysL cc)) (by decide)) $$ Hlev
  iapply (wait_a7_at m cc _ 0 rfl) $$ [Hc HO Hmw Hp]
  · isplitr; · iexact HIc68
    isplitl [Hc]; · iexact Hc
    isplitl [HO]; · iexact HO
    isplitl [Hmw]; · iexact Hmw
    iexact Hp
  iintro ⟨HO, Hq68, -, Hy0⟩
  sl_exec
  -- step 2 of the main loop: the x-neighbour's chunk 2 has landed
  icases Hcr with ⟨Hc, Hcr⟩
  icases HpR with ⟨Hp, HpR⟩
  icases HIw with ⟨#HIc32, HIw⟩
  ihave Hmw := (mayWait_list (F := F) cc (dsem (⟨32, by decide⟩ : Fin 140)) (List.drop 18 (paysL cc)) (by decide)) $$ Hlev
  iapply (wait_a1_at m cc _ 2 rfl) $$ [Hc HO Hmw Hp]
  · isplitr; · iexact HIc32
    isplitl [Hc]; · iexact Hc
    isplitl [HO]; · iexact HO
    isplitl [Hmw]; · iexact Hmw
    iexact Hp
  iintro ⟨HO, Hq32, -, Hrb2⟩
  icases Hown with ⟨Ho2, Hown⟩
  have hled18 : ∀ (s : DmaSem sig), lvJ s.val = 0 → ((levAts LL lvv : sProp 𝕄) ⊢ MayWait (cc : Thread nD τ) (.dma s) () (owedL (List.drop 18 (paysL cc)))) :=
    fun s hs => mayWait_local (F := F) cc s hs _ (by decide)
  sl_exec
  clear hled18
  ihave Ho2 := (congr (F := F) (r4R (mqF cc) 2) cc fullShare (dev.sl.Ho2_w1 m f0) (r4 m cc) (fun i hi => glue_own m cc 2 _ (k0_off6_inb cc) (k0_off6_eq cc) _ (k0_off27_inb cc) (k0_off27_eq cc) f0 i hi)) $$ Ho2
  ihave Ho2 := (Entails.of_eq (share_ZYK_eq (F := F) (r4R (mqF cc) 2) cc (r4 m cc))) $$ Ho2
  icases Ho2 with ⟨HoZ2, HoY2, HoK2⟩
  -- own chunk 2 to the z-neighbour
  icases Htk with ⟨Hts, Htr, Htk⟩
  icases HIt with ⟨#HIc46, #HIr, HIt⟩
  icases HRt with ⟨#HRs, #HRr, HRt⟩
  icases HqZ with ⟨⟨%fd, Hd⟩, HqZ⟩
  iapply (send_z_at m cc _ (dev19_eq cc) 2 _ _ (k0_off28_eq cc) fd (owedL (List.drop 19 (paysL cc))) rfl _) $$ [HoZ2 Hd HO Hts Htr]
  · isplitr; · iexact HIc46
    isplitr; · iexact HIr
    isplitl [HoZ2]; · iexact HoZ2
    isplitl [Hd]; · iexact Hd
    isplitl [HO]; · iexact HO
    isplitl [Hts]; · iexact Hts
    isplitr; · iexact HRs
    isplitl [Htr]; · iexact Htr
    iexact HRr
  iintro ⟨Hczs2, HO⟩
  iclear HIr HRs HRr
  sl_exec
  -- own chunk 2 to the y-neighbour
  icases Htk with ⟨Hts, Htr, Htk⟩
  icases HIt with ⟨#HIc62, #HIr, HIt⟩
  icases HRt with ⟨#HRs, #HRr, HRt⟩
  icases HqY with ⟨⟨%fd, Hd⟩, HqY⟩
  iapply (send_y_at m cc _ (dev20_eq cc) 2 _ _ (k0_off28_eq cc) fd (owedL (List.drop 20 (paysL cc))) rfl _) $$ [HoY2 Hd HO Hts Htr]
  · isplitr; · iexact HIc62
    isplitr; · iexact HIr
    isplitl [HoY2]; · iexact HoY2
    isplitl [Hd]; · iexact Hd
    isplitl [HO]; · iexact HO
    isplitl [Hts]; · iexact Hts
    isplitr; · iexact HRs
    isplitl [Htr]; · iexact Htr
    iexact HRr
  iintro ⟨Hcys2, HO⟩
  iclear HIr HRs HRr
  sl_exec
  -- the z-neighbour's chunk 1 has landed
  icases Hcr with ⟨Hc, Hcr⟩
  icases HpR with ⟨Hp, HpR⟩
  icases HIw with ⟨#HIc53, HIw⟩
  ihave Hmw := (mayWait_list (F := F) cc (dsem (⟨53, by decide⟩ : Fin 140)) (List.drop 20 (paysL cc)) (by decide)) $$ Hlev
  iapply (wait_a5_at m cc _ 1 rfl) $$ [Hc HO Hmw Hp]
  · isplitr; · iexact HIc53
    isplitl [Hc]; · iexact Hc
    isplitl [HO]; · iexact HO
    isplitl [Hmw]; · iexact Hmw
    iexact Hp
  iintro ⟨HO, Hq53, -, Hz1⟩
  sl_exec
  -- the y-neighbour's chunk 1 has landed
  icases Hcr with ⟨Hc, Hcr⟩
  icases HpR with ⟨Hp, HpR⟩
  icases HIw with ⟨#HIc69, HIw⟩
  ihave Hmw := (mayWait_list (F := F) cc (dsem (⟨69, by decide⟩ : Fin 140)) (List.drop 20 (paysL cc)) (by decide)) $$ Hlev
  iapply (wait_a7_at m cc _ 1 rfl) $$ [Hc HO Hmw Hp]
  · isplitr; · iexact HIc69
    isplitl [Hc]; · iexact Hc
    isplitl [HO]; · iexact HO
    isplitl [Hmw]; · iexact Hmw
    iexact Hp
  iintro ⟨HO, Hq69, -, Hy1⟩
  sl_exec
  -- step 3 of the main loop: the x-neighbour's chunk 3 has landed
  icases Hcr with ⟨Hc, Hcr⟩
  icases HpR with ⟨Hp, HpR⟩
  icases HIw with ⟨#HIc33, HIw⟩
  ihave Hmw := (mayWait_list (F := F) cc (dsem (⟨33, by decide⟩ : Fin 140)) (List.drop 20 (paysL cc)) (by decide)) $$ Hlev
  iapply (wait_a1_at m cc _ 3 rfl) $$ [Hc HO Hmw Hp]
  · isplitr; · iexact HIc33
    isplitl [Hc]; · iexact Hc
    isplitl [HO]; · iexact HO
    isplitl [Hmw]; · iexact Hmw
    iexact Hp
  iintro ⟨HO, Hq33, -, Hrb3⟩
  icases Hown with ⟨Ho3, Hown⟩
  have hled20 : ∀ (s : DmaSem sig), lvJ s.val = 0 → ((levAts LL lvv : sProp 𝕄) ⊢ MayWait (cc : Thread nD τ) (.dma s) () (owedL (List.drop 20 (paysL cc)))) :=
    fun s hs => mayWait_local (F := F) cc s hs _ (by decide)
  sl_exec
  clear hled20
  ihave Ho3 := (congr (F := F) (r4R (mqF cc) 3) cc fullShare (dev.sl.Ho3_w1 m f0) (r4 m cc) (fun i hi => glue_own m cc 3 _ (k0_off8_inb cc) (k0_off8_eq cc) _ (k0_off29_inb cc) (k0_off29_eq cc) f0 i hi)) $$ Ho3
  ihave Ho3 := (Entails.of_eq (share_ZYK_eq (F := F) (r4R (mqF cc) 3) cc (r4 m cc))) $$ Ho3
  icases Ho3 with ⟨HoZ3, HoY3, HoK3⟩
  -- own chunk 3 to the z-neighbour
  icases Htk with ⟨Hts, Htr, Htk⟩
  icases HIt with ⟨#HIc47, #HIr, HIt⟩
  icases HRt with ⟨#HRs, #HRr, HRt⟩
  icases HqZ with ⟨⟨%fd, Hd⟩, HqZ⟩
  iapply (send_z_at m cc _ (dev21_eq cc) 3 _ _ (k0_off30_eq cc) fd (owedL (List.drop 21 (paysL cc))) rfl _) $$ [HoZ3 Hd HO Hts Htr]
  · isplitr; · iexact HIc47
    isplitr; · iexact HIr
    isplitl [HoZ3]; · iexact HoZ3
    isplitl [Hd]; · iexact Hd
    isplitl [HO]; · iexact HO
    isplitl [Hts]; · iexact Hts
    isplitr; · iexact HRs
    isplitl [Htr]; · iexact Htr
    iexact HRr
  iintro ⟨Hczs3, HO⟩
  iclear HIr HRs HRr
  sl_exec
  -- own chunk 3 to the y-neighbour
  icases Htk with ⟨Hts, Htr, Htk⟩
  icases HIt with ⟨#HIc63, #HIr, HIt⟩
  icases HRt with ⟨#HRs, #HRr, HRt⟩
  icases HqY with ⟨⟨%fd, Hd⟩, HqY⟩
  iapply (send_y_at m cc _ (dev22_eq cc) 3 _ _ (k0_off30_eq cc) fd (owedL (List.drop 22 (paysL cc))) rfl _) $$ [HoY3 Hd HO Hts Htr]
  · isplitr; · iexact HIc63
    isplitr; · iexact HIr
    isplitl [HoY3]; · iexact HoY3
    isplitl [Hd]; · iexact Hd
    isplitl [HO]; · iexact HO
    isplitl [Hts]; · iexact Hts
    isplitr; · iexact HRs
    isplitl [Htr]; · iexact Htr
    iexact HRr
  iintro ⟨Hcys3, HO⟩
  iclear HIr HRs HRr
  sl_exec
  -- the z-neighbour's chunk 2 has landed
  icases Hcr with ⟨Hc, Hcr⟩
  icases HpR with ⟨Hp, HpR⟩
  icases HIw with ⟨#HIc54, HIw⟩
  ihave Hmw := (mayWait_list (F := F) cc (dsem (⟨54, by decide⟩ : Fin 140)) (List.drop 22 (paysL cc)) (by decide)) $$ Hlev
  iapply (wait_a5_at m cc _ 2 rfl) $$ [Hc HO Hmw Hp]
  · isplitr; · iexact HIc54
    isplitl [Hc]; · iexact Hc
    isplitl [HO]; · iexact HO
    isplitl [Hmw]; · iexact Hmw
    iexact Hp
  iintro ⟨HO, Hq54, -, Hz2⟩
  sl_exec
  -- the y-neighbour's chunk 2 has landed
  icases Hcr with ⟨Hc, Hcr⟩
  icases HpR with ⟨Hp, HpR⟩
  icases HIw with ⟨#HIc70, HIw⟩
  ihave Hmw := (mayWait_list (F := F) cc (dsem (⟨70, by decide⟩ : Fin 140)) (List.drop 22 (paysL cc)) (by decide)) $$ Hlev
  iapply (wait_a7_at m cc _ 2 rfl) $$ [Hc HO Hmw Hp]
  · isplitr; · iexact HIc70
    isplitl [Hc]; · iexact Hc
    isplitl [HO]; · iexact HO
    isplitl [Hmw]; · iexact Hmw
    iexact Hp
  iintro ⟨HO, Hq70, -, Hy2⟩
  sl_exec
  -- step 4 of the main loop: the x-neighbour's chunk 4 has landed
  icases Hcr with ⟨Hc, Hcr⟩
  icases HpR with ⟨Hp, HpR⟩
  icases HIw with ⟨#HIc34, HIw⟩
  ihave Hmw := (mayWait_list (F := F) cc (dsem (⟨34, by decide⟩ : Fin 140)) (List.drop 22 (paysL cc)) (by decide)) $$ Hlev
  iapply (wait_a1_at m cc _ 4 rfl) $$ [Hc HO Hmw Hp]
  · isplitr; · iexact HIc34
    isplitl [Hc]; · iexact Hc
    isplitl [HO]; · iexact HO
    isplitl [Hmw]; · iexact Hmw
    iexact Hp
  iintro ⟨HO, Hq34, -, Hrb4⟩
  icases Hown with ⟨Ho4, Hown⟩
  have hled22 : ∀ (s : DmaSem sig), lvJ s.val = 0 → ((levAts LL lvv : sProp 𝕄) ⊢ MayWait (cc : Thread nD τ) (.dma s) () (owedL (List.drop 22 (paysL cc)))) :=
    fun s hs => mayWait_local (F := F) cc s hs _ (by decide)
  sl_exec
  clear hled22
  ihave Ho4 := (congr (F := F) (r4R (mqF cc) 4) cc fullShare (dev.sl.Ho4_w1 m f0) (r4 m cc) (fun i hi => glue_own m cc 4 _ (k0_off10_inb cc) (k0_off10_eq cc) _ (k0_off31_inb cc) (k0_off31_eq cc) f0 i hi)) $$ Ho4
  ihave Ho4 := (Entails.of_eq (share_ZYK_eq (F := F) (r4R (mqF cc) 4) cc (r4 m cc))) $$ Ho4
  icases Ho4 with ⟨HoZ4, HoY4, HoK4⟩
  -- own chunk 4 to the z-neighbour
  icases Htk with ⟨Hts, Htr, Htk⟩
  icases HIt with ⟨#HIc48, #HIr, HIt⟩
  icases HRt with ⟨#HRs, #HRr, HRt⟩
  icases HqZ with ⟨⟨%fd, Hd⟩, HqZ⟩
  iapply (send_z_at m cc _ (dev23_eq cc) 4 _ _ (k0_off32_eq cc) fd (owedL (List.drop 23 (paysL cc))) rfl _) $$ [HoZ4 Hd HO Hts Htr]
  · isplitr; · iexact HIc48
    isplitr; · iexact HIr
    isplitl [HoZ4]; · iexact HoZ4
    isplitl [Hd]; · iexact Hd
    isplitl [HO]; · iexact HO
    isplitl [Hts]; · iexact Hts
    isplitr; · iexact HRs
    isplitl [Htr]; · iexact Htr
    iexact HRr
  iintro ⟨Hczs4, HO⟩
  iclear HIr HRs HRr
  sl_exec
  -- own chunk 4 to the y-neighbour
  icases Htk with ⟨Hts, Htr, Htk⟩
  icases HIt with ⟨#HIc64, #HIr, HIt⟩
  icases HRt with ⟨#HRs, #HRr, HRt⟩
  icases HqY with ⟨⟨%fd, Hd⟩, HqY⟩
  iapply (send_y_at m cc _ (dev24_eq cc) 4 _ _ (k0_off32_eq cc) fd (owedL (List.drop 24 (paysL cc))) rfl _) $$ [HoY4 Hd HO Hts Htr]
  · isplitr; · iexact HIc64
    isplitr; · iexact HIr
    isplitl [HoY4]; · iexact HoY4
    isplitl [Hd]; · iexact Hd
    isplitl [HO]; · iexact HO
    isplitl [Hts]; · iexact Hts
    isplitr; · iexact HRs
    isplitl [Htr]; · iexact Htr
    iexact HRr
  iintro ⟨Hcys4, HO⟩
  iclear HIr HRs HRr
  sl_exec
  -- the z-neighbour's chunk 3 has landed
  icases Hcr with ⟨Hc, Hcr⟩
  icases HpR with ⟨Hp, HpR⟩
  icases HIw with ⟨#HIc55, HIw⟩
  ihave Hmw := (mayWait_list (F := F) cc (dsem (⟨55, by decide⟩ : Fin 140)) (List.drop 24 (paysL cc)) (by decide)) $$ Hlev
  iapply (wait_a5_at m cc _ 3 rfl) $$ [Hc HO Hmw Hp]
  · isplitr; · iexact HIc55
    isplitl [Hc]; · iexact Hc
    isplitl [HO]; · iexact HO
    isplitl [Hmw]; · iexact Hmw
    iexact Hp
  iintro ⟨HO, Hq55, -, Hz3⟩
  sl_exec
  -- the y-neighbour's chunk 3 has landed
  icases Hcr with ⟨Hc, Hcr⟩
  icases HpR with ⟨Hp, HpR⟩
  icases HIw with ⟨#HIc71, HIw⟩
  ihave Hmw := (mayWait_list (F := F) cc (dsem (⟨71, by decide⟩ : Fin 140)) (List.drop 24 (paysL cc)) (by decide)) $$ Hlev
  iapply (wait_a7_at m cc _ 3 rfl) $$ [Hc HO Hmw Hp]
  · isplitr; · iexact HIc71
    isplitl [Hc]; · iexact Hc
    isplitl [HO]; · iexact HO
    isplitl [Hmw]; · iexact Hmw
    iexact Hp
  iintro ⟨HO, Hq71, -, Hy3⟩
  -- chunk 3 of the two neighbours' quarters: half its ownership stays for the copy into the result, of the other half one column half travels on
  ihave Hz3 := (Entails.of_eq (share_FG_eq (F := F) (r4R (zqF cc) 3) cc (r4 m cc))) $$ Hz3
  icases Hz3 with ⟨HzF3, HzG3⟩
  ihave HzF3 := (Entails.of_eq (chunk_halves (F := F) cc (zqF cc) 3 shF (r4 m cc))) $$ HzF3
  icases HzF3 with ⟨HzFl3, HzFr3⟩
  ihave Hy3 := (Entails.of_eq (share_FG_eq (F := F) (r4R (yqF cc) 3) cc (r4 m cc))) $$ Hy3
  icases Hy3 with ⟨HyF3, HyG3⟩
  ihave HyF3 := (Entails.of_eq (chunk_halves (F := F) cc (yqF cc) 3 shF (r4 m cc))) $$ HyF3
  icases HyF3 with ⟨HyFl3, HyFr3⟩
  sl_exec
  -- the right half of the z-neighbour's chunk 3 on to the y-neighbour
  icases Htk with ⟨Hts, Htr, Htk⟩
  icases HIt with ⟨#HIc95, #HIr, HIt⟩
  icases HRt with ⟨#HRs, #HRr, HRt⟩
  icases HhYp with ⟨⟨%fd, Hd⟩, HhYp⟩
  iapply (send_yf_at m cc _ (dev25_eq cc) 3 (by decide) _ _ (k0_off33_eq cc) fd (owedL (List.drop 25 (paysL cc))) rfl _) $$ [HzFr3 Hd HO Hts Htr]
  · isplitr; · iexact HIc95
    isplitr; · iexact HIr
    isplitl [HzFr3]; · iexact HzFr3
    isplitl [Hd]; · iexact Hd
    isplitl [HO]; · iexact HO
    isplitl [Hts]; · iexact Hts
    isplitr; · iexact HRs
    isplitl [Htr]; · iexact Htr
    iexact HRr
  iintro ⟨Hcyfs3, HO⟩
  iclear HIr HRs HRr
  sl_exec
  -- the left half of the y-neighbour's chunk 3 on to the z-neighbour
  icases Htk with ⟨Hts, Htr, Htk⟩
  icases HIt with ⟨#HIc79, #HIr, HIt⟩
  icases HRt with ⟨#HRs, #HRr, HRt⟩
  icases HhZp with ⟨⟨%fd, Hd⟩, HhZp⟩
  iapply (send_zf_at m cc _ (dev26_eq cc) 3 (by decide) _ _ (k0_off34_eq cc) fd (owedL (List.drop 26 (paysL cc))) rfl _) $$ [HyFl3 Hd HO Hts Htr]
  · isplitr; · iexact HIc79
    isplitr; · iexact HIr
    isplitl [HyFl3]; · iexact HyFl3
    isplitl [Hd]; · iexact Hd
    isplitl [HO]; · iexact HO
    isplitl [Hts]; · iexact Hts
    isplitr; · iexact HRs
    isplitl [Htr]; · iexact Htr
    iexact HRr
  iintro ⟨Hczfs3, HO⟩
  iclear HIr HRs HRr
  sl_exec
  -- step 5 of the main loop: the x-neighbour's chunk 5 has landed
  icases Hcr with ⟨Hc, Hcr⟩
  icases HpR with ⟨Hp, HpR⟩
  icases HIw with ⟨#HIc35, HIw⟩
  ihave Hmw := (mayWait_list (F := F) cc (dsem (⟨35, by decide⟩ : Fin 140)) (List.drop 26 (paysL cc)) (by decide)) $$ Hlev
  iapply (wait_a1_at m cc _ 5 rfl) $$ [Hc HO Hmw Hp]
  · isplitr; · iexact HIc35
    isplitl [Hc]; · iexact Hc
    isplitl [HO]; · iexact HO
    isplitl [Hmw]; · iexact Hmw
    iexact Hp
  iintro ⟨HO, Hq35, -, Hrb5⟩
  icases Hown with ⟨Ho5, Hown⟩
  have hled26 : ∀ (s : DmaSem sig), lvJ s.val = 0 → ((levAts LL lvv : sProp 𝕄) ⊢ MayWait (cc : Thread nD τ) (.dma s) () (owedL (List.drop 26 (paysL cc)))) :=
    fun s hs => mayWait_local (F := F) cc s hs _ (by decide)
  sl_exec
  clear hled26
  ihave Ho5 := (congr (F := F) (r4R (mqF cc) 5) cc fullShare (dev.sl.Ho5_w1 m f0) (r4 m cc) (fun i hi => glue_own m cc 5 _ (k0_off12_inb cc) (k0_off12_eq cc) _ (k0_off35_inb cc) (k0_off35_eq cc) f0 i hi)) $$ Ho5
  ihave Ho5 := (Entails.of_eq (share_ZYK_eq (F := F) (r4R (mqF cc) 5) cc (r4 m cc))) $$ Ho5
  icases Ho5 with ⟨HoZ5, HoY5, HoK5⟩
  -- own chunk 5 to the z-neighbour
  icases Htk with ⟨Hts, Htr, Htk⟩
  icases HIt with ⟨#HIc49, #HIr, HIt⟩
  icases HRt with ⟨#HRs, #HRr, HRt⟩
  icases HqZ with ⟨⟨%fd, Hd⟩, HqZ⟩
  iapply (send_z_at m cc _ (dev27_eq cc) 5 _ _ (k0_off36_eq cc) fd (owedL (List.drop 27 (paysL cc))) rfl _) $$ [HoZ5 Hd HO Hts Htr]
  · isplitr; · iexact HIc49
    isplitr; · iexact HIr
    isplitl [HoZ5]; · iexact HoZ5
    isplitl [Hd]; · iexact Hd
    isplitl [HO]; · iexact HO
    isplitl [Hts]; · iexact Hts
    isplitr; · iexact HRs
    isplitl [Htr]; · iexact Htr
    iexact HRr
  iintro ⟨Hczs5, HO⟩
  iclear HIr HRs HRr
  sl_exec
  -- own chunk 5 to the y-neighbour
  icases Htk with ⟨Hts, Htr, Htk⟩
  icases HIt with ⟨#HIc65, #HIr, HIt⟩
  icases HRt with ⟨#HRs, #HRr, HRt⟩
  icases HqY with ⟨⟨%fd, Hd⟩, HqY⟩
  iapply (send_y_at m cc _ (dev28_eq cc) 5 _ _ (k0_off36_eq cc) fd (owedL (List.drop 28 (paysL cc))) rfl _) $$ [HoY5 Hd HO Hts Htr]
  · isplitr; · iexact HIc65
    isplitr; · iexact HIr
    isplitl [HoY5]; · iexact HoY5
    isplitl [Hd]; · iexact Hd
    isplitl [HO]; · iexact HO
    isplitl [Hts]; · iexact Hts
    isplitr; · iexact HRs
    isplitl [Htr]; · iexact Htr
    iexact HRr
  iintro ⟨Hcys5, HO⟩
  iclear HIr HRs HRr
  sl_exec
  -- the z-neighbour's chunk 4 has landed
  icases Hcr with ⟨Hc, Hcr⟩
  icases HpR with ⟨Hp, HpR⟩
  icases HIw with ⟨#HIc56, HIw⟩
  ihave Hmw := (mayWait_list (F := F) cc (dsem (⟨56, by decide⟩ : Fin 140)) (List.drop 28 (paysL cc)) (by decide)) $$ Hlev
  iapply (wait_a5_at m cc _ 4 rfl) $$ [Hc HO Hmw Hp]
  · isplitr; · iexact HIc56
    isplitl [Hc]; · iexact Hc
    isplitl [HO]; · iexact HO
    isplitl [Hmw]; · iexact Hmw
    iexact Hp
  iintro ⟨HO, Hq56, -, Hz4⟩
  sl_exec
  -- the y-neighbour's chunk 4 has landed
  icases Hcr with ⟨Hc, Hcr⟩
  icases HpR with ⟨Hp, HpR⟩
  icases HIw with ⟨#HIc72, HIw⟩
  ihave Hmw := (mayWait_list (F := F) cc (dsem (⟨72, by decide⟩ : Fin 140)) (List.drop 28 (paysL cc)) (by decide)) $$ Hlev
  iapply (wait_a7_at m cc _ 4 rfl) $$ [Hc HO Hmw Hp]
  · isplitr; · iexact HIc72
    isplitl [Hc]; · iexact Hc
    isplitl [HO]; · iexact HO
    isplitl [Hmw]; · iexact Hmw
    iexact Hp
  iintro ⟨HO, Hq72, -, Hy4⟩
  -- chunk 4 of the two neighbours' quarters: half its ownership stays for the copy into the result, of the other half one column half travels on
  ihave Hz4 := (Entails.of_eq (share_FG_eq (F := F) (r4R (zqF cc) 4) cc (r4 m cc))) $$ Hz4
  icases Hz4 with ⟨HzF4, HzG4⟩
  ihave HzF4 := (Entails.of_eq (chunk_halves (F := F) cc (zqF cc) 4 shF (r4 m cc))) $$ HzF4
  icases HzF4 with ⟨HzFl4, HzFr4⟩
  ihave Hy4 := (Entails.of_eq (share_FG_eq (F := F) (r4R (yqF cc) 4) cc (r4 m cc))) $$ Hy4
  icases Hy4 with ⟨HyF4, HyG4⟩
  ihave HyF4 := (Entails.of_eq (chunk_halves (F := F) cc (yqF cc) 4 shF (r4 m cc))) $$ HyF4
  icases HyF4 with ⟨HyFl4, HyFr4⟩
  sl_exec
  -- the right half of the z-neighbour's chunk 4 on to the y-neighbour
  icases Htk with ⟨Hts, Htr, Htk⟩
  icases HIt with ⟨#HIc96, #HIr, HIt⟩
  icases HRt with ⟨#HRs, #HRr, HRt⟩
  icases HhYp with ⟨⟨%fd, Hd⟩, HhYp⟩
  iapply (send_yf_at m cc _ (dev29_eq cc) 4 (by decide) _ _ (k0_off37_eq cc) fd (owedL (List.drop 29 (paysL cc))) rfl _) $$ [HzFr4 Hd HO Hts Htr]
  · isplitr; · iexact HIc96
    isplitr; · iexact HIr
    isplitl [HzFr4]; · iexact HzFr4
    isplitl [Hd]; · iexact Hd
    isplitl [HO]; · iexact HO
    isplitl [Hts]; · iexact Hts
    isplitr; · iexact HRs
    isplitl [Htr]; · iexact Htr
    iexact HRr
  iintro ⟨Hcyfs4, HO⟩
  iclear HIr HRs HRr
  sl_exec
  -- the left half of the y-neighbour's chunk 4 on to the z-neighbour
  icases Htk with ⟨Hts, Htr, Htk⟩
  icases HIt with ⟨#HIc80, #HIr, HIt⟩
  icases HRt with ⟨#HRs, #HRr, HRt⟩
  icases HhZp with ⟨⟨%fd, Hd⟩, HhZp⟩
  iapply (send_zf_at m cc _ (dev30_eq cc) 4 (by decide) _ _ (k0_off38_eq cc) fd (owedL (List.drop 30 (paysL cc))) rfl _) $$ [HyFl4 Hd HO Hts Htr]
  · isplitr; · iexact HIc80
    isplitr; · iexact HIr
    isplitl [HyFl4]; · iexact HyFl4
    isplitl [Hd]; · iexact Hd
    isplitl [HO]; · iexact HO
    isplitl [Hts]; · iexact Hts
    isplitr; · iexact HRs
    isplitl [Htr]; · iexact Htr
    iexact HRr
  iintro ⟨Hczfs4, HO⟩
  iclear HIr HRs HRr
  sl_exec
  -- the left half of chunk 3 of the diagonal quarter has landed
  icases Hcr with ⟨Hc, Hcr⟩
  icases HpR with ⟨Hp, HpR⟩
  icases HIw with ⟨#HIc87, HIw⟩
  ihave Hmw := (mayWait_list (F := F) cc (dsem (⟨87, by decide⟩ : Fin 140)) (List.drop 30 (paysL cc)) (by decide)) $$ Hlev
  iapply (wait_a9_at m cc _ 3 rfl (by decide)) $$ [Hc HO Hmw Hp]
  · isplitr; · iexact HIc87
    isplitl [Hc]; · iexact Hc
    isplitl [HO]; · iexact HO
    isplitl [Hmw]; · iexact Hmw
    iexact Hp
  iintro ⟨HO, Hq87, -, Hdl3⟩
  sl_exec
  -- its right half has landed
  icases Hcr with ⟨Hc, Hcr⟩
  icases HpR with ⟨Hp, HpR⟩
  icases HIw with ⟨#HIc103, HIw⟩
  ihave Hmw := (mayWait_list (F := F) cc (dsem (⟨103, by decide⟩ : Fin 140)) (List.drop 30 (paysL cc)) (by decide)) $$ Hlev
  iapply (wait_a11_at m cc _ 3 rfl (by decide)) $$ [Hc HO Hmw Hp]
  · isplitr; · iexact HIc103
    isplitl [Hc]; · iexact Hc
    isplitl [HO]; · iexact HO
    isplitl [Hmw]; · iexact Hmw
    iexact Hp
  iintro ⟨HO, Hq103, -, Hdr3⟩
  ihave Hd3 := (Entails.of_eq (chunk_halves (F := F) cc (dqF cc) 3 fullShare (r4 m cc)).symm) $$ [Hdl3 Hdr3]
  · isplitl [Hdl3]; · iexact Hdl3
    iexact Hdr3
  -- the four copies of chunk 3 into the result
  icases HvO with ⟨Hw3a, Hw3b, Hw3c, Hw3d, HvO⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  -- step 6 of the main loop: the x-neighbour's chunk 6 has landed
  icases Hcr with ⟨Hc, Hcr⟩
  icases HpR with ⟨Hp, HpR⟩
  icases HIw with ⟨#HIc36, HIw⟩
  ihave Hmw := (mayWait_list (F := F) cc (dsem (⟨36, by decide⟩ : Fin 140)) (List.drop 30 (paysL cc)) (by decide)) $$ Hlev
  iapply (wait_a1_at m cc _ 6 rfl) $$ [Hc HO Hmw Hp]
  · isplitr; · iexact HIc36
    isplitl [Hc]; · iexact Hc
    isplitl [HO]; · iexact HO
    isplitl [Hmw]; · iexact Hmw
    iexact Hp
  iintro ⟨HO, Hq36, -, Hrb6⟩
  icases Hown with ⟨Ho6, Hown⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  ihave Ho6 := (congr (F := F) (r4R (mqF cc) 6) cc fullShare (dev.sl.Ho6_w1 m f0) (r4 m cc) (fun i hi => glue_own m cc 6 _ (k0_off14_inb cc) (k0_off14_eq cc) _ (k0_off39_inb cc) (k0_off39_eq cc) f0 i hi)) $$ Ho6
  ihave Ho6 := (Entails.of_eq (share_ZYK_eq (F := F) (r4R (mqF cc) 6) cc (r4 m cc))) $$ Ho6
  icases Ho6 with ⟨HoZ6, HoY6, HoK6⟩
  -- own chunk 6 to the z-neighbour
  icases Htk with ⟨Hts, Htr, Htk⟩
  icases HIt with ⟨#HIc50, #HIr, HIt⟩
  icases HRt with ⟨#HRs, #HRr, HRt⟩
  icases HqZ with ⟨⟨%fd, Hd⟩, HqZ⟩
  iapply (send_z_at m cc _ (dev31_eq cc) 6 _ _ (k0_off40_eq cc) fd (owedL (List.drop 31 (paysL cc))) rfl _) $$ [HoZ6 Hd HO Hts Htr]
  · isplitr; · iexact HIc50
    isplitr; · iexact HIr
    isplitl [HoZ6]; · iexact HoZ6
    isplitl [Hd]; · iexact Hd
    isplitl [HO]; · iexact HO
    isplitl [Hts]; · iexact Hts
    isplitr; · iexact HRs
    isplitl [Htr]; · iexact Htr
    iexact HRr
  iintro ⟨Hczs6, HO⟩
  iclear HIr HRs HRr
  sl_exec
  -- own chunk 6 to the y-neighbour
  icases Htk with ⟨Hts, Htr, Htk⟩
  icases HIt with ⟨#HIc66, #HIr, HIt⟩
  icases HRt with ⟨#HRs, #HRr, HRt⟩
  icases HqY with ⟨⟨%fd, Hd⟩, HqY⟩
  iapply (send_y_at m cc _ (dev32_eq cc) 6 _ _ (k0_off40_eq cc) fd (owedL (List.drop 32 (paysL cc))) rfl _) $$ [HoY6 Hd HO Hts Htr]
  · isplitr; · iexact HIc66
    isplitr; · iexact HIr
    isplitl [HoY6]; · iexact HoY6
    isplitl [Hd]; · iexact Hd
    isplitl [HO]; · iexact HO
    isplitl [Hts]; · iexact Hts
    isplitr; · iexact HRs
    isplitl [Htr]; · iexact Htr
    iexact HRr
  iintro ⟨Hcys6, HO⟩
  iclear HIr HRs HRr
  sl_exec
  -- the z-neighbour's chunk 5 has landed
  icases Hcr with ⟨Hc, Hcr⟩
  icases HpR with ⟨Hp, HpR⟩
  icases HIw with ⟨#HIc57, HIw⟩
  ihave Hmw := (mayWait_list (F := F) cc (dsem (⟨57, by decide⟩ : Fin 140)) (List.drop 32 (paysL cc)) (by decide)) $$ Hlev
  iapply (wait_a5_at m cc _ 5 rfl) $$ [Hc HO Hmw Hp]
  · isplitr; · iexact HIc57
    isplitl [Hc]; · iexact Hc
    isplitl [HO]; · iexact HO
    isplitl [Hmw]; · iexact Hmw
    iexact Hp
  iintro ⟨HO, Hq57, -, Hz5⟩
  sl_exec
  -- the y-neighbour's chunk 5 has landed
  icases Hcr with ⟨Hc, Hcr⟩
  icases HpR with ⟨Hp, HpR⟩
  icases HIw with ⟨#HIc73, HIw⟩
  ihave Hmw := (mayWait_list (F := F) cc (dsem (⟨73, by decide⟩ : Fin 140)) (List.drop 32 (paysL cc)) (by decide)) $$ Hlev
  iapply (wait_a7_at m cc _ 5 rfl) $$ [Hc HO Hmw Hp]
  · isplitr; · iexact HIc73
    isplitl [Hc]; · iexact Hc
    isplitl [HO]; · iexact HO
    isplitl [Hmw]; · iexact Hmw
    iexact Hp
  iintro ⟨HO, Hq73, -, Hy5⟩
  -- chunk 5 of the two neighbours' quarters: half its ownership stays for the copy into the result, of the other half one column half travels on
  ihave Hz5 := (Entails.of_eq (share_FG_eq (F := F) (r4R (zqF cc) 5) cc (r4 m cc))) $$ Hz5
  icases Hz5 with ⟨HzF5, HzG5⟩
  ihave HzF5 := (Entails.of_eq (chunk_halves (F := F) cc (zqF cc) 5 shF (r4 m cc))) $$ HzF5
  icases HzF5 with ⟨HzFl5, HzFr5⟩
  ihave Hy5 := (Entails.of_eq (share_FG_eq (F := F) (r4R (yqF cc) 5) cc (r4 m cc))) $$ Hy5
  icases Hy5 with ⟨HyF5, HyG5⟩
  ihave HyF5 := (Entails.of_eq (chunk_halves (F := F) cc (yqF cc) 5 shF (r4 m cc))) $$ HyF5
  icases HyF5 with ⟨HyFl5, HyFr5⟩
  sl_exec
  -- the right half of the z-neighbour's chunk 5 on to the y-neighbour
  icases Htk with ⟨Hts, Htr, Htk⟩
  icases HIt with ⟨#HIc97, #HIr, HIt⟩
  icases HRt with ⟨#HRs, #HRr, HRt⟩
  icases HhYp with ⟨⟨%fd, Hd⟩, HhYp⟩
  iapply (send_yf_at m cc _ (dev33_eq cc) 5 (by decide) _ _ (k0_off41_eq cc) fd (owedL (List.drop 33 (paysL cc))) rfl _) $$ [HzFr5 Hd HO Hts Htr]
  · isplitr; · iexact HIc97
    isplitr; · iexact HIr
    isplitl [HzFr5]; · iexact HzFr5
    isplitl [Hd]; · iexact Hd
    isplitl [HO]; · iexact HO
    isplitl [Hts]; · iexact Hts
    isplitr; · iexact HRs
    isplitl [Htr]; · iexact Htr
    iexact HRr
  iintro ⟨Hcyfs5, HO⟩
  iclear HIr HRs HRr
  sl_exec
  -- the left half of the y-neighbour's chunk 5 on to the z-neighbour
  icases Htk with ⟨Hts, Htr, Htk⟩
  icases HIt with ⟨#HIc81, #HIr, HIt⟩
  icases HRt with ⟨#HRs, #HRr, HRt⟩
  icases HhZp with ⟨⟨%fd, Hd⟩, HhZp⟩
  iapply (send_zf_at m cc _ (dev34_eq cc) 5 (by decide) _ _ (k0_off42_eq cc) fd (owedL (List.drop 34 (paysL cc))) rfl _) $$ [HyFl5 Hd HO Hts Htr]
  · isplitr; · iexact HIc81
    isplitr; · iexact HIr
    isplitl [HyFl5]; · iexact HyFl5
    isplitl [Hd]; · iexact Hd
    isplitl [HO]; · iexact HO
    isplitl [Hts]; · iexact Hts
    isplitr; · iexact HRs
    isplitl [Htr]; · iexact Htr
    iexact HRr
  iintro ⟨Hczfs5, HO⟩
  iclear HIr HRs HRr
  sl_exec
  -- the left half of chunk 4 of the diagonal quarter has landed
  icases Hcr with ⟨Hc, Hcr⟩
  icases HpR with ⟨Hp, HpR⟩
  icases HIw with ⟨#HIc88, HIw⟩
  ihave Hmw := (mayWait_list (F := F) cc (dsem (⟨88, by decide⟩ : Fin 140)) (List.drop 34 (paysL cc)) (by decide)) $$ Hlev
  iapply (wait_a9_at m cc _ 4 rfl (by decide)) $$ [Hc HO Hmw Hp]
  · isplitr; · iexact HIc88
    isplitl [Hc]; · iexact Hc
    isplitl [HO]; · iexact HO
    isplitl [Hmw]; · iexact Hmw
    iexact Hp
  iintro ⟨HO, Hq88, -, Hdl4⟩
  sl_exec
  -- its right half has landed
  icases Hcr with ⟨Hc, Hcr⟩
  icases HpR with ⟨Hp, HpR⟩
  icases HIw with ⟨#HIc104, HIw⟩
  ihave Hmw := (mayWait_list (F := F) cc (dsem (⟨104, by decide⟩ : Fin 140)) (List.drop 34 (paysL cc)) (by decide)) $$ Hlev
  iapply (wait_a11_at m cc _ 4 rfl (by decide)) $$ [Hc HO Hmw Hp]
  · isplitr; · iexact HIc104
    isplitl [Hc]; · iexact Hc
    isplitl [HO]; · iexact HO
    isplitl [Hmw]; · iexact Hmw
    iexact Hp
  iintro ⟨HO, Hq104, -, Hdr4⟩
  ihave Hd4 := (Entails.of_eq (chunk_halves (F := F) cc (dqF cc) 4 fullShare (r4 m cc)).symm) $$ [Hdl4 Hdr4]
  · isplitl [Hdl4]; · iexact Hdl4
    iexact Hdr4
  -- the four copies of chunk 4 into the result
  icases HvO with ⟨Hw4a, Hw4b, Hw4c, Hw4d, HvO⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  -- step 7 of the main loop: the x-neighbour's chunk 7 has landed
  icases Hcr with ⟨Hc, Hcr⟩
  icases HpR with ⟨Hp, HpR⟩
  icases HIw with ⟨#HIc37, HIw⟩
  ihave Hmw := (mayWait_list (F := F) cc (dsem (⟨37, by decide⟩ : Fin 140)) (List.drop 34 (paysL cc)) (by decide)) $$ Hlev
  iapply (wait_a1_at m cc _ 7 rfl) $$ [Hc HO Hmw Hp]
  · isplitr; · iexact HIc37
    isplitl [Hc]; · iexact Hc
    isplitl [HO]; · iexact HO
    isplitl [Hmw]; · iexact Hmw
    iexact Hp
  iintro ⟨HO, Hq37, -, Hrb7⟩
  icases Hown with ⟨Ho7⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  ihave Ho7 := (congr (F := F) (r4R (mqF cc) 7) cc fullShare (dev.sl.Ho7_w1 m f0) (r4 m cc) (fun i hi => glue_own m cc 7 _ (k0_off16_inb cc) (k0_off16_eq cc) _ (k0_off43_inb cc) (k0_off43_eq cc) f0 i hi)) $$ Ho7
  ihave Ho7 := (Entails.of_eq (share_ZYK_eq (F := F) (r4R (mqF cc) 7) cc (r4 m cc))) $$ Ho7
  icases Ho7 with ⟨HoZ7, HoY7, HoK7⟩
  -- own chunk 7 to the z-neighbour
  icases Htk with ⟨Hts, Htr, Htk⟩
  icases HIt with ⟨#HIc51, #HIr, HIt⟩
  icases HRt with ⟨#HRs, #HRr, HRt⟩
  icases HqZ with ⟨%fd, Hd⟩
  iapply (send_z_at m cc _ (dev35_eq cc) 7 _ _ (k0_off44_eq cc) fd (owedL (List.drop 35 (paysL cc))) rfl _) $$ [HoZ7 Hd HO Hts Htr]
  · isplitr; · iexact HIc51
    isplitr; · iexact HIr
    isplitl [HoZ7]; · iexact HoZ7
    isplitl [Hd]; · iexact Hd
    isplitl [HO]; · iexact HO
    isplitl [Hts]; · iexact Hts
    isplitr; · iexact HRs
    isplitl [Htr]; · iexact Htr
    iexact HRr
  iintro ⟨Hczs7, HO⟩
  iclear HIr HRs HRr
  sl_exec
  -- own chunk 7 to the y-neighbour
  icases Htk with ⟨Hts, Htr, Htk⟩
  icases HIt with ⟨#HIc67, #HIr, HIt⟩
  icases HRt with ⟨#HRs, #HRr, HRt⟩
  icases HqY with ⟨%fd, Hd⟩
  iapply (send_y_at m cc _ (dev36_eq cc) 7 _ _ (k0_off44_eq cc) fd (owedL (List.drop 36 (paysL cc))) rfl _) $$ [HoY7 Hd HO Hts Htr]
  · isplitr; · iexact HIc67
    isplitr; · iexact HIr
    isplitl [HoY7]; · iexact HoY7
    isplitl [Hd]; · iexact Hd
    isplitl [HO]; · iexact HO
    isplitl [Hts]; · iexact Hts
    isplitr; · iexact HRs
    isplitl [Htr]; · iexact Htr
    iexact HRr
  iintro ⟨Hcys7, HO⟩
  iclear HIr HRs HRr
  sl_exec
  -- the z-neighbour's chunk 6 has landed
  icases Hcr with ⟨Hc, Hcr⟩
  icases HpR with ⟨Hp, HpR⟩
  icases HIw with ⟨#HIc58, HIw⟩
  ihave Hmw := (mayWait_list (F := F) cc (dsem (⟨58, by decide⟩ : Fin 140)) (List.drop 36 (paysL cc)) (by decide)) $$ Hlev
  iapply (wait_a5_at m cc _ 6 rfl) $$ [Hc HO Hmw Hp]
  · isplitr; · iexact HIc58
    isplitl [Hc]; · iexact Hc
    isplitl [HO]; · iexact HO
    isplitl [Hmw]; · iexact Hmw
    iexact Hp
  iintro ⟨HO, Hq58, -, Hz6⟩
  sl_exec
  -- the y-neighbour's chunk 6 has landed
  icases Hcr with ⟨Hc, Hcr⟩
  icases HpR with ⟨Hp, HpR⟩
  icases HIw with ⟨#HIc74, HIw⟩
  ihave Hmw := (mayWait_list (F := F) cc (dsem (⟨74, by decide⟩ : Fin 140)) (List.drop 36 (paysL cc)) (by decide)) $$ Hlev
  iapply (wait_a7_at m cc _ 6 rfl) $$ [Hc HO Hmw Hp]
  · isplitr; · iexact HIc74
    isplitl [Hc]; · iexact Hc
    isplitl [HO]; · iexact HO
    isplitl [Hmw]; · iexact Hmw
    iexact Hp
  iintro ⟨HO, Hq74, -, Hy6⟩
  -- chunk 6 of the two neighbours' quarters: half its ownership stays for the copy into the result, of the other half one column half travels on
  ihave Hz6 := (Entails.of_eq (share_FG_eq (F := F) (r4R (zqF cc) 6) cc (r4 m cc))) $$ Hz6
  icases Hz6 with ⟨HzF6, HzG6⟩
  ihave HzF6 := (Entails.of_eq (chunk_halves (F := F) cc (zqF cc) 6 shF (r4 m cc))) $$ HzF6
  icases HzF6 with ⟨HzFl6, HzFr6⟩
  ihave Hy6 := (Entails.of_eq (share_FG_eq (F := F) (r4R (yqF cc) 6) cc (r4 m cc))) $$ Hy6
  icases Hy6 with ⟨HyF6, HyG6⟩
  ihave HyF6 := (Entails.of_eq (chunk_halves (F := F) cc (yqF cc) 6 shF (r4 m cc))) $$ HyF6
  icases HyF6 with ⟨HyFl6, HyFr6⟩
  sl_exec
  -- the right half of the z-neighbour's chunk 6 on to the y-neighbour
  icases Htk with ⟨Hts, Htr, Htk⟩
  icases HIt with ⟨#HIc98, #HIr, HIt⟩
  icases HRt with ⟨#HRs, #HRr, HRt⟩
  icases HhYp with ⟨⟨%fd, Hd⟩, HhYp⟩
  iapply (send_yf_at m cc _ (dev37_eq cc) 6 (by decide) _ _ (k0_off45_eq cc) fd (owedL (List.drop 37 (paysL cc))) rfl _) $$ [HzFr6 Hd HO Hts Htr]
  · isplitr; · iexact HIc98
    isplitr; · iexact HIr
    isplitl [HzFr6]; · iexact HzFr6
    isplitl [Hd]; · iexact Hd
    isplitl [HO]; · iexact HO
    isplitl [Hts]; · iexact Hts
    isplitr; · iexact HRs
    isplitl [Htr]; · iexact Htr
    iexact HRr
  iintro ⟨Hcyfs6, HO⟩
  iclear HIr HRs HRr
  sl_exec
  -- the left half of the y-neighbour's chunk 6 on to the z-neighbour
  icases Htk with ⟨Hts, Htr, Htk⟩
  icases HIt with ⟨#HIc82, #HIr, HIt⟩
  icases HRt with ⟨#HRs, #HRr, HRt⟩
  icases HhZp with ⟨⟨%fd, Hd⟩, HhZp⟩
  iapply (send_zf_at m cc _ (dev38_eq cc) 6 (by decide) _ _ (k0_off46_eq cc) fd (owedL (List.drop 38 (paysL cc))) rfl _) $$ [HyFl6 Hd HO Hts Htr]
  · isplitr; · iexact HIc82
    isplitr; · iexact HIr
    isplitl [HyFl6]; · iexact HyFl6
    isplitl [Hd]; · iexact Hd
    isplitl [HO]; · iexact HO
    isplitl [Hts]; · iexact Hts
    isplitr; · iexact HRs
    isplitl [Htr]; · iexact Htr
    iexact HRr
  iintro ⟨Hczfs6, HO⟩
  iclear HIr HRs HRr
  sl_exec
  -- the left half of chunk 5 of the diagonal quarter has landed
  icases Hcr with ⟨Hc, Hcr⟩
  icases HpR with ⟨Hp, HpR⟩
  icases HIw with ⟨#HIc89, HIw⟩
  ihave Hmw := (mayWait_list (F := F) cc (dsem (⟨89, by decide⟩ : Fin 140)) (List.drop 38 (paysL cc)) (by decide)) $$ Hlev
  iapply (wait_a9_at m cc _ 5 rfl (by decide)) $$ [Hc HO Hmw Hp]
  · isplitr; · iexact HIc89
    isplitl [Hc]; · iexact Hc
    isplitl [HO]; · iexact HO
    isplitl [Hmw]; · iexact Hmw
    iexact Hp
  iintro ⟨HO, Hq89, -, Hdl5⟩
  sl_exec
  -- its right half has landed
  icases Hcr with ⟨Hc, Hcr⟩
  icases HpR with ⟨Hp, HpR⟩
  icases HIw with ⟨#HIc105, HIw⟩
  ihave Hmw := (mayWait_list (F := F) cc (dsem (⟨105, by decide⟩ : Fin 140)) (List.drop 38 (paysL cc)) (by decide)) $$ Hlev
  iapply (wait_a11_at m cc _ 5 rfl (by decide)) $$ [Hc HO Hmw Hp]
  · isplitr; · iexact HIc105
    isplitl [Hc]; · iexact Hc
    isplitl [HO]; · iexact HO
    isplitl [Hmw]; · iexact Hmw
    iexact Hp
  iintro ⟨HO, Hq105, -, Hdr5⟩
  ihave Hd5 := (Entails.of_eq (chunk_halves (F := F) cc (dqF cc) 5 fullShare (r4 m cc)).symm) $$ [Hdl5 Hdr5]
  · isplitl [Hdl5]; · iexact Hdl5
    iexact Hdr5
  -- the four copies of chunk 5 into the result
  icases HvO with ⟨Hw5a, Hw5b, Hw5c, Hw5d, HvO⟩
  have hled38 : ∀ (s : DmaSem sig), lvJ s.val = 0 → ((levAts LL lvv : sProp 𝕄) ⊢ MayWait (cc : Thread nD τ) (.dma s) () (owedL (List.drop 38 (paysL cc)))) :=
    fun s hs => mayWait_local (F := F) cc s hs _ (by decide)
  sl_exec
  clear hled38
  -- after the loop: the z-neighbour's last chunk has landed
  icases Hcr with ⟨Hc, Hcr⟩
  icases HpR with ⟨Hp, HpR⟩
  icases HIw with ⟨#HIc59, HIw⟩
  ihave Hmw := (mayWait_list (F := F) cc (dsem (⟨59, by decide⟩ : Fin 140)) (List.drop 38 (paysL cc)) (by decide)) $$ Hlev
  iapply (wait_a5_at m cc _ 7 rfl) $$ [Hc HO Hmw Hp]
  · isplitr; · iexact HIc59
    isplitl [Hc]; · iexact Hc
    isplitl [HO]; · iexact HO
    isplitl [Hmw]; · iexact Hmw
    iexact Hp
  iintro ⟨HO, Hq59, -, Hz7⟩
  sl_exec
  -- the y-neighbour's last chunk has landed
  icases Hcr with ⟨Hc, Hcr⟩
  icases HpR with ⟨Hp, HpR⟩
  icases HIw with ⟨#HIc75, HIw⟩
  ihave Hmw := (mayWait_list (F := F) cc (dsem (⟨75, by decide⟩ : Fin 140)) (List.drop 38 (paysL cc)) (by decide)) $$ Hlev
  iapply (wait_a7_at m cc _ 7 rfl) $$ [Hc HO Hmw Hp]
  · isplitr; · iexact HIc75
    isplitl [Hc]; · iexact Hc
    isplitl [HO]; · iexact HO
    isplitl [Hmw]; · iexact Hmw
    iexact Hp
  iintro ⟨HO, Hq75, -, Hy7⟩
  -- chunk 7 of the two neighbours' quarters: half its ownership stays for the copy into the result, of the other half one column half travels on
  ihave Hz7 := (Entails.of_eq (share_FG_eq (F := F) (r4R (zqF cc) 7) cc (r4 m cc))) $$ Hz7
  icases Hz7 with ⟨HzF7, HzG7⟩
  ihave HzF7 := (Entails.of_eq (chunk_halves (F := F) cc (zqF cc) 7 shF (r4 m cc))) $$ HzF7
  icases HzF7 with ⟨HzFl7, HzFr7⟩
  ihave Hy7 := (Entails.of_eq (share_FG_eq (F := F) (r4R (yqF cc) 7) cc (r4 m cc))) $$ Hy7
  icases Hy7 with ⟨HyF7, HyG7⟩
  ihave HyF7 := (Entails.of_eq (chunk_halves (F := F) cc (yqF cc) 7 shF (r4 m cc))) $$ HyF7
  icases HyF7 with ⟨HyFl7, HyFr7⟩
  sl_exec
  -- the right half of the z-neighbour's last chunk on to the y-neighbour
  icases Htk with ⟨Hts, Htr, Htk⟩
  icases HIt with ⟨#HIc99, #HIr, HIt⟩
  icases HRt with ⟨#HRs, #HRr, HRt⟩
  icases HhYp with ⟨%fd, Hd⟩
  iapply (send_yf_at m cc _ (dev39_eq cc) 7 (by decide) _ _ (k0_off47_eq cc) fd (owedL (List.drop 39 (paysL cc))) rfl _) $$ [HzFr7 Hd HO Hts Htr]
  · isplitr; · iexact HIc99
    isplitr; · iexact HIr
    isplitl [HzFr7]; · iexact HzFr7
    isplitl [Hd]; · iexact Hd
    isplitl [HO]; · iexact HO
    isplitl [Hts]; · iexact Hts
    isplitr; · iexact HRs
    isplitl [Htr]; · iexact Htr
    iexact HRr
  iintro ⟨Hcyfs7, HO⟩
  iclear HIr HRs HRr
  sl_exec
  -- the left half of the y-neighbour's last chunk on to the z-neighbour
  icases Htk with ⟨Hts, Htr⟩
  icases HIt with ⟨#HIc83, #HIr⟩
  icases HRt with ⟨#HRs, #HRr⟩
  icases HhZp with ⟨%fd, Hd⟩
  iapply (send_zf_at m cc _ (dev40_eq cc) 7 (by decide) _ _ (k0_off48_eq cc) fd (owedL (List.drop 40 (paysL cc))) rfl _) $$ [HyFl7 Hd HO Hts Htr]
  · isplitr; · iexact HIc83
    isplitr; · iexact HIr
    isplitl [HyFl7]; · iexact HyFl7
    isplitl [Hd]; · iexact Hd
    isplitl [HO]; · iexact HO
    isplitl [Hts]; · iexact Hts
    isplitr; · iexact HRs
    isplitl [Htr]; · iexact Htr
    iexact HRr
  iintro ⟨Hczfs7, HO⟩
  iclear HIr HRs HRr
  sl_exec
  -- chunk 0 of the diagonal quarter: the x-neighbour's chunk has landed
  icases Hcr with ⟨Hc, Hcr⟩
  icases HpR with ⟨Hp, HpR⟩
  icases HIw with ⟨#HIc41, HIw⟩
  ihave Hmw := (mayWait_list (F := F) cc (dsem (⟨41, by decide⟩ : Fin 140)) (List.drop 40 (paysL cc)) (by decide)) $$ Hlev
  iapply (wait_a3_at m cc _ 0 rfl) $$ [Hc HO Hmw Hp]
  · isplitr; · iexact HIc41
    isplitl [Hc]; · iexact Hc
    isplitl [HO]; · iexact HO
    isplitl [Hmw]; · iexact Hmw
    iexact Hp
  iintro ⟨HO, Hq41, -, Hrb20⟩
  icases Hdg with ⟨Hdq0, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq0 := (congr (F := F) (r4R (dqF cc) 0) cc fullShare (dev.sl.Hdq0_w1 m f0) (r4 m cc) (fun i hi => glue_dgn m cc 0 0 rfl _ (k0_off18_inb cc) (k0_off18_eq cc) _ (k0_off49_inb cc) (k0_off49_eq cc) f0 i hi)) $$ Hdq0
  -- the four copies of chunk 0 into the result
  icases HvO with ⟨Hw0a, Hw0b, Hw0c, Hw0d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 1 of the diagonal quarter: the x-neighbour's chunk has landed
  icases Hcr with ⟨Hc, Hcr⟩
  icases HpR with ⟨Hp, HpR⟩
  icases HIw with ⟨#HIc42, HIw⟩
  ihave Hmw := (mayWait_list (F := F) cc (dsem (⟨42, by decide⟩ : Fin 140)) (List.drop 40 (paysL cc)) (by decide)) $$ Hlev
  iapply (wait_a3_at m cc _ 1 rfl) $$ [Hc HO Hmw Hp]
  · isplitr; · iexact HIc42
    isplitl [Hc]; · iexact Hc
    isplitl [HO]; · iexact HO
    isplitl [Hmw]; · iexact Hmw
    iexact Hp
  iintro ⟨HO, Hq42, -, Hrb21⟩
  icases Hdg with ⟨Hdq1, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq1 := (congr (F := F) (r4R (dqF cc) 1) cc fullShare (dev.sl.Hdq1_w1 m f0) (r4 m cc) (fun i hi => glue_dgn m cc 1 1 rfl _ (k0_off20_inb cc) (k0_off20_eq cc) _ (k0_off50_inb cc) (k0_off50_eq cc) f0 i hi)) $$ Hdq1
  -- the four copies of chunk 1 into the result
  icases HvO with ⟨Hw1a, Hw1b, Hw1c, Hw1d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 2 of the diagonal quarter: the x-neighbour's chunk has landed
  icases Hcr with ⟨Hc, Hcr⟩
  icases HpR with ⟨Hp, HpR⟩
  icases HIw with ⟨#HIc43, HIw⟩
  ihave Hmw := (mayWait_list (F := F) cc (dsem (⟨43, by decide⟩ : Fin 140)) (List.drop 40 (paysL cc)) (by decide)) $$ Hlev
  iapply (wait_a3_at m cc _ 2 rfl) $$ [Hc HO Hmw Hp]
  · isplitr; · iexact HIc43
    isplitl [Hc]; · iexact Hc
    isplitl [HO]; · iexact HO
    isplitl [Hmw]; · iexact Hmw
    iexact Hp
  iintro ⟨HO, Hq43, -, Hrb22⟩
  icases Hdg with ⟨Hdq2⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq2 := (congr (F := F) (r4R (dqF cc) 2) cc fullShare (dev.sl.Hdq2_w1 m f0) (r4 m cc) (fun i hi => glue_dgn m cc 2 2 rfl _ (k0_off22_inb cc) (k0_off22_eq cc) _ (k0_off51_inb cc) (k0_off51_eq cc) f0 i hi)) $$ Hdq2
  -- the four copies of chunk 2 into the result
  icases HvO with ⟨Hw2a, Hw2b, Hw2c, Hw2d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 6 of the diagonal quarter has landed
  icases Hcr with ⟨Hc, Hcr⟩
  icases HpR with ⟨Hp, HpR⟩
  icases HIw with ⟨#HIc90, HIw⟩
  ihave Hmw := (mayWait_list (F := F) cc (dsem (⟨90, by decide⟩ : Fin 140)) (List.drop 40 (paysL cc)) (by decide)) $$ Hlev
  iapply (wait_a9_at m cc _ 6 rfl (by decide)) $$ [Hc HO Hmw Hp]
  · isplitr; · iexact HIc90
    isplitl [Hc]; · iexact Hc
    isplitl [HO]; · iexact HO
    isplitl [Hmw]; · iexact Hmw
    iexact Hp
  iintro ⟨HO, Hq90, -, Hdl6⟩
  sl_exec
  -- its right half has landed
  icases Hcr with ⟨Hc, Hcr⟩
  icases HpR with ⟨Hp, HpR⟩
  icases HIw with ⟨#HIc106, HIw⟩
  ihave Hmw := (mayWait_list (F := F) cc (dsem (⟨106, by decide⟩ : Fin 140)) (List.drop 40 (paysL cc)) (by decide)) $$ Hlev
  iapply (wait_a11_at m cc _ 6 rfl (by decide)) $$ [Hc HO Hmw Hp]
  · isplitr; · iexact HIc106
    isplitl [Hc]; · iexact Hc
    isplitl [HO]; · iexact HO
    isplitl [Hmw]; · iexact Hmw
    iexact Hp
  iintro ⟨HO, Hq106, -, Hdr6⟩
  ihave Hd6 := (Entails.of_eq (chunk_halves (F := F) cc (dqF cc) 6 fullShare (r4 m cc)).symm) $$ [Hdl6 Hdr6]
  · isplitl [Hdl6]; · iexact Hdl6
    iexact Hdr6
  -- the four copies of chunk 6 into the result
  icases HvO with ⟨Hw6a, Hw6b, Hw6c, Hw6d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 7 of the diagonal quarter has landed
  icases Hcr with ⟨Hc, Hcr⟩
  icases HpR with ⟨Hp, HpR⟩
  icases HIw with ⟨#HIc91, HIw⟩
  ihave Hcr := ((sep_emp (PROP := sProp 𝕄)).2) $$ Hcr
  ihave Hmw := (mayWait_list (F := F) cc (dsem (⟨91, by decide⟩ : Fin 140)) (List.drop 40 (paysL cc)) (by decide)) $$ Hlev
  iapply (wait_a9_at m cc _ 7 rfl (by decide)) $$ [Hc HO Hmw Hp]
  · isplitr; · iexact HIc91
    isplitl [Hc]; · iexact Hc
    isplitl [HO]; · iexact HO
    isplitl [Hmw]; · iexact Hmw
    iexact Hp
  iintro ⟨HO, Hq91, -, Hdl7⟩
  sl_exec
  -- its right half has landed
  icases HIw with #HIc107
  icases Hcr with ⟨Hcr, -⟩
  ihave Hmw := (mayWait_list (F := F) cc (dsem (⟨107, by decide⟩ : Fin 140)) (List.drop 40 (paysL cc)) (by decide)) $$ Hlev
  iapply (wait_a11_at m cc _ 7 rfl (by decide)) $$ [Hcr HO Hmw HpR]
  · isplitr; · iexact HIc107
    isplitl [Hcr]; · iexact Hcr
    isplitl [HO]; · iexact HO
    isplitl [Hmw]; · iexact Hmw
    iexact HpR
  iintro ⟨HO, Hq107, -, Hdr7⟩
  ihave Hd7 := (Entails.of_eq (chunk_halves (F := F) cc (dqF cc) 7 fullShare (r4 m cc)).symm) $$ [Hdl7 Hdr7]
  · isplitl [Hdl7]; · iexact Hdl7
    iexact Hdr7
  -- the four copies of chunk 7 into the result
  icases HvO with ⟨Hw7a, Hw7b, Hw7c, Hw7d⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- nothing is owed any more: the level fact for the remaining local waits, once
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  -- the departure of chunk 0 across x
  icases HpS with ⟨Hp, HpS⟩
  ihave Hmw := (mayWait_list (F := F) cc (dsem (⟨22, by decide⟩ : Fin 140)) (List.drop 40 (paysL cc)) (by decide)) $$ Hlev
  iapply (wait_a0_at m cc _ 0 rfl) $$ [Hcxs0 HO Hmw Hp]
  · isplitr; · iexact HIc22
    isplitl [Hcxs0]; · iexact Hcxs0
    isplitl [HO]; · iexact HO
    isplitl [Hmw]; · iexact Hmw
    iexact Hp
  iintro ⟨HO, Hq22, -, HBs0⟩
  sl_exec
  -- of own chunk 0 to z
  icases HpS with ⟨Hp, HpS⟩
  ihave Hmw := (mayWait_list (F := F) cc (dsem (⟨44, by decide⟩ : Fin 140)) (List.drop 40 (paysL cc)) (by decide)) $$ Hlev
  iapply (wait_a4_at m cc _ 0 rfl) $$ [Hczs0 HO Hmw Hp]
  · isplitr; · iexact HIc44
    isplitl [Hczs0]; · iexact Hczs0
    isplitl [HO]; · iexact HO
    isplitl [Hmw]; · iexact Hmw
    iexact Hp
  iintro ⟨HO, Hq44, -, HoZb0⟩
  sl_exec
  -- of own chunk 0 to y
  icases HpS with ⟨Hp, HpS⟩
  ihave Hmw := (mayWait_list (F := F) cc (dsem (⟨60, by decide⟩ : Fin 140)) (List.drop 40 (paysL cc)) (by decide)) $$ Hlev
  iapply (wait_a6_at m cc _ 0 rfl) $$ [Hcys0 HO Hmw Hp]
  · isplitr; · iexact HIc60
    isplitl [Hcys0]; · iexact Hcys0
    isplitl [HO]; · iexact HO
    isplitl [Hmw]; · iexact Hmw
    iexact Hp
  iintro ⟨HO, Hq60, -, HoYb0⟩
  sl_exec
  -- the departure of chunk 1 across x
  icases HpS with ⟨Hp, HpS⟩
  ihave Hmw := (mayWait_list (F := F) cc (dsem (⟨23, by decide⟩ : Fin 140)) (List.drop 40 (paysL cc)) (by decide)) $$ Hlev
  iapply (wait_a0_at m cc _ 1 rfl) $$ [Hcxs1 HO Hmw Hp]
  · isplitr; · iexact HIc23
    isplitl [Hcxs1]; · iexact Hcxs1
    isplitl [HO]; · iexact HO
    isplitl [Hmw]; · iexact Hmw
    iexact Hp
  iintro ⟨HO, Hq23, -, HBs1⟩
  sl_exec
  -- of own chunk 1 to z
  icases HpS with ⟨Hp, HpS⟩
  ihave Hmw := (mayWait_list (F := F) cc (dsem (⟨45, by decide⟩ : Fin 140)) (List.drop 40 (paysL cc)) (by decide)) $$ Hlev
  iapply (wait_a4_at m cc _ 1 rfl) $$ [Hczs1 HO Hmw Hp]
  · isplitr; · iexact HIc45
    isplitl [Hczs1]; · iexact Hczs1
    isplitl [HO]; · iexact HO
    isplitl [Hmw]; · iexact Hmw
    iexact Hp
  iintro ⟨HO, Hq45, -, HoZb1⟩
  sl_exec
  -- of own chunk 1 to y
  icases HpS with ⟨Hp, HpS⟩
  ihave Hmw := (mayWait_list (F := F) cc (dsem (⟨61, by decide⟩ : Fin 140)) (List.drop 40 (paysL cc)) (by decide)) $$ Hlev
  iapply (wait_a6_at m cc _ 1 rfl) $$ [Hcys1 HO Hmw Hp]
  · isplitr; · iexact HIc61
    isplitl [Hcys1]; · iexact Hcys1
    isplitl [HO]; · iexact HO
    isplitl [Hmw]; · iexact Hmw
    iexact Hp
  iintro ⟨HO, Hq61, -, HoYb1⟩
  sl_exec
  -- the departure of chunk 2 across x
  icases HpS with ⟨Hp, HpS⟩
  ihave Hmw := (mayWait_list (F := F) cc (dsem (⟨24, by decide⟩ : Fin 140)) (List.drop 40 (paysL cc)) (by decide)) $$ Hlev
  iapply (wait_a0_at m cc _ 2 rfl) $$ [Hcxs2 HO Hmw Hp]
  · isplitr; · iexact HIc24
    isplitl [Hcxs2]; · iexact Hcxs2
    isplitl [HO]; · iexact HO
    isplitl [Hmw]; · iexact Hmw
    iexact Hp
  iintro ⟨HO, Hq24, -, HBs2⟩
  sl_exec
  -- of own chunk 2 to z
  icases HpS with ⟨Hp, HpS⟩
  ihave Hmw := (mayWait_list (F := F) cc (dsem (⟨46, by decide⟩ : Fin 140)) (List.drop 40 (paysL cc)) (by decide)) $$ Hlev
  iapply (wait_a4_at m cc _ 2 rfl) $$ [Hczs2 HO Hmw Hp]
  · isplitr; · iexact HIc46
    isplitl [Hczs2]; · iexact Hczs2
    isplitl [HO]; · iexact HO
    isplitl [Hmw]; · iexact Hmw
    iexact Hp
  iintro ⟨HO, Hq46, -, HoZb2⟩
  sl_exec
  -- of own chunk 2 to y
  icases HpS with ⟨Hp, HpS⟩
  ihave Hmw := (mayWait_list (F := F) cc (dsem (⟨62, by decide⟩ : Fin 140)) (List.drop 40 (paysL cc)) (by decide)) $$ Hlev
  iapply (wait_a6_at m cc _ 2 rfl) $$ [Hcys2 HO Hmw Hp]
  · isplitr; · iexact HIc62
    isplitl [Hcys2]; · iexact Hcys2
    isplitl [HO]; · iexact HO
    isplitl [Hmw]; · iexact Hmw
    iexact Hp
  iintro ⟨HO, Hq62, -, HoYb2⟩
  sl_exec
  -- the departure of chunk 3 across x
  icases HpS with ⟨Hp, HpS⟩
  ihave Hmw := (mayWait_list (F := F) cc (dsem (⟨25, by decide⟩ : Fin 140)) (List.drop 40 (paysL cc)) (by decide)) $$ Hlev
  iapply (wait_a0_at m cc _ 3 rfl) $$ [Hcxs3 HO Hmw Hp]
  · isplitr; · iexact HIc25
    isplitl [Hcxs3]; · iexact Hcxs3
    isplitl [HO]; · iexact HO
    isplitl [Hmw]; · iexact Hmw
    iexact Hp
  iintro ⟨HO, Hq25, -, HBs3⟩
  sl_exec
  -- of own chunk 3 to z
  icases HpS with ⟨Hp, HpS⟩
  ihave Hmw := (mayWait_list (F := F) cc (dsem (⟨47, by decide⟩ : Fin 140)) (List.drop 40 (paysL cc)) (by decide)) $$ Hlev
  iapply (wait_a4_at m cc _ 3 rfl) $$ [Hczs3 HO Hmw Hp]
  · isplitr; · iexact HIc47
    isplitl [Hczs3]; · iexact Hczs3
    isplitl [HO]; · iexact HO
    isplitl [Hmw]; · iexact Hmw
    iexact Hp
  iintro ⟨HO, Hq47, -, HoZb3⟩
  sl_exec
  -- of own chunk 3 to y
  icases HpS with ⟨Hp, HpS⟩
  ihave Hmw := (mayWait_list (F := F) cc (dsem (⟨63, by decide⟩ : Fin 140)) (List.drop 40 (paysL cc)) (by decide)) $$ Hlev
  iapply (wait_a6_at m cc _ 3 rfl) $$ [Hcys3 HO Hmw Hp]
  · isplitr; · iexact HIc63
    isplitl [Hcys3]; · iexact Hcys3
    isplitl [HO]; · iexact HO
    isplitl [Hmw]; · iexact Hmw
    iexact Hp
  iintro ⟨HO, Hq63, -, HoYb3⟩
  sl_exec
  -- of the forwarded half to z
  icases HpS with ⟨Hp, HpS⟩
  ihave Hmw := (mayWait_list (F := F) cc (dsem (⟨79, by decide⟩ : Fin 140)) (List.drop 40 (paysL cc)) (by decide)) $$ Hlev
  iapply (wait_a8_at m cc _ 3 rfl (by decide)) $$ [Hczfs3 HO Hmw Hp]
  · isplitr; · iexact HIc79
    isplitl [Hczfs3]; · iexact Hczfs3
    isplitl [HO]; · iexact HO
    isplitl [Hmw]; · iexact Hmw
    iexact Hp
  iintro ⟨HO, Hq79, -, HyFlb3⟩
  sl_exec
  -- of the forwarded half to y
  icases HpS with ⟨Hp, HpS⟩
  ihave Hmw := (mayWait_list (F := F) cc (dsem (⟨95, by decide⟩ : Fin 140)) (List.drop 40 (paysL cc)) (by decide)) $$ Hlev
  iapply (wait_a10_at m cc _ 3 rfl (by decide)) $$ [Hcyfs3 HO Hmw Hp]
  · isplitr; · iexact HIc95
    isplitl [Hcyfs3]; · iexact Hcyfs3
    isplitl [HO]; · iexact HO
    isplitl [Hmw]; · iexact Hmw
    iexact Hp
  iintro ⟨HO, Hq95, -, HzFrb3⟩
  sl_exec
  -- the departure of chunk 4 across x
  icases HpS with ⟨Hp, HpS⟩
  ihave Hmw := (mayWait_list (F := F) cc (dsem (⟨26, by decide⟩ : Fin 140)) (List.drop 40 (paysL cc)) (by decide)) $$ Hlev
  iapply (wait_a0_at m cc _ 4 rfl) $$ [Hcxs4 HO Hmw Hp]
  · isplitr; · iexact HIc26
    isplitl [Hcxs4]; · iexact Hcxs4
    isplitl [HO]; · iexact HO
    isplitl [Hmw]; · iexact Hmw
    iexact Hp
  iintro ⟨HO, Hq26, -, HBs4⟩
  sl_exec
  -- of own chunk 4 to z
  icases HpS with ⟨Hp, HpS⟩
  ihave Hmw := (mayWait_list (F := F) cc (dsem (⟨48, by decide⟩ : Fin 140)) (List.drop 40 (paysL cc)) (by decide)) $$ Hlev
  iapply (wait_a4_at m cc _ 4 rfl) $$ [Hczs4 HO Hmw Hp]
  · isplitr; · iexact HIc48
    isplitl [Hczs4]; · iexact Hczs4
    isplitl [HO]; · iexact HO
    isplitl [Hmw]; · iexact Hmw
    iexact Hp
  iintro ⟨HO, Hq48, -, HoZb4⟩
  sl_exec
  -- of own chunk 4 to y
  icases HpS with ⟨Hp, HpS⟩
  ihave Hmw := (mayWait_list (F := F) cc (dsem (⟨64, by decide⟩ : Fin 140)) (List.drop 40 (paysL cc)) (by decide)) $$ Hlev
  iapply (wait_a6_at m cc _ 4 rfl) $$ [Hcys4 HO Hmw Hp]
  · isplitr; · iexact HIc64
    isplitl [Hcys4]; · iexact Hcys4
    isplitl [HO]; · iexact HO
    isplitl [Hmw]; · iexact Hmw
    iexact Hp
  iintro ⟨HO, Hq64, -, HoYb4⟩
  sl_exec
  -- of the forwarded half to z
  icases HpS with ⟨Hp, HpS⟩
  ihave Hmw := (mayWait_list (F := F) cc (dsem (⟨80, by decide⟩ : Fin 140)) (List.drop 40 (paysL cc)) (by decide)) $$ Hlev
  iapply (wait_a8_at m cc _ 4 rfl (by decide)) $$ [Hczfs4 HO Hmw Hp]
  · isplitr; · iexact HIc80
    isplitl [Hczfs4]; · iexact Hczfs4
    isplitl [HO]; · iexact HO
    isplitl [Hmw]; · iexact Hmw
    iexact Hp
  iintro ⟨HO, Hq80, -, HyFlb4⟩
  sl_exec
  -- of the forwarded half to y
  icases HpS with ⟨Hp, HpS⟩
  ihave Hmw := (mayWait_list (F := F) cc (dsem (⟨96, by decide⟩ : Fin 140)) (List.drop 40 (paysL cc)) (by decide)) $$ Hlev
  iapply (wait_a10_at m cc _ 4 rfl (by decide)) $$ [Hcyfs4 HO Hmw Hp]
  · isplitr; · iexact HIc96
    isplitl [Hcyfs4]; · iexact Hcyfs4
    isplitl [HO]; · iexact HO
    isplitl [Hmw]; · iexact Hmw
    iexact Hp
  iintro ⟨HO, Hq96, -, HzFrb4⟩
  sl_exec
  -- the departure of chunk 5 across x
  icases HpS with ⟨Hp, HpS⟩
  ihave Hmw := (mayWait_list (F := F) cc (dsem (⟨27, by decide⟩ : Fin 140)) (List.drop 40 (paysL cc)) (by decide)) $$ Hlev
  iapply (wait_a0_at m cc _ 5 rfl) $$ [Hcxs5 HO Hmw Hp]
  · isplitr; · iexact HIc27
    isplitl [Hcxs5]; · iexact Hcxs5
    isplitl [HO]; · iexact HO
    isplitl [Hmw]; · iexact Hmw
    iexact Hp
  iintro ⟨HO, Hq27, -, HBs5⟩
  sl_exec
  -- of own chunk 5 to z
  icases HpS with ⟨Hp, HpS⟩
  ihave Hmw := (mayWait_list (F := F) cc (dsem (⟨49, by decide⟩ : Fin 140)) (List.drop 40 (paysL cc)) (by decide)) $$ Hlev
  iapply (wait_a4_at m cc _ 5 rfl) $$ [Hczs5 HO Hmw Hp]
  · isplitr; · iexact HIc49
    isplitl [Hczs5]; · iexact Hczs5
    isplitl [HO]; · iexact HO
    isplitl [Hmw]; · iexact Hmw
    iexact Hp
  iintro ⟨HO, Hq49, -, HoZb5⟩
  sl_exec
  -- of own chunk 5 to y
  icases HpS with ⟨Hp, HpS⟩
  ihave Hmw := (mayWait_list (F := F) cc (dsem (⟨65, by decide⟩ : Fin 140)) (List.drop 40 (paysL cc)) (by decide)) $$ Hlev
  iapply (wait_a6_at m cc _ 5 rfl) $$ [Hcys5 HO Hmw Hp]
  · isplitr; · iexact HIc65
    isplitl [Hcys5]; · iexact Hcys5
    isplitl [HO]; · iexact HO
    isplitl [Hmw]; · iexact Hmw
    iexact Hp
  iintro ⟨HO, Hq65, -, HoYb5⟩
  sl_exec
  -- of the forwarded half to z
  icases HpS with ⟨Hp, HpS⟩
  ihave Hmw := (mayWait_list (F := F) cc (dsem (⟨81, by decide⟩ : Fin 140)) (List.drop 40 (paysL cc)) (by decide)) $$ Hlev
  iapply (wait_a8_at m cc _ 5 rfl (by decide)) $$ [Hczfs5 HO Hmw Hp]
  · isplitr; · iexact HIc81
    isplitl [Hczfs5]; · iexact Hczfs5
    isplitl [HO]; · iexact HO
    isplitl [Hmw]; · iexact Hmw
    iexact Hp
  iintro ⟨HO, Hq81, -, HyFlb5⟩
  sl_exec
  -- of the forwarded half to y
  icases HpS with ⟨Hp, HpS⟩
  ihave Hmw := (mayWait_list (F := F) cc (dsem (⟨97, by decide⟩ : Fin 140)) (List.drop 40 (paysL cc)) (by decide)) $$ Hlev
  iapply (wait_a10_at m cc _ 5 rfl (by decide)) $$ [Hcyfs5 HO Hmw Hp]
  · isplitr; · iexact HIc97
    isplitl [Hcyfs5]; · iexact Hcyfs5
    isplitl [HO]; · iexact HO
    isplitl [Hmw]; · iexact Hmw
    iexact Hp
  iintro ⟨HO, Hq97, -, HzFrb5⟩
  sl_exec
  -- the departure of chunk 6 across x
  icases HpS with ⟨Hp, HpS⟩
  ihave Hmw := (mayWait_list (F := F) cc (dsem (⟨28, by decide⟩ : Fin 140)) (List.drop 40 (paysL cc)) (by decide)) $$ Hlev
  iapply (wait_a0_at m cc _ 6 rfl) $$ [Hcxs6 HO Hmw Hp]
  · isplitr; · iexact HIc28
    isplitl [Hcxs6]; · iexact Hcxs6
    isplitl [HO]; · iexact HO
    isplitl [Hmw]; · iexact Hmw
    iexact Hp
  iintro ⟨HO, Hq28, -, HBs6⟩
  sl_exec
  -- of own chunk 6 to z
  icases HpS with ⟨Hp, HpS⟩
  ihave Hmw := (mayWait_list (F := F) cc (dsem (⟨50, by decide⟩ : Fin 140)) (List.drop 40 (paysL cc)) (by decide)) $$ Hlev
  iapply (wait_a4_at m cc _ 6 rfl) $$ [Hczs6 HO Hmw Hp]
  · isplitr; · iexact HIc50
    isplitl [Hczs6]; · iexact Hczs6
    isplitl [HO]; · iexact HO
    isplitl [Hmw]; · iexact Hmw
    iexact Hp
  iintro ⟨HO, Hq50, -, HoZb6⟩
  sl_exec
  -- of own chunk 6 to y
  icases HpS with ⟨Hp, HpS⟩
  ihave Hmw := (mayWait_list (F := F) cc (dsem (⟨66, by decide⟩ : Fin 140)) (List.drop 40 (paysL cc)) (by decide)) $$ Hlev
  iapply (wait_a6_at m cc _ 6 rfl) $$ [Hcys6 HO Hmw Hp]
  · isplitr; · iexact HIc66
    isplitl [Hcys6]; · iexact Hcys6
    isplitl [HO]; · iexact HO
    isplitl [Hmw]; · iexact Hmw
    iexact Hp
  iintro ⟨HO, Hq66, -, HoYb6⟩
  sl_exec
  -- of the forwarded half to z
  icases HpS with ⟨Hp, HpS⟩
  ihave Hmw := (mayWait_list (F := F) cc (dsem (⟨82, by decide⟩ : Fin 140)) (List.drop 40 (paysL cc)) (by decide)) $$ Hlev
  iapply (wait_a8_at m cc _ 6 rfl (by decide)) $$ [Hczfs6 HO Hmw Hp]
  · isplitr; · iexact HIc82
    isplitl [Hczfs6]; · iexact Hczfs6
    isplitl [HO]; · iexact HO
    isplitl [Hmw]; · iexact Hmw
    iexact Hp
  iintro ⟨HO, Hq82, -, HyFlb6⟩
  sl_exec
  -- of the forwarded half to y
  icases HpS with ⟨Hp, HpS⟩
  ihave Hmw := (mayWait_list (F := F) cc (dsem (⟨98, by decide⟩ : Fin 140)) (List.drop 40 (paysL cc)) (by decide)) $$ Hlev
  iapply (wait_a10_at m cc _ 6 rfl (by decide)) $$ [Hcyfs6 HO Hmw Hp]
  · isplitr; · iexact HIc98
    isplitl [Hcyfs6]; · iexact Hcyfs6
    isplitl [HO]; · iexact HO
    isplitl [Hmw]; · iexact Hmw
    iexact Hp
  iintro ⟨HO, Hq98, -, HzFrb6⟩
  sl_exec
  -- the departure of chunk 7 across x
  icases HpS with ⟨Hp, HpS⟩
  ihave Hmw := (mayWait_list (F := F) cc (dsem (⟨29, by decide⟩ : Fin 140)) (List.drop 40 (paysL cc)) (by decide)) $$ Hlev
  iapply (wait_a0_at m cc _ 7 rfl) $$ [Hcxs7 HO Hmw Hp]
  · isplitr; · iexact HIc29
    isplitl [Hcxs7]; · iexact Hcxs7
    isplitl [HO]; · iexact HO
    isplitl [Hmw]; · iexact Hmw
    iexact Hp
  iintro ⟨HO, Hq29, -, HBs7⟩
  sl_exec
  -- of own chunk 7 to z
  icases HpS with ⟨Hp, HpS⟩
  ihave Hmw := (mayWait_list (F := F) cc (dsem (⟨51, by decide⟩ : Fin 140)) (List.drop 40 (paysL cc)) (by decide)) $$ Hlev
  iapply (wait_a4_at m cc _ 7 rfl) $$ [Hczs7 HO Hmw Hp]
  · isplitr; · iexact HIc51
    isplitl [Hczs7]; · iexact Hczs7
    isplitl [HO]; · iexact HO
    isplitl [Hmw]; · iexact Hmw
    iexact Hp
  iintro ⟨HO, Hq51, -, HoZb7⟩
  sl_exec
  -- of own chunk 7 to y
  icases HpS with ⟨Hp, HpS⟩
  ihave Hmw := (mayWait_list (F := F) cc (dsem (⟨67, by decide⟩ : Fin 140)) (List.drop 40 (paysL cc)) (by decide)) $$ Hlev
  iapply (wait_a6_at m cc _ 7 rfl) $$ [Hcys7 HO Hmw Hp]
  · isplitr; · iexact HIc67
    isplitl [Hcys7]; · iexact Hcys7
    isplitl [HO]; · iexact HO
    isplitl [Hmw]; · iexact Hmw
    iexact Hp
  iintro ⟨HO, Hq67, -, HoYb7⟩
  sl_exec
  -- of the forwarded half to z
  icases HpS with ⟨Hp, HpS⟩
  ihave Hmw := (mayWait_list (F := F) cc (dsem (⟨83, by decide⟩ : Fin 140)) (List.drop 40 (paysL cc)) (by decide)) $$ Hlev
  iapply (wait_a8_at m cc _ 7 rfl (by decide)) $$ [Hczfs7 HO Hmw Hp]
  · isplitr; · iexact HIc83
    isplitl [Hczfs7]; · iexact Hczfs7
    isplitl [HO]; · iexact HO
    isplitl [Hmw]; · iexact Hmw
    iexact Hp
  iintro ⟨HO, Hq83, -, HyFlb7⟩
  sl_exec
  -- of the forwarded half to y
  icases HpS with ⟨Hp, HpS⟩
  ihave Hmw := (mayWait_list (F := F) cc (dsem (⟨99, by decide⟩ : Fin 140)) (List.drop 40 (paysL cc)) (by decide)) $$ Hlev
  iapply (wait_a10_at m cc _ 7 rfl (by decide)) $$ [Hcyfs7 HO Hmw Hp]
  · isplitr; · iexact HIc99
    isplitl [Hcyfs7]; · iexact Hcyfs7
    isplitl [HO]; · iexact HO
    isplitl [Hmw]; · iexact Hmw
    iexact Hp
  iintro ⟨HO, Hq99, -, HzFrb7⟩
  sl_exec
  -- of chunk 0 of the diagonal quarter across x
  icases HpS with ⟨Hp, HpS⟩
  ihave Hmw := (mayWait_list (F := F) cc (dsem (⟨38, by decide⟩ : Fin 140)) (List.drop 40 (paysL cc)) (by decide)) $$ Hlev
  iapply (wait_a2_at m cc _ 0 rfl) $$ [Hcds0 HO Hmw Hp]
  · isplitr; · iexact HIc38
    isplitl [Hcds0]; · iexact Hcds0
    isplitl [HO]; · iexact HO
    isplitl [Hmw]; · iexact Hmw
    iexact Hp
  iintro ⟨HO, Hq38, -, HB2s0⟩
  sl_exec
  -- of chunk 1 of the diagonal quarter across x
  icases HpS with ⟨Hp, HpS⟩
  ihave HpS := ((sep_emp (PROP := sProp 𝕄)).2) $$ HpS
  ihave Hmw := (mayWait_list (F := F) cc (dsem (⟨39, by decide⟩ : Fin 140)) (List.drop 40 (paysL cc)) (by decide)) $$ Hlev
  iapply (wait_a2_at m cc _ 1 rfl) $$ [Hcds1 HO Hmw Hp]
  · isplitr; · iexact HIc39
    isplitl [Hcds1]; · iexact Hcds1
    isplitl [HO]; · iexact HO
    isplitl [Hmw]; · iexact Hmw
    iexact Hp
  iintro ⟨HO, Hq39, -, HB2s1⟩
  sl_exec
  -- of chunk 2 of the diagonal quarter across x

  icases HpS with ⟨HpS, -⟩
  ihave Hmw := (mayWait_list (F := F) cc (dsem (⟨40, by decide⟩ : Fin 140)) (List.drop 40 (paysL cc)) (by decide)) $$ Hlev
  iapply (wait_a2_at m cc _ 2 rfl) $$ [Hcds2 HO Hmw HpS]
  · isplitr; · iexact HIc40
    isplitl [Hcds2]; · iexact Hcds2
    isplitl [HO]; · iexact HO
    isplitl [Hmw]; · iexact Hmw
    iexact HpS
  iintro ⟨HO, Hq40, -, HB2s2⟩
  sl_exec
  -- every cell of the protocol on this device has had its one round: close them, their counters are the device's again
  imod (close_cell (F := F) m cc (⟨22, by decide⟩ : Fin 140) (by decide)) $$ [Hq22] with Hv22
  · isplitr; · iexact HIc22
    iexact Hq22
  imod (close_cell (F := F) m cc (⟨23, by decide⟩ : Fin 140) (by decide)) $$ [Hq23] with Hv23
  · isplitr; · iexact HIc23
    iexact Hq23
  imod (close_cell (F := F) m cc (⟨24, by decide⟩ : Fin 140) (by decide)) $$ [Hq24] with Hv24
  · isplitr; · iexact HIc24
    iexact Hq24
  imod (close_cell (F := F) m cc (⟨25, by decide⟩ : Fin 140) (by decide)) $$ [Hq25] with Hv25
  · isplitr; · iexact HIc25
    iexact Hq25
  imod (close_cell (F := F) m cc (⟨26, by decide⟩ : Fin 140) (by decide)) $$ [Hq26] with Hv26
  · isplitr; · iexact HIc26
    iexact Hq26
  imod (close_cell (F := F) m cc (⟨27, by decide⟩ : Fin 140) (by decide)) $$ [Hq27] with Hv27
  · isplitr; · iexact HIc27
    iexact Hq27
  imod (close_cell (F := F) m cc (⟨28, by decide⟩ : Fin 140) (by decide)) $$ [Hq28] with Hv28
  · isplitr; · iexact HIc28
    iexact Hq28
  imod (close_cell (F := F) m cc (⟨29, by decide⟩ : Fin 140) (by decide)) $$ [Hq29] with Hv29
  · isplitr; · iexact HIc29
    iexact Hq29
  imod (close_cell (F := F) m cc (⟨30, by decide⟩ : Fin 140) (by decide)) $$ [Hq30] with Hv30
  · isplitr; · iexact HIc30
    iexact Hq30
  imod (close_cell (F := F) m cc (⟨31, by decide⟩ : Fin 140) (by decide)) $$ [Hq31] with Hv31
  · isplitr; · iexact HIc31
    iexact Hq31
  imod (close_cell (F := F) m cc (⟨32, by decide⟩ : Fin 140) (by decide)) $$ [Hq32] with Hv32
  · isplitr; · iexact HIc32
    iexact Hq32
  imod (close_cell (F := F) m cc (⟨33, by decide⟩ : Fin 140) (by decide)) $$ [Hq33] with Hv33
  · isplitr; · iexact HIc33
    iexact Hq33
  imod (close_cell (F := F) m cc (⟨34, by decide⟩ : Fin 140) (by decide)) $$ [Hq34] with Hv34
  · isplitr; · iexact HIc34
    iexact Hq34
  imod (close_cell (F := F) m cc (⟨35, by decide⟩ : Fin 140) (by decide)) $$ [Hq35] with Hv35
  · isplitr; · iexact HIc35
    iexact Hq35
  imod (close_cell (F := F) m cc (⟨36, by decide⟩ : Fin 140) (by decide)) $$ [Hq36] with Hv36
  · isplitr; · iexact HIc36
    iexact Hq36
  imod (close_cell (F := F) m cc (⟨37, by decide⟩ : Fin 140) (by decide)) $$ [Hq37] with Hv37
  · isplitr; · iexact HIc37
    iexact Hq37
  imod (close_cell (F := F) m cc (⟨38, by decide⟩ : Fin 140) (by decide)) $$ [Hq38] with Hv38
  · isplitr; · iexact HIc38
    iexact Hq38
  imod (close_cell (F := F) m cc (⟨39, by decide⟩ : Fin 140) (by decide)) $$ [Hq39] with Hv39
  · isplitr; · iexact HIc39
    iexact Hq39
  imod (close_cell (F := F) m cc (⟨40, by decide⟩ : Fin 140) (by decide)) $$ [Hq40] with Hv40
  · isplitr; · iexact HIc40
    iexact Hq40
  imod (close_cell (F := F) m cc (⟨41, by decide⟩ : Fin 140) (by decide)) $$ [Hq41] with Hv41
  · isplitr; · iexact HIc41
    iexact Hq41
  imod (close_cell (F := F) m cc (⟨42, by decide⟩ : Fin 140) (by decide)) $$ [Hq42] with Hv42
  · isplitr; · iexact HIc42
    iexact Hq42
  imod (close_cell (F := F) m cc (⟨43, by decide⟩ : Fin 140) (by decide)) $$ [Hq43] with Hv43
  · isplitr; · iexact HIc43
    iexact Hq43
  imod (close_cell (F := F) m cc (⟨44, by decide⟩ : Fin 140) (by decide)) $$ [Hq44] with Hv44
  · isplitr; · iexact HIc44
    iexact Hq44
  imod (close_cell (F := F) m cc (⟨45, by decide⟩ : Fin 140) (by decide)) $$ [Hq45] with Hv45
  · isplitr; · iexact HIc45
    iexact Hq45
  imod (close_cell (F := F) m cc (⟨46, by decide⟩ : Fin 140) (by decide)) $$ [Hq46] with Hv46
  · isplitr; · iexact HIc46
    iexact Hq46
  imod (close_cell (F := F) m cc (⟨47, by decide⟩ : Fin 140) (by decide)) $$ [Hq47] with Hv47
  · isplitr; · iexact HIc47
    iexact Hq47
  imod (close_cell (F := F) m cc (⟨48, by decide⟩ : Fin 140) (by decide)) $$ [Hq48] with Hv48
  · isplitr; · iexact HIc48
    iexact Hq48
  imod (close_cell (F := F) m cc (⟨49, by decide⟩ : Fin 140) (by decide)) $$ [Hq49] with Hv49
  · isplitr; · iexact HIc49
    iexact Hq49
  imod (close_cell (F := F) m cc (⟨50, by decide⟩ : Fin 140) (by decide)) $$ [Hq50] with Hv50
  · isplitr; · iexact HIc50
    iexact Hq50
  imod (close_cell (F := F) m cc (⟨51, by decide⟩ : Fin 140) (by decide)) $$ [Hq51] with Hv51
  · isplitr; · iexact HIc51
    iexact Hq51
  imod (close_cell (F := F) m cc (⟨52, by decide⟩ : Fin 140) (by decide)) $$ [Hq52] with Hv52
  · isplitr; · iexact HIc52
    iexact Hq52
  imod (close_cell (F := F) m cc (⟨53, by decide⟩ : Fin 140) (by decide)) $$ [Hq53] with Hv53
  · isplitr; · iexact HIc53
    iexact Hq53
  imod (close_cell (F := F) m cc (⟨54, by decide⟩ : Fin 140) (by decide)) $$ [Hq54] with Hv54
  · isplitr; · iexact HIc54
    iexact Hq54
  imod (close_cell (F := F) m cc (⟨55, by decide⟩ : Fin 140) (by decide)) $$ [Hq55] with Hv55
  · isplitr; · iexact HIc55
    iexact Hq55
  imod (close_cell (F := F) m cc (⟨56, by decide⟩ : Fin 140) (by decide)) $$ [Hq56] with Hv56
  · isplitr; · iexact HIc56
    iexact Hq56
  imod (close_cell (F := F) m cc (⟨57, by decide⟩ : Fin 140) (by decide)) $$ [Hq57] with Hv57
  · isplitr; · iexact HIc57
    iexact Hq57
  imod (close_cell (F := F) m cc (⟨58, by decide⟩ : Fin 140) (by decide)) $$ [Hq58] with Hv58
  · isplitr; · iexact HIc58
    iexact Hq58
  imod (close_cell (F := F) m cc (⟨59, by decide⟩ : Fin 140) (by decide)) $$ [Hq59] with Hv59
  · isplitr; · iexact HIc59
    iexact Hq59
  imod (close_cell (F := F) m cc (⟨60, by decide⟩ : Fin 140) (by decide)) $$ [Hq60] with Hv60
  · isplitr; · iexact HIc60
    iexact Hq60
  imod (close_cell (F := F) m cc (⟨61, by decide⟩ : Fin 140) (by decide)) $$ [Hq61] with Hv61
  · isplitr; · iexact HIc61
    iexact Hq61
  imod (close_cell (F := F) m cc (⟨62, by decide⟩ : Fin 140) (by decide)) $$ [Hq62] with Hv62
  · isplitr; · iexact HIc62
    iexact Hq62
  imod (close_cell (F := F) m cc (⟨63, by decide⟩ : Fin 140) (by decide)) $$ [Hq63] with Hv63
  · isplitr; · iexact HIc63
    iexact Hq63
  imod (close_cell (F := F) m cc (⟨64, by decide⟩ : Fin 140) (by decide)) $$ [Hq64] with Hv64
  · isplitr; · iexact HIc64
    iexact Hq64
  imod (close_cell (F := F) m cc (⟨65, by decide⟩ : Fin 140) (by decide)) $$ [Hq65] with Hv65
  · isplitr; · iexact HIc65
    iexact Hq65
  imod (close_cell (F := F) m cc (⟨66, by decide⟩ : Fin 140) (by decide)) $$ [Hq66] with Hv66
  · isplitr; · iexact HIc66
    iexact Hq66
  imod (close_cell (F := F) m cc (⟨67, by decide⟩ : Fin 140) (by decide)) $$ [Hq67] with Hv67
  · isplitr; · iexact HIc67
    iexact Hq67
  imod (close_cell (F := F) m cc (⟨68, by decide⟩ : Fin 140) (by decide)) $$ [Hq68] with Hv68
  · isplitr; · iexact HIc68
    iexact Hq68
  imod (close_cell (F := F) m cc (⟨69, by decide⟩ : Fin 140) (by decide)) $$ [Hq69] with Hv69
  · isplitr; · iexact HIc69
    iexact Hq69
  imod (close_cell (F := F) m cc (⟨70, by decide⟩ : Fin 140) (by decide)) $$ [Hq70] with Hv70
  · isplitr; · iexact HIc70
    iexact Hq70
  imod (close_cell (F := F) m cc (⟨71, by decide⟩ : Fin 140) (by decide)) $$ [Hq71] with Hv71
  · isplitr; · iexact HIc71
    iexact Hq71
  imod (close_cell (F := F) m cc (⟨72, by decide⟩ : Fin 140) (by decide)) $$ [Hq72] with Hv72
  · isplitr; · iexact HIc72
    iexact Hq72
  imod (close_cell (F := F) m cc (⟨73, by decide⟩ : Fin 140) (by decide)) $$ [Hq73] with Hv73
  · isplitr; · iexact HIc73
    iexact Hq73
  imod (close_cell (F := F) m cc (⟨74, by decide⟩ : Fin 140) (by decide)) $$ [Hq74] with Hv74
  · isplitr; · iexact HIc74
    iexact Hq74
  imod (close_cell (F := F) m cc (⟨75, by decide⟩ : Fin 140) (by decide)) $$ [Hq75] with Hv75
  · isplitr; · iexact HIc75
    iexact Hq75
  imod (close_cell (F := F) m cc (⟨79, by decide⟩ : Fin 140) (by decide)) $$ [Hq79] with Hv79
  · isplitr; · iexact HIc79
    iexact Hq79
  imod (close_cell (F := F) m cc (⟨80, by decide⟩ : Fin 140) (by decide)) $$ [Hq80] with Hv80
  · isplitr; · iexact HIc80
    iexact Hq80
  imod (close_cell (F := F) m cc (⟨81, by decide⟩ : Fin 140) (by decide)) $$ [Hq81] with Hv81
  · isplitr; · iexact HIc81
    iexact Hq81
  imod (close_cell (F := F) m cc (⟨82, by decide⟩ : Fin 140) (by decide)) $$ [Hq82] with Hv82
  · isplitr; · iexact HIc82
    iexact Hq82
  imod (close_cell (F := F) m cc (⟨83, by decide⟩ : Fin 140) (by decide)) $$ [Hq83] with Hv83
  · isplitr; · iexact HIc83
    iexact Hq83
  imod (close_cell (F := F) m cc (⟨87, by decide⟩ : Fin 140) (by decide)) $$ [Hq87] with Hv87
  · isplitr; · iexact HIc87
    iexact Hq87
  imod (close_cell (F := F) m cc (⟨88, by decide⟩ : Fin 140) (by decide)) $$ [Hq88] with Hv88
  · isplitr; · iexact HIc88
    iexact Hq88
  imod (close_cell (F := F) m cc (⟨89, by decide⟩ : Fin 140) (by decide)) $$ [Hq89] with Hv89
  · isplitr; · iexact HIc89
    iexact Hq89
  imod (close_cell (F := F) m cc (⟨90, by decide⟩ : Fin 140) (by decide)) $$ [Hq90] with Hv90
  · isplitr; · iexact HIc90
    iexact Hq90
  imod (close_cell (F := F) m cc (⟨91, by decide⟩ : Fin 140) (by decide)) $$ [Hq91] with Hv91
  · isplitr; · iexact HIc91
    iexact Hq91
  imod (close_cell (F := F) m cc (⟨95, by decide⟩ : Fin 140) (by decide)) $$ [Hq95] with Hv95
  · isplitr; · iexact HIc95
    iexact Hq95
  imod (close_cell (F := F) m cc (⟨96, by decide⟩ : Fin 140) (by decide)) $$ [Hq96] with Hv96
  · isplitr; · iexact HIc96
    iexact Hq96
  imod (close_cell (F := F) m cc (⟨97, by decide⟩ : Fin 140) (by decide)) $$ [Hq97] with Hv97
  · isplitr; · iexact HIc97
    iexact Hq97
  imod (close_cell (F := F) m cc (⟨98, by decide⟩ : Fin 140) (by decide)) $$ [Hq98] with Hv98
  · isplitr; · iexact HIc98
    iexact Hq98
  imod (close_cell (F := F) m cc (⟨99, by decide⟩ : Fin 140) (by decide)) $$ [Hq99] with Hv99
  · isplitr; · iexact HIc99
    iexact Hq99
  imod (close_cell (F := F) m cc (⟨103, by decide⟩ : Fin 140) (by decide)) $$ [Hq103] with Hv103
  · isplitr; · iexact HIc103
    iexact Hq103
  imod (close_cell (F := F) m cc (⟨104, by decide⟩ : Fin 140) (by decide)) $$ [Hq104] with Hv104
  · isplitr; · iexact HIc104
    iexact Hq104
  imod (close_cell (F := F) m cc (⟨105, by decide⟩ : Fin 140) (by decide)) $$ [Hq105] with Hv105
  · isplitr; · iexact HIc105
    iexact Hq105
  imod (close_cell (F := F) m cc (⟨106, by decide⟩ : Fin 140) (by decide)) $$ [Hq106] with Hv106
  · isplitr; · iexact HIc106
    iexact Hq106
  imod (close_cell (F := F) m cc (⟨107, by decide⟩ : Fin 140) (by decide)) $$ [Hq107] with Hv107
  · isplitr; · iexact HIc107
    iexact Hq107
  -- the program is over: hand everything back
  icases HvU with ⟨Hu76, Hu77, Hu78, Hu84, Hu85, Hu86, Hu92, Hu93, Hu94, Hu100, Hu101, Hu102⟩
  ihave HO := (Entails.of_eq (show owes (cc : Thread nD τ) (owedL (List.drop 40 (paysL cc))) _ = owes (cc : Thread nD τ) 0 _ from rfl)) $$ HO
  -- each block of the result holds what its copy wrote: the final contents
  ihave HU00 := (congr (F := F) (outR 0 0) cc fullShare ((outR 0 0).view.writes (Elt F) g00 [⟨Rect.whole S512x256, dev.sl.dma0_34 m⟩]) (out m cc) (fun i hi => glue_out' m cc 0 0 g00 i hi)) $$ HU00
  ihave HU01 := (congr (F := F) (outR 0 1) cc fullShare ((outR 0 1).view.writes (Elt F) g01 [⟨Rect.whole S512x256, dev.sl.dma0_35 m⟩]) (out m cc) (fun i hi => glue_out' m cc 0 1 g01 i hi)) $$ HU01
  ihave HU02 := (congr (F := F) (outR 0 2) cc fullShare ((outR 0 2).view.writes (Elt F) g02 [⟨Rect.whole S512x256, dev.sl.dma0_36 m⟩]) (out m cc) (fun i hi => glue_out' m cc 0 2 g02 i hi)) $$ HU02
  ihave HU03 := (congr (F := F) (outR 0 3) cc fullShare ((outR 0 3).view.writes (Elt F) g03 [⟨Rect.whole S512x256, dev.sl.dma0_37 m⟩]) (out m cc) (fun i hi => glue_out' m cc 0 3 g03 i hi)) $$ HU03
  ihave HU10 := (congr (F := F) (outR 1 0) cc fullShare ((outR 1 0).view.writes (Elt F) g10 [⟨Rect.whole S512x256, dev.sl.dma0_38 m⟩]) (out m cc) (fun i hi => glue_out' m cc 1 0 g10 i hi)) $$ HU10
  ihave HU11 := (congr (F := F) (outR 1 1) cc fullShare ((outR 1 1).view.writes (Elt F) g11 [⟨Rect.whole S512x256, dev.sl.dma0_39 m⟩]) (out m cc) (fun i hi => glue_out' m cc 1 1 g11 i hi)) $$ HU11
  ihave HU12 := (congr (F := F) (outR 1 2) cc fullShare ((outR 1 2).view.writes (Elt F) g12 [⟨Rect.whole S512x256, dev.sl.dma0_40 m⟩]) (out m cc) (fun i hi => glue_out' m cc 1 2 g12 i hi)) $$ HU12
  ihave HU13 := (congr (F := F) (outR 1 3) cc fullShare ((outR 1 3).view.writes (Elt F) g13 [⟨Rect.whole S512x256, dev.sl.dma0_41 m⟩]) (out m cc) (fun i hi => glue_out' m cc 1 3 g13 i hi)) $$ HU13
  ihave HU20 := (congr (F := F) (outR 2 0) cc fullShare ((outR 2 0).view.writes (Elt F) g20 [⟨Rect.whole S512x256, dev.sl.dma0_42 m⟩]) (out m cc) (fun i hi => glue_out' m cc 2 0 g20 i hi)) $$ HU20
  ihave HU21 := (congr (F := F) (outR 2 1) cc fullShare ((outR 2 1).view.writes (Elt F) g21 [⟨Rect.whole S512x256, dev.sl.dma0_43 m⟩]) (out m cc) (fun i hi => glue_out' m cc 2 1 g21 i hi)) $$ HU21
  ihave HU22 := (congr (F := F) (outR 2 2) cc fullShare ((outR 2 2).view.writes (Elt F) g22 [⟨Rect.whole S512x256, dev.sl.dma0_44 m⟩]) (out m cc) (fun i hi => glue_out' m cc 2 2 g22 i hi)) $$ HU22
  ihave HU23 := (congr (F := F) (outR 2 3) cc fullShare ((outR 2 3).view.writes (Elt F) g23 [⟨Rect.whole S512x256, dev.sl.dma0_45 m⟩]) (out m cc) (fun i hi => glue_out' m cc 2 3 g23 i hi)) $$ HU23
  ihave HU30 := (congr (F := F) (outR 3 0) cc fullShare ((outR 3 0).view.writes (Elt F) g30 [⟨Rect.whole S512x256, dev.sl.dma0_22 m⟩]) (out m cc) (fun i hi => glue_out' m cc 3 0 g30 i hi)) $$ HU30
  ihave HU31 := (congr (F := F) (outR 3 1) cc fullShare ((outR 3 1).view.writes (Elt F) g31 [⟨Rect.whole S512x256, dev.sl.dma0_23 m⟩]) (out m cc) (fun i hi => glue_out' m cc 3 1 g31 i hi)) $$ HU31
  ihave HU32 := (congr (F := F) (outR 3 2) cc fullShare ((outR 3 2).view.writes (Elt F) g32 [⟨Rect.whole S512x256, dev.sl.dma0_24 m⟩]) (out m cc) (fun i hi => glue_out' m cc 3 2 g32 i hi)) $$ HU32
  ihave HU33 := (congr (F := F) (outR 3 3) cc fullShare ((outR 3 3).view.writes (Elt F) g33 [⟨Rect.whole S512x256, dev.sl.dma0_25 m⟩]) (out m cc) (fun i hi => glue_out' m cc 3 3 g33 i hi)) $$ HU33
  ihave HU40 := (congr (F := F) (outR 4 0) cc fullShare ((outR 4 0).view.writes (Elt F) g40 [⟨Rect.whole S512x256, dev.sl.dma0_26 m⟩]) (out m cc) (fun i hi => glue_out' m cc 4 0 g40 i hi)) $$ HU40
  ihave HU41 := (congr (F := F) (outR 4 1) cc fullShare ((outR 4 1).view.writes (Elt F) g41 [⟨Rect.whole S512x256, dev.sl.dma0_27 m⟩]) (out m cc) (fun i hi => glue_out' m cc 4 1 g41 i hi)) $$ HU41
  ihave HU42 := (congr (F := F) (outR 4 2) cc fullShare ((outR 4 2).view.writes (Elt F) g42 [⟨Rect.whole S512x256, dev.sl.dma0_28 m⟩]) (out m cc) (fun i hi => glue_out' m cc 4 2 g42 i hi)) $$ HU42
  ihave HU43 := (congr (F := F) (outR 4 3) cc fullShare ((outR 4 3).view.writes (Elt F) g43 [⟨Rect.whole S512x256, dev.sl.dma0_29 m⟩]) (out m cc) (fun i hi => glue_out' m cc 4 3 g43 i hi)) $$ HU43
  ihave HU50 := (congr (F := F) (outR 5 0) cc fullShare ((outR 5 0).view.writes (Elt F) g50 [⟨Rect.whole S512x256, dev.sl.dma0_30 m⟩]) (out m cc) (fun i hi => glue_out' m cc 5 0 g50 i hi)) $$ HU50
  ihave HU51 := (congr (F := F) (outR 5 1) cc fullShare ((outR 5 1).view.writes (Elt F) g51 [⟨Rect.whole S512x256, dev.sl.dma0_31 m⟩]) (out m cc) (fun i hi => glue_out' m cc 5 1 g51 i hi)) $$ HU51
  ihave HU52 := (congr (F := F) (outR 5 2) cc fullShare ((outR 5 2).view.writes (Elt F) g52 [⟨Rect.whole S512x256, dev.sl.dma0_32 m⟩]) (out m cc) (fun i hi => glue_out' m cc 5 2 g52 i hi)) $$ HU52
  ihave HU53 := (congr (F := F) (outR 5 3) cc fullShare ((outR 5 3).view.writes (Elt F) g53 [⟨Rect.whole S512x256, dev.sl.dma0_33 m⟩]) (out m cc) (fun i hi => glue_out' m cc 5 3 g53 i hi)) $$ HU53
  ihave HU60 := (congr (F := F) (outR 6 0) cc fullShare ((outR 6 0).view.writes (Elt F) g60 [⟨Rect.whole S512x256, dev.sl.dma0_46 m⟩]) (out m cc) (fun i hi => glue_out' m cc 6 0 g60 i hi)) $$ HU60
  ihave HU61 := (congr (F := F) (outR 6 1) cc fullShare ((outR 6 1).view.writes (Elt F) g61 [⟨Rect.whole S512x256, dev.sl.dma0_47 m⟩]) (out m cc) (fun i hi => glue_out' m cc 6 1 g61 i hi)) $$ HU61
  ihave HU62 := (congr (F := F) (outR 6 2) cc fullShare ((outR 6 2).view.writes (Elt F) g62 [⟨Rect.whole S512x256, dev.sl.dma0_48 m⟩]) (out m cc) (fun i hi => glue_out' m cc 6 2 g62 i hi)) $$ HU62
  ihave HU63 := (congr (F := F) (outR 6 3) cc fullShare ((outR 6 3).view.writes (Elt F) g63 [⟨Rect.whole S512x256, dev.sl.dma0_49 m⟩]) (out m cc) (fun i hi => glue_out' m cc 6 3 g63 i hi)) $$ HU63
  ihave HU70 := (congr (F := F) (outR 7 0) cc fullShare ((outR 7 0).view.writes (Elt F) g70 [⟨Rect.whole S512x256, dev.sl.dma0_50 m⟩]) (out m cc) (fun i hi => glue_out' m cc 7 0 g70 i hi)) $$ HU70
  ihave HU71 := (congr (F := F) (outR 7 1) cc fullShare ((outR 7 1).view.writes (Elt F) g71 [⟨Rect.whole S512x256, dev.sl.dma0_51 m⟩]) (out m cc) (fun i hi => glue_out' m cc 7 1 g71 i hi)) $$ HU71
  ihave HU72 := (congr (F := F) (outR 7 2) cc fullShare ((outR 7 2).view.writes (Elt F) g72 [⟨Rect.whole S512x256, dev.sl.dma0_52 m⟩]) (out m cc) (fun i hi => glue_out' m cc 7 2 g72 i hi)) $$ HU72
  ihave HU73 := (congr (F := F) (outR 7 3) cc fullShare ((outR 7 3).view.writes (Elt F) g73 [⟨Rect.whole S512x256, dev.sl.dma0_53 m⟩]) (out m cc) (fun i hi => glue_out' m cc 7 3 g73 i hi)) $$ HU73
  sl_step
  iapply Hk
  unfold bodyPost
  isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7 Hz0 Hz1 Hz2 HzG3 HzFl3 HzFrb3 HzG4 HzFl4 HzFrb4 HzG5 HzFl5 HzFrb5 HzG6 HzFl6 HzFrb6 HzG7 HzFl7 HzFrb7 Hy0 Hy1 Hy2 HyG3 HyFlb3 HyFr3 HyG4 HyFlb4 HyFr4 HyG5 HyFlb5 HyFr5 HyG6 HyFlb6 HyFr6 HyG7 HyFlb7 HyFr7 Hdq0 Hdq1 Hdq2 Hd3 Hd4 Hd5 Hd6 Hd7]
  · iapply (Entails.of_eq (junk_whole (F := F) cc cc0_scratch0).symm)
    iapply (r4_back (F := F) cc)
    isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7]
    · isplitl [HoZb0 HoYb0 HoK0]
      · iapply (own_back (F := F) cc 0 (r4 m cc))
        isplitl [HoZb0]
        · iexact HoZb0
        isplitl [HoYb0]
        · iexact HoYb0
        iexact HoK0
      isplitl [HoZb1 HoYb1 HoK1]
      · iapply (own_back (F := F) cc 1 (r4 m cc))
        isplitl [HoZb1]
        · iexact HoZb1
        isplitl [HoYb1]
        · iexact HoYb1
        iexact HoK1
      isplitl [HoZb2 HoYb2 HoK2]
      · iapply (own_back (F := F) cc 2 (r4 m cc))
        isplitl [HoZb2]
        · iexact HoZb2
        isplitl [HoYb2]
        · iexact HoYb2
        iexact HoK2
      isplitl [HoZb3 HoYb3 HoK3]
      · iapply (own_back (F := F) cc 3 (r4 m cc))
        isplitl [HoZb3]
        · iexact HoZb3
        isplitl [HoYb3]
        · iexact HoYb3
        iexact HoK3
      isplitl [HoZb4 HoYb4 HoK4]
      · iapply (own_back (F := F) cc 4 (r4 m cc))
        isplitl [HoZb4]
        · iexact HoZb4
        isplitl [HoYb4]
        · iexact HoYb4
        iexact HoK4
      isplitl [HoZb5 HoYb5 HoK5]
      · iapply (own_back (F := F) cc 5 (r4 m cc))
        isplitl [HoZb5]
        · iexact HoZb5
        isplitl [HoYb5]
        · iexact HoYb5
        iexact HoK5
      isplitl [HoZb6 HoYb6 HoK6]
      · iapply (own_back (F := F) cc 6 (r4 m cc))
        isplitl [HoZb6]
        · iexact HoZb6
        isplitl [HoYb6]
        · iexact HoYb6
        iexact HoK6
      iapply (own_back (F := F) cc 7 (r4 m cc))
      isplitl [HoZb7]
      · iexact HoZb7
      isplitl [HoYb7]
      · iexact HoYb7
      iexact HoK7
    isplitl [Hz0 Hz1 Hz2 HzG3 HzFl3 HzFrb3 HzG4 HzFl4 HzFrb4 HzG5 HzFl5 HzFrb5 HzG6 HzFl6 HzFrb6 HzG7 HzFl7 HzFrb7]
    · isplitl [Hz0]
      · iexists _; iexact Hz0
      isplitl [Hz1]
      · iexists _; iexact Hz1
      isplitl [Hz2]
      · iexists _; iexact Hz2
      isplitl [HzG3 HzFl3 HzFrb3]
      · iapply (nbr_back (F := F) cc (zqF cc) 3 (r4 m cc))
        isplitl [HzG3]
        · iexact HzG3
        isplitl [HzFl3]
        · iexact HzFl3
        iexact HzFrb3
      isplitl [HzG4 HzFl4 HzFrb4]
      · iapply (nbr_back (F := F) cc (zqF cc) 4 (r4 m cc))
        isplitl [HzG4]
        · iexact HzG4
        isplitl [HzFl4]
        · iexact HzFl4
        iexact HzFrb4
      isplitl [HzG5 HzFl5 HzFrb5]
      · iapply (nbr_back (F := F) cc (zqF cc) 5 (r4 m cc))
        isplitl [HzG5]
        · iexact HzG5
        isplitl [HzFl5]
        · iexact HzFl5
        iexact HzFrb5
      isplitl [HzG6 HzFl6 HzFrb6]
      · iapply (nbr_back (F := F) cc (zqF cc) 6 (r4 m cc))
        isplitl [HzG6]
        · iexact HzG6
        isplitl [HzFl6]
        · iexact HzFl6
        iexact HzFrb6
      iapply (nbr_back (F := F) cc (zqF cc) 7 (r4 m cc))
      isplitl [HzG7]
      · iexact HzG7
      isplitl [HzFl7]
      · iexact HzFl7
      iexact HzFrb7
    isplitl [Hy0 Hy1 Hy2 HyG3 HyFlb3 HyFr3 HyG4 HyFlb4 HyFr4 HyG5 HyFlb5 HyFr5 HyG6 HyFlb6 HyFr6 HyG7 HyFlb7 HyFr7]
    · isplitl [Hy0]
      · iexists _; iexact Hy0
      isplitl [Hy1]
      · iexists _; iexact Hy1
      isplitl [Hy2]
      · iexists _; iexact Hy2
      isplitl [HyG3 HyFlb3 HyFr3]
      · iapply (nbr_back (F := F) cc (yqF cc) 3 (r4 m cc))
        isplitl [HyG3]
        · iexact HyG3
        isplitl [HyFlb3]
        · iexact HyFlb3
        iexact HyFr3
      isplitl [HyG4 HyFlb4 HyFr4]
      · iapply (nbr_back (F := F) cc (yqF cc) 4 (r4 m cc))
        isplitl [HyG4]
        · iexact HyG4
        isplitl [HyFlb4]
        · iexact HyFlb4
        iexact HyFr4
      isplitl [HyG5 HyFlb5 HyFr5]
      · iapply (nbr_back (F := F) cc (yqF cc) 5 (r4 m cc))
        isplitl [HyG5]
        · iexact HyG5
        isplitl [HyFlb5]
        · iexact HyFlb5
        iexact HyFr5
      isplitl [HyG6 HyFlb6 HyFr6]
      · iapply (nbr_back (F := F) cc (yqF cc) 6 (r4 m cc))
        isplitl [HyG6]
        · iexact HyG6
        isplitl [HyFlb6]
        · iexact HyFlb6
        iexact HyFr6
      iapply (nbr_back (F := F) cc (yqF cc) 7 (r4 m cc))
      isplitl [HyG7]
      · iexact HyG7
      isplitl [HyFlb7]
      · iexact HyFlb7
      iexact HyFr7
    isplitl [Hdq0 Hdq1 Hdq2]
    · isplitl [Hdq0]
      · iexists _; iexact Hdq0
      isplitl [Hdq1]
      · iexists _; iexact Hdq1
      iexists _; iexact Hdq2
    isplitl [Hd3]
    · iapply (dq_halves (F := F) cc 3 (r4 m cc))
      iexact Hd3
    isplitl [Hd4]
    · iapply (dq_halves (F := F) cc 4 (r4 m cc))
      iexact Hd4
    isplitl [Hd5]
    · iapply (dq_halves (F := F) cc 5 (r4 m cc))
      iexact Hd5
    isplitl [Hd6]
    · iapply (dq_halves (F := F) cc 6 (r4 m cc))
      iexact Hd6
    iapply (dq_halves (F := F) cc 7 (r4 m cc))
    iexact Hd7
  isplitl [HBs0 HBs1 HBs2 HBs3 HBs4 HBs5 HBs6 HBs7]
  · iapply (Entails.of_eq (junk_whole (F := F) cc cc0_scratch1).symm)
    iapply (sb_rows_join (F := F) cc)
    isplitl [HBs0]
    · iexists _; iexact HBs0
    isplitl [HBs1]
    · iexists _; iexact HBs1
    isplitl [HBs2]
    · iexists _; iexact HBs2
    isplitl [HBs3]
    · iexists _; iexact HBs3
    isplitl [HBs4]
    · iexists _; iexact HBs4
    isplitl [HBs5]
    · iexists _; iexact HBs5
    isplitl [HBs6]
    · iexists _; iexact HBs6
    iexists _; iexact HBs7
  isplitl [Hrb0 Hrb1 Hrb2 Hrb3 Hrb4 Hrb5 Hrb6 Hrb7]
  · iapply (Entails.of_eq (junk_whole (F := F) cc cc0_scratch2).symm)
    iapply (rb_rows_join (F := F) cc)
    isplitl [Hrb0]
    · iexists _; iexact Hrb0
    isplitl [Hrb1]
    · iexists _; iexact Hrb1
    isplitl [Hrb2]
    · iexists _; iexact Hrb2
    isplitl [Hrb3]
    · iexists _; iexact Hrb3
    isplitl [Hrb4]
    · iexists _; iexact Hrb4
    isplitl [Hrb5]
    · iexists _; iexact Hrb5
    isplitl [Hrb6]
    · iexists _; iexact Hrb6
    iexists _; iexact Hrb7
  isplitl [HB2s0 HB2s1 HB2s2]
  · iapply (Entails.of_eq (junk_whole (F := F) cc cc0_scratch3).symm)
    iapply (sb2_rows_join (F := F) cc)
    isplitl [HB2s0]
    · iexists _; iexact HB2s0
    isplitl [HB2s1]
    · iexists _; iexact HB2s1
    iexists _; iexact HB2s2
  isplitl [Hrb20 Hrb21 Hrb22]
  · iapply (Entails.of_eq (junk_whole (F := F) cc cc0_scratch4).symm)
    iapply (rb2_rows_join (F := F) cc)
    isplitl [Hrb20]
    · iexists _; iexact Hrb20
    isplitl [Hrb21]
    · iexists _; iexact Hrb21
    iexists _; iexact Hrb22
  isplitl [HP0 HP1 HP2 HP3 HP4 HP5 HP6 HP7]
  · iapply (Entails.of_eq (junk_whole (F := F) cc cc0_scratch5).symm)
    iapply (stP_rows_join (F := F) cc)
    isplitl [HP0]
    · iexists _; iexact HP0
    isplitl [HP1]
    · iexists _; iexact HP1
    isplitl [HP2]
    · iexists _; iexact HP2
    isplitl [HP3]
    · iexists _; iexact HP3
    isplitl [HP4]
    · iexists _; iexact HP4
    isplitl [HP5]
    · iexists _; iexact HP5
    isplitl [HP6]
    · iexists _; iexact HP6
    iexists _; iexact HP7
  isplitl [HL0 HL1 HL2 HL3 HL4 HL5 HL6 HL7]
  · iapply (Entails.of_eq (junk_whole (F := F) cc cc0_scratch6).symm)
    iapply (stL_rows_join (F := F) cc)
    isplitl [HL0]
    · iexists _; iexact HL0
    isplitl [HL1]
    · iexists _; iexact HL1
    isplitl [HL2]
    · iexists _; iexact HL2
    isplitl [HL3]
    · iexists _; iexact HL3
    isplitl [HL4]
    · iexists _; iexact HL4
    isplitl [HL5]
    · iexists _; iexact HL5
    isplitl [HL6]
    · iexists _; iexact HL6
    iexists _; iexact HL7
  isplitl [HP20 HP21 HP22]
  · iapply (Entails.of_eq (junk_whole (F := F) cc cc0_scratch7).symm)
    iapply (stP2_rows_join (F := F) cc)
    isplitl [HP20]
    · iexists _; iexact HP20
    isplitl [HP21]
    · iexists _; iexact HP21
    iexists _; iexact HP22
  isplitl [HL20 HL21 HL22]
  · iapply (Entails.of_eq (junk_whole (F := F) cc cc0_scratch8).symm)
    iapply (stL2_rows_join (F := F) cc)
    isplitl [HL20]
    · iexists _; iexact HL20
    isplitl [HL21]
    · iexists _; iexact HL21
    iexists _; iexact HL22
  isplitl [HX]
  · iexact HX
  isplitl [HU00 HU01 HU02 HU03 HU10 HU11 HU12 HU13 HU20 HU21 HU22 HU23 HU30 HU31 HU32 HU33 HU40 HU41 HU42 HU43 HU50 HU51 HU52 HU53 HU60 HU61 HU62 HU63 HU70 HU71 HU72 HU73]
  · iapply (out_join (F := F) cc (out m cc))
    isplitl [HU00]
    · iexact HU00
    isplitl [HU01]
    · iexact HU01
    isplitl [HU02]
    · iexact HU02
    isplitl [HU03]
    · iexact HU03
    isplitl [HU10]
    · iexact HU10
    isplitl [HU11]
    · iexact HU11
    isplitl [HU12]
    · iexact HU12
    isplitl [HU13]
    · iexact HU13
    isplitl [HU20]
    · iexact HU20
    isplitl [HU21]
    · iexact HU21
    isplitl [HU22]
    · iexact HU22
    isplitl [HU23]
    · iexact HU23
    isplitl [HU30]
    · iexact HU30
    isplitl [HU31]
    · iexact HU31
    isplitl [HU32]
    · iexact HU32
    isplitl [HU33]
    · iexact HU33
    isplitl [HU40]
    · iexact HU40
    isplitl [HU41]
    · iexact HU41
    isplitl [HU42]
    · iexact HU42
    isplitl [HU43]
    · iexact HU43
    isplitl [HU50]
    · iexact HU50
    isplitl [HU51]
    · iexact HU51
    isplitl [HU52]
    · iexact HU52
    isplitl [HU53]
    · iexact HU53
    isplitl [HU60]
    · iexact HU60
    isplitl [HU61]
    · iexact HU61
    isplitl [HU62]
    · iexact HU62
    isplitl [HU63]
    · iexact HU63
    isplitl [HU70]
    · iexact HU70
    isplitl [HU71]
    · iexact HU71
    isplitl [HU72]
    · iexact HU72
    iexact HU73
  isplitl [Hv0 Hv1 Hv2 Hv3 Hv4 Hv5 Hv6 Hv7 Hv8 Hv9 Hv10 Hv11 Hv12 Hv13 Hv14 Hv15 Hv16 Hv17 Hv18 Hv19 Hv20 Hv21 Hv22 Hv23 Hv24 Hv25 Hv26 Hv27 Hv28 Hv29 Hv30 Hv31 Hv32 Hv33 Hv34 Hv35 Hv36 Hv37 Hv38 Hv39 Hv40 Hv41 Hv42 Hv43 Hv44 Hv45 Hv46 Hv47 Hv48 Hv49 Hv50 Hv51 Hv52 Hv53 Hv54 Hv55 Hv56 Hv57 Hv58 Hv59 Hv60 Hv61 Hv62 Hv63 Hv64 Hv65 Hv66 Hv67 Hv68 Hv69 Hv70 Hv71 Hv72 Hv73 Hv74 Hv75 Hu76 Hu77 Hu78 Hv79 Hv80 Hv81 Hv82 Hv83 Hu84 Hu85 Hu86 Hv87 Hv88 Hv89 Hv90 Hv91 Hu92 Hu93 Hu94 Hv95 Hv96 Hv97 Hv98 Hv99 Hu100 Hu101 Hu102 Hv103 Hv104 Hv105 Hv106 Hv107 Hw0a Hw0b Hw0c Hw0d Hw1a Hw1b Hw1c Hw1d Hw2a Hw2b Hw2c Hw2d Hw3a Hw3b Hw3c Hw3d Hw4a Hw4b Hw4c Hw4d Hw5a Hw5b Hw5c Hw5d Hw6a Hw6b Hw6c Hw6d Hw7a Hw7b Hw7c Hw7d]
  · iapply (Entails.of_eq (show (iprop(semVal (cellAt cc (⟨0, Nat.le_of_ble_eq_true rfl⟩ : Fin 140)) 0 ∗ semVal (cellAt cc (⟨1, Nat.le_of_ble_eq_true rfl⟩ : Fin 140)) 0 ∗ semVal (cellAt cc (⟨2, Nat.le_of_ble_eq_true rfl⟩ : Fin 140)) 0 ∗ semVal (cellAt cc (⟨3, Nat.le_of_ble_eq_true rfl⟩ : Fin 140)) 0 ∗ semVal (cellAt cc (⟨4, Nat.le_of_ble_eq_true rfl⟩ : Fin 140)) 0 ∗ semVal (cellAt cc (⟨5, Nat.le_of_ble_eq_true rfl⟩ : Fin 140)) 0 ∗ semVal (cellAt cc (⟨6, Nat.le_of_ble_eq_true rfl⟩ : Fin 140)) 0 ∗ semVal (cellAt cc (⟨7, Nat.le_of_ble_eq_true rfl⟩ : Fin 140)) 0 ∗ semVal (cellAt cc (⟨8, Nat.le_of_ble_eq_true rfl⟩ : Fin 140)) 0 ∗ semVal (cellAt cc (⟨9, Nat.le_of_ble_eq_true rfl⟩ : Fin 140)) 0 ∗ semVal (cellAt cc (⟨10, Nat.le_of_ble_eq_true rfl⟩ : Fin 140)) 0 ∗ semVal (cellAt cc (⟨11, Nat.le_of_ble_eq_true rfl⟩ : Fin 140)) 0 ∗ semVal (cellAt cc (⟨12, Nat.le_of_ble_eq_true rfl⟩ : Fin 140)) 0 ∗ semVal (cellAt cc (⟨13, Nat.le_of_ble_eq_true rfl⟩ : Fin 140)) 0 ∗ semVal (cellAt cc (⟨14, Nat.le_of_ble_eq_true rfl⟩ : Fin 140)) 0 ∗ semVal (cellAt cc (⟨15, Nat.le_of_ble_eq_true rfl⟩ : Fin 140)) 0 ∗ semVal (cellAt cc (⟨16, Nat.le_of_ble_eq_true rfl⟩ : Fin 140)) 0 ∗ semVal (cellAt cc (⟨17, Nat.le_of_ble_eq_true rfl⟩ : Fin 140)) 0 ∗ semVal (cellAt cc (⟨18, Nat.le_of_ble_eq_true rfl⟩ : Fin 140)) 0 ∗ semVal (cellAt cc (⟨19, Nat.le_of_ble_eq_true rfl⟩ : Fin 140)) 0 ∗ semVal (cellAt cc (⟨20, Nat.le_of_ble_eq_true rfl⟩ : Fin 140)) 0 ∗ semVal (cellAt cc (⟨21, Nat.le_of_ble_eq_true rfl⟩ : Fin 140)) 0 ∗ semVal (cellAt cc (⟨22, Nat.le_of_ble_eq_true rfl⟩ : Fin 140)) 0 ∗ semVal (cellAt cc (⟨23, Nat.le_of_ble_eq_true rfl⟩ : Fin 140)) 0 ∗ semVal (cellAt cc (⟨24, Nat.le_of_ble_eq_true rfl⟩ : Fin 140)) 0 ∗ semVal (cellAt cc (⟨25, Nat.le_of_ble_eq_true rfl⟩ : Fin 140)) 0 ∗ semVal (cellAt cc (⟨26, Nat.le_of_ble_eq_true rfl⟩ : Fin 140)) 0 ∗ semVal (cellAt cc (⟨27, Nat.le_of_ble_eq_true rfl⟩ : Fin 140)) 0 ∗ semVal (cellAt cc (⟨28, Nat.le_of_ble_eq_true rfl⟩ : Fin 140)) 0 ∗ semVal (cellAt cc (⟨29, Nat.le_of_ble_eq_true rfl⟩ : Fin 140)) 0 ∗ semVal (cellAt cc (⟨30, Nat.le_of_ble_eq_true rfl⟩ : Fin 140)) 0 ∗ semVal (cellAt cc (⟨31, Nat.le_of_ble_eq_true rfl⟩ : Fin 140)) 0 ∗ semVal (cellAt cc (⟨32, Nat.le_of_ble_eq_true rfl⟩ : Fin 140)) 0 ∗ semVal (cellAt cc (⟨33, Nat.le_of_ble_eq_true rfl⟩ : Fin 140)) 0 ∗ semVal (cellAt cc (⟨34, Nat.le_of_ble_eq_true rfl⟩ : Fin 140)) 0 ∗ semVal (cellAt cc (⟨35, Nat.le_of_ble_eq_true rfl⟩ : Fin 140)) 0 ∗ semVal (cellAt cc (⟨36, Nat.le_of_ble_eq_true rfl⟩ : Fin 140)) 0 ∗ semVal (cellAt cc (⟨37, Nat.le_of_ble_eq_true rfl⟩ : Fin 140)) 0 ∗ semVal (cellAt cc (⟨38, Nat.le_of_ble_eq_true rfl⟩ : Fin 140)) 0 ∗ semVal (cellAt cc (⟨39, Nat.le_of_ble_eq_true rfl⟩ : Fin 140)) 0 ∗ semVal (cellAt cc (⟨40, Nat.le_of_ble_eq_true rfl⟩ : Fin 140)) 0 ∗ semVal (cellAt cc (⟨41, Nat.le_of_ble_eq_true rfl⟩ : Fin 140)) 0 ∗ semVal (cellAt cc (⟨42, Nat.le_of_ble_eq_true rfl⟩ : Fin 140)) 0 ∗ semVal (cellAt cc (⟨43, Nat.le_of_ble_eq_true rfl⟩ : Fin 140)) 0 ∗ semVal (cellAt cc (⟨44, Nat.le_of_ble_eq_true rfl⟩ : Fin 140)) 0 ∗ semVal (cellAt cc (⟨45, Nat.le_of_ble_eq_true rfl⟩ : Fin 140)) 0 ∗ semVal (cellAt cc (⟨46, Nat.le_of_ble_eq_true rfl⟩ : Fin 140)) 0 ∗ semVal (cellAt cc (⟨47, Nat.le_of_ble_eq_true rfl⟩ : Fin 140)) 0 ∗ semVal (cellAt cc (⟨48, Nat.le_of_ble_eq_true rfl⟩ : Fin 140)) 0 ∗ semVal (cellAt cc (⟨49, Nat.le_of_ble_eq_true rfl⟩ : Fin 140)) 0 ∗ semVal (cellAt cc (⟨50, Nat.le_of_ble_eq_true rfl⟩ : Fin 140)) 0 ∗ semVal (cellAt cc (⟨51, Nat.le_of_ble_eq_true rfl⟩ : Fin 140)) 0 ∗ semVal (cellAt cc (⟨52, Nat.le_of_ble_eq_true rfl⟩ : Fin 140)) 0 ∗ semVal (cellAt cc (⟨53, Nat.le_of_ble_eq_true rfl⟩ : Fin 140)) 0 ∗ semVal (cellAt cc (⟨54, Nat.le_of_ble_eq_true rfl⟩ : Fin 140)) 0 ∗ semVal (cellAt cc (⟨55, Nat.le_of_ble_eq_true rfl⟩ : Fin 140)) 0 ∗ semVal (cellAt cc (⟨56, Nat.le_of_ble_eq_true rfl⟩ : Fin 140)) 0 ∗ semVal (cellAt cc (⟨57, Nat.le_of_ble_eq_true rfl⟩ : Fin 140)) 0 ∗ semVal (cellAt cc (⟨58, Nat.le_of_ble_eq_true rfl⟩ : Fin 140)) 0 ∗ semVal (cellAt cc (⟨59, Nat.le_of_ble_eq_true rfl⟩ : Fin 140)) 0 ∗ semVal (cellAt cc (⟨60, Nat.le_of_ble_eq_true rfl⟩ : Fin 140)) 0 ∗ semVal (cellAt cc (⟨61, Nat.le_of_ble_eq_true rfl⟩ : Fin 140)) 0 ∗ semVal (cellAt cc (⟨62, Nat.le_of_ble_eq_true rfl⟩ : Fin 140)) 0 ∗ semVal (cellAt cc (⟨63, Nat.le_of_ble_eq_true rfl⟩ : Fin 140)) 0 ∗ semVal (cellAt cc (⟨64, Nat.le_of_ble_eq_true rfl⟩ : Fin 140)) 0 ∗ semVal (cellAt cc (⟨65, Nat.le_of_ble_eq_true rfl⟩ : Fin 140)) 0 ∗ semVal (cellAt cc (⟨66, Nat.le_of_ble_eq_true rfl⟩ : Fin 140)) 0 ∗ semVal (cellAt cc (⟨67, Nat.le_of_ble_eq_true rfl⟩ : Fin 140)) 0 ∗ semVal (cellAt cc (⟨68, Nat.le_of_ble_eq_true rfl⟩ : Fin 140)) 0 ∗ semVal (cellAt cc (⟨69, Nat.le_of_ble_eq_true rfl⟩ : Fin 140)) 0 ∗ semVal (cellAt cc (⟨70, Nat.le_of_ble_eq_true rfl⟩ : Fin 140)) 0 ∗ semVal (cellAt cc (⟨71, Nat.le_of_ble_eq_true rfl⟩ : Fin 140)) 0 ∗ semVal (cellAt cc (⟨72, Nat.le_of_ble_eq_true rfl⟩ : Fin 140)) 0 ∗ semVal (cellAt cc (⟨73, Nat.le_of_ble_eq_true rfl⟩ : Fin 140)) 0 ∗ semVal (cellAt cc (⟨74, Nat.le_of_ble_eq_true rfl⟩ : Fin 140)) 0 ∗ semVal (cellAt cc (⟨75, Nat.le_of_ble_eq_true rfl⟩ : Fin 140)) 0 ∗ semVal (cellAt cc (⟨76, Nat.le_of_ble_eq_true rfl⟩ : Fin 140)) 0 ∗ semVal (cellAt cc (⟨77, Nat.le_of_ble_eq_true rfl⟩ : Fin 140)) 0 ∗ semVal (cellAt cc (⟨78, Nat.le_of_ble_eq_true rfl⟩ : Fin 140)) 0 ∗ semVal (cellAt cc (⟨79, Nat.le_of_ble_eq_true rfl⟩ : Fin 140)) 0 ∗ semVal (cellAt cc (⟨80, Nat.le_of_ble_eq_true rfl⟩ : Fin 140)) 0 ∗ semVal (cellAt cc (⟨81, Nat.le_of_ble_eq_true rfl⟩ : Fin 140)) 0 ∗ semVal (cellAt cc (⟨82, Nat.le_of_ble_eq_true rfl⟩ : Fin 140)) 0 ∗ semVal (cellAt cc (⟨83, Nat.le_of_ble_eq_true rfl⟩ : Fin 140)) 0 ∗ semVal (cellAt cc (⟨84, Nat.le_of_ble_eq_true rfl⟩ : Fin 140)) 0 ∗ semVal (cellAt cc (⟨85, Nat.le_of_ble_eq_true rfl⟩ : Fin 140)) 0 ∗ semVal (cellAt cc (⟨86, Nat.le_of_ble_eq_true rfl⟩ : Fin 140)) 0 ∗ semVal (cellAt cc (⟨87, Nat.le_of_ble_eq_true rfl⟩ : Fin 140)) 0 ∗ semVal (cellAt cc (⟨88, Nat.le_of_ble_eq_true rfl⟩ : Fin 140)) 0 ∗ semVal (cellAt cc (⟨89, Nat.le_of_ble_eq_true rfl⟩ : Fin 140)) 0 ∗ semVal (cellAt cc (⟨90, Nat.le_of_ble_eq_true rfl⟩ : Fin 140)) 0 ∗ semVal (cellAt cc (⟨91, Nat.le_of_ble_eq_true rfl⟩ : Fin 140)) 0 ∗ semVal (cellAt cc (⟨92, Nat.le_of_ble_eq_true rfl⟩ : Fin 140)) 0 ∗ semVal (cellAt cc (⟨93, Nat.le_of_ble_eq_true rfl⟩ : Fin 140)) 0 ∗ semVal (cellAt cc (⟨94, Nat.le_of_ble_eq_true rfl⟩ : Fin 140)) 0 ∗ semVal (cellAt cc (⟨95, Nat.le_of_ble_eq_true rfl⟩ : Fin 140)) 0 ∗ semVal (cellAt cc (⟨96, Nat.le_of_ble_eq_true rfl⟩ : Fin 140)) 0 ∗ semVal (cellAt cc (⟨97, Nat.le_of_ble_eq_true rfl⟩ : Fin 140)) 0 ∗ semVal (cellAt cc (⟨98, Nat.le_of_ble_eq_true rfl⟩ : Fin 140)) 0 ∗ semVal (cellAt cc (⟨99, Nat.le_of_ble_eq_true rfl⟩ : Fin 140)) 0 ∗ semVal (cellAt cc (⟨100, Nat.le_of_ble_eq_true rfl⟩ : Fin 140)) 0 ∗ semVal (cellAt cc (⟨101, Nat.le_of_ble_eq_true rfl⟩ : Fin 140)) 0 ∗ semVal (cellAt cc (⟨102, Nat.le_of_ble_eq_true rfl⟩ : Fin 140)) 0 ∗ semVal (cellAt cc (⟨103, Nat.le_of_ble_eq_true rfl⟩ : Fin 140)) 0 ∗ semVal (cellAt cc (⟨104, Nat.le_of_ble_eq_true rfl⟩ : Fin 140)) 0 ∗ semVal (cellAt cc (⟨105, Nat.le_of_ble_eq_true rfl⟩ : Fin 140)) 0 ∗ semVal (cellAt cc (⟨106, Nat.le_of_ble_eq_true rfl⟩ : Fin 140)) 0 ∗ semVal (cellAt cc (⟨107, Nat.le_of_ble_eq_true rfl⟩ : Fin 140)) 0 ∗ semVal (cellAt cc (⟨108, Nat.le_of_ble_eq_true rfl⟩ : Fin 140)) 0 ∗ semVal (cellAt cc (⟨109, Nat.le_of_ble_eq_true rfl⟩ : Fin 140)) 0 ∗ semVal (cellAt cc (⟨110, Nat.le_of_ble_eq_true rfl⟩ : Fin 140)) 0 ∗ semVal (cellAt cc (⟨111, Nat.le_of_ble_eq_true rfl⟩ : Fin 140)) 0 ∗ semVal (cellAt cc (⟨112, Nat.le_of_ble_eq_true rfl⟩ : Fin 140)) 0 ∗ semVal (cellAt cc (⟨113, Nat.le_of_ble_eq_true rfl⟩ : Fin 140)) 0 ∗ semVal (cellAt cc (⟨114, Nat.le_of_ble_eq_true rfl⟩ : Fin 140)) 0 ∗ semVal (cellAt cc (⟨115, Nat.le_of_ble_eq_true rfl⟩ : Fin 140)) 0 ∗ semVal (cellAt cc (⟨116, Nat.le_of_ble_eq_true rfl⟩ : Fin 140)) 0 ∗ semVal (cellAt cc (⟨117, Nat.le_of_ble_eq_true rfl⟩ : Fin 140)) 0 ∗ semVal (cellAt cc (⟨118, Nat.le_of_ble_eq_true rfl⟩ : Fin 140)) 0 ∗ semVal (cellAt cc (⟨119, Nat.le_of_ble_eq_true rfl⟩ : Fin 140)) 0 ∗ semVal (cellAt cc (⟨120, Nat.le_of_ble_eq_true rfl⟩ : Fin 140)) 0 ∗ semVal (cellAt cc (⟨121, Nat.le_of_ble_eq_true rfl⟩ : Fin 140)) 0 ∗ semVal (cellAt cc (⟨122, Nat.le_of_ble_eq_true rfl⟩ : Fin 140)) 0 ∗ semVal (cellAt cc (⟨123, Nat.le_of_ble_eq_true rfl⟩ : Fin 140)) 0 ∗ semVal (cellAt cc (⟨124, Nat.le_of_ble_eq_true rfl⟩ : Fin 140)) 0 ∗ semVal (cellAt cc (⟨125, Nat.le_of_ble_eq_true rfl⟩ : Fin 140)) 0 ∗ semVal (cellAt cc (⟨126, Nat.le_of_ble_eq_true rfl⟩ : Fin 140)) 0 ∗ semVal (cellAt cc (⟨127, Nat.le_of_ble_eq_true rfl⟩ : Fin 140)) 0 ∗ semVal (cellAt cc (⟨128, Nat.le_of_ble_eq_true rfl⟩ : Fin 140)) 0 ∗ semVal (cellAt cc (⟨129, Nat.le_of_ble_eq_true rfl⟩ : Fin 140)) 0 ∗ semVal (cellAt cc (⟨130, Nat.le_of_ble_eq_true rfl⟩ : Fin 140)) 0 ∗ semVal (cellAt cc (⟨131, Nat.le_of_ble_eq_true rfl⟩ : Fin 140)) 0 ∗ semVal (cellAt cc (⟨132, Nat.le_of_ble_eq_true rfl⟩ : Fin 140)) 0 ∗ semVal (cellAt cc (⟨133, Nat.le_of_ble_eq_true rfl⟩ : Fin 140)) 0 ∗ semVal (cellAt cc (⟨134, Nat.le_of_ble_eq_true rfl⟩ : Fin 140)) 0 ∗ semVal (cellAt cc (⟨135, Nat.le_of_ble_eq_true rfl⟩ : Fin 140)) 0 ∗ semVal (cellAt cc (⟨136, Nat.le_of_ble_eq_true rfl⟩ : Fin 140)) 0 ∗ semVal (cellAt cc (⟨137, Nat.le_of_ble_eq_true rfl⟩ : Fin 140)) 0 ∗ semVal (cellAt cc (⟨138, Nat.le_of_ble_eq_true rfl⟩ : Fin 140)) 0 ∗ semVal (cellAt cc (⟨139, Nat.le_of_ble_eq_true rfl⟩ : Fin 140)) 0) : sProp 𝕄) = (bigSepL allJ fun j => semVal (cellAt cc j) 0) from rfl))
    isplitl [Hv0]
    · iexact Hv0
    isplitl [Hv1]
    · iexact Hv1
    isplitl [Hv2]
    · iexact Hv2
    isplitl [Hv3]
    · iexact Hv3
    isplitl [Hv4]
    · iexact Hv4
    isplitl [Hv5]
    · iexact Hv5
    isplitl [Hv6]
    · iexact Hv6
    isplitl [Hv7]
    · iexact Hv7
    isplitl [Hv8]
    · iexact Hv8
    isplitl [Hv9]
    · iexact Hv9
    isplitl [Hv10]
    · iexact Hv10
    isplitl [Hv11]
    · iexact Hv11
    isplitl [Hv12]
    · iexact Hv12
    isplitl [Hv13]
    · iexact Hv13
    isplitl [Hv14]
    · iexact Hv14
    isplitl [Hv15]
    · iexact Hv15
    isplitl [Hv16]
    · iexact Hv16
    isplitl [Hv17]
    · iexact Hv17
    isplitl [Hv18]
    · iexact Hv18
    isplitl [Hv19]
    · iexact Hv19
    isplitl [Hv20]
    · iexact Hv20
    isplitl [Hv21]
    · iexact Hv21
    isplitl [Hv22]
    · iexact Hv22
    isplitl [Hv23]
    · iexact Hv23
    isplitl [Hv24]
    · iexact Hv24
    isplitl [Hv25]
    · iexact Hv25
    isplitl [Hv26]
    · iexact Hv26
    isplitl [Hv27]
    · iexact Hv27
    isplitl [Hv28]
    · iexact Hv28
    isplitl [Hv29]
    · iexact Hv29
    isplitl [Hv30]
    · iexact Hv30
    isplitl [Hv31]
    · iexact Hv31
    isplitl [Hv32]
    · iexact Hv32
    isplitl [Hv33]
    · iexact Hv33
    isplitl [Hv34]
    · iexact Hv34
    isplitl [Hv35]
    · iexact Hv35
    isplitl [Hv36]
    · iexact Hv36
    isplitl [Hv37]
    · iexact Hv37
    isplitl [Hv38]
    · iexact Hv38
    isplitl [Hv39]
    · iexact Hv39
    isplitl [Hv40]
    · iexact Hv40
    isplitl [Hv41]
    · iexact Hv41
    isplitl [Hv42]
    · iexact Hv42
    isplitl [Hv43]
    · iexact Hv43
    isplitl [Hv44]
    · iexact Hv44
    isplitl [Hv45]
    · iexact Hv45
    isplitl [Hv46]
    · iexact Hv46
    isplitl [Hv47]
    · iexact Hv47
    isplitl [Hv48]
    · iexact Hv48
    isplitl [Hv49]
    · iexact Hv49
    isplitl [Hv50]
    · iexact Hv50
    isplitl [Hv51]
    · iexact Hv51
    isplitl [Hv52]
    · iexact Hv52
    isplitl [Hv53]
    · iexact Hv53
    isplitl [Hv54]
    · iexact Hv54
    isplitl [Hv55]
    · iexact Hv55
    isplitl [Hv56]
    · iexact Hv56
    isplitl [Hv57]
    · iexact Hv57
    isplitl [Hv58]
    · iexact Hv58
    isplitl [Hv59]
    · iexact Hv59
    isplitl [Hv60]
    · iexact Hv60
    isplitl [Hv61]
    · iexact Hv61
    isplitl [Hv62]
    · iexact Hv62
    isplitl [Hv63]
    · iexact Hv63
    isplitl [Hv64]
    · iexact Hv64
    isplitl [Hv65]
    · iexact Hv65
    isplitl [Hv66]
    · iexact Hv66
    isplitl [Hv67]
    · iexact Hv67
    isplitl [Hv68]
    · iexact Hv68
    isplitl [Hv69]
    · iexact Hv69
    isplitl [Hv70]
    · iexact Hv70
    isplitl [Hv71]
    · iexact Hv71
    isplitl [Hv72]
    · iexact Hv72
    isplitl [Hv73]
    · iexact Hv73
    isplitl [Hv74]
    · iexact Hv74
    isplitl [Hv75]
    · iexact Hv75
    isplitl [Hu76]
    · iexact Hu76
    isplitl [Hu77]
    · iexact Hu77
    isplitl [Hu78]
    · iexact Hu78
    isplitl [Hv79]
    · iexact Hv79
    isplitl [Hv80]
    · iexact Hv80
    isplitl [Hv81]
    · iexact Hv81
    isplitl [Hv82]
    · iexact Hv82
    isplitl [Hv83]
    · iexact Hv83
    isplitl [Hu84]
    · iexact Hu84
    isplitl [Hu85]
    · iexact Hu85
    isplitl [Hu86]
    · iexact Hu86
    isplitl [Hv87]
    · iexact Hv87
    isplitl [Hv88]
    · iexact Hv88
    isplitl [Hv89]
    · iexact Hv89
    isplitl [Hv90]
    · iexact Hv90
    isplitl [Hv91]
    · iexact Hv91
    isplitl [Hu92]
    · iexact Hu92
    isplitl [Hu93]
    · iexact Hu93
    isplitl [Hu94]
    · iexact Hu94
    isplitl [Hv95]
    · iexact Hv95
    isplitl [Hv96]
    · iexact Hv96
    isplitl [Hv97]
    · iexact Hv97
    isplitl [Hv98]
    · iexact Hv98
    isplitl [Hv99]
    · iexact Hv99
    isplitl [Hu100]
    · iexact Hu100
    isplitl [Hu101]
    · iexact Hu101
    isplitl [Hu102]
    · iexact Hu102
    isplitl [Hv103]
    · iexact Hv103
    isplitl [Hv104]
    · iexact Hv104
    isplitl [Hv105]
    · iexact Hv105
    isplitl [Hv106]
    · iexact Hv106
    isplitl [Hv107]
    · iexact Hv107
    isplitl [Hw0a]
    · iexact Hw0a
    isplitl [Hw0b]
    · iexact Hw0b
    isplitl [Hw0c]
    · iexact Hw0c
    isplitl [Hw0d]
    · iexact Hw0d
    isplitl [Hw1a]
    · iexact Hw1a
    isplitl [Hw1b]
    · iexact Hw1b
    isplitl [Hw1c]
    · iexact Hw1c
    isplitl [Hw1d]
    · iexact Hw1d
    isplitl [Hw2a]
    · iexact Hw2a
    isplitl [Hw2b]
    · iexact Hw2b
    isplitl [Hw2c]
    · iexact Hw2c
    isplitl [Hw2d]
    · iexact Hw2d
    isplitl [Hw3a]
    · iexact Hw3a
    isplitl [Hw3b]
    · iexact Hw3b
    isplitl [Hw3c]
    · iexact Hw3c
    isplitl [Hw3d]
    · iexact Hw3d
    isplitl [Hw4a]
    · iexact Hw4a
    isplitl [Hw4b]
    · iexact Hw4b
    isplitl [Hw4c]
    · iexact Hw4c
    isplitl [Hw4d]
    · iexact Hw4d
    isplitl [Hw5a]
    · iexact Hw5a
    isplitl [Hw5b]
    · iexact Hw5b
    isplitl [Hw5c]
    · iexact Hw5c
    isplitl [Hw5d]
    · iexact Hw5d
    isplitl [Hw6a]
    · iexact Hw6a
    isplitl [Hw6b]
    · iexact Hw6b
    isplitl [Hw6c]
    · iexact Hw6c
    isplitl [Hw6d]
    · iexact Hw6d
    isplitl [Hw7a]
    · iexact Hw7a
    isplitl [Hw7b]
    · iexact Hw7b
    isplitl [Hw7c]
    · iexact Hw7c
    iexact Hw7d
  iexists _; iexact HO

end Cert.KernelIdeal.RS.D3

end
-- ==== Proof.Body4.lean ====
import proofs.«901022_g7700000000001023_dist_rs_v7x_xyz2x2x2_x_m4096_n1024_bf16_1_alg».proof.Proof.BodyAux
import proofs.«901022_g7700000000001023_dist_rs_v7x_xyz2x2x2_x_m4096_n1024_bf16_1_alg».proof.Proof.BodyPre
import proofs.«901022_g7700000000001023_dist_rs_v7x_xyz2x2x2_x_m4096_n1024_bf16_1_alg».proof.Proof.OutRules

/-! The body of the kernel on device 4 of the mesh, from its precondition (BodyPre) to its postcondition (bodyPost).

    The program is straight-line code of 4045 statements. Its local steps — the 54 copies between the input, the staging
    buffers, the four-quarter buffer and the result, their waits, the loads and the stores — are run by the library's symbolic
    executor on hypotheses that hold each 512-row chunk through the slice the program itself names. Its remote steps are
    taken by the rounds library's rules, one application each: three barrier signals and the wait for the three
    neighbours; 37 copies to a neighbour, each lending the source chunk (at a share, where the chunk is also read by another
    copy) and landing the chunk's final contents; the waits on the 37 receive cells, which hand back the landed chunks; the
    final waits on the 37 send cells, which hand back what was lent. Whenever a chunk has been written (by a landing copy or
    by a store) it is restated as "holds its final contents" (Spec), which is what the next copy's payload asks for.
    A wait is allowed because whatever the device still owes at that point lies above the awaited cell (Owed): decided on the
    list of payments not yet made. At the end every cell has had its one round and is closed, and the pieces of every
    buffer are put back. -/

set_option maxRecDepth 8000

noncomputable section

namespace Cert.KernelIdeal.RS.D4

open Cert.KernelIdeal Cert.KernelIdeal.Gen Cert.KernelIdeal.RS
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local notation "cc" => (Fin.mk 4 (Nat.le_of_ble_eq_true rfl) : Dev nD)

set_option maxHeartbeats 1600000 in
theorem dev (m : (ℓ : Loc nD τ sig) → Buf (Elt F) ℓ) (K : GSem nD τ sig → ℕ) (W : Waits sig Unit) (Kt : PUnit → sProp 𝕄) :
    iprop(bodyPre m K cc W ∗ (bodyPost m cc -∗ Kt ⟨⟩))
      ⊢ wp frame (wpE (defs₀ (F := F)) 𝒱₀ (cc : Thread nD τ) none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25) Kt := by
  unfold bodyPre O₀
  iintro ⟨⟨HIt, HIw, HRt, #Hlev, HO, Hcr, HpR, HpS, Htk, HX, Hout, HS0, HS1, HS2, HS3, HS4, HS5, HS6, HS7, HS8, HvI, HvO, HvU⟩, Hk⟩
  rw [cc0_body_eq_skeleton]; unfold cc0_body_skel
  -- the four-quarter buffer in the pieces that travel
  ihave H0 := (Entails.of_eq (junk_whole (F := F) cc cc0_scratch0)) $$ HS0
  icases H0 with ⟨%f0, H0⟩
  ihave H4 := (r4_entry (F := F) cc f0) $$ H0
  icases H4 with ⟨Hown, HgZ, HgY, Hdg, HhZ, HhY⟩
  sl_exec

  icases Htk with ⟨Htb, Htk⟩
  icases HIt with ⟨#HIbpx, HIt⟩
  icases HRt with ⟨#HRbpx, HRt⟩
  iapply (sig_bar m cc _ (px cc) (dev1_eq cc) 0 (by decide) (owedL (List.drop 1 (paysL cc))) rfl) $$ [HO Htb HS2 HS4]
  · isplitr; · iexact HIbpx
    isplitl [HO]; · iexact HO
    isplitl [Htb]; · iexact Htb
    isplitl [HS2 HS4]
    · iapply (Entails.of_eq ((barPay_zero (F := F) (px cc)).trans (by rw [px_px])).symm)
      unfold giveX
      isplitl [HS2]; · iexact HS2
      iexact HS4
    · iexact HRbpx
  iintro HO
  sl_exec

  icases Htk with ⟨Htb, Htk⟩
  icases HIt with ⟨#HIbpz, HIt⟩
  icases HRt with ⟨#HRbpz, HRt⟩
  iapply (sig_bar m cc _ (pz cc) (dev2_eq cc) 2 (by decide) (owedL (List.drop 2 (paysL cc))) rfl) $$ [HO Htb HgZ HhZ]
  · isplitr; · iexact HIbpz
    isplitl [HO]; · iexact HO
    isplitl [Htb]; · iexact Htb
    isplitl [HgZ HhZ]
    · iapply (Entails.of_eq ((barPay_two (F := F) (pz cc)).trans (by rw [pz_pz])).symm)
      isplitl [HgZ]; · iexact HgZ
      iexact HhZ
    · iexact HRbpz
  iintro HO
  sl_exec

  icases Htk with ⟨Htb, Htk⟩
  icases HIt with ⟨#HIbpy, HIt⟩
  icases HRt with ⟨#HRbpy, HRt⟩
  iapply (sig_bar m cc _ (py cc) (dev3_eq cc) 1 (by decide) (owedL (List.drop 3 (paysL cc))) rfl) $$ [HO Htb HgY HhY]
  · isplitr; · iexact HIbpy
    isplitl [HO]; · iexact HO
    isplitl [Htb]; · iexact Htb
    isplitl [HgY HhY]
    · iapply (Entails.of_eq ((barPay_one (F := F) (py cc)).trans (by rw [py_py])).symm)
      isplitl [HgY]; · iexact HgY
      iexact HhY
    · iexact HRbpy
  iintro HO
  sl_exec
  -- the wait for the three neighbours
  icases Hcr with ⟨Hcb, Hcr⟩
  icases HpR with ⟨Hpb, HpR⟩
  icases HIw with ⟨#HIb, HIw⟩
  ihave Hmw := (mayWait_list (F := F) cc (.reg barS) (List.drop 3 (paysL cc)) (by decide)) $$ Hlev
  iapply (wait_bar m cc (by decide)) $$ [Hcb HO Hmw Hpb]
  · isplitr; · iexact HIb
    isplitl [Hcb]; · iexact Hcb
    isplitl [HO]; · iexact HO
    isplitl [Hmw]; · iexact Hmw
    iexact Hpb
  iintro ⟨HO, Hpb, -, Hgx, Hgy, Hgz⟩
  -- what they handed over: the x-neighbour's landing buffers chunk by chunk, the y- and z-neighbours' quarter and halves
  ihave Hgx := (Entails.of_eq (barPay_zero (F := F) cc)) $$ Hgx
  ihave Hgx := (giveX_rows (F := F) (px cc)) $$ Hgx
  icases Hgx with ⟨Hrbp, Hrb2p⟩
  ihave Hgy := (Entails.of_eq (barPay_one (F := F) cc)) $$ Hgy
  icases Hgy with ⟨HqY, HhYp⟩
  ihave Hgz := (Entails.of_eq (barPay_two (F := F) cc)) $$ Hgz
  icases Hgz with ⟨HqZ, HhZp⟩
  -- this device's staging buffers and send buffers chunk by chunk
  ihave H5 := (Entails.of_eq (junk_whole (F := F) cc cc0_scratch5)) $$ HS5
  icases H5 with ⟨%f5, H5⟩
  ihave H5 := (Entails.of_eq (stP_rows (F := F) cc fullShare f5)) $$ H5
  icases H5 with ⟨HP0, HP1, HP2, HP3, HP4, HP5, HP6, HP7⟩
  ihave H6 := (Entails.of_eq (junk_whole (F := F) cc cc0_scratch6)) $$ HS6
  icases H6 with ⟨%f6, H6⟩
  ihave H6 := (Entails.of_eq (stL_rows (F := F) cc fullShare f6)) $$ H6
  icases H6 with ⟨HL0, HL1, HL2, HL3, HL4, HL5, HL6, HL7⟩
  ihave H7 := (Entails.of_eq (junk_whole (F := F) cc cc0_scratch7)) $$ HS7
  icases H7 with ⟨%f7, H7⟩
  ihave H7 := (Entails.of_eq (stP2_rows (F := F) cc fullShare f7)) $$ H7
  icases H7 with ⟨HP20, HP21, HP22⟩
  ihave H8 := (Entails.of_eq (junk_whole (F := F) cc cc0_scratch8)) $$ HS8
  icases H8 with ⟨%f8, H8⟩
  ihave H8 := (Entails.of_eq (stL2_rows (F := F) cc fullShare f8)) $$ H8
  icases H8 with ⟨HL20, HL21, HL22⟩
  ihave H1 := (Entails.of_eq (junk_whole (F := F) cc cc0_scratch1)) $$ HS1
  icases H1 with ⟨%f1, H1⟩
  ihave H1 := (Entails.of_eq (sb_rows (F := F) cc fullShare f1)) $$ H1
  icases H1 with ⟨HB0, HB1, HB2, HB3, HB4, HB5, HB6, HB7⟩
  ihave H3 := (Entails.of_eq (junk_whole (F := F) cc cc0_scratch3)) $$ HS3
  icases H3 with ⟨%f3, H3⟩
  ihave H3 := (Entails.of_eq (sb2_rows (F := F) cc fullShare f3)) $$ H3
  icases H3 with ⟨HB20, HB21, HB22⟩
  -- the counters of the 22 copies into the staging buffers
  icases HvI with ⟨Hv0, Hv8, Hv1, Hv9, Hv2, Hv10, Hv3, Hv11, Hv4, Hv12, Hv5, Hv13, Hv6, Hv14, Hv7, Hv15, Hv16, Hv19, Hv17, Hv20, Hv18, Hv21⟩
  sl_exec
  -- chunk 0 across x: wait for its copy into the staging buffer, round it into the send buffer, send it
  have hled3 : ∀ (s : DmaSem sig), lvJ s.val = 0 → ((levAts LL lvv : sProp 𝕄) ⊢ MayWait (cc : Thread nD τ) (.dma s) () (owedL (List.drop 3 (paysL cc)))) :=
    fun s hs => mayWait_local (F := F) cc s hs _ (by decide)
  sl_exec
  clear hled3
  ihave HB0 := (congr (F := F) (sbR 0) cc fullShare (dev.sl.HB0_w1 m f1) (sb m cc) (fun i hi => glue_sb m cc 0 _ (k0_off1_inb cc) (k0_off1_eq cc) f1 i hi)) $$ HB0
  -- the copy
  icases Htk with ⟨Hts, Htr, Htk⟩
  icases HIt with ⟨#HIc22, #HIr, HIt⟩
  icases HRt with ⟨#HRs, #HRr, HRt⟩
  icases Hrbp with ⟨⟨%fd, Hd⟩, Hrbp⟩
  iapply (send_x m cc _ (dev4_eq cc) 0 fd (owedL (List.drop 4 (paysL cc))) rfl _) $$ [HB0 Hd HO Hts Htr]
  · isplitr; · iexact HIc22
    isplitr; · iexact HIr
    isplitl [HB0]; · iexact HB0
    isplitl [Hd]; · iexact Hd
    isplitl [HO]; · iexact HO
    isplitl [Hts]; · iexact Hts
    isplitr; · iexact HRs
    isplitl [Htr]; · iexact Htr
    iexact HRr
  iintro ⟨Hcxs0, HO⟩
  iclear HIr HRs HRr
  -- chunk 1 across x: wait for its copy into the staging buffer, round it into the send buffer, send it
  have hled4 : ∀ (s : DmaSem sig), lvJ s.val = 0 → ((levAts LL lvv : sProp 𝕄) ⊢ MayWait (cc : Thread nD τ) (.dma s) () (owedL (List.drop 4 (paysL cc)))) :=
    fun s hs => mayWait_local (F := F) cc s hs _ (by decide)
  sl_exec
  clear hled4
  ihave HB1 := (congr (F := F) (sbR 1) cc fullShare (dev.sl.HB1_w1 m f1) (sb m cc) (fun i hi => glue_sb m cc 1 _ (k0_off3_inb cc) (k0_off3_eq cc) f1 i hi)) $$ HB1
  -- the copy
  icases Htk with ⟨Hts, Htr, Htk⟩
  icases HIt with ⟨#HIc23, #HIr, HIt⟩
  icases HRt with ⟨#HRs, #HRr, HRt⟩
  icases Hrbp with ⟨⟨%fd, Hd⟩, Hrbp⟩
  iapply (send_x m cc _ (dev5_eq cc) 1 fd (owedL (List.drop 5 (paysL cc))) rfl _) $$ [HB1 Hd HO Hts Htr]
  · isplitr; · iexact HIc23
    isplitr; · iexact HIr
    isplitl [HB1]; · iexact HB1
    isplitl [Hd]; · iexact Hd
    isplitl [HO]; · iexact HO
    isplitl [Hts]; · iexact Hts
    isplitr; · iexact HRs
    isplitl [Htr]; · iexact Htr
    iexact HRr
  iintro ⟨Hcxs1, HO⟩
  iclear HIr HRs HRr
  -- chunk 2 across x: wait for its copy into the staging buffer, round it into the send buffer, send it
  have hled5 : ∀ (s : DmaSem sig), lvJ s.val = 0 → ((levAts LL lvv : sProp 𝕄) ⊢ MayWait (cc : Thread nD τ) (.dma s) () (owedL (List.drop 5 (paysL cc)))) :=
    fun s hs => mayWait_local (F := F) cc s hs _ (by decide)
  sl_exec
  clear hled5
  ihave HB2 := (congr (F := F) (sbR 2) cc fullShare (dev.sl.HB2_w1 m f1) (sb m cc) (fun i hi => glue_sb m cc 2 _ (k0_off5_inb cc) (k0_off5_eq cc) f1 i hi)) $$ HB2
  -- the copy
  icases Htk with ⟨Hts, Htr, Htk⟩
  icases HIt with ⟨#HIc24, #HIr, HIt⟩
  icases HRt with ⟨#HRs, #HRr, HRt⟩
  icases Hrbp with ⟨⟨%fd, Hd⟩, Hrbp⟩
  iapply (send_x m cc _ (dev6_eq cc) 2 fd (owedL (List.drop 6 (paysL cc))) rfl _) $$ [HB2 Hd HO Hts Htr]
  · isplitr; · iexact HIc24
    isplitr; · iexact HIr
    isplitl [HB2]; · iexact HB2
    isplitl [Hd]; · iexact Hd
    isplitl [HO]; · iexact HO
    isplitl [Hts]; · iexact Hts
    isplitr; · iexact HRs
    isplitl [Htr]; · iexact Htr
    iexact HRr
  iintro ⟨Hcxs2, HO⟩
  iclear HIr HRs HRr
  -- chunk 3 across x: wait for its copy into the staging buffer, round it into the send buffer, send it
  have hled6 : ∀ (s : DmaSem sig), lvJ s.val = 0 → ((levAts LL lvv : sProp 𝕄) ⊢ MayWait (cc : Thread nD τ) (.dma s) () (owedL (List.drop 6 (paysL cc)))) :=
    fun s hs => mayWait_local (F := F) cc s hs _ (by decide)
  sl_exec
  clear hled6
  ihave HB3 := (congr (F := F) (sbR 3) cc fullShare (dev.sl.HB3_w1 m f1) (sb m cc) (fun i hi => glue_sb m cc 3 _ (k0_off7_inb cc) (k0_off7_eq cc) f1 i hi)) $$ HB3
  -- the copy
  icases Htk with ⟨Hts, Htr, Htk⟩
  icases HIt with ⟨#HIc25, #HIr, HIt⟩
  icases HRt with ⟨#HRs, #HRr, HRt⟩
  icases Hrbp with ⟨⟨%fd, Hd⟩, Hrbp⟩
  iapply (send_x m cc _ (dev7_eq cc) 3 fd (owedL (List.drop 7 (paysL cc))) rfl _) $$ [HB3 Hd HO Hts Htr]
  · isplitr; · iexact HIc25
    isplitr; · iexact HIr
    isplitl [HB3]; · iexact HB3
    isplitl [Hd]; · iexact Hd
    isplitl [HO]; · iexact HO
    isplitl [Hts]; · iexact Hts
    isplitr; · iexact HRs
    isplitl [Htr]; · iexact Htr
    iexact HRr
  iintro ⟨Hcxs3, HO⟩
  iclear HIr HRs HRr
  -- chunk 4 across x: wait for its copy into the staging buffer, round it into the send buffer, send it
  have hled7 : ∀ (s : DmaSem sig), lvJ s.val = 0 → ((levAts LL lvv : sProp 𝕄) ⊢ MayWait (cc : Thread nD τ) (.dma s) () (owedL (List.drop 7 (paysL cc)))) :=
    fun s hs => mayWait_local (F := F) cc s hs _ (by decide)
  sl_exec
  clear hled7
  ihave HB4 := (congr (F := F) (sbR 4) cc fullShare (dev.sl.HB4_w1 m f1) (sb m cc) (fun i hi => glue_sb m cc 4 _ (k0_off9_inb cc) (k0_off9_eq cc) f1 i hi)) $$ HB4
  -- the copy
  icases Htk with ⟨Hts, Htr, Htk⟩
  icases HIt with ⟨#HIc26, #HIr, HIt⟩
  icases HRt with ⟨#HRs, #HRr, HRt⟩
  icases Hrbp with ⟨⟨%fd, Hd⟩, Hrbp⟩
  iapply (send_x m cc _ (dev8_eq cc) 4 fd (owedL (List.drop 8 (paysL cc))) rfl _) $$ [HB4 Hd HO Hts Htr]
  · isplitr; · iexact HIc26
    isplitr; · iexact HIr
    isplitl [HB4]; · iexact HB4
    isplitl [Hd]; · iexact Hd
    isplitl [HO]; · iexact HO
    isplitl [Hts]; · iexact Hts
    isplitr; · iexact HRs
    isplitl [Htr]; · iexact Htr
    iexact HRr
  iintro ⟨Hcxs4, HO⟩
  iclear HIr HRs HRr
  -- chunk 5 across x: wait for its copy into the staging buffer, round it into the send buffer, send it
  have hled8 : ∀ (s : DmaSem sig), lvJ s.val = 0 → ((levAts LL lvv : sProp 𝕄) ⊢ MayWait (cc : Thread nD τ) (.dma s) () (owedL (List.drop 8 (paysL cc)))) :=
    fun s hs => mayWait_local (F := F) cc s hs _ (by decide)
  sl_exec
  clear hled8
  ihave HB5 := (congr (F := F) (sbR 5) cc fullShare (dev.sl.HB5_w1 m f1) (sb m cc) (fun i hi => glue_sb m cc 5 _ (k0_off11_inb cc) (k0_off11_eq cc) f1 i hi)) $$ HB5
  -- the copy
  icases Htk with ⟨Hts, Htr, Htk⟩
  icases HIt with ⟨#HIc27, #HIr, HIt⟩
  icases HRt with ⟨#HRs, #HRr, HRt⟩
  icases Hrbp with ⟨⟨%fd, Hd⟩, Hrbp⟩
  iapply (send_x m cc _ (dev9_eq cc) 5 fd (owedL (List.drop 9 (paysL cc))) rfl _) $$ [HB5 Hd HO Hts Htr]
  · isplitr; · iexact HIc27
    isplitr; · iexact HIr
    isplitl [HB5]; · iexact HB5
    isplitl [Hd]; · iexact Hd
    isplitl [HO]; · iexact HO
    isplitl [Hts]; · iexact Hts
    isplitr; · iexact HRs
    isplitl [Htr]; · iexact Htr
    iexact HRr
  iintro ⟨Hcxs5, HO⟩
  iclear HIr HRs HRr
  -- chunk 6 across x: wait for its copy into the staging buffer, round it into the send buffer, send it
  have hled9 : ∀ (s : DmaSem sig), lvJ s.val = 0 → ((levAts LL lvv : sProp 𝕄) ⊢ MayWait (cc : Thread nD τ) (.dma s) () (owedL (List.drop 9 (paysL cc)))) :=
    fun s hs => mayWait_local (F := F) cc s hs _ (by decide)
  sl_exec
  clear hled9
  ihave HB6 := (congr (F := F) (sbR 6) cc fullShare (dev.sl.HB6_w1 m f1) (sb m cc) (fun i hi => glue_sb m cc 6 _ (k0_off13_inb cc) (k0_off13_eq cc) f1 i hi)) $$ HB6
  -- the copy
  icases Htk with ⟨Hts, Htr, Htk⟩
  icases HIt with ⟨#HIc28, #HIr, HIt⟩
  icases HRt with ⟨#HRs, #HRr, HRt⟩
  icases Hrbp with ⟨⟨%fd, Hd⟩, Hrbp⟩
  iapply (send_x m cc _ (dev10_eq cc) 6 fd (owedL (List.drop 10 (paysL cc))) rfl _) $$ [HB6 Hd HO Hts Htr]
  · isplitr; · iexact HIc28
    isplitr; · iexact HIr
    isplitl [HB6]; · iexact HB6
    isplitl [Hd]; · iexact Hd
    isplitl [HO]; · iexact HO
    isplitl [Hts]; · iexact Hts
    isplitr; · iexact HRs
    isplitl [Htr]; · iexact Htr
    iexact HRr
  iintro ⟨Hcxs6, HO⟩
  iclear HIr HRs HRr
  -- chunk 7 across x: wait for its copy into the staging buffer, round it into the send buffer, send it
  have hled10 : ∀ (s : DmaSem sig), lvJ s.val = 0 → ((levAts LL lvv : sProp 𝕄) ⊢ MayWait (cc : Thread nD τ) (.dma s) () (owedL (List.drop 10 (paysL cc)))) :=
    fun s hs => mayWait_local (F := F) cc s hs _ (by decide)
  sl_exec
  clear hled10
  ihave HB7 := (congr (F := F) (sbR 7) cc fullShare (dev.sl.HB7_w1 m f1) (sb m cc) (fun i hi => glue_sb m cc 7 _ (k0_off15_inb cc) (k0_off15_eq cc) f1 i hi)) $$ HB7
  -- the copy
  icases Htk with ⟨Hts, Htr, Htk⟩
  icases HIt with ⟨#HIc29, #HIr, HIt⟩
  icases HRt with ⟨#HRs, #HRr, HRt⟩
  icases Hrbp with ⟨%fd, Hd⟩
  iapply (send_x m cc _ (dev11_eq cc) 7 fd (owedL (List.drop 11 (paysL cc))) rfl _) $$ [HB7 Hd HO Hts Htr]
  · isplitr; · iexact HIc29
    isplitr; · iexact HIr
    isplitl [HB7]; · iexact HB7
    isplitl [Hd]; · iexact Hd
    isplitl [HO]; · iexact HO
    isplitl [Hts]; · iexact Hts
    isplitr; · iexact HRs
    isplitl [Htr]; · iexact Htr
    iexact HRr
  iintro ⟨Hcxs7, HO⟩
  iclear HIr HRs HRr
  -- chunk 0 across x (the diagonal quarter's): wait for its copy into the staging buffer, round it into the send buffer, send it
  have hled11 : ∀ (s : DmaSem sig), lvJ s.val = 0 → ((levAts LL lvv : sProp 𝕄) ⊢ MayWait (cc : Thread nD τ) (.dma s) () (owedL (List.drop 11 (paysL cc)))) :=
    fun s hs => mayWait_local (F := F) cc s hs _ (by decide)
  sl_exec
  clear hled11
  ihave HB20 := (congr (F := F) (sb2R 0) cc fullShare (dev.sl.HB20_w1 m f3) (sb2 m cc) (fun i hi => glue_sb2 m cc 0 _ (k0_off17_inb cc) (k0_off17_eq cc) f3 i hi)) $$ HB20
  -- the copy
  icases Htk with ⟨Hts, Htr, Htk⟩
  icases HIt with ⟨#HIc38, #HIr, HIt⟩
  icases HRt with ⟨#HRs, #HRr, HRt⟩
  icases Hrb2p with ⟨⟨%fd, Hd⟩, Hrb2p⟩
  iapply (send_x2 m cc _ (dev12_eq cc) 0 fd (owedL (List.drop 12 (paysL cc))) rfl _) $$ [HB20 Hd HO Hts Htr]
  · isplitr; · iexact HIc38
    isplitr; · iexact HIr
    isplitl [HB20]; · iexact HB20
    isplitl [Hd]; · iexact Hd
    isplitl [HO]; · iexact HO
    isplitl [Hts]; · iexact Hts
    isplitr; · iexact HRs
    isplitl [Htr]; · iexact Htr
    iexact HRr
  iintro ⟨Hcds0, HO⟩
  iclear HIr HRs HRr
  -- chunk 1 across x (the diagonal quarter's): wait for its copy into the staging buffer, round it into the send buffer, send it
  have hled12 : ∀ (s : DmaSem sig), lvJ s.val = 0 → ((levAts LL lvv : sProp 𝕄) ⊢ MayWait (cc : Thread nD τ) (.dma s) () (owedL (List.drop 12 (paysL cc)))) :=
    fun s hs => mayWait_local (F := F) cc s hs _ (by decide)
  sl_exec
  clear hled12
  ihave HB21 := (congr (F := F) (sb2R 1) cc fullShare (dev.sl.HB21_w1 m f3) (sb2 m cc) (fun i hi => glue_sb2 m cc 1 _ (k0_off19_inb cc) (k0_off19_eq cc) f3 i hi)) $$ HB21
  -- the copy
  icases Htk with ⟨Hts, Htr, Htk⟩
  icases HIt with ⟨#HIc39, #HIr, HIt⟩
  icases HRt with ⟨#HRs, #HRr, HRt⟩
  icases Hrb2p with ⟨⟨%fd, Hd⟩, Hrb2p⟩
  iapply (send_x2 m cc _ (dev13_eq cc) 1 fd (owedL (List.drop 13 (paysL cc))) rfl _) $$ [HB21 Hd HO Hts Htr]
  · isplitr; · iexact HIc39
    isplitr; · iexact HIr
    isplitl [HB21]; · iexact HB21
    isplitl [Hd]; · iexact Hd
    isplitl [HO]; · iexact HO
    isplitl [Hts]; · iexact Hts
    isplitr; · iexact HRs
    isplitl [Htr]; · iexact Htr
    iexact HRr
  iintro ⟨Hcds1, HO⟩
  iclear HIr HRs HRr
  -- chunk 2 across x (the diagonal quarter's): wait for its copy into the staging buffer, round it into the send buffer, send it
  have hled13 : ∀ (s : DmaSem sig), lvJ s.val = 0 → ((levAts LL lvv : sProp 𝕄) ⊢ MayWait (cc : Thread nD τ) (.dma s) () (owedL (List.drop 13 (paysL cc)))) :=
    fun s hs => mayWait_local (F := F) cc s hs _ (by decide)
  sl_exec
  clear hled13
  ihave HB22 := (congr (F := F) (sb2R 2) cc fullShare (dev.sl.HB22_w1 m f3) (sb2 m cc) (fun i hi => glue_sb2 m cc 2 _ (k0_off21_inb cc) (k0_off21_eq cc) f3 i hi)) $$ HB22
  -- the copy
  icases Htk with ⟨Hts, Htr, Htk⟩
  icases HIt with ⟨#HIc40, #HIr, HIt⟩
  icases HRt with ⟨#HRs, #HRr, HRt⟩
  icases Hrb2p with ⟨%fd, Hd⟩
  iapply (send_x2 m cc _ (dev14_eq cc) 2 fd (owedL (List.drop 14 (paysL cc))) rfl _) $$ [HB22 Hd HO Hts Htr]
  · isplitr; · iexact HIc40
    isplitr; · iexact HIr
    isplitl [HB22]; · iexact HB22
    isplitl [Hd]; · iexact Hd
    isplitl [HO]; · iexact HO
    isplitl [Hts]; · iexact Hts
    isplitr; · iexact HRs
    isplitl [Htr]; · iexact Htr
    iexact HRr
  iintro ⟨Hcds2, HO⟩
  iclear HIr HRs HRr
  sl_exec
  -- the result array in its 32 blocks
  ihave Hout := (out_split_junk (F := F) cc) $$ Hout
  icases Hout with ⟨⟨%g00, HU00⟩, ⟨%g01, HU01⟩, ⟨%g02, HU02⟩, ⟨%g03, HU03⟩, ⟨%g10, HU10⟩, ⟨%g11, HU11⟩, ⟨%g12, HU12⟩, ⟨%g13, HU13⟩, ⟨%g20, HU20⟩, ⟨%g21, HU21⟩, ⟨%g22, HU22⟩, ⟨%g23, HU23⟩, ⟨%g30, HU30⟩, ⟨%g31, HU31⟩, ⟨%g32, HU32⟩, ⟨%g33, HU33⟩, ⟨%g40, HU40⟩, ⟨%g41, HU41⟩, ⟨%g42, HU42⟩, ⟨%g43, HU43⟩, ⟨%g50, HU50⟩, ⟨%g51, HU51⟩, ⟨%g52, HU52⟩, ⟨%g53, HU53⟩, ⟨%g60, HU60⟩, ⟨%g61, HU61⟩, ⟨%g62, HU62⟩, ⟨%g63, HU63⟩, ⟨%g70, HU70⟩, ⟨%g71, HU71⟩, ⟨%g72, HU72⟩, ⟨%g73, HU73⟩⟩
  ihave HqZ := (Entails.of_eq (giveQ_eq (F := F) (pz cc) (zqF (pz cc)))) $$ HqZ
  ihave HqY := (Entails.of_eq (giveQ_eq (F := F) (py cc) (yqF (py cc)))) $$ HqY
  ihave HhZp := (Entails.of_eq (giveH_eq (F := F) (pz cc) 0)) $$ HhZp
  ihave HhYp := (Entails.of_eq (giveH_eq (F := F) (py cc) 1)) $$ HhYp
  -- step 0 of the main loop: the x-neighbour's chunk 0 has landed
  icases Hcr with ⟨Hc, Hcr⟩
  icases HpR with ⟨Hp, HpR⟩
  icases HIw with ⟨#HIc30, HIw⟩
  ihave Hmw := (mayWait_list (F := F) cc (dsem (⟨30, by decide⟩ : Fin 140)) (List.drop 14 (paysL cc)) (by decide)) $$ Hlev
  iapply (wait_a1_at m cc _ 0 rfl) $$ [Hc HO Hmw Hp]
  · isplitr; · iexact HIc30
    isplitl [Hc]; · iexact Hc
    isplitl [HO]; · iexact HO
    isplitl [Hmw]; · iexact Hmw
    iexact Hp
  iintro ⟨HO, Hq30, -, Hrb0⟩
  icases Hown with ⟨Ho0, Hown⟩
  have hled14 : ∀ (s : DmaSem sig), lvJ s.val = 0 → ((levAts LL lvv : sProp 𝕄) ⊢ MayWait (cc : Thread nD τ) (.dma s) () (owedL (List.drop 14 (paysL cc)))) :=
    fun s hs => mayWait_local (F := F) cc s hs _ (by decide)
  sl_exec
  clear hled14
  ihave Ho0 := (congr (F := F) (r4R (mqF cc) 0) cc fullShare (dev.sl.Ho0_w1 m f0) (r4 m cc) (fun i hi => glue_own m cc 0 _ (k0_off2_inb cc) (k0_off2_eq cc) _ (k0_off23_inb cc) (k0_off23_eq cc) f0 i hi)) $$ Ho0
  ihave Ho0 := (Entails.of_eq (share_ZYK_eq (F := F) (r4R (mqF cc) 0) cc (r4 m cc))) $$ Ho0
  icases Ho0 with ⟨HoZ0, HoY0, HoK0⟩
  -- own chunk 0 to the z-neighbour
  icases Htk with ⟨Hts, Htr, Htk⟩
  icases HIt with ⟨#HIc44, #HIr, HIt⟩
  icases HRt with ⟨#HRs, #HRr, HRt⟩
  icases HqZ with ⟨⟨%fd, Hd⟩, HqZ⟩
  iapply (send_z_at m cc _ (dev15_eq cc) 0 _ _ (k0_off24_eq cc) fd (owedL (List.drop 15 (paysL cc))) rfl _) $$ [HoZ0 Hd HO Hts Htr]
  · isplitr; · iexact HIc44
    isplitr; · iexact HIr
    isplitl [HoZ0]; · iexact HoZ0
    isplitl [Hd]; · iexact Hd
    isplitl [HO]; · iexact HO
    isplitl [Hts]; · iexact Hts
    isplitr; · iexact HRs
    isplitl [Htr]; · iexact Htr
    iexact HRr
  iintro ⟨Hczs0, HO⟩
  iclear HIr HRs HRr
  sl_exec
  -- own chunk 0 to the y-neighbour
  icases Htk with ⟨Hts, Htr, Htk⟩
  icases HIt with ⟨#HIc60, #HIr, HIt⟩
  icases HRt with ⟨#HRs, #HRr, HRt⟩
  icases HqY with ⟨⟨%fd, Hd⟩, HqY⟩
  iapply (send_y_at m cc _ (dev16_eq cc) 0 _ _ (k0_off24_eq cc) fd (owedL (List.drop 16 (paysL cc))) rfl _) $$ [HoY0 Hd HO Hts Htr]
  · isplitr; · iexact HIc60
    isplitr; · iexact HIr
    isplitl [HoY0]; · iexact HoY0
    isplitl [Hd]; · iexact Hd
    isplitl [HO]; · iexact HO
    isplitl [Hts]; · iexact Hts
    isplitr; · iexact HRs
    isplitl [Htr]; · iexact Htr
    iexact HRr
  iintro ⟨Hcys0, HO⟩
  iclear HIr HRs HRr
  sl_exec
  -- step 1 of the main loop: the x-neighbour's chunk 1 has landed
  icases Hcr with ⟨Hc, Hcr⟩
  icases HpR with ⟨Hp, HpR⟩
  icases HIw with ⟨#HIc31, HIw⟩
  ihave Hmw := (mayWait_list (F := F) cc (dsem (⟨31, by decide⟩ : Fin 140)) (List.drop 16 (paysL cc)) (by decide)) $$ Hlev
  iapply (wait_a1_at m cc _ 1 rfl) $$ [Hc HO Hmw Hp]
  · isplitr; · iexact HIc31
    isplitl [Hc]; · iexact Hc
    isplitl [HO]; · iexact HO
    isplitl [Hmw]; · iexact Hmw
    iexact Hp
  iintro ⟨HO, Hq31, -, Hrb1⟩
  icases Hown with ⟨Ho1, Hown⟩
  have hled16 : ∀ (s : DmaSem sig), lvJ s.val = 0 → ((levAts LL lvv : sProp 𝕄) ⊢ MayWait (cc : Thread nD τ) (.dma s) () (owedL (List.drop 16 (paysL cc)))) :=
    fun s hs => mayWait_local (F := F) cc s hs _ (by decide)
  sl_exec
  clear hled16
  ihave Ho1 := (congr (F := F) (r4R (mqF cc) 1) cc fullShare (dev.sl.Ho1_w1 m f0) (r4 m cc) (fun i hi => glue_own m cc 1 _ (k0_off4_inb cc) (k0_off4_eq cc) _ (k0_off25_inb cc) (k0_off25_eq cc) f0 i hi)) $$ Ho1
  ihave Ho1 := (Entails.of_eq (share_ZYK_eq (F := F) (r4R (mqF cc) 1) cc (r4 m cc))) $$ Ho1
  icases Ho1 with ⟨HoZ1, HoY1, HoK1⟩
  -- own chunk 1 to the z-neighbour
  icases Htk with ⟨Hts, Htr, Htk⟩
  icases HIt with ⟨#HIc45, #HIr, HIt⟩
  icases HRt with ⟨#HRs, #HRr, HRt⟩
  icases HqZ with ⟨⟨%fd, Hd⟩, HqZ⟩
  iapply (send_z_at m cc _ (dev17_eq cc) 1 _ _ (k0_off26_eq cc) fd (owedL (List.drop 17 (paysL cc))) rfl _) $$ [HoZ1 Hd HO Hts Htr]
  · isplitr; · iexact HIc45
    isplitr; · iexact HIr
    isplitl [HoZ1]; · iexact HoZ1
    isplitl [Hd]; · iexact Hd
    isplitl [HO]; · iexact HO
    isplitl [Hts]; · iexact Hts
    isplitr; · iexact HRs
    isplitl [Htr]; · iexact Htr
    iexact HRr
  iintro ⟨Hczs1, HO⟩
  iclear HIr HRs HRr
  sl_exec
  -- own chunk 1 to the y-neighbour
  icases Htk with ⟨Hts, Htr, Htk⟩
  icases HIt with ⟨#HIc61, #HIr, HIt⟩
  icases HRt with ⟨#HRs, #HRr, HRt⟩
  icases HqY with ⟨⟨%fd, Hd⟩, HqY⟩
  iapply (send_y_at m cc _ (dev18_eq cc) 1 _ _ (k0_off26_eq cc) fd (owedL (List.drop 18 (paysL cc))) rfl _) $$ [HoY1 Hd HO Hts Htr]
  · isplitr; · iexact HIc61
    isplitr; · iexact HIr
    isplitl [HoY1]; · iexact HoY1
    isplitl [Hd]; · iexact Hd
    isplitl [HO]; · iexact HO
    isplitl [Hts]; · iexact Hts
    isplitr; · iexact HRs
    isplitl [Htr]; · iexact Htr
    iexact HRr
  iintro ⟨Hcys1, HO⟩
  iclear HIr HRs HRr
  sl_exec
  -- the z-neighbour's chunk 0 has landed
  icases Hcr with ⟨Hc, Hcr⟩
  icases HpR with ⟨Hp, HpR⟩
  icases HIw with ⟨#HIc52, HIw⟩
  ihave Hmw := (mayWait_list (F := F) cc (dsem (⟨52, by decide⟩ : Fin 140)) (List.drop 18 (paysL cc)) (by decide)) $$ Hlev
  iapply (wait_a5_at m cc _ 0 rfl) $$ [Hc HO Hmw Hp]
  · isplitr; · iexact HIc52
    isplitl [Hc]; · iexact Hc
    isplitl [HO]; · iexact HO
    isplitl [Hmw]; · iexact Hmw
    iexact Hp
  iintro ⟨HO, Hq52, -, Hz0⟩
  sl_exec
  -- the y-neighbour's chunk 0 has landed
  icases Hcr with ⟨Hc, Hcr⟩
  icases HpR with ⟨Hp, HpR⟩
  icases HIw with ⟨#HIc68, HIw⟩
  ihave Hmw := (mayWait_list (F := F) cc (dsem (⟨68, by decide⟩ : Fin 140)) (List.drop 18 (paysL cc)) (by decide)) $$ Hlev
  iapply (wait_a7_at m cc _ 0 rfl) $$ [Hc HO Hmw Hp]
  · isplitr; · iexact HIc68
    isplitl [Hc]; · iexact Hc
    isplitl [HO]; · iexact HO
    isplitl [Hmw]; · iexact Hmw
    iexact Hp
  iintro ⟨HO, Hq68, -, Hy0⟩
  sl_exec
  -- step 2 of the main loop: the x-neighbour's chunk 2 has landed
  icases Hcr with ⟨Hc, Hcr⟩
  icases HpR with ⟨Hp, HpR⟩
  icases HIw with ⟨#HIc32, HIw⟩
  ihave Hmw := (mayWait_list (F := F) cc (dsem (⟨32, by decide⟩ : Fin 140)) (List.drop 18 (paysL cc)) (by decide)) $$ Hlev
  iapply (wait_a1_at m cc _ 2 rfl) $$ [Hc HO Hmw Hp]
  · isplitr; · iexact HIc32
    isplitl [Hc]; · iexact Hc
    isplitl [HO]; · iexact HO
    isplitl [Hmw]; · iexact Hmw
    iexact Hp
  iintro ⟨HO, Hq32, -, Hrb2⟩
  icases Hown with ⟨Ho2, Hown⟩
  have hled18 : ∀ (s : DmaSem sig), lvJ s.val = 0 → ((levAts LL lvv : sProp 𝕄) ⊢ MayWait (cc : Thread nD τ) (.dma s) () (owedL (List.drop 18 (paysL cc)))) :=
    fun s hs => mayWait_local (F := F) cc s hs _ (by decide)
  sl_exec
  clear hled18
  ihave Ho2 := (congr (F := F) (r4R (mqF cc) 2) cc fullShare (dev.sl.Ho2_w1 m f0) (r4 m cc) (fun i hi => glue_own m cc 2 _ (k0_off6_inb cc) (k0_off6_eq cc) _ (k0_off27_inb cc) (k0_off27_eq cc) f0 i hi)) $$ Ho2
  ihave Ho2 := (Entails.of_eq (share_ZYK_eq (F := F) (r4R (mqF cc) 2) cc (r4 m cc))) $$ Ho2
  icases Ho2 with ⟨HoZ2, HoY2, HoK2⟩
  -- own chunk 2 to the z-neighbour
  icases Htk with ⟨Hts, Htr, Htk⟩
  icases HIt with ⟨#HIc46, #HIr, HIt⟩
  icases HRt with ⟨#HRs, #HRr, HRt⟩
  icases HqZ with ⟨⟨%fd, Hd⟩, HqZ⟩
  iapply (send_z_at m cc _ (dev19_eq cc) 2 _ _ (k0_off28_eq cc) fd (owedL (List.drop 19 (paysL cc))) rfl _) $$ [HoZ2 Hd HO Hts Htr]
  · isplitr; · iexact HIc46
    isplitr; · iexact HIr
    isplitl [HoZ2]; · iexact HoZ2
    isplitl [Hd]; · iexact Hd
    isplitl [HO]; · iexact HO
    isplitl [Hts]; · iexact Hts
    isplitr; · iexact HRs
    isplitl [Htr]; · iexact Htr
    iexact HRr
  iintro ⟨Hczs2, HO⟩
  iclear HIr HRs HRr
  sl_exec
  -- own chunk 2 to the y-neighbour
  icases Htk with ⟨Hts, Htr, Htk⟩
  icases HIt with ⟨#HIc62, #HIr, HIt⟩
  icases HRt with ⟨#HRs, #HRr, HRt⟩
  icases HqY with ⟨⟨%fd, Hd⟩, HqY⟩
  iapply (send_y_at m cc _ (dev20_eq cc) 2 _ _ (k0_off28_eq cc) fd (owedL (List.drop 20 (paysL cc))) rfl _) $$ [HoY2 Hd HO Hts Htr]
  · isplitr; · iexact HIc62
    isplitr; · iexact HIr
    isplitl [HoY2]; · iexact HoY2
    isplitl [Hd]; · iexact Hd
    isplitl [HO]; · iexact HO
    isplitl [Hts]; · iexact Hts
    isplitr; · iexact HRs
    isplitl [Htr]; · iexact Htr
    iexact HRr
  iintro ⟨Hcys2, HO⟩
  iclear HIr HRs HRr
  sl_exec
  -- the z-neighbour's chunk 1 has landed
  icases Hcr with ⟨Hc, Hcr⟩
  icases HpR with ⟨Hp, HpR⟩
  icases HIw with ⟨#HIc53, HIw⟩
  ihave Hmw := (mayWait_list (F := F) cc (dsem (⟨53, by decide⟩ : Fin 140)) (List.drop 20 (paysL cc)) (by decide)) $$ Hlev
  iapply (wait_a5_at m cc _ 1 rfl) $$ [Hc HO Hmw Hp]
  · isplitr; · iexact HIc53
    isplitl [Hc]; · iexact Hc
    isplitl [HO]; · iexact HO
    isplitl [Hmw]; · iexact Hmw
    iexact Hp
  iintro ⟨HO, Hq53, -, Hz1⟩
  sl_exec
  -- the y-neighbour's chunk 1 has landed
  icases Hcr with ⟨Hc, Hcr⟩
  icases HpR with ⟨Hp, HpR⟩
  icases HIw with ⟨#HIc69, HIw⟩
  ihave Hmw := (mayWait_list (F := F) cc (dsem (⟨69, by decide⟩ : Fin 140)) (List.drop 20 (paysL cc)) (by decide)) $$ Hlev
  iapply (wait_a7_at m cc _ 1 rfl) $$ [Hc HO Hmw Hp]
  · isplitr; · iexact HIc69
    isplitl [Hc]; · iexact Hc
    isplitl [HO]; · iexact HO
    isplitl [Hmw]; · iexact Hmw
    iexact Hp
  iintro ⟨HO, Hq69, -, Hy1⟩
  sl_exec
  -- step 3 of the main loop: the x-neighbour's chunk 3 has landed
  icases Hcr with ⟨Hc, Hcr⟩
  icases HpR with ⟨Hp, HpR⟩
  icases HIw with ⟨#HIc33, HIw⟩
  ihave Hmw := (mayWait_list (F := F) cc (dsem (⟨33, by decide⟩ : Fin 140)) (List.drop 20 (paysL cc)) (by decide)) $$ Hlev
  iapply (wait_a1_at m cc _ 3 rfl) $$ [Hc HO Hmw Hp]
  · isplitr; · iexact HIc33
    isplitl [Hc]; · iexact Hc
    isplitl [HO]; · iexact HO
    isplitl [Hmw]; · iexact Hmw
    iexact Hp
  iintro ⟨HO, Hq33, -, Hrb3⟩
  icases Hown with ⟨Ho3, Hown⟩
  have hled20 : ∀ (s : DmaSem sig), lvJ s.val = 0 → ((levAts LL lvv : sProp 𝕄) ⊢ MayWait (cc : Thread nD τ) (.dma s) () (owedL (List.drop 20 (paysL cc)))) :=
    fun s hs => mayWait_local (F := F) cc s hs _ (by decide)
  sl_exec
  clear hled20
  ihave Ho3 := (congr (F := F) (r4R (mqF cc) 3) cc fullShare (dev.sl.Ho3_w1 m f0) (r4 m cc) (fun i hi => glue_own m cc 3 _ (k0_off8_inb cc) (k0_off8_eq cc) _ (k0_off29_inb cc) (k0_off29_eq cc) f0 i hi)) $$ Ho3
  ihave Ho3 := (Entails.of_eq (share_ZYK_eq (F := F) (r4R (mqF cc) 3) cc (r4 m cc))) $$ Ho3
  icases Ho3 with ⟨HoZ3, HoY3, HoK3⟩
  -- own chunk 3 to the z-neighbour
  icases Htk with ⟨Hts, Htr, Htk⟩
  icases HIt with ⟨#HIc47, #HIr, HIt⟩
  icases HRt with ⟨#HRs, #HRr, HRt⟩
  icases HqZ with ⟨⟨%fd, Hd⟩, HqZ⟩
  iapply (send_z_at m cc _ (dev21_eq cc) 3 _ _ (k0_off30_eq cc) fd (owedL (List.drop 21 (paysL cc))) rfl _) $$ [HoZ3 Hd HO Hts Htr]
  · isplitr; · iexact HIc47
    isplitr; · iexact HIr
    isplitl [HoZ3]; · iexact HoZ3
    isplitl [Hd]; · iexact Hd
    isplitl [HO]; · iexact HO
    isplitl [Hts]; · iexact Hts
    isplitr; · iexact HRs
    isplitl [Htr]; · iexact Htr
    iexact HRr
  iintro ⟨Hczs3, HO⟩
  iclear HIr HRs HRr
  sl_exec
  -- own chunk 3 to the y-neighbour
  icases Htk with ⟨Hts, Htr, Htk⟩
  icases HIt with ⟨#HIc63, #HIr, HIt⟩
  icases HRt with ⟨#HRs, #HRr, HRt⟩
  icases HqY with ⟨⟨%fd, Hd⟩, HqY⟩
  iapply (send_y_at m cc _ (dev22_eq cc) 3 _ _ (k0_off30_eq cc) fd (owedL (List.drop 22 (paysL cc))) rfl _) $$ [HoY3 Hd HO Hts Htr]
  · isplitr; · iexact HIc63
    isplitr; · iexact HIr
    isplitl [HoY3]; · iexact HoY3
    isplitl [Hd]; · iexact Hd
    isplitl [HO]; · iexact HO
    isplitl [Hts]; · iexact Hts
    isplitr; · iexact HRs
    isplitl [Htr]; · iexact Htr
    iexact HRr
  iintro ⟨Hcys3, HO⟩
  iclear HIr HRs HRr
  sl_exec
  -- the z-neighbour's chunk 2 has landed
  icases Hcr with ⟨Hc, Hcr⟩
  icases HpR with ⟨Hp, HpR⟩
  icases HIw with ⟨#HIc54, HIw⟩
  ihave Hmw := (mayWait_list (F := F) cc (dsem (⟨54, by decide⟩ : Fin 140)) (List.drop 22 (paysL cc)) (by decide)) $$ Hlev
  iapply (wait_a5_at m cc _ 2 rfl) $$ [Hc HO Hmw Hp]
  · isplitr; · iexact HIc54
    isplitl [Hc]; · iexact Hc
    isplitl [HO]; · iexact HO
    isplitl [Hmw]; · iexact Hmw
    iexact Hp
  iintro ⟨HO, Hq54, -, Hz2⟩
  sl_exec
  -- the y-neighbour's chunk 2 has landed
  icases Hcr with ⟨Hc, Hcr⟩
  icases HpR with ⟨Hp, HpR⟩
  icases HIw with ⟨#HIc70, HIw⟩
  ihave Hmw := (mayWait_list (F := F) cc (dsem (⟨70, by decide⟩ : Fin 140)) (List.drop 22 (paysL cc)) (by decide)) $$ Hlev
  iapply (wait_a7_at m cc _ 2 rfl) $$ [Hc HO Hmw Hp]
  · isplitr; · iexact HIc70
    isplitl [Hc]; · iexact Hc
    isplitl [HO]; · iexact HO
    isplitl [Hmw]; · iexact Hmw
    iexact Hp
  iintro ⟨HO, Hq70, -, Hy2⟩
  sl_exec
  -- step 4 of the main loop: the x-neighbour's chunk 4 has landed
  icases Hcr with ⟨Hc, Hcr⟩
  icases HpR with ⟨Hp, HpR⟩
  icases HIw with ⟨#HIc34, HIw⟩
  ihave Hmw := (mayWait_list (F := F) cc (dsem (⟨34, by decide⟩ : Fin 140)) (List.drop 22 (paysL cc)) (by decide)) $$ Hlev
  iapply (wait_a1_at m cc _ 4 rfl) $$ [Hc HO Hmw Hp]
  · isplitr; · iexact HIc34
    isplitl [Hc]; · iexact Hc
    isplitl [HO]; · iexact HO
    isplitl [Hmw]; · iexact Hmw
    iexact Hp
  iintro ⟨HO, Hq34, -, Hrb4⟩
  icases Hown with ⟨Ho4, Hown⟩
  have hled22 : ∀ (s : DmaSem sig), lvJ s.val = 0 → ((levAts LL lvv : sProp 𝕄) ⊢ MayWait (cc : Thread nD τ) (.dma s) () (owedL (List.drop 22 (paysL cc)))) :=
    fun s hs => mayWait_local (F := F) cc s hs _ (by decide)
  sl_exec
  clear hled22
  ihave Ho4 := (congr (F := F) (r4R (mqF cc) 4) cc fullShare (dev.sl.Ho4_w1 m f0) (r4 m cc) (fun i hi => glue_own m cc 4 _ (k0_off10_inb cc) (k0_off10_eq cc) _ (k0_off31_inb cc) (k0_off31_eq cc) f0 i hi)) $$ Ho4
  ihave Ho4 := (Entails.of_eq (share_ZYK_eq (F := F) (r4R (mqF cc) 4) cc (r4 m cc))) $$ Ho4
  icases Ho4 with ⟨HoZ4, HoY4, HoK4⟩
  -- own chunk 4 to the z-neighbour
  icases Htk with ⟨Hts, Htr, Htk⟩
  icases HIt with ⟨#HIc48, #HIr, HIt⟩
  icases HRt with ⟨#HRs, #HRr, HRt⟩
  icases HqZ with ⟨⟨%fd, Hd⟩, HqZ⟩
  iapply (send_z_at m cc _ (dev23_eq cc) 4 _ _ (k0_off32_eq cc) fd (owedL (List.drop 23 (paysL cc))) rfl _) $$ [HoZ4 Hd HO Hts Htr]
  · isplitr; · iexact HIc48
    isplitr; · iexact HIr
    isplitl [HoZ4]; · iexact HoZ4
    isplitl [Hd]; · iexact Hd
    isplitl [HO]; · iexact HO
    isplitl [Hts]; · iexact Hts
    isplitr; · iexact HRs
    isplitl [Htr]; · iexact Htr
    iexact HRr
  iintro ⟨Hczs4, HO⟩
  iclear HIr HRs HRr
  sl_exec
  -- own chunk 4 to the y-neighbour
  icases Htk with ⟨Hts, Htr, Htk⟩
  icases HIt with ⟨#HIc64, #HIr, HIt⟩
  icases HRt with ⟨#HRs, #HRr, HRt⟩
  icases HqY with ⟨⟨%fd, Hd⟩, HqY⟩
  iapply (send_y_at m cc _ (dev24_eq cc) 4 _ _ (k0_off32_eq cc) fd (owedL (List.drop 24 (paysL cc))) rfl _) $$ [HoY4 Hd HO Hts Htr]
  · isplitr; · iexact HIc64
    isplitr; · iexact HIr
    isplitl [HoY4]; · iexact HoY4
    isplitl [Hd]; · iexact Hd
    isplitl [HO]; · iexact HO
    isplitl [Hts]; · iexact Hts
    isplitr; · iexact HRs
    isplitl [Htr]; · iexact Htr
    iexact HRr
  iintro ⟨Hcys4, HO⟩
  iclear HIr HRs HRr
  sl_exec
  -- the z-neighbour's chunk 3 has landed
  icases Hcr with ⟨Hc, Hcr⟩
  icases HpR with ⟨Hp, HpR⟩
  icases HIw with ⟨#HIc55, HIw⟩
  ihave Hmw := (mayWait_list (F := F) cc (dsem (⟨55, by decide⟩ : Fin 140)) (List.drop 24 (paysL cc)) (by decide)) $$ Hlev
  iapply (wait_a5_at m cc _ 3 rfl) $$ [Hc HO Hmw Hp]
  · isplitr; · iexact HIc55
    isplitl [Hc]; · iexact Hc
    isplitl [HO]; · iexact HO
    isplitl [Hmw]; · iexact Hmw
    iexact Hp
  iintro ⟨HO, Hq55, -, Hz3⟩
  sl_exec
  -- the y-neighbour's chunk 3 has landed
  icases Hcr with ⟨Hc, Hcr⟩
  icases HpR with ⟨Hp, HpR⟩
  icases HIw with ⟨#HIc71, HIw⟩
  ihave Hmw := (mayWait_list (F := F) cc (dsem (⟨71, by decide⟩ : Fin 140)) (List.drop 24 (paysL cc)) (by decide)) $$ Hlev
  iapply (wait_a7_at m cc _ 3 rfl) $$ [Hc HO Hmw Hp]
  · isplitr; · iexact HIc71
    isplitl [Hc]; · iexact Hc
    isplitl [HO]; · iexact HO
    isplitl [Hmw]; · iexact Hmw
    iexact Hp
  iintro ⟨HO, Hq71, -, Hy3⟩
  -- chunk 3 of the two neighbours' quarters: half its ownership stays for the copy into the result, of the other half one column half travels on
  ihave Hz3 := (Entails.of_eq (share_FG_eq (F := F) (r4R (zqF cc) 3) cc (r4 m cc))) $$ Hz3
  icases Hz3 with ⟨HzF3, HzG3⟩
  ihave HzF3 := (Entails.of_eq (chunk_halves (F := F) cc (zqF cc) 3 shF (r4 m cc))) $$ HzF3
  icases HzF3 with ⟨HzFl3, HzFr3⟩
  ihave Hy3 := (Entails.of_eq (share_FG_eq (F := F) (r4R (yqF cc) 3) cc (r4 m cc))) $$ Hy3
  icases Hy3 with ⟨HyF3, HyG3⟩
  ihave HyF3 := (Entails.of_eq (chunk_halves (F := F) cc (yqF cc) 3 shF (r4 m cc))) $$ HyF3
  icases HyF3 with ⟨HyFl3, HyFr3⟩
  sl_exec
  -- the right half of the z-neighbour's chunk 3 on to the y-neighbour
  icases Htk with ⟨Hts, Htr, Htk⟩
  icases HIt with ⟨#HIc95, #HIr, HIt⟩
  icases HRt with ⟨#HRs, #HRr, HRt⟩
  icases HhYp with ⟨⟨%fd, Hd⟩, HhYp⟩
  iapply (send_yf_at m cc _ (dev25_eq cc) 3 (by decide) _ _ (k0_off33_eq cc) fd (owedL (List.drop 25 (paysL cc))) rfl _) $$ [HzFr3 Hd HO Hts Htr]
  · isplitr; · iexact HIc95
    isplitr; · iexact HIr
    isplitl [HzFr3]; · iexact HzFr3
    isplitl [Hd]; · iexact Hd
    isplitl [HO]; · iexact HO
    isplitl [Hts]; · iexact Hts
    isplitr; · iexact HRs
    isplitl [Htr]; · iexact Htr
    iexact HRr
  iintro ⟨Hcyfs3, HO⟩
  iclear HIr HRs HRr
  sl_exec
  -- the left half of the y-neighbour's chunk 3 on to the z-neighbour
  icases Htk with ⟨Hts, Htr, Htk⟩
  icases HIt with ⟨#HIc79, #HIr, HIt⟩
  icases HRt with ⟨#HRs, #HRr, HRt⟩
  icases HhZp with ⟨⟨%fd, Hd⟩, HhZp⟩
  iapply (send_zf_at m cc _ (dev26_eq cc) 3 (by decide) _ _ (k0_off34_eq cc) fd (owedL (List.drop 26 (paysL cc))) rfl _) $$ [HyFl3 Hd HO Hts Htr]
  · isplitr; · iexact HIc79
    isplitr; · iexact HIr
    isplitl [HyFl3]; · iexact HyFl3
    isplitl [Hd]; · iexact Hd
    isplitl [HO]; · iexact HO
    isplitl [Hts]; · iexact Hts
    isplitr; · iexact HRs
    isplitl [Htr]; · iexact Htr
    iexact HRr
  iintro ⟨Hczfs3, HO⟩
  iclear HIr HRs HRr
  sl_exec
  -- step 5 of the main loop: the x-neighbour's chunk 5 has landed
  icases Hcr with ⟨Hc, Hcr⟩
  icases HpR with ⟨Hp, HpR⟩
  icases HIw with ⟨#HIc35, HIw⟩
  ihave Hmw := (mayWait_list (F := F) cc (dsem (⟨35, by decide⟩ : Fin 140)) (List.drop 26 (paysL cc)) (by decide)) $$ Hlev
  iapply (wait_a1_at m cc _ 5 rfl) $$ [Hc HO Hmw Hp]
  · isplitr; · iexact HIc35
    isplitl [Hc]; · iexact Hc
    isplitl [HO]; · iexact HO
    isplitl [Hmw]; · iexact Hmw
    iexact Hp
  iintro ⟨HO, Hq35, -, Hrb5⟩
  icases Hown with ⟨Ho5, Hown⟩
  have hled26 : ∀ (s : DmaSem sig), lvJ s.val = 0 → ((levAts LL lvv : sProp 𝕄) ⊢ MayWait (cc : Thread nD τ) (.dma s) () (owedL (List.drop 26 (paysL cc)))) :=
    fun s hs => mayWait_local (F := F) cc s hs _ (by decide)
  sl_exec
  clear hled26
  ihave Ho5 := (congr (F := F) (r4R (mqF cc) 5) cc fullShare (dev.sl.Ho5_w1 m f0) (r4 m cc) (fun i hi => glue_own m cc 5 _ (k0_off12_inb cc) (k0_off12_eq cc) _ (k0_off35_inb cc) (k0_off35_eq cc) f0 i hi)) $$ Ho5
  ihave Ho5 := (Entails.of_eq (share_ZYK_eq (F := F) (r4R (mqF cc) 5) cc (r4 m cc))) $$ Ho5
  icases Ho5 with ⟨HoZ5, HoY5, HoK5⟩
  -- own chunk 5 to the z-neighbour
  icases Htk with ⟨Hts, Htr, Htk⟩
  icases HIt with ⟨#HIc49, #HIr, HIt⟩
  icases HRt with ⟨#HRs, #HRr, HRt⟩
  icases HqZ with ⟨⟨%fd, Hd⟩, HqZ⟩
  iapply (send_z_at m cc _ (dev27_eq cc) 5 _ _ (k0_off36_eq cc) fd (owedL (List.drop 27 (paysL cc))) rfl _) $$ [HoZ5 Hd HO Hts Htr]
  · isplitr; · iexact HIc49
    isplitr; · iexact HIr
    isplitl [HoZ5]; · iexact HoZ5
    isplitl [Hd]; · iexact Hd
    isplitl [HO]; · iexact HO
    isplitl [Hts]; · iexact Hts
    isplitr; · iexact HRs
    isplitl [Htr]; · iexact Htr
    iexact HRr
  iintro ⟨Hczs5, HO⟩
  iclear HIr HRs HRr
  sl_exec
  -- own chunk 5 to the y-neighbour
  icases Htk with ⟨Hts, Htr, Htk⟩
  icases HIt with ⟨#HIc65, #HIr, HIt⟩
  icases HRt with ⟨#HRs, #HRr, HRt⟩
  icases HqY with ⟨⟨%fd, Hd⟩, HqY⟩
  iapply (send_y_at m cc _ (dev28_eq cc) 5 _ _ (k0_off36_eq cc) fd (owedL (List.drop 28 (paysL cc))) rfl _) $$ [HoY5 Hd HO Hts Htr]
  · isplitr; · iexact HIc65
    isplitr; · iexact HIr
    isplitl [HoY5]; · iexact HoY5
    isplitl [Hd]; · iexact Hd
    isplitl [HO]; · iexact HO
    isplitl [Hts]; · iexact Hts
    isplitr; · iexact HRs
    isplitl [Htr]; · iexact Htr
    iexact HRr
  iintro ⟨Hcys5, HO⟩
  iclear HIr HRs HRr
  sl_exec
  -- the z-neighbour's chunk 4 has landed
  icases Hcr with ⟨Hc, Hcr⟩
  icases HpR with ⟨Hp, HpR⟩
  icases HIw with ⟨#HIc56, HIw⟩
  ihave Hmw := (mayWait_list (F := F) cc (dsem (⟨56, by decide⟩ : Fin 140)) (List.drop 28 (paysL cc)) (by decide)) $$ Hlev
  iapply (wait_a5_at m cc _ 4 rfl) $$ [Hc HO Hmw Hp]
  · isplitr; · iexact HIc56
    isplitl [Hc]; · iexact Hc
    isplitl [HO]; · iexact HO
    isplitl [Hmw]; · iexact Hmw
    iexact Hp
  iintro ⟨HO, Hq56, -, Hz4⟩
  sl_exec
  -- the y-neighbour's chunk 4 has landed
  icases Hcr with ⟨Hc, Hcr⟩
  icases HpR with ⟨Hp, HpR⟩
  icases HIw with ⟨#HIc72, HIw⟩
  ihave Hmw := (mayWait_list (F := F) cc (dsem (⟨72, by decide⟩ : Fin 140)) (List.drop 28 (paysL cc)) (by decide)) $$ Hlev
  iapply (wait_a7_at m cc _ 4 rfl) $$ [Hc HO Hmw Hp]
  · isplitr; · iexact HIc72
    isplitl [Hc]; · iexact Hc
    isplitl [HO]; · iexact HO
    isplitl [Hmw]; · iexact Hmw
    iexact Hp
  iintro ⟨HO, Hq72, -, Hy4⟩
  -- chunk 4 of the two neighbours' quarters: half its ownership stays for the copy into the result, of the other half one column half travels on
  ihave Hz4 := (Entails.of_eq (share_FG_eq (F := F) (r4R (zqF cc) 4) cc (r4 m cc))) $$ Hz4
  icases Hz4 with ⟨HzF4, HzG4⟩
  ihave HzF4 := (Entails.of_eq (chunk_halves (F := F) cc (zqF cc) 4 shF (r4 m cc))) $$ HzF4
  icases HzF4 with ⟨HzFl4, HzFr4⟩
  ihave Hy4 := (Entails.of_eq (share_FG_eq (F := F) (r4R (yqF cc) 4) cc (r4 m cc))) $$ Hy4
  icases Hy4 with ⟨HyF4, HyG4⟩
  ihave HyF4 := (Entails.of_eq (chunk_halves (F := F) cc (yqF cc) 4 shF (r4 m cc))) $$ HyF4
  icases HyF4 with ⟨HyFl4, HyFr4⟩
  sl_exec
  -- the right half of the z-neighbour's chunk 4 on to the y-neighbour
  icases Htk with ⟨Hts, Htr, Htk⟩
  icases HIt with ⟨#HIc96, #HIr, HIt⟩
  icases HRt with ⟨#HRs, #HRr, HRt⟩
  icases HhYp with ⟨⟨%fd, Hd⟩, HhYp⟩
  iapply (send_yf_at m cc _ (dev29_eq cc) 4 (by decide) _ _ (k0_off37_eq cc) fd (owedL (List.drop 29 (paysL cc))) rfl _) $$ [HzFr4 Hd HO Hts Htr]
  · isplitr; · iexact HIc96
    isplitr; · iexact HIr
    isplitl [HzFr4]; · iexact HzFr4
    isplitl [Hd]; · iexact Hd
    isplitl [HO]; · iexact HO
    isplitl [Hts]; · iexact Hts
    isplitr; · iexact HRs
    isplitl [Htr]; · iexact Htr
    iexact HRr
  iintro ⟨Hcyfs4, HO⟩
  iclear HIr HRs HRr
  sl_exec
  -- the left half of the y-neighbour's chunk 4 on to the z-neighbour
  icases Htk with ⟨Hts, Htr, Htk⟩
  icases HIt with ⟨#HIc80, #HIr, HIt⟩
  icases HRt with ⟨#HRs, #HRr, HRt⟩
  icases HhZp with ⟨⟨%fd, Hd⟩, HhZp⟩
  iapply (send_zf_at m cc _ (dev30_eq cc) 4 (by decide) _ _ (k0_off38_eq cc) fd (owedL (List.drop 30 (paysL cc))) rfl _) $$ [HyFl4 Hd HO Hts Htr]
  · isplitr; · iexact HIc80
    isplitr; · iexact HIr
    isplitl [HyFl4]; · iexact HyFl4
    isplitl [Hd]; · iexact Hd
    isplitl [HO]; · iexact HO
    isplitl [Hts]; · iexact Hts
    isplitr; · iexact HRs
    isplitl [Htr]; · iexact Htr
    iexact HRr
  iintro ⟨Hczfs4, HO⟩
  iclear HIr HRs HRr
  sl_exec
  -- the left half of chunk 3 of the diagonal quarter has landed
  icases Hcr with ⟨Hc, Hcr⟩
  icases HpR with ⟨Hp, HpR⟩
  icases HIw with ⟨#HIc87, HIw⟩
  ihave Hmw := (mayWait_list (F := F) cc (dsem (⟨87, by decide⟩ : Fin 140)) (List.drop 30 (paysL cc)) (by decide)) $$ Hlev
  iapply (wait_a9_at m cc _ 3 rfl (by decide)) $$ [Hc HO Hmw Hp]
  · isplitr; · iexact HIc87
    isplitl [Hc]; · iexact Hc
    isplitl [HO]; · iexact HO
    isplitl [Hmw]; · iexact Hmw
    iexact Hp
  iintro ⟨HO, Hq87, -, Hdl3⟩
  sl_exec
  -- its right half has landed
  icases Hcr with ⟨Hc, Hcr⟩
  icases HpR with ⟨Hp, HpR⟩
  icases HIw with ⟨#HIc103, HIw⟩
  ihave Hmw := (mayWait_list (F := F) cc (dsem (⟨103, by decide⟩ : Fin 140)) (List.drop 30 (paysL cc)) (by decide)) $$ Hlev
  iapply (wait_a11_at m cc _ 3 rfl (by decide)) $$ [Hc HO Hmw Hp]
  · isplitr; · iexact HIc103
    isplitl [Hc]; · iexact Hc
    isplitl [HO]; · iexact HO
    isplitl [Hmw]; · iexact Hmw
    iexact Hp
  iintro ⟨HO, Hq103, -, Hdr3⟩
  ihave Hd3 := (Entails.of_eq (chunk_halves (F := F) cc (dqF cc) 3 fullShare (r4 m cc)).symm) $$ [Hdl3 Hdr3]
  · isplitl [Hdl3]; · iexact Hdl3
    iexact Hdr3
  -- the four copies of chunk 3 into the result
  icases HvO with ⟨Hw3a, Hw3b, Hw3c, Hw3d, HvO⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  -- step 6 of the main loop: the x-neighbour's chunk 6 has landed
  icases Hcr with ⟨Hc, Hcr⟩
  icases HpR with ⟨Hp, HpR⟩
  icases HIw with ⟨#HIc36, HIw⟩
  ihave Hmw := (mayWait_list (F := F) cc (dsem (⟨36, by decide⟩ : Fin 140)) (List.drop 30 (paysL cc)) (by decide)) $$ Hlev
  iapply (wait_a1_at m cc _ 6 rfl) $$ [Hc HO Hmw Hp]
  · isplitr; · iexact HIc36
    isplitl [Hc]; · iexact Hc
    isplitl [HO]; · iexact HO
    isplitl [Hmw]; · iexact Hmw
    iexact Hp
  iintro ⟨HO, Hq36, -, Hrb6⟩
  icases Hown with ⟨Ho6, Hown⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  ihave Ho6 := (congr (F := F) (r4R (mqF cc) 6) cc fullShare (dev.sl.Ho6_w1 m f0) (r4 m cc) (fun i hi => glue_own m cc 6 _ (k0_off14_inb cc) (k0_off14_eq cc) _ (k0_off39_inb cc) (k0_off39_eq cc) f0 i hi)) $$ Ho6
  ihave Ho6 := (Entails.of_eq (share_ZYK_eq (F := F) (r4R (mqF cc) 6) cc (r4 m cc))) $$ Ho6
  icases Ho6 with ⟨HoZ6, HoY6, HoK6⟩
  -- own chunk 6 to the z-neighbour
  icases Htk with ⟨Hts, Htr, Htk⟩
  icases HIt with ⟨#HIc50, #HIr, HIt⟩
  icases HRt with ⟨#HRs, #HRr, HRt⟩
  icases HqZ with ⟨⟨%fd, Hd⟩, HqZ⟩
  iapply (send_z_at m cc _ (dev31_eq cc) 6 _ _ (k0_off40_eq cc) fd (owedL (List.drop 31 (paysL cc))) rfl _) $$ [HoZ6 Hd HO Hts Htr]
  · isplitr; · iexact HIc50
    isplitr; · iexact HIr
    isplitl [HoZ6]; · iexact HoZ6
    isplitl [Hd]; · iexact Hd
    isplitl [HO]; · iexact HO
    isplitl [Hts]; · iexact Hts
    isplitr; · iexact HRs
    isplitl [Htr]; · iexact Htr
    iexact HRr
  iintro ⟨Hczs6, HO⟩
  iclear HIr HRs HRr
  sl_exec
  -- own chunk 6 to the y-neighbour
  icases Htk with ⟨Hts, Htr, Htk⟩
  icases HIt with ⟨#HIc66, #HIr, HIt⟩
  icases HRt with ⟨#HRs, #HRr, HRt⟩
  icases HqY with ⟨⟨%fd, Hd⟩, HqY⟩
  iapply (send_y_at m cc _ (dev32_eq cc) 6 _ _ (k0_off40_eq cc) fd (owedL (List.drop 32 (paysL cc))) rfl _) $$ [HoY6 Hd HO Hts Htr]
  · isplitr; · iexact HIc66
    isplitr; · iexact HIr
    isplitl [HoY6]; · iexact HoY6
    isplitl [Hd]; · iexact Hd
    isplitl [HO]; · iexact HO
    isplitl [Hts]; · iexact Hts
    isplitr; · iexact HRs
    isplitl [Htr]; · iexact Htr
    iexact HRr
  iintro ⟨Hcys6, HO⟩
  iclear HIr HRs HRr
  sl_exec
  -- the z-neighbour's chunk 5 has landed
  icases Hcr with ⟨Hc, Hcr⟩
  icases HpR with ⟨Hp, HpR⟩
  icases HIw with ⟨#HIc57, HIw⟩
  ihave Hmw := (mayWait_list (F := F) cc (dsem (⟨57, by decide⟩ : Fin 140)) (List.drop 32 (paysL cc)) (by decide)) $$ Hlev
  iapply (wait_a5_at m cc _ 5 rfl) $$ [Hc HO Hmw Hp]
  · isplitr; · iexact HIc57
    isplitl [Hc]; · iexact Hc
    isplitl [HO]; · iexact HO
    isplitl [Hmw]; · iexact Hmw
    iexact Hp
  iintro ⟨HO, Hq57, -, Hz5⟩
  sl_exec
  -- the y-neighbour's chunk 5 has landed
  icases Hcr with ⟨Hc, Hcr⟩
  icases HpR with ⟨Hp, HpR⟩
  icases HIw with ⟨#HIc73, HIw⟩
  ihave Hmw := (mayWait_list (F := F) cc (dsem (⟨73, by decide⟩ : Fin 140)) (List.drop 32 (paysL cc)) (by decide)) $$ Hlev
  iapply (wait_a7_at m cc _ 5 rfl) $$ [Hc HO Hmw Hp]
  · isplitr; · iexact HIc73
    isplitl [Hc]; · iexact Hc
    isplitl [HO]; · iexact HO
    isplitl [Hmw]; · iexact Hmw
    iexact Hp
  iintro ⟨HO, Hq73, -, Hy5⟩
  -- chunk 5 of the two neighbours' quarters: half its ownership stays for the copy into the result, of the other half one column half travels on
  ihave Hz5 := (Entails.of_eq (share_FG_eq (F := F) (r4R (zqF cc) 5) cc (r4 m cc))) $$ Hz5
  icases Hz5 with ⟨HzF5, HzG5⟩
  ihave HzF5 := (Entails.of_eq (chunk_halves (F := F) cc (zqF cc) 5 shF (r4 m cc))) $$ HzF5
  icases HzF5 with ⟨HzFl5, HzFr5⟩
  ihave Hy5 := (Entails.of_eq (share_FG_eq (F := F) (r4R (yqF cc) 5) cc (r4 m cc))) $$ Hy5
  icases Hy5 with ⟨HyF5, HyG5⟩
  ihave HyF5 := (Entails.of_eq (chunk_halves (F := F) cc (yqF cc) 5 shF (r4 m cc))) $$ HyF5
  icases HyF5 with ⟨HyFl5, HyFr5⟩
  sl_exec
  -- the right half of the z-neighbour's chunk 5 on to the y-neighbour
  icases Htk with ⟨Hts, Htr, Htk⟩
  icases HIt with ⟨#HIc97, #HIr, HIt⟩
  icases HRt with ⟨#HRs, #HRr, HRt⟩
  icases HhYp with ⟨⟨%fd, Hd⟩, HhYp⟩
  iapply (send_yf_at m cc _ (dev33_eq cc) 5 (by decide) _ _ (k0_off41_eq cc) fd (owedL (List.drop 33 (paysL cc))) rfl _) $$ [HzFr5 Hd HO Hts Htr]
  · isplitr; · iexact HIc97
    isplitr; · iexact HIr
    isplitl [HzFr5]; · iexact HzFr5
    isplitl [Hd]; · iexact Hd
    isplitl [HO]; · iexact HO
    isplitl [Hts]; · iexact Hts
    isplitr; · iexact HRs
    isplitl [Htr]; · iexact Htr
    iexact HRr
  iintro ⟨Hcyfs5, HO⟩
  iclear HIr HRs HRr
  sl_exec
  -- the left half of the y-neighbour's chunk 5 on to the z-neighbour
  icases Htk with ⟨Hts, Htr, Htk⟩
  icases HIt with ⟨#HIc81, #HIr, HIt⟩
  icases HRt with ⟨#HRs, #HRr, HRt⟩
  icases HhZp with ⟨⟨%fd, Hd⟩, HhZp⟩
  iapply (send_zf_at m cc _ (dev34_eq cc) 5 (by decide) _ _ (k0_off42_eq cc) fd (owedL (List.drop 34 (paysL cc))) rfl _) $$ [HyFl5 Hd HO Hts Htr]
  · isplitr; · iexact HIc81
    isplitr; · iexact HIr
    isplitl [HyFl5]; · iexact HyFl5
    isplitl [Hd]; · iexact Hd
    isplitl [HO]; · iexact HO
    isplitl [Hts]; · iexact Hts
    isplitr; · iexact HRs
    isplitl [Htr]; · iexact Htr
    iexact HRr
  iintro ⟨Hczfs5, HO⟩
  iclear HIr HRs HRr
  sl_exec
  -- the left half of chunk 4 of the diagonal quarter has landed
  icases Hcr with ⟨Hc, Hcr⟩
  icases HpR with ⟨Hp, HpR⟩
  icases HIw with ⟨#HIc88, HIw⟩
  ihave Hmw := (mayWait_list (F := F) cc (dsem (⟨88, by decide⟩ : Fin 140)) (List.drop 34 (paysL cc)) (by decide)) $$ Hlev
  iapply (wait_a9_at m cc _ 4 rfl (by decide)) $$ [Hc HO Hmw Hp]
  · isplitr; · iexact HIc88
    isplitl [Hc]; · iexact Hc
    isplitl [HO]; · iexact HO
    isplitl [Hmw]; · iexact Hmw
    iexact Hp
  iintro ⟨HO, Hq88, -, Hdl4⟩
  sl_exec
  -- its right half has landed
  icases Hcr with ⟨Hc, Hcr⟩
  icases HpR with ⟨Hp, HpR⟩
  icases HIw with ⟨#HIc104, HIw⟩
  ihave Hmw := (mayWait_list (F := F) cc (dsem (⟨104, by decide⟩ : Fin 140)) (List.drop 34 (paysL cc)) (by decide)) $$ Hlev
  iapply (wait_a11_at m cc _ 4 rfl (by decide)) $$ [Hc HO Hmw Hp]
  · isplitr; · iexact HIc104
    isplitl [Hc]; · iexact Hc
    isplitl [HO]; · iexact HO
    isplitl [Hmw]; · iexact Hmw
    iexact Hp
  iintro ⟨HO, Hq104, -, Hdr4⟩
  ihave Hd4 := (Entails.of_eq (chunk_halves (F := F) cc (dqF cc) 4 fullShare (r4 m cc)).symm) $$ [Hdl4 Hdr4]
  · isplitl [Hdl4]; · iexact Hdl4
    iexact Hdr4
  -- the four copies of chunk 4 into the result
  icases HvO with ⟨Hw4a, Hw4b, Hw4c, Hw4d, HvO⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  -- step 7 of the main loop: the x-neighbour's chunk 7 has landed
  icases Hcr with ⟨Hc, Hcr⟩
  icases HpR with ⟨Hp, HpR⟩
  icases HIw with ⟨#HIc37, HIw⟩
  ihave Hmw := (mayWait_list (F := F) cc (dsem (⟨37, by decide⟩ : Fin 140)) (List.drop 34 (paysL cc)) (by decide)) $$ Hlev
  iapply (wait_a1_at m cc _ 7 rfl) $$ [Hc HO Hmw Hp]
  · isplitr; · iexact HIc37
    isplitl [Hc]; · iexact Hc
    isplitl [HO]; · iexact HO
    isplitl [Hmw]; · iexact Hmw
    iexact Hp
  iintro ⟨HO, Hq37, -, Hrb7⟩
  icases Hown with ⟨Ho7⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  ihave Ho7 := (congr (F := F) (r4R (mqF cc) 7) cc fullShare (dev.sl.Ho7_w1 m f0) (r4 m cc) (fun i hi => glue_own m cc 7 _ (k0_off16_inb cc) (k0_off16_eq cc) _ (k0_off43_inb cc) (k0_off43_eq cc) f0 i hi)) $$ Ho7
  ihave Ho7 := (Entails.of_eq (share_ZYK_eq (F := F) (r4R (mqF cc) 7) cc (r4 m cc))) $$ Ho7
  icases Ho7 with ⟨HoZ7, HoY7, HoK7⟩
  -- own chunk 7 to the z-neighbour
  icases Htk with ⟨Hts, Htr, Htk⟩
  icases HIt with ⟨#HIc51, #HIr, HIt⟩
  icases HRt with ⟨#HRs, #HRr, HRt⟩
  icases HqZ with ⟨%fd, Hd⟩
  iapply (send_z_at m cc _ (dev35_eq cc) 7 _ _ (k0_off44_eq cc) fd (owedL (List.drop 35 (paysL cc))) rfl _) $$ [HoZ7 Hd HO Hts Htr]
  · isplitr; · iexact HIc51
    isplitr; · iexact HIr
    isplitl [HoZ7]; · iexact HoZ7
    isplitl [Hd]; · iexact Hd
    isplitl [HO]; · iexact HO
    isplitl [Hts]; · iexact Hts
    isplitr; · iexact HRs
    isplitl [Htr]; · iexact Htr
    iexact HRr
  iintro ⟨Hczs7, HO⟩
  iclear HIr HRs HRr
  sl_exec
  -- own chunk 7 to the y-neighbour
  icases Htk with ⟨Hts, Htr, Htk⟩
  icases HIt with ⟨#HIc67, #HIr, HIt⟩
  icases HRt with ⟨#HRs, #HRr, HRt⟩
  icases HqY with ⟨%fd, Hd⟩
  iapply (send_y_at m cc _ (dev36_eq cc) 7 _ _ (k0_off44_eq cc) fd (owedL (List.drop 36 (paysL cc))) rfl _) $$ [HoY7 Hd HO Hts Htr]
  · isplitr; · iexact HIc67
    isplitr; · iexact HIr
    isplitl [HoY7]; · iexact HoY7
    isplitl [Hd]; · iexact Hd
    isplitl [HO]; · iexact HO
    isplitl [Hts]; · iexact Hts
    isplitr; · iexact HRs
    isplitl [Htr]; · iexact Htr
    iexact HRr
  iintro ⟨Hcys7, HO⟩
  iclear HIr HRs HRr
  sl_exec
  -- the z-neighbour's chunk 6 has landed
  icases Hcr with ⟨Hc, Hcr⟩
  icases HpR with ⟨Hp, HpR⟩
  icases HIw with ⟨#HIc58, HIw⟩
  ihave Hmw := (mayWait_list (F := F) cc (dsem (⟨58, by decide⟩ : Fin 140)) (List.drop 36 (paysL cc)) (by decide)) $$ Hlev
  iapply (wait_a5_at m cc _ 6 rfl) $$ [Hc HO Hmw Hp]
  · isplitr; · iexact HIc58
    isplitl [Hc]; · iexact Hc
    isplitl [HO]; · iexact HO
    isplitl [Hmw]; · iexact Hmw
    iexact Hp
  iintro ⟨HO, Hq58, -, Hz6⟩
  sl_exec
  -- the y-neighbour's chunk 6 has landed
  icases Hcr with ⟨Hc, Hcr⟩
  icases HpR with ⟨Hp, HpR⟩
  icases HIw with ⟨#HIc74, HIw⟩
  ihave Hmw := (mayWait_list (F := F) cc (dsem (⟨74, by decide⟩ : Fin 140)) (List.drop 36 (paysL cc)) (by decide)) $$ Hlev
  iapply (wait_a7_at m cc _ 6 rfl) $$ [Hc HO Hmw Hp]
  · isplitr; · iexact HIc74
    isplitl [Hc]; · iexact Hc
    isplitl [HO]; · iexact HO
    isplitl [Hmw]; · iexact Hmw
    iexact Hp
  iintro ⟨HO, Hq74, -, Hy6⟩
  -- chunk 6 of the two neighbours' quarters: half its ownership stays for the copy into the result, of the other half one column half travels on
  ihave Hz6 := (Entails.of_eq (share_FG_eq (F := F) (r4R (zqF cc) 6) cc (r4 m cc))) $$ Hz6
  icases Hz6 with ⟨HzF6, HzG6⟩
  ihave HzF6 := (Entails.of_eq (chunk_halves (F := F) cc (zqF cc) 6 shF (r4 m cc))) $$ HzF6
  icases HzF6 with ⟨HzFl6, HzFr6⟩
  ihave Hy6 := (Entails.of_eq (share_FG_eq (F := F) (r4R (yqF cc) 6) cc (r4 m cc))) $$ Hy6
  icases Hy6 with ⟨HyF6, HyG6⟩
  ihave HyF6 := (Entails.of_eq (chunk_halves (F := F) cc (yqF cc) 6 shF (r4 m cc))) $$ HyF6
  icases HyF6 with ⟨HyFl6, HyFr6⟩
  sl_exec
  -- the right half of the z-neighbour's chunk 6 on to the y-neighbour
  icases Htk with ⟨Hts, Htr, Htk⟩
  icases HIt with ⟨#HIc98, #HIr, HIt⟩
  icases HRt with ⟨#HRs, #HRr, HRt⟩
  icases HhYp with ⟨⟨%fd, Hd⟩, HhYp⟩
  iapply (send_yf_at m cc _ (dev37_eq cc) 6 (by decide) _ _ (k0_off45_eq cc) fd (owedL (List.drop 37 (paysL cc))) rfl _) $$ [HzFr6 Hd HO Hts Htr]
  · isplitr; · iexact HIc98
    isplitr; · iexact HIr
    isplitl [HzFr6]; · iexact HzFr6
    isplitl [Hd]; · iexact Hd
    isplitl [HO]; · iexact HO
    isplitl [Hts]; · iexact Hts
    isplitr; · iexact HRs
    isplitl [Htr]; · iexact Htr
    iexact HRr
  iintro ⟨Hcyfs6, HO⟩
  iclear HIr HRs HRr
  sl_exec
  -- the left half of the y-neighbour's chunk 6 on to the z-neighbour
  icases Htk with ⟨Hts, Htr, Htk⟩
  icases HIt with ⟨#HIc82, #HIr, HIt⟩
  icases HRt with ⟨#HRs, #HRr, HRt⟩
  icases HhZp with ⟨⟨%fd, Hd⟩, HhZp⟩
  iapply (send_zf_at m cc _ (dev38_eq cc) 6 (by decide) _ _ (k0_off46_eq cc) fd (owedL (List.drop 38 (paysL cc))) rfl _) $$ [HyFl6 Hd HO Hts Htr]
  · isplitr; · iexact HIc82
    isplitr; · iexact HIr
    isplitl [HyFl6]; · iexact HyFl6
    isplitl [Hd]; · iexact Hd
    isplitl [HO]; · iexact HO
    isplitl [Hts]; · iexact Hts
    isplitr; · iexact HRs
    isplitl [Htr]; · iexact Htr
    iexact HRr
  iintro ⟨Hczfs6, HO⟩
  iclear HIr HRs HRr
  sl_exec
  -- the left half of chunk 5 of the diagonal quarter has landed
  icases Hcr with ⟨Hc, Hcr⟩
  icases HpR with ⟨Hp, HpR⟩
  icases HIw with ⟨#HIc89, HIw⟩
  ihave Hmw := (mayWait_list (F := F) cc (dsem (⟨89, by decide⟩ : Fin 140)) (List.drop 38 (paysL cc)) (by decide)) $$ Hlev
  iapply (wait_a9_at m cc _ 5 rfl (by decide)) $$ [Hc HO Hmw Hp]
  · isplitr; · iexact HIc89
    isplitl [Hc]; · iexact Hc
    isplitl [HO]; · iexact HO
    isplitl [Hmw]; · iexact Hmw
    iexact Hp
  iintro ⟨HO, Hq89, -, Hdl5⟩
  sl_exec
  -- its right half has landed
  icases Hcr with ⟨Hc, Hcr⟩
  icases HpR with ⟨Hp, HpR⟩
  icases HIw with ⟨#HIc105, HIw⟩
  ihave Hmw := (mayWait_list (F := F) cc (dsem (⟨105, by decide⟩ : Fin 140)) (List.drop 38 (paysL cc)) (by decide)) $$ Hlev
  iapply (wait_a11_at m cc _ 5 rfl (by decide)) $$ [Hc HO Hmw Hp]
  · isplitr; · iexact HIc105
    isplitl [Hc]; · iexact Hc
    isplitl [HO]; · iexact HO
    isplitl [Hmw]; · iexact Hmw
    iexact Hp
  iintro ⟨HO, Hq105, -, Hdr5⟩
  ihave Hd5 := (Entails.of_eq (chunk_halves (F := F) cc (dqF cc) 5 fullShare (r4 m cc)).symm) $$ [Hdl5 Hdr5]
  · isplitl [Hdl5]; · iexact Hdl5
    iexact Hdr5
  -- the four copies of chunk 5 into the result
  icases HvO with ⟨Hw5a, Hw5b, Hw5c, Hw5d, HvO⟩
  have hled38 : ∀ (s : DmaSem sig), lvJ s.val = 0 → ((levAts LL lvv : sProp 𝕄) ⊢ MayWait (cc : Thread nD τ) (.dma s) () (owedL (List.drop 38 (paysL cc)))) :=
    fun s hs => mayWait_local (F := F) cc s hs _ (by decide)
  sl_exec
  clear hled38
  -- after the loop: the z-neighbour's last chunk has landed
  icases Hcr with ⟨Hc, Hcr⟩
  icases HpR with ⟨Hp, HpR⟩
  icases HIw with ⟨#HIc59, HIw⟩
  ihave Hmw := (mayWait_list (F := F) cc (dsem (⟨59, by decide⟩ : Fin 140)) (List.drop 38 (paysL cc)) (by decide)) $$ Hlev
  iapply (wait_a5_at m cc _ 7 rfl) $$ [Hc HO Hmw Hp]
  · isplitr; · iexact HIc59
    isplitl [Hc]; · iexact Hc
    isplitl [HO]; · iexact HO
    isplitl [Hmw]; · iexact Hmw
    iexact Hp
  iintro ⟨HO, Hq59, -, Hz7⟩
  sl_exec
  -- the y-neighbour's last chunk has landed
  icases Hcr with ⟨Hc, Hcr⟩
  icases HpR with ⟨Hp, HpR⟩
  icases HIw with ⟨#HIc75, HIw⟩
  ihave Hmw := (mayWait_list (F := F) cc (dsem (⟨75, by decide⟩ : Fin 140)) (List.drop 38 (paysL cc)) (by decide)) $$ Hlev
  iapply (wait_a7_at m cc _ 7 rfl) $$ [Hc HO Hmw Hp]
  · isplitr; · iexact HIc75
    isplitl [Hc]; · iexact Hc
    isplitl [HO]; · iexact HO
    isplitl [Hmw]; · iexact Hmw
    iexact Hp
  iintro ⟨HO, Hq75, -, Hy7⟩
  -- chunk 7 of the two neighbours' quarters: half its ownership stays for the copy into the result, of the other half one column half travels on
  ihave Hz7 := (Entails.of_eq (share_FG_eq (F := F) (r4R (zqF cc) 7) cc (r4 m cc))) $$ Hz7
  icases Hz7 with ⟨HzF7, HzG7⟩
  ihave HzF7 := (Entails.of_eq (chunk_halves (F := F) cc (zqF cc) 7 shF (r4 m cc))) $$ HzF7
  icases HzF7 with ⟨HzFl7, HzFr7⟩
  ihave Hy7 := (Entails.of_eq (share_FG_eq (F := F) (r4R (yqF cc) 7) cc (r4 m cc))) $$ Hy7
  icases Hy7 with ⟨HyF7, HyG7⟩
  ihave HyF7 := (Entails.of_eq (chunk_halves (F := F) cc (yqF cc) 7 shF (r4 m cc))) $$ HyF7
  icases HyF7 with ⟨HyFl7, HyFr7⟩
  sl_exec
  -- the right half of the z-neighbour's last chunk on to the y-neighbour
  icases Htk with ⟨Hts, Htr, Htk⟩
  icases HIt with ⟨#HIc99, #HIr, HIt⟩
  icases HRt with ⟨#HRs, #HRr, HRt⟩
  icases HhYp with ⟨%fd, Hd⟩
  iapply (send_yf_at m cc _ (dev39_eq cc) 7 (by decide) _ _ (k0_off47_eq cc) fd (owedL (List.drop 39 (paysL cc))) rfl _) $$ [HzFr7 Hd HO Hts Htr]
  · isplitr; · iexact HIc99
    isplitr; · iexact HIr
    isplitl [HzFr7]; · iexact HzFr7
    isplitl [Hd]; · iexact Hd
    isplitl [HO]; · iexact HO
    isplitl [Hts]; · iexact Hts
    isplitr; · iexact HRs
    isplitl [Htr]; · iexact Htr
    iexact HRr
  iintro ⟨Hcyfs7, HO⟩
  iclear HIr HRs HRr
  sl_exec
  -- the left half of the y-neighbour's last chunk on to the z-neighbour
  icases Htk with ⟨Hts, Htr⟩
  icases HIt with ⟨#HIc83, #HIr⟩
  icases HRt with ⟨#HRs, #HRr⟩
  icases HhZp with ⟨%fd, Hd⟩
  iapply (send_zf_at m cc _ (dev40_eq cc) 7 (by decide) _ _ (k0_off48_eq cc) fd (owedL (List.drop 40 (paysL cc))) rfl _) $$ [HyFl7 Hd HO Hts Htr]
  · isplitr; · iexact HIc83
    isplitr; · iexact HIr
    isplitl [HyFl7]; · iexact HyFl7
    isplitl [Hd]; · iexact Hd
    isplitl [HO]; · iexact HO
    isplitl [Hts]; · iexact Hts
    isplitr; · iexact HRs
    isplitl [Htr]; · iexact Htr
    iexact HRr
  iintro ⟨Hczfs7, HO⟩
  iclear HIr HRs HRr
  sl_exec
  -- chunk 0 of the diagonal quarter: the x-neighbour's chunk has landed
  icases Hcr with ⟨Hc, Hcr⟩
  icases HpR with ⟨Hp, HpR⟩
  icases HIw with ⟨#HIc41, HIw⟩
  ihave Hmw := (mayWait_list (F := F) cc (dsem (⟨41, by decide⟩ : Fin 140)) (List.drop 40 (paysL cc)) (by decide)) $$ Hlev
  iapply (wait_a3_at m cc _ 0 rfl) $$ [Hc HO Hmw Hp]
  · isplitr; · iexact HIc41
    isplitl [Hc]; · iexact Hc
    isplitl [HO]; · iexact HO
    isplitl [Hmw]; · iexact Hmw
    iexact Hp
  iintro ⟨HO, Hq41, -, Hrb20⟩
  icases Hdg with ⟨Hdq0, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq0 := (congr (F := F) (r4R (dqF cc) 0) cc fullShare (dev.sl.Hdq0_w1 m f0) (r4 m cc) (fun i hi => glue_dgn m cc 0 0 rfl _ (k0_off18_inb cc) (k0_off18_eq cc) _ (k0_off49_inb cc) (k0_off49_eq cc) f0 i hi)) $$ Hdq0
  -- the four copies of chunk 0 into the result
  icases HvO with ⟨Hw0a, Hw0b, Hw0c, Hw0d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 1 of the diagonal quarter: the x-neighbour's chunk has landed
  icases Hcr with ⟨Hc, Hcr⟩
  icases HpR with ⟨Hp, HpR⟩
  icases HIw with ⟨#HIc42, HIw⟩
  ihave Hmw := (mayWait_list (F := F) cc (dsem (⟨42, by decide⟩ : Fin 140)) (List.drop 40 (paysL cc)) (by decide)) $$ Hlev
  iapply (wait_a3_at m cc _ 1 rfl) $$ [Hc HO Hmw Hp]
  · isplitr; · iexact HIc42
    isplitl [Hc]; · iexact Hc
    isplitl [HO]; · iexact HO
    isplitl [Hmw]; · iexact Hmw
    iexact Hp
  iintro ⟨HO, Hq42, -, Hrb21⟩
  icases Hdg with ⟨Hdq1, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq1 := (congr (F := F) (r4R (dqF cc) 1) cc fullShare (dev.sl.Hdq1_w1 m f0) (r4 m cc) (fun i hi => glue_dgn m cc 1 1 rfl _ (k0_off20_inb cc) (k0_off20_eq cc) _ (k0_off50_inb cc) (k0_off50_eq cc) f0 i hi)) $$ Hdq1
  -- the four copies of chunk 1 into the result
  icases HvO with ⟨Hw1a, Hw1b, Hw1c, Hw1d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 2 of the diagonal quarter: the x-neighbour's chunk has landed
  icases Hcr with ⟨Hc, Hcr⟩
  icases HpR with ⟨Hp, HpR⟩
  icases HIw with ⟨#HIc43, HIw⟩
  ihave Hmw := (mayWait_list (F := F) cc (dsem (⟨43, by decide⟩ : Fin 140)) (List.drop 40 (paysL cc)) (by decide)) $$ Hlev
  iapply (wait_a3_at m cc _ 2 rfl) $$ [Hc HO Hmw Hp]
  · isplitr; · iexact HIc43
    isplitl [Hc]; · iexact Hc
    isplitl [HO]; · iexact HO
    isplitl [Hmw]; · iexact Hmw
    iexact Hp
  iintro ⟨HO, Hq43, -, Hrb22⟩
  icases Hdg with ⟨Hdq2⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq2 := (congr (F := F) (r4R (dqF cc) 2) cc fullShare (dev.sl.Hdq2_w1 m f0) (r4 m cc) (fun i hi => glue_dgn m cc 2 2 rfl _ (k0_off22_inb cc) (k0_off22_eq cc) _ (k0_off51_inb cc) (k0_off51_eq cc) f0 i hi)) $$ Hdq2
  -- the four copies of chunk 2 into the result
  icases HvO with ⟨Hw2a, Hw2b, Hw2c, Hw2d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 6 of the diagonal quarter has landed
  icases Hcr with ⟨Hc, Hcr⟩
  icases HpR with ⟨Hp, HpR⟩
  icases HIw with ⟨#HIc90, HIw⟩
  ihave Hmw := (mayWait_list (F := F) cc (dsem (⟨90, by decide⟩ : Fin 140)) (List.drop 40 (paysL cc)) (by decide)) $$ Hlev
  iapply (wait_a9_at m cc _ 6 rfl (by decide)) $$ [Hc HO Hmw Hp]
  · isplitr; · iexact HIc90
    isplitl [Hc]; · iexact Hc
    isplitl [HO]; · iexact HO
    isplitl [Hmw]; · iexact Hmw
    iexact Hp
  iintro ⟨HO, Hq90, -, Hdl6⟩
  sl_exec
  -- its right half has landed
  icases Hcr with ⟨Hc, Hcr⟩
  icases HpR with ⟨Hp, HpR⟩
  icases HIw with ⟨#HIc106, HIw⟩
  ihave Hmw := (mayWait_list (F := F) cc (dsem (⟨106, by decide⟩ : Fin 140)) (List.drop 40 (paysL cc)) (by decide)) $$ Hlev
  iapply (wait_a11_at m cc _ 6 rfl (by decide)) $$ [Hc HO Hmw Hp]
  · isplitr; · iexact HIc106
    isplitl [Hc]; · iexact Hc
    isplitl [HO]; · iexact HO
    isplitl [Hmw]; · iexact Hmw
    iexact Hp
  iintro ⟨HO, Hq106, -, Hdr6⟩
  ihave Hd6 := (Entails.of_eq (chunk_halves (F := F) cc (dqF cc) 6 fullShare (r4 m cc)).symm) $$ [Hdl6 Hdr6]
  · isplitl [Hdl6]; · iexact Hdl6
    iexact Hdr6
  -- the four copies of chunk 6 into the result
  icases HvO with ⟨Hw6a, Hw6b, Hw6c, Hw6d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 7 of the diagonal quarter has landed
  icases Hcr with ⟨Hc, Hcr⟩
  icases HpR with ⟨Hp, HpR⟩
  icases HIw with ⟨#HIc91, HIw⟩
  ihave Hcr := ((sep_emp (PROP := sProp 𝕄)).2) $$ Hcr
  ihave Hmw := (mayWait_list (F := F) cc (dsem (⟨91, by decide⟩ : Fin 140)) (List.drop 40 (paysL cc)) (by decide)) $$ Hlev
  iapply (wait_a9_at m cc _ 7 rfl (by decide)) $$ [Hc HO Hmw Hp]
  · isplitr; · iexact HIc91
    isplitl [Hc]; · iexact Hc
    isplitl [HO]; · iexact HO
    isplitl [Hmw]; · iexact Hmw
    iexact Hp
  iintro ⟨HO, Hq91, -, Hdl7⟩
  sl_exec
  -- its right half has landed
  icases HIw with #HIc107
  icases Hcr with ⟨Hcr, -⟩
  ihave Hmw := (mayWait_list (F := F) cc (dsem (⟨107, by decide⟩ : Fin 140)) (List.drop 40 (paysL cc)) (by decide)) $$ Hlev
  iapply (wait_a11_at m cc _ 7 rfl (by decide)) $$ [Hcr HO Hmw HpR]
  · isplitr; · iexact HIc107
    isplitl [Hcr]; · iexact Hcr
    isplitl [HO]; · iexact HO
    isplitl [Hmw]; · iexact Hmw
    iexact HpR
  iintro ⟨HO, Hq107, -, Hdr7⟩
  ihave Hd7 := (Entails.of_eq (chunk_halves (F := F) cc (dqF cc) 7 fullShare (r4 m cc)).symm) $$ [Hdl7 Hdr7]
  · isplitl [Hdl7]; · iexact Hdl7
    iexact Hdr7
  -- the four copies of chunk 7 into the result
  icases HvO with ⟨Hw7a, Hw7b, Hw7c, Hw7d⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- nothing is owed any more: the level fact for the remaining local waits, once
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  -- the departure of chunk 0 across x
  icases HpS with ⟨Hp, HpS⟩
  ihave Hmw := (mayWait_list (F := F) cc (dsem (⟨22, by decide⟩ : Fin 140)) (List.drop 40 (paysL cc)) (by decide)) $$ Hlev
  iapply (wait_a0_at m cc _ 0 rfl) $$ [Hcxs0 HO Hmw Hp]
  · isplitr; · iexact HIc22
    isplitl [Hcxs0]; · iexact Hcxs0
    isplitl [HO]; · iexact HO
    isplitl [Hmw]; · iexact Hmw
    iexact Hp
  iintro ⟨HO, Hq22, -, HBs0⟩
  sl_exec
  -- of own chunk 0 to z
  icases HpS with ⟨Hp, HpS⟩
  ihave Hmw := (mayWait_list (F := F) cc (dsem (⟨44, by decide⟩ : Fin 140)) (List.drop 40 (paysL cc)) (by decide)) $$ Hlev
  iapply (wait_a4_at m cc _ 0 rfl) $$ [Hczs0 HO Hmw Hp]
  · isplitr; · iexact HIc44
    isplitl [Hczs0]; · iexact Hczs0
    isplitl [HO]; · iexact HO
    isplitl [Hmw]; · iexact Hmw
    iexact Hp
  iintro ⟨HO, Hq44, -, HoZb0⟩
  sl_exec
  -- of own chunk 0 to y
  icases HpS with ⟨Hp, HpS⟩
  ihave Hmw := (mayWait_list (F := F) cc (dsem (⟨60, by decide⟩ : Fin 140)) (List.drop 40 (paysL cc)) (by decide)) $$ Hlev
  iapply (wait_a6_at m cc _ 0 rfl) $$ [Hcys0 HO Hmw Hp]
  · isplitr; · iexact HIc60
    isplitl [Hcys0]; · iexact Hcys0
    isplitl [HO]; · iexact HO
    isplitl [Hmw]; · iexact Hmw
    iexact Hp
  iintro ⟨HO, Hq60, -, HoYb0⟩
  sl_exec
  -- the departure of chunk 1 across x
  icases HpS with ⟨Hp, HpS⟩
  ihave Hmw := (mayWait_list (F := F) cc (dsem (⟨23, by decide⟩ : Fin 140)) (List.drop 40 (paysL cc)) (by decide)) $$ Hlev
  iapply (wait_a0_at m cc _ 1 rfl) $$ [Hcxs1 HO Hmw Hp]
  · isplitr; · iexact HIc23
    isplitl [Hcxs1]; · iexact Hcxs1
    isplitl [HO]; · iexact HO
    isplitl [Hmw]; · iexact Hmw
    iexact Hp
  iintro ⟨HO, Hq23, -, HBs1⟩
  sl_exec
  -- of own chunk 1 to z
  icases HpS with ⟨Hp, HpS⟩
  ihave Hmw := (mayWait_list (F := F) cc (dsem (⟨45, by decide⟩ : Fin 140)) (List.drop 40 (paysL cc)) (by decide)) $$ Hlev
  iapply (wait_a4_at m cc _ 1 rfl) $$ [Hczs1 HO Hmw Hp]
  · isplitr; · iexact HIc45
    isplitl [Hczs1]; · iexact Hczs1
    isplitl [HO]; · iexact HO
    isplitl [Hmw]; · iexact Hmw
    iexact Hp
  iintro ⟨HO, Hq45, -, HoZb1⟩
  sl_exec
  -- of own chunk 1 to y
  icases HpS with ⟨Hp, HpS⟩
  ihave Hmw := (mayWait_list (F := F) cc (dsem (⟨61, by decide⟩ : Fin 140)) (List.drop 40 (paysL cc)) (by decide)) $$ Hlev
  iapply (wait_a6_at m cc _ 1 rfl) $$ [Hcys1 HO Hmw Hp]
  · isplitr; · iexact HIc61
    isplitl [Hcys1]; · iexact Hcys1
    isplitl [HO]; · iexact HO
    isplitl [Hmw]; · iexact Hmw
    iexact Hp
  iintro ⟨HO, Hq61, -, HoYb1⟩
  sl_exec
  -- the departure of chunk 2 across x
  icases HpS with ⟨Hp, HpS⟩
  ihave Hmw := (mayWait_list (F := F) cc (dsem (⟨24, by decide⟩ : Fin 140)) (List.drop 40 (paysL cc)) (by decide)) $$ Hlev
  iapply (wait_a0_at m cc _ 2 rfl) $$ [Hcxs2 HO Hmw Hp]
  · isplitr; · iexact HIc24
    isplitl [Hcxs2]; · iexact Hcxs2
    isplitl [HO]; · iexact HO
    isplitl [Hmw]; · iexact Hmw
    iexact Hp
  iintro ⟨HO, Hq24, -, HBs2⟩
  sl_exec
  -- of own chunk 2 to z
  icases HpS with ⟨Hp, HpS⟩
  ihave Hmw := (mayWait_list (F := F) cc (dsem (⟨46, by decide⟩ : Fin 140)) (List.drop 40 (paysL cc)) (by decide)) $$ Hlev
  iapply (wait_a4_at m cc _ 2 rfl) $$ [Hczs2 HO Hmw Hp]
  · isplitr; · iexact HIc46
    isplitl [Hczs2]; · iexact Hczs2
    isplitl [HO]; · iexact HO
    isplitl [Hmw]; · iexact Hmw
    iexact Hp
  iintro ⟨HO, Hq46, -, HoZb2⟩
  sl_exec
  -- of own chunk 2 to y
  icases HpS with ⟨Hp, HpS⟩
  ihave Hmw := (mayWait_list (F := F) cc (dsem (⟨62, by decide⟩ : Fin 140)) (List.drop 40 (paysL cc)) (by decide)) $$ Hlev
  iapply (wait_a6_at m cc _ 2 rfl) $$ [Hcys2 HO Hmw Hp]
  · isplitr; · iexact HIc62
    isplitl [Hcys2]; · iexact Hcys2
    isplitl [HO]; · iexact HO
    isplitl [Hmw]; · iexact Hmw
    iexact Hp
  iintro ⟨HO, Hq62, -, HoYb2⟩
  sl_exec
  -- the departure of chunk 3 across x
  icases HpS with ⟨Hp, HpS⟩
  ihave Hmw := (mayWait_list (F := F) cc (dsem (⟨25, by decide⟩ : Fin 140)) (List.drop 40 (paysL cc)) (by decide)) $$ Hlev
  iapply (wait_a0_at m cc _ 3 rfl) $$ [Hcxs3 HO Hmw Hp]
  · isplitr; · iexact HIc25
    isplitl [Hcxs3]; · iexact Hcxs3
    isplitl [HO]; · iexact HO
    isplitl [Hmw]; · iexact Hmw
    iexact Hp
  iintro ⟨HO, Hq25, -, HBs3⟩
  sl_exec
  -- of own chunk 3 to z
  icases HpS with ⟨Hp, HpS⟩
  ihave Hmw := (mayWait_list (F := F) cc (dsem (⟨47, by decide⟩ : Fin 140)) (List.drop 40 (paysL cc)) (by decide)) $$ Hlev
  iapply (wait_a4_at m cc _ 3 rfl) $$ [Hczs3 HO Hmw Hp]
  · isplitr; · iexact HIc47
    isplitl [Hczs3]; · iexact Hczs3
    isplitl [HO]; · iexact HO
    isplitl [Hmw]; · iexact Hmw
    iexact Hp
  iintro ⟨HO, Hq47, -, HoZb3⟩
  sl_exec
  -- of own chunk 3 to y
  icases HpS with ⟨Hp, HpS⟩
  ihave Hmw := (mayWait_list (F := F) cc (dsem (⟨63, by decide⟩ : Fin 140)) (List.drop 40 (paysL cc)) (by decide)) $$ Hlev
  iapply (wait_a6_at m cc _ 3 rfl) $$ [Hcys3 HO Hmw Hp]
  · isplitr; · iexact HIc63
    isplitl [Hcys3]; · iexact Hcys3
    isplitl [HO]; · iexact HO
    isplitl [Hmw]; · iexact Hmw
    iexact Hp
  iintro ⟨HO, Hq63, -, HoYb3⟩
  sl_exec
  -- of the forwarded half to z
  icases HpS with ⟨Hp, HpS⟩
  ihave Hmw := (mayWait_list (F := F) cc (dsem (⟨79, by decide⟩ : Fin 140)) (List.drop 40 (paysL cc)) (by decide)) $$ Hlev
  iapply (wait_a8_at m cc _ 3 rfl (by decide)) $$ [Hczfs3 HO Hmw Hp]
  · isplitr; · iexact HIc79
    isplitl [Hczfs3]; · iexact Hczfs3
    isplitl [HO]; · iexact HO
    isplitl [Hmw]; · iexact Hmw
    iexact Hp
  iintro ⟨HO, Hq79, -, HyFlb3⟩
  sl_exec
  -- of the forwarded half to y
  icases HpS with ⟨Hp, HpS⟩
  ihave Hmw := (mayWait_list (F := F) cc (dsem (⟨95, by decide⟩ : Fin 140)) (List.drop 40 (paysL cc)) (by decide)) $$ Hlev
  iapply (wait_a10_at m cc _ 3 rfl (by decide)) $$ [Hcyfs3 HO Hmw Hp]
  · isplitr; · iexact HIc95
    isplitl [Hcyfs3]; · iexact Hcyfs3
    isplitl [HO]; · iexact HO
    isplitl [Hmw]; · iexact Hmw
    iexact Hp
  iintro ⟨HO, Hq95, -, HzFrb3⟩
  sl_exec
  -- the departure of chunk 4 across x
  icases HpS with ⟨Hp, HpS⟩
  ihave Hmw := (mayWait_list (F := F) cc (dsem (⟨26, by decide⟩ : Fin 140)) (List.drop 40 (paysL cc)) (by decide)) $$ Hlev
  iapply (wait_a0_at m cc _ 4 rfl) $$ [Hcxs4 HO Hmw Hp]
  · isplitr; · iexact HIc26
    isplitl [Hcxs4]; · iexact Hcxs4
    isplitl [HO]; · iexact HO
    isplitl [Hmw]; · iexact Hmw
    iexact Hp
  iintro ⟨HO, Hq26, -, HBs4⟩
  sl_exec
  -- of own chunk 4 to z
  icases HpS with ⟨Hp, HpS⟩
  ihave Hmw := (mayWait_list (F := F) cc (dsem (⟨48, by decide⟩ : Fin 140)) (List.drop 40 (paysL cc)) (by decide)) $$ Hlev
  iapply (wait_a4_at m cc _ 4 rfl) $$ [Hczs4 HO Hmw Hp]
  · isplitr; · iexact HIc48
    isplitl [Hczs4]; · iexact Hczs4
    isplitl [HO]; · iexact HO
    isplitl [Hmw]; · iexact Hmw
    iexact Hp
  iintro ⟨HO, Hq48, -, HoZb4⟩
  sl_exec
  -- of own chunk 4 to y
  icases HpS with ⟨Hp, HpS⟩
  ihave Hmw := (mayWait_list (F := F) cc (dsem (⟨64, by decide⟩ : Fin 140)) (List.drop 40 (paysL cc)) (by decide)) $$ Hlev
  iapply (wait_a6_at m cc _ 4 rfl) $$ [Hcys4 HO Hmw Hp]
  · isplitr; · iexact HIc64
    isplitl [Hcys4]; · iexact Hcys4
    isplitl [HO]; · iexact HO
    isplitl [Hmw]; · iexact Hmw
    iexact Hp
  iintro ⟨HO, Hq64, -, HoYb4⟩
  sl_exec
  -- of the forwarded half to z
  icases HpS with ⟨Hp, HpS⟩
  ihave Hmw := (mayWait_list (F := F) cc (dsem (⟨80, by decide⟩ : Fin 140)) (List.drop 40 (paysL cc)) (by decide)) $$ Hlev
  iapply (wait_a8_at m cc _ 4 rfl (by decide)) $$ [Hczfs4 HO Hmw Hp]
  · isplitr; · iexact HIc80
    isplitl [Hczfs4]; · iexact Hczfs4
    isplitl [HO]; · iexact HO
    isplitl [Hmw]; · iexact Hmw
    iexact Hp
  iintro ⟨HO, Hq80, -, HyFlb4⟩
  sl_exec
  -- of the forwarded half to y
  icases HpS with ⟨Hp, HpS⟩
  ihave Hmw := (mayWait_list (F := F) cc (dsem (⟨96, by decide⟩ : Fin 140)) (List.drop 40 (paysL cc)) (by decide)) $$ Hlev
  iapply (wait_a10_at m cc _ 4 rfl (by decide)) $$ [Hcyfs4 HO Hmw Hp]
  · isplitr; · iexact HIc96
    isplitl [Hcyfs4]; · iexact Hcyfs4
    isplitl [HO]; · iexact HO
    isplitl [Hmw]; · iexact Hmw
    iexact Hp
  iintro ⟨HO, Hq96, -, HzFrb4⟩
  sl_exec
  -- the departure of chunk 5 across x
  icases HpS with ⟨Hp, HpS⟩
  ihave Hmw := (mayWait_list (F := F) cc (dsem (⟨27, by decide⟩ : Fin 140)) (List.drop 40 (paysL cc)) (by decide)) $$ Hlev
  iapply (wait_a0_at m cc _ 5 rfl) $$ [Hcxs5 HO Hmw Hp]
  · isplitr; · iexact HIc27
    isplitl [Hcxs5]; · iexact Hcxs5
    isplitl [HO]; · iexact HO
    isplitl [Hmw]; · iexact Hmw
    iexact Hp
  iintro ⟨HO, Hq27, -, HBs5⟩
  sl_exec
  -- of own chunk 5 to z
  icases HpS with ⟨Hp, HpS⟩
  ihave Hmw := (mayWait_list (F := F) cc (dsem (⟨49, by decide⟩ : Fin 140)) (List.drop 40 (paysL cc)) (by decide)) $$ Hlev
  iapply (wait_a4_at m cc _ 5 rfl) $$ [Hczs5 HO Hmw Hp]
  · isplitr; · iexact HIc49
    isplitl [Hczs5]; · iexact Hczs5
    isplitl [HO]; · iexact HO
    isplitl [Hmw]; · iexact Hmw
    iexact Hp
  iintro ⟨HO, Hq49, -, HoZb5⟩
  sl_exec
  -- of own chunk 5 to y
  icases HpS with ⟨Hp, HpS⟩
  ihave Hmw := (mayWait_list (F := F) cc (dsem (⟨65, by decide⟩ : Fin 140)) (List.drop 40 (paysL cc)) (by decide)) $$ Hlev
  iapply (wait_a6_at m cc _ 5 rfl) $$ [Hcys5 HO Hmw Hp]
  · isplitr; · iexact HIc65
    isplitl [Hcys5]; · iexact Hcys5
    isplitl [HO]; · iexact HO
    isplitl [Hmw]; · iexact Hmw
    iexact Hp
  iintro ⟨HO, Hq65, -, HoYb5⟩
  sl_exec
  -- of the forwarded half to z
  icases HpS with ⟨Hp, HpS⟩
  ihave Hmw := (mayWait_list (F := F) cc (dsem (⟨81, by decide⟩ : Fin 140)) (List.drop 40 (paysL cc)) (by decide)) $$ Hlev
  iapply (wait_a8_at m cc _ 5 rfl (by decide)) $$ [Hczfs5 HO Hmw Hp]
  · isplitr; · iexact HIc81
    isplitl [Hczfs5]; · iexact Hczfs5
    isplitl [HO]; · iexact HO
    isplitl [Hmw]; · iexact Hmw
    iexact Hp
  iintro ⟨HO, Hq81, -, HyFlb5⟩
  sl_exec
  -- of the forwarded half to y
  icases HpS with ⟨Hp, HpS⟩
  ihave Hmw := (mayWait_list (F := F) cc (dsem (⟨97, by decide⟩ : Fin 140)) (List.drop 40 (paysL cc)) (by decide)) $$ Hlev
  iapply (wait_a10_at m cc _ 5 rfl (by decide)) $$ [Hcyfs5 HO Hmw Hp]
  · isplitr; · iexact HIc97
    isplitl [Hcyfs5]; · iexact Hcyfs5
    isplitl [HO]; · iexact HO
    isplitl [Hmw]; · iexact Hmw
    iexact Hp
  iintro ⟨HO, Hq97, -, HzFrb5⟩
  sl_exec
  -- the departure of chunk 6 across x
  icases HpS with ⟨Hp, HpS⟩
  ihave Hmw := (mayWait_list (F := F) cc (dsem (⟨28, by decide⟩ : Fin 140)) (List.drop 40 (paysL cc)) (by decide)) $$ Hlev
  iapply (wait_a0_at m cc _ 6 rfl) $$ [Hcxs6 HO Hmw Hp]
  · isplitr; · iexact HIc28
    isplitl [Hcxs6]; · iexact Hcxs6
    isplitl [HO]; · iexact HO
    isplitl [Hmw]; · iexact Hmw
    iexact Hp
  iintro ⟨HO, Hq28, -, HBs6⟩
  sl_exec
  -- of own chunk 6 to z
  icases HpS with ⟨Hp, HpS⟩
  ihave Hmw := (mayWait_list (F := F) cc (dsem (⟨50, by decide⟩ : Fin 140)) (List.drop 40 (paysL cc)) (by decide)) $$ Hlev
  iapply (wait_a4_at m cc _ 6 rfl) $$ [Hczs6 HO Hmw Hp]
  · isplitr; · iexact HIc50
    isplitl [Hczs6]; · iexact Hczs6
    isplitl [HO]; · iexact HO
    isplitl [Hmw]; · iexact Hmw
    iexact Hp
  iintro ⟨HO, Hq50, -, HoZb6⟩
  sl_exec
  -- of own chunk 6 to y
  icases HpS with ⟨Hp, HpS⟩
  ihave Hmw := (mayWait_list (F := F) cc (dsem (⟨66, by decide⟩ : Fin 140)) (List.drop 40 (paysL cc)) (by decide)) $$ Hlev
  iapply (wait_a6_at m cc _ 6 rfl) $$ [Hcys6 HO Hmw Hp]
  · isplitr; · iexact HIc66
    isplitl [Hcys6]; · iexact Hcys6
    isplitl [HO]; · iexact HO
    isplitl [Hmw]; · iexact Hmw
    iexact Hp
  iintro ⟨HO, Hq66, -, HoYb6⟩
  sl_exec
  -- of the forwarded half to z
  icases HpS with ⟨Hp, HpS⟩
  ihave Hmw := (mayWait_list (F := F) cc (dsem (⟨82, by decide⟩ : Fin 140)) (List.drop 40 (paysL cc)) (by decide)) $$ Hlev
  iapply (wait_a8_at m cc _ 6 rfl (by decide)) $$ [Hczfs6 HO Hmw Hp]
  · isplitr; · iexact HIc82
    isplitl [Hczfs6]; · iexact Hczfs6
    isplitl [HO]; · iexact HO
    isplitl [Hmw]; · iexact Hmw
    iexact Hp
  iintro ⟨HO, Hq82, -, HyFlb6⟩
  sl_exec
  -- of the forwarded half to y
  icases HpS with ⟨Hp, HpS⟩
  ihave Hmw := (mayWait_list (F := F) cc (dsem (⟨98, by decide⟩ : Fin 140)) (List.drop 40 (paysL cc)) (by decide)) $$ Hlev
  iapply (wait_a10_at m cc _ 6 rfl (by decide)) $$ [Hcyfs6 HO Hmw Hp]
  · isplitr; · iexact HIc98
    isplitl [Hcyfs6]; · iexact Hcyfs6
    isplitl [HO]; · iexact HO
    isplitl [Hmw]; · iexact Hmw
    iexact Hp
  iintro ⟨HO, Hq98, -, HzFrb6⟩
  sl_exec
  -- the departure of chunk 7 across x
  icases HpS with ⟨Hp, HpS⟩
  ihave Hmw := (mayWait_list (F := F) cc (dsem (⟨29, by decide⟩ : Fin 140)) (List.drop 40 (paysL cc)) (by decide)) $$ Hlev
  iapply (wait_a0_at m cc _ 7 rfl) $$ [Hcxs7 HO Hmw Hp]
  · isplitr; · iexact HIc29
    isplitl [Hcxs7]; · iexact Hcxs7
    isplitl [HO]; · iexact HO
    isplitl [Hmw]; · iexact Hmw
    iexact Hp
  iintro ⟨HO, Hq29, -, HBs7⟩
  sl_exec
  -- of own chunk 7 to z
  icases HpS with ⟨Hp, HpS⟩
  ihave Hmw := (mayWait_list (F := F) cc (dsem (⟨51, by decide⟩ : Fin 140)) (List.drop 40 (paysL cc)) (by decide)) $$ Hlev
  iapply (wait_a4_at m cc _ 7 rfl) $$ [Hczs7 HO Hmw Hp]
  · isplitr; · iexact HIc51
    isplitl [Hczs7]; · iexact Hczs7
    isplitl [HO]; · iexact HO
    isplitl [Hmw]; · iexact Hmw
    iexact Hp
  iintro ⟨HO, Hq51, -, HoZb7⟩
  sl_exec
  -- of own chunk 7 to y
  icases HpS with ⟨Hp, HpS⟩
  ihave Hmw := (mayWait_list (F := F) cc (dsem (⟨67, by decide⟩ : Fin 140)) (List.drop 40 (paysL cc)) (by decide)) $$ Hlev
  iapply (wait_a6_at m cc _ 7 rfl) $$ [Hcys7 HO Hmw Hp]
  · isplitr; · iexact HIc67
    isplitl [Hcys7]; · iexact Hcys7
    isplitl [HO]; · iexact HO
    isplitl [Hmw]; · iexact Hmw
    iexact Hp
  iintro ⟨HO, Hq67, -, HoYb7⟩
  sl_exec
  -- of the forwarded half to z
  icases HpS with ⟨Hp, HpS⟩
  ihave Hmw := (mayWait_list (F := F) cc (dsem (⟨83, by decide⟩ : Fin 140)) (List.drop 40 (paysL cc)) (by decide)) $$ Hlev
  iapply (wait_a8_at m cc _ 7 rfl (by decide)) $$ [Hczfs7 HO Hmw Hp]
  · isplitr; · iexact HIc83
    isplitl [Hczfs7]; · iexact Hczfs7
    isplitl [HO]; · iexact HO
    isplitl [Hmw]; · iexact Hmw
    iexact Hp
  iintro ⟨HO, Hq83, -, HyFlb7⟩
  sl_exec
  -- of the forwarded half to y
  icases HpS with ⟨Hp, HpS⟩
  ihave Hmw := (mayWait_list (F := F) cc (dsem (⟨99, by decide⟩ : Fin 140)) (List.drop 40 (paysL cc)) (by decide)) $$ Hlev
  iapply (wait_a10_at m cc _ 7 rfl (by decide)) $$ [Hcyfs7 HO Hmw Hp]
  · isplitr; · iexact HIc99
    isplitl [Hcyfs7]; · iexact Hcyfs7
    isplitl [HO]; · iexact HO
    isplitl [Hmw]; · iexact Hmw
    iexact Hp
  iintro ⟨HO, Hq99, -, HzFrb7⟩
  sl_exec
  -- of chunk 0 of the diagonal quarter across x
  icases HpS with ⟨Hp, HpS⟩
  ihave Hmw := (mayWait_list (F := F) cc (dsem (⟨38, by decide⟩ : Fin 140)) (List.drop 40 (paysL cc)) (by decide)) $$ Hlev
  iapply (wait_a2_at m cc _ 0 rfl) $$ [Hcds0 HO Hmw Hp]
  · isplitr; · iexact HIc38
    isplitl [Hcds0]; · iexact Hcds0
    isplitl [HO]; · iexact HO
    isplitl [Hmw]; · iexact Hmw
    iexact Hp
  iintro ⟨HO, Hq38, -, HB2s0⟩
  sl_exec
  -- of chunk 1 of the diagonal quarter across x
  icases HpS with ⟨Hp, HpS⟩
  ihave HpS := ((sep_emp (PROP := sProp 𝕄)).2) $$ HpS
  ihave Hmw := (mayWait_list (F := F) cc (dsem (⟨39, by decide⟩ : Fin 140)) (List.drop 40 (paysL cc)) (by decide)) $$ Hlev
  iapply (wait_a2_at m cc _ 1 rfl) $$ [Hcds1 HO Hmw Hp]
  · isplitr; · iexact HIc39
    isplitl [Hcds1]; · iexact Hcds1
    isplitl [HO]; · iexact HO
    isplitl [Hmw]; · iexact Hmw
    iexact Hp
  iintro ⟨HO, Hq39, -, HB2s1⟩
  sl_exec
  -- of chunk 2 of the diagonal quarter across x

  icases HpS with ⟨HpS, -⟩
  ihave Hmw := (mayWait_list (F := F) cc (dsem (⟨40, by decide⟩ : Fin 140)) (List.drop 40 (paysL cc)) (by decide)) $$ Hlev
  iapply (wait_a2_at m cc _ 2 rfl) $$ [Hcds2 HO Hmw HpS]
  · isplitr; · iexact HIc40
    isplitl [Hcds2]; · iexact Hcds2
    isplitl [HO]; · iexact HO
    isplitl [Hmw]; · iexact Hmw
    iexact HpS
  iintro ⟨HO, Hq40, -, HB2s2⟩
  sl_exec
  -- every cell of the protocol on this device has had its one round: close them, their counters are the device's again
  imod (close_cell (F := F) m cc (⟨22, by decide⟩ : Fin 140) (by decide)) $$ [Hq22] with Hv22
  · isplitr; · iexact HIc22
    iexact Hq22
  imod (close_cell (F := F) m cc (⟨23, by decide⟩ : Fin 140) (by decide)) $$ [Hq23] with Hv23
  · isplitr; · iexact HIc23
    iexact Hq23
  imod (close_cell (F := F) m cc (⟨24, by decide⟩ : Fin 140) (by decide)) $$ [Hq24] with Hv24
  · isplitr; · iexact HIc24
    iexact Hq24
  imod (close_cell (F := F) m cc (⟨25, by decide⟩ : Fin 140) (by decide)) $$ [Hq25] with Hv25
  · isplitr; · iexact HIc25
    iexact Hq25
  imod (close_cell (F := F) m cc (⟨26, by decide⟩ : Fin 140) (by decide)) $$ [Hq26] with Hv26
  · isplitr; · iexact HIc26
    iexact Hq26
  imod (close_cell (F := F) m cc (⟨27, by decide⟩ : Fin 140) (by decide)) $$ [Hq27] with Hv27
  · isplitr; · iexact HIc27
    iexact Hq27
  imod (close_cell (F := F) m cc (⟨28, by decide⟩ : Fin 140) (by decide)) $$ [Hq28] with Hv28
  · isplitr; · iexact HIc28
    iexact Hq28
  imod (close_cell (F := F) m cc (⟨29, by decide⟩ : Fin 140) (by decide)) $$ [Hq29] with Hv29
  · isplitr; · iexact HIc29
    iexact Hq29
  imod (close_cell (F := F) m cc (⟨30, by decide⟩ : Fin 140) (by decide)) $$ [Hq30] with Hv30
  · isplitr; · iexact HIc30
    iexact Hq30
  imod (close_cell (F := F) m cc (⟨31, by decide⟩ : Fin 140) (by decide)) $$ [Hq31] with Hv31
  · isplitr; · iexact HIc31
    iexact Hq31
  imod (close_cell (F := F) m cc (⟨32, by decide⟩ : Fin 140) (by decide)) $$ [Hq32] with Hv32
  · isplitr; · iexact HIc32
    iexact Hq32
  imod (close_cell (F := F) m cc (⟨33, by decide⟩ : Fin 140) (by decide)) $$ [Hq33] with Hv33
  · isplitr; · iexact HIc33
    iexact Hq33
  imod (close_cell (F := F) m cc (⟨34, by decide⟩ : Fin 140) (by decide)) $$ [Hq34] with Hv34
  · isplitr; · iexact HIc34
    iexact Hq34
  imod (close_cell (F := F) m cc (⟨35, by decide⟩ : Fin 140) (by decide)) $$ [Hq35] with Hv35
  · isplitr; · iexact HIc35
    iexact Hq35
  imod (close_cell (F := F) m cc (⟨36, by decide⟩ : Fin 140) (by decide)) $$ [Hq36] with Hv36
  · isplitr; · iexact HIc36
    iexact Hq36
  imod (close_cell (F := F) m cc (⟨37, by decide⟩ : Fin 140) (by decide)) $$ [Hq37] with Hv37
  · isplitr; · iexact HIc37
    iexact Hq37
  imod (close_cell (F := F) m cc (⟨38, by decide⟩ : Fin 140) (by decide)) $$ [Hq38] with Hv38
  · isplitr; · iexact HIc38
    iexact Hq38
  imod (close_cell (F := F) m cc (⟨39, by decide⟩ : Fin 140) (by decide)) $$ [Hq39] with Hv39
  · isplitr; · iexact HIc39
    iexact Hq39
  imod (close_cell (F := F) m cc (⟨40, by decide⟩ : Fin 140) (by decide)) $$ [Hq40] with Hv40
  · isplitr; · iexact HIc40
    iexact Hq40
  imod (close_cell (F := F) m cc (⟨41, by decide⟩ : Fin 140) (by decide)) $$ [Hq41] with Hv41
  · isplitr; · iexact HIc41
    iexact Hq41
  imod (close_cell (F := F) m cc (⟨42, by decide⟩ : Fin 140) (by decide)) $$ [Hq42] with Hv42
  · isplitr; · iexact HIc42
    iexact Hq42
  imod (close_cell (F := F) m cc (⟨43, by decide⟩ : Fin 140) (by decide)) $$ [Hq43] with Hv43
  · isplitr; · iexact HIc43
    iexact Hq43
  imod (close_cell (F := F) m cc (⟨44, by decide⟩ : Fin 140) (by decide)) $$ [Hq44] with Hv44
  · isplitr; · iexact HIc44
    iexact Hq44
  imod (close_cell (F := F) m cc (⟨45, by decide⟩ : Fin 140) (by decide)) $$ [Hq45] with Hv45
  · isplitr; · iexact HIc45
    iexact Hq45
  imod (close_cell (F := F) m cc (⟨46, by decide⟩ : Fin 140) (by decide)) $$ [Hq46] with Hv46
  · isplitr; · iexact HIc46
    iexact Hq46
  imod (close_cell (F := F) m cc (⟨47, by decide⟩ : Fin 140) (by decide)) $$ [Hq47] with Hv47
  · isplitr; · iexact HIc47
    iexact Hq47
  imod (close_cell (F := F) m cc (⟨48, by decide⟩ : Fin 140) (by decide)) $$ [Hq48] with Hv48
  · isplitr; · iexact HIc48
    iexact Hq48
  imod (close_cell (F := F) m cc (⟨49, by decide⟩ : Fin 140) (by decide)) $$ [Hq49] with Hv49
  · isplitr; · iexact HIc49
    iexact Hq49
  imod (close_cell (F := F) m cc (⟨50, by decide⟩ : Fin 140) (by decide)) $$ [Hq50] with Hv50
  · isplitr; · iexact HIc50
    iexact Hq50
  imod (close_cell (F := F) m cc (⟨51, by decide⟩ : Fin 140) (by decide)) $$ [Hq51] with Hv51
  · isplitr; · iexact HIc51
    iexact Hq51
  imod (close_cell (F := F) m cc (⟨52, by decide⟩ : Fin 140) (by decide)) $$ [Hq52] with Hv52
  · isplitr; · iexact HIc52
    iexact Hq52
  imod (close_cell (F := F) m cc (⟨53, by decide⟩ : Fin 140) (by decide)) $$ [Hq53] with Hv53
  · isplitr; · iexact HIc53
    iexact Hq53
  imod (close_cell (F := F) m cc (⟨54, by decide⟩ : Fin 140) (by decide)) $$ [Hq54] with Hv54
  · isplitr; · iexact HIc54
    iexact Hq54
  imod (close_cell (F := F) m cc (⟨55, by decide⟩ : Fin 140) (by decide)) $$ [Hq55] with Hv55
  · isplitr; · iexact HIc55
    iexact Hq55
  imod (close_cell (F := F) m cc (⟨56, by decide⟩ : Fin 140) (by decide)) $$ [Hq56] with Hv56
  · isplitr; · iexact HIc56
    iexact Hq56
  imod (close_cell (F := F) m cc (⟨57, by decide⟩ : Fin 140) (by decide)) $$ [Hq57] with Hv57
  · isplitr; · iexact HIc57
    iexact Hq57
  imod (close_cell (F := F) m cc (⟨58, by decide⟩ : Fin 140) (by decide)) $$ [Hq58] with Hv58
  · isplitr; · iexact HIc58
    iexact Hq58
  imod (close_cell (F := F) m cc (⟨59, by decide⟩ : Fin 140) (by decide)) $$ [Hq59] with Hv59
  · isplitr; · iexact HIc59
    iexact Hq59
  imod (close_cell (F := F) m cc (⟨60, by decide⟩ : Fin 140) (by decide)) $$ [Hq60] with Hv60
  · isplitr; · iexact HIc60
    iexact Hq60
  imod (close_cell (F := F) m cc (⟨61, by decide⟩ : Fin 140) (by decide)) $$ [Hq61] with Hv61
  · isplitr; · iexact HIc61
    iexact Hq61
  imod (close_cell (F := F) m cc (⟨62, by decide⟩ : Fin 140) (by decide)) $$ [Hq62] with Hv62
  · isplitr; · iexact HIc62
    iexact Hq62
  imod (close_cell (F := F) m cc (⟨63, by decide⟩ : Fin 140) (by decide)) $$ [Hq63] with Hv63
  · isplitr; · iexact HIc63
    iexact Hq63
  imod (close_cell (F := F) m cc (⟨64, by decide⟩ : Fin 140) (by decide)) $$ [Hq64] with Hv64
  · isplitr; · iexact HIc64
    iexact Hq64
  imod (close_cell (F := F) m cc (⟨65, by decide⟩ : Fin 140) (by decide)) $$ [Hq65] with Hv65
  · isplitr; · iexact HIc65
    iexact Hq65
  imod (close_cell (F := F) m cc (⟨66, by decide⟩ : Fin 140) (by decide)) $$ [Hq66] with Hv66
  · isplitr; · iexact HIc66
    iexact Hq66
  imod (close_cell (F := F) m cc (⟨67, by decide⟩ : Fin 140) (by decide)) $$ [Hq67] with Hv67
  · isplitr; · iexact HIc67
    iexact Hq67
  imod (close_cell (F := F) m cc (⟨68, by decide⟩ : Fin 140) (by decide)) $$ [Hq68] with Hv68
  · isplitr; · iexact HIc68
    iexact Hq68
  imod (close_cell (F := F) m cc (⟨69, by decide⟩ : Fin 140) (by decide)) $$ [Hq69] with Hv69
  · isplitr; · iexact HIc69
    iexact Hq69
  imod (close_cell (F := F) m cc (⟨70, by decide⟩ : Fin 140) (by decide)) $$ [Hq70] with Hv70
  · isplitr; · iexact HIc70
    iexact Hq70
  imod (close_cell (F := F) m cc (⟨71, by decide⟩ : Fin 140) (by decide)) $$ [Hq71] with Hv71
  · isplitr; · iexact HIc71
    iexact Hq71
  imod (close_cell (F := F) m cc (⟨72, by decide⟩ : Fin 140) (by decide)) $$ [Hq72] with Hv72
  · isplitr; · iexact HIc72
    iexact Hq72
  imod (close_cell (F := F) m cc (⟨73, by decide⟩ : Fin 140) (by decide)) $$ [Hq73] with Hv73
  · isplitr; · iexact HIc73
    iexact Hq73
  imod (close_cell (F := F) m cc (⟨74, by decide⟩ : Fin 140) (by decide)) $$ [Hq74] with Hv74
  · isplitr; · iexact HIc74
    iexact Hq74
  imod (close_cell (F := F) m cc (⟨75, by decide⟩ : Fin 140) (by decide)) $$ [Hq75] with Hv75
  · isplitr; · iexact HIc75
    iexact Hq75
  imod (close_cell (F := F) m cc (⟨79, by decide⟩ : Fin 140) (by decide)) $$ [Hq79] with Hv79
  · isplitr; · iexact HIc79
    iexact Hq79
  imod (close_cell (F := F) m cc (⟨80, by decide⟩ : Fin 140) (by decide)) $$ [Hq80] with Hv80
  · isplitr; · iexact HIc80
    iexact Hq80
  imod (close_cell (F := F) m cc (⟨81, by decide⟩ : Fin 140) (by decide)) $$ [Hq81] with Hv81
  · isplitr; · iexact HIc81
    iexact Hq81
  imod (close_cell (F := F) m cc (⟨82, by decide⟩ : Fin 140) (by decide)) $$ [Hq82] with Hv82
  · isplitr; · iexact HIc82
    iexact Hq82
  imod (close_cell (F := F) m cc (⟨83, by decide⟩ : Fin 140) (by decide)) $$ [Hq83] with Hv83
  · isplitr; · iexact HIc83
    iexact Hq83
  imod (close_cell (F := F) m cc (⟨87, by decide⟩ : Fin 140) (by decide)) $$ [Hq87] with Hv87
  · isplitr; · iexact HIc87
    iexact Hq87
  imod (close_cell (F := F) m cc (⟨88, by decide⟩ : Fin 140) (by decide)) $$ [Hq88] with Hv88
  · isplitr; · iexact HIc88
    iexact Hq88
  imod (close_cell (F := F) m cc (⟨89, by decide⟩ : Fin 140) (by decide)) $$ [Hq89] with Hv89
  · isplitr; · iexact HIc89
    iexact Hq89
  imod (close_cell (F := F) m cc (⟨90, by decide⟩ : Fin 140) (by decide)) $$ [Hq90] with Hv90
  · isplitr; · iexact HIc90
    iexact Hq90
  imod (close_cell (F := F) m cc (⟨91, by decide⟩ : Fin 140) (by decide)) $$ [Hq91] with Hv91
  · isplitr; · iexact HIc91
    iexact Hq91
  imod (close_cell (F := F) m cc (⟨95, by decide⟩ : Fin 140) (by decide)) $$ [Hq95] with Hv95
  · isplitr; · iexact HIc95
    iexact Hq95
  imod (close_cell (F := F) m cc (⟨96, by decide⟩ : Fin 140) (by decide)) $$ [Hq96] with Hv96
  · isplitr; · iexact HIc96
    iexact Hq96
  imod (close_cell (F := F) m cc (⟨97, by decide⟩ : Fin 140) (by decide)) $$ [Hq97] with Hv97
  · isplitr; · iexact HIc97
    iexact Hq97
  imod (close_cell (F := F) m cc (⟨98, by decide⟩ : Fin 140) (by decide)) $$ [Hq98] with Hv98
  · isplitr; · iexact HIc98
    iexact Hq98
  imod (close_cell (F := F) m cc (⟨99, by decide⟩ : Fin 140) (by decide)) $$ [Hq99] with Hv99
  · isplitr; · iexact HIc99
    iexact Hq99
  imod (close_cell (F := F) m cc (⟨103, by decide⟩ : Fin 140) (by decide)) $$ [Hq103] with Hv103
  · isplitr; · iexact HIc103
    iexact Hq103
  imod (close_cell (F := F) m cc (⟨104, by decide⟩ : Fin 140) (by decide)) $$ [Hq104] with Hv104
  · isplitr; · iexact HIc104
    iexact Hq104
  imod (close_cell (F := F) m cc (⟨105, by decide⟩ : Fin 140) (by decide)) $$ [Hq105] with Hv105
  · isplitr; · iexact HIc105
    iexact Hq105
  imod (close_cell (F := F) m cc (⟨106, by decide⟩ : Fin 140) (by decide)) $$ [Hq106] with Hv106
  · isplitr; · iexact HIc106
    iexact Hq106
  imod (close_cell (F := F) m cc (⟨107, by decide⟩ : Fin 140) (by decide)) $$ [Hq107] with Hv107
  · isplitr; · iexact HIc107
    iexact Hq107
  -- the program is over: hand everything back
  icases HvU with ⟨Hu76, Hu77, Hu78, Hu84, Hu85, Hu86, Hu92, Hu93, Hu94, Hu100, Hu101, Hu102⟩
  ihave HO := (Entails.of_eq (show owes (cc : Thread nD τ) (owedL (List.drop 40 (paysL cc))) _ = owes (cc : Thread nD τ) 0 _ from rfl)) $$ HO
  -- each block of the result holds what its copy wrote: the final contents
  ihave HU00 := (congr (F := F) (outR 0 0) cc fullShare ((outR 0 0).view.writes (Elt F) g00 [⟨Rect.whole S512x256, dev.sl.dma0_34 m⟩]) (out m cc) (fun i hi => glue_out' m cc 0 0 g00 i hi)) $$ HU00
  ihave HU01 := (congr (F := F) (outR 0 1) cc fullShare ((outR 0 1).view.writes (Elt F) g01 [⟨Rect.whole S512x256, dev.sl.dma0_35 m⟩]) (out m cc) (fun i hi => glue_out' m cc 0 1 g01 i hi)) $$ HU01
  ihave HU02 := (congr (F := F) (outR 0 2) cc fullShare ((outR 0 2).view.writes (Elt F) g02 [⟨Rect.whole S512x256, dev.sl.dma0_36 m⟩]) (out m cc) (fun i hi => glue_out' m cc 0 2 g02 i hi)) $$ HU02
  ihave HU03 := (congr (F := F) (outR 0 3) cc fullShare ((outR 0 3).view.writes (Elt F) g03 [⟨Rect.whole S512x256, dev.sl.dma0_37 m⟩]) (out m cc) (fun i hi => glue_out' m cc 0 3 g03 i hi)) $$ HU03
  ihave HU10 := (congr (F := F) (outR 1 0) cc fullShare ((outR 1 0).view.writes (Elt F) g10 [⟨Rect.whole S512x256, dev.sl.dma0_38 m⟩]) (out m cc) (fun i hi => glue_out' m cc 1 0 g10 i hi)) $$ HU10
  ihave HU11 := (congr (F := F) (outR 1 1) cc fullShare ((outR 1 1).view.writes (Elt F) g11 [⟨Rect.whole S512x256, dev.sl.dma0_39 m⟩]) (out m cc) (fun i hi => glue_out' m cc 1 1 g11 i hi)) $$ HU11
  ihave HU12 := (congr (F := F) (outR 1 2) cc fullShare ((outR 1 2).view.writes (Elt F) g12 [⟨Rect.whole S512x256, dev.sl.dma0_40 m⟩]) (out m cc) (fun i hi => glue_out' m cc 1 2 g12 i hi)) $$ HU12
  ihave HU13 := (congr (F := F) (outR 1 3) cc fullShare ((outR 1 3).view.writes (Elt F) g13 [⟨Rect.whole S512x256, dev.sl.dma0_41 m⟩]) (out m cc) (fun i hi => glue_out' m cc 1 3 g13 i hi)) $$ HU13
  ihave HU20 := (congr (F := F) (outR 2 0) cc fullShare ((outR 2 0).view.writes (Elt F) g20 [⟨Rect.whole S512x256, dev.sl.dma0_42 m⟩]) (out m cc) (fun i hi => glue_out' m cc 2 0 g20 i hi)) $$ HU20
  ihave HU21 := (congr (F := F) (outR 2 1) cc fullShare ((outR 2 1).view.writes (Elt F) g21 [⟨Rect.whole S512x256, dev.sl.dma0_43 m⟩]) (out m cc) (fun i hi => glue_out' m cc 2 1 g21 i hi)) $$ HU21
  ihave HU22 := (congr (F := F) (outR 2 2) cc fullShare ((outR 2 2).view.writes (Elt F) g22 [⟨Rect.whole S512x256, dev.sl.dma0_44 m⟩]) (out m cc) (fun i hi => glue_out' m cc 2 2 g22 i hi)) $$ HU22
  ihave HU23 := (congr (F := F) (outR 2 3) cc fullShare ((outR 2 3).view.writes (Elt F) g23 [⟨Rect.whole S512x256, dev.sl.dma0_45 m⟩]) (out m cc) (fun i hi => glue_out' m cc 2 3 g23 i hi)) $$ HU23
  ihave HU30 := (congr (F := F) (outR 3 0) cc fullShare ((outR 3 0).view.writes (Elt F) g30 [⟨Rect.whole S512x256, dev.sl.dma0_22 m⟩]) (out m cc) (fun i hi => glue_out' m cc 3 0 g30 i hi)) $$ HU30
  ihave HU31 := (congr (F := F) (outR 3 1) cc fullShare ((outR 3 1).view.writes (Elt F) g31 [⟨Rect.whole S512x256, dev.sl.dma0_23 m⟩]) (out m cc) (fun i hi => glue_out' m cc 3 1 g31 i hi)) $$ HU31
  ihave HU32 := (congr (F := F) (outR 3 2) cc fullShare ((outR 3 2).view.writes (Elt F) g32 [⟨Rect.whole S512x256, dev.sl.dma0_24 m⟩]) (out m cc) (fun i hi => glue_out' m cc 3 2 g32 i hi)) $$ HU32
  ihave HU33 := (congr (F := F) (outR 3 3) cc fullShare ((outR 3 3).view.writes (Elt F) g33 [⟨Rect.whole S512x256, dev.sl.dma0_25 m⟩]) (out m cc) (fun i hi => glue_out' m cc 3 3 g33 i hi)) $$ HU33
  ihave HU40 := (congr (F := F) (outR 4 0) cc fullShare ((outR 4 0).view.writes (Elt F) g40 [⟨Rect.whole S512x256, dev.sl.dma0_26 m⟩]) (out m cc) (fun i hi => glue_out' m cc 4 0 g40 i hi)) $$ HU40
  ihave HU41 := (congr (F := F) (outR 4 1) cc fullShare ((outR 4 1).view.writes (Elt F) g41 [⟨Rect.whole S512x256, dev.sl.dma0_27 m⟩]) (out m cc) (fun i hi => glue_out' m cc 4 1 g41 i hi)) $$ HU41
  ihave HU42 := (congr (F := F) (outR 4 2) cc fullShare ((outR 4 2).view.writes (Elt F) g42 [⟨Rect.whole S512x256, dev.sl.dma0_28 m⟩]) (out m cc) (fun i hi => glue_out' m cc 4 2 g42 i hi)) $$ HU42
  ihave HU43 := (congr (F := F) (outR 4 3) cc fullShare ((outR 4 3).view.writes (Elt F) g43 [⟨Rect.whole S512x256, dev.sl.dma0_29 m⟩]) (out m cc) (fun i hi => glue_out' m cc 4 3 g43 i hi)) $$ HU43
  ihave HU50 := (congr (F := F) (outR 5 0) cc fullShare ((outR 5 0).view.writes (Elt F) g50 [⟨Rect.whole S512x256, dev.sl.dma0_30 m⟩]) (out m cc) (fun i hi => glue_out' m cc 5 0 g50 i hi)) $$ HU50
  ihave HU51 := (congr (F := F) (outR 5 1) cc fullShare ((outR 5 1).view.writes (Elt F) g51 [⟨Rect.whole S512x256, dev.sl.dma0_31 m⟩]) (out m cc) (fun i hi => glue_out' m cc 5 1 g51 i hi)) $$ HU51
  ihave HU52 := (congr (F := F) (outR 5 2) cc fullShare ((outR 5 2).view.writes (Elt F) g52 [⟨Rect.whole S512x256, dev.sl.dma0_32 m⟩]) (out m cc) (fun i hi => glue_out' m cc 5 2 g52 i hi)) $$ HU52
  ihave HU53 := (congr (F := F) (outR 5 3) cc fullShare ((outR 5 3).view.writes (Elt F) g53 [⟨Rect.whole S512x256, dev.sl.dma0_33 m⟩]) (out m cc) (fun i hi => glue_out' m cc 5 3 g53 i hi)) $$ HU53
  ihave HU60 := (congr (F := F) (outR 6 0) cc fullShare ((outR 6 0).view.writes (Elt F) g60 [⟨Rect.whole S512x256, dev.sl.dma0_46 m⟩]) (out m cc) (fun i hi => glue_out' m cc 6 0 g60 i hi)) $$ HU60
  ihave HU61 := (congr (F := F) (outR 6 1) cc fullShare ((outR 6 1).view.writes (Elt F) g61 [⟨Rect.whole S512x256, dev.sl.dma0_47 m⟩]) (out m cc) (fun i hi => glue_out' m cc 6 1 g61 i hi)) $$ HU61
  ihave HU62 := (congr (F := F) (outR 6 2) cc fullShare ((outR 6 2).view.writes (Elt F) g62 [⟨Rect.whole S512x256, dev.sl.dma0_48 m⟩]) (out m cc) (fun i hi => glue_out' m cc 6 2 g62 i hi)) $$ HU62
  ihave HU63 := (congr (F := F) (outR 6 3) cc fullShare ((outR 6 3).view.writes (Elt F) g63 [⟨Rect.whole S512x256, dev.sl.dma0_49 m⟩]) (out m cc) (fun i hi => glue_out' m cc 6 3 g63 i hi)) $$ HU63
  ihave HU70 := (congr (F := F) (outR 7 0) cc fullShare ((outR 7 0).view.writes (Elt F) g70 [⟨Rect.whole S512x256, dev.sl.dma0_50 m⟩]) (out m cc) (fun i hi => glue_out' m cc 7 0 g70 i hi)) $$ HU70
  ihave HU71 := (congr (F := F) (outR 7 1) cc fullShare ((outR 7 1).view.writes (Elt F) g71 [⟨Rect.whole S512x256, dev.sl.dma0_51 m⟩]) (out m cc) (fun i hi => glue_out' m cc 7 1 g71 i hi)) $$ HU71
  ihave HU72 := (congr (F := F) (outR 7 2) cc fullShare ((outR 7 2).view.writes (Elt F) g72 [⟨Rect.whole S512x256, dev.sl.dma0_52 m⟩]) (out m cc) (fun i hi => glue_out' m cc 7 2 g72 i hi)) $$ HU72
  ihave HU73 := (congr (F := F) (outR 7 3) cc fullShare ((outR 7 3).view.writes (Elt F) g73 [⟨Rect.whole S512x256, dev.sl.dma0_53 m⟩]) (out m cc) (fun i hi => glue_out' m cc 7 3 g73 i hi)) $$ HU73
  sl_step
  iapply Hk
  unfold bodyPost
  isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7 Hz0 Hz1 Hz2 HzG3 HzFl3 HzFrb3 HzG4 HzFl4 HzFrb4 HzG5 HzFl5 HzFrb5 HzG6 HzFl6 HzFrb6 HzG7 HzFl7 HzFrb7 Hy0 Hy1 Hy2 HyG3 HyFlb3 HyFr3 HyG4 HyFlb4 HyFr4 HyG5 HyFlb5 HyFr5 HyG6 HyFlb6 HyFr6 HyG7 HyFlb7 HyFr7 Hdq0 Hdq1 Hdq2 Hd3 Hd4 Hd5 Hd6 Hd7]
  · iapply (Entails.of_eq (junk_whole (F := F) cc cc0_scratch0).symm)
    iapply (r4_back (F := F) cc)
    isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7]
    · isplitl [HoZb0 HoYb0 HoK0]
      · iapply (own_back (F := F) cc 0 (r4 m cc))
        isplitl [HoZb0]
        · iexact HoZb0
        isplitl [HoYb0]
        · iexact HoYb0
        iexact HoK0
      isplitl [HoZb1 HoYb1 HoK1]
      · iapply (own_back (F := F) cc 1 (r4 m cc))
        isplitl [HoZb1]
        · iexact HoZb1
        isplitl [HoYb1]
        · iexact HoYb1
        iexact HoK1
      isplitl [HoZb2 HoYb2 HoK2]
      · iapply (own_back (F := F) cc 2 (r4 m cc))
        isplitl [HoZb2]
        · iexact HoZb2
        isplitl [HoYb2]
        · iexact HoYb2
        iexact HoK2
      isplitl [HoZb3 HoYb3 HoK3]
      · iapply (own_back (F := F) cc 3 (r4 m cc))
        isplitl [HoZb3]
        · iexact HoZb3
        isplitl [HoYb3]
        · iexact HoYb3
        iexact HoK3
      isplitl [HoZb4 HoYb4 HoK4]
      · iapply (own_back (F := F) cc 4 (r4 m cc))
        isplitl [HoZb4]
        · iexact HoZb4
        isplitl [HoYb4]
        · iexact HoYb4
        iexact HoK4
      isplitl [HoZb5 HoYb5 HoK5]
      · iapply (own_back (F := F) cc 5 (r4 m cc))
        isplitl [HoZb5]
        · iexact HoZb5
        isplitl [HoYb5]
        · iexact HoYb5
        iexact HoK5
      isplitl [HoZb6 HoYb6 HoK6]
      · iapply (own_back (F := F) cc 6 (r4 m cc))
        isplitl [HoZb6]
        · iexact HoZb6
        isplitl [HoYb6]
        · iexact HoYb6
        iexact HoK6
      iapply (own_back (F := F) cc 7 (r4 m cc))
      isplitl [HoZb7]
      · iexact HoZb7
      isplitl [HoYb7]
      · iexact HoYb7
      iexact HoK7
    isplitl [Hz0 Hz1 Hz2 HzG3 HzFl3 HzFrb3 HzG4 HzFl4 HzFrb4 HzG5 HzFl5 HzFrb5 HzG6 HzFl6 HzFrb6 HzG7 HzFl7 HzFrb7]
    · isplitl [Hz0]
      · iexists _; iexact Hz0
      isplitl [Hz1]
      · iexists _; iexact Hz1
      isplitl [Hz2]
      · iexists _; iexact Hz2
      isplitl [HzG3 HzFl3 HzFrb3]
      · iapply (nbr_back (F := F) cc (zqF cc) 3 (r4 m cc))
        isplitl [HzG3]
        · iexact HzG3
        isplitl [HzFl3]
        · iexact HzFl3
        iexact HzFrb3
      isplitl [HzG4 HzFl4 HzFrb4]
      · iapply (nbr_back (F := F) cc (zqF cc) 4 (r4 m cc))
        isplitl [HzG4]
        · iexact HzG4
        isplitl [HzFl4]
        · iexact HzFl4
        iexact HzFrb4
      isplitl [HzG5 HzFl5 HzFrb5]
      · iapply (nbr_back (F := F) cc (zqF cc) 5 (r4 m cc))
        isplitl [HzG5]
        · iexact HzG5
        isplitl [HzFl5]
        · iexact HzFl5
        iexact HzFrb5
      isplitl [HzG6 HzFl6 HzFrb6]
      · iapply (nbr_back (F := F) cc (zqF cc) 6 (r4 m cc))
        isplitl [HzG6]
        · iexact HzG6
        isplitl [HzFl6]
        · iexact HzFl6
        iexact HzFrb6
      iapply (nbr_back (F := F) cc (zqF cc) 7 (r4 m cc))
      isplitl [HzG7]
      · iexact HzG7
      isplitl [HzFl7]
      · iexact HzFl7
      iexact HzFrb7
    isplitl [Hy0 Hy1 Hy2 HyG3 HyFlb3 HyFr3 HyG4 HyFlb4 HyFr4 HyG5 HyFlb5 HyFr5 HyG6 HyFlb6 HyFr6 HyG7 HyFlb7 HyFr7]
    · isplitl [Hy0]
      · iexists _; iexact Hy0
      isplitl [Hy1]
      · iexists _; iexact Hy1
      isplitl [Hy2]
      · iexists _; iexact Hy2
      isplitl [HyG3 HyFlb3 HyFr3]
      · iapply (nbr_back (F := F) cc (yqF cc) 3 (r4 m cc))
        isplitl [HyG3]
        · iexact HyG3
        isplitl [HyFlb3]
        · iexact HyFlb3
        iexact HyFr3
      isplitl [HyG4 HyFlb4 HyFr4]
      · iapply (nbr_back (F := F) cc (yqF cc) 4 (r4 m cc))
        isplitl [HyG4]
        · iexact HyG4
        isplitl [HyFlb4]
        · iexact HyFlb4
        iexact HyFr4
      isplitl [HyG5 HyFlb5 HyFr5]
      · iapply (nbr_back (F := F) cc (yqF cc) 5 (r4 m cc))
        isplitl [HyG5]
        · iexact HyG5
        isplitl [HyFlb5]
        · iexact HyFlb5
        iexact HyFr5
      isplitl [HyG6 HyFlb6 HyFr6]
      · iapply (nbr_back (F := F) cc (yqF cc) 6 (r4 m cc))
        isplitl [HyG6]
        · iexact HyG6
        isplitl [HyFlb6]
        · iexact HyFlb6
        iexact HyFr6
      iapply (nbr_back (F := F) cc (yqF cc) 7 (r4 m cc))
      isplitl [HyG7]
      · iexact HyG7
      isplitl [HyFlb7]
      · iexact HyFlb7
      iexact HyFr7
    isplitl [Hdq0 Hdq1 Hdq2]
    · isplitl [Hdq0]
      · iexists _; iexact Hdq0
      isplitl [Hdq1]
      · iexists _; iexact Hdq1
      iexists _; iexact Hdq2
    isplitl [Hd3]
    · iapply (dq_halves (F := F) cc 3 (r4 m cc))
      iexact Hd3
    isplitl [Hd4]
    · iapply (dq_halves (F := F) cc 4 (r4 m cc))
      iexact Hd4
    isplitl [Hd5]
    · iapply (dq_halves (F := F) cc 5 (r4 m cc))
      iexact Hd5
    isplitl [Hd6]
    · iapply (dq_halves (F := F) cc 6 (r4 m cc))
      iexact Hd6
    iapply (dq_halves (F := F) cc 7 (r4 m cc))
    iexact Hd7
  isplitl [HBs0 HBs1 HBs2 HBs3 HBs4 HBs5 HBs6 HBs7]
  · iapply (Entails.of_eq (junk_whole (F := F) cc cc0_scratch1).symm)
    iapply (sb_rows_join (F := F) cc)
    isplitl [HBs0]
    · iexists _; iexact HBs0
    isplitl [HBs1]
    · iexists _; iexact HBs1
    isplitl [HBs2]
    · iexists _; iexact HBs2
    isplitl [HBs3]
    · iexists _; iexact HBs3
    isplitl [HBs4]
    · iexists _; iexact HBs4
    isplitl [HBs5]
    · iexists _; iexact HBs5
    isplitl [HBs6]
    · iexists _; iexact HBs6
    iexists _; iexact HBs7
  isplitl [Hrb0 Hrb1 Hrb2 Hrb3 Hrb4 Hrb5 Hrb6 Hrb7]
  · iapply (Entails.of_eq (junk_whole (F := F) cc cc0_scratch2).symm)
    iapply (rb_rows_join (F := F) cc)
    isplitl [Hrb0]
    · iexists _; iexact Hrb0
    isplitl [Hrb1]
    · iexists _; iexact Hrb1
    isplitl [Hrb2]
    · iexists _; iexact Hrb2
    isplitl [Hrb3]
    · iexists _; iexact Hrb3
    isplitl [Hrb4]
    · iexists _; iexact Hrb4
    isplitl [Hrb5]
    · iexists _; iexact Hrb5
    isplitl [Hrb6]
    · iexists _; iexact Hrb6
    iexists _; iexact Hrb7
  isplitl [HB2s0 HB2s1 HB2s2]
  · iapply (Entails.of_eq (junk_whole (F := F) cc cc0_scratch3).symm)
    iapply (sb2_rows_join (F := F) cc)
    isplitl [HB2s0]
    · iexists _; iexact HB2s0
    isplitl [HB2s1]
    · iexists _; iexact HB2s1
    iexists _; iexact HB2s2
  isplitl [Hrb20 Hrb21 Hrb22]
  · iapply (Entails.of_eq (junk_whole (F := F) cc cc0_scratch4).symm)
    iapply (rb2_rows_join (F := F) cc)
    isplitl [Hrb20]
    · iexists _; iexact Hrb20
    isplitl [Hrb21]
    · iexists _; iexact Hrb21
    iexists _; iexact Hrb22
  isplitl [HP0 HP1 HP2 HP3 HP4 HP5 HP6 HP7]
  · iapply (Entails.of_eq (junk_whole (F := F) cc cc0_scratch5).symm)
    iapply (stP_rows_join (F := F) cc)
    isplitl [HP0]
    · iexists _; iexact HP0
    isplitl [HP1]
    · iexists _; iexact HP1
    isplitl [HP2]
    · iexists _; iexact HP2
    isplitl [HP3]
    · iexists _; iexact HP3
    isplitl [HP4]
    · iexists _; iexact HP4
    isplitl [HP5]
    · iexists _; iexact HP5
    isplitl [HP6]
    · iexists _; iexact HP6
    iexists _; iexact HP7
  isplitl [HL0 HL1 HL2 HL3 HL4 HL5 HL6 HL7]
  · iapply (Entails.of_eq (junk_whole (F := F) cc cc0_scratch6).symm)
    iapply (stL_rows_join (F := F) cc)
    isplitl [HL0]
    · iexists _; iexact HL0
    isplitl [HL1]
    · iexists _; iexact HL1
    isplitl [HL2]
    · iexists _; iexact HL2
    isplitl [HL3]
    · iexists _; iexact HL3
    isplitl [HL4]
    · iexists _; iexact HL4
    isplitl [HL5]
    · iexists _; iexact HL5
    isplitl [HL6]
    · iexists _; iexact HL6
    iexists _; iexact HL7
  isplitl [HP20 HP21 HP22]
  · iapply (Entails.of_eq (junk_whole (F := F) cc cc0_scratch7).symm)
    iapply (stP2_rows_join (F := F) cc)
    isplitl [HP20]
    · iexists _; iexact HP20
    isplitl [HP21]
    · iexists _; iexact HP21
    iexists _; iexact HP22
  isplitl [HL20 HL21 HL22]
  · iapply (Entails.of_eq (junk_whole (F := F) cc cc0_scratch8).symm)
    iapply (stL2_rows_join (F := F) cc)
    isplitl [HL20]
    · iexists _; iexact HL20
    isplitl [HL21]
    · iexists _; iexact HL21
    iexists _; iexact HL22
  isplitl [HX]
  · iexact HX
  isplitl [HU00 HU01 HU02 HU03 HU10 HU11 HU12 HU13 HU20 HU21 HU22 HU23 HU30 HU31 HU32 HU33 HU40 HU41 HU42 HU43 HU50 HU51 HU52 HU53 HU60 HU61 HU62 HU63 HU70 HU71 HU72 HU73]
  · iapply (out_join (F := F) cc (out m cc))
    isplitl [HU00]
    · iexact HU00
    isplitl [HU01]
    · iexact HU01
    isplitl [HU02]
    · iexact HU02
    isplitl [HU03]
    · iexact HU03
    isplitl [HU10]
    · iexact HU10
    isplitl [HU11]
    · iexact HU11
    isplitl [HU12]
    · iexact HU12
    isplitl [HU13]
    · iexact HU13
    isplitl [HU20]
    · iexact HU20
    isplitl [HU21]
    · iexact HU21
    isplitl [HU22]
    · iexact HU22
    isplitl [HU23]
    · iexact HU23
    isplitl [HU30]
    · iexact HU30
    isplitl [HU31]
    · iexact HU31
    isplitl [HU32]
    · iexact HU32
    isplitl [HU33]
    · iexact HU33
    isplitl [HU40]
    · iexact HU40
    isplitl [HU41]
    · iexact HU41
    isplitl [HU42]
    · iexact HU42
    isplitl [HU43]
    · iexact HU43
    isplitl [HU50]
    · iexact HU50
    isplitl [HU51]
    · iexact HU51
    isplitl [HU52]
    · iexact HU52
    isplitl [HU53]
    · iexact HU53
    isplitl [HU60]
    · iexact HU60
    isplitl [HU61]
    · iexact HU61
    isplitl [HU62]
    · iexact HU62
    isplitl [HU63]
    · iexact HU63
    isplitl [HU70]
    · iexact HU70
    isplitl [HU71]
    · iexact HU71
    isplitl [HU72]
    · iexact HU72
    iexact HU73
  isplitl [Hv0 Hv1 Hv2 Hv3 Hv4 Hv5 Hv6 Hv7 Hv8 Hv9 Hv10 Hv11 Hv12 Hv13 Hv14 Hv15 Hv16 Hv17 Hv18 Hv19 Hv20 Hv21 Hv22 Hv23 Hv24 Hv25 Hv26 Hv27 Hv28 Hv29 Hv30 Hv31 Hv32 Hv33 Hv34 Hv35 Hv36 Hv37 Hv38 Hv39 Hv40 Hv41 Hv42 Hv43 Hv44 Hv45 Hv46 Hv47 Hv48 Hv49 Hv50 Hv51 Hv52 Hv53 Hv54 Hv55 Hv56 Hv57 Hv58 Hv59 Hv60 Hv61 Hv62 Hv63 Hv64 Hv65 Hv66 Hv67 Hv68 Hv69 Hv70 Hv71 Hv72 Hv73 Hv74 Hv75 Hu76 Hu77 Hu78 Hv79 Hv80 Hv81 Hv82 Hv83 Hu84 Hu85 Hu86 Hv87 Hv88 Hv89 Hv90 Hv91 Hu92 Hu93 Hu94 Hv95 Hv96 Hv97 Hv98 Hv99 Hu100 Hu101 Hu102 Hv103 Hv104 Hv105 Hv106 Hv107 Hw0a Hw0b Hw0c Hw0d Hw1a Hw1b Hw1c Hw1d Hw2a Hw2b Hw2c Hw2d Hw3a Hw3b Hw3c Hw3d Hw4a Hw4b Hw4c Hw4d Hw5a Hw5b Hw5c Hw5d Hw6a Hw6b Hw6c Hw6d Hw7a Hw7b Hw7c Hw7d]
  · iapply (Entails.of_eq (show (iprop(semVal (cellAt cc (⟨0, Nat.le_of_ble_eq_true rfl⟩ : Fin 140)) 0 ∗ semVal (cellAt cc (⟨1, Nat.le_of_ble_eq_true rfl⟩ : Fin 140)) 0 ∗ semVal (cellAt cc (⟨2, Nat.le_of_ble_eq_true rfl⟩ : Fin 140)) 0 ∗ semVal (cellAt cc (⟨3, Nat.le_of_ble_eq_true rfl⟩ : Fin 140)) 0 ∗ semVal (cellAt cc (⟨4, Nat.le_of_ble_eq_true rfl⟩ : Fin 140)) 0 ∗ semVal (cellAt cc (⟨5, Nat.le_of_ble_eq_true rfl⟩ : Fin 140)) 0 ∗ semVal (cellAt cc (⟨6, Nat.le_of_ble_eq_true rfl⟩ : Fin 140)) 0 ∗ semVal (cellAt cc (⟨7, Nat.le_of_ble_eq_true rfl⟩ : Fin 140)) 0 ∗ semVal (cellAt cc (⟨8, Nat.le_of_ble_eq_true rfl⟩ : Fin 140)) 0 ∗ semVal (cellAt cc (⟨9, Nat.le_of_ble_eq_true rfl⟩ : Fin 140)) 0 ∗ semVal (cellAt cc (⟨10, Nat.le_of_ble_eq_true rfl⟩ : Fin 140)) 0 ∗ semVal (cellAt cc (⟨11, Nat.le_of_ble_eq_true rfl⟩ : Fin 140)) 0 ∗ semVal (cellAt cc (⟨12, Nat.le_of_ble_eq_true rfl⟩ : Fin 140)) 0 ∗ semVal (cellAt cc (⟨13, Nat.le_of_ble_eq_true rfl⟩ : Fin 140)) 0 ∗ semVal (cellAt cc (⟨14, Nat.le_of_ble_eq_true rfl⟩ : Fin 140)) 0 ∗ semVal (cellAt cc (⟨15, Nat.le_of_ble_eq_true rfl⟩ : Fin 140)) 0 ∗ semVal (cellAt cc (⟨16, Nat.le_of_ble_eq_true rfl⟩ : Fin 140)) 0 ∗ semVal (cellAt cc (⟨17, Nat.le_of_ble_eq_true rfl⟩ : Fin 140)) 0 ∗ semVal (cellAt cc (⟨18, Nat.le_of_ble_eq_true rfl⟩ : Fin 140)) 0 ∗ semVal (cellAt cc (⟨19, Nat.le_of_ble_eq_true rfl⟩ : Fin 140)) 0 ∗ semVal (cellAt cc (⟨20, Nat.le_of_ble_eq_true rfl⟩ : Fin 140)) 0 ∗ semVal (cellAt cc (⟨21, Nat.le_of_ble_eq_true rfl⟩ : Fin 140)) 0 ∗ semVal (cellAt cc (⟨22, Nat.le_of_ble_eq_true rfl⟩ : Fin 140)) 0 ∗ semVal (cellAt cc (⟨23, Nat.le_of_ble_eq_true rfl⟩ : Fin 140)) 0 ∗ semVal (cellAt cc (⟨24, Nat.le_of_ble_eq_true rfl⟩ : Fin 140)) 0 ∗ semVal (cellAt cc (⟨25, Nat.le_of_ble_eq_true rfl⟩ : Fin 140)) 0 ∗ semVal (cellAt cc (⟨26, Nat.le_of_ble_eq_true rfl⟩ : Fin 140)) 0 ∗ semVal (cellAt cc (⟨27, Nat.le_of_ble_eq_true rfl⟩ : Fin 140)) 0 ∗ semVal (cellAt cc (⟨28, Nat.le_of_ble_eq_true rfl⟩ : Fin 140)) 0 ∗ semVal (cellAt cc (⟨29, Nat.le_of_ble_eq_true rfl⟩ : Fin 140)) 0 ∗ semVal (cellAt cc (⟨30, Nat.le_of_ble_eq_true rfl⟩ : Fin 140)) 0 ∗ semVal (cellAt cc (⟨31, Nat.le_of_ble_eq_true rfl⟩ : Fin 140)) 0 ∗ semVal (cellAt cc (⟨32, Nat.le_of_ble_eq_true rfl⟩ : Fin 140)) 0 ∗ semVal (cellAt cc (⟨33, Nat.le_of_ble_eq_true rfl⟩ : Fin 140)) 0 ∗ semVal (cellAt cc (⟨34, Nat.le_of_ble_eq_true rfl⟩ : Fin 140)) 0 ∗ semVal (cellAt cc (⟨35, Nat.le_of_ble_eq_true rfl⟩ : Fin 140)) 0 ∗ semVal (cellAt cc (⟨36, Nat.le_of_ble_eq_true rfl⟩ : Fin 140)) 0 ∗ semVal (cellAt cc (⟨37, Nat.le_of_ble_eq_true rfl⟩ : Fin 140)) 0 ∗ semVal (cellAt cc (⟨38, Nat.le_of_ble_eq_true rfl⟩ : Fin 140)) 0 ∗ semVal (cellAt cc (⟨39, Nat.le_of_ble_eq_true rfl⟩ : Fin 140)) 0 ∗ semVal (cellAt cc (⟨40, Nat.le_of_ble_eq_true rfl⟩ : Fin 140)) 0 ∗ semVal (cellAt cc (⟨41, Nat.le_of_ble_eq_true rfl⟩ : Fin 140)) 0 ∗ semVal (cellAt cc (⟨42, Nat.le_of_ble_eq_true rfl⟩ : Fin 140)) 0 ∗ semVal (cellAt cc (⟨43, Nat.le_of_ble_eq_true rfl⟩ : Fin 140)) 0 ∗ semVal (cellAt cc (⟨44, Nat.le_of_ble_eq_true rfl⟩ : Fin 140)) 0 ∗ semVal (cellAt cc (⟨45, Nat.le_of_ble_eq_true rfl⟩ : Fin 140)) 0 ∗ semVal (cellAt cc (⟨46, Nat.le_of_ble_eq_true rfl⟩ : Fin 140)) 0 ∗ semVal (cellAt cc (⟨47, Nat.le_of_ble_eq_true rfl⟩ : Fin 140)) 0 ∗ semVal (cellAt cc (⟨48, Nat.le_of_ble_eq_true rfl⟩ : Fin 140)) 0 ∗ semVal (cellAt cc (⟨49, Nat.le_of_ble_eq_true rfl⟩ : Fin 140)) 0 ∗ semVal (cellAt cc (⟨50, Nat.le_of_ble_eq_true rfl⟩ : Fin 140)) 0 ∗ semVal (cellAt cc (⟨51, Nat.le_of_ble_eq_true rfl⟩ : Fin 140)) 0 ∗ semVal (cellAt cc (⟨52, Nat.le_of_ble_eq_true rfl⟩ : Fin 140)) 0 ∗ semVal (cellAt cc (⟨53, Nat.le_of_ble_eq_true rfl⟩ : Fin 140)) 0 ∗ semVal (cellAt cc (⟨54, Nat.le_of_ble_eq_true rfl⟩ : Fin 140)) 0 ∗ semVal (cellAt cc (⟨55, Nat.le_of_ble_eq_true rfl⟩ : Fin 140)) 0 ∗ semVal (cellAt cc (⟨56, Nat.le_of_ble_eq_true rfl⟩ : Fin 140)) 0 ∗ semVal (cellAt cc (⟨57, Nat.le_of_ble_eq_true rfl⟩ : Fin 140)) 0 ∗ semVal (cellAt cc (⟨58, Nat.le_of_ble_eq_true rfl⟩ : Fin 140)) 0 ∗ semVal (cellAt cc (⟨59, Nat.le_of_ble_eq_true rfl⟩ : Fin 140)) 0 ∗ semVal (cellAt cc (⟨60, Nat.le_of_ble_eq_true rfl⟩ : Fin 140)) 0 ∗ semVal (cellAt cc (⟨61, Nat.le_of_ble_eq_true rfl⟩ : Fin 140)) 0 ∗ semVal (cellAt cc (⟨62, Nat.le_of_ble_eq_true rfl⟩ : Fin 140)) 0 ∗ semVal (cellAt cc (⟨63, Nat.le_of_ble_eq_true rfl⟩ : Fin 140)) 0 ∗ semVal (cellAt cc (⟨64, Nat.le_of_ble_eq_true rfl⟩ : Fin 140)) 0 ∗ semVal (cellAt cc (⟨65, Nat.le_of_ble_eq_true rfl⟩ : Fin 140)) 0 ∗ semVal (cellAt cc (⟨66, Nat.le_of_ble_eq_true rfl⟩ : Fin 140)) 0 ∗ semVal (cellAt cc (⟨67, Nat.le_of_ble_eq_true rfl⟩ : Fin 140)) 0 ∗ semVal (cellAt cc (⟨68, Nat.le_of_ble_eq_true rfl⟩ : Fin 140)) 0 ∗ semVal (cellAt cc (⟨69, Nat.le_of_ble_eq_true rfl⟩ : Fin 140)) 0 ∗ semVal (cellAt cc (⟨70, Nat.le_of_ble_eq_true rfl⟩ : Fin 140)) 0 ∗ semVal (cellAt cc (⟨71, Nat.le_of_ble_eq_true rfl⟩ : Fin 140)) 0 ∗ semVal (cellAt cc (⟨72, Nat.le_of_ble_eq_true rfl⟩ : Fin 140)) 0 ∗ semVal (cellAt cc (⟨73, Nat.le_of_ble_eq_true rfl⟩ : Fin 140)) 0 ∗ semVal (cellAt cc (⟨74, Nat.le_of_ble_eq_true rfl⟩ : Fin 140)) 0 ∗ semVal (cellAt cc (⟨75, Nat.le_of_ble_eq_true rfl⟩ : Fin 140)) 0 ∗ semVal (cellAt cc (⟨76, Nat.le_of_ble_eq_true rfl⟩ : Fin 140)) 0 ∗ semVal (cellAt cc (⟨77, Nat.le_of_ble_eq_true rfl⟩ : Fin 140)) 0 ∗ semVal (cellAt cc (⟨78, Nat.le_of_ble_eq_true rfl⟩ : Fin 140)) 0 ∗ semVal (cellAt cc (⟨79, Nat.le_of_ble_eq_true rfl⟩ : Fin 140)) 0 ∗ semVal (cellAt cc (⟨80, Nat.le_of_ble_eq_true rfl⟩ : Fin 140)) 0 ∗ semVal (cellAt cc (⟨81, Nat.le_of_ble_eq_true rfl⟩ : Fin 140)) 0 ∗ semVal (cellAt cc (⟨82, Nat.le_of_ble_eq_true rfl⟩ : Fin 140)) 0 ∗ semVal (cellAt cc (⟨83, Nat.le_of_ble_eq_true rfl⟩ : Fin 140)) 0 ∗ semVal (cellAt cc (⟨84, Nat.le_of_ble_eq_true rfl⟩ : Fin 140)) 0 ∗ semVal (cellAt cc (⟨85, Nat.le_of_ble_eq_true rfl⟩ : Fin 140)) 0 ∗ semVal (cellAt cc (⟨86, Nat.le_of_ble_eq_true rfl⟩ : Fin 140)) 0 ∗ semVal (cellAt cc (⟨87, Nat.le_of_ble_eq_true rfl⟩ : Fin 140)) 0 ∗ semVal (cellAt cc (⟨88, Nat.le_of_ble_eq_true rfl⟩ : Fin 140)) 0 ∗ semVal (cellAt cc (⟨89, Nat.le_of_ble_eq_true rfl⟩ : Fin 140)) 0 ∗ semVal (cellAt cc (⟨90, Nat.le_of_ble_eq_true rfl⟩ : Fin 140)) 0 ∗ semVal (cellAt cc (⟨91, Nat.le_of_ble_eq_true rfl⟩ : Fin 140)) 0 ∗ semVal (cellAt cc (⟨92, Nat.le_of_ble_eq_true rfl⟩ : Fin 140)) 0 ∗ semVal (cellAt cc (⟨93, Nat.le_of_ble_eq_true rfl⟩ : Fin 140)) 0 ∗ semVal (cellAt cc (⟨94, Nat.le_of_ble_eq_true rfl⟩ : Fin 140)) 0 ∗ semVal (cellAt cc (⟨95, Nat.le_of_ble_eq_true rfl⟩ : Fin 140)) 0 ∗ semVal (cellAt cc (⟨96, Nat.le_of_ble_eq_true rfl⟩ : Fin 140)) 0 ∗ semVal (cellAt cc (⟨97, Nat.le_of_ble_eq_true rfl⟩ : Fin 140)) 0 ∗ semVal (cellAt cc (⟨98, Nat.le_of_ble_eq_true rfl⟩ : Fin 140)) 0 ∗ semVal (cellAt cc (⟨99, Nat.le_of_ble_eq_true rfl⟩ : Fin 140)) 0 ∗ semVal (cellAt cc (⟨100, Nat.le_of_ble_eq_true rfl⟩ : Fin 140)) 0 ∗ semVal (cellAt cc (⟨101, Nat.le_of_ble_eq_true rfl⟩ : Fin 140)) 0 ∗ semVal (cellAt cc (⟨102, Nat.le_of_ble_eq_true rfl⟩ : Fin 140)) 0 ∗ semVal (cellAt cc (⟨103, Nat.le_of_ble_eq_true rfl⟩ : Fin 140)) 0 ∗ semVal (cellAt cc (⟨104, Nat.le_of_ble_eq_true rfl⟩ : Fin 140)) 0 ∗ semVal (cellAt cc (⟨105, Nat.le_of_ble_eq_true rfl⟩ : Fin 140)) 0 ∗ semVal (cellAt cc (⟨106, Nat.le_of_ble_eq_true rfl⟩ : Fin 140)) 0 ∗ semVal (cellAt cc (⟨107, Nat.le_of_ble_eq_true rfl⟩ : Fin 140)) 0 ∗ semVal (cellAt cc (⟨108, Nat.le_of_ble_eq_true rfl⟩ : Fin 140)) 0 ∗ semVal (cellAt cc (⟨109, Nat.le_of_ble_eq_true rfl⟩ : Fin 140)) 0 ∗ semVal (cellAt cc (⟨110, Nat.le_of_ble_eq_true rfl⟩ : Fin 140)) 0 ∗ semVal (cellAt cc (⟨111, Nat.le_of_ble_eq_true rfl⟩ : Fin 140)) 0 ∗ semVal (cellAt cc (⟨112, Nat.le_of_ble_eq_true rfl⟩ : Fin 140)) 0 ∗ semVal (cellAt cc (⟨113, Nat.le_of_ble_eq_true rfl⟩ : Fin 140)) 0 ∗ semVal (cellAt cc (⟨114, Nat.le_of_ble_eq_true rfl⟩ : Fin 140)) 0 ∗ semVal (cellAt cc (⟨115, Nat.le_of_ble_eq_true rfl⟩ : Fin 140)) 0 ∗ semVal (cellAt cc (⟨116, Nat.le_of_ble_eq_true rfl⟩ : Fin 140)) 0 ∗ semVal (cellAt cc (⟨117, Nat.le_of_ble_eq_true rfl⟩ : Fin 140)) 0 ∗ semVal (cellAt cc (⟨118, Nat.le_of_ble_eq_true rfl⟩ : Fin 140)) 0 ∗ semVal (cellAt cc (⟨119, Nat.le_of_ble_eq_true rfl⟩ : Fin 140)) 0 ∗ semVal (cellAt cc (⟨120, Nat.le_of_ble_eq_true rfl⟩ : Fin 140)) 0 ∗ semVal (cellAt cc (⟨121, Nat.le_of_ble_eq_true rfl⟩ : Fin 140)) 0 ∗ semVal (cellAt cc (⟨122, Nat.le_of_ble_eq_true rfl⟩ : Fin 140)) 0 ∗ semVal (cellAt cc (⟨123, Nat.le_of_ble_eq_true rfl⟩ : Fin 140)) 0 ∗ semVal (cellAt cc (⟨124, Nat.le_of_ble_eq_true rfl⟩ : Fin 140)) 0 ∗ semVal (cellAt cc (⟨125, Nat.le_of_ble_eq_true rfl⟩ : Fin 140)) 0 ∗ semVal (cellAt cc (⟨126, Nat.le_of_ble_eq_true rfl⟩ : Fin 140)) 0 ∗ semVal (cellAt cc (⟨127, Nat.le_of_ble_eq_true rfl⟩ : Fin 140)) 0 ∗ semVal (cellAt cc (⟨128, Nat.le_of_ble_eq_true rfl⟩ : Fin 140)) 0 ∗ semVal (cellAt cc (⟨129, Nat.le_of_ble_eq_true rfl⟩ : Fin 140)) 0 ∗ semVal (cellAt cc (⟨130, Nat.le_of_ble_eq_true rfl⟩ : Fin 140)) 0 ∗ semVal (cellAt cc (⟨131, Nat.le_of_ble_eq_true rfl⟩ : Fin 140)) 0 ∗ semVal (cellAt cc (⟨132, Nat.le_of_ble_eq_true rfl⟩ : Fin 140)) 0 ∗ semVal (cellAt cc (⟨133, Nat.le_of_ble_eq_true rfl⟩ : Fin 140)) 0 ∗ semVal (cellAt cc (⟨134, Nat.le_of_ble_eq_true rfl⟩ : Fin 140)) 0 ∗ semVal (cellAt cc (⟨135, Nat.le_of_ble_eq_true rfl⟩ : Fin 140)) 0 ∗ semVal (cellAt cc (⟨136, Nat.le_of_ble_eq_true rfl⟩ : Fin 140)) 0 ∗ semVal (cellAt cc (⟨137, Nat.le_of_ble_eq_true rfl⟩ : Fin 140)) 0 ∗ semVal (cellAt cc (⟨138, Nat.le_of_ble_eq_true rfl⟩ : Fin 140)) 0 ∗ semVal (cellAt cc (⟨139, Nat.le_of_ble_eq_true rfl⟩ : Fin 140)) 0) : sProp 𝕄) = (bigSepL allJ fun j => semVal (cellAt cc j) 0) from rfl))
    isplitl [Hv0]
    · iexact Hv0
    isplitl [Hv1]
    · iexact Hv1
    isplitl [Hv2]
    · iexact Hv2
    isplitl [Hv3]
    · iexact Hv3
    isplitl [Hv4]
    · iexact Hv4
    isplitl [Hv5]
    · iexact Hv5
    isplitl [Hv6]
    · iexact Hv6
    isplitl [Hv7]
    · iexact Hv7
    isplitl [Hv8]
    · iexact Hv8
    isplitl [Hv9]
    · iexact Hv9
    isplitl [Hv10]
    · iexact Hv10
    isplitl [Hv11]
    · iexact Hv11
    isplitl [Hv12]
    · iexact Hv12
    isplitl [Hv13]
    · iexact Hv13
    isplitl [Hv14]
    · iexact Hv14
    isplitl [Hv15]
    · iexact Hv15
    isplitl [Hv16]
    · iexact Hv16
    isplitl [Hv17]
    · iexact Hv17
    isplitl [Hv18]
    · iexact Hv18
    isplitl [Hv19]
    · iexact Hv19
    isplitl [Hv20]
    · iexact Hv20
    isplitl [Hv21]
    · iexact Hv21
    isplitl [Hv22]
    · iexact Hv22
    isplitl [Hv23]
    · iexact Hv23
    isplitl [Hv24]
    · iexact Hv24
    isplitl [Hv25]
    · iexact Hv25
    isplitl [Hv26]
    · iexact Hv26
    isplitl [Hv27]
    · iexact Hv27
    isplitl [Hv28]
    · iexact Hv28
    isplitl [Hv29]
    · iexact Hv29
    isplitl [Hv30]
    · iexact Hv30
    isplitl [Hv31]
    · iexact Hv31
    isplitl [Hv32]
    · iexact Hv32
    isplitl [Hv33]
    · iexact Hv33
    isplitl [Hv34]
    · iexact Hv34
    isplitl [Hv35]
    · iexact Hv35
    isplitl [Hv36]
    · iexact Hv36
    isplitl [Hv37]
    · iexact Hv37
    isplitl [Hv38]
    · iexact Hv38
    isplitl [Hv39]
    · iexact Hv39
    isplitl [Hv40]
    · iexact Hv40
    isplitl [Hv41]
    · iexact Hv41
    isplitl [Hv42]
    · iexact Hv42
    isplitl [Hv43]
    · iexact Hv43
    isplitl [Hv44]
    · iexact Hv44
    isplitl [Hv45]
    · iexact Hv45
    isplitl [Hv46]
    · iexact Hv46
    isplitl [Hv47]
    · iexact Hv47
    isplitl [Hv48]
    · iexact Hv48
    isplitl [Hv49]
    · iexact Hv49
    isplitl [Hv50]
    · iexact Hv50
    isplitl [Hv51]
    · iexact Hv51
    isplitl [Hv52]
    · iexact Hv52
    isplitl [Hv53]
    · iexact Hv53
    isplitl [Hv54]
    · iexact Hv54
    isplitl [Hv55]
    · iexact Hv55
    isplitl [Hv56]
    · iexact Hv56
    isplitl [Hv57]
    · iexact Hv57
    isplitl [Hv58]
    · iexact Hv58
    isplitl [Hv59]
    · iexact Hv59
    isplitl [Hv60]
    · iexact Hv60
    isplitl [Hv61]
    · iexact Hv61
    isplitl [Hv62]
    · iexact Hv62
    isplitl [Hv63]
    · iexact Hv63
    isplitl [Hv64]
    · iexact Hv64
    isplitl [Hv65]
    · iexact Hv65
    isplitl [Hv66]
    · iexact Hv66
    isplitl [Hv67]
    · iexact Hv67
    isplitl [Hv68]
    · iexact Hv68
    isplitl [Hv69]
    · iexact Hv69
    isplitl [Hv70]
    · iexact Hv70
    isplitl [Hv71]
    · iexact Hv71
    isplitl [Hv72]
    · iexact Hv72
    isplitl [Hv73]
    · iexact Hv73
    isplitl [Hv74]
    · iexact Hv74
    isplitl [Hv75]
    · iexact Hv75
    isplitl [Hu76]
    · iexact Hu76
    isplitl [Hu77]
    · iexact Hu77
    isplitl [Hu78]
    · iexact Hu78
    isplitl [Hv79]
    · iexact Hv79
    isplitl [Hv80]
    · iexact Hv80
    isplitl [Hv81]
    · iexact Hv81
    isplitl [Hv82]
    · iexact Hv82
    isplitl [Hv83]
    · iexact Hv83
    isplitl [Hu84]
    · iexact Hu84
    isplitl [Hu85]
    · iexact Hu85
    isplitl [Hu86]
    · iexact Hu86
    isplitl [Hv87]
    · iexact Hv87
    isplitl [Hv88]
    · iexact Hv88
    isplitl [Hv89]
    · iexact Hv89
    isplitl [Hv90]
    · iexact Hv90
    isplitl [Hv91]
    · iexact Hv91
    isplitl [Hu92]
    · iexact Hu92
    isplitl [Hu93]
    · iexact Hu93
    isplitl [Hu94]
    · iexact Hu94
    isplitl [Hv95]
    · iexact Hv95
    isplitl [Hv96]
    · iexact Hv96
    isplitl [Hv97]
    · iexact Hv97
    isplitl [Hv98]
    · iexact Hv98
    isplitl [Hv99]
    · iexact Hv99
    isplitl [Hu100]
    · iexact Hu100
    isplitl [Hu101]
    · iexact Hu101
    isplitl [Hu102]
    · iexact Hu102
    isplitl [Hv103]
    · iexact Hv103
    isplitl [Hv104]
    · iexact Hv104
    isplitl [Hv105]
    · iexact Hv105
    isplitl [Hv106]
    · iexact Hv106
    isplitl [Hv107]
    · iexact Hv107
    isplitl [Hw0a]
    · iexact Hw0a
    isplitl [Hw0b]
    · iexact Hw0b
    isplitl [Hw0c]
    · iexact Hw0c
    isplitl [Hw0d]
    · iexact Hw0d
    isplitl [Hw1a]
    · iexact Hw1a
    isplitl [Hw1b]
    · iexact Hw1b
    isplitl [Hw1c]
    · iexact Hw1c
    isplitl [Hw1d]
    · iexact Hw1d
    isplitl [Hw2a]
    · iexact Hw2a
    isplitl [Hw2b]
    · iexact Hw2b
    isplitl [Hw2c]
    · iexact Hw2c
    isplitl [Hw2d]
    · iexact Hw2d
    isplitl [Hw3a]
    · iexact Hw3a
    isplitl [Hw3b]
    · iexact Hw3b
    isplitl [Hw3c]
    · iexact Hw3c
    isplitl [Hw3d]
    · iexact Hw3d
    isplitl [Hw4a]
    · iexact Hw4a
    isplitl [Hw4b]
    · iexact Hw4b
    isplitl [Hw4c]
    · iexact Hw4c
    isplitl [Hw4d]
    · iexact Hw4d
    isplitl [Hw5a]
    · iexact Hw5a
    isplitl [Hw5b]
    · iexact Hw5b
    isplitl [Hw5c]
    · iexact Hw5c
    isplitl [Hw5d]
    · iexact Hw5d
    isplitl [Hw6a]
    · iexact Hw6a
    isplitl [Hw6b]
    · iexact Hw6b
    isplitl [Hw6c]
    · iexact Hw6c
    isplitl [Hw6d]
    · iexact Hw6d
    isplitl [Hw7a]
    · iexact Hw7a
    isplitl [Hw7b]
    · iexact Hw7b
    isplitl [Hw7c]
    · iexact Hw7c
    iexact Hw7d
  iexists _; iexact HO

end Cert.KernelIdeal.RS.D4

end
-- ==== Proof.Body5.lean ====
import proofs.«901022_g7700000000001023_dist_rs_v7x_xyz2x2x2_x_m4096_n1024_bf16_1_alg».proof.Proof.BodyAux
import proofs.«901022_g7700000000001023_dist_rs_v7x_xyz2x2x2_x_m4096_n1024_bf16_1_alg».proof.Proof.BodyPre
import proofs.«901022_g7700000000001023_dist_rs_v7x_xyz2x2x2_x_m4096_n1024_bf16_1_alg».proof.Proof.OutRules

/-! The body of the kernel on device 5 of the mesh, from its precondition (BodyPre) to its postcondition (bodyPost).

    The program is straight-line code of 4045 statements. Its local steps — the 54 copies between the input, the staging
    buffers, the four-quarter buffer and the result, their waits, the loads and the stores — are run by the library's symbolic
    executor on hypotheses that hold each 512-row chunk through the slice the program itself names. Its remote steps are
    taken by the rounds library's rules, one application each: three barrier signals and the wait for the three
    neighbours; 37 copies to a neighbour, each lending the source chunk (at a share, where the chunk is also read by another
    copy) and landing the chunk's final contents; the waits on the 37 receive cells, which hand back the landed chunks; the
    final waits on the 37 send cells, which hand back what was lent. Whenever a chunk has been written (by a landing copy or
    by a store) it is restated as "holds its final contents" (Spec), which is what the next copy's payload asks for.
    A wait is allowed because whatever the device still owes at that point lies above the awaited cell (Owed): decided on the
    list of payments not yet made. At the end every cell has had its one round and is closed, and the pieces of every
    buffer are put back. -/

set_option maxRecDepth 8000

noncomputable section

namespace Cert.KernelIdeal.RS.D5

open Cert.KernelIdeal Cert.KernelIdeal.Gen Cert.KernelIdeal.RS
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local notation "cc" => (Fin.mk 5 (Nat.le_of_ble_eq_true rfl) : Dev nD)

set_option maxHeartbeats 1600000 in
theorem dev (m : (ℓ : Loc nD τ sig) → Buf (Elt F) ℓ) (K : GSem nD τ sig → ℕ) (W : Waits sig Unit) (Kt : PUnit → sProp 𝕄) :
    iprop(bodyPre m K cc W ∗ (bodyPost m cc -∗ Kt ⟨⟩))
      ⊢ wp frame (wpE (defs₀ (F := F)) 𝒱₀ (cc : Thread nD τ) none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25) Kt := by
  unfold bodyPre O₀
  iintro ⟨⟨HIt, HIw, HRt, #Hlev, HO, Hcr, HpR, HpS, Htk, HX, Hout, HS0, HS1, HS2, HS3, HS4, HS5, HS6, HS7, HS8, HvI, HvO, HvU⟩, Hk⟩
  rw [cc0_body_eq_skeleton]; unfold cc0_body_skel
  -- the four-quarter buffer in the pieces that travel
  ihave H0 := (Entails.of_eq (junk_whole (F := F) cc cc0_scratch0)) $$ HS0
  icases H0 with ⟨%f0, H0⟩
  ihave H4 := (r4_entry (F := F) cc f0) $$ H0
  icases H4 with ⟨Hown, HgZ, HgY, Hdg, HhZ, HhY⟩
  sl_exec

  icases Htk with ⟨Htb, Htk⟩
  icases HIt with ⟨#HIbpx, HIt⟩
  icases HRt with ⟨#HRbpx, HRt⟩
  iapply (sig_bar m cc _ (px cc) (dev1_eq cc) 0 (by decide) (owedL (List.drop 1 (paysL cc))) rfl) $$ [HO Htb HS2 HS4]
  · isplitr; · iexact HIbpx
    isplitl [HO]; · iexact HO
    isplitl [Htb]; · iexact Htb
    isplitl [HS2 HS4]
    · iapply (Entails.of_eq ((barPay_zero (F := F) (px cc)).trans (by rw [px_px])).symm)
      unfold giveX
      isplitl [HS2]; · iexact HS2
      iexact HS4
    · iexact HRbpx
  iintro HO
  sl_exec

  icases Htk with ⟨Htb, Htk⟩
  icases HIt with ⟨#HIbpz, HIt⟩
  icases HRt with ⟨#HRbpz, HRt⟩
  iapply (sig_bar m cc _ (pz cc) (dev2_eq cc) 2 (by decide) (owedL (List.drop 2 (paysL cc))) rfl) $$ [HO Htb HgZ HhZ]
  · isplitr; · iexact HIbpz
    isplitl [HO]; · iexact HO
    isplitl [Htb]; · iexact Htb
    isplitl [HgZ HhZ]
    · iapply (Entails.of_eq ((barPay_two (F := F) (pz cc)).trans (by rw [pz_pz])).symm)
      isplitl [HgZ]; · iexact HgZ
      iexact HhZ
    · iexact HRbpz
  iintro HO
  sl_exec

  icases Htk with ⟨Htb, Htk⟩
  icases HIt with ⟨#HIbpy, HIt⟩
  icases HRt with ⟨#HRbpy, HRt⟩
  iapply (sig_bar m cc _ (py cc) (dev3_eq cc) 1 (by decide) (owedL (List.drop 3 (paysL cc))) rfl) $$ [HO Htb HgY HhY]
  · isplitr; · iexact HIbpy
    isplitl [HO]; · iexact HO
    isplitl [Htb]; · iexact Htb
    isplitl [HgY HhY]
    · iapply (Entails.of_eq ((barPay_one (F := F) (py cc)).trans (by rw [py_py])).symm)
      isplitl [HgY]; · iexact HgY
      iexact HhY
    · iexact HRbpy
  iintro HO
  sl_exec
  -- the wait for the three neighbours
  icases Hcr with ⟨Hcb, Hcr⟩
  icases HpR with ⟨Hpb, HpR⟩
  icases HIw with ⟨#HIb, HIw⟩
  ihave Hmw := (mayWait_list (F := F) cc (.reg barS) (List.drop 3 (paysL cc)) (by decide)) $$ Hlev
  iapply (wait_bar m cc (by decide)) $$ [Hcb HO Hmw Hpb]
  · isplitr; · iexact HIb
    isplitl [Hcb]; · iexact Hcb
    isplitl [HO]; · iexact HO
    isplitl [Hmw]; · iexact Hmw
    iexact Hpb
  iintro ⟨HO, Hpb, -, Hgx, Hgy, Hgz⟩
  -- what they handed over: the x-neighbour's landing buffers chunk by chunk, the y- and z-neighbours' quarter and halves
  ihave Hgx := (Entails.of_eq (barPay_zero (F := F) cc)) $$ Hgx
  ihave Hgx := (giveX_rows (F := F) (px cc)) $$ Hgx
  icases Hgx with ⟨Hrbp, Hrb2p⟩
  ihave Hgy := (Entails.of_eq (barPay_one (F := F) cc)) $$ Hgy
  icases Hgy with ⟨HqY, HhYp⟩
  ihave Hgz := (Entails.of_eq (barPay_two (F := F) cc)) $$ Hgz
  icases Hgz with ⟨HqZ, HhZp⟩
  -- this device's staging buffers and send buffers chunk by chunk
  ihave H5 := (Entails.of_eq (junk_whole (F := F) cc cc0_scratch5)) $$ HS5
  icases H5 with ⟨%f5, H5⟩
  ihave H5 := (Entails.of_eq (stP_rows (F := F) cc fullShare f5)) $$ H5
  icases H5 with ⟨HP0, HP1, HP2, HP3, HP4, HP5, HP6, HP7⟩
  ihave H6 := (Entails.of_eq (junk_whole (F := F) cc cc0_scratch6)) $$ HS6
  icases H6 with ⟨%f6, H6⟩
  ihave H6 := (Entails.of_eq (stL_rows (F := F) cc fullShare f6)) $$ H6
  icases H6 with ⟨HL0, HL1, HL2, HL3, HL4, HL5, HL6, HL7⟩
  ihave H7 := (Entails.of_eq (junk_whole (F := F) cc cc0_scratch7)) $$ HS7
  icases H7 with ⟨%f7, H7⟩
  ihave H7 := (Entails.of_eq (stP2_rows (F := F) cc fullShare f7)) $$ H7
  icases H7 with ⟨HP20, HP21, HP22⟩
  ihave H8 := (Entails.of_eq (junk_whole (F := F) cc cc0_scratch8)) $$ HS8
  icases H8 with ⟨%f8, H8⟩
  ihave H8 := (Entails.of_eq (stL2_rows (F := F) cc fullShare f8)) $$ H8
  icases H8 with ⟨HL20, HL21, HL22⟩
  ihave H1 := (Entails.of_eq (junk_whole (F := F) cc cc0_scratch1)) $$ HS1
  icases H1 with ⟨%f1, H1⟩
  ihave H1 := (Entails.of_eq (sb_rows (F := F) cc fullShare f1)) $$ H1
  icases H1 with ⟨HB0, HB1, HB2, HB3, HB4, HB5, HB6, HB7⟩
  ihave H3 := (Entails.of_eq (junk_whole (F := F) cc cc0_scratch3)) $$ HS3
  icases H3 with ⟨%f3, H3⟩
  ihave H3 := (Entails.of_eq (sb2_rows (F := F) cc fullShare f3)) $$ H3
  icases H3 with ⟨HB20, HB21, HB22⟩
  -- the counters of the 22 copies into the staging buffers
  icases HvI with ⟨Hv0, Hv8, Hv1, Hv9, Hv2, Hv10, Hv3, Hv11, Hv4, Hv12, Hv5, Hv13, Hv6, Hv14, Hv7, Hv15, Hv16, Hv19, Hv17, Hv20, Hv18, Hv21⟩
  sl_exec
  -- chunk 0 across x: wait for its copy into the staging buffer, round it into the send buffer, send it
  have hled3 : ∀ (s : DmaSem sig), lvJ s.val = 0 → ((levAts LL lvv : sProp 𝕄) ⊢ MayWait (cc : Thread nD τ) (.dma s) () (owedL (List.drop 3 (paysL cc)))) :=
    fun s hs => mayWait_local (F := F) cc s hs _ (by decide)
  sl_exec
  clear hled3
  ihave HB0 := (congr (F := F) (sbR 0) cc fullShare (dev.sl.HB0_w1 m f1) (sb m cc) (fun i hi => glue_sb m cc 0 _ (k0_off1_inb cc) (k0_off1_eq cc) f1 i hi)) $$ HB0
  -- the copy
  icases Htk with ⟨Hts, Htr, Htk⟩
  icases HIt with ⟨#HIc22, #HIr, HIt⟩
  icases HRt with ⟨#HRs, #HRr, HRt⟩
  icases Hrbp with ⟨⟨%fd, Hd⟩, Hrbp⟩
  iapply (send_x m cc _ (dev4_eq cc) 0 fd (owedL (List.drop 4 (paysL cc))) rfl _) $$ [HB0 Hd HO Hts Htr]
  · isplitr; · iexact HIc22
    isplitr; · iexact HIr
    isplitl [HB0]; · iexact HB0
    isplitl [Hd]; · iexact Hd
    isplitl [HO]; · iexact HO
    isplitl [Hts]; · iexact Hts
    isplitr; · iexact HRs
    isplitl [Htr]; · iexact Htr
    iexact HRr
  iintro ⟨Hcxs0, HO⟩
  iclear HIr HRs HRr
  -- chunk 1 across x: wait for its copy into the staging buffer, round it into the send buffer, send it
  have hled4 : ∀ (s : DmaSem sig), lvJ s.val = 0 → ((levAts LL lvv : sProp 𝕄) ⊢ MayWait (cc : Thread nD τ) (.dma s) () (owedL (List.drop 4 (paysL cc)))) :=
    fun s hs => mayWait_local (F := F) cc s hs _ (by decide)
  sl_exec
  clear hled4
  ihave HB1 := (congr (F := F) (sbR 1) cc fullShare (dev.sl.HB1_w1 m f1) (sb m cc) (fun i hi => glue_sb m cc 1 _ (k0_off3_inb cc) (k0_off3_eq cc) f1 i hi)) $$ HB1
  -- the copy
  icases Htk with ⟨Hts, Htr, Htk⟩
  icases HIt with ⟨#HIc23, #HIr, HIt⟩
  icases HRt with ⟨#HRs, #HRr, HRt⟩
  icases Hrbp with ⟨⟨%fd, Hd⟩, Hrbp⟩
  iapply (send_x m cc _ (dev5_eq cc) 1 fd (owedL (List.drop 5 (paysL cc))) rfl _) $$ [HB1 Hd HO Hts Htr]
  · isplitr; · iexact HIc23
    isplitr; · iexact HIr
    isplitl [HB1]; · iexact HB1
    isplitl [Hd]; · iexact Hd
    isplitl [HO]; · iexact HO
    isplitl [Hts]; · iexact Hts
    isplitr; · iexact HRs
    isplitl [Htr]; · iexact Htr
    iexact HRr
  iintro ⟨Hcxs1, HO⟩
  iclear HIr HRs HRr
  -- chunk 2 across x: wait for its copy into the staging buffer, round it into the send buffer, send it
  have hled5 : ∀ (s : DmaSem sig), lvJ s.val = 0 → ((levAts LL lvv : sProp 𝕄) ⊢ MayWait (cc : Thread nD τ) (.dma s) () (owedL (List.drop 5 (paysL cc)))) :=
    fun s hs => mayWait_local (F := F) cc s hs _ (by decide)
  sl_exec
  clear hled5
  ihave HB2 := (congr (F := F) (sbR 2) cc fullShare (dev.sl.HB2_w1 m f1) (sb m cc) (fun i hi => glue_sb m cc 2 _ (k0_off5_inb cc) (k0_off5_eq cc) f1 i hi)) $$ HB2
  -- the copy
  icases Htk with ⟨Hts, Htr, Htk⟩
  icases HIt with ⟨#HIc24, #HIr, HIt⟩
  icases HRt with ⟨#HRs, #HRr, HRt⟩
  icases Hrbp with ⟨⟨%fd, Hd⟩, Hrbp⟩
  iapply (send_x m cc _ (dev6_eq cc) 2 fd (owedL (List.drop 6 (paysL cc))) rfl _) $$ [HB2 Hd HO Hts Htr]
  · isplitr; · iexact HIc24
    isplitr; · iexact HIr
    isplitl [HB2]; · iexact HB2
    isplitl [Hd]; · iexact Hd
    isplitl [HO]; · iexact HO
    isplitl [Hts]; · iexact Hts
    isplitr; · iexact HRs
    isplitl [Htr]; · iexact Htr
    iexact HRr
  iintro ⟨Hcxs2, HO⟩
  iclear HIr HRs HRr
  -- chunk 3 across x: wait for its copy into the staging buffer, round it into the send buffer, send it
  have hled6 : ∀ (s : DmaSem sig), lvJ s.val = 0 → ((levAts LL lvv : sProp 𝕄) ⊢ MayWait (cc : Thread nD τ) (.dma s) () (owedL (List.drop 6 (paysL cc)))) :=
    fun s hs => mayWait_local (F := F) cc s hs _ (by decide)
  sl_exec
  clear hled6
  ihave HB3 := (congr (F := F) (sbR 3) cc fullShare (dev.sl.HB3_w1 m f1) (sb m cc) (fun i hi => glue_sb m cc 3 _ (k0_off7_inb cc) (k0_off7_eq cc) f1 i hi)) $$ HB3
  -- the copy
  icases Htk with ⟨Hts, Htr, Htk⟩
  icases HIt with ⟨#HIc25, #HIr, HIt⟩
  icases HRt with ⟨#HRs, #HRr, HRt⟩
  icases Hrbp with ⟨⟨%fd, Hd⟩, Hrbp⟩
  iapply (send_x m cc _ (dev7_eq cc) 3 fd (owedL (List.drop 7 (paysL cc))) rfl _) $$ [HB3 Hd HO Hts Htr]
  · isplitr; · iexact HIc25
    isplitr; · iexact HIr
    isplitl [HB3]; · iexact HB3
    isplitl [Hd]; · iexact Hd
    isplitl [HO]; · iexact HO
    isplitl [Hts]; · iexact Hts
    isplitr; · iexact HRs
    isplitl [Htr]; · iexact Htr
    iexact HRr
  iintro ⟨Hcxs3, HO⟩
  iclear HIr HRs HRr
  -- chunk 4 across x: wait for its copy into the staging buffer, round it into the send buffer, send it
  have hled7 : ∀ (s : DmaSem sig), lvJ s.val = 0 → ((levAts LL lvv : sProp 𝕄) ⊢ MayWait (cc : Thread nD τ) (.dma s) () (owedL (List.drop 7 (paysL cc)))) :=
    fun s hs => mayWait_local (F := F) cc s hs _ (by decide)
  sl_exec
  clear hled7
  ihave HB4 := (congr (F := F) (sbR 4) cc fullShare (dev.sl.HB4_w1 m f1) (sb m cc) (fun i hi => glue_sb m cc 4 _ (k0_off9_inb cc) (k0_off9_eq cc) f1 i hi)) $$ HB4
  -- the copy
  icases Htk with ⟨Hts, Htr, Htk⟩
  icases HIt with ⟨#HIc26, #HIr, HIt⟩
  icases HRt with ⟨#HRs, #HRr, HRt⟩
  icases Hrbp with ⟨⟨%fd, Hd⟩, Hrbp⟩
  iapply (send_x m cc _ (dev8_eq cc) 4 fd (owedL (List.drop 8 (paysL cc))) rfl _) $$ [HB4 Hd HO Hts Htr]
  · isplitr; · iexact HIc26
    isplitr; · iexact HIr
    isplitl [HB4]; · iexact HB4
    isplitl [Hd]; · iexact Hd
    isplitl [HO]; · iexact HO
    isplitl [Hts]; · iexact Hts
    isplitr; · iexact HRs
    isplitl [Htr]; · iexact Htr
    iexact HRr
  iintro ⟨Hcxs4, HO⟩
  iclear HIr HRs HRr
  -- chunk 5 across x: wait for its copy into the staging buffer, round it into the send buffer, send it
  have hled8 : ∀ (s : DmaSem sig), lvJ s.val = 0 → ((levAts LL lvv : sProp 𝕄) ⊢ MayWait (cc : Thread nD τ) (.dma s) () (owedL (List.drop 8 (paysL cc)))) :=
    fun s hs => mayWait_local (F := F) cc s hs _ (by decide)
  sl_exec
  clear hled8
  ihave HB5 := (congr (F := F) (sbR 5) cc fullShare (dev.sl.HB5_w1 m f1) (sb m cc) (fun i hi => glue_sb m cc 5 _ (k0_off11_inb cc) (k0_off11_eq cc) f1 i hi)) $$ HB5
  -- the copy
  icases Htk with ⟨Hts, Htr, Htk⟩
  icases HIt with ⟨#HIc27, #HIr, HIt⟩
  icases HRt with ⟨#HRs, #HRr, HRt⟩
  icases Hrbp with ⟨⟨%fd, Hd⟩, Hrbp⟩
  iapply (send_x m cc _ (dev9_eq cc) 5 fd (owedL (List.drop 9 (paysL cc))) rfl _) $$ [HB5 Hd HO Hts Htr]
  · isplitr; · iexact HIc27
    isplitr; · iexact HIr
    isplitl [HB5]; · iexact HB5
    isplitl [Hd]; · iexact Hd
    isplitl [HO]; · iexact HO
    isplitl [Hts]; · iexact Hts
    isplitr; · iexact HRs
    isplitl [Htr]; · iexact Htr
    iexact HRr
  iintro ⟨Hcxs5, HO⟩
  iclear HIr HRs HRr
  -- chunk 6 across x: wait for its copy into the staging buffer, round it into the send buffer, send it
  have hled9 : ∀ (s : DmaSem sig), lvJ s.val = 0 → ((levAts LL lvv : sProp 𝕄) ⊢ MayWait (cc : Thread nD τ) (.dma s) () (owedL (List.drop 9 (paysL cc)))) :=
    fun s hs => mayWait_local (F := F) cc s hs _ (by decide)
  sl_exec
  clear hled9
  ihave HB6 := (congr (F := F) (sbR 6) cc fullShare (dev.sl.HB6_w1 m f1) (sb m cc) (fun i hi => glue_sb m cc 6 _ (k0_off13_inb cc) (k0_off13_eq cc) f1 i hi)) $$ HB6
  -- the copy
  icases Htk with ⟨Hts, Htr, Htk⟩
  icases HIt with ⟨#HIc28, #HIr, HIt⟩
  icases HRt with ⟨#HRs, #HRr, HRt⟩
  icases Hrbp with ⟨⟨%fd, Hd⟩, Hrbp⟩
  iapply (send_x m cc _ (dev10_eq cc) 6 fd (owedL (List.drop 10 (paysL cc))) rfl _) $$ [HB6 Hd HO Hts Htr]
  · isplitr; · iexact HIc28
    isplitr; · iexact HIr
    isplitl [HB6]; · iexact HB6
    isplitl [Hd]; · iexact Hd
    isplitl [HO]; · iexact HO
    isplitl [Hts]; · iexact Hts
    isplitr; · iexact HRs
    isplitl [Htr]; · iexact Htr
    iexact HRr
  iintro ⟨Hcxs6, HO⟩
  iclear HIr HRs HRr
  -- chunk 7 across x: wait for its copy into the staging buffer, round it into the send buffer, send it
  have hled10 : ∀ (s : DmaSem sig), lvJ s.val = 0 → ((levAts LL lvv : sProp 𝕄) ⊢ MayWait (cc : Thread nD τ) (.dma s) () (owedL (List.drop 10 (paysL cc)))) :=
    fun s hs => mayWait_local (F := F) cc s hs _ (by decide)
  sl_exec
  clear hled10
  ihave HB7 := (congr (F := F) (sbR 7) cc fullShare (dev.sl.HB7_w1 m f1) (sb m cc) (fun i hi => glue_sb m cc 7 _ (k0_off15_inb cc) (k0_off15_eq cc) f1 i hi)) $$ HB7
  -- the copy
  icases Htk with ⟨Hts, Htr, Htk⟩
  icases HIt with ⟨#HIc29, #HIr, HIt⟩
  icases HRt with ⟨#HRs, #HRr, HRt⟩
  icases Hrbp with ⟨%fd, Hd⟩
  iapply (send_x m cc _ (dev11_eq cc) 7 fd (owedL (List.drop 11 (paysL cc))) rfl _) $$ [HB7 Hd HO Hts Htr]
  · isplitr; · iexact HIc29
    isplitr; · iexact HIr
    isplitl [HB7]; · iexact HB7
    isplitl [Hd]; · iexact Hd
    isplitl [HO]; · iexact HO
    isplitl [Hts]; · iexact Hts
    isplitr; · iexact HRs
    isplitl [Htr]; · iexact Htr
    iexact HRr
  iintro ⟨Hcxs7, HO⟩
  iclear HIr HRs HRr
  -- chunk 0 across x (the diagonal quarter's): wait for its copy into the staging buffer, round it into the send buffer, send it
  have hled11 : ∀ (s : DmaSem sig), lvJ s.val = 0 → ((levAts LL lvv : sProp 𝕄) ⊢ MayWait (cc : Thread nD τ) (.dma s) () (owedL (List.drop 11 (paysL cc)))) :=
    fun s hs => mayWait_local (F := F) cc s hs _ (by decide)
  sl_exec
  clear hled11
  ihave HB20 := (congr (F := F) (sb2R 0) cc fullShare (dev.sl.HB20_w1 m f3) (sb2 m cc) (fun i hi => glue_sb2 m cc 0 _ (k0_off17_inb cc) (k0_off17_eq cc) f3 i hi)) $$ HB20
  -- the copy
  icases Htk with ⟨Hts, Htr, Htk⟩
  icases HIt with ⟨#HIc38, #HIr, HIt⟩
  icases HRt with ⟨#HRs, #HRr, HRt⟩
  icases Hrb2p with ⟨⟨%fd, Hd⟩, Hrb2p⟩
  iapply (send_x2 m cc _ (dev12_eq cc) 0 fd (owedL (List.drop 12 (paysL cc))) rfl _) $$ [HB20 Hd HO Hts Htr]
  · isplitr; · iexact HIc38
    isplitr; · iexact HIr
    isplitl [HB20]; · iexact HB20
    isplitl [Hd]; · iexact Hd
    isplitl [HO]; · iexact HO
    isplitl [Hts]; · iexact Hts
    isplitr; · iexact HRs
    isplitl [Htr]; · iexact Htr
    iexact HRr
  iintro ⟨Hcds0, HO⟩
  iclear HIr HRs HRr
  -- chunk 1 across x (the diagonal quarter's): wait for its copy into the staging buffer, round it into the send buffer, send it
  have hled12 : ∀ (s : DmaSem sig), lvJ s.val = 0 → ((levAts LL lvv : sProp 𝕄) ⊢ MayWait (cc : Thread nD τ) (.dma s) () (owedL (List.drop 12 (paysL cc)))) :=
    fun s hs => mayWait_local (F := F) cc s hs _ (by decide)
  sl_exec
  clear hled12
  ihave HB21 := (congr (F := F) (sb2R 1) cc fullShare (dev.sl.HB21_w1 m f3) (sb2 m cc) (fun i hi => glue_sb2 m cc 1 _ (k0_off19_inb cc) (k0_off19_eq cc) f3 i hi)) $$ HB21
  -- the copy
  icases Htk with ⟨Hts, Htr, Htk⟩
  icases HIt with ⟨#HIc39, #HIr, HIt⟩
  icases HRt with ⟨#HRs, #HRr, HRt⟩
  icases Hrb2p with ⟨⟨%fd, Hd⟩, Hrb2p⟩
  iapply (send_x2 m cc _ (dev13_eq cc) 1 fd (owedL (List.drop 13 (paysL cc))) rfl _) $$ [HB21 Hd HO Hts Htr]
  · isplitr; · iexact HIc39
    isplitr; · iexact HIr
    isplitl [HB21]; · iexact HB21
    isplitl [Hd]; · iexact Hd
    isplitl [HO]; · iexact HO
    isplitl [Hts]; · iexact Hts
    isplitr; · iexact HRs
    isplitl [Htr]; · iexact Htr
    iexact HRr
  iintro ⟨Hcds1, HO⟩
  iclear HIr HRs HRr
  -- chunk 2 across x (the diagonal quarter's): wait for its copy into the staging buffer, round it into the send buffer, send it
  have hled13 : ∀ (s : DmaSem sig), lvJ s.val = 0 → ((levAts LL lvv : sProp 𝕄) ⊢ MayWait (cc : Thread nD τ) (.dma s) () (owedL (List.drop 13 (paysL cc)))) :=
    fun s hs => mayWait_local (F := F) cc s hs _ (by decide)
  sl_exec
  clear hled13
  ihave HB22 := (congr (F := F) (sb2R 2) cc fullShare (dev.sl.HB22_w1 m f3) (sb2 m cc) (fun i hi => glue_sb2 m cc 2 _ (k0_off21_inb cc) (k0_off21_eq cc) f3 i hi)) $$ HB22
  -- the copy
  icases Htk with ⟨Hts, Htr, Htk⟩
  icases HIt with ⟨#HIc40, #HIr, HIt⟩
  icases HRt with ⟨#HRs, #HRr, HRt⟩
  icases Hrb2p with ⟨%fd, Hd⟩
  iapply (send_x2 m cc _ (dev14_eq cc) 2 fd (owedL (List.drop 14 (paysL cc))) rfl _) $$ [HB22 Hd HO Hts Htr]
  · isplitr; · iexact HIc40
    isplitr; · iexact HIr
    isplitl [HB22]; · iexact HB22
    isplitl [Hd]; · iexact Hd
    isplitl [HO]; · iexact HO
    isplitl [Hts]; · iexact Hts
    isplitr; · iexact HRs
    isplitl [Htr]; · iexact Htr
    iexact HRr
  iintro ⟨Hcds2, HO⟩
  iclear HIr HRs HRr
  sl_exec
  -- the result array in its 32 blocks
  ihave Hout := (out_split_junk (F := F) cc) $$ Hout
  icases Hout with ⟨⟨%g00, HU00⟩, ⟨%g01, HU01⟩, ⟨%g02, HU02⟩, ⟨%g03, HU03⟩, ⟨%g10, HU10⟩, ⟨%g11, HU11⟩, ⟨%g12, HU12⟩, ⟨%g13, HU13⟩, ⟨%g20, HU20⟩, ⟨%g21, HU21⟩, ⟨%g22, HU22⟩, ⟨%g23, HU23⟩, ⟨%g30, HU30⟩, ⟨%g31, HU31⟩, ⟨%g32, HU32⟩, ⟨%g33, HU33⟩, ⟨%g40, HU40⟩, ⟨%g41, HU41⟩, ⟨%g42, HU42⟩, ⟨%g43, HU43⟩, ⟨%g50, HU50⟩, ⟨%g51, HU51⟩, ⟨%g52, HU52⟩, ⟨%g53, HU53⟩, ⟨%g60, HU60⟩, ⟨%g61, HU61⟩, ⟨%g62, HU62⟩, ⟨%g63, HU63⟩, ⟨%g70, HU70⟩, ⟨%g71, HU71⟩, ⟨%g72, HU72⟩, ⟨%g73, HU73⟩⟩
  ihave HqZ := (Entails.of_eq (giveQ_eq (F := F) (pz cc) (zqF (pz cc)))) $$ HqZ
  ihave HqY := (Entails.of_eq (giveQ_eq (F := F) (py cc) (yqF (py cc)))) $$ HqY
  ihave HhZp := (Entails.of_eq (giveH_eq (F := F) (pz cc) 0)) $$ HhZp
  ihave HhYp := (Entails.of_eq (giveH_eq (F := F) (py cc) 1)) $$ HhYp
  -- step 0 of the main loop: the x-neighbour's chunk 0 has landed
  icases Hcr with ⟨Hc, Hcr⟩
  icases HpR with ⟨Hp, HpR⟩
  icases HIw with ⟨#HIc30, HIw⟩
  ihave Hmw := (mayWait_list (F := F) cc (dsem (⟨30, by decide⟩ : Fin 140)) (List.drop 14 (paysL cc)) (by decide)) $$ Hlev
  iapply (wait_a1_at m cc _ 0 rfl) $$ [Hc HO Hmw Hp]
  · isplitr; · iexact HIc30
    isplitl [Hc]; · iexact Hc
    isplitl [HO]; · iexact HO
    isplitl [Hmw]; · iexact Hmw
    iexact Hp
  iintro ⟨HO, Hq30, -, Hrb0⟩
  icases Hown with ⟨Ho0, Hown⟩
  have hled14 : ∀ (s : DmaSem sig), lvJ s.val = 0 → ((levAts LL lvv : sProp 𝕄) ⊢ MayWait (cc : Thread nD τ) (.dma s) () (owedL (List.drop 14 (paysL cc)))) :=
    fun s hs => mayWait_local (F := F) cc s hs _ (by decide)
  sl_exec
  clear hled14
  ihave Ho0 := (congr (F := F) (r4R (mqF cc) 0) cc fullShare (dev.sl.Ho0_w1 m f0) (r4 m cc) (fun i hi => glue_own m cc 0 _ (k0_off2_inb cc) (k0_off2_eq cc) _ (k0_off23_inb cc) (k0_off23_eq cc) f0 i hi)) $$ Ho0
  ihave Ho0 := (Entails.of_eq (share_ZYK_eq (F := F) (r4R (mqF cc) 0) cc (r4 m cc))) $$ Ho0
  icases Ho0 with ⟨HoZ0, HoY0, HoK0⟩
  -- own chunk 0 to the z-neighbour
  icases Htk with ⟨Hts, Htr, Htk⟩
  icases HIt with ⟨#HIc44, #HIr, HIt⟩
  icases HRt with ⟨#HRs, #HRr, HRt⟩
  icases HqZ with ⟨⟨%fd, Hd⟩, HqZ⟩
  iapply (send_z_at m cc _ (dev15_eq cc) 0 _ _ (k0_off24_eq cc) fd (owedL (List.drop 15 (paysL cc))) rfl _) $$ [HoZ0 Hd HO Hts Htr]
  · isplitr; · iexact HIc44
    isplitr; · iexact HIr
    isplitl [HoZ0]; · iexact HoZ0
    isplitl [Hd]; · iexact Hd
    isplitl [HO]; · iexact HO
    isplitl [Hts]; · iexact Hts
    isplitr; · iexact HRs
    isplitl [Htr]; · iexact Htr
    iexact HRr
  iintro ⟨Hczs0, HO⟩
  iclear HIr HRs HRr
  sl_exec
  -- own chunk 0 to the y-neighbour
  icases Htk with ⟨Hts, Htr, Htk⟩
  icases HIt with ⟨#HIc60, #HIr, HIt⟩
  icases HRt with ⟨#HRs, #HRr, HRt⟩
  icases HqY with ⟨⟨%fd, Hd⟩, HqY⟩
  iapply (send_y_at m cc _ (dev16_eq cc) 0 _ _ (k0_off24_eq cc) fd (owedL (List.drop 16 (paysL cc))) rfl _) $$ [HoY0 Hd HO Hts Htr]
  · isplitr; · iexact HIc60
    isplitr; · iexact HIr
    isplitl [HoY0]; · iexact HoY0
    isplitl [Hd]; · iexact Hd
    isplitl [HO]; · iexact HO
    isplitl [Hts]; · iexact Hts
    isplitr; · iexact HRs
    isplitl [Htr]; · iexact Htr
    iexact HRr
  iintro ⟨Hcys0, HO⟩
  iclear HIr HRs HRr
  sl_exec
  -- step 1 of the main loop: the x-neighbour's chunk 1 has landed
  icases Hcr with ⟨Hc, Hcr⟩
  icases HpR with ⟨Hp, HpR⟩
  icases HIw with ⟨#HIc31, HIw⟩
  ihave Hmw := (mayWait_list (F := F) cc (dsem (⟨31, by decide⟩ : Fin 140)) (List.drop 16 (paysL cc)) (by decide)) $$ Hlev
  iapply (wait_a1_at m cc _ 1 rfl) $$ [Hc HO Hmw Hp]
  · isplitr; · iexact HIc31
    isplitl [Hc]; · iexact Hc
    isplitl [HO]; · iexact HO
    isplitl [Hmw]; · iexact Hmw
    iexact Hp
  iintro ⟨HO, Hq31, -, Hrb1⟩
  icases Hown with ⟨Ho1, Hown⟩
  have hled16 : ∀ (s : DmaSem sig), lvJ s.val = 0 → ((levAts LL lvv : sProp 𝕄) ⊢ MayWait (cc : Thread nD τ) (.dma s) () (owedL (List.drop 16 (paysL cc)))) :=
    fun s hs => mayWait_local (F := F) cc s hs _ (by decide)
  sl_exec
  clear hled16
  ihave Ho1 := (congr (F := F) (r4R (mqF cc) 1) cc fullShare (dev.sl.Ho1_w1 m f0) (r4 m cc) (fun i hi => glue_own m cc 1 _ (k0_off4_inb cc) (k0_off4_eq cc) _ (k0_off25_inb cc) (k0_off25_eq cc) f0 i hi)) $$ Ho1
  ihave Ho1 := (Entails.of_eq (share_ZYK_eq (F := F) (r4R (mqF cc) 1) cc (r4 m cc))) $$ Ho1
  icases Ho1 with ⟨HoZ1, HoY1, HoK1⟩
  -- own chunk 1 to the z-neighbour
  icases Htk with ⟨Hts, Htr, Htk⟩
  icases HIt with ⟨#HIc45, #HIr, HIt⟩
  icases HRt with ⟨#HRs, #HRr, HRt⟩
  icases HqZ with ⟨⟨%fd, Hd⟩, HqZ⟩
  iapply (send_z_at m cc _ (dev17_eq cc) 1 _ _ (k0_off26_eq cc) fd (owedL (List.drop 17 (paysL cc))) rfl _) $$ [HoZ1 Hd HO Hts Htr]
  · isplitr; · iexact HIc45
    isplitr; · iexact HIr
    isplitl [HoZ1]; · iexact HoZ1
    isplitl [Hd]; · iexact Hd
    isplitl [HO]; · iexact HO
    isplitl [Hts]; · iexact Hts
    isplitr; · iexact HRs
    isplitl [Htr]; · iexact Htr
    iexact HRr
  iintro ⟨Hczs1, HO⟩
  iclear HIr HRs HRr
  sl_exec
  -- own chunk 1 to the y-neighbour
  icases Htk with ⟨Hts, Htr, Htk⟩
  icases HIt with ⟨#HIc61, #HIr, HIt⟩
  icases HRt with ⟨#HRs, #HRr, HRt⟩
  icases HqY with ⟨⟨%fd, Hd⟩, HqY⟩
  iapply (send_y_at m cc _ (dev18_eq cc) 1 _ _ (k0_off26_eq cc) fd (owedL (List.drop 18 (paysL cc))) rfl _) $$ [HoY1 Hd HO Hts Htr]
  · isplitr; · iexact HIc61
    isplitr; · iexact HIr
    isplitl [HoY1]; · iexact HoY1
    isplitl [Hd]; · iexact Hd
    isplitl [HO]; · iexact HO
    isplitl [Hts]; · iexact Hts
    isplitr; · iexact HRs
    isplitl [Htr]; · iexact Htr
    iexact HRr
  iintro ⟨Hcys1, HO⟩
  iclear HIr HRs HRr
  sl_exec
  -- the z-neighbour's chunk 0 has landed
  icases Hcr with ⟨Hc, Hcr⟩
  icases HpR with ⟨Hp, HpR⟩
  icases HIw with ⟨#HIc52, HIw⟩
  ihave Hmw := (mayWait_list (F := F) cc (dsem (⟨52, by decide⟩ : Fin 140)) (List.drop 18 (paysL cc)) (by decide)) $$ Hlev
  iapply (wait_a5_at m cc _ 0 rfl) $$ [Hc HO Hmw Hp]
  · isplitr; · iexact HIc52
    isplitl [Hc]; · iexact Hc
    isplitl [HO]; · iexact HO
    isplitl [Hmw]; · iexact Hmw
    iexact Hp
  iintro ⟨HO, Hq52, -, Hz0⟩
  sl_exec
  -- the y-neighbour's chunk 0 has landed
  icases Hcr with ⟨Hc, Hcr⟩
  icases HpR with ⟨Hp, HpR⟩
  icases HIw with ⟨#HIc68, HIw⟩
  ihave Hmw := (mayWait_list (F := F) cc (dsem (⟨68, by decide⟩ : Fin 140)) (List.drop 18 (paysL cc)) (by decide)) $$ Hlev
  iapply (wait_a7_at m cc _ 0 rfl) $$ [Hc HO Hmw Hp]
  · isplitr; · iexact HIc68
    isplitl [Hc]; · iexact Hc
    isplitl [HO]; · iexact HO
    isplitl [Hmw]; · iexact Hmw
    iexact Hp
  iintro ⟨HO, Hq68, -, Hy0⟩
  sl_exec
  -- step 2 of the main loop: the x-neighbour's chunk 2 has landed
  icases Hcr with ⟨Hc, Hcr⟩
  icases HpR with ⟨Hp, HpR⟩
  icases HIw with ⟨#HIc32, HIw⟩
  ihave Hmw := (mayWait_list (F := F) cc (dsem (⟨32, by decide⟩ : Fin 140)) (List.drop 18 (paysL cc)) (by decide)) $$ Hlev
  iapply (wait_a1_at m cc _ 2 rfl) $$ [Hc HO Hmw Hp]
  · isplitr; · iexact HIc32
    isplitl [Hc]; · iexact Hc
    isplitl [HO]; · iexact HO
    isplitl [Hmw]; · iexact Hmw
    iexact Hp
  iintro ⟨HO, Hq32, -, Hrb2⟩
  icases Hown with ⟨Ho2, Hown⟩
  have hled18 : ∀ (s : DmaSem sig), lvJ s.val = 0 → ((levAts LL lvv : sProp 𝕄) ⊢ MayWait (cc : Thread nD τ) (.dma s) () (owedL (List.drop 18 (paysL cc)))) :=
    fun s hs => mayWait_local (F := F) cc s hs _ (by decide)
  sl_exec
  clear hled18
  ihave Ho2 := (congr (F := F) (r4R (mqF cc) 2) cc fullShare (dev.sl.Ho2_w1 m f0) (r4 m cc) (fun i hi => glue_own m cc 2 _ (k0_off6_inb cc) (k0_off6_eq cc) _ (k0_off27_inb cc) (k0_off27_eq cc) f0 i hi)) $$ Ho2
  ihave Ho2 := (Entails.of_eq (share_ZYK_eq (F := F) (r4R (mqF cc) 2) cc (r4 m cc))) $$ Ho2
  icases Ho2 with ⟨HoZ2, HoY2, HoK2⟩
  -- own chunk 2 to the z-neighbour
  icases Htk with ⟨Hts, Htr, Htk⟩
  icases HIt with ⟨#HIc46, #HIr, HIt⟩
  icases HRt with ⟨#HRs, #HRr, HRt⟩
  icases HqZ with ⟨⟨%fd, Hd⟩, HqZ⟩
  iapply (send_z_at m cc _ (dev19_eq cc) 2 _ _ (k0_off28_eq cc) fd (owedL (List.drop 19 (paysL cc))) rfl _) $$ [HoZ2 Hd HO Hts Htr]
  · isplitr; · iexact HIc46
    isplitr; · iexact HIr
    isplitl [HoZ2]; · iexact HoZ2
    isplitl [Hd]; · iexact Hd
    isplitl [HO]; · iexact HO
    isplitl [Hts]; · iexact Hts
    isplitr; · iexact HRs
    isplitl [Htr]; · iexact Htr
    iexact HRr
  iintro ⟨Hczs2, HO⟩
  iclear HIr HRs HRr
  sl_exec
  -- own chunk 2 to the y-neighbour
  icases Htk with ⟨Hts, Htr, Htk⟩
  icases HIt with ⟨#HIc62, #HIr, HIt⟩
  icases HRt with ⟨#HRs, #HRr, HRt⟩
  icases HqY with ⟨⟨%fd, Hd⟩, HqY⟩
  iapply (send_y_at m cc _ (dev20_eq cc) 2 _ _ (k0_off28_eq cc) fd (owedL (List.drop 20 (paysL cc))) rfl _) $$ [HoY2 Hd HO Hts Htr]
  · isplitr; · iexact HIc62
    isplitr; · iexact HIr
    isplitl [HoY2]; · iexact HoY2
    isplitl [Hd]; · iexact Hd
    isplitl [HO]; · iexact HO
    isplitl [Hts]; · iexact Hts
    isplitr; · iexact HRs
    isplitl [Htr]; · iexact Htr
    iexact HRr
  iintro ⟨Hcys2, HO⟩
  iclear HIr HRs HRr
  sl_exec
  -- the z-neighbour's chunk 1 has landed
  icases Hcr with ⟨Hc, Hcr⟩
  icases HpR with ⟨Hp, HpR⟩
  icases HIw with ⟨#HIc53, HIw⟩
  ihave Hmw := (mayWait_list (F := F) cc (dsem (⟨53, by decide⟩ : Fin 140)) (List.drop 20 (paysL cc)) (by decide)) $$ Hlev
  iapply (wait_a5_at m cc _ 1 rfl) $$ [Hc HO Hmw Hp]
  · isplitr; · iexact HIc53
    isplitl [Hc]; · iexact Hc
    isplitl [HO]; · iexact HO
    isplitl [Hmw]; · iexact Hmw
    iexact Hp
  iintro ⟨HO, Hq53, -, Hz1⟩
  sl_exec
  -- the y-neighbour's chunk 1 has landed
  icases Hcr with ⟨Hc, Hcr⟩
  icases HpR with ⟨Hp, HpR⟩
  icases HIw with ⟨#HIc69, HIw⟩
  ihave Hmw := (mayWait_list (F := F) cc (dsem (⟨69, by decide⟩ : Fin 140)) (List.drop 20 (paysL cc)) (by decide)) $$ Hlev
  iapply (wait_a7_at m cc _ 1 rfl) $$ [Hc HO Hmw Hp]
  · isplitr; · iexact HIc69
    isplitl [Hc]; · iexact Hc
    isplitl [HO]; · iexact HO
    isplitl [Hmw]; · iexact Hmw
    iexact Hp
  iintro ⟨HO, Hq69, -, Hy1⟩
  sl_exec
  -- step 3 of the main loop: the x-neighbour's chunk 3 has landed
  icases Hcr with ⟨Hc, Hcr⟩
  icases HpR with ⟨Hp, HpR⟩
  icases HIw with ⟨#HIc33, HIw⟩
  ihave Hmw := (mayWait_list (F := F) cc (dsem (⟨33, by decide⟩ : Fin 140)) (List.drop 20 (paysL cc)) (by decide)) $$ Hlev
  iapply (wait_a1_at m cc _ 3 rfl) $$ [Hc HO Hmw Hp]
  · isplitr; · iexact HIc33
    isplitl [Hc]; · iexact Hc
    isplitl [HO]; · iexact HO
    isplitl [Hmw]; · iexact Hmw
    iexact Hp
  iintro ⟨HO, Hq33, -, Hrb3⟩
  icases Hown with ⟨Ho3, Hown⟩
  have hled20 : ∀ (s : DmaSem sig), lvJ s.val = 0 → ((levAts LL lvv : sProp 𝕄) ⊢ MayWait (cc : Thread nD τ) (.dma s) () (owedL (List.drop 20 (paysL cc)))) :=
    fun s hs => mayWait_local (F := F) cc s hs _ (by decide)
  sl_exec
  clear hled20
  ihave Ho3 := (congr (F := F) (r4R (mqF cc) 3) cc fullShare (dev.sl.Ho3_w1 m f0) (r4 m cc) (fun i hi => glue_own m cc 3 _ (k0_off8_inb cc) (k0_off8_eq cc) _ (k0_off29_inb cc) (k0_off29_eq cc) f0 i hi)) $$ Ho3
  ihave Ho3 := (Entails.of_eq (share_ZYK_eq (F := F) (r4R (mqF cc) 3) cc (r4 m cc))) $$ Ho3
  icases Ho3 with ⟨HoZ3, HoY3, HoK3⟩
  -- own chunk 3 to the z-neighbour
  icases Htk with ⟨Hts, Htr, Htk⟩
  icases HIt with ⟨#HIc47, #HIr, HIt⟩
  icases HRt with ⟨#HRs, #HRr, HRt⟩
  icases HqZ with ⟨⟨%fd, Hd⟩, HqZ⟩
  iapply (send_z_at m cc _ (dev21_eq cc) 3 _ _ (k0_off30_eq cc) fd (owedL (List.drop 21 (paysL cc))) rfl _) $$ [HoZ3 Hd HO Hts Htr]
  · isplitr; · iexact HIc47
    isplitr; · iexact HIr
    isplitl [HoZ3]; · iexact HoZ3
    isplitl [Hd]; · iexact Hd
    isplitl [HO]; · iexact HO
    isplitl [Hts]; · iexact Hts
    isplitr; · iexact HRs
    isplitl [Htr]; · iexact Htr
    iexact HRr
  iintro ⟨Hczs3, HO⟩
  iclear HIr HRs HRr
  sl_exec
  -- own chunk 3 to the y-neighbour
  icases Htk with ⟨Hts, Htr, Htk⟩
  icases HIt with ⟨#HIc63, #HIr, HIt⟩
  icases HRt with ⟨#HRs, #HRr, HRt⟩
  icases HqY with ⟨⟨%fd, Hd⟩, HqY⟩
  iapply (send_y_at m cc _ (dev22_eq cc) 3 _ _ (k0_off30_eq cc) fd (owedL (List.drop 22 (paysL cc))) rfl _) $$ [HoY3 Hd HO Hts Htr]
  · isplitr; · iexact HIc63
    isplitr; · iexact HIr
    isplitl [HoY3]; · iexact HoY3
    isplitl [Hd]; · iexact Hd
    isplitl [HO]; · iexact HO
    isplitl [Hts]; · iexact Hts
    isplitr; · iexact HRs
    isplitl [Htr]; · iexact Htr
    iexact HRr
  iintro ⟨Hcys3, HO⟩
  iclear HIr HRs HRr
  sl_exec
  -- the z-neighbour's chunk 2 has landed
  icases Hcr with ⟨Hc, Hcr⟩
  icases HpR with ⟨Hp, HpR⟩
  icases HIw with ⟨#HIc54, HIw⟩
  ihave Hmw := (mayWait_list (F := F) cc (dsem (⟨54, by decide⟩ : Fin 140)) (List.drop 22 (paysL cc)) (by decide)) $$ Hlev
  iapply (wait_a5_at m cc _ 2 rfl) $$ [Hc HO Hmw Hp]
  · isplitr; · iexact HIc54
    isplitl [Hc]; · iexact Hc
    isplitl [HO]; · iexact HO
    isplitl [Hmw]; · iexact Hmw
    iexact Hp
  iintro ⟨HO, Hq54, -, Hz2⟩
  sl_exec
  -- the y-neighbour's chunk 2 has landed
  icases Hcr with ⟨Hc, Hcr⟩
  icases HpR with ⟨Hp, HpR⟩
  icases HIw with ⟨#HIc70, HIw⟩
  ihave Hmw := (mayWait_list (F := F) cc (dsem (⟨70, by decide⟩ : Fin 140)) (List.drop 22 (paysL cc)) (by decide)) $$ Hlev
  iapply (wait_a7_at m cc _ 2 rfl) $$ [Hc HO Hmw Hp]
  · isplitr; · iexact HIc70
    isplitl [Hc]; · iexact Hc
    isplitl [HO]; · iexact HO
    isplitl [Hmw]; · iexact Hmw
    iexact Hp
  iintro ⟨HO, Hq70, -, Hy2⟩
  sl_exec
  -- step 4 of the main loop: the x-neighbour's chunk 4 has landed
  icases Hcr with ⟨Hc, Hcr⟩
  icases HpR with ⟨Hp, HpR⟩
  icases HIw with ⟨#HIc34, HIw⟩
  ihave Hmw := (mayWait_list (F := F) cc (dsem (⟨34, by decide⟩ : Fin 140)) (List.drop 22 (paysL cc)) (by decide)) $$ Hlev
  iapply (wait_a1_at m cc _ 4 rfl) $$ [Hc HO Hmw Hp]
  · isplitr; · iexact HIc34
    isplitl [Hc]; · iexact Hc
    isplitl [HO]; · iexact HO
    isplitl [Hmw]; · iexact Hmw
    iexact Hp
  iintro ⟨HO, Hq34, -, Hrb4⟩
  icases Hown with ⟨Ho4, Hown⟩
  have hled22 : ∀ (s : DmaSem sig), lvJ s.val = 0 → ((levAts LL lvv : sProp 𝕄) ⊢ MayWait (cc : Thread nD τ) (.dma s) () (owedL (List.drop 22 (paysL cc)))) :=
    fun s hs => mayWait_local (F := F) cc s hs _ (by decide)
  sl_exec
  clear hled22
  ihave Ho4 := (congr (F := F) (r4R (mqF cc) 4) cc fullShare (dev.sl.Ho4_w1 m f0) (r4 m cc) (fun i hi => glue_own m cc 4 _ (k0_off10_inb cc) (k0_off10_eq cc) _ (k0_off31_inb cc) (k0_off31_eq cc) f0 i hi)) $$ Ho4
  ihave Ho4 := (Entails.of_eq (share_ZYK_eq (F := F) (r4R (mqF cc) 4) cc (r4 m cc))) $$ Ho4
  icases Ho4 with ⟨HoZ4, HoY4, HoK4⟩
  -- own chunk 4 to the z-neighbour
  icases Htk with ⟨Hts, Htr, Htk⟩
  icases HIt with ⟨#HIc48, #HIr, HIt⟩
  icases HRt with ⟨#HRs, #HRr, HRt⟩
  icases HqZ with ⟨⟨%fd, Hd⟩, HqZ⟩
  iapply (send_z_at m cc _ (dev23_eq cc) 4 _ _ (k0_off32_eq cc) fd (owedL (List.drop 23 (paysL cc))) rfl _) $$ [HoZ4 Hd HO Hts Htr]
  · isplitr; · iexact HIc48
    isplitr; · iexact HIr
    isplitl [HoZ4]; · iexact HoZ4
    isplitl [Hd]; · iexact Hd
    isplitl [HO]; · iexact HO
    isplitl [Hts]; · iexact Hts
    isplitr; · iexact HRs
    isplitl [Htr]; · iexact Htr
    iexact HRr
  iintro ⟨Hczs4, HO⟩
  iclear HIr HRs HRr
  sl_exec
  -- own chunk 4 to the y-neighbour
  icases Htk with ⟨Hts, Htr, Htk⟩
  icases HIt with ⟨#HIc64, #HIr, HIt⟩
  icases HRt with ⟨#HRs, #HRr, HRt⟩
  icases HqY with ⟨⟨%fd, Hd⟩, HqY⟩
  iapply (send_y_at m cc _ (dev24_eq cc) 4 _ _ (k0_off32_eq cc) fd (owedL (List.drop 24 (paysL cc))) rfl _) $$ [HoY4 Hd HO Hts Htr]
  · isplitr; · iexact HIc64
    isplitr; · iexact HIr
    isplitl [HoY4]; · iexact HoY4
    isplitl [Hd]; · iexact Hd
    isplitl [HO]; · iexact HO
    isplitl [Hts]; · iexact Hts
    isplitr; · iexact HRs
    isplitl [Htr]; · iexact Htr
    iexact HRr
  iintro ⟨Hcys4, HO⟩
  iclear HIr HRs HRr
  sl_exec
  -- the z-neighbour's chunk 3 has landed
  icases Hcr with ⟨Hc, Hcr⟩
  icases HpR with ⟨Hp, HpR⟩
  icases HIw with ⟨#HIc55, HIw⟩
  ihave Hmw := (mayWait_list (F := F) cc (dsem (⟨55, by decide⟩ : Fin 140)) (List.drop 24 (paysL cc)) (by decide)) $$ Hlev
  iapply (wait_a5_at m cc _ 3 rfl) $$ [Hc HO Hmw Hp]
  · isplitr; · iexact HIc55
    isplitl [Hc]; · iexact Hc
    isplitl [HO]; · iexact HO
    isplitl [Hmw]; · iexact Hmw
    iexact Hp
  iintro ⟨HO, Hq55, -, Hz3⟩
  sl_exec
  -- the y-neighbour's chunk 3 has landed
  icases Hcr with ⟨Hc, Hcr⟩
  icases HpR with ⟨Hp, HpR⟩
  icases HIw with ⟨#HIc71, HIw⟩
  ihave Hmw := (mayWait_list (F := F) cc (dsem (⟨71, by decide⟩ : Fin 140)) (List.drop 24 (paysL cc)) (by decide)) $$ Hlev
  iapply (wait_a7_at m cc _ 3 rfl) $$ [Hc HO Hmw Hp]
  · isplitr; · iexact HIc71
    isplitl [Hc]; · iexact Hc
    isplitl [HO]; · iexact HO
    isplitl [Hmw]; · iexact Hmw
    iexact Hp
  iintro ⟨HO, Hq71, -, Hy3⟩
  -- chunk 3 of the two neighbours' quarters: half its ownership stays for the copy into the result, of the other half one column half travels on
  ihave Hz3 := (Entails.of_eq (share_FG_eq (F := F) (r4R (zqF cc) 3) cc (r4 m cc))) $$ Hz3
  icases Hz3 with ⟨HzF3, HzG3⟩
  ihave HzF3 := (Entails.of_eq (chunk_halves (F := F) cc (zqF cc) 3 shF (r4 m cc))) $$ HzF3
  icases HzF3 with ⟨HzFl3, HzFr3⟩
  ihave Hy3 := (Entails.of_eq (share_FG_eq (F := F) (r4R (yqF cc) 3) cc (r4 m cc))) $$ Hy3
  icases Hy3 with ⟨HyF3, HyG3⟩
  ihave HyF3 := (Entails.of_eq (chunk_halves (F := F) cc (yqF cc) 3 shF (r4 m cc))) $$ HyF3
  icases HyF3 with ⟨HyFl3, HyFr3⟩
  sl_exec
  -- the right half of the z-neighbour's chunk 3 on to the y-neighbour
  icases Htk with ⟨Hts, Htr, Htk⟩
  icases HIt with ⟨#HIc95, #HIr, HIt⟩
  icases HRt with ⟨#HRs, #HRr, HRt⟩
  icases HhYp with ⟨⟨%fd, Hd⟩, HhYp⟩
  iapply (send_yf_at m cc _ (dev25_eq cc) 3 (by decide) _ _ (k0_off33_eq cc) fd (owedL (List.drop 25 (paysL cc))) rfl _) $$ [HzFr3 Hd HO Hts Htr]
  · isplitr; · iexact HIc95
    isplitr; · iexact HIr
    isplitl [HzFr3]; · iexact HzFr3
    isplitl [Hd]; · iexact Hd
    isplitl [HO]; · iexact HO
    isplitl [Hts]; · iexact Hts
    isplitr; · iexact HRs
    isplitl [Htr]; · iexact Htr
    iexact HRr
  iintro ⟨Hcyfs3, HO⟩
  iclear HIr HRs HRr
  sl_exec
  -- the left half of the y-neighbour's chunk 3 on to the z-neighbour
  icases Htk with ⟨Hts, Htr, Htk⟩
  icases HIt with ⟨#HIc79, #HIr, HIt⟩
  icases HRt with ⟨#HRs, #HRr, HRt⟩
  icases HhZp with ⟨⟨%fd, Hd⟩, HhZp⟩
  iapply (send_zf_at m cc _ (dev26_eq cc) 3 (by decide) _ _ (k0_off34_eq cc) fd (owedL (List.drop 26 (paysL cc))) rfl _) $$ [HyFl3 Hd HO Hts Htr]
  · isplitr; · iexact HIc79
    isplitr; · iexact HIr
    isplitl [HyFl3]; · iexact HyFl3
    isplitl [Hd]; · iexact Hd
    isplitl [HO]; · iexact HO
    isplitl [Hts]; · iexact Hts
    isplitr; · iexact HRs
    isplitl [Htr]; · iexact Htr
    iexact HRr
  iintro ⟨Hczfs3, HO⟩
  iclear HIr HRs HRr
  sl_exec
  -- step 5 of the main loop: the x-neighbour's chunk 5 has landed
  icases Hcr with ⟨Hc, Hcr⟩
  icases HpR with ⟨Hp, HpR⟩
  icases HIw with ⟨#HIc35, HIw⟩
  ihave Hmw := (mayWait_list (F := F) cc (dsem (⟨35, by decide⟩ : Fin 140)) (List.drop 26 (paysL cc)) (by decide)) $$ Hlev
  iapply (wait_a1_at m cc _ 5 rfl) $$ [Hc HO Hmw Hp]
  · isplitr; · iexact HIc35
    isplitl [Hc]; · iexact Hc
    isplitl [HO]; · iexact HO
    isplitl [Hmw]; · iexact Hmw
    iexact Hp
  iintro ⟨HO, Hq35, -, Hrb5⟩
  icases Hown with ⟨Ho5, Hown⟩
  have hled26 : ∀ (s : DmaSem sig), lvJ s.val = 0 → ((levAts LL lvv : sProp 𝕄) ⊢ MayWait (cc : Thread nD τ) (.dma s) () (owedL (List.drop 26 (paysL cc)))) :=
    fun s hs => mayWait_local (F := F) cc s hs _ (by decide)
  sl_exec
  clear hled26
  ihave Ho5 := (congr (F := F) (r4R (mqF cc) 5) cc fullShare (dev.sl.Ho5_w1 m f0) (r4 m cc) (fun i hi => glue_own m cc 5 _ (k0_off12_inb cc) (k0_off12_eq cc) _ (k0_off35_inb cc) (k0_off35_eq cc) f0 i hi)) $$ Ho5
  ihave Ho5 := (Entails.of_eq (share_ZYK_eq (F := F) (r4R (mqF cc) 5) cc (r4 m cc))) $$ Ho5
  icases Ho5 with ⟨HoZ5, HoY5, HoK5⟩
  -- own chunk 5 to the z-neighbour
  icases Htk with ⟨Hts, Htr, Htk⟩
  icases HIt with ⟨#HIc49, #HIr, HIt⟩
  icases HRt with ⟨#HRs, #HRr, HRt⟩
  icases HqZ with ⟨⟨%fd, Hd⟩, HqZ⟩
  iapply (send_z_at m cc _ (dev27_eq cc) 5 _ _ (k0_off36_eq cc) fd (owedL (List.drop 27 (paysL cc))) rfl _) $$ [HoZ5 Hd HO Hts Htr]
  · isplitr; · iexact HIc49
    isplitr; · iexact HIr
    isplitl [HoZ5]; · iexact HoZ5
    isplitl [Hd]; · iexact Hd
    isplitl [HO]; · iexact HO
    isplitl [Hts]; · iexact Hts
    isplitr; · iexact HRs
    isplitl [Htr]; · iexact Htr
    iexact HRr
  iintro ⟨Hczs5, HO⟩
  iclear HIr HRs HRr
  sl_exec
  -- own chunk 5 to the y-neighbour
  icases Htk with ⟨Hts, Htr, Htk⟩
  icases HIt with ⟨#HIc65, #HIr, HIt⟩
  icases HRt with ⟨#HRs, #HRr, HRt⟩
  icases HqY with ⟨⟨%fd, Hd⟩, HqY⟩
  iapply (send_y_at m cc _ (dev28_eq cc) 5 _ _ (k0_off36_eq cc) fd (owedL (List.drop 28 (paysL cc))) rfl _) $$ [HoY5 Hd HO Hts Htr]
  · isplitr; · iexact HIc65
    isplitr; · iexact HIr
    isplitl [HoY5]; · iexact HoY5
    isplitl [Hd]; · iexact Hd
    isplitl [HO]; · iexact HO
    isplitl [Hts]; · iexact Hts
    isplitr; · iexact HRs
    isplitl [Htr]; · iexact Htr
    iexact HRr
  iintro ⟨Hcys5, HO⟩
  iclear HIr HRs HRr
  sl_exec
  -- the z-neighbour's chunk 4 has landed
  icases Hcr with ⟨Hc, Hcr⟩
  icases HpR with ⟨Hp, HpR⟩
  icases HIw with ⟨#HIc56, HIw⟩
  ihave Hmw := (mayWait_list (F := F) cc (dsem (⟨56, by decide⟩ : Fin 140)) (List.drop 28 (paysL cc)) (by decide)) $$ Hlev
  iapply (wait_a5_at m cc _ 4 rfl) $$ [Hc HO Hmw Hp]
  · isplitr; · iexact HIc56
    isplitl [Hc]; · iexact Hc
    isplitl [HO]; · iexact HO
    isplitl [Hmw]; · iexact Hmw
    iexact Hp
  iintro ⟨HO, Hq56, -, Hz4⟩
  sl_exec
  -- the y-neighbour's chunk 4 has landed
  icases Hcr with ⟨Hc, Hcr⟩
  icases HpR with ⟨Hp, HpR⟩
  icases HIw with ⟨#HIc72, HIw⟩
  ihave Hmw := (mayWait_list (F := F) cc (dsem (⟨72, by decide⟩ : Fin 140)) (List.drop 28 (paysL cc)) (by decide)) $$ Hlev
  iapply (wait_a7_at m cc _ 4 rfl) $$ [Hc HO Hmw Hp]
  · isplitr; · iexact HIc72
    isplitl [Hc]; · iexact Hc
    isplitl [HO]; · iexact HO
    isplitl [Hmw]; · iexact Hmw
    iexact Hp
  iintro ⟨HO, Hq72, -, Hy4⟩
  -- chunk 4 of the two neighbours' quarters: half its ownership stays for the copy into the result, of the other half one column half travels on
  ihave Hz4 := (Entails.of_eq (share_FG_eq (F := F) (r4R (zqF cc) 4) cc (r4 m cc))) $$ Hz4
  icases Hz4 with ⟨HzF4, HzG4⟩
  ihave HzF4 := (Entails.of_eq (chunk_halves (F := F) cc (zqF cc) 4 shF (r4 m cc))) $$ HzF4
  icases HzF4 with ⟨HzFl4, HzFr4⟩
  ihave Hy4 := (Entails.of_eq (share_FG_eq (F := F) (r4R (yqF cc) 4) cc (r4 m cc))) $$ Hy4
  icases Hy4 with ⟨HyF4, HyG4⟩
  ihave HyF4 := (Entails.of_eq (chunk_halves (F := F) cc (yqF cc) 4 shF (r4 m cc))) $$ HyF4
  icases HyF4 with ⟨HyFl4, HyFr4⟩
  sl_exec
  -- the right half of the z-neighbour's chunk 4 on to the y-neighbour
  icases Htk with ⟨Hts, Htr, Htk⟩
  icases HIt with ⟨#HIc96, #HIr, HIt⟩
  icases HRt with ⟨#HRs, #HRr, HRt⟩
  icases HhYp with ⟨⟨%fd, Hd⟩, HhYp⟩
  iapply (send_yf_at m cc _ (dev29_eq cc) 4 (by decide) _ _ (k0_off37_eq cc) fd (owedL (List.drop 29 (paysL cc))) rfl _) $$ [HzFr4 Hd HO Hts Htr]
  · isplitr; · iexact HIc96
    isplitr; · iexact HIr
    isplitl [HzFr4]; · iexact HzFr4
    isplitl [Hd]; · iexact Hd
    isplitl [HO]; · iexact HO
    isplitl [Hts]; · iexact Hts
    isplitr; · iexact HRs
    isplitl [Htr]; · iexact Htr
    iexact HRr
  iintro ⟨Hcyfs4, HO⟩
  iclear HIr HRs HRr
  sl_exec
  -- the left half of the y-neighbour's chunk 4 on to the z-neighbour
  icases Htk with ⟨Hts, Htr, Htk⟩
  icases HIt with ⟨#HIc80, #HIr, HIt⟩
  icases HRt with ⟨#HRs, #HRr, HRt⟩
  icases HhZp with ⟨⟨%fd, Hd⟩, HhZp⟩
  iapply (send_zf_at m cc _ (dev30_eq cc) 4 (by decide) _ _ (k0_off38_eq cc) fd (owedL (List.drop 30 (paysL cc))) rfl _) $$ [HyFl4 Hd HO Hts Htr]
  · isplitr; · iexact HIc80
    isplitr; · iexact HIr
    isplitl [HyFl4]; · iexact HyFl4
    isplitl [Hd]; · iexact Hd
    isplitl [HO]; · iexact HO
    isplitl [Hts]; · iexact Hts
    isplitr; · iexact HRs
    isplitl [Htr]; · iexact Htr
    iexact HRr
  iintro ⟨Hczfs4, HO⟩
  iclear HIr HRs HRr
  sl_exec
  -- the left half of chunk 3 of the diagonal quarter has landed
  icases Hcr with ⟨Hc, Hcr⟩
  icases HpR with ⟨Hp, HpR⟩
  icases HIw with ⟨#HIc87, HIw⟩
  ihave Hmw := (mayWait_list (F := F) cc (dsem (⟨87, by decide⟩ : Fin 140)) (List.drop 30 (paysL cc)) (by decide)) $$ Hlev
  iapply (wait_a9_at m cc _ 3 rfl (by decide)) $$ [Hc HO Hmw Hp]
  · isplitr; · iexact HIc87
    isplitl [Hc]; · iexact Hc
    isplitl [HO]; · iexact HO
    isplitl [Hmw]; · iexact Hmw
    iexact Hp
  iintro ⟨HO, Hq87, -, Hdl3⟩
  sl_exec
  -- its right half has landed
  icases Hcr with ⟨Hc, Hcr⟩
  icases HpR with ⟨Hp, HpR⟩
  icases HIw with ⟨#HIc103, HIw⟩
  ihave Hmw := (mayWait_list (F := F) cc (dsem (⟨103, by decide⟩ : Fin 140)) (List.drop 30 (paysL cc)) (by decide)) $$ Hlev
  iapply (wait_a11_at m cc _ 3 rfl (by decide)) $$ [Hc HO Hmw Hp]
  · isplitr; · iexact HIc103
    isplitl [Hc]; · iexact Hc
    isplitl [HO]; · iexact HO
    isplitl [Hmw]; · iexact Hmw
    iexact Hp
  iintro ⟨HO, Hq103, -, Hdr3⟩
  ihave Hd3 := (Entails.of_eq (chunk_halves (F := F) cc (dqF cc) 3 fullShare (r4 m cc)).symm) $$ [Hdl3 Hdr3]
  · isplitl [Hdl3]; · iexact Hdl3
    iexact Hdr3
  -- the four copies of chunk 3 into the result
  icases HvO with ⟨Hw3a, Hw3b, Hw3c, Hw3d, HvO⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  -- step 6 of the main loop: the x-neighbour's chunk 6 has landed
  icases Hcr with ⟨Hc, Hcr⟩
  icases HpR with ⟨Hp, HpR⟩
  icases HIw with ⟨#HIc36, HIw⟩
  ihave Hmw := (mayWait_list (F := F) cc (dsem (⟨36, by decide⟩ : Fin 140)) (List.drop 30 (paysL cc)) (by decide)) $$ Hlev
  iapply (wait_a1_at m cc _ 6 rfl) $$ [Hc HO Hmw Hp]
  · isplitr; · iexact HIc36
    isplitl [Hc]; · iexact Hc
    isplitl [HO]; · iexact HO
    isplitl [Hmw]; · iexact Hmw
    iexact Hp
  iintro ⟨HO, Hq36, -, Hrb6⟩
  icases Hown with ⟨Ho6, Hown⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  ihave Ho6 := (congr (F := F) (r4R (mqF cc) 6) cc fullShare (dev.sl.Ho6_w1 m f0) (r4 m cc) (fun i hi => glue_own m cc 6 _ (k0_off14_inb cc) (k0_off14_eq cc) _ (k0_off39_inb cc) (k0_off39_eq cc) f0 i hi)) $$ Ho6
  ihave Ho6 := (Entails.of_eq (share_ZYK_eq (F := F) (r4R (mqF cc) 6) cc (r4 m cc))) $$ Ho6
  icases Ho6 with ⟨HoZ6, HoY6, HoK6⟩
  -- own chunk 6 to the z-neighbour
  icases Htk with ⟨Hts, Htr, Htk⟩
  icases HIt with ⟨#HIc50, #HIr, HIt⟩
  icases HRt with ⟨#HRs, #HRr, HRt⟩
  icases HqZ with ⟨⟨%fd, Hd⟩, HqZ⟩
  iapply (send_z_at m cc _ (dev31_eq cc) 6 _ _ (k0_off40_eq cc) fd (owedL (List.drop 31 (paysL cc))) rfl _) $$ [HoZ6 Hd HO Hts Htr]
  · isplitr; · iexact HIc50
    isplitr; · iexact HIr
    isplitl [HoZ6]; · iexact HoZ6
    isplitl [Hd]; · iexact Hd
    isplitl [HO]; · iexact HO
    isplitl [Hts]; · iexact Hts
    isplitr; · iexact HRs
    isplitl [Htr]; · iexact Htr
    iexact HRr
  iintro ⟨Hczs6, HO⟩
  iclear HIr HRs HRr
  sl_exec
  -- own chunk 6 to the y-neighbour
  icases Htk with ⟨Hts, Htr, Htk⟩
  icases HIt with ⟨#HIc66, #HIr, HIt⟩
  icases HRt with ⟨#HRs, #HRr, HRt⟩
  icases HqY with ⟨⟨%fd, Hd⟩, HqY⟩
  iapply (send_y_at m cc _ (dev32_eq cc) 6 _ _ (k0_off40_eq cc) fd (owedL (List.drop 32 (paysL cc))) rfl _) $$ [HoY6 Hd HO Hts Htr]
  · isplitr; · iexact HIc66
    isplitr; · iexact HIr
    isplitl [HoY6]; · iexact HoY6
    isplitl [Hd]; · iexact Hd
    isplitl [HO]; · iexact HO
    isplitl [Hts]; · iexact Hts
    isplitr; · iexact HRs
    isplitl [Htr]; · iexact Htr
    iexact HRr
  iintro ⟨Hcys6, HO⟩
  iclear HIr HRs HRr
  sl_exec
  -- the z-neighbour's chunk 5 has landed
  icases Hcr with ⟨Hc, Hcr⟩
  icases HpR with ⟨Hp, HpR⟩
  icases HIw with ⟨#HIc57, HIw⟩
  ihave Hmw := (mayWait_list (F := F) cc (dsem (⟨57, by decide⟩ : Fin 140)) (List.drop 32 (paysL cc)) (by decide)) $$ Hlev
  iapply (wait_a5_at m cc _ 5 rfl) $$ [Hc HO Hmw Hp]
  · isplitr; · iexact HIc57
    isplitl [Hc]; · iexact Hc
    isplitl [HO]; · iexact HO
    isplitl [Hmw]; · iexact Hmw
    iexact Hp
  iintro ⟨HO, Hq57, -, Hz5⟩
  sl_exec
  -- the y-neighbour's chunk 5 has landed
  icases Hcr with ⟨Hc, Hcr⟩
  icases HpR with ⟨Hp, HpR⟩
  icases HIw with ⟨#HIc73, HIw⟩
  ihave Hmw := (mayWait_list (F := F) cc (dsem (⟨73, by decide⟩ : Fin 140)) (List.drop 32 (paysL cc)) (by decide)) $$ Hlev
  iapply (wait_a7_at m cc _ 5 rfl) $$ [Hc HO Hmw Hp]
  · isplitr; · iexact HIc73
    isplitl [Hc]; · iexact Hc
    isplitl [HO]; · iexact HO
    isplitl [Hmw]; · iexact Hmw
    iexact Hp
  iintro ⟨HO, Hq73, -, Hy5⟩
  -- chunk 5 of the two neighbours' quarters: half its ownership stays for the copy into the result, of the other half one column half travels on
  ihave Hz5 := (Entails.of_eq (share_FG_eq (F := F) (r4R (zqF cc) 5) cc (r4 m cc))) $$ Hz5
  icases Hz5 with ⟨HzF5, HzG5⟩
  ihave HzF5 := (Entails.of_eq (chunk_halves (F := F) cc (zqF cc) 5 shF (r4 m cc))) $$ HzF5
  icases HzF5 with ⟨HzFl5, HzFr5⟩
  ihave Hy5 := (Entails.of_eq (share_FG_eq (F := F) (r4R (yqF cc) 5) cc (r4 m cc))) $$ Hy5
  icases Hy5 with ⟨HyF5, HyG5⟩
  ihave HyF5 := (Entails.of_eq (chunk_halves (F := F) cc (yqF cc) 5 shF (r4 m cc))) $$ HyF5
  icases HyF5 with ⟨HyFl5, HyFr5⟩
  sl_exec
  -- the right half of the z-neighbour's chunk 5 on to the y-neighbour
  icases Htk with ⟨Hts, Htr, Htk⟩
  icases HIt with ⟨#HIc97, #HIr, HIt⟩
  icases HRt with ⟨#HRs, #HRr, HRt⟩
  icases HhYp with ⟨⟨%fd, Hd⟩, HhYp⟩
  iapply (send_yf_at m cc _ (dev33_eq cc) 5 (by decide) _ _ (k0_off41_eq cc) fd (owedL (List.drop 33 (paysL cc))) rfl _) $$ [HzFr5 Hd HO Hts Htr]
  · isplitr; · iexact HIc97
    isplitr; · iexact HIr
    isplitl [HzFr5]; · iexact HzFr5
    isplitl [Hd]; · iexact Hd
    isplitl [HO]; · iexact HO
    isplitl [Hts]; · iexact Hts
    isplitr; · iexact HRs
    isplitl [Htr]; · iexact Htr
    iexact HRr
  iintro ⟨Hcyfs5, HO⟩
  iclear HIr HRs HRr
  sl_exec
  -- the left half of the y-neighbour's chunk 5 on to the z-neighbour
  icases Htk with ⟨Hts, Htr, Htk⟩
  icases HIt with ⟨#HIc81, #HIr, HIt⟩
  icases HRt with ⟨#HRs, #HRr, HRt⟩
  icases HhZp with ⟨⟨%fd, Hd⟩, HhZp⟩
  iapply (send_zf_at m cc _ (dev34_eq cc) 5 (by decide) _ _ (k0_off42_eq cc) fd (owedL (List.drop 34 (paysL cc))) rfl _) $$ [HyFl5 Hd HO Hts Htr]
  · isplitr; · iexact HIc81
    isplitr; · iexact HIr
    isplitl [HyFl5]; · iexact HyFl5
    isplitl [Hd]; · iexact Hd
    isplitl [HO]; · iexact HO
    isplitl [Hts]; · iexact Hts
    isplitr; · iexact HRs
    isplitl [Htr]; · iexact Htr
    iexact HRr
  iintro ⟨Hczfs5, HO⟩
  iclear HIr HRs HRr
  sl_exec
  -- the left half of chunk 4 of the diagonal quarter has landed
  icases Hcr with ⟨Hc, Hcr⟩
  icases HpR with ⟨Hp, HpR⟩
  icases HIw with ⟨#HIc88, HIw⟩
  ihave Hmw := (mayWait_list (F := F) cc (dsem (⟨88, by decide⟩ : Fin 140)) (List.drop 34 (paysL cc)) (by decide)) $$ Hlev
  iapply (wait_a9_at m cc _ 4 rfl (by decide)) $$ [Hc HO Hmw Hp]
  · isplitr; · iexact HIc88
    isplitl [Hc]; · iexact Hc
    isplitl [HO]; · iexact HO
    isplitl [Hmw]; · iexact Hmw
    iexact Hp
  iintro ⟨HO, Hq88, -, Hdl4⟩
  sl_exec
  -- its right half has landed
  icases Hcr with ⟨Hc, Hcr⟩
  icases HpR with ⟨Hp, HpR⟩
  icases HIw with ⟨#HIc104, HIw⟩
  ihave Hmw := (mayWait_list (F := F) cc (dsem (⟨104, by decide⟩ : Fin 140)) (List.drop 34 (paysL cc)) (by decide)) $$ Hlev
  iapply (wait_a11_at m cc _ 4 rfl (by decide)) $$ [Hc HO Hmw Hp]
  · isplitr; · iexact HIc104
    isplitl [Hc]; · iexact Hc
    isplitl [HO]; · iexact HO
    isplitl [Hmw]; · iexact Hmw
    iexact Hp
  iintro ⟨HO, Hq104, -, Hdr4⟩
  ihave Hd4 := (Entails.of_eq (chunk_halves (F := F) cc (dqF cc) 4 fullShare (r4 m cc)).symm) $$ [Hdl4 Hdr4]
  · isplitl [Hdl4]; · iexact Hdl4
    iexact Hdr4
  -- the four copies of chunk 4 into the result
  icases HvO with ⟨Hw4a, Hw4b, Hw4c, Hw4d, HvO⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  -- step 7 of the main loop: the x-neighbour's chunk 7 has landed
  icases Hcr with ⟨Hc, Hcr⟩
  icases HpR with ⟨Hp, HpR⟩
  icases HIw with ⟨#HIc37, HIw⟩
  ihave Hmw := (mayWait_list (F := F) cc (dsem (⟨37, by decide⟩ : Fin 140)) (List.drop 34 (paysL cc)) (by decide)) $$ Hlev
  iapply (wait_a1_at m cc _ 7 rfl) $$ [Hc HO Hmw Hp]
  · isplitr; · iexact HIc37
    isplitl [Hc]; · iexact Hc
    isplitl [HO]; · iexact HO
    isplitl [Hmw]; · iexact Hmw
    iexact Hp
  iintro ⟨HO, Hq37, -, Hrb7⟩
  icases Hown with ⟨Ho7⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  ihave Ho7 := (congr (F := F) (r4R (mqF cc) 7) cc fullShare (dev.sl.Ho7_w1 m f0) (r4 m cc) (fun i hi => glue_own m cc 7 _ (k0_off16_inb cc) (k0_off16_eq cc) _ (k0_off43_inb cc) (k0_off43_eq cc) f0 i hi)) $$ Ho7
  ihave Ho7 := (Entails.of_eq (share_ZYK_eq (F := F) (r4R (mqF cc) 7) cc (r4 m cc))) $$ Ho7
  icases Ho7 with ⟨HoZ7, HoY7, HoK7⟩
  -- own chunk 7 to the z-neighbour
  icases Htk with ⟨Hts, Htr, Htk⟩
  icases HIt with ⟨#HIc51, #HIr, HIt⟩
  icases HRt with ⟨#HRs, #HRr, HRt⟩
  icases HqZ with ⟨%fd, Hd⟩
  iapply (send_z_at m cc _ (dev35_eq cc) 7 _ _ (k0_off44_eq cc) fd (owedL (List.drop 35 (paysL cc))) rfl _) $$ [HoZ7 Hd HO Hts Htr]
  · isplitr; · iexact HIc51
    isplitr; · iexact HIr
    isplitl [HoZ7]; · iexact HoZ7
    isplitl [Hd]; · iexact Hd
    isplitl [HO]; · iexact HO
    isplitl [Hts]; · iexact Hts
    isplitr; · iexact HRs
    isplitl [Htr]; · iexact Htr
    iexact HRr
  iintro ⟨Hczs7, HO⟩
  iclear HIr HRs HRr
  sl_exec
  -- own chunk 7 to the y-neighbour
  icases Htk with ⟨Hts, Htr, Htk⟩
  icases HIt with ⟨#HIc67, #HIr, HIt⟩
  icases HRt with ⟨#HRs, #HRr, HRt⟩
  icases HqY with ⟨%fd, Hd⟩
  iapply (send_y_at m cc _ (dev36_eq cc) 7 _ _ (k0_off44_eq cc) fd (owedL (List.drop 36 (paysL cc))) rfl _) $$ [HoY7 Hd HO Hts Htr]
  · isplitr; · iexact HIc67
    isplitr; · iexact HIr
    isplitl [HoY7]; · iexact HoY7
    isplitl [Hd]; · iexact Hd
    isplitl [HO]; · iexact HO
    isplitl [Hts]; · iexact Hts
    isplitr; · iexact HRs
    isplitl [Htr]; · iexact Htr
    iexact HRr
  iintro ⟨Hcys7, HO⟩
  iclear HIr HRs HRr
  sl_exec
  -- the z-neighbour's chunk 6 has landed
  icases Hcr with ⟨Hc, Hcr⟩
  icases HpR with ⟨Hp, HpR⟩
  icases HIw with ⟨#HIc58, HIw⟩
  ihave Hmw := (mayWait_list (F := F) cc (dsem (⟨58, by decide⟩ : Fin 140)) (List.drop 36 (paysL cc)) (by decide)) $$ Hlev
  iapply (wait_a5_at m cc _ 6 rfl) $$ [Hc HO Hmw Hp]
  · isplitr; · iexact HIc58
    isplitl [Hc]; · iexact Hc
    isplitl [HO]; · iexact HO
    isplitl [Hmw]; · iexact Hmw
    iexact Hp
  iintro ⟨HO, Hq58, -, Hz6⟩
  sl_exec
  -- the y-neighbour's chunk 6 has landed
  icases Hcr with ⟨Hc, Hcr⟩
  icases HpR with ⟨Hp, HpR⟩
  icases HIw with ⟨#HIc74, HIw⟩
  ihave Hmw := (mayWait_list (F := F) cc (dsem (⟨74, by decide⟩ : Fin 140)) (List.drop 36 (paysL cc)) (by decide)) $$ Hlev
  iapply (wait_a7_at m cc _ 6 rfl) $$ [Hc HO Hmw Hp]
  · isplitr; · iexact HIc74
    isplitl [Hc]; · iexact Hc
    isplitl [HO]; · iexact HO
    isplitl [Hmw]; · iexact Hmw
    iexact Hp
  iintro ⟨HO, Hq74, -, Hy6⟩
  -- chunk 6 of the two neighbours' quarters: half its ownership stays for the copy into the result, of the other half one column half travels on
  ihave Hz6 := (Entails.of_eq (share_FG_eq (F := F) (r4R (zqF cc) 6) cc (r4 m cc))) $$ Hz6
  icases Hz6 with ⟨HzF6, HzG6⟩
  ihave HzF6 := (Entails.of_eq (chunk_halves (F := F) cc (zqF cc) 6 shF (r4 m cc))) $$ HzF6
  icases HzF6 with ⟨HzFl6, HzFr6⟩
  ihave Hy6 := (Entails.of_eq (share_FG_eq (F := F) (r4R (yqF cc) 6) cc (r4 m cc))) $$ Hy6
  icases Hy6 with ⟨HyF6, HyG6⟩
  ihave HyF6 := (Entails.of_eq (chunk_halves (F := F) cc (yqF cc) 6 shF (r4 m cc))) $$ HyF6
  icases HyF6 with ⟨HyFl6, HyFr6⟩
  sl_exec
  -- the right half of the z-neighbour's chunk 6 on to the y-neighbour
  icases Htk with ⟨Hts, Htr, Htk⟩
  icases HIt with ⟨#HIc98, #HIr, HIt⟩
  icases HRt with ⟨#HRs, #HRr, HRt⟩
  icases HhYp with ⟨⟨%fd, Hd⟩, HhYp⟩
  iapply (send_yf_at m cc _ (dev37_eq cc) 6 (by decide) _ _ (k0_off45_eq cc) fd (owedL (List.drop 37 (paysL cc))) rfl _) $$ [HzFr6 Hd HO Hts Htr]
  · isplitr; · iexact HIc98
    isplitr; · iexact HIr
    isplitl [HzFr6]; · iexact HzFr6
    isplitl [Hd]; · iexact Hd
    isplitl [HO]; · iexact HO
    isplitl [Hts]; · iexact Hts
    isplitr; · iexact HRs
    isplitl [Htr]; · iexact Htr
    iexact HRr
  iintro ⟨Hcyfs6, HO⟩
  iclear HIr HRs HRr
  sl_exec
  -- the left half of the y-neighbour's chunk 6 on to the z-neighbour
  icases Htk with ⟨Hts, Htr, Htk⟩
  icases HIt with ⟨#HIc82, #HIr, HIt⟩
  icases HRt with ⟨#HRs, #HRr, HRt⟩
  icases HhZp with ⟨⟨%fd, Hd⟩, HhZp⟩
  iapply (send_zf_at m cc _ (dev38_eq cc) 6 (by decide) _ _ (k0_off46_eq cc) fd (owedL (List.drop 38 (paysL cc))) rfl _) $$ [HyFl6 Hd HO Hts Htr]
  · isplitr; · iexact HIc82
    isplitr; · iexact HIr
    isplitl [HyFl6]; · iexact HyFl6
    isplitl [Hd]; · iexact Hd
    isplitl [HO]; · iexact HO
    isplitl [Hts]; · iexact Hts
    isplitr; · iexact HRs
    isplitl [Htr]; · iexact Htr
    iexact HRr
  iintro ⟨Hczfs6, HO⟩
  iclear HIr HRs HRr
  sl_exec
  -- the left half of chunk 5 of the diagonal quarter has landed
  icases Hcr with ⟨Hc, Hcr⟩
  icases HpR with ⟨Hp, HpR⟩
  icases HIw with ⟨#HIc89, HIw⟩
  ihave Hmw := (mayWait_list (F := F) cc (dsem (⟨89, by decide⟩ : Fin 140)) (List.drop 38 (paysL cc)) (by decide)) $$ Hlev
  iapply (wait_a9_at m cc _ 5 rfl (by decide)) $$ [Hc HO Hmw Hp]
  · isplitr; · iexact HIc89
    isplitl [Hc]; · iexact Hc
    isplitl [HO]; · iexact HO
    isplitl [Hmw]; · iexact Hmw
    iexact Hp
  iintro ⟨HO, Hq89, -, Hdl5⟩
  sl_exec
  -- its right half has landed
  icases Hcr with ⟨Hc, Hcr⟩
  icases HpR with ⟨Hp, HpR⟩
  icases HIw with ⟨#HIc105, HIw⟩
  ihave Hmw := (mayWait_list (F := F) cc (dsem (⟨105, by decide⟩ : Fin 140)) (List.drop 38 (paysL cc)) (by decide)) $$ Hlev
  iapply (wait_a11_at m cc _ 5 rfl (by decide)) $$ [Hc HO Hmw Hp]
  · isplitr; · iexact HIc105
    isplitl [Hc]; · iexact Hc
    isplitl [HO]; · iexact HO
    isplitl [Hmw]; · iexact Hmw
    iexact Hp
  iintro ⟨HO, Hq105, -, Hdr5⟩
  ihave Hd5 := (Entails.of_eq (chunk_halves (F := F) cc (dqF cc) 5 fullShare (r4 m cc)).symm) $$ [Hdl5 Hdr5]
  · isplitl [Hdl5]; · iexact Hdl5
    iexact Hdr5
  -- the four copies of chunk 5 into the result
  icases HvO with ⟨Hw5a, Hw5b, Hw5c, Hw5d, HvO⟩
  have hled38 : ∀ (s : DmaSem sig), lvJ s.val = 0 → ((levAts LL lvv : sProp 𝕄) ⊢ MayWait (cc : Thread nD τ) (.dma s) () (owedL (List.drop 38 (paysL cc)))) :=
    fun s hs => mayWait_local (F := F) cc s hs _ (by decide)
  sl_exec
  clear hled38
  -- after the loop: the z-neighbour's last chunk has landed
  icases Hcr with ⟨Hc, Hcr⟩
  icases HpR with ⟨Hp, HpR⟩
  icases HIw with ⟨#HIc59, HIw⟩
  ihave Hmw := (mayWait_list (F := F) cc (dsem (⟨59, by decide⟩ : Fin 140)) (List.drop 38 (paysL cc)) (by decide)) $$ Hlev
  iapply (wait_a5_at m cc _ 7 rfl) $$ [Hc HO Hmw Hp]
  · isplitr; · iexact HIc59
    isplitl [Hc]; · iexact Hc
    isplitl [HO]; · iexact HO
    isplitl [Hmw]; · iexact Hmw
    iexact Hp
  iintro ⟨HO, Hq59, -, Hz7⟩
  sl_exec
  -- the y-neighbour's last chunk has landed
  icases Hcr with ⟨Hc, Hcr⟩
  icases HpR with ⟨Hp, HpR⟩
  icases HIw with ⟨#HIc75, HIw⟩
  ihave Hmw := (mayWait_list (F := F) cc (dsem (⟨75, by decide⟩ : Fin 140)) (List.drop 38 (paysL cc)) (by decide)) $$ Hlev
  iapply (wait_a7_at m cc _ 7 rfl) $$ [Hc HO Hmw Hp]
  · isplitr; · iexact HIc75
    isplitl [Hc]; · iexact Hc
    isplitl [HO]; · iexact HO
    isplitl [Hmw]; · iexact Hmw
    iexact Hp
  iintro ⟨HO, Hq75, -, Hy7⟩
  -- chunk 7 of the two neighbours' quarters: half its ownership stays for the copy into the result, of the other half one column half travels on
  ihave Hz7 := (Entails.of_eq (share_FG_eq (F := F) (r4R (zqF cc) 7) cc (r4 m cc))) $$ Hz7
  icases Hz7 with ⟨HzF7, HzG7⟩
  ihave HzF7 := (Entails.of_eq (chunk_halves (F := F) cc (zqF cc) 7 shF (r4 m cc))) $$ HzF7
  icases HzF7 with ⟨HzFl7, HzFr7⟩
  ihave Hy7 := (Entails.of_eq (share_FG_eq (F := F) (r4R (yqF cc) 7) cc (r4 m cc))) $$ Hy7
  icases Hy7 with ⟨HyF7, HyG7⟩
  ihave HyF7 := (Entails.of_eq (chunk_halves (F := F) cc (yqF cc) 7 shF (r4 m cc))) $$ HyF7
  icases HyF7 with ⟨HyFl7, HyFr7⟩
  sl_exec
  -- the right half of the z-neighbour's last chunk on to the y-neighbour
  icases Htk with ⟨Hts, Htr, Htk⟩
  icases HIt with ⟨#HIc99, #HIr, HIt⟩
  icases HRt with ⟨#HRs, #HRr, HRt⟩
  icases HhYp with ⟨%fd, Hd⟩
  iapply (send_yf_at m cc _ (dev39_eq cc) 7 (by decide) _ _ (k0_off47_eq cc) fd (owedL (List.drop 39 (paysL cc))) rfl _) $$ [HzFr7 Hd HO Hts Htr]
  · isplitr; · iexact HIc99
    isplitr; · iexact HIr
    isplitl [HzFr7]; · iexact HzFr7
    isplitl [Hd]; · iexact Hd
    isplitl [HO]; · iexact HO
    isplitl [Hts]; · iexact Hts
    isplitr; · iexact HRs
    isplitl [Htr]; · iexact Htr
    iexact HRr
  iintro ⟨Hcyfs7, HO⟩
  iclear HIr HRs HRr
  sl_exec
  -- the left half of the y-neighbour's last chunk on to the z-neighbour
  icases Htk with ⟨Hts, Htr⟩
  icases HIt with ⟨#HIc83, #HIr⟩
  icases HRt with ⟨#HRs, #HRr⟩
  icases HhZp with ⟨%fd, Hd⟩
  iapply (send_zf_at m cc _ (dev40_eq cc) 7 (by decide) _ _ (k0_off48_eq cc) fd (owedL (List.drop 40 (paysL cc))) rfl _) $$ [HyFl7 Hd HO Hts Htr]
  · isplitr; · iexact HIc83
    isplitr; · iexact HIr
    isplitl [HyFl7]; · iexact HyFl7
    isplitl [Hd]; · iexact Hd
    isplitl [HO]; · iexact HO
    isplitl [Hts]; · iexact Hts
    isplitr; · iexact HRs
    isplitl [Htr]; · iexact Htr
    iexact HRr
  iintro ⟨Hczfs7, HO⟩
  iclear HIr HRs HRr
  sl_exec
  -- chunk 0 of the diagonal quarter: the x-neighbour's chunk has landed
  icases Hcr with ⟨Hc, Hcr⟩
  icases HpR with ⟨Hp, HpR⟩
  icases HIw with ⟨#HIc41, HIw⟩
  ihave Hmw := (mayWait_list (F := F) cc (dsem (⟨41, by decide⟩ : Fin 140)) (List.drop 40 (paysL cc)) (by decide)) $$ Hlev
  iapply (wait_a3_at m cc _ 0 rfl) $$ [Hc HO Hmw Hp]
  · isplitr; · iexact HIc41
    isplitl [Hc]; · iexact Hc
    isplitl [HO]; · iexact HO
    isplitl [Hmw]; · iexact Hmw
    iexact Hp
  iintro ⟨HO, Hq41, -, Hrb20⟩
  icases Hdg with ⟨Hdq0, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq0 := (congr (F := F) (r4R (dqF cc) 0) cc fullShare (dev.sl.Hdq0_w1 m f0) (r4 m cc) (fun i hi => glue_dgn m cc 0 0 rfl _ (k0_off18_inb cc) (k0_off18_eq cc) _ (k0_off49_inb cc) (k0_off49_eq cc) f0 i hi)) $$ Hdq0
  -- the four copies of chunk 0 into the result
  icases HvO with ⟨Hw0a, Hw0b, Hw0c, Hw0d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 1 of the diagonal quarter: the x-neighbour's chunk has landed
  icases Hcr with ⟨Hc, Hcr⟩
  icases HpR with ⟨Hp, HpR⟩
  icases HIw with ⟨#HIc42, HIw⟩
  ihave Hmw := (mayWait_list (F := F) cc (dsem (⟨42, by decide⟩ : Fin 140)) (List.drop 40 (paysL cc)) (by decide)) $$ Hlev
  iapply (wait_a3_at m cc _ 1 rfl) $$ [Hc HO Hmw Hp]
  · isplitr; · iexact HIc42
    isplitl [Hc]; · iexact Hc
    isplitl [HO]; · iexact HO
    isplitl [Hmw]; · iexact Hmw
    iexact Hp
  iintro ⟨HO, Hq42, -, Hrb21⟩
  icases Hdg with ⟨Hdq1, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq1 := (congr (F := F) (r4R (dqF cc) 1) cc fullShare (dev.sl.Hdq1_w1 m f0) (r4 m cc) (fun i hi => glue_dgn m cc 1 1 rfl _ (k0_off20_inb cc) (k0_off20_eq cc) _ (k0_off50_inb cc) (k0_off50_eq cc) f0 i hi)) $$ Hdq1
  -- the four copies of chunk 1 into the result
  icases HvO with ⟨Hw1a, Hw1b, Hw1c, Hw1d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 2 of the diagonal quarter: the x-neighbour's chunk has landed
  icases Hcr with ⟨Hc, Hcr⟩
  icases HpR with ⟨Hp, HpR⟩
  icases HIw with ⟨#HIc43, HIw⟩
  ihave Hmw := (mayWait_list (F := F) cc (dsem (⟨43, by decide⟩ : Fin 140)) (List.drop 40 (paysL cc)) (by decide)) $$ Hlev
  iapply (wait_a3_at m cc _ 2 rfl) $$ [Hc HO Hmw Hp]
  · isplitr; · iexact HIc43
    isplitl [Hc]; · iexact Hc
    isplitl [HO]; · iexact HO
    isplitl [Hmw]; · iexact Hmw
    iexact Hp
  iintro ⟨HO, Hq43, -, Hrb22⟩
  icases Hdg with ⟨Hdq2⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq2 := (congr (F := F) (r4R (dqF cc) 2) cc fullShare (dev.sl.Hdq2_w1 m f0) (r4 m cc) (fun i hi => glue_dgn m cc 2 2 rfl _ (k0_off22_inb cc) (k0_off22_eq cc) _ (k0_off51_inb cc) (k0_off51_eq cc) f0 i hi)) $$ Hdq2
  -- the four copies of chunk 2 into the result
  icases HvO with ⟨Hw2a, Hw2b, Hw2c, Hw2d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 6 of the diagonal quarter has landed
  icases Hcr with ⟨Hc, Hcr⟩
  icases HpR with ⟨Hp, HpR⟩
  icases HIw with ⟨#HIc90, HIw⟩
  ihave Hmw := (mayWait_list (F := F) cc (dsem (⟨90, by decide⟩ : Fin 140)) (List.drop 40 (paysL cc)) (by decide)) $$ Hlev
  iapply (wait_a9_at m cc _ 6 rfl (by decide)) $$ [Hc HO Hmw Hp]
  · isplitr; · iexact HIc90
    isplitl [Hc]; · iexact Hc
    isplitl [HO]; · iexact HO
    isplitl [Hmw]; · iexact Hmw
    iexact Hp
  iintro ⟨HO, Hq90, -, Hdl6⟩
  sl_exec
  -- its right half has landed
  icases Hcr with ⟨Hc, Hcr⟩
  icases HpR with ⟨Hp, HpR⟩
  icases HIw with ⟨#HIc106, HIw⟩
  ihave Hmw := (mayWait_list (F := F) cc (dsem (⟨106, by decide⟩ : Fin 140)) (List.drop 40 (paysL cc)) (by decide)) $$ Hlev
  iapply (wait_a11_at m cc _ 6 rfl (by decide)) $$ [Hc HO Hmw Hp]
  · isplitr; · iexact HIc106
    isplitl [Hc]; · iexact Hc
    isplitl [HO]; · iexact HO
    isplitl [Hmw]; · iexact Hmw
    iexact Hp
  iintro ⟨HO, Hq106, -, Hdr6⟩
  ihave Hd6 := (Entails.of_eq (chunk_halves (F := F) cc (dqF cc) 6 fullShare (r4 m cc)).symm) $$ [Hdl6 Hdr6]
  · isplitl [Hdl6]; · iexact Hdl6
    iexact Hdr6
  -- the four copies of chunk 6 into the result
  icases HvO with ⟨Hw6a, Hw6b, Hw6c, Hw6d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 7 of the diagonal quarter has landed
  icases Hcr with ⟨Hc, Hcr⟩
  icases HpR with ⟨Hp, HpR⟩
  icases HIw with ⟨#HIc91, HIw⟩
  ihave Hcr := ((sep_emp (PROP := sProp 𝕄)).2) $$ Hcr
  ihave Hmw := (mayWait_list (F := F) cc (dsem (⟨91, by decide⟩ : Fin 140)) (List.drop 40 (paysL cc)) (by decide)) $$ Hlev
  iapply (wait_a9_at m cc _ 7 rfl (by decide)) $$ [Hc HO Hmw Hp]
  · isplitr; · iexact HIc91
    isplitl [Hc]; · iexact Hc
    isplitl [HO]; · iexact HO
    isplitl [Hmw]; · iexact Hmw
    iexact Hp
  iintro ⟨HO, Hq91, -, Hdl7⟩
  sl_exec
  -- its right half has landed
  icases HIw with #HIc107
  icases Hcr with ⟨Hcr, -⟩
  ihave Hmw := (mayWait_list (F := F) cc (dsem (⟨107, by decide⟩ : Fin 140)) (List.drop 40 (paysL cc)) (by decide)) $$ Hlev
  iapply (wait_a11_at m cc _ 7 rfl (by decide)) $$ [Hcr HO Hmw HpR]
  · isplitr; · iexact HIc107
    isplitl [Hcr]; · iexact Hcr
    isplitl [HO]; · iexact HO
    isplitl [Hmw]; · iexact Hmw
    iexact HpR
  iintro ⟨HO, Hq107, -, Hdr7⟩
  ihave Hd7 := (Entails.of_eq (chunk_halves (F := F) cc (dqF cc) 7 fullShare (r4 m cc)).symm) $$ [Hdl7 Hdr7]
  · isplitl [Hdl7]; · iexact Hdl7
    iexact Hdr7
  -- the four copies of chunk 7 into the result
  icases HvO with ⟨Hw7a, Hw7b, Hw7c, Hw7d⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- nothing is owed any more: the level fact for the remaining local waits, once
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  -- the departure of chunk 0 across x
  icases HpS with ⟨Hp, HpS⟩
  ihave Hmw := (mayWait_list (F := F) cc (dsem (⟨22, by decide⟩ : Fin 140)) (List.drop 40 (paysL cc)) (by decide)) $$ Hlev
  iapply (wait_a0_at m cc _ 0 rfl) $$ [Hcxs0 HO Hmw Hp]
  · isplitr; · iexact HIc22
    isplitl [Hcxs0]; · iexact Hcxs0
    isplitl [HO]; · iexact HO
    isplitl [Hmw]; · iexact Hmw
    iexact Hp
  iintro ⟨HO, Hq22, -, HBs0⟩
  sl_exec
  -- of own chunk 0 to z
  icases HpS with ⟨Hp, HpS⟩
  ihave Hmw := (mayWait_list (F := F) cc (dsem (⟨44, by decide⟩ : Fin 140)) (List.drop 40 (paysL cc)) (by decide)) $$ Hlev
  iapply (wait_a4_at m cc _ 0 rfl) $$ [Hczs0 HO Hmw Hp]
  · isplitr; · iexact HIc44
    isplitl [Hczs0]; · iexact Hczs0
    isplitl [HO]; · iexact HO
    isplitl [Hmw]; · iexact Hmw
    iexact Hp
  iintro ⟨HO, Hq44, -, HoZb0⟩
  sl_exec
  -- of own chunk 0 to y
  icases HpS with ⟨Hp, HpS⟩
  ihave Hmw := (mayWait_list (F := F) cc (dsem (⟨60, by decide⟩ : Fin 140)) (List.drop 40 (paysL cc)) (by decide)) $$ Hlev
  iapply (wait_a6_at m cc _ 0 rfl) $$ [Hcys0 HO Hmw Hp]
  · isplitr; · iexact HIc60
    isplitl [Hcys0]; · iexact Hcys0
    isplitl [HO]; · iexact HO
    isplitl [Hmw]; · iexact Hmw
    iexact Hp
  iintro ⟨HO, Hq60, -, HoYb0⟩
  sl_exec
  -- the departure of chunk 1 across x
  icases HpS with ⟨Hp, HpS⟩
  ihave Hmw := (mayWait_list (F := F) cc (dsem (⟨23, by decide⟩ : Fin 140)) (List.drop 40 (paysL cc)) (by decide)) $$ Hlev
  iapply (wait_a0_at m cc _ 1 rfl) $$ [Hcxs1 HO Hmw Hp]
  · isplitr; · iexact HIc23
    isplitl [Hcxs1]; · iexact Hcxs1
    isplitl [HO]; · iexact HO
    isplitl [Hmw]; · iexact Hmw
    iexact Hp
  iintro ⟨HO, Hq23, -, HBs1⟩
  sl_exec
  -- of own chunk 1 to z
  icases HpS with ⟨Hp, HpS⟩
  ihave Hmw := (mayWait_list (F := F) cc (dsem (⟨45, by decide⟩ : Fin 140)) (List.drop 40 (paysL cc)) (by decide)) $$ Hlev
  iapply (wait_a4_at m cc _ 1 rfl) $$ [Hczs1 HO Hmw Hp]
  · isplitr; · iexact HIc45
    isplitl [Hczs1]; · iexact Hczs1
    isplitl [HO]; · iexact HO
    isplitl [Hmw]; · iexact Hmw
    iexact Hp
  iintro ⟨HO, Hq45, -, HoZb1⟩
  sl_exec
  -- of own chunk 1 to y
  icases HpS with ⟨Hp, HpS⟩
  ihave Hmw := (mayWait_list (F := F) cc (dsem (⟨61, by decide⟩ : Fin 140)) (List.drop 40 (paysL cc)) (by decide)) $$ Hlev
  iapply (wait_a6_at m cc _ 1 rfl) $$ [Hcys1 HO Hmw Hp]
  · isplitr; · iexact HIc61
    isplitl [Hcys1]; · iexact Hcys1
    isplitl [HO]; · iexact HO
    isplitl [Hmw]; · iexact Hmw
    iexact Hp
  iintro ⟨HO, Hq61, -, HoYb1⟩
  sl_exec
  -- the departure of chunk 2 across x
  icases HpS with ⟨Hp, HpS⟩
  ihave Hmw := (mayWait_list (F := F) cc (dsem (⟨24, by decide⟩ : Fin 140)) (List.drop 40 (paysL cc)) (by decide)) $$ Hlev
  iapply (wait_a0_at m cc _ 2 rfl) $$ [Hcxs2 HO Hmw Hp]
  · isplitr; · iexact HIc24
    isplitl [Hcxs2]; · iexact Hcxs2
    isplitl [HO]; · iexact HO
    isplitl [Hmw]; · iexact Hmw
    iexact Hp
  iintro ⟨HO, Hq24, -, HBs2⟩
  sl_exec
  -- of own chunk 2 to z
  icases HpS with ⟨Hp, HpS⟩
  ihave Hmw := (mayWait_list (F := F) cc (dsem (⟨46, by decide⟩ : Fin 140)) (List.drop 40 (paysL cc)) (by decide)) $$ Hlev
  iapply (wait_a4_at m cc _ 2 rfl) $$ [Hczs2 HO Hmw Hp]
  · isplitr; · iexact HIc46
    isplitl [Hczs2]; · iexact Hczs2
    isplitl [HO]; · iexact HO
    isplitl [Hmw]; · iexact Hmw
    iexact Hp
  iintro ⟨HO, Hq46, -, HoZb2⟩
  sl_exec
  -- of own chunk 2 to y
  icases HpS with ⟨Hp, HpS⟩
  ihave Hmw := (mayWait_list (F := F) cc (dsem (⟨62, by decide⟩ : Fin 140)) (List.drop 40 (paysL cc)) (by decide)) $$ Hlev
  iapply (wait_a6_at m cc _ 2 rfl) $$ [Hcys2 HO Hmw Hp]
  · isplitr; · iexact HIc62
    isplitl [Hcys2]; · iexact Hcys2
    isplitl [HO]; · iexact HO
    isplitl [Hmw]; · iexact Hmw
    iexact Hp
  iintro ⟨HO, Hq62, -, HoYb2⟩
  sl_exec
  -- the departure of chunk 3 across x
  icases HpS with ⟨Hp, HpS⟩
  ihave Hmw := (mayWait_list (F := F) cc (dsem (⟨25, by decide⟩ : Fin 140)) (List.drop 40 (paysL cc)) (by decide)) $$ Hlev
  iapply (wait_a0_at m cc _ 3 rfl) $$ [Hcxs3 HO Hmw Hp]
  · isplitr; · iexact HIc25
    isplitl [Hcxs3]; · iexact Hcxs3
    isplitl [HO]; · iexact HO
    isplitl [Hmw]; · iexact Hmw
    iexact Hp
  iintro ⟨HO, Hq25, -, HBs3⟩
  sl_exec
  -- of own chunk 3 to z
  icases HpS with ⟨Hp, HpS⟩
  ihave Hmw := (mayWait_list (F := F) cc (dsem (⟨47, by decide⟩ : Fin 140)) (List.drop 40 (paysL cc)) (by decide)) $$ Hlev
  iapply (wait_a4_at m cc _ 3 rfl) $$ [Hczs3 HO Hmw Hp]
  · isplitr; · iexact HIc47
    isplitl [Hczs3]; · iexact Hczs3
    isplitl [HO]; · iexact HO
    isplitl [Hmw]; · iexact Hmw
    iexact Hp
  iintro ⟨HO, Hq47, -, HoZb3⟩
  sl_exec
  -- of own chunk 3 to y
  icases HpS with ⟨Hp, HpS⟩
  ihave Hmw := (mayWait_list (F := F) cc (dsem (⟨63, by decide⟩ : Fin 140)) (List.drop 40 (paysL cc)) (by decide)) $$ Hlev
  iapply (wait_a6_at m cc _ 3 rfl) $$ [Hcys3 HO Hmw Hp]
  · isplitr; · iexact HIc63
    isplitl [Hcys3]; · iexact Hcys3
    isplitl [HO]; · iexact HO
    isplitl [Hmw]; · iexact Hmw
    iexact Hp
  iintro ⟨HO, Hq63, -, HoYb3⟩
  sl_exec
  -- of the forwarded half to z
  icases HpS with ⟨Hp, HpS⟩
  ihave Hmw := (mayWait_list (F := F) cc (dsem (⟨79, by decide⟩ : Fin 140)) (List.drop 40 (paysL cc)) (by decide)) $$ Hlev
  iapply (wait_a8_at m cc _ 3 rfl (by decide)) $$ [Hczfs3 HO Hmw Hp]
  · isplitr; · iexact HIc79
    isplitl [Hczfs3]; · iexact Hczfs3
    isplitl [HO]; · iexact HO
    isplitl [Hmw]; · iexact Hmw
    iexact Hp
  iintro ⟨HO, Hq79, -, HyFlb3⟩
  sl_exec
  -- of the forwarded half to y
  icases HpS with ⟨Hp, HpS⟩
  ihave Hmw := (mayWait_list (F := F) cc (dsem (⟨95, by decide⟩ : Fin 140)) (List.drop 40 (paysL cc)) (by decide)) $$ Hlev
  iapply (wait_a10_at m cc _ 3 rfl (by decide)) $$ [Hcyfs3 HO Hmw Hp]
  · isplitr; · iexact HIc95
    isplitl [Hcyfs3]; · iexact Hcyfs3
    isplitl [HO]; · iexact HO
    isplitl [Hmw]; · iexact Hmw
    iexact Hp
  iintro ⟨HO, Hq95, -, HzFrb3⟩
  sl_exec
  -- the departure of chunk 4 across x
  icases HpS with ⟨Hp, HpS⟩
  ihave Hmw := (mayWait_list (F := F) cc (dsem (⟨26, by decide⟩ : Fin 140)) (List.drop 40 (paysL cc)) (by decide)) $$ Hlev
  iapply (wait_a0_at m cc _ 4 rfl) $$ [Hcxs4 HO Hmw Hp]
  · isplitr; · iexact HIc26
    isplitl [Hcxs4]; · iexact Hcxs4
    isplitl [HO]; · iexact HO
    isplitl [Hmw]; · iexact Hmw
    iexact Hp
  iintro ⟨HO, Hq26, -, HBs4⟩
  sl_exec
  -- of own chunk 4 to z
  icases HpS with ⟨Hp, HpS⟩
  ihave Hmw := (mayWait_list (F := F) cc (dsem (⟨48, by decide⟩ : Fin 140)) (List.drop 40 (paysL cc)) (by decide)) $$ Hlev
  iapply (wait_a4_at m cc _ 4 rfl) $$ [Hczs4 HO Hmw Hp]
  · isplitr; · iexact HIc48
    isplitl [Hczs4]; · iexact Hczs4
    isplitl [HO]; · iexact HO
    isplitl [Hmw]; · iexact Hmw
    iexact Hp
  iintro ⟨HO, Hq48, -, HoZb4⟩
  sl_exec
  -- of own chunk 4 to y
  icases HpS with ⟨Hp, HpS⟩
  ihave Hmw := (mayWait_list (F := F) cc (dsem (⟨64, by decide⟩ : Fin 140)) (List.drop 40 (paysL cc)) (by decide)) $$ Hlev
  iapply (wait_a6_at m cc _ 4 rfl) $$ [Hcys4 HO Hmw Hp]
  · isplitr; · iexact HIc64
    isplitl [Hcys4]; · iexact Hcys4
    isplitl [HO]; · iexact HO
    isplitl [Hmw]; · iexact Hmw
    iexact Hp
  iintro ⟨HO, Hq64, -, HoYb4⟩
  sl_exec
  -- of the forwarded half to z
  icases HpS with ⟨Hp, HpS⟩
  ihave Hmw := (mayWait_list (F := F) cc (dsem (⟨80, by decide⟩ : Fin 140)) (List.drop 40 (paysL cc)) (by decide)) $$ Hlev
  iapply (wait_a8_at m cc _ 4 rfl (by decide)) $$ [Hczfs4 HO Hmw Hp]
  · isplitr; · iexact HIc80
    isplitl [Hczfs4]; · iexact Hczfs4
    isplitl [HO]; · iexact HO
    isplitl [Hmw]; · iexact Hmw
    iexact Hp
  iintro ⟨HO, Hq80, -, HyFlb4⟩
  sl_exec
  -- of the forwarded half to y
  icases HpS with ⟨Hp, HpS⟩
  ihave Hmw := (mayWait_list (F := F) cc (dsem (⟨96, by decide⟩ : Fin 140)) (List.drop 40 (paysL cc)) (by decide)) $$ Hlev
  iapply (wait_a10_at m cc _ 4 rfl (by decide)) $$ [Hcyfs4 HO Hmw Hp]
  · isplitr; · iexact HIc96
    isplitl [Hcyfs4]; · iexact Hcyfs4
    isplitl [HO]; · iexact HO
    isplitl [Hmw]; · iexact Hmw
    iexact Hp
  iintro ⟨HO, Hq96, -, HzFrb4⟩
  sl_exec
  -- the departure of chunk 5 across x
  icases HpS with ⟨Hp, HpS⟩
  ihave Hmw := (mayWait_list (F := F) cc (dsem (⟨27, by decide⟩ : Fin 140)) (List.drop 40 (paysL cc)) (by decide)) $$ Hlev
  iapply (wait_a0_at m cc _ 5 rfl) $$ [Hcxs5 HO Hmw Hp]
  · isplitr; · iexact HIc27
    isplitl [Hcxs5]; · iexact Hcxs5
    isplitl [HO]; · iexact HO
    isplitl [Hmw]; · iexact Hmw
    iexact Hp
  iintro ⟨HO, Hq27, -, HBs5⟩
  sl_exec
  -- of own chunk 5 to z
  icases HpS with ⟨Hp, HpS⟩
  ihave Hmw := (mayWait_list (F := F) cc (dsem (⟨49, by decide⟩ : Fin 140)) (List.drop 40 (paysL cc)) (by decide)) $$ Hlev
  iapply (wait_a4_at m cc _ 5 rfl) $$ [Hczs5 HO Hmw Hp]
  · isplitr; · iexact HIc49
    isplitl [Hczs5]; · iexact Hczs5
    isplitl [HO]; · iexact HO
    isplitl [Hmw]; · iexact Hmw
    iexact Hp
  iintro ⟨HO, Hq49, -, HoZb5⟩
  sl_exec
  -- of own chunk 5 to y
  icases HpS with ⟨Hp, HpS⟩
  ihave Hmw := (mayWait_list (F := F) cc (dsem (⟨65, by decide⟩ : Fin 140)) (List.drop 40 (paysL cc)) (by decide)) $$ Hlev
  iapply (wait_a6_at m cc _ 5 rfl) $$ [Hcys5 HO Hmw Hp]
  · isplitr; · iexact HIc65
    isplitl [Hcys5]; · iexact Hcys5
    isplitl [HO]; · iexact HO
    isplitl [Hmw]; · iexact Hmw
    iexact Hp
  iintro ⟨HO, Hq65, -, HoYb5⟩
  sl_exec
  -- of the forwarded half to z
  icases HpS with ⟨Hp, HpS⟩
  ihave Hmw := (mayWait_list (F := F) cc (dsem (⟨81, by decide⟩ : Fin 140)) (List.drop 40 (paysL cc)) (by decide)) $$ Hlev
  iapply (wait_a8_at m cc _ 5 rfl (by decide)) $$ [Hczfs5 HO Hmw Hp]
  · isplitr; · iexact HIc81
    isplitl [Hczfs5]; · iexact Hczfs5
    isplitl [HO]; · iexact HO
    isplitl [Hmw]; · iexact Hmw
    iexact Hp
  iintro ⟨HO, Hq81, -, HyFlb5⟩
  sl_exec
  -- of the forwarded half to y
  icases HpS with ⟨Hp, HpS⟩
  ihave Hmw := (mayWait_list (F := F) cc (dsem (⟨97, by decide⟩ : Fin 140)) (List.drop 40 (paysL cc)) (by decide)) $$ Hlev
  iapply (wait_a10_at m cc _ 5 rfl (by decide)) $$ [Hcyfs5 HO Hmw Hp]
  · isplitr; · iexact HIc97
    isplitl [Hcyfs5]; · iexact Hcyfs5
    isplitl [HO]; · iexact HO
    isplitl [Hmw]; · iexact Hmw
    iexact Hp
  iintro ⟨HO, Hq97, -, HzFrb5⟩
  sl_exec
  -- the departure of chunk 6 across x
  icases HpS with ⟨Hp, HpS⟩
  ihave Hmw := (mayWait_list (F := F) cc (dsem (⟨28, by decide⟩ : Fin 140)) (List.drop 40 (paysL cc)) (by decide)) $$ Hlev
  iapply (wait_a0_at m cc _ 6 rfl) $$ [Hcxs6 HO Hmw Hp]
  · isplitr; · iexact HIc28
    isplitl [Hcxs6]; · iexact Hcxs6
    isplitl [HO]; · iexact HO
    isplitl [Hmw]; · iexact Hmw
    iexact Hp
  iintro ⟨HO, Hq28, -, HBs6⟩
  sl_exec
  -- of own chunk 6 to z
  icases HpS with ⟨Hp, HpS⟩
  ihave Hmw := (mayWait_list (F := F) cc (dsem (⟨50, by decide⟩ : Fin 140)) (List.drop 40 (paysL cc)) (by decide)) $$ Hlev
  iapply (wait_a4_at m cc _ 6 rfl) $$ [Hczs6 HO Hmw Hp]
  · isplitr; · iexact HIc50
    isplitl [Hczs6]; · iexact Hczs6
    isplitl [HO]; · iexact HO
    isplitl [Hmw]; · iexact Hmw
    iexact Hp
  iintro ⟨HO, Hq50, -, HoZb6⟩
  sl_exec
  -- of own chunk 6 to y
  icases HpS with ⟨Hp, HpS⟩
  ihave Hmw := (mayWait_list (F := F) cc (dsem (⟨66, by decide⟩ : Fin 140)) (List.drop 40 (paysL cc)) (by decide)) $$ Hlev
  iapply (wait_a6_at m cc _ 6 rfl) $$ [Hcys6 HO Hmw Hp]
  · isplitr; · iexact HIc66
    isplitl [Hcys6]; · iexact Hcys6
    isplitl [HO]; · iexact HO
    isplitl [Hmw]; · iexact Hmw
    iexact Hp
  iintro ⟨HO, Hq66, -, HoYb6⟩
  sl_exec
  -- of the forwarded half to z
  icases HpS with ⟨Hp, HpS⟩
  ihave Hmw := (mayWait_list (F := F) cc (dsem (⟨82, by decide⟩ : Fin 140)) (List.drop 40 (paysL cc)) (by decide)) $$ Hlev
  iapply (wait_a8_at m cc _ 6 rfl (by decide)) $$ [Hczfs6 HO Hmw Hp]
  · isplitr; · iexact HIc82
    isplitl [Hczfs6]; · iexact Hczfs6
    isplitl [HO]; · iexact HO
    isplitl [Hmw]; · iexact Hmw
    iexact Hp
  iintro ⟨HO, Hq82, -, HyFlb6⟩
  sl_exec
  -- of the forwarded half to y
  icases HpS with ⟨Hp, HpS⟩
  ihave Hmw := (mayWait_list (F := F) cc (dsem (⟨98, by decide⟩ : Fin 140)) (List.drop 40 (paysL cc)) (by decide)) $$ Hlev
  iapply (wait_a10_at m cc _ 6 rfl (by decide)) $$ [Hcyfs6 HO Hmw Hp]
  · isplitr; · iexact HIc98
    isplitl [Hcyfs6]; · iexact Hcyfs6
    isplitl [HO]; · iexact HO
    isplitl [Hmw]; · iexact Hmw
    iexact Hp
  iintro ⟨HO, Hq98, -, HzFrb6⟩
  sl_exec
  -- the departure of chunk 7 across x
  icases HpS with ⟨Hp, HpS⟩
  ihave Hmw := (mayWait_list (F := F) cc (dsem (⟨29, by decide⟩ : Fin 140)) (List.drop 40 (paysL cc)) (by decide)) $$ Hlev
  iapply (wait_a0_at m cc _ 7 rfl) $$ [Hcxs7 HO Hmw Hp]
  · isplitr; · iexact HIc29
    isplitl [Hcxs7]; · iexact Hcxs7
    isplitl [HO]; · iexact HO
    isplitl [Hmw]; · iexact Hmw
    iexact Hp
  iintro ⟨HO, Hq29, -, HBs7⟩
  sl_exec
  -- of own chunk 7 to z
  icases HpS with ⟨Hp, HpS⟩
  ihave Hmw := (mayWait_list (F := F) cc (dsem (⟨51, by decide⟩ : Fin 140)) (List.drop 40 (paysL cc)) (by decide)) $$ Hlev
  iapply (wait_a4_at m cc _ 7 rfl) $$ [Hczs7 HO Hmw Hp]
  · isplitr; · iexact HIc51
    isplitl [Hczs7]; · iexact Hczs7
    isplitl [HO]; · iexact HO
    isplitl [Hmw]; · iexact Hmw
    iexact Hp
  iintro ⟨HO, Hq51, -, HoZb7⟩
  sl_exec
  -- of own chunk 7 to y
  icases HpS with ⟨Hp, HpS⟩
  ihave Hmw := (mayWait_list (F := F) cc (dsem (⟨67, by decide⟩ : Fin 140)) (List.drop 40 (paysL cc)) (by decide)) $$ Hlev
  iapply (wait_a6_at m cc _ 7 rfl) $$ [Hcys7 HO Hmw Hp]
  · isplitr; · iexact HIc67
    isplitl [Hcys7]; · iexact Hcys7
    isplitl [HO]; · iexact HO
    isplitl [Hmw]; · iexact Hmw
    iexact Hp
  iintro ⟨HO, Hq67, -, HoYb7⟩
  sl_exec
  -- of the forwarded half to z
  icases HpS with ⟨Hp, HpS⟩
  ihave Hmw := (mayWait_list (F := F) cc (dsem (⟨83, by decide⟩ : Fin 140)) (List.drop 40 (paysL cc)) (by decide)) $$ Hlev
  iapply (wait_a8_at m cc _ 7 rfl (by decide)) $$ [Hczfs7 HO Hmw Hp]
  · isplitr; · iexact HIc83
    isplitl [Hczfs7]; · iexact Hczfs7
    isplitl [HO]; · iexact HO
    isplitl [Hmw]; · iexact Hmw
    iexact Hp
  iintro ⟨HO, Hq83, -, HyFlb7⟩
  sl_exec
  -- of the forwarded half to y
  icases HpS with ⟨Hp, HpS⟩
  ihave Hmw := (mayWait_list (F := F) cc (dsem (⟨99, by decide⟩ : Fin 140)) (List.drop 40 (paysL cc)) (by decide)) $$ Hlev
  iapply (wait_a10_at m cc _ 7 rfl (by decide)) $$ [Hcyfs7 HO Hmw Hp]
  · isplitr; · iexact HIc99
    isplitl [Hcyfs7]; · iexact Hcyfs7
    isplitl [HO]; · iexact HO
    isplitl [Hmw]; · iexact Hmw
    iexact Hp
  iintro ⟨HO, Hq99, -, HzFrb7⟩
  sl_exec
  -- of chunk 0 of the diagonal quarter across x
  icases HpS with ⟨Hp, HpS⟩
  ihave Hmw := (mayWait_list (F := F) cc (dsem (⟨38, by decide⟩ : Fin 140)) (List.drop 40 (paysL cc)) (by decide)) $$ Hlev
  iapply (wait_a2_at m cc _ 0 rfl) $$ [Hcds0 HO Hmw Hp]
  · isplitr; · iexact HIc38
    isplitl [Hcds0]; · iexact Hcds0
    isplitl [HO]; · iexact HO
    isplitl [Hmw]; · iexact Hmw
    iexact Hp
  iintro ⟨HO, Hq38, -, HB2s0⟩
  sl_exec
  -- of chunk 1 of the diagonal quarter across x
  icases HpS with ⟨Hp, HpS⟩
  ihave HpS := ((sep_emp (PROP := sProp 𝕄)).2) $$ HpS
  ihave Hmw := (mayWait_list (F := F) cc (dsem (⟨39, by decide⟩ : Fin 140)) (List.drop 40 (paysL cc)) (by decide)) $$ Hlev
  iapply (wait_a2_at m cc _ 1 rfl) $$ [Hcds1 HO Hmw Hp]
  · isplitr; · iexact HIc39
    isplitl [Hcds1]; · iexact Hcds1
    isplitl [HO]; · iexact HO
    isplitl [Hmw]; · iexact Hmw
    iexact Hp
  iintro ⟨HO, Hq39, -, HB2s1⟩
  sl_exec
  -- of chunk 2 of the diagonal quarter across x

  icases HpS with ⟨HpS, -⟩
  ihave Hmw := (mayWait_list (F := F) cc (dsem (⟨40, by decide⟩ : Fin 140)) (List.drop 40 (paysL cc)) (by decide)) $$ Hlev
  iapply (wait_a2_at m cc _ 2 rfl) $$ [Hcds2 HO Hmw HpS]
  · isplitr; · iexact HIc40
    isplitl [Hcds2]; · iexact Hcds2
    isplitl [HO]; · iexact HO
    isplitl [Hmw]; · iexact Hmw
    iexact HpS
  iintro ⟨HO, Hq40, -, HB2s2⟩
  sl_exec
  -- every cell of the protocol on this device has had its one round: close them, their counters are the device's again
  imod (close_cell (F := F) m cc (⟨22, by decide⟩ : Fin 140) (by decide)) $$ [Hq22] with Hv22
  · isplitr; · iexact HIc22
    iexact Hq22
  imod (close_cell (F := F) m cc (⟨23, by decide⟩ : Fin 140) (by decide)) $$ [Hq23] with Hv23
  · isplitr; · iexact HIc23
    iexact Hq23
  imod (close_cell (F := F) m cc (⟨24, by decide⟩ : Fin 140) (by decide)) $$ [Hq24] with Hv24
  · isplitr; · iexact HIc24
    iexact Hq24
  imod (close_cell (F := F) m cc (⟨25, by decide⟩ : Fin 140) (by decide)) $$ [Hq25] with Hv25
  · isplitr; · iexact HIc25
    iexact Hq25
  imod (close_cell (F := F) m cc (⟨26, by decide⟩ : Fin 140) (by decide)) $$ [Hq26] with Hv26
  · isplitr; · iexact HIc26
    iexact Hq26
  imod (close_cell (F := F) m cc (⟨27, by decide⟩ : Fin 140) (by decide)) $$ [Hq27] with Hv27
  · isplitr; · iexact HIc27
    iexact Hq27
  imod (close_cell (F := F) m cc (⟨28, by decide⟩ : Fin 140) (by decide)) $$ [Hq28] with Hv28
  · isplitr; · iexact HIc28
    iexact Hq28
  imod (close_cell (F := F) m cc (⟨29, by decide⟩ : Fin 140) (by decide)) $$ [Hq29] with Hv29
  · isplitr; · iexact HIc29
    iexact Hq29
  imod (close_cell (F := F) m cc (⟨30, by decide⟩ : Fin 140) (by decide)) $$ [Hq30] with Hv30
  · isplitr; · iexact HIc30
    iexact Hq30
  imod (close_cell (F := F) m cc (⟨31, by decide⟩ : Fin 140) (by decide)) $$ [Hq31] with Hv31
  · isplitr; · iexact HIc31
    iexact Hq31
  imod (close_cell (F := F) m cc (⟨32, by decide⟩ : Fin 140) (by decide)) $$ [Hq32] with Hv32
  · isplitr; · iexact HIc32
    iexact Hq32
  imod (close_cell (F := F) m cc (⟨33, by decide⟩ : Fin 140) (by decide)) $$ [Hq33] with Hv33
  · isplitr; · iexact HIc33
    iexact Hq33
  imod (close_cell (F := F) m cc (⟨34, by decide⟩ : Fin 140) (by decide)) $$ [Hq34] with Hv34
  · isplitr; · iexact HIc34
    iexact Hq34
  imod (close_cell (F := F) m cc (⟨35, by decide⟩ : Fin 140) (by decide)) $$ [Hq35] with Hv35
  · isplitr; · iexact HIc35
    iexact Hq35
  imod (close_cell (F := F) m cc (⟨36, by decide⟩ : Fin 140) (by decide)) $$ [Hq36] with Hv36
  · isplitr; · iexact HIc36
    iexact Hq36
  imod (close_cell (F := F) m cc (⟨37, by decide⟩ : Fin 140) (by decide)) $$ [Hq37] with Hv37
  · isplitr; · iexact HIc37
    iexact Hq37
  imod (close_cell (F := F) m cc (⟨38, by decide⟩ : Fin 140) (by decide)) $$ [Hq38] with Hv38
  · isplitr; · iexact HIc38
    iexact Hq38
  imod (close_cell (F := F) m cc (⟨39, by decide⟩ : Fin 140) (by decide)) $$ [Hq39] with Hv39
  · isplitr; · iexact HIc39
    iexact Hq39
  imod (close_cell (F := F) m cc (⟨40, by decide⟩ : Fin 140) (by decide)) $$ [Hq40] with Hv40
  · isplitr; · iexact HIc40
    iexact Hq40
  imod (close_cell (F := F) m cc (⟨41, by decide⟩ : Fin 140) (by decide)) $$ [Hq41] with Hv41
  · isplitr; · iexact HIc41
    iexact Hq41
  imod (close_cell (F := F) m cc (⟨42, by decide⟩ : Fin 140) (by decide)) $$ [Hq42] with Hv42
  · isplitr; · iexact HIc42
    iexact Hq42
  imod (close_cell (F := F) m cc (⟨43, by decide⟩ : Fin 140) (by decide)) $$ [Hq43] with Hv43
  · isplitr; · iexact HIc43
    iexact Hq43
  imod (close_cell (F := F) m cc (⟨44, by decide⟩ : Fin 140) (by decide)) $$ [Hq44] with Hv44
  · isplitr; · iexact HIc44
    iexact Hq44
  imod (close_cell (F := F) m cc (⟨45, by decide⟩ : Fin 140) (by decide)) $$ [Hq45] with Hv45
  · isplitr; · iexact HIc45
    iexact Hq45
  imod (close_cell (F := F) m cc (⟨46, by decide⟩ : Fin 140) (by decide)) $$ [Hq46] with Hv46
  · isplitr; · iexact HIc46
    iexact Hq46
  imod (close_cell (F := F) m cc (⟨47, by decide⟩ : Fin 140) (by decide)) $$ [Hq47] with Hv47
  · isplitr; · iexact HIc47
    iexact Hq47
  imod (close_cell (F := F) m cc (⟨48, by decide⟩ : Fin 140) (by decide)) $$ [Hq48] with Hv48
  · isplitr; · iexact HIc48
    iexact Hq48
  imod (close_cell (F := F) m cc (⟨49, by decide⟩ : Fin 140) (by decide)) $$ [Hq49] with Hv49
  · isplitr; · iexact HIc49
    iexact Hq49
  imod (close_cell (F := F) m cc (⟨50, by decide⟩ : Fin 140) (by decide)) $$ [Hq50] with Hv50
  · isplitr; · iexact HIc50
    iexact Hq50
  imod (close_cell (F := F) m cc (⟨51, by decide⟩ : Fin 140) (by decide)) $$ [Hq51] with Hv51
  · isplitr; · iexact HIc51
    iexact Hq51
  imod (close_cell (F := F) m cc (⟨52, by decide⟩ : Fin 140) (by decide)) $$ [Hq52] with Hv52
  · isplitr; · iexact HIc52
    iexact Hq52
  imod (close_cell (F := F) m cc (⟨53, by decide⟩ : Fin 140) (by decide)) $$ [Hq53] with Hv53
  · isplitr; · iexact HIc53
    iexact Hq53
  imod (close_cell (F := F) m cc (⟨54, by decide⟩ : Fin 140) (by decide)) $$ [Hq54] with Hv54
  · isplitr; · iexact HIc54
    iexact Hq54
  imod (close_cell (F := F) m cc (⟨55, by decide⟩ : Fin 140) (by decide)) $$ [Hq55] with Hv55
  · isplitr; · iexact HIc55
    iexact Hq55
  imod (close_cell (F := F) m cc (⟨56, by decide⟩ : Fin 140) (by decide)) $$ [Hq56] with Hv56
  · isplitr; · iexact HIc56
    iexact Hq56
  imod (close_cell (F := F) m cc (⟨57, by decide⟩ : Fin 140) (by decide)) $$ [Hq57] with Hv57
  · isplitr; · iexact HIc57
    iexact Hq57
  imod (close_cell (F := F) m cc (⟨58, by decide⟩ : Fin 140) (by decide)) $$ [Hq58] with Hv58
  · isplitr; · iexact HIc58
    iexact Hq58
  imod (close_cell (F := F) m cc (⟨59, by decide⟩ : Fin 140) (by decide)) $$ [Hq59] with Hv59
  · isplitr; · iexact HIc59
    iexact Hq59
  imod (close_cell (F := F) m cc (⟨60, by decide⟩ : Fin 140) (by decide)) $$ [Hq60] with Hv60
  · isplitr; · iexact HIc60
    iexact Hq60
  imod (close_cell (F := F) m cc (⟨61, by decide⟩ : Fin 140) (by decide)) $$ [Hq61] with Hv61
  · isplitr; · iexact HIc61
    iexact Hq61
  imod (close_cell (F := F) m cc (⟨62, by decide⟩ : Fin 140) (by decide)) $$ [Hq62] with Hv62
  · isplitr; · iexact HIc62
    iexact Hq62
  imod (close_cell (F := F) m cc (⟨63, by decide⟩ : Fin 140) (by decide)) $$ [Hq63] with Hv63
  · isplitr; · iexact HIc63
    iexact Hq63
  imod (close_cell (F := F) m cc (⟨64, by decide⟩ : Fin 140) (by decide)) $$ [Hq64] with Hv64
  · isplitr; · iexact HIc64
    iexact Hq64
  imod (close_cell (F := F) m cc (⟨65, by decide⟩ : Fin 140) (by decide)) $$ [Hq65] with Hv65
  · isplitr; · iexact HIc65
    iexact Hq65
  imod (close_cell (F := F) m cc (⟨66, by decide⟩ : Fin 140) (by decide)) $$ [Hq66] with Hv66
  · isplitr; · iexact HIc66
    iexact Hq66
  imod (close_cell (F := F) m cc (⟨67, by decide⟩ : Fin 140) (by decide)) $$ [Hq67] with Hv67
  · isplitr; · iexact HIc67
    iexact Hq67
  imod (close_cell (F := F) m cc (⟨68, by decide⟩ : Fin 140) (by decide)) $$ [Hq68] with Hv68
  · isplitr; · iexact HIc68
    iexact Hq68
  imod (close_cell (F := F) m cc (⟨69, by decide⟩ : Fin 140) (by decide)) $$ [Hq69] with Hv69
  · isplitr; · iexact HIc69
    iexact Hq69
  imod (close_cell (F := F) m cc (⟨70, by decide⟩ : Fin 140) (by decide)) $$ [Hq70] with Hv70
  · isplitr; · iexact HIc70
    iexact Hq70
  imod (close_cell (F := F) m cc (⟨71, by decide⟩ : Fin 140) (by decide)) $$ [Hq71] with Hv71
  · isplitr; · iexact HIc71
    iexact Hq71
  imod (close_cell (F := F) m cc (⟨72, by decide⟩ : Fin 140) (by decide)) $$ [Hq72] with Hv72
  · isplitr; · iexact HIc72
    iexact Hq72
  imod (close_cell (F := F) m cc (⟨73, by decide⟩ : Fin 140) (by decide)) $$ [Hq73] with Hv73
  · isplitr; · iexact HIc73
    iexact Hq73
  imod (close_cell (F := F) m cc (⟨74, by decide⟩ : Fin 140) (by decide)) $$ [Hq74] with Hv74
  · isplitr; · iexact HIc74
    iexact Hq74
  imod (close_cell (F := F) m cc (⟨75, by decide⟩ : Fin 140) (by decide)) $$ [Hq75] with Hv75
  · isplitr; · iexact HIc75
    iexact Hq75
  imod (close_cell (F := F) m cc (⟨79, by decide⟩ : Fin 140) (by decide)) $$ [Hq79] with Hv79
  · isplitr; · iexact HIc79
    iexact Hq79
  imod (close_cell (F := F) m cc (⟨80, by decide⟩ : Fin 140) (by decide)) $$ [Hq80] with Hv80
  · isplitr; · iexact HIc80
    iexact Hq80
  imod (close_cell (F := F) m cc (⟨81, by decide⟩ : Fin 140) (by decide)) $$ [Hq81] with Hv81
  · isplitr; · iexact HIc81
    iexact Hq81
  imod (close_cell (F := F) m cc (⟨82, by decide⟩ : Fin 140) (by decide)) $$ [Hq82] with Hv82
  · isplitr; · iexact HIc82
    iexact Hq82
  imod (close_cell (F := F) m cc (⟨83, by decide⟩ : Fin 140) (by decide)) $$ [Hq83] with Hv83
  · isplitr; · iexact HIc83
    iexact Hq83
  imod (close_cell (F := F) m cc (⟨87, by decide⟩ : Fin 140) (by decide)) $$ [Hq87] with Hv87
  · isplitr; · iexact HIc87
    iexact Hq87
  imod (close_cell (F := F) m cc (⟨88, by decide⟩ : Fin 140) (by decide)) $$ [Hq88] with Hv88
  · isplitr; · iexact HIc88
    iexact Hq88
  imod (close_cell (F := F) m cc (⟨89, by decide⟩ : Fin 140) (by decide)) $$ [Hq89] with Hv89
  · isplitr; · iexact HIc89
    iexact Hq89
  imod (close_cell (F := F) m cc (⟨90, by decide⟩ : Fin 140) (by decide)) $$ [Hq90] with Hv90
  · isplitr; · iexact HIc90
    iexact Hq90
  imod (close_cell (F := F) m cc (⟨91, by decide⟩ : Fin 140) (by decide)) $$ [Hq91] with Hv91
  · isplitr; · iexact HIc91
    iexact Hq91
  imod (close_cell (F := F) m cc (⟨95, by decide⟩ : Fin 140) (by decide)) $$ [Hq95] with Hv95
  · isplitr; · iexact HIc95
    iexact Hq95
  imod (close_cell (F := F) m cc (⟨96, by decide⟩ : Fin 140) (by decide)) $$ [Hq96] with Hv96
  · isplitr; · iexact HIc96
    iexact Hq96
  imod (close_cell (F := F) m cc (⟨97, by decide⟩ : Fin 140) (by decide)) $$ [Hq97] with Hv97
  · isplitr; · iexact HIc97
    iexact Hq97
  imod (close_cell (F := F) m cc (⟨98, by decide⟩ : Fin 140) (by decide)) $$ [Hq98] with Hv98
  · isplitr; · iexact HIc98
    iexact Hq98
  imod (close_cell (F := F) m cc (⟨99, by decide⟩ : Fin 140) (by decide)) $$ [Hq99] with Hv99
  · isplitr; · iexact HIc99
    iexact Hq99
  imod (close_cell (F := F) m cc (⟨103, by decide⟩ : Fin 140) (by decide)) $$ [Hq103] with Hv103
  · isplitr; · iexact HIc103
    iexact Hq103
  imod (close_cell (F := F) m cc (⟨104, by decide⟩ : Fin 140) (by decide)) $$ [Hq104] with Hv104
  · isplitr; · iexact HIc104
    iexact Hq104
  imod (close_cell (F := F) m cc (⟨105, by decide⟩ : Fin 140) (by decide)) $$ [Hq105] with Hv105
  · isplitr; · iexact HIc105
    iexact Hq105
  imod (close_cell (F := F) m cc (⟨106, by decide⟩ : Fin 140) (by decide)) $$ [Hq106] with Hv106
  · isplitr; · iexact HIc106
    iexact Hq106
  imod (close_cell (F := F) m cc (⟨107, by decide⟩ : Fin 140) (by decide)) $$ [Hq107] with Hv107
  · isplitr; · iexact HIc107
    iexact Hq107
  -- the program is over: hand everything back
  icases HvU with ⟨Hu76, Hu77, Hu78, Hu84, Hu85, Hu86, Hu92, Hu93, Hu94, Hu100, Hu101, Hu102⟩
  ihave HO := (Entails.of_eq (show owes (cc : Thread nD τ) (owedL (List.drop 40 (paysL cc))) _ = owes (cc : Thread nD τ) 0 _ from rfl)) $$ HO
  -- each block of the result holds what its copy wrote: the final contents
  ihave HU00 := (congr (F := F) (outR 0 0) cc fullShare ((outR 0 0).view.writes (Elt F) g00 [⟨Rect.whole S512x256, dev.sl.dma0_34 m⟩]) (out m cc) (fun i hi => glue_out' m cc 0 0 g00 i hi)) $$ HU00
  ihave HU01 := (congr (F := F) (outR 0 1) cc fullShare ((outR 0 1).view.writes (Elt F) g01 [⟨Rect.whole S512x256, dev.sl.dma0_35 m⟩]) (out m cc) (fun i hi => glue_out' m cc 0 1 g01 i hi)) $$ HU01
  ihave HU02 := (congr (F := F) (outR 0 2) cc fullShare ((outR 0 2).view.writes (Elt F) g02 [⟨Rect.whole S512x256, dev.sl.dma0_36 m⟩]) (out m cc) (fun i hi => glue_out' m cc 0 2 g02 i hi)) $$ HU02
  ihave HU03 := (congr (F := F) (outR 0 3) cc fullShare ((outR 0 3).view.writes (Elt F) g03 [⟨Rect.whole S512x256, dev.sl.dma0_37 m⟩]) (out m cc) (fun i hi => glue_out' m cc 0 3 g03 i hi)) $$ HU03
  ihave HU10 := (congr (F := F) (outR 1 0) cc fullShare ((outR 1 0).view.writes (Elt F) g10 [⟨Rect.whole S512x256, dev.sl.dma0_38 m⟩]) (out m cc) (fun i hi => glue_out' m cc 1 0 g10 i hi)) $$ HU10
  ihave HU11 := (congr (F := F) (outR 1 1) cc fullShare ((outR 1 1).view.writes (Elt F) g11 [⟨Rect.whole S512x256, dev.sl.dma0_39 m⟩]) (out m cc) (fun i hi => glue_out' m cc 1 1 g11 i hi)) $$ HU11
  ihave HU12 := (congr (F := F) (outR 1 2) cc fullShare ((outR 1 2).view.writes (Elt F) g12 [⟨Rect.whole S512x256, dev.sl.dma0_40 m⟩]) (out m cc) (fun i hi => glue_out' m cc 1 2 g12 i hi)) $$ HU12
  ihave HU13 := (congr (F := F) (outR 1 3) cc fullShare ((outR 1 3).view.writes (Elt F) g13 [⟨Rect.whole S512x256, dev.sl.dma0_41 m⟩]) (out m cc) (fun i hi => glue_out' m cc 1 3 g13 i hi)) $$ HU13
  ihave HU20 := (congr (F := F) (outR 2 0) cc fullShare ((outR 2 0).view.writes (Elt F) g20 [⟨Rect.whole S512x256, dev.sl.dma0_42 m⟩]) (out m cc) (fun i hi => glue_out' m cc 2 0 g20 i hi)) $$ HU20
  ihave HU21 := (congr (F := F) (outR 2 1) cc fullShare ((outR 2 1).view.writes (Elt F) g21 [⟨Rect.whole S512x256, dev.sl.dma0_43 m⟩]) (out m cc) (fun i hi => glue_out' m cc 2 1 g21 i hi)) $$ HU21
  ihave HU22 := (congr (F := F) (outR 2 2) cc fullShare ((outR 2 2).view.writes (Elt F) g22 [⟨Rect.whole S512x256, dev.sl.dma0_44 m⟩]) (out m cc) (fun i hi => glue_out' m cc 2 2 g22 i hi)) $$ HU22
  ihave HU23 := (congr (F := F) (outR 2 3) cc fullShare ((outR 2 3).view.writes (Elt F) g23 [⟨Rect.whole S512x256, dev.sl.dma0_45 m⟩]) (out m cc) (fun i hi => glue_out' m cc 2 3 g23 i hi)) $$ HU23
  ihave HU30 := (congr (F := F) (outR 3 0) cc fullShare ((outR 3 0).view.writes (Elt F) g30 [⟨Rect.whole S512x256, dev.sl.dma0_22 m⟩]) (out m cc) (fun i hi => glue_out' m cc 3 0 g30 i hi)) $$ HU30
  ihave HU31 := (congr (F := F) (outR 3 1) cc fullShare ((outR 3 1).view.writes (Elt F) g31 [⟨Rect.whole S512x256, dev.sl.dma0_23 m⟩]) (out m cc) (fun i hi => glue_out' m cc 3 1 g31 i hi)) $$ HU31
  ihave HU32 := (congr (F := F) (outR 3 2) cc fullShare ((outR 3 2).view.writes (Elt F) g32 [⟨Rect.whole S512x256, dev.sl.dma0_24 m⟩]) (out m cc) (fun i hi => glue_out' m cc 3 2 g32 i hi)) $$ HU32
  ihave HU33 := (congr (F := F) (outR 3 3) cc fullShare ((outR 3 3).view.writes (Elt F) g33 [⟨Rect.whole S512x256, dev.sl.dma0_25 m⟩]) (out m cc) (fun i hi => glue_out' m cc 3 3 g33 i hi)) $$ HU33
  ihave HU40 := (congr (F := F) (outR 4 0) cc fullShare ((outR 4 0).view.writes (Elt F) g40 [⟨Rect.whole S512x256, dev.sl.dma0_26 m⟩]) (out m cc) (fun i hi => glue_out' m cc 4 0 g40 i hi)) $$ HU40
  ihave HU41 := (congr (F := F) (outR 4 1) cc fullShare ((outR 4 1).view.writes (Elt F) g41 [⟨Rect.whole S512x256, dev.sl.dma0_27 m⟩]) (out m cc) (fun i hi => glue_out' m cc 4 1 g41 i hi)) $$ HU41
  ihave HU42 := (congr (F := F) (outR 4 2) cc fullShare ((outR 4 2).view.writes (Elt F) g42 [⟨Rect.whole S512x256, dev.sl.dma0_28 m⟩]) (out m cc) (fun i hi => glue_out' m cc 4 2 g42 i hi)) $$ HU42
  ihave HU43 := (congr (F := F) (outR 4 3) cc fullShare ((outR 4 3).view.writes (Elt F) g43 [⟨Rect.whole S512x256, dev.sl.dma0_29 m⟩]) (out m cc) (fun i hi => glue_out' m cc 4 3 g43 i hi)) $$ HU43
  ihave HU50 := (congr (F := F) (outR 5 0) cc fullShare ((outR 5 0).view.writes (Elt F) g50 [⟨Rect.whole S512x256, dev.sl.dma0_30 m⟩]) (out m cc) (fun i hi => glue_out' m cc 5 0 g50 i hi)) $$ HU50
  ihave HU51 := (congr (F := F) (outR 5 1) cc fullShare ((outR 5 1).view.writes (Elt F) g51 [⟨Rect.whole S512x256, dev.sl.dma0_31 m⟩]) (out m cc) (fun i hi => glue_out' m cc 5 1 g51 i hi)) $$ HU51
  ihave HU52 := (congr (F := F) (outR 5 2) cc fullShare ((outR 5 2).view.writes (Elt F) g52 [⟨Rect.whole S512x256, dev.sl.dma0_32 m⟩]) (out m cc) (fun i hi => glue_out' m cc 5 2 g52 i hi)) $$ HU52
  ihave HU53 := (congr (F := F) (outR 5 3) cc fullShare ((outR 5 3).view.writes (Elt F) g53 [⟨Rect.whole S512x256, dev.sl.dma0_33 m⟩]) (out m cc) (fun i hi => glue_out' m cc 5 3 g53 i hi)) $$ HU53
  ihave HU60 := (congr (F := F) (outR 6 0) cc fullShare ((outR 6 0).view.writes (Elt F) g60 [⟨Rect.whole S512x256, dev.sl.dma0_46 m⟩]) (out m cc) (fun i hi => glue_out' m cc 6 0 g60 i hi)) $$ HU60
  ihave HU61 := (congr (F := F) (outR 6 1) cc fullShare ((outR 6 1).view.writes (Elt F) g61 [⟨Rect.whole S512x256, dev.sl.dma0_47 m⟩]) (out m cc) (fun i hi => glue_out' m cc 6 1 g61 i hi)) $$ HU61
  ihave HU62 := (congr (F := F) (outR 6 2) cc fullShare ((outR 6 2).view.writes (Elt F) g62 [⟨Rect.whole S512x256, dev.sl.dma0_48 m⟩]) (out m cc) (fun i hi => glue_out' m cc 6 2 g62 i hi)) $$ HU62
  ihave HU63 := (congr (F := F) (outR 6 3) cc fullShare ((outR 6 3).view.writes (Elt F) g63 [⟨Rect.whole S512x256, dev.sl.dma0_49 m⟩]) (out m cc) (fun i hi => glue_out' m cc 6 3 g63 i hi)) $$ HU63
  ihave HU70 := (congr (F := F) (outR 7 0) cc fullShare ((outR 7 0).view.writes (Elt F) g70 [⟨Rect.whole S512x256, dev.sl.dma0_50 m⟩]) (out m cc) (fun i hi => glue_out' m cc 7 0 g70 i hi)) $$ HU70
  ihave HU71 := (congr (F := F) (outR 7 1) cc fullShare ((outR 7 1).view.writes (Elt F) g71 [⟨Rect.whole S512x256, dev.sl.dma0_51 m⟩]) (out m cc) (fun i hi => glue_out' m cc 7 1 g71 i hi)) $$ HU71
  ihave HU72 := (congr (F := F) (outR 7 2) cc fullShare ((outR 7 2).view.writes (Elt F) g72 [⟨Rect.whole S512x256, dev.sl.dma0_52 m⟩]) (out m cc) (fun i hi => glue_out' m cc 7 2 g72 i hi)) $$ HU72
  ihave HU73 := (congr (F := F) (outR 7 3) cc fullShare ((outR 7 3).view.writes (Elt F) g73 [⟨Rect.whole S512x256, dev.sl.dma0_53 m⟩]) (out m cc) (fun i hi => glue_out' m cc 7 3 g73 i hi)) $$ HU73
  sl_step
  iapply Hk
  unfold bodyPost
  isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7 Hz0 Hz1 Hz2 HzG3 HzFl3 HzFrb3 HzG4 HzFl4 HzFrb4 HzG5 HzFl5 HzFrb5 HzG6 HzFl6 HzFrb6 HzG7 HzFl7 HzFrb7 Hy0 Hy1 Hy2 HyG3 HyFlb3 HyFr3 HyG4 HyFlb4 HyFr4 HyG5 HyFlb5 HyFr5 HyG6 HyFlb6 HyFr6 HyG7 HyFlb7 HyFr7 Hdq0 Hdq1 Hdq2 Hd3 Hd4 Hd5 Hd6 Hd7]
  · iapply (Entails.of_eq (junk_whole (F := F) cc cc0_scratch0).symm)
    iapply (r4_back (F := F) cc)
    isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7]
    · isplitl [HoZb0 HoYb0 HoK0]
      · iapply (own_back (F := F) cc 0 (r4 m cc))
        isplitl [HoZb0]
        · iexact HoZb0
        isplitl [HoYb0]
        · iexact HoYb0
        iexact HoK0
      isplitl [HoZb1 HoYb1 HoK1]
      · iapply (own_back (F := F) cc 1 (r4 m cc))
        isplitl [HoZb1]
        · iexact HoZb1
        isplitl [HoYb1]
        · iexact HoYb1
        iexact HoK1
      isplitl [HoZb2 HoYb2 HoK2]
      · iapply (own_back (F := F) cc 2 (r4 m cc))
        isplitl [HoZb2]
        · iexact HoZb2
        isplitl [HoYb2]
        · iexact HoYb2
        iexact HoK2
      isplitl [HoZb3 HoYb3 HoK3]
      · iapply (own_back (F := F) cc 3 (r4 m cc))
        isplitl [HoZb3]
        · iexact HoZb3
        isplitl [HoYb3]
        · iexact HoYb3
        iexact HoK3
      isplitl [HoZb4 HoYb4 HoK4]
      · iapply (own_back (F := F) cc 4 (r4 m cc))
        isplitl [HoZb4]
        · iexact HoZb4
        isplitl [HoYb4]
        · iexact HoYb4
        iexact HoK4
      isplitl [HoZb5 HoYb5 HoK5]
      · iapply (own_back (F := F) cc 5 (r4 m cc))
        isplitl [HoZb5]
        · iexact HoZb5
        isplitl [HoYb5]
        · iexact HoYb5
        iexact HoK5
      isplitl [HoZb6 HoYb6 HoK6]
      · iapply (own_back (F := F) cc 6 (r4 m cc))
        isplitl [HoZb6]
        · iexact HoZb6
        isplitl [HoYb6]
        · iexact HoYb6
        iexact HoK6
      iapply (own_back (F := F) cc 7 (r4 m cc))
      isplitl [HoZb7]
      · iexact HoZb7
      isplitl [HoYb7]
      · iexact HoYb7
      iexact HoK7
    isplitl [Hz0 Hz1 Hz2 HzG3 HzFl3 HzFrb3 HzG4 HzFl4 HzFrb4 HzG5 HzFl5 HzFrb5 HzG6 HzFl6 HzFrb6 HzG7 HzFl7 HzFrb7]
    · isplitl [Hz0]
      · iexists _; iexact Hz0
      isplitl [Hz1]
      · iexists _; iexact Hz1
      isplitl [Hz2]
      · iexists _; iexact Hz2
      isplitl [HzG3 HzFl3 HzFrb3]
      · iapply (nbr_back (F := F) cc (zqF cc) 3 (r4 m cc))
        isplitl [HzG3]
        · iexact HzG3
        isplitl [HzFl3]
        · iexact HzFl3
        iexact HzFrb3
      isplitl [HzG4 HzFl4 HzFrb4]
      · iapply (nbr_back (F := F) cc (zqF cc) 4 (r4 m cc))
        isplitl [HzG4]
        · iexact HzG4
        isplitl [HzFl4]
        · iexact HzFl4
        iexact HzFrb4
      isplitl [HzG5 HzFl5 HzFrb5]
      · iapply (nbr_back (F := F) cc (zqF cc) 5 (r4 m cc))
        isplitl [HzG5]
        · iexact HzG5
        isplitl [HzFl5]
        · iexact HzFl5
        iexact HzFrb5
      isplitl [HzG6 HzFl6 HzFrb6]
      · iapply (nbr_back (F := F) cc (zqF cc) 6 (r4 m cc))
        isplitl [HzG6]
        · iexact HzG6
        isplitl [HzFl6]
        · iexact HzFl6
        iexact HzFrb6
      iapply (nbr_back (F := F) cc (zqF cc) 7 (r4 m cc))
      isplitl [HzG7]
      · iexact HzG7
      isplitl [HzFl7]
      · iexact HzFl7
      iexact HzFrb7
    isplitl [Hy0 Hy1 Hy2 HyG3 HyFlb3 HyFr3 HyG4 HyFlb4 HyFr4 HyG5 HyFlb5 HyFr5 HyG6 HyFlb6 HyFr6 HyG7 HyFlb7 HyFr7]
    · isplitl [Hy0]
      · iexists _; iexact Hy0
      isplitl [Hy1]
      · iexists _; iexact Hy1
      isplitl [Hy2]
      · iexists _; iexact Hy2
      isplitl [HyG3 HyFlb3 HyFr3]
      · iapply (nbr_back (F := F) cc (yqF cc) 3 (r4 m cc))
        isplitl [HyG3]
        · iexact HyG3
        isplitl [HyFlb3]
        · iexact HyFlb3
        iexact HyFr3
      isplitl [HyG4 HyFlb4 HyFr4]
      · iapply (nbr_back (F := F) cc (yqF cc) 4 (r4 m cc))
        isplitl [HyG4]
        · iexact HyG4
        isplitl [HyFlb4]
        · iexact HyFlb4
        iexact HyFr4
      isplitl [HyG5 HyFlb5 HyFr5]
      · iapply (nbr_back (F := F) cc (yqF cc) 5 (r4 m cc))
        isplitl [HyG5]
        · iexact HyG5
        isplitl [HyFlb5]
        · iexact HyFlb5
        iexact HyFr5
      isplitl [HyG6 HyFlb6 HyFr6]
      · iapply (nbr_back (F := F) cc (yqF cc) 6 (r4 m cc))
        isplitl [HyG6]
        · iexact HyG6
        isplitl [HyFlb6]
        · iexact HyFlb6
        iexact HyFr6
      iapply (nbr_back (F := F) cc (yqF cc) 7 (r4 m cc))
      isplitl [HyG7]
      · iexact HyG7
      isplitl [HyFlb7]
      · iexact HyFlb7
      iexact HyFr7
    isplitl [Hdq0 Hdq1 Hdq2]
    · isplitl [Hdq0]
      · iexists _; iexact Hdq0
      isplitl [Hdq1]
      · iexists _; iexact Hdq1
      iexists _; iexact Hdq2
    isplitl [Hd3]
    · iapply (dq_halves (F := F) cc 3 (r4 m cc))
      iexact Hd3
    isplitl [Hd4]
    · iapply (dq_halves (F := F) cc 4 (r4 m cc))
      iexact Hd4
    isplitl [Hd5]
    · iapply (dq_halves (F := F) cc 5 (r4 m cc))
      iexact Hd5
    isplitl [Hd6]
    · iapply (dq_halves (F := F) cc 6 (r4 m cc))
      iexact Hd6
    iapply (dq_halves (F := F) cc 7 (r4 m cc))
    iexact Hd7
  isplitl [HBs0 HBs1 HBs2 HBs3 HBs4 HBs5 HBs6 HBs7]
  · iapply (Entails.of_eq (junk_whole (F := F) cc cc0_scratch1).symm)
    iapply (sb_rows_join (F := F) cc)
    isplitl [HBs0]
    · iexists _; iexact HBs0
    isplitl [HBs1]
    · iexists _; iexact HBs1
    isplitl [HBs2]
    · iexists _; iexact HBs2
    isplitl [HBs3]
    · iexists _; iexact HBs3
    isplitl [HBs4]
    · iexists _; iexact HBs4
    isplitl [HBs5]
    · iexists _; iexact HBs5
    isplitl [HBs6]
    · iexists _; iexact HBs6
    iexists _; iexact HBs7
  isplitl [Hrb0 Hrb1 Hrb2 Hrb3 Hrb4 Hrb5 Hrb6 Hrb7]
  · iapply (Entails.of_eq (junk_whole (F := F) cc cc0_scratch2).symm)
    iapply (rb_rows_join (F := F) cc)
    isplitl [Hrb0]
    · iexists _; iexact Hrb0
    isplitl [Hrb1]
    · iexists _; iexact Hrb1
    isplitl [Hrb2]
    · iexists _; iexact Hrb2
    isplitl [Hrb3]
    · iexists _; iexact Hrb3
    isplitl [Hrb4]
    · iexists _; iexact Hrb4
    isplitl [Hrb5]
    · iexists _; iexact Hrb5
    isplitl [Hrb6]
    · iexists _; iexact Hrb6
    iexists _; iexact Hrb7
  isplitl [HB2s0 HB2s1 HB2s2]
  · iapply (Entails.of_eq (junk_whole (F := F) cc cc0_scratch3).symm)
    iapply (sb2_rows_join (F := F) cc)
    isplitl [HB2s0]
    · iexists _; iexact HB2s0
    isplitl [HB2s1]
    · iexists _; iexact HB2s1
    iexists _; iexact HB2s2
  isplitl [Hrb20 Hrb21 Hrb22]
  · iapply (Entails.of_eq (junk_whole (F := F) cc cc0_scratch4).symm)
    iapply (rb2_rows_join (F := F) cc)
    isplitl [Hrb20]
    · iexists _; iexact Hrb20
    isplitl [Hrb21]
    · iexists _; iexact Hrb21
    iexists _; iexact Hrb22
  isplitl [HP0 HP1 HP2 HP3 HP4 HP5 HP6 HP7]
  · iapply (Entails.of_eq (junk_whole (F := F) cc cc0_scratch5).symm)
    iapply (stP_rows_join (F := F) cc)
    isplitl [HP0]
    · iexists _; iexact HP0
    isplitl [HP1]
    · iexists _; iexact HP1
    isplitl [HP2]
    · iexists _; iexact HP2
    isplitl [HP3]
    · iexists _; iexact HP3
    isplitl [HP4]
    · iexists _; iexact HP4
    isplitl [HP5]
    · iexists _; iexact HP5
    isplitl [HP6]
    · iexists _; iexact HP6
    iexists _; iexact HP7
  isplitl [HL0 HL1 HL2 HL3 HL4 HL5 HL6 HL7]
  · iapply (Entails.of_eq (junk_whole (F := F) cc cc0_scratch6).symm)
    iapply (stL_rows_join (F := F) cc)
    isplitl [HL0]
    · iexists _; iexact HL0
    isplitl [HL1]
    · iexists _; iexact HL1
    isplitl [HL2]
    · iexists _; iexact HL2
    isplitl [HL3]
    · iexists _; iexact HL3
    isplitl [HL4]
    · iexists _; iexact HL4
    isplitl [HL5]
    · iexists _; iexact HL5
    isplitl [HL6]
    · iexists _; iexact HL6
    iexists _; iexact HL7
  isplitl [HP20 HP21 HP22]
  · iapply (Entails.of_eq (junk_whole (F := F) cc cc0_scratch7).symm)
    iapply (stP2_rows_join (F := F) cc)
    isplitl [HP20]
    · iexists _; iexact HP20
    isplitl [HP21]
    · iexists _; iexact HP21
    iexists _; iexact HP22
  isplitl [HL20 HL21 HL22]
  · iapply (Entails.of_eq (junk_whole (F := F) cc cc0_scratch8).symm)
    iapply (stL2_rows_join (F := F) cc)
    isplitl [HL20]
    · iexists _; iexact HL20
    isplitl [HL21]
    · iexists _; iexact HL21
    iexists _; iexact HL22
  isplitl [HX]
  · iexact HX
  isplitl [HU00 HU01 HU02 HU03 HU10 HU11 HU12 HU13 HU20 HU21 HU22 HU23 HU30 HU31 HU32 HU33 HU40 HU41 HU42 HU43 HU50 HU51 HU52 HU53 HU60 HU61 HU62 HU63 HU70 HU71 HU72 HU73]
  · iapply (out_join (F := F) cc (out m cc))
    isplitl [HU00]
    · iexact HU00
    isplitl [HU01]
    · iexact HU01
    isplitl [HU02]
    · iexact HU02
    isplitl [HU03]
    · iexact HU03
    isplitl [HU10]
    · iexact HU10
    isplitl [HU11]
    · iexact HU11
    isplitl [HU12]
    · iexact HU12
    isplitl [HU13]
    · iexact HU13
    isplitl [HU20]
    · iexact HU20
    isplitl [HU21]
    · iexact HU21
    isplitl [HU22]
    · iexact HU22
    isplitl [HU23]
    · iexact HU23
    isplitl [HU30]
    · iexact HU30
    isplitl [HU31]
    · iexact HU31
    isplitl [HU32]
    · iexact HU32
    isplitl [HU33]
    · iexact HU33
    isplitl [HU40]
    · iexact HU40
    isplitl [HU41]
    · iexact HU41
    isplitl [HU42]
    · iexact HU42
    isplitl [HU43]
    · iexact HU43
    isplitl [HU50]
    · iexact HU50
    isplitl [HU51]
    · iexact HU51
    isplitl [HU52]
    · iexact HU52
    isplitl [HU53]
    · iexact HU53
    isplitl [HU60]
    · iexact HU60
    isplitl [HU61]
    · iexact HU61
    isplitl [HU62]
    · iexact HU62
    isplitl [HU63]
    · iexact HU63
    isplitl [HU70]
    · iexact HU70
    isplitl [HU71]
    · iexact HU71
    isplitl [HU72]
    · iexact HU72
    iexact HU73
  isplitl [Hv0 Hv1 Hv2 Hv3 Hv4 Hv5 Hv6 Hv7 Hv8 Hv9 Hv10 Hv11 Hv12 Hv13 Hv14 Hv15 Hv16 Hv17 Hv18 Hv19 Hv20 Hv21 Hv22 Hv23 Hv24 Hv25 Hv26 Hv27 Hv28 Hv29 Hv30 Hv31 Hv32 Hv33 Hv34 Hv35 Hv36 Hv37 Hv38 Hv39 Hv40 Hv41 Hv42 Hv43 Hv44 Hv45 Hv46 Hv47 Hv48 Hv49 Hv50 Hv51 Hv52 Hv53 Hv54 Hv55 Hv56 Hv57 Hv58 Hv59 Hv60 Hv61 Hv62 Hv63 Hv64 Hv65 Hv66 Hv67 Hv68 Hv69 Hv70 Hv71 Hv72 Hv73 Hv74 Hv75 Hu76 Hu77 Hu78 Hv79 Hv80 Hv81 Hv82 Hv83 Hu84 Hu85 Hu86 Hv87 Hv88 Hv89 Hv90 Hv91 Hu92 Hu93 Hu94 Hv95 Hv96 Hv97 Hv98 Hv99 Hu100 Hu101 Hu102 Hv103 Hv104 Hv105 Hv106 Hv107 Hw0a Hw0b Hw0c Hw0d Hw1a Hw1b Hw1c Hw1d Hw2a Hw2b Hw2c Hw2d Hw3a Hw3b Hw3c Hw3d Hw4a Hw4b Hw4c Hw4d Hw5a Hw5b Hw5c Hw5d Hw6a Hw6b Hw6c Hw6d Hw7a Hw7b Hw7c Hw7d]
  · iapply (Entails.of_eq (show (iprop(semVal (cellAt cc (⟨0, Nat.le_of_ble_eq_true rfl⟩ : Fin 140)) 0 ∗ semVal (cellAt cc (⟨1, Nat.le_of_ble_eq_true rfl⟩ : Fin 140)) 0 ∗ semVal (cellAt cc (⟨2, Nat.le_of_ble_eq_true rfl⟩ : Fin 140)) 0 ∗ semVal (cellAt cc (⟨3, Nat.le_of_ble_eq_true rfl⟩ : Fin 140)) 0 ∗ semVal (cellAt cc (⟨4, Nat.le_of_ble_eq_true rfl⟩ : Fin 140)) 0 ∗ semVal (cellAt cc (⟨5, Nat.le_of_ble_eq_true rfl⟩ : Fin 140)) 0 ∗ semVal (cellAt cc (⟨6, Nat.le_of_ble_eq_true rfl⟩ : Fin 140)) 0 ∗ semVal (cellAt cc (⟨7, Nat.le_of_ble_eq_true rfl⟩ : Fin 140)) 0 ∗ semVal (cellAt cc (⟨8, Nat.le_of_ble_eq_true rfl⟩ : Fin 140)) 0 ∗ semVal (cellAt cc (⟨9, Nat.le_of_ble_eq_true rfl⟩ : Fin 140)) 0 ∗ semVal (cellAt cc (⟨10, Nat.le_of_ble_eq_true rfl⟩ : Fin 140)) 0 ∗ semVal (cellAt cc (⟨11, Nat.le_of_ble_eq_true rfl⟩ : Fin 140)) 0 ∗ semVal (cellAt cc (⟨12, Nat.le_of_ble_eq_true rfl⟩ : Fin 140)) 0 ∗ semVal (cellAt cc (⟨13, Nat.le_of_ble_eq_true rfl⟩ : Fin 140)) 0 ∗ semVal (cellAt cc (⟨14, Nat.le_of_ble_eq_true rfl⟩ : Fin 140)) 0 ∗ semVal (cellAt cc (⟨15, Nat.le_of_ble_eq_true rfl⟩ : Fin 140)) 0 ∗ semVal (cellAt cc (⟨16, Nat.le_of_ble_eq_true rfl⟩ : Fin 140)) 0 ∗ semVal (cellAt cc (⟨17, Nat.le_of_ble_eq_true rfl⟩ : Fin 140)) 0 ∗ semVal (cellAt cc (⟨18, Nat.le_of_ble_eq_true rfl⟩ : Fin 140)) 0 ∗ semVal (cellAt cc (⟨19, Nat.le_of_ble_eq_true rfl⟩ : Fin 140)) 0 ∗ semVal (cellAt cc (⟨20, Nat.le_of_ble_eq_true rfl⟩ : Fin 140)) 0 ∗ semVal (cellAt cc (⟨21, Nat.le_of_ble_eq_true rfl⟩ : Fin 140)) 0 ∗ semVal (cellAt cc (⟨22, Nat.le_of_ble_eq_true rfl⟩ : Fin 140)) 0 ∗ semVal (cellAt cc (⟨23, Nat.le_of_ble_eq_true rfl⟩ : Fin 140)) 0 ∗ semVal (cellAt cc (⟨24, Nat.le_of_ble_eq_true rfl⟩ : Fin 140)) 0 ∗ semVal (cellAt cc (⟨25, Nat.le_of_ble_eq_true rfl⟩ : Fin 140)) 0 ∗ semVal (cellAt cc (⟨26, Nat.le_of_ble_eq_true rfl⟩ : Fin 140)) 0 ∗ semVal (cellAt cc (⟨27, Nat.le_of_ble_eq_true rfl⟩ : Fin 140)) 0 ∗ semVal (cellAt cc (⟨28, Nat.le_of_ble_eq_true rfl⟩ : Fin 140)) 0 ∗ semVal (cellAt cc (⟨29, Nat.le_of_ble_eq_true rfl⟩ : Fin 140)) 0 ∗ semVal (cellAt cc (⟨30, Nat.le_of_ble_eq_true rfl⟩ : Fin 140)) 0 ∗ semVal (cellAt cc (⟨31, Nat.le_of_ble_eq_true rfl⟩ : Fin 140)) 0 ∗ semVal (cellAt cc (⟨32, Nat.le_of_ble_eq_true rfl⟩ : Fin 140)) 0 ∗ semVal (cellAt cc (⟨33, Nat.le_of_ble_eq_true rfl⟩ : Fin 140)) 0 ∗ semVal (cellAt cc (⟨34, Nat.le_of_ble_eq_true rfl⟩ : Fin 140)) 0 ∗ semVal (cellAt cc (⟨35, Nat.le_of_ble_eq_true rfl⟩ : Fin 140)) 0 ∗ semVal (cellAt cc (⟨36, Nat.le_of_ble_eq_true rfl⟩ : Fin 140)) 0 ∗ semVal (cellAt cc (⟨37, Nat.le_of_ble_eq_true rfl⟩ : Fin 140)) 0 ∗ semVal (cellAt cc (⟨38, Nat.le_of_ble_eq_true rfl⟩ : Fin 140)) 0 ∗ semVal (cellAt cc (⟨39, Nat.le_of_ble_eq_true rfl⟩ : Fin 140)) 0 ∗ semVal (cellAt cc (⟨40, Nat.le_of_ble_eq_true rfl⟩ : Fin 140)) 0 ∗ semVal (cellAt cc (⟨41, Nat.le_of_ble_eq_true rfl⟩ : Fin 140)) 0 ∗ semVal (cellAt cc (⟨42, Nat.le_of_ble_eq_true rfl⟩ : Fin 140)) 0 ∗ semVal (cellAt cc (⟨43, Nat.le_of_ble_eq_true rfl⟩ : Fin 140)) 0 ∗ semVal (cellAt cc (⟨44, Nat.le_of_ble_eq_true rfl⟩ : Fin 140)) 0 ∗ semVal (cellAt cc (⟨45, Nat.le_of_ble_eq_true rfl⟩ : Fin 140)) 0 ∗ semVal (cellAt cc (⟨46, Nat.le_of_ble_eq_true rfl⟩ : Fin 140)) 0 ∗ semVal (cellAt cc (⟨47, Nat.le_of_ble_eq_true rfl⟩ : Fin 140)) 0 ∗ semVal (cellAt cc (⟨48, Nat.le_of_ble_eq_true rfl⟩ : Fin 140)) 0 ∗ semVal (cellAt cc (⟨49, Nat.le_of_ble_eq_true rfl⟩ : Fin 140)) 0 ∗ semVal (cellAt cc (⟨50, Nat.le_of_ble_eq_true rfl⟩ : Fin 140)) 0 ∗ semVal (cellAt cc (⟨51, Nat.le_of_ble_eq_true rfl⟩ : Fin 140)) 0 ∗ semVal (cellAt cc (⟨52, Nat.le_of_ble_eq_true rfl⟩ : Fin 140)) 0 ∗ semVal (cellAt cc (⟨53, Nat.le_of_ble_eq_true rfl⟩ : Fin 140)) 0 ∗ semVal (cellAt cc (⟨54, Nat.le_of_ble_eq_true rfl⟩ : Fin 140)) 0 ∗ semVal (cellAt cc (⟨55, Nat.le_of_ble_eq_true rfl⟩ : Fin 140)) 0 ∗ semVal (cellAt cc (⟨56, Nat.le_of_ble_eq_true rfl⟩ : Fin 140)) 0 ∗ semVal (cellAt cc (⟨57, Nat.le_of_ble_eq_true rfl⟩ : Fin 140)) 0 ∗ semVal (cellAt cc (⟨58, Nat.le_of_ble_eq_true rfl⟩ : Fin 140)) 0 ∗ semVal (cellAt cc (⟨59, Nat.le_of_ble_eq_true rfl⟩ : Fin 140)) 0 ∗ semVal (cellAt cc (⟨60, Nat.le_of_ble_eq_true rfl⟩ : Fin 140)) 0 ∗ semVal (cellAt cc (⟨61, Nat.le_of_ble_eq_true rfl⟩ : Fin 140)) 0 ∗ semVal (cellAt cc (⟨62, Nat.le_of_ble_eq_true rfl⟩ : Fin 140)) 0 ∗ semVal (cellAt cc (⟨63, Nat.le_of_ble_eq_true rfl⟩ : Fin 140)) 0 ∗ semVal (cellAt cc (⟨64, Nat.le_of_ble_eq_true rfl⟩ : Fin 140)) 0 ∗ semVal (cellAt cc (⟨65, Nat.le_of_ble_eq_true rfl⟩ : Fin 140)) 0 ∗ semVal (cellAt cc (⟨66, Nat.le_of_ble_eq_true rfl⟩ : Fin 140)) 0 ∗ semVal (cellAt cc (⟨67, Nat.le_of_ble_eq_true rfl⟩ : Fin 140)) 0 ∗ semVal (cellAt cc (⟨68, Nat.le_of_ble_eq_true rfl⟩ : Fin 140)) 0 ∗ semVal (cellAt cc (⟨69, Nat.le_of_ble_eq_true rfl⟩ : Fin 140)) 0 ∗ semVal (cellAt cc (⟨70, Nat.le_of_ble_eq_true rfl⟩ : Fin 140)) 0 ∗ semVal (cellAt cc (⟨71, Nat.le_of_ble_eq_true rfl⟩ : Fin 140)) 0 ∗ semVal (cellAt cc (⟨72, Nat.le_of_ble_eq_true rfl⟩ : Fin 140)) 0 ∗ semVal (cellAt cc (⟨73, Nat.le_of_ble_eq_true rfl⟩ : Fin 140)) 0 ∗ semVal (cellAt cc (⟨74, Nat.le_of_ble_eq_true rfl⟩ : Fin 140)) 0 ∗ semVal (cellAt cc (⟨75, Nat.le_of_ble_eq_true rfl⟩ : Fin 140)) 0 ∗ semVal (cellAt cc (⟨76, Nat.le_of_ble_eq_true rfl⟩ : Fin 140)) 0 ∗ semVal (cellAt cc (⟨77, Nat.le_of_ble_eq_true rfl⟩ : Fin 140)) 0 ∗ semVal (cellAt cc (⟨78, Nat.le_of_ble_eq_true rfl⟩ : Fin 140)) 0 ∗ semVal (cellAt cc (⟨79, Nat.le_of_ble_eq_true rfl⟩ : Fin 140)) 0 ∗ semVal (cellAt cc (⟨80, Nat.le_of_ble_eq_true rfl⟩ : Fin 140)) 0 ∗ semVal (cellAt cc (⟨81, Nat.le_of_ble_eq_true rfl⟩ : Fin 140)) 0 ∗ semVal (cellAt cc (⟨82, Nat.le_of_ble_eq_true rfl⟩ : Fin 140)) 0 ∗ semVal (cellAt cc (⟨83, Nat.le_of_ble_eq_true rfl⟩ : Fin 140)) 0 ∗ semVal (cellAt cc (⟨84, Nat.le_of_ble_eq_true rfl⟩ : Fin 140)) 0 ∗ semVal (cellAt cc (⟨85, Nat.le_of_ble_eq_true rfl⟩ : Fin 140)) 0 ∗ semVal (cellAt cc (⟨86, Nat.le_of_ble_eq_true rfl⟩ : Fin 140)) 0 ∗ semVal (cellAt cc (⟨87, Nat.le_of_ble_eq_true rfl⟩ : Fin 140)) 0 ∗ semVal (cellAt cc (⟨88, Nat.le_of_ble_eq_true rfl⟩ : Fin 140)) 0 ∗ semVal (cellAt cc (⟨89, Nat.le_of_ble_eq_true rfl⟩ : Fin 140)) 0 ∗ semVal (cellAt cc (⟨90, Nat.le_of_ble_eq_true rfl⟩ : Fin 140)) 0 ∗ semVal (cellAt cc (⟨91, Nat.le_of_ble_eq_true rfl⟩ : Fin 140)) 0 ∗ semVal (cellAt cc (⟨92, Nat.le_of_ble_eq_true rfl⟩ : Fin 140)) 0 ∗ semVal (cellAt cc (⟨93, Nat.le_of_ble_eq_true rfl⟩ : Fin 140)) 0 ∗ semVal (cellAt cc (⟨94, Nat.le_of_ble_eq_true rfl⟩ : Fin 140)) 0 ∗ semVal (cellAt cc (⟨95, Nat.le_of_ble_eq_true rfl⟩ : Fin 140)) 0 ∗ semVal (cellAt cc (⟨96, Nat.le_of_ble_eq_true rfl⟩ : Fin 140)) 0 ∗ semVal (cellAt cc (⟨97, Nat.le_of_ble_eq_true rfl⟩ : Fin 140)) 0 ∗ semVal (cellAt cc (⟨98, Nat.le_of_ble_eq_true rfl⟩ : Fin 140)) 0 ∗ semVal (cellAt cc (⟨99, Nat.le_of_ble_eq_true rfl⟩ : Fin 140)) 0 ∗ semVal (cellAt cc (⟨100, Nat.le_of_ble_eq_true rfl⟩ : Fin 140)) 0 ∗ semVal (cellAt cc (⟨101, Nat.le_of_ble_eq_true rfl⟩ : Fin 140)) 0 ∗ semVal (cellAt cc (⟨102, Nat.le_of_ble_eq_true rfl⟩ : Fin 140)) 0 ∗ semVal (cellAt cc (⟨103, Nat.le_of_ble_eq_true rfl⟩ : Fin 140)) 0 ∗ semVal (cellAt cc (⟨104, Nat.le_of_ble_eq_true rfl⟩ : Fin 140)) 0 ∗ semVal (cellAt cc (⟨105, Nat.le_of_ble_eq_true rfl⟩ : Fin 140)) 0 ∗ semVal (cellAt cc (⟨106, Nat.le_of_ble_eq_true rfl⟩ : Fin 140)) 0 ∗ semVal (cellAt cc (⟨107, Nat.le_of_ble_eq_true rfl⟩ : Fin 140)) 0 ∗ semVal (cellAt cc (⟨108, Nat.le_of_ble_eq_true rfl⟩ : Fin 140)) 0 ∗ semVal (cellAt cc (⟨109, Nat.le_of_ble_eq_true rfl⟩ : Fin 140)) 0 ∗ semVal (cellAt cc (⟨110, Nat.le_of_ble_eq_true rfl⟩ : Fin 140)) 0 ∗ semVal (cellAt cc (⟨111, Nat.le_of_ble_eq_true rfl⟩ : Fin 140)) 0 ∗ semVal (cellAt cc (⟨112, Nat.le_of_ble_eq_true rfl⟩ : Fin 140)) 0 ∗ semVal (cellAt cc (⟨113, Nat.le_of_ble_eq_true rfl⟩ : Fin 140)) 0 ∗ semVal (cellAt cc (⟨114, Nat.le_of_ble_eq_true rfl⟩ : Fin 140)) 0 ∗ semVal (cellAt cc (⟨115, Nat.le_of_ble_eq_true rfl⟩ : Fin 140)) 0 ∗ semVal (cellAt cc (⟨116, Nat.le_of_ble_eq_true rfl⟩ : Fin 140)) 0 ∗ semVal (cellAt cc (⟨117, Nat.le_of_ble_eq_true rfl⟩ : Fin 140)) 0 ∗ semVal (cellAt cc (⟨118, Nat.le_of_ble_eq_true rfl⟩ : Fin 140)) 0 ∗ semVal (cellAt cc (⟨119, Nat.le_of_ble_eq_true rfl⟩ : Fin 140)) 0 ∗ semVal (cellAt cc (⟨120, Nat.le_of_ble_eq_true rfl⟩ : Fin 140)) 0 ∗ semVal (cellAt cc (⟨121, Nat.le_of_ble_eq_true rfl⟩ : Fin 140)) 0 ∗ semVal (cellAt cc (⟨122, Nat.le_of_ble_eq_true rfl⟩ : Fin 140)) 0 ∗ semVal (cellAt cc (⟨123, Nat.le_of_ble_eq_true rfl⟩ : Fin 140)) 0 ∗ semVal (cellAt cc (⟨124, Nat.le_of_ble_eq_true rfl⟩ : Fin 140)) 0 ∗ semVal (cellAt cc (⟨125, Nat.le_of_ble_eq_true rfl⟩ : Fin 140)) 0 ∗ semVal (cellAt cc (⟨126, Nat.le_of_ble_eq_true rfl⟩ : Fin 140)) 0 ∗ semVal (cellAt cc (⟨127, Nat.le_of_ble_eq_true rfl⟩ : Fin 140)) 0 ∗ semVal (cellAt cc (⟨128, Nat.le_of_ble_eq_true rfl⟩ : Fin 140)) 0 ∗ semVal (cellAt cc (⟨129, Nat.le_of_ble_eq_true rfl⟩ : Fin 140)) 0 ∗ semVal (cellAt cc (⟨130, Nat.le_of_ble_eq_true rfl⟩ : Fin 140)) 0 ∗ semVal (cellAt cc (⟨131, Nat.le_of_ble_eq_true rfl⟩ : Fin 140)) 0 ∗ semVal (cellAt cc (⟨132, Nat.le_of_ble_eq_true rfl⟩ : Fin 140)) 0 ∗ semVal (cellAt cc (⟨133, Nat.le_of_ble_eq_true rfl⟩ : Fin 140)) 0 ∗ semVal (cellAt cc (⟨134, Nat.le_of_ble_eq_true rfl⟩ : Fin 140)) 0 ∗ semVal (cellAt cc (⟨135, Nat.le_of_ble_eq_true rfl⟩ : Fin 140)) 0 ∗ semVal (cellAt cc (⟨136, Nat.le_of_ble_eq_true rfl⟩ : Fin 140)) 0 ∗ semVal (cellAt cc (⟨137, Nat.le_of_ble_eq_true rfl⟩ : Fin 140)) 0 ∗ semVal (cellAt cc (⟨138, Nat.le_of_ble_eq_true rfl⟩ : Fin 140)) 0 ∗ semVal (cellAt cc (⟨139, Nat.le_of_ble_eq_true rfl⟩ : Fin 140)) 0) : sProp 𝕄) = (bigSepL allJ fun j => semVal (cellAt cc j) 0) from rfl))
    isplitl [Hv0]
    · iexact Hv0
    isplitl [Hv1]
    · iexact Hv1
    isplitl [Hv2]
    · iexact Hv2
    isplitl [Hv3]
    · iexact Hv3
    isplitl [Hv4]
    · iexact Hv4
    isplitl [Hv5]
    · iexact Hv5
    isplitl [Hv6]
    · iexact Hv6
    isplitl [Hv7]
    · iexact Hv7
    isplitl [Hv8]
    · iexact Hv8
    isplitl [Hv9]
    · iexact Hv9
    isplitl [Hv10]
    · iexact Hv10
    isplitl [Hv11]
    · iexact Hv11
    isplitl [Hv12]
    · iexact Hv12
    isplitl [Hv13]
    · iexact Hv13
    isplitl [Hv14]
    · iexact Hv14
    isplitl [Hv15]
    · iexact Hv15
    isplitl [Hv16]
    · iexact Hv16
    isplitl [Hv17]
    · iexact Hv17
    isplitl [Hv18]
    · iexact Hv18
    isplitl [Hv19]
    · iexact Hv19
    isplitl [Hv20]
    · iexact Hv20
    isplitl [Hv21]
    · iexact Hv21
    isplitl [Hv22]
    · iexact Hv22
    isplitl [Hv23]
    · iexact Hv23
    isplitl [Hv24]
    · iexact Hv24
    isplitl [Hv25]
    · iexact Hv25
    isplitl [Hv26]
    · iexact Hv26
    isplitl [Hv27]
    · iexact Hv27
    isplitl [Hv28]
    · iexact Hv28
    isplitl [Hv29]
    · iexact Hv29
    isplitl [Hv30]
    · iexact Hv30
    isplitl [Hv31]
    · iexact Hv31
    isplitl [Hv32]
    · iexact Hv32
    isplitl [Hv33]
    · iexact Hv33
    isplitl [Hv34]
    · iexact Hv34
    isplitl [Hv35]
    · iexact Hv35
    isplitl [Hv36]
    · iexact Hv36
    isplitl [Hv37]
    · iexact Hv37
    isplitl [Hv38]
    · iexact Hv38
    isplitl [Hv39]
    · iexact Hv39
    isplitl [Hv40]
    · iexact Hv40
    isplitl [Hv41]
    · iexact Hv41
    isplitl [Hv42]
    · iexact Hv42
    isplitl [Hv43]
    · iexact Hv43
    isplitl [Hv44]
    · iexact Hv44
    isplitl [Hv45]
    · iexact Hv45
    isplitl [Hv46]
    · iexact Hv46
    isplitl [Hv47]
    · iexact Hv47
    isplitl [Hv48]
    · iexact Hv48
    isplitl [Hv49]
    · iexact Hv49
    isplitl [Hv50]
    · iexact Hv50
    isplitl [Hv51]
    · iexact Hv51
    isplitl [Hv52]
    · iexact Hv52
    isplitl [Hv53]
    · iexact Hv53
    isplitl [Hv54]
    · iexact Hv54
    isplitl [Hv55]
    · iexact Hv55
    isplitl [Hv56]
    · iexact Hv56
    isplitl [Hv57]
    · iexact Hv57
    isplitl [Hv58]
    · iexact Hv58
    isplitl [Hv59]
    · iexact Hv59
    isplitl [Hv60]
    · iexact Hv60
    isplitl [Hv61]
    · iexact Hv61
    isplitl [Hv62]
    · iexact Hv62
    isplitl [Hv63]
    · iexact Hv63
    isplitl [Hv64]
    · iexact Hv64
    isplitl [Hv65]
    · iexact Hv65
    isplitl [Hv66]
    · iexact Hv66
    isplitl [Hv67]
    · iexact Hv67
    isplitl [Hv68]
    · iexact Hv68
    isplitl [Hv69]
    · iexact Hv69
    isplitl [Hv70]
    · iexact Hv70
    isplitl [Hv71]
    · iexact Hv71
    isplitl [Hv72]
    · iexact Hv72
    isplitl [Hv73]
    · iexact Hv73
    isplitl [Hv74]
    · iexact Hv74
    isplitl [Hv75]
    · iexact Hv75
    isplitl [Hu76]
    · iexact Hu76
    isplitl [Hu77]
    · iexact Hu77
    isplitl [Hu78]
    · iexact Hu78
    isplitl [Hv79]
    · iexact Hv79
    isplitl [Hv80]
    · iexact Hv80
    isplitl [Hv81]
    · iexact Hv81
    isplitl [Hv82]
    · iexact Hv82
    isplitl [Hv83]
    · iexact Hv83
    isplitl [Hu84]
    · iexact Hu84
    isplitl [Hu85]
    · iexact Hu85
    isplitl [Hu86]
    · iexact Hu86
    isplitl [Hv87]
    · iexact Hv87
    isplitl [Hv88]
    · iexact Hv88
    isplitl [Hv89]
    · iexact Hv89
    isplitl [Hv90]
    · iexact Hv90
    isplitl [Hv91]
    · iexact Hv91
    isplitl [Hu92]
    · iexact Hu92
    isplitl [Hu93]
    · iexact Hu93
    isplitl [Hu94]
    · iexact Hu94
    isplitl [Hv95]
    · iexact Hv95
    isplitl [Hv96]
    · iexact Hv96
    isplitl [Hv97]
    · iexact Hv97
    isplitl [Hv98]
    · iexact Hv98
    isplitl [Hv99]
    · iexact Hv99
    isplitl [Hu100]
    · iexact Hu100
    isplitl [Hu101]
    · iexact Hu101
    isplitl [Hu102]
    · iexact Hu102
    isplitl [Hv103]
    · iexact Hv103
    isplitl [Hv104]
    · iexact Hv104
    isplitl [Hv105]
    · iexact Hv105
    isplitl [Hv106]
    · iexact Hv106
    isplitl [Hv107]
    · iexact Hv107
    isplitl [Hw0a]
    · iexact Hw0a
    isplitl [Hw0b]
    · iexact Hw0b
    isplitl [Hw0c]
    · iexact Hw0c
    isplitl [Hw0d]
    · iexact Hw0d
    isplitl [Hw1a]
    · iexact Hw1a
    isplitl [Hw1b]
    · iexact Hw1b
    isplitl [Hw1c]
    · iexact Hw1c
    isplitl [Hw1d]
    · iexact Hw1d
    isplitl [Hw2a]
    · iexact Hw2a
    isplitl [Hw2b]
    · iexact Hw2b
    isplitl [Hw2c]
    · iexact Hw2c
    isplitl [Hw2d]
    · iexact Hw2d
    isplitl [Hw3a]
    · iexact Hw3a
    isplitl [Hw3b]
    · iexact Hw3b
    isplitl [Hw3c]
    · iexact Hw3c
    isplitl [Hw3d]
    · iexact Hw3d
    isplitl [Hw4a]
    · iexact Hw4a
    isplitl [Hw4b]
    · iexact Hw4b
    isplitl [Hw4c]
    · iexact Hw4c
    isplitl [Hw4d]
    · iexact Hw4d
    isplitl [Hw5a]
    · iexact Hw5a
    isplitl [Hw5b]
    · iexact Hw5b
    isplitl [Hw5c]
    · iexact Hw5c
    isplitl [Hw5d]
    · iexact Hw5d
    isplitl [Hw6a]
    · iexact Hw6a
    isplitl [Hw6b]
    · iexact Hw6b
    isplitl [Hw6c]
    · iexact Hw6c
    isplitl [Hw6d]
    · iexact Hw6d
    isplitl [Hw7a]
    · iexact Hw7a
    isplitl [Hw7b]
    · iexact Hw7b
    isplitl [Hw7c]
    · iexact Hw7c
    iexact Hw7d
  iexists _; iexact HO

end Cert.KernelIdeal.RS.D5

end
-- ==== Proof.Body6.lean ====
import proofs.«901022_g7700000000001023_dist_rs_v7x_xyz2x2x2_x_m4096_n1024_bf16_1_alg».proof.Proof.BodyAux
import proofs.«901022_g7700000000001023_dist_rs_v7x_xyz2x2x2_x_m4096_n1024_bf16_1_alg».proof.Proof.BodyPre
import proofs.«901022_g7700000000001023_dist_rs_v7x_xyz2x2x2_x_m4096_n1024_bf16_1_alg».proof.Proof.OutRules

/-! The body of the kernel on device 6 of the mesh, from its precondition (BodyPre) to its postcondition (bodyPost).

    The program is straight-line code of 4045 statements. Its local steps — the 54 copies between the input, the staging
    buffers, the four-quarter buffer and the result, their waits, the loads and the stores — are run by the library's symbolic
    executor on hypotheses that hold each 512-row chunk through the slice the program itself names. Its remote steps are
    taken by the rounds library's rules, one application each: three barrier signals and the wait for the three
    neighbours; 37 copies to a neighbour, each lending the source chunk (at a share, where the chunk is also read by another
    copy) and landing the chunk's final contents; the waits on the 37 receive cells, which hand back the landed chunks; the
    final waits on the 37 send cells, which hand back what was lent. Whenever a chunk has been written (by a landing copy or
    by a store) it is restated as "holds its final contents" (Spec), which is what the next copy's payload asks for.
    A wait is allowed because whatever the device still owes at that point lies above the awaited cell (Owed): decided on the
    list of payments not yet made. At the end every cell has had its one round and is closed, and the pieces of every
    buffer are put back. -/

set_option maxRecDepth 8000

noncomputable section

namespace Cert.KernelIdeal.RS.D6

open Cert.KernelIdeal Cert.KernelIdeal.Gen Cert.KernelIdeal.RS
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local notation "cc" => (Fin.mk 6 (Nat.le_of_ble_eq_true rfl) : Dev nD)

set_option maxHeartbeats 1600000 in
theorem dev (m : (ℓ : Loc nD τ sig) → Buf (Elt F) ℓ) (K : GSem nD τ sig → ℕ) (W : Waits sig Unit) (Kt : PUnit → sProp 𝕄) :
    iprop(bodyPre m K cc W ∗ (bodyPost m cc -∗ Kt ⟨⟩))
      ⊢ wp frame (wpE (defs₀ (F := F)) 𝒱₀ (cc : Thread nD τ) none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25) Kt := by
  unfold bodyPre O₀
  iintro ⟨⟨HIt, HIw, HRt, #Hlev, HO, Hcr, HpR, HpS, Htk, HX, Hout, HS0, HS1, HS2, HS3, HS4, HS5, HS6, HS7, HS8, HvI, HvO, HvU⟩, Hk⟩
  rw [cc0_body_eq_skeleton]; unfold cc0_body_skel
  -- the four-quarter buffer in the pieces that travel
  ihave H0 := (Entails.of_eq (junk_whole (F := F) cc cc0_scratch0)) $$ HS0
  icases H0 with ⟨%f0, H0⟩
  ihave H4 := (r4_entry (F := F) cc f0) $$ H0
  icases H4 with ⟨Hown, HgZ, HgY, Hdg, HhZ, HhY⟩
  sl_exec

  icases Htk with ⟨Htb, Htk⟩
  icases HIt with ⟨#HIbpx, HIt⟩
  icases HRt with ⟨#HRbpx, HRt⟩
  iapply (sig_bar m cc _ (px cc) (dev1_eq cc) 0 (by decide) (owedL (List.drop 1 (paysL cc))) rfl) $$ [HO Htb HS2 HS4]
  · isplitr; · iexact HIbpx
    isplitl [HO]; · iexact HO
    isplitl [Htb]; · iexact Htb
    isplitl [HS2 HS4]
    · iapply (Entails.of_eq ((barPay_zero (F := F) (px cc)).trans (by rw [px_px])).symm)
      unfold giveX
      isplitl [HS2]; · iexact HS2
      iexact HS4
    · iexact HRbpx
  iintro HO
  sl_exec

  icases Htk with ⟨Htb, Htk⟩
  icases HIt with ⟨#HIbpz, HIt⟩
  icases HRt with ⟨#HRbpz, HRt⟩
  iapply (sig_bar m cc _ (pz cc) (dev2_eq cc) 2 (by decide) (owedL (List.drop 2 (paysL cc))) rfl) $$ [HO Htb HgZ HhZ]
  · isplitr; · iexact HIbpz
    isplitl [HO]; · iexact HO
    isplitl [Htb]; · iexact Htb
    isplitl [HgZ HhZ]
    · iapply (Entails.of_eq ((barPay_two (F := F) (pz cc)).trans (by rw [pz_pz])).symm)
      isplitl [HgZ]; · iexact HgZ
      iexact HhZ
    · iexact HRbpz
  iintro HO
  sl_exec

  icases Htk with ⟨Htb, Htk⟩
  icases HIt with ⟨#HIbpy, HIt⟩
  icases HRt with ⟨#HRbpy, HRt⟩
  iapply (sig_bar m cc _ (py cc) (dev3_eq cc) 1 (by decide) (owedL (List.drop 3 (paysL cc))) rfl) $$ [HO Htb HgY HhY]
  · isplitr; · iexact HIbpy
    isplitl [HO]; · iexact HO
    isplitl [Htb]; · iexact Htb
    isplitl [HgY HhY]
    · iapply (Entails.of_eq ((barPay_one (F := F) (py cc)).trans (by rw [py_py])).symm)
      isplitl [HgY]; · iexact HgY
      iexact HhY
    · iexact HRbpy
  iintro HO
  sl_exec
  -- the wait for the three neighbours
  icases Hcr with ⟨Hcb, Hcr⟩
  icases HpR with ⟨Hpb, HpR⟩
  icases HIw with ⟨#HIb, HIw⟩
  ihave Hmw := (mayWait_list (F := F) cc (.reg barS) (List.drop 3 (paysL cc)) (by decide)) $$ Hlev
  iapply (wait_bar m cc (by decide)) $$ [Hcb HO Hmw Hpb]
  · isplitr; · iexact HIb
    isplitl [Hcb]; · iexact Hcb
    isplitl [HO]; · iexact HO
    isplitl [Hmw]; · iexact Hmw
    iexact Hpb
  iintro ⟨HO, Hpb, -, Hgx, Hgy, Hgz⟩
  -- what they handed over: the x-neighbour's landing buffers chunk by chunk, the y- and z-neighbours' quarter and halves
  ihave Hgx := (Entails.of_eq (barPay_zero (F := F) cc)) $$ Hgx
  ihave Hgx := (giveX_rows (F := F) (px cc)) $$ Hgx
  icases Hgx with ⟨Hrbp, Hrb2p⟩
  ihave Hgy := (Entails.of_eq (barPay_one (F := F) cc)) $$ Hgy
  icases Hgy with ⟨HqY, HhYp⟩
  ihave Hgz := (Entails.of_eq (barPay_two (F := F) cc)) $$ Hgz
  icases Hgz with ⟨HqZ, HhZp⟩
  -- this device's staging buffers and send buffers chunk by chunk
  ihave H5 := (Entails.of_eq (junk_whole (F := F) cc cc0_scratch5)) $$ HS5
  icases H5 with ⟨%f5, H5⟩
  ihave H5 := (Entails.of_eq (stP_rows (F := F) cc fullShare f5)) $$ H5
  icases H5 with ⟨HP0, HP1, HP2, HP3, HP4, HP5, HP6, HP7⟩
  ihave H6 := (Entails.of_eq (junk_whole (F := F) cc cc0_scratch6)) $$ HS6
  icases H6 with ⟨%f6, H6⟩
  ihave H6 := (Entails.of_eq (stL_rows (F := F) cc fullShare f6)) $$ H6
  icases H6 with ⟨HL0, HL1, HL2, HL3, HL4, HL5, HL6, HL7⟩
  ihave H7 := (Entails.of_eq (junk_whole (F := F) cc cc0_scratch7)) $$ HS7
  icases H7 with ⟨%f7, H7⟩
  ihave H7 := (Entails.of_eq (stP2_rows (F := F) cc fullShare f7)) $$ H7
  icases H7 with ⟨HP20, HP21, HP22⟩
  ihave H8 := (Entails.of_eq (junk_whole (F := F) cc cc0_scratch8)) $$ HS8
  icases H8 with ⟨%f8, H8⟩
  ihave H8 := (Entails.of_eq (stL2_rows (F := F) cc fullShare f8)) $$ H8
  icases H8 with ⟨HL20, HL21, HL22⟩
  ihave H1 := (Entails.of_eq (junk_whole (F := F) cc cc0_scratch1)) $$ HS1
  icases H1 with ⟨%f1, H1⟩
  ihave H1 := (Entails.of_eq (sb_rows (F := F) cc fullShare f1)) $$ H1
  icases H1 with ⟨HB0, HB1, HB2, HB3, HB4, HB5, HB6, HB7⟩
  ihave H3 := (Entails.of_eq (junk_whole (F := F) cc cc0_scratch3)) $$ HS3
  icases H3 with ⟨%f3, H3⟩
  ihave H3 := (Entails.of_eq (sb2_rows (F := F) cc fullShare f3)) $$ H3
  icases H3 with ⟨HB20, HB21, HB22⟩
  -- the counters of the 22 copies into the staging buffers
  icases HvI with ⟨Hv0, Hv8, Hv1, Hv9, Hv2, Hv10, Hv3, Hv11, Hv4, Hv12, Hv5, Hv13, Hv6, Hv14, Hv7, Hv15, Hv16, Hv19, Hv17, Hv20, Hv18, Hv21⟩
  sl_exec
  -- chunk 0 across x: wait for its copy into the staging buffer, round it into the send buffer, send it
  have hled3 : ∀ (s : DmaSem sig), lvJ s.val = 0 → ((levAts LL lvv : sProp 𝕄) ⊢ MayWait (cc : Thread nD τ) (.dma s) () (owedL (List.drop 3 (paysL cc)))) :=
    fun s hs => mayWait_local (F := F) cc s hs _ (by decide)
  sl_exec
  clear hled3
  ihave HB0 := (congr (F := F) (sbR 0) cc fullShare (dev.sl.HB0_w1 m f1) (sb m cc) (fun i hi => glue_sb m cc 0 _ (k0_off1_inb cc) (k0_off1_eq cc) f1 i hi)) $$ HB0
  -- the copy
  icases Htk with ⟨Hts, Htr, Htk⟩
  icases HIt with ⟨#HIc22, #HIr, HIt⟩
  icases HRt with ⟨#HRs, #HRr, HRt⟩
  icases Hrbp with ⟨⟨%fd, Hd⟩, Hrbp⟩
  iapply (send_x m cc _ (dev4_eq cc) 0 fd (owedL (List.drop 4 (paysL cc))) rfl _) $$ [HB0 Hd HO Hts Htr]
  · isplitr; · iexact HIc22
    isplitr; · iexact HIr
    isplitl [HB0]; · iexact HB0
    isplitl [Hd]; · iexact Hd
    isplitl [HO]; · iexact HO
    isplitl [Hts]; · iexact Hts
    isplitr; · iexact HRs
    isplitl [Htr]; · iexact Htr
    iexact HRr
  iintro ⟨Hcxs0, HO⟩
  iclear HIr HRs HRr
  -- chunk 1 across x: wait for its copy into the staging buffer, round it into the send buffer, send it
  have hled4 : ∀ (s : DmaSem sig), lvJ s.val = 0 → ((levAts LL lvv : sProp 𝕄) ⊢ MayWait (cc : Thread nD τ) (.dma s) () (owedL (List.drop 4 (paysL cc)))) :=
    fun s hs => mayWait_local (F := F) cc s hs _ (by decide)
  sl_exec
  clear hled4
  ihave HB1 := (congr (F := F) (sbR 1) cc fullShare (dev.sl.HB1_w1 m f1) (sb m cc) (fun i hi => glue_sb m cc 1 _ (k0_off3_inb cc) (k0_off3_eq cc) f1 i hi)) $$ HB1
  -- the copy
  icases Htk with ⟨Hts, Htr, Htk⟩
  icases HIt with ⟨#HIc23, #HIr, HIt⟩
  icases HRt with ⟨#HRs, #HRr, HRt⟩
  icases Hrbp with ⟨⟨%fd, Hd⟩, Hrbp⟩
  iapply (send_x m cc _ (dev5_eq cc) 1 fd (owedL (List.drop 5 (paysL cc))) rfl _) $$ [HB1 Hd HO Hts Htr]
  · isplitr; · iexact HIc23
    isplitr; · iexact HIr
    isplitl [HB1]; · iexact HB1
    isplitl [Hd]; · iexact Hd
    isplitl [HO]; · iexact HO
    isplitl [Hts]; · iexact Hts
    isplitr; · iexact HRs
    isplitl [Htr]; · iexact Htr
    iexact HRr
  iintro ⟨Hcxs1, HO⟩
  iclear HIr HRs HRr
  -- chunk 2 across x: wait for its copy into the staging buffer, round it into the send buffer, send it
  have hled5 : ∀ (s : DmaSem sig), lvJ s.val = 0 → ((levAts LL lvv : sProp 𝕄) ⊢ MayWait (cc : Thread nD τ) (.dma s) () (owedL (List.drop 5 (paysL cc)))) :=
    fun s hs => mayWait_local (F := F) cc s hs _ (by decide)
  sl_exec
  clear hled5
  ihave HB2 := (congr (F := F) (sbR 2) cc fullShare (dev.sl.HB2_w1 m f1) (sb m cc) (fun i hi => glue_sb m cc 2 _ (k0_off5_inb cc) (k0_off5_eq cc) f1 i hi)) $$ HB2
  -- the copy
  icases Htk with ⟨Hts, Htr, Htk⟩
  icases HIt with ⟨#HIc24, #HIr, HIt⟩
  icases HRt with ⟨#HRs, #HRr, HRt⟩
  icases Hrbp with ⟨⟨%fd, Hd⟩, Hrbp⟩
  iapply (send_x m cc _ (dev6_eq cc) 2 fd (owedL (List.drop 6 (paysL cc))) rfl _) $$ [HB2 Hd HO Hts Htr]
  · isplitr; · iexact HIc24
    isplitr; · iexact HIr
    isplitl [HB2]; · iexact HB2
    isplitl [Hd]; · iexact Hd
    isplitl [HO]; · iexact HO
    isplitl [Hts]; · iexact Hts
    isplitr; · iexact HRs
    isplitl [Htr]; · iexact Htr
    iexact HRr
  iintro ⟨Hcxs2, HO⟩
  iclear HIr HRs HRr
  -- chunk 3 across x: wait for its copy into the staging buffer, round it into the send buffer, send it
  have hled6 : ∀ (s : DmaSem sig), lvJ s.val = 0 → ((levAts LL lvv : sProp 𝕄) ⊢ MayWait (cc : Thread nD τ) (.dma s) () (owedL (List.drop 6 (paysL cc)))) :=
    fun s hs => mayWait_local (F := F) cc s hs _ (by decide)
  sl_exec
  clear hled6
  ihave HB3 := (congr (F := F) (sbR 3) cc fullShare (dev.sl.HB3_w1 m f1) (sb m cc) (fun i hi => glue_sb m cc 3 _ (k0_off7_inb cc) (k0_off7_eq cc) f1 i hi)) $$ HB3
  -- the copy
  icases Htk with ⟨Hts, Htr, Htk⟩
  icases HIt with ⟨#HIc25, #HIr, HIt⟩
  icases HRt with ⟨#HRs, #HRr, HRt⟩
  icases Hrbp with ⟨⟨%fd, Hd⟩, Hrbp⟩
  iapply (send_x m cc _ (dev7_eq cc) 3 fd (owedL (List.drop 7 (paysL cc))) rfl _) $$ [HB3 Hd HO Hts Htr]
  · isplitr; · iexact HIc25
    isplitr; · iexact HIr
    isplitl [HB3]; · iexact HB3
    isplitl [Hd]; · iexact Hd
    isplitl [HO]; · iexact HO
    isplitl [Hts]; · iexact Hts
    isplitr; · iexact HRs
    isplitl [Htr]; · iexact Htr
    iexact HRr
  iintro ⟨Hcxs3, HO⟩
  iclear HIr HRs HRr
  -- chunk 4 across x: wait for its copy into the staging buffer, round it into the send buffer, send it
  have hled7 : ∀ (s : DmaSem sig), lvJ s.val = 0 → ((levAts LL lvv : sProp 𝕄) ⊢ MayWait (cc : Thread nD τ) (.dma s) () (owedL (List.drop 7 (paysL cc)))) :=
    fun s hs => mayWait_local (F := F) cc s hs _ (by decide)
  sl_exec
  clear hled7
  ihave HB4 := (congr (F := F) (sbR 4) cc fullShare (dev.sl.HB4_w1 m f1) (sb m cc) (fun i hi => glue_sb m cc 4 _ (k0_off9_inb cc) (k0_off9_eq cc) f1 i hi)) $$ HB4
  -- the copy
  icases Htk with ⟨Hts, Htr, Htk⟩
  icases HIt with ⟨#HIc26, #HIr, HIt⟩
  icases HRt with ⟨#HRs, #HRr, HRt⟩
  icases Hrbp with ⟨⟨%fd, Hd⟩, Hrbp⟩
  iapply (send_x m cc _ (dev8_eq cc) 4 fd (owedL (List.drop 8 (paysL cc))) rfl _) $$ [HB4 Hd HO Hts Htr]
  · isplitr; · iexact HIc26
    isplitr; · iexact HIr
    isplitl [HB4]; · iexact HB4
    isplitl [Hd]; · iexact Hd
    isplitl [HO]; · iexact HO
    isplitl [Hts]; · iexact Hts
    isplitr; · iexact HRs
    isplitl [Htr]; · iexact Htr
    iexact HRr
  iintro ⟨Hcxs4, HO⟩
  iclear HIr HRs HRr
  -- chunk 5 across x: wait for its copy into the staging buffer, round it into the send buffer, send it
  have hled8 : ∀ (s : DmaSem sig), lvJ s.val = 0 → ((levAts LL lvv : sProp 𝕄) ⊢ MayWait (cc : Thread nD τ) (.dma s) () (owedL (List.drop 8 (paysL cc)))) :=
    fun s hs => mayWait_local (F := F) cc s hs _ (by decide)
  sl_exec
  clear hled8
  ihave HB5 := (congr (F := F) (sbR 5) cc fullShare (dev.sl.HB5_w1 m f1) (sb m cc) (fun i hi => glue_sb m cc 5 _ (k0_off11_inb cc) (k0_off11_eq cc) f1 i hi)) $$ HB5
  -- the copy
  icases Htk with ⟨Hts, Htr, Htk⟩
  icases HIt with ⟨#HIc27, #HIr, HIt⟩
  icases HRt with ⟨#HRs, #HRr, HRt⟩
  icases Hrbp with ⟨⟨%fd, Hd⟩, Hrbp⟩
  iapply (send_x m cc _ (dev9_eq cc) 5 fd (owedL (List.drop 9 (paysL cc))) rfl _) $$ [HB5 Hd HO Hts Htr]
  · isplitr; · iexact HIc27
    isplitr; · iexact HIr
    isplitl [HB5]; · iexact HB5
    isplitl [Hd]; · iexact Hd
    isplitl [HO]; · iexact HO
    isplitl [Hts]; · iexact Hts
    isplitr; · iexact HRs
    isplitl [Htr]; · iexact Htr
    iexact HRr
  iintro ⟨Hcxs5, HO⟩
  iclear HIr HRs HRr
  -- chunk 6 across x: wait for its copy into the staging buffer, round it into the send buffer, send it
  have hled9 : ∀ (s : DmaSem sig), lvJ s.val = 0 → ((levAts LL lvv : sProp 𝕄) ⊢ MayWait (cc : Thread nD τ) (.dma s) () (owedL (List.drop 9 (paysL cc)))) :=
    fun s hs => mayWait_local (F := F) cc s hs _ (by decide)
  sl_exec
  clear hled9
  ihave HB6 := (congr (F := F) (sbR 6) cc fullShare (dev.sl.HB6_w1 m f1) (sb m cc) (fun i hi => glue_sb m cc 6 _ (k0_off13_inb cc) (k0_off13_eq cc) f1 i hi)) $$ HB6
  -- the copy
  icases Htk with ⟨Hts, Htr, Htk⟩
  icases HIt with ⟨#HIc28, #HIr, HIt⟩
  icases HRt with ⟨#HRs, #HRr, HRt⟩
  icases Hrbp with ⟨⟨%fd, Hd⟩, Hrbp⟩
  iapply (send_x m cc _ (dev10_eq cc) 6 fd (owedL (List.drop 10 (paysL cc))) rfl _) $$ [HB6 Hd HO Hts Htr]
  · isplitr; · iexact HIc28
    isplitr; · iexact HIr
    isplitl [HB6]; · iexact HB6
    isplitl [Hd]; · iexact Hd
    isplitl [HO]; · iexact HO
    isplitl [Hts]; · iexact Hts
    isplitr; · iexact HRs
    isplitl [Htr]; · iexact Htr
    iexact HRr
  iintro ⟨Hcxs6, HO⟩
  iclear HIr HRs HRr
  -- chunk 7 across x: wait for its copy into the staging buffer, round it into the send buffer, send it
  have hled10 : ∀ (s : DmaSem sig), lvJ s.val = 0 → ((levAts LL lvv : sProp 𝕄) ⊢ MayWait (cc : Thread nD τ) (.dma s) () (owedL (List.drop 10 (paysL cc)))) :=
    fun s hs => mayWait_local (F := F) cc s hs _ (by decide)
  sl_exec
  clear hled10
  ihave HB7 := (congr (F := F) (sbR 7) cc fullShare (dev.sl.HB7_w1 m f1) (sb m cc) (fun i hi => glue_sb m cc 7 _ (k0_off15_inb cc) (k0_off15_eq cc) f1 i hi)) $$ HB7
  -- the copy
  icases Htk with ⟨Hts, Htr, Htk⟩
  icases HIt with ⟨#HIc29, #HIr, HIt⟩
  icases HRt with ⟨#HRs, #HRr, HRt⟩
  icases Hrbp with ⟨%fd, Hd⟩
  iapply (send_x m cc _ (dev11_eq cc) 7 fd (owedL (List.drop 11 (paysL cc))) rfl _) $$ [HB7 Hd HO Hts Htr]
  · isplitr; · iexact HIc29
    isplitr; · iexact HIr
    isplitl [HB7]; · iexact HB7
    isplitl [Hd]; · iexact Hd
    isplitl [HO]; · iexact HO
    isplitl [Hts]; · iexact Hts
    isplitr; · iexact HRs
    isplitl [Htr]; · iexact Htr
    iexact HRr
  iintro ⟨Hcxs7, HO⟩
  iclear HIr HRs HRr
  -- chunk 0 across x (the diagonal quarter's): wait for its copy into the staging buffer, round it into the send buffer, send it
  have hled11 : ∀ (s : DmaSem sig), lvJ s.val = 0 → ((levAts LL lvv : sProp 𝕄) ⊢ MayWait (cc : Thread nD τ) (.dma s) () (owedL (List.drop 11 (paysL cc)))) :=
    fun s hs => mayWait_local (F := F) cc s hs _ (by decide)
  sl_exec
  clear hled11
  ihave HB20 := (congr (F := F) (sb2R 0) cc fullShare (dev.sl.HB20_w1 m f3) (sb2 m cc) (fun i hi => glue_sb2 m cc 0 _ (k0_off17_inb cc) (k0_off17_eq cc) f3 i hi)) $$ HB20
  -- the copy
  icases Htk with ⟨Hts, Htr, Htk⟩
  icases HIt with ⟨#HIc38, #HIr, HIt⟩
  icases HRt with ⟨#HRs, #HRr, HRt⟩
  icases Hrb2p with ⟨⟨%fd, Hd⟩, Hrb2p⟩
  iapply (send_x2 m cc _ (dev12_eq cc) 0 fd (owedL (List.drop 12 (paysL cc))) rfl _) $$ [HB20 Hd HO Hts Htr]
  · isplitr; · iexact HIc38
    isplitr; · iexact HIr
    isplitl [HB20]; · iexact HB20
    isplitl [Hd]; · iexact Hd
    isplitl [HO]; · iexact HO
    isplitl [Hts]; · iexact Hts
    isplitr; · iexact HRs
    isplitl [Htr]; · iexact Htr
    iexact HRr
  iintro ⟨Hcds0, HO⟩
  iclear HIr HRs HRr
  -- chunk 1 across x (the diagonal quarter's): wait for its copy into the staging buffer, round it into the send buffer, send it
  have hled12 : ∀ (s : DmaSem sig), lvJ s.val = 0 → ((levAts LL lvv : sProp 𝕄) ⊢ MayWait (cc : Thread nD τ) (.dma s) () (owedL (List.drop 12 (paysL cc)))) :=
    fun s hs => mayWait_local (F := F) cc s hs _ (by decide)
  sl_exec
  clear hled12
  ihave HB21 := (congr (F := F) (sb2R 1) cc fullShare (dev.sl.HB21_w1 m f3) (sb2 m cc) (fun i hi => glue_sb2 m cc 1 _ (k0_off19_inb cc) (k0_off19_eq cc) f3 i hi)) $$ HB21
  -- the copy
  icases Htk with ⟨Hts, Htr, Htk⟩
  icases HIt with ⟨#HIc39, #HIr, HIt⟩
  icases HRt with ⟨#HRs, #HRr, HRt⟩
  icases Hrb2p with ⟨⟨%fd, Hd⟩, Hrb2p⟩
  iapply (send_x2 m cc _ (dev13_eq cc) 1 fd (owedL (List.drop 13 (paysL cc))) rfl _) $$ [HB21 Hd HO Hts Htr]
  · isplitr; · iexact HIc39
    isplitr; · iexact HIr
    isplitl [HB21]; · iexact HB21
    isplitl [Hd]; · iexact Hd
    isplitl [HO]; · iexact HO
    isplitl [Hts]; · iexact Hts
    isplitr; · iexact HRs
    isplitl [Htr]; · iexact Htr
    iexact HRr
  iintro ⟨Hcds1, HO⟩
  iclear HIr HRs HRr
  -- chunk 2 across x (the diagonal quarter's): wait for its copy into the staging buffer, round it into the send buffer, send it
  have hled13 : ∀ (s : DmaSem sig), lvJ s.val = 0 → ((levAts LL lvv : sProp 𝕄) ⊢ MayWait (cc : Thread nD τ) (.dma s) () (owedL (List.drop 13 (paysL cc)))) :=
    fun s hs => mayWait_local (F := F) cc s hs _ (by decide)
  sl_exec
  clear hled13
  ihave HB22 := (congr (F := F) (sb2R 2) cc fullShare (dev.sl.HB22_w1 m f3) (sb2 m cc) (fun i hi => glue_sb2 m cc 2 _ (k0_off21_inb cc) (k0_off21_eq cc) f3 i hi)) $$ HB22
  -- the copy
  icases Htk with ⟨Hts, Htr, Htk⟩
  icases HIt with ⟨#HIc40, #HIr, HIt⟩
  icases HRt with ⟨#HRs, #HRr, HRt⟩
  icases Hrb2p with ⟨%fd, Hd⟩
  iapply (send_x2 m cc _ (dev14_eq cc) 2 fd (owedL (List.drop 14 (paysL cc))) rfl _) $$ [HB22 Hd HO Hts Htr]
  · isplitr; · iexact HIc40
    isplitr; · iexact HIr
    isplitl [HB22]; · iexact HB22
    isplitl [Hd]; · iexact Hd
    isplitl [HO]; · iexact HO
    isplitl [Hts]; · iexact Hts
    isplitr; · iexact HRs
    isplitl [Htr]; · iexact Htr
    iexact HRr
  iintro ⟨Hcds2, HO⟩
  iclear HIr HRs HRr
  sl_exec
  -- the result array in its 32 blocks
  ihave Hout := (out_split_junk (F := F) cc) $$ Hout
  icases Hout with ⟨⟨%g00, HU00⟩, ⟨%g01, HU01⟩, ⟨%g02, HU02⟩, ⟨%g03, HU03⟩, ⟨%g10, HU10⟩, ⟨%g11, HU11⟩, ⟨%g12, HU12⟩, ⟨%g13, HU13⟩, ⟨%g20, HU20⟩, ⟨%g21, HU21⟩, ⟨%g22, HU22⟩, ⟨%g23, HU23⟩, ⟨%g30, HU30⟩, ⟨%g31, HU31⟩, ⟨%g32, HU32⟩, ⟨%g33, HU33⟩, ⟨%g40, HU40⟩, ⟨%g41, HU41⟩, ⟨%g42, HU42⟩, ⟨%g43, HU43⟩, ⟨%g50, HU50⟩, ⟨%g51, HU51⟩, ⟨%g52, HU52⟩, ⟨%g53, HU53⟩, ⟨%g60, HU60⟩, ⟨%g61, HU61⟩, ⟨%g62, HU62⟩, ⟨%g63, HU63⟩, ⟨%g70, HU70⟩, ⟨%g71, HU71⟩, ⟨%g72, HU72⟩, ⟨%g73, HU73⟩⟩
  ihave HqZ := (Entails.of_eq (giveQ_eq (F := F) (pz cc) (zqF (pz cc)))) $$ HqZ
  ihave HqY := (Entails.of_eq (giveQ_eq (F := F) (py cc) (yqF (py cc)))) $$ HqY
  ihave HhZp := (Entails.of_eq (giveH_eq (F := F) (pz cc) 0)) $$ HhZp
  ihave HhYp := (Entails.of_eq (giveH_eq (F := F) (py cc) 1)) $$ HhYp
  -- step 0 of the main loop: the x-neighbour's chunk 0 has landed
  icases Hcr with ⟨Hc, Hcr⟩
  icases HpR with ⟨Hp, HpR⟩
  icases HIw with ⟨#HIc30, HIw⟩
  ihave Hmw := (mayWait_list (F := F) cc (dsem (⟨30, by decide⟩ : Fin 140)) (List.drop 14 (paysL cc)) (by decide)) $$ Hlev
  iapply (wait_a1_at m cc _ 0 rfl) $$ [Hc HO Hmw Hp]
  · isplitr; · iexact HIc30
    isplitl [Hc]; · iexact Hc
    isplitl [HO]; · iexact HO
    isplitl [Hmw]; · iexact Hmw
    iexact Hp
  iintro ⟨HO, Hq30, -, Hrb0⟩
  icases Hown with ⟨Ho0, Hown⟩
  have hled14 : ∀ (s : DmaSem sig), lvJ s.val = 0 → ((levAts LL lvv : sProp 𝕄) ⊢ MayWait (cc : Thread nD τ) (.dma s) () (owedL (List.drop 14 (paysL cc)))) :=
    fun s hs => mayWait_local (F := F) cc s hs _ (by decide)
  sl_exec
  clear hled14
  ihave Ho0 := (congr (F := F) (r4R (mqF cc) 0) cc fullShare (dev.sl.Ho0_w1 m f0) (r4 m cc) (fun i hi => glue_own m cc 0 _ (k0_off2_inb cc) (k0_off2_eq cc) _ (k0_off23_inb cc) (k0_off23_eq cc) f0 i hi)) $$ Ho0
  ihave Ho0 := (Entails.of_eq (share_ZYK_eq (F := F) (r4R (mqF cc) 0) cc (r4 m cc))) $$ Ho0
  icases Ho0 with ⟨HoZ0, HoY0, HoK0⟩
  -- own chunk 0 to the z-neighbour
  icases Htk with ⟨Hts, Htr, Htk⟩
  icases HIt with ⟨#HIc44, #HIr, HIt⟩
  icases HRt with ⟨#HRs, #HRr, HRt⟩
  icases HqZ with ⟨⟨%fd, Hd⟩, HqZ⟩
  iapply (send_z_at m cc _ (dev15_eq cc) 0 _ _ (k0_off24_eq cc) fd (owedL (List.drop 15 (paysL cc))) rfl _) $$ [HoZ0 Hd HO Hts Htr]
  · isplitr; · iexact HIc44
    isplitr; · iexact HIr
    isplitl [HoZ0]; · iexact HoZ0
    isplitl [Hd]; · iexact Hd
    isplitl [HO]; · iexact HO
    isplitl [Hts]; · iexact Hts
    isplitr; · iexact HRs
    isplitl [Htr]; · iexact Htr
    iexact HRr
  iintro ⟨Hczs0, HO⟩
  iclear HIr HRs HRr
  sl_exec
  -- own chunk 0 to the y-neighbour
  icases Htk with ⟨Hts, Htr, Htk⟩
  icases HIt with ⟨#HIc60, #HIr, HIt⟩
  icases HRt with ⟨#HRs, #HRr, HRt⟩
  icases HqY with ⟨⟨%fd, Hd⟩, HqY⟩
  iapply (send_y_at m cc _ (dev16_eq cc) 0 _ _ (k0_off24_eq cc) fd (owedL (List.drop 16 (paysL cc))) rfl _) $$ [HoY0 Hd HO Hts Htr]
  · isplitr; · iexact HIc60
    isplitr; · iexact HIr
    isplitl [HoY0]; · iexact HoY0
    isplitl [Hd]; · iexact Hd
    isplitl [HO]; · iexact HO
    isplitl [Hts]; · iexact Hts
    isplitr; · iexact HRs
    isplitl [Htr]; · iexact Htr
    iexact HRr
  iintro ⟨Hcys0, HO⟩
  iclear HIr HRs HRr
  sl_exec
  -- step 1 of the main loop: the x-neighbour's chunk 1 has landed
  icases Hcr with ⟨Hc, Hcr⟩
  icases HpR with ⟨Hp, HpR⟩
  icases HIw with ⟨#HIc31, HIw⟩
  ihave Hmw := (mayWait_list (F := F) cc (dsem (⟨31, by decide⟩ : Fin 140)) (List.drop 16 (paysL cc)) (by decide)) $$ Hlev
  iapply (wait_a1_at m cc _ 1 rfl) $$ [Hc HO Hmw Hp]
  · isplitr; · iexact HIc31
    isplitl [Hc]; · iexact Hc
    isplitl [HO]; · iexact HO
    isplitl [Hmw]; · iexact Hmw
    iexact Hp
  iintro ⟨HO, Hq31, -, Hrb1⟩
  icases Hown with ⟨Ho1, Hown⟩
  have hled16 : ∀ (s : DmaSem sig), lvJ s.val = 0 → ((levAts LL lvv : sProp 𝕄) ⊢ MayWait (cc : Thread nD τ) (.dma s) () (owedL (List.drop 16 (paysL cc)))) :=
    fun s hs => mayWait_local (F := F) cc s hs _ (by decide)
  sl_exec
  clear hled16
  ihave Ho1 := (congr (F := F) (r4R (mqF cc) 1) cc fullShare (dev.sl.Ho1_w1 m f0) (r4 m cc) (fun i hi => glue_own m cc 1 _ (k0_off4_inb cc) (k0_off4_eq cc) _ (k0_off25_inb cc) (k0_off25_eq cc) f0 i hi)) $$ Ho1
  ihave Ho1 := (Entails.of_eq (share_ZYK_eq (F := F) (r4R (mqF cc) 1) cc (r4 m cc))) $$ Ho1
  icases Ho1 with ⟨HoZ1, HoY1, HoK1⟩
  -- own chunk 1 to the z-neighbour
  icases Htk with ⟨Hts, Htr, Htk⟩
  icases HIt with ⟨#HIc45, #HIr, HIt⟩
  icases HRt with ⟨#HRs, #HRr, HRt⟩
  icases HqZ with ⟨⟨%fd, Hd⟩, HqZ⟩
  iapply (send_z_at m cc _ (dev17_eq cc) 1 _ _ (k0_off26_eq cc) fd (owedL (List.drop 17 (paysL cc))) rfl _) $$ [HoZ1 Hd HO Hts Htr]
  · isplitr; · iexact HIc45
    isplitr; · iexact HIr
    isplitl [HoZ1]; · iexact HoZ1
    isplitl [Hd]; · iexact Hd
    isplitl [HO]; · iexact HO
    isplitl [Hts]; · iexact Hts
    isplitr; · iexact HRs
    isplitl [Htr]; · iexact Htr
    iexact HRr
  iintro ⟨Hczs1, HO⟩
  iclear HIr HRs HRr
  sl_exec
  -- own chunk 1 to the y-neighbour
  icases Htk with ⟨Hts, Htr, Htk⟩
  icases HIt with ⟨#HIc61, #HIr, HIt⟩
  icases HRt with ⟨#HRs, #HRr, HRt⟩
  icases HqY with ⟨⟨%fd, Hd⟩, HqY⟩
  iapply (send_y_at m cc _ (dev18_eq cc) 1 _ _ (k0_off26_eq cc) fd (owedL (List.drop 18 (paysL cc))) rfl _) $$ [HoY1 Hd HO Hts Htr]
  · isplitr; · iexact HIc61
    isplitr; · iexact HIr
    isplitl [HoY1]; · iexact HoY1
    isplitl [Hd]; · iexact Hd
    isplitl [HO]; · iexact HO
    isplitl [Hts]; · iexact Hts
    isplitr; · iexact HRs
    isplitl [Htr]; · iexact Htr
    iexact HRr
  iintro ⟨Hcys1, HO⟩
  iclear HIr HRs HRr
  sl_exec
  -- the z-neighbour's chunk 0 has landed
  icases Hcr with ⟨Hc, Hcr⟩
  icases HpR with ⟨Hp, HpR⟩
  icases HIw with ⟨#HIc52, HIw⟩
  ihave Hmw := (mayWait_list (F := F) cc (dsem (⟨52, by decide⟩ : Fin 140)) (List.drop 18 (paysL cc)) (by decide)) $$ Hlev
  iapply (wait_a5_at m cc _ 0 rfl) $$ [Hc HO Hmw Hp]
  · isplitr; · iexact HIc52
    isplitl [Hc]; · iexact Hc
    isplitl [HO]; · iexact HO
    isplitl [Hmw]; · iexact Hmw
    iexact Hp
  iintro ⟨HO, Hq52, -, Hz0⟩
  sl_exec
  -- the y-neighbour's chunk 0 has landed
  icases Hcr with ⟨Hc, Hcr⟩
  icases HpR with ⟨Hp, HpR⟩
  icases HIw with ⟨#HIc68, HIw⟩
  ihave Hmw := (mayWait_list (F := F) cc (dsem (⟨68, by decide⟩ : Fin 140)) (List.drop 18 (paysL cc)) (by decide)) $$ Hlev
  iapply (wait_a7_at m cc _ 0 rfl) $$ [Hc HO Hmw Hp]
  · isplitr; · iexact HIc68
    isplitl [Hc]; · iexact Hc
    isplitl [HO]; · iexact HO
    isplitl [Hmw]; · iexact Hmw
    iexact Hp
  iintro ⟨HO, Hq68, -, Hy0⟩
  sl_exec
  -- step 2 of the main loop: the x-neighbour's chunk 2 has landed
  icases Hcr with ⟨Hc, Hcr⟩
  icases HpR with ⟨Hp, HpR⟩
  icases HIw with ⟨#HIc32, HIw⟩
  ihave Hmw := (mayWait_list (F := F) cc (dsem (⟨32, by decide⟩ : Fin 140)) (List.drop 18 (paysL cc)) (by decide)) $$ Hlev
  iapply (wait_a1_at m cc _ 2 rfl) $$ [Hc HO Hmw Hp]
  · isplitr; · iexact HIc32
    isplitl [Hc]; · iexact Hc
    isplitl [HO]; · iexact HO
    isplitl [Hmw]; · iexact Hmw
    iexact Hp
  iintro ⟨HO, Hq32, -, Hrb2⟩
  icases Hown with ⟨Ho2, Hown⟩
  have hled18 : ∀ (s : DmaSem sig), lvJ s.val = 0 → ((levAts LL lvv : sProp 𝕄) ⊢ MayWait (cc : Thread nD τ) (.dma s) () (owedL (List.drop 18 (paysL cc)))) :=
    fun s hs => mayWait_local (F := F) cc s hs _ (by decide)
  sl_exec
  clear hled18
  ihave Ho2 := (congr (F := F) (r4R (mqF cc) 2) cc fullShare (dev.sl.Ho2_w1 m f0) (r4 m cc) (fun i hi => glue_own m cc 2 _ (k0_off6_inb cc) (k0_off6_eq cc) _ (k0_off27_inb cc) (k0_off27_eq cc) f0 i hi)) $$ Ho2
  ihave Ho2 := (Entails.of_eq (share_ZYK_eq (F := F) (r4R (mqF cc) 2) cc (r4 m cc))) $$ Ho2
  icases Ho2 with ⟨HoZ2, HoY2, HoK2⟩
  -- own chunk 2 to the z-neighbour
  icases Htk with ⟨Hts, Htr, Htk⟩
  icases HIt with ⟨#HIc46, #HIr, HIt⟩
  icases HRt with ⟨#HRs, #HRr, HRt⟩
  icases HqZ with ⟨⟨%fd, Hd⟩, HqZ⟩
  iapply (send_z_at m cc _ (dev19_eq cc) 2 _ _ (k0_off28_eq cc) fd (owedL (List.drop 19 (paysL cc))) rfl _) $$ [HoZ2 Hd HO Hts Htr]
  · isplitr; · iexact HIc46
    isplitr; · iexact HIr
    isplitl [HoZ2]; · iexact HoZ2
    isplitl [Hd]; · iexact Hd
    isplitl [HO]; · iexact HO
    isplitl [Hts]; · iexact Hts
    isplitr; · iexact HRs
    isplitl [Htr]; · iexact Htr
    iexact HRr
  iintro ⟨Hczs2, HO⟩
  iclear HIr HRs HRr
  sl_exec
  -- own chunk 2 to the y-neighbour
  icases Htk with ⟨Hts, Htr, Htk⟩
  icases HIt with ⟨#HIc62, #HIr, HIt⟩
  icases HRt with ⟨#HRs, #HRr, HRt⟩
  icases HqY with ⟨⟨%fd, Hd⟩, HqY⟩
  iapply (send_y_at m cc _ (dev20_eq cc) 2 _ _ (k0_off28_eq cc) fd (owedL (List.drop 20 (paysL cc))) rfl _) $$ [HoY2 Hd HO Hts Htr]
  · isplitr; · iexact HIc62
    isplitr; · iexact HIr
    isplitl [HoY2]; · iexact HoY2
    isplitl [Hd]; · iexact Hd
    isplitl [HO]; · iexact HO
    isplitl [Hts]; · iexact Hts
    isplitr; · iexact HRs
    isplitl [Htr]; · iexact Htr
    iexact HRr
  iintro ⟨Hcys2, HO⟩
  iclear HIr HRs HRr
  sl_exec
  -- the z-neighbour's chunk 1 has landed
  icases Hcr with ⟨Hc, Hcr⟩
  icases HpR with ⟨Hp, HpR⟩
  icases HIw with ⟨#HIc53, HIw⟩
  ihave Hmw := (mayWait_list (F := F) cc (dsem (⟨53, by decide⟩ : Fin 140)) (List.drop 20 (paysL cc)) (by decide)) $$ Hlev
  iapply (wait_a5_at m cc _ 1 rfl) $$ [Hc HO Hmw Hp]
  · isplitr; · iexact HIc53
    isplitl [Hc]; · iexact Hc
    isplitl [HO]; · iexact HO
    isplitl [Hmw]; · iexact Hmw
    iexact Hp
  iintro ⟨HO, Hq53, -, Hz1⟩
  sl_exec
  -- the y-neighbour's chunk 1 has landed
  icases Hcr with ⟨Hc, Hcr⟩
  icases HpR with ⟨Hp, HpR⟩
  icases HIw with ⟨#HIc69, HIw⟩
  ihave Hmw := (mayWait_list (F := F) cc (dsem (⟨69, by decide⟩ : Fin 140)) (List.drop 20 (paysL cc)) (by decide)) $$ Hlev
  iapply (wait_a7_at m cc _ 1 rfl) $$ [Hc HO Hmw Hp]
  · isplitr; · iexact HIc69
    isplitl [Hc]; · iexact Hc
    isplitl [HO]; · iexact HO
    isplitl [Hmw]; · iexact Hmw
    iexact Hp
  iintro ⟨HO, Hq69, -, Hy1⟩
  sl_exec
  -- step 3 of the main loop: the x-neighbour's chunk 3 has landed
  icases Hcr with ⟨Hc, Hcr⟩
  icases HpR with ⟨Hp, HpR⟩
  icases HIw with ⟨#HIc33, HIw⟩
  ihave Hmw := (mayWait_list (F := F) cc (dsem (⟨33, by decide⟩ : Fin 140)) (List.drop 20 (paysL cc)) (by decide)) $$ Hlev
  iapply (wait_a1_at m cc _ 3 rfl) $$ [Hc HO Hmw Hp]
  · isplitr; · iexact HIc33
    isplitl [Hc]; · iexact Hc
    isplitl [HO]; · iexact HO
    isplitl [Hmw]; · iexact Hmw
    iexact Hp
  iintro ⟨HO, Hq33, -, Hrb3⟩
  icases Hown with ⟨Ho3, Hown⟩
  have hled20 : ∀ (s : DmaSem sig), lvJ s.val = 0 → ((levAts LL lvv : sProp 𝕄) ⊢ MayWait (cc : Thread nD τ) (.dma s) () (owedL (List.drop 20 (paysL cc)))) :=
    fun s hs => mayWait_local (F := F) cc s hs _ (by decide)
  sl_exec
  clear hled20
  ihave Ho3 := (congr (F := F) (r4R (mqF cc) 3) cc fullShare (dev.sl.Ho3_w1 m f0) (r4 m cc) (fun i hi => glue_own m cc 3 _ (k0_off8_inb cc) (k0_off8_eq cc) _ (k0_off29_inb cc) (k0_off29_eq cc) f0 i hi)) $$ Ho3
  ihave Ho3 := (Entails.of_eq (share_ZYK_eq (F := F) (r4R (mqF cc) 3) cc (r4 m cc))) $$ Ho3
  icases Ho3 with ⟨HoZ3, HoY3, HoK3⟩
  -- own chunk 3 to the z-neighbour
  icases Htk with ⟨Hts, Htr, Htk⟩
  icases HIt with ⟨#HIc47, #HIr, HIt⟩
  icases HRt with ⟨#HRs, #HRr, HRt⟩
  icases HqZ with ⟨⟨%fd, Hd⟩, HqZ⟩
  iapply (send_z_at m cc _ (dev21_eq cc) 3 _ _ (k0_off30_eq cc) fd (owedL (List.drop 21 (paysL cc))) rfl _) $$ [HoZ3 Hd HO Hts Htr]
  · isplitr; · iexact HIc47
    isplitr; · iexact HIr
    isplitl [HoZ3]; · iexact HoZ3
    isplitl [Hd]; · iexact Hd
    isplitl [HO]; · iexact HO
    isplitl [Hts]; · iexact Hts
    isplitr; · iexact HRs
    isplitl [Htr]; · iexact Htr
    iexact HRr
  iintro ⟨Hczs3, HO⟩
  iclear HIr HRs HRr
  sl_exec
  -- own chunk 3 to the y-neighbour
  icases Htk with ⟨Hts, Htr, Htk⟩
  icases HIt with ⟨#HIc63, #HIr, HIt⟩
  icases HRt with ⟨#HRs, #HRr, HRt⟩
  icases HqY with ⟨⟨%fd, Hd⟩, HqY⟩
  iapply (send_y_at m cc _ (dev22_eq cc) 3 _ _ (k0_off30_eq cc) fd (owedL (List.drop 22 (paysL cc))) rfl _) $$ [HoY3 Hd HO Hts Htr]
  · isplitr; · iexact HIc63
    isplitr; · iexact HIr
    isplitl [HoY3]; · iexact HoY3
    isplitl [Hd]; · iexact Hd
    isplitl [HO]; · iexact HO
    isplitl [Hts]; · iexact Hts
    isplitr; · iexact HRs
    isplitl [Htr]; · iexact Htr
    iexact HRr
  iintro ⟨Hcys3, HO⟩
  iclear HIr HRs HRr
  sl_exec
  -- the z-neighbour's chunk 2 has landed
  icases Hcr with ⟨Hc, Hcr⟩
  icases HpR with ⟨Hp, HpR⟩
  icases HIw with ⟨#HIc54, HIw⟩
  ihave Hmw := (mayWait_list (F := F) cc (dsem (⟨54, by decide⟩ : Fin 140)) (List.drop 22 (paysL cc)) (by decide)) $$ Hlev
  iapply (wait_a5_at m cc _ 2 rfl) $$ [Hc HO Hmw Hp]
  · isplitr; · iexact HIc54
    isplitl [Hc]; · iexact Hc
    isplitl [HO]; · iexact HO
    isplitl [Hmw]; · iexact Hmw
    iexact Hp
  iintro ⟨HO, Hq54, -, Hz2⟩
  sl_exec
  -- the y-neighbour's chunk 2 has landed
  icases Hcr with ⟨Hc, Hcr⟩
  icases HpR with ⟨Hp, HpR⟩
  icases HIw with ⟨#HIc70, HIw⟩
  ihave Hmw := (mayWait_list (F := F) cc (dsem (⟨70, by decide⟩ : Fin 140)) (List.drop 22 (paysL cc)) (by decide)) $$ Hlev
  iapply (wait_a7_at m cc _ 2 rfl) $$ [Hc HO Hmw Hp]
  · isplitr; · iexact HIc70
    isplitl [Hc]; · iexact Hc
    isplitl [HO]; · iexact HO
    isplitl [Hmw]; · iexact Hmw
    iexact Hp
  iintro ⟨HO, Hq70, -, Hy2⟩
  sl_exec
  -- step 4 of the main loop: the x-neighbour's chunk 4 has landed
  icases Hcr with ⟨Hc, Hcr⟩
  icases HpR with ⟨Hp, HpR⟩
  icases HIw with ⟨#HIc34, HIw⟩
  ihave Hmw := (mayWait_list (F := F) cc (dsem (⟨34, by decide⟩ : Fin 140)) (List.drop 22 (paysL cc)) (by decide)) $$ Hlev
  iapply (wait_a1_at m cc _ 4 rfl) $$ [Hc HO Hmw Hp]
  · isplitr; · iexact HIc34
    isplitl [Hc]; · iexact Hc
    isplitl [HO]; · iexact HO
    isplitl [Hmw]; · iexact Hmw
    iexact Hp
  iintro ⟨HO, Hq34, -, Hrb4⟩
  icases Hown with ⟨Ho4, Hown⟩
  have hled22 : ∀ (s : DmaSem sig), lvJ s.val = 0 → ((levAts LL lvv : sProp 𝕄) ⊢ MayWait (cc : Thread nD τ) (.dma s) () (owedL (List.drop 22 (paysL cc)))) :=
    fun s hs => mayWait_local (F := F) cc s hs _ (by decide)
  sl_exec
  clear hled22
  ihave Ho4 := (congr (F := F) (r4R (mqF cc) 4) cc fullShare (dev.sl.Ho4_w1 m f0) (r4 m cc) (fun i hi => glue_own m cc 4 _ (k0_off10_inb cc) (k0_off10_eq cc) _ (k0_off31_inb cc) (k0_off31_eq cc) f0 i hi)) $$ Ho4
  ihave Ho4 := (Entails.of_eq (share_ZYK_eq (F := F) (r4R (mqF cc) 4) cc (r4 m cc))) $$ Ho4
  icases Ho4 with ⟨HoZ4, HoY4, HoK4⟩
  -- own chunk 4 to the z-neighbour
  icases Htk with ⟨Hts, Htr, Htk⟩
  icases HIt with ⟨#HIc48, #HIr, HIt⟩
  icases HRt with ⟨#HRs, #HRr, HRt⟩
  icases HqZ with ⟨⟨%fd, Hd⟩, HqZ⟩
  iapply (send_z_at m cc _ (dev23_eq cc) 4 _ _ (k0_off32_eq cc) fd (owedL (List.drop 23 (paysL cc))) rfl _) $$ [HoZ4 Hd HO Hts Htr]
  · isplitr; · iexact HIc48
    isplitr; · iexact HIr
    isplitl [HoZ4]; · iexact HoZ4
    isplitl [Hd]; · iexact Hd
    isplitl [HO]; · iexact HO
    isplitl [Hts]; · iexact Hts
    isplitr; · iexact HRs
    isplitl [Htr]; · iexact Htr
    iexact HRr
  iintro ⟨Hczs4, HO⟩
  iclear HIr HRs HRr
  sl_exec
  -- own chunk 4 to the y-neighbour
  icases Htk with ⟨Hts, Htr, Htk⟩
  icases HIt with ⟨#HIc64, #HIr, HIt⟩
  icases HRt with ⟨#HRs, #HRr, HRt⟩
  icases HqY with ⟨⟨%fd, Hd⟩, HqY⟩
  iapply (send_y_at m cc _ (dev24_eq cc) 4 _ _ (k0_off32_eq cc) fd (owedL (List.drop 24 (paysL cc))) rfl _) $$ [HoY4 Hd HO Hts Htr]
  · isplitr; · iexact HIc64
    isplitr; · iexact HIr
    isplitl [HoY4]; · iexact HoY4
    isplitl [Hd]; · iexact Hd
    isplitl [HO]; · iexact HO
    isplitl [Hts]; · iexact Hts
    isplitr; · iexact HRs
    isplitl [Htr]; · iexact Htr
    iexact HRr
  iintro ⟨Hcys4, HO⟩
  iclear HIr HRs HRr
  sl_exec
  -- the z-neighbour's chunk 3 has landed
  icases Hcr with ⟨Hc, Hcr⟩
  icases HpR with ⟨Hp, HpR⟩
  icases HIw with ⟨#HIc55, HIw⟩
  ihave Hmw := (mayWait_list (F := F) cc (dsem (⟨55, by decide⟩ : Fin 140)) (List.drop 24 (paysL cc)) (by decide)) $$ Hlev
  iapply (wait_a5_at m cc _ 3 rfl) $$ [Hc HO Hmw Hp]
  · isplitr; · iexact HIc55
    isplitl [Hc]; · iexact Hc
    isplitl [HO]; · iexact HO
    isplitl [Hmw]; · iexact Hmw
    iexact Hp
  iintro ⟨HO, Hq55, -, Hz3⟩
  sl_exec
  -- the y-neighbour's chunk 3 has landed
  icases Hcr with ⟨Hc, Hcr⟩
  icases HpR with ⟨Hp, HpR⟩
  icases HIw with ⟨#HIc71, HIw⟩
  ihave Hmw := (mayWait_list (F := F) cc (dsem (⟨71, by decide⟩ : Fin 140)) (List.drop 24 (paysL cc)) (by decide)) $$ Hlev
  iapply (wait_a7_at m cc _ 3 rfl) $$ [Hc HO Hmw Hp]
  · isplitr; · iexact HIc71
    isplitl [Hc]; · iexact Hc
    isplitl [HO]; · iexact HO
    isplitl [Hmw]; · iexact Hmw
    iexact Hp
  iintro ⟨HO, Hq71, -, Hy3⟩
  -- chunk 3 of the two neighbours' quarters: half its ownership stays for the copy into the result, of the other half one column half travels on
  ihave Hz3 := (Entails.of_eq (share_FG_eq (F := F) (r4R (zqF cc) 3) cc (r4 m cc))) $$ Hz3
  icases Hz3 with ⟨HzF3, HzG3⟩
  ihave HzF3 := (Entails.of_eq (chunk_halves (F := F) cc (zqF cc) 3 shF (r4 m cc))) $$ HzF3
  icases HzF3 with ⟨HzFl3, HzFr3⟩
  ihave Hy3 := (Entails.of_eq (share_FG_eq (F := F) (r4R (yqF cc) 3) cc (r4 m cc))) $$ Hy3
  icases Hy3 with ⟨HyF3, HyG3⟩
  ihave HyF3 := (Entails.of_eq (chunk_halves (F := F) cc (yqF cc) 3 shF (r4 m cc))) $$ HyF3
  icases HyF3 with ⟨HyFl3, HyFr3⟩
  sl_exec
  -- the right half of the z-neighbour's chunk 3 on to the y-neighbour
  icases Htk with ⟨Hts, Htr, Htk⟩
  icases HIt with ⟨#HIc95, #HIr, HIt⟩
  icases HRt with ⟨#HRs, #HRr, HRt⟩
  icases HhYp with ⟨⟨%fd, Hd⟩, HhYp⟩
  iapply (send_yf_at m cc _ (dev25_eq cc) 3 (by decide) _ _ (k0_off33_eq cc) fd (owedL (List.drop 25 (paysL cc))) rfl _) $$ [HzFr3 Hd HO Hts Htr]
  · isplitr; · iexact HIc95
    isplitr; · iexact HIr
    isplitl [HzFr3]; · iexact HzFr3
    isplitl [Hd]; · iexact Hd
    isplitl [HO]; · iexact HO
    isplitl [Hts]; · iexact Hts
    isplitr; · iexact HRs
    isplitl [Htr]; · iexact Htr
    iexact HRr
  iintro ⟨Hcyfs3, HO⟩
  iclear HIr HRs HRr
  sl_exec
  -- the left half of the y-neighbour's chunk 3 on to the z-neighbour
  icases Htk with ⟨Hts, Htr, Htk⟩
  icases HIt with ⟨#HIc79, #HIr, HIt⟩
  icases HRt with ⟨#HRs, #HRr, HRt⟩
  icases HhZp with ⟨⟨%fd, Hd⟩, HhZp⟩
  iapply (send_zf_at m cc _ (dev26_eq cc) 3 (by decide) _ _ (k0_off34_eq cc) fd (owedL (List.drop 26 (paysL cc))) rfl _) $$ [HyFl3 Hd HO Hts Htr]
  · isplitr; · iexact HIc79
    isplitr; · iexact HIr
    isplitl [HyFl3]; · iexact HyFl3
    isplitl [Hd]; · iexact Hd
    isplitl [HO]; · iexact HO
    isplitl [Hts]; · iexact Hts
    isplitr; · iexact HRs
    isplitl [Htr]; · iexact Htr
    iexact HRr
  iintro ⟨Hczfs3, HO⟩
  iclear HIr HRs HRr
  sl_exec
  -- step 5 of the main loop: the x-neighbour's chunk 5 has landed
  icases Hcr with ⟨Hc, Hcr⟩
  icases HpR with ⟨Hp, HpR⟩
  icases HIw with ⟨#HIc35, HIw⟩
  ihave Hmw := (mayWait_list (F := F) cc (dsem (⟨35, by decide⟩ : Fin 140)) (List.drop 26 (paysL cc)) (by decide)) $$ Hlev
  iapply (wait_a1_at m cc _ 5 rfl) $$ [Hc HO Hmw Hp]
  · isplitr; · iexact HIc35
    isplitl [Hc]; · iexact Hc
    isplitl [HO]; · iexact HO
    isplitl [Hmw]; · iexact Hmw
    iexact Hp
  iintro ⟨HO, Hq35, -, Hrb5⟩
  icases Hown with ⟨Ho5, Hown⟩
  have hled26 : ∀ (s : DmaSem sig), lvJ s.val = 0 → ((levAts LL lvv : sProp 𝕄) ⊢ MayWait (cc : Thread nD τ) (.dma s) () (owedL (List.drop 26 (paysL cc)))) :=
    fun s hs => mayWait_local (F := F) cc s hs _ (by decide)
  sl_exec
  clear hled26
  ihave Ho5 := (congr (F := F) (r4R (mqF cc) 5) cc fullShare (dev.sl.Ho5_w1 m f0) (r4 m cc) (fun i hi => glue_own m cc 5 _ (k0_off12_inb cc) (k0_off12_eq cc) _ (k0_off35_inb cc) (k0_off35_eq cc) f0 i hi)) $$ Ho5
  ihave Ho5 := (Entails.of_eq (share_ZYK_eq (F := F) (r4R (mqF cc) 5) cc (r4 m cc))) $$ Ho5
  icases Ho5 with ⟨HoZ5, HoY5, HoK5⟩
  -- own chunk 5 to the z-neighbour
  icases Htk with ⟨Hts, Htr, Htk⟩
  icases HIt with ⟨#HIc49, #HIr, HIt⟩
  icases HRt with ⟨#HRs, #HRr, HRt⟩
  icases HqZ with ⟨⟨%fd, Hd⟩, HqZ⟩
  iapply (send_z_at m cc _ (dev27_eq cc) 5 _ _ (k0_off36_eq cc) fd (owedL (List.drop 27 (paysL cc))) rfl _) $$ [HoZ5 Hd HO Hts Htr]
  · isplitr; · iexact HIc49
    isplitr; · iexact HIr
    isplitl [HoZ5]; · iexact HoZ5
    isplitl [Hd]; · iexact Hd
    isplitl [HO]; · iexact HO
    isplitl [Hts]; · iexact Hts
    isplitr; · iexact HRs
    isplitl [Htr]; · iexact Htr
    iexact HRr
  iintro ⟨Hczs5, HO⟩
  iclear HIr HRs HRr
  sl_exec
  -- own chunk 5 to the y-neighbour
  icases Htk with ⟨Hts, Htr, Htk⟩
  icases HIt with ⟨#HIc65, #HIr, HIt⟩
  icases HRt with ⟨#HRs, #HRr, HRt⟩
  icases HqY with ⟨⟨%fd, Hd⟩, HqY⟩
  iapply (send_y_at m cc _ (dev28_eq cc) 5 _ _ (k0_off36_eq cc) fd (owedL (List.drop 28 (paysL cc))) rfl _) $$ [HoY5 Hd HO Hts Htr]
  · isplitr; · iexact HIc65
    isplitr; · iexact HIr
    isplitl [HoY5]; · iexact HoY5
    isplitl [Hd]; · iexact Hd
    isplitl [HO]; · iexact HO
    isplitl [Hts]; · iexact Hts
    isplitr; · iexact HRs
    isplitl [Htr]; · iexact Htr
    iexact HRr
  iintro ⟨Hcys5, HO⟩
  iclear HIr HRs HRr
  sl_exec
  -- the z-neighbour's chunk 4 has landed
  icases Hcr with ⟨Hc, Hcr⟩
  icases HpR with ⟨Hp, HpR⟩
  icases HIw with ⟨#HIc56, HIw⟩
  ihave Hmw := (mayWait_list (F := F) cc (dsem (⟨56, by decide⟩ : Fin 140)) (List.drop 28 (paysL cc)) (by decide)) $$ Hlev
  iapply (wait_a5_at m cc _ 4 rfl) $$ [Hc HO Hmw Hp]
  · isplitr; · iexact HIc56
    isplitl [Hc]; · iexact Hc
    isplitl [HO]; · iexact HO
    isplitl [Hmw]; · iexact Hmw
    iexact Hp
  iintro ⟨HO, Hq56, -, Hz4⟩
  sl_exec
  -- the y-neighbour's chunk 4 has landed
  icases Hcr with ⟨Hc, Hcr⟩
  icases HpR with ⟨Hp, HpR⟩
  icases HIw with ⟨#HIc72, HIw⟩
  ihave Hmw := (mayWait_list (F := F) cc (dsem (⟨72, by decide⟩ : Fin 140)) (List.drop 28 (paysL cc)) (by decide)) $$ Hlev
  iapply (wait_a7_at m cc _ 4 rfl) $$ [Hc HO Hmw Hp]
  · isplitr; · iexact HIc72
    isplitl [Hc]; · iexact Hc
    isplitl [HO]; · iexact HO
    isplitl [Hmw]; · iexact Hmw
    iexact Hp
  iintro ⟨HO, Hq72, -, Hy4⟩
  -- chunk 4 of the two neighbours' quarters: half its ownership stays for the copy into the result, of the other half one column half travels on
  ihave Hz4 := (Entails.of_eq (share_FG_eq (F := F) (r4R (zqF cc) 4) cc (r4 m cc))) $$ Hz4
  icases Hz4 with ⟨HzF4, HzG4⟩
  ihave HzF4 := (Entails.of_eq (chunk_halves (F := F) cc (zqF cc) 4 shF (r4 m cc))) $$ HzF4
  icases HzF4 with ⟨HzFl4, HzFr4⟩
  ihave Hy4 := (Entails.of_eq (share_FG_eq (F := F) (r4R (yqF cc) 4) cc (r4 m cc))) $$ Hy4
  icases Hy4 with ⟨HyF4, HyG4⟩
  ihave HyF4 := (Entails.of_eq (chunk_halves (F := F) cc (yqF cc) 4 shF (r4 m cc))) $$ HyF4
  icases HyF4 with ⟨HyFl4, HyFr4⟩
  sl_exec
  -- the right half of the z-neighbour's chunk 4 on to the y-neighbour
  icases Htk with ⟨Hts, Htr, Htk⟩
  icases HIt with ⟨#HIc96, #HIr, HIt⟩
  icases HRt with ⟨#HRs, #HRr, HRt⟩
  icases HhYp with ⟨⟨%fd, Hd⟩, HhYp⟩
  iapply (send_yf_at m cc _ (dev29_eq cc) 4 (by decide) _ _ (k0_off37_eq cc) fd (owedL (List.drop 29 (paysL cc))) rfl _) $$ [HzFr4 Hd HO Hts Htr]
  · isplitr; · iexact HIc96
    isplitr; · iexact HIr
    isplitl [HzFr4]; · iexact HzFr4
    isplitl [Hd]; · iexact Hd
    isplitl [HO]; · iexact HO
    isplitl [Hts]; · iexact Hts
    isplitr; · iexact HRs
    isplitl [Htr]; · iexact Htr
    iexact HRr
  iintro ⟨Hcyfs4, HO⟩
  iclear HIr HRs HRr
  sl_exec
  -- the left half of the y-neighbour's chunk 4 on to the z-neighbour
  icases Htk with ⟨Hts, Htr, Htk⟩
  icases HIt with ⟨#HIc80, #HIr, HIt⟩
  icases HRt with ⟨#HRs, #HRr, HRt⟩
  icases HhZp with ⟨⟨%fd, Hd⟩, HhZp⟩
  iapply (send_zf_at m cc _ (dev30_eq cc) 4 (by decide) _ _ (k0_off38_eq cc) fd (owedL (List.drop 30 (paysL cc))) rfl _) $$ [HyFl4 Hd HO Hts Htr]
  · isplitr; · iexact HIc80
    isplitr; · iexact HIr
    isplitl [HyFl4]; · iexact HyFl4
    isplitl [Hd]; · iexact Hd
    isplitl [HO]; · iexact HO
    isplitl [Hts]; · iexact Hts
    isplitr; · iexact HRs
    isplitl [Htr]; · iexact Htr
    iexact HRr
  iintro ⟨Hczfs4, HO⟩
  iclear HIr HRs HRr
  sl_exec
  -- the left half of chunk 3 of the diagonal quarter has landed
  icases Hcr with ⟨Hc, Hcr⟩
  icases HpR with ⟨Hp, HpR⟩
  icases HIw with ⟨#HIc87, HIw⟩
  ihave Hmw := (mayWait_list (F := F) cc (dsem (⟨87, by decide⟩ : Fin 140)) (List.drop 30 (paysL cc)) (by decide)) $$ Hlev
  iapply (wait_a9_at m cc _ 3 rfl (by decide)) $$ [Hc HO Hmw Hp]
  · isplitr; · iexact HIc87
    isplitl [Hc]; · iexact Hc
    isplitl [HO]; · iexact HO
    isplitl [Hmw]; · iexact Hmw
    iexact Hp
  iintro ⟨HO, Hq87, -, Hdl3⟩
  sl_exec
  -- its right half has landed
  icases Hcr with ⟨Hc, Hcr⟩
  icases HpR with ⟨Hp, HpR⟩
  icases HIw with ⟨#HIc103, HIw⟩
  ihave Hmw := (mayWait_list (F := F) cc (dsem (⟨103, by decide⟩ : Fin 140)) (List.drop 30 (paysL cc)) (by decide)) $$ Hlev
  iapply (wait_a11_at m cc _ 3 rfl (by decide)) $$ [Hc HO Hmw Hp]
  · isplitr; · iexact HIc103
    isplitl [Hc]; · iexact Hc
    isplitl [HO]; · iexact HO
    isplitl [Hmw]; · iexact Hmw
    iexact Hp
  iintro ⟨HO, Hq103, -, Hdr3⟩
  ihave Hd3 := (Entails.of_eq (chunk_halves (F := F) cc (dqF cc) 3 fullShare (r4 m cc)).symm) $$ [Hdl3 Hdr3]
  · isplitl [Hdl3]; · iexact Hdl3
    iexact Hdr3
  -- the four copies of chunk 3 into the result
  icases HvO with ⟨Hw3a, Hw3b, Hw3c, Hw3d, HvO⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  -- step 6 of the main loop: the x-neighbour's chunk 6 has landed
  icases Hcr with ⟨Hc, Hcr⟩
  icases HpR with ⟨Hp, HpR⟩
  icases HIw with ⟨#HIc36, HIw⟩
  ihave Hmw := (mayWait_list (F := F) cc (dsem (⟨36, by decide⟩ : Fin 140)) (List.drop 30 (paysL cc)) (by decide)) $$ Hlev
  iapply (wait_a1_at m cc _ 6 rfl) $$ [Hc HO Hmw Hp]
  · isplitr; · iexact HIc36
    isplitl [Hc]; · iexact Hc
    isplitl [HO]; · iexact HO
    isplitl [Hmw]; · iexact Hmw
    iexact Hp
  iintro ⟨HO, Hq36, -, Hrb6⟩
  icases Hown with ⟨Ho6, Hown⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  ihave Ho6 := (congr (F := F) (r4R (mqF cc) 6) cc fullShare (dev.sl.Ho6_w1 m f0) (r4 m cc) (fun i hi => glue_own m cc 6 _ (k0_off14_inb cc) (k0_off14_eq cc) _ (k0_off39_inb cc) (k0_off39_eq cc) f0 i hi)) $$ Ho6
  ihave Ho6 := (Entails.of_eq (share_ZYK_eq (F := F) (r4R (mqF cc) 6) cc (r4 m cc))) $$ Ho6
  icases Ho6 with ⟨HoZ6, HoY6, HoK6⟩
  -- own chunk 6 to the z-neighbour
  icases Htk with ⟨Hts, Htr, Htk⟩
  icases HIt with ⟨#HIc50, #HIr, HIt⟩
  icases HRt with ⟨#HRs, #HRr, HRt⟩
  icases HqZ with ⟨⟨%fd, Hd⟩, HqZ⟩
  iapply (send_z_at m cc _ (dev31_eq cc) 6 _ _ (k0_off40_eq cc) fd (owedL (List.drop 31 (paysL cc))) rfl _) $$ [HoZ6 Hd HO Hts Htr]
  · isplitr; · iexact HIc50
    isplitr; · iexact HIr
    isplitl [HoZ6]; · iexact HoZ6
    isplitl [Hd]; · iexact Hd
    isplitl [HO]; · iexact HO
    isplitl [Hts]; · iexact Hts
    isplitr; · iexact HRs
    isplitl [Htr]; · iexact Htr
    iexact HRr
  iintro ⟨Hczs6, HO⟩
  iclear HIr HRs HRr
  sl_exec
  -- own chunk 6 to the y-neighbour
  icases Htk with ⟨Hts, Htr, Htk⟩
  icases HIt with ⟨#HIc66, #HIr, HIt⟩
  icases HRt with ⟨#HRs, #HRr, HRt⟩
  icases HqY with ⟨⟨%fd, Hd⟩, HqY⟩
  iapply (send_y_at m cc _ (dev32_eq cc) 6 _ _ (k0_off40_eq cc) fd (owedL (List.drop 32 (paysL cc))) rfl _) $$ [HoY6 Hd HO Hts Htr]
  · isplitr; · iexact HIc66
    isplitr; · iexact HIr
    isplitl [HoY6]; · iexact HoY6
    isplitl [Hd]; · iexact Hd
    isplitl [HO]; · iexact HO
    isplitl [Hts]; · iexact Hts
    isplitr; · iexact HRs
    isplitl [Htr]; · iexact Htr
    iexact HRr
  iintro ⟨Hcys6, HO⟩
  iclear HIr HRs HRr
  sl_exec
  -- the z-neighbour's chunk 5 has landed
  icases Hcr with ⟨Hc, Hcr⟩
  icases HpR with ⟨Hp, HpR⟩
  icases HIw with ⟨#HIc57, HIw⟩
  ihave Hmw := (mayWait_list (F := F) cc (dsem (⟨57, by decide⟩ : Fin 140)) (List.drop 32 (paysL cc)) (by decide)) $$ Hlev
  iapply (wait_a5_at m cc _ 5 rfl) $$ [Hc HO Hmw Hp]
  · isplitr; · iexact HIc57
    isplitl [Hc]; · iexact Hc
    isplitl [HO]; · iexact HO
    isplitl [Hmw]; · iexact Hmw
    iexact Hp
  iintro ⟨HO, Hq57, -, Hz5⟩
  sl_exec
  -- the y-neighbour's chunk 5 has landed
  icases Hcr with ⟨Hc, Hcr⟩
  icases HpR with ⟨Hp, HpR⟩
  icases HIw with ⟨#HIc73, HIw⟩
  ihave Hmw := (mayWait_list (F := F) cc (dsem (⟨73, by decide⟩ : Fin 140)) (List.drop 32 (paysL cc)) (by decide)) $$ Hlev
  iapply (wait_a7_at m cc _ 5 rfl) $$ [Hc HO Hmw Hp]
  · isplitr; · iexact HIc73
    isplitl [Hc]; · iexact Hc
    isplitl [HO]; · iexact HO
    isplitl [Hmw]; · iexact Hmw
    iexact Hp
  iintro ⟨HO, Hq73, -, Hy5⟩
  -- chunk 5 of the two neighbours' quarters: half its ownership stays for the copy into the result, of the other half one column half travels on
  ihave Hz5 := (Entails.of_eq (share_FG_eq (F := F) (r4R (zqF cc) 5) cc (r4 m cc))) $$ Hz5
  icases Hz5 with ⟨HzF5, HzG5⟩
  ihave HzF5 := (Entails.of_eq (chunk_halves (F := F) cc (zqF cc) 5 shF (r4 m cc))) $$ HzF5
  icases HzF5 with ⟨HzFl5, HzFr5⟩
  ihave Hy5 := (Entails.of_eq (share_FG_eq (F := F) (r4R (yqF cc) 5) cc (r4 m cc))) $$ Hy5
  icases Hy5 with ⟨HyF5, HyG5⟩
  ihave HyF5 := (Entails.of_eq (chunk_halves (F := F) cc (yqF cc) 5 shF (r4 m cc))) $$ HyF5
  icases HyF5 with ⟨HyFl5, HyFr5⟩
  sl_exec
  -- the right half of the z-neighbour's chunk 5 on to the y-neighbour
  icases Htk with ⟨Hts, Htr, Htk⟩
  icases HIt with ⟨#HIc97, #HIr, HIt⟩
  icases HRt with ⟨#HRs, #HRr, HRt⟩
  icases HhYp with ⟨⟨%fd, Hd⟩, HhYp⟩
  iapply (send_yf_at m cc _ (dev33_eq cc) 5 (by decide) _ _ (k0_off41_eq cc) fd (owedL (List.drop 33 (paysL cc))) rfl _) $$ [HzFr5 Hd HO Hts Htr]
  · isplitr; · iexact HIc97
    isplitr; · iexact HIr
    isplitl [HzFr5]; · iexact HzFr5
    isplitl [Hd]; · iexact Hd
    isplitl [HO]; · iexact HO
    isplitl [Hts]; · iexact Hts
    isplitr; · iexact HRs
    isplitl [Htr]; · iexact Htr
    iexact HRr
  iintro ⟨Hcyfs5, HO⟩
  iclear HIr HRs HRr
  sl_exec
  -- the left half of the y-neighbour's chunk 5 on to the z-neighbour
  icases Htk with ⟨Hts, Htr, Htk⟩
  icases HIt with ⟨#HIc81, #HIr, HIt⟩
  icases HRt with ⟨#HRs, #HRr, HRt⟩
  icases HhZp with ⟨⟨%fd, Hd⟩, HhZp⟩
  iapply (send_zf_at m cc _ (dev34_eq cc) 5 (by decide) _ _ (k0_off42_eq cc) fd (owedL (List.drop 34 (paysL cc))) rfl _) $$ [HyFl5 Hd HO Hts Htr]
  · isplitr; · iexact HIc81
    isplitr; · iexact HIr
    isplitl [HyFl5]; · iexact HyFl5
    isplitl [Hd]; · iexact Hd
    isplitl [HO]; · iexact HO
    isplitl [Hts]; · iexact Hts
    isplitr; · iexact HRs
    isplitl [Htr]; · iexact Htr
    iexact HRr
  iintro ⟨Hczfs5, HO⟩
  iclear HIr HRs HRr
  sl_exec
  -- the left half of chunk 4 of the diagonal quarter has landed
  icases Hcr with ⟨Hc, Hcr⟩
  icases HpR with ⟨Hp, HpR⟩
  icases HIw with ⟨#HIc88, HIw⟩
  ihave Hmw := (mayWait_list (F := F) cc (dsem (⟨88, by decide⟩ : Fin 140)) (List.drop 34 (paysL cc)) (by decide)) $$ Hlev
  iapply (wait_a9_at m cc _ 4 rfl (by decide)) $$ [Hc HO Hmw Hp]
  · isplitr; · iexact HIc88
    isplitl [Hc]; · iexact Hc
    isplitl [HO]; · iexact HO
    isplitl [Hmw]; · iexact Hmw
    iexact Hp
  iintro ⟨HO, Hq88, -, Hdl4⟩
  sl_exec
  -- its right half has landed
  icases Hcr with ⟨Hc, Hcr⟩
  icases HpR with ⟨Hp, HpR⟩
  icases HIw with ⟨#HIc104, HIw⟩
  ihave Hmw := (mayWait_list (F := F) cc (dsem (⟨104, by decide⟩ : Fin 140)) (List.drop 34 (paysL cc)) (by decide)) $$ Hlev
  iapply (wait_a11_at m cc _ 4 rfl (by decide)) $$ [Hc HO Hmw Hp]
  · isplitr; · iexact HIc104
    isplitl [Hc]; · iexact Hc
    isplitl [HO]; · iexact HO
    isplitl [Hmw]; · iexact Hmw
    iexact Hp
  iintro ⟨HO, Hq104, -, Hdr4⟩
  ihave Hd4 := (Entails.of_eq (chunk_halves (F := F) cc (dqF cc) 4 fullShare (r4 m cc)).symm) $$ [Hdl4 Hdr4]
  · isplitl [Hdl4]; · iexact Hdl4
    iexact Hdr4
  -- the four copies of chunk 4 into the result
  icases HvO with ⟨Hw4a, Hw4b, Hw4c, Hw4d, HvO⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  -- step 7 of the main loop: the x-neighbour's chunk 7 has landed
  icases Hcr with ⟨Hc, Hcr⟩
  icases HpR with ⟨Hp, HpR⟩
  icases HIw with ⟨#HIc37, HIw⟩
  ihave Hmw := (mayWait_list (F := F) cc (dsem (⟨37, by decide⟩ : Fin 140)) (List.drop 34 (paysL cc)) (by decide)) $$ Hlev
  iapply (wait_a1_at m cc _ 7 rfl) $$ [Hc HO Hmw Hp]
  · isplitr; · iexact HIc37
    isplitl [Hc]; · iexact Hc
    isplitl [HO]; · iexact HO
    isplitl [Hmw]; · iexact Hmw
    iexact Hp
  iintro ⟨HO, Hq37, -, Hrb7⟩
  icases Hown with ⟨Ho7⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  ihave Ho7 := (congr (F := F) (r4R (mqF cc) 7) cc fullShare (dev.sl.Ho7_w1 m f0) (r4 m cc) (fun i hi => glue_own m cc 7 _ (k0_off16_inb cc) (k0_off16_eq cc) _ (k0_off43_inb cc) (k0_off43_eq cc) f0 i hi)) $$ Ho7
  ihave Ho7 := (Entails.of_eq (share_ZYK_eq (F := F) (r4R (mqF cc) 7) cc (r4 m cc))) $$ Ho7
  icases Ho7 with ⟨HoZ7, HoY7, HoK7⟩
  -- own chunk 7 to the z-neighbour
  icases Htk with ⟨Hts, Htr, Htk⟩
  icases HIt with ⟨#HIc51, #HIr, HIt⟩
  icases HRt with ⟨#HRs, #HRr, HRt⟩
  icases HqZ with ⟨%fd, Hd⟩
  iapply (send_z_at m cc _ (dev35_eq cc) 7 _ _ (k0_off44_eq cc) fd (owedL (List.drop 35 (paysL cc))) rfl _) $$ [HoZ7 Hd HO Hts Htr]
  · isplitr; · iexact HIc51
    isplitr; · iexact HIr
    isplitl [HoZ7]; · iexact HoZ7
    isplitl [Hd]; · iexact Hd
    isplitl [HO]; · iexact HO
    isplitl [Hts]; · iexact Hts
    isplitr; · iexact HRs
    isplitl [Htr]; · iexact Htr
    iexact HRr
  iintro ⟨Hczs7, HO⟩
  iclear HIr HRs HRr
  sl_exec
  -- own chunk 7 to the y-neighbour
  icases Htk with ⟨Hts, Htr, Htk⟩
  icases HIt with ⟨#HIc67, #HIr, HIt⟩
  icases HRt with ⟨#HRs, #HRr, HRt⟩
  icases HqY with ⟨%fd, Hd⟩
  iapply (send_y_at m cc _ (dev36_eq cc) 7 _ _ (k0_off44_eq cc) fd (owedL (List.drop 36 (paysL cc))) rfl _) $$ [HoY7 Hd HO Hts Htr]
  · isplitr; · iexact HIc67
    isplitr; · iexact HIr
    isplitl [HoY7]; · iexact HoY7
    isplitl [Hd]; · iexact Hd
    isplitl [HO]; · iexact HO
    isplitl [Hts]; · iexact Hts
    isplitr; · iexact HRs
    isplitl [Htr]; · iexact Htr
    iexact HRr
  iintro ⟨Hcys7, HO⟩
  iclear HIr HRs HRr
  sl_exec
  -- the z-neighbour's chunk 6 has landed
  icases Hcr with ⟨Hc, Hcr⟩
  icases HpR with ⟨Hp, HpR⟩
  icases HIw with ⟨#HIc58, HIw⟩
  ihave Hmw := (mayWait_list (F := F) cc (dsem (⟨58, by decide⟩ : Fin 140)) (List.drop 36 (paysL cc)) (by decide)) $$ Hlev
  iapply (wait_a5_at m cc _ 6 rfl) $$ [Hc HO Hmw Hp]
  · isplitr; · iexact HIc58
    isplitl [Hc]; · iexact Hc
    isplitl [HO]; · iexact HO
    isplitl [Hmw]; · iexact Hmw
    iexact Hp
  iintro ⟨HO, Hq58, -, Hz6⟩
  sl_exec
  -- the y-neighbour's chunk 6 has landed
  icases Hcr with ⟨Hc, Hcr⟩
  icases HpR with ⟨Hp, HpR⟩
  icases HIw with ⟨#HIc74, HIw⟩
  ihave Hmw := (mayWait_list (F := F) cc (dsem (⟨74, by decide⟩ : Fin 140)) (List.drop 36 (paysL cc)) (by decide)) $$ Hlev
  iapply (wait_a7_at m cc _ 6 rfl) $$ [Hc HO Hmw Hp]
  · isplitr; · iexact HIc74
    isplitl [Hc]; · iexact Hc
    isplitl [HO]; · iexact HO
    isplitl [Hmw]; · iexact Hmw
    iexact Hp
  iintro ⟨HO, Hq74, -, Hy6⟩
  -- chunk 6 of the two neighbours' quarters: half its ownership stays for the copy into the result, of the other half one column half travels on
  ihave Hz6 := (Entails.of_eq (share_FG_eq (F := F) (r4R (zqF cc) 6) cc (r4 m cc))) $$ Hz6
  icases Hz6 with ⟨HzF6, HzG6⟩
  ihave HzF6 := (Entails.of_eq (chunk_halves (F := F) cc (zqF cc) 6 shF (r4 m cc))) $$ HzF6
  icases HzF6 with ⟨HzFl6, HzFr6⟩
  ihave Hy6 := (Entails.of_eq (share_FG_eq (F := F) (r4R (yqF cc) 6) cc (r4 m cc))) $$ Hy6
  icases Hy6 with ⟨HyF6, HyG6⟩
  ihave HyF6 := (Entails.of_eq (chunk_halves (F := F) cc (yqF cc) 6 shF (r4 m cc))) $$ HyF6
  icases HyF6 with ⟨HyFl6, HyFr6⟩
  sl_exec
  -- the right half of the z-neighbour's chunk 6 on to the y-neighbour
  icases Htk with ⟨Hts, Htr, Htk⟩
  icases HIt with ⟨#HIc98, #HIr, HIt⟩
  icases HRt with ⟨#HRs, #HRr, HRt⟩
  icases HhYp with ⟨⟨%fd, Hd⟩, HhYp⟩
  iapply (send_yf_at m cc _ (dev37_eq cc) 6 (by decide) _ _ (k0_off45_eq cc) fd (owedL (List.drop 37 (paysL cc))) rfl _) $$ [HzFr6 Hd HO Hts Htr]
  · isplitr; · iexact HIc98
    isplitr; · iexact HIr
    isplitl [HzFr6]; · iexact HzFr6
    isplitl [Hd]; · iexact Hd
    isplitl [HO]; · iexact HO
    isplitl [Hts]; · iexact Hts
    isplitr; · iexact HRs
    isplitl [Htr]; · iexact Htr
    iexact HRr
  iintro ⟨Hcyfs6, HO⟩
  iclear HIr HRs HRr
  sl_exec
  -- the left half of the y-neighbour's chunk 6 on to the z-neighbour
  icases Htk with ⟨Hts, Htr, Htk⟩
  icases HIt with ⟨#HIc82, #HIr, HIt⟩
  icases HRt with ⟨#HRs, #HRr, HRt⟩
  icases HhZp with ⟨⟨%fd, Hd⟩, HhZp⟩
  iapply (send_zf_at m cc _ (dev38_eq cc) 6 (by decide) _ _ (k0_off46_eq cc) fd (owedL (List.drop 38 (paysL cc))) rfl _) $$ [HyFl6 Hd HO Hts Htr]
  · isplitr; · iexact HIc82
    isplitr; · iexact HIr
    isplitl [HyFl6]; · iexact HyFl6
    isplitl [Hd]; · iexact Hd
    isplitl [HO]; · iexact HO
    isplitl [Hts]; · iexact Hts
    isplitr; · iexact HRs
    isplitl [Htr]; · iexact Htr
    iexact HRr
  iintro ⟨Hczfs6, HO⟩
  iclear HIr HRs HRr
  sl_exec
  -- the left half of chunk 5 of the diagonal quarter has landed
  icases Hcr with ⟨Hc, Hcr⟩
  icases HpR with ⟨Hp, HpR⟩
  icases HIw with ⟨#HIc89, HIw⟩
  ihave Hmw := (mayWait_list (F := F) cc (dsem (⟨89, by decide⟩ : Fin 140)) (List.drop 38 (paysL cc)) (by decide)) $$ Hlev
  iapply (wait_a9_at m cc _ 5 rfl (by decide)) $$ [Hc HO Hmw Hp]
  · isplitr; · iexact HIc89
    isplitl [Hc]; · iexact Hc
    isplitl [HO]; · iexact HO
    isplitl [Hmw]; · iexact Hmw
    iexact Hp
  iintro ⟨HO, Hq89, -, Hdl5⟩
  sl_exec
  -- its right half has landed
  icases Hcr with ⟨Hc, Hcr⟩
  icases HpR with ⟨Hp, HpR⟩
  icases HIw with ⟨#HIc105, HIw⟩
  ihave Hmw := (mayWait_list (F := F) cc (dsem (⟨105, by decide⟩ : Fin 140)) (List.drop 38 (paysL cc)) (by decide)) $$ Hlev
  iapply (wait_a11_at m cc _ 5 rfl (by decide)) $$ [Hc HO Hmw Hp]
  · isplitr; · iexact HIc105
    isplitl [Hc]; · iexact Hc
    isplitl [HO]; · iexact HO
    isplitl [Hmw]; · iexact Hmw
    iexact Hp
  iintro ⟨HO, Hq105, -, Hdr5⟩
  ihave Hd5 := (Entails.of_eq (chunk_halves (F := F) cc (dqF cc) 5 fullShare (r4 m cc)).symm) $$ [Hdl5 Hdr5]
  · isplitl [Hdl5]; · iexact Hdl5
    iexact Hdr5
  -- the four copies of chunk 5 into the result
  icases HvO with ⟨Hw5a, Hw5b, Hw5c, Hw5d, HvO⟩
  have hled38 : ∀ (s : DmaSem sig), lvJ s.val = 0 → ((levAts LL lvv : sProp 𝕄) ⊢ MayWait (cc : Thread nD τ) (.dma s) () (owedL (List.drop 38 (paysL cc)))) :=
    fun s hs => mayWait_local (F := F) cc s hs _ (by decide)
  sl_exec
  clear hled38
  -- after the loop: the z-neighbour's last chunk has landed
  icases Hcr with ⟨Hc, Hcr⟩
  icases HpR with ⟨Hp, HpR⟩
  icases HIw with ⟨#HIc59, HIw⟩
  ihave Hmw := (mayWait_list (F := F) cc (dsem (⟨59, by decide⟩ : Fin 140)) (List.drop 38 (paysL cc)) (by decide)) $$ Hlev
  iapply (wait_a5_at m cc _ 7 rfl) $$ [Hc HO Hmw Hp]
  · isplitr; · iexact HIc59
    isplitl [Hc]; · iexact Hc
    isplitl [HO]; · iexact HO
    isplitl [Hmw]; · iexact Hmw
    iexact Hp
  iintro ⟨HO, Hq59, -, Hz7⟩
  sl_exec
  -- the y-neighbour's last chunk has landed
  icases Hcr with ⟨Hc, Hcr⟩
  icases HpR with ⟨Hp, HpR⟩
  icases HIw with ⟨#HIc75, HIw⟩
  ihave Hmw := (mayWait_list (F := F) cc (dsem (⟨75, by decide⟩ : Fin 140)) (List.drop 38 (paysL cc)) (by decide)) $$ Hlev
  iapply (wait_a7_at m cc _ 7 rfl) $$ [Hc HO Hmw Hp]
  · isplitr; · iexact HIc75
    isplitl [Hc]; · iexact Hc
    isplitl [HO]; · iexact HO
    isplitl [Hmw]; · iexact Hmw
    iexact Hp
  iintro ⟨HO, Hq75, -, Hy7⟩
  -- chunk 7 of the two neighbours' quarters: half its ownership stays for the copy into the result, of the other half one column half travels on
  ihave Hz7 := (Entails.of_eq (share_FG_eq (F := F) (r4R (zqF cc) 7) cc (r4 m cc))) $$ Hz7
  icases Hz7 with ⟨HzF7, HzG7⟩
  ihave HzF7 := (Entails.of_eq (chunk_halves (F := F) cc (zqF cc) 7 shF (r4 m cc))) $$ HzF7
  icases HzF7 with ⟨HzFl7, HzFr7⟩
  ihave Hy7 := (Entails.of_eq (share_FG_eq (F := F) (r4R (yqF cc) 7) cc (r4 m cc))) $$ Hy7
  icases Hy7 with ⟨HyF7, HyG7⟩
  ihave HyF7 := (Entails.of_eq (chunk_halves (F := F) cc (yqF cc) 7 shF (r4 m cc))) $$ HyF7
  icases HyF7 with ⟨HyFl7, HyFr7⟩
  sl_exec
  -- the right half of the z-neighbour's last chunk on to the y-neighbour
  icases Htk with ⟨Hts, Htr, Htk⟩
  icases HIt with ⟨#HIc99, #HIr, HIt⟩
  icases HRt with ⟨#HRs, #HRr, HRt⟩
  icases HhYp with ⟨%fd, Hd⟩
  iapply (send_yf_at m cc _ (dev39_eq cc) 7 (by decide) _ _ (k0_off47_eq cc) fd (owedL (List.drop 39 (paysL cc))) rfl _) $$ [HzFr7 Hd HO Hts Htr]
  · isplitr; · iexact HIc99
    isplitr; · iexact HIr
    isplitl [HzFr7]; · iexact HzFr7
    isplitl [Hd]; · iexact Hd
    isplitl [HO]; · iexact HO
    isplitl [Hts]; · iexact Hts
    isplitr; · iexact HRs
    isplitl [Htr]; · iexact Htr
    iexact HRr
  iintro ⟨Hcyfs7, HO⟩
  iclear HIr HRs HRr
  sl_exec
  -- the left half of the y-neighbour's last chunk on to the z-neighbour
  icases Htk with ⟨Hts, Htr⟩
  icases HIt with ⟨#HIc83, #HIr⟩
  icases HRt with ⟨#HRs, #HRr⟩
  icases HhZp with ⟨%fd, Hd⟩
  iapply (send_zf_at m cc _ (dev40_eq cc) 7 (by decide) _ _ (k0_off48_eq cc) fd (owedL (List.drop 40 (paysL cc))) rfl _) $$ [HyFl7 Hd HO Hts Htr]
  · isplitr; · iexact HIc83
    isplitr; · iexact HIr
    isplitl [HyFl7]; · iexact HyFl7
    isplitl [Hd]; · iexact Hd
    isplitl [HO]; · iexact HO
    isplitl [Hts]; · iexact Hts
    isplitr; · iexact HRs
    isplitl [Htr]; · iexact Htr
    iexact HRr
  iintro ⟨Hczfs7, HO⟩
  iclear HIr HRs HRr
  sl_exec
  -- chunk 0 of the diagonal quarter: the x-neighbour's chunk has landed
  icases Hcr with ⟨Hc, Hcr⟩
  icases HpR with ⟨Hp, HpR⟩
  icases HIw with ⟨#HIc41, HIw⟩
  ihave Hmw := (mayWait_list (F := F) cc (dsem (⟨41, by decide⟩ : Fin 140)) (List.drop 40 (paysL cc)) (by decide)) $$ Hlev
  iapply (wait_a3_at m cc _ 0 rfl) $$ [Hc HO Hmw Hp]
  · isplitr; · iexact HIc41
    isplitl [Hc]; · iexact Hc
    isplitl [HO]; · iexact HO
    isplitl [Hmw]; · iexact Hmw
    iexact Hp
  iintro ⟨HO, Hq41, -, Hrb20⟩
  icases Hdg with ⟨Hdq0, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq0 := (congr (F := F) (r4R (dqF cc) 0) cc fullShare (dev.sl.Hdq0_w1 m f0) (r4 m cc) (fun i hi => glue_dgn m cc 0 0 rfl _ (k0_off18_inb cc) (k0_off18_eq cc) _ (k0_off49_inb cc) (k0_off49_eq cc) f0 i hi)) $$ Hdq0
  -- the four copies of chunk 0 into the result
  icases HvO with ⟨Hw0a, Hw0b, Hw0c, Hw0d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 1 of the diagonal quarter: the x-neighbour's chunk has landed
  icases Hcr with ⟨Hc, Hcr⟩
  icases HpR with ⟨Hp, HpR⟩
  icases HIw with ⟨#HIc42, HIw⟩
  ihave Hmw := (mayWait_list (F := F) cc (dsem (⟨42, by decide⟩ : Fin 140)) (List.drop 40 (paysL cc)) (by decide)) $$ Hlev
  iapply (wait_a3_at m cc _ 1 rfl) $$ [Hc HO Hmw Hp]
  · isplitr; · iexact HIc42
    isplitl [Hc]; · iexact Hc
    isplitl [HO]; · iexact HO
    isplitl [Hmw]; · iexact Hmw
    iexact Hp
  iintro ⟨HO, Hq42, -, Hrb21⟩
  icases Hdg with ⟨Hdq1, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq1 := (congr (F := F) (r4R (dqF cc) 1) cc fullShare (dev.sl.Hdq1_w1 m f0) (r4 m cc) (fun i hi => glue_dgn m cc 1 1 rfl _ (k0_off20_inb cc) (k0_off20_eq cc) _ (k0_off50_inb cc) (k0_off50_eq cc) f0 i hi)) $$ Hdq1
  -- the four copies of chunk 1 into the result
  icases HvO with ⟨Hw1a, Hw1b, Hw1c, Hw1d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 2 of the diagonal quarter: the x-neighbour's chunk has landed
  icases Hcr with ⟨Hc, Hcr⟩
  icases HpR with ⟨Hp, HpR⟩
  icases HIw with ⟨#HIc43, HIw⟩
  ihave Hmw := (mayWait_list (F := F) cc (dsem (⟨43, by decide⟩ : Fin 140)) (List.drop 40 (paysL cc)) (by decide)) $$ Hlev
  iapply (wait_a3_at m cc _ 2 rfl) $$ [Hc HO Hmw Hp]
  · isplitr; · iexact HIc43
    isplitl [Hc]; · iexact Hc
    isplitl [HO]; · iexact HO
    isplitl [Hmw]; · iexact Hmw
    iexact Hp
  iintro ⟨HO, Hq43, -, Hrb22⟩
  icases Hdg with ⟨Hdq2⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq2 := (congr (F := F) (r4R (dqF cc) 2) cc fullShare (dev.sl.Hdq2_w1 m f0) (r4 m cc) (fun i hi => glue_dgn m cc 2 2 rfl _ (k0_off22_inb cc) (k0_off22_eq cc) _ (k0_off51_inb cc) (k0_off51_eq cc) f0 i hi)) $$ Hdq2
  -- the four copies of chunk 2 into the result
  icases HvO with ⟨Hw2a, Hw2b, Hw2c, Hw2d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 6 of the diagonal quarter has landed
  icases Hcr with ⟨Hc, Hcr⟩
  icases HpR with ⟨Hp, HpR⟩
  icases HIw with ⟨#HIc90, HIw⟩
  ihave Hmw := (mayWait_list (F := F) cc (dsem (⟨90, by decide⟩ : Fin 140)) (List.drop 40 (paysL cc)) (by decide)) $$ Hlev
  iapply (wait_a9_at m cc _ 6 rfl (by decide)) $$ [Hc HO Hmw Hp]
  · isplitr; · iexact HIc90
    isplitl [Hc]; · iexact Hc
    isplitl [HO]; · iexact HO
    isplitl [Hmw]; · iexact Hmw
    iexact Hp
  iintro ⟨HO, Hq90, -, Hdl6⟩
  sl_exec
  -- its right half has landed
  icases Hcr with ⟨Hc, Hcr⟩
  icases HpR with ⟨Hp, HpR⟩
  icases HIw with ⟨#HIc106, HIw⟩
  ihave Hmw := (mayWait_list (F := F) cc (dsem (⟨106, by decide⟩ : Fin 140)) (List.drop 40 (paysL cc)) (by decide)) $$ Hlev
  iapply (wait_a11_at m cc _ 6 rfl (by decide)) $$ [Hc HO Hmw Hp]
  · isplitr; · iexact HIc106
    isplitl [Hc]; · iexact Hc
    isplitl [HO]; · iexact HO
    isplitl [Hmw]; · iexact Hmw
    iexact Hp
  iintro ⟨HO, Hq106, -, Hdr6⟩
  ihave Hd6 := (Entails.of_eq (chunk_halves (F := F) cc (dqF cc) 6 fullShare (r4 m cc)).symm) $$ [Hdl6 Hdr6]
  · isplitl [Hdl6]; · iexact Hdl6
    iexact Hdr6
  -- the four copies of chunk 6 into the result
  icases HvO with ⟨Hw6a, Hw6b, Hw6c, Hw6d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 7 of the diagonal quarter has landed
  icases Hcr with ⟨Hc, Hcr⟩
  icases HpR with ⟨Hp, HpR⟩
  icases HIw with ⟨#HIc91, HIw⟩
  ihave Hcr := ((sep_emp (PROP := sProp 𝕄)).2) $$ Hcr
  ihave Hmw := (mayWait_list (F := F) cc (dsem (⟨91, by decide⟩ : Fin 140)) (List.drop 40 (paysL cc)) (by decide)) $$ Hlev
  iapply (wait_a9_at m cc _ 7 rfl (by decide)) $$ [Hc HO Hmw Hp]
  · isplitr; · iexact HIc91
    isplitl [Hc]; · iexact Hc
    isplitl [HO]; · iexact HO
    isplitl [Hmw]; · iexact Hmw
    iexact Hp
  iintro ⟨HO, Hq91, -, Hdl7⟩
  sl_exec
  -- its right half has landed
  icases HIw with #HIc107
  icases Hcr with ⟨Hcr, -⟩
  ihave Hmw := (mayWait_list (F := F) cc (dsem (⟨107, by decide⟩ : Fin 140)) (List.drop 40 (paysL cc)) (by decide)) $$ Hlev
  iapply (wait_a11_at m cc _ 7 rfl (by decide)) $$ [Hcr HO Hmw HpR]
  · isplitr; · iexact HIc107
    isplitl [Hcr]; · iexact Hcr
    isplitl [HO]; · iexact HO
    isplitl [Hmw]; · iexact Hmw
    iexact HpR
  iintro ⟨HO, Hq107, -, Hdr7⟩
  ihave Hd7 := (Entails.of_eq (chunk_halves (F := F) cc (dqF cc) 7 fullShare (r4 m cc)).symm) $$ [Hdl7 Hdr7]
  · isplitl [Hdl7]; · iexact Hdl7
    iexact Hdr7
  -- the four copies of chunk 7 into the result
  icases HvO with ⟨Hw7a, Hw7b, Hw7c, Hw7d⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- nothing is owed any more: the level fact for the remaining local waits, once
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  -- the departure of chunk 0 across x
  icases HpS with ⟨Hp, HpS⟩
  ihave Hmw := (mayWait_list (F := F) cc (dsem (⟨22, by decide⟩ : Fin 140)) (List.drop 40 (paysL cc)) (by decide)) $$ Hlev
  iapply (wait_a0_at m cc _ 0 rfl) $$ [Hcxs0 HO Hmw Hp]
  · isplitr; · iexact HIc22
    isplitl [Hcxs0]; · iexact Hcxs0
    isplitl [HO]; · iexact HO
    isplitl [Hmw]; · iexact Hmw
    iexact Hp
  iintro ⟨HO, Hq22, -, HBs0⟩
  sl_exec
  -- of own chunk 0 to z
  icases HpS with ⟨Hp, HpS⟩
  ihave Hmw := (mayWait_list (F := F) cc (dsem (⟨44, by decide⟩ : Fin 140)) (List.drop 40 (paysL cc)) (by decide)) $$ Hlev
  iapply (wait_a4_at m cc _ 0 rfl) $$ [Hczs0 HO Hmw Hp]
  · isplitr; · iexact HIc44
    isplitl [Hczs0]; · iexact Hczs0
    isplitl [HO]; · iexact HO
    isplitl [Hmw]; · iexact Hmw
    iexact Hp
  iintro ⟨HO, Hq44, -, HoZb0⟩
  sl_exec
  -- of own chunk 0 to y
  icases HpS with ⟨Hp, HpS⟩
  ihave Hmw := (mayWait_list (F := F) cc (dsem (⟨60, by decide⟩ : Fin 140)) (List.drop 40 (paysL cc)) (by decide)) $$ Hlev
  iapply (wait_a6_at m cc _ 0 rfl) $$ [Hcys0 HO Hmw Hp]
  · isplitr; · iexact HIc60
    isplitl [Hcys0]; · iexact Hcys0
    isplitl [HO]; · iexact HO
    isplitl [Hmw]; · iexact Hmw
    iexact Hp
  iintro ⟨HO, Hq60, -, HoYb0⟩
  sl_exec
  -- the departure of chunk 1 across x
  icases HpS with ⟨Hp, HpS⟩
  ihave Hmw := (mayWait_list (F := F) cc (dsem (⟨23, by decide⟩ : Fin 140)) (List.drop 40 (paysL cc)) (by decide)) $$ Hlev
  iapply (wait_a0_at m cc _ 1 rfl) $$ [Hcxs1 HO Hmw Hp]
  · isplitr; · iexact HIc23
    isplitl [Hcxs1]; · iexact Hcxs1
    isplitl [HO]; · iexact HO
    isplitl [Hmw]; · iexact Hmw
    iexact Hp
  iintro ⟨HO, Hq23, -, HBs1⟩
  sl_exec
  -- of own chunk 1 to z
  icases HpS with ⟨Hp, HpS⟩
  ihave Hmw := (mayWait_list (F := F) cc (dsem (⟨45, by decide⟩ : Fin 140)) (List.drop 40 (paysL cc)) (by decide)) $$ Hlev
  iapply (wait_a4_at m cc _ 1 rfl) $$ [Hczs1 HO Hmw Hp]
  · isplitr; · iexact HIc45
    isplitl [Hczs1]; · iexact Hczs1
    isplitl [HO]; · iexact HO
    isplitl [Hmw]; · iexact Hmw
    iexact Hp
  iintro ⟨HO, Hq45, -, HoZb1⟩
  sl_exec
  -- of own chunk 1 to y
  icases HpS with ⟨Hp, HpS⟩
  ihave Hmw := (mayWait_list (F := F) cc (dsem (⟨61, by decide⟩ : Fin 140)) (List.drop 40 (paysL cc)) (by decide)) $$ Hlev
  iapply (wait_a6_at m cc _ 1 rfl) $$ [Hcys1 HO Hmw Hp]
  · isplitr; · iexact HIc61
    isplitl [Hcys1]; · iexact Hcys1
    isplitl [HO]; · iexact HO
    isplitl [Hmw]; · iexact Hmw
    iexact Hp
  iintro ⟨HO, Hq61, -, HoYb1⟩
  sl_exec
  -- the departure of chunk 2 across x
  icases HpS with ⟨Hp, HpS⟩
  ihave Hmw := (mayWait_list (F := F) cc (dsem (⟨24, by decide⟩ : Fin 140)) (List.drop 40 (paysL cc)) (by decide)) $$ Hlev
  iapply (wait_a0_at m cc _ 2 rfl) $$ [Hcxs2 HO Hmw Hp]
  · isplitr; · iexact HIc24
    isplitl [Hcxs2]; · iexact Hcxs2
    isplitl [HO]; · iexact HO
    isplitl [Hmw]; · iexact Hmw
    iexact Hp
  iintro ⟨HO, Hq24, -, HBs2⟩
  sl_exec
  -- of own chunk 2 to z
  icases HpS with ⟨Hp, HpS⟩
  ihave Hmw := (mayWait_list (F := F) cc (dsem (⟨46, by decide⟩ : Fin 140)) (List.drop 40 (paysL cc)) (by decide)) $$ Hlev
  iapply (wait_a4_at m cc _ 2 rfl) $$ [Hczs2 HO Hmw Hp]
  · isplitr; · iexact HIc46
    isplitl [Hczs2]; · iexact Hczs2
    isplitl [HO]; · iexact HO
    isplitl [Hmw]; · iexact Hmw
    iexact Hp
  iintro ⟨HO, Hq46, -, HoZb2⟩
  sl_exec
  -- of own chunk 2 to y
  icases HpS with ⟨Hp, HpS⟩
  ihave Hmw := (mayWait_list (F := F) cc (dsem (⟨62, by decide⟩ : Fin 140)) (List.drop 40 (paysL cc)) (by decide)) $$ Hlev
  iapply (wait_a6_at m cc _ 2 rfl) $$ [Hcys2 HO Hmw Hp]
  · isplitr; · iexact HIc62
    isplitl [Hcys2]; · iexact Hcys2
    isplitl [HO]; · iexact HO
    isplitl [Hmw]; · iexact Hmw
    iexact Hp
  iintro ⟨HO, Hq62, -, HoYb2⟩
  sl_exec
  -- the departure of chunk 3 across x
  icases HpS with ⟨Hp, HpS⟩
  ihave Hmw := (mayWait_list (F := F) cc (dsem (⟨25, by decide⟩ : Fin 140)) (List.drop 40 (paysL cc)) (by decide)) $$ Hlev
  iapply (wait_a0_at m cc _ 3 rfl) $$ [Hcxs3 HO Hmw Hp]
  · isplitr; · iexact HIc25
    isplitl [Hcxs3]; · iexact Hcxs3
    isplitl [HO]; · iexact HO
    isplitl [Hmw]; · iexact Hmw
    iexact Hp
  iintro ⟨HO, Hq25, -, HBs3⟩
  sl_exec
  -- of own chunk 3 to z
  icases HpS with ⟨Hp, HpS⟩
  ihave Hmw := (mayWait_list (F := F) cc (dsem (⟨47, by decide⟩ : Fin 140)) (List.drop 40 (paysL cc)) (by decide)) $$ Hlev
  iapply (wait_a4_at m cc _ 3 rfl) $$ [Hczs3 HO Hmw Hp]
  · isplitr; · iexact HIc47
    isplitl [Hczs3]; · iexact Hczs3
    isplitl [HO]; · iexact HO
    isplitl [Hmw]; · iexact Hmw
    iexact Hp
  iintro ⟨HO, Hq47, -, HoZb3⟩
  sl_exec
  -- of own chunk 3 to y
  icases HpS with ⟨Hp, HpS⟩
  ihave Hmw := (mayWait_list (F := F) cc (dsem (⟨63, by decide⟩ : Fin 140)) (List.drop 40 (paysL cc)) (by decide)) $$ Hlev
  iapply (wait_a6_at m cc _ 3 rfl) $$ [Hcys3 HO Hmw Hp]
  · isplitr; · iexact HIc63
    isplitl [Hcys3]; · iexact Hcys3
    isplitl [HO]; · iexact HO
    isplitl [Hmw]; · iexact Hmw
    iexact Hp
  iintro ⟨HO, Hq63, -, HoYb3⟩
  sl_exec
  -- of the forwarded half to z
  icases HpS with ⟨Hp, HpS⟩
  ihave Hmw := (mayWait_list (F := F) cc (dsem (⟨79, by decide⟩ : Fin 140)) (List.drop 40 (paysL cc)) (by decide)) $$ Hlev
  iapply (wait_a8_at m cc _ 3 rfl (by decide)) $$ [Hczfs3 HO Hmw Hp]
  · isplitr; · iexact HIc79
    isplitl [Hczfs3]; · iexact Hczfs3
    isplitl [HO]; · iexact HO
    isplitl [Hmw]; · iexact Hmw
    iexact Hp
  iintro ⟨HO, Hq79, -, HyFlb3⟩
  sl_exec
  -- of the forwarded half to y
  icases HpS with ⟨Hp, HpS⟩
  ihave Hmw := (mayWait_list (F := F) cc (dsem (⟨95, by decide⟩ : Fin 140)) (List.drop 40 (paysL cc)) (by decide)) $$ Hlev
  iapply (wait_a10_at m cc _ 3 rfl (by decide)) $$ [Hcyfs3 HO Hmw Hp]
  · isplitr; · iexact HIc95
    isplitl [Hcyfs3]; · iexact Hcyfs3
    isplitl [HO]; · iexact HO
    isplitl [Hmw]; · iexact Hmw
    iexact Hp
  iintro ⟨HO, Hq95, -, HzFrb3⟩
  sl_exec
  -- the departure of chunk 4 across x
  icases HpS with ⟨Hp, HpS⟩
  ihave Hmw := (mayWait_list (F := F) cc (dsem (⟨26, by decide⟩ : Fin 140)) (List.drop 40 (paysL cc)) (by decide)) $$ Hlev
  iapply (wait_a0_at m cc _ 4 rfl) $$ [Hcxs4 HO Hmw Hp]
  · isplitr; · iexact HIc26
    isplitl [Hcxs4]; · iexact Hcxs4
    isplitl [HO]; · iexact HO
    isplitl [Hmw]; · iexact Hmw
    iexact Hp
  iintro ⟨HO, Hq26, -, HBs4⟩
  sl_exec
  -- of own chunk 4 to z
  icases HpS with ⟨Hp, HpS⟩
  ihave Hmw := (mayWait_list (F := F) cc (dsem (⟨48, by decide⟩ : Fin 140)) (List.drop 40 (paysL cc)) (by decide)) $$ Hlev
  iapply (wait_a4_at m cc _ 4 rfl) $$ [Hczs4 HO Hmw Hp]
  · isplitr; · iexact HIc48
    isplitl [Hczs4]; · iexact Hczs4
    isplitl [HO]; · iexact HO
    isplitl [Hmw]; · iexact Hmw
    iexact Hp
  iintro ⟨HO, Hq48, -, HoZb4⟩
  sl_exec
  -- of own chunk 4 to y
  icases HpS with ⟨Hp, HpS⟩
  ihave Hmw := (mayWait_list (F := F) cc (dsem (⟨64, by decide⟩ : Fin 140)) (List.drop 40 (paysL cc)) (by decide)) $$ Hlev
  iapply (wait_a6_at m cc _ 4 rfl) $$ [Hcys4 HO Hmw Hp]
  · isplitr; · iexact HIc64
    isplitl [Hcys4]; · iexact Hcys4
    isplitl [HO]; · iexact HO
    isplitl [Hmw]; · iexact Hmw
    iexact Hp
  iintro ⟨HO, Hq64, -, HoYb4⟩
  sl_exec
  -- of the forwarded half to z
  icases HpS with ⟨Hp, HpS⟩
  ihave Hmw := (mayWait_list (F := F) cc (dsem (⟨80, by decide⟩ : Fin 140)) (List.drop 40 (paysL cc)) (by decide)) $$ Hlev
  iapply (wait_a8_at m cc _ 4 rfl (by decide)) $$ [Hczfs4 HO Hmw Hp]
  · isplitr; · iexact HIc80
    isplitl [Hczfs4]; · iexact Hczfs4
    isplitl [HO]; · iexact HO
    isplitl [Hmw]; · iexact Hmw
    iexact Hp
  iintro ⟨HO, Hq80, -, HyFlb4⟩
  sl_exec
  -- of the forwarded half to y
  icases HpS with ⟨Hp, HpS⟩
  ihave Hmw := (mayWait_list (F := F) cc (dsem (⟨96, by decide⟩ : Fin 140)) (List.drop 40 (paysL cc)) (by decide)) $$ Hlev
  iapply (wait_a10_at m cc _ 4 rfl (by decide)) $$ [Hcyfs4 HO Hmw Hp]
  · isplitr; · iexact HIc96
    isplitl [Hcyfs4]; · iexact Hcyfs4
    isplitl [HO]; · iexact HO
    isplitl [Hmw]; · iexact Hmw
    iexact Hp
  iintro ⟨HO, Hq96, -, HzFrb4⟩
  sl_exec
  -- the departure of chunk 5 across x
  icases HpS with ⟨Hp, HpS⟩
  ihave Hmw := (mayWait_list (F := F) cc (dsem (⟨27, by decide⟩ : Fin 140)) (List.drop 40 (paysL cc)) (by decide)) $$ Hlev
  iapply (wait_a0_at m cc _ 5 rfl) $$ [Hcxs5 HO Hmw Hp]
  · isplitr; · iexact HIc27
    isplitl [Hcxs5]; · iexact Hcxs5
    isplitl [HO]; · iexact HO
    isplitl [Hmw]; · iexact Hmw
    iexact Hp
  iintro ⟨HO, Hq27, -, HBs5⟩
  sl_exec
  -- of own chunk 5 to z
  icases HpS with ⟨Hp, HpS⟩
  ihave Hmw := (mayWait_list (F := F) cc (dsem (⟨49, by decide⟩ : Fin 140)) (List.drop 40 (paysL cc)) (by decide)) $$ Hlev
  iapply (wait_a4_at m cc _ 5 rfl) $$ [Hczs5 HO Hmw Hp]
  · isplitr; · iexact HIc49
    isplitl [Hczs5]; · iexact Hczs5
    isplitl [HO]; · iexact HO
    isplitl [Hmw]; · iexact Hmw
    iexact Hp
  iintro ⟨HO, Hq49, -, HoZb5⟩
  sl_exec
  -- of own chunk 5 to y
  icases HpS with ⟨Hp, HpS⟩
  ihave Hmw := (mayWait_list (F := F) cc (dsem (⟨65, by decide⟩ : Fin 140)) (List.drop 40 (paysL cc)) (by decide)) $$ Hlev
  iapply (wait_a6_at m cc _ 5 rfl) $$ [Hcys5 HO Hmw Hp]
  · isplitr; · iexact HIc65
    isplitl [Hcys5]; · iexact Hcys5
    isplitl [HO]; · iexact HO
    isplitl [Hmw]; · iexact Hmw
    iexact Hp
  iintro ⟨HO, Hq65, -, HoYb5⟩
  sl_exec
  -- of the forwarded half to z
  icases HpS with ⟨Hp, HpS⟩
  ihave Hmw := (mayWait_list (F := F) cc (dsem (⟨81, by decide⟩ : Fin 140)) (List.drop 40 (paysL cc)) (by decide)) $$ Hlev
  iapply (wait_a8_at m cc _ 5 rfl (by decide)) $$ [Hczfs5 HO Hmw Hp]
  · isplitr; · iexact HIc81
    isplitl [Hczfs5]; · iexact Hczfs5
    isplitl [HO]; · iexact HO
    isplitl [Hmw]; · iexact Hmw
    iexact Hp
  iintro ⟨HO, Hq81, -, HyFlb5⟩
  sl_exec
  -- of the forwarded half to y
  icases HpS with ⟨Hp, HpS⟩
  ihave Hmw := (mayWait_list (F := F) cc (dsem (⟨97, by decide⟩ : Fin 140)) (List.drop 40 (paysL cc)) (by decide)) $$ Hlev
  iapply (wait_a10_at m cc _ 5 rfl (by decide)) $$ [Hcyfs5 HO Hmw Hp]
  · isplitr; · iexact HIc97
    isplitl [Hcyfs5]; · iexact Hcyfs5
    isplitl [HO]; · iexact HO
    isplitl [Hmw]; · iexact Hmw
    iexact Hp
  iintro ⟨HO, Hq97, -, HzFrb5⟩
  sl_exec
  -- the departure of chunk 6 across x
  icases HpS with ⟨Hp, HpS⟩
  ihave Hmw := (mayWait_list (F := F) cc (dsem (⟨28, by decide⟩ : Fin 140)) (List.drop 40 (paysL cc)) (by decide)) $$ Hlev
  iapply (wait_a0_at m cc _ 6 rfl) $$ [Hcxs6 HO Hmw Hp]
  · isplitr; · iexact HIc28
    isplitl [Hcxs6]; · iexact Hcxs6
    isplitl [HO]; · iexact HO
    isplitl [Hmw]; · iexact Hmw
    iexact Hp
  iintro ⟨HO, Hq28, -, HBs6⟩
  sl_exec
  -- of own chunk 6 to z
  icases HpS with ⟨Hp, HpS⟩
  ihave Hmw := (mayWait_list (F := F) cc (dsem (⟨50, by decide⟩ : Fin 140)) (List.drop 40 (paysL cc)) (by decide)) $$ Hlev
  iapply (wait_a4_at m cc _ 6 rfl) $$ [Hczs6 HO Hmw Hp]
  · isplitr; · iexact HIc50
    isplitl [Hczs6]; · iexact Hczs6
    isplitl [HO]; · iexact HO
    isplitl [Hmw]; · iexact Hmw
    iexact Hp
  iintro ⟨HO, Hq50, -, HoZb6⟩
  sl_exec
  -- of own chunk 6 to y
  icases HpS with ⟨Hp, HpS⟩
  ihave Hmw := (mayWait_list (F := F) cc (dsem (⟨66, by decide⟩ : Fin 140)) (List.drop 40 (paysL cc)) (by decide)) $$ Hlev
  iapply (wait_a6_at m cc _ 6 rfl) $$ [Hcys6 HO Hmw Hp]
  · isplitr; · iexact HIc66
    isplitl [Hcys6]; · iexact Hcys6
    isplitl [HO]; · iexact HO
    isplitl [Hmw]; · iexact Hmw
    iexact Hp
  iintro ⟨HO, Hq66, -, HoYb6⟩
  sl_exec
  -- of the forwarded half to z
  icases HpS with ⟨Hp, HpS⟩
  ihave Hmw := (mayWait_list (F := F) cc (dsem (⟨82, by decide⟩ : Fin 140)) (List.drop 40 (paysL cc)) (by decide)) $$ Hlev
  iapply (wait_a8_at m cc _ 6 rfl (by decide)) $$ [Hczfs6 HO Hmw Hp]
  · isplitr; · iexact HIc82
    isplitl [Hczfs6]; · iexact Hczfs6
    isplitl [HO]; · iexact HO
    isplitl [Hmw]; · iexact Hmw
    iexact Hp
  iintro ⟨HO, Hq82, -, HyFlb6⟩
  sl_exec
  -- of the forwarded half to y
  icases HpS with ⟨Hp, HpS⟩
  ihave Hmw := (mayWait_list (F := F) cc (dsem (⟨98, by decide⟩ : Fin 140)) (List.drop 40 (paysL cc)) (by decide)) $$ Hlev
  iapply (wait_a10_at m cc _ 6 rfl (by decide)) $$ [Hcyfs6 HO Hmw Hp]
  · isplitr; · iexact HIc98
    isplitl [Hcyfs6]; · iexact Hcyfs6
    isplitl [HO]; · iexact HO
    isplitl [Hmw]; · iexact Hmw
    iexact Hp
  iintro ⟨HO, Hq98, -, HzFrb6⟩
  sl_exec
  -- the departure of chunk 7 across x
  icases HpS with ⟨Hp, HpS⟩
  ihave Hmw := (mayWait_list (F := F) cc (dsem (⟨29, by decide⟩ : Fin 140)) (List.drop 40 (paysL cc)) (by decide)) $$ Hlev
  iapply (wait_a0_at m cc _ 7 rfl) $$ [Hcxs7 HO Hmw Hp]
  · isplitr; · iexact HIc29
    isplitl [Hcxs7]; · iexact Hcxs7
    isplitl [HO]; · iexact HO
    isplitl [Hmw]; · iexact Hmw
    iexact Hp
  iintro ⟨HO, Hq29, -, HBs7⟩
  sl_exec
  -- of own chunk 7 to z
  icases HpS with ⟨Hp, HpS⟩
  ihave Hmw := (mayWait_list (F := F) cc (dsem (⟨51, by decide⟩ : Fin 140)) (List.drop 40 (paysL cc)) (by decide)) $$ Hlev
  iapply (wait_a4_at m cc _ 7 rfl) $$ [Hczs7 HO Hmw Hp]
  · isplitr; · iexact HIc51
    isplitl [Hczs7]; · iexact Hczs7
    isplitl [HO]; · iexact HO
    isplitl [Hmw]; · iexact Hmw
    iexact Hp
  iintro ⟨HO, Hq51, -, HoZb7⟩
  sl_exec
  -- of own chunk 7 to y
  icases HpS with ⟨Hp, HpS⟩
  ihave Hmw := (mayWait_list (F := F) cc (dsem (⟨67, by decide⟩ : Fin 140)) (List.drop 40 (paysL cc)) (by decide)) $$ Hlev
  iapply (wait_a6_at m cc _ 7 rfl) $$ [Hcys7 HO Hmw Hp]
  · isplitr; · iexact HIc67
    isplitl [Hcys7]; · iexact Hcys7
    isplitl [HO]; · iexact HO
    isplitl [Hmw]; · iexact Hmw
    iexact Hp
  iintro ⟨HO, Hq67, -, HoYb7⟩
  sl_exec
  -- of the forwarded half to z
  icases HpS with ⟨Hp, HpS⟩
  ihave Hmw := (mayWait_list (F := F) cc (dsem (⟨83, by decide⟩ : Fin 140)) (List.drop 40 (paysL cc)) (by decide)) $$ Hlev
  iapply (wait_a8_at m cc _ 7 rfl (by decide)) $$ [Hczfs7 HO Hmw Hp]
  · isplitr; · iexact HIc83
    isplitl [Hczfs7]; · iexact Hczfs7
    isplitl [HO]; · iexact HO
    isplitl [Hmw]; · iexact Hmw
    iexact Hp
  iintro ⟨HO, Hq83, -, HyFlb7⟩
  sl_exec
  -- of the forwarded half to y
  icases HpS with ⟨Hp, HpS⟩
  ihave Hmw := (mayWait_list (F := F) cc (dsem (⟨99, by decide⟩ : Fin 140)) (List.drop 40 (paysL cc)) (by decide)) $$ Hlev
  iapply (wait_a10_at m cc _ 7 rfl (by decide)) $$ [Hcyfs7 HO Hmw Hp]
  · isplitr; · iexact HIc99
    isplitl [Hcyfs7]; · iexact Hcyfs7
    isplitl [HO]; · iexact HO
    isplitl [Hmw]; · iexact Hmw
    iexact Hp
  iintro ⟨HO, Hq99, -, HzFrb7⟩
  sl_exec
  -- of chunk 0 of the diagonal quarter across x
  icases HpS with ⟨Hp, HpS⟩
  ihave Hmw := (mayWait_list (F := F) cc (dsem (⟨38, by decide⟩ : Fin 140)) (List.drop 40 (paysL cc)) (by decide)) $$ Hlev
  iapply (wait_a2_at m cc _ 0 rfl) $$ [Hcds0 HO Hmw Hp]
  · isplitr; · iexact HIc38
    isplitl [Hcds0]; · iexact Hcds0
    isplitl [HO]; · iexact HO
    isplitl [Hmw]; · iexact Hmw
    iexact Hp
  iintro ⟨HO, Hq38, -, HB2s0⟩
  sl_exec
  -- of chunk 1 of the diagonal quarter across x
  icases HpS with ⟨Hp, HpS⟩
  ihave HpS := ((sep_emp (PROP := sProp 𝕄)).2) $$ HpS
  ihave Hmw := (mayWait_list (F := F) cc (dsem (⟨39, by decide⟩ : Fin 140)) (List.drop 40 (paysL cc)) (by decide)) $$ Hlev
  iapply (wait_a2_at m cc _ 1 rfl) $$ [Hcds1 HO Hmw Hp]
  · isplitr; · iexact HIc39
    isplitl [Hcds1]; · iexact Hcds1
    isplitl [HO]; · iexact HO
    isplitl [Hmw]; · iexact Hmw
    iexact Hp
  iintro ⟨HO, Hq39, -, HB2s1⟩
  sl_exec
  -- of chunk 2 of the diagonal quarter across x

  icases HpS with ⟨HpS, -⟩
  ihave Hmw := (mayWait_list (F := F) cc (dsem (⟨40, by decide⟩ : Fin 140)) (List.drop 40 (paysL cc)) (by decide)) $$ Hlev
  iapply (wait_a2_at m cc _ 2 rfl) $$ [Hcds2 HO Hmw HpS]
  · isplitr; · iexact HIc40
    isplitl [Hcds2]; · iexact Hcds2
    isplitl [HO]; · iexact HO
    isplitl [Hmw]; · iexact Hmw
    iexact HpS
  iintro ⟨HO, Hq40, -, HB2s2⟩
  sl_exec
  -- every cell of the protocol on this device has had its one round: close them, their counters are the device's again
  imod (close_cell (F := F) m cc (⟨22, by decide⟩ : Fin 140) (by decide)) $$ [Hq22] with Hv22
  · isplitr; · iexact HIc22
    iexact Hq22
  imod (close_cell (F := F) m cc (⟨23, by decide⟩ : Fin 140) (by decide)) $$ [Hq23] with Hv23
  · isplitr; · iexact HIc23
    iexact Hq23
  imod (close_cell (F := F) m cc (⟨24, by decide⟩ : Fin 140) (by decide)) $$ [Hq24] with Hv24
  · isplitr; · iexact HIc24
    iexact Hq24
  imod (close_cell (F := F) m cc (⟨25, by decide⟩ : Fin 140) (by decide)) $$ [Hq25] with Hv25
  · isplitr; · iexact HIc25
    iexact Hq25
  imod (close_cell (F := F) m cc (⟨26, by decide⟩ : Fin 140) (by decide)) $$ [Hq26] with Hv26
  · isplitr; · iexact HIc26
    iexact Hq26
  imod (close_cell (F := F) m cc (⟨27, by decide⟩ : Fin 140) (by decide)) $$ [Hq27] with Hv27
  · isplitr; · iexact HIc27
    iexact Hq27
  imod (close_cell (F := F) m cc (⟨28, by decide⟩ : Fin 140) (by decide)) $$ [Hq28] with Hv28
  · isplitr; · iexact HIc28
    iexact Hq28
  imod (close_cell (F := F) m cc (⟨29, by decide⟩ : Fin 140) (by decide)) $$ [Hq29] with Hv29
  · isplitr; · iexact HIc29
    iexact Hq29
  imod (close_cell (F := F) m cc (⟨30, by decide⟩ : Fin 140) (by decide)) $$ [Hq30] with Hv30
  · isplitr; · iexact HIc30
    iexact Hq30
  imod (close_cell (F := F) m cc (⟨31, by decide⟩ : Fin 140) (by decide)) $$ [Hq31] with Hv31
  · isplitr; · iexact HIc31
    iexact Hq31
  imod (close_cell (F := F) m cc (⟨32, by decide⟩ : Fin 140) (by decide)) $$ [Hq32] with Hv32
  · isplitr; · iexact HIc32
    iexact Hq32
  imod (close_cell (F := F) m cc (⟨33, by decide⟩ : Fin 140) (by decide)) $$ [Hq33] with Hv33
  · isplitr; · iexact HIc33
    iexact Hq33
  imod (close_cell (F := F) m cc (⟨34, by decide⟩ : Fin 140) (by decide)) $$ [Hq34] with Hv34
  · isplitr; · iexact HIc34
    iexact Hq34
  imod (close_cell (F := F) m cc (⟨35, by decide⟩ : Fin 140) (by decide)) $$ [Hq35] with Hv35
  · isplitr; · iexact HIc35
    iexact Hq35
  imod (close_cell (F := F) m cc (⟨36, by decide⟩ : Fin 140) (by decide)) $$ [Hq36] with Hv36
  · isplitr; · iexact HIc36
    iexact Hq36
  imod (close_cell (F := F) m cc (⟨37, by decide⟩ : Fin 140) (by decide)) $$ [Hq37] with Hv37
  · isplitr; · iexact HIc37
    iexact Hq37
  imod (close_cell (F := F) m cc (⟨38, by decide⟩ : Fin 140) (by decide)) $$ [Hq38] with Hv38
  · isplitr; · iexact HIc38
    iexact Hq38
  imod (close_cell (F := F) m cc (⟨39, by decide⟩ : Fin 140) (by decide)) $$ [Hq39] with Hv39
  · isplitr; · iexact HIc39
    iexact Hq39
  imod (close_cell (F := F) m cc (⟨40, by decide⟩ : Fin 140) (by decide)) $$ [Hq40] with Hv40
  · isplitr; · iexact HIc40
    iexact Hq40
  imod (close_cell (F := F) m cc (⟨41, by decide⟩ : Fin 140) (by decide)) $$ [Hq41] with Hv41
  · isplitr; · iexact HIc41
    iexact Hq41
  imod (close_cell (F := F) m cc (⟨42, by decide⟩ : Fin 140) (by decide)) $$ [Hq42] with Hv42
  · isplitr; · iexact HIc42
    iexact Hq42
  imod (close_cell (F := F) m cc (⟨43, by decide⟩ : Fin 140) (by decide)) $$ [Hq43] with Hv43
  · isplitr; · iexact HIc43
    iexact Hq43
  imod (close_cell (F := F) m cc (⟨44, by decide⟩ : Fin 140) (by decide)) $$ [Hq44] with Hv44
  · isplitr; · iexact HIc44
    iexact Hq44
  imod (close_cell (F := F) m cc (⟨45, by decide⟩ : Fin 140) (by decide)) $$ [Hq45] with Hv45
  · isplitr; · iexact HIc45
    iexact Hq45
  imod (close_cell (F := F) m cc (⟨46, by decide⟩ : Fin 140) (by decide)) $$ [Hq46] with Hv46
  · isplitr; · iexact HIc46
    iexact Hq46
  imod (close_cell (F := F) m cc (⟨47, by decide⟩ : Fin 140) (by decide)) $$ [Hq47] with Hv47
  · isplitr; · iexact HIc47
    iexact Hq47
  imod (close_cell (F := F) m cc (⟨48, by decide⟩ : Fin 140) (by decide)) $$ [Hq48] with Hv48
  · isplitr; · iexact HIc48
    iexact Hq48
  imod (close_cell (F := F) m cc (⟨49, by decide⟩ : Fin 140) (by decide)) $$ [Hq49] with Hv49
  · isplitr; · iexact HIc49
    iexact Hq49
  imod (close_cell (F := F) m cc (⟨50, by decide⟩ : Fin 140) (by decide)) $$ [Hq50] with Hv50
  · isplitr; · iexact HIc50
    iexact Hq50
  imod (close_cell (F := F) m cc (⟨51, by decide⟩ : Fin 140) (by decide)) $$ [Hq51] with Hv51
  · isplitr; · iexact HIc51
    iexact Hq51
  imod (close_cell (F := F) m cc (⟨52, by decide⟩ : Fin 140) (by decide)) $$ [Hq52] with Hv52
  · isplitr; · iexact HIc52
    iexact Hq52
  imod (close_cell (F := F) m cc (⟨53, by decide⟩ : Fin 140) (by decide)) $$ [Hq53] with Hv53
  · isplitr; · iexact HIc53
    iexact Hq53
  imod (close_cell (F := F) m cc (⟨54, by decide⟩ : Fin 140) (by decide)) $$ [Hq54] with Hv54
  · isplitr; · iexact HIc54
    iexact Hq54
  imod (close_cell (F := F) m cc (⟨55, by decide⟩ : Fin 140) (by decide)) $$ [Hq55] with Hv55
  · isplitr; · iexact HIc55
    iexact Hq55
  imod (close_cell (F := F) m cc (⟨56, by decide⟩ : Fin 140) (by decide)) $$ [Hq56] with Hv56
  · isplitr; · iexact HIc56
    iexact Hq56
  imod (close_cell (F := F) m cc (⟨57, by decide⟩ : Fin 140) (by decide)) $$ [Hq57] with Hv57
  · isplitr; · iexact HIc57
    iexact Hq57
  imod (close_cell (F := F) m cc (⟨58, by decide⟩ : Fin 140) (by decide)) $$ [Hq58] with Hv58
  · isplitr; · iexact HIc58
    iexact Hq58
  imod (close_cell (F := F) m cc (⟨59, by decide⟩ : Fin 140) (by decide)) $$ [Hq59] with Hv59
  · isplitr; · iexact HIc59
    iexact Hq59
  imod (close_cell (F := F) m cc (⟨60, by decide⟩ : Fin 140) (by decide)) $$ [Hq60] with Hv60
  · isplitr; · iexact HIc60
    iexact Hq60
  imod (close_cell (F := F) m cc (⟨61, by decide⟩ : Fin 140) (by decide)) $$ [Hq61] with Hv61
  · isplitr; · iexact HIc61
    iexact Hq61
  imod (close_cell (F := F) m cc (⟨62, by decide⟩ : Fin 140) (by decide)) $$ [Hq62] with Hv62
  · isplitr; · iexact HIc62
    iexact Hq62
  imod (close_cell (F := F) m cc (⟨63, by decide⟩ : Fin 140) (by decide)) $$ [Hq63] with Hv63
  · isplitr; · iexact HIc63
    iexact Hq63
  imod (close_cell (F := F) m cc (⟨64, by decide⟩ : Fin 140) (by decide)) $$ [Hq64] with Hv64
  · isplitr; · iexact HIc64
    iexact Hq64
  imod (close_cell (F := F) m cc (⟨65, by decide⟩ : Fin 140) (by decide)) $$ [Hq65] with Hv65
  · isplitr; · iexact HIc65
    iexact Hq65
  imod (close_cell (F := F) m cc (⟨66, by decide⟩ : Fin 140) (by decide)) $$ [Hq66] with Hv66
  · isplitr; · iexact HIc66
    iexact Hq66
  imod (close_cell (F := F) m cc (⟨67, by decide⟩ : Fin 140) (by decide)) $$ [Hq67] with Hv67
  · isplitr; · iexact HIc67
    iexact Hq67
  imod (close_cell (F := F) m cc (⟨68, by decide⟩ : Fin 140) (by decide)) $$ [Hq68] with Hv68
  · isplitr; · iexact HIc68
    iexact Hq68
  imod (close_cell (F := F) m cc (⟨69, by decide⟩ : Fin 140) (by decide)) $$ [Hq69] with Hv69
  · isplitr; · iexact HIc69
    iexact Hq69
  imod (close_cell (F := F) m cc (⟨70, by decide⟩ : Fin 140) (by decide)) $$ [Hq70] with Hv70
  · isplitr; · iexact HIc70
    iexact Hq70
  imod (close_cell (F := F) m cc (⟨71, by decide⟩ : Fin 140) (by decide)) $$ [Hq71] with Hv71
  · isplitr; · iexact HIc71
    iexact Hq71
  imod (close_cell (F := F) m cc (⟨72, by decide⟩ : Fin 140) (by decide)) $$ [Hq72] with Hv72
  · isplitr; · iexact HIc72
    iexact Hq72
  imod (close_cell (F := F) m cc (⟨73, by decide⟩ : Fin 140) (by decide)) $$ [Hq73] with Hv73
  · isplitr; · iexact HIc73
    iexact Hq73
  imod (close_cell (F := F) m cc (⟨74, by decide⟩ : Fin 140) (by decide)) $$ [Hq74] with Hv74
  · isplitr; · iexact HIc74
    iexact Hq74
  imod (close_cell (F := F) m cc (⟨75, by decide⟩ : Fin 140) (by decide)) $$ [Hq75] with Hv75
  · isplitr; · iexact HIc75
    iexact Hq75
  imod (close_cell (F := F) m cc (⟨79, by decide⟩ : Fin 140) (by decide)) $$ [Hq79] with Hv79
  · isplitr; · iexact HIc79
    iexact Hq79
  imod (close_cell (F := F) m cc (⟨80, by decide⟩ : Fin 140) (by decide)) $$ [Hq80] with Hv80
  · isplitr; · iexact HIc80
    iexact Hq80
  imod (close_cell (F := F) m cc (⟨81, by decide⟩ : Fin 140) (by decide)) $$ [Hq81] with Hv81
  · isplitr; · iexact HIc81
    iexact Hq81
  imod (close_cell (F := F) m cc (⟨82, by decide⟩ : Fin 140) (by decide)) $$ [Hq82] with Hv82
  · isplitr; · iexact HIc82
    iexact Hq82
  imod (close_cell (F := F) m cc (⟨83, by decide⟩ : Fin 140) (by decide)) $$ [Hq83] with Hv83
  · isplitr; · iexact HIc83
    iexact Hq83
  imod (close_cell (F := F) m cc (⟨87, by decide⟩ : Fin 140) (by decide)) $$ [Hq87] with Hv87
  · isplitr; · iexact HIc87
    iexact Hq87
  imod (close_cell (F := F) m cc (⟨88, by decide⟩ : Fin 140) (by decide)) $$ [Hq88] with Hv88
  · isplitr; · iexact HIc88
    iexact Hq88
  imod (close_cell (F := F) m cc (⟨89, by decide⟩ : Fin 140) (by decide)) $$ [Hq89] with Hv89
  · isplitr; · iexact HIc89
    iexact Hq89
  imod (close_cell (F := F) m cc (⟨90, by decide⟩ : Fin 140) (by decide)) $$ [Hq90] with Hv90
  · isplitr; · iexact HIc90
    iexact Hq90
  imod (close_cell (F := F) m cc (⟨91, by decide⟩ : Fin 140) (by decide)) $$ [Hq91] with Hv91
  · isplitr; · iexact HIc91
    iexact Hq91
  imod (close_cell (F := F) m cc (⟨95, by decide⟩ : Fin 140) (by decide)) $$ [Hq95] with Hv95
  · isplitr; · iexact HIc95
    iexact Hq95
  imod (close_cell (F := F) m cc (⟨96, by decide⟩ : Fin 140) (by decide)) $$ [Hq96] with Hv96
  · isplitr; · iexact HIc96
    iexact Hq96
  imod (close_cell (F := F) m cc (⟨97, by decide⟩ : Fin 140) (by decide)) $$ [Hq97] with Hv97
  · isplitr; · iexact HIc97
    iexact Hq97
  imod (close_cell (F := F) m cc (⟨98, by decide⟩ : Fin 140) (by decide)) $$ [Hq98] with Hv98
  · isplitr; · iexact HIc98
    iexact Hq98
  imod (close_cell (F := F) m cc (⟨99, by decide⟩ : Fin 140) (by decide)) $$ [Hq99] with Hv99
  · isplitr; · iexact HIc99
    iexact Hq99
  imod (close_cell (F := F) m cc (⟨103, by decide⟩ : Fin 140) (by decide)) $$ [Hq103] with Hv103
  · isplitr; · iexact HIc103
    iexact Hq103
  imod (close_cell (F := F) m cc (⟨104, by decide⟩ : Fin 140) (by decide)) $$ [Hq104] with Hv104
  · isplitr; · iexact HIc104
    iexact Hq104
  imod (close_cell (F := F) m cc (⟨105, by decide⟩ : Fin 140) (by decide)) $$ [Hq105] with Hv105
  · isplitr; · iexact HIc105
    iexact Hq105
  imod (close_cell (F := F) m cc (⟨106, by decide⟩ : Fin 140) (by decide)) $$ [Hq106] with Hv106
  · isplitr; · iexact HIc106
    iexact Hq106
  imod (close_cell (F := F) m cc (⟨107, by decide⟩ : Fin 140) (by decide)) $$ [Hq107] with Hv107
  · isplitr; · iexact HIc107
    iexact Hq107
  -- the program is over: hand everything back
  icases HvU with ⟨Hu76, Hu77, Hu78, Hu84, Hu85, Hu86, Hu92, Hu93, Hu94, Hu100, Hu101, Hu102⟩
  ihave HO := (Entails.of_eq (show owes (cc : Thread nD τ) (owedL (List.drop 40 (paysL cc))) _ = owes (cc : Thread nD τ) 0 _ from rfl)) $$ HO
  -- each block of the result holds what its copy wrote: the final contents
  ihave HU00 := (congr (F := F) (outR 0 0) cc fullShare ((outR 0 0).view.writes (Elt F) g00 [⟨Rect.whole S512x256, dev.sl.dma0_34 m⟩]) (out m cc) (fun i hi => glue_out' m cc 0 0 g00 i hi)) $$ HU00
  ihave HU01 := (congr (F := F) (outR 0 1) cc fullShare ((outR 0 1).view.writes (Elt F) g01 [⟨Rect.whole S512x256, dev.sl.dma0_35 m⟩]) (out m cc) (fun i hi => glue_out' m cc 0 1 g01 i hi)) $$ HU01
  ihave HU02 := (congr (F := F) (outR 0 2) cc fullShare ((outR 0 2).view.writes (Elt F) g02 [⟨Rect.whole S512x256, dev.sl.dma0_36 m⟩]) (out m cc) (fun i hi => glue_out' m cc 0 2 g02 i hi)) $$ HU02
  ihave HU03 := (congr (F := F) (outR 0 3) cc fullShare ((outR 0 3).view.writes (Elt F) g03 [⟨Rect.whole S512x256, dev.sl.dma0_37 m⟩]) (out m cc) (fun i hi => glue_out' m cc 0 3 g03 i hi)) $$ HU03
  ihave HU10 := (congr (F := F) (outR 1 0) cc fullShare ((outR 1 0).view.writes (Elt F) g10 [⟨Rect.whole S512x256, dev.sl.dma0_38 m⟩]) (out m cc) (fun i hi => glue_out' m cc 1 0 g10 i hi)) $$ HU10
  ihave HU11 := (congr (F := F) (outR 1 1) cc fullShare ((outR 1 1).view.writes (Elt F) g11 [⟨Rect.whole S512x256, dev.sl.dma0_39 m⟩]) (out m cc) (fun i hi => glue_out' m cc 1 1 g11 i hi)) $$ HU11
  ihave HU12 := (congr (F := F) (outR 1 2) cc fullShare ((outR 1 2).view.writes (Elt F) g12 [⟨Rect.whole S512x256, dev.sl.dma0_40 m⟩]) (out m cc) (fun i hi => glue_out' m cc 1 2 g12 i hi)) $$ HU12
  ihave HU13 := (congr (F := F) (outR 1 3) cc fullShare ((outR 1 3).view.writes (Elt F) g13 [⟨Rect.whole S512x256, dev.sl.dma0_41 m⟩]) (out m cc) (fun i hi => glue_out' m cc 1 3 g13 i hi)) $$ HU13
  ihave HU20 := (congr (F := F) (outR 2 0) cc fullShare ((outR 2 0).view.writes (Elt F) g20 [⟨Rect.whole S512x256, dev.sl.dma0_42 m⟩]) (out m cc) (fun i hi => glue_out' m cc 2 0 g20 i hi)) $$ HU20
  ihave HU21 := (congr (F := F) (outR 2 1) cc fullShare ((outR 2 1).view.writes (Elt F) g21 [⟨Rect.whole S512x256, dev.sl.dma0_43 m⟩]) (out m cc) (fun i hi => glue_out' m cc 2 1 g21 i hi)) $$ HU21
  ihave HU22 := (congr (F := F) (outR 2 2) cc fullShare ((outR 2 2).view.writes (Elt F) g22 [⟨Rect.whole S512x256, dev.sl.dma0_44 m⟩]) (out m cc) (fun i hi => glue_out' m cc 2 2 g22 i hi)) $$ HU22
  ihave HU23 := (congr (F := F) (outR 2 3) cc fullShare ((outR 2 3).view.writes (Elt F) g23 [⟨Rect.whole S512x256, dev.sl.dma0_45 m⟩]) (out m cc) (fun i hi => glue_out' m cc 2 3 g23 i hi)) $$ HU23
  ihave HU30 := (congr (F := F) (outR 3 0) cc fullShare ((outR 3 0).view.writes (Elt F) g30 [⟨Rect.whole S512x256, dev.sl.dma0_22 m⟩]) (out m cc) (fun i hi => glue_out' m cc 3 0 g30 i hi)) $$ HU30
  ihave HU31 := (congr (F := F) (outR 3 1) cc fullShare ((outR 3 1).view.writes (Elt F) g31 [⟨Rect.whole S512x256, dev.sl.dma0_23 m⟩]) (out m cc) (fun i hi => glue_out' m cc 3 1 g31 i hi)) $$ HU31
  ihave HU32 := (congr (F := F) (outR 3 2) cc fullShare ((outR 3 2).view.writes (Elt F) g32 [⟨Rect.whole S512x256, dev.sl.dma0_24 m⟩]) (out m cc) (fun i hi => glue_out' m cc 3 2 g32 i hi)) $$ HU32
  ihave HU33 := (congr (F := F) (outR 3 3) cc fullShare ((outR 3 3).view.writes (Elt F) g33 [⟨Rect.whole S512x256, dev.sl.dma0_25 m⟩]) (out m cc) (fun i hi => glue_out' m cc 3 3 g33 i hi)) $$ HU33
  ihave HU40 := (congr (F := F) (outR 4 0) cc fullShare ((outR 4 0).view.writes (Elt F) g40 [⟨Rect.whole S512x256, dev.sl.dma0_26 m⟩]) (out m cc) (fun i hi => glue_out' m cc 4 0 g40 i hi)) $$ HU40
  ihave HU41 := (congr (F := F) (outR 4 1) cc fullShare ((outR 4 1).view.writes (Elt F) g41 [⟨Rect.whole S512x256, dev.sl.dma0_27 m⟩]) (out m cc) (fun i hi => glue_out' m cc 4 1 g41 i hi)) $$ HU41
  ihave HU42 := (congr (F := F) (outR 4 2) cc fullShare ((outR 4 2).view.writes (Elt F) g42 [⟨Rect.whole S512x256, dev.sl.dma0_28 m⟩]) (out m cc) (fun i hi => glue_out' m cc 4 2 g42 i hi)) $$ HU42
  ihave HU43 := (congr (F := F) (outR 4 3) cc fullShare ((outR 4 3).view.writes (Elt F) g43 [⟨Rect.whole S512x256, dev.sl.dma0_29 m⟩]) (out m cc) (fun i hi => glue_out' m cc 4 3 g43 i hi)) $$ HU43
  ihave HU50 := (congr (F := F) (outR 5 0) cc fullShare ((outR 5 0).view.writes (Elt F) g50 [⟨Rect.whole S512x256, dev.sl.dma0_30 m⟩]) (out m cc) (fun i hi => glue_out' m cc 5 0 g50 i hi)) $$ HU50
  ihave HU51 := (congr (F := F) (outR 5 1) cc fullShare ((outR 5 1).view.writes (Elt F) g51 [⟨Rect.whole S512x256, dev.sl.dma0_31 m⟩]) (out m cc) (fun i hi => glue_out' m cc 5 1 g51 i hi)) $$ HU51
  ihave HU52 := (congr (F := F) (outR 5 2) cc fullShare ((outR 5 2).view.writes (Elt F) g52 [⟨Rect.whole S512x256, dev.sl.dma0_32 m⟩]) (out m cc) (fun i hi => glue_out' m cc 5 2 g52 i hi)) $$ HU52
  ihave HU53 := (congr (F := F) (outR 5 3) cc fullShare ((outR 5 3).view.writes (Elt F) g53 [⟨Rect.whole S512x256, dev.sl.dma0_33 m⟩]) (out m cc) (fun i hi => glue_out' m cc 5 3 g53 i hi)) $$ HU53
  ihave HU60 := (congr (F := F) (outR 6 0) cc fullShare ((outR 6 0).view.writes (Elt F) g60 [⟨Rect.whole S512x256, dev.sl.dma0_46 m⟩]) (out m cc) (fun i hi => glue_out' m cc 6 0 g60 i hi)) $$ HU60
  ihave HU61 := (congr (F := F) (outR 6 1) cc fullShare ((outR 6 1).view.writes (Elt F) g61 [⟨Rect.whole S512x256, dev.sl.dma0_47 m⟩]) (out m cc) (fun i hi => glue_out' m cc 6 1 g61 i hi)) $$ HU61
  ihave HU62 := (congr (F := F) (outR 6 2) cc fullShare ((outR 6 2).view.writes (Elt F) g62 [⟨Rect.whole S512x256, dev.sl.dma0_48 m⟩]) (out m cc) (fun i hi => glue_out' m cc 6 2 g62 i hi)) $$ HU62
  ihave HU63 := (congr (F := F) (outR 6 3) cc fullShare ((outR 6 3).view.writes (Elt F) g63 [⟨Rect.whole S512x256, dev.sl.dma0_49 m⟩]) (out m cc) (fun i hi => glue_out' m cc 6 3 g63 i hi)) $$ HU63
  ihave HU70 := (congr (F := F) (outR 7 0) cc fullShare ((outR 7 0).view.writes (Elt F) g70 [⟨Rect.whole S512x256, dev.sl.dma0_50 m⟩]) (out m cc) (fun i hi => glue_out' m cc 7 0 g70 i hi)) $$ HU70
  ihave HU71 := (congr (F := F) (outR 7 1) cc fullShare ((outR 7 1).view.writes (Elt F) g71 [⟨Rect.whole S512x256, dev.sl.dma0_51 m⟩]) (out m cc) (fun i hi => glue_out' m cc 7 1 g71 i hi)) $$ HU71
  ihave HU72 := (congr (F := F) (outR 7 2) cc fullShare ((outR 7 2).view.writes (Elt F) g72 [⟨Rect.whole S512x256, dev.sl.dma0_52 m⟩]) (out m cc) (fun i hi => glue_out' m cc 7 2 g72 i hi)) $$ HU72
  ihave HU73 := (congr (F := F) (outR 7 3) cc fullShare ((outR 7 3).view.writes (Elt F) g73 [⟨Rect.whole S512x256, dev.sl.dma0_53 m⟩]) (out m cc) (fun i hi => glue_out' m cc 7 3 g73 i hi)) $$ HU73
  sl_step
  iapply Hk
  unfold bodyPost
  isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7 Hz0 Hz1 Hz2 HzG3 HzFl3 HzFrb3 HzG4 HzFl4 HzFrb4 HzG5 HzFl5 HzFrb5 HzG6 HzFl6 HzFrb6 HzG7 HzFl7 HzFrb7 Hy0 Hy1 Hy2 HyG3 HyFlb3 HyFr3 HyG4 HyFlb4 HyFr4 HyG5 HyFlb5 HyFr5 HyG6 HyFlb6 HyFr6 HyG7 HyFlb7 HyFr7 Hdq0 Hdq1 Hdq2 Hd3 Hd4 Hd5 Hd6 Hd7]
  · iapply (Entails.of_eq (junk_whole (F := F) cc cc0_scratch0).symm)
    iapply (r4_back (F := F) cc)
    isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7]
    · isplitl [HoZb0 HoYb0 HoK0]
      · iapply (own_back (F := F) cc 0 (r4 m cc))
        isplitl [HoZb0]
        · iexact HoZb0
        isplitl [HoYb0]
        · iexact HoYb0
        iexact HoK0
      isplitl [HoZb1 HoYb1 HoK1]
      · iapply (own_back (F := F) cc 1 (r4 m cc))
        isplitl [HoZb1]
        · iexact HoZb1
        isplitl [HoYb1]
        · iexact HoYb1
        iexact HoK1
      isplitl [HoZb2 HoYb2 HoK2]
      · iapply (own_back (F := F) cc 2 (r4 m cc))
        isplitl [HoZb2]
        · iexact HoZb2
        isplitl [HoYb2]
        · iexact HoYb2
        iexact HoK2
      isplitl [HoZb3 HoYb3 HoK3]
      · iapply (own_back (F := F) cc 3 (r4 m cc))
        isplitl [HoZb3]
        · iexact HoZb3
        isplitl [HoYb3]
        · iexact HoYb3
        iexact HoK3
      isplitl [HoZb4 HoYb4 HoK4]
      · iapply (own_back (F := F) cc 4 (r4 m cc))
        isplitl [HoZb4]
        · iexact HoZb4
        isplitl [HoYb4]
        · iexact HoYb4
        iexact HoK4
      isplitl [HoZb5 HoYb5 HoK5]
      · iapply (own_back (F := F) cc 5 (r4 m cc))
        isplitl [HoZb5]
        · iexact HoZb5
        isplitl [HoYb5]
        · iexact HoYb5
        iexact HoK5
      isplitl [HoZb6 HoYb6 HoK6]
      · iapply (own_back (F := F) cc 6 (r4 m cc))
        isplitl [HoZb6]
        · iexact HoZb6
        isplitl [HoYb6]
        · iexact HoYb6
        iexact HoK6
      iapply (own_back (F := F) cc 7 (r4 m cc))
      isplitl [HoZb7]
      · iexact HoZb7
      isplitl [HoYb7]
      · iexact HoYb7
      iexact HoK7
    isplitl [Hz0 Hz1 Hz2 HzG3 HzFl3 HzFrb3 HzG4 HzFl4 HzFrb4 HzG5 HzFl5 HzFrb5 HzG6 HzFl6 HzFrb6 HzG7 HzFl7 HzFrb7]
    · isplitl [Hz0]
      · iexists _; iexact Hz0
      isplitl [Hz1]
      · iexists _; iexact Hz1
      isplitl [Hz2]
      · iexists _; iexact Hz2
      isplitl [HzG3 HzFl3 HzFrb3]
      · iapply (nbr_back (F := F) cc (zqF cc) 3 (r4 m cc))
        isplitl [HzG3]
        · iexact HzG3
        isplitl [HzFl3]
        · iexact HzFl3
        iexact HzFrb3
      isplitl [HzG4 HzFl4 HzFrb4]
      · iapply (nbr_back (F := F) cc (zqF cc) 4 (r4 m cc))
        isplitl [HzG4]
        · iexact HzG4
        isplitl [HzFl4]
        · iexact HzFl4
        iexact HzFrb4
      isplitl [HzG5 HzFl5 HzFrb5]
      · iapply (nbr_back (F := F) cc (zqF cc) 5 (r4 m cc))
        isplitl [HzG5]
        · iexact HzG5
        isplitl [HzFl5]
        · iexact HzFl5
        iexact HzFrb5
      isplitl [HzG6 HzFl6 HzFrb6]
      · iapply (nbr_back (F := F) cc (zqF cc) 6 (r4 m cc))
        isplitl [HzG6]
        · iexact HzG6
        isplitl [HzFl6]
        · iexact HzFl6
        iexact HzFrb6
      iapply (nbr_back (F := F) cc (zqF cc) 7 (r4 m cc))
      isplitl [HzG7]
      · iexact HzG7
      isplitl [HzFl7]
      · iexact HzFl7
      iexact HzFrb7
    isplitl [Hy0 Hy1 Hy2 HyG3 HyFlb3 HyFr3 HyG4 HyFlb4 HyFr4 HyG5 HyFlb5 HyFr5 HyG6 HyFlb6 HyFr6 HyG7 HyFlb7 HyFr7]
    · isplitl [Hy0]
      · iexists _; iexact Hy0
      isplitl [Hy1]
      · iexists _; iexact Hy1
      isplitl [Hy2]
      · iexists _; iexact Hy2
      isplitl [HyG3 HyFlb3 HyFr3]
      · iapply (nbr_back (F := F) cc (yqF cc) 3 (r4 m cc))
        isplitl [HyG3]
        · iexact HyG3
        isplitl [HyFlb3]
        · iexact HyFlb3
        iexact HyFr3
      isplitl [HyG4 HyFlb4 HyFr4]
      · iapply (nbr_back (F := F) cc (yqF cc) 4 (r4 m cc))
        isplitl [HyG4]
        · iexact HyG4
        isplitl [HyFlb4]
        · iexact HyFlb4
        iexact HyFr4
      isplitl [HyG5 HyFlb5 HyFr5]
      · iapply (nbr_back (F := F) cc (yqF cc) 5 (r4 m cc))
        isplitl [HyG5]
        · iexact HyG5
        isplitl [HyFlb5]
        · iexact HyFlb5
        iexact HyFr5
      isplitl [HyG6 HyFlb6 HyFr6]
      · iapply (nbr_back (F := F) cc (yqF cc) 6 (r4 m cc))
        isplitl [HyG6]
        · iexact HyG6
        isplitl [HyFlb6]
        · iexact HyFlb6
        iexact HyFr6
      iapply (nbr_back (F := F) cc (yqF cc) 7 (r4 m cc))
      isplitl [HyG7]
      · iexact HyG7
      isplitl [HyFlb7]
      · iexact HyFlb7
      iexact HyFr7
    isplitl [Hdq0 Hdq1 Hdq2]
    · isplitl [Hdq0]
      · iexists _; iexact Hdq0
      isplitl [Hdq1]
      · iexists _; iexact Hdq1
      iexists _; iexact Hdq2
    isplitl [Hd3]
    · iapply (dq_halves (F := F) cc 3 (r4 m cc))
      iexact Hd3
    isplitl [Hd4]
    · iapply (dq_halves (F := F) cc 4 (r4 m cc))
      iexact Hd4
    isplitl [Hd5]
    · iapply (dq_halves (F := F) cc 5 (r4 m cc))
      iexact Hd5
    isplitl [Hd6]
    · iapply (dq_halves (F := F) cc 6 (r4 m cc))
      iexact Hd6
    iapply (dq_halves (F := F) cc 7 (r4 m cc))
    iexact Hd7
  isplitl [HBs0 HBs1 HBs2 HBs3 HBs4 HBs5 HBs6 HBs7]
  · iapply (Entails.of_eq (junk_whole (F := F) cc cc0_scratch1).symm)
    iapply (sb_rows_join (F := F) cc)
    isplitl [HBs0]
    · iexists _; iexact HBs0
    isplitl [HBs1]
    · iexists _; iexact HBs1
    isplitl [HBs2]
    · iexists _; iexact HBs2
    isplitl [HBs3]
    · iexists _; iexact HBs3
    isplitl [HBs4]
    · iexists _; iexact HBs4
    isplitl [HBs5]
    · iexists _; iexact HBs5
    isplitl [HBs6]
    · iexists _; iexact HBs6
    iexists _; iexact HBs7
  isplitl [Hrb0 Hrb1 Hrb2 Hrb3 Hrb4 Hrb5 Hrb6 Hrb7]
  · iapply (Entails.of_eq (junk_whole (F := F) cc cc0_scratch2).symm)
    iapply (rb_rows_join (F := F) cc)
    isplitl [Hrb0]
    · iexists _; iexact Hrb0
    isplitl [Hrb1]
    · iexists _; iexact Hrb1
    isplitl [Hrb2]
    · iexists _; iexact Hrb2
    isplitl [Hrb3]
    · iexists _; iexact Hrb3
    isplitl [Hrb4]
    · iexists _; iexact Hrb4
    isplitl [Hrb5]
    · iexists _; iexact Hrb5
    isplitl [Hrb6]
    · iexists _; iexact Hrb6
    iexists _; iexact Hrb7
  isplitl [HB2s0 HB2s1 HB2s2]
  · iapply (Entails.of_eq (junk_whole (F := F) cc cc0_scratch3).symm)
    iapply (sb2_rows_join (F := F) cc)
    isplitl [HB2s0]
    · iexists _; iexact HB2s0
    isplitl [HB2s1]
    · iexists _; iexact HB2s1
    iexists _; iexact HB2s2
  isplitl [Hrb20 Hrb21 Hrb22]
  · iapply (Entails.of_eq (junk_whole (F := F) cc cc0_scratch4).symm)
    iapply (rb2_rows_join (F := F) cc)
    isplitl [Hrb20]
    · iexists _; iexact Hrb20
    isplitl [Hrb21]
    · iexists _; iexact Hrb21
    iexists _; iexact Hrb22
  isplitl [HP0 HP1 HP2 HP3 HP4 HP5 HP6 HP7]
  · iapply (Entails.of_eq (junk_whole (F := F) cc cc0_scratch5).symm)
    iapply (stP_rows_join (F := F) cc)
    isplitl [HP0]
    · iexists _; iexact HP0
    isplitl [HP1]
    · iexists _; iexact HP1
    isplitl [HP2]
    · iexists _; iexact HP2
    isplitl [HP3]
    · iexists _; iexact HP3
    isplitl [HP4]
    · iexists _; iexact HP4
    isplitl [HP5]
    · iexists _; iexact HP5
    isplitl [HP6]
    · iexists _; iexact HP6
    iexists _; iexact HP7
  isplitl [HL0 HL1 HL2 HL3 HL4 HL5 HL6 HL7]
  · iapply (Entails.of_eq (junk_whole (F := F) cc cc0_scratch6).symm)
    iapply (stL_rows_join (F := F) cc)
    isplitl [HL0]
    · iexists _; iexact HL0
    isplitl [HL1]
    · iexists _; iexact HL1
    isplitl [HL2]
    · iexists _; iexact HL2
    isplitl [HL3]
    · iexists _; iexact HL3
    isplitl [HL4]
    · iexists _; iexact HL4
    isplitl [HL5]
    · iexists _; iexact HL5
    isplitl [HL6]
    · iexists _; iexact HL6
    iexists _; iexact HL7
  isplitl [HP20 HP21 HP22]
  · iapply (Entails.of_eq (junk_whole (F := F) cc cc0_scratch7).symm)
    iapply (stP2_rows_join (F := F) cc)
    isplitl [HP20]
    · iexists _; iexact HP20
    isplitl [HP21]
    · iexists _; iexact HP21
    iexists _; iexact HP22
  isplitl [HL20 HL21 HL22]
  · iapply (Entails.of_eq (junk_whole (F := F) cc cc0_scratch8).symm)
    iapply (stL2_rows_join (F := F) cc)
    isplitl [HL20]
    · iexists _; iexact HL20
    isplitl [HL21]
    · iexists _; iexact HL21
    iexists _; iexact HL22
  isplitl [HX]
  · iexact HX
  isplitl [HU00 HU01 HU02 HU03 HU10 HU11 HU12 HU13 HU20 HU21 HU22 HU23 HU30 HU31 HU32 HU33 HU40 HU41 HU42 HU43 HU50 HU51 HU52 HU53 HU60 HU61 HU62 HU63 HU70 HU71 HU72 HU73]
  · iapply (out_join (F := F) cc (out m cc))
    isplitl [HU00]
    · iexact HU00
    isplitl [HU01]
    · iexact HU01
    isplitl [HU02]
    · iexact HU02
    isplitl [HU03]
    · iexact HU03
    isplitl [HU10]
    · iexact HU10
    isplitl [HU11]
    · iexact HU11
    isplitl [HU12]
    · iexact HU12
    isplitl [HU13]
    · iexact HU13
    isplitl [HU20]
    · iexact HU20
    isplitl [HU21]
    · iexact HU21
    isplitl [HU22]
    · iexact HU22
    isplitl [HU23]
    · iexact HU23
    isplitl [HU30]
    · iexact HU30
    isplitl [HU31]
    · iexact HU31
    isplitl [HU32]
    · iexact HU32
    isplitl [HU33]
    · iexact HU33
    isplitl [HU40]
    · iexact HU40
    isplitl [HU41]
    · iexact HU41
    isplitl [HU42]
    · iexact HU42
    isplitl [HU43]
    · iexact HU43
    isplitl [HU50]
    · iexact HU50
    isplitl [HU51]
    · iexact HU51
    isplitl [HU52]
    · iexact HU52
    isplitl [HU53]
    · iexact HU53
    isplitl [HU60]
    · iexact HU60
    isplitl [HU61]
    · iexact HU61
    isplitl [HU62]
    · iexact HU62
    isplitl [HU63]
    · iexact HU63
    isplitl [HU70]
    · iexact HU70
    isplitl [HU71]
    · iexact HU71
    isplitl [HU72]
    · iexact HU72
    iexact HU73
  isplitl [Hv0 Hv1 Hv2 Hv3 Hv4 Hv5 Hv6 Hv7 Hv8 Hv9 Hv10 Hv11 Hv12 Hv13 Hv14 Hv15 Hv16 Hv17 Hv18 Hv19 Hv20 Hv21 Hv22 Hv23 Hv24 Hv25 Hv26 Hv27 Hv28 Hv29 Hv30 Hv31 Hv32 Hv33 Hv34 Hv35 Hv36 Hv37 Hv38 Hv39 Hv40 Hv41 Hv42 Hv43 Hv44 Hv45 Hv46 Hv47 Hv48 Hv49 Hv50 Hv51 Hv52 Hv53 Hv54 Hv55 Hv56 Hv57 Hv58 Hv59 Hv60 Hv61 Hv62 Hv63 Hv64 Hv65 Hv66 Hv67 Hv68 Hv69 Hv70 Hv71 Hv72 Hv73 Hv74 Hv75 Hu76 Hu77 Hu78 Hv79 Hv80 Hv81 Hv82 Hv83 Hu84 Hu85 Hu86 Hv87 Hv88 Hv89 Hv90 Hv91 Hu92 Hu93 Hu94 Hv95 Hv96 Hv97 Hv98 Hv99 Hu100 Hu101 Hu102 Hv103 Hv104 Hv105 Hv106 Hv107 Hw0a Hw0b Hw0c Hw0d Hw1a Hw1b Hw1c Hw1d Hw2a Hw2b Hw2c Hw2d Hw3a Hw3b Hw3c Hw3d Hw4a Hw4b Hw4c Hw4d Hw5a Hw5b Hw5c Hw5d Hw6a Hw6b Hw6c Hw6d Hw7a Hw7b Hw7c Hw7d]
  · iapply (Entails.of_eq (show (iprop(semVal (cellAt cc (⟨0, Nat.le_of_ble_eq_true rfl⟩ : Fin 140)) 0 ∗ semVal (cellAt cc (⟨1, Nat.le_of_ble_eq_true rfl⟩ : Fin 140)) 0 ∗ semVal (cellAt cc (⟨2, Nat.le_of_ble_eq_true rfl⟩ : Fin 140)) 0 ∗ semVal (cellAt cc (⟨3, Nat.le_of_ble_eq_true rfl⟩ : Fin 140)) 0 ∗ semVal (cellAt cc (⟨4, Nat.le_of_ble_eq_true rfl⟩ : Fin 140)) 0 ∗ semVal (cellAt cc (⟨5, Nat.le_of_ble_eq_true rfl⟩ : Fin 140)) 0 ∗ semVal (cellAt cc (⟨6, Nat.le_of_ble_eq_true rfl⟩ : Fin 140)) 0 ∗ semVal (cellAt cc (⟨7, Nat.le_of_ble_eq_true rfl⟩ : Fin 140)) 0 ∗ semVal (cellAt cc (⟨8, Nat.le_of_ble_eq_true rfl⟩ : Fin 140)) 0 ∗ semVal (cellAt cc (⟨9, Nat.le_of_ble_eq_true rfl⟩ : Fin 140)) 0 ∗ semVal (cellAt cc (⟨10, Nat.le_of_ble_eq_true rfl⟩ : Fin 140)) 0 ∗ semVal (cellAt cc (⟨11, Nat.le_of_ble_eq_true rfl⟩ : Fin 140)) 0 ∗ semVal (cellAt cc (⟨12, Nat.le_of_ble_eq_true rfl⟩ : Fin 140)) 0 ∗ semVal (cellAt cc (⟨13, Nat.le_of_ble_eq_true rfl⟩ : Fin 140)) 0 ∗ semVal (cellAt cc (⟨14, Nat.le_of_ble_eq_true rfl⟩ : Fin 140)) 0 ∗ semVal (cellAt cc (⟨15, Nat.le_of_ble_eq_true rfl⟩ : Fin 140)) 0 ∗ semVal (cellAt cc (⟨16, Nat.le_of_ble_eq_true rfl⟩ : Fin 140)) 0 ∗ semVal (cellAt cc (⟨17, Nat.le_of_ble_eq_true rfl⟩ : Fin 140)) 0 ∗ semVal (cellAt cc (⟨18, Nat.le_of_ble_eq_true rfl⟩ : Fin 140)) 0 ∗ semVal (cellAt cc (⟨19, Nat.le_of_ble_eq_true rfl⟩ : Fin 140)) 0 ∗ semVal (cellAt cc (⟨20, Nat.le_of_ble_eq_true rfl⟩ : Fin 140)) 0 ∗ semVal (cellAt cc (⟨21, Nat.le_of_ble_eq_true rfl⟩ : Fin 140)) 0 ∗ semVal (cellAt cc (⟨22, Nat.le_of_ble_eq_true rfl⟩ : Fin 140)) 0 ∗ semVal (cellAt cc (⟨23, Nat.le_of_ble_eq_true rfl⟩ : Fin 140)) 0 ∗ semVal (cellAt cc (⟨24, Nat.le_of_ble_eq_true rfl⟩ : Fin 140)) 0 ∗ semVal (cellAt cc (⟨25, Nat.le_of_ble_eq_true rfl⟩ : Fin 140)) 0 ∗ semVal (cellAt cc (⟨26, Nat.le_of_ble_eq_true rfl⟩ : Fin 140)) 0 ∗ semVal (cellAt cc (⟨27, Nat.le_of_ble_eq_true rfl⟩ : Fin 140)) 0 ∗ semVal (cellAt cc (⟨28, Nat.le_of_ble_eq_true rfl⟩ : Fin 140)) 0 ∗ semVal (cellAt cc (⟨29, Nat.le_of_ble_eq_true rfl⟩ : Fin 140)) 0 ∗ semVal (cellAt cc (⟨30, Nat.le_of_ble_eq_true rfl⟩ : Fin 140)) 0 ∗ semVal (cellAt cc (⟨31, Nat.le_of_ble_eq_true rfl⟩ : Fin 140)) 0 ∗ semVal (cellAt cc (⟨32, Nat.le_of_ble_eq_true rfl⟩ : Fin 140)) 0 ∗ semVal (cellAt cc (⟨33, Nat.le_of_ble_eq_true rfl⟩ : Fin 140)) 0 ∗ semVal (cellAt cc (⟨34, Nat.le_of_ble_eq_true rfl⟩ : Fin 140)) 0 ∗ semVal (cellAt cc (⟨35, Nat.le_of_ble_eq_true rfl⟩ : Fin 140)) 0 ∗ semVal (cellAt cc (⟨36, Nat.le_of_ble_eq_true rfl⟩ : Fin 140)) 0 ∗ semVal (cellAt cc (⟨37, Nat.le_of_ble_eq_true rfl⟩ : Fin 140)) 0 ∗ semVal (cellAt cc (⟨38, Nat.le_of_ble_eq_true rfl⟩ : Fin 140)) 0 ∗ semVal (cellAt cc (⟨39, Nat.le_of_ble_eq_true rfl⟩ : Fin 140)) 0 ∗ semVal (cellAt cc (⟨40, Nat.le_of_ble_eq_true rfl⟩ : Fin 140)) 0 ∗ semVal (cellAt cc (⟨41, Nat.le_of_ble_eq_true rfl⟩ : Fin 140)) 0 ∗ semVal (cellAt cc (⟨42, Nat.le_of_ble_eq_true rfl⟩ : Fin 140)) 0 ∗ semVal (cellAt cc (⟨43, Nat.le_of_ble_eq_true rfl⟩ : Fin 140)) 0 ∗ semVal (cellAt cc (⟨44, Nat.le_of_ble_eq_true rfl⟩ : Fin 140)) 0 ∗ semVal (cellAt cc (⟨45, Nat.le_of_ble_eq_true rfl⟩ : Fin 140)) 0 ∗ semVal (cellAt cc (⟨46, Nat.le_of_ble_eq_true rfl⟩ : Fin 140)) 0 ∗ semVal (cellAt cc (⟨47, Nat.le_of_ble_eq_true rfl⟩ : Fin 140)) 0 ∗ semVal (cellAt cc (⟨48, Nat.le_of_ble_eq_true rfl⟩ : Fin 140)) 0 ∗ semVal (cellAt cc (⟨49, Nat.le_of_ble_eq_true rfl⟩ : Fin 140)) 0 ∗ semVal (cellAt cc (⟨50, Nat.le_of_ble_eq_true rfl⟩ : Fin 140)) 0 ∗ semVal (cellAt cc (⟨51, Nat.le_of_ble_eq_true rfl⟩ : Fin 140)) 0 ∗ semVal (cellAt cc (⟨52, Nat.le_of_ble_eq_true rfl⟩ : Fin 140)) 0 ∗ semVal (cellAt cc (⟨53, Nat.le_of_ble_eq_true rfl⟩ : Fin 140)) 0 ∗ semVal (cellAt cc (⟨54, Nat.le_of_ble_eq_true rfl⟩ : Fin 140)) 0 ∗ semVal (cellAt cc (⟨55, Nat.le_of_ble_eq_true rfl⟩ : Fin 140)) 0 ∗ semVal (cellAt cc (⟨56, Nat.le_of_ble_eq_true rfl⟩ : Fin 140)) 0 ∗ semVal (cellAt cc (⟨57, Nat.le_of_ble_eq_true rfl⟩ : Fin 140)) 0 ∗ semVal (cellAt cc (⟨58, Nat.le_of_ble_eq_true rfl⟩ : Fin 140)) 0 ∗ semVal (cellAt cc (⟨59, Nat.le_of_ble_eq_true rfl⟩ : Fin 140)) 0 ∗ semVal (cellAt cc (⟨60, Nat.le_of_ble_eq_true rfl⟩ : Fin 140)) 0 ∗ semVal (cellAt cc (⟨61, Nat.le_of_ble_eq_true rfl⟩ : Fin 140)) 0 ∗ semVal (cellAt cc (⟨62, Nat.le_of_ble_eq_true rfl⟩ : Fin 140)) 0 ∗ semVal (cellAt cc (⟨63, Nat.le_of_ble_eq_true rfl⟩ : Fin 140)) 0 ∗ semVal (cellAt cc (⟨64, Nat.le_of_ble_eq_true rfl⟩ : Fin 140)) 0 ∗ semVal (cellAt cc (⟨65, Nat.le_of_ble_eq_true rfl⟩ : Fin 140)) 0 ∗ semVal (cellAt cc (⟨66, Nat.le_of_ble_eq_true rfl⟩ : Fin 140)) 0 ∗ semVal (cellAt cc (⟨67, Nat.le_of_ble_eq_true rfl⟩ : Fin 140)) 0 ∗ semVal (cellAt cc (⟨68, Nat.le_of_ble_eq_true rfl⟩ : Fin 140)) 0 ∗ semVal (cellAt cc (⟨69, Nat.le_of_ble_eq_true rfl⟩ : Fin 140)) 0 ∗ semVal (cellAt cc (⟨70, Nat.le_of_ble_eq_true rfl⟩ : Fin 140)) 0 ∗ semVal (cellAt cc (⟨71, Nat.le_of_ble_eq_true rfl⟩ : Fin 140)) 0 ∗ semVal (cellAt cc (⟨72, Nat.le_of_ble_eq_true rfl⟩ : Fin 140)) 0 ∗ semVal (cellAt cc (⟨73, Nat.le_of_ble_eq_true rfl⟩ : Fin 140)) 0 ∗ semVal (cellAt cc (⟨74, Nat.le_of_ble_eq_true rfl⟩ : Fin 140)) 0 ∗ semVal (cellAt cc (⟨75, Nat.le_of_ble_eq_true rfl⟩ : Fin 140)) 0 ∗ semVal (cellAt cc (⟨76, Nat.le_of_ble_eq_true rfl⟩ : Fin 140)) 0 ∗ semVal (cellAt cc (⟨77, Nat.le_of_ble_eq_true rfl⟩ : Fin 140)) 0 ∗ semVal (cellAt cc (⟨78, Nat.le_of_ble_eq_true rfl⟩ : Fin 140)) 0 ∗ semVal (cellAt cc (⟨79, Nat.le_of_ble_eq_true rfl⟩ : Fin 140)) 0 ∗ semVal (cellAt cc (⟨80, Nat.le_of_ble_eq_true rfl⟩ : Fin 140)) 0 ∗ semVal (cellAt cc (⟨81, Nat.le_of_ble_eq_true rfl⟩ : Fin 140)) 0 ∗ semVal (cellAt cc (⟨82, Nat.le_of_ble_eq_true rfl⟩ : Fin 140)) 0 ∗ semVal (cellAt cc (⟨83, Nat.le_of_ble_eq_true rfl⟩ : Fin 140)) 0 ∗ semVal (cellAt cc (⟨84, Nat.le_of_ble_eq_true rfl⟩ : Fin 140)) 0 ∗ semVal (cellAt cc (⟨85, Nat.le_of_ble_eq_true rfl⟩ : Fin 140)) 0 ∗ semVal (cellAt cc (⟨86, Nat.le_of_ble_eq_true rfl⟩ : Fin 140)) 0 ∗ semVal (cellAt cc (⟨87, Nat.le_of_ble_eq_true rfl⟩ : Fin 140)) 0 ∗ semVal (cellAt cc (⟨88, Nat.le_of_ble_eq_true rfl⟩ : Fin 140)) 0 ∗ semVal (cellAt cc (⟨89, Nat.le_of_ble_eq_true rfl⟩ : Fin 140)) 0 ∗ semVal (cellAt cc (⟨90, Nat.le_of_ble_eq_true rfl⟩ : Fin 140)) 0 ∗ semVal (cellAt cc (⟨91, Nat.le_of_ble_eq_true rfl⟩ : Fin 140)) 0 ∗ semVal (cellAt cc (⟨92, Nat.le_of_ble_eq_true rfl⟩ : Fin 140)) 0 ∗ semVal (cellAt cc (⟨93, Nat.le_of_ble_eq_true rfl⟩ : Fin 140)) 0 ∗ semVal (cellAt cc (⟨94, Nat.le_of_ble_eq_true rfl⟩ : Fin 140)) 0 ∗ semVal (cellAt cc (⟨95, Nat.le_of_ble_eq_true rfl⟩ : Fin 140)) 0 ∗ semVal (cellAt cc (⟨96, Nat.le_of_ble_eq_true rfl⟩ : Fin 140)) 0 ∗ semVal (cellAt cc (⟨97, Nat.le_of_ble_eq_true rfl⟩ : Fin 140)) 0 ∗ semVal (cellAt cc (⟨98, Nat.le_of_ble_eq_true rfl⟩ : Fin 140)) 0 ∗ semVal (cellAt cc (⟨99, Nat.le_of_ble_eq_true rfl⟩ : Fin 140)) 0 ∗ semVal (cellAt cc (⟨100, Nat.le_of_ble_eq_true rfl⟩ : Fin 140)) 0 ∗ semVal (cellAt cc (⟨101, Nat.le_of_ble_eq_true rfl⟩ : Fin 140)) 0 ∗ semVal (cellAt cc (⟨102, Nat.le_of_ble_eq_true rfl⟩ : Fin 140)) 0 ∗ semVal (cellAt cc (⟨103, Nat.le_of_ble_eq_true rfl⟩ : Fin 140)) 0 ∗ semVal (cellAt cc (⟨104, Nat.le_of_ble_eq_true rfl⟩ : Fin 140)) 0 ∗ semVal (cellAt cc (⟨105, Nat.le_of_ble_eq_true rfl⟩ : Fin 140)) 0 ∗ semVal (cellAt cc (⟨106, Nat.le_of_ble_eq_true rfl⟩ : Fin 140)) 0 ∗ semVal (cellAt cc (⟨107, Nat.le_of_ble_eq_true rfl⟩ : Fin 140)) 0 ∗ semVal (cellAt cc (⟨108, Nat.le_of_ble_eq_true rfl⟩ : Fin 140)) 0 ∗ semVal (cellAt cc (⟨109, Nat.le_of_ble_eq_true rfl⟩ : Fin 140)) 0 ∗ semVal (cellAt cc (⟨110, Nat.le_of_ble_eq_true rfl⟩ : Fin 140)) 0 ∗ semVal (cellAt cc (⟨111, Nat.le_of_ble_eq_true rfl⟩ : Fin 140)) 0 ∗ semVal (cellAt cc (⟨112, Nat.le_of_ble_eq_true rfl⟩ : Fin 140)) 0 ∗ semVal (cellAt cc (⟨113, Nat.le_of_ble_eq_true rfl⟩ : Fin 140)) 0 ∗ semVal (cellAt cc (⟨114, Nat.le_of_ble_eq_true rfl⟩ : Fin 140)) 0 ∗ semVal (cellAt cc (⟨115, Nat.le_of_ble_eq_true rfl⟩ : Fin 140)) 0 ∗ semVal (cellAt cc (⟨116, Nat.le_of_ble_eq_true rfl⟩ : Fin 140)) 0 ∗ semVal (cellAt cc (⟨117, Nat.le_of_ble_eq_true rfl⟩ : Fin 140)) 0 ∗ semVal (cellAt cc (⟨118, Nat.le_of_ble_eq_true rfl⟩ : Fin 140)) 0 ∗ semVal (cellAt cc (⟨119, Nat.le_of_ble_eq_true rfl⟩ : Fin 140)) 0 ∗ semVal (cellAt cc (⟨120, Nat.le_of_ble_eq_true rfl⟩ : Fin 140)) 0 ∗ semVal (cellAt cc (⟨121, Nat.le_of_ble_eq_true rfl⟩ : Fin 140)) 0 ∗ semVal (cellAt cc (⟨122, Nat.le_of_ble_eq_true rfl⟩ : Fin 140)) 0 ∗ semVal (cellAt cc (⟨123, Nat.le_of_ble_eq_true rfl⟩ : Fin 140)) 0 ∗ semVal (cellAt cc (⟨124, Nat.le_of_ble_eq_true rfl⟩ : Fin 140)) 0 ∗ semVal (cellAt cc (⟨125, Nat.le_of_ble_eq_true rfl⟩ : Fin 140)) 0 ∗ semVal (cellAt cc (⟨126, Nat.le_of_ble_eq_true rfl⟩ : Fin 140)) 0 ∗ semVal (cellAt cc (⟨127, Nat.le_of_ble_eq_true rfl⟩ : Fin 140)) 0 ∗ semVal (cellAt cc (⟨128, Nat.le_of_ble_eq_true rfl⟩ : Fin 140)) 0 ∗ semVal (cellAt cc (⟨129, Nat.le_of_ble_eq_true rfl⟩ : Fin 140)) 0 ∗ semVal (cellAt cc (⟨130, Nat.le_of_ble_eq_true rfl⟩ : Fin 140)) 0 ∗ semVal (cellAt cc (⟨131, Nat.le_of_ble_eq_true rfl⟩ : Fin 140)) 0 ∗ semVal (cellAt cc (⟨132, Nat.le_of_ble_eq_true rfl⟩ : Fin 140)) 0 ∗ semVal (cellAt cc (⟨133, Nat.le_of_ble_eq_true rfl⟩ : Fin 140)) 0 ∗ semVal (cellAt cc (⟨134, Nat.le_of_ble_eq_true rfl⟩ : Fin 140)) 0 ∗ semVal (cellAt cc (⟨135, Nat.le_of_ble_eq_true rfl⟩ : Fin 140)) 0 ∗ semVal (cellAt cc (⟨136, Nat.le_of_ble_eq_true rfl⟩ : Fin 140)) 0 ∗ semVal (cellAt cc (⟨137, Nat.le_of_ble_eq_true rfl⟩ : Fin 140)) 0 ∗ semVal (cellAt cc (⟨138, Nat.le_of_ble_eq_true rfl⟩ : Fin 140)) 0 ∗ semVal (cellAt cc (⟨139, Nat.le_of_ble_eq_true rfl⟩ : Fin 140)) 0) : sProp 𝕄) = (bigSepL allJ fun j => semVal (cellAt cc j) 0) from rfl))
    isplitl [Hv0]
    · iexact Hv0
    isplitl [Hv1]
    · iexact Hv1
    isplitl [Hv2]
    · iexact Hv2
    isplitl [Hv3]
    · iexact Hv3
    isplitl [Hv4]
    · iexact Hv4
    isplitl [Hv5]
    · iexact Hv5
    isplitl [Hv6]
    · iexact Hv6
    isplitl [Hv7]
    · iexact Hv7
    isplitl [Hv8]
    · iexact Hv8
    isplitl [Hv9]
    · iexact Hv9
    isplitl [Hv10]
    · iexact Hv10
    isplitl [Hv11]
    · iexact Hv11
    isplitl [Hv12]
    · iexact Hv12
    isplitl [Hv13]
    · iexact Hv13
    isplitl [Hv14]
    · iexact Hv14
    isplitl [Hv15]
    · iexact Hv15
    isplitl [Hv16]
    · iexact Hv16
    isplitl [Hv17]
    · iexact Hv17
    isplitl [Hv18]
    · iexact Hv18
    isplitl [Hv19]
    · iexact Hv19
    isplitl [Hv20]
    · iexact Hv20
    isplitl [Hv21]
    · iexact Hv21
    isplitl [Hv22]
    · iexact Hv22
    isplitl [Hv23]
    · iexact Hv23
    isplitl [Hv24]
    · iexact Hv24
    isplitl [Hv25]
    · iexact Hv25
    isplitl [Hv26]
    · iexact Hv26
    isplitl [Hv27]
    · iexact Hv27
    isplitl [Hv28]
    · iexact Hv28
    isplitl [Hv29]
    · iexact Hv29
    isplitl [Hv30]
    · iexact Hv30
    isplitl [Hv31]
    · iexact Hv31
    isplitl [Hv32]
    · iexact Hv32
    isplitl [Hv33]
    · iexact Hv33
    isplitl [Hv34]
    · iexact Hv34
    isplitl [Hv35]
    · iexact Hv35
    isplitl [Hv36]
    · iexact Hv36
    isplitl [Hv37]
    · iexact Hv37
    isplitl [Hv38]
    · iexact Hv38
    isplitl [Hv39]
    · iexact Hv39
    isplitl [Hv40]
    · iexact Hv40
    isplitl [Hv41]
    · iexact Hv41
    isplitl [Hv42]
    · iexact Hv42
    isplitl [Hv43]
    · iexact Hv43
    isplitl [Hv44]
    · iexact Hv44
    isplitl [Hv45]
    · iexact Hv45
    isplitl [Hv46]
    · iexact Hv46
    isplitl [Hv47]
    · iexact Hv47
    isplitl [Hv48]
    · iexact Hv48
    isplitl [Hv49]
    · iexact Hv49
    isplitl [Hv50]
    · iexact Hv50
    isplitl [Hv51]
    · iexact Hv51
    isplitl [Hv52]
    · iexact Hv52
    isplitl [Hv53]
    · iexact Hv53
    isplitl [Hv54]
    · iexact Hv54
    isplitl [Hv55]
    · iexact Hv55
    isplitl [Hv56]
    · iexact Hv56
    isplitl [Hv57]
    · iexact Hv57
    isplitl [Hv58]
    · iexact Hv58
    isplitl [Hv59]
    · iexact Hv59
    isplitl [Hv60]
    · iexact Hv60
    isplitl [Hv61]
    · iexact Hv61
    isplitl [Hv62]
    · iexact Hv62
    isplitl [Hv63]
    · iexact Hv63
    isplitl [Hv64]
    · iexact Hv64
    isplitl [Hv65]
    · iexact Hv65
    isplitl [Hv66]
    · iexact Hv66
    isplitl [Hv67]
    · iexact Hv67
    isplitl [Hv68]
    · iexact Hv68
    isplitl [Hv69]
    · iexact Hv69
    isplitl [Hv70]
    · iexact Hv70
    isplitl [Hv71]
    · iexact Hv71
    isplitl [Hv72]
    · iexact Hv72
    isplitl [Hv73]
    · iexact Hv73
    isplitl [Hv74]
    · iexact Hv74
    isplitl [Hv75]
    · iexact Hv75
    isplitl [Hu76]
    · iexact Hu76
    isplitl [Hu77]
    · iexact Hu77
    isplitl [Hu78]
    · iexact Hu78
    isplitl [Hv79]
    · iexact Hv79
    isplitl [Hv80]
    · iexact Hv80
    isplitl [Hv81]
    · iexact Hv81
    isplitl [Hv82]
    · iexact Hv82
    isplitl [Hv83]
    · iexact Hv83
    isplitl [Hu84]
    · iexact Hu84
    isplitl [Hu85]
    · iexact Hu85
    isplitl [Hu86]
    · iexact Hu86
    isplitl [Hv87]
    · iexact Hv87
    isplitl [Hv88]
    · iexact Hv88
    isplitl [Hv89]
    · iexact Hv89
    isplitl [Hv90]
    · iexact Hv90
    isplitl [Hv91]
    · iexact Hv91
    isplitl [Hu92]
    · iexact Hu92
    isplitl [Hu93]
    · iexact Hu93
    isplitl [Hu94]
    · iexact Hu94
    isplitl [Hv95]
    · iexact Hv95
    isplitl [Hv96]
    · iexact Hv96
    isplitl [Hv97]
    · iexact Hv97
    isplitl [Hv98]
    · iexact Hv98
    isplitl [Hv99]
    · iexact Hv99
    isplitl [Hu100]
    · iexact Hu100
    isplitl [Hu101]
    · iexact Hu101
    isplitl [Hu102]
    · iexact Hu102
    isplitl [Hv103]
    · iexact Hv103
    isplitl [Hv104]
    · iexact Hv104
    isplitl [Hv105]
    · iexact Hv105
    isplitl [Hv106]
    · iexact Hv106
    isplitl [Hv107]
    · iexact Hv107
    isplitl [Hw0a]
    · iexact Hw0a
    isplitl [Hw0b]
    · iexact Hw0b
    isplitl [Hw0c]
    · iexact Hw0c
    isplitl [Hw0d]
    · iexact Hw0d
    isplitl [Hw1a]
    · iexact Hw1a
    isplitl [Hw1b]
    · iexact Hw1b
    isplitl [Hw1c]
    · iexact Hw1c
    isplitl [Hw1d]
    · iexact Hw1d
    isplitl [Hw2a]
    · iexact Hw2a
    isplitl [Hw2b]
    · iexact Hw2b
    isplitl [Hw2c]
    · iexact Hw2c
    isplitl [Hw2d]
    · iexact Hw2d
    isplitl [Hw3a]
    · iexact Hw3a
    isplitl [Hw3b]
    · iexact Hw3b
    isplitl [Hw3c]
    · iexact Hw3c
    isplitl [Hw3d]
    · iexact Hw3d
    isplitl [Hw4a]
    · iexact Hw4a
    isplitl [Hw4b]
    · iexact Hw4b
    isplitl [Hw4c]
    · iexact Hw4c
    isplitl [Hw4d]
    · iexact Hw4d
    isplitl [Hw5a]
    · iexact Hw5a
    isplitl [Hw5b]
    · iexact Hw5b
    isplitl [Hw5c]
    · iexact Hw5c
    isplitl [Hw5d]
    · iexact Hw5d
    isplitl [Hw6a]
    · iexact Hw6a
    isplitl [Hw6b]
    · iexact Hw6b
    isplitl [Hw6c]
    · iexact Hw6c
    isplitl [Hw6d]
    · iexact Hw6d
    isplitl [Hw7a]
    · iexact Hw7a
    isplitl [Hw7b]
    · iexact Hw7b
    isplitl [Hw7c]
    · iexact Hw7c
    iexact Hw7d
  iexists _; iexact HO

end Cert.KernelIdeal.RS.D6

end
-- ==== Proof.Body7.lean ====
import proofs.«901022_g7700000000001023_dist_rs_v7x_xyz2x2x2_x_m4096_n1024_bf16_1_alg».proof.Proof.BodyAux
import proofs.«901022_g7700000000001023_dist_rs_v7x_xyz2x2x2_x_m4096_n1024_bf16_1_alg».proof.Proof.BodyPre
import proofs.«901022_g7700000000001023_dist_rs_v7x_xyz2x2x2_x_m4096_n1024_bf16_1_alg».proof.Proof.OutRules

/-! The body of the kernel on device 7 of the mesh, from its precondition (BodyPre) to its postcondition (bodyPost).

    The program is straight-line code of 4045 statements. Its local steps — the 54 copies between the input, the staging
    buffers, the four-quarter buffer and the result, their waits, the loads and the stores — are run by the library's symbolic
    executor on hypotheses that hold each 512-row chunk through the slice the program itself names. Its remote steps are
    taken by the rounds library's rules, one application each: three barrier signals and the wait for the three
    neighbours; 37 copies to a neighbour, each lending the source chunk (at a share, where the chunk is also read by another
    copy) and landing the chunk's final contents; the waits on the 37 receive cells, which hand back the landed chunks; the
    final waits on the 37 send cells, which hand back what was lent. Whenever a chunk has been written (by a landing copy or
    by a store) it is restated as "holds its final contents" (Spec), which is what the next copy's payload asks for.
    A wait is allowed because whatever the device still owes at that point lies above the awaited cell (Owed): decided on the
    list of payments not yet made. At the end every cell has had its one round and is closed, and the pieces of every
    buffer are put back. -/

set_option maxRecDepth 8000

noncomputable section

namespace Cert.KernelIdeal.RS.D7

open Cert.KernelIdeal Cert.KernelIdeal.Gen Cert.KernelIdeal.RS
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local notation "cc" => (Fin.mk 7 (Nat.le_of_ble_eq_true rfl) : Dev nD)

set_option maxHeartbeats 1600000 in
theorem dev (m : (ℓ : Loc nD τ sig) → Buf (Elt F) ℓ) (K : GSem nD τ sig → ℕ) (W : Waits sig Unit) (Kt : PUnit → sProp 𝕄) :
    iprop(bodyPre m K cc W ∗ (bodyPost m cc -∗ Kt ⟨⟩))
      ⊢ wp frame (wpE (defs₀ (F := F)) 𝒱₀ (cc : Thread nD τ) none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25) Kt := by
  unfold bodyPre O₀
  iintro ⟨⟨HIt, HIw, HRt, #Hlev, HO, Hcr, HpR, HpS, Htk, HX, Hout, HS0, HS1, HS2, HS3, HS4, HS5, HS6, HS7, HS8, HvI, HvO, HvU⟩, Hk⟩
  rw [cc0_body_eq_skeleton]; unfold cc0_body_skel
  -- the four-quarter buffer in the pieces that travel
  ihave H0 := (Entails.of_eq (junk_whole (F := F) cc cc0_scratch0)) $$ HS0
  icases H0 with ⟨%f0, H0⟩
  ihave H4 := (r4_entry (F := F) cc f0) $$ H0
  icases H4 with ⟨Hown, HgZ, HgY, Hdg, HhZ, HhY⟩
  sl_exec

  icases Htk with ⟨Htb, Htk⟩
  icases HIt with ⟨#HIbpx, HIt⟩
  icases HRt with ⟨#HRbpx, HRt⟩
  iapply (sig_bar m cc _ (px cc) (dev1_eq cc) 0 (by decide) (owedL (List.drop 1 (paysL cc))) rfl) $$ [HO Htb HS2 HS4]
  · isplitr; · iexact HIbpx
    isplitl [HO]; · iexact HO
    isplitl [Htb]; · iexact Htb
    isplitl [HS2 HS4]
    · iapply (Entails.of_eq ((barPay_zero (F := F) (px cc)).trans (by rw [px_px])).symm)
      unfold giveX
      isplitl [HS2]; · iexact HS2
      iexact HS4
    · iexact HRbpx
  iintro HO
  sl_exec

  icases Htk with ⟨Htb, Htk⟩
  icases HIt with ⟨#HIbpz, HIt⟩
  icases HRt with ⟨#HRbpz, HRt⟩
  iapply (sig_bar m cc _ (pz cc) (dev2_eq cc) 2 (by decide) (owedL (List.drop 2 (paysL cc))) rfl) $$ [HO Htb HgZ HhZ]
  · isplitr; · iexact HIbpz
    isplitl [HO]; · iexact HO
    isplitl [Htb]; · iexact Htb
    isplitl [HgZ HhZ]
    · iapply (Entails.of_eq ((barPay_two (F := F) (pz cc)).trans (by rw [pz_pz])).symm)
      isplitl [HgZ]; · iexact HgZ
      iexact HhZ
    · iexact HRbpz
  iintro HO
  sl_exec

  icases Htk with ⟨Htb, Htk⟩
  icases HIt with ⟨#HIbpy, HIt⟩
  icases HRt with ⟨#HRbpy, HRt⟩
  iapply (sig_bar m cc _ (py cc) (dev3_eq cc) 1 (by decide) (owedL (List.drop 3 (paysL cc))) rfl) $$ [HO Htb HgY HhY]
  · isplitr; · iexact HIbpy
    isplitl [HO]; · iexact HO
    isplitl [Htb]; · iexact Htb
    isplitl [HgY HhY]
    · iapply (Entails.of_eq ((barPay_one (F := F) (py cc)).trans (by rw [py_py])).symm)
      isplitl [HgY]; · iexact HgY
      iexact HhY
    · iexact HRbpy
  iintro HO
  sl_exec
  -- the wait for the three neighbours
  icases Hcr with ⟨Hcb, Hcr⟩
  icases HpR with ⟨Hpb, HpR⟩
  icases HIw with ⟨#HIb, HIw⟩
  ihave Hmw := (mayWait_list (F := F) cc (.reg barS) (List.drop 3 (paysL cc)) (by decide)) $$ Hlev
  iapply (wait_bar m cc (by decide)) $$ [Hcb HO Hmw Hpb]
  · isplitr; · iexact HIb
    isplitl [Hcb]; · iexact Hcb
    isplitl [HO]; · iexact HO
    isplitl [Hmw]; · iexact Hmw
    iexact Hpb
  iintro ⟨HO, Hpb, -, Hgx, Hgy, Hgz⟩
  -- what they handed over: the x-neighbour's landing buffers chunk by chunk, the y- and z-neighbours' quarter and halves
  ihave Hgx := (Entails.of_eq (barPay_zero (F := F) cc)) $$ Hgx
  ihave Hgx := (giveX_rows (F := F) (px cc)) $$ Hgx
  icases Hgx with ⟨Hrbp, Hrb2p⟩
  ihave Hgy := (Entails.of_eq (barPay_one (F := F) cc)) $$ Hgy
  icases Hgy with ⟨HqY, HhYp⟩
  ihave Hgz := (Entails.of_eq (barPay_two (F := F) cc)) $$ Hgz
  icases Hgz with ⟨HqZ, HhZp⟩
  -- this device's staging buffers and send buffers chunk by chunk
  ihave H5 := (Entails.of_eq (junk_whole (F := F) cc cc0_scratch5)) $$ HS5
  icases H5 with ⟨%f5, H5⟩
  ihave H5 := (Entails.of_eq (stP_rows (F := F) cc fullShare f5)) $$ H5
  icases H5 with ⟨HP0, HP1, HP2, HP3, HP4, HP5, HP6, HP7⟩
  ihave H6 := (Entails.of_eq (junk_whole (F := F) cc cc0_scratch6)) $$ HS6
  icases H6 with ⟨%f6, H6⟩
  ihave H6 := (Entails.of_eq (stL_rows (F := F) cc fullShare f6)) $$ H6
  icases H6 with ⟨HL0, HL1, HL2, HL3, HL4, HL5, HL6, HL7⟩
  ihave H7 := (Entails.of_eq (junk_whole (F := F) cc cc0_scratch7)) $$ HS7
  icases H7 with ⟨%f7, H7⟩
  ihave H7 := (Entails.of_eq (stP2_rows (F := F) cc fullShare f7)) $$ H7
  icases H7 with ⟨HP20, HP21, HP22⟩
  ihave H8 := (Entails.of_eq (junk_whole (F := F) cc cc0_scratch8)) $$ HS8
  icases H8 with ⟨%f8, H8⟩
  ihave H8 := (Entails.of_eq (stL2_rows (F := F) cc fullShare f8)) $$ H8
  icases H8 with ⟨HL20, HL21, HL22⟩
  ihave H1 := (Entails.of_eq (junk_whole (F := F) cc cc0_scratch1)) $$ HS1
  icases H1 with ⟨%f1, H1⟩
  ihave H1 := (Entails.of_eq (sb_rows (F := F) cc fullShare f1)) $$ H1
  icases H1 with ⟨HB0, HB1, HB2, HB3, HB4, HB5, HB6, HB7⟩
  ihave H3 := (Entails.of_eq (junk_whole (F := F) cc cc0_scratch3)) $$ HS3
  icases H3 with ⟨%f3, H3⟩
  ihave H3 := (Entails.of_eq (sb2_rows (F := F) cc fullShare f3)) $$ H3
  icases H3 with ⟨HB20, HB21, HB22⟩
  -- the counters of the 22 copies into the staging buffers
  icases HvI with ⟨Hv0, Hv8, Hv1, Hv9, Hv2, Hv10, Hv3, Hv11, Hv4, Hv12, Hv5, Hv13, Hv6, Hv14, Hv7, Hv15, Hv16, Hv19, Hv17, Hv20, Hv18, Hv21⟩
  sl_exec
  -- chunk 0 across x: wait for its copy into the staging buffer, round it into the send buffer, send it
  have hled3 : ∀ (s : DmaSem sig), lvJ s.val = 0 → ((levAts LL lvv : sProp 𝕄) ⊢ MayWait (cc : Thread nD τ) (.dma s) () (owedL (List.drop 3 (paysL cc)))) :=
    fun s hs => mayWait_local (F := F) cc s hs _ (by decide)
  sl_exec
  clear hled3
  ihave HB0 := (congr (F := F) (sbR 0) cc fullShare (dev.sl.HB0_w1 m f1) (sb m cc) (fun i hi => glue_sb m cc 0 _ (k0_off1_inb cc) (k0_off1_eq cc) f1 i hi)) $$ HB0
  -- the copy
  icases Htk with ⟨Hts, Htr, Htk⟩
  icases HIt with ⟨#HIc22, #HIr, HIt⟩
  icases HRt with ⟨#HRs, #HRr, HRt⟩
  icases Hrbp with ⟨⟨%fd, Hd⟩, Hrbp⟩
  iapply (send_x m cc _ (dev4_eq cc) 0 fd (owedL (List.drop 4 (paysL cc))) rfl _) $$ [HB0 Hd HO Hts Htr]
  · isplitr; · iexact HIc22
    isplitr; · iexact HIr
    isplitl [HB0]; · iexact HB0
    isplitl [Hd]; · iexact Hd
    isplitl [HO]; · iexact HO
    isplitl [Hts]; · iexact Hts
    isplitr; · iexact HRs
    isplitl [Htr]; · iexact Htr
    iexact HRr
  iintro ⟨Hcxs0, HO⟩
  iclear HIr HRs HRr
  -- chunk 1 across x: wait for its copy into the staging buffer, round it into the send buffer, send it
  have hled4 : ∀ (s : DmaSem sig), lvJ s.val = 0 → ((levAts LL lvv : sProp 𝕄) ⊢ MayWait (cc : Thread nD τ) (.dma s) () (owedL (List.drop 4 (paysL cc)))) :=
    fun s hs => mayWait_local (F := F) cc s hs _ (by decide)
  sl_exec
  clear hled4
  ihave HB1 := (congr (F := F) (sbR 1) cc fullShare (dev.sl.HB1_w1 m f1) (sb m cc) (fun i hi => glue_sb m cc 1 _ (k0_off3_inb cc) (k0_off3_eq cc) f1 i hi)) $$ HB1
  -- the copy
  icases Htk with ⟨Hts, Htr, Htk⟩
  icases HIt with ⟨#HIc23, #HIr, HIt⟩
  icases HRt with ⟨#HRs, #HRr, HRt⟩
  icases Hrbp with ⟨⟨%fd, Hd⟩, Hrbp⟩
  iapply (send_x m cc _ (dev5_eq cc) 1 fd (owedL (List.drop 5 (paysL cc))) rfl _) $$ [HB1 Hd HO Hts Htr]
  · isplitr; · iexact HIc23
    isplitr; · iexact HIr
    isplitl [HB1]; · iexact HB1
    isplitl [Hd]; · iexact Hd
    isplitl [HO]; · iexact HO
    isplitl [Hts]; · iexact Hts
    isplitr; · iexact HRs
    isplitl [Htr]; · iexact Htr
    iexact HRr
  iintro ⟨Hcxs1, HO⟩
  iclear HIr HRs HRr
  -- chunk 2 across x: wait for its copy into the staging buffer, round it into the send buffer, send it
  have hled5 : ∀ (s : DmaSem sig), lvJ s.val = 0 → ((levAts LL lvv : sProp 𝕄) ⊢ MayWait (cc : Thread nD τ) (.dma s) () (owedL (List.drop 5 (paysL cc)))) :=
    fun s hs => mayWait_local (F := F) cc s hs _ (by decide)
  sl_exec
  clear hled5
  ihave HB2 := (congr (F := F) (sbR 2) cc fullShare (dev.sl.HB2_w1 m f1) (sb m cc) (fun i hi => glue_sb m cc 2 _ (k0_off5_inb cc) (k0_off5_eq cc) f1 i hi)) $$ HB2
  -- the copy
  icases Htk with ⟨Hts, Htr, Htk⟩
  icases HIt with ⟨#HIc24, #HIr, HIt⟩
  icases HRt with ⟨#HRs, #HRr, HRt⟩
  icases Hrbp with ⟨⟨%fd, Hd⟩, Hrbp⟩
  iapply (send_x m cc _ (dev6_eq cc) 2 fd (owedL (List.drop 6 (paysL cc))) rfl _) $$ [HB2 Hd HO Hts Htr]
  · isplitr; · iexact HIc24
    isplitr; · iexact HIr
    isplitl [HB2]; · iexact HB2
    isplitl [Hd]; · iexact Hd
    isplitl [HO]; · iexact HO
    isplitl [Hts]; · iexact Hts
    isplitr; · iexact HRs
    isplitl [Htr]; · iexact Htr
    iexact HRr
  iintro ⟨Hcxs2, HO⟩
  iclear HIr HRs HRr
  -- chunk 3 across x: wait for its copy into the staging buffer, round it into the send buffer, send it
  have hled6 : ∀ (s : DmaSem sig), lvJ s.val = 0 → ((levAts LL lvv : sProp 𝕄) ⊢ MayWait (cc : Thread nD τ) (.dma s) () (owedL (List.drop 6 (paysL cc)))) :=
    fun s hs => mayWait_local (F := F) cc s hs _ (by decide)
  sl_exec
  clear hled6
  ihave HB3 := (congr (F := F) (sbR 3) cc fullShare (dev.sl.HB3_w1 m f1) (sb m cc) (fun i hi => glue_sb m cc 3 _ (k0_off7_inb cc) (k0_off7_eq cc) f1 i hi)) $$ HB3
  -- the copy
  icases Htk with ⟨Hts, Htr, Htk⟩
  icases HIt with ⟨#HIc25, #HIr, HIt⟩
  icases HRt with ⟨#HRs, #HRr, HRt⟩
  icases Hrbp with ⟨⟨%fd, Hd⟩, Hrbp⟩
  iapply (send_x m cc _ (dev7_eq cc) 3 fd (owedL (List.drop 7 (paysL cc))) rfl _) $$ [HB3 Hd HO Hts Htr]
  · isplitr; · iexact HIc25
    isplitr; · iexact HIr
    isplitl [HB3]; · iexact HB3
    isplitl [Hd]; · iexact Hd
    isplitl [HO]; · iexact HO
    isplitl [Hts]; · iexact Hts
    isplitr; · iexact HRs
    isplitl [Htr]; · iexact Htr
    iexact HRr
  iintro ⟨Hcxs3, HO⟩
  iclear HIr HRs HRr
  -- chunk 4 across x: wait for its copy into the staging buffer, round it into the send buffer, send it
  have hled7 : ∀ (s : DmaSem sig), lvJ s.val = 0 → ((levAts LL lvv : sProp 𝕄) ⊢ MayWait (cc : Thread nD τ) (.dma s) () (owedL (List.drop 7 (paysL cc)))) :=
    fun s hs => mayWait_local (F := F) cc s hs _ (by decide)
  sl_exec
  clear hled7
  ihave HB4 := (congr (F := F) (sbR 4) cc fullShare (dev.sl.HB4_w1 m f1) (sb m cc) (fun i hi => glue_sb m cc 4 _ (k0_off9_inb cc) (k0_off9_eq cc) f1 i hi)) $$ HB4
  -- the copy
  icases Htk with ⟨Hts, Htr, Htk⟩
  icases HIt with ⟨#HIc26, #HIr, HIt⟩
  icases HRt with ⟨#HRs, #HRr, HRt⟩
  icases Hrbp with ⟨⟨%fd, Hd⟩, Hrbp⟩
  iapply (send_x m cc _ (dev8_eq cc) 4 fd (owedL (List.drop 8 (paysL cc))) rfl _) $$ [HB4 Hd HO Hts Htr]
  · isplitr; · iexact HIc26
    isplitr; · iexact HIr
    isplitl [HB4]; · iexact HB4
    isplitl [Hd]; · iexact Hd
    isplitl [HO]; · iexact HO
    isplitl [Hts]; · iexact Hts
    isplitr; · iexact HRs
    isplitl [Htr]; · iexact Htr
    iexact HRr
  iintro ⟨Hcxs4, HO⟩
  iclear HIr HRs HRr
  -- chunk 5 across x: wait for its copy into the staging buffer, round it into the send buffer, send it
  have hled8 : ∀ (s : DmaSem sig), lvJ s.val = 0 → ((levAts LL lvv : sProp 𝕄) ⊢ MayWait (cc : Thread nD τ) (.dma s) () (owedL (List.drop 8 (paysL cc)))) :=
    fun s hs => mayWait_local (F := F) cc s hs _ (by decide)
  sl_exec
  clear hled8
  ihave HB5 := (congr (F := F) (sbR 5) cc fullShare (dev.sl.HB5_w1 m f1) (sb m cc) (fun i hi => glue_sb m cc 5 _ (k0_off11_inb cc) (k0_off11_eq cc) f1 i hi)) $$ HB5
  -- the copy
  icases Htk with ⟨Hts, Htr, Htk⟩
  icases HIt with ⟨#HIc27, #HIr, HIt⟩
  icases HRt with ⟨#HRs, #HRr, HRt⟩
  icases Hrbp with ⟨⟨%fd, Hd⟩, Hrbp⟩
  iapply (send_x m cc _ (dev9_eq cc) 5 fd (owedL (List.drop 9 (paysL cc))) rfl _) $$ [HB5 Hd HO Hts Htr]
  · isplitr; · iexact HIc27
    isplitr; · iexact HIr
    isplitl [HB5]; · iexact HB5
    isplitl [Hd]; · iexact Hd
    isplitl [HO]; · iexact HO
    isplitl [Hts]; · iexact Hts
    isplitr; · iexact HRs
    isplitl [Htr]; · iexact Htr
    iexact HRr
  iintro ⟨Hcxs5, HO⟩
  iclear HIr HRs HRr
  -- chunk 6 across x: wait for its copy into the staging buffer, round it into the send buffer, send it
  have hled9 : ∀ (s : DmaSem sig), lvJ s.val = 0 → ((levAts LL lvv : sProp 𝕄) ⊢ MayWait (cc : Thread nD τ) (.dma s) () (owedL (List.drop 9 (paysL cc)))) :=
    fun s hs => mayWait_local (F := F) cc s hs _ (by decide)
  sl_exec
  clear hled9
  ihave HB6 := (congr (F := F) (sbR 6) cc fullShare (dev.sl.HB6_w1 m f1) (sb m cc) (fun i hi => glue_sb m cc 6 _ (k0_off13_inb cc) (k0_off13_eq cc) f1 i hi)) $$ HB6
  -- the copy
  icases Htk with ⟨Hts, Htr, Htk⟩
  icases HIt with ⟨#HIc28, #HIr, HIt⟩
  icases HRt with ⟨#HRs, #HRr, HRt⟩
  icases Hrbp with ⟨⟨%fd, Hd⟩, Hrbp⟩
  iapply (send_x m cc _ (dev10_eq cc) 6 fd (owedL (List.drop 10 (paysL cc))) rfl _) $$ [HB6 Hd HO Hts Htr]
  · isplitr; · iexact HIc28
    isplitr; · iexact HIr
    isplitl [HB6]; · iexact HB6
    isplitl [Hd]; · iexact Hd
    isplitl [HO]; · iexact HO
    isplitl [Hts]; · iexact Hts
    isplitr; · iexact HRs
    isplitl [Htr]; · iexact Htr
    iexact HRr
  iintro ⟨Hcxs6, HO⟩
  iclear HIr HRs HRr
  -- chunk 7 across x: wait for its copy into the staging buffer, round it into the send buffer, send it
  have hled10 : ∀ (s : DmaSem sig), lvJ s.val = 0 → ((levAts LL lvv : sProp 𝕄) ⊢ MayWait (cc : Thread nD τ) (.dma s) () (owedL (List.drop 10 (paysL cc)))) :=
    fun s hs => mayWait_local (F := F) cc s hs _ (by decide)
  sl_exec
  clear hled10
  ihave HB7 := (congr (F := F) (sbR 7) cc fullShare (dev.sl.HB7_w1 m f1) (sb m cc) (fun i hi => glue_sb m cc 7 _ (k0_off15_inb cc) (k0_off15_eq cc) f1 i hi)) $$ HB7
  -- the copy
  icases Htk with ⟨Hts, Htr, Htk⟩
  icases HIt with ⟨#HIc29, #HIr, HIt⟩
  icases HRt with ⟨#HRs, #HRr, HRt⟩
  icases Hrbp with ⟨%fd, Hd⟩
  iapply (send_x m cc _ (dev11_eq cc) 7 fd (owedL (List.drop 11 (paysL cc))) rfl _) $$ [HB7 Hd HO Hts Htr]
  · isplitr; · iexact HIc29
    isplitr; · iexact HIr
    isplitl [HB7]; · iexact HB7
    isplitl [Hd]; · iexact Hd
    isplitl [HO]; · iexact HO
    isplitl [Hts]; · iexact Hts
    isplitr; · iexact HRs
    isplitl [Htr]; · iexact Htr
    iexact HRr
  iintro ⟨Hcxs7, HO⟩
  iclear HIr HRs HRr
  -- chunk 0 across x (the diagonal quarter's): wait for its copy into the staging buffer, round it into the send buffer, send it
  have hled11 : ∀ (s : DmaSem sig), lvJ s.val = 0 → ((levAts LL lvv : sProp 𝕄) ⊢ MayWait (cc : Thread nD τ) (.dma s) () (owedL (List.drop 11 (paysL cc)))) :=
    fun s hs => mayWait_local (F := F) cc s hs _ (by decide)
  sl_exec
  clear hled11
  ihave HB20 := (congr (F := F) (sb2R 0) cc fullShare (dev.sl.HB20_w1 m f3) (sb2 m cc) (fun i hi => glue_sb2 m cc 0 _ (k0_off17_inb cc) (k0_off17_eq cc) f3 i hi)) $$ HB20
  -- the copy
  icases Htk with ⟨Hts, Htr, Htk⟩
  icases HIt with ⟨#HIc38, #HIr, HIt⟩
  icases HRt with ⟨#HRs, #HRr, HRt⟩
  icases Hrb2p with ⟨⟨%fd, Hd⟩, Hrb2p⟩
  iapply (send_x2 m cc _ (dev12_eq cc) 0 fd (owedL (List.drop 12 (paysL cc))) rfl _) $$ [HB20 Hd HO Hts Htr]
  · isplitr; · iexact HIc38
    isplitr; · iexact HIr
    isplitl [HB20]; · iexact HB20
    isplitl [Hd]; · iexact Hd
    isplitl [HO]; · iexact HO
    isplitl [Hts]; · iexact Hts
    isplitr; · iexact HRs
    isplitl [Htr]; · iexact Htr
    iexact HRr
  iintro ⟨Hcds0, HO⟩
  iclear HIr HRs HRr
  -- chunk 1 across x (the diagonal quarter's): wait for its copy into the staging buffer, round it into the send buffer, send it
  have hled12 : ∀ (s : DmaSem sig), lvJ s.val = 0 → ((levAts LL lvv : sProp 𝕄) ⊢ MayWait (cc : Thread nD τ) (.dma s) () (owedL (List.drop 12 (paysL cc)))) :=
    fun s hs => mayWait_local (F := F) cc s hs _ (by decide)
  sl_exec
  clear hled12
  ihave HB21 := (congr (F := F) (sb2R 1) cc fullShare (dev.sl.HB21_w1 m f3) (sb2 m cc) (fun i hi => glue_sb2 m cc 1 _ (k0_off19_inb cc) (k0_off19_eq cc) f3 i hi)) $$ HB21
  -- the copy
  icases Htk with ⟨Hts, Htr, Htk⟩
  icases HIt with ⟨#HIc39, #HIr, HIt⟩
  icases HRt with ⟨#HRs, #HRr, HRt⟩
  icases Hrb2p with ⟨⟨%fd, Hd⟩, Hrb2p⟩
  iapply (send_x2 m cc _ (dev13_eq cc) 1 fd (owedL (List.drop 13 (paysL cc))) rfl _) $$ [HB21 Hd HO Hts Htr]
  · isplitr; · iexact HIc39
    isplitr; · iexact HIr
    isplitl [HB21]; · iexact HB21
    isplitl [Hd]; · iexact Hd
    isplitl [HO]; · iexact HO
    isplitl [Hts]; · iexact Hts
    isplitr; · iexact HRs
    isplitl [Htr]; · iexact Htr
    iexact HRr
  iintro ⟨Hcds1, HO⟩
  iclear HIr HRs HRr
  -- chunk 2 across x (the diagonal quarter's): wait for its copy into the staging buffer, round it into the send buffer, send it
  have hled13 : ∀ (s : DmaSem sig), lvJ s.val = 0 → ((levAts LL lvv : sProp 𝕄) ⊢ MayWait (cc : Thread nD τ) (.dma s) () (owedL (List.drop 13 (paysL cc)))) :=
    fun s hs => mayWait_local (F := F) cc s hs _ (by decide)
  sl_exec
  clear hled13
  ihave HB22 := (congr (F := F) (sb2R 2) cc fullShare (dev.sl.HB22_w1 m f3) (sb2 m cc) (fun i hi => glue_sb2 m cc 2 _ (k0_off21_inb cc) (k0_off21_eq cc) f3 i hi)) $$ HB22
  -- the copy
  icases Htk with ⟨Hts, Htr, Htk⟩
  icases HIt with ⟨#HIc40, #HIr, HIt⟩
  icases HRt with ⟨#HRs, #HRr, HRt⟩
  icases Hrb2p with ⟨%fd, Hd⟩
  iapply (send_x2 m cc _ (dev14_eq cc) 2 fd (owedL (List.drop 14 (paysL cc))) rfl _) $$ [HB22 Hd HO Hts Htr]
  · isplitr; · iexact HIc40
    isplitr; · iexact HIr
    isplitl [HB22]; · iexact HB22
    isplitl [Hd]; · iexact Hd
    isplitl [HO]; · iexact HO
    isplitl [Hts]; · iexact Hts
    isplitr; · iexact HRs
    isplitl [Htr]; · iexact Htr
    iexact HRr
  iintro ⟨Hcds2, HO⟩
  iclear HIr HRs HRr
  sl_exec
  -- the result array in its 32 blocks
  ihave Hout := (out_split_junk (F := F) cc) $$ Hout
  icases Hout with ⟨⟨%g00, HU00⟩, ⟨%g01, HU01⟩, ⟨%g02, HU02⟩, ⟨%g03, HU03⟩, ⟨%g10, HU10⟩, ⟨%g11, HU11⟩, ⟨%g12, HU12⟩, ⟨%g13, HU13⟩, ⟨%g20, HU20⟩, ⟨%g21, HU21⟩, ⟨%g22, HU22⟩, ⟨%g23, HU23⟩, ⟨%g30, HU30⟩, ⟨%g31, HU31⟩, ⟨%g32, HU32⟩, ⟨%g33, HU33⟩, ⟨%g40, HU40⟩, ⟨%g41, HU41⟩, ⟨%g42, HU42⟩, ⟨%g43, HU43⟩, ⟨%g50, HU50⟩, ⟨%g51, HU51⟩, ⟨%g52, HU52⟩, ⟨%g53, HU53⟩, ⟨%g60, HU60⟩, ⟨%g61, HU61⟩, ⟨%g62, HU62⟩, ⟨%g63, HU63⟩, ⟨%g70, HU70⟩, ⟨%g71, HU71⟩, ⟨%g72, HU72⟩, ⟨%g73, HU73⟩⟩
  ihave HqZ := (Entails.of_eq (giveQ_eq (F := F) (pz cc) (zqF (pz cc)))) $$ HqZ
  ihave HqY := (Entails.of_eq (giveQ_eq (F := F) (py cc) (yqF (py cc)))) $$ HqY
  ihave HhZp := (Entails.of_eq (giveH_eq (F := F) (pz cc) 0)) $$ HhZp
  ihave HhYp := (Entails.of_eq (giveH_eq (F := F) (py cc) 1)) $$ HhYp
  -- step 0 of the main loop: the x-neighbour's chunk 0 has landed
  icases Hcr with ⟨Hc, Hcr⟩
  icases HpR with ⟨Hp, HpR⟩
  icases HIw with ⟨#HIc30, HIw⟩
  ihave Hmw := (mayWait_list (F := F) cc (dsem (⟨30, by decide⟩ : Fin 140)) (List.drop 14 (paysL cc)) (by decide)) $$ Hlev
  iapply (wait_a1_at m cc _ 0 rfl) $$ [Hc HO Hmw Hp]
  · isplitr; · iexact HIc30
    isplitl [Hc]; · iexact Hc
    isplitl [HO]; · iexact HO
    isplitl [Hmw]; · iexact Hmw
    iexact Hp
  iintro ⟨HO, Hq30, -, Hrb0⟩
  icases Hown with ⟨Ho0, Hown⟩
  have hled14 : ∀ (s : DmaSem sig), lvJ s.val = 0 → ((levAts LL lvv : sProp 𝕄) ⊢ MayWait (cc : Thread nD τ) (.dma s) () (owedL (List.drop 14 (paysL cc)))) :=
    fun s hs => mayWait_local (F := F) cc s hs _ (by decide)
  sl_exec
  clear hled14
  ihave Ho0 := (congr (F := F) (r4R (mqF cc) 0) cc fullShare (dev.sl.Ho0_w1 m f0) (r4 m cc) (fun i hi => glue_own m cc 0 _ (k0_off2_inb cc) (k0_off2_eq cc) _ (k0_off23_inb cc) (k0_off23_eq cc) f0 i hi)) $$ Ho0
  ihave Ho0 := (Entails.of_eq (share_ZYK_eq (F := F) (r4R (mqF cc) 0) cc (r4 m cc))) $$ Ho0
  icases Ho0 with ⟨HoZ0, HoY0, HoK0⟩
  -- own chunk 0 to the z-neighbour
  icases Htk with ⟨Hts, Htr, Htk⟩
  icases HIt with ⟨#HIc44, #HIr, HIt⟩
  icases HRt with ⟨#HRs, #HRr, HRt⟩
  icases HqZ with ⟨⟨%fd, Hd⟩, HqZ⟩
  iapply (send_z_at m cc _ (dev15_eq cc) 0 _ _ (k0_off24_eq cc) fd (owedL (List.drop 15 (paysL cc))) rfl _) $$ [HoZ0 Hd HO Hts Htr]
  · isplitr; · iexact HIc44
    isplitr; · iexact HIr
    isplitl [HoZ0]; · iexact HoZ0
    isplitl [Hd]; · iexact Hd
    isplitl [HO]; · iexact HO
    isplitl [Hts]; · iexact Hts
    isplitr; · iexact HRs
    isplitl [Htr]; · iexact Htr
    iexact HRr
  iintro ⟨Hczs0, HO⟩
  iclear HIr HRs HRr
  sl_exec
  -- own chunk 0 to the y-neighbour
  icases Htk with ⟨Hts, Htr, Htk⟩
  icases HIt with ⟨#HIc60, #HIr, HIt⟩
  icases HRt with ⟨#HRs, #HRr, HRt⟩
  icases HqY with ⟨⟨%fd, Hd⟩, HqY⟩
  iapply (send_y_at m cc _ (dev16_eq cc) 0 _ _ (k0_off24_eq cc) fd (owedL (List.drop 16 (paysL cc))) rfl _) $$ [HoY0 Hd HO Hts Htr]
  · isplitr; · iexact HIc60
    isplitr; · iexact HIr
    isplitl [HoY0]; · iexact HoY0
    isplitl [Hd]; · iexact Hd
    isplitl [HO]; · iexact HO
    isplitl [Hts]; · iexact Hts
    isplitr; · iexact HRs
    isplitl [Htr]; · iexact Htr
    iexact HRr
  iintro ⟨Hcys0, HO⟩
  iclear HIr HRs HRr
  sl_exec
  -- step 1 of the main loop: the x-neighbour's chunk 1 has landed
  icases Hcr with ⟨Hc, Hcr⟩
  icases HpR with ⟨Hp, HpR⟩
  icases HIw with ⟨#HIc31, HIw⟩
  ihave Hmw := (mayWait_list (F := F) cc (dsem (⟨31, by decide⟩ : Fin 140)) (List.drop 16 (paysL cc)) (by decide)) $$ Hlev
  iapply (wait_a1_at m cc _ 1 rfl) $$ [Hc HO Hmw Hp]
  · isplitr; · iexact HIc31
    isplitl [Hc]; · iexact Hc
    isplitl [HO]; · iexact HO
    isplitl [Hmw]; · iexact Hmw
    iexact Hp
  iintro ⟨HO, Hq31, -, Hrb1⟩
  icases Hown with ⟨Ho1, Hown⟩
  have hled16 : ∀ (s : DmaSem sig), lvJ s.val = 0 → ((levAts LL lvv : sProp 𝕄) ⊢ MayWait (cc : Thread nD τ) (.dma s) () (owedL (List.drop 16 (paysL cc)))) :=
    fun s hs => mayWait_local (F := F) cc s hs _ (by decide)
  sl_exec
  clear hled16
  ihave Ho1 := (congr (F := F) (r4R (mqF cc) 1) cc fullShare (dev.sl.Ho1_w1 m f0) (r4 m cc) (fun i hi => glue_own m cc 1 _ (k0_off4_inb cc) (k0_off4_eq cc) _ (k0_off25_inb cc) (k0_off25_eq cc) f0 i hi)) $$ Ho1
  ihave Ho1 := (Entails.of_eq (share_ZYK_eq (F := F) (r4R (mqF cc) 1) cc (r4 m cc))) $$ Ho1
  icases Ho1 with ⟨HoZ1, HoY1, HoK1⟩
  -- own chunk 1 to the z-neighbour
  icases Htk with ⟨Hts, Htr, Htk⟩
  icases HIt with ⟨#HIc45, #HIr, HIt⟩
  icases HRt with ⟨#HRs, #HRr, HRt⟩
  icases HqZ with ⟨⟨%fd, Hd⟩, HqZ⟩
  iapply (send_z_at m cc _ (dev17_eq cc) 1 _ _ (k0_off26_eq cc) fd (owedL (List.drop 17 (paysL cc))) rfl _) $$ [HoZ1 Hd HO Hts Htr]
  · isplitr; · iexact HIc45
    isplitr; · iexact HIr
    isplitl [HoZ1]; · iexact HoZ1
    isplitl [Hd]; · iexact Hd
    isplitl [HO]; · iexact HO
    isplitl [Hts]; · iexact Hts
    isplitr; · iexact HRs
    isplitl [Htr]; · iexact Htr
    iexact HRr
  iintro ⟨Hczs1, HO⟩
  iclear HIr HRs HRr
  sl_exec
  -- own chunk 1 to the y-neighbour
  icases Htk with ⟨Hts, Htr, Htk⟩
  icases HIt with ⟨#HIc61, #HIr, HIt⟩
  icases HRt with ⟨#HRs, #HRr, HRt⟩
  icases HqY with ⟨⟨%fd, Hd⟩, HqY⟩
  iapply (send_y_at m cc _ (dev18_eq cc) 1 _ _ (k0_off26_eq cc) fd (owedL (List.drop 18 (paysL cc))) rfl _) $$ [HoY1 Hd HO Hts Htr]
  · isplitr; · iexact HIc61
    isplitr; · iexact HIr
    isplitl [HoY1]; · iexact HoY1
    isplitl [Hd]; · iexact Hd
    isplitl [HO]; · iexact HO
    isplitl [Hts]; · iexact Hts
    isplitr; · iexact HRs
    isplitl [Htr]; · iexact Htr
    iexact HRr
  iintro ⟨Hcys1, HO⟩
  iclear HIr HRs HRr
  sl_exec
  -- the z-neighbour's chunk 0 has landed
  icases Hcr with ⟨Hc, Hcr⟩
  icases HpR with ⟨Hp, HpR⟩
  icases HIw with ⟨#HIc52, HIw⟩
  ihave Hmw := (mayWait_list (F := F) cc (dsem (⟨52, by decide⟩ : Fin 140)) (List.drop 18 (paysL cc)) (by decide)) $$ Hlev
  iapply (wait_a5_at m cc _ 0 rfl) $$ [Hc HO Hmw Hp]
  · isplitr; · iexact HIc52
    isplitl [Hc]; · iexact Hc
    isplitl [HO]; · iexact HO
    isplitl [Hmw]; · iexact Hmw
    iexact Hp
  iintro ⟨HO, Hq52, -, Hz0⟩
  sl_exec
  -- the y-neighbour's chunk 0 has landed
  icases Hcr with ⟨Hc, Hcr⟩
  icases HpR with ⟨Hp, HpR⟩
  icases HIw with ⟨#HIc68, HIw⟩
  ihave Hmw := (mayWait_list (F := F) cc (dsem (⟨68, by decide⟩ : Fin 140)) (List.drop 18 (paysL cc)) (by decide)) $$ Hlev
  iapply (wait_a7_at m cc _ 0 rfl) $$ [Hc HO Hmw Hp]
  · isplitr; · iexact HIc68
    isplitl [Hc]; · iexact Hc
    isplitl [HO]; · iexact HO
    isplitl [Hmw]; · iexact Hmw
    iexact Hp
  iintro ⟨HO, Hq68, -, Hy0⟩
  sl_exec
  -- step 2 of the main loop: the x-neighbour's chunk 2 has landed
  icases Hcr with ⟨Hc, Hcr⟩
  icases HpR with ⟨Hp, HpR⟩
  icases HIw with ⟨#HIc32, HIw⟩
  ihave Hmw := (mayWait_list (F := F) cc (dsem (⟨32, by decide⟩ : Fin 140)) (List.drop 18 (paysL cc)) (by decide)) $$ Hlev
  iapply (wait_a1_at m cc _ 2 rfl) $$ [Hc HO Hmw Hp]
  · isplitr; · iexact HIc32
    isplitl [Hc]; · iexact Hc
    isplitl [HO]; · iexact HO
    isplitl [Hmw]; · iexact Hmw
    iexact Hp
  iintro ⟨HO, Hq32, -, Hrb2⟩
  icases Hown with ⟨Ho2, Hown⟩
  have hled18 : ∀ (s : DmaSem sig), lvJ s.val = 0 → ((levAts LL lvv : sProp 𝕄) ⊢ MayWait (cc : Thread nD τ) (.dma s) () (owedL (List.drop 18 (paysL cc)))) :=
    fun s hs => mayWait_local (F := F) cc s hs _ (by decide)
  sl_exec
  clear hled18
  ihave Ho2 := (congr (F := F) (r4R (mqF cc) 2) cc fullShare (dev.sl.Ho2_w1 m f0) (r4 m cc) (fun i hi => glue_own m cc 2 _ (k0_off6_inb cc) (k0_off6_eq cc) _ (k0_off27_inb cc) (k0_off27_eq cc) f0 i hi)) $$ Ho2
  ihave Ho2 := (Entails.of_eq (share_ZYK_eq (F := F) (r4R (mqF cc) 2) cc (r4 m cc))) $$ Ho2
  icases Ho2 with ⟨HoZ2, HoY2, HoK2⟩
  -- own chunk 2 to the z-neighbour
  icases Htk with ⟨Hts, Htr, Htk⟩
  icases HIt with ⟨#HIc46, #HIr, HIt⟩
  icases HRt with ⟨#HRs, #HRr, HRt⟩
  icases HqZ with ⟨⟨%fd, Hd⟩, HqZ⟩
  iapply (send_z_at m cc _ (dev19_eq cc) 2 _ _ (k0_off28_eq cc) fd (owedL (List.drop 19 (paysL cc))) rfl _) $$ [HoZ2 Hd HO Hts Htr]
  · isplitr; · iexact HIc46
    isplitr; · iexact HIr
    isplitl [HoZ2]; · iexact HoZ2
    isplitl [Hd]; · iexact Hd
    isplitl [HO]; · iexact HO
    isplitl [Hts]; · iexact Hts
    isplitr; · iexact HRs
    isplitl [Htr]; · iexact Htr
    iexact HRr
  iintro ⟨Hczs2, HO⟩
  iclear HIr HRs HRr
  sl_exec
  -- own chunk 2 to the y-neighbour
  icases Htk with ⟨Hts, Htr, Htk⟩
  icases HIt with ⟨#HIc62, #HIr, HIt⟩
  icases HRt with ⟨#HRs, #HRr, HRt⟩
  icases HqY with ⟨⟨%fd, Hd⟩, HqY⟩
  iapply (send_y_at m cc _ (dev20_eq cc) 2 _ _ (k0_off28_eq cc) fd (owedL (List.drop 20 (paysL cc))) rfl _) $$ [HoY2 Hd HO Hts Htr]
  · isplitr; · iexact HIc62
    isplitr; · iexact HIr
    isplitl [HoY2]; · iexact HoY2
    isplitl [Hd]; · iexact Hd
    isplitl [HO]; · iexact HO
    isplitl [Hts]; · iexact Hts
    isplitr; · iexact HRs
    isplitl [Htr]; · iexact Htr
    iexact HRr
  iintro ⟨Hcys2, HO⟩
  iclear HIr HRs HRr
  sl_exec
  -- the z-neighbour's chunk 1 has landed
  icases Hcr with ⟨Hc, Hcr⟩
  icases HpR with ⟨Hp, HpR⟩
  icases HIw with ⟨#HIc53, HIw⟩
  ihave Hmw := (mayWait_list (F := F) cc (dsem (⟨53, by decide⟩ : Fin 140)) (List.drop 20 (paysL cc)) (by decide)) $$ Hlev
  iapply (wait_a5_at m cc _ 1 rfl) $$ [Hc HO Hmw Hp]
  · isplitr; · iexact HIc53
    isplitl [Hc]; · iexact Hc
    isplitl [HO]; · iexact HO
    isplitl [Hmw]; · iexact Hmw
    iexact Hp
  iintro ⟨HO, Hq53, -, Hz1⟩
  sl_exec
  -- the y-neighbour's chunk 1 has landed
  icases Hcr with ⟨Hc, Hcr⟩
  icases HpR with ⟨Hp, HpR⟩
  icases HIw with ⟨#HIc69, HIw⟩
  ihave Hmw := (mayWait_list (F := F) cc (dsem (⟨69, by decide⟩ : Fin 140)) (List.drop 20 (paysL cc)) (by decide)) $$ Hlev
  iapply (wait_a7_at m cc _ 1 rfl) $$ [Hc HO Hmw Hp]
  · isplitr; · iexact HIc69
    isplitl [Hc]; · iexact Hc
    isplitl [HO]; · iexact HO
    isplitl [Hmw]; · iexact Hmw
    iexact Hp
  iintro ⟨HO, Hq69, -, Hy1⟩
  sl_exec
  -- step 3 of the main loop: the x-neighbour's chunk 3 has landed
  icases Hcr with ⟨Hc, Hcr⟩
  icases HpR with ⟨Hp, HpR⟩
  icases HIw with ⟨#HIc33, HIw⟩
  ihave Hmw := (mayWait_list (F := F) cc (dsem (⟨33, by decide⟩ : Fin 140)) (List.drop 20 (paysL cc)) (by decide)) $$ Hlev
  iapply (wait_a1_at m cc _ 3 rfl) $$ [Hc HO Hmw Hp]
  · isplitr; · iexact HIc33
    isplitl [Hc]; · iexact Hc
    isplitl [HO]; · iexact HO
    isplitl [Hmw]; · iexact Hmw
    iexact Hp
  iintro ⟨HO, Hq33, -, Hrb3⟩
  icases Hown with ⟨Ho3, Hown⟩
  have hled20 : ∀ (s : DmaSem sig), lvJ s.val = 0 → ((levAts LL lvv : sProp 𝕄) ⊢ MayWait (cc : Thread nD τ) (.dma s) () (owedL (List.drop 20 (paysL cc)))) :=
    fun s hs => mayWait_local (F := F) cc s hs _ (by decide)
  sl_exec
  clear hled20
  ihave Ho3 := (congr (F := F) (r4R (mqF cc) 3) cc fullShare (dev.sl.Ho3_w1 m f0) (r4 m cc) (fun i hi => glue_own m cc 3 _ (k0_off8_inb cc) (k0_off8_eq cc) _ (k0_off29_inb cc) (k0_off29_eq cc) f0 i hi)) $$ Ho3
  ihave Ho3 := (Entails.of_eq (share_ZYK_eq (F := F) (r4R (mqF cc) 3) cc (r4 m cc))) $$ Ho3
  icases Ho3 with ⟨HoZ3, HoY3, HoK3⟩
  -- own chunk 3 to the z-neighbour
  icases Htk with ⟨Hts, Htr, Htk⟩
  icases HIt with ⟨#HIc47, #HIr, HIt⟩
  icases HRt with ⟨#HRs, #HRr, HRt⟩
  icases HqZ with ⟨⟨%fd, Hd⟩, HqZ⟩
  iapply (send_z_at m cc _ (dev21_eq cc) 3 _ _ (k0_off30_eq cc) fd (owedL (List.drop 21 (paysL cc))) rfl _) $$ [HoZ3 Hd HO Hts Htr]
  · isplitr; · iexact HIc47
    isplitr; · iexact HIr
    isplitl [HoZ3]; · iexact HoZ3
    isplitl [Hd]; · iexact Hd
    isplitl [HO]; · iexact HO
    isplitl [Hts]; · iexact Hts
    isplitr; · iexact HRs
    isplitl [Htr]; · iexact Htr
    iexact HRr
  iintro ⟨Hczs3, HO⟩
  iclear HIr HRs HRr
  sl_exec
  -- own chunk 3 to the y-neighbour
  icases Htk with ⟨Hts, Htr, Htk⟩
  icases HIt with ⟨#HIc63, #HIr, HIt⟩
  icases HRt with ⟨#HRs, #HRr, HRt⟩
  icases HqY with ⟨⟨%fd, Hd⟩, HqY⟩
  iapply (send_y_at m cc _ (dev22_eq cc) 3 _ _ (k0_off30_eq cc) fd (owedL (List.drop 22 (paysL cc))) rfl _) $$ [HoY3 Hd HO Hts Htr]
  · isplitr; · iexact HIc63
    isplitr; · iexact HIr
    isplitl [HoY3]; · iexact HoY3
    isplitl [Hd]; · iexact Hd
    isplitl [HO]; · iexact HO
    isplitl [Hts]; · iexact Hts
    isplitr; · iexact HRs
    isplitl [Htr]; · iexact Htr
    iexact HRr
  iintro ⟨Hcys3, HO⟩
  iclear HIr HRs HRr
  sl_exec
  -- the z-neighbour's chunk 2 has landed
  icases Hcr with ⟨Hc, Hcr⟩
  icases HpR with ⟨Hp, HpR⟩
  icases HIw with ⟨#HIc54, HIw⟩
  ihave Hmw := (mayWait_list (F := F) cc (dsem (⟨54, by decide⟩ : Fin 140)) (List.drop 22 (paysL cc)) (by decide)) $$ Hlev
  iapply (wait_a5_at m cc _ 2 rfl) $$ [Hc HO Hmw Hp]
  · isplitr; · iexact HIc54
    isplitl [Hc]; · iexact Hc
    isplitl [HO]; · iexact HO
    isplitl [Hmw]; · iexact Hmw
    iexact Hp
  iintro ⟨HO, Hq54, -, Hz2⟩
  sl_exec
  -- the y-neighbour's chunk 2 has landed
  icases Hcr with ⟨Hc, Hcr⟩
  icases HpR with ⟨Hp, HpR⟩
  icases HIw with ⟨#HIc70, HIw⟩
  ihave Hmw := (mayWait_list (F := F) cc (dsem (⟨70, by decide⟩ : Fin 140)) (List.drop 22 (paysL cc)) (by decide)) $$ Hlev
  iapply (wait_a7_at m cc _ 2 rfl) $$ [Hc HO Hmw Hp]
  · isplitr; · iexact HIc70
    isplitl [Hc]; · iexact Hc
    isplitl [HO]; · iexact HO
    isplitl [Hmw]; · iexact Hmw
    iexact Hp
  iintro ⟨HO, Hq70, -, Hy2⟩
  sl_exec
  -- step 4 of the main loop: the x-neighbour's chunk 4 has landed
  icases Hcr with ⟨Hc, Hcr⟩
  icases HpR with ⟨Hp, HpR⟩
  icases HIw with ⟨#HIc34, HIw⟩
  ihave Hmw := (mayWait_list (F := F) cc (dsem (⟨34, by decide⟩ : Fin 140)) (List.drop 22 (paysL cc)) (by decide)) $$ Hlev
  iapply (wait_a1_at m cc _ 4 rfl) $$ [Hc HO Hmw Hp]
  · isplitr; · iexact HIc34
    isplitl [Hc]; · iexact Hc
    isplitl [HO]; · iexact HO
    isplitl [Hmw]; · iexact Hmw
    iexact Hp
  iintro ⟨HO, Hq34, -, Hrb4⟩
  icases Hown with ⟨Ho4, Hown⟩
  have hled22 : ∀ (s : DmaSem sig), lvJ s.val = 0 → ((levAts LL lvv : sProp 𝕄) ⊢ MayWait (cc : Thread nD τ) (.dma s) () (owedL (List.drop 22 (paysL cc)))) :=
    fun s hs => mayWait_local (F := F) cc s hs _ (by decide)
  sl_exec
  clear hled22
  ihave Ho4 := (congr (F := F) (r4R (mqF cc) 4) cc fullShare (dev.sl.Ho4_w1 m f0) (r4 m cc) (fun i hi => glue_own m cc 4 _ (k0_off10_inb cc) (k0_off10_eq cc) _ (k0_off31_inb cc) (k0_off31_eq cc) f0 i hi)) $$ Ho4
  ihave Ho4 := (Entails.of_eq (share_ZYK_eq (F := F) (r4R (mqF cc) 4) cc (r4 m cc))) $$ Ho4
  icases Ho4 with ⟨HoZ4, HoY4, HoK4⟩
  -- own chunk 4 to the z-neighbour
  icases Htk with ⟨Hts, Htr, Htk⟩
  icases HIt with ⟨#HIc48, #HIr, HIt⟩
  icases HRt with ⟨#HRs, #HRr, HRt⟩
  icases HqZ with ⟨⟨%fd, Hd⟩, HqZ⟩
  iapply (send_z_at m cc _ (dev23_eq cc) 4 _ _ (k0_off32_eq cc) fd (owedL (List.drop 23 (paysL cc))) rfl _) $$ [HoZ4 Hd HO Hts Htr]
  · isplitr; · iexact HIc48
    isplitr; · iexact HIr
    isplitl [HoZ4]; · iexact HoZ4
    isplitl [Hd]; · iexact Hd
    isplitl [HO]; · iexact HO
    isplitl [Hts]; · iexact Hts
    isplitr; · iexact HRs
    isplitl [Htr]; · iexact Htr
    iexact HRr
  iintro ⟨Hczs4, HO⟩
  iclear HIr HRs HRr
  sl_exec
  -- own chunk 4 to the y-neighbour
  icases Htk with ⟨Hts, Htr, Htk⟩
  icases HIt with ⟨#HIc64, #HIr, HIt⟩
  icases HRt with ⟨#HRs, #HRr, HRt⟩
  icases HqY with ⟨⟨%fd, Hd⟩, HqY⟩
  iapply (send_y_at m cc _ (dev24_eq cc) 4 _ _ (k0_off32_eq cc) fd (owedL (List.drop 24 (paysL cc))) rfl _) $$ [HoY4 Hd HO Hts Htr]
  · isplitr; · iexact HIc64
    isplitr; · iexact HIr
    isplitl [HoY4]; · iexact HoY4
    isplitl [Hd]; · iexact Hd
    isplitl [HO]; · iexact HO
    isplitl [Hts]; · iexact Hts
    isplitr; · iexact HRs
    isplitl [Htr]; · iexact Htr
    iexact HRr
  iintro ⟨Hcys4, HO⟩
  iclear HIr HRs HRr
  sl_exec
  -- the z-neighbour's chunk 3 has landed
  icases Hcr with ⟨Hc, Hcr⟩
  icases HpR with ⟨Hp, HpR⟩
  icases HIw with ⟨#HIc55, HIw⟩
  ihave Hmw := (mayWait_list (F := F) cc (dsem (⟨55, by decide⟩ : Fin 140)) (List.drop 24 (paysL cc)) (by decide)) $$ Hlev
  iapply (wait_a5_at m cc _ 3 rfl) $$ [Hc HO Hmw Hp]
  · isplitr; · iexact HIc55
    isplitl [Hc]; · iexact Hc
    isplitl [HO]; · iexact HO
    isplitl [Hmw]; · iexact Hmw
    iexact Hp
  iintro ⟨HO, Hq55, -, Hz3⟩
  sl_exec
  -- the y-neighbour's chunk 3 has landed
  icases Hcr with ⟨Hc, Hcr⟩
  icases HpR with ⟨Hp, HpR⟩
  icases HIw with ⟨#HIc71, HIw⟩
  ihave Hmw := (mayWait_list (F := F) cc (dsem (⟨71, by decide⟩ : Fin 140)) (List.drop 24 (paysL cc)) (by decide)) $$ Hlev
  iapply (wait_a7_at m cc _ 3 rfl) $$ [Hc HO Hmw Hp]
  · isplitr; · iexact HIc71
    isplitl [Hc]; · iexact Hc
    isplitl [HO]; · iexact HO
    isplitl [Hmw]; · iexact Hmw
    iexact Hp
  iintro ⟨HO, Hq71, -, Hy3⟩
  -- chunk 3 of the two neighbours' quarters: half its ownership stays for the copy into the result, of the other half one column half travels on
  ihave Hz3 := (Entails.of_eq (share_FG_eq (F := F) (r4R (zqF cc) 3) cc (r4 m cc))) $$ Hz3
  icases Hz3 with ⟨HzF3, HzG3⟩
  ihave HzF3 := (Entails.of_eq (chunk_halves (F := F) cc (zqF cc) 3 shF (r4 m cc))) $$ HzF3
  icases HzF3 with ⟨HzFl3, HzFr3⟩
  ihave Hy3 := (Entails.of_eq (share_FG_eq (F := F) (r4R (yqF cc) 3) cc (r4 m cc))) $$ Hy3
  icases Hy3 with ⟨HyF3, HyG3⟩
  ihave HyF3 := (Entails.of_eq (chunk_halves (F := F) cc (yqF cc) 3 shF (r4 m cc))) $$ HyF3
  icases HyF3 with ⟨HyFl3, HyFr3⟩
  sl_exec
  -- the right half of the z-neighbour's chunk 3 on to the y-neighbour
  icases Htk with ⟨Hts, Htr, Htk⟩
  icases HIt with ⟨#HIc95, #HIr, HIt⟩
  icases HRt with ⟨#HRs, #HRr, HRt⟩
  icases HhYp with ⟨⟨%fd, Hd⟩, HhYp⟩
  iapply (send_yf_at m cc _ (dev25_eq cc) 3 (by decide) _ _ (k0_off33_eq cc) fd (owedL (List.drop 25 (paysL cc))) rfl _) $$ [HzFr3 Hd HO Hts Htr]
  · isplitr; · iexact HIc95
    isplitr; · iexact HIr
    isplitl [HzFr3]; · iexact HzFr3
    isplitl [Hd]; · iexact Hd
    isplitl [HO]; · iexact HO
    isplitl [Hts]; · iexact Hts
    isplitr; · iexact HRs
    isplitl [Htr]; · iexact Htr
    iexact HRr
  iintro ⟨Hcyfs3, HO⟩
  iclear HIr HRs HRr
  sl_exec
  -- the left half of the y-neighbour's chunk 3 on to the z-neighbour
  icases Htk with ⟨Hts, Htr, Htk⟩
  icases HIt with ⟨#HIc79, #HIr, HIt⟩
  icases HRt with ⟨#HRs, #HRr, HRt⟩
  icases HhZp with ⟨⟨%fd, Hd⟩, HhZp⟩
  iapply (send_zf_at m cc _ (dev26_eq cc) 3 (by decide) _ _ (k0_off34_eq cc) fd (owedL (List.drop 26 (paysL cc))) rfl _) $$ [HyFl3 Hd HO Hts Htr]
  · isplitr; · iexact HIc79
    isplitr; · iexact HIr
    isplitl [HyFl3]; · iexact HyFl3
    isplitl [Hd]; · iexact Hd
    isplitl [HO]; · iexact HO
    isplitl [Hts]; · iexact Hts
    isplitr; · iexact HRs
    isplitl [Htr]; · iexact Htr
    iexact HRr
  iintro ⟨Hczfs3, HO⟩
  iclear HIr HRs HRr
  sl_exec
  -- step 5 of the main loop: the x-neighbour's chunk 5 has landed
  icases Hcr with ⟨Hc, Hcr⟩
  icases HpR with ⟨Hp, HpR⟩
  icases HIw with ⟨#HIc35, HIw⟩
  ihave Hmw := (mayWait_list (F := F) cc (dsem (⟨35, by decide⟩ : Fin 140)) (List.drop 26 (paysL cc)) (by decide)) $$ Hlev
  iapply (wait_a1_at m cc _ 5 rfl) $$ [Hc HO Hmw Hp]
  · isplitr; · iexact HIc35
    isplitl [Hc]; · iexact Hc
    isplitl [HO]; · iexact HO
    isplitl [Hmw]; · iexact Hmw
    iexact Hp
  iintro ⟨HO, Hq35, -, Hrb5⟩
  icases Hown with ⟨Ho5, Hown⟩
  have hled26 : ∀ (s : DmaSem sig), lvJ s.val = 0 → ((levAts LL lvv : sProp 𝕄) ⊢ MayWait (cc : Thread nD τ) (.dma s) () (owedL (List.drop 26 (paysL cc)))) :=
    fun s hs => mayWait_local (F := F) cc s hs _ (by decide)
  sl_exec
  clear hled26
  ihave Ho5 := (congr (F := F) (r4R (mqF cc) 5) cc fullShare (dev.sl.Ho5_w1 m f0) (r4 m cc) (fun i hi => glue_own m cc 5 _ (k0_off12_inb cc) (k0_off12_eq cc) _ (k0_off35_inb cc) (k0_off35_eq cc) f0 i hi)) $$ Ho5
  ihave Ho5 := (Entails.of_eq (share_ZYK_eq (F := F) (r4R (mqF cc) 5) cc (r4 m cc))) $$ Ho5
  icases Ho5 with ⟨HoZ5, HoY5, HoK5⟩
  -- own chunk 5 to the z-neighbour
  icases Htk with ⟨Hts, Htr, Htk⟩
  icases HIt with ⟨#HIc49, #HIr, HIt⟩
  icases HRt with ⟨#HRs, #HRr, HRt⟩
  icases HqZ with ⟨⟨%fd, Hd⟩, HqZ⟩
  iapply (send_z_at m cc _ (dev27_eq cc) 5 _ _ (k0_off36_eq cc) fd (owedL (List.drop 27 (paysL cc))) rfl _) $$ [HoZ5 Hd HO Hts Htr]
  · isplitr; · iexact HIc49
    isplitr; · iexact HIr
    isplitl [HoZ5]; · iexact HoZ5
    isplitl [Hd]; · iexact Hd
    isplitl [HO]; · iexact HO
    isplitl [Hts]; · iexact Hts
    isplitr; · iexact HRs
    isplitl [Htr]; · iexact Htr
    iexact HRr
  iintro ⟨Hczs5, HO⟩
  iclear HIr HRs HRr
  sl_exec
  -- own chunk 5 to the y-neighbour
  icases Htk with ⟨Hts, Htr, Htk⟩
  icases HIt with ⟨#HIc65, #HIr, HIt⟩
  icases HRt with ⟨#HRs, #HRr, HRt⟩
  icases HqY with ⟨⟨%fd, Hd⟩, HqY⟩
  iapply (send_y_at m cc _ (dev28_eq cc) 5 _ _ (k0_off36_eq cc) fd (owedL (List.drop 28 (paysL cc))) rfl _) $$ [HoY5 Hd HO Hts Htr]
  · isplitr; · iexact HIc65
    isplitr; · iexact HIr
    isplitl [HoY5]; · iexact HoY5
    isplitl [Hd]; · iexact Hd
    isplitl [HO]; · iexact HO
    isplitl [Hts]; · iexact Hts
    isplitr; · iexact HRs
    isplitl [Htr]; · iexact Htr
    iexact HRr
  iintro ⟨Hcys5, HO⟩
  iclear HIr HRs HRr
  sl_exec
  -- the z-neighbour's chunk 4 has landed
  icases Hcr with ⟨Hc, Hcr⟩
  icases HpR with ⟨Hp, HpR⟩
  icases HIw with ⟨#HIc56, HIw⟩
  ihave Hmw := (mayWait_list (F := F) cc (dsem (⟨56, by decide⟩ : Fin 140)) (List.drop 28 (paysL cc)) (by decide)) $$ Hlev
  iapply (wait_a5_at m cc _ 4 rfl) $$ [Hc HO Hmw Hp]
  · isplitr; · iexact HIc56
    isplitl [Hc]; · iexact Hc
    isplitl [HO]; · iexact HO
    isplitl [Hmw]; · iexact Hmw
    iexact Hp
  iintro ⟨HO, Hq56, -, Hz4⟩
  sl_exec
  -- the y-neighbour's chunk 4 has landed
  icases Hcr with ⟨Hc, Hcr⟩
  icases HpR with ⟨Hp, HpR⟩
  icases HIw with ⟨#HIc72, HIw⟩
  ihave Hmw := (mayWait_list (F := F) cc (dsem (⟨72, by decide⟩ : Fin 140)) (List.drop 28 (paysL cc)) (by decide)) $$ Hlev
  iapply (wait_a7_at m cc _ 4 rfl) $$ [Hc HO Hmw Hp]
  · isplitr; · iexact HIc72
    isplitl [Hc]; · iexact Hc
    isplitl [HO]; · iexact HO
    isplitl [Hmw]; · iexact Hmw
    iexact Hp
  iintro ⟨HO, Hq72, -, Hy4⟩
  -- chunk 4 of the two neighbours' quarters: half its ownership stays for the copy into the result, of the other half one column half travels on
  ihave Hz4 := (Entails.of_eq (share_FG_eq (F := F) (r4R (zqF cc) 4) cc (r4 m cc))) $$ Hz4
  icases Hz4 with ⟨HzF4, HzG4⟩
  ihave HzF4 := (Entails.of_eq (chunk_halves (F := F) cc (zqF cc) 4 shF (r4 m cc))) $$ HzF4
  icases HzF4 with ⟨HzFl4, HzFr4⟩
  ihave Hy4 := (Entails.of_eq (share_FG_eq (F := F) (r4R (yqF cc) 4) cc (r4 m cc))) $$ Hy4
  icases Hy4 with ⟨HyF4, HyG4⟩
  ihave HyF4 := (Entails.of_eq (chunk_halves (F := F) cc (yqF cc) 4 shF (r4 m cc))) $$ HyF4
  icases HyF4 with ⟨HyFl4, HyFr4⟩
  sl_exec
  -- the right half of the z-neighbour's chunk 4 on to the y-neighbour
  icases Htk with ⟨Hts, Htr, Htk⟩
  icases HIt with ⟨#HIc96, #HIr, HIt⟩
  icases HRt with ⟨#HRs, #HRr, HRt⟩
  icases HhYp with ⟨⟨%fd, Hd⟩, HhYp⟩
  iapply (send_yf_at m cc _ (dev29_eq cc) 4 (by decide) _ _ (k0_off37_eq cc) fd (owedL (List.drop 29 (paysL cc))) rfl _) $$ [HzFr4 Hd HO Hts Htr]
  · isplitr; · iexact HIc96
    isplitr; · iexact HIr
    isplitl [HzFr4]; · iexact HzFr4
    isplitl [Hd]; · iexact Hd
    isplitl [HO]; · iexact HO
    isplitl [Hts]; · iexact Hts
    isplitr; · iexact HRs
    isplitl [Htr]; · iexact Htr
    iexact HRr
  iintro ⟨Hcyfs4, HO⟩
  iclear HIr HRs HRr
  sl_exec
  -- the left half of the y-neighbour's chunk 4 on to the z-neighbour
  icases Htk with ⟨Hts, Htr, Htk⟩
  icases HIt with ⟨#HIc80, #HIr, HIt⟩
  icases HRt with ⟨#HRs, #HRr, HRt⟩
  icases HhZp with ⟨⟨%fd, Hd⟩, HhZp⟩
  iapply (send_zf_at m cc _ (dev30_eq cc) 4 (by decide) _ _ (k0_off38_eq cc) fd (owedL (List.drop 30 (paysL cc))) rfl _) $$ [HyFl4 Hd HO Hts Htr]
  · isplitr; · iexact HIc80
    isplitr; · iexact HIr
    isplitl [HyFl4]; · iexact HyFl4
    isplitl [Hd]; · iexact Hd
    isplitl [HO]; · iexact HO
    isplitl [Hts]; · iexact Hts
    isplitr; · iexact HRs
    isplitl [Htr]; · iexact Htr
    iexact HRr
  iintro ⟨Hczfs4, HO⟩
  iclear HIr HRs HRr
  sl_exec
  -- the left half of chunk 3 of the diagonal quarter has landed
  icases Hcr with ⟨Hc, Hcr⟩
  icases HpR with ⟨Hp, HpR⟩
  icases HIw with ⟨#HIc87, HIw⟩
  ihave Hmw := (mayWait_list (F := F) cc (dsem (⟨87, by decide⟩ : Fin 140)) (List.drop 30 (paysL cc)) (by decide)) $$ Hlev
  iapply (wait_a9_at m cc _ 3 rfl (by decide)) $$ [Hc HO Hmw Hp]
  · isplitr; · iexact HIc87
    isplitl [Hc]; · iexact Hc
    isplitl [HO]; · iexact HO
    isplitl [Hmw]; · iexact Hmw
    iexact Hp
  iintro ⟨HO, Hq87, -, Hdl3⟩
  sl_exec
  -- its right half has landed
  icases Hcr with ⟨Hc, Hcr⟩
  icases HpR with ⟨Hp, HpR⟩
  icases HIw with ⟨#HIc103, HIw⟩
  ihave Hmw := (mayWait_list (F := F) cc (dsem (⟨103, by decide⟩ : Fin 140)) (List.drop 30 (paysL cc)) (by decide)) $$ Hlev
  iapply (wait_a11_at m cc _ 3 rfl (by decide)) $$ [Hc HO Hmw Hp]
  · isplitr; · iexact HIc103
    isplitl [Hc]; · iexact Hc
    isplitl [HO]; · iexact HO
    isplitl [Hmw]; · iexact Hmw
    iexact Hp
  iintro ⟨HO, Hq103, -, Hdr3⟩
  ihave Hd3 := (Entails.of_eq (chunk_halves (F := F) cc (dqF cc) 3 fullShare (r4 m cc)).symm) $$ [Hdl3 Hdr3]
  · isplitl [Hdl3]; · iexact Hdl3
    iexact Hdr3
  -- the four copies of chunk 3 into the result
  icases HvO with ⟨Hw3a, Hw3b, Hw3c, Hw3d, HvO⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  -- step 6 of the main loop: the x-neighbour's chunk 6 has landed
  icases Hcr with ⟨Hc, Hcr⟩
  icases HpR with ⟨Hp, HpR⟩
  icases HIw with ⟨#HIc36, HIw⟩
  ihave Hmw := (mayWait_list (F := F) cc (dsem (⟨36, by decide⟩ : Fin 140)) (List.drop 30 (paysL cc)) (by decide)) $$ Hlev
  iapply (wait_a1_at m cc _ 6 rfl) $$ [Hc HO Hmw Hp]
  · isplitr; · iexact HIc36
    isplitl [Hc]; · iexact Hc
    isplitl [HO]; · iexact HO
    isplitl [Hmw]; · iexact Hmw
    iexact Hp
  iintro ⟨HO, Hq36, -, Hrb6⟩
  icases Hown with ⟨Ho6, Hown⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  ihave Ho6 := (congr (F := F) (r4R (mqF cc) 6) cc fullShare (dev.sl.Ho6_w1 m f0) (r4 m cc) (fun i hi => glue_own m cc 6 _ (k0_off14_inb cc) (k0_off14_eq cc) _ (k0_off39_inb cc) (k0_off39_eq cc) f0 i hi)) $$ Ho6
  ihave Ho6 := (Entails.of_eq (share_ZYK_eq (F := F) (r4R (mqF cc) 6) cc (r4 m cc))) $$ Ho6
  icases Ho6 with ⟨HoZ6, HoY6, HoK6⟩
  -- own chunk 6 to the z-neighbour
  icases Htk with ⟨Hts, Htr, Htk⟩
  icases HIt with ⟨#HIc50, #HIr, HIt⟩
  icases HRt with ⟨#HRs, #HRr, HRt⟩
  icases HqZ with ⟨⟨%fd, Hd⟩, HqZ⟩
  iapply (send_z_at m cc _ (dev31_eq cc) 6 _ _ (k0_off40_eq cc) fd (owedL (List.drop 31 (paysL cc))) rfl _) $$ [HoZ6 Hd HO Hts Htr]
  · isplitr; · iexact HIc50
    isplitr; · iexact HIr
    isplitl [HoZ6]; · iexact HoZ6
    isplitl [Hd]; · iexact Hd
    isplitl [HO]; · iexact HO
    isplitl [Hts]; · iexact Hts
    isplitr; · iexact HRs
    isplitl [Htr]; · iexact Htr
    iexact HRr
  iintro ⟨Hczs6, HO⟩
  iclear HIr HRs HRr
  sl_exec
  -- own chunk 6 to the y-neighbour
  icases Htk with ⟨Hts, Htr, Htk⟩
  icases HIt with ⟨#HIc66, #HIr, HIt⟩
  icases HRt with ⟨#HRs, #HRr, HRt⟩
  icases HqY with ⟨⟨%fd, Hd⟩, HqY⟩
  iapply (send_y_at m cc _ (dev32_eq cc) 6 _ _ (k0_off40_eq cc) fd (owedL (List.drop 32 (paysL cc))) rfl _) $$ [HoY6 Hd HO Hts Htr]
  · isplitr; · iexact HIc66
    isplitr; · iexact HIr
    isplitl [HoY6]; · iexact HoY6
    isplitl [Hd]; · iexact Hd
    isplitl [HO]; · iexact HO
    isplitl [Hts]; · iexact Hts
    isplitr; · iexact HRs
    isplitl [Htr]; · iexact Htr
    iexact HRr
  iintro ⟨Hcys6, HO⟩
  iclear HIr HRs HRr
  sl_exec
  -- the z-neighbour's chunk 5 has landed
  icases Hcr with ⟨Hc, Hcr⟩
  icases HpR with ⟨Hp, HpR⟩
  icases HIw with ⟨#HIc57, HIw⟩
  ihave Hmw := (mayWait_list (F := F) cc (dsem (⟨57, by decide⟩ : Fin 140)) (List.drop 32 (paysL cc)) (by decide)) $$ Hlev
  iapply (wait_a5_at m cc _ 5 rfl) $$ [Hc HO Hmw Hp]
  · isplitr; · iexact HIc57
    isplitl [Hc]; · iexact Hc
    isplitl [HO]; · iexact HO
    isplitl [Hmw]; · iexact Hmw
    iexact Hp
  iintro ⟨HO, Hq57, -, Hz5⟩
  sl_exec
  -- the y-neighbour's chunk 5 has landed
  icases Hcr with ⟨Hc, Hcr⟩
  icases HpR with ⟨Hp, HpR⟩
  icases HIw with ⟨#HIc73, HIw⟩
  ihave Hmw := (mayWait_list (F := F) cc (dsem (⟨73, by decide⟩ : Fin 140)) (List.drop 32 (paysL cc)) (by decide)) $$ Hlev
  iapply (wait_a7_at m cc _ 5 rfl) $$ [Hc HO Hmw Hp]
  · isplitr; · iexact HIc73
    isplitl [Hc]; · iexact Hc
    isplitl [HO]; · iexact HO
    isplitl [Hmw]; · iexact Hmw
    iexact Hp
  iintro ⟨HO, Hq73, -, Hy5⟩
  -- chunk 5 of the two neighbours' quarters: half its ownership stays for the copy into the result, of the other half one column half travels on
  ihave Hz5 := (Entails.of_eq (share_FG_eq (F := F) (r4R (zqF cc) 5) cc (r4 m cc))) $$ Hz5
  icases Hz5 with ⟨HzF5, HzG5⟩
  ihave HzF5 := (Entails.of_eq (chunk_halves (F := F) cc (zqF cc) 5 shF (r4 m cc))) $$ HzF5
  icases HzF5 with ⟨HzFl5, HzFr5⟩
  ihave Hy5 := (Entails.of_eq (share_FG_eq (F := F) (r4R (yqF cc) 5) cc (r4 m cc))) $$ Hy5
  icases Hy5 with ⟨HyF5, HyG5⟩
  ihave HyF5 := (Entails.of_eq (chunk_halves (F := F) cc (yqF cc) 5 shF (r4 m cc))) $$ HyF5
  icases HyF5 with ⟨HyFl5, HyFr5⟩
  sl_exec
  -- the right half of the z-neighbour's chunk 5 on to the y-neighbour
  icases Htk with ⟨Hts, Htr, Htk⟩
  icases HIt with ⟨#HIc97, #HIr, HIt⟩
  icases HRt with ⟨#HRs, #HRr, HRt⟩
  icases HhYp with ⟨⟨%fd, Hd⟩, HhYp⟩
  iapply (send_yf_at m cc _ (dev33_eq cc) 5 (by decide) _ _ (k0_off41_eq cc) fd (owedL (List.drop 33 (paysL cc))) rfl _) $$ [HzFr5 Hd HO Hts Htr]
  · isplitr; · iexact HIc97
    isplitr; · iexact HIr
    isplitl [HzFr5]; · iexact HzFr5
    isplitl [Hd]; · iexact Hd
    isplitl [HO]; · iexact HO
    isplitl [Hts]; · iexact Hts
    isplitr; · iexact HRs
    isplitl [Htr]; · iexact Htr
    iexact HRr
  iintro ⟨Hcyfs5, HO⟩
  iclear HIr HRs HRr
  sl_exec
  -- the left half of the y-neighbour's chunk 5 on to the z-neighbour
  icases Htk with ⟨Hts, Htr, Htk⟩
  icases HIt with ⟨#HIc81, #HIr, HIt⟩
  icases HRt with ⟨#HRs, #HRr, HRt⟩
  icases HhZp with ⟨⟨%fd, Hd⟩, HhZp⟩
  iapply (send_zf_at m cc _ (dev34_eq cc) 5 (by decide) _ _ (k0_off42_eq cc) fd (owedL (List.drop 34 (paysL cc))) rfl _) $$ [HyFl5 Hd HO Hts Htr]
  · isplitr; · iexact HIc81
    isplitr; · iexact HIr
    isplitl [HyFl5]; · iexact HyFl5
    isplitl [Hd]; · iexact Hd
    isplitl [HO]; · iexact HO
    isplitl [Hts]; · iexact Hts
    isplitr; · iexact HRs
    isplitl [Htr]; · iexact Htr
    iexact HRr
  iintro ⟨Hczfs5, HO⟩
  iclear HIr HRs HRr
  sl_exec
  -- the left half of chunk 4 of the diagonal quarter has landed
  icases Hcr with ⟨Hc, Hcr⟩
  icases HpR with ⟨Hp, HpR⟩
  icases HIw with ⟨#HIc88, HIw⟩
  ihave Hmw := (mayWait_list (F := F) cc (dsem (⟨88, by decide⟩ : Fin 140)) (List.drop 34 (paysL cc)) (by decide)) $$ Hlev
  iapply (wait_a9_at m cc _ 4 rfl (by decide)) $$ [Hc HO Hmw Hp]
  · isplitr; · iexact HIc88
    isplitl [Hc]; · iexact Hc
    isplitl [HO]; · iexact HO
    isplitl [Hmw]; · iexact Hmw
    iexact Hp
  iintro ⟨HO, Hq88, -, Hdl4⟩
  sl_exec
  -- its right half has landed
  icases Hcr with ⟨Hc, Hcr⟩
  icases HpR with ⟨Hp, HpR⟩
  icases HIw with ⟨#HIc104, HIw⟩
  ihave Hmw := (mayWait_list (F := F) cc (dsem (⟨104, by decide⟩ : Fin 140)) (List.drop 34 (paysL cc)) (by decide)) $$ Hlev
  iapply (wait_a11_at m cc _ 4 rfl (by decide)) $$ [Hc HO Hmw Hp]
  · isplitr; · iexact HIc104
    isplitl [Hc]; · iexact Hc
    isplitl [HO]; · iexact HO
    isplitl [Hmw]; · iexact Hmw
    iexact Hp
  iintro ⟨HO, Hq104, -, Hdr4⟩
  ihave Hd4 := (Entails.of_eq (chunk_halves (F := F) cc (dqF cc) 4 fullShare (r4 m cc)).symm) $$ [Hdl4 Hdr4]
  · isplitl [Hdl4]; · iexact Hdl4
    iexact Hdr4
  -- the four copies of chunk 4 into the result
  icases HvO with ⟨Hw4a, Hw4b, Hw4c, Hw4d, HvO⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  -- step 7 of the main loop: the x-neighbour's chunk 7 has landed
  icases Hcr with ⟨Hc, Hcr⟩
  icases HpR with ⟨Hp, HpR⟩
  icases HIw with ⟨#HIc37, HIw⟩
  ihave Hmw := (mayWait_list (F := F) cc (dsem (⟨37, by decide⟩ : Fin 140)) (List.drop 34 (paysL cc)) (by decide)) $$ Hlev
  iapply (wait_a1_at m cc _ 7 rfl) $$ [Hc HO Hmw Hp]
  · isplitr; · iexact HIc37
    isplitl [Hc]; · iexact Hc
    isplitl [HO]; · iexact HO
    isplitl [Hmw]; · iexact Hmw
    iexact Hp
  iintro ⟨HO, Hq37, -, Hrb7⟩
  icases Hown with ⟨Ho7⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  ihave Ho7 := (congr (F := F) (r4R (mqF cc) 7) cc fullShare (dev.sl.Ho7_w1 m f0) (r4 m cc) (fun i hi => glue_own m cc 7 _ (k0_off16_inb cc) (k0_off16_eq cc) _ (k0_off43_inb cc) (k0_off43_eq cc) f0 i hi)) $$ Ho7
  ihave Ho7 := (Entails.of_eq (share_ZYK_eq (F := F) (r4R (mqF cc) 7) cc (r4 m cc))) $$ Ho7
  icases Ho7 with ⟨HoZ7, HoY7, HoK7⟩
  -- own chunk 7 to the z-neighbour
  icases Htk with ⟨Hts, Htr, Htk⟩
  icases HIt with ⟨#HIc51, #HIr, HIt⟩
  icases HRt with ⟨#HRs, #HRr, HRt⟩
  icases HqZ with ⟨%fd, Hd⟩
  iapply (send_z_at m cc _ (dev35_eq cc) 7 _ _ (k0_off44_eq cc) fd (owedL (List.drop 35 (paysL cc))) rfl _) $$ [HoZ7 Hd HO Hts Htr]
  · isplitr; · iexact HIc51
    isplitr; · iexact HIr
    isplitl [HoZ7]; · iexact HoZ7
    isplitl [Hd]; · iexact Hd
    isplitl [HO]; · iexact HO
    isplitl [Hts]; · iexact Hts
    isplitr; · iexact HRs
    isplitl [Htr]; · iexact Htr
    iexact HRr
  iintro ⟨Hczs7, HO⟩
  iclear HIr HRs HRr
  sl_exec
  -- own chunk 7 to the y-neighbour
  icases Htk with ⟨Hts, Htr, Htk⟩
  icases HIt with ⟨#HIc67, #HIr, HIt⟩
  icases HRt with ⟨#HRs, #HRr, HRt⟩
  icases HqY with ⟨%fd, Hd⟩
  iapply (send_y_at m cc _ (dev36_eq cc) 7 _ _ (k0_off44_eq cc) fd (owedL (List.drop 36 (paysL cc))) rfl _) $$ [HoY7 Hd HO Hts Htr]
  · isplitr; · iexact HIc67
    isplitr; · iexact HIr
    isplitl [HoY7]; · iexact HoY7
    isplitl [Hd]; · iexact Hd
    isplitl [HO]; · iexact HO
    isplitl [Hts]; · iexact Hts
    isplitr; · iexact HRs
    isplitl [Htr]; · iexact Htr
    iexact HRr
  iintro ⟨Hcys7, HO⟩
  iclear HIr HRs HRr
  sl_exec
  -- the z-neighbour's chunk 6 has landed
  icases Hcr with ⟨Hc, Hcr⟩
  icases HpR with ⟨Hp, HpR⟩
  icases HIw with ⟨#HIc58, HIw⟩
  ihave Hmw := (mayWait_list (F := F) cc (dsem (⟨58, by decide⟩ : Fin 140)) (List.drop 36 (paysL cc)) (by decide)) $$ Hlev
  iapply (wait_a5_at m cc _ 6 rfl) $$ [Hc HO Hmw Hp]
  · isplitr; · iexact HIc58
    isplitl [Hc]; · iexact Hc
    isplitl [HO]; · iexact HO
    isplitl [Hmw]; · iexact Hmw
    iexact Hp
  iintro ⟨HO, Hq58, -, Hz6⟩
  sl_exec
  -- the y-neighbour's chunk 6 has landed
  icases Hcr with ⟨Hc, Hcr⟩
  icases HpR with ⟨Hp, HpR⟩
  icases HIw with ⟨#HIc74, HIw⟩
  ihave Hmw := (mayWait_list (F := F) cc (dsem (⟨74, by decide⟩ : Fin 140)) (List.drop 36 (paysL cc)) (by decide)) $$ Hlev
  iapply (wait_a7_at m cc _ 6 rfl) $$ [Hc HO Hmw Hp]
  · isplitr; · iexact HIc74
    isplitl [Hc]; · iexact Hc
    isplitl [HO]; · iexact HO
    isplitl [Hmw]; · iexact Hmw
    iexact Hp
  iintro ⟨HO, Hq74, -, Hy6⟩
  -- chunk 6 of the two neighbours' quarters: half its ownership stays for the copy into the result, of the other half one column half travels on
  ihave Hz6 := (Entails.of_eq (share_FG_eq (F := F) (r4R (zqF cc) 6) cc (r4 m cc))) $$ Hz6
  icases Hz6 with ⟨HzF6, HzG6⟩
  ihave HzF6 := (Entails.of_eq (chunk_halves (F := F) cc (zqF cc) 6 shF (r4 m cc))) $$ HzF6
  icases HzF6 with ⟨HzFl6, HzFr6⟩
  ihave Hy6 := (Entails.of_eq (share_FG_eq (F := F) (r4R (yqF cc) 6) cc (r4 m cc))) $$ Hy6
  icases Hy6 with ⟨HyF6, HyG6⟩
  ihave HyF6 := (Entails.of_eq (chunk_halves (F := F) cc (yqF cc) 6 shF (r4 m cc))) $$ HyF6
  icases HyF6 with ⟨HyFl6, HyFr6⟩
  sl_exec
  -- the right half of the z-neighbour's chunk 6 on to the y-neighbour
  icases Htk with ⟨Hts, Htr, Htk⟩
  icases HIt with ⟨#HIc98, #HIr, HIt⟩
  icases HRt with ⟨#HRs, #HRr, HRt⟩
  icases HhYp with ⟨⟨%fd, Hd⟩, HhYp⟩
  iapply (send_yf_at m cc _ (dev37_eq cc) 6 (by decide) _ _ (k0_off45_eq cc) fd (owedL (List.drop 37 (paysL cc))) rfl _) $$ [HzFr6 Hd HO Hts Htr]
  · isplitr; · iexact HIc98
    isplitr; · iexact HIr
    isplitl [HzFr6]; · iexact HzFr6
    isplitl [Hd]; · iexact Hd
    isplitl [HO]; · iexact HO
    isplitl [Hts]; · iexact Hts
    isplitr; · iexact HRs
    isplitl [Htr]; · iexact Htr
    iexact HRr
  iintro ⟨Hcyfs6, HO⟩
  iclear HIr HRs HRr
  sl_exec
  -- the left half of the y-neighbour's chunk 6 on to the z-neighbour
  icases Htk with ⟨Hts, Htr, Htk⟩
  icases HIt with ⟨#HIc82, #HIr, HIt⟩
  icases HRt with ⟨#HRs, #HRr, HRt⟩
  icases HhZp with ⟨⟨%fd, Hd⟩, HhZp⟩
  iapply (send_zf_at m cc _ (dev38_eq cc) 6 (by decide) _ _ (k0_off46_eq cc) fd (owedL (List.drop 38 (paysL cc))) rfl _) $$ [HyFl6 Hd HO Hts Htr]
  · isplitr; · iexact HIc82
    isplitr; · iexact HIr
    isplitl [HyFl6]; · iexact HyFl6
    isplitl [Hd]; · iexact Hd
    isplitl [HO]; · iexact HO
    isplitl [Hts]; · iexact Hts
    isplitr; · iexact HRs
    isplitl [Htr]; · iexact Htr
    iexact HRr
  iintro ⟨Hczfs6, HO⟩
  iclear HIr HRs HRr
  sl_exec
  -- the left half of chunk 5 of the diagonal quarter has landed
  icases Hcr with ⟨Hc, Hcr⟩
  icases HpR with ⟨Hp, HpR⟩
  icases HIw with ⟨#HIc89, HIw⟩
  ihave Hmw := (mayWait_list (F := F) cc (dsem (⟨89, by decide⟩ : Fin 140)) (List.drop 38 (paysL cc)) (by decide)) $$ Hlev
  iapply (wait_a9_at m cc _ 5 rfl (by decide)) $$ [Hc HO Hmw Hp]
  · isplitr; · iexact HIc89
    isplitl [Hc]; · iexact Hc
    isplitl [HO]; · iexact HO
    isplitl [Hmw]; · iexact Hmw
    iexact Hp
  iintro ⟨HO, Hq89, -, Hdl5⟩
  sl_exec
  -- its right half has landed
  icases Hcr with ⟨Hc, Hcr⟩
  icases HpR with ⟨Hp, HpR⟩
  icases HIw with ⟨#HIc105, HIw⟩
  ihave Hmw := (mayWait_list (F := F) cc (dsem (⟨105, by decide⟩ : Fin 140)) (List.drop 38 (paysL cc)) (by decide)) $$ Hlev
  iapply (wait_a11_at m cc _ 5 rfl (by decide)) $$ [Hc HO Hmw Hp]
  · isplitr; · iexact HIc105
    isplitl [Hc]; · iexact Hc
    isplitl [HO]; · iexact HO
    isplitl [Hmw]; · iexact Hmw
    iexact Hp
  iintro ⟨HO, Hq105, -, Hdr5⟩
  ihave Hd5 := (Entails.of_eq (chunk_halves (F := F) cc (dqF cc) 5 fullShare (r4 m cc)).symm) $$ [Hdl5 Hdr5]
  · isplitl [Hdl5]; · iexact Hdl5
    iexact Hdr5
  -- the four copies of chunk 5 into the result
  icases HvO with ⟨Hw5a, Hw5b, Hw5c, Hw5d, HvO⟩
  have hled38 : ∀ (s : DmaSem sig), lvJ s.val = 0 → ((levAts LL lvv : sProp 𝕄) ⊢ MayWait (cc : Thread nD τ) (.dma s) () (owedL (List.drop 38 (paysL cc)))) :=
    fun s hs => mayWait_local (F := F) cc s hs _ (by decide)
  sl_exec
  clear hled38
  -- after the loop: the z-neighbour's last chunk has landed
  icases Hcr with ⟨Hc, Hcr⟩
  icases HpR with ⟨Hp, HpR⟩
  icases HIw with ⟨#HIc59, HIw⟩
  ihave Hmw := (mayWait_list (F := F) cc (dsem (⟨59, by decide⟩ : Fin 140)) (List.drop 38 (paysL cc)) (by decide)) $$ Hlev
  iapply (wait_a5_at m cc _ 7 rfl) $$ [Hc HO Hmw Hp]
  · isplitr; · iexact HIc59
    isplitl [Hc]; · iexact Hc
    isplitl [HO]; · iexact HO
    isplitl [Hmw]; · iexact Hmw
    iexact Hp
  iintro ⟨HO, Hq59, -, Hz7⟩
  sl_exec
  -- the y-neighbour's last chunk has landed
  icases Hcr with ⟨Hc, Hcr⟩
  icases HpR with ⟨Hp, HpR⟩
  icases HIw with ⟨#HIc75, HIw⟩
  ihave Hmw := (mayWait_list (F := F) cc (dsem (⟨75, by decide⟩ : Fin 140)) (List.drop 38 (paysL cc)) (by decide)) $$ Hlev
  iapply (wait_a7_at m cc _ 7 rfl) $$ [Hc HO Hmw Hp]
  · isplitr; · iexact HIc75
    isplitl [Hc]; · iexact Hc
    isplitl [HO]; · iexact HO
    isplitl [Hmw]; · iexact Hmw
    iexact Hp
  iintro ⟨HO, Hq75, -, Hy7⟩
  -- chunk 7 of the two neighbours' quarters: half its ownership stays for the copy into the result, of the other half one column half travels on
  ihave Hz7 := (Entails.of_eq (share_FG_eq (F := F) (r4R (zqF cc) 7) cc (r4 m cc))) $$ Hz7
  icases Hz7 with ⟨HzF7, HzG7⟩
  ihave HzF7 := (Entails.of_eq (chunk_halves (F := F) cc (zqF cc) 7 shF (r4 m cc))) $$ HzF7
  icases HzF7 with ⟨HzFl7, HzFr7⟩
  ihave Hy7 := (Entails.of_eq (share_FG_eq (F := F) (r4R (yqF cc) 7) cc (r4 m cc))) $$ Hy7
  icases Hy7 with ⟨HyF7, HyG7⟩
  ihave HyF7 := (Entails.of_eq (chunk_halves (F := F) cc (yqF cc) 7 shF (r4 m cc))) $$ HyF7
  icases HyF7 with ⟨HyFl7, HyFr7⟩
  sl_exec
  -- the right half of the z-neighbour's last chunk on to the y-neighbour
  icases Htk with ⟨Hts, Htr, Htk⟩
  icases HIt with ⟨#HIc99, #HIr, HIt⟩
  icases HRt with ⟨#HRs, #HRr, HRt⟩
  icases HhYp with ⟨%fd, Hd⟩
  iapply (send_yf_at m cc _ (dev39_eq cc) 7 (by decide) _ _ (k0_off47_eq cc) fd (owedL (List.drop 39 (paysL cc))) rfl _) $$ [HzFr7 Hd HO Hts Htr]
  · isplitr; · iexact HIc99
    isplitr; · iexact HIr
    isplitl [HzFr7]; · iexact HzFr7
    isplitl [Hd]; · iexact Hd
    isplitl [HO]; · iexact HO
    isplitl [Hts]; · iexact Hts
    isplitr; · iexact HRs
    isplitl [Htr]; · iexact Htr
    iexact HRr
  iintro ⟨Hcyfs7, HO⟩
  iclear HIr HRs HRr
  sl_exec
  -- the left half of the y-neighbour's last chunk on to the z-neighbour
  icases Htk with ⟨Hts, Htr⟩
  icases HIt with ⟨#HIc83, #HIr⟩
  icases HRt with ⟨#HRs, #HRr⟩
  icases HhZp with ⟨%fd, Hd⟩
  iapply (send_zf_at m cc _ (dev40_eq cc) 7 (by decide) _ _ (k0_off48_eq cc) fd (owedL (List.drop 40 (paysL cc))) rfl _) $$ [HyFl7 Hd HO Hts Htr]
  · isplitr; · iexact HIc83
    isplitr; · iexact HIr
    isplitl [HyFl7]; · iexact HyFl7
    isplitl [Hd]; · iexact Hd
    isplitl [HO]; · iexact HO
    isplitl [Hts]; · iexact Hts
    isplitr; · iexact HRs
    isplitl [Htr]; · iexact Htr
    iexact HRr
  iintro ⟨Hczfs7, HO⟩
  iclear HIr HRs HRr
  sl_exec
  -- chunk 0 of the diagonal quarter: the x-neighbour's chunk has landed
  icases Hcr with ⟨Hc, Hcr⟩
  icases HpR with ⟨Hp, HpR⟩
  icases HIw with ⟨#HIc41, HIw⟩
  ihave Hmw := (mayWait_list (F := F) cc (dsem (⟨41, by decide⟩ : Fin 140)) (List.drop 40 (paysL cc)) (by decide)) $$ Hlev
  iapply (wait_a3_at m cc _ 0 rfl) $$ [Hc HO Hmw Hp]
  · isplitr; · iexact HIc41
    isplitl [Hc]; · iexact Hc
    isplitl [HO]; · iexact HO
    isplitl [Hmw]; · iexact Hmw
    iexact Hp
  iintro ⟨HO, Hq41, -, Hrb20⟩
  icases Hdg with ⟨Hdq0, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq0 := (congr (F := F) (r4R (dqF cc) 0) cc fullShare (dev.sl.Hdq0_w1 m f0) (r4 m cc) (fun i hi => glue_dgn m cc 0 0 rfl _ (k0_off18_inb cc) (k0_off18_eq cc) _ (k0_off49_inb cc) (k0_off49_eq cc) f0 i hi)) $$ Hdq0
  -- the four copies of chunk 0 into the result
  icases HvO with ⟨Hw0a, Hw0b, Hw0c, Hw0d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 1 of the diagonal quarter: the x-neighbour's chunk has landed
  icases Hcr with ⟨Hc, Hcr⟩
  icases HpR with ⟨Hp, HpR⟩
  icases HIw with ⟨#HIc42, HIw⟩
  ihave Hmw := (mayWait_list (F := F) cc (dsem (⟨42, by decide⟩ : Fin 140)) (List.drop 40 (paysL cc)) (by decide)) $$ Hlev
  iapply (wait_a3_at m cc _ 1 rfl) $$ [Hc HO Hmw Hp]
  · isplitr; · iexact HIc42
    isplitl [Hc]; · iexact Hc
    isplitl [HO]; · iexact HO
    isplitl [Hmw]; · iexact Hmw
    iexact Hp
  iintro ⟨HO, Hq42, -, Hrb21⟩
  icases Hdg with ⟨Hdq1, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq1 := (congr (F := F) (r4R (dqF cc) 1) cc fullShare (dev.sl.Hdq1_w1 m f0) (r4 m cc) (fun i hi => glue_dgn m cc 1 1 rfl _ (k0_off20_inb cc) (k0_off20_eq cc) _ (k0_off50_inb cc) (k0_off50_eq cc) f0 i hi)) $$ Hdq1
  -- the four copies of chunk 1 into the result
  icases HvO with ⟨Hw1a, Hw1b, Hw1c, Hw1d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 2 of the diagonal quarter: the x-neighbour's chunk has landed
  icases Hcr with ⟨Hc, Hcr⟩
  icases HpR with ⟨Hp, HpR⟩
  icases HIw with ⟨#HIc43, HIw⟩
  ihave Hmw := (mayWait_list (F := F) cc (dsem (⟨43, by decide⟩ : Fin 140)) (List.drop 40 (paysL cc)) (by decide)) $$ Hlev
  iapply (wait_a3_at m cc _ 2 rfl) $$ [Hc HO Hmw Hp]
  · isplitr; · iexact HIc43
    isplitl [Hc]; · iexact Hc
    isplitl [HO]; · iexact HO
    isplitl [Hmw]; · iexact Hmw
    iexact Hp
  iintro ⟨HO, Hq43, -, Hrb22⟩
  icases Hdg with ⟨Hdq2⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq2 := (congr (F := F) (r4R (dqF cc) 2) cc fullShare (dev.sl.Hdq2_w1 m f0) (r4 m cc) (fun i hi => glue_dgn m cc 2 2 rfl _ (k0_off22_inb cc) (k0_off22_eq cc) _ (k0_off51_inb cc) (k0_off51_eq cc) f0 i hi)) $$ Hdq2
  -- the four copies of chunk 2 into the result
  icases HvO with ⟨Hw2a, Hw2b, Hw2c, Hw2d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 6 of the diagonal quarter has landed
  icases Hcr with ⟨Hc, Hcr⟩
  icases HpR with ⟨Hp, HpR⟩
  icases HIw with ⟨#HIc90, HIw⟩
  ihave Hmw := (mayWait_list (F := F) cc (dsem (⟨90, by decide⟩ : Fin 140)) (List.drop 40 (paysL cc)) (by decide)) $$ Hlev
  iapply (wait_a9_at m cc _ 6 rfl (by decide)) $$ [Hc HO Hmw Hp]
  · isplitr; · iexact HIc90
    isplitl [Hc]; · iexact Hc
    isplitl [HO]; · iexact HO
    isplitl [Hmw]; · iexact Hmw
    iexact Hp
  iintro ⟨HO, Hq90, -, Hdl6⟩
  sl_exec
  -- its right half has landed
  icases Hcr with ⟨Hc, Hcr⟩
  icases HpR with ⟨Hp, HpR⟩
  icases HIw with ⟨#HIc106, HIw⟩
  ihave Hmw := (mayWait_list (F := F) cc (dsem (⟨106, by decide⟩ : Fin 140)) (List.drop 40 (paysL cc)) (by decide)) $$ Hlev
  iapply (wait_a11_at m cc _ 6 rfl (by decide)) $$ [Hc HO Hmw Hp]
  · isplitr; · iexact HIc106
    isplitl [Hc]; · iexact Hc
    isplitl [HO]; · iexact HO
    isplitl [Hmw]; · iexact Hmw
    iexact Hp
  iintro ⟨HO, Hq106, -, Hdr6⟩
  ihave Hd6 := (Entails.of_eq (chunk_halves (F := F) cc (dqF cc) 6 fullShare (r4 m cc)).symm) $$ [Hdl6 Hdr6]
  · isplitl [Hdl6]; · iexact Hdl6
    iexact Hdr6
  -- the four copies of chunk 6 into the result
  icases HvO with ⟨Hw6a, Hw6b, Hw6c, Hw6d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 7 of the diagonal quarter has landed
  icases Hcr with ⟨Hc, Hcr⟩
  icases HpR with ⟨Hp, HpR⟩
  icases HIw with ⟨#HIc91, HIw⟩
  ihave Hcr := ((sep_emp (PROP := sProp 𝕄)).2) $$ Hcr
  ihave Hmw := (mayWait_list (F := F) cc (dsem (⟨91, by decide⟩ : Fin 140)) (List.drop 40 (paysL cc)) (by decide)) $$ Hlev
  iapply (wait_a9_at m cc _ 7 rfl (by decide)) $$ [Hc HO Hmw Hp]
  · isplitr; · iexact HIc91
    isplitl [Hc]; · iexact Hc
    isplitl [HO]; · iexact HO
    isplitl [Hmw]; · iexact Hmw
    iexact Hp
  iintro ⟨HO, Hq91, -, Hdl7⟩
  sl_exec
  -- its right half has landed
  icases HIw with #HIc107
  icases Hcr with ⟨Hcr, -⟩
  ihave Hmw := (mayWait_list (F := F) cc (dsem (⟨107, by decide⟩ : Fin 140)) (List.drop 40 (paysL cc)) (by decide)) $$ Hlev
  iapply (wait_a11_at m cc _ 7 rfl (by decide)) $$ [Hcr HO Hmw HpR]
  · isplitr; · iexact HIc107
    isplitl [Hcr]; · iexact Hcr
    isplitl [HO]; · iexact HO
    isplitl [Hmw]; · iexact Hmw
    iexact HpR
  iintro ⟨HO, Hq107, -, Hdr7⟩
  ihave Hd7 := (Entails.of_eq (chunk_halves (F := F) cc (dqF cc) 7 fullShare (r4 m cc)).symm) $$ [Hdl7 Hdr7]
  · isplitl [Hdl7]; · iexact Hdl7
    iexact Hdr7
  -- the four copies of chunk 7 into the result
  icases HvO with ⟨Hw7a, Hw7b, Hw7c, Hw7d⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- nothing is owed any more: the level fact for the remaining local waits, once
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  -- the departure of chunk 0 across x
  icases HpS with ⟨Hp, HpS⟩
  ihave Hmw := (mayWait_list (F := F) cc (dsem (⟨22, by decide⟩ : Fin 140)) (List.drop 40 (paysL cc)) (by decide)) $$ Hlev
  iapply (wait_a0_at m cc _ 0 rfl) $$ [Hcxs0 HO Hmw Hp]
  · isplitr; · iexact HIc22
    isplitl [Hcxs0]; · iexact Hcxs0
    isplitl [HO]; · iexact HO
    isplitl [Hmw]; · iexact Hmw
    iexact Hp
  iintro ⟨HO, Hq22, -, HBs0⟩
  sl_exec
  -- of own chunk 0 to z
  icases HpS with ⟨Hp, HpS⟩
  ihave Hmw := (mayWait_list (F := F) cc (dsem (⟨44, by decide⟩ : Fin 140)) (List.drop 40 (paysL cc)) (by decide)) $$ Hlev
  iapply (wait_a4_at m cc _ 0 rfl) $$ [Hczs0 HO Hmw Hp]
  · isplitr; · iexact HIc44
    isplitl [Hczs0]; · iexact Hczs0
    isplitl [HO]; · iexact HO
    isplitl [Hmw]; · iexact Hmw
    iexact Hp
  iintro ⟨HO, Hq44, -, HoZb0⟩
  sl_exec
  -- of own chunk 0 to y
  icases HpS with ⟨Hp, HpS⟩
  ihave Hmw := (mayWait_list (F := F) cc (dsem (⟨60, by decide⟩ : Fin 140)) (List.drop 40 (paysL cc)) (by decide)) $$ Hlev
  iapply (wait_a6_at m cc _ 0 rfl) $$ [Hcys0 HO Hmw Hp]
  · isplitr; · iexact HIc60
    isplitl [Hcys0]; · iexact Hcys0
    isplitl [HO]; · iexact HO
    isplitl [Hmw]; · iexact Hmw
    iexact Hp
  iintro ⟨HO, Hq60, -, HoYb0⟩
  sl_exec
  -- the departure of chunk 1 across x
  icases HpS with ⟨Hp, HpS⟩
  ihave Hmw := (mayWait_list (F := F) cc (dsem (⟨23, by decide⟩ : Fin 140)) (List.drop 40 (paysL cc)) (by decide)) $$ Hlev
  iapply (wait_a0_at m cc _ 1 rfl) $$ [Hcxs1 HO Hmw Hp]
  · isplitr; · iexact HIc23
    isplitl [Hcxs1]; · iexact Hcxs1
    isplitl [HO]; · iexact HO
    isplitl [Hmw]; · iexact Hmw
    iexact Hp
  iintro ⟨HO, Hq23, -, HBs1⟩
  sl_exec
  -- of own chunk 1 to z
  icases HpS with ⟨Hp, HpS⟩
  ihave Hmw := (mayWait_list (F := F) cc (dsem (⟨45, by decide⟩ : Fin 140)) (List.drop 40 (paysL cc)) (by decide)) $$ Hlev
  iapply (wait_a4_at m cc _ 1 rfl) $$ [Hczs1 HO Hmw Hp]
  · isplitr; · iexact HIc45
    isplitl [Hczs1]; · iexact Hczs1
    isplitl [HO]; · iexact HO
    isplitl [Hmw]; · iexact Hmw
    iexact Hp
  iintro ⟨HO, Hq45, -, HoZb1⟩
  sl_exec
  -- of own chunk 1 to y
  icases HpS with ⟨Hp, HpS⟩
  ihave Hmw := (mayWait_list (F := F) cc (dsem (⟨61, by decide⟩ : Fin 140)) (List.drop 40 (paysL cc)) (by decide)) $$ Hlev
  iapply (wait_a6_at m cc _ 1 rfl) $$ [Hcys1 HO Hmw Hp]
  · isplitr; · iexact HIc61
    isplitl [Hcys1]; · iexact Hcys1
    isplitl [HO]; · iexact HO
    isplitl [Hmw]; · iexact Hmw
    iexact Hp
  iintro ⟨HO, Hq61, -, HoYb1⟩
  sl_exec
  -- the departure of chunk 2 across x
  icases HpS with ⟨Hp, HpS⟩
  ihave Hmw := (mayWait_list (F := F) cc (dsem (⟨24, by decide⟩ : Fin 140)) (List.drop 40 (paysL cc)) (by decide)) $$ Hlev
  iapply (wait_a0_at m cc _ 2 rfl) $$ [Hcxs2 HO Hmw Hp]
  · isplitr; · iexact HIc24
    isplitl [Hcxs2]; · iexact Hcxs2
    isplitl [HO]; · iexact HO
    isplitl [Hmw]; · iexact Hmw
    iexact Hp
  iintro ⟨HO, Hq24, -, HBs2⟩
  sl_exec
  -- of own chunk 2 to z
  icases HpS with ⟨Hp, HpS⟩
  ihave Hmw := (mayWait_list (F := F) cc (dsem (⟨46, by decide⟩ : Fin 140)) (List.drop 40 (paysL cc)) (by decide)) $$ Hlev
  iapply (wait_a4_at m cc _ 2 rfl) $$ [Hczs2 HO Hmw Hp]
  · isplitr; · iexact HIc46
    isplitl [Hczs2]; · iexact Hczs2
    isplitl [HO]; · iexact HO
    isplitl [Hmw]; · iexact Hmw
    iexact Hp
  iintro ⟨HO, Hq46, -, HoZb2⟩
  sl_exec
  -- of own chunk 2 to y
  icases HpS with ⟨Hp, HpS⟩
  ihave Hmw := (mayWait_list (F := F) cc (dsem (⟨62, by decide⟩ : Fin 140)) (List.drop 40 (paysL cc)) (by decide)) $$ Hlev
  iapply (wait_a6_at m cc _ 2 rfl) $$ [Hcys2 HO Hmw Hp]
  · isplitr; · iexact HIc62
    isplitl [Hcys2]; · iexact Hcys2
    isplitl [HO]; · iexact HO
    isplitl [Hmw]; · iexact Hmw
    iexact Hp
  iintro ⟨HO, Hq62, -, HoYb2⟩
  sl_exec
  -- the departure of chunk 3 across x
  icases HpS with ⟨Hp, HpS⟩
  ihave Hmw := (mayWait_list (F := F) cc (dsem (⟨25, by decide⟩ : Fin 140)) (List.drop 40 (paysL cc)) (by decide)) $$ Hlev
  iapply (wait_a0_at m cc _ 3 rfl) $$ [Hcxs3 HO Hmw Hp]
  · isplitr; · iexact HIc25
    isplitl [Hcxs3]; · iexact Hcxs3
    isplitl [HO]; · iexact HO
    isplitl [Hmw]; · iexact Hmw
    iexact Hp
  iintro ⟨HO, Hq25, -, HBs3⟩
  sl_exec
  -- of own chunk 3 to z
  icases HpS with ⟨Hp, HpS⟩
  ihave Hmw := (mayWait_list (F := F) cc (dsem (⟨47, by decide⟩ : Fin 140)) (List.drop 40 (paysL cc)) (by decide)) $$ Hlev
  iapply (wait_a4_at m cc _ 3 rfl) $$ [Hczs3 HO Hmw Hp]
  · isplitr; · iexact HIc47
    isplitl [Hczs3]; · iexact Hczs3
    isplitl [HO]; · iexact HO
    isplitl [Hmw]; · iexact Hmw
    iexact Hp
  iintro ⟨HO, Hq47, -, HoZb3⟩
  sl_exec
  -- of own chunk 3 to y
  icases HpS with ⟨Hp, HpS⟩
  ihave Hmw := (mayWait_list (F := F) cc (dsem (⟨63, by decide⟩ : Fin 140)) (List.drop 40 (paysL cc)) (by decide)) $$ Hlev
  iapply (wait_a6_at m cc _ 3 rfl) $$ [Hcys3 HO Hmw Hp]
  · isplitr; · iexact HIc63
    isplitl [Hcys3]; · iexact Hcys3
    isplitl [HO]; · iexact HO
    isplitl [Hmw]; · iexact Hmw
    iexact Hp
  iintro ⟨HO, Hq63, -, HoYb3⟩
  sl_exec
  -- of the forwarded half to z
  icases HpS with ⟨Hp, HpS⟩
  ihave Hmw := (mayWait_list (F := F) cc (dsem (⟨79, by decide⟩ : Fin 140)) (List.drop 40 (paysL cc)) (by decide)) $$ Hlev
  iapply (wait_a8_at m cc _ 3 rfl (by decide)) $$ [Hczfs3 HO Hmw Hp]
  · isplitr; · iexact HIc79
    isplitl [Hczfs3]; · iexact Hczfs3
    isplitl [HO]; · iexact HO
    isplitl [Hmw]; · iexact Hmw
    iexact Hp
  iintro ⟨HO, Hq79, -, HyFlb3⟩
  sl_exec
  -- of the forwarded half to y
  icases HpS with ⟨Hp, HpS⟩
  ihave Hmw := (mayWait_list (F := F) cc (dsem (⟨95, by decide⟩ : Fin 140)) (List.drop 40 (paysL cc)) (by decide)) $$ Hlev
  iapply (wait_a10_at m cc _ 3 rfl (by decide)) $$ [Hcyfs3 HO Hmw Hp]
  · isplitr; · iexact HIc95
    isplitl [Hcyfs3]; · iexact Hcyfs3
    isplitl [HO]; · iexact HO
    isplitl [Hmw]; · iexact Hmw
    iexact Hp
  iintro ⟨HO, Hq95, -, HzFrb3⟩
  sl_exec
  -- the departure of chunk 4 across x
  icases HpS with ⟨Hp, HpS⟩
  ihave Hmw := (mayWait_list (F := F) cc (dsem (⟨26, by decide⟩ : Fin 140)) (List.drop 40 (paysL cc)) (by decide)) $$ Hlev
  iapply (wait_a0_at m cc _ 4 rfl) $$ [Hcxs4 HO Hmw Hp]
  · isplitr; · iexact HIc26
    isplitl [Hcxs4]; · iexact Hcxs4
    isplitl [HO]; · iexact HO
    isplitl [Hmw]; · iexact Hmw
    iexact Hp
  iintro ⟨HO, Hq26, -, HBs4⟩
  sl_exec
  -- of own chunk 4 to z
  icases HpS with ⟨Hp, HpS⟩
  ihave Hmw := (mayWait_list (F := F) cc (dsem (⟨48, by decide⟩ : Fin 140)) (List.drop 40 (paysL cc)) (by decide)) $$ Hlev
  iapply (wait_a4_at m cc _ 4 rfl) $$ [Hczs4 HO Hmw Hp]
  · isplitr; · iexact HIc48
    isplitl [Hczs4]; · iexact Hczs4
    isplitl [HO]; · iexact HO
    isplitl [Hmw]; · iexact Hmw
    iexact Hp
  iintro ⟨HO, Hq48, -, HoZb4⟩
  sl_exec
  -- of own chunk 4 to y
  icases HpS with ⟨Hp, HpS⟩
  ihave Hmw := (mayWait_list (F := F) cc (dsem (⟨64, by decide⟩ : Fin 140)) (List.drop 40 (paysL cc)) (by decide)) $$ Hlev
  iapply (wait_a6_at m cc _ 4 rfl) $$ [Hcys4 HO Hmw Hp]
  · isplitr; · iexact HIc64
    isplitl [Hcys4]; · iexact Hcys4
    isplitl [HO]; · iexact HO
    isplitl [Hmw]; · iexact Hmw
    iexact Hp
  iintro ⟨HO, Hq64, -, HoYb4⟩
  sl_exec
  -- of the forwarded half to z
  icases HpS with ⟨Hp, HpS⟩
  ihave Hmw := (mayWait_list (F := F) cc (dsem (⟨80, by decide⟩ : Fin 140)) (List.drop 40 (paysL cc)) (by decide)) $$ Hlev
  iapply (wait_a8_at m cc _ 4 rfl (by decide)) $$ [Hczfs4 HO Hmw Hp]
  · isplitr; · iexact HIc80
    isplitl [Hczfs4]; · iexact Hczfs4
    isplitl [HO]; · iexact HO
    isplitl [Hmw]; · iexact Hmw
    iexact Hp
  iintro ⟨HO, Hq80, -, HyFlb4⟩
  sl_exec
  -- of the forwarded half to y
  icases HpS with ⟨Hp, HpS⟩
  ihave Hmw := (mayWait_list (F := F) cc (dsem (⟨96, by decide⟩ : Fin 140)) (List.drop 40 (paysL cc)) (by decide)) $$ Hlev
  iapply (wait_a10_at m cc _ 4 rfl (by decide)) $$ [Hcyfs4 HO Hmw Hp]
  · isplitr; · iexact HIc96
    isplitl [Hcyfs4]; · iexact Hcyfs4
    isplitl [HO]; · iexact HO
    isplitl [Hmw]; · iexact Hmw
    iexact Hp
  iintro ⟨HO, Hq96, -, HzFrb4⟩
  sl_exec
  -- the departure of chunk 5 across x
  icases HpS with ⟨Hp, HpS⟩
  ihave Hmw := (mayWait_list (F := F) cc (dsem (⟨27, by decide⟩ : Fin 140)) (List.drop 40 (paysL cc)) (by decide)) $$ Hlev
  iapply (wait_a0_at m cc _ 5 rfl) $$ [Hcxs5 HO Hmw Hp]
  · isplitr; · iexact HIc27
    isplitl [Hcxs5]; · iexact Hcxs5
    isplitl [HO]; · iexact HO
    isplitl [Hmw]; · iexact Hmw
    iexact Hp
  iintro ⟨HO, Hq27, -, HBs5⟩
  sl_exec
  -- of own chunk 5 to z
  icases HpS with ⟨Hp, HpS⟩
  ihave Hmw := (mayWait_list (F := F) cc (dsem (⟨49, by decide⟩ : Fin 140)) (List.drop 40 (paysL cc)) (by decide)) $$ Hlev
  iapply (wait_a4_at m cc _ 5 rfl) $$ [Hczs5 HO Hmw Hp]
  · isplitr; · iexact HIc49
    isplitl [Hczs5]; · iexact Hczs5
    isplitl [HO]; · iexact HO
    isplitl [Hmw]; · iexact Hmw
    iexact Hp
  iintro ⟨HO, Hq49, -, HoZb5⟩
  sl_exec
  -- of own chunk 5 to y
  icases HpS with ⟨Hp, HpS⟩
  ihave Hmw := (mayWait_list (F := F) cc (dsem (⟨65, by decide⟩ : Fin 140)) (List.drop 40 (paysL cc)) (by decide)) $$ Hlev
  iapply (wait_a6_at m cc _ 5 rfl) $$ [Hcys5 HO Hmw Hp]
  · isplitr; · iexact HIc65
    isplitl [Hcys5]; · iexact Hcys5
    isplitl [HO]; · iexact HO
    isplitl [Hmw]; · iexact Hmw
    iexact Hp
  iintro ⟨HO, Hq65, -, HoYb5⟩
  sl_exec
  -- of the forwarded half to z
  icases HpS with ⟨Hp, HpS⟩
  ihave Hmw := (mayWait_list (F := F) cc (dsem (⟨81, by decide⟩ : Fin 140)) (List.drop 40 (paysL cc)) (by decide)) $$ Hlev
  iapply (wait_a8_at m cc _ 5 rfl (by decide)) $$ [Hczfs5 HO Hmw Hp]
  · isplitr; · iexact HIc81
    isplitl [Hczfs5]; · iexact Hczfs5
    isplitl [HO]; · iexact HO
    isplitl [Hmw]; · iexact Hmw
    iexact Hp
  iintro ⟨HO, Hq81, -, HyFlb5⟩
  sl_exec
  -- of the forwarded half to y
  icases HpS with ⟨Hp, HpS⟩
  ihave Hmw := (mayWait_list (F := F) cc (dsem (⟨97, by decide⟩ : Fin 140)) (List.drop 40 (paysL cc)) (by decide)) $$ Hlev
  iapply (wait_a10_at m cc _ 5 rfl (by decide)) $$ [Hcyfs5 HO Hmw Hp]
  · isplitr; · iexact HIc97
    isplitl [Hcyfs5]; · iexact Hcyfs5
    isplitl [HO]; · iexact HO
    isplitl [Hmw]; · iexact Hmw
    iexact Hp
  iintro ⟨HO, Hq97, -, HzFrb5⟩
  sl_exec
  -- the departure of chunk 6 across x
  icases HpS with ⟨Hp, HpS⟩
  ihave Hmw := (mayWait_list (F := F) cc (dsem (⟨28, by decide⟩ : Fin 140)) (List.drop 40 (paysL cc)) (by decide)) $$ Hlev
  iapply (wait_a0_at m cc _ 6 rfl) $$ [Hcxs6 HO Hmw Hp]
  · isplitr; · iexact HIc28
    isplitl [Hcxs6]; · iexact Hcxs6
    isplitl [HO]; · iexact HO
    isplitl [Hmw]; · iexact Hmw
    iexact Hp
  iintro ⟨HO, Hq28, -, HBs6⟩
  sl_exec
  -- of own chunk 6 to z
  icases HpS with ⟨Hp, HpS⟩
  ihave Hmw := (mayWait_list (F := F) cc (dsem (⟨50, by decide⟩ : Fin 140)) (List.drop 40 (paysL cc)) (by decide)) $$ Hlev
  iapply (wait_a4_at m cc _ 6 rfl) $$ [Hczs6 HO Hmw Hp]
  · isplitr; · iexact HIc50
    isplitl [Hczs6]; · iexact Hczs6
    isplitl [HO]; · iexact HO
    isplitl [Hmw]; · iexact Hmw
    iexact Hp
  iintro ⟨HO, Hq50, -, HoZb6⟩
  sl_exec
  -- of own chunk 6 to y
  icases HpS with ⟨Hp, HpS⟩
  ihave Hmw := (mayWait_list (F := F) cc (dsem (⟨66, by decide⟩ : Fin 140)) (List.drop 40 (paysL cc)) (by decide)) $$ Hlev
  iapply (wait_a6_at m cc _ 6 rfl) $$ [Hcys6 HO Hmw Hp]
  · isplitr; · iexact HIc66
    isplitl [Hcys6]; · iexact Hcys6
    isplitl [HO]; · iexact HO
    isplitl [Hmw]; · iexact Hmw
    iexact Hp
  iintro ⟨HO, Hq66, -, HoYb6⟩
  sl_exec
  -- of the forwarded half to z
  icases HpS with ⟨Hp, HpS⟩
  ihave Hmw := (mayWait_list (F := F) cc (dsem (⟨82, by decide⟩ : Fin 140)) (List.drop 40 (paysL cc)) (by decide)) $$ Hlev
  iapply (wait_a8_at m cc _ 6 rfl (by decide)) $$ [Hczfs6 HO Hmw Hp]
  · isplitr; · iexact HIc82
    isplitl [Hczfs6]; · iexact Hczfs6
    isplitl [HO]; · iexact HO
    isplitl [Hmw]; · iexact Hmw
    iexact Hp
  iintro ⟨HO, Hq82, -, HyFlb6⟩
  sl_exec
  -- of the forwarded half to y
  icases HpS with ⟨Hp, HpS⟩
  ihave Hmw := (mayWait_list (F := F) cc (dsem (⟨98, by decide⟩ : Fin 140)) (List.drop 40 (paysL cc)) (by decide)) $$ Hlev
  iapply (wait_a10_at m cc _ 6 rfl (by decide)) $$ [Hcyfs6 HO Hmw Hp]
  · isplitr; · iexact HIc98
    isplitl [Hcyfs6]; · iexact Hcyfs6
    isplitl [HO]; · iexact HO
    isplitl [Hmw]; · iexact Hmw
    iexact Hp
  iintro ⟨HO, Hq98, -, HzFrb6⟩
  sl_exec
  -- the departure of chunk 7 across x
  icases HpS with ⟨Hp, HpS⟩
  ihave Hmw := (mayWait_list (F := F) cc (dsem (⟨29, by decide⟩ : Fin 140)) (List.drop 40 (paysL cc)) (by decide)) $$ Hlev
  iapply (wait_a0_at m cc _ 7 rfl) $$ [Hcxs7 HO Hmw Hp]
  · isplitr; · iexact HIc29
    isplitl [Hcxs7]; · iexact Hcxs7
    isplitl [HO]; · iexact HO
    isplitl [Hmw]; · iexact Hmw
    iexact Hp
  iintro ⟨HO, Hq29, -, HBs7⟩
  sl_exec
  -- of own chunk 7 to z
  icases HpS with ⟨Hp, HpS⟩
  ihave Hmw := (mayWait_list (F := F) cc (dsem (⟨51, by decide⟩ : Fin 140)) (List.drop 40 (paysL cc)) (by decide)) $$ Hlev
  iapply (wait_a4_at m cc _ 7 rfl) $$ [Hczs7 HO Hmw Hp]
  · isplitr; · iexact HIc51
    isplitl [Hczs7]; · iexact Hczs7
    isplitl [HO]; · iexact HO
    isplitl [Hmw]; · iexact Hmw
    iexact Hp
  iintro ⟨HO, Hq51, -, HoZb7⟩
  sl_exec
  -- of own chunk 7 to y
  icases HpS with ⟨Hp, HpS⟩
  ihave Hmw := (mayWait_list (F := F) cc (dsem (⟨67, by decide⟩ : Fin 140)) (List.drop 40 (paysL cc)) (by decide)) $$ Hlev
  iapply (wait_a6_at m cc _ 7 rfl) $$ [Hcys7 HO Hmw Hp]
  · isplitr; · iexact HIc67
    isplitl [Hcys7]; · iexact Hcys7
    isplitl [HO]; · iexact HO
    isplitl [Hmw]; · iexact Hmw
    iexact Hp
  iintro ⟨HO, Hq67, -, HoYb7⟩
  sl_exec
  -- of the forwarded half to z
  icases HpS with ⟨Hp, HpS⟩
  ihave Hmw := (mayWait_list (F := F) cc (dsem (⟨83, by decide⟩ : Fin 140)) (List.drop 40 (paysL cc)) (by decide)) $$ Hlev
  iapply (wait_a8_at m cc _ 7 rfl (by decide)) $$ [Hczfs7 HO Hmw Hp]
  · isplitr; · iexact HIc83
    isplitl [Hczfs7]; · iexact Hczfs7
    isplitl [HO]; · iexact HO
    isplitl [Hmw]; · iexact Hmw
    iexact Hp
  iintro ⟨HO, Hq83, -, HyFlb7⟩
  sl_exec
  -- of the forwarded half to y
  icases HpS with ⟨Hp, HpS⟩
  ihave Hmw := (mayWait_list (F := F) cc (dsem (⟨99, by decide⟩ : Fin 140)) (List.drop 40 (paysL cc)) (by decide)) $$ Hlev
  iapply (wait_a10_at m cc _ 7 rfl (by decide)) $$ [Hcyfs7 HO Hmw Hp]
  · isplitr; · iexact HIc99
    isplitl [Hcyfs7]; · iexact Hcyfs7
    isplitl [HO]; · iexact HO
    isplitl [Hmw]; · iexact Hmw
    iexact Hp
  iintro ⟨HO, Hq99, -, HzFrb7⟩
  sl_exec
  -- of chunk 0 of the diagonal quarter across x
  icases HpS with ⟨Hp, HpS⟩
  ihave Hmw := (mayWait_list (F := F) cc (dsem (⟨38, by decide⟩ : Fin 140)) (List.drop 40 (paysL cc)) (by decide)) $$ Hlev
  iapply (wait_a2_at m cc _ 0 rfl) $$ [Hcds0 HO Hmw Hp]
  · isplitr; · iexact HIc38
    isplitl [Hcds0]; · iexact Hcds0
    isplitl [HO]; · iexact HO
    isplitl [Hmw]; · iexact Hmw
    iexact Hp
  iintro ⟨HO, Hq38, -, HB2s0⟩
  sl_exec
  -- of chunk 1 of the diagonal quarter across x
  icases HpS with ⟨Hp, HpS⟩
  ihave HpS := ((sep_emp (PROP := sProp 𝕄)).2) $$ HpS
  ihave Hmw := (mayWait_list (F := F) cc (dsem (⟨39, by decide⟩ : Fin 140)) (List.drop 40 (paysL cc)) (by decide)) $$ Hlev
  iapply (wait_a2_at m cc _ 1 rfl) $$ [Hcds1 HO Hmw Hp]
  · isplitr; · iexact HIc39
    isplitl [Hcds1]; · iexact Hcds1
    isplitl [HO]; · iexact HO
    isplitl [Hmw]; · iexact Hmw
    iexact Hp
  iintro ⟨HO, Hq39, -, HB2s1⟩
  sl_exec
  -- of chunk 2 of the diagonal quarter across x

  icases HpS with ⟨HpS, -⟩
  ihave Hmw := (mayWait_list (F := F) cc (dsem (⟨40, by decide⟩ : Fin 140)) (List.drop 40 (paysL cc)) (by decide)) $$ Hlev
  iapply (wait_a2_at m cc _ 2 rfl) $$ [Hcds2 HO Hmw HpS]
  · isplitr; · iexact HIc40
    isplitl [Hcds2]; · iexact Hcds2
    isplitl [HO]; · iexact HO
    isplitl [Hmw]; · iexact Hmw
    iexact HpS
  iintro ⟨HO, Hq40, -, HB2s2⟩
  sl_exec
  -- every cell of the protocol on this device has had its one round: close them, their counters are the device's again
  imod (close_cell (F := F) m cc (⟨22, by decide⟩ : Fin 140) (by decide)) $$ [Hq22] with Hv22
  · isplitr; · iexact HIc22
    iexact Hq22
  imod (close_cell (F := F) m cc (⟨23, by decide⟩ : Fin 140) (by decide)) $$ [Hq23] with Hv23
  · isplitr; · iexact HIc23
    iexact Hq23
  imod (close_cell (F := F) m cc (⟨24, by decide⟩ : Fin 140) (by decide)) $$ [Hq24] with Hv24
  · isplitr; · iexact HIc24
    iexact Hq24
  imod (close_cell (F := F) m cc (⟨25, by decide⟩ : Fin 140) (by decide)) $$ [Hq25] with Hv25
  · isplitr; · iexact HIc25
    iexact Hq25
  imod (close_cell (F := F) m cc (⟨26, by decide⟩ : Fin 140) (by decide)) $$ [Hq26] with Hv26
  · isplitr; · iexact HIc26
    iexact Hq26
  imod (close_cell (F := F) m cc (⟨27, by decide⟩ : Fin 140) (by decide)) $$ [Hq27] with Hv27
  · isplitr; · iexact HIc27
    iexact Hq27
  imod (close_cell (F := F) m cc (⟨28, by decide⟩ : Fin 140) (by decide)) $$ [Hq28] with Hv28
  · isplitr; · iexact HIc28
    iexact Hq28
  imod (close_cell (F := F) m cc (⟨29, by decide⟩ : Fin 140) (by decide)) $$ [Hq29] with Hv29
  · isplitr; · iexact HIc29
    iexact Hq29
  imod (close_cell (F := F) m cc (⟨30, by decide⟩ : Fin 140) (by decide)) $$ [Hq30] with Hv30
  · isplitr; · iexact HIc30
    iexact Hq30
  imod (close_cell (F := F) m cc (⟨31, by decide⟩ : Fin 140) (by decide)) $$ [Hq31] with Hv31
  · isplitr; · iexact HIc31
    iexact Hq31
  imod (close_cell (F := F) m cc (⟨32, by decide⟩ : Fin 140) (by decide)) $$ [Hq32] with Hv32
  · isplitr; · iexact HIc32
    iexact Hq32
  imod (close_cell (F := F) m cc (⟨33, by decide⟩ : Fin 140) (by decide)) $$ [Hq33] with Hv33
  · isplitr; · iexact HIc33
    iexact Hq33
  imod (close_cell (F := F) m cc (⟨34, by decide⟩ : Fin 140) (by decide)) $$ [Hq34] with Hv34
  · isplitr; · iexact HIc34
    iexact Hq34
  imod (close_cell (F := F) m cc (⟨35, by decide⟩ : Fin 140) (by decide)) $$ [Hq35] with Hv35
  · isplitr; · iexact HIc35
    iexact Hq35
  imod (close_cell (F := F) m cc (⟨36, by decide⟩ : Fin 140) (by decide)) $$ [Hq36] with Hv36
  · isplitr; · iexact HIc36
    iexact Hq36
  imod (close_cell (F := F) m cc (⟨37, by decide⟩ : Fin 140) (by decide)) $$ [Hq37] with Hv37
  · isplitr; · iexact HIc37
    iexact Hq37
  imod (close_cell (F := F) m cc (⟨38, by decide⟩ : Fin 140) (by decide)) $$ [Hq38] with Hv38
  · isplitr; · iexact HIc38
    iexact Hq38
  imod (close_cell (F := F) m cc (⟨39, by decide⟩ : Fin 140) (by decide)) $$ [Hq39] with Hv39
  · isplitr; · iexact HIc39
    iexact Hq39
  imod (close_cell (F := F) m cc (⟨40, by decide⟩ : Fin 140) (by decide)) $$ [Hq40] with Hv40
  · isplitr; · iexact HIc40
    iexact Hq40
  imod (close_cell (F := F) m cc (⟨41, by decide⟩ : Fin 140) (by decide)) $$ [Hq41] with Hv41
  · isplitr; · iexact HIc41
    iexact Hq41
  imod (close_cell (F := F) m cc (⟨42, by decide⟩ : Fin 140) (by decide)) $$ [Hq42] with Hv42
  · isplitr; · iexact HIc42
    iexact Hq42
  imod (close_cell (F := F) m cc (⟨43, by decide⟩ : Fin 140) (by decide)) $$ [Hq43] with Hv43
  · isplitr; · iexact HIc43
    iexact Hq43
  imod (close_cell (F := F) m cc (⟨44, by decide⟩ : Fin 140) (by decide)) $$ [Hq44] with Hv44
  · isplitr; · iexact HIc44
    iexact Hq44
  imod (close_cell (F := F) m cc (⟨45, by decide⟩ : Fin 140) (by decide)) $$ [Hq45] with Hv45
  · isplitr; · iexact HIc45
    iexact Hq45
  imod (close_cell (F := F) m cc (⟨46, by decide⟩ : Fin 140) (by decide)) $$ [Hq46] with Hv46
  · isplitr; · iexact HIc46
    iexact Hq46
  imod (close_cell (F := F) m cc (⟨47, by decide⟩ : Fin 140) (by decide)) $$ [Hq47] with Hv47
  · isplitr; · iexact HIc47
    iexact Hq47
  imod (close_cell (F := F) m cc (⟨48, by decide⟩ : Fin 140) (by decide)) $$ [Hq48] with Hv48
  · isplitr; · iexact HIc48
    iexact Hq48
  imod (close_cell (F := F) m cc (⟨49, by decide⟩ : Fin 140) (by decide)) $$ [Hq49] with Hv49
  · isplitr; · iexact HIc49
    iexact Hq49
  imod (close_cell (F := F) m cc (⟨50, by decide⟩ : Fin 140) (by decide)) $$ [Hq50] with Hv50
  · isplitr; · iexact HIc50
    iexact Hq50
  imod (close_cell (F := F) m cc (⟨51, by decide⟩ : Fin 140) (by decide)) $$ [Hq51] with Hv51
  · isplitr; · iexact HIc51
    iexact Hq51
  imod (close_cell (F := F) m cc (⟨52, by decide⟩ : Fin 140) (by decide)) $$ [Hq52] with Hv52
  · isplitr; · iexact HIc52
    iexact Hq52
  imod (close_cell (F := F) m cc (⟨53, by decide⟩ : Fin 140) (by decide)) $$ [Hq53] with Hv53
  · isplitr; · iexact HIc53
    iexact Hq53
  imod (close_cell (F := F) m cc (⟨54, by decide⟩ : Fin 140) (by decide)) $$ [Hq54] with Hv54
  · isplitr; · iexact HIc54
    iexact Hq54
  imod (close_cell (F := F) m cc (⟨55, by decide⟩ : Fin 140) (by decide)) $$ [Hq55] with Hv55
  · isplitr; · iexact HIc55
    iexact Hq55
  imod (close_cell (F := F) m cc (⟨56, by decide⟩ : Fin 140) (by decide)) $$ [Hq56] with Hv56
  · isplitr; · iexact HIc56
    iexact Hq56
  imod (close_cell (F := F) m cc (⟨57, by decide⟩ : Fin 140) (by decide)) $$ [Hq57] with Hv57
  · isplitr; · iexact HIc57
    iexact Hq57
  imod (close_cell (F := F) m cc (⟨58, by decide⟩ : Fin 140) (by decide)) $$ [Hq58] with Hv58
  · isplitr; · iexact HIc58
    iexact Hq58
  imod (close_cell (F := F) m cc (⟨59, by decide⟩ : Fin 140) (by decide)) $$ [Hq59] with Hv59
  · isplitr; · iexact HIc59
    iexact Hq59
  imod (close_cell (F := F) m cc (⟨60, by decide⟩ : Fin 140) (by decide)) $$ [Hq60] with Hv60
  · isplitr; · iexact HIc60
    iexact Hq60
  imod (close_cell (F := F) m cc (⟨61, by decide⟩ : Fin 140) (by decide)) $$ [Hq61] with Hv61
  · isplitr; · iexact HIc61
    iexact Hq61
  imod (close_cell (F := F) m cc (⟨62, by decide⟩ : Fin 140) (by decide)) $$ [Hq62] with Hv62
  · isplitr; · iexact HIc62
    iexact Hq62
  imod (close_cell (F := F) m cc (⟨63, by decide⟩ : Fin 140) (by decide)) $$ [Hq63] with Hv63
  · isplitr; · iexact HIc63
    iexact Hq63
  imod (close_cell (F := F) m cc (⟨64, by decide⟩ : Fin 140) (by decide)) $$ [Hq64] with Hv64
  · isplitr; · iexact HIc64
    iexact Hq64
  imod (close_cell (F := F) m cc (⟨65, by decide⟩ : Fin 140) (by decide)) $$ [Hq65] with Hv65
  · isplitr; · iexact HIc65
    iexact Hq65
  imod (close_cell (F := F) m cc (⟨66, by decide⟩ : Fin 140) (by decide)) $$ [Hq66] with Hv66
  · isplitr; · iexact HIc66
    iexact Hq66
  imod (close_cell (F := F) m cc (⟨67, by decide⟩ : Fin 140) (by decide)) $$ [Hq67] with Hv67
  · isplitr; · iexact HIc67
    iexact Hq67
  imod (close_cell (F := F) m cc (⟨68, by decide⟩ : Fin 140) (by decide)) $$ [Hq68] with Hv68
  · isplitr; · iexact HIc68
    iexact Hq68
  imod (close_cell (F := F) m cc (⟨69, by decide⟩ : Fin 140) (by decide)) $$ [Hq69] with Hv69
  · isplitr; · iexact HIc69
    iexact Hq69
  imod (close_cell (F := F) m cc (⟨70, by decide⟩ : Fin 140) (by decide)) $$ [Hq70] with Hv70
  · isplitr; · iexact HIc70
    iexact Hq70
  imod (close_cell (F := F) m cc (⟨71, by decide⟩ : Fin 140) (by decide)) $$ [Hq71] with Hv71
  · isplitr; · iexact HIc71
    iexact Hq71
  imod (close_cell (F := F) m cc (⟨72, by decide⟩ : Fin 140) (by decide)) $$ [Hq72] with Hv72
  · isplitr; · iexact HIc72
    iexact Hq72
  imod (close_cell (F := F) m cc (⟨73, by decide⟩ : Fin 140) (by decide)) $$ [Hq73] with Hv73
  · isplitr; · iexact HIc73
    iexact Hq73
  imod (close_cell (F := F) m cc (⟨74, by decide⟩ : Fin 140) (by decide)) $$ [Hq74] with Hv74
  · isplitr; · iexact HIc74
    iexact Hq74
  imod (close_cell (F := F) m cc (⟨75, by decide⟩ : Fin 140) (by decide)) $$ [Hq75] with Hv75
  · isplitr; · iexact HIc75
    iexact Hq75
  imod (close_cell (F := F) m cc (⟨79, by decide⟩ : Fin 140) (by decide)) $$ [Hq79] with Hv79
  · isplitr; · iexact HIc79
    iexact Hq79
  imod (close_cell (F := F) m cc (⟨80, by decide⟩ : Fin 140) (by decide)) $$ [Hq80] with Hv80
  · isplitr; · iexact HIc80
    iexact Hq80
  imod (close_cell (F := F) m cc (⟨81, by decide⟩ : Fin 140) (by decide)) $$ [Hq81] with Hv81
  · isplitr; · iexact HIc81
    iexact Hq81
  imod (close_cell (F := F) m cc (⟨82, by decide⟩ : Fin 140) (by decide)) $$ [Hq82] with Hv82
  · isplitr; · iexact HIc82
    iexact Hq82
  imod (close_cell (F := F) m cc (⟨83, by decide⟩ : Fin 140) (by decide)) $$ [Hq83] with Hv83
  · isplitr; · iexact HIc83
    iexact Hq83
  imod (close_cell (F := F) m cc (⟨87, by decide⟩ : Fin 140) (by decide)) $$ [Hq87] with Hv87
  · isplitr; · iexact HIc87
    iexact Hq87
  imod (close_cell (F := F) m cc (⟨88, by decide⟩ : Fin 140) (by decide)) $$ [Hq88] with Hv88
  · isplitr; · iexact HIc88
    iexact Hq88
  imod (close_cell (F := F) m cc (⟨89, by decide⟩ : Fin 140) (by decide)) $$ [Hq89] with Hv89
  · isplitr; · iexact HIc89
    iexact Hq89
  imod (close_cell (F := F) m cc (⟨90, by decide⟩ : Fin 140) (by decide)) $$ [Hq90] with Hv90
  · isplitr; · iexact HIc90
    iexact Hq90
  imod (close_cell (F := F) m cc (⟨91, by decide⟩ : Fin 140) (by decide)) $$ [Hq91] with Hv91
  · isplitr; · iexact HIc91
    iexact Hq91
  imod (close_cell (F := F) m cc (⟨95, by decide⟩ : Fin 140) (by decide)) $$ [Hq95] with Hv95
  · isplitr; · iexact HIc95
    iexact Hq95
  imod (close_cell (F := F) m cc (⟨96, by decide⟩ : Fin 140) (by decide)) $$ [Hq96] with Hv96
  · isplitr; · iexact HIc96
    iexact Hq96
  imod (close_cell (F := F) m cc (⟨97, by decide⟩ : Fin 140) (by decide)) $$ [Hq97] with Hv97
  · isplitr; · iexact HIc97
    iexact Hq97
  imod (close_cell (F := F) m cc (⟨98, by decide⟩ : Fin 140) (by decide)) $$ [Hq98] with Hv98
  · isplitr; · iexact HIc98
    iexact Hq98
  imod (close_cell (F := F) m cc (⟨99, by decide⟩ : Fin 140) (by decide)) $$ [Hq99] with Hv99
  · isplitr; · iexact HIc99
    iexact Hq99
  imod (close_cell (F := F) m cc (⟨103, by decide⟩ : Fin 140) (by decide)) $$ [Hq103] with Hv103
  · isplitr; · iexact HIc103
    iexact Hq103
  imod (close_cell (F := F) m cc (⟨104, by decide⟩ : Fin 140) (by decide)) $$ [Hq104] with Hv104
  · isplitr; · iexact HIc104
    iexact Hq104
  imod (close_cell (F := F) m cc (⟨105, by decide⟩ : Fin 140) (by decide)) $$ [Hq105] with Hv105
  · isplitr; · iexact HIc105
    iexact Hq105
  imod (close_cell (F := F) m cc (⟨106, by decide⟩ : Fin 140) (by decide)) $$ [Hq106] with Hv106
  · isplitr; · iexact HIc106
    iexact Hq106
  imod (close_cell (F := F) m cc (⟨107, by decide⟩ : Fin 140) (by decide)) $$ [Hq107] with Hv107
  · isplitr; · iexact HIc107
    iexact Hq107
  -- the program is over: hand everything back
  icases HvU with ⟨Hu76, Hu77, Hu78, Hu84, Hu85, Hu86, Hu92, Hu93, Hu94, Hu100, Hu101, Hu102⟩
  ihave HO := (Entails.of_eq (show owes (cc : Thread nD τ) (owedL (List.drop 40 (paysL cc))) _ = owes (cc : Thread nD τ) 0 _ from rfl)) $$ HO
  -- each block of the result holds what its copy wrote: the final contents
  ihave HU00 := (congr (F := F) (outR 0 0) cc fullShare ((outR 0 0).view.writes (Elt F) g00 [⟨Rect.whole S512x256, dev.sl.dma0_34 m⟩]) (out m cc) (fun i hi => glue_out' m cc 0 0 g00 i hi)) $$ HU00
  ihave HU01 := (congr (F := F) (outR 0 1) cc fullShare ((outR 0 1).view.writes (Elt F) g01 [⟨Rect.whole S512x256, dev.sl.dma0_35 m⟩]) (out m cc) (fun i hi => glue_out' m cc 0 1 g01 i hi)) $$ HU01
  ihave HU02 := (congr (F := F) (outR 0 2) cc fullShare ((outR 0 2).view.writes (Elt F) g02 [⟨Rect.whole S512x256, dev.sl.dma0_36 m⟩]) (out m cc) (fun i hi => glue_out' m cc 0 2 g02 i hi)) $$ HU02
  ihave HU03 := (congr (F := F) (outR 0 3) cc fullShare ((outR 0 3).view.writes (Elt F) g03 [⟨Rect.whole S512x256, dev.sl.dma0_37 m⟩]) (out m cc) (fun i hi => glue_out' m cc 0 3 g03 i hi)) $$ HU03
  ihave HU10 := (congr (F := F) (outR 1 0) cc fullShare ((outR 1 0).view.writes (Elt F) g10 [⟨Rect.whole S512x256, dev.sl.dma0_38 m⟩]) (out m cc) (fun i hi => glue_out' m cc 1 0 g10 i hi)) $$ HU10
  ihave HU11 := (congr (F := F) (outR 1 1) cc fullShare ((outR 1 1).view.writes (Elt F) g11 [⟨Rect.whole S512x256, dev.sl.dma0_39 m⟩]) (out m cc) (fun i hi => glue_out' m cc 1 1 g11 i hi)) $$ HU11
  ihave HU12 := (congr (F := F) (outR 1 2) cc fullShare ((outR 1 2).view.writes (Elt F) g12 [⟨Rect.whole S512x256, dev.sl.dma0_40 m⟩]) (out m cc) (fun i hi => glue_out' m cc 1 2 g12 i hi)) $$ HU12
  ihave HU13 := (congr (F := F) (outR 1 3) cc fullShare ((outR 1 3).view.writes (Elt F) g13 [⟨Rect.whole S512x256, dev.sl.dma0_41 m⟩]) (out m cc) (fun i hi => glue_out' m cc 1 3 g13 i hi)) $$ HU13
  ihave HU20 := (congr (F := F) (outR 2 0) cc fullShare ((outR 2 0).view.writes (Elt F) g20 [⟨Rect.whole S512x256, dev.sl.dma0_42 m⟩]) (out m cc) (fun i hi => glue_out' m cc 2 0 g20 i hi)) $$ HU20
  ihave HU21 := (congr (F := F) (outR 2 1) cc fullShare ((outR 2 1).view.writes (Elt F) g21 [⟨Rect.whole S512x256, dev.sl.dma0_43 m⟩]) (out m cc) (fun i hi => glue_out' m cc 2 1 g21 i hi)) $$ HU21
  ihave HU22 := (congr (F := F) (outR 2 2) cc fullShare ((outR 2 2).view.writes (Elt F) g22 [⟨Rect.whole S512x256, dev.sl.dma0_44 m⟩]) (out m cc) (fun i hi => glue_out' m cc 2 2 g22 i hi)) $$ HU22
  ihave HU23 := (congr (F := F) (outR 2 3) cc fullShare ((outR 2 3).view.writes (Elt F) g23 [⟨Rect.whole S512x256, dev.sl.dma0_45 m⟩]) (out m cc) (fun i hi => glue_out' m cc 2 3 g23 i hi)) $$ HU23
  ihave HU30 := (congr (F := F) (outR 3 0) cc fullShare ((outR 3 0).view.writes (Elt F) g30 [⟨Rect.whole S512x256, dev.sl.dma0_22 m⟩]) (out m cc) (fun i hi => glue_out' m cc 3 0 g30 i hi)) $$ HU30
  ihave HU31 := (congr (F := F) (outR 3 1) cc fullShare ((outR 3 1).view.writes (Elt F) g31 [⟨Rect.whole S512x256, dev.sl.dma0_23 m⟩]) (out m cc) (fun i hi => glue_out' m cc 3 1 g31 i hi)) $$ HU31
  ihave HU32 := (congr (F := F) (outR 3 2) cc fullShare ((outR 3 2).view.writes (Elt F) g32 [⟨Rect.whole S512x256, dev.sl.dma0_24 m⟩]) (out m cc) (fun i hi => glue_out' m cc 3 2 g32 i hi)) $$ HU32
  ihave HU33 := (congr (F := F) (outR 3 3) cc fullShare ((outR 3 3).view.writes (Elt F) g33 [⟨Rect.whole S512x256, dev.sl.dma0_25 m⟩]) (out m cc) (fun i hi => glue_out' m cc 3 3 g33 i hi)) $$ HU33
  ihave HU40 := (congr (F := F) (outR 4 0) cc fullShare ((outR 4 0).view.writes (Elt F) g40 [⟨Rect.whole S512x256, dev.sl.dma0_26 m⟩]) (out m cc) (fun i hi => glue_out' m cc 4 0 g40 i hi)) $$ HU40
  ihave HU41 := (congr (F := F) (outR 4 1) cc fullShare ((outR 4 1).view.writes (Elt F) g41 [⟨Rect.whole S512x256, dev.sl.dma0_27 m⟩]) (out m cc) (fun i hi => glue_out' m cc 4 1 g41 i hi)) $$ HU41
  ihave HU42 := (congr (F := F) (outR 4 2) cc fullShare ((outR 4 2).view.writes (Elt F) g42 [⟨Rect.whole S512x256, dev.sl.dma0_28 m⟩]) (out m cc) (fun i hi => glue_out' m cc 4 2 g42 i hi)) $$ HU42
  ihave HU43 := (congr (F := F) (outR 4 3) cc fullShare ((outR 4 3).view.writes (Elt F) g43 [⟨Rect.whole S512x256, dev.sl.dma0_29 m⟩]) (out m cc) (fun i hi => glue_out' m cc 4 3 g43 i hi)) $$ HU43
  ihave HU50 := (congr (F := F) (outR 5 0) cc fullShare ((outR 5 0).view.writes (Elt F) g50 [⟨Rect.whole S512x256, dev.sl.dma0_30 m⟩]) (out m cc) (fun i hi => glue_out' m cc 5 0 g50 i hi)) $$ HU50
  ihave HU51 := (congr (F := F) (outR 5 1) cc fullShare ((outR 5 1).view.writes (Elt F) g51 [⟨Rect.whole S512x256, dev.sl.dma0_31 m⟩]) (out m cc) (fun i hi => glue_out' m cc 5 1 g51 i hi)) $$ HU51
  ihave HU52 := (congr (F := F) (outR 5 2) cc fullShare ((outR 5 2).view.writes (Elt F) g52 [⟨Rect.whole S512x256, dev.sl.dma0_32 m⟩]) (out m cc) (fun i hi => glue_out' m cc 5 2 g52 i hi)) $$ HU52
  ihave HU53 := (congr (F := F) (outR 5 3) cc fullShare ((outR 5 3).view.writes (Elt F) g53 [⟨Rect.whole S512x256, dev.sl.dma0_33 m⟩]) (out m cc) (fun i hi => glue_out' m cc 5 3 g53 i hi)) $$ HU53
  ihave HU60 := (congr (F := F) (outR 6 0) cc fullShare ((outR 6 0).view.writes (Elt F) g60 [⟨Rect.whole S512x256, dev.sl.dma0_46 m⟩]) (out m cc) (fun i hi => glue_out' m cc 6 0 g60 i hi)) $$ HU60
  ihave HU61 := (congr (F := F) (outR 6 1) cc fullShare ((outR 6 1).view.writes (Elt F) g61 [⟨Rect.whole S512x256, dev.sl.dma0_47 m⟩]) (out m cc) (fun i hi => glue_out' m cc 6 1 g61 i hi)) $$ HU61
  ihave HU62 := (congr (F := F) (outR 6 2) cc fullShare ((outR 6 2).view.writes (Elt F) g62 [⟨Rect.whole S512x256, dev.sl.dma0_48 m⟩]) (out m cc) (fun i hi => glue_out' m cc 6 2 g62 i hi)) $$ HU62
  ihave HU63 := (congr (F := F) (outR 6 3) cc fullShare ((outR 6 3).view.writes (Elt F) g63 [⟨Rect.whole S512x256, dev.sl.dma0_49 m⟩]) (out m cc) (fun i hi => glue_out' m cc 6 3 g63 i hi)) $$ HU63
  ihave HU70 := (congr (F := F) (outR 7 0) cc fullShare ((outR 7 0).view.writes (Elt F) g70 [⟨Rect.whole S512x256, dev.sl.dma0_50 m⟩]) (out m cc) (fun i hi => glue_out' m cc 7 0 g70 i hi)) $$ HU70
  ihave HU71 := (congr (F := F) (outR 7 1) cc fullShare ((outR 7 1).view.writes (Elt F) g71 [⟨Rect.whole S512x256, dev.sl.dma0_51 m⟩]) (out m cc) (fun i hi => glue_out' m cc 7 1 g71 i hi)) $$ HU71
  ihave HU72 := (congr (F := F) (outR 7 2) cc fullShare ((outR 7 2).view.writes (Elt F) g72 [⟨Rect.whole S512x256, dev.sl.dma0_52 m⟩]) (out m cc) (fun i hi => glue_out' m cc 7 2 g72 i hi)) $$ HU72
  ihave HU73 := (congr (F := F) (outR 7 3) cc fullShare ((outR 7 3).view.writes (Elt F) g73 [⟨Rect.whole S512x256, dev.sl.dma0_53 m⟩]) (out m cc) (fun i hi => glue_out' m cc 7 3 g73 i hi)) $$ HU73
  sl_step
  iapply Hk
  unfold bodyPost
  isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7 Hz0 Hz1 Hz2 HzG3 HzFl3 HzFrb3 HzG4 HzFl4 HzFrb4 HzG5 HzFl5 HzFrb5 HzG6 HzFl6 HzFrb6 HzG7 HzFl7 HzFrb7 Hy0 Hy1 Hy2 HyG3 HyFlb3 HyFr3 HyG4 HyFlb4 HyFr4 HyG5 HyFlb5 HyFr5 HyG6 HyFlb6 HyFr6 HyG7 HyFlb7 HyFr7 Hdq0 Hdq1 Hdq2 Hd3 Hd4 Hd5 Hd6 Hd7]
  · iapply (Entails.of_eq (junk_whole (F := F) cc cc0_scratch0).symm)
    iapply (r4_back (F := F) cc)
    isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7]
    · isplitl [HoZb0 HoYb0 HoK0]
      · iapply (own_back (F := F) cc 0 (r4 m cc))
        isplitl [HoZb0]
        · iexact HoZb0
        isplitl [HoYb0]
        · iexact HoYb0
        iexact HoK0
      isplitl [HoZb1 HoYb1 HoK1]
      · iapply (own_back (F := F) cc 1 (r4 m cc))
        isplitl [HoZb1]
        · iexact HoZb1
        isplitl [HoYb1]
        · iexact HoYb1
        iexact HoK1
      isplitl [HoZb2 HoYb2 HoK2]
      · iapply (own_back (F := F) cc 2 (r4 m cc))
        isplitl [HoZb2]
        · iexact HoZb2
        isplitl [HoYb2]
        · iexact HoYb2
        iexact HoK2
      isplitl [HoZb3 HoYb3 HoK3]
      · iapply (own_back (F := F) cc 3 (r4 m cc))
        isplitl [HoZb3]
        · iexact HoZb3
        isplitl [HoYb3]
        · iexact HoYb3
        iexact HoK3
      isplitl [HoZb4 HoYb4 HoK4]
      · iapply (own_back (F := F) cc 4 (r4 m cc))
        isplitl [HoZb4]
        · iexact HoZb4
        isplitl [HoYb4]
        · iexact HoYb4
        iexact HoK4
      isplitl [HoZb5 HoYb5 HoK5]
      · iapply (own_back (F := F) cc 5 (r4 m cc))
        isplitl [HoZb5]
        · iexact HoZb5
        isplitl [HoYb5]
        · iexact HoYb5
        iexact HoK5
      isplitl [HoZb6 HoYb6 HoK6]
      · iapply (own_back (F := F) cc 6 (r4 m cc))
        isplitl [HoZb6]
        · iexact HoZb6
        isplitl [HoYb6]
        · iexact HoYb6
        iexact HoK6
      iapply (own_back (F := F) cc 7 (r4 m cc))
      isplitl [HoZb7]
      · iexact HoZb7
      isplitl [HoYb7]
      · iexact HoYb7
      iexact HoK7
    isplitl [Hz0 Hz1 Hz2 HzG3 HzFl3 HzFrb3 HzG4 HzFl4 HzFrb4 HzG5 HzFl5 HzFrb5 HzG6 HzFl6 HzFrb6 HzG7 HzFl7 HzFrb7]
    · isplitl [Hz0]
      · iexists _; iexact Hz0
      isplitl [Hz1]
      · iexists _; iexact Hz1
      isplitl [Hz2]
      · iexists _; iexact Hz2
      isplitl [HzG3 HzFl3 HzFrb3]
      · iapply (nbr_back (F := F) cc (zqF cc) 3 (r4 m cc))
        isplitl [HzG3]
        · iexact HzG3
        isplitl [HzFl3]
        · iexact HzFl3
        iexact HzFrb3
      isplitl [HzG4 HzFl4 HzFrb4]
      · iapply (nbr_back (F := F) cc (zqF cc) 4 (r4 m cc))
        isplitl [HzG4]
        · iexact HzG4
        isplitl [HzFl4]
        · iexact HzFl4
        iexact HzFrb4
      isplitl [HzG5 HzFl5 HzFrb5]
      · iapply (nbr_back (F := F) cc (zqF cc) 5 (r4 m cc))
        isplitl [HzG5]
        · iexact HzG5
        isplitl [HzFl5]
        · iexact HzFl5
        iexact HzFrb5
      isplitl [HzG6 HzFl6 HzFrb6]
      · iapply (nbr_back (F := F) cc (zqF cc) 6 (r4 m cc))
        isplitl [HzG6]
        · iexact HzG6
        isplitl [HzFl6]
        · iexact HzFl6
        iexact HzFrb6
      iapply (nbr_back (F := F) cc (zqF cc) 7 (r4 m cc))
      isplitl [HzG7]
      · iexact HzG7
      isplitl [HzFl7]
      · iexact HzFl7
      iexact HzFrb7
    isplitl [Hy0 Hy1 Hy2 HyG3 HyFlb3 HyFr3 HyG4 HyFlb4 HyFr4 HyG5 HyFlb5 HyFr5 HyG6 HyFlb6 HyFr6 HyG7 HyFlb7 HyFr7]
    · isplitl [Hy0]
      · iexists _; iexact Hy0
      isplitl [Hy1]
      · iexists _; iexact Hy1
      isplitl [Hy2]
      · iexists _; iexact Hy2
      isplitl [HyG3 HyFlb3 HyFr3]
      · iapply (nbr_back (F := F) cc (yqF cc) 3 (r4 m cc))
        isplitl [HyG3]
        · iexact HyG3
        isplitl [HyFlb3]
        · iexact HyFlb3
        iexact HyFr3
      isplitl [HyG4 HyFlb4 HyFr4]
      · iapply (nbr_back (F := F) cc (yqF cc) 4 (r4 m cc))
        isplitl [HyG4]
        · iexact HyG4
        isplitl [HyFlb4]
        · iexact HyFlb4
        iexact HyFr4
      isplitl [HyG5 HyFlb5 HyFr5]
      · iapply (nbr_back (F := F) cc (yqF cc) 5 (r4 m cc))
        isplitl [HyG5]
        · iexact HyG5
        isplitl [HyFlb5]
        · iexact HyFlb5
        iexact HyFr5
      isplitl [HyG6 HyFlb6 HyFr6]
      · iapply (nbr_back (F := F) cc (yqF cc) 6 (r4 m cc))
        isplitl [HyG6]
        · iexact HyG6
        isplitl [HyFlb6]
        · iexact HyFlb6
        iexact HyFr6
      iapply (nbr_back (F := F) cc (yqF cc) 7 (r4 m cc))
      isplitl [HyG7]
      · iexact HyG7
      isplitl [HyFlb7]
      · iexact HyFlb7
      iexact HyFr7
    isplitl [Hdq0 Hdq1 Hdq2]
    · isplitl [Hdq0]
      · iexists _; iexact Hdq0
      isplitl [Hdq1]
      · iexists _; iexact Hdq1
      iexists _; iexact Hdq2
    isplitl [Hd3]
    · iapply (dq_halves (F := F) cc 3 (r4 m cc))
      iexact Hd3
    isplitl [Hd4]
    · iapply (dq_halves (F := F) cc 4 (r4 m cc))
      iexact Hd4
    isplitl [Hd5]
    · iapply (dq_halves (F := F) cc 5 (r4 m cc))
      iexact Hd5
    isplitl [Hd6]
    · iapply (dq_halves (F := F) cc 6 (r4 m cc))
      iexact Hd6
    iapply (dq_halves (F := F) cc 7 (r4 m cc))
    iexact Hd7
  isplitl [HBs0 HBs1 HBs2 HBs3 HBs4 HBs5 HBs6 HBs7]
  · iapply (Entails.of_eq (junk_whole (F := F) cc cc0_scratch1).symm)
    iapply (sb_rows_join (F := F) cc)
    isplitl [HBs0]
    · iexists _; iexact HBs0
    isplitl [HBs1]
    · iexists _; iexact HBs1
    isplitl [HBs2]
    · iexists _; iexact HBs2
    isplitl [HBs3]
    · iexists _; iexact HBs3
    isplitl [HBs4]
    · iexists _; iexact HBs4
    isplitl [HBs5]
    · iexists _; iexact HBs5
    isplitl [HBs6]
    · iexists _; iexact HBs6
    iexists _; iexact HBs7
  isplitl [Hrb0 Hrb1 Hrb2 Hrb3 Hrb4 Hrb5 Hrb6 Hrb7]
  · iapply (Entails.of_eq (junk_whole (F := F) cc cc0_scratch2).symm)
    iapply (rb_rows_join (F := F) cc)
    isplitl [Hrb0]
    · iexists _; iexact Hrb0
    isplitl [Hrb1]
    · iexists _; iexact Hrb1
    isplitl [Hrb2]
    · iexists _; iexact Hrb2
    isplitl [Hrb3]
    · iexists _; iexact Hrb3
    isplitl [Hrb4]
    · iexists _; iexact Hrb4
    isplitl [Hrb5]
    · iexists _; iexact Hrb5
    isplitl [Hrb6]
    · iexists _; iexact Hrb6
    iexists _; iexact Hrb7
  isplitl [HB2s0 HB2s1 HB2s2]
  · iapply (Entails.of_eq (junk_whole (F := F) cc cc0_scratch3).symm)
    iapply (sb2_rows_join (F := F) cc)
    isplitl [HB2s0]
    · iexists _; iexact HB2s0
    isplitl [HB2s1]
    · iexists _; iexact HB2s1
    iexists _; iexact HB2s2
  isplitl [Hrb20 Hrb21 Hrb22]
  · iapply (Entails.of_eq (junk_whole (F := F) cc cc0_scratch4).symm)
    iapply (rb2_rows_join (F := F) cc)
    isplitl [Hrb20]
    · iexists _; iexact Hrb20
    isplitl [Hrb21]
    · iexists _; iexact Hrb21
    iexists _; iexact Hrb22
  isplitl [HP0 HP1 HP2 HP3 HP4 HP5 HP6 HP7]
  · iapply (Entails.of_eq (junk_whole (F := F) cc cc0_scratch5).symm)
    iapply (stP_rows_join (F := F) cc)
    isplitl [HP0]
    · iexists _; iexact HP0
    isplitl [HP1]
    · iexists _; iexact HP1
    isplitl [HP2]
    · iexists _; iexact HP2
    isplitl [HP3]
    · iexists _; iexact HP3
    isplitl [HP4]
    · iexists _; iexact HP4
    isplitl [HP5]
    · iexists _; iexact HP5
    isplitl [HP6]
    · iexists _; iexact HP6
    iexists _; iexact HP7
  isplitl [HL0 HL1 HL2 HL3 HL4 HL5 HL6 HL7]
  · iapply (Entails.of_eq (junk_whole (F := F) cc cc0_scratch6).symm)
    iapply (stL_rows_join (F := F) cc)
    isplitl [HL0]
    · iexists _; iexact HL0
    isplitl [HL1]
    · iexists _; iexact HL1
    isplitl [HL2]
    · iexists _; iexact HL2
    isplitl [HL3]
    · iexists _; iexact HL3
    isplitl [HL4]
    · iexists _; iexact HL4
    isplitl [HL5]
    · iexists _; iexact HL5
    isplitl [HL6]
    · iexists _; iexact HL6
    iexists _; iexact HL7
  isplitl [HP20 HP21 HP22]
  · iapply (Entails.of_eq (junk_whole (F := F) cc cc0_scratch7).symm)
    iapply (stP2_rows_join (F := F) cc)
    isplitl [HP20]
    · iexists _; iexact HP20
    isplitl [HP21]
    · iexists _; iexact HP21
    iexists _; iexact HP22
  isplitl [HL20 HL21 HL22]
  · iapply (Entails.of_eq (junk_whole (F := F) cc cc0_scratch8).symm)
    iapply (stL2_rows_join (F := F) cc)
    isplitl [HL20]
    · iexists _; iexact HL20
    isplitl [HL21]
    · iexists _; iexact HL21
    iexists _; iexact HL22
  isplitl [HX]
  · iexact HX
  isplitl [HU00 HU01 HU02 HU03 HU10 HU11 HU12 HU13 HU20 HU21 HU22 HU23 HU30 HU31 HU32 HU33 HU40 HU41 HU42 HU43 HU50 HU51 HU52 HU53 HU60 HU61 HU62 HU63 HU70 HU71 HU72 HU73]
  · iapply (out_join (F := F) cc (out m cc))
    isplitl [HU00]
    · iexact HU00
    isplitl [HU01]
    · iexact HU01
    isplitl [HU02]
    · iexact HU02
    isplitl [HU03]
    · iexact HU03
    isplitl [HU10]
    · iexact HU10
    isplitl [HU11]
    · iexact HU11
    isplitl [HU12]
    · iexact HU12
    isplitl [HU13]
    · iexact HU13
    isplitl [HU20]
    · iexact HU20
    isplitl [HU21]
    · iexact HU21
    isplitl [HU22]
    · iexact HU22
    isplitl [HU23]
    · iexact HU23
    isplitl [HU30]
    · iexact HU30
    isplitl [HU31]
    · iexact HU31
    isplitl [HU32]
    · iexact HU32
    isplitl [HU33]
    · iexact HU33
    isplitl [HU40]
    · iexact HU40
    isplitl [HU41]
    · iexact HU41
    isplitl [HU42]
    · iexact HU42
    isplitl [HU43]
    · iexact HU43
    isplitl [HU50]
    · iexact HU50
    isplitl [HU51]
    · iexact HU51
    isplitl [HU52]
    · iexact HU52
    isplitl [HU53]
    · iexact HU53
    isplitl [HU60]
    · iexact HU60
    isplitl [HU61]
    · iexact HU61
    isplitl [HU62]
    · iexact HU62
    isplitl [HU63]
    · iexact HU63
    isplitl [HU70]
    · iexact HU70
    isplitl [HU71]
    · iexact HU71
    isplitl [HU72]
    · iexact HU72
    iexact HU73
  isplitl [Hv0 Hv1 Hv2 Hv3 Hv4 Hv5 Hv6 Hv7 Hv8 Hv9 Hv10 Hv11 Hv12 Hv13 Hv14 Hv15 Hv16 Hv17 Hv18 Hv19 Hv20 Hv21 Hv22 Hv23 Hv24 Hv25 Hv26 Hv27 Hv28 Hv29 Hv30 Hv31 Hv32 Hv33 Hv34 Hv35 Hv36 Hv37 Hv38 Hv39 Hv40 Hv41 Hv42 Hv43 Hv44 Hv45 Hv46 Hv47 Hv48 Hv49 Hv50 Hv51 Hv52 Hv53 Hv54 Hv55 Hv56 Hv57 Hv58 Hv59 Hv60 Hv61 Hv62 Hv63 Hv64 Hv65 Hv66 Hv67 Hv68 Hv69 Hv70 Hv71 Hv72 Hv73 Hv74 Hv75 Hu76 Hu77 Hu78 Hv79 Hv80 Hv81 Hv82 Hv83 Hu84 Hu85 Hu86 Hv87 Hv88 Hv89 Hv90 Hv91 Hu92 Hu93 Hu94 Hv95 Hv96 Hv97 Hv98 Hv99 Hu100 Hu101 Hu102 Hv103 Hv104 Hv105 Hv106 Hv107 Hw0a Hw0b Hw0c Hw0d Hw1a Hw1b Hw1c Hw1d Hw2a Hw2b Hw2c Hw2d Hw3a Hw3b Hw3c Hw3d Hw4a Hw4b Hw4c Hw4d Hw5a Hw5b Hw5c Hw5d Hw6a Hw6b Hw6c Hw6d Hw7a Hw7b Hw7c Hw7d]
  · iapply (Entails.of_eq (show (iprop(semVal (cellAt cc (⟨0, Nat.le_of_ble_eq_true rfl⟩ : Fin 140)) 0 ∗ semVal (cellAt cc (⟨1, Nat.le_of_ble_eq_true rfl⟩ : Fin 140)) 0 ∗ semVal (cellAt cc (⟨2, Nat.le_of_ble_eq_true rfl⟩ : Fin 140)) 0 ∗ semVal (cellAt cc (⟨3, Nat.le_of_ble_eq_true rfl⟩ : Fin 140)) 0 ∗ semVal (cellAt cc (⟨4, Nat.le_of_ble_eq_true rfl⟩ : Fin 140)) 0 ∗ semVal (cellAt cc (⟨5, Nat.le_of_ble_eq_true rfl⟩ : Fin 140)) 0 ∗ semVal (cellAt cc (⟨6, Nat.le_of_ble_eq_true rfl⟩ : Fin 140)) 0 ∗ semVal (cellAt cc (⟨7, Nat.le_of_ble_eq_true rfl⟩ : Fin 140)) 0 ∗ semVal (cellAt cc (⟨8, Nat.le_of_ble_eq_true rfl⟩ : Fin 140)) 0 ∗ semVal (cellAt cc (⟨9, Nat.le_of_ble_eq_true rfl⟩ : Fin 140)) 0 ∗ semVal (cellAt cc (⟨10, Nat.le_of_ble_eq_true rfl⟩ : Fin 140)) 0 ∗ semVal (cellAt cc (⟨11, Nat.le_of_ble_eq_true rfl⟩ : Fin 140)) 0 ∗ semVal (cellAt cc (⟨12, Nat.le_of_ble_eq_true rfl⟩ : Fin 140)) 0 ∗ semVal (cellAt cc (⟨13, Nat.le_of_ble_eq_true rfl⟩ : Fin 140)) 0 ∗ semVal (cellAt cc (⟨14, Nat.le_of_ble_eq_true rfl⟩ : Fin 140)) 0 ∗ semVal (cellAt cc (⟨15, Nat.le_of_ble_eq_true rfl⟩ : Fin 140)) 0 ∗ semVal (cellAt cc (⟨16, Nat.le_of_ble_eq_true rfl⟩ : Fin 140)) 0 ∗ semVal (cellAt cc (⟨17, Nat.le_of_ble_eq_true rfl⟩ : Fin 140)) 0 ∗ semVal (cellAt cc (⟨18, Nat.le_of_ble_eq_true rfl⟩ : Fin 140)) 0 ∗ semVal (cellAt cc (⟨19, Nat.le_of_ble_eq_true rfl⟩ : Fin 140)) 0 ∗ semVal (cellAt cc (⟨20, Nat.le_of_ble_eq_true rfl⟩ : Fin 140)) 0 ∗ semVal (cellAt cc (⟨21, Nat.le_of_ble_eq_true rfl⟩ : Fin 140)) 0 ∗ semVal (cellAt cc (⟨22, Nat.le_of_ble_eq_true rfl⟩ : Fin 140)) 0 ∗ semVal (cellAt cc (⟨23, Nat.le_of_ble_eq_true rfl⟩ : Fin 140)) 0 ∗ semVal (cellAt cc (⟨24, Nat.le_of_ble_eq_true rfl⟩ : Fin 140)) 0 ∗ semVal (cellAt cc (⟨25, Nat.le_of_ble_eq_true rfl⟩ : Fin 140)) 0 ∗ semVal (cellAt cc (⟨26, Nat.le_of_ble_eq_true rfl⟩ : Fin 140)) 0 ∗ semVal (cellAt cc (⟨27, Nat.le_of_ble_eq_true rfl⟩ : Fin 140)) 0 ∗ semVal (cellAt cc (⟨28, Nat.le_of_ble_eq_true rfl⟩ : Fin 140)) 0 ∗ semVal (cellAt cc (⟨29, Nat.le_of_ble_eq_true rfl⟩ : Fin 140)) 0 ∗ semVal (cellAt cc (⟨30, Nat.le_of_ble_eq_true rfl⟩ : Fin 140)) 0 ∗ semVal (cellAt cc (⟨31, Nat.le_of_ble_eq_true rfl⟩ : Fin 140)) 0 ∗ semVal (cellAt cc (⟨32, Nat.le_of_ble_eq_true rfl⟩ : Fin 140)) 0 ∗ semVal (cellAt cc (⟨33, Nat.le_of_ble_eq_true rfl⟩ : Fin 140)) 0 ∗ semVal (cellAt cc (⟨34, Nat.le_of_ble_eq_true rfl⟩ : Fin 140)) 0 ∗ semVal (cellAt cc (⟨35, Nat.le_of_ble_eq_true rfl⟩ : Fin 140)) 0 ∗ semVal (cellAt cc (⟨36, Nat.le_of_ble_eq_true rfl⟩ : Fin 140)) 0 ∗ semVal (cellAt cc (⟨37, Nat.le_of_ble_eq_true rfl⟩ : Fin 140)) 0 ∗ semVal (cellAt cc (⟨38, Nat.le_of_ble_eq_true rfl⟩ : Fin 140)) 0 ∗ semVal (cellAt cc (⟨39, Nat.le_of_ble_eq_true rfl⟩ : Fin 140)) 0 ∗ semVal (cellAt cc (⟨40, Nat.le_of_ble_eq_true rfl⟩ : Fin 140)) 0 ∗ semVal (cellAt cc (⟨41, Nat.le_of_ble_eq_true rfl⟩ : Fin 140)) 0 ∗ semVal (cellAt cc (⟨42, Nat.le_of_ble_eq_true rfl⟩ : Fin 140)) 0 ∗ semVal (cellAt cc (⟨43, Nat.le_of_ble_eq_true rfl⟩ : Fin 140)) 0 ∗ semVal (cellAt cc (⟨44, Nat.le_of_ble_eq_true rfl⟩ : Fin 140)) 0 ∗ semVal (cellAt cc (⟨45, Nat.le_of_ble_eq_true rfl⟩ : Fin 140)) 0 ∗ semVal (cellAt cc (⟨46, Nat.le_of_ble_eq_true rfl⟩ : Fin 140)) 0 ∗ semVal (cellAt cc (⟨47, Nat.le_of_ble_eq_true rfl⟩ : Fin 140)) 0 ∗ semVal (cellAt cc (⟨48, Nat.le_of_ble_eq_true rfl⟩ : Fin 140)) 0 ∗ semVal (cellAt cc (⟨49, Nat.le_of_ble_eq_true rfl⟩ : Fin 140)) 0 ∗ semVal (cellAt cc (⟨50, Nat.le_of_ble_eq_true rfl⟩ : Fin 140)) 0 ∗ semVal (cellAt cc (⟨51, Nat.le_of_ble_eq_true rfl⟩ : Fin 140)) 0 ∗ semVal (cellAt cc (⟨52, Nat.le_of_ble_eq_true rfl⟩ : Fin 140)) 0 ∗ semVal (cellAt cc (⟨53, Nat.le_of_ble_eq_true rfl⟩ : Fin 140)) 0 ∗ semVal (cellAt cc (⟨54, Nat.le_of_ble_eq_true rfl⟩ : Fin 140)) 0 ∗ semVal (cellAt cc (⟨55, Nat.le_of_ble_eq_true rfl⟩ : Fin 140)) 0 ∗ semVal (cellAt cc (⟨56, Nat.le_of_ble_eq_true rfl⟩ : Fin 140)) 0 ∗ semVal (cellAt cc (⟨57, Nat.le_of_ble_eq_true rfl⟩ : Fin 140)) 0 ∗ semVal (cellAt cc (⟨58, Nat.le_of_ble_eq_true rfl⟩ : Fin 140)) 0 ∗ semVal (cellAt cc (⟨59, Nat.le_of_ble_eq_true rfl⟩ : Fin 140)) 0 ∗ semVal (cellAt cc (⟨60, Nat.le_of_ble_eq_true rfl⟩ : Fin 140)) 0 ∗ semVal (cellAt cc (⟨61, Nat.le_of_ble_eq_true rfl⟩ : Fin 140)) 0 ∗ semVal (cellAt cc (⟨62, Nat.le_of_ble_eq_true rfl⟩ : Fin 140)) 0 ∗ semVal (cellAt cc (⟨63, Nat.le_of_ble_eq_true rfl⟩ : Fin 140)) 0 ∗ semVal (cellAt cc (⟨64, Nat.le_of_ble_eq_true rfl⟩ : Fin 140)) 0 ∗ semVal (cellAt cc (⟨65, Nat.le_of_ble_eq_true rfl⟩ : Fin 140)) 0 ∗ semVal (cellAt cc (⟨66, Nat.le_of_ble_eq_true rfl⟩ : Fin 140)) 0 ∗ semVal (cellAt cc (⟨67, Nat.le_of_ble_eq_true rfl⟩ : Fin 140)) 0 ∗ semVal (cellAt cc (⟨68, Nat.le_of_ble_eq_true rfl⟩ : Fin 140)) 0 ∗ semVal (cellAt cc (⟨69, Nat.le_of_ble_eq_true rfl⟩ : Fin 140)) 0 ∗ semVal (cellAt cc (⟨70, Nat.le_of_ble_eq_true rfl⟩ : Fin 140)) 0 ∗ semVal (cellAt cc (⟨71, Nat.le_of_ble_eq_true rfl⟩ : Fin 140)) 0 ∗ semVal (cellAt cc (⟨72, Nat.le_of_ble_eq_true rfl⟩ : Fin 140)) 0 ∗ semVal (cellAt cc (⟨73, Nat.le_of_ble_eq_true rfl⟩ : Fin 140)) 0 ∗ semVal (cellAt cc (⟨74, Nat.le_of_ble_eq_true rfl⟩ : Fin 140)) 0 ∗ semVal (cellAt cc (⟨75, Nat.le_of_ble_eq_true rfl⟩ : Fin 140)) 0 ∗ semVal (cellAt cc (⟨76, Nat.le_of_ble_eq_true rfl⟩ : Fin 140)) 0 ∗ semVal (cellAt cc (⟨77, Nat.le_of_ble_eq_true rfl⟩ : Fin 140)) 0 ∗ semVal (cellAt cc (⟨78, Nat.le_of_ble_eq_true rfl⟩ : Fin 140)) 0 ∗ semVal (cellAt cc (⟨79, Nat.le_of_ble_eq_true rfl⟩ : Fin 140)) 0 ∗ semVal (cellAt cc (⟨80, Nat.le_of_ble_eq_true rfl⟩ : Fin 140)) 0 ∗ semVal (cellAt cc (⟨81, Nat.le_of_ble_eq_true rfl⟩ : Fin 140)) 0 ∗ semVal (cellAt cc (⟨82, Nat.le_of_ble_eq_true rfl⟩ : Fin 140)) 0 ∗ semVal (cellAt cc (⟨83, Nat.le_of_ble_eq_true rfl⟩ : Fin 140)) 0 ∗ semVal (cellAt cc (⟨84, Nat.le_of_ble_eq_true rfl⟩ : Fin 140)) 0 ∗ semVal (cellAt cc (⟨85, Nat.le_of_ble_eq_true rfl⟩ : Fin 140)) 0 ∗ semVal (cellAt cc (⟨86, Nat.le_of_ble_eq_true rfl⟩ : Fin 140)) 0 ∗ semVal (cellAt cc (⟨87, Nat.le_of_ble_eq_true rfl⟩ : Fin 140)) 0 ∗ semVal (cellAt cc (⟨88, Nat.le_of_ble_eq_true rfl⟩ : Fin 140)) 0 ∗ semVal (cellAt cc (⟨89, Nat.le_of_ble_eq_true rfl⟩ : Fin 140)) 0 ∗ semVal (cellAt cc (⟨90, Nat.le_of_ble_eq_true rfl⟩ : Fin 140)) 0 ∗ semVal (cellAt cc (⟨91, Nat.le_of_ble_eq_true rfl⟩ : Fin 140)) 0 ∗ semVal (cellAt cc (⟨92, Nat.le_of_ble_eq_true rfl⟩ : Fin 140)) 0 ∗ semVal (cellAt cc (⟨93, Nat.le_of_ble_eq_true rfl⟩ : Fin 140)) 0 ∗ semVal (cellAt cc (⟨94, Nat.le_of_ble_eq_true rfl⟩ : Fin 140)) 0 ∗ semVal (cellAt cc (⟨95, Nat.le_of_ble_eq_true rfl⟩ : Fin 140)) 0 ∗ semVal (cellAt cc (⟨96, Nat.le_of_ble_eq_true rfl⟩ : Fin 140)) 0 ∗ semVal (cellAt cc (⟨97, Nat.le_of_ble_eq_true rfl⟩ : Fin 140)) 0 ∗ semVal (cellAt cc (⟨98, Nat.le_of_ble_eq_true rfl⟩ : Fin 140)) 0 ∗ semVal (cellAt cc (⟨99, Nat.le_of_ble_eq_true rfl⟩ : Fin 140)) 0 ∗ semVal (cellAt cc (⟨100, Nat.le_of_ble_eq_true rfl⟩ : Fin 140)) 0 ∗ semVal (cellAt cc (⟨101, Nat.le_of_ble_eq_true rfl⟩ : Fin 140)) 0 ∗ semVal (cellAt cc (⟨102, Nat.le_of_ble_eq_true rfl⟩ : Fin 140)) 0 ∗ semVal (cellAt cc (⟨103, Nat.le_of_ble_eq_true rfl⟩ : Fin 140)) 0 ∗ semVal (cellAt cc (⟨104, Nat.le_of_ble_eq_true rfl⟩ : Fin 140)) 0 ∗ semVal (cellAt cc (⟨105, Nat.le_of_ble_eq_true rfl⟩ : Fin 140)) 0 ∗ semVal (cellAt cc (⟨106, Nat.le_of_ble_eq_true rfl⟩ : Fin 140)) 0 ∗ semVal (cellAt cc (⟨107, Nat.le_of_ble_eq_true rfl⟩ : Fin 140)) 0 ∗ semVal (cellAt cc (⟨108, Nat.le_of_ble_eq_true rfl⟩ : Fin 140)) 0 ∗ semVal (cellAt cc (⟨109, Nat.le_of_ble_eq_true rfl⟩ : Fin 140)) 0 ∗ semVal (cellAt cc (⟨110, Nat.le_of_ble_eq_true rfl⟩ : Fin 140)) 0 ∗ semVal (cellAt cc (⟨111, Nat.le_of_ble_eq_true rfl⟩ : Fin 140)) 0 ∗ semVal (cellAt cc (⟨112, Nat.le_of_ble_eq_true rfl⟩ : Fin 140)) 0 ∗ semVal (cellAt cc (⟨113, Nat.le_of_ble_eq_true rfl⟩ : Fin 140)) 0 ∗ semVal (cellAt cc (⟨114, Nat.le_of_ble_eq_true rfl⟩ : Fin 140)) 0 ∗ semVal (cellAt cc (⟨115, Nat.le_of_ble_eq_true rfl⟩ : Fin 140)) 0 ∗ semVal (cellAt cc (⟨116, Nat.le_of_ble_eq_true rfl⟩ : Fin 140)) 0 ∗ semVal (cellAt cc (⟨117, Nat.le_of_ble_eq_true rfl⟩ : Fin 140)) 0 ∗ semVal (cellAt cc (⟨118, Nat.le_of_ble_eq_true rfl⟩ : Fin 140)) 0 ∗ semVal (cellAt cc (⟨119, Nat.le_of_ble_eq_true rfl⟩ : Fin 140)) 0 ∗ semVal (cellAt cc (⟨120, Nat.le_of_ble_eq_true rfl⟩ : Fin 140)) 0 ∗ semVal (cellAt cc (⟨121, Nat.le_of_ble_eq_true rfl⟩ : Fin 140)) 0 ∗ semVal (cellAt cc (⟨122, Nat.le_of_ble_eq_true rfl⟩ : Fin 140)) 0 ∗ semVal (cellAt cc (⟨123, Nat.le_of_ble_eq_true rfl⟩ : Fin 140)) 0 ∗ semVal (cellAt cc (⟨124, Nat.le_of_ble_eq_true rfl⟩ : Fin 140)) 0 ∗ semVal (cellAt cc (⟨125, Nat.le_of_ble_eq_true rfl⟩ : Fin 140)) 0 ∗ semVal (cellAt cc (⟨126, Nat.le_of_ble_eq_true rfl⟩ : Fin 140)) 0 ∗ semVal (cellAt cc (⟨127, Nat.le_of_ble_eq_true rfl⟩ : Fin 140)) 0 ∗ semVal (cellAt cc (⟨128, Nat.le_of_ble_eq_true rfl⟩ : Fin 140)) 0 ∗ semVal (cellAt cc (⟨129, Nat.le_of_ble_eq_true rfl⟩ : Fin 140)) 0 ∗ semVal (cellAt cc (⟨130, Nat.le_of_ble_eq_true rfl⟩ : Fin 140)) 0 ∗ semVal (cellAt cc (⟨131, Nat.le_of_ble_eq_true rfl⟩ : Fin 140)) 0 ∗ semVal (cellAt cc (⟨132, Nat.le_of_ble_eq_true rfl⟩ : Fin 140)) 0 ∗ semVal (cellAt cc (⟨133, Nat.le_of_ble_eq_true rfl⟩ : Fin 140)) 0 ∗ semVal (cellAt cc (⟨134, Nat.le_of_ble_eq_true rfl⟩ : Fin 140)) 0 ∗ semVal (cellAt cc (⟨135, Nat.le_of_ble_eq_true rfl⟩ : Fin 140)) 0 ∗ semVal (cellAt cc (⟨136, Nat.le_of_ble_eq_true rfl⟩ : Fin 140)) 0 ∗ semVal (cellAt cc (⟨137, Nat.le_of_ble_eq_true rfl⟩ : Fin 140)) 0 ∗ semVal (cellAt cc (⟨138, Nat.le_of_ble_eq_true rfl⟩ : Fin 140)) 0 ∗ semVal (cellAt cc (⟨139, Nat.le_of_ble_eq_true rfl⟩ : Fin 140)) 0) : sProp 𝕄) = (bigSepL allJ fun j => semVal (cellAt cc j) 0) from rfl))
    isplitl [Hv0]
    · iexact Hv0
    isplitl [Hv1]
    · iexact Hv1
    isplitl [Hv2]
    · iexact Hv2
    isplitl [Hv3]
    · iexact Hv3
    isplitl [Hv4]
    · iexact Hv4
    isplitl [Hv5]
    · iexact Hv5
    isplitl [Hv6]
    · iexact Hv6
    isplitl [Hv7]
    · iexact Hv7
    isplitl [Hv8]
    · iexact Hv8
    isplitl [Hv9]
    · iexact Hv9
    isplitl [Hv10]
    · iexact Hv10
    isplitl [Hv11]
    · iexact Hv11
    isplitl [Hv12]
    · iexact Hv12
    isplitl [Hv13]
    · iexact Hv13
    isplitl [Hv14]
    · iexact Hv14
    isplitl [Hv15]
    · iexact Hv15
    isplitl [Hv16]
    · iexact Hv16
    isplitl [Hv17]
    · iexact Hv17
    isplitl [Hv18]
    · iexact Hv18
    isplitl [Hv19]
    · iexact Hv19
    isplitl [Hv20]
    · iexact Hv20
    isplitl [Hv21]
    · iexact Hv21
    isplitl [Hv22]
    · iexact Hv22
    isplitl [Hv23]
    · iexact Hv23
    isplitl [Hv24]
    · iexact Hv24
    isplitl [Hv25]
    · iexact Hv25
    isplitl [Hv26]
    · iexact Hv26
    isplitl [Hv27]
    · iexact Hv27
    isplitl [Hv28]
    · iexact Hv28
    isplitl [Hv29]
    · iexact Hv29
    isplitl [Hv30]
    · iexact Hv30
    isplitl [Hv31]
    · iexact Hv31
    isplitl [Hv32]
    · iexact Hv32
    isplitl [Hv33]
    · iexact Hv33
    isplitl [Hv34]
    · iexact Hv34
    isplitl [Hv35]
    · iexact Hv35
    isplitl [Hv36]
    · iexact Hv36
    isplitl [Hv37]
    · iexact Hv37
    isplitl [Hv38]
    · iexact Hv38
    isplitl [Hv39]
    · iexact Hv39
    isplitl [Hv40]
    · iexact Hv40
    isplitl [Hv41]
    · iexact Hv41
    isplitl [Hv42]
    · iexact Hv42
    isplitl [Hv43]
    · iexact Hv43
    isplitl [Hv44]
    · iexact Hv44
    isplitl [Hv45]
    · iexact Hv45
    isplitl [Hv46]
    · iexact Hv46
    isplitl [Hv47]
    · iexact Hv47
    isplitl [Hv48]
    · iexact Hv48
    isplitl [Hv49]
    · iexact Hv49
    isplitl [Hv50]
    · iexact Hv50
    isplitl [Hv51]
    · iexact Hv51
    isplitl [Hv52]
    · iexact Hv52
    isplitl [Hv53]
    · iexact Hv53
    isplitl [Hv54]
    · iexact Hv54
    isplitl [Hv55]
    · iexact Hv55
    isplitl [Hv56]
    · iexact Hv56
    isplitl [Hv57]
    · iexact Hv57
    isplitl [Hv58]
    · iexact Hv58
    isplitl [Hv59]
    · iexact Hv59
    isplitl [Hv60]
    · iexact Hv60
    isplitl [Hv61]
    · iexact Hv61
    isplitl [Hv62]
    · iexact Hv62
    isplitl [Hv63]
    · iexact Hv63
    isplitl [Hv64]
    · iexact Hv64
    isplitl [Hv65]
    · iexact Hv65
    isplitl [Hv66]
    · iexact Hv66
    isplitl [Hv67]
    · iexact Hv67
    isplitl [Hv68]
    · iexact Hv68
    isplitl [Hv69]
    · iexact Hv69
    isplitl [Hv70]
    · iexact Hv70
    isplitl [Hv71]
    · iexact Hv71
    isplitl [Hv72]
    · iexact Hv72
    isplitl [Hv73]
    · iexact Hv73
    isplitl [Hv74]
    · iexact Hv74
    isplitl [Hv75]
    · iexact Hv75
    isplitl [Hu76]
    · iexact Hu76
    isplitl [Hu77]
    · iexact Hu77
    isplitl [Hu78]
    · iexact Hu78
    isplitl [Hv79]
    · iexact Hv79
    isplitl [Hv80]
    · iexact Hv80
    isplitl [Hv81]
    · iexact Hv81
    isplitl [Hv82]
    · iexact Hv82
    isplitl [Hv83]
    · iexact Hv83
    isplitl [Hu84]
    · iexact Hu84
    isplitl [Hu85]
    · iexact Hu85
    isplitl [Hu86]
    · iexact Hu86
    isplitl [Hv87]
    · iexact Hv87
    isplitl [Hv88]
    · iexact Hv88
    isplitl [Hv89]
    · iexact Hv89
    isplitl [Hv90]
    · iexact Hv90
    isplitl [Hv91]
    · iexact Hv91
    isplitl [Hu92]
    · iexact Hu92
    isplitl [Hu93]
    · iexact Hu93
    isplitl [Hu94]
    · iexact Hu94
    isplitl [Hv95]
    · iexact Hv95
    isplitl [Hv96]
    · iexact Hv96
    isplitl [Hv97]
    · iexact Hv97
    isplitl [Hv98]
    · iexact Hv98
    isplitl [Hv99]
    · iexact Hv99
    isplitl [Hu100]
    · iexact Hu100
    isplitl [Hu101]
    · iexact Hu101
    isplitl [Hu102]
    · iexact Hu102
    isplitl [Hv103]
    · iexact Hv103
    isplitl [Hv104]
    · iexact Hv104
    isplitl [Hv105]
    · iexact Hv105
    isplitl [Hv106]
    · iexact Hv106
    isplitl [Hv107]
    · iexact Hv107
    isplitl [Hw0a]
    · iexact Hw0a
    isplitl [Hw0b]
    · iexact Hw0b
    isplitl [Hw0c]
    · iexact Hw0c
    isplitl [Hw0d]
    · iexact Hw0d
    isplitl [Hw1a]
    · iexact Hw1a
    isplitl [Hw1b]
    · iexact Hw1b
    isplitl [Hw1c]
    · iexact Hw1c
    isplitl [Hw1d]
    · iexact Hw1d
    isplitl [Hw2a]
    · iexact Hw2a
    isplitl [Hw2b]
    · iexact Hw2b
    isplitl [Hw2c]
    · iexact Hw2c
    isplitl [Hw2d]
    · iexact Hw2d
    isplitl [Hw3a]
    · iexact Hw3a
    isplitl [Hw3b]
    · iexact Hw3b
    isplitl [Hw3c]
    · iexact Hw3c
    isplitl [Hw3d]
    · iexact Hw3d
    isplitl [Hw4a]
    · iexact Hw4a
    isplitl [Hw4b]
    · iexact Hw4b
    isplitl [Hw4c]
    · iexact Hw4c
    isplitl [Hw4d]
    · iexact Hw4d
    isplitl [Hw5a]
    · iexact Hw5a
    isplitl [Hw5b]
    · iexact Hw5b
    isplitl [Hw5c]
    · iexact Hw5c
    isplitl [Hw5d]
    · iexact Hw5d
    isplitl [Hw6a]
    · iexact Hw6a
    isplitl [Hw6b]
    · iexact Hw6b
    isplitl [Hw6c]
    · iexact Hw6c
    isplitl [Hw6d]
    · iexact Hw6d
    isplitl [Hw7a]
    · iexact Hw7a
    isplitl [Hw7b]
    · iexact Hw7b
    isplitl [Hw7c]
    · iexact Hw7c
    iexact Hw7d
  iexists _; iexact HO

end Cert.KernelIdeal.RS.D7

end
-- ==== Proof.BodyAll.lean ====
import proofs.«901022_g7700000000001023_dist_rs_v7x_xyz2x2x2_x_m4096_n1024_bf16_1_alg».proof.Proof.Body0
import proofs.«901022_g7700000000001023_dist_rs_v7x_xyz2x2x2_x_m4096_n1024_bf16_1_alg».proof.Proof.Body1
import proofs.«901022_g7700000000001023_dist_rs_v7x_xyz2x2x2_x_m4096_n1024_bf16_1_alg».proof.Proof.Body2
import proofs.«901022_g7700000000001023_dist_rs_v7x_xyz2x2x2_x_m4096_n1024_bf16_1_alg».proof.Proof.Body3
import proofs.«901022_g7700000000001023_dist_rs_v7x_xyz2x2x2_x_m4096_n1024_bf16_1_alg».proof.Proof.Body4
import proofs.«901022_g7700000000001023_dist_rs_v7x_xyz2x2x2_x_m4096_n1024_bf16_1_alg».proof.Proof.Body5
import proofs.«901022_g7700000000001023_dist_rs_v7x_xyz2x2x2_x_m4096_n1024_bf16_1_alg».proof.Proof.Body6
import proofs.«901022_g7700000000001023_dist_rs_v7x_xyz2x2x2_x_m4096_n1024_bf16_1_alg».proof.Proof.Body7
import proofs.«901022_g7700000000001023_dist_rs_v7x_xyz2x2x2_x_m4096_n1024_bf16_1_alg».proof.Proof.FrameOf

/-! The body's statement on every device, from the eight devices' one by one. -/

noncomputable section

namespace Cert.KernelIdeal.RS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The body's statement on every device: the eight devices one by one. -/
theorem sound_body (m : (ℓ : Loc nD τ sig) → Buf (Elt F) ℓ) : BodySound (F := F) m := by
  intro K c W Kt
  have hc : c.val < 8 := c.isLt
  by_cases h0 : c.val = 0
  · obtain rfl : c = @Fin.mk nD 0 (Nat.le_of_ble_eq_true rfl) := Fin.ext h0
    exact D0.dev m K W Kt
  by_cases h1 : c.val = 1
  · obtain rfl : c = @Fin.mk nD 1 (Nat.le_of_ble_eq_true rfl) := Fin.ext h1
    exact D1.dev m K W Kt
  by_cases h2 : c.val = 2
  · obtain rfl : c = @Fin.mk nD 2 (Nat.le_of_ble_eq_true rfl) := Fin.ext h2
    exact D2.dev m K W Kt
  by_cases h3 : c.val = 3
  · obtain rfl : c = @Fin.mk nD 3 (Nat.le_of_ble_eq_true rfl) := Fin.ext h3
    exact D3.dev m K W Kt
  by_cases h4 : c.val = 4
  · obtain rfl : c = @Fin.mk nD 4 (Nat.le_of_ble_eq_true rfl) := Fin.ext h4
    exact D4.dev m K W Kt
  by_cases h5 : c.val = 5
  · obtain rfl : c = @Fin.mk nD 5 (Nat.le_of_ble_eq_true rfl) := Fin.ext h5
    exact D5.dev m K W Kt
  by_cases h6 : c.val = 6
  · obtain rfl : c = @Fin.mk nD 6 (Nat.le_of_ble_eq_true rfl) := Fin.ext h6
    exact D6.dev m K W Kt
  by_cases h7 : c.val = 7
  · obtain rfl : c = @Fin.mk nD 7 (Nat.le_of_ble_eq_true rfl) := Fin.ext h7
    exact D7.dev m K W Kt
  exfalso; omega

end Cert.KernelIdeal.RS

end
-- ==== Proof.K.Mesh.lean ====
import proofs.«901022_g7700000000001023_dist_rs_v7x_xyz2x2x2_x_m4096_n1024_bf16_1_alg».proof.Proof.Gen.Kernel
import Idealize.ShloMosaic.Lib.ValueIdx

/-! The 2×2×2 mesh: a device's linear id is 4·x + 2·y + z. Its three neighbours differ from it in exactly one
    coordinate; the quarter of the result columns a device computes itself is numbered 2·y + z. -/

noncomputable section

namespace Cert.Kernel.RS

open Cert.Kernel Cert.Kernel.Gen
open Idealize.ShloMosaic Idealize.ShloMosaic.TcCoe

/-- The device's coordinate along the mesh axis x (the axis the input is cut along). -/
def mx (c : Dev nD) : ℕ := c.val / 4
/-- Its coordinate along y. -/
def my (c : Dev nD) : ℕ := (c.val / 2) % 2
/-- Its coordinate along z. -/
def mz (c : Dev nD) : ℕ := c.val % 2
/-- The quarter of its result's columns the device adds up itself. -/
def mq (c : Dev nD) : ℕ := 2 * my c + mz c
/-- The quarter its z-neighbour adds up. -/
def zq (c : Dev nD) : ℕ := (2 * my c + 1) - mz c
/-- The quarter its y-neighbour adds up. -/
def yq (c : Dev nD) : ℕ := (mz c + 2) - 2 * my c
/-- The quarter the device diagonally opposite in the (y, z) plane adds up. -/
def dq (c : Dev nD) : ℕ := 3 - mq c

/-- The neighbour across x: the other half of the input. -/
def px (c : Dev nD) : Dev nD := ⟨(2 * ((c.val / 2) % 2) + (c.val % 2) + 4) - 4 * (c.val / 4), by revert c; decide⟩
/-- The neighbour across z. -/
def pz (c : Dev nD) : Dev nD := ⟨(4 * (c.val / 4) + 2 * ((c.val / 2) % 2) + 1) - (c.val % 2), by revert c; decide⟩
/-- The neighbour across y. -/
def py (c : Dev nD) : Dev nD := ⟨(4 * (c.val / 4) + (c.val % 2) + 2) - 2 * ((c.val / 2) % 2), by revert c; decide⟩

theorem px_px (c : Dev nD) : px (px c) = c := by revert c; decide
theorem py_py (c : Dev nD) : py (py c) = c := by revert c; decide
theorem pz_pz (c : Dev nD) : pz (pz c) = c := by revert c; decide
theorem py_pz (c : Dev nD) : py (pz c) = pz (py c) := by revert c; decide
theorem px_ne (c : Dev nD) : px c ≠ c := by revert c; decide
theorem py_ne (c : Dev nD) : py c ≠ c := by revert c; decide
theorem pz_ne (c : Dev nD) : pz c ≠ c := by revert c; decide
theorem px_ne_py (c : Dev nD) : px c ≠ py c := by revert c; decide
theorem px_ne_pz (c : Dev nD) : px c ≠ pz c := by revert c; decide
theorem py_ne_pz (c : Dev nD) : py c ≠ pz c := by revert c; decide

/-- Crossing x flips the x coordinate and keeps the quarter. -/
theorem mx_px (c : Dev nD) : mx (px c) = 1 - mx c := by revert c; decide
theorem mq_px (c : Dev nD) : mq (px c) = mq c := by revert c; decide
theorem dq_px (c : Dev nD) : dq (px c) = dq c := by revert c; decide
/-- Crossing y or z keeps the x coordinate and permutes the quarters. -/
theorem mx_py (c : Dev nD) : mx (py c) = mx c := by revert c; decide
theorem mx_pz (c : Dev nD) : mx (pz c) = mx c := by revert c; decide
theorem mq_pz (c : Dev nD) : mq (pz c) = zq c := by revert c; decide
theorem mq_py (c : Dev nD) : mq (py c) = yq c := by revert c; decide
theorem zq_pz (c : Dev nD) : zq (pz c) = mq c := by revert c; decide
theorem yq_py (c : Dev nD) : yq (py c) = mq c := by revert c; decide
theorem dq_pz (c : Dev nD) : dq (pz c) = yq c := by revert c; decide
theorem dq_py (c : Dev nD) : dq (py c) = zq c := by revert c; decide
theorem zq_py (c : Dev nD) : zq (py c) = dq c := by revert c; decide
theorem yq_pz (c : Dev nD) : yq (pz c) = dq c := by revert c; decide
theorem mq_py_pz (c : Dev nD) : mq (py (pz c)) = dq c := by revert c; decide
theorem mx_lt (c : Dev nD) : mx c < 2 := by revert c; decide
theorem mq_lt (c : Dev nD) : mq c < 4 := by revert c; decide
/-- The four quarters of a device are its own, its two neighbours' and the diagonal one: pairwise distinct. -/
theorem quarters (c : Dev nD) : mq c ≠ zq c ∧ mq c ≠ yq c ∧ mq c ≠ dq c ∧ zq c ≠ yq c ∧ zq c ≠ dq c ∧ yq c ≠ dq c ∧ zq c < 4 ∧ yq c < 4 ∧ dq c < 4 := by
  revert c; decide

end Cert.Kernel.RS

end
-- ==== Proof.K.Spec.lean ====
import proofs.«901022_g7700000000001023_dist_rs_v7x_xyz2x2x2_x_m4096_n1024_bf16_1_alg».proof.Proof.K.Mesh

/-! What every buffer of every device finally holds, as a pure function of the devices' input blocks.
    Each element of each scratch buffer is written exactly once in a run, so "the final contents" is the one
    thing any landing, store or copy ever puts there.

    With N = 1024 the width of a device's result, W = 256 a quarter of it, and x_t device t's block f32[1, 4096, 2048]:
    * the two staging buffers of quarter q = mq t hold the columns of x_t that t's x-neighbour needs (stP) and the ones t keeps (stL);
    * sb is stP rounded to bf16 and is what travels across x; rb is what arrives: the x-neighbour's sb;
    * own t = bf16 (stL t + f32 (rb t)) is quarter mq t of t's result;
    * the same with the diagonal quarter dq t, for the first 1536 rows only (stP2, stL2, sb2, rb2, dgn);
    * r4 t, the four quarters side by side: t's own, its z-neighbour's, its y-neighbour's, and the diagonal one — computed by t
      itself on rows below 1536 and by the diagonal device (forwarded in two halves through the two neighbours) on the rest;
    * out t (i, 256 q + j) = r4 t (q, i, j). -/

noncomputable section

namespace Cert.Kernel.RS

open Cert.Kernel Cert.Kernel.Gen
open Idealize.ShloMosaic Idealize.ShloMosaic.TcCoe Idealize.ShloMosaic.ValueIdx

variable {F : FTy → Type} [FloatOps F]
variable (m : (ℓ : Loc nD τ sig) → Buf (Elt F) ℓ)

/-- Device t's block of the input. -/
def xin (t : Dev nD) : Vec F S1x4096x2048 .f32 := m ((t : Thread nD τ).loc main_arg0)

/-- Entry (0, i, col) of device t's block (row and column reduced into range, which changes nothing where they are used). -/
def xat (t : Dev nD) (i col : ℕ) : F .f32 :=
  xin m t (ix3 (0 : Fin 1) (⟨i % 4096, Nat.mod_lt _ (by decide)⟩ : Fin 4096) (⟨col % 2048, Nat.mod_lt _ (by decide)⟩ : Fin 2048))

/-- The columns of quarter q of the half that belongs to the device with x coordinate a. -/
def colOf (a q j : ℕ) : ℕ := 1024 * a + 256 * q + j

/-- What device t contributes to column j of quarter q of ITS OWN half, row i. -/
def keep (t : Dev nD) (q i j : ℕ) : F .f32 := xat m t i (colOf (mx t) q j)
/-- What device t contributes to its x-neighbour's half, rounded to bf16 for the wire. -/
def give (t : Dev nD) (q i j : ℕ) : F .bf16 := FloatOps.truncf .bf16 bitsLt_bf16_f32 (xat m t i (colOf (1 - mx t) q j))
/-- Entry (i, j) of quarter q of device t's result: its own contribution plus its x-neighbour's, rounded to bf16. -/
def cellv (t : Dev nD) (q i j : ℕ) : F .bf16 :=
  FloatOps.truncf .bf16 bitsLt_bf16_f32 (FloatOps.addf (keep m t q i j) (FloatOps.extf .f32 bitsLt_bf16_f32 (give m (px t) q i j)))

def stP (t : Dev nD) : Vec F S4096x256 .f32 := fun y => xat m t (y 0).val (colOf (1 - mx t) (mq t) (y 1).val)
def stL (t : Dev nD) : Vec F S4096x256 .f32 := fun y => keep m t (mq t) (y 0).val (y 1).val
def stP2 (t : Dev nD) : Vec F S1536x256 .f32 := fun y => xat m t (y 0).val (colOf (1 - mx t) (dq t) (y 1).val)
def stL2 (t : Dev nD) : Vec F S1536x256 .f32 := fun y => keep m t (dq t) (y 0).val (y 1).val
def sb (t : Dev nD) : Vec F S4096x256 .bf16 := fun y => give m t (mq t) (y 0).val (y 1).val
def sb2 (t : Dev nD) : Vec F S1536x256 .bf16 := fun y => give m t (dq t) (y 0).val (y 1).val
def rb (t : Dev nD) : Vec F S4096x256 .bf16 := sb m (px t)
def rb2 (t : Dev nD) : Vec F S1536x256 .bf16 := sb2 m (px t)

/-- The device that adds up quarter q of device t's result rows i: t, a neighbour, or the diagonal device. -/
def ownerOf (t : Dev nD) (q : ℕ) : Dev nD :=
  if q = mq t then t else if q = zq t then pz t else if q = yq t then py t else py (pz t)

/-- The four quarters as device t finally holds them. (Every owner has t's x coordinate, so the columns are t's.) -/
def r4 (t : Dev nD) : Vec F S4x4096x256 .bf16 := fun y =>
  if (y 0).val = dq t ∧ (y 1).val < 1536 then cellv m t (dq t) (y 1).val (y 2).val
  else cellv m (ownerOf t (y 0).val) (y 0).val (y 1).val (y 2).val

/-- Device t's result. -/
def out (t : Dev nD) : Vec F S4096x1024 .bf16 := fun y =>
  r4 m t (ix3 (⟨(y 1).val / 256, by have := (y 1).isLt; change _ < 1024 at this; omega⟩ : Fin 4) (⟨(y 0).val, by have := (y 0).isLt; exact this⟩ : Fin 4096) (⟨(y 1).val % 256, Nat.mod_lt _ (by decide)⟩ : Fin 256))

end Cert.Kernel.RS

end
-- ==== Proof.K.Sched.lean ====
import proofs.«901022_g7700000000001023_dist_rs_v7x_xyz2x2x2_x_m4096_n1024_bf16_1_alg».proof.Proof.Gen.Kernel.Skeleton
import proofs.«901022_g7700000000001023_dist_rs_v7x_xyz2x2x2_x_m4096_n1024_bf16_1_alg».proof.Proof.Gen.Kernel.Launch
import proofs.«901022_g7700000000001023_dist_rs_v7x_xyz2x2x2_x_m4096_n1024_bf16_1_alg».proof.Proof.Gen.Kernel.Points
import proofs.«901022_g7700000000001023_dist_rs_v7x_xyz2x2x2_x_m4096_n1024_bf16_1_alg».proof.Proof.K.Spec
import Idealize.ShloMosaic.Lib.Pipeline.Launch
import Idealize.ShloMosaic.Lib.Pipeline.Kit
import Idealize.ShloMosaic.Lib.Tactic

/-! The protocol. Every remote copy moves one chunk (512 rows of a quarter, or half the columns of one) and has a
    send semaphore on the sender and a receive semaphore on the receiver, each used once: one round, one duty.
    The barrier semaphore of a device is signalled once by each of its three neighbours and waited for 3: one
    round, three duties; with its signal a neighbour hands over the parts of ITS buffers this device will write.
    What a landing hands the receiver is the chunk holding its final contents (Spec); what a departure hands back to
    the sender is the share of the source chunk it lent. -/

noncomputable section

namespace Cert.Kernel.RS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Duty names: on a barrier cell 0, 1, 2 are the signals of the neighbours across x, y, z; every other cell has the one duty 0. -/
abbrev DD : Type := Fin 3
abbrev UB : Type := URounds (GSem nD τ sig) DD
/-- The pipeline library's copy of the rounds algebra, this protocol's, and the counters of the local copies. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

abbrev 𝒱₀ : Variants := Variants.none

variable (m : (ℓ : Loc nD τ sig) → Buf (Elt F) ℓ)

/-! ## The chunks -/

theorem rows8_inb : ∀ k : Fin 8, ∀ a : Fin 2, (![512 * k.val, 0] : Fin 2 → ℕ) a + S512x256.size a ≤ S4096x256.size a := by decide
theorem rows3_inb : ∀ k : Fin 3, ∀ a : Fin 2, (![512 * k.val, 0] : Fin 2 → ℕ) a + S512x256.size a ≤ S1536x256.size a := by decide
theorem chunk_inb : ∀ (q : Fin 4) (k : Fin 8), ∀ a : Fin 3, (![q.val, 512 * k.val, 0] : Fin 3 → ℕ) a + S1x512x256.size a ≤ S4x4096x256.size a := by decide
theorem half_inb : ∀ (q : Fin 4) (k : Fin 8) (h : Fin 2), ∀ a : Fin 3, (![q.val, 512 * k.val, 128 * h.val] : Fin 3 → ℕ) a + S1x512x128.size a ≤ S4x4096x256.size a := by decide

/-- Rows 512k … 512k+511 of the buffer sent across x, of the buffer it lands in, and of their three-chunk siblings. -/
abbrev sbR (k : Fin 8) : Memref sig .tc .vmem S512x256 .bf16 :=
  (Memref.whole cc0_scratch1 : Memref sig .tc .vmem S4096x256 .bf16).slice (Rect.unit (s := S4096x256) ![512 * k.val, 0] S512x256.size (rows8_inb k)) (fun _ => rfl)
abbrev rbR (k : Fin 8) : Memref sig .tc .vmem S512x256 .bf16 :=
  (Memref.whole cc0_scratch2 : Memref sig .tc .vmem S4096x256 .bf16).slice (Rect.unit (s := S4096x256) ![512 * k.val, 0] S512x256.size (rows8_inb k)) (fun _ => rfl)
abbrev sb2R (k : Fin 3) : Memref sig .tc .vmem S512x256 .bf16 :=
  (Memref.whole cc0_scratch3 : Memref sig .tc .vmem S1536x256 .bf16).slice (Rect.unit (s := S1536x256) ![512 * k.val, 0] S512x256.size (rows3_inb k)) (fun _ => rfl)
abbrev rb2R (k : Fin 3) : Memref sig .tc .vmem S512x256 .bf16 :=
  (Memref.whole cc0_scratch4 : Memref sig .tc .vmem S1536x256 .bf16).slice (Rect.unit (s := S1536x256) ![512 * k.val, 0] S512x256.size (rows3_inb k)) (fun _ => rfl)
/-- Chunk k of quarter q of the four-quarter buffer, and its left (h = 0) or right (h = 1) half. -/
abbrev r4R (q : Fin 4) (k : Fin 8) : Memref sig .tc .vmem S512x256 .bf16 :=
  ((Memref.whole cc0_scratch0 : Memref sig .tc .vmem S4x4096x256 .bf16).slice (Rect.unit (s := S4x4096x256) ![q.val, 512 * k.val, 0] S1x512x256.size (chunk_inb q k)) (fun _ => rfl)).squeeze S512x256 squeezes_S1x512x256_S512x256
abbrev r4H (q : Fin 4) (k : Fin 8) (h : Fin 2) : Memref sig .tc .vmem S512x128 .bf16 :=
  ((Memref.whole cc0_scratch0 : Memref sig .tc .vmem S4x4096x256 .bf16).slice (Rect.unit (s := S4x4096x256) ![q.val, 512 * k.val, 128 * h.val] S1x512x128.size (half_inb q k h)) (fun _ => rfl)).squeeze S512x128 squeezes_S1x512x128_S512x128

/-- The quarters as indices. -/
def mqF (t : Dev nD) : Fin 4 := ⟨mq t, mq_lt t⟩
def zqF (t : Dev nD) : Fin 4 := ⟨zq t, (quarters t).2.2.2.2.2.2.1⟩
def yqF (t : Dev nD) : Fin 4 := ⟨yq t, (quarters t).2.2.2.2.2.2.2.1⟩
def dqF (t : Dev nD) : Fin 4 := ⟨dq t, (quarters t).2.2.2.2.2.2.2.2⟩

/-- "The elements of this view on device t, at this share, hold f". -/
abbrev pts {sp : Space} {s : Shape} {e : EltTy} (M : Memref sig .tc sp s e) (t : Dev nD) (q : PosShare TreeShare) (f : Buf (Elt F) (M.view.loc (t : Thread nD τ))) : sProp 𝕄 :=
  M.view.loc (t : Thread nD τ) ↦[M.view.set]{q} f
/-- The same at some contents. -/
abbrev junk {sp : Space} {s : Shape} {e : EltTy} (M : Memref sig .tc sp s e) (t : Dev nD) : sProp 𝕄 :=
  iprop(∃ f : Buf (Elt F) (M.view.loc (t : Thread nD τ)), M.view.loc (t : Thread nD τ) ↦[M.view.set]{fullShare} f)

/-! ## The cells -/

/-- Semaphore j of the pool of DMA semaphores. The kernel's arrays lie in it in order: per-chunk send and receive
    semaphores of the copies across x at 22… and 30… (their three-chunk siblings at 38… and 41…), of a device's own
    quarter to its z-neighbour at 44… and 52…, to its y-neighbour at 60… and 68…, of the forwarded halves through z at
    76… and 84…, through y at 92… and 100…. -/
abbrev dsem (j : Fin 140) : SemLoc sig := .dma j
abbrev barS : Sem sig := (SemArray.scalar (sig.barrier 0 rfl) : Sems sig S_).sem
abbrev cellAt (t : Dev nD) (j : Fin 140) : GSem nD τ sig := ((t : Thread nD τ), dsem j)
abbrev barCell (t : Dev nD) : GSem nD τ sig := ((t : Thread nD τ), .reg barS)

/-- The unit of credit of a whole chunk and of a half chunk. -/
abbrev NA : ℕ := (sbR 0).view.dmaCredit
abbrev NH : ℕ := (r4H 0 3 0).view.dmaCredit

/-- The three shares a device's own chunk is lent at: to the copy to z, to the copy to y, and the rest it keeps (for the copy into the result). -/
abbrev shZ : PosShare TreeShare := fullShare.left
abbrev shY : PosShare TreeShare := fullShare.right.left
abbrev shK : PosShare TreeShare := fullShare.right.right
/-- A received chunk is lent to the forward at one half and kept at the other. -/
abbrev shF : PosShare TreeShare := fullShare.left
abbrev shG : PosShare TreeShare := fullShare.right

/-- Which rounds cell a DMA semaphore is, if any: (array, chunk). Arrays: 0 x-send, 1 x-receive, 2, 3 their siblings,
    4 z-send, 5 z-receive, 6 y-send, 7 y-receive, 8 z-forward send, 9 z-forward receive, 10 y-forward send, 11 y-forward receive. -/
def kindOf (j : ℕ) : Option (ℕ × ℕ) :=
  if 22 ≤ j ∧ j < 30 then some (0, j - 22) else if 30 ≤ j ∧ j < 38 then some (1, j - 30)
  else if 38 ≤ j ∧ j < 41 then some (2, j - 38) else if 41 ≤ j ∧ j < 44 then some (3, j - 41)
  else if 44 ≤ j ∧ j < 52 then some (4, j - 44) else if 52 ≤ j ∧ j < 60 then some (5, j - 52)
  else if 60 ≤ j ∧ j < 68 then some (6, j - 60) else if 68 ≤ j ∧ j < 76 then some (7, j - 68)
  else if 79 ≤ j ∧ j < 84 then some (8, j - 76) else if 87 ≤ j ∧ j < 92 then some (9, j - 84)
  else if 95 ≤ j ∧ j < 100 then some (10, j - 92) else if 103 ≤ j ∧ j < 108 then some (11, j - 100)
  else none

def f8 (k : ℕ) : Fin 8 := ⟨k % 8, Nat.mod_lt _ (by decide)⟩
def f3 (k : ℕ) : Fin 3 := ⟨k % 3, Nat.mod_lt _ (by decide)⟩

/-- What the one duty of a DMA cell of device t hands its owner. -/
def dmaPay (t : Dev nD) (j : ℕ) : sProp 𝕄 :=
  match kindOf j with
  | some (0, k) => pts (sbR (f8 k)) t fullShare (sb m t)
  | some (1, k) => pts (rbR (f8 k)) t fullShare (rb m t)
  | some (2, k) => pts (sb2R (f3 k)) t fullShare (sb2 m t)
  | some (3, k) => pts (rb2R (f3 k)) t fullShare (rb2 m t)
  | some (4, k) => pts (r4R (mqF t) (f8 k)) t shZ (r4 m t)
  | some (5, k) => pts (r4R (zqF t) (f8 k)) t fullShare (r4 m t)
  | some (6, k) => pts (r4R (mqF t) (f8 k)) t shY (r4 m t)
  | some (7, k) => pts (r4R (yqF t) (f8 k)) t fullShare (r4 m t)
  | some (8, k) => pts (r4H (yqF t) (f8 k) 0) t shF (r4 m t)
  | some (9, k) => pts (r4H (dqF t) (f8 k) 0) t fullShare (r4 m t)
  | some (10, k) => pts (r4H (zqF t) (f8 k) 1) t shF (r4 m t)
  | some (11, k) => pts (r4H (dqF t) (f8 k) 1) t fullShare (r4 m t)
  | _ => iprop(emp)

/-- What neighbour p hands over with its barrier signal: across x its two landing buffers whole; across y (side = 1) or
    z (side = 0) the quarter of its four-quarter buffer that the receiver adds up, chunk by chunk, and the half of the
    forwarded chunks 3 … 7 of its diagonal quarter that the receiver forwards into. -/
def giveX (p : Dev nD) : sProp 𝕄 :=
  iprop(junk (F := F) (Memref.whole cc0_scratch2 : Memref sig .tc .vmem S4096x256 .bf16) p ∗ junk (F := F) (Memref.whole cc0_scratch4 : Memref sig .tc .vmem S1536x256 .bf16) p)
def giveQ (p : Dev nD) (q : Fin 4) : sProp 𝕄 :=
  iprop(junk (F := F) (r4R q 0) p ∗ junk (F := F) (r4R q 1) p ∗ junk (F := F) (r4R q 2) p ∗ junk (F := F) (r4R q 3) p
    ∗ junk (F := F) (r4R q 4) p ∗ junk (F := F) (r4R q 5) p ∗ junk (F := F) (r4R q 6) p ∗ junk (F := F) (r4R q 7) p)
def giveH (p : Dev nD) (h : Fin 2) : sProp 𝕄 :=
  iprop(junk (F := F) (r4H (dqF p) 3 h) p ∗ junk (F := F) (r4H (dqF p) 4 h) p ∗ junk (F := F) (r4H (dqF p) 5 h) p
    ∗ junk (F := F) (r4H (dqF p) 6 h) p ∗ junk (F := F) (r4H (dqF p) 7 h) p)
def barPay (t : Dev nD) (d : DD) : sProp 𝕄 :=
  if d = 0 then giveX (F := F) (px t)
  else if d = 1 then iprop(giveQ (F := F) (py t) (yqF (py t)) ∗ giveH (F := F) (py t) 1)
  else iprop(giveQ (F := F) (pz t) (zqF (pz t)) ∗ giveH (F := F) (pz t) 0)

/-- One round: a TensorCore's barrier cell has the three signals of one unit; a rounds DMA cell its one duty of a chunk's
    (arrays 0 … 7) or a half chunk's (arrays 8 … 11) credit. -/
def rsRd : Rounds.Schedule (GSem nD τ sig) DD 𝕄 where
  duties g r :=
    if r = 0 ∧ g.1.2 = .tc then
      (match g.2 with
       | .reg s => if s = barS then Finset.univ else ∅
       | .dma j => if (kindOf j.val).isSome then {0} else ∅)
    else ∅
  unitless _ := False
  amount g _ _ :=
    match g.2 with
    | .reg _ => 1
    | .dma j => (match kindOf j.val with | some (a, _) => if a < 8 then NA else NH | none => 1)
  payload g _ d :=
    match g.2 with
    | .reg _ => barPay (F := F) g.1.1 d
    | .dma j => dmaPay m g.1.1 j.val
  amount_pos g _ _ _ := by
    rcases g with ⟨th, sm⟩
    cases sm with
    | reg s => exact Nat.one_pos
    | dma j =>
      show 0 < (match kindOf j.val with | some (a, _) => if a < 8 then NA else NH | none => 1)
      split
      · split
        · exact View.dmaCredit_pos _ (by decide)
        · exact View.dmaCredit_pos _ (by decide)
      · exact Nat.one_pos

end Cert.Kernel.RS

end
-- ==== Proof.K.MeshDevs.lean ====
import proofs.«901022_g7700000000001023_dist_rs_v7x_xyz2x2x2_x_m4096_n1024_bf16_1_alg».proof.Proof.K.Mesh

noncomputable section

namespace Cert.Kernel.RS

open Cert.Kernel Cert.Kernel.Gen
open Idealize.ShloMosaic Idealize.ShloMosaic.TcCoe

theorem dev1_eq (c : Dev nD) : (⟨k0_dev1 c, k0_dev1_lt c⟩ : Dev nD) = px c := Fin.ext (k0_dev1_eq c)
theorem dev2_eq (c : Dev nD) : (⟨k0_dev2 c, k0_dev2_lt c⟩ : Dev nD) = pz c := Fin.ext (k0_dev2_eq c)
theorem dev3_eq (c : Dev nD) : (⟨k0_dev3 c, k0_dev3_lt c⟩ : Dev nD) = py c := Fin.ext (k0_dev3_eq c)
theorem dev4_eq (c : Dev nD) : (⟨k0_dev4 c, k0_dev4_lt c⟩ : Dev nD) = px c := Fin.ext (k0_dev4_eq c)
theorem dev5_eq (c : Dev nD) : (⟨k0_dev5 c, k0_dev5_lt c⟩ : Dev nD) = px c := Fin.ext (k0_dev5_eq c)
theorem dev6_eq (c : Dev nD) : (⟨k0_dev6 c, k0_dev6_lt c⟩ : Dev nD) = px c := Fin.ext (k0_dev6_eq c)
theorem dev7_eq (c : Dev nD) : (⟨k0_dev7 c, k0_dev7_lt c⟩ : Dev nD) = px c := Fin.ext (k0_dev7_eq c)
theorem dev8_eq (c : Dev nD) : (⟨k0_dev8 c, k0_dev8_lt c⟩ : Dev nD) = px c := Fin.ext (k0_dev8_eq c)
theorem dev9_eq (c : Dev nD) : (⟨k0_dev9 c, k0_dev9_lt c⟩ : Dev nD) = px c := Fin.ext (k0_dev9_eq c)
theorem dev10_eq (c : Dev nD) : (⟨k0_dev10 c, k0_dev10_lt c⟩ : Dev nD) = px c := Fin.ext (k0_dev10_eq c)
theorem dev11_eq (c : Dev nD) : (⟨k0_dev11 c, k0_dev11_lt c⟩ : Dev nD) = px c := Fin.ext (k0_dev11_eq c)
theorem dev12_eq (c : Dev nD) : (⟨k0_dev12 c, k0_dev12_lt c⟩ : Dev nD) = px c := Fin.ext (k0_dev12_eq c)
theorem dev13_eq (c : Dev nD) : (⟨k0_dev13 c, k0_dev13_lt c⟩ : Dev nD) = px c := Fin.ext (k0_dev13_eq c)
theorem dev14_eq (c : Dev nD) : (⟨k0_dev14 c, k0_dev14_lt c⟩ : Dev nD) = px c := Fin.ext (k0_dev14_eq c)
theorem dev15_eq (c : Dev nD) : (⟨k0_dev15 c, k0_dev15_lt c⟩ : Dev nD) = pz c := Fin.ext (k0_dev15_eq c)
theorem dev16_eq (c : Dev nD) : (⟨k0_dev16 c, k0_dev16_lt c⟩ : Dev nD) = py c := Fin.ext (k0_dev16_eq c)
theorem dev17_eq (c : Dev nD) : (⟨k0_dev17 c, k0_dev17_lt c⟩ : Dev nD) = pz c := Fin.ext (k0_dev17_eq c)
theorem dev18_eq (c : Dev nD) : (⟨k0_dev18 c, k0_dev18_lt c⟩ : Dev nD) = py c := Fin.ext (k0_dev18_eq c)
theorem dev19_eq (c : Dev nD) : (⟨k0_dev19 c, k0_dev19_lt c⟩ : Dev nD) = pz c := Fin.ext (k0_dev19_eq c)
theorem dev20_eq (c : Dev nD) : (⟨k0_dev20 c, k0_dev20_lt c⟩ : Dev nD) = py c := Fin.ext (k0_dev20_eq c)
theorem dev21_eq (c : Dev nD) : (⟨k0_dev21 c, k0_dev21_lt c⟩ : Dev nD) = pz c := Fin.ext (k0_dev21_eq c)
theorem dev22_eq (c : Dev nD) : (⟨k0_dev22 c, k0_dev22_lt c⟩ : Dev nD) = py c := Fin.ext (k0_dev22_eq c)
theorem dev23_eq (c : Dev nD) : (⟨k0_dev23 c, k0_dev23_lt c⟩ : Dev nD) = pz c := Fin.ext (k0_dev23_eq c)
theorem dev24_eq (c : Dev nD) : (⟨k0_dev24 c, k0_dev24_lt c⟩ : Dev nD) = py c := Fin.ext (k0_dev24_eq c)
theorem dev25_eq (c : Dev nD) : (⟨k0_dev25 c, k0_dev25_lt c⟩ : Dev nD) = py c := Fin.ext (k0_dev25_eq c)
theorem dev26_eq (c : Dev nD) : (⟨k0_dev26 c, k0_dev26_lt c⟩ : Dev nD) = pz c := Fin.ext (k0_dev26_eq c)
theorem dev27_eq (c : Dev nD) : (⟨k0_dev27 c, k0_dev27_lt c⟩ : Dev nD) = pz c := Fin.ext (k0_dev27_eq c)
theorem dev28_eq (c : Dev nD) : (⟨k0_dev28 c, k0_dev28_lt c⟩ : Dev nD) = py c := Fin.ext (k0_dev28_eq c)
theorem dev29_eq (c : Dev nD) : (⟨k0_dev29 c, k0_dev29_lt c⟩ : Dev nD) = py c := Fin.ext (k0_dev29_eq c)
theorem dev30_eq (c : Dev nD) : (⟨k0_dev30 c, k0_dev30_lt c⟩ : Dev nD) = pz c := Fin.ext (k0_dev30_eq c)
theorem dev31_eq (c : Dev nD) : (⟨k0_dev31 c, k0_dev31_lt c⟩ : Dev nD) = pz c := Fin.ext (k0_dev31_eq c)
theorem dev32_eq (c : Dev nD) : (⟨k0_dev32 c, k0_dev32_lt c⟩ : Dev nD) = py c := Fin.ext (k0_dev32_eq c)
theorem dev33_eq (c : Dev nD) : (⟨k0_dev33 c, k0_dev33_lt c⟩ : Dev nD) = py c := Fin.ext (k0_dev33_eq c)
theorem dev34_eq (c : Dev nD) : (⟨k0_dev34 c, k0_dev34_lt c⟩ : Dev nD) = pz c := Fin.ext (k0_dev34_eq c)
theorem dev35_eq (c : Dev nD) : (⟨k0_dev35 c, k0_dev35_lt c⟩ : Dev nD) = pz c := Fin.ext (k0_dev35_eq c)
theorem dev36_eq (c : Dev nD) : (⟨k0_dev36 c, k0_dev36_lt c⟩ : Dev nD) = py c := Fin.ext (k0_dev36_eq c)
theorem dev37_eq (c : Dev nD) : (⟨k0_dev37 c, k0_dev37_lt c⟩ : Dev nD) = py c := Fin.ext (k0_dev37_eq c)
theorem dev38_eq (c : Dev nD) : (⟨k0_dev38 c, k0_dev38_lt c⟩ : Dev nD) = pz c := Fin.ext (k0_dev38_eq c)
theorem dev39_eq (c : Dev nD) : (⟨k0_dev39 c, k0_dev39_lt c⟩ : Dev nD) = py c := Fin.ext (k0_dev39_eq c)
theorem dev40_eq (c : Dev nD) : (⟨k0_dev40 c, k0_dev40_lt c⟩ : Dev nD) = pz c := Fin.ext (k0_dev40_eq c)

end Cert.Kernel.RS

end
-- ==== Proof.K.Records.lean ====
import proofs.«901022_g7700000000001023_dist_rs_v7x_xyz2x2x2_x_m4096_n1024_bf16_1_alg».proof.Proof.K.Sched
import proofs.«901022_g7700000000001023_dist_rs_v7x_xyz2x2x2_x_m4096_n1024_bf16_1_alg».proof.Proof.K.MeshDevs

/-! The records every device's body works from: the invariants of all the protocol's cells and that each is at its
    first round, both persistent, over the finite set of cells. -/

noncomputable section

namespace Cert.Kernel.RS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : GSem nD τ sig → ℕ)

/-- The pool indices of the DMA semaphores that are cells of the protocol. -/
def roundsJ : Finset (Fin 140) := Finset.univ.filter fun j => (kindOf j.val).isSome

/-- Every cell of the protocol, on every device: the barrier cell and the protocol's DMA cells. -/
def rsCells : Finset (GSem nD τ sig) :=
  (Finset.univ.image fun t : Dev nD => barCell t) ∪ ((Finset.univ ×ˢ roundsJ).image fun tj : Dev nD × Fin 140 => cellAt tj.1 tj.2)

theorem mem_rsCells_bar (t : Dev nD) : barCell t ∈ (rsCells : Finset (GSem nD τ sig)) :=
  Finset.mem_union_left _ (Finset.mem_image_of_mem _ (Finset.mem_univ t))
theorem mem_rsCells_dma (t : Dev nD) (j : Fin 140) (h : (kindOf j.val).isSome = true) : cellAt t j ∈ (rsCells : Finset (GSem nD τ sig)) :=
  Finset.mem_union_right _ (Finset.mem_image.mpr ⟨(t, j), Finset.mem_product.mpr ⟨Finset.mem_univ _, Finset.mem_filter.mpr ⟨Finset.mem_univ _, h⟩⟩, rfl⟩)

/-- All the cells' invariants, cell g's under the name K g. -/
def invsAll : sProp 𝕄 := bigSep rsCells fun g => cellInv ER (rsRd m) (K g) g
/-- Every cell has reached its first (and only) round. -/
def reachedAll : sProp 𝕄 := bigSep (rsCells : Finset (GSem nD τ sig)) fun g => reached ER g 0

instance invsAll_persistent : BI.Persistent (invsAll m K) := by unfold invsAll; infer_instance
omit [FloatOps F] in
instance reachedAll_persistent : BI.Persistent (reachedAll (F := F)) := by unfold reachedAll; infer_instance

theorem inv_bar (t : Dev nD) : invsAll m K ⊢ cellInv ER (rsRd m) (K (barCell t)) (barCell t) := bigSep_elim (mem_rsCells_bar t)
theorem inv_dma (t : Dev nD) (j : Fin 140) (h : (kindOf j.val).isSome = true) : invsAll m K ⊢ cellInv ER (rsRd m) (K (cellAt t j)) (cellAt t j) :=
  bigSep_elim (mem_rsCells_dma t j h)
omit [FloatOps F] in
theorem reached_bar (t : Dev nD) : (reachedAll (F := F)) ⊢ reached ER (barCell t) 0 := bigSep_elim (mem_rsCells_bar t)
omit [FloatOps F] in
theorem reached_dma (t : Dev nD) (j : Fin 140) (h : (kindOf j.val).isSome = true) : (reachedAll (F := F)) ⊢ reached ER (cellAt t j) 0 :=
  bigSep_elim (mem_rsCells_dma t j h)

end Cert.Kernel.RS

end
-- ==== Proof.K.Owed.lean ====
import proofs.«901022_g7700000000001023_dist_rs_v7x_xyz2x2x2_x_m4096_n1024_bf16_1_alg».proof.Proof.K.Records

/-! What a device owes, in the order it pays, and why no wait can deadlock: every cell has a level, a device's own
    receive cells in the order it waits on them, and whatever a device still owes when it waits lies above the cell it waits on. -/

noncomputable section

namespace Cert.Kernel.RS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What a device owes, as a list of (cell, units) in the order the program pays them: the three barrier signals,
    the chunks across x, then per step of the main loop its own chunk to z and to y and, from the fifth step on, the two
    forwarded halves of the chunk before; the last two halves after the loop. -/
def paysL (c : Dev nD) : List (GSem nD τ sig × ℕ) :=
  [(barCell (px c), 1),
   (barCell (pz c), 1),
   (barCell (py c), 1),
   (cellAt (px c) (⟨30, by decide⟩ : Fin 140), NA),
   (cellAt (px c) (⟨31, by decide⟩ : Fin 140), NA),
   (cellAt (px c) (⟨32, by decide⟩ : Fin 140), NA),
   (cellAt (px c) (⟨33, by decide⟩ : Fin 140), NA),
   (cellAt (px c) (⟨34, by decide⟩ : Fin 140), NA),
   (cellAt (px c) (⟨35, by decide⟩ : Fin 140), NA),
   (cellAt (px c) (⟨36, by decide⟩ : Fin 140), NA),
   (cellAt (px c) (⟨37, by decide⟩ : Fin 140), NA),
   (cellAt (px c) (⟨41, by decide⟩ : Fin 140), NA),
   (cellAt (px c) (⟨42, by decide⟩ : Fin 140), NA),
   (cellAt (px c) (⟨43, by decide⟩ : Fin 140), NA),
   (cellAt (pz c) (⟨52, by decide⟩ : Fin 140), NA),
   (cellAt (py c) (⟨68, by decide⟩ : Fin 140), NA),
   (cellAt (pz c) (⟨53, by decide⟩ : Fin 140), NA),
   (cellAt (py c) (⟨69, by decide⟩ : Fin 140), NA),
   (cellAt (pz c) (⟨54, by decide⟩ : Fin 140), NA),
   (cellAt (py c) (⟨70, by decide⟩ : Fin 140), NA),
   (cellAt (pz c) (⟨55, by decide⟩ : Fin 140), NA),
   (cellAt (py c) (⟨71, by decide⟩ : Fin 140), NA),
   (cellAt (pz c) (⟨56, by decide⟩ : Fin 140), NA),
   (cellAt (py c) (⟨72, by decide⟩ : Fin 140), NA),
   (cellAt (py c) (⟨103, by decide⟩ : Fin 140), NH),
   (cellAt (pz c) (⟨87, by decide⟩ : Fin 140), NH),
   (cellAt (pz c) (⟨57, by decide⟩ : Fin 140), NA),
   (cellAt (py c) (⟨73, by decide⟩ : Fin 140), NA),
   (cellAt (py c) (⟨104, by decide⟩ : Fin 140), NH),
   (cellAt (pz c) (⟨88, by decide⟩ : Fin 140), NH),
   (cellAt (pz c) (⟨58, by decide⟩ : Fin 140), NA),
   (cellAt (py c) (⟨74, by decide⟩ : Fin 140), NA),
   (cellAt (py c) (⟨105, by decide⟩ : Fin 140), NH),
   (cellAt (pz c) (⟨89, by decide⟩ : Fin 140), NH),
   (cellAt (pz c) (⟨59, by decide⟩ : Fin 140), NA),
   (cellAt (py c) (⟨75, by decide⟩ : Fin 140), NA),
   (cellAt (py c) (⟨106, by decide⟩ : Fin 140), NH),
   (cellAt (pz c) (⟨90, by decide⟩ : Fin 140), NH),
   (cellAt (py c) (⟨107, by decide⟩ : Fin 140), NH),
   (cellAt (pz c) (⟨91, by decide⟩ : Fin 140), NH)]

/-- The tallies of a list of payments, the first to be paid the last summand. -/
def owedL : List (GSem nD τ sig × ℕ) → CellTallies nD τ sig Unit
  | [] => 0
  | p :: l => owedL l + tallyAt p.1 () p.2

theorem owedL_cons (p : GSem nD τ sig × ℕ) (l : List (GSem nD τ sig × ℕ)) : owedL (p :: l) = owedL l + tallyAt p.1 () p.2 := rfl
theorem owedL_nil : owedL ([] : List (GSem nD τ sig × ℕ)) = 0 := rfl

/-- What device c owes at launch. -/
def O₀ (c : Dev nD) : CellTallies nD τ sig Unit := owedL (paysL c)

theorem owedL_pos {l : List (GSem nD τ sig × ℕ)} {g : GSem nD τ sig} {u : Unit} (h : 0 < owedL l g u) : ∃ p ∈ l, p.1 = g := by
  induction l with
  | nil => exact absurd h (Nat.lt_irrefl 0)
  | cons p l ih =>
    rw [owedL_cons, Pi.add_apply, Finsupp.add_apply, tallyAt_apply] at h
    by_cases hp : g = p.1 ∧ u = ()
    · exact ⟨p, List.mem_cons_self, hp.1.symm⟩
    · rw [if_neg hp, Nat.add_zero] at h
      obtain ⟨q, hq, hqg⟩ := ih h
      exact ⟨q, List.mem_cons_of_mem _ hq, hqg⟩

/-- Only TensorCore cells carry levels. -/
def LL (g : GSem nD τ sig) : Finset Unit := if g.1.2 = .tc then {()} else ∅
/-- The level of a DMA cell by its pool index: a receive cell's place in its owner's order of waits; 0 for the others. -/
def lvJ (j : ℕ) : ℕ :=
  if 30 ≤ j ∧ j < 38 then 10 * (j - 30) + 2 else if 41 ≤ j ∧ j < 44 then 2
  else if 52 ≤ j ∧ j < 60 then 10 * (j - 52 + 1) + 3 else if 68 ≤ j ∧ j < 76 then 10 * (j - 68 + 1) + 4
  else if 84 ≤ j ∧ j < 92 then 10 * (j - 84 + 2) + 5 else if 100 ≤ j ∧ j < 108 then 10 * (j - 100 + 2) + 6 else 0
/-- Barrier cells at 1. -/
def lvv (g : GSem nD τ sig) (_ : Unit) : ℕ := match g.2 with | .reg _ => 1 | .dma j => lvJ j.val

theorem LL_of_ne (g : GSem nD τ sig) (h : g.1.2 ≠ .tc) : LL g = ∅ := if_neg h
theorem LL_tc (c : Dev nD) (sm : SemLoc sig) : LL ((c : Thread nD τ), sm) = {()} := if_pos rfl

omit [FloatOps F] in
/-- A device may wait on one of its cells while it owes the payments l if every cell in l lies above that cell. -/
theorem mayWait_list (c : Dev nD) (sm : SemLoc sig) (l : List (GSem nD τ sig × ℕ))
    (h : ∀ p ∈ l, p.1.1.2 = .tc ∧ lvv ((c : Thread nD τ), sm) () < lvv p.1 ()) :
    (levAts LL lvv : sProp 𝕄) ⊢ MayWait (c : Thread nD τ) sm () (owedL l) :=
  MayOwe.of_cut (L := LL) (lev := lvv) (lvv ((c : Thread nD τ), sm) ())
    (fun p hp => by rw [Finset.mem_singleton.mp hp, LL_tc]; exact Finset.mem_singleton_self _)
    (fun g u hg => by
      obtain ⟨p, hp, rfl⟩ := owedL_pos hg
      unfold LL; rw [if_pos (h p hp).1]; exact Finset.mem_singleton_self _)
    (fun p hp => by rw [Finset.mem_singleton.mp hp])
    (fun g u hg => by
      obtain ⟨p, hp, rfl⟩ := owedL_pos hg
      exact (h p hp).2)

end Cert.Kernel.RS

end
-- ==== Proof.K.Data.lean ====
import proofs.«901022_g7700000000001023_dist_rs_v7x_xyz2x2x2_x_m4096_n1024_bf16_1_alg».proof.Proof.K.Sched
import proofs.«901022_g7700000000001023_dist_rs_v7x_xyz2x2x2_x_m4096_n1024_bf16_1_alg».proof.Proof.K.Records
import proofs.«901022_g7700000000001023_dist_rs_v7x_xyz2x2x2_x_m4096_n1024_bf16_1_alg».proof.Proof.K.Owed
import proofs.«901022_g7700000000001023_dist_rs_v7x_xyz2x2x2_x_m4096_n1024_bf16_1_alg».proof.Proof.SepL
import Idealize.ShloMosaic.Lib.Pipeline.Launch
import Idealize.ShloMosaic.Lib.Pipeline.Kit
import Idealize.ShloMosaic.Lib.Tactic

/-! What each device starts its body from and ends it with: its positions at its own cells, the tokens of the duties it
    pays, the credit of its receive cells, what it owes its neighbours in the order it pays, the levels that order its
    waits, and the pipeline's proof data (no window: the body's buffers are scratch, the argument and the result). -/

noncomputable section

namespace Cert.Kernel.RS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of one device, listed -/

/-- The pool indices of the protocol's DMA cells, ascending. -/
abbrev rsJ : List (Fin 140) := [22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 79, 80, 81, 82, 83, 87, 88, 89, 90, 91, 95, 96, 97, 98, 99, 103, 104, 105, 106, 107]
/-- The other pool indices: the semaphores of the local copies, plain counters. -/
abbrev idleJ : List (Fin 140) := [0, 1, 2, 3, 4, 5, 6, 7, 8, 9, 10, 11, 12, 13, 14, 15, 16, 17, 18, 19, 20, 21, 76, 77, 78, 84, 85, 86, 92, 93, 94, 100, 101, 102, 108, 109, 110, 111, 112, 113, 114, 115, 116, 117, 118, 119, 120, 121, 122, 123, 124, 125, 126, 127, 128, 129, 130, 131, 132, 133, 134, 135, 136, 137, 138, 139]
/-- A device's cells of the protocol: its barrier cell, then its DMA cells ascending. -/
abbrev csemL : List (SemLoc sig) := (.reg barS : SemLoc sig) :: rsJ.map dsem

theorem rsJ_nodup : rsJ.Nodup := by decide
theorem idleJ_nodup : idleJ.Nodup := by decide
theorem rsJ_isSome : ∀ j ∈ rsJ, (kindOf j.val).isSome = true := by decide
theorem isSome_mem_rsJ : ∀ j : Fin 140, (kindOf j.val).isSome = true → j ∈ rsJ := by decide
theorem idleJ_isNone : ∀ j ∈ idleJ, (kindOf j.val).isSome = false := by decide
theorem isNone_mem_idleJ : ∀ j : Fin 140, (kindOf j.val).isSome = false → j ∈ idleJ := by decide

/-- The neighbour in direction `i`: the device itself, or the one across x, y, z. -/
def nbr (i : Fin 4) (c : Dev nD) : Dev nD := match i with | 0 => c | 1 => px c | 2 => py c | 3 => pz c
theorem nbr_nbr (i : Fin 4) (c : Dev nD) : nbr i (nbr i c) = c := by
  match i with
  | 0 => rfl
  | 1 => exact px_px c
  | 2 => exact py_py c
  | 3 => exact pz_pz c

/-! ## Positions, tokens, credit -/

/-- The device's position at round 0 of each of its cells. -/
def myPos (c : Dev nD) : sProp 𝕄 := bigSepL csemL fun sm => atPos ER ((c : Thread nD τ), sm) 0 ∅ 0
omit [FloatOps F] in
theorem myPos_unfold (c : Dev nD) : (myPos c : sProp 𝕄) = iprop(atPos ER (barCell c) 0 ∅ 0
    ∗ atPos ER (cellAt c 22) 0 ∅ 0 ∗ atPos ER (cellAt c 23) 0 ∅ 0 ∗ atPos ER (cellAt c 24) 0 ∅ 0
    ∗ atPos ER (cellAt c 25) 0 ∅ 0 ∗ atPos ER (cellAt c 26) 0 ∅ 0 ∗ atPos ER (cellAt c 27) 0 ∅ 0
    ∗ atPos ER (cellAt c 28) 0 ∅ 0 ∗ atPos ER (cellAt c 29) 0 ∅ 0 ∗ atPos ER (cellAt c 30) 0 ∅ 0
    ∗ atPos ER (cellAt c 31) 0 ∅ 0 ∗ atPos ER (cellAt c 32) 0 ∅ 0 ∗ atPos ER (cellAt c 33) 0 ∅ 0
    ∗ atPos ER (cellAt c 34) 0 ∅ 0 ∗ atPos ER (cellAt c 35) 0 ∅ 0 ∗ atPos ER (cellAt c 36) 0 ∅ 0
    ∗ atPos ER (cellAt c 37) 0 ∅ 0 ∗ atPos ER (cellAt c 38) 0 ∅ 0 ∗ atPos ER (cellAt c 39) 0 ∅ 0
    ∗ atPos ER (cellAt c 40) 0 ∅ 0 ∗ atPos ER (cellAt c 41) 0 ∅ 0 ∗ atPos ER (cellAt c 42) 0 ∅ 0
    ∗ atPos ER (cellAt c 43) 0 ∅ 0 ∗ atPos ER (cellAt c 44) 0 ∅ 0 ∗ atPos ER (cellAt c 45) 0 ∅ 0
    ∗ atPos ER (cellAt c 46) 0 ∅ 0 ∗ atPos ER (cellAt c 47) 0 ∅ 0 ∗ atPos ER (cellAt c 48) 0 ∅ 0
    ∗ atPos ER (cellAt c 49) 0 ∅ 0 ∗ atPos ER (cellAt c 50) 0 ∅ 0 ∗ atPos ER (cellAt c 51) 0 ∅ 0
    ∗ atPos ER (cellAt c 52) 0 ∅ 0 ∗ atPos ER (cellAt c 53) 0 ∅ 0 ∗ atPos ER (cellAt c 54) 0 ∅ 0
    ∗ atPos ER (cellAt c 55) 0 ∅ 0 ∗ atPos ER (cellAt c 56) 0 ∅ 0 ∗ atPos ER (cellAt c 57) 0 ∅ 0
    ∗ atPos ER (cellAt c 58) 0 ∅ 0 ∗ atPos ER (cellAt c 59) 0 ∅ 0 ∗ atPos ER (cellAt c 60) 0 ∅ 0
    ∗ atPos ER (cellAt c 61) 0 ∅ 0 ∗ atPos ER (cellAt c 62) 0 ∅ 0 ∗ atPos ER (cellAt c 63) 0 ∅ 0
    ∗ atPos ER (cellAt c 64) 0 ∅ 0 ∗ atPos ER (cellAt c 65) 0 ∅ 0 ∗ atPos ER (cellAt c 66) 0 ∅ 0
    ∗ atPos ER (cellAt c 67) 0 ∅ 0 ∗ atPos ER (cellAt c 68) 0 ∅ 0 ∗ atPos ER (cellAt c 69) 0 ∅ 0
    ∗ atPos ER (cellAt c 70) 0 ∅ 0 ∗ atPos ER (cellAt c 71) 0 ∅ 0 ∗ atPos ER (cellAt c 72) 0 ∅ 0
    ∗ atPos ER (cellAt c 73) 0 ∅ 0 ∗ atPos ER (cellAt c 74) 0 ∅ 0 ∗ atPos ER (cellAt c 75) 0 ∅ 0
    ∗ atPos ER (cellAt c 79) 0 ∅ 0 ∗ atPos ER (cellAt c 80) 0 ∅ 0 ∗ atPos ER (cellAt c 81) 0 ∅ 0
    ∗ atPos ER (cellAt c 82) 0 ∅ 0 ∗ atPos ER (cellAt c 83) 0 ∅ 0 ∗ atPos ER (cellAt c 87) 0 ∅ 0
    ∗ atPos ER (cellAt c 88) 0 ∅ 0 ∗ atPos ER (cellAt c 89) 0 ∅ 0 ∗ atPos ER (cellAt c 90) 0 ∅ 0
    ∗ atPos ER (cellAt c 91) 0 ∅ 0 ∗ atPos ER (cellAt c 95) 0 ∅ 0 ∗ atPos ER (cellAt c 96) 0 ∅ 0
    ∗ atPos ER (cellAt c 97) 0 ∅ 0 ∗ atPos ER (cellAt c 98) 0 ∅ 0 ∗ atPos ER (cellAt c 99) 0 ∅ 0
    ∗ atPos ER (cellAt c 103) 0 ∅ 0 ∗ atPos ER (cellAt c 104) 0 ∅ 0 ∗ atPos ER (cellAt c 105) 0 ∅ 0
    ∗ atPos ER (cellAt c 106) 0 ∅ 0 ∗ atPos ER (cellAt c 107) 0 ∅ 0) := rfl

/-- The duty tokens a device pays, in the order it uses them: (semaphore, duty, direction of the cell's owner). -/
abbrev tokL : List (SemLoc sig × DD × Fin 4) := [(.reg barS, 0, 1), (.reg barS, 2, 3), (.reg barS, 1, 2), (dsem 22, 0, 0), (dsem 30, 0, 1), (dsem 23, 0, 0), (dsem 31, 0, 1), (dsem 24, 0, 0), (dsem 32, 0, 1), (dsem 25, 0, 0), (dsem 33, 0, 1), (dsem 26, 0, 0), (dsem 34, 0, 1), (dsem 27, 0, 0), (dsem 35, 0, 1), (dsem 28, 0, 0), (dsem 36, 0, 1), (dsem 29, 0, 0), (dsem 37, 0, 1), (dsem 38, 0, 0), (dsem 41, 0, 1), (dsem 39, 0, 0), (dsem 42, 0, 1), (dsem 40, 0, 0), (dsem 43, 0, 1), (dsem 44, 0, 0), (dsem 52, 0, 3), (dsem 45, 0, 0), (dsem 53, 0, 3), (dsem 46, 0, 0), (dsem 54, 0, 3), (dsem 47, 0, 0), (dsem 55, 0, 3), (dsem 48, 0, 0), (dsem 56, 0, 3), (dsem 49, 0, 0), (dsem 57, 0, 3), (dsem 50, 0, 0), (dsem 58, 0, 3), (dsem 51, 0, 0), (dsem 59, 0, 3), (dsem 60, 0, 0), (dsem 68, 0, 2), (dsem 61, 0, 0), (dsem 69, 0, 2), (dsem 62, 0, 0), (dsem 70, 0, 2), (dsem 63, 0, 0), (dsem 71, 0, 2), (dsem 64, 0, 0), (dsem 72, 0, 2), (dsem 65, 0, 0), (dsem 73, 0, 2), (dsem 66, 0, 0), (dsem 74, 0, 2), (dsem 67, 0, 0), (dsem 75, 0, 2), (dsem 79, 0, 0), (dsem 87, 0, 3), (dsem 80, 0, 0), (dsem 88, 0, 3), (dsem 81, 0, 0), (dsem 89, 0, 3), (dsem 82, 0, 0), (dsem 90, 0, 3), (dsem 83, 0, 0), (dsem 91, 0, 3), (dsem 95, 0, 0), (dsem 103, 0, 2), (dsem 96, 0, 0), (dsem 104, 0, 2), (dsem 97, 0, 0), (dsem 105, 0, 2), (dsem 98, 0, 0), (dsem 106, 0, 2), (dsem 99, 0, 0), (dsem 107, 0, 2)]
def myToks (c : Dev nD) : sProp 𝕄 := bigSepL tokL fun x => dutyTok ER (((nbr x.2.2 c : Dev nD) : Thread nD τ), x.1) 0 x.2.1
omit [FloatOps F] in
theorem myToks_unfold (c : Dev nD) : (myToks c : sProp 𝕄) = iprop(dutyTok ER (barCell (px c)) 0 0 ∗ dutyTok ER (barCell (pz c)) 0 2
    ∗ dutyTok ER (barCell (py c)) 0 1 ∗ dutyTok ER (cellAt c 22) 0 0
    ∗ dutyTok ER (cellAt (px c) 30) 0 0 ∗ dutyTok ER (cellAt c 23) 0 0
    ∗ dutyTok ER (cellAt (px c) 31) 0 0 ∗ dutyTok ER (cellAt c 24) 0 0
    ∗ dutyTok ER (cellAt (px c) 32) 0 0 ∗ dutyTok ER (cellAt c 25) 0 0
    ∗ dutyTok ER (cellAt (px c) 33) 0 0 ∗ dutyTok ER (cellAt c 26) 0 0
    ∗ dutyTok ER (cellAt (px c) 34) 0 0 ∗ dutyTok ER (cellAt c 27) 0 0
    ∗ dutyTok ER (cellAt (px c) 35) 0 0 ∗ dutyTok ER (cellAt c 28) 0 0
    ∗ dutyTok ER (cellAt (px c) 36) 0 0 ∗ dutyTok ER (cellAt c 29) 0 0
    ∗ dutyTok ER (cellAt (px c) 37) 0 0 ∗ dutyTok ER (cellAt c 38) 0 0
    ∗ dutyTok ER (cellAt (px c) 41) 0 0 ∗ dutyTok ER (cellAt c 39) 0 0
    ∗ dutyTok ER (cellAt (px c) 42) 0 0 ∗ dutyTok ER (cellAt c 40) 0 0
    ∗ dutyTok ER (cellAt (px c) 43) 0 0 ∗ dutyTok ER (cellAt c 44) 0 0
    ∗ dutyTok ER (cellAt (pz c) 52) 0 0 ∗ dutyTok ER (cellAt c 45) 0 0
    ∗ dutyTok ER (cellAt (pz c) 53) 0 0 ∗ dutyTok ER (cellAt c 46) 0 0
    ∗ dutyTok ER (cellAt (pz c) 54) 0 0 ∗ dutyTok ER (cellAt c 47) 0 0
    ∗ dutyTok ER (cellAt (pz c) 55) 0 0 ∗ dutyTok ER (cellAt c 48) 0 0
    ∗ dutyTok ER (cellAt (pz c) 56) 0 0 ∗ dutyTok ER (cellAt c 49) 0 0
    ∗ dutyTok ER (cellAt (pz c) 57) 0 0 ∗ dutyTok ER (cellAt c 50) 0 0
    ∗ dutyTok ER (cellAt (pz c) 58) 0 0 ∗ dutyTok ER (cellAt c 51) 0 0
    ∗ dutyTok ER (cellAt (pz c) 59) 0 0 ∗ dutyTok ER (cellAt c 60) 0 0
    ∗ dutyTok ER (cellAt (py c) 68) 0 0 ∗ dutyTok ER (cellAt c 61) 0 0
    ∗ dutyTok ER (cellAt (py c) 69) 0 0 ∗ dutyTok ER (cellAt c 62) 0 0
    ∗ dutyTok ER (cellAt (py c) 70) 0 0 ∗ dutyTok ER (cellAt c 63) 0 0
    ∗ dutyTok ER (cellAt (py c) 71) 0 0 ∗ dutyTok ER (cellAt c 64) 0 0
    ∗ dutyTok ER (cellAt (py c) 72) 0 0 ∗ dutyTok ER (cellAt c 65) 0 0
    ∗ dutyTok ER (cellAt (py c) 73) 0 0 ∗ dutyTok ER (cellAt c 66) 0 0
    ∗ dutyTok ER (cellAt (py c) 74) 0 0 ∗ dutyTok ER (cellAt c 67) 0 0
    ∗ dutyTok ER (cellAt (py c) 75) 0 0 ∗ dutyTok ER (cellAt c 79) 0 0
    ∗ dutyTok ER (cellAt (pz c) 87) 0 0 ∗ dutyTok ER (cellAt c 80) 0 0
    ∗ dutyTok ER (cellAt (pz c) 88) 0 0 ∗ dutyTok ER (cellAt c 81) 0 0
    ∗ dutyTok ER (cellAt (pz c) 89) 0 0 ∗ dutyTok ER (cellAt c 82) 0 0
    ∗ dutyTok ER (cellAt (pz c) 90) 0 0 ∗ dutyTok ER (cellAt c 83) 0 0
    ∗ dutyTok ER (cellAt (pz c) 91) 0 0 ∗ dutyTok ER (cellAt c 95) 0 0
    ∗ dutyTok ER (cellAt (py c) 103) 0 0 ∗ dutyTok ER (cellAt c 96) 0 0
    ∗ dutyTok ER (cellAt (py c) 104) 0 0 ∗ dutyTok ER (cellAt c 97) 0 0
    ∗ dutyTok ER (cellAt (py c) 105) 0 0 ∗ dutyTok ER (cellAt c 98) 0 0
    ∗ dutyTok ER (cellAt (py c) 106) 0 0 ∗ dutyTok ER (cellAt c 99) 0 0
    ∗ dutyTok ER (cellAt (py c) 107) 0 0) := rfl

/-- The credit of one duty of a DMA cell: a chunk's or a half chunk's. -/
def amtOf (j : ℕ) : ℕ := match kindOf j with | some (a, _) => if a < 8 then NA else NH | none => 1
/-- The device's receive cells, in the order of the arrays. -/
abbrev recvJ : List (Fin 140) := [30, 31, 32, 33, 34, 35, 36, 37, 41, 42, 43, 52, 53, 54, 55, 56, 57, 58, 59, 68, 69, 70, 71, 72, 73, 74, 75, 87, 88, 89, 90, 91, 103, 104, 105, 106, 107]
/-- The credit tokens of the device's waits that others pay: its barrier's three units and each receive cell's credit. -/
def myCred (c : Dev nD) : sProp 𝕄 :=
  iprop(cred (tallyAt (barCell c) () 3) ∗ bigSepL recvJ fun j => cred (tallyAt (cellAt c j) () (amtOf j.val)))
omit [FloatOps F] in
theorem myCred_unfold (c : Dev nD) : (myCred c : sProp 𝕄) = iprop(cred (tallyAt (barCell c) () 3)
    ∗ cred (tallyAt (cellAt c 30) () NA) ∗ cred (tallyAt (cellAt c 31) () NA) ∗ cred (tallyAt (cellAt c 32) () NA)
    ∗ cred (tallyAt (cellAt c 33) () NA) ∗ cred (tallyAt (cellAt c 34) () NA) ∗ cred (tallyAt (cellAt c 35) () NA)
    ∗ cred (tallyAt (cellAt c 36) () NA) ∗ cred (tallyAt (cellAt c 37) () NA) ∗ cred (tallyAt (cellAt c 41) () NA)
    ∗ cred (tallyAt (cellAt c 42) () NA) ∗ cred (tallyAt (cellAt c 43) () NA) ∗ cred (tallyAt (cellAt c 52) () NA)
    ∗ cred (tallyAt (cellAt c 53) () NA) ∗ cred (tallyAt (cellAt c 54) () NA) ∗ cred (tallyAt (cellAt c 55) () NA)
    ∗ cred (tallyAt (cellAt c 56) () NA) ∗ cred (tallyAt (cellAt c 57) () NA) ∗ cred (tallyAt (cellAt c 58) () NA)
    ∗ cred (tallyAt (cellAt c 59) () NA) ∗ cred (tallyAt (cellAt c 68) () NA) ∗ cred (tallyAt (cellAt c 69) () NA)
    ∗ cred (tallyAt (cellAt c 70) () NA) ∗ cred (tallyAt (cellAt c 71) () NA) ∗ cred (tallyAt (cellAt c 72) () NA)
    ∗ cred (tallyAt (cellAt c 73) () NA) ∗ cred (tallyAt (cellAt c 74) () NA) ∗ cred (tallyAt (cellAt c 75) () NA)
    ∗ cred (tallyAt (cellAt c 87) () NH) ∗ cred (tallyAt (cellAt c 88) () NH) ∗ cred (tallyAt (cellAt c 89) () NH)
    ∗ cred (tallyAt (cellAt c 90) () NH) ∗ cred (tallyAt (cellAt c 91) () NH) ∗ cred (tallyAt (cellAt c 103) () NH)
    ∗ cred (tallyAt (cellAt c 104) () NH) ∗ cred (tallyAt (cellAt c 105) () NH) ∗ cred (tallyAt (cellAt c 106) () NH)
    ∗ cred (tallyAt (cellAt c 107) () NH)) := rfl

/-! ## The cells' records, device by device -/

theorem mem_csemL_bar : (.reg barS : SemLoc sig) ∈ (csemL : List (SemLoc sig)) := List.mem_cons_self ..
theorem mem_csemL_dma (j : Fin 140) (h : (kindOf j.val).isSome = true) : dsem j ∈ (csemL : List (SemLoc sig)) :=
  List.mem_cons_of_mem _ (List.mem_map.mpr ⟨j, isSome_mem_rsJ j h, rfl⟩)

/-- Every cell's invariant, device by device, the cell `(t, sm)`'s under the name `K (t, sm)`. -/
def invsL (K : GSem nD τ sig → ℕ) : sProp 𝕄 :=
  bigSep (Finset.univ : Finset (Dev nD)) fun t => bigSepL csemL fun sm => cellInv ER (rsRd m) (K ((t : Thread nD τ), sm)) ((t : Thread nD τ), sm)
/-- Every cell has reached its first (and only) round. -/
def reachedL : sProp 𝕄 :=
  bigSep (Finset.univ : Finset (Dev nD)) fun t => bigSepL csemL fun sm => reached ER ((t : Thread nD τ), sm) 0

instance invsL_persistent (K : GSem nD τ sig → ℕ) : BI.Persistent (invsL m K) := by unfold invsL; infer_instance
omit [FloatOps F] in
instance reachedL_persistent : BI.Persistent (reachedL (F := F)) := by unfold reachedL; infer_instance

theorem invL_at (K : GSem nD τ sig → ℕ) (t : Dev nD) {sm : SemLoc sig} (h : sm ∈ (csemL : List (SemLoc sig))) :
    invsL m K ⊢ cellInv ER (rsRd m) (K ((t : Thread nD τ), sm)) ((t : Thread nD τ), sm) :=
  (bigSep_elim (Finset.mem_univ t)).trans (bigSepL_elim h _)
omit [FloatOps F] in
theorem reachedL_at (t : Dev nD) {sm : SemLoc sig} (h : sm ∈ (csemL : List (SemLoc sig))) :
    (reachedL (F := F)) ⊢ reached ER ((t : Thread nD τ), sm) 0 :=
  (bigSep_elim (Finset.mem_univ t)).trans (bigSepL_elim h _)
theorem invL_bar (K : GSem nD τ sig → ℕ) (t : Dev nD) : invsL m K ⊢ cellInv ER (rsRd m) (K (barCell t)) (barCell t) := invL_at m K t mem_csemL_bar
theorem invL_dma (K : GSem nD τ sig → ℕ) (t : Dev nD) (j : Fin 140) (h : (kindOf j.val).isSome = true) :
    invsL m K ⊢ cellInv ER (rsRd m) (K (cellAt t j)) (cellAt t j) := invL_at m K t (mem_csemL_dma j h)
omit [FloatOps F] in
theorem reachedL_bar (t : Dev nD) : (reachedL (F := F)) ⊢ reached ER (barCell t) 0 := reachedL_at t mem_csemL_bar
omit [FloatOps F] in
theorem reachedL_dma (t : Dev nD) (j : Fin 140) (h : (kindOf j.val).isSome = true) : (reachedL (F := F)) ⊢ reached ER (cellAt t j) 0 :=
  reachedL_at t (mem_csemL_dma j h)

/-! ## The proof data -/

/-- What device `c`'s body works from: every cell's invariant and first round reached, its positions, the tokens it pays. -/
def ghost (K : GSem nD τ sig → ℕ) (c : Dev nD) : sProp 𝕄 := iprop(invsL m K ∗ reachedL (F := F) ∗ myPos c ∗ myToks c)
/-- That at some names, the credit of its waits, and the level facts. -/
def start (c : Dev nD) : sProp 𝕄 := iprop((∃ K, ghost m K c) ∗ myCred c ∗ levAts LL lvv)

/-- The nine scratch buffers, each whole at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f)
    ∗ (∃ f : Buf (Elt F) ((c : Thread nD τ).loc cc0_scratch8), ((c : Thread nD τ).loc cc0_scratch8) ↦{fullShare} f))
/-- The semaphores of the local copies, plain counters at zero; -/
def idleSems (c : Dev nD) : sProp 𝕄 := bigSepL idleJ fun j => semVal (cellAt c j) 0
/-- the protocol's DMA cells closed, their counters back at zero. -/
def rsSems0 (c : Dev nD) : sProp 𝕄 := bigSepL rsJ fun j => semVal (cellAt c j) 0
omit [FloatOps F] in
theorem idleSems_unfold (c : Dev nD) : (idleSems c : sProp 𝕄) = iprop(semVal (cellAt c 0) 0 ∗ semVal (cellAt c 1) 0 ∗ semVal (cellAt c 2) 0 ∗ semVal (cellAt c 3) 0
    ∗ semVal (cellAt c 4) 0 ∗ semVal (cellAt c 5) 0 ∗ semVal (cellAt c 6) 0 ∗ semVal (cellAt c 7) 0
    ∗ semVal (cellAt c 8) 0 ∗ semVal (cellAt c 9) 0 ∗ semVal (cellAt c 10) 0 ∗ semVal (cellAt c 11) 0
    ∗ semVal (cellAt c 12) 0 ∗ semVal (cellAt c 13) 0 ∗ semVal (cellAt c 14) 0 ∗ semVal (cellAt c 15) 0
    ∗ semVal (cellAt c 16) 0 ∗ semVal (cellAt c 17) 0 ∗ semVal (cellAt c 18) 0 ∗ semVal (cellAt c 19) 0
    ∗ semVal (cellAt c 20) 0 ∗ semVal (cellAt c 21) 0 ∗ semVal (cellAt c 76) 0 ∗ semVal (cellAt c 77) 0
    ∗ semVal (cellAt c 78) 0 ∗ semVal (cellAt c 84) 0 ∗ semVal (cellAt c 85) 0 ∗ semVal (cellAt c 86) 0
    ∗ semVal (cellAt c 92) 0 ∗ semVal (cellAt c 93) 0 ∗ semVal (cellAt c 94) 0 ∗ semVal (cellAt c 100) 0
    ∗ semVal (cellAt c 101) 0 ∗ semVal (cellAt c 102) 0 ∗ semVal (cellAt c 108) 0 ∗ semVal (cellAt c 109) 0
    ∗ semVal (cellAt c 110) 0 ∗ semVal (cellAt c 111) 0 ∗ semVal (cellAt c 112) 0 ∗ semVal (cellAt c 113) 0
    ∗ semVal (cellAt c 114) 0 ∗ semVal (cellAt c 115) 0 ∗ semVal (cellAt c 116) 0 ∗ semVal (cellAt c 117) 0
    ∗ semVal (cellAt c 118) 0 ∗ semVal (cellAt c 119) 0 ∗ semVal (cellAt c 120) 0 ∗ semVal (cellAt c 121) 0
    ∗ semVal (cellAt c 122) 0 ∗ semVal (cellAt c 123) 0 ∗ semVal (cellAt c 124) 0 ∗ semVal (cellAt c 125) 0
    ∗ semVal (cellAt c 126) 0 ∗ semVal (cellAt c 127) 0 ∗ semVal (cellAt c 128) 0 ∗ semVal (cellAt c 129) 0
    ∗ semVal (cellAt c 130) 0 ∗ semVal (cellAt c 131) 0 ∗ semVal (cellAt c 132) 0 ∗ semVal (cellAt c 133) 0
    ∗ semVal (cellAt c 134) 0 ∗ semVal (cellAt c 135) 0 ∗ semVal (cellAt c 136) 0 ∗ semVal (cellAt c 137) 0
    ∗ semVal (cellAt c 138) 0 ∗ semVal (cellAt c 139) 0) := rfl
omit [FloatOps F] in
theorem rsSems0_unfold (c : Dev nD) : (rsSems0 c : sProp 𝕄) = iprop(semVal (cellAt c 22) 0 ∗ semVal (cellAt c 23) 0 ∗ semVal (cellAt c 24) 0 ∗ semVal (cellAt c 25) 0
    ∗ semVal (cellAt c 26) 0 ∗ semVal (cellAt c 27) 0 ∗ semVal (cellAt c 28) 0 ∗ semVal (cellAt c 29) 0
    ∗ semVal (cellAt c 30) 0 ∗ semVal (cellAt c 31) 0 ∗ semVal (cellAt c 32) 0 ∗ semVal (cellAt c 33) 0
    ∗ semVal (cellAt c 34) 0 ∗ semVal (cellAt c 35) 0 ∗ semVal (cellAt c 36) 0 ∗ semVal (cellAt c 37) 0
    ∗ semVal (cellAt c 38) 0 ∗ semVal (cellAt c 39) 0 ∗ semVal (cellAt c 40) 0 ∗ semVal (cellAt c 41) 0
    ∗ semVal (cellAt c 42) 0 ∗ semVal (cellAt c 43) 0 ∗ semVal (cellAt c 44) 0 ∗ semVal (cellAt c 45) 0
    ∗ semVal (cellAt c 46) 0 ∗ semVal (cellAt c 47) 0 ∗ semVal (cellAt c 48) 0 ∗ semVal (cellAt c 49) 0
    ∗ semVal (cellAt c 50) 0 ∗ semVal (cellAt c 51) 0 ∗ semVal (cellAt c 52) 0 ∗ semVal (cellAt c 53) 0
    ∗ semVal (cellAt c 54) 0 ∗ semVal (cellAt c 55) 0 ∗ semVal (cellAt c 56) 0 ∗ semVal (cellAt c 57) 0
    ∗ semVal (cellAt c 58) 0 ∗ semVal (cellAt c 59) 0 ∗ semVal (cellAt c 60) 0 ∗ semVal (cellAt c 61) 0
    ∗ semVal (cellAt c 62) 0 ∗ semVal (cellAt c 63) 0 ∗ semVal (cellAt c 64) 0 ∗ semVal (cellAt c 65) 0
    ∗ semVal (cellAt c 66) 0 ∗ semVal (cellAt c 67) 0 ∗ semVal (cellAt c 68) 0 ∗ semVal (cellAt c 69) 0
    ∗ semVal (cellAt c 70) 0 ∗ semVal (cellAt c 71) 0 ∗ semVal (cellAt c 72) 0 ∗ semVal (cellAt c 73) 0
    ∗ semVal (cellAt c 74) 0 ∗ semVal (cellAt c 75) 0 ∗ semVal (cellAt c 79) 0 ∗ semVal (cellAt c 80) 0
    ∗ semVal (cellAt c 81) 0 ∗ semVal (cellAt c 82) 0 ∗ semVal (cellAt c 83) 0 ∗ semVal (cellAt c 87) 0
    ∗ semVal (cellAt c 88) 0 ∗ semVal (cellAt c 89) 0 ∗ semVal (cellAt c 90) 0 ∗ semVal (cellAt c 91) 0
    ∗ semVal (cellAt c 95) 0 ∗ semVal (cellAt c 96) 0 ∗ semVal (cellAt c 97) 0 ∗ semVal (cellAt c 98) 0
    ∗ semVal (cellAt c 99) 0 ∗ semVal (cellAt c 103) 0 ∗ semVal (cellAt c 104) 0 ∗ semVal (cellAt c 105) 0
    ∗ semVal (cellAt c 106) 0 ∗ semVal (cellAt c 107) 0) := rfl

/-- Before the body: the ghost state, the scratch buffers at anything, the argument as launched, the result at anything,
    the local copies' semaphores at zero. -/
def Φ₀ (c : Dev nD) : sProp 𝕄 :=
  iprop(start m c ∗ scr c ∗ (((c : Thread nD τ).loc main_arg0) ↦{fullShare} m ((c : Thread nD τ).loc main_arg0))
    ∗ (∃ f : Buf (Elt F) ((c : Thread nD τ).loc main_v1), ((c : Thread nD τ).loc main_v1) ↦{fullShare} f) ∗ idleSems c)
/-- After it: the scratch buffers at anything, the argument as launched, the result at its final contents, every own
    semaphore at zero. -/
def Φ₁ (c : Dev nD) : sProp 𝕄 :=
  iprop(scr c ∗ (((c : Thread nD τ).loc main_arg0) ↦{fullShare} m ((c : Thread nD τ).loc main_arg0))
    ∗ (((c : Thread nD τ).loc main_v1) ↦{fullShare} (out m c : Buf (Elt F) ((c : Thread nD τ).loc main_v1))) ∗ idleSems c ∗ rsSems0 c)

/-- The pipeline's proof data on device `c`: no window; the invariant before and after the one point; what is owed. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.RS

end
-- ==== Proof.K.LaunchCells.lean ====
import proofs.«901022_g7700000000001023_dist_rs_v7x_xyz2x2x2_x_m4096_n1024_bf16_1_alg».proof.Proof.K.Data
import proofs.«901022_g7700000000001023_dist_rs_v7x_xyz2x2x2_x_m4096_n1024_bf16_1_alg».proof.Proof.SepL
import Idealize.ShloMosaic.Lib.Invariants

/-! The launch's ghost state: the protocol's cells and duty tokens of all devices funded from one launch element, every
    cell's invariant allocated under one update, and the tokens dealt to the devices that pay them. -/

noncomputable section

namespace Cert.Kernel.RS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a landing hands over can be stored in an invariant -/

set_option synthInstance.maxHeartbeats 0 in
omit [FloatOps F] in
instance giveX_storable_L (p : Dev nD) : BI.Storable (upEmb : UEmb _ 𝕄) (giveX (F := F) p) := by
  unfold giveX; infer_instance
set_option synthInstance.maxHeartbeats 0 in
omit [FloatOps F] in
instance giveQ_storable_L (p : Dev nD) (q : Fin 4) : BI.Storable (upEmb : UEmb _ 𝕄) (giveQ (F := F) p q) := by
  unfold giveQ; infer_instance
set_option synthInstance.maxHeartbeats 0 in
omit [FloatOps F] in
instance giveH_storable_L (p : Dev nD) (h : Fin 2) : BI.Storable (upEmb : UEmb _ 𝕄) (giveH (F := F) p h) := by
  unfold giveH; infer_instance
omit [FloatOps F] in
instance barPay_storable_L (t : Dev nD) (d : DD) : BI.Storable (upEmb : UEmb _ 𝕄) (barPay (F := F) t d) := by
  unfold barPay
  split
  · infer_instance
  · split <;> infer_instance
set_option synthInstance.maxHeartbeats 0 in
instance dmaPay_storable_L (t : Dev nD) (j : ℕ) : BI.Storable (upEmb : UEmb _ 𝕄) (dmaPay m t j) := by
  unfold dmaPay
  split <;> infer_instance

instance rsRd_payload_storable_L (g : GSem nD τ sig) (r : ℕ) (d : DD) :
    BI.Storable (upEmb : UEmb _ 𝕄) ((rsRd (F := F) m).payload g r d) := by
  rcases g with ⟨⟨t, p⟩, sm⟩
  cases sm with
  | reg s => exact barPay_storable_L t d
  | dma j => exact dmaPay_storable_L m t j.val

/-! ## The cells, device by device -/

theorem csemL_nodup : (csemL : List (SemLoc sig)).Nodup :=
  List.nodup_cons.mpr ⟨(fun h => by obtain ⟨j, _, hj⟩ := List.mem_map.mp h; cases hj),
    List.Nodup.map (fun a b h => SemLoc.dma.inj h) rsJ_nodup⟩

/-- The positions in a device's list of cells. -/
abbrev NC : ℕ := (csemL : List (SemLoc sig)).length
abbrev cell75 (ck : Dev nD × Fin NC) : GSem nD τ sig := ((ck.1 : Thread nD τ), (csemL : List (SemLoc sig)).get ck.2)
theorem cell75_injective : Function.Injective (cell75 : Dev nD × Fin NC → GSem nD τ sig) := by
  rintro ⟨c, i⟩ ⟨c', i'⟩ h
  have h1 : c = c' := congrArg (fun g : GSem nD τ sig => g.1.1) h
  have h2 : (csemL : List (SemLoc sig)).get i = (csemL : List (SemLoc sig)).get i' := congrArg Prod.snd h
  have h3 : i = i' := (List.Nodup.get_inj_iff csemL_nodup).mp h2
  subst h1; subst h3; rfl
/-- Every cell of the protocol, on every device. -/
def rsSet : Finset (GSem nD τ sig) := Finset.univ.map ⟨cell75, cell75_injective⟩

omit [FloatOps F] in
/-- A conjunction over all the cells, device by device and cell by cell. -/
theorem bigSep_rsSet (Φ : GSem nD τ sig → sProp 𝕄) :
    bigSep rsSet Φ = bigSep Finset.univ fun c : Dev nD => bigSepL csemL fun sm => Φ ((c : Thread nD τ), sm) := by
  unfold rsSet
  rw [bigSep_map, bigSep_univ_prod]
  exact bigSep_congr fun c _ => bigSep_fin_get csemL fun sm => Φ ((c : Thread nD τ), sm)

/-- Every (cell, duty name) pair gets a token at launch (a DMA cell's duties 1 and 2 do not exist: those tokens are never used). -/
abbrev tokOf (p : (Dev nD × Fin NC) × DD) : GSem nD τ sig × ℕ × DD := (cell75 p.1, 0, p.2)
theorem tokOf_injective : Function.Injective (tokOf : (Dev nD × Fin NC) × DD → GSem nD τ sig × ℕ × DD) := by
  rintro ⟨ck, d⟩ ⟨ck', d'⟩ h
  have h1 : ck = ck' := cell75_injective (congrArg (fun x : GSem nD τ sig × ℕ × DD => x.1) h)
  have h2 : d = d' := congrArg (fun x : GSem nD τ sig × ℕ × DD => x.2.2) h
  subst h1; subst h2; rfl
def rsToks : Finset (GSem nD τ sig × ℕ × DD) := Finset.univ.map ⟨tokOf, tokOf_injective⟩

omit [FloatOps F] in
theorem bigSep_rsToks (Ψ : GSem nD τ sig × ℕ × DD → sProp 𝕄) :
    bigSep rsToks Ψ = bigSep Finset.univ fun c : Dev nD => bigSepL csemL fun sm => bigSep Finset.univ fun d : DD => Ψ (((c : Thread nD τ), sm), 0, d) := by
  unfold rsToks
  rw [bigSep_map, bigSep_univ_prod, bigSep_univ_prod]
  exact bigSep_congr fun c _ => bigSep_fin_get csemL fun sm => bigSep Finset.univ fun d : DD => Ψ (((c : Thread nD τ), sm), 0, d)

/-! ## Funding -/

/-- What the launch element deals device `c`: its cells' round states, that each has reached round 0, its positions, and
    the tokens of its own cells' duties. -/
def G (c : Dev nD) : sProp 𝕄 :=
  iprop((bigSepL csemL fun sm => roundState ER (rsRd m) ((c : Thread nD τ), sm) 0)
    ∗ (bigSepL csemL fun sm => reached ER ((c : Thread nD τ), sm) 0)
    ∗ myPos c
    ∗ bigSepL csemL fun sm => bigSep Finset.univ fun d : DD => dutyTok ER ((c : Thread nD τ), sm) 0 d)

theorem fund_rs : BI.own (ER (initOf rsSet rsToks)) ⊢ (|==> bigSep Finset.univ (G m) : sProp 𝕄) := by
  iintro HX
  imod (Rounds.fund ER (rsRd m) rsSet rsToks) $$ HX with ⟨Hst, Hr, Hat, Htok⟩
  imodintro
  ihave Hst' := (Entails.of_eq (bigSep_rsSet fun g => roundState ER (rsRd m) g 0)) $$ Hst
  ihave Hr' := (Entails.of_eq (bigSep_rsSet (F := F) fun g => reached ER g 0)) $$ Hr
  ihave Hat' := (Entails.of_eq (bigSep_rsSet (F := F) fun g => atPos ER g 0 ∅ 0)) $$ Hat
  ihave Htok' := (Entails.of_eq (bigSep_rsToks (F := F) fun x => dutyTok ER x.1 x.2.1 x.2.2)) $$ Htok
  unfold G myPos
  simp only [bigSep_sep']
  isplitl [Hst']; · iexact Hst'
  isplitl [Hr']; · iexact Hr'
  isplitl [Hat']; · iexact Hat'
  iexact Htok'

end Cert.Kernel.RS

end
-- ==== Proof.K.Sems.lean ====
import proofs.«901022_g7700000000001023_dist_rs_v7x_xyz2x2x2_x_m4096_n1024_bf16_1_alg».proof.Proof.K.Data
import proofs.«901022_g7700000000001023_dist_rs_v7x_xyz2x2x2_x_m4096_n1024_bf16_1_alg».proof.Proof.SepL

/-! A device's own semaphores at launch, listed: the pool of DMA semaphores split into the protocol's cells and the plain counters, and the one unscoped semaphore, the barrier's. -/

noncomputable section

namespace Cert.Kernel.RS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## The semaphores at launch -/

/-- The kernel's own semaphores: the pool of 140 DMA semaphores. -/
abbrev osem : Fin 140 → SemLoc sig := fun j => .dma j
theorem ownSemFacts : Pipeline.OwnSemFacts cfg0.spec osem := by decide

abbrev allJ : List (Fin 140) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131, 132, 133, 134, 135, 136, 137, 138, 139]
theorem allJ_univ : (Finset.univ : Finset (Fin 140)) = allJ.toFinset := by
  ext j; simp only [Finset.mem_univ, List.mem_toFinset, true_iff]; revert j; decide

omit [FloatOps F] in
theorem ownSems0_eq (c : Dev nD) :
    (Pipeline.ownSems0 (Ix := Unit) (Name := ℕ) (U := UU) (Lvl := ℕ) (Val := Elt F) (τ := τ) osem c : sProp 𝕄)
      = bigSepL allJ fun j => semVal (cellAt c j) 0 :=
  Pipeline.ownSems0_eq_of_list c osem allJ allJ_univ (by decide)

omit [FloatOps F] in
theorem allSems_split (c : Dev nD) :
    (bigSepL allJ fun j => (semVal (cellAt c j) 0 : sProp 𝕄)) = iprop(idleSems c ∗ rsSems0 c) := by
  rw [bigSepL_of_toFinset_eq allJ (idleJ ++ rsJ) (by decide) (by decide) (by decide), bigSepL_append]
  rfl

omit [FloatOps F] in
/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem csem_vals (c : Dev nD) :
    (bigSepL csemL fun sm => (semVal ((c : Thread nD τ), sm) 0 : sProp 𝕄)) = iprop(semVal (barCell c) 0 ∗ rsSems0 c) := by
  rw [bigSepL_cons, bigSepL_map]; rfl

end Cert.Kernel.RS

end
-- ==== Proof.K.LaunchToks.lean ====
import proofs.«901022_g7700000000001023_dist_rs_v7x_xyz2x2x2_x_m4096_n1024_bf16_1_alg».proof.Proof.K.Data
import proofs.«901022_g7700000000001023_dist_rs_v7x_xyz2x2x2_x_m4096_n1024_bf16_1_alg».proof.Proof.SepL

/-! The duty tokens minted for each device's own cells are, all devices together, the tokens each device pays with: a device's payments go to its neighbours' cells, and crossing to a neighbour is an involution. -/

noncomputable section

namespace Cert.Kernel.RS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## The tokens, dealt to the devices that pay them -/

def nbrEquiv (i : Fin 4) : Dev nD ≃ Dev nD := ⟨nbr i, nbr i, nbr_nbr i, nbr_nbr i⟩

/-- The DMA cells in the order of the token list. -/
abbrev tokJ : List (Fin 140) := [22, 30, 23, 31, 24, 32, 25, 33, 26, 34, 27, 35, 28, 36, 29, 37, 38, 41, 39, 42, 40, 43, 44, 52, 45, 53, 46, 54, 47, 55, 48, 56, 49, 57, 50, 58, 51, 59, 60, 68, 61, 69, 62, 70, 63, 71, 64, 72, 65, 73, 66, 74, 67, 75, 79, 87, 80, 88, 81, 89, 82, 90, 83, 91, 95, 103, 96, 104, 97, 105, 98, 106, 99, 107]

omit [FloatOps F] in
/-- A device's own cells' tokens, listed as the paying devices use them. -/
theorem own_to_list (c : Dev nD) :
    (bigSepL csemL fun sm => bigSep Finset.univ fun d : DD => (dutyTok ER ((c : Thread nD τ), sm) 0 d : sProp 𝕄))
      ⊢ bigSepL tokL fun x => dutyTok ER ((c : Thread nD τ), x.1) 0 x.2.1 := by
  have hB : (bigSep Finset.univ fun d : DD => (dutyTok ER (barCell c) 0 d : sProp 𝕄))
      = iprop(dutyTok ER (barCell c) 0 0 ∗ dutyTok ER (barCell c) 0 1 ∗ dutyTok ER (barCell c) 0 2) :=
    bigSep_univ_eq_bigSepL [0, 1, 2] (by decide) (by decide) _
  have hD : (bigSepL (rsJ.map dsem) fun sm => bigSep Finset.univ fun d : DD => (dutyTok ER ((c : Thread nD τ), sm) 0 d : sProp 𝕄))
      ⊢ bigSepL (tokL.drop 3) fun x => dutyTok ER ((c : Thread nD τ), x.1) 0 x.2.1 := by
    have e1 : (bigSepL (tokL.drop 3) fun x : SemLoc sig × DD × Fin 4 => (dutyTok ER ((c : Thread nD τ), x.1) 0 x.2.1 : sProp 𝕄))
        = bigSepL tokJ fun j => dutyTok ER (cellAt c j) 0 0 := by
      rw [← bigSepL_map (fun x : SemLoc sig × DD × Fin 4 => (x.1, x.2.1)) (tokL.drop 3) (fun y : SemLoc sig × DD => (dutyTok ER ((c : Thread nD τ), y.1) 0 y.2 : sProp 𝕄)),
        show (tokL.drop 3).map (fun x : SemLoc sig × DD × Fin 4 => (x.1, x.2.1)) = tokJ.map (fun j => (dsem j, (0 : DD))) from rfl, bigSepL_map]
    rw [e1, bigSepL_map, bigSepL_of_toFinset_eq tokJ rsJ (by decide) rsJ_nodup (by decide)]
    exact bigSepL_mono fun j _ => bigSep_elim (Finset.mem_univ (0 : DD))
  rw [show (tokL : List (SemLoc sig × DD × Fin 4)) = tokL.take 3 ++ tokL.drop 3 from (List.take_append_drop 3 tokL).symm, bigSepL_append, bigSepL_cons']
  refine BI.sep_mono ?_ hD
  show (bigSep Finset.univ fun d : DD => (dutyTok ER (barCell c) 0 d : sProp 𝕄))
    ⊢ iprop(dutyTok ER (barCell c) 0 0 ∗ dutyTok ER (barCell c) 0 2 ∗ dutyTok ER (barCell c) 0 1)
  rw [hB]
  iintro ⟨H0, H1, H2⟩
  isplitl [H0]; · iexact H0
  isplitl [H2] <;> iassumption

omit [FloatOps F] in
theorem toks_around :
    (bigSep Finset.univ fun c : Dev nD => bigSepL csemL fun sm => bigSep Finset.univ fun d : DD => (dutyTok ER ((c : Thread nD τ), sm) 0 d : sProp 𝕄))
      ⊢ bigSep Finset.univ fun c : Dev nD => myToks c := by
  refine (bigSep_mono fun c _ => own_to_list c).trans ?_
  unfold myToks
  rw [bigSep_bigSepL_comm, bigSep_bigSepL_comm]
  exact Entails.of_eq (bigSepL_congr fun x _ =>
    bigSep_univ_equiv (nbrEquiv x.2.2) fun c : Dev nD => (dutyTok ER ((c : Thread nD τ), x.1) 0 x.2.1 : sProp 𝕄))

end Cert.Kernel.RS

end
-- ==== Proof.K.LaunchGlob.lean ====
import proofs.«901022_g7700000000001023_dist_rs_v7x_xyz2x2x2_x_m4096_n1024_bf16_1_alg».proof.Proof.K.LaunchCells
import proofs.«901022_g7700000000001023_dist_rs_v7x_xyz2x2x2_x_m4096_n1024_bf16_1_alg».proof.Proof.K.Sems
import proofs.«901022_g7700000000001023_dist_rs_v7x_xyz2x2x2_x_m4096_n1024_bf16_1_alg».proof.Proof.K.LaunchToks
import Idealize.ShloMosaic.Lib.Invariants

/-! The global step of the launch: from every device's semaphores at zero and its share of the launch element, every cell's invariant allocated under one update, and each device's ghost state made. -/

noncomputable section

namespace Cert.Kernel.RS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## The global step -/

/-- What device `c` has after the global step: its ghost state at some names, and the local copies' semaphores at zero. -/
def G' (c : Dev nD) : sProp 𝕄 := iprop((∃ K, ghost m K c) ∗ idleSems c)

theorem ghost_intro (K : GSem nD τ sig → ℕ) (c : Dev nD) :
    iprop((invsL m K ∗ reachedL (F := F)) ∗ (idleSems c ∗ myPos c ∗ myToks c)) ⊢ G' m c := by
  unfold G' ghost
  iintro ⟨⟨#HI, #HR⟩, Hid, Hat, Htk⟩
  isplitr [Hid]
  · iexists K
    isplitr; · iexact HI
    isplitr; · iexact HR
    isplitl [Hat] <;> iassumption
  · iexact Hid

omit [FloatOps F] in
theorem sems_regroup (c : Dev nD) :
    iprop(Pipeline.ownSems0 (Ix := Unit) (Name := ℕ) (U := UU) (Lvl := ℕ) (Val := Elt F) (τ := τ) osem c ∗ unscopedSems0 c)
      ⊢ (iprop(idleSems c ∗ bigSepL csemL fun sm => semVal ((c : Thread nD τ), sm) 0) : sProp 𝕄) := by
  rw [ownSems0_eq, allSems_split, unscopedSems0_eq, csem_vals]
  iintro ⟨⟨Hid, Hrs⟩, Hb⟩
  isplitl [Hid]; · iexact Hid
  isplitl [Hb] <;> iassumption

theorem core_regroup (c : Dev nD) :
    iprop(Pipeline.ownSems0 (Ix := Unit) (Name := ℕ) (U := UU) (Lvl := ℕ) (Val := Elt F) (τ := τ) osem c ∗ unscopedSems0 c ∗ G m c)
      ⊢ (iprop(idleSems c ∗ (bigSepL csemL fun sm => semVal ((c : Thread nD τ), sm) 0)
          ∗ (bigSepL csemL fun sm => roundState ER (rsRd m) ((c : Thread nD τ), sm) 0)
          ∗ (bigSepL csemL fun sm => reached ER ((c : Thread nD τ), sm) 0)
          ∗ myPos c
          ∗ bigSepL csemL fun sm => bigSep Finset.univ fun d : DD => dutyTok ER ((c : Thread nD τ), sm) 0 d) : sProp 𝕄) := by
  unfold G
  iintro ⟨Hos, Hus, Hst, Hr, Hat, Htok⟩
  ihave Hs := (sems_regroup (F := F) c) $$ [Hos Hus]
  · isplitl [Hos] <;> iassumption
  icases Hs with ⟨Hid, Hv⟩
  isplitl [Hid]; · iexact Hid
  isplitl [Hv]; · iexact Hv
  isplitl [Hst]; · iexact Hst
  isplitl [Hr]; · iexact Hr
  isplitl [Hat] <;> iassumption

/-- The cells' names as a function of the cell, from names by (device, position). -/
def Kof (ι : Dev nD × Fin NC → ℕ) (g : GSem nD τ sig) : ℕ := by
  classical exact if h : ∃ k, cell75 k = g then ι h.choose else 0
theorem Kof_cell (ι : Dev nD × Fin NC → ℕ) (k : Dev nD × Fin NC) : Kof ι (cell75 k) = ι k := by
  classical
  unfold Kof
  rw [dif_pos ⟨k, rfl⟩]
  exact congrArg ι (cell75_injective (Classical.choose_spec (⟨k, rfl⟩ : ∃ k', cell75 k' = cell75 k)))

theorem invsL_of_positions (ι : Dev nD × Fin NC → ℕ) :
    (bigSep Finset.univ fun k : Dev nD × Fin NC => (inv (ι k) (body ER (rsRd m) (cell75 k)) : sProp 𝕄)) = invsL m (Kof ι) := by
  unfold invsL
  rw [bigSep_univ_prod]
  refine bigSep_congr fun c _ => ?_
  rw [← bigSep_fin_get csemL fun sm => cellInv ER (rsRd m) (Kof ι ((c : Thread nD τ), sm)) ((c : Thread nD τ), sm)]
  refine bigSep_congr fun i _ => ?_
  show (inv (ι (c, i)) (body ER (rsRd m) (cell75 (c, i))) : sProp 𝕄) = inv (Kof ι (cell75 (c, i))) (body ER (rsRd m) (cell75 (c, i)))
  rw [Kof_cell]

/-- The bodies of all cells' invariants, by (device, position), from their counters at zero and their round states. -/
theorem bodies_positions :
    iprop((bigSep Finset.univ fun c : Dev nD => bigSepL csemL fun sm => (semVal ((c : Thread nD τ), sm) 0 : sProp 𝕄))
        ∗ bigSep Finset.univ fun c : Dev nD => bigSepL csemL fun sm => roundState ER (rsRd m) ((c : Thread nD τ), sm) 0)
      ⊢ bigSep Finset.univ fun k : Dev nD × Fin NC => body ER (rsRd m) (cell75 k) := by
  rw [← bigSep_sep', bigSep_univ_prod]
  refine bigSep_mono fun c _ => ?_
  rw [bigSep_fin_get csemL fun sm => body ER (rsRd m) ((c : Thread nD τ), sm), ← bigSepL_sep]
  exact bigSepL_mono fun sm _ => body_intro ER (rsRd m) ((c : Thread nD τ), sm)

/-- All the cells' invariants allocated from their counters at zero and their round states. -/
theorem cells_alloc :
    iprop((bigSep Finset.univ fun c : Dev nD => bigSepL csemL fun sm => (semVal ((c : Thread nD τ), sm) 0 : sProp 𝕄))
        ∗ bigSep Finset.univ fun c : Dev nD => bigSepL csemL fun sm => roundState ER (rsRd m) ((c : Thread nD τ), sm) 0)
      ⊢ |={Set.univ}=> ∃ K : GSem nD τ sig → ℕ, invsL m K := by
  refine (bodies_positions m).trans ?_
  have h := inv_alloc_family (nD := nD) (τ := τ) (sig := sig) (Ix := Unit) (Val := Elt F) (Name := ℕ) (U := UU) (Lvl := ℕ) (E := Set.univ)
    Finset.univ (fun k : Dev nD × Fin NC => body ER (rsRd m) (cell75 k)) ∅
  refine h.trans (BI.fupd_mono ?_)
  show (_ : sProp 𝕄) ⊢ _
  iintro ⟨%ι, -, HI⟩
  iexists (Kof ι)
  iapply (Entails.of_eq (invsL_of_positions m ι))
  iexact HI

theorem glob :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) := by
  refine (bigSep_mono fun c _ => core_regroup m c).trans ?_
  rw [bigSep_sep', bigSep_sep', bigSep_sep', bigSep_sep', bigSep_sep']
  show (_ : sProp 𝕄) ⊢ _
  iintro ⟨Hid, Hv, Hst, Hr, Hat, Htok⟩
  imod (cells_alloc m) $$ [Hv Hst] with ⟨%K, HI⟩
  · isplitl [Hv] <;> iassumption
  imodintro
  ihave Htk := (toks_around (F := F)) $$ Htok
  iapply (bigSep_with_persistent (R := iprop(invsL m K ∗ reachedL (F := F))) (Φ := fun c : Dev nD => iprop(idleSems c ∗ myPos c ∗ myToks c))
    fun c _ => ghost_intro m K c)
  isplitl [HI Hr]
  · isplitl [HI]; · iexact HI
    unfold reachedL; iexact Hr
  · rw [bigSep_sep', bigSep_sep']
    isplitl [Hid]; · iexact Hid
    isplitl [Hat] <;> iassumption

end Cert.Kernel.RS

end
-- ==== Proof.K.LaunchCred.lean ====
import proofs.«901022_g7700000000001023_dist_rs_v7x_xyz2x2x2_x_m4096_n1024_bf16_1_alg».proof.Proof.K.Data
import proofs.«901022_g7700000000001023_dist_rs_v7x_xyz2x2x2_x_m4096_n1024_bf16_1_alg».proof.Proof.SepL

/-! The launch credit: what all devices owe a device's cells, summed, is the credit of that device's waits — each receive cell is paid by exactly one neighbour, the barrier cell by three. -/

noncomputable section

namespace Cert.Kernel.RS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

/-- The payments of Owed's table by (semaphore, direction of the owner, amount). -/
abbrev payD : List (SemLoc sig × Fin 4 × ℕ) := [(.reg barS, 1, 1), (.reg barS, 3, 1), (.reg barS, 2, 1), (dsem 30, 1, NA), (dsem 31, 1, NA), (dsem 32, 1, NA), (dsem 33, 1, NA), (dsem 34, 1, NA), (dsem 35, 1, NA), (dsem 36, 1, NA), (dsem 37, 1, NA), (dsem 41, 1, NA), (dsem 42, 1, NA), (dsem 43, 1, NA), (dsem 52, 3, NA), (dsem 68, 2, NA), (dsem 53, 3, NA), (dsem 69, 2, NA), (dsem 54, 3, NA), (dsem 70, 2, NA), (dsem 55, 3, NA), (dsem 71, 2, NA), (dsem 56, 3, NA), (dsem 72, 2, NA), (dsem 103, 2, NH), (dsem 87, 3, NH), (dsem 57, 3, NA), (dsem 73, 2, NA), (dsem 104, 2, NH), (dsem 88, 3, NH), (dsem 58, 3, NA), (dsem 74, 2, NA), (dsem 105, 2, NH), (dsem 89, 3, NH), (dsem 59, 3, NA), (dsem 75, 2, NA), (dsem 106, 2, NH), (dsem 90, 3, NH), (dsem 107, 2, NH), (dsem 91, 3, NH)]
abbrev pd (d : Dev nD) (x : SemLoc sig × Fin 4 × ℕ) : GSem nD τ sig × ℕ := ((((nbr x.2.1 d : Dev nD) : Thread nD τ), x.1), x.2.2)
theorem paysL_eq (d : Dev nD) : paysL d = payD.map (pd d) := rfl
/-- The receive cells in the order they are paid. -/
abbrev payJ : List (Fin 140) := [30, 31, 32, 33, 34, 35, 36, 37, 41, 42, 43, 52, 68, 53, 69, 54, 70, 55, 71, 56, 72, 103, 87, 57, 73, 104, 88, 58, 74, 105, 89, 59, 75, 106, 90, 107, 91]

omit [FloatOps F] in
theorem launchCred_list (c : Dev nD) (l : List (SemLoc sig × Fin 4 × ℕ)) :
    (Pipeline.launchCred (fun d => owedL (l.map (pd d))) c : sProp 𝕄)
      ⊢ bigSepL l fun x => cred (tallyAt ((c : Thread nD τ), x.1) () x.2.2) := by
  induction l with
  | nil =>
    show (Pipeline.launchCred (fun _ : Dev nD => (0 : CellTallies nD τ sig Unit)) c : sProp 𝕄) ⊢ _
    rw [Pipeline.launchCred_zero]; exact BI.Entails.refl _
  | cons x l ih =>
    show (Pipeline.launchCred (fun d => owedL (l.map (pd d)) + tallyAt (((nbr x.2.1 d : Dev nD) : Thread nD τ), x.1) () x.2.2) c : sProp 𝕄) ⊢ _
    rw [Pipeline.launchCred_add, bigSepL_cons']
    iintro ⟨H1, H2⟩
    isplitl [H2]
    · iapply (Pipeline.launchCred_tallyAt x.1 (nbr x.2.1) (nbr x.2.1) (nbr_nbr x.2.1) (nbr_nbr x.2.1) () x.2.2 c); iexact H2
    · iapply ih; iexact H1

omit [FloatOps F] in
/-- The launch deals each device the credit of its waits that others pay. -/
theorem creds (c : Dev nD) : (Pipeline.launchCred O₀ c : sProp 𝕄) ⊢ myCred c := by
  have h0 : (Pipeline.launchCred O₀ c : sProp 𝕄) = Pipeline.launchCred (fun d => owedL (payD.map (pd d))) c := rfl
  rw [h0]
  refine (launchCred_list c payD).trans ?_
  rw [show (payD : List (SemLoc sig × Fin 4 × ℕ)) = payD.take 3 ++ payD.drop 3 from (List.take_append_drop 3 payD).symm, bigSepL_append]
  unfold myCred
  refine BI.sep_mono ?_ ?_
  · show iprop(cred (tallyAt (barCell c) () 1) ∗ cred (tallyAt (barCell c) () 1) ∗ cred (tallyAt (barCell c) () 1)) ⊢ cred (tallyAt (barCell c) () 3)
    rw [show (tallyAt (barCell c) () 3 : CellTallies nD τ sig Unit) = tallyAt (barCell c) () 1 + (tallyAt (barCell c) () 1 + tallyAt (barCell c) () 1) from by
      rw [tallyAt_add, tallyAt_add]]
    exact (sep_mono_right (cred_add _ _).2).trans (cred_add _ _).2
  · have e1 : (bigSepL (payD.drop 3) fun x : SemLoc sig × Fin 4 × ℕ => (cred (tallyAt ((c : Thread nD τ), x.1) () x.2.2) : sProp 𝕄))
        = bigSepL payJ fun j => cred (tallyAt (cellAt c j) () (amtOf j.val)) := by
      rw [← bigSepL_map (fun x : SemLoc sig × Fin 4 × ℕ => (x.1, x.2.2)) (payD.drop 3) (fun y : SemLoc sig × ℕ => (cred (tallyAt ((c : Thread nD τ), y.1) () y.2) : sProp 𝕄)),
        show (payD.drop 3).map (fun x : SemLoc sig × Fin 4 × ℕ => (x.1, x.2.2)) = payJ.map (fun j => (dsem j, amtOf j.val)) from rfl, bigSepL_map]
    rw [e1, bigSepL_of_toFinset_eq payJ recvJ (by decide) (by decide) (by decide)]
    exact BI.Entails.refl _

end Cert.Kernel.RS

end
-- ==== Proof.K.LaunchRS.lean ====
import proofs.«901022_g7700000000001023_dist_rs_v7x_xyz2x2x2_x_m4096_n1024_bf16_1_alg».proof.Proof.K.LaunchGlob
import proofs.«901022_g7700000000001023_dist_rs_v7x_xyz2x2x2_x_m4096_n1024_bf16_1_alg».proof.Proof.K.LaunchCred

/-! The launch: the region's run from the body's obligation on every device, by the library's launch theorem for cores that owe at launch and whose protocol also runs on an unscoped semaphore. -/

noncomputable section

namespace Cert.Kernel.RS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## The theorem's side conditions -/

/-- What a device routes into the pipeline's invariant from the launch: its start, the argument as launched, the result at
    anything, the local copies' semaphores. -/
def X (c : Dev nD) : sProp 𝕄 :=
  iprop(start m c ∗ (((c : Thread nD τ).loc main_arg0) ↦{fullShare} m ((c : Thread nD τ).loc main_arg0))
    ∗ (∃ f : Buf (Elt F) ((c : Thread nD τ).loc main_v1), ((c : Thread nD τ).loc main_v1) ↦{fullShare} f) ∗ idleSems c)
/-- What it takes out at the end: the argument as launched and the result at its final contents. -/
def Y (c : Dev nD) : sProp 𝕄 :=
  iprop((((c : Thread nD τ).loc main_arg0) ↦{fullShare} m ((c : Thread nD τ).loc main_arg0))
    ∗ (((c : Thread nD τ).loc main_v1) ↦{fullShare} (out m c : Buf (Elt F) ((c : Thread nD τ).loc main_v1))))

theorem start_intro (c : Dev nD) :
    iprop(Pipeline.unscopedRestP Pipeline.Prefetch.none cfg0.spec c (fun b => m ((c : Thread nD τ).loc b)) ∗ levAts LL lvv
        ∗ Pipeline.launchCred O₀ c ∗ prngReg c (ρ c) ∗ G' m c)
      ⊢ |={Set.univ}=> iprop(X m c ∗ emp) := by
  rw [Pipeline.unscopedRestP_none, unscopedRest0_eq]
  unfold G'
  iintro ⟨⟨Harg, Hv1⟩, Hlev, Hcr, -, Hgh, Hid⟩
  ihave Hc := (creds (F := F) c) $$ Hcr
  imodintro
  unfold X start
  isplitl
  · isplitl [Hgh Hc Hlev]
    · isplitl [Hgh]; · iexact Hgh
      isplitl [Hc] <;> iassumption
    isplitl [Harg]; · iexact Harg
    isplitl [Hv1]; · iexists _; iexact Hv1
    iexact Hid
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X scr
  iintro ⟨⟨Hs, Harg, Hv1, Hid⟩, -, Hscr⟩
  isplitl [Hs]; · iexact Hs
  isplitl [Hscr]; · iexact Hscr
  isplitl [Harg]; · iexact Harg
  isplitl [Hv1] <;> iassumption

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq, allSems_split]
  unfold Φ₁ Y scr
  iintro ⟨Hscr, Harg, Hv1, Hid, Hrs⟩
  isplitl [Harg Hv1]
  · isplitl [Harg] <;> iassumption
  isplitl [Hid Hrs]
  · isplitl [Hid] <;> iassumption
  iexact Hscr

theorem waits (c : Dev nD) : (levAts LL lvv : sProp 𝕄) ⊢ Pipeline.cellsWaits cfgs (dats m) () 0 c :=
  Pipeline.cellsWaits_intro cfgs (dats m) () 0 c fun w s t => w.elim0

/-! ## The run -/

/-- The launch element: the pipeline library's (no staging cell), the protocol's cells and tokens, no counter yet. -/
def u₀ : UU := (initOf (Pipeline.cells cfgs cellOf_inj) (Pipeline.launchToks cfgs cellOf_inj), (initOf rsSet rsToks, 1))

set_option maxRecDepth 100000 in
set_option maxHeartbeats 1600000 in
/-- At the compiled mesh of eight devices, for any float values, from any memory with zero counters, given the body's
    obligation on every device: every weakly fair execution of @main terminates, and every final state has each device's
    result array at `out` and its argument array unchanged. -/
theorem run_main (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = out m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun _ w => w.elim0)
    (hdistinct := winFacts0.arr_inj)
    (O₀ := O₀) (howed₀ := fun _ => rfl) (howedN := fun _ => rfl)
    (L := LL) (lv := lvv) (hL := LL_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb (embR : Emb (UB × Counters) (MT nD τ sig Unit (Elt F) ℕ UU ℕ)) (initOf rsSet rsToks) (1 : Counters)) $$ HX
      icases H2 with ⟨HB, -⟩
      imod (fund_rs m) $$ HB with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c.tc : Thread nD τ).loc main_v1) = out m c
      ∧ s.mem ((c.tc : Thread nD τ).loc main_arg0) = m ((c.tc : Thread nD τ).loc main_arg0))
    (hY := fun c s' => by
      unfold Y
      iintro ⟨⟨Harg, Hv1⟩, -, HSI⟩
      icombine HSI Harg gives %h1
      icombine HSI Hv1 gives %h2
      imodintro
      isplitr; · ipureintro; exact ⟨Buf.eq_of_forall_mem_univ h2, Buf.eq_of_forall_mem_univ h1⟩
      iexact HSI)
    (hQ := fun _ h c => (h c).2.2)

/-- info: 'Cert.Kernel.RS.run_main' depends on axioms: [propext, Classical.choice, Quot.sound] -/
#guard_msgs in #print axioms run_main

end Cert.Kernel.RS

end
-- ==== Proof.K.BodyPre.lean ====
import proofs.«901022_g7700000000001023_dist_rs_v7x_xyz2x2x2_x_m4096_n1024_bf16_1_alg».proof.Proof.K.Owed

set_option maxRecDepth 8000

noncomputable section

namespace Cert.Kernel.RS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What device c's kernel body starts from: the invariants of the cells it pays (in the order of payment) and of its own barrier and receive cells (in the order it waits on them), that the cells it pays have reached their round, and the levels; what it owes; its credits (its barrier's, then its receive cells' in the order it waits on them); its positions on those cells in the same order, and on its send cells in the order of their final waits; the tokens of the duties it pays, in the order it pays them; its buffers; and the plain counters of its local copies (into the staging buffers, into the result, unused). -/
def bodyPre (m : (ℓ : Loc nD τ sig) → Buf (Elt F) ℓ) (K : GSem nD τ sig → ℕ) (c : Dev nD) (W : Waits sig Unit) : sProp 𝕄 :=
  iprop((cellInv ER (rsRd m) (K (barCell (px c))) (barCell (px c))
      ∗ cellInv ER (rsRd m) (K (barCell (pz c))) (barCell (pz c))
      ∗ cellInv ER (rsRd m) (K (barCell (py c))) (barCell (py c))
      ∗ cellInv ER (rsRd m) (K (cellAt c (⟨22, by decide⟩ : Fin 140))) (cellAt c (⟨22, by decide⟩ : Fin 140))
      ∗ cellInv ER (rsRd m) (K (cellAt (px c) (⟨30, by decide⟩ : Fin 140))) (cellAt (px c) (⟨30, by decide⟩ : Fin 140))
      ∗ cellInv ER (rsRd m) (K (cellAt c (⟨23, by decide⟩ : Fin 140))) (cellAt c (⟨23, by decide⟩ : Fin 140))
      ∗ cellInv ER (rsRd m) (K (cellAt (px c) (⟨31, by decide⟩ : Fin 140))) (cellAt (px c) (⟨31, by decide⟩ : Fin 140))
      ∗ cellInv ER (rsRd m) (K (cellAt c (⟨24, by decide⟩ : Fin 140))) (cellAt c (⟨24, by decide⟩ : Fin 140))
      ∗ cellInv ER (rsRd m) (K (cellAt (px c) (⟨32, by decide⟩ : Fin 140))) (cellAt (px c) (⟨32, by decide⟩ : Fin 140))
      ∗ cellInv ER (rsRd m) (K (cellAt c (⟨25, by decide⟩ : Fin 140))) (cellAt c (⟨25, by decide⟩ : Fin 140))
      ∗ cellInv ER (rsRd m) (K (cellAt (px c) (⟨33, by decide⟩ : Fin 140))) (cellAt (px c) (⟨33, by decide⟩ : Fin 140))
      ∗ cellInv ER (rsRd m) (K (cellAt c (⟨26, by decide⟩ : Fin 140))) (cellAt c (⟨26, by decide⟩ : Fin 140))
      ∗ cellInv ER (rsRd m) (K (cellAt (px c) (⟨34, by decide⟩ : Fin 140))) (cellAt (px c) (⟨34, by decide⟩ : Fin 140))
      ∗ cellInv ER (rsRd m) (K (cellAt c (⟨27, by decide⟩ : Fin 140))) (cellAt c (⟨27, by decide⟩ : Fin 140))
      ∗ cellInv ER (rsRd m) (K (cellAt (px c) (⟨35, by decide⟩ : Fin 140))) (cellAt (px c) (⟨35, by decide⟩ : Fin 140))
      ∗ cellInv ER (rsRd m) (K (cellAt c (⟨28, by decide⟩ : Fin 140))) (cellAt c (⟨28, by decide⟩ : Fin 140))
      ∗ cellInv ER (rsRd m) (K (cellAt (px c) (⟨36, by decide⟩ : Fin 140))) (cellAt (px c) (⟨36, by decide⟩ : Fin 140))
      ∗ cellInv ER (rsRd m) (K (cellAt c (⟨29, by decide⟩ : Fin 140))) (cellAt c (⟨29, by decide⟩ : Fin 140))
      ∗ cellInv ER (rsRd m) (K (cellAt (px c) (⟨37, by decide⟩ : Fin 140))) (cellAt (px c) (⟨37, by decide⟩ : Fin 140))
      ∗ cellInv ER (rsRd m) (K (cellAt c (⟨38, by decide⟩ : Fin 140))) (cellAt c (⟨38, by decide⟩ : Fin 140))
      ∗ cellInv ER (rsRd m) (K (cellAt (px c) (⟨41, by decide⟩ : Fin 140))) (cellAt (px c) (⟨41, by decide⟩ : Fin 140))
      ∗ cellInv ER (rsRd m) (K (cellAt c (⟨39, by decide⟩ : Fin 140))) (cellAt c (⟨39, by decide⟩ : Fin 140))
      ∗ cellInv ER (rsRd m) (K (cellAt (px c) (⟨42, by decide⟩ : Fin 140))) (cellAt (px c) (⟨42, by decide⟩ : Fin 140))
      ∗ cellInv ER (rsRd m) (K (cellAt c (⟨40, by decide⟩ : Fin 140))) (cellAt c (⟨40, by decide⟩ : Fin 140))
      ∗ cellInv ER (rsRd m) (K (cellAt (px c) (⟨43, by decide⟩ : Fin 140))) (cellAt (px c) (⟨43, by decide⟩ : Fin 140))
      ∗ cellInv ER (rsRd m) (K (cellAt c (⟨44, by decide⟩ : Fin 140))) (cellAt c (⟨44, by decide⟩ : Fin 140))
      ∗ cellInv ER (rsRd m) (K (cellAt (pz c) (⟨52, by decide⟩ : Fin 140))) (cellAt (pz c) (⟨52, by decide⟩ : Fin 140))
      ∗ cellInv ER (rsRd m) (K (cellAt c (⟨60, by decide⟩ : Fin 140))) (cellAt c (⟨60, by decide⟩ : Fin 140))
      ∗ cellInv ER (rsRd m) (K (cellAt (py c) (⟨68, by decide⟩ : Fin 140))) (cellAt (py c) (⟨68, by decide⟩ : Fin 140))
      ∗ cellInv ER (rsRd m) (K (cellAt c (⟨45, by decide⟩ : Fin 140))) (cellAt c (⟨45, by decide⟩ : Fin 140))
      ∗ cellInv ER (rsRd m) (K (cellAt (pz c) (⟨53, by decide⟩ : Fin 140))) (cellAt (pz c) (⟨53, by decide⟩ : Fin 140))
      ∗ cellInv ER (rsRd m) (K (cellAt c (⟨61, by decide⟩ : Fin 140))) (cellAt c (⟨61, by decide⟩ : Fin 140))
      ∗ cellInv ER (rsRd m) (K (cellAt (py c) (⟨69, by decide⟩ : Fin 140))) (cellAt (py c) (⟨69, by decide⟩ : Fin 140))
      ∗ cellInv ER (rsRd m) (K (cellAt c (⟨46, by decide⟩ : Fin 140))) (cellAt c (⟨46, by decide⟩ : Fin 140))
      ∗ cellInv ER (rsRd m) (K (cellAt (pz c) (⟨54, by decide⟩ : Fin 140))) (cellAt (pz c) (⟨54, by decide⟩ : Fin 140))
      ∗ cellInv ER (rsRd m) (K (cellAt c (⟨62, by decide⟩ : Fin 140))) (cellAt c (⟨62, by decide⟩ : Fin 140))
      ∗ cellInv ER (rsRd m) (K (cellAt (py c) (⟨70, by decide⟩ : Fin 140))) (cellAt (py c) (⟨70, by decide⟩ : Fin 140))
      ∗ cellInv ER (rsRd m) (K (cellAt c (⟨47, by decide⟩ : Fin 140))) (cellAt c (⟨47, by decide⟩ : Fin 140))
      ∗ cellInv ER (rsRd m) (K (cellAt (pz c) (⟨55, by decide⟩ : Fin 140))) (cellAt (pz c) (⟨55, by decide⟩ : Fin 140))
      ∗ cellInv ER (rsRd m) (K (cellAt c (⟨63, by decide⟩ : Fin 140))) (cellAt c (⟨63, by decide⟩ : Fin 140))
      ∗ cellInv ER (rsRd m) (K (cellAt (py c) (⟨71, by decide⟩ : Fin 140))) (cellAt (py c) (⟨71, by decide⟩ : Fin 140))
      ∗ cellInv ER (rsRd m) (K (cellAt c (⟨48, by decide⟩ : Fin 140))) (cellAt c (⟨48, by decide⟩ : Fin 140))
      ∗ cellInv ER (rsRd m) (K (cellAt (pz c) (⟨56, by decide⟩ : Fin 140))) (cellAt (pz c) (⟨56, by decide⟩ : Fin 140))
      ∗ cellInv ER (rsRd m) (K (cellAt c (⟨64, by decide⟩ : Fin 140))) (cellAt c (⟨64, by decide⟩ : Fin 140))
      ∗ cellInv ER (rsRd m) (K (cellAt (py c) (⟨72, by decide⟩ : Fin 140))) (cellAt (py c) (⟨72, by decide⟩ : Fin 140))
      ∗ cellInv ER (rsRd m) (K (cellAt c (⟨95, by decide⟩ : Fin 140))) (cellAt c (⟨95, by decide⟩ : Fin 140))
      ∗ cellInv ER (rsRd m) (K (cellAt (py c) (⟨103, by decide⟩ : Fin 140))) (cellAt (py c) (⟨103, by decide⟩ : Fin 140))
      ∗ cellInv ER (rsRd m) (K (cellAt c (⟨79, by decide⟩ : Fin 140))) (cellAt c (⟨79, by decide⟩ : Fin 140))
      ∗ cellInv ER (rsRd m) (K (cellAt (pz c) (⟨87, by decide⟩ : Fin 140))) (cellAt (pz c) (⟨87, by decide⟩ : Fin 140))
      ∗ cellInv ER (rsRd m) (K (cellAt c (⟨49, by decide⟩ : Fin 140))) (cellAt c (⟨49, by decide⟩ : Fin 140))
      ∗ cellInv ER (rsRd m) (K (cellAt (pz c) (⟨57, by decide⟩ : Fin 140))) (cellAt (pz c) (⟨57, by decide⟩ : Fin 140))
      ∗ cellInv ER (rsRd m) (K (cellAt c (⟨65, by decide⟩ : Fin 140))) (cellAt c (⟨65, by decide⟩ : Fin 140))
      ∗ cellInv ER (rsRd m) (K (cellAt (py c) (⟨73, by decide⟩ : Fin 140))) (cellAt (py c) (⟨73, by decide⟩ : Fin 140))
      ∗ cellInv ER (rsRd m) (K (cellAt c (⟨96, by decide⟩ : Fin 140))) (cellAt c (⟨96, by decide⟩ : Fin 140))
      ∗ cellInv ER (rsRd m) (K (cellAt (py c) (⟨104, by decide⟩ : Fin 140))) (cellAt (py c) (⟨104, by decide⟩ : Fin 140))
      ∗ cellInv ER (rsRd m) (K (cellAt c (⟨80, by decide⟩ : Fin 140))) (cellAt c (⟨80, by decide⟩ : Fin 140))
      ∗ cellInv ER (rsRd m) (K (cellAt (pz c) (⟨88, by decide⟩ : Fin 140))) (cellAt (pz c) (⟨88, by decide⟩ : Fin 140))
      ∗ cellInv ER (rsRd m) (K (cellAt c (⟨50, by decide⟩ : Fin 140))) (cellAt c (⟨50, by decide⟩ : Fin 140))
      ∗ cellInv ER (rsRd m) (K (cellAt (pz c) (⟨58, by decide⟩ : Fin 140))) (cellAt (pz c) (⟨58, by decide⟩ : Fin 140))
      ∗ cellInv ER (rsRd m) (K (cellAt c (⟨66, by decide⟩ : Fin 140))) (cellAt c (⟨66, by decide⟩ : Fin 140))
      ∗ cellInv ER (rsRd m) (K (cellAt (py c) (⟨74, by decide⟩ : Fin 140))) (cellAt (py c) (⟨74, by decide⟩ : Fin 140))
      ∗ cellInv ER (rsRd m) (K (cellAt c (⟨97, by decide⟩ : Fin 140))) (cellAt c (⟨97, by decide⟩ : Fin 140))
      ∗ cellInv ER (rsRd m) (K (cellAt (py c) (⟨105, by decide⟩ : Fin 140))) (cellAt (py c) (⟨105, by decide⟩ : Fin 140))
      ∗ cellInv ER (rsRd m) (K (cellAt c (⟨81, by decide⟩ : Fin 140))) (cellAt c (⟨81, by decide⟩ : Fin 140))
      ∗ cellInv ER (rsRd m) (K (cellAt (pz c) (⟨89, by decide⟩ : Fin 140))) (cellAt (pz c) (⟨89, by decide⟩ : Fin 140))
      ∗ cellInv ER (rsRd m) (K (cellAt c (⟨51, by decide⟩ : Fin 140))) (cellAt c (⟨51, by decide⟩ : Fin 140))
      ∗ cellInv ER (rsRd m) (K (cellAt (pz c) (⟨59, by decide⟩ : Fin 140))) (cellAt (pz c) (⟨59, by decide⟩ : Fin 140))
      ∗ cellInv ER (rsRd m) (K (cellAt c (⟨67, by decide⟩ : Fin 140))) (cellAt c (⟨67, by decide⟩ : Fin 140))
      ∗ cellInv ER (rsRd m) (K (cellAt (py c) (⟨75, by decide⟩ : Fin 140))) (cellAt (py c) (⟨75, by decide⟩ : Fin 140))
      ∗ cellInv ER (rsRd m) (K (cellAt c (⟨98, by decide⟩ : Fin 140))) (cellAt c (⟨98, by decide⟩ : Fin 140))
      ∗ cellInv ER (rsRd m) (K (cellAt (py c) (⟨106, by decide⟩ : Fin 140))) (cellAt (py c) (⟨106, by decide⟩ : Fin 140))
      ∗ cellInv ER (rsRd m) (K (cellAt c (⟨82, by decide⟩ : Fin 140))) (cellAt c (⟨82, by decide⟩ : Fin 140))
      ∗ cellInv ER (rsRd m) (K (cellAt (pz c) (⟨90, by decide⟩ : Fin 140))) (cellAt (pz c) (⟨90, by decide⟩ : Fin 140))
      ∗ cellInv ER (rsRd m) (K (cellAt c (⟨99, by decide⟩ : Fin 140))) (cellAt c (⟨99, by decide⟩ : Fin 140))
      ∗ cellInv ER (rsRd m) (K (cellAt (py c) (⟨107, by decide⟩ : Fin 140))) (cellAt (py c) (⟨107, by decide⟩ : Fin 140))
      ∗ cellInv ER (rsRd m) (K (cellAt c (⟨83, by decide⟩ : Fin 140))) (cellAt c (⟨83, by decide⟩ : Fin 140))
      ∗ cellInv ER (rsRd m) (K (cellAt (pz c) (⟨91, by decide⟩ : Fin 140))) (cellAt (pz c) (⟨91, by decide⟩ : Fin 140)))
    ∗ (cellInv ER (rsRd m) (K (barCell c)) (barCell c)
      ∗ cellInv ER (rsRd m) (K (cellAt c (⟨30, by decide⟩ : Fin 140))) (cellAt c (⟨30, by decide⟩ : Fin 140))
      ∗ cellInv ER (rsRd m) (K (cellAt c (⟨31, by decide⟩ : Fin 140))) (cellAt c (⟨31, by decide⟩ : Fin 140))
      ∗ cellInv ER (rsRd m) (K (cellAt c (⟨52, by decide⟩ : Fin 140))) (cellAt c (⟨52, by decide⟩ : Fin 140))
      ∗ cellInv ER (rsRd m) (K (cellAt c (⟨68, by decide⟩ : Fin 140))) (cellAt c (⟨68, by decide⟩ : Fin 140))
      ∗ cellInv ER (rsRd m) (K (cellAt c (⟨32, by decide⟩ : Fin 140))) (cellAt c (⟨32, by decide⟩ : Fin 140))
      ∗ cellInv ER (rsRd m) (K (cellAt c (⟨53, by decide⟩ : Fin 140))) (cellAt c (⟨53, by decide⟩ : Fin 140))
      ∗ cellInv ER (rsRd m) (K (cellAt c (⟨69, by decide⟩ : Fin 140))) (cellAt c (⟨69, by decide⟩ : Fin 140))
      ∗ cellInv ER (rsRd m) (K (cellAt c (⟨33, by decide⟩ : Fin 140))) (cellAt c (⟨33, by decide⟩ : Fin 140))
      ∗ cellInv ER (rsRd m) (K (cellAt c (⟨54, by decide⟩ : Fin 140))) (cellAt c (⟨54, by decide⟩ : Fin 140))
      ∗ cellInv ER (rsRd m) (K (cellAt c (⟨70, by decide⟩ : Fin 140))) (cellAt c (⟨70, by decide⟩ : Fin 140))
      ∗ cellInv ER (rsRd m) (K (cellAt c (⟨34, by decide⟩ : Fin 140))) (cellAt c (⟨34, by decide⟩ : Fin 140))
      ∗ cellInv ER (rsRd m) (K (cellAt c (⟨55, by decide⟩ : Fin 140))) (cellAt c (⟨55, by decide⟩ : Fin 140))
      ∗ cellInv ER (rsRd m) (K (cellAt c (⟨71, by decide⟩ : Fin 140))) (cellAt c (⟨71, by decide⟩ : Fin 140))
      ∗ cellInv ER (rsRd m) (K (cellAt c (⟨35, by decide⟩ : Fin 140))) (cellAt c (⟨35, by decide⟩ : Fin 140))
      ∗ cellInv ER (rsRd m) (K (cellAt c (⟨56, by decide⟩ : Fin 140))) (cellAt c (⟨56, by decide⟩ : Fin 140))
      ∗ cellInv ER (rsRd m) (K (cellAt c (⟨72, by decide⟩ : Fin 140))) (cellAt c (⟨72, by decide⟩ : Fin 140))
      ∗ cellInv ER (rsRd m) (K (cellAt c (⟨87, by decide⟩ : Fin 140))) (cellAt c (⟨87, by decide⟩ : Fin 140))
      ∗ cellInv ER (rsRd m) (K (cellAt c (⟨103, by decide⟩ : Fin 140))) (cellAt c (⟨103, by decide⟩ : Fin 140))
      ∗ cellInv ER (rsRd m) (K (cellAt c (⟨36, by decide⟩ : Fin 140))) (cellAt c (⟨36, by decide⟩ : Fin 140))
      ∗ cellInv ER (rsRd m) (K (cellAt c (⟨57, by decide⟩ : Fin 140))) (cellAt c (⟨57, by decide⟩ : Fin 140))
      ∗ cellInv ER (rsRd m) (K (cellAt c (⟨73, by decide⟩ : Fin 140))) (cellAt c (⟨73, by decide⟩ : Fin 140))
      ∗ cellInv ER (rsRd m) (K (cellAt c (⟨88, by decide⟩ : Fin 140))) (cellAt c (⟨88, by decide⟩ : Fin 140))
      ∗ cellInv ER (rsRd m) (K (cellAt c (⟨104, by decide⟩ : Fin 140))) (cellAt c (⟨104, by decide⟩ : Fin 140))
      ∗ cellInv ER (rsRd m) (K (cellAt c (⟨37, by decide⟩ : Fin 140))) (cellAt c (⟨37, by decide⟩ : Fin 140))
      ∗ cellInv ER (rsRd m) (K (cellAt c (⟨58, by decide⟩ : Fin 140))) (cellAt c (⟨58, by decide⟩ : Fin 140))
      ∗ cellInv ER (rsRd m) (K (cellAt c (⟨74, by decide⟩ : Fin 140))) (cellAt c (⟨74, by decide⟩ : Fin 140))
      ∗ cellInv ER (rsRd m) (K (cellAt c (⟨89, by decide⟩ : Fin 140))) (cellAt c (⟨89, by decide⟩ : Fin 140))
      ∗ cellInv ER (rsRd m) (K (cellAt c (⟨105, by decide⟩ : Fin 140))) (cellAt c (⟨105, by decide⟩ : Fin 140))
      ∗ cellInv ER (rsRd m) (K (cellAt c (⟨59, by decide⟩ : Fin 140))) (cellAt c (⟨59, by decide⟩ : Fin 140))
      ∗ cellInv ER (rsRd m) (K (cellAt c (⟨75, by decide⟩ : Fin 140))) (cellAt c (⟨75, by decide⟩ : Fin 140))
      ∗ cellInv ER (rsRd m) (K (cellAt c (⟨41, by decide⟩ : Fin 140))) (cellAt c (⟨41, by decide⟩ : Fin 140))
      ∗ cellInv ER (rsRd m) (K (cellAt c (⟨42, by decide⟩ : Fin 140))) (cellAt c (⟨42, by decide⟩ : Fin 140))
      ∗ cellInv ER (rsRd m) (K (cellAt c (⟨43, by decide⟩ : Fin 140))) (cellAt c (⟨43, by decide⟩ : Fin 140))
      ∗ cellInv ER (rsRd m) (K (cellAt c (⟨90, by decide⟩ : Fin 140))) (cellAt c (⟨90, by decide⟩ : Fin 140))
      ∗ cellInv ER (rsRd m) (K (cellAt c (⟨106, by decide⟩ : Fin 140))) (cellAt c (⟨106, by decide⟩ : Fin 140))
      ∗ cellInv ER (rsRd m) (K (cellAt c (⟨91, by decide⟩ : Fin 140))) (cellAt c (⟨91, by decide⟩ : Fin 140))
      ∗ cellInv ER (rsRd m) (K (cellAt c (⟨107, by decide⟩ : Fin 140))) (cellAt c (⟨107, by decide⟩ : Fin 140)))
    ∗ (reached ER (barCell (px c)) 0
      ∗ reached ER (barCell (pz c)) 0
      ∗ reached ER (barCell (py c)) 0
      ∗ reached ER (cellAt c (⟨22, by decide⟩ : Fin 140)) 0
      ∗ reached ER (cellAt (px c) (⟨30, by decide⟩ : Fin 140)) 0
      ∗ reached ER (cellAt c (⟨23, by decide⟩ : Fin 140)) 0
      ∗ reached ER (cellAt (px c) (⟨31, by decide⟩ : Fin 140)) 0
      ∗ reached ER (cellAt c (⟨24, by decide⟩ : Fin 140)) 0
      ∗ reached ER (cellAt (px c) (⟨32, by decide⟩ : Fin 140)) 0
      ∗ reached ER (cellAt c (⟨25, by decide⟩ : Fin 140)) 0
      ∗ reached ER (cellAt (px c) (⟨33, by decide⟩ : Fin 140)) 0
      ∗ reached ER (cellAt c (⟨26, by decide⟩ : Fin 140)) 0
      ∗ reached ER (cellAt (px c) (⟨34, by decide⟩ : Fin 140)) 0
      ∗ reached ER (cellAt c (⟨27, by decide⟩ : Fin 140)) 0
      ∗ reached ER (cellAt (px c) (⟨35, by decide⟩ : Fin 140)) 0
      ∗ reached ER (cellAt c (⟨28, by decide⟩ : Fin 140)) 0
      ∗ reached ER (cellAt (px c) (⟨36, by decide⟩ : Fin 140)) 0
      ∗ reached ER (cellAt c (⟨29, by decide⟩ : Fin 140)) 0
      ∗ reached ER (cellAt (px c) (⟨37, by decide⟩ : Fin 140)) 0
      ∗ reached ER (cellAt c (⟨38, by decide⟩ : Fin 140)) 0
      ∗ reached ER (cellAt (px c) (⟨41, by decide⟩ : Fin 140)) 0
      ∗ reached ER (cellAt c (⟨39, by decide⟩ : Fin 140)) 0
      ∗ reached ER (cellAt (px c) (⟨42, by decide⟩ : Fin 140)) 0
      ∗ reached ER (cellAt c (⟨40, by decide⟩ : Fin 140)) 0
      ∗ reached ER (cellAt (px c) (⟨43, by decide⟩ : Fin 140)) 0
      ∗ reached ER (cellAt c (⟨44, by decide⟩ : Fin 140)) 0
      ∗ reached ER (cellAt (pz c) (⟨52, by decide⟩ : Fin 140)) 0
      ∗ reached ER (cellAt c (⟨60, by decide⟩ : Fin 140)) 0
      ∗ reached ER (cellAt (py c) (⟨68, by decide⟩ : Fin 140)) 0
      ∗ reached ER (cellAt c (⟨45, by decide⟩ : Fin 140)) 0
      ∗ reached ER (cellAt (pz c) (⟨53, by decide⟩ : Fin 140)) 0
      ∗ reached ER (cellAt c (⟨61, by decide⟩ : Fin 140)) 0
      ∗ reached ER (cellAt (py c) (⟨69, by decide⟩ : Fin 140)) 0
      ∗ reached ER (cellAt c (⟨46, by decide⟩ : Fin 140)) 0
      ∗ reached ER (cellAt (pz c) (⟨54, by decide⟩ : Fin 140)) 0
      ∗ reached ER (cellAt c (⟨62, by decide⟩ : Fin 140)) 0
      ∗ reached ER (cellAt (py c) (⟨70, by decide⟩ : Fin 140)) 0
      ∗ reached ER (cellAt c (⟨47, by decide⟩ : Fin 140)) 0
      ∗ reached ER (cellAt (pz c) (⟨55, by decide⟩ : Fin 140)) 0
      ∗ reached ER (cellAt c (⟨63, by decide⟩ : Fin 140)) 0
      ∗ reached ER (cellAt (py c) (⟨71, by decide⟩ : Fin 140)) 0
      ∗ reached ER (cellAt c (⟨48, by decide⟩ : Fin 140)) 0
      ∗ reached ER (cellAt (pz c) (⟨56, by decide⟩ : Fin 140)) 0
      ∗ reached ER (cellAt c (⟨64, by decide⟩ : Fin 140)) 0
      ∗ reached ER (cellAt (py c) (⟨72, by decide⟩ : Fin 140)) 0
      ∗ reached ER (cellAt c (⟨95, by decide⟩ : Fin 140)) 0
      ∗ reached ER (cellAt (py c) (⟨103, by decide⟩ : Fin 140)) 0
      ∗ reached ER (cellAt c (⟨79, by decide⟩ : Fin 140)) 0
      ∗ reached ER (cellAt (pz c) (⟨87, by decide⟩ : Fin 140)) 0
      ∗ reached ER (cellAt c (⟨49, by decide⟩ : Fin 140)) 0
      ∗ reached ER (cellAt (pz c) (⟨57, by decide⟩ : Fin 140)) 0
      ∗ reached ER (cellAt c (⟨65, by decide⟩ : Fin 140)) 0
      ∗ reached ER (cellAt (py c) (⟨73, by decide⟩ : Fin 140)) 0
      ∗ reached ER (cellAt c (⟨96, by decide⟩ : Fin 140)) 0
      ∗ reached ER (cellAt (py c) (⟨104, by decide⟩ : Fin 140)) 0
      ∗ reached ER (cellAt c (⟨80, by decide⟩ : Fin 140)) 0
      ∗ reached ER (cellAt (pz c) (⟨88, by decide⟩ : Fin 140)) 0
      ∗ reached ER (cellAt c (⟨50, by decide⟩ : Fin 140)) 0
      ∗ reached ER (cellAt (pz c) (⟨58, by decide⟩ : Fin 140)) 0
      ∗ reached ER (cellAt c (⟨66, by decide⟩ : Fin 140)) 0
      ∗ reached ER (cellAt (py c) (⟨74, by decide⟩ : Fin 140)) 0
      ∗ reached ER (cellAt c (⟨97, by decide⟩ : Fin 140)) 0
      ∗ reached ER (cellAt (py c) (⟨105, by decide⟩ : Fin 140)) 0
      ∗ reached ER (cellAt c (⟨81, by decide⟩ : Fin 140)) 0
      ∗ reached ER (cellAt (pz c) (⟨89, by decide⟩ : Fin 140)) 0
      ∗ reached ER (cellAt c (⟨51, by decide⟩ : Fin 140)) 0
      ∗ reached ER (cellAt (pz c) (⟨59, by decide⟩ : Fin 140)) 0
      ∗ reached ER (cellAt c (⟨67, by decide⟩ : Fin 140)) 0
      ∗ reached ER (cellAt (py c) (⟨75, by decide⟩ : Fin 140)) 0
      ∗ reached ER (cellAt c (⟨98, by decide⟩ : Fin 140)) 0
      ∗ reached ER (cellAt (py c) (⟨106, by decide⟩ : Fin 140)) 0
      ∗ reached ER (cellAt c (⟨82, by decide⟩ : Fin 140)) 0
      ∗ reached ER (cellAt (pz c) (⟨90, by decide⟩ : Fin 140)) 0
      ∗ reached ER (cellAt c (⟨99, by decide⟩ : Fin 140)) 0
      ∗ reached ER (cellAt (py c) (⟨107, by decide⟩ : Fin 140)) 0
      ∗ reached ER (cellAt c (⟨83, by decide⟩ : Fin 140)) 0
      ∗ reached ER (cellAt (pz c) (⟨91, by decide⟩ : Fin 140)) 0)
    ∗ levAts LL lvv
    ∗ owes (c : Thread nD τ) (O₀ c) W
    ∗ (cred (tallyAt (barCell c) () 3)
      ∗ cred (tallyAt (cellAt c (⟨30, by decide⟩ : Fin 140)) () NA)
      ∗ cred (tallyAt (cellAt c (⟨31, by decide⟩ : Fin 140)) () NA)
      ∗ cred (tallyAt (cellAt c (⟨52, by decide⟩ : Fin 140)) () NA)
      ∗ cred (tallyAt (cellAt c (⟨68, by decide⟩ : Fin 140)) () NA)
      ∗ cred (tallyAt (cellAt c (⟨32, by decide⟩ : Fin 140)) () NA)
      ∗ cred (tallyAt (cellAt c (⟨53, by decide⟩ : Fin 140)) () NA)
      ∗ cred (tallyAt (cellAt c (⟨69, by decide⟩ : Fin 140)) () NA)
      ∗ cred (tallyAt (cellAt c (⟨33, by decide⟩ : Fin 140)) () NA)
      ∗ cred (tallyAt (cellAt c (⟨54, by decide⟩ : Fin 140)) () NA)
      ∗ cred (tallyAt (cellAt c (⟨70, by decide⟩ : Fin 140)) () NA)
      ∗ cred (tallyAt (cellAt c (⟨34, by decide⟩ : Fin 140)) () NA)
      ∗ cred (tallyAt (cellAt c (⟨55, by decide⟩ : Fin 140)) () NA)
      ∗ cred (tallyAt (cellAt c (⟨71, by decide⟩ : Fin 140)) () NA)
      ∗ cred (tallyAt (cellAt c (⟨35, by decide⟩ : Fin 140)) () NA)
      ∗ cred (tallyAt (cellAt c (⟨56, by decide⟩ : Fin 140)) () NA)
      ∗ cred (tallyAt (cellAt c (⟨72, by decide⟩ : Fin 140)) () NA)
      ∗ cred (tallyAt (cellAt c (⟨87, by decide⟩ : Fin 140)) () NH)
      ∗ cred (tallyAt (cellAt c (⟨103, by decide⟩ : Fin 140)) () NH)
      ∗ cred (tallyAt (cellAt c (⟨36, by decide⟩ : Fin 140)) () NA)
      ∗ cred (tallyAt (cellAt c (⟨57, by decide⟩ : Fin 140)) () NA)
      ∗ cred (tallyAt (cellAt c (⟨73, by decide⟩ : Fin 140)) () NA)
      ∗ cred (tallyAt (cellAt c (⟨88, by decide⟩ : Fin 140)) () NH)
      ∗ cred (tallyAt (cellAt c (⟨104, by decide⟩ : Fin 140)) () NH)
      ∗ cred (tallyAt (cellAt c (⟨37, by decide⟩ : Fin 140)) () NA)
      ∗ cred (tallyAt (cellAt c (⟨58, by decide⟩ : Fin 140)) () NA)
      ∗ cred (tallyAt (cellAt c (⟨74, by decide⟩ : Fin 140)) () NA)
      ∗ cred (tallyAt (cellAt c (⟨89, by decide⟩ : Fin 140)) () NH)
      ∗ cred (tallyAt (cellAt c (⟨105, by decide⟩ : Fin 140)) () NH)
      ∗ cred (tallyAt (cellAt c (⟨59, by decide⟩ : Fin 140)) () NA)
      ∗ cred (tallyAt (cellAt c (⟨75, by decide⟩ : Fin 140)) () NA)
      ∗ cred (tallyAt (cellAt c (⟨41, by decide⟩ : Fin 140)) () NA)
      ∗ cred (tallyAt (cellAt c (⟨42, by decide⟩ : Fin 140)) () NA)
      ∗ cred (tallyAt (cellAt c (⟨43, by decide⟩ : Fin 140)) () NA)
      ∗ cred (tallyAt (cellAt c (⟨90, by decide⟩ : Fin 140)) () NH)
      ∗ cred (tallyAt (cellAt c (⟨106, by decide⟩ : Fin 140)) () NH)
      ∗ cred (tallyAt (cellAt c (⟨91, by decide⟩ : Fin 140)) () NH)
      ∗ cred (tallyAt (cellAt c (⟨107, by decide⟩ : Fin 140)) () NH))
    ∗ (atPos ER (barCell c) 0 ∅ 0
      ∗ atPos ER (cellAt c (⟨30, by decide⟩ : Fin 140)) 0 ∅ 0
      ∗ atPos ER (cellAt c (⟨31, by decide⟩ : Fin 140)) 0 ∅ 0
      ∗ atPos ER (cellAt c (⟨52, by decide⟩ : Fin 140)) 0 ∅ 0
      ∗ atPos ER (cellAt c (⟨68, by decide⟩ : Fin 140)) 0 ∅ 0
      ∗ atPos ER (cellAt c (⟨32, by decide⟩ : Fin 140)) 0 ∅ 0
      ∗ atPos ER (cellAt c (⟨53, by decide⟩ : Fin 140)) 0 ∅ 0
      ∗ atPos ER (cellAt c (⟨69, by decide⟩ : Fin 140)) 0 ∅ 0
      ∗ atPos ER (cellAt c (⟨33, by decide⟩ : Fin 140)) 0 ∅ 0
      ∗ atPos ER (cellAt c (⟨54, by decide⟩ : Fin 140)) 0 ∅ 0
      ∗ atPos ER (cellAt c (⟨70, by decide⟩ : Fin 140)) 0 ∅ 0
      ∗ atPos ER (cellAt c (⟨34, by decide⟩ : Fin 140)) 0 ∅ 0
      ∗ atPos ER (cellAt c (⟨55, by decide⟩ : Fin 140)) 0 ∅ 0
      ∗ atPos ER (cellAt c (⟨71, by decide⟩ : Fin 140)) 0 ∅ 0
      ∗ atPos ER (cellAt c (⟨35, by decide⟩ : Fin 140)) 0 ∅ 0
      ∗ atPos ER (cellAt c (⟨56, by decide⟩ : Fin 140)) 0 ∅ 0
      ∗ atPos ER (cellAt c (⟨72, by decide⟩ : Fin 140)) 0 ∅ 0
      ∗ atPos ER (cellAt c (⟨87, by decide⟩ : Fin 140)) 0 ∅ 0
      ∗ atPos ER (cellAt c (⟨103, by decide⟩ : Fin 140)) 0 ∅ 0
      ∗ atPos ER (cellAt c (⟨36, by decide⟩ : Fin 140)) 0 ∅ 0
      ∗ atPos ER (cellAt c (⟨57, by decide⟩ : Fin 140)) 0 ∅ 0
      ∗ atPos ER (cellAt c (⟨73, by decide⟩ : Fin 140)) 0 ∅ 0
      ∗ atPos ER (cellAt c (⟨88, by decide⟩ : Fin 140)) 0 ∅ 0
      ∗ atPos ER (cellAt c (⟨104, by decide⟩ : Fin 140)) 0 ∅ 0
      ∗ atPos ER (cellAt c (⟨37, by decide⟩ : Fin 140)) 0 ∅ 0
      ∗ atPos ER (cellAt c (⟨58, by decide⟩ : Fin 140)) 0 ∅ 0
      ∗ atPos ER (cellAt c (⟨74, by decide⟩ : Fin 140)) 0 ∅ 0
      ∗ atPos ER (cellAt c (⟨89, by decide⟩ : Fin 140)) 0 ∅ 0
      ∗ atPos ER (cellAt c (⟨105, by decide⟩ : Fin 140)) 0 ∅ 0
      ∗ atPos ER (cellAt c (⟨59, by decide⟩ : Fin 140)) 0 ∅ 0
      ∗ atPos ER (cellAt c (⟨75, by decide⟩ : Fin 140)) 0 ∅ 0
      ∗ atPos ER (cellAt c (⟨41, by decide⟩ : Fin 140)) 0 ∅ 0
      ∗ atPos ER (cellAt c (⟨42, by decide⟩ : Fin 140)) 0 ∅ 0
      ∗ atPos ER (cellAt c (⟨43, by decide⟩ : Fin 140)) 0 ∅ 0
      ∗ atPos ER (cellAt c (⟨90, by decide⟩ : Fin 140)) 0 ∅ 0
      ∗ atPos ER (cellAt c (⟨106, by decide⟩ : Fin 140)) 0 ∅ 0
      ∗ atPos ER (cellAt c (⟨91, by decide⟩ : Fin 140)) 0 ∅ 0
      ∗ atPos ER (cellAt c (⟨107, by decide⟩ : Fin 140)) 0 ∅ 0)
    ∗ (atPos ER (cellAt c (⟨22, by decide⟩ : Fin 140)) 0 ∅ 0
      ∗ atPos ER (cellAt c (⟨44, by decide⟩ : Fin 140)) 0 ∅ 0
      ∗ atPos ER (cellAt c (⟨60, by decide⟩ : Fin 140)) 0 ∅ 0
      ∗ atPos ER (cellAt c (⟨23, by decide⟩ : Fin 140)) 0 ∅ 0
      ∗ atPos ER (cellAt c (⟨45, by decide⟩ : Fin 140)) 0 ∅ 0
      ∗ atPos ER (cellAt c (⟨61, by decide⟩ : Fin 140)) 0 ∅ 0
      ∗ atPos ER (cellAt c (⟨24, by decide⟩ : Fin 140)) 0 ∅ 0
      ∗ atPos ER (cellAt c (⟨46, by decide⟩ : Fin 140)) 0 ∅ 0
      ∗ atPos ER (cellAt c (⟨62, by decide⟩ : Fin 140)) 0 ∅ 0
      ∗ atPos ER (cellAt c (⟨25, by decide⟩ : Fin 140)) 0 ∅ 0
      ∗ atPos ER (cellAt c (⟨47, by decide⟩ : Fin 140)) 0 ∅ 0
      ∗ atPos ER (cellAt c (⟨63, by decide⟩ : Fin 140)) 0 ∅ 0
      ∗ atPos ER (cellAt c (⟨79, by decide⟩ : Fin 140)) 0 ∅ 0
      ∗ atPos ER (cellAt c (⟨95, by decide⟩ : Fin 140)) 0 ∅ 0
      ∗ atPos ER (cellAt c (⟨26, by decide⟩ : Fin 140)) 0 ∅ 0
      ∗ atPos ER (cellAt c (⟨48, by decide⟩ : Fin 140)) 0 ∅ 0
      ∗ atPos ER (cellAt c (⟨64, by decide⟩ : Fin 140)) 0 ∅ 0
      ∗ atPos ER (cellAt c (⟨80, by decide⟩ : Fin 140)) 0 ∅ 0
      ∗ atPos ER (cellAt c (⟨96, by decide⟩ : Fin 140)) 0 ∅ 0
      ∗ atPos ER (cellAt c (⟨27, by decide⟩ : Fin 140)) 0 ∅ 0
      ∗ atPos ER (cellAt c (⟨49, by decide⟩ : Fin 140)) 0 ∅ 0
      ∗ atPos ER (cellAt c (⟨65, by decide⟩ : Fin 140)) 0 ∅ 0
      ∗ atPos ER (cellAt c (⟨81, by decide⟩ : Fin 140)) 0 ∅ 0
      ∗ atPos ER (cellAt c (⟨97, by decide⟩ : Fin 140)) 0 ∅ 0
      ∗ atPos ER (cellAt c (⟨28, by decide⟩ : Fin 140)) 0 ∅ 0
      ∗ atPos ER (cellAt c (⟨50, by decide⟩ : Fin 140)) 0 ∅ 0
      ∗ atPos ER (cellAt c (⟨66, by decide⟩ : Fin 140)) 0 ∅ 0
      ∗ atPos ER (cellAt c (⟨82, by decide⟩ : Fin 140)) 0 ∅ 0
      ∗ atPos ER (cellAt c (⟨98, by decide⟩ : Fin 140)) 0 ∅ 0
      ∗ atPos ER (cellAt c (⟨29, by decide⟩ : Fin 140)) 0 ∅ 0
      ∗ atPos ER (cellAt c (⟨51, by decide⟩ : Fin 140)) 0 ∅ 0
      ∗ atPos ER (cellAt c (⟨67, by decide⟩ : Fin 140)) 0 ∅ 0
      ∗ atPos ER (cellAt c (⟨83, by decide⟩ : Fin 140)) 0 ∅ 0
      ∗ atPos ER (cellAt c (⟨99, by decide⟩ : Fin 140)) 0 ∅ 0
      ∗ atPos ER (cellAt c (⟨38, by decide⟩ : Fin 140)) 0 ∅ 0
      ∗ atPos ER (cellAt c (⟨39, by decide⟩ : Fin 140)) 0 ∅ 0
      ∗ atPos ER (cellAt c (⟨40, by decide⟩ : Fin 140)) 0 ∅ 0)
    ∗ (dutyTok ER (barCell (px c)) 0 0
      ∗ dutyTok ER (barCell (pz c)) 0 2
      ∗ dutyTok ER (barCell (py c)) 0 1
      ∗ dutyTok ER (cellAt c (⟨22, by decide⟩ : Fin 140)) 0 0
      ∗ dutyTok ER (cellAt (px c) (⟨30, by decide⟩ : Fin 140)) 0 0
      ∗ dutyTok ER (cellAt c (⟨23, by decide⟩ : Fin 140)) 0 0
      ∗ dutyTok ER (cellAt (px c) (⟨31, by decide⟩ : Fin 140)) 0 0
      ∗ dutyTok ER (cellAt c (⟨24, by decide⟩ : Fin 140)) 0 0
      ∗ dutyTok ER (cellAt (px c) (⟨32, by decide⟩ : Fin 140)) 0 0
      ∗ dutyTok ER (cellAt c (⟨25, by decide⟩ : Fin 140)) 0 0
      ∗ dutyTok ER (cellAt (px c) (⟨33, by decide⟩ : Fin 140)) 0 0
      ∗ dutyTok ER (cellAt c (⟨26, by decide⟩ : Fin 140)) 0 0
      ∗ dutyTok ER (cellAt (px c) (⟨34, by decide⟩ : Fin 140)) 0 0
      ∗ dutyTok ER (cellAt c (⟨27, by decide⟩ : Fin 140)) 0 0
      ∗ dutyTok ER (cellAt (px c) (⟨35, by decide⟩ : Fin 140)) 0 0
      ∗ dutyTok ER (cellAt c (⟨28, by decide⟩ : Fin 140)) 0 0
      ∗ dutyTok ER (cellAt (px c) (⟨36, by decide⟩ : Fin 140)) 0 0
      ∗ dutyTok ER (cellAt c (⟨29, by decide⟩ : Fin 140)) 0 0
      ∗ dutyTok ER (cellAt (px c) (⟨37, by decide⟩ : Fin 140)) 0 0
      ∗ dutyTok ER (cellAt c (⟨38, by decide⟩ : Fin 140)) 0 0
      ∗ dutyTok ER (cellAt (px c) (⟨41, by decide⟩ : Fin 140)) 0 0
      ∗ dutyTok ER (cellAt c (⟨39, by decide⟩ : Fin 140)) 0 0
      ∗ dutyTok ER (cellAt (px c) (⟨42, by decide⟩ : Fin 140)) 0 0
      ∗ dutyTok ER (cellAt c (⟨40, by decide⟩ : Fin 140)) 0 0
      ∗ dutyTok ER (cellAt (px c) (⟨43, by decide⟩ : Fin 140)) 0 0
      ∗ dutyTok ER (cellAt c (⟨44, by decide⟩ : Fin 140)) 0 0
      ∗ dutyTok ER (cellAt (pz c) (⟨52, by decide⟩ : Fin 140)) 0 0
      ∗ dutyTok ER (cellAt c (⟨60, by decide⟩ : Fin 140)) 0 0
      ∗ dutyTok ER (cellAt (py c) (⟨68, by decide⟩ : Fin 140)) 0 0
      ∗ dutyTok ER (cellAt c (⟨45, by decide⟩ : Fin 140)) 0 0
      ∗ dutyTok ER (cellAt (pz c) (⟨53, by decide⟩ : Fin 140)) 0 0
      ∗ dutyTok ER (cellAt c (⟨61, by decide⟩ : Fin 140)) 0 0
      ∗ dutyTok ER (cellAt (py c) (⟨69, by decide⟩ : Fin 140)) 0 0
      ∗ dutyTok ER (cellAt c (⟨46, by decide⟩ : Fin 140)) 0 0
      ∗ dutyTok ER (cellAt (pz c) (⟨54, by decide⟩ : Fin 140)) 0 0
      ∗ dutyTok ER (cellAt c (⟨62, by decide⟩ : Fin 140)) 0 0
      ∗ dutyTok ER (cellAt (py c) (⟨70, by decide⟩ : Fin 140)) 0 0
      ∗ dutyTok ER (cellAt c (⟨47, by decide⟩ : Fin 140)) 0 0
      ∗ dutyTok ER (cellAt (pz c) (⟨55, by decide⟩ : Fin 140)) 0 0
      ∗ dutyTok ER (cellAt c (⟨63, by decide⟩ : Fin 140)) 0 0
      ∗ dutyTok ER (cellAt (py c) (⟨71, by decide⟩ : Fin 140)) 0 0
      ∗ dutyTok ER (cellAt c (⟨48, by decide⟩ : Fin 140)) 0 0
      ∗ dutyTok ER (cellAt (pz c) (⟨56, by decide⟩ : Fin 140)) 0 0
      ∗ dutyTok ER (cellAt c (⟨64, by decide⟩ : Fin 140)) 0 0
      ∗ dutyTok ER (cellAt (py c) (⟨72, by decide⟩ : Fin 140)) 0 0
      ∗ dutyTok ER (cellAt c (⟨95, by decide⟩ : Fin 140)) 0 0
      ∗ dutyTok ER (cellAt (py c) (⟨103, by decide⟩ : Fin 140)) 0 0
      ∗ dutyTok ER (cellAt c (⟨79, by decide⟩ : Fin 140)) 0 0
      ∗ dutyTok ER (cellAt (pz c) (⟨87, by decide⟩ : Fin 140)) 0 0
      ∗ dutyTok ER (cellAt c (⟨49, by decide⟩ : Fin 140)) 0 0
      ∗ dutyTok ER (cellAt (pz c) (⟨57, by decide⟩ : Fin 140)) 0 0
      ∗ dutyTok ER (cellAt c (⟨65, by decide⟩ : Fin 140)) 0 0
      ∗ dutyTok ER (cellAt (py c) (⟨73, by decide⟩ : Fin 140)) 0 0
      ∗ dutyTok ER (cellAt c (⟨96, by decide⟩ : Fin 140)) 0 0
      ∗ dutyTok ER (cellAt (py c) (⟨104, by decide⟩ : Fin 140)) 0 0
      ∗ dutyTok ER (cellAt c (⟨80, by decide⟩ : Fin 140)) 0 0
      ∗ dutyTok ER (cellAt (pz c) (⟨88, by decide⟩ : Fin 140)) 0 0
      ∗ dutyTok ER (cellAt c (⟨50, by decide⟩ : Fin 140)) 0 0
      ∗ dutyTok ER (cellAt (pz c) (⟨58, by decide⟩ : Fin 140)) 0 0
      ∗ dutyTok ER (cellAt c (⟨66, by decide⟩ : Fin 140)) 0 0
      ∗ dutyTok ER (cellAt (py c) (⟨74, by decide⟩ : Fin 140)) 0 0
      ∗ dutyTok ER (cellAt c (⟨97, by decide⟩ : Fin 140)) 0 0
      ∗ dutyTok ER (cellAt (py c) (⟨105, by decide⟩ : Fin 140)) 0 0
      ∗ dutyTok ER (cellAt c (⟨81, by decide⟩ : Fin 140)) 0 0
      ∗ dutyTok ER (cellAt (pz c) (⟨89, by decide⟩ : Fin 140)) 0 0
      ∗ dutyTok ER (cellAt c (⟨51, by decide⟩ : Fin 140)) 0 0
      ∗ dutyTok ER (cellAt (pz c) (⟨59, by decide⟩ : Fin 140)) 0 0
      ∗ dutyTok ER (cellAt c (⟨67, by decide⟩ : Fin 140)) 0 0
      ∗ dutyTok ER (cellAt (py c) (⟨75, by decide⟩ : Fin 140)) 0 0
      ∗ dutyTok ER (cellAt c (⟨98, by decide⟩ : Fin 140)) 0 0
      ∗ dutyTok ER (cellAt (py c) (⟨106, by decide⟩ : Fin 140)) 0 0
      ∗ dutyTok ER (cellAt c (⟨82, by decide⟩ : Fin 140)) 0 0
      ∗ dutyTok ER (cellAt (pz c) (⟨90, by decide⟩ : Fin 140)) 0 0
      ∗ dutyTok ER (cellAt c (⟨99, by decide⟩ : Fin 140)) 0 0
      ∗ dutyTok ER (cellAt (py c) (⟨107, by decide⟩ : Fin 140)) 0 0
      ∗ dutyTok ER (cellAt c (⟨83, by decide⟩ : Fin 140)) 0 0
      ∗ dutyTok ER (cellAt (pz c) (⟨91, by decide⟩ : Fin 140)) 0 0)
    ∗ pts (F := F) (Memref.whole main_arg0 : Memref sig .tc .hbm S1x4096x2048 .f32) c fullShare (xin m c)
    ∗ junk (F := F) (Memref.whole main_v1 : Memref sig .tc .hbm S4096x1024 .bf16) c
    ∗ junk (F := F) (Memref.whole cc0_scratch0 : Memref sig .tc .vmem S4x4096x256 .bf16) c
    ∗ junk (F := F) (Memref.whole cc0_scratch1 : Memref sig .tc .vmem S4096x256 .bf16) c
    ∗ junk (F := F) (Memref.whole cc0_scratch2 : Memref sig .tc .vmem S4096x256 .bf16) c
    ∗ junk (F := F) (Memref.whole cc0_scratch3 : Memref sig .tc .vmem S1536x256 .bf16) c
    ∗ junk (F := F) (Memref.whole cc0_scratch4 : Memref sig .tc .vmem S1536x256 .bf16) c
    ∗ junk (F := F) (Memref.whole cc0_scratch5 : Memref sig .tc .vmem S4096x256 .f32) c
    ∗ junk (F := F) (Memref.whole cc0_scratch6 : Memref sig .tc .vmem S4096x256 .f32) c
    ∗ junk (F := F) (Memref.whole cc0_scratch7 : Memref sig .tc .vmem S1536x256 .f32) c
    ∗ junk (F := F) (Memref.whole cc0_scratch8 : Memref sig .tc .vmem S1536x256 .f32) c
    ∗ (semVal (cellAt c (⟨0, by decide⟩ : Fin 140)) 0
      ∗ semVal (cellAt c (⟨8, by decide⟩ : Fin 140)) 0
      ∗ semVal (cellAt c (⟨1, by decide⟩ : Fin 140)) 0
      ∗ semVal (cellAt c (⟨9, by decide⟩ : Fin 140)) 0
      ∗ semVal (cellAt c (⟨2, by decide⟩ : Fin 140)) 0
      ∗ semVal (cellAt c (⟨10, by decide⟩ : Fin 140)) 0
      ∗ semVal (cellAt c (⟨3, by decide⟩ : Fin 140)) 0
      ∗ semVal (cellAt c (⟨11, by decide⟩ : Fin 140)) 0
      ∗ semVal (cellAt c (⟨4, by decide⟩ : Fin 140)) 0
      ∗ semVal (cellAt c (⟨12, by decide⟩ : Fin 140)) 0
      ∗ semVal (cellAt c (⟨5, by decide⟩ : Fin 140)) 0
      ∗ semVal (cellAt c (⟨13, by decide⟩ : Fin 140)) 0
      ∗ semVal (cellAt c (⟨6, by decide⟩ : Fin 140)) 0
      ∗ semVal (cellAt c (⟨14, by decide⟩ : Fin 140)) 0
      ∗ semVal (cellAt c (⟨7, by decide⟩ : Fin 140)) 0
      ∗ semVal (cellAt c (⟨15, by decide⟩ : Fin 140)) 0
      ∗ semVal (cellAt c (⟨16, by decide⟩ : Fin 140)) 0
      ∗ semVal (cellAt c (⟨19, by decide⟩ : Fin 140)) 0
      ∗ semVal (cellAt c (⟨17, by decide⟩ : Fin 140)) 0
      ∗ semVal (cellAt c (⟨20, by decide⟩ : Fin 140)) 0
      ∗ semVal (cellAt c (⟨18, by decide⟩ : Fin 140)) 0
      ∗ semVal (cellAt c (⟨21, by decide⟩ : Fin 140)) 0)
    ∗ (semVal (cellAt c (⟨120, by decide⟩ : Fin 140)) 0
      ∗ semVal (cellAt c (⟨121, by decide⟩ : Fin 140)) 0
      ∗ semVal (cellAt c (⟨122, by decide⟩ : Fin 140)) 0
      ∗ semVal (cellAt c (⟨123, by decide⟩ : Fin 140)) 0
      ∗ semVal (cellAt c (⟨124, by decide⟩ : Fin 140)) 0
      ∗ semVal (cellAt c (⟨125, by decide⟩ : Fin 140)) 0
      ∗ semVal (cellAt c (⟨126, by decide⟩ : Fin 140)) 0
      ∗ semVal (cellAt c (⟨127, by decide⟩ : Fin 140)) 0
      ∗ semVal (cellAt c (⟨128, by decide⟩ : Fin 140)) 0
      ∗ semVal (cellAt c (⟨129, by decide⟩ : Fin 140)) 0
      ∗ semVal (cellAt c (⟨130, by decide⟩ : Fin 140)) 0
      ∗ semVal (cellAt c (⟨131, by decide⟩ : Fin 140)) 0
      ∗ semVal (cellAt c (⟨108, by decide⟩ : Fin 140)) 0
      ∗ semVal (cellAt c (⟨109, by decide⟩ : Fin 140)) 0
      ∗ semVal (cellAt c (⟨110, by decide⟩ : Fin 140)) 0
      ∗ semVal (cellAt c (⟨111, by decide⟩ : Fin 140)) 0
      ∗ semVal (cellAt c (⟨112, by decide⟩ : Fin 140)) 0
      ∗ semVal (cellAt c (⟨113, by decide⟩ : Fin 140)) 0
      ∗ semVal (cellAt c (⟨114, by decide⟩ : Fin 140)) 0
      ∗ semVal (cellAt c (⟨115, by decide⟩ : Fin 140)) 0
      ∗ semVal (cellAt c (⟨116, by decide⟩ : Fin 140)) 0
      ∗ semVal (cellAt c (⟨117, by decide⟩ : Fin 140)) 0
      ∗ semVal (cellAt c (⟨118, by decide⟩ : Fin 140)) 0
      ∗ semVal (cellAt c (⟨119, by decide⟩ : Fin 140)) 0
      ∗ semVal (cellAt c (⟨132, by decide⟩ : Fin 140)) 0
      ∗ semVal (cellAt c (⟨133, by decide⟩ : Fin 140)) 0
      ∗ semVal (cellAt c (⟨134, by decide⟩ : Fin 140)) 0
      ∗ semVal (cellAt c (⟨135, by decide⟩ : Fin 140)) 0
      ∗ semVal (cellAt c (⟨136, by decide⟩ : Fin 140)) 0
      ∗ semVal (cellAt c (⟨137, by decide⟩ : Fin 140)) 0
      ∗ semVal (cellAt c (⟨138, by decide⟩ : Fin 140)) 0
      ∗ semVal (cellAt c (⟨139, by decide⟩ : Fin 140)) 0)
    ∗ (semVal (cellAt c (⟨76, by decide⟩ : Fin 140)) 0
      ∗ semVal (cellAt c (⟨77, by decide⟩ : Fin 140)) 0
      ∗ semVal (cellAt c (⟨78, by decide⟩ : Fin 140)) 0
      ∗ semVal (cellAt c (⟨84, by decide⟩ : Fin 140)) 0
      ∗ semVal (cellAt c (⟨85, by decide⟩ : Fin 140)) 0
      ∗ semVal (cellAt c (⟨86, by decide⟩ : Fin 140)) 0
      ∗ semVal (cellAt c (⟨92, by decide⟩ : Fin 140)) 0
      ∗ semVal (cellAt c (⟨93, by decide⟩ : Fin 140)) 0
      ∗ semVal (cellAt c (⟨94, by decide⟩ : Fin 140)) 0
      ∗ semVal (cellAt c (⟨100, by decide⟩ : Fin 140)) 0
      ∗ semVal (cellAt c (⟨101, by decide⟩ : Fin 140)) 0
      ∗ semVal (cellAt c (⟨102, by decide⟩ : Fin 140)) 0))

/- the intro pattern of the groups, in the same order:
⟨HIt, HIw, HRt, #Hlev, HO, Hcr, HpR, HpS, Htk, HX, Hout, HS0, HS1, HS2, HS3, HS4, HS5, HS6, HS7, HS8, HvI, HvO, HvU⟩
-/

end Cert.Kernel.RS

end
-- ==== Proof.K.BodyGlue.lean ====
import proofs.«901022_g7700000000001023_dist_rs_v7x_xyz2x2x2_x_m4096_n1024_bf16_1_alg».proof.Proof.K.Data
import proofs.«901022_g7700000000001023_dist_rs_v7x_xyz2x2x2_x_m4096_n1024_bf16_1_alg».proof.Proof.K.BodyPre
import proofs.«901022_g7700000000001023_dist_rs_v7x_xyz2x2x2_x_m4096_n1024_bf16_1_alg».proof.Proof.SepL
import proofs.«901022_g7700000000001023_dist_rs_v7x_xyz2x2x2_x_m4096_n1024_bf16_1_alg».proof.Proof.K.Sems

/-! Between the pipeline's invariant and the body's own statement: what the body ends with, and the body's precondition
    reached from the invariant before the point — each of its groups is one of the invariant's lists in another order. -/

noncomputable section

namespace Cert.Kernel.RS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body ends with -/

/-- After the body: the scratch buffers at anything, the argument as it was, the result at its final contents, every own
    semaphore at zero, nothing owed. -/
def bodyPost (c : Dev nD) : sProp 𝕄 :=
  iprop(junk (F := F) (Memref.whole cc0_scratch0 : Memref sig .tc .vmem S4x4096x256 .bf16) c
    ∗ junk (F := F) (Memref.whole cc0_scratch1 : Memref sig .tc .vmem S4096x256 .bf16) c
    ∗ junk (F := F) (Memref.whole cc0_scratch2 : Memref sig .tc .vmem S4096x256 .bf16) c
    ∗ junk (F := F) (Memref.whole cc0_scratch3 : Memref sig .tc .vmem S1536x256 .bf16) c
    ∗ junk (F := F) (Memref.whole cc0_scratch4 : Memref sig .tc .vmem S1536x256 .bf16) c
    ∗ junk (F := F) (Memref.whole cc0_scratch5 : Memref sig .tc .vmem S4096x256 .f32) c
    ∗ junk (F := F) (Memref.whole cc0_scratch6 : Memref sig .tc .vmem S4096x256 .f32) c
    ∗ junk (F := F) (Memref.whole cc0_scratch7 : Memref sig .tc .vmem S1536x256 .f32) c
    ∗ junk (F := F) (Memref.whole cc0_scratch8 : Memref sig .tc .vmem S1536x256 .f32) c
    ∗ pts (F := F) (Memref.whole main_arg0 : Memref sig .tc .hbm S1x4096x2048 .f32) c fullShare (xin m c)
    ∗ pts (F := F) (Memref.whole main_v1 : Memref sig .tc .hbm S4096x1024 .bf16) c fullShare (out m c)
    ∗ (bigSepL allJ fun j => semVal (cellAt c j) 0)
    ∗ ∃ W' : Waits sig Unit, owes (c : Thread nD τ) 0 W')

/-! ## Whole buffers -/

omit [FloatOps F] in
theorem pts_of_set {sp : Space} {s : Shape} {e : EltTy} (M : Memref sig .tc sp s e) (t : Dev nD) (q : PosShare TreeShare)
    (f : Buf (Elt F) (M.view.loc (t : Thread nD τ))) (h : M.view.set = Finset.univ) :
    pts M t q f = (M.view.loc (t : Thread nD τ) ↦{q} f : sProp 𝕄) := by
  show (M.view.loc (t : Thread nD τ) ↦[M.view.set]{q} f : sProp 𝕄) = _
  rw [h]
omit [FloatOps F] in
theorem junk_of_set {sp : Space} {s : Shape} {e : EltTy} (M : Memref sig .tc sp s e) (t : Dev nD) (h : M.view.set = Finset.univ) :
    junk (F := F) M t = (iprop(∃ f : Buf (Elt F) (M.view.loc (t : Thread nD τ)), M.view.loc (t : Thread nD τ) ↦{fullShare} f) : sProp 𝕄) := by
  show (iprop(∃ f : Buf (Elt F) (M.view.loc (t : Thread nD τ)), M.view.loc (t : Thread nD τ) ↦[M.view.set]{fullShare} f) : sProp 𝕄) = _
  rw [h]

/-- The nine scratch buffers whole at anything, as views. -/
theorem scr_junk (c : Dev nD) : (scr c : sProp 𝕄) = iprop(junk (F := F) (Memref.whole cc0_scratch0 : Memref sig .tc .vmem S4x4096x256 .bf16) c
    ∗ junk (F := F) (Memref.whole cc0_scratch1 : Memref sig .tc .vmem S4096x256 .bf16) c
    ∗ junk (F := F) (Memref.whole cc0_scratch2 : Memref sig .tc .vmem S4096x256 .bf16) c
    ∗ junk (F := F) (Memref.whole cc0_scratch3 : Memref sig .tc .vmem S1536x256 .bf16) c
    ∗ junk (F := F) (Memref.whole cc0_scratch4 : Memref sig .tc .vmem S1536x256 .bf16) c
    ∗ junk (F := F) (Memref.whole cc0_scratch5 : Memref sig .tc .vmem S4096x256 .f32) c
    ∗ junk (F := F) (Memref.whole cc0_scratch6 : Memref sig .tc .vmem S4096x256 .f32) c
    ∗ junk (F := F) (Memref.whole cc0_scratch7 : Memref sig .tc .vmem S1536x256 .f32) c
    ∗ junk (F := F) (Memref.whole cc0_scratch8 : Memref sig .tc .vmem S1536x256 .f32) c) := by
  rw [junk_of_set (Memref.whole cc0_scratch0 : Memref sig .tc .vmem S4x4096x256 .bf16) c (View.set_whole _),
    junk_of_set (Memref.whole cc0_scratch1 : Memref sig .tc .vmem S4096x256 .bf16) c (View.set_whole _),
    junk_of_set (Memref.whole cc0_scratch2 : Memref sig .tc .vmem S4096x256 .bf16) c (View.set_whole _),
    junk_of_set (Memref.whole cc0_scratch3 : Memref sig .tc .vmem S1536x256 .bf16) c (View.set_whole _),
    junk_of_set (Memref.whole cc0_scratch4 : Memref sig .tc .vmem S1536x256 .bf16) c (View.set_whole _),
    junk_of_set (Memref.whole cc0_scratch5 : Memref sig .tc .vmem S4096x256 .f32) c (View.set_whole _),
    junk_of_set (Memref.whole cc0_scratch6 : Memref sig .tc .vmem S4096x256 .f32) c (View.set_whole _),
    junk_of_set (Memref.whole cc0_scratch7 : Memref sig .tc .vmem S1536x256 .f32) c (View.set_whole _),
    junk_of_set (Memref.whole cc0_scratch8 : Memref sig .tc .vmem S1536x256 .f32) c (View.set_whole _)]
  rfl
theorem arg_pts (c : Dev nD) :
    pts (F := F) (Memref.whole main_arg0 : Memref sig .tc .hbm S1x4096x2048 .f32) c fullShare (xin m c) = ((((c : Thread nD τ).loc main_arg0) ↦{fullShare} m ((c : Thread nD τ).loc main_arg0)) : sProp 𝕄) := by
  rw [pts_of_set (Memref.whole main_arg0 : Memref sig .tc .hbm S1x4096x2048 .f32) c fullShare _ (View.set_whole _)]; rfl
theorem out_pts (c : Dev nD) :
    pts (F := F) (Memref.whole main_v1 : Memref sig .tc .hbm S4096x1024 .bf16) c fullShare (out m c)
      = ((((c : Thread nD τ).loc main_v1) ↦{fullShare} (out m c : Buf (Elt F) ((c : Thread nD τ).loc main_v1))) : sProp 𝕄) := by
  rw [pts_of_set (Memref.whole main_v1 : Memref sig .tc .hbm S4096x1024 .bf16) c fullShare _ (View.set_whole _)]
omit [FloatOps F] in
theorem v1_junk (c : Dev nD) :
    junk (F := F) (Memref.whole main_v1 : Memref sig .tc .hbm S4096x1024 .bf16) c = (iprop(∃ f : Buf (Elt F) ((c : Thread nD τ).loc main_v1), ((c : Thread nD τ).loc main_v1) ↦{fullShare} f) : sProp 𝕄) := by
  rw [junk_of_set (Memref.whole main_v1 : Memref sig .tc .hbm S4096x1024 .bf16) c (View.set_whole _)]

/-! ## The invariant's lists in the body's orders -/

/-- The receive cells in the order their owner waits on them; the send cells in the order of their final waits. -/
abbrev waitJ : List (Fin 140) := [30, 31, 52, 68, 32, 53, 69, 33, 54, 70, 34, 55, 71, 35, 56, 72, 87, 103, 36, 57, 73, 88, 104, 37, 58, 74, 89, 105, 59, 75, 41, 42, 43, 90, 106, 91, 107]
abbrev sendJ : List (Fin 140) := [22, 44, 60, 23, 45, 61, 24, 46, 62, 25, 47, 63, 79, 95, 26, 48, 64, 80, 96, 27, 49, 65, 81, 97, 28, 50, 66, 82, 98, 29, 51, 67, 83, 99, 38, 39, 40]
/-- The tokens in the order they are paid with. -/
abbrev tokL2 : List (SemLoc sig × DD × Fin 4) := [(.reg barS, 0, 1), (.reg barS, 2, 3), (.reg barS, 1, 2), (dsem 22, 0, 0), (dsem 30, 0, 1), (dsem 23, 0, 0), (dsem 31, 0, 1), (dsem 24, 0, 0), (dsem 32, 0, 1), (dsem 25, 0, 0), (dsem 33, 0, 1), (dsem 26, 0, 0), (dsem 34, 0, 1), (dsem 27, 0, 0), (dsem 35, 0, 1), (dsem 28, 0, 0), (dsem 36, 0, 1), (dsem 29, 0, 0), (dsem 37, 0, 1), (dsem 38, 0, 0), (dsem 41, 0, 1), (dsem 39, 0, 0), (dsem 42, 0, 1), (dsem 40, 0, 0), (dsem 43, 0, 1), (dsem 44, 0, 0), (dsem 52, 0, 3), (dsem 60, 0, 0), (dsem 68, 0, 2), (dsem 45, 0, 0), (dsem 53, 0, 3), (dsem 61, 0, 0), (dsem 69, 0, 2), (dsem 46, 0, 0), (dsem 54, 0, 3), (dsem 62, 0, 0), (dsem 70, 0, 2), (dsem 47, 0, 0), (dsem 55, 0, 3), (dsem 63, 0, 0), (dsem 71, 0, 2), (dsem 48, 0, 0), (dsem 56, 0, 3), (dsem 64, 0, 0), (dsem 72, 0, 2), (dsem 95, 0, 0), (dsem 103, 0, 2), (dsem 79, 0, 0), (dsem 87, 0, 3), (dsem 49, 0, 0), (dsem 57, 0, 3), (dsem 65, 0, 0), (dsem 73, 0, 2), (dsem 96, 0, 0), (dsem 104, 0, 2), (dsem 80, 0, 0), (dsem 88, 0, 3), (dsem 50, 0, 0), (dsem 58, 0, 3), (dsem 66, 0, 0), (dsem 74, 0, 2), (dsem 97, 0, 0), (dsem 105, 0, 2), (dsem 81, 0, 0), (dsem 89, 0, 3), (dsem 51, 0, 0), (dsem 59, 0, 3), (dsem 67, 0, 0), (dsem 75, 0, 2), (dsem 98, 0, 0), (dsem 106, 0, 2), (dsem 82, 0, 0), (dsem 90, 0, 3), (dsem 99, 0, 0), (dsem 107, 0, 2), (dsem 83, 0, 0), (dsem 91, 0, 3)]
abbrev tokJ2 : List (Fin 140) := [22, 30, 23, 31, 24, 32, 25, 33, 26, 34, 27, 35, 28, 36, 29, 37, 38, 41, 39, 42, 40, 43, 44, 52, 60, 68, 45, 53, 61, 69, 46, 54, 62, 70, 47, 55, 63, 71, 48, 56, 64, 72, 95, 103, 79, 87, 49, 57, 65, 73, 96, 104, 80, 88, 50, 58, 66, 74, 97, 105, 81, 89, 51, 59, 67, 75, 98, 106, 82, 90, 99, 107, 83, 91]
abbrev tokJ1 : List (Fin 140) := [22, 30, 23, 31, 24, 32, 25, 33, 26, 34, 27, 35, 28, 36, 29, 37, 38, 41, 39, 42, 40, 43, 44, 52, 45, 53, 46, 54, 47, 55, 48, 56, 49, 57, 50, 58, 51, 59, 60, 68, 61, 69, 62, 70, 63, 71, 64, 72, 65, 73, 66, 74, 67, 75, 79, 87, 80, 88, 81, 89, 82, 90, 83, 91, 95, 103, 96, 104, 97, 105, 98, 106, 99, 107]
/-- Whose cell a DMA cell's token pays into: a send cell's the device's own, a receive cell's the neighbour's. -/
def dirOf (j : Fin 140) : Fin 4 :=
  match kindOf j.val with
  | some (1, _) => 1 | some (3, _) => 1
  | some (5, _) => 3 | some (9, _) => 3
  | some (7, _) => 2 | some (11, _) => 2
  | _ => 0
/-- The plain counters: of the copies into the staging buffers, of the copies into the result, unused. -/
abbrev idleI : List (Fin 140) := [0, 8, 1, 9, 2, 10, 3, 11, 4, 12, 5, 13, 6, 14, 7, 15, 16, 19, 17, 20, 18, 21]
abbrev idleO : List (Fin 140) := [120, 121, 122, 123, 124, 125, 126, 127, 128, 129, 130, 131, 108, 109, 110, 111, 112, 113, 114, 115, 116, 117, 118, 119, 132, 133, 134, 135, 136, 137, 138, 139]
abbrev idleU : List (Fin 140) := [76, 77, 78, 84, 85, 86, 92, 93, 94, 100, 101, 102]

/-- The body's groups, each as the chain over its list. -/
def credW (c : Dev nD) : sProp 𝕄 :=
  iprop(cred (tallyAt (barCell c) () 3) ∗ bigSepL waitJ fun j => cred (tallyAt (cellAt c j) () (amtOf j.val)))
def posR (c : Dev nD) : sProp 𝕄 := iprop(atPos ER (barCell c) 0 ∅ 0 ∗ bigSepL waitJ fun j => atPos ER (cellAt c j) 0 ∅ 0)
def posS (c : Dev nD) : sProp 𝕄 := bigSepL sendJ fun j => atPos ER (cellAt c j) 0 ∅ 0
def toksP (c : Dev nD) : sProp 𝕄 := bigSepL tokL2 fun x => dutyTok ER (((nbr x.2.2 c : Dev nD) : Thread nD τ), x.1) 0 x.2.1
def idI (c : Dev nD) : sProp 𝕄 := bigSepL idleI fun j => semVal (cellAt c j) 0
def idO (c : Dev nD) : sProp 𝕄 := bigSepL idleO fun j => semVal (cellAt c j) 0
def idU (c : Dev nD) : sProp 𝕄 := bigSepL idleU fun j => semVal (cellAt c j) 0

omit [FloatOps F] in
theorem myCred_eq (c : Dev nD) : (myCred c : sProp 𝕄) = credW c := by
  unfold myCred credW
  rw [bigSepL_of_toFinset_eq recvJ waitJ (by decide) (by decide) (by decide)]
omit [FloatOps F] in
theorem myPos_eq (c : Dev nD) : (myPos c : sProp 𝕄) = iprop(posR c ∗ posS c) := by
  unfold myPos posR posS
  rw [bigSepL_cons', bigSepL_map, bigSepL_of_toFinset_eq rsJ (waitJ ++ sendJ) rsJ_nodup (by decide) (by decide), bigSepL_append, ← sep_assoc_eq]
omit [FloatOps F] in
theorem myToks_eq (c : Dev nD) : (myToks c : sProp 𝕄) = toksP c := by
  unfold myToks toksP
  have e (J : List (Fin 140)) : (bigSepL (J.map fun j => (dsem j, (0 : DD), dirOf j)) fun x : SemLoc sig × DD × Fin 4 => (dutyTok ER (((nbr x.2.2 c : Dev nD) : Thread nD τ), x.1) 0 x.2.1 : sProp 𝕄))
      = bigSepL J fun j => dutyTok ER (((nbr (dirOf j) c : Dev nD) : Thread nD τ), dsem j) 0 0 := bigSepL_map _ J _
  rw [show (tokL : List (SemLoc sig × DD × Fin 4)) = tokL.take 3 ++ tokJ1.map (fun j => (dsem j, (0 : DD), dirOf j)) from rfl,
    show (tokL2 : List (SemLoc sig × DD × Fin 4)) = tokL.take 3 ++ tokJ2.map (fun j => (dsem j, (0 : DD), dirOf j)) from rfl,
    bigSepL_append, bigSepL_append, e, e, bigSepL_of_toFinset_eq tokJ1 tokJ2 (by decide) (by decide) (by decide)]
omit [FloatOps F] in
theorem idle_eq (c : Dev nD) : (idleSems c : sProp 𝕄) = iprop(idI c ∗ idO c ∗ idU c) := by
  unfold idleSems idI idO idU
  rw [bigSepL_of_toFinset_eq idleJ (idleI ++ (idleO ++ idleU)) idleJ_nodup (by decide) (by decide), bigSepL_append, bigSepL_append]

/-- The records the body uses: the invariants of the cells it pays into (in payment order) and of the cells it waits on
    (its barrier cell, then its receive cells in wait order), and that the cells it pays into have reached their round. -/
def invT (K : GSem nD τ sig → ℕ) (c : Dev nD) : sProp 𝕄 :=
  bigSepL tokL2 fun x => cellInv ER (rsRd m) (K (((nbr x.2.2 c : Dev nD) : Thread nD τ), x.1)) (((nbr x.2.2 c : Dev nD) : Thread nD τ), x.1)
def invW (K : GSem nD τ sig → ℕ) (c : Dev nD) : sProp 𝕄 :=
  iprop(cellInv ER (rsRd m) (K (barCell c)) (barCell c) ∗ bigSepL waitJ fun j => cellInv ER (rsRd m) (K (cellAt c j)) (cellAt c j))
def reaT (c : Dev nD) : sProp 𝕄 := bigSepL tokL2 fun x => reached ER (((nbr x.2.2 c : Dev nD) : Thread nD τ), x.1) 0

theorem tokL2_split : (tokL2 : List (SemLoc sig × DD × Fin 4)) = tokL.take 3 ++ tokJ2.map (fun j => (dsem j, (0 : DD), dirOf j)) := rfl
theorem tokJ2_isSome : ∀ j ∈ tokJ2, (kindOf j.val).isSome = true := by decide
theorem waitJ_isSome : ∀ j ∈ waitJ, (kindOf j.val).isSome = true := by decide
/-- Every token's semaphore is one of a device's cells. -/
theorem tokL2_mem : ∀ x ∈ (tokL2 : List (SemLoc sig × DD × Fin 4)), x.1 ∈ (csemL : List (SemLoc sig)) := by
  intro x hx
  rw [tokL2_split] at hx
  rcases List.mem_append.mp hx with h | h
  · have h3 : x = (.reg barS, 0, 1) ∨ x = (.reg barS, 2, 3) ∨ x = (.reg barS, 1, 2) := by
      have : (tokL.take 3 : List (SemLoc sig × DD × Fin 4)) = [(.reg barS, 0, 1), (.reg barS, 2, 3), (.reg barS, 1, 2)] := rfl
      rw [this] at h
      simpa using h
    rcases h3 with rfl | rfl | rfl <;> exact mem_csemL_bar
  · obtain ⟨j, hj, rfl⟩ := List.mem_map.mp h
    exact mem_csemL_dma j (tokJ2_isSome j hj)

omit [FloatOps F] in
theorem pers_sep {R A B : sProp 𝕄} [BI.Persistent R] (h1 : R ⊢ A) (h2 : R ⊢ B) : R ⊢ iprop(A ∗ B) := by
  iintro #H
  isplitr
  · iapply h1; iexact H
  · iapply h2; iexact H

theorem invT_of (K : GSem nD τ sig → ℕ) (c : Dev nD) : invsL m K ⊢ invT m K c :=
  bigSepL_of_persistent tokL2 _ fun x hx => invL_at m K (nbr x.2.2 c) (tokL2_mem x hx)
theorem invW_of (K : GSem nD τ sig → ℕ) (c : Dev nD) : invsL m K ⊢ invW m K c :=
  pers_sep (invL_bar m K c) (bigSepL_of_persistent waitJ _ fun j hj => invL_dma m K c j (waitJ_isSome j hj))
omit [FloatOps F] in
theorem reaT_of (c : Dev nD) : (reachedL (F := F)) ⊢ reaT c :=
  bigSepL_of_persistent tokL2 _ fun x hx => reachedL_at (nbr x.2.2 c) (tokL2_mem x hx)

set_option maxRecDepth 100000 in
/-- The body's precondition is its records, what it owes, and its groups. -/
theorem bodyPre_fold (K : GSem nD τ sig → ℕ) (c : Dev nD) (W : Waits sig Unit) :
    bodyPre m K c W = iprop(invT m K c ∗ invW m K c ∗ reaT (F := F) c ∗ levAts LL lvv ∗ owes (c : Thread nD τ) (O₀ c) W
      ∗ credW c ∗ posR c ∗ posS c ∗ toksP c
      ∗ pts (F := F) (Memref.whole main_arg0 : Memref sig .tc .hbm S1x4096x2048 .f32) c fullShare (xin m c)
      ∗ junk (F := F) (Memref.whole main_v1 : Memref sig .tc .hbm S4096x1024 .bf16) c
      ∗ junk (F := F) (Memref.whole cc0_scratch0 : Memref sig .tc .vmem S4x4096x256 .bf16) c
      ∗ junk (F := F) (Memref.whole cc0_scratch1 : Memref sig .tc .vmem S4096x256 .bf16) c
      ∗ junk (F := F) (Memref.whole cc0_scratch2 : Memref sig .tc .vmem S4096x256 .bf16) c
      ∗ junk (F := F) (Memref.whole cc0_scratch3 : Memref sig .tc .vmem S1536x256 .bf16) c
      ∗ junk (F := F) (Memref.whole cc0_scratch4 : Memref sig .tc .vmem S1536x256 .bf16) c
      ∗ junk (F := F) (Memref.whole cc0_scratch5 : Memref sig .tc .vmem S4096x256 .f32) c
      ∗ junk (F := F) (Memref.whole cc0_scratch6 : Memref sig .tc .vmem S4096x256 .f32) c
      ∗ junk (F := F) (Memref.whole cc0_scratch7 : Memref sig .tc .vmem S1536x256 .f32) c
      ∗ junk (F := F) (Memref.whole cc0_scratch8 : Memref sig .tc .vmem S1536x256 .f32) c
      ∗ idI c ∗ idO c ∗ idU c) := rfl

/-! ## The two bridges -/

/-- The invariant before the point, with what the device owes, is the body's precondition at some names. -/
theorem pre_bridge (c : Dev nD) (W : Waits sig Unit) :
    iprop(Φ₀ m c ∗ owes (c : Thread nD τ) (O₀ c) W) ⊢ ∃ K, bodyPre m K c W := by
  unfold Φ₀ start ghost
  iintro ⟨⟨⟨⟨%K, #HI, #HR, Hpos, Htok⟩, Hcred, Hlev⟩, Hscr, Harg, Hv1, Hid⟩, HO⟩
  iexists K
  rw [bodyPre_fold]
  ihave HIt := (invT_of m K c) $$ HI
  ihave HIw := (invW_of m K c) $$ HI
  ihave HRt := (reaT_of (F := F) c) $$ HR
  ihave Hcr := (Entails.of_eq (myCred_eq (F := F) c)) $$ Hcred
  ihave Hp := (Entails.of_eq (myPos_eq (F := F) c)) $$ Hpos
  icases Hp with ⟨HpR, HpS⟩
  ihave Htk := (Entails.of_eq (myToks_eq (F := F) c)) $$ Htok
  ihave Hv := (Entails.of_eq (idle_eq (F := F) c)) $$ Hid
  icases Hv with ⟨HvI, HvO, HvU⟩
  ihave Hs := (Entails.of_eq (scr_junk (F := F) c)) $$ Hscr
  icases Hs with ⟨HS0, HS1, HS2, HS3, HS4, HS5, HS6, HS7, HS8⟩
  ihave HX := (Entails.of_eq (arg_pts m c).symm) $$ Harg
  ihave Hout := (Entails.of_eq (v1_junk (F := F) c).symm) $$ Hv1
  isplitl [HIt]; · iexact HIt
  isplitl [HIw]; · iexact HIw
  isplitl [HRt]; · iexact HRt
  isplitl [Hlev]; · iexact Hlev
  isplitl [HO]; · iexact HO
  isplitl [Hcr]; · iexact Hcr
  isplitl [HpR]; · iexact HpR
  isplitl [HpS]; · iexact HpS
  isplitl [Htk]; · iexact Htk
  isplitl [HX]; · iexact HX
  isplitl [Hout]; · iexact Hout
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HvI]; · iexact HvI
  isplitl [HvO]; · iexact HvO
  iexact HvU

/-- What the body ends with is the invariant after the point, nothing owed. -/
theorem post_bridge (c : Dev nD) :
    bodyPost m c ⊢ iprop(Φ₁ m c ∗ ∃ W' : Waits sig Unit, owes (c : Thread nD τ) 0 W') := by
  unfold bodyPost Φ₁
  rw [allSems_split, scr_junk, out_pts, arg_pts]
  iintro ⟨HS0, HS1, HS2, HS3, HS4, HS5, HS6, HS7, HS8, HX, Hout, ⟨Hid, Hrs⟩, HO⟩
  isplitr [HO]
  · isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    isplitl [HX]; · iexact HX
    isplitl [Hout]; · iexact Hout
    isplitl [Hid] <;> iassumption
  · iexact HO

/-! ## The body obligation from the body's own statement -/

set_option maxRecDepth 100000 in
theorem body_obligation_of
    (hsound : ∀ (K : GSem nD τ sig → ℕ) (c : Dev nD) (W : Waits sig Unit) (Kt : PUnit → sProp 𝕄),
      iprop(bodyPre m K c W ∗ (bodyPost m c -∗ Kt ⟨⟩))
        ⊢ wp frame (wpE (defs₀ (F := F)) 𝒱₀ c none) Set.univ (bodyAt0 (F := F) t0_0) Kt)
    (c : Dev nD) : BodyObligation (dats (F := F) m 0 c) (defs₀ (F := F)) 𝒱₀ () Set.univ := fun t => by
  obtain rfl := fin_N0 t
  rw [show (Finset.univ : Finset (Fin cfg0.W)) = ∅ from rfl, bigSep_empty, bigSep_empty]
  rw [show (dats m 0 c).Φ t0_0.castSucc = Φ₀ m c from rfl, show (dats m 0 c).Φ t0_0.succ = Φ₁ m c from rfl]
  unfold Dat.owesAt Pipeline.owesWithin
  rw [show (dats m 0 c).owed t0_0.castSucc = O₀ c from rfl, show (dats m 0 c).owed t0_0.succ = 0 from rfl]
  show _ ⊢ wp frame (wpE (defs₀ (F := F)) 𝒱₀ c none) Set.univ (bodyAt0 (F := F) t0_0) _
  iintro ⟨HΦ, ⟨%W, %hW, HO⟩, -⟩
  ihave Hpre := (pre_bridge m c W) $$ [HΦ HO]
  · isplitl [HΦ] <;> iassumption
  icases Hpre with ⟨%K, Hpre⟩
  iapply (hsound K c W _)
  isplitl [Hpre]; · iexact Hpre
  iintro Hpost
  ihave H := (post_bridge m c) $$ Hpost
  icases H with ⟨HΦ1, ⟨%W', HO⟩⟩
  isplitl [HΦ1]; · iexact HΦ1
  isplitl [HO]
  · iexists W'; isplitr; · ipureintro; exact fun _ _ => Or.inl trivial
    iexact HO
  · iempintro

end Cert.Kernel.RS

end
-- ==== Proof.K.FrameOf.lean ====
import proofs.«901022_g7700000000001023_dist_rs_v7x_xyz2x2x2_x_m4096_n1024_bf16_1_alg».proof.Proof.K.LaunchRS
import proofs.«901022_g7700000000001023_dist_rs_v7x_xyz2x2x2_x_m4096_n1024_bf16_1_alg».proof.Proof.K.BodyGlue

/-! The program's run and frame from the body's own statement, at any float instance. -/

noncomputable section

namespace Cert.Kernel.RS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The body's own statement, at a launch memory `m`. -/
def BodySound (m : (ℓ : Loc nD τ sig) → Buf (Elt F) ℓ) : Prop :=
  ∀ (K : GSem nD τ sig → ℕ) (c : Dev nD) (W : Waits sig Unit) (Kt : PUnit → sProp (MT nD τ sig Unit (Elt F) ℕ UU ℕ)),
    iprop(bodyPre m K c W ∗ (bodyPost m c -∗ Kt ⟨⟩))
      ⊢ wp frame (wpE (defs₀ (F := F)) 𝒱₀ c none) Set.univ (bodyAt0 (F := F) t0_0) Kt

/-- The run, from the body's statement: every device's result ends at `out`, its argument unchanged. -/
theorem run_of_body (m : (ℓ : Loc nD τ sig) → Buf (Elt F) ℓ) (ρ : Dev nD → PrngReg) (hs : BodySound m) :
    θ_run defs (onTc (τ := τ) (main (F := F))) ⟨m, fun _ => 0, ρ⟩ (fun r => ∀ c : Dev nD,
      r.2.mem ((c.tc : Thread nD τ).loc main_v1) = out m c
      ∧ r.2.mem ((c.tc : Thread nD τ).loc main_arg0) = m ((c.tc : Thread nD τ).loc main_arg0)) :=
  run_main m ρ (body_obligation_of m hs)

/-- The frame: the program runs and leaves every device's argument array unchanged. -/
theorem frame_of_sound (hs : ∀ m : (ℓ : Loc nD τ sig) → Buf (Elt F) ℓ, BodySound m)
    (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_arg0) = m ((c.tc : Thread nD τ).loc main_arg0)) :=
  (θ_run defs _ _).mono (fun _ h c => (h c).2) (run_of_body m g (hs m))

end Cert.Kernel.RS

end
-- ==== Proof.K.SchedTab.lean ====
import proofs.«901022_g7700000000001023_dist_rs_v7x_xyz2x2x2_x_m4096_n1024_bf16_1_alg».proof.Proof.K.Sched

/-! The tables of the one-round schedule, cell by cell: which duties a cell has, what a duty is worth, what the round
    expects in all, what a duty hands over, and what is left of the round when no duty has been taken. A barrier cell
    has the three duties of its neighbours; a copy's semaphore (array a, chunk k, at place b(a) + k of the pool) has the one
    duty 0, worth a chunk's credit for the whole-chunk copies (arrays 0 … 7) and a half chunk's for the forwarded halves
    (arrays 8 … 11, chunks 3 … 7 only). -/

noncomputable section

namespace Cert.Kernel.RS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a duty hands over can be stored in an invariant -/

theorem pts_st {sp : Space} {s : Shape} {e : EltTy} (M : Memref sig .tc sp s e) (t : Dev nD) (q : PosShare TreeShare)
    (f : Buf (Elt F) (M.view.loc (t : Thread nD τ))) : BI.Storable (upEmb : UEmb _ 𝕄) (pts (F := F) M t q f) := inferInstance
theorem junk_st {sp : Space} {s : Shape} {e : EltTy} (M : Memref sig .tc sp s e) (t : Dev nD) :
    BI.Storable (upEmb : UEmb _ 𝕄) (junk (F := F) M t) := inferInstance
theorem sep_st {P Q : sProp 𝕄} (hP : BI.Storable (upEmb : UEmb _ 𝕄) P) (hQ : BI.Storable (upEmb : UEmb _ 𝕄) Q) :
    BI.Storable (upEmb : UEmb _ 𝕄) iprop(P ∗ Q) := inferInstance

instance giveX_storable (p : Dev nD) : BI.Storable (upEmb : UEmb _ 𝕄) (giveX (F := F) p) :=
  sep_st (junk_st _ p) (junk_st _ p)
instance giveQ_storable (p : Dev nD) (q : Fin 4) : BI.Storable (upEmb : UEmb _ 𝕄) (giveQ (F := F) p q) :=
  sep_st (junk_st (r4R q 0) p) (sep_st (junk_st (r4R q 1) p) (sep_st (junk_st (r4R q 2) p) (sep_st (junk_st (r4R q 3) p)
    (sep_st (junk_st (r4R q 4) p) (sep_st (junk_st (r4R q 5) p) (sep_st (junk_st (r4R q 6) p) (junk_st (r4R q 7) p)))))))
instance giveH_storable (p : Dev nD) (h : Fin 2) : BI.Storable (upEmb : UEmb _ 𝕄) (giveH (F := F) p h) :=
  sep_st (junk_st (r4H (dqF p) 3 h) p) (sep_st (junk_st (r4H (dqF p) 4 h) p) (sep_st (junk_st (r4H (dqF p) 5 h) p)
    (sep_st (junk_st (r4H (dqF p) 6 h) p) (junk_st (r4H (dqF p) 7 h) p))))
instance barPay_storable (t : Dev nD) (d : DD) : BI.Storable (upEmb : UEmb _ 𝕄) (barPay (F := F) t d) := by
  unfold barPay; (repeat' split) <;> infer_instance
instance dmaPay_storable (t : Dev nD) (j : ℕ) : BI.Storable (upEmb : UEmb _ 𝕄) (dmaPay m t j) := by
  unfold dmaPay; split <;> first | exact pts_st _ _ _ _ | infer_instance

instance rsRd_payload_storable (g : GSem nD τ sig) (r : ℕ) (d : DD) :
    BI.Storable (upEmb : UEmb _ 𝕄) ((rsRd (F := F) m).payload g r d) := by
  rcases g with ⟨th, sm⟩
  cases sm with
  | reg s => exact barPay_storable (F := F) th.1 d
  | dma j => exact dmaPay_storable m th.1 j.val

/-! ## The barrier cell of a device: three duties of one unit -/

section Bar
variable (t : Dev nD)

theorem duties_bar : (rsRd (F := F) m).duties (barCell t) 0 = Finset.univ := by
  dsimp only [rsRd]; rw [if_pos ⟨rfl, rfl⟩]; exact if_pos rfl

theorem amount_bar (d : DD) : (rsRd (F := F) m).amount (barCell t) 0 d = 1 := rfl

theorem expect_bar : (rsRd (F := F) m).expect (barCell t) 0 = 3 := by
  unfold Schedule.expect Schedule.amountOf
  rw [duties_bar, Finset.sum_congr rfl fun d _ => amount_bar m t d, Finset.sum_const, Finset.card_univ, Fintype.card_fin, smul_eq_mul]

theorem payload_bar (d : DD) : (rsRd (F := F) m).payload (barCell t) 0 d = barPay (F := F) t d := rfl

/-- Across x the neighbour hands over its two landing buffers. -/
theorem barPay_zero : barPay (F := F) t 0 = giveX (F := F) (px t) := by unfold barPay; rw [if_pos rfl]
/-- Across y: the quarter this device adds up for it, and the right halves of its forwarded chunks. -/
theorem barPay_one : barPay (F := F) t 1 = iprop(giveQ (F := F) (py t) (yqF (py t)) ∗ giveH (F := F) (py t) 1) := by
  unfold barPay; rw [if_neg (by decide), if_pos rfl]
/-- Across z: the quarter this device adds up for it, and the left halves of its forwarded chunks. -/
theorem barPay_two : barPay (F := F) t 2 = iprop(giveQ (F := F) (pz t) (zqF (pz t)) ∗ giveH (F := F) (pz t) 0) := by
  unfold barPay; rw [if_neg (by decide), if_neg (by decide)]

/-- The rest of the barrier cell's round, no duty taken: the three neighbours' hand-overs. -/
theorem rest_bar : bigSep ((rsRd (F := F) m).duties (barCell t) 0 \ ∅) (fun d => (rsRd (F := F) m).payload (barCell t) 0 d)
    = iprop(barPay (F := F) t 0 ∗ barPay (F := F) t 1 ∗ barPay (F := F) t 2) := by
  rw [Finset.sdiff_empty, duties_bar, bigSep_univ_eq_bigSepL [0, 1, 2] (by decide) (by decide), bigSepL_cons_cons, bigSepL_cons_cons,
    bigSepL_singleton, payload_bar, payload_bar, payload_bar]
  rfl

end Bar

/-! ## The cells of the copies: one duty of a chunk's (or a half chunk's) credit -/

theorem f8_val (k : Fin 8) : f8 k.val = k := Fin.ext (Nat.mod_eq_of_lt k.isLt)
theorem f3_val (k : Fin 3) : f3 k.val = k := Fin.ext (Nat.mod_eq_of_lt k.isLt)

/-- Which array and chunk the semaphore at place b(a) + k is. -/
theorem kind_a0 : ∀ k : Fin 8, kindOf (22 + k.val) = some (0, k.val) := by decide
theorem kind_a1 : ∀ k : Fin 8, kindOf (30 + k.val) = some (1, k.val) := by decide
theorem kind_a2 : ∀ k : Fin 3, kindOf (38 + k.val) = some (2, k.val) := by decide
theorem kind_a3 : ∀ k : Fin 3, kindOf (41 + k.val) = some (3, k.val) := by decide
theorem kind_a4 : ∀ k : Fin 8, kindOf (44 + k.val) = some (4, k.val) := by decide
theorem kind_a5 : ∀ k : Fin 8, kindOf (52 + k.val) = some (5, k.val) := by decide
theorem kind_a6 : ∀ k : Fin 8, kindOf (60 + k.val) = some (6, k.val) := by decide
theorem kind_a7 : ∀ k : Fin 8, kindOf (68 + k.val) = some (7, k.val) := by decide
theorem kind_a8 : ∀ k : Fin 8, 3 ≤ k.val → kindOf (76 + k.val) = some (8, k.val) := by decide
theorem kind_a9 : ∀ k : Fin 8, 3 ≤ k.val → kindOf (84 + k.val) = some (9, k.val) := by decide
theorem kind_a10 : ∀ k : Fin 8, 3 ≤ k.val → kindOf (92 + k.val) = some (10, k.val) := by decide
theorem kind_a11 : ∀ k : Fin 8, 3 ≤ k.val → kindOf (100 + k.val) = some (11, k.val) := by decide

section Dma
variable (t : Dev nD)

/-! ### Any place of the pool -/

theorem duties_some (j : Fin 140) (h : (kindOf j.val).isSome = true) : (rsRd (F := F) m).duties (cellAt t j) 0 = {0} := by
  dsimp only [rsRd]; rw [if_pos ⟨rfl, rfl⟩]; exact if_pos h

/-- A semaphore of the pool that is no copy's has no duty. -/
theorem duties_none (j : Fin 140) (h : kindOf j.val = none) : (rsRd (F := F) m).duties (cellAt t j) 0 = ∅ := by
  dsimp only [rsRd]; rw [if_pos ⟨rfl, rfl⟩]; exact if_neg (by rw [h]; exact Bool.false_ne_true)

/-- There is one round. -/
theorem duties_later (g : GSem nD τ sig) (r : ℕ) (hr : 1 ≤ r) : (rsRd (F := F) m).duties g r = ∅ := by
  dsimp only [rsRd]; exact if_neg fun h => by omega

theorem amount_kind (j : Fin 140) (a k : ℕ) (h : kindOf j.val = some (a, k)) (d : DD) :
    (rsRd (F := F) m).amount (cellAt t j) 0 d = if a < 8 then NA else NH := by
  show (match kindOf j.val with | some (a, _) => if a < 8 then NA else NH | none => 1) = _
  rw [h]

theorem expect_kind (j : Fin 140) (a k : ℕ) (h : kindOf j.val = some (a, k)) :
    (rsRd (F := F) m).expect (cellAt t j) 0 = if a < 8 then NA else NH := by
  unfold Schedule.expect Schedule.amountOf
  rw [duties_some m t j (by rw [h]; rfl), Finset.sum_singleton, amount_kind m t j a k h]

/-- The tables at any place of the pool, by its kind. -/
theorem duties_dma (j : Fin 140) : (rsRd (F := F) m).duties (cellAt t j) 0 = if (kindOf j.val).isSome = true then {0} else ∅ := by
  dsimp only [rsRd]; rw [if_pos ⟨rfl, rfl⟩]
theorem amount_dma (j : Fin 140) (d : DD) : (rsRd (F := F) m).amount (cellAt t j) 0 d
    = (match kindOf j.val with | some (a, _) => if a < 8 then NA else NH | none => 1) := rfl

theorem payload_dma (j : Fin 140) (d : DD) : (rsRd (F := F) m).payload (cellAt t j) 0 d = dmaPay m t j.val := rfl

theorem rest_some (j : Fin 140) (h : (kindOf j.val).isSome = true) :
    bigSep ((rsRd (F := F) m).duties (cellAt t j) 0 \ ∅) (fun d => (rsRd (F := F) m).payload (cellAt t j) 0 d) = dmaPay m t j.val := by
  rw [Finset.sdiff_empty, duties_some m t j h, bigSep_singleton, payload_dma]

/-! ### Array 0, at 22 + k — send semaphores of the copies across x: the chunk of the buffer sent comes back whole -/

theorem dmaPay_a0 (k : Fin 8) : dmaPay m t (22 + k.val) = pts (sbR k) t fullShare (sb m t) := by
  simp only [dmaPay, kind_a0 k]; rw [f8_val]
theorem duties_a0 (k : Fin 8) : (rsRd (F := F) m).duties (cellAt t ⟨22 + k.val, by have := k.isLt; omega⟩) 0 = {0} :=
  duties_some m t _ (by show (kindOf (22 + k.val)).isSome = true; rw [kind_a0 k]; rfl)
theorem amount_a0 (k : Fin 8) (d : DD) : (rsRd (F := F) m).amount (cellAt t ⟨22 + k.val, by have := k.isLt; omega⟩) 0 d = NA :=
  amount_kind m t _ 0 k.val (kind_a0 k) d
theorem expect_a0 (k : Fin 8) : (rsRd (F := F) m).expect (cellAt t ⟨22 + k.val, by have := k.isLt; omega⟩) 0 = NA :=
  expect_kind m t _ 0 k.val (kind_a0 k)
theorem payload_a0 (k : Fin 8) (d : DD) : (rsRd (F := F) m).payload (cellAt t ⟨22 + k.val, by have := k.isLt; omega⟩) 0 d = pts (sbR k) t fullShare (sb m t) :=
  dmaPay_a0 m t k
theorem rest_a0 (k : Fin 8) : bigSep ((rsRd (F := F) m).duties (cellAt t ⟨22 + k.val, by have := k.isLt; omega⟩) 0 \ ∅) (fun d => (rsRd (F := F) m).payload (cellAt t ⟨22 + k.val, by have := k.isLt; omega⟩) 0 d) = pts (sbR k) t fullShare (sb m t) := by
  rw [Finset.sdiff_empty, duties_a0 m t k, bigSep_singleton, payload_a0 m t k]

/-! ### Array 1, at 30 + k — receive semaphores of the copies across x: the chunk of the landing buffer, holding what the x-neighbour sent -/

theorem dmaPay_a1 (k : Fin 8) : dmaPay m t (30 + k.val) = pts (rbR k) t fullShare (rb m t) := by
  simp only [dmaPay, kind_a1 k]; rw [f8_val]
theorem duties_a1 (k : Fin 8) : (rsRd (F := F) m).duties (cellAt t ⟨30 + k.val, by have := k.isLt; omega⟩) 0 = {0} :=
  duties_some m t _ (by show (kindOf (30 + k.val)).isSome = true; rw [kind_a1 k]; rfl)
theorem amount_a1 (k : Fin 8) (d : DD) : (rsRd (F := F) m).amount (cellAt t ⟨30 + k.val, by have := k.isLt; omega⟩) 0 d = NA :=
  amount_kind m t _ 1 k.val (kind_a1 k) d
theorem expect_a1 (k : Fin 8) : (rsRd (F := F) m).expect (cellAt t ⟨30 + k.val, by have := k.isLt; omega⟩) 0 = NA :=
  expect_kind m t _ 1 k.val (kind_a1 k)
theorem payload_a1 (k : Fin 8) (d : DD) : (rsRd (F := F) m).payload (cellAt t ⟨30 + k.val, by have := k.isLt; omega⟩) 0 d = pts (rbR k) t fullShare (rb m t) :=
  dmaPay_a1 m t k
theorem rest_a1 (k : Fin 8) : bigSep ((rsRd (F := F) m).duties (cellAt t ⟨30 + k.val, by have := k.isLt; omega⟩) 0 \ ∅) (fun d => (rsRd (F := F) m).payload (cellAt t ⟨30 + k.val, by have := k.isLt; omega⟩) 0 d) = pts (rbR k) t fullShare (rb m t) := by
  rw [Finset.sdiff_empty, duties_a1 m t k, bigSep_singleton, payload_a1 m t k]

/-! ### Array 2, at 38 + k — send semaphores of the three-chunk copies across x -/

theorem dmaPay_a2 (k : Fin 3) : dmaPay m t (38 + k.val) = pts (sb2R k) t fullShare (sb2 m t) := by
  simp only [dmaPay, kind_a2 k]; rw [f3_val]
theorem duties_a2 (k : Fin 3) : (rsRd (F := F) m).duties (cellAt t ⟨38 + k.val, by have := k.isLt; omega⟩) 0 = {0} :=
  duties_some m t _ (by show (kindOf (38 + k.val)).isSome = true; rw [kind_a2 k]; rfl)
theorem amount_a2 (k : Fin 3) (d : DD) : (rsRd (F := F) m).amount (cellAt t ⟨38 + k.val, by have := k.isLt; omega⟩) 0 d = NA :=
  amount_kind m t _ 2 k.val (kind_a2 k) d
theorem expect_a2 (k : Fin 3) : (rsRd (F := F) m).expect (cellAt t ⟨38 + k.val, by have := k.isLt; omega⟩) 0 = NA :=
  expect_kind m t _ 2 k.val (kind_a2 k)
theorem payload_a2 (k : Fin 3) (d : DD) : (rsRd (F := F) m).payload (cellAt t ⟨38 + k.val, by have := k.isLt; omega⟩) 0 d = pts (sb2R k) t fullShare (sb2 m t) :=
  dmaPay_a2 m t k
theorem rest_a2 (k : Fin 3) : bigSep ((rsRd (F := F) m).duties (cellAt t ⟨38 + k.val, by have := k.isLt; omega⟩) 0 \ ∅) (fun d => (rsRd (F := F) m).payload (cellAt t ⟨38 + k.val, by have := k.isLt; omega⟩) 0 d) = pts (sb2R k) t fullShare (sb2 m t) := by
  rw [Finset.sdiff_empty, duties_a2 m t k, bigSep_singleton, payload_a2 m t k]

/-! ### Array 3, at 41 + k — receive semaphores of the three-chunk copies across x -/

theorem dmaPay_a3 (k : Fin 3) : dmaPay m t (41 + k.val) = pts (rb2R k) t fullShare (rb2 m t) := by
  simp only [dmaPay, kind_a3 k]; rw [f3_val]
theorem duties_a3 (k : Fin 3) : (rsRd (F := F) m).duties (cellAt t ⟨41 + k.val, by have := k.isLt; omega⟩) 0 = {0} :=
  duties_some m t _ (by show (kindOf (41 + k.val)).isSome = true; rw [kind_a3 k]; rfl)
theorem amount_a3 (k : Fin 3) (d : DD) : (rsRd (F := F) m).amount (cellAt t ⟨41 + k.val, by have := k.isLt; omega⟩) 0 d = NA :=
  amount_kind m t _ 3 k.val (kind_a3 k) d
theorem expect_a3 (k : Fin 3) : (rsRd (F := F) m).expect (cellAt t ⟨41 + k.val, by have := k.isLt; omega⟩) 0 = NA :=
  expect_kind m t _ 3 k.val (kind_a3 k)
theorem payload_a3 (k : Fin 3) (d : DD) : (rsRd (F := F) m).payload (cellAt t ⟨41 + k.val, by have := k.isLt; omega⟩) 0 d = pts (rb2R k) t fullShare (rb2 m t) :=
  dmaPay_a3 m t k
theorem rest_a3 (k : Fin 3) : bigSep ((rsRd (F := F) m).duties (cellAt t ⟨41 + k.val, by have := k.isLt; omega⟩) 0 \ ∅) (fun d => (rsRd (F := F) m).payload (cellAt t ⟨41 + k.val, by have := k.isLt; omega⟩) 0 d) = pts (rb2R k) t fullShare (rb2 m t) := by
  rw [Finset.sdiff_empty, duties_a3 m t k, bigSep_singleton, payload_a3 m t k]

/-! ### Array 4, at 44 + k — send semaphores of the own quarter to the z-neighbour: the share lent to that copy -/

theorem dmaPay_a4 (k : Fin 8) : dmaPay m t (44 + k.val) = pts (r4R (mqF t) k) t shZ (r4 m t) := by
  simp only [dmaPay, kind_a4 k]; rw [f8_val]
theorem duties_a4 (k : Fin 8) : (rsRd (F := F) m).duties (cellAt t ⟨44 + k.val, by have := k.isLt; omega⟩) 0 = {0} :=
  duties_some m t _ (by show (kindOf (44 + k.val)).isSome = true; rw [kind_a4 k]; rfl)
theorem amount_a4 (k : Fin 8) (d : DD) : (rsRd (F := F) m).amount (cellAt t ⟨44 + k.val, by have := k.isLt; omega⟩) 0 d = NA :=
  amount_kind m t _ 4 k.val (kind_a4 k) d
theorem expect_a4 (k : Fin 8) : (rsRd (F := F) m).expect (cellAt t ⟨44 + k.val, by have := k.isLt; omega⟩) 0 = NA :=
  expect_kind m t _ 4 k.val (kind_a4 k)
theorem payload_a4 (k : Fin 8) (d : DD) : (rsRd (F := F) m).payload (cellAt t ⟨44 + k.val, by have := k.isLt; omega⟩) 0 d = pts (r4R (mqF t) k) t shZ (r4 m t) :=
  dmaPay_a4 m t k
theorem rest_a4 (k : Fin 8) : bigSep ((rsRd (F := F) m).duties (cellAt t ⟨44 + k.val, by have := k.isLt; omega⟩) 0 \ ∅) (fun d => (rsRd (F := F) m).payload (cellAt t ⟨44 + k.val, by have := k.isLt; omega⟩) 0 d) = pts (r4R (mqF t) k) t shZ (r4 m t) := by
  rw [Finset.sdiff_empty, duties_a4 m t k, bigSep_singleton, payload_a4 m t k]

/-! ### Array 5, at 52 + k — receive semaphores from the z-neighbour: the chunk of its quarter -/

theorem dmaPay_a5 (k : Fin 8) : dmaPay m t (52 + k.val) = pts (r4R (zqF t) k) t fullShare (r4 m t) := by
  simp only [dmaPay, kind_a5 k]; rw [f8_val]
theorem duties_a5 (k : Fin 8) : (rsRd (F := F) m).duties (cellAt t ⟨52 + k.val, by have := k.isLt; omega⟩) 0 = {0} :=
  duties_some m t _ (by show (kindOf (52 + k.val)).isSome = true; rw [kind_a5 k]; rfl)
theorem amount_a5 (k : Fin 8) (d : DD) : (rsRd (F := F) m).amount (cellAt t ⟨52 + k.val, by have := k.isLt; omega⟩) 0 d = NA :=
  amount_kind m t _ 5 k.val (kind_a5 k) d
theorem expect_a5 (k : Fin 8) : (rsRd (F := F) m).expect (cellAt t ⟨52 + k.val, by have := k.isLt; omega⟩) 0 = NA :=
  expect_kind m t _ 5 k.val (kind_a5 k)
theorem payload_a5 (k : Fin 8) (d : DD) : (rsRd (F := F) m).payload (cellAt t ⟨52 + k.val, by have := k.isLt; omega⟩) 0 d = pts (r4R (zqF t) k) t fullShare (r4 m t) :=
  dmaPay_a5 m t k
theorem rest_a5 (k : Fin 8) : bigSep ((rsRd (F := F) m).duties (cellAt t ⟨52 + k.val, by have := k.isLt; omega⟩) 0 \ ∅) (fun d => (rsRd (F := F) m).payload (cellAt t ⟨52 + k.val, by have := k.isLt; omega⟩) 0 d) = pts (r4R (zqF t) k) t fullShare (r4 m t) := by
  rw [Finset.sdiff_empty, duties_a5 m t k, bigSep_singleton, payload_a5 m t k]

/-! ### Array 6, at 60 + k — send semaphores of the own quarter to the y-neighbour: the share lent to that copy -/

theorem dmaPay_a6 (k : Fin 8) : dmaPay m t (60 + k.val) = pts (r4R (mqF t) k) t shY (r4 m t) := by
  simp only [dmaPay, kind_a6 k]; rw [f8_val]
theorem duties_a6 (k : Fin 8) : (rsRd (F := F) m).duties (cellAt t ⟨60 + k.val, by have := k.isLt; omega⟩) 0 = {0} :=
  duties_some m t _ (by show (kindOf (60 + k.val)).isSome = true; rw [kind_a6 k]; rfl)
theorem amount_a6 (k : Fin 8) (d : DD) : (rsRd (F := F) m).amount (cellAt t ⟨60 + k.val, by have := k.isLt; omega⟩) 0 d = NA :=
  amount_kind m t _ 6 k.val (kind_a6 k) d
theorem expect_a6 (k : Fin 8) : (rsRd (F := F) m).expect (cellAt t ⟨60 + k.val, by have := k.isLt; omega⟩) 0 = NA :=
  expect_kind m t _ 6 k.val (kind_a6 k)
theorem payload_a6 (k : Fin 8) (d : DD) : (rsRd (F := F) m).payload (cellAt t ⟨60 + k.val, by have := k.isLt; omega⟩) 0 d = pts (r4R (mqF t) k) t shY (r4 m t) :=
  dmaPay_a6 m t k
theorem rest_a6 (k : Fin 8) : bigSep ((rsRd (F := F) m).duties (cellAt t ⟨60 + k.val, by have := k.isLt; omega⟩) 0 \ ∅) (fun d => (rsRd (F := F) m).payload (cellAt t ⟨60 + k.val, by have := k.isLt; omega⟩) 0 d) = pts (r4R (mqF t) k) t shY (r4 m t) := by
  rw [Finset.sdiff_empty, duties_a6 m t k, bigSep_singleton, payload_a6 m t k]

/-! ### Array 7, at 68 + k — receive semaphores from the y-neighbour: the chunk of its quarter -/

theorem dmaPay_a7 (k : Fin 8) : dmaPay m t (68 + k.val) = pts (r4R (yqF t) k) t fullShare (r4 m t) := by
  simp only [dmaPay, kind_a7 k]; rw [f8_val]
theorem duties_a7 (k : Fin 8) : (rsRd (F := F) m).duties (cellAt t ⟨68 + k.val, by have := k.isLt; omega⟩) 0 = {0} :=
  duties_some m t _ (by show (kindOf (68 + k.val)).isSome = true; rw [kind_a7 k]; rfl)
theorem amount_a7 (k : Fin 8) (d : DD) : (rsRd (F := F) m).amount (cellAt t ⟨68 + k.val, by have := k.isLt; omega⟩) 0 d = NA :=
  amount_kind m t _ 7 k.val (kind_a7 k) d
theorem expect_a7 (k : Fin 8) : (rsRd (F := F) m).expect (cellAt t ⟨68 + k.val, by have := k.isLt; omega⟩) 0 = NA :=
  expect_kind m t _ 7 k.val (kind_a7 k)
theorem payload_a7 (k : Fin 8) (d : DD) : (rsRd (F := F) m).payload (cellAt t ⟨68 + k.val, by have := k.isLt; omega⟩) 0 d = pts (r4R (yqF t) k) t fullShare (r4 m t) :=
  dmaPay_a7 m t k
theorem rest_a7 (k : Fin 8) : bigSep ((rsRd (F := F) m).duties (cellAt t ⟨68 + k.val, by have := k.isLt; omega⟩) 0 \ ∅) (fun d => (rsRd (F := F) m).payload (cellAt t ⟨68 + k.val, by have := k.isLt; omega⟩) 0 d) = pts (r4R (yqF t) k) t fullShare (r4 m t) := by
  rw [Finset.sdiff_empty, duties_a7 m t k, bigSep_singleton, payload_a7 m t k]

/-! ### Array 8, at 76 + k — send semaphores of the left halves forwarded through z: the share of the y-neighbour's chunk lent to the forward -/

theorem dmaPay_a8 (k : Fin 8) (hk : 3 ≤ k.val) : dmaPay m t (76 + k.val) = pts (r4H (yqF t) k 0) t shF (r4 m t) := by
  simp only [dmaPay, kind_a8 k hk]; rw [f8_val]
theorem duties_a8 (k : Fin 8) (hk : 3 ≤ k.val) : (rsRd (F := F) m).duties (cellAt t ⟨76 + k.val, by have := k.isLt; omega⟩) 0 = {0} :=
  duties_some m t _ (by show (kindOf (76 + k.val)).isSome = true; rw [kind_a8 k hk]; rfl)
theorem amount_a8 (k : Fin 8) (hk : 3 ≤ k.val) (d : DD) : (rsRd (F := F) m).amount (cellAt t ⟨76 + k.val, by have := k.isLt; omega⟩) 0 d = NH :=
  amount_kind m t _ 8 k.val (kind_a8 k hk) d
theorem expect_a8 (k : Fin 8) (hk : 3 ≤ k.val) : (rsRd (F := F) m).expect (cellAt t ⟨76 + k.val, by have := k.isLt; omega⟩) 0 = NH :=
  expect_kind m t _ 8 k.val (kind_a8 k hk)
theorem payload_a8 (k : Fin 8) (hk : 3 ≤ k.val) (d : DD) : (rsRd (F := F) m).payload (cellAt t ⟨76 + k.val, by have := k.isLt; omega⟩) 0 d = pts (r4H (yqF t) k 0) t shF (r4 m t) :=
  dmaPay_a8 m t k hk
theorem rest_a8 (k : Fin 8) (hk : 3 ≤ k.val) : bigSep ((rsRd (F := F) m).duties (cellAt t ⟨76 + k.val, by have := k.isLt; omega⟩) 0 \ ∅) (fun d => (rsRd (F := F) m).payload (cellAt t ⟨76 + k.val, by have := k.isLt; omega⟩) 0 d) = pts (r4H (yqF t) k 0) t shF (r4 m t) := by
  rw [Finset.sdiff_empty, duties_a8 m t k hk, bigSep_singleton, payload_a8 m t k hk]

/-! ### Array 9, at 84 + k — receive semaphores of the left halves forwarded through z: the left half of the diagonal quarter's chunk -/

theorem dmaPay_a9 (k : Fin 8) (hk : 3 ≤ k.val) : dmaPay m t (84 + k.val) = pts (r4H (dqF t) k 0) t fullShare (r4 m t) := by
  simp only [dmaPay, kind_a9 k hk]; rw [f8_val]
theorem duties_a9 (k : Fin 8) (hk : 3 ≤ k.val) : (rsRd (F := F) m).duties (cellAt t ⟨84 + k.val, by have := k.isLt; omega⟩) 0 = {0} :=
  duties_some m t _ (by show (kindOf (84 + k.val)).isSome = true; rw [kind_a9 k hk]; rfl)
theorem amount_a9 (k : Fin 8) (hk : 3 ≤ k.val) (d : DD) : (rsRd (F := F) m).amount (cellAt t ⟨84 + k.val, by have := k.isLt; omega⟩) 0 d = NH :=
  amount_kind m t _ 9 k.val (kind_a9 k hk) d
theorem expect_a9 (k : Fin 8) (hk : 3 ≤ k.val) : (rsRd (F := F) m).expect (cellAt t ⟨84 + k.val, by have := k.isLt; omega⟩) 0 = NH :=
  expect_kind m t _ 9 k.val (kind_a9 k hk)
theorem payload_a9 (k : Fin 8) (hk : 3 ≤ k.val) (d : DD) : (rsRd (F := F) m).payload (cellAt t ⟨84 + k.val, by have := k.isLt; omega⟩) 0 d = pts (r4H (dqF t) k 0) t fullShare (r4 m t) :=
  dmaPay_a9 m t k hk
theorem rest_a9 (k : Fin 8) (hk : 3 ≤ k.val) : bigSep ((rsRd (F := F) m).duties (cellAt t ⟨84 + k.val, by have := k.isLt; omega⟩) 0 \ ∅) (fun d => (rsRd (F := F) m).payload (cellAt t ⟨84 + k.val, by have := k.isLt; omega⟩) 0 d) = pts (r4H (dqF t) k 0) t fullShare (r4 m t) := by
  rw [Finset.sdiff_empty, duties_a9 m t k hk, bigSep_singleton, payload_a9 m t k hk]

/-! ### Array 10, at 92 + k — send semaphores of the right halves forwarded through y: the share of the z-neighbour's chunk lent to the forward -/

theorem dmaPay_a10 (k : Fin 8) (hk : 3 ≤ k.val) : dmaPay m t (92 + k.val) = pts (r4H (zqF t) k 1) t shF (r4 m t) := by
  simp only [dmaPay, kind_a10 k hk]; rw [f8_val]
theorem duties_a10 (k : Fin 8) (hk : 3 ≤ k.val) : (rsRd (F := F) m).duties (cellAt t ⟨92 + k.val, by have := k.isLt; omega⟩) 0 = {0} :=
  duties_some m t _ (by show (kindOf (92 + k.val)).isSome = true; rw [kind_a10 k hk]; rfl)
theorem amount_a10 (k : Fin 8) (hk : 3 ≤ k.val) (d : DD) : (rsRd (F := F) m).amount (cellAt t ⟨92 + k.val, by have := k.isLt; omega⟩) 0 d = NH :=
  amount_kind m t _ 10 k.val (kind_a10 k hk) d
theorem expect_a10 (k : Fin 8) (hk : 3 ≤ k.val) : (rsRd (F := F) m).expect (cellAt t ⟨92 + k.val, by have := k.isLt; omega⟩) 0 = NH :=
  expect_kind m t _ 10 k.val (kind_a10 k hk)
theorem payload_a10 (k : Fin 8) (hk : 3 ≤ k.val) (d : DD) : (rsRd (F := F) m).payload (cellAt t ⟨92 + k.val, by have := k.isLt; omega⟩) 0 d = pts (r4H (zqF t) k 1) t shF (r4 m t) :=
  dmaPay_a10 m t k hk
theorem rest_a10 (k : Fin 8) (hk : 3 ≤ k.val) : bigSep ((rsRd (F := F) m).duties (cellAt t ⟨92 + k.val, by have := k.isLt; omega⟩) 0 \ ∅) (fun d => (rsRd (F := F) m).payload (cellAt t ⟨92 + k.val, by have := k.isLt; omega⟩) 0 d) = pts (r4H (zqF t) k 1) t shF (r4 m t) := by
  rw [Finset.sdiff_empty, duties_a10 m t k hk, bigSep_singleton, payload_a10 m t k hk]

/-! ### Array 11, at 100 + k — receive semaphores of the right halves forwarded through y: the right half of the diagonal quarter's chunk -/

theorem dmaPay_a11 (k : Fin 8) (hk : 3 ≤ k.val) : dmaPay m t (100 + k.val) = pts (r4H (dqF t) k 1) t fullShare (r4 m t) := by
  simp only [dmaPay, kind_a11 k hk]; rw [f8_val]
theorem duties_a11 (k : Fin 8) (hk : 3 ≤ k.val) : (rsRd (F := F) m).duties (cellAt t ⟨100 + k.val, by have := k.isLt; omega⟩) 0 = {0} :=
  duties_some m t _ (by show (kindOf (100 + k.val)).isSome = true; rw [kind_a11 k hk]; rfl)
theorem amount_a11 (k : Fin 8) (hk : 3 ≤ k.val) (d : DD) : (rsRd (F := F) m).amount (cellAt t ⟨100 + k.val, by have := k.isLt; omega⟩) 0 d = NH :=
  amount_kind m t _ 11 k.val (kind_a11 k hk) d
theorem expect_a11 (k : Fin 8) (hk : 3 ≤ k.val) : (rsRd (F := F) m).expect (cellAt t ⟨100 + k.val, by have := k.isLt; omega⟩) 0 = NH :=
  expect_kind m t _ 11 k.val (kind_a11 k hk)
theorem payload_a11 (k : Fin 8) (hk : 3 ≤ k.val) (d : DD) : (rsRd (F := F) m).payload (cellAt t ⟨100 + k.val, by have := k.isLt; omega⟩) 0 d = pts (r4H (dqF t) k 1) t fullShare (r4 m t) :=
  dmaPay_a11 m t k hk
theorem rest_a11 (k : Fin 8) (hk : 3 ≤ k.val) : bigSep ((rsRd (F := F) m).duties (cellAt t ⟨100 + k.val, by have := k.isLt; omega⟩) 0 \ ∅) (fun d => (rsRd (F := F) m).payload (cellAt t ⟨100 + k.val, by have := k.isLt; omega⟩) 0 d) = pts (r4H (dqF t) k 1) t fullShare (r4 m t) := by
  rw [Finset.sdiff_empty, duties_a11 m t k hk, bigSep_singleton, payload_a11 m t k hk]

end Dma

/-! ## The same for a semaphore given as any place j of the pool with j = b(a) + k -/

section DmaAt
variable (t : Dev nD)

theorem duties_a0_at (j : Fin 140) (k : Fin 8) (hj : j.val = 22 + k.val) : (rsRd (F := F) m).duties (cellAt t j) 0 = {0} := by
  obtain ⟨v, hv⟩ := j; subst hj; exact duties_a0 m t k
theorem amount_a0_at (j : Fin 140) (k : Fin 8) (hj : j.val = 22 + k.val) (d : DD) : (rsRd (F := F) m).amount (cellAt t j) 0 d = NA := by
  obtain ⟨v, hv⟩ := j; subst hj; exact amount_a0 m t k d
theorem expect_a0_at (j : Fin 140) (k : Fin 8) (hj : j.val = 22 + k.val) : (rsRd (F := F) m).expect (cellAt t j) 0 = NA := by
  obtain ⟨v, hv⟩ := j; subst hj; exact expect_a0 m t k
theorem payload_a0_at (j : Fin 140) (k : Fin 8) (hj : j.val = 22 + k.val) (d : DD) : (rsRd (F := F) m).payload (cellAt t j) 0 d = pts (sbR k) t fullShare (sb m t) := by
  obtain ⟨v, hv⟩ := j; subst hj; exact payload_a0 m t k d
theorem rest_a0_at (j : Fin 140) (k : Fin 8) (hj : j.val = 22 + k.val) : bigSep ((rsRd (F := F) m).duties (cellAt t j) 0 \ ∅) (fun d => (rsRd (F := F) m).payload (cellAt t j) 0 d) = pts (sbR k) t fullShare (sb m t) := by
  obtain ⟨v, hv⟩ := j; subst hj; exact rest_a0 m t k

theorem duties_a1_at (j : Fin 140) (k : Fin 8) (hj : j.val = 30 + k.val) : (rsRd (F := F) m).duties (cellAt t j) 0 = {0} := by
  obtain ⟨v, hv⟩ := j; subst hj; exact duties_a1 m t k
theorem amount_a1_at (j : Fin 140) (k : Fin 8) (hj : j.val = 30 + k.val) (d : DD) : (rsRd (F := F) m).amount (cellAt t j) 0 d = NA := by
  obtain ⟨v, hv⟩ := j; subst hj; exact amount_a1 m t k d
theorem expect_a1_at (j : Fin 140) (k : Fin 8) (hj : j.val = 30 + k.val) : (rsRd (F := F) m).expect (cellAt t j) 0 = NA := by
  obtain ⟨v, hv⟩ := j; subst hj; exact expect_a1 m t k
theorem payload_a1_at (j : Fin 140) (k : Fin 8) (hj : j.val = 30 + k.val) (d : DD) : (rsRd (F := F) m).payload (cellAt t j) 0 d = pts (rbR k) t fullShare (rb m t) := by
  obtain ⟨v, hv⟩ := j; subst hj; exact payload_a1 m t k d
theorem rest_a1_at (j : Fin 140) (k : Fin 8) (hj : j.val = 30 + k.val) : bigSep ((rsRd (F := F) m).duties (cellAt t j) 0 \ ∅) (fun d => (rsRd (F := F) m).payload (cellAt t j) 0 d) = pts (rbR k) t fullShare (rb m t) := by
  obtain ⟨v, hv⟩ := j; subst hj; exact rest_a1 m t k

theorem duties_a2_at (j : Fin 140) (k : Fin 3) (hj : j.val = 38 + k.val) : (rsRd (F := F) m).duties (cellAt t j) 0 = {0} := by
  obtain ⟨v, hv⟩ := j; subst hj; exact duties_a2 m t k
theorem amount_a2_at (j : Fin 140) (k : Fin 3) (hj : j.val = 38 + k.val) (d : DD) : (rsRd (F := F) m).amount (cellAt t j) 0 d = NA := by
  obtain ⟨v, hv⟩ := j; subst hj; exact amount_a2 m t k d
theorem expect_a2_at (j : Fin 140) (k : Fin 3) (hj : j.val = 38 + k.val) : (rsRd (F := F) m).expect (cellAt t j) 0 = NA := by
  obtain ⟨v, hv⟩ := j; subst hj; exact expect_a2 m t k
theorem payload_a2_at (j : Fin 140) (k : Fin 3) (hj : j.val = 38 + k.val) (d : DD) : (rsRd (F := F) m).payload (cellAt t j) 0 d = pts (sb2R k) t fullShare (sb2 m t) := by
  obtain ⟨v, hv⟩ := j; subst hj; exact payload_a2 m t k d
theorem rest_a2_at (j : Fin 140) (k : Fin 3) (hj : j.val = 38 + k.val) : bigSep ((rsRd (F := F) m).duties (cellAt t j) 0 \ ∅) (fun d => (rsRd (F := F) m).payload (cellAt t j) 0 d) = pts (sb2R k) t fullShare (sb2 m t) := by
  obtain ⟨v, hv⟩ := j; subst hj; exact rest_a2 m t k

theorem duties_a3_at (j : Fin 140) (k : Fin 3) (hj : j.val = 41 + k.val) : (rsRd (F := F) m).duties (cellAt t j) 0 = {0} := by
  obtain ⟨v, hv⟩ := j; subst hj; exact duties_a3 m t k
theorem amount_a3_at (j : Fin 140) (k : Fin 3) (hj : j.val = 41 + k.val) (d : DD) : (rsRd (F := F) m).amount (cellAt t j) 0 d = NA := by
  obtain ⟨v, hv⟩ := j; subst hj; exact amount_a3 m t k d
theorem expect_a3_at (j : Fin 140) (k : Fin 3) (hj : j.val = 41 + k.val) : (rsRd (F := F) m).expect (cellAt t j) 0 = NA := by
  obtain ⟨v, hv⟩ := j; subst hj; exact expect_a3 m t k
theorem payload_a3_at (j : Fin 140) (k : Fin 3) (hj : j.val = 41 + k.val) (d : DD) : (rsRd (F := F) m).payload (cellAt t j) 0 d = pts (rb2R k) t fullShare (rb2 m t) := by
  obtain ⟨v, hv⟩ := j; subst hj; exact payload_a3 m t k d
theorem rest_a3_at (j : Fin 140) (k : Fin 3) (hj : j.val = 41 + k.val) : bigSep ((rsRd (F := F) m).duties (cellAt t j) 0 \ ∅) (fun d => (rsRd (F := F) m).payload (cellAt t j) 0 d) = pts (rb2R k) t fullShare (rb2 m t) := by
  obtain ⟨v, hv⟩ := j; subst hj; exact rest_a3 m t k

theorem duties_a4_at (j : Fin 140) (k : Fin 8) (hj : j.val = 44 + k.val) : (rsRd (F := F) m).duties (cellAt t j) 0 = {0} := by
  obtain ⟨v, hv⟩ := j; subst hj; exact duties_a4 m t k
theorem amount_a4_at (j : Fin 140) (k : Fin 8) (hj : j.val = 44 + k.val) (d : DD) : (rsRd (F := F) m).amount (cellAt t j) 0 d = NA := by
  obtain ⟨v, hv⟩ := j; subst hj; exact amount_a4 m t k d
theorem expect_a4_at (j : Fin 140) (k : Fin 8) (hj : j.val = 44 + k.val) : (rsRd (F := F) m).expect (cellAt t j) 0 = NA := by
  obtain ⟨v, hv⟩ := j; subst hj; exact expect_a4 m t k
theorem payload_a4_at (j : Fin 140) (k : Fin 8) (hj : j.val = 44 + k.val) (d : DD) : (rsRd (F := F) m).payload (cellAt t j) 0 d = pts (r4R (mqF t) k) t shZ (r4 m t) := by
  obtain ⟨v, hv⟩ := j; subst hj; exact payload_a4 m t k d
theorem rest_a4_at (j : Fin 140) (k : Fin 8) (hj : j.val = 44 + k.val) : bigSep ((rsRd (F := F) m).duties (cellAt t j) 0 \ ∅) (fun d => (rsRd (F := F) m).payload (cellAt t j) 0 d) = pts (r4R (mqF t) k) t shZ (r4 m t) := by
  obtain ⟨v, hv⟩ := j; subst hj; exact rest_a4 m t k

theorem duties_a5_at (j : Fin 140) (k : Fin 8) (hj : j.val = 52 + k.val) : (rsRd (F := F) m).duties (cellAt t j) 0 = {0} := by
  obtain ⟨v, hv⟩ := j; subst hj; exact duties_a5 m t k
theorem amount_a5_at (j : Fin 140) (k : Fin 8) (hj : j.val = 52 + k.val) (d : DD) : (rsRd (F := F) m).amount (cellAt t j) 0 d = NA := by
  obtain ⟨v, hv⟩ := j; subst hj; exact amount_a5 m t k d
theorem expect_a5_at (j : Fin 140) (k : Fin 8) (hj : j.val = 52 + k.val) : (rsRd (F := F) m).expect (cellAt t j) 0 = NA := by
  obtain ⟨v, hv⟩ := j; subst hj; exact expect_a5 m t k
theorem payload_a5_at (j : Fin 140) (k : Fin 8) (hj : j.val = 52 + k.val) (d : DD) : (rsRd (F := F) m).payload (cellAt t j) 0 d = pts (r4R (zqF t) k) t fullShare (r4 m t) := by
  obtain ⟨v, hv⟩ := j; subst hj; exact payload_a5 m t k d
theorem rest_a5_at (j : Fin 140) (k : Fin 8) (hj : j.val = 52 + k.val) : bigSep ((rsRd (F := F) m).duties (cellAt t j) 0 \ ∅) (fun d => (rsRd (F := F) m).payload (cellAt t j) 0 d) = pts (r4R (zqF t) k) t fullShare (r4 m t) := by
  obtain ⟨v, hv⟩ := j; subst hj; exact rest_a5 m t k

theorem duties_a6_at (j : Fin 140) (k : Fin 8) (hj : j.val = 60 + k.val) : (rsRd (F := F) m).duties (cellAt t j) 0 = {0} := by
  obtain ⟨v, hv⟩ := j; subst hj; exact duties_a6 m t k
theorem amount_a6_at (j : Fin 140) (k : Fin 8) (hj : j.val = 60 + k.val) (d : DD) : (rsRd (F := F) m).amount (cellAt t j) 0 d = NA := by
  obtain ⟨v, hv⟩ := j; subst hj; exact amount_a6 m t k d
theorem expect_a6_at (j : Fin 140) (k : Fin 8) (hj : j.val = 60 + k.val) : (rsRd (F := F) m).expect (cellAt t j) 0 = NA := by
  obtain ⟨v, hv⟩ := j; subst hj; exact expect_a6 m t k
theorem payload_a6_at (j : Fin 140) (k : Fin 8) (hj : j.val = 60 + k.val) (d : DD) : (rsRd (F := F) m).payload (cellAt t j) 0 d = pts (r4R (mqF t) k) t shY (r4 m t) := by
  obtain ⟨v, hv⟩ := j; subst hj; exact payload_a6 m t k d
theorem rest_a6_at (j : Fin 140) (k : Fin 8) (hj : j.val = 60 + k.val) : bigSep ((rsRd (F := F) m).duties (cellAt t j) 0 \ ∅) (fun d => (rsRd (F := F) m).payload (cellAt t j) 0 d) = pts (r4R (mqF t) k) t shY (r4 m t) := by
  obtain ⟨v, hv⟩ := j; subst hj; exact rest_a6 m t k

theorem duties_a7_at (j : Fin 140) (k : Fin 8) (hj : j.val = 68 + k.val) : (rsRd (F := F) m).duties (cellAt t j) 0 = {0} := by
  obtain ⟨v, hv⟩ := j; subst hj; exact duties_a7 m t k
theorem amount_a7_at (j : Fin 140) (k : Fin 8) (hj : j.val = 68 + k.val) (d : DD) : (rsRd (F := F) m).amount (cellAt t j) 0 d = NA := by
  obtain ⟨v, hv⟩ := j; subst hj; exact amount_a7 m t k d
theorem expect_a7_at (j : Fin 140) (k : Fin 8) (hj : j.val = 68 + k.val) : (rsRd (F := F) m).expect (cellAt t j) 0 = NA := by
  obtain ⟨v, hv⟩ := j; subst hj; exact expect_a7 m t k
theorem payload_a7_at (j : Fin 140) (k : Fin 8) (hj : j.val = 68 + k.val) (d : DD) : (rsRd (F := F) m).payload (cellAt t j) 0 d = pts (r4R (yqF t) k) t fullShare (r4 m t) := by
  obtain ⟨v, hv⟩ := j; subst hj; exact payload_a7 m t k d
theorem rest_a7_at (j : Fin 140) (k : Fin 8) (hj : j.val = 68 + k.val) : bigSep ((rsRd (F := F) m).duties (cellAt t j) 0 \ ∅) (fun d => (rsRd (F := F) m).payload (cellAt t j) 0 d) = pts (r4R (yqF t) k) t fullShare (r4 m t) := by
  obtain ⟨v, hv⟩ := j; subst hj; exact rest_a7 m t k

theorem duties_a8_at (j : Fin 140) (k : Fin 8) (hj : j.val = 76 + k.val) (hk : 3 ≤ k.val) : (rsRd (F := F) m).duties (cellAt t j) 0 = {0} := by
  obtain ⟨v, hv⟩ := j; subst hj; exact duties_a8 m t k hk
theorem amount_a8_at (j : Fin 140) (k : Fin 8) (hj : j.val = 76 + k.val) (hk : 3 ≤ k.val) (d : DD) : (rsRd (F := F) m).amount (cellAt t j) 0 d = NH := by
  obtain ⟨v, hv⟩ := j; subst hj; exact amount_a8 m t k hk d
theorem expect_a8_at (j : Fin 140) (k : Fin 8) (hj : j.val = 76 + k.val) (hk : 3 ≤ k.val) : (rsRd (F := F) m).expect (cellAt t j) 0 = NH := by
  obtain ⟨v, hv⟩ := j; subst hj; exact expect_a8 m t k hk
theorem payload_a8_at (j : Fin 140) (k : Fin 8) (hj : j.val = 76 + k.val) (hk : 3 ≤ k.val) (d : DD) : (rsRd (F := F) m).payload (cellAt t j) 0 d = pts (r4H (yqF t) k 0) t shF (r4 m t) := by
  obtain ⟨v, hv⟩ := j; subst hj; exact payload_a8 m t k hk d
theorem rest_a8_at (j : Fin 140) (k : Fin 8) (hj : j.val = 76 + k.val) (hk : 3 ≤ k.val) : bigSep ((rsRd (F := F) m).duties (cellAt t j) 0 \ ∅) (fun d => (rsRd (F := F) m).payload (cellAt t j) 0 d) = pts (r4H (yqF t) k 0) t shF (r4 m t) := by
  obtain ⟨v, hv⟩ := j; subst hj; exact rest_a8 m t k hk

theorem duties_a9_at (j : Fin 140) (k : Fin 8) (hj : j.val = 84 + k.val) (hk : 3 ≤ k.val) : (rsRd (F := F) m).duties (cellAt t j) 0 = {0} := by
  obtain ⟨v, hv⟩ := j; subst hj; exact duties_a9 m t k hk
theorem amount_a9_at (j : Fin 140) (k : Fin 8) (hj : j.val = 84 + k.val) (hk : 3 ≤ k.val) (d : DD) : (rsRd (F := F) m).amount (cellAt t j) 0 d = NH := by
  obtain ⟨v, hv⟩ := j; subst hj; exact amount_a9 m t k hk d
theorem expect_a9_at (j : Fin 140) (k : Fin 8) (hj : j.val = 84 + k.val) (hk : 3 ≤ k.val) : (rsRd (F := F) m).expect (cellAt t j) 0 = NH := by
  obtain ⟨v, hv⟩ := j; subst hj; exact expect_a9 m t k hk
theorem payload_a9_at (j : Fin 140) (k : Fin 8) (hj : j.val = 84 + k.val) (hk : 3 ≤ k.val) (d : DD) : (rsRd (F := F) m).payload (cellAt t j) 0 d = pts (r4H (dqF t) k 0) t fullShare (r4 m t) := by
  obtain ⟨v, hv⟩ := j; subst hj; exact payload_a9 m t k hk d
theorem rest_a9_at (j : Fin 140) (k : Fin 8) (hj : j.val = 84 + k.val) (hk : 3 ≤ k.val) : bigSep ((rsRd (F := F) m).duties (cellAt t j) 0 \ ∅) (fun d => (rsRd (F := F) m).payload (cellAt t j) 0 d) = pts (r4H (dqF t) k 0) t fullShare (r4 m t) := by
  obtain ⟨v, hv⟩ := j; subst hj; exact rest_a9 m t k hk

theorem duties_a10_at (j : Fin 140) (k : Fin 8) (hj : j.val = 92 + k.val) (hk : 3 ≤ k.val) : (rsRd (F := F) m).duties (cellAt t j) 0 = {0} := by
  obtain ⟨v, hv⟩ := j; subst hj; exact duties_a10 m t k hk
theorem amount_a10_at (j : Fin 140) (k : Fin 8) (hj : j.val = 92 + k.val) (hk : 3 ≤ k.val) (d : DD) : (rsRd (F := F) m).amount (cellAt t j) 0 d = NH := by
  obtain ⟨v, hv⟩ := j; subst hj; exact amount_a10 m t k hk d
theorem expect_a10_at (j : Fin 140) (k : Fin 8) (hj : j.val = 92 + k.val) (hk : 3 ≤ k.val) : (rsRd (F := F) m).expect (cellAt t j) 0 = NH := by
  obtain ⟨v, hv⟩ := j; subst hj; exact expect_a10 m t k hk
theorem payload_a10_at (j : Fin 140) (k : Fin 8) (hj : j.val = 92 + k.val) (hk : 3 ≤ k.val) (d : DD) : (rsRd (F := F) m).payload (cellAt t j) 0 d = pts (r4H (zqF t) k 1) t shF (r4 m t) := by
  obtain ⟨v, hv⟩ := j; subst hj; exact payload_a10 m t k hk d
theorem rest_a10_at (j : Fin 140) (k : Fin 8) (hj : j.val = 92 + k.val) (hk : 3 ≤ k.val) : bigSep ((rsRd (F := F) m).duties (cellAt t j) 0 \ ∅) (fun d => (rsRd (F := F) m).payload (cellAt t j) 0 d) = pts (r4H (zqF t) k 1) t shF (r4 m t) := by
  obtain ⟨v, hv⟩ := j; subst hj; exact rest_a10 m t k hk

theorem duties_a11_at (j : Fin 140) (k : Fin 8) (hj : j.val = 100 + k.val) (hk : 3 ≤ k.val) : (rsRd (F := F) m).duties (cellAt t j) 0 = {0} := by
  obtain ⟨v, hv⟩ := j; subst hj; exact duties_a11 m t k hk
theorem amount_a11_at (j : Fin 140) (k : Fin 8) (hj : j.val = 100 + k.val) (hk : 3 ≤ k.val) (d : DD) : (rsRd (F := F) m).amount (cellAt t j) 0 d = NH := by
  obtain ⟨v, hv⟩ := j; subst hj; exact amount_a11 m t k hk d
theorem expect_a11_at (j : Fin 140) (k : Fin 8) (hj : j.val = 100 + k.val) (hk : 3 ≤ k.val) : (rsRd (F := F) m).expect (cellAt t j) 0 = NH := by
  obtain ⟨v, hv⟩ := j; subst hj; exact expect_a11 m t k hk
theorem payload_a11_at (j : Fin 140) (k : Fin 8) (hj : j.val = 100 + k.val) (hk : 3 ≤ k.val) (d : DD) : (rsRd (F := F) m).payload (cellAt t j) 0 d = pts (r4H (dqF t) k 1) t fullShare (r4 m t) := by
  obtain ⟨v, hv⟩ := j; subst hj; exact payload_a11 m t k hk d
theorem rest_a11_at (j : Fin 140) (k : Fin 8) (hj : j.val = 100 + k.val) (hk : 3 ≤ k.val) : bigSep ((rsRd (F := F) m).duties (cellAt t j) 0 \ ∅) (fun d => (rsRd (F := F) m).payload (cellAt t j) 0 d) = pts (r4H (dqF t) k 1) t fullShare (r4 m t) := by
  obtain ⟨v, hv⟩ := j; subst hj; exact rest_a11 m t k hk

end DmaAt

/-! ## Membership; no cell is unitless -/

section Mem
variable (t : Dev nD)

theorem mem_bar (d : DD) : d ∈ (rsRd (F := F) m).duties (barCell t) 0 := by rw [duties_bar]; exact Finset.mem_univ d
theorem mem_some (j : Fin 140) (h : (kindOf j.val).isSome = true) : (0 : DD) ∈ (rsRd (F := F) m).duties (cellAt t j) 0 := by
  rw [duties_some m t j h]; exact Finset.mem_singleton_self 0
theorem not_unitless (g : GSem nD τ sig) : ¬ (rsRd (F := F) m).unitless g := fun h => h
theorem mem_a0_at (j : Fin 140) (k : Fin 8) (hj : j.val = 22 + k.val) : (0 : DD) ∈ (rsRd (F := F) m).duties (cellAt t j) 0 := by
  rw [duties_a0_at m t j k hj]; exact Finset.mem_singleton_self 0
theorem mem_a1_at (j : Fin 140) (k : Fin 8) (hj : j.val = 30 + k.val) : (0 : DD) ∈ (rsRd (F := F) m).duties (cellAt t j) 0 := by
  rw [duties_a1_at m t j k hj]; exact Finset.mem_singleton_self 0
theorem mem_a2_at (j : Fin 140) (k : Fin 3) (hj : j.val = 38 + k.val) : (0 : DD) ∈ (rsRd (F := F) m).duties (cellAt t j) 0 := by
  rw [duties_a2_at m t j k hj]; exact Finset.mem_singleton_self 0
theorem mem_a3_at (j : Fin 140) (k : Fin 3) (hj : j.val = 41 + k.val) : (0 : DD) ∈ (rsRd (F := F) m).duties (cellAt t j) 0 := by
  rw [duties_a3_at m t j k hj]; exact Finset.mem_singleton_self 0
theorem mem_a4_at (j : Fin 140) (k : Fin 8) (hj : j.val = 44 + k.val) : (0 : DD) ∈ (rsRd (F := F) m).duties (cellAt t j) 0 := by
  rw [duties_a4_at m t j k hj]; exact Finset.mem_singleton_self 0
theorem mem_a5_at (j : Fin 140) (k : Fin 8) (hj : j.val = 52 + k.val) : (0 : DD) ∈ (rsRd (F := F) m).duties (cellAt t j) 0 := by
  rw [duties_a5_at m t j k hj]; exact Finset.mem_singleton_self 0
theorem mem_a6_at (j : Fin 140) (k : Fin 8) (hj : j.val = 60 + k.val) : (0 : DD) ∈ (rsRd (F := F) m).duties (cellAt t j) 0 := by
  rw [duties_a6_at m t j k hj]; exact Finset.mem_singleton_self 0
theorem mem_a7_at (j : Fin 140) (k : Fin 8) (hj : j.val = 68 + k.val) : (0 : DD) ∈ (rsRd (F := F) m).duties (cellAt t j) 0 := by
  rw [duties_a7_at m t j k hj]; exact Finset.mem_singleton_self 0
theorem mem_a8_at (j : Fin 140) (k : Fin 8) (hj : j.val = 76 + k.val) (hk : 3 ≤ k.val) : (0 : DD) ∈ (rsRd (F := F) m).duties (cellAt t j) 0 := by
  rw [duties_a8_at m t j k hj hk]; exact Finset.mem_singleton_self 0
theorem mem_a9_at (j : Fin 140) (k : Fin 8) (hj : j.val = 84 + k.val) (hk : 3 ≤ k.val) : (0 : DD) ∈ (rsRd (F := F) m).duties (cellAt t j) 0 := by
  rw [duties_a9_at m t j k hj hk]; exact Finset.mem_singleton_self 0
theorem mem_a10_at (j : Fin 140) (k : Fin 8) (hj : j.val = 92 + k.val) (hk : 3 ≤ k.val) : (0 : DD) ∈ (rsRd (F := F) m).duties (cellAt t j) 0 := by
  rw [duties_a10_at m t j k hj hk]; exact Finset.mem_singleton_self 0
theorem mem_a11_at (j : Fin 140) (k : Fin 8) (hj : j.val = 100 + k.val) (hk : 3 ≤ k.val) : (0 : DD) ∈ (rsRd (F := F) m).duties (cellAt t j) 0 := by
  rw [duties_a11_at m t j k hj hk]; exact Finset.mem_singleton_self 0

end Mem

/-! ## Credits: what a landing in a chunk adds to its semaphores -/

theorem NA_pos : 0 < NA := View.dmaCredit_pos _ (by decide)
theorem NH_pos : 0 < NH := View.dmaCredit_pos _ (by decide)

theorem credit_sbR (k : Fin 8) : (sbR k).view.dmaCredit = NA := rfl
theorem credit_rbR (k : Fin 8) : (rbR k).view.dmaCredit = NA := rfl
theorem credit_sb2R (k : Fin 3) : (sb2R k).view.dmaCredit = NA := rfl
theorem credit_rb2R (k : Fin 3) : (rb2R k).view.dmaCredit = NA := rfl
theorem credit_r4R (q : Fin 4) (k : Fin 8) : (r4R q k).view.dmaCredit = NA := rfl
theorem credit_r4H (q : Fin 4) (k : Fin 8) (h : Fin 2) : (r4H q k h).view.dmaCredit = NH := rfl

/-- What a landing in the chunk adds on any semaphore of the pool. -/
theorem amount_sbR (k : Fin 8) (j : Fin 140) : (sbR k).view.amount (dsem j) = NA := rfl
theorem amount_rbR (k : Fin 8) (j : Fin 140) : (rbR k).view.amount (dsem j) = NA := rfl
theorem amount_sb2R (k : Fin 3) (j : Fin 140) : (sb2R k).view.amount (dsem j) = NA := rfl
theorem amount_rb2R (k : Fin 3) (j : Fin 140) : (rb2R k).view.amount (dsem j) = NA := rfl
theorem amount_r4R (q : Fin 4) (k : Fin 8) (j : Fin 140) : (r4R q k).view.amount (dsem j) = NA := rfl
theorem amount_r4H (q : Fin 4) (k : Fin 8) (h : Fin 2) (j : Fin 140) : (r4H q k h).view.amount (dsem j) = NH := rfl

/-! ## The tables as rewriting rules, entry on the left -/

attribute [sl_rounds] duties_bar amount_bar expect_bar payload_bar
  duties_a0 amount_a0 expect_a0 payload_a0 duties_a1 amount_a1 expect_a1 payload_a1 duties_a2 amount_a2 expect_a2 payload_a2 duties_a3 amount_a3 expect_a3 payload_a3
  duties_a4 amount_a4 expect_a4 payload_a4 duties_a5 amount_a5 expect_a5 payload_a5 duties_a6 amount_a6 expect_a6 payload_a6 duties_a7 amount_a7 expect_a7 payload_a7
  duties_a8 amount_a8 expect_a8 payload_a8 duties_a9 amount_a9 expect_a9 payload_a9 duties_a10 amount_a10 expect_a10 payload_a10 duties_a11 amount_a11 expect_a11 payload_a11

end Cert.Kernel.RS

end
-- ==== Proof.K.SendRules.lean ====
import proofs.«901022_g7700000000001023_dist_rs_v7x_xyz2x2x2_x_m4096_n1024_bf16_1_alg».proof.Proof.K.SchedTab
import Idealize.ShloMosaic.Rules.PointsTo
import Idealize.ShloMosaic.Lib.Pipeline.Value
import Idealize.ShloMosaic.Lib.ValueLayout
import Idealize.ShloMosaic.Lib.Rounds

/-! The rule for a remote chunk copy under the one-round schedule, and what each kind of copy lands.
    A copy reads the source chunk under each index of the chunk's shape and writes it under the same index of the
    destination chunk; source and destination chunks are the same rectangle of buffers of one shape, so on the
    destination chunk's elements the result is the source buffer's contents at the same coordinates — and those are
    the receiver's final contents there (Spec). -/

noncomputable section

namespace Cert.Kernel.RS

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A copy between two views indexed by one shape: on the destination's elements the result is any g that, under
    each index, holds what the source holds under that index. -/
theorem copy_on {κ κ' : Kind} {sp sp' : Space} {s : Shape} {e : EltTy} {Val : EltTy → Type}
    (vs : View sig κ sp s e) (vd : View sig κ' sp' s e) (fs : vs.ty.Contents Val) (fd g : vd.ty.Contents Val)
    (h : ∀ x : s.Idx, g (vd.emb x) = cast (congrArg Val vd.elt_eq.symm) (cast (congrArg Val vs.elt_eq) (fs (vs.emb x)))) :
    ∀ i ∈ vd.set, vd.write Val fd (vs.read Val fs) Finset.univ i = g i := by
  intro i hi
  obtain ⟨x, rfl⟩ := View.exists_emb_of_mem_set vd hi
  rw [View.write_emb_of_mem _ _ (Finset.mem_univ x), View.read_apply, h]

/-- Entry (q, i, j) of the four quarters device t finally holds, by coordinates. -/
def r4v (t : Dev nD) (q i j : ℕ) : F .bf16 :=
  if q = dq t ∧ i < 1536 then cellv m t (dq t) i j else cellv m (ownerOf t q) q i j

theorem r4_eq (t : Dev nD) (y : S4x4096x256.Idx) : r4 m t y = r4v m t (y 0).val (y 1).val (y 2).val := rfl

/-- Off the rows a device adds up itself of its diagonal quarter, an entry is its owner's sum. -/
theorem r4v_owner (t : Dev nD) (q i j : ℕ) (h : q ≠ dq t ∨ 1536 ≤ i) : r4v m t q i j = cellv m (ownerOf t q) q i j := by
  unfold r4v; rw [if_neg]; rintro ⟨h1, h2⟩; rcases h with h | h
  · exact h h1
  · omega

/-- The element of the four-quarter buffer under index x of chunk k of quarter q. -/
theorem r4R_emb (q : Fin 4) (k : Fin 8) (x : S512x256.Idx) :
    (((r4R q k).view.emb x : S4x4096x256.Idx) 0).val = q.val
      ∧ (((r4R q k).view.emb x : S4x4096x256.Idx) 1).val = 512 * k.val + (x 0).val
      ∧ (((r4R q k).view.emb x : S4x4096x256.Idx) 2).val = (x 1).val := by
  obtain ⟨a, b, rfl⟩ : ∃ a b, x = ix2 a b := ⟨x 0, x 1, eq_ix2 x⟩
  show (((Rect.unit (s := S4x4096x256) ![q.val, 512 * k.val, 0] S1x512x256.size (chunk_inb q k)).emb (Shape.reshapeEquiv squeezes_S1x512x256_S512x256.numel_eq (ix2 a b))) 0).val = _
    ∧ (((Rect.unit (s := S4x4096x256) ![q.val, 512 * k.val, 0] S1x512x256.size (chunk_inb q k)).emb (Shape.reshapeEquiv squeezes_S1x512x256_S512x256.numel_eq (ix2 a b))) 1).val = _
    ∧ (((Rect.unit (s := S4x4096x256) ![q.val, 512 * k.val, 0] S1x512x256.size (chunk_inb q k)).emb (Shape.reshapeEquiv squeezes_S1x512x256_S512x256.numel_eq (ix2 a b))) 2).val = _
  rw [reshapeEquiv_ix2_1ab]
  refine ⟨?_, ?_, ?_⟩
  · show q.val + 1 * 0 = q.val; omega
  · show 512 * k.val + 1 * a.val = 512 * k.val + a.val; omega
  · show 0 + 1 * b.val = b.val; omega

theorem r4H_emb (q : Fin 4) (k : Fin 8) (h : Fin 2) (x : S512x128.Idx) :
    (((r4H q k h).view.emb x : S4x4096x256.Idx) 0).val = q.val
      ∧ (((r4H q k h).view.emb x : S4x4096x256.Idx) 1).val = 512 * k.val + (x 0).val
      ∧ (((r4H q k h).view.emb x : S4x4096x256.Idx) 2).val = 128 * h.val + (x 1).val := by
  obtain ⟨a, b, rfl⟩ : ∃ a b, x = ix2 a b := ⟨x 0, x 1, eq_ix2 x⟩
  show (((Rect.unit (s := S4x4096x256) ![q.val, 512 * k.val, 128 * h.val] S1x512x128.size (half_inb q k h)).emb (Shape.reshapeEquiv squeezes_S1x512x128_S512x128.numel_eq (ix2 a b))) 0).val = _
    ∧ (((Rect.unit (s := S4x4096x256) ![q.val, 512 * k.val, 128 * h.val] S1x512x128.size (half_inb q k h)).emb (Shape.reshapeEquiv squeezes_S1x512x128_S512x128.numel_eq (ix2 a b))) 1).val = _
    ∧ (((Rect.unit (s := S4x4096x256) ![q.val, 512 * k.val, 128 * h.val] S1x512x128.size (half_inb q k h)).emb (Shape.reshapeEquiv squeezes_S1x512x128_S512x128.numel_eq (ix2 a b))) 2).val = _
  rw [reshapeEquiv_ix2_1ab]
  refine ⟨?_, ?_, ?_⟩
  · show q.val + 1 * 0 = q.val; omega
  · show 512 * k.val + 1 * a.val = 512 * k.val + a.val; omega
  · show 128 * h.val + 1 * b.val = 128 * h.val + b.val; omega

/-- What a device holds under index x of a chunk, and of a half chunk, of its four-quarter buffer. -/
theorem r4_r4R (t : Dev nD) (q : Fin 4) (k : Fin 8) (x : S512x256.Idx) :
    r4 m t ((r4R q k).view.emb x) = r4v m t q.val (512 * k.val + (x 0).val) (x 1).val := by
  obtain ⟨h0, h1, h2⟩ := r4R_emb q k x
  exact (r4_eq m t _).trans (by rw [h0, h1, h2])

theorem r4_r4H (t : Dev nD) (q : Fin 4) (k : Fin 8) (h : Fin 2) (x : S512x128.Idx) :
    r4 m t ((r4H q k h).view.emb x) = r4v m t q.val (512 * k.val + (x 0).val) (128 * h.val + (x 1).val) := by
  obtain ⟨h0, h1, h2⟩ := r4H_emb q k h x
  exact (r4_eq m t _).trans (by rw [h0, h1, h2])

/-! ## What lands, per kind of copy: on the destination chunk's elements, the receiver's final contents -/

/-- Who adds up which quarter, seen from a device and from its two neighbours in the (y, z) plane. -/
theorem own_mq (c : Dev nD) : ownerOf c (mq c) = c := by revert c; decide
theorem own_pz_mq (c : Dev nD) : ownerOf (pz c) (mq c) = c := by revert c; decide
theorem own_py_mq (c : Dev nD) : ownerOf (py c) (mq c) = c := by revert c; decide
theorem own_yq (c : Dev nD) : ownerOf c (yq c) = py c := by revert c; decide
theorem own_pz_yq (c : Dev nD) : ownerOf (pz c) (yq c) = py c := by revert c; decide
theorem own_zq (c : Dev nD) : ownerOf c (zq c) = pz c := by revert c; decide
theorem own_py_zq (c : Dev nD) : ownerOf (py c) (zq c) = pz c := by revert c; decide
theorem mq_ne_dq_pz (c : Dev nD) : mq c ≠ dq (pz c) := by revert c; decide
theorem mq_ne_dq_py (c : Dev nD) : mq c ≠ dq (py c) := by revert c; decide

/-- The quarters as indices, across a neighbour. -/
theorem zqF_pz (c : Dev nD) : zqF (pz c) = mqF c := Fin.ext (zq_pz c)
theorem yqF_py (c : Dev nD) : yqF (py c) = mqF c := Fin.ext (yq_py c)
theorem dqF_pz (c : Dev nD) : dqF (pz c) = yqF c := Fin.ext (dq_pz c)
theorem dqF_py (c : Dev nD) : dqF (py c) = zqF c := Fin.ext (dq_py c)

/-- Across x: chunk k of the travelling buffer lands as chunk k of the neighbour's landing buffer. -/
theorem land_x (c : Dev nD) (k : Fin 8) (fd : Buf (Elt F) ((rbR k).view.loc (px c : Thread nD τ))) :
    ∀ i ∈ (rbR k).view.set, (rbR k).view.write (Elt F) fd ((sbR k).view.read (Elt F) (sb m c)) Finset.univ i = rb m (px c) i := by
  refine copy_on (sbR k).view (rbR k).view (sb m c) fd (rb m (px c)) (fun x => ?_)
  show rb m (px c) ((rbR k).view.emb x) = sb m c ((sbR k).view.emb x)
  unfold rb; rw [px_px]; rfl

/-- The same for the three-chunk siblings. -/
theorem land_x2 (c : Dev nD) (k : Fin 3) (fd : Buf (Elt F) ((rb2R k).view.loc (px c : Thread nD τ))) :
    ∀ i ∈ (rb2R k).view.set, (rb2R k).view.write (Elt F) fd ((sb2R k).view.read (Elt F) (sb2 m c)) Finset.univ i = rb2 m (px c) i := by
  refine copy_on (sb2R k).view (rb2R k).view (sb2 m c) fd (rb2 m (px c)) (fun x => ?_)
  show rb2 m (px c) ((rb2R k).view.emb x) = sb2 m c ((sb2R k).view.emb x)
  unfold rb2; rw [px_px]; rfl

/-- Across z: a device's own quarter is the quarter its z-neighbour holds for it. -/
theorem land_z (c : Dev nD) (k : Fin 8) (fd : Buf (Elt F) ((r4R (mqF c) k).view.loc (pz c : Thread nD τ))) :
    ∀ i ∈ (r4R (mqF c) k).view.set,
      (r4R (mqF c) k).view.write (Elt F) fd ((r4R (mqF c) k).view.read (Elt F) (r4 m c)) Finset.univ i = r4 m (pz c) i := by
  refine copy_on (r4R (mqF c) k).view (r4R (mqF c) k).view (r4 m c) fd (r4 m (pz c)) (fun x => ?_)
  show r4 m (pz c) ((r4R (mqF c) k).view.emb x) = r4 m c ((r4R (mqF c) k).view.emb x)
  rw [r4_r4R, r4_r4R]
  show r4v m (pz c) (mq c) _ _ = r4v m c (mq c) _ _
  rw [r4v_owner m (pz c) _ _ _ (Or.inl (mq_ne_dq_pz c)), r4v_owner m c _ _ _ (Or.inl (quarters c).2.2.1)]
  show cellv m (ownerOf (pz c) (mq c)) _ _ _ = cellv m (ownerOf c (mq c)) _ _ _
  rw [own_pz_mq, own_mq]

/-- Across y likewise. -/
theorem land_y (c : Dev nD) (k : Fin 8) (fd : Buf (Elt F) ((r4R (mqF c) k).view.loc (py c : Thread nD τ))) :
    ∀ i ∈ (r4R (mqF c) k).view.set,
      (r4R (mqF c) k).view.write (Elt F) fd ((r4R (mqF c) k).view.read (Elt F) (r4 m c)) Finset.univ i = r4 m (py c) i := by
  refine copy_on (r4R (mqF c) k).view (r4R (mqF c) k).view (r4 m c) fd (r4 m (py c)) (fun x => ?_)
  show r4 m (py c) ((r4R (mqF c) k).view.emb x) = r4 m c ((r4R (mqF c) k).view.emb x)
  rw [r4_r4R, r4_r4R]
  show r4v m (py c) (mq c) _ _ = r4v m c (mq c) _ _
  rw [r4v_owner m (py c) _ _ _ (Or.inl (mq_ne_dq_py c)), r4v_owner m c _ _ _ (Or.inl (quarters c).2.2.1)]
  show cellv m (ownerOf (py c) (mq c)) _ _ _ = cellv m (ownerOf c (mq c)) _ _ _
  rw [own_py_mq, own_mq]

/-- Forwarded through z: the left half of a chunk (rows from 1536 on) of the y-neighbour's quarter is, at the
    z-neighbour, the left half of that chunk of its diagonal quarter. -/
theorem land_zf (c : Dev nD) (k : Fin 8) (hk : 3 ≤ k.val) (fd : Buf (Elt F) ((r4H (yqF c) k 0).view.loc (pz c : Thread nD τ))) :
    ∀ i ∈ (r4H (yqF c) k 0).view.set,
      (r4H (yqF c) k 0).view.write (Elt F) fd ((r4H (yqF c) k 0).view.read (Elt F) (r4 m c)) Finset.univ i = r4 m (pz c) i := by
  refine copy_on (r4H (yqF c) k 0).view (r4H (yqF c) k 0).view (r4 m c) fd (r4 m (pz c)) (fun x => ?_)
  show r4 m (pz c) ((r4H (yqF c) k 0).view.emb x) = r4 m c ((r4H (yqF c) k 0).view.emb x)
  rw [r4_r4H, r4_r4H, r4v_owner m (pz c) _ _ _ (Or.inr (by omega)), r4v_owner m c _ _ _ (Or.inr (by omega))]
  show cellv m (ownerOf (pz c) (yq c)) _ _ _ = cellv m (ownerOf c (yq c)) _ _ _
  rw [own_pz_yq, own_yq]

/-- Forwarded through y: the right half of a chunk of the z-neighbour's quarter likewise. -/
theorem land_yf (c : Dev nD) (k : Fin 8) (hk : 3 ≤ k.val) (fd : Buf (Elt F) ((r4H (zqF c) k 1).view.loc (py c : Thread nD τ))) :
    ∀ i ∈ (r4H (zqF c) k 1).view.set,
      (r4H (zqF c) k 1).view.write (Elt F) fd ((r4H (zqF c) k 1).view.read (Elt F) (r4 m c)) Finset.univ i = r4 m (py c) i := by
  refine copy_on (r4H (zqF c) k 1).view (r4H (zqF c) k 1).view (r4 m c) fd (r4 m (py c)) (fun x => ?_)
  show r4 m (py c) ((r4H (zqF c) k 1).view.emb x) = r4 m c ((r4H (zqF c) k 1).view.emb x)
  rw [r4_r4H, r4_r4H, r4v_owner m (py c) _ _ _ (Or.inr (by omega)), r4v_owner m c _ _ _ (Or.inr (by omega))]
  show cellv m (ownerOf (py c) (zq c)) _ _ _ = cellv m (ownerOf c (zq c)) _ _ _
  rw [own_py_zq, own_zq]

/-- The library's rule for an addressed copy at this protocol's cells: sender c, receiver n = p (substituted), source
    chunk src lent at share q, destination chunk dst on p owned outright; one duty on the sender's cell js and one on the
    receiver's cell jr, both of the chunk's credit N. -/
theorem send_chunk {s : Shape} {e : EltTy} (c n p : Dev nD) (hn : n = p)
    (src dst : Memref sig .tc .vmem s e) (js jr : Fin 140)
    {hsc : (dst : Memref sig (Dev.tc n : Thread nD τ).2.kind .vmem s e).view.ref.isScScratch = false}
    {hsrc : src.view.WordExact} {hdst : dst.view.WordExact}
    {hsem : DmaTarget.Typed .vmem (.dma jr) (.remote (Dev.tc n : Thread nD τ) dst (.dma js) hsc)}
    {α : Type} {Q : α → sProp 𝕄} {k : PUnit → Prog (TpuEff nD τ sig (Elt F) Λ₀ .tc) α}
    {q : PosShare TreeShare} (fs : Buf (Elt F) (src.view.loc (c : Thread nD τ))) (fd : Buf (Elt F) (dst.view.loc (p : Thread nD τ)))
    {κ₁ κ₂ : ℕ} (N : ℕ) (hN : dst.view.dmaCredit = N)
    (hd₁ : (0 : DD) ∈ (rsRd m).duties (cellAt c js) 0) (hd₂ : (0 : DD) ∈ (rsRd m).duties (cellAt p jr) 0)
    (hk₁ : (rsRd m).amount (cellAt c js) 0 0 = N) (hk₂ : (rsRd m).amount (cellAt p jr) 0 0 = N)
    {O₀ : CellTallies nD τ sig Unit} (O : CellTallies nD τ sig Unit) (hO : O₀ = O + tallyAt (cellAt p jr) () N) (W : Waits sig Unit)
    (hpay₁ : pts src c q fs ⊢ (rsRd m).payload (cellAt c js) 0 0)
    (hpay₂ : pts dst p fullShare (dst.view.write (Elt F) fd (src.view.read (Elt F) fs) Finset.univ) ⊢ (rsRd m).payload (cellAt p jr) 0 0) :
    iprop(cellInv ER (rsRd m) κ₁ (cellAt c js) ∗ cellInv ER (rsRd m) κ₂ (cellAt p jr)
        ∗ pts src c q fs ∗ pts dst p fullShare fd
        ∗ owes (c : Thread nD τ) O₀ W
        ∗ dutyTok ER (cellAt c js) 0 0 ∗ reached ER (cellAt c js) 0
        ∗ dutyTok ER (cellAt p jr) 0 0 ∗ reached ER (cellAt p jr) 0)
      ⊢ iprop(((cred (tallyAt (cellAt c js) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma js) hsc) (.dma jr) hsrc hdst hsem) k) Q) := by
  subst hn
  exact Rounds.wp_send_pointsTo 𝒱₀ ER (rsRd m) (c : Thread nD τ) none (κ₁ := κ₁) (κ₂ := κ₂)
    (r₁ := 0) (r₂ := 0) (d₁ := 0) (d₂ := 0) (fd := fd) hd₁ hd₂ () () N hN hk₁ hk₂ O hO (W := W) hpay₁ hpay₂

/-! ## The six kinds of copy -/

/-- The places in the pool of DMA semaphores of chunk k's send and receive semaphores, array by array. -/
abbrev jXS (k : Fin 8) : Fin 140 := ⟨22 + k.val, by omega⟩
abbrev jXR (k : Fin 8) : Fin 140 := ⟨30 + k.val, by omega⟩
abbrev jX2S (k : Fin 3) : Fin 140 := ⟨38 + k.val, by omega⟩
abbrev jX2R (k : Fin 3) : Fin 140 := ⟨41 + k.val, by omega⟩
abbrev jZS (k : Fin 8) : Fin 140 := ⟨44 + k.val, by omega⟩
abbrev jZR (k : Fin 8) : Fin 140 := ⟨52 + k.val, by omega⟩
abbrev jYS (k : Fin 8) : Fin 140 := ⟨60 + k.val, by omega⟩
abbrev jYR (k : Fin 8) : Fin 140 := ⟨68 + k.val, by omega⟩
abbrev jZFS (k : Fin 8) : Fin 140 := ⟨76 + k.val, by omega⟩
abbrev jZFR (k : Fin 8) : Fin 140 := ⟨84 + k.val, by omega⟩
abbrev jYFS (k : Fin 8) : Fin 140 := ⟨92 + k.val, by omega⟩
abbrev jYFR (k : Fin 8) : Fin 140 := ⟨100 + k.val, by omega⟩

theorem mem_zero_of_eq {S : Finset DD} (h : S = {0}) : (0 : DD) ∈ S := h ▸ Finset.mem_singleton_self _

/-- Across x: chunk k of the travelling buffer, lent whole, into chunk k of the neighbour's landing buffer. -/
theorem send_x (c n : Dev nD) (hn : n = px c) (k : Fin 8)
    {hsc : (rbR k : Memref sig (Dev.tc n : Thread nD τ).2.kind .vmem _ .bf16).view.ref.isScScratch = false}
    {hsrc : (sbR k).view.WordExact} {hdst : (rbR k).view.WordExact}
    {hsem : DmaTarget.Typed .vmem (.dma (jXR k)) (.remote (Dev.tc n : Thread nD τ) (rbR k) (.dma (jXS k)) hsc)}
    {α : Type} {Q : α → sProp 𝕄} {k' : PUnit → Prog (TpuEff nD τ sig (Elt F) Λ₀ .tc) α}
    (fd : Buf (Elt F) ((rbR k).view.loc (px c : Thread nD τ))) {κ₁ κ₂ : ℕ}
    {O₀ : CellTallies nD τ sig Unit} (O : CellTallies nD τ sig Unit) (hO : O₀ = O + tallyAt (cellAt (px c) (jXR k)) () NA) (W : Waits sig Unit) :
    iprop(cellInv ER (rsRd m) κ₁ (cellAt c (jXS k)) ∗ cellInv ER (rsRd m) κ₂ (cellAt (px c) (jXR k))
        ∗ pts (sbR k) c fullShare (sb m c) ∗ pts (rbR k) (px c) fullShare fd
        ∗ owes (c : Thread nD τ) O₀ W
        ∗ dutyTok ER (cellAt c (jXS k)) 0 0 ∗ reached ER (cellAt c (jXS k)) 0
        ∗ dutyTok ER (cellAt (px c) (jXR k)) 0 0 ∗ reached ER (cellAt (px c) (jXR k)) 0)
      ⊢ iprop(((cred (tallyAt (cellAt c (jXS k)) () NA) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (sbR k) (.remote (Dev.tc n : Thread nD τ) (rbR k) (.dma (jXS k)) hsc) (.dma (jXR k)) hsrc hdst hsem) k') Q) := by
  have hp₂ := payload_a1 m (px c) k 0
  exact send_chunk m c n (px c) hn (sbR k) (rbR k) (jXS k) (jXR k) (sb m c) fd NA rfl
    (mem_zero_of_eq (duties_a0 m c k)) (mem_zero_of_eq (duties_a1 m (px c) k))
    (amount_a0 m c k 0) (amount_a1 m (px c) k 0) O hO W
    (Entails.of_eq (payload_a0 m c k 0).symm)
    (Entails.of_eq ((pointsTo_congr (land_x m c k fd)).trans hp₂.symm))

/-- The same for the three-chunk siblings. -/
theorem send_x2 (c n : Dev nD) (hn : n = px c) (k : Fin 3)
    {hsc : (rb2R k : Memref sig (Dev.tc n : Thread nD τ).2.kind .vmem _ .bf16).view.ref.isScScratch = false}
    {hsrc : (sb2R k).view.WordExact} {hdst : (rb2R k).view.WordExact}
    {hsem : DmaTarget.Typed .vmem (.dma (jX2R k)) (.remote (Dev.tc n : Thread nD τ) (rb2R k) (.dma (jX2S k)) hsc)}
    {α : Type} {Q : α → sProp 𝕄} {k' : PUnit → Prog (TpuEff nD τ sig (Elt F) Λ₀ .tc) α}
    (fd : Buf (Elt F) ((rb2R k).view.loc (px c : Thread nD τ))) {κ₁ κ₂ : ℕ}
    {O₀ : CellTallies nD τ sig Unit} (O : CellTallies nD τ sig Unit) (hO : O₀ = O + tallyAt (cellAt (px c) (jX2R k)) () NA) (W : Waits sig Unit) :
    iprop(cellInv ER (rsRd m) κ₁ (cellAt c (jX2S k)) ∗ cellInv ER (rsRd m) κ₂ (cellAt (px c) (jX2R k))
        ∗ pts (sb2R k) c fullShare (sb2 m c) ∗ pts (rb2R k) (px c) fullShare fd
        ∗ owes (c : Thread nD τ) O₀ W
        ∗ dutyTok ER (cellAt c (jX2S k)) 0 0 ∗ reached ER (cellAt c (jX2S k)) 0
        ∗ dutyTok ER (cellAt (px c) (jX2R k)) 0 0 ∗ reached ER (cellAt (px c) (jX2R k)) 0)
      ⊢ iprop(((cred (tallyAt (cellAt c (jX2S k)) () NA) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (sb2R k) (.remote (Dev.tc n : Thread nD τ) (rb2R k) (.dma (jX2S k)) hsc) (.dma (jX2R k)) hsrc hdst hsem) k') Q) := by
  have hp₂ := payload_a3 m (px c) k 0
  exact send_chunk m c n (px c) hn (sb2R k) (rb2R k) (jX2S k) (jX2R k) (sb2 m c) fd NA rfl
    (mem_zero_of_eq (duties_a2 m c k)) (mem_zero_of_eq (duties_a3 m (px c) k))
    (amount_a2 m c k 0) (amount_a3 m (px c) k 0) O hO W
    (Entails.of_eq (payload_a2 m c k 0).symm)
    (Entails.of_eq ((pointsTo_congr (land_x2 m c k fd)).trans hp₂.symm))

/-- Across z: chunk k of a device's own quarter, lent at the z share, into the same chunk of the quarter its z-neighbour keeps for it. -/
theorem send_z (c n : Dev nD) (hn : n = pz c) (k : Fin 8)
    {hsc : (r4R (mqF c) k : Memref sig (Dev.tc n : Thread nD τ).2.kind .vmem _ .bf16).view.ref.isScScratch = false}
    {hsrc : (r4R (mqF c) k).view.WordExact} {hdst : (r4R (mqF c) k).view.WordExact}
    {hsem : DmaTarget.Typed .vmem (.dma (jZR k)) (.remote (Dev.tc n : Thread nD τ) (r4R (mqF c) k) (.dma (jZS k)) hsc)}
    {α : Type} {Q : α → sProp 𝕄} {k' : PUnit → Prog (TpuEff nD τ sig (Elt F) Λ₀ .tc) α}
    (fd : Buf (Elt F) ((r4R (mqF c) k).view.loc (pz c : Thread nD τ))) {κ₁ κ₂ : ℕ}
    {O₀ : CellTallies nD τ sig Unit} (O : CellTallies nD τ sig Unit) (hO : O₀ = O + tallyAt (cellAt (pz c) (jZR k)) () NA) (W : Waits sig Unit) :
    iprop(cellInv ER (rsRd m) κ₁ (cellAt c (jZS k)) ∗ cellInv ER (rsRd m) κ₂ (cellAt (pz c) (jZR k))
        ∗ pts (r4R (mqF c) k) c shZ (r4 m c) ∗ pts (r4R (mqF c) k) (pz c) fullShare fd
        ∗ owes (c : Thread nD τ) O₀ W
        ∗ dutyTok ER (cellAt c (jZS k)) 0 0 ∗ reached ER (cellAt c (jZS k)) 0
        ∗ dutyTok ER (cellAt (pz c) (jZR k)) 0 0 ∗ reached ER (cellAt (pz c) (jZR k)) 0)
      ⊢ iprop(((cred (tallyAt (cellAt c (jZS k)) () NA) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (r4R (mqF c) k) (.remote (Dev.tc n : Thread nD τ) (r4R (mqF c) k) (.dma (jZS k)) hsc) (.dma (jZR k)) hsrc hdst hsem) k') Q) := by
  have hp₂ := payload_a5 m (pz c) k 0
  rw [zqF_pz] at hp₂
  exact send_chunk m c n (pz c) hn (r4R (mqF c) k) (r4R (mqF c) k) (jZS k) (jZR k) (r4 m c) fd NA rfl
    (mem_zero_of_eq (duties_a4 m c k)) (mem_zero_of_eq (duties_a5 m (pz c) k))
    (amount_a4 m c k 0) (amount_a5 m (pz c) k 0) O hO W
    (Entails.of_eq (payload_a4 m c k 0).symm)
    (Entails.of_eq ((pointsTo_congr (land_z m c k fd)).trans hp₂.symm))

/-- Across y likewise, at the y share. -/
theorem send_y (c n : Dev nD) (hn : n = py c) (k : Fin 8)
    {hsc : (r4R (mqF c) k : Memref sig (Dev.tc n : Thread nD τ).2.kind .vmem _ .bf16).view.ref.isScScratch = false}
    {hsrc : (r4R (mqF c) k).view.WordExact} {hdst : (r4R (mqF c) k).view.WordExact}
    {hsem : DmaTarget.Typed .vmem (.dma (jYR k)) (.remote (Dev.tc n : Thread nD τ) (r4R (mqF c) k) (.dma (jYS k)) hsc)}
    {α : Type} {Q : α → sProp 𝕄} {k' : PUnit → Prog (TpuEff nD τ sig (Elt F) Λ₀ .tc) α}
    (fd : Buf (Elt F) ((r4R (mqF c) k).view.loc (py c : Thread nD τ))) {κ₁ κ₂ : ℕ}
    {O₀ : CellTallies nD τ sig Unit} (O : CellTallies nD τ sig Unit) (hO : O₀ = O + tallyAt (cellAt (py c) (jYR k)) () NA) (W : Waits sig Unit) :
    iprop(cellInv ER (rsRd m) κ₁ (cellAt c (jYS k)) ∗ cellInv ER (rsRd m) κ₂ (cellAt (py c) (jYR k))
        ∗ pts (r4R (mqF c) k) c shY (r4 m c) ∗ pts (r4R (mqF c) k) (py c) fullShare fd
        ∗ owes (c : Thread nD τ) O₀ W
        ∗ dutyTok ER (cellAt c (jYS k)) 0 0 ∗ reached ER (cellAt c (jYS k)) 0
        ∗ dutyTok ER (cellAt (py c) (jYR k)) 0 0 ∗ reached ER (cellAt (py c) (jYR k)) 0)
      ⊢ iprop(((cred (tallyAt (cellAt c (jYS k)) () NA) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (r4R (mqF c) k) (.remote (Dev.tc n : Thread nD τ) (r4R (mqF c) k) (.dma (jYS k)) hsc) (.dma (jYR k)) hsrc hdst hsem) k') Q) := by
  have hp₂ := payload_a7 m (py c) k 0
  rw [yqF_py] at hp₂
  exact send_chunk m c n (py c) hn (r4R (mqF c) k) (r4R (mqF c) k) (jYS k) (jYR k) (r4 m c) fd NA rfl
    (mem_zero_of_eq (duties_a6 m c k)) (mem_zero_of_eq (duties_a7 m (py c) k))
    (amount_a6 m c k 0) (amount_a7 m (py c) k 0) O hO W
    (Entails.of_eq (payload_a6 m c k 0).symm)
    (Entails.of_eq ((pointsTo_congr (land_y m c k fd)).trans hp₂.symm))

/-- Forwarded through z: the left half of chunk k ≥ 3 of the y-neighbour's quarter, lent at the forward share, into the z-neighbour's diagonal quarter. -/
theorem send_zf (c n : Dev nD) (hn : n = pz c) (k : Fin 8) (hk : 3 ≤ k.val)
    {hsc : (r4H (yqF c) k 0 : Memref sig (Dev.tc n : Thread nD τ).2.kind .vmem _ .bf16).view.ref.isScScratch = false}
    {hsrc : (r4H (yqF c) k 0).view.WordExact} {hdst : (r4H (yqF c) k 0).view.WordExact}
    {hsem : DmaTarget.Typed .vmem (.dma (jZFR k)) (.remote (Dev.tc n : Thread nD τ) (r4H (yqF c) k 0) (.dma (jZFS k)) hsc)}
    {α : Type} {Q : α → sProp 𝕄} {k' : PUnit → Prog (TpuEff nD τ sig (Elt F) Λ₀ .tc) α}
    (fd : Buf (Elt F) ((r4H (yqF c) k 0).view.loc (pz c : Thread nD τ))) {κ₁ κ₂ : ℕ}
    {O₀ : CellTallies nD τ sig Unit} (O : CellTallies nD τ sig Unit) (hO : O₀ = O + tallyAt (cellAt (pz c) (jZFR k)) () NH) (W : Waits sig Unit) :
    iprop(cellInv ER (rsRd m) κ₁ (cellAt c (jZFS k)) ∗ cellInv ER (rsRd m) κ₂ (cellAt (pz c) (jZFR k))
        ∗ pts (r4H (yqF c) k 0) c shF (r4 m c) ∗ pts (r4H (yqF c) k 0) (pz c) fullShare fd
        ∗ owes (c : Thread nD τ) O₀ W
        ∗ dutyTok ER (cellAt c (jZFS k)) 0 0 ∗ reached ER (cellAt c (jZFS k)) 0
        ∗ dutyTok ER (cellAt (pz c) (jZFR k)) 0 0 ∗ reached ER (cellAt (pz c) (jZFR k)) 0)
      ⊢ iprop(((cred (tallyAt (cellAt c (jZFS k)) () NH) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (r4H (yqF c) k 0) (.remote (Dev.tc n : Thread nD τ) (r4H (yqF c) k 0) (.dma (jZFS k)) hsc) (.dma (jZFR k)) hsrc hdst hsem) k') Q) := by
  have hp₂ := payload_a9 m (pz c) k hk 0
  rw [dqF_pz] at hp₂
  exact send_chunk m c n (pz c) hn (r4H (yqF c) k 0) (r4H (yqF c) k 0) (jZFS k) (jZFR k) (r4 m c) fd NH rfl
    (mem_zero_of_eq (duties_a8 m c k hk)) (mem_zero_of_eq (duties_a9 m (pz c) k hk))
    (amount_a8 m c k hk 0) (amount_a9 m (pz c) k hk 0) O hO W
    (Entails.of_eq (payload_a8 m c k hk 0).symm)
    (Entails.of_eq ((pointsTo_congr (land_zf m c k hk fd)).trans hp₂.symm))

/-- Forwarded through y: the right half of chunk k ≥ 3 of the z-neighbour's quarter likewise. -/
theorem send_yf (c n : Dev nD) (hn : n = py c) (k : Fin 8) (hk : 3 ≤ k.val)
    {hsc : (r4H (zqF c) k 1 : Memref sig (Dev.tc n : Thread nD τ).2.kind .vmem _ .bf16).view.ref.isScScratch = false}
    {hsrc : (r4H (zqF c) k 1).view.WordExact} {hdst : (r4H (zqF c) k 1).view.WordExact}
    {hsem : DmaTarget.Typed .vmem (.dma (jYFR k)) (.remote (Dev.tc n : Thread nD τ) (r4H (zqF c) k 1) (.dma (jYFS k)) hsc)}
    {α : Type} {Q : α → sProp 𝕄} {k' : PUnit → Prog (TpuEff nD τ sig (Elt F) Λ₀ .tc) α}
    (fd : Buf (Elt F) ((r4H (zqF c) k 1).view.loc (py c : Thread nD τ))) {κ₁ κ₂ : ℕ}
    {O₀ : CellTallies nD τ sig Unit} (O : CellTallies nD τ sig Unit) (hO : O₀ = O + tallyAt (cellAt (py c) (jYFR k)) () NH) (W : Waits sig Unit) :
    iprop(cellInv ER (rsRd m) κ₁ (cellAt c (jYFS k)) ∗ cellInv ER (rsRd m) κ₂ (cellAt (py c) (jYFR k))
        ∗ pts (r4H (zqF c) k 1) c shF (r4 m c) ∗ pts (r4H (zqF c) k 1) (py c) fullShare fd
        ∗ owes (c : Thread nD τ) O₀ W
        ∗ dutyTok ER (cellAt c (jYFS k)) 0 0 ∗ reached ER (cellAt c (jYFS k)) 0
        ∗ dutyTok ER (cellAt (py c) (jYFR k)) 0 0 ∗ reached ER (cellAt (py c) (jYFR k)) 0)
      ⊢ iprop(((cred (tallyAt (cellAt c (jYFS k)) () NH) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (r4H (zqF c) k 1) (.remote (Dev.tc n : Thread nD τ) (r4H (zqF c) k 1) (.dma (jYFS k)) hsc) (.dma (jYFR k)) hsrc hdst hsem) k') Q) := by
  have hp₂ := payload_a11 m (py c) k hk 0
  rw [dqF_py] at hp₂
  exact send_chunk m c n (py c) hn (r4H (zqF c) k 1) (r4H (zqF c) k 1) (jYFS k) (jYFR k) (r4 m c) fd NH rfl
    (mem_zero_of_eq (duties_a10 m c k hk)) (mem_zero_of_eq (duties_a11 m (py c) k hk))
    (amount_a10 m c k hk 0) (amount_a11 m (py c) k hk 0) O hO W
    (Entails.of_eq (payload_a10 m c k hk 0).symm)
    (Entails.of_eq ((pointsTo_congr (land_yf m c k hk fd)).trans hp₂.symm))

end Cert.Kernel.RS

end
-- ==== Proof.K.SendAt.lean ====
import proofs.«901022_g7700000000001023_dist_rs_v7x_xyz2x2x2_x_m4096_n1024_bf16_1_alg».proof.Proof.K.SendRules
import Idealize.ShloMosaic.Lib.Pipeline.Value
import Idealize.ShloMosaic.Lib.ValueLayout
import Idealize.ShloMosaic.Lib.Rounds

/-! The remote copies of the four-quarter buffer and the barrier signals, in the spelling the program has them:
    a chunk written as the slab at the offsets the program computes from the device's number, a neighbour written
    as the program's device chain, the signalled amount as the word the program passes. Each is the plain rule
    after the offsets, the device and the amount are replaced by what they equal. -/

noncomputable section

namespace Cert.Kernel.RS

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The copies of the four-quarter buffer, with the chunk named by the offsets the program computes -/

/-- The copy of chunk k of a device's own quarter across z, the chunk written as the slab at offsets off with its leading axis dropped. -/
theorem send_z_at (c n : Dev nD) (hn : n = pz c) (k : Fin 8) (off : Fin 3 → ℕ)
    (inb : ∀ a, off a + S1x512x256.size a ≤ S4x4096x256.size a) (h : off = ![mq c, 512 * k.val, 0])
    {hsc : (((Memref.whole cc0_scratch0 : Memref sig .tc .vmem S4x4096x256 .bf16).slice (Rect.unit (s := S4x4096x256) off S1x512x256.size inb) (fun _ => rfl)).squeeze S512x256 squeezes_S1x512x256_S512x256 : Memref sig (Dev.tc n : Thread nD τ).2.kind .vmem _ .bf16).view.ref.isScScratch = false}
    {hsrc : (((Memref.whole cc0_scratch0 : Memref sig .tc .vmem S4x4096x256 .bf16).slice (Rect.unit (s := S4x4096x256) off S1x512x256.size inb) (fun _ => rfl)).squeeze S512x256 squeezes_S1x512x256_S512x256).view.WordExact} {hdst : (((Memref.whole cc0_scratch0 : Memref sig .tc .vmem S4x4096x256 .bf16).slice (Rect.unit (s := S4x4096x256) off S1x512x256.size inb) (fun _ => rfl)).squeeze S512x256 squeezes_S1x512x256_S512x256).view.WordExact}
    {hsem : DmaTarget.Typed .vmem (.dma (jZR k)) (.remote (Dev.tc n : Thread nD τ) (((Memref.whole cc0_scratch0 : Memref sig .tc .vmem S4x4096x256 .bf16).slice (Rect.unit (s := S4x4096x256) off S1x512x256.size inb) (fun _ => rfl)).squeeze S512x256 squeezes_S1x512x256_S512x256) (.dma (jZS k)) hsc)}
    {α : Type} {Q : α → sProp 𝕄} {k' : PUnit → Prog (TpuEff nD τ sig (Elt F) Λ₀ .tc) α}
    (fd : Buf (Elt F) ((r4R (mqF c) k).view.loc (pz c : Thread nD τ))) {κ₁ κ₂ : ℕ}
    {O₀ : CellTallies nD τ sig Unit} (O : CellTallies nD τ sig Unit) (hO : O₀ = O + tallyAt (cellAt (pz c) (jZR k)) () NA) (W : Waits sig Unit) :
    iprop(cellInv ER (rsRd m) κ₁ (cellAt c (jZS k)) ∗ cellInv ER (rsRd m) κ₂ (cellAt (pz c) (jZR k))
        ∗ pts (r4R (mqF c) k) c shZ (r4 m c) ∗ pts (r4R (mqF c) k) (pz c) fullShare fd
        ∗ owes (c : Thread nD τ) O₀ W
        ∗ dutyTok ER (cellAt c (jZS k)) 0 0 ∗ reached ER (cellAt c (jZS k)) 0
        ∗ dutyTok ER (cellAt (pz c) (jZR k)) 0 0 ∗ reached ER (cellAt (pz c) (jZR k)) 0)
      ⊢ iprop(((cred (tallyAt (cellAt c (jZS k)) () NA) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (((Memref.whole cc0_scratch0 : Memref sig .tc .vmem S4x4096x256 .bf16).slice (Rect.unit (s := S4x4096x256) off S1x512x256.size inb) (fun _ => rfl)).squeeze S512x256 squeezes_S1x512x256_S512x256) (.remote (Dev.tc n : Thread nD τ) (((Memref.whole cc0_scratch0 : Memref sig .tc .vmem S4x4096x256 .bf16).slice (Rect.unit (s := S4x4096x256) off S1x512x256.size inb) (fun _ => rfl)).squeeze S512x256 squeezes_S1x512x256_S512x256) (.dma (jZS k)) hsc) (.dma (jZR k)) hsrc hdst hsem) k') Q) := by
  subst h
  exact send_z m c n hn k fd O hO W

/-- The same across y. -/
theorem send_y_at (c n : Dev nD) (hn : n = py c) (k : Fin 8) (off : Fin 3 → ℕ)
    (inb : ∀ a, off a + S1x512x256.size a ≤ S4x4096x256.size a) (h : off = ![mq c, 512 * k.val, 0])
    {hsc : (((Memref.whole cc0_scratch0 : Memref sig .tc .vmem S4x4096x256 .bf16).slice (Rect.unit (s := S4x4096x256) off S1x512x256.size inb) (fun _ => rfl)).squeeze S512x256 squeezes_S1x512x256_S512x256 : Memref sig (Dev.tc n : Thread nD τ).2.kind .vmem _ .bf16).view.ref.isScScratch = false}
    {hsrc : (((Memref.whole cc0_scratch0 : Memref sig .tc .vmem S4x4096x256 .bf16).slice (Rect.unit (s := S4x4096x256) off S1x512x256.size inb) (fun _ => rfl)).squeeze S512x256 squeezes_S1x512x256_S512x256).view.WordExact} {hdst : (((Memref.whole cc0_scratch0 : Memref sig .tc .vmem S4x4096x256 .bf16).slice (Rect.unit (s := S4x4096x256) off S1x512x256.size inb) (fun _ => rfl)).squeeze S512x256 squeezes_S1x512x256_S512x256).view.WordExact}
    {hsem : DmaTarget.Typed .vmem (.dma (jYR k)) (.remote (Dev.tc n : Thread nD τ) (((Memref.whole cc0_scratch0 : Memref sig .tc .vmem S4x4096x256 .bf16).slice (Rect.unit (s := S4x4096x256) off S1x512x256.size inb) (fun _ => rfl)).squeeze S512x256 squeezes_S1x512x256_S512x256) (.dma (jYS k)) hsc)}
    {α : Type} {Q : α → sProp 𝕄} {k' : PUnit → Prog (TpuEff nD τ sig (Elt F) Λ₀ .tc) α}
    (fd : Buf (Elt F) ((r4R (mqF c) k).view.loc (py c : Thread nD τ))) {κ₁ κ₂ : ℕ}
    {O₀ : CellTallies nD τ sig Unit} (O : CellTallies nD τ sig Unit) (hO : O₀ = O + tallyAt (cellAt (py c) (jYR k)) () NA) (W : Waits sig Unit) :
    iprop(cellInv ER (rsRd m) κ₁ (cellAt c (jYS k)) ∗ cellInv ER (rsRd m) κ₂ (cellAt (py c) (jYR k))
        ∗ pts (r4R (mqF c) k) c shY (r4 m c) ∗ pts (r4R (mqF c) k) (py c) fullShare fd
        ∗ owes (c : Thread nD τ) O₀ W
        ∗ dutyTok ER (cellAt c (jYS k)) 0 0 ∗ reached ER (cellAt c (jYS k)) 0
        ∗ dutyTok ER (cellAt (py c) (jYR k)) 0 0 ∗ reached ER (cellAt (py c) (jYR k)) 0)
      ⊢ iprop(((cred (tallyAt (cellAt c (jYS k)) () NA) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (((Memref.whole cc0_scratch0 : Memref sig .tc .vmem S4x4096x256 .bf16).slice (Rect.unit (s := S4x4096x256) off S1x512x256.size inb) (fun _ => rfl)).squeeze S512x256 squeezes_S1x512x256_S512x256) (.remote (Dev.tc n : Thread nD τ) (((Memref.whole cc0_scratch0 : Memref sig .tc .vmem S4x4096x256 .bf16).slice (Rect.unit (s := S4x4096x256) off S1x512x256.size inb) (fun _ => rfl)).squeeze S512x256 squeezes_S1x512x256_S512x256) (.dma (jYS k)) hsc) (.dma (jYR k)) hsrc hdst hsem) k') Q) := by
  subst h
  exact send_y m c n hn k fd O hO W

/-- The forward through z of the left half of chunk k ≥ 3 of the y-neighbour's quarter, written by its offsets. -/
theorem send_zf_at (c n : Dev nD) (hn : n = pz c) (k : Fin 8) (hk : 3 ≤ k.val) (off : Fin 3 → ℕ)
    (inb : ∀ a, off a + S1x512x128.size a ≤ S4x4096x256.size a) (h : off = ![yq c, 512 * k.val, 0])
    {hsc : (((Memref.whole cc0_scratch0 : Memref sig .tc .vmem S4x4096x256 .bf16).slice (Rect.unit (s := S4x4096x256) off S1x512x128.size inb) (fun _ => rfl)).squeeze S512x128 squeezes_S1x512x128_S512x128 : Memref sig (Dev.tc n : Thread nD τ).2.kind .vmem _ .bf16).view.ref.isScScratch = false}
    {hsrc : (((Memref.whole cc0_scratch0 : Memref sig .tc .vmem S4x4096x256 .bf16).slice (Rect.unit (s := S4x4096x256) off S1x512x128.size inb) (fun _ => rfl)).squeeze S512x128 squeezes_S1x512x128_S512x128).view.WordExact} {hdst : (((Memref.whole cc0_scratch0 : Memref sig .tc .vmem S4x4096x256 .bf16).slice (Rect.unit (s := S4x4096x256) off S1x512x128.size inb) (fun _ => rfl)).squeeze S512x128 squeezes_S1x512x128_S512x128).view.WordExact}
    {hsem : DmaTarget.Typed .vmem (.dma (jZFR k)) (.remote (Dev.tc n : Thread nD τ) (((Memref.whole cc0_scratch0 : Memref sig .tc .vmem S4x4096x256 .bf16).slice (Rect.unit (s := S4x4096x256) off S1x512x128.size inb) (fun _ => rfl)).squeeze S512x128 squeezes_S1x512x128_S512x128) (.dma (jZFS k)) hsc)}
    {α : Type} {Q : α → sProp 𝕄} {k' : PUnit → Prog (TpuEff nD τ sig (Elt F) Λ₀ .tc) α}
    (fd : Buf (Elt F) ((r4H (yqF c) k 0).view.loc (pz c : Thread nD τ))) {κ₁ κ₂ : ℕ}
    {O₀ : CellTallies nD τ sig Unit} (O : CellTallies nD τ sig Unit) (hO : O₀ = O + tallyAt (cellAt (pz c) (jZFR k)) () NH) (W : Waits sig Unit) :
    iprop(cellInv ER (rsRd m) κ₁ (cellAt c (jZFS k)) ∗ cellInv ER (rsRd m) κ₂ (cellAt (pz c) (jZFR k))
        ∗ pts (r4H (yqF c) k 0) c shF (r4 m c) ∗ pts (r4H (yqF c) k 0) (pz c) fullShare fd
        ∗ owes (c : Thread nD τ) O₀ W
        ∗ dutyTok ER (cellAt c (jZFS k)) 0 0 ∗ reached ER (cellAt c (jZFS k)) 0
        ∗ dutyTok ER (cellAt (pz c) (jZFR k)) 0 0 ∗ reached ER (cellAt (pz c) (jZFR k)) 0)
      ⊢ iprop(((cred (tallyAt (cellAt c (jZFS k)) () NH) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (((Memref.whole cc0_scratch0 : Memref sig .tc .vmem S4x4096x256 .bf16).slice (Rect.unit (s := S4x4096x256) off S1x512x128.size inb) (fun _ => rfl)).squeeze S512x128 squeezes_S1x512x128_S512x128) (.remote (Dev.tc n : Thread nD τ) (((Memref.whole cc0_scratch0 : Memref sig .tc .vmem S4x4096x256 .bf16).slice (Rect.unit (s := S4x4096x256) off S1x512x128.size inb) (fun _ => rfl)).squeeze S512x128 squeezes_S1x512x128_S512x128) (.dma (jZFS k)) hsc) (.dma (jZFR k)) hsrc hdst hsem) k') Q) := by
  subst h
  exact send_zf m c n hn k hk fd O hO W

/-- The forward through y of the right half of chunk k ≥ 3 of the z-neighbour's quarter, written by its offsets. -/
theorem send_yf_at (c n : Dev nD) (hn : n = py c) (k : Fin 8) (hk : 3 ≤ k.val) (off : Fin 3 → ℕ)
    (inb : ∀ a, off a + S1x512x128.size a ≤ S4x4096x256.size a) (h : off = ![zq c, 512 * k.val, 128])
    {hsc : (((Memref.whole cc0_scratch0 : Memref sig .tc .vmem S4x4096x256 .bf16).slice (Rect.unit (s := S4x4096x256) off S1x512x128.size inb) (fun _ => rfl)).squeeze S512x128 squeezes_S1x512x128_S512x128 : Memref sig (Dev.tc n : Thread nD τ).2.kind .vmem _ .bf16).view.ref.isScScratch = false}
    {hsrc : (((Memref.whole cc0_scratch0 : Memref sig .tc .vmem S4x4096x256 .bf16).slice (Rect.unit (s := S4x4096x256) off S1x512x128.size inb) (fun _ => rfl)).squeeze S512x128 squeezes_S1x512x128_S512x128).view.WordExact} {hdst : (((Memref.whole cc0_scratch0 : Memref sig .tc .vmem S4x4096x256 .bf16).slice (Rect.unit (s := S4x4096x256) off S1x512x128.size inb) (fun _ => rfl)).squeeze S512x128 squeezes_S1x512x128_S512x128).view.WordExact}
    {hsem : DmaTarget.Typed .vmem (.dma (jYFR k)) (.remote (Dev.tc n : Thread nD τ) (((Memref.whole cc0_scratch0 : Memref sig .tc .vmem S4x4096x256 .bf16).slice (Rect.unit (s := S4x4096x256) off S1x512x128.size inb) (fun _ => rfl)).squeeze S512x128 squeezes_S1x512x128_S512x128) (.dma (jYFS k)) hsc)}
    {α : Type} {Q : α → sProp 𝕄} {k' : PUnit → Prog (TpuEff nD τ sig (Elt F) Λ₀ .tc) α}
    (fd : Buf (Elt F) ((r4H (zqF c) k 1).view.loc (py c : Thread nD τ))) {κ₁ κ₂ : ℕ}
    {O₀ : CellTallies nD τ sig Unit} (O : CellTallies nD τ sig Unit) (hO : O₀ = O + tallyAt (cellAt (py c) (jYFR k)) () NH) (W : Waits sig Unit) :
    iprop(cellInv ER (rsRd m) κ₁ (cellAt c (jYFS k)) ∗ cellInv ER (rsRd m) κ₂ (cellAt (py c) (jYFR k))
        ∗ pts (r4H (zqF c) k 1) c shF (r4 m c) ∗ pts (r4H (zqF c) k 1) (py c) fullShare fd
        ∗ owes (c : Thread nD τ) O₀ W
        ∗ dutyTok ER (cellAt c (jYFS k)) 0 0 ∗ reached ER (cellAt c (jYFS k)) 0
        ∗ dutyTok ER (cellAt (py c) (jYFR k)) 0 0 ∗ reached ER (cellAt (py c) (jYFR k)) 0)
      ⊢ iprop(((cred (tallyAt (cellAt c (jYFS k)) () NH) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (((Memref.whole cc0_scratch0 : Memref sig .tc .vmem S4x4096x256 .bf16).slice (Rect.unit (s := S4x4096x256) off S1x512x128.size inb) (fun _ => rfl)).squeeze S512x128 squeezes_S1x512x128_S512x128) (.remote (Dev.tc n : Thread nD τ) (((Memref.whole cc0_scratch0 : Memref sig .tc .vmem S4x4096x256 .bf16).slice (Rect.unit (s := S4x4096x256) off S1x512x128.size inb) (fun _ => rfl)).squeeze S512x128 squeezes_S1x512x128_S512x128) (.dma (jYFS k)) hsc) (.dma (jYFR k)) hsrc hdst hsem) k') Q) := by
  subst h
  exact send_yf m c n hn k hk fd O hO W

/-- The offsets the program computes are of those forms: the first chunk of the own quarter and the first forwarded halves. -/
example (c : Dev nD) : k0_off24 c = ![mq c, 512 * (0 : Fin 8).val, 0] := k0_off24_eq c
example (c : Dev nD) : k0_off34 c = ![yq c, 512 * (3 : Fin 8).val, 0] := k0_off34_eq c
example (c : Dev nD) : k0_off33 c = ![zq c, 512 * (3 : Fin 8).val, 128] := k0_off33_eq c

/-! ## A barrier signal -/

/-- A barrier signal to the neighbour p, named in the program by a device chain n: it pays duty d of p's barrier cell
    and hands over that duty's payload. -/
theorem sig_bar (c n p : Dev nD) (hn : n = p) (d : DD) {κ : ℕ} {amt : ℕ} (ha : amt = 1)
    {α : Type} {Q : α → sProp 𝕄} {k' : PUnit → Prog (TpuEff nD τ sig (Elt F) Λ₀ .tc) α}
    {O₁ : CellTallies nD τ sig Unit} (O : CellTallies nD τ sig Unit) (hO : O₁ = O + tallyAt (barCell p) () 1) {W : Waits sig Unit} :
    iprop(cellInv ER (rsRd m) κ (barCell p) ∗ owes (c : Thread nD τ) O₁ W ∗ dutyTok ER (barCell p) 0 d
        ∗ barPay (F := F) p d ∗ reached ER (barCell p) 0)
      ⊢ iprop((owes (c : Thread nD τ) O W -∗ wp frame (wpE (defs₀ (F := F)) 𝒱₀ (c : Thread nD τ) none) Set.univ (k' ⟨⟩) Q)
          -∗ wp frame (wpE (defs₀ (F := F)) 𝒱₀ (c : Thread nD τ) none) Set.univ
              (.op (.semSignal ((n : Dev nD) : Thread nD τ) barS amt) k') Q) := by
  subst hn; subst ha
  exact Rounds.wp_signal 𝒱₀ ER (rsRd m) (c : Thread nD τ) none (dst := (n : Thread nD τ)) (sem := barS) (κ := κ) (r := 0)
    (d := d) ((duties_bar m n).symm ▸ Finset.mem_univ d) (amount_bar m n d) () O hO

end Cert.Kernel.RS

end
-- ==== Proof.K.WaitRules.lean ====
import proofs.«901022_g7700000000001023_dist_rs_v7x_xyz2x2x2_x_m4096_n1024_bf16_1_alg».proof.Proof.K.SchedTab
import proofs.«901022_g7700000000001023_dist_rs_v7x_xyz2x2x2_x_m4096_n1024_bf16_1_alg».proof.Proof.K.Records
import proofs.«901022_g7700000000001023_dist_rs_v7x_xyz2x2x2_x_m4096_n1024_bf16_1_alg».proof.Proof.K.Owed
import Idealize.ShloMosaic.Lib.Rounds

/-! The waits under the one-round schedule. A device waits on each of its cells once, for all the round expects: on
    the semaphore of a copy for the chunk's (or half chunk's) credit, on its barrier semaphore for 3. The wait ends the
    round — the cell stands at the start of round 1, which has no duty — and hands the device what the round's duties
    handed the cell: the chunk a landing filled, the share a departure lent, the three neighbours' hand-overs. A copy's
    cell, its only round over, is then closed: its counter, at zero, is the device's again. -/

noncomputable section

namespace Cert.Kernel.RS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The wait on a copy's semaphore, at any place of the pool -/

/-- A wait on cell j of device t for N, all that the cell's round expects, through a destination view of credit N:
    the round ends and the rest of its duties' hand-overs (no duty taken: all of them) come to the device. -/
theorem wait_cell (t : Dev nD) (j : Fin 140) (N : ℕ) (hE : (rsRd (F := F) m).expect (cellAt t j) 0 = N)
    {sp' sp : Space} {s' s : Shape} {e' e : EltTy} {κ' : Kind}
    {srcw : Memref sig .tc sp' s' e'} {dstw : Memref sig κ' sp s e}
    {hsrc : srcw.view.WordExact} {hdst : dstw.view.WordExact} (hN : dstw.view.dmaCredit = N)
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () N) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ bigSep ((rsRd (F := F) m).duties (cellAt t j) 0 \ ∅) (fun d => (rsRd (F := F) m).payload (cellAt t j) 0 d))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  subst hN
  exact Rounds.wp_wait_rest_token 𝒱₀ ER (rsRd m) (t : Thread nD τ) none (κ := κ)
    (wpE_waitDma2_eq 𝒱₀ (t : Thread nD τ) none Set.univ) (Set.mem_univ _) () (O := O) (W := W) (R := 0) (m := 0) (T := ∅)
    (by rw [Nat.zero_add, hE])

/-- A copy's cell after its wait: its one round over, the cell closes and its counter, at zero, is the device's. -/
theorem close_cell (t : Dev nD) (j : Fin 140) (h : (kindOf j.val).isSome = true) {κ : ℕ} :
    iprop(cellInv ER (rsRd m) κ (cellAt t j) ∗ atPos ER (cellAt t j) 1 ∅ 0) ⊢ iprop(|={Set.univ}=> semVal (cellAt t j) 0) :=
  Rounds.cell_close ER (rsRd m) (Set.mem_univ κ) (not_unitless m (cellAt t j)) (R := 1) (duties_later m (cellAt t j))

/-! ## Array by array: the wait hands the device the chunk (or the share) the cell's one duty handed the cell -/

/-- Array 0 (send): once chunk k has left, the share of the source chunk the copy was lent is the sender's again. -/
theorem wait_a0_at (t : Dev nD) (j : Fin 140) (k : Fin 8) (hj : j.val = 22 + k.val)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NA) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (sbR k) t fullShare (sb m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NA (expect_a0_at m t j k hj) (srcw := srcw) (dstw := dstw) (hsrc := hsrc) (hdst := hdst) rfl
    (Q := Q) (k' := k') (κ := κ) (O := O) (W := W)
  rw [rest_a0_at m t j k hj] at h
  exact h
theorem wait_a0 (t : Dev nD) (k : Fin 8)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨22 + k.val, by omega⟩ : Fin 140)) ∗ cred (tallyAt (cellAt t (⟨22 + k.val, by omega⟩ : Fin 140)) () NA) ∗ owes (t : Thread nD τ) O W
        ∗ MayWait (t : Thread nD τ) (dsem (⟨22 + k.val, by omega⟩ : Fin 140)) () O ∗ atPos ER (cellAt t (⟨22 + k.val, by omega⟩ : Fin 140)) 0 ∅ 0)
      ⊢ iprop(((owes (t : Thread nD τ) O (insert (dsem (⟨22 + k.val, by omega⟩ : Fin 140), ()) W)
              ∗ atPos ER (cellAt t (⟨22 + k.val, by omega⟩ : Fin 140)) 1 ∅ 0 ∗ reached ER (cellAt t (⟨22 + k.val, by omega⟩ : Fin 140)) 1
              ∗ pts (sbR k) t fullShare (sb m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨22 + k.val, by omega⟩ : Fin 140) srcw dstw hsrc hdst) k') Q) :=
  wait_a0_at m t _ k rfl

/-- Array 1 (receive): once chunk k has landed, the receiver holds the chunk, at its final contents. -/
theorem wait_a1_at (t : Dev nD) (j : Fin 140) (k : Fin 8) (hj : j.val = 30 + k.val)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NA) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (rbR k) t fullShare (rb m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NA (expect_a1_at m t j k hj) (srcw := srcw) (dstw := dstw) (hsrc := hsrc) (hdst := hdst) rfl
    (Q := Q) (k' := k') (κ := κ) (O := O) (W := W)
  rw [rest_a1_at m t j k hj] at h
  exact h
theorem wait_a1 (t : Dev nD) (k : Fin 8)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨30 + k.val, by omega⟩ : Fin 140)) ∗ cred (tallyAt (cellAt t (⟨30 + k.val, by omega⟩ : Fin 140)) () NA) ∗ owes (t : Thread nD τ) O W
        ∗ MayWait (t : Thread nD τ) (dsem (⟨30 + k.val, by omega⟩ : Fin 140)) () O ∗ atPos ER (cellAt t (⟨30 + k.val, by omega⟩ : Fin 140)) 0 ∅ 0)
      ⊢ iprop(((owes (t : Thread nD τ) O (insert (dsem (⟨30 + k.val, by omega⟩ : Fin 140), ()) W)
              ∗ atPos ER (cellAt t (⟨30 + k.val, by omega⟩ : Fin 140)) 1 ∅ 0 ∗ reached ER (cellAt t (⟨30 + k.val, by omega⟩ : Fin 140)) 1
              ∗ pts (rbR k) t fullShare (rb m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨30 + k.val, by omega⟩ : Fin 140) srcw dstw hsrc hdst) k') Q) :=
  wait_a1_at m t _ k rfl

/-- Array 2 (send): once chunk k has left, the share of the source chunk the copy was lent is the sender's again. -/
theorem wait_a2_at (t : Dev nD) (j : Fin 140) (k : Fin 3) (hj : j.val = 38 + k.val)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NA) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (sb2R k) t fullShare (sb2 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NA (expect_a2_at m t j k hj) (srcw := srcw) (dstw := dstw) (hsrc := hsrc) (hdst := hdst) rfl
    (Q := Q) (k' := k') (κ := κ) (O := O) (W := W)
  rw [rest_a2_at m t j k hj] at h
  exact h
theorem wait_a2 (t : Dev nD) (k : Fin 3)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨38 + k.val, by omega⟩ : Fin 140)) ∗ cred (tallyAt (cellAt t (⟨38 + k.val, by omega⟩ : Fin 140)) () NA) ∗ owes (t : Thread nD τ) O W
        ∗ MayWait (t : Thread nD τ) (dsem (⟨38 + k.val, by omega⟩ : Fin 140)) () O ∗ atPos ER (cellAt t (⟨38 + k.val, by omega⟩ : Fin 140)) 0 ∅ 0)
      ⊢ iprop(((owes (t : Thread nD τ) O (insert (dsem (⟨38 + k.val, by omega⟩ : Fin 140), ()) W)
              ∗ atPos ER (cellAt t (⟨38 + k.val, by omega⟩ : Fin 140)) 1 ∅ 0 ∗ reached ER (cellAt t (⟨38 + k.val, by omega⟩ : Fin 140)) 1
              ∗ pts (sb2R k) t fullShare (sb2 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨38 + k.val, by omega⟩ : Fin 140) srcw dstw hsrc hdst) k') Q) :=
  wait_a2_at m t _ k rfl

/-- Array 3 (receive): once chunk k has landed, the receiver holds the chunk, at its final contents. -/
theorem wait_a3_at (t : Dev nD) (j : Fin 140) (k : Fin 3) (hj : j.val = 41 + k.val)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NA) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (rb2R k) t fullShare (rb2 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NA (expect_a3_at m t j k hj) (srcw := srcw) (dstw := dstw) (hsrc := hsrc) (hdst := hdst) rfl
    (Q := Q) (k' := k') (κ := κ) (O := O) (W := W)
  rw [rest_a3_at m t j k hj] at h
  exact h
theorem wait_a3 (t : Dev nD) (k : Fin 3)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨41 + k.val, by omega⟩ : Fin 140)) ∗ cred (tallyAt (cellAt t (⟨41 + k.val, by omega⟩ : Fin 140)) () NA) ∗ owes (t : Thread nD τ) O W
        ∗ MayWait (t : Thread nD τ) (dsem (⟨41 + k.val, by omega⟩ : Fin 140)) () O ∗ atPos ER (cellAt t (⟨41 + k.val, by omega⟩ : Fin 140)) 0 ∅ 0)
      ⊢ iprop(((owes (t : Thread nD τ) O (insert (dsem (⟨41 + k.val, by omega⟩ : Fin 140), ()) W)
              ∗ atPos ER (cellAt t (⟨41 + k.val, by omega⟩ : Fin 140)) 1 ∅ 0 ∗ reached ER (cellAt t (⟨41 + k.val, by omega⟩ : Fin 140)) 1
              ∗ pts (rb2R k) t fullShare (rb2 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨41 + k.val, by omega⟩ : Fin 140) srcw dstw hsrc hdst) k') Q) :=
  wait_a3_at m t _ k rfl

/-- Array 4 (send): once chunk k has left, the share of the source chunk the copy was lent is the sender's again. -/
theorem wait_a4_at (t : Dev nD) (j : Fin 140) (k : Fin 8) (hj : j.val = 44 + k.val)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NA) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (r4R (mqF t) k) t shZ (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NA (expect_a4_at m t j k hj) (srcw := srcw) (dstw := dstw) (hsrc := hsrc) (hdst := hdst) rfl
    (Q := Q) (k' := k') (κ := κ) (O := O) (W := W)
  rw [rest_a4_at m t j k hj] at h
  exact h
theorem wait_a4 (t : Dev nD) (k : Fin 8)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨44 + k.val, by omega⟩ : Fin 140)) ∗ cred (tallyAt (cellAt t (⟨44 + k.val, by omega⟩ : Fin 140)) () NA) ∗ owes (t : Thread nD τ) O W
        ∗ MayWait (t : Thread nD τ) (dsem (⟨44 + k.val, by omega⟩ : Fin 140)) () O ∗ atPos ER (cellAt t (⟨44 + k.val, by omega⟩ : Fin 140)) 0 ∅ 0)
      ⊢ iprop(((owes (t : Thread nD τ) O (insert (dsem (⟨44 + k.val, by omega⟩ : Fin 140), ()) W)
              ∗ atPos ER (cellAt t (⟨44 + k.val, by omega⟩ : Fin 140)) 1 ∅ 0 ∗ reached ER (cellAt t (⟨44 + k.val, by omega⟩ : Fin 140)) 1
              ∗ pts (r4R (mqF t) k) t shZ (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨44 + k.val, by omega⟩ : Fin 140) srcw dstw hsrc hdst) k') Q) :=
  wait_a4_at m t _ k rfl

/-- Array 5 (receive): once chunk k has landed, the receiver holds the chunk, at its final contents. -/
theorem wait_a5_at (t : Dev nD) (j : Fin 140) (k : Fin 8) (hj : j.val = 52 + k.val)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NA) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (r4R (zqF t) k) t fullShare (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NA (expect_a5_at m t j k hj) (srcw := srcw) (dstw := dstw) (hsrc := hsrc) (hdst := hdst) rfl
    (Q := Q) (k' := k') (κ := κ) (O := O) (W := W)
  rw [rest_a5_at m t j k hj] at h
  exact h
theorem wait_a5 (t : Dev nD) (k : Fin 8)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨52 + k.val, by omega⟩ : Fin 140)) ∗ cred (tallyAt (cellAt t (⟨52 + k.val, by omega⟩ : Fin 140)) () NA) ∗ owes (t : Thread nD τ) O W
        ∗ MayWait (t : Thread nD τ) (dsem (⟨52 + k.val, by omega⟩ : Fin 140)) () O ∗ atPos ER (cellAt t (⟨52 + k.val, by omega⟩ : Fin 140)) 0 ∅ 0)
      ⊢ iprop(((owes (t : Thread nD τ) O (insert (dsem (⟨52 + k.val, by omega⟩ : Fin 140), ()) W)
              ∗ atPos ER (cellAt t (⟨52 + k.val, by omega⟩ : Fin 140)) 1 ∅ 0 ∗ reached ER (cellAt t (⟨52 + k.val, by omega⟩ : Fin 140)) 1
              ∗ pts (r4R (zqF t) k) t fullShare (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨52 + k.val, by omega⟩ : Fin 140) srcw dstw hsrc hdst) k') Q) :=
  wait_a5_at m t _ k rfl

/-- Array 6 (send): once chunk k has left, the share of the source chunk the copy was lent is the sender's again. -/
theorem wait_a6_at (t : Dev nD) (j : Fin 140) (k : Fin 8) (hj : j.val = 60 + k.val)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NA) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (r4R (mqF t) k) t shY (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NA (expect_a6_at m t j k hj) (srcw := srcw) (dstw := dstw) (hsrc := hsrc) (hdst := hdst) rfl
    (Q := Q) (k' := k') (κ := κ) (O := O) (W := W)
  rw [rest_a6_at m t j k hj] at h
  exact h
theorem wait_a6 (t : Dev nD) (k : Fin 8)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨60 + k.val, by omega⟩ : Fin 140)) ∗ cred (tallyAt (cellAt t (⟨60 + k.val, by omega⟩ : Fin 140)) () NA) ∗ owes (t : Thread nD τ) O W
        ∗ MayWait (t : Thread nD τ) (dsem (⟨60 + k.val, by omega⟩ : Fin 140)) () O ∗ atPos ER (cellAt t (⟨60 + k.val, by omega⟩ : Fin 140)) 0 ∅ 0)
      ⊢ iprop(((owes (t : Thread nD τ) O (insert (dsem (⟨60 + k.val, by omega⟩ : Fin 140), ()) W)
              ∗ atPos ER (cellAt t (⟨60 + k.val, by omega⟩ : Fin 140)) 1 ∅ 0 ∗ reached ER (cellAt t (⟨60 + k.val, by omega⟩ : Fin 140)) 1
              ∗ pts (r4R (mqF t) k) t shY (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨60 + k.val, by omega⟩ : Fin 140) srcw dstw hsrc hdst) k') Q) :=
  wait_a6_at m t _ k rfl

/-- Array 7 (receive): once chunk k has landed, the receiver holds the chunk, at its final contents. -/
theorem wait_a7_at (t : Dev nD) (j : Fin 140) (k : Fin 8) (hj : j.val = 68 + k.val)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NA) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (r4R (yqF t) k) t fullShare (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NA (expect_a7_at m t j k hj) (srcw := srcw) (dstw := dstw) (hsrc := hsrc) (hdst := hdst) rfl
    (Q := Q) (k' := k') (κ := κ) (O := O) (W := W)
  rw [rest_a7_at m t j k hj] at h
  exact h
theorem wait_a7 (t : Dev nD) (k : Fin 8)
    {sp' spw : Space} {s' : Shape} {e' : EltTy}
    {srcw : Memref sig .tc sp' s' e'} {dstw : Memref sig .tc spw S512x256 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨68 + k.val, by omega⟩ : Fin 140)) ∗ cred (tallyAt (cellAt t (⟨68 + k.val, by omega⟩ : Fin 140)) () NA) ∗ owes (t : Thread nD τ) O W
        ∗ MayWait (t : Thread nD τ) (dsem (⟨68 + k.val, by omega⟩ : Fin 140)) () O ∗ atPos ER (cellAt t (⟨68 + k.val, by omega⟩ : Fin 140)) 0 ∅ 0)
      ⊢ iprop(((owes (t : Thread nD τ) O (insert (dsem (⟨68 + k.val, by omega⟩ : Fin 140), ()) W)
              ∗ atPos ER (cellAt t (⟨68 + k.val, by omega⟩ : Fin 140)) 1 ∅ 0 ∗ reached ER (cellAt t (⟨68 + k.val, by omega⟩ : Fin 140)) 1
              ∗ pts (r4R (yqF t) k) t fullShare (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨68 + k.val, by omega⟩ : Fin 140) srcw dstw hsrc hdst) k') Q) :=
  wait_a7_at m t _ k rfl

/-- Array 8 (send): once the half of chunk k has left, the share of it the forward was lent is the sender's again. -/
theorem wait_a8_at (t : Dev nD) (j : Fin 140) (k : Fin 8) (hj : j.val = 76 + k.val) (hk : 3 ≤ k.val)
    {sp' spw : Space} {s' : Shape} {e' : EltTy}
    {srcw : Memref sig .tc sp' s' e'} {dstw : Memref sig .tc spw S512x128 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NH) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (r4H (yqF t) k 0) t shF (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NH (expect_a8_at m t j k hj hk) (srcw := srcw) (dstw := dstw) (hsrc := hsrc) (hdst := hdst) rfl
    (Q := Q) (k' := k') (κ := κ) (O := O) (W := W)
  rw [rest_a8_at m t j k hj hk] at h
  exact h
theorem wait_a8 (t : Dev nD) (k : Fin 8) (hk : 3 ≤ k.val)
    {sp' spw : Space} {s' : Shape} {e' : EltTy}
    {srcw : Memref sig .tc sp' s' e'} {dstw : Memref sig .tc spw S512x128 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨76 + k.val, by omega⟩ : Fin 140)) ∗ cred (tallyAt (cellAt t (⟨76 + k.val, by omega⟩ : Fin 140)) () NH) ∗ owes (t : Thread nD τ) O W
        ∗ MayWait (t : Thread nD τ) (dsem (⟨76 + k.val, by omega⟩ : Fin 140)) () O ∗ atPos ER (cellAt t (⟨76 + k.val, by omega⟩ : Fin 140)) 0 ∅ 0)
      ⊢ iprop(((owes (t : Thread nD τ) O (insert (dsem (⟨76 + k.val, by omega⟩ : Fin 140), ()) W)
              ∗ atPos ER (cellAt t (⟨76 + k.val, by omega⟩ : Fin 140)) 1 ∅ 0 ∗ reached ER (cellAt t (⟨76 + k.val, by omega⟩ : Fin 140)) 1
              ∗ pts (r4H (yqF t) k 0) t shF (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨76 + k.val, by omega⟩ : Fin 140) srcw dstw hsrc hdst) k') Q) :=
  wait_a8_at m t _ k rfl hk

/-- Array 9 (receive): once the half of chunk k has landed, the receiver holds that half, at its final contents. -/
theorem wait_a9_at (t : Dev nD) (j : Fin 140) (k : Fin 8) (hj : j.val = 84 + k.val) (hk : 3 ≤ k.val)
    {sp' spw : Space} {s' : Shape} {e' : EltTy}
    {srcw : Memref sig .tc sp' s' e'} {dstw : Memref sig .tc spw S512x128 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NH) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (r4H (dqF t) k 0) t fullShare (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NH (expect_a9_at m t j k hj hk) (srcw := srcw) (dstw := dstw) (hsrc := hsrc) (hdst := hdst) rfl
    (Q := Q) (k' := k') (κ := κ) (O := O) (W := W)
  rw [rest_a9_at m t j k hj hk] at h
  exact h
theorem wait_a9 (t : Dev nD) (k : Fin 8) (hk : 3 ≤ k.val)
    {sp' spw : Space} {s' : Shape} {e' : EltTy}
    {srcw : Memref sig .tc sp' s' e'} {dstw : Memref sig .tc spw S512x128 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨84 + k.val, by omega⟩ : Fin 140)) ∗ cred (tallyAt (cellAt t (⟨84 + k.val, by omega⟩ : Fin 140)) () NH) ∗ owes (t : Thread nD τ) O W
        ∗ MayWait (t : Thread nD τ) (dsem (⟨84 + k.val, by omega⟩ : Fin 140)) () O ∗ atPos ER (cellAt t (⟨84 + k.val, by omega⟩ : Fin 140)) 0 ∅ 0)
      ⊢ iprop(((owes (t : Thread nD τ) O (insert (dsem (⟨84 + k.val, by omega⟩ : Fin 140), ()) W)
              ∗ atPos ER (cellAt t (⟨84 + k.val, by omega⟩ : Fin 140)) 1 ∅ 0 ∗ reached ER (cellAt t (⟨84 + k.val, by omega⟩ : Fin 140)) 1
              ∗ pts (r4H (dqF t) k 0) t fullShare (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨84 + k.val, by omega⟩ : Fin 140) srcw dstw hsrc hdst) k') Q) :=
  wait_a9_at m t _ k rfl hk

/-- Array 10 (send): once the half of chunk k has left, the share of it the forward was lent is the sender's again. -/
theorem wait_a10_at (t : Dev nD) (j : Fin 140) (k : Fin 8) (hj : j.val = 92 + k.val) (hk : 3 ≤ k.val)
    {sp' spw : Space} {s' : Shape} {e' : EltTy}
    {srcw : Memref sig .tc sp' s' e'} {dstw : Memref sig .tc spw S512x128 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NH) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (r4H (zqF t) k 1) t shF (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NH (expect_a10_at m t j k hj hk) (srcw := srcw) (dstw := dstw) (hsrc := hsrc) (hdst := hdst) rfl
    (Q := Q) (k' := k') (κ := κ) (O := O) (W := W)
  rw [rest_a10_at m t j k hj hk] at h
  exact h
theorem wait_a10 (t : Dev nD) (k : Fin 8) (hk : 3 ≤ k.val)
    {sp' spw : Space} {s' : Shape} {e' : EltTy}
    {srcw : Memref sig .tc sp' s' e'} {dstw : Memref sig .tc spw S512x128 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨92 + k.val, by omega⟩ : Fin 140)) ∗ cred (tallyAt (cellAt t (⟨92 + k.val, by omega⟩ : Fin 140)) () NH) ∗ owes (t : Thread nD τ) O W
        ∗ MayWait (t : Thread nD τ) (dsem (⟨92 + k.val, by omega⟩ : Fin 140)) () O ∗ atPos ER (cellAt t (⟨92 + k.val, by omega⟩ : Fin 140)) 0 ∅ 0)
      ⊢ iprop(((owes (t : Thread nD τ) O (insert (dsem (⟨92 + k.val, by omega⟩ : Fin 140), ()) W)
              ∗ atPos ER (cellAt t (⟨92 + k.val, by omega⟩ : Fin 140)) 1 ∅ 0 ∗ reached ER (cellAt t (⟨92 + k.val, by omega⟩ : Fin 140)) 1
              ∗ pts (r4H (zqF t) k 1) t shF (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨92 + k.val, by omega⟩ : Fin 140) srcw dstw hsrc hdst) k') Q) :=
  wait_a10_at m t _ k rfl hk

/-- Array 11 (receive): once the half of chunk k has landed, the receiver holds that half, at its final contents. -/
theorem wait_a11_at (t : Dev nD) (j : Fin 140) (k : Fin 8) (hj : j.val = 100 + k.val) (hk : 3 ≤ k.val)
    {sp' spw : Space} {s' : Shape} {e' : EltTy}
    {srcw : Memref sig .tc sp' s' e'} {dstw : Memref sig .tc spw S512x128 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t j) ∗ cred (tallyAt (cellAt t j) () NH) ∗ owes (t : Thread nD τ) O W
        ∗ MayWait (t : Thread nD τ) (dsem j) () O ∗ atPos ER (cellAt t j) 0 ∅ 0)
      ⊢ iprop(((owes (t : Thread nD τ) O (insert (dsem j, ()) W)
              ∗ atPos ER (cellAt t j) 1 ∅ 0 ∗ reached ER (cellAt t j) 1
              ∗ pts (r4H (dqF t) k 1) t fullShare (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 j srcw dstw hsrc hdst) k') Q) := by
  have h := wait_cell m t j NH (expect_a11_at m t j k hj hk) (srcw := srcw) (dstw := dstw) (hsrc := hsrc) (hdst := hdst) rfl
    (Q := Q) (k' := k') (κ := κ) (O := O) (W := W)
  rw [rest_a11_at m t j k hj hk] at h
  exact h
theorem wait_a11 (t : Dev nD) (k : Fin 8) (hk : 3 ≤ k.val)
    {sp' spw : Space} {s' : Shape} {e' : EltTy}
    {srcw : Memref sig .tc sp' s' e'} {dstw : Memref sig .tc spw S512x128 .bf16}
    {hsrc : srcw.view.WordExact} {hdst : dstw.view.WordExact}
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (cellAt t (⟨100 + k.val, by omega⟩ : Fin 140)) ∗ cred (tallyAt (cellAt t (⟨100 + k.val, by omega⟩ : Fin 140)) () NH) ∗ owes (t : Thread nD τ) O W
        ∗ MayWait (t : Thread nD τ) (dsem (⟨100 + k.val, by omega⟩ : Fin 140)) () O ∗ atPos ER (cellAt t (⟨100 + k.val, by omega⟩ : Fin 140)) 0 ∅ 0)
      ⊢ iprop(((owes (t : Thread nD τ) O (insert (dsem (⟨100 + k.val, by omega⟩ : Fin 140), ()) W)
              ∗ atPos ER (cellAt t (⟨100 + k.val, by omega⟩ : Fin 140)) 1 ∅ 0 ∗ reached ER (cellAt t (⟨100 + k.val, by omega⟩ : Fin 140)) 1
              ∗ pts (r4H (dqF t) k 1) t fullShare (r4 m t))
            -∗ wp frame (wpE (defs₀ (F := F)) 𝒱₀ (t : Thread nD τ) none) Set.univ (k' ⟨⟩) Q)
          -∗ wp frame (wpE (defs₀ (F := F)) 𝒱₀ (t : Thread nD τ) none) Set.univ (.op (.waitDma2 (⟨100 + k.val, by omega⟩ : Fin 140) srcw dstw hsrc hdst) k') Q) :=
  wait_a11_at m t _ k rfl hk

/-! ## The barrier -/

/-- The wait for 3 on a device's barrier semaphore: its three neighbours have signalled, and with their signals came
    the parts of their buffers the device will write. (The barrier cell is not closed: its semaphore is not the launch's.) -/
theorem wait_bar (t : Dev nD) {n : ℕ} (hn : n = 3)
    {α : Type} {Q : α → sProp 𝕄} {k' : PUnit → Prog (TpuEff nD τ sig (Elt F) Λ₀ .tc) α}
    {κ : ℕ} {O : CellTallies nD τ sig Unit} {W : Waits sig Unit} :
    iprop(cellInv ER (rsRd m) κ (barCell t) ∗ cred (tallyAt (barCell t) () 3) ∗ owes (t : Thread nD τ) O W
        ∗ MayWait (t : Thread nD τ) (.reg barS) () O ∗ atPos ER (barCell t) 0 ∅ 0)
      ⊢ iprop(((owes (t : Thread nD τ) O (insert (SemLoc.reg barS, ()) W)
              ∗ atPos ER (barCell t) 1 ∅ 0 ∗ reached ER (barCell t) 1
              ∗ (barPay (F := F) t 0 ∗ barPay (F := F) t 1 ∗ barPay (F := F) t 2))
            -∗ wp frame (wpE (defs₀ (F := F)) 𝒱₀ (t : Thread nD τ) none) Set.univ (k' ⟨⟩) Q)
          -∗ wp frame (wpE (defs₀ (F := F)) 𝒱₀ (t : Thread nD τ) none) Set.univ (.op (.semWait barS n) k') Q) := by
  subst hn
  have h := Rounds.wp_wait_rest_token (defs := defs₀ (F := F)) 𝒱₀ ER (rsRd m) (t : Thread nD τ) none (κ := κ) (Q := Q) (k := k')
    (wpE_semWait_eq 𝒱₀ (t : Thread nD τ) none Set.univ (sem := barS) (k := 3)) (Set.mem_univ _) () (O := O) (W := W) (R := 0) (m := 0) (T := ∅)
    (by rw [Nat.zero_add, expect_bar])
  rw [rest_bar m t] at h
  exact h

end Cert.Kernel.RS

end
-- ==== Proof.K.OutChunks.lean ====
import proofs.«901022_g7700000000001023_dist_rs_v7x_xyz2x2x2_x_m4096_n1024_bf16_1_alg».proof.Proof.K.Sched

/-! The result array cut into the 32 blocks the kernel writes: eight blocks of 512 rows by four quarters of 256 columns. -/

noncomputable section

namespace Cert.Kernel.RS

open Cert.Kernel Cert.Kernel.Gen
open Idealize.ShloMosaic Idealize.ShloMosaic.TcCoe

theorem out_inb : ∀ (k : Fin 8) (q : Fin 4), ∀ a : Fin 2,
    (![512 * k.val, 256 * q.val] : Fin 2 → ℕ) a + S512x256.size a ≤ S4096x1024.size a := by decide

/-- Rows 512k … 512k+511 and columns 256q … 256q+255 of the result. -/
abbrev outR (k : Fin 8) (q : Fin 4) : Memref sig .tc .hbm S512x256 .bf16 :=
  (Memref.whole main_v1 : Memref sig .tc .hbm S4096x1024 .bf16).slice
    (Rect.unit (s := S4096x1024) ![512 * k.val, 256 * q.val] S512x256.size (out_inb k q)) (fun _ => rfl)

end Cert.Kernel.RS

end
-- ==== Proof.K.Regions.lean ====
import proofs.«901022_g7700000000001023_dist_rs_v7x_xyz2x2x2_x_m4096_n1024_bf16_1_alg».proof.Proof.K.Sched
import proofs.«901022_g7700000000001023_dist_rs_v7x_xyz2x2x2_x_m4096_n1024_bf16_1_alg».proof.Proof.K.OutChunks
import Idealize.ShloMosaic.Rules.PointsTo
import Idealize.ShloMosaic.Lib.Pipeline.Value

/-! Cutting a buffer's ownership into the chunk regions the protocol moves, and putting it back: along shares,
    along the eight (three) row blocks of a staging buffer, along the four quarters, their chunks and the
    two column halves of a chunk of the four-quarter buffer, and along the 32 blocks of the result. -/

noncomputable section

namespace Cert.Kernel.RS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Along shares, and along contents -/

section Shares
variable {sp : Space} {s : Shape} {e : EltTy} (M : Memref sig .tc sp s e) (t : Dev nD)

/-- A share of a region is its two halves. -/
theorem share_split (q : PosShare TreeShare) (f : Buf (Elt F) (M.view.loc (t : Thread nD τ))) :
    pts M t q f ⊣⊢ iprop(pts M t q.left f ∗ pts M t q.right f) :=
  pointsTo_share (PosShare.mem_left_op_right q)

theorem share_split_eq (q : PosShare TreeShare) (f : Buf (Elt F) (M.view.loc (t : Thread nD τ))) :
    pts M t q f = iprop(pts M t q.left f ∗ pts M t q.right f) :=
  BI.equiv_iff.mp ⟨(share_split M t q f).1, (share_split M t q f).2⟩

/-- The whole share is the share lent across z, the share lent across y and the share kept. -/
theorem share_ZYK (f : Buf (Elt F) (M.view.loc (t : Thread nD τ))) :
    pts M t fullShare f ⊣⊢ iprop(pts M t shZ f ∗ pts M t shY f ∗ pts M t shK f) := by
  constructor
  · refine (share_split M t fullShare f).1.trans (sep_mono_right ?_)
    exact (share_split M t fullShare.right f).1
  · refine (sep_mono_right ?_).trans (share_split M t fullShare f).2
    exact (share_split M t fullShare.right f).2

theorem share_ZYK_eq (f : Buf (Elt F) (M.view.loc (t : Thread nD τ))) :
    pts M t fullShare f = iprop(pts M t shZ f ∗ pts M t shY f ∗ pts M t shK f) :=
  BI.equiv_iff.mp ⟨(share_ZYK M t f).1, (share_ZYK M t f).2⟩

/-- The whole share is the share lent to the forward and the share kept. -/
theorem share_FG (f : Buf (Elt F) (M.view.loc (t : Thread nD τ))) :
    pts M t fullShare f ⊣⊢ iprop(pts M t shF f ∗ pts M t shG f) :=
  share_split M t fullShare f

theorem share_FG_eq (f : Buf (Elt F) (M.view.loc (t : Thread nD τ))) :
    pts M t fullShare f = iprop(pts M t shF f ∗ pts M t shG f) :=
  share_split_eq M t fullShare f

/-- Contents that agree on the region are the same assertion. -/
theorem congr_eq (q : PosShare TreeShare) (f g : Buf (Elt F) (M.view.loc (t : Thread nD τ)))
    (h : ∀ i ∈ M.view.set, f i = g i) : pts M t q f = pts M t q g :=
  pointsTo_congr h

theorem congr (q : PosShare TreeShare) (f g : Buf (Elt F) (M.view.loc (t : Thread nD τ)))
    (h : ∀ i ∈ M.view.set, f i = g i) : pts M t q f ⊢ pts M t q g :=
  Entails.of_eq (congr_eq M t q f g h)

/-- A region at known contents is a region at some contents. -/
theorem junk_of_pts (f : Buf (Elt F) (M.view.loc (t : Thread nD τ))) : pts M t fullShare f ⊢ junk (F := F) M t := by
  iintro H
  iexists f
  iexact H

end Shares

/-! ## A finite family written out -/

section Chains
variable {M' : Type} [URA M']

theorem bigSep_fin3 (Φ : Fin 3 → sProp M') : bigSep Finset.univ Φ = iprop(Φ 0 ∗ Φ 1 ∗ Φ 2) := by
  rw [show (Finset.univ : Finset (Fin 3)) = {0, 1, 2} by decide,
    bigSep_insert (by decide), bigSep_insert (by decide), bigSep_singleton]
  rfl

theorem bigSep_fin4 (Φ : Fin 4 → sProp M') : bigSep Finset.univ Φ = iprop(Φ 0 ∗ Φ 1 ∗ Φ 2 ∗ Φ 3) := by
  rw [show (Finset.univ : Finset (Fin 4)) = {0, 1, 2, 3} by decide,
    bigSep_insert (by decide), bigSep_insert (by decide), bigSep_insert (by decide), bigSep_singleton]
  rfl

theorem bigSep_fin8 (Φ : Fin 8 → sProp M') :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    bigSep_insert (by decide), bigSep_insert (by decide), bigSep_insert (by decide), bigSep_insert (by decide),
    bigSep_insert (by decide), bigSep_insert (by decide), bigSep_insert (by decide), bigSep_singleton]
  rfl

end Chains

/-! ## A region cut into a finite family of pairwise disjoint parts -/

section Cut
variable {ℓ : Loc nD τ sig} {T : Type} [DecidableEq T]

/-- Held at one contents, the region is the parts. -/
theorem cut_eq [Fintype T] (S : Finset (Idx ℓ)) (K : T → Finset (Idx ℓ)) (q : PosShare TreeShare) (f : Buf (Elt F) ℓ)
    (hd : ∀ a b : T, a ≠ b → Disjoint (K a) (K b)) (hS : ∀ i, i ∈ S ↔ ∃ a, i ∈ K a) :
    (ℓ ↦[S]{q} f : sProp 𝕄) = bigSep Finset.univ fun a => (ℓ ↦[K a]{q} f : sProp 𝕄) := by
  rw [← pointsTo_biUnion Finset.univ K (fun a _ b _ h => hd a b h)]
  congr 1
  ext i
  rw [hS i, Finset.mem_biUnion]
  exact ⟨fun ⟨a, h⟩ => ⟨a, Finset.mem_univ a, h⟩, fun ⟨a, _, h⟩ => ⟨a, h⟩⟩

/-- Parts of a subfamily, each at contents of its own, are their union at some contents. -/
theorem join_sub (A : Finset T) (K : T → Finset (Idx ℓ)) (q : PosShare TreeShare) (f₀ : Buf (Elt F) ℓ)
    (hd : ∀ a b : T, a ≠ b → Disjoint (K a) (K b)) :
    bigSep A (fun a => (iprop(∃ f : Buf (Elt F) ℓ, ℓ ↦[K a]{q} f) : sProp 𝕄))
      ⊢ (iprop(∃ g : Buf (Elt F) ℓ, ℓ ↦[A.biUnion K]{q} g) : sProp 𝕄) := by
  induction A using Finset.induction_on with
  | empty =>
    iintro -
    iexists f₀
    rw [Finset.biUnion_empty, pointsTo_empty]
    iempintro
  | insert a A ha ih =>
    rw [bigSep_insert ha, Finset.biUnion_insert]
    have hda : Disjoint (K a) (A.biUnion K) :=
      (Finset.disjoint_biUnion_right _ _ _).mpr fun b hb => hd a b (fun e => ha (e ▸ hb))
    refine (sep_mono_right ih).trans ?_
    iintro ⟨⟨%f, Ha⟩, ⟨%g, HA⟩⟩
    iexists (A.biUnion K).piecewise g f
    iapply (pointsTo_join hda)
    isplitl [Ha]
    · iexact Ha
    · iexact HA

/-- The parts, each at contents of its own, are the region at some contents. -/
theorem cut_join [Fintype T] [Nonempty T] (S : Finset (Idx ℓ)) (K : T → Finset (Idx ℓ)) (q : PosShare TreeShare)
    (hd : ∀ a b : T, a ≠ b → Disjoint (K a) (K b)) (hS : ∀ i, i ∈ S ↔ ∃ a, i ∈ K a) :
    bigSep Finset.univ (fun a => (iprop(∃ f : Buf (Elt F) ℓ, ℓ ↦[K a]{q} f) : sProp 𝕄))
      ⊢ (iprop(∃ g : Buf (Elt F) ℓ, ℓ ↦[S]{q} g) : sProp 𝕄) := by
  obtain ⟨a₀⟩ := ‹Nonempty T›
  have hU : (Finset.univ : Finset T).biUnion K = S := by
    ext i
    rw [hS i, Finset.mem_biUnion]
    exact ⟨fun ⟨a, _, h⟩ => ⟨a, h⟩, fun ⟨a, h⟩ => ⟨a, Finset.mem_univ a, h⟩⟩
  rw [bigSep_univ_split a₀]
  refine (show iprop((∃ f : Buf (Elt F) ℓ, ℓ ↦[K a₀]{q} f)
      ∗ bigSep (Finset.univ.erase a₀) (fun a => (iprop(∃ f : Buf (Elt F) ℓ, ℓ ↦[K a]{q} f) : sProp 𝕄))) ⊢ _ from ?_)
  iintro ⟨⟨%f, Ha⟩, Hr⟩
  ihave Hr' := (join_sub (F := F) (Finset.univ.erase a₀) K q f hd) $$ Hr
  icases Hr' with ⟨%g, Hr'⟩
  have hda : Disjoint (K a₀) ((Finset.univ.erase a₀).biUnion K) :=
    (Finset.disjoint_biUnion_right _ _ _).mpr fun b hb => hd a₀ b (fun e => (Finset.ne_of_mem_erase hb) e.symm)
  iexists ((Finset.univ.erase a₀).biUnion K).piecewise g f
  have hU' : K a₀ ∪ (Finset.univ.erase a₀).biUnion K = S := by
    rw [← hU, ← Finset.biUnion_insert, Finset.insert_erase (Finset.mem_univ a₀)]
  rw [← hU']
  iapply (pointsTo_join hda)
  isplitl [Ha]
  · iexact Ha
  · iexact Hr'

end Cut

/-! ## A unit-stride rectangle cut into slabs along one axis -/

/-- The facts that say the rectangles (offK j, sizeK), j < n, are the slabs of thickness w of the rectangle
    (off, size) along axis a₀. They are decided on literals. -/
def SlabOK {r : ℕ} (a₀ : Fin r) (n w : ℕ) (off size : Fin r → ℕ) (offK : Fin n → Fin r → ℕ) (sizeK : Fin r → ℕ) : Prop :=
  0 < w ∧ sizeK a₀ = w ∧ size a₀ = n * w ∧
    ∀ j : Fin n, offK j a₀ = off a₀ + j.val * w ∧ ∀ a, a ≠ a₀ → offK j a = off a ∧ sizeK a = size a

instance {r : ℕ} (a₀ : Fin r) (n w : ℕ) (off size : Fin r → ℕ) (offK : Fin n → Fin r → ℕ) (sizeK : Fin r → ℕ) :
    Decidable (SlabOK a₀ n w off size offK sizeK) := by unfold SlabOK; infer_instance

/-- An element lies in the rectangle exactly when it lies in one of its slabs: the one that its coordinate on the
    axis, counted from the rectangle's offset and divided by the thickness, names. -/
theorem mem_slab_iff {s : Shape} {a₀ : Fin s.rank} {n w : ℕ} {off size : Fin s.rank → ℕ} {offK : Fin n → Fin s.rank → ℕ}
    {sizeK : Fin s.rank → ℕ} (ok : SlabOK a₀ n w off size offK sizeK)
    (inb : ∀ a, off a + size a ≤ s.size a) (inbK : ∀ j a, offK j a + sizeK a ≤ s.size a) (i : s.Idx) :
    i ∈ (Rect.unit off size inb).set ↔ ∃ j : Fin n, i ∈ (Rect.unit (offK j) sizeK (inbK j)).set := by
  obtain ⟨hw, hwK, hsz, hj⟩ := ok
  constructor
  · intro hi
    have hi' := Rect.mem_set_unit.mp hi
    have h0 := hi' a₀
    have hlt : ((i a₀ : ℕ) - off a₀) / w < n := by
      rw [Nat.div_lt_iff_lt_mul hw]; omega
    refine ⟨⟨((i a₀ : ℕ) - off a₀) / w, hlt⟩, Rect.mem_set_unit.mpr fun a => ?_⟩
    by_cases h : a = a₀
    · subst h
      have e := (hj ⟨((i a : ℕ) - off a) / w, hlt⟩).1
      have l1 : ((i a : ℕ) - off a) / w * w ≤ (i a : ℕ) - off a := Nat.div_mul_le_self _ _
      have l2 : (i a : ℕ) - off a < ((i a : ℕ) - off a) / w * w + w := Nat.lt_div_mul_add hw
      simp only at e
      omega
    · have e := (hj ⟨((i a₀ : ℕ) - off a₀) / w, hlt⟩).2 a h
      have := hi' a
      omega
  · rintro ⟨j, hi⟩
    have hi' := Rect.mem_set_unit.mp hi
    refine Rect.mem_set_unit.mpr fun a => ?_
    by_cases h : a = a₀
    · subst h
      have e := (hj j).1
      have l : (j.val + 1) * w ≤ n * w := Nat.mul_le_mul_right w j.isLt
      rw [Nat.succ_mul] at l
      have := hi' a
      omega
    · have e := (hj j).2 a h
      have := hi' a
      omega

/-- Different slabs are disjoint. -/
theorem slab_disjoint {s : Shape} {a₀ : Fin s.rank} {n w : ℕ} {off size : Fin s.rank → ℕ} {offK : Fin n → Fin s.rank → ℕ}
    {sizeK : Fin s.rank → ℕ} (ok : SlabOK a₀ n w off size offK sizeK)
    (inbK : ∀ j a, offK j a + sizeK a ≤ s.size a) (j j' : Fin n) (h : j ≠ j') :
    Disjoint (Rect.unit (offK j) sizeK (inbK j)).set (Rect.unit (offK j') sizeK (inbK j')).set := by
  obtain ⟨hw, hwK, hsz, hj⟩ := ok
  refine Rect.unit_disjoint a₀ ?_
  have e := (hj j).1
  have e' := (hj j').1
  rcases Nat.lt_or_gt_of_ne (fun e => h (Fin.ext e)) with hlt | hgt
  · left
    have l : (j.val + 1) * w ≤ j'.val * w := Nat.mul_le_mul_right w hlt
    rw [Nat.succ_mul] at l
    omega
  · right
    have l : (j'.val + 1) * w ≤ j.val * w := Nat.mul_le_mul_right w hgt
    rw [Nat.succ_mul] at l
    omega

/-- Every element lies in the rectangle of the shape's own sizes at offset zero. -/
theorem mem_unit_zero {s : Shape} (inb : ∀ a, (fun _ => 0 : Fin s.rank → ℕ) a + s.size a ≤ s.size a) (i : s.Idx) :
    i ∈ (Rect.unit (fun _ => 0) s.size inb).set :=
  Rect.mem_set_unit.mpr fun a => ⟨Nat.zero_le _, by have := (i a).isLt; omega⟩

/-- The parts K a are pairwise disjoint and together make up S. -/
structure IsCut {ℓ : Loc nD τ sig} {T : Type} (S : Finset (Idx ℓ)) (K : T → Finset (Idx ℓ)) : Prop where
  disj : ∀ a b : T, a ≠ b → Disjoint (K a) (K b)
  mem : ∀ i, i ∈ S ↔ ∃ a, i ∈ K a

section IsCut
variable {ℓ : Loc nD τ sig} {T : Type} [DecidableEq T] [Fintype T] {S : Finset (Idx ℓ)} {K : T → Finset (Idx ℓ)}

theorem IsCut.pts_eq (c : IsCut S K) (q : PosShare TreeShare) (f : Buf (Elt F) ℓ) :
    (ℓ ↦[S]{q} f : sProp 𝕄) = bigSep Finset.univ fun a => (ℓ ↦[K a]{q} f : sProp 𝕄) :=
  cut_eq S K q f c.disj c.mem

theorem IsCut.junk_split (c : IsCut S K) (q : PosShare TreeShare) :
    (iprop(∃ f : Buf (Elt F) ℓ, ℓ ↦[S]{q} f) : sProp 𝕄)
      ⊢ bigSep Finset.univ fun a => (iprop(∃ f : Buf (Elt F) ℓ, ℓ ↦[K a]{q} f) : sProp 𝕄) := by
  refine exists_elim fun f => ?_
  exact (Entails.of_eq (c.pts_eq q f)).trans
    (bigSep_mono fun a _ => exists_intro (Φ := fun g : Buf (Elt F) ℓ => (ℓ ↦[K a]{q} g : sProp 𝕄)) f)

theorem IsCut.junk_join [Nonempty T] (c : IsCut S K) (q : PosShare TreeShare) :
    bigSep Finset.univ (fun a => (iprop(∃ f : Buf (Elt F) ℓ, ℓ ↦[K a]{q} f) : sProp 𝕄))
      ⊢ (iprop(∃ g : Buf (Elt F) ℓ, ℓ ↦[S]{q} g) : sProp 𝕄) :=
  cut_join S K q c.disj c.mem

end IsCut

/-! ## The row blocks of the staging buffers -/

/-- Rows 512k … 512k+511 of the four f32 staging buffers. -/
abbrev stPR (k : Fin 8) : Memref sig .tc .vmem S512x256 .f32 :=
  (Memref.whole cc0_scratch5 : Memref sig .tc .vmem S4096x256 .f32).slice (Rect.unit (s := S4096x256) ![512 * k.val, 0] S512x256.size (rows8_inb k)) (fun _ => rfl)
abbrev stLR (k : Fin 8) : Memref sig .tc .vmem S512x256 .f32 :=
  (Memref.whole cc0_scratch6 : Memref sig .tc .vmem S4096x256 .f32).slice (Rect.unit (s := S4096x256) ![512 * k.val, 0] S512x256.size (rows8_inb k)) (fun _ => rfl)
abbrev stP2R (k : Fin 3) : Memref sig .tc .vmem S512x256 .f32 :=
  (Memref.whole cc0_scratch7 : Memref sig .tc .vmem S1536x256 .f32).slice (Rect.unit (s := S1536x256) ![512 * k.val, 0] S512x256.size (rows3_inb k)) (fun _ => rfl)
abbrev stL2R (k : Fin 3) : Memref sig .tc .vmem S512x256 .f32 :=
  (Memref.whole cc0_scratch8 : Memref sig .tc .vmem S1536x256 .f32).slice (Rect.unit (s := S1536x256) ![512 * k.val, 0] S512x256.size (rows3_inb k)) (fun _ => rfl)

abbrev rect8 (k : Fin 8) : Rect S4096x256 := Rect.unit (s := S4096x256) ![512 * k.val, 0] S512x256.size (rows8_inb k)
abbrev rect3 (k : Fin 3) : Rect S1536x256 := Rect.unit (s := S1536x256) ![512 * k.val, 0] S512x256.size (rows3_inb k)

theorem rows8_ok : SlabOK (r := 2) 0 8 512 (fun _ => 0) S4096x256.size (fun k : Fin 8 => ![512 * k.val, 0]) S512x256.size := by decide
theorem rows3_ok : SlabOK (r := 2) 0 3 512 (fun _ => 0) S1536x256.size (fun k : Fin 3 => ![512 * k.val, 0]) S512x256.size := by decide

/-- Eight blocks of 512 rows are the 4096 rows; three are the 1536. -/
theorem rows8_sets (K : Fin 8 → Finset S4096x256.Idx) (e : ∀ k, K k = (rect8 k).set) :
    (∀ a b, a ≠ b → Disjoint (K a) (K b)) ∧ ∀ i, i ∈ (Finset.univ : Finset S4096x256.Idx) ↔ ∃ k, i ∈ K k := by
  refine ⟨fun a b h => ?_, fun i => ?_⟩
  · have := slab_disjoint (s := S4096x256) rows8_ok rows8_inb a b h
    rw [e a, e b]; exact this
  · refine ⟨fun _ => ?_, fun _ => Finset.mem_univ i⟩
    obtain ⟨k, hk⟩ := (mem_slab_iff (s := S4096x256) rows8_ok (fun a => Nat.le_of_eq (Nat.zero_add _)) rows8_inb i).mp (mem_unit_zero _ i)
    exact ⟨k, by rw [e k]; exact hk⟩

theorem rows3_sets (K : Fin 3 → Finset S1536x256.Idx) (e : ∀ k, K k = (rect3 k).set) :
    (∀ a b, a ≠ b → Disjoint (K a) (K b)) ∧ ∀ i, i ∈ (Finset.univ : Finset S1536x256.Idx) ↔ ∃ k, i ∈ K k := by
  refine ⟨fun a b h => ?_, fun i => ?_⟩
  · have := slab_disjoint (s := S1536x256) rows3_ok rows3_inb a b h
    rw [e a, e b]; exact this
  · refine ⟨fun _ => ?_, fun _ => Finset.mem_univ i⟩
    obtain ⟨k, hk⟩ := (mem_slab_iff (s := S1536x256) rows3_ok (fun a => Nat.le_of_eq (Nat.zero_add _)) rows3_inb i).mp (mem_unit_zero _ i)
    exact ⟨k, by rw [e k]; exact hk⟩

section Rows
variable (t : Dev nD)

theorem sbR_cut : IsCut (ℓ := (t : Thread nD τ).loc cc0_scratch1) Finset.univ (fun k : Fin 8 => (sbR k).view.set) :=
  have h := rows8_sets (fun k => (sbR k).view.set) (fun k => View.set_slice_whole _ _); ⟨h.1, h.2⟩
theorem rbR_cut : IsCut (ℓ := (t : Thread nD τ).loc cc0_scratch2) Finset.univ (fun k : Fin 8 => (rbR k).view.set) :=
  have h := rows8_sets (fun k => (rbR k).view.set) (fun k => View.set_slice_whole _ _); ⟨h.1, h.2⟩
theorem sb2R_cut : IsCut (ℓ := (t : Thread nD τ).loc cc0_scratch3) Finset.univ (fun k : Fin 3 => (sb2R k).view.set) :=
  have h := rows3_sets (fun k => (sb2R k).view.set) (fun k => View.set_slice_whole _ _); ⟨h.1, h.2⟩
theorem rb2R_cut : IsCut (ℓ := (t : Thread nD τ).loc cc0_scratch4) Finset.univ (fun k : Fin 3 => (rb2R k).view.set) :=
  have h := rows3_sets (fun k => (rb2R k).view.set) (fun k => View.set_slice_whole _ _); ⟨h.1, h.2⟩
theorem stPR_cut : IsCut (ℓ := (t : Thread nD τ).loc cc0_scratch5) Finset.univ (fun k : Fin 8 => (stPR k).view.set) :=
  have h := rows8_sets (fun k => (stPR k).view.set) (fun k => View.set_slice_whole _ _); ⟨h.1, h.2⟩
theorem stLR_cut : IsCut (ℓ := (t : Thread nD τ).loc cc0_scratch6) Finset.univ (fun k : Fin 8 => (stLR k).view.set) :=
  have h := rows8_sets (fun k => (stLR k).view.set) (fun k => View.set_slice_whole _ _); ⟨h.1, h.2⟩
theorem stP2R_cut : IsCut (ℓ := (t : Thread nD τ).loc cc0_scratch7) Finset.univ (fun k : Fin 3 => (stP2R k).view.set) :=
  have h := rows3_sets (fun k => (stP2R k).view.set) (fun k => View.set_slice_whole _ _); ⟨h.1, h.2⟩
theorem stL2R_cut : IsCut (ℓ := (t : Thread nD τ).loc cc0_scratch8) Finset.univ (fun k : Fin 3 => (stL2R k).view.set) :=
  have h := rows3_sets (fun k => (stL2R k).view.set) (fun k => View.set_slice_whole _ _); ⟨h.1, h.2⟩

/-- A whole buffer, spelt through its memref, is the buffer. -/
theorem pts_whole (B : Ref sig .tc) (q : PosShare TreeShare) (f : Buf (Elt F) ((t : Thread nD τ).loc B)) :
    pts (Memref.whole B) t q f = ((t : Thread nD τ).loc B ↦{q} f : sProp 𝕄) := by
  show ((t : Thread nD τ).loc B ↦[(View.whole B).set]{q} f : sProp 𝕄) = _
  rw [View.set_whole]

theorem junk_whole (B : Ref sig .tc) :
    junk (F := F) (Memref.whole B) t
      = (iprop(∃ f : Buf (Elt F) ((t : Thread nD τ).loc B), (t : Thread nD τ).loc B ↦{fullShare} f) : sProp 𝕄) := by
  show (iprop(∃ f : Buf (Elt F) ((t : Thread nD τ).loc B), (t : Thread nD τ).loc B ↦[(View.whole B).set]{fullShare} f) : sProp 𝕄) = _
  rw [View.set_whole]

/-! Each staging buffer at one contents is its row blocks at that contents. -/

theorem sb_rows (q : PosShare TreeShare) (f : Buf (Elt F) ((t : Thread nD τ).loc cc0_scratch1)) :
    ((t : Thread nD τ).loc cc0_scratch1 ↦{q} f : sProp 𝕄) =
      iprop(pts (sbR 0) t q f ∗ pts (sbR 1) t q f ∗ pts (sbR 2) t q f ∗ pts (sbR 3) t q f
        ∗ pts (sbR 4) t q f ∗ pts (sbR 5) t q f ∗ pts (sbR 6) t q f ∗ pts (sbR 7) t q f) :=
  ((sbR_cut t).pts_eq q f).trans (bigSep_fin8 _)

theorem rb_rows (q : PosShare TreeShare) (f : Buf (Elt F) ((t : Thread nD τ).loc cc0_scratch2)) :
    ((t : Thread nD τ).loc cc0_scratch2 ↦{q} f : sProp 𝕄) =
      iprop(pts (rbR 0) t q f ∗ pts (rbR 1) t q f ∗ pts (rbR 2) t q f ∗ pts (rbR 3) t q f
        ∗ pts (rbR 4) t q f ∗ pts (rbR 5) t q f ∗ pts (rbR 6) t q f ∗ pts (rbR 7) t q f) :=
  ((rbR_cut t).pts_eq q f).trans (bigSep_fin8 _)

theorem sb2_rows (q : PosShare TreeShare) (f : Buf (Elt F) ((t : Thread nD τ).loc cc0_scratch3)) :
    ((t : Thread nD τ).loc cc0_scratch3 ↦{q} f : sProp 𝕄) =
      iprop(pts (sb2R 0) t q f ∗ pts (sb2R 1) t q f ∗ pts (sb2R 2) t q f) :=
  ((sb2R_cut t).pts_eq q f).trans (bigSep_fin3 _)

theorem rb2_rows (q : PosShare TreeShare) (f : Buf (Elt F) ((t : Thread nD τ).loc cc0_scratch4)) :
    ((t : Thread nD τ).loc cc0_scratch4 ↦{q} f : sProp 𝕄) =
      iprop(pts (rb2R 0) t q f ∗ pts (rb2R 1) t q f ∗ pts (rb2R 2) t q f) :=
  ((rb2R_cut t).pts_eq q f).trans (bigSep_fin3 _)

theorem stP_rows (q : PosShare TreeShare) (f : Buf (Elt F) ((t : Thread nD τ).loc cc0_scratch5)) :
    ((t : Thread nD τ).loc cc0_scratch5 ↦{q} f : sProp 𝕄) =
      iprop(pts (stPR 0) t q f ∗ pts (stPR 1) t q f ∗ pts (stPR 2) t q f ∗ pts (stPR 3) t q f
        ∗ pts (stPR 4) t q f ∗ pts (stPR 5) t q f ∗ pts (stPR 6) t q f ∗ pts (stPR 7) t q f) :=
  ((stPR_cut t).pts_eq q f).trans (bigSep_fin8 _)

theorem stL_rows (q : PosShare TreeShare) (f : Buf (Elt F) ((t : Thread nD τ).loc cc0_scratch6)) :
    ((t : Thread nD τ).loc cc0_scratch6 ↦{q} f : sProp 𝕄) =
      iprop(pts (stLR 0) t q f ∗ pts (stLR 1) t q f ∗ pts (stLR 2) t q f ∗ pts (stLR 3) t q f
        ∗ pts (stLR 4) t q f ∗ pts (stLR 5) t q f ∗ pts (stLR 6) t q f ∗ pts (stLR 7) t q f) :=
  ((stLR_cut t).pts_eq q f).trans (bigSep_fin8 _)

theorem stP2_rows (q : PosShare TreeShare) (f : Buf (Elt F) ((t : Thread nD τ).loc cc0_scratch7)) :
    ((t : Thread nD τ).loc cc0_scratch7 ↦{q} f : sProp 𝕄) =
      iprop(pts (stP2R 0) t q f ∗ pts (stP2R 1) t q f ∗ pts (stP2R 2) t q f) :=
  ((stP2R_cut t).pts_eq q f).trans (bigSep_fin3 _)

theorem stL2_rows (q : PosShare TreeShare) (f : Buf (Elt F) ((t : Thread nD τ).loc cc0_scratch8)) :
    ((t : Thread nD τ).loc cc0_scratch8 ↦{q} f : sProp 𝕄) =
      iprop(pts (stL2R 0) t q f ∗ pts (stL2R 1) t q f ∗ pts (stL2R 2) t q f) :=
  ((stL2R_cut t).pts_eq q f).trans (bigSep_fin3 _)

/-! Row blocks held at contents of their own are the buffer at some contents. -/

theorem sb_rows_join :
    (iprop(junk (F := F) (sbR 0) t ∗ junk (F := F) (sbR 1) t ∗ junk (F := F) (sbR 2) t ∗ junk (F := F) (sbR 3) t
        ∗ junk (F := F) (sbR 4) t ∗ junk (F := F) (sbR 5) t ∗ junk (F := F) (sbR 6) t ∗ junk (F := F) (sbR 7) t) : sProp 𝕄) ⊢
      iprop(∃ f : Buf (Elt F) ((t : Thread nD τ).loc cc0_scratch1), (t : Thread nD τ).loc cc0_scratch1 ↦{fullShare} f) :=
  (Entails.of_eq (bigSep_fin8 (fun k : Fin 8 => junk (F := F) (sbR k) t)).symm).trans ((sbR_cut t).junk_join fullShare)

theorem rb_rows_join :
    (iprop(junk (F := F) (rbR 0) t ∗ junk (F := F) (rbR 1) t ∗ junk (F := F) (rbR 2) t ∗ junk (F := F) (rbR 3) t
        ∗ junk (F := F) (rbR 4) t ∗ junk (F := F) (rbR 5) t ∗ junk (F := F) (rbR 6) t ∗ junk (F := F) (rbR 7) t) : sProp 𝕄) ⊢
      iprop(∃ f : Buf (Elt F) ((t : Thread nD τ).loc cc0_scratch2), (t : Thread nD τ).loc cc0_scratch2 ↦{fullShare} f) :=
  (Entails.of_eq (bigSep_fin8 (fun k : Fin 8 => junk (F := F) (rbR k) t)).symm).trans ((rbR_cut t).junk_join fullShare)

theorem sb2_rows_join :
    (iprop(junk (F := F) (sb2R 0) t ∗ junk (F := F) (sb2R 1) t ∗ junk (F := F) (sb2R 2) t) : sProp 𝕄) ⊢
      iprop(∃ f : Buf (Elt F) ((t : Thread nD τ).loc cc0_scratch3), (t : Thread nD τ).loc cc0_scratch3 ↦{fullShare} f) :=
  (Entails.of_eq (bigSep_fin3 (fun k : Fin 3 => junk (F := F) (sb2R k) t)).symm).trans ((sb2R_cut t).junk_join fullShare)

theorem rb2_rows_join :
    (iprop(junk (F := F) (rb2R 0) t ∗ junk (F := F) (rb2R 1) t ∗ junk (F := F) (rb2R 2) t) : sProp 𝕄) ⊢
      iprop(∃ f : Buf (Elt F) ((t : Thread nD τ).loc cc0_scratch4), (t : Thread nD τ).loc cc0_scratch4 ↦{fullShare} f) :=
  (Entails.of_eq (bigSep_fin3 (fun k : Fin 3 => junk (F := F) (rb2R k) t)).symm).trans ((rb2R_cut t).junk_join fullShare)

theorem stP_rows_join :
    (iprop(junk (F := F) (stPR 0) t ∗ junk (F := F) (stPR 1) t ∗ junk (F := F) (stPR 2) t ∗ junk (F := F) (stPR 3) t
        ∗ junk (F := F) (stPR 4) t ∗ junk (F := F) (stPR 5) t ∗ junk (F := F) (stPR 6) t ∗ junk (F := F) (stPR 7) t) : sProp 𝕄) ⊢
      iprop(∃ f : Buf (Elt F) ((t : Thread nD τ).loc cc0_scratch5), (t : Thread nD τ).loc cc0_scratch5 ↦{fullShare} f) :=
  (Entails.of_eq (bigSep_fin8 (fun k : Fin 8 => junk (F := F) (stPR k) t)).symm).trans ((stPR_cut t).junk_join fullShare)

theorem stL_rows_join :
    (iprop(junk (F := F) (stLR 0) t ∗ junk (F := F) (stLR 1) t ∗ junk (F := F) (stLR 2) t ∗ junk (F := F) (stLR 3) t
        ∗ junk (F := F) (stLR 4) t ∗ junk (F := F) (stLR 5) t ∗ junk (F := F) (stLR 6) t ∗ junk (F := F) (stLR 7) t) : sProp 𝕄) ⊢
      iprop(∃ f : Buf (Elt F) ((t : Thread nD τ).loc cc0_scratch6), (t : Thread nD τ).loc cc0_scratch6 ↦{fullShare} f) :=
  (Entails.of_eq (bigSep_fin8 (fun k : Fin 8 => junk (F := F) (stLR k) t)).symm).trans ((stLR_cut t).junk_join fullShare)

theorem stP2_rows_join :
    (iprop(junk (F := F) (stP2R 0) t ∗ junk (F := F) (stP2R 1) t ∗ junk (F := F) (stP2R 2) t) : sProp 𝕄) ⊢
      iprop(∃ f : Buf (Elt F) ((t : Thread nD τ).loc cc0_scratch7), (t : Thread nD τ).loc cc0_scratch7 ↦{fullShare} f) :=
  (Entails.of_eq (bigSep_fin3 (fun k : Fin 3 => junk (F := F) (stP2R k) t)).symm).trans ((stP2R_cut t).junk_join fullShare)

theorem stL2_rows_join :
    (iprop(junk (F := F) (stL2R 0) t ∗ junk (F := F) (stL2R 1) t ∗ junk (F := F) (stL2R 2) t) : sProp 𝕄) ⊢
      iprop(∃ f : Buf (Elt F) ((t : Thread nD τ).loc cc0_scratch8), (t : Thread nD τ).loc cc0_scratch8 ↦{fullShare} f) :=
  (Entails.of_eq (bigSep_fin3 (fun k : Fin 3 => junk (F := F) (stL2R k) t)).symm).trans ((stL2R_cut t).junk_join fullShare)

/-- The two landing buffers a neighbour across x hands over whole are their row blocks, each at some contents. -/
theorem giveX_rows : giveX (F := F) t ⊢
    iprop((junk (F := F) (rbR 0) t ∗ junk (F := F) (rbR 1) t ∗ junk (F := F) (rbR 2) t ∗ junk (F := F) (rbR 3) t
        ∗ junk (F := F) (rbR 4) t ∗ junk (F := F) (rbR 5) t ∗ junk (F := F) (rbR 6) t ∗ junk (F := F) (rbR 7) t)
      ∗ (junk (F := F) (rb2R 0) t ∗ junk (F := F) (rb2R 1) t ∗ junk (F := F) (rb2R 2) t)) := by
  unfold giveX
  refine BIClass.sep_mono ?_ ?_
  · exact (Entails.of_eq (junk_whole t cc0_scratch2)).trans
      (((rbR_cut t).junk_split fullShare).trans (Entails.of_eq (bigSep_fin8 _)))
  · exact (Entails.of_eq (junk_whole t cc0_scratch4)).trans
      (((rb2R_cut t).junk_split fullShare).trans (Entails.of_eq (bigSep_fin3 _)))

end Rows

/-! ## The four-quarter buffer

It is cut along its first axis into the four quarters, a quarter along its rows into eight chunks, a chunk along its
columns into two halves. A device names its quarters in the order own, z-neighbour's, y-neighbour's, diagonal. -/

theorem quarter_inb : ∀ (q : Fin 4), ∀ a : Fin 3,
    (![q.val, 0, 0] : Fin 3 → ℕ) a + (![1, 4096, 256] : Fin 3 → ℕ) a ≤ S4x4096x256.size a := by decide

abbrev rectQ (q : Fin 4) : Rect S4x4096x256 := Rect.unit (s := S4x4096x256) ![q.val, 0, 0] ![1, 4096, 256] (quarter_inb q)
abbrev rectC (q : Fin 4) (k : Fin 8) : Rect S4x4096x256 :=
  Rect.unit (s := S4x4096x256) ![q.val, 512 * k.val, 0] S1x512x256.size (chunk_inb q k)
abbrev rectH (q : Fin 4) (k : Fin 8) (h : Fin 2) : Rect S4x4096x256 :=
  Rect.unit (s := S4x4096x256) ![q.val, 512 * k.val, 128 * h.val] S1x512x128.size (half_inb q k h)

theorem quarters_ok : SlabOK (r := 3) 0 4 1 (fun _ => 0) S4x4096x256.size (fun q : Fin 4 => ![q.val, 0, 0]) ![1, 4096, 256] := by
  decide
theorem chunks_ok : ∀ q : Fin 4, SlabOK (r := 3) 1 8 512 ![q.val, 0, 0] ![1, 4096, 256]
    (fun k : Fin 8 => ![q.val, 512 * k.val, 0]) S1x512x256.size := by decide
theorem halves_ok : ∀ (q : Fin 4) (k : Fin 8), SlabOK (r := 3) 2 2 128 ![q.val, 512 * k.val, 0] S1x512x256.size
    (fun h : Fin 2 => ![q.val, 512 * k.val, 128 * h.val]) S1x512x128.size := by decide

theorem quarters_sets (K : Fin 4 → Finset S4x4096x256.Idx) (e : ∀ q, K q = (rectQ q).set) :
    (∀ a b, a ≠ b → Disjoint (K a) (K b)) ∧ ∀ i, i ∈ (Finset.univ : Finset S4x4096x256.Idx) ↔ ∃ q, i ∈ K q := by
  refine ⟨fun a b h => ?_, fun i => ?_⟩
  · have := slab_disjoint (s := S4x4096x256) quarters_ok quarter_inb a b h
    rw [e a, e b]; exact this
  · refine ⟨fun _ => ?_, fun _ => Finset.mem_univ i⟩
    obtain ⟨q, hq⟩ := (mem_slab_iff (s := S4x4096x256) quarters_ok (fun a => Nat.le_of_eq (Nat.zero_add _)) quarter_inb i).mp
      (mem_unit_zero _ i)
    exact ⟨q, by rw [e q]; exact hq⟩

theorem chunks_sets (q : Fin 4) (K : Fin 8 → Finset S4x4096x256.Idx) (e : ∀ k, K k = (rectC q k).set) :
    (∀ a b, a ≠ b → Disjoint (K a) (K b)) ∧ ∀ i, i ∈ (rectQ q).set ↔ ∃ k, i ∈ K k := by
  refine ⟨fun a b h => ?_, fun i => ?_⟩
  · have := slab_disjoint (s := S4x4096x256) (chunks_ok q) (chunk_inb q) a b h
    rw [e a, e b]; exact this
  · have := mem_slab_iff (s := S4x4096x256) (chunks_ok q) (quarter_inb q) (chunk_inb q) i
    exact this.trans (exists_congr fun k => by rw [e k])

theorem halves_sets (q : Fin 4) (k : Fin 8) (S : Finset S4x4096x256.Idx) (eS : S = (rectC q k).set)
    (K : Fin 2 → Finset S4x4096x256.Idx) (e : ∀ h, K h = (rectH q k h).set) :
    (∀ a b, a ≠ b → Disjoint (K a) (K b)) ∧ ∀ i, i ∈ S ↔ ∃ h, i ∈ K h := by
  refine ⟨fun a b h => ?_, fun i => ?_⟩
  · have := slab_disjoint (s := S4x4096x256) (halves_ok q k) (half_inb q k) a b h
    rw [e a, e b]; exact this
  · have := mem_slab_iff (s := S4x4096x256) (halves_ok q k) (chunk_inb q k) (half_inb q k) i
    rw [eS]
    exact this.trans (exists_congr fun h => by rw [e h])

theorem r4R_set (q : Fin 4) (k : Fin 8) : (r4R q k).view.set = (rectC q k).set :=
  (View.set_reshape _ _).trans (View.set_slice_whole _ _)
theorem r4H_set (q : Fin 4) (k : Fin 8) (h : Fin 2) : (r4H q k h).view.set = (rectH q k h).set :=
  (View.set_reshape _ _).trans (View.set_slice_whole _ _)

/-- A device's four quarters in the order own, z-neighbour's, y-neighbour's, diagonal: all four. -/
def qsel (t : Dev nD) : Fin 4 → Fin 4 := ![mqF t, zqF t, yqF t, dqF t]
theorem qsel_bij : ∀ t : Dev nD, Function.Bijective (qsel t) := by decide

theorem IsCut.reindex {ℓ : Loc nD τ sig} {T T' : Type} {S : Finset (Idx ℓ)} {K : T → Finset (Idx ℓ)} (c : IsCut S K)
    (σ : T' → T) (hσ : Function.Bijective σ) : IsCut S (fun a => K (σ a)) :=
  ⟨fun a b h => c.disj _ _ (fun e => h (hσ.1 e)),
   fun i => (c.mem i).trans ⟨fun ⟨a, h⟩ => let ⟨a', ha'⟩ := hσ.2 a; ⟨a', by rw [ha']; exact h⟩, fun ⟨a, h⟩ => ⟨σ a, h⟩⟩⟩

/-- Thirteen assertions, the last ten in five pairs, regrouped as the first three, the pairs' first and the pairs' second components. -/
theorem regroup13_bi {M' : Type} [URA M'] (d0 d1 d2 a3 b3 a4 b4 a5 b5 a6 b6 a7 b7 : sProp M') :
    (iprop(d0 ∗ d1 ∗ d2 ∗ (a3 ∗ b3) ∗ (a4 ∗ b4) ∗ (a5 ∗ b5) ∗ (a6 ∗ b6) ∗ (a7 ∗ b7)) : sProp M')
      ⊣⊢ iprop((d0 ∗ d1 ∗ d2) ∗ (a3 ∗ a4 ∗ a5 ∗ a6 ∗ a7) ∗ (b3 ∗ b4 ∗ b5 ∗ b6 ∗ b7)) := by
  constructor
  · iintro ⟨D0, D1, D2, ⟨A3, B3⟩, ⟨A4, B4⟩, ⟨A5, B5⟩, ⟨A6, B6⟩, A7, B7⟩
    iframe
  · iintro ⟨⟨D0, D1, D2⟩, ⟨A3, A4, A5, A6, A7⟩, B3, B4, B5, B6, B7⟩
    iframe

theorem regroup13 {M' : Type} [URA M'] (d0 d1 d2 a3 b3 a4 b4 a5 b5 a6 b6 a7 b7 : sProp M') :
    (iprop(d0 ∗ d1 ∗ d2 ∗ (a3 ∗ b3) ∗ (a4 ∗ b4) ∗ (a5 ∗ b5) ∗ (a6 ∗ b6) ∗ (a7 ∗ b7)) : sProp M')
      = iprop((d0 ∗ d1 ∗ d2) ∗ (a3 ∗ a4 ∗ a5 ∗ a6 ∗ a7) ∗ (b3 ∗ b4 ∗ b5 ∗ b6 ∗ b7)) :=
  BI.equiv_iff.mp ⟨(regroup13_bi d0 d1 d2 a3 b3 a4 b4 a5 b5 a6 b6 a7 b7).1, (regroup13_bi d0 d1 d2 a3 b3 a4 b4 a5 b5 a6 b6 a7 b7).2⟩

/-- Equal parts, equal wholes. -/
theorem sep_congr {M' : Type} [URA M'] {a a' b b' : sProp M'} (ha : a = a') (hb : b = b') :
    (iprop(a ∗ b) : sProp M') = iprop(a' ∗ b') := by rw [ha, hb]

section Quarters
variable (t : Dev nD)

theorem quarters_cut : IsCut (ℓ := (t : Thread nD τ).loc cc0_scratch0) Finset.univ (fun q : Fin 4 => (rectQ q).set) :=
  have h := quarters_sets (fun q => (rectQ q).set) (fun _ => rfl); ⟨h.1, h.2⟩
theorem myq_cut : IsCut (ℓ := (t : Thread nD τ).loc cc0_scratch0) Finset.univ (fun j : Fin 4 => (rectQ (qsel t j)).set) :=
  (quarters_cut t).reindex (qsel t) (qsel_bij t)
theorem chunks_cut (q : Fin 4) :
    IsCut (ℓ := (t : Thread nD τ).loc cc0_scratch0) (rectQ q).set (fun k : Fin 8 => (r4R q k).view.set) :=
  have h := chunks_sets q (fun k => (r4R q k).view.set) (r4R_set q); ⟨h.1, h.2⟩
theorem halves_cut (q : Fin 4) (k : Fin 8) :
    IsCut (ℓ := (t : Thread nD τ).loc cc0_scratch0) (r4R q k).view.set (fun h : Fin 2 => (r4H q k h).view.set) :=
  have h := halves_sets q k _ (r4R_set q k) (fun h => (r4H q k h).view.set) (r4H_set q k); ⟨h.1, h.2⟩

/-- The buffer is the device's four quarters. -/
theorem r4_quarters (q' : PosShare TreeShare) (f : Buf (Elt F) ((t : Thread nD τ).loc cc0_scratch0)) :
    ((t : Thread nD τ).loc cc0_scratch0 ↦{q'} f : sProp 𝕄) =
      iprop(((t : Thread nD τ).loc cc0_scratch0 ↦[(rectQ (mqF t)).set]{q'} f)
        ∗ ((t : Thread nD τ).loc cc0_scratch0 ↦[(rectQ (zqF t)).set]{q'} f)
        ∗ ((t : Thread nD τ).loc cc0_scratch0 ↦[(rectQ (yqF t)).set]{q'} f)
        ∗ ((t : Thread nD τ).loc cc0_scratch0 ↦[(rectQ (dqF t)).set]{q'} f)) :=
  ((myq_cut t).pts_eq q' f).trans (bigSep_fin4 _)

/-- A quarter is its eight chunks. -/
theorem quarter_chunks (q : Fin 4) (q' : PosShare TreeShare) (f : Buf (Elt F) ((t : Thread nD τ).loc cc0_scratch0)) :
    ((t : Thread nD τ).loc cc0_scratch0 ↦[(rectQ q).set]{q'} f : sProp 𝕄) =
      iprop(pts (r4R q 0) t q' f ∗ pts (r4R q 1) t q' f ∗ pts (r4R q 2) t q' f ∗ pts (r4R q 3) t q' f
        ∗ pts (r4R q 4) t q' f ∗ pts (r4R q 5) t q' f ∗ pts (r4R q 6) t q' f ∗ pts (r4R q 7) t q' f) :=
  ((chunks_cut t q).pts_eq q' f).trans (bigSep_fin8 _)

/-- A chunk is its two halves. -/
theorem chunk_halves (q : Fin 4) (k : Fin 8) (q' : PosShare TreeShare) (f : Buf (Elt F) ((t : Thread nD τ).loc cc0_scratch0)) :
    pts (r4R q k) t q' f = (iprop(pts (r4H q k 0) t q' f ∗ pts (r4H q k 1) t q' f) : sProp 𝕄) :=
  ((halves_cut t q k).pts_eq q' f).trans (bigSep_fin_two _)

theorem chunk_halves_junk (q : Fin 4) (k : Fin 8) :
    junk (F := F) (r4R q k) t ⊢ iprop(junk (F := F) (r4H q k 0) t ∗ junk (F := F) (r4H q k 1) t) :=
  ((halves_cut t q k).junk_split fullShare).trans (Entails.of_eq (bigSep_fin_two _))

theorem chunk_halves_join (q : Fin 4) (k : Fin 8) :
    (iprop(junk (F := F) (r4H q k 0) t ∗ junk (F := F) (r4H q k 1) t) : sProp 𝕄) ⊢ junk (F := F) (r4R q k) t :=
  (Entails.of_eq (bigSep_fin_two (fun h : Fin 2 => junk (F := F) (r4H q k h) t)).symm).trans
    ((halves_cut t q k).junk_join fullShare)

/-- Eight chunks at contents of their own are their quarter at some contents. -/
theorem quarter_join (q : Fin 4) :
    (iprop(junk (F := F) (r4R q 0) t ∗ junk (F := F) (r4R q 1) t ∗ junk (F := F) (r4R q 2) t ∗ junk (F := F) (r4R q 3) t
        ∗ junk (F := F) (r4R q 4) t ∗ junk (F := F) (r4R q 5) t ∗ junk (F := F) (r4R q 6) t ∗ junk (F := F) (r4R q 7) t) : sProp 𝕄) ⊢
      iprop(∃ f : Buf (Elt F) ((t : Thread nD τ).loc cc0_scratch0), (t : Thread nD τ).loc cc0_scratch0 ↦[(rectQ q).set]{fullShare} f) :=
  (Entails.of_eq (bigSep_fin8 (fun k : Fin 8 => junk (F := F) (r4R q k) t)).symm).trans ((chunks_cut t q).junk_join fullShare)

/-- The buffer at one contents is the 37 pieces the protocol moves: the chunks of the own quarter and of the two
    neighbours' quarters, the first three chunks of the diagonal quarter, and the left and the right halves of its
    other five. -/
theorem r4_split (q' : PosShare TreeShare) (f : Buf (Elt F) ((t : Thread nD τ).loc cc0_scratch0)) :
    ((t : Thread nD τ).loc cc0_scratch0 ↦{q'} f : sProp 𝕄) =
      iprop((pts (r4R (mqF t) 0) t q' f ∗ pts (r4R (mqF t) 1) t q' f ∗ pts (r4R (mqF t) 2) t q' f ∗ pts (r4R (mqF t) 3) t q' f
          ∗ pts (r4R (mqF t) 4) t q' f ∗ pts (r4R (mqF t) 5) t q' f ∗ pts (r4R (mqF t) 6) t q' f ∗ pts (r4R (mqF t) 7) t q' f)
        ∗ (pts (r4R (zqF t) 0) t q' f ∗ pts (r4R (zqF t) 1) t q' f ∗ pts (r4R (zqF t) 2) t q' f ∗ pts (r4R (zqF t) 3) t q' f
          ∗ pts (r4R (zqF t) 4) t q' f ∗ pts (r4R (zqF t) 5) t q' f ∗ pts (r4R (zqF t) 6) t q' f ∗ pts (r4R (zqF t) 7) t q' f)
        ∗ (pts (r4R (yqF t) 0) t q' f ∗ pts (r4R (yqF t) 1) t q' f ∗ pts (r4R (yqF t) 2) t q' f ∗ pts (r4R (yqF t) 3) t q' f
          ∗ pts (r4R (yqF t) 4) t q' f ∗ pts (r4R (yqF t) 5) t q' f ∗ pts (r4R (yqF t) 6) t q' f ∗ pts (r4R (yqF t) 7) t q' f)
        ∗ (pts (r4R (dqF t) 0) t q' f ∗ pts (r4R (dqF t) 1) t q' f ∗ pts (r4R (dqF t) 2) t q' f)
        ∗ (pts (r4H (dqF t) 3 0) t q' f ∗ pts (r4H (dqF t) 4 0) t q' f ∗ pts (r4H (dqF t) 5 0) t q' f
          ∗ pts (r4H (dqF t) 6 0) t q' f ∗ pts (r4H (dqF t) 7 0) t q' f)
        ∗ (pts (r4H (dqF t) 3 1) t q' f ∗ pts (r4H (dqF t) 4 1) t q' f ∗ pts (r4H (dqF t) 5 1) t q' f
          ∗ pts (r4H (dqF t) 6 1) t q' f ∗ pts (r4H (dqF t) 7 1) t q' f)) := by
  refine (r4_quarters t q' f).trans ?_
  refine sep_congr (quarter_chunks t (mqF t) q' f) (sep_congr (quarter_chunks t (zqF t) q' f)
    (sep_congr (quarter_chunks t (yqF t) q' f) ?_))
  refine (quarter_chunks t (dqF t) q' f).trans ?_
  refine (sep_congr rfl (sep_congr rfl (sep_congr rfl (sep_congr (chunk_halves t (dqF t) 3 q' f)
    (sep_congr (chunk_halves t (dqF t) 4 q' f) (sep_congr (chunk_halves t (dqF t) 5 q' f)
      (sep_congr (chunk_halves t (dqF t) 6 q' f) (chunk_halves t (dqF t) 7 q' f)))))))).trans ?_
  exact regroup13 _ _ _ _ _ _ _ _ _ _ _ _ _

end Quarters

section QuartersJoin
variable (t : Dev nD)

/-- The 37 pieces, each at contents of its own, are the buffer at some contents. -/
theorem r4_join :
    (iprop((junk (F := F) (r4R (mqF t) 0) t ∗ junk (F := F) (r4R (mqF t) 1) t ∗ junk (F := F) (r4R (mqF t) 2) t ∗ junk (F := F) (r4R (mqF t) 3) t
          ∗ junk (F := F) (r4R (mqF t) 4) t ∗ junk (F := F) (r4R (mqF t) 5) t ∗ junk (F := F) (r4R (mqF t) 6) t ∗ junk (F := F) (r4R (mqF t) 7) t)
        ∗ (junk (F := F) (r4R (zqF t) 0) t ∗ junk (F := F) (r4R (zqF t) 1) t ∗ junk (F := F) (r4R (zqF t) 2) t ∗ junk (F := F) (r4R (zqF t) 3) t
          ∗ junk (F := F) (r4R (zqF t) 4) t ∗ junk (F := F) (r4R (zqF t) 5) t ∗ junk (F := F) (r4R (zqF t) 6) t ∗ junk (F := F) (r4R (zqF t) 7) t)
        ∗ (junk (F := F) (r4R (yqF t) 0) t ∗ junk (F := F) (r4R (yqF t) 1) t ∗ junk (F := F) (r4R (yqF t) 2) t ∗ junk (F := F) (r4R (yqF t) 3) t
          ∗ junk (F := F) (r4R (yqF t) 4) t ∗ junk (F := F) (r4R (yqF t) 5) t ∗ junk (F := F) (r4R (yqF t) 6) t ∗ junk (F := F) (r4R (yqF t) 7) t)
        ∗ (junk (F := F) (r4R (dqF t) 0) t ∗ junk (F := F) (r4R (dqF t) 1) t ∗ junk (F := F) (r4R (dqF t) 2) t)
        ∗ (junk (F := F) (r4H (dqF t) 3 0) t ∗ junk (F := F) (r4H (dqF t) 4 0) t ∗ junk (F := F) (r4H (dqF t) 5 0) t
          ∗ junk (F := F) (r4H (dqF t) 6 0) t ∗ junk (F := F) (r4H (dqF t) 7 0) t)
        ∗ (junk (F := F) (r4H (dqF t) 3 1) t ∗ junk (F := F) (r4H (dqF t) 4 1) t ∗ junk (F := F) (r4H (dqF t) 5 1) t
          ∗ junk (F := F) (r4H (dqF t) 6 1) t ∗ junk (F := F) (r4H (dqF t) 7 1) t)) : sProp 𝕄) ⊢
      iprop(∃ f : Buf (Elt F) ((t : Thread nD τ).loc cc0_scratch0), (t : Thread nD τ).loc cc0_scratch0 ↦{fullShare} f) := by
  -- the diagonal quarter: pair the halves, join each pair into its chunk, then the eight chunks into the quarter
  have hd : (iprop((junk (F := F) (r4R (dqF t) 0) t ∗ junk (F := F) (r4R (dqF t) 1) t ∗ junk (F := F) (r4R (dqF t) 2) t)
        ∗ (junk (F := F) (r4H (dqF t) 3 0) t ∗ junk (F := F) (r4H (dqF t) 4 0) t ∗ junk (F := F) (r4H (dqF t) 5 0) t
          ∗ junk (F := F) (r4H (dqF t) 6 0) t ∗ junk (F := F) (r4H (dqF t) 7 0) t)
        ∗ (junk (F := F) (r4H (dqF t) 3 1) t ∗ junk (F := F) (r4H (dqF t) 4 1) t ∗ junk (F := F) (r4H (dqF t) 5 1) t
          ∗ junk (F := F) (r4H (dqF t) 6 1) t ∗ junk (F := F) (r4H (dqF t) 7 1) t)) : sProp 𝕄) ⊢
      iprop(∃ f : Buf (Elt F) ((t : Thread nD τ).loc cc0_scratch0), (t : Thread nD τ).loc cc0_scratch0 ↦[(rectQ (dqF t)).set]{fullShare} f) := by
    refine (Entails.of_eq (regroup13 _ _ _ _ _ _ _ _ _ _ _ _ _).symm).trans ?_
    refine (BIClass.sep_mono .rfl (BIClass.sep_mono .rfl (BIClass.sep_mono .rfl
      (BIClass.sep_mono (chunk_halves_join t (dqF t) 3) (BIClass.sep_mono (chunk_halves_join t (dqF t) 4)
        (BIClass.sep_mono (chunk_halves_join t (dqF t) 5) (BIClass.sep_mono (chunk_halves_join t (dqF t) 6)
          (chunk_halves_join t (dqF t) 7)))))))).trans ?_
    exact quarter_join t (dqF t)
  refine (BIClass.sep_mono (quarter_join t (mqF t)) (BIClass.sep_mono (quarter_join t (zqF t))
    (BIClass.sep_mono (quarter_join t (yqF t)) hd))).trans ?_
  exact (Entails.of_eq (bigSep_fin4 (fun j : Fin 4 => (iprop(∃ f : Buf (Elt F) ((t : Thread nD τ).loc cc0_scratch0),
      (t : Thread nD τ).loc cc0_scratch0 ↦[(rectQ (qsel t j)).set]{fullShare} f) : sProp 𝕄))).symm).trans
    ((myq_cut t).junk_join fullShare)

/-- The chunks of a quarter at one contents are what a neighbour is handed with the barrier signal. -/
theorem giveQ_of_pts (q : Fin 4) (f : Buf (Elt F) ((t : Thread nD τ).loc cc0_scratch0)) :
    (iprop(pts (r4R q 0) t fullShare f ∗ pts (r4R q 1) t fullShare f ∗ pts (r4R q 2) t fullShare f ∗ pts (r4R q 3) t fullShare f
      ∗ pts (r4R q 4) t fullShare f ∗ pts (r4R q 5) t fullShare f ∗ pts (r4R q 6) t fullShare f ∗ pts (r4R q 7) t fullShare f) : sProp 𝕄)
      ⊢ giveQ (F := F) t q := by
  unfold giveQ
  exact BIClass.sep_mono (junk_of_pts (r4R q 0) t f) (BIClass.sep_mono (junk_of_pts (r4R q 1) t f)
    (BIClass.sep_mono (junk_of_pts (r4R q 2) t f) (BIClass.sep_mono (junk_of_pts (r4R q 3) t f)
      (BIClass.sep_mono (junk_of_pts (r4R q 4) t f) (BIClass.sep_mono (junk_of_pts (r4R q 5) t f)
        (BIClass.sep_mono (junk_of_pts (r4R q 6) t f) (junk_of_pts (r4R q 7) t f)))))))

/-- The left (h = 0) or right (h = 1) halves of chunks 3 … 7 of the diagonal quarter likewise. -/
theorem giveH_of_pts (h : Fin 2) (f : Buf (Elt F) ((t : Thread nD τ).loc cc0_scratch0)) :
    (iprop(pts (r4H (dqF t) 3 h) t fullShare f ∗ pts (r4H (dqF t) 4 h) t fullShare f ∗ pts (r4H (dqF t) 5 h) t fullShare f
      ∗ pts (r4H (dqF t) 6 h) t fullShare f ∗ pts (r4H (dqF t) 7 h) t fullShare f) : sProp 𝕄)
      ⊢ giveH (F := F) t h := by
  unfold giveH
  exact BIClass.sep_mono (junk_of_pts (r4H (dqF t) 3 h) t f) (BIClass.sep_mono (junk_of_pts (r4H (dqF t) 4 h) t f)
    (BIClass.sep_mono (junk_of_pts (r4H (dqF t) 5 h) t f) (BIClass.sep_mono (junk_of_pts (r4H (dqF t) 6 h) t f)
      (junk_of_pts (r4H (dqF t) 7 h) t f))))

/-- At the kernel's entry: the buffer at one contents is what the device keeps (its own quarter's chunks and the
    first three chunks of the diagonal quarter, at that contents) and what it hands its z- and y-neighbour. -/
theorem r4_entry (f : Buf (Elt F) ((t : Thread nD τ).loc cc0_scratch0)) :
    ((t : Thread nD τ).loc cc0_scratch0 ↦{fullShare} f : sProp 𝕄) ⊢
      iprop((pts (r4R (mqF t) 0) t fullShare f ∗ pts (r4R (mqF t) 1) t fullShare f ∗ pts (r4R (mqF t) 2) t fullShare f
          ∗ pts (r4R (mqF t) 3) t fullShare f ∗ pts (r4R (mqF t) 4) t fullShare f ∗ pts (r4R (mqF t) 5) t fullShare f
          ∗ pts (r4R (mqF t) 6) t fullShare f ∗ pts (r4R (mqF t) 7) t fullShare f)
        ∗ giveQ (F := F) t (zqF t) ∗ giveQ (F := F) t (yqF t)
        ∗ (pts (r4R (dqF t) 0) t fullShare f ∗ pts (r4R (dqF t) 1) t fullShare f ∗ pts (r4R (dqF t) 2) t fullShare f)
        ∗ giveH (F := F) t 0 ∗ giveH (F := F) t 1) := by
  refine (Entails.of_eq (r4_split t fullShare f)).trans ?_
  exact BIClass.sep_mono .rfl (BIClass.sep_mono (giveQ_of_pts t (zqF t) f) (BIClass.sep_mono (giveQ_of_pts t (yqF t) f)
    (BIClass.sep_mono .rfl (BIClass.sep_mono (giveH_of_pts t 0 f) (giveH_of_pts t 1 f)))))

end QuartersJoin

/-! ## The result array: eight blocks of rows, each four blocks of columns -/

theorem orow_inb : ∀ (k : Fin 8), ∀ a : Fin 2,
    (![512 * k.val, 0] : Fin 2 → ℕ) a + (![512, 1024] : Fin 2 → ℕ) a ≤ S4096x1024.size a := by decide

abbrev rectOR (k : Fin 8) : Rect S4096x1024 := Rect.unit (s := S4096x1024) ![512 * k.val, 0] ![512, 1024] (orow_inb k)
abbrev rectO (k : Fin 8) (q : Fin 4) : Rect S4096x1024 :=
  Rect.unit (s := S4096x1024) ![512 * k.val, 256 * q.val] S512x256.size (out_inb k q)

theorem orows_ok : SlabOK (r := 2) 0 8 512 (fun _ => 0) S4096x1024.size (fun k : Fin 8 => ![512 * k.val, 0]) ![512, 1024] := by
  decide
theorem ocols_ok : ∀ k : Fin 8, SlabOK (r := 2) 1 4 256 ![512 * k.val, 0] ![512, 1024]
    (fun q : Fin 4 => ![512 * k.val, 256 * q.val]) S512x256.size := by decide

theorem orows_sets (K : Fin 8 → Finset S4096x1024.Idx) (e : ∀ k, K k = (rectOR k).set) :
    (∀ a b, a ≠ b → Disjoint (K a) (K b)) ∧ ∀ i, i ∈ (Finset.univ : Finset S4096x1024.Idx) ↔ ∃ k, i ∈ K k := by
  refine ⟨fun a b h => ?_, fun i => ?_⟩
  · have := slab_disjoint (s := S4096x1024) orows_ok orow_inb a b h
    rw [e a, e b]; exact this
  · refine ⟨fun _ => ?_, fun _ => Finset.mem_univ i⟩
    obtain ⟨k, hk⟩ := (mem_slab_iff (s := S4096x1024) orows_ok (fun a => Nat.le_of_eq (Nat.zero_add _)) orow_inb i).mp
      (mem_unit_zero _ i)
    exact ⟨k, by rw [e k]; exact hk⟩

theorem ocols_sets (k : Fin 8) (K : Fin 4 → Finset S4096x1024.Idx) (e : ∀ q, K q = (rectO k q).set) :
    (∀ a b, a ≠ b → Disjoint (K a) (K b)) ∧ ∀ i, i ∈ (rectOR k).set ↔ ∃ q, i ∈ K q := by
  refine ⟨fun a b h => ?_, fun i => ?_⟩
  · have := slab_disjoint (s := S4096x1024) (ocols_ok k) (out_inb k) a b h
    rw [e a, e b]; exact this
  · have := mem_slab_iff (s := S4096x1024) (ocols_ok k) (orow_inb k) (out_inb k) i
    exact this.trans (exists_congr fun q => by rw [e q])

/-- Four assertions in front of a rest, written without the bracket. -/
theorem assoc4_bi {M' : Type} [URA M'] (a b c d R : sProp M') :
    (iprop((a ∗ b ∗ c ∗ d) ∗ R) : sProp M') ⊣⊢ iprop(a ∗ b ∗ c ∗ d ∗ R) := by
  constructor
  · iintro ⟨⟨A, B, C, D⟩, HR⟩
    iframe
  · iintro ⟨A, B, C, D, HR⟩
    iframe

theorem flat_step {M' : Type} [URA M'] {a b c d R R' : sProp M'} (h : R = R') :
    (iprop((a ∗ b ∗ c ∗ d) ∗ R) : sProp M') = iprop(a ∗ b ∗ c ∗ d ∗ R') := by
  rw [h]
  exact BI.equiv_iff.mp ⟨(assoc4_bi a b c d R').1, (assoc4_bi a b c d R').2⟩

section Out
variable (t : Dev nD)

theorem orows_cut : IsCut (ℓ := (t : Thread nD τ).loc main_v1) Finset.univ (fun k : Fin 8 => (rectOR k).set) :=
  have h := orows_sets (fun k => (rectOR k).set) (fun _ => rfl); ⟨h.1, h.2⟩
theorem ocols_cut (k : Fin 8) :
    IsCut (ℓ := (t : Thread nD τ).loc main_v1) (rectOR k).set (fun q : Fin 4 => (outR k q).view.set) :=
  have h := ocols_sets k (fun q => (outR k q).view.set) (fun q => View.set_slice_whole _ _); ⟨h.1, h.2⟩

/-- The result is its eight blocks of rows. -/
theorem out_rows (q' : PosShare TreeShare) (f : Buf (Elt F) ((t : Thread nD τ).loc main_v1)) :
    ((t : Thread nD τ).loc main_v1 ↦{q'} f : sProp 𝕄) =
      iprop(((t : Thread nD τ).loc main_v1 ↦[(rectOR 0).set]{q'} f) ∗ ((t : Thread nD τ).loc main_v1 ↦[(rectOR 1).set]{q'} f)
        ∗ ((t : Thread nD τ).loc main_v1 ↦[(rectOR 2).set]{q'} f) ∗ ((t : Thread nD τ).loc main_v1 ↦[(rectOR 3).set]{q'} f)
        ∗ ((t : Thread nD τ).loc main_v1 ↦[(rectOR 4).set]{q'} f) ∗ ((t : Thread nD τ).loc main_v1 ↦[(rectOR 5).set]{q'} f)
        ∗ ((t : Thread nD τ).loc main_v1 ↦[(rectOR 6).set]{q'} f) ∗ ((t : Thread nD τ).loc main_v1 ↦[(rectOR 7).set]{q'} f)) :=
  ((orows_cut t).pts_eq q' f).trans (bigSep_fin8 _)

/-- A block of rows is its four blocks of columns. -/
theorem out_row_blocks (k : Fin 8) (q' : PosShare TreeShare) (f : Buf (Elt F) ((t : Thread nD τ).loc main_v1)) :
    ((t : Thread nD τ).loc main_v1 ↦[(rectOR k).set]{q'} f : sProp 𝕄) =
      iprop(pts (outR k 0) t q' f ∗ pts (outR k 1) t q' f ∗ pts (outR k 2) t q' f ∗ pts (outR k 3) t q' f) :=
  ((ocols_cut t k).pts_eq q' f).trans (bigSep_fin4 _)

theorem out_row_blocks_junk (k : Fin 8) :
    (iprop(∃ f : Buf (Elt F) ((t : Thread nD τ).loc main_v1), (t : Thread nD τ).loc main_v1 ↦[(rectOR k).set]{fullShare} f) : sProp 𝕄) ⊢
      iprop(junk (F := F) (outR k 0) t ∗ junk (F := F) (outR k 1) t ∗ junk (F := F) (outR k 2) t ∗ junk (F := F) (outR k 3) t) :=
  ((ocols_cut t k).junk_split fullShare).trans (Entails.of_eq (bigSep_fin4 _))

/-- The result at one contents is its 32 blocks at that contents. -/
theorem out_blocks (q' : PosShare TreeShare) (f : Buf (Elt F) ((t : Thread nD τ).loc main_v1)) :
    pts (Memref.whole main_v1) t q' f =
      (iprop(pts (outR 0 0) t q' f ∗ pts (outR 0 1) t q' f ∗ pts (outR 0 2) t q' f ∗ pts (outR 0 3) t q' f
        ∗ pts (outR 1 0) t q' f ∗ pts (outR 1 1) t q' f ∗ pts (outR 1 2) t q' f ∗ pts (outR 1 3) t q' f
        ∗ pts (outR 2 0) t q' f ∗ pts (outR 2 1) t q' f ∗ pts (outR 2 2) t q' f ∗ pts (outR 2 3) t q' f
        ∗ pts (outR 3 0) t q' f ∗ pts (outR 3 1) t q' f ∗ pts (outR 3 2) t q' f ∗ pts (outR 3 3) t q' f
        ∗ pts (outR 4 0) t q' f ∗ pts (outR 4 1) t q' f ∗ pts (outR 4 2) t q' f ∗ pts (outR 4 3) t q' f
        ∗ pts (outR 5 0) t q' f ∗ pts (outR 5 1) t q' f ∗ pts (outR 5 2) t q' f ∗ pts (outR 5 3) t q' f
        ∗ pts (outR 6 0) t q' f ∗ pts (outR 6 1) t q' f ∗ pts (outR 6 2) t q' f ∗ pts (outR 6 3) t q' f
        ∗ pts (outR 7 0) t q' f ∗ pts (outR 7 1) t q' f ∗ pts (outR 7 2) t q' f ∗ pts (outR 7 3) t q' f) : sProp 𝕄) := by
  refine (pts_whole t main_v1 q' f).trans ((out_rows t q' f).trans ?_)
  refine (sep_congr (out_row_blocks t 0 q' f) (sep_congr (out_row_blocks t 1 q' f) (sep_congr (out_row_blocks t 2 q' f)
    (sep_congr (out_row_blocks t 3 q' f) (sep_congr (out_row_blocks t 4 q' f) (sep_congr (out_row_blocks t 5 q' f)
      (sep_congr (out_row_blocks t 6 q' f) (out_row_blocks t 7 q' f)))))))).trans ?_
  exact flat_step (flat_step (flat_step (flat_step (flat_step (flat_step (flat_step rfl))))))

/-- The 32 blocks at one contents are the result at that contents. -/
theorem out_join (f : Buf (Elt F) ((t : Thread nD τ).loc main_v1)) :
    (iprop(pts (outR 0 0) t fullShare f ∗ pts (outR 0 1) t fullShare f ∗ pts (outR 0 2) t fullShare f ∗ pts (outR 0 3) t fullShare f
        ∗ pts (outR 1 0) t fullShare f ∗ pts (outR 1 1) t fullShare f ∗ pts (outR 1 2) t fullShare f ∗ pts (outR 1 3) t fullShare f
        ∗ pts (outR 2 0) t fullShare f ∗ pts (outR 2 1) t fullShare f ∗ pts (outR 2 2) t fullShare f ∗ pts (outR 2 3) t fullShare f
        ∗ pts (outR 3 0) t fullShare f ∗ pts (outR 3 1) t fullShare f ∗ pts (outR 3 2) t fullShare f ∗ pts (outR 3 3) t fullShare f
        ∗ pts (outR 4 0) t fullShare f ∗ pts (outR 4 1) t fullShare f ∗ pts (outR 4 2) t fullShare f ∗ pts (outR 4 3) t fullShare f
        ∗ pts (outR 5 0) t fullShare f ∗ pts (outR 5 1) t fullShare f ∗ pts (outR 5 2) t fullShare f ∗ pts (outR 5 3) t fullShare f
        ∗ pts (outR 6 0) t fullShare f ∗ pts (outR 6 1) t fullShare f ∗ pts (outR 6 2) t fullShare f ∗ pts (outR 6 3) t fullShare f
        ∗ pts (outR 7 0) t fullShare f ∗ pts (outR 7 1) t fullShare f ∗ pts (outR 7 2) t fullShare f ∗ pts (outR 7 3) t fullShare f) : sProp 𝕄)
      ⊢ pts (Memref.whole main_v1) t fullShare f :=
  Entails.of_eq (out_blocks t fullShare f).symm

/-- The result at some contents is its 32 blocks, each at some contents. -/
theorem out_split_junk :
    junk (F := F) (Memref.whole main_v1) t ⊢
      iprop(junk (F := F) (outR 0 0) t ∗ junk (F := F) (outR 0 1) t ∗ junk (F := F) (outR 0 2) t ∗ junk (F := F) (outR 0 3) t
        ∗ junk (F := F) (outR 1 0) t ∗ junk (F := F) (outR 1 1) t ∗ junk (F := F) (outR 1 2) t ∗ junk (F := F) (outR 1 3) t
        ∗ junk (F := F) (outR 2 0) t ∗ junk (F := F) (outR 2 1) t ∗ junk (F := F) (outR 2 2) t ∗ junk (F := F) (outR 2 3) t
        ∗ junk (F := F) (outR 3 0) t ∗ junk (F := F) (outR 3 1) t ∗ junk (F := F) (outR 3 2) t ∗ junk (F := F) (outR 3 3) t
        ∗ junk (F := F) (outR 4 0) t ∗ junk (F := F) (outR 4 1) t ∗ junk (F := F) (outR 4 2) t ∗ junk (F := F) (outR 4 3) t
        ∗ junk (F := F) (outR 5 0) t ∗ junk (F := F) (outR 5 1) t ∗ junk (F := F) (outR 5 2) t ∗ junk (F := F) (outR 5 3) t
        ∗ junk (F := F) (outR 6 0) t ∗ junk (F := F) (outR 6 1) t ∗ junk (F := F) (outR 6 2) t ∗ junk (F := F) (outR 6 3) t
        ∗ junk (F := F) (outR 7 0) t ∗ junk (F := F) (outR 7 1) t ∗ junk (F := F) (outR 7 2) t ∗ junk (F := F) (outR 7 3) t) := by
  refine (Entails.of_eq (junk_whole t main_v1)).trans ?_
  refine (((orows_cut t).junk_split fullShare).trans (Entails.of_eq (bigSep_fin8 _))).trans ?_
  refine (BIClass.sep_mono (out_row_blocks_junk t 0) (BIClass.sep_mono (out_row_blocks_junk t 1)
    (BIClass.sep_mono (out_row_blocks_junk t 2) (BIClass.sep_mono (out_row_blocks_junk t 3)
      (BIClass.sep_mono (out_row_blocks_junk t 4) (BIClass.sep_mono (out_row_blocks_junk t 5)
        (BIClass.sep_mono (out_row_blocks_junk t 6) (out_row_blocks_junk t 7)))))))).trans ?_
  exact Entails.of_eq (flat_step (flat_step (flat_step (flat_step (flat_step (flat_step (flat_step rfl)))))))

end Out

end Cert.Kernel.RS

end
-- ==== Proof.K.OutRules.lean ====
import proofs.«901022_g7700000000001023_dist_rs_v7x_xyz2x2x2_x_m4096_n1024_bf16_1_alg».proof.Proof.K.SendRules
import proofs.«901022_g7700000000001023_dist_rs_v7x_xyz2x2x2_x_m4096_n1024_bf16_1_alg».proof.Proof.K.OutChunks
import proofs.«901022_g7700000000001023_dist_rs_v7x_xyz2x2x2_x_m4096_n1024_bf16_1_alg».proof.Proof.K.Regions
import Idealize.ShloMosaic.Lib.Pipeline.Value
import Idealize.ShloMosaic.Lib.ValueLayout
import Idealize.ShloMosaic.Lib.ValueIdx
import Idealize.ShloMosaic.Rules.PointsTo

/-! The local copies and stores of the kernel, by what they leave: a block of the input copied into a staging buffer
    is that buffer's final block; a staged block rounded (or summed with the landed block and rounded) is the final
    block of the buffer it is stored to; a chunk of the four-quarter buffer copied out is a block of the result. -/

noncomputable section

namespace Cert.Kernel.RS

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## A chunk of the four-quarter buffer copied out is a block of the result -/

/-- The result by coordinates: entry (i, 256 q + j) is entry (q, i, j) of the four quarters. -/
theorem out_eq (t : Dev nD) (y : S4096x1024.Idx) : out m t y = r4v m t ((y 1).val / 256) (y 0).val ((y 1).val % 256) := rfl

/-- The element of the result under index x of block (k, q). -/
theorem outR_emb (k : Fin 8) (q : Fin 4) (x : S512x256.Idx) :
    (((outR k q).view.emb x : S4096x1024.Idx) 0).val = 512 * k.val + (x 0).val
      ∧ (((outR k q).view.emb x : S4096x1024.Idx) 1).val = 256 * q.val + (x 1).val := by
  refine ⟨?_, ?_⟩
  · show 512 * k.val + 1 * (x 0).val = _; omega
  · show 256 * q.val + 1 * (x 1).val = _; omega

theorem out_outR (t : Dev nD) (k : Fin 8) (q : Fin 4) (x : S512x256.Idx) :
    out m t ((outR k q).view.emb x) = r4v m t q.val (512 * k.val + (x 0).val) (x 1).val := by
  obtain ⟨h0, h1⟩ := outR_emb k q x
  have hx : (x 1).val < 256 := (x 1).isLt
  refine (out_eq m t _).trans ?_
  rw [h0, h1, show (256 * q.val + (x 1).val) / 256 = q.val by omega, show (256 * q.val + (x 1).val) % 256 = (x 1).val by omega]

/-- Chunk k of quarter q, copied into block (k, q) of the result, leaves the result's final contents there. -/
theorem land_out (c : Dev nD) (k : Fin 8) (q : Fin 4) (fd : Buf (Elt F) ((outR k q).view.loc (c : Thread nD τ))) :
    ∀ i ∈ (outR k q).view.set,
      (outR k q).view.write (Elt F) fd ((r4R q k).view.read (Elt F) (r4 m c)) Finset.univ i = out m c i := by
  refine copy_on (r4R q k).view (outR k q).view (r4 m c) fd (out m c) (fun x => ?_)
  show out m c ((outR k q).view.emb x) = r4 m c ((r4R q k).view.emb x)
  rw [out_outR, r4_r4R]

/-! ## A block of the input copied into a staging buffer is that buffer's final block -/

/-- A block of 512 rows and 256 columns of a device's input block, named by its offsets. -/
abbrev xinR (off : Fin 3 → ℕ) (inb : ∀ a, off a + S1x512x256.size a ≤ S1x4096x2048.size a) : Memref sig .tc .hbm S512x256 .f32 :=
  ((Memref.whole main_arg0 : Memref sig .tc .hbm S1x4096x2048 .f32).slice (Rect.unit (s := S1x4096x2048) off S1x512x256.size inb) (fun _ => rfl)).squeeze S512x256 squeezes_S1x512x256_S512x256

/-- The first column of the block of columns a device sends across x (own quarter, diagonal quarter) and keeps, as the
    program computes it from the device's number. -/
abbrev colP (c : Dev nD) : ℕ := (512 * ((c.val / 2) % 2) + 256 * (c.val % 2) + 1024) - 1024 * (c.val / 4)
abbrev colL (c : Dev nD) : ℕ := 1024 * (c.val / 4) + 512 * ((c.val / 2) % 2) + 256 * (c.val % 2)
abbrev colP2 (c : Dev nD) : ℕ := 1792 - (1024 * (c.val / 4) + 512 * ((c.val / 2) % 2) + 256 * (c.val % 2))
abbrev colL2 (c : Dev nD) : ℕ := (1024 * (c.val / 4) + 768) - (512 * ((c.val / 2) % 2) + 256 * (c.val % 2))

theorem colP_eq (c : Dev nD) : colP c = colOf (1 - mx c) (mq c) 0 := by revert c; decide
theorem colL_eq (c : Dev nD) : colL c = colOf (mx c) (mq c) 0 := by revert c; decide
theorem colP2_eq (c : Dev nD) : colP2 c = colOf (1 - mx c) (dq c) 0 := by revert c; decide
theorem colL2_eq (c : Dev nD) : colL2 c = colOf (mx c) (dq c) 0 := by revert c; decide
theorem colOf_add (a q j : ℕ) : colOf a q 0 + j = colOf a q j := by unfold colOf; omega

/-- An entry of a device's input block by its row and column. -/
theorem xin_at (t : Dev nD) (y : S1x4096x2048.Idx) : xin m t y = xat m t (y 1).val (y 2).val := by
  have h0 : (y 0).val < 1 := (y 0).isLt
  have h1 : (y 1).val < 4096 := (y 1).isLt
  have h2 : (y 2).val < 2048 := (y 2).isLt
  unfold xat
  refine congrArg (xin m t) ?_
  funext a
  match a with
  | ⟨0, _⟩ => exact Fin.ext (by show (y 0).val = 0; omega)
  | ⟨1, _⟩ => exact Fin.ext (by show (y 1).val = (y 1).val % 4096; omega)
  | ⟨2, _⟩ => exact Fin.ext (by show (y 2).val = (y 2).val % 2048; omega)

theorem xinR_emb (off : Fin 3 → ℕ) (inb : ∀ a, off a + S1x512x256.size a ≤ S1x4096x2048.size a) (x : S512x256.Idx) :
    (((xinR off inb).view.emb x : S1x4096x2048.Idx) 1).val = off 1 + (x 0).val
      ∧ (((xinR off inb).view.emb x : S1x4096x2048.Idx) 2).val = off 2 + (x 1).val := by
  obtain ⟨a, b, rfl⟩ : ∃ a b, x = ix2 a b := ⟨x 0, x 1, eq_ix2 x⟩
  show (((Rect.unit (s := S1x4096x2048) off S1x512x256.size inb).emb (Shape.reshapeEquiv squeezes_S1x512x256_S512x256.numel_eq (ix2 a b))) 1).val = _
    ∧ (((Rect.unit (s := S1x4096x2048) off S1x512x256.size inb).emb (Shape.reshapeEquiv squeezes_S1x512x256_S512x256.numel_eq (ix2 a b))) 2).val = _
  rw [reshapeEquiv_ix2_1ab]
  refine ⟨?_, ?_⟩
  · show off 1 + 1 * a.val = off 1 + a.val; omega
  · show off 2 + 1 * b.val = off 2 + b.val; omega

theorem xin_xinR (t : Dev nD) (off : Fin 3 → ℕ) (inb : ∀ a, off a + S1x512x256.size a ≤ S1x4096x2048.size a) (x : S512x256.Idx) :
    xin m t ((xinR off inb).view.emb x) = xat m t (off 1 + (x 0).val) (off 2 + (x 1).val) := by
  obtain ⟨h1, h2⟩ := xinR_emb off inb x
  exact (xin_at m t _).trans (by rw [h1, h2])

/-- The element of a staging buffer under index x of its row block k. -/
theorem rows8_emb (k : Fin 8) (x : S512x256.Idx) :
    (((Rect.unit (s := S4096x256) ![512 * k.val, 0] S512x256.size (rows8_inb k)).emb x) 0).val = 512 * k.val + (x 0).val
      ∧ (((Rect.unit (s := S4096x256) ![512 * k.val, 0] S512x256.size (rows8_inb k)).emb x) 1).val = (x 1).val := by
  refine ⟨?_, ?_⟩
  · show 512 * k.val + 1 * (x 0).val = _; omega
  · show 0 + 1 * (x 1).val = _; omega
theorem rows3_emb (k : Fin 3) (x : S512x256.Idx) :
    (((Rect.unit (s := S1536x256) ![512 * k.val, 0] S512x256.size (rows3_inb k)).emb x) 0).val = 512 * k.val + (x 0).val
      ∧ (((Rect.unit (s := S1536x256) ![512 * k.val, 0] S512x256.size (rows3_inb k)).emb x) 1).val = (x 1).val := by
  refine ⟨?_, ?_⟩
  · show 512 * k.val + 1 * (x 0).val = _; omega
  · show 0 + 1 * (x 1).val = _; omega

theorem stP_eq (t : Dev nD) (y : S4096x256.Idx) : stP m t y = xat m t (y 0).val (colOf (1 - mx t) (mq t) (y 1).val) := rfl
theorem stL_eq (t : Dev nD) (y : S4096x256.Idx) : stL m t y = xat m t (y 0).val (colOf (mx t) (mq t) (y 1).val) := rfl
theorem stP2_eq (t : Dev nD) (y : S1536x256.Idx) : stP2 m t y = xat m t (y 0).val (colOf (1 - mx t) (dq t) (y 1).val) := rfl
theorem stL2_eq (t : Dev nD) (y : S1536x256.Idx) : stL2 m t y = xat m t (y 0).val (colOf (mx t) (dq t) (y 1).val) := rfl

theorem stP_stPR (t : Dev nD) (k : Fin 8) (x : S512x256.Idx) :
    stP m t ((stPR k).view.emb x) = xat m t (512 * k.val + (x 0).val) (colOf (1 - mx t) (mq t) (x 1).val) := by
  obtain ⟨h0, h1⟩ := rows8_emb k x
  have h0' : (((stPR k).view.emb x : S4096x256.Idx) 0).val = 512 * k.val + (x 0).val := h0
  have h1' : (((stPR k).view.emb x : S4096x256.Idx) 1).val = (x 1).val := h1
  exact (stP_eq m t _).trans (by rw [h0', h1'])
theorem stL_stLR (t : Dev nD) (k : Fin 8) (x : S512x256.Idx) :
    stL m t ((stLR k).view.emb x) = xat m t (512 * k.val + (x 0).val) (colOf (mx t) (mq t) (x 1).val) := by
  obtain ⟨h0, h1⟩ := rows8_emb k x
  have h0' : (((stLR k).view.emb x : S4096x256.Idx) 0).val = 512 * k.val + (x 0).val := h0
  have h1' : (((stLR k).view.emb x : S4096x256.Idx) 1).val = (x 1).val := h1
  exact (stL_eq m t _).trans (by rw [h0', h1'])
theorem stP2_stP2R (t : Dev nD) (k : Fin 3) (x : S512x256.Idx) :
    stP2 m t ((stP2R k).view.emb x) = xat m t (512 * k.val + (x 0).val) (colOf (1 - mx t) (dq t) (x 1).val) := by
  obtain ⟨h0, h1⟩ := rows3_emb k x
  have h0' : (((stP2R k).view.emb x : S1536x256.Idx) 0).val = 512 * k.val + (x 0).val := h0
  have h1' : (((stP2R k).view.emb x : S1536x256.Idx) 1).val = (x 1).val := h1
  exact (stP2_eq m t _).trans (by rw [h0', h1'])
theorem stL2_stL2R (t : Dev nD) (k : Fin 3) (x : S512x256.Idx) :
    stL2 m t ((stL2R k).view.emb x) = xat m t (512 * k.val + (x 0).val) (colOf (mx t) (dq t) (x 1).val) := by
  obtain ⟨h0, h1⟩ := rows3_emb k x
  have h0' : (((stL2R k).view.emb x : S1536x256.Idx) 0).val = 512 * k.val + (x 0).val := h0
  have h1' : (((stL2R k).view.emb x : S1536x256.Idx) 1).val = (x 1).val := h1
  exact (stL2_eq m t _).trans (by rw [h0', h1'])

/-- The block of the input at rows 512k … and the columns the device sends across x for its own quarter, copied into
    row block k of the first staging buffer, leaves that buffer's final contents there; likewise the three others. -/
theorem land_stP (c : Dev nD) (k : Fin 8) (off : Fin 3 → ℕ) (inb : ∀ a, off a + S1x512x256.size a ≤ S1x4096x2048.size a)
    (h : off = ![0, 512 * k.val, colP c]) (fd : Buf (Elt F) ((stPR k).view.loc (c : Thread nD τ))) :
    ∀ i ∈ (stPR k).view.set, (stPR k).view.write (Elt F) fd ((xinR off inb).view.read (Elt F) (xin m c)) Finset.univ i = stP m c i := by
  refine copy_on (xinR off inb).view (stPR k).view (xin m c) fd (stP m c) (fun x => ?_)
  show stP m c ((stPR k).view.emb x) = xin m c ((xinR off inb).view.emb x)
  rw [stP_stPR, xin_xinR, ← colOf_add, ← colP_eq]; subst h; rfl
theorem land_stL (c : Dev nD) (k : Fin 8) (off : Fin 3 → ℕ) (inb : ∀ a, off a + S1x512x256.size a ≤ S1x4096x2048.size a)
    (h : off = ![0, 512 * k.val, colL c]) (fd : Buf (Elt F) ((stLR k).view.loc (c : Thread nD τ))) :
    ∀ i ∈ (stLR k).view.set, (stLR k).view.write (Elt F) fd ((xinR off inb).view.read (Elt F) (xin m c)) Finset.univ i = stL m c i := by
  refine copy_on (xinR off inb).view (stLR k).view (xin m c) fd (stL m c) (fun x => ?_)
  show stL m c ((stLR k).view.emb x) = xin m c ((xinR off inb).view.emb x)
  rw [stL_stLR, xin_xinR, ← colOf_add, ← colL_eq]; subst h; rfl
theorem land_stP2 (c : Dev nD) (k : Fin 3) (off : Fin 3 → ℕ) (inb : ∀ a, off a + S1x512x256.size a ≤ S1x4096x2048.size a)
    (h : off = ![0, 512 * k.val, colP2 c]) (fd : Buf (Elt F) ((stP2R k).view.loc (c : Thread nD τ))) :
    ∀ i ∈ (stP2R k).view.set, (stP2R k).view.write (Elt F) fd ((xinR off inb).view.read (Elt F) (xin m c)) Finset.univ i = stP2 m c i := by
  refine copy_on (xinR off inb).view (stP2R k).view (xin m c) fd (stP2 m c) (fun x => ?_)
  show stP2 m c ((stP2R k).view.emb x) = xin m c ((xinR off inb).view.emb x)
  rw [stP2_stP2R, xin_xinR, ← colOf_add, ← colP2_eq]; subst h; rfl
theorem land_stL2 (c : Dev nD) (k : Fin 3) (off : Fin 3 → ℕ) (inb : ∀ a, off a + S1x512x256.size a ≤ S1x4096x2048.size a)
    (h : off = ![0, 512 * k.val, colL2 c]) (fd : Buf (Elt F) ((stL2R k).view.loc (c : Thread nD τ))) :
    ∀ i ∈ (stL2R k).view.set, (stL2R k).view.write (Elt F) fd ((xinR off inb).view.read (Elt F) (xin m c)) Finset.univ i = stL2 m c i := by
  refine copy_on (xinR off inb).view (stL2R k).view (xin m c) fd (stL2 m c) (fun x => ?_)
  show stL2 m c ((stL2R k).view.emb x) = xin m c ((xinR off inb).view.emb x)
  rw [stL2_stL2R, xin_xinR, ← colOf_add, ← colL2_eq]; subst h; rfl

/-- The offsets the program computes are of that form: row block 0 of the first buffer, row block 1 of the second and of the third. -/
example (c : Dev nD) : k0_off1 c = ![0, 512 * (0 : Fin 8).val, colP c] := k0_off1_eq c
example (c : Dev nD) : k0_off4 c = ![0, 512 * (1 : Fin 8).val, colL c] := k0_off4_eq c
example (c : Dev nD) : k0_off19 c = ![0, 512 * (1 : Fin 3).val, colP2 c] := k0_off19_eq c

/-! ## What the stores leave -/

/-- A store through a view leaves, on the view's elements, any g that under each index holds the stored value. -/
theorem write_on {κ : Kind} {sp : Space} {s : Shape} {e : EltTy} {Val : EltTy → Type}
    (v : View sig κ sp s e) (fd g : v.ty.Contents Val) (w : s.Idx → Val e)
    (h : ∀ x : s.Idx, g (v.emb x) = cast (congrArg Val v.elt_eq.symm) (w x)) :
    ∀ i ∈ v.set, v.write Val fd w Finset.univ i = g i := by
  intro i hi
  obtain ⟨x, rfl⟩ := View.exists_emb_of_mem_set v hi
  rw [View.write_emb_of_mem _ _ (Finset.mem_univ x), h]

/-- A staged block rounded to bf16: what is stored into the buffers that travel across x. -/
def roundv (v : Vec F S512x256 .f32) : FVec F S512x256 .bf16 :=
  shapeCast S512x256 (truncf .bf16 v bitsLt_bf16_f32) shapeCasts_S512x256_S512x256
/-- A staged block plus the landed block widened, rounded to bf16, as one slab of the four-quarter buffer. -/
def sumv (v : Vec F S512x256 .f32) (w : Vec F S512x256 .bf16) : FVec F S1x512x256 .bf16 :=
  shapeCast S1x512x256 (truncf .bf16 (addf v (extf .f32 w bitsLt_bf16_f32)) bitsLt_bf16_f32) shapeCasts_S512x256_S1x512x256

/-- The printed payloads are these two functions. -/
theorem k0_pay1_eq (v : Vec F S512x256 .f32) : k0_pay1 v = roundv v := rfl
theorem k0_pay2_eq (v : Vec F S512x256 .f32) : k0_pay2 v = roundv v := rfl
theorem k0_pay3_eq (v : Vec F S512x256 .f32) : k0_pay3 v = roundv v := rfl
theorem k0_pay4_eq (v : Vec F S512x256 .f32) : k0_pay4 v = roundv v := rfl
theorem k0_pay5_eq (v : Vec F S512x256 .f32) : k0_pay5 v = roundv v := rfl
theorem k0_pay6_eq (v : Vec F S512x256 .f32) : k0_pay6 v = roundv v := rfl
theorem k0_pay7_eq (v : Vec F S512x256 .f32) : k0_pay7 v = roundv v := rfl
theorem k0_pay9_eq (v : Vec F S512x256 .f32) : k0_pay9 (k0_pay8 v) = roundv v := rfl
theorem k0_pay10_eq (v : Vec F S512x256 .f32) : k0_pay10 v = roundv v := rfl
theorem k0_pay11_eq (v : Vec F S512x256 .f32) : k0_pay11 v = roundv v := rfl
theorem k0_pay12_eq (v : Vec F S512x256 .f32) : k0_pay12 v = roundv v := rfl
theorem k0_pay13_eq (v : Vec F S512x256 .f32) (w : Vec F S512x256 .bf16) : k0_pay13 v w = sumv v w := rfl
theorem k0_pay15_eq (v : Vec F S512x256 .f32) (w : Vec F S512x256 .bf16) : k0_pay15 (k0_pay14 v w) = sumv v w := rfl
theorem k0_pay16_eq (v : Vec F S512x256 .f32) (w : Vec F S512x256 .bf16) : k0_pay16 v w = sumv v w := rfl
theorem k0_pay17_eq (v : Vec F S512x256 .f32) (w : Vec F S512x256 .bf16) : k0_pay17 v w = sumv v w := rfl
theorem k0_pay18_eq (v : Vec F S512x256 .f32) (w : Vec F S512x256 .bf16) : k0_pay18 v w = sumv v w := rfl
theorem k0_pay19_eq (v : Vec F S512x256 .f32) (w : Vec F S512x256 .bf16) : k0_pay19 v w = sumv v w := rfl
theorem k0_pay20_eq (v : Vec F S512x256 .f32) (w : Vec F S512x256 .bf16) : k0_pay20 v w = sumv v w := rfl
theorem k0_pay21_eq (v : Vec F S512x256 .f32) (w : Vec F S512x256 .bf16) : k0_pay21 v w = sumv v w := rfl
theorem k0_pay22_eq (v : Vec F S512x256 .f32) (w : Vec F S512x256 .bf16) : k0_pay22 v w = sumv v w := rfl
theorem k0_pay23_eq (v : Vec F S512x256 .f32) (w : Vec F S512x256 .bf16) : k0_pay23 v w = sumv v w := rfl
theorem k0_pay25_eq (v : Vec F S512x256 .f32) (w : Vec F S512x256 .bf16) : k0_pay25 (k0_pay24 v w) = sumv v w := rfl

theorem roundv_apply (v : Vec F S512x256 .f32) (x : S512x256.Idx) :
    roundv v x = FloatOps.truncf .bf16 bitsLt_bf16_f32 (v x) := by
  unfold roundv shapeCast; rw [Shape.reshapeEquiv_self]; rfl

theorem sumv_apply (v : Vec F S512x256 .f32) (w : Vec F S512x256 .bf16) (u : Fin 1) (i : Fin 512) (j : Fin 256) :
    sumv v w (ix3 u i j)
      = FloatOps.truncf .bf16 bitsLt_bf16_f32 (FloatOps.addf (v (ix2 i j)) (FloatOps.extf .f32 bitsLt_bf16_f32 (w (ix2 i j)))) := by
  unfold sumv; rw [shapeCast_ab_1ab_apply]; rfl

/-- A slab of 512 rows of one quarter of the four-quarter buffer, named by its offsets (the rectangle the stores go through;
    chunk k of quarter q is this slab with its leading axis dropped). -/
abbrev r4S (off : Fin 3 → ℕ) (inb : ∀ a, off a + S1x512x256.size a ≤ S4x4096x256.size a) : Memref sig .tc .vmem S1x512x256 .bf16 :=
  (Memref.whole cc0_scratch0 : Memref sig .tc .vmem S4x4096x256 .bf16).slice (Rect.unit (s := S4x4096x256) off S1x512x256.size inb) (fun _ => rfl)

theorem r4R_set_slab (q : Fin 4) (k : Fin 8) : (r4R q k).view.set = (r4S ![q.val, 512 * k.val, 0] (chunk_inb q k)).view.set :=
  View.set_reshape _ _

theorem r4_r4S (t : Dev nD) (off : Fin 3 → ℕ) (inb : ∀ a, off a + S1x512x256.size a ≤ S4x4096x256.size a)
    (u : Fin 1) (i : Fin 512) (j : Fin 256) :
    r4 m t ((r4S off inb).view.emb (ix3 u i j)) = r4v m t (off 0) (off 1 + i.val) (off 2 + j.val) := by
  have hu : u.val = 0 := by omega
  have h0 : (((r4S off inb).view.emb (ix3 u i j) : S4x4096x256.Idx) 0).val = off 0 := by
    show off 0 + 1 * u.val = off 0; omega
  have h1 : (((r4S off inb).view.emb (ix3 u i j) : S4x4096x256.Idx) 1).val = off 1 + i.val := by
    show off 1 + 1 * i.val = off 1 + i.val; omega
  have h2 : (((r4S off inb).view.emb (ix3 u i j) : S4x4096x256.Idx) 2).val = off 2 + j.val := by
    show off 2 + 1 * j.val = off 2 + j.val; omega
  exact (r4_eq m t _).trans (by rw [h0, h1, h2])

theorem sb_eq (t : Dev nD) (y : S4096x256.Idx) : sb m t y = give m t (mq t) (y 0).val (y 1).val := rfl
theorem sb2_eq (t : Dev nD) (y : S1536x256.Idx) : sb2 m t y = give m t (dq t) (y 0).val (y 1).val := rfl

theorem sb_sbR (t : Dev nD) (k : Fin 8) (x : S512x256.Idx) :
    sb m t ((sbR k).view.emb x) = give m t (mq t) (512 * k.val + (x 0).val) (x 1).val := by
  obtain ⟨h0, h1⟩ := rows8_emb k x
  have h0' : (((sbR k).view.emb x : S4096x256.Idx) 0).val = 512 * k.val + (x 0).val := h0
  have h1' : (((sbR k).view.emb x : S4096x256.Idx) 1).val = (x 1).val := h1
  exact (sb_eq m t _).trans (by rw [h0', h1'])
theorem rb_rbR (t : Dev nD) (k : Fin 8) (x : S512x256.Idx) :
    rb m t ((rbR k).view.emb x) = give m (px t) (mq t) (512 * k.val + (x 0).val) (x 1).val := by
  obtain ⟨h0, h1⟩ := rows8_emb k x
  have h0' : (((rbR k).view.emb x : S4096x256.Idx) 0).val = 512 * k.val + (x 0).val := h0
  have h1' : (((rbR k).view.emb x : S4096x256.Idx) 1).val = (x 1).val := h1
  refine (sb_eq m (px t) _).trans ?_
  rw [h0', h1', mq_px]
theorem sb2_sb2R (t : Dev nD) (k : Fin 3) (x : S512x256.Idx) :
    sb2 m t ((sb2R k).view.emb x) = give m t (dq t) (512 * k.val + (x 0).val) (x 1).val := by
  obtain ⟨h0, h1⟩ := rows3_emb k x
  have h0' : (((sb2R k).view.emb x : S1536x256.Idx) 0).val = 512 * k.val + (x 0).val := h0
  have h1' : (((sb2R k).view.emb x : S1536x256.Idx) 1).val = (x 1).val := h1
  exact (sb2_eq m t _).trans (by rw [h0', h1'])
theorem rb2_rb2R (t : Dev nD) (k : Fin 3) (x : S512x256.Idx) :
    rb2 m t ((rb2R k).view.emb x) = give m (px t) (dq t) (512 * k.val + (x 0).val) (x 1).val := by
  obtain ⟨h0, h1⟩ := rows3_emb k x
  have h0' : (((rb2R k).view.emb x : S1536x256.Idx) 0).val = 512 * k.val + (x 0).val := h0
  have h1' : (((rb2R k).view.emb x : S1536x256.Idx) 1).val = (x 1).val := h1
  refine (sb2_eq m (px t) _).trans ?_
  rw [h0', h1', dq_px]

/-- Row block k of the first staging buffer, rounded and stored, is row block k of the buffer sent across x. -/
theorem store_sb (c : Dev nD) (k : Fin 8) (fd : Buf (Elt F) ((sbR k).view.loc (c : Thread nD τ))) :
    ∀ i ∈ (sbR k).view.set,
      (sbR k).view.write (Elt F) fd (roundv ((stPR k).view.read (Elt F) (stP m c))) Finset.univ i = sb m c i := by
  refine write_on (sbR k).view fd (sb m c) _ (fun x => ?_)
  show sb m c ((sbR k).view.emb x) = roundv ((stPR k).view.read (Elt F) (stP m c)) x
  rw [roundv_apply, sb_sbR]
  show _ = FloatOps.truncf .bf16 bitsLt_bf16_f32 (stP m c ((stPR k).view.emb x))
  rw [stP_stPR]; rfl
theorem store_sb2 (c : Dev nD) (k : Fin 3) (fd : Buf (Elt F) ((sb2R k).view.loc (c : Thread nD τ))) :
    ∀ i ∈ (sb2R k).view.set,
      (sb2R k).view.write (Elt F) fd (roundv ((stP2R k).view.read (Elt F) (stP2 m c))) Finset.univ i = sb2 m c i := by
  refine write_on (sb2R k).view fd (sb2 m c) _ (fun x => ?_)
  show sb2 m c ((sb2R k).view.emb x) = roundv ((stP2R k).view.read (Elt F) (stP2 m c)) x
  rw [roundv_apply, sb2_sb2R]
  show _ = FloatOps.truncf .bf16 bitsLt_bf16_f32 (stP2 m c ((stP2R k).view.emb x))
  rw [stP2_stP2R]; rfl

/-- Row block k of the second staging buffer plus what landed from across x, rounded and stored, is chunk k of the
    device's own quarter. -/
theorem store_own (c : Dev nD) (k : Fin 8) (off : Fin 3 → ℕ) (inb : ∀ a, off a + S1x512x256.size a ≤ S4x4096x256.size a)
    (h : off = ![mq c, 512 * k.val, 0]) (fd : Buf (Elt F) ((r4S off inb).view.loc (c : Thread nD τ))) :
    ∀ i ∈ (r4S off inb).view.set,
      (r4S off inb).view.write (Elt F) fd (sumv ((stLR k).view.read (Elt F) (stL m c)) ((rbR k).view.read (Elt F) (rb m c))) Finset.univ i
        = r4 m c i := by
  refine write_on (r4S off inb).view fd (r4 m c) _ (fun x => ?_)
  obtain ⟨u, i, j, rfl⟩ : ∃ u i j, x = ix3 u i j := ⟨x 0, x 1, x 2, eq_ix3 x⟩
  show r4 m c ((r4S off inb).view.emb (ix3 u i j)) = sumv ((stLR k).view.read (Elt F) (stL m c)) ((rbR k).view.read (Elt F) (rb m c)) (ix3 u i j)
  rw [sumv_apply, r4_r4S]
  show _ = FloatOps.truncf .bf16 bitsLt_bf16_f32 (FloatOps.addf (stL m c ((stLR k).view.emb (ix2 i j)))
    (FloatOps.extf .f32 bitsLt_bf16_f32 (rb m c ((rbR k).view.emb (ix2 i j)))))
  rw [stL_stLR, rb_rbR]; subst h
  show r4v m c (mq c) (512 * k.val + i.val) (0 + j.val) = _
  rw [r4v_owner m c _ _ _ (Or.inl (quarters c).2.2.1), own_mq, Nat.zero_add]; rfl

/-- The same for the rows below 1536 of the diagonal quarter, from the three-chunk siblings. -/
theorem store_dgn (c : Dev nD) (k : Fin 3) (off : Fin 3 → ℕ) (inb : ∀ a, off a + S1x512x256.size a ≤ S4x4096x256.size a)
    (h : off = ![dq c, 512 * k.val, 0]) (fd : Buf (Elt F) ((r4S off inb).view.loc (c : Thread nD τ))) :
    ∀ i ∈ (r4S off inb).view.set,
      (r4S off inb).view.write (Elt F) fd (sumv ((stL2R k).view.read (Elt F) (stL2 m c)) ((rb2R k).view.read (Elt F) (rb2 m c))) Finset.univ i
        = r4 m c i := by
  refine write_on (r4S off inb).view fd (r4 m c) _ (fun x => ?_)
  obtain ⟨u, i, j, rfl⟩ : ∃ u i j, x = ix3 u i j := ⟨x 0, x 1, x 2, eq_ix3 x⟩
  show r4 m c ((r4S off inb).view.emb (ix3 u i j)) = sumv ((stL2R k).view.read (Elt F) (stL2 m c)) ((rb2R k).view.read (Elt F) (rb2 m c)) (ix3 u i j)
  rw [sumv_apply, r4_r4S]
  show _ = FloatOps.truncf .bf16 bitsLt_bf16_f32 (FloatOps.addf (stL2 m c ((stL2R k).view.emb (ix2 i j)))
    (FloatOps.extf .f32 bitsLt_bf16_f32 (rb2 m c ((rb2R k).view.emb (ix2 i j)))))
  rw [stL2_stL2R, rb2_rb2R]; subst h
  show r4v m c (dq c) (512 * k.val + i.val) (0 + j.val) = _
  have hi : 512 * k.val + i.val < 1536 := by have := k.isLt; have := i.isLt; omega
  unfold r4v; rw [if_pos ⟨rfl, hi⟩, Nat.zero_add]; rfl

/-- The offsets the program stores at are of that form: chunks 0 and 1 of the own quarter, chunk 1 of the diagonal one. -/
example (c : Dev nD) : k0_off23 c = ![mq c, 512 * (0 : Fin 8).val, 0] := k0_off23_eq c
example (c : Dev nD) : k0_off25 c = ![mq c, 512 * (1 : Fin 8).val, 0] := k0_off25_eq c
example (c : Dev nD) : k0_off50 c = ![dq c, 512 * (1 : Fin 3).val, 0] := k0_off50_eq c

end Cert.Kernel.RS

end
-- ==== Proof.K.Glue.lean ====
import proofs.«901022_g7700000000001023_dist_rs_v7x_xyz2x2x2_x_m4096_n1024_bf16_1_alg».proof.Proof.K.OutRules
import proofs.«901022_g7700000000001023_dist_rs_v7x_xyz2x2x2_x_m4096_n1024_bf16_1_alg».proof.Proof.K.Regions
import Idealize.ShloMosaic.Lib.Writes
import Idealize.ShloMosaic.Lib.Pipeline.Value
import Idealize.ShloMosaic.Lib.ValueLayout
import Idealize.ShloMosaic.Lib.ValueIdx
import Idealize.ShloMosaic.Rules.PointsTo

/-! The contents the run leaves in a chunk, in the form the run writes them — a store of a payload computed from loads
    of what earlier copies wrote over unknown contents —, are on the chunk's elements the final contents (Spec). -/

noncomputable section

namespace Cert.Kernel.RS

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## One copy over unknown contents, read back -/

/-- What one write through the whole of a view leaves under index x is the payload at x. -/
theorem read_writes_whole {κ : Kind} {sp : Space} {s : Shape} {e : EltTy} {Val : EltTy → Type}
    (v : View sig κ sp s e) (f : v.ty.Contents Val) (w : s.Idx → Val e) :
    v.read Val (v.writes Val f [⟨Rect.whole s, w⟩]) = w := by
  funext x
  have h := View.read_writes_cons_emb v f (Rect.whole s) w [] x
  rwa [Rect.emb_whole_apply] at h

/-- One write through the whole of a view leaves, on the view's elements, any g that under each index holds the payload. -/
theorem writes_whole_on {κ : Kind} {sp : Space} {s : Shape} {e : EltTy} {Val : EltTy → Type}
    (v : View sig κ sp s e) (f g : v.ty.Contents Val) (w : s.Idx → Val e)
    (h : ∀ x : s.Idx, g (v.emb x) = cast (congrArg Val v.elt_eq.symm) (w x)) :
    ∀ i ∈ v.set, v.writes Val f [⟨Rect.whole s, w⟩] i = g i := by
  intro i hi
  obtain ⟨x, rfl⟩ := View.exists_emb_of_mem_set v hi
  have hr := read_writes_whole v f w
  have hx : v.read Val (v.writes Val f [⟨Rect.whole s, w⟩]) x = w x := congrFun hr x
  rw [View.read_apply] at hx
  rw [h, ← hx, cast_cast, cast_eq]

/-- An input block copied over unknown contents of a staging block reads back as the staging buffer's final block. -/
theorem stP_read (c : Dev nD) (k : Fin 8) (off : Fin 3 → ℕ) (inb : ∀ a, off a + S1x512x256.size a ≤ S1x4096x2048.size a)
    (h : off = ![0, 512 * k.val, colP c]) :
    (stPR k).view.read (Elt F) ((stPR k).view.writes (Elt F) (stPR k).view.junk
        [⟨Rect.whole S512x256, ReadAs.same.apply (View.read (Elt F) (xinR off inb).view (xin m c))⟩])
      = (stPR k).view.read (Elt F) (stP m c) := by
  rw [read_writes_whole]
  funext x
  show xin m c ((xinR off inb).view.emb x) = stP m c ((stPR k).view.emb x)
  rw [stP_stPR, xin_xinR, ← colOf_add, ← colP_eq]; subst h; rfl
theorem stL_read (c : Dev nD) (k : Fin 8) (off : Fin 3 → ℕ) (inb : ∀ a, off a + S1x512x256.size a ≤ S1x4096x2048.size a)
    (h : off = ![0, 512 * k.val, colL c]) :
    (stLR k).view.read (Elt F) ((stLR k).view.writes (Elt F) (stLR k).view.junk
        [⟨Rect.whole S512x256, ReadAs.same.apply (View.read (Elt F) (xinR off inb).view (xin m c))⟩])
      = (stLR k).view.read (Elt F) (stL m c) := by
  rw [read_writes_whole]
  funext x
  show xin m c ((xinR off inb).view.emb x) = stL m c ((stLR k).view.emb x)
  rw [stL_stLR, xin_xinR, ← colOf_add, ← colL_eq]; subst h; rfl
theorem stP2_read (c : Dev nD) (k : Fin 3) (off : Fin 3 → ℕ) (inb : ∀ a, off a + S1x512x256.size a ≤ S1x4096x2048.size a)
    (h : off = ![0, 512 * k.val, colP2 c]) :
    (stP2R k).view.read (Elt F) ((stP2R k).view.writes (Elt F) (stP2R k).view.junk
        [⟨Rect.whole S512x256, ReadAs.same.apply (View.read (Elt F) (xinR off inb).view (xin m c))⟩])
      = (stP2R k).view.read (Elt F) (stP2 m c) := by
  rw [read_writes_whole]
  funext x
  show xin m c ((xinR off inb).view.emb x) = stP2 m c ((stP2R k).view.emb x)
  rw [stP2_stP2R, xin_xinR, ← colOf_add, ← colP2_eq]; subst h; rfl
theorem stL2_read (c : Dev nD) (k : Fin 3) (off : Fin 3 → ℕ) (inb : ∀ a, off a + S1x512x256.size a ≤ S1x4096x2048.size a)
    (h : off = ![0, 512 * k.val, colL2 c]) :
    (stL2R k).view.read (Elt F) ((stL2R k).view.writes (Elt F) (stL2R k).view.junk
        [⟨Rect.whole S512x256, ReadAs.same.apply (View.read (Elt F) (xinR off inb).view (xin m c))⟩])
      = (stL2R k).view.read (Elt F) (stL2 m c) := by
  rw [read_writes_whole]
  funext x
  show xin m c ((xinR off inb).view.emb x) = stL2 m c ((stL2R k).view.emb x)
  rw [stL2_stL2R, xin_xinR, ← colOf_add, ← colL2_eq]; subst h; rfl

/-! ## The chunks as the run leaves them -/

/-- Row block k of the buffer sent across x: the staged block (an input block copied over unknown contents, loaded)
    rounded and stored. -/
theorem glue_sb (c : Dev nD) (k : Fin 8) (off : Fin 3 → ℕ) (inb : ∀ a, off a + S1x512x256.size a ≤ S1x4096x2048.size a)
    (h : off = ![0, 512 * k.val, colP c]) (f1 : Buf (Elt F) ((sbR k).view.loc (c : Thread nD τ))) :
    ∀ i ∈ (sbR k).view.set,
      View.write (Elt F) ((Memref.whole cc0_scratch1 : Memref sig .tc .vmem S4096x256 .bf16).access (Rect.unit (s := S4096x256) ![512 * k.val, 0] S512x256.size (rows8_inb k))) f1
        (roundv (View.readAt (Elt F) (Memref.whole cc0_scratch5 : Memref sig .tc .vmem S4096x256 .f32).view (Rect.unit (s := S4096x256) ![512 * k.val, 0] S512x256.size (rows8_inb k)).toLoadRect
          ((stPR k).view.writes (Elt F) (stPR k).view.junk [⟨Rect.whole S512x256, ReadAs.same.apply (View.read (Elt F) (xinR off inb).view (xin m c))⟩])))
        Finset.univ i = sb m c i := by
  intro i hi
  have hA := stP_read m c k off inb h
  show (sbR k).view.write (Elt F) f1 (roundv ((stPR k).view.read (Elt F) ((stPR k).view.writes (Elt F) (stPR k).view.junk
    [⟨Rect.whole S512x256, ReadAs.same.apply (View.read (Elt F) (xinR off inb).view (xin m c))⟩]))) Finset.univ i = sb m c i
  rw [hA]
  exact store_sb m c k f1 i hi

theorem glue_sb2 (c : Dev nD) (k : Fin 3) (off : Fin 3 → ℕ) (inb : ∀ a, off a + S1x512x256.size a ≤ S1x4096x2048.size a)
    (h : off = ![0, 512 * k.val, colP2 c]) (f3 : Buf (Elt F) ((sb2R k).view.loc (c : Thread nD τ))) :
    ∀ i ∈ (sb2R k).view.set,
      View.write (Elt F) ((Memref.whole cc0_scratch3 : Memref sig .tc .vmem S1536x256 .bf16).access (Rect.unit (s := S1536x256) ![512 * k.val, 0] S512x256.size (rows3_inb k))) f3
        (roundv (View.readAt (Elt F) (Memref.whole cc0_scratch7 : Memref sig .tc .vmem S1536x256 .f32).view (Rect.unit (s := S1536x256) ![512 * k.val, 0] S512x256.size (rows3_inb k)).toLoadRect
          ((stP2R k).view.writes (Elt F) (stP2R k).view.junk [⟨Rect.whole S512x256, ReadAs.same.apply (View.read (Elt F) (xinR off inb).view (xin m c))⟩])))
        Finset.univ i = sb2 m c i := by
  intro i hi
  have hA := stP2_read m c k off inb h
  show (sb2R k).view.write (Elt F) f3 (roundv ((stP2R k).view.read (Elt F) ((stP2R k).view.writes (Elt F) (stP2R k).view.junk
    [⟨Rect.whole S512x256, ReadAs.same.apply (View.read (Elt F) (xinR off inb).view (xin m c))⟩]))) Finset.univ i = sb2 m c i
  rw [hA]
  exact store_sb2 m c k f3 i hi

/-- Chunk k of a device's own quarter: the staged block plus the block landed from across x, rounded and stored
    through the slab at the offsets the program computes. -/
theorem glue_own (c : Dev nD) (k : Fin 8) (offL : Fin 3 → ℕ) (inbL : ∀ a, offL a + S1x512x256.size a ≤ S1x4096x2048.size a)
    (hL : offL = ![0, 512 * k.val, colL c]) (off4 : Fin 3 → ℕ) (inb4 : ∀ a, off4 a + S1x512x256.size a ≤ S4x4096x256.size a)
    (h4 : off4 = ![mq c, 512 * k.val, 0]) (f0 : Buf (Elt F) ((r4R (mqF c) k).view.loc (c : Thread nD τ))) :
    ∀ i ∈ (r4R (mqF c) k).view.set,
      View.write (Elt F) ((Memref.whole cc0_scratch0 : Memref sig .tc .vmem S4x4096x256 .bf16).access (Rect.unit (s := S4x4096x256) off4 S1x512x256.size inb4)) f0
        (sumv (View.readAt (Elt F) (Memref.whole cc0_scratch6 : Memref sig .tc .vmem S4096x256 .f32).view (Rect.unit (s := S4096x256) ![512 * k.val, 0] S512x256.size (rows8_inb k)).toLoadRect
            ((stLR k).view.writes (Elt F) (stLR k).view.junk [⟨Rect.whole S512x256, ReadAs.same.apply (View.read (Elt F) (xinR offL inbL).view (xin m c))⟩]))
          (View.readAt (Elt F) (Memref.whole cc0_scratch2 : Memref sig .tc .vmem S4096x256 .bf16).view (Rect.unit (s := S4096x256) ![512 * k.val, 0] S512x256.size (rows8_inb k)).toLoadRect (rb m c)))
        Finset.univ i = r4 m c i := by
  intro i hi
  have hA := stL_read m c k offL inbL hL
  have hi' : i ∈ (r4S off4 inb4).view.set := by subst h4; exact (r4R_set_slab (mqF c) k) ▸ hi
  show (r4S off4 inb4).view.write (Elt F) f0 (sumv ((stLR k).view.read (Elt F) ((stLR k).view.writes (Elt F) (stLR k).view.junk
    [⟨Rect.whole S512x256, ReadAs.same.apply (View.read (Elt F) (xinR offL inbL).view (xin m c))⟩])) ((rbR k).view.read (Elt F) (rb m c))) Finset.univ i = r4 m c i
  rw [hA]
  exact store_own m c k off4 inb4 h4 f0 i hi'

theorem r4S_set_congr (off off' : Fin 3 → ℕ) (inb : ∀ a, off a + S1x512x256.size a ≤ S4x4096x256.size a)
    (inb' : ∀ a, off' a + S1x512x256.size a ≤ S4x4096x256.size a) (h : off = off') :
    (r4S off inb).view.set = (r4S off' inb').view.set := by subst h; rfl

/-- Chunk k < 3 of the diagonal quarter, from the three-chunk siblings. -/
theorem glue_dgn (c : Dev nD) (k : Fin 3) (k8 : Fin 8) (hk : k8.val = k.val) (offL : Fin 3 → ℕ) (inbL : ∀ a, offL a + S1x512x256.size a ≤ S1x4096x2048.size a)
    (hL : offL = ![0, 512 * k.val, colL2 c]) (off4 : Fin 3 → ℕ) (inb4 : ∀ a, off4 a + S1x512x256.size a ≤ S4x4096x256.size a)
    (h4 : off4 = ![dq c, 512 * k.val, 0]) (f0 : Buf (Elt F) ((r4R (dqF c) k8).view.loc (c : Thread nD τ))) :
    ∀ i ∈ (r4R (dqF c) k8).view.set,
      View.write (Elt F) ((Memref.whole cc0_scratch0 : Memref sig .tc .vmem S4x4096x256 .bf16).access (Rect.unit (s := S4x4096x256) off4 S1x512x256.size inb4)) f0
        (sumv (View.readAt (Elt F) (Memref.whole cc0_scratch8 : Memref sig .tc .vmem S1536x256 .f32).view (Rect.unit (s := S1536x256) ![512 * k.val, 0] S512x256.size (rows3_inb k)).toLoadRect
            ((stL2R k).view.writes (Elt F) (stL2R k).view.junk [⟨Rect.whole S512x256, ReadAs.same.apply (View.read (Elt F) (xinR offL inbL).view (xin m c))⟩]))
          (View.readAt (Elt F) (Memref.whole cc0_scratch4 : Memref sig .tc .vmem S1536x256 .bf16).view (Rect.unit (s := S1536x256) ![512 * k.val, 0] S512x256.size (rows3_inb k)).toLoadRect (rb2 m c)))
        Finset.univ i = r4 m c i := by
  intro i hi
  have hA := stL2_read m c k offL inbL hL
  have hi' : i ∈ (r4S off4 inb4).view.set := by
    subst h4
    have e := r4R_set_slab (dqF c) k8
    rw [e] at hi
    have e2 : (![(dqF c).val, 512 * k8.val, 0] : Fin 3 → ℕ) = ![dq c, 512 * k.val, 0] := by rw [hk]; rfl
    rwa [r4S_set_congr _ _ (chunk_inb (dqF c) k8) inb4 e2] at hi
  show (r4S off4 inb4).view.write (Elt F) f0 (sumv ((stL2R k).view.read (Elt F) ((stL2R k).view.writes (Elt F) (stL2R k).view.junk
    [⟨Rect.whole S512x256, ReadAs.same.apply (View.read (Elt F) (xinR offL inbL).view (xin m c))⟩])) ((rb2R k).view.read (Elt F) (rb2 m c))) Finset.univ i = r4 m c i
  rw [hA]
  exact store_dgn m c k off4 inb4 h4 f0 i hi'

/-- Block (k, q) of the result: chunk k of quarter q copied over unknown contents. -/
theorem glue_out (c : Dev nD) (k : Fin 8) (q : Fin 4) :
    ∀ i ∈ (outR k q).view.set,
      (outR k q).view.writes (Elt F) (outR k q).view.junk [⟨Rect.whole S512x256, ReadAs.same.apply (View.read (Elt F) (r4R q k).view (r4 m c))⟩] i = out m c i := by
  refine writes_whole_on (outR k q).view _ (out m c) _ (fun x => ?_)
  show out m c ((outR k q).view.emb x) = r4 m c ((r4R q k).view.emb x)
  rw [out_outR, r4_r4R]

/-- The same over whatever the block held before: the copy overwrites the whole block. -/
theorem glue_out' (c : Dev nD) (k : Fin 8) (q : Fin 4) (g : Buf (Elt F) ((outR k q).view.loc (c : Thread nD τ))) :
    ∀ i ∈ (outR k q).view.set,
      (outR k q).view.writes (Elt F) g [⟨Rect.whole S512x256, ReadAs.same.apply (View.read (Elt F) (r4R q k).view (r4 m c))⟩] i = out m c i := by
  refine writes_whole_on (outR k q).view _ (out m c) _ (fun x => ?_)
  show out m c ((outR k q).view.emb x) = r4 m c ((r4R q k).view.emb x)
  rw [out_outR, r4_r4R]

end Cert.Kernel.RS

end
-- ==== Proof.K.ExitRules.lean ====
import proofs.«901022_g7700000000001023_dist_rs_v7x_xyz2x2x2_x_m4096_n1024_bf16_1_alg».proof.Proof.K.Regions

/-! Putting the pieces back at the kernel's exit: a chunk lent out by shares is the chunk again, a chunk lent to a
    forward (one half share whole, the other in its two column halves) likewise, the four-quarter buffer from its
    pieces as they stand at the exit, and the result from its 32 written blocks. -/

noncomputable section

namespace Cert.Kernel.RS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Back
variable (t : Dev nD)

/-- The three shares a device's own chunk was lent at are the chunk. -/
theorem own_back (k : Fin 8) (f : Buf (Elt F) ((t : Thread nD τ).loc cc0_scratch0)) :
    (iprop(pts (r4R (mqF t) k) t shZ f ∗ pts (r4R (mqF t) k) t shY f ∗ pts (r4R (mqF t) k) t shK f) : sProp 𝕄)
      ⊢ junk (F := F) (r4R (mqF t) k) t :=
  (share_ZYK (r4R (mqF t) k) t f).2.trans (junk_of_pts (r4R (mqF t) k) t f)

/-- A chunk lent to a forward: the share kept, whole, and the share lent, in its two column halves, are the chunk. -/
theorem nbr_back (q : Fin 4) (k : Fin 8) (f : Buf (Elt F) ((t : Thread nD τ).loc cc0_scratch0)) :
    (iprop(pts (r4R q k) t shG f ∗ pts (r4H q k 0) t shF f ∗ pts (r4H q k 1) t shF f) : sProp 𝕄)
      ⊢ junk (F := F) (r4R q k) t := by
  refine (BIClass.sep_mono .rfl (Entails.of_eq (chunk_halves t q k shF f).symm)).trans ?_
  refine (Laws.sep_comm (P := pts (r4R q k) t shG f) (Q := pts (r4R q k) t shF f)).1.trans ?_
  exact (share_FG (r4R q k) t f).2.trans (junk_of_pts (r4R q k) t f)

/-- A chunk at one contents is its two halves, each at some contents. -/
theorem chunk_to_halves (q : Fin 4) (k : Fin 8) (f : Buf (Elt F) ((t : Thread nD τ).loc cc0_scratch0)) :
    pts (r4R q k) t fullShare f ⊢ iprop(junk (F := F) (r4H q k 0) t ∗ junk (F := F) (r4H q k 1) t) :=
  (Entails.of_eq (chunk_halves t q k fullShare f)).trans
    (BIClass.sep_mono (junk_of_pts (r4H q k 0) t f) (junk_of_pts (r4H q k 1) t f))

theorem dq_halves (k : Fin 8) (f : Buf (Elt F) ((t : Thread nD τ).loc cc0_scratch0)) :
    pts (r4R (dqF t) k) t fullShare f ⊢ iprop(junk (F := F) (r4H (dqF t) k 0) t ∗ junk (F := F) (r4H (dqF t) k 1) t) :=
  chunk_to_halves t (dqF t) k f

/-- Three assertions in front of a rest, written without the bracket. -/
theorem assoc3_bi {M' : Type} [URA M'] (a b c R : sProp M') :
    (iprop((a ∗ b ∗ c) ∗ R) : sProp M') ⊣⊢ iprop(a ∗ b ∗ c ∗ R) := by
  constructor
  · iintro ⟨⟨A, B, C⟩, HR⟩
    iframe
  · iintro ⟨A, B, C, HR⟩
    iframe

/-- The pieces of the four-quarter buffer as they stand at the exit — the chunks of the own and of the two neighbours'
    quarters, the first three chunks of the diagonal quarter, and the other five as pairs of halves — each at contents
    of its own, are the buffer at some contents. -/
theorem r4_back :
    (iprop((junk (F := F) (r4R (mqF t) 0) t ∗ junk (F := F) (r4R (mqF t) 1) t ∗ junk (F := F) (r4R (mqF t) 2) t ∗ junk (F := F) (r4R (mqF t) 3) t
          ∗ junk (F := F) (r4R (mqF t) 4) t ∗ junk (F := F) (r4R (mqF t) 5) t ∗ junk (F := F) (r4R (mqF t) 6) t ∗ junk (F := F) (r4R (mqF t) 7) t)
        ∗ (junk (F := F) (r4R (zqF t) 0) t ∗ junk (F := F) (r4R (zqF t) 1) t ∗ junk (F := F) (r4R (zqF t) 2) t ∗ junk (F := F) (r4R (zqF t) 3) t
          ∗ junk (F := F) (r4R (zqF t) 4) t ∗ junk (F := F) (r4R (zqF t) 5) t ∗ junk (F := F) (r4R (zqF t) 6) t ∗ junk (F := F) (r4R (zqF t) 7) t)
        ∗ (junk (F := F) (r4R (yqF t) 0) t ∗ junk (F := F) (r4R (yqF t) 1) t ∗ junk (F := F) (r4R (yqF t) 2) t ∗ junk (F := F) (r4R (yqF t) 3) t
          ∗ junk (F := F) (r4R (yqF t) 4) t ∗ junk (F := F) (r4R (yqF t) 5) t ∗ junk (F := F) (r4R (yqF t) 6) t ∗ junk (F := F) (r4R (yqF t) 7) t)
        ∗ (junk (F := F) (r4R (dqF t) 0) t ∗ junk (F := F) (r4R (dqF t) 1) t ∗ junk (F := F) (r4R (dqF t) 2) t)
        ∗ (junk (F := F) (r4H (dqF t) 3 0) t ∗ junk (F := F) (r4H (dqF t) 3 1) t)
        ∗ (junk (F := F) (r4H (dqF t) 4 0) t ∗ junk (F := F) (r4H (dqF t) 4 1) t)
        ∗ (junk (F := F) (r4H (dqF t) 5 0) t ∗ junk (F := F) (r4H (dqF t) 5 1) t)
        ∗ (junk (F := F) (r4H (dqF t) 6 0) t ∗ junk (F := F) (r4H (dqF t) 6 1) t)
        ∗ (junk (F := F) (r4H (dqF t) 7 0) t ∗ junk (F := F) (r4H (dqF t) 7 1) t)) : sProp 𝕄) ⊢
      iprop(∃ f : Buf (Elt F) ((t : Thread nD τ).loc cc0_scratch0), (t : Thread nD τ).loc cc0_scratch0 ↦{fullShare} f) := by
  refine (BIClass.sep_mono .rfl (BIClass.sep_mono .rfl (BIClass.sep_mono .rfl ?_))).trans (r4_join t)
  exact (assoc3_bi _ _ _ _).1.trans (Entails.of_eq (regroup13 _ _ _ _ _ _ _ _ _ _ _ _ _))

end Back

section OutBack
variable (m : (ℓ : Loc nD τ sig) → Buf (Elt F) ℓ) (t : Dev nD)

/-- What the copy of chunk k of quarter q into the result writes there. -/
abbrev outW (k : Fin 8) (q : Fin 4) : Buf (Elt F) ((t : Thread nD τ).loc main_v1) :=
  (outR k q).view.writes (Elt F) (outR k q).view.junk
    [⟨Rect.whole S512x256, ReadAs.same.apply (View.read (Elt F) (r4R q k).view (r4 m t))⟩]

/-- The 32 blocks of the result, each holding what its copy wrote, are the result at its final contents, given that
    each written block agrees with the final contents on its elements. -/
theorem out_back (hg : ∀ (k : Fin 8) (q : Fin 4), ∀ i ∈ (outR k q).view.set, outW m t k q i = out m t i) :
    (iprop(pts (outR 0 0) t fullShare (outW m t 0 0) ∗ pts (outR 0 1) t fullShare (outW m t 0 1) ∗ pts (outR 0 2) t fullShare (outW m t 0 2) ∗ pts (outR 0 3) t fullShare (outW m t 0 3)
        ∗ pts (outR 1 0) t fullShare (outW m t 1 0) ∗ pts (outR 1 1) t fullShare (outW m t 1 1) ∗ pts (outR 1 2) t fullShare (outW m t 1 2) ∗ pts (outR 1 3) t fullShare (outW m t 1 3)
        ∗ pts (outR 2 0) t fullShare (outW m t 2 0) ∗ pts (outR 2 1) t fullShare (outW m t 2 1) ∗ pts (outR 2 2) t fullShare (outW m t 2 2) ∗ pts (outR 2 3) t fullShare (outW m t 2 3)
        ∗ pts (outR 3 0) t fullShare (outW m t 3 0) ∗ pts (outR 3 1) t fullShare (outW m t 3 1) ∗ pts (outR 3 2) t fullShare (outW m t 3 2) ∗ pts (outR 3 3) t fullShare (outW m t 3 3)
        ∗ pts (outR 4 0) t fullShare (outW m t 4 0) ∗ pts (outR 4 1) t fullShare (outW m t 4 1) ∗ pts (outR 4 2) t fullShare (outW m t 4 2) ∗ pts (outR 4 3) t fullShare (outW m t 4 3)
        ∗ pts (outR 5 0) t fullShare (outW m t 5 0) ∗ pts (outR 5 1) t fullShare (outW m t 5 1) ∗ pts (outR 5 2) t fullShare (outW m t 5 2) ∗ pts (outR 5 3) t fullShare (outW m t 5 3)
        ∗ pts (outR 6 0) t fullShare (outW m t 6 0) ∗ pts (outR 6 1) t fullShare (outW m t 6 1) ∗ pts (outR 6 2) t fullShare (outW m t 6 2) ∗ pts (outR 6 3) t fullShare (outW m t 6 3)
        ∗ pts (outR 7 0) t fullShare (outW m t 7 0) ∗ pts (outR 7 1) t fullShare (outW m t 7 1) ∗ pts (outR 7 2) t fullShare (outW m t 7 2) ∗ pts (outR 7 3) t fullShare (outW m t 7 3)) : sProp 𝕄)
      ⊢ pts (Memref.whole main_v1) t fullShare (out m t) := by
  have c : ∀ (k : Fin 8) (q : Fin 4), pts (outR k q) t fullShare (outW m t k q) = (pts (outR k q) t fullShare (out m t) : sProp 𝕄) :=
    fun k q => congr_eq (outR k q) t fullShare (outW m t k q) (out m t) (hg k q)
  refine (Entails.of_eq ?_).trans (out_join t (out m t))
  exact sep_congr (c 0 0) (sep_congr (c 0 1) (sep_congr (c 0 2) (sep_congr (c 0 3)
    (sep_congr (c 1 0) (sep_congr (c 1 1) (sep_congr (c 1 2) (sep_congr (c 1 3)
    (sep_congr (c 2 0) (sep_congr (c 2 1) (sep_congr (c 2 2) (sep_congr (c 2 3)
    (sep_congr (c 3 0) (sep_congr (c 3 1) (sep_congr (c 3 2) (sep_congr (c 3 3)
    (sep_congr (c 4 0) (sep_congr (c 4 1) (sep_congr (c 4 2) (sep_congr (c 4 3)
    (sep_congr (c 5 0) (sep_congr (c 5 1) (sep_congr (c 5 2) (sep_congr (c 5 3)
    (sep_congr (c 6 0) (sep_congr (c 6 1) (sep_congr (c 6 2) (sep_congr (c 6 3)
    (sep_congr (c 7 0) (sep_congr (c 7 1) (sep_congr (c 7 2) (c 7 3)))))))))))))))))))))))))))))))

end OutBack

end Cert.Kernel.RS

end
-- ==== Proof.K.BodyAux.lean ====
import proofs.«901022_g7700000000001023_dist_rs_v7x_xyz2x2x2_x_m4096_n1024_bf16_1_alg».proof.Proof.K.BodyGlue
import proofs.«901022_g7700000000001023_dist_rs_v7x_xyz2x2x2_x_m4096_n1024_bf16_1_alg».proof.Proof.K.SendAt
import proofs.«901022_g7700000000001023_dist_rs_v7x_xyz2x2x2_x_m4096_n1024_bf16_1_alg».proof.Proof.K.WaitRules
import proofs.«901022_g7700000000001023_dist_rs_v7x_xyz2x2x2_x_m4096_n1024_bf16_1_alg».proof.Proof.K.Glue
import proofs.«901022_g7700000000001023_dist_rs_v7x_xyz2x2x2_x_m4096_n1024_bf16_1_alg».proof.Proof.K.ExitRules

/-! Three small facts the devices' body proofs share: a device may wait on a local copy's semaphore (level 0) under
    payments that all lie above level 0; and a neighbour's hand-over written out chunk by chunk. -/

noncomputable section

namespace Cert.Kernel.RS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
/-- A device may wait on a semaphore of level 0 (a local copy's, a send cell) under payments that all lie above level 0. -/
theorem mayWait_local (c : Dev nD) (s : DmaSem sig) (hs : lvJ s.val = 0) (l : List (GSem nD τ sig × ℕ))
    (h : ∀ p ∈ l, p.1.1.2 = .tc ∧ 0 < lvv p.1 ()) :
    (levAts LL lvv : sProp 𝕄) ⊢ MayWait (c : Thread nD τ) (.dma s) () (owedL l) :=
  mayWait_list (F := F) c (.dma s) l (fun p hp => ⟨(h p hp).1, by show lvJ s.val < lvv p.1 (); rw [hs]; exact (h p hp).2⟩)

/-- A quarter handed over, chunk by chunk. -/
theorem giveQ_eq (p : Dev nD) (q : Fin 4) : giveQ (F := F) p q = iprop(junk (F := F) (r4R q 0) p ∗ junk (F := F) (r4R q 1) p ∗ junk (F := F) (r4R q 2) p ∗ junk (F := F) (r4R q 3) p
    ∗ junk (F := F) (r4R q 4) p ∗ junk (F := F) (r4R q 5) p ∗ junk (F := F) (r4R q 6) p ∗ junk (F := F) (r4R q 7) p) := rfl
/-- The forwarded halves handed over, chunk by chunk. -/
theorem giveH_eq (p : Dev nD) (h : Fin 2) : giveH (F := F) p h = iprop(junk (F := F) (r4H (dqF p) 3 h) p ∗ junk (F := F) (r4H (dqF p) 4 h) p ∗ junk (F := F) (r4H (dqF p) 5 h) p
    ∗ junk (F := F) (r4H (dqF p) 6 h) p ∗ junk (F := F) (r4H (dqF p) 7 h) p) := rfl

end Cert.Kernel.RS

end
-- ==== Proof.K.Body0.lean ====
import proofs.«901022_g7700000000001023_dist_rs_v7x_xyz2x2x2_x_m4096_n1024_bf16_1_alg».proof.Proof.K.BodyAux
import proofs.«901022_g7700000000001023_dist_rs_v7x_xyz2x2x2_x_m4096_n1024_bf16_1_alg».proof.Proof.K.BodyPre
import proofs.«901022_g7700000000001023_dist_rs_v7x_xyz2x2x2_x_m4096_n1024_bf16_1_alg».proof.Proof.K.OutRules

/-! The body of the kernel on device 0 of the mesh, from its precondition (BodyPre) to its postcondition (bodyPost).

    The program is straight-line code of 4045 statements. Its local steps — the 54 copies between the input, the staging
    buffers, the four-quarter buffer and the result, their waits, the loads and the stores — are run by the library's symbolic
    executor on hypotheses that hold each 512-row chunk through the slice the program itself names. Its remote steps are
    taken by the rounds library's rules, one application each: three barrier signals and the wait for the three
    neighbours; 37 copies to a neighbour, each lending the source chunk (at a share, where the chunk is also read by another
    copy) and landing the chunk's final contents; the waits on the 37 receive cells, which hand back the landed chunks; the
    final waits on the 37 send cells, which hand back what was lent. Whenever a chunk has been written (by a landing copy or
    by a store) it is restated as "holds its final contents" (Spec), which is what the next copy's payload asks for.
    A wait is allowed because whatever the device still owes at that point lies above the awaited cell (Owed): decided on the
    list of payments not yet made. At the end every cell has had its one round and is closed, and the pieces of every
    buffer are put back. -/

set_option maxRecDepth 8000

noncomputable section

namespace Cert.Kernel.RS.D0

open Cert.Kernel Cert.Kernel.Gen Cert.Kernel.RS
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local notation "cc" => (Fin.mk 0 (Nat.le_of_ble_eq_true rfl) : Dev nD)

set_option maxHeartbeats 1600000 in
theorem dev (m : (ℓ : Loc nD τ sig) → Buf (Elt F) ℓ) (K : GSem nD τ sig → ℕ) (W : Waits sig Unit) (Kt : PUnit → sProp 𝕄) :
    iprop(bodyPre m K cc W ∗ (bodyPost m cc -∗ Kt ⟨⟩))
      ⊢ wp frame (wpE (defs₀ (F := F)) 𝒱₀ (cc : Thread nD τ) none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25) Kt := by
  unfold bodyPre O₀
  iintro ⟨⟨HIt, HIw, HRt, #Hlev, HO, Hcr, HpR, HpS, Htk, HX, Hout, HS0, HS1, HS2, HS3, HS4, HS5, HS6, HS7, HS8, HvI, HvO, HvU⟩, Hk⟩
  rw [cc0_body_eq_skeleton]; unfold cc0_body_skel
  -- the four-quarter buffer in the pieces that travel
  ihave H0 := (Entails.of_eq (junk_whole (F := F) cc cc0_scratch0)) $$ HS0
  icases H0 with ⟨%f0, H0⟩
  ihave H4 := (r4_entry (F := F) cc f0) $$ H0
  icases H4 with ⟨Hown, HgZ, HgY, Hdg, HhZ, HhY⟩
  sl_exec

  icases Htk with ⟨Htb, Htk⟩
  icases HIt with ⟨#HIbpx, HIt⟩
  icases HRt with ⟨#HRbpx, HRt⟩
  iapply (sig_bar m cc _ (px cc) (dev1_eq cc) 0 (by decide) (owedL (List.drop 1 (paysL cc))) rfl) $$ [HO Htb HS2 HS4]
  · isplitr; · iexact HIbpx
    isplitl [HO]; · iexact HO
    isplitl [Htb]; · iexact Htb
    isplitl [HS2 HS4]
    · iapply (Entails.of_eq ((barPay_zero (F := F) (px cc)).trans (by rw [px_px])).symm)
      unfold giveX
      isplitl [HS2]; · iexact HS2
      iexact HS4
    · iexact HRbpx
  iintro HO
  sl_exec

  icases Htk with ⟨Htb, Htk⟩
  icases HIt with ⟨#HIbpz, HIt⟩
  icases HRt with ⟨#HRbpz, HRt⟩
  iapply (sig_bar m cc _ (pz cc) (dev2_eq cc) 2 (by decide) (owedL (List.drop 2 (paysL cc))) rfl) $$ [HO Htb HgZ HhZ]
  · isplitr; · iexact HIbpz
    isplitl [HO]; · iexact HO
    isplitl [Htb]; · iexact Htb
    isplitl [HgZ HhZ]
    · iapply (Entails.of_eq ((barPay_two (F := F) (pz cc)).trans (by rw [pz_pz])).symm)
      isplitl [HgZ]; · iexact HgZ
      iexact HhZ
    · iexact HRbpz
  iintro HO
  sl_exec

  icases Htk with ⟨Htb, Htk⟩
  icases HIt with ⟨#HIbpy, HIt⟩
  icases HRt with ⟨#HRbpy, HRt⟩
  iapply (sig_bar m cc _ (py cc) (dev3_eq cc) 1 (by decide) (owedL (List.drop 3 (paysL cc))) rfl) $$ [HO Htb HgY HhY]
  · isplitr; · iexact HIbpy
    isplitl [HO]; · iexact HO
    isplitl [Htb]; · iexact Htb
    isplitl [HgY HhY]
    · iapply (Entails.of_eq ((barPay_one (F := F) (py cc)).trans (by rw [py_py])).symm)
      isplitl [HgY]; · iexact HgY
      iexact HhY
    · iexact HRbpy
  iintro HO
  sl_exec
  -- the wait for the three neighbours
  icases Hcr with ⟨Hcb, Hcr⟩
  icases HpR with ⟨Hpb, HpR⟩
  icases HIw with ⟨#HIb, HIw⟩
  ihave Hmw := (mayWait_list (F := F) cc (.reg barS) (List.drop 3 (paysL cc)) (by decide)) $$ Hlev
  iapply (wait_bar m cc (by decide)) $$ [Hcb HO Hmw Hpb]
  · isplitr; · iexact HIb
    isplitl [Hcb]; · iexact Hcb
    isplitl [HO]; · iexact HO
    isplitl [Hmw]; · iexact Hmw
    iexact Hpb
  iintro ⟨HO, Hpb, -, Hgx, Hgy, Hgz⟩
  -- what they handed over: the x-neighbour's landing buffers chunk by chunk, the y- and z-neighbours' quarter and halves
  ihave Hgx := (Entails.of_eq (barPay_zero (F := F) cc)) $$ Hgx
  ihave Hgx := (giveX_rows (F := F) (px cc)) $$ Hgx
  icases Hgx with ⟨Hrbp, Hrb2p⟩
  ihave Hgy := (Entails.of_eq (barPay_one (F := F) cc)) $$ Hgy
  icases Hgy with ⟨HqY, HhYp⟩
  ihave Hgz := (Entails.of_eq (barPay_two (F := F) cc)) $$ Hgz
  icases Hgz with ⟨HqZ, HhZp⟩
  -- this device's staging buffers and send buffers chunk by chunk
  ihave H5 := (Entails.of_eq (junk_whole (F := F) cc cc0_scratch5)) $$ HS5
  icases H5 with ⟨%f5, H5⟩
  ihave H5 := (Entails.of_eq (stP_rows (F := F) cc fullShare f5)) $$ H5
  icases H5 with ⟨HP0, HP1, HP2, HP3, HP4, HP5, HP6, HP7⟩
  ihave H6 := (Entails.of_eq (junk_whole (F := F) cc cc0_scratch6)) $$ HS6
  icases H6 with ⟨%f6, H6⟩
  ihave H6 := (Entails.of_eq (stL_rows (F := F) cc fullShare f6)) $$ H6
  icases H6 with ⟨HL0, HL1, HL2, HL3, HL4, HL5, HL6, HL7⟩
  ihave H7 := (Entails.of_eq (junk_whole (F := F) cc cc0_scratch7)) $$ HS7
  icases H7 with ⟨%f7, H7⟩
  ihave H7 := (Entails.of_eq (stP2_rows (F := F) cc fullShare f7)) $$ H7
  icases H7 with ⟨HP20, HP21, HP22⟩
  ihave H8 := (Entails.of_eq (junk_whole (F := F) cc cc0_scratch8)) $$ HS8
  icases H8 with ⟨%f8, H8⟩
  ihave H8 := (Entails.of_eq (stL2_rows (F := F) cc fullShare f8)) $$ H8
  icases H8 with ⟨HL20, HL21, HL22⟩
  ihave H1 := (Entails.of_eq (junk_whole (F := F) cc cc0_scratch1)) $$ HS1
  icases H1 with ⟨%f1, H1⟩
  ihave H1 := (Entails.of_eq (sb_rows (F := F) cc fullShare f1)) $$ H1
  icases H1 with ⟨HB0, HB1, HB2, HB3, HB4, HB5, HB6, HB7⟩
  ihave H3 := (Entails.of_eq (junk_whole (F := F) cc cc0_scratch3)) $$ HS3
  icases H3 with ⟨%f3, H3⟩
  ihave H3 := (Entails.of_eq (sb2_rows (F := F) cc fullShare f3)) $$ H3
  icases H3 with ⟨HB20, HB21, HB22⟩
  -- the counters of the 22 copies into the staging buffers
  icases HvI with ⟨Hv0, Hv8, Hv1, Hv9, Hv2, Hv10, Hv3, Hv11, Hv4, Hv12, Hv5, Hv13, Hv6, Hv14, Hv7, Hv15, Hv16, Hv19, Hv17, Hv20, Hv18, Hv21⟩
  sl_exec
  -- chunk 0 across x: wait for its copy into the staging buffer, round it into the send buffer, send it
  have hled3 : ∀ (s : DmaSem sig), lvJ s.val = 0 → ((levAts LL lvv : sProp 𝕄) ⊢ MayWait (cc : Thread nD τ) (.dma s) () (owedL (List.drop 3 (paysL cc)))) :=
    fun s hs => mayWait_local (F := F) cc s hs _ (by decide)
  sl_exec
  clear hled3
  ihave HB0 := (congr (F := F) (sbR 0) cc fullShare (dev.sl.HB0_w1 m f1) (sb m cc) (fun i hi => glue_sb m cc 0 _ (k0_off1_inb cc) (k0_off1_eq cc) f1 i hi)) $$ HB0
  -- the copy
  icases Htk with ⟨Hts, Htr, Htk⟩
  icases HIt with ⟨#HIc22, #HIr, HIt⟩
  icases HRt with ⟨#HRs, #HRr, HRt⟩
  icases Hrbp with ⟨⟨%fd, Hd⟩, Hrbp⟩
  iapply (send_x m cc _ (dev4_eq cc) 0 fd (owedL (List.drop 4 (paysL cc))) rfl _) $$ [HB0 Hd HO Hts Htr]
  · isplitr; · iexact HIc22
    isplitr; · iexact HIr
    isplitl [HB0]; · iexact HB0
    isplitl [Hd]; · iexact Hd
    isplitl [HO]; · iexact HO
    isplitl [Hts]; · iexact Hts
    isplitr; · iexact HRs
    isplitl [Htr]; · iexact Htr
    iexact HRr
  iintro ⟨Hcxs0, HO⟩
  iclear HIr HRs HRr
  -- chunk 1 across x: wait for its copy into the staging buffer, round it into the send buffer, send it
  have hled4 : ∀ (s : DmaSem sig), lvJ s.val = 0 → ((levAts LL lvv : sProp 𝕄) ⊢ MayWait (cc : Thread nD τ) (.dma s) () (owedL (List.drop 4 (paysL cc)))) :=
    fun s hs => mayWait_local (F := F) cc s hs _ (by decide)
  sl_exec
  clear hled4
  ihave HB1 := (congr (F := F) (sbR 1) cc fullShare (dev.sl.HB1_w1 m f1) (sb m cc) (fun i hi => glue_sb m cc 1 _ (k0_off3_inb cc) (k0_off3_eq cc) f1 i hi)) $$ HB1
  -- the copy
  icases Htk with ⟨Hts, Htr, Htk⟩
  icases HIt with ⟨#HIc23, #HIr, HIt⟩
  icases HRt with ⟨#HRs, #HRr, HRt⟩
  icases Hrbp with ⟨⟨%fd, Hd⟩, Hrbp⟩
  iapply (send_x m cc _ (dev5_eq cc) 1 fd (owedL (List.drop 5 (paysL cc))) rfl _) $$ [HB1 Hd HO Hts Htr]
  · isplitr; · iexact HIc23
    isplitr; · iexact HIr
    isplitl [HB1]; · iexact HB1
    isplitl [Hd]; · iexact Hd
    isplitl [HO]; · iexact HO
    isplitl [Hts]; · iexact Hts
    isplitr; · iexact HRs
    isplitl [Htr]; · iexact Htr
    iexact HRr
  iintro ⟨Hcxs1, HO⟩
  iclear HIr HRs HRr
  -- chunk 2 across x: wait for its copy into the staging buffer, round it into the send buffer, send it
  have hled5 : ∀ (s : DmaSem sig), lvJ s.val = 0 → ((levAts LL lvv : sProp 𝕄) ⊢ MayWait (cc : Thread nD τ) (.dma s) () (owedL (List.drop 5 (paysL cc)))) :=
    fun s hs => mayWait_local (F := F) cc s hs _ (by decide)
  sl_exec
  clear hled5
  ihave HB2 := (congr (F := F) (sbR 2) cc fullShare (dev.sl.HB2_w1 m f1) (sb m cc) (fun i hi => glue_sb m cc 2 _ (k0_off5_inb cc) (k0_off5_eq cc) f1 i hi)) $$ HB2
  -- the copy
  icases Htk with ⟨Hts, Htr, Htk⟩
  icases HIt with ⟨#HIc24, #HIr, HIt⟩
  icases HRt with ⟨#HRs, #HRr, HRt⟩
  icases Hrbp with ⟨⟨%fd, Hd⟩, Hrbp⟩
  iapply (send_x m cc _ (dev6_eq cc) 2 fd (owedL (List.drop 6 (paysL cc))) rfl _) $$ [HB2 Hd HO Hts Htr]
  · isplitr; · iexact HIc24
    isplitr; · iexact HIr
    isplitl [HB2]; · iexact HB2
    isplitl [Hd]; · iexact Hd
    isplitl [HO]; · iexact HO
    isplitl [Hts]; · iexact Hts
    isplitr; · iexact HRs
    isplitl [Htr]; · iexact Htr
    iexact HRr
  iintro ⟨Hcxs2, HO⟩
  iclear HIr HRs HRr
  -- chunk 3 across x: wait for its copy into the staging buffer, round it into the send buffer, send it
  have hled6 : ∀ (s : DmaSem sig), lvJ s.val = 0 → ((levAts LL lvv : sProp 𝕄) ⊢ MayWait (cc : Thread nD τ) (.dma s) () (owedL (List.drop 6 (paysL cc)))) :=
    fun s hs => mayWait_local (F := F) cc s hs _ (by decide)
  sl_exec
  clear hled6
  ihave HB3 := (congr (F := F) (sbR 3) cc fullShare (dev.sl.HB3_w1 m f1) (sb m cc) (fun i hi => glue_sb m cc 3 _ (k0_off7_inb cc) (k0_off7_eq cc) f1 i hi)) $$ HB3
  -- the copy
  icases Htk with ⟨Hts, Htr, Htk⟩
  icases HIt with ⟨#HIc25, #HIr, HIt⟩
  icases HRt with ⟨#HRs, #HRr, HRt⟩
  icases Hrbp with ⟨⟨%fd, Hd⟩, Hrbp⟩
  iapply (send_x m cc _ (dev7_eq cc) 3 fd (owedL (List.drop 7 (paysL cc))) rfl _) $$ [HB3 Hd HO Hts Htr]
  · isplitr; · iexact HIc25
    isplitr; · iexact HIr
    isplitl [HB3]; · iexact HB3
    isplitl [Hd]; · iexact Hd
    isplitl [HO]; · iexact HO
    isplitl [Hts]; · iexact Hts
    isplitr; · iexact HRs
    isplitl [Htr]; · iexact Htr
    iexact HRr
  iintro ⟨Hcxs3, HO⟩
  iclear HIr HRs HRr
  -- chunk 4 across x: wait for its copy into the staging buffer, round it into the send buffer, send it
  have hled7 : ∀ (s : DmaSem sig), lvJ s.val = 0 → ((levAts LL lvv : sProp 𝕄) ⊢ MayWait (cc : Thread nD τ) (.dma s) () (owedL (List.drop 7 (paysL cc)))) :=
    fun s hs => mayWait_local (F := F) cc s hs _ (by decide)
  sl_exec
  clear hled7
  ihave HB4 := (congr (F := F) (sbR 4) cc fullShare (dev.sl.HB4_w1 m f1) (sb m cc) (fun i hi => glue_sb m cc 4 _ (k0_off9_inb cc) (k0_off9_eq cc) f1 i hi)) $$ HB4
  -- the copy
  icases Htk with ⟨Hts, Htr, Htk⟩
  icases HIt with ⟨#HIc26, #HIr, HIt⟩
  icases HRt with ⟨#HRs, #HRr, HRt⟩
  icases Hrbp with ⟨⟨%fd, Hd⟩, Hrbp⟩
  iapply (send_x m cc _ (dev8_eq cc) 4 fd (owedL (List.drop 8 (paysL cc))) rfl _) $$ [HB4 Hd HO Hts Htr]
  · isplitr; · iexact HIc26
    isplitr; · iexact HIr
    isplitl [HB4]; · iexact HB4
    isplitl [Hd]; · iexact Hd
    isplitl [HO]; · iexact HO
    isplitl [Hts]; · iexact Hts
    isplitr; · iexact HRs
    isplitl [Htr]; · iexact Htr
    iexact HRr
  iintro ⟨Hcxs4, HO⟩
  iclear HIr HRs HRr
  -- chunk 5 across x: wait for its copy into the staging buffer, round it into the send buffer, send it
  have hled8 : ∀ (s : DmaSem sig), lvJ s.val = 0 → ((levAts LL lvv : sProp 𝕄) ⊢ MayWait (cc : Thread nD τ) (.dma s) () (owedL (List.drop 8 (paysL cc)))) :=
    fun s hs => mayWait_local (F := F) cc s hs _ (by decide)
  sl_exec
  clear hled8
  ihave HB5 := (congr (F := F) (sbR 5) cc fullShare (dev.sl.HB5_w1 m f1) (sb m cc) (fun i hi => glue_sb m cc 5 _ (k0_off11_inb cc) (k0_off11_eq cc) f1 i hi)) $$ HB5
  -- the copy
  icases Htk with ⟨Hts, Htr, Htk⟩
  icases HIt with ⟨#HIc27, #HIr, HIt⟩
  icases HRt with ⟨#HRs, #HRr, HRt⟩
  icases Hrbp with ⟨⟨%fd, Hd⟩, Hrbp⟩
  iapply (send_x m cc _ (dev9_eq cc) 5 fd (owedL (List.drop 9 (paysL cc))) rfl _) $$ [HB5 Hd HO Hts Htr]
  · isplitr; · iexact HIc27
    isplitr; · iexact HIr
    isplitl [HB5]; · iexact HB5
    isplitl [Hd]; · iexact Hd
    isplitl [HO]; · iexact HO
    isplitl [Hts]; · iexact Hts
    isplitr; · iexact HRs
    isplitl [Htr]; · iexact Htr
    iexact HRr
  iintro ⟨Hcxs5, HO⟩
  iclear HIr HRs HRr
  -- chunk 6 across x: wait for its copy into the staging buffer, round it into the send buffer, send it
  have hled9 : ∀ (s : DmaSem sig), lvJ s.val = 0 → ((levAts LL lvv : sProp 𝕄) ⊢ MayWait (cc : Thread nD τ) (.dma s) () (owedL (List.drop 9 (paysL cc)))) :=
    fun s hs => mayWait_local (F := F) cc s hs _ (by decide)
  sl_exec
  clear hled9
  ihave HB6 := (congr (F := F) (sbR 6) cc fullShare (dev.sl.HB6_w1 m f1) (sb m cc) (fun i hi => glue_sb m cc 6 _ (k0_off13_inb cc) (k0_off13_eq cc) f1 i hi)) $$ HB6
  -- the copy
  icases Htk with ⟨Hts, Htr, Htk⟩
  icases HIt with ⟨#HIc28, #HIr, HIt⟩
  icases HRt with ⟨#HRs, #HRr, HRt⟩
  icases Hrbp with ⟨⟨%fd, Hd⟩, Hrbp⟩
  iapply (send_x m cc _ (dev10_eq cc) 6 fd (owedL (List.drop 10 (paysL cc))) rfl _) $$ [HB6 Hd HO Hts Htr]
  · isplitr; · iexact HIc28
    isplitr; · iexact HIr
    isplitl [HB6]; · iexact HB6
    isplitl [Hd]; · iexact Hd
    isplitl [HO]; · iexact HO
    isplitl [Hts]; · iexact Hts
    isplitr; · iexact HRs
    isplitl [Htr]; · iexact Htr
    iexact HRr
  iintro ⟨Hcxs6, HO⟩
  iclear HIr HRs HRr
  -- chunk 7 across x: wait for its copy into the staging buffer, round it into the send buffer, send it
  have hled10 : ∀ (s : DmaSem sig), lvJ s.val = 0 → ((levAts LL lvv : sProp 𝕄) ⊢ MayWait (cc : Thread nD τ) (.dma s) () (owedL (List.drop 10 (paysL cc)))) :=
    fun s hs => mayWait_local (F := F) cc s hs _ (by decide)
  sl_exec
  clear hled10
  ihave HB7 := (congr (F := F) (sbR 7) cc fullShare (dev.sl.HB7_w1 m f1) (sb m cc) (fun i hi => glue_sb m cc 7 _ (k0_off15_inb cc) (k0_off15_eq cc) f1 i hi)) $$ HB7
  -- the copy
  icases Htk with ⟨Hts, Htr, Htk⟩
  icases HIt with ⟨#HIc29, #HIr, HIt⟩
  icases HRt with ⟨#HRs, #HRr, HRt⟩
  icases Hrbp with ⟨%fd, Hd⟩
  iapply (send_x m cc _ (dev11_eq cc) 7 fd (owedL (List.drop 11 (paysL cc))) rfl _) $$ [HB7 Hd HO Hts Htr]
  · isplitr; · iexact HIc29
    isplitr; · iexact HIr
    isplitl [HB7]; · iexact HB7
    isplitl [Hd]; · iexact Hd
    isplitl [HO]; · iexact HO
    isplitl [Hts]; · iexact Hts
    isplitr; · iexact HRs
    isplitl [Htr]; · iexact Htr
    iexact HRr
  iintro ⟨Hcxs7, HO⟩
  iclear HIr HRs HRr
  -- chunk 0 across x (the diagonal quarter's): wait for its copy into the staging buffer, round it into the send buffer, send it
  have hled11 : ∀ (s : DmaSem sig), lvJ s.val = 0 → ((levAts LL lvv : sProp 𝕄) ⊢ MayWait (cc : Thread nD τ) (.dma s) () (owedL (List.drop 11 (paysL cc)))) :=
    fun s hs => mayWait_local (F := F) cc s hs _ (by decide)
  sl_exec
  clear hled11
  ihave HB20 := (congr (F := F) (sb2R 0) cc fullShare (dev.sl.HB20_w1 m f3) (sb2 m cc) (fun i hi => glue_sb2 m cc 0 _ (k0_off17_inb cc) (k0_off17_eq cc) f3 i hi)) $$ HB20
  -- the copy
  icases Htk with ⟨Hts, Htr, Htk⟩
  icases HIt with ⟨#HIc38, #HIr, HIt⟩
  icases HRt with ⟨#HRs, #HRr, HRt⟩
  icases Hrb2p with ⟨⟨%fd, Hd⟩, Hrb2p⟩
  iapply (send_x2 m cc _ (dev12_eq cc) 0 fd (owedL (List.drop 12 (paysL cc))) rfl _) $$ [HB20 Hd HO Hts Htr]
  · isplitr; · iexact HIc38
    isplitr; · iexact HIr
    isplitl [HB20]; · iexact HB20
    isplitl [Hd]; · iexact Hd
    isplitl [HO]; · iexact HO
    isplitl [Hts]; · iexact Hts
    isplitr; · iexact HRs
    isplitl [Htr]; · iexact Htr
    iexact HRr
  iintro ⟨Hcds0, HO⟩
  iclear HIr HRs HRr
  -- chunk 1 across x (the diagonal quarter's): wait for its copy into the staging buffer, round it into the send buffer, send it
  have hled12 : ∀ (s : DmaSem sig), lvJ s.val = 0 → ((levAts LL lvv : sProp 𝕄) ⊢ MayWait (cc : Thread nD τ) (.dma s) () (owedL (List.drop 12 (paysL cc)))) :=
    fun s hs => mayWait_local (F := F) cc s hs _ (by decide)
  sl_exec
  clear hled12
  ihave HB21 := (congr (F := F) (sb2R 1) cc fullShare (dev.sl.HB21_w1 m f3) (sb2 m cc) (fun i hi => glue_sb2 m cc 1 _ (k0_off19_inb cc) (k0_off19_eq cc) f3 i hi)) $$ HB21
  -- the copy
  icases Htk with ⟨Hts, Htr, Htk⟩
  icases HIt with ⟨#HIc39, #HIr, HIt⟩
  icases HRt with ⟨#HRs, #HRr, HRt⟩
  icases Hrb2p with ⟨⟨%fd, Hd⟩, Hrb2p⟩
  iapply (send_x2 m cc _ (dev13_eq cc) 1 fd (owedL (List.drop 13 (paysL cc))) rfl _) $$ [HB21 Hd HO Hts Htr]
  · isplitr; · iexact HIc39
    isplitr; · iexact HIr
    isplitl [HB21]; · iexact HB21
    isplitl [Hd]; · iexact Hd
    isplitl [HO]; · iexact HO
    isplitl [Hts]; · iexact Hts
    isplitr; · iexact HRs
    isplitl [Htr]; · iexact Htr
    iexact HRr
  iintro ⟨Hcds1, HO⟩
  iclear HIr HRs HRr
  -- chunk 2 across x (the diagonal quarter's): wait for its copy into the staging buffer, round it into the send buffer, send it
  have hled13 : ∀ (s : DmaSem sig), lvJ s.val = 0 → ((levAts LL lvv : sProp 𝕄) ⊢ MayWait (cc : Thread nD τ) (.dma s) () (owedL (List.drop 13 (paysL cc)))) :=
    fun s hs => mayWait_local (F := F) cc s hs _ (by decide)
  sl_exec
  clear hled13
  ihave HB22 := (congr (F := F) (sb2R 2) cc fullShare (dev.sl.HB22_w1 m f3) (sb2 m cc) (fun i hi => glue_sb2 m cc 2 _ (k0_off21_inb cc) (k0_off21_eq cc) f3 i hi)) $$ HB22
  -- the copy
  icases Htk with ⟨Hts, Htr, Htk⟩
  icases HIt with ⟨#HIc40, #HIr, HIt⟩
  icases HRt with ⟨#HRs, #HRr, HRt⟩
  icases Hrb2p with ⟨%fd, Hd⟩
  iapply (send_x2 m cc _ (dev14_eq cc) 2 fd (owedL (List.drop 14 (paysL cc))) rfl _) $$ [HB22 Hd HO Hts Htr]
  · isplitr; · iexact HIc40
    isplitr; · iexact HIr
    isplitl [HB22]; · iexact HB22
    isplitl [Hd]; · iexact Hd
    isplitl [HO]; · iexact HO
    isplitl [Hts]; · iexact Hts
    isplitr; · iexact HRs
    isplitl [Htr]; · iexact Htr
    iexact HRr
  iintro ⟨Hcds2, HO⟩
  iclear HIr HRs HRr
  sl_exec
  -- the result array in its 32 blocks
  ihave Hout := (out_split_junk (F := F) cc) $$ Hout
  icases Hout with ⟨⟨%g00, HU00⟩, ⟨%g01, HU01⟩, ⟨%g02, HU02⟩, ⟨%g03, HU03⟩, ⟨%g10, HU10⟩, ⟨%g11, HU11⟩, ⟨%g12, HU12⟩, ⟨%g13, HU13⟩, ⟨%g20, HU20⟩, ⟨%g21, HU21⟩, ⟨%g22, HU22⟩, ⟨%g23, HU23⟩, ⟨%g30, HU30⟩, ⟨%g31, HU31⟩, ⟨%g32, HU32⟩, ⟨%g33, HU33⟩, ⟨%g40, HU40⟩, ⟨%g41, HU41⟩, ⟨%g42, HU42⟩, ⟨%g43, HU43⟩, ⟨%g50, HU50⟩, ⟨%g51, HU51⟩, ⟨%g52, HU52⟩, ⟨%g53, HU53⟩, ⟨%g60, HU60⟩, ⟨%g61, HU61⟩, ⟨%g62, HU62⟩, ⟨%g63, HU63⟩, ⟨%g70, HU70⟩, ⟨%g71, HU71⟩, ⟨%g72, HU72⟩, ⟨%g73, HU73⟩⟩
  ihave HqZ := (Entails.of_eq (giveQ_eq (F := F) (pz cc) (zqF (pz cc)))) $$ HqZ
  ihave HqY := (Entails.of_eq (giveQ_eq (F := F) (py cc) (yqF (py cc)))) $$ HqY
  ihave HhZp := (Entails.of_eq (giveH_eq (F := F) (pz cc) 0)) $$ HhZp
  ihave HhYp := (Entails.of_eq (giveH_eq (F := F) (py cc) 1)) $$ HhYp
  -- step 0 of the main loop: the x-neighbour's chunk 0 has landed
  icases Hcr with ⟨Hc, Hcr⟩
  icases HpR with ⟨Hp, HpR⟩
  icases HIw with ⟨#HIc30, HIw⟩
  ihave Hmw := (mayWait_list (F := F) cc (dsem (⟨30, by decide⟩ : Fin 140)) (List.drop 14 (paysL cc)) (by decide)) $$ Hlev
  iapply (wait_a1_at m cc _ 0 rfl) $$ [Hc HO Hmw Hp]
  · isplitr; · iexact HIc30
    isplitl [Hc]; · iexact Hc
    isplitl [HO]; · iexact HO
    isplitl [Hmw]; · iexact Hmw
    iexact Hp
  iintro ⟨HO, Hq30, -, Hrb0⟩
  icases Hown with ⟨Ho0, Hown⟩
  have hled14 : ∀ (s : DmaSem sig), lvJ s.val = 0 → ((levAts LL lvv : sProp 𝕄) ⊢ MayWait (cc : Thread nD τ) (.dma s) () (owedL (List.drop 14 (paysL cc)))) :=
    fun s hs => mayWait_local (F := F) cc s hs _ (by decide)
  sl_exec
  clear hled14
  ihave Ho0 := (congr (F := F) (r4R (mqF cc) 0) cc fullShare (dev.sl.Ho0_w1 m f0) (r4 m cc) (fun i hi => glue_own m cc 0 _ (k0_off2_inb cc) (k0_off2_eq cc) _ (k0_off23_inb cc) (k0_off23_eq cc) f0 i hi)) $$ Ho0
  ihave Ho0 := (Entails.of_eq (share_ZYK_eq (F := F) (r4R (mqF cc) 0) cc (r4 m cc))) $$ Ho0
  icases Ho0 with ⟨HoZ0, HoY0, HoK0⟩
  -- own chunk 0 to the z-neighbour
  icases Htk with ⟨Hts, Htr, Htk⟩
  icases HIt with ⟨#HIc44, #HIr, HIt⟩
  icases HRt with ⟨#HRs, #HRr, HRt⟩
  icases HqZ with ⟨⟨%fd, Hd⟩, HqZ⟩
  iapply (send_z_at m cc _ (dev15_eq cc) 0 _ _ (k0_off24_eq cc) fd (owedL (List.drop 15 (paysL cc))) rfl _) $$ [HoZ0 Hd HO Hts Htr]
  · isplitr; · iexact HIc44
    isplitr; · iexact HIr
    isplitl [HoZ0]; · iexact HoZ0
    isplitl [Hd]; · iexact Hd
    isplitl [HO]; · iexact HO
    isplitl [Hts]; · iexact Hts
    isplitr; · iexact HRs
    isplitl [Htr]; · iexact Htr
    iexact HRr
  iintro ⟨Hczs0, HO⟩
  iclear HIr HRs HRr
  sl_exec
  -- own chunk 0 to the y-neighbour
  icases Htk with ⟨Hts, Htr, Htk⟩
  icases HIt with ⟨#HIc60, #HIr, HIt⟩
  icases HRt with ⟨#HRs, #HRr, HRt⟩
  icases HqY with ⟨⟨%fd, Hd⟩, HqY⟩
  iapply (send_y_at m cc _ (dev16_eq cc) 0 _ _ (k0_off24_eq cc) fd (owedL (List.drop 16 (paysL cc))) rfl _) $$ [HoY0 Hd HO Hts Htr]
  · isplitr; · iexact HIc60
    isplitr; · iexact HIr
    isplitl [HoY0]; · iexact HoY0
    isplitl [Hd]; · iexact Hd
    isplitl [HO]; · iexact HO
    isplitl [Hts]; · iexact Hts
    isplitr; · iexact HRs
    isplitl [Htr]; · iexact Htr
    iexact HRr
  iintro ⟨Hcys0, HO⟩
  iclear HIr HRs HRr
  sl_exec
  -- step 1 of the main loop: the x-neighbour's chunk 1 has landed
  icases Hcr with ⟨Hc, Hcr⟩
  icases HpR with ⟨Hp, HpR⟩
  icases HIw with ⟨#HIc31, HIw⟩
  ihave Hmw := (mayWait_list (F := F) cc (dsem (⟨31, by decide⟩ : Fin 140)) (List.drop 16 (paysL cc)) (by decide)) $$ Hlev
  iapply (wait_a1_at m cc _ 1 rfl) $$ [Hc HO Hmw Hp]
  · isplitr; · iexact HIc31
    isplitl [Hc]; · iexact Hc
    isplitl [HO]; · iexact HO
    isplitl [Hmw]; · iexact Hmw
    iexact Hp
  iintro ⟨HO, Hq31, -, Hrb1⟩
  icases Hown with ⟨Ho1, Hown⟩
  have hled16 : ∀ (s : DmaSem sig), lvJ s.val = 0 → ((levAts LL lvv : sProp 𝕄) ⊢ MayWait (cc : Thread nD τ) (.dma s) () (owedL (List.drop 16 (paysL cc)))) :=
    fun s hs => mayWait_local (F := F) cc s hs _ (by decide)
  sl_exec
  clear hled16
  ihave Ho1 := (congr (F := F) (r4R (mqF cc) 1) cc fullShare (dev.sl.Ho1_w1 m f0) (r4 m cc) (fun i hi => glue_own m cc 1 _ (k0_off4_inb cc) (k0_off4_eq cc) _ (k0_off25_inb cc) (k0_off25_eq cc) f0 i hi)) $$ Ho1
  ihave Ho1 := (Entails.of_eq (share_ZYK_eq (F := F) (r4R (mqF cc) 1) cc (r4 m cc))) $$ Ho1
  icases Ho1 with ⟨HoZ1, HoY1, HoK1⟩
  -- own chunk 1 to the z-neighbour
  icases Htk with ⟨Hts, Htr, Htk⟩
  icases HIt with ⟨#HIc45, #HIr, HIt⟩
  icases HRt with ⟨#HRs, #HRr, HRt⟩
  icases HqZ with ⟨⟨%fd, Hd⟩, HqZ⟩
  iapply (send_z_at m cc _ (dev17_eq cc) 1 _ _ (k0_off26_eq cc) fd (owedL (List.drop 17 (paysL cc))) rfl _) $$ [HoZ1 Hd HO Hts Htr]
  · isplitr; · iexact HIc45
    isplitr; · iexact HIr
    isplitl [HoZ1]; · iexact HoZ1
    isplitl [Hd]; · iexact Hd
    isplitl [HO]; · iexact HO
    isplitl [Hts]; · iexact Hts
    isplitr; · iexact HRs
    isplitl [Htr]; · iexact Htr
    iexact HRr
  iintro ⟨Hczs1, HO⟩
  iclear HIr HRs HRr
  sl_exec
  -- own chunk 1 to the y-neighbour
  icases Htk with ⟨Hts, Htr, Htk⟩
  icases HIt with ⟨#HIc61, #HIr, HIt⟩
  icases HRt with ⟨#HRs, #HRr, HRt⟩
  icases HqY with ⟨⟨%fd, Hd⟩, HqY⟩
  iapply (send_y_at m cc _ (dev18_eq cc) 1 _ _ (k0_off26_eq cc) fd (owedL (List.drop 18 (paysL cc))) rfl _) $$ [HoY1 Hd HO Hts Htr]
  · isplitr; · iexact HIc61
    isplitr; · iexact HIr
    isplitl [HoY1]; · iexact HoY1
    isplitl [Hd]; · iexact Hd
    isplitl [HO]; · iexact HO
    isplitl [Hts]; · iexact Hts
    isplitr; · iexact HRs
    isplitl [Htr]; · iexact Htr
    iexact HRr
  iintro ⟨Hcys1, HO⟩
  iclear HIr HRs HRr
  sl_exec
  -- the z-neighbour's chunk 0 has landed
  icases Hcr with ⟨Hc, Hcr⟩
  icases HpR with ⟨Hp, HpR⟩
  icases HIw with ⟨#HIc52, HIw⟩
  ihave Hmw := (mayWait_list (F := F) cc (dsem (⟨52, by decide⟩ : Fin 140)) (List.drop 18 (paysL cc)) (by decide)) $$ Hlev
  iapply (wait_a5_at m cc _ 0 rfl) $$ [Hc HO Hmw Hp]
  · isplitr; · iexact HIc52
    isplitl [Hc]; · iexact Hc
    isplitl [HO]; · iexact HO
    isplitl [Hmw]; · iexact Hmw
    iexact Hp
  iintro ⟨HO, Hq52, -, Hz0⟩
  sl_exec
  -- the y-neighbour's chunk 0 has landed
  icases Hcr with ⟨Hc, Hcr⟩
  icases HpR with ⟨Hp, HpR⟩
  icases HIw with ⟨#HIc68, HIw⟩
  ihave Hmw := (mayWait_list (F := F) cc (dsem (⟨68, by decide⟩ : Fin 140)) (List.drop 18 (paysL cc)) (by decide)) $$ Hlev
  iapply (wait_a7_at m cc _ 0 rfl) $$ [Hc HO Hmw Hp]
  · isplitr; · iexact HIc68
    isplitl [Hc]; · iexact Hc
    isplitl [HO]; · iexact HO
    isplitl [Hmw]; · iexact Hmw
    iexact Hp
  iintro ⟨HO, Hq68, -, Hy0⟩
  sl_exec
  -- step 2 of the main loop: the x-neighbour's chunk 2 has landed
  icases Hcr with ⟨Hc, Hcr⟩
  icases HpR with ⟨Hp, HpR⟩
  icases HIw with ⟨#HIc32, HIw⟩
  ihave Hmw := (mayWait_list (F := F) cc (dsem (⟨32, by decide⟩ : Fin 140)) (List.drop 18 (paysL cc)) (by decide)) $$ Hlev
  iapply (wait_a1_at m cc _ 2 rfl) $$ [Hc HO Hmw Hp]
  · isplitr; · iexact HIc32
    isplitl [Hc]; · iexact Hc
    isplitl [HO]; · iexact HO
    isplitl [Hmw]; · iexact Hmw
    iexact Hp
  iintro ⟨HO, Hq32, -, Hrb2⟩
  icases Hown with ⟨Ho2, Hown⟩
  have hled18 : ∀ (s : DmaSem sig), lvJ s.val = 0 → ((levAts LL lvv : sProp 𝕄) ⊢ MayWait (cc : Thread nD τ) (.dma s) () (owedL (List.drop 18 (paysL cc)))) :=
    fun s hs => mayWait_local (F := F) cc s hs _ (by decide)
  sl_exec
  clear hled18
  ihave Ho2 := (congr (F := F) (r4R (mqF cc) 2) cc fullShare (dev.sl.Ho2_w1 m f0) (r4 m cc) (fun i hi => glue_own m cc 2 _ (k0_off6_inb cc) (k0_off6_eq cc) _ (k0_off27_inb cc) (k0_off27_eq cc) f0 i hi)) $$ Ho2
  ihave Ho2 := (Entails.of_eq (share_ZYK_eq (F := F) (r4R (mqF cc) 2) cc (r4 m cc))) $$ Ho2
  icases Ho2 with ⟨HoZ2, HoY2, HoK2⟩
  -- own chunk 2 to the z-neighbour
  icases Htk with ⟨Hts, Htr, Htk⟩
  icases HIt with ⟨#HIc46, #HIr, HIt⟩
  icases HRt with ⟨#HRs, #HRr, HRt⟩
  icases HqZ with ⟨⟨%fd, Hd⟩, HqZ⟩
  iapply (send_z_at m cc _ (dev19_eq cc) 2 _ _ (k0_off28_eq cc) fd (owedL (List.drop 19 (paysL cc))) rfl _) $$ [HoZ2 Hd HO Hts Htr]
  · isplitr; · iexact HIc46
    isplitr; · iexact HIr
    isplitl [HoZ2]; · iexact HoZ2
    isplitl [Hd]; · iexact Hd
    isplitl [HO]; · iexact HO
    isplitl [Hts]; · iexact Hts
    isplitr; · iexact HRs
    isplitl [Htr]; · iexact Htr
    iexact HRr
  iintro ⟨Hczs2, HO⟩
  iclear HIr HRs HRr
  sl_exec
  -- own chunk 2 to the y-neighbour
  icases Htk with ⟨Hts, Htr, Htk⟩
  icases HIt with ⟨#HIc62, #HIr, HIt⟩
  icases HRt with ⟨#HRs, #HRr, HRt⟩
  icases HqY with ⟨⟨%fd, Hd⟩, HqY⟩
  iapply (send_y_at m cc _ (dev20_eq cc) 2 _ _ (k0_off28_eq cc) fd (owedL (List.drop 20 (paysL cc))) rfl _) $$ [HoY2 Hd HO Hts Htr]
  · isplitr; · iexact HIc62
    isplitr; · iexact HIr
    isplitl [HoY2]; · iexact HoY2
    isplitl [Hd]; · iexact Hd
    isplitl [HO]; · iexact HO
    isplitl [Hts]; · iexact Hts
    isplitr; · iexact HRs
    isplitl [Htr]; · iexact Htr
    iexact HRr
  iintro ⟨Hcys2, HO⟩
  iclear HIr HRs HRr
  sl_exec
  -- the z-neighbour's chunk 1 has landed
  icases Hcr with ⟨Hc, Hcr⟩
  icases HpR with ⟨Hp, HpR⟩
  icases HIw with ⟨#HIc53, HIw⟩
  ihave Hmw := (mayWait_list (F := F) cc (dsem (⟨53, by decide⟩ : Fin 140)) (List.drop 20 (paysL cc)) (by decide)) $$ Hlev
  iapply (wait_a5_at m cc _ 1 rfl) $$ [Hc HO Hmw Hp]
  · isplitr; · iexact HIc53
    isplitl [Hc]; · iexact Hc
    isplitl [HO]; · iexact HO
    isplitl [Hmw]; · iexact Hmw
    iexact Hp
  iintro ⟨HO, Hq53, -, Hz1⟩
  sl_exec
  -- the y-neighbour's chunk 1 has landed
  icases Hcr with ⟨Hc, Hcr⟩
  icases HpR with ⟨Hp, HpR⟩
  icases HIw with ⟨#HIc69, HIw⟩
  ihave Hmw := (mayWait_list (F := F) cc (dsem (⟨69, by decide⟩ : Fin 140)) (List.drop 20 (paysL cc)) (by decide)) $$ Hlev
  iapply (wait_a7_at m cc _ 1 rfl) $$ [Hc HO Hmw Hp]
  · isplitr; · iexact HIc69
    isplitl [Hc]; · iexact Hc
    isplitl [HO]; · iexact HO
    isplitl [Hmw]; · iexact Hmw
    iexact Hp
  iintro ⟨HO, Hq69, -, Hy1⟩
  sl_exec
  -- step 3 of the main loop: the x-neighbour's chunk 3 has landed
  icases Hcr with ⟨Hc, Hcr⟩
  icases HpR with ⟨Hp, HpR⟩
  icases HIw with ⟨#HIc33, HIw⟩
  ihave Hmw := (mayWait_list (F := F) cc (dsem (⟨33, by decide⟩ : Fin 140)) (List.drop 20 (paysL cc)) (by decide)) $$ Hlev
  iapply (wait_a1_at m cc _ 3 rfl) $$ [Hc HO Hmw Hp]
  · isplitr; · iexact HIc33
    isplitl [Hc]; · iexact Hc
    isplitl [HO]; · iexact HO
    isplitl [Hmw]; · iexact Hmw
    iexact Hp
  iintro ⟨HO, Hq33, -, Hrb3⟩
  icases Hown with ⟨Ho3, Hown⟩
  have hled20 : ∀ (s : DmaSem sig), lvJ s.val = 0 → ((levAts LL lvv : sProp 𝕄) ⊢ MayWait (cc : Thread nD τ) (.dma s) () (owedL (List.drop 20 (paysL cc)))) :=
    fun s hs => mayWait_local (F := F) cc s hs _ (by decide)
  sl_exec
  clear hled20
  ihave Ho3 := (congr (F := F) (r4R (mqF cc) 3) cc fullShare (dev.sl.Ho3_w1 m f0) (r4 m cc) (fun i hi => glue_own m cc 3 _ (k0_off8_inb cc) (k0_off8_eq cc) _ (k0_off29_inb cc) (k0_off29_eq cc) f0 i hi)) $$ Ho3
  ihave Ho3 := (Entails.of_eq (share_ZYK_eq (F := F) (r4R (mqF cc) 3) cc (r4 m cc))) $$ Ho3
  icases Ho3 with ⟨HoZ3, HoY3, HoK3⟩
  -- own chunk 3 to the z-neighbour
  icases Htk with ⟨Hts, Htr, Htk⟩
  icases HIt with ⟨#HIc47, #HIr, HIt⟩
  icases HRt with ⟨#HRs, #HRr, HRt⟩
  icases HqZ with ⟨⟨%fd, Hd⟩, HqZ⟩
  iapply (send_z_at m cc _ (dev21_eq cc) 3 _ _ (k0_off30_eq cc) fd (owedL (List.drop 21 (paysL cc))) rfl _) $$ [HoZ3 Hd HO Hts Htr]
  · isplitr; · iexact HIc47
    isplitr; · iexact HIr
    isplitl [HoZ3]; · iexact HoZ3
    isplitl [Hd]; · iexact Hd
    isplitl [HO]; · iexact HO
    isplitl [Hts]; · iexact Hts
    isplitr; · iexact HRs
    isplitl [Htr]; · iexact Htr
    iexact HRr
  iintro ⟨Hczs3, HO⟩
  iclear HIr HRs HRr
  sl_exec
  -- own chunk 3 to the y-neighbour
  icases Htk with ⟨Hts, Htr, Htk⟩
  icases HIt with ⟨#HIc63, #HIr, HIt⟩
  icases HRt with ⟨#HRs, #HRr, HRt⟩
  icases HqY with ⟨⟨%fd, Hd⟩, HqY⟩
  iapply (send_y_at m cc _ (dev22_eq cc) 3 _ _ (k0_off30_eq cc) fd (owedL (List.drop 22 (paysL cc))) rfl _) $$ [HoY3 Hd HO Hts Htr]
  · isplitr; · iexact HIc63
    isplitr; · iexact HIr
    isplitl [HoY3]; · iexact HoY3
    isplitl [Hd]; · iexact Hd
    isplitl [HO]; · iexact HO
    isplitl [Hts]; · iexact Hts
    isplitr; · iexact HRs
    isplitl [Htr]; · iexact Htr
    iexact HRr
  iintro ⟨Hcys3, HO⟩
  iclear HIr HRs HRr
  sl_exec
  -- the z-neighbour's chunk 2 has landed
  icases Hcr with ⟨Hc, Hcr⟩
  icases HpR with ⟨Hp, HpR⟩
  icases HIw with ⟨#HIc54, HIw⟩
  ihave Hmw := (mayWait_list (F := F) cc (dsem (⟨54, by decide⟩ : Fin 140)) (List.drop 22 (paysL cc)) (by decide)) $$ Hlev
  iapply (wait_a5_at m cc _ 2 rfl) $$ [Hc HO Hmw Hp]
  · isplitr; · iexact HIc54
    isplitl [Hc]; · iexact Hc
    isplitl [HO]; · iexact HO
    isplitl [Hmw]; · iexact Hmw
    iexact Hp
  iintro ⟨HO, Hq54, -, Hz2⟩
  sl_exec
  -- the y-neighbour's chunk 2 has landed
  icases Hcr with ⟨Hc, Hcr⟩
  icases HpR with ⟨Hp, HpR⟩
  icases HIw with ⟨#HIc70, HIw⟩
  ihave Hmw := (mayWait_list (F := F) cc (dsem (⟨70, by decide⟩ : Fin 140)) (List.drop 22 (paysL cc)) (by decide)) $$ Hlev
  iapply (wait_a7_at m cc _ 2 rfl) $$ [Hc HO Hmw Hp]
  · isplitr; · iexact HIc70
    isplitl [Hc]; · iexact Hc
    isplitl [HO]; · iexact HO
    isplitl [Hmw]; · iexact Hmw
    iexact Hp
  iintro ⟨HO, Hq70, -, Hy2⟩
  sl_exec
  -- step 4 of the main loop: the x-neighbour's chunk 4 has landed
  icases Hcr with ⟨Hc, Hcr⟩
  icases HpR with ⟨Hp, HpR⟩
  icases HIw with ⟨#HIc34, HIw⟩
  ihave Hmw := (mayWait_list (F := F) cc (dsem (⟨34, by decide⟩ : Fin 140)) (List.drop 22 (paysL cc)) (by decide)) $$ Hlev
  iapply (wait_a1_at m cc _ 4 rfl) $$ [Hc HO Hmw Hp]
  · isplitr; · iexact HIc34
    isplitl [Hc]; · iexact Hc
    isplitl [HO]; · iexact HO
    isplitl [Hmw]; · iexact Hmw
    iexact Hp
  iintro ⟨HO, Hq34, -, Hrb4⟩
  icases Hown with ⟨Ho4, Hown⟩
  have hled22 : ∀ (s : DmaSem sig), lvJ s.val = 0 → ((levAts LL lvv : sProp 𝕄) ⊢ MayWait (cc : Thread nD τ) (.dma s) () (owedL (List.drop 22 (paysL cc)))) :=
    fun s hs => mayWait_local (F := F) cc s hs _ (by decide)
  sl_exec
  clear hled22
  ihave Ho4 := (congr (F := F) (r4R (mqF cc) 4) cc fullShare (dev.sl.Ho4_w1 m f0) (r4 m cc) (fun i hi => glue_own m cc 4 _ (k0_off10_inb cc) (k0_off10_eq cc) _ (k0_off31_inb cc) (k0_off31_eq cc) f0 i hi)) $$ Ho4
  ihave Ho4 := (Entails.of_eq (share_ZYK_eq (F := F) (r4R (mqF cc) 4) cc (r4 m cc))) $$ Ho4
  icases Ho4 with ⟨HoZ4, HoY4, HoK4⟩
  -- own chunk 4 to the z-neighbour
  icases Htk with ⟨Hts, Htr, Htk⟩
  icases HIt with ⟨#HIc48, #HIr, HIt⟩
  icases HRt with ⟨#HRs, #HRr, HRt⟩
  icases HqZ with ⟨⟨%fd, Hd⟩, HqZ⟩
  iapply (send_z_at m cc _ (dev23_eq cc) 4 _ _ (k0_off32_eq cc) fd (owedL (List.drop 23 (paysL cc))) rfl _) $$ [HoZ4 Hd HO Hts Htr]
  · isplitr; · iexact HIc48
    isplitr; · iexact HIr
    isplitl [HoZ4]; · iexact HoZ4
    isplitl [Hd]; · iexact Hd
    isplitl [HO]; · iexact HO
    isplitl [Hts]; · iexact Hts
    isplitr; · iexact HRs
    isplitl [Htr]; · iexact Htr
    iexact HRr
  iintro ⟨Hczs4, HO⟩
  iclear HIr HRs HRr
  sl_exec
  -- own chunk 4 to the y-neighbour
  icases Htk with ⟨Hts, Htr, Htk⟩
  icases HIt with ⟨#HIc64, #HIr, HIt⟩
  icases HRt with ⟨#HRs, #HRr, HRt⟩
  icases HqY with ⟨⟨%fd, Hd⟩, HqY⟩
  iapply (send_y_at m cc _ (dev24_eq cc) 4 _ _ (k0_off32_eq cc) fd (owedL (List.drop 24 (paysL cc))) rfl _) $$ [HoY4 Hd HO Hts Htr]
  · isplitr; · iexact HIc64
    isplitr; · iexact HIr
    isplitl [HoY4]; · iexact HoY4
    isplitl [Hd]; · iexact Hd
    isplitl [HO]; · iexact HO
    isplitl [Hts]; · iexact Hts
    isplitr; · iexact HRs
    isplitl [Htr]; · iexact Htr
    iexact HRr
  iintro ⟨Hcys4, HO⟩
  iclear HIr HRs HRr
  sl_exec
  -- the z-neighbour's chunk 3 has landed
  icases Hcr with ⟨Hc, Hcr⟩
  icases HpR with ⟨Hp, HpR⟩
  icases HIw with ⟨#HIc55, HIw⟩
  ihave Hmw := (mayWait_list (F := F) cc (dsem (⟨55, by decide⟩ : Fin 140)) (List.drop 24 (paysL cc)) (by decide)) $$ Hlev
  iapply (wait_a5_at m cc _ 3 rfl) $$ [Hc HO Hmw Hp]
  · isplitr; · iexact HIc55
    isplitl [Hc]; · iexact Hc
    isplitl [HO]; · iexact HO
    isplitl [Hmw]; · iexact Hmw
    iexact Hp
  iintro ⟨HO, Hq55, -, Hz3⟩
  sl_exec
  -- the y-neighbour's chunk 3 has landed
  icases Hcr with ⟨Hc, Hcr⟩
  icases HpR with ⟨Hp, HpR⟩
  icases HIw with ⟨#HIc71, HIw⟩
  ihave Hmw := (mayWait_list (F := F) cc (dsem (⟨71, by decide⟩ : Fin 140)) (List.drop 24 (paysL cc)) (by decide)) $$ Hlev
  iapply (wait_a7_at m cc _ 3 rfl) $$ [Hc HO Hmw Hp]
  · isplitr; · iexact HIc71
    isplitl [Hc]; · iexact Hc
    isplitl [HO]; · iexact HO
    isplitl [Hmw]; · iexact Hmw
    iexact Hp
  iintro ⟨HO, Hq71, -, Hy3⟩
  -- chunk 3 of the two neighbours' quarters: half its ownership stays for the copy into the result, of the other half one column half travels on
  ihave Hz3 := (Entails.of_eq (share_FG_eq (F := F) (r4R (zqF cc) 3) cc (r4 m cc))) $$ Hz3
  icases Hz3 with ⟨HzF3, HzG3⟩
  ihave HzF3 := (Entails.of_eq (chunk_halves (F := F) cc (zqF cc) 3 shF (r4 m cc))) $$ HzF3
  icases HzF3 with ⟨HzFl3, HzFr3⟩
  ihave Hy3 := (Entails.of_eq (share_FG_eq (F := F) (r4R (yqF cc) 3) cc (r4 m cc))) $$ Hy3
  icases Hy3 with ⟨HyF3, HyG3⟩
  ihave HyF3 := (Entails.of_eq (chunk_halves (F := F) cc (yqF cc) 3 shF (r4 m cc))) $$ HyF3
  icases HyF3 with ⟨HyFl3, HyFr3⟩
  sl_exec
  -- the right half of the z-neighbour's chunk 3 on to the y-neighbour
  icases Htk with ⟨Hts, Htr, Htk⟩
  icases HIt with ⟨#HIc95, #HIr, HIt⟩
  icases HRt with ⟨#HRs, #HRr, HRt⟩
  icases HhYp with ⟨⟨%fd, Hd⟩, HhYp⟩
  iapply (send_yf_at m cc _ (dev25_eq cc) 3 (by decide) _ _ (k0_off33_eq cc) fd (owedL (List.drop 25 (paysL cc))) rfl _) $$ [HzFr3 Hd HO Hts Htr]
  · isplitr; · iexact HIc95
    isplitr; · iexact HIr
    isplitl [HzFr3]; · iexact HzFr3
    isplitl [Hd]; · iexact Hd
    isplitl [HO]; · iexact HO
    isplitl [Hts]; · iexact Hts
    isplitr; · iexact HRs
    isplitl [Htr]; · iexact Htr
    iexact HRr
  iintro ⟨Hcyfs3, HO⟩
  iclear HIr HRs HRr
  sl_exec
  -- the left half of the y-neighbour's chunk 3 on to the z-neighbour
  icases Htk with ⟨Hts, Htr, Htk⟩
  icases HIt with ⟨#HIc79, #HIr, HIt⟩
  icases HRt with ⟨#HRs, #HRr, HRt⟩
  icases HhZp with ⟨⟨%fd, Hd⟩, HhZp⟩
  iapply (send_zf_at m cc _ (dev26_eq cc) 3 (by decide) _ _ (k0_off34_eq cc) fd (owedL (List.drop 26 (paysL cc))) rfl _) $$ [HyFl3 Hd HO Hts Htr]
  · isplitr; · iexact HIc79
    isplitr; · iexact HIr
    isplitl [HyFl3]; · iexact HyFl3
    isplitl [Hd]; · iexact Hd
    isplitl [HO]; · iexact HO
    isplitl [Hts]; · iexact Hts
    isplitr; · iexact HRs
    isplitl [Htr]; · iexact Htr
    iexact HRr
  iintro ⟨Hczfs3, HO⟩
  iclear HIr HRs HRr
  sl_exec
  -- step 5 of the main loop: the x-neighbour's chunk 5 has landed
  icases Hcr with ⟨Hc, Hcr⟩
  icases HpR with ⟨Hp, HpR⟩
  icases HIw with ⟨#HIc35, HIw⟩
  ihave Hmw := (mayWait_list (F := F) cc (dsem (⟨35, by decide⟩ : Fin 140)) (List.drop 26 (paysL cc)) (by decide)) $$ Hlev
  iapply (wait_a1_at m cc _ 5 rfl) $$ [Hc HO Hmw Hp]
  · isplitr; · iexact HIc35
    isplitl [Hc]; · iexact Hc
    isplitl [HO]; · iexact HO
    isplitl [Hmw]; · iexact Hmw
    iexact Hp
  iintro ⟨HO, Hq35, -, Hrb5⟩
  icases Hown with ⟨Ho5, Hown⟩
  have hled26 : ∀ (s : DmaSem sig), lvJ s.val = 0 → ((levAts LL lvv : sProp 𝕄) ⊢ MayWait (cc : Thread nD τ) (.dma s) () (owedL (List.drop 26 (paysL cc)))) :=
    fun s hs => mayWait_local (F := F) cc s hs _ (by decide)
  sl_exec
  clear hled26
  ihave Ho5 := (congr (F := F) (r4R (mqF cc) 5) cc fullShare (dev.sl.Ho5_w1 m f0) (r4 m cc) (fun i hi => glue_own m cc 5 _ (k0_off12_inb cc) (k0_off12_eq cc) _ (k0_off35_inb cc) (k0_off35_eq cc) f0 i hi)) $$ Ho5
  ihave Ho5 := (Entails.of_eq (share_ZYK_eq (F := F) (r4R (mqF cc) 5) cc (r4 m cc))) $$ Ho5
  icases Ho5 with ⟨HoZ5, HoY5, HoK5⟩
  -- own chunk 5 to the z-neighbour
  icases Htk with ⟨Hts, Htr, Htk⟩
  icases HIt with ⟨#HIc49, #HIr, HIt⟩
  icases HRt with ⟨#HRs, #HRr, HRt⟩
  icases HqZ with ⟨⟨%fd, Hd⟩, HqZ⟩
  iapply (send_z_at m cc _ (dev27_eq cc) 5 _ _ (k0_off36_eq cc) fd (owedL (List.drop 27 (paysL cc))) rfl _) $$ [HoZ5 Hd HO Hts Htr]
  · isplitr; · iexact HIc49
    isplitr; · iexact HIr
    isplitl [HoZ5]; · iexact HoZ5
    isplitl [Hd]; · iexact Hd
    isplitl [HO]; · iexact HO
    isplitl [Hts]; · iexact Hts
    isplitr; · iexact HRs
    isplitl [Htr]; · iexact Htr
    iexact HRr
  iintro ⟨Hczs5, HO⟩
  iclear HIr HRs HRr
  sl_exec
  -- own chunk 5 to the y-neighbour
  icases Htk with ⟨Hts, Htr, Htk⟩
  icases HIt with ⟨#HIc65, #HIr, HIt⟩
  icases HRt with ⟨#HRs, #HRr, HRt⟩
  icases HqY with ⟨⟨%fd, Hd⟩, HqY⟩
  iapply (send_y_at m cc _ (dev28_eq cc) 5 _ _ (k0_off36_eq cc) fd (owedL (List.drop 28 (paysL cc))) rfl _) $$ [HoY5 Hd HO Hts Htr]
  · isplitr; · iexact HIc65
    isplitr; · iexact HIr
    isplitl [HoY5]; · iexact HoY5
    isplitl [Hd]; · iexact Hd
    isplitl [HO]; · iexact HO
    isplitl [Hts]; · iexact Hts
    isplitr; · iexact HRs
    isplitl [Htr]; · iexact Htr
    iexact HRr
  iintro ⟨Hcys5, HO⟩
  iclear HIr HRs HRr
  sl_exec
  -- the z-neighbour's chunk 4 has landed
  icases Hcr with ⟨Hc, Hcr⟩
  icases HpR with ⟨Hp, HpR⟩
  icases HIw with ⟨#HIc56, HIw⟩
  ihave Hmw := (mayWait_list (F := F) cc (dsem (⟨56, by decide⟩ : Fin 140)) (List.drop 28 (paysL cc)) (by decide)) $$ Hlev
  iapply (wait_a5_at m cc _ 4 rfl) $$ [Hc HO Hmw Hp]
  · isplitr; · iexact HIc56
    isplitl [Hc]; · iexact Hc
    isplitl [HO]; · iexact HO
    isplitl [Hmw]; · iexact Hmw
    iexact Hp
  iintro ⟨HO, Hq56, -, Hz4⟩
  sl_exec
  -- the y-neighbour's chunk 4 has landed
  icases Hcr with ⟨Hc, Hcr⟩
  icases HpR with ⟨Hp, HpR⟩
  icases HIw with ⟨#HIc72, HIw⟩
  ihave Hmw := (mayWait_list (F := F) cc (dsem (⟨72, by decide⟩ : Fin 140)) (List.drop 28 (paysL cc)) (by decide)) $$ Hlev
  iapply (wait_a7_at m cc _ 4 rfl) $$ [Hc HO Hmw Hp]
  · isplitr; · iexact HIc72
    isplitl [Hc]; · iexact Hc
    isplitl [HO]; · iexact HO
    isplitl [Hmw]; · iexact Hmw
    iexact Hp
  iintro ⟨HO, Hq72, -, Hy4⟩
  -- chunk 4 of the two neighbours' quarters: half its ownership stays for the copy into the result, of the other half one column half travels on
  ihave Hz4 := (Entails.of_eq (share_FG_eq (F := F) (r4R (zqF cc) 4) cc (r4 m cc))) $$ Hz4
  icases Hz4 with ⟨HzF4, HzG4⟩
  ihave HzF4 := (Entails.of_eq (chunk_halves (F := F) cc (zqF cc) 4 shF (r4 m cc))) $$ HzF4
  icases HzF4 with ⟨HzFl4, HzFr4⟩
  ihave Hy4 := (Entails.of_eq (share_FG_eq (F := F) (r4R (yqF cc) 4) cc (r4 m cc))) $$ Hy4
  icases Hy4 with ⟨HyF4, HyG4⟩
  ihave HyF4 := (Entails.of_eq (chunk_halves (F := F) cc (yqF cc) 4 shF (r4 m cc))) $$ HyF4
  icases HyF4 with ⟨HyFl4, HyFr4⟩
  sl_exec
  -- the right half of the z-neighbour's chunk 4 on to the y-neighbour
  icases Htk with ⟨Hts, Htr, Htk⟩
  icases HIt with ⟨#HIc96, #HIr, HIt⟩
  icases HRt with ⟨#HRs, #HRr, HRt⟩
  icases HhYp with ⟨⟨%fd, Hd⟩, HhYp⟩
  iapply (send_yf_at m cc _ (dev29_eq cc) 4 (by decide) _ _ (k0_off37_eq cc) fd (owedL (List.drop 29 (paysL cc))) rfl _) $$ [HzFr4 Hd HO Hts Htr]
  · isplitr; · iexact HIc96
    isplitr; · iexact HIr
    isplitl [HzFr4]; · iexact HzFr4
    isplitl [Hd]; · iexact Hd
    isplitl [HO]; · iexact HO
    isplitl [Hts]; · iexact Hts
    isplitr; · iexact HRs
    isplitl [Htr]; · iexact Htr
    iexact HRr
  iintro ⟨Hcyfs4, HO⟩
  iclear HIr HRs HRr
  sl_exec
  -- the left half of the y-neighbour's chunk 4 on to the z-neighbour
  icases Htk with ⟨Hts, Htr, Htk⟩
  icases HIt with ⟨#HIc80, #HIr, HIt⟩
  icases HRt with ⟨#HRs, #HRr, HRt⟩
  icases HhZp with ⟨⟨%fd, Hd⟩, HhZp⟩
  iapply (send_zf_at m cc _ (dev30_eq cc) 4 (by decide) _ _ (k0_off38_eq cc) fd (owedL (List.drop 30 (paysL cc))) rfl _) $$ [HyFl4 Hd HO Hts Htr]
  · isplitr; · iexact HIc80
    isplitr; · iexact HIr
    isplitl [HyFl4]; · iexact HyFl4
    isplitl [Hd]; · iexact Hd
    isplitl [HO]; · iexact HO
    isplitl [Hts]; · iexact Hts
    isplitr; · iexact HRs
    isplitl [Htr]; · iexact Htr
    iexact HRr
  iintro ⟨Hczfs4, HO⟩
  iclear HIr HRs HRr
  sl_exec
  -- the left half of chunk 3 of the diagonal quarter has landed
  icases Hcr with ⟨Hc, Hcr⟩
  icases HpR with ⟨Hp, HpR⟩
  icases HIw with ⟨#HIc87, HIw⟩
  ihave Hmw := (mayWait_list (F := F) cc (dsem (⟨87, by decide⟩ : Fin 140)) (List.drop 30 (paysL cc)) (by decide)) $$ Hlev
  iapply (wait_a9_at m cc _ 3 rfl (by decide)) $$ [Hc HO Hmw Hp]
  · isplitr; · iexact HIc87
    isplitl [Hc]; · iexact Hc
    isplitl [HO]; · iexact HO
    isplitl [Hmw]; · iexact Hmw
    iexact Hp
  iintro ⟨HO, Hq87, -, Hdl3⟩
  sl_exec
  -- its right half has landed
  icases Hcr with ⟨Hc, Hcr⟩
  icases HpR with ⟨Hp, HpR⟩
  icases HIw with ⟨#HIc103, HIw⟩
  ihave Hmw := (mayWait_list (F := F) cc (dsem (⟨103, by decide⟩ : Fin 140)) (List.drop 30 (paysL cc)) (by decide)) $$ Hlev
  iapply (wait_a11_at m cc _ 3 rfl (by decide)) $$ [Hc HO Hmw Hp]
  · isplitr; · iexact HIc103
    isplitl [Hc]; · iexact Hc
    isplitl [HO]; · iexact HO
    isplitl [Hmw]; · iexact Hmw
    iexact Hp
  iintro ⟨HO, Hq103, -, Hdr3⟩
  ihave Hd3 := (Entails.of_eq (chunk_halves (F := F) cc (dqF cc) 3 fullShare (r4 m cc)).symm) $$ [Hdl3 Hdr3]
  · isplitl [Hdl3]; · iexact Hdl3
    iexact Hdr3
  -- the four copies of chunk 3 into the result
  icases HvO with ⟨Hw3a, Hw3b, Hw3c, Hw3d, HvO⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  -- step 6 of the main loop: the x-neighbour's chunk 6 has landed
  icases Hcr with ⟨Hc, Hcr⟩
  icases HpR with ⟨Hp, HpR⟩
  icases HIw with ⟨#HIc36, HIw⟩
  ihave Hmw := (mayWait_list (F := F) cc (dsem (⟨36, by decide⟩ : Fin 140)) (List.drop 30 (paysL cc)) (by decide)) $$ Hlev
  iapply (wait_a1_at m cc _ 6 rfl) $$ [Hc HO Hmw Hp]
  · isplitr; · iexact HIc36
    isplitl [Hc]; · iexact Hc
    isplitl [HO]; · iexact HO
    isplitl [Hmw]; · iexact Hmw
    iexact Hp
  iintro ⟨HO, Hq36, -, Hrb6⟩
  icases Hown with ⟨Ho6, Hown⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  ihave Ho6 := (congr (F := F) (r4R (mqF cc) 6) cc fullShare (dev.sl.Ho6_w1 m f0) (r4 m cc) (fun i hi => glue_own m cc 6 _ (k0_off14_inb cc) (k0_off14_eq cc) _ (k0_off39_inb cc) (k0_off39_eq cc) f0 i hi)) $$ Ho6
  ihave Ho6 := (Entails.of_eq (share_ZYK_eq (F := F) (r4R (mqF cc) 6) cc (r4 m cc))) $$ Ho6
  icases Ho6 with ⟨HoZ6, HoY6, HoK6⟩
  -- own chunk 6 to the z-neighbour
  icases Htk with ⟨Hts, Htr, Htk⟩
  icases HIt with ⟨#HIc50, #HIr, HIt⟩
  icases HRt with ⟨#HRs, #HRr, HRt⟩
  icases HqZ with ⟨⟨%fd, Hd⟩, HqZ⟩
  iapply (send_z_at m cc _ (dev31_eq cc) 6 _ _ (k0_off40_eq cc) fd (owedL (List.drop 31 (paysL cc))) rfl _) $$ [HoZ6 Hd HO Hts Htr]
  · isplitr; · iexact HIc50
    isplitr; · iexact HIr
    isplitl [HoZ6]; · iexact HoZ6
    isplitl [Hd]; · iexact Hd
    isplitl [HO]; · iexact HO
    isplitl [Hts]; · iexact Hts
    isplitr; · iexact HRs
    isplitl [Htr]; · iexact Htr
    iexact HRr
  iintro ⟨Hczs6, HO⟩
  iclear HIr HRs HRr
  sl_exec
  -- own chunk 6 to the y-neighbour
  icases Htk with ⟨Hts, Htr, Htk⟩
  icases HIt with ⟨#HIc66, #HIr, HIt⟩
  icases HRt with ⟨#HRs, #HRr, HRt⟩
  icases HqY with ⟨⟨%fd, Hd⟩, HqY⟩
  iapply (send_y_at m cc _ (dev32_eq cc) 6 _ _ (k0_off40_eq cc) fd (owedL (List.drop 32 (paysL cc))) rfl _) $$ [HoY6 Hd HO Hts Htr]
  · isplitr; · iexact HIc66
    isplitr; · iexact HIr
    isplitl [HoY6]; · iexact HoY6
    isplitl [Hd]; · iexact Hd
    isplitl [HO]; · iexact HO
    isplitl [Hts]; · iexact Hts
    isplitr; · iexact HRs
    isplitl [Htr]; · iexact Htr
    iexact HRr
  iintro ⟨Hcys6, HO⟩
  iclear HIr HRs HRr
  sl_exec
  -- the z-neighbour's chunk 5 has landed
  icases Hcr with ⟨Hc, Hcr⟩
  icases HpR with ⟨Hp, HpR⟩
  icases HIw with ⟨#HIc57, HIw⟩
  ihave Hmw := (mayWait_list (F := F) cc (dsem (⟨57, by decide⟩ : Fin 140)) (List.drop 32 (paysL cc)) (by decide)) $$ Hlev
  iapply (wait_a5_at m cc _ 5 rfl) $$ [Hc HO Hmw Hp]
  · isplitr; · iexact HIc57
    isplitl [Hc]; · iexact Hc
    isplitl [HO]; · iexact HO
    isplitl [Hmw]; · iexact Hmw
    iexact Hp
  iintro ⟨HO, Hq57, -, Hz5⟩
  sl_exec
  -- the y-neighbour's chunk 5 has landed
  icases Hcr with ⟨Hc, Hcr⟩
  icases HpR with ⟨Hp, HpR⟩
  icases HIw with ⟨#HIc73, HIw⟩
  ihave Hmw := (mayWait_list (F := F) cc (dsem (⟨73, by decide⟩ : Fin 140)) (List.drop 32 (paysL cc)) (by decide)) $$ Hlev
  iapply (wait_a7_at m cc _ 5 rfl) $$ [Hc HO Hmw Hp]
  · isplitr; · iexact HIc73
    isplitl [Hc]; · iexact Hc
    isplitl [HO]; · iexact HO
    isplitl [Hmw]; · iexact Hmw
    iexact Hp
  iintro ⟨HO, Hq73, -, Hy5⟩
  -- chunk 5 of the two neighbours' quarters: half its ownership stays for the copy into the result, of the other half one column half travels on
  ihave Hz5 := (Entails.of_eq (share_FG_eq (F := F) (r4R (zqF cc) 5) cc (r4 m cc))) $$ Hz5
  icases Hz5 with ⟨HzF5, HzG5⟩
  ihave HzF5 := (Entails.of_eq (chunk_halves (F := F) cc (zqF cc) 5 shF (r4 m cc))) $$ HzF5
  icases HzF5 with ⟨HzFl5, HzFr5⟩
  ihave Hy5 := (Entails.of_eq (share_FG_eq (F := F) (r4R (yqF cc) 5) cc (r4 m cc))) $$ Hy5
  icases Hy5 with ⟨HyF5, HyG5⟩
  ihave HyF5 := (Entails.of_eq (chunk_halves (F := F) cc (yqF cc) 5 shF (r4 m cc))) $$ HyF5
  icases HyF5 with ⟨HyFl5, HyFr5⟩
  sl_exec
  -- the right half of the z-neighbour's chunk 5 on to the y-neighbour
  icases Htk with ⟨Hts, Htr, Htk⟩
  icases HIt with ⟨#HIc97, #HIr, HIt⟩
  icases HRt with ⟨#HRs, #HRr, HRt⟩
  icases HhYp with ⟨⟨%fd, Hd⟩, HhYp⟩
  iapply (send_yf_at m cc _ (dev33_eq cc) 5 (by decide) _ _ (k0_off41_eq cc) fd (owedL (List.drop 33 (paysL cc))) rfl _) $$ [HzFr5 Hd HO Hts Htr]
  · isplitr; · iexact HIc97
    isplitr; · iexact HIr
    isplitl [HzFr5]; · iexact HzFr5
    isplitl [Hd]; · iexact Hd
    isplitl [HO]; · iexact HO
    isplitl [Hts]; · iexact Hts
    isplitr; · iexact HRs
    isplitl [Htr]; · iexact Htr
    iexact HRr
  iintro ⟨Hcyfs5, HO⟩
  iclear HIr HRs HRr
  sl_exec
  -- the left half of the y-neighbour's chunk 5 on to the z-neighbour
  icases Htk with ⟨Hts, Htr, Htk⟩
  icases HIt with ⟨#HIc81, #HIr, HIt⟩
  icases HRt with ⟨#HRs, #HRr, HRt⟩
  icases HhZp with ⟨⟨%fd, Hd⟩, HhZp⟩
  iapply (send_zf_at m cc _ (dev34_eq cc) 5 (by decide) _ _ (k0_off42_eq cc) fd (owedL (List.drop 34 (paysL cc))) rfl _) $$ [HyFl5 Hd HO Hts Htr]
  · isplitr; · iexact HIc81
    isplitr; · iexact HIr
    isplitl [HyFl5]; · iexact HyFl5
    isplitl [Hd]; · iexact Hd
    isplitl [HO]; · iexact HO
    isplitl [Hts]; · iexact Hts
    isplitr; · iexact HRs
    isplitl [Htr]; · iexact Htr
    iexact HRr
  iintro ⟨Hczfs5, HO⟩
  iclear HIr HRs HRr
  sl_exec
  -- the left half of chunk 4 of the diagonal quarter has landed
  icases Hcr with ⟨Hc, Hcr⟩
  icases HpR with ⟨Hp, HpR⟩
  icases HIw with ⟨#HIc88, HIw⟩
  ihave Hmw := (mayWait_list (F := F) cc (dsem (⟨88, by decide⟩ : Fin 140)) (List.drop 34 (paysL cc)) (by decide)) $$ Hlev
  iapply (wait_a9_at m cc _ 4 rfl (by decide)) $$ [Hc HO Hmw Hp]
  · isplitr; · iexact HIc88
    isplitl [Hc]; · iexact Hc
    isplitl [HO]; · iexact HO
    isplitl [Hmw]; · iexact Hmw
    iexact Hp
  iintro ⟨HO, Hq88, -, Hdl4⟩
  sl_exec
  -- its right half has landed
  icases Hcr with ⟨Hc, Hcr⟩
  icases HpR with ⟨Hp, HpR⟩
  icases HIw with ⟨#HIc104, HIw⟩
  ihave Hmw := (mayWait_list (F := F) cc (dsem (⟨104, by decide⟩ : Fin 140)) (List.drop 34 (paysL cc)) (by decide)) $$ Hlev
  iapply (wait_a11_at m cc _ 4 rfl (by decide)) $$ [Hc HO Hmw Hp]
  · isplitr; · iexact HIc104
    isplitl [Hc]; · iexact Hc
    isplitl [HO]; · iexact HO
    isplitl [Hmw]; · iexact Hmw
    iexact Hp
  iintro ⟨HO, Hq104, -, Hdr4⟩
  ihave Hd4 := (Entails.of_eq (chunk_halves (F := F) cc (dqF cc) 4 fullShare (r4 m cc)).symm) $$ [Hdl4 Hdr4]
  · isplitl [Hdl4]; · iexact Hdl4
    iexact Hdr4
  -- the four copies of chunk 4 into the result
  icases HvO with ⟨Hw4a, Hw4b, Hw4c, Hw4d, HvO⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  -- step 7 of the main loop: the x-neighbour's chunk 7 has landed
  icases Hcr with ⟨Hc, Hcr⟩
  icases HpR with ⟨Hp, HpR⟩
  icases HIw with ⟨#HIc37, HIw⟩
  ihave Hmw := (mayWait_list (F := F) cc (dsem (⟨37, by decide⟩ : Fin 140)) (List.drop 34 (paysL cc)) (by decide)) $$ Hlev
  iapply (wait_a1_at m cc _ 7 rfl) $$ [Hc HO Hmw Hp]
  · isplitr; · iexact HIc37
    isplitl [Hc]; · iexact Hc
    isplitl [HO]; · iexact HO
    isplitl [Hmw]; · iexact Hmw
    iexact Hp
  iintro ⟨HO, Hq37, -, Hrb7⟩
  icases Hown with ⟨Ho7⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  ihave Ho7 := (congr (F := F) (r4R (mqF cc) 7) cc fullShare (dev.sl.Ho7_w1 m f0) (r4 m cc) (fun i hi => glue_own m cc 7 _ (k0_off16_inb cc) (k0_off16_eq cc) _ (k0_off43_inb cc) (k0_off43_eq cc) f0 i hi)) $$ Ho7
  ihave Ho7 := (Entails.of_eq (share_ZYK_eq (F := F) (r4R (mqF cc) 7) cc (r4 m cc))) $$ Ho7
  icases Ho7 with ⟨HoZ7, HoY7, HoK7⟩
  -- own chunk 7 to the z-neighbour
  icases Htk with ⟨Hts, Htr, Htk⟩
  icases HIt with ⟨#HIc51, #HIr, HIt⟩
  icases HRt with ⟨#HRs, #HRr, HRt⟩
  icases HqZ with ⟨%fd, Hd⟩
  iapply (send_z_at m cc _ (dev35_eq cc) 7 _ _ (k0_off44_eq cc) fd (owedL (List.drop 35 (paysL cc))) rfl _) $$ [HoZ7 Hd HO Hts Htr]
  · isplitr; · iexact HIc51
    isplitr; · iexact HIr
    isplitl [HoZ7]; · iexact HoZ7
    isplitl [Hd]; · iexact Hd
    isplitl [HO]; · iexact HO
    isplitl [Hts]; · iexact Hts
    isplitr; · iexact HRs
    isplitl [Htr]; · iexact Htr
    iexact HRr
  iintro ⟨Hczs7, HO⟩
  iclear HIr HRs HRr
  sl_exec
  -- own chunk 7 to the y-neighbour
  icases Htk with ⟨Hts, Htr, Htk⟩
  icases HIt with ⟨#HIc67, #HIr, HIt⟩
  icases HRt with ⟨#HRs, #HRr, HRt⟩
  icases HqY with ⟨%fd, Hd⟩
  iapply (send_y_at m cc _ (dev36_eq cc) 7 _ _ (k0_off44_eq cc) fd (owedL (List.drop 36 (paysL cc))) rfl _) $$ [HoY7 Hd HO Hts Htr]
  · isplitr; · iexact HIc67
    isplitr; · iexact HIr
    isplitl [HoY7]; · iexact HoY7
    isplitl [Hd]; · iexact Hd
    isplitl [HO]; · iexact HO
    isplitl [Hts]; · iexact Hts
    isplitr; · iexact HRs
    isplitl [Htr]; · iexact Htr
    iexact HRr
  iintro ⟨Hcys7, HO⟩
  iclear HIr HRs HRr
  sl_exec
  -- the z-neighbour's chunk 6 has landed
  icases Hcr with ⟨Hc, Hcr⟩
  icases HpR with ⟨Hp, HpR⟩
  icases HIw with ⟨#HIc58, HIw⟩
  ihave Hmw := (mayWait_list (F := F) cc (dsem (⟨58, by decide⟩ : Fin 140)) (List.drop 36 (paysL cc)) (by decide)) $$ Hlev
  iapply (wait_a5_at m cc _ 6 rfl) $$ [Hc HO Hmw Hp]
  · isplitr; · iexact HIc58
    isplitl [Hc]; · iexact Hc
    isplitl [HO]; · iexact HO
    isplitl [Hmw]; · iexact Hmw
    iexact Hp
  iintro ⟨HO, Hq58, -, Hz6⟩
  sl_exec
  -- the y-neighbour's chunk 6 has landed
  icases Hcr with ⟨Hc, Hcr⟩
  icases HpR with ⟨Hp, HpR⟩
  icases HIw with ⟨#HIc74, HIw⟩
  ihave Hmw := (mayWait_list (F := F) cc (dsem (⟨74, by decide⟩ : Fin 140)) (List.drop 36 (paysL cc)) (by decide)) $$ Hlev
  iapply (wait_a7_at m cc _ 6 rfl) $$ [Hc HO Hmw Hp]
  · isplitr; · iexact HIc74
    isplitl [Hc]; · iexact Hc
    isplitl [HO]; · iexact HO
    isplitl [Hmw]; · iexact Hmw
    iexact Hp
  iintro ⟨HO, Hq74, -, Hy6⟩
  -- chunk 6 of the two neighbours' quarters: half its ownership stays for the copy into the result, of the other half one column half travels on
  ihave Hz6 := (Entails.of_eq (share_FG_eq (F := F) (r4R (zqF cc) 6) cc (r4 m cc))) $$ Hz6
  icases Hz6 with ⟨HzF6, HzG6⟩
  ihave HzF6 := (Entails.of_eq (chunk_halves (F := F) cc (zqF cc) 6 shF (r4 m cc))) $$ HzF6
  icases HzF6 with ⟨HzFl6, HzFr6⟩
  ihave Hy6 := (Entails.of_eq (share_FG_eq (F := F) (r4R (yqF cc) 6) cc (r4 m cc))) $$ Hy6
  icases Hy6 with ⟨HyF6, HyG6⟩
  ihave HyF6 := (Entails.of_eq (chunk_halves (F := F) cc (yqF cc) 6 shF (r4 m cc))) $$ HyF6
  icases HyF6 with ⟨HyFl6, HyFr6⟩
  sl_exec
  -- the right half of the z-neighbour's chunk 6 on to the y-neighbour
  icases Htk with ⟨Hts, Htr, Htk⟩
  icases HIt with ⟨#HIc98, #HIr, HIt⟩
  icases HRt with ⟨#HRs, #HRr, HRt⟩
  icases HhYp with ⟨⟨%fd, Hd⟩, HhYp⟩
  iapply (send_yf_at m cc _ (dev37_eq cc) 6 (by decide) _ _ (k0_off45_eq cc) fd (owedL (List.drop 37 (paysL cc))) rfl _) $$ [HzFr6 Hd HO Hts Htr]
  · isplitr; · iexact HIc98
    isplitr; · iexact HIr
    isplitl [HzFr6]; · iexact HzFr6
    isplitl [Hd]; · iexact Hd
    isplitl [HO]; · iexact HO
    isplitl [Hts]; · iexact Hts
    isplitr; · iexact HRs
    isplitl [Htr]; · iexact Htr
    iexact HRr
  iintro ⟨Hcyfs6, HO⟩
  iclear HIr HRs HRr
  sl_exec
  -- the left half of the y-neighbour's chunk 6 on to the z-neighbour
  icases Htk with ⟨Hts, Htr, Htk⟩
  icases HIt with ⟨#HIc82, #HIr, HIt⟩
  icases HRt with ⟨#HRs, #HRr, HRt⟩
  icases HhZp with ⟨⟨%fd, Hd⟩, HhZp⟩
  iapply (send_zf_at m cc _ (dev38_eq cc) 6 (by decide) _ _ (k0_off46_eq cc) fd (owedL (List.drop 38 (paysL cc))) rfl _) $$ [HyFl6 Hd HO Hts Htr]
  · isplitr; · iexact HIc82
    isplitr; · iexact HIr
    isplitl [HyFl6]; · iexact HyFl6
    isplitl [Hd]; · iexact Hd
    isplitl [HO]; · iexact HO
    isplitl [Hts]; · iexact Hts
    isplitr; · iexact HRs
    isplitl [Htr]; · iexact Htr
    iexact HRr
  iintro ⟨Hczfs6, HO⟩
  iclear HIr HRs HRr
  sl_exec
  -- the left half of chunk 5 of the diagonal quarter has landed
  icases Hcr with ⟨Hc, Hcr⟩
  icases HpR with ⟨Hp, HpR⟩
  icases HIw with ⟨#HIc89, HIw⟩
  ihave Hmw := (mayWait_list (F := F) cc (dsem (⟨89, by decide⟩ : Fin 140)) (List.drop 38 (paysL cc)) (by decide)) $$ Hlev
  iapply (wait_a9_at m cc _ 5 rfl (by decide)) $$ [Hc HO Hmw Hp]
  · isplitr; · iexact HIc89
    isplitl [Hc]; · iexact Hc
    isplitl [HO]; · iexact HO
    isplitl [Hmw]; · iexact Hmw
    iexact Hp
  iintro ⟨HO, Hq89, -, Hdl5⟩
  sl_exec
  -- its right half has landed
  icases Hcr with ⟨Hc, Hcr⟩
  icases HpR with ⟨Hp, HpR⟩
  icases HIw with ⟨#HIc105, HIw⟩
  ihave Hmw := (mayWait_list (F := F) cc (dsem (⟨105, by decide⟩ : Fin 140)) (List.drop 38 (paysL cc)) (by decide)) $$ Hlev
  iapply (wait_a11_at m cc _ 5 rfl (by decide)) $$ [Hc HO Hmw Hp]
  · isplitr; · iexact HIc105
    isplitl [Hc]; · iexact Hc
    isplitl [HO]; · iexact HO
    isplitl [Hmw]; · iexact Hmw
    iexact Hp
  iintro ⟨HO, Hq105, -, Hdr5⟩
  ihave Hd5 := (Entails.of_eq (chunk_halves (F := F) cc (dqF cc) 5 fullShare (r4 m cc)).symm) $$ [Hdl5 Hdr5]
  · isplitl [Hdl5]; · iexact Hdl5
    iexact Hdr5
  -- the four copies of chunk 5 into the result
  icases HvO with ⟨Hw5a, Hw5b, Hw5c, Hw5d, HvO⟩
  have hled38 : ∀ (s : DmaSem sig), lvJ s.val = 0 → ((levAts LL lvv : sProp 𝕄) ⊢ MayWait (cc : Thread nD τ) (.dma s) () (owedL (List.drop 38 (paysL cc)))) :=
    fun s hs => mayWait_local (F := F) cc s hs _ (by decide)
  sl_exec
  clear hled38
  -- after the loop: the z-neighbour's last chunk has landed
  icases Hcr with ⟨Hc, Hcr⟩
  icases HpR with ⟨Hp, HpR⟩
  icases HIw with ⟨#HIc59, HIw⟩
  ihave Hmw := (mayWait_list (F := F) cc (dsem (⟨59, by decide⟩ : Fin 140)) (List.drop 38 (paysL cc)) (by decide)) $$ Hlev
  iapply (wait_a5_at m cc _ 7 rfl) $$ [Hc HO Hmw Hp]
  · isplitr; · iexact HIc59
    isplitl [Hc]; · iexact Hc
    isplitl [HO]; · iexact HO
    isplitl [Hmw]; · iexact Hmw
    iexact Hp
  iintro ⟨HO, Hq59, -, Hz7⟩
  sl_exec
  -- the y-neighbour's last chunk has landed
  icases Hcr with ⟨Hc, Hcr⟩
  icases HpR with ⟨Hp, HpR⟩
  icases HIw with ⟨#HIc75, HIw⟩
  ihave Hmw := (mayWait_list (F := F) cc (dsem (⟨75, by decide⟩ : Fin 140)) (List.drop 38 (paysL cc)) (by decide)) $$ Hlev
  iapply (wait_a7_at m cc _ 7 rfl) $$ [Hc HO Hmw Hp]
  · isplitr; · iexact HIc75
    isplitl [Hc]; · iexact Hc
    isplitl [HO]; · iexact HO
    isplitl [Hmw]; · iexact Hmw
    iexact Hp
  iintro ⟨HO, Hq75, -, Hy7⟩
  -- chunk 7 of the two neighbours' quarters: half its ownership stays for the copy into the result, of the other half one column half travels on
  ihave Hz7 := (Entails.of_eq (share_FG_eq (F := F) (r4R (zqF cc) 7) cc (r4 m cc))) $$ Hz7
  icases Hz7 with ⟨HzF7, HzG7⟩
  ihave HzF7 := (Entails.of_eq (chunk_halves (F := F) cc (zqF cc) 7 shF (r4 m cc))) $$ HzF7
  icases HzF7 with ⟨HzFl7, HzFr7⟩
  ihave Hy7 := (Entails.of_eq (share_FG_eq (F := F) (r4R (yqF cc) 7) cc (r4 m cc))) $$ Hy7
  icases Hy7 with ⟨HyF7, HyG7⟩
  ihave HyF7 := (Entails.of_eq (chunk_halves (F := F) cc (yqF cc) 7 shF (r4 m cc))) $$ HyF7
  icases HyF7 with ⟨HyFl7, HyFr7⟩
  sl_exec
  -- the right half of the z-neighbour's last chunk on to the y-neighbour
  icases Htk with ⟨Hts, Htr, Htk⟩
  icases HIt with ⟨#HIc99, #HIr, HIt⟩
  icases HRt with ⟨#HRs, #HRr, HRt⟩
  icases HhYp with ⟨%fd, Hd⟩
  iapply (send_yf_at m cc _ (dev39_eq cc) 7 (by decide) _ _ (k0_off47_eq cc) fd (owedL (List.drop 39 (paysL cc))) rfl _) $$ [HzFr7 Hd HO Hts Htr]
  · isplitr; · iexact HIc99
    isplitr; · iexact HIr
    isplitl [HzFr7]; · iexact HzFr7
    isplitl [Hd]; · iexact Hd
    isplitl [HO]; · iexact HO
    isplitl [Hts]; · iexact Hts
    isplitr; · iexact HRs
    isplitl [Htr]; · iexact Htr
    iexact HRr
  iintro ⟨Hcyfs7, HO⟩
  iclear HIr HRs HRr
  sl_exec
  -- the left half of the y-neighbour's last chunk on to the z-neighbour
  icases Htk with ⟨Hts, Htr⟩
  icases HIt with ⟨#HIc83, #HIr⟩
  icases HRt with ⟨#HRs, #HRr⟩
  icases HhZp with ⟨%fd, Hd⟩
  iapply (send_zf_at m cc _ (dev40_eq cc) 7 (by decide) _ _ (k0_off48_eq cc) fd (owedL (List.drop 40 (paysL cc))) rfl _) $$ [HyFl7 Hd HO Hts Htr]
  · isplitr; · iexact HIc83
    isplitr; · iexact HIr
    isplitl [HyFl7]; · iexact HyFl7
    isplitl [Hd]; · iexact Hd
    isplitl [HO]; · iexact HO
    isplitl [Hts]; · iexact Hts
    isplitr; · iexact HRs
    isplitl [Htr]; · iexact Htr
    iexact HRr
  iintro ⟨Hczfs7, HO⟩
  iclear HIr HRs HRr
  sl_exec
  -- chunk 0 of the diagonal quarter: the x-neighbour's chunk has landed
  icases Hcr with ⟨Hc, Hcr⟩
  icases HpR with ⟨Hp, HpR⟩
  icases HIw with ⟨#HIc41, HIw⟩
  ihave Hmw := (mayWait_list (F := F) cc (dsem (⟨41, by decide⟩ : Fin 140)) (List.drop 40 (paysL cc)) (by decide)) $$ Hlev
  iapply (wait_a3_at m cc _ 0 rfl) $$ [Hc HO Hmw Hp]
  · isplitr; · iexact HIc41
    isplitl [Hc]; · iexact Hc
    isplitl [HO]; · iexact HO
    isplitl [Hmw]; · iexact Hmw
    iexact Hp
  iintro ⟨HO, Hq41, -, Hrb20⟩
  icases Hdg with ⟨Hdq0, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq0 := (congr (F := F) (r4R (dqF cc) 0) cc fullShare (dev.sl.Hdq0_w1 m f0) (r4 m cc) (fun i hi => glue_dgn m cc 0 0 rfl _ (k0_off18_inb cc) (k0_off18_eq cc) _ (k0_off49_inb cc) (k0_off49_eq cc) f0 i hi)) $$ Hdq0
  -- the four copies of chunk 0 into the result
  icases HvO with ⟨Hw0a, Hw0b, Hw0c, Hw0d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 1 of the diagonal quarter: the x-neighbour's chunk has landed
  icases Hcr with ⟨Hc, Hcr⟩
  icases HpR with ⟨Hp, HpR⟩
  icases HIw with ⟨#HIc42, HIw⟩
  ihave Hmw := (mayWait_list (F := F) cc (dsem (⟨42, by decide⟩ : Fin 140)) (List.drop 40 (paysL cc)) (by decide)) $$ Hlev
  iapply (wait_a3_at m cc _ 1 rfl) $$ [Hc HO Hmw Hp]
  · isplitr; · iexact HIc42
    isplitl [Hc]; · iexact Hc
    isplitl [HO]; · iexact HO
    isplitl [Hmw]; · iexact Hmw
    iexact Hp
  iintro ⟨HO, Hq42, -, Hrb21⟩
  icases Hdg with ⟨Hdq1, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq1 := (congr (F := F) (r4R (dqF cc) 1) cc fullShare (dev.sl.Hdq1_w1 m f0) (r4 m cc) (fun i hi => glue_dgn m cc 1 1 rfl _ (k0_off20_inb cc) (k0_off20_eq cc) _ (k0_off50_inb cc) (k0_off50_eq cc) f0 i hi)) $$ Hdq1
  -- the four copies of chunk 1 into the result
  icases HvO with ⟨Hw1a, Hw1b, Hw1c, Hw1d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 2 of the diagonal quarter: the x-neighbour's chunk has landed
  icases Hcr with ⟨Hc, Hcr⟩
  icases HpR with ⟨Hp, HpR⟩
  icases HIw with ⟨#HIc43, HIw⟩
  ihave Hmw := (mayWait_list (F := F) cc (dsem (⟨43, by decide⟩ : Fin 140)) (List.drop 40 (paysL cc)) (by decide)) $$ Hlev
  iapply (wait_a3_at m cc _ 2 rfl) $$ [Hc HO Hmw Hp]
  · isplitr; · iexact HIc43
    isplitl [Hc]; · iexact Hc
    isplitl [HO]; · iexact HO
    isplitl [Hmw]; · iexact Hmw
    iexact Hp
  iintro ⟨HO, Hq43, -, Hrb22⟩
  icases Hdg with ⟨Hdq2⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq2 := (congr (F := F) (r4R (dqF cc) 2) cc fullShare (dev.sl.Hdq2_w1 m f0) (r4 m cc) (fun i hi => glue_dgn m cc 2 2 rfl _ (k0_off22_inb cc) (k0_off22_eq cc) _ (k0_off51_inb cc) (k0_off51_eq cc) f0 i hi)) $$ Hdq2
  -- the four copies of chunk 2 into the result
  icases HvO with ⟨Hw2a, Hw2b, Hw2c, Hw2d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 6 of the diagonal quarter has landed
  icases Hcr with ⟨Hc, Hcr⟩
  icases HpR with ⟨Hp, HpR⟩
  icases HIw with ⟨#HIc90, HIw⟩
  ihave Hmw := (mayWait_list (F := F) cc (dsem (⟨90, by decide⟩ : Fin 140)) (List.drop 40 (paysL cc)) (by decide)) $$ Hlev
  iapply (wait_a9_at m cc _ 6 rfl (by decide)) $$ [Hc HO Hmw Hp]
  · isplitr; · iexact HIc90
    isplitl [Hc]; · iexact Hc
    isplitl [HO]; · iexact HO
    isplitl [Hmw]; · iexact Hmw
    iexact Hp
  iintro ⟨HO, Hq90, -, Hdl6⟩
  sl_exec
  -- its right half has landed
  icases Hcr with ⟨Hc, Hcr⟩
  icases HpR with ⟨Hp, HpR⟩
  icases HIw with ⟨#HIc106, HIw⟩
  ihave Hmw := (mayWait_list (F := F) cc (dsem (⟨106, by decide⟩ : Fin 140)) (List.drop 40 (paysL cc)) (by decide)) $$ Hlev
  iapply (wait_a11_at m cc _ 6 rfl (by decide)) $$ [Hc HO Hmw Hp]
  · isplitr; · iexact HIc106
    isplitl [Hc]; · iexact Hc
    isplitl [HO]; · iexact HO
    isplitl [Hmw]; · iexact Hmw
    iexact Hp
  iintro ⟨HO, Hq106, -, Hdr6⟩
  ihave Hd6 := (Entails.of_eq (chunk_halves (F := F) cc (dqF cc) 6 fullShare (r4 m cc)).symm) $$ [Hdl6 Hdr6]
  · isplitl [Hdl6]; · iexact Hdl6
    iexact Hdr6
  -- the four copies of chunk 6 into the result
  icases HvO with ⟨Hw6a, Hw6b, Hw6c, Hw6d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 7 of the diagonal quarter has landed
  icases Hcr with ⟨Hc, Hcr⟩
  icases HpR with ⟨Hp, HpR⟩
  icases HIw with ⟨#HIc91, HIw⟩
  ihave Hcr := ((sep_emp (PROP := sProp 𝕄)).2) $$ Hcr
  ihave Hmw := (mayWait_list (F := F) cc (dsem (⟨91, by decide⟩ : Fin 140)) (List.drop 40 (paysL cc)) (by decide)) $$ Hlev
  iapply (wait_a9_at m cc _ 7 rfl (by decide)) $$ [Hc HO Hmw Hp]
  · isplitr; · iexact HIc91
    isplitl [Hc]; · iexact Hc
    isplitl [HO]; · iexact HO
    isplitl [Hmw]; · iexact Hmw
    iexact Hp
  iintro ⟨HO, Hq91, -, Hdl7⟩
  sl_exec
  -- its right half has landed
  icases HIw with #HIc107
  icases Hcr with ⟨Hcr, -⟩
  ihave Hmw := (mayWait_list (F := F) cc (dsem (⟨107, by decide⟩ : Fin 140)) (List.drop 40 (paysL cc)) (by decide)) $$ Hlev
  iapply (wait_a11_at m cc _ 7 rfl (by decide)) $$ [Hcr HO Hmw HpR]
  · isplitr; · iexact HIc107
    isplitl [Hcr]; · iexact Hcr
    isplitl [HO]; · iexact HO
    isplitl [Hmw]; · iexact Hmw
    iexact HpR
  iintro ⟨HO, Hq107, -, Hdr7⟩
  ihave Hd7 := (Entails.of_eq (chunk_halves (F := F) cc (dqF cc) 7 fullShare (r4 m cc)).symm) $$ [Hdl7 Hdr7]
  · isplitl [Hdl7]; · iexact Hdl7
    iexact Hdr7
  -- the four copies of chunk 7 into the result
  icases HvO with ⟨Hw7a, Hw7b, Hw7c, Hw7d⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- nothing is owed any more: the level fact for the remaining local waits, once
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  -- the departure of chunk 0 across x
  icases HpS with ⟨Hp, HpS⟩
  ihave Hmw := (mayWait_list (F := F) cc (dsem (⟨22, by decide⟩ : Fin 140)) (List.drop 40 (paysL cc)) (by decide)) $$ Hlev
  iapply (wait_a0_at m cc _ 0 rfl) $$ [Hcxs0 HO Hmw Hp]
  · isplitr; · iexact HIc22
    isplitl [Hcxs0]; · iexact Hcxs0
    isplitl [HO]; · iexact HO
    isplitl [Hmw]; · iexact Hmw
    iexact Hp
  iintro ⟨HO, Hq22, -, HBs0⟩
  sl_exec
  -- of own chunk 0 to z
  icases HpS with ⟨Hp, HpS⟩
  ihave Hmw := (mayWait_list (F := F) cc (dsem (⟨44, by decide⟩ : Fin 140)) (List.drop 40 (paysL cc)) (by decide)) $$ Hlev
  iapply (wait_a4_at m cc _ 0 rfl) $$ [Hczs0 HO Hmw Hp]
  · isplitr; · iexact HIc44
    isplitl [Hczs0]; · iexact Hczs0
    isplitl [HO]; · iexact HO
    isplitl [Hmw]; · iexact Hmw
    iexact Hp
  iintro ⟨HO, Hq44, -, HoZb0⟩
  sl_exec
  -- of own chunk 0 to y
  icases HpS with ⟨Hp, HpS⟩
  ihave Hmw := (mayWait_list (F := F) cc (dsem (⟨60, by decide⟩ : Fin 140)) (List.drop 40 (paysL cc)) (by decide)) $$ Hlev
  iapply (wait_a6_at m cc _ 0 rfl) $$ [Hcys0 HO Hmw Hp]
  · isplitr; · iexact HIc60
    isplitl [Hcys0]; · iexact Hcys0
    isplitl [HO]; · iexact HO
    isplitl [Hmw]; · iexact Hmw
    iexact Hp
  iintro ⟨HO, Hq60, -, HoYb0⟩
  sl_exec
  -- the departure of chunk 1 across x
  icases HpS with ⟨Hp, HpS⟩
  ihave Hmw := (mayWait_list (F := F) cc (dsem (⟨23, by decide⟩ : Fin 140)) (List.drop 40 (paysL cc)) (by decide)) $$ Hlev
  iapply (wait_a0_at m cc _ 1 rfl) $$ [Hcxs1 HO Hmw Hp]
  · isplitr; · iexact HIc23
    isplitl [Hcxs1]; · iexact Hcxs1
    isplitl [HO]; · iexact HO
    isplitl [Hmw]; · iexact Hmw
    iexact Hp
  iintro ⟨HO, Hq23, -, HBs1⟩
  sl_exec
  -- of own chunk 1 to z
  icases HpS with ⟨Hp, HpS⟩
  ihave Hmw := (mayWait_list (F := F) cc (dsem (⟨45, by decide⟩ : Fin 140)) (List.drop 40 (paysL cc)) (by decide)) $$ Hlev
  iapply (wait_a4_at m cc _ 1 rfl) $$ [Hczs1 HO Hmw Hp]
  · isplitr; · iexact HIc45
    isplitl [Hczs1]; · iexact Hczs1
    isplitl [HO]; · iexact HO
    isplitl [Hmw]; · iexact Hmw
    iexact Hp
  iintro ⟨HO, Hq45, -, HoZb1⟩
  sl_exec
  -- of own chunk 1 to y
  icases HpS with ⟨Hp, HpS⟩
  ihave Hmw := (mayWait_list (F := F) cc (dsem (⟨61, by decide⟩ : Fin 140)) (List.drop 40 (paysL cc)) (by decide)) $$ Hlev
  iapply (wait_a6_at m cc _ 1 rfl) $$ [Hcys1 HO Hmw Hp]
  · isplitr; · iexact HIc61
    isplitl [Hcys1]; · iexact Hcys1
    isplitl [HO]; · iexact HO
    isplitl [Hmw]; · iexact Hmw
    iexact Hp
  iintro ⟨HO, Hq61, -, HoYb1⟩
  sl_exec
  -- the departure of chunk 2 across x
  icases HpS with ⟨Hp, HpS⟩
  ihave Hmw := (mayWait_list (F := F) cc (dsem (⟨24, by decide⟩ : Fin 140)) (List.drop 40 (paysL cc)) (by decide)) $$ Hlev
  iapply (wait_a0_at m cc _ 2 rfl) $$ [Hcxs2 HO Hmw Hp]
  · isplitr; · iexact HIc24
    isplitl [Hcxs2]; · iexact Hcxs2
    isplitl [HO]; · iexact HO
    isplitl [Hmw]; · iexact Hmw
    iexact Hp
  iintro ⟨HO, Hq24, -, HBs2⟩
  sl_exec
  -- of own chunk 2 to z
  icases HpS with ⟨Hp, HpS⟩
  ihave Hmw := (mayWait_list (F := F) cc (dsem (⟨46, by decide⟩ : Fin 140)) (List.drop 40 (paysL cc)) (by decide)) $$ Hlev
  iapply (wait_a4_at m cc _ 2 rfl) $$ [Hczs2 HO Hmw Hp]
  · isplitr; · iexact HIc46
    isplitl [Hczs2]; · iexact Hczs2
    isplitl [HO]; · iexact HO
    isplitl [Hmw]; · iexact Hmw
    iexact Hp
  iintro ⟨HO, Hq46, -, HoZb2⟩
  sl_exec
  -- of own chunk 2 to y
  icases HpS with ⟨Hp, HpS⟩
  ihave Hmw := (mayWait_list (F := F) cc (dsem (⟨62, by decide⟩ : Fin 140)) (List.drop 40 (paysL cc)) (by decide)) $$ Hlev
  iapply (wait_a6_at m cc _ 2 rfl) $$ [Hcys2 HO Hmw Hp]
  · isplitr; · iexact HIc62
    isplitl [Hcys2]; · iexact Hcys2
    isplitl [HO]; · iexact HO
    isplitl [Hmw]; · iexact Hmw
    iexact Hp
  iintro ⟨HO, Hq62, -, HoYb2⟩
  sl_exec
  -- the departure of chunk 3 across x
  icases HpS with ⟨Hp, HpS⟩
  ihave Hmw := (mayWait_list (F := F) cc (dsem (⟨25, by decide⟩ : Fin 140)) (List.drop 40 (paysL cc)) (by decide)) $$ Hlev
  iapply (wait_a0_at m cc _ 3 rfl) $$ [Hcxs3 HO Hmw Hp]
  · isplitr; · iexact HIc25
    isplitl [Hcxs3]; · iexact Hcxs3
    isplitl [HO]; · iexact HO
    isplitl [Hmw]; · iexact Hmw
    iexact Hp
  iintro ⟨HO, Hq25, -, HBs3⟩
  sl_exec
  -- of own chunk 3 to z
  icases HpS with ⟨Hp, HpS⟩
  ihave Hmw := (mayWait_list (F := F) cc (dsem (⟨47, by decide⟩ : Fin 140)) (List.drop 40 (paysL cc)) (by decide)) $$ Hlev
  iapply (wait_a4_at m cc _ 3 rfl) $$ [Hczs3 HO Hmw Hp]
  · isplitr; · iexact HIc47
    isplitl [Hczs3]; · iexact Hczs3
    isplitl [HO]; · iexact HO
    isplitl [Hmw]; · iexact Hmw
    iexact Hp
  iintro ⟨HO, Hq47, -, HoZb3⟩
  sl_exec
  -- of own chunk 3 to y
  icases HpS with ⟨Hp, HpS⟩
  ihave Hmw := (mayWait_list (F := F) cc (dsem (⟨63, by decide⟩ : Fin 140)) (List.drop 40 (paysL cc)) (by decide)) $$ Hlev
  iapply (wait_a6_at m cc _ 3 rfl) $$ [Hcys3 HO Hmw Hp]
  · isplitr; · iexact HIc63
    isplitl [Hcys3]; · iexact Hcys3
    isplitl [HO]; · iexact HO
    isplitl [Hmw]; · iexact Hmw
    iexact Hp
  iintro ⟨HO, Hq63, -, HoYb3⟩
  sl_exec
  -- of the forwarded half to z
  icases HpS with ⟨Hp, HpS⟩
  ihave Hmw := (mayWait_list (F := F) cc (dsem (⟨79, by decide⟩ : Fin 140)) (List.drop 40 (paysL cc)) (by decide)) $$ Hlev
  iapply (wait_a8_at m cc _ 3 rfl (by decide)) $$ [Hczfs3 HO Hmw Hp]
  · isplitr; · iexact HIc79
    isplitl [Hczfs3]; · iexact Hczfs3
    isplitl [HO]; · iexact HO
    isplitl [Hmw]; · iexact Hmw
    iexact Hp
  iintro ⟨HO, Hq79, -, HyFlb3⟩
  sl_exec
  -- of the forwarded half to y
  icases HpS with ⟨Hp, HpS⟩
  ihave Hmw := (mayWait_list (F := F) cc (dsem (⟨95, by decide⟩ : Fin 140)) (List.drop 40 (paysL cc)) (by decide)) $$ Hlev
  iapply (wait_a10_at m cc _ 3 rfl (by decide)) $$ [Hcyfs3 HO Hmw Hp]
  · isplitr; · iexact HIc95
    isplitl [Hcyfs3]; · iexact Hcyfs3
    isplitl [HO]; · iexact HO
    isplitl [Hmw]; · iexact Hmw
    iexact Hp
  iintro ⟨HO, Hq95, -, HzFrb3⟩
  sl_exec
  -- the departure of chunk 4 across x
  icases HpS with ⟨Hp, HpS⟩
  ihave Hmw := (mayWait_list (F := F) cc (dsem (⟨26, by decide⟩ : Fin 140)) (List.drop 40 (paysL cc)) (by decide)) $$ Hlev
  iapply (wait_a0_at m cc _ 4 rfl) $$ [Hcxs4 HO Hmw Hp]
  · isplitr; · iexact HIc26
    isplitl [Hcxs4]; · iexact Hcxs4
    isplitl [HO]; · iexact HO
    isplitl [Hmw]; · iexact Hmw
    iexact Hp
  iintro ⟨HO, Hq26, -, HBs4⟩
  sl_exec
  -- of own chunk 4 to z
  icases HpS with ⟨Hp, HpS⟩
  ihave Hmw := (mayWait_list (F := F) cc (dsem (⟨48, by decide⟩ : Fin 140)) (List.drop 40 (paysL cc)) (by decide)) $$ Hlev
  iapply (wait_a4_at m cc _ 4 rfl) $$ [Hczs4 HO Hmw Hp]
  · isplitr; · iexact HIc48
    isplitl [Hczs4]; · iexact Hczs4
    isplitl [HO]; · iexact HO
    isplitl [Hmw]; · iexact Hmw
    iexact Hp
  iintro ⟨HO, Hq48, -, HoZb4⟩
  sl_exec
  -- of own chunk 4 to y
  icases HpS with ⟨Hp, HpS⟩
  ihave Hmw := (mayWait_list (F := F) cc (dsem (⟨64, by decide⟩ : Fin 140)) (List.drop 40 (paysL cc)) (by decide)) $$ Hlev
  iapply (wait_a6_at m cc _ 4 rfl) $$ [Hcys4 HO Hmw Hp]
  · isplitr; · iexact HIc64
    isplitl [Hcys4]; · iexact Hcys4
    isplitl [HO]; · iexact HO
    isplitl [Hmw]; · iexact Hmw
    iexact Hp
  iintro ⟨HO, Hq64, -, HoYb4⟩
  sl_exec
  -- of the forwarded half to z
  icases HpS with ⟨Hp, HpS⟩
  ihave Hmw := (mayWait_list (F := F) cc (dsem (⟨80, by decide⟩ : Fin 140)) (List.drop 40 (paysL cc)) (by decide)) $$ Hlev
  iapply (wait_a8_at m cc _ 4 rfl (by decide)) $$ [Hczfs4 HO Hmw Hp]
  · isplitr; · iexact HIc80
    isplitl [Hczfs4]; · iexact Hczfs4
    isplitl [HO]; · iexact HO
    isplitl [Hmw]; · iexact Hmw
    iexact Hp
  iintro ⟨HO, Hq80, -, HyFlb4⟩
  sl_exec
  -- of the forwarded half to y
  icases HpS with ⟨Hp, HpS⟩
  ihave Hmw := (mayWait_list (F := F) cc (dsem (⟨96, by decide⟩ : Fin 140)) (List.drop 40 (paysL cc)) (by decide)) $$ Hlev
  iapply (wait_a10_at m cc _ 4 rfl (by decide)) $$ [Hcyfs4 HO Hmw Hp]
  · isplitr; · iexact HIc96
    isplitl [Hcyfs4]; · iexact Hcyfs4
    isplitl [HO]; · iexact HO
    isplitl [Hmw]; · iexact Hmw
    iexact Hp
  iintro ⟨HO, Hq96, -, HzFrb4⟩
  sl_exec
  -- the departure of chunk 5 across x
  icases HpS with ⟨Hp, HpS⟩
  ihave Hmw := (mayWait_list (F := F) cc (dsem (⟨27, by decide⟩ : Fin 140)) (List.drop 40 (paysL cc)) (by decide)) $$ Hlev
  iapply (wait_a0_at m cc _ 5 rfl) $$ [Hcxs5 HO Hmw Hp]
  · isplitr; · iexact HIc27
    isplitl [Hcxs5]; · iexact Hcxs5
    isplitl [HO]; · iexact HO
    isplitl [Hmw]; · iexact Hmw
    iexact Hp
  iintro ⟨HO, Hq27, -, HBs5⟩
  sl_exec
  -- of own chunk 5 to z
  icases HpS with ⟨Hp, HpS⟩
  ihave Hmw := (mayWait_list (F := F) cc (dsem (⟨49, by decide⟩ : Fin 140)) (List.drop 40 (paysL cc)) (by decide)) $$ Hlev
  iapply (wait_a4_at m cc _ 5 rfl) $$ [Hczs5 HO Hmw Hp]
  · isplitr; · iexact HIc49
    isplitl [Hczs5]; · iexact Hczs5
    isplitl [HO]; · iexact HO
    isplitl [Hmw]; · iexact Hmw
    iexact Hp
  iintro ⟨HO, Hq49, -, HoZb5⟩
  sl_exec
  -- of own chunk 5 to y
  icases HpS with ⟨Hp, HpS⟩
  ihave Hmw := (mayWait_list (F := F) cc (dsem (⟨65, by decide⟩ : Fin 140)) (List.drop 40 (paysL cc)) (by decide)) $$ Hlev
  iapply (wait_a6_at m cc _ 5 rfl) $$ [Hcys5 HO Hmw Hp]
  · isplitr; · iexact HIc65
    isplitl [Hcys5]; · iexact Hcys5
    isplitl [HO]; · iexact HO
    isplitl [Hmw]; · iexact Hmw
    iexact Hp
  iintro ⟨HO, Hq65, -, HoYb5⟩
  sl_exec
  -- of the forwarded half to z
  icases HpS with ⟨Hp, HpS⟩
  ihave Hmw := (mayWait_list (F := F) cc (dsem (⟨81, by decide⟩ : Fin 140)) (List.drop 40 (paysL cc)) (by decide)) $$ Hlev
  iapply (wait_a8_at m cc _ 5 rfl (by decide)) $$ [Hczfs5 HO Hmw Hp]
  · isplitr; · iexact HIc81
    isplitl [Hczfs5]; · iexact Hczfs5
    isplitl [HO]; · iexact HO
    isplitl [Hmw]; · iexact Hmw
    iexact Hp
  iintro ⟨HO, Hq81, -, HyFlb5⟩
  sl_exec
  -- of the forwarded half to y
  icases HpS with ⟨Hp, HpS⟩
  ihave Hmw := (mayWait_list (F := F) cc (dsem (⟨97, by decide⟩ : Fin 140)) (List.drop 40 (paysL cc)) (by decide)) $$ Hlev
  iapply (wait_a10_at m cc _ 5 rfl (by decide)) $$ [Hcyfs5 HO Hmw Hp]
  · isplitr; · iexact HIc97
    isplitl [Hcyfs5]; · iexact Hcyfs5
    isplitl [HO]; · iexact HO
    isplitl [Hmw]; · iexact Hmw
    iexact Hp
  iintro ⟨HO, Hq97, -, HzFrb5⟩
  sl_exec
  -- the departure of chunk 6 across x
  icases HpS with ⟨Hp, HpS⟩
  ihave Hmw := (mayWait_list (F := F) cc (dsem (⟨28, by decide⟩ : Fin 140)) (List.drop 40 (paysL cc)) (by decide)) $$ Hlev
  iapply (wait_a0_at m cc _ 6 rfl) $$ [Hcxs6 HO Hmw Hp]
  · isplitr; · iexact HIc28
    isplitl [Hcxs6]; · iexact Hcxs6
    isplitl [HO]; · iexact HO
    isplitl [Hmw]; · iexact Hmw
    iexact Hp
  iintro ⟨HO, Hq28, -, HBs6⟩
  sl_exec
  -- of own chunk 6 to z
  icases HpS with ⟨Hp, HpS⟩
  ihave Hmw := (mayWait_list (F := F) cc (dsem (⟨50, by decide⟩ : Fin 140)) (List.drop 40 (paysL cc)) (by decide)) $$ Hlev
  iapply (wait_a4_at m cc _ 6 rfl) $$ [Hczs6 HO Hmw Hp]
  · isplitr; · iexact HIc50
    isplitl [Hczs6]; · iexact Hczs6
    isplitl [HO]; · iexact HO
    isplitl [Hmw]; · iexact Hmw
    iexact Hp
  iintro ⟨HO, Hq50, -, HoZb6⟩
  sl_exec
  -- of own chunk 6 to y
  icases HpS with ⟨Hp, HpS⟩
  ihave Hmw := (mayWait_list (F := F) cc (dsem (⟨66, by decide⟩ : Fin 140)) (List.drop 40 (paysL cc)) (by decide)) $$ Hlev
  iapply (wait_a6_at m cc _ 6 rfl) $$ [Hcys6 HO Hmw Hp]
  · isplitr; · iexact HIc66
    isplitl [Hcys6]; · iexact Hcys6
    isplitl [HO]; · iexact HO
    isplitl [Hmw]; · iexact Hmw
    iexact Hp
  iintro ⟨HO, Hq66, -, HoYb6⟩
  sl_exec
  -- of the forwarded half to z
  icases HpS with ⟨Hp, HpS⟩
  ihave Hmw := (mayWait_list (F := F) cc (dsem (⟨82, by decide⟩ : Fin 140)) (List.drop 40 (paysL cc)) (by decide)) $$ Hlev
  iapply (wait_a8_at m cc _ 6 rfl (by decide)) $$ [Hczfs6 HO Hmw Hp]
  · isplitr; · iexact HIc82
    isplitl [Hczfs6]; · iexact Hczfs6
    isplitl [HO]; · iexact HO
    isplitl [Hmw]; · iexact Hmw
    iexact Hp
  iintro ⟨HO, Hq82, -, HyFlb6⟩
  sl_exec
  -- of the forwarded half to y
  icases HpS with ⟨Hp, HpS⟩
  ihave Hmw := (mayWait_list (F := F) cc (dsem (⟨98, by decide⟩ : Fin 140)) (List.drop 40 (paysL cc)) (by decide)) $$ Hlev
  iapply (wait_a10_at m cc _ 6 rfl (by decide)) $$ [Hcyfs6 HO Hmw Hp]
  · isplitr; · iexact HIc98
    isplitl [Hcyfs6]; · iexact Hcyfs6
    isplitl [HO]; · iexact HO
    isplitl [Hmw]; · iexact Hmw
    iexact Hp
  iintro ⟨HO, Hq98, -, HzFrb6⟩
  sl_exec
  -- the departure of chunk 7 across x
  icases HpS with ⟨Hp, HpS⟩
  ihave Hmw := (mayWait_list (F := F) cc (dsem (⟨29, by decide⟩ : Fin 140)) (List.drop 40 (paysL cc)) (by decide)) $$ Hlev
  iapply (wait_a0_at m cc _ 7 rfl) $$ [Hcxs7 HO Hmw Hp]
  · isplitr; · iexact HIc29
    isplitl [Hcxs7]; · iexact Hcxs7
    isplitl [HO]; · iexact HO
    isplitl [Hmw]; · iexact Hmw
    iexact Hp
  iintro ⟨HO, Hq29, -, HBs7⟩
  sl_exec
  -- of own chunk 7 to z
  icases HpS with ⟨Hp, HpS⟩
  ihave Hmw := (mayWait_list (F := F) cc (dsem (⟨51, by decide⟩ : Fin 140)) (List.drop 40 (paysL cc)) (by decide)) $$ Hlev
  iapply (wait_a4_at m cc _ 7 rfl) $$ [Hczs7 HO Hmw Hp]
  · isplitr; · iexact HIc51
    isplitl [Hczs7]; · iexact Hczs7
    isplitl [HO]; · iexact HO
    isplitl [Hmw]; · iexact Hmw
    iexact Hp
  iintro ⟨HO, Hq51, -, HoZb7⟩
  sl_exec
  -- of own chunk 7 to y
  icases HpS with ⟨Hp, HpS⟩
  ihave Hmw := (mayWait_list (F := F) cc (dsem (⟨67, by decide⟩ : Fin 140)) (List.drop 40 (paysL cc)) (by decide)) $$ Hlev
  iapply (wait_a6_at m cc _ 7 rfl) $$ [Hcys7 HO Hmw Hp]
  · isplitr; · iexact HIc67
    isplitl [Hcys7]; · iexact Hcys7
    isplitl [HO]; · iexact HO
    isplitl [Hmw]; · iexact Hmw
    iexact Hp
  iintro ⟨HO, Hq67, -, HoYb7⟩
  sl_exec
  -- of the forwarded half to z
  icases HpS with ⟨Hp, HpS⟩
  ihave Hmw := (mayWait_list (F := F) cc (dsem (⟨83, by decide⟩ : Fin 140)) (List.drop 40 (paysL cc)) (by decide)) $$ Hlev
  iapply (wait_a8_at m cc _ 7 rfl (by decide)) $$ [Hczfs7 HO Hmw Hp]
  · isplitr; · iexact HIc83
    isplitl [Hczfs7]; · iexact Hczfs7
    isplitl [HO]; · iexact HO
    isplitl [Hmw]; · iexact Hmw
    iexact Hp
  iintro ⟨HO, Hq83, -, HyFlb7⟩
  sl_exec
  -- of the forwarded half to y
  icases HpS with ⟨Hp, HpS⟩
  ihave Hmw := (mayWait_list (F := F) cc (dsem (⟨99, by decide⟩ : Fin 140)) (List.drop 40 (paysL cc)) (by decide)) $$ Hlev
  iapply (wait_a10_at m cc _ 7 rfl (by decide)) $$ [Hcyfs7 HO Hmw Hp]
  · isplitr; · iexact HIc99
    isplitl [Hcyfs7]; · iexact Hcyfs7
    isplitl [HO]; · iexact HO
    isplitl [Hmw]; · iexact Hmw
    iexact Hp
  iintro ⟨HO, Hq99, -, HzFrb7⟩
  sl_exec
  -- of chunk 0 of the diagonal quarter across x
  icases HpS with ⟨Hp, HpS⟩
  ihave Hmw := (mayWait_list (F := F) cc (dsem (⟨38, by decide⟩ : Fin 140)) (List.drop 40 (paysL cc)) (by decide)) $$ Hlev
  iapply (wait_a2_at m cc _ 0 rfl) $$ [Hcds0 HO Hmw Hp]
  · isplitr; · iexact HIc38
    isplitl [Hcds0]; · iexact Hcds0
    isplitl [HO]; · iexact HO
    isplitl [Hmw]; · iexact Hmw
    iexact Hp
  iintro ⟨HO, Hq38, -, HB2s0⟩
  sl_exec
  -- of chunk 1 of the diagonal quarter across x
  icases HpS with ⟨Hp, HpS⟩
  ihave HpS := ((sep_emp (PROP := sProp 𝕄)).2) $$ HpS
  ihave Hmw := (mayWait_list (F := F) cc (dsem (⟨39, by decide⟩ : Fin 140)) (List.drop 40 (paysL cc)) (by decide)) $$ Hlev
  iapply (wait_a2_at m cc _ 1 rfl) $$ [Hcds1 HO Hmw Hp]
  · isplitr; · iexact HIc39
    isplitl [Hcds1]; · iexact Hcds1
    isplitl [HO]; · iexact HO
    isplitl [Hmw]; · iexact Hmw
    iexact Hp
  iintro ⟨HO, Hq39, -, HB2s1⟩
  sl_exec
  -- of chunk 2 of the diagonal quarter across x

  icases HpS with ⟨HpS, -⟩
  ihave Hmw := (mayWait_list (F := F) cc (dsem (⟨40, by decide⟩ : Fin 140)) (List.drop 40 (paysL cc)) (by decide)) $$ Hlev
  iapply (wait_a2_at m cc _ 2 rfl) $$ [Hcds2 HO Hmw HpS]
  · isplitr; · iexact HIc40
    isplitl [Hcds2]; · iexact Hcds2
    isplitl [HO]; · iexact HO
    isplitl [Hmw]; · iexact Hmw
    iexact HpS
  iintro ⟨HO, Hq40, -, HB2s2⟩
  sl_exec
  -- every cell of the protocol on this device has had its one round: close them, their counters are the device's again
  imod (close_cell (F := F) m cc (⟨22, by decide⟩ : Fin 140) (by decide)) $$ [Hq22] with Hv22
  · isplitr; · iexact HIc22
    iexact Hq22
  imod (close_cell (F := F) m cc (⟨23, by decide⟩ : Fin 140) (by decide)) $$ [Hq23] with Hv23
  · isplitr; · iexact HIc23
    iexact Hq23
  imod (close_cell (F := F) m cc (⟨24, by decide⟩ : Fin 140) (by decide)) $$ [Hq24] with Hv24
  · isplitr; · iexact HIc24
    iexact Hq24
  imod (close_cell (F := F) m cc (⟨25, by decide⟩ : Fin 140) (by decide)) $$ [Hq25] with Hv25
  · isplitr; · iexact HIc25
    iexact Hq25
  imod (close_cell (F := F) m cc (⟨26, by decide⟩ : Fin 140) (by decide)) $$ [Hq26] with Hv26
  · isplitr; · iexact HIc26
    iexact Hq26
  imod (close_cell (F := F) m cc (⟨27, by decide⟩ : Fin 140) (by decide)) $$ [Hq27] with Hv27
  · isplitr; · iexact HIc27
    iexact Hq27
  imod (close_cell (F := F) m cc (⟨28, by decide⟩ : Fin 140) (by decide)) $$ [Hq28] with Hv28
  · isplitr; · iexact HIc28
    iexact Hq28
  imod (close_cell (F := F) m cc (⟨29, by decide⟩ : Fin 140) (by decide)) $$ [Hq29] with Hv29
  · isplitr; · iexact HIc29
    iexact Hq29
  imod (close_cell (F := F) m cc (⟨30, by decide⟩ : Fin 140) (by decide)) $$ [Hq30] with Hv30
  · isplitr; · iexact HIc30
    iexact Hq30
  imod (close_cell (F := F) m cc (⟨31, by decide⟩ : Fin 140) (by decide)) $$ [Hq31] with Hv31
  · isplitr; · iexact HIc31
    iexact Hq31
  imod (close_cell (F := F) m cc (⟨32, by decide⟩ : Fin 140) (by decide)) $$ [Hq32] with Hv32
  · isplitr; · iexact HIc32
    iexact Hq32
  imod (close_cell (F := F) m cc (⟨33, by decide⟩ : Fin 140) (by decide)) $$ [Hq33] with Hv33
  · isplitr; · iexact HIc33
    iexact Hq33
  imod (close_cell (F := F) m cc (⟨34, by decide⟩ : Fin 140) (by decide)) $$ [Hq34] with Hv34
  · isplitr; · iexact HIc34
    iexact Hq34
  imod (close_cell (F := F) m cc (⟨35, by decide⟩ : Fin 140) (by decide)) $$ [Hq35] with Hv35
  · isplitr; · iexact HIc35
    iexact Hq35
  imod (close_cell (F := F) m cc (⟨36, by decide⟩ : Fin 140) (by decide)) $$ [Hq36] with Hv36
  · isplitr; · iexact HIc36
    iexact Hq36
  imod (close_cell (F := F) m cc (⟨37, by decide⟩ : Fin 140) (by decide)) $$ [Hq37] with Hv37
  · isplitr; · iexact HIc37
    iexact Hq37
  imod (close_cell (F := F) m cc (⟨38, by decide⟩ : Fin 140) (by decide)) $$ [Hq38] with Hv38
  · isplitr; · iexact HIc38
    iexact Hq38
  imod (close_cell (F := F) m cc (⟨39, by decide⟩ : Fin 140) (by decide)) $$ [Hq39] with Hv39
  · isplitr; · iexact HIc39
    iexact Hq39
  imod (close_cell (F := F) m cc (⟨40, by decide⟩ : Fin 140) (by decide)) $$ [Hq40] with Hv40
  · isplitr; · iexact HIc40
    iexact Hq40
  imod (close_cell (F := F) m cc (⟨41, by decide⟩ : Fin 140) (by decide)) $$ [Hq41] with Hv41
  · isplitr; · iexact HIc41
    iexact Hq41
  imod (close_cell (F := F) m cc (⟨42, by decide⟩ : Fin 140) (by decide)) $$ [Hq42] with Hv42
  · isplitr; · iexact HIc42
    iexact Hq42
  imod (close_cell (F := F) m cc (⟨43, by decide⟩ : Fin 140) (by decide)) $$ [Hq43] with Hv43
  · isplitr; · iexact HIc43
    iexact Hq43
  imod (close_cell (F := F) m cc (⟨44, by decide⟩ : Fin 140) (by decide)) $$ [Hq44] with Hv44
  · isplitr; · iexact HIc44
    iexact Hq44
  imod (close_cell (F := F) m cc (⟨45, by decide⟩ : Fin 140) (by decide)) $$ [Hq45] with Hv45
  · isplitr; · iexact HIc45
    iexact Hq45
  imod (close_cell (F := F) m cc (⟨46, by decide⟩ : Fin 140) (by decide)) $$ [Hq46] with Hv46
  · isplitr; · iexact HIc46
    iexact Hq46
  imod (close_cell (F := F) m cc (⟨47, by decide⟩ : Fin 140) (by decide)) $$ [Hq47] with Hv47
  · isplitr; · iexact HIc47
    iexact Hq47
  imod (close_cell (F := F) m cc (⟨48, by decide⟩ : Fin 140) (by decide)) $$ [Hq48] with Hv48
  · isplitr; · iexact HIc48
    iexact Hq48
  imod (close_cell (F := F) m cc (⟨49, by decide⟩ : Fin 140) (by decide)) $$ [Hq49] with Hv49
  · isplitr; · iexact HIc49
    iexact Hq49
  imod (close_cell (F := F) m cc (⟨50, by decide⟩ : Fin 140) (by decide)) $$ [Hq50] with Hv50
  · isplitr; · iexact HIc50
    iexact Hq50
  imod (close_cell (F := F) m cc (⟨51, by decide⟩ : Fin 140) (by decide)) $$ [Hq51] with Hv51
  · isplitr; · iexact HIc51
    iexact Hq51
  imod (close_cell (F := F) m cc (⟨52, by decide⟩ : Fin 140) (by decide)) $$ [Hq52] with Hv52
  · isplitr; · iexact HIc52
    iexact Hq52
  imod (close_cell (F := F) m cc (⟨53, by decide⟩ : Fin 140) (by decide)) $$ [Hq53] with Hv53
  · isplitr; · iexact HIc53
    iexact Hq53
  imod (close_cell (F := F) m cc (⟨54, by decide⟩ : Fin 140) (by decide)) $$ [Hq54] with Hv54
  · isplitr; · iexact HIc54
    iexact Hq54
  imod (close_cell (F := F) m cc (⟨55, by decide⟩ : Fin 140) (by decide)) $$ [Hq55] with Hv55
  · isplitr; · iexact HIc55
    iexact Hq55
  imod (close_cell (F := F) m cc (⟨56, by decide⟩ : Fin 140) (by decide)) $$ [Hq56] with Hv56
  · isplitr; · iexact HIc56
    iexact Hq56
  imod (close_cell (F := F) m cc (⟨57, by decide⟩ : Fin 140) (by decide)) $$ [Hq57] with Hv57
  · isplitr; · iexact HIc57
    iexact Hq57
  imod (close_cell (F := F) m cc (⟨58, by decide⟩ : Fin 140) (by decide)) $$ [Hq58] with Hv58
  · isplitr; · iexact HIc58
    iexact Hq58
  imod (close_cell (F := F) m cc (⟨59, by decide⟩ : Fin 140) (by decide)) $$ [Hq59] with Hv59
  · isplitr; · iexact HIc59
    iexact Hq59
  imod (close_cell (F := F) m cc (⟨60, by decide⟩ : Fin 140) (by decide)) $$ [Hq60] with Hv60
  · isplitr; · iexact HIc60
    iexact Hq60
  imod (close_cell (F := F) m cc (⟨61, by decide⟩ : Fin 140) (by decide)) $$ [Hq61] with Hv61
  · isplitr; · iexact HIc61
    iexact Hq61
  imod (close_cell (F := F) m cc (⟨62, by decide⟩ : Fin 140) (by decide)) $$ [Hq62] with Hv62
  · isplitr; · iexact HIc62
    iexact Hq62
  imod (close_cell (F := F) m cc (⟨63, by decide⟩ : Fin 140) (by decide)) $$ [Hq63] with Hv63
  · isplitr; · iexact HIc63
    iexact Hq63
  imod (close_cell (F := F) m cc (⟨64, by decide⟩ : Fin 140) (by decide)) $$ [Hq64] with Hv64
  · isplitr; · iexact HIc64
    iexact Hq64
  imod (close_cell (F := F) m cc (⟨65, by decide⟩ : Fin 140) (by decide)) $$ [Hq65] with Hv65
  · isplitr; · iexact HIc65
    iexact Hq65
  imod (close_cell (F := F) m cc (⟨66, by decide⟩ : Fin 140) (by decide)) $$ [Hq66] with Hv66
  · isplitr; · iexact HIc66
    iexact Hq66
  imod (close_cell (F := F) m cc (⟨67, by decide⟩ : Fin 140) (by decide)) $$ [Hq67] with Hv67
  · isplitr; · iexact HIc67
    iexact Hq67
  imod (close_cell (F := F) m cc (⟨68, by decide⟩ : Fin 140) (by decide)) $$ [Hq68] with Hv68
  · isplitr; · iexact HIc68
    iexact Hq68
  imod (close_cell (F := F) m cc (⟨69, by decide⟩ : Fin 140) (by decide)) $$ [Hq69] with Hv69
  · isplitr; · iexact HIc69
    iexact Hq69
  imod (close_cell (F := F) m cc (⟨70, by decide⟩ : Fin 140) (by decide)) $$ [Hq70] with Hv70
  · isplitr; · iexact HIc70
    iexact Hq70
  imod (close_cell (F := F) m cc (⟨71, by decide⟩ : Fin 140) (by decide)) $$ [Hq71] with Hv71
  · isplitr; · iexact HIc71
    iexact Hq71
  imod (close_cell (F := F) m cc (⟨72, by decide⟩ : Fin 140) (by decide)) $$ [Hq72] with Hv72
  · isplitr; · iexact HIc72
    iexact Hq72
  imod (close_cell (F := F) m cc (⟨73, by decide⟩ : Fin 140) (by decide)) $$ [Hq73] with Hv73
  · isplitr; · iexact HIc73
    iexact Hq73
  imod (close_cell (F := F) m cc (⟨74, by decide⟩ : Fin 140) (by decide)) $$ [Hq74] with Hv74
  · isplitr; · iexact HIc74
    iexact Hq74
  imod (close_cell (F := F) m cc (⟨75, by decide⟩ : Fin 140) (by decide)) $$ [Hq75] with Hv75
  · isplitr; · iexact HIc75
    iexact Hq75
  imod (close_cell (F := F) m cc (⟨79, by decide⟩ : Fin 140) (by decide)) $$ [Hq79] with Hv79
  · isplitr; · iexact HIc79
    iexact Hq79
  imod (close_cell (F := F) m cc (⟨80, by decide⟩ : Fin 140) (by decide)) $$ [Hq80] with Hv80
  · isplitr; · iexact HIc80
    iexact Hq80
  imod (close_cell (F := F) m cc (⟨81, by decide⟩ : Fin 140) (by decide)) $$ [Hq81] with Hv81
  · isplitr; · iexact HIc81
    iexact Hq81
  imod (close_cell (F := F) m cc (⟨82, by decide⟩ : Fin 140) (by decide)) $$ [Hq82] with Hv82
  · isplitr; · iexact HIc82
    iexact Hq82
  imod (close_cell (F := F) m cc (⟨83, by decide⟩ : Fin 140) (by decide)) $$ [Hq83] with Hv83
  · isplitr; · iexact HIc83
    iexact Hq83
  imod (close_cell (F := F) m cc (⟨87, by decide⟩ : Fin 140) (by decide)) $$ [Hq87] with Hv87
  · isplitr; · iexact HIc87
    iexact Hq87
  imod (close_cell (F := F) m cc (⟨88, by decide⟩ : Fin 140) (by decide)) $$ [Hq88] with Hv88
  · isplitr; · iexact HIc88
    iexact Hq88
  imod (close_cell (F := F) m cc (⟨89, by decide⟩ : Fin 140) (by decide)) $$ [Hq89] with Hv89
  · isplitr; · iexact HIc89
    iexact Hq89
  imod (close_cell (F := F) m cc (⟨90, by decide⟩ : Fin 140) (by decide)) $$ [Hq90] with Hv90
  · isplitr; · iexact HIc90
    iexact Hq90
  imod (close_cell (F := F) m cc (⟨91, by decide⟩ : Fin 140) (by decide)) $$ [Hq91] with Hv91
  · isplitr; · iexact HIc91
    iexact Hq91
  imod (close_cell (F := F) m cc (⟨95, by decide⟩ : Fin 140) (by decide)) $$ [Hq95] with Hv95
  · isplitr; · iexact HIc95
    iexact Hq95
  imod (close_cell (F := F) m cc (⟨96, by decide⟩ : Fin 140) (by decide)) $$ [Hq96] with Hv96
  · isplitr; · iexact HIc96
    iexact Hq96
  imod (close_cell (F := F) m cc (⟨97, by decide⟩ : Fin 140) (by decide)) $$ [Hq97] with Hv97
  · isplitr; · iexact HIc97
    iexact Hq97
  imod (close_cell (F := F) m cc (⟨98, by decide⟩ : Fin 140) (by decide)) $$ [Hq98] with Hv98
  · isplitr; · iexact HIc98
    iexact Hq98
  imod (close_cell (F := F) m cc (⟨99, by decide⟩ : Fin 140) (by decide)) $$ [Hq99] with Hv99
  · isplitr; · iexact HIc99
    iexact Hq99
  imod (close_cell (F := F) m cc (⟨103, by decide⟩ : Fin 140) (by decide)) $$ [Hq103] with Hv103
  · isplitr; · iexact HIc103
    iexact Hq103
  imod (close_cell (F := F) m cc (⟨104, by decide⟩ : Fin 140) (by decide)) $$ [Hq104] with Hv104
  · isplitr; · iexact HIc104
    iexact Hq104
  imod (close_cell (F := F) m cc (⟨105, by decide⟩ : Fin 140) (by decide)) $$ [Hq105] with Hv105
  · isplitr; · iexact HIc105
    iexact Hq105
  imod (close_cell (F := F) m cc (⟨106, by decide⟩ : Fin 140) (by decide)) $$ [Hq106] with Hv106
  · isplitr; · iexact HIc106
    iexact Hq106
  imod (close_cell (F := F) m cc (⟨107, by decide⟩ : Fin 140) (by decide)) $$ [Hq107] with Hv107
  · isplitr; · iexact HIc107
    iexact Hq107
  -- the program is over: hand everything back
  icases HvU with ⟨Hu76, Hu77, Hu78, Hu84, Hu85, Hu86, Hu92, Hu93, Hu94, Hu100, Hu101, Hu102⟩
  ihave HO := (Entails.of_eq (show owes (cc : Thread nD τ) (owedL (List.drop 40 (paysL cc))) _ = owes (cc : Thread nD τ) 0 _ from rfl)) $$ HO
  -- each block of the result holds what its copy wrote: the final contents
  ihave HU00 := (congr (F := F) (outR 0 0) cc fullShare ((outR 0 0).view.writes (Elt F) g00 [⟨Rect.whole S512x256, dev.sl.dma0_34 m⟩]) (out m cc) (fun i hi => glue_out' m cc 0 0 g00 i hi)) $$ HU00
  ihave HU01 := (congr (F := F) (outR 0 1) cc fullShare ((outR 0 1).view.writes (Elt F) g01 [⟨Rect.whole S512x256, dev.sl.dma0_35 m⟩]) (out m cc) (fun i hi => glue_out' m cc 0 1 g01 i hi)) $$ HU01
  ihave HU02 := (congr (F := F) (outR 0 2) cc fullShare ((outR 0 2).view.writes (Elt F) g02 [⟨Rect.whole S512x256, dev.sl.dma0_36 m⟩]) (out m cc) (fun i hi => glue_out' m cc 0 2 g02 i hi)) $$ HU02
  ihave HU03 := (congr (F := F) (outR 0 3) cc fullShare ((outR 0 3).view.writes (Elt F) g03 [⟨Rect.whole S512x256, dev.sl.dma0_37 m⟩]) (out m cc) (fun i hi => glue_out' m cc 0 3 g03 i hi)) $$ HU03
  ihave HU10 := (congr (F := F) (outR 1 0) cc fullShare ((outR 1 0).view.writes (Elt F) g10 [⟨Rect.whole S512x256, dev.sl.dma0_38 m⟩]) (out m cc) (fun i hi => glue_out' m cc 1 0 g10 i hi)) $$ HU10
  ihave HU11 := (congr (F := F) (outR 1 1) cc fullShare ((outR 1 1).view.writes (Elt F) g11 [⟨Rect.whole S512x256, dev.sl.dma0_39 m⟩]) (out m cc) (fun i hi => glue_out' m cc 1 1 g11 i hi)) $$ HU11
  ihave HU12 := (congr (F := F) (outR 1 2) cc fullShare ((outR 1 2).view.writes (Elt F) g12 [⟨Rect.whole S512x256, dev.sl.dma0_40 m⟩]) (out m cc) (fun i hi => glue_out' m cc 1 2 g12 i hi)) $$ HU12
  ihave HU13 := (congr (F := F) (outR 1 3) cc fullShare ((outR 1 3).view.writes (Elt F) g13 [⟨Rect.whole S512x256, dev.sl.dma0_41 m⟩]) (out m cc) (fun i hi => glue_out' m cc 1 3 g13 i hi)) $$ HU13
  ihave HU20 := (congr (F := F) (outR 2 0) cc fullShare ((outR 2 0).view.writes (Elt F) g20 [⟨Rect.whole S512x256, dev.sl.dma0_42 m⟩]) (out m cc) (fun i hi => glue_out' m cc 2 0 g20 i hi)) $$ HU20
  ihave HU21 := (congr (F := F) (outR 2 1) cc fullShare ((outR 2 1).view.writes (Elt F) g21 [⟨Rect.whole S512x256, dev.sl.dma0_43 m⟩]) (out m cc) (fun i hi => glue_out' m cc 2 1 g21 i hi)) $$ HU21
  ihave HU22 := (congr (F := F) (outR 2 2) cc fullShare ((outR 2 2).view.writes (Elt F) g22 [⟨Rect.whole S512x256, dev.sl.dma0_44 m⟩]) (out m cc) (fun i hi => glue_out' m cc 2 2 g22 i hi)) $$ HU22
  ihave HU23 := (congr (F := F) (outR 2 3) cc fullShare ((outR 2 3).view.writes (Elt F) g23 [⟨Rect.whole S512x256, dev.sl.dma0_45 m⟩]) (out m cc) (fun i hi => glue_out' m cc 2 3 g23 i hi)) $$ HU23
  ihave HU30 := (congr (F := F) (outR 3 0) cc fullShare ((outR 3 0).view.writes (Elt F) g30 [⟨Rect.whole S512x256, dev.sl.dma0_22 m⟩]) (out m cc) (fun i hi => glue_out' m cc 3 0 g30 i hi)) $$ HU30
  ihave HU31 := (congr (F := F) (outR 3 1) cc fullShare ((outR 3 1).view.writes (Elt F) g31 [⟨Rect.whole S512x256, dev.sl.dma0_23 m⟩]) (out m cc) (fun i hi => glue_out' m cc 3 1 g31 i hi)) $$ HU31
  ihave HU32 := (congr (F := F) (outR 3 2) cc fullShare ((outR 3 2).view.writes (Elt F) g32 [⟨Rect.whole S512x256, dev.sl.dma0_24 m⟩]) (out m cc) (fun i hi => glue_out' m cc 3 2 g32 i hi)) $$ HU32
  ihave HU33 := (congr (F := F) (outR 3 3) cc fullShare ((outR 3 3).view.writes (Elt F) g33 [⟨Rect.whole S512x256, dev.sl.dma0_25 m⟩]) (out m cc) (fun i hi => glue_out' m cc 3 3 g33 i hi)) $$ HU33
  ihave HU40 := (congr (F := F) (outR 4 0) cc fullShare ((outR 4 0).view.writes (Elt F) g40 [⟨Rect.whole S512x256, dev.sl.dma0_26 m⟩]) (out m cc) (fun i hi => glue_out' m cc 4 0 g40 i hi)) $$ HU40
  ihave HU41 := (congr (F := F) (outR 4 1) cc fullShare ((outR 4 1).view.writes (Elt F) g41 [⟨Rect.whole S512x256, dev.sl.dma0_27 m⟩]) (out m cc) (fun i hi => glue_out' m cc 4 1 g41 i hi)) $$ HU41
  ihave HU42 := (congr (F := F) (outR 4 2) cc fullShare ((outR 4 2).view.writes (Elt F) g42 [⟨Rect.whole S512x256, dev.sl.dma0_28 m⟩]) (out m cc) (fun i hi => glue_out' m cc 4 2 g42 i hi)) $$ HU42
  ihave HU43 := (congr (F := F) (outR 4 3) cc fullShare ((outR 4 3).view.writes (Elt F) g43 [⟨Rect.whole S512x256, dev.sl.dma0_29 m⟩]) (out m cc) (fun i hi => glue_out' m cc 4 3 g43 i hi)) $$ HU43
  ihave HU50 := (congr (F := F) (outR 5 0) cc fullShare ((outR 5 0).view.writes (Elt F) g50 [⟨Rect.whole S512x256, dev.sl.dma0_30 m⟩]) (out m cc) (fun i hi => glue_out' m cc 5 0 g50 i hi)) $$ HU50
  ihave HU51 := (congr (F := F) (outR 5 1) cc fullShare ((outR 5 1).view.writes (Elt F) g51 [⟨Rect.whole S512x256, dev.sl.dma0_31 m⟩]) (out m cc) (fun i hi => glue_out' m cc 5 1 g51 i hi)) $$ HU51
  ihave HU52 := (congr (F := F) (outR 5 2) cc fullShare ((outR 5 2).view.writes (Elt F) g52 [⟨Rect.whole S512x256, dev.sl.dma0_32 m⟩]) (out m cc) (fun i hi => glue_out' m cc 5 2 g52 i hi)) $$ HU52
  ihave HU53 := (congr (F := F) (outR 5 3) cc fullShare ((outR 5 3).view.writes (Elt F) g53 [⟨Rect.whole S512x256, dev.sl.dma0_33 m⟩]) (out m cc) (fun i hi => glue_out' m cc 5 3 g53 i hi)) $$ HU53
  ihave HU60 := (congr (F := F) (outR 6 0) cc fullShare ((outR 6 0).view.writes (Elt F) g60 [⟨Rect.whole S512x256, dev.sl.dma0_46 m⟩]) (out m cc) (fun i hi => glue_out' m cc 6 0 g60 i hi)) $$ HU60
  ihave HU61 := (congr (F := F) (outR 6 1) cc fullShare ((outR 6 1).view.writes (Elt F) g61 [⟨Rect.whole S512x256, dev.sl.dma0_47 m⟩]) (out m cc) (fun i hi => glue_out' m cc 6 1 g61 i hi)) $$ HU61
  ihave HU62 := (congr (F := F) (outR 6 2) cc fullShare ((outR 6 2).view.writes (Elt F) g62 [⟨Rect.whole S512x256, dev.sl.dma0_48 m⟩]) (out m cc) (fun i hi => glue_out' m cc 6 2 g62 i hi)) $$ HU62
  ihave HU63 := (congr (F := F) (outR 6 3) cc fullShare ((outR 6 3).view.writes (Elt F) g63 [⟨Rect.whole S512x256, dev.sl.dma0_49 m⟩]) (out m cc) (fun i hi => glue_out' m cc 6 3 g63 i hi)) $$ HU63
  ihave HU70 := (congr (F := F) (outR 7 0) cc fullShare ((outR 7 0).view.writes (Elt F) g70 [⟨Rect.whole S512x256, dev.sl.dma0_50 m⟩]) (out m cc) (fun i hi => glue_out' m cc 7 0 g70 i hi)) $$ HU70
  ihave HU71 := (congr (F := F) (outR 7 1) cc fullShare ((outR 7 1).view.writes (Elt F) g71 [⟨Rect.whole S512x256, dev.sl.dma0_51 m⟩]) (out m cc) (fun i hi => glue_out' m cc 7 1 g71 i hi)) $$ HU71
  ihave HU72 := (congr (F := F) (outR 7 2) cc fullShare ((outR 7 2).view.writes (Elt F) g72 [⟨Rect.whole S512x256, dev.sl.dma0_52 m⟩]) (out m cc) (fun i hi => glue_out' m cc 7 2 g72 i hi)) $$ HU72
  ihave HU73 := (congr (F := F) (outR 7 3) cc fullShare ((outR 7 3).view.writes (Elt F) g73 [⟨Rect.whole S512x256, dev.sl.dma0_53 m⟩]) (out m cc) (fun i hi => glue_out' m cc 7 3 g73 i hi)) $$ HU73
  sl_step
  iapply Hk
  unfold bodyPost
  isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7 Hz0 Hz1 Hz2 HzG3 HzFl3 HzFrb3 HzG4 HzFl4 HzFrb4 HzG5 HzFl5 HzFrb5 HzG6 HzFl6 HzFrb6 HzG7 HzFl7 HzFrb7 Hy0 Hy1 Hy2 HyG3 HyFlb3 HyFr3 HyG4 HyFlb4 HyFr4 HyG5 HyFlb5 HyFr5 HyG6 HyFlb6 HyFr6 HyG7 HyFlb7 HyFr7 Hdq0 Hdq1 Hdq2 Hd3 Hd4 Hd5 Hd6 Hd7]
  · iapply (Entails.of_eq (junk_whole (F := F) cc cc0_scratch0).symm)
    iapply (r4_back (F := F) cc)
    isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7]
    · isplitl [HoZb0 HoYb0 HoK0]
      · iapply (own_back (F := F) cc 0 (r4 m cc))
        isplitl [HoZb0]
        · iexact HoZb0
        isplitl [HoYb0]
        · iexact HoYb0
        iexact HoK0
      isplitl [HoZb1 HoYb1 HoK1]
      · iapply (own_back (F := F) cc 1 (r4 m cc))
        isplitl [HoZb1]
        · iexact HoZb1
        isplitl [HoYb1]
        · iexact HoYb1
        iexact HoK1
      isplitl [HoZb2 HoYb2 HoK2]
      · iapply (own_back (F := F) cc 2 (r4 m cc))
        isplitl [HoZb2]
        · iexact HoZb2
        isplitl [HoYb2]
        · iexact HoYb2
        iexact HoK2
      isplitl [HoZb3 HoYb3 HoK3]
      · iapply (own_back (F := F) cc 3 (r4 m cc))
        isplitl [HoZb3]
        · iexact HoZb3
        isplitl [HoYb3]
        · iexact HoYb3
        iexact HoK3
      isplitl [HoZb4 HoYb4 HoK4]
      · iapply (own_back (F := F) cc 4 (r4 m cc))
        isplitl [HoZb4]
        · iexact HoZb4
        isplitl [HoYb4]
        · iexact HoYb4
        iexact HoK4
      isplitl [HoZb5 HoYb5 HoK5]
      · iapply (own_back (F := F) cc 5 (r4 m cc))
        isplitl [HoZb5]
        · iexact HoZb5
        isplitl [HoYb5]
        · iexact HoYb5
        iexact HoK5
      isplitl [HoZb6 HoYb6 HoK6]
      · iapply (own_back (F := F) cc 6 (r4 m cc))
        isplitl [HoZb6]
        · iexact HoZb6
        isplitl [HoYb6]
        · iexact HoYb6
        iexact HoK6
      iapply (own_back (F := F) cc 7 (r4 m cc))
      isplitl [HoZb7]
      · iexact HoZb7
      isplitl [HoYb7]
      · iexact HoYb7
      iexact HoK7
    isplitl [Hz0 Hz1 Hz2 HzG3 HzFl3 HzFrb3 HzG4 HzFl4 HzFrb4 HzG5 HzFl5 HzFrb5 HzG6 HzFl6 HzFrb6 HzG7 HzFl7 HzFrb7]
    · isplitl [Hz0]
      · iexists _; iexact Hz0
      isplitl [Hz1]
      · iexists _; iexact Hz1
      isplitl [Hz2]
      · iexists _; iexact Hz2
      isplitl [HzG3 HzFl3 HzFrb3]
      · iapply (nbr_back (F := F) cc (zqF cc) 3 (r4 m cc))
        isplitl [HzG3]
        · iexact HzG3
        isplitl [HzFl3]
        · iexact HzFl3
        iexact HzFrb3
      isplitl [HzG4 HzFl4 HzFrb4]
      · iapply (nbr_back (F := F) cc (zqF cc) 4 (r4 m cc))
        isplitl [HzG4]
        · iexact HzG4
        isplitl [HzFl4]
        · iexact HzFl4
        iexact HzFrb4
      isplitl [HzG5 HzFl5 HzFrb5]
      · iapply (nbr_back (F := F) cc (zqF cc) 5 (r4 m cc))
        isplitl [HzG5]
        · iexact HzG5
        isplitl [HzFl5]
        · iexact HzFl5
        iexact HzFrb5
      isplitl [HzG6 HzFl6 HzFrb6]
      · iapply (nbr_back (F := F) cc (zqF cc) 6 (r4 m cc))
        isplitl [HzG6]
        · iexact HzG6
        isplitl [HzFl6]
        · iexact HzFl6
        iexact HzFrb6
      iapply (nbr_back (F := F) cc (zqF cc) 7 (r4 m cc))
      isplitl [HzG7]
      · iexact HzG7
      isplitl [HzFl7]
      · iexact HzFl7
      iexact HzFrb7
    isplitl [Hy0 Hy1 Hy2 HyG3 HyFlb3 HyFr3 HyG4 HyFlb4 HyFr4 HyG5 HyFlb5 HyFr5 HyG6 HyFlb6 HyFr6 HyG7 HyFlb7 HyFr7]
    · isplitl [Hy0]
      · iexists _; iexact Hy0
      isplitl [Hy1]
      · iexists _; iexact Hy1
      isplitl [Hy2]
      · iexists _; iexact Hy2
      isplitl [HyG3 HyFlb3 HyFr3]
      · iapply (nbr_back (F := F) cc (yqF cc) 3 (r4 m cc))
        isplitl [HyG3]
        · iexact HyG3
        isplitl [HyFlb3]
        · iexact HyFlb3
        iexact HyFr3
      isplitl [HyG4 HyFlb4 HyFr4]
      · iapply (nbr_back (F := F) cc (yqF cc) 4 (r4 m cc))
        isplitl [HyG4]
        · iexact HyG4
        isplitl [HyFlb4]
        · iexact HyFlb4
        iexact HyFr4
      isplitl [HyG5 HyFlb5 HyFr5]
      · iapply (nbr_back (F := F) cc (yqF cc) 5 (r4 m cc))
        isplitl [HyG5]
        · iexact HyG5
        isplitl [HyFlb5]
        · iexact HyFlb5
        iexact HyFr5
      isplitl [HyG6 HyFlb6 HyFr6]
      · iapply (nbr_back (F := F) cc (yqF cc) 6 (r4 m cc))
        isplitl [HyG6]
        · iexact HyG6
        isplitl [HyFlb6]
        · iexact HyFlb6
        iexact HyFr6
      iapply (nbr_back (F := F) cc (yqF cc) 7 (r4 m cc))
      isplitl [HyG7]
      · iexact HyG7
      isplitl [HyFlb7]
      · iexact HyFlb7
      iexact HyFr7
    isplitl [Hdq0 Hdq1 Hdq2]
    · isplitl [Hdq0]
      · iexists _; iexact Hdq0
      isplitl [Hdq1]
      · iexists _; iexact Hdq1
      iexists _; iexact Hdq2
    isplitl [Hd3]
    · iapply (dq_halves (F := F) cc 3 (r4 m cc))
      iexact Hd3
    isplitl [Hd4]
    · iapply (dq_halves (F := F) cc 4 (r4 m cc))
      iexact Hd4
    isplitl [Hd5]
    · iapply (dq_halves (F := F) cc 5 (r4 m cc))
      iexact Hd5
    isplitl [Hd6]
    · iapply (dq_halves (F := F) cc 6 (r4 m cc))
      iexact Hd6
    iapply (dq_halves (F := F) cc 7 (r4 m cc))
    iexact Hd7
  isplitl [HBs0 HBs1 HBs2 HBs3 HBs4 HBs5 HBs6 HBs7]
  · iapply (Entails.of_eq (junk_whole (F := F) cc cc0_scratch1).symm)
    iapply (sb_rows_join (F := F) cc)
    isplitl [HBs0]
    · iexists _; iexact HBs0
    isplitl [HBs1]
    · iexists _; iexact HBs1
    isplitl [HBs2]
    · iexists _; iexact HBs2
    isplitl [HBs3]
    · iexists _; iexact HBs3
    isplitl [HBs4]
    · iexists _; iexact HBs4
    isplitl [HBs5]
    · iexists _; iexact HBs5
    isplitl [HBs6]
    · iexists _; iexact HBs6
    iexists _; iexact HBs7
  isplitl [Hrb0 Hrb1 Hrb2 Hrb3 Hrb4 Hrb5 Hrb6 Hrb7]
  · iapply (Entails.of_eq (junk_whole (F := F) cc cc0_scratch2).symm)
    iapply (rb_rows_join (F := F) cc)
    isplitl [Hrb0]
    · iexists _; iexact Hrb0
    isplitl [Hrb1]
    · iexists _; iexact Hrb1
    isplitl [Hrb2]
    · iexists _; iexact Hrb2
    isplitl [Hrb3]
    · iexists _; iexact Hrb3
    isplitl [Hrb4]
    · iexists _; iexact Hrb4
    isplitl [Hrb5]
    · iexists _; iexact Hrb5
    isplitl [Hrb6]
    · iexists _; iexact Hrb6
    iexists _; iexact Hrb7
  isplitl [HB2s0 HB2s1 HB2s2]
  · iapply (Entails.of_eq (junk_whole (F := F) cc cc0_scratch3).symm)
    iapply (sb2_rows_join (F := F) cc)
    isplitl [HB2s0]
    · iexists _; iexact HB2s0
    isplitl [HB2s1]
    · iexists _; iexact HB2s1
    iexists _; iexact HB2s2
  isplitl [Hrb20 Hrb21 Hrb22]
  · iapply (Entails.of_eq (junk_whole (F := F) cc cc0_scratch4).symm)
    iapply (rb2_rows_join (F := F) cc)
    isplitl [Hrb20]
    · iexists _; iexact Hrb20
    isplitl [Hrb21]
    · iexists _; iexact Hrb21
    iexists _; iexact Hrb22
  isplitl [HP0 HP1 HP2 HP3 HP4 HP5 HP6 HP7]
  · iapply (Entails.of_eq (junk_whole (F := F) cc cc0_scratch5).symm)
    iapply (stP_rows_join (F := F) cc)
    isplitl [HP0]
    · iexists _; iexact HP0
    isplitl [HP1]
    · iexists _; iexact HP1
    isplitl [HP2]
    · iexists _; iexact HP2
    isplitl [HP3]
    · iexists _; iexact HP3
    isplitl [HP4]
    · iexists _; iexact HP4
    isplitl [HP5]
    · iexists _; iexact HP5
    isplitl [HP6]
    · iexists _; iexact HP6
    iexists _; iexact HP7
  isplitl [HL0 HL1 HL2 HL3 HL4 HL5 HL6 HL7]
  · iapply (Entails.of_eq (junk_whole (F := F) cc cc0_scratch6).symm)
    iapply (stL_rows_join (F := F) cc)
    isplitl [HL0]
    · iexists _; iexact HL0
    isplitl [HL1]
    · iexists _; iexact HL1
    isplitl [HL2]
    · iexists _; iexact HL2
    isplitl [HL3]
    · iexists _; iexact HL3
    isplitl [HL4]
    · iexists _; iexact HL4
    isplitl [HL5]
    · iexists _; iexact HL5
    isplitl [HL6]
    · iexists _; iexact HL6
    iexists _; iexact HL7
  isplitl [HP20 HP21 HP22]
  · iapply (Entails.of_eq (junk_whole (F := F) cc cc0_scratch7).symm)
    iapply (stP2_rows_join (F := F) cc)
    isplitl [HP20]
    · iexists _; iexact HP20
    isplitl [HP21]
    · iexists _; iexact HP21
    iexists _; iexact HP22
  isplitl [HL20 HL21 HL22]
  · iapply (Entails.of_eq (junk_whole (F := F) cc cc0_scratch8).symm)
    iapply (stL2_rows_join (F := F) cc)
    isplitl [HL20]
    · iexists _; iexact HL20
    isplitl [HL21]
    · iexists _; iexact HL21
    iexists _; iexact HL22
  isplitl [HX]
  · iexact HX
  isplitl [HU00 HU01 HU02 HU03 HU10 HU11 HU12 HU13 HU20 HU21 HU22 HU23 HU30 HU31 HU32 HU33 HU40 HU41 HU42 HU43 HU50 HU51 HU52 HU53 HU60 HU61 HU62 HU63 HU70 HU71 HU72 HU73]
  · iapply (out_join (F := F) cc (out m cc))
    isplitl [HU00]
    · iexact HU00
    isplitl [HU01]
    · iexact HU01
    isplitl [HU02]
    · iexact HU02
    isplitl [HU03]
    · iexact HU03
    isplitl [HU10]
    · iexact HU10
    isplitl [HU11]
    · iexact HU11
    isplitl [HU12]
    · iexact HU12
    isplitl [HU13]
    · iexact HU13
    isplitl [HU20]
    · iexact HU20
    isplitl [HU21]
    · iexact HU21
    isplitl [HU22]
    · iexact HU22
    isplitl [HU23]
    · iexact HU23
    isplitl [HU30]
    · iexact HU30
    isplitl [HU31]
    · iexact HU31
    isplitl [HU32]
    · iexact HU32
    isplitl [HU33]
    · iexact HU33
    isplitl [HU40]
    · iexact HU40
    isplitl [HU41]
    · iexact HU41
    isplitl [HU42]
    · iexact HU42
    isplitl [HU43]
    · iexact HU43
    isplitl [HU50]
    · iexact HU50
    isplitl [HU51]
    · iexact HU51
    isplitl [HU52]
    · iexact HU52
    isplitl [HU53]
    · iexact HU53
    isplitl [HU60]
    · iexact HU60
    isplitl [HU61]
    · iexact HU61
    isplitl [HU62]
    · iexact HU62
    isplitl [HU63]
    · iexact HU63
    isplitl [HU70]
    · iexact HU70
    isplitl [HU71]
    · iexact HU71
    isplitl [HU72]
    · iexact HU72
    iexact HU73
  isplitl [Hv0 Hv1 Hv2 Hv3 Hv4 Hv5 Hv6 Hv7 Hv8 Hv9 Hv10 Hv11 Hv12 Hv13 Hv14 Hv15 Hv16 Hv17 Hv18 Hv19 Hv20 Hv21 Hv22 Hv23 Hv24 Hv25 Hv26 Hv27 Hv28 Hv29 Hv30 Hv31 Hv32 Hv33 Hv34 Hv35 Hv36 Hv37 Hv38 Hv39 Hv40 Hv41 Hv42 Hv43 Hv44 Hv45 Hv46 Hv47 Hv48 Hv49 Hv50 Hv51 Hv52 Hv53 Hv54 Hv55 Hv56 Hv57 Hv58 Hv59 Hv60 Hv61 Hv62 Hv63 Hv64 Hv65 Hv66 Hv67 Hv68 Hv69 Hv70 Hv71 Hv72 Hv73 Hv74 Hv75 Hu76 Hu77 Hu78 Hv79 Hv80 Hv81 Hv82 Hv83 Hu84 Hu85 Hu86 Hv87 Hv88 Hv89 Hv90 Hv91 Hu92 Hu93 Hu94 Hv95 Hv96 Hv97 Hv98 Hv99 Hu100 Hu101 Hu102 Hv103 Hv104 Hv105 Hv106 Hv107 Hw0a Hw0b Hw0c Hw0d Hw1a Hw1b Hw1c Hw1d Hw2a Hw2b Hw2c Hw2d Hw3a Hw3b Hw3c Hw3d Hw4a Hw4b Hw4c Hw4d Hw5a Hw5b Hw5c Hw5d Hw6a Hw6b Hw6c Hw6d Hw7a Hw7b Hw7c Hw7d]
  · iapply (Entails.of_eq (show (iprop(semVal (cellAt cc (⟨0, Nat.le_of_ble_eq_true rfl⟩ : Fin 140)) 0 ∗ semVal (cellAt cc (⟨1, Nat.le_of_ble_eq_true rfl⟩ : Fin 140)) 0 ∗ semVal (cellAt cc (⟨2, Nat.le_of_ble_eq_true rfl⟩ : Fin 140)) 0 ∗ semVal (cellAt cc (⟨3, Nat.le_of_ble_eq_true rfl⟩ : Fin 140)) 0 ∗ semVal (cellAt cc (⟨4, Nat.le_of_ble_eq_true rfl⟩ : Fin 140)) 0 ∗ semVal (cellAt cc (⟨5, Nat.le_of_ble_eq_true rfl⟩ : Fin 140)) 0 ∗ semVal (cellAt cc (⟨6, Nat.le_of_ble_eq_true rfl⟩ : Fin 140)) 0 ∗ semVal (cellAt cc (⟨7, Nat.le_of_ble_eq_true rfl⟩ : Fin 140)) 0 ∗ semVal (cellAt cc (⟨8, Nat.le_of_ble_eq_true rfl⟩ : Fin 140)) 0 ∗ semVal (cellAt cc (⟨9, Nat.le_of_ble_eq_true rfl⟩ : Fin 140)) 0 ∗ semVal (cellAt cc (⟨10, Nat.le_of_ble_eq_true rfl⟩ : Fin 140)) 0 ∗ semVal (cellAt cc (⟨11, Nat.le_of_ble_eq_true rfl⟩ : Fin 140)) 0 ∗ semVal (cellAt cc (⟨12, Nat.le_of_ble_eq_true rfl⟩ : Fin 140)) 0 ∗ semVal (cellAt cc (⟨13, Nat.le_of_ble_eq_true rfl⟩ : Fin 140)) 0 ∗ semVal (cellAt cc (⟨14, Nat.le_of_ble_eq_true rfl⟩ : Fin 140)) 0 ∗ semVal (cellAt cc (⟨15, Nat.le_of_ble_eq_true rfl⟩ : Fin 140)) 0 ∗ semVal (cellAt cc (⟨16, Nat.le_of_ble_eq_true rfl⟩ : Fin 140)) 0 ∗ semVal (cellAt cc (⟨17, Nat.le_of_ble_eq_true rfl⟩ : Fin 140)) 0 ∗ semVal (cellAt cc (⟨18, Nat.le_of_ble_eq_true rfl⟩ : Fin 140)) 0 ∗ semVal (cellAt cc (⟨19, Nat.le_of_ble_eq_true rfl⟩ : Fin 140)) 0 ∗ semVal (cellAt cc (⟨20, Nat.le_of_ble_eq_true rfl⟩ : Fin 140)) 0 ∗ semVal (cellAt cc (⟨21, Nat.le_of_ble_eq_true rfl⟩ : Fin 140)) 0 ∗ semVal (cellAt cc (⟨22, Nat.le_of_ble_eq_true rfl⟩ : Fin 140)) 0 ∗ semVal (cellAt cc (⟨23, Nat.le_of_ble_eq_true rfl⟩ : Fin 140)) 0 ∗ semVal (cellAt cc (⟨24, Nat.le_of_ble_eq_true rfl⟩ : Fin 140)) 0 ∗ semVal (cellAt cc (⟨25, Nat.le_of_ble_eq_true rfl⟩ : Fin 140)) 0 ∗ semVal (cellAt cc (⟨26, Nat.le_of_ble_eq_true rfl⟩ : Fin 140)) 0 ∗ semVal (cellAt cc (⟨27, Nat.le_of_ble_eq_true rfl⟩ : Fin 140)) 0 ∗ semVal (cellAt cc (⟨28, Nat.le_of_ble_eq_true rfl⟩ : Fin 140)) 0 ∗ semVal (cellAt cc (⟨29, Nat.le_of_ble_eq_true rfl⟩ : Fin 140)) 0 ∗ semVal (cellAt cc (⟨30, Nat.le_of_ble_eq_true rfl⟩ : Fin 140)) 0 ∗ semVal (cellAt cc (⟨31, Nat.le_of_ble_eq_true rfl⟩ : Fin 140)) 0 ∗ semVal (cellAt cc (⟨32, Nat.le_of_ble_eq_true rfl⟩ : Fin 140)) 0 ∗ semVal (cellAt cc (⟨33, Nat.le_of_ble_eq_true rfl⟩ : Fin 140)) 0 ∗ semVal (cellAt cc (⟨34, Nat.le_of_ble_eq_true rfl⟩ : Fin 140)) 0 ∗ semVal (cellAt cc (⟨35, Nat.le_of_ble_eq_true rfl⟩ : Fin 140)) 0 ∗ semVal (cellAt cc (⟨36, Nat.le_of_ble_eq_true rfl⟩ : Fin 140)) 0 ∗ semVal (cellAt cc (⟨37, Nat.le_of_ble_eq_true rfl⟩ : Fin 140)) 0 ∗ semVal (cellAt cc (⟨38, Nat.le_of_ble_eq_true rfl⟩ : Fin 140)) 0 ∗ semVal (cellAt cc (⟨39, Nat.le_of_ble_eq_true rfl⟩ : Fin 140)) 0 ∗ semVal (cellAt cc (⟨40, Nat.le_of_ble_eq_true rfl⟩ : Fin 140)) 0 ∗ semVal (cellAt cc (⟨41, Nat.le_of_ble_eq_true rfl⟩ : Fin 140)) 0 ∗ semVal (cellAt cc (⟨42, Nat.le_of_ble_eq_true rfl⟩ : Fin 140)) 0 ∗ semVal (cellAt cc (⟨43, Nat.le_of_ble_eq_true rfl⟩ : Fin 140)) 0 ∗ semVal (cellAt cc (⟨44, Nat.le_of_ble_eq_true rfl⟩ : Fin 140)) 0 ∗ semVal (cellAt cc (⟨45, Nat.le_of_ble_eq_true rfl⟩ : Fin 140)) 0 ∗ semVal (cellAt cc (⟨46, Nat.le_of_ble_eq_true rfl⟩ : Fin 140)) 0 ∗ semVal (cellAt cc (⟨47, Nat.le_of_ble_eq_true rfl⟩ : Fin 140)) 0 ∗ semVal (cellAt cc (⟨48, Nat.le_of_ble_eq_true rfl⟩ : Fin 140)) 0 ∗ semVal (cellAt cc (⟨49, Nat.le_of_ble_eq_true rfl⟩ : Fin 140)) 0 ∗ semVal (cellAt cc (⟨50, Nat.le_of_ble_eq_true rfl⟩ : Fin 140)) 0 ∗ semVal (cellAt cc (⟨51, Nat.le_of_ble_eq_true rfl⟩ : Fin 140)) 0 ∗ semVal (cellAt cc (⟨52, Nat.le_of_ble_eq_true rfl⟩ : Fin 140)) 0 ∗ semVal (cellAt cc (⟨53, Nat.le_of_ble_eq_true rfl⟩ : Fin 140)) 0 ∗ semVal (cellAt cc (⟨54, Nat.le_of_ble_eq_true rfl⟩ : Fin 140)) 0 ∗ semVal (cellAt cc (⟨55, Nat.le_of_ble_eq_true rfl⟩ : Fin 140)) 0 ∗ semVal (cellAt cc (⟨56, Nat.le_of_ble_eq_true rfl⟩ : Fin 140)) 0 ∗ semVal (cellAt cc (⟨57, Nat.le_of_ble_eq_true rfl⟩ : Fin 140)) 0 ∗ semVal (cellAt cc (⟨58, Nat.le_of_ble_eq_true rfl⟩ : Fin 140)) 0 ∗ semVal (cellAt cc (⟨59, Nat.le_of_ble_eq_true rfl⟩ : Fin 140)) 0 ∗ semVal (cellAt cc (⟨60, Nat.le_of_ble_eq_true rfl⟩ : Fin 140)) 0 ∗ semVal (cellAt cc (⟨61, Nat.le_of_ble_eq_true rfl⟩ : Fin 140)) 0 ∗ semVal (cellAt cc (⟨62, Nat.le_of_ble_eq_true rfl⟩ : Fin 140)) 0 ∗ semVal (cellAt cc (⟨63, Nat.le_of_ble_eq_true rfl⟩ : Fin 140)) 0 ∗ semVal (cellAt cc (⟨64, Nat.le_of_ble_eq_true rfl⟩ : Fin 140)) 0 ∗ semVal (cellAt cc (⟨65, Nat.le_of_ble_eq_true rfl⟩ : Fin 140)) 0 ∗ semVal (cellAt cc (⟨66, Nat.le_of_ble_eq_true rfl⟩ : Fin 140)) 0 ∗ semVal (cellAt cc (⟨67, Nat.le_of_ble_eq_true rfl⟩ : Fin 140)) 0 ∗ semVal (cellAt cc (⟨68, Nat.le_of_ble_eq_true rfl⟩ : Fin 140)) 0 ∗ semVal (cellAt cc (⟨69, Nat.le_of_ble_eq_true rfl⟩ : Fin 140)) 0 ∗ semVal (cellAt cc (⟨70, Nat.le_of_ble_eq_true rfl⟩ : Fin 140)) 0 ∗ semVal (cellAt cc (⟨71, Nat.le_of_ble_eq_true rfl⟩ : Fin 140)) 0 ∗ semVal (cellAt cc (⟨72, Nat.le_of_ble_eq_true rfl⟩ : Fin 140)) 0 ∗ semVal (cellAt cc (⟨73, Nat.le_of_ble_eq_true rfl⟩ : Fin 140)) 0 ∗ semVal (cellAt cc (⟨74, Nat.le_of_ble_eq_true rfl⟩ : Fin 140)) 0 ∗ semVal (cellAt cc (⟨75, Nat.le_of_ble_eq_true rfl⟩ : Fin 140)) 0 ∗ semVal (cellAt cc (⟨76, Nat.le_of_ble_eq_true rfl⟩ : Fin 140)) 0 ∗ semVal (cellAt cc (⟨77, Nat.le_of_ble_eq_true rfl⟩ : Fin 140)) 0 ∗ semVal (cellAt cc (⟨78, Nat.le_of_ble_eq_true rfl⟩ : Fin 140)) 0 ∗ semVal (cellAt cc (⟨79, Nat.le_of_ble_eq_true rfl⟩ : Fin 140)) 0 ∗ semVal (cellAt cc (⟨80, Nat.le_of_ble_eq_true rfl⟩ : Fin 140)) 0 ∗ semVal (cellAt cc (⟨81, Nat.le_of_ble_eq_true rfl⟩ : Fin 140)) 0 ∗ semVal (cellAt cc (⟨82, Nat.le_of_ble_eq_true rfl⟩ : Fin 140)) 0 ∗ semVal (cellAt cc (⟨83, Nat.le_of_ble_eq_true rfl⟩ : Fin 140)) 0 ∗ semVal (cellAt cc (⟨84, Nat.le_of_ble_eq_true rfl⟩ : Fin 140)) 0 ∗ semVal (cellAt cc (⟨85, Nat.le_of_ble_eq_true rfl⟩ : Fin 140)) 0 ∗ semVal (cellAt cc (⟨86, Nat.le_of_ble_eq_true rfl⟩ : Fin 140)) 0 ∗ semVal (cellAt cc (⟨87, Nat.le_of_ble_eq_true rfl⟩ : Fin 140)) 0 ∗ semVal (cellAt cc (⟨88, Nat.le_of_ble_eq_true rfl⟩ : Fin 140)) 0 ∗ semVal (cellAt cc (⟨89, Nat.le_of_ble_eq_true rfl⟩ : Fin 140)) 0 ∗ semVal (cellAt cc (⟨90, Nat.le_of_ble_eq_true rfl⟩ : Fin 140)) 0 ∗ semVal (cellAt cc (⟨91, Nat.le_of_ble_eq_true rfl⟩ : Fin 140)) 0 ∗ semVal (cellAt cc (⟨92, Nat.le_of_ble_eq_true rfl⟩ : Fin 140)) 0 ∗ semVal (cellAt cc (⟨93, Nat.le_of_ble_eq_true rfl⟩ : Fin 140)) 0 ∗ semVal (cellAt cc (⟨94, Nat.le_of_ble_eq_true rfl⟩ : Fin 140)) 0 ∗ semVal (cellAt cc (⟨95, Nat.le_of_ble_eq_true rfl⟩ : Fin 140)) 0 ∗ semVal (cellAt cc (⟨96, Nat.le_of_ble_eq_true rfl⟩ : Fin 140)) 0 ∗ semVal (cellAt cc (⟨97, Nat.le_of_ble_eq_true rfl⟩ : Fin 140)) 0 ∗ semVal (cellAt cc (⟨98, Nat.le_of_ble_eq_true rfl⟩ : Fin 140)) 0 ∗ semVal (cellAt cc (⟨99, Nat.le_of_ble_eq_true rfl⟩ : Fin 140)) 0 ∗ semVal (cellAt cc (⟨100, Nat.le_of_ble_eq_true rfl⟩ : Fin 140)) 0 ∗ semVal (cellAt cc (⟨101, Nat.le_of_ble_eq_true rfl⟩ : Fin 140)) 0 ∗ semVal (cellAt cc (⟨102, Nat.le_of_ble_eq_true rfl⟩ : Fin 140)) 0 ∗ semVal (cellAt cc (⟨103, Nat.le_of_ble_eq_true rfl⟩ : Fin 140)) 0 ∗ semVal (cellAt cc (⟨104, Nat.le_of_ble_eq_true rfl⟩ : Fin 140)) 0 ∗ semVal (cellAt cc (⟨105, Nat.le_of_ble_eq_true rfl⟩ : Fin 140)) 0 ∗ semVal (cellAt cc (⟨106, Nat.le_of_ble_eq_true rfl⟩ : Fin 140)) 0 ∗ semVal (cellAt cc (⟨107, Nat.le_of_ble_eq_true rfl⟩ : Fin 140)) 0 ∗ semVal (cellAt cc (⟨108, Nat.le_of_ble_eq_true rfl⟩ : Fin 140)) 0 ∗ semVal (cellAt cc (⟨109, Nat.le_of_ble_eq_true rfl⟩ : Fin 140)) 0 ∗ semVal (cellAt cc (⟨110, Nat.le_of_ble_eq_true rfl⟩ : Fin 140)) 0 ∗ semVal (cellAt cc (⟨111, Nat.le_of_ble_eq_true rfl⟩ : Fin 140)) 0 ∗ semVal (cellAt cc (⟨112, Nat.le_of_ble_eq_true rfl⟩ : Fin 140)) 0 ∗ semVal (cellAt cc (⟨113, Nat.le_of_ble_eq_true rfl⟩ : Fin 140)) 0 ∗ semVal (cellAt cc (⟨114, Nat.le_of_ble_eq_true rfl⟩ : Fin 140)) 0 ∗ semVal (cellAt cc (⟨115, Nat.le_of_ble_eq_true rfl⟩ : Fin 140)) 0 ∗ semVal (cellAt cc (⟨116, Nat.le_of_ble_eq_true rfl⟩ : Fin 140)) 0 ∗ semVal (cellAt cc (⟨117, Nat.le_of_ble_eq_true rfl⟩ : Fin 140)) 0 ∗ semVal (cellAt cc (⟨118, Nat.le_of_ble_eq_true rfl⟩ : Fin 140)) 0 ∗ semVal (cellAt cc (⟨119, Nat.le_of_ble_eq_true rfl⟩ : Fin 140)) 0 ∗ semVal (cellAt cc (⟨120, Nat.le_of_ble_eq_true rfl⟩ : Fin 140)) 0 ∗ semVal (cellAt cc (⟨121, Nat.le_of_ble_eq_true rfl⟩ : Fin 140)) 0 ∗ semVal (cellAt cc (⟨122, Nat.le_of_ble_eq_true rfl⟩ : Fin 140)) 0 ∗ semVal (cellAt cc (⟨123, Nat.le_of_ble_eq_true rfl⟩ : Fin 140)) 0 ∗ semVal (cellAt cc (⟨124, Nat.le_of_ble_eq_true rfl⟩ : Fin 140)) 0 ∗ semVal (cellAt cc (⟨125, Nat.le_of_ble_eq_true rfl⟩ : Fin 140)) 0 ∗ semVal (cellAt cc (⟨126, Nat.le_of_ble_eq_true rfl⟩ : Fin 140)) 0 ∗ semVal (cellAt cc (⟨127, Nat.le_of_ble_eq_true rfl⟩ : Fin 140)) 0 ∗ semVal (cellAt cc (⟨128, Nat.le_of_ble_eq_true rfl⟩ : Fin 140)) 0 ∗ semVal (cellAt cc (⟨129, Nat.le_of_ble_eq_true rfl⟩ : Fin 140)) 0 ∗ semVal (cellAt cc (⟨130, Nat.le_of_ble_eq_true rfl⟩ : Fin 140)) 0 ∗ semVal (cellAt cc (⟨131, Nat.le_of_ble_eq_true rfl⟩ : Fin 140)) 0 ∗ semVal (cellAt cc (⟨132, Nat.le_of_ble_eq_true rfl⟩ : Fin 140)) 0 ∗ semVal (cellAt cc (⟨133, Nat.le_of_ble_eq_true rfl⟩ : Fin 140)) 0 ∗ semVal (cellAt cc (⟨134, Nat.le_of_ble_eq_true rfl⟩ : Fin 140)) 0 ∗ semVal (cellAt cc (⟨135, Nat.le_of_ble_eq_true rfl⟩ : Fin 140)) 0 ∗ semVal (cellAt cc (⟨136, Nat.le_of_ble_eq_true rfl⟩ : Fin 140)) 0 ∗ semVal (cellAt cc (⟨137, Nat.le_of_ble_eq_true rfl⟩ : Fin 140)) 0 ∗ semVal (cellAt cc (⟨138, Nat.le_of_ble_eq_true rfl⟩ : Fin 140)) 0 ∗ semVal (cellAt cc (⟨139, Nat.le_of_ble_eq_true rfl⟩ : Fin 140)) 0) : sProp 𝕄) = (bigSepL allJ fun j => semVal (cellAt cc j) 0) from rfl))
    isplitl [Hv0]
    · iexact Hv0
    isplitl [Hv1]
    · iexact Hv1
    isplitl [Hv2]
    · iexact Hv2
    isplitl [Hv3]
    · iexact Hv3
    isplitl [Hv4]
    · iexact Hv4
    isplitl [Hv5]
    · iexact Hv5
    isplitl [Hv6]
    · iexact Hv6
    isplitl [Hv7]
    · iexact Hv7
    isplitl [Hv8]
    · iexact Hv8
    isplitl [Hv9]
    · iexact Hv9
    isplitl [Hv10]
    · iexact Hv10
    isplitl [Hv11]
    · iexact Hv11
    isplitl [Hv12]
    · iexact Hv12
    isplitl [Hv13]
    · iexact Hv13
    isplitl [Hv14]
    · iexact Hv14
    isplitl [Hv15]
    · iexact Hv15
    isplitl [Hv16]
    · iexact Hv16
    isplitl [Hv17]
    · iexact Hv17
    isplitl [Hv18]
    · iexact Hv18
    isplitl [Hv19]
    · iexact Hv19
    isplitl [Hv20]
    · iexact Hv20
    isplitl [Hv21]
    · iexact Hv21
    isplitl [Hv22]
    · iexact Hv22
    isplitl [Hv23]
    · iexact Hv23
    isplitl [Hv24]
    · iexact Hv24
    isplitl [Hv25]
    · iexact Hv25
    isplitl [Hv26]
    · iexact Hv26
    isplitl [Hv27]
    · iexact Hv27
    isplitl [Hv28]
    · iexact Hv28
    isplitl [Hv29]
    · iexact Hv29
    isplitl [Hv30]
    · iexact Hv30
    isplitl [Hv31]
    · iexact Hv31
    isplitl [Hv32]
    · iexact Hv32
    isplitl [Hv33]
    · iexact Hv33
    isplitl [Hv34]
    · iexact Hv34
    isplitl [Hv35]
    · iexact Hv35
    isplitl [Hv36]
    · iexact Hv36
    isplitl [Hv37]
    · iexact Hv37
    isplitl [Hv38]
    · iexact Hv38
    isplitl [Hv39]
    · iexact Hv39
    isplitl [Hv40]
    · iexact Hv40
    isplitl [Hv41]
    · iexact Hv41
    isplitl [Hv42]
    · iexact Hv42
    isplitl [Hv43]
    · iexact Hv43
    isplitl [Hv44]
    · iexact Hv44
    isplitl [Hv45]
    · iexact Hv45
    isplitl [Hv46]
    · iexact Hv46
    isplitl [Hv47]
    · iexact Hv47
    isplitl [Hv48]
    · iexact Hv48
    isplitl [Hv49]
    · iexact Hv49
    isplitl [Hv50]
    · iexact Hv50
    isplitl [Hv51]
    · iexact Hv51
    isplitl [Hv52]
    · iexact Hv52
    isplitl [Hv53]
    · iexact Hv53
    isplitl [Hv54]
    · iexact Hv54
    isplitl [Hv55]
    · iexact Hv55
    isplitl [Hv56]
    · iexact Hv56
    isplitl [Hv57]
    · iexact Hv57
    isplitl [Hv58]
    · iexact Hv58
    isplitl [Hv59]
    · iexact Hv59
    isplitl [Hv60]
    · iexact Hv60
    isplitl [Hv61]
    · iexact Hv61
    isplitl [Hv62]
    · iexact Hv62
    isplitl [Hv63]
    · iexact Hv63
    isplitl [Hv64]
    · iexact Hv64
    isplitl [Hv65]
    · iexact Hv65
    isplitl [Hv66]
    · iexact Hv66
    isplitl [Hv67]
    · iexact Hv67
    isplitl [Hv68]
    · iexact Hv68
    isplitl [Hv69]
    · iexact Hv69
    isplitl [Hv70]
    · iexact Hv70
    isplitl [Hv71]
    · iexact Hv71
    isplitl [Hv72]
    · iexact Hv72
    isplitl [Hv73]
    · iexact Hv73
    isplitl [Hv74]
    · iexact Hv74
    isplitl [Hv75]
    · iexact Hv75
    isplitl [Hu76]
    · iexact Hu76
    isplitl [Hu77]
    · iexact Hu77
    isplitl [Hu78]
    · iexact Hu78
    isplitl [Hv79]
    · iexact Hv79
    isplitl [Hv80]
    · iexact Hv80
    isplitl [Hv81]
    · iexact Hv81
    isplitl [Hv82]
    · iexact Hv82
    isplitl [Hv83]
    · iexact Hv83
    isplitl [Hu84]
    · iexact Hu84
    isplitl [Hu85]
    · iexact Hu85
    isplitl [Hu86]
    · iexact Hu86
    isplitl [Hv87]
    · iexact Hv87
    isplitl [Hv88]
    · iexact Hv88
    isplitl [Hv89]
    · iexact Hv89
    isplitl [Hv90]
    · iexact Hv90
    isplitl [Hv91]
    · iexact Hv91
    isplitl [Hu92]
    · iexact Hu92
    isplitl [Hu93]
    · iexact Hu93
    isplitl [Hu94]
    · iexact Hu94
    isplitl [Hv95]
    · iexact Hv95
    isplitl [Hv96]
    · iexact Hv96
    isplitl [Hv97]
    · iexact Hv97
    isplitl [Hv98]
    · iexact Hv98
    isplitl [Hv99]
    · iexact Hv99
    isplitl [Hu100]
    · iexact Hu100
    isplitl [Hu101]
    · iexact Hu101
    isplitl [Hu102]
    · iexact Hu102
    isplitl [Hv103]
    · iexact Hv103
    isplitl [Hv104]
    · iexact Hv104
    isplitl [Hv105]
    · iexact Hv105
    isplitl [Hv106]
    · iexact Hv106
    isplitl [Hv107]
    · iexact Hv107
    isplitl [Hw0a]
    · iexact Hw0a
    isplitl [Hw0b]
    · iexact Hw0b
    isplitl [Hw0c]
    · iexact Hw0c
    isplitl [Hw0d]
    · iexact Hw0d
    isplitl [Hw1a]
    · iexact Hw1a
    isplitl [Hw1b]
    · iexact Hw1b
    isplitl [Hw1c]
    · iexact Hw1c
    isplitl [Hw1d]
    · iexact Hw1d
    isplitl [Hw2a]
    · iexact Hw2a
    isplitl [Hw2b]
    · iexact Hw2b
    isplitl [Hw2c]
    · iexact Hw2c
    isplitl [Hw2d]
    · iexact Hw2d
    isplitl [Hw3a]
    · iexact Hw3a
    isplitl [Hw3b]
    · iexact Hw3b
    isplitl [Hw3c]
    · iexact Hw3c
    isplitl [Hw3d]
    · iexact Hw3d
    isplitl [Hw4a]
    · iexact Hw4a
    isplitl [Hw4b]
    · iexact Hw4b
    isplitl [Hw4c]
    · iexact Hw4c
    isplitl [Hw4d]
    · iexact Hw4d
    isplitl [Hw5a]
    · iexact Hw5a
    isplitl [Hw5b]
    · iexact Hw5b
    isplitl [Hw5c]
    · iexact Hw5c
    isplitl [Hw5d]
    · iexact Hw5d
    isplitl [Hw6a]
    · iexact Hw6a
    isplitl [Hw6b]
    · iexact Hw6b
    isplitl [Hw6c]
    · iexact Hw6c
    isplitl [Hw6d]
    · iexact Hw6d
    isplitl [Hw7a]
    · iexact Hw7a
    isplitl [Hw7b]
    · iexact Hw7b
    isplitl [Hw7c]
    · iexact Hw7c
    iexact Hw7d
  iexists _; iexact HO

end Cert.Kernel.RS.D0

end
-- ==== Proof.K.Body1.lean ====
import proofs.«901022_g7700000000001023_dist_rs_v7x_xyz2x2x2_x_m4096_n1024_bf16_1_alg».proof.Proof.K.BodyAux
import proofs.«901022_g7700000000001023_dist_rs_v7x_xyz2x2x2_x_m4096_n1024_bf16_1_alg».proof.Proof.K.BodyPre
import proofs.«901022_g7700000000001023_dist_rs_v7x_xyz2x2x2_x_m4096_n1024_bf16_1_alg».proof.Proof.K.OutRules

/-! The body of the kernel on device 1 of the mesh, from its precondition (BodyPre) to its postcondition (bodyPost).

    The program is straight-line code of 4045 statements. Its local steps — the 54 copies between the input, the staging
    buffers, the four-quarter buffer and the result, their waits, the loads and the stores — are run by the library's symbolic
    executor on hypotheses that hold each 512-row chunk through the slice the program itself names. Its remote steps are
    taken by the rounds library's rules, one application each: three barrier signals and the wait for the three
    neighbours; 37 copies to a neighbour, each lending the source chunk (at a share, where the chunk is also read by another
    copy) and landing the chunk's final contents; the waits on the 37 receive cells, which hand back the landed chunks; the
    final waits on the 37 send cells, which hand back what was lent. Whenever a chunk has been written (by a landing copy or
    by a store) it is restated as "holds its final contents" (Spec), which is what the next copy's payload asks for.
    A wait is allowed because whatever the device still owes at that point lies above the awaited cell (Owed): decided on the
    list of payments not yet made. At the end every cell has had its one round and is closed, and the pieces of every
    buffer are put back. -/

set_option maxRecDepth 8000

noncomputable section

namespace Cert.Kernel.RS.D1

open Cert.Kernel Cert.Kernel.Gen Cert.Kernel.RS
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local notation "cc" => (Fin.mk 1 (Nat.le_of_ble_eq_true rfl) : Dev nD)

set_option maxHeartbeats 1600000 in
theorem dev (m : (ℓ : Loc nD τ sig) → Buf (Elt F) ℓ) (K : GSem nD τ sig → ℕ) (W : Waits sig Unit) (Kt : PUnit → sProp 𝕄) :
    iprop(bodyPre m K cc W ∗ (bodyPost m cc -∗ Kt ⟨⟩))
      ⊢ wp frame (wpE (defs₀ (F := F)) 𝒱₀ (cc : Thread nD τ) none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25) Kt := by
  unfold bodyPre O₀
  iintro ⟨⟨HIt, HIw, HRt, #Hlev, HO, Hcr, HpR, HpS, Htk, HX, Hout, HS0, HS1, HS2, HS3, HS4, HS5, HS6, HS7, HS8, HvI, HvO, HvU⟩, Hk⟩
  rw [cc0_body_eq_skeleton]; unfold cc0_body_skel
  -- the four-quarter buffer in the pieces that travel
  ihave H0 := (Entails.of_eq (junk_whole (F := F) cc cc0_scratch0)) $$ HS0
  icases H0 with ⟨%f0, H0⟩
  ihave H4 := (r4_entry (F := F) cc f0) $$ H0
  icases H4 with ⟨Hown, HgZ, HgY, Hdg, HhZ, HhY⟩
  sl_exec

  icases Htk with ⟨Htb, Htk⟩
  icases HIt with ⟨#HIbpx, HIt⟩
  icases HRt with ⟨#HRbpx, HRt⟩
  iapply (sig_bar m cc _ (px cc) (dev1_eq cc) 0 (by decide) (owedL (List.drop 1 (paysL cc))) rfl) $$ [HO Htb HS2 HS4]
  · isplitr; · iexact HIbpx
    isplitl [HO]; · iexact HO
    isplitl [Htb]; · iexact Htb
    isplitl [HS2 HS4]
    · iapply (Entails.of_eq ((barPay_zero (F := F) (px cc)).trans (by rw [px_px])).symm)
      unfold giveX
      isplitl [HS2]; · iexact HS2
      iexact HS4
    · iexact HRbpx
  iintro HO
  sl_exec

  icases Htk with ⟨Htb, Htk⟩
  icases HIt with ⟨#HIbpz, HIt⟩
  icases HRt with ⟨#HRbpz, HRt⟩
  iapply (sig_bar m cc _ (pz cc) (dev2_eq cc) 2 (by decide) (owedL (List.drop 2 (paysL cc))) rfl) $$ [HO Htb HgZ HhZ]
  · isplitr; · iexact HIbpz
    isplitl [HO]; · iexact HO
    isplitl [Htb]; · iexact Htb
    isplitl [HgZ HhZ]
    · iapply (Entails.of_eq ((barPay_two (F := F) (pz cc)).trans (by rw [pz_pz])).symm)
      isplitl [HgZ]; · iexact HgZ
      iexact HhZ
    · iexact HRbpz
  iintro HO
  sl_exec

  icases Htk with ⟨Htb, Htk⟩
  icases HIt with ⟨#HIbpy, HIt⟩
  icases HRt with ⟨#HRbpy, HRt⟩
  iapply (sig_bar m cc _ (py cc) (dev3_eq cc) 1 (by decide) (owedL (List.drop 3 (paysL cc))) rfl) $$ [HO Htb HgY HhY]
  · isplitr; · iexact HIbpy
    isplitl [HO]; · iexact HO
    isplitl [Htb]; · iexact Htb
    isplitl [HgY HhY]
    · iapply (Entails.of_eq ((barPay_one (F := F) (py cc)).trans (by rw [py_py])).symm)
      isplitl [HgY]; · iexact HgY
      iexact HhY
    · iexact HRbpy
  iintro HO
  sl_exec
  -- the wait for the three neighbours
  icases Hcr with ⟨Hcb, Hcr⟩
  icases HpR with ⟨Hpb, HpR⟩
  icases HIw with ⟨#HIb, HIw⟩
  ihave Hmw := (mayWait_list (F := F) cc (.reg barS) (List.drop 3 (paysL cc)) (by decide)) $$ Hlev
  iapply (wait_bar m cc (by decide)) $$ [Hcb HO Hmw Hpb]
  · isplitr; · iexact HIb
    isplitl [Hcb]; · iexact Hcb
    isplitl [HO]; · iexact HO
    isplitl [Hmw]; · iexact Hmw
    iexact Hpb
  iintro ⟨HO, Hpb, -, Hgx, Hgy, Hgz⟩
  -- what they handed over: the x-neighbour's landing buffers chunk by chunk, the y- and z-neighbours' quarter and halves
  ihave Hgx := (Entails.of_eq (barPay_zero (F := F) cc)) $$ Hgx
  ihave Hgx := (giveX_rows (F := F) (px cc)) $$ Hgx
  icases Hgx with ⟨Hrbp, Hrb2p⟩
  ihave Hgy := (Entails.of_eq (barPay_one (F := F) cc)) $$ Hgy
  icases Hgy with ⟨HqY, HhYp⟩
  ihave Hgz := (Entails.of_eq (barPay_two (F := F) cc)) $$ Hgz
  icases Hgz with ⟨HqZ, HhZp⟩
  -- this device's staging buffers and send buffers chunk by chunk
  ihave H5 := (Entails.of_eq (junk_whole (F := F) cc cc0_scratch5)) $$ HS5
  icases H5 with ⟨%f5, H5⟩
  ihave H5 := (Entails.of_eq (stP_rows (F := F) cc fullShare f5)) $$ H5
  icases H5 with ⟨HP0, HP1, HP2, HP3, HP4, HP5, HP6, HP7⟩
  ihave H6 := (Entails.of_eq (junk_whole (F := F) cc cc0_scratch6)) $$ HS6
  icases H6 with ⟨%f6, H6⟩
  ihave H6 := (Entails.of_eq (stL_rows (F := F) cc fullShare f6)) $$ H6
  icases H6 with ⟨HL0, HL1, HL2, HL3, HL4, HL5, HL6, HL7⟩
  ihave H7 := (Entails.of_eq (junk_whole (F := F) cc cc0_scratch7)) $$ HS7
  icases H7 with ⟨%f7, H7⟩
  ihave H7 := (Entails.of_eq (stP2_rows (F := F) cc fullShare f7)) $$ H7
  icases H7 with ⟨HP20, HP21, HP22⟩
  ihave H8 := (Entails.of_eq (junk_whole (F := F) cc cc0_scratch8)) $$ HS8
  icases H8 with ⟨%f8, H8⟩
  ihave H8 := (Entails.of_eq (stL2_rows (F := F) cc fullShare f8)) $$ H8
  icases H8 with ⟨HL20, HL21, HL22⟩
  ihave H1 := (Entails.of_eq (junk_whole (F := F) cc cc0_scratch1)) $$ HS1
  icases H1 with ⟨%f1, H1⟩
  ihave H1 := (Entails.of_eq (sb_rows (F := F) cc fullShare f1)) $$ H1
  icases H1 with ⟨HB0, HB1, HB2, HB3, HB4, HB5, HB6, HB7⟩
  ihave H3 := (Entails.of_eq (junk_whole (F := F) cc cc0_scratch3)) $$ HS3
  icases H3 with ⟨%f3, H3⟩
  ihave H3 := (Entails.of_eq (sb2_rows (F := F) cc fullShare f3)) $$ H3
  icases H3 with ⟨HB20, HB21, HB22⟩
  -- the counters of the 22 copies into the staging buffers
  icases HvI with ⟨Hv0, Hv8, Hv1, Hv9, Hv2, Hv10, Hv3, Hv11, Hv4, Hv12, Hv5, Hv13, Hv6, Hv14, Hv7, Hv15, Hv16, Hv19, Hv17, Hv20, Hv18, Hv21⟩
  sl_exec
  -- chunk 0 across x: wait for its copy into the staging buffer, round it into the send buffer, send it
  have hled3 : ∀ (s : DmaSem sig), lvJ s.val = 0 → ((levAts LL lvv : sProp 𝕄) ⊢ MayWait (cc : Thread nD τ) (.dma s) () (owedL (List.drop 3 (paysL cc)))) :=
    fun s hs => mayWait_local (F := F) cc s hs _ (by decide)
  sl_exec
  clear hled3
  ihave HB0 := (congr (F := F) (sbR 0) cc fullShare (dev.sl.HB0_w1 m f1) (sb m cc) (fun i hi => glue_sb m cc 0 _ (k0_off1_inb cc) (k0_off1_eq cc) f1 i hi)) $$ HB0
  -- the copy
  icases Htk with ⟨Hts, Htr, Htk⟩
  icases HIt with ⟨#HIc22, #HIr, HIt⟩
  icases HRt with ⟨#HRs, #HRr, HRt⟩
  icases Hrbp with ⟨⟨%fd, Hd⟩, Hrbp⟩
  iapply (send_x m cc _ (dev4_eq cc) 0 fd (owedL (List.drop 4 (paysL cc))) rfl _) $$ [HB0 Hd HO Hts Htr]
  · isplitr; · iexact HIc22
    isplitr; · iexact HIr
    isplitl [HB0]; · iexact HB0
    isplitl [Hd]; · iexact Hd
    isplitl [HO]; · iexact HO
    isplitl [Hts]; · iexact Hts
    isplitr; · iexact HRs
    isplitl [Htr]; · iexact Htr
    iexact HRr
  iintro ⟨Hcxs0, HO⟩
  iclear HIr HRs HRr
  -- chunk 1 across x: wait for its copy into the staging buffer, round it into the send buffer, send it
  have hled4 : ∀ (s : DmaSem sig), lvJ s.val = 0 → ((levAts LL lvv : sProp 𝕄) ⊢ MayWait (cc : Thread nD τ) (.dma s) () (owedL (List.drop 4 (paysL cc)))) :=
    fun s hs => mayWait_local (F := F) cc s hs _ (by decide)
  sl_exec
  clear hled4
  ihave HB1 := (congr (F := F) (sbR 1) cc fullShare (dev.sl.HB1_w1 m f1) (sb m cc) (fun i hi => glue_sb m cc 1 _ (k0_off3_inb cc) (k0_off3_eq cc) f1 i hi)) $$ HB1
  -- the copy
  icases Htk with ⟨Hts, Htr, Htk⟩
  icases HIt with ⟨#HIc23, #HIr, HIt⟩
  icases HRt with ⟨#HRs, #HRr, HRt⟩
  icases Hrbp with ⟨⟨%fd, Hd⟩, Hrbp⟩
  iapply (send_x m cc _ (dev5_eq cc) 1 fd (owedL (List.drop 5 (paysL cc))) rfl _) $$ [HB1 Hd HO Hts Htr]
  · isplitr; · iexact HIc23
    isplitr; · iexact HIr
    isplitl [HB1]; · iexact HB1
    isplitl [Hd]; · iexact Hd
    isplitl [HO]; · iexact HO
    isplitl [Hts]; · iexact Hts
    isplitr; · iexact HRs
    isplitl [Htr]; · iexact Htr
    iexact HRr
  iintro ⟨Hcxs1, HO⟩
  iclear HIr HRs HRr
  -- chunk 2 across x: wait for its copy into the staging buffer, round it into the send buffer, send it
  have hled5 : ∀ (s : DmaSem sig), lvJ s.val = 0 → ((levAts LL lvv : sProp 𝕄) ⊢ MayWait (cc : Thread nD τ) (.dma s) () (owedL (List.drop 5 (paysL cc)))) :=
    fun s hs => mayWait_local (F := F) cc s hs _ (by decide)
  sl_exec
  clear hled5
  ihave HB2 := (congr (F := F) (sbR 2) cc fullShare (dev.sl.HB2_w1 m f1) (sb m cc) (fun i hi => glue_sb m cc 2 _ (k0_off5_inb cc) (k0_off5_eq cc) f1 i hi)) $$ HB2
  -- the copy
  icases Htk with ⟨Hts, Htr, Htk⟩
  icases HIt with ⟨#HIc24, #HIr, HIt⟩
  icases HRt with ⟨#HRs, #HRr, HRt⟩
  icases Hrbp with ⟨⟨%fd, Hd⟩, Hrbp⟩
  iapply (send_x m cc _ (dev6_eq cc) 2 fd (owedL (List.drop 6 (paysL cc))) rfl _) $$ [HB2 Hd HO Hts Htr]
  · isplitr; · iexact HIc24
    isplitr; · iexact HIr
    isplitl [HB2]; · iexact HB2
    isplitl [Hd]; · iexact Hd
    isplitl [HO]; · iexact HO
    isplitl [Hts]; · iexact Hts
    isplitr; · iexact HRs
    isplitl [Htr]; · iexact Htr
    iexact HRr
  iintro ⟨Hcxs2, HO⟩
  iclear HIr HRs HRr
  -- chunk 3 across x: wait for its copy into the staging buffer, round it into the send buffer, send it
  have hled6 : ∀ (s : DmaSem sig), lvJ s.val = 0 → ((levAts LL lvv : sProp 𝕄) ⊢ MayWait (cc : Thread nD τ) (.dma s) () (owedL (List.drop 6 (paysL cc)))) :=
    fun s hs => mayWait_local (F := F) cc s hs _ (by decide)
  sl_exec
  clear hled6
  ihave HB3 := (congr (F := F) (sbR 3) cc fullShare (dev.sl.HB3_w1 m f1) (sb m cc) (fun i hi => glue_sb m cc 3 _ (k0_off7_inb cc) (k0_off7_eq cc) f1 i hi)) $$ HB3
  -- the copy
  icases Htk with ⟨Hts, Htr, Htk⟩
  icases HIt with ⟨#HIc25, #HIr, HIt⟩
  icases HRt with ⟨#HRs, #HRr, HRt⟩
  icases Hrbp with ⟨⟨%fd, Hd⟩, Hrbp⟩
  iapply (send_x m cc _ (dev7_eq cc) 3 fd (owedL (List.drop 7 (paysL cc))) rfl _) $$ [HB3 Hd HO Hts Htr]
  · isplitr; · iexact HIc25
    isplitr; · iexact HIr
    isplitl [HB3]; · iexact HB3
    isplitl [Hd]; · iexact Hd
    isplitl [HO]; · iexact HO
    isplitl [Hts]; · iexact Hts
    isplitr; · iexact HRs
    isplitl [Htr]; · iexact Htr
    iexact HRr
  iintro ⟨Hcxs3, HO⟩
  iclear HIr HRs HRr
  -- chunk 4 across x: wait for its copy into the staging buffer, round it into the send buffer, send it
  have hled7 : ∀ (s : DmaSem sig), lvJ s.val = 0 → ((levAts LL lvv : sProp 𝕄) ⊢ MayWait (cc : Thread nD τ) (.dma s) () (owedL (List.drop 7 (paysL cc)))) :=
    fun s hs => mayWait_local (F := F) cc s hs _ (by decide)
  sl_exec
  clear hled7
  ihave HB4 := (congr (F := F) (sbR 4) cc fullShare (dev.sl.HB4_w1 m f1) (sb m cc) (fun i hi => glue_sb m cc 4 _ (k0_off9_inb cc) (k0_off9_eq cc) f1 i hi)) $$ HB4
  -- the copy
  icases Htk with ⟨Hts, Htr, Htk⟩
  icases HIt with ⟨#HIc26, #HIr, HIt⟩
  icases HRt with ⟨#HRs, #HRr, HRt⟩
  icases Hrbp with ⟨⟨%fd, Hd⟩, Hrbp⟩
  iapply (send_x m cc _ (dev8_eq cc) 4 fd (owedL (List.drop 8 (paysL cc))) rfl _) $$ [HB4 Hd HO Hts Htr]
  · isplitr; · iexact HIc26
    isplitr; · iexact HIr
    isplitl [HB4]; · iexact HB4
    isplitl [Hd]; · iexact Hd
    isplitl [HO]; · iexact HO
    isplitl [Hts]; · iexact Hts
    isplitr; · iexact HRs
    isplitl [Htr]; · iexact Htr
    iexact HRr
  iintro ⟨Hcxs4, HO⟩
  iclear HIr HRs HRr
  -- chunk 5 across x: wait for its copy into the staging buffer, round it into the send buffer, send it
  have hled8 : ∀ (s : DmaSem sig), lvJ s.val = 0 → ((levAts LL lvv : sProp 𝕄) ⊢ MayWait (cc : Thread nD τ) (.dma s) () (owedL (List.drop 8 (paysL cc)))) :=
    fun s hs => mayWait_local (F := F) cc s hs _ (by decide)
  sl_exec
  clear hled8
  ihave HB5 := (congr (F := F) (sbR 5) cc fullShare (dev.sl.HB5_w1 m f1) (sb m cc) (fun i hi => glue_sb m cc 5 _ (k0_off11_inb cc) (k0_off11_eq cc) f1 i hi)) $$ HB5
  -- the copy
  icases Htk with ⟨Hts, Htr, Htk⟩
  icases HIt with ⟨#HIc27, #HIr, HIt⟩
  icases HRt with ⟨#HRs, #HRr, HRt⟩
  icases Hrbp with ⟨⟨%fd, Hd⟩, Hrbp⟩
  iapply (send_x m cc _ (dev9_eq cc) 5 fd (owedL (List.drop 9 (paysL cc))) rfl _) $$ [HB5 Hd HO Hts Htr]
  · isplitr; · iexact HIc27
    isplitr; · iexact HIr
    isplitl [HB5]; · iexact HB5
    isplitl [Hd]; · iexact Hd
    isplitl [HO]; · iexact HO
    isplitl [Hts]; · iexact Hts
    isplitr; · iexact HRs
    isplitl [Htr]; · iexact Htr
    iexact HRr
  iintro ⟨Hcxs5, HO⟩
  iclear HIr HRs HRr
  -- chunk 6 across x: wait for its copy into the staging buffer, round it into the send buffer, send it
  have hled9 : ∀ (s : DmaSem sig), lvJ s.val = 0 → ((levAts LL lvv : sProp 𝕄) ⊢ MayWait (cc : Thread nD τ) (.dma s) () (owedL (List.drop 9 (paysL cc)))) :=
    fun s hs => mayWait_local (F := F) cc s hs _ (by decide)
  sl_exec
  clear hled9
  ihave HB6 := (congr (F := F) (sbR 6) cc fullShare (dev.sl.HB6_w1 m f1) (sb m cc) (fun i hi => glue_sb m cc 6 _ (k0_off13_inb cc) (k0_off13_eq cc) f1 i hi)) $$ HB6
  -- the copy
  icases Htk with ⟨Hts, Htr, Htk⟩
  icases HIt with ⟨#HIc28, #HIr, HIt⟩
  icases HRt with ⟨#HRs, #HRr, HRt⟩
  icases Hrbp with ⟨⟨%fd, Hd⟩, Hrbp⟩
  iapply (send_x m cc _ (dev10_eq cc) 6 fd (owedL (List.drop 10 (paysL cc))) rfl _) $$ [HB6 Hd HO Hts Htr]
  · isplitr; · iexact HIc28
    isplitr; · iexact HIr
    isplitl [HB6]; · iexact HB6
    isplitl [Hd]; · iexact Hd
    isplitl [HO]; · iexact HO
    isplitl [Hts]; · iexact Hts
    isplitr; · iexact HRs
    isplitl [Htr]; · iexact Htr
    iexact HRr
  iintro ⟨Hcxs6, HO⟩
  iclear HIr HRs HRr
  -- chunk 7 across x: wait for its copy into the staging buffer, round it into the send buffer, send it
  have hled10 : ∀ (s : DmaSem sig), lvJ s.val = 0 → ((levAts LL lvv : sProp 𝕄) ⊢ MayWait (cc : Thread nD τ) (.dma s) () (owedL (List.drop 10 (paysL cc)))) :=
    fun s hs => mayWait_local (F := F) cc s hs _ (by decide)
  sl_exec
  clear hled10
  ihave HB7 := (congr (F := F) (sbR 7) cc fullShare (dev.sl.HB7_w1 m f1) (sb m cc) (fun i hi => glue_sb m cc 7 _ (k0_off15_inb cc) (k0_off15_eq cc) f1 i hi)) $$ HB7
  -- the copy
  icases Htk with ⟨Hts, Htr, Htk⟩
  icases HIt with ⟨#HIc29, #HIr, HIt⟩
  icases HRt with ⟨#HRs, #HRr, HRt⟩
  icases Hrbp with ⟨%fd, Hd⟩
  iapply (send_x m cc _ (dev11_eq cc) 7 fd (owedL (List.drop 11 (paysL cc))) rfl _) $$ [HB7 Hd HO Hts Htr]
  · isplitr; · iexact HIc29
    isplitr; · iexact HIr
    isplitl [HB7]; · iexact HB7
    isplitl [Hd]; · iexact Hd
    isplitl [HO]; · iexact HO
    isplitl [Hts]; · iexact Hts
    isplitr; · iexact HRs
    isplitl [Htr]; · iexact Htr
    iexact HRr
  iintro ⟨Hcxs7, HO⟩
  iclear HIr HRs HRr
  -- chunk 0 across x (the diagonal quarter's): wait for its copy into the staging buffer, round it into the send buffer, send it
  have hled11 : ∀ (s : DmaSem sig), lvJ s.val = 0 → ((levAts LL lvv : sProp 𝕄) ⊢ MayWait (cc : Thread nD τ) (.dma s) () (owedL (List.drop 11 (paysL cc)))) :=
    fun s hs => mayWait_local (F := F) cc s hs _ (by decide)
  sl_exec
  clear hled11
  ihave HB20 := (congr (F := F) (sb2R 0) cc fullShare (dev.sl.HB20_w1 m f3) (sb2 m cc) (fun i hi => glue_sb2 m cc 0 _ (k0_off17_inb cc) (k0_off17_eq cc) f3 i hi)) $$ HB20
  -- the copy
  icases Htk with ⟨Hts, Htr, Htk⟩
  icases HIt with ⟨#HIc38, #HIr, HIt⟩
  icases HRt with ⟨#HRs, #HRr, HRt⟩
  icases Hrb2p with ⟨⟨%fd, Hd⟩, Hrb2p⟩
  iapply (send_x2 m cc _ (dev12_eq cc) 0 fd (owedL (List.drop 12 (paysL cc))) rfl _) $$ [HB20 Hd HO Hts Htr]
  · isplitr; · iexact HIc38
    isplitr; · iexact HIr
    isplitl [HB20]; · iexact HB20
    isplitl [Hd]; · iexact Hd
    isplitl [HO]; · iexact HO
    isplitl [Hts]; · iexact Hts
    isplitr; · iexact HRs
    isplitl [Htr]; · iexact Htr
    iexact HRr
  iintro ⟨Hcds0, HO⟩
  iclear HIr HRs HRr
  -- chunk 1 across x (the diagonal quarter's): wait for its copy into the staging buffer, round it into the send buffer, send it
  have hled12 : ∀ (s : DmaSem sig), lvJ s.val = 0 → ((levAts LL lvv : sProp 𝕄) ⊢ MayWait (cc : Thread nD τ) (.dma s) () (owedL (List.drop 12 (paysL cc)))) :=
    fun s hs => mayWait_local (F := F) cc s hs _ (by decide)
  sl_exec
  clear hled12
  ihave HB21 := (congr (F := F) (sb2R 1) cc fullShare (dev.sl.HB21_w1 m f3) (sb2 m cc) (fun i hi => glue_sb2 m cc 1 _ (k0_off19_inb cc) (k0_off19_eq cc) f3 i hi)) $$ HB21
  -- the copy
  icases Htk with ⟨Hts, Htr, Htk⟩
  icases HIt with ⟨#HIc39, #HIr, HIt⟩
  icases HRt with ⟨#HRs, #HRr, HRt⟩
  icases Hrb2p with ⟨⟨%fd, Hd⟩, Hrb2p⟩
  iapply (send_x2 m cc _ (dev13_eq cc) 1 fd (owedL (List.drop 13 (paysL cc))) rfl _) $$ [HB21 Hd HO Hts Htr]
  · isplitr; · iexact HIc39
    isplitr; · iexact HIr
    isplitl [HB21]; · iexact HB21
    isplitl [Hd]; · iexact Hd
    isplitl [HO]; · iexact HO
    isplitl [Hts]; · iexact Hts
    isplitr; · iexact HRs
    isplitl [Htr]; · iexact Htr
    iexact HRr
  iintro ⟨Hcds1, HO⟩
  iclear HIr HRs HRr
  -- chunk 2 across x (the diagonal quarter's): wait for its copy into the staging buffer, round it into the send buffer, send it
  have hled13 : ∀ (s : DmaSem sig), lvJ s.val = 0 → ((levAts LL lvv : sProp 𝕄) ⊢ MayWait (cc : Thread nD τ) (.dma s) () (owedL (List.drop 13 (paysL cc)))) :=
    fun s hs => mayWait_local (F := F) cc s hs _ (by decide)
  sl_exec
  clear hled13
  ihave HB22 := (congr (F := F) (sb2R 2) cc fullShare (dev.sl.HB22_w1 m f3) (sb2 m cc) (fun i hi => glue_sb2 m cc 2 _ (k0_off21_inb cc) (k0_off21_eq cc) f3 i hi)) $$ HB22
  -- the copy
  icases Htk with ⟨Hts, Htr, Htk⟩
  icases HIt with ⟨#HIc40, #HIr, HIt⟩
  icases HRt with ⟨#HRs, #HRr, HRt⟩
  icases Hrb2p with ⟨%fd, Hd⟩
  iapply (send_x2 m cc _ (dev14_eq cc) 2 fd (owedL (List.drop 14 (paysL cc))) rfl _) $$ [HB22 Hd HO Hts Htr]
  · isplitr; · iexact HIc40
    isplitr; · iexact HIr
    isplitl [HB22]; · iexact HB22
    isplitl [Hd]; · iexact Hd
    isplitl [HO]; · iexact HO
    isplitl [Hts]; · iexact Hts
    isplitr; · iexact HRs
    isplitl [Htr]; · iexact Htr
    iexact HRr
  iintro ⟨Hcds2, HO⟩
  iclear HIr HRs HRr
  sl_exec
  -- the result array in its 32 blocks
  ihave Hout := (out_split_junk (F := F) cc) $$ Hout
  icases Hout with ⟨⟨%g00, HU00⟩, ⟨%g01, HU01⟩, ⟨%g02, HU02⟩, ⟨%g03, HU03⟩, ⟨%g10, HU10⟩, ⟨%g11, HU11⟩, ⟨%g12, HU12⟩, ⟨%g13, HU13⟩, ⟨%g20, HU20⟩, ⟨%g21, HU21⟩, ⟨%g22, HU22⟩, ⟨%g23, HU23⟩, ⟨%g30, HU30⟩, ⟨%g31, HU31⟩, ⟨%g32, HU32⟩, ⟨%g33, HU33⟩, ⟨%g40, HU40⟩, ⟨%g41, HU41⟩, ⟨%g42, HU42⟩, ⟨%g43, HU43⟩, ⟨%g50, HU50⟩, ⟨%g51, HU51⟩, ⟨%g52, HU52⟩, ⟨%g53, HU53⟩, ⟨%g60, HU60⟩, ⟨%g61, HU61⟩, ⟨%g62, HU62⟩, ⟨%g63, HU63⟩, ⟨%g70, HU70⟩, ⟨%g71, HU71⟩, ⟨%g72, HU72⟩, ⟨%g73, HU73⟩⟩
  ihave HqZ := (Entails.of_eq (giveQ_eq (F := F) (pz cc) (zqF (pz cc)))) $$ HqZ
  ihave HqY := (Entails.of_eq (giveQ_eq (F := F) (py cc) (yqF (py cc)))) $$ HqY
  ihave HhZp := (Entails.of_eq (giveH_eq (F := F) (pz cc) 0)) $$ HhZp
  ihave HhYp := (Entails.of_eq (giveH_eq (F := F) (py cc) 1)) $$ HhYp
  -- step 0 of the main loop: the x-neighbour's chunk 0 has landed
  icases Hcr with ⟨Hc, Hcr⟩
  icases HpR with ⟨Hp, HpR⟩
  icases HIw with ⟨#HIc30, HIw⟩
  ihave Hmw := (mayWait_list (F := F) cc (dsem (⟨30, by decide⟩ : Fin 140)) (List.drop 14 (paysL cc)) (by decide)) $$ Hlev
  iapply (wait_a1_at m cc _ 0 rfl) $$ [Hc HO Hmw Hp]
  · isplitr; · iexact HIc30
    isplitl [Hc]; · iexact Hc
    isplitl [HO]; · iexact HO
    isplitl [Hmw]; · iexact Hmw
    iexact Hp
  iintro ⟨HO, Hq30, -, Hrb0⟩
  icases Hown with ⟨Ho0, Hown⟩
  have hled14 : ∀ (s : DmaSem sig), lvJ s.val = 0 → ((levAts LL lvv : sProp 𝕄) ⊢ MayWait (cc : Thread nD τ) (.dma s) () (owedL (List.drop 14 (paysL cc)))) :=
    fun s hs => mayWait_local (F := F) cc s hs _ (by decide)
  sl_exec
  clear hled14
  ihave Ho0 := (congr (F := F) (r4R (mqF cc) 0) cc fullShare (dev.sl.Ho0_w1 m f0) (r4 m cc) (fun i hi => glue_own m cc 0 _ (k0_off2_inb cc) (k0_off2_eq cc) _ (k0_off23_inb cc) (k0_off23_eq cc) f0 i hi)) $$ Ho0
  ihave Ho0 := (Entails.of_eq (share_ZYK_eq (F := F) (r4R (mqF cc) 0) cc (r4 m cc))) $$ Ho0
  icases Ho0 with ⟨HoZ0, HoY0, HoK0⟩
  -- own chunk 0 to the z-neighbour
  icases Htk with ⟨Hts, Htr, Htk⟩
  icases HIt with ⟨#HIc44, #HIr, HIt⟩
  icases HRt with ⟨#HRs, #HRr, HRt⟩
  icases HqZ with ⟨⟨%fd, Hd⟩, HqZ⟩
  iapply (send_z_at m cc _ (dev15_eq cc) 0 _ _ (k0_off24_eq cc) fd (owedL (List.drop 15 (paysL cc))) rfl _) $$ [HoZ0 Hd HO Hts Htr]
  · isplitr; · iexact HIc44
    isplitr; · iexact HIr
    isplitl [HoZ0]; · iexact HoZ0
    isplitl [Hd]; · iexact Hd
    isplitl [HO]; · iexact HO
    isplitl [Hts]; · iexact Hts
    isplitr; · iexact HRs
    isplitl [Htr]; · iexact Htr
    iexact HRr
  iintro ⟨Hczs0, HO⟩
  iclear HIr HRs HRr
  sl_exec
  -- own chunk 0 to the y-neighbour
  icases Htk with ⟨Hts, Htr, Htk⟩
  icases HIt with ⟨#HIc60, #HIr, HIt⟩
  icases HRt with ⟨#HRs, #HRr, HRt⟩
  icases HqY with ⟨⟨%fd, Hd⟩, HqY⟩
  iapply (send_y_at m cc _ (dev16_eq cc) 0 _ _ (k0_off24_eq cc) fd (owedL (List.drop 16 (paysL cc))) rfl _) $$ [HoY0 Hd HO Hts Htr]
  · isplitr; · iexact HIc60
    isplitr; · iexact HIr
    isplitl [HoY0]; · iexact HoY0
    isplitl [Hd]; · iexact Hd
    isplitl [HO]; · iexact HO
    isplitl [Hts]; · iexact Hts
    isplitr; · iexact HRs
    isplitl [Htr]; · iexact Htr
    iexact HRr
  iintro ⟨Hcys0, HO⟩
  iclear HIr HRs HRr
  sl_exec
  -- step 1 of the main loop: the x-neighbour's chunk 1 has landed
  icases Hcr with ⟨Hc, Hcr⟩
  icases HpR with ⟨Hp, HpR⟩
  icases HIw with ⟨#HIc31, HIw⟩
  ihave Hmw := (mayWait_list (F := F) cc (dsem (⟨31, by decide⟩ : Fin 140)) (List.drop 16 (paysL cc)) (by decide)) $$ Hlev
  iapply (wait_a1_at m cc _ 1 rfl) $$ [Hc HO Hmw Hp]
  · isplitr; · iexact HIc31
    isplitl [Hc]; · iexact Hc
    isplitl [HO]; · iexact HO
    isplitl [Hmw]; · iexact Hmw
    iexact Hp
  iintro ⟨HO, Hq31, -, Hrb1⟩
  icases Hown with ⟨Ho1, Hown⟩
  have hled16 : ∀ (s : DmaSem sig), lvJ s.val = 0 → ((levAts LL lvv : sProp 𝕄) ⊢ MayWait (cc : Thread nD τ) (.dma s) () (owedL (List.drop 16 (paysL cc)))) :=
    fun s hs => mayWait_local (F := F) cc s hs _ (by decide)
  sl_exec
  clear hled16
  ihave Ho1 := (congr (F := F) (r4R (mqF cc) 1) cc fullShare (dev.sl.Ho1_w1 m f0) (r4 m cc) (fun i hi => glue_own m cc 1 _ (k0_off4_inb cc) (k0_off4_eq cc) _ (k0_off25_inb cc) (k0_off25_eq cc) f0 i hi)) $$ Ho1
  ihave Ho1 := (Entails.of_eq (share_ZYK_eq (F := F) (r4R (mqF cc) 1) cc (r4 m cc))) $$ Ho1
  icases Ho1 with ⟨HoZ1, HoY1, HoK1⟩
  -- own chunk 1 to the z-neighbour
  icases Htk with ⟨Hts, Htr, Htk⟩
  icases HIt with ⟨#HIc45, #HIr, HIt⟩
  icases HRt with ⟨#HRs, #HRr, HRt⟩
  icases HqZ with ⟨⟨%fd, Hd⟩, HqZ⟩
  iapply (send_z_at m cc _ (dev17_eq cc) 1 _ _ (k0_off26_eq cc) fd (owedL (List.drop 17 (paysL cc))) rfl _) $$ [HoZ1 Hd HO Hts Htr]
  · isplitr; · iexact HIc45
    isplitr; · iexact HIr
    isplitl [HoZ1]; · iexact HoZ1
    isplitl [Hd]; · iexact Hd
    isplitl [HO]; · iexact HO
    isplitl [Hts]; · iexact Hts
    isplitr; · iexact HRs
    isplitl [Htr]; · iexact Htr
    iexact HRr
  iintro ⟨Hczs1, HO⟩
  iclear HIr HRs HRr
  sl_exec
  -- own chunk 1 to the y-neighbour
  icases Htk with ⟨Hts, Htr, Htk⟩
  icases HIt with ⟨#HIc61, #HIr, HIt⟩
  icases HRt with ⟨#HRs, #HRr, HRt⟩
  icases HqY with ⟨⟨%fd, Hd⟩, HqY⟩
  iapply (send_y_at m cc _ (dev18_eq cc) 1 _ _ (k0_off26_eq cc) fd (owedL (List.drop 18 (paysL cc))) rfl _) $$ [HoY1 Hd HO Hts Htr]
  · isplitr; · iexact HIc61
    isplitr; · iexact HIr
    isplitl [HoY1]; · iexact HoY1
    isplitl [Hd]; · iexact Hd
    isplitl [HO]; · iexact HO
    isplitl [Hts]; · iexact Hts
    isplitr; · iexact HRs
    isplitl [Htr]; · iexact Htr
    iexact HRr
  iintro ⟨Hcys1, HO⟩
  iclear HIr HRs HRr
  sl_exec
  -- the z-neighbour's chunk 0 has landed
  icases Hcr with ⟨Hc, Hcr⟩
  icases HpR with ⟨Hp, HpR⟩
  icases HIw with ⟨#HIc52, HIw⟩
  ihave Hmw := (mayWait_list (F := F) cc (dsem (⟨52, by decide⟩ : Fin 140)) (List.drop 18 (paysL cc)) (by decide)) $$ Hlev
  iapply (wait_a5_at m cc _ 0 rfl) $$ [Hc HO Hmw Hp]
  · isplitr; · iexact HIc52
    isplitl [Hc]; · iexact Hc
    isplitl [HO]; · iexact HO
    isplitl [Hmw]; · iexact Hmw
    iexact Hp
  iintro ⟨HO, Hq52, -, Hz0⟩
  sl_exec
  -- the y-neighbour's chunk 0 has landed
  icases Hcr with ⟨Hc, Hcr⟩
  icases HpR with ⟨Hp, HpR⟩
  icases HIw with ⟨#HIc68, HIw⟩
  ihave Hmw := (mayWait_list (F := F) cc (dsem (⟨68, by decide⟩ : Fin 140)) (List.drop 18 (paysL cc)) (by decide)) $$ Hlev
  iapply (wait_a7_at m cc _ 0 rfl) $$ [Hc HO Hmw Hp]
  · isplitr; · iexact HIc68
    isplitl [Hc]; · iexact Hc
    isplitl [HO]; · iexact HO
    isplitl [Hmw]; · iexact Hmw
    iexact Hp
  iintro ⟨HO, Hq68, -, Hy0⟩
  sl_exec
  -- step 2 of the main loop: the x-neighbour's chunk 2 has landed
  icases Hcr with ⟨Hc, Hcr⟩
  icases HpR with ⟨Hp, HpR⟩
  icases HIw with ⟨#HIc32, HIw⟩
  ihave Hmw := (mayWait_list (F := F) cc (dsem (⟨32, by decide⟩ : Fin 140)) (List.drop 18 (paysL cc)) (by decide)) $$ Hlev
  iapply (wait_a1_at m cc _ 2 rfl) $$ [Hc HO Hmw Hp]
  · isplitr; · iexact HIc32
    isplitl [Hc]; · iexact Hc
    isplitl [HO]; · iexact HO
    isplitl [Hmw]; · iexact Hmw
    iexact Hp
  iintro ⟨HO, Hq32, -, Hrb2⟩
  icases Hown with ⟨Ho2, Hown⟩
  have hled18 : ∀ (s : DmaSem sig), lvJ s.val = 0 → ((levAts LL lvv : sProp 𝕄) ⊢ MayWait (cc : Thread nD τ) (.dma s) () (owedL (List.drop 18 (paysL cc)))) :=
    fun s hs => mayWait_local (F := F) cc s hs _ (by decide)
  sl_exec
  clear hled18
  ihave Ho2 := (congr (F := F) (r4R (mqF cc) 2) cc fullShare (dev.sl.Ho2_w1 m f0) (r4 m cc) (fun i hi => glue_own m cc 2 _ (k0_off6_inb cc) (k0_off6_eq cc) _ (k0_off27_inb cc) (k0_off27_eq cc) f0 i hi)) $$ Ho2
  ihave Ho2 := (Entails.of_eq (share_ZYK_eq (F := F) (r4R (mqF cc) 2) cc (r4 m cc))) $$ Ho2
  icases Ho2 with ⟨HoZ2, HoY2, HoK2⟩
  -- own chunk 2 to the z-neighbour
  icases Htk with ⟨Hts, Htr, Htk⟩
  icases HIt with ⟨#HIc46, #HIr, HIt⟩
  icases HRt with ⟨#HRs, #HRr, HRt⟩
  icases HqZ with ⟨⟨%fd, Hd⟩, HqZ⟩
  iapply (send_z_at m cc _ (dev19_eq cc) 2 _ _ (k0_off28_eq cc) fd (owedL (List.drop 19 (paysL cc))) rfl _) $$ [HoZ2 Hd HO Hts Htr]
  · isplitr; · iexact HIc46
    isplitr; · iexact HIr
    isplitl [HoZ2]; · iexact HoZ2
    isplitl [Hd]; · iexact Hd
    isplitl [HO]; · iexact HO
    isplitl [Hts]; · iexact Hts
    isplitr; · iexact HRs
    isplitl [Htr]; · iexact Htr
    iexact HRr
  iintro ⟨Hczs2, HO⟩
  iclear HIr HRs HRr
  sl_exec
  -- own chunk 2 to the y-neighbour
  icases Htk with ⟨Hts, Htr, Htk⟩
  icases HIt with ⟨#HIc62, #HIr, HIt⟩
  icases HRt with ⟨#HRs, #HRr, HRt⟩
  icases HqY with ⟨⟨%fd, Hd⟩, HqY⟩
  iapply (send_y_at m cc _ (dev20_eq cc) 2 _ _ (k0_off28_eq cc) fd (owedL (List.drop 20 (paysL cc))) rfl _) $$ [HoY2 Hd HO Hts Htr]
  · isplitr; · iexact HIc62
    isplitr; · iexact HIr
    isplitl [HoY2]; · iexact HoY2
    isplitl [Hd]; · iexact Hd
    isplitl [HO]; · iexact HO
    isplitl [Hts]; · iexact Hts
    isplitr; · iexact HRs
    isplitl [Htr]; · iexact Htr
    iexact HRr
  iintro ⟨Hcys2, HO⟩
  iclear HIr HRs HRr
  sl_exec
  -- the z-neighbour's chunk 1 has landed
  icases Hcr with ⟨Hc, Hcr⟩
  icases HpR with ⟨Hp, HpR⟩
  icases HIw with ⟨#HIc53, HIw⟩
  ihave Hmw := (mayWait_list (F := F) cc (dsem (⟨53, by decide⟩ : Fin 140)) (List.drop 20 (paysL cc)) (by decide)) $$ Hlev
  iapply (wait_a5_at m cc _ 1 rfl) $$ [Hc HO Hmw Hp]
  · isplitr; · iexact HIc53
    isplitl [Hc]; · iexact Hc
    isplitl [HO]; · iexact HO
    isplitl [Hmw]; · iexact Hmw
    iexact Hp
  iintro ⟨HO, Hq53, -, Hz1⟩
  sl_exec
  -- the y-neighbour's chunk 1 has landed
  icases Hcr with ⟨Hc, Hcr⟩
  icases HpR with ⟨Hp, HpR⟩
  icases HIw with ⟨#HIc69, HIw⟩
  ihave Hmw := (mayWait_list (F := F) cc (dsem (⟨69, by decide⟩ : Fin 140)) (List.drop 20 (paysL cc)) (by decide)) $$ Hlev
  iapply (wait_a7_at m cc _ 1 rfl) $$ [Hc HO Hmw Hp]
  · isplitr; · iexact HIc69
    isplitl [Hc]; · iexact Hc
    isplitl [HO]; · iexact HO
    isplitl [Hmw]; · iexact Hmw
    iexact Hp
  iintro ⟨HO, Hq69, -, Hy1⟩
  sl_exec
  -- step 3 of the main loop: the x-neighbour's chunk 3 has landed
  icases Hcr with ⟨Hc, Hcr⟩
  icases HpR with ⟨Hp, HpR⟩
  icases HIw with ⟨#HIc33, HIw⟩
  ihave Hmw := (mayWait_list (F := F) cc (dsem (⟨33, by decide⟩ : Fin 140)) (List.drop 20 (paysL cc)) (by decide)) $$ Hlev
  iapply (wait_a1_at m cc _ 3 rfl) $$ [Hc HO Hmw Hp]
  · isplitr; · iexact HIc33
    isplitl [Hc]; · iexact Hc
    isplitl [HO]; · iexact HO
    isplitl [Hmw]; · iexact Hmw
    iexact Hp
  iintro ⟨HO, Hq33, -, Hrb3⟩
  icases Hown with ⟨Ho3, Hown⟩
  have hled20 : ∀ (s : DmaSem sig), lvJ s.val = 0 → ((levAts LL lvv : sProp 𝕄) ⊢ MayWait (cc : Thread nD τ) (.dma s) () (owedL (List.drop 20 (paysL cc)))) :=
    fun s hs => mayWait_local (F := F) cc s hs _ (by decide)
  sl_exec
  clear hled20
  ihave Ho3 := (congr (F := F) (r4R (mqF cc) 3) cc fullShare (dev.sl.Ho3_w1 m f0) (r4 m cc) (fun i hi => glue_own m cc 3 _ (k0_off8_inb cc) (k0_off8_eq cc) _ (k0_off29_inb cc) (k0_off29_eq cc) f0 i hi)) $$ Ho3
  ihave Ho3 := (Entails.of_eq (share_ZYK_eq (F := F) (r4R (mqF cc) 3) cc (r4 m cc))) $$ Ho3
  icases Ho3 with ⟨HoZ3, HoY3, HoK3⟩
  -- own chunk 3 to the z-neighbour
  icases Htk with ⟨Hts, Htr, Htk⟩
  icases HIt with ⟨#HIc47, #HIr, HIt⟩
  icases HRt with ⟨#HRs, #HRr, HRt⟩
  icases HqZ with ⟨⟨%fd, Hd⟩, HqZ⟩
  iapply (send_z_at m cc _ (dev21_eq cc) 3 _ _ (k0_off30_eq cc) fd (owedL (List.drop 21 (paysL cc))) rfl _) $$ [HoZ3 Hd HO Hts Htr]
  · isplitr; · iexact HIc47
    isplitr; · iexact HIr
    isplitl [HoZ3]; · iexact HoZ3
    isplitl [Hd]; · iexact Hd
    isplitl [HO]; · iexact HO
    isplitl [Hts]; · iexact Hts
    isplitr; · iexact HRs
    isplitl [Htr]; · iexact Htr
    iexact HRr
  iintro ⟨Hczs3, HO⟩
  iclear HIr HRs HRr
  sl_exec
  -- own chunk 3 to the y-neighbour
  icases Htk with ⟨Hts, Htr, Htk⟩
  icases HIt with ⟨#HIc63, #HIr, HIt⟩
  icases HRt with ⟨#HRs, #HRr, HRt⟩
  icases HqY with ⟨⟨%fd, Hd⟩, HqY⟩
  iapply (send_y_at m cc _ (dev22_eq cc) 3 _ _ (k0_off30_eq cc) fd (owedL (List.drop 22 (paysL cc))) rfl _) $$ [HoY3 Hd HO Hts Htr]
  · isplitr; · iexact HIc63
    isplitr; · iexact HIr
    isplitl [HoY3]; · iexact HoY3
    isplitl [Hd]; · iexact Hd
    isplitl [HO]; · iexact HO
    isplitl [Hts]; · iexact Hts
    isplitr; · iexact HRs
    isplitl [Htr]; · iexact Htr
    iexact HRr
  iintro ⟨Hcys3, HO⟩
  iclear HIr HRs HRr
  sl_exec
  -- the z-neighbour's chunk 2 has landed
  icases Hcr with ⟨Hc, Hcr⟩
  icases HpR with ⟨Hp, HpR⟩
  icases HIw with ⟨#HIc54, HIw⟩
  ihave Hmw := (mayWait_list (F := F) cc (dsem (⟨54, by decide⟩ : Fin 140)) (List.drop 22 (paysL cc)) (by decide)) $$ Hlev
  iapply (wait_a5_at m cc _ 2 rfl) $$ [Hc HO Hmw Hp]
  · isplitr; · iexact HIc54
    isplitl [Hc]; · iexact Hc
    isplitl [HO]; · iexact HO
    isplitl [Hmw]; · iexact Hmw
    iexact Hp
  iintro ⟨HO, Hq54, -, Hz2⟩
  sl_exec
  -- the y-neighbour's chunk 2 has landed
  icases Hcr with ⟨Hc, Hcr⟩
  icases HpR with ⟨Hp, HpR⟩
  icases HIw with ⟨#HIc70, HIw⟩
  ihave Hmw := (mayWait_list (F := F) cc (dsem (⟨70, by decide⟩ : Fin 140)) (List.drop 22 (paysL cc)) (by decide)) $$ Hlev
  iapply (wait_a7_at m cc _ 2 rfl) $$ [Hc HO Hmw Hp]
  · isplitr; · iexact HIc70
    isplitl [Hc]; · iexact Hc
    isplitl [HO]; · iexact HO
    isplitl [Hmw]; · iexact Hmw
    iexact Hp
  iintro ⟨HO, Hq70, -, Hy2⟩
  sl_exec
  -- step 4 of the main loop: the x-neighbour's chunk 4 has landed
  icases Hcr with ⟨Hc, Hcr⟩
  icases HpR with ⟨Hp, HpR⟩
  icases HIw with ⟨#HIc34, HIw⟩
  ihave Hmw := (mayWait_list (F := F) cc (dsem (⟨34, by decide⟩ : Fin 140)) (List.drop 22 (paysL cc)) (by decide)) $$ Hlev
  iapply (wait_a1_at m cc _ 4 rfl) $$ [Hc HO Hmw Hp]
  · isplitr; · iexact HIc34
    isplitl [Hc]; · iexact Hc
    isplitl [HO]; · iexact HO
    isplitl [Hmw]; · iexact Hmw
    iexact Hp
  iintro ⟨HO, Hq34, -, Hrb4⟩
  icases Hown with ⟨Ho4, Hown⟩
  have hled22 : ∀ (s : DmaSem sig), lvJ s.val = 0 → ((levAts LL lvv : sProp 𝕄) ⊢ MayWait (cc : Thread nD τ) (.dma s) () (owedL (List.drop 22 (paysL cc)))) :=
    fun s hs => mayWait_local (F := F) cc s hs _ (by decide)
  sl_exec
  clear hled22
  ihave Ho4 := (congr (F := F) (r4R (mqF cc) 4) cc fullShare (dev.sl.Ho4_w1 m f0) (r4 m cc) (fun i hi => glue_own m cc 4 _ (k0_off10_inb cc) (k0_off10_eq cc) _ (k0_off31_inb cc) (k0_off31_eq cc) f0 i hi)) $$ Ho4
  ihave Ho4 := (Entails.of_eq (share_ZYK_eq (F := F) (r4R (mqF cc) 4) cc (r4 m cc))) $$ Ho4
  icases Ho4 with ⟨HoZ4, HoY4, HoK4⟩
  -- own chunk 4 to the z-neighbour
  icases Htk with ⟨Hts, Htr, Htk⟩
  icases HIt with ⟨#HIc48, #HIr, HIt⟩
  icases HRt with ⟨#HRs, #HRr, HRt⟩
  icases HqZ with ⟨⟨%fd, Hd⟩, HqZ⟩
  iapply (send_z_at m cc _ (dev23_eq cc) 4 _ _ (k0_off32_eq cc) fd (owedL (List.drop 23 (paysL cc))) rfl _) $$ [HoZ4 Hd HO Hts Htr]
  · isplitr; · iexact HIc48
    isplitr; · iexact HIr
    isplitl [HoZ4]; · iexact HoZ4
    isplitl [Hd]; · iexact Hd
    isplitl [HO]; · iexact HO
    isplitl [Hts]; · iexact Hts
    isplitr; · iexact HRs
    isplitl [Htr]; · iexact Htr
    iexact HRr
  iintro ⟨Hczs4, HO⟩
  iclear HIr HRs HRr
  sl_exec
  -- own chunk 4 to the y-neighbour
  icases Htk with ⟨Hts, Htr, Htk⟩
  icases HIt with ⟨#HIc64, #HIr, HIt⟩
  icases HRt with ⟨#HRs, #HRr, HRt⟩
  icases HqY with ⟨⟨%fd, Hd⟩, HqY⟩
  iapply (send_y_at m cc _ (dev24_eq cc) 4 _ _ (k0_off32_eq cc) fd (owedL (List.drop 24 (paysL cc))) rfl _) $$ [HoY4 Hd HO Hts Htr]
  · isplitr; · iexact HIc64
    isplitr; · iexact HIr
    isplitl [HoY4]; · iexact HoY4
    isplitl [Hd]; · iexact Hd
    isplitl [HO]; · iexact HO
    isplitl [Hts]; · iexact Hts
    isplitr; · iexact HRs
    isplitl [Htr]; · iexact Htr
    iexact HRr
  iintro ⟨Hcys4, HO⟩
  iclear HIr HRs HRr
  sl_exec
  -- the z-neighbour's chunk 3 has landed
  icases Hcr with ⟨Hc, Hcr⟩
  icases HpR with ⟨Hp, HpR⟩
  icases HIw with ⟨#HIc55, HIw⟩
  ihave Hmw := (mayWait_list (F := F) cc (dsem (⟨55, by decide⟩ : Fin 140)) (List.drop 24 (paysL cc)) (by decide)) $$ Hlev
  iapply (wait_a5_at m cc _ 3 rfl) $$ [Hc HO Hmw Hp]
  · isplitr; · iexact HIc55
    isplitl [Hc]; · iexact Hc
    isplitl [HO]; · iexact HO
    isplitl [Hmw]; · iexact Hmw
    iexact Hp
  iintro ⟨HO, Hq55, -, Hz3⟩
  sl_exec
  -- the y-neighbour's chunk 3 has landed
  icases Hcr with ⟨Hc, Hcr⟩
  icases HpR with ⟨Hp, HpR⟩
  icases HIw with ⟨#HIc71, HIw⟩
  ihave Hmw := (mayWait_list (F := F) cc (dsem (⟨71, by decide⟩ : Fin 140)) (List.drop 24 (paysL cc)) (by decide)) $$ Hlev
  iapply (wait_a7_at m cc _ 3 rfl) $$ [Hc HO Hmw Hp]
  · isplitr; · iexact HIc71
    isplitl [Hc]; · iexact Hc
    isplitl [HO]; · iexact HO
    isplitl [Hmw]; · iexact Hmw
    iexact Hp
  iintro ⟨HO, Hq71, -, Hy3⟩
  -- chunk 3 of the two neighbours' quarters: half its ownership stays for the copy into the result, of the other half one column half travels on
  ihave Hz3 := (Entails.of_eq (share_FG_eq (F := F) (r4R (zqF cc) 3) cc (r4 m cc))) $$ Hz3
  icases Hz3 with ⟨HzF3, HzG3⟩
  ihave HzF3 := (Entails.of_eq (chunk_halves (F := F) cc (zqF cc) 3 shF (r4 m cc))) $$ HzF3
  icases HzF3 with ⟨HzFl3, HzFr3⟩
  ihave Hy3 := (Entails.of_eq (share_FG_eq (F := F) (r4R (yqF cc) 3) cc (r4 m cc))) $$ Hy3
  icases Hy3 with ⟨HyF3, HyG3⟩
  ihave HyF3 := (Entails.of_eq (chunk_halves (F := F) cc (yqF cc) 3 shF (r4 m cc))) $$ HyF3
  icases HyF3 with ⟨HyFl3, HyFr3⟩
  sl_exec
  -- the right half of the z-neighbour's chunk 3 on to the y-neighbour
  icases Htk with ⟨Hts, Htr, Htk⟩
  icases HIt with ⟨#HIc95, #HIr, HIt⟩
  icases HRt with ⟨#HRs, #HRr, HRt⟩
  icases HhYp with ⟨⟨%fd, Hd⟩, HhYp⟩
  iapply (send_yf_at m cc _ (dev25_eq cc) 3 (by decide) _ _ (k0_off33_eq cc) fd (owedL (List.drop 25 (paysL cc))) rfl _) $$ [HzFr3 Hd HO Hts Htr]
  · isplitr; · iexact HIc95
    isplitr; · iexact HIr
    isplitl [HzFr3]; · iexact HzFr3
    isplitl [Hd]; · iexact Hd
    isplitl [HO]; · iexact HO
    isplitl [Hts]; · iexact Hts
    isplitr; · iexact HRs
    isplitl [Htr]; · iexact Htr
    iexact HRr
  iintro ⟨Hcyfs3, HO⟩
  iclear HIr HRs HRr
  sl_exec
  -- the left half of the y-neighbour's chunk 3 on to the z-neighbour
  icases Htk with ⟨Hts, Htr, Htk⟩
  icases HIt with ⟨#HIc79, #HIr, HIt⟩
  icases HRt with ⟨#HRs, #HRr, HRt⟩
  icases HhZp with ⟨⟨%fd, Hd⟩, HhZp⟩
  iapply (send_zf_at m cc _ (dev26_eq cc) 3 (by decide) _ _ (k0_off34_eq cc) fd (owedL (List.drop 26 (paysL cc))) rfl _) $$ [HyFl3 Hd HO Hts Htr]
  · isplitr; · iexact HIc79
    isplitr; · iexact HIr
    isplitl [HyFl3]; · iexact HyFl3
    isplitl [Hd]; · iexact Hd
    isplitl [HO]; · iexact HO
    isplitl [Hts]; · iexact Hts
    isplitr; · iexact HRs
    isplitl [Htr]; · iexact Htr
    iexact HRr
  iintro ⟨Hczfs3, HO⟩
  iclear HIr HRs HRr
  sl_exec
  -- step 5 of the main loop: the x-neighbour's chunk 5 has landed
  icases Hcr with ⟨Hc, Hcr⟩
  icases HpR with ⟨Hp, HpR⟩
  icases HIw with ⟨#HIc35, HIw⟩
  ihave Hmw := (mayWait_list (F := F) cc (dsem (⟨35, by decide⟩ : Fin 140)) (List.drop 26 (paysL cc)) (by decide)) $$ Hlev
  iapply (wait_a1_at m cc _ 5 rfl) $$ [Hc HO Hmw Hp]
  · isplitr; · iexact HIc35
    isplitl [Hc]; · iexact Hc
    isplitl [HO]; · iexact HO
    isplitl [Hmw]; · iexact Hmw
    iexact Hp
  iintro ⟨HO, Hq35, -, Hrb5⟩
  icases Hown with ⟨Ho5, Hown⟩
  have hled26 : ∀ (s : DmaSem sig), lvJ s.val = 0 → ((levAts LL lvv : sProp 𝕄) ⊢ MayWait (cc : Thread nD τ) (.dma s) () (owedL (List.drop 26 (paysL cc)))) :=
    fun s hs => mayWait_local (F := F) cc s hs _ (by decide)
  sl_exec
  clear hled26
  ihave Ho5 := (congr (F := F) (r4R (mqF cc) 5) cc fullShare (dev.sl.Ho5_w1 m f0) (r4 m cc) (fun i hi => glue_own m cc 5 _ (k0_off12_inb cc) (k0_off12_eq cc) _ (k0_off35_inb cc) (k0_off35_eq cc) f0 i hi)) $$ Ho5
  ihave Ho5 := (Entails.of_eq (share_ZYK_eq (F := F) (r4R (mqF cc) 5) cc (r4 m cc))) $$ Ho5
  icases Ho5 with ⟨HoZ5, HoY5, HoK5⟩
  -- own chunk 5 to the z-neighbour
  icases Htk with ⟨Hts, Htr, Htk⟩
  icases HIt with ⟨#HIc49, #HIr, HIt⟩
  icases HRt with ⟨#HRs, #HRr, HRt⟩
  icases HqZ with ⟨⟨%fd, Hd⟩, HqZ⟩
  iapply (send_z_at m cc _ (dev27_eq cc) 5 _ _ (k0_off36_eq cc) fd (owedL (List.drop 27 (paysL cc))) rfl _) $$ [HoZ5 Hd HO Hts Htr]
  · isplitr; · iexact HIc49
    isplitr; · iexact HIr
    isplitl [HoZ5]; · iexact HoZ5
    isplitl [Hd]; · iexact Hd
    isplitl [HO]; · iexact HO
    isplitl [Hts]; · iexact Hts
    isplitr; · iexact HRs
    isplitl [Htr]; · iexact Htr
    iexact HRr
  iintro ⟨Hczs5, HO⟩
  iclear HIr HRs HRr
  sl_exec
  -- own chunk 5 to the y-neighbour
  icases Htk with ⟨Hts, Htr, Htk⟩
  icases HIt with ⟨#HIc65, #HIr, HIt⟩
  icases HRt with ⟨#HRs, #HRr, HRt⟩
  icases HqY with ⟨⟨%fd, Hd⟩, HqY⟩
  iapply (send_y_at m cc _ (dev28_eq cc) 5 _ _ (k0_off36_eq cc) fd (owedL (List.drop 28 (paysL cc))) rfl _) $$ [HoY5 Hd HO Hts Htr]
  · isplitr; · iexact HIc65
    isplitr; · iexact HIr
    isplitl [HoY5]; · iexact HoY5
    isplitl [Hd]; · iexact Hd
    isplitl [HO]; · iexact HO
    isplitl [Hts]; · iexact Hts
    isplitr; · iexact HRs
    isplitl [Htr]; · iexact Htr
    iexact HRr
  iintro ⟨Hcys5, HO⟩
  iclear HIr HRs HRr
  sl_exec
  -- the z-neighbour's chunk 4 has landed
  icases Hcr with ⟨Hc, Hcr⟩
  icases HpR with ⟨Hp, HpR⟩
  icases HIw with ⟨#HIc56, HIw⟩
  ihave Hmw := (mayWait_list (F := F) cc (dsem (⟨56, by decide⟩ : Fin 140)) (List.drop 28 (paysL cc)) (by decide)) $$ Hlev
  iapply (wait_a5_at m cc _ 4 rfl) $$ [Hc HO Hmw Hp]
  · isplitr; · iexact HIc56
    isplitl [Hc]; · iexact Hc
    isplitl [HO]; · iexact HO
    isplitl [Hmw]; · iexact Hmw
    iexact Hp
  iintro ⟨HO, Hq56, -, Hz4⟩
  sl_exec
  -- the y-neighbour's chunk 4 has landed
  icases Hcr with ⟨Hc, Hcr⟩
  icases HpR with ⟨Hp, HpR⟩
  icases HIw with ⟨#HIc72, HIw⟩
  ihave Hmw := (mayWait_list (F := F) cc (dsem (⟨72, by decide⟩ : Fin 140)) (List.drop 28 (paysL cc)) (by decide)) $$ Hlev
  iapply (wait_a7_at m cc _ 4 rfl) $$ [Hc HO Hmw Hp]
  · isplitr; · iexact HIc72
    isplitl [Hc]; · iexact Hc
    isplitl [HO]; · iexact HO
    isplitl [Hmw]; · iexact Hmw
    iexact Hp
  iintro ⟨HO, Hq72, -, Hy4⟩
  -- chunk 4 of the two neighbours' quarters: half its ownership stays for the copy into the result, of the other half one column half travels on
  ihave Hz4 := (Entails.of_eq (share_FG_eq (F := F) (r4R (zqF cc) 4) cc (r4 m cc))) $$ Hz4
  icases Hz4 with ⟨HzF4, HzG4⟩
  ihave HzF4 := (Entails.of_eq (chunk_halves (F := F) cc (zqF cc) 4 shF (r4 m cc))) $$ HzF4
  icases HzF4 with ⟨HzFl4, HzFr4⟩
  ihave Hy4 := (Entails.of_eq (share_FG_eq (F := F) (r4R (yqF cc) 4) cc (r4 m cc))) $$ Hy4
  icases Hy4 with ⟨HyF4, HyG4⟩
  ihave HyF4 := (Entails.of_eq (chunk_halves (F := F) cc (yqF cc) 4 shF (r4 m cc))) $$ HyF4
  icases HyF4 with ⟨HyFl4, HyFr4⟩
  sl_exec
  -- the right half of the z-neighbour's chunk 4 on to the y-neighbour
  icases Htk with ⟨Hts, Htr, Htk⟩
  icases HIt with ⟨#HIc96, #HIr, HIt⟩
  icases HRt with ⟨#HRs, #HRr, HRt⟩
  icases HhYp with ⟨⟨%fd, Hd⟩, HhYp⟩
  iapply (send_yf_at m cc _ (dev29_eq cc) 4 (by decide) _ _ (k0_off37_eq cc) fd (owedL (List.drop 29 (paysL cc))) rfl _) $$ [HzFr4 Hd HO Hts Htr]
  · isplitr; · iexact HIc96
    isplitr; · iexact HIr
    isplitl [HzFr4]; · iexact HzFr4
    isplitl [Hd]; · iexact Hd
    isplitl [HO]; · iexact HO
    isplitl [Hts]; · iexact Hts
    isplitr; · iexact HRs
    isplitl [Htr]; · iexact Htr
    iexact HRr
  iintro ⟨Hcyfs4, HO⟩
  iclear HIr HRs HRr
  sl_exec
  -- the left half of the y-neighbour's chunk 4 on to the z-neighbour
  icases Htk with ⟨Hts, Htr, Htk⟩
  icases HIt with ⟨#HIc80, #HIr, HIt⟩
  icases HRt with ⟨#HRs, #HRr, HRt⟩
  icases HhZp with ⟨⟨%fd, Hd⟩, HhZp⟩
  iapply (send_zf_at m cc _ (dev30_eq cc) 4 (by decide) _ _ (k0_off38_eq cc) fd (owedL (List.drop 30 (paysL cc))) rfl _) $$ [HyFl4 Hd HO Hts Htr]
  · isplitr; · iexact HIc80
    isplitr; · iexact HIr
    isplitl [HyFl4]; · iexact HyFl4
    isplitl [Hd]; · iexact Hd
    isplitl [HO]; · iexact HO
    isplitl [Hts]; · iexact Hts
    isplitr; · iexact HRs
    isplitl [Htr]; · iexact Htr
    iexact HRr
  iintro ⟨Hczfs4, HO⟩
  iclear HIr HRs HRr
  sl_exec
  -- the left half of chunk 3 of the diagonal quarter has landed
  icases Hcr with ⟨Hc, Hcr⟩
  icases HpR with ⟨Hp, HpR⟩
  icases HIw with ⟨#HIc87, HIw⟩
  ihave Hmw := (mayWait_list (F := F) cc (dsem (⟨87, by decide⟩ : Fin 140)) (List.drop 30 (paysL cc)) (by decide)) $$ Hlev
  iapply (wait_a9_at m cc _ 3 rfl (by decide)) $$ [Hc HO Hmw Hp]
  · isplitr; · iexact HIc87
    isplitl [Hc]; · iexact Hc
    isplitl [HO]; · iexact HO
    isplitl [Hmw]; · iexact Hmw
    iexact Hp
  iintro ⟨HO, Hq87, -, Hdl3⟩
  sl_exec
  -- its right half has landed
  icases Hcr with ⟨Hc, Hcr⟩
  icases HpR with ⟨Hp, HpR⟩
  icases HIw with ⟨#HIc103, HIw⟩
  ihave Hmw := (mayWait_list (F := F) cc (dsem (⟨103, by decide⟩ : Fin 140)) (List.drop 30 (paysL cc)) (by decide)) $$ Hlev
  iapply (wait_a11_at m cc _ 3 rfl (by decide)) $$ [Hc HO Hmw Hp]
  · isplitr; · iexact HIc103
    isplitl [Hc]; · iexact Hc
    isplitl [HO]; · iexact HO
    isplitl [Hmw]; · iexact Hmw
    iexact Hp
  iintro ⟨HO, Hq103, -, Hdr3⟩
  ihave Hd3 := (Entails.of_eq (chunk_halves (F := F) cc (dqF cc) 3 fullShare (r4 m cc)).symm) $$ [Hdl3 Hdr3]
  · isplitl [Hdl3]; · iexact Hdl3
    iexact Hdr3
  -- the four copies of chunk 3 into the result
  icases HvO with ⟨Hw3a, Hw3b, Hw3c, Hw3d, HvO⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  -- step 6 of the main loop: the x-neighbour's chunk 6 has landed
  icases Hcr with ⟨Hc, Hcr⟩
  icases HpR with ⟨Hp, HpR⟩
  icases HIw with ⟨#HIc36, HIw⟩
  ihave Hmw := (mayWait_list (F := F) cc (dsem (⟨36, by decide⟩ : Fin 140)) (List.drop 30 (paysL cc)) (by decide)) $$ Hlev
  iapply (wait_a1_at m cc _ 6 rfl) $$ [Hc HO Hmw Hp]
  · isplitr; · iexact HIc36
    isplitl [Hc]; · iexact Hc
    isplitl [HO]; · iexact HO
    isplitl [Hmw]; · iexact Hmw
    iexact Hp
  iintro ⟨HO, Hq36, -, Hrb6⟩
  icases Hown with ⟨Ho6, Hown⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  ihave Ho6 := (congr (F := F) (r4R (mqF cc) 6) cc fullShare (dev.sl.Ho6_w1 m f0) (r4 m cc) (fun i hi => glue_own m cc 6 _ (k0_off14_inb cc) (k0_off14_eq cc) _ (k0_off39_inb cc) (k0_off39_eq cc) f0 i hi)) $$ Ho6
  ihave Ho6 := (Entails.of_eq (share_ZYK_eq (F := F) (r4R (mqF cc) 6) cc (r4 m cc))) $$ Ho6
  icases Ho6 with ⟨HoZ6, HoY6, HoK6⟩
  -- own chunk 6 to the z-neighbour
  icases Htk with ⟨Hts, Htr, Htk⟩
  icases HIt with ⟨#HIc50, #HIr, HIt⟩
  icases HRt with ⟨#HRs, #HRr, HRt⟩
  icases HqZ with ⟨⟨%fd, Hd⟩, HqZ⟩
  iapply (send_z_at m cc _ (dev31_eq cc) 6 _ _ (k0_off40_eq cc) fd (owedL (List.drop 31 (paysL cc))) rfl _) $$ [HoZ6 Hd HO Hts Htr]
  · isplitr; · iexact HIc50
    isplitr; · iexact HIr
    isplitl [HoZ6]; · iexact HoZ6
    isplitl [Hd]; · iexact Hd
    isplitl [HO]; · iexact HO
    isplitl [Hts]; · iexact Hts
    isplitr; · iexact HRs
    isplitl [Htr]; · iexact Htr
    iexact HRr
  iintro ⟨Hczs6, HO⟩
  iclear HIr HRs HRr
  sl_exec
  -- own chunk 6 to the y-neighbour
  icases Htk with ⟨Hts, Htr, Htk⟩
  icases HIt with ⟨#HIc66, #HIr, HIt⟩
  icases HRt with ⟨#HRs, #HRr, HRt⟩
  icases HqY with ⟨⟨%fd, Hd⟩, HqY⟩
  iapply (send_y_at m cc _ (dev32_eq cc) 6 _ _ (k0_off40_eq cc) fd (owedL (List.drop 32 (paysL cc))) rfl _) $$ [HoY6 Hd HO Hts Htr]
  · isplitr; · iexact HIc66
    isplitr; · iexact HIr
    isplitl [HoY6]; · iexact HoY6
    isplitl [Hd]; · iexact Hd
    isplitl [HO]; · iexact HO
    isplitl [Hts]; · iexact Hts
    isplitr; · iexact HRs
    isplitl [Htr]; · iexact Htr
    iexact HRr
  iintro ⟨Hcys6, HO⟩
  iclear HIr HRs HRr
  sl_exec
  -- the z-neighbour's chunk 5 has landed
  icases Hcr with ⟨Hc, Hcr⟩
  icases HpR with ⟨Hp, HpR⟩
  icases HIw with ⟨#HIc57, HIw⟩
  ihave Hmw := (mayWait_list (F := F) cc (dsem (⟨57, by decide⟩ : Fin 140)) (List.drop 32 (paysL cc)) (by decide)) $$ Hlev
  iapply (wait_a5_at m cc _ 5 rfl) $$ [Hc HO Hmw Hp]
  · isplitr; · iexact HIc57
    isplitl [Hc]; · iexact Hc
    isplitl [HO]; · iexact HO
    isplitl [Hmw]; · iexact Hmw
    iexact Hp
  iintro ⟨HO, Hq57, -, Hz5⟩
  sl_exec
  -- the y-neighbour's chunk 5 has landed
  icases Hcr with ⟨Hc, Hcr⟩
  icases HpR with ⟨Hp, HpR⟩
  icases HIw with ⟨#HIc73, HIw⟩
  ihave Hmw := (mayWait_list (F := F) cc (dsem (⟨73, by decide⟩ : Fin 140)) (List.drop 32 (paysL cc)) (by decide)) $$ Hlev
  iapply (wait_a7_at m cc _ 5 rfl) $$ [Hc HO Hmw Hp]
  · isplitr; · iexact HIc73
    isplitl [Hc]; · iexact Hc
    isplitl [HO]; · iexact HO
    isplitl [Hmw]; · iexact Hmw
    iexact Hp
  iintro ⟨HO, Hq73, -, Hy5⟩
  -- chunk 5 of the two neighbours' quarters: half its ownership stays for the copy into the result, of the other half one column half travels on
  ihave Hz5 := (Entails.of_eq (share_FG_eq (F := F) (r4R (zqF cc) 5) cc (r4 m cc))) $$ Hz5
  icases Hz5 with ⟨HzF5, HzG5⟩
  ihave HzF5 := (Entails.of_eq (chunk_halves (F := F) cc (zqF cc) 5 shF (r4 m cc))) $$ HzF5
  icases HzF5 with ⟨HzFl5, HzFr5⟩
  ihave Hy5 := (Entails.of_eq (share_FG_eq (F := F) (r4R (yqF cc) 5) cc (r4 m cc))) $$ Hy5
  icases Hy5 with ⟨HyF5, HyG5⟩
  ihave HyF5 := (Entails.of_eq (chunk_halves (F := F) cc (yqF cc) 5 shF (r4 m cc))) $$ HyF5
  icases HyF5 with ⟨HyFl5, HyFr5⟩
  sl_exec
  -- the right half of the z-neighbour's chunk 5 on to the y-neighbour
  icases Htk with ⟨Hts, Htr, Htk⟩
  icases HIt with ⟨#HIc97, #HIr, HIt⟩
  icases HRt with ⟨#HRs, #HRr, HRt⟩
  icases HhYp with ⟨⟨%fd, Hd⟩, HhYp⟩
  iapply (send_yf_at m cc _ (dev33_eq cc) 5 (by decide) _ _ (k0_off41_eq cc) fd (owedL (List.drop 33 (paysL cc))) rfl _) $$ [HzFr5 Hd HO Hts Htr]
  · isplitr; · iexact HIc97
    isplitr; · iexact HIr
    isplitl [HzFr5]; · iexact HzFr5
    isplitl [Hd]; · iexact Hd
    isplitl [HO]; · iexact HO
    isplitl [Hts]; · iexact Hts
    isplitr; · iexact HRs
    isplitl [Htr]; · iexact Htr
    iexact HRr
  iintro ⟨Hcyfs5, HO⟩
  iclear HIr HRs HRr
  sl_exec
  -- the left half of the y-neighbour's chunk 5 on to the z-neighbour
  icases Htk with ⟨Hts, Htr, Htk⟩
  icases HIt with ⟨#HIc81, #HIr, HIt⟩
  icases HRt with ⟨#HRs, #HRr, HRt⟩
  icases HhZp with ⟨⟨%fd, Hd⟩, HhZp⟩
  iapply (send_zf_at m cc _ (dev34_eq cc) 5 (by decide) _ _ (k0_off42_eq cc) fd (owedL (List.drop 34 (paysL cc))) rfl _) $$ [HyFl5 Hd HO Hts Htr]
  · isplitr; · iexact HIc81
    isplitr; · iexact HIr
    isplitl [HyFl5]; · iexact HyFl5
    isplitl [Hd]; · iexact Hd
    isplitl [HO]; · iexact HO
    isplitl [Hts]; · iexact Hts
    isplitr; · iexact HRs
    isplitl [Htr]; · iexact Htr
    iexact HRr
  iintro ⟨Hczfs5, HO⟩
  iclear HIr HRs HRr
  sl_exec
  -- the left half of chunk 4 of the diagonal quarter has landed
  icases Hcr with ⟨Hc, Hcr⟩
  icases HpR with ⟨Hp, HpR⟩
  icases HIw with ⟨#HIc88, HIw⟩
  ihave Hmw := (mayWait_list (F := F) cc (dsem (⟨88, by decide⟩ : Fin 140)) (List.drop 34 (paysL cc)) (by decide)) $$ Hlev
  iapply (wait_a9_at m cc _ 4 rfl (by decide)) $$ [Hc HO Hmw Hp]
  · isplitr; · iexact HIc88
    isplitl [Hc]; · iexact Hc
    isplitl [HO]; · iexact HO
    isplitl [Hmw]; · iexact Hmw
    iexact Hp
  iintro ⟨HO, Hq88, -, Hdl4⟩
  sl_exec
  -- its right half has landed
  icases Hcr with ⟨Hc, Hcr⟩
  icases HpR with ⟨Hp, HpR⟩
  icases HIw with ⟨#HIc104, HIw⟩
  ihave Hmw := (mayWait_list (F := F) cc (dsem (⟨104, by decide⟩ : Fin 140)) (List.drop 34 (paysL cc)) (by decide)) $$ Hlev
  iapply (wait_a11_at m cc _ 4 rfl (by decide)) $$ [Hc HO Hmw Hp]
  · isplitr; · iexact HIc104
    isplitl [Hc]; · iexact Hc
    isplitl [HO]; · iexact HO
    isplitl [Hmw]; · iexact Hmw
    iexact Hp
  iintro ⟨HO, Hq104, -, Hdr4⟩
  ihave Hd4 := (Entails.of_eq (chunk_halves (F := F) cc (dqF cc) 4 fullShare (r4 m cc)).symm) $$ [Hdl4 Hdr4]
  · isplitl [Hdl4]; · iexact Hdl4
    iexact Hdr4
  -- the four copies of chunk 4 into the result
  icases HvO with ⟨Hw4a, Hw4b, Hw4c, Hw4d, HvO⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  -- step 7 of the main loop: the x-neighbour's chunk 7 has landed
  icases Hcr with ⟨Hc, Hcr⟩
  icases HpR with ⟨Hp, HpR⟩
  icases HIw with ⟨#HIc37, HIw⟩
  ihave Hmw := (mayWait_list (F := F) cc (dsem (⟨37, by decide⟩ : Fin 140)) (List.drop 34 (paysL cc)) (by decide)) $$ Hlev
  iapply (wait_a1_at m cc _ 7 rfl) $$ [Hc HO Hmw Hp]
  · isplitr; · iexact HIc37
    isplitl [Hc]; · iexact Hc
    isplitl [HO]; · iexact HO
    isplitl [Hmw]; · iexact Hmw
    iexact Hp
  iintro ⟨HO, Hq37, -, Hrb7⟩
  icases Hown with ⟨Ho7⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  ihave Ho7 := (congr (F := F) (r4R (mqF cc) 7) cc fullShare (dev.sl.Ho7_w1 m f0) (r4 m cc) (fun i hi => glue_own m cc 7 _ (k0_off16_inb cc) (k0_off16_eq cc) _ (k0_off43_inb cc) (k0_off43_eq cc) f0 i hi)) $$ Ho7
  ihave Ho7 := (Entails.of_eq (share_ZYK_eq (F := F) (r4R (mqF cc) 7) cc (r4 m cc))) $$ Ho7
  icases Ho7 with ⟨HoZ7, HoY7, HoK7⟩
  -- own chunk 7 to the z-neighbour
  icases Htk with ⟨Hts, Htr, Htk⟩
  icases HIt with ⟨#HIc51, #HIr, HIt⟩
  icases HRt with ⟨#HRs, #HRr, HRt⟩
  icases HqZ with ⟨%fd, Hd⟩
  iapply (send_z_at m cc _ (dev35_eq cc) 7 _ _ (k0_off44_eq cc) fd (owedL (List.drop 35 (paysL cc))) rfl _) $$ [HoZ7 Hd HO Hts Htr]
  · isplitr; · iexact HIc51
    isplitr; · iexact HIr
    isplitl [HoZ7]; · iexact HoZ7
    isplitl [Hd]; · iexact Hd
    isplitl [HO]; · iexact HO
    isplitl [Hts]; · iexact Hts
    isplitr; · iexact HRs
    isplitl [Htr]; · iexact Htr
    iexact HRr
  iintro ⟨Hczs7, HO⟩
  iclear HIr HRs HRr
  sl_exec
  -- own chunk 7 to the y-neighbour
  icases Htk with ⟨Hts, Htr, Htk⟩
  icases HIt with ⟨#HIc67, #HIr, HIt⟩
  icases HRt with ⟨#HRs, #HRr, HRt⟩
  icases HqY with ⟨%fd, Hd⟩
  iapply (send_y_at m cc _ (dev36_eq cc) 7 _ _ (k0_off44_eq cc) fd (owedL (List.drop 36 (paysL cc))) rfl _) $$ [HoY7 Hd HO Hts Htr]
  · isplitr; · iexact HIc67
    isplitr; · iexact HIr
    isplitl [HoY7]; · iexact HoY7
    isplitl [Hd]; · iexact Hd
    isplitl [HO]; · iexact HO
    isplitl [Hts]; · iexact Hts
    isplitr; · iexact HRs
    isplitl [Htr]; · iexact Htr
    iexact HRr
  iintro ⟨Hcys7, HO⟩
  iclear HIr HRs HRr
  sl_exec
  -- the z-neighbour's chunk 6 has landed
  icases Hcr with ⟨Hc, Hcr⟩
  icases HpR with ⟨Hp, HpR⟩
  icases HIw with ⟨#HIc58, HIw⟩
  ihave Hmw := (mayWait_list (F := F) cc (dsem (⟨58, by decide⟩ : Fin 140)) (List.drop 36 (paysL cc)) (by decide)) $$ Hlev
  iapply (wait_a5_at m cc _ 6 rfl) $$ [Hc HO Hmw Hp]
  · isplitr; · iexact HIc58
    isplitl [Hc]; · iexact Hc
    isplitl [HO]; · iexact HO
    isplitl [Hmw]; · iexact Hmw
    iexact Hp
  iintro ⟨HO, Hq58, -, Hz6⟩
  sl_exec
  -- the y-neighbour's chunk 6 has landed
  icases Hcr with ⟨Hc, Hcr⟩
  icases HpR with ⟨Hp, HpR⟩
  icases HIw with ⟨#HIc74, HIw⟩
  ihave Hmw := (mayWait_list (F := F) cc (dsem (⟨74, by decide⟩ : Fin 140)) (List.drop 36 (paysL cc)) (by decide)) $$ Hlev
  iapply (wait_a7_at m cc _ 6 rfl) $$ [Hc HO Hmw Hp]
  · isplitr; · iexact HIc74
    isplitl [Hc]; · iexact Hc
    isplitl [HO]; · iexact HO
    isplitl [Hmw]; · iexact Hmw
    iexact Hp
  iintro ⟨HO, Hq74, -, Hy6⟩
  -- chunk 6 of the two neighbours' quarters: half its ownership stays for the copy into the result, of the other half one column half travels on
  ihave Hz6 := (Entails.of_eq (share_FG_eq (F := F) (r4R (zqF cc) 6) cc (r4 m cc))) $$ Hz6
  icases Hz6 with ⟨HzF6, HzG6⟩
  ihave HzF6 := (Entails.of_eq (chunk_halves (F := F) cc (zqF cc) 6 shF (r4 m cc))) $$ HzF6
  icases HzF6 with ⟨HzFl6, HzFr6⟩
  ihave Hy6 := (Entails.of_eq (share_FG_eq (F := F) (r4R (yqF cc) 6) cc (r4 m cc))) $$ Hy6
  icases Hy6 with ⟨HyF6, HyG6⟩
  ihave HyF6 := (Entails.of_eq (chunk_halves (F := F) cc (yqF cc) 6 shF (r4 m cc))) $$ HyF6
  icases HyF6 with ⟨HyFl6, HyFr6⟩
  sl_exec
  -- the right half of the z-neighbour's chunk 6 on to the y-neighbour
  icases Htk with ⟨Hts, Htr, Htk⟩
  icases HIt with ⟨#HIc98, #HIr, HIt⟩
  icases HRt with ⟨#HRs, #HRr, HRt⟩
  icases HhYp with ⟨⟨%fd, Hd⟩, HhYp⟩
  iapply (send_yf_at m cc _ (dev37_eq cc) 6 (by decide) _ _ (k0_off45_eq cc) fd (owedL (List.drop 37 (paysL cc))) rfl _) $$ [HzFr6 Hd HO Hts Htr]
  · isplitr; · iexact HIc98
    isplitr; · iexact HIr
    isplitl [HzFr6]; · iexact HzFr6
    isplitl [Hd]; · iexact Hd
    isplitl [HO]; · iexact HO
    isplitl [Hts]; · iexact Hts
    isplitr; · iexact HRs
    isplitl [Htr]; · iexact Htr
    iexact HRr
  iintro ⟨Hcyfs6, HO⟩
  iclear HIr HRs HRr
  sl_exec
  -- the left half of the y-neighbour's chunk 6 on to the z-neighbour
  icases Htk with ⟨Hts, Htr, Htk⟩
  icases HIt with ⟨#HIc82, #HIr, HIt⟩
  icases HRt with ⟨#HRs, #HRr, HRt⟩
  icases HhZp with ⟨⟨%fd, Hd⟩, HhZp⟩
  iapply (send_zf_at m cc _ (dev38_eq cc) 6 (by decide) _ _ (k0_off46_eq cc) fd (owedL (List.drop 38 (paysL cc))) rfl _) $$ [HyFl6 Hd HO Hts Htr]
  · isplitr; · iexact HIc82
    isplitr; · iexact HIr
    isplitl [HyFl6]; · iexact HyFl6
    isplitl [Hd]; · iexact Hd
    isplitl [HO]; · iexact HO
    isplitl [Hts]; · iexact Hts
    isplitr; · iexact HRs
    isplitl [Htr]; · iexact Htr
    iexact HRr
  iintro ⟨Hczfs6, HO⟩
  iclear HIr HRs HRr
  sl_exec
  -- the left half of chunk 5 of the diagonal quarter has landed
  icases Hcr with ⟨Hc, Hcr⟩
  icases HpR with ⟨Hp, HpR⟩
  icases HIw with ⟨#HIc89, HIw⟩
  ihave Hmw := (mayWait_list (F := F) cc (dsem (⟨89, by decide⟩ : Fin 140)) (List.drop 38 (paysL cc)) (by decide)) $$ Hlev
  iapply (wait_a9_at m cc _ 5 rfl (by decide)) $$ [Hc HO Hmw Hp]
  · isplitr; · iexact HIc89
    isplitl [Hc]; · iexact Hc
    isplitl [HO]; · iexact HO
    isplitl [Hmw]; · iexact Hmw
    iexact Hp
  iintro ⟨HO, Hq89, -, Hdl5⟩
  sl_exec
  -- its right half has landed
  icases Hcr with ⟨Hc, Hcr⟩
  icases HpR with ⟨Hp, HpR⟩
  icases HIw with ⟨#HIc105, HIw⟩
  ihave Hmw := (mayWait_list (F := F) cc (dsem (⟨105, by decide⟩ : Fin 140)) (List.drop 38 (paysL cc)) (by decide)) $$ Hlev
  iapply (wait_a11_at m cc _ 5 rfl (by decide)) $$ [Hc HO Hmw Hp]
  · isplitr; · iexact HIc105
    isplitl [Hc]; · iexact Hc
    isplitl [HO]; · iexact HO
    isplitl [Hmw]; · iexact Hmw
    iexact Hp
  iintro ⟨HO, Hq105, -, Hdr5⟩
  ihave Hd5 := (Entails.of_eq (chunk_halves (F := F) cc (dqF cc) 5 fullShare (r4 m cc)).symm) $$ [Hdl5 Hdr5]
  · isplitl [Hdl5]; · iexact Hdl5
    iexact Hdr5
  -- the four copies of chunk 5 into the result
  icases HvO with ⟨Hw5a, Hw5b, Hw5c, Hw5d, HvO⟩
  have hled38 : ∀ (s : DmaSem sig), lvJ s.val = 0 → ((levAts LL lvv : sProp 𝕄) ⊢ MayWait (cc : Thread nD τ) (.dma s) () (owedL (List.drop 38 (paysL cc)))) :=
    fun s hs => mayWait_local (F := F) cc s hs _ (by decide)
  sl_exec
  clear hled38
  -- after the loop: the z-neighbour's last chunk has landed
  icases Hcr with ⟨Hc, Hcr⟩
  icases HpR with ⟨Hp, HpR⟩
  icases HIw with ⟨#HIc59, HIw⟩
  ihave Hmw := (mayWait_list (F := F) cc (dsem (⟨59, by decide⟩ : Fin 140)) (List.drop 38 (paysL cc)) (by decide)) $$ Hlev
  iapply (wait_a5_at m cc _ 7 rfl) $$ [Hc HO Hmw Hp]
  · isplitr; · iexact HIc59
    isplitl [Hc]; · iexact Hc
    isplitl [HO]; · iexact HO
    isplitl [Hmw]; · iexact Hmw
    iexact Hp
  iintro ⟨HO, Hq59, -, Hz7⟩
  sl_exec
  -- the y-neighbour's last chunk has landed
  icases Hcr with ⟨Hc, Hcr⟩
  icases HpR with ⟨Hp, HpR⟩
  icases HIw with ⟨#HIc75, HIw⟩
  ihave Hmw := (mayWait_list (F := F) cc (dsem (⟨75, by decide⟩ : Fin 140)) (List.drop 38 (paysL cc)) (by decide)) $$ Hlev
  iapply (wait_a7_at m cc _ 7 rfl) $$ [Hc HO Hmw Hp]
  · isplitr; · iexact HIc75
    isplitl [Hc]; · iexact Hc
    isplitl [HO]; · iexact HO
    isplitl [Hmw]; · iexact Hmw
    iexact Hp
  iintro ⟨HO, Hq75, -, Hy7⟩
  -- chunk 7 of the two neighbours' quarters: half its ownership stays for the copy into the result, of the other half one column half travels on
  ihave Hz7 := (Entails.of_eq (share_FG_eq (F := F) (r4R (zqF cc) 7) cc (r4 m cc))) $$ Hz7
  icases Hz7 with ⟨HzF7, HzG7⟩
  ihave HzF7 := (Entails.of_eq (chunk_halves (F := F) cc (zqF cc) 7 shF (r4 m cc))) $$ HzF7
  icases HzF7 with ⟨HzFl7, HzFr7⟩
  ihave Hy7 := (Entails.of_eq (share_FG_eq (F := F) (r4R (yqF cc) 7) cc (r4 m cc))) $$ Hy7
  icases Hy7 with ⟨HyF7, HyG7⟩
  ihave HyF7 := (Entails.of_eq (chunk_halves (F := F) cc (yqF cc) 7 shF (r4 m cc))) $$ HyF7
  icases HyF7 with ⟨HyFl7, HyFr7⟩
  sl_exec
  -- the right half of the z-neighbour's last chunk on to the y-neighbour
  icases Htk with ⟨Hts, Htr, Htk⟩
  icases HIt with ⟨#HIc99, #HIr, HIt⟩
  icases HRt with ⟨#HRs, #HRr, HRt⟩
  icases HhYp with ⟨%fd, Hd⟩
  iapply (send_yf_at m cc _ (dev39_eq cc) 7 (by decide) _ _ (k0_off47_eq cc) fd (owedL (List.drop 39 (paysL cc))) rfl _) $$ [HzFr7 Hd HO Hts Htr]
  · isplitr; · iexact HIc99
    isplitr; · iexact HIr
    isplitl [HzFr7]; · iexact HzFr7
    isplitl [Hd]; · iexact Hd
    isplitl [HO]; · iexact HO
    isplitl [Hts]; · iexact Hts
    isplitr; · iexact HRs
    isplitl [Htr]; · iexact Htr
    iexact HRr
  iintro ⟨Hcyfs7, HO⟩
  iclear HIr HRs HRr
  sl_exec
  -- the left half of the y-neighbour's last chunk on to the z-neighbour
  icases Htk with ⟨Hts, Htr⟩
  icases HIt with ⟨#HIc83, #HIr⟩
  icases HRt with ⟨#HRs, #HRr⟩
  icases HhZp with ⟨%fd, Hd⟩
  iapply (send_zf_at m cc _ (dev40_eq cc) 7 (by decide) _ _ (k0_off48_eq cc) fd (owedL (List.drop 40 (paysL cc))) rfl _) $$ [HyFl7 Hd HO Hts Htr]
  · isplitr; · iexact HIc83
    isplitr; · iexact HIr
    isplitl [HyFl7]; · iexact HyFl7
    isplitl [Hd]; · iexact Hd
    isplitl [HO]; · iexact HO
    isplitl [Hts]; · iexact Hts
    isplitr; · iexact HRs
    isplitl [Htr]; · iexact Htr
    iexact HRr
  iintro ⟨Hczfs7, HO⟩
  iclear HIr HRs HRr
  sl_exec
  -- chunk 0 of the diagonal quarter: the x-neighbour's chunk has landed
  icases Hcr with ⟨Hc, Hcr⟩
  icases HpR with ⟨Hp, HpR⟩
  icases HIw with ⟨#HIc41, HIw⟩
  ihave Hmw := (mayWait_list (F := F) cc (dsem (⟨41, by decide⟩ : Fin 140)) (List.drop 40 (paysL cc)) (by decide)) $$ Hlev
  iapply (wait_a3_at m cc _ 0 rfl) $$ [Hc HO Hmw Hp]
  · isplitr; · iexact HIc41
    isplitl [Hc]; · iexact Hc
    isplitl [HO]; · iexact HO
    isplitl [Hmw]; · iexact Hmw
    iexact Hp
  iintro ⟨HO, Hq41, -, Hrb20⟩
  icases Hdg with ⟨Hdq0, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq0 := (congr (F := F) (r4R (dqF cc) 0) cc fullShare (dev.sl.Hdq0_w1 m f0) (r4 m cc) (fun i hi => glue_dgn m cc 0 0 rfl _ (k0_off18_inb cc) (k0_off18_eq cc) _ (k0_off49_inb cc) (k0_off49_eq cc) f0 i hi)) $$ Hdq0
  -- the four copies of chunk 0 into the result
  icases HvO with ⟨Hw0a, Hw0b, Hw0c, Hw0d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 1 of the diagonal quarter: the x-neighbour's chunk has landed
  icases Hcr with ⟨Hc, Hcr⟩
  icases HpR with ⟨Hp, HpR⟩
  icases HIw with ⟨#HIc42, HIw⟩
  ihave Hmw := (mayWait_list (F := F) cc (dsem (⟨42, by decide⟩ : Fin 140)) (List.drop 40 (paysL cc)) (by decide)) $$ Hlev
  iapply (wait_a3_at m cc _ 1 rfl) $$ [Hc HO Hmw Hp]
  · isplitr; · iexact HIc42
    isplitl [Hc]; · iexact Hc
    isplitl [HO]; · iexact HO
    isplitl [Hmw]; · iexact Hmw
    iexact Hp
  iintro ⟨HO, Hq42, -, Hrb21⟩
  icases Hdg with ⟨Hdq1, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq1 := (congr (F := F) (r4R (dqF cc) 1) cc fullShare (dev.sl.Hdq1_w1 m f0) (r4 m cc) (fun i hi => glue_dgn m cc 1 1 rfl _ (k0_off20_inb cc) (k0_off20_eq cc) _ (k0_off50_inb cc) (k0_off50_eq cc) f0 i hi)) $$ Hdq1
  -- the four copies of chunk 1 into the result
  icases HvO with ⟨Hw1a, Hw1b, Hw1c, Hw1d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 2 of the diagonal quarter: the x-neighbour's chunk has landed
  icases Hcr with ⟨Hc, Hcr⟩
  icases HpR with ⟨Hp, HpR⟩
  icases HIw with ⟨#HIc43, HIw⟩
  ihave Hmw := (mayWait_list (F := F) cc (dsem (⟨43, by decide⟩ : Fin 140)) (List.drop 40 (paysL cc)) (by decide)) $$ Hlev
  iapply (wait_a3_at m cc _ 2 rfl) $$ [Hc HO Hmw Hp]
  · isplitr; · iexact HIc43
    isplitl [Hc]; · iexact Hc
    isplitl [HO]; · iexact HO
    isplitl [Hmw]; · iexact Hmw
    iexact Hp
  iintro ⟨HO, Hq43, -, Hrb22⟩
  icases Hdg with ⟨Hdq2⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq2 := (congr (F := F) (r4R (dqF cc) 2) cc fullShare (dev.sl.Hdq2_w1 m f0) (r4 m cc) (fun i hi => glue_dgn m cc 2 2 rfl _ (k0_off22_inb cc) (k0_off22_eq cc) _ (k0_off51_inb cc) (k0_off51_eq cc) f0 i hi)) $$ Hdq2
  -- the four copies of chunk 2 into the result
  icases HvO with ⟨Hw2a, Hw2b, Hw2c, Hw2d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 6 of the diagonal quarter has landed
  icases Hcr with ⟨Hc, Hcr⟩
  icases HpR with ⟨Hp, HpR⟩
  icases HIw with ⟨#HIc90, HIw⟩
  ihave Hmw := (mayWait_list (F := F) cc (dsem (⟨90, by decide⟩ : Fin 140)) (List.drop 40 (paysL cc)) (by decide)) $$ Hlev
  iapply (wait_a9_at m cc _ 6 rfl (by decide)) $$ [Hc HO Hmw Hp]
  · isplitr; · iexact HIc90
    isplitl [Hc]; · iexact Hc
    isplitl [HO]; · iexact HO
    isplitl [Hmw]; · iexact Hmw
    iexact Hp
  iintro ⟨HO, Hq90, -, Hdl6⟩
  sl_exec
  -- its right half has landed
  icases Hcr with ⟨Hc, Hcr⟩
  icases HpR with ⟨Hp, HpR⟩
  icases HIw with ⟨#HIc106, HIw⟩
  ihave Hmw := (mayWait_list (F := F) cc (dsem (⟨106, by decide⟩ : Fin 140)) (List.drop 40 (paysL cc)) (by decide)) $$ Hlev
  iapply (wait_a11_at m cc _ 6 rfl (by decide)) $$ [Hc HO Hmw Hp]
  · isplitr; · iexact HIc106
    isplitl [Hc]; · iexact Hc
    isplitl [HO]; · iexact HO
    isplitl [Hmw]; · iexact Hmw
    iexact Hp
  iintro ⟨HO, Hq106, -, Hdr6⟩
  ihave Hd6 := (Entails.of_eq (chunk_halves (F := F) cc (dqF cc) 6 fullShare (r4 m cc)).symm) $$ [Hdl6 Hdr6]
  · isplitl [Hdl6]; · iexact Hdl6
    iexact Hdr6
  -- the four copies of chunk 6 into the result
  icases HvO with ⟨Hw6a, Hw6b, Hw6c, Hw6d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 7 of the diagonal quarter has landed
  icases Hcr with ⟨Hc, Hcr⟩
  icases HpR with ⟨Hp, HpR⟩
  icases HIw with ⟨#HIc91, HIw⟩
  ihave Hcr := ((sep_emp (PROP := sProp 𝕄)).2) $$ Hcr
  ihave Hmw := (mayWait_list (F := F) cc (dsem (⟨91, by decide⟩ : Fin 140)) (List.drop 40 (paysL cc)) (by decide)) $$ Hlev
  iapply (wait_a9_at m cc _ 7 rfl (by decide)) $$ [Hc HO Hmw Hp]
  · isplitr; · iexact HIc91
    isplitl [Hc]; · iexact Hc
    isplitl [HO]; · iexact HO
    isplitl [Hmw]; · iexact Hmw
    iexact Hp
  iintro ⟨HO, Hq91, -, Hdl7⟩
  sl_exec
  -- its right half has landed
  icases HIw with #HIc107
  icases Hcr with ⟨Hcr, -⟩
  ihave Hmw := (mayWait_list (F := F) cc (dsem (⟨107, by decide⟩ : Fin 140)) (List.drop 40 (paysL cc)) (by decide)) $$ Hlev
  iapply (wait_a11_at m cc _ 7 rfl (by decide)) $$ [Hcr HO Hmw HpR]
  · isplitr; · iexact HIc107
    isplitl [Hcr]; · iexact Hcr
    isplitl [HO]; · iexact HO
    isplitl [Hmw]; · iexact Hmw
    iexact HpR
  iintro ⟨HO, Hq107, -, Hdr7⟩
  ihave Hd7 := (Entails.of_eq (chunk_halves (F := F) cc (dqF cc) 7 fullShare (r4 m cc)).symm) $$ [Hdl7 Hdr7]
  · isplitl [Hdl7]; · iexact Hdl7
    iexact Hdr7
  -- the four copies of chunk 7 into the result
  icases HvO with ⟨Hw7a, Hw7b, Hw7c, Hw7d⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- nothing is owed any more: the level fact for the remaining local waits, once
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  -- the departure of chunk 0 across x
  icases HpS with ⟨Hp, HpS⟩
  ihave Hmw := (mayWait_list (F := F) cc (dsem (⟨22, by decide⟩ : Fin 140)) (List.drop 40 (paysL cc)) (by decide)) $$ Hlev
  iapply (wait_a0_at m cc _ 0 rfl) $$ [Hcxs0 HO Hmw Hp]
  · isplitr; · iexact HIc22
    isplitl [Hcxs0]; · iexact Hcxs0
    isplitl [HO]; · iexact HO
    isplitl [Hmw]; · iexact Hmw
    iexact Hp
  iintro ⟨HO, Hq22, -, HBs0⟩
  sl_exec
  -- of own chunk 0 to z
  icases HpS with ⟨Hp, HpS⟩
  ihave Hmw := (mayWait_list (F := F) cc (dsem (⟨44, by decide⟩ : Fin 140)) (List.drop 40 (paysL cc)) (by decide)) $$ Hlev
  iapply (wait_a4_at m cc _ 0 rfl) $$ [Hczs0 HO Hmw Hp]
  · isplitr; · iexact HIc44
    isplitl [Hczs0]; · iexact Hczs0
    isplitl [HO]; · iexact HO
    isplitl [Hmw]; · iexact Hmw
    iexact Hp
  iintro ⟨HO, Hq44, -, HoZb0⟩
  sl_exec
  -- of own chunk 0 to y
  icases HpS with ⟨Hp, HpS⟩
  ihave Hmw := (mayWait_list (F := F) cc (dsem (⟨60, by decide⟩ : Fin 140)) (List.drop 40 (paysL cc)) (by decide)) $$ Hlev
  iapply (wait_a6_at m cc _ 0 rfl) $$ [Hcys0 HO Hmw Hp]
  · isplitr; · iexact HIc60
    isplitl [Hcys0]; · iexact Hcys0
    isplitl [HO]; · iexact HO
    isplitl [Hmw]; · iexact Hmw
    iexact Hp
  iintro ⟨HO, Hq60, -, HoYb0⟩
  sl_exec
  -- the departure of chunk 1 across x
  icases HpS with ⟨Hp, HpS⟩
  ihave Hmw := (mayWait_list (F := F) cc (dsem (⟨23, by decide⟩ : Fin 140)) (List.drop 40 (paysL cc)) (by decide)) $$ Hlev
  iapply (wait_a0_at m cc _ 1 rfl) $$ [Hcxs1 HO Hmw Hp]
  · isplitr; · iexact HIc23
    isplitl [Hcxs1]; · iexact Hcxs1
    isplitl [HO]; · iexact HO
    isplitl [Hmw]; · iexact Hmw
    iexact Hp
  iintro ⟨HO, Hq23, -, HBs1⟩
  sl_exec
  -- of own chunk 1 to z
  icases HpS with ⟨Hp, HpS⟩
  ihave Hmw := (mayWait_list (F := F) cc (dsem (⟨45, by decide⟩ : Fin 140)) (List.drop 40 (paysL cc)) (by decide)) $$ Hlev
  iapply (wait_a4_at m cc _ 1 rfl) $$ [Hczs1 HO Hmw Hp]
  · isplitr; · iexact HIc45
    isplitl [Hczs1]; · iexact Hczs1
    isplitl [HO]; · iexact HO
    isplitl [Hmw]; · iexact Hmw
    iexact Hp
  iintro ⟨HO, Hq45, -, HoZb1⟩
  sl_exec
  -- of own chunk 1 to y
  icases HpS with ⟨Hp, HpS⟩
  ihave Hmw := (mayWait_list (F := F) cc (dsem (⟨61, by decide⟩ : Fin 140)) (List.drop 40 (paysL cc)) (by decide)) $$ Hlev
  iapply (wait_a6_at m cc _ 1 rfl) $$ [Hcys1 HO Hmw Hp]
  · isplitr; · iexact HIc61
    isplitl [Hcys1]; · iexact Hcys1
    isplitl [HO]; · iexact HO
    isplitl [Hmw]; · iexact Hmw
    iexact Hp
  iintro ⟨HO, Hq61, -, HoYb1⟩
  sl_exec
  -- the departure of chunk 2 across x
  icases HpS with ⟨Hp, HpS⟩
  ihave Hmw := (mayWait_list (F := F) cc (dsem (⟨24, by decide⟩ : Fin 140)) (List.drop 40 (paysL cc)) (by decide)) $$ Hlev
  iapply (wait_a0_at m cc _ 2 rfl) $$ [Hcxs2 HO Hmw Hp]
  · isplitr; · iexact HIc24
    isplitl [Hcxs2]; · iexact Hcxs2
    isplitl [HO]; · iexact HO
    isplitl [Hmw]; · iexact Hmw
    iexact Hp
  iintro ⟨HO, Hq24, -, HBs2⟩
  sl_exec
  -- of own chunk 2 to z
  icases HpS with ⟨Hp, HpS⟩
  ihave Hmw := (mayWait_list (F := F) cc (dsem (⟨46, by decide⟩ : Fin 140)) (List.drop 40 (paysL cc)) (by decide)) $$ Hlev
  iapply (wait_a4_at m cc _ 2 rfl) $$ [Hczs2 HO Hmw Hp]
  · isplitr; · iexact HIc46
    isplitl [Hczs2]; · iexact Hczs2
    isplitl [HO]; · iexact HO
    isplitl [Hmw]; · iexact Hmw
    iexact Hp
  iintro ⟨HO, Hq46, -, HoZb2⟩
  sl_exec
  -- of own chunk 2 to y
  icases HpS with ⟨Hp, HpS⟩
  ihave Hmw := (mayWait_list (F := F) cc (dsem (⟨62, by decide⟩ : Fin 140)) (List.drop 40 (paysL cc)) (by decide)) $$ Hlev
  iapply (wait_a6_at m cc _ 2 rfl) $$ [Hcys2 HO Hmw Hp]
  · isplitr; · iexact HIc62
    isplitl [Hcys2]; · iexact Hcys2
    isplitl [HO]; · iexact HO
    isplitl [Hmw]; · iexact Hmw
    iexact Hp
  iintro ⟨HO, Hq62, -, HoYb2⟩
  sl_exec
  -- the departure of chunk 3 across x
  icases HpS with ⟨Hp, HpS⟩
  ihave Hmw := (mayWait_list (F := F) cc (dsem (⟨25, by decide⟩ : Fin 140)) (List.drop 40 (paysL cc)) (by decide)) $$ Hlev
  iapply (wait_a0_at m cc _ 3 rfl) $$ [Hcxs3 HO Hmw Hp]
  · isplitr; · iexact HIc25
    isplitl [Hcxs3]; · iexact Hcxs3
    isplitl [HO]; · iexact HO
    isplitl [Hmw]; · iexact Hmw
    iexact Hp
  iintro ⟨HO, Hq25, -, HBs3⟩
  sl_exec
  -- of own chunk 3 to z
  icases HpS with ⟨Hp, HpS⟩
  ihave Hmw := (mayWait_list (F := F) cc (dsem (⟨47, by decide⟩ : Fin 140)) (List.drop 40 (paysL cc)) (by decide)) $$ Hlev
  iapply (wait_a4_at m cc _ 3 rfl) $$ [Hczs3 HO Hmw Hp]
  · isplitr; · iexact HIc47
    isplitl [Hczs3]; · iexact Hczs3
    isplitl [HO]; · iexact HO
    isplitl [Hmw]; · iexact Hmw
    iexact Hp
  iintro ⟨HO, Hq47, -, HoZb3⟩
  sl_exec
  -- of own chunk 3 to y
  icases HpS with ⟨Hp, HpS⟩
  ihave Hmw := (mayWait_list (F := F) cc (dsem (⟨63, by decide⟩ : Fin 140)) (List.drop 40 (paysL cc)) (by decide)) $$ Hlev
  iapply (wait_a6_at m cc _ 3 rfl) $$ [Hcys3 HO Hmw Hp]
  · isplitr; · iexact HIc63
    isplitl [Hcys3]; · iexact Hcys3
    isplitl [HO]; · iexact HO
    isplitl [Hmw]; · iexact Hmw
    iexact Hp
  iintro ⟨HO, Hq63, -, HoYb3⟩
  sl_exec
  -- of the forwarded half to z
  icases HpS with ⟨Hp, HpS⟩
  ihave Hmw := (mayWait_list (F := F) cc (dsem (⟨79, by decide⟩ : Fin 140)) (List.drop 40 (paysL cc)) (by decide)) $$ Hlev
  iapply (wait_a8_at m cc _ 3 rfl (by decide)) $$ [Hczfs3 HO Hmw Hp]
  · isplitr; · iexact HIc79
    isplitl [Hczfs3]; · iexact Hczfs3
    isplitl [HO]; · iexact HO
    isplitl [Hmw]; · iexact Hmw
    iexact Hp
  iintro ⟨HO, Hq79, -, HyFlb3⟩
  sl_exec
  -- of the forwarded half to y
  icases HpS with ⟨Hp, HpS⟩
  ihave Hmw := (mayWait_list (F := F) cc (dsem (⟨95, by decide⟩ : Fin 140)) (List.drop 40 (paysL cc)) (by decide)) $$ Hlev
  iapply (wait_a10_at m cc _ 3 rfl (by decide)) $$ [Hcyfs3 HO Hmw Hp]
  · isplitr; · iexact HIc95
    isplitl [Hcyfs3]; · iexact Hcyfs3
    isplitl [HO]; · iexact HO
    isplitl [Hmw]; · iexact Hmw
    iexact Hp
  iintro ⟨HO, Hq95, -, HzFrb3⟩
  sl_exec
  -- the departure of chunk 4 across x
  icases HpS with ⟨Hp, HpS⟩
  ihave Hmw := (mayWait_list (F := F) cc (dsem (⟨26, by decide⟩ : Fin 140)) (List.drop 40 (paysL cc)) (by decide)) $$ Hlev
  iapply (wait_a0_at m cc _ 4 rfl) $$ [Hcxs4 HO Hmw Hp]
  · isplitr; · iexact HIc26
    isplitl [Hcxs4]; · iexact Hcxs4
    isplitl [HO]; · iexact HO
    isplitl [Hmw]; · iexact Hmw
    iexact Hp
  iintro ⟨HO, Hq26, -, HBs4⟩
  sl_exec
  -- of own chunk 4 to z
  icases HpS with ⟨Hp, HpS⟩
  ihave Hmw := (mayWait_list (F := F) cc (dsem (⟨48, by decide⟩ : Fin 140)) (List.drop 40 (paysL cc)) (by decide)) $$ Hlev
  iapply (wait_a4_at m cc _ 4 rfl) $$ [Hczs4 HO Hmw Hp]
  · isplitr; · iexact HIc48
    isplitl [Hczs4]; · iexact Hczs4
    isplitl [HO]; · iexact HO
    isplitl [Hmw]; · iexact Hmw
    iexact Hp
  iintro ⟨HO, Hq48, -, HoZb4⟩
  sl_exec
  -- of own chunk 4 to y
  icases HpS with ⟨Hp, HpS⟩
  ihave Hmw := (mayWait_list (F := F) cc (dsem (⟨64, by decide⟩ : Fin 140)) (List.drop 40 (paysL cc)) (by decide)) $$ Hlev
  iapply (wait_a6_at m cc _ 4 rfl) $$ [Hcys4 HO Hmw Hp]
  · isplitr; · iexact HIc64
    isplitl [Hcys4]; · iexact Hcys4
    isplitl [HO]; · iexact HO
    isplitl [Hmw]; · iexact Hmw
    iexact Hp
  iintro ⟨HO, Hq64, -, HoYb4⟩
  sl_exec
  -- of the forwarded half to z
  icases HpS with ⟨Hp, HpS⟩
  ihave Hmw := (mayWait_list (F := F) cc (dsem (⟨80, by decide⟩ : Fin 140)) (List.drop 40 (paysL cc)) (by decide)) $$ Hlev
  iapply (wait_a8_at m cc _ 4 rfl (by decide)) $$ [Hczfs4 HO Hmw Hp]
  · isplitr; · iexact HIc80
    isplitl [Hczfs4]; · iexact Hczfs4
    isplitl [HO]; · iexact HO
    isplitl [Hmw]; · iexact Hmw
    iexact Hp
  iintro ⟨HO, Hq80, -, HyFlb4⟩
  sl_exec
  -- of the forwarded half to y
  icases HpS with ⟨Hp, HpS⟩
  ihave Hmw := (mayWait_list (F := F) cc (dsem (⟨96, by decide⟩ : Fin 140)) (List.drop 40 (paysL cc)) (by decide)) $$ Hlev
  iapply (wait_a10_at m cc _ 4 rfl (by decide)) $$ [Hcyfs4 HO Hmw Hp]
  · isplitr; · iexact HIc96
    isplitl [Hcyfs4]; · iexact Hcyfs4
    isplitl [HO]; · iexact HO
    isplitl [Hmw]; · iexact Hmw
    iexact Hp
  iintro ⟨HO, Hq96, -, HzFrb4⟩
  sl_exec
  -- the departure of chunk 5 across x
  icases HpS with ⟨Hp, HpS⟩
  ihave Hmw := (mayWait_list (F := F) cc (dsem (⟨27, by decide⟩ : Fin 140)) (List.drop 40 (paysL cc)) (by decide)) $$ Hlev
  iapply (wait_a0_at m cc _ 5 rfl) $$ [Hcxs5 HO Hmw Hp]
  · isplitr; · iexact HIc27
    isplitl [Hcxs5]; · iexact Hcxs5
    isplitl [HO]; · iexact HO
    isplitl [Hmw]; · iexact Hmw
    iexact Hp
  iintro ⟨HO, Hq27, -, HBs5⟩
  sl_exec
  -- of own chunk 5 to z
  icases HpS with ⟨Hp, HpS⟩
  ihave Hmw := (mayWait_list (F := F) cc (dsem (⟨49, by decide⟩ : Fin 140)) (List.drop 40 (paysL cc)) (by decide)) $$ Hlev
  iapply (wait_a4_at m cc _ 5 rfl) $$ [Hczs5 HO Hmw Hp]
  · isplitr; · iexact HIc49
    isplitl [Hczs5]; · iexact Hczs5
    isplitl [HO]; · iexact HO
    isplitl [Hmw]; · iexact Hmw
    iexact Hp
  iintro ⟨HO, Hq49, -, HoZb5⟩
  sl_exec
  -- of own chunk 5 to y
  icases HpS with ⟨Hp, HpS⟩
  ihave Hmw := (mayWait_list (F := F) cc (dsem (⟨65, by decide⟩ : Fin 140)) (List.drop 40 (paysL cc)) (by decide)) $$ Hlev
  iapply (wait_a6_at m cc _ 5 rfl) $$ [Hcys5 HO Hmw Hp]
  · isplitr; · iexact HIc65
    isplitl [Hcys5]; · iexact Hcys5
    isplitl [HO]; · iexact HO
    isplitl [Hmw]; · iexact Hmw
    iexact Hp
  iintro ⟨HO, Hq65, -, HoYb5⟩
  sl_exec
  -- of the forwarded half to z
  icases HpS with ⟨Hp, HpS⟩
  ihave Hmw := (mayWait_list (F := F) cc (dsem (⟨81, by decide⟩ : Fin 140)) (List.drop 40 (paysL cc)) (by decide)) $$ Hlev
  iapply (wait_a8_at m cc _ 5 rfl (by decide)) $$ [Hczfs5 HO Hmw Hp]
  · isplitr; · iexact HIc81
    isplitl [Hczfs5]; · iexact Hczfs5
    isplitl [HO]; · iexact HO
    isplitl [Hmw]; · iexact Hmw
    iexact Hp
  iintro ⟨HO, Hq81, -, HyFlb5⟩
  sl_exec
  -- of the forwarded half to y
  icases HpS with ⟨Hp, HpS⟩
  ihave Hmw := (mayWait_list (F := F) cc (dsem (⟨97, by decide⟩ : Fin 140)) (List.drop 40 (paysL cc)) (by decide)) $$ Hlev
  iapply (wait_a10_at m cc _ 5 rfl (by decide)) $$ [Hcyfs5 HO Hmw Hp]
  · isplitr; · iexact HIc97
    isplitl [Hcyfs5]; · iexact Hcyfs5
    isplitl [HO]; · iexact HO
    isplitl [Hmw]; · iexact Hmw
    iexact Hp
  iintro ⟨HO, Hq97, -, HzFrb5⟩
  sl_exec
  -- the departure of chunk 6 across x
  icases HpS with ⟨Hp, HpS⟩
  ihave Hmw := (mayWait_list (F := F) cc (dsem (⟨28, by decide⟩ : Fin 140)) (List.drop 40 (paysL cc)) (by decide)) $$ Hlev
  iapply (wait_a0_at m cc _ 6 rfl) $$ [Hcxs6 HO Hmw Hp]
  · isplitr; · iexact HIc28
    isplitl [Hcxs6]; · iexact Hcxs6
    isplitl [HO]; · iexact HO
    isplitl [Hmw]; · iexact Hmw
    iexact Hp
  iintro ⟨HO, Hq28, -, HBs6⟩
  sl_exec
  -- of own chunk 6 to z
  icases HpS with ⟨Hp, HpS⟩
  ihave Hmw := (mayWait_list (F := F) cc (dsem (⟨50, by decide⟩ : Fin 140)) (List.drop 40 (paysL cc)) (by decide)) $$ Hlev
  iapply (wait_a4_at m cc _ 6 rfl) $$ [Hczs6 HO Hmw Hp]
  · isplitr; · iexact HIc50
    isplitl [Hczs6]; · iexact Hczs6
    isplitl [HO]; · iexact HO
    isplitl [Hmw]; · iexact Hmw
    iexact Hp
  iintro ⟨HO, Hq50, -, HoZb6⟩
  sl_exec
  -- of own chunk 6 to y
  icases HpS with ⟨Hp, HpS⟩
  ihave Hmw := (mayWait_list (F := F) cc (dsem (⟨66, by decide⟩ : Fin 140)) (List.drop 40 (paysL cc)) (by decide)) $$ Hlev
  iapply (wait_a6_at m cc _ 6 rfl) $$ [Hcys6 HO Hmw Hp]
  · isplitr; · iexact HIc66
    isplitl [Hcys6]; · iexact Hcys6
    isplitl [HO]; · iexact HO
    isplitl [Hmw]; · iexact Hmw
    iexact Hp
  iintro ⟨HO, Hq66, -, HoYb6⟩
  sl_exec
  -- of the forwarded half to z
  icases HpS with ⟨Hp, HpS⟩
  ihave Hmw := (mayWait_list (F := F) cc (dsem (⟨82, by decide⟩ : Fin 140)) (List.drop 40 (paysL cc)) (by decide)) $$ Hlev
  iapply (wait_a8_at m cc _ 6 rfl (by decide)) $$ [Hczfs6 HO Hmw Hp]
  · isplitr; · iexact HIc82
    isplitl [Hczfs6]; · iexact Hczfs6
    isplitl [HO]; · iexact HO
    isplitl [Hmw]; · iexact Hmw
    iexact Hp
  iintro ⟨HO, Hq82, -, HyFlb6⟩
  sl_exec
  -- of the forwarded half to y
  icases HpS with ⟨Hp, HpS⟩
  ihave Hmw := (mayWait_list (F := F) cc (dsem (⟨98, by decide⟩ : Fin 140)) (List.drop 40 (paysL cc)) (by decide)) $$ Hlev
  iapply (wait_a10_at m cc _ 6 rfl (by decide)) $$ [Hcyfs6 HO Hmw Hp]
  · isplitr; · iexact HIc98
    isplitl [Hcyfs6]; · iexact Hcyfs6
    isplitl [HO]; · iexact HO
    isplitl [Hmw]; · iexact Hmw
    iexact Hp
  iintro ⟨HO, Hq98, -, HzFrb6⟩
  sl_exec
  -- the departure of chunk 7 across x
  icases HpS with ⟨Hp, HpS⟩
  ihave Hmw := (mayWait_list (F := F) cc (dsem (⟨29, by decide⟩ : Fin 140)) (List.drop 40 (paysL cc)) (by decide)) $$ Hlev
  iapply (wait_a0_at m cc _ 7 rfl) $$ [Hcxs7 HO Hmw Hp]
  · isplitr; · iexact HIc29
    isplitl [Hcxs7]; · iexact Hcxs7
    isplitl [HO]; · iexact HO
    isplitl [Hmw]; · iexact Hmw
    iexact Hp
  iintro ⟨HO, Hq29, -, HBs7⟩
  sl_exec
  -- of own chunk 7 to z
  icases HpS with ⟨Hp, HpS⟩
  ihave Hmw := (mayWait_list (F := F) cc (dsem (⟨51, by decide⟩ : Fin 140)) (List.drop 40 (paysL cc)) (by decide)) $$ Hlev
  iapply (wait_a4_at m cc _ 7 rfl) $$ [Hczs7 HO Hmw Hp]
  · isplitr; · iexact HIc51
    isplitl [Hczs7]; · iexact Hczs7
    isplitl [HO]; · iexact HO
    isplitl [Hmw]; · iexact Hmw
    iexact Hp
  iintro ⟨HO, Hq51, -, HoZb7⟩
  sl_exec
  -- of own chunk 7 to y
  icases HpS with ⟨Hp, HpS⟩
  ihave Hmw := (mayWait_list (F := F) cc (dsem (⟨67, by decide⟩ : Fin 140)) (List.drop 40 (paysL cc)) (by decide)) $$ Hlev
  iapply (wait_a6_at m cc _ 7 rfl) $$ [Hcys7 HO Hmw Hp]
  · isplitr; · iexact HIc67
    isplitl [Hcys7]; · iexact Hcys7
    isplitl [HO]; · iexact HO
    isplitl [Hmw]; · iexact Hmw
    iexact Hp
  iintro ⟨HO, Hq67, -, HoYb7⟩
  sl_exec
  -- of the forwarded half to z
  icases HpS with ⟨Hp, HpS⟩
  ihave Hmw := (mayWait_list (F := F) cc (dsem (⟨83, by decide⟩ : Fin 140)) (List.drop 40 (paysL cc)) (by decide)) $$ Hlev
  iapply (wait_a8_at m cc _ 7 rfl (by decide)) $$ [Hczfs7 HO Hmw Hp]
  · isplitr; · iexact HIc83
    isplitl [Hczfs7]; · iexact Hczfs7
    isplitl [HO]; · iexact HO
    isplitl [Hmw]; · iexact Hmw
    iexact Hp
  iintro ⟨HO, Hq83, -, HyFlb7⟩
  sl_exec
  -- of the forwarded half to y
  icases HpS with ⟨Hp, HpS⟩
  ihave Hmw := (mayWait_list (F := F) cc (dsem (⟨99, by decide⟩ : Fin 140)) (List.drop 40 (paysL cc)) (by decide)) $$ Hlev
  iapply (wait_a10_at m cc _ 7 rfl (by decide)) $$ [Hcyfs7 HO Hmw Hp]
  · isplitr; · iexact HIc99
    isplitl [Hcyfs7]; · iexact Hcyfs7
    isplitl [HO]; · iexact HO
    isplitl [Hmw]; · iexact Hmw
    iexact Hp
  iintro ⟨HO, Hq99, -, HzFrb7⟩
  sl_exec
  -- of chunk 0 of the diagonal quarter across x
  icases HpS with ⟨Hp, HpS⟩
  ihave Hmw := (mayWait_list (F := F) cc (dsem (⟨38, by decide⟩ : Fin 140)) (List.drop 40 (paysL cc)) (by decide)) $$ Hlev
  iapply (wait_a2_at m cc _ 0 rfl) $$ [Hcds0 HO Hmw Hp]
  · isplitr; · iexact HIc38
    isplitl [Hcds0]; · iexact Hcds0
    isplitl [HO]; · iexact HO
    isplitl [Hmw]; · iexact Hmw
    iexact Hp
  iintro ⟨HO, Hq38, -, HB2s0⟩
  sl_exec
  -- of chunk 1 of the diagonal quarter across x
  icases HpS with ⟨Hp, HpS⟩
  ihave HpS := ((sep_emp (PROP := sProp 𝕄)).2) $$ HpS
  ihave Hmw := (mayWait_list (F := F) cc (dsem (⟨39, by decide⟩ : Fin 140)) (List.drop 40 (paysL cc)) (by decide)) $$ Hlev
  iapply (wait_a2_at m cc _ 1 rfl) $$ [Hcds1 HO Hmw Hp]
  · isplitr; · iexact HIc39
    isplitl [Hcds1]; · iexact Hcds1
    isplitl [HO]; · iexact HO
    isplitl [Hmw]; · iexact Hmw
    iexact Hp
  iintro ⟨HO, Hq39, -, HB2s1⟩
  sl_exec
  -- of chunk 2 of the diagonal quarter across x

  icases HpS with ⟨HpS, -⟩
  ihave Hmw := (mayWait_list (F := F) cc (dsem (⟨40, by decide⟩ : Fin 140)) (List.drop 40 (paysL cc)) (by decide)) $$ Hlev
  iapply (wait_a2_at m cc _ 2 rfl) $$ [Hcds2 HO Hmw HpS]
  · isplitr; · iexact HIc40
    isplitl [Hcds2]; · iexact Hcds2
    isplitl [HO]; · iexact HO
    isplitl [Hmw]; · iexact Hmw
    iexact HpS
  iintro ⟨HO, Hq40, -, HB2s2⟩
  sl_exec
  -- every cell of the protocol on this device has had its one round: close them, their counters are the device's again
  imod (close_cell (F := F) m cc (⟨22, by decide⟩ : Fin 140) (by decide)) $$ [Hq22] with Hv22
  · isplitr; · iexact HIc22
    iexact Hq22
  imod (close_cell (F := F) m cc (⟨23, by decide⟩ : Fin 140) (by decide)) $$ [Hq23] with Hv23
  · isplitr; · iexact HIc23
    iexact Hq23
  imod (close_cell (F := F) m cc (⟨24, by decide⟩ : Fin 140) (by decide)) $$ [Hq24] with Hv24
  · isplitr; · iexact HIc24
    iexact Hq24
  imod (close_cell (F := F) m cc (⟨25, by decide⟩ : Fin 140) (by decide)) $$ [Hq25] with Hv25
  · isplitr; · iexact HIc25
    iexact Hq25
  imod (close_cell (F := F) m cc (⟨26, by decide⟩ : Fin 140) (by decide)) $$ [Hq26] with Hv26
  · isplitr; · iexact HIc26
    iexact Hq26
  imod (close_cell (F := F) m cc (⟨27, by decide⟩ : Fin 140) (by decide)) $$ [Hq27] with Hv27
  · isplitr; · iexact HIc27
    iexact Hq27
  imod (close_cell (F := F) m cc (⟨28, by decide⟩ : Fin 140) (by decide)) $$ [Hq28] with Hv28
  · isplitr; · iexact HIc28
    iexact Hq28
  imod (close_cell (F := F) m cc (⟨29, by decide⟩ : Fin 140) (by decide)) $$ [Hq29] with Hv29
  · isplitr; · iexact HIc29
    iexact Hq29
  imod (close_cell (F := F) m cc (⟨30, by decide⟩ : Fin 140) (by decide)) $$ [Hq30] with Hv30
  · isplitr; · iexact HIc30
    iexact Hq30
  imod (close_cell (F := F) m cc (⟨31, by decide⟩ : Fin 140) (by decide)) $$ [Hq31] with Hv31
  · isplitr; · iexact HIc31
    iexact Hq31
  imod (close_cell (F := F) m cc (⟨32, by decide⟩ : Fin 140) (by decide)) $$ [Hq32] with Hv32
  · isplitr; · iexact HIc32
    iexact Hq32
  imod (close_cell (F := F) m cc (⟨33, by decide⟩ : Fin 140) (by decide)) $$ [Hq33] with Hv33
  · isplitr; · iexact HIc33
    iexact Hq33
  imod (close_cell (F := F) m cc (⟨34, by decide⟩ : Fin 140) (by decide)) $$ [Hq34] with Hv34
  · isplitr; · iexact HIc34
    iexact Hq34
  imod (close_cell (F := F) m cc (⟨35, by decide⟩ : Fin 140) (by decide)) $$ [Hq35] with Hv35
  · isplitr; · iexact HIc35
    iexact Hq35
  imod (close_cell (F := F) m cc (⟨36, by decide⟩ : Fin 140) (by decide)) $$ [Hq36] with Hv36
  · isplitr; · iexact HIc36
    iexact Hq36
  imod (close_cell (F := F) m cc (⟨37, by decide⟩ : Fin 140) (by decide)) $$ [Hq37] with Hv37
  · isplitr; · iexact HIc37
    iexact Hq37
  imod (close_cell (F := F) m cc (⟨38, by decide⟩ : Fin 140) (by decide)) $$ [Hq38] with Hv38
  · isplitr; · iexact HIc38
    iexact Hq38
  imod (close_cell (F := F) m cc (⟨39, by decide⟩ : Fin 140) (by decide)) $$ [Hq39] with Hv39
  · isplitr; · iexact HIc39
    iexact Hq39
  imod (close_cell (F := F) m cc (⟨40, by decide⟩ : Fin 140) (by decide)) $$ [Hq40] with Hv40
  · isplitr; · iexact HIc40
    iexact Hq40
  imod (close_cell (F := F) m cc (⟨41, by decide⟩ : Fin 140) (by decide)) $$ [Hq41] with Hv41
  · isplitr; · iexact HIc41
    iexact Hq41
  imod (close_cell (F := F) m cc (⟨42, by decide⟩ : Fin 140) (by decide)) $$ [Hq42] with Hv42
  · isplitr; · iexact HIc42
    iexact Hq42
  imod (close_cell (F := F) m cc (⟨43, by decide⟩ : Fin 140) (by decide)) $$ [Hq43] with Hv43
  · isplitr; · iexact HIc43
    iexact Hq43
  imod (close_cell (F := F) m cc (⟨44, by decide⟩ : Fin 140) (by decide)) $$ [Hq44] with Hv44
  · isplitr; · iexact HIc44
    iexact Hq44
  imod (close_cell (F := F) m cc (⟨45, by decide⟩ : Fin 140) (by decide)) $$ [Hq45] with Hv45
  · isplitr; · iexact HIc45
    iexact Hq45
  imod (close_cell (F := F) m cc (⟨46, by decide⟩ : Fin 140) (by decide)) $$ [Hq46] with Hv46
  · isplitr; · iexact HIc46
    iexact Hq46
  imod (close_cell (F := F) m cc (⟨47, by decide⟩ : Fin 140) (by decide)) $$ [Hq47] with Hv47
  · isplitr; · iexact HIc47
    iexact Hq47
  imod (close_cell (F := F) m cc (⟨48, by decide⟩ : Fin 140) (by decide)) $$ [Hq48] with Hv48
  · isplitr; · iexact HIc48
    iexact Hq48
  imod (close_cell (F := F) m cc (⟨49, by decide⟩ : Fin 140) (by decide)) $$ [Hq49] with Hv49
  · isplitr; · iexact HIc49
    iexact Hq49
  imod (close_cell (F := F) m cc (⟨50, by decide⟩ : Fin 140) (by decide)) $$ [Hq50] with Hv50
  · isplitr; · iexact HIc50
    iexact Hq50
  imod (close_cell (F := F) m cc (⟨51, by decide⟩ : Fin 140) (by decide)) $$ [Hq51] with Hv51
  · isplitr; · iexact HIc51
    iexact Hq51
  imod (close_cell (F := F) m cc (⟨52, by decide⟩ : Fin 140) (by decide)) $$ [Hq52] with Hv52
  · isplitr; · iexact HIc52
    iexact Hq52
  imod (close_cell (F := F) m cc (⟨53, by decide⟩ : Fin 140) (by decide)) $$ [Hq53] with Hv53
  · isplitr; · iexact HIc53
    iexact Hq53
  imod (close_cell (F := F) m cc (⟨54, by decide⟩ : Fin 140) (by decide)) $$ [Hq54] with Hv54
  · isplitr; · iexact HIc54
    iexact Hq54
  imod (close_cell (F := F) m cc (⟨55, by decide⟩ : Fin 140) (by decide)) $$ [Hq55] with Hv55
  · isplitr; · iexact HIc55
    iexact Hq55
  imod (close_cell (F := F) m cc (⟨56, by decide⟩ : Fin 140) (by decide)) $$ [Hq56] with Hv56
  · isplitr; · iexact HIc56
    iexact Hq56
  imod (close_cell (F := F) m cc (⟨57, by decide⟩ : Fin 140) (by decide)) $$ [Hq57] with Hv57
  · isplitr; · iexact HIc57
    iexact Hq57
  imod (close_cell (F := F) m cc (⟨58, by decide⟩ : Fin 140) (by decide)) $$ [Hq58] with Hv58
  · isplitr; · iexact HIc58
    iexact Hq58
  imod (close_cell (F := F) m cc (⟨59, by decide⟩ : Fin 140) (by decide)) $$ [Hq59] with Hv59
  · isplitr; · iexact HIc59
    iexact Hq59
  imod (close_cell (F := F) m cc (⟨60, by decide⟩ : Fin 140) (by decide)) $$ [Hq60] with Hv60
  · isplitr; · iexact HIc60
    iexact Hq60
  imod (close_cell (F := F) m cc (⟨61, by decide⟩ : Fin 140) (by decide)) $$ [Hq61] with Hv61
  · isplitr; · iexact HIc61
    iexact Hq61
  imod (close_cell (F := F) m cc (⟨62, by decide⟩ : Fin 140) (by decide)) $$ [Hq62] with Hv62
  · isplitr; · iexact HIc62
    iexact Hq62
  imod (close_cell (F := F) m cc (⟨63, by decide⟩ : Fin 140) (by decide)) $$ [Hq63] with Hv63
  · isplitr; · iexact HIc63
    iexact Hq63
  imod (close_cell (F := F) m cc (⟨64, by decide⟩ : Fin 140) (by decide)) $$ [Hq64] with Hv64
  · isplitr; · iexact HIc64
    iexact Hq64
  imod (close_cell (F := F) m cc (⟨65, by decide⟩ : Fin 140) (by decide)) $$ [Hq65] with Hv65
  · isplitr; · iexact HIc65
    iexact Hq65
  imod (close_cell (F := F) m cc (⟨66, by decide⟩ : Fin 140) (by decide)) $$ [Hq66] with Hv66
  · isplitr; · iexact HIc66
    iexact Hq66
  imod (close_cell (F := F) m cc (⟨67, by decide⟩ : Fin 140) (by decide)) $$ [Hq67] with Hv67
  · isplitr; · iexact HIc67
    iexact Hq67
  imod (close_cell (F := F) m cc (⟨68, by decide⟩ : Fin 140) (by decide)) $$ [Hq68] with Hv68
  · isplitr; · iexact HIc68
    iexact Hq68
  imod (close_cell (F := F) m cc (⟨69, by decide⟩ : Fin 140) (by decide)) $$ [Hq69] with Hv69
  · isplitr; · iexact HIc69
    iexact Hq69
  imod (close_cell (F := F) m cc (⟨70, by decide⟩ : Fin 140) (by decide)) $$ [Hq70] with Hv70
  · isplitr; · iexact HIc70
    iexact Hq70
  imod (close_cell (F := F) m cc (⟨71, by decide⟩ : Fin 140) (by decide)) $$ [Hq71] with Hv71
  · isplitr; · iexact HIc71
    iexact Hq71
  imod (close_cell (F := F) m cc (⟨72, by decide⟩ : Fin 140) (by decide)) $$ [Hq72] with Hv72
  · isplitr; · iexact HIc72
    iexact Hq72
  imod (close_cell (F := F) m cc (⟨73, by decide⟩ : Fin 140) (by decide)) $$ [Hq73] with Hv73
  · isplitr; · iexact HIc73
    iexact Hq73
  imod (close_cell (F := F) m cc (⟨74, by decide⟩ : Fin 140) (by decide)) $$ [Hq74] with Hv74
  · isplitr; · iexact HIc74
    iexact Hq74
  imod (close_cell (F := F) m cc (⟨75, by decide⟩ : Fin 140) (by decide)) $$ [Hq75] with Hv75
  · isplitr; · iexact HIc75
    iexact Hq75
  imod (close_cell (F := F) m cc (⟨79, by decide⟩ : Fin 140) (by decide)) $$ [Hq79] with Hv79
  · isplitr; · iexact HIc79
    iexact Hq79
  imod (close_cell (F := F) m cc (⟨80, by decide⟩ : Fin 140) (by decide)) $$ [Hq80] with Hv80
  · isplitr; · iexact HIc80
    iexact Hq80
  imod (close_cell (F := F) m cc (⟨81, by decide⟩ : Fin 140) (by decide)) $$ [Hq81] with Hv81
  · isplitr; · iexact HIc81
    iexact Hq81
  imod (close_cell (F := F) m cc (⟨82, by decide⟩ : Fin 140) (by decide)) $$ [Hq82] with Hv82
  · isplitr; · iexact HIc82
    iexact Hq82
  imod (close_cell (F := F) m cc (⟨83, by decide⟩ : Fin 140) (by decide)) $$ [Hq83] with Hv83
  · isplitr; · iexact HIc83
    iexact Hq83
  imod (close_cell (F := F) m cc (⟨87, by decide⟩ : Fin 140) (by decide)) $$ [Hq87] with Hv87
  · isplitr; · iexact HIc87
    iexact Hq87
  imod (close_cell (F := F) m cc (⟨88, by decide⟩ : Fin 140) (by decide)) $$ [Hq88] with Hv88
  · isplitr; · iexact HIc88
    iexact Hq88
  imod (close_cell (F := F) m cc (⟨89, by decide⟩ : Fin 140) (by decide)) $$ [Hq89] with Hv89
  · isplitr; · iexact HIc89
    iexact Hq89
  imod (close_cell (F := F) m cc (⟨90, by decide⟩ : Fin 140) (by decide)) $$ [Hq90] with Hv90
  · isplitr; · iexact HIc90
    iexact Hq90
  imod (close_cell (F := F) m cc (⟨91, by decide⟩ : Fin 140) (by decide)) $$ [Hq91] with Hv91
  · isplitr; · iexact HIc91
    iexact Hq91
  imod (close_cell (F := F) m cc (⟨95, by decide⟩ : Fin 140) (by decide)) $$ [Hq95] with Hv95
  · isplitr; · iexact HIc95
    iexact Hq95
  imod (close_cell (F := F) m cc (⟨96, by decide⟩ : Fin 140) (by decide)) $$ [Hq96] with Hv96
  · isplitr; · iexact HIc96
    iexact Hq96
  imod (close_cell (F := F) m cc (⟨97, by decide⟩ : Fin 140) (by decide)) $$ [Hq97] with Hv97
  · isplitr; · iexact HIc97
    iexact Hq97
  imod (close_cell (F := F) m cc (⟨98, by decide⟩ : Fin 140) (by decide)) $$ [Hq98] with Hv98
  · isplitr; · iexact HIc98
    iexact Hq98
  imod (close_cell (F := F) m cc (⟨99, by decide⟩ : Fin 140) (by decide)) $$ [Hq99] with Hv99
  · isplitr; · iexact HIc99
    iexact Hq99
  imod (close_cell (F := F) m cc (⟨103, by decide⟩ : Fin 140) (by decide)) $$ [Hq103] with Hv103
  · isplitr; · iexact HIc103
    iexact Hq103
  imod (close_cell (F := F) m cc (⟨104, by decide⟩ : Fin 140) (by decide)) $$ [Hq104] with Hv104
  · isplitr; · iexact HIc104
    iexact Hq104
  imod (close_cell (F := F) m cc (⟨105, by decide⟩ : Fin 140) (by decide)) $$ [Hq105] with Hv105
  · isplitr; · iexact HIc105
    iexact Hq105
  imod (close_cell (F := F) m cc (⟨106, by decide⟩ : Fin 140) (by decide)) $$ [Hq106] with Hv106
  · isplitr; · iexact HIc106
    iexact Hq106
  imod (close_cell (F := F) m cc (⟨107, by decide⟩ : Fin 140) (by decide)) $$ [Hq107] with Hv107
  · isplitr; · iexact HIc107
    iexact Hq107
  -- the program is over: hand everything back
  icases HvU with ⟨Hu76, Hu77, Hu78, Hu84, Hu85, Hu86, Hu92, Hu93, Hu94, Hu100, Hu101, Hu102⟩
  ihave HO := (Entails.of_eq (show owes (cc : Thread nD τ) (owedL (List.drop 40 (paysL cc))) _ = owes (cc : Thread nD τ) 0 _ from rfl)) $$ HO
  -- each block of the result holds what its copy wrote: the final contents
  ihave HU00 := (congr (F := F) (outR 0 0) cc fullShare ((outR 0 0).view.writes (Elt F) g00 [⟨Rect.whole S512x256, dev.sl.dma0_34 m⟩]) (out m cc) (fun i hi => glue_out' m cc 0 0 g00 i hi)) $$ HU00
  ihave HU01 := (congr (F := F) (outR 0 1) cc fullShare ((outR 0 1).view.writes (Elt F) g01 [⟨Rect.whole S512x256, dev.sl.dma0_35 m⟩]) (out m cc) (fun i hi => glue_out' m cc 0 1 g01 i hi)) $$ HU01
  ihave HU02 := (congr (F := F) (outR 0 2) cc fullShare ((outR 0 2).view.writes (Elt F) g02 [⟨Rect.whole S512x256, dev.sl.dma0_36 m⟩]) (out m cc) (fun i hi => glue_out' m cc 0 2 g02 i hi)) $$ HU02
  ihave HU03 := (congr (F := F) (outR 0 3) cc fullShare ((outR 0 3).view.writes (Elt F) g03 [⟨Rect.whole S512x256, dev.sl.dma0_37 m⟩]) (out m cc) (fun i hi => glue_out' m cc 0 3 g03 i hi)) $$ HU03
  ihave HU10 := (congr (F := F) (outR 1 0) cc fullShare ((outR 1 0).view.writes (Elt F) g10 [⟨Rect.whole S512x256, dev.sl.dma0_38 m⟩]) (out m cc) (fun i hi => glue_out' m cc 1 0 g10 i hi)) $$ HU10
  ihave HU11 := (congr (F := F) (outR 1 1) cc fullShare ((outR 1 1).view.writes (Elt F) g11 [⟨Rect.whole S512x256, dev.sl.dma0_39 m⟩]) (out m cc) (fun i hi => glue_out' m cc 1 1 g11 i hi)) $$ HU11
  ihave HU12 := (congr (F := F) (outR 1 2) cc fullShare ((outR 1 2).view.writes (Elt F) g12 [⟨Rect.whole S512x256, dev.sl.dma0_40 m⟩]) (out m cc) (fun i hi => glue_out' m cc 1 2 g12 i hi)) $$ HU12
  ihave HU13 := (congr (F := F) (outR 1 3) cc fullShare ((outR 1 3).view.writes (Elt F) g13 [⟨Rect.whole S512x256, dev.sl.dma0_41 m⟩]) (out m cc) (fun i hi => glue_out' m cc 1 3 g13 i hi)) $$ HU13
  ihave HU20 := (congr (F := F) (outR 2 0) cc fullShare ((outR 2 0).view.writes (Elt F) g20 [⟨Rect.whole S512x256, dev.sl.dma0_42 m⟩]) (out m cc) (fun i hi => glue_out' m cc 2 0 g20 i hi)) $$ HU20
  ihave HU21 := (congr (F := F) (outR 2 1) cc fullShare ((outR 2 1).view.writes (Elt F) g21 [⟨Rect.whole S512x256, dev.sl.dma0_43 m⟩]) (out m cc) (fun i hi => glue_out' m cc 2 1 g21 i hi)) $$ HU21
  ihave HU22 := (congr (F := F) (outR 2 2) cc fullShare ((outR 2 2).view.writes (Elt F) g22 [⟨Rect.whole S512x256, dev.sl.dma0_44 m⟩]) (out m cc) (fun i hi => glue_out' m cc 2 2 g22 i hi)) $$ HU22
  ihave HU23 := (congr (F := F) (outR 2 3) cc fullShare ((outR 2 3).view.writes (Elt F) g23 [⟨Rect.whole S512x256, dev.sl.dma0_45 m⟩]) (out m cc) (fun i hi => glue_out' m cc 2 3 g23 i hi)) $$ HU23
  ihave HU30 := (congr (F := F) (outR 3 0) cc fullShare ((outR 3 0).view.writes (Elt F) g30 [⟨Rect.whole S512x256, dev.sl.dma0_22 m⟩]) (out m cc) (fun i hi => glue_out' m cc 3 0 g30 i hi)) $$ HU30
  ihave HU31 := (congr (F := F) (outR 3 1) cc fullShare ((outR 3 1).view.writes (Elt F) g31 [⟨Rect.whole S512x256, dev.sl.dma0_23 m⟩]) (out m cc) (fun i hi => glue_out' m cc 3 1 g31 i hi)) $$ HU31
  ihave HU32 := (congr (F := F) (outR 3 2) cc fullShare ((outR 3 2).view.writes (Elt F) g32 [⟨Rect.whole S512x256, dev.sl.dma0_24 m⟩]) (out m cc) (fun i hi => glue_out' m cc 3 2 g32 i hi)) $$ HU32
  ihave HU33 := (congr (F := F) (outR 3 3) cc fullShare ((outR 3 3).view.writes (Elt F) g33 [⟨Rect.whole S512x256, dev.sl.dma0_25 m⟩]) (out m cc) (fun i hi => glue_out' m cc 3 3 g33 i hi)) $$ HU33
  ihave HU40 := (congr (F := F) (outR 4 0) cc fullShare ((outR 4 0).view.writes (Elt F) g40 [⟨Rect.whole S512x256, dev.sl.dma0_26 m⟩]) (out m cc) (fun i hi => glue_out' m cc 4 0 g40 i hi)) $$ HU40
  ihave HU41 := (congr (F := F) (outR 4 1) cc fullShare ((outR 4 1).view.writes (Elt F) g41 [⟨Rect.whole S512x256, dev.sl.dma0_27 m⟩]) (out m cc) (fun i hi => glue_out' m cc 4 1 g41 i hi)) $$ HU41
  ihave HU42 := (congr (F := F) (outR 4 2) cc fullShare ((outR 4 2).view.writes (Elt F) g42 [⟨Rect.whole S512x256, dev.sl.dma0_28 m⟩]) (out m cc) (fun i hi => glue_out' m cc 4 2 g42 i hi)) $$ HU42
  ihave HU43 := (congr (F := F) (outR 4 3) cc fullShare ((outR 4 3).view.writes (Elt F) g43 [⟨Rect.whole S512x256, dev.sl.dma0_29 m⟩]) (out m cc) (fun i hi => glue_out' m cc 4 3 g43 i hi)) $$ HU43
  ihave HU50 := (congr (F := F) (outR 5 0) cc fullShare ((outR 5 0).view.writes (Elt F) g50 [⟨Rect.whole S512x256, dev.sl.dma0_30 m⟩]) (out m cc) (fun i hi => glue_out' m cc 5 0 g50 i hi)) $$ HU50
  ihave HU51 := (congr (F := F) (outR 5 1) cc fullShare ((outR 5 1).view.writes (Elt F) g51 [⟨Rect.whole S512x256, dev.sl.dma0_31 m⟩]) (out m cc) (fun i hi => glue_out' m cc 5 1 g51 i hi)) $$ HU51
  ihave HU52 := (congr (F := F) (outR 5 2) cc fullShare ((outR 5 2).view.writes (Elt F) g52 [⟨Rect.whole S512x256, dev.sl.dma0_32 m⟩]) (out m cc) (fun i hi => glue_out' m cc 5 2 g52 i hi)) $$ HU52
  ihave HU53 := (congr (F := F) (outR 5 3) cc fullShare ((outR 5 3).view.writes (Elt F) g53 [⟨Rect.whole S512x256, dev.sl.dma0_33 m⟩]) (out m cc) (fun i hi => glue_out' m cc 5 3 g53 i hi)) $$ HU53
  ihave HU60 := (congr (F := F) (outR 6 0) cc fullShare ((outR 6 0).view.writes (Elt F) g60 [⟨Rect.whole S512x256, dev.sl.dma0_46 m⟩]) (out m cc) (fun i hi => glue_out' m cc 6 0 g60 i hi)) $$ HU60
  ihave HU61 := (congr (F := F) (outR 6 1) cc fullShare ((outR 6 1).view.writes (Elt F) g61 [⟨Rect.whole S512x256, dev.sl.dma0_47 m⟩]) (out m cc) (fun i hi => glue_out' m cc 6 1 g61 i hi)) $$ HU61
  ihave HU62 := (congr (F := F) (outR 6 2) cc fullShare ((outR 6 2).view.writes (Elt F) g62 [⟨Rect.whole S512x256, dev.sl.dma0_48 m⟩]) (out m cc) (fun i hi => glue_out' m cc 6 2 g62 i hi)) $$ HU62
  ihave HU63 := (congr (F := F) (outR 6 3) cc fullShare ((outR 6 3).view.writes (Elt F) g63 [⟨Rect.whole S512x256, dev.sl.dma0_49 m⟩]) (out m cc) (fun i hi => glue_out' m cc 6 3 g63 i hi)) $$ HU63
  ihave HU70 := (congr (F := F) (outR 7 0) cc fullShare ((outR 7 0).view.writes (Elt F) g70 [⟨Rect.whole S512x256, dev.sl.dma0_50 m⟩]) (out m cc) (fun i hi => glue_out' m cc 7 0 g70 i hi)) $$ HU70
  ihave HU71 := (congr (F := F) (outR 7 1) cc fullShare ((outR 7 1).view.writes (Elt F) g71 [⟨Rect.whole S512x256, dev.sl.dma0_51 m⟩]) (out m cc) (fun i hi => glue_out' m cc 7 1 g71 i hi)) $$ HU71
  ihave HU72 := (congr (F := F) (outR 7 2) cc fullShare ((outR 7 2).view.writes (Elt F) g72 [⟨Rect.whole S512x256, dev.sl.dma0_52 m⟩]) (out m cc) (fun i hi => glue_out' m cc 7 2 g72 i hi)) $$ HU72
  ihave HU73 := (congr (F := F) (outR 7 3) cc fullShare ((outR 7 3).view.writes (Elt F) g73 [⟨Rect.whole S512x256, dev.sl.dma0_53 m⟩]) (out m cc) (fun i hi => glue_out' m cc 7 3 g73 i hi)) $$ HU73
  sl_step
  iapply Hk
  unfold bodyPost
  isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7 Hz0 Hz1 Hz2 HzG3 HzFl3 HzFrb3 HzG4 HzFl4 HzFrb4 HzG5 HzFl5 HzFrb5 HzG6 HzFl6 HzFrb6 HzG7 HzFl7 HzFrb7 Hy0 Hy1 Hy2 HyG3 HyFlb3 HyFr3 HyG4 HyFlb4 HyFr4 HyG5 HyFlb5 HyFr5 HyG6 HyFlb6 HyFr6 HyG7 HyFlb7 HyFr7 Hdq0 Hdq1 Hdq2 Hd3 Hd4 Hd5 Hd6 Hd7]
  · iapply (Entails.of_eq (junk_whole (F := F) cc cc0_scratch0).symm)
    iapply (r4_back (F := F) cc)
    isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7]
    · isplitl [HoZb0 HoYb0 HoK0]
      · iapply (own_back (F := F) cc 0 (r4 m cc))
        isplitl [HoZb0]
        · iexact HoZb0
        isplitl [HoYb0]
        · iexact HoYb0
        iexact HoK0
      isplitl [HoZb1 HoYb1 HoK1]
      · iapply (own_back (F := F) cc 1 (r4 m cc))
        isplitl [HoZb1]
        · iexact HoZb1
        isplitl [HoYb1]
        · iexact HoYb1
        iexact HoK1
      isplitl [HoZb2 HoYb2 HoK2]
      · iapply (own_back (F := F) cc 2 (r4 m cc))
        isplitl [HoZb2]
        · iexact HoZb2
        isplitl [HoYb2]
        · iexact HoYb2
        iexact HoK2
      isplitl [HoZb3 HoYb3 HoK3]
      · iapply (own_back (F := F) cc 3 (r4 m cc))
        isplitl [HoZb3]
        · iexact HoZb3
        isplitl [HoYb3]
        · iexact HoYb3
        iexact HoK3
      isplitl [HoZb4 HoYb4 HoK4]
      · iapply (own_back (F := F) cc 4 (r4 m cc))
        isplitl [HoZb4]
        · iexact HoZb4
        isplitl [HoYb4]
        · iexact HoYb4
        iexact HoK4
      isplitl [HoZb5 HoYb5 HoK5]
      · iapply (own_back (F := F) cc 5 (r4 m cc))
        isplitl [HoZb5]
        · iexact HoZb5
        isplitl [HoYb5]
        · iexact HoYb5
        iexact HoK5
      isplitl [HoZb6 HoYb6 HoK6]
      · iapply (own_back (F := F) cc 6 (r4 m cc))
        isplitl [HoZb6]
        · iexact HoZb6
        isplitl [HoYb6]
        · iexact HoYb6
        iexact HoK6
      iapply (own_back (F := F) cc 7 (r4 m cc))
      isplitl [HoZb7]
      · iexact HoZb7
      isplitl [HoYb7]
      · iexact HoYb7
      iexact HoK7
    isplitl [Hz0 Hz1 Hz2 HzG3 HzFl3 HzFrb3 HzG4 HzFl4 HzFrb4 HzG5 HzFl5 HzFrb5 HzG6 HzFl6 HzFrb6 HzG7 HzFl7 HzFrb7]
    · isplitl [Hz0]
      · iexists _; iexact Hz0
      isplitl [Hz1]
      · iexists _; iexact Hz1
      isplitl [Hz2]
      · iexists _; iexact Hz2
      isplitl [HzG3 HzFl3 HzFrb3]
      · iapply (nbr_back (F := F) cc (zqF cc) 3 (r4 m cc))
        isplitl [HzG3]
        · iexact HzG3
        isplitl [HzFl3]
        · iexact HzFl3
        iexact HzFrb3
      isplitl [HzG4 HzFl4 HzFrb4]
      · iapply (nbr_back (F := F) cc (zqF cc) 4 (r4 m cc))
        isplitl [HzG4]
        · iexact HzG4
        isplitl [HzFl4]
        · iexact HzFl4
        iexact HzFrb4
      isplitl [HzG5 HzFl5 HzFrb5]
      · iapply (nbr_back (F := F) cc (zqF cc) 5 (r4 m cc))
        isplitl [HzG5]
        · iexact HzG5
        isplitl [HzFl5]
        · iexact HzFl5
        iexact HzFrb5
      isplitl [HzG6 HzFl6 HzFrb6]
      · iapply (nbr_back (F := F) cc (zqF cc) 6 (r4 m cc))
        isplitl [HzG6]
        · iexact HzG6
        isplitl [HzFl6]
        · iexact HzFl6
        iexact HzFrb6
      iapply (nbr_back (F := F) cc (zqF cc) 7 (r4 m cc))
      isplitl [HzG7]
      · iexact HzG7
      isplitl [HzFl7]
      · iexact HzFl7
      iexact HzFrb7
    isplitl [Hy0 Hy1 Hy2 HyG3 HyFlb3 HyFr3 HyG4 HyFlb4 HyFr4 HyG5 HyFlb5 HyFr5 HyG6 HyFlb6 HyFr6 HyG7 HyFlb7 HyFr7]
    · isplitl [Hy0]
      · iexists _; iexact Hy0
      isplitl [Hy1]
      · iexists _; iexact Hy1
      isplitl [Hy2]
      · iexists _; iexact Hy2
      isplitl [HyG3 HyFlb3 HyFr3]
      · iapply (nbr_back (F := F) cc (yqF cc) 3 (r4 m cc))
        isplitl [HyG3]
        · iexact HyG3
        isplitl [HyFlb3]
        · iexact HyFlb3
        iexact HyFr3
      isplitl [HyG4 HyFlb4 HyFr4]
      · iapply (nbr_back (F := F) cc (yqF cc) 4 (r4 m cc))
        isplitl [HyG4]
        · iexact HyG4
        isplitl [HyFlb4]
        · iexact HyFlb4
        iexact HyFr4
      isplitl [HyG5 HyFlb5 HyFr5]
      · iapply (nbr_back (F := F) cc (yqF cc) 5 (r4 m cc))
        isplitl [HyG5]
        · iexact HyG5
        isplitl [HyFlb5]
        · iexact HyFlb5
        iexact HyFr5
      isplitl [HyG6 HyFlb6 HyFr6]
      · iapply (nbr_back (F := F) cc (yqF cc) 6 (r4 m cc))
        isplitl [HyG6]
        · iexact HyG6
        isplitl [HyFlb6]
        · iexact HyFlb6
        iexact HyFr6
      iapply (nbr_back (F := F) cc (yqF cc) 7 (r4 m cc))
      isplitl [HyG7]
      · iexact HyG7
      isplitl [HyFlb7]
      · iexact HyFlb7
      iexact HyFr7
    isplitl [Hdq0 Hdq1 Hdq2]
    · isplitl [Hdq0]
      · iexists _; iexact Hdq0
      isplitl [Hdq1]
      · iexists _; iexact Hdq1
      iexists _; iexact Hdq2
    isplitl [Hd3]
    · iapply (dq_halves (F := F) cc 3 (r4 m cc))
      iexact Hd3
    isplitl [Hd4]
    · iapply (dq_halves (F := F) cc 4 (r4 m cc))
      iexact Hd4
    isplitl [Hd5]
    · iapply (dq_halves (F := F) cc 5 (r4 m cc))
      iexact Hd5
    isplitl [Hd6]
    · iapply (dq_halves (F := F) cc 6 (r4 m cc))
      iexact Hd6
    iapply (dq_halves (F := F) cc 7 (r4 m cc))
    iexact Hd7
  isplitl [HBs0 HBs1 HBs2 HBs3 HBs4 HBs5 HBs6 HBs7]
  · iapply (Entails.of_eq (junk_whole (F := F) cc cc0_scratch1).symm)
    iapply (sb_rows_join (F := F) cc)
    isplitl [HBs0]
    · iexists _; iexact HBs0
    isplitl [HBs1]
    · iexists _; iexact HBs1
    isplitl [HBs2]
    · iexists _; iexact HBs2
    isplitl [HBs3]
    · iexists _; iexact HBs3
    isplitl [HBs4]
    · iexists _; iexact HBs4
    isplitl [HBs5]
    · iexists _; iexact HBs5
    isplitl [HBs6]
    · iexists _; iexact HBs6
    iexists _; iexact HBs7
  isplitl [Hrb0 Hrb1 Hrb2 Hrb3 Hrb4 Hrb5 Hrb6 Hrb7]
  · iapply (Entails.of_eq (junk_whole (F := F) cc cc0_scratch2).symm)
    iapply (rb_rows_join (F := F) cc)
    isplitl [Hrb0]
    · iexists _; iexact Hrb0
    isplitl [Hrb1]
    · iexists _; iexact Hrb1
    isplitl [Hrb2]
    · iexists _; iexact Hrb2
    isplitl [Hrb3]
    · iexists _; iexact Hrb3
    isplitl [Hrb4]
    · iexists _; iexact Hrb4
    isplitl [Hrb5]
    · iexists _; iexact Hrb5
    isplitl [Hrb6]
    · iexists _; iexact Hrb6
    iexists _; iexact Hrb7
  isplitl [HB2s0 HB2s1 HB2s2]
  · iapply (Entails.of_eq (junk_whole (F := F) cc cc0_scratch3).symm)
    iapply (sb2_rows_join (F := F) cc)
    isplitl [HB2s0]
    · iexists _; iexact HB2s0
    isplitl [HB2s1]
    · iexists _; iexact HB2s1
    iexists _; iexact HB2s2
  isplitl [Hrb20 Hrb21 Hrb22]
  · iapply (Entails.of_eq (junk_whole (F := F) cc cc0_scratch4).symm)
    iapply (rb2_rows_join (F := F) cc)
    isplitl [Hrb20]
    · iexists _; iexact Hrb20
    isplitl [Hrb21]
    · iexists _; iexact Hrb21
    iexists _; iexact Hrb22
  isplitl [HP0 HP1 HP2 HP3 HP4 HP5 HP6 HP7]
  · iapply (Entails.of_eq (junk_whole (F := F) cc cc0_scratch5).symm)
    iapply (stP_rows_join (F := F) cc)
    isplitl [HP0]
    · iexists _; iexact HP0
    isplitl [HP1]
    · iexists _; iexact HP1
    isplitl [HP2]
    · iexists _; iexact HP2
    isplitl [HP3]
    · iexists _; iexact HP3
    isplitl [HP4]
    · iexists _; iexact HP4
    isplitl [HP5]
    · iexists _; iexact HP5
    isplitl [HP6]
    · iexists _; iexact HP6
    iexists _; iexact HP7
  isplitl [HL0 HL1 HL2 HL3 HL4 HL5 HL6 HL7]
  · iapply (Entails.of_eq (junk_whole (F := F) cc cc0_scratch6).symm)
    iapply (stL_rows_join (F := F) cc)
    isplitl [HL0]
    · iexists _; iexact HL0
    isplitl [HL1]
    · iexists _; iexact HL1
    isplitl [HL2]
    · iexists _; iexact HL2
    isplitl [HL3]
    · iexists _; iexact HL3
    isplitl [HL4]
    · iexists _; iexact HL4
    isplitl [HL5]
    · iexists _; iexact HL5
    isplitl [HL6]
    · iexists _; iexact HL6
    iexists _; iexact HL7
  isplitl [HP20 HP21 HP22]
  · iapply (Entails.of_eq (junk_whole (F := F) cc cc0_scratch7).symm)
    iapply (stP2_rows_join (F := F) cc)
    isplitl [HP20]
    · iexists _; iexact HP20
    isplitl [HP21]
    · iexists _; iexact HP21
    iexists _; iexact HP22
  isplitl [HL20 HL21 HL22]
  · iapply (Entails.of_eq (junk_whole (F := F) cc cc0_scratch8).symm)
    iapply (stL2_rows_join (F := F) cc)
    isplitl [HL20]
    · iexists _; iexact HL20
    isplitl [HL21]
    · iexists _; iexact HL21
    iexists _; iexact HL22
  isplitl [HX]
  · iexact HX
  isplitl [HU00 HU01 HU02 HU03 HU10 HU11 HU12 HU13 HU20 HU21 HU22 HU23 HU30 HU31 HU32 HU33 HU40 HU41 HU42 HU43 HU50 HU51 HU52 HU53 HU60 HU61 HU62 HU63 HU70 HU71 HU72 HU73]
  · iapply (out_join (F := F) cc (out m cc))
    isplitl [HU00]
    · iexact HU00
    isplitl [HU01]
    · iexact HU01
    isplitl [HU02]
    · iexact HU02
    isplitl [HU03]
    · iexact HU03
    isplitl [HU10]
    · iexact HU10
    isplitl [HU11]
    · iexact HU11
    isplitl [HU12]
    · iexact HU12
    isplitl [HU13]
    · iexact HU13
    isplitl [HU20]
    · iexact HU20
    isplitl [HU21]
    · iexact HU21
    isplitl [HU22]
    · iexact HU22
    isplitl [HU23]
    · iexact HU23
    isplitl [HU30]
    · iexact HU30
    isplitl [HU31]
    · iexact HU31
    isplitl [HU32]
    · iexact HU32
    isplitl [HU33]
    · iexact HU33
    isplitl [HU40]
    · iexact HU40
    isplitl [HU41]
    · iexact HU41
    isplitl [HU42]
    · iexact HU42
    isplitl [HU43]
    · iexact HU43
    isplitl [HU50]
    · iexact HU50
    isplitl [HU51]
    · iexact HU51
    isplitl [HU52]
    · iexact HU52
    isplitl [HU53]
    · iexact HU53
    isplitl [HU60]
    · iexact HU60
    isplitl [HU61]
    · iexact HU61
    isplitl [HU62]
    · iexact HU62
    isplitl [HU63]
    · iexact HU63
    isplitl [HU70]
    · iexact HU70
    isplitl [HU71]
    · iexact HU71
    isplitl [HU72]
    · iexact HU72
    iexact HU73
  isplitl [Hv0 Hv1 Hv2 Hv3 Hv4 Hv5 Hv6 Hv7 Hv8 Hv9 Hv10 Hv11 Hv12 Hv13 Hv14 Hv15 Hv16 Hv17 Hv18 Hv19 Hv20 Hv21 Hv22 Hv23 Hv24 Hv25 Hv26 Hv27 Hv28 Hv29 Hv30 Hv31 Hv32 Hv33 Hv34 Hv35 Hv36 Hv37 Hv38 Hv39 Hv40 Hv41 Hv42 Hv43 Hv44 Hv45 Hv46 Hv47 Hv48 Hv49 Hv50 Hv51 Hv52 Hv53 Hv54 Hv55 Hv56 Hv57 Hv58 Hv59 Hv60 Hv61 Hv62 Hv63 Hv64 Hv65 Hv66 Hv67 Hv68 Hv69 Hv70 Hv71 Hv72 Hv73 Hv74 Hv75 Hu76 Hu77 Hu78 Hv79 Hv80 Hv81 Hv82 Hv83 Hu84 Hu85 Hu86 Hv87 Hv88 Hv89 Hv90 Hv91 Hu92 Hu93 Hu94 Hv95 Hv96 Hv97 Hv98 Hv99 Hu100 Hu101 Hu102 Hv103 Hv104 Hv105 Hv106 Hv107 Hw0a Hw0b Hw0c Hw0d Hw1a Hw1b Hw1c Hw1d Hw2a Hw2b Hw2c Hw2d Hw3a Hw3b Hw3c Hw3d Hw4a Hw4b Hw4c Hw4d Hw5a Hw5b Hw5c Hw5d Hw6a Hw6b Hw6c Hw6d Hw7a Hw7b Hw7c Hw7d]
  · iapply (Entails.of_eq (show (iprop(semVal (cellAt cc (⟨0, Nat.le_of_ble_eq_true rfl⟩ : Fin 140)) 0 ∗ semVal (cellAt cc (⟨1, Nat.le_of_ble_eq_true rfl⟩ : Fin 140)) 0 ∗ semVal (cellAt cc (⟨2, Nat.le_of_ble_eq_true rfl⟩ : Fin 140)) 0 ∗ semVal (cellAt cc (⟨3, Nat.le_of_ble_eq_true rfl⟩ : Fin 140)) 0 ∗ semVal (cellAt cc (⟨4, Nat.le_of_ble_eq_true rfl⟩ : Fin 140)) 0 ∗ semVal (cellAt cc (⟨5, Nat.le_of_ble_eq_true rfl⟩ : Fin 140)) 0 ∗ semVal (cellAt cc (⟨6, Nat.le_of_ble_eq_true rfl⟩ : Fin 140)) 0 ∗ semVal (cellAt cc (⟨7, Nat.le_of_ble_eq_true rfl⟩ : Fin 140)) 0 ∗ semVal (cellAt cc (⟨8, Nat.le_of_ble_eq_true rfl⟩ : Fin 140)) 0 ∗ semVal (cellAt cc (⟨9, Nat.le_of_ble_eq_true rfl⟩ : Fin 140)) 0 ∗ semVal (cellAt cc (⟨10, Nat.le_of_ble_eq_true rfl⟩ : Fin 140)) 0 ∗ semVal (cellAt cc (⟨11, Nat.le_of_ble_eq_true rfl⟩ : Fin 140)) 0 ∗ semVal (cellAt cc (⟨12, Nat.le_of_ble_eq_true rfl⟩ : Fin 140)) 0 ∗ semVal (cellAt cc (⟨13, Nat.le_of_ble_eq_true rfl⟩ : Fin 140)) 0 ∗ semVal (cellAt cc (⟨14, Nat.le_of_ble_eq_true rfl⟩ : Fin 140)) 0 ∗ semVal (cellAt cc (⟨15, Nat.le_of_ble_eq_true rfl⟩ : Fin 140)) 0 ∗ semVal (cellAt cc (⟨16, Nat.le_of_ble_eq_true rfl⟩ : Fin 140)) 0 ∗ semVal (cellAt cc (⟨17, Nat.le_of_ble_eq_true rfl⟩ : Fin 140)) 0 ∗ semVal (cellAt cc (⟨18, Nat.le_of_ble_eq_true rfl⟩ : Fin 140)) 0 ∗ semVal (cellAt cc (⟨19, Nat.le_of_ble_eq_true rfl⟩ : Fin 140)) 0 ∗ semVal (cellAt cc (⟨20, Nat.le_of_ble_eq_true rfl⟩ : Fin 140)) 0 ∗ semVal (cellAt cc (⟨21, Nat.le_of_ble_eq_true rfl⟩ : Fin 140)) 0 ∗ semVal (cellAt cc (⟨22, Nat.le_of_ble_eq_true rfl⟩ : Fin 140)) 0 ∗ semVal (cellAt cc (⟨23, Nat.le_of_ble_eq_true rfl⟩ : Fin 140)) 0 ∗ semVal (cellAt cc (⟨24, Nat.le_of_ble_eq_true rfl⟩ : Fin 140)) 0 ∗ semVal (cellAt cc (⟨25, Nat.le_of_ble_eq_true rfl⟩ : Fin 140)) 0 ∗ semVal (cellAt cc (⟨26, Nat.le_of_ble_eq_true rfl⟩ : Fin 140)) 0 ∗ semVal (cellAt cc (⟨27, Nat.le_of_ble_eq_true rfl⟩ : Fin 140)) 0 ∗ semVal (cellAt cc (⟨28, Nat.le_of_ble_eq_true rfl⟩ : Fin 140)) 0 ∗ semVal (cellAt cc (⟨29, Nat.le_of_ble_eq_true rfl⟩ : Fin 140)) 0 ∗ semVal (cellAt cc (⟨30, Nat.le_of_ble_eq_true rfl⟩ : Fin 140)) 0 ∗ semVal (cellAt cc (⟨31, Nat.le_of_ble_eq_true rfl⟩ : Fin 140)) 0 ∗ semVal (cellAt cc (⟨32, Nat.le_of_ble_eq_true rfl⟩ : Fin 140)) 0 ∗ semVal (cellAt cc (⟨33, Nat.le_of_ble_eq_true rfl⟩ : Fin 140)) 0 ∗ semVal (cellAt cc (⟨34, Nat.le_of_ble_eq_true rfl⟩ : Fin 140)) 0 ∗ semVal (cellAt cc (⟨35, Nat.le_of_ble_eq_true rfl⟩ : Fin 140)) 0 ∗ semVal (cellAt cc (⟨36, Nat.le_of_ble_eq_true rfl⟩ : Fin 140)) 0 ∗ semVal (cellAt cc (⟨37, Nat.le_of_ble_eq_true rfl⟩ : Fin 140)) 0 ∗ semVal (cellAt cc (⟨38, Nat.le_of_ble_eq_true rfl⟩ : Fin 140)) 0 ∗ semVal (cellAt cc (⟨39, Nat.le_of_ble_eq_true rfl⟩ : Fin 140)) 0 ∗ semVal (cellAt cc (⟨40, Nat.le_of_ble_eq_true rfl⟩ : Fin 140)) 0 ∗ semVal (cellAt cc (⟨41, Nat.le_of_ble_eq_true rfl⟩ : Fin 140)) 0 ∗ semVal (cellAt cc (⟨42, Nat.le_of_ble_eq_true rfl⟩ : Fin 140)) 0 ∗ semVal (cellAt cc (⟨43, Nat.le_of_ble_eq_true rfl⟩ : Fin 140)) 0 ∗ semVal (cellAt cc (⟨44, Nat.le_of_ble_eq_true rfl⟩ : Fin 140)) 0 ∗ semVal (cellAt cc (⟨45, Nat.le_of_ble_eq_true rfl⟩ : Fin 140)) 0 ∗ semVal (cellAt cc (⟨46, Nat.le_of_ble_eq_true rfl⟩ : Fin 140)) 0 ∗ semVal (cellAt cc (⟨47, Nat.le_of_ble_eq_true rfl⟩ : Fin 140)) 0 ∗ semVal (cellAt cc (⟨48, Nat.le_of_ble_eq_true rfl⟩ : Fin 140)) 0 ∗ semVal (cellAt cc (⟨49, Nat.le_of_ble_eq_true rfl⟩ : Fin 140)) 0 ∗ semVal (cellAt cc (⟨50, Nat.le_of_ble_eq_true rfl⟩ : Fin 140)) 0 ∗ semVal (cellAt cc (⟨51, Nat.le_of_ble_eq_true rfl⟩ : Fin 140)) 0 ∗ semVal (cellAt cc (⟨52, Nat.le_of_ble_eq_true rfl⟩ : Fin 140)) 0 ∗ semVal (cellAt cc (⟨53, Nat.le_of_ble_eq_true rfl⟩ : Fin 140)) 0 ∗ semVal (cellAt cc (⟨54, Nat.le_of_ble_eq_true rfl⟩ : Fin 140)) 0 ∗ semVal (cellAt cc (⟨55, Nat.le_of_ble_eq_true rfl⟩ : Fin 140)) 0 ∗ semVal (cellAt cc (⟨56, Nat.le_of_ble_eq_true rfl⟩ : Fin 140)) 0 ∗ semVal (cellAt cc (⟨57, Nat.le_of_ble_eq_true rfl⟩ : Fin 140)) 0 ∗ semVal (cellAt cc (⟨58, Nat.le_of_ble_eq_true rfl⟩ : Fin 140)) 0 ∗ semVal (cellAt cc (⟨59, Nat.le_of_ble_eq_true rfl⟩ : Fin 140)) 0 ∗ semVal (cellAt cc (⟨60, Nat.le_of_ble_eq_true rfl⟩ : Fin 140)) 0 ∗ semVal (cellAt cc (⟨61, Nat.le_of_ble_eq_true rfl⟩ : Fin 140)) 0 ∗ semVal (cellAt cc (⟨62, Nat.le_of_ble_eq_true rfl⟩ : Fin 140)) 0 ∗ semVal (cellAt cc (⟨63, Nat.le_of_ble_eq_true rfl⟩ : Fin 140)) 0 ∗ semVal (cellAt cc (⟨64, Nat.le_of_ble_eq_true rfl⟩ : Fin 140)) 0 ∗ semVal (cellAt cc (⟨65, Nat.le_of_ble_eq_true rfl⟩ : Fin 140)) 0 ∗ semVal (cellAt cc (⟨66, Nat.le_of_ble_eq_true rfl⟩ : Fin 140)) 0 ∗ semVal (cellAt cc (⟨67, Nat.le_of_ble_eq_true rfl⟩ : Fin 140)) 0 ∗ semVal (cellAt cc (⟨68, Nat.le_of_ble_eq_true rfl⟩ : Fin 140)) 0 ∗ semVal (cellAt cc (⟨69, Nat.le_of_ble_eq_true rfl⟩ : Fin 140)) 0 ∗ semVal (cellAt cc (⟨70, Nat.le_of_ble_eq_true rfl⟩ : Fin 140)) 0 ∗ semVal (cellAt cc (⟨71, Nat.le_of_ble_eq_true rfl⟩ : Fin 140)) 0 ∗ semVal (cellAt cc (⟨72, Nat.le_of_ble_eq_true rfl⟩ : Fin 140)) 0 ∗ semVal (cellAt cc (⟨73, Nat.le_of_ble_eq_true rfl⟩ : Fin 140)) 0 ∗ semVal (cellAt cc (⟨74, Nat.le_of_ble_eq_true rfl⟩ : Fin 140)) 0 ∗ semVal (cellAt cc (⟨75, Nat.le_of_ble_eq_true rfl⟩ : Fin 140)) 0 ∗ semVal (cellAt cc (⟨76, Nat.le_of_ble_eq_true rfl⟩ : Fin 140)) 0 ∗ semVal (cellAt cc (⟨77, Nat.le_of_ble_eq_true rfl⟩ : Fin 140)) 0 ∗ semVal (cellAt cc (⟨78, Nat.le_of_ble_eq_true rfl⟩ : Fin 140)) 0 ∗ semVal (cellAt cc (⟨79, Nat.le_of_ble_eq_true rfl⟩ : Fin 140)) 0 ∗ semVal (cellAt cc (⟨80, Nat.le_of_ble_eq_true rfl⟩ : Fin 140)) 0 ∗ semVal (cellAt cc (⟨81, Nat.le_of_ble_eq_true rfl⟩ : Fin 140)) 0 ∗ semVal (cellAt cc (⟨82, Nat.le_of_ble_eq_true rfl⟩ : Fin 140)) 0 ∗ semVal (cellAt cc (⟨83, Nat.le_of_ble_eq_true rfl⟩ : Fin 140)) 0 ∗ semVal (cellAt cc (⟨84, Nat.le_of_ble_eq_true rfl⟩ : Fin 140)) 0 ∗ semVal (cellAt cc (⟨85, Nat.le_of_ble_eq_true rfl⟩ : Fin 140)) 0 ∗ semVal (cellAt cc (⟨86, Nat.le_of_ble_eq_true rfl⟩ : Fin 140)) 0 ∗ semVal (cellAt cc (⟨87, Nat.le_of_ble_eq_true rfl⟩ : Fin 140)) 0 ∗ semVal (cellAt cc (⟨88, Nat.le_of_ble_eq_true rfl⟩ : Fin 140)) 0 ∗ semVal (cellAt cc (⟨89, Nat.le_of_ble_eq_true rfl⟩ : Fin 140)) 0 ∗ semVal (cellAt cc (⟨90, Nat.le_of_ble_eq_true rfl⟩ : Fin 140)) 0 ∗ semVal (cellAt cc (⟨91, Nat.le_of_ble_eq_true rfl⟩ : Fin 140)) 0 ∗ semVal (cellAt cc (⟨92, Nat.le_of_ble_eq_true rfl⟩ : Fin 140)) 0 ∗ semVal (cellAt cc (⟨93, Nat.le_of_ble_eq_true rfl⟩ : Fin 140)) 0 ∗ semVal (cellAt cc (⟨94, Nat.le_of_ble_eq_true rfl⟩ : Fin 140)) 0 ∗ semVal (cellAt cc (⟨95, Nat.le_of_ble_eq_true rfl⟩ : Fin 140)) 0 ∗ semVal (cellAt cc (⟨96, Nat.le_of_ble_eq_true rfl⟩ : Fin 140)) 0 ∗ semVal (cellAt cc (⟨97, Nat.le_of_ble_eq_true rfl⟩ : Fin 140)) 0 ∗ semVal (cellAt cc (⟨98, Nat.le_of_ble_eq_true rfl⟩ : Fin 140)) 0 ∗ semVal (cellAt cc (⟨99, Nat.le_of_ble_eq_true rfl⟩ : Fin 140)) 0 ∗ semVal (cellAt cc (⟨100, Nat.le_of_ble_eq_true rfl⟩ : Fin 140)) 0 ∗ semVal (cellAt cc (⟨101, Nat.le_of_ble_eq_true rfl⟩ : Fin 140)) 0 ∗ semVal (cellAt cc (⟨102, Nat.le_of_ble_eq_true rfl⟩ : Fin 140)) 0 ∗ semVal (cellAt cc (⟨103, Nat.le_of_ble_eq_true rfl⟩ : Fin 140)) 0 ∗ semVal (cellAt cc (⟨104, Nat.le_of_ble_eq_true rfl⟩ : Fin 140)) 0 ∗ semVal (cellAt cc (⟨105, Nat.le_of_ble_eq_true rfl⟩ : Fin 140)) 0 ∗ semVal (cellAt cc (⟨106, Nat.le_of_ble_eq_true rfl⟩ : Fin 140)) 0 ∗ semVal (cellAt cc (⟨107, Nat.le_of_ble_eq_true rfl⟩ : Fin 140)) 0 ∗ semVal (cellAt cc (⟨108, Nat.le_of_ble_eq_true rfl⟩ : Fin 140)) 0 ∗ semVal (cellAt cc (⟨109, Nat.le_of_ble_eq_true rfl⟩ : Fin 140)) 0 ∗ semVal (cellAt cc (⟨110, Nat.le_of_ble_eq_true rfl⟩ : Fin 140)) 0 ∗ semVal (cellAt cc (⟨111, Nat.le_of_ble_eq_true rfl⟩ : Fin 140)) 0 ∗ semVal (cellAt cc (⟨112, Nat.le_of_ble_eq_true rfl⟩ : Fin 140)) 0 ∗ semVal (cellAt cc (⟨113, Nat.le_of_ble_eq_true rfl⟩ : Fin 140)) 0 ∗ semVal (cellAt cc (⟨114, Nat.le_of_ble_eq_true rfl⟩ : Fin 140)) 0 ∗ semVal (cellAt cc (⟨115, Nat.le_of_ble_eq_true rfl⟩ : Fin 140)) 0 ∗ semVal (cellAt cc (⟨116, Nat.le_of_ble_eq_true rfl⟩ : Fin 140)) 0 ∗ semVal (cellAt cc (⟨117, Nat.le_of_ble_eq_true rfl⟩ : Fin 140)) 0 ∗ semVal (cellAt cc (⟨118, Nat.le_of_ble_eq_true rfl⟩ : Fin 140)) 0 ∗ semVal (cellAt cc (⟨119, Nat.le_of_ble_eq_true rfl⟩ : Fin 140)) 0 ∗ semVal (cellAt cc (⟨120, Nat.le_of_ble_eq_true rfl⟩ : Fin 140)) 0 ∗ semVal (cellAt cc (⟨121, Nat.le_of_ble_eq_true rfl⟩ : Fin 140)) 0 ∗ semVal (cellAt cc (⟨122, Nat.le_of_ble_eq_true rfl⟩ : Fin 140)) 0 ∗ semVal (cellAt cc (⟨123, Nat.le_of_ble_eq_true rfl⟩ : Fin 140)) 0 ∗ semVal (cellAt cc (⟨124, Nat.le_of_ble_eq_true rfl⟩ : Fin 140)) 0 ∗ semVal (cellAt cc (⟨125, Nat.le_of_ble_eq_true rfl⟩ : Fin 140)) 0 ∗ semVal (cellAt cc (⟨126, Nat.le_of_ble_eq_true rfl⟩ : Fin 140)) 0 ∗ semVal (cellAt cc (⟨127, Nat.le_of_ble_eq_true rfl⟩ : Fin 140)) 0 ∗ semVal (cellAt cc (⟨128, Nat.le_of_ble_eq_true rfl⟩ : Fin 140)) 0 ∗ semVal (cellAt cc (⟨129, Nat.le_of_ble_eq_true rfl⟩ : Fin 140)) 0 ∗ semVal (cellAt cc (⟨130, Nat.le_of_ble_eq_true rfl⟩ : Fin 140)) 0 ∗ semVal (cellAt cc (⟨131, Nat.le_of_ble_eq_true rfl⟩ : Fin 140)) 0 ∗ semVal (cellAt cc (⟨132, Nat.le_of_ble_eq_true rfl⟩ : Fin 140)) 0 ∗ semVal (cellAt cc (⟨133, Nat.le_of_ble_eq_true rfl⟩ : Fin 140)) 0 ∗ semVal (cellAt cc (⟨134, Nat.le_of_ble_eq_true rfl⟩ : Fin 140)) 0 ∗ semVal (cellAt cc (⟨135, Nat.le_of_ble_eq_true rfl⟩ : Fin 140)) 0 ∗ semVal (cellAt cc (⟨136, Nat.le_of_ble_eq_true rfl⟩ : Fin 140)) 0 ∗ semVal (cellAt cc (⟨137, Nat.le_of_ble_eq_true rfl⟩ : Fin 140)) 0 ∗ semVal (cellAt cc (⟨138, Nat.le_of_ble_eq_true rfl⟩ : Fin 140)) 0 ∗ semVal (cellAt cc (⟨139, Nat.le_of_ble_eq_true rfl⟩ : Fin 140)) 0) : sProp 𝕄) = (bigSepL allJ fun j => semVal (cellAt cc j) 0) from rfl))
    isplitl [Hv0]
    · iexact Hv0
    isplitl [Hv1]
    · iexact Hv1
    isplitl [Hv2]
    · iexact Hv2
    isplitl [Hv3]
    · iexact Hv3
    isplitl [Hv4]
    · iexact Hv4
    isplitl [Hv5]
    · iexact Hv5
    isplitl [Hv6]
    · iexact Hv6
    isplitl [Hv7]
    · iexact Hv7
    isplitl [Hv8]
    · iexact Hv8
    isplitl [Hv9]
    · iexact Hv9
    isplitl [Hv10]
    · iexact Hv10
    isplitl [Hv11]
    · iexact Hv11
    isplitl [Hv12]
    · iexact Hv12
    isplitl [Hv13]
    · iexact Hv13
    isplitl [Hv14]
    · iexact Hv14
    isplitl [Hv15]
    · iexact Hv15
    isplitl [Hv16]
    · iexact Hv16
    isplitl [Hv17]
    · iexact Hv17
    isplitl [Hv18]
    · iexact Hv18
    isplitl [Hv19]
    · iexact Hv19
    isplitl [Hv20]
    · iexact Hv20
    isplitl [Hv21]
    · iexact Hv21
    isplitl [Hv22]
    · iexact Hv22
    isplitl [Hv23]
    · iexact Hv23
    isplitl [Hv24]
    · iexact Hv24
    isplitl [Hv25]
    · iexact Hv25
    isplitl [Hv26]
    · iexact Hv26
    isplitl [Hv27]
    · iexact Hv27
    isplitl [Hv28]
    · iexact Hv28
    isplitl [Hv29]
    · iexact Hv29
    isplitl [Hv30]
    · iexact Hv30
    isplitl [Hv31]
    · iexact Hv31
    isplitl [Hv32]
    · iexact Hv32
    isplitl [Hv33]
    · iexact Hv33
    isplitl [Hv34]
    · iexact Hv34
    isplitl [Hv35]
    · iexact Hv35
    isplitl [Hv36]
    · iexact Hv36
    isplitl [Hv37]
    · iexact Hv37
    isplitl [Hv38]
    · iexact Hv38
    isplitl [Hv39]
    · iexact Hv39
    isplitl [Hv40]
    · iexact Hv40
    isplitl [Hv41]
    · iexact Hv41
    isplitl [Hv42]
    · iexact Hv42
    isplitl [Hv43]
    · iexact Hv43
    isplitl [Hv44]
    · iexact Hv44
    isplitl [Hv45]
    · iexact Hv45
    isplitl [Hv46]
    · iexact Hv46
    isplitl [Hv47]
    · iexact Hv47
    isplitl [Hv48]
    · iexact Hv48
    isplitl [Hv49]
    · iexact Hv49
    isplitl [Hv50]
    · iexact Hv50
    isplitl [Hv51]
    · iexact Hv51
    isplitl [Hv52]
    · iexact Hv52
    isplitl [Hv53]
    · iexact Hv53
    isplitl [Hv54]
    · iexact Hv54
    isplitl [Hv55]
    · iexact Hv55
    isplitl [Hv56]
    · iexact Hv56
    isplitl [Hv57]
    · iexact Hv57
    isplitl [Hv58]
    · iexact Hv58
    isplitl [Hv59]
    · iexact Hv59
    isplitl [Hv60]
    · iexact Hv60
    isplitl [Hv61]
    · iexact Hv61
    isplitl [Hv62]
    · iexact Hv62
    isplitl [Hv63]
    · iexact Hv63
    isplitl [Hv64]
    · iexact Hv64
    isplitl [Hv65]
    · iexact Hv65
    isplitl [Hv66]
    · iexact Hv66
    isplitl [Hv67]
    · iexact Hv67
    isplitl [Hv68]
    · iexact Hv68
    isplitl [Hv69]
    · iexact Hv69
    isplitl [Hv70]
    · iexact Hv70
    isplitl [Hv71]
    · iexact Hv71
    isplitl [Hv72]
    · iexact Hv72
    isplitl [Hv73]
    · iexact Hv73
    isplitl [Hv74]
    · iexact Hv74
    isplitl [Hv75]
    · iexact Hv75
    isplitl [Hu76]
    · iexact Hu76
    isplitl [Hu77]
    · iexact Hu77
    isplitl [Hu78]
    · iexact Hu78
    isplitl [Hv79]
    · iexact Hv79
    isplitl [Hv80]
    · iexact Hv80
    isplitl [Hv81]
    · iexact Hv81
    isplitl [Hv82]
    · iexact Hv82
    isplitl [Hv83]
    · iexact Hv83
    isplitl [Hu84]
    · iexact Hu84
    isplitl [Hu85]
    · iexact Hu85
    isplitl [Hu86]
    · iexact Hu86
    isplitl [Hv87]
    · iexact Hv87
    isplitl [Hv88]
    · iexact Hv88
    isplitl [Hv89]
    · iexact Hv89
    isplitl [Hv90]
    · iexact Hv90
    isplitl [Hv91]
    · iexact Hv91
    isplitl [Hu92]
    · iexact Hu92
    isplitl [Hu93]
    · iexact Hu93
    isplitl [Hu94]
    · iexact Hu94
    isplitl [Hv95]
    · iexact Hv95
    isplitl [Hv96]
    · iexact Hv96
    isplitl [Hv97]
    · iexact Hv97
    isplitl [Hv98]
    · iexact Hv98
    isplitl [Hv99]
    · iexact Hv99
    isplitl [Hu100]
    · iexact Hu100
    isplitl [Hu101]
    · iexact Hu101
    isplitl [Hu102]
    · iexact Hu102
    isplitl [Hv103]
    · iexact Hv103
    isplitl [Hv104]
    · iexact Hv104
    isplitl [Hv105]
    · iexact Hv105
    isplitl [Hv106]
    · iexact Hv106
    isplitl [Hv107]
    · iexact Hv107
    isplitl [Hw0a]
    · iexact Hw0a
    isplitl [Hw0b]
    · iexact Hw0b
    isplitl [Hw0c]
    · iexact Hw0c
    isplitl [Hw0d]
    · iexact Hw0d
    isplitl [Hw1a]
    · iexact Hw1a
    isplitl [Hw1b]
    · iexact Hw1b
    isplitl [Hw1c]
    · iexact Hw1c
    isplitl [Hw1d]
    · iexact Hw1d
    isplitl [Hw2a]
    · iexact Hw2a
    isplitl [Hw2b]
    · iexact Hw2b
    isplitl [Hw2c]
    · iexact Hw2c
    isplitl [Hw2d]
    · iexact Hw2d
    isplitl [Hw3a]
    · iexact Hw3a
    isplitl [Hw3b]
    · iexact Hw3b
    isplitl [Hw3c]
    · iexact Hw3c
    isplitl [Hw3d]
    · iexact Hw3d
    isplitl [Hw4a]
    · iexact Hw4a
    isplitl [Hw4b]
    · iexact Hw4b
    isplitl [Hw4c]
    · iexact Hw4c
    isplitl [Hw4d]
    · iexact Hw4d
    isplitl [Hw5a]
    · iexact Hw5a
    isplitl [Hw5b]
    · iexact Hw5b
    isplitl [Hw5c]
    · iexact Hw5c
    isplitl [Hw5d]
    · iexact Hw5d
    isplitl [Hw6a]
    · iexact Hw6a
    isplitl [Hw6b]
    · iexact Hw6b
    isplitl [Hw6c]
    · iexact Hw6c
    isplitl [Hw6d]
    · iexact Hw6d
    isplitl [Hw7a]
    · iexact Hw7a
    isplitl [Hw7b]
    · iexact Hw7b
    isplitl [Hw7c]
    · iexact Hw7c
    iexact Hw7d
  iexists _; iexact HO

end Cert.Kernel.RS.D1

end
-- ==== Proof.K.Body2.lean ====
import proofs.«901022_g7700000000001023_dist_rs_v7x_xyz2x2x2_x_m4096_n1024_bf16_1_alg».proof.Proof.K.BodyAux
import proofs.«901022_g7700000000001023_dist_rs_v7x_xyz2x2x2_x_m4096_n1024_bf16_1_alg».proof.Proof.K.BodyPre
import proofs.«901022_g7700000000001023_dist_rs_v7x_xyz2x2x2_x_m4096_n1024_bf16_1_alg».proof.Proof.K.OutRules

/-! The body of the kernel on device 2 of the mesh, from its precondition (BodyPre) to its postcondition (bodyPost).

    The program is straight-line code of 4045 statements. Its local steps — the 54 copies between the input, the staging
    buffers, the four-quarter buffer and the result, their waits, the loads and the stores — are run by the library's symbolic
    executor on hypotheses that hold each 512-row chunk through the slice the program itself names. Its remote steps are
    taken by the rounds library's rules, one application each: three barrier signals and the wait for the three
    neighbours; 37 copies to a neighbour, each lending the source chunk (at a share, where the chunk is also read by another
    copy) and landing the chunk's final contents; the waits on the 37 receive cells, which hand back the landed chunks; the
    final waits on the 37 send cells, which hand back what was lent. Whenever a chunk has been written (by a landing copy or
    by a store) it is restated as "holds its final contents" (Spec), which is what the next copy's payload asks for.
    A wait is allowed because whatever the device still owes at that point lies above the awaited cell (Owed): decided on the
    list of payments not yet made. At the end every cell has had its one round and is closed, and the pieces of every
    buffer are put back. -/

set_option maxRecDepth 8000

noncomputable section

namespace Cert.Kernel.RS.D2

open Cert.Kernel Cert.Kernel.Gen Cert.Kernel.RS
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local notation "cc" => (Fin.mk 2 (Nat.le_of_ble_eq_true rfl) : Dev nD)

set_option maxHeartbeats 1600000 in
theorem dev (m : (ℓ : Loc nD τ sig) → Buf (Elt F) ℓ) (K : GSem nD τ sig → ℕ) (W : Waits sig Unit) (Kt : PUnit → sProp 𝕄) :
    iprop(bodyPre m K cc W ∗ (bodyPost m cc -∗ Kt ⟨⟩))
      ⊢ wp frame (wpE (defs₀ (F := F)) 𝒱₀ (cc : Thread nD τ) none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25) Kt := by
  unfold bodyPre O₀
  iintro ⟨⟨HIt, HIw, HRt, #Hlev, HO, Hcr, HpR, HpS, Htk, HX, Hout, HS0, HS1, HS2, HS3, HS4, HS5, HS6, HS7, HS8, HvI, HvO, HvU⟩, Hk⟩
  rw [cc0_body_eq_skeleton]; unfold cc0_body_skel
  -- the four-quarter buffer in the pieces that travel
  ihave H0 := (Entails.of_eq (junk_whole (F := F) cc cc0_scratch0)) $$ HS0
  icases H0 with ⟨%f0, H0⟩
  ihave H4 := (r4_entry (F := F) cc f0) $$ H0
  icases H4 with ⟨Hown, HgZ, HgY, Hdg, HhZ, HhY⟩
  sl_exec

  icases Htk with ⟨Htb, Htk⟩
  icases HIt with ⟨#HIbpx, HIt⟩
  icases HRt with ⟨#HRbpx, HRt⟩
  iapply (sig_bar m cc _ (px cc) (dev1_eq cc) 0 (by decide) (owedL (List.drop 1 (paysL cc))) rfl) $$ [HO Htb HS2 HS4]
  · isplitr; · iexact HIbpx
    isplitl [HO]; · iexact HO
    isplitl [Htb]; · iexact Htb
    isplitl [HS2 HS4]
    · iapply (Entails.of_eq ((barPay_zero (F := F) (px cc)).trans (by rw [px_px])).symm)
      unfold giveX
      isplitl [HS2]; · iexact HS2
      iexact HS4
    · iexact HRbpx
  iintro HO
  sl_exec

  icases Htk with ⟨Htb, Htk⟩
  icases HIt with ⟨#HIbpz, HIt⟩
  icases HRt with ⟨#HRbpz, HRt⟩
  iapply (sig_bar m cc _ (pz cc) (dev2_eq cc) 2 (by decide) (owedL (List.drop 2 (paysL cc))) rfl) $$ [HO Htb HgZ HhZ]
  · isplitr; · iexact HIbpz
    isplitl [HO]; · iexact HO
    isplitl [Htb]; · iexact Htb
    isplitl [HgZ HhZ]
    · iapply (Entails.of_eq ((barPay_two (F := F) (pz cc)).trans (by rw [pz_pz])).symm)
      isplitl [HgZ]; · iexact HgZ
      iexact HhZ
    · iexact HRbpz
  iintro HO
  sl_exec

  icases Htk with ⟨Htb, Htk⟩
  icases HIt with ⟨#HIbpy, HIt⟩
  icases HRt with ⟨#HRbpy, HRt⟩
  iapply (sig_bar m cc _ (py cc) (dev3_eq cc) 1 (by decide) (owedL (List.drop 3 (paysL cc))) rfl) $$ [HO Htb HgY HhY]
  · isplitr; · iexact HIbpy
    isplitl [HO]; · iexact HO
    isplitl [Htb]; · iexact Htb
    isplitl [HgY HhY]
    · iapply (Entails.of_eq ((barPay_one (F := F) (py cc)).trans (by rw [py_py])).symm)
      isplitl [HgY]; · iexact HgY
      iexact HhY
    · iexact HRbpy
  iintro HO
  sl_exec
  -- the wait for the three neighbours
  icases Hcr with ⟨Hcb, Hcr⟩
  icases HpR with ⟨Hpb, HpR⟩
  icases HIw with ⟨#HIb, HIw⟩
  ihave Hmw := (mayWait_list (F := F) cc (.reg barS) (List.drop 3 (paysL cc)) (by decide)) $$ Hlev
  iapply (wait_bar m cc (by decide)) $$ [Hcb HO Hmw Hpb]
  · isplitr; · iexact HIb
    isplitl [Hcb]; · iexact Hcb
    isplitl [HO]; · iexact HO
    isplitl [Hmw]; · iexact Hmw
    iexact Hpb
  iintro ⟨HO, Hpb, -, Hgx, Hgy, Hgz⟩
  -- what they handed over: the x-neighbour's landing buffers chunk by chunk, the y- and z-neighbours' quarter and halves
  ihave Hgx := (Entails.of_eq (barPay_zero (F := F) cc)) $$ Hgx
  ihave Hgx := (giveX_rows (F := F) (px cc)) $$ Hgx
  icases Hgx with ⟨Hrbp, Hrb2p⟩
  ihave Hgy := (Entails.of_eq (barPay_one (F := F) cc)) $$ Hgy
  icases Hgy with ⟨HqY, HhYp⟩
  ihave Hgz := (Entails.of_eq (barPay_two (F := F) cc)) $$ Hgz
  icases Hgz with ⟨HqZ, HhZp⟩
  -- this device's staging buffers and send buffers chunk by chunk
  ihave H5 := (Entails.of_eq (junk_whole (F := F) cc cc0_scratch5)) $$ HS5
  icases H5 with ⟨%f5, H5⟩
  ihave H5 := (Entails.of_eq (stP_rows (F := F) cc fullShare f5)) $$ H5
  icases H5 with ⟨HP0, HP1, HP2, HP3, HP4, HP5, HP6, HP7⟩
  ihave H6 := (Entails.of_eq (junk_whole (F := F) cc cc0_scratch6)) $$ HS6
  icases H6 with ⟨%f6, H6⟩
  ihave H6 := (Entails.of_eq (stL_rows (F := F) cc fullShare f6)) $$ H6
  icases H6 with ⟨HL0, HL1, HL2, HL3, HL4, HL5, HL6, HL7⟩
  ihave H7 := (Entails.of_eq (junk_whole (F := F) cc cc0_scratch7)) $$ HS7
  icases H7 with ⟨%f7, H7⟩
  ihave H7 := (Entails.of_eq (stP2_rows (F := F) cc fullShare f7)) $$ H7
  icases H7 with ⟨HP20, HP21, HP22⟩
  ihave H8 := (Entails.of_eq (junk_whole (F := F) cc cc0_scratch8)) $$ HS8
  icases H8 with ⟨%f8, H8⟩
  ihave H8 := (Entails.of_eq (stL2_rows (F := F) cc fullShare f8)) $$ H8
  icases H8 with ⟨HL20, HL21, HL22⟩
  ihave H1 := (Entails.of_eq (junk_whole (F := F) cc cc0_scratch1)) $$ HS1
  icases H1 with ⟨%f1, H1⟩
  ihave H1 := (Entails.of_eq (sb_rows (F := F) cc fullShare f1)) $$ H1
  icases H1 with ⟨HB0, HB1, HB2, HB3, HB4, HB5, HB6, HB7⟩
  ihave H3 := (Entails.of_eq (junk_whole (F := F) cc cc0_scratch3)) $$ HS3
  icases H3 with ⟨%f3, H3⟩
  ihave H3 := (Entails.of_eq (sb2_rows (F := F) cc fullShare f3)) $$ H3
  icases H3 with ⟨HB20, HB21, HB22⟩
  -- the counters of the 22 copies into the staging buffers
  icases HvI with ⟨Hv0, Hv8, Hv1, Hv9, Hv2, Hv10, Hv3, Hv11, Hv4, Hv12, Hv5, Hv13, Hv6, Hv14, Hv7, Hv15, Hv16, Hv19, Hv17, Hv20, Hv18, Hv21⟩
  sl_exec
  -- chunk 0 across x: wait for its copy into the staging buffer, round it into the send buffer, send it
  have hled3 : ∀ (s : DmaSem sig), lvJ s.val = 0 → ((levAts LL lvv : sProp 𝕄) ⊢ MayWait (cc : Thread nD τ) (.dma s) () (owedL (List.drop 3 (paysL cc)))) :=
    fun s hs => mayWait_local (F := F) cc s hs _ (by decide)
  sl_exec
  clear hled3
  ihave HB0 := (congr (F := F) (sbR 0) cc fullShare (dev.sl.HB0_w1 m f1) (sb m cc) (fun i hi => glue_sb m cc 0 _ (k0_off1_inb cc) (k0_off1_eq cc) f1 i hi)) $$ HB0
  -- the copy
  icases Htk with ⟨Hts, Htr, Htk⟩
  icases HIt with ⟨#HIc22, #HIr, HIt⟩
  icases HRt with ⟨#HRs, #HRr, HRt⟩
  icases Hrbp with ⟨⟨%fd, Hd⟩, Hrbp⟩
  iapply (send_x m cc _ (dev4_eq cc) 0 fd (owedL (List.drop 4 (paysL cc))) rfl _) $$ [HB0 Hd HO Hts Htr]
  · isplitr; · iexact HIc22
    isplitr; · iexact HIr
    isplitl [HB0]; · iexact HB0
    isplitl [Hd]; · iexact Hd
    isplitl [HO]; · iexact HO
    isplitl [Hts]; · iexact Hts
    isplitr; · iexact HRs
    isplitl [Htr]; · iexact Htr
    iexact HRr
  iintro ⟨Hcxs0, HO⟩
  iclear HIr HRs HRr
  -- chunk 1 across x: wait for its copy into the staging buffer, round it into the send buffer, send it
  have hled4 : ∀ (s : DmaSem sig), lvJ s.val = 0 → ((levAts LL lvv : sProp 𝕄) ⊢ MayWait (cc : Thread nD τ) (.dma s) () (owedL (List.drop 4 (paysL cc)))) :=
    fun s hs => mayWait_local (F := F) cc s hs _ (by decide)
  sl_exec
  clear hled4
  ihave HB1 := (congr (F := F) (sbR 1) cc fullShare (dev.sl.HB1_w1 m f1) (sb m cc) (fun i hi => glue_sb m cc 1 _ (k0_off3_inb cc) (k0_off3_eq cc) f1 i hi)) $$ HB1
  -- the copy
  icases Htk with ⟨Hts, Htr, Htk⟩
  icases HIt with ⟨#HIc23, #HIr, HIt⟩
  icases HRt with ⟨#HRs, #HRr, HRt⟩
  icases Hrbp with ⟨⟨%fd, Hd⟩, Hrbp⟩
  iapply (send_x m cc _ (dev5_eq cc) 1 fd (owedL (List.drop 5 (paysL cc))) rfl _) $$ [HB1 Hd HO Hts Htr]
  · isplitr; · iexact HIc23
    isplitr; · iexact HIr
    isplitl [HB1]; · iexact HB1
    isplitl [Hd]; · iexact Hd
    isplitl [HO]; · iexact HO
    isplitl [Hts]; · iexact Hts
    isplitr; · iexact HRs
    isplitl [Htr]; · iexact Htr
    iexact HRr
  iintro ⟨Hcxs1, HO⟩
  iclear HIr HRs HRr
  -- chunk 2 across x: wait for its copy into the staging buffer, round it into the send buffer, send it
  have hled5 : ∀ (s : DmaSem sig), lvJ s.val = 0 → ((levAts LL lvv : sProp 𝕄) ⊢ MayWait (cc : Thread nD τ) (.dma s) () (owedL (List.drop 5 (paysL cc)))) :=
    fun s hs => mayWait_local (F := F) cc s hs _ (by decide)
  sl_exec
  clear hled5
  ihave HB2 := (congr (F := F) (sbR 2) cc fullShare (dev.sl.HB2_w1 m f1) (sb m cc) (fun i hi => glue_sb m cc 2 _ (k0_off5_inb cc) (k0_off5_eq cc) f1 i hi)) $$ HB2
  -- the copy
  icases Htk with ⟨Hts, Htr, Htk⟩
  icases HIt with ⟨#HIc24, #HIr, HIt⟩
  icases HRt with ⟨#HRs, #HRr, HRt⟩
  icases Hrbp with ⟨⟨%fd, Hd⟩, Hrbp⟩
  iapply (send_x m cc _ (dev6_eq cc) 2 fd (owedL (List.drop 6 (paysL cc))) rfl _) $$ [HB2 Hd HO Hts Htr]
  · isplitr; · iexact HIc24
    isplitr; · iexact HIr
    isplitl [HB2]; · iexact HB2
    isplitl [Hd]; · iexact Hd
    isplitl [HO]; · iexact HO
    isplitl [Hts]; · iexact Hts
    isplitr; · iexact HRs
    isplitl [Htr]; · iexact Htr
    iexact HRr
  iintro ⟨Hcxs2, HO⟩
  iclear HIr HRs HRr
  -- chunk 3 across x: wait for its copy into the staging buffer, round it into the send buffer, send it
  have hled6 : ∀ (s : DmaSem sig), lvJ s.val = 0 → ((levAts LL lvv : sProp 𝕄) ⊢ MayWait (cc : Thread nD τ) (.dma s) () (owedL (List.drop 6 (paysL cc)))) :=
    fun s hs => mayWait_local (F := F) cc s hs _ (by decide)
  sl_exec
  clear hled6
  ihave HB3 := (congr (F := F) (sbR 3) cc fullShare (dev.sl.HB3_w1 m f1) (sb m cc) (fun i hi => glue_sb m cc 3 _ (k0_off7_inb cc) (k0_off7_eq cc) f1 i hi)) $$ HB3
  -- the copy
  icases Htk with ⟨Hts, Htr, Htk⟩
  icases HIt with ⟨#HIc25, #HIr, HIt⟩
  icases HRt with ⟨#HRs, #HRr, HRt⟩
  icases Hrbp with ⟨⟨%fd, Hd⟩, Hrbp⟩
  iapply (send_x m cc _ (dev7_eq cc) 3 fd (owedL (List.drop 7 (paysL cc))) rfl _) $$ [HB3 Hd HO Hts Htr]
  · isplitr; · iexact HIc25
    isplitr; · iexact HIr
    isplitl [HB3]; · iexact HB3
    isplitl [Hd]; · iexact Hd
    isplitl [HO]; · iexact HO
    isplitl [Hts]; · iexact Hts
    isplitr; · iexact HRs
    isplitl [Htr]; · iexact Htr
    iexact HRr
  iintro ⟨Hcxs3, HO⟩
  iclear HIr HRs HRr
  -- chunk 4 across x: wait for its copy into the staging buffer, round it into the send buffer, send it
  have hled7 : ∀ (s : DmaSem sig), lvJ s.val = 0 → ((levAts LL lvv : sProp 𝕄) ⊢ MayWait (cc : Thread nD τ) (.dma s) () (owedL (List.drop 7 (paysL cc)))) :=
    fun s hs => mayWait_local (F := F) cc s hs _ (by decide)
  sl_exec
  clear hled7
  ihave HB4 := (congr (F := F) (sbR 4) cc fullShare (dev.sl.HB4_w1 m f1) (sb m cc) (fun i hi => glue_sb m cc 4 _ (k0_off9_inb cc) (k0_off9_eq cc) f1 i hi)) $$ HB4
  -- the copy
  icases Htk with ⟨Hts, Htr, Htk⟩
  icases HIt with ⟨#HIc26, #HIr, HIt⟩
  icases HRt with ⟨#HRs, #HRr, HRt⟩
  icases Hrbp with ⟨⟨%fd, Hd⟩, Hrbp⟩
  iapply (send_x m cc _ (dev8_eq cc) 4 fd (owedL (List.drop 8 (paysL cc))) rfl _) $$ [HB4 Hd HO Hts Htr]
  · isplitr; · iexact HIc26
    isplitr; · iexact HIr
    isplitl [HB4]; · iexact HB4
    isplitl [Hd]; · iexact Hd
    isplitl [HO]; · iexact HO
    isplitl [Hts]; · iexact Hts
    isplitr; · iexact HRs
    isplitl [Htr]; · iexact Htr
    iexact HRr
  iintro ⟨Hcxs4, HO⟩
  iclear HIr HRs HRr
  -- chunk 5 across x: wait for its copy into the staging buffer, round it into the send buffer, send it
  have hled8 : ∀ (s : DmaSem sig), lvJ s.val = 0 → ((levAts LL lvv : sProp 𝕄) ⊢ MayWait (cc : Thread nD τ) (.dma s) () (owedL (List.drop 8 (paysL cc)))) :=
    fun s hs => mayWait_local (F := F) cc s hs _ (by decide)
  sl_exec
  clear hled8
  ihave HB5 := (congr (F := F) (sbR 5) cc fullShare (dev.sl.HB5_w1 m f1) (sb m cc) (fun i hi => glue_sb m cc 5 _ (k0_off11_inb cc) (k0_off11_eq cc) f1 i hi)) $$ HB5
  -- the copy
  icases Htk with ⟨Hts, Htr, Htk⟩
  icases HIt with ⟨#HIc27, #HIr, HIt⟩
  icases HRt with ⟨#HRs, #HRr, HRt⟩
  icases Hrbp with ⟨⟨%fd, Hd⟩, Hrbp⟩
  iapply (send_x m cc _ (dev9_eq cc) 5 fd (owedL (List.drop 9 (paysL cc))) rfl _) $$ [HB5 Hd HO Hts Htr]
  · isplitr; · iexact HIc27
    isplitr; · iexact HIr
    isplitl [HB5]; · iexact HB5
    isplitl [Hd]; · iexact Hd
    isplitl [HO]; · iexact HO
    isplitl [Hts]; · iexact Hts
    isplitr; · iexact HRs
    isplitl [Htr]; · iexact Htr
    iexact HRr
  iintro ⟨Hcxs5, HO⟩
  iclear HIr HRs HRr
  -- chunk 6 across x: wait for its copy into the staging buffer, round it into the send buffer, send it
  have hled9 : ∀ (s : DmaSem sig), lvJ s.val = 0 → ((levAts LL lvv : sProp 𝕄) ⊢ MayWait (cc : Thread nD τ) (.dma s) () (owedL (List.drop 9 (paysL cc)))) :=
    fun s hs => mayWait_local (F := F) cc s hs _ (by decide)
  sl_exec
  clear hled9
  ihave HB6 := (congr (F := F) (sbR 6) cc fullShare (dev.sl.HB6_w1 m f1) (sb m cc) (fun i hi => glue_sb m cc 6 _ (k0_off13_inb cc) (k0_off13_eq cc) f1 i hi)) $$ HB6
  -- the copy
  icases Htk with ⟨Hts, Htr, Htk⟩
  icases HIt with ⟨#HIc28, #HIr, HIt⟩
  icases HRt with ⟨#HRs, #HRr, HRt⟩
  icases Hrbp with ⟨⟨%fd, Hd⟩, Hrbp⟩
  iapply (send_x m cc _ (dev10_eq cc) 6 fd (owedL (List.drop 10 (paysL cc))) rfl _) $$ [HB6 Hd HO Hts Htr]
  · isplitr; · iexact HIc28
    isplitr; · iexact HIr
    isplitl [HB6]; · iexact HB6
    isplitl [Hd]; · iexact Hd
    isplitl [HO]; · iexact HO
    isplitl [Hts]; · iexact Hts
    isplitr; · iexact HRs
    isplitl [Htr]; · iexact Htr
    iexact HRr
  iintro ⟨Hcxs6, HO⟩
  iclear HIr HRs HRr
  -- chunk 7 across x: wait for its copy into the staging buffer, round it into the send buffer, send it
  have hled10 : ∀ (s : DmaSem sig), lvJ s.val = 0 → ((levAts LL lvv : sProp 𝕄) ⊢ MayWait (cc : Thread nD τ) (.dma s) () (owedL (List.drop 10 (paysL cc)))) :=
    fun s hs => mayWait_local (F := F) cc s hs _ (by decide)
  sl_exec
  clear hled10
  ihave HB7 := (congr (F := F) (sbR 7) cc fullShare (dev.sl.HB7_w1 m f1) (sb m cc) (fun i hi => glue_sb m cc 7 _ (k0_off15_inb cc) (k0_off15_eq cc) f1 i hi)) $$ HB7
  -- the copy
  icases Htk with ⟨Hts, Htr, Htk⟩
  icases HIt with ⟨#HIc29, #HIr, HIt⟩
  icases HRt with ⟨#HRs, #HRr, HRt⟩
  icases Hrbp with ⟨%fd, Hd⟩
  iapply (send_x m cc _ (dev11_eq cc) 7 fd (owedL (List.drop 11 (paysL cc))) rfl _) $$ [HB7 Hd HO Hts Htr]
  · isplitr; · iexact HIc29
    isplitr; · iexact HIr
    isplitl [HB7]; · iexact HB7
    isplitl [Hd]; · iexact Hd
    isplitl [HO]; · iexact HO
    isplitl [Hts]; · iexact Hts
    isplitr; · iexact HRs
    isplitl [Htr]; · iexact Htr
    iexact HRr
  iintro ⟨Hcxs7, HO⟩
  iclear HIr HRs HRr
  -- chunk 0 across x (the diagonal quarter's): wait for its copy into the staging buffer, round it into the send buffer, send it
  have hled11 : ∀ (s : DmaSem sig), lvJ s.val = 0 → ((levAts LL lvv : sProp 𝕄) ⊢ MayWait (cc : Thread nD τ) (.dma s) () (owedL (List.drop 11 (paysL cc)))) :=
    fun s hs => mayWait_local (F := F) cc s hs _ (by decide)
  sl_exec
  clear hled11
  ihave HB20 := (congr (F := F) (sb2R 0) cc fullShare (dev.sl.HB20_w1 m f3) (sb2 m cc) (fun i hi => glue_sb2 m cc 0 _ (k0_off17_inb cc) (k0_off17_eq cc) f3 i hi)) $$ HB20
  -- the copy
  icases Htk with ⟨Hts, Htr, Htk⟩
  icases HIt with ⟨#HIc38, #HIr, HIt⟩
  icases HRt with ⟨#HRs, #HRr, HRt⟩
  icases Hrb2p with ⟨⟨%fd, Hd⟩, Hrb2p⟩
  iapply (send_x2 m cc _ (dev12_eq cc) 0 fd (owedL (List.drop 12 (paysL cc))) rfl _) $$ [HB20 Hd HO Hts Htr]
  · isplitr; · iexact HIc38
    isplitr; · iexact HIr
    isplitl [HB20]; · iexact HB20
    isplitl [Hd]; · iexact Hd
    isplitl [HO]; · iexact HO
    isplitl [Hts]; · iexact Hts
    isplitr; · iexact HRs
    isplitl [Htr]; · iexact Htr
    iexact HRr
  iintro ⟨Hcds0, HO⟩
  iclear HIr HRs HRr
  -- chunk 1 across x (the diagonal quarter's): wait for its copy into the staging buffer, round it into the send buffer, send it
  have hled12 : ∀ (s : DmaSem sig), lvJ s.val = 0 → ((levAts LL lvv : sProp 𝕄) ⊢ MayWait (cc : Thread nD τ) (.dma s) () (owedL (List.drop 12 (paysL cc)))) :=
    fun s hs => mayWait_local (F := F) cc s hs _ (by decide)
  sl_exec
  clear hled12
  ihave HB21 := (congr (F := F) (sb2R 1) cc fullShare (dev.sl.HB21_w1 m f3) (sb2 m cc) (fun i hi => glue_sb2 m cc 1 _ (k0_off19_inb cc) (k0_off19_eq cc) f3 i hi)) $$ HB21
  -- the copy
  icases Htk with ⟨Hts, Htr, Htk⟩
  icases HIt with ⟨#HIc39, #HIr, HIt⟩
  icases HRt with ⟨#HRs, #HRr, HRt⟩
  icases Hrb2p with ⟨⟨%fd, Hd⟩, Hrb2p⟩
  iapply (send_x2 m cc _ (dev13_eq cc) 1 fd (owedL (List.drop 13 (paysL cc))) rfl _) $$ [HB21 Hd HO Hts Htr]
  · isplitr; · iexact HIc39
    isplitr; · iexact HIr
    isplitl [HB21]; · iexact HB21
    isplitl [Hd]; · iexact Hd
    isplitl [HO]; · iexact HO
    isplitl [Hts]; · iexact Hts
    isplitr; · iexact HRs
    isplitl [Htr]; · iexact Htr
    iexact HRr
  iintro ⟨Hcds1, HO⟩
  iclear HIr HRs HRr
  -- chunk 2 across x (the diagonal quarter's): wait for its copy into the staging buffer, round it into the send buffer, send it
  have hled13 : ∀ (s : DmaSem sig), lvJ s.val = 0 → ((levAts LL lvv : sProp 𝕄) ⊢ MayWait (cc : Thread nD τ) (.dma s) () (owedL (List.drop 13 (paysL cc)))) :=
    fun s hs => mayWait_local (F := F) cc s hs _ (by decide)
  sl_exec
  clear hled13
  ihave HB22 := (congr (F := F) (sb2R 2) cc fullShare (dev.sl.HB22_w1 m f3) (sb2 m cc) (fun i hi => glue_sb2 m cc 2 _ (k0_off21_inb cc) (k0_off21_eq cc) f3 i hi)) $$ HB22
  -- the copy
  icases Htk with ⟨Hts, Htr, Htk⟩
  icases HIt with ⟨#HIc40, #HIr, HIt⟩
  icases HRt with ⟨#HRs, #HRr, HRt⟩
  icases Hrb2p with ⟨%fd, Hd⟩
  iapply (send_x2 m cc _ (dev14_eq cc) 2 fd (owedL (List.drop 14 (paysL cc))) rfl _) $$ [HB22 Hd HO Hts Htr]
  · isplitr; · iexact HIc40
    isplitr; · iexact HIr
    isplitl [HB22]; · iexact HB22
    isplitl [Hd]; · iexact Hd
    isplitl [HO]; · iexact HO
    isplitl [Hts]; · iexact Hts
    isplitr; · iexact HRs
    isplitl [Htr]; · iexact Htr
    iexact HRr
  iintro ⟨Hcds2, HO⟩
  iclear HIr HRs HRr
  sl_exec
  -- the result array in its 32 blocks
  ihave Hout := (out_split_junk (F := F) cc) $$ Hout
  icases Hout with ⟨⟨%g00, HU00⟩, ⟨%g01, HU01⟩, ⟨%g02, HU02⟩, ⟨%g03, HU03⟩, ⟨%g10, HU10⟩, ⟨%g11, HU11⟩, ⟨%g12, HU12⟩, ⟨%g13, HU13⟩, ⟨%g20, HU20⟩, ⟨%g21, HU21⟩, ⟨%g22, HU22⟩, ⟨%g23, HU23⟩, ⟨%g30, HU30⟩, ⟨%g31, HU31⟩, ⟨%g32, HU32⟩, ⟨%g33, HU33⟩, ⟨%g40, HU40⟩, ⟨%g41, HU41⟩, ⟨%g42, HU42⟩, ⟨%g43, HU43⟩, ⟨%g50, HU50⟩, ⟨%g51, HU51⟩, ⟨%g52, HU52⟩, ⟨%g53, HU53⟩, ⟨%g60, HU60⟩, ⟨%g61, HU61⟩, ⟨%g62, HU62⟩, ⟨%g63, HU63⟩, ⟨%g70, HU70⟩, ⟨%g71, HU71⟩, ⟨%g72, HU72⟩, ⟨%g73, HU73⟩⟩
  ihave HqZ := (Entails.of_eq (giveQ_eq (F := F) (pz cc) (zqF (pz cc)))) $$ HqZ
  ihave HqY := (Entails.of_eq (giveQ_eq (F := F) (py cc) (yqF (py cc)))) $$ HqY
  ihave HhZp := (Entails.of_eq (giveH_eq (F := F) (pz cc) 0)) $$ HhZp
  ihave HhYp := (Entails.of_eq (giveH_eq (F := F) (py cc) 1)) $$ HhYp
  -- step 0 of the main loop: the x-neighbour's chunk 0 has landed
  icases Hcr with ⟨Hc, Hcr⟩
  icases HpR with ⟨Hp, HpR⟩
  icases HIw with ⟨#HIc30, HIw⟩
  ihave Hmw := (mayWait_list (F := F) cc (dsem (⟨30, by decide⟩ : Fin 140)) (List.drop 14 (paysL cc)) (by decide)) $$ Hlev
  iapply (wait_a1_at m cc _ 0 rfl) $$ [Hc HO Hmw Hp]
  · isplitr; · iexact HIc30
    isplitl [Hc]; · iexact Hc
    isplitl [HO]; · iexact HO
    isplitl [Hmw]; · iexact Hmw
    iexact Hp
  iintro ⟨HO, Hq30, -, Hrb0⟩
  icases Hown with ⟨Ho0, Hown⟩
  have hled14 : ∀ (s : DmaSem sig), lvJ s.val = 0 → ((levAts LL lvv : sProp 𝕄) ⊢ MayWait (cc : Thread nD τ) (.dma s) () (owedL (List.drop 14 (paysL cc)))) :=
    fun s hs => mayWait_local (F := F) cc s hs _ (by decide)
  sl_exec
  clear hled14
  ihave Ho0 := (congr (F := F) (r4R (mqF cc) 0) cc fullShare (dev.sl.Ho0_w1 m f0) (r4 m cc) (fun i hi => glue_own m cc 0 _ (k0_off2_inb cc) (k0_off2_eq cc) _ (k0_off23_inb cc) (k0_off23_eq cc) f0 i hi)) $$ Ho0
  ihave Ho0 := (Entails.of_eq (share_ZYK_eq (F := F) (r4R (mqF cc) 0) cc (r4 m cc))) $$ Ho0
  icases Ho0 with ⟨HoZ0, HoY0, HoK0⟩
  -- own chunk 0 to the z-neighbour
  icases Htk with ⟨Hts, Htr, Htk⟩
  icases HIt with ⟨#HIc44, #HIr, HIt⟩
  icases HRt with ⟨#HRs, #HRr, HRt⟩
  icases HqZ with ⟨⟨%fd, Hd⟩, HqZ⟩
  iapply (send_z_at m cc _ (dev15_eq cc) 0 _ _ (k0_off24_eq cc) fd (owedL (List.drop 15 (paysL cc))) rfl _) $$ [HoZ0 Hd HO Hts Htr]
  · isplitr; · iexact HIc44
    isplitr; · iexact HIr
    isplitl [HoZ0]; · iexact HoZ0
    isplitl [Hd]; · iexact Hd
    isplitl [HO]; · iexact HO
    isplitl [Hts]; · iexact Hts
    isplitr; · iexact HRs
    isplitl [Htr]; · iexact Htr
    iexact HRr
  iintro ⟨Hczs0, HO⟩
  iclear HIr HRs HRr
  sl_exec
  -- own chunk 0 to the y-neighbour
  icases Htk with ⟨Hts, Htr, Htk⟩
  icases HIt with ⟨#HIc60, #HIr, HIt⟩
  icases HRt with ⟨#HRs, #HRr, HRt⟩
  icases HqY with ⟨⟨%fd, Hd⟩, HqY⟩
  iapply (send_y_at m cc _ (dev16_eq cc) 0 _ _ (k0_off24_eq cc) fd (owedL (List.drop 16 (paysL cc))) rfl _) $$ [HoY0 Hd HO Hts Htr]
  · isplitr; · iexact HIc60
    isplitr; · iexact HIr
    isplitl [HoY0]; · iexact HoY0
    isplitl [Hd]; · iexact Hd
    isplitl [HO]; · iexact HO
    isplitl [Hts]; · iexact Hts
    isplitr; · iexact HRs
    isplitl [Htr]; · iexact Htr
    iexact HRr
  iintro ⟨Hcys0, HO⟩
  iclear HIr HRs HRr
  sl_exec
  -- step 1 of the main loop: the x-neighbour's chunk 1 has landed
  icases Hcr with ⟨Hc, Hcr⟩
  icases HpR with ⟨Hp, HpR⟩
  icases HIw with ⟨#HIc31, HIw⟩
  ihave Hmw := (mayWait_list (F := F) cc (dsem (⟨31, by decide⟩ : Fin 140)) (List.drop 16 (paysL cc)) (by decide)) $$ Hlev
  iapply (wait_a1_at m cc _ 1 rfl) $$ [Hc HO Hmw Hp]
  · isplitr; · iexact HIc31
    isplitl [Hc]; · iexact Hc
    isplitl [HO]; · iexact HO
    isplitl [Hmw]; · iexact Hmw
    iexact Hp
  iintro ⟨HO, Hq31, -, Hrb1⟩
  icases Hown with ⟨Ho1, Hown⟩
  have hled16 : ∀ (s : DmaSem sig), lvJ s.val = 0 → ((levAts LL lvv : sProp 𝕄) ⊢ MayWait (cc : Thread nD τ) (.dma s) () (owedL (List.drop 16 (paysL cc)))) :=
    fun s hs => mayWait_local (F := F) cc s hs _ (by decide)
  sl_exec
  clear hled16
  ihave Ho1 := (congr (F := F) (r4R (mqF cc) 1) cc fullShare (dev.sl.Ho1_w1 m f0) (r4 m cc) (fun i hi => glue_own m cc 1 _ (k0_off4_inb cc) (k0_off4_eq cc) _ (k0_off25_inb cc) (k0_off25_eq cc) f0 i hi)) $$ Ho1
  ihave Ho1 := (Entails.of_eq (share_ZYK_eq (F := F) (r4R (mqF cc) 1) cc (r4 m cc))) $$ Ho1
  icases Ho1 with ⟨HoZ1, HoY1, HoK1⟩
  -- own chunk 1 to the z-neighbour
  icases Htk with ⟨Hts, Htr, Htk⟩
  icases HIt with ⟨#HIc45, #HIr, HIt⟩
  icases HRt with ⟨#HRs, #HRr, HRt⟩
  icases HqZ with ⟨⟨%fd, Hd⟩, HqZ⟩
  iapply (send_z_at m cc _ (dev17_eq cc) 1 _ _ (k0_off26_eq cc) fd (owedL (List.drop 17 (paysL cc))) rfl _) $$ [HoZ1 Hd HO Hts Htr]
  · isplitr; · iexact HIc45
    isplitr; · iexact HIr
    isplitl [HoZ1]; · iexact HoZ1
    isplitl [Hd]; · iexact Hd
    isplitl [HO]; · iexact HO
    isplitl [Hts]; · iexact Hts
    isplitr; · iexact HRs
    isplitl [Htr]; · iexact Htr
    iexact HRr
  iintro ⟨Hczs1, HO⟩
  iclear HIr HRs HRr
  sl_exec
  -- own chunk 1 to the y-neighbour
  icases Htk with ⟨Hts, Htr, Htk⟩
  icases HIt with ⟨#HIc61, #HIr, HIt⟩
  icases HRt with ⟨#HRs, #HRr, HRt⟩
  icases HqY with ⟨⟨%fd, Hd⟩, HqY⟩
  iapply (send_y_at m cc _ (dev18_eq cc) 1 _ _ (k0_off26_eq cc) fd (owedL (List.drop 18 (paysL cc))) rfl _) $$ [HoY1 Hd HO Hts Htr]
  · isplitr; · iexact HIc61
    isplitr; · iexact HIr
    isplitl [HoY1]; · iexact HoY1
    isplitl [Hd]; · iexact Hd
    isplitl [HO]; · iexact HO
    isplitl [Hts]; · iexact Hts
    isplitr; · iexact HRs
    isplitl [Htr]; · iexact Htr
    iexact HRr
  iintro ⟨Hcys1, HO⟩
  iclear HIr HRs HRr
  sl_exec
  -- the z-neighbour's chunk 0 has landed
  icases Hcr with ⟨Hc, Hcr⟩
  icases HpR with ⟨Hp, HpR⟩
  icases HIw with ⟨#HIc52, HIw⟩
  ihave Hmw := (mayWait_list (F := F) cc (dsem (⟨52, by decide⟩ : Fin 140)) (List.drop 18 (paysL cc)) (by decide)) $$ Hlev
  iapply (wait_a5_at m cc _ 0 rfl) $$ [Hc HO Hmw Hp]
  · isplitr; · iexact HIc52
    isplitl [Hc]; · iexact Hc
    isplitl [HO]; · iexact HO
    isplitl [Hmw]; · iexact Hmw
    iexact Hp
  iintro ⟨HO, Hq52, -, Hz0⟩
  sl_exec
  -- the y-neighbour's chunk 0 has landed
  icases Hcr with ⟨Hc, Hcr⟩
  icases HpR with ⟨Hp, HpR⟩
  icases HIw with ⟨#HIc68, HIw⟩
  ihave Hmw := (mayWait_list (F := F) cc (dsem (⟨68, by decide⟩ : Fin 140)) (List.drop 18 (paysL cc)) (by decide)) $$ Hlev
  iapply (wait_a7_at m cc _ 0 rfl) $$ [Hc HO Hmw Hp]
  · isplitr; · iexact HIc68
    isplitl [Hc]; · iexact Hc
    isplitl [HO]; · iexact HO
    isplitl [Hmw]; · iexact Hmw
    iexact Hp
  iintro ⟨HO, Hq68, -, Hy0⟩
  sl_exec
  -- step 2 of the main loop: the x-neighbour's chunk 2 has landed
  icases Hcr with ⟨Hc, Hcr⟩
  icases HpR with ⟨Hp, HpR⟩
  icases HIw with ⟨#HIc32, HIw⟩
  ihave Hmw := (mayWait_list (F := F) cc (dsem (⟨32, by decide⟩ : Fin 140)) (List.drop 18 (paysL cc)) (by decide)) $$ Hlev
  iapply (wait_a1_at m cc _ 2 rfl) $$ [Hc HO Hmw Hp]
  · isplitr; · iexact HIc32
    isplitl [Hc]; · iexact Hc
    isplitl [HO]; · iexact HO
    isplitl [Hmw]; · iexact Hmw
    iexact Hp
  iintro ⟨HO, Hq32, -, Hrb2⟩
  icases Hown with ⟨Ho2, Hown⟩
  have hled18 : ∀ (s : DmaSem sig), lvJ s.val = 0 → ((levAts LL lvv : sProp 𝕄) ⊢ MayWait (cc : Thread nD τ) (.dma s) () (owedL (List.drop 18 (paysL cc)))) :=
    fun s hs => mayWait_local (F := F) cc s hs _ (by decide)
  sl_exec
  clear hled18
  ihave Ho2 := (congr (F := F) (r4R (mqF cc) 2) cc fullShare (dev.sl.Ho2_w1 m f0) (r4 m cc) (fun i hi => glue_own m cc 2 _ (k0_off6_inb cc) (k0_off6_eq cc) _ (k0_off27_inb cc) (k0_off27_eq cc) f0 i hi)) $$ Ho2
  ihave Ho2 := (Entails.of_eq (share_ZYK_eq (F := F) (r4R (mqF cc) 2) cc (r4 m cc))) $$ Ho2
  icases Ho2 with ⟨HoZ2, HoY2, HoK2⟩
  -- own chunk 2 to the z-neighbour
  icases Htk with ⟨Hts, Htr, Htk⟩
  icases HIt with ⟨#HIc46, #HIr, HIt⟩
  icases HRt with ⟨#HRs, #HRr, HRt⟩
  icases HqZ with ⟨⟨%fd, Hd⟩, HqZ⟩
  iapply (send_z_at m cc _ (dev19_eq cc) 2 _ _ (k0_off28_eq cc) fd (owedL (List.drop 19 (paysL cc))) rfl _) $$ [HoZ2 Hd HO Hts Htr]
  · isplitr; · iexact HIc46
    isplitr; · iexact HIr
    isplitl [HoZ2]; · iexact HoZ2
    isplitl [Hd]; · iexact Hd
    isplitl [HO]; · iexact HO
    isplitl [Hts]; · iexact Hts
    isplitr; · iexact HRs
    isplitl [Htr]; · iexact Htr
    iexact HRr
  iintro ⟨Hczs2, HO⟩
  iclear HIr HRs HRr
  sl_exec
  -- own chunk 2 to the y-neighbour
  icases Htk with ⟨Hts, Htr, Htk⟩
  icases HIt with ⟨#HIc62, #HIr, HIt⟩
  icases HRt with ⟨#HRs, #HRr, HRt⟩
  icases HqY with ⟨⟨%fd, Hd⟩, HqY⟩
  iapply (send_y_at m cc _ (dev20_eq cc) 2 _ _ (k0_off28_eq cc) fd (owedL (List.drop 20 (paysL cc))) rfl _) $$ [HoY2 Hd HO Hts Htr]
  · isplitr; · iexact HIc62
    isplitr; · iexact HIr
    isplitl [HoY2]; · iexact HoY2
    isplitl [Hd]; · iexact Hd
    isplitl [HO]; · iexact HO
    isplitl [Hts]; · iexact Hts
    isplitr; · iexact HRs
    isplitl [Htr]; · iexact Htr
    iexact HRr
  iintro ⟨Hcys2, HO⟩
  iclear HIr HRs HRr
  sl_exec
  -- the z-neighbour's chunk 1 has landed
  icases Hcr with ⟨Hc, Hcr⟩
  icases HpR with ⟨Hp, HpR⟩
  icases HIw with ⟨#HIc53, HIw⟩
  ihave Hmw := (mayWait_list (F := F) cc (dsem (⟨53, by decide⟩ : Fin 140)) (List.drop 20 (paysL cc)) (by decide)) $$ Hlev
  iapply (wait_a5_at m cc _ 1 rfl) $$ [Hc HO Hmw Hp]
  · isplitr; · iexact HIc53
    isplitl [Hc]; · iexact Hc
    isplitl [HO]; · iexact HO
    isplitl [Hmw]; · iexact Hmw
    iexact Hp
  iintro ⟨HO, Hq53, -, Hz1⟩
  sl_exec
  -- the y-neighbour's chunk 1 has landed
  icases Hcr with ⟨Hc, Hcr⟩
  icases HpR with ⟨Hp, HpR⟩
  icases HIw with ⟨#HIc69, HIw⟩
  ihave Hmw := (mayWait_list (F := F) cc (dsem (⟨69, by decide⟩ : Fin 140)) (List.drop 20 (paysL cc)) (by decide)) $$ Hlev
  iapply (wait_a7_at m cc _ 1 rfl) $$ [Hc HO Hmw Hp]
  · isplitr; · iexact HIc69
    isplitl [Hc]; · iexact Hc
    isplitl [HO]; · iexact HO
    isplitl [Hmw]; · iexact Hmw
    iexact Hp
  iintro ⟨HO, Hq69, -, Hy1⟩
  sl_exec
  -- step 3 of the main loop: the x-neighbour's chunk 3 has landed
  icases Hcr with ⟨Hc, Hcr⟩
  icases HpR with ⟨Hp, HpR⟩
  icases HIw with ⟨#HIc33, HIw⟩
  ihave Hmw := (mayWait_list (F := F) cc (dsem (⟨33, by decide⟩ : Fin 140)) (List.drop 20 (paysL cc)) (by decide)) $$ Hlev
  iapply (wait_a1_at m cc _ 3 rfl) $$ [Hc HO Hmw Hp]
  · isplitr; · iexact HIc33
    isplitl [Hc]; · iexact Hc
    isplitl [HO]; · iexact HO
    isplitl [Hmw]; · iexact Hmw
    iexact Hp
  iintro ⟨HO, Hq33, -, Hrb3⟩
  icases Hown with ⟨Ho3, Hown⟩
  have hled20 : ∀ (s : DmaSem sig), lvJ s.val = 0 → ((levAts LL lvv : sProp 𝕄) ⊢ MayWait (cc : Thread nD τ) (.dma s) () (owedL (List.drop 20 (paysL cc)))) :=
    fun s hs => mayWait_local (F := F) cc s hs _ (by decide)
  sl_exec
  clear hled20
  ihave Ho3 := (congr (F := F) (r4R (mqF cc) 3) cc fullShare (dev.sl.Ho3_w1 m f0) (r4 m cc) (fun i hi => glue_own m cc 3 _ (k0_off8_inb cc) (k0_off8_eq cc) _ (k0_off29_inb cc) (k0_off29_eq cc) f0 i hi)) $$ Ho3
  ihave Ho3 := (Entails.of_eq (share_ZYK_eq (F := F) (r4R (mqF cc) 3) cc (r4 m cc))) $$ Ho3
  icases Ho3 with ⟨HoZ3, HoY3, HoK3⟩
  -- own chunk 3 to the z-neighbour
  icases Htk with ⟨Hts, Htr, Htk⟩
  icases HIt with ⟨#HIc47, #HIr, HIt⟩
  icases HRt with ⟨#HRs, #HRr, HRt⟩
  icases HqZ with ⟨⟨%fd, Hd⟩, HqZ⟩
  iapply (send_z_at m cc _ (dev21_eq cc) 3 _ _ (k0_off30_eq cc) fd (owedL (List.drop 21 (paysL cc))) rfl _) $$ [HoZ3 Hd HO Hts Htr]
  · isplitr; · iexact HIc47
    isplitr; · iexact HIr
    isplitl [HoZ3]; · iexact HoZ3
    isplitl [Hd]; · iexact Hd
    isplitl [HO]; · iexact HO
    isplitl [Hts]; · iexact Hts
    isplitr; · iexact HRs
    isplitl [Htr]; · iexact Htr
    iexact HRr
  iintro ⟨Hczs3, HO⟩
  iclear HIr HRs HRr
  sl_exec
  -- own chunk 3 to the y-neighbour
  icases Htk with ⟨Hts, Htr, Htk⟩
  icases HIt with ⟨#HIc63, #HIr, HIt⟩
  icases HRt with ⟨#HRs, #HRr, HRt⟩
  icases HqY with ⟨⟨%fd, Hd⟩, HqY⟩
  iapply (send_y_at m cc _ (dev22_eq cc) 3 _ _ (k0_off30_eq cc) fd (owedL (List.drop 22 (paysL cc))) rfl _) $$ [HoY3 Hd HO Hts Htr]
  · isplitr; · iexact HIc63
    isplitr; · iexact HIr
    isplitl [HoY3]; · iexact HoY3
    isplitl [Hd]; · iexact Hd
    isplitl [HO]; · iexact HO
    isplitl [Hts]; · iexact Hts
    isplitr; · iexact HRs
    isplitl [Htr]; · iexact Htr
    iexact HRr
  iintro ⟨Hcys3, HO⟩
  iclear HIr HRs HRr
  sl_exec
  -- the z-neighbour's chunk 2 has landed
  icases Hcr with ⟨Hc, Hcr⟩
  icases HpR with ⟨Hp, HpR⟩
  icases HIw with ⟨#HIc54, HIw⟩
  ihave Hmw := (mayWait_list (F := F) cc (dsem (⟨54, by decide⟩ : Fin 140)) (List.drop 22 (paysL cc)) (by decide)) $$ Hlev
  iapply (wait_a5_at m cc _ 2 rfl) $$ [Hc HO Hmw Hp]
  · isplitr; · iexact HIc54
    isplitl [Hc]; · iexact Hc
    isplitl [HO]; · iexact HO
    isplitl [Hmw]; · iexact Hmw
    iexact Hp
  iintro ⟨HO, Hq54, -, Hz2⟩
  sl_exec
  -- the y-neighbour's chunk 2 has landed
  icases Hcr with ⟨Hc, Hcr⟩
  icases HpR with ⟨Hp, HpR⟩
  icases HIw with ⟨#HIc70, HIw⟩
  ihave Hmw := (mayWait_list (F := F) cc (dsem (⟨70, by decide⟩ : Fin 140)) (List.drop 22 (paysL cc)) (by decide)) $$ Hlev
  iapply (wait_a7_at m cc _ 2 rfl) $$ [Hc HO Hmw Hp]
  · isplitr; · iexact HIc70
    isplitl [Hc]; · iexact Hc
    isplitl [HO]; · iexact HO
    isplitl [Hmw]; · iexact Hmw
    iexact Hp
  iintro ⟨HO, Hq70, -, Hy2⟩
  sl_exec
  -- step 4 of the main loop: the x-neighbour's chunk 4 has landed
  icases Hcr with ⟨Hc, Hcr⟩
  icases HpR with ⟨Hp, HpR⟩
  icases HIw with ⟨#HIc34, HIw⟩
  ihave Hmw := (mayWait_list (F := F) cc (dsem (⟨34, by decide⟩ : Fin 140)) (List.drop 22 (paysL cc)) (by decide)) $$ Hlev
  iapply (wait_a1_at m cc _ 4 rfl) $$ [Hc HO Hmw Hp]
  · isplitr; · iexact HIc34
    isplitl [Hc]; · iexact Hc
    isplitl [HO]; · iexact HO
    isplitl [Hmw]; · iexact Hmw
    iexact Hp
  iintro ⟨HO, Hq34, -, Hrb4⟩
  icases Hown with ⟨Ho4, Hown⟩
  have hled22 : ∀ (s : DmaSem sig), lvJ s.val = 0 → ((levAts LL lvv : sProp 𝕄) ⊢ MayWait (cc : Thread nD τ) (.dma s) () (owedL (List.drop 22 (paysL cc)))) :=
    fun s hs => mayWait_local (F := F) cc s hs _ (by decide)
  sl_exec
  clear hled22
  ihave Ho4 := (congr (F := F) (r4R (mqF cc) 4) cc fullShare (dev.sl.Ho4_w1 m f0) (r4 m cc) (fun i hi => glue_own m cc 4 _ (k0_off10_inb cc) (k0_off10_eq cc) _ (k0_off31_inb cc) (k0_off31_eq cc) f0 i hi)) $$ Ho4
  ihave Ho4 := (Entails.of_eq (share_ZYK_eq (F := F) (r4R (mqF cc) 4) cc (r4 m cc))) $$ Ho4
  icases Ho4 with ⟨HoZ4, HoY4, HoK4⟩
  -- own chunk 4 to the z-neighbour
  icases Htk with ⟨Hts, Htr, Htk⟩
  icases HIt with ⟨#HIc48, #HIr, HIt⟩
  icases HRt with ⟨#HRs, #HRr, HRt⟩
  icases HqZ with ⟨⟨%fd, Hd⟩, HqZ⟩
  iapply (send_z_at m cc _ (dev23_eq cc) 4 _ _ (k0_off32_eq cc) fd (owedL (List.drop 23 (paysL cc))) rfl _) $$ [HoZ4 Hd HO Hts Htr]
  · isplitr; · iexact HIc48
    isplitr; · iexact HIr
    isplitl [HoZ4]; · iexact HoZ4
    isplitl [Hd]; · iexact Hd
    isplitl [HO]; · iexact HO
    isplitl [Hts]; · iexact Hts
    isplitr; · iexact HRs
    isplitl [Htr]; · iexact Htr
    iexact HRr
  iintro ⟨Hczs4, HO⟩
  iclear HIr HRs HRr
  sl_exec
  -- own chunk 4 to the y-neighbour
  icases Htk with ⟨Hts, Htr, Htk⟩
  icases HIt with ⟨#HIc64, #HIr, HIt⟩
  icases HRt with ⟨#HRs, #HRr, HRt⟩
  icases HqY with ⟨⟨%fd, Hd⟩, HqY⟩
  iapply (send_y_at m cc _ (dev24_eq cc) 4 _ _ (k0_off32_eq cc) fd (owedL (List.drop 24 (paysL cc))) rfl _) $$ [HoY4 Hd HO Hts Htr]
  · isplitr; · iexact HIc64
    isplitr; · iexact HIr
    isplitl [HoY4]; · iexact HoY4
    isplitl [Hd]; · iexact Hd
    isplitl [HO]; · iexact HO
    isplitl [Hts]; · iexact Hts
    isplitr; · iexact HRs
    isplitl [Htr]; · iexact Htr
    iexact HRr
  iintro ⟨Hcys4, HO⟩
  iclear HIr HRs HRr
  sl_exec
  -- the z-neighbour's chunk 3 has landed
  icases Hcr with ⟨Hc, Hcr⟩
  icases HpR with ⟨Hp, HpR⟩
  icases HIw with ⟨#HIc55, HIw⟩
  ihave Hmw := (mayWait_list (F := F) cc (dsem (⟨55, by decide⟩ : Fin 140)) (List.drop 24 (paysL cc)) (by decide)) $$ Hlev
  iapply (wait_a5_at m cc _ 3 rfl) $$ [Hc HO Hmw Hp]
  · isplitr; · iexact HIc55
    isplitl [Hc]; · iexact Hc
    isplitl [HO]; · iexact HO
    isplitl [Hmw]; · iexact Hmw
    iexact Hp
  iintro ⟨HO, Hq55, -, Hz3⟩
  sl_exec
  -- the y-neighbour's chunk 3 has landed
  icases Hcr with ⟨Hc, Hcr⟩
  icases HpR with ⟨Hp, HpR⟩
  icases HIw with ⟨#HIc71, HIw⟩
  ihave Hmw := (mayWait_list (F := F) cc (dsem (⟨71, by decide⟩ : Fin 140)) (List.drop 24 (paysL cc)) (by decide)) $$ Hlev
  iapply (wait_a7_at m cc _ 3 rfl) $$ [Hc HO Hmw Hp]
  · isplitr; · iexact HIc71
    isplitl [Hc]; · iexact Hc
    isplitl [HO]; · iexact HO
    isplitl [Hmw]; · iexact Hmw
    iexact Hp
  iintro ⟨HO, Hq71, -, Hy3⟩
  -- chunk 3 of the two neighbours' quarters: half its ownership stays for the copy into the result, of the other half one column half travels on
  ihave Hz3 := (Entails.of_eq (share_FG_eq (F := F) (r4R (zqF cc) 3) cc (r4 m cc))) $$ Hz3
  icases Hz3 with ⟨HzF3, HzG3⟩
  ihave HzF3 := (Entails.of_eq (chunk_halves (F := F) cc (zqF cc) 3 shF (r4 m cc))) $$ HzF3
  icases HzF3 with ⟨HzFl3, HzFr3⟩
  ihave Hy3 := (Entails.of_eq (share_FG_eq (F := F) (r4R (yqF cc) 3) cc (r4 m cc))) $$ Hy3
  icases Hy3 with ⟨HyF3, HyG3⟩
  ihave HyF3 := (Entails.of_eq (chunk_halves (F := F) cc (yqF cc) 3 shF (r4 m cc))) $$ HyF3
  icases HyF3 with ⟨HyFl3, HyFr3⟩
  sl_exec
  -- the right half of the z-neighbour's chunk 3 on to the y-neighbour
  icases Htk with ⟨Hts, Htr, Htk⟩
  icases HIt with ⟨#HIc95, #HIr, HIt⟩
  icases HRt with ⟨#HRs, #HRr, HRt⟩
  icases HhYp with ⟨⟨%fd, Hd⟩, HhYp⟩
  iapply (send_yf_at m cc _ (dev25_eq cc) 3 (by decide) _ _ (k0_off33_eq cc) fd (owedL (List.drop 25 (paysL cc))) rfl _) $$ [HzFr3 Hd HO Hts Htr]
  · isplitr; · iexact HIc95
    isplitr; · iexact HIr
    isplitl [HzFr3]; · iexact HzFr3
    isplitl [Hd]; · iexact Hd
    isplitl [HO]; · iexact HO
    isplitl [Hts]; · iexact Hts
    isplitr; · iexact HRs
    isplitl [Htr]; · iexact Htr
    iexact HRr
  iintro ⟨Hcyfs3, HO⟩
  iclear HIr HRs HRr
  sl_exec
  -- the left half of the y-neighbour's chunk 3 on to the z-neighbour
  icases Htk with ⟨Hts, Htr, Htk⟩
  icases HIt with ⟨#HIc79, #HIr, HIt⟩
  icases HRt with ⟨#HRs, #HRr, HRt⟩
  icases HhZp with ⟨⟨%fd, Hd⟩, HhZp⟩
  iapply (send_zf_at m cc _ (dev26_eq cc) 3 (by decide) _ _ (k0_off34_eq cc) fd (owedL (List.drop 26 (paysL cc))) rfl _) $$ [HyFl3 Hd HO Hts Htr]
  · isplitr; · iexact HIc79
    isplitr; · iexact HIr
    isplitl [HyFl3]; · iexact HyFl3
    isplitl [Hd]; · iexact Hd
    isplitl [HO]; · iexact HO
    isplitl [Hts]; · iexact Hts
    isplitr; · iexact HRs
    isplitl [Htr]; · iexact Htr
    iexact HRr
  iintro ⟨Hczfs3, HO⟩
  iclear HIr HRs HRr
  sl_exec
  -- step 5 of the main loop: the x-neighbour's chunk 5 has landed
  icases Hcr with ⟨Hc, Hcr⟩
  icases HpR with ⟨Hp, HpR⟩
  icases HIw with ⟨#HIc35, HIw⟩
  ihave Hmw := (mayWait_list (F := F) cc (dsem (⟨35, by decide⟩ : Fin 140)) (List.drop 26 (paysL cc)) (by decide)) $$ Hlev
  iapply (wait_a1_at m cc _ 5 rfl) $$ [Hc HO Hmw Hp]
  · isplitr; · iexact HIc35
    isplitl [Hc]; · iexact Hc
    isplitl [HO]; · iexact HO
    isplitl [Hmw]; · iexact Hmw
    iexact Hp
  iintro ⟨HO, Hq35, -, Hrb5⟩
  icases Hown with ⟨Ho5, Hown⟩
  have hled26 : ∀ (s : DmaSem sig), lvJ s.val = 0 → ((levAts LL lvv : sProp 𝕄) ⊢ MayWait (cc : Thread nD τ) (.dma s) () (owedL (List.drop 26 (paysL cc)))) :=
    fun s hs => mayWait_local (F := F) cc s hs _ (by decide)
  sl_exec
  clear hled26
  ihave Ho5 := (congr (F := F) (r4R (mqF cc) 5) cc fullShare (dev.sl.Ho5_w1 m f0) (r4 m cc) (fun i hi => glue_own m cc 5 _ (k0_off12_inb cc) (k0_off12_eq cc) _ (k0_off35_inb cc) (k0_off35_eq cc) f0 i hi)) $$ Ho5
  ihave Ho5 := (Entails.of_eq (share_ZYK_eq (F := F) (r4R (mqF cc) 5) cc (r4 m cc))) $$ Ho5
  icases Ho5 with ⟨HoZ5, HoY5, HoK5⟩
  -- own chunk 5 to the z-neighbour
  icases Htk with ⟨Hts, Htr, Htk⟩
  icases HIt with ⟨#HIc49, #HIr, HIt⟩
  icases HRt with ⟨#HRs, #HRr, HRt⟩
  icases HqZ with ⟨⟨%fd, Hd⟩, HqZ⟩
  iapply (send_z_at m cc _ (dev27_eq cc) 5 _ _ (k0_off36_eq cc) fd (owedL (List.drop 27 (paysL cc))) rfl _) $$ [HoZ5 Hd HO Hts Htr]
  · isplitr; · iexact HIc49
    isplitr; · iexact HIr
    isplitl [HoZ5]; · iexact HoZ5
    isplitl [Hd]; · iexact Hd
    isplitl [HO]; · iexact HO
    isplitl [Hts]; · iexact Hts
    isplitr; · iexact HRs
    isplitl [Htr]; · iexact Htr
    iexact HRr
  iintro ⟨Hczs5, HO⟩
  iclear HIr HRs HRr
  sl_exec
  -- own chunk 5 to the y-neighbour
  icases Htk with ⟨Hts, Htr, Htk⟩
  icases HIt with ⟨#HIc65, #HIr, HIt⟩
  icases HRt with ⟨#HRs, #HRr, HRt⟩
  icases HqY with ⟨⟨%fd, Hd⟩, HqY⟩
  iapply (send_y_at m cc _ (dev28_eq cc) 5 _ _ (k0_off36_eq cc) fd (owedL (List.drop 28 (paysL cc))) rfl _) $$ [HoY5 Hd HO Hts Htr]
  · isplitr; · iexact HIc65
    isplitr; · iexact HIr
    isplitl [HoY5]; · iexact HoY5
    isplitl [Hd]; · iexact Hd
    isplitl [HO]; · iexact HO
    isplitl [Hts]; · iexact Hts
    isplitr; · iexact HRs
    isplitl [Htr]; · iexact Htr
    iexact HRr
  iintro ⟨Hcys5, HO⟩
  iclear HIr HRs HRr
  sl_exec
  -- the z-neighbour's chunk 4 has landed
  icases Hcr with ⟨Hc, Hcr⟩
  icases HpR with ⟨Hp, HpR⟩
  icases HIw with ⟨#HIc56, HIw⟩
  ihave Hmw := (mayWait_list (F := F) cc (dsem (⟨56, by decide⟩ : Fin 140)) (List.drop 28 (paysL cc)) (by decide)) $$ Hlev
  iapply (wait_a5_at m cc _ 4 rfl) $$ [Hc HO Hmw Hp]
  · isplitr; · iexact HIc56
    isplitl [Hc]; · iexact Hc
    isplitl [HO]; · iexact HO
    isplitl [Hmw]; · iexact Hmw
    iexact Hp
  iintro ⟨HO, Hq56, -, Hz4⟩
  sl_exec
  -- the y-neighbour's chunk 4 has landed
  icases Hcr with ⟨Hc, Hcr⟩
  icases HpR with ⟨Hp, HpR⟩
  icases HIw with ⟨#HIc72, HIw⟩
  ihave Hmw := (mayWait_list (F := F) cc (dsem (⟨72, by decide⟩ : Fin 140)) (List.drop 28 (paysL cc)) (by decide)) $$ Hlev
  iapply (wait_a7_at m cc _ 4 rfl) $$ [Hc HO Hmw Hp]
  · isplitr; · iexact HIc72
    isplitl [Hc]; · iexact Hc
    isplitl [HO]; · iexact HO
    isplitl [Hmw]; · iexact Hmw
    iexact Hp
  iintro ⟨HO, Hq72, -, Hy4⟩
  -- chunk 4 of the two neighbours' quarters: half its ownership stays for the copy into the result, of the other half one column half travels on
  ihave Hz4 := (Entails.of_eq (share_FG_eq (F := F) (r4R (zqF cc) 4) cc (r4 m cc))) $$ Hz4
  icases Hz4 with ⟨HzF4, HzG4⟩
  ihave HzF4 := (Entails.of_eq (chunk_halves (F := F) cc (zqF cc) 4 shF (r4 m cc))) $$ HzF4
  icases HzF4 with ⟨HzFl4, HzFr4⟩
  ihave Hy4 := (Entails.of_eq (share_FG_eq (F := F) (r4R (yqF cc) 4) cc (r4 m cc))) $$ Hy4
  icases Hy4 with ⟨HyF4, HyG4⟩
  ihave HyF4 := (Entails.of_eq (chunk_halves (F := F) cc (yqF cc) 4 shF (r4 m cc))) $$ HyF4
  icases HyF4 with ⟨HyFl4, HyFr4⟩
  sl_exec
  -- the right half of the z-neighbour's chunk 4 on to the y-neighbour
  icases Htk with ⟨Hts, Htr, Htk⟩
  icases HIt with ⟨#HIc96, #HIr, HIt⟩
  icases HRt with ⟨#HRs, #HRr, HRt⟩
  icases HhYp with ⟨⟨%fd, Hd⟩, HhYp⟩
  iapply (send_yf_at m cc _ (dev29_eq cc) 4 (by decide) _ _ (k0_off37_eq cc) fd (owedL (List.drop 29 (paysL cc))) rfl _) $$ [HzFr4 Hd HO Hts Htr]
  · isplitr; · iexact HIc96
    isplitr; · iexact HIr
    isplitl [HzFr4]; · iexact HzFr4
    isplitl [Hd]; · iexact Hd
    isplitl [HO]; · iexact HO
    isplitl [Hts]; · iexact Hts
    isplitr; · iexact HRs
    isplitl [Htr]; · iexact Htr
    iexact HRr
  iintro ⟨Hcyfs4, HO⟩
  iclear HIr HRs HRr
  sl_exec
  -- the left half of the y-neighbour's chunk 4 on to the z-neighbour
  icases Htk with ⟨Hts, Htr, Htk⟩
  icases HIt with ⟨#HIc80, #HIr, HIt⟩
  icases HRt with ⟨#HRs, #HRr, HRt⟩
  icases HhZp with ⟨⟨%fd, Hd⟩, HhZp⟩
  iapply (send_zf_at m cc _ (dev30_eq cc) 4 (by decide) _ _ (k0_off38_eq cc) fd (owedL (List.drop 30 (paysL cc))) rfl _) $$ [HyFl4 Hd HO Hts Htr]
  · isplitr; · iexact HIc80
    isplitr; · iexact HIr
    isplitl [HyFl4]; · iexact HyFl4
    isplitl [Hd]; · iexact Hd
    isplitl [HO]; · iexact HO
    isplitl [Hts]; · iexact Hts
    isplitr; · iexact HRs
    isplitl [Htr]; · iexact Htr
    iexact HRr
  iintro ⟨Hczfs4, HO⟩
  iclear HIr HRs HRr
  sl_exec
  -- the left half of chunk 3 of the diagonal quarter has landed
  icases Hcr with ⟨Hc, Hcr⟩
  icases HpR with ⟨Hp, HpR⟩
  icases HIw with ⟨#HIc87, HIw⟩
  ihave Hmw := (mayWait_list (F := F) cc (dsem (⟨87, by decide⟩ : Fin 140)) (List.drop 30 (paysL cc)) (by decide)) $$ Hlev
  iapply (wait_a9_at m cc _ 3 rfl (by decide)) $$ [Hc HO Hmw Hp]
  · isplitr; · iexact HIc87
    isplitl [Hc]; · iexact Hc
    isplitl [HO]; · iexact HO
    isplitl [Hmw]; · iexact Hmw
    iexact Hp
  iintro ⟨HO, Hq87, -, Hdl3⟩
  sl_exec
  -- its right half has landed
  icases Hcr with ⟨Hc, Hcr⟩
  icases HpR with ⟨Hp, HpR⟩
  icases HIw with ⟨#HIc103, HIw⟩
  ihave Hmw := (mayWait_list (F := F) cc (dsem (⟨103, by decide⟩ : Fin 140)) (List.drop 30 (paysL cc)) (by decide)) $$ Hlev
  iapply (wait_a11_at m cc _ 3 rfl (by decide)) $$ [Hc HO Hmw Hp]
  · isplitr; · iexact HIc103
    isplitl [Hc]; · iexact Hc
    isplitl [HO]; · iexact HO
    isplitl [Hmw]; · iexact Hmw
    iexact Hp
  iintro ⟨HO, Hq103, -, Hdr3⟩
  ihave Hd3 := (Entails.of_eq (chunk_halves (F := F) cc (dqF cc) 3 fullShare (r4 m cc)).symm) $$ [Hdl3 Hdr3]
  · isplitl [Hdl3]; · iexact Hdl3
    iexact Hdr3
  -- the four copies of chunk 3 into the result
  icases HvO with ⟨Hw3a, Hw3b, Hw3c, Hw3d, HvO⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  -- step 6 of the main loop: the x-neighbour's chunk 6 has landed
  icases Hcr with ⟨Hc, Hcr⟩
  icases HpR with ⟨Hp, HpR⟩
  icases HIw with ⟨#HIc36, HIw⟩
  ihave Hmw := (mayWait_list (F := F) cc (dsem (⟨36, by decide⟩ : Fin 140)) (List.drop 30 (paysL cc)) (by decide)) $$ Hlev
  iapply (wait_a1_at m cc _ 6 rfl) $$ [Hc HO Hmw Hp]
  · isplitr; · iexact HIc36
    isplitl [Hc]; · iexact Hc
    isplitl [HO]; · iexact HO
    isplitl [Hmw]; · iexact Hmw
    iexact Hp
  iintro ⟨HO, Hq36, -, Hrb6⟩
  icases Hown with ⟨Ho6, Hown⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  ihave Ho6 := (congr (F := F) (r4R (mqF cc) 6) cc fullShare (dev.sl.Ho6_w1 m f0) (r4 m cc) (fun i hi => glue_own m cc 6 _ (k0_off14_inb cc) (k0_off14_eq cc) _ (k0_off39_inb cc) (k0_off39_eq cc) f0 i hi)) $$ Ho6
  ihave Ho6 := (Entails.of_eq (share_ZYK_eq (F := F) (r4R (mqF cc) 6) cc (r4 m cc))) $$ Ho6
  icases Ho6 with ⟨HoZ6, HoY6, HoK6⟩
  -- own chunk 6 to the z-neighbour
  icases Htk with ⟨Hts, Htr, Htk⟩
  icases HIt with ⟨#HIc50, #HIr, HIt⟩
  icases HRt with ⟨#HRs, #HRr, HRt⟩
  icases HqZ with ⟨⟨%fd, Hd⟩, HqZ⟩
  iapply (send_z_at m cc _ (dev31_eq cc) 6 _ _ (k0_off40_eq cc) fd (owedL (List.drop 31 (paysL cc))) rfl _) $$ [HoZ6 Hd HO Hts Htr]
  · isplitr; · iexact HIc50
    isplitr; · iexact HIr
    isplitl [HoZ6]; · iexact HoZ6
    isplitl [Hd]; · iexact Hd
    isplitl [HO]; · iexact HO
    isplitl [Hts]; · iexact Hts
    isplitr; · iexact HRs
    isplitl [Htr]; · iexact Htr
    iexact HRr
  iintro ⟨Hczs6, HO⟩
  iclear HIr HRs HRr
  sl_exec
  -- own chunk 6 to the y-neighbour
  icases Htk with ⟨Hts, Htr, Htk⟩
  icases HIt with ⟨#HIc66, #HIr, HIt⟩
  icases HRt with ⟨#HRs, #HRr, HRt⟩
  icases HqY with ⟨⟨%fd, Hd⟩, HqY⟩
  iapply (send_y_at m cc _ (dev32_eq cc) 6 _ _ (k0_off40_eq cc) fd (owedL (List.drop 32 (paysL cc))) rfl _) $$ [HoY6 Hd HO Hts Htr]
  · isplitr; · iexact HIc66
    isplitr; · iexact HIr
    isplitl [HoY6]; · iexact HoY6
    isplitl [Hd]; · iexact Hd
    isplitl [HO]; · iexact HO
    isplitl [Hts]; · iexact Hts
    isplitr; · iexact HRs
    isplitl [Htr]; · iexact Htr
    iexact HRr
  iintro ⟨Hcys6, HO⟩
  iclear HIr HRs HRr
  sl_exec
  -- the z-neighbour's chunk 5 has landed
  icases Hcr with ⟨Hc, Hcr⟩
  icases HpR with ⟨Hp, HpR⟩
  icases HIw with ⟨#HIc57, HIw⟩
  ihave Hmw := (mayWait_list (F := F) cc (dsem (⟨57, by decide⟩ : Fin 140)) (List.drop 32 (paysL cc)) (by decide)) $$ Hlev
  iapply (wait_a5_at m cc _ 5 rfl) $$ [Hc HO Hmw Hp]
  · isplitr; · iexact HIc57
    isplitl [Hc]; · iexact Hc
    isplitl [HO]; · iexact HO
    isplitl [Hmw]; · iexact Hmw
    iexact Hp
  iintro ⟨HO, Hq57, -, Hz5⟩
  sl_exec
  -- the y-neighbour's chunk 5 has landed
  icases Hcr with ⟨Hc, Hcr⟩
  icases HpR with ⟨Hp, HpR⟩
  icases HIw with ⟨#HIc73, HIw⟩
  ihave Hmw := (mayWait_list (F := F) cc (dsem (⟨73, by decide⟩ : Fin 140)) (List.drop 32 (paysL cc)) (by decide)) $$ Hlev
  iapply (wait_a7_at m cc _ 5 rfl) $$ [Hc HO Hmw Hp]
  · isplitr; · iexact HIc73
    isplitl [Hc]; · iexact Hc
    isplitl [HO]; · iexact HO
    isplitl [Hmw]; · iexact Hmw
    iexact Hp
  iintro ⟨HO, Hq73, -, Hy5⟩
  -- chunk 5 of the two neighbours' quarters: half its ownership stays for the copy into the result, of the other half one column half travels on
  ihave Hz5 := (Entails.of_eq (share_FG_eq (F := F) (r4R (zqF cc) 5) cc (r4 m cc))) $$ Hz5
  icases Hz5 with ⟨HzF5, HzG5⟩
  ihave HzF5 := (Entails.of_eq (chunk_halves (F := F) cc (zqF cc) 5 shF (r4 m cc))) $$ HzF5
  icases HzF5 with ⟨HzFl5, HzFr5⟩
  ihave Hy5 := (Entails.of_eq (share_FG_eq (F := F) (r4R (yqF cc) 5) cc (r4 m cc))) $$ Hy5
  icases Hy5 with ⟨HyF5, HyG5⟩
  ihave HyF5 := (Entails.of_eq (chunk_halves (F := F) cc (yqF cc) 5 shF (r4 m cc))) $$ HyF5
  icases HyF5 with ⟨HyFl5, HyFr5⟩
  sl_exec
  -- the right half of the z-neighbour's chunk 5 on to the y-neighbour
  icases Htk with ⟨Hts, Htr, Htk⟩
  icases HIt with ⟨#HIc97, #HIr, HIt⟩
  icases HRt with ⟨#HRs, #HRr, HRt⟩
  icases HhYp with ⟨⟨%fd, Hd⟩, HhYp⟩
  iapply (send_yf_at m cc _ (dev33_eq cc) 5 (by decide) _ _ (k0_off41_eq cc) fd (owedL (List.drop 33 (paysL cc))) rfl _) $$ [HzFr5 Hd HO Hts Htr]
  · isplitr; · iexact HIc97
    isplitr; · iexact HIr
    isplitl [HzFr5]; · iexact HzFr5
    isplitl [Hd]; · iexact Hd
    isplitl [HO]; · iexact HO
    isplitl [Hts]; · iexact Hts
    isplitr; · iexact HRs
    isplitl [Htr]; · iexact Htr
    iexact HRr
  iintro ⟨Hcyfs5, HO⟩
  iclear HIr HRs HRr
  sl_exec
  -- the left half of the y-neighbour's chunk 5 on to the z-neighbour
  icases Htk with ⟨Hts, Htr, Htk⟩
  icases HIt with ⟨#HIc81, #HIr, HIt⟩
  icases HRt with ⟨#HRs, #HRr, HRt⟩
  icases HhZp with ⟨⟨%fd, Hd⟩, HhZp⟩
  iapply (send_zf_at m cc _ (dev34_eq cc) 5 (by decide) _ _ (k0_off42_eq cc) fd (owedL (List.drop 34 (paysL cc))) rfl _) $$ [HyFl5 Hd HO Hts Htr]
  · isplitr; · iexact HIc81
    isplitr; · iexact HIr
    isplitl [HyFl5]; · iexact HyFl5
    isplitl [Hd]; · iexact Hd
    isplitl [HO]; · iexact HO
    isplitl [Hts]; · iexact Hts
    isplitr; · iexact HRs
    isplitl [Htr]; · iexact Htr
    iexact HRr
  iintro ⟨Hczfs5, HO⟩
  iclear HIr HRs HRr
  sl_exec
  -- the left half of chunk 4 of the diagonal quarter has landed
  icases Hcr with ⟨Hc, Hcr⟩
  icases HpR with ⟨Hp, HpR⟩
  icases HIw with ⟨#HIc88, HIw⟩
  ihave Hmw := (mayWait_list (F := F) cc (dsem (⟨88, by decide⟩ : Fin 140)) (List.drop 34 (paysL cc)) (by decide)) $$ Hlev
  iapply (wait_a9_at m cc _ 4 rfl (by decide)) $$ [Hc HO Hmw Hp]
  · isplitr; · iexact HIc88
    isplitl [Hc]; · iexact Hc
    isplitl [HO]; · iexact HO
    isplitl [Hmw]; · iexact Hmw
    iexact Hp
  iintro ⟨HO, Hq88, -, Hdl4⟩
  sl_exec
  -- its right half has landed
  icases Hcr with ⟨Hc, Hcr⟩
  icases HpR with ⟨Hp, HpR⟩
  icases HIw with ⟨#HIc104, HIw⟩
  ihave Hmw := (mayWait_list (F := F) cc (dsem (⟨104, by decide⟩ : Fin 140)) (List.drop 34 (paysL cc)) (by decide)) $$ Hlev
  iapply (wait_a11_at m cc _ 4 rfl (by decide)) $$ [Hc HO Hmw Hp]
  · isplitr; · iexact HIc104
    isplitl [Hc]; · iexact Hc
    isplitl [HO]; · iexact HO
    isplitl [Hmw]; · iexact Hmw
    iexact Hp
  iintro ⟨HO, Hq104, -, Hdr4⟩
  ihave Hd4 := (Entails.of_eq (chunk_halves (F := F) cc (dqF cc) 4 fullShare (r4 m cc)).symm) $$ [Hdl4 Hdr4]
  · isplitl [Hdl4]; · iexact Hdl4
    iexact Hdr4
  -- the four copies of chunk 4 into the result
  icases HvO with ⟨Hw4a, Hw4b, Hw4c, Hw4d, HvO⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  -- step 7 of the main loop: the x-neighbour's chunk 7 has landed
  icases Hcr with ⟨Hc, Hcr⟩
  icases HpR with ⟨Hp, HpR⟩
  icases HIw with ⟨#HIc37, HIw⟩
  ihave Hmw := (mayWait_list (F := F) cc (dsem (⟨37, by decide⟩ : Fin 140)) (List.drop 34 (paysL cc)) (by decide)) $$ Hlev
  iapply (wait_a1_at m cc _ 7 rfl) $$ [Hc HO Hmw Hp]
  · isplitr; · iexact HIc37
    isplitl [Hc]; · iexact Hc
    isplitl [HO]; · iexact HO
    isplitl [Hmw]; · iexact Hmw
    iexact Hp
  iintro ⟨HO, Hq37, -, Hrb7⟩
  icases Hown with ⟨Ho7⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  ihave Ho7 := (congr (F := F) (r4R (mqF cc) 7) cc fullShare (dev.sl.Ho7_w1 m f0) (r4 m cc) (fun i hi => glue_own m cc 7 _ (k0_off16_inb cc) (k0_off16_eq cc) _ (k0_off43_inb cc) (k0_off43_eq cc) f0 i hi)) $$ Ho7
  ihave Ho7 := (Entails.of_eq (share_ZYK_eq (F := F) (r4R (mqF cc) 7) cc (r4 m cc))) $$ Ho7
  icases Ho7 with ⟨HoZ7, HoY7, HoK7⟩
  -- own chunk 7 to the z-neighbour
  icases Htk with ⟨Hts, Htr, Htk⟩
  icases HIt with ⟨#HIc51, #HIr, HIt⟩
  icases HRt with ⟨#HRs, #HRr, HRt⟩
  icases HqZ with ⟨%fd, Hd⟩
  iapply (send_z_at m cc _ (dev35_eq cc) 7 _ _ (k0_off44_eq cc) fd (owedL (List.drop 35 (paysL cc))) rfl _) $$ [HoZ7 Hd HO Hts Htr]
  · isplitr; · iexact HIc51
    isplitr; · iexact HIr
    isplitl [HoZ7]; · iexact HoZ7
    isplitl [Hd]; · iexact Hd
    isplitl [HO]; · iexact HO
    isplitl [Hts]; · iexact Hts
    isplitr; · iexact HRs
    isplitl [Htr]; · iexact Htr
    iexact HRr
  iintro ⟨Hczs7, HO⟩
  iclear HIr HRs HRr
  sl_exec
  -- own chunk 7 to the y-neighbour
  icases Htk with ⟨Hts, Htr, Htk⟩
  icases HIt with ⟨#HIc67, #HIr, HIt⟩
  icases HRt with ⟨#HRs, #HRr, HRt⟩
  icases HqY with ⟨%fd, Hd⟩
  iapply (send_y_at m cc _ (dev36_eq cc) 7 _ _ (k0_off44_eq cc) fd (owedL (List.drop 36 (paysL cc))) rfl _) $$ [HoY7 Hd HO Hts Htr]
  · isplitr; · iexact HIc67
    isplitr; · iexact HIr
    isplitl [HoY7]; · iexact HoY7
    isplitl [Hd]; · iexact Hd
    isplitl [HO]; · iexact HO
    isplitl [Hts]; · iexact Hts
    isplitr; · iexact HRs
    isplitl [Htr]; · iexact Htr
    iexact HRr
  iintro ⟨Hcys7, HO⟩
  iclear HIr HRs HRr
  sl_exec
  -- the z-neighbour's chunk 6 has landed
  icases Hcr with ⟨Hc, Hcr⟩
  icases HpR with ⟨Hp, HpR⟩
  icases HIw with ⟨#HIc58, HIw⟩
  ihave Hmw := (mayWait_list (F := F) cc (dsem (⟨58, by decide⟩ : Fin 140)) (List.drop 36 (paysL cc)) (by decide)) $$ Hlev
  iapply (wait_a5_at m cc _ 6 rfl) $$ [Hc HO Hmw Hp]
  · isplitr; · iexact HIc58
    isplitl [Hc]; · iexact Hc
    isplitl [HO]; · iexact HO
    isplitl [Hmw]; · iexact Hmw
    iexact Hp
  iintro ⟨HO, Hq58, -, Hz6⟩
  sl_exec
  -- the y-neighbour's chunk 6 has landed
  icases Hcr with ⟨Hc, Hcr⟩
  icases HpR with ⟨Hp, HpR⟩
  icases HIw with ⟨#HIc74, HIw⟩
  ihave Hmw := (mayWait_list (F := F) cc (dsem (⟨74, by decide⟩ : Fin 140)) (List.drop 36 (paysL cc)) (by decide)) $$ Hlev
  iapply (wait_a7_at m cc _ 6 rfl) $$ [Hc HO Hmw Hp]
  · isplitr; · iexact HIc74
    isplitl [Hc]; · iexact Hc
    isplitl [HO]; · iexact HO
    isplitl [Hmw]; · iexact Hmw
    iexact Hp
  iintro ⟨HO, Hq74, -, Hy6⟩
  -- chunk 6 of the two neighbours' quarters: half its ownership stays for the copy into the result, of the other half one column half travels on
  ihave Hz6 := (Entails.of_eq (share_FG_eq (F := F) (r4R (zqF cc) 6) cc (r4 m cc))) $$ Hz6
  icases Hz6 with ⟨HzF6, HzG6⟩
  ihave HzF6 := (Entails.of_eq (chunk_halves (F := F) cc (zqF cc) 6 shF (r4 m cc))) $$ HzF6
  icases HzF6 with ⟨HzFl6, HzFr6⟩
  ihave Hy6 := (Entails.of_eq (share_FG_eq (F := F) (r4R (yqF cc) 6) cc (r4 m cc))) $$ Hy6
  icases Hy6 with ⟨HyF6, HyG6⟩
  ihave HyF6 := (Entails.of_eq (chunk_halves (F := F) cc (yqF cc) 6 shF (r4 m cc))) $$ HyF6
  icases HyF6 with ⟨HyFl6, HyFr6⟩
  sl_exec
  -- the right half of the z-neighbour's chunk 6 on to the y-neighbour
  icases Htk with ⟨Hts, Htr, Htk⟩
  icases HIt with ⟨#HIc98, #HIr, HIt⟩
  icases HRt with ⟨#HRs, #HRr, HRt⟩
  icases HhYp with ⟨⟨%fd, Hd⟩, HhYp⟩
  iapply (send_yf_at m cc _ (dev37_eq cc) 6 (by decide) _ _ (k0_off45_eq cc) fd (owedL (List.drop 37 (paysL cc))) rfl _) $$ [HzFr6 Hd HO Hts Htr]
  · isplitr; · iexact HIc98
    isplitr; · iexact HIr
    isplitl [HzFr6]; · iexact HzFr6
    isplitl [Hd]; · iexact Hd
    isplitl [HO]; · iexact HO
    isplitl [Hts]; · iexact Hts
    isplitr; · iexact HRs
    isplitl [Htr]; · iexact Htr
    iexact HRr
  iintro ⟨Hcyfs6, HO⟩
  iclear HIr HRs HRr
  sl_exec
  -- the left half of the y-neighbour's chunk 6 on to the z-neighbour
  icases Htk with ⟨Hts, Htr, Htk⟩
  icases HIt with ⟨#HIc82, #HIr, HIt⟩
  icases HRt with ⟨#HRs, #HRr, HRt⟩
  icases HhZp with ⟨⟨%fd, Hd⟩, HhZp⟩
  iapply (send_zf_at m cc _ (dev38_eq cc) 6 (by decide) _ _ (k0_off46_eq cc) fd (owedL (List.drop 38 (paysL cc))) rfl _) $$ [HyFl6 Hd HO Hts Htr]
  · isplitr; · iexact HIc82
    isplitr; · iexact HIr
    isplitl [HyFl6]; · iexact HyFl6
    isplitl [Hd]; · iexact Hd
    isplitl [HO]; · iexact HO
    isplitl [Hts]; · iexact Hts
    isplitr; · iexact HRs
    isplitl [Htr]; · iexact Htr
    iexact HRr
  iintro ⟨Hczfs6, HO⟩
  iclear HIr HRs HRr
  sl_exec
  -- the left half of chunk 5 of the diagonal quarter has landed
  icases Hcr with ⟨Hc, Hcr⟩
  icases HpR with ⟨Hp, HpR⟩
  icases HIw with ⟨#HIc89, HIw⟩
  ihave Hmw := (mayWait_list (F := F) cc (dsem (⟨89, by decide⟩ : Fin 140)) (List.drop 38 (paysL cc)) (by decide)) $$ Hlev
  iapply (wait_a9_at m cc _ 5 rfl (by decide)) $$ [Hc HO Hmw Hp]
  · isplitr; · iexact HIc89
    isplitl [Hc]; · iexact Hc
    isplitl [HO]; · iexact HO
    isplitl [Hmw]; · iexact Hmw
    iexact Hp
  iintro ⟨HO, Hq89, -, Hdl5⟩
  sl_exec
  -- its right half has landed
  icases Hcr with ⟨Hc, Hcr⟩
  icases HpR with ⟨Hp, HpR⟩
  icases HIw with ⟨#HIc105, HIw⟩
  ihave Hmw := (mayWait_list (F := F) cc (dsem (⟨105, by decide⟩ : Fin 140)) (List.drop 38 (paysL cc)) (by decide)) $$ Hlev
  iapply (wait_a11_at m cc _ 5 rfl (by decide)) $$ [Hc HO Hmw Hp]
  · isplitr; · iexact HIc105
    isplitl [Hc]; · iexact Hc
    isplitl [HO]; · iexact HO
    isplitl [Hmw]; · iexact Hmw
    iexact Hp
  iintro ⟨HO, Hq105, -, Hdr5⟩
  ihave Hd5 := (Entails.of_eq (chunk_halves (F := F) cc (dqF cc) 5 fullShare (r4 m cc)).symm) $$ [Hdl5 Hdr5]
  · isplitl [Hdl5]; · iexact Hdl5
    iexact Hdr5
  -- the four copies of chunk 5 into the result
  icases HvO with ⟨Hw5a, Hw5b, Hw5c, Hw5d, HvO⟩
  have hled38 : ∀ (s : DmaSem sig), lvJ s.val = 0 → ((levAts LL lvv : sProp 𝕄) ⊢ MayWait (cc : Thread nD τ) (.dma s) () (owedL (List.drop 38 (paysL cc)))) :=
    fun s hs => mayWait_local (F := F) cc s hs _ (by decide)
  sl_exec
  clear hled38
  -- after the loop: the z-neighbour's last chunk has landed
  icases Hcr with ⟨Hc, Hcr⟩
  icases HpR with ⟨Hp, HpR⟩
  icases HIw with ⟨#HIc59, HIw⟩
  ihave Hmw := (mayWait_list (F := F) cc (dsem (⟨59, by decide⟩ : Fin 140)) (List.drop 38 (paysL cc)) (by decide)) $$ Hlev
  iapply (wait_a5_at m cc _ 7 rfl) $$ [Hc HO Hmw Hp]
  · isplitr; · iexact HIc59
    isplitl [Hc]; · iexact Hc
    isplitl [HO]; · iexact HO
    isplitl [Hmw]; · iexact Hmw
    iexact Hp
  iintro ⟨HO, Hq59, -, Hz7⟩
  sl_exec
  -- the y-neighbour's last chunk has landed
  icases Hcr with ⟨Hc, Hcr⟩
  icases HpR with ⟨Hp, HpR⟩
  icases HIw with ⟨#HIc75, HIw⟩
  ihave Hmw := (mayWait_list (F := F) cc (dsem (⟨75, by decide⟩ : Fin 140)) (List.drop 38 (paysL cc)) (by decide)) $$ Hlev
  iapply (wait_a7_at m cc _ 7 rfl) $$ [Hc HO Hmw Hp]
  · isplitr; · iexact HIc75
    isplitl [Hc]; · iexact Hc
    isplitl [HO]; · iexact HO
    isplitl [Hmw]; · iexact Hmw
    iexact Hp
  iintro ⟨HO, Hq75, -, Hy7⟩
  -- chunk 7 of the two neighbours' quarters: half its ownership stays for the copy into the result, of the other half one column half travels on
  ihave Hz7 := (Entails.of_eq (share_FG_eq (F := F) (r4R (zqF cc) 7) cc (r4 m cc))) $$ Hz7
  icases Hz7 with ⟨HzF7, HzG7⟩
  ihave HzF7 := (Entails.of_eq (chunk_halves (F := F) cc (zqF cc) 7 shF (r4 m cc))) $$ HzF7
  icases HzF7 with ⟨HzFl7, HzFr7⟩
  ihave Hy7 := (Entails.of_eq (share_FG_eq (F := F) (r4R (yqF cc) 7) cc (r4 m cc))) $$ Hy7
  icases Hy7 with ⟨HyF7, HyG7⟩
  ihave HyF7 := (Entails.of_eq (chunk_halves (F := F) cc (yqF cc) 7 shF (r4 m cc))) $$ HyF7
  icases HyF7 with ⟨HyFl7, HyFr7⟩
  sl_exec
  -- the right half of the z-neighbour's last chunk on to the y-neighbour
  icases Htk with ⟨Hts, Htr, Htk⟩
  icases HIt with ⟨#HIc99, #HIr, HIt⟩
  icases HRt with ⟨#HRs, #HRr, HRt⟩
  icases HhYp with ⟨%fd, Hd⟩
  iapply (send_yf_at m cc _ (dev39_eq cc) 7 (by decide) _ _ (k0_off47_eq cc) fd (owedL (List.drop 39 (paysL cc))) rfl _) $$ [HzFr7 Hd HO Hts Htr]
  · isplitr; · iexact HIc99
    isplitr; · iexact HIr
    isplitl [HzFr7]; · iexact HzFr7
    isplitl [Hd]; · iexact Hd
    isplitl [HO]; · iexact HO
    isplitl [Hts]; · iexact Hts
    isplitr; · iexact HRs
    isplitl [Htr]; · iexact Htr
    iexact HRr
  iintro ⟨Hcyfs7, HO⟩
  iclear HIr HRs HRr
  sl_exec
  -- the left half of the y-neighbour's last chunk on to the z-neighbour
  icases Htk with ⟨Hts, Htr⟩
  icases HIt with ⟨#HIc83, #HIr⟩
  icases HRt with ⟨#HRs, #HRr⟩
  icases HhZp with ⟨%fd, Hd⟩
  iapply (send_zf_at m cc _ (dev40_eq cc) 7 (by decide) _ _ (k0_off48_eq cc) fd (owedL (List.drop 40 (paysL cc))) rfl _) $$ [HyFl7 Hd HO Hts Htr]
  · isplitr; · iexact HIc83
    isplitr; · iexact HIr
    isplitl [HyFl7]; · iexact HyFl7
    isplitl [Hd]; · iexact Hd
    isplitl [HO]; · iexact HO
    isplitl [Hts]; · iexact Hts
    isplitr; · iexact HRs
    isplitl [Htr]; · iexact Htr
    iexact HRr
  iintro ⟨Hczfs7, HO⟩
  iclear HIr HRs HRr
  sl_exec
  -- chunk 0 of the diagonal quarter: the x-neighbour's chunk has landed
  icases Hcr with ⟨Hc, Hcr⟩
  icases HpR with ⟨Hp, HpR⟩
  icases HIw with ⟨#HIc41, HIw⟩
  ihave Hmw := (mayWait_list (F := F) cc (dsem (⟨41, by decide⟩ : Fin 140)) (List.drop 40 (paysL cc)) (by decide)) $$ Hlev
  iapply (wait_a3_at m cc _ 0 rfl) $$ [Hc HO Hmw Hp]
  · isplitr; · iexact HIc41
    isplitl [Hc]; · iexact Hc
    isplitl [HO]; · iexact HO
    isplitl [Hmw]; · iexact Hmw
    iexact Hp
  iintro ⟨HO, Hq41, -, Hrb20⟩
  icases Hdg with ⟨Hdq0, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq0 := (congr (F := F) (r4R (dqF cc) 0) cc fullShare (dev.sl.Hdq0_w1 m f0) (r4 m cc) (fun i hi => glue_dgn m cc 0 0 rfl _ (k0_off18_inb cc) (k0_off18_eq cc) _ (k0_off49_inb cc) (k0_off49_eq cc) f0 i hi)) $$ Hdq0
  -- the four copies of chunk 0 into the result
  icases HvO with ⟨Hw0a, Hw0b, Hw0c, Hw0d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 1 of the diagonal quarter: the x-neighbour's chunk has landed
  icases Hcr with ⟨Hc, Hcr⟩
  icases HpR with ⟨Hp, HpR⟩
  icases HIw with ⟨#HIc42, HIw⟩
  ihave Hmw := (mayWait_list (F := F) cc (dsem (⟨42, by decide⟩ : Fin 140)) (List.drop 40 (paysL cc)) (by decide)) $$ Hlev
  iapply (wait_a3_at m cc _ 1 rfl) $$ [Hc HO Hmw Hp]
  · isplitr; · iexact HIc42
    isplitl [Hc]; · iexact Hc
    isplitl [HO]; · iexact HO
    isplitl [Hmw]; · iexact Hmw
    iexact Hp
  iintro ⟨HO, Hq42, -, Hrb21⟩
  icases Hdg with ⟨Hdq1, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq1 := (congr (F := F) (r4R (dqF cc) 1) cc fullShare (dev.sl.Hdq1_w1 m f0) (r4 m cc) (fun i hi => glue_dgn m cc 1 1 rfl _ (k0_off20_inb cc) (k0_off20_eq cc) _ (k0_off50_inb cc) (k0_off50_eq cc) f0 i hi)) $$ Hdq1
  -- the four copies of chunk 1 into the result
  icases HvO with ⟨Hw1a, Hw1b, Hw1c, Hw1d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 2 of the diagonal quarter: the x-neighbour's chunk has landed
  icases Hcr with ⟨Hc, Hcr⟩
  icases HpR with ⟨Hp, HpR⟩
  icases HIw with ⟨#HIc43, HIw⟩
  ihave Hmw := (mayWait_list (F := F) cc (dsem (⟨43, by decide⟩ : Fin 140)) (List.drop 40 (paysL cc)) (by decide)) $$ Hlev
  iapply (wait_a3_at m cc _ 2 rfl) $$ [Hc HO Hmw Hp]
  · isplitr; · iexact HIc43
    isplitl [Hc]; · iexact Hc
    isplitl [HO]; · iexact HO
    isplitl [Hmw]; · iexact Hmw
    iexact Hp
  iintro ⟨HO, Hq43, -, Hrb22⟩
  icases Hdg with ⟨Hdq2⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq2 := (congr (F := F) (r4R (dqF cc) 2) cc fullShare (dev.sl.Hdq2_w1 m f0) (r4 m cc) (fun i hi => glue_dgn m cc 2 2 rfl _ (k0_off22_inb cc) (k0_off22_eq cc) _ (k0_off51_inb cc) (k0_off51_eq cc) f0 i hi)) $$ Hdq2
  -- the four copies of chunk 2 into the result
  icases HvO with ⟨Hw2a, Hw2b, Hw2c, Hw2d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 6 of the diagonal quarter has landed
  icases Hcr with ⟨Hc, Hcr⟩
  icases HpR with ⟨Hp, HpR⟩
  icases HIw with ⟨#HIc90, HIw⟩
  ihave Hmw := (mayWait_list (F := F) cc (dsem (⟨90, by decide⟩ : Fin 140)) (List.drop 40 (paysL cc)) (by decide)) $$ Hlev
  iapply (wait_a9_at m cc _ 6 rfl (by decide)) $$ [Hc HO Hmw Hp]
  · isplitr; · iexact HIc90
    isplitl [Hc]; · iexact Hc
    isplitl [HO]; · iexact HO
    isplitl [Hmw]; · iexact Hmw
    iexact Hp
  iintro ⟨HO, Hq90, -, Hdl6⟩
  sl_exec
  -- its right half has landed
  icases Hcr with ⟨Hc, Hcr⟩
  icases HpR with ⟨Hp, HpR⟩
  icases HIw with ⟨#HIc106, HIw⟩
  ihave Hmw := (mayWait_list (F := F) cc (dsem (⟨106, by decide⟩ : Fin 140)) (List.drop 40 (paysL cc)) (by decide)) $$ Hlev
  iapply (wait_a11_at m cc _ 6 rfl (by decide)) $$ [Hc HO Hmw Hp]
  · isplitr; · iexact HIc106
    isplitl [Hc]; · iexact Hc
    isplitl [HO]; · iexact HO
    isplitl [Hmw]; · iexact Hmw
    iexact Hp
  iintro ⟨HO, Hq106, -, Hdr6⟩
  ihave Hd6 := (Entails.of_eq (chunk_halves (F := F) cc (dqF cc) 6 fullShare (r4 m cc)).symm) $$ [Hdl6 Hdr6]
  · isplitl [Hdl6]; · iexact Hdl6
    iexact Hdr6
  -- the four copies of chunk 6 into the result
  icases HvO with ⟨Hw6a, Hw6b, Hw6c, Hw6d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 7 of the diagonal quarter has landed
  icases Hcr with ⟨Hc, Hcr⟩
  icases HpR with ⟨Hp, HpR⟩
  icases HIw with ⟨#HIc91, HIw⟩
  ihave Hcr := ((sep_emp (PROP := sProp 𝕄)).2) $$ Hcr
  ihave Hmw := (mayWait_list (F := F) cc (dsem (⟨91, by decide⟩ : Fin 140)) (List.drop 40 (paysL cc)) (by decide)) $$ Hlev
  iapply (wait_a9_at m cc _ 7 rfl (by decide)) $$ [Hc HO Hmw Hp]
  · isplitr; · iexact HIc91
    isplitl [Hc]; · iexact Hc
    isplitl [HO]; · iexact HO
    isplitl [Hmw]; · iexact Hmw
    iexact Hp
  iintro ⟨HO, Hq91, -, Hdl7⟩
  sl_exec
  -- its right half has landed
  icases HIw with #HIc107
  icases Hcr with ⟨Hcr, -⟩
  ihave Hmw := (mayWait_list (F := F) cc (dsem (⟨107, by decide⟩ : Fin 140)) (List.drop 40 (paysL cc)) (by decide)) $$ Hlev
  iapply (wait_a11_at m cc _ 7 rfl (by decide)) $$ [Hcr HO Hmw HpR]
  · isplitr; · iexact HIc107
    isplitl [Hcr]; · iexact Hcr
    isplitl [HO]; · iexact HO
    isplitl [Hmw]; · iexact Hmw
    iexact HpR
  iintro ⟨HO, Hq107, -, Hdr7⟩
  ihave Hd7 := (Entails.of_eq (chunk_halves (F := F) cc (dqF cc) 7 fullShare (r4 m cc)).symm) $$ [Hdl7 Hdr7]
  · isplitl [Hdl7]; · iexact Hdl7
    iexact Hdr7
  -- the four copies of chunk 7 into the result
  icases HvO with ⟨Hw7a, Hw7b, Hw7c, Hw7d⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- nothing is owed any more: the level fact for the remaining local waits, once
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  -- the departure of chunk 0 across x
  icases HpS with ⟨Hp, HpS⟩
  ihave Hmw := (mayWait_list (F := F) cc (dsem (⟨22, by decide⟩ : Fin 140)) (List.drop 40 (paysL cc)) (by decide)) $$ Hlev
  iapply (wait_a0_at m cc _ 0 rfl) $$ [Hcxs0 HO Hmw Hp]
  · isplitr; · iexact HIc22
    isplitl [Hcxs0]; · iexact Hcxs0
    isplitl [HO]; · iexact HO
    isplitl [Hmw]; · iexact Hmw
    iexact Hp
  iintro ⟨HO, Hq22, -, HBs0⟩
  sl_exec
  -- of own chunk 0 to z
  icases HpS with ⟨Hp, HpS⟩
  ihave Hmw := (mayWait_list (F := F) cc (dsem (⟨44, by decide⟩ : Fin 140)) (List.drop 40 (paysL cc)) (by decide)) $$ Hlev
  iapply (wait_a4_at m cc _ 0 rfl) $$ [Hczs0 HO Hmw Hp]
  · isplitr; · iexact HIc44
    isplitl [Hczs0]; · iexact Hczs0
    isplitl [HO]; · iexact HO
    isplitl [Hmw]; · iexact Hmw
    iexact Hp
  iintro ⟨HO, Hq44, -, HoZb0⟩
  sl_exec
  -- of own chunk 0 to y
  icases HpS with ⟨Hp, HpS⟩
  ihave Hmw := (mayWait_list (F := F) cc (dsem (⟨60, by decide⟩ : Fin 140)) (List.drop 40 (paysL cc)) (by decide)) $$ Hlev
  iapply (wait_a6_at m cc _ 0 rfl) $$ [Hcys0 HO Hmw Hp]
  · isplitr; · iexact HIc60
    isplitl [Hcys0]; · iexact Hcys0
    isplitl [HO]; · iexact HO
    isplitl [Hmw]; · iexact Hmw
    iexact Hp
  iintro ⟨HO, Hq60, -, HoYb0⟩
  sl_exec
  -- the departure of chunk 1 across x
  icases HpS with ⟨Hp, HpS⟩
  ihave Hmw := (mayWait_list (F := F) cc (dsem (⟨23, by decide⟩ : Fin 140)) (List.drop 40 (paysL cc)) (by decide)) $$ Hlev
  iapply (wait_a0_at m cc _ 1 rfl) $$ [Hcxs1 HO Hmw Hp]
  · isplitr; · iexact HIc23
    isplitl [Hcxs1]; · iexact Hcxs1
    isplitl [HO]; · iexact HO
    isplitl [Hmw]; · iexact Hmw
    iexact Hp
  iintro ⟨HO, Hq23, -, HBs1⟩
  sl_exec
  -- of own chunk 1 to z
  icases HpS with ⟨Hp, HpS⟩
  ihave Hmw := (mayWait_list (F := F) cc (dsem (⟨45, by decide⟩ : Fin 140)) (List.drop 40 (paysL cc)) (by decide)) $$ Hlev
  iapply (wait_a4_at m cc _ 1 rfl) $$ [Hczs1 HO Hmw Hp]
  · isplitr; · iexact HIc45
    isplitl [Hczs1]; · iexact Hczs1
    isplitl [HO]; · iexact HO
    isplitl [Hmw]; · iexact Hmw
    iexact Hp
  iintro ⟨HO, Hq45, -, HoZb1⟩
  sl_exec
  -- of own chunk 1 to y
  icases HpS with ⟨Hp, HpS⟩
  ihave Hmw := (mayWait_list (F := F) cc (dsem (⟨61, by decide⟩ : Fin 140)) (List.drop 40 (paysL cc)) (by decide)) $$ Hlev
  iapply (wait_a6_at m cc _ 1 rfl) $$ [Hcys1 HO Hmw Hp]
  · isplitr; · iexact HIc61
    isplitl [Hcys1]; · iexact Hcys1
    isplitl [HO]; · iexact HO
    isplitl [Hmw]; · iexact Hmw
    iexact Hp
  iintro ⟨HO, Hq61, -, HoYb1⟩
  sl_exec
  -- the departure of chunk 2 across x
  icases HpS with ⟨Hp, HpS⟩
  ihave Hmw := (mayWait_list (F := F) cc (dsem (⟨24, by decide⟩ : Fin 140)) (List.drop 40 (paysL cc)) (by decide)) $$ Hlev
  iapply (wait_a0_at m cc _ 2 rfl) $$ [Hcxs2 HO Hmw Hp]
  · isplitr; · iexact HIc24
    isplitl [Hcxs2]; · iexact Hcxs2
    isplitl [HO]; · iexact HO
    isplitl [Hmw]; · iexact Hmw
    iexact Hp
  iintro ⟨HO, Hq24, -, HBs2⟩
  sl_exec
  -- of own chunk 2 to z
  icases HpS with ⟨Hp, HpS⟩
  ihave Hmw := (mayWait_list (F := F) cc (dsem (⟨46, by decide⟩ : Fin 140)) (List.drop 40 (paysL cc)) (by decide)) $$ Hlev
  iapply (wait_a4_at m cc _ 2 rfl) $$ [Hczs2 HO Hmw Hp]
  · isplitr; · iexact HIc46
    isplitl [Hczs2]; · iexact Hczs2
    isplitl [HO]; · iexact HO
    isplitl [Hmw]; · iexact Hmw
    iexact Hp
  iintro ⟨HO, Hq46, -, HoZb2⟩
  sl_exec
  -- of own chunk 2 to y
  icases HpS with ⟨Hp, HpS⟩
  ihave Hmw := (mayWait_list (F := F) cc (dsem (⟨62, by decide⟩ : Fin 140)) (List.drop 40 (paysL cc)) (by decide)) $$ Hlev
  iapply (wait_a6_at m cc _ 2 rfl) $$ [Hcys2 HO Hmw Hp]
  · isplitr; · iexact HIc62
    isplitl [Hcys2]; · iexact Hcys2
    isplitl [HO]; · iexact HO
    isplitl [Hmw]; · iexact Hmw
    iexact Hp
  iintro ⟨HO, Hq62, -, HoYb2⟩
  sl_exec
  -- the departure of chunk 3 across x
  icases HpS with ⟨Hp, HpS⟩
  ihave Hmw := (mayWait_list (F := F) cc (dsem (⟨25, by decide⟩ : Fin 140)) (List.drop 40 (paysL cc)) (by decide)) $$ Hlev
  iapply (wait_a0_at m cc _ 3 rfl) $$ [Hcxs3 HO Hmw Hp]
  · isplitr; · iexact HIc25
    isplitl [Hcxs3]; · iexact Hcxs3
    isplitl [HO]; · iexact HO
    isplitl [Hmw]; · iexact Hmw
    iexact Hp
  iintro ⟨HO, Hq25, -, HBs3⟩
  sl_exec
  -- of own chunk 3 to z
  icases HpS with ⟨Hp, HpS⟩
  ihave Hmw := (mayWait_list (F := F) cc (dsem (⟨47, by decide⟩ : Fin 140)) (List.drop 40 (paysL cc)) (by decide)) $$ Hlev
  iapply (wait_a4_at m cc _ 3 rfl) $$ [Hczs3 HO Hmw Hp]
  · isplitr; · iexact HIc47
    isplitl [Hczs3]; · iexact Hczs3
    isplitl [HO]; · iexact HO
    isplitl [Hmw]; · iexact Hmw
    iexact Hp
  iintro ⟨HO, Hq47, -, HoZb3⟩
  sl_exec
  -- of own chunk 3 to y
  icases HpS with ⟨Hp, HpS⟩
  ihave Hmw := (mayWait_list (F := F) cc (dsem (⟨63, by decide⟩ : Fin 140)) (List.drop 40 (paysL cc)) (by decide)) $$ Hlev
  iapply (wait_a6_at m cc _ 3 rfl) $$ [Hcys3 HO Hmw Hp]
  · isplitr; · iexact HIc63
    isplitl [Hcys3]; · iexact Hcys3
    isplitl [HO]; · iexact HO
    isplitl [Hmw]; · iexact Hmw
    iexact Hp
  iintro ⟨HO, Hq63, -, HoYb3⟩
  sl_exec
  -- of the forwarded half to z
  icases HpS with ⟨Hp, HpS⟩
  ihave Hmw := (mayWait_list (F := F) cc (dsem (⟨79, by decide⟩ : Fin 140)) (List.drop 40 (paysL cc)) (by decide)) $$ Hlev
  iapply (wait_a8_at m cc _ 3 rfl (by decide)) $$ [Hczfs3 HO Hmw Hp]
  · isplitr; · iexact HIc79
    isplitl [Hczfs3]; · iexact Hczfs3
    isplitl [HO]; · iexact HO
    isplitl [Hmw]; · iexact Hmw
    iexact Hp
  iintro ⟨HO, Hq79, -, HyFlb3⟩
  sl_exec
  -- of the forwarded half to y
  icases HpS with ⟨Hp, HpS⟩
  ihave Hmw := (mayWait_list (F := F) cc (dsem (⟨95, by decide⟩ : Fin 140)) (List.drop 40 (paysL cc)) (by decide)) $$ Hlev
  iapply (wait_a10_at m cc _ 3 rfl (by decide)) $$ [Hcyfs3 HO Hmw Hp]
  · isplitr; · iexact HIc95
    isplitl [Hcyfs3]; · iexact Hcyfs3
    isplitl [HO]; · iexact HO
    isplitl [Hmw]; · iexact Hmw
    iexact Hp
  iintro ⟨HO, Hq95, -, HzFrb3⟩
  sl_exec
  -- the departure of chunk 4 across x
  icases HpS with ⟨Hp, HpS⟩
  ihave Hmw := (mayWait_list (F := F) cc (dsem (⟨26, by decide⟩ : Fin 140)) (List.drop 40 (paysL cc)) (by decide)) $$ Hlev
  iapply (wait_a0_at m cc _ 4 rfl) $$ [Hcxs4 HO Hmw Hp]
  · isplitr; · iexact HIc26
    isplitl [Hcxs4]; · iexact Hcxs4
    isplitl [HO]; · iexact HO
    isplitl [Hmw]; · iexact Hmw
    iexact Hp
  iintro ⟨HO, Hq26, -, HBs4⟩
  sl_exec
  -- of own chunk 4 to z
  icases HpS with ⟨Hp, HpS⟩
  ihave Hmw := (mayWait_list (F := F) cc (dsem (⟨48, by decide⟩ : Fin 140)) (List.drop 40 (paysL cc)) (by decide)) $$ Hlev
  iapply (wait_a4_at m cc _ 4 rfl) $$ [Hczs4 HO Hmw Hp]
  · isplitr; · iexact HIc48
    isplitl [Hczs4]; · iexact Hczs4
    isplitl [HO]; · iexact HO
    isplitl [Hmw]; · iexact Hmw
    iexact Hp
  iintro ⟨HO, Hq48, -, HoZb4⟩
  sl_exec
  -- of own chunk 4 to y
  icases HpS with ⟨Hp, HpS⟩
  ihave Hmw := (mayWait_list (F := F) cc (dsem (⟨64, by decide⟩ : Fin 140)) (List.drop 40 (paysL cc)) (by decide)) $$ Hlev
  iapply (wait_a6_at m cc _ 4 rfl) $$ [Hcys4 HO Hmw Hp]
  · isplitr; · iexact HIc64
    isplitl [Hcys4]; · iexact Hcys4
    isplitl [HO]; · iexact HO
    isplitl [Hmw]; · iexact Hmw
    iexact Hp
  iintro ⟨HO, Hq64, -, HoYb4⟩
  sl_exec
  -- of the forwarded half to z
  icases HpS with ⟨Hp, HpS⟩
  ihave Hmw := (mayWait_list (F := F) cc (dsem (⟨80, by decide⟩ : Fin 140)) (List.drop 40 (paysL cc)) (by decide)) $$ Hlev
  iapply (wait_a8_at m cc _ 4 rfl (by decide)) $$ [Hczfs4 HO Hmw Hp]
  · isplitr; · iexact HIc80
    isplitl [Hczfs4]; · iexact Hczfs4
    isplitl [HO]; · iexact HO
    isplitl [Hmw]; · iexact Hmw
    iexact Hp
  iintro ⟨HO, Hq80, -, HyFlb4⟩
  sl_exec
  -- of the forwarded half to y
  icases HpS with ⟨Hp, HpS⟩
  ihave Hmw := (mayWait_list (F := F) cc (dsem (⟨96, by decide⟩ : Fin 140)) (List.drop 40 (paysL cc)) (by decide)) $$ Hlev
  iapply (wait_a10_at m cc _ 4 rfl (by decide)) $$ [Hcyfs4 HO Hmw Hp]
  · isplitr; · iexact HIc96
    isplitl [Hcyfs4]; · iexact Hcyfs4
    isplitl [HO]; · iexact HO
    isplitl [Hmw]; · iexact Hmw
    iexact Hp
  iintro ⟨HO, Hq96, -, HzFrb4⟩
  sl_exec
  -- the departure of chunk 5 across x
  icases HpS with ⟨Hp, HpS⟩
  ihave Hmw := (mayWait_list (F := F) cc (dsem (⟨27, by decide⟩ : Fin 140)) (List.drop 40 (paysL cc)) (by decide)) $$ Hlev
  iapply (wait_a0_at m cc _ 5 rfl) $$ [Hcxs5 HO Hmw Hp]
  · isplitr; · iexact HIc27
    isplitl [Hcxs5]; · iexact Hcxs5
    isplitl [HO]; · iexact HO
    isplitl [Hmw]; · iexact Hmw
    iexact Hp
  iintro ⟨HO, Hq27, -, HBs5⟩
  sl_exec
  -- of own chunk 5 to z
  icases HpS with ⟨Hp, HpS⟩
  ihave Hmw := (mayWait_list (F := F) cc (dsem (⟨49, by decide⟩ : Fin 140)) (List.drop 40 (paysL cc)) (by decide)) $$ Hlev
  iapply (wait_a4_at m cc _ 5 rfl) $$ [Hczs5 HO Hmw Hp]
  · isplitr; · iexact HIc49
    isplitl [Hczs5]; · iexact Hczs5
    isplitl [HO]; · iexact HO
    isplitl [Hmw]; · iexact Hmw
    iexact Hp
  iintro ⟨HO, Hq49, -, HoZb5⟩
  sl_exec
  -- of own chunk 5 to y
  icases HpS with ⟨Hp, HpS⟩
  ihave Hmw := (mayWait_list (F := F) cc (dsem (⟨65, by decide⟩ : Fin 140)) (List.drop 40 (paysL cc)) (by decide)) $$ Hlev
  iapply (wait_a6_at m cc _ 5 rfl) $$ [Hcys5 HO Hmw Hp]
  · isplitr; · iexact HIc65
    isplitl [Hcys5]; · iexact Hcys5
    isplitl [HO]; · iexact HO
    isplitl [Hmw]; · iexact Hmw
    iexact Hp
  iintro ⟨HO, Hq65, -, HoYb5⟩
  sl_exec
  -- of the forwarded half to z
  icases HpS with ⟨Hp, HpS⟩
  ihave Hmw := (mayWait_list (F := F) cc (dsem (⟨81, by decide⟩ : Fin 140)) (List.drop 40 (paysL cc)) (by decide)) $$ Hlev
  iapply (wait_a8_at m cc _ 5 rfl (by decide)) $$ [Hczfs5 HO Hmw Hp]
  · isplitr; · iexact HIc81
    isplitl [Hczfs5]; · iexact Hczfs5
    isplitl [HO]; · iexact HO
    isplitl [Hmw]; · iexact Hmw
    iexact Hp
  iintro ⟨HO, Hq81, -, HyFlb5⟩
  sl_exec
  -- of the forwarded half to y
  icases HpS with ⟨Hp, HpS⟩
  ihave Hmw := (mayWait_list (F := F) cc (dsem (⟨97, by decide⟩ : Fin 140)) (List.drop 40 (paysL cc)) (by decide)) $$ Hlev
  iapply (wait_a10_at m cc _ 5 rfl (by decide)) $$ [Hcyfs5 HO Hmw Hp]
  · isplitr; · iexact HIc97
    isplitl [Hcyfs5]; · iexact Hcyfs5
    isplitl [HO]; · iexact HO
    isplitl [Hmw]; · iexact Hmw
    iexact Hp
  iintro ⟨HO, Hq97, -, HzFrb5⟩
  sl_exec
  -- the departure of chunk 6 across x
  icases HpS with ⟨Hp, HpS⟩
  ihave Hmw := (mayWait_list (F := F) cc (dsem (⟨28, by decide⟩ : Fin 140)) (List.drop 40 (paysL cc)) (by decide)) $$ Hlev
  iapply (wait_a0_at m cc _ 6 rfl) $$ [Hcxs6 HO Hmw Hp]
  · isplitr; · iexact HIc28
    isplitl [Hcxs6]; · iexact Hcxs6
    isplitl [HO]; · iexact HO
    isplitl [Hmw]; · iexact Hmw
    iexact Hp
  iintro ⟨HO, Hq28, -, HBs6⟩
  sl_exec
  -- of own chunk 6 to z
  icases HpS with ⟨Hp, HpS⟩
  ihave Hmw := (mayWait_list (F := F) cc (dsem (⟨50, by decide⟩ : Fin 140)) (List.drop 40 (paysL cc)) (by decide)) $$ Hlev
  iapply (wait_a4_at m cc _ 6 rfl) $$ [Hczs6 HO Hmw Hp]
  · isplitr; · iexact HIc50
    isplitl [Hczs6]; · iexact Hczs6
    isplitl [HO]; · iexact HO
    isplitl [Hmw]; · iexact Hmw
    iexact Hp
  iintro ⟨HO, Hq50, -, HoZb6⟩
  sl_exec
  -- of own chunk 6 to y
  icases HpS with ⟨Hp, HpS⟩
  ihave Hmw := (mayWait_list (F := F) cc (dsem (⟨66, by decide⟩ : Fin 140)) (List.drop 40 (paysL cc)) (by decide)) $$ Hlev
  iapply (wait_a6_at m cc _ 6 rfl) $$ [Hcys6 HO Hmw Hp]
  · isplitr; · iexact HIc66
    isplitl [Hcys6]; · iexact Hcys6
    isplitl [HO]; · iexact HO
    isplitl [Hmw]; · iexact Hmw
    iexact Hp
  iintro ⟨HO, Hq66, -, HoYb6⟩
  sl_exec
  -- of the forwarded half to z
  icases HpS with ⟨Hp, HpS⟩
  ihave Hmw := (mayWait_list (F := F) cc (dsem (⟨82, by decide⟩ : Fin 140)) (List.drop 40 (paysL cc)) (by decide)) $$ Hlev
  iapply (wait_a8_at m cc _ 6 rfl (by decide)) $$ [Hczfs6 HO Hmw Hp]
  · isplitr; · iexact HIc82
    isplitl [Hczfs6]; · iexact Hczfs6
    isplitl [HO]; · iexact HO
    isplitl [Hmw]; · iexact Hmw
    iexact Hp
  iintro ⟨HO, Hq82, -, HyFlb6⟩
  sl_exec
  -- of the forwarded half to y
  icases HpS with ⟨Hp, HpS⟩
  ihave Hmw := (mayWait_list (F := F) cc (dsem (⟨98, by decide⟩ : Fin 140)) (List.drop 40 (paysL cc)) (by decide)) $$ Hlev
  iapply (wait_a10_at m cc _ 6 rfl (by decide)) $$ [Hcyfs6 HO Hmw Hp]
  · isplitr; · iexact HIc98
    isplitl [Hcyfs6]; · iexact Hcyfs6
    isplitl [HO]; · iexact HO
    isplitl [Hmw]; · iexact Hmw
    iexact Hp
  iintro ⟨HO, Hq98, -, HzFrb6⟩
  sl_exec
  -- the departure of chunk 7 across x
  icases HpS with ⟨Hp, HpS⟩
  ihave Hmw := (mayWait_list (F := F) cc (dsem (⟨29, by decide⟩ : Fin 140)) (List.drop 40 (paysL cc)) (by decide)) $$ Hlev
  iapply (wait_a0_at m cc _ 7 rfl) $$ [Hcxs7 HO Hmw Hp]
  · isplitr; · iexact HIc29
    isplitl [Hcxs7]; · iexact Hcxs7
    isplitl [HO]; · iexact HO
    isplitl [Hmw]; · iexact Hmw
    iexact Hp
  iintro ⟨HO, Hq29, -, HBs7⟩
  sl_exec
  -- of own chunk 7 to z
  icases HpS with ⟨Hp, HpS⟩
  ihave Hmw := (mayWait_list (F := F) cc (dsem (⟨51, by decide⟩ : Fin 140)) (List.drop 40 (paysL cc)) (by decide)) $$ Hlev
  iapply (wait_a4_at m cc _ 7 rfl) $$ [Hczs7 HO Hmw Hp]
  · isplitr; · iexact HIc51
    isplitl [Hczs7]; · iexact Hczs7
    isplitl [HO]; · iexact HO
    isplitl [Hmw]; · iexact Hmw
    iexact Hp
  iintro ⟨HO, Hq51, -, HoZb7⟩
  sl_exec
  -- of own chunk 7 to y
  icases HpS with ⟨Hp, HpS⟩
  ihave Hmw := (mayWait_list (F := F) cc (dsem (⟨67, by decide⟩ : Fin 140)) (List.drop 40 (paysL cc)) (by decide)) $$ Hlev
  iapply (wait_a6_at m cc _ 7 rfl) $$ [Hcys7 HO Hmw Hp]
  · isplitr; · iexact HIc67
    isplitl [Hcys7]; · iexact Hcys7
    isplitl [HO]; · iexact HO
    isplitl [Hmw]; · iexact Hmw
    iexact Hp
  iintro ⟨HO, Hq67, -, HoYb7⟩
  sl_exec
  -- of the forwarded half to z
  icases HpS with ⟨Hp, HpS⟩
  ihave Hmw := (mayWait_list (F := F) cc (dsem (⟨83, by decide⟩ : Fin 140)) (List.drop 40 (paysL cc)) (by decide)) $$ Hlev
  iapply (wait_a8_at m cc _ 7 rfl (by decide)) $$ [Hczfs7 HO Hmw Hp]
  · isplitr; · iexact HIc83
    isplitl [Hczfs7]; · iexact Hczfs7
    isplitl [HO]; · iexact HO
    isplitl [Hmw]; · iexact Hmw
    iexact Hp
  iintro ⟨HO, Hq83, -, HyFlb7⟩
  sl_exec
  -- of the forwarded half to y
  icases HpS with ⟨Hp, HpS⟩
  ihave Hmw := (mayWait_list (F := F) cc (dsem (⟨99, by decide⟩ : Fin 140)) (List.drop 40 (paysL cc)) (by decide)) $$ Hlev
  iapply (wait_a10_at m cc _ 7 rfl (by decide)) $$ [Hcyfs7 HO Hmw Hp]
  · isplitr; · iexact HIc99
    isplitl [Hcyfs7]; · iexact Hcyfs7
    isplitl [HO]; · iexact HO
    isplitl [Hmw]; · iexact Hmw
    iexact Hp
  iintro ⟨HO, Hq99, -, HzFrb7⟩
  sl_exec
  -- of chunk 0 of the diagonal quarter across x
  icases HpS with ⟨Hp, HpS⟩
  ihave Hmw := (mayWait_list (F := F) cc (dsem (⟨38, by decide⟩ : Fin 140)) (List.drop 40 (paysL cc)) (by decide)) $$ Hlev
  iapply (wait_a2_at m cc _ 0 rfl) $$ [Hcds0 HO Hmw Hp]
  · isplitr; · iexact HIc38
    isplitl [Hcds0]; · iexact Hcds0
    isplitl [HO]; · iexact HO
    isplitl [Hmw]; · iexact Hmw
    iexact Hp
  iintro ⟨HO, Hq38, -, HB2s0⟩
  sl_exec
  -- of chunk 1 of the diagonal quarter across x
  icases HpS with ⟨Hp, HpS⟩
  ihave HpS := ((sep_emp (PROP := sProp 𝕄)).2) $$ HpS
  ihave Hmw := (mayWait_list (F := F) cc (dsem (⟨39, by decide⟩ : Fin 140)) (List.drop 40 (paysL cc)) (by decide)) $$ Hlev
  iapply (wait_a2_at m cc _ 1 rfl) $$ [Hcds1 HO Hmw Hp]
  · isplitr; · iexact HIc39
    isplitl [Hcds1]; · iexact Hcds1
    isplitl [HO]; · iexact HO
    isplitl [Hmw]; · iexact Hmw
    iexact Hp
  iintro ⟨HO, Hq39, -, HB2s1⟩
  sl_exec
  -- of chunk 2 of the diagonal quarter across x

  icases HpS with ⟨HpS, -⟩
  ihave Hmw := (mayWait_list (F := F) cc (dsem (⟨40, by decide⟩ : Fin 140)) (List.drop 40 (paysL cc)) (by decide)) $$ Hlev
  iapply (wait_a2_at m cc _ 2 rfl) $$ [Hcds2 HO Hmw HpS]
  · isplitr; · iexact HIc40
    isplitl [Hcds2]; · iexact Hcds2
    isplitl [HO]; · iexact HO
    isplitl [Hmw]; · iexact Hmw
    iexact HpS
  iintro ⟨HO, Hq40, -, HB2s2⟩
  sl_exec
  -- every cell of the protocol on this device has had its one round: close them, their counters are the device's again
  imod (close_cell (F := F) m cc (⟨22, by decide⟩ : Fin 140) (by decide)) $$ [Hq22] with Hv22
  · isplitr; · iexact HIc22
    iexact Hq22
  imod (close_cell (F := F) m cc (⟨23, by decide⟩ : Fin 140) (by decide)) $$ [Hq23] with Hv23
  · isplitr; · iexact HIc23
    iexact Hq23
  imod (close_cell (F := F) m cc (⟨24, by decide⟩ : Fin 140) (by decide)) $$ [Hq24] with Hv24
  · isplitr; · iexact HIc24
    iexact Hq24
  imod (close_cell (F := F) m cc (⟨25, by decide⟩ : Fin 140) (by decide)) $$ [Hq25] with Hv25
  · isplitr; · iexact HIc25
    iexact Hq25
  imod (close_cell (F := F) m cc (⟨26, by decide⟩ : Fin 140) (by decide)) $$ [Hq26] with Hv26
  · isplitr; · iexact HIc26
    iexact Hq26
  imod (close_cell (F := F) m cc (⟨27, by decide⟩ : Fin 140) (by decide)) $$ [Hq27] with Hv27
  · isplitr; · iexact HIc27
    iexact Hq27
  imod (close_cell (F := F) m cc (⟨28, by decide⟩ : Fin 140) (by decide)) $$ [Hq28] with Hv28
  · isplitr; · iexact HIc28
    iexact Hq28
  imod (close_cell (F := F) m cc (⟨29, by decide⟩ : Fin 140) (by decide)) $$ [Hq29] with Hv29
  · isplitr; · iexact HIc29
    iexact Hq29
  imod (close_cell (F := F) m cc (⟨30, by decide⟩ : Fin 140) (by decide)) $$ [Hq30] with Hv30
  · isplitr; · iexact HIc30
    iexact Hq30
  imod (close_cell (F := F) m cc (⟨31, by decide⟩ : Fin 140) (by decide)) $$ [Hq31] with Hv31
  · isplitr; · iexact HIc31
    iexact Hq31
  imod (close_cell (F := F) m cc (⟨32, by decide⟩ : Fin 140) (by decide)) $$ [Hq32] with Hv32
  · isplitr; · iexact HIc32
    iexact Hq32
  imod (close_cell (F := F) m cc (⟨33, by decide⟩ : Fin 140) (by decide)) $$ [Hq33] with Hv33
  · isplitr; · iexact HIc33
    iexact Hq33
  imod (close_cell (F := F) m cc (⟨34, by decide⟩ : Fin 140) (by decide)) $$ [Hq34] with Hv34
  · isplitr; · iexact HIc34
    iexact Hq34
  imod (close_cell (F := F) m cc (⟨35, by decide⟩ : Fin 140) (by decide)) $$ [Hq35] with Hv35
  · isplitr; · iexact HIc35
    iexact Hq35
  imod (close_cell (F := F) m cc (⟨36, by decide⟩ : Fin 140) (by decide)) $$ [Hq36] with Hv36
  · isplitr; · iexact HIc36
    iexact Hq36
  imod (close_cell (F := F) m cc (⟨37, by decide⟩ : Fin 140) (by decide)) $$ [Hq37] with Hv37
  · isplitr; · iexact HIc37
    iexact Hq37
  imod (close_cell (F := F) m cc (⟨38, by decide⟩ : Fin 140) (by decide)) $$ [Hq38] with Hv38
  · isplitr; · iexact HIc38
    iexact Hq38
  imod (close_cell (F := F) m cc (⟨39, by decide⟩ : Fin 140) (by decide)) $$ [Hq39] with Hv39
  · isplitr; · iexact HIc39
    iexact Hq39
  imod (close_cell (F := F) m cc (⟨40, by decide⟩ : Fin 140) (by decide)) $$ [Hq40] with Hv40
  · isplitr; · iexact HIc40
    iexact Hq40
  imod (close_cell (F := F) m cc (⟨41, by decide⟩ : Fin 140) (by decide)) $$ [Hq41] with Hv41
  · isplitr; · iexact HIc41
    iexact Hq41
  imod (close_cell (F := F) m cc (⟨42, by decide⟩ : Fin 140) (by decide)) $$ [Hq42] with Hv42
  · isplitr; · iexact HIc42
    iexact Hq42
  imod (close_cell (F := F) m cc (⟨43, by decide⟩ : Fin 140) (by decide)) $$ [Hq43] with Hv43
  · isplitr; · iexact HIc43
    iexact Hq43
  imod (close_cell (F := F) m cc (⟨44, by decide⟩ : Fin 140) (by decide)) $$ [Hq44] with Hv44
  · isplitr; · iexact HIc44
    iexact Hq44
  imod (close_cell (F := F) m cc (⟨45, by decide⟩ : Fin 140) (by decide)) $$ [Hq45] with Hv45
  · isplitr; · iexact HIc45
    iexact Hq45
  imod (close_cell (F := F) m cc (⟨46, by decide⟩ : Fin 140) (by decide)) $$ [Hq46] with Hv46
  · isplitr; · iexact HIc46
    iexact Hq46
  imod (close_cell (F := F) m cc (⟨47, by decide⟩ : Fin 140) (by decide)) $$ [Hq47] with Hv47
  · isplitr; · iexact HIc47
    iexact Hq47
  imod (close_cell (F := F) m cc (⟨48, by decide⟩ : Fin 140) (by decide)) $$ [Hq48] with Hv48
  · isplitr; · iexact HIc48
    iexact Hq48
  imod (close_cell (F := F) m cc (⟨49, by decide⟩ : Fin 140) (by decide)) $$ [Hq49] with Hv49
  · isplitr; · iexact HIc49
    iexact Hq49
  imod (close_cell (F := F) m cc (⟨50, by decide⟩ : Fin 140) (by decide)) $$ [Hq50] with Hv50
  · isplitr; · iexact HIc50
    iexact Hq50
  imod (close_cell (F := F) m cc (⟨51, by decide⟩ : Fin 140) (by decide)) $$ [Hq51] with Hv51
  · isplitr; · iexact HIc51
    iexact Hq51
  imod (close_cell (F := F) m cc (⟨52, by decide⟩ : Fin 140) (by decide)) $$ [Hq52] with Hv52
  · isplitr; · iexact HIc52
    iexact Hq52
  imod (close_cell (F := F) m cc (⟨53, by decide⟩ : Fin 140) (by decide)) $$ [Hq53] with Hv53
  · isplitr; · iexact HIc53
    iexact Hq53
  imod (close_cell (F := F) m cc (⟨54, by decide⟩ : Fin 140) (by decide)) $$ [Hq54] with Hv54
  · isplitr; · iexact HIc54
    iexact Hq54
  imod (close_cell (F := F) m cc (⟨55, by decide⟩ : Fin 140) (by decide)) $$ [Hq55] with Hv55
  · isplitr; · iexact HIc55
    iexact Hq55
  imod (close_cell (F := F) m cc (⟨56, by decide⟩ : Fin 140) (by decide)) $$ [Hq56] with Hv56
  · isplitr; · iexact HIc56
    iexact Hq56
  imod (close_cell (F := F) m cc (⟨57, by decide⟩ : Fin 140) (by decide)) $$ [Hq57] with Hv57
  · isplitr; · iexact HIc57
    iexact Hq57
  imod (close_cell (F := F) m cc (⟨58, by decide⟩ : Fin 140) (by decide)) $$ [Hq58] with Hv58
  · isplitr; · iexact HIc58
    iexact Hq58
  imod (close_cell (F := F) m cc (⟨59, by decide⟩ : Fin 140) (by decide)) $$ [Hq59] with Hv59
  · isplitr; · iexact HIc59
    iexact Hq59
  imod (close_cell (F := F) m cc (⟨60, by decide⟩ : Fin 140) (by decide)) $$ [Hq60] with Hv60
  · isplitr; · iexact HIc60
    iexact Hq60
  imod (close_cell (F := F) m cc (⟨61, by decide⟩ : Fin 140) (by decide)) $$ [Hq61] with Hv61
  · isplitr; · iexact HIc61
    iexact Hq61
  imod (close_cell (F := F) m cc (⟨62, by decide⟩ : Fin 140) (by decide)) $$ [Hq62] with Hv62
  · isplitr; · iexact HIc62
    iexact Hq62
  imod (close_cell (F := F) m cc (⟨63, by decide⟩ : Fin 140) (by decide)) $$ [Hq63] with Hv63
  · isplitr; · iexact HIc63
    iexact Hq63
  imod (close_cell (F := F) m cc (⟨64, by decide⟩ : Fin 140) (by decide)) $$ [Hq64] with Hv64
  · isplitr; · iexact HIc64
    iexact Hq64
  imod (close_cell (F := F) m cc (⟨65, by decide⟩ : Fin 140) (by decide)) $$ [Hq65] with Hv65
  · isplitr; · iexact HIc65
    iexact Hq65
  imod (close_cell (F := F) m cc (⟨66, by decide⟩ : Fin 140) (by decide)) $$ [Hq66] with Hv66
  · isplitr; · iexact HIc66
    iexact Hq66
  imod (close_cell (F := F) m cc (⟨67, by decide⟩ : Fin 140) (by decide)) $$ [Hq67] with Hv67
  · isplitr; · iexact HIc67
    iexact Hq67
  imod (close_cell (F := F) m cc (⟨68, by decide⟩ : Fin 140) (by decide)) $$ [Hq68] with Hv68
  · isplitr; · iexact HIc68
    iexact Hq68
  imod (close_cell (F := F) m cc (⟨69, by decide⟩ : Fin 140) (by decide)) $$ [Hq69] with Hv69
  · isplitr; · iexact HIc69
    iexact Hq69
  imod (close_cell (F := F) m cc (⟨70, by decide⟩ : Fin 140) (by decide)) $$ [Hq70] with Hv70
  · isplitr; · iexact HIc70
    iexact Hq70
  imod (close_cell (F := F) m cc (⟨71, by decide⟩ : Fin 140) (by decide)) $$ [Hq71] with Hv71
  · isplitr; · iexact HIc71
    iexact Hq71
  imod (close_cell (F := F) m cc (⟨72, by decide⟩ : Fin 140) (by decide)) $$ [Hq72] with Hv72
  · isplitr; · iexact HIc72
    iexact Hq72
  imod (close_cell (F := F) m cc (⟨73, by decide⟩ : Fin 140) (by decide)) $$ [Hq73] with Hv73
  · isplitr; · iexact HIc73
    iexact Hq73
  imod (close_cell (F := F) m cc (⟨74, by decide⟩ : Fin 140) (by decide)) $$ [Hq74] with Hv74
  · isplitr; · iexact HIc74
    iexact Hq74
  imod (close_cell (F := F) m cc (⟨75, by decide⟩ : Fin 140) (by decide)) $$ [Hq75] with Hv75
  · isplitr; · iexact HIc75
    iexact Hq75
  imod (close_cell (F := F) m cc (⟨79, by decide⟩ : Fin 140) (by decide)) $$ [Hq79] with Hv79
  · isplitr; · iexact HIc79
    iexact Hq79
  imod (close_cell (F := F) m cc (⟨80, by decide⟩ : Fin 140) (by decide)) $$ [Hq80] with Hv80
  · isplitr; · iexact HIc80
    iexact Hq80
  imod (close_cell (F := F) m cc (⟨81, by decide⟩ : Fin 140) (by decide)) $$ [Hq81] with Hv81
  · isplitr; · iexact HIc81
    iexact Hq81
  imod (close_cell (F := F) m cc (⟨82, by decide⟩ : Fin 140) (by decide)) $$ [Hq82] with Hv82
  · isplitr; · iexact HIc82
    iexact Hq82
  imod (close_cell (F := F) m cc (⟨83, by decide⟩ : Fin 140) (by decide)) $$ [Hq83] with Hv83
  · isplitr; · iexact HIc83
    iexact Hq83
  imod (close_cell (F := F) m cc (⟨87, by decide⟩ : Fin 140) (by decide)) $$ [Hq87] with Hv87
  · isplitr; · iexact HIc87
    iexact Hq87
  imod (close_cell (F := F) m cc (⟨88, by decide⟩ : Fin 140) (by decide)) $$ [Hq88] with Hv88
  · isplitr; · iexact HIc88
    iexact Hq88
  imod (close_cell (F := F) m cc (⟨89, by decide⟩ : Fin 140) (by decide)) $$ [Hq89] with Hv89
  · isplitr; · iexact HIc89
    iexact Hq89
  imod (close_cell (F := F) m cc (⟨90, by decide⟩ : Fin 140) (by decide)) $$ [Hq90] with Hv90
  · isplitr; · iexact HIc90
    iexact Hq90
  imod (close_cell (F := F) m cc (⟨91, by decide⟩ : Fin 140) (by decide)) $$ [Hq91] with Hv91
  · isplitr; · iexact HIc91
    iexact Hq91
  imod (close_cell (F := F) m cc (⟨95, by decide⟩ : Fin 140) (by decide)) $$ [Hq95] with Hv95
  · isplitr; · iexact HIc95
    iexact Hq95
  imod (close_cell (F := F) m cc (⟨96, by decide⟩ : Fin 140) (by decide)) $$ [Hq96] with Hv96
  · isplitr; · iexact HIc96
    iexact Hq96
  imod (close_cell (F := F) m cc (⟨97, by decide⟩ : Fin 140) (by decide)) $$ [Hq97] with Hv97
  · isplitr; · iexact HIc97
    iexact Hq97
  imod (close_cell (F := F) m cc (⟨98, by decide⟩ : Fin 140) (by decide)) $$ [Hq98] with Hv98
  · isplitr; · iexact HIc98
    iexact Hq98
  imod (close_cell (F := F) m cc (⟨99, by decide⟩ : Fin 140) (by decide)) $$ [Hq99] with Hv99
  · isplitr; · iexact HIc99
    iexact Hq99
  imod (close_cell (F := F) m cc (⟨103, by decide⟩ : Fin 140) (by decide)) $$ [Hq103] with Hv103
  · isplitr; · iexact HIc103
    iexact Hq103
  imod (close_cell (F := F) m cc (⟨104, by decide⟩ : Fin 140) (by decide)) $$ [Hq104] with Hv104
  · isplitr; · iexact HIc104
    iexact Hq104
  imod (close_cell (F := F) m cc (⟨105, by decide⟩ : Fin 140) (by decide)) $$ [Hq105] with Hv105
  · isplitr; · iexact HIc105
    iexact Hq105
  imod (close_cell (F := F) m cc (⟨106, by decide⟩ : Fin 140) (by decide)) $$ [Hq106] with Hv106
  · isplitr; · iexact HIc106
    iexact Hq106
  imod (close_cell (F := F) m cc (⟨107, by decide⟩ : Fin 140) (by decide)) $$ [Hq107] with Hv107
  · isplitr; · iexact HIc107
    iexact Hq107
  -- the program is over: hand everything back
  icases HvU with ⟨Hu76, Hu77, Hu78, Hu84, Hu85, Hu86, Hu92, Hu93, Hu94, Hu100, Hu101, Hu102⟩
  ihave HO := (Entails.of_eq (show owes (cc : Thread nD τ) (owedL (List.drop 40 (paysL cc))) _ = owes (cc : Thread nD τ) 0 _ from rfl)) $$ HO
  -- each block of the result holds what its copy wrote: the final contents
  ihave HU00 := (congr (F := F) (outR 0 0) cc fullShare ((outR 0 0).view.writes (Elt F) g00 [⟨Rect.whole S512x256, dev.sl.dma0_34 m⟩]) (out m cc) (fun i hi => glue_out' m cc 0 0 g00 i hi)) $$ HU00
  ihave HU01 := (congr (F := F) (outR 0 1) cc fullShare ((outR 0 1).view.writes (Elt F) g01 [⟨Rect.whole S512x256, dev.sl.dma0_35 m⟩]) (out m cc) (fun i hi => glue_out' m cc 0 1 g01 i hi)) $$ HU01
  ihave HU02 := (congr (F := F) (outR 0 2) cc fullShare ((outR 0 2).view.writes (Elt F) g02 [⟨Rect.whole S512x256, dev.sl.dma0_36 m⟩]) (out m cc) (fun i hi => glue_out' m cc 0 2 g02 i hi)) $$ HU02
  ihave HU03 := (congr (F := F) (outR 0 3) cc fullShare ((outR 0 3).view.writes (Elt F) g03 [⟨Rect.whole S512x256, dev.sl.dma0_37 m⟩]) (out m cc) (fun i hi => glue_out' m cc 0 3 g03 i hi)) $$ HU03
  ihave HU10 := (congr (F := F) (outR 1 0) cc fullShare ((outR 1 0).view.writes (Elt F) g10 [⟨Rect.whole S512x256, dev.sl.dma0_38 m⟩]) (out m cc) (fun i hi => glue_out' m cc 1 0 g10 i hi)) $$ HU10
  ihave HU11 := (congr (F := F) (outR 1 1) cc fullShare ((outR 1 1).view.writes (Elt F) g11 [⟨Rect.whole S512x256, dev.sl.dma0_39 m⟩]) (out m cc) (fun i hi => glue_out' m cc 1 1 g11 i hi)) $$ HU11
  ihave HU12 := (congr (F := F) (outR 1 2) cc fullShare ((outR 1 2).view.writes (Elt F) g12 [⟨Rect.whole S512x256, dev.sl.dma0_40 m⟩]) (out m cc) (fun i hi => glue_out' m cc 1 2 g12 i hi)) $$ HU12
  ihave HU13 := (congr (F := F) (outR 1 3) cc fullShare ((outR 1 3).view.writes (Elt F) g13 [⟨Rect.whole S512x256, dev.sl.dma0_41 m⟩]) (out m cc) (fun i hi => glue_out' m cc 1 3 g13 i hi)) $$ HU13
  ihave HU20 := (congr (F := F) (outR 2 0) cc fullShare ((outR 2 0).view.writes (Elt F) g20 [⟨Rect.whole S512x256, dev.sl.dma0_42 m⟩]) (out m cc) (fun i hi => glue_out' m cc 2 0 g20 i hi)) $$ HU20
  ihave HU21 := (congr (F := F) (outR 2 1) cc fullShare ((outR 2 1).view.writes (Elt F) g21 [⟨Rect.whole S512x256, dev.sl.dma0_43 m⟩]) (out m cc) (fun i hi => glue_out' m cc 2 1 g21 i hi)) $$ HU21
  ihave HU22 := (congr (F := F) (outR 2 2) cc fullShare ((outR 2 2).view.writes (Elt F) g22 [⟨Rect.whole S512x256, dev.sl.dma0_44 m⟩]) (out m cc) (fun i hi => glue_out' m cc 2 2 g22 i hi)) $$ HU22
  ihave HU23 := (congr (F := F) (outR 2 3) cc fullShare ((outR 2 3).view.writes (Elt F) g23 [⟨Rect.whole S512x256, dev.sl.dma0_45 m⟩]) (out m cc) (fun i hi => glue_out' m cc 2 3 g23 i hi)) $$ HU23
  ihave HU30 := (congr (F := F) (outR 3 0) cc fullShare ((outR 3 0).view.writes (Elt F) g30 [⟨Rect.whole S512x256, dev.sl.dma0_22 m⟩]) (out m cc) (fun i hi => glue_out' m cc 3 0 g30 i hi)) $$ HU30
  ihave HU31 := (congr (F := F) (outR 3 1) cc fullShare ((outR 3 1).view.writes (Elt F) g31 [⟨Rect.whole S512x256, dev.sl.dma0_23 m⟩]) (out m cc) (fun i hi => glue_out' m cc 3 1 g31 i hi)) $$ HU31
  ihave HU32 := (congr (F := F) (outR 3 2) cc fullShare ((outR 3 2).view.writes (Elt F) g32 [⟨Rect.whole S512x256, dev.sl.dma0_24 m⟩]) (out m cc) (fun i hi => glue_out' m cc 3 2 g32 i hi)) $$ HU32
  ihave HU33 := (congr (F := F) (outR 3 3) cc fullShare ((outR 3 3).view.writes (Elt F) g33 [⟨Rect.whole S512x256, dev.sl.dma0_25 m⟩]) (out m cc) (fun i hi => glue_out' m cc 3 3 g33 i hi)) $$ HU33
  ihave HU40 := (congr (F := F) (outR 4 0) cc fullShare ((outR 4 0).view.writes (Elt F) g40 [⟨Rect.whole S512x256, dev.sl.dma0_26 m⟩]) (out m cc) (fun i hi => glue_out' m cc 4 0 g40 i hi)) $$ HU40
  ihave HU41 := (congr (F := F) (outR 4 1) cc fullShare ((outR 4 1).view.writes (Elt F) g41 [⟨Rect.whole S512x256, dev.sl.dma0_27 m⟩]) (out m cc) (fun i hi => glue_out' m cc 4 1 g41 i hi)) $$ HU41
  ihave HU42 := (congr (F := F) (outR 4 2) cc fullShare ((outR 4 2).view.writes (Elt F) g42 [⟨Rect.whole S512x256, dev.sl.dma0_28 m⟩]) (out m cc) (fun i hi => glue_out' m cc 4 2 g42 i hi)) $$ HU42
  ihave HU43 := (congr (F := F) (outR 4 3) cc fullShare ((outR 4 3).view.writes (Elt F) g43 [⟨Rect.whole S512x256, dev.sl.dma0_29 m⟩]) (out m cc) (fun i hi => glue_out' m cc 4 3 g43 i hi)) $$ HU43
  ihave HU50 := (congr (F := F) (outR 5 0) cc fullShare ((outR 5 0).view.writes (Elt F) g50 [⟨Rect.whole S512x256, dev.sl.dma0_30 m⟩]) (out m cc) (fun i hi => glue_out' m cc 5 0 g50 i hi)) $$ HU50
  ihave HU51 := (congr (F := F) (outR 5 1) cc fullShare ((outR 5 1).view.writes (Elt F) g51 [⟨Rect.whole S512x256, dev.sl.dma0_31 m⟩]) (out m cc) (fun i hi => glue_out' m cc 5 1 g51 i hi)) $$ HU51
  ihave HU52 := (congr (F := F) (outR 5 2) cc fullShare ((outR 5 2).view.writes (Elt F) g52 [⟨Rect.whole S512x256, dev.sl.dma0_32 m⟩]) (out m cc) (fun i hi => glue_out' m cc 5 2 g52 i hi)) $$ HU52
  ihave HU53 := (congr (F := F) (outR 5 3) cc fullShare ((outR 5 3).view.writes (Elt F) g53 [⟨Rect.whole S512x256, dev.sl.dma0_33 m⟩]) (out m cc) (fun i hi => glue_out' m cc 5 3 g53 i hi)) $$ HU53
  ihave HU60 := (congr (F := F) (outR 6 0) cc fullShare ((outR 6 0).view.writes (Elt F) g60 [⟨Rect.whole S512x256, dev.sl.dma0_46 m⟩]) (out m cc) (fun i hi => glue_out' m cc 6 0 g60 i hi)) $$ HU60
  ihave HU61 := (congr (F := F) (outR 6 1) cc fullShare ((outR 6 1).view.writes (Elt F) g61 [⟨Rect.whole S512x256, dev.sl.dma0_47 m⟩]) (out m cc) (fun i hi => glue_out' m cc 6 1 g61 i hi)) $$ HU61
  ihave HU62 := (congr (F := F) (outR 6 2) cc fullShare ((outR 6 2).view.writes (Elt F) g62 [⟨Rect.whole S512x256, dev.sl.dma0_48 m⟩]) (out m cc) (fun i hi => glue_out' m cc 6 2 g62 i hi)) $$ HU62
  ihave HU63 := (congr (F := F) (outR 6 3) cc fullShare ((outR 6 3).view.writes (Elt F) g63 [⟨Rect.whole S512x256, dev.sl.dma0_49 m⟩]) (out m cc) (fun i hi => glue_out' m cc 6 3 g63 i hi)) $$ HU63
  ihave HU70 := (congr (F := F) (outR 7 0) cc fullShare ((outR 7 0).view.writes (Elt F) g70 [⟨Rect.whole S512x256, dev.sl.dma0_50 m⟩]) (out m cc) (fun i hi => glue_out' m cc 7 0 g70 i hi)) $$ HU70
  ihave HU71 := (congr (F := F) (outR 7 1) cc fullShare ((outR 7 1).view.writes (Elt F) g71 [⟨Rect.whole S512x256, dev.sl.dma0_51 m⟩]) (out m cc) (fun i hi => glue_out' m cc 7 1 g71 i hi)) $$ HU71
  ihave HU72 := (congr (F := F) (outR 7 2) cc fullShare ((outR 7 2).view.writes (Elt F) g72 [⟨Rect.whole S512x256, dev.sl.dma0_52 m⟩]) (out m cc) (fun i hi => glue_out' m cc 7 2 g72 i hi)) $$ HU72
  ihave HU73 := (congr (F := F) (outR 7 3) cc fullShare ((outR 7 3).view.writes (Elt F) g73 [⟨Rect.whole S512x256, dev.sl.dma0_53 m⟩]) (out m cc) (fun i hi => glue_out' m cc 7 3 g73 i hi)) $$ HU73
  sl_step
  iapply Hk
  unfold bodyPost
  isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7 Hz0 Hz1 Hz2 HzG3 HzFl3 HzFrb3 HzG4 HzFl4 HzFrb4 HzG5 HzFl5 HzFrb5 HzG6 HzFl6 HzFrb6 HzG7 HzFl7 HzFrb7 Hy0 Hy1 Hy2 HyG3 HyFlb3 HyFr3 HyG4 HyFlb4 HyFr4 HyG5 HyFlb5 HyFr5 HyG6 HyFlb6 HyFr6 HyG7 HyFlb7 HyFr7 Hdq0 Hdq1 Hdq2 Hd3 Hd4 Hd5 Hd6 Hd7]
  · iapply (Entails.of_eq (junk_whole (F := F) cc cc0_scratch0).symm)
    iapply (r4_back (F := F) cc)
    isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7]
    · isplitl [HoZb0 HoYb0 HoK0]
      · iapply (own_back (F := F) cc 0 (r4 m cc))
        isplitl [HoZb0]
        · iexact HoZb0
        isplitl [HoYb0]
        · iexact HoYb0
        iexact HoK0
      isplitl [HoZb1 HoYb1 HoK1]
      · iapply (own_back (F := F) cc 1 (r4 m cc))
        isplitl [HoZb1]
        · iexact HoZb1
        isplitl [HoYb1]
        · iexact HoYb1
        iexact HoK1
      isplitl [HoZb2 HoYb2 HoK2]
      · iapply (own_back (F := F) cc 2 (r4 m cc))
        isplitl [HoZb2]
        · iexact HoZb2
        isplitl [HoYb2]
        · iexact HoYb2
        iexact HoK2
      isplitl [HoZb3 HoYb3 HoK3]
      · iapply (own_back (F := F) cc 3 (r4 m cc))
        isplitl [HoZb3]
        · iexact HoZb3
        isplitl [HoYb3]
        · iexact HoYb3
        iexact HoK3
      isplitl [HoZb4 HoYb4 HoK4]
      · iapply (own_back (F := F) cc 4 (r4 m cc))
        isplitl [HoZb4]
        · iexact HoZb4
        isplitl [HoYb4]
        · iexact HoYb4
        iexact HoK4
      isplitl [HoZb5 HoYb5 HoK5]
      · iapply (own_back (F := F) cc 5 (r4 m cc))
        isplitl [HoZb5]
        · iexact HoZb5
        isplitl [HoYb5]
        · iexact HoYb5
        iexact HoK5
      isplitl [HoZb6 HoYb6 HoK6]
      · iapply (own_back (F := F) cc 6 (r4 m cc))
        isplitl [HoZb6]
        · iexact HoZb6
        isplitl [HoYb6]
        · iexact HoYb6
        iexact HoK6
      iapply (own_back (F := F) cc 7 (r4 m cc))
      isplitl [HoZb7]
      · iexact HoZb7
      isplitl [HoYb7]
      · iexact HoYb7
      iexact HoK7
    isplitl [Hz0 Hz1 Hz2 HzG3 HzFl3 HzFrb3 HzG4 HzFl4 HzFrb4 HzG5 HzFl5 HzFrb5 HzG6 HzFl6 HzFrb6 HzG7 HzFl7 HzFrb7]
    · isplitl [Hz0]
      · iexists _; iexact Hz0
      isplitl [Hz1]
      · iexists _; iexact Hz1
      isplitl [Hz2]
      · iexists _; iexact Hz2
      isplitl [HzG3 HzFl3 HzFrb3]
      · iapply (nbr_back (F := F) cc (zqF cc) 3 (r4 m cc))
        isplitl [HzG3]
        · iexact HzG3
        isplitl [HzFl3]
        · iexact HzFl3
        iexact HzFrb3
      isplitl [HzG4 HzFl4 HzFrb4]
      · iapply (nbr_back (F := F) cc (zqF cc) 4 (r4 m cc))
        isplitl [HzG4]
        · iexact HzG4
        isplitl [HzFl4]
        · iexact HzFl4
        iexact HzFrb4
      isplitl [HzG5 HzFl5 HzFrb5]
      · iapply (nbr_back (F := F) cc (zqF cc) 5 (r4 m cc))
        isplitl [HzG5]
        · iexact HzG5
        isplitl [HzFl5]
        · iexact HzFl5
        iexact HzFrb5
      isplitl [HzG6 HzFl6 HzFrb6]
      · iapply (nbr_back (F := F) cc (zqF cc) 6 (r4 m cc))
        isplitl [HzG6]
        · iexact HzG6
        isplitl [HzFl6]
        · iexact HzFl6
        iexact HzFrb6
      iapply (nbr_back (F := F) cc (zqF cc) 7 (r4 m cc))
      isplitl [HzG7]
      · iexact HzG7
      isplitl [HzFl7]
      · iexact HzFl7
      iexact HzFrb7
    isplitl [Hy0 Hy1 Hy2 HyG3 HyFlb3 HyFr3 HyG4 HyFlb4 HyFr4 HyG5 HyFlb5 HyFr5 HyG6 HyFlb6 HyFr6 HyG7 HyFlb7 HyFr7]
    · isplitl [Hy0]
      · iexists _; iexact Hy0
      isplitl [Hy1]
      · iexists _; iexact Hy1
      isplitl [Hy2]
      · iexists _; iexact Hy2
      isplitl [HyG3 HyFlb3 HyFr3]
      · iapply (nbr_back (F := F) cc (yqF cc) 3 (r4 m cc))
        isplitl [HyG3]
        · iexact HyG3
        isplitl [HyFlb3]
        · iexact HyFlb3
        iexact HyFr3
      isplitl [HyG4 HyFlb4 HyFr4]
      · iapply (nbr_back (F := F) cc (yqF cc) 4 (r4 m cc))
        isplitl [HyG4]
        · iexact HyG4
        isplitl [HyFlb4]
        · iexact HyFlb4
        iexact HyFr4
      isplitl [HyG5 HyFlb5 HyFr5]
      · iapply (nbr_back (F := F) cc (yqF cc) 5 (r4 m cc))
        isplitl [HyG5]
        · iexact HyG5
        isplitl [HyFlb5]
        · iexact HyFlb5
        iexact HyFr5
      isplitl [HyG6 HyFlb6 HyFr6]
      · iapply (nbr_back (F := F) cc (yqF cc) 6 (r4 m cc))
        isplitl [HyG6]
        · iexact HyG6
        isplitl [HyFlb6]
        · iexact HyFlb6
        iexact HyFr6
      iapply (nbr_back (F := F) cc (yqF cc) 7 (r4 m cc))
      isplitl [HyG7]
      · iexact HyG7
      isplitl [HyFlb7]
      · iexact HyFlb7
      iexact HyFr7
    isplitl [Hdq0 Hdq1 Hdq2]
    · isplitl [Hdq0]
      · iexists _; iexact Hdq0
      isplitl [Hdq1]
      · iexists _; iexact Hdq1
      iexists _; iexact Hdq2
    isplitl [Hd3]
    · iapply (dq_halves (F := F) cc 3 (r4 m cc))
      iexact Hd3
    isplitl [Hd4]
    · iapply (dq_halves (F := F) cc 4 (r4 m cc))
      iexact Hd4
    isplitl [Hd5]
    · iapply (dq_halves (F := F) cc 5 (r4 m cc))
      iexact Hd5
    isplitl [Hd6]
    · iapply (dq_halves (F := F) cc 6 (r4 m cc))
      iexact Hd6
    iapply (dq_halves (F := F) cc 7 (r4 m cc))
    iexact Hd7
  isplitl [HBs0 HBs1 HBs2 HBs3 HBs4 HBs5 HBs6 HBs7]
  · iapply (Entails.of_eq (junk_whole (F := F) cc cc0_scratch1).symm)
    iapply (sb_rows_join (F := F) cc)
    isplitl [HBs0]
    · iexists _; iexact HBs0
    isplitl [HBs1]
    · iexists _; iexact HBs1
    isplitl [HBs2]
    · iexists _; iexact HBs2
    isplitl [HBs3]
    · iexists _; iexact HBs3
    isplitl [HBs4]
    · iexists _; iexact HBs4
    isplitl [HBs5]
    · iexists _; iexact HBs5
    isplitl [HBs6]
    · iexists _; iexact HBs6
    iexists _; iexact HBs7
  isplitl [Hrb0 Hrb1 Hrb2 Hrb3 Hrb4 Hrb5 Hrb6 Hrb7]
  · iapply (Entails.of_eq (junk_whole (F := F) cc cc0_scratch2).symm)
    iapply (rb_rows_join (F := F) cc)
    isplitl [Hrb0]
    · iexists _; iexact Hrb0
    isplitl [Hrb1]
    · iexists _; iexact Hrb1
    isplitl [Hrb2]
    · iexists _; iexact Hrb2
    isplitl [Hrb3]
    · iexists _; iexact Hrb3
    isplitl [Hrb4]
    · iexists _; iexact Hrb4
    isplitl [Hrb5]
    · iexists _; iexact Hrb5
    isplitl [Hrb6]
    · iexists _; iexact Hrb6
    iexists _; iexact Hrb7
  isplitl [HB2s0 HB2s1 HB2s2]
  · iapply (Entails.of_eq (junk_whole (F := F) cc cc0_scratch3).symm)
    iapply (sb2_rows_join (F := F) cc)
    isplitl [HB2s0]
    · iexists _; iexact HB2s0
    isplitl [HB2s1]
    · iexists _; iexact HB2s1
    iexists _; iexact HB2s2
  isplitl [Hrb20 Hrb21 Hrb22]
  · iapply (Entails.of_eq (junk_whole (F := F) cc cc0_scratch4).symm)
    iapply (rb2_rows_join (F := F) cc)
    isplitl [Hrb20]
    · iexists _; iexact Hrb20
    isplitl [Hrb21]
    · iexists _; iexact Hrb21
    iexists _; iexact Hrb22
  isplitl [HP0 HP1 HP2 HP3 HP4 HP5 HP6 HP7]
  · iapply (Entails.of_eq (junk_whole (F := F) cc cc0_scratch5).symm)
    iapply (stP_rows_join (F := F) cc)
    isplitl [HP0]
    · iexists _; iexact HP0
    isplitl [HP1]
    · iexists _; iexact HP1
    isplitl [HP2]
    · iexists _; iexact HP2
    isplitl [HP3]
    · iexists _; iexact HP3
    isplitl [HP4]
    · iexists _; iexact HP4
    isplitl [HP5]
    · iexists _; iexact HP5
    isplitl [HP6]
    · iexists _; iexact HP6
    iexists _; iexact HP7
  isplitl [HL0 HL1 HL2 HL3 HL4 HL5 HL6 HL7]
  · iapply (Entails.of_eq (junk_whole (F := F) cc cc0_scratch6).symm)
    iapply (stL_rows_join (F := F) cc)
    isplitl [HL0]
    · iexists _; iexact HL0
    isplitl [HL1]
    · iexists _; iexact HL1
    isplitl [HL2]
    · iexists _; iexact HL2
    isplitl [HL3]
    · iexists _; iexact HL3
    isplitl [HL4]
    · iexists _; iexact HL4
    isplitl [HL5]
    · iexists _; iexact HL5
    isplitl [HL6]
    · iexists _; iexact HL6
    iexists _; iexact HL7
  isplitl [HP20 HP21 HP22]
  · iapply (Entails.of_eq (junk_whole (F := F) cc cc0_scratch7).symm)
    iapply (stP2_rows_join (F := F) cc)
    isplitl [HP20]
    · iexists _; iexact HP20
    isplitl [HP21]
    · iexists _; iexact HP21
    iexists _; iexact HP22
  isplitl [HL20 HL21 HL22]
  · iapply (Entails.of_eq (junk_whole (F := F) cc cc0_scratch8).symm)
    iapply (stL2_rows_join (F := F) cc)
    isplitl [HL20]
    · iexists _; iexact HL20
    isplitl [HL21]
    · iexists _; iexact HL21
    iexists _; iexact HL22
  isplitl [HX]
  · iexact HX
  isplitl [HU00 HU01 HU02 HU03 HU10 HU11 HU12 HU13 HU20 HU21 HU22 HU23 HU30 HU31 HU32 HU33 HU40 HU41 HU42 HU43 HU50 HU51 HU52 HU53 HU60 HU61 HU62 HU63 HU70 HU71 HU72 HU73]
  · iapply (out_join (F := F) cc (out m cc))
    isplitl [HU00]
    · iexact HU00
    isplitl [HU01]
    · iexact HU01
    isplitl [HU02]
    · iexact HU02
    isplitl [HU03]
    · iexact HU03
    isplitl [HU10]
    · iexact HU10
    isplitl [HU11]
    · iexact HU11
    isplitl [HU12]
    · iexact HU12
    isplitl [HU13]
    · iexact HU13
    isplitl [HU20]
    · iexact HU20
    isplitl [HU21]
    · iexact HU21
    isplitl [HU22]
    · iexact HU22
    isplitl [HU23]
    · iexact HU23
    isplitl [HU30]
    · iexact HU30
    isplitl [HU31]
    · iexact HU31
    isplitl [HU32]
    · iexact HU32
    isplitl [HU33]
    · iexact HU33
    isplitl [HU40]
    · iexact HU40
    isplitl [HU41]
    · iexact HU41
    isplitl [HU42]
    · iexact HU42
    isplitl [HU43]
    · iexact HU43
    isplitl [HU50]
    · iexact HU50
    isplitl [HU51]
    · iexact HU51
    isplitl [HU52]
    · iexact HU52
    isplitl [HU53]
    · iexact HU53
    isplitl [HU60]
    · iexact HU60
    isplitl [HU61]
    · iexact HU61
    isplitl [HU62]
    · iexact HU62
    isplitl [HU63]
    · iexact HU63
    isplitl [HU70]
    · iexact HU70
    isplitl [HU71]
    · iexact HU71
    isplitl [HU72]
    · iexact HU72
    iexact HU73
  isplitl [Hv0 Hv1 Hv2 Hv3 Hv4 Hv5 Hv6 Hv7 Hv8 Hv9 Hv10 Hv11 Hv12 Hv13 Hv14 Hv15 Hv16 Hv17 Hv18 Hv19 Hv20 Hv21 Hv22 Hv23 Hv24 Hv25 Hv26 Hv27 Hv28 Hv29 Hv30 Hv31 Hv32 Hv33 Hv34 Hv35 Hv36 Hv37 Hv38 Hv39 Hv40 Hv41 Hv42 Hv43 Hv44 Hv45 Hv46 Hv47 Hv48 Hv49 Hv50 Hv51 Hv52 Hv53 Hv54 Hv55 Hv56 Hv57 Hv58 Hv59 Hv60 Hv61 Hv62 Hv63 Hv64 Hv65 Hv66 Hv67 Hv68 Hv69 Hv70 Hv71 Hv72 Hv73 Hv74 Hv75 Hu76 Hu77 Hu78 Hv79 Hv80 Hv81 Hv82 Hv83 Hu84 Hu85 Hu86 Hv87 Hv88 Hv89 Hv90 Hv91 Hu92 Hu93 Hu94 Hv95 Hv96 Hv97 Hv98 Hv99 Hu100 Hu101 Hu102 Hv103 Hv104 Hv105 Hv106 Hv107 Hw0a Hw0b Hw0c Hw0d Hw1a Hw1b Hw1c Hw1d Hw2a Hw2b Hw2c Hw2d Hw3a Hw3b Hw3c Hw3d Hw4a Hw4b Hw4c Hw4d Hw5a Hw5b Hw5c Hw5d Hw6a Hw6b Hw6c Hw6d Hw7a Hw7b Hw7c Hw7d]
  · iapply (Entails.of_eq (show (iprop(semVal (cellAt cc (⟨0, Nat.le_of_ble_eq_true rfl⟩ : Fin 140)) 0 ∗ semVal (cellAt cc (⟨1, Nat.le_of_ble_eq_true rfl⟩ : Fin 140)) 0 ∗ semVal (cellAt cc (⟨2, Nat.le_of_ble_eq_true rfl⟩ : Fin 140)) 0 ∗ semVal (cellAt cc (⟨3, Nat.le_of_ble_eq_true rfl⟩ : Fin 140)) 0 ∗ semVal (cellAt cc (⟨4, Nat.le_of_ble_eq_true rfl⟩ : Fin 140)) 0 ∗ semVal (cellAt cc (⟨5, Nat.le_of_ble_eq_true rfl⟩ : Fin 140)) 0 ∗ semVal (cellAt cc (⟨6, Nat.le_of_ble_eq_true rfl⟩ : Fin 140)) 0 ∗ semVal (cellAt cc (⟨7, Nat.le_of_ble_eq_true rfl⟩ : Fin 140)) 0 ∗ semVal (cellAt cc (⟨8, Nat.le_of_ble_eq_true rfl⟩ : Fin 140)) 0 ∗ semVal (cellAt cc (⟨9, Nat.le_of_ble_eq_true rfl⟩ : Fin 140)) 0 ∗ semVal (cellAt cc (⟨10, Nat.le_of_ble_eq_true rfl⟩ : Fin 140)) 0 ∗ semVal (cellAt cc (⟨11, Nat.le_of_ble_eq_true rfl⟩ : Fin 140)) 0 ∗ semVal (cellAt cc (⟨12, Nat.le_of_ble_eq_true rfl⟩ : Fin 140)) 0 ∗ semVal (cellAt cc (⟨13, Nat.le_of_ble_eq_true rfl⟩ : Fin 140)) 0 ∗ semVal (cellAt cc (⟨14, Nat.le_of_ble_eq_true rfl⟩ : Fin 140)) 0 ∗ semVal (cellAt cc (⟨15, Nat.le_of_ble_eq_true rfl⟩ : Fin 140)) 0 ∗ semVal (cellAt cc (⟨16, Nat.le_of_ble_eq_true rfl⟩ : Fin 140)) 0 ∗ semVal (cellAt cc (⟨17, Nat.le_of_ble_eq_true rfl⟩ : Fin 140)) 0 ∗ semVal (cellAt cc (⟨18, Nat.le_of_ble_eq_true rfl⟩ : Fin 140)) 0 ∗ semVal (cellAt cc (⟨19, Nat.le_of_ble_eq_true rfl⟩ : Fin 140)) 0 ∗ semVal (cellAt cc (⟨20, Nat.le_of_ble_eq_true rfl⟩ : Fin 140)) 0 ∗ semVal (cellAt cc (⟨21, Nat.le_of_ble_eq_true rfl⟩ : Fin 140)) 0 ∗ semVal (cellAt cc (⟨22, Nat.le_of_ble_eq_true rfl⟩ : Fin 140)) 0 ∗ semVal (cellAt cc (⟨23, Nat.le_of_ble_eq_true rfl⟩ : Fin 140)) 0 ∗ semVal (cellAt cc (⟨24, Nat.le_of_ble_eq_true rfl⟩ : Fin 140)) 0 ∗ semVal (cellAt cc (⟨25, Nat.le_of_ble_eq_true rfl⟩ : Fin 140)) 0 ∗ semVal (cellAt cc (⟨26, Nat.le_of_ble_eq_true rfl⟩ : Fin 140)) 0 ∗ semVal (cellAt cc (⟨27, Nat.le_of_ble_eq_true rfl⟩ : Fin 140)) 0 ∗ semVal (cellAt cc (⟨28, Nat.le_of_ble_eq_true rfl⟩ : Fin 140)) 0 ∗ semVal (cellAt cc (⟨29, Nat.le_of_ble_eq_true rfl⟩ : Fin 140)) 0 ∗ semVal (cellAt cc (⟨30, Nat.le_of_ble_eq_true rfl⟩ : Fin 140)) 0 ∗ semVal (cellAt cc (⟨31, Nat.le_of_ble_eq_true rfl⟩ : Fin 140)) 0 ∗ semVal (cellAt cc (⟨32, Nat.le_of_ble_eq_true rfl⟩ : Fin 140)) 0 ∗ semVal (cellAt cc (⟨33, Nat.le_of_ble_eq_true rfl⟩ : Fin 140)) 0 ∗ semVal (cellAt cc (⟨34, Nat.le_of_ble_eq_true rfl⟩ : Fin 140)) 0 ∗ semVal (cellAt cc (⟨35, Nat.le_of_ble_eq_true rfl⟩ : Fin 140)) 0 ∗ semVal (cellAt cc (⟨36, Nat.le_of_ble_eq_true rfl⟩ : Fin 140)) 0 ∗ semVal (cellAt cc (⟨37, Nat.le_of_ble_eq_true rfl⟩ : Fin 140)) 0 ∗ semVal (cellAt cc (⟨38, Nat.le_of_ble_eq_true rfl⟩ : Fin 140)) 0 ∗ semVal (cellAt cc (⟨39, Nat.le_of_ble_eq_true rfl⟩ : Fin 140)) 0 ∗ semVal (cellAt cc (⟨40, Nat.le_of_ble_eq_true rfl⟩ : Fin 140)) 0 ∗ semVal (cellAt cc (⟨41, Nat.le_of_ble_eq_true rfl⟩ : Fin 140)) 0 ∗ semVal (cellAt cc (⟨42, Nat.le_of_ble_eq_true rfl⟩ : Fin 140)) 0 ∗ semVal (cellAt cc (⟨43, Nat.le_of_ble_eq_true rfl⟩ : Fin 140)) 0 ∗ semVal (cellAt cc (⟨44, Nat.le_of_ble_eq_true rfl⟩ : Fin 140)) 0 ∗ semVal (cellAt cc (⟨45, Nat.le_of_ble_eq_true rfl⟩ : Fin 140)) 0 ∗ semVal (cellAt cc (⟨46, Nat.le_of_ble_eq_true rfl⟩ : Fin 140)) 0 ∗ semVal (cellAt cc (⟨47, Nat.le_of_ble_eq_true rfl⟩ : Fin 140)) 0 ∗ semVal (cellAt cc (⟨48, Nat.le_of_ble_eq_true rfl⟩ : Fin 140)) 0 ∗ semVal (cellAt cc (⟨49, Nat.le_of_ble_eq_true rfl⟩ : Fin 140)) 0 ∗ semVal (cellAt cc (⟨50, Nat.le_of_ble_eq_true rfl⟩ : Fin 140)) 0 ∗ semVal (cellAt cc (⟨51, Nat.le_of_ble_eq_true rfl⟩ : Fin 140)) 0 ∗ semVal (cellAt cc (⟨52, Nat.le_of_ble_eq_true rfl⟩ : Fin 140)) 0 ∗ semVal (cellAt cc (⟨53, Nat.le_of_ble_eq_true rfl⟩ : Fin 140)) 0 ∗ semVal (cellAt cc (⟨54, Nat.le_of_ble_eq_true rfl⟩ : Fin 140)) 0 ∗ semVal (cellAt cc (⟨55, Nat.le_of_ble_eq_true rfl⟩ : Fin 140)) 0 ∗ semVal (cellAt cc (⟨56, Nat.le_of_ble_eq_true rfl⟩ : Fin 140)) 0 ∗ semVal (cellAt cc (⟨57, Nat.le_of_ble_eq_true rfl⟩ : Fin 140)) 0 ∗ semVal (cellAt cc (⟨58, Nat.le_of_ble_eq_true rfl⟩ : Fin 140)) 0 ∗ semVal (cellAt cc (⟨59, Nat.le_of_ble_eq_true rfl⟩ : Fin 140)) 0 ∗ semVal (cellAt cc (⟨60, Nat.le_of_ble_eq_true rfl⟩ : Fin 140)) 0 ∗ semVal (cellAt cc (⟨61, Nat.le_of_ble_eq_true rfl⟩ : Fin 140)) 0 ∗ semVal (cellAt cc (⟨62, Nat.le_of_ble_eq_true rfl⟩ : Fin 140)) 0 ∗ semVal (cellAt cc (⟨63, Nat.le_of_ble_eq_true rfl⟩ : Fin 140)) 0 ∗ semVal (cellAt cc (⟨64, Nat.le_of_ble_eq_true rfl⟩ : Fin 140)) 0 ∗ semVal (cellAt cc (⟨65, Nat.le_of_ble_eq_true rfl⟩ : Fin 140)) 0 ∗ semVal (cellAt cc (⟨66, Nat.le_of_ble_eq_true rfl⟩ : Fin 140)) 0 ∗ semVal (cellAt cc (⟨67, Nat.le_of_ble_eq_true rfl⟩ : Fin 140)) 0 ∗ semVal (cellAt cc (⟨68, Nat.le_of_ble_eq_true rfl⟩ : Fin 140)) 0 ∗ semVal (cellAt cc (⟨69, Nat.le_of_ble_eq_true rfl⟩ : Fin 140)) 0 ∗ semVal (cellAt cc (⟨70, Nat.le_of_ble_eq_true rfl⟩ : Fin 140)) 0 ∗ semVal (cellAt cc (⟨71, Nat.le_of_ble_eq_true rfl⟩ : Fin 140)) 0 ∗ semVal (cellAt cc (⟨72, Nat.le_of_ble_eq_true rfl⟩ : Fin 140)) 0 ∗ semVal (cellAt cc (⟨73, Nat.le_of_ble_eq_true rfl⟩ : Fin 140)) 0 ∗ semVal (cellAt cc (⟨74, Nat.le_of_ble_eq_true rfl⟩ : Fin 140)) 0 ∗ semVal (cellAt cc (⟨75, Nat.le_of_ble_eq_true rfl⟩ : Fin 140)) 0 ∗ semVal (cellAt cc (⟨76, Nat.le_of_ble_eq_true rfl⟩ : Fin 140)) 0 ∗ semVal (cellAt cc (⟨77, Nat.le_of_ble_eq_true rfl⟩ : Fin 140)) 0 ∗ semVal (cellAt cc (⟨78, Nat.le_of_ble_eq_true rfl⟩ : Fin 140)) 0 ∗ semVal (cellAt cc (⟨79, Nat.le_of_ble_eq_true rfl⟩ : Fin 140)) 0 ∗ semVal (cellAt cc (⟨80, Nat.le_of_ble_eq_true rfl⟩ : Fin 140)) 0 ∗ semVal (cellAt cc (⟨81, Nat.le_of_ble_eq_true rfl⟩ : Fin 140)) 0 ∗ semVal (cellAt cc (⟨82, Nat.le_of_ble_eq_true rfl⟩ : Fin 140)) 0 ∗ semVal (cellAt cc (⟨83, Nat.le_of_ble_eq_true rfl⟩ : Fin 140)) 0 ∗ semVal (cellAt cc (⟨84, Nat.le_of_ble_eq_true rfl⟩ : Fin 140)) 0 ∗ semVal (cellAt cc (⟨85, Nat.le_of_ble_eq_true rfl⟩ : Fin 140)) 0 ∗ semVal (cellAt cc (⟨86, Nat.le_of_ble_eq_true rfl⟩ : Fin 140)) 0 ∗ semVal (cellAt cc (⟨87, Nat.le_of_ble_eq_true rfl⟩ : Fin 140)) 0 ∗ semVal (cellAt cc (⟨88, Nat.le_of_ble_eq_true rfl⟩ : Fin 140)) 0 ∗ semVal (cellAt cc (⟨89, Nat.le_of_ble_eq_true rfl⟩ : Fin 140)) 0 ∗ semVal (cellAt cc (⟨90, Nat.le_of_ble_eq_true rfl⟩ : Fin 140)) 0 ∗ semVal (cellAt cc (⟨91, Nat.le_of_ble_eq_true rfl⟩ : Fin 140)) 0 ∗ semVal (cellAt cc (⟨92, Nat.le_of_ble_eq_true rfl⟩ : Fin 140)) 0 ∗ semVal (cellAt cc (⟨93, Nat.le_of_ble_eq_true rfl⟩ : Fin 140)) 0 ∗ semVal (cellAt cc (⟨94, Nat.le_of_ble_eq_true rfl⟩ : Fin 140)) 0 ∗ semVal (cellAt cc (⟨95, Nat.le_of_ble_eq_true rfl⟩ : Fin 140)) 0 ∗ semVal (cellAt cc (⟨96, Nat.le_of_ble_eq_true rfl⟩ : Fin 140)) 0 ∗ semVal (cellAt cc (⟨97, Nat.le_of_ble_eq_true rfl⟩ : Fin 140)) 0 ∗ semVal (cellAt cc (⟨98, Nat.le_of_ble_eq_true rfl⟩ : Fin 140)) 0 ∗ semVal (cellAt cc (⟨99, Nat.le_of_ble_eq_true rfl⟩ : Fin 140)) 0 ∗ semVal (cellAt cc (⟨100, Nat.le_of_ble_eq_true rfl⟩ : Fin 140)) 0 ∗ semVal (cellAt cc (⟨101, Nat.le_of_ble_eq_true rfl⟩ : Fin 140)) 0 ∗ semVal (cellAt cc (⟨102, Nat.le_of_ble_eq_true rfl⟩ : Fin 140)) 0 ∗ semVal (cellAt cc (⟨103, Nat.le_of_ble_eq_true rfl⟩ : Fin 140)) 0 ∗ semVal (cellAt cc (⟨104, Nat.le_of_ble_eq_true rfl⟩ : Fin 140)) 0 ∗ semVal (cellAt cc (⟨105, Nat.le_of_ble_eq_true rfl⟩ : Fin 140)) 0 ∗ semVal (cellAt cc (⟨106, Nat.le_of_ble_eq_true rfl⟩ : Fin 140)) 0 ∗ semVal (cellAt cc (⟨107, Nat.le_of_ble_eq_true rfl⟩ : Fin 140)) 0 ∗ semVal (cellAt cc (⟨108, Nat.le_of_ble_eq_true rfl⟩ : Fin 140)) 0 ∗ semVal (cellAt cc (⟨109, Nat.le_of_ble_eq_true rfl⟩ : Fin 140)) 0 ∗ semVal (cellAt cc (⟨110, Nat.le_of_ble_eq_true rfl⟩ : Fin 140)) 0 ∗ semVal (cellAt cc (⟨111, Nat.le_of_ble_eq_true rfl⟩ : Fin 140)) 0 ∗ semVal (cellAt cc (⟨112, Nat.le_of_ble_eq_true rfl⟩ : Fin 140)) 0 ∗ semVal (cellAt cc (⟨113, Nat.le_of_ble_eq_true rfl⟩ : Fin 140)) 0 ∗ semVal (cellAt cc (⟨114, Nat.le_of_ble_eq_true rfl⟩ : Fin 140)) 0 ∗ semVal (cellAt cc (⟨115, Nat.le_of_ble_eq_true rfl⟩ : Fin 140)) 0 ∗ semVal (cellAt cc (⟨116, Nat.le_of_ble_eq_true rfl⟩ : Fin 140)) 0 ∗ semVal (cellAt cc (⟨117, Nat.le_of_ble_eq_true rfl⟩ : Fin 140)) 0 ∗ semVal (cellAt cc (⟨118, Nat.le_of_ble_eq_true rfl⟩ : Fin 140)) 0 ∗ semVal (cellAt cc (⟨119, Nat.le_of_ble_eq_true rfl⟩ : Fin 140)) 0 ∗ semVal (cellAt cc (⟨120, Nat.le_of_ble_eq_true rfl⟩ : Fin 140)) 0 ∗ semVal (cellAt cc (⟨121, Nat.le_of_ble_eq_true rfl⟩ : Fin 140)) 0 ∗ semVal (cellAt cc (⟨122, Nat.le_of_ble_eq_true rfl⟩ : Fin 140)) 0 ∗ semVal (cellAt cc (⟨123, Nat.le_of_ble_eq_true rfl⟩ : Fin 140)) 0 ∗ semVal (cellAt cc (⟨124, Nat.le_of_ble_eq_true rfl⟩ : Fin 140)) 0 ∗ semVal (cellAt cc (⟨125, Nat.le_of_ble_eq_true rfl⟩ : Fin 140)) 0 ∗ semVal (cellAt cc (⟨126, Nat.le_of_ble_eq_true rfl⟩ : Fin 140)) 0 ∗ semVal (cellAt cc (⟨127, Nat.le_of_ble_eq_true rfl⟩ : Fin 140)) 0 ∗ semVal (cellAt cc (⟨128, Nat.le_of_ble_eq_true rfl⟩ : Fin 140)) 0 ∗ semVal (cellAt cc (⟨129, Nat.le_of_ble_eq_true rfl⟩ : Fin 140)) 0 ∗ semVal (cellAt cc (⟨130, Nat.le_of_ble_eq_true rfl⟩ : Fin 140)) 0 ∗ semVal (cellAt cc (⟨131, Nat.le_of_ble_eq_true rfl⟩ : Fin 140)) 0 ∗ semVal (cellAt cc (⟨132, Nat.le_of_ble_eq_true rfl⟩ : Fin 140)) 0 ∗ semVal (cellAt cc (⟨133, Nat.le_of_ble_eq_true rfl⟩ : Fin 140)) 0 ∗ semVal (cellAt cc (⟨134, Nat.le_of_ble_eq_true rfl⟩ : Fin 140)) 0 ∗ semVal (cellAt cc (⟨135, Nat.le_of_ble_eq_true rfl⟩ : Fin 140)) 0 ∗ semVal (cellAt cc (⟨136, Nat.le_of_ble_eq_true rfl⟩ : Fin 140)) 0 ∗ semVal (cellAt cc (⟨137, Nat.le_of_ble_eq_true rfl⟩ : Fin 140)) 0 ∗ semVal (cellAt cc (⟨138, Nat.le_of_ble_eq_true rfl⟩ : Fin 140)) 0 ∗ semVal (cellAt cc (⟨139, Nat.le_of_ble_eq_true rfl⟩ : Fin 140)) 0) : sProp 𝕄) = (bigSepL allJ fun j => semVal (cellAt cc j) 0) from rfl))
    isplitl [Hv0]
    · iexact Hv0
    isplitl [Hv1]
    · iexact Hv1
    isplitl [Hv2]
    · iexact Hv2
    isplitl [Hv3]
    · iexact Hv3
    isplitl [Hv4]
    · iexact Hv4
    isplitl [Hv5]
    · iexact Hv5
    isplitl [Hv6]
    · iexact Hv6
    isplitl [Hv7]
    · iexact Hv7
    isplitl [Hv8]
    · iexact Hv8
    isplitl [Hv9]
    · iexact Hv9
    isplitl [Hv10]
    · iexact Hv10
    isplitl [Hv11]
    · iexact Hv11
    isplitl [Hv12]
    · iexact Hv12
    isplitl [Hv13]
    · iexact Hv13
    isplitl [Hv14]
    · iexact Hv14
    isplitl [Hv15]
    · iexact Hv15
    isplitl [Hv16]
    · iexact Hv16
    isplitl [Hv17]
    · iexact Hv17
    isplitl [Hv18]
    · iexact Hv18
    isplitl [Hv19]
    · iexact Hv19
    isplitl [Hv20]
    · iexact Hv20
    isplitl [Hv21]
    · iexact Hv21
    isplitl [Hv22]
    · iexact Hv22
    isplitl [Hv23]
    · iexact Hv23
    isplitl [Hv24]
    · iexact Hv24
    isplitl [Hv25]
    · iexact Hv25
    isplitl [Hv26]
    · iexact Hv26
    isplitl [Hv27]
    · iexact Hv27
    isplitl [Hv28]
    · iexact Hv28
    isplitl [Hv29]
    · iexact Hv29
    isplitl [Hv30]
    · iexact Hv30
    isplitl [Hv31]
    · iexact Hv31
    isplitl [Hv32]
    · iexact Hv32
    isplitl [Hv33]
    · iexact Hv33
    isplitl [Hv34]
    · iexact Hv34
    isplitl [Hv35]
    · iexact Hv35
    isplitl [Hv36]
    · iexact Hv36
    isplitl [Hv37]
    · iexact Hv37
    isplitl [Hv38]
    · iexact Hv38
    isplitl [Hv39]
    · iexact Hv39
    isplitl [Hv40]
    · iexact Hv40
    isplitl [Hv41]
    · iexact Hv41
    isplitl [Hv42]
    · iexact Hv42
    isplitl [Hv43]
    · iexact Hv43
    isplitl [Hv44]
    · iexact Hv44
    isplitl [Hv45]
    · iexact Hv45
    isplitl [Hv46]
    · iexact Hv46
    isplitl [Hv47]
    · iexact Hv47
    isplitl [Hv48]
    · iexact Hv48
    isplitl [Hv49]
    · iexact Hv49
    isplitl [Hv50]
    · iexact Hv50
    isplitl [Hv51]
    · iexact Hv51
    isplitl [Hv52]
    · iexact Hv52
    isplitl [Hv53]
    · iexact Hv53
    isplitl [Hv54]
    · iexact Hv54
    isplitl [Hv55]
    · iexact Hv55
    isplitl [Hv56]
    · iexact Hv56
    isplitl [Hv57]
    · iexact Hv57
    isplitl [Hv58]
    · iexact Hv58
    isplitl [Hv59]
    · iexact Hv59
    isplitl [Hv60]
    · iexact Hv60
    isplitl [Hv61]
    · iexact Hv61
    isplitl [Hv62]
    · iexact Hv62
    isplitl [Hv63]
    · iexact Hv63
    isplitl [Hv64]
    · iexact Hv64
    isplitl [Hv65]
    · iexact Hv65
    isplitl [Hv66]
    · iexact Hv66
    isplitl [Hv67]
    · iexact Hv67
    isplitl [Hv68]
    · iexact Hv68
    isplitl [Hv69]
    · iexact Hv69
    isplitl [Hv70]
    · iexact Hv70
    isplitl [Hv71]
    · iexact Hv71
    isplitl [Hv72]
    · iexact Hv72
    isplitl [Hv73]
    · iexact Hv73
    isplitl [Hv74]
    · iexact Hv74
    isplitl [Hv75]
    · iexact Hv75
    isplitl [Hu76]
    · iexact Hu76
    isplitl [Hu77]
    · iexact Hu77
    isplitl [Hu78]
    · iexact Hu78
    isplitl [Hv79]
    · iexact Hv79
    isplitl [Hv80]
    · iexact Hv80
    isplitl [Hv81]
    · iexact Hv81
    isplitl [Hv82]
    · iexact Hv82
    isplitl [Hv83]
    · iexact Hv83
    isplitl [Hu84]
    · iexact Hu84
    isplitl [Hu85]
    · iexact Hu85
    isplitl [Hu86]
    · iexact Hu86
    isplitl [Hv87]
    · iexact Hv87
    isplitl [Hv88]
    · iexact Hv88
    isplitl [Hv89]
    · iexact Hv89
    isplitl [Hv90]
    · iexact Hv90
    isplitl [Hv91]
    · iexact Hv91
    isplitl [Hu92]
    · iexact Hu92
    isplitl [Hu93]
    · iexact Hu93
    isplitl [Hu94]
    · iexact Hu94
    isplitl [Hv95]
    · iexact Hv95
    isplitl [Hv96]
    · iexact Hv96
    isplitl [Hv97]
    · iexact Hv97
    isplitl [Hv98]
    · iexact Hv98
    isplitl [Hv99]
    · iexact Hv99
    isplitl [Hu100]
    · iexact Hu100
    isplitl [Hu101]
    · iexact Hu101
    isplitl [Hu102]
    · iexact Hu102
    isplitl [Hv103]
    · iexact Hv103
    isplitl [Hv104]
    · iexact Hv104
    isplitl [Hv105]
    · iexact Hv105
    isplitl [Hv106]
    · iexact Hv106
    isplitl [Hv107]
    · iexact Hv107
    isplitl [Hw0a]
    · iexact Hw0a
    isplitl [Hw0b]
    · iexact Hw0b
    isplitl [Hw0c]
    · iexact Hw0c
    isplitl [Hw0d]
    · iexact Hw0d
    isplitl [Hw1a]
    · iexact Hw1a
    isplitl [Hw1b]
    · iexact Hw1b
    isplitl [Hw1c]
    · iexact Hw1c
    isplitl [Hw1d]
    · iexact Hw1d
    isplitl [Hw2a]
    · iexact Hw2a
    isplitl [Hw2b]
    · iexact Hw2b
    isplitl [Hw2c]
    · iexact Hw2c
    isplitl [Hw2d]
    · iexact Hw2d
    isplitl [Hw3a]
    · iexact Hw3a
    isplitl [Hw3b]
    · iexact Hw3b
    isplitl [Hw3c]
    · iexact Hw3c
    isplitl [Hw3d]
    · iexact Hw3d
    isplitl [Hw4a]
    · iexact Hw4a
    isplitl [Hw4b]
    · iexact Hw4b
    isplitl [Hw4c]
    · iexact Hw4c
    isplitl [Hw4d]
    · iexact Hw4d
    isplitl [Hw5a]
    · iexact Hw5a
    isplitl [Hw5b]
    · iexact Hw5b
    isplitl [Hw5c]
    · iexact Hw5c
    isplitl [Hw5d]
    · iexact Hw5d
    isplitl [Hw6a]
    · iexact Hw6a
    isplitl [Hw6b]
    · iexact Hw6b
    isplitl [Hw6c]
    · iexact Hw6c
    isplitl [Hw6d]
    · iexact Hw6d
    isplitl [Hw7a]
    · iexact Hw7a
    isplitl [Hw7b]
    · iexact Hw7b
    isplitl [Hw7c]
    · iexact Hw7c
    iexact Hw7d
  iexists _; iexact HO

end Cert.Kernel.RS.D2

end
-- ==== Proof.K.Body3.lean ====
import proofs.«901022_g7700000000001023_dist_rs_v7x_xyz2x2x2_x_m4096_n1024_bf16_1_alg».proof.Proof.K.BodyAux
import proofs.«901022_g7700000000001023_dist_rs_v7x_xyz2x2x2_x_m4096_n1024_bf16_1_alg».proof.Proof.K.BodyPre
import proofs.«901022_g7700000000001023_dist_rs_v7x_xyz2x2x2_x_m4096_n1024_bf16_1_alg».proof.Proof.K.OutRules

/-! The body of the kernel on device 3 of the mesh, from its precondition (BodyPre) to its postcondition (bodyPost).

    The program is straight-line code of 4045 statements. Its local steps — the 54 copies between the input, the staging
    buffers, the four-quarter buffer and the result, their waits, the loads and the stores — are run by the library's symbolic
    executor on hypotheses that hold each 512-row chunk through the slice the program itself names. Its remote steps are
    taken by the rounds library's rules, one application each: three barrier signals and the wait for the three
    neighbours; 37 copies to a neighbour, each lending the source chunk (at a share, where the chunk is also read by another
    copy) and landing the chunk's final contents; the waits on the 37 receive cells, which hand back the landed chunks; the
    final waits on the 37 send cells, which hand back what was lent. Whenever a chunk has been written (by a landing copy or
    by a store) it is restated as "holds its final contents" (Spec), which is what the next copy's payload asks for.
    A wait is allowed because whatever the device still owes at that point lies above the awaited cell (Owed): decided on the
    list of payments not yet made. At the end every cell has had its one round and is closed, and the pieces of every
    buffer are put back. -/

set_option maxRecDepth 8000

noncomputable section

namespace Cert.Kernel.RS.D3

open Cert.Kernel Cert.Kernel.Gen Cert.Kernel.RS
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local notation "cc" => (Fin.mk 3 (Nat.le_of_ble_eq_true rfl) : Dev nD)

set_option maxHeartbeats 1600000 in
theorem dev (m : (ℓ : Loc nD τ sig) → Buf (Elt F) ℓ) (K : GSem nD τ sig → ℕ) (W : Waits sig Unit) (Kt : PUnit → sProp 𝕄) :
    iprop(bodyPre m K cc W ∗ (bodyPost m cc -∗ Kt ⟨⟩))
      ⊢ wp frame (wpE (defs₀ (F := F)) 𝒱₀ (cc : Thread nD τ) none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25) Kt := by
  unfold bodyPre O₀
  iintro ⟨⟨HIt, HIw, HRt, #Hlev, HO, Hcr, HpR, HpS, Htk, HX, Hout, HS0, HS1, HS2, HS3, HS4, HS5, HS6, HS7, HS8, HvI, HvO, HvU⟩, Hk⟩
  rw [cc0_body_eq_skeleton]; unfold cc0_body_skel
  -- the four-quarter buffer in the pieces that travel
  ihave H0 := (Entails.of_eq (junk_whole (F := F) cc cc0_scratch0)) $$ HS0
  icases H0 with ⟨%f0, H0⟩
  ihave H4 := (r4_entry (F := F) cc f0) $$ H0
  icases H4 with ⟨Hown, HgZ, HgY, Hdg, HhZ, HhY⟩
  sl_exec

  icases Htk with ⟨Htb, Htk⟩
  icases HIt with ⟨#HIbpx, HIt⟩
  icases HRt with ⟨#HRbpx, HRt⟩
  iapply (sig_bar m cc _ (px cc) (dev1_eq cc) 0 (by decide) (owedL (List.drop 1 (paysL cc))) rfl) $$ [HO Htb HS2 HS4]
  · isplitr; · iexact HIbpx
    isplitl [HO]; · iexact HO
    isplitl [Htb]; · iexact Htb
    isplitl [HS2 HS4]
    · iapply (Entails.of_eq ((barPay_zero (F := F) (px cc)).trans (by rw [px_px])).symm)
      unfold giveX
      isplitl [HS2]; · iexact HS2
      iexact HS4
    · iexact HRbpx
  iintro HO
  sl_exec

  icases Htk with ⟨Htb, Htk⟩
  icases HIt with ⟨#HIbpz, HIt⟩
  icases HRt with ⟨#HRbpz, HRt⟩
  iapply (sig_bar m cc _ (pz cc) (dev2_eq cc) 2 (by decide) (owedL (List.drop 2 (paysL cc))) rfl) $$ [HO Htb HgZ HhZ]
  · isplitr; · iexact HIbpz
    isplitl [HO]; · iexact HO
    isplitl [Htb]; · iexact Htb
    isplitl [HgZ HhZ]
    · iapply (Entails.of_eq ((barPay_two (F := F) (pz cc)).trans (by rw [pz_pz])).symm)
      isplitl [HgZ]; · iexact HgZ
      iexact HhZ
    · iexact HRbpz
  iintro HO
  sl_exec

  icases Htk with ⟨Htb, Htk⟩
  icases HIt with ⟨#HIbpy, HIt⟩
  icases HRt with ⟨#HRbpy, HRt⟩
  iapply (sig_bar m cc _ (py cc) (dev3_eq cc) 1 (by decide) (owedL (List.drop 3 (paysL cc))) rfl) $$ [HO Htb HgY HhY]
  · isplitr; · iexact HIbpy
    isplitl [HO]; · iexact HO
    isplitl [Htb]; · iexact Htb
    isplitl [HgY HhY]
    · iapply (Entails.of_eq ((barPay_one (F := F) (py cc)).trans (by rw [py_py])).symm)
      isplitl [HgY]; · iexact HgY
      iexact HhY
    · iexact HRbpy
  iintro HO
  sl_exec
  -- the wait for the three neighbours
  icases Hcr with ⟨Hcb, Hcr⟩
  icases HpR with ⟨Hpb, HpR⟩
  icases HIw with ⟨#HIb, HIw⟩
  ihave Hmw := (mayWait_list (F := F) cc (.reg barS) (List.drop 3 (paysL cc)) (by decide)) $$ Hlev
  iapply (wait_bar m cc (by decide)) $$ [Hcb HO Hmw Hpb]
  · isplitr; · iexact HIb
    isplitl [Hcb]; · iexact Hcb
    isplitl [HO]; · iexact HO
    isplitl [Hmw]; · iexact Hmw
    iexact Hpb
  iintro ⟨HO, Hpb, -, Hgx, Hgy, Hgz⟩
  -- what they handed over: the x-neighbour's landing buffers chunk by chunk, the y- and z-neighbours' quarter and halves
  ihave Hgx := (Entails.of_eq (barPay_zero (F := F) cc)) $$ Hgx
  ihave Hgx := (giveX_rows (F := F) (px cc)) $$ Hgx
  icases Hgx with ⟨Hrbp, Hrb2p⟩
  ihave Hgy := (Entails.of_eq (barPay_one (F := F) cc)) $$ Hgy
  icases Hgy with ⟨HqY, HhYp⟩
  ihave Hgz := (Entails.of_eq (barPay_two (F := F) cc)) $$ Hgz
  icases Hgz with ⟨HqZ, HhZp⟩
  -- this device's staging buffers and send buffers chunk by chunk
  ihave H5 := (Entails.of_eq (junk_whole (F := F) cc cc0_scratch5)) $$ HS5
  icases H5 with ⟨%f5, H5⟩
  ihave H5 := (Entails.of_eq (stP_rows (F := F) cc fullShare f5)) $$ H5
  icases H5 with ⟨HP0, HP1, HP2, HP3, HP4, HP5, HP6, HP7⟩
  ihave H6 := (Entails.of_eq (junk_whole (F := F) cc cc0_scratch6)) $$ HS6
  icases H6 with ⟨%f6, H6⟩
  ihave H6 := (Entails.of_eq (stL_rows (F := F) cc fullShare f6)) $$ H6
  icases H6 with ⟨HL0, HL1, HL2, HL3, HL4, HL5, HL6, HL7⟩
  ihave H7 := (Entails.of_eq (junk_whole (F := F) cc cc0_scratch7)) $$ HS7
  icases H7 with ⟨%f7, H7⟩
  ihave H7 := (Entails.of_eq (stP2_rows (F := F) cc fullShare f7)) $$ H7
  icases H7 with ⟨HP20, HP21, HP22⟩
  ihave H8 := (Entails.of_eq (junk_whole (F := F) cc cc0_scratch8)) $$ HS8
  icases H8 with ⟨%f8, H8⟩
  ihave H8 := (Entails.of_eq (stL2_rows (F := F) cc fullShare f8)) $$ H8
  icases H8 with ⟨HL20, HL21, HL22⟩
  ihave H1 := (Entails.of_eq (junk_whole (F := F) cc cc0_scratch1)) $$ HS1
  icases H1 with ⟨%f1, H1⟩
  ihave H1 := (Entails.of_eq (sb_rows (F := F) cc fullShare f1)) $$ H1
  icases H1 with ⟨HB0, HB1, HB2, HB3, HB4, HB5, HB6, HB7⟩
  ihave H3 := (Entails.of_eq (junk_whole (F := F) cc cc0_scratch3)) $$ HS3
  icases H3 with ⟨%f3, H3⟩
  ihave H3 := (Entails.of_eq (sb2_rows (F := F) cc fullShare f3)) $$ H3
  icases H3 with ⟨HB20, HB21, HB22⟩
  -- the counters of the 22 copies into the staging buffers
  icases HvI with ⟨Hv0, Hv8, Hv1, Hv9, Hv2, Hv10, Hv3, Hv11, Hv4, Hv12, Hv5, Hv13, Hv6, Hv14, Hv7, Hv15, Hv16, Hv19, Hv17, Hv20, Hv18, Hv21⟩
  sl_exec
  -- chunk 0 across x: wait for its copy into the staging buffer, round it into the send buffer, send it
  have hled3 : ∀ (s : DmaSem sig), lvJ s.val = 0 → ((levAts LL lvv : sProp 𝕄) ⊢ MayWait (cc : Thread nD τ) (.dma s) () (owedL (List.drop 3 (paysL cc)))) :=
    fun s hs => mayWait_local (F := F) cc s hs _ (by decide)
  sl_exec
  clear hled3
  ihave HB0 := (congr (F := F) (sbR 0) cc fullShare (dev.sl.HB0_w1 m f1) (sb m cc) (fun i hi => glue_sb m cc 0 _ (k0_off1_inb cc) (k0_off1_eq cc) f1 i hi)) $$ HB0
  -- the copy
  icases Htk with ⟨Hts, Htr, Htk⟩
  icases HIt with ⟨#HIc22, #HIr, HIt⟩
  icases HRt with ⟨#HRs, #HRr, HRt⟩
  icases Hrbp with ⟨⟨%fd, Hd⟩, Hrbp⟩
  iapply (send_x m cc _ (dev4_eq cc) 0 fd (owedL (List.drop 4 (paysL cc))) rfl _) $$ [HB0 Hd HO Hts Htr]
  · isplitr; · iexact HIc22
    isplitr; · iexact HIr
    isplitl [HB0]; · iexact HB0
    isplitl [Hd]; · iexact Hd
    isplitl [HO]; · iexact HO
    isplitl [Hts]; · iexact Hts
    isplitr; · iexact HRs
    isplitl [Htr]; · iexact Htr
    iexact HRr
  iintro ⟨Hcxs0, HO⟩
  iclear HIr HRs HRr
  -- chunk 1 across x: wait for its copy into the staging buffer, round it into the send buffer, send it
  have hled4 : ∀ (s : DmaSem sig), lvJ s.val = 0 → ((levAts LL lvv : sProp 𝕄) ⊢ MayWait (cc : Thread nD τ) (.dma s) () (owedL (List.drop 4 (paysL cc)))) :=
    fun s hs => mayWait_local (F := F) cc s hs _ (by decide)
  sl_exec
  clear hled4
  ihave HB1 := (congr (F := F) (sbR 1) cc fullShare (dev.sl.HB1_w1 m f1) (sb m cc) (fun i hi => glue_sb m cc 1 _ (k0_off3_inb cc) (k0_off3_eq cc) f1 i hi)) $$ HB1
  -- the copy
  icases Htk with ⟨Hts, Htr, Htk⟩
  icases HIt with ⟨#HIc23, #HIr, HIt⟩
  icases HRt with ⟨#HRs, #HRr, HRt⟩
  icases Hrbp with ⟨⟨%fd, Hd⟩, Hrbp⟩
  iapply (send_x m cc _ (dev5_eq cc) 1 fd (owedL (List.drop 5 (paysL cc))) rfl _) $$ [HB1 Hd HO Hts Htr]
  · isplitr; · iexact HIc23
    isplitr; · iexact HIr
    isplitl [HB1]; · iexact HB1
    isplitl [Hd]; · iexact Hd
    isplitl [HO]; · iexact HO
    isplitl [Hts]; · iexact Hts
    isplitr; · iexact HRs
    isplitl [Htr]; · iexact Htr
    iexact HRr
  iintro ⟨Hcxs1, HO⟩
  iclear HIr HRs HRr
  -- chunk 2 across x: wait for its copy into the staging buffer, round it into the send buffer, send it
  have hled5 : ∀ (s : DmaSem sig), lvJ s.val = 0 → ((levAts LL lvv : sProp 𝕄) ⊢ MayWait (cc : Thread nD τ) (.dma s) () (owedL (List.drop 5 (paysL cc)))) :=
    fun s hs => mayWait_local (F := F) cc s hs _ (by decide)
  sl_exec
  clear hled5
  ihave HB2 := (congr (F := F) (sbR 2) cc fullShare (dev.sl.HB2_w1 m f1) (sb m cc) (fun i hi => glue_sb m cc 2 _ (k0_off5_inb cc) (k0_off5_eq cc) f1 i hi)) $$ HB2
  -- the copy
  icases Htk with ⟨Hts, Htr, Htk⟩
  icases HIt with ⟨#HIc24, #HIr, HIt⟩
  icases HRt with ⟨#HRs, #HRr, HRt⟩
  icases Hrbp with ⟨⟨%fd, Hd⟩, Hrbp⟩
  iapply (send_x m cc _ (dev6_eq cc) 2 fd (owedL (List.drop 6 (paysL cc))) rfl _) $$ [HB2 Hd HO Hts Htr]
  · isplitr; · iexact HIc24
    isplitr; · iexact HIr
    isplitl [HB2]; · iexact HB2
    isplitl [Hd]; · iexact Hd
    isplitl [HO]; · iexact HO
    isplitl [Hts]; · iexact Hts
    isplitr; · iexact HRs
    isplitl [Htr]; · iexact Htr
    iexact HRr
  iintro ⟨Hcxs2, HO⟩
  iclear HIr HRs HRr
  -- chunk 3 across x: wait for its copy into the staging buffer, round it into the send buffer, send it
  have hled6 : ∀ (s : DmaSem sig), lvJ s.val = 0 → ((levAts LL lvv : sProp 𝕄) ⊢ MayWait (cc : Thread nD τ) (.dma s) () (owedL (List.drop 6 (paysL cc)))) :=
    fun s hs => mayWait_local (F := F) cc s hs _ (by decide)
  sl_exec
  clear hled6
  ihave HB3 := (congr (F := F) (sbR 3) cc fullShare (dev.sl.HB3_w1 m f1) (sb m cc) (fun i hi => glue_sb m cc 3 _ (k0_off7_inb cc) (k0_off7_eq cc) f1 i hi)) $$ HB3
  -- the copy
  icases Htk with ⟨Hts, Htr, Htk⟩
  icases HIt with ⟨#HIc25, #HIr, HIt⟩
  icases HRt with ⟨#HRs, #HRr, HRt⟩
  icases Hrbp with ⟨⟨%fd, Hd⟩, Hrbp⟩
  iapply (send_x m cc _ (dev7_eq cc) 3 fd (owedL (List.drop 7 (paysL cc))) rfl _) $$ [HB3 Hd HO Hts Htr]
  · isplitr; · iexact HIc25
    isplitr; · iexact HIr
    isplitl [HB3]; · iexact HB3
    isplitl [Hd]; · iexact Hd
    isplitl [HO]; · iexact HO
    isplitl [Hts]; · iexact Hts
    isplitr; · iexact HRs
    isplitl [Htr]; · iexact Htr
    iexact HRr
  iintro ⟨Hcxs3, HO⟩
  iclear HIr HRs HRr
  -- chunk 4 across x: wait for its copy into the staging buffer, round it into the send buffer, send it
  have hled7 : ∀ (s : DmaSem sig), lvJ s.val = 0 → ((levAts LL lvv : sProp 𝕄) ⊢ MayWait (cc : Thread nD τ) (.dma s) () (owedL (List.drop 7 (paysL cc)))) :=
    fun s hs => mayWait_local (F := F) cc s hs _ (by decide)
  sl_exec
  clear hled7
  ihave HB4 := (congr (F := F) (sbR 4) cc fullShare (dev.sl.HB4_w1 m f1) (sb m cc) (fun i hi => glue_sb m cc 4 _ (k0_off9_inb cc) (k0_off9_eq cc) f1 i hi)) $$ HB4
  -- the copy
  icases Htk with ⟨Hts, Htr, Htk⟩
  icases HIt with ⟨#HIc26, #HIr, HIt⟩
  icases HRt with ⟨#HRs, #HRr, HRt⟩
  icases Hrbp with ⟨⟨%fd, Hd⟩, Hrbp⟩
  iapply (send_x m cc _ (dev8_eq cc) 4 fd (owedL (List.drop 8 (paysL cc))) rfl _) $$ [HB4 Hd HO Hts Htr]
  · isplitr; · iexact HIc26
    isplitr; · iexact HIr
    isplitl [HB4]; · iexact HB4
    isplitl [Hd]; · iexact Hd
    isplitl [HO]; · iexact HO
    isplitl [Hts]; · iexact Hts
    isplitr; · iexact HRs
    isplitl [Htr]; · iexact Htr
    iexact HRr
  iintro ⟨Hcxs4, HO⟩
  iclear HIr HRs HRr
  -- chunk 5 across x: wait for its copy into the staging buffer, round it into the send buffer, send it
  have hled8 : ∀ (s : DmaSem sig), lvJ s.val = 0 → ((levAts LL lvv : sProp 𝕄) ⊢ MayWait (cc : Thread nD τ) (.dma s) () (owedL (List.drop 8 (paysL cc)))) :=
    fun s hs => mayWait_local (F := F) cc s hs _ (by decide)
  sl_exec
  clear hled8
  ihave HB5 := (congr (F := F) (sbR 5) cc fullShare (dev.sl.HB5_w1 m f1) (sb m cc) (fun i hi => glue_sb m cc 5 _ (k0_off11_inb cc) (k0_off11_eq cc) f1 i hi)) $$ HB5
  -- the copy
  icases Htk with ⟨Hts, Htr, Htk⟩
  icases HIt with ⟨#HIc27, #HIr, HIt⟩
  icases HRt with ⟨#HRs, #HRr, HRt⟩
  icases Hrbp with ⟨⟨%fd, Hd⟩, Hrbp⟩
  iapply (send_x m cc _ (dev9_eq cc) 5 fd (owedL (List.drop 9 (paysL cc))) rfl _) $$ [HB5 Hd HO Hts Htr]
  · isplitr; · iexact HIc27
    isplitr; · iexact HIr
    isplitl [HB5]; · iexact HB5
    isplitl [Hd]; · iexact Hd
    isplitl [HO]; · iexact HO
    isplitl [Hts]; · iexact Hts
    isplitr; · iexact HRs
    isplitl [Htr]; · iexact Htr
    iexact HRr
  iintro ⟨Hcxs5, HO⟩
  iclear HIr HRs HRr
  -- chunk 6 across x: wait for its copy into the staging buffer, round it into the send buffer, send it
  have hled9 : ∀ (s : DmaSem sig), lvJ s.val = 0 → ((levAts LL lvv : sProp 𝕄) ⊢ MayWait (cc : Thread nD τ) (.dma s) () (owedL (List.drop 9 (paysL cc)))) :=
    fun s hs => mayWait_local (F := F) cc s hs _ (by decide)
  sl_exec
  clear hled9
  ihave HB6 := (congr (F := F) (sbR 6) cc fullShare (dev.sl.HB6_w1 m f1) (sb m cc) (fun i hi => glue_sb m cc 6 _ (k0_off13_inb cc) (k0_off13_eq cc) f1 i hi)) $$ HB6
  -- the copy
  icases Htk with ⟨Hts, Htr, Htk⟩
  icases HIt with ⟨#HIc28, #HIr, HIt⟩
  icases HRt with ⟨#HRs, #HRr, HRt⟩
  icases Hrbp with ⟨⟨%fd, Hd⟩, Hrbp⟩
  iapply (send_x m cc _ (dev10_eq cc) 6 fd (owedL (List.drop 10 (paysL cc))) rfl _) $$ [HB6 Hd HO Hts Htr]
  · isplitr; · iexact HIc28
    isplitr; · iexact HIr
    isplitl [HB6]; · iexact HB6
    isplitl [Hd]; · iexact Hd
    isplitl [HO]; · iexact HO
    isplitl [Hts]; · iexact Hts
    isplitr; · iexact HRs
    isplitl [Htr]; · iexact Htr
    iexact HRr
  iintro ⟨Hcxs6, HO⟩
  iclear HIr HRs HRr
  -- chunk 7 across x: wait for its copy into the staging buffer, round it into the send buffer, send it
  have hled10 : ∀ (s : DmaSem sig), lvJ s.val = 0 → ((levAts LL lvv : sProp 𝕄) ⊢ MayWait (cc : Thread nD τ) (.dma s) () (owedL (List.drop 10 (paysL cc)))) :=
    fun s hs => mayWait_local (F := F) cc s hs _ (by decide)
  sl_exec
  clear hled10
  ihave HB7 := (congr (F := F) (sbR 7) cc fullShare (dev.sl.HB7_w1 m f1) (sb m cc) (fun i hi => glue_sb m cc 7 _ (k0_off15_inb cc) (k0_off15_eq cc) f1 i hi)) $$ HB7
  -- the copy
  icases Htk with ⟨Hts, Htr, Htk⟩
  icases HIt with ⟨#HIc29, #HIr, HIt⟩
  icases HRt with ⟨#HRs, #HRr, HRt⟩
  icases Hrbp with ⟨%fd, Hd⟩
  iapply (send_x m cc _ (dev11_eq cc) 7 fd (owedL (List.drop 11 (paysL cc))) rfl _) $$ [HB7 Hd HO Hts Htr]
  · isplitr; · iexact HIc29
    isplitr; · iexact HIr
    isplitl [HB7]; · iexact HB7
    isplitl [Hd]; · iexact Hd
    isplitl [HO]; · iexact HO
    isplitl [Hts]; · iexact Hts
    isplitr; · iexact HRs
    isplitl [Htr]; · iexact Htr
    iexact HRr
  iintro ⟨Hcxs7, HO⟩
  iclear HIr HRs HRr
  -- chunk 0 across x (the diagonal quarter's): wait for its copy into the staging buffer, round it into the send buffer, send it
  have hled11 : ∀ (s : DmaSem sig), lvJ s.val = 0 → ((levAts LL lvv : sProp 𝕄) ⊢ MayWait (cc : Thread nD τ) (.dma s) () (owedL (List.drop 11 (paysL cc)))) :=
    fun s hs => mayWait_local (F := F) cc s hs _ (by decide)
  sl_exec
  clear hled11
  ihave HB20 := (congr (F := F) (sb2R 0) cc fullShare (dev.sl.HB20_w1 m f3) (sb2 m cc) (fun i hi => glue_sb2 m cc 0 _ (k0_off17_inb cc) (k0_off17_eq cc) f3 i hi)) $$ HB20
  -- the copy
  icases Htk with ⟨Hts, Htr, Htk⟩
  icases HIt with ⟨#HIc38, #HIr, HIt⟩
  icases HRt with ⟨#HRs, #HRr, HRt⟩
  icases Hrb2p with ⟨⟨%fd, Hd⟩, Hrb2p⟩
  iapply (send_x2 m cc _ (dev12_eq cc) 0 fd (owedL (List.drop 12 (paysL cc))) rfl _) $$ [HB20 Hd HO Hts Htr]
  · isplitr; · iexact HIc38
    isplitr; · iexact HIr
    isplitl [HB20]; · iexact HB20
    isplitl [Hd]; · iexact Hd
    isplitl [HO]; · iexact HO
    isplitl [Hts]; · iexact Hts
    isplitr; · iexact HRs
    isplitl [Htr]; · iexact Htr
    iexact HRr
  iintro ⟨Hcds0, HO⟩
  iclear HIr HRs HRr
  -- chunk 1 across x (the diagonal quarter's): wait for its copy into the staging buffer, round it into the send buffer, send it
  have hled12 : ∀ (s : DmaSem sig), lvJ s.val = 0 → ((levAts LL lvv : sProp 𝕄) ⊢ MayWait (cc : Thread nD τ) (.dma s) () (owedL (List.drop 12 (paysL cc)))) :=
    fun s hs => mayWait_local (F := F) cc s hs _ (by decide)
  sl_exec
  clear hled12
  ihave HB21 := (congr (F := F) (sb2R 1) cc fullShare (dev.sl.HB21_w1 m f3) (sb2 m cc) (fun i hi => glue_sb2 m cc 1 _ (k0_off19_inb cc) (k0_off19_eq cc) f3 i hi)) $$ HB21
  -- the copy
  icases Htk with ⟨Hts, Htr, Htk⟩
  icases HIt with ⟨#HIc39, #HIr, HIt⟩
  icases HRt with ⟨#HRs, #HRr, HRt⟩
  icases Hrb2p with ⟨⟨%fd, Hd⟩, Hrb2p⟩
  iapply (send_x2 m cc _ (dev13_eq cc) 1 fd (owedL (List.drop 13 (paysL cc))) rfl _) $$ [HB21 Hd HO Hts Htr]
  · isplitr; · iexact HIc39
    isplitr; · iexact HIr
    isplitl [HB21]; · iexact HB21
    isplitl [Hd]; · iexact Hd
    isplitl [HO]; · iexact HO
    isplitl [Hts]; · iexact Hts
    isplitr; · iexact HRs
    isplitl [Htr]; · iexact Htr
    iexact HRr
  iintro ⟨Hcds1, HO⟩
  iclear HIr HRs HRr
  -- chunk 2 across x (the diagonal quarter's): wait for its copy into the staging buffer, round it into the send buffer, send it
  have hled13 : ∀ (s : DmaSem sig), lvJ s.val = 0 → ((levAts LL lvv : sProp 𝕄) ⊢ MayWait (cc : Thread nD τ) (.dma s) () (owedL (List.drop 13 (paysL cc)))) :=
    fun s hs => mayWait_local (F := F) cc s hs _ (by decide)
  sl_exec
  clear hled13
  ihave HB22 := (congr (F := F) (sb2R 2) cc fullShare (dev.sl.HB22_w1 m f3) (sb2 m cc) (fun i hi => glue_sb2 m cc 2 _ (k0_off21_inb cc) (k0_off21_eq cc) f3 i hi)) $$ HB22
  -- the copy
  icases Htk with ⟨Hts, Htr, Htk⟩
  icases HIt with ⟨#HIc40, #HIr, HIt⟩
  icases HRt with ⟨#HRs, #HRr, HRt⟩
  icases Hrb2p with ⟨%fd, Hd⟩
  iapply (send_x2 m cc _ (dev14_eq cc) 2 fd (owedL (List.drop 14 (paysL cc))) rfl _) $$ [HB22 Hd HO Hts Htr]
  · isplitr; · iexact HIc40
    isplitr; · iexact HIr
    isplitl [HB22]; · iexact HB22
    isplitl [Hd]; · iexact Hd
    isplitl [HO]; · iexact HO
    isplitl [Hts]; · iexact Hts
    isplitr; · iexact HRs
    isplitl [Htr]; · iexact Htr
    iexact HRr
  iintro ⟨Hcds2, HO⟩
  iclear HIr HRs HRr
  sl_exec
  -- the result array in its 32 blocks
  ihave Hout := (out_split_junk (F := F) cc) $$ Hout
  icases Hout with ⟨⟨%g00, HU00⟩, ⟨%g01, HU01⟩, ⟨%g02, HU02⟩, ⟨%g03, HU03⟩, ⟨%g10, HU10⟩, ⟨%g11, HU11⟩, ⟨%g12, HU12⟩, ⟨%g13, HU13⟩, ⟨%g20, HU20⟩, ⟨%g21, HU21⟩, ⟨%g22, HU22⟩, ⟨%g23, HU23⟩, ⟨%g30, HU30⟩, ⟨%g31, HU31⟩, ⟨%g32, HU32⟩, ⟨%g33, HU33⟩, ⟨%g40, HU40⟩, ⟨%g41, HU41⟩, ⟨%g42, HU42⟩, ⟨%g43, HU43⟩, ⟨%g50, HU50⟩, ⟨%g51, HU51⟩, ⟨%g52, HU52⟩, ⟨%g53, HU53⟩, ⟨%g60, HU60⟩, ⟨%g61, HU61⟩, ⟨%g62, HU62⟩, ⟨%g63, HU63⟩, ⟨%g70, HU70⟩, ⟨%g71, HU71⟩, ⟨%g72, HU72⟩, ⟨%g73, HU73⟩⟩
  ihave HqZ := (Entails.of_eq (giveQ_eq (F := F) (pz cc) (zqF (pz cc)))) $$ HqZ
  ihave HqY := (Entails.of_eq (giveQ_eq (F := F) (py cc) (yqF (py cc)))) $$ HqY
  ihave HhZp := (Entails.of_eq (giveH_eq (F := F) (pz cc) 0)) $$ HhZp
  ihave HhYp := (Entails.of_eq (giveH_eq (F := F) (py cc) 1)) $$ HhYp
  -- step 0 of the main loop: the x-neighbour's chunk 0 has landed
  icases Hcr with ⟨Hc, Hcr⟩
  icases HpR with ⟨Hp, HpR⟩
  icases HIw with ⟨#HIc30, HIw⟩
  ihave Hmw := (mayWait_list (F := F) cc (dsem (⟨30, by decide⟩ : Fin 140)) (List.drop 14 (paysL cc)) (by decide)) $$ Hlev
  iapply (wait_a1_at m cc _ 0 rfl) $$ [Hc HO Hmw Hp]
  · isplitr; · iexact HIc30
    isplitl [Hc]; · iexact Hc
    isplitl [HO]; · iexact HO
    isplitl [Hmw]; · iexact Hmw
    iexact Hp
  iintro ⟨HO, Hq30, -, Hrb0⟩
  icases Hown with ⟨Ho0, Hown⟩
  have hled14 : ∀ (s : DmaSem sig), lvJ s.val = 0 → ((levAts LL lvv : sProp 𝕄) ⊢ MayWait (cc : Thread nD τ) (.dma s) () (owedL (List.drop 14 (paysL cc)))) :=
    fun s hs => mayWait_local (F := F) cc s hs _ (by decide)
  sl_exec
  clear hled14
  ihave Ho0 := (congr (F := F) (r4R (mqF cc) 0) cc fullShare (dev.sl.Ho0_w1 m f0) (r4 m cc) (fun i hi => glue_own m cc 0 _ (k0_off2_inb cc) (k0_off2_eq cc) _ (k0_off23_inb cc) (k0_off23_eq cc) f0 i hi)) $$ Ho0
  ihave Ho0 := (Entails.of_eq (share_ZYK_eq (F := F) (r4R (mqF cc) 0) cc (r4 m cc))) $$ Ho0
  icases Ho0 with ⟨HoZ0, HoY0, HoK0⟩
  -- own chunk 0 to the z-neighbour
  icases Htk with ⟨Hts, Htr, Htk⟩
  icases HIt with ⟨#HIc44, #HIr, HIt⟩
  icases HRt with ⟨#HRs, #HRr, HRt⟩
  icases HqZ with ⟨⟨%fd, Hd⟩, HqZ⟩
  iapply (send_z_at m cc _ (dev15_eq cc) 0 _ _ (k0_off24_eq cc) fd (owedL (List.drop 15 (paysL cc))) rfl _) $$ [HoZ0 Hd HO Hts Htr]
  · isplitr; · iexact HIc44
    isplitr; · iexact HIr
    isplitl [HoZ0]; · iexact HoZ0
    isplitl [Hd]; · iexact Hd
    isplitl [HO]; · iexact HO
    isplitl [Hts]; · iexact Hts
    isplitr; · iexact HRs
    isplitl [Htr]; · iexact Htr
    iexact HRr
  iintro ⟨Hczs0, HO⟩
  iclear HIr HRs HRr
  sl_exec
  -- own chunk 0 to the y-neighbour
  icases Htk with ⟨Hts, Htr, Htk⟩
  icases HIt with ⟨#HIc60, #HIr, HIt⟩
  icases HRt with ⟨#HRs, #HRr, HRt⟩
  icases HqY with ⟨⟨%fd, Hd⟩, HqY⟩
  iapply (send_y_at m cc _ (dev16_eq cc) 0 _ _ (k0_off24_eq cc) fd (owedL (List.drop 16 (paysL cc))) rfl _) $$ [HoY0 Hd HO Hts Htr]
  · isplitr; · iexact HIc60
    isplitr; · iexact HIr
    isplitl [HoY0]; · iexact HoY0
    isplitl [Hd]; · iexact Hd
    isplitl [HO]; · iexact HO
    isplitl [Hts]; · iexact Hts
    isplitr; · iexact HRs
    isplitl [Htr]; · iexact Htr
    iexact HRr
  iintro ⟨Hcys0, HO⟩
  iclear HIr HRs HRr
  sl_exec
  -- step 1 of the main loop: the x-neighbour's chunk 1 has landed
  icases Hcr with ⟨Hc, Hcr⟩
  icases HpR with ⟨Hp, HpR⟩
  icases HIw with ⟨#HIc31, HIw⟩
  ihave Hmw := (mayWait_list (F := F) cc (dsem (⟨31, by decide⟩ : Fin 140)) (List.drop 16 (paysL cc)) (by decide)) $$ Hlev
  iapply (wait_a1_at m cc _ 1 rfl) $$ [Hc HO Hmw Hp]
  · isplitr; · iexact HIc31
    isplitl [Hc]; · iexact Hc
    isplitl [HO]; · iexact HO
    isplitl [Hmw]; · iexact Hmw
    iexact Hp
  iintro ⟨HO, Hq31, -, Hrb1⟩
  icases Hown with ⟨Ho1, Hown⟩
  have hled16 : ∀ (s : DmaSem sig), lvJ s.val = 0 → ((levAts LL lvv : sProp 𝕄) ⊢ MayWait (cc : Thread nD τ) (.dma s) () (owedL (List.drop 16 (paysL cc)))) :=
    fun s hs => mayWait_local (F := F) cc s hs _ (by decide)
  sl_exec
  clear hled16
  ihave Ho1 := (congr (F := F) (r4R (mqF cc) 1) cc fullShare (dev.sl.Ho1_w1 m f0) (r4 m cc) (fun i hi => glue_own m cc 1 _ (k0_off4_inb cc) (k0_off4_eq cc) _ (k0_off25_inb cc) (k0_off25_eq cc) f0 i hi)) $$ Ho1
  ihave Ho1 := (Entails.of_eq (share_ZYK_eq (F := F) (r4R (mqF cc) 1) cc (r4 m cc))) $$ Ho1
  icases Ho1 with ⟨HoZ1, HoY1, HoK1⟩
  -- own chunk 1 to the z-neighbour
  icases Htk with ⟨Hts, Htr, Htk⟩
  icases HIt with ⟨#HIc45, #HIr, HIt⟩
  icases HRt with ⟨#HRs, #HRr, HRt⟩
  icases HqZ with ⟨⟨%fd, Hd⟩, HqZ⟩
  iapply (send_z_at m cc _ (dev17_eq cc) 1 _ _ (k0_off26_eq cc) fd (owedL (List.drop 17 (paysL cc))) rfl _) $$ [HoZ1 Hd HO Hts Htr]
  · isplitr; · iexact HIc45
    isplitr; · iexact HIr
    isplitl [HoZ1]; · iexact HoZ1
    isplitl [Hd]; · iexact Hd
    isplitl [HO]; · iexact HO
    isplitl [Hts]; · iexact Hts
    isplitr; · iexact HRs
    isplitl [Htr]; · iexact Htr
    iexact HRr
  iintro ⟨Hczs1, HO⟩
  iclear HIr HRs HRr
  sl_exec
  -- own chunk 1 to the y-neighbour
  icases Htk with ⟨Hts, Htr, Htk⟩
  icases HIt with ⟨#HIc61, #HIr, HIt⟩
  icases HRt with ⟨#HRs, #HRr, HRt⟩
  icases HqY with ⟨⟨%fd, Hd⟩, HqY⟩
  iapply (send_y_at m cc _ (dev18_eq cc) 1 _ _ (k0_off26_eq cc) fd (owedL (List.drop 18 (paysL cc))) rfl _) $$ [HoY1 Hd HO Hts Htr]
  · isplitr; · iexact HIc61
    isplitr; · iexact HIr
    isplitl [HoY1]; · iexact HoY1
    isplitl [Hd]; · iexact Hd
    isplitl [HO]; · iexact HO
    isplitl [Hts]; · iexact Hts
    isplitr; · iexact HRs
    isplitl [Htr]; · iexact Htr
    iexact HRr
  iintro ⟨Hcys1, HO⟩
  iclear HIr HRs HRr
  sl_exec
  -- the z-neighbour's chunk 0 has landed
  icases Hcr with ⟨Hc, Hcr⟩
  icases HpR with ⟨Hp, HpR⟩
  icases HIw with ⟨#HIc52, HIw⟩
  ihave Hmw := (mayWait_list (F := F) cc (dsem (⟨52, by decide⟩ : Fin 140)) (List.drop 18 (paysL cc)) (by decide)) $$ Hlev
  iapply (wait_a5_at m cc _ 0 rfl) $$ [Hc HO Hmw Hp]
  · isplitr; · iexact HIc52
    isplitl [Hc]; · iexact Hc
    isplitl [HO]; · iexact HO
    isplitl [Hmw]; · iexact Hmw
    iexact Hp
  iintro ⟨HO, Hq52, -, Hz0⟩
  sl_exec
  -- the y-neighbour's chunk 0 has landed
  icases Hcr with ⟨Hc, Hcr⟩
  icases HpR with ⟨Hp, HpR⟩
  icases HIw with ⟨#HIc68, HIw⟩
  ihave Hmw := (mayWait_list (F := F) cc (dsem (⟨68, by decide⟩ : Fin 140)) (List.drop 18 (paysL cc)) (by decide)) $$ Hlev
  iapply (wait_a7_at m cc _ 0 rfl) $$ [Hc HO Hmw Hp]
  · isplitr; · iexact HIc68
    isplitl [Hc]; · iexact Hc
    isplitl [HO]; · iexact HO
    isplitl [Hmw]; · iexact Hmw
    iexact Hp
  iintro ⟨HO, Hq68, -, Hy0⟩
  sl_exec
  -- step 2 of the main loop: the x-neighbour's chunk 2 has landed
  icases Hcr with ⟨Hc, Hcr⟩
  icases HpR with ⟨Hp, HpR⟩
  icases HIw with ⟨#HIc32, HIw⟩
  ihave Hmw := (mayWait_list (F := F) cc (dsem (⟨32, by decide⟩ : Fin 140)) (List.drop 18 (paysL cc)) (by decide)) $$ Hlev
  iapply (wait_a1_at m cc _ 2 rfl) $$ [Hc HO Hmw Hp]
  · isplitr; · iexact HIc32
    isplitl [Hc]; · iexact Hc
    isplitl [HO]; · iexact HO
    isplitl [Hmw]; · iexact Hmw
    iexact Hp
  iintro ⟨HO, Hq32, -, Hrb2⟩
  icases Hown with ⟨Ho2, Hown⟩
  have hled18 : ∀ (s : DmaSem sig), lvJ s.val = 0 → ((levAts LL lvv : sProp 𝕄) ⊢ MayWait (cc : Thread nD τ) (.dma s) () (owedL (List.drop 18 (paysL cc)))) :=
    fun s hs => mayWait_local (F := F) cc s hs _ (by decide)
  sl_exec
  clear hled18
  ihave Ho2 := (congr (F := F) (r4R (mqF cc) 2) cc fullShare (dev.sl.Ho2_w1 m f0) (r4 m cc) (fun i hi => glue_own m cc 2 _ (k0_off6_inb cc) (k0_off6_eq cc) _ (k0_off27_inb cc) (k0_off27_eq cc) f0 i hi)) $$ Ho2
  ihave Ho2 := (Entails.of_eq (share_ZYK_eq (F := F) (r4R (mqF cc) 2) cc (r4 m cc))) $$ Ho2
  icases Ho2 with ⟨HoZ2, HoY2, HoK2⟩
  -- own chunk 2 to the z-neighbour
  icases Htk with ⟨Hts, Htr, Htk⟩
  icases HIt with ⟨#HIc46, #HIr, HIt⟩
  icases HRt with ⟨#HRs, #HRr, HRt⟩
  icases HqZ with ⟨⟨%fd, Hd⟩, HqZ⟩
  iapply (send_z_at m cc _ (dev19_eq cc) 2 _ _ (k0_off28_eq cc) fd (owedL (List.drop 19 (paysL cc))) rfl _) $$ [HoZ2 Hd HO Hts Htr]
  · isplitr; · iexact HIc46
    isplitr; · iexact HIr
    isplitl [HoZ2]; · iexact HoZ2
    isplitl [Hd]; · iexact Hd
    isplitl [HO]; · iexact HO
    isplitl [Hts]; · iexact Hts
    isplitr; · iexact HRs
    isplitl [Htr]; · iexact Htr
    iexact HRr
  iintro ⟨Hczs2, HO⟩
  iclear HIr HRs HRr
  sl_exec
  -- own chunk 2 to the y-neighbour
  icases Htk with ⟨Hts, Htr, Htk⟩
  icases HIt with ⟨#HIc62, #HIr, HIt⟩
  icases HRt with ⟨#HRs, #HRr, HRt⟩
  icases HqY with ⟨⟨%fd, Hd⟩, HqY⟩
  iapply (send_y_at m cc _ (dev20_eq cc) 2 _ _ (k0_off28_eq cc) fd (owedL (List.drop 20 (paysL cc))) rfl _) $$ [HoY2 Hd HO Hts Htr]
  · isplitr; · iexact HIc62
    isplitr; · iexact HIr
    isplitl [HoY2]; · iexact HoY2
    isplitl [Hd]; · iexact Hd
    isplitl [HO]; · iexact HO
    isplitl [Hts]; · iexact Hts
    isplitr; · iexact HRs
    isplitl [Htr]; · iexact Htr
    iexact HRr
  iintro ⟨Hcys2, HO⟩
  iclear HIr HRs HRr
  sl_exec
  -- the z-neighbour's chunk 1 has landed
  icases Hcr with ⟨Hc, Hcr⟩
  icases HpR with ⟨Hp, HpR⟩
  icases HIw with ⟨#HIc53, HIw⟩
  ihave Hmw := (mayWait_list (F := F) cc (dsem (⟨53, by decide⟩ : Fin 140)) (List.drop 20 (paysL cc)) (by decide)) $$ Hlev
  iapply (wait_a5_at m cc _ 1 rfl) $$ [Hc HO Hmw Hp]
  · isplitr; · iexact HIc53
    isplitl [Hc]; · iexact Hc
    isplitl [HO]; · iexact HO
    isplitl [Hmw]; · iexact Hmw
    iexact Hp
  iintro ⟨HO, Hq53, -, Hz1⟩
  sl_exec
  -- the y-neighbour's chunk 1 has landed
  icases Hcr with ⟨Hc, Hcr⟩
  icases HpR with ⟨Hp, HpR⟩
  icases HIw with ⟨#HIc69, HIw⟩
  ihave Hmw := (mayWait_list (F := F) cc (dsem (⟨69, by decide⟩ : Fin 140)) (List.drop 20 (paysL cc)) (by decide)) $$ Hlev
  iapply (wait_a7_at m cc _ 1 rfl) $$ [Hc HO Hmw Hp]
  · isplitr; · iexact HIc69
    isplitl [Hc]; · iexact Hc
    isplitl [HO]; · iexact HO
    isplitl [Hmw]; · iexact Hmw
    iexact Hp
  iintro ⟨HO, Hq69, -, Hy1⟩
  sl_exec
  -- step 3 of the main loop: the x-neighbour's chunk 3 has landed
  icases Hcr with ⟨Hc, Hcr⟩
  icases HpR with ⟨Hp, HpR⟩
  icases HIw with ⟨#HIc33, HIw⟩
  ihave Hmw := (mayWait_list (F := F) cc (dsem (⟨33, by decide⟩ : Fin 140)) (List.drop 20 (paysL cc)) (by decide)) $$ Hlev
  iapply (wait_a1_at m cc _ 3 rfl) $$ [Hc HO Hmw Hp]
  · isplitr; · iexact HIc33
    isplitl [Hc]; · iexact Hc
    isplitl [HO]; · iexact HO
    isplitl [Hmw]; · iexact Hmw
    iexact Hp
  iintro ⟨HO, Hq33, -, Hrb3⟩
  icases Hown with ⟨Ho3, Hown⟩
  have hled20 : ∀ (s : DmaSem sig), lvJ s.val = 0 → ((levAts LL lvv : sProp 𝕄) ⊢ MayWait (cc : Thread nD τ) (.dma s) () (owedL (List.drop 20 (paysL cc)))) :=
    fun s hs => mayWait_local (F := F) cc s hs _ (by decide)
  sl_exec
  clear hled20
  ihave Ho3 := (congr (F := F) (r4R (mqF cc) 3) cc fullShare (dev.sl.Ho3_w1 m f0) (r4 m cc) (fun i hi => glue_own m cc 3 _ (k0_off8_inb cc) (k0_off8_eq cc) _ (k0_off29_inb cc) (k0_off29_eq cc) f0 i hi)) $$ Ho3
  ihave Ho3 := (Entails.of_eq (share_ZYK_eq (F := F) (r4R (mqF cc) 3) cc (r4 m cc))) $$ Ho3
  icases Ho3 with ⟨HoZ3, HoY3, HoK3⟩
  -- own chunk 3 to the z-neighbour
  icases Htk with ⟨Hts, Htr, Htk⟩
  icases HIt with ⟨#HIc47, #HIr, HIt⟩
  icases HRt with ⟨#HRs, #HRr, HRt⟩
  icases HqZ with ⟨⟨%fd, Hd⟩, HqZ⟩
  iapply (send_z_at m cc _ (dev21_eq cc) 3 _ _ (k0_off30_eq cc) fd (owedL (List.drop 21 (paysL cc))) rfl _) $$ [HoZ3 Hd HO Hts Htr]
  · isplitr; · iexact HIc47
    isplitr; · iexact HIr
    isplitl [HoZ3]; · iexact HoZ3
    isplitl [Hd]; · iexact Hd
    isplitl [HO]; · iexact HO
    isplitl [Hts]; · iexact Hts
    isplitr; · iexact HRs
    isplitl [Htr]; · iexact Htr
    iexact HRr
  iintro ⟨Hczs3, HO⟩
  iclear HIr HRs HRr
  sl_exec
  -- own chunk 3 to the y-neighbour
  icases Htk with ⟨Hts, Htr, Htk⟩
  icases HIt with ⟨#HIc63, #HIr, HIt⟩
  icases HRt with ⟨#HRs, #HRr, HRt⟩
  icases HqY with ⟨⟨%fd, Hd⟩, HqY⟩
  iapply (send_y_at m cc _ (dev22_eq cc) 3 _ _ (k0_off30_eq cc) fd (owedL (List.drop 22 (paysL cc))) rfl _) $$ [HoY3 Hd HO Hts Htr]
  · isplitr; · iexact HIc63
    isplitr; · iexact HIr
    isplitl [HoY3]; · iexact HoY3
    isplitl [Hd]; · iexact Hd
    isplitl [HO]; · iexact HO
    isplitl [Hts]; · iexact Hts
    isplitr; · iexact HRs
    isplitl [Htr]; · iexact Htr
    iexact HRr
  iintro ⟨Hcys3, HO⟩
  iclear HIr HRs HRr
  sl_exec
  -- the z-neighbour's chunk 2 has landed
  icases Hcr with ⟨Hc, Hcr⟩
  icases HpR with ⟨Hp, HpR⟩
  icases HIw with ⟨#HIc54, HIw⟩
  ihave Hmw := (mayWait_list (F := F) cc (dsem (⟨54, by decide⟩ : Fin 140)) (List.drop 22 (paysL cc)) (by decide)) $$ Hlev
  iapply (wait_a5_at m cc _ 2 rfl) $$ [Hc HO Hmw Hp]
  · isplitr; · iexact HIc54
    isplitl [Hc]; · iexact Hc
    isplitl [HO]; · iexact HO
    isplitl [Hmw]; · iexact Hmw
    iexact Hp
  iintro ⟨HO, Hq54, -, Hz2⟩
  sl_exec
  -- the y-neighbour's chunk 2 has landed
  icases Hcr with ⟨Hc, Hcr⟩
  icases HpR with ⟨Hp, HpR⟩
  icases HIw with ⟨#HIc70, HIw⟩
  ihave Hmw := (mayWait_list (F := F) cc (dsem (⟨70, by decide⟩ : Fin 140)) (List.drop 22 (paysL cc)) (by decide)) $$ Hlev
  iapply (wait_a7_at m cc _ 2 rfl) $$ [Hc HO Hmw Hp]
  · isplitr; · iexact HIc70
    isplitl [Hc]; · iexact Hc
    isplitl [HO]; · iexact HO
    isplitl [Hmw]; · iexact Hmw
    iexact Hp
  iintro ⟨HO, Hq70, -, Hy2⟩
  sl_exec
  -- step 4 of the main loop: the x-neighbour's chunk 4 has landed
  icases Hcr with ⟨Hc, Hcr⟩
  icases HpR with ⟨Hp, HpR⟩
  icases HIw with ⟨#HIc34, HIw⟩
  ihave Hmw := (mayWait_list (F := F) cc (dsem (⟨34, by decide⟩ : Fin 140)) (List.drop 22 (paysL cc)) (by decide)) $$ Hlev
  iapply (wait_a1_at m cc _ 4 rfl) $$ [Hc HO Hmw Hp]
  · isplitr; · iexact HIc34
    isplitl [Hc]; · iexact Hc
    isplitl [HO]; · iexact HO
    isplitl [Hmw]; · iexact Hmw
    iexact Hp
  iintro ⟨HO, Hq34, -, Hrb4⟩
  icases Hown with ⟨Ho4, Hown⟩
  have hled22 : ∀ (s : DmaSem sig), lvJ s.val = 0 → ((levAts LL lvv : sProp 𝕄) ⊢ MayWait (cc : Thread nD τ) (.dma s) () (owedL (List.drop 22 (paysL cc)))) :=
    fun s hs => mayWait_local (F := F) cc s hs _ (by decide)
  sl_exec
  clear hled22
  ihave Ho4 := (congr (F := F) (r4R (mqF cc) 4) cc fullShare (dev.sl.Ho4_w1 m f0) (r4 m cc) (fun i hi => glue_own m cc 4 _ (k0_off10_inb cc) (k0_off10_eq cc) _ (k0_off31_inb cc) (k0_off31_eq cc) f0 i hi)) $$ Ho4
  ihave Ho4 := (Entails.of_eq (share_ZYK_eq (F := F) (r4R (mqF cc) 4) cc (r4 m cc))) $$ Ho4
  icases Ho4 with ⟨HoZ4, HoY4, HoK4⟩
  -- own chunk 4 to the z-neighbour
  icases Htk with ⟨Hts, Htr, Htk⟩
  icases HIt with ⟨#HIc48, #HIr, HIt⟩
  icases HRt with ⟨#HRs, #HRr, HRt⟩
  icases HqZ with ⟨⟨%fd, Hd⟩, HqZ⟩
  iapply (send_z_at m cc _ (dev23_eq cc) 4 _ _ (k0_off32_eq cc) fd (owedL (List.drop 23 (paysL cc))) rfl _) $$ [HoZ4 Hd HO Hts Htr]
  · isplitr; · iexact HIc48
    isplitr; · iexact HIr
    isplitl [HoZ4]; · iexact HoZ4
    isplitl [Hd]; · iexact Hd
    isplitl [HO]; · iexact HO
    isplitl [Hts]; · iexact Hts
    isplitr; · iexact HRs
    isplitl [Htr]; · iexact Htr
    iexact HRr
  iintro ⟨Hczs4, HO⟩
  iclear HIr HRs HRr
  sl_exec
  -- own chunk 4 to the y-neighbour
  icases Htk with ⟨Hts, Htr, Htk⟩
  icases HIt with ⟨#HIc64, #HIr, HIt⟩
  icases HRt with ⟨#HRs, #HRr, HRt⟩
  icases HqY with ⟨⟨%fd, Hd⟩, HqY⟩
  iapply (send_y_at m cc _ (dev24_eq cc) 4 _ _ (k0_off32_eq cc) fd (owedL (List.drop 24 (paysL cc))) rfl _) $$ [HoY4 Hd HO Hts Htr]
  · isplitr; · iexact HIc64
    isplitr; · iexact HIr
    isplitl [HoY4]; · iexact HoY4
    isplitl [Hd]; · iexact Hd
    isplitl [HO]; · iexact HO
    isplitl [Hts]; · iexact Hts
    isplitr; · iexact HRs
    isplitl [Htr]; · iexact Htr
    iexact HRr
  iintro ⟨Hcys4, HO⟩
  iclear HIr HRs HRr
  sl_exec
  -- the z-neighbour's chunk 3 has landed
  icases Hcr with ⟨Hc, Hcr⟩
  icases HpR with ⟨Hp, HpR⟩
  icases HIw with ⟨#HIc55, HIw⟩
  ihave Hmw := (mayWait_list (F := F) cc (dsem (⟨55, by decide⟩ : Fin 140)) (List.drop 24 (paysL cc)) (by decide)) $$ Hlev
  iapply (wait_a5_at m cc _ 3 rfl) $$ [Hc HO Hmw Hp]
  · isplitr; · iexact HIc55
    isplitl [Hc]; · iexact Hc
    isplitl [HO]; · iexact HO
    isplitl [Hmw]; · iexact Hmw
    iexact Hp
  iintro ⟨HO, Hq55, -, Hz3⟩
  sl_exec
  -- the y-neighbour's chunk 3 has landed
  icases Hcr with ⟨Hc, Hcr⟩
  icases HpR with ⟨Hp, HpR⟩
  icases HIw with ⟨#HIc71, HIw⟩
  ihave Hmw := (mayWait_list (F := F) cc (dsem (⟨71, by decide⟩ : Fin 140)) (List.drop 24 (paysL cc)) (by decide)) $$ Hlev
  iapply (wait_a7_at m cc _ 3 rfl) $$ [Hc HO Hmw Hp]
  · isplitr; · iexact HIc71
    isplitl [Hc]; · iexact Hc
    isplitl [HO]; · iexact HO
    isplitl [Hmw]; · iexact Hmw
    iexact Hp
  iintro ⟨HO, Hq71, -, Hy3⟩
  -- chunk 3 of the two neighbours' quarters: half its ownership stays for the copy into the result, of the other half one column half travels on
  ihave Hz3 := (Entails.of_eq (share_FG_eq (F := F) (r4R (zqF cc) 3) cc (r4 m cc))) $$ Hz3
  icases Hz3 with ⟨HzF3, HzG3⟩
  ihave HzF3 := (Entails.of_eq (chunk_halves (F := F) cc (zqF cc) 3 shF (r4 m cc))) $$ HzF3
  icases HzF3 with ⟨HzFl3, HzFr3⟩
  ihave Hy3 := (Entails.of_eq (share_FG_eq (F := F) (r4R (yqF cc) 3) cc (r4 m cc))) $$ Hy3
  icases Hy3 with ⟨HyF3, HyG3⟩
  ihave HyF3 := (Entails.of_eq (chunk_halves (F := F) cc (yqF cc) 3 shF (r4 m cc))) $$ HyF3
  icases HyF3 with ⟨HyFl3, HyFr3⟩
  sl_exec
  -- the right half of the z-neighbour's chunk 3 on to the y-neighbour
  icases Htk with ⟨Hts, Htr, Htk⟩
  icases HIt with ⟨#HIc95, #HIr, HIt⟩
  icases HRt with ⟨#HRs, #HRr, HRt⟩
  icases HhYp with ⟨⟨%fd, Hd⟩, HhYp⟩
  iapply (send_yf_at m cc _ (dev25_eq cc) 3 (by decide) _ _ (k0_off33_eq cc) fd (owedL (List.drop 25 (paysL cc))) rfl _) $$ [HzFr3 Hd HO Hts Htr]
  · isplitr; · iexact HIc95
    isplitr; · iexact HIr
    isplitl [HzFr3]; · iexact HzFr3
    isplitl [Hd]; · iexact Hd
    isplitl [HO]; · iexact HO
    isplitl [Hts]; · iexact Hts
    isplitr; · iexact HRs
    isplitl [Htr]; · iexact Htr
    iexact HRr
  iintro ⟨Hcyfs3, HO⟩
  iclear HIr HRs HRr
  sl_exec
  -- the left half of the y-neighbour's chunk 3 on to the z-neighbour
  icases Htk with ⟨Hts, Htr, Htk⟩
  icases HIt with ⟨#HIc79, #HIr, HIt⟩
  icases HRt with ⟨#HRs, #HRr, HRt⟩
  icases HhZp with ⟨⟨%fd, Hd⟩, HhZp⟩
  iapply (send_zf_at m cc _ (dev26_eq cc) 3 (by decide) _ _ (k0_off34_eq cc) fd (owedL (List.drop 26 (paysL cc))) rfl _) $$ [HyFl3 Hd HO Hts Htr]
  · isplitr; · iexact HIc79
    isplitr; · iexact HIr
    isplitl [HyFl3]; · iexact HyFl3
    isplitl [Hd]; · iexact Hd
    isplitl [HO]; · iexact HO
    isplitl [Hts]; · iexact Hts
    isplitr; · iexact HRs
    isplitl [Htr]; · iexact Htr
    iexact HRr
  iintro ⟨Hczfs3, HO⟩
  iclear HIr HRs HRr
  sl_exec
  -- step 5 of the main loop: the x-neighbour's chunk 5 has landed
  icases Hcr with ⟨Hc, Hcr⟩
  icases HpR with ⟨Hp, HpR⟩
  icases HIw with ⟨#HIc35, HIw⟩
  ihave Hmw := (mayWait_list (F := F) cc (dsem (⟨35, by decide⟩ : Fin 140)) (List.drop 26 (paysL cc)) (by decide)) $$ Hlev
  iapply (wait_a1_at m cc _ 5 rfl) $$ [Hc HO Hmw Hp]
  · isplitr; · iexact HIc35
    isplitl [Hc]; · iexact Hc
    isplitl [HO]; · iexact HO
    isplitl [Hmw]; · iexact Hmw
    iexact Hp
  iintro ⟨HO, Hq35, -, Hrb5⟩
  icases Hown with ⟨Ho5, Hown⟩
  have hled26 : ∀ (s : DmaSem sig), lvJ s.val = 0 → ((levAts LL lvv : sProp 𝕄) ⊢ MayWait (cc : Thread nD τ) (.dma s) () (owedL (List.drop 26 (paysL cc)))) :=
    fun s hs => mayWait_local (F := F) cc s hs _ (by decide)
  sl_exec
  clear hled26
  ihave Ho5 := (congr (F := F) (r4R (mqF cc) 5) cc fullShare (dev.sl.Ho5_w1 m f0) (r4 m cc) (fun i hi => glue_own m cc 5 _ (k0_off12_inb cc) (k0_off12_eq cc) _ (k0_off35_inb cc) (k0_off35_eq cc) f0 i hi)) $$ Ho5
  ihave Ho5 := (Entails.of_eq (share_ZYK_eq (F := F) (r4R (mqF cc) 5) cc (r4 m cc))) $$ Ho5
  icases Ho5 with ⟨HoZ5, HoY5, HoK5⟩
  -- own chunk 5 to the z-neighbour
  icases Htk with ⟨Hts, Htr, Htk⟩
  icases HIt with ⟨#HIc49, #HIr, HIt⟩
  icases HRt with ⟨#HRs, #HRr, HRt⟩
  icases HqZ with ⟨⟨%fd, Hd⟩, HqZ⟩
  iapply (send_z_at m cc _ (dev27_eq cc) 5 _ _ (k0_off36_eq cc) fd (owedL (List.drop 27 (paysL cc))) rfl _) $$ [HoZ5 Hd HO Hts Htr]
  · isplitr; · iexact HIc49
    isplitr; · iexact HIr
    isplitl [HoZ5]; · iexact HoZ5
    isplitl [Hd]; · iexact Hd
    isplitl [HO]; · iexact HO
    isplitl [Hts]; · iexact Hts
    isplitr; · iexact HRs
    isplitl [Htr]; · iexact Htr
    iexact HRr
  iintro ⟨Hczs5, HO⟩
  iclear HIr HRs HRr
  sl_exec
  -- own chunk 5 to the y-neighbour
  icases Htk with ⟨Hts, Htr, Htk⟩
  icases HIt with ⟨#HIc65, #HIr, HIt⟩
  icases HRt with ⟨#HRs, #HRr, HRt⟩
  icases HqY with ⟨⟨%fd, Hd⟩, HqY⟩
  iapply (send_y_at m cc _ (dev28_eq cc) 5 _ _ (k0_off36_eq cc) fd (owedL (List.drop 28 (paysL cc))) rfl _) $$ [HoY5 Hd HO Hts Htr]
  · isplitr; · iexact HIc65
    isplitr; · iexact HIr
    isplitl [HoY5]; · iexact HoY5
    isplitl [Hd]; · iexact Hd
    isplitl [HO]; · iexact HO
    isplitl [Hts]; · iexact Hts
    isplitr; · iexact HRs
    isplitl [Htr]; · iexact Htr
    iexact HRr
  iintro ⟨Hcys5, HO⟩
  iclear HIr HRs HRr
  sl_exec
  -- the z-neighbour's chunk 4 has landed
  icases Hcr with ⟨Hc, Hcr⟩
  icases HpR with ⟨Hp, HpR⟩
  icases HIw with ⟨#HIc56, HIw⟩
  ihave Hmw := (mayWait_list (F := F) cc (dsem (⟨56, by decide⟩ : Fin 140)) (List.drop 28 (paysL cc)) (by decide)) $$ Hlev
  iapply (wait_a5_at m cc _ 4 rfl) $$ [Hc HO Hmw Hp]
  · isplitr; · iexact HIc56
    isplitl [Hc]; · iexact Hc
    isplitl [HO]; · iexact HO
    isplitl [Hmw]; · iexact Hmw
    iexact Hp
  iintro ⟨HO, Hq56, -, Hz4⟩
  sl_exec
  -- the y-neighbour's chunk 4 has landed
  icases Hcr with ⟨Hc, Hcr⟩
  icases HpR with ⟨Hp, HpR⟩
  icases HIw with ⟨#HIc72, HIw⟩
  ihave Hmw := (mayWait_list (F := F) cc (dsem (⟨72, by decide⟩ : Fin 140)) (List.drop 28 (paysL cc)) (by decide)) $$ Hlev
  iapply (wait_a7_at m cc _ 4 rfl) $$ [Hc HO Hmw Hp]
  · isplitr; · iexact HIc72
    isplitl [Hc]; · iexact Hc
    isplitl [HO]; · iexact HO
    isplitl [Hmw]; · iexact Hmw
    iexact Hp
  iintro ⟨HO, Hq72, -, Hy4⟩
  -- chunk 4 of the two neighbours' quarters: half its ownership stays for the copy into the result, of the other half one column half travels on
  ihave Hz4 := (Entails.of_eq (share_FG_eq (F := F) (r4R (zqF cc) 4) cc (r4 m cc))) $$ Hz4
  icases Hz4 with ⟨HzF4, HzG4⟩
  ihave HzF4 := (Entails.of_eq (chunk_halves (F := F) cc (zqF cc) 4 shF (r4 m cc))) $$ HzF4
  icases HzF4 with ⟨HzFl4, HzFr4⟩
  ihave Hy4 := (Entails.of_eq (share_FG_eq (F := F) (r4R (yqF cc) 4) cc (r4 m cc))) $$ Hy4
  icases Hy4 with ⟨HyF4, HyG4⟩
  ihave HyF4 := (Entails.of_eq (chunk_halves (F := F) cc (yqF cc) 4 shF (r4 m cc))) $$ HyF4
  icases HyF4 with ⟨HyFl4, HyFr4⟩
  sl_exec
  -- the right half of the z-neighbour's chunk 4 on to the y-neighbour
  icases Htk with ⟨Hts, Htr, Htk⟩
  icases HIt with ⟨#HIc96, #HIr, HIt⟩
  icases HRt with ⟨#HRs, #HRr, HRt⟩
  icases HhYp with ⟨⟨%fd, Hd⟩, HhYp⟩
  iapply (send_yf_at m cc _ (dev29_eq cc) 4 (by decide) _ _ (k0_off37_eq cc) fd (owedL (List.drop 29 (paysL cc))) rfl _) $$ [HzFr4 Hd HO Hts Htr]
  · isplitr; · iexact HIc96
    isplitr; · iexact HIr
    isplitl [HzFr4]; · iexact HzFr4
    isplitl [Hd]; · iexact Hd
    isplitl [HO]; · iexact HO
    isplitl [Hts]; · iexact Hts
    isplitr; · iexact HRs
    isplitl [Htr]; · iexact Htr
    iexact HRr
  iintro ⟨Hcyfs4, HO⟩
  iclear HIr HRs HRr
  sl_exec
  -- the left half of the y-neighbour's chunk 4 on to the z-neighbour
  icases Htk with ⟨Hts, Htr, Htk⟩
  icases HIt with ⟨#HIc80, #HIr, HIt⟩
  icases HRt with ⟨#HRs, #HRr, HRt⟩
  icases HhZp with ⟨⟨%fd, Hd⟩, HhZp⟩
  iapply (send_zf_at m cc _ (dev30_eq cc) 4 (by decide) _ _ (k0_off38_eq cc) fd (owedL (List.drop 30 (paysL cc))) rfl _) $$ [HyFl4 Hd HO Hts Htr]
  · isplitr; · iexact HIc80
    isplitr; · iexact HIr
    isplitl [HyFl4]; · iexact HyFl4
    isplitl [Hd]; · iexact Hd
    isplitl [HO]; · iexact HO
    isplitl [Hts]; · iexact Hts
    isplitr; · iexact HRs
    isplitl [Htr]; · iexact Htr
    iexact HRr
  iintro ⟨Hczfs4, HO⟩
  iclear HIr HRs HRr
  sl_exec
  -- the left half of chunk 3 of the diagonal quarter has landed
  icases Hcr with ⟨Hc, Hcr⟩
  icases HpR with ⟨Hp, HpR⟩
  icases HIw with ⟨#HIc87, HIw⟩
  ihave Hmw := (mayWait_list (F := F) cc (dsem (⟨87, by decide⟩ : Fin 140)) (List.drop 30 (paysL cc)) (by decide)) $$ Hlev
  iapply (wait_a9_at m cc _ 3 rfl (by decide)) $$ [Hc HO Hmw Hp]
  · isplitr; · iexact HIc87
    isplitl [Hc]; · iexact Hc
    isplitl [HO]; · iexact HO
    isplitl [Hmw]; · iexact Hmw
    iexact Hp
  iintro ⟨HO, Hq87, -, Hdl3⟩
  sl_exec
  -- its right half has landed
  icases Hcr with ⟨Hc, Hcr⟩
  icases HpR with ⟨Hp, HpR⟩
  icases HIw with ⟨#HIc103, HIw⟩
  ihave Hmw := (mayWait_list (F := F) cc (dsem (⟨103, by decide⟩ : Fin 140)) (List.drop 30 (paysL cc)) (by decide)) $$ Hlev
  iapply (wait_a11_at m cc _ 3 rfl (by decide)) $$ [Hc HO Hmw Hp]
  · isplitr; · iexact HIc103
    isplitl [Hc]; · iexact Hc
    isplitl [HO]; · iexact HO
    isplitl [Hmw]; · iexact Hmw
    iexact Hp
  iintro ⟨HO, Hq103, -, Hdr3⟩
  ihave Hd3 := (Entails.of_eq (chunk_halves (F := F) cc (dqF cc) 3 fullShare (r4 m cc)).symm) $$ [Hdl3 Hdr3]
  · isplitl [Hdl3]; · iexact Hdl3
    iexact Hdr3
  -- the four copies of chunk 3 into the result
  icases HvO with ⟨Hw3a, Hw3b, Hw3c, Hw3d, HvO⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  -- step 6 of the main loop: the x-neighbour's chunk 6 has landed
  icases Hcr with ⟨Hc, Hcr⟩
  icases HpR with ⟨Hp, HpR⟩
  icases HIw with ⟨#HIc36, HIw⟩
  ihave Hmw := (mayWait_list (F := F) cc (dsem (⟨36, by decide⟩ : Fin 140)) (List.drop 30 (paysL cc)) (by decide)) $$ Hlev
  iapply (wait_a1_at m cc _ 6 rfl) $$ [Hc HO Hmw Hp]
  · isplitr; · iexact HIc36
    isplitl [Hc]; · iexact Hc
    isplitl [HO]; · iexact HO
    isplitl [Hmw]; · iexact Hmw
    iexact Hp
  iintro ⟨HO, Hq36, -, Hrb6⟩
  icases Hown with ⟨Ho6, Hown⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  ihave Ho6 := (congr (F := F) (r4R (mqF cc) 6) cc fullShare (dev.sl.Ho6_w1 m f0) (r4 m cc) (fun i hi => glue_own m cc 6 _ (k0_off14_inb cc) (k0_off14_eq cc) _ (k0_off39_inb cc) (k0_off39_eq cc) f0 i hi)) $$ Ho6
  ihave Ho6 := (Entails.of_eq (share_ZYK_eq (F := F) (r4R (mqF cc) 6) cc (r4 m cc))) $$ Ho6
  icases Ho6 with ⟨HoZ6, HoY6, HoK6⟩
  -- own chunk 6 to the z-neighbour
  icases Htk with ⟨Hts, Htr, Htk⟩
  icases HIt with ⟨#HIc50, #HIr, HIt⟩
  icases HRt with ⟨#HRs, #HRr, HRt⟩
  icases HqZ with ⟨⟨%fd, Hd⟩, HqZ⟩
  iapply (send_z_at m cc _ (dev31_eq cc) 6 _ _ (k0_off40_eq cc) fd (owedL (List.drop 31 (paysL cc))) rfl _) $$ [HoZ6 Hd HO Hts Htr]
  · isplitr; · iexact HIc50
    isplitr; · iexact HIr
    isplitl [HoZ6]; · iexact HoZ6
    isplitl [Hd]; · iexact Hd
    isplitl [HO]; · iexact HO
    isplitl [Hts]; · iexact Hts
    isplitr; · iexact HRs
    isplitl [Htr]; · iexact Htr
    iexact HRr
  iintro ⟨Hczs6, HO⟩
  iclear HIr HRs HRr
  sl_exec
  -- own chunk 6 to the y-neighbour
  icases Htk with ⟨Hts, Htr, Htk⟩
  icases HIt with ⟨#HIc66, #HIr, HIt⟩
  icases HRt with ⟨#HRs, #HRr, HRt⟩
  icases HqY with ⟨⟨%fd, Hd⟩, HqY⟩
  iapply (send_y_at m cc _ (dev32_eq cc) 6 _ _ (k0_off40_eq cc) fd (owedL (List.drop 32 (paysL cc))) rfl _) $$ [HoY6 Hd HO Hts Htr]
  · isplitr; · iexact HIc66
    isplitr; · iexact HIr
    isplitl [HoY6]; · iexact HoY6
    isplitl [Hd]; · iexact Hd
    isplitl [HO]; · iexact HO
    isplitl [Hts]; · iexact Hts
    isplitr; · iexact HRs
    isplitl [Htr]; · iexact Htr
    iexact HRr
  iintro ⟨Hcys6, HO⟩
  iclear HIr HRs HRr
  sl_exec
  -- the z-neighbour's chunk 5 has landed
  icases Hcr with ⟨Hc, Hcr⟩
  icases HpR with ⟨Hp, HpR⟩
  icases HIw with ⟨#HIc57, HIw⟩
  ihave Hmw := (mayWait_list (F := F) cc (dsem (⟨57, by decide⟩ : Fin 140)) (List.drop 32 (paysL cc)) (by decide)) $$ Hlev
  iapply (wait_a5_at m cc _ 5 rfl) $$ [Hc HO Hmw Hp]
  · isplitr; · iexact HIc57
    isplitl [Hc]; · iexact Hc
    isplitl [HO]; · iexact HO
    isplitl [Hmw]; · iexact Hmw
    iexact Hp
  iintro ⟨HO, Hq57, -, Hz5⟩
  sl_exec
  -- the y-neighbour's chunk 5 has landed
  icases Hcr with ⟨Hc, Hcr⟩
  icases HpR with ⟨Hp, HpR⟩
  icases HIw with ⟨#HIc73, HIw⟩
  ihave Hmw := (mayWait_list (F := F) cc (dsem (⟨73, by decide⟩ : Fin 140)) (List.drop 32 (paysL cc)) (by decide)) $$ Hlev
  iapply (wait_a7_at m cc _ 5 rfl) $$ [Hc HO Hmw Hp]
  · isplitr; · iexact HIc73
    isplitl [Hc]; · iexact Hc
    isplitl [HO]; · iexact HO
    isplitl [Hmw]; · iexact Hmw
    iexact Hp
  iintro ⟨HO, Hq73, -, Hy5⟩
  -- chunk 5 of the two neighbours' quarters: half its ownership stays for the copy into the result, of the other half one column half travels on
  ihave Hz5 := (Entails.of_eq (share_FG_eq (F := F) (r4R (zqF cc) 5) cc (r4 m cc))) $$ Hz5
  icases Hz5 with ⟨HzF5, HzG5⟩
  ihave HzF5 := (Entails.of_eq (chunk_halves (F := F) cc (zqF cc) 5 shF (r4 m cc))) $$ HzF5
  icases HzF5 with ⟨HzFl5, HzFr5⟩
  ihave Hy5 := (Entails.of_eq (share_FG_eq (F := F) (r4R (yqF cc) 5) cc (r4 m cc))) $$ Hy5
  icases Hy5 with ⟨HyF5, HyG5⟩
  ihave HyF5 := (Entails.of_eq (chunk_halves (F := F) cc (yqF cc) 5 shF (r4 m cc))) $$ HyF5
  icases HyF5 with ⟨HyFl5, HyFr5⟩
  sl_exec
  -- the right half of the z-neighbour's chunk 5 on to the y-neighbour
  icases Htk with ⟨Hts, Htr, Htk⟩
  icases HIt with ⟨#HIc97, #HIr, HIt⟩
  icases HRt with ⟨#HRs, #HRr, HRt⟩
  icases HhYp with ⟨⟨%fd, Hd⟩, HhYp⟩
  iapply (send_yf_at m cc _ (dev33_eq cc) 5 (by decide) _ _ (k0_off41_eq cc) fd (owedL (List.drop 33 (paysL cc))) rfl _) $$ [HzFr5 Hd HO Hts Htr]
  · isplitr; · iexact HIc97
    isplitr; · iexact HIr
    isplitl [HzFr5]; · iexact HzFr5
    isplitl [Hd]; · iexact Hd
    isplitl [HO]; · iexact HO
    isplitl [Hts]; · iexact Hts
    isplitr; · iexact HRs
    isplitl [Htr]; · iexact Htr
    iexact HRr
  iintro ⟨Hcyfs5, HO⟩
  iclear HIr HRs HRr
  sl_exec
  -- the left half of the y-neighbour's chunk 5 on to the z-neighbour
  icases Htk with ⟨Hts, Htr, Htk⟩
  icases HIt with ⟨#HIc81, #HIr, HIt⟩
  icases HRt with ⟨#HRs, #HRr, HRt⟩
  icases HhZp with ⟨⟨%fd, Hd⟩, HhZp⟩
  iapply (send_zf_at m cc _ (dev34_eq cc) 5 (by decide) _ _ (k0_off42_eq cc) fd (owedL (List.drop 34 (paysL cc))) rfl _) $$ [HyFl5 Hd HO Hts Htr]
  · isplitr; · iexact HIc81
    isplitr; · iexact HIr
    isplitl [HyFl5]; · iexact HyFl5
    isplitl [Hd]; · iexact Hd
    isplitl [HO]; · iexact HO
    isplitl [Hts]; · iexact Hts
    isplitr; · iexact HRs
    isplitl [Htr]; · iexact Htr
    iexact HRr
  iintro ⟨Hczfs5, HO⟩
  iclear HIr HRs HRr
  sl_exec
  -- the left half of chunk 4 of the diagonal quarter has landed
  icases Hcr with ⟨Hc, Hcr⟩
  icases HpR with ⟨Hp, HpR⟩
  icases HIw with ⟨#HIc88, HIw⟩
  ihave Hmw := (mayWait_list (F := F) cc (dsem (⟨88, by decide⟩ : Fin 140)) (List.drop 34 (paysL cc)) (by decide)) $$ Hlev
  iapply (wait_a9_at m cc _ 4 rfl (by decide)) $$ [Hc HO Hmw Hp]
  · isplitr; · iexact HIc88
    isplitl [Hc]; · iexact Hc
    isplitl [HO]; · iexact HO
    isplitl [Hmw]; · iexact Hmw
    iexact Hp
  iintro ⟨HO, Hq88, -, Hdl4⟩
  sl_exec
  -- its right half has landed
  icases Hcr with ⟨Hc, Hcr⟩
  icases HpR with ⟨Hp, HpR⟩
  icases HIw with ⟨#HIc104, HIw⟩
  ihave Hmw := (mayWait_list (F := F) cc (dsem (⟨104, by decide⟩ : Fin 140)) (List.drop 34 (paysL cc)) (by decide)) $$ Hlev
  iapply (wait_a11_at m cc _ 4 rfl (by decide)) $$ [Hc HO Hmw Hp]
  · isplitr; · iexact HIc104
    isplitl [Hc]; · iexact Hc
    isplitl [HO]; · iexact HO
    isplitl [Hmw]; · iexact Hmw
    iexact Hp
  iintro ⟨HO, Hq104, -, Hdr4⟩
  ihave Hd4 := (Entails.of_eq (chunk_halves (F := F) cc (dqF cc) 4 fullShare (r4 m cc)).symm) $$ [Hdl4 Hdr4]
  · isplitl [Hdl4]; · iexact Hdl4
    iexact Hdr4
  -- the four copies of chunk 4 into the result
  icases HvO with ⟨Hw4a, Hw4b, Hw4c, Hw4d, HvO⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  -- step 7 of the main loop: the x-neighbour's chunk 7 has landed
  icases Hcr with ⟨Hc, Hcr⟩
  icases HpR with ⟨Hp, HpR⟩
  icases HIw with ⟨#HIc37, HIw⟩
  ihave Hmw := (mayWait_list (F := F) cc (dsem (⟨37, by decide⟩ : Fin 140)) (List.drop 34 (paysL cc)) (by decide)) $$ Hlev
  iapply (wait_a1_at m cc _ 7 rfl) $$ [Hc HO Hmw Hp]
  · isplitr; · iexact HIc37
    isplitl [Hc]; · iexact Hc
    isplitl [HO]; · iexact HO
    isplitl [Hmw]; · iexact Hmw
    iexact Hp
  iintro ⟨HO, Hq37, -, Hrb7⟩
  icases Hown with ⟨Ho7⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  ihave Ho7 := (congr (F := F) (r4R (mqF cc) 7) cc fullShare (dev.sl.Ho7_w1 m f0) (r4 m cc) (fun i hi => glue_own m cc 7 _ (k0_off16_inb cc) (k0_off16_eq cc) _ (k0_off43_inb cc) (k0_off43_eq cc) f0 i hi)) $$ Ho7
  ihave Ho7 := (Entails.of_eq (share_ZYK_eq (F := F) (r4R (mqF cc) 7) cc (r4 m cc))) $$ Ho7
  icases Ho7 with ⟨HoZ7, HoY7, HoK7⟩
  -- own chunk 7 to the z-neighbour
  icases Htk with ⟨Hts, Htr, Htk⟩
  icases HIt with ⟨#HIc51, #HIr, HIt⟩
  icases HRt with ⟨#HRs, #HRr, HRt⟩
  icases HqZ with ⟨%fd, Hd⟩
  iapply (send_z_at m cc _ (dev35_eq cc) 7 _ _ (k0_off44_eq cc) fd (owedL (List.drop 35 (paysL cc))) rfl _) $$ [HoZ7 Hd HO Hts Htr]
  · isplitr; · iexact HIc51
    isplitr; · iexact HIr
    isplitl [HoZ7]; · iexact HoZ7
    isplitl [Hd]; · iexact Hd
    isplitl [HO]; · iexact HO
    isplitl [Hts]; · iexact Hts
    isplitr; · iexact HRs
    isplitl [Htr]; · iexact Htr
    iexact HRr
  iintro ⟨Hczs7, HO⟩
  iclear HIr HRs HRr
  sl_exec
  -- own chunk 7 to the y-neighbour
  icases Htk with ⟨Hts, Htr, Htk⟩
  icases HIt with ⟨#HIc67, #HIr, HIt⟩
  icases HRt with ⟨#HRs, #HRr, HRt⟩
  icases HqY with ⟨%fd, Hd⟩
  iapply (send_y_at m cc _ (dev36_eq cc) 7 _ _ (k0_off44_eq cc) fd (owedL (List.drop 36 (paysL cc))) rfl _) $$ [HoY7 Hd HO Hts Htr]
  · isplitr; · iexact HIc67
    isplitr; · iexact HIr
    isplitl [HoY7]; · iexact HoY7
    isplitl [Hd]; · iexact Hd
    isplitl [HO]; · iexact HO
    isplitl [Hts]; · iexact Hts
    isplitr; · iexact HRs
    isplitl [Htr]; · iexact Htr
    iexact HRr
  iintro ⟨Hcys7, HO⟩
  iclear HIr HRs HRr
  sl_exec
  -- the z-neighbour's chunk 6 has landed
  icases Hcr with ⟨Hc, Hcr⟩
  icases HpR with ⟨Hp, HpR⟩
  icases HIw with ⟨#HIc58, HIw⟩
  ihave Hmw := (mayWait_list (F := F) cc (dsem (⟨58, by decide⟩ : Fin 140)) (List.drop 36 (paysL cc)) (by decide)) $$ Hlev
  iapply (wait_a5_at m cc _ 6 rfl) $$ [Hc HO Hmw Hp]
  · isplitr; · iexact HIc58
    isplitl [Hc]; · iexact Hc
    isplitl [HO]; · iexact HO
    isplitl [Hmw]; · iexact Hmw
    iexact Hp
  iintro ⟨HO, Hq58, -, Hz6⟩
  sl_exec
  -- the y-neighbour's chunk 6 has landed
  icases Hcr with ⟨Hc, Hcr⟩
  icases HpR with ⟨Hp, HpR⟩
  icases HIw with ⟨#HIc74, HIw⟩
  ihave Hmw := (mayWait_list (F := F) cc (dsem (⟨74, by decide⟩ : Fin 140)) (List.drop 36 (paysL cc)) (by decide)) $$ Hlev
  iapply (wait_a7_at m cc _ 6 rfl) $$ [Hc HO Hmw Hp]
  · isplitr; · iexact HIc74
    isplitl [Hc]; · iexact Hc
    isplitl [HO]; · iexact HO
    isplitl [Hmw]; · iexact Hmw
    iexact Hp
  iintro ⟨HO, Hq74, -, Hy6⟩
  -- chunk 6 of the two neighbours' quarters: half its ownership stays for the copy into the result, of the other half one column half travels on
  ihave Hz6 := (Entails.of_eq (share_FG_eq (F := F) (r4R (zqF cc) 6) cc (r4 m cc))) $$ Hz6
  icases Hz6 with ⟨HzF6, HzG6⟩
  ihave HzF6 := (Entails.of_eq (chunk_halves (F := F) cc (zqF cc) 6 shF (r4 m cc))) $$ HzF6
  icases HzF6 with ⟨HzFl6, HzFr6⟩
  ihave Hy6 := (Entails.of_eq (share_FG_eq (F := F) (r4R (yqF cc) 6) cc (r4 m cc))) $$ Hy6
  icases Hy6 with ⟨HyF6, HyG6⟩
  ihave HyF6 := (Entails.of_eq (chunk_halves (F := F) cc (yqF cc) 6 shF (r4 m cc))) $$ HyF6
  icases HyF6 with ⟨HyFl6, HyFr6⟩
  sl_exec
  -- the right half of the z-neighbour's chunk 6 on to the y-neighbour
  icases Htk with ⟨Hts, Htr, Htk⟩
  icases HIt with ⟨#HIc98, #HIr, HIt⟩
  icases HRt with ⟨#HRs, #HRr, HRt⟩
  icases HhYp with ⟨⟨%fd, Hd⟩, HhYp⟩
  iapply (send_yf_at m cc _ (dev37_eq cc) 6 (by decide) _ _ (k0_off45_eq cc) fd (owedL (List.drop 37 (paysL cc))) rfl _) $$ [HzFr6 Hd HO Hts Htr]
  · isplitr; · iexact HIc98
    isplitr; · iexact HIr
    isplitl [HzFr6]; · iexact HzFr6
    isplitl [Hd]; · iexact Hd
    isplitl [HO]; · iexact HO
    isplitl [Hts]; · iexact Hts
    isplitr; · iexact HRs
    isplitl [Htr]; · iexact Htr
    iexact HRr
  iintro ⟨Hcyfs6, HO⟩
  iclear HIr HRs HRr
  sl_exec
  -- the left half of the y-neighbour's chunk 6 on to the z-neighbour
  icases Htk with ⟨Hts, Htr, Htk⟩
  icases HIt with ⟨#HIc82, #HIr, HIt⟩
  icases HRt with ⟨#HRs, #HRr, HRt⟩
  icases HhZp with ⟨⟨%fd, Hd⟩, HhZp⟩
  iapply (send_zf_at m cc _ (dev38_eq cc) 6 (by decide) _ _ (k0_off46_eq cc) fd (owedL (List.drop 38 (paysL cc))) rfl _) $$ [HyFl6 Hd HO Hts Htr]
  · isplitr; · iexact HIc82
    isplitr; · iexact HIr
    isplitl [HyFl6]; · iexact HyFl6
    isplitl [Hd]; · iexact Hd
    isplitl [HO]; · iexact HO
    isplitl [Hts]; · iexact Hts
    isplitr; · iexact HRs
    isplitl [Htr]; · iexact Htr
    iexact HRr
  iintro ⟨Hczfs6, HO⟩
  iclear HIr HRs HRr
  sl_exec
  -- the left half of chunk 5 of the diagonal quarter has landed
  icases Hcr with ⟨Hc, Hcr⟩
  icases HpR with ⟨Hp, HpR⟩
  icases HIw with ⟨#HIc89, HIw⟩
  ihave Hmw := (mayWait_list (F := F) cc (dsem (⟨89, by decide⟩ : Fin 140)) (List.drop 38 (paysL cc)) (by decide)) $$ Hlev
  iapply (wait_a9_at m cc _ 5 rfl (by decide)) $$ [Hc HO Hmw Hp]
  · isplitr; · iexact HIc89
    isplitl [Hc]; · iexact Hc
    isplitl [HO]; · iexact HO
    isplitl [Hmw]; · iexact Hmw
    iexact Hp
  iintro ⟨HO, Hq89, -, Hdl5⟩
  sl_exec
  -- its right half has landed
  icases Hcr with ⟨Hc, Hcr⟩
  icases HpR with ⟨Hp, HpR⟩
  icases HIw with ⟨#HIc105, HIw⟩
  ihave Hmw := (mayWait_list (F := F) cc (dsem (⟨105, by decide⟩ : Fin 140)) (List.drop 38 (paysL cc)) (by decide)) $$ Hlev
  iapply (wait_a11_at m cc _ 5 rfl (by decide)) $$ [Hc HO Hmw Hp]
  · isplitr; · iexact HIc105
    isplitl [Hc]; · iexact Hc
    isplitl [HO]; · iexact HO
    isplitl [Hmw]; · iexact Hmw
    iexact Hp
  iintro ⟨HO, Hq105, -, Hdr5⟩
  ihave Hd5 := (Entails.of_eq (chunk_halves (F := F) cc (dqF cc) 5 fullShare (r4 m cc)).symm) $$ [Hdl5 Hdr5]
  · isplitl [Hdl5]; · iexact Hdl5
    iexact Hdr5
  -- the four copies of chunk 5 into the result
  icases HvO with ⟨Hw5a, Hw5b, Hw5c, Hw5d, HvO⟩
  have hled38 : ∀ (s : DmaSem sig), lvJ s.val = 0 → ((levAts LL lvv : sProp 𝕄) ⊢ MayWait (cc : Thread nD τ) (.dma s) () (owedL (List.drop 38 (paysL cc)))) :=
    fun s hs => mayWait_local (F := F) cc s hs _ (by decide)
  sl_exec
  clear hled38
  -- after the loop: the z-neighbour's last chunk has landed
  icases Hcr with ⟨Hc, Hcr⟩
  icases HpR with ⟨Hp, HpR⟩
  icases HIw with ⟨#HIc59, HIw⟩
  ihave Hmw := (mayWait_list (F := F) cc (dsem (⟨59, by decide⟩ : Fin 140)) (List.drop 38 (paysL cc)) (by decide)) $$ Hlev
  iapply (wait_a5_at m cc _ 7 rfl) $$ [Hc HO Hmw Hp]
  · isplitr; · iexact HIc59
    isplitl [Hc]; · iexact Hc
    isplitl [HO]; · iexact HO
    isplitl [Hmw]; · iexact Hmw
    iexact Hp
  iintro ⟨HO, Hq59, -, Hz7⟩
  sl_exec
  -- the y-neighbour's last chunk has landed
  icases Hcr with ⟨Hc, Hcr⟩
  icases HpR with ⟨Hp, HpR⟩
  icases HIw with ⟨#HIc75, HIw⟩
  ihave Hmw := (mayWait_list (F := F) cc (dsem (⟨75, by decide⟩ : Fin 140)) (List.drop 38 (paysL cc)) (by decide)) $$ Hlev
  iapply (wait_a7_at m cc _ 7 rfl) $$ [Hc HO Hmw Hp]
  · isplitr; · iexact HIc75
    isplitl [Hc]; · iexact Hc
    isplitl [HO]; · iexact HO
    isplitl [Hmw]; · iexact Hmw
    iexact Hp
  iintro ⟨HO, Hq75, -, Hy7⟩
  -- chunk 7 of the two neighbours' quarters: half its ownership stays for the copy into the result, of the other half one column half travels on
  ihave Hz7 := (Entails.of_eq (share_FG_eq (F := F) (r4R (zqF cc) 7) cc (r4 m cc))) $$ Hz7
  icases Hz7 with ⟨HzF7, HzG7⟩
  ihave HzF7 := (Entails.of_eq (chunk_halves (F := F) cc (zqF cc) 7 shF (r4 m cc))) $$ HzF7
  icases HzF7 with ⟨HzFl7, HzFr7⟩
  ihave Hy7 := (Entails.of_eq (share_FG_eq (F := F) (r4R (yqF cc) 7) cc (r4 m cc))) $$ Hy7
  icases Hy7 with ⟨HyF7, HyG7⟩
  ihave HyF7 := (Entails.of_eq (chunk_halves (F := F) cc (yqF cc) 7 shF (r4 m cc))) $$ HyF7
  icases HyF7 with ⟨HyFl7, HyFr7⟩
  sl_exec
  -- the right half of the z-neighbour's last chunk on to the y-neighbour
  icases Htk with ⟨Hts, Htr, Htk⟩
  icases HIt with ⟨#HIc99, #HIr, HIt⟩
  icases HRt with ⟨#HRs, #HRr, HRt⟩
  icases HhYp with ⟨%fd, Hd⟩
  iapply (send_yf_at m cc _ (dev39_eq cc) 7 (by decide) _ _ (k0_off47_eq cc) fd (owedL (List.drop 39 (paysL cc))) rfl _) $$ [HzFr7 Hd HO Hts Htr]
  · isplitr; · iexact HIc99
    isplitr; · iexact HIr
    isplitl [HzFr7]; · iexact HzFr7
    isplitl [Hd]; · iexact Hd
    isplitl [HO]; · iexact HO
    isplitl [Hts]; · iexact Hts
    isplitr; · iexact HRs
    isplitl [Htr]; · iexact Htr
    iexact HRr
  iintro ⟨Hcyfs7, HO⟩
  iclear HIr HRs HRr
  sl_exec
  -- the left half of the y-neighbour's last chunk on to the z-neighbour
  icases Htk with ⟨Hts, Htr⟩
  icases HIt with ⟨#HIc83, #HIr⟩
  icases HRt with ⟨#HRs, #HRr⟩
  icases HhZp with ⟨%fd, Hd⟩
  iapply (send_zf_at m cc _ (dev40_eq cc) 7 (by decide) _ _ (k0_off48_eq cc) fd (owedL (List.drop 40 (paysL cc))) rfl _) $$ [HyFl7 Hd HO Hts Htr]
  · isplitr; · iexact HIc83
    isplitr; · iexact HIr
    isplitl [HyFl7]; · iexact HyFl7
    isplitl [Hd]; · iexact Hd
    isplitl [HO]; · iexact HO
    isplitl [Hts]; · iexact Hts
    isplitr; · iexact HRs
    isplitl [Htr]; · iexact Htr
    iexact HRr
  iintro ⟨Hczfs7, HO⟩
  iclear HIr HRs HRr
  sl_exec
  -- chunk 0 of the diagonal quarter: the x-neighbour's chunk has landed
  icases Hcr with ⟨Hc, Hcr⟩
  icases HpR with ⟨Hp, HpR⟩
  icases HIw with ⟨#HIc41, HIw⟩
  ihave Hmw := (mayWait_list (F := F) cc (dsem (⟨41, by decide⟩ : Fin 140)) (List.drop 40 (paysL cc)) (by decide)) $$ Hlev
  iapply (wait_a3_at m cc _ 0 rfl) $$ [Hc HO Hmw Hp]
  · isplitr; · iexact HIc41
    isplitl [Hc]; · iexact Hc
    isplitl [HO]; · iexact HO
    isplitl [Hmw]; · iexact Hmw
    iexact Hp
  iintro ⟨HO, Hq41, -, Hrb20⟩
  icases Hdg with ⟨Hdq0, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq0 := (congr (F := F) (r4R (dqF cc) 0) cc fullShare (dev.sl.Hdq0_w1 m f0) (r4 m cc) (fun i hi => glue_dgn m cc 0 0 rfl _ (k0_off18_inb cc) (k0_off18_eq cc) _ (k0_off49_inb cc) (k0_off49_eq cc) f0 i hi)) $$ Hdq0
  -- the four copies of chunk 0 into the result
  icases HvO with ⟨Hw0a, Hw0b, Hw0c, Hw0d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 1 of the diagonal quarter: the x-neighbour's chunk has landed
  icases Hcr with ⟨Hc, Hcr⟩
  icases HpR with ⟨Hp, HpR⟩
  icases HIw with ⟨#HIc42, HIw⟩
  ihave Hmw := (mayWait_list (F := F) cc (dsem (⟨42, by decide⟩ : Fin 140)) (List.drop 40 (paysL cc)) (by decide)) $$ Hlev
  iapply (wait_a3_at m cc _ 1 rfl) $$ [Hc HO Hmw Hp]
  · isplitr; · iexact HIc42
    isplitl [Hc]; · iexact Hc
    isplitl [HO]; · iexact HO
    isplitl [Hmw]; · iexact Hmw
    iexact Hp
  iintro ⟨HO, Hq42, -, Hrb21⟩
  icases Hdg with ⟨Hdq1, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq1 := (congr (F := F) (r4R (dqF cc) 1) cc fullShare (dev.sl.Hdq1_w1 m f0) (r4 m cc) (fun i hi => glue_dgn m cc 1 1 rfl _ (k0_off20_inb cc) (k0_off20_eq cc) _ (k0_off50_inb cc) (k0_off50_eq cc) f0 i hi)) $$ Hdq1
  -- the four copies of chunk 1 into the result
  icases HvO with ⟨Hw1a, Hw1b, Hw1c, Hw1d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 2 of the diagonal quarter: the x-neighbour's chunk has landed
  icases Hcr with ⟨Hc, Hcr⟩
  icases HpR with ⟨Hp, HpR⟩
  icases HIw with ⟨#HIc43, HIw⟩
  ihave Hmw := (mayWait_list (F := F) cc (dsem (⟨43, by decide⟩ : Fin 140)) (List.drop 40 (paysL cc)) (by decide)) $$ Hlev
  iapply (wait_a3_at m cc _ 2 rfl) $$ [Hc HO Hmw Hp]
  · isplitr; · iexact HIc43
    isplitl [Hc]; · iexact Hc
    isplitl [HO]; · iexact HO
    isplitl [Hmw]; · iexact Hmw
    iexact Hp
  iintro ⟨HO, Hq43, -, Hrb22⟩
  icases Hdg with ⟨Hdq2⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq2 := (congr (F := F) (r4R (dqF cc) 2) cc fullShare (dev.sl.Hdq2_w1 m f0) (r4 m cc) (fun i hi => glue_dgn m cc 2 2 rfl _ (k0_off22_inb cc) (k0_off22_eq cc) _ (k0_off51_inb cc) (k0_off51_eq cc) f0 i hi)) $$ Hdq2
  -- the four copies of chunk 2 into the result
  icases HvO with ⟨Hw2a, Hw2b, Hw2c, Hw2d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 6 of the diagonal quarter has landed
  icases Hcr with ⟨Hc, Hcr⟩
  icases HpR with ⟨Hp, HpR⟩
  icases HIw with ⟨#HIc90, HIw⟩
  ihave Hmw := (mayWait_list (F := F) cc (dsem (⟨90, by decide⟩ : Fin 140)) (List.drop 40 (paysL cc)) (by decide)) $$ Hlev
  iapply (wait_a9_at m cc _ 6 rfl (by decide)) $$ [Hc HO Hmw Hp]
  · isplitr; · iexact HIc90
    isplitl [Hc]; · iexact Hc
    isplitl [HO]; · iexact HO
    isplitl [Hmw]; · iexact Hmw
    iexact Hp
  iintro ⟨HO, Hq90, -, Hdl6⟩
  sl_exec
  -- its right half has landed
  icases Hcr with ⟨Hc, Hcr⟩
  icases HpR with ⟨Hp, HpR⟩
  icases HIw with ⟨#HIc106, HIw⟩
  ihave Hmw := (mayWait_list (F := F) cc (dsem (⟨106, by decide⟩ : Fin 140)) (List.drop 40 (paysL cc)) (by decide)) $$ Hlev
  iapply (wait_a11_at m cc _ 6 rfl (by decide)) $$ [Hc HO Hmw Hp]
  · isplitr; · iexact HIc106
    isplitl [Hc]; · iexact Hc
    isplitl [HO]; · iexact HO
    isplitl [Hmw]; · iexact Hmw
    iexact Hp
  iintro ⟨HO, Hq106, -, Hdr6⟩
  ihave Hd6 := (Entails.of_eq (chunk_halves (F := F) cc (dqF cc) 6 fullShare (r4 m cc)).symm) $$ [Hdl6 Hdr6]
  · isplitl [Hdl6]; · iexact Hdl6
    iexact Hdr6
  -- the four copies of chunk 6 into the result
  icases HvO with ⟨Hw6a, Hw6b, Hw6c, Hw6d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 7 of the diagonal quarter has landed
  icases Hcr with ⟨Hc, Hcr⟩
  icases HpR with ⟨Hp, HpR⟩
  icases HIw with ⟨#HIc91, HIw⟩
  ihave Hcr := ((sep_emp (PROP := sProp 𝕄)).2) $$ Hcr
  ihave Hmw := (mayWait_list (F := F) cc (dsem (⟨91, by decide⟩ : Fin 140)) (List.drop 40 (paysL cc)) (by decide)) $$ Hlev
  iapply (wait_a9_at m cc _ 7 rfl (by decide)) $$ [Hc HO Hmw Hp]
  · isplitr; · iexact HIc91
    isplitl [Hc]; · iexact Hc
    isplitl [HO]; · iexact HO
    isplitl [Hmw]; · iexact Hmw
    iexact Hp
  iintro ⟨HO, Hq91, -, Hdl7⟩
  sl_exec
  -- its right half has landed
  icases HIw with #HIc107
  icases Hcr with ⟨Hcr, -⟩
  ihave Hmw := (mayWait_list (F := F) cc (dsem (⟨107, by decide⟩ : Fin 140)) (List.drop 40 (paysL cc)) (by decide)) $$ Hlev
  iapply (wait_a11_at m cc _ 7 rfl (by decide)) $$ [Hcr HO Hmw HpR]
  · isplitr; · iexact HIc107
    isplitl [Hcr]; · iexact Hcr
    isplitl [HO]; · iexact HO
    isplitl [Hmw]; · iexact Hmw
    iexact HpR
  iintro ⟨HO, Hq107, -, Hdr7⟩
  ihave Hd7 := (Entails.of_eq (chunk_halves (F := F) cc (dqF cc) 7 fullShare (r4 m cc)).symm) $$ [Hdl7 Hdr7]
  · isplitl [Hdl7]; · iexact Hdl7
    iexact Hdr7
  -- the four copies of chunk 7 into the result
  icases HvO with ⟨Hw7a, Hw7b, Hw7c, Hw7d⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- nothing is owed any more: the level fact for the remaining local waits, once
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  -- the departure of chunk 0 across x
  icases HpS with ⟨Hp, HpS⟩
  ihave Hmw := (mayWait_list (F := F) cc (dsem (⟨22, by decide⟩ : Fin 140)) (List.drop 40 (paysL cc)) (by decide)) $$ Hlev
  iapply (wait_a0_at m cc _ 0 rfl) $$ [Hcxs0 HO Hmw Hp]
  · isplitr; · iexact HIc22
    isplitl [Hcxs0]; · iexact Hcxs0
    isplitl [HO]; · iexact HO
    isplitl [Hmw]; · iexact Hmw
    iexact Hp
  iintro ⟨HO, Hq22, -, HBs0⟩
  sl_exec
  -- of own chunk 0 to z
  icases HpS with ⟨Hp, HpS⟩
  ihave Hmw := (mayWait_list (F := F) cc (dsem (⟨44, by decide⟩ : Fin 140)) (List.drop 40 (paysL cc)) (by decide)) $$ Hlev
  iapply (wait_a4_at m cc _ 0 rfl) $$ [Hczs0 HO Hmw Hp]
  · isplitr; · iexact HIc44
    isplitl [Hczs0]; · iexact Hczs0
    isplitl [HO]; · iexact HO
    isplitl [Hmw]; · iexact Hmw
    iexact Hp
  iintro ⟨HO, Hq44, -, HoZb0⟩
  sl_exec
  -- of own chunk 0 to y
  icases HpS with ⟨Hp, HpS⟩
  ihave Hmw := (mayWait_list (F := F) cc (dsem (⟨60, by decide⟩ : Fin 140)) (List.drop 40 (paysL cc)) (by decide)) $$ Hlev
  iapply (wait_a6_at m cc _ 0 rfl) $$ [Hcys0 HO Hmw Hp]
  · isplitr; · iexact HIc60
    isplitl [Hcys0]; · iexact Hcys0
    isplitl [HO]; · iexact HO
    isplitl [Hmw]; · iexact Hmw
    iexact Hp
  iintro ⟨HO, Hq60, -, HoYb0⟩
  sl_exec
  -- the departure of chunk 1 across x
  icases HpS with ⟨Hp, HpS⟩
  ihave Hmw := (mayWait_list (F := F) cc (dsem (⟨23, by decide⟩ : Fin 140)) (List.drop 40 (paysL cc)) (by decide)) $$ Hlev
  iapply (wait_a0_at m cc _ 1 rfl) $$ [Hcxs1 HO Hmw Hp]
  · isplitr; · iexact HIc23
    isplitl [Hcxs1]; · iexact Hcxs1
    isplitl [HO]; · iexact HO
    isplitl [Hmw]; · iexact Hmw
    iexact Hp
  iintro ⟨HO, Hq23, -, HBs1⟩
  sl_exec
  -- of own chunk 1 to z
  icases HpS with ⟨Hp, HpS⟩
  ihave Hmw := (mayWait_list (F := F) cc (dsem (⟨45, by decide⟩ : Fin 140)) (List.drop 40 (paysL cc)) (by decide)) $$ Hlev
  iapply (wait_a4_at m cc _ 1 rfl) $$ [Hczs1 HO Hmw Hp]
  · isplitr; · iexact HIc45
    isplitl [Hczs1]; · iexact Hczs1
    isplitl [HO]; · iexact HO
    isplitl [Hmw]; · iexact Hmw
    iexact Hp
  iintro ⟨HO, Hq45, -, HoZb1⟩
  sl_exec
  -- of own chunk 1 to y
  icases HpS with ⟨Hp, HpS⟩
  ihave Hmw := (mayWait_list (F := F) cc (dsem (⟨61, by decide⟩ : Fin 140)) (List.drop 40 (paysL cc)) (by decide)) $$ Hlev
  iapply (wait_a6_at m cc _ 1 rfl) $$ [Hcys1 HO Hmw Hp]
  · isplitr; · iexact HIc61
    isplitl [Hcys1]; · iexact Hcys1
    isplitl [HO]; · iexact HO
    isplitl [Hmw]; · iexact Hmw
    iexact Hp
  iintro ⟨HO, Hq61, -, HoYb1⟩
  sl_exec
  -- the departure of chunk 2 across x
  icases HpS with ⟨Hp, HpS⟩
  ihave Hmw := (mayWait_list (F := F) cc (dsem (⟨24, by decide⟩ : Fin 140)) (List.drop 40 (paysL cc)) (by decide)) $$ Hlev
  iapply (wait_a0_at m cc _ 2 rfl) $$ [Hcxs2 HO Hmw Hp]
  · isplitr; · iexact HIc24
    isplitl [Hcxs2]; · iexact Hcxs2
    isplitl [HO]; · iexact HO
    isplitl [Hmw]; · iexact Hmw
    iexact Hp
  iintro ⟨HO, Hq24, -, HBs2⟩
  sl_exec
  -- of own chunk 2 to z
  icases HpS with ⟨Hp, HpS⟩
  ihave Hmw := (mayWait_list (F := F) cc (dsem (⟨46, by decide⟩ : Fin 140)) (List.drop 40 (paysL cc)) (by decide)) $$ Hlev
  iapply (wait_a4_at m cc _ 2 rfl) $$ [Hczs2 HO Hmw Hp]
  · isplitr; · iexact HIc46
    isplitl [Hczs2]; · iexact Hczs2
    isplitl [HO]; · iexact HO
    isplitl [Hmw]; · iexact Hmw
    iexact Hp
  iintro ⟨HO, Hq46, -, HoZb2⟩
  sl_exec
  -- of own chunk 2 to y
  icases HpS with ⟨Hp, HpS⟩
  ihave Hmw := (mayWait_list (F := F) cc (dsem (⟨62, by decide⟩ : Fin 140)) (List.drop 40 (paysL cc)) (by decide)) $$ Hlev
  iapply (wait_a6_at m cc _ 2 rfl) $$ [Hcys2 HO Hmw Hp]
  · isplitr; · iexact HIc62
    isplitl [Hcys2]; · iexact Hcys2
    isplitl [HO]; · iexact HO
    isplitl [Hmw]; · iexact Hmw
    iexact Hp
  iintro ⟨HO, Hq62, -, HoYb2⟩
  sl_exec
  -- the departure of chunk 3 across x
  icases HpS with ⟨Hp, HpS⟩
  ihave Hmw := (mayWait_list (F := F) cc (dsem (⟨25, by decide⟩ : Fin 140)) (List.drop 40 (paysL cc)) (by decide)) $$ Hlev
  iapply (wait_a0_at m cc _ 3 rfl) $$ [Hcxs3 HO Hmw Hp]
  · isplitr; · iexact HIc25
    isplitl [Hcxs3]; · iexact Hcxs3
    isplitl [HO]; · iexact HO
    isplitl [Hmw]; · iexact Hmw
    iexact Hp
  iintro ⟨HO, Hq25, -, HBs3⟩
  sl_exec
  -- of own chunk 3 to z
  icases HpS with ⟨Hp, HpS⟩
  ihave Hmw := (mayWait_list (F := F) cc (dsem (⟨47, by decide⟩ : Fin 140)) (List.drop 40 (paysL cc)) (by decide)) $$ Hlev
  iapply (wait_a4_at m cc _ 3 rfl) $$ [Hczs3 HO Hmw Hp]
  · isplitr; · iexact HIc47
    isplitl [Hczs3]; · iexact Hczs3
    isplitl [HO]; · iexact HO
    isplitl [Hmw]; · iexact Hmw
    iexact Hp
  iintro ⟨HO, Hq47, -, HoZb3⟩
  sl_exec
  -- of own chunk 3 to y
  icases HpS with ⟨Hp, HpS⟩
  ihave Hmw := (mayWait_list (F := F) cc (dsem (⟨63, by decide⟩ : Fin 140)) (List.drop 40 (paysL cc)) (by decide)) $$ Hlev
  iapply (wait_a6_at m cc _ 3 rfl) $$ [Hcys3 HO Hmw Hp]
  · isplitr; · iexact HIc63
    isplitl [Hcys3]; · iexact Hcys3
    isplitl [HO]; · iexact HO
    isplitl [Hmw]; · iexact Hmw
    iexact Hp
  iintro ⟨HO, Hq63, -, HoYb3⟩
  sl_exec
  -- of the forwarded half to z
  icases HpS with ⟨Hp, HpS⟩
  ihave Hmw := (mayWait_list (F := F) cc (dsem (⟨79, by decide⟩ : Fin 140)) (List.drop 40 (paysL cc)) (by decide)) $$ Hlev
  iapply (wait_a8_at m cc _ 3 rfl (by decide)) $$ [Hczfs3 HO Hmw Hp]
  · isplitr; · iexact HIc79
    isplitl [Hczfs3]; · iexact Hczfs3
    isplitl [HO]; · iexact HO
    isplitl [Hmw]; · iexact Hmw
    iexact Hp
  iintro ⟨HO, Hq79, -, HyFlb3⟩
  sl_exec
  -- of the forwarded half to y
  icases HpS with ⟨Hp, HpS⟩
  ihave Hmw := (mayWait_list (F := F) cc (dsem (⟨95, by decide⟩ : Fin 140)) (List.drop 40 (paysL cc)) (by decide)) $$ Hlev
  iapply (wait_a10_at m cc _ 3 rfl (by decide)) $$ [Hcyfs3 HO Hmw Hp]
  · isplitr; · iexact HIc95
    isplitl [Hcyfs3]; · iexact Hcyfs3
    isplitl [HO]; · iexact HO
    isplitl [Hmw]; · iexact Hmw
    iexact Hp
  iintro ⟨HO, Hq95, -, HzFrb3⟩
  sl_exec
  -- the departure of chunk 4 across x
  icases HpS with ⟨Hp, HpS⟩
  ihave Hmw := (mayWait_list (F := F) cc (dsem (⟨26, by decide⟩ : Fin 140)) (List.drop 40 (paysL cc)) (by decide)) $$ Hlev
  iapply (wait_a0_at m cc _ 4 rfl) $$ [Hcxs4 HO Hmw Hp]
  · isplitr; · iexact HIc26
    isplitl [Hcxs4]; · iexact Hcxs4
    isplitl [HO]; · iexact HO
    isplitl [Hmw]; · iexact Hmw
    iexact Hp
  iintro ⟨HO, Hq26, -, HBs4⟩
  sl_exec
  -- of own chunk 4 to z
  icases HpS with ⟨Hp, HpS⟩
  ihave Hmw := (mayWait_list (F := F) cc (dsem (⟨48, by decide⟩ : Fin 140)) (List.drop 40 (paysL cc)) (by decide)) $$ Hlev
  iapply (wait_a4_at m cc _ 4 rfl) $$ [Hczs4 HO Hmw Hp]
  · isplitr; · iexact HIc48
    isplitl [Hczs4]; · iexact Hczs4
    isplitl [HO]; · iexact HO
    isplitl [Hmw]; · iexact Hmw
    iexact Hp
  iintro ⟨HO, Hq48, -, HoZb4⟩
  sl_exec
  -- of own chunk 4 to y
  icases HpS with ⟨Hp, HpS⟩
  ihave Hmw := (mayWait_list (F := F) cc (dsem (⟨64, by decide⟩ : Fin 140)) (List.drop 40 (paysL cc)) (by decide)) $$ Hlev
  iapply (wait_a6_at m cc _ 4 rfl) $$ [Hcys4 HO Hmw Hp]
  · isplitr; · iexact HIc64
    isplitl [Hcys4]; · iexact Hcys4
    isplitl [HO]; · iexact HO
    isplitl [Hmw]; · iexact Hmw
    iexact Hp
  iintro ⟨HO, Hq64, -, HoYb4⟩
  sl_exec
  -- of the forwarded half to z
  icases HpS with ⟨Hp, HpS⟩
  ihave Hmw := (mayWait_list (F := F) cc (dsem (⟨80, by decide⟩ : Fin 140)) (List.drop 40 (paysL cc)) (by decide)) $$ Hlev
  iapply (wait_a8_at m cc _ 4 rfl (by decide)) $$ [Hczfs4 HO Hmw Hp]
  · isplitr; · iexact HIc80
    isplitl [Hczfs4]; · iexact Hczfs4
    isplitl [HO]; · iexact HO
    isplitl [Hmw]; · iexact Hmw
    iexact Hp
  iintro ⟨HO, Hq80, -, HyFlb4⟩
  sl_exec
  -- of the forwarded half to y
  icases HpS with ⟨Hp, HpS⟩
  ihave Hmw := (mayWait_list (F := F) cc (dsem (⟨96, by decide⟩ : Fin 140)) (List.drop 40 (paysL cc)) (by decide)) $$ Hlev
  iapply (wait_a10_at m cc _ 4 rfl (by decide)) $$ [Hcyfs4 HO Hmw Hp]
  · isplitr; · iexact HIc96
    isplitl [Hcyfs4]; · iexact Hcyfs4
    isplitl [HO]; · iexact HO
    isplitl [Hmw]; · iexact Hmw
    iexact Hp
  iintro ⟨HO, Hq96, -, HzFrb4⟩
  sl_exec
  -- the departure of chunk 5 across x
  icases HpS with ⟨Hp, HpS⟩
  ihave Hmw := (mayWait_list (F := F) cc (dsem (⟨27, by decide⟩ : Fin 140)) (List.drop 40 (paysL cc)) (by decide)) $$ Hlev
  iapply (wait_a0_at m cc _ 5 rfl) $$ [Hcxs5 HO Hmw Hp]
  · isplitr; · iexact HIc27
    isplitl [Hcxs5]; · iexact Hcxs5
    isplitl [HO]; · iexact HO
    isplitl [Hmw]; · iexact Hmw
    iexact Hp
  iintro ⟨HO, Hq27, -, HBs5⟩
  sl_exec
  -- of own chunk 5 to z
  icases HpS with ⟨Hp, HpS⟩
  ihave Hmw := (mayWait_list (F := F) cc (dsem (⟨49, by decide⟩ : Fin 140)) (List.drop 40 (paysL cc)) (by decide)) $$ Hlev
  iapply (wait_a4_at m cc _ 5 rfl) $$ [Hczs5 HO Hmw Hp]
  · isplitr; · iexact HIc49
    isplitl [Hczs5]; · iexact Hczs5
    isplitl [HO]; · iexact HO
    isplitl [Hmw]; · iexact Hmw
    iexact Hp
  iintro ⟨HO, Hq49, -, HoZb5⟩
  sl_exec
  -- of own chunk 5 to y
  icases HpS with ⟨Hp, HpS⟩
  ihave Hmw := (mayWait_list (F := F) cc (dsem (⟨65, by decide⟩ : Fin 140)) (List.drop 40 (paysL cc)) (by decide)) $$ Hlev
  iapply (wait_a6_at m cc _ 5 rfl) $$ [Hcys5 HO Hmw Hp]
  · isplitr; · iexact HIc65
    isplitl [Hcys5]; · iexact Hcys5
    isplitl [HO]; · iexact HO
    isplitl [Hmw]; · iexact Hmw
    iexact Hp
  iintro ⟨HO, Hq65, -, HoYb5⟩
  sl_exec
  -- of the forwarded half to z
  icases HpS with ⟨Hp, HpS⟩
  ihave Hmw := (mayWait_list (F := F) cc (dsem (⟨81, by decide⟩ : Fin 140)) (List.drop 40 (paysL cc)) (by decide)) $$ Hlev
  iapply (wait_a8_at m cc _ 5 rfl (by decide)) $$ [Hczfs5 HO Hmw Hp]
  · isplitr; · iexact HIc81
    isplitl [Hczfs5]; · iexact Hczfs5
    isplitl [HO]; · iexact HO
    isplitl [Hmw]; · iexact Hmw
    iexact Hp
  iintro ⟨HO, Hq81, -, HyFlb5⟩
  sl_exec
  -- of the forwarded half to y
  icases HpS with ⟨Hp, HpS⟩
  ihave Hmw := (mayWait_list (F := F) cc (dsem (⟨97, by decide⟩ : Fin 140)) (List.drop 40 (paysL cc)) (by decide)) $$ Hlev
  iapply (wait_a10_at m cc _ 5 rfl (by decide)) $$ [Hcyfs5 HO Hmw Hp]
  · isplitr; · iexact HIc97
    isplitl [Hcyfs5]; · iexact Hcyfs5
    isplitl [HO]; · iexact HO
    isplitl [Hmw]; · iexact Hmw
    iexact Hp
  iintro ⟨HO, Hq97, -, HzFrb5⟩
  sl_exec
  -- the departure of chunk 6 across x
  icases HpS with ⟨Hp, HpS⟩
  ihave Hmw := (mayWait_list (F := F) cc (dsem (⟨28, by decide⟩ : Fin 140)) (List.drop 40 (paysL cc)) (by decide)) $$ Hlev
  iapply (wait_a0_at m cc _ 6 rfl) $$ [Hcxs6 HO Hmw Hp]
  · isplitr; · iexact HIc28
    isplitl [Hcxs6]; · iexact Hcxs6
    isplitl [HO]; · iexact HO
    isplitl [Hmw]; · iexact Hmw
    iexact Hp
  iintro ⟨HO, Hq28, -, HBs6⟩
  sl_exec
  -- of own chunk 6 to z
  icases HpS with ⟨Hp, HpS⟩
  ihave Hmw := (mayWait_list (F := F) cc (dsem (⟨50, by decide⟩ : Fin 140)) (List.drop 40 (paysL cc)) (by decide)) $$ Hlev
  iapply (wait_a4_at m cc _ 6 rfl) $$ [Hczs6 HO Hmw Hp]
  · isplitr; · iexact HIc50
    isplitl [Hczs6]; · iexact Hczs6
    isplitl [HO]; · iexact HO
    isplitl [Hmw]; · iexact Hmw
    iexact Hp
  iintro ⟨HO, Hq50, -, HoZb6⟩
  sl_exec
  -- of own chunk 6 to y
  icases HpS with ⟨Hp, HpS⟩
  ihave Hmw := (mayWait_list (F := F) cc (dsem (⟨66, by decide⟩ : Fin 140)) (List.drop 40 (paysL cc)) (by decide)) $$ Hlev
  iapply (wait_a6_at m cc _ 6 rfl) $$ [Hcys6 HO Hmw Hp]
  · isplitr; · iexact HIc66
    isplitl [Hcys6]; · iexact Hcys6
    isplitl [HO]; · iexact HO
    isplitl [Hmw]; · iexact Hmw
    iexact Hp
  iintro ⟨HO, Hq66, -, HoYb6⟩
  sl_exec
  -- of the forwarded half to z
  icases HpS with ⟨Hp, HpS⟩
  ihave Hmw := (mayWait_list (F := F) cc (dsem (⟨82, by decide⟩ : Fin 140)) (List.drop 40 (paysL cc)) (by decide)) $$ Hlev
  iapply (wait_a8_at m cc _ 6 rfl (by decide)) $$ [Hczfs6 HO Hmw Hp]
  · isplitr; · iexact HIc82
    isplitl [Hczfs6]; · iexact Hczfs6
    isplitl [HO]; · iexact HO
    isplitl [Hmw]; · iexact Hmw
    iexact Hp
  iintro ⟨HO, Hq82, -, HyFlb6⟩
  sl_exec
  -- of the forwarded half to y
  icases HpS with ⟨Hp, HpS⟩
  ihave Hmw := (mayWait_list (F := F) cc (dsem (⟨98, by decide⟩ : Fin 140)) (List.drop 40 (paysL cc)) (by decide)) $$ Hlev
  iapply (wait_a10_at m cc _ 6 rfl (by decide)) $$ [Hcyfs6 HO Hmw Hp]
  · isplitr; · iexact HIc98
    isplitl [Hcyfs6]; · iexact Hcyfs6
    isplitl [HO]; · iexact HO
    isplitl [Hmw]; · iexact Hmw
    iexact Hp
  iintro ⟨HO, Hq98, -, HzFrb6⟩
  sl_exec
  -- the departure of chunk 7 across x
  icases HpS with ⟨Hp, HpS⟩
  ihave Hmw := (mayWait_list (F := F) cc (dsem (⟨29, by decide⟩ : Fin 140)) (List.drop 40 (paysL cc)) (by decide)) $$ Hlev
  iapply (wait_a0_at m cc _ 7 rfl) $$ [Hcxs7 HO Hmw Hp]
  · isplitr; · iexact HIc29
    isplitl [Hcxs7]; · iexact Hcxs7
    isplitl [HO]; · iexact HO
    isplitl [Hmw]; · iexact Hmw
    iexact Hp
  iintro ⟨HO, Hq29, -, HBs7⟩
  sl_exec
  -- of own chunk 7 to z
  icases HpS with ⟨Hp, HpS⟩
  ihave Hmw := (mayWait_list (F := F) cc (dsem (⟨51, by decide⟩ : Fin 140)) (List.drop 40 (paysL cc)) (by decide)) $$ Hlev
  iapply (wait_a4_at m cc _ 7 rfl) $$ [Hczs7 HO Hmw Hp]
  · isplitr; · iexact HIc51
    isplitl [Hczs7]; · iexact Hczs7
    isplitl [HO]; · iexact HO
    isplitl [Hmw]; · iexact Hmw
    iexact Hp
  iintro ⟨HO, Hq51, -, HoZb7⟩
  sl_exec
  -- of own chunk 7 to y
  icases HpS with ⟨Hp, HpS⟩
  ihave Hmw := (mayWait_list (F := F) cc (dsem (⟨67, by decide⟩ : Fin 140)) (List.drop 40 (paysL cc)) (by decide)) $$ Hlev
  iapply (wait_a6_at m cc _ 7 rfl) $$ [Hcys7 HO Hmw Hp]
  · isplitr; · iexact HIc67
    isplitl [Hcys7]; · iexact Hcys7
    isplitl [HO]; · iexact HO
    isplitl [Hmw]; · iexact Hmw
    iexact Hp
  iintro ⟨HO, Hq67, -, HoYb7⟩
  sl_exec
  -- of the forwarded half to z
  icases HpS with ⟨Hp, HpS⟩
  ihave Hmw := (mayWait_list (F := F) cc (dsem (⟨83, by decide⟩ : Fin 140)) (List.drop 40 (paysL cc)) (by decide)) $$ Hlev
  iapply (wait_a8_at m cc _ 7 rfl (by decide)) $$ [Hczfs7 HO Hmw Hp]
  · isplitr; · iexact HIc83
    isplitl [Hczfs7]; · iexact Hczfs7
    isplitl [HO]; · iexact HO
    isplitl [Hmw]; · iexact Hmw
    iexact Hp
  iintro ⟨HO, Hq83, -, HyFlb7⟩
  sl_exec
  -- of the forwarded half to y
  icases HpS with ⟨Hp, HpS⟩
  ihave Hmw := (mayWait_list (F := F) cc (dsem (⟨99, by decide⟩ : Fin 140)) (List.drop 40 (paysL cc)) (by decide)) $$ Hlev
  iapply (wait_a10_at m cc _ 7 rfl (by decide)) $$ [Hcyfs7 HO Hmw Hp]
  · isplitr; · iexact HIc99
    isplitl [Hcyfs7]; · iexact Hcyfs7
    isplitl [HO]; · iexact HO
    isplitl [Hmw]; · iexact Hmw
    iexact Hp
  iintro ⟨HO, Hq99, -, HzFrb7⟩
  sl_exec
  -- of chunk 0 of the diagonal quarter across x
  icases HpS with ⟨Hp, HpS⟩
  ihave Hmw := (mayWait_list (F := F) cc (dsem (⟨38, by decide⟩ : Fin 140)) (List.drop 40 (paysL cc)) (by decide)) $$ Hlev
  iapply (wait_a2_at m cc _ 0 rfl) $$ [Hcds0 HO Hmw Hp]
  · isplitr; · iexact HIc38
    isplitl [Hcds0]; · iexact Hcds0
    isplitl [HO]; · iexact HO
    isplitl [Hmw]; · iexact Hmw
    iexact Hp
  iintro ⟨HO, Hq38, -, HB2s0⟩
  sl_exec
  -- of chunk 1 of the diagonal quarter across x
  icases HpS with ⟨Hp, HpS⟩
  ihave HpS := ((sep_emp (PROP := sProp 𝕄)).2) $$ HpS
  ihave Hmw := (mayWait_list (F := F) cc (dsem (⟨39, by decide⟩ : Fin 140)) (List.drop 40 (paysL cc)) (by decide)) $$ Hlev
  iapply (wait_a2_at m cc _ 1 rfl) $$ [Hcds1 HO Hmw Hp]
  · isplitr; · iexact HIc39
    isplitl [Hcds1]; · iexact Hcds1
    isplitl [HO]; · iexact HO
    isplitl [Hmw]; · iexact Hmw
    iexact Hp
  iintro ⟨HO, Hq39, -, HB2s1⟩
  sl_exec
  -- of chunk 2 of the diagonal quarter across x

  icases HpS with ⟨HpS, -⟩
  ihave Hmw := (mayWait_list (F := F) cc (dsem (⟨40, by decide⟩ : Fin 140)) (List.drop 40 (paysL cc)) (by decide)) $$ Hlev
  iapply (wait_a2_at m cc _ 2 rfl) $$ [Hcds2 HO Hmw HpS]
  · isplitr; · iexact HIc40
    isplitl [Hcds2]; · iexact Hcds2
    isplitl [HO]; · iexact HO
    isplitl [Hmw]; · iexact Hmw
    iexact HpS
  iintro ⟨HO, Hq40, -, HB2s2⟩
  sl_exec
  -- every cell of the protocol on this device has had its one round: close them, their counters are the device's again
  imod (close_cell (F := F) m cc (⟨22, by decide⟩ : Fin 140) (by decide)) $$ [Hq22] with Hv22
  · isplitr; · iexact HIc22
    iexact Hq22
  imod (close_cell (F := F) m cc (⟨23, by decide⟩ : Fin 140) (by decide)) $$ [Hq23] with Hv23
  · isplitr; · iexact HIc23
    iexact Hq23
  imod (close_cell (F := F) m cc (⟨24, by decide⟩ : Fin 140) (by decide)) $$ [Hq24] with Hv24
  · isplitr; · iexact HIc24
    iexact Hq24
  imod (close_cell (F := F) m cc (⟨25, by decide⟩ : Fin 140) (by decide)) $$ [Hq25] with Hv25
  · isplitr; · iexact HIc25
    iexact Hq25
  imod (close_cell (F := F) m cc (⟨26, by decide⟩ : Fin 140) (by decide)) $$ [Hq26] with Hv26
  · isplitr; · iexact HIc26
    iexact Hq26
  imod (close_cell (F := F) m cc (⟨27, by decide⟩ : Fin 140) (by decide)) $$ [Hq27] with Hv27
  · isplitr; · iexact HIc27
    iexact Hq27
  imod (close_cell (F := F) m cc (⟨28, by decide⟩ : Fin 140) (by decide)) $$ [Hq28] with Hv28
  · isplitr; · iexact HIc28
    iexact Hq28
  imod (close_cell (F := F) m cc (⟨29, by decide⟩ : Fin 140) (by decide)) $$ [Hq29] with Hv29
  · isplitr; · iexact HIc29
    iexact Hq29
  imod (close_cell (F := F) m cc (⟨30, by decide⟩ : Fin 140) (by decide)) $$ [Hq30] with Hv30
  · isplitr; · iexact HIc30
    iexact Hq30
  imod (close_cell (F := F) m cc (⟨31, by decide⟩ : Fin 140) (by decide)) $$ [Hq31] with Hv31
  · isplitr; · iexact HIc31
    iexact Hq31
  imod (close_cell (F := F) m cc (⟨32, by decide⟩ : Fin 140) (by decide)) $$ [Hq32] with Hv32
  · isplitr; · iexact HIc32
    iexact Hq32
  imod (close_cell (F := F) m cc (⟨33, by decide⟩ : Fin 140) (by decide)) $$ [Hq33] with Hv33
  · isplitr; · iexact HIc33
    iexact Hq33
  imod (close_cell (F := F) m cc (⟨34, by decide⟩ : Fin 140) (by decide)) $$ [Hq34] with Hv34
  · isplitr; · iexact HIc34
    iexact Hq34
  imod (close_cell (F := F) m cc (⟨35, by decide⟩ : Fin 140) (by decide)) $$ [Hq35] with Hv35
  · isplitr; · iexact HIc35
    iexact Hq35
  imod (close_cell (F := F) m cc (⟨36, by decide⟩ : Fin 140) (by decide)) $$ [Hq36] with Hv36
  · isplitr; · iexact HIc36
    iexact Hq36
  imod (close_cell (F := F) m cc (⟨37, by decide⟩ : Fin 140) (by decide)) $$ [Hq37] with Hv37
  · isplitr; · iexact HIc37
    iexact Hq37
  imod (close_cell (F := F) m cc (⟨38, by decide⟩ : Fin 140) (by decide)) $$ [Hq38] with Hv38
  · isplitr; · iexact HIc38
    iexact Hq38
  imod (close_cell (F := F) m cc (⟨39, by decide⟩ : Fin 140) (by decide)) $$ [Hq39] with Hv39
  · isplitr; · iexact HIc39
    iexact Hq39
  imod (close_cell (F := F) m cc (⟨40, by decide⟩ : Fin 140) (by decide)) $$ [Hq40] with Hv40
  · isplitr; · iexact HIc40
    iexact Hq40
  imod (close_cell (F := F) m cc (⟨41, by decide⟩ : Fin 140) (by decide)) $$ [Hq41] with Hv41
  · isplitr; · iexact HIc41
    iexact Hq41
  imod (close_cell (F := F) m cc (⟨42, by decide⟩ : Fin 140) (by decide)) $$ [Hq42] with Hv42
  · isplitr; · iexact HIc42
    iexact Hq42
  imod (close_cell (F := F) m cc (⟨43, by decide⟩ : Fin 140) (by decide)) $$ [Hq43] with Hv43
  · isplitr; · iexact HIc43
    iexact Hq43
  imod (close_cell (F := F) m cc (⟨44, by decide⟩ : Fin 140) (by decide)) $$ [Hq44] with Hv44
  · isplitr; · iexact HIc44
    iexact Hq44
  imod (close_cell (F := F) m cc (⟨45, by decide⟩ : Fin 140) (by decide)) $$ [Hq45] with Hv45
  · isplitr; · iexact HIc45
    iexact Hq45
  imod (close_cell (F := F) m cc (⟨46, by decide⟩ : Fin 140) (by decide)) $$ [Hq46] with Hv46
  · isplitr; · iexact HIc46
    iexact Hq46
  imod (close_cell (F := F) m cc (⟨47, by decide⟩ : Fin 140) (by decide)) $$ [Hq47] with Hv47
  · isplitr; · iexact HIc47
    iexact Hq47
  imod (close_cell (F := F) m cc (⟨48, by decide⟩ : Fin 140) (by decide)) $$ [Hq48] with Hv48
  · isplitr; · iexact HIc48
    iexact Hq48
  imod (close_cell (F := F) m cc (⟨49, by decide⟩ : Fin 140) (by decide)) $$ [Hq49] with Hv49
  · isplitr; · iexact HIc49
    iexact Hq49
  imod (close_cell (F := F) m cc (⟨50, by decide⟩ : Fin 140) (by decide)) $$ [Hq50] with Hv50
  · isplitr; · iexact HIc50
    iexact Hq50
  imod (close_cell (F := F) m cc (⟨51, by decide⟩ : Fin 140) (by decide)) $$ [Hq51] with Hv51
  · isplitr; · iexact HIc51
    iexact Hq51
  imod (close_cell (F := F) m cc (⟨52, by decide⟩ : Fin 140) (by decide)) $$ [Hq52] with Hv52
  · isplitr; · iexact HIc52
    iexact Hq52
  imod (close_cell (F := F) m cc (⟨53, by decide⟩ : Fin 140) (by decide)) $$ [Hq53] with Hv53
  · isplitr; · iexact HIc53
    iexact Hq53
  imod (close_cell (F := F) m cc (⟨54, by decide⟩ : Fin 140) (by decide)) $$ [Hq54] with Hv54
  · isplitr; · iexact HIc54
    iexact Hq54
  imod (close_cell (F := F) m cc (⟨55, by decide⟩ : Fin 140) (by decide)) $$ [Hq55] with Hv55
  · isplitr; · iexact HIc55
    iexact Hq55
  imod (close_cell (F := F) m cc (⟨56, by decide⟩ : Fin 140) (by decide)) $$ [Hq56] with Hv56
  · isplitr; · iexact HIc56
    iexact Hq56
  imod (close_cell (F := F) m cc (⟨57, by decide⟩ : Fin 140) (by decide)) $$ [Hq57] with Hv57
  · isplitr; · iexact HIc57
    iexact Hq57
  imod (close_cell (F := F) m cc (⟨58, by decide⟩ : Fin 140) (by decide)) $$ [Hq58] with Hv58
  · isplitr; · iexact HIc58
    iexact Hq58
  imod (close_cell (F := F) m cc (⟨59, by decide⟩ : Fin 140) (by decide)) $$ [Hq59] with Hv59
  · isplitr; · iexact HIc59
    iexact Hq59
  imod (close_cell (F := F) m cc (⟨60, by decide⟩ : Fin 140) (by decide)) $$ [Hq60] with Hv60
  · isplitr; · iexact HIc60
    iexact Hq60
  imod (close_cell (F := F) m cc (⟨61, by decide⟩ : Fin 140) (by decide)) $$ [Hq61] with Hv61
  · isplitr; · iexact HIc61
    iexact Hq61
  imod (close_cell (F := F) m cc (⟨62, by decide⟩ : Fin 140) (by decide)) $$ [Hq62] with Hv62
  · isplitr; · iexact HIc62
    iexact Hq62
  imod (close_cell (F := F) m cc (⟨63, by decide⟩ : Fin 140) (by decide)) $$ [Hq63] with Hv63
  · isplitr; · iexact HIc63
    iexact Hq63
  imod (close_cell (F := F) m cc (⟨64, by decide⟩ : Fin 140) (by decide)) $$ [Hq64] with Hv64
  · isplitr; · iexact HIc64
    iexact Hq64
  imod (close_cell (F := F) m cc (⟨65, by decide⟩ : Fin 140) (by decide)) $$ [Hq65] with Hv65
  · isplitr; · iexact HIc65
    iexact Hq65
  imod (close_cell (F := F) m cc (⟨66, by decide⟩ : Fin 140) (by decide)) $$ [Hq66] with Hv66
  · isplitr; · iexact HIc66
    iexact Hq66
  imod (close_cell (F := F) m cc (⟨67, by decide⟩ : Fin 140) (by decide)) $$ [Hq67] with Hv67
  · isplitr; · iexact HIc67
    iexact Hq67
  imod (close_cell (F := F) m cc (⟨68, by decide⟩ : Fin 140) (by decide)) $$ [Hq68] with Hv68
  · isplitr; · iexact HIc68
    iexact Hq68
  imod (close_cell (F := F) m cc (⟨69, by decide⟩ : Fin 140) (by decide)) $$ [Hq69] with Hv69
  · isplitr; · iexact HIc69
    iexact Hq69
  imod (close_cell (F := F) m cc (⟨70, by decide⟩ : Fin 140) (by decide)) $$ [Hq70] with Hv70
  · isplitr; · iexact HIc70
    iexact Hq70
  imod (close_cell (F := F) m cc (⟨71, by decide⟩ : Fin 140) (by decide)) $$ [Hq71] with Hv71
  · isplitr; · iexact HIc71
    iexact Hq71
  imod (close_cell (F := F) m cc (⟨72, by decide⟩ : Fin 140) (by decide)) $$ [Hq72] with Hv72
  · isplitr; · iexact HIc72
    iexact Hq72
  imod (close_cell (F := F) m cc (⟨73, by decide⟩ : Fin 140) (by decide)) $$ [Hq73] with Hv73
  · isplitr; · iexact HIc73
    iexact Hq73
  imod (close_cell (F := F) m cc (⟨74, by decide⟩ : Fin 140) (by decide)) $$ [Hq74] with Hv74
  · isplitr; · iexact HIc74
    iexact Hq74
  imod (close_cell (F := F) m cc (⟨75, by decide⟩ : Fin 140) (by decide)) $$ [Hq75] with Hv75
  · isplitr; · iexact HIc75
    iexact Hq75
  imod (close_cell (F := F) m cc (⟨79, by decide⟩ : Fin 140) (by decide)) $$ [Hq79] with Hv79
  · isplitr; · iexact HIc79
    iexact Hq79
  imod (close_cell (F := F) m cc (⟨80, by decide⟩ : Fin 140) (by decide)) $$ [Hq80] with Hv80
  · isplitr; · iexact HIc80
    iexact Hq80
  imod (close_cell (F := F) m cc (⟨81, by decide⟩ : Fin 140) (by decide)) $$ [Hq81] with Hv81
  · isplitr; · iexact HIc81
    iexact Hq81
  imod (close_cell (F := F) m cc (⟨82, by decide⟩ : Fin 140) (by decide)) $$ [Hq82] with Hv82
  · isplitr; · iexact HIc82
    iexact Hq82
  imod (close_cell (F := F) m cc (⟨83, by decide⟩ : Fin 140) (by decide)) $$ [Hq83] with Hv83
  · isplitr; · iexact HIc83
    iexact Hq83
  imod (close_cell (F := F) m cc (⟨87, by decide⟩ : Fin 140) (by decide)) $$ [Hq87] with Hv87
  · isplitr; · iexact HIc87
    iexact Hq87
  imod (close_cell (F := F) m cc (⟨88, by decide⟩ : Fin 140) (by decide)) $$ [Hq88] with Hv88
  · isplitr; · iexact HIc88
    iexact Hq88
  imod (close_cell (F := F) m cc (⟨89, by decide⟩ : Fin 140) (by decide)) $$ [Hq89] with Hv89
  · isplitr; · iexact HIc89
    iexact Hq89
  imod (close_cell (F := F) m cc (⟨90, by decide⟩ : Fin 140) (by decide)) $$ [Hq90] with Hv90
  · isplitr; · iexact HIc90
    iexact Hq90
  imod (close_cell (F := F) m cc (⟨91, by decide⟩ : Fin 140) (by decide)) $$ [Hq91] with Hv91
  · isplitr; · iexact HIc91
    iexact Hq91
  imod (close_cell (F := F) m cc (⟨95, by decide⟩ : Fin 140) (by decide)) $$ [Hq95] with Hv95
  · isplitr; · iexact HIc95
    iexact Hq95
  imod (close_cell (F := F) m cc (⟨96, by decide⟩ : Fin 140) (by decide)) $$ [Hq96] with Hv96
  · isplitr; · iexact HIc96
    iexact Hq96
  imod (close_cell (F := F) m cc (⟨97, by decide⟩ : Fin 140) (by decide)) $$ [Hq97] with Hv97
  · isplitr; · iexact HIc97
    iexact Hq97
  imod (close_cell (F := F) m cc (⟨98, by decide⟩ : Fin 140) (by decide)) $$ [Hq98] with Hv98
  · isplitr; · iexact HIc98
    iexact Hq98
  imod (close_cell (F := F) m cc (⟨99, by decide⟩ : Fin 140) (by decide)) $$ [Hq99] with Hv99
  · isplitr; · iexact HIc99
    iexact Hq99
  imod (close_cell (F := F) m cc (⟨103, by decide⟩ : Fin 140) (by decide)) $$ [Hq103] with Hv103
  · isplitr; · iexact HIc103
    iexact Hq103
  imod (close_cell (F := F) m cc (⟨104, by decide⟩ : Fin 140) (by decide)) $$ [Hq104] with Hv104
  · isplitr; · iexact HIc104
    iexact Hq104
  imod (close_cell (F := F) m cc (⟨105, by decide⟩ : Fin 140) (by decide)) $$ [Hq105] with Hv105
  · isplitr; · iexact HIc105
    iexact Hq105
  imod (close_cell (F := F) m cc (⟨106, by decide⟩ : Fin 140) (by decide)) $$ [Hq106] with Hv106
  · isplitr; · iexact HIc106
    iexact Hq106
  imod (close_cell (F := F) m cc (⟨107, by decide⟩ : Fin 140) (by decide)) $$ [Hq107] with Hv107
  · isplitr; · iexact HIc107
    iexact Hq107
  -- the program is over: hand everything back
  icases HvU with ⟨Hu76, Hu77, Hu78, Hu84, Hu85, Hu86, Hu92, Hu93, Hu94, Hu100, Hu101, Hu102⟩
  ihave HO := (Entails.of_eq (show owes (cc : Thread nD τ) (owedL (List.drop 40 (paysL cc))) _ = owes (cc : Thread nD τ) 0 _ from rfl)) $$ HO
  -- each block of the result holds what its copy wrote: the final contents
  ihave HU00 := (congr (F := F) (outR 0 0) cc fullShare ((outR 0 0).view.writes (Elt F) g00 [⟨Rect.whole S512x256, dev.sl.dma0_34 m⟩]) (out m cc) (fun i hi => glue_out' m cc 0 0 g00 i hi)) $$ HU00
  ihave HU01 := (congr (F := F) (outR 0 1) cc fullShare ((outR 0 1).view.writes (Elt F) g01 [⟨Rect.whole S512x256, dev.sl.dma0_35 m⟩]) (out m cc) (fun i hi => glue_out' m cc 0 1 g01 i hi)) $$ HU01
  ihave HU02 := (congr (F := F) (outR 0 2) cc fullShare ((outR 0 2).view.writes (Elt F) g02 [⟨Rect.whole S512x256, dev.sl.dma0_36 m⟩]) (out m cc) (fun i hi => glue_out' m cc 0 2 g02 i hi)) $$ HU02
  ihave HU03 := (congr (F := F) (outR 0 3) cc fullShare ((outR 0 3).view.writes (Elt F) g03 [⟨Rect.whole S512x256, dev.sl.dma0_37 m⟩]) (out m cc) (fun i hi => glue_out' m cc 0 3 g03 i hi)) $$ HU03
  ihave HU10 := (congr (F := F) (outR 1 0) cc fullShare ((outR 1 0).view.writes (Elt F) g10 [⟨Rect.whole S512x256, dev.sl.dma0_38 m⟩]) (out m cc) (fun i hi => glue_out' m cc 1 0 g10 i hi)) $$ HU10
  ihave HU11 := (congr (F := F) (outR 1 1) cc fullShare ((outR 1 1).view.writes (Elt F) g11 [⟨Rect.whole S512x256, dev.sl.dma0_39 m⟩]) (out m cc) (fun i hi => glue_out' m cc 1 1 g11 i hi)) $$ HU11
  ihave HU12 := (congr (F := F) (outR 1 2) cc fullShare ((outR 1 2).view.writes (Elt F) g12 [⟨Rect.whole S512x256, dev.sl.dma0_40 m⟩]) (out m cc) (fun i hi => glue_out' m cc 1 2 g12 i hi)) $$ HU12
  ihave HU13 := (congr (F := F) (outR 1 3) cc fullShare ((outR 1 3).view.writes (Elt F) g13 [⟨Rect.whole S512x256, dev.sl.dma0_41 m⟩]) (out m cc) (fun i hi => glue_out' m cc 1 3 g13 i hi)) $$ HU13
  ihave HU20 := (congr (F := F) (outR 2 0) cc fullShare ((outR 2 0).view.writes (Elt F) g20 [⟨Rect.whole S512x256, dev.sl.dma0_42 m⟩]) (out m cc) (fun i hi => glue_out' m cc 2 0 g20 i hi)) $$ HU20
  ihave HU21 := (congr (F := F) (outR 2 1) cc fullShare ((outR 2 1).view.writes (Elt F) g21 [⟨Rect.whole S512x256, dev.sl.dma0_43 m⟩]) (out m cc) (fun i hi => glue_out' m cc 2 1 g21 i hi)) $$ HU21
  ihave HU22 := (congr (F := F) (outR 2 2) cc fullShare ((outR 2 2).view.writes (Elt F) g22 [⟨Rect.whole S512x256, dev.sl.dma0_44 m⟩]) (out m cc) (fun i hi => glue_out' m cc 2 2 g22 i hi)) $$ HU22
  ihave HU23 := (congr (F := F) (outR 2 3) cc fullShare ((outR 2 3).view.writes (Elt F) g23 [⟨Rect.whole S512x256, dev.sl.dma0_45 m⟩]) (out m cc) (fun i hi => glue_out' m cc 2 3 g23 i hi)) $$ HU23
  ihave HU30 := (congr (F := F) (outR 3 0) cc fullShare ((outR 3 0).view.writes (Elt F) g30 [⟨Rect.whole S512x256, dev.sl.dma0_22 m⟩]) (out m cc) (fun i hi => glue_out' m cc 3 0 g30 i hi)) $$ HU30
  ihave HU31 := (congr (F := F) (outR 3 1) cc fullShare ((outR 3 1).view.writes (Elt F) g31 [⟨Rect.whole S512x256, dev.sl.dma0_23 m⟩]) (out m cc) (fun i hi => glue_out' m cc 3 1 g31 i hi)) $$ HU31
  ihave HU32 := (congr (F := F) (outR 3 2) cc fullShare ((outR 3 2).view.writes (Elt F) g32 [⟨Rect.whole S512x256, dev.sl.dma0_24 m⟩]) (out m cc) (fun i hi => glue_out' m cc 3 2 g32 i hi)) $$ HU32
  ihave HU33 := (congr (F := F) (outR 3 3) cc fullShare ((outR 3 3).view.writes (Elt F) g33 [⟨Rect.whole S512x256, dev.sl.dma0_25 m⟩]) (out m cc) (fun i hi => glue_out' m cc 3 3 g33 i hi)) $$ HU33
  ihave HU40 := (congr (F := F) (outR 4 0) cc fullShare ((outR 4 0).view.writes (Elt F) g40 [⟨Rect.whole S512x256, dev.sl.dma0_26 m⟩]) (out m cc) (fun i hi => glue_out' m cc 4 0 g40 i hi)) $$ HU40
  ihave HU41 := (congr (F := F) (outR 4 1) cc fullShare ((outR 4 1).view.writes (Elt F) g41 [⟨Rect.whole S512x256, dev.sl.dma0_27 m⟩]) (out m cc) (fun i hi => glue_out' m cc 4 1 g41 i hi)) $$ HU41
  ihave HU42 := (congr (F := F) (outR 4 2) cc fullShare ((outR 4 2).view.writes (Elt F) g42 [⟨Rect.whole S512x256, dev.sl.dma0_28 m⟩]) (out m cc) (fun i hi => glue_out' m cc 4 2 g42 i hi)) $$ HU42
  ihave HU43 := (congr (F := F) (outR 4 3) cc fullShare ((outR 4 3).view.writes (Elt F) g43 [⟨Rect.whole S512x256, dev.sl.dma0_29 m⟩]) (out m cc) (fun i hi => glue_out' m cc 4 3 g43 i hi)) $$ HU43
  ihave HU50 := (congr (F := F) (outR 5 0) cc fullShare ((outR 5 0).view.writes (Elt F) g50 [⟨Rect.whole S512x256, dev.sl.dma0_30 m⟩]) (out m cc) (fun i hi => glue_out' m cc 5 0 g50 i hi)) $$ HU50
  ihave HU51 := (congr (F := F) (outR 5 1) cc fullShare ((outR 5 1).view.writes (Elt F) g51 [⟨Rect.whole S512x256, dev.sl.dma0_31 m⟩]) (out m cc) (fun i hi => glue_out' m cc 5 1 g51 i hi)) $$ HU51
  ihave HU52 := (congr (F := F) (outR 5 2) cc fullShare ((outR 5 2).view.writes (Elt F) g52 [⟨Rect.whole S512x256, dev.sl.dma0_32 m⟩]) (out m cc) (fun i hi => glue_out' m cc 5 2 g52 i hi)) $$ HU52
  ihave HU53 := (congr (F := F) (outR 5 3) cc fullShare ((outR 5 3).view.writes (Elt F) g53 [⟨Rect.whole S512x256, dev.sl.dma0_33 m⟩]) (out m cc) (fun i hi => glue_out' m cc 5 3 g53 i hi)) $$ HU53
  ihave HU60 := (congr (F := F) (outR 6 0) cc fullShare ((outR 6 0).view.writes (Elt F) g60 [⟨Rect.whole S512x256, dev.sl.dma0_46 m⟩]) (out m cc) (fun i hi => glue_out' m cc 6 0 g60 i hi)) $$ HU60
  ihave HU61 := (congr (F := F) (outR 6 1) cc fullShare ((outR 6 1).view.writes (Elt F) g61 [⟨Rect.whole S512x256, dev.sl.dma0_47 m⟩]) (out m cc) (fun i hi => glue_out' m cc 6 1 g61 i hi)) $$ HU61
  ihave HU62 := (congr (F := F) (outR 6 2) cc fullShare ((outR 6 2).view.writes (Elt F) g62 [⟨Rect.whole S512x256, dev.sl.dma0_48 m⟩]) (out m cc) (fun i hi => glue_out' m cc 6 2 g62 i hi)) $$ HU62
  ihave HU63 := (congr (F := F) (outR 6 3) cc fullShare ((outR 6 3).view.writes (Elt F) g63 [⟨Rect.whole S512x256, dev.sl.dma0_49 m⟩]) (out m cc) (fun i hi => glue_out' m cc 6 3 g63 i hi)) $$ HU63
  ihave HU70 := (congr (F := F) (outR 7 0) cc fullShare ((outR 7 0).view.writes (Elt F) g70 [⟨Rect.whole S512x256, dev.sl.dma0_50 m⟩]) (out m cc) (fun i hi => glue_out' m cc 7 0 g70 i hi)) $$ HU70
  ihave HU71 := (congr (F := F) (outR 7 1) cc fullShare ((outR 7 1).view.writes (Elt F) g71 [⟨Rect.whole S512x256, dev.sl.dma0_51 m⟩]) (out m cc) (fun i hi => glue_out' m cc 7 1 g71 i hi)) $$ HU71
  ihave HU72 := (congr (F := F) (outR 7 2) cc fullShare ((outR 7 2).view.writes (Elt F) g72 [⟨Rect.whole S512x256, dev.sl.dma0_52 m⟩]) (out m cc) (fun i hi => glue_out' m cc 7 2 g72 i hi)) $$ HU72
  ihave HU73 := (congr (F := F) (outR 7 3) cc fullShare ((outR 7 3).view.writes (Elt F) g73 [⟨Rect.whole S512x256, dev.sl.dma0_53 m⟩]) (out m cc) (fun i hi => glue_out' m cc 7 3 g73 i hi)) $$ HU73
  sl_step
  iapply Hk
  unfold bodyPost
  isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7 Hz0 Hz1 Hz2 HzG3 HzFl3 HzFrb3 HzG4 HzFl4 HzFrb4 HzG5 HzFl5 HzFrb5 HzG6 HzFl6 HzFrb6 HzG7 HzFl7 HzFrb7 Hy0 Hy1 Hy2 HyG3 HyFlb3 HyFr3 HyG4 HyFlb4 HyFr4 HyG5 HyFlb5 HyFr5 HyG6 HyFlb6 HyFr6 HyG7 HyFlb7 HyFr7 Hdq0 Hdq1 Hdq2 Hd3 Hd4 Hd5 Hd6 Hd7]
  · iapply (Entails.of_eq (junk_whole (F := F) cc cc0_scratch0).symm)
    iapply (r4_back (F := F) cc)
    isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7]
    · isplitl [HoZb0 HoYb0 HoK0]
      · iapply (own_back (F := F) cc 0 (r4 m cc))
        isplitl [HoZb0]
        · iexact HoZb0
        isplitl [HoYb0]
        · iexact HoYb0
        iexact HoK0
      isplitl [HoZb1 HoYb1 HoK1]
      · iapply (own_back (F := F) cc 1 (r4 m cc))
        isplitl [HoZb1]
        · iexact HoZb1
        isplitl [HoYb1]
        · iexact HoYb1
        iexact HoK1
      isplitl [HoZb2 HoYb2 HoK2]
      · iapply (own_back (F := F) cc 2 (r4 m cc))
        isplitl [HoZb2]
        · iexact HoZb2
        isplitl [HoYb2]
        · iexact HoYb2
        iexact HoK2
      isplitl [HoZb3 HoYb3 HoK3]
      · iapply (own_back (F := F) cc 3 (r4 m cc))
        isplitl [HoZb3]
        · iexact HoZb3
        isplitl [HoYb3]
        · iexact HoYb3
        iexact HoK3
      isplitl [HoZb4 HoYb4 HoK4]
      · iapply (own_back (F := F) cc 4 (r4 m cc))
        isplitl [HoZb4]
        · iexact HoZb4
        isplitl [HoYb4]
        · iexact HoYb4
        iexact HoK4
      isplitl [HoZb5 HoYb5 HoK5]
      · iapply (own_back (F := F) cc 5 (r4 m cc))
        isplitl [HoZb5]
        · iexact HoZb5
        isplitl [HoYb5]
        · iexact HoYb5
        iexact HoK5
      isplitl [HoZb6 HoYb6 HoK6]
      · iapply (own_back (F := F) cc 6 (r4 m cc))
        isplitl [HoZb6]
        · iexact HoZb6
        isplitl [HoYb6]
        · iexact HoYb6
        iexact HoK6
      iapply (own_back (F := F) cc 7 (r4 m cc))
      isplitl [HoZb7]
      · iexact HoZb7
      isplitl [HoYb7]
      · iexact HoYb7
      iexact HoK7
    isplitl [Hz0 Hz1 Hz2 HzG3 HzFl3 HzFrb3 HzG4 HzFl4 HzFrb4 HzG5 HzFl5 HzFrb5 HzG6 HzFl6 HzFrb6 HzG7 HzFl7 HzFrb7]
    · isplitl [Hz0]
      · iexists _; iexact Hz0
      isplitl [Hz1]
      · iexists _; iexact Hz1
      isplitl [Hz2]
      · iexists _; iexact Hz2
      isplitl [HzG3 HzFl3 HzFrb3]
      · iapply (nbr_back (F := F) cc (zqF cc) 3 (r4 m cc))
        isplitl [HzG3]
        · iexact HzG3
        isplitl [HzFl3]
        · iexact HzFl3
        iexact HzFrb3
      isplitl [HzG4 HzFl4 HzFrb4]
      · iapply (nbr_back (F := F) cc (zqF cc) 4 (r4 m cc))
        isplitl [HzG4]
        · iexact HzG4
        isplitl [HzFl4]
        · iexact HzFl4
        iexact HzFrb4
      isplitl [HzG5 HzFl5 HzFrb5]
      · iapply (nbr_back (F := F) cc (zqF cc) 5 (r4 m cc))
        isplitl [HzG5]
        · iexact HzG5
        isplitl [HzFl5]
        · iexact HzFl5
        iexact HzFrb5
      isplitl [HzG6 HzFl6 HzFrb6]
      · iapply (nbr_back (F := F) cc (zqF cc) 6 (r4 m cc))
        isplitl [HzG6]
        · iexact HzG6
        isplitl [HzFl6]
        · iexact HzFl6
        iexact HzFrb6
      iapply (nbr_back (F := F) cc (zqF cc) 7 (r4 m cc))
      isplitl [HzG7]
      · iexact HzG7
      isplitl [HzFl7]
      · iexact HzFl7
      iexact HzFrb7
    isplitl [Hy0 Hy1 Hy2 HyG3 HyFlb3 HyFr3 HyG4 HyFlb4 HyFr4 HyG5 HyFlb5 HyFr5 HyG6 HyFlb6 HyFr6 HyG7 HyFlb7 HyFr7]
    · isplitl [Hy0]
      · iexists _; iexact Hy0
      isplitl [Hy1]
      · iexists _; iexact Hy1
      isplitl [Hy2]
      · iexists _; iexact Hy2
      isplitl [HyG3 HyFlb3 HyFr3]
      · iapply (nbr_back (F := F) cc (yqF cc) 3 (r4 m cc))
        isplitl [HyG3]
        · iexact HyG3
        isplitl [HyFlb3]
        · iexact HyFlb3
        iexact HyFr3
      isplitl [HyG4 HyFlb4 HyFr4]
      · iapply (nbr_back (F := F) cc (yqF cc) 4 (r4 m cc))
        isplitl [HyG4]
        · iexact HyG4
        isplitl [HyFlb4]
        · iexact HyFlb4
        iexact HyFr4
      isplitl [HyG5 HyFlb5 HyFr5]
      · iapply (nbr_back (F := F) cc (yqF cc) 5 (r4 m cc))
        isplitl [HyG5]
        · iexact HyG5
        isplitl [HyFlb5]
        · iexact HyFlb5
        iexact HyFr5
      isplitl [HyG6 HyFlb6 HyFr6]
      · iapply (nbr_back (F := F) cc (yqF cc) 6 (r4 m cc))
        isplitl [HyG6]
        · iexact HyG6
        isplitl [HyFlb6]
        · iexact HyFlb6
        iexact HyFr6
      iapply (nbr_back (F := F) cc (yqF cc) 7 (r4 m cc))
      isplitl [HyG7]
      · iexact HyG7
      isplitl [HyFlb7]
      · iexact HyFlb7
      iexact HyFr7
    isplitl [Hdq0 Hdq1 Hdq2]
    · isplitl [Hdq0]
      · iexists _; iexact Hdq0
      isplitl [Hdq1]
      · iexists _; iexact Hdq1
      iexists _; iexact Hdq2
    isplitl [Hd3]
    · iapply (dq_halves (F := F) cc 3 (r4 m cc))
      iexact Hd3
    isplitl [Hd4]
    · iapply (dq_halves (F := F) cc 4 (r4 m cc))
      iexact Hd4
    isplitl [Hd5]
    · iapply (dq_halves (F := F) cc 5 (r4 m cc))
      iexact Hd5
    isplitl [Hd6]
    · iapply (dq_halves (F := F) cc 6 (r4 m cc))
      iexact Hd6
    iapply (dq_halves (F := F) cc 7 (r4 m cc))
    iexact Hd7
  isplitl [HBs0 HBs1 HBs2 HBs3 HBs4 HBs5 HBs6 HBs7]
  · iapply (Entails.of_eq (junk_whole (F := F) cc cc0_scratch1).symm)
    iapply (sb_rows_join (F := F) cc)
    isplitl [HBs0]
    · iexists _; iexact HBs0
    isplitl [HBs1]
    · iexists _; iexact HBs1
    isplitl [HBs2]
    · iexists _; iexact HBs2
    isplitl [HBs3]
    · iexists _; iexact HBs3
    isplitl [HBs4]
    · iexists _; iexact HBs4
    isplitl [HBs5]
    · iexists _; iexact HBs5
    isplitl [HBs6]
    · iexists _; iexact HBs6
    iexists _; iexact HBs7
  isplitl [Hrb0 Hrb1 Hrb2 Hrb3 Hrb4 Hrb5 Hrb6 Hrb7]
  · iapply (Entails.of_eq (junk_whole (F := F) cc cc0_scratch2).symm)
    iapply (rb_rows_join (F := F) cc)
    isplitl [Hrb0]
    · iexists _; iexact Hrb0
    isplitl [Hrb1]
    · iexists _; iexact Hrb1
    isplitl [Hrb2]
    · iexists _; iexact Hrb2
    isplitl [Hrb3]
    · iexists _; iexact Hrb3
    isplitl [Hrb4]
    · iexists _; iexact Hrb4
    isplitl [Hrb5]
    · iexists _; iexact Hrb5
    isplitl [Hrb6]
    · iexists _; iexact Hrb6
    iexists _; iexact Hrb7
  isplitl [HB2s0 HB2s1 HB2s2]
  · iapply (Entails.of_eq (junk_whole (F := F) cc cc0_scratch3).symm)
    iapply (sb2_rows_join (F := F) cc)
    isplitl [HB2s0]
    · iexists _; iexact HB2s0
    isplitl [HB2s1]
    · iexists _; iexact HB2s1
    iexists _; iexact HB2s2
  isplitl [Hrb20 Hrb21 Hrb22]
  · iapply (Entails.of_eq (junk_whole (F := F) cc cc0_scratch4).symm)
    iapply (rb2_rows_join (F := F) cc)
    isplitl [Hrb20]
    · iexists _; iexact Hrb20
    isplitl [Hrb21]
    · iexists _; iexact Hrb21
    iexists _; iexact Hrb22
  isplitl [HP0 HP1 HP2 HP3 HP4 HP5 HP6 HP7]
  · iapply (Entails.of_eq (junk_whole (F := F) cc cc0_scratch5).symm)
    iapply (stP_rows_join (F := F) cc)
    isplitl [HP0]
    · iexists _; iexact HP0
    isplitl [HP1]
    · iexists _; iexact HP1
    isplitl [HP2]
    · iexists _; iexact HP2
    isplitl [HP3]
    · iexists _; iexact HP3
    isplitl [HP4]
    · iexists _; iexact HP4
    isplitl [HP5]
    · iexists _; iexact HP5
    isplitl [HP6]
    · iexists _; iexact HP6
    iexists _; iexact HP7
  isplitl [HL0 HL1 HL2 HL3 HL4 HL5 HL6 HL7]
  · iapply (Entails.of_eq (junk_whole (F := F) cc cc0_scratch6).symm)
    iapply (stL_rows_join (F := F) cc)
    isplitl [HL0]
    · iexists _; iexact HL0
    isplitl [HL1]
    · iexists _; iexact HL1
    isplitl [HL2]
    · iexists _; iexact HL2
    isplitl [HL3]
    · iexists _; iexact HL3
    isplitl [HL4]
    · iexists _; iexact HL4
    isplitl [HL5]
    · iexists _; iexact HL5
    isplitl [HL6]
    · iexists _; iexact HL6
    iexists _; iexact HL7
  isplitl [HP20 HP21 HP22]
  · iapply (Entails.of_eq (junk_whole (F := F) cc cc0_scratch7).symm)
    iapply (stP2_rows_join (F := F) cc)
    isplitl [HP20]
    · iexists _; iexact HP20
    isplitl [HP21]
    · iexists _; iexact HP21
    iexists _; iexact HP22
  isplitl [HL20 HL21 HL22]
  · iapply (Entails.of_eq (junk_whole (F := F) cc cc0_scratch8).symm)
    iapply (stL2_rows_join (F := F) cc)
    isplitl [HL20]
    · iexists _; iexact HL20
    isplitl [HL21]
    · iexists _; iexact HL21
    iexists _; iexact HL22
  isplitl [HX]
  · iexact HX
  isplitl [HU00 HU01 HU02 HU03 HU10 HU11 HU12 HU13 HU20 HU21 HU22 HU23 HU30 HU31 HU32 HU33 HU40 HU41 HU42 HU43 HU50 HU51 HU52 HU53 HU60 HU61 HU62 HU63 HU70 HU71 HU72 HU73]
  · iapply (out_join (F := F) cc (out m cc))
    isplitl [HU00]
    · iexact HU00
    isplitl [HU01]
    · iexact HU01
    isplitl [HU02]
    · iexact HU02
    isplitl [HU03]
    · iexact HU03
    isplitl [HU10]
    · iexact HU10
    isplitl [HU11]
    · iexact HU11
    isplitl [HU12]
    · iexact HU12
    isplitl [HU13]
    · iexact HU13
    isplitl [HU20]
    · iexact HU20
    isplitl [HU21]
    · iexact HU21
    isplitl [HU22]
    · iexact HU22
    isplitl [HU23]
    · iexact HU23
    isplitl [HU30]
    · iexact HU30
    isplitl [HU31]
    · iexact HU31
    isplitl [HU32]
    · iexact HU32
    isplitl [HU33]
    · iexact HU33
    isplitl [HU40]
    · iexact HU40
    isplitl [HU41]
    · iexact HU41
    isplitl [HU42]
    · iexact HU42
    isplitl [HU43]
    · iexact HU43
    isplitl [HU50]
    · iexact HU50
    isplitl [HU51]
    · iexact HU51
    isplitl [HU52]
    · iexact HU52
    isplitl [HU53]
    · iexact HU53
    isplitl [HU60]
    · iexact HU60
    isplitl [HU61]
    · iexact HU61
    isplitl [HU62]
    · iexact HU62
    isplitl [HU63]
    · iexact HU63
    isplitl [HU70]
    · iexact HU70
    isplitl [HU71]
    · iexact HU71
    isplitl [HU72]
    · iexact HU72
    iexact HU73
  isplitl [Hv0 Hv1 Hv2 Hv3 Hv4 Hv5 Hv6 Hv7 Hv8 Hv9 Hv10 Hv11 Hv12 Hv13 Hv14 Hv15 Hv16 Hv17 Hv18 Hv19 Hv20 Hv21 Hv22 Hv23 Hv24 Hv25 Hv26 Hv27 Hv28 Hv29 Hv30 Hv31 Hv32 Hv33 Hv34 Hv35 Hv36 Hv37 Hv38 Hv39 Hv40 Hv41 Hv42 Hv43 Hv44 Hv45 Hv46 Hv47 Hv48 Hv49 Hv50 Hv51 Hv52 Hv53 Hv54 Hv55 Hv56 Hv57 Hv58 Hv59 Hv60 Hv61 Hv62 Hv63 Hv64 Hv65 Hv66 Hv67 Hv68 Hv69 Hv70 Hv71 Hv72 Hv73 Hv74 Hv75 Hu76 Hu77 Hu78 Hv79 Hv80 Hv81 Hv82 Hv83 Hu84 Hu85 Hu86 Hv87 Hv88 Hv89 Hv90 Hv91 Hu92 Hu93 Hu94 Hv95 Hv96 Hv97 Hv98 Hv99 Hu100 Hu101 Hu102 Hv103 Hv104 Hv105 Hv106 Hv107 Hw0a Hw0b Hw0c Hw0d Hw1a Hw1b Hw1c Hw1d Hw2a Hw2b Hw2c Hw2d Hw3a Hw3b Hw3c Hw3d Hw4a Hw4b Hw4c Hw4d Hw5a Hw5b Hw5c Hw5d Hw6a Hw6b Hw6c Hw6d Hw7a Hw7b Hw7c Hw7d]
  · iapply (Entails.of_eq (show (iprop(semVal (cellAt cc (⟨0, Nat.le_of_ble_eq_true rfl⟩ : Fin 140)) 0 ∗ semVal (cellAt cc (⟨1, Nat.le_of_ble_eq_true rfl⟩ : Fin 140)) 0 ∗ semVal (cellAt cc (⟨2, Nat.le_of_ble_eq_true rfl⟩ : Fin 140)) 0 ∗ semVal (cellAt cc (⟨3, Nat.le_of_ble_eq_true rfl⟩ : Fin 140)) 0 ∗ semVal (cellAt cc (⟨4, Nat.le_of_ble_eq_true rfl⟩ : Fin 140)) 0 ∗ semVal (cellAt cc (⟨5, Nat.le_of_ble_eq_true rfl⟩ : Fin 140)) 0 ∗ semVal (cellAt cc (⟨6, Nat.le_of_ble_eq_true rfl⟩ : Fin 140)) 0 ∗ semVal (cellAt cc (⟨7, Nat.le_of_ble_eq_true rfl⟩ : Fin 140)) 0 ∗ semVal (cellAt cc (⟨8, Nat.le_of_ble_eq_true rfl⟩ : Fin 140)) 0 ∗ semVal (cellAt cc (⟨9, Nat.le_of_ble_eq_true rfl⟩ : Fin 140)) 0 ∗ semVal (cellAt cc (⟨10, Nat.le_of_ble_eq_true rfl⟩ : Fin 140)) 0 ∗ semVal (cellAt cc (⟨11, Nat.le_of_ble_eq_true rfl⟩ : Fin 140)) 0 ∗ semVal (cellAt cc (⟨12, Nat.le_of_ble_eq_true rfl⟩ : Fin 140)) 0 ∗ semVal (cellAt cc (⟨13, Nat.le_of_ble_eq_true rfl⟩ : Fin 140)) 0 ∗ semVal (cellAt cc (⟨14, Nat.le_of_ble_eq_true rfl⟩ : Fin 140)) 0 ∗ semVal (cellAt cc (⟨15, Nat.le_of_ble_eq_true rfl⟩ : Fin 140)) 0 ∗ semVal (cellAt cc (⟨16, Nat.le_of_ble_eq_true rfl⟩ : Fin 140)) 0 ∗ semVal (cellAt cc (⟨17, Nat.le_of_ble_eq_true rfl⟩ : Fin 140)) 0 ∗ semVal (cellAt cc (⟨18, Nat.le_of_ble_eq_true rfl⟩ : Fin 140)) 0 ∗ semVal (cellAt cc (⟨19, Nat.le_of_ble_eq_true rfl⟩ : Fin 140)) 0 ∗ semVal (cellAt cc (⟨20, Nat.le_of_ble_eq_true rfl⟩ : Fin 140)) 0 ∗ semVal (cellAt cc (⟨21, Nat.le_of_ble_eq_true rfl⟩ : Fin 140)) 0 ∗ semVal (cellAt cc (⟨22, Nat.le_of_ble_eq_true rfl⟩ : Fin 140)) 0 ∗ semVal (cellAt cc (⟨23, Nat.le_of_ble_eq_true rfl⟩ : Fin 140)) 0 ∗ semVal (cellAt cc (⟨24, Nat.le_of_ble_eq_true rfl⟩ : Fin 140)) 0 ∗ semVal (cellAt cc (⟨25, Nat.le_of_ble_eq_true rfl⟩ : Fin 140)) 0 ∗ semVal (cellAt cc (⟨26, Nat.le_of_ble_eq_true rfl⟩ : Fin 140)) 0 ∗ semVal (cellAt cc (⟨27, Nat.le_of_ble_eq_true rfl⟩ : Fin 140)) 0 ∗ semVal (cellAt cc (⟨28, Nat.le_of_ble_eq_true rfl⟩ : Fin 140)) 0 ∗ semVal (cellAt cc (⟨29, Nat.le_of_ble_eq_true rfl⟩ : Fin 140)) 0 ∗ semVal (cellAt cc (⟨30, Nat.le_of_ble_eq_true rfl⟩ : Fin 140)) 0 ∗ semVal (cellAt cc (⟨31, Nat.le_of_ble_eq_true rfl⟩ : Fin 140)) 0 ∗ semVal (cellAt cc (⟨32, Nat.le_of_ble_eq_true rfl⟩ : Fin 140)) 0 ∗ semVal (cellAt cc (⟨33, Nat.le_of_ble_eq_true rfl⟩ : Fin 140)) 0 ∗ semVal (cellAt cc (⟨34, Nat.le_of_ble_eq_true rfl⟩ : Fin 140)) 0 ∗ semVal (cellAt cc (⟨35, Nat.le_of_ble_eq_true rfl⟩ : Fin 140)) 0 ∗ semVal (cellAt cc (⟨36, Nat.le_of_ble_eq_true rfl⟩ : Fin 140)) 0 ∗ semVal (cellAt cc (⟨37, Nat.le_of_ble_eq_true rfl⟩ : Fin 140)) 0 ∗ semVal (cellAt cc (⟨38, Nat.le_of_ble_eq_true rfl⟩ : Fin 140)) 0 ∗ semVal (cellAt cc (⟨39, Nat.le_of_ble_eq_true rfl⟩ : Fin 140)) 0 ∗ semVal (cellAt cc (⟨40, Nat.le_of_ble_eq_true rfl⟩ : Fin 140)) 0 ∗ semVal (cellAt cc (⟨41, Nat.le_of_ble_eq_true rfl⟩ : Fin 140)) 0 ∗ semVal (cellAt cc (⟨42, Nat.le_of_ble_eq_true rfl⟩ : Fin 140)) 0 ∗ semVal (cellAt cc (⟨43, Nat.le_of_ble_eq_true rfl⟩ : Fin 140)) 0 ∗ semVal (cellAt cc (⟨44, Nat.le_of_ble_eq_true rfl⟩ : Fin 140)) 0 ∗ semVal (cellAt cc (⟨45, Nat.le_of_ble_eq_true rfl⟩ : Fin 140)) 0 ∗ semVal (cellAt cc (⟨46, Nat.le_of_ble_eq_true rfl⟩ : Fin 140)) 0 ∗ semVal (cellAt cc (⟨47, Nat.le_of_ble_eq_true rfl⟩ : Fin 140)) 0 ∗ semVal (cellAt cc (⟨48, Nat.le_of_ble_eq_true rfl⟩ : Fin 140)) 0 ∗ semVal (cellAt cc (⟨49, Nat.le_of_ble_eq_true rfl⟩ : Fin 140)) 0 ∗ semVal (cellAt cc (⟨50, Nat.le_of_ble_eq_true rfl⟩ : Fin 140)) 0 ∗ semVal (cellAt cc (⟨51, Nat.le_of_ble_eq_true rfl⟩ : Fin 140)) 0 ∗ semVal (cellAt cc (⟨52, Nat.le_of_ble_eq_true rfl⟩ : Fin 140)) 0 ∗ semVal (cellAt cc (⟨53, Nat.le_of_ble_eq_true rfl⟩ : Fin 140)) 0 ∗ semVal (cellAt cc (⟨54, Nat.le_of_ble_eq_true rfl⟩ : Fin 140)) 0 ∗ semVal (cellAt cc (⟨55, Nat.le_of_ble_eq_true rfl⟩ : Fin 140)) 0 ∗ semVal (cellAt cc (⟨56, Nat.le_of_ble_eq_true rfl⟩ : Fin 140)) 0 ∗ semVal (cellAt cc (⟨57, Nat.le_of_ble_eq_true rfl⟩ : Fin 140)) 0 ∗ semVal (cellAt cc (⟨58, Nat.le_of_ble_eq_true rfl⟩ : Fin 140)) 0 ∗ semVal (cellAt cc (⟨59, Nat.le_of_ble_eq_true rfl⟩ : Fin 140)) 0 ∗ semVal (cellAt cc (⟨60, Nat.le_of_ble_eq_true rfl⟩ : Fin 140)) 0 ∗ semVal (cellAt cc (⟨61, Nat.le_of_ble_eq_true rfl⟩ : Fin 140)) 0 ∗ semVal (cellAt cc (⟨62, Nat.le_of_ble_eq_true rfl⟩ : Fin 140)) 0 ∗ semVal (cellAt cc (⟨63, Nat.le_of_ble_eq_true rfl⟩ : Fin 140)) 0 ∗ semVal (cellAt cc (⟨64, Nat.le_of_ble_eq_true rfl⟩ : Fin 140)) 0 ∗ semVal (cellAt cc (⟨65, Nat.le_of_ble_eq_true rfl⟩ : Fin 140)) 0 ∗ semVal (cellAt cc (⟨66, Nat.le_of_ble_eq_true rfl⟩ : Fin 140)) 0 ∗ semVal (cellAt cc (⟨67, Nat.le_of_ble_eq_true rfl⟩ : Fin 140)) 0 ∗ semVal (cellAt cc (⟨68, Nat.le_of_ble_eq_true rfl⟩ : Fin 140)) 0 ∗ semVal (cellAt cc (⟨69, Nat.le_of_ble_eq_true rfl⟩ : Fin 140)) 0 ∗ semVal (cellAt cc (⟨70, Nat.le_of_ble_eq_true rfl⟩ : Fin 140)) 0 ∗ semVal (cellAt cc (⟨71, Nat.le_of_ble_eq_true rfl⟩ : Fin 140)) 0 ∗ semVal (cellAt cc (⟨72, Nat.le_of_ble_eq_true rfl⟩ : Fin 140)) 0 ∗ semVal (cellAt cc (⟨73, Nat.le_of_ble_eq_true rfl⟩ : Fin 140)) 0 ∗ semVal (cellAt cc (⟨74, Nat.le_of_ble_eq_true rfl⟩ : Fin 140)) 0 ∗ semVal (cellAt cc (⟨75, Nat.le_of_ble_eq_true rfl⟩ : Fin 140)) 0 ∗ semVal (cellAt cc (⟨76, Nat.le_of_ble_eq_true rfl⟩ : Fin 140)) 0 ∗ semVal (cellAt cc (⟨77, Nat.le_of_ble_eq_true rfl⟩ : Fin 140)) 0 ∗ semVal (cellAt cc (⟨78, Nat.le_of_ble_eq_true rfl⟩ : Fin 140)) 0 ∗ semVal (cellAt cc (⟨79, Nat.le_of_ble_eq_true rfl⟩ : Fin 140)) 0 ∗ semVal (cellAt cc (⟨80, Nat.le_of_ble_eq_true rfl⟩ : Fin 140)) 0 ∗ semVal (cellAt cc (⟨81, Nat.le_of_ble_eq_true rfl⟩ : Fin 140)) 0 ∗ semVal (cellAt cc (⟨82, Nat.le_of_ble_eq_true rfl⟩ : Fin 140)) 0 ∗ semVal (cellAt cc (⟨83, Nat.le_of_ble_eq_true rfl⟩ : Fin 140)) 0 ∗ semVal (cellAt cc (⟨84, Nat.le_of_ble_eq_true rfl⟩ : Fin 140)) 0 ∗ semVal (cellAt cc (⟨85, Nat.le_of_ble_eq_true rfl⟩ : Fin 140)) 0 ∗ semVal (cellAt cc (⟨86, Nat.le_of_ble_eq_true rfl⟩ : Fin 140)) 0 ∗ semVal (cellAt cc (⟨87, Nat.le_of_ble_eq_true rfl⟩ : Fin 140)) 0 ∗ semVal (cellAt cc (⟨88, Nat.le_of_ble_eq_true rfl⟩ : Fin 140)) 0 ∗ semVal (cellAt cc (⟨89, Nat.le_of_ble_eq_true rfl⟩ : Fin 140)) 0 ∗ semVal (cellAt cc (⟨90, Nat.le_of_ble_eq_true rfl⟩ : Fin 140)) 0 ∗ semVal (cellAt cc (⟨91, Nat.le_of_ble_eq_true rfl⟩ : Fin 140)) 0 ∗ semVal (cellAt cc (⟨92, Nat.le_of_ble_eq_true rfl⟩ : Fin 140)) 0 ∗ semVal (cellAt cc (⟨93, Nat.le_of_ble_eq_true rfl⟩ : Fin 140)) 0 ∗ semVal (cellAt cc (⟨94, Nat.le_of_ble_eq_true rfl⟩ : Fin 140)) 0 ∗ semVal (cellAt cc (⟨95, Nat.le_of_ble_eq_true rfl⟩ : Fin 140)) 0 ∗ semVal (cellAt cc (⟨96, Nat.le_of_ble_eq_true rfl⟩ : Fin 140)) 0 ∗ semVal (cellAt cc (⟨97, Nat.le_of_ble_eq_true rfl⟩ : Fin 140)) 0 ∗ semVal (cellAt cc (⟨98, Nat.le_of_ble_eq_true rfl⟩ : Fin 140)) 0 ∗ semVal (cellAt cc (⟨99, Nat.le_of_ble_eq_true rfl⟩ : Fin 140)) 0 ∗ semVal (cellAt cc (⟨100, Nat.le_of_ble_eq_true rfl⟩ : Fin 140)) 0 ∗ semVal (cellAt cc (⟨101, Nat.le_of_ble_eq_true rfl⟩ : Fin 140)) 0 ∗ semVal (cellAt cc (⟨102, Nat.le_of_ble_eq_true rfl⟩ : Fin 140)) 0 ∗ semVal (cellAt cc (⟨103, Nat.le_of_ble_eq_true rfl⟩ : Fin 140)) 0 ∗ semVal (cellAt cc (⟨104, Nat.le_of_ble_eq_true rfl⟩ : Fin 140)) 0 ∗ semVal (cellAt cc (⟨105, Nat.le_of_ble_eq_true rfl⟩ : Fin 140)) 0 ∗ semVal (cellAt cc (⟨106, Nat.le_of_ble_eq_true rfl⟩ : Fin 140)) 0 ∗ semVal (cellAt cc (⟨107, Nat.le_of_ble_eq_true rfl⟩ : Fin 140)) 0 ∗ semVal (cellAt cc (⟨108, Nat.le_of_ble_eq_true rfl⟩ : Fin 140)) 0 ∗ semVal (cellAt cc (⟨109, Nat.le_of_ble_eq_true rfl⟩ : Fin 140)) 0 ∗ semVal (cellAt cc (⟨110, Nat.le_of_ble_eq_true rfl⟩ : Fin 140)) 0 ∗ semVal (cellAt cc (⟨111, Nat.le_of_ble_eq_true rfl⟩ : Fin 140)) 0 ∗ semVal (cellAt cc (⟨112, Nat.le_of_ble_eq_true rfl⟩ : Fin 140)) 0 ∗ semVal (cellAt cc (⟨113, Nat.le_of_ble_eq_true rfl⟩ : Fin 140)) 0 ∗ semVal (cellAt cc (⟨114, Nat.le_of_ble_eq_true rfl⟩ : Fin 140)) 0 ∗ semVal (cellAt cc (⟨115, Nat.le_of_ble_eq_true rfl⟩ : Fin 140)) 0 ∗ semVal (cellAt cc (⟨116, Nat.le_of_ble_eq_true rfl⟩ : Fin 140)) 0 ∗ semVal (cellAt cc (⟨117, Nat.le_of_ble_eq_true rfl⟩ : Fin 140)) 0 ∗ semVal (cellAt cc (⟨118, Nat.le_of_ble_eq_true rfl⟩ : Fin 140)) 0 ∗ semVal (cellAt cc (⟨119, Nat.le_of_ble_eq_true rfl⟩ : Fin 140)) 0 ∗ semVal (cellAt cc (⟨120, Nat.le_of_ble_eq_true rfl⟩ : Fin 140)) 0 ∗ semVal (cellAt cc (⟨121, Nat.le_of_ble_eq_true rfl⟩ : Fin 140)) 0 ∗ semVal (cellAt cc (⟨122, Nat.le_of_ble_eq_true rfl⟩ : Fin 140)) 0 ∗ semVal (cellAt cc (⟨123, Nat.le_of_ble_eq_true rfl⟩ : Fin 140)) 0 ∗ semVal (cellAt cc (⟨124, Nat.le_of_ble_eq_true rfl⟩ : Fin 140)) 0 ∗ semVal (cellAt cc (⟨125, Nat.le_of_ble_eq_true rfl⟩ : Fin 140)) 0 ∗ semVal (cellAt cc (⟨126, Nat.le_of_ble_eq_true rfl⟩ : Fin 140)) 0 ∗ semVal (cellAt cc (⟨127, Nat.le_of_ble_eq_true rfl⟩ : Fin 140)) 0 ∗ semVal (cellAt cc (⟨128, Nat.le_of_ble_eq_true rfl⟩ : Fin 140)) 0 ∗ semVal (cellAt cc (⟨129, Nat.le_of_ble_eq_true rfl⟩ : Fin 140)) 0 ∗ semVal (cellAt cc (⟨130, Nat.le_of_ble_eq_true rfl⟩ : Fin 140)) 0 ∗ semVal (cellAt cc (⟨131, Nat.le_of_ble_eq_true rfl⟩ : Fin 140)) 0 ∗ semVal (cellAt cc (⟨132, Nat.le_of_ble_eq_true rfl⟩ : Fin 140)) 0 ∗ semVal (cellAt cc (⟨133, Nat.le_of_ble_eq_true rfl⟩ : Fin 140)) 0 ∗ semVal (cellAt cc (⟨134, Nat.le_of_ble_eq_true rfl⟩ : Fin 140)) 0 ∗ semVal (cellAt cc (⟨135, Nat.le_of_ble_eq_true rfl⟩ : Fin 140)) 0 ∗ semVal (cellAt cc (⟨136, Nat.le_of_ble_eq_true rfl⟩ : Fin 140)) 0 ∗ semVal (cellAt cc (⟨137, Nat.le_of_ble_eq_true rfl⟩ : Fin 140)) 0 ∗ semVal (cellAt cc (⟨138, Nat.le_of_ble_eq_true rfl⟩ : Fin 140)) 0 ∗ semVal (cellAt cc (⟨139, Nat.le_of_ble_eq_true rfl⟩ : Fin 140)) 0) : sProp 𝕄) = (bigSepL allJ fun j => semVal (cellAt cc j) 0) from rfl))
    isplitl [Hv0]
    · iexact Hv0
    isplitl [Hv1]
    · iexact Hv1
    isplitl [Hv2]
    · iexact Hv2
    isplitl [Hv3]
    · iexact Hv3
    isplitl [Hv4]
    · iexact Hv4
    isplitl [Hv5]
    · iexact Hv5
    isplitl [Hv6]
    · iexact Hv6
    isplitl [Hv7]
    · iexact Hv7
    isplitl [Hv8]
    · iexact Hv8
    isplitl [Hv9]
    · iexact Hv9
    isplitl [Hv10]
    · iexact Hv10
    isplitl [Hv11]
    · iexact Hv11
    isplitl [Hv12]
    · iexact Hv12
    isplitl [Hv13]
    · iexact Hv13
    isplitl [Hv14]
    · iexact Hv14
    isplitl [Hv15]
    · iexact Hv15
    isplitl [Hv16]
    · iexact Hv16
    isplitl [Hv17]
    · iexact Hv17
    isplitl [Hv18]
    · iexact Hv18
    isplitl [Hv19]
    · iexact Hv19
    isplitl [Hv20]
    · iexact Hv20
    isplitl [Hv21]
    · iexact Hv21
    isplitl [Hv22]
    · iexact Hv22
    isplitl [Hv23]
    · iexact Hv23
    isplitl [Hv24]
    · iexact Hv24
    isplitl [Hv25]
    · iexact Hv25
    isplitl [Hv26]
    · iexact Hv26
    isplitl [Hv27]
    · iexact Hv27
    isplitl [Hv28]
    · iexact Hv28
    isplitl [Hv29]
    · iexact Hv29
    isplitl [Hv30]
    · iexact Hv30
    isplitl [Hv31]
    · iexact Hv31
    isplitl [Hv32]
    · iexact Hv32
    isplitl [Hv33]
    · iexact Hv33
    isplitl [Hv34]
    · iexact Hv34
    isplitl [Hv35]
    · iexact Hv35
    isplitl [Hv36]
    · iexact Hv36
    isplitl [Hv37]
    · iexact Hv37
    isplitl [Hv38]
    · iexact Hv38
    isplitl [Hv39]
    · iexact Hv39
    isplitl [Hv40]
    · iexact Hv40
    isplitl [Hv41]
    · iexact Hv41
    isplitl [Hv42]
    · iexact Hv42
    isplitl [Hv43]
    · iexact Hv43
    isplitl [Hv44]
    · iexact Hv44
    isplitl [Hv45]
    · iexact Hv45
    isplitl [Hv46]
    · iexact Hv46
    isplitl [Hv47]
    · iexact Hv47
    isplitl [Hv48]
    · iexact Hv48
    isplitl [Hv49]
    · iexact Hv49
    isplitl [Hv50]
    · iexact Hv50
    isplitl [Hv51]
    · iexact Hv51
    isplitl [Hv52]
    · iexact Hv52
    isplitl [Hv53]
    · iexact Hv53
    isplitl [Hv54]
    · iexact Hv54
    isplitl [Hv55]
    · iexact Hv55
    isplitl [Hv56]
    · iexact Hv56
    isplitl [Hv57]
    · iexact Hv57
    isplitl [Hv58]
    · iexact Hv58
    isplitl [Hv59]
    · iexact Hv59
    isplitl [Hv60]
    · iexact Hv60
    isplitl [Hv61]
    · iexact Hv61
    isplitl [Hv62]
    · iexact Hv62
    isplitl [Hv63]
    · iexact Hv63
    isplitl [Hv64]
    · iexact Hv64
    isplitl [Hv65]
    · iexact Hv65
    isplitl [Hv66]
    · iexact Hv66
    isplitl [Hv67]
    · iexact Hv67
    isplitl [Hv68]
    · iexact Hv68
    isplitl [Hv69]
    · iexact Hv69
    isplitl [Hv70]
    · iexact Hv70
    isplitl [Hv71]
    · iexact Hv71
    isplitl [Hv72]
    · iexact Hv72
    isplitl [Hv73]
    · iexact Hv73
    isplitl [Hv74]
    · iexact Hv74
    isplitl [Hv75]
    · iexact Hv75
    isplitl [Hu76]
    · iexact Hu76
    isplitl [Hu77]
    · iexact Hu77
    isplitl [Hu78]
    · iexact Hu78
    isplitl [Hv79]
    · iexact Hv79
    isplitl [Hv80]
    · iexact Hv80
    isplitl [Hv81]
    · iexact Hv81
    isplitl [Hv82]
    · iexact Hv82
    isplitl [Hv83]
    · iexact Hv83
    isplitl [Hu84]
    · iexact Hu84
    isplitl [Hu85]
    · iexact Hu85
    isplitl [Hu86]
    · iexact Hu86
    isplitl [Hv87]
    · iexact Hv87
    isplitl [Hv88]
    · iexact Hv88
    isplitl [Hv89]
    · iexact Hv89
    isplitl [Hv90]
    · iexact Hv90
    isplitl [Hv91]
    · iexact Hv91
    isplitl [Hu92]
    · iexact Hu92
    isplitl [Hu93]
    · iexact Hu93
    isplitl [Hu94]
    · iexact Hu94
    isplitl [Hv95]
    · iexact Hv95
    isplitl [Hv96]
    · iexact Hv96
    isplitl [Hv97]
    · iexact Hv97
    isplitl [Hv98]
    · iexact Hv98
    isplitl [Hv99]
    · iexact Hv99
    isplitl [Hu100]
    · iexact Hu100
    isplitl [Hu101]
    · iexact Hu101
    isplitl [Hu102]
    · iexact Hu102
    isplitl [Hv103]
    · iexact Hv103
    isplitl [Hv104]
    · iexact Hv104
    isplitl [Hv105]
    · iexact Hv105
    isplitl [Hv106]
    · iexact Hv106
    isplitl [Hv107]
    · iexact Hv107
    isplitl [Hw0a]
    · iexact Hw0a
    isplitl [Hw0b]
    · iexact Hw0b
    isplitl [Hw0c]
    · iexact Hw0c
    isplitl [Hw0d]
    · iexact Hw0d
    isplitl [Hw1a]
    · iexact Hw1a
    isplitl [Hw1b]
    · iexact Hw1b
    isplitl [Hw1c]
    · iexact Hw1c
    isplitl [Hw1d]
    · iexact Hw1d
    isplitl [Hw2a]
    · iexact Hw2a
    isplitl [Hw2b]
    · iexact Hw2b
    isplitl [Hw2c]
    · iexact Hw2c
    isplitl [Hw2d]
    · iexact Hw2d
    isplitl [Hw3a]
    · iexact Hw3a
    isplitl [Hw3b]
    · iexact Hw3b
    isplitl [Hw3c]
    · iexact Hw3c
    isplitl [Hw3d]
    · iexact Hw3d
    isplitl [Hw4a]
    · iexact Hw4a
    isplitl [Hw4b]
    · iexact Hw4b
    isplitl [Hw4c]
    · iexact Hw4c
    isplitl [Hw4d]
    · iexact Hw4d
    isplitl [Hw5a]
    · iexact Hw5a
    isplitl [Hw5b]
    · iexact Hw5b
    isplitl [Hw5c]
    · iexact Hw5c
    isplitl [Hw5d]
    · iexact Hw5d
    isplitl [Hw6a]
    · iexact Hw6a
    isplitl [Hw6b]
    · iexact Hw6b
    isplitl [Hw6c]
    · iexact Hw6c
    isplitl [Hw6d]
    · iexact Hw6d
    isplitl [Hw7a]
    · iexact Hw7a
    isplitl [Hw7b]
    · iexact Hw7b
    isplitl [Hw7c]
    · iexact Hw7c
    iexact Hw7d
  iexists _; iexact HO

end Cert.Kernel.RS.D3

end
-- ==== Proof.K.Body4.lean ====
import proofs.«901022_g7700000000001023_dist_rs_v7x_xyz2x2x2_x_m4096_n1024_bf16_1_alg».proof.Proof.K.BodyAux
import proofs.«901022_g7700000000001023_dist_rs_v7x_xyz2x2x2_x_m4096_n1024_bf16_1_alg».proof.Proof.K.BodyPre
import proofs.«901022_g7700000000001023_dist_rs_v7x_xyz2x2x2_x_m4096_n1024_bf16_1_alg».proof.Proof.K.OutRules

/-! The body of the kernel on device 4 of the mesh, from its precondition (BodyPre) to its postcondition (bodyPost).

    The program is straight-line code of 4045 statements. Its local steps — the 54 copies between the input, the staging
    buffers, the four-quarter buffer and the result, their waits, the loads and the stores — are run by the library's symbolic
    executor on hypotheses that hold each 512-row chunk through the slice the program itself names. Its remote steps are
    taken by the rounds library's rules, one application each: three barrier signals and the wait for the three
    neighbours; 37 copies to a neighbour, each lending the source chunk (at a share, where the chunk is also read by another
    copy) and landing the chunk's final contents; the waits on the 37 receive cells, which hand back the landed chunks; the
    final waits on the 37 send cells, which hand back what was lent. Whenever a chunk has been written (by a landing copy or
    by a store) it is restated as "holds its final contents" (Spec), which is what the next copy's payload asks for.
    A wait is allowed because whatever the device still owes at that point lies above the awaited cell (Owed): decided on the
    list of payments not yet made. At the end every cell has had its one round and is closed, and the pieces of every
    buffer are put back. -/

set_option maxRecDepth 8000

noncomputable section

namespace Cert.Kernel.RS.D4

open Cert.Kernel Cert.Kernel.Gen Cert.Kernel.RS
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local notation "cc" => (Fin.mk 4 (Nat.le_of_ble_eq_true rfl) : Dev nD)

set_option maxHeartbeats 1600000 in
theorem dev (m : (ℓ : Loc nD τ sig) → Buf (Elt F) ℓ) (K : GSem nD τ sig → ℕ) (W : Waits sig Unit) (Kt : PUnit → sProp 𝕄) :
    iprop(bodyPre m K cc W ∗ (bodyPost m cc -∗ Kt ⟨⟩))
      ⊢ wp frame (wpE (defs₀ (F := F)) 𝒱₀ (cc : Thread nD τ) none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25) Kt := by
  unfold bodyPre O₀
  iintro ⟨⟨HIt, HIw, HRt, #Hlev, HO, Hcr, HpR, HpS, Htk, HX, Hout, HS0, HS1, HS2, HS3, HS4, HS5, HS6, HS7, HS8, HvI, HvO, HvU⟩, Hk⟩
  rw [cc0_body_eq_skeleton]; unfold cc0_body_skel
  -- the four-quarter buffer in the pieces that travel
  ihave H0 := (Entails.of_eq (junk_whole (F := F) cc cc0_scratch0)) $$ HS0
  icases H0 with ⟨%f0, H0⟩
  ihave H4 := (r4_entry (F := F) cc f0) $$ H0
  icases H4 with ⟨Hown, HgZ, HgY, Hdg, HhZ, HhY⟩
  sl_exec

  icases Htk with ⟨Htb, Htk⟩
  icases HIt with ⟨#HIbpx, HIt⟩
  icases HRt with ⟨#HRbpx, HRt⟩
  iapply (sig_bar m cc _ (px cc) (dev1_eq cc) 0 (by decide) (owedL (List.drop 1 (paysL cc))) rfl) $$ [HO Htb HS2 HS4]
  · isplitr; · iexact HIbpx
    isplitl [HO]; · iexact HO
    isplitl [Htb]; · iexact Htb
    isplitl [HS2 HS4]
    · iapply (Entails.of_eq ((barPay_zero (F := F) (px cc)).trans (by rw [px_px])).symm)
      unfold giveX
      isplitl [HS2]; · iexact HS2
      iexact HS4
    · iexact HRbpx
  iintro HO
  sl_exec

  icases Htk with ⟨Htb, Htk⟩
  icases HIt with ⟨#HIbpz, HIt⟩
  icases HRt with ⟨#HRbpz, HRt⟩
  iapply (sig_bar m cc _ (pz cc) (dev2_eq cc) 2 (by decide) (owedL (List.drop 2 (paysL cc))) rfl) $$ [HO Htb HgZ HhZ]
  · isplitr; · iexact HIbpz
    isplitl [HO]; · iexact HO
    isplitl [Htb]; · iexact Htb
    isplitl [HgZ HhZ]
    · iapply (Entails.of_eq ((barPay_two (F := F) (pz cc)).trans (by rw [pz_pz])).symm)
      isplitl [HgZ]; · iexact HgZ
      iexact HhZ
    · iexact HRbpz
  iintro HO
  sl_exec

  icases Htk with ⟨Htb, Htk⟩
  icases HIt with ⟨#HIbpy, HIt⟩
  icases HRt with ⟨#HRbpy, HRt⟩
  iapply (sig_bar m cc _ (py cc) (dev3_eq cc) 1 (by decide) (owedL (List.drop 3 (paysL cc))) rfl) $$ [HO Htb HgY HhY]
  · isplitr; · iexact HIbpy
    isplitl [HO]; · iexact HO
    isplitl [Htb]; · iexact Htb
    isplitl [HgY HhY]
    · iapply (Entails.of_eq ((barPay_one (F := F) (py cc)).trans (by rw [py_py])).symm)
      isplitl [HgY]; · iexact HgY
      iexact HhY
    · iexact HRbpy
  iintro HO
  sl_exec
  -- the wait for the three neighbours
  icases Hcr with ⟨Hcb, Hcr⟩
  icases HpR with ⟨Hpb, HpR⟩
  icases HIw with ⟨#HIb, HIw⟩
  ihave Hmw := (mayWait_list (F := F) cc (.reg barS) (List.drop 3 (paysL cc)) (by decide)) $$ Hlev
  iapply (wait_bar m cc (by decide)) $$ [Hcb HO Hmw Hpb]
  · isplitr; · iexact HIb
    isplitl [Hcb]; · iexact Hcb
    isplitl [HO]; · iexact HO
    isplitl [Hmw]; · iexact Hmw
    iexact Hpb
  iintro ⟨HO, Hpb, -, Hgx, Hgy, Hgz⟩
  -- what they handed over: the x-neighbour's landing buffers chunk by chunk, the y- and z-neighbours' quarter and halves
  ihave Hgx := (Entails.of_eq (barPay_zero (F := F) cc)) $$ Hgx
  ihave Hgx := (giveX_rows (F := F) (px cc)) $$ Hgx
  icases Hgx with ⟨Hrbp, Hrb2p⟩
  ihave Hgy := (Entails.of_eq (barPay_one (F := F) cc)) $$ Hgy
  icases Hgy with ⟨HqY, HhYp⟩
  ihave Hgz := (Entails.of_eq (barPay_two (F := F) cc)) $$ Hgz
  icases Hgz with ⟨HqZ, HhZp⟩
  -- this device's staging buffers and send buffers chunk by chunk
  ihave H5 := (Entails.of_eq (junk_whole (F := F) cc cc0_scratch5)) $$ HS5
  icases H5 with ⟨%f5, H5⟩
  ihave H5 := (Entails.of_eq (stP_rows (F := F) cc fullShare f5)) $$ H5
  icases H5 with ⟨HP0, HP1, HP2, HP3, HP4, HP5, HP6, HP7⟩
  ihave H6 := (Entails.of_eq (junk_whole (F := F) cc cc0_scratch6)) $$ HS6
  icases H6 with ⟨%f6, H6⟩
  ihave H6 := (Entails.of_eq (stL_rows (F := F) cc fullShare f6)) $$ H6
  icases H6 with ⟨HL0, HL1, HL2, HL3, HL4, HL5, HL6, HL7⟩
  ihave H7 := (Entails.of_eq (junk_whole (F := F) cc cc0_scratch7)) $$ HS7
  icases H7 with ⟨%f7, H7⟩
  ihave H7 := (Entails.of_eq (stP2_rows (F := F) cc fullShare f7)) $$ H7
  icases H7 with ⟨HP20, HP21, HP22⟩
  ihave H8 := (Entails.of_eq (junk_whole (F := F) cc cc0_scratch8)) $$ HS8
  icases H8 with ⟨%f8, H8⟩
  ihave H8 := (Entails.of_eq (stL2_rows (F := F) cc fullShare f8)) $$ H8
  icases H8 with ⟨HL20, HL21, HL22⟩
  ihave H1 := (Entails.of_eq (junk_whole (F := F) cc cc0_scratch1)) $$ HS1
  icases H1 with ⟨%f1, H1⟩
  ihave H1 := (Entails.of_eq (sb_rows (F := F) cc fullShare f1)) $$ H1
  icases H1 with ⟨HB0, HB1, HB2, HB3, HB4, HB5, HB6, HB7⟩
  ihave H3 := (Entails.of_eq (junk_whole (F := F) cc cc0_scratch3)) $$ HS3
  icases H3 with ⟨%f3, H3⟩
  ihave H3 := (Entails.of_eq (sb2_rows (F := F) cc fullShare f3)) $$ H3
  icases H3 with ⟨HB20, HB21, HB22⟩
  -- the counters of the 22 copies into the staging buffers
  icases HvI with ⟨Hv0, Hv8, Hv1, Hv9, Hv2, Hv10, Hv3, Hv11, Hv4, Hv12, Hv5, Hv13, Hv6, Hv14, Hv7, Hv15, Hv16, Hv19, Hv17, Hv20, Hv18, Hv21⟩
  sl_exec
  -- chunk 0 across x: wait for its copy into the staging buffer, round it into the send buffer, send it
  have hled3 : ∀ (s : DmaSem sig), lvJ s.val = 0 → ((levAts LL lvv : sProp 𝕄) ⊢ MayWait (cc : Thread nD τ) (.dma s) () (owedL (List.drop 3 (paysL cc)))) :=
    fun s hs => mayWait_local (F := F) cc s hs _ (by decide)
  sl_exec
  clear hled3
  ihave HB0 := (congr (F := F) (sbR 0) cc fullShare (dev.sl.HB0_w1 m f1) (sb m cc) (fun i hi => glue_sb m cc 0 _ (k0_off1_inb cc) (k0_off1_eq cc) f1 i hi)) $$ HB0
  -- the copy
  icases Htk with ⟨Hts, Htr, Htk⟩
  icases HIt with ⟨#HIc22, #HIr, HIt⟩
  icases HRt with ⟨#HRs, #HRr, HRt⟩
  icases Hrbp with ⟨⟨%fd, Hd⟩, Hrbp⟩
  iapply (send_x m cc _ (dev4_eq cc) 0 fd (owedL (List.drop 4 (paysL cc))) rfl _) $$ [HB0 Hd HO Hts Htr]
  · isplitr; · iexact HIc22
    isplitr; · iexact HIr
    isplitl [HB0]; · iexact HB0
    isplitl [Hd]; · iexact Hd
    isplitl [HO]; · iexact HO
    isplitl [Hts]; · iexact Hts
    isplitr; · iexact HRs
    isplitl [Htr]; · iexact Htr
    iexact HRr
  iintro ⟨Hcxs0, HO⟩
  iclear HIr HRs HRr
  -- chunk 1 across x: wait for its copy into the staging buffer, round it into the send buffer, send it
  have hled4 : ∀ (s : DmaSem sig), lvJ s.val = 0 → ((levAts LL lvv : sProp 𝕄) ⊢ MayWait (cc : Thread nD τ) (.dma s) () (owedL (List.drop 4 (paysL cc)))) :=
    fun s hs => mayWait_local (F := F) cc s hs _ (by decide)
  sl_exec
  clear hled4
  ihave HB1 := (congr (F := F) (sbR 1) cc fullShare (dev.sl.HB1_w1 m f1) (sb m cc) (fun i hi => glue_sb m cc 1 _ (k0_off3_inb cc) (k0_off3_eq cc) f1 i hi)) $$ HB1
  -- the copy
  icases Htk with ⟨Hts, Htr, Htk⟩
  icases HIt with ⟨#HIc23, #HIr, HIt⟩
  icases HRt with ⟨#HRs, #HRr, HRt⟩
  icases Hrbp with ⟨⟨%fd, Hd⟩, Hrbp⟩
  iapply (send_x m cc _ (dev5_eq cc) 1 fd (owedL (List.drop 5 (paysL cc))) rfl _) $$ [HB1 Hd HO Hts Htr]
  · isplitr; · iexact HIc23
    isplitr; · iexact HIr
    isplitl [HB1]; · iexact HB1
    isplitl [Hd]; · iexact Hd
    isplitl [HO]; · iexact HO
    isplitl [Hts]; · iexact Hts
    isplitr; · iexact HRs
    isplitl [Htr]; · iexact Htr
    iexact HRr
  iintro ⟨Hcxs1, HO⟩
  iclear HIr HRs HRr
  -- chunk 2 across x: wait for its copy into the staging buffer, round it into the send buffer, send it
  have hled5 : ∀ (s : DmaSem sig), lvJ s.val = 0 → ((levAts LL lvv : sProp 𝕄) ⊢ MayWait (cc : Thread nD τ) (.dma s) () (owedL (List.drop 5 (paysL cc)))) :=
    fun s hs => mayWait_local (F := F) cc s hs _ (by decide)
  sl_exec
  clear hled5
  ihave HB2 := (congr (F := F) (sbR 2) cc fullShare (dev.sl.HB2_w1 m f1) (sb m cc) (fun i hi => glue_sb m cc 2 _ (k0_off5_inb cc) (k0_off5_eq cc) f1 i hi)) $$ HB2
  -- the copy
  icases Htk with ⟨Hts, Htr, Htk⟩
  icases HIt with ⟨#HIc24, #HIr, HIt⟩
  icases HRt with ⟨#HRs, #HRr, HRt⟩
  icases Hrbp with ⟨⟨%fd, Hd⟩, Hrbp⟩
  iapply (send_x m cc _ (dev6_eq cc) 2 fd (owedL (List.drop 6 (paysL cc))) rfl _) $$ [HB2 Hd HO Hts Htr]
  · isplitr; · iexact HIc24
    isplitr; · iexact HIr
    isplitl [HB2]; · iexact HB2
    isplitl [Hd]; · iexact Hd
    isplitl [HO]; · iexact HO
    isplitl [Hts]; · iexact Hts
    isplitr; · iexact HRs
    isplitl [Htr]; · iexact Htr
    iexact HRr
  iintro ⟨Hcxs2, HO⟩
  iclear HIr HRs HRr
  -- chunk 3 across x: wait for its copy into the staging buffer, round it into the send buffer, send it
  have hled6 : ∀ (s : DmaSem sig), lvJ s.val = 0 → ((levAts LL lvv : sProp 𝕄) ⊢ MayWait (cc : Thread nD τ) (.dma s) () (owedL (List.drop 6 (paysL cc)))) :=
    fun s hs => mayWait_local (F := F) cc s hs _ (by decide)
  sl_exec
  clear hled6
  ihave HB3 := (congr (F := F) (sbR 3) cc fullShare (dev.sl.HB3_w1 m f1) (sb m cc) (fun i hi => glue_sb m cc 3 _ (k0_off7_inb cc) (k0_off7_eq cc) f1 i hi)) $$ HB3
  -- the copy
  icases Htk with ⟨Hts, Htr, Htk⟩
  icases HIt with ⟨#HIc25, #HIr, HIt⟩
  icases HRt with ⟨#HRs, #HRr, HRt⟩
  icases Hrbp with ⟨⟨%fd, Hd⟩, Hrbp⟩
  iapply (send_x m cc _ (dev7_eq cc) 3 fd (owedL (List.drop 7 (paysL cc))) rfl _) $$ [HB3 Hd HO Hts Htr]
  · isplitr; · iexact HIc25
    isplitr; · iexact HIr
    isplitl [HB3]; · iexact HB3
    isplitl [Hd]; · iexact Hd
    isplitl [HO]; · iexact HO
    isplitl [Hts]; · iexact Hts
    isplitr; · iexact HRs
    isplitl [Htr]; · iexact Htr
    iexact HRr
  iintro ⟨Hcxs3, HO⟩
  iclear HIr HRs HRr
  -- chunk 4 across x: wait for its copy into the staging buffer, round it into the send buffer, send it
  have hled7 : ∀ (s : DmaSem sig), lvJ s.val = 0 → ((levAts LL lvv : sProp 𝕄) ⊢ MayWait (cc : Thread nD τ) (.dma s) () (owedL (List.drop 7 (paysL cc)))) :=
    fun s hs => mayWait_local (F := F) cc s hs _ (by decide)
  sl_exec
  clear hled7
  ihave HB4 := (congr (F := F) (sbR 4) cc fullShare (dev.sl.HB4_w1 m f1) (sb m cc) (fun i hi => glue_sb m cc 4 _ (k0_off9_inb cc) (k0_off9_eq cc) f1 i hi)) $$ HB4
  -- the copy
  icases Htk with ⟨Hts, Htr, Htk⟩
  icases HIt with ⟨#HIc26, #HIr, HIt⟩
  icases HRt with ⟨#HRs, #HRr, HRt⟩
  icases Hrbp with ⟨⟨%fd, Hd⟩, Hrbp⟩
  iapply (send_x m cc _ (dev8_eq cc) 4 fd (owedL (List.drop 8 (paysL cc))) rfl _) $$ [HB4 Hd HO Hts Htr]
  · isplitr; · iexact HIc26
    isplitr; · iexact HIr
    isplitl [HB4]; · iexact HB4
    isplitl [Hd]; · iexact Hd
    isplitl [HO]; · iexact HO
    isplitl [Hts]; · iexact Hts
    isplitr; · iexact HRs
    isplitl [Htr]; · iexact Htr
    iexact HRr
  iintro ⟨Hcxs4, HO⟩
  iclear HIr HRs HRr
  -- chunk 5 across x: wait for its copy into the staging buffer, round it into the send buffer, send it
  have hled8 : ∀ (s : DmaSem sig), lvJ s.val = 0 → ((levAts LL lvv : sProp 𝕄) ⊢ MayWait (cc : Thread nD τ) (.dma s) () (owedL (List.drop 8 (paysL cc)))) :=
    fun s hs => mayWait_local (F := F) cc s hs _ (by decide)
  sl_exec
  clear hled8
  ihave HB5 := (congr (F := F) (sbR 5) cc fullShare (dev.sl.HB5_w1 m f1) (sb m cc) (fun i hi => glue_sb m cc 5 _ (k0_off11_inb cc) (k0_off11_eq cc) f1 i hi)) $$ HB5
  -- the copy
  icases Htk with ⟨Hts, Htr, Htk⟩
  icases HIt with ⟨#HIc27, #HIr, HIt⟩
  icases HRt with ⟨#HRs, #HRr, HRt⟩
  icases Hrbp with ⟨⟨%fd, Hd⟩, Hrbp⟩
  iapply (send_x m cc _ (dev9_eq cc) 5 fd (owedL (List.drop 9 (paysL cc))) rfl _) $$ [HB5 Hd HO Hts Htr]
  · isplitr; · iexact HIc27
    isplitr; · iexact HIr
    isplitl [HB5]; · iexact HB5
    isplitl [Hd]; · iexact Hd
    isplitl [HO]; · iexact HO
    isplitl [Hts]; · iexact Hts
    isplitr; · iexact HRs
    isplitl [Htr]; · iexact Htr
    iexact HRr
  iintro ⟨Hcxs5, HO⟩
  iclear HIr HRs HRr
  -- chunk 6 across x: wait for its copy into the staging buffer, round it into the send buffer, send it
  have hled9 : ∀ (s : DmaSem sig), lvJ s.val = 0 → ((levAts LL lvv : sProp 𝕄) ⊢ MayWait (cc : Thread nD τ) (.dma s) () (owedL (List.drop 9 (paysL cc)))) :=
    fun s hs => mayWait_local (F := F) cc s hs _ (by decide)
  sl_exec
  clear hled9
  ihave HB6 := (congr (F := F) (sbR 6) cc fullShare (dev.sl.HB6_w1 m f1) (sb m cc) (fun i hi => glue_sb m cc 6 _ (k0_off13_inb cc) (k0_off13_eq cc) f1 i hi)) $$ HB6
  -- the copy
  icases Htk with ⟨Hts, Htr, Htk⟩
  icases HIt with ⟨#HIc28, #HIr, HIt⟩
  icases HRt with ⟨#HRs, #HRr, HRt⟩
  icases Hrbp with ⟨⟨%fd, Hd⟩, Hrbp⟩
  iapply (send_x m cc _ (dev10_eq cc) 6 fd (owedL (List.drop 10 (paysL cc))) rfl _) $$ [HB6 Hd HO Hts Htr]
  · isplitr; · iexact HIc28
    isplitr; · iexact HIr
    isplitl [HB6]; · iexact HB6
    isplitl [Hd]; · iexact Hd
    isplitl [HO]; · iexact HO
    isplitl [Hts]; · iexact Hts
    isplitr; · iexact HRs
    isplitl [Htr]; · iexact Htr
    iexact HRr
  iintro ⟨Hcxs6, HO⟩
  iclear HIr HRs HRr
  -- chunk 7 across x: wait for its copy into the staging buffer, round it into the send buffer, send it
  have hled10 : ∀ (s : DmaSem sig), lvJ s.val = 0 → ((levAts LL lvv : sProp 𝕄) ⊢ MayWait (cc : Thread nD τ) (.dma s) () (owedL (List.drop 10 (paysL cc)))) :=
    fun s hs => mayWait_local (F := F) cc s hs _ (by decide)
  sl_exec
  clear hled10
  ihave HB7 := (congr (F := F) (sbR 7) cc fullShare (dev.sl.HB7_w1 m f1) (sb m cc) (fun i hi => glue_sb m cc 7 _ (k0_off15_inb cc) (k0_off15_eq cc) f1 i hi)) $$ HB7
  -- the copy
  icases Htk with ⟨Hts, Htr, Htk⟩
  icases HIt with ⟨#HIc29, #HIr, HIt⟩
  icases HRt with ⟨#HRs, #HRr, HRt⟩
  icases Hrbp with ⟨%fd, Hd⟩
  iapply (send_x m cc _ (dev11_eq cc) 7 fd (owedL (List.drop 11 (paysL cc))) rfl _) $$ [HB7 Hd HO Hts Htr]
  · isplitr; · iexact HIc29
    isplitr; · iexact HIr
    isplitl [HB7]; · iexact HB7
    isplitl [Hd]; · iexact Hd
    isplitl [HO]; · iexact HO
    isplitl [Hts]; · iexact Hts
    isplitr; · iexact HRs
    isplitl [Htr]; · iexact Htr
    iexact HRr
  iintro ⟨Hcxs7, HO⟩
  iclear HIr HRs HRr
  -- chunk 0 across x (the diagonal quarter's): wait for its copy into the staging buffer, round it into the send buffer, send it
  have hled11 : ∀ (s : DmaSem sig), lvJ s.val = 0 → ((levAts LL lvv : sProp 𝕄) ⊢ MayWait (cc : Thread nD τ) (.dma s) () (owedL (List.drop 11 (paysL cc)))) :=
    fun s hs => mayWait_local (F := F) cc s hs _ (by decide)
  sl_exec
  clear hled11
  ihave HB20 := (congr (F := F) (sb2R 0) cc fullShare (dev.sl.HB20_w1 m f3) (sb2 m cc) (fun i hi => glue_sb2 m cc 0 _ (k0_off17_inb cc) (k0_off17_eq cc) f3 i hi)) $$ HB20
  -- the copy
  icases Htk with ⟨Hts, Htr, Htk⟩
  icases HIt with ⟨#HIc38, #HIr, HIt⟩
  icases HRt with ⟨#HRs, #HRr, HRt⟩
  icases Hrb2p with ⟨⟨%fd, Hd⟩, Hrb2p⟩
  iapply (send_x2 m cc _ (dev12_eq cc) 0 fd (owedL (List.drop 12 (paysL cc))) rfl _) $$ [HB20 Hd HO Hts Htr]
  · isplitr; · iexact HIc38
    isplitr; · iexact HIr
    isplitl [HB20]; · iexact HB20
    isplitl [Hd]; · iexact Hd
    isplitl [HO]; · iexact HO
    isplitl [Hts]; · iexact Hts
    isplitr; · iexact HRs
    isplitl [Htr]; · iexact Htr
    iexact HRr
  iintro ⟨Hcds0, HO⟩
  iclear HIr HRs HRr
  -- chunk 1 across x (the diagonal quarter's): wait for its copy into the staging buffer, round it into the send buffer, send it
  have hled12 : ∀ (s : DmaSem sig), lvJ s.val = 0 → ((levAts LL lvv : sProp 𝕄) ⊢ MayWait (cc : Thread nD τ) (.dma s) () (owedL (List.drop 12 (paysL cc)))) :=
    fun s hs => mayWait_local (F := F) cc s hs _ (by decide)
  sl_exec
  clear hled12
  ihave HB21 := (congr (F := F) (sb2R 1) cc fullShare (dev.sl.HB21_w1 m f3) (sb2 m cc) (fun i hi => glue_sb2 m cc 1 _ (k0_off19_inb cc) (k0_off19_eq cc) f3 i hi)) $$ HB21
  -- the copy
  icases Htk with ⟨Hts, Htr, Htk⟩
  icases HIt with ⟨#HIc39, #HIr, HIt⟩
  icases HRt with ⟨#HRs, #HRr, HRt⟩
  icases Hrb2p with ⟨⟨%fd, Hd⟩, Hrb2p⟩
  iapply (send_x2 m cc _ (dev13_eq cc) 1 fd (owedL (List.drop 13 (paysL cc))) rfl _) $$ [HB21 Hd HO Hts Htr]
  · isplitr; · iexact HIc39
    isplitr; · iexact HIr
    isplitl [HB21]; · iexact HB21
    isplitl [Hd]; · iexact Hd
    isplitl [HO]; · iexact HO
    isplitl [Hts]; · iexact Hts
    isplitr; · iexact HRs
    isplitl [Htr]; · iexact Htr
    iexact HRr
  iintro ⟨Hcds1, HO⟩
  iclear HIr HRs HRr
  -- chunk 2 across x (the diagonal quarter's): wait for its copy into the staging buffer, round it into the send buffer, send it
  have hled13 : ∀ (s : DmaSem sig), lvJ s.val = 0 → ((levAts LL lvv : sProp 𝕄) ⊢ MayWait (cc : Thread nD τ) (.dma s) () (owedL (List.drop 13 (paysL cc)))) :=
    fun s hs => mayWait_local (F := F) cc s hs _ (by decide)
  sl_exec
  clear hled13
  ihave HB22 := (congr (F := F) (sb2R 2) cc fullShare (dev.sl.HB22_w1 m f3) (sb2 m cc) (fun i hi => glue_sb2 m cc 2 _ (k0_off21_inb cc) (k0_off21_eq cc) f3 i hi)) $$ HB22
  -- the copy
  icases Htk with ⟨Hts, Htr, Htk⟩
  icases HIt with ⟨#HIc40, #HIr, HIt⟩
  icases HRt with ⟨#HRs, #HRr, HRt⟩
  icases Hrb2p with ⟨%fd, Hd⟩
  iapply (send_x2 m cc _ (dev14_eq cc) 2 fd (owedL (List.drop 14 (paysL cc))) rfl _) $$ [HB22 Hd HO Hts Htr]
  · isplitr; · iexact HIc40
    isplitr; · iexact HIr
    isplitl [HB22]; · iexact HB22
    isplitl [Hd]; · iexact Hd
    isplitl [HO]; · iexact HO
    isplitl [Hts]; · iexact Hts
    isplitr; · iexact HRs
    isplitl [Htr]; · iexact Htr
    iexact HRr
  iintro ⟨Hcds2, HO⟩
  iclear HIr HRs HRr
  sl_exec
  -- the result array in its 32 blocks
  ihave Hout := (out_split_junk (F := F) cc) $$ Hout
  icases Hout with ⟨⟨%g00, HU00⟩, ⟨%g01, HU01⟩, ⟨%g02, HU02⟩, ⟨%g03, HU03⟩, ⟨%g10, HU10⟩, ⟨%g11, HU11⟩, ⟨%g12, HU12⟩, ⟨%g13, HU13⟩, ⟨%g20, HU20⟩, ⟨%g21, HU21⟩, ⟨%g22, HU22⟩, ⟨%g23, HU23⟩, ⟨%g30, HU30⟩, ⟨%g31, HU31⟩, ⟨%g32, HU32⟩, ⟨%g33, HU33⟩, ⟨%g40, HU40⟩, ⟨%g41, HU41⟩, ⟨%g42, HU42⟩, ⟨%g43, HU43⟩, ⟨%g50, HU50⟩, ⟨%g51, HU51⟩, ⟨%g52, HU52⟩, ⟨%g53, HU53⟩, ⟨%g60, HU60⟩, ⟨%g61, HU61⟩, ⟨%g62, HU62⟩, ⟨%g63, HU63⟩, ⟨%g70, HU70⟩, ⟨%g71, HU71⟩, ⟨%g72, HU72⟩, ⟨%g73, HU73⟩⟩
  ihave HqZ := (Entails.of_eq (giveQ_eq (F := F) (pz cc) (zqF (pz cc)))) $$ HqZ
  ihave HqY := (Entails.of_eq (giveQ_eq (F := F) (py cc) (yqF (py cc)))) $$ HqY
  ihave HhZp := (Entails.of_eq (giveH_eq (F := F) (pz cc) 0)) $$ HhZp
  ihave HhYp := (Entails.of_eq (giveH_eq (F := F) (py cc) 1)) $$ HhYp
  -- step 0 of the main loop: the x-neighbour's chunk 0 has landed
  icases Hcr with ⟨Hc, Hcr⟩
  icases HpR with ⟨Hp, HpR⟩
  icases HIw with ⟨#HIc30, HIw⟩
  ihave Hmw := (mayWait_list (F := F) cc (dsem (⟨30, by decide⟩ : Fin 140)) (List.drop 14 (paysL cc)) (by decide)) $$ Hlev
  iapply (wait_a1_at m cc _ 0 rfl) $$ [Hc HO Hmw Hp]
  · isplitr; · iexact HIc30
    isplitl [Hc]; · iexact Hc
    isplitl [HO]; · iexact HO
    isplitl [Hmw]; · iexact Hmw
    iexact Hp
  iintro ⟨HO, Hq30, -, Hrb0⟩
  icases Hown with ⟨Ho0, Hown⟩
  have hled14 : ∀ (s : DmaSem sig), lvJ s.val = 0 → ((levAts LL lvv : sProp 𝕄) ⊢ MayWait (cc : Thread nD τ) (.dma s) () (owedL (List.drop 14 (paysL cc)))) :=
    fun s hs => mayWait_local (F := F) cc s hs _ (by decide)
  sl_exec
  clear hled14
  ihave Ho0 := (congr (F := F) (r4R (mqF cc) 0) cc fullShare (dev.sl.Ho0_w1 m f0) (r4 m cc) (fun i hi => glue_own m cc 0 _ (k0_off2_inb cc) (k0_off2_eq cc) _ (k0_off23_inb cc) (k0_off23_eq cc) f0 i hi)) $$ Ho0
  ihave Ho0 := (Entails.of_eq (share_ZYK_eq (F := F) (r4R (mqF cc) 0) cc (r4 m cc))) $$ Ho0
  icases Ho0 with ⟨HoZ0, HoY0, HoK0⟩
  -- own chunk 0 to the z-neighbour
  icases Htk with ⟨Hts, Htr, Htk⟩
  icases HIt with ⟨#HIc44, #HIr, HIt⟩
  icases HRt with ⟨#HRs, #HRr, HRt⟩
  icases HqZ with ⟨⟨%fd, Hd⟩, HqZ⟩
  iapply (send_z_at m cc _ (dev15_eq cc) 0 _ _ (k0_off24_eq cc) fd (owedL (List.drop 15 (paysL cc))) rfl _) $$ [HoZ0 Hd HO Hts Htr]
  · isplitr; · iexact HIc44
    isplitr; · iexact HIr
    isplitl [HoZ0]; · iexact HoZ0
    isplitl [Hd]; · iexact Hd
    isplitl [HO]; · iexact HO
    isplitl [Hts]; · iexact Hts
    isplitr; · iexact HRs
    isplitl [Htr]; · iexact Htr
    iexact HRr
  iintro ⟨Hczs0, HO⟩
  iclear HIr HRs HRr
  sl_exec
  -- own chunk 0 to the y-neighbour
  icases Htk with ⟨Hts, Htr, Htk⟩
  icases HIt with ⟨#HIc60, #HIr, HIt⟩
  icases HRt with ⟨#HRs, #HRr, HRt⟩
  icases HqY with ⟨⟨%fd, Hd⟩, HqY⟩
  iapply (send_y_at m cc _ (dev16_eq cc) 0 _ _ (k0_off24_eq cc) fd (owedL (List.drop 16 (paysL cc))) rfl _) $$ [HoY0 Hd HO Hts Htr]
  · isplitr; · iexact HIc60
    isplitr; · iexact HIr
    isplitl [HoY0]; · iexact HoY0
    isplitl [Hd]; · iexact Hd
    isplitl [HO]; · iexact HO
    isplitl [Hts]; · iexact Hts
    isplitr; · iexact HRs
    isplitl [Htr]; · iexact Htr
    iexact HRr
  iintro ⟨Hcys0, HO⟩
  iclear HIr HRs HRr
  sl_exec
  -- step 1 of the main loop: the x-neighbour's chunk 1 has landed
  icases Hcr with ⟨Hc, Hcr⟩
  icases HpR with ⟨Hp, HpR⟩
  icases HIw with ⟨#HIc31, HIw⟩
  ihave Hmw := (mayWait_list (F := F) cc (dsem (⟨31, by decide⟩ : Fin 140)) (List.drop 16 (paysL cc)) (by decide)) $$ Hlev
  iapply (wait_a1_at m cc _ 1 rfl) $$ [Hc HO Hmw Hp]
  · isplitr; · iexact HIc31
    isplitl [Hc]; · iexact Hc
    isplitl [HO]; · iexact HO
    isplitl [Hmw]; · iexact Hmw
    iexact Hp
  iintro ⟨HO, Hq31, -, Hrb1⟩
  icases Hown with ⟨Ho1, Hown⟩
  have hled16 : ∀ (s : DmaSem sig), lvJ s.val = 0 → ((levAts LL lvv : sProp 𝕄) ⊢ MayWait (cc : Thread nD τ) (.dma s) () (owedL (List.drop 16 (paysL cc)))) :=
    fun s hs => mayWait_local (F := F) cc s hs _ (by decide)
  sl_exec
  clear hled16
  ihave Ho1 := (congr (F := F) (r4R (mqF cc) 1) cc fullShare (dev.sl.Ho1_w1 m f0) (r4 m cc) (fun i hi => glue_own m cc 1 _ (k0_off4_inb cc) (k0_off4_eq cc) _ (k0_off25_inb cc) (k0_off25_eq cc) f0 i hi)) $$ Ho1
  ihave Ho1 := (Entails.of_eq (share_ZYK_eq (F := F) (r4R (mqF cc) 1) cc (r4 m cc))) $$ Ho1
  icases Ho1 with ⟨HoZ1, HoY1, HoK1⟩
  -- own chunk 1 to the z-neighbour
  icases Htk with ⟨Hts, Htr, Htk⟩
  icases HIt with ⟨#HIc45, #HIr, HIt⟩
  icases HRt with ⟨#HRs, #HRr, HRt⟩
  icases HqZ with ⟨⟨%fd, Hd⟩, HqZ⟩
  iapply (send_z_at m cc _ (dev17_eq cc) 1 _ _ (k0_off26_eq cc) fd (owedL (List.drop 17 (paysL cc))) rfl _) $$ [HoZ1 Hd HO Hts Htr]
  · isplitr; · iexact HIc45
    isplitr; · iexact HIr
    isplitl [HoZ1]; · iexact HoZ1
    isplitl [Hd]; · iexact Hd
    isplitl [HO]; · iexact HO
    isplitl [Hts]; · iexact Hts
    isplitr; · iexact HRs
    isplitl [Htr]; · iexact Htr
    iexact HRr
  iintro ⟨Hczs1, HO⟩
  iclear HIr HRs HRr
  sl_exec
  -- own chunk 1 to the y-neighbour
  icases Htk with ⟨Hts, Htr, Htk⟩
  icases HIt with ⟨#HIc61, #HIr, HIt⟩
  icases HRt with ⟨#HRs, #HRr, HRt⟩
  icases HqY with ⟨⟨%fd, Hd⟩, HqY⟩
  iapply (send_y_at m cc _ (dev18_eq cc) 1 _ _ (k0_off26_eq cc) fd (owedL (List.drop 18 (paysL cc))) rfl _) $$ [HoY1 Hd HO Hts Htr]
  · isplitr; · iexact HIc61
    isplitr; · iexact HIr
    isplitl [HoY1]; · iexact HoY1
    isplitl [Hd]; · iexact Hd
    isplitl [HO]; · iexact HO
    isplitl [Hts]; · iexact Hts
    isplitr; · iexact HRs
    isplitl [Htr]; · iexact Htr
    iexact HRr
  iintro ⟨Hcys1, HO⟩
  iclear HIr HRs HRr
  sl_exec
  -- the z-neighbour's chunk 0 has landed
  icases Hcr with ⟨Hc, Hcr⟩
  icases HpR with ⟨Hp, HpR⟩
  icases HIw with ⟨#HIc52, HIw⟩
  ihave Hmw := (mayWait_list (F := F) cc (dsem (⟨52, by decide⟩ : Fin 140)) (List.drop 18 (paysL cc)) (by decide)) $$ Hlev
  iapply (wait_a5_at m cc _ 0 rfl) $$ [Hc HO Hmw Hp]
  · isplitr; · iexact HIc52
    isplitl [Hc]; · iexact Hc
    isplitl [HO]; · iexact HO
    isplitl [Hmw]; · iexact Hmw
    iexact Hp
  iintro ⟨HO, Hq52, -, Hz0⟩
  sl_exec
  -- the y-neighbour's chunk 0 has landed
  icases Hcr with ⟨Hc, Hcr⟩
  icases HpR with ⟨Hp, HpR⟩
  icases HIw with ⟨#HIc68, HIw⟩
  ihave Hmw := (mayWait_list (F := F) cc (dsem (⟨68, by decide⟩ : Fin 140)) (List.drop 18 (paysL cc)) (by decide)) $$ Hlev
  iapply (wait_a7_at m cc _ 0 rfl) $$ [Hc HO Hmw Hp]
  · isplitr; · iexact HIc68
    isplitl [Hc]; · iexact Hc
    isplitl [HO]; · iexact HO
    isplitl [Hmw]; · iexact Hmw
    iexact Hp
  iintro ⟨HO, Hq68, -, Hy0⟩
  sl_exec
  -- step 2 of the main loop: the x-neighbour's chunk 2 has landed
  icases Hcr with ⟨Hc, Hcr⟩
  icases HpR with ⟨Hp, HpR⟩
  icases HIw with ⟨#HIc32, HIw⟩
  ihave Hmw := (mayWait_list (F := F) cc (dsem (⟨32, by decide⟩ : Fin 140)) (List.drop 18 (paysL cc)) (by decide)) $$ Hlev
  iapply (wait_a1_at m cc _ 2 rfl) $$ [Hc HO Hmw Hp]
  · isplitr; · iexact HIc32
    isplitl [Hc]; · iexact Hc
    isplitl [HO]; · iexact HO
    isplitl [Hmw]; · iexact Hmw
    iexact Hp
  iintro ⟨HO, Hq32, -, Hrb2⟩
  icases Hown with ⟨Ho2, Hown⟩
  have hled18 : ∀ (s : DmaSem sig), lvJ s.val = 0 → ((levAts LL lvv : sProp 𝕄) ⊢ MayWait (cc : Thread nD τ) (.dma s) () (owedL (List.drop 18 (paysL cc)))) :=
    fun s hs => mayWait_local (F := F) cc s hs _ (by decide)
  sl_exec
  clear hled18
  ihave Ho2 := (congr (F := F) (r4R (mqF cc) 2) cc fullShare (dev.sl.Ho2_w1 m f0) (r4 m cc) (fun i hi => glue_own m cc 2 _ (k0_off6_inb cc) (k0_off6_eq cc) _ (k0_off27_inb cc) (k0_off27_eq cc) f0 i hi)) $$ Ho2
  ihave Ho2 := (Entails.of_eq (share_ZYK_eq (F := F) (r4R (mqF cc) 2) cc (r4 m cc))) $$ Ho2
  icases Ho2 with ⟨HoZ2, HoY2, HoK2⟩
  -- own chunk 2 to the z-neighbour
  icases Htk with ⟨Hts, Htr, Htk⟩
  icases HIt with ⟨#HIc46, #HIr, HIt⟩
  icases HRt with ⟨#HRs, #HRr, HRt⟩
  icases HqZ with ⟨⟨%fd, Hd⟩, HqZ⟩
  iapply (send_z_at m cc _ (dev19_eq cc) 2 _ _ (k0_off28_eq cc) fd (owedL (List.drop 19 (paysL cc))) rfl _) $$ [HoZ2 Hd HO Hts Htr]
  · isplitr; · iexact HIc46
    isplitr; · iexact HIr
    isplitl [HoZ2]; · iexact HoZ2
    isplitl [Hd]; · iexact Hd
    isplitl [HO]; · iexact HO
    isplitl [Hts]; · iexact Hts
    isplitr; · iexact HRs
    isplitl [Htr]; · iexact Htr
    iexact HRr
  iintro ⟨Hczs2, HO⟩
  iclear HIr HRs HRr
  sl_exec
  -- own chunk 2 to the y-neighbour
  icases Htk with ⟨Hts, Htr, Htk⟩
  icases HIt with ⟨#HIc62, #HIr, HIt⟩
  icases HRt with ⟨#HRs, #HRr, HRt⟩
  icases HqY with ⟨⟨%fd, Hd⟩, HqY⟩
  iapply (send_y_at m cc _ (dev20_eq cc) 2 _ _ (k0_off28_eq cc) fd (owedL (List.drop 20 (paysL cc))) rfl _) $$ [HoY2 Hd HO Hts Htr]
  · isplitr; · iexact HIc62
    isplitr; · iexact HIr
    isplitl [HoY2]; · iexact HoY2
    isplitl [Hd]; · iexact Hd
    isplitl [HO]; · iexact HO
    isplitl [Hts]; · iexact Hts
    isplitr; · iexact HRs
    isplitl [Htr]; · iexact Htr
    iexact HRr
  iintro ⟨Hcys2, HO⟩
  iclear HIr HRs HRr
  sl_exec
  -- the z-neighbour's chunk 1 has landed
  icases Hcr with ⟨Hc, Hcr⟩
  icases HpR with ⟨Hp, HpR⟩
  icases HIw with ⟨#HIc53, HIw⟩
  ihave Hmw := (mayWait_list (F := F) cc (dsem (⟨53, by decide⟩ : Fin 140)) (List.drop 20 (paysL cc)) (by decide)) $$ Hlev
  iapply (wait_a5_at m cc _ 1 rfl) $$ [Hc HO Hmw Hp]
  · isplitr; · iexact HIc53
    isplitl [Hc]; · iexact Hc
    isplitl [HO]; · iexact HO
    isplitl [Hmw]; · iexact Hmw
    iexact Hp
  iintro ⟨HO, Hq53, -, Hz1⟩
  sl_exec
  -- the y-neighbour's chunk 1 has landed
  icases Hcr with ⟨Hc, Hcr⟩
  icases HpR with ⟨Hp, HpR⟩
  icases HIw with ⟨#HIc69, HIw⟩
  ihave Hmw := (mayWait_list (F := F) cc (dsem (⟨69, by decide⟩ : Fin 140)) (List.drop 20 (paysL cc)) (by decide)) $$ Hlev
  iapply (wait_a7_at m cc _ 1 rfl) $$ [Hc HO Hmw Hp]
  · isplitr; · iexact HIc69
    isplitl [Hc]; · iexact Hc
    isplitl [HO]; · iexact HO
    isplitl [Hmw]; · iexact Hmw
    iexact Hp
  iintro ⟨HO, Hq69, -, Hy1⟩
  sl_exec
  -- step 3 of the main loop: the x-neighbour's chunk 3 has landed
  icases Hcr with ⟨Hc, Hcr⟩
  icases HpR with ⟨Hp, HpR⟩
  icases HIw with ⟨#HIc33, HIw⟩
  ihave Hmw := (mayWait_list (F := F) cc (dsem (⟨33, by decide⟩ : Fin 140)) (List.drop 20 (paysL cc)) (by decide)) $$ Hlev
  iapply (wait_a1_at m cc _ 3 rfl) $$ [Hc HO Hmw Hp]
  · isplitr; · iexact HIc33
    isplitl [Hc]; · iexact Hc
    isplitl [HO]; · iexact HO
    isplitl [Hmw]; · iexact Hmw
    iexact Hp
  iintro ⟨HO, Hq33, -, Hrb3⟩
  icases Hown with ⟨Ho3, Hown⟩
  have hled20 : ∀ (s : DmaSem sig), lvJ s.val = 0 → ((levAts LL lvv : sProp 𝕄) ⊢ MayWait (cc : Thread nD τ) (.dma s) () (owedL (List.drop 20 (paysL cc)))) :=
    fun s hs => mayWait_local (F := F) cc s hs _ (by decide)
  sl_exec
  clear hled20
  ihave Ho3 := (congr (F := F) (r4R (mqF cc) 3) cc fullShare (dev.sl.Ho3_w1 m f0) (r4 m cc) (fun i hi => glue_own m cc 3 _ (k0_off8_inb cc) (k0_off8_eq cc) _ (k0_off29_inb cc) (k0_off29_eq cc) f0 i hi)) $$ Ho3
  ihave Ho3 := (Entails.of_eq (share_ZYK_eq (F := F) (r4R (mqF cc) 3) cc (r4 m cc))) $$ Ho3
  icases Ho3 with ⟨HoZ3, HoY3, HoK3⟩
  -- own chunk 3 to the z-neighbour
  icases Htk with ⟨Hts, Htr, Htk⟩
  icases HIt with ⟨#HIc47, #HIr, HIt⟩
  icases HRt with ⟨#HRs, #HRr, HRt⟩
  icases HqZ with ⟨⟨%fd, Hd⟩, HqZ⟩
  iapply (send_z_at m cc _ (dev21_eq cc) 3 _ _ (k0_off30_eq cc) fd (owedL (List.drop 21 (paysL cc))) rfl _) $$ [HoZ3 Hd HO Hts Htr]
  · isplitr; · iexact HIc47
    isplitr; · iexact HIr
    isplitl [HoZ3]; · iexact HoZ3
    isplitl [Hd]; · iexact Hd
    isplitl [HO]; · iexact HO
    isplitl [Hts]; · iexact Hts
    isplitr; · iexact HRs
    isplitl [Htr]; · iexact Htr
    iexact HRr
  iintro ⟨Hczs3, HO⟩
  iclear HIr HRs HRr
  sl_exec
  -- own chunk 3 to the y-neighbour
  icases Htk with ⟨Hts, Htr, Htk⟩
  icases HIt with ⟨#HIc63, #HIr, HIt⟩
  icases HRt with ⟨#HRs, #HRr, HRt⟩
  icases HqY with ⟨⟨%fd, Hd⟩, HqY⟩
  iapply (send_y_at m cc _ (dev22_eq cc) 3 _ _ (k0_off30_eq cc) fd (owedL (List.drop 22 (paysL cc))) rfl _) $$ [HoY3 Hd HO Hts Htr]
  · isplitr; · iexact HIc63
    isplitr; · iexact HIr
    isplitl [HoY3]; · iexact HoY3
    isplitl [Hd]; · iexact Hd
    isplitl [HO]; · iexact HO
    isplitl [Hts]; · iexact Hts
    isplitr; · iexact HRs
    isplitl [Htr]; · iexact Htr
    iexact HRr
  iintro ⟨Hcys3, HO⟩
  iclear HIr HRs HRr
  sl_exec
  -- the z-neighbour's chunk 2 has landed
  icases Hcr with ⟨Hc, Hcr⟩
  icases HpR with ⟨Hp, HpR⟩
  icases HIw with ⟨#HIc54, HIw⟩
  ihave Hmw := (mayWait_list (F := F) cc (dsem (⟨54, by decide⟩ : Fin 140)) (List.drop 22 (paysL cc)) (by decide)) $$ Hlev
  iapply (wait_a5_at m cc _ 2 rfl) $$ [Hc HO Hmw Hp]
  · isplitr; · iexact HIc54
    isplitl [Hc]; · iexact Hc
    isplitl [HO]; · iexact HO
    isplitl [Hmw]; · iexact Hmw
    iexact Hp
  iintro ⟨HO, Hq54, -, Hz2⟩
  sl_exec
  -- the y-neighbour's chunk 2 has landed
  icases Hcr with ⟨Hc, Hcr⟩
  icases HpR with ⟨Hp, HpR⟩
  icases HIw with ⟨#HIc70, HIw⟩
  ihave Hmw := (mayWait_list (F := F) cc (dsem (⟨70, by decide⟩ : Fin 140)) (List.drop 22 (paysL cc)) (by decide)) $$ Hlev
  iapply (wait_a7_at m cc _ 2 rfl) $$ [Hc HO Hmw Hp]
  · isplitr; · iexact HIc70
    isplitl [Hc]; · iexact Hc
    isplitl [HO]; · iexact HO
    isplitl [Hmw]; · iexact Hmw
    iexact Hp
  iintro ⟨HO, Hq70, -, Hy2⟩
  sl_exec
  -- step 4 of the main loop: the x-neighbour's chunk 4 has landed
  icases Hcr with ⟨Hc, Hcr⟩
  icases HpR with ⟨Hp, HpR⟩
  icases HIw with ⟨#HIc34, HIw⟩
  ihave Hmw := (mayWait_list (F := F) cc (dsem (⟨34, by decide⟩ : Fin 140)) (List.drop 22 (paysL cc)) (by decide)) $$ Hlev
  iapply (wait_a1_at m cc _ 4 rfl) $$ [Hc HO Hmw Hp]
  · isplitr; · iexact HIc34
    isplitl [Hc]; · iexact Hc
    isplitl [HO]; · iexact HO
    isplitl [Hmw]; · iexact Hmw
    iexact Hp
  iintro ⟨HO, Hq34, -, Hrb4⟩
  icases Hown with ⟨Ho4, Hown⟩
  have hled22 : ∀ (s : DmaSem sig), lvJ s.val = 0 → ((levAts LL lvv : sProp 𝕄) ⊢ MayWait (cc : Thread nD τ) (.dma s) () (owedL (List.drop 22 (paysL cc)))) :=
    fun s hs => mayWait_local (F := F) cc s hs _ (by decide)
  sl_exec
  clear hled22
  ihave Ho4 := (congr (F := F) (r4R (mqF cc) 4) cc fullShare (dev.sl.Ho4_w1 m f0) (r4 m cc) (fun i hi => glue_own m cc 4 _ (k0_off10_inb cc) (k0_off10_eq cc) _ (k0_off31_inb cc) (k0_off31_eq cc) f0 i hi)) $$ Ho4
  ihave Ho4 := (Entails.of_eq (share_ZYK_eq (F := F) (r4R (mqF cc) 4) cc (r4 m cc))) $$ Ho4
  icases Ho4 with ⟨HoZ4, HoY4, HoK4⟩
  -- own chunk 4 to the z-neighbour
  icases Htk with ⟨Hts, Htr, Htk⟩
  icases HIt with ⟨#HIc48, #HIr, HIt⟩
  icases HRt with ⟨#HRs, #HRr, HRt⟩
  icases HqZ with ⟨⟨%fd, Hd⟩, HqZ⟩
  iapply (send_z_at m cc _ (dev23_eq cc) 4 _ _ (k0_off32_eq cc) fd (owedL (List.drop 23 (paysL cc))) rfl _) $$ [HoZ4 Hd HO Hts Htr]
  · isplitr; · iexact HIc48
    isplitr; · iexact HIr
    isplitl [HoZ4]; · iexact HoZ4
    isplitl [Hd]; · iexact Hd
    isplitl [HO]; · iexact HO
    isplitl [Hts]; · iexact Hts
    isplitr; · iexact HRs
    isplitl [Htr]; · iexact Htr
    iexact HRr
  iintro ⟨Hczs4, HO⟩
  iclear HIr HRs HRr
  sl_exec
  -- own chunk 4 to the y-neighbour
  icases Htk with ⟨Hts, Htr, Htk⟩
  icases HIt with ⟨#HIc64, #HIr, HIt⟩
  icases HRt with ⟨#HRs, #HRr, HRt⟩
  icases HqY with ⟨⟨%fd, Hd⟩, HqY⟩
  iapply (send_y_at m cc _ (dev24_eq cc) 4 _ _ (k0_off32_eq cc) fd (owedL (List.drop 24 (paysL cc))) rfl _) $$ [HoY4 Hd HO Hts Htr]
  · isplitr; · iexact HIc64
    isplitr; · iexact HIr
    isplitl [HoY4]; · iexact HoY4
    isplitl [Hd]; · iexact Hd
    isplitl [HO]; · iexact HO
    isplitl [Hts]; · iexact Hts
    isplitr; · iexact HRs
    isplitl [Htr]; · iexact Htr
    iexact HRr
  iintro ⟨Hcys4, HO⟩
  iclear HIr HRs HRr
  sl_exec
  -- the z-neighbour's chunk 3 has landed
  icases Hcr with ⟨Hc, Hcr⟩
  icases HpR with ⟨Hp, HpR⟩
  icases HIw with ⟨#HIc55, HIw⟩
  ihave Hmw := (mayWait_list (F := F) cc (dsem (⟨55, by decide⟩ : Fin 140)) (List.drop 24 (paysL cc)) (by decide)) $$ Hlev
  iapply (wait_a5_at m cc _ 3 rfl) $$ [Hc HO Hmw Hp]
  · isplitr; · iexact HIc55
    isplitl [Hc]; · iexact Hc
    isplitl [HO]; · iexact HO
    isplitl [Hmw]; · iexact Hmw
    iexact Hp
  iintro ⟨HO, Hq55, -, Hz3⟩
  sl_exec
  -- the y-neighbour's chunk 3 has landed
  icases Hcr with ⟨Hc, Hcr⟩
  icases HpR with ⟨Hp, HpR⟩
  icases HIw with ⟨#HIc71, HIw⟩
  ihave Hmw := (mayWait_list (F := F) cc (dsem (⟨71, by decide⟩ : Fin 140)) (List.drop 24 (paysL cc)) (by decide)) $$ Hlev
  iapply (wait_a7_at m cc _ 3 rfl) $$ [Hc HO Hmw Hp]
  · isplitr; · iexact HIc71
    isplitl [Hc]; · iexact Hc
    isplitl [HO]; · iexact HO
    isplitl [Hmw]; · iexact Hmw
    iexact Hp
  iintro ⟨HO, Hq71, -, Hy3⟩
  -- chunk 3 of the two neighbours' quarters: half its ownership stays for the copy into the result, of the other half one column half travels on
  ihave Hz3 := (Entails.of_eq (share_FG_eq (F := F) (r4R (zqF cc) 3) cc (r4 m cc))) $$ Hz3
  icases Hz3 with ⟨HzF3, HzG3⟩
  ihave HzF3 := (Entails.of_eq (chunk_halves (F := F) cc (zqF cc) 3 shF (r4 m cc))) $$ HzF3
  icases HzF3 with ⟨HzFl3, HzFr3⟩
  ihave Hy3 := (Entails.of_eq (share_FG_eq (F := F) (r4R (yqF cc) 3) cc (r4 m cc))) $$ Hy3
  icases Hy3 with ⟨HyF3, HyG3⟩
  ihave HyF3 := (Entails.of_eq (chunk_halves (F := F) cc (yqF cc) 3 shF (r4 m cc))) $$ HyF3
  icases HyF3 with ⟨HyFl3, HyFr3⟩
  sl_exec
  -- the right half of the z-neighbour's chunk 3 on to the y-neighbour
  icases Htk with ⟨Hts, Htr, Htk⟩
  icases HIt with ⟨#HIc95, #HIr, HIt⟩
  icases HRt with ⟨#HRs, #HRr, HRt⟩
  icases HhYp with ⟨⟨%fd, Hd⟩, HhYp⟩
  iapply (send_yf_at m cc _ (dev25_eq cc) 3 (by decide) _ _ (k0_off33_eq cc) fd (owedL (List.drop 25 (paysL cc))) rfl _) $$ [HzFr3 Hd HO Hts Htr]
  · isplitr; · iexact HIc95
    isplitr; · iexact HIr
    isplitl [HzFr3]; · iexact HzFr3
    isplitl [Hd]; · iexact Hd
    isplitl [HO]; · iexact HO
    isplitl [Hts]; · iexact Hts
    isplitr; · iexact HRs
    isplitl [Htr]; · iexact Htr
    iexact HRr
  iintro ⟨Hcyfs3, HO⟩
  iclear HIr HRs HRr
  sl_exec
  -- the left half of the y-neighbour's chunk 3 on to the z-neighbour
  icases Htk with ⟨Hts, Htr, Htk⟩
  icases HIt with ⟨#HIc79, #HIr, HIt⟩
  icases HRt with ⟨#HRs, #HRr, HRt⟩
  icases HhZp with ⟨⟨%fd, Hd⟩, HhZp⟩
  iapply (send_zf_at m cc _ (dev26_eq cc) 3 (by decide) _ _ (k0_off34_eq cc) fd (owedL (List.drop 26 (paysL cc))) rfl _) $$ [HyFl3 Hd HO Hts Htr]
  · isplitr; · iexact HIc79
    isplitr; · iexact HIr
    isplitl [HyFl3]; · iexact HyFl3
    isplitl [Hd]; · iexact Hd
    isplitl [HO]; · iexact HO
    isplitl [Hts]; · iexact Hts
    isplitr; · iexact HRs
    isplitl [Htr]; · iexact Htr
    iexact HRr
  iintro ⟨Hczfs3, HO⟩
  iclear HIr HRs HRr
  sl_exec
  -- step 5 of the main loop: the x-neighbour's chunk 5 has landed
  icases Hcr with ⟨Hc, Hcr⟩
  icases HpR with ⟨Hp, HpR⟩
  icases HIw with ⟨#HIc35, HIw⟩
  ihave Hmw := (mayWait_list (F := F) cc (dsem (⟨35, by decide⟩ : Fin 140)) (List.drop 26 (paysL cc)) (by decide)) $$ Hlev
  iapply (wait_a1_at m cc _ 5 rfl) $$ [Hc HO Hmw Hp]
  · isplitr; · iexact HIc35
    isplitl [Hc]; · iexact Hc
    isplitl [HO]; · iexact HO
    isplitl [Hmw]; · iexact Hmw
    iexact Hp
  iintro ⟨HO, Hq35, -, Hrb5⟩
  icases Hown with ⟨Ho5, Hown⟩
  have hled26 : ∀ (s : DmaSem sig), lvJ s.val = 0 → ((levAts LL lvv : sProp 𝕄) ⊢ MayWait (cc : Thread nD τ) (.dma s) () (owedL (List.drop 26 (paysL cc)))) :=
    fun s hs => mayWait_local (F := F) cc s hs _ (by decide)
  sl_exec
  clear hled26
  ihave Ho5 := (congr (F := F) (r4R (mqF cc) 5) cc fullShare (dev.sl.Ho5_w1 m f0) (r4 m cc) (fun i hi => glue_own m cc 5 _ (k0_off12_inb cc) (k0_off12_eq cc) _ (k0_off35_inb cc) (k0_off35_eq cc) f0 i hi)) $$ Ho5
  ihave Ho5 := (Entails.of_eq (share_ZYK_eq (F := F) (r4R (mqF cc) 5) cc (r4 m cc))) $$ Ho5
  icases Ho5 with ⟨HoZ5, HoY5, HoK5⟩
  -- own chunk 5 to the z-neighbour
  icases Htk with ⟨Hts, Htr, Htk⟩
  icases HIt with ⟨#HIc49, #HIr, HIt⟩
  icases HRt with ⟨#HRs, #HRr, HRt⟩
  icases HqZ with ⟨⟨%fd, Hd⟩, HqZ⟩
  iapply (send_z_at m cc _ (dev27_eq cc) 5 _ _ (k0_off36_eq cc) fd (owedL (List.drop 27 (paysL cc))) rfl _) $$ [HoZ5 Hd HO Hts Htr]
  · isplitr; · iexact HIc49
    isplitr; · iexact HIr
    isplitl [HoZ5]; · iexact HoZ5
    isplitl [Hd]; · iexact Hd
    isplitl [HO]; · iexact HO
    isplitl [Hts]; · iexact Hts
    isplitr; · iexact HRs
    isplitl [Htr]; · iexact Htr
    iexact HRr
  iintro ⟨Hczs5, HO⟩
  iclear HIr HRs HRr
  sl_exec
  -- own chunk 5 to the y-neighbour
  icases Htk with ⟨Hts, Htr, Htk⟩
  icases HIt with ⟨#HIc65, #HIr, HIt⟩
  icases HRt with ⟨#HRs, #HRr, HRt⟩
  icases HqY with ⟨⟨%fd, Hd⟩, HqY⟩
  iapply (send_y_at m cc _ (dev28_eq cc) 5 _ _ (k0_off36_eq cc) fd (owedL (List.drop 28 (paysL cc))) rfl _) $$ [HoY5 Hd HO Hts Htr]
  · isplitr; · iexact HIc65
    isplitr; · iexact HIr
    isplitl [HoY5]; · iexact HoY5
    isplitl [Hd]; · iexact Hd
    isplitl [HO]; · iexact HO
    isplitl [Hts]; · iexact Hts
    isplitr; · iexact HRs
    isplitl [Htr]; · iexact Htr
    iexact HRr
  iintro ⟨Hcys5, HO⟩
  iclear HIr HRs HRr
  sl_exec
  -- the z-neighbour's chunk 4 has landed
  icases Hcr with ⟨Hc, Hcr⟩
  icases HpR with ⟨Hp, HpR⟩
  icases HIw with ⟨#HIc56, HIw⟩
  ihave Hmw := (mayWait_list (F := F) cc (dsem (⟨56, by decide⟩ : Fin 140)) (List.drop 28 (paysL cc)) (by decide)) $$ Hlev
  iapply (wait_a5_at m cc _ 4 rfl) $$ [Hc HO Hmw Hp]
  · isplitr; · iexact HIc56
    isplitl [Hc]; · iexact Hc
    isplitl [HO]; · iexact HO
    isplitl [Hmw]; · iexact Hmw
    iexact Hp
  iintro ⟨HO, Hq56, -, Hz4⟩
  sl_exec
  -- the y-neighbour's chunk 4 has landed
  icases Hcr with ⟨Hc, Hcr⟩
  icases HpR with ⟨Hp, HpR⟩
  icases HIw with ⟨#HIc72, HIw⟩
  ihave Hmw := (mayWait_list (F := F) cc (dsem (⟨72, by decide⟩ : Fin 140)) (List.drop 28 (paysL cc)) (by decide)) $$ Hlev
  iapply (wait_a7_at m cc _ 4 rfl) $$ [Hc HO Hmw Hp]
  · isplitr; · iexact HIc72
    isplitl [Hc]; · iexact Hc
    isplitl [HO]; · iexact HO
    isplitl [Hmw]; · iexact Hmw
    iexact Hp
  iintro ⟨HO, Hq72, -, Hy4⟩
  -- chunk 4 of the two neighbours' quarters: half its ownership stays for the copy into the result, of the other half one column half travels on
  ihave Hz4 := (Entails.of_eq (share_FG_eq (F := F) (r4R (zqF cc) 4) cc (r4 m cc))) $$ Hz4
  icases Hz4 with ⟨HzF4, HzG4⟩
  ihave HzF4 := (Entails.of_eq (chunk_halves (F := F) cc (zqF cc) 4 shF (r4 m cc))) $$ HzF4
  icases HzF4 with ⟨HzFl4, HzFr4⟩
  ihave Hy4 := (Entails.of_eq (share_FG_eq (F := F) (r4R (yqF cc) 4) cc (r4 m cc))) $$ Hy4
  icases Hy4 with ⟨HyF4, HyG4⟩
  ihave HyF4 := (Entails.of_eq (chunk_halves (F := F) cc (yqF cc) 4 shF (r4 m cc))) $$ HyF4
  icases HyF4 with ⟨HyFl4, HyFr4⟩
  sl_exec
  -- the right half of the z-neighbour's chunk 4 on to the y-neighbour
  icases Htk with ⟨Hts, Htr, Htk⟩
  icases HIt with ⟨#HIc96, #HIr, HIt⟩
  icases HRt with ⟨#HRs, #HRr, HRt⟩
  icases HhYp with ⟨⟨%fd, Hd⟩, HhYp⟩
  iapply (send_yf_at m cc _ (dev29_eq cc) 4 (by decide) _ _ (k0_off37_eq cc) fd (owedL (List.drop 29 (paysL cc))) rfl _) $$ [HzFr4 Hd HO Hts Htr]
  · isplitr; · iexact HIc96
    isplitr; · iexact HIr
    isplitl [HzFr4]; · iexact HzFr4
    isplitl [Hd]; · iexact Hd
    isplitl [HO]; · iexact HO
    isplitl [Hts]; · iexact Hts
    isplitr; · iexact HRs
    isplitl [Htr]; · iexact Htr
    iexact HRr
  iintro ⟨Hcyfs4, HO⟩
  iclear HIr HRs HRr
  sl_exec
  -- the left half of the y-neighbour's chunk 4 on to the z-neighbour
  icases Htk with ⟨Hts, Htr, Htk⟩
  icases HIt with ⟨#HIc80, #HIr, HIt⟩
  icases HRt with ⟨#HRs, #HRr, HRt⟩
  icases HhZp with ⟨⟨%fd, Hd⟩, HhZp⟩
  iapply (send_zf_at m cc _ (dev30_eq cc) 4 (by decide) _ _ (k0_off38_eq cc) fd (owedL (List.drop 30 (paysL cc))) rfl _) $$ [HyFl4 Hd HO Hts Htr]
  · isplitr; · iexact HIc80
    isplitr; · iexact HIr
    isplitl [HyFl4]; · iexact HyFl4
    isplitl [Hd]; · iexact Hd
    isplitl [HO]; · iexact HO
    isplitl [Hts]; · iexact Hts
    isplitr; · iexact HRs
    isplitl [Htr]; · iexact Htr
    iexact HRr
  iintro ⟨Hczfs4, HO⟩
  iclear HIr HRs HRr
  sl_exec
  -- the left half of chunk 3 of the diagonal quarter has landed
  icases Hcr with ⟨Hc, Hcr⟩
  icases HpR with ⟨Hp, HpR⟩
  icases HIw with ⟨#HIc87, HIw⟩
  ihave Hmw := (mayWait_list (F := F) cc (dsem (⟨87, by decide⟩ : Fin 140)) (List.drop 30 (paysL cc)) (by decide)) $$ Hlev
  iapply (wait_a9_at m cc _ 3 rfl (by decide)) $$ [Hc HO Hmw Hp]
  · isplitr; · iexact HIc87
    isplitl [Hc]; · iexact Hc
    isplitl [HO]; · iexact HO
    isplitl [Hmw]; · iexact Hmw
    iexact Hp
  iintro ⟨HO, Hq87, -, Hdl3⟩
  sl_exec
  -- its right half has landed
  icases Hcr with ⟨Hc, Hcr⟩
  icases HpR with ⟨Hp, HpR⟩
  icases HIw with ⟨#HIc103, HIw⟩
  ihave Hmw := (mayWait_list (F := F) cc (dsem (⟨103, by decide⟩ : Fin 140)) (List.drop 30 (paysL cc)) (by decide)) $$ Hlev
  iapply (wait_a11_at m cc _ 3 rfl (by decide)) $$ [Hc HO Hmw Hp]
  · isplitr; · iexact HIc103
    isplitl [Hc]; · iexact Hc
    isplitl [HO]; · iexact HO
    isplitl [Hmw]; · iexact Hmw
    iexact Hp
  iintro ⟨HO, Hq103, -, Hdr3⟩
  ihave Hd3 := (Entails.of_eq (chunk_halves (F := F) cc (dqF cc) 3 fullShare (r4 m cc)).symm) $$ [Hdl3 Hdr3]
  · isplitl [Hdl3]; · iexact Hdl3
    iexact Hdr3
  -- the four copies of chunk 3 into the result
  icases HvO with ⟨Hw3a, Hw3b, Hw3c, Hw3d, HvO⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  -- step 6 of the main loop: the x-neighbour's chunk 6 has landed
  icases Hcr with ⟨Hc, Hcr⟩
  icases HpR with ⟨Hp, HpR⟩
  icases HIw with ⟨#HIc36, HIw⟩
  ihave Hmw := (mayWait_list (F := F) cc (dsem (⟨36, by decide⟩ : Fin 140)) (List.drop 30 (paysL cc)) (by decide)) $$ Hlev
  iapply (wait_a1_at m cc _ 6 rfl) $$ [Hc HO Hmw Hp]
  · isplitr; · iexact HIc36
    isplitl [Hc]; · iexact Hc
    isplitl [HO]; · iexact HO
    isplitl [Hmw]; · iexact Hmw
    iexact Hp
  iintro ⟨HO, Hq36, -, Hrb6⟩
  icases Hown with ⟨Ho6, Hown⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  ihave Ho6 := (congr (F := F) (r4R (mqF cc) 6) cc fullShare (dev.sl.Ho6_w1 m f0) (r4 m cc) (fun i hi => glue_own m cc 6 _ (k0_off14_inb cc) (k0_off14_eq cc) _ (k0_off39_inb cc) (k0_off39_eq cc) f0 i hi)) $$ Ho6
  ihave Ho6 := (Entails.of_eq (share_ZYK_eq (F := F) (r4R (mqF cc) 6) cc (r4 m cc))) $$ Ho6
  icases Ho6 with ⟨HoZ6, HoY6, HoK6⟩
  -- own chunk 6 to the z-neighbour
  icases Htk with ⟨Hts, Htr, Htk⟩
  icases HIt with ⟨#HIc50, #HIr, HIt⟩
  icases HRt with ⟨#HRs, #HRr, HRt⟩
  icases HqZ with ⟨⟨%fd, Hd⟩, HqZ⟩
  iapply (send_z_at m cc _ (dev31_eq cc) 6 _ _ (k0_off40_eq cc) fd (owedL (List.drop 31 (paysL cc))) rfl _) $$ [HoZ6 Hd HO Hts Htr]
  · isplitr; · iexact HIc50
    isplitr; · iexact HIr
    isplitl [HoZ6]; · iexact HoZ6
    isplitl [Hd]; · iexact Hd
    isplitl [HO]; · iexact HO
    isplitl [Hts]; · iexact Hts
    isplitr; · iexact HRs
    isplitl [Htr]; · iexact Htr
    iexact HRr
  iintro ⟨Hczs6, HO⟩
  iclear HIr HRs HRr
  sl_exec
  -- own chunk 6 to the y-neighbour
  icases Htk with ⟨Hts, Htr, Htk⟩
  icases HIt with ⟨#HIc66, #HIr, HIt⟩
  icases HRt with ⟨#HRs, #HRr, HRt⟩
  icases HqY with ⟨⟨%fd, Hd⟩, HqY⟩
  iapply (send_y_at m cc _ (dev32_eq cc) 6 _ _ (k0_off40_eq cc) fd (owedL (List.drop 32 (paysL cc))) rfl _) $$ [HoY6 Hd HO Hts Htr]
  · isplitr; · iexact HIc66
    isplitr; · iexact HIr
    isplitl [HoY6]; · iexact HoY6
    isplitl [Hd]; · iexact Hd
    isplitl [HO]; · iexact HO
    isplitl [Hts]; · iexact Hts
    isplitr; · iexact HRs
    isplitl [Htr]; · iexact Htr
    iexact HRr
  iintro ⟨Hcys6, HO⟩
  iclear HIr HRs HRr
  sl_exec
  -- the z-neighbour's chunk 5 has landed
  icases Hcr with ⟨Hc, Hcr⟩
  icases HpR with ⟨Hp, HpR⟩
  icases HIw with ⟨#HIc57, HIw⟩
  ihave Hmw := (mayWait_list (F := F) cc (dsem (⟨57, by decide⟩ : Fin 140)) (List.drop 32 (paysL cc)) (by decide)) $$ Hlev
  iapply (wait_a5_at m cc _ 5 rfl) $$ [Hc HO Hmw Hp]
  · isplitr; · iexact HIc57
    isplitl [Hc]; · iexact Hc
    isplitl [HO]; · iexact HO
    isplitl [Hmw]; · iexact Hmw
    iexact Hp
  iintro ⟨HO, Hq57, -, Hz5⟩
  sl_exec
  -- the y-neighbour's chunk 5 has landed
  icases Hcr with ⟨Hc, Hcr⟩
  icases HpR with ⟨Hp, HpR⟩
  icases HIw with ⟨#HIc73, HIw⟩
  ihave Hmw := (mayWait_list (F := F) cc (dsem (⟨73, by decide⟩ : Fin 140)) (List.drop 32 (paysL cc)) (by decide)) $$ Hlev
  iapply (wait_a7_at m cc _ 5 rfl) $$ [Hc HO Hmw Hp]
  · isplitr; · iexact HIc73
    isplitl [Hc]; · iexact Hc
    isplitl [HO]; · iexact HO
    isplitl [Hmw]; · iexact Hmw
    iexact Hp
  iintro ⟨HO, Hq73, -, Hy5⟩
  -- chunk 5 of the two neighbours' quarters: half its ownership stays for the copy into the result, of the other half one column half travels on
  ihave Hz5 := (Entails.of_eq (share_FG_eq (F := F) (r4R (zqF cc) 5) cc (r4 m cc))) $$ Hz5
  icases Hz5 with ⟨HzF5, HzG5⟩
  ihave HzF5 := (Entails.of_eq (chunk_halves (F := F) cc (zqF cc) 5 shF (r4 m cc))) $$ HzF5
  icases HzF5 with ⟨HzFl5, HzFr5⟩
  ihave Hy5 := (Entails.of_eq (share_FG_eq (F := F) (r4R (yqF cc) 5) cc (r4 m cc))) $$ Hy5
  icases Hy5 with ⟨HyF5, HyG5⟩
  ihave HyF5 := (Entails.of_eq (chunk_halves (F := F) cc (yqF cc) 5 shF (r4 m cc))) $$ HyF5
  icases HyF5 with ⟨HyFl5, HyFr5⟩
  sl_exec
  -- the right half of the z-neighbour's chunk 5 on to the y-neighbour
  icases Htk with ⟨Hts, Htr, Htk⟩
  icases HIt with ⟨#HIc97, #HIr, HIt⟩
  icases HRt with ⟨#HRs, #HRr, HRt⟩
  icases HhYp with ⟨⟨%fd, Hd⟩, HhYp⟩
  iapply (send_yf_at m cc _ (dev33_eq cc) 5 (by decide) _ _ (k0_off41_eq cc) fd (owedL (List.drop 33 (paysL cc))) rfl _) $$ [HzFr5 Hd HO Hts Htr]
  · isplitr; · iexact HIc97
    isplitr; · iexact HIr
    isplitl [HzFr5]; · iexact HzFr5
    isplitl [Hd]; · iexact Hd
    isplitl [HO]; · iexact HO
    isplitl [Hts]; · iexact Hts
    isplitr; · iexact HRs
    isplitl [Htr]; · iexact Htr
    iexact HRr
  iintro ⟨Hcyfs5, HO⟩
  iclear HIr HRs HRr
  sl_exec
  -- the left half of the y-neighbour's chunk 5 on to the z-neighbour
  icases Htk with ⟨Hts, Htr, Htk⟩
  icases HIt with ⟨#HIc81, #HIr, HIt⟩
  icases HRt with ⟨#HRs, #HRr, HRt⟩
  icases HhZp with ⟨⟨%fd, Hd⟩, HhZp⟩
  iapply (send_zf_at m cc _ (dev34_eq cc) 5 (by decide) _ _ (k0_off42_eq cc) fd (owedL (List.drop 34 (paysL cc))) rfl _) $$ [HyFl5 Hd HO Hts Htr]
  · isplitr; · iexact HIc81
    isplitr; · iexact HIr
    isplitl [HyFl5]; · iexact HyFl5
    isplitl [Hd]; · iexact Hd
    isplitl [HO]; · iexact HO
    isplitl [Hts]; · iexact Hts
    isplitr; · iexact HRs
    isplitl [Htr]; · iexact Htr
    iexact HRr
  iintro ⟨Hczfs5, HO⟩
  iclear HIr HRs HRr
  sl_exec
  -- the left half of chunk 4 of the diagonal quarter has landed
  icases Hcr with ⟨Hc, Hcr⟩
  icases HpR with ⟨Hp, HpR⟩
  icases HIw with ⟨#HIc88, HIw⟩
  ihave Hmw := (mayWait_list (F := F) cc (dsem (⟨88, by decide⟩ : Fin 140)) (List.drop 34 (paysL cc)) (by decide)) $$ Hlev
  iapply (wait_a9_at m cc _ 4 rfl (by decide)) $$ [Hc HO Hmw Hp]
  · isplitr; · iexact HIc88
    isplitl [Hc]; · iexact Hc
    isplitl [HO]; · iexact HO
    isplitl [Hmw]; · iexact Hmw
    iexact Hp
  iintro ⟨HO, Hq88, -, Hdl4⟩
  sl_exec
  -- its right half has landed
  icases Hcr with ⟨Hc, Hcr⟩
  icases HpR with ⟨Hp, HpR⟩
  icases HIw with ⟨#HIc104, HIw⟩
  ihave Hmw := (mayWait_list (F := F) cc (dsem (⟨104, by decide⟩ : Fin 140)) (List.drop 34 (paysL cc)) (by decide)) $$ Hlev
  iapply (wait_a11_at m cc _ 4 rfl (by decide)) $$ [Hc HO Hmw Hp]
  · isplitr; · iexact HIc104
    isplitl [Hc]; · iexact Hc
    isplitl [HO]; · iexact HO
    isplitl [Hmw]; · iexact Hmw
    iexact Hp
  iintro ⟨HO, Hq104, -, Hdr4⟩
  ihave Hd4 := (Entails.of_eq (chunk_halves (F := F) cc (dqF cc) 4 fullShare (r4 m cc)).symm) $$ [Hdl4 Hdr4]
  · isplitl [Hdl4]; · iexact Hdl4
    iexact Hdr4
  -- the four copies of chunk 4 into the result
  icases HvO with ⟨Hw4a, Hw4b, Hw4c, Hw4d, HvO⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  -- step 7 of the main loop: the x-neighbour's chunk 7 has landed
  icases Hcr with ⟨Hc, Hcr⟩
  icases HpR with ⟨Hp, HpR⟩
  icases HIw with ⟨#HIc37, HIw⟩
  ihave Hmw := (mayWait_list (F := F) cc (dsem (⟨37, by decide⟩ : Fin 140)) (List.drop 34 (paysL cc)) (by decide)) $$ Hlev
  iapply (wait_a1_at m cc _ 7 rfl) $$ [Hc HO Hmw Hp]
  · isplitr; · iexact HIc37
    isplitl [Hc]; · iexact Hc
    isplitl [HO]; · iexact HO
    isplitl [Hmw]; · iexact Hmw
    iexact Hp
  iintro ⟨HO, Hq37, -, Hrb7⟩
  icases Hown with ⟨Ho7⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  ihave Ho7 := (congr (F := F) (r4R (mqF cc) 7) cc fullShare (dev.sl.Ho7_w1 m f0) (r4 m cc) (fun i hi => glue_own m cc 7 _ (k0_off16_inb cc) (k0_off16_eq cc) _ (k0_off43_inb cc) (k0_off43_eq cc) f0 i hi)) $$ Ho7
  ihave Ho7 := (Entails.of_eq (share_ZYK_eq (F := F) (r4R (mqF cc) 7) cc (r4 m cc))) $$ Ho7
  icases Ho7 with ⟨HoZ7, HoY7, HoK7⟩
  -- own chunk 7 to the z-neighbour
  icases Htk with ⟨Hts, Htr, Htk⟩
  icases HIt with ⟨#HIc51, #HIr, HIt⟩
  icases HRt with ⟨#HRs, #HRr, HRt⟩
  icases HqZ with ⟨%fd, Hd⟩
  iapply (send_z_at m cc _ (dev35_eq cc) 7 _ _ (k0_off44_eq cc) fd (owedL (List.drop 35 (paysL cc))) rfl _) $$ [HoZ7 Hd HO Hts Htr]
  · isplitr; · iexact HIc51
    isplitr; · iexact HIr
    isplitl [HoZ7]; · iexact HoZ7
    isplitl [Hd]; · iexact Hd
    isplitl [HO]; · iexact HO
    isplitl [Hts]; · iexact Hts
    isplitr; · iexact HRs
    isplitl [Htr]; · iexact Htr
    iexact HRr
  iintro ⟨Hczs7, HO⟩
  iclear HIr HRs HRr
  sl_exec
  -- own chunk 7 to the y-neighbour
  icases Htk with ⟨Hts, Htr, Htk⟩
  icases HIt with ⟨#HIc67, #HIr, HIt⟩
  icases HRt with ⟨#HRs, #HRr, HRt⟩
  icases HqY with ⟨%fd, Hd⟩
  iapply (send_y_at m cc _ (dev36_eq cc) 7 _ _ (k0_off44_eq cc) fd (owedL (List.drop 36 (paysL cc))) rfl _) $$ [HoY7 Hd HO Hts Htr]
  · isplitr; · iexact HIc67
    isplitr; · iexact HIr
    isplitl [HoY7]; · iexact HoY7
    isplitl [Hd]; · iexact Hd
    isplitl [HO]; · iexact HO
    isplitl [Hts]; · iexact Hts
    isplitr; · iexact HRs
    isplitl [Htr]; · iexact Htr
    iexact HRr
  iintro ⟨Hcys7, HO⟩
  iclear HIr HRs HRr
  sl_exec
  -- the z-neighbour's chunk 6 has landed
  icases Hcr with ⟨Hc, Hcr⟩
  icases HpR with ⟨Hp, HpR⟩
  icases HIw with ⟨#HIc58, HIw⟩
  ihave Hmw := (mayWait_list (F := F) cc (dsem (⟨58, by decide⟩ : Fin 140)) (List.drop 36 (paysL cc)) (by decide)) $$ Hlev
  iapply (wait_a5_at m cc _ 6 rfl) $$ [Hc HO Hmw Hp]
  · isplitr; · iexact HIc58
    isplitl [Hc]; · iexact Hc
    isplitl [HO]; · iexact HO
    isplitl [Hmw]; · iexact Hmw
    iexact Hp
  iintro ⟨HO, Hq58, -, Hz6⟩
  sl_exec
  -- the y-neighbour's chunk 6 has landed
  icases Hcr with ⟨Hc, Hcr⟩
  icases HpR with ⟨Hp, HpR⟩
  icases HIw with ⟨#HIc74, HIw⟩
  ihave Hmw := (mayWait_list (F := F) cc (dsem (⟨74, by decide⟩ : Fin 140)) (List.drop 36 (paysL cc)) (by decide)) $$ Hlev
  iapply (wait_a7_at m cc _ 6 rfl) $$ [Hc HO Hmw Hp]
  · isplitr; · iexact HIc74
    isplitl [Hc]; · iexact Hc
    isplitl [HO]; · iexact HO
    isplitl [Hmw]; · iexact Hmw
    iexact Hp
  iintro ⟨HO, Hq74, -, Hy6⟩
  -- chunk 6 of the two neighbours' quarters: half its ownership stays for the copy into the result, of the other half one column half travels on
  ihave Hz6 := (Entails.of_eq (share_FG_eq (F := F) (r4R (zqF cc) 6) cc (r4 m cc))) $$ Hz6
  icases Hz6 with ⟨HzF6, HzG6⟩
  ihave HzF6 := (Entails.of_eq (chunk_halves (F := F) cc (zqF cc) 6 shF (r4 m cc))) $$ HzF6
  icases HzF6 with ⟨HzFl6, HzFr6⟩
  ihave Hy6 := (Entails.of_eq (share_FG_eq (F := F) (r4R (yqF cc) 6) cc (r4 m cc))) $$ Hy6
  icases Hy6 with ⟨HyF6, HyG6⟩
  ihave HyF6 := (Entails.of_eq (chunk_halves (F := F) cc (yqF cc) 6 shF (r4 m cc))) $$ HyF6
  icases HyF6 with ⟨HyFl6, HyFr6⟩
  sl_exec
  -- the right half of the z-neighbour's chunk 6 on to the y-neighbour
  icases Htk with ⟨Hts, Htr, Htk⟩
  icases HIt with ⟨#HIc98, #HIr, HIt⟩
  icases HRt with ⟨#HRs, #HRr, HRt⟩
  icases HhYp with ⟨⟨%fd, Hd⟩, HhYp⟩
  iapply (send_yf_at m cc _ (dev37_eq cc) 6 (by decide) _ _ (k0_off45_eq cc) fd (owedL (List.drop 37 (paysL cc))) rfl _) $$ [HzFr6 Hd HO Hts Htr]
  · isplitr; · iexact HIc98
    isplitr; · iexact HIr
    isplitl [HzFr6]; · iexact HzFr6
    isplitl [Hd]; · iexact Hd
    isplitl [HO]; · iexact HO
    isplitl [Hts]; · iexact Hts
    isplitr; · iexact HRs
    isplitl [Htr]; · iexact Htr
    iexact HRr
  iintro ⟨Hcyfs6, HO⟩
  iclear HIr HRs HRr
  sl_exec
  -- the left half of the y-neighbour's chunk 6 on to the z-neighbour
  icases Htk with ⟨Hts, Htr, Htk⟩
  icases HIt with ⟨#HIc82, #HIr, HIt⟩
  icases HRt with ⟨#HRs, #HRr, HRt⟩
  icases HhZp with ⟨⟨%fd, Hd⟩, HhZp⟩
  iapply (send_zf_at m cc _ (dev38_eq cc) 6 (by decide) _ _ (k0_off46_eq cc) fd (owedL (List.drop 38 (paysL cc))) rfl _) $$ [HyFl6 Hd HO Hts Htr]
  · isplitr; · iexact HIc82
    isplitr; · iexact HIr
    isplitl [HyFl6]; · iexact HyFl6
    isplitl [Hd]; · iexact Hd
    isplitl [HO]; · iexact HO
    isplitl [Hts]; · iexact Hts
    isplitr; · iexact HRs
    isplitl [Htr]; · iexact Htr
    iexact HRr
  iintro ⟨Hczfs6, HO⟩
  iclear HIr HRs HRr
  sl_exec
  -- the left half of chunk 5 of the diagonal quarter has landed
  icases Hcr with ⟨Hc, Hcr⟩
  icases HpR with ⟨Hp, HpR⟩
  icases HIw with ⟨#HIc89, HIw⟩
  ihave Hmw := (mayWait_list (F := F) cc (dsem (⟨89, by decide⟩ : Fin 140)) (List.drop 38 (paysL cc)) (by decide)) $$ Hlev
  iapply (wait_a9_at m cc _ 5 rfl (by decide)) $$ [Hc HO Hmw Hp]
  · isplitr; · iexact HIc89
    isplitl [Hc]; · iexact Hc
    isplitl [HO]; · iexact HO
    isplitl [Hmw]; · iexact Hmw
    iexact Hp
  iintro ⟨HO, Hq89, -, Hdl5⟩
  sl_exec
  -- its right half has landed
  icases Hcr with ⟨Hc, Hcr⟩
  icases HpR with ⟨Hp, HpR⟩
  icases HIw with ⟨#HIc105, HIw⟩
  ihave Hmw := (mayWait_list (F := F) cc (dsem (⟨105, by decide⟩ : Fin 140)) (List.drop 38 (paysL cc)) (by decide)) $$ Hlev
  iapply (wait_a11_at m cc _ 5 rfl (by decide)) $$ [Hc HO Hmw Hp]
  · isplitr; · iexact HIc105
    isplitl [Hc]; · iexact Hc
    isplitl [HO]; · iexact HO
    isplitl [Hmw]; · iexact Hmw
    iexact Hp
  iintro ⟨HO, Hq105, -, Hdr5⟩
  ihave Hd5 := (Entails.of_eq (chunk_halves (F := F) cc (dqF cc) 5 fullShare (r4 m cc)).symm) $$ [Hdl5 Hdr5]
  · isplitl [Hdl5]; · iexact Hdl5
    iexact Hdr5
  -- the four copies of chunk 5 into the result
  icases HvO with ⟨Hw5a, Hw5b, Hw5c, Hw5d, HvO⟩
  have hled38 : ∀ (s : DmaSem sig), lvJ s.val = 0 → ((levAts LL lvv : sProp 𝕄) ⊢ MayWait (cc : Thread nD τ) (.dma s) () (owedL (List.drop 38 (paysL cc)))) :=
    fun s hs => mayWait_local (F := F) cc s hs _ (by decide)
  sl_exec
  clear hled38
  -- after the loop: the z-neighbour's last chunk has landed
  icases Hcr with ⟨Hc, Hcr⟩
  icases HpR with ⟨Hp, HpR⟩
  icases HIw with ⟨#HIc59, HIw⟩
  ihave Hmw := (mayWait_list (F := F) cc (dsem (⟨59, by decide⟩ : Fin 140)) (List.drop 38 (paysL cc)) (by decide)) $$ Hlev
  iapply (wait_a5_at m cc _ 7 rfl) $$ [Hc HO Hmw Hp]
  · isplitr; · iexact HIc59
    isplitl [Hc]; · iexact Hc
    isplitl [HO]; · iexact HO
    isplitl [Hmw]; · iexact Hmw
    iexact Hp
  iintro ⟨HO, Hq59, -, Hz7⟩
  sl_exec
  -- the y-neighbour's last chunk has landed
  icases Hcr with ⟨Hc, Hcr⟩
  icases HpR with ⟨Hp, HpR⟩
  icases HIw with ⟨#HIc75, HIw⟩
  ihave Hmw := (mayWait_list (F := F) cc (dsem (⟨75, by decide⟩ : Fin 140)) (List.drop 38 (paysL cc)) (by decide)) $$ Hlev
  iapply (wait_a7_at m cc _ 7 rfl) $$ [Hc HO Hmw Hp]
  · isplitr; · iexact HIc75
    isplitl [Hc]; · iexact Hc
    isplitl [HO]; · iexact HO
    isplitl [Hmw]; · iexact Hmw
    iexact Hp
  iintro ⟨HO, Hq75, -, Hy7⟩
  -- chunk 7 of the two neighbours' quarters: half its ownership stays for the copy into the result, of the other half one column half travels on
  ihave Hz7 := (Entails.of_eq (share_FG_eq (F := F) (r4R (zqF cc) 7) cc (r4 m cc))) $$ Hz7
  icases Hz7 with ⟨HzF7, HzG7⟩
  ihave HzF7 := (Entails.of_eq (chunk_halves (F := F) cc (zqF cc) 7 shF (r4 m cc))) $$ HzF7
  icases HzF7 with ⟨HzFl7, HzFr7⟩
  ihave Hy7 := (Entails.of_eq (share_FG_eq (F := F) (r4R (yqF cc) 7) cc (r4 m cc))) $$ Hy7
  icases Hy7 with ⟨HyF7, HyG7⟩
  ihave HyF7 := (Entails.of_eq (chunk_halves (F := F) cc (yqF cc) 7 shF (r4 m cc))) $$ HyF7
  icases HyF7 with ⟨HyFl7, HyFr7⟩
  sl_exec
  -- the right half of the z-neighbour's last chunk on to the y-neighbour
  icases Htk with ⟨Hts, Htr, Htk⟩
  icases HIt with ⟨#HIc99, #HIr, HIt⟩
  icases HRt with ⟨#HRs, #HRr, HRt⟩
  icases HhYp with ⟨%fd, Hd⟩
  iapply (send_yf_at m cc _ (dev39_eq cc) 7 (by decide) _ _ (k0_off47_eq cc) fd (owedL (List.drop 39 (paysL cc))) rfl _) $$ [HzFr7 Hd HO Hts Htr]
  · isplitr; · iexact HIc99
    isplitr; · iexact HIr
    isplitl [HzFr7]; · iexact HzFr7
    isplitl [Hd]; · iexact Hd
    isplitl [HO]; · iexact HO
    isplitl [Hts]; · iexact Hts
    isplitr; · iexact HRs
    isplitl [Htr]; · iexact Htr
    iexact HRr
  iintro ⟨Hcyfs7, HO⟩
  iclear HIr HRs HRr
  sl_exec
  -- the left half of the y-neighbour's last chunk on to the z-neighbour
  icases Htk with ⟨Hts, Htr⟩
  icases HIt with ⟨#HIc83, #HIr⟩
  icases HRt with ⟨#HRs, #HRr⟩
  icases HhZp with ⟨%fd, Hd⟩
  iapply (send_zf_at m cc _ (dev40_eq cc) 7 (by decide) _ _ (k0_off48_eq cc) fd (owedL (List.drop 40 (paysL cc))) rfl _) $$ [HyFl7 Hd HO Hts Htr]
  · isplitr; · iexact HIc83
    isplitr; · iexact HIr
    isplitl [HyFl7]; · iexact HyFl7
    isplitl [Hd]; · iexact Hd
    isplitl [HO]; · iexact HO
    isplitl [Hts]; · iexact Hts
    isplitr; · iexact HRs
    isplitl [Htr]; · iexact Htr
    iexact HRr
  iintro ⟨Hczfs7, HO⟩
  iclear HIr HRs HRr
  sl_exec
  -- chunk 0 of the diagonal quarter: the x-neighbour's chunk has landed
  icases Hcr with ⟨Hc, Hcr⟩
  icases HpR with ⟨Hp, HpR⟩
  icases HIw with ⟨#HIc41, HIw⟩
  ihave Hmw := (mayWait_list (F := F) cc (dsem (⟨41, by decide⟩ : Fin 140)) (List.drop 40 (paysL cc)) (by decide)) $$ Hlev
  iapply (wait_a3_at m cc _ 0 rfl) $$ [Hc HO Hmw Hp]
  · isplitr; · iexact HIc41
    isplitl [Hc]; · iexact Hc
    isplitl [HO]; · iexact HO
    isplitl [Hmw]; · iexact Hmw
    iexact Hp
  iintro ⟨HO, Hq41, -, Hrb20⟩
  icases Hdg with ⟨Hdq0, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq0 := (congr (F := F) (r4R (dqF cc) 0) cc fullShare (dev.sl.Hdq0_w1 m f0) (r4 m cc) (fun i hi => glue_dgn m cc 0 0 rfl _ (k0_off18_inb cc) (k0_off18_eq cc) _ (k0_off49_inb cc) (k0_off49_eq cc) f0 i hi)) $$ Hdq0
  -- the four copies of chunk 0 into the result
  icases HvO with ⟨Hw0a, Hw0b, Hw0c, Hw0d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 1 of the diagonal quarter: the x-neighbour's chunk has landed
  icases Hcr with ⟨Hc, Hcr⟩
  icases HpR with ⟨Hp, HpR⟩
  icases HIw with ⟨#HIc42, HIw⟩
  ihave Hmw := (mayWait_list (F := F) cc (dsem (⟨42, by decide⟩ : Fin 140)) (List.drop 40 (paysL cc)) (by decide)) $$ Hlev
  iapply (wait_a3_at m cc _ 1 rfl) $$ [Hc HO Hmw Hp]
  · isplitr; · iexact HIc42
    isplitl [Hc]; · iexact Hc
    isplitl [HO]; · iexact HO
    isplitl [Hmw]; · iexact Hmw
    iexact Hp
  iintro ⟨HO, Hq42, -, Hrb21⟩
  icases Hdg with ⟨Hdq1, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq1 := (congr (F := F) (r4R (dqF cc) 1) cc fullShare (dev.sl.Hdq1_w1 m f0) (r4 m cc) (fun i hi => glue_dgn m cc 1 1 rfl _ (k0_off20_inb cc) (k0_off20_eq cc) _ (k0_off50_inb cc) (k0_off50_eq cc) f0 i hi)) $$ Hdq1
  -- the four copies of chunk 1 into the result
  icases HvO with ⟨Hw1a, Hw1b, Hw1c, Hw1d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 2 of the diagonal quarter: the x-neighbour's chunk has landed
  icases Hcr with ⟨Hc, Hcr⟩
  icases HpR with ⟨Hp, HpR⟩
  icases HIw with ⟨#HIc43, HIw⟩
  ihave Hmw := (mayWait_list (F := F) cc (dsem (⟨43, by decide⟩ : Fin 140)) (List.drop 40 (paysL cc)) (by decide)) $$ Hlev
  iapply (wait_a3_at m cc _ 2 rfl) $$ [Hc HO Hmw Hp]
  · isplitr; · iexact HIc43
    isplitl [Hc]; · iexact Hc
    isplitl [HO]; · iexact HO
    isplitl [Hmw]; · iexact Hmw
    iexact Hp
  iintro ⟨HO, Hq43, -, Hrb22⟩
  icases Hdg with ⟨Hdq2⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq2 := (congr (F := F) (r4R (dqF cc) 2) cc fullShare (dev.sl.Hdq2_w1 m f0) (r4 m cc) (fun i hi => glue_dgn m cc 2 2 rfl _ (k0_off22_inb cc) (k0_off22_eq cc) _ (k0_off51_inb cc) (k0_off51_eq cc) f0 i hi)) $$ Hdq2
  -- the four copies of chunk 2 into the result
  icases HvO with ⟨Hw2a, Hw2b, Hw2c, Hw2d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 6 of the diagonal quarter has landed
  icases Hcr with ⟨Hc, Hcr⟩
  icases HpR with ⟨Hp, HpR⟩
  icases HIw with ⟨#HIc90, HIw⟩
  ihave Hmw := (mayWait_list (F := F) cc (dsem (⟨90, by decide⟩ : Fin 140)) (List.drop 40 (paysL cc)) (by decide)) $$ Hlev
  iapply (wait_a9_at m cc _ 6 rfl (by decide)) $$ [Hc HO Hmw Hp]
  · isplitr; · iexact HIc90
    isplitl [Hc]; · iexact Hc
    isplitl [HO]; · iexact HO
    isplitl [Hmw]; · iexact Hmw
    iexact Hp
  iintro ⟨HO, Hq90, -, Hdl6⟩
  sl_exec
  -- its right half has landed
  icases Hcr with ⟨Hc, Hcr⟩
  icases HpR with ⟨Hp, HpR⟩
  icases HIw with ⟨#HIc106, HIw⟩
  ihave Hmw := (mayWait_list (F := F) cc (dsem (⟨106, by decide⟩ : Fin 140)) (List.drop 40 (paysL cc)) (by decide)) $$ Hlev
  iapply (wait_a11_at m cc _ 6 rfl (by decide)) $$ [Hc HO Hmw Hp]
  · isplitr; · iexact HIc106
    isplitl [Hc]; · iexact Hc
    isplitl [HO]; · iexact HO
    isplitl [Hmw]; · iexact Hmw
    iexact Hp
  iintro ⟨HO, Hq106, -, Hdr6⟩
  ihave Hd6 := (Entails.of_eq (chunk_halves (F := F) cc (dqF cc) 6 fullShare (r4 m cc)).symm) $$ [Hdl6 Hdr6]
  · isplitl [Hdl6]; · iexact Hdl6
    iexact Hdr6
  -- the four copies of chunk 6 into the result
  icases HvO with ⟨Hw6a, Hw6b, Hw6c, Hw6d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 7 of the diagonal quarter has landed
  icases Hcr with ⟨Hc, Hcr⟩
  icases HpR with ⟨Hp, HpR⟩
  icases HIw with ⟨#HIc91, HIw⟩
  ihave Hcr := ((sep_emp (PROP := sProp 𝕄)).2) $$ Hcr
  ihave Hmw := (mayWait_list (F := F) cc (dsem (⟨91, by decide⟩ : Fin 140)) (List.drop 40 (paysL cc)) (by decide)) $$ Hlev
  iapply (wait_a9_at m cc _ 7 rfl (by decide)) $$ [Hc HO Hmw Hp]
  · isplitr; · iexact HIc91
    isplitl [Hc]; · iexact Hc
    isplitl [HO]; · iexact HO
    isplitl [Hmw]; · iexact Hmw
    iexact Hp
  iintro ⟨HO, Hq91, -, Hdl7⟩
  sl_exec
  -- its right half has landed
  icases HIw with #HIc107
  icases Hcr with ⟨Hcr, -⟩
  ihave Hmw := (mayWait_list (F := F) cc (dsem (⟨107, by decide⟩ : Fin 140)) (List.drop 40 (paysL cc)) (by decide)) $$ Hlev
  iapply (wait_a11_at m cc _ 7 rfl (by decide)) $$ [Hcr HO Hmw HpR]
  · isplitr; · iexact HIc107
    isplitl [Hcr]; · iexact Hcr
    isplitl [HO]; · iexact HO
    isplitl [Hmw]; · iexact Hmw
    iexact HpR
  iintro ⟨HO, Hq107, -, Hdr7⟩
  ihave Hd7 := (Entails.of_eq (chunk_halves (F := F) cc (dqF cc) 7 fullShare (r4 m cc)).symm) $$ [Hdl7 Hdr7]
  · isplitl [Hdl7]; · iexact Hdl7
    iexact Hdr7
  -- the four copies of chunk 7 into the result
  icases HvO with ⟨Hw7a, Hw7b, Hw7c, Hw7d⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- nothing is owed any more: the level fact for the remaining local waits, once
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  -- the departure of chunk 0 across x
  icases HpS with ⟨Hp, HpS⟩
  ihave Hmw := (mayWait_list (F := F) cc (dsem (⟨22, by decide⟩ : Fin 140)) (List.drop 40 (paysL cc)) (by decide)) $$ Hlev
  iapply (wait_a0_at m cc _ 0 rfl) $$ [Hcxs0 HO Hmw Hp]
  · isplitr; · iexact HIc22
    isplitl [Hcxs0]; · iexact Hcxs0
    isplitl [HO]; · iexact HO
    isplitl [Hmw]; · iexact Hmw
    iexact Hp
  iintro ⟨HO, Hq22, -, HBs0⟩
  sl_exec
  -- of own chunk 0 to z
  icases HpS with ⟨Hp, HpS⟩
  ihave Hmw := (mayWait_list (F := F) cc (dsem (⟨44, by decide⟩ : Fin 140)) (List.drop 40 (paysL cc)) (by decide)) $$ Hlev
  iapply (wait_a4_at m cc _ 0 rfl) $$ [Hczs0 HO Hmw Hp]
  · isplitr; · iexact HIc44
    isplitl [Hczs0]; · iexact Hczs0
    isplitl [HO]; · iexact HO
    isplitl [Hmw]; · iexact Hmw
    iexact Hp
  iintro ⟨HO, Hq44, -, HoZb0⟩
  sl_exec
  -- of own chunk 0 to y
  icases HpS with ⟨Hp, HpS⟩
  ihave Hmw := (mayWait_list (F := F) cc (dsem (⟨60, by decide⟩ : Fin 140)) (List.drop 40 (paysL cc)) (by decide)) $$ Hlev
  iapply (wait_a6_at m cc _ 0 rfl) $$ [Hcys0 HO Hmw Hp]
  · isplitr; · iexact HIc60
    isplitl [Hcys0]; · iexact Hcys0
    isplitl [HO]; · iexact HO
    isplitl [Hmw]; · iexact Hmw
    iexact Hp
  iintro ⟨HO, Hq60, -, HoYb0⟩
  sl_exec
  -- the departure of chunk 1 across x
  icases HpS with ⟨Hp, HpS⟩
  ihave Hmw := (mayWait_list (F := F) cc (dsem (⟨23, by decide⟩ : Fin 140)) (List.drop 40 (paysL cc)) (by decide)) $$ Hlev
  iapply (wait_a0_at m cc _ 1 rfl) $$ [Hcxs1 HO Hmw Hp]
  · isplitr; · iexact HIc23
    isplitl [Hcxs1]; · iexact Hcxs1
    isplitl [HO]; · iexact HO
    isplitl [Hmw]; · iexact Hmw
    iexact Hp
  iintro ⟨HO, Hq23, -, HBs1⟩
  sl_exec
  -- of own chunk 1 to z
  icases HpS with ⟨Hp, HpS⟩
  ihave Hmw := (mayWait_list (F := F) cc (dsem (⟨45, by decide⟩ : Fin 140)) (List.drop 40 (paysL cc)) (by decide)) $$ Hlev
  iapply (wait_a4_at m cc _ 1 rfl) $$ [Hczs1 HO Hmw Hp]
  · isplitr; · iexact HIc45
    isplitl [Hczs1]; · iexact Hczs1
    isplitl [HO]; · iexact HO
    isplitl [Hmw]; · iexact Hmw
    iexact Hp
  iintro ⟨HO, Hq45, -, HoZb1⟩
  sl_exec
  -- of own chunk 1 to y
  icases HpS with ⟨Hp, HpS⟩
  ihave Hmw := (mayWait_list (F := F) cc (dsem (⟨61, by decide⟩ : Fin 140)) (List.drop 40 (paysL cc)) (by decide)) $$ Hlev
  iapply (wait_a6_at m cc _ 1 rfl) $$ [Hcys1 HO Hmw Hp]
  · isplitr; · iexact HIc61
    isplitl [Hcys1]; · iexact Hcys1
    isplitl [HO]; · iexact HO
    isplitl [Hmw]; · iexact Hmw
    iexact Hp
  iintro ⟨HO, Hq61, -, HoYb1⟩
  sl_exec
  -- the departure of chunk 2 across x
  icases HpS with ⟨Hp, HpS⟩
  ihave Hmw := (mayWait_list (F := F) cc (dsem (⟨24, by decide⟩ : Fin 140)) (List.drop 40 (paysL cc)) (by decide)) $$ Hlev
  iapply (wait_a0_at m cc _ 2 rfl) $$ [Hcxs2 HO Hmw Hp]
  · isplitr; · iexact HIc24
    isplitl [Hcxs2]; · iexact Hcxs2
    isplitl [HO]; · iexact HO
    isplitl [Hmw]; · iexact Hmw
    iexact Hp
  iintro ⟨HO, Hq24, -, HBs2⟩
  sl_exec
  -- of own chunk 2 to z
  icases HpS with ⟨Hp, HpS⟩
  ihave Hmw := (mayWait_list (F := F) cc (dsem (⟨46, by decide⟩ : Fin 140)) (List.drop 40 (paysL cc)) (by decide)) $$ Hlev
  iapply (wait_a4_at m cc _ 2 rfl) $$ [Hczs2 HO Hmw Hp]
  · isplitr; · iexact HIc46
    isplitl [Hczs2]; · iexact Hczs2
    isplitl [HO]; · iexact HO
    isplitl [Hmw]; · iexact Hmw
    iexact Hp
  iintro ⟨HO, Hq46, -, HoZb2⟩
  sl_exec
  -- of own chunk 2 to y
  icases HpS with ⟨Hp, HpS⟩
  ihave Hmw := (mayWait_list (F := F) cc (dsem (⟨62, by decide⟩ : Fin 140)) (List.drop 40 (paysL cc)) (by decide)) $$ Hlev
  iapply (wait_a6_at m cc _ 2 rfl) $$ [Hcys2 HO Hmw Hp]
  · isplitr; · iexact HIc62
    isplitl [Hcys2]; · iexact Hcys2
    isplitl [HO]; · iexact HO
    isplitl [Hmw]; · iexact Hmw
    iexact Hp
  iintro ⟨HO, Hq62, -, HoYb2⟩
  sl_exec
  -- the departure of chunk 3 across x
  icases HpS with ⟨Hp, HpS⟩
  ihave Hmw := (mayWait_list (F := F) cc (dsem (⟨25, by decide⟩ : Fin 140)) (List.drop 40 (paysL cc)) (by decide)) $$ Hlev
  iapply (wait_a0_at m cc _ 3 rfl) $$ [Hcxs3 HO Hmw Hp]
  · isplitr; · iexact HIc25
    isplitl [Hcxs3]; · iexact Hcxs3
    isplitl [HO]; · iexact HO
    isplitl [Hmw]; · iexact Hmw
    iexact Hp
  iintro ⟨HO, Hq25, -, HBs3⟩
  sl_exec
  -- of own chunk 3 to z
  icases HpS with ⟨Hp, HpS⟩
  ihave Hmw := (mayWait_list (F := F) cc (dsem (⟨47, by decide⟩ : Fin 140)) (List.drop 40 (paysL cc)) (by decide)) $$ Hlev
  iapply (wait_a4_at m cc _ 3 rfl) $$ [Hczs3 HO Hmw Hp]
  · isplitr; · iexact HIc47
    isplitl [Hczs3]; · iexact Hczs3
    isplitl [HO]; · iexact HO
    isplitl [Hmw]; · iexact Hmw
    iexact Hp
  iintro ⟨HO, Hq47, -, HoZb3⟩
  sl_exec
  -- of own chunk 3 to y
  icases HpS with ⟨Hp, HpS⟩
  ihave Hmw := (mayWait_list (F := F) cc (dsem (⟨63, by decide⟩ : Fin 140)) (List.drop 40 (paysL cc)) (by decide)) $$ Hlev
  iapply (wait_a6_at m cc _ 3 rfl) $$ [Hcys3 HO Hmw Hp]
  · isplitr; · iexact HIc63
    isplitl [Hcys3]; · iexact Hcys3
    isplitl [HO]; · iexact HO
    isplitl [Hmw]; · iexact Hmw
    iexact Hp
  iintro ⟨HO, Hq63, -, HoYb3⟩
  sl_exec
  -- of the forwarded half to z
  icases HpS with ⟨Hp, HpS⟩
  ihave Hmw := (mayWait_list (F := F) cc (dsem (⟨79, by decide⟩ : Fin 140)) (List.drop 40 (paysL cc)) (by decide)) $$ Hlev
  iapply (wait_a8_at m cc _ 3 rfl (by decide)) $$ [Hczfs3 HO Hmw Hp]
  · isplitr; · iexact HIc79
    isplitl [Hczfs3]; · iexact Hczfs3
    isplitl [HO]; · iexact HO
    isplitl [Hmw]; · iexact Hmw
    iexact Hp
  iintro ⟨HO, Hq79, -, HyFlb3⟩
  sl_exec
  -- of the forwarded half to y
  icases HpS with ⟨Hp, HpS⟩
  ihave Hmw := (mayWait_list (F := F) cc (dsem (⟨95, by decide⟩ : Fin 140)) (List.drop 40 (paysL cc)) (by decide)) $$ Hlev
  iapply (wait_a10_at m cc _ 3 rfl (by decide)) $$ [Hcyfs3 HO Hmw Hp]
  · isplitr; · iexact HIc95
    isplitl [Hcyfs3]; · iexact Hcyfs3
    isplitl [HO]; · iexact HO
    isplitl [Hmw]; · iexact Hmw
    iexact Hp
  iintro ⟨HO, Hq95, -, HzFrb3⟩
  sl_exec
  -- the departure of chunk 4 across x
  icases HpS with ⟨Hp, HpS⟩
  ihave Hmw := (mayWait_list (F := F) cc (dsem (⟨26, by decide⟩ : Fin 140)) (List.drop 40 (paysL cc)) (by decide)) $$ Hlev
  iapply (wait_a0_at m cc _ 4 rfl) $$ [Hcxs4 HO Hmw Hp]
  · isplitr; · iexact HIc26
    isplitl [Hcxs4]; · iexact Hcxs4
    isplitl [HO]; · iexact HO
    isplitl [Hmw]; · iexact Hmw
    iexact Hp
  iintro ⟨HO, Hq26, -, HBs4⟩
  sl_exec
  -- of own chunk 4 to z
  icases HpS with ⟨Hp, HpS⟩
  ihave Hmw := (mayWait_list (F := F) cc (dsem (⟨48, by decide⟩ : Fin 140)) (List.drop 40 (paysL cc)) (by decide)) $$ Hlev
  iapply (wait_a4_at m cc _ 4 rfl) $$ [Hczs4 HO Hmw Hp]
  · isplitr; · iexact HIc48
    isplitl [Hczs4]; · iexact Hczs4
    isplitl [HO]; · iexact HO
    isplitl [Hmw]; · iexact Hmw
    iexact Hp
  iintro ⟨HO, Hq48, -, HoZb4⟩
  sl_exec
  -- of own chunk 4 to y
  icases HpS with ⟨Hp, HpS⟩
  ihave Hmw := (mayWait_list (F := F) cc (dsem (⟨64, by decide⟩ : Fin 140)) (List.drop 40 (paysL cc)) (by decide)) $$ Hlev
  iapply (wait_a6_at m cc _ 4 rfl) $$ [Hcys4 HO Hmw Hp]
  · isplitr; · iexact HIc64
    isplitl [Hcys4]; · iexact Hcys4
    isplitl [HO]; · iexact HO
    isplitl [Hmw]; · iexact Hmw
    iexact Hp
  iintro ⟨HO, Hq64, -, HoYb4⟩
  sl_exec
  -- of the forwarded half to z
  icases HpS with ⟨Hp, HpS⟩
  ihave Hmw := (mayWait_list (F := F) cc (dsem (⟨80, by decide⟩ : Fin 140)) (List.drop 40 (paysL cc)) (by decide)) $$ Hlev
  iapply (wait_a8_at m cc _ 4 rfl (by decide)) $$ [Hczfs4 HO Hmw Hp]
  · isplitr; · iexact HIc80
    isplitl [Hczfs4]; · iexact Hczfs4
    isplitl [HO]; · iexact HO
    isplitl [Hmw]; · iexact Hmw
    iexact Hp
  iintro ⟨HO, Hq80, -, HyFlb4⟩
  sl_exec
  -- of the forwarded half to y
  icases HpS with ⟨Hp, HpS⟩
  ihave Hmw := (mayWait_list (F := F) cc (dsem (⟨96, by decide⟩ : Fin 140)) (List.drop 40 (paysL cc)) (by decide)) $$ Hlev
  iapply (wait_a10_at m cc _ 4 rfl (by decide)) $$ [Hcyfs4 HO Hmw Hp]
  · isplitr; · iexact HIc96
    isplitl [Hcyfs4]; · iexact Hcyfs4
    isplitl [HO]; · iexact HO
    isplitl [Hmw]; · iexact Hmw
    iexact Hp
  iintro ⟨HO, Hq96, -, HzFrb4⟩
  sl_exec
  -- the departure of chunk 5 across x
  icases HpS with ⟨Hp, HpS⟩
  ihave Hmw := (mayWait_list (F := F) cc (dsem (⟨27, by decide⟩ : Fin 140)) (List.drop 40 (paysL cc)) (by decide)) $$ Hlev
  iapply (wait_a0_at m cc _ 5 rfl) $$ [Hcxs5 HO Hmw Hp]
  · isplitr; · iexact HIc27
    isplitl [Hcxs5]; · iexact Hcxs5
    isplitl [HO]; · iexact HO
    isplitl [Hmw]; · iexact Hmw
    iexact Hp
  iintro ⟨HO, Hq27, -, HBs5⟩
  sl_exec
  -- of own chunk 5 to z
  icases HpS with ⟨Hp, HpS⟩
  ihave Hmw := (mayWait_list (F := F) cc (dsem (⟨49, by decide⟩ : Fin 140)) (List.drop 40 (paysL cc)) (by decide)) $$ Hlev
  iapply (wait_a4_at m cc _ 5 rfl) $$ [Hczs5 HO Hmw Hp]
  · isplitr; · iexact HIc49
    isplitl [Hczs5]; · iexact Hczs5
    isplitl [HO]; · iexact HO
    isplitl [Hmw]; · iexact Hmw
    iexact Hp
  iintro ⟨HO, Hq49, -, HoZb5⟩
  sl_exec
  -- of own chunk 5 to y
  icases HpS with ⟨Hp, HpS⟩
  ihave Hmw := (mayWait_list (F := F) cc (dsem (⟨65, by decide⟩ : Fin 140)) (List.drop 40 (paysL cc)) (by decide)) $$ Hlev
  iapply (wait_a6_at m cc _ 5 rfl) $$ [Hcys5 HO Hmw Hp]
  · isplitr; · iexact HIc65
    isplitl [Hcys5]; · iexact Hcys5
    isplitl [HO]; · iexact HO
    isplitl [Hmw]; · iexact Hmw
    iexact Hp
  iintro ⟨HO, Hq65, -, HoYb5⟩
  sl_exec
  -- of the forwarded half to z
  icases HpS with ⟨Hp, HpS⟩
  ihave Hmw := (mayWait_list (F := F) cc (dsem (⟨81, by decide⟩ : Fin 140)) (List.drop 40 (paysL cc)) (by decide)) $$ Hlev
  iapply (wait_a8_at m cc _ 5 rfl (by decide)) $$ [Hczfs5 HO Hmw Hp]
  · isplitr; · iexact HIc81
    isplitl [Hczfs5]; · iexact Hczfs5
    isplitl [HO]; · iexact HO
    isplitl [Hmw]; · iexact Hmw
    iexact Hp
  iintro ⟨HO, Hq81, -, HyFlb5⟩
  sl_exec
  -- of the forwarded half to y
  icases HpS with ⟨Hp, HpS⟩
  ihave Hmw := (mayWait_list (F := F) cc (dsem (⟨97, by decide⟩ : Fin 140)) (List.drop 40 (paysL cc)) (by decide)) $$ Hlev
  iapply (wait_a10_at m cc _ 5 rfl (by decide)) $$ [Hcyfs5 HO Hmw Hp]
  · isplitr; · iexact HIc97
    isplitl [Hcyfs5]; · iexact Hcyfs5
    isplitl [HO]; · iexact HO
    isplitl [Hmw]; · iexact Hmw
    iexact Hp
  iintro ⟨HO, Hq97, -, HzFrb5⟩
  sl_exec
  -- the departure of chunk 6 across x
  icases HpS with ⟨Hp, HpS⟩
  ihave Hmw := (mayWait_list (F := F) cc (dsem (⟨28, by decide⟩ : Fin 140)) (List.drop 40 (paysL cc)) (by decide)) $$ Hlev
  iapply (wait_a0_at m cc _ 6 rfl) $$ [Hcxs6 HO Hmw Hp]
  · isplitr; · iexact HIc28
    isplitl [Hcxs6]; · iexact Hcxs6
    isplitl [HO]; · iexact HO
    isplitl [Hmw]; · iexact Hmw
    iexact Hp
  iintro ⟨HO, Hq28, -, HBs6⟩
  sl_exec
  -- of own chunk 6 to z
  icases HpS with ⟨Hp, HpS⟩
  ihave Hmw := (mayWait_list (F := F) cc (dsem (⟨50, by decide⟩ : Fin 140)) (List.drop 40 (paysL cc)) (by decide)) $$ Hlev
  iapply (wait_a4_at m cc _ 6 rfl) $$ [Hczs6 HO Hmw Hp]
  · isplitr; · iexact HIc50
    isplitl [Hczs6]; · iexact Hczs6
    isplitl [HO]; · iexact HO
    isplitl [Hmw]; · iexact Hmw
    iexact Hp
  iintro ⟨HO, Hq50, -, HoZb6⟩
  sl_exec
  -- of own chunk 6 to y
  icases HpS with ⟨Hp, HpS⟩
  ihave Hmw := (mayWait_list (F := F) cc (dsem (⟨66, by decide⟩ : Fin 140)) (List.drop 40 (paysL cc)) (by decide)) $$ Hlev
  iapply (wait_a6_at m cc _ 6 rfl) $$ [Hcys6 HO Hmw Hp]
  · isplitr; · iexact HIc66
    isplitl [Hcys6]; · iexact Hcys6
    isplitl [HO]; · iexact HO
    isplitl [Hmw]; · iexact Hmw
    iexact Hp
  iintro ⟨HO, Hq66, -, HoYb6⟩
  sl_exec
  -- of the forwarded half to z
  icases HpS with ⟨Hp, HpS⟩
  ihave Hmw := (mayWait_list (F := F) cc (dsem (⟨82, by decide⟩ : Fin 140)) (List.drop 40 (paysL cc)) (by decide)) $$ Hlev
  iapply (wait_a8_at m cc _ 6 rfl (by decide)) $$ [Hczfs6 HO Hmw Hp]
  · isplitr; · iexact HIc82
    isplitl [Hczfs6]; · iexact Hczfs6
    isplitl [HO]; · iexact HO
    isplitl [Hmw]; · iexact Hmw
    iexact Hp
  iintro ⟨HO, Hq82, -, HyFlb6⟩
  sl_exec
  -- of the forwarded half to y
  icases HpS with ⟨Hp, HpS⟩
  ihave Hmw := (mayWait_list (F := F) cc (dsem (⟨98, by decide⟩ : Fin 140)) (List.drop 40 (paysL cc)) (by decide)) $$ Hlev
  iapply (wait_a10_at m cc _ 6 rfl (by decide)) $$ [Hcyfs6 HO Hmw Hp]
  · isplitr; · iexact HIc98
    isplitl [Hcyfs6]; · iexact Hcyfs6
    isplitl [HO]; · iexact HO
    isplitl [Hmw]; · iexact Hmw
    iexact Hp
  iintro ⟨HO, Hq98, -, HzFrb6⟩
  sl_exec
  -- the departure of chunk 7 across x
  icases HpS with ⟨Hp, HpS⟩
  ihave Hmw := (mayWait_list (F := F) cc (dsem (⟨29, by decide⟩ : Fin 140)) (List.drop 40 (paysL cc)) (by decide)) $$ Hlev
  iapply (wait_a0_at m cc _ 7 rfl) $$ [Hcxs7 HO Hmw Hp]
  · isplitr; · iexact HIc29
    isplitl [Hcxs7]; · iexact Hcxs7
    isplitl [HO]; · iexact HO
    isplitl [Hmw]; · iexact Hmw
    iexact Hp
  iintro ⟨HO, Hq29, -, HBs7⟩
  sl_exec
  -- of own chunk 7 to z
  icases HpS with ⟨Hp, HpS⟩
  ihave Hmw := (mayWait_list (F := F) cc (dsem (⟨51, by decide⟩ : Fin 140)) (List.drop 40 (paysL cc)) (by decide)) $$ Hlev
  iapply (wait_a4_at m cc _ 7 rfl) $$ [Hczs7 HO Hmw Hp]
  · isplitr; · iexact HIc51
    isplitl [Hczs7]; · iexact Hczs7
    isplitl [HO]; · iexact HO
    isplitl [Hmw]; · iexact Hmw
    iexact Hp
  iintro ⟨HO, Hq51, -, HoZb7⟩
  sl_exec
  -- of own chunk 7 to y
  icases HpS with ⟨Hp, HpS⟩
  ihave Hmw := (mayWait_list (F := F) cc (dsem (⟨67, by decide⟩ : Fin 140)) (List.drop 40 (paysL cc)) (by decide)) $$ Hlev
  iapply (wait_a6_at m cc _ 7 rfl) $$ [Hcys7 HO Hmw Hp]
  · isplitr; · iexact HIc67
    isplitl [Hcys7]; · iexact Hcys7
    isplitl [HO]; · iexact HO
    isplitl [Hmw]; · iexact Hmw
    iexact Hp
  iintro ⟨HO, Hq67, -, HoYb7⟩
  sl_exec
  -- of the forwarded half to z
  icases HpS with ⟨Hp, HpS⟩
  ihave Hmw := (mayWait_list (F := F) cc (dsem (⟨83, by decide⟩ : Fin 140)) (List.drop 40 (paysL cc)) (by decide)) $$ Hlev
  iapply (wait_a8_at m cc _ 7 rfl (by decide)) $$ [Hczfs7 HO Hmw Hp]
  · isplitr; · iexact HIc83
    isplitl [Hczfs7]; · iexact Hczfs7
    isplitl [HO]; · iexact HO
    isplitl [Hmw]; · iexact Hmw
    iexact Hp
  iintro ⟨HO, Hq83, -, HyFlb7⟩
  sl_exec
  -- of the forwarded half to y
  icases HpS with ⟨Hp, HpS⟩
  ihave Hmw := (mayWait_list (F := F) cc (dsem (⟨99, by decide⟩ : Fin 140)) (List.drop 40 (paysL cc)) (by decide)) $$ Hlev
  iapply (wait_a10_at m cc _ 7 rfl (by decide)) $$ [Hcyfs7 HO Hmw Hp]
  · isplitr; · iexact HIc99
    isplitl [Hcyfs7]; · iexact Hcyfs7
    isplitl [HO]; · iexact HO
    isplitl [Hmw]; · iexact Hmw
    iexact Hp
  iintro ⟨HO, Hq99, -, HzFrb7⟩
  sl_exec
  -- of chunk 0 of the diagonal quarter across x
  icases HpS with ⟨Hp, HpS⟩
  ihave Hmw := (mayWait_list (F := F) cc (dsem (⟨38, by decide⟩ : Fin 140)) (List.drop 40 (paysL cc)) (by decide)) $$ Hlev
  iapply (wait_a2_at m cc _ 0 rfl) $$ [Hcds0 HO Hmw Hp]
  · isplitr; · iexact HIc38
    isplitl [Hcds0]; · iexact Hcds0
    isplitl [HO]; · iexact HO
    isplitl [Hmw]; · iexact Hmw
    iexact Hp
  iintro ⟨HO, Hq38, -, HB2s0⟩
  sl_exec
  -- of chunk 1 of the diagonal quarter across x
  icases HpS with ⟨Hp, HpS⟩
  ihave HpS := ((sep_emp (PROP := sProp 𝕄)).2) $$ HpS
  ihave Hmw := (mayWait_list (F := F) cc (dsem (⟨39, by decide⟩ : Fin 140)) (List.drop 40 (paysL cc)) (by decide)) $$ Hlev
  iapply (wait_a2_at m cc _ 1 rfl) $$ [Hcds1 HO Hmw Hp]
  · isplitr; · iexact HIc39
    isplitl [Hcds1]; · iexact Hcds1
    isplitl [HO]; · iexact HO
    isplitl [Hmw]; · iexact Hmw
    iexact Hp
  iintro ⟨HO, Hq39, -, HB2s1⟩
  sl_exec
  -- of chunk 2 of the diagonal quarter across x

  icases HpS with ⟨HpS, -⟩
  ihave Hmw := (mayWait_list (F := F) cc (dsem (⟨40, by decide⟩ : Fin 140)) (List.drop 40 (paysL cc)) (by decide)) $$ Hlev
  iapply (wait_a2_at m cc _ 2 rfl) $$ [Hcds2 HO Hmw HpS]
  · isplitr; · iexact HIc40
    isplitl [Hcds2]; · iexact Hcds2
    isplitl [HO]; · iexact HO
    isplitl [Hmw]; · iexact Hmw
    iexact HpS
  iintro ⟨HO, Hq40, -, HB2s2⟩
  sl_exec
  -- every cell of the protocol on this device has had its one round: close them, their counters are the device's again
  imod (close_cell (F := F) m cc (⟨22, by decide⟩ : Fin 140) (by decide)) $$ [Hq22] with Hv22
  · isplitr; · iexact HIc22
    iexact Hq22
  imod (close_cell (F := F) m cc (⟨23, by decide⟩ : Fin 140) (by decide)) $$ [Hq23] with Hv23
  · isplitr; · iexact HIc23
    iexact Hq23
  imod (close_cell (F := F) m cc (⟨24, by decide⟩ : Fin 140) (by decide)) $$ [Hq24] with Hv24
  · isplitr; · iexact HIc24
    iexact Hq24
  imod (close_cell (F := F) m cc (⟨25, by decide⟩ : Fin 140) (by decide)) $$ [Hq25] with Hv25
  · isplitr; · iexact HIc25
    iexact Hq25
  imod (close_cell (F := F) m cc (⟨26, by decide⟩ : Fin 140) (by decide)) $$ [Hq26] with Hv26
  · isplitr; · iexact HIc26
    iexact Hq26
  imod (close_cell (F := F) m cc (⟨27, by decide⟩ : Fin 140) (by decide)) $$ [Hq27] with Hv27
  · isplitr; · iexact HIc27
    iexact Hq27
  imod (close_cell (F := F) m cc (⟨28, by decide⟩ : Fin 140) (by decide)) $$ [Hq28] with Hv28
  · isplitr; · iexact HIc28
    iexact Hq28
  imod (close_cell (F := F) m cc (⟨29, by decide⟩ : Fin 140) (by decide)) $$ [Hq29] with Hv29
  · isplitr; · iexact HIc29
    iexact Hq29
  imod (close_cell (F := F) m cc (⟨30, by decide⟩ : Fin 140) (by decide)) $$ [Hq30] with Hv30
  · isplitr; · iexact HIc30
    iexact Hq30
  imod (close_cell (F := F) m cc (⟨31, by decide⟩ : Fin 140) (by decide)) $$ [Hq31] with Hv31
  · isplitr; · iexact HIc31
    iexact Hq31
  imod (close_cell (F := F) m cc (⟨32, by decide⟩ : Fin 140) (by decide)) $$ [Hq32] with Hv32
  · isplitr; · iexact HIc32
    iexact Hq32
  imod (close_cell (F := F) m cc (⟨33, by decide⟩ : Fin 140) (by decide)) $$ [Hq33] with Hv33
  · isplitr; · iexact HIc33
    iexact Hq33
  imod (close_cell (F := F) m cc (⟨34, by decide⟩ : Fin 140) (by decide)) $$ [Hq34] with Hv34
  · isplitr; · iexact HIc34
    iexact Hq34
  imod (close_cell (F := F) m cc (⟨35, by decide⟩ : Fin 140) (by decide)) $$ [Hq35] with Hv35
  · isplitr; · iexact HIc35
    iexact Hq35
  imod (close_cell (F := F) m cc (⟨36, by decide⟩ : Fin 140) (by decide)) $$ [Hq36] with Hv36
  · isplitr; · iexact HIc36
    iexact Hq36
  imod (close_cell (F := F) m cc (⟨37, by decide⟩ : Fin 140) (by decide)) $$ [Hq37] with Hv37
  · isplitr; · iexact HIc37
    iexact Hq37
  imod (close_cell (F := F) m cc (⟨38, by decide⟩ : Fin 140) (by decide)) $$ [Hq38] with Hv38
  · isplitr; · iexact HIc38
    iexact Hq38
  imod (close_cell (F := F) m cc (⟨39, by decide⟩ : Fin 140) (by decide)) $$ [Hq39] with Hv39
  · isplitr; · iexact HIc39
    iexact Hq39
  imod (close_cell (F := F) m cc (⟨40, by decide⟩ : Fin 140) (by decide)) $$ [Hq40] with Hv40
  · isplitr; · iexact HIc40
    iexact Hq40
  imod (close_cell (F := F) m cc (⟨41, by decide⟩ : Fin 140) (by decide)) $$ [Hq41] with Hv41
  · isplitr; · iexact HIc41
    iexact Hq41
  imod (close_cell (F := F) m cc (⟨42, by decide⟩ : Fin 140) (by decide)) $$ [Hq42] with Hv42
  · isplitr; · iexact HIc42
    iexact Hq42
  imod (close_cell (F := F) m cc (⟨43, by decide⟩ : Fin 140) (by decide)) $$ [Hq43] with Hv43
  · isplitr; · iexact HIc43
    iexact Hq43
  imod (close_cell (F := F) m cc (⟨44, by decide⟩ : Fin 140) (by decide)) $$ [Hq44] with Hv44
  · isplitr; · iexact HIc44
    iexact Hq44
  imod (close_cell (F := F) m cc (⟨45, by decide⟩ : Fin 140) (by decide)) $$ [Hq45] with Hv45
  · isplitr; · iexact HIc45
    iexact Hq45
  imod (close_cell (F := F) m cc (⟨46, by decide⟩ : Fin 140) (by decide)) $$ [Hq46] with Hv46
  · isplitr; · iexact HIc46
    iexact Hq46
  imod (close_cell (F := F) m cc (⟨47, by decide⟩ : Fin 140) (by decide)) $$ [Hq47] with Hv47
  · isplitr; · iexact HIc47
    iexact Hq47
  imod (close_cell (F := F) m cc (⟨48, by decide⟩ : Fin 140) (by decide)) $$ [Hq48] with Hv48
  · isplitr; · iexact HIc48
    iexact Hq48
  imod (close_cell (F := F) m cc (⟨49, by decide⟩ : Fin 140) (by decide)) $$ [Hq49] with Hv49
  · isplitr; · iexact HIc49
    iexact Hq49
  imod (close_cell (F := F) m cc (⟨50, by decide⟩ : Fin 140) (by decide)) $$ [Hq50] with Hv50
  · isplitr; · iexact HIc50
    iexact Hq50
  imod (close_cell (F := F) m cc (⟨51, by decide⟩ : Fin 140) (by decide)) $$ [Hq51] with Hv51
  · isplitr; · iexact HIc51
    iexact Hq51
  imod (close_cell (F := F) m cc (⟨52, by decide⟩ : Fin 140) (by decide)) $$ [Hq52] with Hv52
  · isplitr; · iexact HIc52
    iexact Hq52
  imod (close_cell (F := F) m cc (⟨53, by decide⟩ : Fin 140) (by decide)) $$ [Hq53] with Hv53
  · isplitr; · iexact HIc53
    iexact Hq53
  imod (close_cell (F := F) m cc (⟨54, by decide⟩ : Fin 140) (by decide)) $$ [Hq54] with Hv54
  · isplitr; · iexact HIc54
    iexact Hq54
  imod (close_cell (F := F) m cc (⟨55, by decide⟩ : Fin 140) (by decide)) $$ [Hq55] with Hv55
  · isplitr; · iexact HIc55
    iexact Hq55
  imod (close_cell (F := F) m cc (⟨56, by decide⟩ : Fin 140) (by decide)) $$ [Hq56] with Hv56
  · isplitr; · iexact HIc56
    iexact Hq56
  imod (close_cell (F := F) m cc (⟨57, by decide⟩ : Fin 140) (by decide)) $$ [Hq57] with Hv57
  · isplitr; · iexact HIc57
    iexact Hq57
  imod (close_cell (F := F) m cc (⟨58, by decide⟩ : Fin 140) (by decide)) $$ [Hq58] with Hv58
  · isplitr; · iexact HIc58
    iexact Hq58
  imod (close_cell (F := F) m cc (⟨59, by decide⟩ : Fin 140) (by decide)) $$ [Hq59] with Hv59
  · isplitr; · iexact HIc59
    iexact Hq59
  imod (close_cell (F := F) m cc (⟨60, by decide⟩ : Fin 140) (by decide)) $$ [Hq60] with Hv60
  · isplitr; · iexact HIc60
    iexact Hq60
  imod (close_cell (F := F) m cc (⟨61, by decide⟩ : Fin 140) (by decide)) $$ [Hq61] with Hv61
  · isplitr; · iexact HIc61
    iexact Hq61
  imod (close_cell (F := F) m cc (⟨62, by decide⟩ : Fin 140) (by decide)) $$ [Hq62] with Hv62
  · isplitr; · iexact HIc62
    iexact Hq62
  imod (close_cell (F := F) m cc (⟨63, by decide⟩ : Fin 140) (by decide)) $$ [Hq63] with Hv63
  · isplitr; · iexact HIc63
    iexact Hq63
  imod (close_cell (F := F) m cc (⟨64, by decide⟩ : Fin 140) (by decide)) $$ [Hq64] with Hv64
  · isplitr; · iexact HIc64
    iexact Hq64
  imod (close_cell (F := F) m cc (⟨65, by decide⟩ : Fin 140) (by decide)) $$ [Hq65] with Hv65
  · isplitr; · iexact HIc65
    iexact Hq65
  imod (close_cell (F := F) m cc (⟨66, by decide⟩ : Fin 140) (by decide)) $$ [Hq66] with Hv66
  · isplitr; · iexact HIc66
    iexact Hq66
  imod (close_cell (F := F) m cc (⟨67, by decide⟩ : Fin 140) (by decide)) $$ [Hq67] with Hv67
  · isplitr; · iexact HIc67
    iexact Hq67
  imod (close_cell (F := F) m cc (⟨68, by decide⟩ : Fin 140) (by decide)) $$ [Hq68] with Hv68
  · isplitr; · iexact HIc68
    iexact Hq68
  imod (close_cell (F := F) m cc (⟨69, by decide⟩ : Fin 140) (by decide)) $$ [Hq69] with Hv69
  · isplitr; · iexact HIc69
    iexact Hq69
  imod (close_cell (F := F) m cc (⟨70, by decide⟩ : Fin 140) (by decide)) $$ [Hq70] with Hv70
  · isplitr; · iexact HIc70
    iexact Hq70
  imod (close_cell (F := F) m cc (⟨71, by decide⟩ : Fin 140) (by decide)) $$ [Hq71] with Hv71
  · isplitr; · iexact HIc71
    iexact Hq71
  imod (close_cell (F := F) m cc (⟨72, by decide⟩ : Fin 140) (by decide)) $$ [Hq72] with Hv72
  · isplitr; · iexact HIc72
    iexact Hq72
  imod (close_cell (F := F) m cc (⟨73, by decide⟩ : Fin 140) (by decide)) $$ [Hq73] with Hv73
  · isplitr; · iexact HIc73
    iexact Hq73
  imod (close_cell (F := F) m cc (⟨74, by decide⟩ : Fin 140) (by decide)) $$ [Hq74] with Hv74
  · isplitr; · iexact HIc74
    iexact Hq74
  imod (close_cell (F := F) m cc (⟨75, by decide⟩ : Fin 140) (by decide)) $$ [Hq75] with Hv75
  · isplitr; · iexact HIc75
    iexact Hq75
  imod (close_cell (F := F) m cc (⟨79, by decide⟩ : Fin 140) (by decide)) $$ [Hq79] with Hv79
  · isplitr; · iexact HIc79
    iexact Hq79
  imod (close_cell (F := F) m cc (⟨80, by decide⟩ : Fin 140) (by decide)) $$ [Hq80] with Hv80
  · isplitr; · iexact HIc80
    iexact Hq80
  imod (close_cell (F := F) m cc (⟨81, by decide⟩ : Fin 140) (by decide)) $$ [Hq81] with Hv81
  · isplitr; · iexact HIc81
    iexact Hq81
  imod (close_cell (F := F) m cc (⟨82, by decide⟩ : Fin 140) (by decide)) $$ [Hq82] with Hv82
  · isplitr; · iexact HIc82
    iexact Hq82
  imod (close_cell (F := F) m cc (⟨83, by decide⟩ : Fin 140) (by decide)) $$ [Hq83] with Hv83
  · isplitr; · iexact HIc83
    iexact Hq83
  imod (close_cell (F := F) m cc (⟨87, by decide⟩ : Fin 140) (by decide)) $$ [Hq87] with Hv87
  · isplitr; · iexact HIc87
    iexact Hq87
  imod (close_cell (F := F) m cc (⟨88, by decide⟩ : Fin 140) (by decide)) $$ [Hq88] with Hv88
  · isplitr; · iexact HIc88
    iexact Hq88
  imod (close_cell (F := F) m cc (⟨89, by decide⟩ : Fin 140) (by decide)) $$ [Hq89] with Hv89
  · isplitr; · iexact HIc89
    iexact Hq89
  imod (close_cell (F := F) m cc (⟨90, by decide⟩ : Fin 140) (by decide)) $$ [Hq90] with Hv90
  · isplitr; · iexact HIc90
    iexact Hq90
  imod (close_cell (F := F) m cc (⟨91, by decide⟩ : Fin 140) (by decide)) $$ [Hq91] with Hv91
  · isplitr; · iexact HIc91
    iexact Hq91
  imod (close_cell (F := F) m cc (⟨95, by decide⟩ : Fin 140) (by decide)) $$ [Hq95] with Hv95
  · isplitr; · iexact HIc95
    iexact Hq95
  imod (close_cell (F := F) m cc (⟨96, by decide⟩ : Fin 140) (by decide)) $$ [Hq96] with Hv96
  · isplitr; · iexact HIc96
    iexact Hq96
  imod (close_cell (F := F) m cc (⟨97, by decide⟩ : Fin 140) (by decide)) $$ [Hq97] with Hv97
  · isplitr; · iexact HIc97
    iexact Hq97
  imod (close_cell (F := F) m cc (⟨98, by decide⟩ : Fin 140) (by decide)) $$ [Hq98] with Hv98
  · isplitr; · iexact HIc98
    iexact Hq98
  imod (close_cell (F := F) m cc (⟨99, by decide⟩ : Fin 140) (by decide)) $$ [Hq99] with Hv99
  · isplitr; · iexact HIc99
    iexact Hq99
  imod (close_cell (F := F) m cc (⟨103, by decide⟩ : Fin 140) (by decide)) $$ [Hq103] with Hv103
  · isplitr; · iexact HIc103
    iexact Hq103
  imod (close_cell (F := F) m cc (⟨104, by decide⟩ : Fin 140) (by decide)) $$ [Hq104] with Hv104
  · isplitr; · iexact HIc104
    iexact Hq104
  imod (close_cell (F := F) m cc (⟨105, by decide⟩ : Fin 140) (by decide)) $$ [Hq105] with Hv105
  · isplitr; · iexact HIc105
    iexact Hq105
  imod (close_cell (F := F) m cc (⟨106, by decide⟩ : Fin 140) (by decide)) $$ [Hq106] with Hv106
  · isplitr; · iexact HIc106
    iexact Hq106
  imod (close_cell (F := F) m cc (⟨107, by decide⟩ : Fin 140) (by decide)) $$ [Hq107] with Hv107
  · isplitr; · iexact HIc107
    iexact Hq107
  -- the program is over: hand everything back
  icases HvU with ⟨Hu76, Hu77, Hu78, Hu84, Hu85, Hu86, Hu92, Hu93, Hu94, Hu100, Hu101, Hu102⟩
  ihave HO := (Entails.of_eq (show owes (cc : Thread nD τ) (owedL (List.drop 40 (paysL cc))) _ = owes (cc : Thread nD τ) 0 _ from rfl)) $$ HO
  -- each block of the result holds what its copy wrote: the final contents
  ihave HU00 := (congr (F := F) (outR 0 0) cc fullShare ((outR 0 0).view.writes (Elt F) g00 [⟨Rect.whole S512x256, dev.sl.dma0_34 m⟩]) (out m cc) (fun i hi => glue_out' m cc 0 0 g00 i hi)) $$ HU00
  ihave HU01 := (congr (F := F) (outR 0 1) cc fullShare ((outR 0 1).view.writes (Elt F) g01 [⟨Rect.whole S512x256, dev.sl.dma0_35 m⟩]) (out m cc) (fun i hi => glue_out' m cc 0 1 g01 i hi)) $$ HU01
  ihave HU02 := (congr (F := F) (outR 0 2) cc fullShare ((outR 0 2).view.writes (Elt F) g02 [⟨Rect.whole S512x256, dev.sl.dma0_36 m⟩]) (out m cc) (fun i hi => glue_out' m cc 0 2 g02 i hi)) $$ HU02
  ihave HU03 := (congr (F := F) (outR 0 3) cc fullShare ((outR 0 3).view.writes (Elt F) g03 [⟨Rect.whole S512x256, dev.sl.dma0_37 m⟩]) (out m cc) (fun i hi => glue_out' m cc 0 3 g03 i hi)) $$ HU03
  ihave HU10 := (congr (F := F) (outR 1 0) cc fullShare ((outR 1 0).view.writes (Elt F) g10 [⟨Rect.whole S512x256, dev.sl.dma0_38 m⟩]) (out m cc) (fun i hi => glue_out' m cc 1 0 g10 i hi)) $$ HU10
  ihave HU11 := (congr (F := F) (outR 1 1) cc fullShare ((outR 1 1).view.writes (Elt F) g11 [⟨Rect.whole S512x256, dev.sl.dma0_39 m⟩]) (out m cc) (fun i hi => glue_out' m cc 1 1 g11 i hi)) $$ HU11
  ihave HU12 := (congr (F := F) (outR 1 2) cc fullShare ((outR 1 2).view.writes (Elt F) g12 [⟨Rect.whole S512x256, dev.sl.dma0_40 m⟩]) (out m cc) (fun i hi => glue_out' m cc 1 2 g12 i hi)) $$ HU12
  ihave HU13 := (congr (F := F) (outR 1 3) cc fullShare ((outR 1 3).view.writes (Elt F) g13 [⟨Rect.whole S512x256, dev.sl.dma0_41 m⟩]) (out m cc) (fun i hi => glue_out' m cc 1 3 g13 i hi)) $$ HU13
  ihave HU20 := (congr (F := F) (outR 2 0) cc fullShare ((outR 2 0).view.writes (Elt F) g20 [⟨Rect.whole S512x256, dev.sl.dma0_42 m⟩]) (out m cc) (fun i hi => glue_out' m cc 2 0 g20 i hi)) $$ HU20
  ihave HU21 := (congr (F := F) (outR 2 1) cc fullShare ((outR 2 1).view.writes (Elt F) g21 [⟨Rect.whole S512x256, dev.sl.dma0_43 m⟩]) (out m cc) (fun i hi => glue_out' m cc 2 1 g21 i hi)) $$ HU21
  ihave HU22 := (congr (F := F) (outR 2 2) cc fullShare ((outR 2 2).view.writes (Elt F) g22 [⟨Rect.whole S512x256, dev.sl.dma0_44 m⟩]) (out m cc) (fun i hi => glue_out' m cc 2 2 g22 i hi)) $$ HU22
  ihave HU23 := (congr (F := F) (outR 2 3) cc fullShare ((outR 2 3).view.writes (Elt F) g23 [⟨Rect.whole S512x256, dev.sl.dma0_45 m⟩]) (out m cc) (fun i hi => glue_out' m cc 2 3 g23 i hi)) $$ HU23
  ihave HU30 := (congr (F := F) (outR 3 0) cc fullShare ((outR 3 0).view.writes (Elt F) g30 [⟨Rect.whole S512x256, dev.sl.dma0_22 m⟩]) (out m cc) (fun i hi => glue_out' m cc 3 0 g30 i hi)) $$ HU30
  ihave HU31 := (congr (F := F) (outR 3 1) cc fullShare ((outR 3 1).view.writes (Elt F) g31 [⟨Rect.whole S512x256, dev.sl.dma0_23 m⟩]) (out m cc) (fun i hi => glue_out' m cc 3 1 g31 i hi)) $$ HU31
  ihave HU32 := (congr (F := F) (outR 3 2) cc fullShare ((outR 3 2).view.writes (Elt F) g32 [⟨Rect.whole S512x256, dev.sl.dma0_24 m⟩]) (out m cc) (fun i hi => glue_out' m cc 3 2 g32 i hi)) $$ HU32
  ihave HU33 := (congr (F := F) (outR 3 3) cc fullShare ((outR 3 3).view.writes (Elt F) g33 [⟨Rect.whole S512x256, dev.sl.dma0_25 m⟩]) (out m cc) (fun i hi => glue_out' m cc 3 3 g33 i hi)) $$ HU33
  ihave HU40 := (congr (F := F) (outR 4 0) cc fullShare ((outR 4 0).view.writes (Elt F) g40 [⟨Rect.whole S512x256, dev.sl.dma0_26 m⟩]) (out m cc) (fun i hi => glue_out' m cc 4 0 g40 i hi)) $$ HU40
  ihave HU41 := (congr (F := F) (outR 4 1) cc fullShare ((outR 4 1).view.writes (Elt F) g41 [⟨Rect.whole S512x256, dev.sl.dma0_27 m⟩]) (out m cc) (fun i hi => glue_out' m cc 4 1 g41 i hi)) $$ HU41
  ihave HU42 := (congr (F := F) (outR 4 2) cc fullShare ((outR 4 2).view.writes (Elt F) g42 [⟨Rect.whole S512x256, dev.sl.dma0_28 m⟩]) (out m cc) (fun i hi => glue_out' m cc 4 2 g42 i hi)) $$ HU42
  ihave HU43 := (congr (F := F) (outR 4 3) cc fullShare ((outR 4 3).view.writes (Elt F) g43 [⟨Rect.whole S512x256, dev.sl.dma0_29 m⟩]) (out m cc) (fun i hi => glue_out' m cc 4 3 g43 i hi)) $$ HU43
  ihave HU50 := (congr (F := F) (outR 5 0) cc fullShare ((outR 5 0).view.writes (Elt F) g50 [⟨Rect.whole S512x256, dev.sl.dma0_30 m⟩]) (out m cc) (fun i hi => glue_out' m cc 5 0 g50 i hi)) $$ HU50
  ihave HU51 := (congr (F := F) (outR 5 1) cc fullShare ((outR 5 1).view.writes (Elt F) g51 [⟨Rect.whole S512x256, dev.sl.dma0_31 m⟩]) (out m cc) (fun i hi => glue_out' m cc 5 1 g51 i hi)) $$ HU51
  ihave HU52 := (congr (F := F) (outR 5 2) cc fullShare ((outR 5 2).view.writes (Elt F) g52 [⟨Rect.whole S512x256, dev.sl.dma0_32 m⟩]) (out m cc) (fun i hi => glue_out' m cc 5 2 g52 i hi)) $$ HU52
  ihave HU53 := (congr (F := F) (outR 5 3) cc fullShare ((outR 5 3).view.writes (Elt F) g53 [⟨Rect.whole S512x256, dev.sl.dma0_33 m⟩]) (out m cc) (fun i hi => glue_out' m cc 5 3 g53 i hi)) $$ HU53
  ihave HU60 := (congr (F := F) (outR 6 0) cc fullShare ((outR 6 0).view.writes (Elt F) g60 [⟨Rect.whole S512x256, dev.sl.dma0_46 m⟩]) (out m cc) (fun i hi => glue_out' m cc 6 0 g60 i hi)) $$ HU60
  ihave HU61 := (congr (F := F) (outR 6 1) cc fullShare ((outR 6 1).view.writes (Elt F) g61 [⟨Rect.whole S512x256, dev.sl.dma0_47 m⟩]) (out m cc) (fun i hi => glue_out' m cc 6 1 g61 i hi)) $$ HU61
  ihave HU62 := (congr (F := F) (outR 6 2) cc fullShare ((outR 6 2).view.writes (Elt F) g62 [⟨Rect.whole S512x256, dev.sl.dma0_48 m⟩]) (out m cc) (fun i hi => glue_out' m cc 6 2 g62 i hi)) $$ HU62
  ihave HU63 := (congr (F := F) (outR 6 3) cc fullShare ((outR 6 3).view.writes (Elt F) g63 [⟨Rect.whole S512x256, dev.sl.dma0_49 m⟩]) (out m cc) (fun i hi => glue_out' m cc 6 3 g63 i hi)) $$ HU63
  ihave HU70 := (congr (F := F) (outR 7 0) cc fullShare ((outR 7 0).view.writes (Elt F) g70 [⟨Rect.whole S512x256, dev.sl.dma0_50 m⟩]) (out m cc) (fun i hi => glue_out' m cc 7 0 g70 i hi)) $$ HU70
  ihave HU71 := (congr (F := F) (outR 7 1) cc fullShare ((outR 7 1).view.writes (Elt F) g71 [⟨Rect.whole S512x256, dev.sl.dma0_51 m⟩]) (out m cc) (fun i hi => glue_out' m cc 7 1 g71 i hi)) $$ HU71
  ihave HU72 := (congr (F := F) (outR 7 2) cc fullShare ((outR 7 2).view.writes (Elt F) g72 [⟨Rect.whole S512x256, dev.sl.dma0_52 m⟩]) (out m cc) (fun i hi => glue_out' m cc 7 2 g72 i hi)) $$ HU72
  ihave HU73 := (congr (F := F) (outR 7 3) cc fullShare ((outR 7 3).view.writes (Elt F) g73 [⟨Rect.whole S512x256, dev.sl.dma0_53 m⟩]) (out m cc) (fun i hi => glue_out' m cc 7 3 g73 i hi)) $$ HU73
  sl_step
  iapply Hk
  unfold bodyPost
  isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7 Hz0 Hz1 Hz2 HzG3 HzFl3 HzFrb3 HzG4 HzFl4 HzFrb4 HzG5 HzFl5 HzFrb5 HzG6 HzFl6 HzFrb6 HzG7 HzFl7 HzFrb7 Hy0 Hy1 Hy2 HyG3 HyFlb3 HyFr3 HyG4 HyFlb4 HyFr4 HyG5 HyFlb5 HyFr5 HyG6 HyFlb6 HyFr6 HyG7 HyFlb7 HyFr7 Hdq0 Hdq1 Hdq2 Hd3 Hd4 Hd5 Hd6 Hd7]
  · iapply (Entails.of_eq (junk_whole (F := F) cc cc0_scratch0).symm)
    iapply (r4_back (F := F) cc)
    isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7]
    · isplitl [HoZb0 HoYb0 HoK0]
      · iapply (own_back (F := F) cc 0 (r4 m cc))
        isplitl [HoZb0]
        · iexact HoZb0
        isplitl [HoYb0]
        · iexact HoYb0
        iexact HoK0
      isplitl [HoZb1 HoYb1 HoK1]
      · iapply (own_back (F := F) cc 1 (r4 m cc))
        isplitl [HoZb1]
        · iexact HoZb1
        isplitl [HoYb1]
        · iexact HoYb1
        iexact HoK1
      isplitl [HoZb2 HoYb2 HoK2]
      · iapply (own_back (F := F) cc 2 (r4 m cc))
        isplitl [HoZb2]
        · iexact HoZb2
        isplitl [HoYb2]
        · iexact HoYb2
        iexact HoK2
      isplitl [HoZb3 HoYb3 HoK3]
      · iapply (own_back (F := F) cc 3 (r4 m cc))
        isplitl [HoZb3]
        · iexact HoZb3
        isplitl [HoYb3]
        · iexact HoYb3
        iexact HoK3
      isplitl [HoZb4 HoYb4 HoK4]
      · iapply (own_back (F := F) cc 4 (r4 m cc))
        isplitl [HoZb4]
        · iexact HoZb4
        isplitl [HoYb4]
        · iexact HoYb4
        iexact HoK4
      isplitl [HoZb5 HoYb5 HoK5]
      · iapply (own_back (F := F) cc 5 (r4 m cc))
        isplitl [HoZb5]
        · iexact HoZb5
        isplitl [HoYb5]
        · iexact HoYb5
        iexact HoK5
      isplitl [HoZb6 HoYb6 HoK6]
      · iapply (own_back (F := F) cc 6 (r4 m cc))
        isplitl [HoZb6]
        · iexact HoZb6
        isplitl [HoYb6]
        · iexact HoYb6
        iexact HoK6
      iapply (own_back (F := F) cc 7 (r4 m cc))
      isplitl [HoZb7]
      · iexact HoZb7
      isplitl [HoYb7]
      · iexact HoYb7
      iexact HoK7
    isplitl [Hz0 Hz1 Hz2 HzG3 HzFl3 HzFrb3 HzG4 HzFl4 HzFrb4 HzG5 HzFl5 HzFrb5 HzG6 HzFl6 HzFrb6 HzG7 HzFl7 HzFrb7]
    · isplitl [Hz0]
      · iexists _; iexact Hz0
      isplitl [Hz1]
      · iexists _; iexact Hz1
      isplitl [Hz2]
      · iexists _; iexact Hz2
      isplitl [HzG3 HzFl3 HzFrb3]
      · iapply (nbr_back (F := F) cc (zqF cc) 3 (r4 m cc))
        isplitl [HzG3]
        · iexact HzG3
        isplitl [HzFl3]
        · iexact HzFl3
        iexact HzFrb3
      isplitl [HzG4 HzFl4 HzFrb4]
      · iapply (nbr_back (F := F) cc (zqF cc) 4 (r4 m cc))
        isplitl [HzG4]
        · iexact HzG4
        isplitl [HzFl4]
        · iexact HzFl4
        iexact HzFrb4
      isplitl [HzG5 HzFl5 HzFrb5]
      · iapply (nbr_back (F := F) cc (zqF cc) 5 (r4 m cc))
        isplitl [HzG5]
        · iexact HzG5
        isplitl [HzFl5]
        · iexact HzFl5
        iexact HzFrb5
      isplitl [HzG6 HzFl6 HzFrb6]
      · iapply (nbr_back (F := F) cc (zqF cc) 6 (r4 m cc))
        isplitl [HzG6]
        · iexact HzG6
        isplitl [HzFl6]
        · iexact HzFl6
        iexact HzFrb6
      iapply (nbr_back (F := F) cc (zqF cc) 7 (r4 m cc))
      isplitl [HzG7]
      · iexact HzG7
      isplitl [HzFl7]
      · iexact HzFl7
      iexact HzFrb7
    isplitl [Hy0 Hy1 Hy2 HyG3 HyFlb3 HyFr3 HyG4 HyFlb4 HyFr4 HyG5 HyFlb5 HyFr5 HyG6 HyFlb6 HyFr6 HyG7 HyFlb7 HyFr7]
    · isplitl [Hy0]
      · iexists _; iexact Hy0
      isplitl [Hy1]
      · iexists _; iexact Hy1
      isplitl [Hy2]
      · iexists _; iexact Hy2
      isplitl [HyG3 HyFlb3 HyFr3]
      · iapply (nbr_back (F := F) cc (yqF cc) 3 (r4 m cc))
        isplitl [HyG3]
        · iexact HyG3
        isplitl [HyFlb3]
        · iexact HyFlb3
        iexact HyFr3
      isplitl [HyG4 HyFlb4 HyFr4]
      · iapply (nbr_back (F := F) cc (yqF cc) 4 (r4 m cc))
        isplitl [HyG4]
        · iexact HyG4
        isplitl [HyFlb4]
        · iexact HyFlb4
        iexact HyFr4
      isplitl [HyG5 HyFlb5 HyFr5]
      · iapply (nbr_back (F := F) cc (yqF cc) 5 (r4 m cc))
        isplitl [HyG5]
        · iexact HyG5
        isplitl [HyFlb5]
        · iexact HyFlb5
        iexact HyFr5
      isplitl [HyG6 HyFlb6 HyFr6]
      · iapply (nbr_back (F := F) cc (yqF cc) 6 (r4 m cc))
        isplitl [HyG6]
        · iexact HyG6
        isplitl [HyFlb6]
        · iexact HyFlb6
        iexact HyFr6
      iapply (nbr_back (F := F) cc (yqF cc) 7 (r4 m cc))
      isplitl [HyG7]
      · iexact HyG7
      isplitl [HyFlb7]
      · iexact HyFlb7
      iexact HyFr7
    isplitl [Hdq0 Hdq1 Hdq2]
    · isplitl [Hdq0]
      · iexists _; iexact Hdq0
      isplitl [Hdq1]
      · iexists _; iexact Hdq1
      iexists _; iexact Hdq2
    isplitl [Hd3]
    · iapply (dq_halves (F := F) cc 3 (r4 m cc))
      iexact Hd3
    isplitl [Hd4]
    · iapply (dq_halves (F := F) cc 4 (r4 m cc))
      iexact Hd4
    isplitl [Hd5]
    · iapply (dq_halves (F := F) cc 5 (r4 m cc))
      iexact Hd5
    isplitl [Hd6]
    · iapply (dq_halves (F := F) cc 6 (r4 m cc))
      iexact Hd6
    iapply (dq_halves (F := F) cc 7 (r4 m cc))
    iexact Hd7
  isplitl [HBs0 HBs1 HBs2 HBs3 HBs4 HBs5 HBs6 HBs7]
  · iapply (Entails.of_eq (junk_whole (F := F) cc cc0_scratch1).symm)
    iapply (sb_rows_join (F := F) cc)
    isplitl [HBs0]
    · iexists _; iexact HBs0
    isplitl [HBs1]
    · iexists _; iexact HBs1
    isplitl [HBs2]
    · iexists _; iexact HBs2
    isplitl [HBs3]
    · iexists _; iexact HBs3
    isplitl [HBs4]
    · iexists _; iexact HBs4
    isplitl [HBs5]
    · iexists _; iexact HBs5
    isplitl [HBs6]
    · iexists _; iexact HBs6
    iexists _; iexact HBs7
  isplitl [Hrb0 Hrb1 Hrb2 Hrb3 Hrb4 Hrb5 Hrb6 Hrb7]
  · iapply (Entails.of_eq (junk_whole (F := F) cc cc0_scratch2).symm)
    iapply (rb_rows_join (F := F) cc)
    isplitl [Hrb0]
    · iexists _; iexact Hrb0
    isplitl [Hrb1]
    · iexists _; iexact Hrb1
    isplitl [Hrb2]
    · iexists _; iexact Hrb2
    isplitl [Hrb3]
    · iexists _; iexact Hrb3
    isplitl [Hrb4]
    · iexists _; iexact Hrb4
    isplitl [Hrb5]
    · iexists _; iexact Hrb5
    isplitl [Hrb6]
    · iexists _; iexact Hrb6
    iexists _; iexact Hrb7
  isplitl [HB2s0 HB2s1 HB2s2]
  · iapply (Entails.of_eq (junk_whole (F := F) cc cc0_scratch3).symm)
    iapply (sb2_rows_join (F := F) cc)
    isplitl [HB2s0]
    · iexists _; iexact HB2s0
    isplitl [HB2s1]
    · iexists _; iexact HB2s1
    iexists _; iexact HB2s2
  isplitl [Hrb20 Hrb21 Hrb22]
  · iapply (Entails.of_eq (junk_whole (F := F) cc cc0_scratch4).symm)
    iapply (rb2_rows_join (F := F) cc)
    isplitl [Hrb20]
    · iexists _; iexact Hrb20
    isplitl [Hrb21]
    · iexists _; iexact Hrb21
    iexists _; iexact Hrb22
  isplitl [HP0 HP1 HP2 HP3 HP4 HP5 HP6 HP7]
  · iapply (Entails.of_eq (junk_whole (F := F) cc cc0_scratch5).symm)
    iapply (stP_rows_join (F := F) cc)
    isplitl [HP0]
    · iexists _; iexact HP0
    isplitl [HP1]
    · iexists _; iexact HP1
    isplitl [HP2]
    · iexists _; iexact HP2
    isplitl [HP3]
    · iexists _; iexact HP3
    isplitl [HP4]
    · iexists _; iexact HP4
    isplitl [HP5]
    · iexists _; iexact HP5
    isplitl [HP6]
    · iexists _; iexact HP6
    iexists _; iexact HP7
  isplitl [HL0 HL1 HL2 HL3 HL4 HL5 HL6 HL7]
  · iapply (Entails.of_eq (junk_whole (F := F) cc cc0_scratch6).symm)
    iapply (stL_rows_join (F := F) cc)
    isplitl [HL0]
    · iexists _; iexact HL0
    isplitl [HL1]
    · iexists _; iexact HL1
    isplitl [HL2]
    · iexists _; iexact HL2
    isplitl [HL3]
    · iexists _; iexact HL3
    isplitl [HL4]
    · iexists _; iexact HL4
    isplitl [HL5]
    · iexists _; iexact HL5
    isplitl [HL6]
    · iexists _; iexact HL6
    iexists _; iexact HL7
  isplitl [HP20 HP21 HP22]
  · iapply (Entails.of_eq (junk_whole (F := F) cc cc0_scratch7).symm)
    iapply (stP2_rows_join (F := F) cc)
    isplitl [HP20]
    · iexists _; iexact HP20
    isplitl [HP21]
    · iexists _; iexact HP21
    iexists _; iexact HP22
  isplitl [HL20 HL21 HL22]
  · iapply (Entails.of_eq (junk_whole (F := F) cc cc0_scratch8).symm)
    iapply (stL2_rows_join (F := F) cc)
    isplitl [HL20]
    · iexists _; iexact HL20
    isplitl [HL21]
    · iexists _; iexact HL21
    iexists _; iexact HL22
  isplitl [HX]
  · iexact HX
  isplitl [HU00 HU01 HU02 HU03 HU10 HU11 HU12 HU13 HU20 HU21 HU22 HU23 HU30 HU31 HU32 HU33 HU40 HU41 HU42 HU43 HU50 HU51 HU52 HU53 HU60 HU61 HU62 HU63 HU70 HU71 HU72 HU73]
  · iapply (out_join (F := F) cc (out m cc))
    isplitl [HU00]
    · iexact HU00
    isplitl [HU01]
    · iexact HU01
    isplitl [HU02]
    · iexact HU02
    isplitl [HU03]
    · iexact HU03
    isplitl [HU10]
    · iexact HU10
    isplitl [HU11]
    · iexact HU11
    isplitl [HU12]
    · iexact HU12
    isplitl [HU13]
    · iexact HU13
    isplitl [HU20]
    · iexact HU20
    isplitl [HU21]
    · iexact HU21
    isplitl [HU22]
    · iexact HU22
    isplitl [HU23]
    · iexact HU23
    isplitl [HU30]
    · iexact HU30
    isplitl [HU31]
    · iexact HU31
    isplitl [HU32]
    · iexact HU32
    isplitl [HU33]
    · iexact HU33
    isplitl [HU40]
    · iexact HU40
    isplitl [HU41]
    · iexact HU41
    isplitl [HU42]
    · iexact HU42
    isplitl [HU43]
    · iexact HU43
    isplitl [HU50]
    · iexact HU50
    isplitl [HU51]
    · iexact HU51
    isplitl [HU52]
    · iexact HU52
    isplitl [HU53]
    · iexact HU53
    isplitl [HU60]
    · iexact HU60
    isplitl [HU61]
    · iexact HU61
    isplitl [HU62]
    · iexact HU62
    isplitl [HU63]
    · iexact HU63
    isplitl [HU70]
    · iexact HU70
    isplitl [HU71]
    · iexact HU71
    isplitl [HU72]
    · iexact HU72
    iexact HU73
  isplitl [Hv0 Hv1 Hv2 Hv3 Hv4 Hv5 Hv6 Hv7 Hv8 Hv9 Hv10 Hv11 Hv12 Hv13 Hv14 Hv15 Hv16 Hv17 Hv18 Hv19 Hv20 Hv21 Hv22 Hv23 Hv24 Hv25 Hv26 Hv27 Hv28 Hv29 Hv30 Hv31 Hv32 Hv33 Hv34 Hv35 Hv36 Hv37 Hv38 Hv39 Hv40 Hv41 Hv42 Hv43 Hv44 Hv45 Hv46 Hv47 Hv48 Hv49 Hv50 Hv51 Hv52 Hv53 Hv54 Hv55 Hv56 Hv57 Hv58 Hv59 Hv60 Hv61 Hv62 Hv63 Hv64 Hv65 Hv66 Hv67 Hv68 Hv69 Hv70 Hv71 Hv72 Hv73 Hv74 Hv75 Hu76 Hu77 Hu78 Hv79 Hv80 Hv81 Hv82 Hv83 Hu84 Hu85 Hu86 Hv87 Hv88 Hv89 Hv90 Hv91 Hu92 Hu93 Hu94 Hv95 Hv96 Hv97 Hv98 Hv99 Hu100 Hu101 Hu102 Hv103 Hv104 Hv105 Hv106 Hv107 Hw0a Hw0b Hw0c Hw0d Hw1a Hw1b Hw1c Hw1d Hw2a Hw2b Hw2c Hw2d Hw3a Hw3b Hw3c Hw3d Hw4a Hw4b Hw4c Hw4d Hw5a Hw5b Hw5c Hw5d Hw6a Hw6b Hw6c Hw6d Hw7a Hw7b Hw7c Hw7d]
  · iapply (Entails.of_eq (show (iprop(semVal (cellAt cc (⟨0, Nat.le_of_ble_eq_true rfl⟩ : Fin 140)) 0 ∗ semVal (cellAt cc (⟨1, Nat.le_of_ble_eq_true rfl⟩ : Fin 140)) 0 ∗ semVal (cellAt cc (⟨2, Nat.le_of_ble_eq_true rfl⟩ : Fin 140)) 0 ∗ semVal (cellAt cc (⟨3, Nat.le_of_ble_eq_true rfl⟩ : Fin 140)) 0 ∗ semVal (cellAt cc (⟨4, Nat.le_of_ble_eq_true rfl⟩ : Fin 140)) 0 ∗ semVal (cellAt cc (⟨5, Nat.le_of_ble_eq_true rfl⟩ : Fin 140)) 0 ∗ semVal (cellAt cc (⟨6, Nat.le_of_ble_eq_true rfl⟩ : Fin 140)) 0 ∗ semVal (cellAt cc (⟨7, Nat.le_of_ble_eq_true rfl⟩ : Fin 140)) 0 ∗ semVal (cellAt cc (⟨8, Nat.le_of_ble_eq_true rfl⟩ : Fin 140)) 0 ∗ semVal (cellAt cc (⟨9, Nat.le_of_ble_eq_true rfl⟩ : Fin 140)) 0 ∗ semVal (cellAt cc (⟨10, Nat.le_of_ble_eq_true rfl⟩ : Fin 140)) 0 ∗ semVal (cellAt cc (⟨11, Nat.le_of_ble_eq_true rfl⟩ : Fin 140)) 0 ∗ semVal (cellAt cc (⟨12, Nat.le_of_ble_eq_true rfl⟩ : Fin 140)) 0 ∗ semVal (cellAt cc (⟨13, Nat.le_of_ble_eq_true rfl⟩ : Fin 140)) 0 ∗ semVal (cellAt cc (⟨14, Nat.le_of_ble_eq_true rfl⟩ : Fin 140)) 0 ∗ semVal (cellAt cc (⟨15, Nat.le_of_ble_eq_true rfl⟩ : Fin 140)) 0 ∗ semVal (cellAt cc (⟨16, Nat.le_of_ble_eq_true rfl⟩ : Fin 140)) 0 ∗ semVal (cellAt cc (⟨17, Nat.le_of_ble_eq_true rfl⟩ : Fin 140)) 0 ∗ semVal (cellAt cc (⟨18, Nat.le_of_ble_eq_true rfl⟩ : Fin 140)) 0 ∗ semVal (cellAt cc (⟨19, Nat.le_of_ble_eq_true rfl⟩ : Fin 140)) 0 ∗ semVal (cellAt cc (⟨20, Nat.le_of_ble_eq_true rfl⟩ : Fin 140)) 0 ∗ semVal (cellAt cc (⟨21, Nat.le_of_ble_eq_true rfl⟩ : Fin 140)) 0 ∗ semVal (cellAt cc (⟨22, Nat.le_of_ble_eq_true rfl⟩ : Fin 140)) 0 ∗ semVal (cellAt cc (⟨23, Nat.le_of_ble_eq_true rfl⟩ : Fin 140)) 0 ∗ semVal (cellAt cc (⟨24, Nat.le_of_ble_eq_true rfl⟩ : Fin 140)) 0 ∗ semVal (cellAt cc (⟨25, Nat.le_of_ble_eq_true rfl⟩ : Fin 140)) 0 ∗ semVal (cellAt cc (⟨26, Nat.le_of_ble_eq_true rfl⟩ : Fin 140)) 0 ∗ semVal (cellAt cc (⟨27, Nat.le_of_ble_eq_true rfl⟩ : Fin 140)) 0 ∗ semVal (cellAt cc (⟨28, Nat.le_of_ble_eq_true rfl⟩ : Fin 140)) 0 ∗ semVal (cellAt cc (⟨29, Nat.le_of_ble_eq_true rfl⟩ : Fin 140)) 0 ∗ semVal (cellAt cc (⟨30, Nat.le_of_ble_eq_true rfl⟩ : Fin 140)) 0 ∗ semVal (cellAt cc (⟨31, Nat.le_of_ble_eq_true rfl⟩ : Fin 140)) 0 ∗ semVal (cellAt cc (⟨32, Nat.le_of_ble_eq_true rfl⟩ : Fin 140)) 0 ∗ semVal (cellAt cc (⟨33, Nat.le_of_ble_eq_true rfl⟩ : Fin 140)) 0 ∗ semVal (cellAt cc (⟨34, Nat.le_of_ble_eq_true rfl⟩ : Fin 140)) 0 ∗ semVal (cellAt cc (⟨35, Nat.le_of_ble_eq_true rfl⟩ : Fin 140)) 0 ∗ semVal (cellAt cc (⟨36, Nat.le_of_ble_eq_true rfl⟩ : Fin 140)) 0 ∗ semVal (cellAt cc (⟨37, Nat.le_of_ble_eq_true rfl⟩ : Fin 140)) 0 ∗ semVal (cellAt cc (⟨38, Nat.le_of_ble_eq_true rfl⟩ : Fin 140)) 0 ∗ semVal (cellAt cc (⟨39, Nat.le_of_ble_eq_true rfl⟩ : Fin 140)) 0 ∗ semVal (cellAt cc (⟨40, Nat.le_of_ble_eq_true rfl⟩ : Fin 140)) 0 ∗ semVal (cellAt cc (⟨41, Nat.le_of_ble_eq_true rfl⟩ : Fin 140)) 0 ∗ semVal (cellAt cc (⟨42, Nat.le_of_ble_eq_true rfl⟩ : Fin 140)) 0 ∗ semVal (cellAt cc (⟨43, Nat.le_of_ble_eq_true rfl⟩ : Fin 140)) 0 ∗ semVal (cellAt cc (⟨44, Nat.le_of_ble_eq_true rfl⟩ : Fin 140)) 0 ∗ semVal (cellAt cc (⟨45, Nat.le_of_ble_eq_true rfl⟩ : Fin 140)) 0 ∗ semVal (cellAt cc (⟨46, Nat.le_of_ble_eq_true rfl⟩ : Fin 140)) 0 ∗ semVal (cellAt cc (⟨47, Nat.le_of_ble_eq_true rfl⟩ : Fin 140)) 0 ∗ semVal (cellAt cc (⟨48, Nat.le_of_ble_eq_true rfl⟩ : Fin 140)) 0 ∗ semVal (cellAt cc (⟨49, Nat.le_of_ble_eq_true rfl⟩ : Fin 140)) 0 ∗ semVal (cellAt cc (⟨50, Nat.le_of_ble_eq_true rfl⟩ : Fin 140)) 0 ∗ semVal (cellAt cc (⟨51, Nat.le_of_ble_eq_true rfl⟩ : Fin 140)) 0 ∗ semVal (cellAt cc (⟨52, Nat.le_of_ble_eq_true rfl⟩ : Fin 140)) 0 ∗ semVal (cellAt cc (⟨53, Nat.le_of_ble_eq_true rfl⟩ : Fin 140)) 0 ∗ semVal (cellAt cc (⟨54, Nat.le_of_ble_eq_true rfl⟩ : Fin 140)) 0 ∗ semVal (cellAt cc (⟨55, Nat.le_of_ble_eq_true rfl⟩ : Fin 140)) 0 ∗ semVal (cellAt cc (⟨56, Nat.le_of_ble_eq_true rfl⟩ : Fin 140)) 0 ∗ semVal (cellAt cc (⟨57, Nat.le_of_ble_eq_true rfl⟩ : Fin 140)) 0 ∗ semVal (cellAt cc (⟨58, Nat.le_of_ble_eq_true rfl⟩ : Fin 140)) 0 ∗ semVal (cellAt cc (⟨59, Nat.le_of_ble_eq_true rfl⟩ : Fin 140)) 0 ∗ semVal (cellAt cc (⟨60, Nat.le_of_ble_eq_true rfl⟩ : Fin 140)) 0 ∗ semVal (cellAt cc (⟨61, Nat.le_of_ble_eq_true rfl⟩ : Fin 140)) 0 ∗ semVal (cellAt cc (⟨62, Nat.le_of_ble_eq_true rfl⟩ : Fin 140)) 0 ∗ semVal (cellAt cc (⟨63, Nat.le_of_ble_eq_true rfl⟩ : Fin 140)) 0 ∗ semVal (cellAt cc (⟨64, Nat.le_of_ble_eq_true rfl⟩ : Fin 140)) 0 ∗ semVal (cellAt cc (⟨65, Nat.le_of_ble_eq_true rfl⟩ : Fin 140)) 0 ∗ semVal (cellAt cc (⟨66, Nat.le_of_ble_eq_true rfl⟩ : Fin 140)) 0 ∗ semVal (cellAt cc (⟨67, Nat.le_of_ble_eq_true rfl⟩ : Fin 140)) 0 ∗ semVal (cellAt cc (⟨68, Nat.le_of_ble_eq_true rfl⟩ : Fin 140)) 0 ∗ semVal (cellAt cc (⟨69, Nat.le_of_ble_eq_true rfl⟩ : Fin 140)) 0 ∗ semVal (cellAt cc (⟨70, Nat.le_of_ble_eq_true rfl⟩ : Fin 140)) 0 ∗ semVal (cellAt cc (⟨71, Nat.le_of_ble_eq_true rfl⟩ : Fin 140)) 0 ∗ semVal (cellAt cc (⟨72, Nat.le_of_ble_eq_true rfl⟩ : Fin 140)) 0 ∗ semVal (cellAt cc (⟨73, Nat.le_of_ble_eq_true rfl⟩ : Fin 140)) 0 ∗ semVal (cellAt cc (⟨74, Nat.le_of_ble_eq_true rfl⟩ : Fin 140)) 0 ∗ semVal (cellAt cc (⟨75, Nat.le_of_ble_eq_true rfl⟩ : Fin 140)) 0 ∗ semVal (cellAt cc (⟨76, Nat.le_of_ble_eq_true rfl⟩ : Fin 140)) 0 ∗ semVal (cellAt cc (⟨77, Nat.le_of_ble_eq_true rfl⟩ : Fin 140)) 0 ∗ semVal (cellAt cc (⟨78, Nat.le_of_ble_eq_true rfl⟩ : Fin 140)) 0 ∗ semVal (cellAt cc (⟨79, Nat.le_of_ble_eq_true rfl⟩ : Fin 140)) 0 ∗ semVal (cellAt cc (⟨80, Nat.le_of_ble_eq_true rfl⟩ : Fin 140)) 0 ∗ semVal (cellAt cc (⟨81, Nat.le_of_ble_eq_true rfl⟩ : Fin 140)) 0 ∗ semVal (cellAt cc (⟨82, Nat.le_of_ble_eq_true rfl⟩ : Fin 140)) 0 ∗ semVal (cellAt cc (⟨83, Nat.le_of_ble_eq_true rfl⟩ : Fin 140)) 0 ∗ semVal (cellAt cc (⟨84, Nat.le_of_ble_eq_true rfl⟩ : Fin 140)) 0 ∗ semVal (cellAt cc (⟨85, Nat.le_of_ble_eq_true rfl⟩ : Fin 140)) 0 ∗ semVal (cellAt cc (⟨86, Nat.le_of_ble_eq_true rfl⟩ : Fin 140)) 0 ∗ semVal (cellAt cc (⟨87, Nat.le_of_ble_eq_true rfl⟩ : Fin 140)) 0 ∗ semVal (cellAt cc (⟨88, Nat.le_of_ble_eq_true rfl⟩ : Fin 140)) 0 ∗ semVal (cellAt cc (⟨89, Nat.le_of_ble_eq_true rfl⟩ : Fin 140)) 0 ∗ semVal (cellAt cc (⟨90, Nat.le_of_ble_eq_true rfl⟩ : Fin 140)) 0 ∗ semVal (cellAt cc (⟨91, Nat.le_of_ble_eq_true rfl⟩ : Fin 140)) 0 ∗ semVal (cellAt cc (⟨92, Nat.le_of_ble_eq_true rfl⟩ : Fin 140)) 0 ∗ semVal (cellAt cc (⟨93, Nat.le_of_ble_eq_true rfl⟩ : Fin 140)) 0 ∗ semVal (cellAt cc (⟨94, Nat.le_of_ble_eq_true rfl⟩ : Fin 140)) 0 ∗ semVal (cellAt cc (⟨95, Nat.le_of_ble_eq_true rfl⟩ : Fin 140)) 0 ∗ semVal (cellAt cc (⟨96, Nat.le_of_ble_eq_true rfl⟩ : Fin 140)) 0 ∗ semVal (cellAt cc (⟨97, Nat.le_of_ble_eq_true rfl⟩ : Fin 140)) 0 ∗ semVal (cellAt cc (⟨98, Nat.le_of_ble_eq_true rfl⟩ : Fin 140)) 0 ∗ semVal (cellAt cc (⟨99, Nat.le_of_ble_eq_true rfl⟩ : Fin 140)) 0 ∗ semVal (cellAt cc (⟨100, Nat.le_of_ble_eq_true rfl⟩ : Fin 140)) 0 ∗ semVal (cellAt cc (⟨101, Nat.le_of_ble_eq_true rfl⟩ : Fin 140)) 0 ∗ semVal (cellAt cc (⟨102, Nat.le_of_ble_eq_true rfl⟩ : Fin 140)) 0 ∗ semVal (cellAt cc (⟨103, Nat.le_of_ble_eq_true rfl⟩ : Fin 140)) 0 ∗ semVal (cellAt cc (⟨104, Nat.le_of_ble_eq_true rfl⟩ : Fin 140)) 0 ∗ semVal (cellAt cc (⟨105, Nat.le_of_ble_eq_true rfl⟩ : Fin 140)) 0 ∗ semVal (cellAt cc (⟨106, Nat.le_of_ble_eq_true rfl⟩ : Fin 140)) 0 ∗ semVal (cellAt cc (⟨107, Nat.le_of_ble_eq_true rfl⟩ : Fin 140)) 0 ∗ semVal (cellAt cc (⟨108, Nat.le_of_ble_eq_true rfl⟩ : Fin 140)) 0 ∗ semVal (cellAt cc (⟨109, Nat.le_of_ble_eq_true rfl⟩ : Fin 140)) 0 ∗ semVal (cellAt cc (⟨110, Nat.le_of_ble_eq_true rfl⟩ : Fin 140)) 0 ∗ semVal (cellAt cc (⟨111, Nat.le_of_ble_eq_true rfl⟩ : Fin 140)) 0 ∗ semVal (cellAt cc (⟨112, Nat.le_of_ble_eq_true rfl⟩ : Fin 140)) 0 ∗ semVal (cellAt cc (⟨113, Nat.le_of_ble_eq_true rfl⟩ : Fin 140)) 0 ∗ semVal (cellAt cc (⟨114, Nat.le_of_ble_eq_true rfl⟩ : Fin 140)) 0 ∗ semVal (cellAt cc (⟨115, Nat.le_of_ble_eq_true rfl⟩ : Fin 140)) 0 ∗ semVal (cellAt cc (⟨116, Nat.le_of_ble_eq_true rfl⟩ : Fin 140)) 0 ∗ semVal (cellAt cc (⟨117, Nat.le_of_ble_eq_true rfl⟩ : Fin 140)) 0 ∗ semVal (cellAt cc (⟨118, Nat.le_of_ble_eq_true rfl⟩ : Fin 140)) 0 ∗ semVal (cellAt cc (⟨119, Nat.le_of_ble_eq_true rfl⟩ : Fin 140)) 0 ∗ semVal (cellAt cc (⟨120, Nat.le_of_ble_eq_true rfl⟩ : Fin 140)) 0 ∗ semVal (cellAt cc (⟨121, Nat.le_of_ble_eq_true rfl⟩ : Fin 140)) 0 ∗ semVal (cellAt cc (⟨122, Nat.le_of_ble_eq_true rfl⟩ : Fin 140)) 0 ∗ semVal (cellAt cc (⟨123, Nat.le_of_ble_eq_true rfl⟩ : Fin 140)) 0 ∗ semVal (cellAt cc (⟨124, Nat.le_of_ble_eq_true rfl⟩ : Fin 140)) 0 ∗ semVal (cellAt cc (⟨125, Nat.le_of_ble_eq_true rfl⟩ : Fin 140)) 0 ∗ semVal (cellAt cc (⟨126, Nat.le_of_ble_eq_true rfl⟩ : Fin 140)) 0 ∗ semVal (cellAt cc (⟨127, Nat.le_of_ble_eq_true rfl⟩ : Fin 140)) 0 ∗ semVal (cellAt cc (⟨128, Nat.le_of_ble_eq_true rfl⟩ : Fin 140)) 0 ∗ semVal (cellAt cc (⟨129, Nat.le_of_ble_eq_true rfl⟩ : Fin 140)) 0 ∗ semVal (cellAt cc (⟨130, Nat.le_of_ble_eq_true rfl⟩ : Fin 140)) 0 ∗ semVal (cellAt cc (⟨131, Nat.le_of_ble_eq_true rfl⟩ : Fin 140)) 0 ∗ semVal (cellAt cc (⟨132, Nat.le_of_ble_eq_true rfl⟩ : Fin 140)) 0 ∗ semVal (cellAt cc (⟨133, Nat.le_of_ble_eq_true rfl⟩ : Fin 140)) 0 ∗ semVal (cellAt cc (⟨134, Nat.le_of_ble_eq_true rfl⟩ : Fin 140)) 0 ∗ semVal (cellAt cc (⟨135, Nat.le_of_ble_eq_true rfl⟩ : Fin 140)) 0 ∗ semVal (cellAt cc (⟨136, Nat.le_of_ble_eq_true rfl⟩ : Fin 140)) 0 ∗ semVal (cellAt cc (⟨137, Nat.le_of_ble_eq_true rfl⟩ : Fin 140)) 0 ∗ semVal (cellAt cc (⟨138, Nat.le_of_ble_eq_true rfl⟩ : Fin 140)) 0 ∗ semVal (cellAt cc (⟨139, Nat.le_of_ble_eq_true rfl⟩ : Fin 140)) 0) : sProp 𝕄) = (bigSepL allJ fun j => semVal (cellAt cc j) 0) from rfl))
    isplitl [Hv0]
    · iexact Hv0
    isplitl [Hv1]
    · iexact Hv1
    isplitl [Hv2]
    · iexact Hv2
    isplitl [Hv3]
    · iexact Hv3
    isplitl [Hv4]
    · iexact Hv4
    isplitl [Hv5]
    · iexact Hv5
    isplitl [Hv6]
    · iexact Hv6
    isplitl [Hv7]
    · iexact Hv7
    isplitl [Hv8]
    · iexact Hv8
    isplitl [Hv9]
    · iexact Hv9
    isplitl [Hv10]
    · iexact Hv10
    isplitl [Hv11]
    · iexact Hv11
    isplitl [Hv12]
    · iexact Hv12
    isplitl [Hv13]
    · iexact Hv13
    isplitl [Hv14]
    · iexact Hv14
    isplitl [Hv15]
    · iexact Hv15
    isplitl [Hv16]
    · iexact Hv16
    isplitl [Hv17]
    · iexact Hv17
    isplitl [Hv18]
    · iexact Hv18
    isplitl [Hv19]
    · iexact Hv19
    isplitl [Hv20]
    · iexact Hv20
    isplitl [Hv21]
    · iexact Hv21
    isplitl [Hv22]
    · iexact Hv22
    isplitl [Hv23]
    · iexact Hv23
    isplitl [Hv24]
    · iexact Hv24
    isplitl [Hv25]
    · iexact Hv25
    isplitl [Hv26]
    · iexact Hv26
    isplitl [Hv27]
    · iexact Hv27
    isplitl [Hv28]
    · iexact Hv28
    isplitl [Hv29]
    · iexact Hv29
    isplitl [Hv30]
    · iexact Hv30
    isplitl [Hv31]
    · iexact Hv31
    isplitl [Hv32]
    · iexact Hv32
    isplitl [Hv33]
    · iexact Hv33
    isplitl [Hv34]
    · iexact Hv34
    isplitl [Hv35]
    · iexact Hv35
    isplitl [Hv36]
    · iexact Hv36
    isplitl [Hv37]
    · iexact Hv37
    isplitl [Hv38]
    · iexact Hv38
    isplitl [Hv39]
    · iexact Hv39
    isplitl [Hv40]
    · iexact Hv40
    isplitl [Hv41]
    · iexact Hv41
    isplitl [Hv42]
    · iexact Hv42
    isplitl [Hv43]
    · iexact Hv43
    isplitl [Hv44]
    · iexact Hv44
    isplitl [Hv45]
    · iexact Hv45
    isplitl [Hv46]
    · iexact Hv46
    isplitl [Hv47]
    · iexact Hv47
    isplitl [Hv48]
    · iexact Hv48
    isplitl [Hv49]
    · iexact Hv49
    isplitl [Hv50]
    · iexact Hv50
    isplitl [Hv51]
    · iexact Hv51
    isplitl [Hv52]
    · iexact Hv52
    isplitl [Hv53]
    · iexact Hv53
    isplitl [Hv54]
    · iexact Hv54
    isplitl [Hv55]
    · iexact Hv55
    isplitl [Hv56]
    · iexact Hv56
    isplitl [Hv57]
    · iexact Hv57
    isplitl [Hv58]
    · iexact Hv58
    isplitl [Hv59]
    · iexact Hv59
    isplitl [Hv60]
    · iexact Hv60
    isplitl [Hv61]
    · iexact Hv61
    isplitl [Hv62]
    · iexact Hv62
    isplitl [Hv63]
    · iexact Hv63
    isplitl [Hv64]
    · iexact Hv64
    isplitl [Hv65]
    · iexact Hv65
    isplitl [Hv66]
    · iexact Hv66
    isplitl [Hv67]
    · iexact Hv67
    isplitl [Hv68]
    · iexact Hv68
    isplitl [Hv69]
    · iexact Hv69
    isplitl [Hv70]
    · iexact Hv70
    isplitl [Hv71]
    · iexact Hv71
    isplitl [Hv72]
    · iexact Hv72
    isplitl [Hv73]
    · iexact Hv73
    isplitl [Hv74]
    · iexact Hv74
    isplitl [Hv75]
    · iexact Hv75
    isplitl [Hu76]
    · iexact Hu76
    isplitl [Hu77]
    · iexact Hu77
    isplitl [Hu78]
    · iexact Hu78
    isplitl [Hv79]
    · iexact Hv79
    isplitl [Hv80]
    · iexact Hv80
    isplitl [Hv81]
    · iexact Hv81
    isplitl [Hv82]
    · iexact Hv82
    isplitl [Hv83]
    · iexact Hv83
    isplitl [Hu84]
    · iexact Hu84
    isplitl [Hu85]
    · iexact Hu85
    isplitl [Hu86]
    · iexact Hu86
    isplitl [Hv87]
    · iexact Hv87
    isplitl [Hv88]
    · iexact Hv88
    isplitl [Hv89]
    · iexact Hv89
    isplitl [Hv90]
    · iexact Hv90
    isplitl [Hv91]
    · iexact Hv91
    isplitl [Hu92]
    · iexact Hu92
    isplitl [Hu93]
    · iexact Hu93
    isplitl [Hu94]
    · iexact Hu94
    isplitl [Hv95]
    · iexact Hv95
    isplitl [Hv96]
    · iexact Hv96
    isplitl [Hv97]
    · iexact Hv97
    isplitl [Hv98]
    · iexact Hv98
    isplitl [Hv99]
    · iexact Hv99
    isplitl [Hu100]
    · iexact Hu100
    isplitl [Hu101]
    · iexact Hu101
    isplitl [Hu102]
    · iexact Hu102
    isplitl [Hv103]
    · iexact Hv103
    isplitl [Hv104]
    · iexact Hv104
    isplitl [Hv105]
    · iexact Hv105
    isplitl [Hv106]
    · iexact Hv106
    isplitl [Hv107]
    · iexact Hv107
    isplitl [Hw0a]
    · iexact Hw0a
    isplitl [Hw0b]
    · iexact Hw0b
    isplitl [Hw0c]
    · iexact Hw0c
    isplitl [Hw0d]
    · iexact Hw0d
    isplitl [Hw1a]
    · iexact Hw1a
    isplitl [Hw1b]
    · iexact Hw1b
    isplitl [Hw1c]
    · iexact Hw1c
    isplitl [Hw1d]
    · iexact Hw1d
    isplitl [Hw2a]
    · iexact Hw2a
    isplitl [Hw2b]
    · iexact Hw2b
    isplitl [Hw2c]
    · iexact Hw2c
    isplitl [Hw2d]
    · iexact Hw2d
    isplitl [Hw3a]
    · iexact Hw3a
    isplitl [Hw3b]
    · iexact Hw3b
    isplitl [Hw3c]
    · iexact Hw3c
    isplitl [Hw3d]
    · iexact Hw3d
    isplitl [Hw4a]
    · iexact Hw4a
    isplitl [Hw4b]
    · iexact Hw4b
    isplitl [Hw4c]
    · iexact Hw4c
    isplitl [Hw4d]
    · iexact Hw4d
    isplitl [Hw5a]
    · iexact Hw5a
    isplitl [Hw5b]
    · iexact Hw5b
    isplitl [Hw5c]
    · iexact Hw5c
    isplitl [Hw5d]
    · iexact Hw5d
    isplitl [Hw6a]
    · iexact Hw6a
    isplitl [Hw6b]
    · iexact Hw6b
    isplitl [Hw6c]
    · iexact Hw6c
    isplitl [Hw6d]
    · iexact Hw6d
    isplitl [Hw7a]
    · iexact Hw7a
    isplitl [Hw7b]
    · iexact Hw7b
    isplitl [Hw7c]
    · iexact Hw7c
    iexact Hw7d
  iexists _; iexact HO

end Cert.Kernel.RS.D4

end
-- ==== Proof.K.Body5.lean ====
import proofs.«901022_g7700000000001023_dist_rs_v7x_xyz2x2x2_x_m4096_n1024_bf16_1_alg».proof.Proof.K.BodyAux
import proofs.«901022_g7700000000001023_dist_rs_v7x_xyz2x2x2_x_m4096_n1024_bf16_1_alg».proof.Proof.K.BodyPre
import proofs.«901022_g7700000000001023_dist_rs_v7x_xyz2x2x2_x_m4096_n1024_bf16_1_alg».proof.Proof.K.OutRules

/-! The body of the kernel on device 5 of the mesh, from its precondition (BodyPre) to its postcondition (bodyPost).

    The program is straight-line code of 4045 statements. Its local steps — the 54 copies between the input, the staging
    buffers, the four-quarter buffer and the result, their waits, the loads and the stores — are run by the library's symbolic
    executor on hypotheses that hold each 512-row chunk through the slice the program itself names. Its remote steps are
    taken by the rounds library's rules, one application each: three barrier signals and the wait for the three
    neighbours; 37 copies to a neighbour, each lending the source chunk (at a share, where the chunk is also read by another
    copy) and landing the chunk's final contents; the waits on the 37 receive cells, which hand back the landed chunks; the
    final waits on the 37 send cells, which hand back what was lent. Whenever a chunk has been written (by a landing copy or
    by a store) it is restated as "holds its final contents" (Spec), which is what the next copy's payload asks for.
    A wait is allowed because whatever the device still owes at that point lies above the awaited cell (Owed): decided on the
    list of payments not yet made. At the end every cell has had its one round and is closed, and the pieces of every
    buffer are put back. -/

set_option maxRecDepth 8000

noncomputable section

namespace Cert.Kernel.RS.D5

open Cert.Kernel Cert.Kernel.Gen Cert.Kernel.RS
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local notation "cc" => (Fin.mk 5 (Nat.le_of_ble_eq_true rfl) : Dev nD)

set_option maxHeartbeats 1600000 in
theorem dev (m : (ℓ : Loc nD τ sig) → Buf (Elt F) ℓ) (K : GSem nD τ sig → ℕ) (W : Waits sig Unit) (Kt : PUnit → sProp 𝕄) :
    iprop(bodyPre m K cc W ∗ (bodyPost m cc -∗ Kt ⟨⟩))
      ⊢ wp frame (wpE (defs₀ (F := F)) 𝒱₀ (cc : Thread nD τ) none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25) Kt := by
  unfold bodyPre O₀
  iintro ⟨⟨HIt, HIw, HRt, #Hlev, HO, Hcr, HpR, HpS, Htk, HX, Hout, HS0, HS1, HS2, HS3, HS4, HS5, HS6, HS7, HS8, HvI, HvO, HvU⟩, Hk⟩
  rw [cc0_body_eq_skeleton]; unfold cc0_body_skel
  -- the four-quarter buffer in the pieces that travel
  ihave H0 := (Entails.of_eq (junk_whole (F := F) cc cc0_scratch0)) $$ HS0
  icases H0 with ⟨%f0, H0⟩
  ihave H4 := (r4_entry (F := F) cc f0) $$ H0
  icases H4 with ⟨Hown, HgZ, HgY, Hdg, HhZ, HhY⟩
  sl_exec

  icases Htk with ⟨Htb, Htk⟩
  icases HIt with ⟨#HIbpx, HIt⟩
  icases HRt with ⟨#HRbpx, HRt⟩
  iapply (sig_bar m cc _ (px cc) (dev1_eq cc) 0 (by decide) (owedL (List.drop 1 (paysL cc))) rfl) $$ [HO Htb HS2 HS4]
  · isplitr; · iexact HIbpx
    isplitl [HO]; · iexact HO
    isplitl [Htb]; · iexact Htb
    isplitl [HS2 HS4]
    · iapply (Entails.of_eq ((barPay_zero (F := F) (px cc)).trans (by rw [px_px])).symm)
      unfold giveX
      isplitl [HS2]; · iexact HS2
      iexact HS4
    · iexact HRbpx
  iintro HO
  sl_exec

  icases Htk with ⟨Htb, Htk⟩
  icases HIt with ⟨#HIbpz, HIt⟩
  icases HRt with ⟨#HRbpz, HRt⟩
  iapply (sig_bar m cc _ (pz cc) (dev2_eq cc) 2 (by decide) (owedL (List.drop 2 (paysL cc))) rfl) $$ [HO Htb HgZ HhZ]
  · isplitr; · iexact HIbpz
    isplitl [HO]; · iexact HO
    isplitl [Htb]; · iexact Htb
    isplitl [HgZ HhZ]
    · iapply (Entails.of_eq ((barPay_two (F := F) (pz cc)).trans (by rw [pz_pz])).symm)
      isplitl [HgZ]; · iexact HgZ
      iexact HhZ
    · iexact HRbpz
  iintro HO
  sl_exec

  icases Htk with ⟨Htb, Htk⟩
  icases HIt with ⟨#HIbpy, HIt⟩
  icases HRt with ⟨#HRbpy, HRt⟩
  iapply (sig_bar m cc _ (py cc) (dev3_eq cc) 1 (by decide) (owedL (List.drop 3 (paysL cc))) rfl) $$ [HO Htb HgY HhY]
  · isplitr; · iexact HIbpy
    isplitl [HO]; · iexact HO
    isplitl [Htb]; · iexact Htb
    isplitl [HgY HhY]
    · iapply (Entails.of_eq ((barPay_one (F := F) (py cc)).trans (by rw [py_py])).symm)
      isplitl [HgY]; · iexact HgY
      iexact HhY
    · iexact HRbpy
  iintro HO
  sl_exec
  -- the wait for the three neighbours
  icases Hcr with ⟨Hcb, Hcr⟩
  icases HpR with ⟨Hpb, HpR⟩
  icases HIw with ⟨#HIb, HIw⟩
  ihave Hmw := (mayWait_list (F := F) cc (.reg barS) (List.drop 3 (paysL cc)) (by decide)) $$ Hlev
  iapply (wait_bar m cc (by decide)) $$ [Hcb HO Hmw Hpb]
  · isplitr; · iexact HIb
    isplitl [Hcb]; · iexact Hcb
    isplitl [HO]; · iexact HO
    isplitl [Hmw]; · iexact Hmw
    iexact Hpb
  iintro ⟨HO, Hpb, -, Hgx, Hgy, Hgz⟩
  -- what they handed over: the x-neighbour's landing buffers chunk by chunk, the y- and z-neighbours' quarter and halves
  ihave Hgx := (Entails.of_eq (barPay_zero (F := F) cc)) $$ Hgx
  ihave Hgx := (giveX_rows (F := F) (px cc)) $$ Hgx
  icases Hgx with ⟨Hrbp, Hrb2p⟩
  ihave Hgy := (Entails.of_eq (barPay_one (F := F) cc)) $$ Hgy
  icases Hgy with ⟨HqY, HhYp⟩
  ihave Hgz := (Entails.of_eq (barPay_two (F := F) cc)) $$ Hgz
  icases Hgz with ⟨HqZ, HhZp⟩
  -- this device's staging buffers and send buffers chunk by chunk
  ihave H5 := (Entails.of_eq (junk_whole (F := F) cc cc0_scratch5)) $$ HS5
  icases H5 with ⟨%f5, H5⟩
  ihave H5 := (Entails.of_eq (stP_rows (F := F) cc fullShare f5)) $$ H5
  icases H5 with ⟨HP0, HP1, HP2, HP3, HP4, HP5, HP6, HP7⟩
  ihave H6 := (Entails.of_eq (junk_whole (F := F) cc cc0_scratch6)) $$ HS6
  icases H6 with ⟨%f6, H6⟩
  ihave H6 := (Entails.of_eq (stL_rows (F := F) cc fullShare f6)) $$ H6
  icases H6 with ⟨HL0, HL1, HL2, HL3, HL4, HL5, HL6, HL7⟩
  ihave H7 := (Entails.of_eq (junk_whole (F := F) cc cc0_scratch7)) $$ HS7
  icases H7 with ⟨%f7, H7⟩
  ihave H7 := (Entails.of_eq (stP2_rows (F := F) cc fullShare f7)) $$ H7
  icases H7 with ⟨HP20, HP21, HP22⟩
  ihave H8 := (Entails.of_eq (junk_whole (F := F) cc cc0_scratch8)) $$ HS8
  icases H8 with ⟨%f8, H8⟩
  ihave H8 := (Entails.of_eq (stL2_rows (F := F) cc fullShare f8)) $$ H8
  icases H8 with ⟨HL20, HL21, HL22⟩
  ihave H1 := (Entails.of_eq (junk_whole (F := F) cc cc0_scratch1)) $$ HS1
  icases H1 with ⟨%f1, H1⟩
  ihave H1 := (Entails.of_eq (sb_rows (F := F) cc fullShare f1)) $$ H1
  icases H1 with ⟨HB0, HB1, HB2, HB3, HB4, HB5, HB6, HB7⟩
  ihave H3 := (Entails.of_eq (junk_whole (F := F) cc cc0_scratch3)) $$ HS3
  icases H3 with ⟨%f3, H3⟩
  ihave H3 := (Entails.of_eq (sb2_rows (F := F) cc fullShare f3)) $$ H3
  icases H3 with ⟨HB20, HB21, HB22⟩
  -- the counters of the 22 copies into the staging buffers
  icases HvI with ⟨Hv0, Hv8, Hv1, Hv9, Hv2, Hv10, Hv3, Hv11, Hv4, Hv12, Hv5, Hv13, Hv6, Hv14, Hv7, Hv15, Hv16, Hv19, Hv17, Hv20, Hv18, Hv21⟩
  sl_exec
  -- chunk 0 across x: wait for its copy into the staging buffer, round it into the send buffer, send it
  have hled3 : ∀ (s : DmaSem sig), lvJ s.val = 0 → ((levAts LL lvv : sProp 𝕄) ⊢ MayWait (cc : Thread nD τ) (.dma s) () (owedL (List.drop 3 (paysL cc)))) :=
    fun s hs => mayWait_local (F := F) cc s hs _ (by decide)
  sl_exec
  clear hled3
  ihave HB0 := (congr (F := F) (sbR 0) cc fullShare (dev.sl.HB0_w1 m f1) (sb m cc) (fun i hi => glue_sb m cc 0 _ (k0_off1_inb cc) (k0_off1_eq cc) f1 i hi)) $$ HB0
  -- the copy
  icases Htk with ⟨Hts, Htr, Htk⟩
  icases HIt with ⟨#HIc22, #HIr, HIt⟩
  icases HRt with ⟨#HRs, #HRr, HRt⟩
  icases Hrbp with ⟨⟨%fd, Hd⟩, Hrbp⟩
  iapply (send_x m cc _ (dev4_eq cc) 0 fd (owedL (List.drop 4 (paysL cc))) rfl _) $$ [HB0 Hd HO Hts Htr]
  · isplitr; · iexact HIc22
    isplitr; · iexact HIr
    isplitl [HB0]; · iexact HB0
    isplitl [Hd]; · iexact Hd
    isplitl [HO]; · iexact HO
    isplitl [Hts]; · iexact Hts
    isplitr; · iexact HRs
    isplitl [Htr]; · iexact Htr
    iexact HRr
  iintro ⟨Hcxs0, HO⟩
  iclear HIr HRs HRr
  -- chunk 1 across x: wait for its copy into the staging buffer, round it into the send buffer, send it
  have hled4 : ∀ (s : DmaSem sig), lvJ s.val = 0 → ((levAts LL lvv : sProp 𝕄) ⊢ MayWait (cc : Thread nD τ) (.dma s) () (owedL (List.drop 4 (paysL cc)))) :=
    fun s hs => mayWait_local (F := F) cc s hs _ (by decide)
  sl_exec
  clear hled4
  ihave HB1 := (congr (F := F) (sbR 1) cc fullShare (dev.sl.HB1_w1 m f1) (sb m cc) (fun i hi => glue_sb m cc 1 _ (k0_off3_inb cc) (k0_off3_eq cc) f1 i hi)) $$ HB1
  -- the copy
  icases Htk with ⟨Hts, Htr, Htk⟩
  icases HIt with ⟨#HIc23, #HIr, HIt⟩
  icases HRt with ⟨#HRs, #HRr, HRt⟩
  icases Hrbp with ⟨⟨%fd, Hd⟩, Hrbp⟩
  iapply (send_x m cc _ (dev5_eq cc) 1 fd (owedL (List.drop 5 (paysL cc))) rfl _) $$ [HB1 Hd HO Hts Htr]
  · isplitr; · iexact HIc23
    isplitr; · iexact HIr
    isplitl [HB1]; · iexact HB1
    isplitl [Hd]; · iexact Hd
    isplitl [HO]; · iexact HO
    isplitl [Hts]; · iexact Hts
    isplitr; · iexact HRs
    isplitl [Htr]; · iexact Htr
    iexact HRr
  iintro ⟨Hcxs1, HO⟩
  iclear HIr HRs HRr
  -- chunk 2 across x: wait for its copy into the staging buffer, round it into the send buffer, send it
  have hled5 : ∀ (s : DmaSem sig), lvJ s.val = 0 → ((levAts LL lvv : sProp 𝕄) ⊢ MayWait (cc : Thread nD τ) (.dma s) () (owedL (List.drop 5 (paysL cc)))) :=
    fun s hs => mayWait_local (F := F) cc s hs _ (by decide)
  sl_exec
  clear hled5
  ihave HB2 := (congr (F := F) (sbR 2) cc fullShare (dev.sl.HB2_w1 m f1) (sb m cc) (fun i hi => glue_sb m cc 2 _ (k0_off5_inb cc) (k0_off5_eq cc) f1 i hi)) $$ HB2
  -- the copy
  icases Htk with ⟨Hts, Htr, Htk⟩
  icases HIt with ⟨#HIc24, #HIr, HIt⟩
  icases HRt with ⟨#HRs, #HRr, HRt⟩
  icases Hrbp with ⟨⟨%fd, Hd⟩, Hrbp⟩
  iapply (send_x m cc _ (dev6_eq cc) 2 fd (owedL (List.drop 6 (paysL cc))) rfl _) $$ [HB2 Hd HO Hts Htr]
  · isplitr; · iexact HIc24
    isplitr; · iexact HIr
    isplitl [HB2]; · iexact HB2
    isplitl [Hd]; · iexact Hd
    isplitl [HO]; · iexact HO
    isplitl [Hts]; · iexact Hts
    isplitr; · iexact HRs
    isplitl [Htr]; · iexact Htr
    iexact HRr
  iintro ⟨Hcxs2, HO⟩
  iclear HIr HRs HRr
  -- chunk 3 across x: wait for its copy into the staging buffer, round it into the send buffer, send it
  have hled6 : ∀ (s : DmaSem sig), lvJ s.val = 0 → ((levAts LL lvv : sProp 𝕄) ⊢ MayWait (cc : Thread nD τ) (.dma s) () (owedL (List.drop 6 (paysL cc)))) :=
    fun s hs => mayWait_local (F := F) cc s hs _ (by decide)
  sl_exec
  clear hled6
  ihave HB3 := (congr (F := F) (sbR 3) cc fullShare (dev.sl.HB3_w1 m f1) (sb m cc) (fun i hi => glue_sb m cc 3 _ (k0_off7_inb cc) (k0_off7_eq cc) f1 i hi)) $$ HB3
  -- the copy
  icases Htk with ⟨Hts, Htr, Htk⟩
  icases HIt with ⟨#HIc25, #HIr, HIt⟩
  icases HRt with ⟨#HRs, #HRr, HRt⟩
  icases Hrbp with ⟨⟨%fd, Hd⟩, Hrbp⟩
  iapply (send_x m cc _ (dev7_eq cc) 3 fd (owedL (List.drop 7 (paysL cc))) rfl _) $$ [HB3 Hd HO Hts Htr]
  · isplitr; · iexact HIc25
    isplitr; · iexact HIr
    isplitl [HB3]; · iexact HB3
    isplitl [Hd]; · iexact Hd
    isplitl [HO]; · iexact HO
    isplitl [Hts]; · iexact Hts
    isplitr; · iexact HRs
    isplitl [Htr]; · iexact Htr
    iexact HRr
  iintro ⟨Hcxs3, HO⟩
  iclear HIr HRs HRr
  -- chunk 4 across x: wait for its copy into the staging buffer, round it into the send buffer, send it
  have hled7 : ∀ (s : DmaSem sig), lvJ s.val = 0 → ((levAts LL lvv : sProp 𝕄) ⊢ MayWait (cc : Thread nD τ) (.dma s) () (owedL (List.drop 7 (paysL cc)))) :=
    fun s hs => mayWait_local (F := F) cc s hs _ (by decide)
  sl_exec
  clear hled7
  ihave HB4 := (congr (F := F) (sbR 4) cc fullShare (dev.sl.HB4_w1 m f1) (sb m cc) (fun i hi => glue_sb m cc 4 _ (k0_off9_inb cc) (k0_off9_eq cc) f1 i hi)) $$ HB4
  -- the copy
  icases Htk with ⟨Hts, Htr, Htk⟩
  icases HIt with ⟨#HIc26, #HIr, HIt⟩
  icases HRt with ⟨#HRs, #HRr, HRt⟩
  icases Hrbp with ⟨⟨%fd, Hd⟩, Hrbp⟩
  iapply (send_x m cc _ (dev8_eq cc) 4 fd (owedL (List.drop 8 (paysL cc))) rfl _) $$ [HB4 Hd HO Hts Htr]
  · isplitr; · iexact HIc26
    isplitr; · iexact HIr
    isplitl [HB4]; · iexact HB4
    isplitl [Hd]; · iexact Hd
    isplitl [HO]; · iexact HO
    isplitl [Hts]; · iexact Hts
    isplitr; · iexact HRs
    isplitl [Htr]; · iexact Htr
    iexact HRr
  iintro ⟨Hcxs4, HO⟩
  iclear HIr HRs HRr
  -- chunk 5 across x: wait for its copy into the staging buffer, round it into the send buffer, send it
  have hled8 : ∀ (s : DmaSem sig), lvJ s.val = 0 → ((levAts LL lvv : sProp 𝕄) ⊢ MayWait (cc : Thread nD τ) (.dma s) () (owedL (List.drop 8 (paysL cc)))) :=
    fun s hs => mayWait_local (F := F) cc s hs _ (by decide)
  sl_exec
  clear hled8
  ihave HB5 := (congr (F := F) (sbR 5) cc fullShare (dev.sl.HB5_w1 m f1) (sb m cc) (fun i hi => glue_sb m cc 5 _ (k0_off11_inb cc) (k0_off11_eq cc) f1 i hi)) $$ HB5
  -- the copy
  icases Htk with ⟨Hts, Htr, Htk⟩
  icases HIt with ⟨#HIc27, #HIr, HIt⟩
  icases HRt with ⟨#HRs, #HRr, HRt⟩
  icases Hrbp with ⟨⟨%fd, Hd⟩, Hrbp⟩
  iapply (send_x m cc _ (dev9_eq cc) 5 fd (owedL (List.drop 9 (paysL cc))) rfl _) $$ [HB5 Hd HO Hts Htr]
  · isplitr; · iexact HIc27
    isplitr; · iexact HIr
    isplitl [HB5]; · iexact HB5
    isplitl [Hd]; · iexact Hd
    isplitl [HO]; · iexact HO
    isplitl [Hts]; · iexact Hts
    isplitr; · iexact HRs
    isplitl [Htr]; · iexact Htr
    iexact HRr
  iintro ⟨Hcxs5, HO⟩
  iclear HIr HRs HRr
  -- chunk 6 across x: wait for its copy into the staging buffer, round it into the send buffer, send it
  have hled9 : ∀ (s : DmaSem sig), lvJ s.val = 0 → ((levAts LL lvv : sProp 𝕄) ⊢ MayWait (cc : Thread nD τ) (.dma s) () (owedL (List.drop 9 (paysL cc)))) :=
    fun s hs => mayWait_local (F := F) cc s hs _ (by decide)
  sl_exec
  clear hled9
  ihave HB6 := (congr (F := F) (sbR 6) cc fullShare (dev.sl.HB6_w1 m f1) (sb m cc) (fun i hi => glue_sb m cc 6 _ (k0_off13_inb cc) (k0_off13_eq cc) f1 i hi)) $$ HB6
  -- the copy
  icases Htk with ⟨Hts, Htr, Htk⟩
  icases HIt with ⟨#HIc28, #HIr, HIt⟩
  icases HRt with ⟨#HRs, #HRr, HRt⟩
  icases Hrbp with ⟨⟨%fd, Hd⟩, Hrbp⟩
  iapply (send_x m cc _ (dev10_eq cc) 6 fd (owedL (List.drop 10 (paysL cc))) rfl _) $$ [HB6 Hd HO Hts Htr]
  · isplitr; · iexact HIc28
    isplitr; · iexact HIr
    isplitl [HB6]; · iexact HB6
    isplitl [Hd]; · iexact Hd
    isplitl [HO]; · iexact HO
    isplitl [Hts]; · iexact Hts
    isplitr; · iexact HRs
    isplitl [Htr]; · iexact Htr
    iexact HRr
  iintro ⟨Hcxs6, HO⟩
  iclear HIr HRs HRr
  -- chunk 7 across x: wait for its copy into the staging buffer, round it into the send buffer, send it
  have hled10 : ∀ (s : DmaSem sig), lvJ s.val = 0 → ((levAts LL lvv : sProp 𝕄) ⊢ MayWait (cc : Thread nD τ) (.dma s) () (owedL (List.drop 10 (paysL cc)))) :=
    fun s hs => mayWait_local (F := F) cc s hs _ (by decide)
  sl_exec
  clear hled10
  ihave HB7 := (congr (F := F) (sbR 7) cc fullShare (dev.sl.HB7_w1 m f1) (sb m cc) (fun i hi => glue_sb m cc 7 _ (k0_off15_inb cc) (k0_off15_eq cc) f1 i hi)) $$ HB7
  -- the copy
  icases Htk with ⟨Hts, Htr, Htk⟩
  icases HIt with ⟨#HIc29, #HIr, HIt⟩
  icases HRt with ⟨#HRs, #HRr, HRt⟩
  icases Hrbp with ⟨%fd, Hd⟩
  iapply (send_x m cc _ (dev11_eq cc) 7 fd (owedL (List.drop 11 (paysL cc))) rfl _) $$ [HB7 Hd HO Hts Htr]
  · isplitr; · iexact HIc29
    isplitr; · iexact HIr
    isplitl [HB7]; · iexact HB7
    isplitl [Hd]; · iexact Hd
    isplitl [HO]; · iexact HO
    isplitl [Hts]; · iexact Hts
    isplitr; · iexact HRs
    isplitl [Htr]; · iexact Htr
    iexact HRr
  iintro ⟨Hcxs7, HO⟩
  iclear HIr HRs HRr
  -- chunk 0 across x (the diagonal quarter's): wait for its copy into the staging buffer, round it into the send buffer, send it
  have hled11 : ∀ (s : DmaSem sig), lvJ s.val = 0 → ((levAts LL lvv : sProp 𝕄) ⊢ MayWait (cc : Thread nD τ) (.dma s) () (owedL (List.drop 11 (paysL cc)))) :=
    fun s hs => mayWait_local (F := F) cc s hs _ (by decide)
  sl_exec
  clear hled11
  ihave HB20 := (congr (F := F) (sb2R 0) cc fullShare (dev.sl.HB20_w1 m f3) (sb2 m cc) (fun i hi => glue_sb2 m cc 0 _ (k0_off17_inb cc) (k0_off17_eq cc) f3 i hi)) $$ HB20
  -- the copy
  icases Htk with ⟨Hts, Htr, Htk⟩
  icases HIt with ⟨#HIc38, #HIr, HIt⟩
  icases HRt with ⟨#HRs, #HRr, HRt⟩
  icases Hrb2p with ⟨⟨%fd, Hd⟩, Hrb2p⟩
  iapply (send_x2 m cc _ (dev12_eq cc) 0 fd (owedL (List.drop 12 (paysL cc))) rfl _) $$ [HB20 Hd HO Hts Htr]
  · isplitr; · iexact HIc38
    isplitr; · iexact HIr
    isplitl [HB20]; · iexact HB20
    isplitl [Hd]; · iexact Hd
    isplitl [HO]; · iexact HO
    isplitl [Hts]; · iexact Hts
    isplitr; · iexact HRs
    isplitl [Htr]; · iexact Htr
    iexact HRr
  iintro ⟨Hcds0, HO⟩
  iclear HIr HRs HRr
  -- chunk 1 across x (the diagonal quarter's): wait for its copy into the staging buffer, round it into the send buffer, send it
  have hled12 : ∀ (s : DmaSem sig), lvJ s.val = 0 → ((levAts LL lvv : sProp 𝕄) ⊢ MayWait (cc : Thread nD τ) (.dma s) () (owedL (List.drop 12 (paysL cc)))) :=
    fun s hs => mayWait_local (F := F) cc s hs _ (by decide)
  sl_exec
  clear hled12
  ihave HB21 := (congr (F := F) (sb2R 1) cc fullShare (dev.sl.HB21_w1 m f3) (sb2 m cc) (fun i hi => glue_sb2 m cc 1 _ (k0_off19_inb cc) (k0_off19_eq cc) f3 i hi)) $$ HB21
  -- the copy
  icases Htk with ⟨Hts, Htr, Htk⟩
  icases HIt with ⟨#HIc39, #HIr, HIt⟩
  icases HRt with ⟨#HRs, #HRr, HRt⟩
  icases Hrb2p with ⟨⟨%fd, Hd⟩, Hrb2p⟩
  iapply (send_x2 m cc _ (dev13_eq cc) 1 fd (owedL (List.drop 13 (paysL cc))) rfl _) $$ [HB21 Hd HO Hts Htr]
  · isplitr; · iexact HIc39
    isplitr; · iexact HIr
    isplitl [HB21]; · iexact HB21
    isplitl [Hd]; · iexact Hd
    isplitl [HO]; · iexact HO
    isplitl [Hts]; · iexact Hts
    isplitr; · iexact HRs
    isplitl [Htr]; · iexact Htr
    iexact HRr
  iintro ⟨Hcds1, HO⟩
  iclear HIr HRs HRr
  -- chunk 2 across x (the diagonal quarter's): wait for its copy into the staging buffer, round it into the send buffer, send it
  have hled13 : ∀ (s : DmaSem sig), lvJ s.val = 0 → ((levAts LL lvv : sProp 𝕄) ⊢ MayWait (cc : Thread nD τ) (.dma s) () (owedL (List.drop 13 (paysL cc)))) :=
    fun s hs => mayWait_local (F := F) cc s hs _ (by decide)
  sl_exec
  clear hled13
  ihave HB22 := (congr (F := F) (sb2R 2) cc fullShare (dev.sl.HB22_w1 m f3) (sb2 m cc) (fun i hi => glue_sb2 m cc 2 _ (k0_off21_inb cc) (k0_off21_eq cc) f3 i hi)) $$ HB22
  -- the copy
  icases Htk with ⟨Hts, Htr, Htk⟩
  icases HIt with ⟨#HIc40, #HIr, HIt⟩
  icases HRt with ⟨#HRs, #HRr, HRt⟩
  icases Hrb2p with ⟨%fd, Hd⟩
  iapply (send_x2 m cc _ (dev14_eq cc) 2 fd (owedL (List.drop 14 (paysL cc))) rfl _) $$ [HB22 Hd HO Hts Htr]
  · isplitr; · iexact HIc40
    isplitr; · iexact HIr
    isplitl [HB22]; · iexact HB22
    isplitl [Hd]; · iexact Hd
    isplitl [HO]; · iexact HO
    isplitl [Hts]; · iexact Hts
    isplitr; · iexact HRs
    isplitl [Htr]; · iexact Htr
    iexact HRr
  iintro ⟨Hcds2, HO⟩
  iclear HIr HRs HRr
  sl_exec
  -- the result array in its 32 blocks
  ihave Hout := (out_split_junk (F := F) cc) $$ Hout
  icases Hout with ⟨⟨%g00, HU00⟩, ⟨%g01, HU01⟩, ⟨%g02, HU02⟩, ⟨%g03, HU03⟩, ⟨%g10, HU10⟩, ⟨%g11, HU11⟩, ⟨%g12, HU12⟩, ⟨%g13, HU13⟩, ⟨%g20, HU20⟩, ⟨%g21, HU21⟩, ⟨%g22, HU22⟩, ⟨%g23, HU23⟩, ⟨%g30, HU30⟩, ⟨%g31, HU31⟩, ⟨%g32, HU32⟩, ⟨%g33, HU33⟩, ⟨%g40, HU40⟩, ⟨%g41, HU41⟩, ⟨%g42, HU42⟩, ⟨%g43, HU43⟩, ⟨%g50, HU50⟩, ⟨%g51, HU51⟩, ⟨%g52, HU52⟩, ⟨%g53, HU53⟩, ⟨%g60, HU60⟩, ⟨%g61, HU61⟩, ⟨%g62, HU62⟩, ⟨%g63, HU63⟩, ⟨%g70, HU70⟩, ⟨%g71, HU71⟩, ⟨%g72, HU72⟩, ⟨%g73, HU73⟩⟩
  ihave HqZ := (Entails.of_eq (giveQ_eq (F := F) (pz cc) (zqF (pz cc)))) $$ HqZ
  ihave HqY := (Entails.of_eq (giveQ_eq (F := F) (py cc) (yqF (py cc)))) $$ HqY
  ihave HhZp := (Entails.of_eq (giveH_eq (F := F) (pz cc) 0)) $$ HhZp
  ihave HhYp := (Entails.of_eq (giveH_eq (F := F) (py cc) 1)) $$ HhYp
  -- step 0 of the main loop: the x-neighbour's chunk 0 has landed
  icases Hcr with ⟨Hc, Hcr⟩
  icases HpR with ⟨Hp, HpR⟩
  icases HIw with ⟨#HIc30, HIw⟩
  ihave Hmw := (mayWait_list (F := F) cc (dsem (⟨30, by decide⟩ : Fin 140)) (List.drop 14 (paysL cc)) (by decide)) $$ Hlev
  iapply (wait_a1_at m cc _ 0 rfl) $$ [Hc HO Hmw Hp]
  · isplitr; · iexact HIc30
    isplitl [Hc]; · iexact Hc
    isplitl [HO]; · iexact HO
    isplitl [Hmw]; · iexact Hmw
    iexact Hp
  iintro ⟨HO, Hq30, -, Hrb0⟩
  icases Hown with ⟨Ho0, Hown⟩
  have hled14 : ∀ (s : DmaSem sig), lvJ s.val = 0 → ((levAts LL lvv : sProp 𝕄) ⊢ MayWait (cc : Thread nD τ) (.dma s) () (owedL (List.drop 14 (paysL cc)))) :=
    fun s hs => mayWait_local (F := F) cc s hs _ (by decide)
  sl_exec
  clear hled14
  ihave Ho0 := (congr (F := F) (r4R (mqF cc) 0) cc fullShare (dev.sl.Ho0_w1 m f0) (r4 m cc) (fun i hi => glue_own m cc 0 _ (k0_off2_inb cc) (k0_off2_eq cc) _ (k0_off23_inb cc) (k0_off23_eq cc) f0 i hi)) $$ Ho0
  ihave Ho0 := (Entails.of_eq (share_ZYK_eq (F := F) (r4R (mqF cc) 0) cc (r4 m cc))) $$ Ho0
  icases Ho0 with ⟨HoZ0, HoY0, HoK0⟩
  -- own chunk 0 to the z-neighbour
  icases Htk with ⟨Hts, Htr, Htk⟩
  icases HIt with ⟨#HIc44, #HIr, HIt⟩
  icases HRt with ⟨#HRs, #HRr, HRt⟩
  icases HqZ with ⟨⟨%fd, Hd⟩, HqZ⟩
  iapply (send_z_at m cc _ (dev15_eq cc) 0 _ _ (k0_off24_eq cc) fd (owedL (List.drop 15 (paysL cc))) rfl _) $$ [HoZ0 Hd HO Hts Htr]
  · isplitr; · iexact HIc44
    isplitr; · iexact HIr
    isplitl [HoZ0]; · iexact HoZ0
    isplitl [Hd]; · iexact Hd
    isplitl [HO]; · iexact HO
    isplitl [Hts]; · iexact Hts
    isplitr; · iexact HRs
    isplitl [Htr]; · iexact Htr
    iexact HRr
  iintro ⟨Hczs0, HO⟩
  iclear HIr HRs HRr
  sl_exec
  -- own chunk 0 to the y-neighbour
  icases Htk with ⟨Hts, Htr, Htk⟩
  icases HIt with ⟨#HIc60, #HIr, HIt⟩
  icases HRt with ⟨#HRs, #HRr, HRt⟩
  icases HqY with ⟨⟨%fd, Hd⟩, HqY⟩
  iapply (send_y_at m cc _ (dev16_eq cc) 0 _ _ (k0_off24_eq cc) fd (owedL (List.drop 16 (paysL cc))) rfl _) $$ [HoY0 Hd HO Hts Htr]
  · isplitr; · iexact HIc60
    isplitr; · iexact HIr
    isplitl [HoY0]; · iexact HoY0
    isplitl [Hd]; · iexact Hd
    isplitl [HO]; · iexact HO
    isplitl [Hts]; · iexact Hts
    isplitr; · iexact HRs
    isplitl [Htr]; · iexact Htr
    iexact HRr
  iintro ⟨Hcys0, HO⟩
  iclear HIr HRs HRr
  sl_exec
  -- step 1 of the main loop: the x-neighbour's chunk 1 has landed
  icases Hcr with ⟨Hc, Hcr⟩
  icases HpR with ⟨Hp, HpR⟩
  icases HIw with ⟨#HIc31, HIw⟩
  ihave Hmw := (mayWait_list (F := F) cc (dsem (⟨31, by decide⟩ : Fin 140)) (List.drop 16 (paysL cc)) (by decide)) $$ Hlev
  iapply (wait_a1_at m cc _ 1 rfl) $$ [Hc HO Hmw Hp]
  · isplitr; · iexact HIc31
    isplitl [Hc]; · iexact Hc
    isplitl [HO]; · iexact HO
    isplitl [Hmw]; · iexact Hmw
    iexact Hp
  iintro ⟨HO, Hq31, -, Hrb1⟩
  icases Hown with ⟨Ho1, Hown⟩
  have hled16 : ∀ (s : DmaSem sig), lvJ s.val = 0 → ((levAts LL lvv : sProp 𝕄) ⊢ MayWait (cc : Thread nD τ) (.dma s) () (owedL (List.drop 16 (paysL cc)))) :=
    fun s hs => mayWait_local (F := F) cc s hs _ (by decide)
  sl_exec
  clear hled16
  ihave Ho1 := (congr (F := F) (r4R (mqF cc) 1) cc fullShare (dev.sl.Ho1_w1 m f0) (r4 m cc) (fun i hi => glue_own m cc 1 _ (k0_off4_inb cc) (k0_off4_eq cc) _ (k0_off25_inb cc) (k0_off25_eq cc) f0 i hi)) $$ Ho1
  ihave Ho1 := (Entails.of_eq (share_ZYK_eq (F := F) (r4R (mqF cc) 1) cc (r4 m cc))) $$ Ho1
  icases Ho1 with ⟨HoZ1, HoY1, HoK1⟩
  -- own chunk 1 to the z-neighbour
  icases Htk with ⟨Hts, Htr, Htk⟩
  icases HIt with ⟨#HIc45, #HIr, HIt⟩
  icases HRt with ⟨#HRs, #HRr, HRt⟩
  icases HqZ with ⟨⟨%fd, Hd⟩, HqZ⟩
  iapply (send_z_at m cc _ (dev17_eq cc) 1 _ _ (k0_off26_eq cc) fd (owedL (List.drop 17 (paysL cc))) rfl _) $$ [HoZ1 Hd HO Hts Htr]
  · isplitr; · iexact HIc45
    isplitr; · iexact HIr
    isplitl [HoZ1]; · iexact HoZ1
    isplitl [Hd]; · iexact Hd
    isplitl [HO]; · iexact HO
    isplitl [Hts]; · iexact Hts
    isplitr; · iexact HRs
    isplitl [Htr]; · iexact Htr
    iexact HRr
  iintro ⟨Hczs1, HO⟩
  iclear HIr HRs HRr
  sl_exec
  -- own chunk 1 to the y-neighbour
  icases Htk with ⟨Hts, Htr, Htk⟩
  icases HIt with ⟨#HIc61, #HIr, HIt⟩
  icases HRt with ⟨#HRs, #HRr, HRt⟩
  icases HqY with ⟨⟨%fd, Hd⟩, HqY⟩
  iapply (send_y_at m cc _ (dev18_eq cc) 1 _ _ (k0_off26_eq cc) fd (owedL (List.drop 18 (paysL cc))) rfl _) $$ [HoY1 Hd HO Hts Htr]
  · isplitr; · iexact HIc61
    isplitr; · iexact HIr
    isplitl [HoY1]; · iexact HoY1
    isplitl [Hd]; · iexact Hd
    isplitl [HO]; · iexact HO
    isplitl [Hts]; · iexact Hts
    isplitr; · iexact HRs
    isplitl [Htr]; · iexact Htr
    iexact HRr
  iintro ⟨Hcys1, HO⟩
  iclear HIr HRs HRr
  sl_exec
  -- the z-neighbour's chunk 0 has landed
  icases Hcr with ⟨Hc, Hcr⟩
  icases HpR with ⟨Hp, HpR⟩
  icases HIw with ⟨#HIc52, HIw⟩
  ihave Hmw := (mayWait_list (F := F) cc (dsem (⟨52, by decide⟩ : Fin 140)) (List.drop 18 (paysL cc)) (by decide)) $$ Hlev
  iapply (wait_a5_at m cc _ 0 rfl) $$ [Hc HO Hmw Hp]
  · isplitr; · iexact HIc52
    isplitl [Hc]; · iexact Hc
    isplitl [HO]; · iexact HO
    isplitl [Hmw]; · iexact Hmw
    iexact Hp
  iintro ⟨HO, Hq52, -, Hz0⟩
  sl_exec
  -- the y-neighbour's chunk 0 has landed
  icases Hcr with ⟨Hc, Hcr⟩
  icases HpR with ⟨Hp, HpR⟩
  icases HIw with ⟨#HIc68, HIw⟩
  ihave Hmw := (mayWait_list (F := F) cc (dsem (⟨68, by decide⟩ : Fin 140)) (List.drop 18 (paysL cc)) (by decide)) $$ Hlev
  iapply (wait_a7_at m cc _ 0 rfl) $$ [Hc HO Hmw Hp]
  · isplitr; · iexact HIc68
    isplitl [Hc]; · iexact Hc
    isplitl [HO]; · iexact HO
    isplitl [Hmw]; · iexact Hmw
    iexact Hp
  iintro ⟨HO, Hq68, -, Hy0⟩
  sl_exec
  -- step 2 of the main loop: the x-neighbour's chunk 2 has landed
  icases Hcr with ⟨Hc, Hcr⟩
  icases HpR with ⟨Hp, HpR⟩
  icases HIw with ⟨#HIc32, HIw⟩
  ihave Hmw := (mayWait_list (F := F) cc (dsem (⟨32, by decide⟩ : Fin 140)) (List.drop 18 (paysL cc)) (by decide)) $$ Hlev
  iapply (wait_a1_at m cc _ 2 rfl) $$ [Hc HO Hmw Hp]
  · isplitr; · iexact HIc32
    isplitl [Hc]; · iexact Hc
    isplitl [HO]; · iexact HO
    isplitl [Hmw]; · iexact Hmw
    iexact Hp
  iintro ⟨HO, Hq32, -, Hrb2⟩
  icases Hown with ⟨Ho2, Hown⟩
  have hled18 : ∀ (s : DmaSem sig), lvJ s.val = 0 → ((levAts LL lvv : sProp 𝕄) ⊢ MayWait (cc : Thread nD τ) (.dma s) () (owedL (List.drop 18 (paysL cc)))) :=
    fun s hs => mayWait_local (F := F) cc s hs _ (by decide)
  sl_exec
  clear hled18
  ihave Ho2 := (congr (F := F) (r4R (mqF cc) 2) cc fullShare (dev.sl.Ho2_w1 m f0) (r4 m cc) (fun i hi => glue_own m cc 2 _ (k0_off6_inb cc) (k0_off6_eq cc) _ (k0_off27_inb cc) (k0_off27_eq cc) f0 i hi)) $$ Ho2
  ihave Ho2 := (Entails.of_eq (share_ZYK_eq (F := F) (r4R (mqF cc) 2) cc (r4 m cc))) $$ Ho2
  icases Ho2 with ⟨HoZ2, HoY2, HoK2⟩
  -- own chunk 2 to the z-neighbour
  icases Htk with ⟨Hts, Htr, Htk⟩
  icases HIt with ⟨#HIc46, #HIr, HIt⟩
  icases HRt with ⟨#HRs, #HRr, HRt⟩
  icases HqZ with ⟨⟨%fd, Hd⟩, HqZ⟩
  iapply (send_z_at m cc _ (dev19_eq cc) 2 _ _ (k0_off28_eq cc) fd (owedL (List.drop 19 (paysL cc))) rfl _) $$ [HoZ2 Hd HO Hts Htr]
  · isplitr; · iexact HIc46
    isplitr; · iexact HIr
    isplitl [HoZ2]; · iexact HoZ2
    isplitl [Hd]; · iexact Hd
    isplitl [HO]; · iexact HO
    isplitl [Hts]; · iexact Hts
    isplitr; · iexact HRs
    isplitl [Htr]; · iexact Htr
    iexact HRr
  iintro ⟨Hczs2, HO⟩
  iclear HIr HRs HRr
  sl_exec
  -- own chunk 2 to the y-neighbour
  icases Htk with ⟨Hts, Htr, Htk⟩
  icases HIt with ⟨#HIc62, #HIr, HIt⟩
  icases HRt with ⟨#HRs, #HRr, HRt⟩
  icases HqY with ⟨⟨%fd, Hd⟩, HqY⟩
  iapply (send_y_at m cc _ (dev20_eq cc) 2 _ _ (k0_off28_eq cc) fd (owedL (List.drop 20 (paysL cc))) rfl _) $$ [HoY2 Hd HO Hts Htr]
  · isplitr; · iexact HIc62
    isplitr; · iexact HIr
    isplitl [HoY2]; · iexact HoY2
    isplitl [Hd]; · iexact Hd
    isplitl [HO]; · iexact HO
    isplitl [Hts]; · iexact Hts
    isplitr; · iexact HRs
    isplitl [Htr]; · iexact Htr
    iexact HRr
  iintro ⟨Hcys2, HO⟩
  iclear HIr HRs HRr
  sl_exec
  -- the z-neighbour's chunk 1 has landed
  icases Hcr with ⟨Hc, Hcr⟩
  icases HpR with ⟨Hp, HpR⟩
  icases HIw with ⟨#HIc53, HIw⟩
  ihave Hmw := (mayWait_list (F := F) cc (dsem (⟨53, by decide⟩ : Fin 140)) (List.drop 20 (paysL cc)) (by decide)) $$ Hlev
  iapply (wait_a5_at m cc _ 1 rfl) $$ [Hc HO Hmw Hp]
  · isplitr; · iexact HIc53
    isplitl [Hc]; · iexact Hc
    isplitl [HO]; · iexact HO
    isplitl [Hmw]; · iexact Hmw
    iexact Hp
  iintro ⟨HO, Hq53, -, Hz1⟩
  sl_exec
  -- the y-neighbour's chunk 1 has landed
  icases Hcr with ⟨Hc, Hcr⟩
  icases HpR with ⟨Hp, HpR⟩
  icases HIw with ⟨#HIc69, HIw⟩
  ihave Hmw := (mayWait_list (F := F) cc (dsem (⟨69, by decide⟩ : Fin 140)) (List.drop 20 (paysL cc)) (by decide)) $$ Hlev
  iapply (wait_a7_at m cc _ 1 rfl) $$ [Hc HO Hmw Hp]
  · isplitr; · iexact HIc69
    isplitl [Hc]; · iexact Hc
    isplitl [HO]; · iexact HO
    isplitl [Hmw]; · iexact Hmw
    iexact Hp
  iintro ⟨HO, Hq69, -, Hy1⟩
  sl_exec
  -- step 3 of the main loop: the x-neighbour's chunk 3 has landed
  icases Hcr with ⟨Hc, Hcr⟩
  icases HpR with ⟨Hp, HpR⟩
  icases HIw with ⟨#HIc33, HIw⟩
  ihave Hmw := (mayWait_list (F := F) cc (dsem (⟨33, by decide⟩ : Fin 140)) (List.drop 20 (paysL cc)) (by decide)) $$ Hlev
  iapply (wait_a1_at m cc _ 3 rfl) $$ [Hc HO Hmw Hp]
  · isplitr; · iexact HIc33
    isplitl [Hc]; · iexact Hc
    isplitl [HO]; · iexact HO
    isplitl [Hmw]; · iexact Hmw
    iexact Hp
  iintro ⟨HO, Hq33, -, Hrb3⟩
  icases Hown with ⟨Ho3, Hown⟩
  have hled20 : ∀ (s : DmaSem sig), lvJ s.val = 0 → ((levAts LL lvv : sProp 𝕄) ⊢ MayWait (cc : Thread nD τ) (.dma s) () (owedL (List.drop 20 (paysL cc)))) :=
    fun s hs => mayWait_local (F := F) cc s hs _ (by decide)
  sl_exec
  clear hled20
  ihave Ho3 := (congr (F := F) (r4R (mqF cc) 3) cc fullShare (dev.sl.Ho3_w1 m f0) (r4 m cc) (fun i hi => glue_own m cc 3 _ (k0_off8_inb cc) (k0_off8_eq cc) _ (k0_off29_inb cc) (k0_off29_eq cc) f0 i hi)) $$ Ho3
  ihave Ho3 := (Entails.of_eq (share_ZYK_eq (F := F) (r4R (mqF cc) 3) cc (r4 m cc))) $$ Ho3
  icases Ho3 with ⟨HoZ3, HoY3, HoK3⟩
  -- own chunk 3 to the z-neighbour
  icases Htk with ⟨Hts, Htr, Htk⟩
  icases HIt with ⟨#HIc47, #HIr, HIt⟩
  icases HRt with ⟨#HRs, #HRr, HRt⟩
  icases HqZ with ⟨⟨%fd, Hd⟩, HqZ⟩
  iapply (send_z_at m cc _ (dev21_eq cc) 3 _ _ (k0_off30_eq cc) fd (owedL (List.drop 21 (paysL cc))) rfl _) $$ [HoZ3 Hd HO Hts Htr]
  · isplitr; · iexact HIc47
    isplitr; · iexact HIr
    isplitl [HoZ3]; · iexact HoZ3
    isplitl [Hd]; · iexact Hd
    isplitl [HO]; · iexact HO
    isplitl [Hts]; · iexact Hts
    isplitr; · iexact HRs
    isplitl [Htr]; · iexact Htr
    iexact HRr
  iintro ⟨Hczs3, HO⟩
  iclear HIr HRs HRr
  sl_exec
  -- own chunk 3 to the y-neighbour
  icases Htk with ⟨Hts, Htr, Htk⟩
  icases HIt with ⟨#HIc63, #HIr, HIt⟩
  icases HRt with ⟨#HRs, #HRr, HRt⟩
  icases HqY with ⟨⟨%fd, Hd⟩, HqY⟩
  iapply (send_y_at m cc _ (dev22_eq cc) 3 _ _ (k0_off30_eq cc) fd (owedL (List.drop 22 (paysL cc))) rfl _) $$ [HoY3 Hd HO Hts Htr]
  · isplitr; · iexact HIc63
    isplitr; · iexact HIr
    isplitl [HoY3]; · iexact HoY3
    isplitl [Hd]; · iexact Hd
    isplitl [HO]; · iexact HO
    isplitl [Hts]; · iexact Hts
    isplitr; · iexact HRs
    isplitl [Htr]; · iexact Htr
    iexact HRr
  iintro ⟨Hcys3, HO⟩
  iclear HIr HRs HRr
  sl_exec
  -- the z-neighbour's chunk 2 has landed
  icases Hcr with ⟨Hc, Hcr⟩
  icases HpR with ⟨Hp, HpR⟩
  icases HIw with ⟨#HIc54, HIw⟩
  ihave Hmw := (mayWait_list (F := F) cc (dsem (⟨54, by decide⟩ : Fin 140)) (List.drop 22 (paysL cc)) (by decide)) $$ Hlev
  iapply (wait_a5_at m cc _ 2 rfl) $$ [Hc HO Hmw Hp]
  · isplitr; · iexact HIc54
    isplitl [Hc]; · iexact Hc
    isplitl [HO]; · iexact HO
    isplitl [Hmw]; · iexact Hmw
    iexact Hp
  iintro ⟨HO, Hq54, -, Hz2⟩
  sl_exec
  -- the y-neighbour's chunk 2 has landed
  icases Hcr with ⟨Hc, Hcr⟩
  icases HpR with ⟨Hp, HpR⟩
  icases HIw with ⟨#HIc70, HIw⟩
  ihave Hmw := (mayWait_list (F := F) cc (dsem (⟨70, by decide⟩ : Fin 140)) (List.drop 22 (paysL cc)) (by decide)) $$ Hlev
  iapply (wait_a7_at m cc _ 2 rfl) $$ [Hc HO Hmw Hp]
  · isplitr; · iexact HIc70
    isplitl [Hc]; · iexact Hc
    isplitl [HO]; · iexact HO
    isplitl [Hmw]; · iexact Hmw
    iexact Hp
  iintro ⟨HO, Hq70, -, Hy2⟩
  sl_exec
  -- step 4 of the main loop: the x-neighbour's chunk 4 has landed
  icases Hcr with ⟨Hc, Hcr⟩
  icases HpR with ⟨Hp, HpR⟩
  icases HIw with ⟨#HIc34, HIw⟩
  ihave Hmw := (mayWait_list (F := F) cc (dsem (⟨34, by decide⟩ : Fin 140)) (List.drop 22 (paysL cc)) (by decide)) $$ Hlev
  iapply (wait_a1_at m cc _ 4 rfl) $$ [Hc HO Hmw Hp]
  · isplitr; · iexact HIc34
    isplitl [Hc]; · iexact Hc
    isplitl [HO]; · iexact HO
    isplitl [Hmw]; · iexact Hmw
    iexact Hp
  iintro ⟨HO, Hq34, -, Hrb4⟩
  icases Hown with ⟨Ho4, Hown⟩
  have hled22 : ∀ (s : DmaSem sig), lvJ s.val = 0 → ((levAts LL lvv : sProp 𝕄) ⊢ MayWait (cc : Thread nD τ) (.dma s) () (owedL (List.drop 22 (paysL cc)))) :=
    fun s hs => mayWait_local (F := F) cc s hs _ (by decide)
  sl_exec
  clear hled22
  ihave Ho4 := (congr (F := F) (r4R (mqF cc) 4) cc fullShare (dev.sl.Ho4_w1 m f0) (r4 m cc) (fun i hi => glue_own m cc 4 _ (k0_off10_inb cc) (k0_off10_eq cc) _ (k0_off31_inb cc) (k0_off31_eq cc) f0 i hi)) $$ Ho4
  ihave Ho4 := (Entails.of_eq (share_ZYK_eq (F := F) (r4R (mqF cc) 4) cc (r4 m cc))) $$ Ho4
  icases Ho4 with ⟨HoZ4, HoY4, HoK4⟩
  -- own chunk 4 to the z-neighbour
  icases Htk with ⟨Hts, Htr, Htk⟩
  icases HIt with ⟨#HIc48, #HIr, HIt⟩
  icases HRt with ⟨#HRs, #HRr, HRt⟩
  icases HqZ with ⟨⟨%fd, Hd⟩, HqZ⟩
  iapply (send_z_at m cc _ (dev23_eq cc) 4 _ _ (k0_off32_eq cc) fd (owedL (List.drop 23 (paysL cc))) rfl _) $$ [HoZ4 Hd HO Hts Htr]
  · isplitr; · iexact HIc48
    isplitr; · iexact HIr
    isplitl [HoZ4]; · iexact HoZ4
    isplitl [Hd]; · iexact Hd
    isplitl [HO]; · iexact HO
    isplitl [Hts]; · iexact Hts
    isplitr; · iexact HRs
    isplitl [Htr]; · iexact Htr
    iexact HRr
  iintro ⟨Hczs4, HO⟩
  iclear HIr HRs HRr
  sl_exec
  -- own chunk 4 to the y-neighbour
  icases Htk with ⟨Hts, Htr, Htk⟩
  icases HIt with ⟨#HIc64, #HIr, HIt⟩
  icases HRt with ⟨#HRs, #HRr, HRt⟩
  icases HqY with ⟨⟨%fd, Hd⟩, HqY⟩
  iapply (send_y_at m cc _ (dev24_eq cc) 4 _ _ (k0_off32_eq cc) fd (owedL (List.drop 24 (paysL cc))) rfl _) $$ [HoY4 Hd HO Hts Htr]
  · isplitr; · iexact HIc64
    isplitr; · iexact HIr
    isplitl [HoY4]; · iexact HoY4
    isplitl [Hd]; · iexact Hd
    isplitl [HO]; · iexact HO
    isplitl [Hts]; · iexact Hts
    isplitr; · iexact HRs
    isplitl [Htr]; · iexact Htr
    iexact HRr
  iintro ⟨Hcys4, HO⟩
  iclear HIr HRs HRr
  sl_exec
  -- the z-neighbour's chunk 3 has landed
  icases Hcr with ⟨Hc, Hcr⟩
  icases HpR with ⟨Hp, HpR⟩
  icases HIw with ⟨#HIc55, HIw⟩
  ihave Hmw := (mayWait_list (F := F) cc (dsem (⟨55, by decide⟩ : Fin 140)) (List.drop 24 (paysL cc)) (by decide)) $$ Hlev
  iapply (wait_a5_at m cc _ 3 rfl) $$ [Hc HO Hmw Hp]
  · isplitr; · iexact HIc55
    isplitl [Hc]; · iexact Hc
    isplitl [HO]; · iexact HO
    isplitl [Hmw]; · iexact Hmw
    iexact Hp
  iintro ⟨HO, Hq55, -, Hz3⟩
  sl_exec
  -- the y-neighbour's chunk 3 has landed
  icases Hcr with ⟨Hc, Hcr⟩
  icases HpR with ⟨Hp, HpR⟩
  icases HIw with ⟨#HIc71, HIw⟩
  ihave Hmw := (mayWait_list (F := F) cc (dsem (⟨71, by decide⟩ : Fin 140)) (List.drop 24 (paysL cc)) (by decide)) $$ Hlev
  iapply (wait_a7_at m cc _ 3 rfl) $$ [Hc HO Hmw Hp]
  · isplitr; · iexact HIc71
    isplitl [Hc]; · iexact Hc
    isplitl [HO]; · iexact HO
    isplitl [Hmw]; · iexact Hmw
    iexact Hp
  iintro ⟨HO, Hq71, -, Hy3⟩
  -- chunk 3 of the two neighbours' quarters: half its ownership stays for the copy into the result, of the other half one column half travels on
  ihave Hz3 := (Entails.of_eq (share_FG_eq (F := F) (r4R (zqF cc) 3) cc (r4 m cc))) $$ Hz3
  icases Hz3 with ⟨HzF3, HzG3⟩
  ihave HzF3 := (Entails.of_eq (chunk_halves (F := F) cc (zqF cc) 3 shF (r4 m cc))) $$ HzF3
  icases HzF3 with ⟨HzFl3, HzFr3⟩
  ihave Hy3 := (Entails.of_eq (share_FG_eq (F := F) (r4R (yqF cc) 3) cc (r4 m cc))) $$ Hy3
  icases Hy3 with ⟨HyF3, HyG3⟩
  ihave HyF3 := (Entails.of_eq (chunk_halves (F := F) cc (yqF cc) 3 shF (r4 m cc))) $$ HyF3
  icases HyF3 with ⟨HyFl3, HyFr3⟩
  sl_exec
  -- the right half of the z-neighbour's chunk 3 on to the y-neighbour
  icases Htk with ⟨Hts, Htr, Htk⟩
  icases HIt with ⟨#HIc95, #HIr, HIt⟩
  icases HRt with ⟨#HRs, #HRr, HRt⟩
  icases HhYp with ⟨⟨%fd, Hd⟩, HhYp⟩
  iapply (send_yf_at m cc _ (dev25_eq cc) 3 (by decide) _ _ (k0_off33_eq cc) fd (owedL (List.drop 25 (paysL cc))) rfl _) $$ [HzFr3 Hd HO Hts Htr]
  · isplitr; · iexact HIc95
    isplitr; · iexact HIr
    isplitl [HzFr3]; · iexact HzFr3
    isplitl [Hd]; · iexact Hd
    isplitl [HO]; · iexact HO
    isplitl [Hts]; · iexact Hts
    isplitr; · iexact HRs
    isplitl [Htr]; · iexact Htr
    iexact HRr
  iintro ⟨Hcyfs3, HO⟩
  iclear HIr HRs HRr
  sl_exec
  -- the left half of the y-neighbour's chunk 3 on to the z-neighbour
  icases Htk with ⟨Hts, Htr, Htk⟩
  icases HIt with ⟨#HIc79, #HIr, HIt⟩
  icases HRt with ⟨#HRs, #HRr, HRt⟩
  icases HhZp with ⟨⟨%fd, Hd⟩, HhZp⟩
  iapply (send_zf_at m cc _ (dev26_eq cc) 3 (by decide) _ _ (k0_off34_eq cc) fd (owedL (List.drop 26 (paysL cc))) rfl _) $$ [HyFl3 Hd HO Hts Htr]
  · isplitr; · iexact HIc79
    isplitr; · iexact HIr
    isplitl [HyFl3]; · iexact HyFl3
    isplitl [Hd]; · iexact Hd
    isplitl [HO]; · iexact HO
    isplitl [Hts]; · iexact Hts
    isplitr; · iexact HRs
    isplitl [Htr]; · iexact Htr
    iexact HRr
  iintro ⟨Hczfs3, HO⟩
  iclear HIr HRs HRr
  sl_exec
  -- step 5 of the main loop: the x-neighbour's chunk 5 has landed
  icases Hcr with ⟨Hc, Hcr⟩
  icases HpR with ⟨Hp, HpR⟩
  icases HIw with ⟨#HIc35, HIw⟩
  ihave Hmw := (mayWait_list (F := F) cc (dsem (⟨35, by decide⟩ : Fin 140)) (List.drop 26 (paysL cc)) (by decide)) $$ Hlev
  iapply (wait_a1_at m cc _ 5 rfl) $$ [Hc HO Hmw Hp]
  · isplitr; · iexact HIc35
    isplitl [Hc]; · iexact Hc
    isplitl [HO]; · iexact HO
    isplitl [Hmw]; · iexact Hmw
    iexact Hp
  iintro ⟨HO, Hq35, -, Hrb5⟩
  icases Hown with ⟨Ho5, Hown⟩
  have hled26 : ∀ (s : DmaSem sig), lvJ s.val = 0 → ((levAts LL lvv : sProp 𝕄) ⊢ MayWait (cc : Thread nD τ) (.dma s) () (owedL (List.drop 26 (paysL cc)))) :=
    fun s hs => mayWait_local (F := F) cc s hs _ (by decide)
  sl_exec
  clear hled26
  ihave Ho5 := (congr (F := F) (r4R (mqF cc) 5) cc fullShare (dev.sl.Ho5_w1 m f0) (r4 m cc) (fun i hi => glue_own m cc 5 _ (k0_off12_inb cc) (k0_off12_eq cc) _ (k0_off35_inb cc) (k0_off35_eq cc) f0 i hi)) $$ Ho5
  ihave Ho5 := (Entails.of_eq (share_ZYK_eq (F := F) (r4R (mqF cc) 5) cc (r4 m cc))) $$ Ho5
  icases Ho5 with ⟨HoZ5, HoY5, HoK5⟩
  -- own chunk 5 to the z-neighbour
  icases Htk with ⟨Hts, Htr, Htk⟩
  icases HIt with ⟨#HIc49, #HIr, HIt⟩
  icases HRt with ⟨#HRs, #HRr, HRt⟩
  icases HqZ with ⟨⟨%fd, Hd⟩, HqZ⟩
  iapply (send_z_at m cc _ (dev27_eq cc) 5 _ _ (k0_off36_eq cc) fd (owedL (List.drop 27 (paysL cc))) rfl _) $$ [HoZ5 Hd HO Hts Htr]
  · isplitr; · iexact HIc49
    isplitr; · iexact HIr
    isplitl [HoZ5]; · iexact HoZ5
    isplitl [Hd]; · iexact Hd
    isplitl [HO]; · iexact HO
    isplitl [Hts]; · iexact Hts
    isplitr; · iexact HRs
    isplitl [Htr]; · iexact Htr
    iexact HRr
  iintro ⟨Hczs5, HO⟩
  iclear HIr HRs HRr
  sl_exec
  -- own chunk 5 to the y-neighbour
  icases Htk with ⟨Hts, Htr, Htk⟩
  icases HIt with ⟨#HIc65, #HIr, HIt⟩
  icases HRt with ⟨#HRs, #HRr, HRt⟩
  icases HqY with ⟨⟨%fd, Hd⟩, HqY⟩
  iapply (send_y_at m cc _ (dev28_eq cc) 5 _ _ (k0_off36_eq cc) fd (owedL (List.drop 28 (paysL cc))) rfl _) $$ [HoY5 Hd HO Hts Htr]
  · isplitr; · iexact HIc65
    isplitr; · iexact HIr
    isplitl [HoY5]; · iexact HoY5
    isplitl [Hd]; · iexact Hd
    isplitl [HO]; · iexact HO
    isplitl [Hts]; · iexact Hts
    isplitr; · iexact HRs
    isplitl [Htr]; · iexact Htr
    iexact HRr
  iintro ⟨Hcys5, HO⟩
  iclear HIr HRs HRr
  sl_exec
  -- the z-neighbour's chunk 4 has landed
  icases Hcr with ⟨Hc, Hcr⟩
  icases HpR with ⟨Hp, HpR⟩
  icases HIw with ⟨#HIc56, HIw⟩
  ihave Hmw := (mayWait_list (F := F) cc (dsem (⟨56, by decide⟩ : Fin 140)) (List.drop 28 (paysL cc)) (by decide)) $$ Hlev
  iapply (wait_a5_at m cc _ 4 rfl) $$ [Hc HO Hmw Hp]
  · isplitr; · iexact HIc56
    isplitl [Hc]; · iexact Hc
    isplitl [HO]; · iexact HO
    isplitl [Hmw]; · iexact Hmw
    iexact Hp
  iintro ⟨HO, Hq56, -, Hz4⟩
  sl_exec
  -- the y-neighbour's chunk 4 has landed
  icases Hcr with ⟨Hc, Hcr⟩
  icases HpR with ⟨Hp, HpR⟩
  icases HIw with ⟨#HIc72, HIw⟩
  ihave Hmw := (mayWait_list (F := F) cc (dsem (⟨72, by decide⟩ : Fin 140)) (List.drop 28 (paysL cc)) (by decide)) $$ Hlev
  iapply (wait_a7_at m cc _ 4 rfl) $$ [Hc HO Hmw Hp]
  · isplitr; · iexact HIc72
    isplitl [Hc]; · iexact Hc
    isplitl [HO]; · iexact HO
    isplitl [Hmw]; · iexact Hmw
    iexact Hp
  iintro ⟨HO, Hq72, -, Hy4⟩
  -- chunk 4 of the two neighbours' quarters: half its ownership stays for the copy into the result, of the other half one column half travels on
  ihave Hz4 := (Entails.of_eq (share_FG_eq (F := F) (r4R (zqF cc) 4) cc (r4 m cc))) $$ Hz4
  icases Hz4 with ⟨HzF4, HzG4⟩
  ihave HzF4 := (Entails.of_eq (chunk_halves (F := F) cc (zqF cc) 4 shF (r4 m cc))) $$ HzF4
  icases HzF4 with ⟨HzFl4, HzFr4⟩
  ihave Hy4 := (Entails.of_eq (share_FG_eq (F := F) (r4R (yqF cc) 4) cc (r4 m cc))) $$ Hy4
  icases Hy4 with ⟨HyF4, HyG4⟩
  ihave HyF4 := (Entails.of_eq (chunk_halves (F := F) cc (yqF cc) 4 shF (r4 m cc))) $$ HyF4
  icases HyF4 with ⟨HyFl4, HyFr4⟩
  sl_exec
  -- the right half of the z-neighbour's chunk 4 on to the y-neighbour
  icases Htk with ⟨Hts, Htr, Htk⟩
  icases HIt with ⟨#HIc96, #HIr, HIt⟩
  icases HRt with ⟨#HRs, #HRr, HRt⟩
  icases HhYp with ⟨⟨%fd, Hd⟩, HhYp⟩
  iapply (send_yf_at m cc _ (dev29_eq cc) 4 (by decide) _ _ (k0_off37_eq cc) fd (owedL (List.drop 29 (paysL cc))) rfl _) $$ [HzFr4 Hd HO Hts Htr]
  · isplitr; · iexact HIc96
    isplitr; · iexact HIr
    isplitl [HzFr4]; · iexact HzFr4
    isplitl [Hd]; · iexact Hd
    isplitl [HO]; · iexact HO
    isplitl [Hts]; · iexact Hts
    isplitr; · iexact HRs
    isplitl [Htr]; · iexact Htr
    iexact HRr
  iintro ⟨Hcyfs4, HO⟩
  iclear HIr HRs HRr
  sl_exec
  -- the left half of the y-neighbour's chunk 4 on to the z-neighbour
  icases Htk with ⟨Hts, Htr, Htk⟩
  icases HIt with ⟨#HIc80, #HIr, HIt⟩
  icases HRt with ⟨#HRs, #HRr, HRt⟩
  icases HhZp with ⟨⟨%fd, Hd⟩, HhZp⟩
  iapply (send_zf_at m cc _ (dev30_eq cc) 4 (by decide) _ _ (k0_off38_eq cc) fd (owedL (List.drop 30 (paysL cc))) rfl _) $$ [HyFl4 Hd HO Hts Htr]
  · isplitr; · iexact HIc80
    isplitr; · iexact HIr
    isplitl [HyFl4]; · iexact HyFl4
    isplitl [Hd]; · iexact Hd
    isplitl [HO]; · iexact HO
    isplitl [Hts]; · iexact Hts
    isplitr; · iexact HRs
    isplitl [Htr]; · iexact Htr
    iexact HRr
  iintro ⟨Hczfs4, HO⟩
  iclear HIr HRs HRr
  sl_exec
  -- the left half of chunk 3 of the diagonal quarter has landed
  icases Hcr with ⟨Hc, Hcr⟩
  icases HpR with ⟨Hp, HpR⟩
  icases HIw with ⟨#HIc87, HIw⟩
  ihave Hmw := (mayWait_list (F := F) cc (dsem (⟨87, by decide⟩ : Fin 140)) (List.drop 30 (paysL cc)) (by decide)) $$ Hlev
  iapply (wait_a9_at m cc _ 3 rfl (by decide)) $$ [Hc HO Hmw Hp]
  · isplitr; · iexact HIc87
    isplitl [Hc]; · iexact Hc
    isplitl [HO]; · iexact HO
    isplitl [Hmw]; · iexact Hmw
    iexact Hp
  iintro ⟨HO, Hq87, -, Hdl3⟩
  sl_exec
  -- its right half has landed
  icases Hcr with ⟨Hc, Hcr⟩
  icases HpR with ⟨Hp, HpR⟩
  icases HIw with ⟨#HIc103, HIw⟩
  ihave Hmw := (mayWait_list (F := F) cc (dsem (⟨103, by decide⟩ : Fin 140)) (List.drop 30 (paysL cc)) (by decide)) $$ Hlev
  iapply (wait_a11_at m cc _ 3 rfl (by decide)) $$ [Hc HO Hmw Hp]
  · isplitr; · iexact HIc103
    isplitl [Hc]; · iexact Hc
    isplitl [HO]; · iexact HO
    isplitl [Hmw]; · iexact Hmw
    iexact Hp
  iintro ⟨HO, Hq103, -, Hdr3⟩
  ihave Hd3 := (Entails.of_eq (chunk_halves (F := F) cc (dqF cc) 3 fullShare (r4 m cc)).symm) $$ [Hdl3 Hdr3]
  · isplitl [Hdl3]; · iexact Hdl3
    iexact Hdr3
  -- the four copies of chunk 3 into the result
  icases HvO with ⟨Hw3a, Hw3b, Hw3c, Hw3d, HvO⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  -- step 6 of the main loop: the x-neighbour's chunk 6 has landed
  icases Hcr with ⟨Hc, Hcr⟩
  icases HpR with ⟨Hp, HpR⟩
  icases HIw with ⟨#HIc36, HIw⟩
  ihave Hmw := (mayWait_list (F := F) cc (dsem (⟨36, by decide⟩ : Fin 140)) (List.drop 30 (paysL cc)) (by decide)) $$ Hlev
  iapply (wait_a1_at m cc _ 6 rfl) $$ [Hc HO Hmw Hp]
  · isplitr; · iexact HIc36
    isplitl [Hc]; · iexact Hc
    isplitl [HO]; · iexact HO
    isplitl [Hmw]; · iexact Hmw
    iexact Hp
  iintro ⟨HO, Hq36, -, Hrb6⟩
  icases Hown with ⟨Ho6, Hown⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  ihave Ho6 := (congr (F := F) (r4R (mqF cc) 6) cc fullShare (dev.sl.Ho6_w1 m f0) (r4 m cc) (fun i hi => glue_own m cc 6 _ (k0_off14_inb cc) (k0_off14_eq cc) _ (k0_off39_inb cc) (k0_off39_eq cc) f0 i hi)) $$ Ho6
  ihave Ho6 := (Entails.of_eq (share_ZYK_eq (F := F) (r4R (mqF cc) 6) cc (r4 m cc))) $$ Ho6
  icases Ho6 with ⟨HoZ6, HoY6, HoK6⟩
  -- own chunk 6 to the z-neighbour
  icases Htk with ⟨Hts, Htr, Htk⟩
  icases HIt with ⟨#HIc50, #HIr, HIt⟩
  icases HRt with ⟨#HRs, #HRr, HRt⟩
  icases HqZ with ⟨⟨%fd, Hd⟩, HqZ⟩
  iapply (send_z_at m cc _ (dev31_eq cc) 6 _ _ (k0_off40_eq cc) fd (owedL (List.drop 31 (paysL cc))) rfl _) $$ [HoZ6 Hd HO Hts Htr]
  · isplitr; · iexact HIc50
    isplitr; · iexact HIr
    isplitl [HoZ6]; · iexact HoZ6
    isplitl [Hd]; · iexact Hd
    isplitl [HO]; · iexact HO
    isplitl [Hts]; · iexact Hts
    isplitr; · iexact HRs
    isplitl [Htr]; · iexact Htr
    iexact HRr
  iintro ⟨Hczs6, HO⟩
  iclear HIr HRs HRr
  sl_exec
  -- own chunk 6 to the y-neighbour
  icases Htk with ⟨Hts, Htr, Htk⟩
  icases HIt with ⟨#HIc66, #HIr, HIt⟩
  icases HRt with ⟨#HRs, #HRr, HRt⟩
  icases HqY with ⟨⟨%fd, Hd⟩, HqY⟩
  iapply (send_y_at m cc _ (dev32_eq cc) 6 _ _ (k0_off40_eq cc) fd (owedL (List.drop 32 (paysL cc))) rfl _) $$ [HoY6 Hd HO Hts Htr]
  · isplitr; · iexact HIc66
    isplitr; · iexact HIr
    isplitl [HoY6]; · iexact HoY6
    isplitl [Hd]; · iexact Hd
    isplitl [HO]; · iexact HO
    isplitl [Hts]; · iexact Hts
    isplitr; · iexact HRs
    isplitl [Htr]; · iexact Htr
    iexact HRr
  iintro ⟨Hcys6, HO⟩
  iclear HIr HRs HRr
  sl_exec
  -- the z-neighbour's chunk 5 has landed
  icases Hcr with ⟨Hc, Hcr⟩
  icases HpR with ⟨Hp, HpR⟩
  icases HIw with ⟨#HIc57, HIw⟩
  ihave Hmw := (mayWait_list (F := F) cc (dsem (⟨57, by decide⟩ : Fin 140)) (List.drop 32 (paysL cc)) (by decide)) $$ Hlev
  iapply (wait_a5_at m cc _ 5 rfl) $$ [Hc HO Hmw Hp]
  · isplitr; · iexact HIc57
    isplitl [Hc]; · iexact Hc
    isplitl [HO]; · iexact HO
    isplitl [Hmw]; · iexact Hmw
    iexact Hp
  iintro ⟨HO, Hq57, -, Hz5⟩
  sl_exec
  -- the y-neighbour's chunk 5 has landed
  icases Hcr with ⟨Hc, Hcr⟩
  icases HpR with ⟨Hp, HpR⟩
  icases HIw with ⟨#HIc73, HIw⟩
  ihave Hmw := (mayWait_list (F := F) cc (dsem (⟨73, by decide⟩ : Fin 140)) (List.drop 32 (paysL cc)) (by decide)) $$ Hlev
  iapply (wait_a7_at m cc _ 5 rfl) $$ [Hc HO Hmw Hp]
  · isplitr; · iexact HIc73
    isplitl [Hc]; · iexact Hc
    isplitl [HO]; · iexact HO
    isplitl [Hmw]; · iexact Hmw
    iexact Hp
  iintro ⟨HO, Hq73, -, Hy5⟩
  -- chunk 5 of the two neighbours' quarters: half its ownership stays for the copy into the result, of the other half one column half travels on
  ihave Hz5 := (Entails.of_eq (share_FG_eq (F := F) (r4R (zqF cc) 5) cc (r4 m cc))) $$ Hz5
  icases Hz5 with ⟨HzF5, HzG5⟩
  ihave HzF5 := (Entails.of_eq (chunk_halves (F := F) cc (zqF cc) 5 shF (r4 m cc))) $$ HzF5
  icases HzF5 with ⟨HzFl5, HzFr5⟩
  ihave Hy5 := (Entails.of_eq (share_FG_eq (F := F) (r4R (yqF cc) 5) cc (r4 m cc))) $$ Hy5
  icases Hy5 with ⟨HyF5, HyG5⟩
  ihave HyF5 := (Entails.of_eq (chunk_halves (F := F) cc (yqF cc) 5 shF (r4 m cc))) $$ HyF5
  icases HyF5 with ⟨HyFl5, HyFr5⟩
  sl_exec
  -- the right half of the z-neighbour's chunk 5 on to the y-neighbour
  icases Htk with ⟨Hts, Htr, Htk⟩
  icases HIt with ⟨#HIc97, #HIr, HIt⟩
  icases HRt with ⟨#HRs, #HRr, HRt⟩
  icases HhYp with ⟨⟨%fd, Hd⟩, HhYp⟩
  iapply (send_yf_at m cc _ (dev33_eq cc) 5 (by decide) _ _ (k0_off41_eq cc) fd (owedL (List.drop 33 (paysL cc))) rfl _) $$ [HzFr5 Hd HO Hts Htr]
  · isplitr; · iexact HIc97
    isplitr; · iexact HIr
    isplitl [HzFr5]; · iexact HzFr5
    isplitl [Hd]; · iexact Hd
    isplitl [HO]; · iexact HO
    isplitl [Hts]; · iexact Hts
    isplitr; · iexact HRs
    isplitl [Htr]; · iexact Htr
    iexact HRr
  iintro ⟨Hcyfs5, HO⟩
  iclear HIr HRs HRr
  sl_exec
  -- the left half of the y-neighbour's chunk 5 on to the z-neighbour
  icases Htk with ⟨Hts, Htr, Htk⟩
  icases HIt with ⟨#HIc81, #HIr, HIt⟩
  icases HRt with ⟨#HRs, #HRr, HRt⟩
  icases HhZp with ⟨⟨%fd, Hd⟩, HhZp⟩
  iapply (send_zf_at m cc _ (dev34_eq cc) 5 (by decide) _ _ (k0_off42_eq cc) fd (owedL (List.drop 34 (paysL cc))) rfl _) $$ [HyFl5 Hd HO Hts Htr]
  · isplitr; · iexact HIc81
    isplitr; · iexact HIr
    isplitl [HyFl5]; · iexact HyFl5
    isplitl [Hd]; · iexact Hd
    isplitl [HO]; · iexact HO
    isplitl [Hts]; · iexact Hts
    isplitr; · iexact HRs
    isplitl [Htr]; · iexact Htr
    iexact HRr
  iintro ⟨Hczfs5, HO⟩
  iclear HIr HRs HRr
  sl_exec
  -- the left half of chunk 4 of the diagonal quarter has landed
  icases Hcr with ⟨Hc, Hcr⟩
  icases HpR with ⟨Hp, HpR⟩
  icases HIw with ⟨#HIc88, HIw⟩
  ihave Hmw := (mayWait_list (F := F) cc (dsem (⟨88, by decide⟩ : Fin 140)) (List.drop 34 (paysL cc)) (by decide)) $$ Hlev
  iapply (wait_a9_at m cc _ 4 rfl (by decide)) $$ [Hc HO Hmw Hp]
  · isplitr; · iexact HIc88
    isplitl [Hc]; · iexact Hc
    isplitl [HO]; · iexact HO
    isplitl [Hmw]; · iexact Hmw
    iexact Hp
  iintro ⟨HO, Hq88, -, Hdl4⟩
  sl_exec
  -- its right half has landed
  icases Hcr with ⟨Hc, Hcr⟩
  icases HpR with ⟨Hp, HpR⟩
  icases HIw with ⟨#HIc104, HIw⟩
  ihave Hmw := (mayWait_list (F := F) cc (dsem (⟨104, by decide⟩ : Fin 140)) (List.drop 34 (paysL cc)) (by decide)) $$ Hlev
  iapply (wait_a11_at m cc _ 4 rfl (by decide)) $$ [Hc HO Hmw Hp]
  · isplitr; · iexact HIc104
    isplitl [Hc]; · iexact Hc
    isplitl [HO]; · iexact HO
    isplitl [Hmw]; · iexact Hmw
    iexact Hp
  iintro ⟨HO, Hq104, -, Hdr4⟩
  ihave Hd4 := (Entails.of_eq (chunk_halves (F := F) cc (dqF cc) 4 fullShare (r4 m cc)).symm) $$ [Hdl4 Hdr4]
  · isplitl [Hdl4]; · iexact Hdl4
    iexact Hdr4
  -- the four copies of chunk 4 into the result
  icases HvO with ⟨Hw4a, Hw4b, Hw4c, Hw4d, HvO⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  -- step 7 of the main loop: the x-neighbour's chunk 7 has landed
  icases Hcr with ⟨Hc, Hcr⟩
  icases HpR with ⟨Hp, HpR⟩
  icases HIw with ⟨#HIc37, HIw⟩
  ihave Hmw := (mayWait_list (F := F) cc (dsem (⟨37, by decide⟩ : Fin 140)) (List.drop 34 (paysL cc)) (by decide)) $$ Hlev
  iapply (wait_a1_at m cc _ 7 rfl) $$ [Hc HO Hmw Hp]
  · isplitr; · iexact HIc37
    isplitl [Hc]; · iexact Hc
    isplitl [HO]; · iexact HO
    isplitl [Hmw]; · iexact Hmw
    iexact Hp
  iintro ⟨HO, Hq37, -, Hrb7⟩
  icases Hown with ⟨Ho7⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  ihave Ho7 := (congr (F := F) (r4R (mqF cc) 7) cc fullShare (dev.sl.Ho7_w1 m f0) (r4 m cc) (fun i hi => glue_own m cc 7 _ (k0_off16_inb cc) (k0_off16_eq cc) _ (k0_off43_inb cc) (k0_off43_eq cc) f0 i hi)) $$ Ho7
  ihave Ho7 := (Entails.of_eq (share_ZYK_eq (F := F) (r4R (mqF cc) 7) cc (r4 m cc))) $$ Ho7
  icases Ho7 with ⟨HoZ7, HoY7, HoK7⟩
  -- own chunk 7 to the z-neighbour
  icases Htk with ⟨Hts, Htr, Htk⟩
  icases HIt with ⟨#HIc51, #HIr, HIt⟩
  icases HRt with ⟨#HRs, #HRr, HRt⟩
  icases HqZ with ⟨%fd, Hd⟩
  iapply (send_z_at m cc _ (dev35_eq cc) 7 _ _ (k0_off44_eq cc) fd (owedL (List.drop 35 (paysL cc))) rfl _) $$ [HoZ7 Hd HO Hts Htr]
  · isplitr; · iexact HIc51
    isplitr; · iexact HIr
    isplitl [HoZ7]; · iexact HoZ7
    isplitl [Hd]; · iexact Hd
    isplitl [HO]; · iexact HO
    isplitl [Hts]; · iexact Hts
    isplitr; · iexact HRs
    isplitl [Htr]; · iexact Htr
    iexact HRr
  iintro ⟨Hczs7, HO⟩
  iclear HIr HRs HRr
  sl_exec
  -- own chunk 7 to the y-neighbour
  icases Htk with ⟨Hts, Htr, Htk⟩
  icases HIt with ⟨#HIc67, #HIr, HIt⟩
  icases HRt with ⟨#HRs, #HRr, HRt⟩
  icases HqY with ⟨%fd, Hd⟩
  iapply (send_y_at m cc _ (dev36_eq cc) 7 _ _ (k0_off44_eq cc) fd (owedL (List.drop 36 (paysL cc))) rfl _) $$ [HoY7 Hd HO Hts Htr]
  · isplitr; · iexact HIc67
    isplitr; · iexact HIr
    isplitl [HoY7]; · iexact HoY7
    isplitl [Hd]; · iexact Hd
    isplitl [HO]; · iexact HO
    isplitl [Hts]; · iexact Hts
    isplitr; · iexact HRs
    isplitl [Htr]; · iexact Htr
    iexact HRr
  iintro ⟨Hcys7, HO⟩
  iclear HIr HRs HRr
  sl_exec
  -- the z-neighbour's chunk 6 has landed
  icases Hcr with ⟨Hc, Hcr⟩
  icases HpR with ⟨Hp, HpR⟩
  icases HIw with ⟨#HIc58, HIw⟩
  ihave Hmw := (mayWait_list (F := F) cc (dsem (⟨58, by decide⟩ : Fin 140)) (List.drop 36 (paysL cc)) (by decide)) $$ Hlev
  iapply (wait_a5_at m cc _ 6 rfl) $$ [Hc HO Hmw Hp]
  · isplitr; · iexact HIc58
    isplitl [Hc]; · iexact Hc
    isplitl [HO]; · iexact HO
    isplitl [Hmw]; · iexact Hmw
    iexact Hp
  iintro ⟨HO, Hq58, -, Hz6⟩
  sl_exec
  -- the y-neighbour's chunk 6 has landed
  icases Hcr with ⟨Hc, Hcr⟩
  icases HpR with ⟨Hp, HpR⟩
  icases HIw with ⟨#HIc74, HIw⟩
  ihave Hmw := (mayWait_list (F := F) cc (dsem (⟨74, by decide⟩ : Fin 140)) (List.drop 36 (paysL cc)) (by decide)) $$ Hlev
  iapply (wait_a7_at m cc _ 6 rfl) $$ [Hc HO Hmw Hp]
  · isplitr; · iexact HIc74
    isplitl [Hc]; · iexact Hc
    isplitl [HO]; · iexact HO
    isplitl [Hmw]; · iexact Hmw
    iexact Hp
  iintro ⟨HO, Hq74, -, Hy6⟩
  -- chunk 6 of the two neighbours' quarters: half its ownership stays for the copy into the result, of the other half one column half travels on
  ihave Hz6 := (Entails.of_eq (share_FG_eq (F := F) (r4R (zqF cc) 6) cc (r4 m cc))) $$ Hz6
  icases Hz6 with ⟨HzF6, HzG6⟩
  ihave HzF6 := (Entails.of_eq (chunk_halves (F := F) cc (zqF cc) 6 shF (r4 m cc))) $$ HzF6
  icases HzF6 with ⟨HzFl6, HzFr6⟩
  ihave Hy6 := (Entails.of_eq (share_FG_eq (F := F) (r4R (yqF cc) 6) cc (r4 m cc))) $$ Hy6
  icases Hy6 with ⟨HyF6, HyG6⟩
  ihave HyF6 := (Entails.of_eq (chunk_halves (F := F) cc (yqF cc) 6 shF (r4 m cc))) $$ HyF6
  icases HyF6 with ⟨HyFl6, HyFr6⟩
  sl_exec
  -- the right half of the z-neighbour's chunk 6 on to the y-neighbour
  icases Htk with ⟨Hts, Htr, Htk⟩
  icases HIt with ⟨#HIc98, #HIr, HIt⟩
  icases HRt with ⟨#HRs, #HRr, HRt⟩
  icases HhYp with ⟨⟨%fd, Hd⟩, HhYp⟩
  iapply (send_yf_at m cc _ (dev37_eq cc) 6 (by decide) _ _ (k0_off45_eq cc) fd (owedL (List.drop 37 (paysL cc))) rfl _) $$ [HzFr6 Hd HO Hts Htr]
  · isplitr; · iexact HIc98
    isplitr; · iexact HIr
    isplitl [HzFr6]; · iexact HzFr6
    isplitl [Hd]; · iexact Hd
    isplitl [HO]; · iexact HO
    isplitl [Hts]; · iexact Hts
    isplitr; · iexact HRs
    isplitl [Htr]; · iexact Htr
    iexact HRr
  iintro ⟨Hcyfs6, HO⟩
  iclear HIr HRs HRr
  sl_exec
  -- the left half of the y-neighbour's chunk 6 on to the z-neighbour
  icases Htk with ⟨Hts, Htr, Htk⟩
  icases HIt with ⟨#HIc82, #HIr, HIt⟩
  icases HRt with ⟨#HRs, #HRr, HRt⟩
  icases HhZp with ⟨⟨%fd, Hd⟩, HhZp⟩
  iapply (send_zf_at m cc _ (dev38_eq cc) 6 (by decide) _ _ (k0_off46_eq cc) fd (owedL (List.drop 38 (paysL cc))) rfl _) $$ [HyFl6 Hd HO Hts Htr]
  · isplitr; · iexact HIc82
    isplitr; · iexact HIr
    isplitl [HyFl6]; · iexact HyFl6
    isplitl [Hd]; · iexact Hd
    isplitl [HO]; · iexact HO
    isplitl [Hts]; · iexact Hts
    isplitr; · iexact HRs
    isplitl [Htr]; · iexact Htr
    iexact HRr
  iintro ⟨Hczfs6, HO⟩
  iclear HIr HRs HRr
  sl_exec
  -- the left half of chunk 5 of the diagonal quarter has landed
  icases Hcr with ⟨Hc, Hcr⟩
  icases HpR with ⟨Hp, HpR⟩
  icases HIw with ⟨#HIc89, HIw⟩
  ihave Hmw := (mayWait_list (F := F) cc (dsem (⟨89, by decide⟩ : Fin 140)) (List.drop 38 (paysL cc)) (by decide)) $$ Hlev
  iapply (wait_a9_at m cc _ 5 rfl (by decide)) $$ [Hc HO Hmw Hp]
  · isplitr; · iexact HIc89
    isplitl [Hc]; · iexact Hc
    isplitl [HO]; · iexact HO
    isplitl [Hmw]; · iexact Hmw
    iexact Hp
  iintro ⟨HO, Hq89, -, Hdl5⟩
  sl_exec
  -- its right half has landed
  icases Hcr with ⟨Hc, Hcr⟩
  icases HpR with ⟨Hp, HpR⟩
  icases HIw with ⟨#HIc105, HIw⟩
  ihave Hmw := (mayWait_list (F := F) cc (dsem (⟨105, by decide⟩ : Fin 140)) (List.drop 38 (paysL cc)) (by decide)) $$ Hlev
  iapply (wait_a11_at m cc _ 5 rfl (by decide)) $$ [Hc HO Hmw Hp]
  · isplitr; · iexact HIc105
    isplitl [Hc]; · iexact Hc
    isplitl [HO]; · iexact HO
    isplitl [Hmw]; · iexact Hmw
    iexact Hp
  iintro ⟨HO, Hq105, -, Hdr5⟩
  ihave Hd5 := (Entails.of_eq (chunk_halves (F := F) cc (dqF cc) 5 fullShare (r4 m cc)).symm) $$ [Hdl5 Hdr5]
  · isplitl [Hdl5]; · iexact Hdl5
    iexact Hdr5
  -- the four copies of chunk 5 into the result
  icases HvO with ⟨Hw5a, Hw5b, Hw5c, Hw5d, HvO⟩
  have hled38 : ∀ (s : DmaSem sig), lvJ s.val = 0 → ((levAts LL lvv : sProp 𝕄) ⊢ MayWait (cc : Thread nD τ) (.dma s) () (owedL (List.drop 38 (paysL cc)))) :=
    fun s hs => mayWait_local (F := F) cc s hs _ (by decide)
  sl_exec
  clear hled38
  -- after the loop: the z-neighbour's last chunk has landed
  icases Hcr with ⟨Hc, Hcr⟩
  icases HpR with ⟨Hp, HpR⟩
  icases HIw with ⟨#HIc59, HIw⟩
  ihave Hmw := (mayWait_list (F := F) cc (dsem (⟨59, by decide⟩ : Fin 140)) (List.drop 38 (paysL cc)) (by decide)) $$ Hlev
  iapply (wait_a5_at m cc _ 7 rfl) $$ [Hc HO Hmw Hp]
  · isplitr; · iexact HIc59
    isplitl [Hc]; · iexact Hc
    isplitl [HO]; · iexact HO
    isplitl [Hmw]; · iexact Hmw
    iexact Hp
  iintro ⟨HO, Hq59, -, Hz7⟩
  sl_exec
  -- the y-neighbour's last chunk has landed
  icases Hcr with ⟨Hc, Hcr⟩
  icases HpR with ⟨Hp, HpR⟩
  icases HIw with ⟨#HIc75, HIw⟩
  ihave Hmw := (mayWait_list (F := F) cc (dsem (⟨75, by decide⟩ : Fin 140)) (List.drop 38 (paysL cc)) (by decide)) $$ Hlev
  iapply (wait_a7_at m cc _ 7 rfl) $$ [Hc HO Hmw Hp]
  · isplitr; · iexact HIc75
    isplitl [Hc]; · iexact Hc
    isplitl [HO]; · iexact HO
    isplitl [Hmw]; · iexact Hmw
    iexact Hp
  iintro ⟨HO, Hq75, -, Hy7⟩
  -- chunk 7 of the two neighbours' quarters: half its ownership stays for the copy into the result, of the other half one column half travels on
  ihave Hz7 := (Entails.of_eq (share_FG_eq (F := F) (r4R (zqF cc) 7) cc (r4 m cc))) $$ Hz7
  icases Hz7 with ⟨HzF7, HzG7⟩
  ihave HzF7 := (Entails.of_eq (chunk_halves (F := F) cc (zqF cc) 7 shF (r4 m cc))) $$ HzF7
  icases HzF7 with ⟨HzFl7, HzFr7⟩
  ihave Hy7 := (Entails.of_eq (share_FG_eq (F := F) (r4R (yqF cc) 7) cc (r4 m cc))) $$ Hy7
  icases Hy7 with ⟨HyF7, HyG7⟩
  ihave HyF7 := (Entails.of_eq (chunk_halves (F := F) cc (yqF cc) 7 shF (r4 m cc))) $$ HyF7
  icases HyF7 with ⟨HyFl7, HyFr7⟩
  sl_exec
  -- the right half of the z-neighbour's last chunk on to the y-neighbour
  icases Htk with ⟨Hts, Htr, Htk⟩
  icases HIt with ⟨#HIc99, #HIr, HIt⟩
  icases HRt with ⟨#HRs, #HRr, HRt⟩
  icases HhYp with ⟨%fd, Hd⟩
  iapply (send_yf_at m cc _ (dev39_eq cc) 7 (by decide) _ _ (k0_off47_eq cc) fd (owedL (List.drop 39 (paysL cc))) rfl _) $$ [HzFr7 Hd HO Hts Htr]
  · isplitr; · iexact HIc99
    isplitr; · iexact HIr
    isplitl [HzFr7]; · iexact HzFr7
    isplitl [Hd]; · iexact Hd
    isplitl [HO]; · iexact HO
    isplitl [Hts]; · iexact Hts
    isplitr; · iexact HRs
    isplitl [Htr]; · iexact Htr
    iexact HRr
  iintro ⟨Hcyfs7, HO⟩
  iclear HIr HRs HRr
  sl_exec
  -- the left half of the y-neighbour's last chunk on to the z-neighbour
  icases Htk with ⟨Hts, Htr⟩
  icases HIt with ⟨#HIc83, #HIr⟩
  icases HRt with ⟨#HRs, #HRr⟩
  icases HhZp with ⟨%fd, Hd⟩
  iapply (send_zf_at m cc _ (dev40_eq cc) 7 (by decide) _ _ (k0_off48_eq cc) fd (owedL (List.drop 40 (paysL cc))) rfl _) $$ [HyFl7 Hd HO Hts Htr]
  · isplitr; · iexact HIc83
    isplitr; · iexact HIr
    isplitl [HyFl7]; · iexact HyFl7
    isplitl [Hd]; · iexact Hd
    isplitl [HO]; · iexact HO
    isplitl [Hts]; · iexact Hts
    isplitr; · iexact HRs
    isplitl [Htr]; · iexact Htr
    iexact HRr
  iintro ⟨Hczfs7, HO⟩
  iclear HIr HRs HRr
  sl_exec
  -- chunk 0 of the diagonal quarter: the x-neighbour's chunk has landed
  icases Hcr with ⟨Hc, Hcr⟩
  icases HpR with ⟨Hp, HpR⟩
  icases HIw with ⟨#HIc41, HIw⟩
  ihave Hmw := (mayWait_list (F := F) cc (dsem (⟨41, by decide⟩ : Fin 140)) (List.drop 40 (paysL cc)) (by decide)) $$ Hlev
  iapply (wait_a3_at m cc _ 0 rfl) $$ [Hc HO Hmw Hp]
  · isplitr; · iexact HIc41
    isplitl [Hc]; · iexact Hc
    isplitl [HO]; · iexact HO
    isplitl [Hmw]; · iexact Hmw
    iexact Hp
  iintro ⟨HO, Hq41, -, Hrb20⟩
  icases Hdg with ⟨Hdq0, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq0 := (congr (F := F) (r4R (dqF cc) 0) cc fullShare (dev.sl.Hdq0_w1 m f0) (r4 m cc) (fun i hi => glue_dgn m cc 0 0 rfl _ (k0_off18_inb cc) (k0_off18_eq cc) _ (k0_off49_inb cc) (k0_off49_eq cc) f0 i hi)) $$ Hdq0
  -- the four copies of chunk 0 into the result
  icases HvO with ⟨Hw0a, Hw0b, Hw0c, Hw0d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 1 of the diagonal quarter: the x-neighbour's chunk has landed
  icases Hcr with ⟨Hc, Hcr⟩
  icases HpR with ⟨Hp, HpR⟩
  icases HIw with ⟨#HIc42, HIw⟩
  ihave Hmw := (mayWait_list (F := F) cc (dsem (⟨42, by decide⟩ : Fin 140)) (List.drop 40 (paysL cc)) (by decide)) $$ Hlev
  iapply (wait_a3_at m cc _ 1 rfl) $$ [Hc HO Hmw Hp]
  · isplitr; · iexact HIc42
    isplitl [Hc]; · iexact Hc
    isplitl [HO]; · iexact HO
    isplitl [Hmw]; · iexact Hmw
    iexact Hp
  iintro ⟨HO, Hq42, -, Hrb21⟩
  icases Hdg with ⟨Hdq1, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq1 := (congr (F := F) (r4R (dqF cc) 1) cc fullShare (dev.sl.Hdq1_w1 m f0) (r4 m cc) (fun i hi => glue_dgn m cc 1 1 rfl _ (k0_off20_inb cc) (k0_off20_eq cc) _ (k0_off50_inb cc) (k0_off50_eq cc) f0 i hi)) $$ Hdq1
  -- the four copies of chunk 1 into the result
  icases HvO with ⟨Hw1a, Hw1b, Hw1c, Hw1d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 2 of the diagonal quarter: the x-neighbour's chunk has landed
  icases Hcr with ⟨Hc, Hcr⟩
  icases HpR with ⟨Hp, HpR⟩
  icases HIw with ⟨#HIc43, HIw⟩
  ihave Hmw := (mayWait_list (F := F) cc (dsem (⟨43, by decide⟩ : Fin 140)) (List.drop 40 (paysL cc)) (by decide)) $$ Hlev
  iapply (wait_a3_at m cc _ 2 rfl) $$ [Hc HO Hmw Hp]
  · isplitr; · iexact HIc43
    isplitl [Hc]; · iexact Hc
    isplitl [HO]; · iexact HO
    isplitl [Hmw]; · iexact Hmw
    iexact Hp
  iintro ⟨HO, Hq43, -, Hrb22⟩
  icases Hdg with ⟨Hdq2⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq2 := (congr (F := F) (r4R (dqF cc) 2) cc fullShare (dev.sl.Hdq2_w1 m f0) (r4 m cc) (fun i hi => glue_dgn m cc 2 2 rfl _ (k0_off22_inb cc) (k0_off22_eq cc) _ (k0_off51_inb cc) (k0_off51_eq cc) f0 i hi)) $$ Hdq2
  -- the four copies of chunk 2 into the result
  icases HvO with ⟨Hw2a, Hw2b, Hw2c, Hw2d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 6 of the diagonal quarter has landed
  icases Hcr with ⟨Hc, Hcr⟩
  icases HpR with ⟨Hp, HpR⟩
  icases HIw with ⟨#HIc90, HIw⟩
  ihave Hmw := (mayWait_list (F := F) cc (dsem (⟨90, by decide⟩ : Fin 140)) (List.drop 40 (paysL cc)) (by decide)) $$ Hlev
  iapply (wait_a9_at m cc _ 6 rfl (by decide)) $$ [Hc HO Hmw Hp]
  · isplitr; · iexact HIc90
    isplitl [Hc]; · iexact Hc
    isplitl [HO]; · iexact HO
    isplitl [Hmw]; · iexact Hmw
    iexact Hp
  iintro ⟨HO, Hq90, -, Hdl6⟩
  sl_exec
  -- its right half has landed
  icases Hcr with ⟨Hc, Hcr⟩
  icases HpR with ⟨Hp, HpR⟩
  icases HIw with ⟨#HIc106, HIw⟩
  ihave Hmw := (mayWait_list (F := F) cc (dsem (⟨106, by decide⟩ : Fin 140)) (List.drop 40 (paysL cc)) (by decide)) $$ Hlev
  iapply (wait_a11_at m cc _ 6 rfl (by decide)) $$ [Hc HO Hmw Hp]
  · isplitr; · iexact HIc106
    isplitl [Hc]; · iexact Hc
    isplitl [HO]; · iexact HO
    isplitl [Hmw]; · iexact Hmw
    iexact Hp
  iintro ⟨HO, Hq106, -, Hdr6⟩
  ihave Hd6 := (Entails.of_eq (chunk_halves (F := F) cc (dqF cc) 6 fullShare (r4 m cc)).symm) $$ [Hdl6 Hdr6]
  · isplitl [Hdl6]; · iexact Hdl6
    iexact Hdr6
  -- the four copies of chunk 6 into the result
  icases HvO with ⟨Hw6a, Hw6b, Hw6c, Hw6d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 7 of the diagonal quarter has landed
  icases Hcr with ⟨Hc, Hcr⟩
  icases HpR with ⟨Hp, HpR⟩
  icases HIw with ⟨#HIc91, HIw⟩
  ihave Hcr := ((sep_emp (PROP := sProp 𝕄)).2) $$ Hcr
  ihave Hmw := (mayWait_list (F := F) cc (dsem (⟨91, by decide⟩ : Fin 140)) (List.drop 40 (paysL cc)) (by decide)) $$ Hlev
  iapply (wait_a9_at m cc _ 7 rfl (by decide)) $$ [Hc HO Hmw Hp]
  · isplitr; · iexact HIc91
    isplitl [Hc]; · iexact Hc
    isplitl [HO]; · iexact HO
    isplitl [Hmw]; · iexact Hmw
    iexact Hp
  iintro ⟨HO, Hq91, -, Hdl7⟩
  sl_exec
  -- its right half has landed
  icases HIw with #HIc107
  icases Hcr with ⟨Hcr, -⟩
  ihave Hmw := (mayWait_list (F := F) cc (dsem (⟨107, by decide⟩ : Fin 140)) (List.drop 40 (paysL cc)) (by decide)) $$ Hlev
  iapply (wait_a11_at m cc _ 7 rfl (by decide)) $$ [Hcr HO Hmw HpR]
  · isplitr; · iexact HIc107
    isplitl [Hcr]; · iexact Hcr
    isplitl [HO]; · iexact HO
    isplitl [Hmw]; · iexact Hmw
    iexact HpR
  iintro ⟨HO, Hq107, -, Hdr7⟩
  ihave Hd7 := (Entails.of_eq (chunk_halves (F := F) cc (dqF cc) 7 fullShare (r4 m cc)).symm) $$ [Hdl7 Hdr7]
  · isplitl [Hdl7]; · iexact Hdl7
    iexact Hdr7
  -- the four copies of chunk 7 into the result
  icases HvO with ⟨Hw7a, Hw7b, Hw7c, Hw7d⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- nothing is owed any more: the level fact for the remaining local waits, once
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  -- the departure of chunk 0 across x
  icases HpS with ⟨Hp, HpS⟩
  ihave Hmw := (mayWait_list (F := F) cc (dsem (⟨22, by decide⟩ : Fin 140)) (List.drop 40 (paysL cc)) (by decide)) $$ Hlev
  iapply (wait_a0_at m cc _ 0 rfl) $$ [Hcxs0 HO Hmw Hp]
  · isplitr; · iexact HIc22
    isplitl [Hcxs0]; · iexact Hcxs0
    isplitl [HO]; · iexact HO
    isplitl [Hmw]; · iexact Hmw
    iexact Hp
  iintro ⟨HO, Hq22, -, HBs0⟩
  sl_exec
  -- of own chunk 0 to z
  icases HpS with ⟨Hp, HpS⟩
  ihave Hmw := (mayWait_list (F := F) cc (dsem (⟨44, by decide⟩ : Fin 140)) (List.drop 40 (paysL cc)) (by decide)) $$ Hlev
  iapply (wait_a4_at m cc _ 0 rfl) $$ [Hczs0 HO Hmw Hp]
  · isplitr; · iexact HIc44
    isplitl [Hczs0]; · iexact Hczs0
    isplitl [HO]; · iexact HO
    isplitl [Hmw]; · iexact Hmw
    iexact Hp
  iintro ⟨HO, Hq44, -, HoZb0⟩
  sl_exec
  -- of own chunk 0 to y
  icases HpS with ⟨Hp, HpS⟩
  ihave Hmw := (mayWait_list (F := F) cc (dsem (⟨60, by decide⟩ : Fin 140)) (List.drop 40 (paysL cc)) (by decide)) $$ Hlev
  iapply (wait_a6_at m cc _ 0 rfl) $$ [Hcys0 HO Hmw Hp]
  · isplitr; · iexact HIc60
    isplitl [Hcys0]; · iexact Hcys0
    isplitl [HO]; · iexact HO
    isplitl [Hmw]; · iexact Hmw
    iexact Hp
  iintro ⟨HO, Hq60, -, HoYb0⟩
  sl_exec
  -- the departure of chunk 1 across x
  icases HpS with ⟨Hp, HpS⟩
  ihave Hmw := (mayWait_list (F := F) cc (dsem (⟨23, by decide⟩ : Fin 140)) (List.drop 40 (paysL cc)) (by decide)) $$ Hlev
  iapply (wait_a0_at m cc _ 1 rfl) $$ [Hcxs1 HO Hmw Hp]
  · isplitr; · iexact HIc23
    isplitl [Hcxs1]; · iexact Hcxs1
    isplitl [HO]; · iexact HO
    isplitl [Hmw]; · iexact Hmw
    iexact Hp
  iintro ⟨HO, Hq23, -, HBs1⟩
  sl_exec
  -- of own chunk 1 to z
  icases HpS with ⟨Hp, HpS⟩
  ihave Hmw := (mayWait_list (F := F) cc (dsem (⟨45, by decide⟩ : Fin 140)) (List.drop 40 (paysL cc)) (by decide)) $$ Hlev
  iapply (wait_a4_at m cc _ 1 rfl) $$ [Hczs1 HO Hmw Hp]
  · isplitr; · iexact HIc45
    isplitl [Hczs1]; · iexact Hczs1
    isplitl [HO]; · iexact HO
    isplitl [Hmw]; · iexact Hmw
    iexact Hp
  iintro ⟨HO, Hq45, -, HoZb1⟩
  sl_exec
  -- of own chunk 1 to y
  icases HpS with ⟨Hp, HpS⟩
  ihave Hmw := (mayWait_list (F := F) cc (dsem (⟨61, by decide⟩ : Fin 140)) (List.drop 40 (paysL cc)) (by decide)) $$ Hlev
  iapply (wait_a6_at m cc _ 1 rfl) $$ [Hcys1 HO Hmw Hp]
  · isplitr; · iexact HIc61
    isplitl [Hcys1]; · iexact Hcys1
    isplitl [HO]; · iexact HO
    isplitl [Hmw]; · iexact Hmw
    iexact Hp
  iintro ⟨HO, Hq61, -, HoYb1⟩
  sl_exec
  -- the departure of chunk 2 across x
  icases HpS with ⟨Hp, HpS⟩
  ihave Hmw := (mayWait_list (F := F) cc (dsem (⟨24, by decide⟩ : Fin 140)) (List.drop 40 (paysL cc)) (by decide)) $$ Hlev
  iapply (wait_a0_at m cc _ 2 rfl) $$ [Hcxs2 HO Hmw Hp]
  · isplitr; · iexact HIc24
    isplitl [Hcxs2]; · iexact Hcxs2
    isplitl [HO]; · iexact HO
    isplitl [Hmw]; · iexact Hmw
    iexact Hp
  iintro ⟨HO, Hq24, -, HBs2⟩
  sl_exec
  -- of own chunk 2 to z
  icases HpS with ⟨Hp, HpS⟩
  ihave Hmw := (mayWait_list (F := F) cc (dsem (⟨46, by decide⟩ : Fin 140)) (List.drop 40 (paysL cc)) (by decide)) $$ Hlev
  iapply (wait_a4_at m cc _ 2 rfl) $$ [Hczs2 HO Hmw Hp]
  · isplitr; · iexact HIc46
    isplitl [Hczs2]; · iexact Hczs2
    isplitl [HO]; · iexact HO
    isplitl [Hmw]; · iexact Hmw
    iexact Hp
  iintro ⟨HO, Hq46, -, HoZb2⟩
  sl_exec
  -- of own chunk 2 to y
  icases HpS with ⟨Hp, HpS⟩
  ihave Hmw := (mayWait_list (F := F) cc (dsem (⟨62, by decide⟩ : Fin 140)) (List.drop 40 (paysL cc)) (by decide)) $$ Hlev
  iapply (wait_a6_at m cc _ 2 rfl) $$ [Hcys2 HO Hmw Hp]
  · isplitr; · iexact HIc62
    isplitl [Hcys2]; · iexact Hcys2
    isplitl [HO]; · iexact HO
    isplitl [Hmw]; · iexact Hmw
    iexact Hp
  iintro ⟨HO, Hq62, -, HoYb2⟩
  sl_exec
  -- the departure of chunk 3 across x
  icases HpS with ⟨Hp, HpS⟩
  ihave Hmw := (mayWait_list (F := F) cc (dsem (⟨25, by decide⟩ : Fin 140)) (List.drop 40 (paysL cc)) (by decide)) $$ Hlev
  iapply (wait_a0_at m cc _ 3 rfl) $$ [Hcxs3 HO Hmw Hp]
  · isplitr; · iexact HIc25
    isplitl [Hcxs3]; · iexact Hcxs3
    isplitl [HO]; · iexact HO
    isplitl [Hmw]; · iexact Hmw
    iexact Hp
  iintro ⟨HO, Hq25, -, HBs3⟩
  sl_exec
  -- of own chunk 3 to z
  icases HpS with ⟨Hp, HpS⟩
  ihave Hmw := (mayWait_list (F := F) cc (dsem (⟨47, by decide⟩ : Fin 140)) (List.drop 40 (paysL cc)) (by decide)) $$ Hlev
  iapply (wait_a4_at m cc _ 3 rfl) $$ [Hczs3 HO Hmw Hp]
  · isplitr; · iexact HIc47
    isplitl [Hczs3]; · iexact Hczs3
    isplitl [HO]; · iexact HO
    isplitl [Hmw]; · iexact Hmw
    iexact Hp
  iintro ⟨HO, Hq47, -, HoZb3⟩
  sl_exec
  -- of own chunk 3 to y
  icases HpS with ⟨Hp, HpS⟩
  ihave Hmw := (mayWait_list (F := F) cc (dsem (⟨63, by decide⟩ : Fin 140)) (List.drop 40 (paysL cc)) (by decide)) $$ Hlev
  iapply (wait_a6_at m cc _ 3 rfl) $$ [Hcys3 HO Hmw Hp]
  · isplitr; · iexact HIc63
    isplitl [Hcys3]; · iexact Hcys3
    isplitl [HO]; · iexact HO
    isplitl [Hmw]; · iexact Hmw
    iexact Hp
  iintro ⟨HO, Hq63, -, HoYb3⟩
  sl_exec
  -- of the forwarded half to z
  icases HpS with ⟨Hp, HpS⟩
  ihave Hmw := (mayWait_list (F := F) cc (dsem (⟨79, by decide⟩ : Fin 140)) (List.drop 40 (paysL cc)) (by decide)) $$ Hlev
  iapply (wait_a8_at m cc _ 3 rfl (by decide)) $$ [Hczfs3 HO Hmw Hp]
  · isplitr; · iexact HIc79
    isplitl [Hczfs3]; · iexact Hczfs3
    isplitl [HO]; · iexact HO
    isplitl [Hmw]; · iexact Hmw
    iexact Hp
  iintro ⟨HO, Hq79, -, HyFlb3⟩
  sl_exec
  -- of the forwarded half to y
  icases HpS with ⟨Hp, HpS⟩
  ihave Hmw := (mayWait_list (F := F) cc (dsem (⟨95, by decide⟩ : Fin 140)) (List.drop 40 (paysL cc)) (by decide)) $$ Hlev
  iapply (wait_a10_at m cc _ 3 rfl (by decide)) $$ [Hcyfs3 HO Hmw Hp]
  · isplitr; · iexact HIc95
    isplitl [Hcyfs3]; · iexact Hcyfs3
    isplitl [HO]; · iexact HO
    isplitl [Hmw]; · iexact Hmw
    iexact Hp
  iintro ⟨HO, Hq95, -, HzFrb3⟩
  sl_exec
  -- the departure of chunk 4 across x
  icases HpS with ⟨Hp, HpS⟩
  ihave Hmw := (mayWait_list (F := F) cc (dsem (⟨26, by decide⟩ : Fin 140)) (List.drop 40 (paysL cc)) (by decide)) $$ Hlev
  iapply (wait_a0_at m cc _ 4 rfl) $$ [Hcxs4 HO Hmw Hp]
  · isplitr; · iexact HIc26
    isplitl [Hcxs4]; · iexact Hcxs4
    isplitl [HO]; · iexact HO
    isplitl [Hmw]; · iexact Hmw
    iexact Hp
  iintro ⟨HO, Hq26, -, HBs4⟩
  sl_exec
  -- of own chunk 4 to z
  icases HpS with ⟨Hp, HpS⟩
  ihave Hmw := (mayWait_list (F := F) cc (dsem (⟨48, by decide⟩ : Fin 140)) (List.drop 40 (paysL cc)) (by decide)) $$ Hlev
  iapply (wait_a4_at m cc _ 4 rfl) $$ [Hczs4 HO Hmw Hp]
  · isplitr; · iexact HIc48
    isplitl [Hczs4]; · iexact Hczs4
    isplitl [HO]; · iexact HO
    isplitl [Hmw]; · iexact Hmw
    iexact Hp
  iintro ⟨HO, Hq48, -, HoZb4⟩
  sl_exec
  -- of own chunk 4 to y
  icases HpS with ⟨Hp, HpS⟩
  ihave Hmw := (mayWait_list (F := F) cc (dsem (⟨64, by decide⟩ : Fin 140)) (List.drop 40 (paysL cc)) (by decide)) $$ Hlev
  iapply (wait_a6_at m cc _ 4 rfl) $$ [Hcys4 HO Hmw Hp]
  · isplitr; · iexact HIc64
    isplitl [Hcys4]; · iexact Hcys4
    isplitl [HO]; · iexact HO
    isplitl [Hmw]; · iexact Hmw
    iexact Hp
  iintro ⟨HO, Hq64, -, HoYb4⟩
  sl_exec
  -- of the forwarded half to z
  icases HpS with ⟨Hp, HpS⟩
  ihave Hmw := (mayWait_list (F := F) cc (dsem (⟨80, by decide⟩ : Fin 140)) (List.drop 40 (paysL cc)) (by decide)) $$ Hlev
  iapply (wait_a8_at m cc _ 4 rfl (by decide)) $$ [Hczfs4 HO Hmw Hp]
  · isplitr; · iexact HIc80
    isplitl [Hczfs4]; · iexact Hczfs4
    isplitl [HO]; · iexact HO
    isplitl [Hmw]; · iexact Hmw
    iexact Hp
  iintro ⟨HO, Hq80, -, HyFlb4⟩
  sl_exec
  -- of the forwarded half to y
  icases HpS with ⟨Hp, HpS⟩
  ihave Hmw := (mayWait_list (F := F) cc (dsem (⟨96, by decide⟩ : Fin 140)) (List.drop 40 (paysL cc)) (by decide)) $$ Hlev
  iapply (wait_a10_at m cc _ 4 rfl (by decide)) $$ [Hcyfs4 HO Hmw Hp]
  · isplitr; · iexact HIc96
    isplitl [Hcyfs4]; · iexact Hcyfs4
    isplitl [HO]; · iexact HO
    isplitl [Hmw]; · iexact Hmw
    iexact Hp
  iintro ⟨HO, Hq96, -, HzFrb4⟩
  sl_exec
  -- the departure of chunk 5 across x
  icases HpS with ⟨Hp, HpS⟩
  ihave Hmw := (mayWait_list (F := F) cc (dsem (⟨27, by decide⟩ : Fin 140)) (List.drop 40 (paysL cc)) (by decide)) $$ Hlev
  iapply (wait_a0_at m cc _ 5 rfl) $$ [Hcxs5 HO Hmw Hp]
  · isplitr; · iexact HIc27
    isplitl [Hcxs5]; · iexact Hcxs5
    isplitl [HO]; · iexact HO
    isplitl [Hmw]; · iexact Hmw
    iexact Hp
  iintro ⟨HO, Hq27, -, HBs5⟩
  sl_exec
  -- of own chunk 5 to z
  icases HpS with ⟨Hp, HpS⟩
  ihave Hmw := (mayWait_list (F := F) cc (dsem (⟨49, by decide⟩ : Fin 140)) (List.drop 40 (paysL cc)) (by decide)) $$ Hlev
  iapply (wait_a4_at m cc _ 5 rfl) $$ [Hczs5 HO Hmw Hp]
  · isplitr; · iexact HIc49
    isplitl [Hczs5]; · iexact Hczs5
    isplitl [HO]; · iexact HO
    isplitl [Hmw]; · iexact Hmw
    iexact Hp
  iintro ⟨HO, Hq49, -, HoZb5⟩
  sl_exec
  -- of own chunk 5 to y
  icases HpS with ⟨Hp, HpS⟩
  ihave Hmw := (mayWait_list (F := F) cc (dsem (⟨65, by decide⟩ : Fin 140)) (List.drop 40 (paysL cc)) (by decide)) $$ Hlev
  iapply (wait_a6_at m cc _ 5 rfl) $$ [Hcys5 HO Hmw Hp]
  · isplitr; · iexact HIc65
    isplitl [Hcys5]; · iexact Hcys5
    isplitl [HO]; · iexact HO
    isplitl [Hmw]; · iexact Hmw
    iexact Hp
  iintro ⟨HO, Hq65, -, HoYb5⟩
  sl_exec
  -- of the forwarded half to z
  icases HpS with ⟨Hp, HpS⟩
  ihave Hmw := (mayWait_list (F := F) cc (dsem (⟨81, by decide⟩ : Fin 140)) (List.drop 40 (paysL cc)) (by decide)) $$ Hlev
  iapply (wait_a8_at m cc _ 5 rfl (by decide)) $$ [Hczfs5 HO Hmw Hp]
  · isplitr; · iexact HIc81
    isplitl [Hczfs5]; · iexact Hczfs5
    isplitl [HO]; · iexact HO
    isplitl [Hmw]; · iexact Hmw
    iexact Hp
  iintro ⟨HO, Hq81, -, HyFlb5⟩
  sl_exec
  -- of the forwarded half to y
  icases HpS with ⟨Hp, HpS⟩
  ihave Hmw := (mayWait_list (F := F) cc (dsem (⟨97, by decide⟩ : Fin 140)) (List.drop 40 (paysL cc)) (by decide)) $$ Hlev
  iapply (wait_a10_at m cc _ 5 rfl (by decide)) $$ [Hcyfs5 HO Hmw Hp]
  · isplitr; · iexact HIc97
    isplitl [Hcyfs5]; · iexact Hcyfs5
    isplitl [HO]; · iexact HO
    isplitl [Hmw]; · iexact Hmw
    iexact Hp
  iintro ⟨HO, Hq97, -, HzFrb5⟩
  sl_exec
  -- the departure of chunk 6 across x
  icases HpS with ⟨Hp, HpS⟩
  ihave Hmw := (mayWait_list (F := F) cc (dsem (⟨28, by decide⟩ : Fin 140)) (List.drop 40 (paysL cc)) (by decide)) $$ Hlev
  iapply (wait_a0_at m cc _ 6 rfl) $$ [Hcxs6 HO Hmw Hp]
  · isplitr; · iexact HIc28
    isplitl [Hcxs6]; · iexact Hcxs6
    isplitl [HO]; · iexact HO
    isplitl [Hmw]; · iexact Hmw
    iexact Hp
  iintro ⟨HO, Hq28, -, HBs6⟩
  sl_exec
  -- of own chunk 6 to z
  icases HpS with ⟨Hp, HpS⟩
  ihave Hmw := (mayWait_list (F := F) cc (dsem (⟨50, by decide⟩ : Fin 140)) (List.drop 40 (paysL cc)) (by decide)) $$ Hlev
  iapply (wait_a4_at m cc _ 6 rfl) $$ [Hczs6 HO Hmw Hp]
  · isplitr; · iexact HIc50
    isplitl [Hczs6]; · iexact Hczs6
    isplitl [HO]; · iexact HO
    isplitl [Hmw]; · iexact Hmw
    iexact Hp
  iintro ⟨HO, Hq50, -, HoZb6⟩
  sl_exec
  -- of own chunk 6 to y
  icases HpS with ⟨Hp, HpS⟩
  ihave Hmw := (mayWait_list (F := F) cc (dsem (⟨66, by decide⟩ : Fin 140)) (List.drop 40 (paysL cc)) (by decide)) $$ Hlev
  iapply (wait_a6_at m cc _ 6 rfl) $$ [Hcys6 HO Hmw Hp]
  · isplitr; · iexact HIc66
    isplitl [Hcys6]; · iexact Hcys6
    isplitl [HO]; · iexact HO
    isplitl [Hmw]; · iexact Hmw
    iexact Hp
  iintro ⟨HO, Hq66, -, HoYb6⟩
  sl_exec
  -- of the forwarded half to z
  icases HpS with ⟨Hp, HpS⟩
  ihave Hmw := (mayWait_list (F := F) cc (dsem (⟨82, by decide⟩ : Fin 140)) (List.drop 40 (paysL cc)) (by decide)) $$ Hlev
  iapply (wait_a8_at m cc _ 6 rfl (by decide)) $$ [Hczfs6 HO Hmw Hp]
  · isplitr; · iexact HIc82
    isplitl [Hczfs6]; · iexact Hczfs6
    isplitl [HO]; · iexact HO
    isplitl [Hmw]; · iexact Hmw
    iexact Hp
  iintro ⟨HO, Hq82, -, HyFlb6⟩
  sl_exec
  -- of the forwarded half to y
  icases HpS with ⟨Hp, HpS⟩
  ihave Hmw := (mayWait_list (F := F) cc (dsem (⟨98, by decide⟩ : Fin 140)) (List.drop 40 (paysL cc)) (by decide)) $$ Hlev
  iapply (wait_a10_at m cc _ 6 rfl (by decide)) $$ [Hcyfs6 HO Hmw Hp]
  · isplitr; · iexact HIc98
    isplitl [Hcyfs6]; · iexact Hcyfs6
    isplitl [HO]; · iexact HO
    isplitl [Hmw]; · iexact Hmw
    iexact Hp
  iintro ⟨HO, Hq98, -, HzFrb6⟩
  sl_exec
  -- the departure of chunk 7 across x
  icases HpS with ⟨Hp, HpS⟩
  ihave Hmw := (mayWait_list (F := F) cc (dsem (⟨29, by decide⟩ : Fin 140)) (List.drop 40 (paysL cc)) (by decide)) $$ Hlev
  iapply (wait_a0_at m cc _ 7 rfl) $$ [Hcxs7 HO Hmw Hp]
  · isplitr; · iexact HIc29
    isplitl [Hcxs7]; · iexact Hcxs7
    isplitl [HO]; · iexact HO
    isplitl [Hmw]; · iexact Hmw
    iexact Hp
  iintro ⟨HO, Hq29, -, HBs7⟩
  sl_exec
  -- of own chunk 7 to z
  icases HpS with ⟨Hp, HpS⟩
  ihave Hmw := (mayWait_list (F := F) cc (dsem (⟨51, by decide⟩ : Fin 140)) (List.drop 40 (paysL cc)) (by decide)) $$ Hlev
  iapply (wait_a4_at m cc _ 7 rfl) $$ [Hczs7 HO Hmw Hp]
  · isplitr; · iexact HIc51
    isplitl [Hczs7]; · iexact Hczs7
    isplitl [HO]; · iexact HO
    isplitl [Hmw]; · iexact Hmw
    iexact Hp
  iintro ⟨HO, Hq51, -, HoZb7⟩
  sl_exec
  -- of own chunk 7 to y
  icases HpS with ⟨Hp, HpS⟩
  ihave Hmw := (mayWait_list (F := F) cc (dsem (⟨67, by decide⟩ : Fin 140)) (List.drop 40 (paysL cc)) (by decide)) $$ Hlev
  iapply (wait_a6_at m cc _ 7 rfl) $$ [Hcys7 HO Hmw Hp]
  · isplitr; · iexact HIc67
    isplitl [Hcys7]; · iexact Hcys7
    isplitl [HO]; · iexact HO
    isplitl [Hmw]; · iexact Hmw
    iexact Hp
  iintro ⟨HO, Hq67, -, HoYb7⟩
  sl_exec
  -- of the forwarded half to z
  icases HpS with ⟨Hp, HpS⟩
  ihave Hmw := (mayWait_list (F := F) cc (dsem (⟨83, by decide⟩ : Fin 140)) (List.drop 40 (paysL cc)) (by decide)) $$ Hlev
  iapply (wait_a8_at m cc _ 7 rfl (by decide)) $$ [Hczfs7 HO Hmw Hp]
  · isplitr; · iexact HIc83
    isplitl [Hczfs7]; · iexact Hczfs7
    isplitl [HO]; · iexact HO
    isplitl [Hmw]; · iexact Hmw
    iexact Hp
  iintro ⟨HO, Hq83, -, HyFlb7⟩
  sl_exec
  -- of the forwarded half to y
  icases HpS with ⟨Hp, HpS⟩
  ihave Hmw := (mayWait_list (F := F) cc (dsem (⟨99, by decide⟩ : Fin 140)) (List.drop 40 (paysL cc)) (by decide)) $$ Hlev
  iapply (wait_a10_at m cc _ 7 rfl (by decide)) $$ [Hcyfs7 HO Hmw Hp]
  · isplitr; · iexact HIc99
    isplitl [Hcyfs7]; · iexact Hcyfs7
    isplitl [HO]; · iexact HO
    isplitl [Hmw]; · iexact Hmw
    iexact Hp
  iintro ⟨HO, Hq99, -, HzFrb7⟩
  sl_exec
  -- of chunk 0 of the diagonal quarter across x
  icases HpS with ⟨Hp, HpS⟩
  ihave Hmw := (mayWait_list (F := F) cc (dsem (⟨38, by decide⟩ : Fin 140)) (List.drop 40 (paysL cc)) (by decide)) $$ Hlev
  iapply (wait_a2_at m cc _ 0 rfl) $$ [Hcds0 HO Hmw Hp]
  · isplitr; · iexact HIc38
    isplitl [Hcds0]; · iexact Hcds0
    isplitl [HO]; · iexact HO
    isplitl [Hmw]; · iexact Hmw
    iexact Hp
  iintro ⟨HO, Hq38, -, HB2s0⟩
  sl_exec
  -- of chunk 1 of the diagonal quarter across x
  icases HpS with ⟨Hp, HpS⟩
  ihave HpS := ((sep_emp (PROP := sProp 𝕄)).2) $$ HpS
  ihave Hmw := (mayWait_list (F := F) cc (dsem (⟨39, by decide⟩ : Fin 140)) (List.drop 40 (paysL cc)) (by decide)) $$ Hlev
  iapply (wait_a2_at m cc _ 1 rfl) $$ [Hcds1 HO Hmw Hp]
  · isplitr; · iexact HIc39
    isplitl [Hcds1]; · iexact Hcds1
    isplitl [HO]; · iexact HO
    isplitl [Hmw]; · iexact Hmw
    iexact Hp
  iintro ⟨HO, Hq39, -, HB2s1⟩
  sl_exec
  -- of chunk 2 of the diagonal quarter across x

  icases HpS with ⟨HpS, -⟩
  ihave Hmw := (mayWait_list (F := F) cc (dsem (⟨40, by decide⟩ : Fin 140)) (List.drop 40 (paysL cc)) (by decide)) $$ Hlev
  iapply (wait_a2_at m cc _ 2 rfl) $$ [Hcds2 HO Hmw HpS]
  · isplitr; · iexact HIc40
    isplitl [Hcds2]; · iexact Hcds2
    isplitl [HO]; · iexact HO
    isplitl [Hmw]; · iexact Hmw
    iexact HpS
  iintro ⟨HO, Hq40, -, HB2s2⟩
  sl_exec
  -- every cell of the protocol on this device has had its one round: close them, their counters are the device's again
  imod (close_cell (F := F) m cc (⟨22, by decide⟩ : Fin 140) (by decide)) $$ [Hq22] with Hv22
  · isplitr; · iexact HIc22
    iexact Hq22
  imod (close_cell (F := F) m cc (⟨23, by decide⟩ : Fin 140) (by decide)) $$ [Hq23] with Hv23
  · isplitr; · iexact HIc23
    iexact Hq23
  imod (close_cell (F := F) m cc (⟨24, by decide⟩ : Fin 140) (by decide)) $$ [Hq24] with Hv24
  · isplitr; · iexact HIc24
    iexact Hq24
  imod (close_cell (F := F) m cc (⟨25, by decide⟩ : Fin 140) (by decide)) $$ [Hq25] with Hv25
  · isplitr; · iexact HIc25
    iexact Hq25
  imod (close_cell (F := F) m cc (⟨26, by decide⟩ : Fin 140) (by decide)) $$ [Hq26] with Hv26
  · isplitr; · iexact HIc26
    iexact Hq26
  imod (close_cell (F := F) m cc (⟨27, by decide⟩ : Fin 140) (by decide)) $$ [Hq27] with Hv27
  · isplitr; · iexact HIc27
    iexact Hq27
  imod (close_cell (F := F) m cc (⟨28, by decide⟩ : Fin 140) (by decide)) $$ [Hq28] with Hv28
  · isplitr; · iexact HIc28
    iexact Hq28
  imod (close_cell (F := F) m cc (⟨29, by decide⟩ : Fin 140) (by decide)) $$ [Hq29] with Hv29
  · isplitr; · iexact HIc29
    iexact Hq29
  imod (close_cell (F := F) m cc (⟨30, by decide⟩ : Fin 140) (by decide)) $$ [Hq30] with Hv30
  · isplitr; · iexact HIc30
    iexact Hq30
  imod (close_cell (F := F) m cc (⟨31, by decide⟩ : Fin 140) (by decide)) $$ [Hq31] with Hv31
  · isplitr; · iexact HIc31
    iexact Hq31
  imod (close_cell (F := F) m cc (⟨32, by decide⟩ : Fin 140) (by decide)) $$ [Hq32] with Hv32
  · isplitr; · iexact HIc32
    iexact Hq32
  imod (close_cell (F := F) m cc (⟨33, by decide⟩ : Fin 140) (by decide)) $$ [Hq33] with Hv33
  · isplitr; · iexact HIc33
    iexact Hq33
  imod (close_cell (F := F) m cc (⟨34, by decide⟩ : Fin 140) (by decide)) $$ [Hq34] with Hv34
  · isplitr; · iexact HIc34
    iexact Hq34
  imod (close_cell (F := F) m cc (⟨35, by decide⟩ : Fin 140) (by decide)) $$ [Hq35] with Hv35
  · isplitr; · iexact HIc35
    iexact Hq35
  imod (close_cell (F := F) m cc (⟨36, by decide⟩ : Fin 140) (by decide)) $$ [Hq36] with Hv36
  · isplitr; · iexact HIc36
    iexact Hq36
  imod (close_cell (F := F) m cc (⟨37, by decide⟩ : Fin 140) (by decide)) $$ [Hq37] with Hv37
  · isplitr; · iexact HIc37
    iexact Hq37
  imod (close_cell (F := F) m cc (⟨38, by decide⟩ : Fin 140) (by decide)) $$ [Hq38] with Hv38
  · isplitr; · iexact HIc38
    iexact Hq38
  imod (close_cell (F := F) m cc (⟨39, by decide⟩ : Fin 140) (by decide)) $$ [Hq39] with Hv39
  · isplitr; · iexact HIc39
    iexact Hq39
  imod (close_cell (F := F) m cc (⟨40, by decide⟩ : Fin 140) (by decide)) $$ [Hq40] with Hv40
  · isplitr; · iexact HIc40
    iexact Hq40
  imod (close_cell (F := F) m cc (⟨41, by decide⟩ : Fin 140) (by decide)) $$ [Hq41] with Hv41
  · isplitr; · iexact HIc41
    iexact Hq41
  imod (close_cell (F := F) m cc (⟨42, by decide⟩ : Fin 140) (by decide)) $$ [Hq42] with Hv42
  · isplitr; · iexact HIc42
    iexact Hq42
  imod (close_cell (F := F) m cc (⟨43, by decide⟩ : Fin 140) (by decide)) $$ [Hq43] with Hv43
  · isplitr; · iexact HIc43
    iexact Hq43
  imod (close_cell (F := F) m cc (⟨44, by decide⟩ : Fin 140) (by decide)) $$ [Hq44] with Hv44
  · isplitr; · iexact HIc44
    iexact Hq44
  imod (close_cell (F := F) m cc (⟨45, by decide⟩ : Fin 140) (by decide)) $$ [Hq45] with Hv45
  · isplitr; · iexact HIc45
    iexact Hq45
  imod (close_cell (F := F) m cc (⟨46, by decide⟩ : Fin 140) (by decide)) $$ [Hq46] with Hv46
  · isplitr; · iexact HIc46
    iexact Hq46
  imod (close_cell (F := F) m cc (⟨47, by decide⟩ : Fin 140) (by decide)) $$ [Hq47] with Hv47
  · isplitr; · iexact HIc47
    iexact Hq47
  imod (close_cell (F := F) m cc (⟨48, by decide⟩ : Fin 140) (by decide)) $$ [Hq48] with Hv48
  · isplitr; · iexact HIc48
    iexact Hq48
  imod (close_cell (F := F) m cc (⟨49, by decide⟩ : Fin 140) (by decide)) $$ [Hq49] with Hv49
  · isplitr; · iexact HIc49
    iexact Hq49
  imod (close_cell (F := F) m cc (⟨50, by decide⟩ : Fin 140) (by decide)) $$ [Hq50] with Hv50
  · isplitr; · iexact HIc50
    iexact Hq50
  imod (close_cell (F := F) m cc (⟨51, by decide⟩ : Fin 140) (by decide)) $$ [Hq51] with Hv51
  · isplitr; · iexact HIc51
    iexact Hq51
  imod (close_cell (F := F) m cc (⟨52, by decide⟩ : Fin 140) (by decide)) $$ [Hq52] with Hv52
  · isplitr; · iexact HIc52
    iexact Hq52
  imod (close_cell (F := F) m cc (⟨53, by decide⟩ : Fin 140) (by decide)) $$ [Hq53] with Hv53
  · isplitr; · iexact HIc53
    iexact Hq53
  imod (close_cell (F := F) m cc (⟨54, by decide⟩ : Fin 140) (by decide)) $$ [Hq54] with Hv54
  · isplitr; · iexact HIc54
    iexact Hq54
  imod (close_cell (F := F) m cc (⟨55, by decide⟩ : Fin 140) (by decide)) $$ [Hq55] with Hv55
  · isplitr; · iexact HIc55
    iexact Hq55
  imod (close_cell (F := F) m cc (⟨56, by decide⟩ : Fin 140) (by decide)) $$ [Hq56] with Hv56
  · isplitr; · iexact HIc56
    iexact Hq56
  imod (close_cell (F := F) m cc (⟨57, by decide⟩ : Fin 140) (by decide)) $$ [Hq57] with Hv57
  · isplitr; · iexact HIc57
    iexact Hq57
  imod (close_cell (F := F) m cc (⟨58, by decide⟩ : Fin 140) (by decide)) $$ [Hq58] with Hv58
  · isplitr; · iexact HIc58
    iexact Hq58
  imod (close_cell (F := F) m cc (⟨59, by decide⟩ : Fin 140) (by decide)) $$ [Hq59] with Hv59
  · isplitr; · iexact HIc59
    iexact Hq59
  imod (close_cell (F := F) m cc (⟨60, by decide⟩ : Fin 140) (by decide)) $$ [Hq60] with Hv60
  · isplitr; · iexact HIc60
    iexact Hq60
  imod (close_cell (F := F) m cc (⟨61, by decide⟩ : Fin 140) (by decide)) $$ [Hq61] with Hv61
  · isplitr; · iexact HIc61
    iexact Hq61
  imod (close_cell (F := F) m cc (⟨62, by decide⟩ : Fin 140) (by decide)) $$ [Hq62] with Hv62
  · isplitr; · iexact HIc62
    iexact Hq62
  imod (close_cell (F := F) m cc (⟨63, by decide⟩ : Fin 140) (by decide)) $$ [Hq63] with Hv63
  · isplitr; · iexact HIc63
    iexact Hq63
  imod (close_cell (F := F) m cc (⟨64, by decide⟩ : Fin 140) (by decide)) $$ [Hq64] with Hv64
  · isplitr; · iexact HIc64
    iexact Hq64
  imod (close_cell (F := F) m cc (⟨65, by decide⟩ : Fin 140) (by decide)) $$ [Hq65] with Hv65
  · isplitr; · iexact HIc65
    iexact Hq65
  imod (close_cell (F := F) m cc (⟨66, by decide⟩ : Fin 140) (by decide)) $$ [Hq66] with Hv66
  · isplitr; · iexact HIc66
    iexact Hq66
  imod (close_cell (F := F) m cc (⟨67, by decide⟩ : Fin 140) (by decide)) $$ [Hq67] with Hv67
  · isplitr; · iexact HIc67
    iexact Hq67
  imod (close_cell (F := F) m cc (⟨68, by decide⟩ : Fin 140) (by decide)) $$ [Hq68] with Hv68
  · isplitr; · iexact HIc68
    iexact Hq68
  imod (close_cell (F := F) m cc (⟨69, by decide⟩ : Fin 140) (by decide)) $$ [Hq69] with Hv69
  · isplitr; · iexact HIc69
    iexact Hq69
  imod (close_cell (F := F) m cc (⟨70, by decide⟩ : Fin 140) (by decide)) $$ [Hq70] with Hv70
  · isplitr; · iexact HIc70
    iexact Hq70
  imod (close_cell (F := F) m cc (⟨71, by decide⟩ : Fin 140) (by decide)) $$ [Hq71] with Hv71
  · isplitr; · iexact HIc71
    iexact Hq71
  imod (close_cell (F := F) m cc (⟨72, by decide⟩ : Fin 140) (by decide)) $$ [Hq72] with Hv72
  · isplitr; · iexact HIc72
    iexact Hq72
  imod (close_cell (F := F) m cc (⟨73, by decide⟩ : Fin 140) (by decide)) $$ [Hq73] with Hv73
  · isplitr; · iexact HIc73
    iexact Hq73
  imod (close_cell (F := F) m cc (⟨74, by decide⟩ : Fin 140) (by decide)) $$ [Hq74] with Hv74
  · isplitr; · iexact HIc74
    iexact Hq74
  imod (close_cell (F := F) m cc (⟨75, by decide⟩ : Fin 140) (by decide)) $$ [Hq75] with Hv75
  · isplitr; · iexact HIc75
    iexact Hq75
  imod (close_cell (F := F) m cc (⟨79, by decide⟩ : Fin 140) (by decide)) $$ [Hq79] with Hv79
  · isplitr; · iexact HIc79
    iexact Hq79
  imod (close_cell (F := F) m cc (⟨80, by decide⟩ : Fin 140) (by decide)) $$ [Hq80] with Hv80
  · isplitr; · iexact HIc80
    iexact Hq80
  imod (close_cell (F := F) m cc (⟨81, by decide⟩ : Fin 140) (by decide)) $$ [Hq81] with Hv81
  · isplitr; · iexact HIc81
    iexact Hq81
  imod (close_cell (F := F) m cc (⟨82, by decide⟩ : Fin 140) (by decide)) $$ [Hq82] with Hv82
  · isplitr; · iexact HIc82
    iexact Hq82
  imod (close_cell (F := F) m cc (⟨83, by decide⟩ : Fin 140) (by decide)) $$ [Hq83] with Hv83
  · isplitr; · iexact HIc83
    iexact Hq83
  imod (close_cell (F := F) m cc (⟨87, by decide⟩ : Fin 140) (by decide)) $$ [Hq87] with Hv87
  · isplitr; · iexact HIc87
    iexact Hq87
  imod (close_cell (F := F) m cc (⟨88, by decide⟩ : Fin 140) (by decide)) $$ [Hq88] with Hv88
  · isplitr; · iexact HIc88
    iexact Hq88
  imod (close_cell (F := F) m cc (⟨89, by decide⟩ : Fin 140) (by decide)) $$ [Hq89] with Hv89
  · isplitr; · iexact HIc89
    iexact Hq89
  imod (close_cell (F := F) m cc (⟨90, by decide⟩ : Fin 140) (by decide)) $$ [Hq90] with Hv90
  · isplitr; · iexact HIc90
    iexact Hq90
  imod (close_cell (F := F) m cc (⟨91, by decide⟩ : Fin 140) (by decide)) $$ [Hq91] with Hv91
  · isplitr; · iexact HIc91
    iexact Hq91
  imod (close_cell (F := F) m cc (⟨95, by decide⟩ : Fin 140) (by decide)) $$ [Hq95] with Hv95
  · isplitr; · iexact HIc95
    iexact Hq95
  imod (close_cell (F := F) m cc (⟨96, by decide⟩ : Fin 140) (by decide)) $$ [Hq96] with Hv96
  · isplitr; · iexact HIc96
    iexact Hq96
  imod (close_cell (F := F) m cc (⟨97, by decide⟩ : Fin 140) (by decide)) $$ [Hq97] with Hv97
  · isplitr; · iexact HIc97
    iexact Hq97
  imod (close_cell (F := F) m cc (⟨98, by decide⟩ : Fin 140) (by decide)) $$ [Hq98] with Hv98
  · isplitr; · iexact HIc98
    iexact Hq98
  imod (close_cell (F := F) m cc (⟨99, by decide⟩ : Fin 140) (by decide)) $$ [Hq99] with Hv99
  · isplitr; · iexact HIc99
    iexact Hq99
  imod (close_cell (F := F) m cc (⟨103, by decide⟩ : Fin 140) (by decide)) $$ [Hq103] with Hv103
  · isplitr; · iexact HIc103
    iexact Hq103
  imod (close_cell (F := F) m cc (⟨104, by decide⟩ : Fin 140) (by decide)) $$ [Hq104] with Hv104
  · isplitr; · iexact HIc104
    iexact Hq104
  imod (close_cell (F := F) m cc (⟨105, by decide⟩ : Fin 140) (by decide)) $$ [Hq105] with Hv105
  · isplitr; · iexact HIc105
    iexact Hq105
  imod (close_cell (F := F) m cc (⟨106, by decide⟩ : Fin 140) (by decide)) $$ [Hq106] with Hv106
  · isplitr; · iexact HIc106
    iexact Hq106
  imod (close_cell (F := F) m cc (⟨107, by decide⟩ : Fin 140) (by decide)) $$ [Hq107] with Hv107
  · isplitr; · iexact HIc107
    iexact Hq107
  -- the program is over: hand everything back
  icases HvU with ⟨Hu76, Hu77, Hu78, Hu84, Hu85, Hu86, Hu92, Hu93, Hu94, Hu100, Hu101, Hu102⟩
  ihave HO := (Entails.of_eq (show owes (cc : Thread nD τ) (owedL (List.drop 40 (paysL cc))) _ = owes (cc : Thread nD τ) 0 _ from rfl)) $$ HO
  -- each block of the result holds what its copy wrote: the final contents
  ihave HU00 := (congr (F := F) (outR 0 0) cc fullShare ((outR 0 0).view.writes (Elt F) g00 [⟨Rect.whole S512x256, dev.sl.dma0_34 m⟩]) (out m cc) (fun i hi => glue_out' m cc 0 0 g00 i hi)) $$ HU00
  ihave HU01 := (congr (F := F) (outR 0 1) cc fullShare ((outR 0 1).view.writes (Elt F) g01 [⟨Rect.whole S512x256, dev.sl.dma0_35 m⟩]) (out m cc) (fun i hi => glue_out' m cc 0 1 g01 i hi)) $$ HU01
  ihave HU02 := (congr (F := F) (outR 0 2) cc fullShare ((outR 0 2).view.writes (Elt F) g02 [⟨Rect.whole S512x256, dev.sl.dma0_36 m⟩]) (out m cc) (fun i hi => glue_out' m cc 0 2 g02 i hi)) $$ HU02
  ihave HU03 := (congr (F := F) (outR 0 3) cc fullShare ((outR 0 3).view.writes (Elt F) g03 [⟨Rect.whole S512x256, dev.sl.dma0_37 m⟩]) (out m cc) (fun i hi => glue_out' m cc 0 3 g03 i hi)) $$ HU03
  ihave HU10 := (congr (F := F) (outR 1 0) cc fullShare ((outR 1 0).view.writes (Elt F) g10 [⟨Rect.whole S512x256, dev.sl.dma0_38 m⟩]) (out m cc) (fun i hi => glue_out' m cc 1 0 g10 i hi)) $$ HU10
  ihave HU11 := (congr (F := F) (outR 1 1) cc fullShare ((outR 1 1).view.writes (Elt F) g11 [⟨Rect.whole S512x256, dev.sl.dma0_39 m⟩]) (out m cc) (fun i hi => glue_out' m cc 1 1 g11 i hi)) $$ HU11
  ihave HU12 := (congr (F := F) (outR 1 2) cc fullShare ((outR 1 2).view.writes (Elt F) g12 [⟨Rect.whole S512x256, dev.sl.dma0_40 m⟩]) (out m cc) (fun i hi => glue_out' m cc 1 2 g12 i hi)) $$ HU12
  ihave HU13 := (congr (F := F) (outR 1 3) cc fullShare ((outR 1 3).view.writes (Elt F) g13 [⟨Rect.whole S512x256, dev.sl.dma0_41 m⟩]) (out m cc) (fun i hi => glue_out' m cc 1 3 g13 i hi)) $$ HU13
  ihave HU20 := (congr (F := F) (outR 2 0) cc fullShare ((outR 2 0).view.writes (Elt F) g20 [⟨Rect.whole S512x256, dev.sl.dma0_42 m⟩]) (out m cc) (fun i hi => glue_out' m cc 2 0 g20 i hi)) $$ HU20
  ihave HU21 := (congr (F := F) (outR 2 1) cc fullShare ((outR 2 1).view.writes (Elt F) g21 [⟨Rect.whole S512x256, dev.sl.dma0_43 m⟩]) (out m cc) (fun i hi => glue_out' m cc 2 1 g21 i hi)) $$ HU21
  ihave HU22 := (congr (F := F) (outR 2 2) cc fullShare ((outR 2 2).view.writes (Elt F) g22 [⟨Rect.whole S512x256, dev.sl.dma0_44 m⟩]) (out m cc) (fun i hi => glue_out' m cc 2 2 g22 i hi)) $$ HU22
  ihave HU23 := (congr (F := F) (outR 2 3) cc fullShare ((outR 2 3).view.writes (Elt F) g23 [⟨Rect.whole S512x256, dev.sl.dma0_45 m⟩]) (out m cc) (fun i hi => glue_out' m cc 2 3 g23 i hi)) $$ HU23
  ihave HU30 := (congr (F := F) (outR 3 0) cc fullShare ((outR 3 0).view.writes (Elt F) g30 [⟨Rect.whole S512x256, dev.sl.dma0_22 m⟩]) (out m cc) (fun i hi => glue_out' m cc 3 0 g30 i hi)) $$ HU30
  ihave HU31 := (congr (F := F) (outR 3 1) cc fullShare ((outR 3 1).view.writes (Elt F) g31 [⟨Rect.whole S512x256, dev.sl.dma0_23 m⟩]) (out m cc) (fun i hi => glue_out' m cc 3 1 g31 i hi)) $$ HU31
  ihave HU32 := (congr (F := F) (outR 3 2) cc fullShare ((outR 3 2).view.writes (Elt F) g32 [⟨Rect.whole S512x256, dev.sl.dma0_24 m⟩]) (out m cc) (fun i hi => glue_out' m cc 3 2 g32 i hi)) $$ HU32
  ihave HU33 := (congr (F := F) (outR 3 3) cc fullShare ((outR 3 3).view.writes (Elt F) g33 [⟨Rect.whole S512x256, dev.sl.dma0_25 m⟩]) (out m cc) (fun i hi => glue_out' m cc 3 3 g33 i hi)) $$ HU33
  ihave HU40 := (congr (F := F) (outR 4 0) cc fullShare ((outR 4 0).view.writes (Elt F) g40 [⟨Rect.whole S512x256, dev.sl.dma0_26 m⟩]) (out m cc) (fun i hi => glue_out' m cc 4 0 g40 i hi)) $$ HU40
  ihave HU41 := (congr (F := F) (outR 4 1) cc fullShare ((outR 4 1).view.writes (Elt F) g41 [⟨Rect.whole S512x256, dev.sl.dma0_27 m⟩]) (out m cc) (fun i hi => glue_out' m cc 4 1 g41 i hi)) $$ HU41
  ihave HU42 := (congr (F := F) (outR 4 2) cc fullShare ((outR 4 2).view.writes (Elt F) g42 [⟨Rect.whole S512x256, dev.sl.dma0_28 m⟩]) (out m cc) (fun i hi => glue_out' m cc 4 2 g42 i hi)) $$ HU42
  ihave HU43 := (congr (F := F) (outR 4 3) cc fullShare ((outR 4 3).view.writes (Elt F) g43 [⟨Rect.whole S512x256, dev.sl.dma0_29 m⟩]) (out m cc) (fun i hi => glue_out' m cc 4 3 g43 i hi)) $$ HU43
  ihave HU50 := (congr (F := F) (outR 5 0) cc fullShare ((outR 5 0).view.writes (Elt F) g50 [⟨Rect.whole S512x256, dev.sl.dma0_30 m⟩]) (out m cc) (fun i hi => glue_out' m cc 5 0 g50 i hi)) $$ HU50
  ihave HU51 := (congr (F := F) (outR 5 1) cc fullShare ((outR 5 1).view.writes (Elt F) g51 [⟨Rect.whole S512x256, dev.sl.dma0_31 m⟩]) (out m cc) (fun i hi => glue_out' m cc 5 1 g51 i hi)) $$ HU51
  ihave HU52 := (congr (F := F) (outR 5 2) cc fullShare ((outR 5 2).view.writes (Elt F) g52 [⟨Rect.whole S512x256, dev.sl.dma0_32 m⟩]) (out m cc) (fun i hi => glue_out' m cc 5 2 g52 i hi)) $$ HU52
  ihave HU53 := (congr (F := F) (outR 5 3) cc fullShare ((outR 5 3).view.writes (Elt F) g53 [⟨Rect.whole S512x256, dev.sl.dma0_33 m⟩]) (out m cc) (fun i hi => glue_out' m cc 5 3 g53 i hi)) $$ HU53
  ihave HU60 := (congr (F := F) (outR 6 0) cc fullShare ((outR 6 0).view.writes (Elt F) g60 [⟨Rect.whole S512x256, dev.sl.dma0_46 m⟩]) (out m cc) (fun i hi => glue_out' m cc 6 0 g60 i hi)) $$ HU60
  ihave HU61 := (congr (F := F) (outR 6 1) cc fullShare ((outR 6 1).view.writes (Elt F) g61 [⟨Rect.whole S512x256, dev.sl.dma0_47 m⟩]) (out m cc) (fun i hi => glue_out' m cc 6 1 g61 i hi)) $$ HU61
  ihave HU62 := (congr (F := F) (outR 6 2) cc fullShare ((outR 6 2).view.writes (Elt F) g62 [⟨Rect.whole S512x256, dev.sl.dma0_48 m⟩]) (out m cc) (fun i hi => glue_out' m cc 6 2 g62 i hi)) $$ HU62
  ihave HU63 := (congr (F := F) (outR 6 3) cc fullShare ((outR 6 3).view.writes (Elt F) g63 [⟨Rect.whole S512x256, dev.sl.dma0_49 m⟩]) (out m cc) (fun i hi => glue_out' m cc 6 3 g63 i hi)) $$ HU63
  ihave HU70 := (congr (F := F) (outR 7 0) cc fullShare ((outR 7 0).view.writes (Elt F) g70 [⟨Rect.whole S512x256, dev.sl.dma0_50 m⟩]) (out m cc) (fun i hi => glue_out' m cc 7 0 g70 i hi)) $$ HU70
  ihave HU71 := (congr (F := F) (outR 7 1) cc fullShare ((outR 7 1).view.writes (Elt F) g71 [⟨Rect.whole S512x256, dev.sl.dma0_51 m⟩]) (out m cc) (fun i hi => glue_out' m cc 7 1 g71 i hi)) $$ HU71
  ihave HU72 := (congr (F := F) (outR 7 2) cc fullShare ((outR 7 2).view.writes (Elt F) g72 [⟨Rect.whole S512x256, dev.sl.dma0_52 m⟩]) (out m cc) (fun i hi => glue_out' m cc 7 2 g72 i hi)) $$ HU72
  ihave HU73 := (congr (F := F) (outR 7 3) cc fullShare ((outR 7 3).view.writes (Elt F) g73 [⟨Rect.whole S512x256, dev.sl.dma0_53 m⟩]) (out m cc) (fun i hi => glue_out' m cc 7 3 g73 i hi)) $$ HU73
  sl_step
  iapply Hk
  unfold bodyPost
  isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7 Hz0 Hz1 Hz2 HzG3 HzFl3 HzFrb3 HzG4 HzFl4 HzFrb4 HzG5 HzFl5 HzFrb5 HzG6 HzFl6 HzFrb6 HzG7 HzFl7 HzFrb7 Hy0 Hy1 Hy2 HyG3 HyFlb3 HyFr3 HyG4 HyFlb4 HyFr4 HyG5 HyFlb5 HyFr5 HyG6 HyFlb6 HyFr6 HyG7 HyFlb7 HyFr7 Hdq0 Hdq1 Hdq2 Hd3 Hd4 Hd5 Hd6 Hd7]
  · iapply (Entails.of_eq (junk_whole (F := F) cc cc0_scratch0).symm)
    iapply (r4_back (F := F) cc)
    isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7]
    · isplitl [HoZb0 HoYb0 HoK0]
      · iapply (own_back (F := F) cc 0 (r4 m cc))
        isplitl [HoZb0]
        · iexact HoZb0
        isplitl [HoYb0]
        · iexact HoYb0
        iexact HoK0
      isplitl [HoZb1 HoYb1 HoK1]
      · iapply (own_back (F := F) cc 1 (r4 m cc))
        isplitl [HoZb1]
        · iexact HoZb1
        isplitl [HoYb1]
        · iexact HoYb1
        iexact HoK1
      isplitl [HoZb2 HoYb2 HoK2]
      · iapply (own_back (F := F) cc 2 (r4 m cc))
        isplitl [HoZb2]
        · iexact HoZb2
        isplitl [HoYb2]
        · iexact HoYb2
        iexact HoK2
      isplitl [HoZb3 HoYb3 HoK3]
      · iapply (own_back (F := F) cc 3 (r4 m cc))
        isplitl [HoZb3]
        · iexact HoZb3
        isplitl [HoYb3]
        · iexact HoYb3
        iexact HoK3
      isplitl [HoZb4 HoYb4 HoK4]
      · iapply (own_back (F := F) cc 4 (r4 m cc))
        isplitl [HoZb4]
        · iexact HoZb4
        isplitl [HoYb4]
        · iexact HoYb4
        iexact HoK4
      isplitl [HoZb5 HoYb5 HoK5]
      · iapply (own_back (F := F) cc 5 (r4 m cc))
        isplitl [HoZb5]
        · iexact HoZb5
        isplitl [HoYb5]
        · iexact HoYb5
        iexact HoK5
      isplitl [HoZb6 HoYb6 HoK6]
      · iapply (own_back (F := F) cc 6 (r4 m cc))
        isplitl [HoZb6]
        · iexact HoZb6
        isplitl [HoYb6]
        · iexact HoYb6
        iexact HoK6
      iapply (own_back (F := F) cc 7 (r4 m cc))
      isplitl [HoZb7]
      · iexact HoZb7
      isplitl [HoYb7]
      · iexact HoYb7
      iexact HoK7
    isplitl [Hz0 Hz1 Hz2 HzG3 HzFl3 HzFrb3 HzG4 HzFl4 HzFrb4 HzG5 HzFl5 HzFrb5 HzG6 HzFl6 HzFrb6 HzG7 HzFl7 HzFrb7]
    · isplitl [Hz0]
      · iexists _; iexact Hz0
      isplitl [Hz1]
      · iexists _; iexact Hz1
      isplitl [Hz2]
      · iexists _; iexact Hz2
      isplitl [HzG3 HzFl3 HzFrb3]
      · iapply (nbr_back (F := F) cc (zqF cc) 3 (r4 m cc))
        isplitl [HzG3]
        · iexact HzG3
        isplitl [HzFl3]
        · iexact HzFl3
        iexact HzFrb3
      isplitl [HzG4 HzFl4 HzFrb4]
      · iapply (nbr_back (F := F) cc (zqF cc) 4 (r4 m cc))
        isplitl [HzG4]
        · iexact HzG4
        isplitl [HzFl4]
        · iexact HzFl4
        iexact HzFrb4
      isplitl [HzG5 HzFl5 HzFrb5]
      · iapply (nbr_back (F := F) cc (zqF cc) 5 (r4 m cc))
        isplitl [HzG5]
        · iexact HzG5
        isplitl [HzFl5]
        · iexact HzFl5
        iexact HzFrb5
      isplitl [HzG6 HzFl6 HzFrb6]
      · iapply (nbr_back (F := F) cc (zqF cc) 6 (r4 m cc))
        isplitl [HzG6]
        · iexact HzG6
        isplitl [HzFl6]
        · iexact HzFl6
        iexact HzFrb6
      iapply (nbr_back (F := F) cc (zqF cc) 7 (r4 m cc))
      isplitl [HzG7]
      · iexact HzG7
      isplitl [HzFl7]
      · iexact HzFl7
      iexact HzFrb7
    isplitl [Hy0 Hy1 Hy2 HyG3 HyFlb3 HyFr3 HyG4 HyFlb4 HyFr4 HyG5 HyFlb5 HyFr5 HyG6 HyFlb6 HyFr6 HyG7 HyFlb7 HyFr7]
    · isplitl [Hy0]
      · iexists _; iexact Hy0
      isplitl [Hy1]
      · iexists _; iexact Hy1
      isplitl [Hy2]
      · iexists _; iexact Hy2
      isplitl [HyG3 HyFlb3 HyFr3]
      · iapply (nbr_back (F := F) cc (yqF cc) 3 (r4 m cc))
        isplitl [HyG3]
        · iexact HyG3
        isplitl [HyFlb3]
        · iexact HyFlb3
        iexact HyFr3
      isplitl [HyG4 HyFlb4 HyFr4]
      · iapply (nbr_back (F := F) cc (yqF cc) 4 (r4 m cc))
        isplitl [HyG4]
        · iexact HyG4
        isplitl [HyFlb4]
        · iexact HyFlb4
        iexact HyFr4
      isplitl [HyG5 HyFlb5 HyFr5]
      · iapply (nbr_back (F := F) cc (yqF cc) 5 (r4 m cc))
        isplitl [HyG5]
        · iexact HyG5
        isplitl [HyFlb5]
        · iexact HyFlb5
        iexact HyFr5
      isplitl [HyG6 HyFlb6 HyFr6]
      · iapply (nbr_back (F := F) cc (yqF cc) 6 (r4 m cc))
        isplitl [HyG6]
        · iexact HyG6
        isplitl [HyFlb6]
        · iexact HyFlb6
        iexact HyFr6
      iapply (nbr_back (F := F) cc (yqF cc) 7 (r4 m cc))
      isplitl [HyG7]
      · iexact HyG7
      isplitl [HyFlb7]
      · iexact HyFlb7
      iexact HyFr7
    isplitl [Hdq0 Hdq1 Hdq2]
    · isplitl [Hdq0]
      · iexists _; iexact Hdq0
      isplitl [Hdq1]
      · iexists _; iexact Hdq1
      iexists _; iexact Hdq2
    isplitl [Hd3]
    · iapply (dq_halves (F := F) cc 3 (r4 m cc))
      iexact Hd3
    isplitl [Hd4]
    · iapply (dq_halves (F := F) cc 4 (r4 m cc))
      iexact Hd4
    isplitl [Hd5]
    · iapply (dq_halves (F := F) cc 5 (r4 m cc))
      iexact Hd5
    isplitl [Hd6]
    · iapply (dq_halves (F := F) cc 6 (r4 m cc))
      iexact Hd6
    iapply (dq_halves (F := F) cc 7 (r4 m cc))
    iexact Hd7
  isplitl [HBs0 HBs1 HBs2 HBs3 HBs4 HBs5 HBs6 HBs7]
  · iapply (Entails.of_eq (junk_whole (F := F) cc cc0_scratch1).symm)
    iapply (sb_rows_join (F := F) cc)
    isplitl [HBs0]
    · iexists _; iexact HBs0
    isplitl [HBs1]
    · iexists _; iexact HBs1
    isplitl [HBs2]
    · iexists _; iexact HBs2
    isplitl [HBs3]
    · iexists _; iexact HBs3
    isplitl [HBs4]
    · iexists _; iexact HBs4
    isplitl [HBs5]
    · iexists _; iexact HBs5
    isplitl [HBs6]
    · iexists _; iexact HBs6
    iexists _; iexact HBs7
  isplitl [Hrb0 Hrb1 Hrb2 Hrb3 Hrb4 Hrb5 Hrb6 Hrb7]
  · iapply (Entails.of_eq (junk_whole (F := F) cc cc0_scratch2).symm)
    iapply (rb_rows_join (F := F) cc)
    isplitl [Hrb0]
    · iexists _; iexact Hrb0
    isplitl [Hrb1]
    · iexists _; iexact Hrb1
    isplitl [Hrb2]
    · iexists _; iexact Hrb2
    isplitl [Hrb3]
    · iexists _; iexact Hrb3
    isplitl [Hrb4]
    · iexists _; iexact Hrb4
    isplitl [Hrb5]
    · iexists _; iexact Hrb5
    isplitl [Hrb6]
    · iexists _; iexact Hrb6
    iexists _; iexact Hrb7
  isplitl [HB2s0 HB2s1 HB2s2]
  · iapply (Entails.of_eq (junk_whole (F := F) cc cc0_scratch3).symm)
    iapply (sb2_rows_join (F := F) cc)
    isplitl [HB2s0]
    · iexists _; iexact HB2s0
    isplitl [HB2s1]
    · iexists _; iexact HB2s1
    iexists _; iexact HB2s2
  isplitl [Hrb20 Hrb21 Hrb22]
  · iapply (Entails.of_eq (junk_whole (F := F) cc cc0_scratch4).symm)
    iapply (rb2_rows_join (F := F) cc)
    isplitl [Hrb20]
    · iexists _; iexact Hrb20
    isplitl [Hrb21]
    · iexists _; iexact Hrb21
    iexists _; iexact Hrb22
  isplitl [HP0 HP1 HP2 HP3 HP4 HP5 HP6 HP7]
  · iapply (Entails.of_eq (junk_whole (F := F) cc cc0_scratch5).symm)
    iapply (stP_rows_join (F := F) cc)
    isplitl [HP0]
    · iexists _; iexact HP0
    isplitl [HP1]
    · iexists _; iexact HP1
    isplitl [HP2]
    · iexists _; iexact HP2
    isplitl [HP3]
    · iexists _; iexact HP3
    isplitl [HP4]
    · iexists _; iexact HP4
    isplitl [HP5]
    · iexists _; iexact HP5
    isplitl [HP6]
    · iexists _; iexact HP6
    iexists _; iexact HP7
  isplitl [HL0 HL1 HL2 HL3 HL4 HL5 HL6 HL7]
  · iapply (Entails.of_eq (junk_whole (F := F) cc cc0_scratch6).symm)
    iapply (stL_rows_join (F := F) cc)
    isplitl [HL0]
    · iexists _; iexact HL0
    isplitl [HL1]
    · iexists _; iexact HL1
    isplitl [HL2]
    · iexists _; iexact HL2
    isplitl [HL3]
    · iexists _; iexact HL3
    isplitl [HL4]
    · iexists _; iexact HL4
    isplitl [HL5]
    · iexists _; iexact HL5
    isplitl [HL6]
    · iexists _; iexact HL6
    iexists _; iexact HL7
  isplitl [HP20 HP21 HP22]
  · iapply (Entails.of_eq (junk_whole (F := F) cc cc0_scratch7).symm)
    iapply (stP2_rows_join (F := F) cc)
    isplitl [HP20]
    · iexists _; iexact HP20
    isplitl [HP21]
    · iexists _; iexact HP21
    iexists _; iexact HP22
  isplitl [HL20 HL21 HL22]
  · iapply (Entails.of_eq (junk_whole (F := F) cc cc0_scratch8).symm)
    iapply (stL2_rows_join (F := F) cc)
    isplitl [HL20]
    · iexists _; iexact HL20
    isplitl [HL21]
    · iexists _; iexact HL21
    iexists _; iexact HL22
  isplitl [HX]
  · iexact HX
  isplitl [HU00 HU01 HU02 HU03 HU10 HU11 HU12 HU13 HU20 HU21 HU22 HU23 HU30 HU31 HU32 HU33 HU40 HU41 HU42 HU43 HU50 HU51 HU52 HU53 HU60 HU61 HU62 HU63 HU70 HU71 HU72 HU73]
  · iapply (out_join (F := F) cc (out m cc))
    isplitl [HU00]
    · iexact HU00
    isplitl [HU01]
    · iexact HU01
    isplitl [HU02]
    · iexact HU02
    isplitl [HU03]
    · iexact HU03
    isplitl [HU10]
    · iexact HU10
    isplitl [HU11]
    · iexact HU11
    isplitl [HU12]
    · iexact HU12
    isplitl [HU13]
    · iexact HU13
    isplitl [HU20]
    · iexact HU20
    isplitl [HU21]
    · iexact HU21
    isplitl [HU22]
    · iexact HU22
    isplitl [HU23]
    · iexact HU23
    isplitl [HU30]
    · iexact HU30
    isplitl [HU31]
    · iexact HU31
    isplitl [HU32]
    · iexact HU32
    isplitl [HU33]
    · iexact HU33
    isplitl [HU40]
    · iexact HU40
    isplitl [HU41]
    · iexact HU41
    isplitl [HU42]
    · iexact HU42
    isplitl [HU43]
    · iexact HU43
    isplitl [HU50]
    · iexact HU50
    isplitl [HU51]
    · iexact HU51
    isplitl [HU52]
    · iexact HU52
    isplitl [HU53]
    · iexact HU53
    isplitl [HU60]
    · iexact HU60
    isplitl [HU61]
    · iexact HU61
    isplitl [HU62]
    · iexact HU62
    isplitl [HU63]
    · iexact HU63
    isplitl [HU70]
    · iexact HU70
    isplitl [HU71]
    · iexact HU71
    isplitl [HU72]
    · iexact HU72
    iexact HU73
  isplitl [Hv0 Hv1 Hv2 Hv3 Hv4 Hv5 Hv6 Hv7 Hv8 Hv9 Hv10 Hv11 Hv12 Hv13 Hv14 Hv15 Hv16 Hv17 Hv18 Hv19 Hv20 Hv21 Hv22 Hv23 Hv24 Hv25 Hv26 Hv27 Hv28 Hv29 Hv30 Hv31 Hv32 Hv33 Hv34 Hv35 Hv36 Hv37 Hv38 Hv39 Hv40 Hv41 Hv42 Hv43 Hv44 Hv45 Hv46 Hv47 Hv48 Hv49 Hv50 Hv51 Hv52 Hv53 Hv54 Hv55 Hv56 Hv57 Hv58 Hv59 Hv60 Hv61 Hv62 Hv63 Hv64 Hv65 Hv66 Hv67 Hv68 Hv69 Hv70 Hv71 Hv72 Hv73 Hv74 Hv75 Hu76 Hu77 Hu78 Hv79 Hv80 Hv81 Hv82 Hv83 Hu84 Hu85 Hu86 Hv87 Hv88 Hv89 Hv90 Hv91 Hu92 Hu93 Hu94 Hv95 Hv96 Hv97 Hv98 Hv99 Hu100 Hu101 Hu102 Hv103 Hv104 Hv105 Hv106 Hv107 Hw0a Hw0b Hw0c Hw0d Hw1a Hw1b Hw1c Hw1d Hw2a Hw2b Hw2c Hw2d Hw3a Hw3b Hw3c Hw3d Hw4a Hw4b Hw4c Hw4d Hw5a Hw5b Hw5c Hw5d Hw6a Hw6b Hw6c Hw6d Hw7a Hw7b Hw7c Hw7d]
  · iapply (Entails.of_eq (show (iprop(semVal (cellAt cc (⟨0, Nat.le_of_ble_eq_true rfl⟩ : Fin 140)) 0 ∗ semVal (cellAt cc (⟨1, Nat.le_of_ble_eq_true rfl⟩ : Fin 140)) 0 ∗ semVal (cellAt cc (⟨2, Nat.le_of_ble_eq_true rfl⟩ : Fin 140)) 0 ∗ semVal (cellAt cc (⟨3, Nat.le_of_ble_eq_true rfl⟩ : Fin 140)) 0 ∗ semVal (cellAt cc (⟨4, Nat.le_of_ble_eq_true rfl⟩ : Fin 140)) 0 ∗ semVal (cellAt cc (⟨5, Nat.le_of_ble_eq_true rfl⟩ : Fin 140)) 0 ∗ semVal (cellAt cc (⟨6, Nat.le_of_ble_eq_true rfl⟩ : Fin 140)) 0 ∗ semVal (cellAt cc (⟨7, Nat.le_of_ble_eq_true rfl⟩ : Fin 140)) 0 ∗ semVal (cellAt cc (⟨8, Nat.le_of_ble_eq_true rfl⟩ : Fin 140)) 0 ∗ semVal (cellAt cc (⟨9, Nat.le_of_ble_eq_true rfl⟩ : Fin 140)) 0 ∗ semVal (cellAt cc (⟨10, Nat.le_of_ble_eq_true rfl⟩ : Fin 140)) 0 ∗ semVal (cellAt cc (⟨11, Nat.le_of_ble_eq_true rfl⟩ : Fin 140)) 0 ∗ semVal (cellAt cc (⟨12, Nat.le_of_ble_eq_true rfl⟩ : Fin 140)) 0 ∗ semVal (cellAt cc (⟨13, Nat.le_of_ble_eq_true rfl⟩ : Fin 140)) 0 ∗ semVal (cellAt cc (⟨14, Nat.le_of_ble_eq_true rfl⟩ : Fin 140)) 0 ∗ semVal (cellAt cc (⟨15, Nat.le_of_ble_eq_true rfl⟩ : Fin 140)) 0 ∗ semVal (cellAt cc (⟨16, Nat.le_of_ble_eq_true rfl⟩ : Fin 140)) 0 ∗ semVal (cellAt cc (⟨17, Nat.le_of_ble_eq_true rfl⟩ : Fin 140)) 0 ∗ semVal (cellAt cc (⟨18, Nat.le_of_ble_eq_true rfl⟩ : Fin 140)) 0 ∗ semVal (cellAt cc (⟨19, Nat.le_of_ble_eq_true rfl⟩ : Fin 140)) 0 ∗ semVal (cellAt cc (⟨20, Nat.le_of_ble_eq_true rfl⟩ : Fin 140)) 0 ∗ semVal (cellAt cc (⟨21, Nat.le_of_ble_eq_true rfl⟩ : Fin 140)) 0 ∗ semVal (cellAt cc (⟨22, Nat.le_of_ble_eq_true rfl⟩ : Fin 140)) 0 ∗ semVal (cellAt cc (⟨23, Nat.le_of_ble_eq_true rfl⟩ : Fin 140)) 0 ∗ semVal (cellAt cc (⟨24, Nat.le_of_ble_eq_true rfl⟩ : Fin 140)) 0 ∗ semVal (cellAt cc (⟨25, Nat.le_of_ble_eq_true rfl⟩ : Fin 140)) 0 ∗ semVal (cellAt cc (⟨26, Nat.le_of_ble_eq_true rfl⟩ : Fin 140)) 0 ∗ semVal (cellAt cc (⟨27, Nat.le_of_ble_eq_true rfl⟩ : Fin 140)) 0 ∗ semVal (cellAt cc (⟨28, Nat.le_of_ble_eq_true rfl⟩ : Fin 140)) 0 ∗ semVal (cellAt cc (⟨29, Nat.le_of_ble_eq_true rfl⟩ : Fin 140)) 0 ∗ semVal (cellAt cc (⟨30, Nat.le_of_ble_eq_true rfl⟩ : Fin 140)) 0 ∗ semVal (cellAt cc (⟨31, Nat.le_of_ble_eq_true rfl⟩ : Fin 140)) 0 ∗ semVal (cellAt cc (⟨32, Nat.le_of_ble_eq_true rfl⟩ : Fin 140)) 0 ∗ semVal (cellAt cc (⟨33, Nat.le_of_ble_eq_true rfl⟩ : Fin 140)) 0 ∗ semVal (cellAt cc (⟨34, Nat.le_of_ble_eq_true rfl⟩ : Fin 140)) 0 ∗ semVal (cellAt cc (⟨35, Nat.le_of_ble_eq_true rfl⟩ : Fin 140)) 0 ∗ semVal (cellAt cc (⟨36, Nat.le_of_ble_eq_true rfl⟩ : Fin 140)) 0 ∗ semVal (cellAt cc (⟨37, Nat.le_of_ble_eq_true rfl⟩ : Fin 140)) 0 ∗ semVal (cellAt cc (⟨38, Nat.le_of_ble_eq_true rfl⟩ : Fin 140)) 0 ∗ semVal (cellAt cc (⟨39, Nat.le_of_ble_eq_true rfl⟩ : Fin 140)) 0 ∗ semVal (cellAt cc (⟨40, Nat.le_of_ble_eq_true rfl⟩ : Fin 140)) 0 ∗ semVal (cellAt cc (⟨41, Nat.le_of_ble_eq_true rfl⟩ : Fin 140)) 0 ∗ semVal (cellAt cc (⟨42, Nat.le_of_ble_eq_true rfl⟩ : Fin 140)) 0 ∗ semVal (cellAt cc (⟨43, Nat.le_of_ble_eq_true rfl⟩ : Fin 140)) 0 ∗ semVal (cellAt cc (⟨44, Nat.le_of_ble_eq_true rfl⟩ : Fin 140)) 0 ∗ semVal (cellAt cc (⟨45, Nat.le_of_ble_eq_true rfl⟩ : Fin 140)) 0 ∗ semVal (cellAt cc (⟨46, Nat.le_of_ble_eq_true rfl⟩ : Fin 140)) 0 ∗ semVal (cellAt cc (⟨47, Nat.le_of_ble_eq_true rfl⟩ : Fin 140)) 0 ∗ semVal (cellAt cc (⟨48, Nat.le_of_ble_eq_true rfl⟩ : Fin 140)) 0 ∗ semVal (cellAt cc (⟨49, Nat.le_of_ble_eq_true rfl⟩ : Fin 140)) 0 ∗ semVal (cellAt cc (⟨50, Nat.le_of_ble_eq_true rfl⟩ : Fin 140)) 0 ∗ semVal (cellAt cc (⟨51, Nat.le_of_ble_eq_true rfl⟩ : Fin 140)) 0 ∗ semVal (cellAt cc (⟨52, Nat.le_of_ble_eq_true rfl⟩ : Fin 140)) 0 ∗ semVal (cellAt cc (⟨53, Nat.le_of_ble_eq_true rfl⟩ : Fin 140)) 0 ∗ semVal (cellAt cc (⟨54, Nat.le_of_ble_eq_true rfl⟩ : Fin 140)) 0 ∗ semVal (cellAt cc (⟨55, Nat.le_of_ble_eq_true rfl⟩ : Fin 140)) 0 ∗ semVal (cellAt cc (⟨56, Nat.le_of_ble_eq_true rfl⟩ : Fin 140)) 0 ∗ semVal (cellAt cc (⟨57, Nat.le_of_ble_eq_true rfl⟩ : Fin 140)) 0 ∗ semVal (cellAt cc (⟨58, Nat.le_of_ble_eq_true rfl⟩ : Fin 140)) 0 ∗ semVal (cellAt cc (⟨59, Nat.le_of_ble_eq_true rfl⟩ : Fin 140)) 0 ∗ semVal (cellAt cc (⟨60, Nat.le_of_ble_eq_true rfl⟩ : Fin 140)) 0 ∗ semVal (cellAt cc (⟨61, Nat.le_of_ble_eq_true rfl⟩ : Fin 140)) 0 ∗ semVal (cellAt cc (⟨62, Nat.le_of_ble_eq_true rfl⟩ : Fin 140)) 0 ∗ semVal (cellAt cc (⟨63, Nat.le_of_ble_eq_true rfl⟩ : Fin 140)) 0 ∗ semVal (cellAt cc (⟨64, Nat.le_of_ble_eq_true rfl⟩ : Fin 140)) 0 ∗ semVal (cellAt cc (⟨65, Nat.le_of_ble_eq_true rfl⟩ : Fin 140)) 0 ∗ semVal (cellAt cc (⟨66, Nat.le_of_ble_eq_true rfl⟩ : Fin 140)) 0 ∗ semVal (cellAt cc (⟨67, Nat.le_of_ble_eq_true rfl⟩ : Fin 140)) 0 ∗ semVal (cellAt cc (⟨68, Nat.le_of_ble_eq_true rfl⟩ : Fin 140)) 0 ∗ semVal (cellAt cc (⟨69, Nat.le_of_ble_eq_true rfl⟩ : Fin 140)) 0 ∗ semVal (cellAt cc (⟨70, Nat.le_of_ble_eq_true rfl⟩ : Fin 140)) 0 ∗ semVal (cellAt cc (⟨71, Nat.le_of_ble_eq_true rfl⟩ : Fin 140)) 0 ∗ semVal (cellAt cc (⟨72, Nat.le_of_ble_eq_true rfl⟩ : Fin 140)) 0 ∗ semVal (cellAt cc (⟨73, Nat.le_of_ble_eq_true rfl⟩ : Fin 140)) 0 ∗ semVal (cellAt cc (⟨74, Nat.le_of_ble_eq_true rfl⟩ : Fin 140)) 0 ∗ semVal (cellAt cc (⟨75, Nat.le_of_ble_eq_true rfl⟩ : Fin 140)) 0 ∗ semVal (cellAt cc (⟨76, Nat.le_of_ble_eq_true rfl⟩ : Fin 140)) 0 ∗ semVal (cellAt cc (⟨77, Nat.le_of_ble_eq_true rfl⟩ : Fin 140)) 0 ∗ semVal (cellAt cc (⟨78, Nat.le_of_ble_eq_true rfl⟩ : Fin 140)) 0 ∗ semVal (cellAt cc (⟨79, Nat.le_of_ble_eq_true rfl⟩ : Fin 140)) 0 ∗ semVal (cellAt cc (⟨80, Nat.le_of_ble_eq_true rfl⟩ : Fin 140)) 0 ∗ semVal (cellAt cc (⟨81, Nat.le_of_ble_eq_true rfl⟩ : Fin 140)) 0 ∗ semVal (cellAt cc (⟨82, Nat.le_of_ble_eq_true rfl⟩ : Fin 140)) 0 ∗ semVal (cellAt cc (⟨83, Nat.le_of_ble_eq_true rfl⟩ : Fin 140)) 0 ∗ semVal (cellAt cc (⟨84, Nat.le_of_ble_eq_true rfl⟩ : Fin 140)) 0 ∗ semVal (cellAt cc (⟨85, Nat.le_of_ble_eq_true rfl⟩ : Fin 140)) 0 ∗ semVal (cellAt cc (⟨86, Nat.le_of_ble_eq_true rfl⟩ : Fin 140)) 0 ∗ semVal (cellAt cc (⟨87, Nat.le_of_ble_eq_true rfl⟩ : Fin 140)) 0 ∗ semVal (cellAt cc (⟨88, Nat.le_of_ble_eq_true rfl⟩ : Fin 140)) 0 ∗ semVal (cellAt cc (⟨89, Nat.le_of_ble_eq_true rfl⟩ : Fin 140)) 0 ∗ semVal (cellAt cc (⟨90, Nat.le_of_ble_eq_true rfl⟩ : Fin 140)) 0 ∗ semVal (cellAt cc (⟨91, Nat.le_of_ble_eq_true rfl⟩ : Fin 140)) 0 ∗ semVal (cellAt cc (⟨92, Nat.le_of_ble_eq_true rfl⟩ : Fin 140)) 0 ∗ semVal (cellAt cc (⟨93, Nat.le_of_ble_eq_true rfl⟩ : Fin 140)) 0 ∗ semVal (cellAt cc (⟨94, Nat.le_of_ble_eq_true rfl⟩ : Fin 140)) 0 ∗ semVal (cellAt cc (⟨95, Nat.le_of_ble_eq_true rfl⟩ : Fin 140)) 0 ∗ semVal (cellAt cc (⟨96, Nat.le_of_ble_eq_true rfl⟩ : Fin 140)) 0 ∗ semVal (cellAt cc (⟨97, Nat.le_of_ble_eq_true rfl⟩ : Fin 140)) 0 ∗ semVal (cellAt cc (⟨98, Nat.le_of_ble_eq_true rfl⟩ : Fin 140)) 0 ∗ semVal (cellAt cc (⟨99, Nat.le_of_ble_eq_true rfl⟩ : Fin 140)) 0 ∗ semVal (cellAt cc (⟨100, Nat.le_of_ble_eq_true rfl⟩ : Fin 140)) 0 ∗ semVal (cellAt cc (⟨101, Nat.le_of_ble_eq_true rfl⟩ : Fin 140)) 0 ∗ semVal (cellAt cc (⟨102, Nat.le_of_ble_eq_true rfl⟩ : Fin 140)) 0 ∗ semVal (cellAt cc (⟨103, Nat.le_of_ble_eq_true rfl⟩ : Fin 140)) 0 ∗ semVal (cellAt cc (⟨104, Nat.le_of_ble_eq_true rfl⟩ : Fin 140)) 0 ∗ semVal (cellAt cc (⟨105, Nat.le_of_ble_eq_true rfl⟩ : Fin 140)) 0 ∗ semVal (cellAt cc (⟨106, Nat.le_of_ble_eq_true rfl⟩ : Fin 140)) 0 ∗ semVal (cellAt cc (⟨107, Nat.le_of_ble_eq_true rfl⟩ : Fin 140)) 0 ∗ semVal (cellAt cc (⟨108, Nat.le_of_ble_eq_true rfl⟩ : Fin 140)) 0 ∗ semVal (cellAt cc (⟨109, Nat.le_of_ble_eq_true rfl⟩ : Fin 140)) 0 ∗ semVal (cellAt cc (⟨110, Nat.le_of_ble_eq_true rfl⟩ : Fin 140)) 0 ∗ semVal (cellAt cc (⟨111, Nat.le_of_ble_eq_true rfl⟩ : Fin 140)) 0 ∗ semVal (cellAt cc (⟨112, Nat.le_of_ble_eq_true rfl⟩ : Fin 140)) 0 ∗ semVal (cellAt cc (⟨113, Nat.le_of_ble_eq_true rfl⟩ : Fin 140)) 0 ∗ semVal (cellAt cc (⟨114, Nat.le_of_ble_eq_true rfl⟩ : Fin 140)) 0 ∗ semVal (cellAt cc (⟨115, Nat.le_of_ble_eq_true rfl⟩ : Fin 140)) 0 ∗ semVal (cellAt cc (⟨116, Nat.le_of_ble_eq_true rfl⟩ : Fin 140)) 0 ∗ semVal (cellAt cc (⟨117, Nat.le_of_ble_eq_true rfl⟩ : Fin 140)) 0 ∗ semVal (cellAt cc (⟨118, Nat.le_of_ble_eq_true rfl⟩ : Fin 140)) 0 ∗ semVal (cellAt cc (⟨119, Nat.le_of_ble_eq_true rfl⟩ : Fin 140)) 0 ∗ semVal (cellAt cc (⟨120, Nat.le_of_ble_eq_true rfl⟩ : Fin 140)) 0 ∗ semVal (cellAt cc (⟨121, Nat.le_of_ble_eq_true rfl⟩ : Fin 140)) 0 ∗ semVal (cellAt cc (⟨122, Nat.le_of_ble_eq_true rfl⟩ : Fin 140)) 0 ∗ semVal (cellAt cc (⟨123, Nat.le_of_ble_eq_true rfl⟩ : Fin 140)) 0 ∗ semVal (cellAt cc (⟨124, Nat.le_of_ble_eq_true rfl⟩ : Fin 140)) 0 ∗ semVal (cellAt cc (⟨125, Nat.le_of_ble_eq_true rfl⟩ : Fin 140)) 0 ∗ semVal (cellAt cc (⟨126, Nat.le_of_ble_eq_true rfl⟩ : Fin 140)) 0 ∗ semVal (cellAt cc (⟨127, Nat.le_of_ble_eq_true rfl⟩ : Fin 140)) 0 ∗ semVal (cellAt cc (⟨128, Nat.le_of_ble_eq_true rfl⟩ : Fin 140)) 0 ∗ semVal (cellAt cc (⟨129, Nat.le_of_ble_eq_true rfl⟩ : Fin 140)) 0 ∗ semVal (cellAt cc (⟨130, Nat.le_of_ble_eq_true rfl⟩ : Fin 140)) 0 ∗ semVal (cellAt cc (⟨131, Nat.le_of_ble_eq_true rfl⟩ : Fin 140)) 0 ∗ semVal (cellAt cc (⟨132, Nat.le_of_ble_eq_true rfl⟩ : Fin 140)) 0 ∗ semVal (cellAt cc (⟨133, Nat.le_of_ble_eq_true rfl⟩ : Fin 140)) 0 ∗ semVal (cellAt cc (⟨134, Nat.le_of_ble_eq_true rfl⟩ : Fin 140)) 0 ∗ semVal (cellAt cc (⟨135, Nat.le_of_ble_eq_true rfl⟩ : Fin 140)) 0 ∗ semVal (cellAt cc (⟨136, Nat.le_of_ble_eq_true rfl⟩ : Fin 140)) 0 ∗ semVal (cellAt cc (⟨137, Nat.le_of_ble_eq_true rfl⟩ : Fin 140)) 0 ∗ semVal (cellAt cc (⟨138, Nat.le_of_ble_eq_true rfl⟩ : Fin 140)) 0 ∗ semVal (cellAt cc (⟨139, Nat.le_of_ble_eq_true rfl⟩ : Fin 140)) 0) : sProp 𝕄) = (bigSepL allJ fun j => semVal (cellAt cc j) 0) from rfl))
    isplitl [Hv0]
    · iexact Hv0
    isplitl [Hv1]
    · iexact Hv1
    isplitl [Hv2]
    · iexact Hv2
    isplitl [Hv3]
    · iexact Hv3
    isplitl [Hv4]
    · iexact Hv4
    isplitl [Hv5]
    · iexact Hv5
    isplitl [Hv6]
    · iexact Hv6
    isplitl [Hv7]
    · iexact Hv7
    isplitl [Hv8]
    · iexact Hv8
    isplitl [Hv9]
    · iexact Hv9
    isplitl [Hv10]
    · iexact Hv10
    isplitl [Hv11]
    · iexact Hv11
    isplitl [Hv12]
    · iexact Hv12
    isplitl [Hv13]
    · iexact Hv13
    isplitl [Hv14]
    · iexact Hv14
    isplitl [Hv15]
    · iexact Hv15
    isplitl [Hv16]
    · iexact Hv16
    isplitl [Hv17]
    · iexact Hv17
    isplitl [Hv18]
    · iexact Hv18
    isplitl [Hv19]
    · iexact Hv19
    isplitl [Hv20]
    · iexact Hv20
    isplitl [Hv21]
    · iexact Hv21
    isplitl [Hv22]
    · iexact Hv22
    isplitl [Hv23]
    · iexact Hv23
    isplitl [Hv24]
    · iexact Hv24
    isplitl [Hv25]
    · iexact Hv25
    isplitl [Hv26]
    · iexact Hv26
    isplitl [Hv27]
    · iexact Hv27
    isplitl [Hv28]
    · iexact Hv28
    isplitl [Hv29]
    · iexact Hv29
    isplitl [Hv30]
    · iexact Hv30
    isplitl [Hv31]
    · iexact Hv31
    isplitl [Hv32]
    · iexact Hv32
    isplitl [Hv33]
    · iexact Hv33
    isplitl [Hv34]
    · iexact Hv34
    isplitl [Hv35]
    · iexact Hv35
    isplitl [Hv36]
    · iexact Hv36
    isplitl [Hv37]
    · iexact Hv37
    isplitl [Hv38]
    · iexact Hv38
    isplitl [Hv39]
    · iexact Hv39
    isplitl [Hv40]
    · iexact Hv40
    isplitl [Hv41]
    · iexact Hv41
    isplitl [Hv42]
    · iexact Hv42
    isplitl [Hv43]
    · iexact Hv43
    isplitl [Hv44]
    · iexact Hv44
    isplitl [Hv45]
    · iexact Hv45
    isplitl [Hv46]
    · iexact Hv46
    isplitl [Hv47]
    · iexact Hv47
    isplitl [Hv48]
    · iexact Hv48
    isplitl [Hv49]
    · iexact Hv49
    isplitl [Hv50]
    · iexact Hv50
    isplitl [Hv51]
    · iexact Hv51
    isplitl [Hv52]
    · iexact Hv52
    isplitl [Hv53]
    · iexact Hv53
    isplitl [Hv54]
    · iexact Hv54
    isplitl [Hv55]
    · iexact Hv55
    isplitl [Hv56]
    · iexact Hv56
    isplitl [Hv57]
    · iexact Hv57
    isplitl [Hv58]
    · iexact Hv58
    isplitl [Hv59]
    · iexact Hv59
    isplitl [Hv60]
    · iexact Hv60
    isplitl [Hv61]
    · iexact Hv61
    isplitl [Hv62]
    · iexact Hv62
    isplitl [Hv63]
    · iexact Hv63
    isplitl [Hv64]
    · iexact Hv64
    isplitl [Hv65]
    · iexact Hv65
    isplitl [Hv66]
    · iexact Hv66
    isplitl [Hv67]
    · iexact Hv67
    isplitl [Hv68]
    · iexact Hv68
    isplitl [Hv69]
    · iexact Hv69
    isplitl [Hv70]
    · iexact Hv70
    isplitl [Hv71]
    · iexact Hv71
    isplitl [Hv72]
    · iexact Hv72
    isplitl [Hv73]
    · iexact Hv73
    isplitl [Hv74]
    · iexact Hv74
    isplitl [Hv75]
    · iexact Hv75
    isplitl [Hu76]
    · iexact Hu76
    isplitl [Hu77]
    · iexact Hu77
    isplitl [Hu78]
    · iexact Hu78
    isplitl [Hv79]
    · iexact Hv79
    isplitl [Hv80]
    · iexact Hv80
    isplitl [Hv81]
    · iexact Hv81
    isplitl [Hv82]
    · iexact Hv82
    isplitl [Hv83]
    · iexact Hv83
    isplitl [Hu84]
    · iexact Hu84
    isplitl [Hu85]
    · iexact Hu85
    isplitl [Hu86]
    · iexact Hu86
    isplitl [Hv87]
    · iexact Hv87
    isplitl [Hv88]
    · iexact Hv88
    isplitl [Hv89]
    · iexact Hv89
    isplitl [Hv90]
    · iexact Hv90
    isplitl [Hv91]
    · iexact Hv91
    isplitl [Hu92]
    · iexact Hu92
    isplitl [Hu93]
    · iexact Hu93
    isplitl [Hu94]
    · iexact Hu94
    isplitl [Hv95]
    · iexact Hv95
    isplitl [Hv96]
    · iexact Hv96
    isplitl [Hv97]
    · iexact Hv97
    isplitl [Hv98]
    · iexact Hv98
    isplitl [Hv99]
    · iexact Hv99
    isplitl [Hu100]
    · iexact Hu100
    isplitl [Hu101]
    · iexact Hu101
    isplitl [Hu102]
    · iexact Hu102
    isplitl [Hv103]
    · iexact Hv103
    isplitl [Hv104]
    · iexact Hv104
    isplitl [Hv105]
    · iexact Hv105
    isplitl [Hv106]
    · iexact Hv106
    isplitl [Hv107]
    · iexact Hv107
    isplitl [Hw0a]
    · iexact Hw0a
    isplitl [Hw0b]
    · iexact Hw0b
    isplitl [Hw0c]
    · iexact Hw0c
    isplitl [Hw0d]
    · iexact Hw0d
    isplitl [Hw1a]
    · iexact Hw1a
    isplitl [Hw1b]
    · iexact Hw1b
    isplitl [Hw1c]
    · iexact Hw1c
    isplitl [Hw1d]
    · iexact Hw1d
    isplitl [Hw2a]
    · iexact Hw2a
    isplitl [Hw2b]
    · iexact Hw2b
    isplitl [Hw2c]
    · iexact Hw2c
    isplitl [Hw2d]
    · iexact Hw2d
    isplitl [Hw3a]
    · iexact Hw3a
    isplitl [Hw3b]
    · iexact Hw3b
    isplitl [Hw3c]
    · iexact Hw3c
    isplitl [Hw3d]
    · iexact Hw3d
    isplitl [Hw4a]
    · iexact Hw4a
    isplitl [Hw4b]
    · iexact Hw4b
    isplitl [Hw4c]
    · iexact Hw4c
    isplitl [Hw4d]
    · iexact Hw4d
    isplitl [Hw5a]
    · iexact Hw5a
    isplitl [Hw5b]
    · iexact Hw5b
    isplitl [Hw5c]
    · iexact Hw5c
    isplitl [Hw5d]
    · iexact Hw5d
    isplitl [Hw6a]
    · iexact Hw6a
    isplitl [Hw6b]
    · iexact Hw6b
    isplitl [Hw6c]
    · iexact Hw6c
    isplitl [Hw6d]
    · iexact Hw6d
    isplitl [Hw7a]
    · iexact Hw7a
    isplitl [Hw7b]
    · iexact Hw7b
    isplitl [Hw7c]
    · iexact Hw7c
    iexact Hw7d
  iexists _; iexact HO

end Cert.Kernel.RS.D5

end
-- ==== Proof.K.Body6.lean ====
import proofs.«901022_g7700000000001023_dist_rs_v7x_xyz2x2x2_x_m4096_n1024_bf16_1_alg».proof.Proof.K.BodyAux
import proofs.«901022_g7700000000001023_dist_rs_v7x_xyz2x2x2_x_m4096_n1024_bf16_1_alg».proof.Proof.K.BodyPre
import proofs.«901022_g7700000000001023_dist_rs_v7x_xyz2x2x2_x_m4096_n1024_bf16_1_alg».proof.Proof.K.OutRules

/-! The body of the kernel on device 6 of the mesh, from its precondition (BodyPre) to its postcondition (bodyPost).

    The program is straight-line code of 4045 statements. Its local steps — the 54 copies between the input, the staging
    buffers, the four-quarter buffer and the result, their waits, the loads and the stores — are run by the library's symbolic
    executor on hypotheses that hold each 512-row chunk through the slice the program itself names. Its remote steps are
    taken by the rounds library's rules, one application each: three barrier signals and the wait for the three
    neighbours; 37 copies to a neighbour, each lending the source chunk (at a share, where the chunk is also read by another
    copy) and landing the chunk's final contents; the waits on the 37 receive cells, which hand back the landed chunks; the
    final waits on the 37 send cells, which hand back what was lent. Whenever a chunk has been written (by a landing copy or
    by a store) it is restated as "holds its final contents" (Spec), which is what the next copy's payload asks for.
    A wait is allowed because whatever the device still owes at that point lies above the awaited cell (Owed): decided on the
    list of payments not yet made. At the end every cell has had its one round and is closed, and the pieces of every
    buffer are put back. -/

set_option maxRecDepth 8000

noncomputable section

namespace Cert.Kernel.RS.D6

open Cert.Kernel Cert.Kernel.Gen Cert.Kernel.RS
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local notation "cc" => (Fin.mk 6 (Nat.le_of_ble_eq_true rfl) : Dev nD)

set_option maxHeartbeats 1600000 in
theorem dev (m : (ℓ : Loc nD τ sig) → Buf (Elt F) ℓ) (K : GSem nD τ sig → ℕ) (W : Waits sig Unit) (Kt : PUnit → sProp 𝕄) :
    iprop(bodyPre m K cc W ∗ (bodyPost m cc -∗ Kt ⟨⟩))
      ⊢ wp frame (wpE (defs₀ (F := F)) 𝒱₀ (cc : Thread nD τ) none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25) Kt := by
  unfold bodyPre O₀
  iintro ⟨⟨HIt, HIw, HRt, #Hlev, HO, Hcr, HpR, HpS, Htk, HX, Hout, HS0, HS1, HS2, HS3, HS4, HS5, HS6, HS7, HS8, HvI, HvO, HvU⟩, Hk⟩
  rw [cc0_body_eq_skeleton]; unfold cc0_body_skel
  -- the four-quarter buffer in the pieces that travel
  ihave H0 := (Entails.of_eq (junk_whole (F := F) cc cc0_scratch0)) $$ HS0
  icases H0 with ⟨%f0, H0⟩
  ihave H4 := (r4_entry (F := F) cc f0) $$ H0
  icases H4 with ⟨Hown, HgZ, HgY, Hdg, HhZ, HhY⟩
  sl_exec

  icases Htk with ⟨Htb, Htk⟩
  icases HIt with ⟨#HIbpx, HIt⟩
  icases HRt with ⟨#HRbpx, HRt⟩
  iapply (sig_bar m cc _ (px cc) (dev1_eq cc) 0 (by decide) (owedL (List.drop 1 (paysL cc))) rfl) $$ [HO Htb HS2 HS4]
  · isplitr; · iexact HIbpx
    isplitl [HO]; · iexact HO
    isplitl [Htb]; · iexact Htb
    isplitl [HS2 HS4]
    · iapply (Entails.of_eq ((barPay_zero (F := F) (px cc)).trans (by rw [px_px])).symm)
      unfold giveX
      isplitl [HS2]; · iexact HS2
      iexact HS4
    · iexact HRbpx
  iintro HO
  sl_exec

  icases Htk with ⟨Htb, Htk⟩
  icases HIt with ⟨#HIbpz, HIt⟩
  icases HRt with ⟨#HRbpz, HRt⟩
  iapply (sig_bar m cc _ (pz cc) (dev2_eq cc) 2 (by decide) (owedL (List.drop 2 (paysL cc))) rfl) $$ [HO Htb HgZ HhZ]
  · isplitr; · iexact HIbpz
    isplitl [HO]; · iexact HO
    isplitl [Htb]; · iexact Htb
    isplitl [HgZ HhZ]
    · iapply (Entails.of_eq ((barPay_two (F := F) (pz cc)).trans (by rw [pz_pz])).symm)
      isplitl [HgZ]; · iexact HgZ
      iexact HhZ
    · iexact HRbpz
  iintro HO
  sl_exec

  icases Htk with ⟨Htb, Htk⟩
  icases HIt with ⟨#HIbpy, HIt⟩
  icases HRt with ⟨#HRbpy, HRt⟩
  iapply (sig_bar m cc _ (py cc) (dev3_eq cc) 1 (by decide) (owedL (List.drop 3 (paysL cc))) rfl) $$ [HO Htb HgY HhY]
  · isplitr; · iexact HIbpy
    isplitl [HO]; · iexact HO
    isplitl [Htb]; · iexact Htb
    isplitl [HgY HhY]
    · iapply (Entails.of_eq ((barPay_one (F := F) (py cc)).trans (by rw [py_py])).symm)
      isplitl [HgY]; · iexact HgY
      iexact HhY
    · iexact HRbpy
  iintro HO
  sl_exec
  -- the wait for the three neighbours
  icases Hcr with ⟨Hcb, Hcr⟩
  icases HpR with ⟨Hpb, HpR⟩
  icases HIw with ⟨#HIb, HIw⟩
  ihave Hmw := (mayWait_list (F := F) cc (.reg barS) (List.drop 3 (paysL cc)) (by decide)) $$ Hlev
  iapply (wait_bar m cc (by decide)) $$ [Hcb HO Hmw Hpb]
  · isplitr; · iexact HIb
    isplitl [Hcb]; · iexact Hcb
    isplitl [HO]; · iexact HO
    isplitl [Hmw]; · iexact Hmw
    iexact Hpb
  iintro ⟨HO, Hpb, -, Hgx, Hgy, Hgz⟩
  -- what they handed over: the x-neighbour's landing buffers chunk by chunk, the y- and z-neighbours' quarter and halves
  ihave Hgx := (Entails.of_eq (barPay_zero (F := F) cc)) $$ Hgx
  ihave Hgx := (giveX_rows (F := F) (px cc)) $$ Hgx
  icases Hgx with ⟨Hrbp, Hrb2p⟩
  ihave Hgy := (Entails.of_eq (barPay_one (F := F) cc)) $$ Hgy
  icases Hgy with ⟨HqY, HhYp⟩
  ihave Hgz := (Entails.of_eq (barPay_two (F := F) cc)) $$ Hgz
  icases Hgz with ⟨HqZ, HhZp⟩
  -- this device's staging buffers and send buffers chunk by chunk
  ihave H5 := (Entails.of_eq (junk_whole (F := F) cc cc0_scratch5)) $$ HS5
  icases H5 with ⟨%f5, H5⟩
  ihave H5 := (Entails.of_eq (stP_rows (F := F) cc fullShare f5)) $$ H5
  icases H5 with ⟨HP0, HP1, HP2, HP3, HP4, HP5, HP6, HP7⟩
  ihave H6 := (Entails.of_eq (junk_whole (F := F) cc cc0_scratch6)) $$ HS6
  icases H6 with ⟨%f6, H6⟩
  ihave H6 := (Entails.of_eq (stL_rows (F := F) cc fullShare f6)) $$ H6
  icases H6 with ⟨HL0, HL1, HL2, HL3, HL4, HL5, HL6, HL7⟩
  ihave H7 := (Entails.of_eq (junk_whole (F := F) cc cc0_scratch7)) $$ HS7
  icases H7 with ⟨%f7, H7⟩
  ihave H7 := (Entails.of_eq (stP2_rows (F := F) cc fullShare f7)) $$ H7
  icases H7 with ⟨HP20, HP21, HP22⟩
  ihave H8 := (Entails.of_eq (junk_whole (F := F) cc cc0_scratch8)) $$ HS8
  icases H8 with ⟨%f8, H8⟩
  ihave H8 := (Entails.of_eq (stL2_rows (F := F) cc fullShare f8)) $$ H8
  icases H8 with ⟨HL20, HL21, HL22⟩
  ihave H1 := (Entails.of_eq (junk_whole (F := F) cc cc0_scratch1)) $$ HS1
  icases H1 with ⟨%f1, H1⟩
  ihave H1 := (Entails.of_eq (sb_rows (F := F) cc fullShare f1)) $$ H1
  icases H1 with ⟨HB0, HB1, HB2, HB3, HB4, HB5, HB6, HB7⟩
  ihave H3 := (Entails.of_eq (junk_whole (F := F) cc cc0_scratch3)) $$ HS3
  icases H3 with ⟨%f3, H3⟩
  ihave H3 := (Entails.of_eq (sb2_rows (F := F) cc fullShare f3)) $$ H3
  icases H3 with ⟨HB20, HB21, HB22⟩
  -- the counters of the 22 copies into the staging buffers
  icases HvI with ⟨Hv0, Hv8, Hv1, Hv9, Hv2, Hv10, Hv3, Hv11, Hv4, Hv12, Hv5, Hv13, Hv6, Hv14, Hv7, Hv15, Hv16, Hv19, Hv17, Hv20, Hv18, Hv21⟩
  sl_exec
  -- chunk 0 across x: wait for its copy into the staging buffer, round it into the send buffer, send it
  have hled3 : ∀ (s : DmaSem sig), lvJ s.val = 0 → ((levAts LL lvv : sProp 𝕄) ⊢ MayWait (cc : Thread nD τ) (.dma s) () (owedL (List.drop 3 (paysL cc)))) :=
    fun s hs => mayWait_local (F := F) cc s hs _ (by decide)
  sl_exec
  clear hled3
  ihave HB0 := (congr (F := F) (sbR 0) cc fullShare (dev.sl.HB0_w1 m f1) (sb m cc) (fun i hi => glue_sb m cc 0 _ (k0_off1_inb cc) (k0_off1_eq cc) f1 i hi)) $$ HB0
  -- the copy
  icases Htk with ⟨Hts, Htr, Htk⟩
  icases HIt with ⟨#HIc22, #HIr, HIt⟩
  icases HRt with ⟨#HRs, #HRr, HRt⟩
  icases Hrbp with ⟨⟨%fd, Hd⟩, Hrbp⟩
  iapply (send_x m cc _ (dev4_eq cc) 0 fd (owedL (List.drop 4 (paysL cc))) rfl _) $$ [HB0 Hd HO Hts Htr]
  · isplitr; · iexact HIc22
    isplitr; · iexact HIr
    isplitl [HB0]; · iexact HB0
    isplitl [Hd]; · iexact Hd
    isplitl [HO]; · iexact HO
    isplitl [Hts]; · iexact Hts
    isplitr; · iexact HRs
    isplitl [Htr]; · iexact Htr
    iexact HRr
  iintro ⟨Hcxs0, HO⟩
  iclear HIr HRs HRr
  -- chunk 1 across x: wait for its copy into the staging buffer, round it into the send buffer, send it
  have hled4 : ∀ (s : DmaSem sig), lvJ s.val = 0 → ((levAts LL lvv : sProp 𝕄) ⊢ MayWait (cc : Thread nD τ) (.dma s) () (owedL (List.drop 4 (paysL cc)))) :=
    fun s hs => mayWait_local (F := F) cc s hs _ (by decide)
  sl_exec
  clear hled4
  ihave HB1 := (congr (F := F) (sbR 1) cc fullShare (dev.sl.HB1_w1 m f1) (sb m cc) (fun i hi => glue_sb m cc 1 _ (k0_off3_inb cc) (k0_off3_eq cc) f1 i hi)) $$ HB1
  -- the copy
  icases Htk with ⟨Hts, Htr, Htk⟩
  icases HIt with ⟨#HIc23, #HIr, HIt⟩
  icases HRt with ⟨#HRs, #HRr, HRt⟩
  icases Hrbp with ⟨⟨%fd, Hd⟩, Hrbp⟩
  iapply (send_x m cc _ (dev5_eq cc) 1 fd (owedL (List.drop 5 (paysL cc))) rfl _) $$ [HB1 Hd HO Hts Htr]
  · isplitr; · iexact HIc23
    isplitr; · iexact HIr
    isplitl [HB1]; · iexact HB1
    isplitl [Hd]; · iexact Hd
    isplitl [HO]; · iexact HO
    isplitl [Hts]; · iexact Hts
    isplitr; · iexact HRs
    isplitl [Htr]; · iexact Htr
    iexact HRr
  iintro ⟨Hcxs1, HO⟩
  iclear HIr HRs HRr
  -- chunk 2 across x: wait for its copy into the staging buffer, round it into the send buffer, send it
  have hled5 : ∀ (s : DmaSem sig), lvJ s.val = 0 → ((levAts LL lvv : sProp 𝕄) ⊢ MayWait (cc : Thread nD τ) (.dma s) () (owedL (List.drop 5 (paysL cc)))) :=
    fun s hs => mayWait_local (F := F) cc s hs _ (by decide)
  sl_exec
  clear hled5
  ihave HB2 := (congr (F := F) (sbR 2) cc fullShare (dev.sl.HB2_w1 m f1) (sb m cc) (fun i hi => glue_sb m cc 2 _ (k0_off5_inb cc) (k0_off5_eq cc) f1 i hi)) $$ HB2
  -- the copy
  icases Htk with ⟨Hts, Htr, Htk⟩
  icases HIt with ⟨#HIc24, #HIr, HIt⟩
  icases HRt with ⟨#HRs, #HRr, HRt⟩
  icases Hrbp with ⟨⟨%fd, Hd⟩, Hrbp⟩
  iapply (send_x m cc _ (dev6_eq cc) 2 fd (owedL (List.drop 6 (paysL cc))) rfl _) $$ [HB2 Hd HO Hts Htr]
  · isplitr; · iexact HIc24
    isplitr; · iexact HIr
    isplitl [HB2]; · iexact HB2
    isplitl [Hd]; · iexact Hd
    isplitl [HO]; · iexact HO
    isplitl [Hts]; · iexact Hts
    isplitr; · iexact HRs
    isplitl [Htr]; · iexact Htr
    iexact HRr
  iintro ⟨Hcxs2, HO⟩
  iclear HIr HRs HRr
  -- chunk 3 across x: wait for its copy into the staging buffer, round it into the send buffer, send it
  have hled6 : ∀ (s : DmaSem sig), lvJ s.val = 0 → ((levAts LL lvv : sProp 𝕄) ⊢ MayWait (cc : Thread nD τ) (.dma s) () (owedL (List.drop 6 (paysL cc)))) :=
    fun s hs => mayWait_local (F := F) cc s hs _ (by decide)
  sl_exec
  clear hled6
  ihave HB3 := (congr (F := F) (sbR 3) cc fullShare (dev.sl.HB3_w1 m f1) (sb m cc) (fun i hi => glue_sb m cc 3 _ (k0_off7_inb cc) (k0_off7_eq cc) f1 i hi)) $$ HB3
  -- the copy
  icases Htk with ⟨Hts, Htr, Htk⟩
  icases HIt with ⟨#HIc25, #HIr, HIt⟩
  icases HRt with ⟨#HRs, #HRr, HRt⟩
  icases Hrbp with ⟨⟨%fd, Hd⟩, Hrbp⟩
  iapply (send_x m cc _ (dev7_eq cc) 3 fd (owedL (List.drop 7 (paysL cc))) rfl _) $$ [HB3 Hd HO Hts Htr]
  · isplitr; · iexact HIc25
    isplitr; · iexact HIr
    isplitl [HB3]; · iexact HB3
    isplitl [Hd]; · iexact Hd
    isplitl [HO]; · iexact HO
    isplitl [Hts]; · iexact Hts
    isplitr; · iexact HRs
    isplitl [Htr]; · iexact Htr
    iexact HRr
  iintro ⟨Hcxs3, HO⟩
  iclear HIr HRs HRr
  -- chunk 4 across x: wait for its copy into the staging buffer, round it into the send buffer, send it
  have hled7 : ∀ (s : DmaSem sig), lvJ s.val = 0 → ((levAts LL lvv : sProp 𝕄) ⊢ MayWait (cc : Thread nD τ) (.dma s) () (owedL (List.drop 7 (paysL cc)))) :=
    fun s hs => mayWait_local (F := F) cc s hs _ (by decide)
  sl_exec
  clear hled7
  ihave HB4 := (congr (F := F) (sbR 4) cc fullShare (dev.sl.HB4_w1 m f1) (sb m cc) (fun i hi => glue_sb m cc 4 _ (k0_off9_inb cc) (k0_off9_eq cc) f1 i hi)) $$ HB4
  -- the copy
  icases Htk with ⟨Hts, Htr, Htk⟩
  icases HIt with ⟨#HIc26, #HIr, HIt⟩
  icases HRt with ⟨#HRs, #HRr, HRt⟩
  icases Hrbp with ⟨⟨%fd, Hd⟩, Hrbp⟩
  iapply (send_x m cc _ (dev8_eq cc) 4 fd (owedL (List.drop 8 (paysL cc))) rfl _) $$ [HB4 Hd HO Hts Htr]
  · isplitr; · iexact HIc26
    isplitr; · iexact HIr
    isplitl [HB4]; · iexact HB4
    isplitl [Hd]; · iexact Hd
    isplitl [HO]; · iexact HO
    isplitl [Hts]; · iexact Hts
    isplitr; · iexact HRs
    isplitl [Htr]; · iexact Htr
    iexact HRr
  iintro ⟨Hcxs4, HO⟩
  iclear HIr HRs HRr
  -- chunk 5 across x: wait for its copy into the staging buffer, round it into the send buffer, send it
  have hled8 : ∀ (s : DmaSem sig), lvJ s.val = 0 → ((levAts LL lvv : sProp 𝕄) ⊢ MayWait (cc : Thread nD τ) (.dma s) () (owedL (List.drop 8 (paysL cc)))) :=
    fun s hs => mayWait_local (F := F) cc s hs _ (by decide)
  sl_exec
  clear hled8
  ihave HB5 := (congr (F := F) (sbR 5) cc fullShare (dev.sl.HB5_w1 m f1) (sb m cc) (fun i hi => glue_sb m cc 5 _ (k0_off11_inb cc) (k0_off11_eq cc) f1 i hi)) $$ HB5
  -- the copy
  icases Htk with ⟨Hts, Htr, Htk⟩
  icases HIt with ⟨#HIc27, #HIr, HIt⟩
  icases HRt with ⟨#HRs, #HRr, HRt⟩
  icases Hrbp with ⟨⟨%fd, Hd⟩, Hrbp⟩
  iapply (send_x m cc _ (dev9_eq cc) 5 fd (owedL (List.drop 9 (paysL cc))) rfl _) $$ [HB5 Hd HO Hts Htr]
  · isplitr; · iexact HIc27
    isplitr; · iexact HIr
    isplitl [HB5]; · iexact HB5
    isplitl [Hd]; · iexact Hd
    isplitl [HO]; · iexact HO
    isplitl [Hts]; · iexact Hts
    isplitr; · iexact HRs
    isplitl [Htr]; · iexact Htr
    iexact HRr
  iintro ⟨Hcxs5, HO⟩
  iclear HIr HRs HRr
  -- chunk 6 across x: wait for its copy into the staging buffer, round it into the send buffer, send it
  have hled9 : ∀ (s : DmaSem sig), lvJ s.val = 0 → ((levAts LL lvv : sProp 𝕄) ⊢ MayWait (cc : Thread nD τ) (.dma s) () (owedL (List.drop 9 (paysL cc)))) :=
    fun s hs => mayWait_local (F := F) cc s hs _ (by decide)
  sl_exec
  clear hled9
  ihave HB6 := (congr (F := F) (sbR 6) cc fullShare (dev.sl.HB6_w1 m f1) (sb m cc) (fun i hi => glue_sb m cc 6 _ (k0_off13_inb cc) (k0_off13_eq cc) f1 i hi)) $$ HB6
  -- the copy
  icases Htk with ⟨Hts, Htr, Htk⟩
  icases HIt with ⟨#HIc28, #HIr, HIt⟩
  icases HRt with ⟨#HRs, #HRr, HRt⟩
  icases Hrbp with ⟨⟨%fd, Hd⟩, Hrbp⟩
  iapply (send_x m cc _ (dev10_eq cc) 6 fd (owedL (List.drop 10 (paysL cc))) rfl _) $$ [HB6 Hd HO Hts Htr]
  · isplitr; · iexact HIc28
    isplitr; · iexact HIr
    isplitl [HB6]; · iexact HB6
    isplitl [Hd]; · iexact Hd
    isplitl [HO]; · iexact HO
    isplitl [Hts]; · iexact Hts
    isplitr; · iexact HRs
    isplitl [Htr]; · iexact Htr
    iexact HRr
  iintro ⟨Hcxs6, HO⟩
  iclear HIr HRs HRr
  -- chunk 7 across x: wait for its copy into the staging buffer, round it into the send buffer, send it
  have hled10 : ∀ (s : DmaSem sig), lvJ s.val = 0 → ((levAts LL lvv : sProp 𝕄) ⊢ MayWait (cc : Thread nD τ) (.dma s) () (owedL (List.drop 10 (paysL cc)))) :=
    fun s hs => mayWait_local (F := F) cc s hs _ (by decide)
  sl_exec
  clear hled10
  ihave HB7 := (congr (F := F) (sbR 7) cc fullShare (dev.sl.HB7_w1 m f1) (sb m cc) (fun i hi => glue_sb m cc 7 _ (k0_off15_inb cc) (k0_off15_eq cc) f1 i hi)) $$ HB7
  -- the copy
  icases Htk with ⟨Hts, Htr, Htk⟩
  icases HIt with ⟨#HIc29, #HIr, HIt⟩
  icases HRt with ⟨#HRs, #HRr, HRt⟩
  icases Hrbp with ⟨%fd, Hd⟩
  iapply (send_x m cc _ (dev11_eq cc) 7 fd (owedL (List.drop 11 (paysL cc))) rfl _) $$ [HB7 Hd HO Hts Htr]
  · isplitr; · iexact HIc29
    isplitr; · iexact HIr
    isplitl [HB7]; · iexact HB7
    isplitl [Hd]; · iexact Hd
    isplitl [HO]; · iexact HO
    isplitl [Hts]; · iexact Hts
    isplitr; · iexact HRs
    isplitl [Htr]; · iexact Htr
    iexact HRr
  iintro ⟨Hcxs7, HO⟩
  iclear HIr HRs HRr
  -- chunk 0 across x (the diagonal quarter's): wait for its copy into the staging buffer, round it into the send buffer, send it
  have hled11 : ∀ (s : DmaSem sig), lvJ s.val = 0 → ((levAts LL lvv : sProp 𝕄) ⊢ MayWait (cc : Thread nD τ) (.dma s) () (owedL (List.drop 11 (paysL cc)))) :=
    fun s hs => mayWait_local (F := F) cc s hs _ (by decide)
  sl_exec
  clear hled11
  ihave HB20 := (congr (F := F) (sb2R 0) cc fullShare (dev.sl.HB20_w1 m f3) (sb2 m cc) (fun i hi => glue_sb2 m cc 0 _ (k0_off17_inb cc) (k0_off17_eq cc) f3 i hi)) $$ HB20
  -- the copy
  icases Htk with ⟨Hts, Htr, Htk⟩
  icases HIt with ⟨#HIc38, #HIr, HIt⟩
  icases HRt with ⟨#HRs, #HRr, HRt⟩
  icases Hrb2p with ⟨⟨%fd, Hd⟩, Hrb2p⟩
  iapply (send_x2 m cc _ (dev12_eq cc) 0 fd (owedL (List.drop 12 (paysL cc))) rfl _) $$ [HB20 Hd HO Hts Htr]
  · isplitr; · iexact HIc38
    isplitr; · iexact HIr
    isplitl [HB20]; · iexact HB20
    isplitl [Hd]; · iexact Hd
    isplitl [HO]; · iexact HO
    isplitl [Hts]; · iexact Hts
    isplitr; · iexact HRs
    isplitl [Htr]; · iexact Htr
    iexact HRr
  iintro ⟨Hcds0, HO⟩
  iclear HIr HRs HRr
  -- chunk 1 across x (the diagonal quarter's): wait for its copy into the staging buffer, round it into the send buffer, send it
  have hled12 : ∀ (s : DmaSem sig), lvJ s.val = 0 → ((levAts LL lvv : sProp 𝕄) ⊢ MayWait (cc : Thread nD τ) (.dma s) () (owedL (List.drop 12 (paysL cc)))) :=
    fun s hs => mayWait_local (F := F) cc s hs _ (by decide)
  sl_exec
  clear hled12
  ihave HB21 := (congr (F := F) (sb2R 1) cc fullShare (dev.sl.HB21_w1 m f3) (sb2 m cc) (fun i hi => glue_sb2 m cc 1 _ (k0_off19_inb cc) (k0_off19_eq cc) f3 i hi)) $$ HB21
  -- the copy
  icases Htk with ⟨Hts, Htr, Htk⟩
  icases HIt with ⟨#HIc39, #HIr, HIt⟩
  icases HRt with ⟨#HRs, #HRr, HRt⟩
  icases Hrb2p with ⟨⟨%fd, Hd⟩, Hrb2p⟩
  iapply (send_x2 m cc _ (dev13_eq cc) 1 fd (owedL (List.drop 13 (paysL cc))) rfl _) $$ [HB21 Hd HO Hts Htr]
  · isplitr; · iexact HIc39
    isplitr; · iexact HIr
    isplitl [HB21]; · iexact HB21
    isplitl [Hd]; · iexact Hd
    isplitl [HO]; · iexact HO
    isplitl [Hts]; · iexact Hts
    isplitr; · iexact HRs
    isplitl [Htr]; · iexact Htr
    iexact HRr
  iintro ⟨Hcds1, HO⟩
  iclear HIr HRs HRr
  -- chunk 2 across x (the diagonal quarter's): wait for its copy into the staging buffer, round it into the send buffer, send it
  have hled13 : ∀ (s : DmaSem sig), lvJ s.val = 0 → ((levAts LL lvv : sProp 𝕄) ⊢ MayWait (cc : Thread nD τ) (.dma s) () (owedL (List.drop 13 (paysL cc)))) :=
    fun s hs => mayWait_local (F := F) cc s hs _ (by decide)
  sl_exec
  clear hled13
  ihave HB22 := (congr (F := F) (sb2R 2) cc fullShare (dev.sl.HB22_w1 m f3) (sb2 m cc) (fun i hi => glue_sb2 m cc 2 _ (k0_off21_inb cc) (k0_off21_eq cc) f3 i hi)) $$ HB22
  -- the copy
  icases Htk with ⟨Hts, Htr, Htk⟩
  icases HIt with ⟨#HIc40, #HIr, HIt⟩
  icases HRt with ⟨#HRs, #HRr, HRt⟩
  icases Hrb2p with ⟨%fd, Hd⟩
  iapply (send_x2 m cc _ (dev14_eq cc) 2 fd (owedL (List.drop 14 (paysL cc))) rfl _) $$ [HB22 Hd HO Hts Htr]
  · isplitr; · iexact HIc40
    isplitr; · iexact HIr
    isplitl [HB22]; · iexact HB22
    isplitl [Hd]; · iexact Hd
    isplitl [HO]; · iexact HO
    isplitl [Hts]; · iexact Hts
    isplitr; · iexact HRs
    isplitl [Htr]; · iexact Htr
    iexact HRr
  iintro ⟨Hcds2, HO⟩
  iclear HIr HRs HRr
  sl_exec
  -- the result array in its 32 blocks
  ihave Hout := (out_split_junk (F := F) cc) $$ Hout
  icases Hout with ⟨⟨%g00, HU00⟩, ⟨%g01, HU01⟩, ⟨%g02, HU02⟩, ⟨%g03, HU03⟩, ⟨%g10, HU10⟩, ⟨%g11, HU11⟩, ⟨%g12, HU12⟩, ⟨%g13, HU13⟩, ⟨%g20, HU20⟩, ⟨%g21, HU21⟩, ⟨%g22, HU22⟩, ⟨%g23, HU23⟩, ⟨%g30, HU30⟩, ⟨%g31, HU31⟩, ⟨%g32, HU32⟩, ⟨%g33, HU33⟩, ⟨%g40, HU40⟩, ⟨%g41, HU41⟩, ⟨%g42, HU42⟩, ⟨%g43, HU43⟩, ⟨%g50, HU50⟩, ⟨%g51, HU51⟩, ⟨%g52, HU52⟩, ⟨%g53, HU53⟩, ⟨%g60, HU60⟩, ⟨%g61, HU61⟩, ⟨%g62, HU62⟩, ⟨%g63, HU63⟩, ⟨%g70, HU70⟩, ⟨%g71, HU71⟩, ⟨%g72, HU72⟩, ⟨%g73, HU73⟩⟩
  ihave HqZ := (Entails.of_eq (giveQ_eq (F := F) (pz cc) (zqF (pz cc)))) $$ HqZ
  ihave HqY := (Entails.of_eq (giveQ_eq (F := F) (py cc) (yqF (py cc)))) $$ HqY
  ihave HhZp := (Entails.of_eq (giveH_eq (F := F) (pz cc) 0)) $$ HhZp
  ihave HhYp := (Entails.of_eq (giveH_eq (F := F) (py cc) 1)) $$ HhYp
  -- step 0 of the main loop: the x-neighbour's chunk 0 has landed
  icases Hcr with ⟨Hc, Hcr⟩
  icases HpR with ⟨Hp, HpR⟩
  icases HIw with ⟨#HIc30, HIw⟩
  ihave Hmw := (mayWait_list (F := F) cc (dsem (⟨30, by decide⟩ : Fin 140)) (List.drop 14 (paysL cc)) (by decide)) $$ Hlev
  iapply (wait_a1_at m cc _ 0 rfl) $$ [Hc HO Hmw Hp]
  · isplitr; · iexact HIc30
    isplitl [Hc]; · iexact Hc
    isplitl [HO]; · iexact HO
    isplitl [Hmw]; · iexact Hmw
    iexact Hp
  iintro ⟨HO, Hq30, -, Hrb0⟩
  icases Hown with ⟨Ho0, Hown⟩
  have hled14 : ∀ (s : DmaSem sig), lvJ s.val = 0 → ((levAts LL lvv : sProp 𝕄) ⊢ MayWait (cc : Thread nD τ) (.dma s) () (owedL (List.drop 14 (paysL cc)))) :=
    fun s hs => mayWait_local (F := F) cc s hs _ (by decide)
  sl_exec
  clear hled14
  ihave Ho0 := (congr (F := F) (r4R (mqF cc) 0) cc fullShare (dev.sl.Ho0_w1 m f0) (r4 m cc) (fun i hi => glue_own m cc 0 _ (k0_off2_inb cc) (k0_off2_eq cc) _ (k0_off23_inb cc) (k0_off23_eq cc) f0 i hi)) $$ Ho0
  ihave Ho0 := (Entails.of_eq (share_ZYK_eq (F := F) (r4R (mqF cc) 0) cc (r4 m cc))) $$ Ho0
  icases Ho0 with ⟨HoZ0, HoY0, HoK0⟩
  -- own chunk 0 to the z-neighbour
  icases Htk with ⟨Hts, Htr, Htk⟩
  icases HIt with ⟨#HIc44, #HIr, HIt⟩
  icases HRt with ⟨#HRs, #HRr, HRt⟩
  icases HqZ with ⟨⟨%fd, Hd⟩, HqZ⟩
  iapply (send_z_at m cc _ (dev15_eq cc) 0 _ _ (k0_off24_eq cc) fd (owedL (List.drop 15 (paysL cc))) rfl _) $$ [HoZ0 Hd HO Hts Htr]
  · isplitr; · iexact HIc44
    isplitr; · iexact HIr
    isplitl [HoZ0]; · iexact HoZ0
    isplitl [Hd]; · iexact Hd
    isplitl [HO]; · iexact HO
    isplitl [Hts]; · iexact Hts
    isplitr; · iexact HRs
    isplitl [Htr]; · iexact Htr
    iexact HRr
  iintro ⟨Hczs0, HO⟩
  iclear HIr HRs HRr
  sl_exec
  -- own chunk 0 to the y-neighbour
  icases Htk with ⟨Hts, Htr, Htk⟩
  icases HIt with ⟨#HIc60, #HIr, HIt⟩
  icases HRt with ⟨#HRs, #HRr, HRt⟩
  icases HqY with ⟨⟨%fd, Hd⟩, HqY⟩
  iapply (send_y_at m cc _ (dev16_eq cc) 0 _ _ (k0_off24_eq cc) fd (owedL (List.drop 16 (paysL cc))) rfl _) $$ [HoY0 Hd HO Hts Htr]
  · isplitr; · iexact HIc60
    isplitr; · iexact HIr
    isplitl [HoY0]; · iexact HoY0
    isplitl [Hd]; · iexact Hd
    isplitl [HO]; · iexact HO
    isplitl [Hts]; · iexact Hts
    isplitr; · iexact HRs
    isplitl [Htr]; · iexact Htr
    iexact HRr
  iintro ⟨Hcys0, HO⟩
  iclear HIr HRs HRr
  sl_exec
  -- step 1 of the main loop: the x-neighbour's chunk 1 has landed
  icases Hcr with ⟨Hc, Hcr⟩
  icases HpR with ⟨Hp, HpR⟩
  icases HIw with ⟨#HIc31, HIw⟩
  ihave Hmw := (mayWait_list (F := F) cc (dsem (⟨31, by decide⟩ : Fin 140)) (List.drop 16 (paysL cc)) (by decide)) $$ Hlev
  iapply (wait_a1_at m cc _ 1 rfl) $$ [Hc HO Hmw Hp]
  · isplitr; · iexact HIc31
    isplitl [Hc]; · iexact Hc
    isplitl [HO]; · iexact HO
    isplitl [Hmw]; · iexact Hmw
    iexact Hp
  iintro ⟨HO, Hq31, -, Hrb1⟩
  icases Hown with ⟨Ho1, Hown⟩
  have hled16 : ∀ (s : DmaSem sig), lvJ s.val = 0 → ((levAts LL lvv : sProp 𝕄) ⊢ MayWait (cc : Thread nD τ) (.dma s) () (owedL (List.drop 16 (paysL cc)))) :=
    fun s hs => mayWait_local (F := F) cc s hs _ (by decide)
  sl_exec
  clear hled16
  ihave Ho1 := (congr (F := F) (r4R (mqF cc) 1) cc fullShare (dev.sl.Ho1_w1 m f0) (r4 m cc) (fun i hi => glue_own m cc 1 _ (k0_off4_inb cc) (k0_off4_eq cc) _ (k0_off25_inb cc) (k0_off25_eq cc) f0 i hi)) $$ Ho1
  ihave Ho1 := (Entails.of_eq (share_ZYK_eq (F := F) (r4R (mqF cc) 1) cc (r4 m cc))) $$ Ho1
  icases Ho1 with ⟨HoZ1, HoY1, HoK1⟩
  -- own chunk 1 to the z-neighbour
  icases Htk with ⟨Hts, Htr, Htk⟩
  icases HIt with ⟨#HIc45, #HIr, HIt⟩
  icases HRt with ⟨#HRs, #HRr, HRt⟩
  icases HqZ with ⟨⟨%fd, Hd⟩, HqZ⟩
  iapply (send_z_at m cc _ (dev17_eq cc) 1 _ _ (k0_off26_eq cc) fd (owedL (List.drop 17 (paysL cc))) rfl _) $$ [HoZ1 Hd HO Hts Htr]
  · isplitr; · iexact HIc45
    isplitr; · iexact HIr
    isplitl [HoZ1]; · iexact HoZ1
    isplitl [Hd]; · iexact Hd
    isplitl [HO]; · iexact HO
    isplitl [Hts]; · iexact Hts
    isplitr; · iexact HRs
    isplitl [Htr]; · iexact Htr
    iexact HRr
  iintro ⟨Hczs1, HO⟩
  iclear HIr HRs HRr
  sl_exec
  -- own chunk 1 to the y-neighbour
  icases Htk with ⟨Hts, Htr, Htk⟩
  icases HIt with ⟨#HIc61, #HIr, HIt⟩
  icases HRt with ⟨#HRs, #HRr, HRt⟩
  icases HqY with ⟨⟨%fd, Hd⟩, HqY⟩
  iapply (send_y_at m cc _ (dev18_eq cc) 1 _ _ (k0_off26_eq cc) fd (owedL (List.drop 18 (paysL cc))) rfl _) $$ [HoY1 Hd HO Hts Htr]
  · isplitr; · iexact HIc61
    isplitr; · iexact HIr
    isplitl [HoY1]; · iexact HoY1
    isplitl [Hd]; · iexact Hd
    isplitl [HO]; · iexact HO
    isplitl [Hts]; · iexact Hts
    isplitr; · iexact HRs
    isplitl [Htr]; · iexact Htr
    iexact HRr
  iintro ⟨Hcys1, HO⟩
  iclear HIr HRs HRr
  sl_exec
  -- the z-neighbour's chunk 0 has landed
  icases Hcr with ⟨Hc, Hcr⟩
  icases HpR with ⟨Hp, HpR⟩
  icases HIw with ⟨#HIc52, HIw⟩
  ihave Hmw := (mayWait_list (F := F) cc (dsem (⟨52, by decide⟩ : Fin 140)) (List.drop 18 (paysL cc)) (by decide)) $$ Hlev
  iapply (wait_a5_at m cc _ 0 rfl) $$ [Hc HO Hmw Hp]
  · isplitr; · iexact HIc52
    isplitl [Hc]; · iexact Hc
    isplitl [HO]; · iexact HO
    isplitl [Hmw]; · iexact Hmw
    iexact Hp
  iintro ⟨HO, Hq52, -, Hz0⟩
  sl_exec
  -- the y-neighbour's chunk 0 has landed
  icases Hcr with ⟨Hc, Hcr⟩
  icases HpR with ⟨Hp, HpR⟩
  icases HIw with ⟨#HIc68, HIw⟩
  ihave Hmw := (mayWait_list (F := F) cc (dsem (⟨68, by decide⟩ : Fin 140)) (List.drop 18 (paysL cc)) (by decide)) $$ Hlev
  iapply (wait_a7_at m cc _ 0 rfl) $$ [Hc HO Hmw Hp]
  · isplitr; · iexact HIc68
    isplitl [Hc]; · iexact Hc
    isplitl [HO]; · iexact HO
    isplitl [Hmw]; · iexact Hmw
    iexact Hp
  iintro ⟨HO, Hq68, -, Hy0⟩
  sl_exec
  -- step 2 of the main loop: the x-neighbour's chunk 2 has landed
  icases Hcr with ⟨Hc, Hcr⟩
  icases HpR with ⟨Hp, HpR⟩
  icases HIw with ⟨#HIc32, HIw⟩
  ihave Hmw := (mayWait_list (F := F) cc (dsem (⟨32, by decide⟩ : Fin 140)) (List.drop 18 (paysL cc)) (by decide)) $$ Hlev
  iapply (wait_a1_at m cc _ 2 rfl) $$ [Hc HO Hmw Hp]
  · isplitr; · iexact HIc32
    isplitl [Hc]; · iexact Hc
    isplitl [HO]; · iexact HO
    isplitl [Hmw]; · iexact Hmw
    iexact Hp
  iintro ⟨HO, Hq32, -, Hrb2⟩
  icases Hown with ⟨Ho2, Hown⟩
  have hled18 : ∀ (s : DmaSem sig), lvJ s.val = 0 → ((levAts LL lvv : sProp 𝕄) ⊢ MayWait (cc : Thread nD τ) (.dma s) () (owedL (List.drop 18 (paysL cc)))) :=
    fun s hs => mayWait_local (F := F) cc s hs _ (by decide)
  sl_exec
  clear hled18
  ihave Ho2 := (congr (F := F) (r4R (mqF cc) 2) cc fullShare (dev.sl.Ho2_w1 m f0) (r4 m cc) (fun i hi => glue_own m cc 2 _ (k0_off6_inb cc) (k0_off6_eq cc) _ (k0_off27_inb cc) (k0_off27_eq cc) f0 i hi)) $$ Ho2
  ihave Ho2 := (Entails.of_eq (share_ZYK_eq (F := F) (r4R (mqF cc) 2) cc (r4 m cc))) $$ Ho2
  icases Ho2 with ⟨HoZ2, HoY2, HoK2⟩
  -- own chunk 2 to the z-neighbour
  icases Htk with ⟨Hts, Htr, Htk⟩
  icases HIt with ⟨#HIc46, #HIr, HIt⟩
  icases HRt with ⟨#HRs, #HRr, HRt⟩
  icases HqZ with ⟨⟨%fd, Hd⟩, HqZ⟩
  iapply (send_z_at m cc _ (dev19_eq cc) 2 _ _ (k0_off28_eq cc) fd (owedL (List.drop 19 (paysL cc))) rfl _) $$ [HoZ2 Hd HO Hts Htr]
  · isplitr; · iexact HIc46
    isplitr; · iexact HIr
    isplitl [HoZ2]; · iexact HoZ2
    isplitl [Hd]; · iexact Hd
    isplitl [HO]; · iexact HO
    isplitl [Hts]; · iexact Hts
    isplitr; · iexact HRs
    isplitl [Htr]; · iexact Htr
    iexact HRr
  iintro ⟨Hczs2, HO⟩
  iclear HIr HRs HRr
  sl_exec
  -- own chunk 2 to the y-neighbour
  icases Htk with ⟨Hts, Htr, Htk⟩
  icases HIt with ⟨#HIc62, #HIr, HIt⟩
  icases HRt with ⟨#HRs, #HRr, HRt⟩
  icases HqY with ⟨⟨%fd, Hd⟩, HqY⟩
  iapply (send_y_at m cc _ (dev20_eq cc) 2 _ _ (k0_off28_eq cc) fd (owedL (List.drop 20 (paysL cc))) rfl _) $$ [HoY2 Hd HO Hts Htr]
  · isplitr; · iexact HIc62
    isplitr; · iexact HIr
    isplitl [HoY2]; · iexact HoY2
    isplitl [Hd]; · iexact Hd
    isplitl [HO]; · iexact HO
    isplitl [Hts]; · iexact Hts
    isplitr; · iexact HRs
    isplitl [Htr]; · iexact Htr
    iexact HRr
  iintro ⟨Hcys2, HO⟩
  iclear HIr HRs HRr
  sl_exec
  -- the z-neighbour's chunk 1 has landed
  icases Hcr with ⟨Hc, Hcr⟩
  icases HpR with ⟨Hp, HpR⟩
  icases HIw with ⟨#HIc53, HIw⟩
  ihave Hmw := (mayWait_list (F := F) cc (dsem (⟨53, by decide⟩ : Fin 140)) (List.drop 20 (paysL cc)) (by decide)) $$ Hlev
  iapply (wait_a5_at m cc _ 1 rfl) $$ [Hc HO Hmw Hp]
  · isplitr; · iexact HIc53
    isplitl [Hc]; · iexact Hc
    isplitl [HO]; · iexact HO
    isplitl [Hmw]; · iexact Hmw
    iexact Hp
  iintro ⟨HO, Hq53, -, Hz1⟩
  sl_exec
  -- the y-neighbour's chunk 1 has landed
  icases Hcr with ⟨Hc, Hcr⟩
  icases HpR with ⟨Hp, HpR⟩
  icases HIw with ⟨#HIc69, HIw⟩
  ihave Hmw := (mayWait_list (F := F) cc (dsem (⟨69, by decide⟩ : Fin 140)) (List.drop 20 (paysL cc)) (by decide)) $$ Hlev
  iapply (wait_a7_at m cc _ 1 rfl) $$ [Hc HO Hmw Hp]
  · isplitr; · iexact HIc69
    isplitl [Hc]; · iexact Hc
    isplitl [HO]; · iexact HO
    isplitl [Hmw]; · iexact Hmw
    iexact Hp
  iintro ⟨HO, Hq69, -, Hy1⟩
  sl_exec
  -- step 3 of the main loop: the x-neighbour's chunk 3 has landed
  icases Hcr with ⟨Hc, Hcr⟩
  icases HpR with ⟨Hp, HpR⟩
  icases HIw with ⟨#HIc33, HIw⟩
  ihave Hmw := (mayWait_list (F := F) cc (dsem (⟨33, by decide⟩ : Fin 140)) (List.drop 20 (paysL cc)) (by decide)) $$ Hlev
  iapply (wait_a1_at m cc _ 3 rfl) $$ [Hc HO Hmw Hp]
  · isplitr; · iexact HIc33
    isplitl [Hc]; · iexact Hc
    isplitl [HO]; · iexact HO
    isplitl [Hmw]; · iexact Hmw
    iexact Hp
  iintro ⟨HO, Hq33, -, Hrb3⟩
  icases Hown with ⟨Ho3, Hown⟩
  have hled20 : ∀ (s : DmaSem sig), lvJ s.val = 0 → ((levAts LL lvv : sProp 𝕄) ⊢ MayWait (cc : Thread nD τ) (.dma s) () (owedL (List.drop 20 (paysL cc)))) :=
    fun s hs => mayWait_local (F := F) cc s hs _ (by decide)
  sl_exec
  clear hled20
  ihave Ho3 := (congr (F := F) (r4R (mqF cc) 3) cc fullShare (dev.sl.Ho3_w1 m f0) (r4 m cc) (fun i hi => glue_own m cc 3 _ (k0_off8_inb cc) (k0_off8_eq cc) _ (k0_off29_inb cc) (k0_off29_eq cc) f0 i hi)) $$ Ho3
  ihave Ho3 := (Entails.of_eq (share_ZYK_eq (F := F) (r4R (mqF cc) 3) cc (r4 m cc))) $$ Ho3
  icases Ho3 with ⟨HoZ3, HoY3, HoK3⟩
  -- own chunk 3 to the z-neighbour
  icases Htk with ⟨Hts, Htr, Htk⟩
  icases HIt with ⟨#HIc47, #HIr, HIt⟩
  icases HRt with ⟨#HRs, #HRr, HRt⟩
  icases HqZ with ⟨⟨%fd, Hd⟩, HqZ⟩
  iapply (send_z_at m cc _ (dev21_eq cc) 3 _ _ (k0_off30_eq cc) fd (owedL (List.drop 21 (paysL cc))) rfl _) $$ [HoZ3 Hd HO Hts Htr]
  · isplitr; · iexact HIc47
    isplitr; · iexact HIr
    isplitl [HoZ3]; · iexact HoZ3
    isplitl [Hd]; · iexact Hd
    isplitl [HO]; · iexact HO
    isplitl [Hts]; · iexact Hts
    isplitr; · iexact HRs
    isplitl [Htr]; · iexact Htr
    iexact HRr
  iintro ⟨Hczs3, HO⟩
  iclear HIr HRs HRr
  sl_exec
  -- own chunk 3 to the y-neighbour
  icases Htk with ⟨Hts, Htr, Htk⟩
  icases HIt with ⟨#HIc63, #HIr, HIt⟩
  icases HRt with ⟨#HRs, #HRr, HRt⟩
  icases HqY with ⟨⟨%fd, Hd⟩, HqY⟩
  iapply (send_y_at m cc _ (dev22_eq cc) 3 _ _ (k0_off30_eq cc) fd (owedL (List.drop 22 (paysL cc))) rfl _) $$ [HoY3 Hd HO Hts Htr]
  · isplitr; · iexact HIc63
    isplitr; · iexact HIr
    isplitl [HoY3]; · iexact HoY3
    isplitl [Hd]; · iexact Hd
    isplitl [HO]; · iexact HO
    isplitl [Hts]; · iexact Hts
    isplitr; · iexact HRs
    isplitl [Htr]; · iexact Htr
    iexact HRr
  iintro ⟨Hcys3, HO⟩
  iclear HIr HRs HRr
  sl_exec
  -- the z-neighbour's chunk 2 has landed
  icases Hcr with ⟨Hc, Hcr⟩
  icases HpR with ⟨Hp, HpR⟩
  icases HIw with ⟨#HIc54, HIw⟩
  ihave Hmw := (mayWait_list (F := F) cc (dsem (⟨54, by decide⟩ : Fin 140)) (List.drop 22 (paysL cc)) (by decide)) $$ Hlev
  iapply (wait_a5_at m cc _ 2 rfl) $$ [Hc HO Hmw Hp]
  · isplitr; · iexact HIc54
    isplitl [Hc]; · iexact Hc
    isplitl [HO]; · iexact HO
    isplitl [Hmw]; · iexact Hmw
    iexact Hp
  iintro ⟨HO, Hq54, -, Hz2⟩
  sl_exec
  -- the y-neighbour's chunk 2 has landed
  icases Hcr with ⟨Hc, Hcr⟩
  icases HpR with ⟨Hp, HpR⟩
  icases HIw with ⟨#HIc70, HIw⟩
  ihave Hmw := (mayWait_list (F := F) cc (dsem (⟨70, by decide⟩ : Fin 140)) (List.drop 22 (paysL cc)) (by decide)) $$ Hlev
  iapply (wait_a7_at m cc _ 2 rfl) $$ [Hc HO Hmw Hp]
  · isplitr; · iexact HIc70
    isplitl [Hc]; · iexact Hc
    isplitl [HO]; · iexact HO
    isplitl [Hmw]; · iexact Hmw
    iexact Hp
  iintro ⟨HO, Hq70, -, Hy2⟩
  sl_exec
  -- step 4 of the main loop: the x-neighbour's chunk 4 has landed
  icases Hcr with ⟨Hc, Hcr⟩
  icases HpR with ⟨Hp, HpR⟩
  icases HIw with ⟨#HIc34, HIw⟩
  ihave Hmw := (mayWait_list (F := F) cc (dsem (⟨34, by decide⟩ : Fin 140)) (List.drop 22 (paysL cc)) (by decide)) $$ Hlev
  iapply (wait_a1_at m cc _ 4 rfl) $$ [Hc HO Hmw Hp]
  · isplitr; · iexact HIc34
    isplitl [Hc]; · iexact Hc
    isplitl [HO]; · iexact HO
    isplitl [Hmw]; · iexact Hmw
    iexact Hp
  iintro ⟨HO, Hq34, -, Hrb4⟩
  icases Hown with ⟨Ho4, Hown⟩
  have hled22 : ∀ (s : DmaSem sig), lvJ s.val = 0 → ((levAts LL lvv : sProp 𝕄) ⊢ MayWait (cc : Thread nD τ) (.dma s) () (owedL (List.drop 22 (paysL cc)))) :=
    fun s hs => mayWait_local (F := F) cc s hs _ (by decide)
  sl_exec
  clear hled22
  ihave Ho4 := (congr (F := F) (r4R (mqF cc) 4) cc fullShare (dev.sl.Ho4_w1 m f0) (r4 m cc) (fun i hi => glue_own m cc 4 _ (k0_off10_inb cc) (k0_off10_eq cc) _ (k0_off31_inb cc) (k0_off31_eq cc) f0 i hi)) $$ Ho4
  ihave Ho4 := (Entails.of_eq (share_ZYK_eq (F := F) (r4R (mqF cc) 4) cc (r4 m cc))) $$ Ho4
  icases Ho4 with ⟨HoZ4, HoY4, HoK4⟩
  -- own chunk 4 to the z-neighbour
  icases Htk with ⟨Hts, Htr, Htk⟩
  icases HIt with ⟨#HIc48, #HIr, HIt⟩
  icases HRt with ⟨#HRs, #HRr, HRt⟩
  icases HqZ with ⟨⟨%fd, Hd⟩, HqZ⟩
  iapply (send_z_at m cc _ (dev23_eq cc) 4 _ _ (k0_off32_eq cc) fd (owedL (List.drop 23 (paysL cc))) rfl _) $$ [HoZ4 Hd HO Hts Htr]
  · isplitr; · iexact HIc48
    isplitr; · iexact HIr
    isplitl [HoZ4]; · iexact HoZ4
    isplitl [Hd]; · iexact Hd
    isplitl [HO]; · iexact HO
    isplitl [Hts]; · iexact Hts
    isplitr; · iexact HRs
    isplitl [Htr]; · iexact Htr
    iexact HRr
  iintro ⟨Hczs4, HO⟩
  iclear HIr HRs HRr
  sl_exec
  -- own chunk 4 to the y-neighbour
  icases Htk with ⟨Hts, Htr, Htk⟩
  icases HIt with ⟨#HIc64, #HIr, HIt⟩
  icases HRt with ⟨#HRs, #HRr, HRt⟩
  icases HqY with ⟨⟨%fd, Hd⟩, HqY⟩
  iapply (send_y_at m cc _ (dev24_eq cc) 4 _ _ (k0_off32_eq cc) fd (owedL (List.drop 24 (paysL cc))) rfl _) $$ [HoY4 Hd HO Hts Htr]
  · isplitr; · iexact HIc64
    isplitr; · iexact HIr
    isplitl [HoY4]; · iexact HoY4
    isplitl [Hd]; · iexact Hd
    isplitl [HO]; · iexact HO
    isplitl [Hts]; · iexact Hts
    isplitr; · iexact HRs
    isplitl [Htr]; · iexact Htr
    iexact HRr
  iintro ⟨Hcys4, HO⟩
  iclear HIr HRs HRr
  sl_exec
  -- the z-neighbour's chunk 3 has landed
  icases Hcr with ⟨Hc, Hcr⟩
  icases HpR with ⟨Hp, HpR⟩
  icases HIw with ⟨#HIc55, HIw⟩
  ihave Hmw := (mayWait_list (F := F) cc (dsem (⟨55, by decide⟩ : Fin 140)) (List.drop 24 (paysL cc)) (by decide)) $$ Hlev
  iapply (wait_a5_at m cc _ 3 rfl) $$ [Hc HO Hmw Hp]
  · isplitr; · iexact HIc55
    isplitl [Hc]; · iexact Hc
    isplitl [HO]; · iexact HO
    isplitl [Hmw]; · iexact Hmw
    iexact Hp
  iintro ⟨HO, Hq55, -, Hz3⟩
  sl_exec
  -- the y-neighbour's chunk 3 has landed
  icases Hcr with ⟨Hc, Hcr⟩
  icases HpR with ⟨Hp, HpR⟩
  icases HIw with ⟨#HIc71, HIw⟩
  ihave Hmw := (mayWait_list (F := F) cc (dsem (⟨71, by decide⟩ : Fin 140)) (List.drop 24 (paysL cc)) (by decide)) $$ Hlev
  iapply (wait_a7_at m cc _ 3 rfl) $$ [Hc HO Hmw Hp]
  · isplitr; · iexact HIc71
    isplitl [Hc]; · iexact Hc
    isplitl [HO]; · iexact HO
    isplitl [Hmw]; · iexact Hmw
    iexact Hp
  iintro ⟨HO, Hq71, -, Hy3⟩
  -- chunk 3 of the two neighbours' quarters: half its ownership stays for the copy into the result, of the other half one column half travels on
  ihave Hz3 := (Entails.of_eq (share_FG_eq (F := F) (r4R (zqF cc) 3) cc (r4 m cc))) $$ Hz3
  icases Hz3 with ⟨HzF3, HzG3⟩
  ihave HzF3 := (Entails.of_eq (chunk_halves (F := F) cc (zqF cc) 3 shF (r4 m cc))) $$ HzF3
  icases HzF3 with ⟨HzFl3, HzFr3⟩
  ihave Hy3 := (Entails.of_eq (share_FG_eq (F := F) (r4R (yqF cc) 3) cc (r4 m cc))) $$ Hy3
  icases Hy3 with ⟨HyF3, HyG3⟩
  ihave HyF3 := (Entails.of_eq (chunk_halves (F := F) cc (yqF cc) 3 shF (r4 m cc))) $$ HyF3
  icases HyF3 with ⟨HyFl3, HyFr3⟩
  sl_exec
  -- the right half of the z-neighbour's chunk 3 on to the y-neighbour
  icases Htk with ⟨Hts, Htr, Htk⟩
  icases HIt with ⟨#HIc95, #HIr, HIt⟩
  icases HRt with ⟨#HRs, #HRr, HRt⟩
  icases HhYp with ⟨⟨%fd, Hd⟩, HhYp⟩
  iapply (send_yf_at m cc _ (dev25_eq cc) 3 (by decide) _ _ (k0_off33_eq cc) fd (owedL (List.drop 25 (paysL cc))) rfl _) $$ [HzFr3 Hd HO Hts Htr]
  · isplitr; · iexact HIc95
    isplitr; · iexact HIr
    isplitl [HzFr3]; · iexact HzFr3
    isplitl [Hd]; · iexact Hd
    isplitl [HO]; · iexact HO
    isplitl [Hts]; · iexact Hts
    isplitr; · iexact HRs
    isplitl [Htr]; · iexact Htr
    iexact HRr
  iintro ⟨Hcyfs3, HO⟩
  iclear HIr HRs HRr
  sl_exec
  -- the left half of the y-neighbour's chunk 3 on to the z-neighbour
  icases Htk with ⟨Hts, Htr, Htk⟩
  icases HIt with ⟨#HIc79, #HIr, HIt⟩
  icases HRt with ⟨#HRs, #HRr, HRt⟩
  icases HhZp with ⟨⟨%fd, Hd⟩, HhZp⟩
  iapply (send_zf_at m cc _ (dev26_eq cc) 3 (by decide) _ _ (k0_off34_eq cc) fd (owedL (List.drop 26 (paysL cc))) rfl _) $$ [HyFl3 Hd HO Hts Htr]
  · isplitr; · iexact HIc79
    isplitr; · iexact HIr
    isplitl [HyFl3]; · iexact HyFl3
    isplitl [Hd]; · iexact Hd
    isplitl [HO]; · iexact HO
    isplitl [Hts]; · iexact Hts
    isplitr; · iexact HRs
    isplitl [Htr]; · iexact Htr
    iexact HRr
  iintro ⟨Hczfs3, HO⟩
  iclear HIr HRs HRr
  sl_exec
  -- step 5 of the main loop: the x-neighbour's chunk 5 has landed
  icases Hcr with ⟨Hc, Hcr⟩
  icases HpR with ⟨Hp, HpR⟩
  icases HIw with ⟨#HIc35, HIw⟩
  ihave Hmw := (mayWait_list (F := F) cc (dsem (⟨35, by decide⟩ : Fin 140)) (List.drop 26 (paysL cc)) (by decide)) $$ Hlev
  iapply (wait_a1_at m cc _ 5 rfl) $$ [Hc HO Hmw Hp]
  · isplitr; · iexact HIc35
    isplitl [Hc]; · iexact Hc
    isplitl [HO]; · iexact HO
    isplitl [Hmw]; · iexact Hmw
    iexact Hp
  iintro ⟨HO, Hq35, -, Hrb5⟩
  icases Hown with ⟨Ho5, Hown⟩
  have hled26 : ∀ (s : DmaSem sig), lvJ s.val = 0 → ((levAts LL lvv : sProp 𝕄) ⊢ MayWait (cc : Thread nD τ) (.dma s) () (owedL (List.drop 26 (paysL cc)))) :=
    fun s hs => mayWait_local (F := F) cc s hs _ (by decide)
  sl_exec
  clear hled26
  ihave Ho5 := (congr (F := F) (r4R (mqF cc) 5) cc fullShare (dev.sl.Ho5_w1 m f0) (r4 m cc) (fun i hi => glue_own m cc 5 _ (k0_off12_inb cc) (k0_off12_eq cc) _ (k0_off35_inb cc) (k0_off35_eq cc) f0 i hi)) $$ Ho5
  ihave Ho5 := (Entails.of_eq (share_ZYK_eq (F := F) (r4R (mqF cc) 5) cc (r4 m cc))) $$ Ho5
  icases Ho5 with ⟨HoZ5, HoY5, HoK5⟩
  -- own chunk 5 to the z-neighbour
  icases Htk with ⟨Hts, Htr, Htk⟩
  icases HIt with ⟨#HIc49, #HIr, HIt⟩
  icases HRt with ⟨#HRs, #HRr, HRt⟩
  icases HqZ with ⟨⟨%fd, Hd⟩, HqZ⟩
  iapply (send_z_at m cc _ (dev27_eq cc) 5 _ _ (k0_off36_eq cc) fd (owedL (List.drop 27 (paysL cc))) rfl _) $$ [HoZ5 Hd HO Hts Htr]
  · isplitr; · iexact HIc49
    isplitr; · iexact HIr
    isplitl [HoZ5]; · iexact HoZ5
    isplitl [Hd]; · iexact Hd
    isplitl [HO]; · iexact HO
    isplitl [Hts]; · iexact Hts
    isplitr; · iexact HRs
    isplitl [Htr]; · iexact Htr
    iexact HRr
  iintro ⟨Hczs5, HO⟩
  iclear HIr HRs HRr
  sl_exec
  -- own chunk 5 to the y-neighbour
  icases Htk with ⟨Hts, Htr, Htk⟩
  icases HIt with ⟨#HIc65, #HIr, HIt⟩
  icases HRt with ⟨#HRs, #HRr, HRt⟩
  icases HqY with ⟨⟨%fd, Hd⟩, HqY⟩
  iapply (send_y_at m cc _ (dev28_eq cc) 5 _ _ (k0_off36_eq cc) fd (owedL (List.drop 28 (paysL cc))) rfl _) $$ [HoY5 Hd HO Hts Htr]
  · isplitr; · iexact HIc65
    isplitr; · iexact HIr
    isplitl [HoY5]; · iexact HoY5
    isplitl [Hd]; · iexact Hd
    isplitl [HO]; · iexact HO
    isplitl [Hts]; · iexact Hts
    isplitr; · iexact HRs
    isplitl [Htr]; · iexact Htr
    iexact HRr
  iintro ⟨Hcys5, HO⟩
  iclear HIr HRs HRr
  sl_exec
  -- the z-neighbour's chunk 4 has landed
  icases Hcr with ⟨Hc, Hcr⟩
  icases HpR with ⟨Hp, HpR⟩
  icases HIw with ⟨#HIc56, HIw⟩
  ihave Hmw := (mayWait_list (F := F) cc (dsem (⟨56, by decide⟩ : Fin 140)) (List.drop 28 (paysL cc)) (by decide)) $$ Hlev
  iapply (wait_a5_at m cc _ 4 rfl) $$ [Hc HO Hmw Hp]
  · isplitr; · iexact HIc56
    isplitl [Hc]; · iexact Hc
    isplitl [HO]; · iexact HO
    isplitl [Hmw]; · iexact Hmw
    iexact Hp
  iintro ⟨HO, Hq56, -, Hz4⟩
  sl_exec
  -- the y-neighbour's chunk 4 has landed
  icases Hcr with ⟨Hc, Hcr⟩
  icases HpR with ⟨Hp, HpR⟩
  icases HIw with ⟨#HIc72, HIw⟩
  ihave Hmw := (mayWait_list (F := F) cc (dsem (⟨72, by decide⟩ : Fin 140)) (List.drop 28 (paysL cc)) (by decide)) $$ Hlev
  iapply (wait_a7_at m cc _ 4 rfl) $$ [Hc HO Hmw Hp]
  · isplitr; · iexact HIc72
    isplitl [Hc]; · iexact Hc
    isplitl [HO]; · iexact HO
    isplitl [Hmw]; · iexact Hmw
    iexact Hp
  iintro ⟨HO, Hq72, -, Hy4⟩
  -- chunk 4 of the two neighbours' quarters: half its ownership stays for the copy into the result, of the other half one column half travels on
  ihave Hz4 := (Entails.of_eq (share_FG_eq (F := F) (r4R (zqF cc) 4) cc (r4 m cc))) $$ Hz4
  icases Hz4 with ⟨HzF4, HzG4⟩
  ihave HzF4 := (Entails.of_eq (chunk_halves (F := F) cc (zqF cc) 4 shF (r4 m cc))) $$ HzF4
  icases HzF4 with ⟨HzFl4, HzFr4⟩
  ihave Hy4 := (Entails.of_eq (share_FG_eq (F := F) (r4R (yqF cc) 4) cc (r4 m cc))) $$ Hy4
  icases Hy4 with ⟨HyF4, HyG4⟩
  ihave HyF4 := (Entails.of_eq (chunk_halves (F := F) cc (yqF cc) 4 shF (r4 m cc))) $$ HyF4
  icases HyF4 with ⟨HyFl4, HyFr4⟩
  sl_exec
  -- the right half of the z-neighbour's chunk 4 on to the y-neighbour
  icases Htk with ⟨Hts, Htr, Htk⟩
  icases HIt with ⟨#HIc96, #HIr, HIt⟩
  icases HRt with ⟨#HRs, #HRr, HRt⟩
  icases HhYp with ⟨⟨%fd, Hd⟩, HhYp⟩
  iapply (send_yf_at m cc _ (dev29_eq cc) 4 (by decide) _ _ (k0_off37_eq cc) fd (owedL (List.drop 29 (paysL cc))) rfl _) $$ [HzFr4 Hd HO Hts Htr]
  · isplitr; · iexact HIc96
    isplitr; · iexact HIr
    isplitl [HzFr4]; · iexact HzFr4
    isplitl [Hd]; · iexact Hd
    isplitl [HO]; · iexact HO
    isplitl [Hts]; · iexact Hts
    isplitr; · iexact HRs
    isplitl [Htr]; · iexact Htr
    iexact HRr
  iintro ⟨Hcyfs4, HO⟩
  iclear HIr HRs HRr
  sl_exec
  -- the left half of the y-neighbour's chunk 4 on to the z-neighbour
  icases Htk with ⟨Hts, Htr, Htk⟩
  icases HIt with ⟨#HIc80, #HIr, HIt⟩
  icases HRt with ⟨#HRs, #HRr, HRt⟩
  icases HhZp with ⟨⟨%fd, Hd⟩, HhZp⟩
  iapply (send_zf_at m cc _ (dev30_eq cc) 4 (by decide) _ _ (k0_off38_eq cc) fd (owedL (List.drop 30 (paysL cc))) rfl _) $$ [HyFl4 Hd HO Hts Htr]
  · isplitr; · iexact HIc80
    isplitr; · iexact HIr
    isplitl [HyFl4]; · iexact HyFl4
    isplitl [Hd]; · iexact Hd
    isplitl [HO]; · iexact HO
    isplitl [Hts]; · iexact Hts
    isplitr; · iexact HRs
    isplitl [Htr]; · iexact Htr
    iexact HRr
  iintro ⟨Hczfs4, HO⟩
  iclear HIr HRs HRr
  sl_exec
  -- the left half of chunk 3 of the diagonal quarter has landed
  icases Hcr with ⟨Hc, Hcr⟩
  icases HpR with ⟨Hp, HpR⟩
  icases HIw with ⟨#HIc87, HIw⟩
  ihave Hmw := (mayWait_list (F := F) cc (dsem (⟨87, by decide⟩ : Fin 140)) (List.drop 30 (paysL cc)) (by decide)) $$ Hlev
  iapply (wait_a9_at m cc _ 3 rfl (by decide)) $$ [Hc HO Hmw Hp]
  · isplitr; · iexact HIc87
    isplitl [Hc]; · iexact Hc
    isplitl [HO]; · iexact HO
    isplitl [Hmw]; · iexact Hmw
    iexact Hp
  iintro ⟨HO, Hq87, -, Hdl3⟩
  sl_exec
  -- its right half has landed
  icases Hcr with ⟨Hc, Hcr⟩
  icases HpR with ⟨Hp, HpR⟩
  icases HIw with ⟨#HIc103, HIw⟩
  ihave Hmw := (mayWait_list (F := F) cc (dsem (⟨103, by decide⟩ : Fin 140)) (List.drop 30 (paysL cc)) (by decide)) $$ Hlev
  iapply (wait_a11_at m cc _ 3 rfl (by decide)) $$ [Hc HO Hmw Hp]
  · isplitr; · iexact HIc103
    isplitl [Hc]; · iexact Hc
    isplitl [HO]; · iexact HO
    isplitl [Hmw]; · iexact Hmw
    iexact Hp
  iintro ⟨HO, Hq103, -, Hdr3⟩
  ihave Hd3 := (Entails.of_eq (chunk_halves (F := F) cc (dqF cc) 3 fullShare (r4 m cc)).symm) $$ [Hdl3 Hdr3]
  · isplitl [Hdl3]; · iexact Hdl3
    iexact Hdr3
  -- the four copies of chunk 3 into the result
  icases HvO with ⟨Hw3a, Hw3b, Hw3c, Hw3d, HvO⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  -- step 6 of the main loop: the x-neighbour's chunk 6 has landed
  icases Hcr with ⟨Hc, Hcr⟩
  icases HpR with ⟨Hp, HpR⟩
  icases HIw with ⟨#HIc36, HIw⟩
  ihave Hmw := (mayWait_list (F := F) cc (dsem (⟨36, by decide⟩ : Fin 140)) (List.drop 30 (paysL cc)) (by decide)) $$ Hlev
  iapply (wait_a1_at m cc _ 6 rfl) $$ [Hc HO Hmw Hp]
  · isplitr; · iexact HIc36
    isplitl [Hc]; · iexact Hc
    isplitl [HO]; · iexact HO
    isplitl [Hmw]; · iexact Hmw
    iexact Hp
  iintro ⟨HO, Hq36, -, Hrb6⟩
  icases Hown with ⟨Ho6, Hown⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  ihave Ho6 := (congr (F := F) (r4R (mqF cc) 6) cc fullShare (dev.sl.Ho6_w1 m f0) (r4 m cc) (fun i hi => glue_own m cc 6 _ (k0_off14_inb cc) (k0_off14_eq cc) _ (k0_off39_inb cc) (k0_off39_eq cc) f0 i hi)) $$ Ho6
  ihave Ho6 := (Entails.of_eq (share_ZYK_eq (F := F) (r4R (mqF cc) 6) cc (r4 m cc))) $$ Ho6
  icases Ho6 with ⟨HoZ6, HoY6, HoK6⟩
  -- own chunk 6 to the z-neighbour
  icases Htk with ⟨Hts, Htr, Htk⟩
  icases HIt with ⟨#HIc50, #HIr, HIt⟩
  icases HRt with ⟨#HRs, #HRr, HRt⟩
  icases HqZ with ⟨⟨%fd, Hd⟩, HqZ⟩
  iapply (send_z_at m cc _ (dev31_eq cc) 6 _ _ (k0_off40_eq cc) fd (owedL (List.drop 31 (paysL cc))) rfl _) $$ [HoZ6 Hd HO Hts Htr]
  · isplitr; · iexact HIc50
    isplitr; · iexact HIr
    isplitl [HoZ6]; · iexact HoZ6
    isplitl [Hd]; · iexact Hd
    isplitl [HO]; · iexact HO
    isplitl [Hts]; · iexact Hts
    isplitr; · iexact HRs
    isplitl [Htr]; · iexact Htr
    iexact HRr
  iintro ⟨Hczs6, HO⟩
  iclear HIr HRs HRr
  sl_exec
  -- own chunk 6 to the y-neighbour
  icases Htk with ⟨Hts, Htr, Htk⟩
  icases HIt with ⟨#HIc66, #HIr, HIt⟩
  icases HRt with ⟨#HRs, #HRr, HRt⟩
  icases HqY with ⟨⟨%fd, Hd⟩, HqY⟩
  iapply (send_y_at m cc _ (dev32_eq cc) 6 _ _ (k0_off40_eq cc) fd (owedL (List.drop 32 (paysL cc))) rfl _) $$ [HoY6 Hd HO Hts Htr]
  · isplitr; · iexact HIc66
    isplitr; · iexact HIr
    isplitl [HoY6]; · iexact HoY6
    isplitl [Hd]; · iexact Hd
    isplitl [HO]; · iexact HO
    isplitl [Hts]; · iexact Hts
    isplitr; · iexact HRs
    isplitl [Htr]; · iexact Htr
    iexact HRr
  iintro ⟨Hcys6, HO⟩
  iclear HIr HRs HRr
  sl_exec
  -- the z-neighbour's chunk 5 has landed
  icases Hcr with ⟨Hc, Hcr⟩
  icases HpR with ⟨Hp, HpR⟩
  icases HIw with ⟨#HIc57, HIw⟩
  ihave Hmw := (mayWait_list (F := F) cc (dsem (⟨57, by decide⟩ : Fin 140)) (List.drop 32 (paysL cc)) (by decide)) $$ Hlev
  iapply (wait_a5_at m cc _ 5 rfl) $$ [Hc HO Hmw Hp]
  · isplitr; · iexact HIc57
    isplitl [Hc]; · iexact Hc
    isplitl [HO]; · iexact HO
    isplitl [Hmw]; · iexact Hmw
    iexact Hp
  iintro ⟨HO, Hq57, -, Hz5⟩
  sl_exec
  -- the y-neighbour's chunk 5 has landed
  icases Hcr with ⟨Hc, Hcr⟩
  icases HpR with ⟨Hp, HpR⟩
  icases HIw with ⟨#HIc73, HIw⟩
  ihave Hmw := (mayWait_list (F := F) cc (dsem (⟨73, by decide⟩ : Fin 140)) (List.drop 32 (paysL cc)) (by decide)) $$ Hlev
  iapply (wait_a7_at m cc _ 5 rfl) $$ [Hc HO Hmw Hp]
  · isplitr; · iexact HIc73
    isplitl [Hc]; · iexact Hc
    isplitl [HO]; · iexact HO
    isplitl [Hmw]; · iexact Hmw
    iexact Hp
  iintro ⟨HO, Hq73, -, Hy5⟩
  -- chunk 5 of the two neighbours' quarters: half its ownership stays for the copy into the result, of the other half one column half travels on
  ihave Hz5 := (Entails.of_eq (share_FG_eq (F := F) (r4R (zqF cc) 5) cc (r4 m cc))) $$ Hz5
  icases Hz5 with ⟨HzF5, HzG5⟩
  ihave HzF5 := (Entails.of_eq (chunk_halves (F := F) cc (zqF cc) 5 shF (r4 m cc))) $$ HzF5
  icases HzF5 with ⟨HzFl5, HzFr5⟩
  ihave Hy5 := (Entails.of_eq (share_FG_eq (F := F) (r4R (yqF cc) 5) cc (r4 m cc))) $$ Hy5
  icases Hy5 with ⟨HyF5, HyG5⟩
  ihave HyF5 := (Entails.of_eq (chunk_halves (F := F) cc (yqF cc) 5 shF (r4 m cc))) $$ HyF5
  icases HyF5 with ⟨HyFl5, HyFr5⟩
  sl_exec
  -- the right half of the z-neighbour's chunk 5 on to the y-neighbour
  icases Htk with ⟨Hts, Htr, Htk⟩
  icases HIt with ⟨#HIc97, #HIr, HIt⟩
  icases HRt with ⟨#HRs, #HRr, HRt⟩
  icases HhYp with ⟨⟨%fd, Hd⟩, HhYp⟩
  iapply (send_yf_at m cc _ (dev33_eq cc) 5 (by decide) _ _ (k0_off41_eq cc) fd (owedL (List.drop 33 (paysL cc))) rfl _) $$ [HzFr5 Hd HO Hts Htr]
  · isplitr; · iexact HIc97
    isplitr; · iexact HIr
    isplitl [HzFr5]; · iexact HzFr5
    isplitl [Hd]; · iexact Hd
    isplitl [HO]; · iexact HO
    isplitl [Hts]; · iexact Hts
    isplitr; · iexact HRs
    isplitl [Htr]; · iexact Htr
    iexact HRr
  iintro ⟨Hcyfs5, HO⟩
  iclear HIr HRs HRr
  sl_exec
  -- the left half of the y-neighbour's chunk 5 on to the z-neighbour
  icases Htk with ⟨Hts, Htr, Htk⟩
  icases HIt with ⟨#HIc81, #HIr, HIt⟩
  icases HRt with ⟨#HRs, #HRr, HRt⟩
  icases HhZp with ⟨⟨%fd, Hd⟩, HhZp⟩
  iapply (send_zf_at m cc _ (dev34_eq cc) 5 (by decide) _ _ (k0_off42_eq cc) fd (owedL (List.drop 34 (paysL cc))) rfl _) $$ [HyFl5 Hd HO Hts Htr]
  · isplitr; · iexact HIc81
    isplitr; · iexact HIr
    isplitl [HyFl5]; · iexact HyFl5
    isplitl [Hd]; · iexact Hd
    isplitl [HO]; · iexact HO
    isplitl [Hts]; · iexact Hts
    isplitr; · iexact HRs
    isplitl [Htr]; · iexact Htr
    iexact HRr
  iintro ⟨Hczfs5, HO⟩
  iclear HIr HRs HRr
  sl_exec
  -- the left half of chunk 4 of the diagonal quarter has landed
  icases Hcr with ⟨Hc, Hcr⟩
  icases HpR with ⟨Hp, HpR⟩
  icases HIw with ⟨#HIc88, HIw⟩
  ihave Hmw := (mayWait_list (F := F) cc (dsem (⟨88, by decide⟩ : Fin 140)) (List.drop 34 (paysL cc)) (by decide)) $$ Hlev
  iapply (wait_a9_at m cc _ 4 rfl (by decide)) $$ [Hc HO Hmw Hp]
  · isplitr; · iexact HIc88
    isplitl [Hc]; · iexact Hc
    isplitl [HO]; · iexact HO
    isplitl [Hmw]; · iexact Hmw
    iexact Hp
  iintro ⟨HO, Hq88, -, Hdl4⟩
  sl_exec
  -- its right half has landed
  icases Hcr with ⟨Hc, Hcr⟩
  icases HpR with ⟨Hp, HpR⟩
  icases HIw with ⟨#HIc104, HIw⟩
  ihave Hmw := (mayWait_list (F := F) cc (dsem (⟨104, by decide⟩ : Fin 140)) (List.drop 34 (paysL cc)) (by decide)) $$ Hlev
  iapply (wait_a11_at m cc _ 4 rfl (by decide)) $$ [Hc HO Hmw Hp]
  · isplitr; · iexact HIc104
    isplitl [Hc]; · iexact Hc
    isplitl [HO]; · iexact HO
    isplitl [Hmw]; · iexact Hmw
    iexact Hp
  iintro ⟨HO, Hq104, -, Hdr4⟩
  ihave Hd4 := (Entails.of_eq (chunk_halves (F := F) cc (dqF cc) 4 fullShare (r4 m cc)).symm) $$ [Hdl4 Hdr4]
  · isplitl [Hdl4]; · iexact Hdl4
    iexact Hdr4
  -- the four copies of chunk 4 into the result
  icases HvO with ⟨Hw4a, Hw4b, Hw4c, Hw4d, HvO⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  -- step 7 of the main loop: the x-neighbour's chunk 7 has landed
  icases Hcr with ⟨Hc, Hcr⟩
  icases HpR with ⟨Hp, HpR⟩
  icases HIw with ⟨#HIc37, HIw⟩
  ihave Hmw := (mayWait_list (F := F) cc (dsem (⟨37, by decide⟩ : Fin 140)) (List.drop 34 (paysL cc)) (by decide)) $$ Hlev
  iapply (wait_a1_at m cc _ 7 rfl) $$ [Hc HO Hmw Hp]
  · isplitr; · iexact HIc37
    isplitl [Hc]; · iexact Hc
    isplitl [HO]; · iexact HO
    isplitl [Hmw]; · iexact Hmw
    iexact Hp
  iintro ⟨HO, Hq37, -, Hrb7⟩
  icases Hown with ⟨Ho7⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  ihave Ho7 := (congr (F := F) (r4R (mqF cc) 7) cc fullShare (dev.sl.Ho7_w1 m f0) (r4 m cc) (fun i hi => glue_own m cc 7 _ (k0_off16_inb cc) (k0_off16_eq cc) _ (k0_off43_inb cc) (k0_off43_eq cc) f0 i hi)) $$ Ho7
  ihave Ho7 := (Entails.of_eq (share_ZYK_eq (F := F) (r4R (mqF cc) 7) cc (r4 m cc))) $$ Ho7
  icases Ho7 with ⟨HoZ7, HoY7, HoK7⟩
  -- own chunk 7 to the z-neighbour
  icases Htk with ⟨Hts, Htr, Htk⟩
  icases HIt with ⟨#HIc51, #HIr, HIt⟩
  icases HRt with ⟨#HRs, #HRr, HRt⟩
  icases HqZ with ⟨%fd, Hd⟩
  iapply (send_z_at m cc _ (dev35_eq cc) 7 _ _ (k0_off44_eq cc) fd (owedL (List.drop 35 (paysL cc))) rfl _) $$ [HoZ7 Hd HO Hts Htr]
  · isplitr; · iexact HIc51
    isplitr; · iexact HIr
    isplitl [HoZ7]; · iexact HoZ7
    isplitl [Hd]; · iexact Hd
    isplitl [HO]; · iexact HO
    isplitl [Hts]; · iexact Hts
    isplitr; · iexact HRs
    isplitl [Htr]; · iexact Htr
    iexact HRr
  iintro ⟨Hczs7, HO⟩
  iclear HIr HRs HRr
  sl_exec
  -- own chunk 7 to the y-neighbour
  icases Htk with ⟨Hts, Htr, Htk⟩
  icases HIt with ⟨#HIc67, #HIr, HIt⟩
  icases HRt with ⟨#HRs, #HRr, HRt⟩
  icases HqY with ⟨%fd, Hd⟩
  iapply (send_y_at m cc _ (dev36_eq cc) 7 _ _ (k0_off44_eq cc) fd (owedL (List.drop 36 (paysL cc))) rfl _) $$ [HoY7 Hd HO Hts Htr]
  · isplitr; · iexact HIc67
    isplitr; · iexact HIr
    isplitl [HoY7]; · iexact HoY7
    isplitl [Hd]; · iexact Hd
    isplitl [HO]; · iexact HO
    isplitl [Hts]; · iexact Hts
    isplitr; · iexact HRs
    isplitl [Htr]; · iexact Htr
    iexact HRr
  iintro ⟨Hcys7, HO⟩
  iclear HIr HRs HRr
  sl_exec
  -- the z-neighbour's chunk 6 has landed
  icases Hcr with ⟨Hc, Hcr⟩
  icases HpR with ⟨Hp, HpR⟩
  icases HIw with ⟨#HIc58, HIw⟩
  ihave Hmw := (mayWait_list (F := F) cc (dsem (⟨58, by decide⟩ : Fin 140)) (List.drop 36 (paysL cc)) (by decide)) $$ Hlev
  iapply (wait_a5_at m cc _ 6 rfl) $$ [Hc HO Hmw Hp]
  · isplitr; · iexact HIc58
    isplitl [Hc]; · iexact Hc
    isplitl [HO]; · iexact HO
    isplitl [Hmw]; · iexact Hmw
    iexact Hp
  iintro ⟨HO, Hq58, -, Hz6⟩
  sl_exec
  -- the y-neighbour's chunk 6 has landed
  icases Hcr with ⟨Hc, Hcr⟩
  icases HpR with ⟨Hp, HpR⟩
  icases HIw with ⟨#HIc74, HIw⟩
  ihave Hmw := (mayWait_list (F := F) cc (dsem (⟨74, by decide⟩ : Fin 140)) (List.drop 36 (paysL cc)) (by decide)) $$ Hlev
  iapply (wait_a7_at m cc _ 6 rfl) $$ [Hc HO Hmw Hp]
  · isplitr; · iexact HIc74
    isplitl [Hc]; · iexact Hc
    isplitl [HO]; · iexact HO
    isplitl [Hmw]; · iexact Hmw
    iexact Hp
  iintro ⟨HO, Hq74, -, Hy6⟩
  -- chunk 6 of the two neighbours' quarters: half its ownership stays for the copy into the result, of the other half one column half travels on
  ihave Hz6 := (Entails.of_eq (share_FG_eq (F := F) (r4R (zqF cc) 6) cc (r4 m cc))) $$ Hz6
  icases Hz6 with ⟨HzF6, HzG6⟩
  ihave HzF6 := (Entails.of_eq (chunk_halves (F := F) cc (zqF cc) 6 shF (r4 m cc))) $$ HzF6
  icases HzF6 with ⟨HzFl6, HzFr6⟩
  ihave Hy6 := (Entails.of_eq (share_FG_eq (F := F) (r4R (yqF cc) 6) cc (r4 m cc))) $$ Hy6
  icases Hy6 with ⟨HyF6, HyG6⟩
  ihave HyF6 := (Entails.of_eq (chunk_halves (F := F) cc (yqF cc) 6 shF (r4 m cc))) $$ HyF6
  icases HyF6 with ⟨HyFl6, HyFr6⟩
  sl_exec
  -- the right half of the z-neighbour's chunk 6 on to the y-neighbour
  icases Htk with ⟨Hts, Htr, Htk⟩
  icases HIt with ⟨#HIc98, #HIr, HIt⟩
  icases HRt with ⟨#HRs, #HRr, HRt⟩
  icases HhYp with ⟨⟨%fd, Hd⟩, HhYp⟩
  iapply (send_yf_at m cc _ (dev37_eq cc) 6 (by decide) _ _ (k0_off45_eq cc) fd (owedL (List.drop 37 (paysL cc))) rfl _) $$ [HzFr6 Hd HO Hts Htr]
  · isplitr; · iexact HIc98
    isplitr; · iexact HIr
    isplitl [HzFr6]; · iexact HzFr6
    isplitl [Hd]; · iexact Hd
    isplitl [HO]; · iexact HO
    isplitl [Hts]; · iexact Hts
    isplitr; · iexact HRs
    isplitl [Htr]; · iexact Htr
    iexact HRr
  iintro ⟨Hcyfs6, HO⟩
  iclear HIr HRs HRr
  sl_exec
  -- the left half of the y-neighbour's chunk 6 on to the z-neighbour
  icases Htk with ⟨Hts, Htr, Htk⟩
  icases HIt with ⟨#HIc82, #HIr, HIt⟩
  icases HRt with ⟨#HRs, #HRr, HRt⟩
  icases HhZp with ⟨⟨%fd, Hd⟩, HhZp⟩
  iapply (send_zf_at m cc _ (dev38_eq cc) 6 (by decide) _ _ (k0_off46_eq cc) fd (owedL (List.drop 38 (paysL cc))) rfl _) $$ [HyFl6 Hd HO Hts Htr]
  · isplitr; · iexact HIc82
    isplitr; · iexact HIr
    isplitl [HyFl6]; · iexact HyFl6
    isplitl [Hd]; · iexact Hd
    isplitl [HO]; · iexact HO
    isplitl [Hts]; · iexact Hts
    isplitr; · iexact HRs
    isplitl [Htr]; · iexact Htr
    iexact HRr
  iintro ⟨Hczfs6, HO⟩
  iclear HIr HRs HRr
  sl_exec
  -- the left half of chunk 5 of the diagonal quarter has landed
  icases Hcr with ⟨Hc, Hcr⟩
  icases HpR with ⟨Hp, HpR⟩
  icases HIw with ⟨#HIc89, HIw⟩
  ihave Hmw := (mayWait_list (F := F) cc (dsem (⟨89, by decide⟩ : Fin 140)) (List.drop 38 (paysL cc)) (by decide)) $$ Hlev
  iapply (wait_a9_at m cc _ 5 rfl (by decide)) $$ [Hc HO Hmw Hp]
  · isplitr; · iexact HIc89
    isplitl [Hc]; · iexact Hc
    isplitl [HO]; · iexact HO
    isplitl [Hmw]; · iexact Hmw
    iexact Hp
  iintro ⟨HO, Hq89, -, Hdl5⟩
  sl_exec
  -- its right half has landed
  icases Hcr with ⟨Hc, Hcr⟩
  icases HpR with ⟨Hp, HpR⟩
  icases HIw with ⟨#HIc105, HIw⟩
  ihave Hmw := (mayWait_list (F := F) cc (dsem (⟨105, by decide⟩ : Fin 140)) (List.drop 38 (paysL cc)) (by decide)) $$ Hlev
  iapply (wait_a11_at m cc _ 5 rfl (by decide)) $$ [Hc HO Hmw Hp]
  · isplitr; · iexact HIc105
    isplitl [Hc]; · iexact Hc
    isplitl [HO]; · iexact HO
    isplitl [Hmw]; · iexact Hmw
    iexact Hp
  iintro ⟨HO, Hq105, -, Hdr5⟩
  ihave Hd5 := (Entails.of_eq (chunk_halves (F := F) cc (dqF cc) 5 fullShare (r4 m cc)).symm) $$ [Hdl5 Hdr5]
  · isplitl [Hdl5]; · iexact Hdl5
    iexact Hdr5
  -- the four copies of chunk 5 into the result
  icases HvO with ⟨Hw5a, Hw5b, Hw5c, Hw5d, HvO⟩
  have hled38 : ∀ (s : DmaSem sig), lvJ s.val = 0 → ((levAts LL lvv : sProp 𝕄) ⊢ MayWait (cc : Thread nD τ) (.dma s) () (owedL (List.drop 38 (paysL cc)))) :=
    fun s hs => mayWait_local (F := F) cc s hs _ (by decide)
  sl_exec
  clear hled38
  -- after the loop: the z-neighbour's last chunk has landed
  icases Hcr with ⟨Hc, Hcr⟩
  icases HpR with ⟨Hp, HpR⟩
  icases HIw with ⟨#HIc59, HIw⟩
  ihave Hmw := (mayWait_list (F := F) cc (dsem (⟨59, by decide⟩ : Fin 140)) (List.drop 38 (paysL cc)) (by decide)) $$ Hlev
  iapply (wait_a5_at m cc _ 7 rfl) $$ [Hc HO Hmw Hp]
  · isplitr; · iexact HIc59
    isplitl [Hc]; · iexact Hc
    isplitl [HO]; · iexact HO
    isplitl [Hmw]; · iexact Hmw
    iexact Hp
  iintro ⟨HO, Hq59, -, Hz7⟩
  sl_exec
  -- the y-neighbour's last chunk has landed
  icases Hcr with ⟨Hc, Hcr⟩
  icases HpR with ⟨Hp, HpR⟩
  icases HIw with ⟨#HIc75, HIw⟩
  ihave Hmw := (mayWait_list (F := F) cc (dsem (⟨75, by decide⟩ : Fin 140)) (List.drop 38 (paysL cc)) (by decide)) $$ Hlev
  iapply (wait_a7_at m cc _ 7 rfl) $$ [Hc HO Hmw Hp]
  · isplitr; · iexact HIc75
    isplitl [Hc]; · iexact Hc
    isplitl [HO]; · iexact HO
    isplitl [Hmw]; · iexact Hmw
    iexact Hp
  iintro ⟨HO, Hq75, -, Hy7⟩
  -- chunk 7 of the two neighbours' quarters: half its ownership stays for the copy into the result, of the other half one column half travels on
  ihave Hz7 := (Entails.of_eq (share_FG_eq (F := F) (r4R (zqF cc) 7) cc (r4 m cc))) $$ Hz7
  icases Hz7 with ⟨HzF7, HzG7⟩
  ihave HzF7 := (Entails.of_eq (chunk_halves (F := F) cc (zqF cc) 7 shF (r4 m cc))) $$ HzF7
  icases HzF7 with ⟨HzFl7, HzFr7⟩
  ihave Hy7 := (Entails.of_eq (share_FG_eq (F := F) (r4R (yqF cc) 7) cc (r4 m cc))) $$ Hy7
  icases Hy7 with ⟨HyF7, HyG7⟩
  ihave HyF7 := (Entails.of_eq (chunk_halves (F := F) cc (yqF cc) 7 shF (r4 m cc))) $$ HyF7
  icases HyF7 with ⟨HyFl7, HyFr7⟩
  sl_exec
  -- the right half of the z-neighbour's last chunk on to the y-neighbour
  icases Htk with ⟨Hts, Htr, Htk⟩
  icases HIt with ⟨#HIc99, #HIr, HIt⟩
  icases HRt with ⟨#HRs, #HRr, HRt⟩
  icases HhYp with ⟨%fd, Hd⟩
  iapply (send_yf_at m cc _ (dev39_eq cc) 7 (by decide) _ _ (k0_off47_eq cc) fd (owedL (List.drop 39 (paysL cc))) rfl _) $$ [HzFr7 Hd HO Hts Htr]
  · isplitr; · iexact HIc99
    isplitr; · iexact HIr
    isplitl [HzFr7]; · iexact HzFr7
    isplitl [Hd]; · iexact Hd
    isplitl [HO]; · iexact HO
    isplitl [Hts]; · iexact Hts
    isplitr; · iexact HRs
    isplitl [Htr]; · iexact Htr
    iexact HRr
  iintro ⟨Hcyfs7, HO⟩
  iclear HIr HRs HRr
  sl_exec
  -- the left half of the y-neighbour's last chunk on to the z-neighbour
  icases Htk with ⟨Hts, Htr⟩
  icases HIt with ⟨#HIc83, #HIr⟩
  icases HRt with ⟨#HRs, #HRr⟩
  icases HhZp with ⟨%fd, Hd⟩
  iapply (send_zf_at m cc _ (dev40_eq cc) 7 (by decide) _ _ (k0_off48_eq cc) fd (owedL (List.drop 40 (paysL cc))) rfl _) $$ [HyFl7 Hd HO Hts Htr]
  · isplitr; · iexact HIc83
    isplitr; · iexact HIr
    isplitl [HyFl7]; · iexact HyFl7
    isplitl [Hd]; · iexact Hd
    isplitl [HO]; · iexact HO
    isplitl [Hts]; · iexact Hts
    isplitr; · iexact HRs
    isplitl [Htr]; · iexact Htr
    iexact HRr
  iintro ⟨Hczfs7, HO⟩
  iclear HIr HRs HRr
  sl_exec
  -- chunk 0 of the diagonal quarter: the x-neighbour's chunk has landed
  icases Hcr with ⟨Hc, Hcr⟩
  icases HpR with ⟨Hp, HpR⟩
  icases HIw with ⟨#HIc41, HIw⟩
  ihave Hmw := (mayWait_list (F := F) cc (dsem (⟨41, by decide⟩ : Fin 140)) (List.drop 40 (paysL cc)) (by decide)) $$ Hlev
  iapply (wait_a3_at m cc _ 0 rfl) $$ [Hc HO Hmw Hp]
  · isplitr; · iexact HIc41
    isplitl [Hc]; · iexact Hc
    isplitl [HO]; · iexact HO
    isplitl [Hmw]; · iexact Hmw
    iexact Hp
  iintro ⟨HO, Hq41, -, Hrb20⟩
  icases Hdg with ⟨Hdq0, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq0 := (congr (F := F) (r4R (dqF cc) 0) cc fullShare (dev.sl.Hdq0_w1 m f0) (r4 m cc) (fun i hi => glue_dgn m cc 0 0 rfl _ (k0_off18_inb cc) (k0_off18_eq cc) _ (k0_off49_inb cc) (k0_off49_eq cc) f0 i hi)) $$ Hdq0
  -- the four copies of chunk 0 into the result
  icases HvO with ⟨Hw0a, Hw0b, Hw0c, Hw0d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 1 of the diagonal quarter: the x-neighbour's chunk has landed
  icases Hcr with ⟨Hc, Hcr⟩
  icases HpR with ⟨Hp, HpR⟩
  icases HIw with ⟨#HIc42, HIw⟩
  ihave Hmw := (mayWait_list (F := F) cc (dsem (⟨42, by decide⟩ : Fin 140)) (List.drop 40 (paysL cc)) (by decide)) $$ Hlev
  iapply (wait_a3_at m cc _ 1 rfl) $$ [Hc HO Hmw Hp]
  · isplitr; · iexact HIc42
    isplitl [Hc]; · iexact Hc
    isplitl [HO]; · iexact HO
    isplitl [Hmw]; · iexact Hmw
    iexact Hp
  iintro ⟨HO, Hq42, -, Hrb21⟩
  icases Hdg with ⟨Hdq1, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq1 := (congr (F := F) (r4R (dqF cc) 1) cc fullShare (dev.sl.Hdq1_w1 m f0) (r4 m cc) (fun i hi => glue_dgn m cc 1 1 rfl _ (k0_off20_inb cc) (k0_off20_eq cc) _ (k0_off50_inb cc) (k0_off50_eq cc) f0 i hi)) $$ Hdq1
  -- the four copies of chunk 1 into the result
  icases HvO with ⟨Hw1a, Hw1b, Hw1c, Hw1d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 2 of the diagonal quarter: the x-neighbour's chunk has landed
  icases Hcr with ⟨Hc, Hcr⟩
  icases HpR with ⟨Hp, HpR⟩
  icases HIw with ⟨#HIc43, HIw⟩
  ihave Hmw := (mayWait_list (F := F) cc (dsem (⟨43, by decide⟩ : Fin 140)) (List.drop 40 (paysL cc)) (by decide)) $$ Hlev
  iapply (wait_a3_at m cc _ 2 rfl) $$ [Hc HO Hmw Hp]
  · isplitr; · iexact HIc43
    isplitl [Hc]; · iexact Hc
    isplitl [HO]; · iexact HO
    isplitl [Hmw]; · iexact Hmw
    iexact Hp
  iintro ⟨HO, Hq43, -, Hrb22⟩
  icases Hdg with ⟨Hdq2⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq2 := (congr (F := F) (r4R (dqF cc) 2) cc fullShare (dev.sl.Hdq2_w1 m f0) (r4 m cc) (fun i hi => glue_dgn m cc 2 2 rfl _ (k0_off22_inb cc) (k0_off22_eq cc) _ (k0_off51_inb cc) (k0_off51_eq cc) f0 i hi)) $$ Hdq2
  -- the four copies of chunk 2 into the result
  icases HvO with ⟨Hw2a, Hw2b, Hw2c, Hw2d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 6 of the diagonal quarter has landed
  icases Hcr with ⟨Hc, Hcr⟩
  icases HpR with ⟨Hp, HpR⟩
  icases HIw with ⟨#HIc90, HIw⟩
  ihave Hmw := (mayWait_list (F := F) cc (dsem (⟨90, by decide⟩ : Fin 140)) (List.drop 40 (paysL cc)) (by decide)) $$ Hlev
  iapply (wait_a9_at m cc _ 6 rfl (by decide)) $$ [Hc HO Hmw Hp]
  · isplitr; · iexact HIc90
    isplitl [Hc]; · iexact Hc
    isplitl [HO]; · iexact HO
    isplitl [Hmw]; · iexact Hmw
    iexact Hp
  iintro ⟨HO, Hq90, -, Hdl6⟩
  sl_exec
  -- its right half has landed
  icases Hcr with ⟨Hc, Hcr⟩
  icases HpR with ⟨Hp, HpR⟩
  icases HIw with ⟨#HIc106, HIw⟩
  ihave Hmw := (mayWait_list (F := F) cc (dsem (⟨106, by decide⟩ : Fin 140)) (List.drop 40 (paysL cc)) (by decide)) $$ Hlev
  iapply (wait_a11_at m cc _ 6 rfl (by decide)) $$ [Hc HO Hmw Hp]
  · isplitr; · iexact HIc106
    isplitl [Hc]; · iexact Hc
    isplitl [HO]; · iexact HO
    isplitl [Hmw]; · iexact Hmw
    iexact Hp
  iintro ⟨HO, Hq106, -, Hdr6⟩
  ihave Hd6 := (Entails.of_eq (chunk_halves (F := F) cc (dqF cc) 6 fullShare (r4 m cc)).symm) $$ [Hdl6 Hdr6]
  · isplitl [Hdl6]; · iexact Hdl6
    iexact Hdr6
  -- the four copies of chunk 6 into the result
  icases HvO with ⟨Hw6a, Hw6b, Hw6c, Hw6d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 7 of the diagonal quarter has landed
  icases Hcr with ⟨Hc, Hcr⟩
  icases HpR with ⟨Hp, HpR⟩
  icases HIw with ⟨#HIc91, HIw⟩
  ihave Hcr := ((sep_emp (PROP := sProp 𝕄)).2) $$ Hcr
  ihave Hmw := (mayWait_list (F := F) cc (dsem (⟨91, by decide⟩ : Fin 140)) (List.drop 40 (paysL cc)) (by decide)) $$ Hlev
  iapply (wait_a9_at m cc _ 7 rfl (by decide)) $$ [Hc HO Hmw Hp]
  · isplitr; · iexact HIc91
    isplitl [Hc]; · iexact Hc
    isplitl [HO]; · iexact HO
    isplitl [Hmw]; · iexact Hmw
    iexact Hp
  iintro ⟨HO, Hq91, -, Hdl7⟩
  sl_exec
  -- its right half has landed
  icases HIw with #HIc107
  icases Hcr with ⟨Hcr, -⟩
  ihave Hmw := (mayWait_list (F := F) cc (dsem (⟨107, by decide⟩ : Fin 140)) (List.drop 40 (paysL cc)) (by decide)) $$ Hlev
  iapply (wait_a11_at m cc _ 7 rfl (by decide)) $$ [Hcr HO Hmw HpR]
  · isplitr; · iexact HIc107
    isplitl [Hcr]; · iexact Hcr
    isplitl [HO]; · iexact HO
    isplitl [Hmw]; · iexact Hmw
    iexact HpR
  iintro ⟨HO, Hq107, -, Hdr7⟩
  ihave Hd7 := (Entails.of_eq (chunk_halves (F := F) cc (dqF cc) 7 fullShare (r4 m cc)).symm) $$ [Hdl7 Hdr7]
  · isplitl [Hdl7]; · iexact Hdl7
    iexact Hdr7
  -- the four copies of chunk 7 into the result
  icases HvO with ⟨Hw7a, Hw7b, Hw7c, Hw7d⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- nothing is owed any more: the level fact for the remaining local waits, once
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  -- the departure of chunk 0 across x
  icases HpS with ⟨Hp, HpS⟩
  ihave Hmw := (mayWait_list (F := F) cc (dsem (⟨22, by decide⟩ : Fin 140)) (List.drop 40 (paysL cc)) (by decide)) $$ Hlev
  iapply (wait_a0_at m cc _ 0 rfl) $$ [Hcxs0 HO Hmw Hp]
  · isplitr; · iexact HIc22
    isplitl [Hcxs0]; · iexact Hcxs0
    isplitl [HO]; · iexact HO
    isplitl [Hmw]; · iexact Hmw
    iexact Hp
  iintro ⟨HO, Hq22, -, HBs0⟩
  sl_exec
  -- of own chunk 0 to z
  icases HpS with ⟨Hp, HpS⟩
  ihave Hmw := (mayWait_list (F := F) cc (dsem (⟨44, by decide⟩ : Fin 140)) (List.drop 40 (paysL cc)) (by decide)) $$ Hlev
  iapply (wait_a4_at m cc _ 0 rfl) $$ [Hczs0 HO Hmw Hp]
  · isplitr; · iexact HIc44
    isplitl [Hczs0]; · iexact Hczs0
    isplitl [HO]; · iexact HO
    isplitl [Hmw]; · iexact Hmw
    iexact Hp
  iintro ⟨HO, Hq44, -, HoZb0⟩
  sl_exec
  -- of own chunk 0 to y
  icases HpS with ⟨Hp, HpS⟩
  ihave Hmw := (mayWait_list (F := F) cc (dsem (⟨60, by decide⟩ : Fin 140)) (List.drop 40 (paysL cc)) (by decide)) $$ Hlev
  iapply (wait_a6_at m cc _ 0 rfl) $$ [Hcys0 HO Hmw Hp]
  · isplitr; · iexact HIc60
    isplitl [Hcys0]; · iexact Hcys0
    isplitl [HO]; · iexact HO
    isplitl [Hmw]; · iexact Hmw
    iexact Hp
  iintro ⟨HO, Hq60, -, HoYb0⟩
  sl_exec
  -- the departure of chunk 1 across x
  icases HpS with ⟨Hp, HpS⟩
  ihave Hmw := (mayWait_list (F := F) cc (dsem (⟨23, by decide⟩ : Fin 140)) (List.drop 40 (paysL cc)) (by decide)) $$ Hlev
  iapply (wait_a0_at m cc _ 1 rfl) $$ [Hcxs1 HO Hmw Hp]
  · isplitr; · iexact HIc23
    isplitl [Hcxs1]; · iexact Hcxs1
    isplitl [HO]; · iexact HO
    isplitl [Hmw]; · iexact Hmw
    iexact Hp
  iintro ⟨HO, Hq23, -, HBs1⟩
  sl_exec
  -- of own chunk 1 to z
  icases HpS with ⟨Hp, HpS⟩
  ihave Hmw := (mayWait_list (F := F) cc (dsem (⟨45, by decide⟩ : Fin 140)) (List.drop 40 (paysL cc)) (by decide)) $$ Hlev
  iapply (wait_a4_at m cc _ 1 rfl) $$ [Hczs1 HO Hmw Hp]
  · isplitr; · iexact HIc45
    isplitl [Hczs1]; · iexact Hczs1
    isplitl [HO]; · iexact HO
    isplitl [Hmw]; · iexact Hmw
    iexact Hp
  iintro ⟨HO, Hq45, -, HoZb1⟩
  sl_exec
  -- of own chunk 1 to y
  icases HpS with ⟨Hp, HpS⟩
  ihave Hmw := (mayWait_list (F := F) cc (dsem (⟨61, by decide⟩ : Fin 140)) (List.drop 40 (paysL cc)) (by decide)) $$ Hlev
  iapply (wait_a6_at m cc _ 1 rfl) $$ [Hcys1 HO Hmw Hp]
  · isplitr; · iexact HIc61
    isplitl [Hcys1]; · iexact Hcys1
    isplitl [HO]; · iexact HO
    isplitl [Hmw]; · iexact Hmw
    iexact Hp
  iintro ⟨HO, Hq61, -, HoYb1⟩
  sl_exec
  -- the departure of chunk 2 across x
  icases HpS with ⟨Hp, HpS⟩
  ihave Hmw := (mayWait_list (F := F) cc (dsem (⟨24, by decide⟩ : Fin 140)) (List.drop 40 (paysL cc)) (by decide)) $$ Hlev
  iapply (wait_a0_at m cc _ 2 rfl) $$ [Hcxs2 HO Hmw Hp]
  · isplitr; · iexact HIc24
    isplitl [Hcxs2]; · iexact Hcxs2
    isplitl [HO]; · iexact HO
    isplitl [Hmw]; · iexact Hmw
    iexact Hp
  iintro ⟨HO, Hq24, -, HBs2⟩
  sl_exec
  -- of own chunk 2 to z
  icases HpS with ⟨Hp, HpS⟩
  ihave Hmw := (mayWait_list (F := F) cc (dsem (⟨46, by decide⟩ : Fin 140)) (List.drop 40 (paysL cc)) (by decide)) $$ Hlev
  iapply (wait_a4_at m cc _ 2 rfl) $$ [Hczs2 HO Hmw Hp]
  · isplitr; · iexact HIc46
    isplitl [Hczs2]; · iexact Hczs2
    isplitl [HO]; · iexact HO
    isplitl [Hmw]; · iexact Hmw
    iexact Hp
  iintro ⟨HO, Hq46, -, HoZb2⟩
  sl_exec
  -- of own chunk 2 to y
  icases HpS with ⟨Hp, HpS⟩
  ihave Hmw := (mayWait_list (F := F) cc (dsem (⟨62, by decide⟩ : Fin 140)) (List.drop 40 (paysL cc)) (by decide)) $$ Hlev
  iapply (wait_a6_at m cc _ 2 rfl) $$ [Hcys2 HO Hmw Hp]
  · isplitr; · iexact HIc62
    isplitl [Hcys2]; · iexact Hcys2
    isplitl [HO]; · iexact HO
    isplitl [Hmw]; · iexact Hmw
    iexact Hp
  iintro ⟨HO, Hq62, -, HoYb2⟩
  sl_exec
  -- the departure of chunk 3 across x
  icases HpS with ⟨Hp, HpS⟩
  ihave Hmw := (mayWait_list (F := F) cc (dsem (⟨25, by decide⟩ : Fin 140)) (List.drop 40 (paysL cc)) (by decide)) $$ Hlev
  iapply (wait_a0_at m cc _ 3 rfl) $$ [Hcxs3 HO Hmw Hp]
  · isplitr; · iexact HIc25
    isplitl [Hcxs3]; · iexact Hcxs3
    isplitl [HO]; · iexact HO
    isplitl [Hmw]; · iexact Hmw
    iexact Hp
  iintro ⟨HO, Hq25, -, HBs3⟩
  sl_exec
  -- of own chunk 3 to z
  icases HpS with ⟨Hp, HpS⟩
  ihave Hmw := (mayWait_list (F := F) cc (dsem (⟨47, by decide⟩ : Fin 140)) (List.drop 40 (paysL cc)) (by decide)) $$ Hlev
  iapply (wait_a4_at m cc _ 3 rfl) $$ [Hczs3 HO Hmw Hp]
  · isplitr; · iexact HIc47
    isplitl [Hczs3]; · iexact Hczs3
    isplitl [HO]; · iexact HO
    isplitl [Hmw]; · iexact Hmw
    iexact Hp
  iintro ⟨HO, Hq47, -, HoZb3⟩
  sl_exec
  -- of own chunk 3 to y
  icases HpS with ⟨Hp, HpS⟩
  ihave Hmw := (mayWait_list (F := F) cc (dsem (⟨63, by decide⟩ : Fin 140)) (List.drop 40 (paysL cc)) (by decide)) $$ Hlev
  iapply (wait_a6_at m cc _ 3 rfl) $$ [Hcys3 HO Hmw Hp]
  · isplitr; · iexact HIc63
    isplitl [Hcys3]; · iexact Hcys3
    isplitl [HO]; · iexact HO
    isplitl [Hmw]; · iexact Hmw
    iexact Hp
  iintro ⟨HO, Hq63, -, HoYb3⟩
  sl_exec
  -- of the forwarded half to z
  icases HpS with ⟨Hp, HpS⟩
  ihave Hmw := (mayWait_list (F := F) cc (dsem (⟨79, by decide⟩ : Fin 140)) (List.drop 40 (paysL cc)) (by decide)) $$ Hlev
  iapply (wait_a8_at m cc _ 3 rfl (by decide)) $$ [Hczfs3 HO Hmw Hp]
  · isplitr; · iexact HIc79
    isplitl [Hczfs3]; · iexact Hczfs3
    isplitl [HO]; · iexact HO
    isplitl [Hmw]; · iexact Hmw
    iexact Hp
  iintro ⟨HO, Hq79, -, HyFlb3⟩
  sl_exec
  -- of the forwarded half to y
  icases HpS with ⟨Hp, HpS⟩
  ihave Hmw := (mayWait_list (F := F) cc (dsem (⟨95, by decide⟩ : Fin 140)) (List.drop 40 (paysL cc)) (by decide)) $$ Hlev
  iapply (wait_a10_at m cc _ 3 rfl (by decide)) $$ [Hcyfs3 HO Hmw Hp]
  · isplitr; · iexact HIc95
    isplitl [Hcyfs3]; · iexact Hcyfs3
    isplitl [HO]; · iexact HO
    isplitl [Hmw]; · iexact Hmw
    iexact Hp
  iintro ⟨HO, Hq95, -, HzFrb3⟩
  sl_exec
  -- the departure of chunk 4 across x
  icases HpS with ⟨Hp, HpS⟩
  ihave Hmw := (mayWait_list (F := F) cc (dsem (⟨26, by decide⟩ : Fin 140)) (List.drop 40 (paysL cc)) (by decide)) $$ Hlev
  iapply (wait_a0_at m cc _ 4 rfl) $$ [Hcxs4 HO Hmw Hp]
  · isplitr; · iexact HIc26
    isplitl [Hcxs4]; · iexact Hcxs4
    isplitl [HO]; · iexact HO
    isplitl [Hmw]; · iexact Hmw
    iexact Hp
  iintro ⟨HO, Hq26, -, HBs4⟩
  sl_exec
  -- of own chunk 4 to z
  icases HpS with ⟨Hp, HpS⟩
  ihave Hmw := (mayWait_list (F := F) cc (dsem (⟨48, by decide⟩ : Fin 140)) (List.drop 40 (paysL cc)) (by decide)) $$ Hlev
  iapply (wait_a4_at m cc _ 4 rfl) $$ [Hczs4 HO Hmw Hp]
  · isplitr; · iexact HIc48
    isplitl [Hczs4]; · iexact Hczs4
    isplitl [HO]; · iexact HO
    isplitl [Hmw]; · iexact Hmw
    iexact Hp
  iintro ⟨HO, Hq48, -, HoZb4⟩
  sl_exec
  -- of own chunk 4 to y
  icases HpS with ⟨Hp, HpS⟩
  ihave Hmw := (mayWait_list (F := F) cc (dsem (⟨64, by decide⟩ : Fin 140)) (List.drop 40 (paysL cc)) (by decide)) $$ Hlev
  iapply (wait_a6_at m cc _ 4 rfl) $$ [Hcys4 HO Hmw Hp]
  · isplitr; · iexact HIc64
    isplitl [Hcys4]; · iexact Hcys4
    isplitl [HO]; · iexact HO
    isplitl [Hmw]; · iexact Hmw
    iexact Hp
  iintro ⟨HO, Hq64, -, HoYb4⟩
  sl_exec
  -- of the forwarded half to z
  icases HpS with ⟨Hp, HpS⟩
  ihave Hmw := (mayWait_list (F := F) cc (dsem (⟨80, by decide⟩ : Fin 140)) (List.drop 40 (paysL cc)) (by decide)) $$ Hlev
  iapply (wait_a8_at m cc _ 4 rfl (by decide)) $$ [Hczfs4 HO Hmw Hp]
  · isplitr; · iexact HIc80
    isplitl [Hczfs4]; · iexact Hczfs4
    isplitl [HO]; · iexact HO
    isplitl [Hmw]; · iexact Hmw
    iexact Hp
  iintro ⟨HO, Hq80, -, HyFlb4⟩
  sl_exec
  -- of the forwarded half to y
  icases HpS with ⟨Hp, HpS⟩
  ihave Hmw := (mayWait_list (F := F) cc (dsem (⟨96, by decide⟩ : Fin 140)) (List.drop 40 (paysL cc)) (by decide)) $$ Hlev
  iapply (wait_a10_at m cc _ 4 rfl (by decide)) $$ [Hcyfs4 HO Hmw Hp]
  · isplitr; · iexact HIc96
    isplitl [Hcyfs4]; · iexact Hcyfs4
    isplitl [HO]; · iexact HO
    isplitl [Hmw]; · iexact Hmw
    iexact Hp
  iintro ⟨HO, Hq96, -, HzFrb4⟩
  sl_exec
  -- the departure of chunk 5 across x
  icases HpS with ⟨Hp, HpS⟩
  ihave Hmw := (mayWait_list (F := F) cc (dsem (⟨27, by decide⟩ : Fin 140)) (List.drop 40 (paysL cc)) (by decide)) $$ Hlev
  iapply (wait_a0_at m cc _ 5 rfl) $$ [Hcxs5 HO Hmw Hp]
  · isplitr; · iexact HIc27
    isplitl [Hcxs5]; · iexact Hcxs5
    isplitl [HO]; · iexact HO
    isplitl [Hmw]; · iexact Hmw
    iexact Hp
  iintro ⟨HO, Hq27, -, HBs5⟩
  sl_exec
  -- of own chunk 5 to z
  icases HpS with ⟨Hp, HpS⟩
  ihave Hmw := (mayWait_list (F := F) cc (dsem (⟨49, by decide⟩ : Fin 140)) (List.drop 40 (paysL cc)) (by decide)) $$ Hlev
  iapply (wait_a4_at m cc _ 5 rfl) $$ [Hczs5 HO Hmw Hp]
  · isplitr; · iexact HIc49
    isplitl [Hczs5]; · iexact Hczs5
    isplitl [HO]; · iexact HO
    isplitl [Hmw]; · iexact Hmw
    iexact Hp
  iintro ⟨HO, Hq49, -, HoZb5⟩
  sl_exec
  -- of own chunk 5 to y
  icases HpS with ⟨Hp, HpS⟩
  ihave Hmw := (mayWait_list (F := F) cc (dsem (⟨65, by decide⟩ : Fin 140)) (List.drop 40 (paysL cc)) (by decide)) $$ Hlev
  iapply (wait_a6_at m cc _ 5 rfl) $$ [Hcys5 HO Hmw Hp]
  · isplitr; · iexact HIc65
    isplitl [Hcys5]; · iexact Hcys5
    isplitl [HO]; · iexact HO
    isplitl [Hmw]; · iexact Hmw
    iexact Hp
  iintro ⟨HO, Hq65, -, HoYb5⟩
  sl_exec
  -- of the forwarded half to z
  icases HpS with ⟨Hp, HpS⟩
  ihave Hmw := (mayWait_list (F := F) cc (dsem (⟨81, by decide⟩ : Fin 140)) (List.drop 40 (paysL cc)) (by decide)) $$ Hlev
  iapply (wait_a8_at m cc _ 5 rfl (by decide)) $$ [Hczfs5 HO Hmw Hp]
  · isplitr; · iexact HIc81
    isplitl [Hczfs5]; · iexact Hczfs5
    isplitl [HO]; · iexact HO
    isplitl [Hmw]; · iexact Hmw
    iexact Hp
  iintro ⟨HO, Hq81, -, HyFlb5⟩
  sl_exec
  -- of the forwarded half to y
  icases HpS with ⟨Hp, HpS⟩
  ihave Hmw := (mayWait_list (F := F) cc (dsem (⟨97, by decide⟩ : Fin 140)) (List.drop 40 (paysL cc)) (by decide)) $$ Hlev
  iapply (wait_a10_at m cc _ 5 rfl (by decide)) $$ [Hcyfs5 HO Hmw Hp]
  · isplitr; · iexact HIc97
    isplitl [Hcyfs5]; · iexact Hcyfs5
    isplitl [HO]; · iexact HO
    isplitl [Hmw]; · iexact Hmw
    iexact Hp
  iintro ⟨HO, Hq97, -, HzFrb5⟩
  sl_exec
  -- the departure of chunk 6 across x
  icases HpS with ⟨Hp, HpS⟩
  ihave Hmw := (mayWait_list (F := F) cc (dsem (⟨28, by decide⟩ : Fin 140)) (List.drop 40 (paysL cc)) (by decide)) $$ Hlev
  iapply (wait_a0_at m cc _ 6 rfl) $$ [Hcxs6 HO Hmw Hp]
  · isplitr; · iexact HIc28
    isplitl [Hcxs6]; · iexact Hcxs6
    isplitl [HO]; · iexact HO
    isplitl [Hmw]; · iexact Hmw
    iexact Hp
  iintro ⟨HO, Hq28, -, HBs6⟩
  sl_exec
  -- of own chunk 6 to z
  icases HpS with ⟨Hp, HpS⟩
  ihave Hmw := (mayWait_list (F := F) cc (dsem (⟨50, by decide⟩ : Fin 140)) (List.drop 40 (paysL cc)) (by decide)) $$ Hlev
  iapply (wait_a4_at m cc _ 6 rfl) $$ [Hczs6 HO Hmw Hp]
  · isplitr; · iexact HIc50
    isplitl [Hczs6]; · iexact Hczs6
    isplitl [HO]; · iexact HO
    isplitl [Hmw]; · iexact Hmw
    iexact Hp
  iintro ⟨HO, Hq50, -, HoZb6⟩
  sl_exec
  -- of own chunk 6 to y
  icases HpS with ⟨Hp, HpS⟩
  ihave Hmw := (mayWait_list (F := F) cc (dsem (⟨66, by decide⟩ : Fin 140)) (List.drop 40 (paysL cc)) (by decide)) $$ Hlev
  iapply (wait_a6_at m cc _ 6 rfl) $$ [Hcys6 HO Hmw Hp]
  · isplitr; · iexact HIc66
    isplitl [Hcys6]; · iexact Hcys6
    isplitl [HO]; · iexact HO
    isplitl [Hmw]; · iexact Hmw
    iexact Hp
  iintro ⟨HO, Hq66, -, HoYb6⟩
  sl_exec
  -- of the forwarded half to z
  icases HpS with ⟨Hp, HpS⟩
  ihave Hmw := (mayWait_list (F := F) cc (dsem (⟨82, by decide⟩ : Fin 140)) (List.drop 40 (paysL cc)) (by decide)) $$ Hlev
  iapply (wait_a8_at m cc _ 6 rfl (by decide)) $$ [Hczfs6 HO Hmw Hp]
  · isplitr; · iexact HIc82
    isplitl [Hczfs6]; · iexact Hczfs6
    isplitl [HO]; · iexact HO
    isplitl [Hmw]; · iexact Hmw
    iexact Hp
  iintro ⟨HO, Hq82, -, HyFlb6⟩
  sl_exec
  -- of the forwarded half to y
  icases HpS with ⟨Hp, HpS⟩
  ihave Hmw := (mayWait_list (F := F) cc (dsem (⟨98, by decide⟩ : Fin 140)) (List.drop 40 (paysL cc)) (by decide)) $$ Hlev
  iapply (wait_a10_at m cc _ 6 rfl (by decide)) $$ [Hcyfs6 HO Hmw Hp]
  · isplitr; · iexact HIc98
    isplitl [Hcyfs6]; · iexact Hcyfs6
    isplitl [HO]; · iexact HO
    isplitl [Hmw]; · iexact Hmw
    iexact Hp
  iintro ⟨HO, Hq98, -, HzFrb6⟩
  sl_exec
  -- the departure of chunk 7 across x
  icases HpS with ⟨Hp, HpS⟩
  ihave Hmw := (mayWait_list (F := F) cc (dsem (⟨29, by decide⟩ : Fin 140)) (List.drop 40 (paysL cc)) (by decide)) $$ Hlev
  iapply (wait_a0_at m cc _ 7 rfl) $$ [Hcxs7 HO Hmw Hp]
  · isplitr; · iexact HIc29
    isplitl [Hcxs7]; · iexact Hcxs7
    isplitl [HO]; · iexact HO
    isplitl [Hmw]; · iexact Hmw
    iexact Hp
  iintro ⟨HO, Hq29, -, HBs7⟩
  sl_exec
  -- of own chunk 7 to z
  icases HpS with ⟨Hp, HpS⟩
  ihave Hmw := (mayWait_list (F := F) cc (dsem (⟨51, by decide⟩ : Fin 140)) (List.drop 40 (paysL cc)) (by decide)) $$ Hlev
  iapply (wait_a4_at m cc _ 7 rfl) $$ [Hczs7 HO Hmw Hp]
  · isplitr; · iexact HIc51
    isplitl [Hczs7]; · iexact Hczs7
    isplitl [HO]; · iexact HO
    isplitl [Hmw]; · iexact Hmw
    iexact Hp
  iintro ⟨HO, Hq51, -, HoZb7⟩
  sl_exec
  -- of own chunk 7 to y
  icases HpS with ⟨Hp, HpS⟩
  ihave Hmw := (mayWait_list (F := F) cc (dsem (⟨67, by decide⟩ : Fin 140)) (List.drop 40 (paysL cc)) (by decide)) $$ Hlev
  iapply (wait_a6_at m cc _ 7 rfl) $$ [Hcys7 HO Hmw Hp]
  · isplitr; · iexact HIc67
    isplitl [Hcys7]; · iexact Hcys7
    isplitl [HO]; · iexact HO
    isplitl [Hmw]; · iexact Hmw
    iexact Hp
  iintro ⟨HO, Hq67, -, HoYb7⟩
  sl_exec
  -- of the forwarded half to z
  icases HpS with ⟨Hp, HpS⟩
  ihave Hmw := (mayWait_list (F := F) cc (dsem (⟨83, by decide⟩ : Fin 140)) (List.drop 40 (paysL cc)) (by decide)) $$ Hlev
  iapply (wait_a8_at m cc _ 7 rfl (by decide)) $$ [Hczfs7 HO Hmw Hp]
  · isplitr; · iexact HIc83
    isplitl [Hczfs7]; · iexact Hczfs7
    isplitl [HO]; · iexact HO
    isplitl [Hmw]; · iexact Hmw
    iexact Hp
  iintro ⟨HO, Hq83, -, HyFlb7⟩
  sl_exec
  -- of the forwarded half to y
  icases HpS with ⟨Hp, HpS⟩
  ihave Hmw := (mayWait_list (F := F) cc (dsem (⟨99, by decide⟩ : Fin 140)) (List.drop 40 (paysL cc)) (by decide)) $$ Hlev
  iapply (wait_a10_at m cc _ 7 rfl (by decide)) $$ [Hcyfs7 HO Hmw Hp]
  · isplitr; · iexact HIc99
    isplitl [Hcyfs7]; · iexact Hcyfs7
    isplitl [HO]; · iexact HO
    isplitl [Hmw]; · iexact Hmw
    iexact Hp
  iintro ⟨HO, Hq99, -, HzFrb7⟩
  sl_exec
  -- of chunk 0 of the diagonal quarter across x
  icases HpS with ⟨Hp, HpS⟩
  ihave Hmw := (mayWait_list (F := F) cc (dsem (⟨38, by decide⟩ : Fin 140)) (List.drop 40 (paysL cc)) (by decide)) $$ Hlev
  iapply (wait_a2_at m cc _ 0 rfl) $$ [Hcds0 HO Hmw Hp]
  · isplitr; · iexact HIc38
    isplitl [Hcds0]; · iexact Hcds0
    isplitl [HO]; · iexact HO
    isplitl [Hmw]; · iexact Hmw
    iexact Hp
  iintro ⟨HO, Hq38, -, HB2s0⟩
  sl_exec
  -- of chunk 1 of the diagonal quarter across x
  icases HpS with ⟨Hp, HpS⟩
  ihave HpS := ((sep_emp (PROP := sProp 𝕄)).2) $$ HpS
  ihave Hmw := (mayWait_list (F := F) cc (dsem (⟨39, by decide⟩ : Fin 140)) (List.drop 40 (paysL cc)) (by decide)) $$ Hlev
  iapply (wait_a2_at m cc _ 1 rfl) $$ [Hcds1 HO Hmw Hp]
  · isplitr; · iexact HIc39
    isplitl [Hcds1]; · iexact Hcds1
    isplitl [HO]; · iexact HO
    isplitl [Hmw]; · iexact Hmw
    iexact Hp
  iintro ⟨HO, Hq39, -, HB2s1⟩
  sl_exec
  -- of chunk 2 of the diagonal quarter across x

  icases HpS with ⟨HpS, -⟩
  ihave Hmw := (mayWait_list (F := F) cc (dsem (⟨40, by decide⟩ : Fin 140)) (List.drop 40 (paysL cc)) (by decide)) $$ Hlev
  iapply (wait_a2_at m cc _ 2 rfl) $$ [Hcds2 HO Hmw HpS]
  · isplitr; · iexact HIc40
    isplitl [Hcds2]; · iexact Hcds2
    isplitl [HO]; · iexact HO
    isplitl [Hmw]; · iexact Hmw
    iexact HpS
  iintro ⟨HO, Hq40, -, HB2s2⟩
  sl_exec
  -- every cell of the protocol on this device has had its one round: close them, their counters are the device's again
  imod (close_cell (F := F) m cc (⟨22, by decide⟩ : Fin 140) (by decide)) $$ [Hq22] with Hv22
  · isplitr; · iexact HIc22
    iexact Hq22
  imod (close_cell (F := F) m cc (⟨23, by decide⟩ : Fin 140) (by decide)) $$ [Hq23] with Hv23
  · isplitr; · iexact HIc23
    iexact Hq23
  imod (close_cell (F := F) m cc (⟨24, by decide⟩ : Fin 140) (by decide)) $$ [Hq24] with Hv24
  · isplitr; · iexact HIc24
    iexact Hq24
  imod (close_cell (F := F) m cc (⟨25, by decide⟩ : Fin 140) (by decide)) $$ [Hq25] with Hv25
  · isplitr; · iexact HIc25
    iexact Hq25
  imod (close_cell (F := F) m cc (⟨26, by decide⟩ : Fin 140) (by decide)) $$ [Hq26] with Hv26
  · isplitr; · iexact HIc26
    iexact Hq26
  imod (close_cell (F := F) m cc (⟨27, by decide⟩ : Fin 140) (by decide)) $$ [Hq27] with Hv27
  · isplitr; · iexact HIc27
    iexact Hq27
  imod (close_cell (F := F) m cc (⟨28, by decide⟩ : Fin 140) (by decide)) $$ [Hq28] with Hv28
  · isplitr; · iexact HIc28
    iexact Hq28
  imod (close_cell (F := F) m cc (⟨29, by decide⟩ : Fin 140) (by decide)) $$ [Hq29] with Hv29
  · isplitr; · iexact HIc29
    iexact Hq29
  imod (close_cell (F := F) m cc (⟨30, by decide⟩ : Fin 140) (by decide)) $$ [Hq30] with Hv30
  · isplitr; · iexact HIc30
    iexact Hq30
  imod (close_cell (F := F) m cc (⟨31, by decide⟩ : Fin 140) (by decide)) $$ [Hq31] with Hv31
  · isplitr; · iexact HIc31
    iexact Hq31
  imod (close_cell (F := F) m cc (⟨32, by decide⟩ : Fin 140) (by decide)) $$ [Hq32] with Hv32
  · isplitr; · iexact HIc32
    iexact Hq32
  imod (close_cell (F := F) m cc (⟨33, by decide⟩ : Fin 140) (by decide)) $$ [Hq33] with Hv33
  · isplitr; · iexact HIc33
    iexact Hq33
  imod (close_cell (F := F) m cc (⟨34, by decide⟩ : Fin 140) (by decide)) $$ [Hq34] with Hv34
  · isplitr; · iexact HIc34
    iexact Hq34
  imod (close_cell (F := F) m cc (⟨35, by decide⟩ : Fin 140) (by decide)) $$ [Hq35] with Hv35
  · isplitr; · iexact HIc35
    iexact Hq35
  imod (close_cell (F := F) m cc (⟨36, by decide⟩ : Fin 140) (by decide)) $$ [Hq36] with Hv36
  · isplitr; · iexact HIc36
    iexact Hq36
  imod (close_cell (F := F) m cc (⟨37, by decide⟩ : Fin 140) (by decide)) $$ [Hq37] with Hv37
  · isplitr; · iexact HIc37
    iexact Hq37
  imod (close_cell (F := F) m cc (⟨38, by decide⟩ : Fin 140) (by decide)) $$ [Hq38] with Hv38
  · isplitr; · iexact HIc38
    iexact Hq38
  imod (close_cell (F := F) m cc (⟨39, by decide⟩ : Fin 140) (by decide)) $$ [Hq39] with Hv39
  · isplitr; · iexact HIc39
    iexact Hq39
  imod (close_cell (F := F) m cc (⟨40, by decide⟩ : Fin 140) (by decide)) $$ [Hq40] with Hv40
  · isplitr; · iexact HIc40
    iexact Hq40
  imod (close_cell (F := F) m cc (⟨41, by decide⟩ : Fin 140) (by decide)) $$ [Hq41] with Hv41
  · isplitr; · iexact HIc41
    iexact Hq41
  imod (close_cell (F := F) m cc (⟨42, by decide⟩ : Fin 140) (by decide)) $$ [Hq42] with Hv42
  · isplitr; · iexact HIc42
    iexact Hq42
  imod (close_cell (F := F) m cc (⟨43, by decide⟩ : Fin 140) (by decide)) $$ [Hq43] with Hv43
  · isplitr; · iexact HIc43
    iexact Hq43
  imod (close_cell (F := F) m cc (⟨44, by decide⟩ : Fin 140) (by decide)) $$ [Hq44] with Hv44
  · isplitr; · iexact HIc44
    iexact Hq44
  imod (close_cell (F := F) m cc (⟨45, by decide⟩ : Fin 140) (by decide)) $$ [Hq45] with Hv45
  · isplitr; · iexact HIc45
    iexact Hq45
  imod (close_cell (F := F) m cc (⟨46, by decide⟩ : Fin 140) (by decide)) $$ [Hq46] with Hv46
  · isplitr; · iexact HIc46
    iexact Hq46
  imod (close_cell (F := F) m cc (⟨47, by decide⟩ : Fin 140) (by decide)) $$ [Hq47] with Hv47
  · isplitr; · iexact HIc47
    iexact Hq47
  imod (close_cell (F := F) m cc (⟨48, by decide⟩ : Fin 140) (by decide)) $$ [Hq48] with Hv48
  · isplitr; · iexact HIc48
    iexact Hq48
  imod (close_cell (F := F) m cc (⟨49, by decide⟩ : Fin 140) (by decide)) $$ [Hq49] with Hv49
  · isplitr; · iexact HIc49
    iexact Hq49
  imod (close_cell (F := F) m cc (⟨50, by decide⟩ : Fin 140) (by decide)) $$ [Hq50] with Hv50
  · isplitr; · iexact HIc50
    iexact Hq50
  imod (close_cell (F := F) m cc (⟨51, by decide⟩ : Fin 140) (by decide)) $$ [Hq51] with Hv51
  · isplitr; · iexact HIc51
    iexact Hq51
  imod (close_cell (F := F) m cc (⟨52, by decide⟩ : Fin 140) (by decide)) $$ [Hq52] with Hv52
  · isplitr; · iexact HIc52
    iexact Hq52
  imod (close_cell (F := F) m cc (⟨53, by decide⟩ : Fin 140) (by decide)) $$ [Hq53] with Hv53
  · isplitr; · iexact HIc53
    iexact Hq53
  imod (close_cell (F := F) m cc (⟨54, by decide⟩ : Fin 140) (by decide)) $$ [Hq54] with Hv54
  · isplitr; · iexact HIc54
    iexact Hq54
  imod (close_cell (F := F) m cc (⟨55, by decide⟩ : Fin 140) (by decide)) $$ [Hq55] with Hv55
  · isplitr; · iexact HIc55
    iexact Hq55
  imod (close_cell (F := F) m cc (⟨56, by decide⟩ : Fin 140) (by decide)) $$ [Hq56] with Hv56
  · isplitr; · iexact HIc56
    iexact Hq56
  imod (close_cell (F := F) m cc (⟨57, by decide⟩ : Fin 140) (by decide)) $$ [Hq57] with Hv57
  · isplitr; · iexact HIc57
    iexact Hq57
  imod (close_cell (F := F) m cc (⟨58, by decide⟩ : Fin 140) (by decide)) $$ [Hq58] with Hv58
  · isplitr; · iexact HIc58
    iexact Hq58
  imod (close_cell (F := F) m cc (⟨59, by decide⟩ : Fin 140) (by decide)) $$ [Hq59] with Hv59
  · isplitr; · iexact HIc59
    iexact Hq59
  imod (close_cell (F := F) m cc (⟨60, by decide⟩ : Fin 140) (by decide)) $$ [Hq60] with Hv60
  · isplitr; · iexact HIc60
    iexact Hq60
  imod (close_cell (F := F) m cc (⟨61, by decide⟩ : Fin 140) (by decide)) $$ [Hq61] with Hv61
  · isplitr; · iexact HIc61
    iexact Hq61
  imod (close_cell (F := F) m cc (⟨62, by decide⟩ : Fin 140) (by decide)) $$ [Hq62] with Hv62
  · isplitr; · iexact HIc62
    iexact Hq62
  imod (close_cell (F := F) m cc (⟨63, by decide⟩ : Fin 140) (by decide)) $$ [Hq63] with Hv63
  · isplitr; · iexact HIc63
    iexact Hq63
  imod (close_cell (F := F) m cc (⟨64, by decide⟩ : Fin 140) (by decide)) $$ [Hq64] with Hv64
  · isplitr; · iexact HIc64
    iexact Hq64
  imod (close_cell (F := F) m cc (⟨65, by decide⟩ : Fin 140) (by decide)) $$ [Hq65] with Hv65
  · isplitr; · iexact HIc65
    iexact Hq65
  imod (close_cell (F := F) m cc (⟨66, by decide⟩ : Fin 140) (by decide)) $$ [Hq66] with Hv66
  · isplitr; · iexact HIc66
    iexact Hq66
  imod (close_cell (F := F) m cc (⟨67, by decide⟩ : Fin 140) (by decide)) $$ [Hq67] with Hv67
  · isplitr; · iexact HIc67
    iexact Hq67
  imod (close_cell (F := F) m cc (⟨68, by decide⟩ : Fin 140) (by decide)) $$ [Hq68] with Hv68
  · isplitr; · iexact HIc68
    iexact Hq68
  imod (close_cell (F := F) m cc (⟨69, by decide⟩ : Fin 140) (by decide)) $$ [Hq69] with Hv69
  · isplitr; · iexact HIc69
    iexact Hq69
  imod (close_cell (F := F) m cc (⟨70, by decide⟩ : Fin 140) (by decide)) $$ [Hq70] with Hv70
  · isplitr; · iexact HIc70
    iexact Hq70
  imod (close_cell (F := F) m cc (⟨71, by decide⟩ : Fin 140) (by decide)) $$ [Hq71] with Hv71
  · isplitr; · iexact HIc71
    iexact Hq71
  imod (close_cell (F := F) m cc (⟨72, by decide⟩ : Fin 140) (by decide)) $$ [Hq72] with Hv72
  · isplitr; · iexact HIc72
    iexact Hq72
  imod (close_cell (F := F) m cc (⟨73, by decide⟩ : Fin 140) (by decide)) $$ [Hq73] with Hv73
  · isplitr; · iexact HIc73
    iexact Hq73
  imod (close_cell (F := F) m cc (⟨74, by decide⟩ : Fin 140) (by decide)) $$ [Hq74] with Hv74
  · isplitr; · iexact HIc74
    iexact Hq74
  imod (close_cell (F := F) m cc (⟨75, by decide⟩ : Fin 140) (by decide)) $$ [Hq75] with Hv75
  · isplitr; · iexact HIc75
    iexact Hq75
  imod (close_cell (F := F) m cc (⟨79, by decide⟩ : Fin 140) (by decide)) $$ [Hq79] with Hv79
  · isplitr; · iexact HIc79
    iexact Hq79
  imod (close_cell (F := F) m cc (⟨80, by decide⟩ : Fin 140) (by decide)) $$ [Hq80] with Hv80
  · isplitr; · iexact HIc80
    iexact Hq80
  imod (close_cell (F := F) m cc (⟨81, by decide⟩ : Fin 140) (by decide)) $$ [Hq81] with Hv81
  · isplitr; · iexact HIc81
    iexact Hq81
  imod (close_cell (F := F) m cc (⟨82, by decide⟩ : Fin 140) (by decide)) $$ [Hq82] with Hv82
  · isplitr; · iexact HIc82
    iexact Hq82
  imod (close_cell (F := F) m cc (⟨83, by decide⟩ : Fin 140) (by decide)) $$ [Hq83] with Hv83
  · isplitr; · iexact HIc83
    iexact Hq83
  imod (close_cell (F := F) m cc (⟨87, by decide⟩ : Fin 140) (by decide)) $$ [Hq87] with Hv87
  · isplitr; · iexact HIc87
    iexact Hq87
  imod (close_cell (F := F) m cc (⟨88, by decide⟩ : Fin 140) (by decide)) $$ [Hq88] with Hv88
  · isplitr; · iexact HIc88
    iexact Hq88
  imod (close_cell (F := F) m cc (⟨89, by decide⟩ : Fin 140) (by decide)) $$ [Hq89] with Hv89
  · isplitr; · iexact HIc89
    iexact Hq89
  imod (close_cell (F := F) m cc (⟨90, by decide⟩ : Fin 140) (by decide)) $$ [Hq90] with Hv90
  · isplitr; · iexact HIc90
    iexact Hq90
  imod (close_cell (F := F) m cc (⟨91, by decide⟩ : Fin 140) (by decide)) $$ [Hq91] with Hv91
  · isplitr; · iexact HIc91
    iexact Hq91
  imod (close_cell (F := F) m cc (⟨95, by decide⟩ : Fin 140) (by decide)) $$ [Hq95] with Hv95
  · isplitr; · iexact HIc95
    iexact Hq95
  imod (close_cell (F := F) m cc (⟨96, by decide⟩ : Fin 140) (by decide)) $$ [Hq96] with Hv96
  · isplitr; · iexact HIc96
    iexact Hq96
  imod (close_cell (F := F) m cc (⟨97, by decide⟩ : Fin 140) (by decide)) $$ [Hq97] with Hv97
  · isplitr; · iexact HIc97
    iexact Hq97
  imod (close_cell (F := F) m cc (⟨98, by decide⟩ : Fin 140) (by decide)) $$ [Hq98] with Hv98
  · isplitr; · iexact HIc98
    iexact Hq98
  imod (close_cell (F := F) m cc (⟨99, by decide⟩ : Fin 140) (by decide)) $$ [Hq99] with Hv99
  · isplitr; · iexact HIc99
    iexact Hq99
  imod (close_cell (F := F) m cc (⟨103, by decide⟩ : Fin 140) (by decide)) $$ [Hq103] with Hv103
  · isplitr; · iexact HIc103
    iexact Hq103
  imod (close_cell (F := F) m cc (⟨104, by decide⟩ : Fin 140) (by decide)) $$ [Hq104] with Hv104
  · isplitr; · iexact HIc104
    iexact Hq104
  imod (close_cell (F := F) m cc (⟨105, by decide⟩ : Fin 140) (by decide)) $$ [Hq105] with Hv105
  · isplitr; · iexact HIc105
    iexact Hq105
  imod (close_cell (F := F) m cc (⟨106, by decide⟩ : Fin 140) (by decide)) $$ [Hq106] with Hv106
  · isplitr; · iexact HIc106
    iexact Hq106
  imod (close_cell (F := F) m cc (⟨107, by decide⟩ : Fin 140) (by decide)) $$ [Hq107] with Hv107
  · isplitr; · iexact HIc107
    iexact Hq107
  -- the program is over: hand everything back
  icases HvU with ⟨Hu76, Hu77, Hu78, Hu84, Hu85, Hu86, Hu92, Hu93, Hu94, Hu100, Hu101, Hu102⟩
  ihave HO := (Entails.of_eq (show owes (cc : Thread nD τ) (owedL (List.drop 40 (paysL cc))) _ = owes (cc : Thread nD τ) 0 _ from rfl)) $$ HO
  -- each block of the result holds what its copy wrote: the final contents
  ihave HU00 := (congr (F := F) (outR 0 0) cc fullShare ((outR 0 0).view.writes (Elt F) g00 [⟨Rect.whole S512x256, dev.sl.dma0_34 m⟩]) (out m cc) (fun i hi => glue_out' m cc 0 0 g00 i hi)) $$ HU00
  ihave HU01 := (congr (F := F) (outR 0 1) cc fullShare ((outR 0 1).view.writes (Elt F) g01 [⟨Rect.whole S512x256, dev.sl.dma0_35 m⟩]) (out m cc) (fun i hi => glue_out' m cc 0 1 g01 i hi)) $$ HU01
  ihave HU02 := (congr (F := F) (outR 0 2) cc fullShare ((outR 0 2).view.writes (Elt F) g02 [⟨Rect.whole S512x256, dev.sl.dma0_36 m⟩]) (out m cc) (fun i hi => glue_out' m cc 0 2 g02 i hi)) $$ HU02
  ihave HU03 := (congr (F := F) (outR 0 3) cc fullShare ((outR 0 3).view.writes (Elt F) g03 [⟨Rect.whole S512x256, dev.sl.dma0_37 m⟩]) (out m cc) (fun i hi => glue_out' m cc 0 3 g03 i hi)) $$ HU03
  ihave HU10 := (congr (F := F) (outR 1 0) cc fullShare ((outR 1 0).view.writes (Elt F) g10 [⟨Rect.whole S512x256, dev.sl.dma0_38 m⟩]) (out m cc) (fun i hi => glue_out' m cc 1 0 g10 i hi)) $$ HU10
  ihave HU11 := (congr (F := F) (outR 1 1) cc fullShare ((outR 1 1).view.writes (Elt F) g11 [⟨Rect.whole S512x256, dev.sl.dma0_39 m⟩]) (out m cc) (fun i hi => glue_out' m cc 1 1 g11 i hi)) $$ HU11
  ihave HU12 := (congr (F := F) (outR 1 2) cc fullShare ((outR 1 2).view.writes (Elt F) g12 [⟨Rect.whole S512x256, dev.sl.dma0_40 m⟩]) (out m cc) (fun i hi => glue_out' m cc 1 2 g12 i hi)) $$ HU12
  ihave HU13 := (congr (F := F) (outR 1 3) cc fullShare ((outR 1 3).view.writes (Elt F) g13 [⟨Rect.whole S512x256, dev.sl.dma0_41 m⟩]) (out m cc) (fun i hi => glue_out' m cc 1 3 g13 i hi)) $$ HU13
  ihave HU20 := (congr (F := F) (outR 2 0) cc fullShare ((outR 2 0).view.writes (Elt F) g20 [⟨Rect.whole S512x256, dev.sl.dma0_42 m⟩]) (out m cc) (fun i hi => glue_out' m cc 2 0 g20 i hi)) $$ HU20
  ihave HU21 := (congr (F := F) (outR 2 1) cc fullShare ((outR 2 1).view.writes (Elt F) g21 [⟨Rect.whole S512x256, dev.sl.dma0_43 m⟩]) (out m cc) (fun i hi => glue_out' m cc 2 1 g21 i hi)) $$ HU21
  ihave HU22 := (congr (F := F) (outR 2 2) cc fullShare ((outR 2 2).view.writes (Elt F) g22 [⟨Rect.whole S512x256, dev.sl.dma0_44 m⟩]) (out m cc) (fun i hi => glue_out' m cc 2 2 g22 i hi)) $$ HU22
  ihave HU23 := (congr (F := F) (outR 2 3) cc fullShare ((outR 2 3).view.writes (Elt F) g23 [⟨Rect.whole S512x256, dev.sl.dma0_45 m⟩]) (out m cc) (fun i hi => glue_out' m cc 2 3 g23 i hi)) $$ HU23
  ihave HU30 := (congr (F := F) (outR 3 0) cc fullShare ((outR 3 0).view.writes (Elt F) g30 [⟨Rect.whole S512x256, dev.sl.dma0_22 m⟩]) (out m cc) (fun i hi => glue_out' m cc 3 0 g30 i hi)) $$ HU30
  ihave HU31 := (congr (F := F) (outR 3 1) cc fullShare ((outR 3 1).view.writes (Elt F) g31 [⟨Rect.whole S512x256, dev.sl.dma0_23 m⟩]) (out m cc) (fun i hi => glue_out' m cc 3 1 g31 i hi)) $$ HU31
  ihave HU32 := (congr (F := F) (outR 3 2) cc fullShare ((outR 3 2).view.writes (Elt F) g32 [⟨Rect.whole S512x256, dev.sl.dma0_24 m⟩]) (out m cc) (fun i hi => glue_out' m cc 3 2 g32 i hi)) $$ HU32
  ihave HU33 := (congr (F := F) (outR 3 3) cc fullShare ((outR 3 3).view.writes (Elt F) g33 [⟨Rect.whole S512x256, dev.sl.dma0_25 m⟩]) (out m cc) (fun i hi => glue_out' m cc 3 3 g33 i hi)) $$ HU33
  ihave HU40 := (congr (F := F) (outR 4 0) cc fullShare ((outR 4 0).view.writes (Elt F) g40 [⟨Rect.whole S512x256, dev.sl.dma0_26 m⟩]) (out m cc) (fun i hi => glue_out' m cc 4 0 g40 i hi)) $$ HU40
  ihave HU41 := (congr (F := F) (outR 4 1) cc fullShare ((outR 4 1).view.writes (Elt F) g41 [⟨Rect.whole S512x256, dev.sl.dma0_27 m⟩]) (out m cc) (fun i hi => glue_out' m cc 4 1 g41 i hi)) $$ HU41
  ihave HU42 := (congr (F := F) (outR 4 2) cc fullShare ((outR 4 2).view.writes (Elt F) g42 [⟨Rect.whole S512x256, dev.sl.dma0_28 m⟩]) (out m cc) (fun i hi => glue_out' m cc 4 2 g42 i hi)) $$ HU42
  ihave HU43 := (congr (F := F) (outR 4 3) cc fullShare ((outR 4 3).view.writes (Elt F) g43 [⟨Rect.whole S512x256, dev.sl.dma0_29 m⟩]) (out m cc) (fun i hi => glue_out' m cc 4 3 g43 i hi)) $$ HU43
  ihave HU50 := (congr (F := F) (outR 5 0) cc fullShare ((outR 5 0).view.writes (Elt F) g50 [⟨Rect.whole S512x256, dev.sl.dma0_30 m⟩]) (out m cc) (fun i hi => glue_out' m cc 5 0 g50 i hi)) $$ HU50
  ihave HU51 := (congr (F := F) (outR 5 1) cc fullShare ((outR 5 1).view.writes (Elt F) g51 [⟨Rect.whole S512x256, dev.sl.dma0_31 m⟩]) (out m cc) (fun i hi => glue_out' m cc 5 1 g51 i hi)) $$ HU51
  ihave HU52 := (congr (F := F) (outR 5 2) cc fullShare ((outR 5 2).view.writes (Elt F) g52 [⟨Rect.whole S512x256, dev.sl.dma0_32 m⟩]) (out m cc) (fun i hi => glue_out' m cc 5 2 g52 i hi)) $$ HU52
  ihave HU53 := (congr (F := F) (outR 5 3) cc fullShare ((outR 5 3).view.writes (Elt F) g53 [⟨Rect.whole S512x256, dev.sl.dma0_33 m⟩]) (out m cc) (fun i hi => glue_out' m cc 5 3 g53 i hi)) $$ HU53
  ihave HU60 := (congr (F := F) (outR 6 0) cc fullShare ((outR 6 0).view.writes (Elt F) g60 [⟨Rect.whole S512x256, dev.sl.dma0_46 m⟩]) (out m cc) (fun i hi => glue_out' m cc 6 0 g60 i hi)) $$ HU60
  ihave HU61 := (congr (F := F) (outR 6 1) cc fullShare ((outR 6 1).view.writes (Elt F) g61 [⟨Rect.whole S512x256, dev.sl.dma0_47 m⟩]) (out m cc) (fun i hi => glue_out' m cc 6 1 g61 i hi)) $$ HU61
  ihave HU62 := (congr (F := F) (outR 6 2) cc fullShare ((outR 6 2).view.writes (Elt F) g62 [⟨Rect.whole S512x256, dev.sl.dma0_48 m⟩]) (out m cc) (fun i hi => glue_out' m cc 6 2 g62 i hi)) $$ HU62
  ihave HU63 := (congr (F := F) (outR 6 3) cc fullShare ((outR 6 3).view.writes (Elt F) g63 [⟨Rect.whole S512x256, dev.sl.dma0_49 m⟩]) (out m cc) (fun i hi => glue_out' m cc 6 3 g63 i hi)) $$ HU63
  ihave HU70 := (congr (F := F) (outR 7 0) cc fullShare ((outR 7 0).view.writes (Elt F) g70 [⟨Rect.whole S512x256, dev.sl.dma0_50 m⟩]) (out m cc) (fun i hi => glue_out' m cc 7 0 g70 i hi)) $$ HU70
  ihave HU71 := (congr (F := F) (outR 7 1) cc fullShare ((outR 7 1).view.writes (Elt F) g71 [⟨Rect.whole S512x256, dev.sl.dma0_51 m⟩]) (out m cc) (fun i hi => glue_out' m cc 7 1 g71 i hi)) $$ HU71
  ihave HU72 := (congr (F := F) (outR 7 2) cc fullShare ((outR 7 2).view.writes (Elt F) g72 [⟨Rect.whole S512x256, dev.sl.dma0_52 m⟩]) (out m cc) (fun i hi => glue_out' m cc 7 2 g72 i hi)) $$ HU72
  ihave HU73 := (congr (F := F) (outR 7 3) cc fullShare ((outR 7 3).view.writes (Elt F) g73 [⟨Rect.whole S512x256, dev.sl.dma0_53 m⟩]) (out m cc) (fun i hi => glue_out' m cc 7 3 g73 i hi)) $$ HU73
  sl_step
  iapply Hk
  unfold bodyPost
  isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7 Hz0 Hz1 Hz2 HzG3 HzFl3 HzFrb3 HzG4 HzFl4 HzFrb4 HzG5 HzFl5 HzFrb5 HzG6 HzFl6 HzFrb6 HzG7 HzFl7 HzFrb7 Hy0 Hy1 Hy2 HyG3 HyFlb3 HyFr3 HyG4 HyFlb4 HyFr4 HyG5 HyFlb5 HyFr5 HyG6 HyFlb6 HyFr6 HyG7 HyFlb7 HyFr7 Hdq0 Hdq1 Hdq2 Hd3 Hd4 Hd5 Hd6 Hd7]
  · iapply (Entails.of_eq (junk_whole (F := F) cc cc0_scratch0).symm)
    iapply (r4_back (F := F) cc)
    isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7]
    · isplitl [HoZb0 HoYb0 HoK0]
      · iapply (own_back (F := F) cc 0 (r4 m cc))
        isplitl [HoZb0]
        · iexact HoZb0
        isplitl [HoYb0]
        · iexact HoYb0
        iexact HoK0
      isplitl [HoZb1 HoYb1 HoK1]
      · iapply (own_back (F := F) cc 1 (r4 m cc))
        isplitl [HoZb1]
        · iexact HoZb1
        isplitl [HoYb1]
        · iexact HoYb1
        iexact HoK1
      isplitl [HoZb2 HoYb2 HoK2]
      · iapply (own_back (F := F) cc 2 (r4 m cc))
        isplitl [HoZb2]
        · iexact HoZb2
        isplitl [HoYb2]
        · iexact HoYb2
        iexact HoK2
      isplitl [HoZb3 HoYb3 HoK3]
      · iapply (own_back (F := F) cc 3 (r4 m cc))
        isplitl [HoZb3]
        · iexact HoZb3
        isplitl [HoYb3]
        · iexact HoYb3
        iexact HoK3
      isplitl [HoZb4 HoYb4 HoK4]
      · iapply (own_back (F := F) cc 4 (r4 m cc))
        isplitl [HoZb4]
        · iexact HoZb4
        isplitl [HoYb4]
        · iexact HoYb4
        iexact HoK4
      isplitl [HoZb5 HoYb5 HoK5]
      · iapply (own_back (F := F) cc 5 (r4 m cc))
        isplitl [HoZb5]
        · iexact HoZb5
        isplitl [HoYb5]
        · iexact HoYb5
        iexact HoK5
      isplitl [HoZb6 HoYb6 HoK6]
      · iapply (own_back (F := F) cc 6 (r4 m cc))
        isplitl [HoZb6]
        · iexact HoZb6
        isplitl [HoYb6]
        · iexact HoYb6
        iexact HoK6
      iapply (own_back (F := F) cc 7 (r4 m cc))
      isplitl [HoZb7]
      · iexact HoZb7
      isplitl [HoYb7]
      · iexact HoYb7
      iexact HoK7
    isplitl [Hz0 Hz1 Hz2 HzG3 HzFl3 HzFrb3 HzG4 HzFl4 HzFrb4 HzG5 HzFl5 HzFrb5 HzG6 HzFl6 HzFrb6 HzG7 HzFl7 HzFrb7]
    · isplitl [Hz0]
      · iexists _; iexact Hz0
      isplitl [Hz1]
      · iexists _; iexact Hz1
      isplitl [Hz2]
      · iexists _; iexact Hz2
      isplitl [HzG3 HzFl3 HzFrb3]
      · iapply (nbr_back (F := F) cc (zqF cc) 3 (r4 m cc))
        isplitl [HzG3]
        · iexact HzG3
        isplitl [HzFl3]
        · iexact HzFl3
        iexact HzFrb3
      isplitl [HzG4 HzFl4 HzFrb4]
      · iapply (nbr_back (F := F) cc (zqF cc) 4 (r4 m cc))
        isplitl [HzG4]
        · iexact HzG4
        isplitl [HzFl4]
        · iexact HzFl4
        iexact HzFrb4
      isplitl [HzG5 HzFl5 HzFrb5]
      · iapply (nbr_back (F := F) cc (zqF cc) 5 (r4 m cc))
        isplitl [HzG5]
        · iexact HzG5
        isplitl [HzFl5]
        · iexact HzFl5
        iexact HzFrb5
      isplitl [HzG6 HzFl6 HzFrb6]
      · iapply (nbr_back (F := F) cc (zqF cc) 6 (r4 m cc))
        isplitl [HzG6]
        · iexact HzG6
        isplitl [HzFl6]
        · iexact HzFl6
        iexact HzFrb6
      iapply (nbr_back (F := F) cc (zqF cc) 7 (r4 m cc))
      isplitl [HzG7]
      · iexact HzG7
      isplitl [HzFl7]
      · iexact HzFl7
      iexact HzFrb7
    isplitl [Hy0 Hy1 Hy2 HyG3 HyFlb3 HyFr3 HyG4 HyFlb4 HyFr4 HyG5 HyFlb5 HyFr5 HyG6 HyFlb6 HyFr6 HyG7 HyFlb7 HyFr7]
    · isplitl [Hy0]
      · iexists _; iexact Hy0
      isplitl [Hy1]
      · iexists _; iexact Hy1
      isplitl [Hy2]
      · iexists _; iexact Hy2
      isplitl [HyG3 HyFlb3 HyFr3]
      · iapply (nbr_back (F := F) cc (yqF cc) 3 (r4 m cc))
        isplitl [HyG3]
        · iexact HyG3
        isplitl [HyFlb3]
        · iexact HyFlb3
        iexact HyFr3
      isplitl [HyG4 HyFlb4 HyFr4]
      · iapply (nbr_back (F := F) cc (yqF cc) 4 (r4 m cc))
        isplitl [HyG4]
        · iexact HyG4
        isplitl [HyFlb4]
        · iexact HyFlb4
        iexact HyFr4
      isplitl [HyG5 HyFlb5 HyFr5]
      · iapply (nbr_back (F := F) cc (yqF cc) 5 (r4 m cc))
        isplitl [HyG5]
        · iexact HyG5
        isplitl [HyFlb5]
        · iexact HyFlb5
        iexact HyFr5
      isplitl [HyG6 HyFlb6 HyFr6]
      · iapply (nbr_back (F := F) cc (yqF cc) 6 (r4 m cc))
        isplitl [HyG6]
        · iexact HyG6
        isplitl [HyFlb6]
        · iexact HyFlb6
        iexact HyFr6
      iapply (nbr_back (F := F) cc (yqF cc) 7 (r4 m cc))
      isplitl [HyG7]
      · iexact HyG7
      isplitl [HyFlb7]
      · iexact HyFlb7
      iexact HyFr7
    isplitl [Hdq0 Hdq1 Hdq2]
    · isplitl [Hdq0]
      · iexists _; iexact Hdq0
      isplitl [Hdq1]
      · iexists _; iexact Hdq1
      iexists _; iexact Hdq2
    isplitl [Hd3]
    · iapply (dq_halves (F := F) cc 3 (r4 m cc))
      iexact Hd3
    isplitl [Hd4]
    · iapply (dq_halves (F := F) cc 4 (r4 m cc))
      iexact Hd4
    isplitl [Hd5]
    · iapply (dq_halves (F := F) cc 5 (r4 m cc))
      iexact Hd5
    isplitl [Hd6]
    · iapply (dq_halves (F := F) cc 6 (r4 m cc))
      iexact Hd6
    iapply (dq_halves (F := F) cc 7 (r4 m cc))
    iexact Hd7
  isplitl [HBs0 HBs1 HBs2 HBs3 HBs4 HBs5 HBs6 HBs7]
  · iapply (Entails.of_eq (junk_whole (F := F) cc cc0_scratch1).symm)
    iapply (sb_rows_join (F := F) cc)
    isplitl [HBs0]
    · iexists _; iexact HBs0
    isplitl [HBs1]
    · iexists _; iexact HBs1
    isplitl [HBs2]
    · iexists _; iexact HBs2
    isplitl [HBs3]
    · iexists _; iexact HBs3
    isplitl [HBs4]
    · iexists _; iexact HBs4
    isplitl [HBs5]
    · iexists _; iexact HBs5
    isplitl [HBs6]
    · iexists _; iexact HBs6
    iexists _; iexact HBs7
  isplitl [Hrb0 Hrb1 Hrb2 Hrb3 Hrb4 Hrb5 Hrb6 Hrb7]
  · iapply (Entails.of_eq (junk_whole (F := F) cc cc0_scratch2).symm)
    iapply (rb_rows_join (F := F) cc)
    isplitl [Hrb0]
    · iexists _; iexact Hrb0
    isplitl [Hrb1]
    · iexists _; iexact Hrb1
    isplitl [Hrb2]
    · iexists _; iexact Hrb2
    isplitl [Hrb3]
    · iexists _; iexact Hrb3
    isplitl [Hrb4]
    · iexists _; iexact Hrb4
    isplitl [Hrb5]
    · iexists _; iexact Hrb5
    isplitl [Hrb6]
    · iexists _; iexact Hrb6
    iexists _; iexact Hrb7
  isplitl [HB2s0 HB2s1 HB2s2]
  · iapply (Entails.of_eq (junk_whole (F := F) cc cc0_scratch3).symm)
    iapply (sb2_rows_join (F := F) cc)
    isplitl [HB2s0]
    · iexists _; iexact HB2s0
    isplitl [HB2s1]
    · iexists _; iexact HB2s1
    iexists _; iexact HB2s2
  isplitl [Hrb20 Hrb21 Hrb22]
  · iapply (Entails.of_eq (junk_whole (F := F) cc cc0_scratch4).symm)
    iapply (rb2_rows_join (F := F) cc)
    isplitl [Hrb20]
    · iexists _; iexact Hrb20
    isplitl [Hrb21]
    · iexists _; iexact Hrb21
    iexists _; iexact Hrb22
  isplitl [HP0 HP1 HP2 HP3 HP4 HP5 HP6 HP7]
  · iapply (Entails.of_eq (junk_whole (F := F) cc cc0_scratch5).symm)
    iapply (stP_rows_join (F := F) cc)
    isplitl [HP0]
    · iexists _; iexact HP0
    isplitl [HP1]
    · iexists _; iexact HP1
    isplitl [HP2]
    · iexists _; iexact HP2
    isplitl [HP3]
    · iexists _; iexact HP3
    isplitl [HP4]
    · iexists _; iexact HP4
    isplitl [HP5]
    · iexists _; iexact HP5
    isplitl [HP6]
    · iexists _; iexact HP6
    iexists _; iexact HP7
  isplitl [HL0 HL1 HL2 HL3 HL4 HL5 HL6 HL7]
  · iapply (Entails.of_eq (junk_whole (F := F) cc cc0_scratch6).symm)
    iapply (stL_rows_join (F := F) cc)
    isplitl [HL0]
    · iexists _; iexact HL0
    isplitl [HL1]
    · iexists _; iexact HL1
    isplitl [HL2]
    · iexists _; iexact HL2
    isplitl [HL3]
    · iexists _; iexact HL3
    isplitl [HL4]
    · iexists _; iexact HL4
    isplitl [HL5]
    · iexists _; iexact HL5
    isplitl [HL6]
    · iexists _; iexact HL6
    iexists _; iexact HL7
  isplitl [HP20 HP21 HP22]
  · iapply (Entails.of_eq (junk_whole (F := F) cc cc0_scratch7).symm)
    iapply (stP2_rows_join (F := F) cc)
    isplitl [HP20]
    · iexists _; iexact HP20
    isplitl [HP21]
    · iexists _; iexact HP21
    iexists _; iexact HP22
  isplitl [HL20 HL21 HL22]
  · iapply (Entails.of_eq (junk_whole (F := F) cc cc0_scratch8).symm)
    iapply (stL2_rows_join (F := F) cc)
    isplitl [HL20]
    · iexists _; iexact HL20
    isplitl [HL21]
    · iexists _; iexact HL21
    iexists _; iexact HL22
  isplitl [HX]
  · iexact HX
  isplitl [HU00 HU01 HU02 HU03 HU10 HU11 HU12 HU13 HU20 HU21 HU22 HU23 HU30 HU31 HU32 HU33 HU40 HU41 HU42 HU43 HU50 HU51 HU52 HU53 HU60 HU61 HU62 HU63 HU70 HU71 HU72 HU73]
  · iapply (out_join (F := F) cc (out m cc))
    isplitl [HU00]
    · iexact HU00
    isplitl [HU01]
    · iexact HU01
    isplitl [HU02]
    · iexact HU02
    isplitl [HU03]
    · iexact HU03
    isplitl [HU10]
    · iexact HU10
    isplitl [HU11]
    · iexact HU11
    isplitl [HU12]
    · iexact HU12
    isplitl [HU13]
    · iexact HU13
    isplitl [HU20]
    · iexact HU20
    isplitl [HU21]
    · iexact HU21
    isplitl [HU22]
    · iexact HU22
    isplitl [HU23]
    · iexact HU23
    isplitl [HU30]
    · iexact HU30
    isplitl [HU31]
    · iexact HU31
    isplitl [HU32]
    · iexact HU32
    isplitl [HU33]
    · iexact HU33
    isplitl [HU40]
    · iexact HU40
    isplitl [HU41]
    · iexact HU41
    isplitl [HU42]
    · iexact HU42
    isplitl [HU43]
    · iexact HU43
    isplitl [HU50]
    · iexact HU50
    isplitl [HU51]
    · iexact HU51
    isplitl [HU52]
    · iexact HU52
    isplitl [HU53]
    · iexact HU53
    isplitl [HU60]
    · iexact HU60
    isplitl [HU61]
    · iexact HU61
    isplitl [HU62]
    · iexact HU62
    isplitl [HU63]
    · iexact HU63
    isplitl [HU70]
    · iexact HU70
    isplitl [HU71]
    · iexact HU71
    isplitl [HU72]
    · iexact HU72
    iexact HU73
  isplitl [Hv0 Hv1 Hv2 Hv3 Hv4 Hv5 Hv6 Hv7 Hv8 Hv9 Hv10 Hv11 Hv12 Hv13 Hv14 Hv15 Hv16 Hv17 Hv18 Hv19 Hv20 Hv21 Hv22 Hv23 Hv24 Hv25 Hv26 Hv27 Hv28 Hv29 Hv30 Hv31 Hv32 Hv33 Hv34 Hv35 Hv36 Hv37 Hv38 Hv39 Hv40 Hv41 Hv42 Hv43 Hv44 Hv45 Hv46 Hv47 Hv48 Hv49 Hv50 Hv51 Hv52 Hv53 Hv54 Hv55 Hv56 Hv57 Hv58 Hv59 Hv60 Hv61 Hv62 Hv63 Hv64 Hv65 Hv66 Hv67 Hv68 Hv69 Hv70 Hv71 Hv72 Hv73 Hv74 Hv75 Hu76 Hu77 Hu78 Hv79 Hv80 Hv81 Hv82 Hv83 Hu84 Hu85 Hu86 Hv87 Hv88 Hv89 Hv90 Hv91 Hu92 Hu93 Hu94 Hv95 Hv96 Hv97 Hv98 Hv99 Hu100 Hu101 Hu102 Hv103 Hv104 Hv105 Hv106 Hv107 Hw0a Hw0b Hw0c Hw0d Hw1a Hw1b Hw1c Hw1d Hw2a Hw2b Hw2c Hw2d Hw3a Hw3b Hw3c Hw3d Hw4a Hw4b Hw4c Hw4d Hw5a Hw5b Hw5c Hw5d Hw6a Hw6b Hw6c Hw6d Hw7a Hw7b Hw7c Hw7d]
  · iapply (Entails.of_eq (show (iprop(semVal (cellAt cc (⟨0, Nat.le_of_ble_eq_true rfl⟩ : Fin 140)) 0 ∗ semVal (cellAt cc (⟨1, Nat.le_of_ble_eq_true rfl⟩ : Fin 140)) 0 ∗ semVal (cellAt cc (⟨2, Nat.le_of_ble_eq_true rfl⟩ : Fin 140)) 0 ∗ semVal (cellAt cc (⟨3, Nat.le_of_ble_eq_true rfl⟩ : Fin 140)) 0 ∗ semVal (cellAt cc (⟨4, Nat.le_of_ble_eq_true rfl⟩ : Fin 140)) 0 ∗ semVal (cellAt cc (⟨5, Nat.le_of_ble_eq_true rfl⟩ : Fin 140)) 0 ∗ semVal (cellAt cc (⟨6, Nat.le_of_ble_eq_true rfl⟩ : Fin 140)) 0 ∗ semVal (cellAt cc (⟨7, Nat.le_of_ble_eq_true rfl⟩ : Fin 140)) 0 ∗ semVal (cellAt cc (⟨8, Nat.le_of_ble_eq_true rfl⟩ : Fin 140)) 0 ∗ semVal (cellAt cc (⟨9, Nat.le_of_ble_eq_true rfl⟩ : Fin 140)) 0 ∗ semVal (cellAt cc (⟨10, Nat.le_of_ble_eq_true rfl⟩ : Fin 140)) 0 ∗ semVal (cellAt cc (⟨11, Nat.le_of_ble_eq_true rfl⟩ : Fin 140)) 0 ∗ semVal (cellAt cc (⟨12, Nat.le_of_ble_eq_true rfl⟩ : Fin 140)) 0 ∗ semVal (cellAt cc (⟨13, Nat.le_of_ble_eq_true rfl⟩ : Fin 140)) 0 ∗ semVal (cellAt cc (⟨14, Nat.le_of_ble_eq_true rfl⟩ : Fin 140)) 0 ∗ semVal (cellAt cc (⟨15, Nat.le_of_ble_eq_true rfl⟩ : Fin 140)) 0 ∗ semVal (cellAt cc (⟨16, Nat.le_of_ble_eq_true rfl⟩ : Fin 140)) 0 ∗ semVal (cellAt cc (⟨17, Nat.le_of_ble_eq_true rfl⟩ : Fin 140)) 0 ∗ semVal (cellAt cc (⟨18, Nat.le_of_ble_eq_true rfl⟩ : Fin 140)) 0 ∗ semVal (cellAt cc (⟨19, Nat.le_of_ble_eq_true rfl⟩ : Fin 140)) 0 ∗ semVal (cellAt cc (⟨20, Nat.le_of_ble_eq_true rfl⟩ : Fin 140)) 0 ∗ semVal (cellAt cc (⟨21, Nat.le_of_ble_eq_true rfl⟩ : Fin 140)) 0 ∗ semVal (cellAt cc (⟨22, Nat.le_of_ble_eq_true rfl⟩ : Fin 140)) 0 ∗ semVal (cellAt cc (⟨23, Nat.le_of_ble_eq_true rfl⟩ : Fin 140)) 0 ∗ semVal (cellAt cc (⟨24, Nat.le_of_ble_eq_true rfl⟩ : Fin 140)) 0 ∗ semVal (cellAt cc (⟨25, Nat.le_of_ble_eq_true rfl⟩ : Fin 140)) 0 ∗ semVal (cellAt cc (⟨26, Nat.le_of_ble_eq_true rfl⟩ : Fin 140)) 0 ∗ semVal (cellAt cc (⟨27, Nat.le_of_ble_eq_true rfl⟩ : Fin 140)) 0 ∗ semVal (cellAt cc (⟨28, Nat.le_of_ble_eq_true rfl⟩ : Fin 140)) 0 ∗ semVal (cellAt cc (⟨29, Nat.le_of_ble_eq_true rfl⟩ : Fin 140)) 0 ∗ semVal (cellAt cc (⟨30, Nat.le_of_ble_eq_true rfl⟩ : Fin 140)) 0 ∗ semVal (cellAt cc (⟨31, Nat.le_of_ble_eq_true rfl⟩ : Fin 140)) 0 ∗ semVal (cellAt cc (⟨32, Nat.le_of_ble_eq_true rfl⟩ : Fin 140)) 0 ∗ semVal (cellAt cc (⟨33, Nat.le_of_ble_eq_true rfl⟩ : Fin 140)) 0 ∗ semVal (cellAt cc (⟨34, Nat.le_of_ble_eq_true rfl⟩ : Fin 140)) 0 ∗ semVal (cellAt cc (⟨35, Nat.le_of_ble_eq_true rfl⟩ : Fin 140)) 0 ∗ semVal (cellAt cc (⟨36, Nat.le_of_ble_eq_true rfl⟩ : Fin 140)) 0 ∗ semVal (cellAt cc (⟨37, Nat.le_of_ble_eq_true rfl⟩ : Fin 140)) 0 ∗ semVal (cellAt cc (⟨38, Nat.le_of_ble_eq_true rfl⟩ : Fin 140)) 0 ∗ semVal (cellAt cc (⟨39, Nat.le_of_ble_eq_true rfl⟩ : Fin 140)) 0 ∗ semVal (cellAt cc (⟨40, Nat.le_of_ble_eq_true rfl⟩ : Fin 140)) 0 ∗ semVal (cellAt cc (⟨41, Nat.le_of_ble_eq_true rfl⟩ : Fin 140)) 0 ∗ semVal (cellAt cc (⟨42, Nat.le_of_ble_eq_true rfl⟩ : Fin 140)) 0 ∗ semVal (cellAt cc (⟨43, Nat.le_of_ble_eq_true rfl⟩ : Fin 140)) 0 ∗ semVal (cellAt cc (⟨44, Nat.le_of_ble_eq_true rfl⟩ : Fin 140)) 0 ∗ semVal (cellAt cc (⟨45, Nat.le_of_ble_eq_true rfl⟩ : Fin 140)) 0 ∗ semVal (cellAt cc (⟨46, Nat.le_of_ble_eq_true rfl⟩ : Fin 140)) 0 ∗ semVal (cellAt cc (⟨47, Nat.le_of_ble_eq_true rfl⟩ : Fin 140)) 0 ∗ semVal (cellAt cc (⟨48, Nat.le_of_ble_eq_true rfl⟩ : Fin 140)) 0 ∗ semVal (cellAt cc (⟨49, Nat.le_of_ble_eq_true rfl⟩ : Fin 140)) 0 ∗ semVal (cellAt cc (⟨50, Nat.le_of_ble_eq_true rfl⟩ : Fin 140)) 0 ∗ semVal (cellAt cc (⟨51, Nat.le_of_ble_eq_true rfl⟩ : Fin 140)) 0 ∗ semVal (cellAt cc (⟨52, Nat.le_of_ble_eq_true rfl⟩ : Fin 140)) 0 ∗ semVal (cellAt cc (⟨53, Nat.le_of_ble_eq_true rfl⟩ : Fin 140)) 0 ∗ semVal (cellAt cc (⟨54, Nat.le_of_ble_eq_true rfl⟩ : Fin 140)) 0 ∗ semVal (cellAt cc (⟨55, Nat.le_of_ble_eq_true rfl⟩ : Fin 140)) 0 ∗ semVal (cellAt cc (⟨56, Nat.le_of_ble_eq_true rfl⟩ : Fin 140)) 0 ∗ semVal (cellAt cc (⟨57, Nat.le_of_ble_eq_true rfl⟩ : Fin 140)) 0 ∗ semVal (cellAt cc (⟨58, Nat.le_of_ble_eq_true rfl⟩ : Fin 140)) 0 ∗ semVal (cellAt cc (⟨59, Nat.le_of_ble_eq_true rfl⟩ : Fin 140)) 0 ∗ semVal (cellAt cc (⟨60, Nat.le_of_ble_eq_true rfl⟩ : Fin 140)) 0 ∗ semVal (cellAt cc (⟨61, Nat.le_of_ble_eq_true rfl⟩ : Fin 140)) 0 ∗ semVal (cellAt cc (⟨62, Nat.le_of_ble_eq_true rfl⟩ : Fin 140)) 0 ∗ semVal (cellAt cc (⟨63, Nat.le_of_ble_eq_true rfl⟩ : Fin 140)) 0 ∗ semVal (cellAt cc (⟨64, Nat.le_of_ble_eq_true rfl⟩ : Fin 140)) 0 ∗ semVal (cellAt cc (⟨65, Nat.le_of_ble_eq_true rfl⟩ : Fin 140)) 0 ∗ semVal (cellAt cc (⟨66, Nat.le_of_ble_eq_true rfl⟩ : Fin 140)) 0 ∗ semVal (cellAt cc (⟨67, Nat.le_of_ble_eq_true rfl⟩ : Fin 140)) 0 ∗ semVal (cellAt cc (⟨68, Nat.le_of_ble_eq_true rfl⟩ : Fin 140)) 0 ∗ semVal (cellAt cc (⟨69, Nat.le_of_ble_eq_true rfl⟩ : Fin 140)) 0 ∗ semVal (cellAt cc (⟨70, Nat.le_of_ble_eq_true rfl⟩ : Fin 140)) 0 ∗ semVal (cellAt cc (⟨71, Nat.le_of_ble_eq_true rfl⟩ : Fin 140)) 0 ∗ semVal (cellAt cc (⟨72, Nat.le_of_ble_eq_true rfl⟩ : Fin 140)) 0 ∗ semVal (cellAt cc (⟨73, Nat.le_of_ble_eq_true rfl⟩ : Fin 140)) 0 ∗ semVal (cellAt cc (⟨74, Nat.le_of_ble_eq_true rfl⟩ : Fin 140)) 0 ∗ semVal (cellAt cc (⟨75, Nat.le_of_ble_eq_true rfl⟩ : Fin 140)) 0 ∗ semVal (cellAt cc (⟨76, Nat.le_of_ble_eq_true rfl⟩ : Fin 140)) 0 ∗ semVal (cellAt cc (⟨77, Nat.le_of_ble_eq_true rfl⟩ : Fin 140)) 0 ∗ semVal (cellAt cc (⟨78, Nat.le_of_ble_eq_true rfl⟩ : Fin 140)) 0 ∗ semVal (cellAt cc (⟨79, Nat.le_of_ble_eq_true rfl⟩ : Fin 140)) 0 ∗ semVal (cellAt cc (⟨80, Nat.le_of_ble_eq_true rfl⟩ : Fin 140)) 0 ∗ semVal (cellAt cc (⟨81, Nat.le_of_ble_eq_true rfl⟩ : Fin 140)) 0 ∗ semVal (cellAt cc (⟨82, Nat.le_of_ble_eq_true rfl⟩ : Fin 140)) 0 ∗ semVal (cellAt cc (⟨83, Nat.le_of_ble_eq_true rfl⟩ : Fin 140)) 0 ∗ semVal (cellAt cc (⟨84, Nat.le_of_ble_eq_true rfl⟩ : Fin 140)) 0 ∗ semVal (cellAt cc (⟨85, Nat.le_of_ble_eq_true rfl⟩ : Fin 140)) 0 ∗ semVal (cellAt cc (⟨86, Nat.le_of_ble_eq_true rfl⟩ : Fin 140)) 0 ∗ semVal (cellAt cc (⟨87, Nat.le_of_ble_eq_true rfl⟩ : Fin 140)) 0 ∗ semVal (cellAt cc (⟨88, Nat.le_of_ble_eq_true rfl⟩ : Fin 140)) 0 ∗ semVal (cellAt cc (⟨89, Nat.le_of_ble_eq_true rfl⟩ : Fin 140)) 0 ∗ semVal (cellAt cc (⟨90, Nat.le_of_ble_eq_true rfl⟩ : Fin 140)) 0 ∗ semVal (cellAt cc (⟨91, Nat.le_of_ble_eq_true rfl⟩ : Fin 140)) 0 ∗ semVal (cellAt cc (⟨92, Nat.le_of_ble_eq_true rfl⟩ : Fin 140)) 0 ∗ semVal (cellAt cc (⟨93, Nat.le_of_ble_eq_true rfl⟩ : Fin 140)) 0 ∗ semVal (cellAt cc (⟨94, Nat.le_of_ble_eq_true rfl⟩ : Fin 140)) 0 ∗ semVal (cellAt cc (⟨95, Nat.le_of_ble_eq_true rfl⟩ : Fin 140)) 0 ∗ semVal (cellAt cc (⟨96, Nat.le_of_ble_eq_true rfl⟩ : Fin 140)) 0 ∗ semVal (cellAt cc (⟨97, Nat.le_of_ble_eq_true rfl⟩ : Fin 140)) 0 ∗ semVal (cellAt cc (⟨98, Nat.le_of_ble_eq_true rfl⟩ : Fin 140)) 0 ∗ semVal (cellAt cc (⟨99, Nat.le_of_ble_eq_true rfl⟩ : Fin 140)) 0 ∗ semVal (cellAt cc (⟨100, Nat.le_of_ble_eq_true rfl⟩ : Fin 140)) 0 ∗ semVal (cellAt cc (⟨101, Nat.le_of_ble_eq_true rfl⟩ : Fin 140)) 0 ∗ semVal (cellAt cc (⟨102, Nat.le_of_ble_eq_true rfl⟩ : Fin 140)) 0 ∗ semVal (cellAt cc (⟨103, Nat.le_of_ble_eq_true rfl⟩ : Fin 140)) 0 ∗ semVal (cellAt cc (⟨104, Nat.le_of_ble_eq_true rfl⟩ : Fin 140)) 0 ∗ semVal (cellAt cc (⟨105, Nat.le_of_ble_eq_true rfl⟩ : Fin 140)) 0 ∗ semVal (cellAt cc (⟨106, Nat.le_of_ble_eq_true rfl⟩ : Fin 140)) 0 ∗ semVal (cellAt cc (⟨107, Nat.le_of_ble_eq_true rfl⟩ : Fin 140)) 0 ∗ semVal (cellAt cc (⟨108, Nat.le_of_ble_eq_true rfl⟩ : Fin 140)) 0 ∗ semVal (cellAt cc (⟨109, Nat.le_of_ble_eq_true rfl⟩ : Fin 140)) 0 ∗ semVal (cellAt cc (⟨110, Nat.le_of_ble_eq_true rfl⟩ : Fin 140)) 0 ∗ semVal (cellAt cc (⟨111, Nat.le_of_ble_eq_true rfl⟩ : Fin 140)) 0 ∗ semVal (cellAt cc (⟨112, Nat.le_of_ble_eq_true rfl⟩ : Fin 140)) 0 ∗ semVal (cellAt cc (⟨113, Nat.le_of_ble_eq_true rfl⟩ : Fin 140)) 0 ∗ semVal (cellAt cc (⟨114, Nat.le_of_ble_eq_true rfl⟩ : Fin 140)) 0 ∗ semVal (cellAt cc (⟨115, Nat.le_of_ble_eq_true rfl⟩ : Fin 140)) 0 ∗ semVal (cellAt cc (⟨116, Nat.le_of_ble_eq_true rfl⟩ : Fin 140)) 0 ∗ semVal (cellAt cc (⟨117, Nat.le_of_ble_eq_true rfl⟩ : Fin 140)) 0 ∗ semVal (cellAt cc (⟨118, Nat.le_of_ble_eq_true rfl⟩ : Fin 140)) 0 ∗ semVal (cellAt cc (⟨119, Nat.le_of_ble_eq_true rfl⟩ : Fin 140)) 0 ∗ semVal (cellAt cc (⟨120, Nat.le_of_ble_eq_true rfl⟩ : Fin 140)) 0 ∗ semVal (cellAt cc (⟨121, Nat.le_of_ble_eq_true rfl⟩ : Fin 140)) 0 ∗ semVal (cellAt cc (⟨122, Nat.le_of_ble_eq_true rfl⟩ : Fin 140)) 0 ∗ semVal (cellAt cc (⟨123, Nat.le_of_ble_eq_true rfl⟩ : Fin 140)) 0 ∗ semVal (cellAt cc (⟨124, Nat.le_of_ble_eq_true rfl⟩ : Fin 140)) 0 ∗ semVal (cellAt cc (⟨125, Nat.le_of_ble_eq_true rfl⟩ : Fin 140)) 0 ∗ semVal (cellAt cc (⟨126, Nat.le_of_ble_eq_true rfl⟩ : Fin 140)) 0 ∗ semVal (cellAt cc (⟨127, Nat.le_of_ble_eq_true rfl⟩ : Fin 140)) 0 ∗ semVal (cellAt cc (⟨128, Nat.le_of_ble_eq_true rfl⟩ : Fin 140)) 0 ∗ semVal (cellAt cc (⟨129, Nat.le_of_ble_eq_true rfl⟩ : Fin 140)) 0 ∗ semVal (cellAt cc (⟨130, Nat.le_of_ble_eq_true rfl⟩ : Fin 140)) 0 ∗ semVal (cellAt cc (⟨131, Nat.le_of_ble_eq_true rfl⟩ : Fin 140)) 0 ∗ semVal (cellAt cc (⟨132, Nat.le_of_ble_eq_true rfl⟩ : Fin 140)) 0 ∗ semVal (cellAt cc (⟨133, Nat.le_of_ble_eq_true rfl⟩ : Fin 140)) 0 ∗ semVal (cellAt cc (⟨134, Nat.le_of_ble_eq_true rfl⟩ : Fin 140)) 0 ∗ semVal (cellAt cc (⟨135, Nat.le_of_ble_eq_true rfl⟩ : Fin 140)) 0 ∗ semVal (cellAt cc (⟨136, Nat.le_of_ble_eq_true rfl⟩ : Fin 140)) 0 ∗ semVal (cellAt cc (⟨137, Nat.le_of_ble_eq_true rfl⟩ : Fin 140)) 0 ∗ semVal (cellAt cc (⟨138, Nat.le_of_ble_eq_true rfl⟩ : Fin 140)) 0 ∗ semVal (cellAt cc (⟨139, Nat.le_of_ble_eq_true rfl⟩ : Fin 140)) 0) : sProp 𝕄) = (bigSepL allJ fun j => semVal (cellAt cc j) 0) from rfl))
    isplitl [Hv0]
    · iexact Hv0
    isplitl [Hv1]
    · iexact Hv1
    isplitl [Hv2]
    · iexact Hv2
    isplitl [Hv3]
    · iexact Hv3
    isplitl [Hv4]
    · iexact Hv4
    isplitl [Hv5]
    · iexact Hv5
    isplitl [Hv6]
    · iexact Hv6
    isplitl [Hv7]
    · iexact Hv7
    isplitl [Hv8]
    · iexact Hv8
    isplitl [Hv9]
    · iexact Hv9
    isplitl [Hv10]
    · iexact Hv10
    isplitl [Hv11]
    · iexact Hv11
    isplitl [Hv12]
    · iexact Hv12
    isplitl [Hv13]
    · iexact Hv13
    isplitl [Hv14]
    · iexact Hv14
    isplitl [Hv15]
    · iexact Hv15
    isplitl [Hv16]
    · iexact Hv16
    isplitl [Hv17]
    · iexact Hv17
    isplitl [Hv18]
    · iexact Hv18
    isplitl [Hv19]
    · iexact Hv19
    isplitl [Hv20]
    · iexact Hv20
    isplitl [Hv21]
    · iexact Hv21
    isplitl [Hv22]
    · iexact Hv22
    isplitl [Hv23]
    · iexact Hv23
    isplitl [Hv24]
    · iexact Hv24
    isplitl [Hv25]
    · iexact Hv25
    isplitl [Hv26]
    · iexact Hv26
    isplitl [Hv27]
    · iexact Hv27
    isplitl [Hv28]
    · iexact Hv28
    isplitl [Hv29]
    · iexact Hv29
    isplitl [Hv30]
    · iexact Hv30
    isplitl [Hv31]
    · iexact Hv31
    isplitl [Hv32]
    · iexact Hv32
    isplitl [Hv33]
    · iexact Hv33
    isplitl [Hv34]
    · iexact Hv34
    isplitl [Hv35]
    · iexact Hv35
    isplitl [Hv36]
    · iexact Hv36
    isplitl [Hv37]
    · iexact Hv37
    isplitl [Hv38]
    · iexact Hv38
    isplitl [Hv39]
    · iexact Hv39
    isplitl [Hv40]
    · iexact Hv40
    isplitl [Hv41]
    · iexact Hv41
    isplitl [Hv42]
    · iexact Hv42
    isplitl [Hv43]
    · iexact Hv43
    isplitl [Hv44]
    · iexact Hv44
    isplitl [Hv45]
    · iexact Hv45
    isplitl [Hv46]
    · iexact Hv46
    isplitl [Hv47]
    · iexact Hv47
    isplitl [Hv48]
    · iexact Hv48
    isplitl [Hv49]
    · iexact Hv49
    isplitl [Hv50]
    · iexact Hv50
    isplitl [Hv51]
    · iexact Hv51
    isplitl [Hv52]
    · iexact Hv52
    isplitl [Hv53]
    · iexact Hv53
    isplitl [Hv54]
    · iexact Hv54
    isplitl [Hv55]
    · iexact Hv55
    isplitl [Hv56]
    · iexact Hv56
    isplitl [Hv57]
    · iexact Hv57
    isplitl [Hv58]
    · iexact Hv58
    isplitl [Hv59]
    · iexact Hv59
    isplitl [Hv60]
    · iexact Hv60
    isplitl [Hv61]
    · iexact Hv61
    isplitl [Hv62]
    · iexact Hv62
    isplitl [Hv63]
    · iexact Hv63
    isplitl [Hv64]
    · iexact Hv64
    isplitl [Hv65]
    · iexact Hv65
    isplitl [Hv66]
    · iexact Hv66
    isplitl [Hv67]
    · iexact Hv67
    isplitl [Hv68]
    · iexact Hv68
    isplitl [Hv69]
    · iexact Hv69
    isplitl [Hv70]
    · iexact Hv70
    isplitl [Hv71]
    · iexact Hv71
    isplitl [Hv72]
    · iexact Hv72
    isplitl [Hv73]
    · iexact Hv73
    isplitl [Hv74]
    · iexact Hv74
    isplitl [Hv75]
    · iexact Hv75
    isplitl [Hu76]
    · iexact Hu76
    isplitl [Hu77]
    · iexact Hu77
    isplitl [Hu78]
    · iexact Hu78
    isplitl [Hv79]
    · iexact Hv79
    isplitl [Hv80]
    · iexact Hv80
    isplitl [Hv81]
    · iexact Hv81
    isplitl [Hv82]
    · iexact Hv82
    isplitl [Hv83]
    · iexact Hv83
    isplitl [Hu84]
    · iexact Hu84
    isplitl [Hu85]
    · iexact Hu85
    isplitl [Hu86]
    · iexact Hu86
    isplitl [Hv87]
    · iexact Hv87
    isplitl [Hv88]
    · iexact Hv88
    isplitl [Hv89]
    · iexact Hv89
    isplitl [Hv90]
    · iexact Hv90
    isplitl [Hv91]
    · iexact Hv91
    isplitl [Hu92]
    · iexact Hu92
    isplitl [Hu93]
    · iexact Hu93
    isplitl [Hu94]
    · iexact Hu94
    isplitl [Hv95]
    · iexact Hv95
    isplitl [Hv96]
    · iexact Hv96
    isplitl [Hv97]
    · iexact Hv97
    isplitl [Hv98]
    · iexact Hv98
    isplitl [Hv99]
    · iexact Hv99
    isplitl [Hu100]
    · iexact Hu100
    isplitl [Hu101]
    · iexact Hu101
    isplitl [Hu102]
    · iexact Hu102
    isplitl [Hv103]
    · iexact Hv103
    isplitl [Hv104]
    · iexact Hv104
    isplitl [Hv105]
    · iexact Hv105
    isplitl [Hv106]
    · iexact Hv106
    isplitl [Hv107]
    · iexact Hv107
    isplitl [Hw0a]
    · iexact Hw0a
    isplitl [Hw0b]
    · iexact Hw0b
    isplitl [Hw0c]
    · iexact Hw0c
    isplitl [Hw0d]
    · iexact Hw0d
    isplitl [Hw1a]
    · iexact Hw1a
    isplitl [Hw1b]
    · iexact Hw1b
    isplitl [Hw1c]
    · iexact Hw1c
    isplitl [Hw1d]
    · iexact Hw1d
    isplitl [Hw2a]
    · iexact Hw2a
    isplitl [Hw2b]
    · iexact Hw2b
    isplitl [Hw2c]
    · iexact Hw2c
    isplitl [Hw2d]
    · iexact Hw2d
    isplitl [Hw3a]
    · iexact Hw3a
    isplitl [Hw3b]
    · iexact Hw3b
    isplitl [Hw3c]
    · iexact Hw3c
    isplitl [Hw3d]
    · iexact Hw3d
    isplitl [Hw4a]
    · iexact Hw4a
    isplitl [Hw4b]
    · iexact Hw4b
    isplitl [Hw4c]
    · iexact Hw4c
    isplitl [Hw4d]
    · iexact Hw4d
    isplitl [Hw5a]
    · iexact Hw5a
    isplitl [Hw5b]
    · iexact Hw5b
    isplitl [Hw5c]
    · iexact Hw5c
    isplitl [Hw5d]
    · iexact Hw5d
    isplitl [Hw6a]
    · iexact Hw6a
    isplitl [Hw6b]
    · iexact Hw6b
    isplitl [Hw6c]
    · iexact Hw6c
    isplitl [Hw6d]
    · iexact Hw6d
    isplitl [Hw7a]
    · iexact Hw7a
    isplitl [Hw7b]
    · iexact Hw7b
    isplitl [Hw7c]
    · iexact Hw7c
    iexact Hw7d
  iexists _; iexact HO

end Cert.Kernel.RS.D6

end
-- ==== Proof.K.Body7.lean ====
import proofs.«901022_g7700000000001023_dist_rs_v7x_xyz2x2x2_x_m4096_n1024_bf16_1_alg».proof.Proof.K.BodyAux
import proofs.«901022_g7700000000001023_dist_rs_v7x_xyz2x2x2_x_m4096_n1024_bf16_1_alg».proof.Proof.K.BodyPre
import proofs.«901022_g7700000000001023_dist_rs_v7x_xyz2x2x2_x_m4096_n1024_bf16_1_alg».proof.Proof.K.OutRules

/-! The body of the kernel on device 7 of the mesh, from its precondition (BodyPre) to its postcondition (bodyPost).

    The program is straight-line code of 4045 statements. Its local steps — the 54 copies between the input, the staging
    buffers, the four-quarter buffer and the result, their waits, the loads and the stores — are run by the library's symbolic
    executor on hypotheses that hold each 512-row chunk through the slice the program itself names. Its remote steps are
    taken by the rounds library's rules, one application each: three barrier signals and the wait for the three
    neighbours; 37 copies to a neighbour, each lending the source chunk (at a share, where the chunk is also read by another
    copy) and landing the chunk's final contents; the waits on the 37 receive cells, which hand back the landed chunks; the
    final waits on the 37 send cells, which hand back what was lent. Whenever a chunk has been written (by a landing copy or
    by a store) it is restated as "holds its final contents" (Spec), which is what the next copy's payload asks for.
    A wait is allowed because whatever the device still owes at that point lies above the awaited cell (Owed): decided on the
    list of payments not yet made. At the end every cell has had its one round and is closed, and the pieces of every
    buffer are put back. -/

set_option maxRecDepth 8000

noncomputable section

namespace Cert.Kernel.RS.D7

open Cert.Kernel Cert.Kernel.Gen Cert.Kernel.RS
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local notation "cc" => (Fin.mk 7 (Nat.le_of_ble_eq_true rfl) : Dev nD)

set_option maxHeartbeats 1600000 in
theorem dev (m : (ℓ : Loc nD τ sig) → Buf (Elt F) ℓ) (K : GSem nD τ sig → ℕ) (W : Waits sig Unit) (Kt : PUnit → sProp 𝕄) :
    iprop(bodyPre m K cc W ∗ (bodyPost m cc -∗ Kt ⟨⟩))
      ⊢ wp frame (wpE (defs₀ (F := F)) 𝒱₀ (cc : Thread nD τ) none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25) Kt := by
  unfold bodyPre O₀
  iintro ⟨⟨HIt, HIw, HRt, #Hlev, HO, Hcr, HpR, HpS, Htk, HX, Hout, HS0, HS1, HS2, HS3, HS4, HS5, HS6, HS7, HS8, HvI, HvO, HvU⟩, Hk⟩
  rw [cc0_body_eq_skeleton]; unfold cc0_body_skel
  -- the four-quarter buffer in the pieces that travel
  ihave H0 := (Entails.of_eq (junk_whole (F := F) cc cc0_scratch0)) $$ HS0
  icases H0 with ⟨%f0, H0⟩
  ihave H4 := (r4_entry (F := F) cc f0) $$ H0
  icases H4 with ⟨Hown, HgZ, HgY, Hdg, HhZ, HhY⟩
  sl_exec

  icases Htk with ⟨Htb, Htk⟩
  icases HIt with ⟨#HIbpx, HIt⟩
  icases HRt with ⟨#HRbpx, HRt⟩
  iapply (sig_bar m cc _ (px cc) (dev1_eq cc) 0 (by decide) (owedL (List.drop 1 (paysL cc))) rfl) $$ [HO Htb HS2 HS4]
  · isplitr; · iexact HIbpx
    isplitl [HO]; · iexact HO
    isplitl [Htb]; · iexact Htb
    isplitl [HS2 HS4]
    · iapply (Entails.of_eq ((barPay_zero (F := F) (px cc)).trans (by rw [px_px])).symm)
      unfold giveX
      isplitl [HS2]; · iexact HS2
      iexact HS4
    · iexact HRbpx
  iintro HO
  sl_exec

  icases Htk with ⟨Htb, Htk⟩
  icases HIt with ⟨#HIbpz, HIt⟩
  icases HRt with ⟨#HRbpz, HRt⟩
  iapply (sig_bar m cc _ (pz cc) (dev2_eq cc) 2 (by decide) (owedL (List.drop 2 (paysL cc))) rfl) $$ [HO Htb HgZ HhZ]
  · isplitr; · iexact HIbpz
    isplitl [HO]; · iexact HO
    isplitl [Htb]; · iexact Htb
    isplitl [HgZ HhZ]
    · iapply (Entails.of_eq ((barPay_two (F := F) (pz cc)).trans (by rw [pz_pz])).symm)
      isplitl [HgZ]; · iexact HgZ
      iexact HhZ
    · iexact HRbpz
  iintro HO
  sl_exec

  icases Htk with ⟨Htb, Htk⟩
  icases HIt with ⟨#HIbpy, HIt⟩
  icases HRt with ⟨#HRbpy, HRt⟩
  iapply (sig_bar m cc _ (py cc) (dev3_eq cc) 1 (by decide) (owedL (List.drop 3 (paysL cc))) rfl) $$ [HO Htb HgY HhY]
  · isplitr; · iexact HIbpy
    isplitl [HO]; · iexact HO
    isplitl [Htb]; · iexact Htb
    isplitl [HgY HhY]
    · iapply (Entails.of_eq ((barPay_one (F := F) (py cc)).trans (by rw [py_py])).symm)
      isplitl [HgY]; · iexact HgY
      iexact HhY
    · iexact HRbpy
  iintro HO
  sl_exec
  -- the wait for the three neighbours
  icases Hcr with ⟨Hcb, Hcr⟩
  icases HpR with ⟨Hpb, HpR⟩
  icases HIw with ⟨#HIb, HIw⟩
  ihave Hmw := (mayWait_list (F := F) cc (.reg barS) (List.drop 3 (paysL cc)) (by decide)) $$ Hlev
  iapply (wait_bar m cc (by decide)) $$ [Hcb HO Hmw Hpb]
  · isplitr; · iexact HIb
    isplitl [Hcb]; · iexact Hcb
    isplitl [HO]; · iexact HO
    isplitl [Hmw]; · iexact Hmw
    iexact Hpb
  iintro ⟨HO, Hpb, -, Hgx, Hgy, Hgz⟩
  -- what they handed over: the x-neighbour's landing buffers chunk by chunk, the y- and z-neighbours' quarter and halves
  ihave Hgx := (Entails.of_eq (barPay_zero (F := F) cc)) $$ Hgx
  ihave Hgx := (giveX_rows (F := F) (px cc)) $$ Hgx
  icases Hgx with ⟨Hrbp, Hrb2p⟩
  ihave Hgy := (Entails.of_eq (barPay_one (F := F) cc)) $$ Hgy
  icases Hgy with ⟨HqY, HhYp⟩
  ihave Hgz := (Entails.of_eq (barPay_two (F := F) cc)) $$ Hgz
  icases Hgz with ⟨HqZ, HhZp⟩
  -- this device's staging buffers and send buffers chunk by chunk
  ihave H5 := (Entails.of_eq (junk_whole (F := F) cc cc0_scratch5)) $$ HS5
  icases H5 with ⟨%f5, H5⟩
  ihave H5 := (Entails.of_eq (stP_rows (F := F) cc fullShare f5)) $$ H5
  icases H5 with ⟨HP0, HP1, HP2, HP3, HP4, HP5, HP6, HP7⟩
  ihave H6 := (Entails.of_eq (junk_whole (F := F) cc cc0_scratch6)) $$ HS6
  icases H6 with ⟨%f6, H6⟩
  ihave H6 := (Entails.of_eq (stL_rows (F := F) cc fullShare f6)) $$ H6
  icases H6 with ⟨HL0, HL1, HL2, HL3, HL4, HL5, HL6, HL7⟩
  ihave H7 := (Entails.of_eq (junk_whole (F := F) cc cc0_scratch7)) $$ HS7
  icases H7 with ⟨%f7, H7⟩
  ihave H7 := (Entails.of_eq (stP2_rows (F := F) cc fullShare f7)) $$ H7
  icases H7 with ⟨HP20, HP21, HP22⟩
  ihave H8 := (Entails.of_eq (junk_whole (F := F) cc cc0_scratch8)) $$ HS8
  icases H8 with ⟨%f8, H8⟩
  ihave H8 := (Entails.of_eq (stL2_rows (F := F) cc fullShare f8)) $$ H8
  icases H8 with ⟨HL20, HL21, HL22⟩
  ihave H1 := (Entails.of_eq (junk_whole (F := F) cc cc0_scratch1)) $$ HS1
  icases H1 with ⟨%f1, H1⟩
  ihave H1 := (Entails.of_eq (sb_rows (F := F) cc fullShare f1)) $$ H1
  icases H1 with ⟨HB0, HB1, HB2, HB3, HB4, HB5, HB6, HB7⟩
  ihave H3 := (Entails.of_eq (junk_whole (F := F) cc cc0_scratch3)) $$ HS3
  icases H3 with ⟨%f3, H3⟩
  ihave H3 := (Entails.of_eq (sb2_rows (F := F) cc fullShare f3)) $$ H3
  icases H3 with ⟨HB20, HB21, HB22⟩
  -- the counters of the 22 copies into the staging buffers
  icases HvI with ⟨Hv0, Hv8, Hv1, Hv9, Hv2, Hv10, Hv3, Hv11, Hv4, Hv12, Hv5, Hv13, Hv6, Hv14, Hv7, Hv15, Hv16, Hv19, Hv17, Hv20, Hv18, Hv21⟩
  sl_exec
  -- chunk 0 across x: wait for its copy into the staging buffer, round it into the send buffer, send it
  have hled3 : ∀ (s : DmaSem sig), lvJ s.val = 0 → ((levAts LL lvv : sProp 𝕄) ⊢ MayWait (cc : Thread nD τ) (.dma s) () (owedL (List.drop 3 (paysL cc)))) :=
    fun s hs => mayWait_local (F := F) cc s hs _ (by decide)
  sl_exec
  clear hled3
  ihave HB0 := (congr (F := F) (sbR 0) cc fullShare (dev.sl.HB0_w1 m f1) (sb m cc) (fun i hi => glue_sb m cc 0 _ (k0_off1_inb cc) (k0_off1_eq cc) f1 i hi)) $$ HB0
  -- the copy
  icases Htk with ⟨Hts, Htr, Htk⟩
  icases HIt with ⟨#HIc22, #HIr, HIt⟩
  icases HRt with ⟨#HRs, #HRr, HRt⟩
  icases Hrbp with ⟨⟨%fd, Hd⟩, Hrbp⟩
  iapply (send_x m cc _ (dev4_eq cc) 0 fd (owedL (List.drop 4 (paysL cc))) rfl _) $$ [HB0 Hd HO Hts Htr]
  · isplitr; · iexact HIc22
    isplitr; · iexact HIr
    isplitl [HB0]; · iexact HB0
    isplitl [Hd]; · iexact Hd
    isplitl [HO]; · iexact HO
    isplitl [Hts]; · iexact Hts
    isplitr; · iexact HRs
    isplitl [Htr]; · iexact Htr
    iexact HRr
  iintro ⟨Hcxs0, HO⟩
  iclear HIr HRs HRr
  -- chunk 1 across x: wait for its copy into the staging buffer, round it into the send buffer, send it
  have hled4 : ∀ (s : DmaSem sig), lvJ s.val = 0 → ((levAts LL lvv : sProp 𝕄) ⊢ MayWait (cc : Thread nD τ) (.dma s) () (owedL (List.drop 4 (paysL cc)))) :=
    fun s hs => mayWait_local (F := F) cc s hs _ (by decide)
  sl_exec
  clear hled4
  ihave HB1 := (congr (F := F) (sbR 1) cc fullShare (dev.sl.HB1_w1 m f1) (sb m cc) (fun i hi => glue_sb m cc 1 _ (k0_off3_inb cc) (k0_off3_eq cc) f1 i hi)) $$ HB1
  -- the copy
  icases Htk with ⟨Hts, Htr, Htk⟩
  icases HIt with ⟨#HIc23, #HIr, HIt⟩
  icases HRt with ⟨#HRs, #HRr, HRt⟩
  icases Hrbp with ⟨⟨%fd, Hd⟩, Hrbp⟩
  iapply (send_x m cc _ (dev5_eq cc) 1 fd (owedL (List.drop 5 (paysL cc))) rfl _) $$ [HB1 Hd HO Hts Htr]
  · isplitr; · iexact HIc23
    isplitr; · iexact HIr
    isplitl [HB1]; · iexact HB1
    isplitl [Hd]; · iexact Hd
    isplitl [HO]; · iexact HO
    isplitl [Hts]; · iexact Hts
    isplitr; · iexact HRs
    isplitl [Htr]; · iexact Htr
    iexact HRr
  iintro ⟨Hcxs1, HO⟩
  iclear HIr HRs HRr
  -- chunk 2 across x: wait for its copy into the staging buffer, round it into the send buffer, send it
  have hled5 : ∀ (s : DmaSem sig), lvJ s.val = 0 → ((levAts LL lvv : sProp 𝕄) ⊢ MayWait (cc : Thread nD τ) (.dma s) () (owedL (List.drop 5 (paysL cc)))) :=
    fun s hs => mayWait_local (F := F) cc s hs _ (by decide)
  sl_exec
  clear hled5
  ihave HB2 := (congr (F := F) (sbR 2) cc fullShare (dev.sl.HB2_w1 m f1) (sb m cc) (fun i hi => glue_sb m cc 2 _ (k0_off5_inb cc) (k0_off5_eq cc) f1 i hi)) $$ HB2
  -- the copy
  icases Htk with ⟨Hts, Htr, Htk⟩
  icases HIt with ⟨#HIc24, #HIr, HIt⟩
  icases HRt with ⟨#HRs, #HRr, HRt⟩
  icases Hrbp with ⟨⟨%fd, Hd⟩, Hrbp⟩
  iapply (send_x m cc _ (dev6_eq cc) 2 fd (owedL (List.drop 6 (paysL cc))) rfl _) $$ [HB2 Hd HO Hts Htr]
  · isplitr; · iexact HIc24
    isplitr; · iexact HIr
    isplitl [HB2]; · iexact HB2
    isplitl [Hd]; · iexact Hd
    isplitl [HO]; · iexact HO
    isplitl [Hts]; · iexact Hts
    isplitr; · iexact HRs
    isplitl [Htr]; · iexact Htr
    iexact HRr
  iintro ⟨Hcxs2, HO⟩
  iclear HIr HRs HRr
  -- chunk 3 across x: wait for its copy into the staging buffer, round it into the send buffer, send it
  have hled6 : ∀ (s : DmaSem sig), lvJ s.val = 0 → ((levAts LL lvv : sProp 𝕄) ⊢ MayWait (cc : Thread nD τ) (.dma s) () (owedL (List.drop 6 (paysL cc)))) :=
    fun s hs => mayWait_local (F := F) cc s hs _ (by decide)
  sl_exec
  clear hled6
  ihave HB3 := (congr (F := F) (sbR 3) cc fullShare (dev.sl.HB3_w1 m f1) (sb m cc) (fun i hi => glue_sb m cc 3 _ (k0_off7_inb cc) (k0_off7_eq cc) f1 i hi)) $$ HB3
  -- the copy
  icases Htk with ⟨Hts, Htr, Htk⟩
  icases HIt with ⟨#HIc25, #HIr, HIt⟩
  icases HRt with ⟨#HRs, #HRr, HRt⟩
  icases Hrbp with ⟨⟨%fd, Hd⟩, Hrbp⟩
  iapply (send_x m cc _ (dev7_eq cc) 3 fd (owedL (List.drop 7 (paysL cc))) rfl _) $$ [HB3 Hd HO Hts Htr]
  · isplitr; · iexact HIc25
    isplitr; · iexact HIr
    isplitl [HB3]; · iexact HB3
    isplitl [Hd]; · iexact Hd
    isplitl [HO]; · iexact HO
    isplitl [Hts]; · iexact Hts
    isplitr; · iexact HRs
    isplitl [Htr]; · iexact Htr
    iexact HRr
  iintro ⟨Hcxs3, HO⟩
  iclear HIr HRs HRr
  -- chunk 4 across x: wait for its copy into the staging buffer, round it into the send buffer, send it
  have hled7 : ∀ (s : DmaSem sig), lvJ s.val = 0 → ((levAts LL lvv : sProp 𝕄) ⊢ MayWait (cc : Thread nD τ) (.dma s) () (owedL (List.drop 7 (paysL cc)))) :=
    fun s hs => mayWait_local (F := F) cc s hs _ (by decide)
  sl_exec
  clear hled7
  ihave HB4 := (congr (F := F) (sbR 4) cc fullShare (dev.sl.HB4_w1 m f1) (sb m cc) (fun i hi => glue_sb m cc 4 _ (k0_off9_inb cc) (k0_off9_eq cc) f1 i hi)) $$ HB4
  -- the copy
  icases Htk with ⟨Hts, Htr, Htk⟩
  icases HIt with ⟨#HIc26, #HIr, HIt⟩
  icases HRt with ⟨#HRs, #HRr, HRt⟩
  icases Hrbp with ⟨⟨%fd, Hd⟩, Hrbp⟩
  iapply (send_x m cc _ (dev8_eq cc) 4 fd (owedL (List.drop 8 (paysL cc))) rfl _) $$ [HB4 Hd HO Hts Htr]
  · isplitr; · iexact HIc26
    isplitr; · iexact HIr
    isplitl [HB4]; · iexact HB4
    isplitl [Hd]; · iexact Hd
    isplitl [HO]; · iexact HO
    isplitl [Hts]; · iexact Hts
    isplitr; · iexact HRs
    isplitl [Htr]; · iexact Htr
    iexact HRr
  iintro ⟨Hcxs4, HO⟩
  iclear HIr HRs HRr
  -- chunk 5 across x: wait for its copy into the staging buffer, round it into the send buffer, send it
  have hled8 : ∀ (s : DmaSem sig), lvJ s.val = 0 → ((levAts LL lvv : sProp 𝕄) ⊢ MayWait (cc : Thread nD τ) (.dma s) () (owedL (List.drop 8 (paysL cc)))) :=
    fun s hs => mayWait_local (F := F) cc s hs _ (by decide)
  sl_exec
  clear hled8
  ihave HB5 := (congr (F := F) (sbR 5) cc fullShare (dev.sl.HB5_w1 m f1) (sb m cc) (fun i hi => glue_sb m cc 5 _ (k0_off11_inb cc) (k0_off11_eq cc) f1 i hi)) $$ HB5
  -- the copy
  icases Htk with ⟨Hts, Htr, Htk⟩
  icases HIt with ⟨#HIc27, #HIr, HIt⟩
  icases HRt with ⟨#HRs, #HRr, HRt⟩
  icases Hrbp with ⟨⟨%fd, Hd⟩, Hrbp⟩
  iapply (send_x m cc _ (dev9_eq cc) 5 fd (owedL (List.drop 9 (paysL cc))) rfl _) $$ [HB5 Hd HO Hts Htr]
  · isplitr; · iexact HIc27
    isplitr; · iexact HIr
    isplitl [HB5]; · iexact HB5
    isplitl [Hd]; · iexact Hd
    isplitl [HO]; · iexact HO
    isplitl [Hts]; · iexact Hts
    isplitr; · iexact HRs
    isplitl [Htr]; · iexact Htr
    iexact HRr
  iintro ⟨Hcxs5, HO⟩
  iclear HIr HRs HRr
  -- chunk 6 across x: wait for its copy into the staging buffer, round it into the send buffer, send it
  have hled9 : ∀ (s : DmaSem sig), lvJ s.val = 0 → ((levAts LL lvv : sProp 𝕄) ⊢ MayWait (cc : Thread nD τ) (.dma s) () (owedL (List.drop 9 (paysL cc)))) :=
    fun s hs => mayWait_local (F := F) cc s hs _ (by decide)
  sl_exec
  clear hled9
  ihave HB6 := (congr (F := F) (sbR 6) cc fullShare (dev.sl.HB6_w1 m f1) (sb m cc) (fun i hi => glue_sb m cc 6 _ (k0_off13_inb cc) (k0_off13_eq cc) f1 i hi)) $$ HB6
  -- the copy
  icases Htk with ⟨Hts, Htr, Htk⟩
  icases HIt with ⟨#HIc28, #HIr, HIt⟩
  icases HRt with ⟨#HRs, #HRr, HRt⟩
  icases Hrbp with ⟨⟨%fd, Hd⟩, Hrbp⟩
  iapply (send_x m cc _ (dev10_eq cc) 6 fd (owedL (List.drop 10 (paysL cc))) rfl _) $$ [HB6 Hd HO Hts Htr]
  · isplitr; · iexact HIc28
    isplitr; · iexact HIr
    isplitl [HB6]; · iexact HB6
    isplitl [Hd]; · iexact Hd
    isplitl [HO]; · iexact HO
    isplitl [Hts]; · iexact Hts
    isplitr; · iexact HRs
    isplitl [Htr]; · iexact Htr
    iexact HRr
  iintro ⟨Hcxs6, HO⟩
  iclear HIr HRs HRr
  -- chunk 7 across x: wait for its copy into the staging buffer, round it into the send buffer, send it
  have hled10 : ∀ (s : DmaSem sig), lvJ s.val = 0 → ((levAts LL lvv : sProp 𝕄) ⊢ MayWait (cc : Thread nD τ) (.dma s) () (owedL (List.drop 10 (paysL cc)))) :=
    fun s hs => mayWait_local (F := F) cc s hs _ (by decide)
  sl_exec
  clear hled10
  ihave HB7 := (congr (F := F) (sbR 7) cc fullShare (dev.sl.HB7_w1 m f1) (sb m cc) (fun i hi => glue_sb m cc 7 _ (k0_off15_inb cc) (k0_off15_eq cc) f1 i hi)) $$ HB7
  -- the copy
  icases Htk with ⟨Hts, Htr, Htk⟩
  icases HIt with ⟨#HIc29, #HIr, HIt⟩
  icases HRt with ⟨#HRs, #HRr, HRt⟩
  icases Hrbp with ⟨%fd, Hd⟩
  iapply (send_x m cc _ (dev11_eq cc) 7 fd (owedL (List.drop 11 (paysL cc))) rfl _) $$ [HB7 Hd HO Hts Htr]
  · isplitr; · iexact HIc29
    isplitr; · iexact HIr
    isplitl [HB7]; · iexact HB7
    isplitl [Hd]; · iexact Hd
    isplitl [HO]; · iexact HO
    isplitl [Hts]; · iexact Hts
    isplitr; · iexact HRs
    isplitl [Htr]; · iexact Htr
    iexact HRr
  iintro ⟨Hcxs7, HO⟩
  iclear HIr HRs HRr
  -- chunk 0 across x (the diagonal quarter's): wait for its copy into the staging buffer, round it into the send buffer, send it
  have hled11 : ∀ (s : DmaSem sig), lvJ s.val = 0 → ((levAts LL lvv : sProp 𝕄) ⊢ MayWait (cc : Thread nD τ) (.dma s) () (owedL (List.drop 11 (paysL cc)))) :=
    fun s hs => mayWait_local (F := F) cc s hs _ (by decide)
  sl_exec
  clear hled11
  ihave HB20 := (congr (F := F) (sb2R 0) cc fullShare (dev.sl.HB20_w1 m f3) (sb2 m cc) (fun i hi => glue_sb2 m cc 0 _ (k0_off17_inb cc) (k0_off17_eq cc) f3 i hi)) $$ HB20
  -- the copy
  icases Htk with ⟨Hts, Htr, Htk⟩
  icases HIt with ⟨#HIc38, #HIr, HIt⟩
  icases HRt with ⟨#HRs, #HRr, HRt⟩
  icases Hrb2p with ⟨⟨%fd, Hd⟩, Hrb2p⟩
  iapply (send_x2 m cc _ (dev12_eq cc) 0 fd (owedL (List.drop 12 (paysL cc))) rfl _) $$ [HB20 Hd HO Hts Htr]
  · isplitr; · iexact HIc38
    isplitr; · iexact HIr
    isplitl [HB20]; · iexact HB20
    isplitl [Hd]; · iexact Hd
    isplitl [HO]; · iexact HO
    isplitl [Hts]; · iexact Hts
    isplitr; · iexact HRs
    isplitl [Htr]; · iexact Htr
    iexact HRr
  iintro ⟨Hcds0, HO⟩
  iclear HIr HRs HRr
  -- chunk 1 across x (the diagonal quarter's): wait for its copy into the staging buffer, round it into the send buffer, send it
  have hled12 : ∀ (s : DmaSem sig), lvJ s.val = 0 → ((levAts LL lvv : sProp 𝕄) ⊢ MayWait (cc : Thread nD τ) (.dma s) () (owedL (List.drop 12 (paysL cc)))) :=
    fun s hs => mayWait_local (F := F) cc s hs _ (by decide)
  sl_exec
  clear hled12
  ihave HB21 := (congr (F := F) (sb2R 1) cc fullShare (dev.sl.HB21_w1 m f3) (sb2 m cc) (fun i hi => glue_sb2 m cc 1 _ (k0_off19_inb cc) (k0_off19_eq cc) f3 i hi)) $$ HB21
  -- the copy
  icases Htk with ⟨Hts, Htr, Htk⟩
  icases HIt with ⟨#HIc39, #HIr, HIt⟩
  icases HRt with ⟨#HRs, #HRr, HRt⟩
  icases Hrb2p with ⟨⟨%fd, Hd⟩, Hrb2p⟩
  iapply (send_x2 m cc _ (dev13_eq cc) 1 fd (owedL (List.drop 13 (paysL cc))) rfl _) $$ [HB21 Hd HO Hts Htr]
  · isplitr; · iexact HIc39
    isplitr; · iexact HIr
    isplitl [HB21]; · iexact HB21
    isplitl [Hd]; · iexact Hd
    isplitl [HO]; · iexact HO
    isplitl [Hts]; · iexact Hts
    isplitr; · iexact HRs
    isplitl [Htr]; · iexact Htr
    iexact HRr
  iintro ⟨Hcds1, HO⟩
  iclear HIr HRs HRr
  -- chunk 2 across x (the diagonal quarter's): wait for its copy into the staging buffer, round it into the send buffer, send it
  have hled13 : ∀ (s : DmaSem sig), lvJ s.val = 0 → ((levAts LL lvv : sProp 𝕄) ⊢ MayWait (cc : Thread nD τ) (.dma s) () (owedL (List.drop 13 (paysL cc)))) :=
    fun s hs => mayWait_local (F := F) cc s hs _ (by decide)
  sl_exec
  clear hled13
  ihave HB22 := (congr (F := F) (sb2R 2) cc fullShare (dev.sl.HB22_w1 m f3) (sb2 m cc) (fun i hi => glue_sb2 m cc 2 _ (k0_off21_inb cc) (k0_off21_eq cc) f3 i hi)) $$ HB22
  -- the copy
  icases Htk with ⟨Hts, Htr, Htk⟩
  icases HIt with ⟨#HIc40, #HIr, HIt⟩
  icases HRt with ⟨#HRs, #HRr, HRt⟩
  icases Hrb2p with ⟨%fd, Hd⟩
  iapply (send_x2 m cc _ (dev14_eq cc) 2 fd (owedL (List.drop 14 (paysL cc))) rfl _) $$ [HB22 Hd HO Hts Htr]
  · isplitr; · iexact HIc40
    isplitr; · iexact HIr
    isplitl [HB22]; · iexact HB22
    isplitl [Hd]; · iexact Hd
    isplitl [HO]; · iexact HO
    isplitl [Hts]; · iexact Hts
    isplitr; · iexact HRs
    isplitl [Htr]; · iexact Htr
    iexact HRr
  iintro ⟨Hcds2, HO⟩
  iclear HIr HRs HRr
  sl_exec
  -- the result array in its 32 blocks
  ihave Hout := (out_split_junk (F := F) cc) $$ Hout
  icases Hout with ⟨⟨%g00, HU00⟩, ⟨%g01, HU01⟩, ⟨%g02, HU02⟩, ⟨%g03, HU03⟩, ⟨%g10, HU10⟩, ⟨%g11, HU11⟩, ⟨%g12, HU12⟩, ⟨%g13, HU13⟩, ⟨%g20, HU20⟩, ⟨%g21, HU21⟩, ⟨%g22, HU22⟩, ⟨%g23, HU23⟩, ⟨%g30, HU30⟩, ⟨%g31, HU31⟩, ⟨%g32, HU32⟩, ⟨%g33, HU33⟩, ⟨%g40, HU40⟩, ⟨%g41, HU41⟩, ⟨%g42, HU42⟩, ⟨%g43, HU43⟩, ⟨%g50, HU50⟩, ⟨%g51, HU51⟩, ⟨%g52, HU52⟩, ⟨%g53, HU53⟩, ⟨%g60, HU60⟩, ⟨%g61, HU61⟩, ⟨%g62, HU62⟩, ⟨%g63, HU63⟩, ⟨%g70, HU70⟩, ⟨%g71, HU71⟩, ⟨%g72, HU72⟩, ⟨%g73, HU73⟩⟩
  ihave HqZ := (Entails.of_eq (giveQ_eq (F := F) (pz cc) (zqF (pz cc)))) $$ HqZ
  ihave HqY := (Entails.of_eq (giveQ_eq (F := F) (py cc) (yqF (py cc)))) $$ HqY
  ihave HhZp := (Entails.of_eq (giveH_eq (F := F) (pz cc) 0)) $$ HhZp
  ihave HhYp := (Entails.of_eq (giveH_eq (F := F) (py cc) 1)) $$ HhYp
  -- step 0 of the main loop: the x-neighbour's chunk 0 has landed
  icases Hcr with ⟨Hc, Hcr⟩
  icases HpR with ⟨Hp, HpR⟩
  icases HIw with ⟨#HIc30, HIw⟩
  ihave Hmw := (mayWait_list (F := F) cc (dsem (⟨30, by decide⟩ : Fin 140)) (List.drop 14 (paysL cc)) (by decide)) $$ Hlev
  iapply (wait_a1_at m cc _ 0 rfl) $$ [Hc HO Hmw Hp]
  · isplitr; · iexact HIc30
    isplitl [Hc]; · iexact Hc
    isplitl [HO]; · iexact HO
    isplitl [Hmw]; · iexact Hmw
    iexact Hp
  iintro ⟨HO, Hq30, -, Hrb0⟩
  icases Hown with ⟨Ho0, Hown⟩
  have hled14 : ∀ (s : DmaSem sig), lvJ s.val = 0 → ((levAts LL lvv : sProp 𝕄) ⊢ MayWait (cc : Thread nD τ) (.dma s) () (owedL (List.drop 14 (paysL cc)))) :=
    fun s hs => mayWait_local (F := F) cc s hs _ (by decide)
  sl_exec
  clear hled14
  ihave Ho0 := (congr (F := F) (r4R (mqF cc) 0) cc fullShare (dev.sl.Ho0_w1 m f0) (r4 m cc) (fun i hi => glue_own m cc 0 _ (k0_off2_inb cc) (k0_off2_eq cc) _ (k0_off23_inb cc) (k0_off23_eq cc) f0 i hi)) $$ Ho0
  ihave Ho0 := (Entails.of_eq (share_ZYK_eq (F := F) (r4R (mqF cc) 0) cc (r4 m cc))) $$ Ho0
  icases Ho0 with ⟨HoZ0, HoY0, HoK0⟩
  -- own chunk 0 to the z-neighbour
  icases Htk with ⟨Hts, Htr, Htk⟩
  icases HIt with ⟨#HIc44, #HIr, HIt⟩
  icases HRt with ⟨#HRs, #HRr, HRt⟩
  icases HqZ with ⟨⟨%fd, Hd⟩, HqZ⟩
  iapply (send_z_at m cc _ (dev15_eq cc) 0 _ _ (k0_off24_eq cc) fd (owedL (List.drop 15 (paysL cc))) rfl _) $$ [HoZ0 Hd HO Hts Htr]
  · isplitr; · iexact HIc44
    isplitr; · iexact HIr
    isplitl [HoZ0]; · iexact HoZ0
    isplitl [Hd]; · iexact Hd
    isplitl [HO]; · iexact HO
    isplitl [Hts]; · iexact Hts
    isplitr; · iexact HRs
    isplitl [Htr]; · iexact Htr
    iexact HRr
  iintro ⟨Hczs0, HO⟩
  iclear HIr HRs HRr
  sl_exec
  -- own chunk 0 to the y-neighbour
  icases Htk with ⟨Hts, Htr, Htk⟩
  icases HIt with ⟨#HIc60, #HIr, HIt⟩
  icases HRt with ⟨#HRs, #HRr, HRt⟩
  icases HqY with ⟨⟨%fd, Hd⟩, HqY⟩
  iapply (send_y_at m cc _ (dev16_eq cc) 0 _ _ (k0_off24_eq cc) fd (owedL (List.drop 16 (paysL cc))) rfl _) $$ [HoY0 Hd HO Hts Htr]
  · isplitr; · iexact HIc60
    isplitr; · iexact HIr
    isplitl [HoY0]; · iexact HoY0
    isplitl [Hd]; · iexact Hd
    isplitl [HO]; · iexact HO
    isplitl [Hts]; · iexact Hts
    isplitr; · iexact HRs
    isplitl [Htr]; · iexact Htr
    iexact HRr
  iintro ⟨Hcys0, HO⟩
  iclear HIr HRs HRr
  sl_exec
  -- step 1 of the main loop: the x-neighbour's chunk 1 has landed
  icases Hcr with ⟨Hc, Hcr⟩
  icases HpR with ⟨Hp, HpR⟩
  icases HIw with ⟨#HIc31, HIw⟩
  ihave Hmw := (mayWait_list (F := F) cc (dsem (⟨31, by decide⟩ : Fin 140)) (List.drop 16 (paysL cc)) (by decide)) $$ Hlev
  iapply (wait_a1_at m cc _ 1 rfl) $$ [Hc HO Hmw Hp]
  · isplitr; · iexact HIc31
    isplitl [Hc]; · iexact Hc
    isplitl [HO]; · iexact HO
    isplitl [Hmw]; · iexact Hmw
    iexact Hp
  iintro ⟨HO, Hq31, -, Hrb1⟩
  icases Hown with ⟨Ho1, Hown⟩
  have hled16 : ∀ (s : DmaSem sig), lvJ s.val = 0 → ((levAts LL lvv : sProp 𝕄) ⊢ MayWait (cc : Thread nD τ) (.dma s) () (owedL (List.drop 16 (paysL cc)))) :=
    fun s hs => mayWait_local (F := F) cc s hs _ (by decide)
  sl_exec
  clear hled16
  ihave Ho1 := (congr (F := F) (r4R (mqF cc) 1) cc fullShare (dev.sl.Ho1_w1 m f0) (r4 m cc) (fun i hi => glue_own m cc 1 _ (k0_off4_inb cc) (k0_off4_eq cc) _ (k0_off25_inb cc) (k0_off25_eq cc) f0 i hi)) $$ Ho1
  ihave Ho1 := (Entails.of_eq (share_ZYK_eq (F := F) (r4R (mqF cc) 1) cc (r4 m cc))) $$ Ho1
  icases Ho1 with ⟨HoZ1, HoY1, HoK1⟩
  -- own chunk 1 to the z-neighbour
  icases Htk with ⟨Hts, Htr, Htk⟩
  icases HIt with ⟨#HIc45, #HIr, HIt⟩
  icases HRt with ⟨#HRs, #HRr, HRt⟩
  icases HqZ with ⟨⟨%fd, Hd⟩, HqZ⟩
  iapply (send_z_at m cc _ (dev17_eq cc) 1 _ _ (k0_off26_eq cc) fd (owedL (List.drop 17 (paysL cc))) rfl _) $$ [HoZ1 Hd HO Hts Htr]
  · isplitr; · iexact HIc45
    isplitr; · iexact HIr
    isplitl [HoZ1]; · iexact HoZ1
    isplitl [Hd]; · iexact Hd
    isplitl [HO]; · iexact HO
    isplitl [Hts]; · iexact Hts
    isplitr; · iexact HRs
    isplitl [Htr]; · iexact Htr
    iexact HRr
  iintro ⟨Hczs1, HO⟩
  iclear HIr HRs HRr
  sl_exec
  -- own chunk 1 to the y-neighbour
  icases Htk with ⟨Hts, Htr, Htk⟩
  icases HIt with ⟨#HIc61, #HIr, HIt⟩
  icases HRt with ⟨#HRs, #HRr, HRt⟩
  icases HqY with ⟨⟨%fd, Hd⟩, HqY⟩
  iapply (send_y_at m cc _ (dev18_eq cc) 1 _ _ (k0_off26_eq cc) fd (owedL (List.drop 18 (paysL cc))) rfl _) $$ [HoY1 Hd HO Hts Htr]
  · isplitr; · iexact HIc61
    isplitr; · iexact HIr
    isplitl [HoY1]; · iexact HoY1
    isplitl [Hd]; · iexact Hd
    isplitl [HO]; · iexact HO
    isplitl [Hts]; · iexact Hts
    isplitr; · iexact HRs
    isplitl [Htr]; · iexact Htr
    iexact HRr
  iintro ⟨Hcys1, HO⟩
  iclear HIr HRs HRr
  sl_exec
  -- the z-neighbour's chunk 0 has landed
  icases Hcr with ⟨Hc, Hcr⟩
  icases HpR with ⟨Hp, HpR⟩
  icases HIw with ⟨#HIc52, HIw⟩
  ihave Hmw := (mayWait_list (F := F) cc (dsem (⟨52, by decide⟩ : Fin 140)) (List.drop 18 (paysL cc)) (by decide)) $$ Hlev
  iapply (wait_a5_at m cc _ 0 rfl) $$ [Hc HO Hmw Hp]
  · isplitr; · iexact HIc52
    isplitl [Hc]; · iexact Hc
    isplitl [HO]; · iexact HO
    isplitl [Hmw]; · iexact Hmw
    iexact Hp
  iintro ⟨HO, Hq52, -, Hz0⟩
  sl_exec
  -- the y-neighbour's chunk 0 has landed
  icases Hcr with ⟨Hc, Hcr⟩
  icases HpR with ⟨Hp, HpR⟩
  icases HIw with ⟨#HIc68, HIw⟩
  ihave Hmw := (mayWait_list (F := F) cc (dsem (⟨68, by decide⟩ : Fin 140)) (List.drop 18 (paysL cc)) (by decide)) $$ Hlev
  iapply (wait_a7_at m cc _ 0 rfl) $$ [Hc HO Hmw Hp]
  · isplitr; · iexact HIc68
    isplitl [Hc]; · iexact Hc
    isplitl [HO]; · iexact HO
    isplitl [Hmw]; · iexact Hmw
    iexact Hp
  iintro ⟨HO, Hq68, -, Hy0⟩
  sl_exec
  -- step 2 of the main loop: the x-neighbour's chunk 2 has landed
  icases Hcr with ⟨Hc, Hcr⟩
  icases HpR with ⟨Hp, HpR⟩
  icases HIw with ⟨#HIc32, HIw⟩
  ihave Hmw := (mayWait_list (F := F) cc (dsem (⟨32, by decide⟩ : Fin 140)) (List.drop 18 (paysL cc)) (by decide)) $$ Hlev
  iapply (wait_a1_at m cc _ 2 rfl) $$ [Hc HO Hmw Hp]
  · isplitr; · iexact HIc32
    isplitl [Hc]; · iexact Hc
    isplitl [HO]; · iexact HO
    isplitl [Hmw]; · iexact Hmw
    iexact Hp
  iintro ⟨HO, Hq32, -, Hrb2⟩
  icases Hown with ⟨Ho2, Hown⟩
  have hled18 : ∀ (s : DmaSem sig), lvJ s.val = 0 → ((levAts LL lvv : sProp 𝕄) ⊢ MayWait (cc : Thread nD τ) (.dma s) () (owedL (List.drop 18 (paysL cc)))) :=
    fun s hs => mayWait_local (F := F) cc s hs _ (by decide)
  sl_exec
  clear hled18
  ihave Ho2 := (congr (F := F) (r4R (mqF cc) 2) cc fullShare (dev.sl.Ho2_w1 m f0) (r4 m cc) (fun i hi => glue_own m cc 2 _ (k0_off6_inb cc) (k0_off6_eq cc) _ (k0_off27_inb cc) (k0_off27_eq cc) f0 i hi)) $$ Ho2
  ihave Ho2 := (Entails.of_eq (share_ZYK_eq (F := F) (r4R (mqF cc) 2) cc (r4 m cc))) $$ Ho2
  icases Ho2 with ⟨HoZ2, HoY2, HoK2⟩
  -- own chunk 2 to the z-neighbour
  icases Htk with ⟨Hts, Htr, Htk⟩
  icases HIt with ⟨#HIc46, #HIr, HIt⟩
  icases HRt with ⟨#HRs, #HRr, HRt⟩
  icases HqZ with ⟨⟨%fd, Hd⟩, HqZ⟩
  iapply (send_z_at m cc _ (dev19_eq cc) 2 _ _ (k0_off28_eq cc) fd (owedL (List.drop 19 (paysL cc))) rfl _) $$ [HoZ2 Hd HO Hts Htr]
  · isplitr; · iexact HIc46
    isplitr; · iexact HIr
    isplitl [HoZ2]; · iexact HoZ2
    isplitl [Hd]; · iexact Hd
    isplitl [HO]; · iexact HO
    isplitl [Hts]; · iexact Hts
    isplitr; · iexact HRs
    isplitl [Htr]; · iexact Htr
    iexact HRr
  iintro ⟨Hczs2, HO⟩
  iclear HIr HRs HRr
  sl_exec
  -- own chunk 2 to the y-neighbour
  icases Htk with ⟨Hts, Htr, Htk⟩
  icases HIt with ⟨#HIc62, #HIr, HIt⟩
  icases HRt with ⟨#HRs, #HRr, HRt⟩
  icases HqY with ⟨⟨%fd, Hd⟩, HqY⟩
  iapply (send_y_at m cc _ (dev20_eq cc) 2 _ _ (k0_off28_eq cc) fd (owedL (List.drop 20 (paysL cc))) rfl _) $$ [HoY2 Hd HO Hts Htr]
  · isplitr; · iexact HIc62
    isplitr; · iexact HIr
    isplitl [HoY2]; · iexact HoY2
    isplitl [Hd]; · iexact Hd
    isplitl [HO]; · iexact HO
    isplitl [Hts]; · iexact Hts
    isplitr; · iexact HRs
    isplitl [Htr]; · iexact Htr
    iexact HRr
  iintro ⟨Hcys2, HO⟩
  iclear HIr HRs HRr
  sl_exec
  -- the z-neighbour's chunk 1 has landed
  icases Hcr with ⟨Hc, Hcr⟩
  icases HpR with ⟨Hp, HpR⟩
  icases HIw with ⟨#HIc53, HIw⟩
  ihave Hmw := (mayWait_list (F := F) cc (dsem (⟨53, by decide⟩ : Fin 140)) (List.drop 20 (paysL cc)) (by decide)) $$ Hlev
  iapply (wait_a5_at m cc _ 1 rfl) $$ [Hc HO Hmw Hp]
  · isplitr; · iexact HIc53
    isplitl [Hc]; · iexact Hc
    isplitl [HO]; · iexact HO
    isplitl [Hmw]; · iexact Hmw
    iexact Hp
  iintro ⟨HO, Hq53, -, Hz1⟩
  sl_exec
  -- the y-neighbour's chunk 1 has landed
  icases Hcr with ⟨Hc, Hcr⟩
  icases HpR with ⟨Hp, HpR⟩
  icases HIw with ⟨#HIc69, HIw⟩
  ihave Hmw := (mayWait_list (F := F) cc (dsem (⟨69, by decide⟩ : Fin 140)) (List.drop 20 (paysL cc)) (by decide)) $$ Hlev
  iapply (wait_a7_at m cc _ 1 rfl) $$ [Hc HO Hmw Hp]
  · isplitr; · iexact HIc69
    isplitl [Hc]; · iexact Hc
    isplitl [HO]; · iexact HO
    isplitl [Hmw]; · iexact Hmw
    iexact Hp
  iintro ⟨HO, Hq69, -, Hy1⟩
  sl_exec
  -- step 3 of the main loop: the x-neighbour's chunk 3 has landed
  icases Hcr with ⟨Hc, Hcr⟩
  icases HpR with ⟨Hp, HpR⟩
  icases HIw with ⟨#HIc33, HIw⟩
  ihave Hmw := (mayWait_list (F := F) cc (dsem (⟨33, by decide⟩ : Fin 140)) (List.drop 20 (paysL cc)) (by decide)) $$ Hlev
  iapply (wait_a1_at m cc _ 3 rfl) $$ [Hc HO Hmw Hp]
  · isplitr; · iexact HIc33
    isplitl [Hc]; · iexact Hc
    isplitl [HO]; · iexact HO
    isplitl [Hmw]; · iexact Hmw
    iexact Hp
  iintro ⟨HO, Hq33, -, Hrb3⟩
  icases Hown with ⟨Ho3, Hown⟩
  have hled20 : ∀ (s : DmaSem sig), lvJ s.val = 0 → ((levAts LL lvv : sProp 𝕄) ⊢ MayWait (cc : Thread nD τ) (.dma s) () (owedL (List.drop 20 (paysL cc)))) :=
    fun s hs => mayWait_local (F := F) cc s hs _ (by decide)
  sl_exec
  clear hled20
  ihave Ho3 := (congr (F := F) (r4R (mqF cc) 3) cc fullShare (dev.sl.Ho3_w1 m f0) (r4 m cc) (fun i hi => glue_own m cc 3 _ (k0_off8_inb cc) (k0_off8_eq cc) _ (k0_off29_inb cc) (k0_off29_eq cc) f0 i hi)) $$ Ho3
  ihave Ho3 := (Entails.of_eq (share_ZYK_eq (F := F) (r4R (mqF cc) 3) cc (r4 m cc))) $$ Ho3
  icases Ho3 with ⟨HoZ3, HoY3, HoK3⟩
  -- own chunk 3 to the z-neighbour
  icases Htk with ⟨Hts, Htr, Htk⟩
  icases HIt with ⟨#HIc47, #HIr, HIt⟩
  icases HRt with ⟨#HRs, #HRr, HRt⟩
  icases HqZ with ⟨⟨%fd, Hd⟩, HqZ⟩
  iapply (send_z_at m cc _ (dev21_eq cc) 3 _ _ (k0_off30_eq cc) fd (owedL (List.drop 21 (paysL cc))) rfl _) $$ [HoZ3 Hd HO Hts Htr]
  · isplitr; · iexact HIc47
    isplitr; · iexact HIr
    isplitl [HoZ3]; · iexact HoZ3
    isplitl [Hd]; · iexact Hd
    isplitl [HO]; · iexact HO
    isplitl [Hts]; · iexact Hts
    isplitr; · iexact HRs
    isplitl [Htr]; · iexact Htr
    iexact HRr
  iintro ⟨Hczs3, HO⟩
  iclear HIr HRs HRr
  sl_exec
  -- own chunk 3 to the y-neighbour
  icases Htk with ⟨Hts, Htr, Htk⟩
  icases HIt with ⟨#HIc63, #HIr, HIt⟩
  icases HRt with ⟨#HRs, #HRr, HRt⟩
  icases HqY with ⟨⟨%fd, Hd⟩, HqY⟩
  iapply (send_y_at m cc _ (dev22_eq cc) 3 _ _ (k0_off30_eq cc) fd (owedL (List.drop 22 (paysL cc))) rfl _) $$ [HoY3 Hd HO Hts Htr]
  · isplitr; · iexact HIc63
    isplitr; · iexact HIr
    isplitl [HoY3]; · iexact HoY3
    isplitl [Hd]; · iexact Hd
    isplitl [HO]; · iexact HO
    isplitl [Hts]; · iexact Hts
    isplitr; · iexact HRs
    isplitl [Htr]; · iexact Htr
    iexact HRr
  iintro ⟨Hcys3, HO⟩
  iclear HIr HRs HRr
  sl_exec
  -- the z-neighbour's chunk 2 has landed
  icases Hcr with ⟨Hc, Hcr⟩
  icases HpR with ⟨Hp, HpR⟩
  icases HIw with ⟨#HIc54, HIw⟩
  ihave Hmw := (mayWait_list (F := F) cc (dsem (⟨54, by decide⟩ : Fin 140)) (List.drop 22 (paysL cc)) (by decide)) $$ Hlev
  iapply (wait_a5_at m cc _ 2 rfl) $$ [Hc HO Hmw Hp]
  · isplitr; · iexact HIc54
    isplitl [Hc]; · iexact Hc
    isplitl [HO]; · iexact HO
    isplitl [Hmw]; · iexact Hmw
    iexact Hp
  iintro ⟨HO, Hq54, -, Hz2⟩
  sl_exec
  -- the y-neighbour's chunk 2 has landed
  icases Hcr with ⟨Hc, Hcr⟩
  icases HpR with ⟨Hp, HpR⟩
  icases HIw with ⟨#HIc70, HIw⟩
  ihave Hmw := (mayWait_list (F := F) cc (dsem (⟨70, by decide⟩ : Fin 140)) (List.drop 22 (paysL cc)) (by decide)) $$ Hlev
  iapply (wait_a7_at m cc _ 2 rfl) $$ [Hc HO Hmw Hp]
  · isplitr; · iexact HIc70
    isplitl [Hc]; · iexact Hc
    isplitl [HO]; · iexact HO
    isplitl [Hmw]; · iexact Hmw
    iexact Hp
  iintro ⟨HO, Hq70, -, Hy2⟩
  sl_exec
  -- step 4 of the main loop: the x-neighbour's chunk 4 has landed
  icases Hcr with ⟨Hc, Hcr⟩
  icases HpR with ⟨Hp, HpR⟩
  icases HIw with ⟨#HIc34, HIw⟩
  ihave Hmw := (mayWait_list (F := F) cc (dsem (⟨34, by decide⟩ : Fin 140)) (List.drop 22 (paysL cc)) (by decide)) $$ Hlev
  iapply (wait_a1_at m cc _ 4 rfl) $$ [Hc HO Hmw Hp]
  · isplitr; · iexact HIc34
    isplitl [Hc]; · iexact Hc
    isplitl [HO]; · iexact HO
    isplitl [Hmw]; · iexact Hmw
    iexact Hp
  iintro ⟨HO, Hq34, -, Hrb4⟩
  icases Hown with ⟨Ho4, Hown⟩
  have hled22 : ∀ (s : DmaSem sig), lvJ s.val = 0 → ((levAts LL lvv : sProp 𝕄) ⊢ MayWait (cc : Thread nD τ) (.dma s) () (owedL (List.drop 22 (paysL cc)))) :=
    fun s hs => mayWait_local (F := F) cc s hs _ (by decide)
  sl_exec
  clear hled22
  ihave Ho4 := (congr (F := F) (r4R (mqF cc) 4) cc fullShare (dev.sl.Ho4_w1 m f0) (r4 m cc) (fun i hi => glue_own m cc 4 _ (k0_off10_inb cc) (k0_off10_eq cc) _ (k0_off31_inb cc) (k0_off31_eq cc) f0 i hi)) $$ Ho4
  ihave Ho4 := (Entails.of_eq (share_ZYK_eq (F := F) (r4R (mqF cc) 4) cc (r4 m cc))) $$ Ho4
  icases Ho4 with ⟨HoZ4, HoY4, HoK4⟩
  -- own chunk 4 to the z-neighbour
  icases Htk with ⟨Hts, Htr, Htk⟩
  icases HIt with ⟨#HIc48, #HIr, HIt⟩
  icases HRt with ⟨#HRs, #HRr, HRt⟩
  icases HqZ with ⟨⟨%fd, Hd⟩, HqZ⟩
  iapply (send_z_at m cc _ (dev23_eq cc) 4 _ _ (k0_off32_eq cc) fd (owedL (List.drop 23 (paysL cc))) rfl _) $$ [HoZ4 Hd HO Hts Htr]
  · isplitr; · iexact HIc48
    isplitr; · iexact HIr
    isplitl [HoZ4]; · iexact HoZ4
    isplitl [Hd]; · iexact Hd
    isplitl [HO]; · iexact HO
    isplitl [Hts]; · iexact Hts
    isplitr; · iexact HRs
    isplitl [Htr]; · iexact Htr
    iexact HRr
  iintro ⟨Hczs4, HO⟩
  iclear HIr HRs HRr
  sl_exec
  -- own chunk 4 to the y-neighbour
  icases Htk with ⟨Hts, Htr, Htk⟩
  icases HIt with ⟨#HIc64, #HIr, HIt⟩
  icases HRt with ⟨#HRs, #HRr, HRt⟩
  icases HqY with ⟨⟨%fd, Hd⟩, HqY⟩
  iapply (send_y_at m cc _ (dev24_eq cc) 4 _ _ (k0_off32_eq cc) fd (owedL (List.drop 24 (paysL cc))) rfl _) $$ [HoY4 Hd HO Hts Htr]
  · isplitr; · iexact HIc64
    isplitr; · iexact HIr
    isplitl [HoY4]; · iexact HoY4
    isplitl [Hd]; · iexact Hd
    isplitl [HO]; · iexact HO
    isplitl [Hts]; · iexact Hts
    isplitr; · iexact HRs
    isplitl [Htr]; · iexact Htr
    iexact HRr
  iintro ⟨Hcys4, HO⟩
  iclear HIr HRs HRr
  sl_exec
  -- the z-neighbour's chunk 3 has landed
  icases Hcr with ⟨Hc, Hcr⟩
  icases HpR with ⟨Hp, HpR⟩
  icases HIw with ⟨#HIc55, HIw⟩
  ihave Hmw := (mayWait_list (F := F) cc (dsem (⟨55, by decide⟩ : Fin 140)) (List.drop 24 (paysL cc)) (by decide)) $$ Hlev
  iapply (wait_a5_at m cc _ 3 rfl) $$ [Hc HO Hmw Hp]
  · isplitr; · iexact HIc55
    isplitl [Hc]; · iexact Hc
    isplitl [HO]; · iexact HO
    isplitl [Hmw]; · iexact Hmw
    iexact Hp
  iintro ⟨HO, Hq55, -, Hz3⟩
  sl_exec
  -- the y-neighbour's chunk 3 has landed
  icases Hcr with ⟨Hc, Hcr⟩
  icases HpR with ⟨Hp, HpR⟩
  icases HIw with ⟨#HIc71, HIw⟩
  ihave Hmw := (mayWait_list (F := F) cc (dsem (⟨71, by decide⟩ : Fin 140)) (List.drop 24 (paysL cc)) (by decide)) $$ Hlev
  iapply (wait_a7_at m cc _ 3 rfl) $$ [Hc HO Hmw Hp]
  · isplitr; · iexact HIc71
    isplitl [Hc]; · iexact Hc
    isplitl [HO]; · iexact HO
    isplitl [Hmw]; · iexact Hmw
    iexact Hp
  iintro ⟨HO, Hq71, -, Hy3⟩
  -- chunk 3 of the two neighbours' quarters: half its ownership stays for the copy into the result, of the other half one column half travels on
  ihave Hz3 := (Entails.of_eq (share_FG_eq (F := F) (r4R (zqF cc) 3) cc (r4 m cc))) $$ Hz3
  icases Hz3 with ⟨HzF3, HzG3⟩
  ihave HzF3 := (Entails.of_eq (chunk_halves (F := F) cc (zqF cc) 3 shF (r4 m cc))) $$ HzF3
  icases HzF3 with ⟨HzFl3, HzFr3⟩
  ihave Hy3 := (Entails.of_eq (share_FG_eq (F := F) (r4R (yqF cc) 3) cc (r4 m cc))) $$ Hy3
  icases Hy3 with ⟨HyF3, HyG3⟩
  ihave HyF3 := (Entails.of_eq (chunk_halves (F := F) cc (yqF cc) 3 shF (r4 m cc))) $$ HyF3
  icases HyF3 with ⟨HyFl3, HyFr3⟩
  sl_exec
  -- the right half of the z-neighbour's chunk 3 on to the y-neighbour
  icases Htk with ⟨Hts, Htr, Htk⟩
  icases HIt with ⟨#HIc95, #HIr, HIt⟩
  icases HRt with ⟨#HRs, #HRr, HRt⟩
  icases HhYp with ⟨⟨%fd, Hd⟩, HhYp⟩
  iapply (send_yf_at m cc _ (dev25_eq cc) 3 (by decide) _ _ (k0_off33_eq cc) fd (owedL (List.drop 25 (paysL cc))) rfl _) $$ [HzFr3 Hd HO Hts Htr]
  · isplitr; · iexact HIc95
    isplitr; · iexact HIr
    isplitl [HzFr3]; · iexact HzFr3
    isplitl [Hd]; · iexact Hd
    isplitl [HO]; · iexact HO
    isplitl [Hts]; · iexact Hts
    isplitr; · iexact HRs
    isplitl [Htr]; · iexact Htr
    iexact HRr
  iintro ⟨Hcyfs3, HO⟩
  iclear HIr HRs HRr
  sl_exec
  -- the left half of the y-neighbour's chunk 3 on to the z-neighbour
  icases Htk with ⟨Hts, Htr, Htk⟩
  icases HIt with ⟨#HIc79, #HIr, HIt⟩
  icases HRt with ⟨#HRs, #HRr, HRt⟩
  icases HhZp with ⟨⟨%fd, Hd⟩, HhZp⟩
  iapply (send_zf_at m cc _ (dev26_eq cc) 3 (by decide) _ _ (k0_off34_eq cc) fd (owedL (List.drop 26 (paysL cc))) rfl _) $$ [HyFl3 Hd HO Hts Htr]
  · isplitr; · iexact HIc79
    isplitr; · iexact HIr
    isplitl [HyFl3]; · iexact HyFl3
    isplitl [Hd]; · iexact Hd
    isplitl [HO]; · iexact HO
    isplitl [Hts]; · iexact Hts
    isplitr; · iexact HRs
    isplitl [Htr]; · iexact Htr
    iexact HRr
  iintro ⟨Hczfs3, HO⟩
  iclear HIr HRs HRr
  sl_exec
  -- step 5 of the main loop: the x-neighbour's chunk 5 has landed
  icases Hcr with ⟨Hc, Hcr⟩
  icases HpR with ⟨Hp, HpR⟩
  icases HIw with ⟨#HIc35, HIw⟩
  ihave Hmw := (mayWait_list (F := F) cc (dsem (⟨35, by decide⟩ : Fin 140)) (List.drop 26 (paysL cc)) (by decide)) $$ Hlev
  iapply (wait_a1_at m cc _ 5 rfl) $$ [Hc HO Hmw Hp]
  · isplitr; · iexact HIc35
    isplitl [Hc]; · iexact Hc
    isplitl [HO]; · iexact HO
    isplitl [Hmw]; · iexact Hmw
    iexact Hp
  iintro ⟨HO, Hq35, -, Hrb5⟩
  icases Hown with ⟨Ho5, Hown⟩
  have hled26 : ∀ (s : DmaSem sig), lvJ s.val = 0 → ((levAts LL lvv : sProp 𝕄) ⊢ MayWait (cc : Thread nD τ) (.dma s) () (owedL (List.drop 26 (paysL cc)))) :=
    fun s hs => mayWait_local (F := F) cc s hs _ (by decide)
  sl_exec
  clear hled26
  ihave Ho5 := (congr (F := F) (r4R (mqF cc) 5) cc fullShare (dev.sl.Ho5_w1 m f0) (r4 m cc) (fun i hi => glue_own m cc 5 _ (k0_off12_inb cc) (k0_off12_eq cc) _ (k0_off35_inb cc) (k0_off35_eq cc) f0 i hi)) $$ Ho5
  ihave Ho5 := (Entails.of_eq (share_ZYK_eq (F := F) (r4R (mqF cc) 5) cc (r4 m cc))) $$ Ho5
  icases Ho5 with ⟨HoZ5, HoY5, HoK5⟩
  -- own chunk 5 to the z-neighbour
  icases Htk with ⟨Hts, Htr, Htk⟩
  icases HIt with ⟨#HIc49, #HIr, HIt⟩
  icases HRt with ⟨#HRs, #HRr, HRt⟩
  icases HqZ with ⟨⟨%fd, Hd⟩, HqZ⟩
  iapply (send_z_at m cc _ (dev27_eq cc) 5 _ _ (k0_off36_eq cc) fd (owedL (List.drop 27 (paysL cc))) rfl _) $$ [HoZ5 Hd HO Hts Htr]
  · isplitr; · iexact HIc49
    isplitr; · iexact HIr
    isplitl [HoZ5]; · iexact HoZ5
    isplitl [Hd]; · iexact Hd
    isplitl [HO]; · iexact HO
    isplitl [Hts]; · iexact Hts
    isplitr; · iexact HRs
    isplitl [Htr]; · iexact Htr
    iexact HRr
  iintro ⟨Hczs5, HO⟩
  iclear HIr HRs HRr
  sl_exec
  -- own chunk 5 to the y-neighbour
  icases Htk with ⟨Hts, Htr, Htk⟩
  icases HIt with ⟨#HIc65, #HIr, HIt⟩
  icases HRt with ⟨#HRs, #HRr, HRt⟩
  icases HqY with ⟨⟨%fd, Hd⟩, HqY⟩
  iapply (send_y_at m cc _ (dev28_eq cc) 5 _ _ (k0_off36_eq cc) fd (owedL (List.drop 28 (paysL cc))) rfl _) $$ [HoY5 Hd HO Hts Htr]
  · isplitr; · iexact HIc65
    isplitr; · iexact HIr
    isplitl [HoY5]; · iexact HoY5
    isplitl [Hd]; · iexact Hd
    isplitl [HO]; · iexact HO
    isplitl [Hts]; · iexact Hts
    isplitr; · iexact HRs
    isplitl [Htr]; · iexact Htr
    iexact HRr
  iintro ⟨Hcys5, HO⟩
  iclear HIr HRs HRr
  sl_exec
  -- the z-neighbour's chunk 4 has landed
  icases Hcr with ⟨Hc, Hcr⟩
  icases HpR with ⟨Hp, HpR⟩
  icases HIw with ⟨#HIc56, HIw⟩
  ihave Hmw := (mayWait_list (F := F) cc (dsem (⟨56, by decide⟩ : Fin 140)) (List.drop 28 (paysL cc)) (by decide)) $$ Hlev
  iapply (wait_a5_at m cc _ 4 rfl) $$ [Hc HO Hmw Hp]
  · isplitr; · iexact HIc56
    isplitl [Hc]; · iexact Hc
    isplitl [HO]; · iexact HO
    isplitl [Hmw]; · iexact Hmw
    iexact Hp
  iintro ⟨HO, Hq56, -, Hz4⟩
  sl_exec
  -- the y-neighbour's chunk 4 has landed
  icases Hcr with ⟨Hc, Hcr⟩
  icases HpR with ⟨Hp, HpR⟩
  icases HIw with ⟨#HIc72, HIw⟩
  ihave Hmw := (mayWait_list (F := F) cc (dsem (⟨72, by decide⟩ : Fin 140)) (List.drop 28 (paysL cc)) (by decide)) $$ Hlev
  iapply (wait_a7_at m cc _ 4 rfl) $$ [Hc HO Hmw Hp]
  · isplitr; · iexact HIc72
    isplitl [Hc]; · iexact Hc
    isplitl [HO]; · iexact HO
    isplitl [Hmw]; · iexact Hmw
    iexact Hp
  iintro ⟨HO, Hq72, -, Hy4⟩
  -- chunk 4 of the two neighbours' quarters: half its ownership stays for the copy into the result, of the other half one column half travels on
  ihave Hz4 := (Entails.of_eq (share_FG_eq (F := F) (r4R (zqF cc) 4) cc (r4 m cc))) $$ Hz4
  icases Hz4 with ⟨HzF4, HzG4⟩
  ihave HzF4 := (Entails.of_eq (chunk_halves (F := F) cc (zqF cc) 4 shF (r4 m cc))) $$ HzF4
  icases HzF4 with ⟨HzFl4, HzFr4⟩
  ihave Hy4 := (Entails.of_eq (share_FG_eq (F := F) (r4R (yqF cc) 4) cc (r4 m cc))) $$ Hy4
  icases Hy4 with ⟨HyF4, HyG4⟩
  ihave HyF4 := (Entails.of_eq (chunk_halves (F := F) cc (yqF cc) 4 shF (r4 m cc))) $$ HyF4
  icases HyF4 with ⟨HyFl4, HyFr4⟩
  sl_exec
  -- the right half of the z-neighbour's chunk 4 on to the y-neighbour
  icases Htk with ⟨Hts, Htr, Htk⟩
  icases HIt with ⟨#HIc96, #HIr, HIt⟩
  icases HRt with ⟨#HRs, #HRr, HRt⟩
  icases HhYp with ⟨⟨%fd, Hd⟩, HhYp⟩
  iapply (send_yf_at m cc _ (dev29_eq cc) 4 (by decide) _ _ (k0_off37_eq cc) fd (owedL (List.drop 29 (paysL cc))) rfl _) $$ [HzFr4 Hd HO Hts Htr]
  · isplitr; · iexact HIc96
    isplitr; · iexact HIr
    isplitl [HzFr4]; · iexact HzFr4
    isplitl [Hd]; · iexact Hd
    isplitl [HO]; · iexact HO
    isplitl [Hts]; · iexact Hts
    isplitr; · iexact HRs
    isplitl [Htr]; · iexact Htr
    iexact HRr
  iintro ⟨Hcyfs4, HO⟩
  iclear HIr HRs HRr
  sl_exec
  -- the left half of the y-neighbour's chunk 4 on to the z-neighbour
  icases Htk with ⟨Hts, Htr, Htk⟩
  icases HIt with ⟨#HIc80, #HIr, HIt⟩
  icases HRt with ⟨#HRs, #HRr, HRt⟩
  icases HhZp with ⟨⟨%fd, Hd⟩, HhZp⟩
  iapply (send_zf_at m cc _ (dev30_eq cc) 4 (by decide) _ _ (k0_off38_eq cc) fd (owedL (List.drop 30 (paysL cc))) rfl _) $$ [HyFl4 Hd HO Hts Htr]
  · isplitr; · iexact HIc80
    isplitr; · iexact HIr
    isplitl [HyFl4]; · iexact HyFl4
    isplitl [Hd]; · iexact Hd
    isplitl [HO]; · iexact HO
    isplitl [Hts]; · iexact Hts
    isplitr; · iexact HRs
    isplitl [Htr]; · iexact Htr
    iexact HRr
  iintro ⟨Hczfs4, HO⟩
  iclear HIr HRs HRr
  sl_exec
  -- the left half of chunk 3 of the diagonal quarter has landed
  icases Hcr with ⟨Hc, Hcr⟩
  icases HpR with ⟨Hp, HpR⟩
  icases HIw with ⟨#HIc87, HIw⟩
  ihave Hmw := (mayWait_list (F := F) cc (dsem (⟨87, by decide⟩ : Fin 140)) (List.drop 30 (paysL cc)) (by decide)) $$ Hlev
  iapply (wait_a9_at m cc _ 3 rfl (by decide)) $$ [Hc HO Hmw Hp]
  · isplitr; · iexact HIc87
    isplitl [Hc]; · iexact Hc
    isplitl [HO]; · iexact HO
    isplitl [Hmw]; · iexact Hmw
    iexact Hp
  iintro ⟨HO, Hq87, -, Hdl3⟩
  sl_exec
  -- its right half has landed
  icases Hcr with ⟨Hc, Hcr⟩
  icases HpR with ⟨Hp, HpR⟩
  icases HIw with ⟨#HIc103, HIw⟩
  ihave Hmw := (mayWait_list (F := F) cc (dsem (⟨103, by decide⟩ : Fin 140)) (List.drop 30 (paysL cc)) (by decide)) $$ Hlev
  iapply (wait_a11_at m cc _ 3 rfl (by decide)) $$ [Hc HO Hmw Hp]
  · isplitr; · iexact HIc103
    isplitl [Hc]; · iexact Hc
    isplitl [HO]; · iexact HO
    isplitl [Hmw]; · iexact Hmw
    iexact Hp
  iintro ⟨HO, Hq103, -, Hdr3⟩
  ihave Hd3 := (Entails.of_eq (chunk_halves (F := F) cc (dqF cc) 3 fullShare (r4 m cc)).symm) $$ [Hdl3 Hdr3]
  · isplitl [Hdl3]; · iexact Hdl3
    iexact Hdr3
  -- the four copies of chunk 3 into the result
  icases HvO with ⟨Hw3a, Hw3b, Hw3c, Hw3d, HvO⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  -- step 6 of the main loop: the x-neighbour's chunk 6 has landed
  icases Hcr with ⟨Hc, Hcr⟩
  icases HpR with ⟨Hp, HpR⟩
  icases HIw with ⟨#HIc36, HIw⟩
  ihave Hmw := (mayWait_list (F := F) cc (dsem (⟨36, by decide⟩ : Fin 140)) (List.drop 30 (paysL cc)) (by decide)) $$ Hlev
  iapply (wait_a1_at m cc _ 6 rfl) $$ [Hc HO Hmw Hp]
  · isplitr; · iexact HIc36
    isplitl [Hc]; · iexact Hc
    isplitl [HO]; · iexact HO
    isplitl [Hmw]; · iexact Hmw
    iexact Hp
  iintro ⟨HO, Hq36, -, Hrb6⟩
  icases Hown with ⟨Ho6, Hown⟩
  have hled30 : ∀ (s : DmaSem sig), lvJ s.val = 0 → ((levAts LL lvv : sProp 𝕄) ⊢ MayWait (cc : Thread nD τ) (.dma s) () (owedL (List.drop 30 (paysL cc)))) :=
    fun s hs => mayWait_local (F := F) cc s hs _ (by decide)
  sl_exec
  clear hled30
  ihave Ho6 := (congr (F := F) (r4R (mqF cc) 6) cc fullShare (dev.sl.Ho6_w1 m f0) (r4 m cc) (fun i hi => glue_own m cc 6 _ (k0_off14_inb cc) (k0_off14_eq cc) _ (k0_off39_inb cc) (k0_off39_eq cc) f0 i hi)) $$ Ho6
  ihave Ho6 := (Entails.of_eq (share_ZYK_eq (F := F) (r4R (mqF cc) 6) cc (r4 m cc))) $$ Ho6
  icases Ho6 with ⟨HoZ6, HoY6, HoK6⟩
  -- own chunk 6 to the z-neighbour
  icases Htk with ⟨Hts, Htr, Htk⟩
  icases HIt with ⟨#HIc50, #HIr, HIt⟩
  icases HRt with ⟨#HRs, #HRr, HRt⟩
  icases HqZ with ⟨⟨%fd, Hd⟩, HqZ⟩
  iapply (send_z_at m cc _ (dev31_eq cc) 6 _ _ (k0_off40_eq cc) fd (owedL (List.drop 31 (paysL cc))) rfl _) $$ [HoZ6 Hd HO Hts Htr]
  · isplitr; · iexact HIc50
    isplitr; · iexact HIr
    isplitl [HoZ6]; · iexact HoZ6
    isplitl [Hd]; · iexact Hd
    isplitl [HO]; · iexact HO
    isplitl [Hts]; · iexact Hts
    isplitr; · iexact HRs
    isplitl [Htr]; · iexact Htr
    iexact HRr
  iintro ⟨Hczs6, HO⟩
  iclear HIr HRs HRr
  sl_exec
  -- own chunk 6 to the y-neighbour
  icases Htk with ⟨Hts, Htr, Htk⟩
  icases HIt with ⟨#HIc66, #HIr, HIt⟩
  icases HRt with ⟨#HRs, #HRr, HRt⟩
  icases HqY with ⟨⟨%fd, Hd⟩, HqY⟩
  iapply (send_y_at m cc _ (dev32_eq cc) 6 _ _ (k0_off40_eq cc) fd (owedL (List.drop 32 (paysL cc))) rfl _) $$ [HoY6 Hd HO Hts Htr]
  · isplitr; · iexact HIc66
    isplitr; · iexact HIr
    isplitl [HoY6]; · iexact HoY6
    isplitl [Hd]; · iexact Hd
    isplitl [HO]; · iexact HO
    isplitl [Hts]; · iexact Hts
    isplitr; · iexact HRs
    isplitl [Htr]; · iexact Htr
    iexact HRr
  iintro ⟨Hcys6, HO⟩
  iclear HIr HRs HRr
  sl_exec
  -- the z-neighbour's chunk 5 has landed
  icases Hcr with ⟨Hc, Hcr⟩
  icases HpR with ⟨Hp, HpR⟩
  icases HIw with ⟨#HIc57, HIw⟩
  ihave Hmw := (mayWait_list (F := F) cc (dsem (⟨57, by decide⟩ : Fin 140)) (List.drop 32 (paysL cc)) (by decide)) $$ Hlev
  iapply (wait_a5_at m cc _ 5 rfl) $$ [Hc HO Hmw Hp]
  · isplitr; · iexact HIc57
    isplitl [Hc]; · iexact Hc
    isplitl [HO]; · iexact HO
    isplitl [Hmw]; · iexact Hmw
    iexact Hp
  iintro ⟨HO, Hq57, -, Hz5⟩
  sl_exec
  -- the y-neighbour's chunk 5 has landed
  icases Hcr with ⟨Hc, Hcr⟩
  icases HpR with ⟨Hp, HpR⟩
  icases HIw with ⟨#HIc73, HIw⟩
  ihave Hmw := (mayWait_list (F := F) cc (dsem (⟨73, by decide⟩ : Fin 140)) (List.drop 32 (paysL cc)) (by decide)) $$ Hlev
  iapply (wait_a7_at m cc _ 5 rfl) $$ [Hc HO Hmw Hp]
  · isplitr; · iexact HIc73
    isplitl [Hc]; · iexact Hc
    isplitl [HO]; · iexact HO
    isplitl [Hmw]; · iexact Hmw
    iexact Hp
  iintro ⟨HO, Hq73, -, Hy5⟩
  -- chunk 5 of the two neighbours' quarters: half its ownership stays for the copy into the result, of the other half one column half travels on
  ihave Hz5 := (Entails.of_eq (share_FG_eq (F := F) (r4R (zqF cc) 5) cc (r4 m cc))) $$ Hz5
  icases Hz5 with ⟨HzF5, HzG5⟩
  ihave HzF5 := (Entails.of_eq (chunk_halves (F := F) cc (zqF cc) 5 shF (r4 m cc))) $$ HzF5
  icases HzF5 with ⟨HzFl5, HzFr5⟩
  ihave Hy5 := (Entails.of_eq (share_FG_eq (F := F) (r4R (yqF cc) 5) cc (r4 m cc))) $$ Hy5
  icases Hy5 with ⟨HyF5, HyG5⟩
  ihave HyF5 := (Entails.of_eq (chunk_halves (F := F) cc (yqF cc) 5 shF (r4 m cc))) $$ HyF5
  icases HyF5 with ⟨HyFl5, HyFr5⟩
  sl_exec
  -- the right half of the z-neighbour's chunk 5 on to the y-neighbour
  icases Htk with ⟨Hts, Htr, Htk⟩
  icases HIt with ⟨#HIc97, #HIr, HIt⟩
  icases HRt with ⟨#HRs, #HRr, HRt⟩
  icases HhYp with ⟨⟨%fd, Hd⟩, HhYp⟩
  iapply (send_yf_at m cc _ (dev33_eq cc) 5 (by decide) _ _ (k0_off41_eq cc) fd (owedL (List.drop 33 (paysL cc))) rfl _) $$ [HzFr5 Hd HO Hts Htr]
  · isplitr; · iexact HIc97
    isplitr; · iexact HIr
    isplitl [HzFr5]; · iexact HzFr5
    isplitl [Hd]; · iexact Hd
    isplitl [HO]; · iexact HO
    isplitl [Hts]; · iexact Hts
    isplitr; · iexact HRs
    isplitl [Htr]; · iexact Htr
    iexact HRr
  iintro ⟨Hcyfs5, HO⟩
  iclear HIr HRs HRr
  sl_exec
  -- the left half of the y-neighbour's chunk 5 on to the z-neighbour
  icases Htk with ⟨Hts, Htr, Htk⟩
  icases HIt with ⟨#HIc81, #HIr, HIt⟩
  icases HRt with ⟨#HRs, #HRr, HRt⟩
  icases HhZp with ⟨⟨%fd, Hd⟩, HhZp⟩
  iapply (send_zf_at m cc _ (dev34_eq cc) 5 (by decide) _ _ (k0_off42_eq cc) fd (owedL (List.drop 34 (paysL cc))) rfl _) $$ [HyFl5 Hd HO Hts Htr]
  · isplitr; · iexact HIc81
    isplitr; · iexact HIr
    isplitl [HyFl5]; · iexact HyFl5
    isplitl [Hd]; · iexact Hd
    isplitl [HO]; · iexact HO
    isplitl [Hts]; · iexact Hts
    isplitr; · iexact HRs
    isplitl [Htr]; · iexact Htr
    iexact HRr
  iintro ⟨Hczfs5, HO⟩
  iclear HIr HRs HRr
  sl_exec
  -- the left half of chunk 4 of the diagonal quarter has landed
  icases Hcr with ⟨Hc, Hcr⟩
  icases HpR with ⟨Hp, HpR⟩
  icases HIw with ⟨#HIc88, HIw⟩
  ihave Hmw := (mayWait_list (F := F) cc (dsem (⟨88, by decide⟩ : Fin 140)) (List.drop 34 (paysL cc)) (by decide)) $$ Hlev
  iapply (wait_a9_at m cc _ 4 rfl (by decide)) $$ [Hc HO Hmw Hp]
  · isplitr; · iexact HIc88
    isplitl [Hc]; · iexact Hc
    isplitl [HO]; · iexact HO
    isplitl [Hmw]; · iexact Hmw
    iexact Hp
  iintro ⟨HO, Hq88, -, Hdl4⟩
  sl_exec
  -- its right half has landed
  icases Hcr with ⟨Hc, Hcr⟩
  icases HpR with ⟨Hp, HpR⟩
  icases HIw with ⟨#HIc104, HIw⟩
  ihave Hmw := (mayWait_list (F := F) cc (dsem (⟨104, by decide⟩ : Fin 140)) (List.drop 34 (paysL cc)) (by decide)) $$ Hlev
  iapply (wait_a11_at m cc _ 4 rfl (by decide)) $$ [Hc HO Hmw Hp]
  · isplitr; · iexact HIc104
    isplitl [Hc]; · iexact Hc
    isplitl [HO]; · iexact HO
    isplitl [Hmw]; · iexact Hmw
    iexact Hp
  iintro ⟨HO, Hq104, -, Hdr4⟩
  ihave Hd4 := (Entails.of_eq (chunk_halves (F := F) cc (dqF cc) 4 fullShare (r4 m cc)).symm) $$ [Hdl4 Hdr4]
  · isplitl [Hdl4]; · iexact Hdl4
    iexact Hdr4
  -- the four copies of chunk 4 into the result
  icases HvO with ⟨Hw4a, Hw4b, Hw4c, Hw4d, HvO⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  -- step 7 of the main loop: the x-neighbour's chunk 7 has landed
  icases Hcr with ⟨Hc, Hcr⟩
  icases HpR with ⟨Hp, HpR⟩
  icases HIw with ⟨#HIc37, HIw⟩
  ihave Hmw := (mayWait_list (F := F) cc (dsem (⟨37, by decide⟩ : Fin 140)) (List.drop 34 (paysL cc)) (by decide)) $$ Hlev
  iapply (wait_a1_at m cc _ 7 rfl) $$ [Hc HO Hmw Hp]
  · isplitr; · iexact HIc37
    isplitl [Hc]; · iexact Hc
    isplitl [HO]; · iexact HO
    isplitl [Hmw]; · iexact Hmw
    iexact Hp
  iintro ⟨HO, Hq37, -, Hrb7⟩
  icases Hown with ⟨Ho7⟩
  have hled34 : ∀ (s : DmaSem sig), lvJ s.val = 0 → ((levAts LL lvv : sProp 𝕄) ⊢ MayWait (cc : Thread nD τ) (.dma s) () (owedL (List.drop 34 (paysL cc)))) :=
    fun s hs => mayWait_local (F := F) cc s hs _ (by decide)
  sl_exec
  clear hled34
  ihave Ho7 := (congr (F := F) (r4R (mqF cc) 7) cc fullShare (dev.sl.Ho7_w1 m f0) (r4 m cc) (fun i hi => glue_own m cc 7 _ (k0_off16_inb cc) (k0_off16_eq cc) _ (k0_off43_inb cc) (k0_off43_eq cc) f0 i hi)) $$ Ho7
  ihave Ho7 := (Entails.of_eq (share_ZYK_eq (F := F) (r4R (mqF cc) 7) cc (r4 m cc))) $$ Ho7
  icases Ho7 with ⟨HoZ7, HoY7, HoK7⟩
  -- own chunk 7 to the z-neighbour
  icases Htk with ⟨Hts, Htr, Htk⟩
  icases HIt with ⟨#HIc51, #HIr, HIt⟩
  icases HRt with ⟨#HRs, #HRr, HRt⟩
  icases HqZ with ⟨%fd, Hd⟩
  iapply (send_z_at m cc _ (dev35_eq cc) 7 _ _ (k0_off44_eq cc) fd (owedL (List.drop 35 (paysL cc))) rfl _) $$ [HoZ7 Hd HO Hts Htr]
  · isplitr; · iexact HIc51
    isplitr; · iexact HIr
    isplitl [HoZ7]; · iexact HoZ7
    isplitl [Hd]; · iexact Hd
    isplitl [HO]; · iexact HO
    isplitl [Hts]; · iexact Hts
    isplitr; · iexact HRs
    isplitl [Htr]; · iexact Htr
    iexact HRr
  iintro ⟨Hczs7, HO⟩
  iclear HIr HRs HRr
  sl_exec
  -- own chunk 7 to the y-neighbour
  icases Htk with ⟨Hts, Htr, Htk⟩
  icases HIt with ⟨#HIc67, #HIr, HIt⟩
  icases HRt with ⟨#HRs, #HRr, HRt⟩
  icases HqY with ⟨%fd, Hd⟩
  iapply (send_y_at m cc _ (dev36_eq cc) 7 _ _ (k0_off44_eq cc) fd (owedL (List.drop 36 (paysL cc))) rfl _) $$ [HoY7 Hd HO Hts Htr]
  · isplitr; · iexact HIc67
    isplitr; · iexact HIr
    isplitl [HoY7]; · iexact HoY7
    isplitl [Hd]; · iexact Hd
    isplitl [HO]; · iexact HO
    isplitl [Hts]; · iexact Hts
    isplitr; · iexact HRs
    isplitl [Htr]; · iexact Htr
    iexact HRr
  iintro ⟨Hcys7, HO⟩
  iclear HIr HRs HRr
  sl_exec
  -- the z-neighbour's chunk 6 has landed
  icases Hcr with ⟨Hc, Hcr⟩
  icases HpR with ⟨Hp, HpR⟩
  icases HIw with ⟨#HIc58, HIw⟩
  ihave Hmw := (mayWait_list (F := F) cc (dsem (⟨58, by decide⟩ : Fin 140)) (List.drop 36 (paysL cc)) (by decide)) $$ Hlev
  iapply (wait_a5_at m cc _ 6 rfl) $$ [Hc HO Hmw Hp]
  · isplitr; · iexact HIc58
    isplitl [Hc]; · iexact Hc
    isplitl [HO]; · iexact HO
    isplitl [Hmw]; · iexact Hmw
    iexact Hp
  iintro ⟨HO, Hq58, -, Hz6⟩
  sl_exec
  -- the y-neighbour's chunk 6 has landed
  icases Hcr with ⟨Hc, Hcr⟩
  icases HpR with ⟨Hp, HpR⟩
  icases HIw with ⟨#HIc74, HIw⟩
  ihave Hmw := (mayWait_list (F := F) cc (dsem (⟨74, by decide⟩ : Fin 140)) (List.drop 36 (paysL cc)) (by decide)) $$ Hlev
  iapply (wait_a7_at m cc _ 6 rfl) $$ [Hc HO Hmw Hp]
  · isplitr; · iexact HIc74
    isplitl [Hc]; · iexact Hc
    isplitl [HO]; · iexact HO
    isplitl [Hmw]; · iexact Hmw
    iexact Hp
  iintro ⟨HO, Hq74, -, Hy6⟩
  -- chunk 6 of the two neighbours' quarters: half its ownership stays for the copy into the result, of the other half one column half travels on
  ihave Hz6 := (Entails.of_eq (share_FG_eq (F := F) (r4R (zqF cc) 6) cc (r4 m cc))) $$ Hz6
  icases Hz6 with ⟨HzF6, HzG6⟩
  ihave HzF6 := (Entails.of_eq (chunk_halves (F := F) cc (zqF cc) 6 shF (r4 m cc))) $$ HzF6
  icases HzF6 with ⟨HzFl6, HzFr6⟩
  ihave Hy6 := (Entails.of_eq (share_FG_eq (F := F) (r4R (yqF cc) 6) cc (r4 m cc))) $$ Hy6
  icases Hy6 with ⟨HyF6, HyG6⟩
  ihave HyF6 := (Entails.of_eq (chunk_halves (F := F) cc (yqF cc) 6 shF (r4 m cc))) $$ HyF6
  icases HyF6 with ⟨HyFl6, HyFr6⟩
  sl_exec
  -- the right half of the z-neighbour's chunk 6 on to the y-neighbour
  icases Htk with ⟨Hts, Htr, Htk⟩
  icases HIt with ⟨#HIc98, #HIr, HIt⟩
  icases HRt with ⟨#HRs, #HRr, HRt⟩
  icases HhYp with ⟨⟨%fd, Hd⟩, HhYp⟩
  iapply (send_yf_at m cc _ (dev37_eq cc) 6 (by decide) _ _ (k0_off45_eq cc) fd (owedL (List.drop 37 (paysL cc))) rfl _) $$ [HzFr6 Hd HO Hts Htr]
  · isplitr; · iexact HIc98
    isplitr; · iexact HIr
    isplitl [HzFr6]; · iexact HzFr6
    isplitl [Hd]; · iexact Hd
    isplitl [HO]; · iexact HO
    isplitl [Hts]; · iexact Hts
    isplitr; · iexact HRs
    isplitl [Htr]; · iexact Htr
    iexact HRr
  iintro ⟨Hcyfs6, HO⟩
  iclear HIr HRs HRr
  sl_exec
  -- the left half of the y-neighbour's chunk 6 on to the z-neighbour
  icases Htk with ⟨Hts, Htr, Htk⟩
  icases HIt with ⟨#HIc82, #HIr, HIt⟩
  icases HRt with ⟨#HRs, #HRr, HRt⟩
  icases HhZp with ⟨⟨%fd, Hd⟩, HhZp⟩
  iapply (send_zf_at m cc _ (dev38_eq cc) 6 (by decide) _ _ (k0_off46_eq cc) fd (owedL (List.drop 38 (paysL cc))) rfl _) $$ [HyFl6 Hd HO Hts Htr]
  · isplitr; · iexact HIc82
    isplitr; · iexact HIr
    isplitl [HyFl6]; · iexact HyFl6
    isplitl [Hd]; · iexact Hd
    isplitl [HO]; · iexact HO
    isplitl [Hts]; · iexact Hts
    isplitr; · iexact HRs
    isplitl [Htr]; · iexact Htr
    iexact HRr
  iintro ⟨Hczfs6, HO⟩
  iclear HIr HRs HRr
  sl_exec
  -- the left half of chunk 5 of the diagonal quarter has landed
  icases Hcr with ⟨Hc, Hcr⟩
  icases HpR with ⟨Hp, HpR⟩
  icases HIw with ⟨#HIc89, HIw⟩
  ihave Hmw := (mayWait_list (F := F) cc (dsem (⟨89, by decide⟩ : Fin 140)) (List.drop 38 (paysL cc)) (by decide)) $$ Hlev
  iapply (wait_a9_at m cc _ 5 rfl (by decide)) $$ [Hc HO Hmw Hp]
  · isplitr; · iexact HIc89
    isplitl [Hc]; · iexact Hc
    isplitl [HO]; · iexact HO
    isplitl [Hmw]; · iexact Hmw
    iexact Hp
  iintro ⟨HO, Hq89, -, Hdl5⟩
  sl_exec
  -- its right half has landed
  icases Hcr with ⟨Hc, Hcr⟩
  icases HpR with ⟨Hp, HpR⟩
  icases HIw with ⟨#HIc105, HIw⟩
  ihave Hmw := (mayWait_list (F := F) cc (dsem (⟨105, by decide⟩ : Fin 140)) (List.drop 38 (paysL cc)) (by decide)) $$ Hlev
  iapply (wait_a11_at m cc _ 5 rfl (by decide)) $$ [Hc HO Hmw Hp]
  · isplitr; · iexact HIc105
    isplitl [Hc]; · iexact Hc
    isplitl [HO]; · iexact HO
    isplitl [Hmw]; · iexact Hmw
    iexact Hp
  iintro ⟨HO, Hq105, -, Hdr5⟩
  ihave Hd5 := (Entails.of_eq (chunk_halves (F := F) cc (dqF cc) 5 fullShare (r4 m cc)).symm) $$ [Hdl5 Hdr5]
  · isplitl [Hdl5]; · iexact Hdl5
    iexact Hdr5
  -- the four copies of chunk 5 into the result
  icases HvO with ⟨Hw5a, Hw5b, Hw5c, Hw5d, HvO⟩
  have hled38 : ∀ (s : DmaSem sig), lvJ s.val = 0 → ((levAts LL lvv : sProp 𝕄) ⊢ MayWait (cc : Thread nD τ) (.dma s) () (owedL (List.drop 38 (paysL cc)))) :=
    fun s hs => mayWait_local (F := F) cc s hs _ (by decide)
  sl_exec
  clear hled38
  -- after the loop: the z-neighbour's last chunk has landed
  icases Hcr with ⟨Hc, Hcr⟩
  icases HpR with ⟨Hp, HpR⟩
  icases HIw with ⟨#HIc59, HIw⟩
  ihave Hmw := (mayWait_list (F := F) cc (dsem (⟨59, by decide⟩ : Fin 140)) (List.drop 38 (paysL cc)) (by decide)) $$ Hlev
  iapply (wait_a5_at m cc _ 7 rfl) $$ [Hc HO Hmw Hp]
  · isplitr; · iexact HIc59
    isplitl [Hc]; · iexact Hc
    isplitl [HO]; · iexact HO
    isplitl [Hmw]; · iexact Hmw
    iexact Hp
  iintro ⟨HO, Hq59, -, Hz7⟩
  sl_exec
  -- the y-neighbour's last chunk has landed
  icases Hcr with ⟨Hc, Hcr⟩
  icases HpR with ⟨Hp, HpR⟩
  icases HIw with ⟨#HIc75, HIw⟩
  ihave Hmw := (mayWait_list (F := F) cc (dsem (⟨75, by decide⟩ : Fin 140)) (List.drop 38 (paysL cc)) (by decide)) $$ Hlev
  iapply (wait_a7_at m cc _ 7 rfl) $$ [Hc HO Hmw Hp]
  · isplitr; · iexact HIc75
    isplitl [Hc]; · iexact Hc
    isplitl [HO]; · iexact HO
    isplitl [Hmw]; · iexact Hmw
    iexact Hp
  iintro ⟨HO, Hq75, -, Hy7⟩
  -- chunk 7 of the two neighbours' quarters: half its ownership stays for the copy into the result, of the other half one column half travels on
  ihave Hz7 := (Entails.of_eq (share_FG_eq (F := F) (r4R (zqF cc) 7) cc (r4 m cc))) $$ Hz7
  icases Hz7 with ⟨HzF7, HzG7⟩
  ihave HzF7 := (Entails.of_eq (chunk_halves (F := F) cc (zqF cc) 7 shF (r4 m cc))) $$ HzF7
  icases HzF7 with ⟨HzFl7, HzFr7⟩
  ihave Hy7 := (Entails.of_eq (share_FG_eq (F := F) (r4R (yqF cc) 7) cc (r4 m cc))) $$ Hy7
  icases Hy7 with ⟨HyF7, HyG7⟩
  ihave HyF7 := (Entails.of_eq (chunk_halves (F := F) cc (yqF cc) 7 shF (r4 m cc))) $$ HyF7
  icases HyF7 with ⟨HyFl7, HyFr7⟩
  sl_exec
  -- the right half of the z-neighbour's last chunk on to the y-neighbour
  icases Htk with ⟨Hts, Htr, Htk⟩
  icases HIt with ⟨#HIc99, #HIr, HIt⟩
  icases HRt with ⟨#HRs, #HRr, HRt⟩
  icases HhYp with ⟨%fd, Hd⟩
  iapply (send_yf_at m cc _ (dev39_eq cc) 7 (by decide) _ _ (k0_off47_eq cc) fd (owedL (List.drop 39 (paysL cc))) rfl _) $$ [HzFr7 Hd HO Hts Htr]
  · isplitr; · iexact HIc99
    isplitr; · iexact HIr
    isplitl [HzFr7]; · iexact HzFr7
    isplitl [Hd]; · iexact Hd
    isplitl [HO]; · iexact HO
    isplitl [Hts]; · iexact Hts
    isplitr; · iexact HRs
    isplitl [Htr]; · iexact Htr
    iexact HRr
  iintro ⟨Hcyfs7, HO⟩
  iclear HIr HRs HRr
  sl_exec
  -- the left half of the y-neighbour's last chunk on to the z-neighbour
  icases Htk with ⟨Hts, Htr⟩
  icases HIt with ⟨#HIc83, #HIr⟩
  icases HRt with ⟨#HRs, #HRr⟩
  icases HhZp with ⟨%fd, Hd⟩
  iapply (send_zf_at m cc _ (dev40_eq cc) 7 (by decide) _ _ (k0_off48_eq cc) fd (owedL (List.drop 40 (paysL cc))) rfl _) $$ [HyFl7 Hd HO Hts Htr]
  · isplitr; · iexact HIc83
    isplitr; · iexact HIr
    isplitl [HyFl7]; · iexact HyFl7
    isplitl [Hd]; · iexact Hd
    isplitl [HO]; · iexact HO
    isplitl [Hts]; · iexact Hts
    isplitr; · iexact HRs
    isplitl [Htr]; · iexact Htr
    iexact HRr
  iintro ⟨Hczfs7, HO⟩
  iclear HIr HRs HRr
  sl_exec
  -- chunk 0 of the diagonal quarter: the x-neighbour's chunk has landed
  icases Hcr with ⟨Hc, Hcr⟩
  icases HpR with ⟨Hp, HpR⟩
  icases HIw with ⟨#HIc41, HIw⟩
  ihave Hmw := (mayWait_list (F := F) cc (dsem (⟨41, by decide⟩ : Fin 140)) (List.drop 40 (paysL cc)) (by decide)) $$ Hlev
  iapply (wait_a3_at m cc _ 0 rfl) $$ [Hc HO Hmw Hp]
  · isplitr; · iexact HIc41
    isplitl [Hc]; · iexact Hc
    isplitl [HO]; · iexact HO
    isplitl [Hmw]; · iexact Hmw
    iexact Hp
  iintro ⟨HO, Hq41, -, Hrb20⟩
  icases Hdg with ⟨Hdq0, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq0 := (congr (F := F) (r4R (dqF cc) 0) cc fullShare (dev.sl.Hdq0_w1 m f0) (r4 m cc) (fun i hi => glue_dgn m cc 0 0 rfl _ (k0_off18_inb cc) (k0_off18_eq cc) _ (k0_off49_inb cc) (k0_off49_eq cc) f0 i hi)) $$ Hdq0
  -- the four copies of chunk 0 into the result
  icases HvO with ⟨Hw0a, Hw0b, Hw0c, Hw0d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 1 of the diagonal quarter: the x-neighbour's chunk has landed
  icases Hcr with ⟨Hc, Hcr⟩
  icases HpR with ⟨Hp, HpR⟩
  icases HIw with ⟨#HIc42, HIw⟩
  ihave Hmw := (mayWait_list (F := F) cc (dsem (⟨42, by decide⟩ : Fin 140)) (List.drop 40 (paysL cc)) (by decide)) $$ Hlev
  iapply (wait_a3_at m cc _ 1 rfl) $$ [Hc HO Hmw Hp]
  · isplitr; · iexact HIc42
    isplitl [Hc]; · iexact Hc
    isplitl [HO]; · iexact HO
    isplitl [Hmw]; · iexact Hmw
    iexact Hp
  iintro ⟨HO, Hq42, -, Hrb21⟩
  icases Hdg with ⟨Hdq1, Hdg⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq1 := (congr (F := F) (r4R (dqF cc) 1) cc fullShare (dev.sl.Hdq1_w1 m f0) (r4 m cc) (fun i hi => glue_dgn m cc 1 1 rfl _ (k0_off20_inb cc) (k0_off20_eq cc) _ (k0_off50_inb cc) (k0_off50_eq cc) f0 i hi)) $$ Hdq1
  -- the four copies of chunk 1 into the result
  icases HvO with ⟨Hw1a, Hw1b, Hw1c, Hw1d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- chunk 2 of the diagonal quarter: the x-neighbour's chunk has landed
  icases Hcr with ⟨Hc, Hcr⟩
  icases HpR with ⟨Hp, HpR⟩
  icases HIw with ⟨#HIc43, HIw⟩
  ihave Hmw := (mayWait_list (F := F) cc (dsem (⟨43, by decide⟩ : Fin 140)) (List.drop 40 (paysL cc)) (by decide)) $$ Hlev
  iapply (wait_a3_at m cc _ 2 rfl) $$ [Hc HO Hmw Hp]
  · isplitr; · iexact HIc43
    isplitl [Hc]; · iexact Hc
    isplitl [HO]; · iexact HO
    isplitl [Hmw]; · iexact Hmw
    iexact Hp
  iintro ⟨HO, Hq43, -, Hrb22⟩
  icases Hdg with ⟨Hdq2⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  ihave Hdq2 := (congr (F := F) (r4R (dqF cc) 2) cc fullShare (dev.sl.Hdq2_w1 m f0) (r4 m cc) (fun i hi => glue_dgn m cc 2 2 rfl _ (k0_off22_inb cc) (k0_off22_eq cc) _ (k0_off51_inb cc) (k0_off51_eq cc) f0 i hi)) $$ Hdq2
  -- the four copies of chunk 2 into the result
  icases HvO with ⟨Hw2a, Hw2b, Hw2c, Hw2d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 6 of the diagonal quarter has landed
  icases Hcr with ⟨Hc, Hcr⟩
  icases HpR with ⟨Hp, HpR⟩
  icases HIw with ⟨#HIc90, HIw⟩
  ihave Hmw := (mayWait_list (F := F) cc (dsem (⟨90, by decide⟩ : Fin 140)) (List.drop 40 (paysL cc)) (by decide)) $$ Hlev
  iapply (wait_a9_at m cc _ 6 rfl (by decide)) $$ [Hc HO Hmw Hp]
  · isplitr; · iexact HIc90
    isplitl [Hc]; · iexact Hc
    isplitl [HO]; · iexact HO
    isplitl [Hmw]; · iexact Hmw
    iexact Hp
  iintro ⟨HO, Hq90, -, Hdl6⟩
  sl_exec
  -- its right half has landed
  icases Hcr with ⟨Hc, Hcr⟩
  icases HpR with ⟨Hp, HpR⟩
  icases HIw with ⟨#HIc106, HIw⟩
  ihave Hmw := (mayWait_list (F := F) cc (dsem (⟨106, by decide⟩ : Fin 140)) (List.drop 40 (paysL cc)) (by decide)) $$ Hlev
  iapply (wait_a11_at m cc _ 6 rfl (by decide)) $$ [Hc HO Hmw Hp]
  · isplitr; · iexact HIc106
    isplitl [Hc]; · iexact Hc
    isplitl [HO]; · iexact HO
    isplitl [Hmw]; · iexact Hmw
    iexact Hp
  iintro ⟨HO, Hq106, -, Hdr6⟩
  ihave Hd6 := (Entails.of_eq (chunk_halves (F := F) cc (dqF cc) 6 fullShare (r4 m cc)).symm) $$ [Hdl6 Hdr6]
  · isplitl [Hdl6]; · iexact Hdl6
    iexact Hdr6
  -- the four copies of chunk 6 into the result
  icases HvO with ⟨Hw6a, Hw6b, Hw6c, Hw6d, HvO⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- the left half of chunk 7 of the diagonal quarter has landed
  icases Hcr with ⟨Hc, Hcr⟩
  icases HpR with ⟨Hp, HpR⟩
  icases HIw with ⟨#HIc91, HIw⟩
  ihave Hcr := ((sep_emp (PROP := sProp 𝕄)).2) $$ Hcr
  ihave Hmw := (mayWait_list (F := F) cc (dsem (⟨91, by decide⟩ : Fin 140)) (List.drop 40 (paysL cc)) (by decide)) $$ Hlev
  iapply (wait_a9_at m cc _ 7 rfl (by decide)) $$ [Hc HO Hmw Hp]
  · isplitr; · iexact HIc91
    isplitl [Hc]; · iexact Hc
    isplitl [HO]; · iexact HO
    isplitl [Hmw]; · iexact Hmw
    iexact Hp
  iintro ⟨HO, Hq91, -, Hdl7⟩
  sl_exec
  -- its right half has landed
  icases HIw with #HIc107
  icases Hcr with ⟨Hcr, -⟩
  ihave Hmw := (mayWait_list (F := F) cc (dsem (⟨107, by decide⟩ : Fin 140)) (List.drop 40 (paysL cc)) (by decide)) $$ Hlev
  iapply (wait_a11_at m cc _ 7 rfl (by decide)) $$ [Hcr HO Hmw HpR]
  · isplitr; · iexact HIc107
    isplitl [Hcr]; · iexact Hcr
    isplitl [HO]; · iexact HO
    isplitl [Hmw]; · iexact Hmw
    iexact HpR
  iintro ⟨HO, Hq107, -, Hdr7⟩
  ihave Hd7 := (Entails.of_eq (chunk_halves (F := F) cc (dqF cc) 7 fullShare (r4 m cc)).symm) $$ [Hdl7 Hdr7]
  · isplitl [Hdl7]; · iexact Hdl7
    iexact Hdr7
  -- the four copies of chunk 7 into the result
  icases HvO with ⟨Hw7a, Hw7b, Hw7c, Hw7d⟩
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  sl_exec
  clear hled40
  -- nothing is owed any more: the level fact for the remaining local waits, once
  have hled40 : ∀ (s : DmaSem sig), lvJ s.val = 0 → ((levAts LL lvv : sProp 𝕄) ⊢ MayWait (cc : Thread nD τ) (.dma s) () (owedL (List.drop 40 (paysL cc)))) :=
    fun s hs => mayWait_local (F := F) cc s hs _ (by decide)
  -- the departure of chunk 0 across x
  icases HpS with ⟨Hp, HpS⟩
  ihave Hmw := (mayWait_list (F := F) cc (dsem (⟨22, by decide⟩ : Fin 140)) (List.drop 40 (paysL cc)) (by decide)) $$ Hlev
  iapply (wait_a0_at m cc _ 0 rfl) $$ [Hcxs0 HO Hmw Hp]
  · isplitr; · iexact HIc22
    isplitl [Hcxs0]; · iexact Hcxs0
    isplitl [HO]; · iexact HO
    isplitl [Hmw]; · iexact Hmw
    iexact Hp
  iintro ⟨HO, Hq22, -, HBs0⟩
  sl_exec
  -- of own chunk 0 to z
  icases HpS with ⟨Hp, HpS⟩
  ihave Hmw := (mayWait_list (F := F) cc (dsem (⟨44, by decide⟩ : Fin 140)) (List.drop 40 (paysL cc)) (by decide)) $$ Hlev
  iapply (wait_a4_at m cc _ 0 rfl) $$ [Hczs0 HO Hmw Hp]
  · isplitr; · iexact HIc44
    isplitl [Hczs0]; · iexact Hczs0
    isplitl [HO]; · iexact HO
    isplitl [Hmw]; · iexact Hmw
    iexact Hp
  iintro ⟨HO, Hq44, -, HoZb0⟩
  sl_exec
  -- of own chunk 0 to y
  icases HpS with ⟨Hp, HpS⟩
  ihave Hmw := (mayWait_list (F := F) cc (dsem (⟨60, by decide⟩ : Fin 140)) (List.drop 40 (paysL cc)) (by decide)) $$ Hlev
  iapply (wait_a6_at m cc _ 0 rfl) $$ [Hcys0 HO Hmw Hp]
  · isplitr; · iexact HIc60
    isplitl [Hcys0]; · iexact Hcys0
    isplitl [HO]; · iexact HO
    isplitl [Hmw]; · iexact Hmw
    iexact Hp
  iintro ⟨HO, Hq60, -, HoYb0⟩
  sl_exec
  -- the departure of chunk 1 across x
  icases HpS with ⟨Hp, HpS⟩
  ihave Hmw := (mayWait_list (F := F) cc (dsem (⟨23, by decide⟩ : Fin 140)) (List.drop 40 (paysL cc)) (by decide)) $$ Hlev
  iapply (wait_a0_at m cc _ 1 rfl) $$ [Hcxs1 HO Hmw Hp]
  · isplitr; · iexact HIc23
    isplitl [Hcxs1]; · iexact Hcxs1
    isplitl [HO]; · iexact HO
    isplitl [Hmw]; · iexact Hmw
    iexact Hp
  iintro ⟨HO, Hq23, -, HBs1⟩
  sl_exec
  -- of own chunk 1 to z
  icases HpS with ⟨Hp, HpS⟩
  ihave Hmw := (mayWait_list (F := F) cc (dsem (⟨45, by decide⟩ : Fin 140)) (List.drop 40 (paysL cc)) (by decide)) $$ Hlev
  iapply (wait_a4_at m cc _ 1 rfl) $$ [Hczs1 HO Hmw Hp]
  · isplitr; · iexact HIc45
    isplitl [Hczs1]; · iexact Hczs1
    isplitl [HO]; · iexact HO
    isplitl [Hmw]; · iexact Hmw
    iexact Hp
  iintro ⟨HO, Hq45, -, HoZb1⟩
  sl_exec
  -- of own chunk 1 to y
  icases HpS with ⟨Hp, HpS⟩
  ihave Hmw := (mayWait_list (F := F) cc (dsem (⟨61, by decide⟩ : Fin 140)) (List.drop 40 (paysL cc)) (by decide)) $$ Hlev
  iapply (wait_a6_at m cc _ 1 rfl) $$ [Hcys1 HO Hmw Hp]
  · isplitr; · iexact HIc61
    isplitl [Hcys1]; · iexact Hcys1
    isplitl [HO]; · iexact HO
    isplitl [Hmw]; · iexact Hmw
    iexact Hp
  iintro ⟨HO, Hq61, -, HoYb1⟩
  sl_exec
  -- the departure of chunk 2 across x
  icases HpS with ⟨Hp, HpS⟩
  ihave Hmw := (mayWait_list (F := F) cc (dsem (⟨24, by decide⟩ : Fin 140)) (List.drop 40 (paysL cc)) (by decide)) $$ Hlev
  iapply (wait_a0_at m cc _ 2 rfl) $$ [Hcxs2 HO Hmw Hp]
  · isplitr; · iexact HIc24
    isplitl [Hcxs2]; · iexact Hcxs2
    isplitl [HO]; · iexact HO
    isplitl [Hmw]; · iexact Hmw
    iexact Hp
  iintro ⟨HO, Hq24, -, HBs2⟩
  sl_exec
  -- of own chunk 2 to z
  icases HpS with ⟨Hp, HpS⟩
  ihave Hmw := (mayWait_list (F := F) cc (dsem (⟨46, by decide⟩ : Fin 140)) (List.drop 40 (paysL cc)) (by decide)) $$ Hlev
  iapply (wait_a4_at m cc _ 2 rfl) $$ [Hczs2 HO Hmw Hp]
  · isplitr; · iexact HIc46
    isplitl [Hczs2]; · iexact Hczs2
    isplitl [HO]; · iexact HO
    isplitl [Hmw]; · iexact Hmw
    iexact Hp
  iintro ⟨HO, Hq46, -, HoZb2⟩
  sl_exec
  -- of own chunk 2 to y
  icases HpS with ⟨Hp, HpS⟩
  ihave Hmw := (mayWait_list (F := F) cc (dsem (⟨62, by decide⟩ : Fin 140)) (List.drop 40 (paysL cc)) (by decide)) $$ Hlev
  iapply (wait_a6_at m cc _ 2 rfl) $$ [Hcys2 HO Hmw Hp]
  · isplitr; · iexact HIc62
    isplitl [Hcys2]; · iexact Hcys2
    isplitl [HO]; · iexact HO
    isplitl [Hmw]; · iexact Hmw
    iexact Hp
  iintro ⟨HO, Hq62, -, HoYb2⟩
  sl_exec
  -- the departure of chunk 3 across x
  icases HpS with ⟨Hp, HpS⟩
  ihave Hmw := (mayWait_list (F := F) cc (dsem (⟨25, by decide⟩ : Fin 140)) (List.drop 40 (paysL cc)) (by decide)) $$ Hlev
  iapply (wait_a0_at m cc _ 3 rfl) $$ [Hcxs3 HO Hmw Hp]
  · isplitr; · iexact HIc25
    isplitl [Hcxs3]; · iexact Hcxs3
    isplitl [HO]; · iexact HO
    isplitl [Hmw]; · iexact Hmw
    iexact Hp
  iintro ⟨HO, Hq25, -, HBs3⟩
  sl_exec
  -- of own chunk 3 to z
  icases HpS with ⟨Hp, HpS⟩
  ihave Hmw := (mayWait_list (F := F) cc (dsem (⟨47, by decide⟩ : Fin 140)) (List.drop 40 (paysL cc)) (by decide)) $$ Hlev
  iapply (wait_a4_at m cc _ 3 rfl) $$ [Hczs3 HO Hmw Hp]
  · isplitr; · iexact HIc47
    isplitl [Hczs3]; · iexact Hczs3
    isplitl [HO]; · iexact HO
    isplitl [Hmw]; · iexact Hmw
    iexact Hp
  iintro ⟨HO, Hq47, -, HoZb3⟩
  sl_exec
  -- of own chunk 3 to y
  icases HpS with ⟨Hp, HpS⟩
  ihave Hmw := (mayWait_list (F := F) cc (dsem (⟨63, by decide⟩ : Fin 140)) (List.drop 40 (paysL cc)) (by decide)) $$ Hlev
  iapply (wait_a6_at m cc _ 3 rfl) $$ [Hcys3 HO Hmw Hp]
  · isplitr; · iexact HIc63
    isplitl [Hcys3]; · iexact Hcys3
    isplitl [HO]; · iexact HO
    isplitl [Hmw]; · iexact Hmw
    iexact Hp
  iintro ⟨HO, Hq63, -, HoYb3⟩
  sl_exec
  -- of the forwarded half to z
  icases HpS with ⟨Hp, HpS⟩
  ihave Hmw := (mayWait_list (F := F) cc (dsem (⟨79, by decide⟩ : Fin 140)) (List.drop 40 (paysL cc)) (by decide)) $$ Hlev
  iapply (wait_a8_at m cc _ 3 rfl (by decide)) $$ [Hczfs3 HO Hmw Hp]
  · isplitr; · iexact HIc79
    isplitl [Hczfs3]; · iexact Hczfs3
    isplitl [HO]; · iexact HO
    isplitl [Hmw]; · iexact Hmw
    iexact Hp
  iintro ⟨HO, Hq79, -, HyFlb3⟩
  sl_exec
  -- of the forwarded half to y
  icases HpS with ⟨Hp, HpS⟩
  ihave Hmw := (mayWait_list (F := F) cc (dsem (⟨95, by decide⟩ : Fin 140)) (List.drop 40 (paysL cc)) (by decide)) $$ Hlev
  iapply (wait_a10_at m cc _ 3 rfl (by decide)) $$ [Hcyfs3 HO Hmw Hp]
  · isplitr; · iexact HIc95
    isplitl [Hcyfs3]; · iexact Hcyfs3
    isplitl [HO]; · iexact HO
    isplitl [Hmw]; · iexact Hmw
    iexact Hp
  iintro ⟨HO, Hq95, -, HzFrb3⟩
  sl_exec
  -- the departure of chunk 4 across x
  icases HpS with ⟨Hp, HpS⟩
  ihave Hmw := (mayWait_list (F := F) cc (dsem (⟨26, by decide⟩ : Fin 140)) (List.drop 40 (paysL cc)) (by decide)) $$ Hlev
  iapply (wait_a0_at m cc _ 4 rfl) $$ [Hcxs4 HO Hmw Hp]
  · isplitr; · iexact HIc26
    isplitl [Hcxs4]; · iexact Hcxs4
    isplitl [HO]; · iexact HO
    isplitl [Hmw]; · iexact Hmw
    iexact Hp
  iintro ⟨HO, Hq26, -, HBs4⟩
  sl_exec
  -- of own chunk 4 to z
  icases HpS with ⟨Hp, HpS⟩
  ihave Hmw := (mayWait_list (F := F) cc (dsem (⟨48, by decide⟩ : Fin 140)) (List.drop 40 (paysL cc)) (by decide)) $$ Hlev
  iapply (wait_a4_at m cc _ 4 rfl) $$ [Hczs4 HO Hmw Hp]
  · isplitr; · iexact HIc48
    isplitl [Hczs4]; · iexact Hczs4
    isplitl [HO]; · iexact HO
    isplitl [Hmw]; · iexact Hmw
    iexact Hp
  iintro ⟨HO, Hq48, -, HoZb4⟩
  sl_exec
  -- of own chunk 4 to y
  icases HpS with ⟨Hp, HpS⟩
  ihave Hmw := (mayWait_list (F := F) cc (dsem (⟨64, by decide⟩ : Fin 140)) (List.drop 40 (paysL cc)) (by decide)) $$ Hlev
  iapply (wait_a6_at m cc _ 4 rfl) $$ [Hcys4 HO Hmw Hp]
  · isplitr; · iexact HIc64
    isplitl [Hcys4]; · iexact Hcys4
    isplitl [HO]; · iexact HO
    isplitl [Hmw]; · iexact Hmw
    iexact Hp
  iintro ⟨HO, Hq64, -, HoYb4⟩
  sl_exec
  -- of the forwarded half to z
  icases HpS with ⟨Hp, HpS⟩
  ihave Hmw := (mayWait_list (F := F) cc (dsem (⟨80, by decide⟩ : Fin 140)) (List.drop 40 (paysL cc)) (by decide)) $$ Hlev
  iapply (wait_a8_at m cc _ 4 rfl (by decide)) $$ [Hczfs4 HO Hmw Hp]
  · isplitr; · iexact HIc80
    isplitl [Hczfs4]; · iexact Hczfs4
    isplitl [HO]; · iexact HO
    isplitl [Hmw]; · iexact Hmw
    iexact Hp
  iintro ⟨HO, Hq80, -, HyFlb4⟩
  sl_exec
  -- of the forwarded half to y
  icases HpS with ⟨Hp, HpS⟩
  ihave Hmw := (mayWait_list (F := F) cc (dsem (⟨96, by decide⟩ : Fin 140)) (List.drop 40 (paysL cc)) (by decide)) $$ Hlev
  iapply (wait_a10_at m cc _ 4 rfl (by decide)) $$ [Hcyfs4 HO Hmw Hp]
  · isplitr; · iexact HIc96
    isplitl [Hcyfs4]; · iexact Hcyfs4
    isplitl [HO]; · iexact HO
    isplitl [Hmw]; · iexact Hmw
    iexact Hp
  iintro ⟨HO, Hq96, -, HzFrb4⟩
  sl_exec
  -- the departure of chunk 5 across x
  icases HpS with ⟨Hp, HpS⟩
  ihave Hmw := (mayWait_list (F := F) cc (dsem (⟨27, by decide⟩ : Fin 140)) (List.drop 40 (paysL cc)) (by decide)) $$ Hlev
  iapply (wait_a0_at m cc _ 5 rfl) $$ [Hcxs5 HO Hmw Hp]
  · isplitr; · iexact HIc27
    isplitl [Hcxs5]; · iexact Hcxs5
    isplitl [HO]; · iexact HO
    isplitl [Hmw]; · iexact Hmw
    iexact Hp
  iintro ⟨HO, Hq27, -, HBs5⟩
  sl_exec
  -- of own chunk 5 to z
  icases HpS with ⟨Hp, HpS⟩
  ihave Hmw := (mayWait_list (F := F) cc (dsem (⟨49, by decide⟩ : Fin 140)) (List.drop 40 (paysL cc)) (by decide)) $$ Hlev
  iapply (wait_a4_at m cc _ 5 rfl) $$ [Hczs5 HO Hmw Hp]
  · isplitr; · iexact HIc49
    isplitl [Hczs5]; · iexact Hczs5
    isplitl [HO]; · iexact HO
    isplitl [Hmw]; · iexact Hmw
    iexact Hp
  iintro ⟨HO, Hq49, -, HoZb5⟩
  sl_exec
  -- of own chunk 5 to y
  icases HpS with ⟨Hp, HpS⟩
  ihave Hmw := (mayWait_list (F := F) cc (dsem (⟨65, by decide⟩ : Fin 140)) (List.drop 40 (paysL cc)) (by decide)) $$ Hlev
  iapply (wait_a6_at m cc _ 5 rfl) $$ [Hcys5 HO Hmw Hp]
  · isplitr; · iexact HIc65
    isplitl [Hcys5]; · iexact Hcys5
    isplitl [HO]; · iexact HO
    isplitl [Hmw]; · iexact Hmw
    iexact Hp
  iintro ⟨HO, Hq65, -, HoYb5⟩
  sl_exec
  -- of the forwarded half to z
  icases HpS with ⟨Hp, HpS⟩
  ihave Hmw := (mayWait_list (F := F) cc (dsem (⟨81, by decide⟩ : Fin 140)) (List.drop 40 (paysL cc)) (by decide)) $$ Hlev
  iapply (wait_a8_at m cc _ 5 rfl (by decide)) $$ [Hczfs5 HO Hmw Hp]
  · isplitr; · iexact HIc81
    isplitl [Hczfs5]; · iexact Hczfs5
    isplitl [HO]; · iexact HO
    isplitl [Hmw]; · iexact Hmw
    iexact Hp
  iintro ⟨HO, Hq81, -, HyFlb5⟩
  sl_exec
  -- of the forwarded half to y
  icases HpS with ⟨Hp, HpS⟩
  ihave Hmw := (mayWait_list (F := F) cc (dsem (⟨97, by decide⟩ : Fin 140)) (List.drop 40 (paysL cc)) (by decide)) $$ Hlev
  iapply (wait_a10_at m cc _ 5 rfl (by decide)) $$ [Hcyfs5 HO Hmw Hp]
  · isplitr; · iexact HIc97
    isplitl [Hcyfs5]; · iexact Hcyfs5
    isplitl [HO]; · iexact HO
    isplitl [Hmw]; · iexact Hmw
    iexact Hp
  iintro ⟨HO, Hq97, -, HzFrb5⟩
  sl_exec
  -- the departure of chunk 6 across x
  icases HpS with ⟨Hp, HpS⟩
  ihave Hmw := (mayWait_list (F := F) cc (dsem (⟨28, by decide⟩ : Fin 140)) (List.drop 40 (paysL cc)) (by decide)) $$ Hlev
  iapply (wait_a0_at m cc _ 6 rfl) $$ [Hcxs6 HO Hmw Hp]
  · isplitr; · iexact HIc28
    isplitl [Hcxs6]; · iexact Hcxs6
    isplitl [HO]; · iexact HO
    isplitl [Hmw]; · iexact Hmw
    iexact Hp
  iintro ⟨HO, Hq28, -, HBs6⟩
  sl_exec
  -- of own chunk 6 to z
  icases HpS with ⟨Hp, HpS⟩
  ihave Hmw := (mayWait_list (F := F) cc (dsem (⟨50, by decide⟩ : Fin 140)) (List.drop 40 (paysL cc)) (by decide)) $$ Hlev
  iapply (wait_a4_at m cc _ 6 rfl) $$ [Hczs6 HO Hmw Hp]
  · isplitr; · iexact HIc50
    isplitl [Hczs6]; · iexact Hczs6
    isplitl [HO]; · iexact HO
    isplitl [Hmw]; · iexact Hmw
    iexact Hp
  iintro ⟨HO, Hq50, -, HoZb6⟩
  sl_exec
  -- of own chunk 6 to y
  icases HpS with ⟨Hp, HpS⟩
  ihave Hmw := (mayWait_list (F := F) cc (dsem (⟨66, by decide⟩ : Fin 140)) (List.drop 40 (paysL cc)) (by decide)) $$ Hlev
  iapply (wait_a6_at m cc _ 6 rfl) $$ [Hcys6 HO Hmw Hp]
  · isplitr; · iexact HIc66
    isplitl [Hcys6]; · iexact Hcys6
    isplitl [HO]; · iexact HO
    isplitl [Hmw]; · iexact Hmw
    iexact Hp
  iintro ⟨HO, Hq66, -, HoYb6⟩
  sl_exec
  -- of the forwarded half to z
  icases HpS with ⟨Hp, HpS⟩
  ihave Hmw := (mayWait_list (F := F) cc (dsem (⟨82, by decide⟩ : Fin 140)) (List.drop 40 (paysL cc)) (by decide)) $$ Hlev
  iapply (wait_a8_at m cc _ 6 rfl (by decide)) $$ [Hczfs6 HO Hmw Hp]
  · isplitr; · iexact HIc82
    isplitl [Hczfs6]; · iexact Hczfs6
    isplitl [HO]; · iexact HO
    isplitl [Hmw]; · iexact Hmw
    iexact Hp
  iintro ⟨HO, Hq82, -, HyFlb6⟩
  sl_exec
  -- of the forwarded half to y
  icases HpS with ⟨Hp, HpS⟩
  ihave Hmw := (mayWait_list (F := F) cc (dsem (⟨98, by decide⟩ : Fin 140)) (List.drop 40 (paysL cc)) (by decide)) $$ Hlev
  iapply (wait_a10_at m cc _ 6 rfl (by decide)) $$ [Hcyfs6 HO Hmw Hp]
  · isplitr; · iexact HIc98
    isplitl [Hcyfs6]; · iexact Hcyfs6
    isplitl [HO]; · iexact HO
    isplitl [Hmw]; · iexact Hmw
    iexact Hp
  iintro ⟨HO, Hq98, -, HzFrb6⟩
  sl_exec
  -- the departure of chunk 7 across x
  icases HpS with ⟨Hp, HpS⟩
  ihave Hmw := (mayWait_list (F := F) cc (dsem (⟨29, by decide⟩ : Fin 140)) (List.drop 40 (paysL cc)) (by decide)) $$ Hlev
  iapply (wait_a0_at m cc _ 7 rfl) $$ [Hcxs7 HO Hmw Hp]
  · isplitr; · iexact HIc29
    isplitl [Hcxs7]; · iexact Hcxs7
    isplitl [HO]; · iexact HO
    isplitl [Hmw]; · iexact Hmw
    iexact Hp
  iintro ⟨HO, Hq29, -, HBs7⟩
  sl_exec
  -- of own chunk 7 to z
  icases HpS with ⟨Hp, HpS⟩
  ihave Hmw := (mayWait_list (F := F) cc (dsem (⟨51, by decide⟩ : Fin 140)) (List.drop 40 (paysL cc)) (by decide)) $$ Hlev
  iapply (wait_a4_at m cc _ 7 rfl) $$ [Hczs7 HO Hmw Hp]
  · isplitr; · iexact HIc51
    isplitl [Hczs7]; · iexact Hczs7
    isplitl [HO]; · iexact HO
    isplitl [Hmw]; · iexact Hmw
    iexact Hp
  iintro ⟨HO, Hq51, -, HoZb7⟩
  sl_exec
  -- of own chunk 7 to y
  icases HpS with ⟨Hp, HpS⟩
  ihave Hmw := (mayWait_list (F := F) cc (dsem (⟨67, by decide⟩ : Fin 140)) (List.drop 40 (paysL cc)) (by decide)) $$ Hlev
  iapply (wait_a6_at m cc _ 7 rfl) $$ [Hcys7 HO Hmw Hp]
  · isplitr; · iexact HIc67
    isplitl [Hcys7]; · iexact Hcys7
    isplitl [HO]; · iexact HO
    isplitl [Hmw]; · iexact Hmw
    iexact Hp
  iintro ⟨HO, Hq67, -, HoYb7⟩
  sl_exec
  -- of the forwarded half to z
  icases HpS with ⟨Hp, HpS⟩
  ihave Hmw := (mayWait_list (F := F) cc (dsem (⟨83, by decide⟩ : Fin 140)) (List.drop 40 (paysL cc)) (by decide)) $$ Hlev
  iapply (wait_a8_at m cc _ 7 rfl (by decide)) $$ [Hczfs7 HO Hmw Hp]
  · isplitr; · iexact HIc83
    isplitl [Hczfs7]; · iexact Hczfs7
    isplitl [HO]; · iexact HO
    isplitl [Hmw]; · iexact Hmw
    iexact Hp
  iintro ⟨HO, Hq83, -, HyFlb7⟩
  sl_exec
  -- of the forwarded half to y
  icases HpS with ⟨Hp, HpS⟩
  ihave Hmw := (mayWait_list (F := F) cc (dsem (⟨99, by decide⟩ : Fin 140)) (List.drop 40 (paysL cc)) (by decide)) $$ Hlev
  iapply (wait_a10_at m cc _ 7 rfl (by decide)) $$ [Hcyfs7 HO Hmw Hp]
  · isplitr; · iexact HIc99
    isplitl [Hcyfs7]; · iexact Hcyfs7
    isplitl [HO]; · iexact HO
    isplitl [Hmw]; · iexact Hmw
    iexact Hp
  iintro ⟨HO, Hq99, -, HzFrb7⟩
  sl_exec
  -- of chunk 0 of the diagonal quarter across x
  icases HpS with ⟨Hp, HpS⟩
  ihave Hmw := (mayWait_list (F := F) cc (dsem (⟨38, by decide⟩ : Fin 140)) (List.drop 40 (paysL cc)) (by decide)) $$ Hlev
  iapply (wait_a2_at m cc _ 0 rfl) $$ [Hcds0 HO Hmw Hp]
  · isplitr; · iexact HIc38
    isplitl [Hcds0]; · iexact Hcds0
    isplitl [HO]; · iexact HO
    isplitl [Hmw]; · iexact Hmw
    iexact Hp
  iintro ⟨HO, Hq38, -, HB2s0⟩
  sl_exec
  -- of chunk 1 of the diagonal quarter across x
  icases HpS with ⟨Hp, HpS⟩
  ihave HpS := ((sep_emp (PROP := sProp 𝕄)).2) $$ HpS
  ihave Hmw := (mayWait_list (F := F) cc (dsem (⟨39, by decide⟩ : Fin 140)) (List.drop 40 (paysL cc)) (by decide)) $$ Hlev
  iapply (wait_a2_at m cc _ 1 rfl) $$ [Hcds1 HO Hmw Hp]
  · isplitr; · iexact HIc39
    isplitl [Hcds1]; · iexact Hcds1
    isplitl [HO]; · iexact HO
    isplitl [Hmw]; · iexact Hmw
    iexact Hp
  iintro ⟨HO, Hq39, -, HB2s1⟩
  sl_exec
  -- of chunk 2 of the diagonal quarter across x

  icases HpS with ⟨HpS, -⟩
  ihave Hmw := (mayWait_list (F := F) cc (dsem (⟨40, by decide⟩ : Fin 140)) (List.drop 40 (paysL cc)) (by decide)) $$ Hlev
  iapply (wait_a2_at m cc _ 2 rfl) $$ [Hcds2 HO Hmw HpS]
  · isplitr; · iexact HIc40
    isplitl [Hcds2]; · iexact Hcds2
    isplitl [HO]; · iexact HO
    isplitl [Hmw]; · iexact Hmw
    iexact HpS
  iintro ⟨HO, Hq40, -, HB2s2⟩
  sl_exec
  -- every cell of the protocol on this device has had its one round: close them, their counters are the device's again
  imod (close_cell (F := F) m cc (⟨22, by decide⟩ : Fin 140) (by decide)) $$ [Hq22] with Hv22
  · isplitr; · iexact HIc22
    iexact Hq22
  imod (close_cell (F := F) m cc (⟨23, by decide⟩ : Fin 140) (by decide)) $$ [Hq23] with Hv23
  · isplitr; · iexact HIc23
    iexact Hq23
  imod (close_cell (F := F) m cc (⟨24, by decide⟩ : Fin 140) (by decide)) $$ [Hq24] with Hv24
  · isplitr; · iexact HIc24
    iexact Hq24
  imod (close_cell (F := F) m cc (⟨25, by decide⟩ : Fin 140) (by decide)) $$ [Hq25] with Hv25
  · isplitr; · iexact HIc25
    iexact Hq25
  imod (close_cell (F := F) m cc (⟨26, by decide⟩ : Fin 140) (by decide)) $$ [Hq26] with Hv26
  · isplitr; · iexact HIc26
    iexact Hq26
  imod (close_cell (F := F) m cc (⟨27, by decide⟩ : Fin 140) (by decide)) $$ [Hq27] with Hv27
  · isplitr; · iexact HIc27
    iexact Hq27
  imod (close_cell (F := F) m cc (⟨28, by decide⟩ : Fin 140) (by decide)) $$ [Hq28] with Hv28
  · isplitr; · iexact HIc28
    iexact Hq28
  imod (close_cell (F := F) m cc (⟨29, by decide⟩ : Fin 140) (by decide)) $$ [Hq29] with Hv29
  · isplitr; · iexact HIc29
    iexact Hq29
  imod (close_cell (F := F) m cc (⟨30, by decide⟩ : Fin 140) (by decide)) $$ [Hq30] with Hv30
  · isplitr; · iexact HIc30
    iexact Hq30
  imod (close_cell (F := F) m cc (⟨31, by decide⟩ : Fin 140) (by decide)) $$ [Hq31] with Hv31
  · isplitr; · iexact HIc31
    iexact Hq31
  imod (close_cell (F := F) m cc (⟨32, by decide⟩ : Fin 140) (by decide)) $$ [Hq32] with Hv32
  · isplitr; · iexact HIc32
    iexact Hq32
  imod (close_cell (F := F) m cc (⟨33, by decide⟩ : Fin 140) (by decide)) $$ [Hq33] with Hv33
  · isplitr; · iexact HIc33
    iexact Hq33
  imod (close_cell (F := F) m cc (⟨34, by decide⟩ : Fin 140) (by decide)) $$ [Hq34] with Hv34
  · isplitr; · iexact HIc34
    iexact Hq34
  imod (close_cell (F := F) m cc (⟨35, by decide⟩ : Fin 140) (by decide)) $$ [Hq35] with Hv35
  · isplitr; · iexact HIc35
    iexact Hq35
  imod (close_cell (F := F) m cc (⟨36, by decide⟩ : Fin 140) (by decide)) $$ [Hq36] with Hv36
  · isplitr; · iexact HIc36
    iexact Hq36
  imod (close_cell (F := F) m cc (⟨37, by decide⟩ : Fin 140) (by decide)) $$ [Hq37] with Hv37
  · isplitr; · iexact HIc37
    iexact Hq37
  imod (close_cell (F := F) m cc (⟨38, by decide⟩ : Fin 140) (by decide)) $$ [Hq38] with Hv38
  · isplitr; · iexact HIc38
    iexact Hq38
  imod (close_cell (F := F) m cc (⟨39, by decide⟩ : Fin 140) (by decide)) $$ [Hq39] with Hv39
  · isplitr; · iexact HIc39
    iexact Hq39
  imod (close_cell (F := F) m cc (⟨40, by decide⟩ : Fin 140) (by decide)) $$ [Hq40] with Hv40
  · isplitr; · iexact HIc40
    iexact Hq40
  imod (close_cell (F := F) m cc (⟨41, by decide⟩ : Fin 140) (by decide)) $$ [Hq41] with Hv41
  · isplitr; · iexact HIc41
    iexact Hq41
  imod (close_cell (F := F) m cc (⟨42, by decide⟩ : Fin 140) (by decide)) $$ [Hq42] with Hv42
  · isplitr; · iexact HIc42
    iexact Hq42
  imod (close_cell (F := F) m cc (⟨43, by decide⟩ : Fin 140) (by decide)) $$ [Hq43] with Hv43
  · isplitr; · iexact HIc43
    iexact Hq43
  imod (close_cell (F := F) m cc (⟨44, by decide⟩ : Fin 140) (by decide)) $$ [Hq44] with Hv44
  · isplitr; · iexact HIc44
    iexact Hq44
  imod (close_cell (F := F) m cc (⟨45, by decide⟩ : Fin 140) (by decide)) $$ [Hq45] with Hv45
  · isplitr; · iexact HIc45
    iexact Hq45
  imod (close_cell (F := F) m cc (⟨46, by decide⟩ : Fin 140) (by decide)) $$ [Hq46] with Hv46
  · isplitr; · iexact HIc46
    iexact Hq46
  imod (close_cell (F := F) m cc (⟨47, by decide⟩ : Fin 140) (by decide)) $$ [Hq47] with Hv47
  · isplitr; · iexact HIc47
    iexact Hq47
  imod (close_cell (F := F) m cc (⟨48, by decide⟩ : Fin 140) (by decide)) $$ [Hq48] with Hv48
  · isplitr; · iexact HIc48
    iexact Hq48
  imod (close_cell (F := F) m cc (⟨49, by decide⟩ : Fin 140) (by decide)) $$ [Hq49] with Hv49
  · isplitr; · iexact HIc49
    iexact Hq49
  imod (close_cell (F := F) m cc (⟨50, by decide⟩ : Fin 140) (by decide)) $$ [Hq50] with Hv50
  · isplitr; · iexact HIc50
    iexact Hq50
  imod (close_cell (F := F) m cc (⟨51, by decide⟩ : Fin 140) (by decide)) $$ [Hq51] with Hv51
  · isplitr; · iexact HIc51
    iexact Hq51
  imod (close_cell (F := F) m cc (⟨52, by decide⟩ : Fin 140) (by decide)) $$ [Hq52] with Hv52
  · isplitr; · iexact HIc52
    iexact Hq52
  imod (close_cell (F := F) m cc (⟨53, by decide⟩ : Fin 140) (by decide)) $$ [Hq53] with Hv53
  · isplitr; · iexact HIc53
    iexact Hq53
  imod (close_cell (F := F) m cc (⟨54, by decide⟩ : Fin 140) (by decide)) $$ [Hq54] with Hv54
  · isplitr; · iexact HIc54
    iexact Hq54
  imod (close_cell (F := F) m cc (⟨55, by decide⟩ : Fin 140) (by decide)) $$ [Hq55] with Hv55
  · isplitr; · iexact HIc55
    iexact Hq55
  imod (close_cell (F := F) m cc (⟨56, by decide⟩ : Fin 140) (by decide)) $$ [Hq56] with Hv56
  · isplitr; · iexact HIc56
    iexact Hq56
  imod (close_cell (F := F) m cc (⟨57, by decide⟩ : Fin 140) (by decide)) $$ [Hq57] with Hv57
  · isplitr; · iexact HIc57
    iexact Hq57
  imod (close_cell (F := F) m cc (⟨58, by decide⟩ : Fin 140) (by decide)) $$ [Hq58] with Hv58
  · isplitr; · iexact HIc58
    iexact Hq58
  imod (close_cell (F := F) m cc (⟨59, by decide⟩ : Fin 140) (by decide)) $$ [Hq59] with Hv59
  · isplitr; · iexact HIc59
    iexact Hq59
  imod (close_cell (F := F) m cc (⟨60, by decide⟩ : Fin 140) (by decide)) $$ [Hq60] with Hv60
  · isplitr; · iexact HIc60
    iexact Hq60
  imod (close_cell (F := F) m cc (⟨61, by decide⟩ : Fin 140) (by decide)) $$ [Hq61] with Hv61
  · isplitr; · iexact HIc61
    iexact Hq61
  imod (close_cell (F := F) m cc (⟨62, by decide⟩ : Fin 140) (by decide)) $$ [Hq62] with Hv62
  · isplitr; · iexact HIc62
    iexact Hq62
  imod (close_cell (F := F) m cc (⟨63, by decide⟩ : Fin 140) (by decide)) $$ [Hq63] with Hv63
  · isplitr; · iexact HIc63
    iexact Hq63
  imod (close_cell (F := F) m cc (⟨64, by decide⟩ : Fin 140) (by decide)) $$ [Hq64] with Hv64
  · isplitr; · iexact HIc64
    iexact Hq64
  imod (close_cell (F := F) m cc (⟨65, by decide⟩ : Fin 140) (by decide)) $$ [Hq65] with Hv65
  · isplitr; · iexact HIc65
    iexact Hq65
  imod (close_cell (F := F) m cc (⟨66, by decide⟩ : Fin 140) (by decide)) $$ [Hq66] with Hv66
  · isplitr; · iexact HIc66
    iexact Hq66
  imod (close_cell (F := F) m cc (⟨67, by decide⟩ : Fin 140) (by decide)) $$ [Hq67] with Hv67
  · isplitr; · iexact HIc67
    iexact Hq67
  imod (close_cell (F := F) m cc (⟨68, by decide⟩ : Fin 140) (by decide)) $$ [Hq68] with Hv68
  · isplitr; · iexact HIc68
    iexact Hq68
  imod (close_cell (F := F) m cc (⟨69, by decide⟩ : Fin 140) (by decide)) $$ [Hq69] with Hv69
  · isplitr; · iexact HIc69
    iexact Hq69
  imod (close_cell (F := F) m cc (⟨70, by decide⟩ : Fin 140) (by decide)) $$ [Hq70] with Hv70
  · isplitr; · iexact HIc70
    iexact Hq70
  imod (close_cell (F := F) m cc (⟨71, by decide⟩ : Fin 140) (by decide)) $$ [Hq71] with Hv71
  · isplitr; · iexact HIc71
    iexact Hq71
  imod (close_cell (F := F) m cc (⟨72, by decide⟩ : Fin 140) (by decide)) $$ [Hq72] with Hv72
  · isplitr; · iexact HIc72
    iexact Hq72
  imod (close_cell (F := F) m cc (⟨73, by decide⟩ : Fin 140) (by decide)) $$ [Hq73] with Hv73
  · isplitr; · iexact HIc73
    iexact Hq73
  imod (close_cell (F := F) m cc (⟨74, by decide⟩ : Fin 140) (by decide)) $$ [Hq74] with Hv74
  · isplitr; · iexact HIc74
    iexact Hq74
  imod (close_cell (F := F) m cc (⟨75, by decide⟩ : Fin 140) (by decide)) $$ [Hq75] with Hv75
  · isplitr; · iexact HIc75
    iexact Hq75
  imod (close_cell (F := F) m cc (⟨79, by decide⟩ : Fin 140) (by decide)) $$ [Hq79] with Hv79
  · isplitr; · iexact HIc79
    iexact Hq79
  imod (close_cell (F := F) m cc (⟨80, by decide⟩ : Fin 140) (by decide)) $$ [Hq80] with Hv80
  · isplitr; · iexact HIc80
    iexact Hq80
  imod (close_cell (F := F) m cc (⟨81, by decide⟩ : Fin 140) (by decide)) $$ [Hq81] with Hv81
  · isplitr; · iexact HIc81
    iexact Hq81
  imod (close_cell (F := F) m cc (⟨82, by decide⟩ : Fin 140) (by decide)) $$ [Hq82] with Hv82
  · isplitr; · iexact HIc82
    iexact Hq82
  imod (close_cell (F := F) m cc (⟨83, by decide⟩ : Fin 140) (by decide)) $$ [Hq83] with Hv83
  · isplitr; · iexact HIc83
    iexact Hq83
  imod (close_cell (F := F) m cc (⟨87, by decide⟩ : Fin 140) (by decide)) $$ [Hq87] with Hv87
  · isplitr; · iexact HIc87
    iexact Hq87
  imod (close_cell (F := F) m cc (⟨88, by decide⟩ : Fin 140) (by decide)) $$ [Hq88] with Hv88
  · isplitr; · iexact HIc88
    iexact Hq88
  imod (close_cell (F := F) m cc (⟨89, by decide⟩ : Fin 140) (by decide)) $$ [Hq89] with Hv89
  · isplitr; · iexact HIc89
    iexact Hq89
  imod (close_cell (F := F) m cc (⟨90, by decide⟩ : Fin 140) (by decide)) $$ [Hq90] with Hv90
  · isplitr; · iexact HIc90
    iexact Hq90
  imod (close_cell (F := F) m cc (⟨91, by decide⟩ : Fin 140) (by decide)) $$ [Hq91] with Hv91
  · isplitr; · iexact HIc91
    iexact Hq91
  imod (close_cell (F := F) m cc (⟨95, by decide⟩ : Fin 140) (by decide)) $$ [Hq95] with Hv95
  · isplitr; · iexact HIc95
    iexact Hq95
  imod (close_cell (F := F) m cc (⟨96, by decide⟩ : Fin 140) (by decide)) $$ [Hq96] with Hv96
  · isplitr; · iexact HIc96
    iexact Hq96
  imod (close_cell (F := F) m cc (⟨97, by decide⟩ : Fin 140) (by decide)) $$ [Hq97] with Hv97
  · isplitr; · iexact HIc97
    iexact Hq97
  imod (close_cell (F := F) m cc (⟨98, by decide⟩ : Fin 140) (by decide)) $$ [Hq98] with Hv98
  · isplitr; · iexact HIc98
    iexact Hq98
  imod (close_cell (F := F) m cc (⟨99, by decide⟩ : Fin 140) (by decide)) $$ [Hq99] with Hv99
  · isplitr; · iexact HIc99
    iexact Hq99
  imod (close_cell (F := F) m cc (⟨103, by decide⟩ : Fin 140) (by decide)) $$ [Hq103] with Hv103
  · isplitr; · iexact HIc103
    iexact Hq103
  imod (close_cell (F := F) m cc (⟨104, by decide⟩ : Fin 140) (by decide)) $$ [Hq104] with Hv104
  · isplitr; · iexact HIc104
    iexact Hq104
  imod (close_cell (F := F) m cc (⟨105, by decide⟩ : Fin 140) (by decide)) $$ [Hq105] with Hv105
  · isplitr; · iexact HIc105
    iexact Hq105
  imod (close_cell (F := F) m cc (⟨106, by decide⟩ : Fin 140) (by decide)) $$ [Hq106] with Hv106
  · isplitr; · iexact HIc106
    iexact Hq106
  imod (close_cell (F := F) m cc (⟨107, by decide⟩ : Fin 140) (by decide)) $$ [Hq107] with Hv107
  · isplitr; · iexact HIc107
    iexact Hq107
  -- the program is over: hand everything back
  icases HvU with ⟨Hu76, Hu77, Hu78, Hu84, Hu85, Hu86, Hu92, Hu93, Hu94, Hu100, Hu101, Hu102⟩
  ihave HO := (Entails.of_eq (show owes (cc : Thread nD τ) (owedL (List.drop 40 (paysL cc))) _ = owes (cc : Thread nD τ) 0 _ from rfl)) $$ HO
  -- each block of the result holds what its copy wrote: the final contents
  ihave HU00 := (congr (F := F) (outR 0 0) cc fullShare ((outR 0 0).view.writes (Elt F) g00 [⟨Rect.whole S512x256, dev.sl.dma0_34 m⟩]) (out m cc) (fun i hi => glue_out' m cc 0 0 g00 i hi)) $$ HU00
  ihave HU01 := (congr (F := F) (outR 0 1) cc fullShare ((outR 0 1).view.writes (Elt F) g01 [⟨Rect.whole S512x256, dev.sl.dma0_35 m⟩]) (out m cc) (fun i hi => glue_out' m cc 0 1 g01 i hi)) $$ HU01
  ihave HU02 := (congr (F := F) (outR 0 2) cc fullShare ((outR 0 2).view.writes (Elt F) g02 [⟨Rect.whole S512x256, dev.sl.dma0_36 m⟩]) (out m cc) (fun i hi => glue_out' m cc 0 2 g02 i hi)) $$ HU02
  ihave HU03 := (congr (F := F) (outR 0 3) cc fullShare ((outR 0 3).view.writes (Elt F) g03 [⟨Rect.whole S512x256, dev.sl.dma0_37 m⟩]) (out m cc) (fun i hi => glue_out' m cc 0 3 g03 i hi)) $$ HU03
  ihave HU10 := (congr (F := F) (outR 1 0) cc fullShare ((outR 1 0).view.writes (Elt F) g10 [⟨Rect.whole S512x256, dev.sl.dma0_38 m⟩]) (out m cc) (fun i hi => glue_out' m cc 1 0 g10 i hi)) $$ HU10
  ihave HU11 := (congr (F := F) (outR 1 1) cc fullShare ((outR 1 1).view.writes (Elt F) g11 [⟨Rect.whole S512x256, dev.sl.dma0_39 m⟩]) (out m cc) (fun i hi => glue_out' m cc 1 1 g11 i hi)) $$ HU11
  ihave HU12 := (congr (F := F) (outR 1 2) cc fullShare ((outR 1 2).view.writes (Elt F) g12 [⟨Rect.whole S512x256, dev.sl.dma0_40 m⟩]) (out m cc) (fun i hi => glue_out' m cc 1 2 g12 i hi)) $$ HU12
  ihave HU13 := (congr (F := F) (outR 1 3) cc fullShare ((outR 1 3).view.writes (Elt F) g13 [⟨Rect.whole S512x256, dev.sl.dma0_41 m⟩]) (out m cc) (fun i hi => glue_out' m cc 1 3 g13 i hi)) $$ HU13
  ihave HU20 := (congr (F := F) (outR 2 0) cc fullShare ((outR 2 0).view.writes (Elt F) g20 [⟨Rect.whole S512x256, dev.sl.dma0_42 m⟩]) (out m cc) (fun i hi => glue_out' m cc 2 0 g20 i hi)) $$ HU20
  ihave HU21 := (congr (F := F) (outR 2 1) cc fullShare ((outR 2 1).view.writes (Elt F) g21 [⟨Rect.whole S512x256, dev.sl.dma0_43 m⟩]) (out m cc) (fun i hi => glue_out' m cc 2 1 g21 i hi)) $$ HU21
  ihave HU22 := (congr (F := F) (outR 2 2) cc fullShare ((outR 2 2).view.writes (Elt F) g22 [⟨Rect.whole S512x256, dev.sl.dma0_44 m⟩]) (out m cc) (fun i hi => glue_out' m cc 2 2 g22 i hi)) $$ HU22
  ihave HU23 := (congr (F := F) (outR 2 3) cc fullShare ((outR 2 3).view.writes (Elt F) g23 [⟨Rect.whole S512x256, dev.sl.dma0_45 m⟩]) (out m cc) (fun i hi => glue_out' m cc 2 3 g23 i hi)) $$ HU23
  ihave HU30 := (congr (F := F) (outR 3 0) cc fullShare ((outR 3 0).view.writes (Elt F) g30 [⟨Rect.whole S512x256, dev.sl.dma0_22 m⟩]) (out m cc) (fun i hi => glue_out' m cc 3 0 g30 i hi)) $$ HU30
  ihave HU31 := (congr (F := F) (outR 3 1) cc fullShare ((outR 3 1).view.writes (Elt F) g31 [⟨Rect.whole S512x256, dev.sl.dma0_23 m⟩]) (out m cc) (fun i hi => glue_out' m cc 3 1 g31 i hi)) $$ HU31
  ihave HU32 := (congr (F := F) (outR 3 2) cc fullShare ((outR 3 2).view.writes (Elt F) g32 [⟨Rect.whole S512x256, dev.sl.dma0_24 m⟩]) (out m cc) (fun i hi => glue_out' m cc 3 2 g32 i hi)) $$ HU32
  ihave HU33 := (congr (F := F) (outR 3 3) cc fullShare ((outR 3 3).view.writes (Elt F) g33 [⟨Rect.whole S512x256, dev.sl.dma0_25 m⟩]) (out m cc) (fun i hi => glue_out' m cc 3 3 g33 i hi)) $$ HU33
  ihave HU40 := (congr (F := F) (outR 4 0) cc fullShare ((outR 4 0).view.writes (Elt F) g40 [⟨Rect.whole S512x256, dev.sl.dma0_26 m⟩]) (out m cc) (fun i hi => glue_out' m cc 4 0 g40 i hi)) $$ HU40
  ihave HU41 := (congr (F := F) (outR 4 1) cc fullShare ((outR 4 1).view.writes (Elt F) g41 [⟨Rect.whole S512x256, dev.sl.dma0_27 m⟩]) (out m cc) (fun i hi => glue_out' m cc 4 1 g41 i hi)) $$ HU41
  ihave HU42 := (congr (F := F) (outR 4 2) cc fullShare ((outR 4 2).view.writes (Elt F) g42 [⟨Rect.whole S512x256, dev.sl.dma0_28 m⟩]) (out m cc) (fun i hi => glue_out' m cc 4 2 g42 i hi)) $$ HU42
  ihave HU43 := (congr (F := F) (outR 4 3) cc fullShare ((outR 4 3).view.writes (Elt F) g43 [⟨Rect.whole S512x256, dev.sl.dma0_29 m⟩]) (out m cc) (fun i hi => glue_out' m cc 4 3 g43 i hi)) $$ HU43
  ihave HU50 := (congr (F := F) (outR 5 0) cc fullShare ((outR 5 0).view.writes (Elt F) g50 [⟨Rect.whole S512x256, dev.sl.dma0_30 m⟩]) (out m cc) (fun i hi => glue_out' m cc 5 0 g50 i hi)) $$ HU50
  ihave HU51 := (congr (F := F) (outR 5 1) cc fullShare ((outR 5 1).view.writes (Elt F) g51 [⟨Rect.whole S512x256, dev.sl.dma0_31 m⟩]) (out m cc) (fun i hi => glue_out' m cc 5 1 g51 i hi)) $$ HU51
  ihave HU52 := (congr (F := F) (outR 5 2) cc fullShare ((outR 5 2).view.writes (Elt F) g52 [⟨Rect.whole S512x256, dev.sl.dma0_32 m⟩]) (out m cc) (fun i hi => glue_out' m cc 5 2 g52 i hi)) $$ HU52
  ihave HU53 := (congr (F := F) (outR 5 3) cc fullShare ((outR 5 3).view.writes (Elt F) g53 [⟨Rect.whole S512x256, dev.sl.dma0_33 m⟩]) (out m cc) (fun i hi => glue_out' m cc 5 3 g53 i hi)) $$ HU53
  ihave HU60 := (congr (F := F) (outR 6 0) cc fullShare ((outR 6 0).view.writes (Elt F) g60 [⟨Rect.whole S512x256, dev.sl.dma0_46 m⟩]) (out m cc) (fun i hi => glue_out' m cc 6 0 g60 i hi)) $$ HU60
  ihave HU61 := (congr (F := F) (outR 6 1) cc fullShare ((outR 6 1).view.writes (Elt F) g61 [⟨Rect.whole S512x256, dev.sl.dma0_47 m⟩]) (out m cc) (fun i hi => glue_out' m cc 6 1 g61 i hi)) $$ HU61
  ihave HU62 := (congr (F := F) (outR 6 2) cc fullShare ((outR 6 2).view.writes (Elt F) g62 [⟨Rect.whole S512x256, dev.sl.dma0_48 m⟩]) (out m cc) (fun i hi => glue_out' m cc 6 2 g62 i hi)) $$ HU62
  ihave HU63 := (congr (F := F) (outR 6 3) cc fullShare ((outR 6 3).view.writes (Elt F) g63 [⟨Rect.whole S512x256, dev.sl.dma0_49 m⟩]) (out m cc) (fun i hi => glue_out' m cc 6 3 g63 i hi)) $$ HU63
  ihave HU70 := (congr (F := F) (outR 7 0) cc fullShare ((outR 7 0).view.writes (Elt F) g70 [⟨Rect.whole S512x256, dev.sl.dma0_50 m⟩]) (out m cc) (fun i hi => glue_out' m cc 7 0 g70 i hi)) $$ HU70
  ihave HU71 := (congr (F := F) (outR 7 1) cc fullShare ((outR 7 1).view.writes (Elt F) g71 [⟨Rect.whole S512x256, dev.sl.dma0_51 m⟩]) (out m cc) (fun i hi => glue_out' m cc 7 1 g71 i hi)) $$ HU71
  ihave HU72 := (congr (F := F) (outR 7 2) cc fullShare ((outR 7 2).view.writes (Elt F) g72 [⟨Rect.whole S512x256, dev.sl.dma0_52 m⟩]) (out m cc) (fun i hi => glue_out' m cc 7 2 g72 i hi)) $$ HU72
  ihave HU73 := (congr (F := F) (outR 7 3) cc fullShare ((outR 7 3).view.writes (Elt F) g73 [⟨Rect.whole S512x256, dev.sl.dma0_53 m⟩]) (out m cc) (fun i hi => glue_out' m cc 7 3 g73 i hi)) $$ HU73
  sl_step
  iapply Hk
  unfold bodyPost
  isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7 Hz0 Hz1 Hz2 HzG3 HzFl3 HzFrb3 HzG4 HzFl4 HzFrb4 HzG5 HzFl5 HzFrb5 HzG6 HzFl6 HzFrb6 HzG7 HzFl7 HzFrb7 Hy0 Hy1 Hy2 HyG3 HyFlb3 HyFr3 HyG4 HyFlb4 HyFr4 HyG5 HyFlb5 HyFr5 HyG6 HyFlb6 HyFr6 HyG7 HyFlb7 HyFr7 Hdq0 Hdq1 Hdq2 Hd3 Hd4 Hd5 Hd6 Hd7]
  · iapply (Entails.of_eq (junk_whole (F := F) cc cc0_scratch0).symm)
    iapply (r4_back (F := F) cc)
    isplitl [HoZb0 HoYb0 HoK0 HoZb1 HoYb1 HoK1 HoZb2 HoYb2 HoK2 HoZb3 HoYb3 HoK3 HoZb4 HoYb4 HoK4 HoZb5 HoYb5 HoK5 HoZb6 HoYb6 HoK6 HoZb7 HoYb7 HoK7]
    · isplitl [HoZb0 HoYb0 HoK0]
      · iapply (own_back (F := F) cc 0 (r4 m cc))
        isplitl [HoZb0]
        · iexact HoZb0
        isplitl [HoYb0]
        · iexact HoYb0
        iexact HoK0
      isplitl [HoZb1 HoYb1 HoK1]
      · iapply (own_back (F := F) cc 1 (r4 m cc))
        isplitl [HoZb1]
        · iexact HoZb1
        isplitl [HoYb1]
        · iexact HoYb1
        iexact HoK1
      isplitl [HoZb2 HoYb2 HoK2]
      · iapply (own_back (F := F) cc 2 (r4 m cc))
        isplitl [HoZb2]
        · iexact HoZb2
        isplitl [HoYb2]
        · iexact HoYb2
        iexact HoK2
      isplitl [HoZb3 HoYb3 HoK3]
      · iapply (own_back (F := F) cc 3 (r4 m cc))
        isplitl [HoZb3]
        · iexact HoZb3
        isplitl [HoYb3]
        · iexact HoYb3
        iexact HoK3
      isplitl [HoZb4 HoYb4 HoK4]
      · iapply (own_back (F := F) cc 4 (r4 m cc))
        isplitl [HoZb4]
        · iexact HoZb4
        isplitl [HoYb4]
        · iexact HoYb4
        iexact HoK4
      isplitl [HoZb5 HoYb5 HoK5]
      · iapply (own_back (F := F) cc 5 (r4 m cc))
        isplitl [HoZb5]
        · iexact HoZb5
        isplitl [HoYb5]
        · iexact HoYb5
        iexact HoK5
      isplitl [HoZb6 HoYb6 HoK6]
      · iapply (own_back (F := F) cc 6 (r4 m cc))
        isplitl [HoZb6]
        · iexact HoZb6
        isplitl [HoYb6]
        · iexact HoYb6
        iexact HoK6
      iapply (own_back (F := F) cc 7 (r4 m cc))
      isplitl [HoZb7]
      · iexact HoZb7
      isplitl [HoYb7]
      · iexact HoYb7
      iexact HoK7
    isplitl [Hz0 Hz1 Hz2 HzG3 HzFl3 HzFrb3 HzG4 HzFl4 HzFrb4 HzG5 HzFl5 HzFrb5 HzG6 HzFl6 HzFrb6 HzG7 HzFl7 HzFrb7]
    · isplitl [Hz0]
      · iexists _; iexact Hz0
      isplitl [Hz1]
      · iexists _; iexact Hz1
      isplitl [Hz2]
      · iexists _; iexact Hz2
      isplitl [HzG3 HzFl3 HzFrb3]
      · iapply (nbr_back (F := F) cc (zqF cc) 3 (r4 m cc))
        isplitl [HzG3]
        · iexact HzG3
        isplitl [HzFl3]
        · iexact HzFl3
        iexact HzFrb3
      isplitl [HzG4 HzFl4 HzFrb4]
      · iapply (nbr_back (F := F) cc (zqF cc) 4 (r4 m cc))
        isplitl [HzG4]
        · iexact HzG4
        isplitl [HzFl4]
        · iexact HzFl4
        iexact HzFrb4
      isplitl [HzG5 HzFl5 HzFrb5]
      · iapply (nbr_back (F := F) cc (zqF cc) 5 (r4 m cc))
        isplitl [HzG5]
        · iexact HzG5
        isplitl [HzFl5]
        · iexact HzFl5
        iexact HzFrb5
      isplitl [HzG6 HzFl6 HzFrb6]
      · iapply (nbr_back (F := F) cc (zqF cc) 6 (r4 m cc))
        isplitl [HzG6]
        · iexact HzG6
        isplitl [HzFl6]
        · iexact HzFl6
        iexact HzFrb6
      iapply (nbr_back (F := F) cc (zqF cc) 7 (r4 m cc))
      isplitl [HzG7]
      · iexact HzG7
      isplitl [HzFl7]
      · iexact HzFl7
      iexact HzFrb7
    isplitl [Hy0 Hy1 Hy2 HyG3 HyFlb3 HyFr3 HyG4 HyFlb4 HyFr4 HyG5 HyFlb5 HyFr5 HyG6 HyFlb6 HyFr6 HyG7 HyFlb7 HyFr7]
    · isplitl [Hy0]
      · iexists _; iexact Hy0
      isplitl [Hy1]
      · iexists _; iexact Hy1
      isplitl [Hy2]
      · iexists _; iexact Hy2
      isplitl [HyG3 HyFlb3 HyFr3]
      · iapply (nbr_back (F := F) cc (yqF cc) 3 (r4 m cc))
        isplitl [HyG3]
        · iexact HyG3
        isplitl [HyFlb3]
        · iexact HyFlb3
        iexact HyFr3
      isplitl [HyG4 HyFlb4 HyFr4]
      · iapply (nbr_back (F := F) cc (yqF cc) 4 (r4 m cc))
        isplitl [HyG4]
        · iexact HyG4
        isplitl [HyFlb4]
        · iexact HyFlb4
        iexact HyFr4
      isplitl [HyG5 HyFlb5 HyFr5]
      · iapply (nbr_back (F := F) cc (yqF cc) 5 (r4 m cc))
        isplitl [HyG5]
        · iexact HyG5
        isplitl [HyFlb5]
        · iexact HyFlb5
        iexact HyFr5
      isplitl [HyG6 HyFlb6 HyFr6]
      · iapply (nbr_back (F := F) cc (yqF cc) 6 (r4 m cc))
        isplitl [HyG6]
        · iexact HyG6
        isplitl [HyFlb6]
        · iexact HyFlb6
        iexact HyFr6
      iapply (nbr_back (F := F) cc (yqF cc) 7 (r4 m cc))
      isplitl [HyG7]
      · iexact HyG7
      isplitl [HyFlb7]
      · iexact HyFlb7
      iexact HyFr7
    isplitl [Hdq0 Hdq1 Hdq2]
    · isplitl [Hdq0]
      · iexists _; iexact Hdq0
      isplitl [Hdq1]
      · iexists _; iexact Hdq1
      iexists _; iexact Hdq2
    isplitl [Hd3]
    · iapply (dq_halves (F := F) cc 3 (r4 m cc))
      iexact Hd3
    isplitl [Hd4]
    · iapply (dq_halves (F := F) cc 4 (r4 m cc))
      iexact Hd4
    isplitl [Hd5]
    · iapply (dq_halves (F := F) cc 5 (r4 m cc))
      iexact Hd5
    isplitl [Hd6]
    · iapply (dq_halves (F := F) cc 6 (r4 m cc))
      iexact Hd6
    iapply (dq_halves (F := F) cc 7 (r4 m cc))
    iexact Hd7
  isplitl [HBs0 HBs1 HBs2 HBs3 HBs4 HBs5 HBs6 HBs7]
  · iapply (Entails.of_eq (junk_whole (F := F) cc cc0_scratch1).symm)
    iapply (sb_rows_join (F := F) cc)
    isplitl [HBs0]
    · iexists _; iexact HBs0
    isplitl [HBs1]
    · iexists _; iexact HBs1
    isplitl [HBs2]
    · iexists _; iexact HBs2
    isplitl [HBs3]
    · iexists _; iexact HBs3
    isplitl [HBs4]
    · iexists _; iexact HBs4
    isplitl [HBs5]
    · iexists _; iexact HBs5
    isplitl [HBs6]
    · iexists _; iexact HBs6
    iexists _; iexact HBs7
  isplitl [Hrb0 Hrb1 Hrb2 Hrb3 Hrb4 Hrb5 Hrb6 Hrb7]
  · iapply (Entails.of_eq (junk_whole (F := F) cc cc0_scratch2).symm)
    iapply (rb_rows_join (F := F) cc)
    isplitl [Hrb0]
    · iexists _; iexact Hrb0
    isplitl [Hrb1]
    · iexists _; iexact Hrb1
    isplitl [Hrb2]
    · iexists _; iexact Hrb2
    isplitl [Hrb3]
    · iexists _; iexact Hrb3
    isplitl [Hrb4]
    · iexists _; iexact Hrb4
    isplitl [Hrb5]
    · iexists _; iexact Hrb5
    isplitl [Hrb6]
    · iexists _; iexact Hrb6
    iexists _; iexact Hrb7
  isplitl [HB2s0 HB2s1 HB2s2]
  · iapply (Entails.of_eq (junk_whole (F := F) cc cc0_scratch3).symm)
    iapply (sb2_rows_join (F := F) cc)
    isplitl [HB2s0]
    · iexists _; iexact HB2s0
    isplitl [HB2s1]
    · iexists _; iexact HB2s1
    iexists _; iexact HB2s2
  isplitl [Hrb20 Hrb21 Hrb22]
  · iapply (Entails.of_eq (junk_whole (F := F) cc cc0_scratch4).symm)
    iapply (rb2_rows_join (F := F) cc)
    isplitl [Hrb20]
    · iexists _; iexact Hrb20
    isplitl [Hrb21]
    · iexists _; iexact Hrb21
    iexists _; iexact Hrb22
  isplitl [HP0 HP1 HP2 HP3 HP4 HP5 HP6 HP7]
  · iapply (Entails.of_eq (junk_whole (F := F) cc cc0_scratch5).symm)
    iapply (stP_rows_join (F := F) cc)
    isplitl [HP0]
    · iexists _; iexact HP0
    isplitl [HP1]
    · iexists _; iexact HP1
    isplitl [HP2]
    · iexists _; iexact HP2
    isplitl [HP3]
    · iexists _; iexact HP3
    isplitl [HP4]
    · iexists _; iexact HP4
    isplitl [HP5]
    · iexists _; iexact HP5
    isplitl [HP6]
    · iexists _; iexact HP6
    iexists _; iexact HP7
  isplitl [HL0 HL1 HL2 HL3 HL4 HL5 HL6 HL7]
  · iapply (Entails.of_eq (junk_whole (F := F) cc cc0_scratch6).symm)
    iapply (stL_rows_join (F := F) cc)
    isplitl [HL0]
    · iexists _; iexact HL0
    isplitl [HL1]
    · iexists _; iexact HL1
    isplitl [HL2]
    · iexists _; iexact HL2
    isplitl [HL3]
    · iexists _; iexact HL3
    isplitl [HL4]
    · iexists _; iexact HL4
    isplitl [HL5]
    · iexists _; iexact HL5
    isplitl [HL6]
    · iexists _; iexact HL6
    iexists _; iexact HL7
  isplitl [HP20 HP21 HP22]
  · iapply (Entails.of_eq (junk_whole (F := F) cc cc0_scratch7).symm)
    iapply (stP2_rows_join (F := F) cc)
    isplitl [HP20]
    · iexists _; iexact HP20
    isplitl [HP21]
    · iexists _; iexact HP21
    iexists _; iexact HP22
  isplitl [HL20 HL21 HL22]
  · iapply (Entails.of_eq (junk_whole (F := F) cc cc0_scratch8).symm)
    iapply (stL2_rows_join (F := F) cc)
    isplitl [HL20]
    · iexists _; iexact HL20
    isplitl [HL21]
    · iexists _; iexact HL21
    iexists _; iexact HL22
  isplitl [HX]
  · iexact HX
  isplitl [HU00 HU01 HU02 HU03 HU10 HU11 HU12 HU13 HU20 HU21 HU22 HU23 HU30 HU31 HU32 HU33 HU40 HU41 HU42 HU43 HU50 HU51 HU52 HU53 HU60 HU61 HU62 HU63 HU70 HU71 HU72 HU73]
  · iapply (out_join (F := F) cc (out m cc))
    isplitl [HU00]
    · iexact HU00
    isplitl [HU01]
    · iexact HU01
    isplitl [HU02]
    · iexact HU02
    isplitl [HU03]
    · iexact HU03
    isplitl [HU10]
    · iexact HU10
    isplitl [HU11]
    · iexact HU11
    isplitl [HU12]
    · iexact HU12
    isplitl [HU13]
    · iexact HU13
    isplitl [HU20]
    · iexact HU20
    isplitl [HU21]
    · iexact HU21
    isplitl [HU22]
    · iexact HU22
    isplitl [HU23]
    · iexact HU23
    isplitl [HU30]
    · iexact HU30
    isplitl [HU31]
    · iexact HU31
    isplitl [HU32]
    · iexact HU32
    isplitl [HU33]
    · iexact HU33
    isplitl [HU40]
    · iexact HU40
    isplitl [HU41]
    · iexact HU41
    isplitl [HU42]
    · iexact HU42
    isplitl [HU43]
    · iexact HU43
    isplitl [HU50]
    · iexact HU50
    isplitl [HU51]
    · iexact HU51
    isplitl [HU52]
    · iexact HU52
    isplitl [HU53]
    · iexact HU53
    isplitl [HU60]
    · iexact HU60
    isplitl [HU61]
    · iexact HU61
    isplitl [HU62]
    · iexact HU62
    isplitl [HU63]
    · iexact HU63
    isplitl [HU70]
    · iexact HU70
    isplitl [HU71]
    · iexact HU71
    isplitl [HU72]
    · iexact HU72
    iexact HU73
  isplitl [Hv0 Hv1 Hv2 Hv3 Hv4 Hv5 Hv6 Hv7 Hv8 Hv9 Hv10 Hv11 Hv12 Hv13 Hv14 Hv15 Hv16 Hv17 Hv18 Hv19 Hv20 Hv21 Hv22 Hv23 Hv24 Hv25 Hv26 Hv27 Hv28 Hv29 Hv30 Hv31 Hv32 Hv33 Hv34 Hv35 Hv36 Hv37 Hv38 Hv39 Hv40 Hv41 Hv42 Hv43 Hv44 Hv45 Hv46 Hv47 Hv48 Hv49 Hv50 Hv51 Hv52 Hv53 Hv54 Hv55 Hv56 Hv57 Hv58 Hv59 Hv60 Hv61 Hv62 Hv63 Hv64 Hv65 Hv66 Hv67 Hv68 Hv69 Hv70 Hv71 Hv72 Hv73 Hv74 Hv75 Hu76 Hu77 Hu78 Hv79 Hv80 Hv81 Hv82 Hv83 Hu84 Hu85 Hu86 Hv87 Hv88 Hv89 Hv90 Hv91 Hu92 Hu93 Hu94 Hv95 Hv96 Hv97 Hv98 Hv99 Hu100 Hu101 Hu102 Hv103 Hv104 Hv105 Hv106 Hv107 Hw0a Hw0b Hw0c Hw0d Hw1a Hw1b Hw1c Hw1d Hw2a Hw2b Hw2c Hw2d Hw3a Hw3b Hw3c Hw3d Hw4a Hw4b Hw4c Hw4d Hw5a Hw5b Hw5c Hw5d Hw6a Hw6b Hw6c Hw6d Hw7a Hw7b Hw7c Hw7d]
  · iapply (Entails.of_eq (show (iprop(semVal (cellAt cc (⟨0, Nat.le_of_ble_eq_true rfl⟩ : Fin 140)) 0 ∗ semVal (cellAt cc (⟨1, Nat.le_of_ble_eq_true rfl⟩ : Fin 140)) 0 ∗ semVal (cellAt cc (⟨2, Nat.le_of_ble_eq_true rfl⟩ : Fin 140)) 0 ∗ semVal (cellAt cc (⟨3, Nat.le_of_ble_eq_true rfl⟩ : Fin 140)) 0 ∗ semVal (cellAt cc (⟨4, Nat.le_of_ble_eq_true rfl⟩ : Fin 140)) 0 ∗ semVal (cellAt cc (⟨5, Nat.le_of_ble_eq_true rfl⟩ : Fin 140)) 0 ∗ semVal (cellAt cc (⟨6, Nat.le_of_ble_eq_true rfl⟩ : Fin 140)) 0 ∗ semVal (cellAt cc (⟨7, Nat.le_of_ble_eq_true rfl⟩ : Fin 140)) 0 ∗ semVal (cellAt cc (⟨8, Nat.le_of_ble_eq_true rfl⟩ : Fin 140)) 0 ∗ semVal (cellAt cc (⟨9, Nat.le_of_ble_eq_true rfl⟩ : Fin 140)) 0 ∗ semVal (cellAt cc (⟨10, Nat.le_of_ble_eq_true rfl⟩ : Fin 140)) 0 ∗ semVal (cellAt cc (⟨11, Nat.le_of_ble_eq_true rfl⟩ : Fin 140)) 0 ∗ semVal (cellAt cc (⟨12, Nat.le_of_ble_eq_true rfl⟩ : Fin 140)) 0 ∗ semVal (cellAt cc (⟨13, Nat.le_of_ble_eq_true rfl⟩ : Fin 140)) 0 ∗ semVal (cellAt cc (⟨14, Nat.le_of_ble_eq_true rfl⟩ : Fin 140)) 0 ∗ semVal (cellAt cc (⟨15, Nat.le_of_ble_eq_true rfl⟩ : Fin 140)) 0 ∗ semVal (cellAt cc (⟨16, Nat.le_of_ble_eq_true rfl⟩ : Fin 140)) 0 ∗ semVal (cellAt cc (⟨17, Nat.le_of_ble_eq_true rfl⟩ : Fin 140)) 0 ∗ semVal (cellAt cc (⟨18, Nat.le_of_ble_eq_true rfl⟩ : Fin 140)) 0 ∗ semVal (cellAt cc (⟨19, Nat.le_of_ble_eq_true rfl⟩ : Fin 140)) 0 ∗ semVal (cellAt cc (⟨20, Nat.le_of_ble_eq_true rfl⟩ : Fin 140)) 0 ∗ semVal (cellAt cc (⟨21, Nat.le_of_ble_eq_true rfl⟩ : Fin 140)) 0 ∗ semVal (cellAt cc (⟨22, Nat.le_of_ble_eq_true rfl⟩ : Fin 140)) 0 ∗ semVal (cellAt cc (⟨23, Nat.le_of_ble_eq_true rfl⟩ : Fin 140)) 0 ∗ semVal (cellAt cc (⟨24, Nat.le_of_ble_eq_true rfl⟩ : Fin 140)) 0 ∗ semVal (cellAt cc (⟨25, Nat.le_of_ble_eq_true rfl⟩ : Fin 140)) 0 ∗ semVal (cellAt cc (⟨26, Nat.le_of_ble_eq_true rfl⟩ : Fin 140)) 0 ∗ semVal (cellAt cc (⟨27, Nat.le_of_ble_eq_true rfl⟩ : Fin 140)) 0 ∗ semVal (cellAt cc (⟨28, Nat.le_of_ble_eq_true rfl⟩ : Fin 140)) 0 ∗ semVal (cellAt cc (⟨29, Nat.le_of_ble_eq_true rfl⟩ : Fin 140)) 0 ∗ semVal (cellAt cc (⟨30, Nat.le_of_ble_eq_true rfl⟩ : Fin 140)) 0 ∗ semVal (cellAt cc (⟨31, Nat.le_of_ble_eq_true rfl⟩ : Fin 140)) 0 ∗ semVal (cellAt cc (⟨32, Nat.le_of_ble_eq_true rfl⟩ : Fin 140)) 0 ∗ semVal (cellAt cc (⟨33, Nat.le_of_ble_eq_true rfl⟩ : Fin 140)) 0 ∗ semVal (cellAt cc (⟨34, Nat.le_of_ble_eq_true rfl⟩ : Fin 140)) 0 ∗ semVal (cellAt cc (⟨35, Nat.le_of_ble_eq_true rfl⟩ : Fin 140)) 0 ∗ semVal (cellAt cc (⟨36, Nat.le_of_ble_eq_true rfl⟩ : Fin 140)) 0 ∗ semVal (cellAt cc (⟨37, Nat.le_of_ble_eq_true rfl⟩ : Fin 140)) 0 ∗ semVal (cellAt cc (⟨38, Nat.le_of_ble_eq_true rfl⟩ : Fin 140)) 0 ∗ semVal (cellAt cc (⟨39, Nat.le_of_ble_eq_true rfl⟩ : Fin 140)) 0 ∗ semVal (cellAt cc (⟨40, Nat.le_of_ble_eq_true rfl⟩ : Fin 140)) 0 ∗ semVal (cellAt cc (⟨41, Nat.le_of_ble_eq_true rfl⟩ : Fin 140)) 0 ∗ semVal (cellAt cc (⟨42, Nat.le_of_ble_eq_true rfl⟩ : Fin 140)) 0 ∗ semVal (cellAt cc (⟨43, Nat.le_of_ble_eq_true rfl⟩ : Fin 140)) 0 ∗ semVal (cellAt cc (⟨44, Nat.le_of_ble_eq_true rfl⟩ : Fin 140)) 0 ∗ semVal (cellAt cc (⟨45, Nat.le_of_ble_eq_true rfl⟩ : Fin 140)) 0 ∗ semVal (cellAt cc (⟨46, Nat.le_of_ble_eq_true rfl⟩ : Fin 140)) 0 ∗ semVal (cellAt cc (⟨47, Nat.le_of_ble_eq_true rfl⟩ : Fin 140)) 0 ∗ semVal (cellAt cc (⟨48, Nat.le_of_ble_eq_true rfl⟩ : Fin 140)) 0 ∗ semVal (cellAt cc (⟨49, Nat.le_of_ble_eq_true rfl⟩ : Fin 140)) 0 ∗ semVal (cellAt cc (⟨50, Nat.le_of_ble_eq_true rfl⟩ : Fin 140)) 0 ∗ semVal (cellAt cc (⟨51, Nat.le_of_ble_eq_true rfl⟩ : Fin 140)) 0 ∗ semVal (cellAt cc (⟨52, Nat.le_of_ble_eq_true rfl⟩ : Fin 140)) 0 ∗ semVal (cellAt cc (⟨53, Nat.le_of_ble_eq_true rfl⟩ : Fin 140)) 0 ∗ semVal (cellAt cc (⟨54, Nat.le_of_ble_eq_true rfl⟩ : Fin 140)) 0 ∗ semVal (cellAt cc (⟨55, Nat.le_of_ble_eq_true rfl⟩ : Fin 140)) 0 ∗ semVal (cellAt cc (⟨56, Nat.le_of_ble_eq_true rfl⟩ : Fin 140)) 0 ∗ semVal (cellAt cc (⟨57, Nat.le_of_ble_eq_true rfl⟩ : Fin 140)) 0 ∗ semVal (cellAt cc (⟨58, Nat.le_of_ble_eq_true rfl⟩ : Fin 140)) 0 ∗ semVal (cellAt cc (⟨59, Nat.le_of_ble_eq_true rfl⟩ : Fin 140)) 0 ∗ semVal (cellAt cc (⟨60, Nat.le_of_ble_eq_true rfl⟩ : Fin 140)) 0 ∗ semVal (cellAt cc (⟨61, Nat.le_of_ble_eq_true rfl⟩ : Fin 140)) 0 ∗ semVal (cellAt cc (⟨62, Nat.le_of_ble_eq_true rfl⟩ : Fin 140)) 0 ∗ semVal (cellAt cc (⟨63, Nat.le_of_ble_eq_true rfl⟩ : Fin 140)) 0 ∗ semVal (cellAt cc (⟨64, Nat.le_of_ble_eq_true rfl⟩ : Fin 140)) 0 ∗ semVal (cellAt cc (⟨65, Nat.le_of_ble_eq_true rfl⟩ : Fin 140)) 0 ∗ semVal (cellAt cc (⟨66, Nat.le_of_ble_eq_true rfl⟩ : Fin 140)) 0 ∗ semVal (cellAt cc (⟨67, Nat.le_of_ble_eq_true rfl⟩ : Fin 140)) 0 ∗ semVal (cellAt cc (⟨68, Nat.le_of_ble_eq_true rfl⟩ : Fin 140)) 0 ∗ semVal (cellAt cc (⟨69, Nat.le_of_ble_eq_true rfl⟩ : Fin 140)) 0 ∗ semVal (cellAt cc (⟨70, Nat.le_of_ble_eq_true rfl⟩ : Fin 140)) 0 ∗ semVal (cellAt cc (⟨71, Nat.le_of_ble_eq_true rfl⟩ : Fin 140)) 0 ∗ semVal (cellAt cc (⟨72, Nat.le_of_ble_eq_true rfl⟩ : Fin 140)) 0 ∗ semVal (cellAt cc (⟨73, Nat.le_of_ble_eq_true rfl⟩ : Fin 140)) 0 ∗ semVal (cellAt cc (⟨74, Nat.le_of_ble_eq_true rfl⟩ : Fin 140)) 0 ∗ semVal (cellAt cc (⟨75, Nat.le_of_ble_eq_true rfl⟩ : Fin 140)) 0 ∗ semVal (cellAt cc (⟨76, Nat.le_of_ble_eq_true rfl⟩ : Fin 140)) 0 ∗ semVal (cellAt cc (⟨77, Nat.le_of_ble_eq_true rfl⟩ : Fin 140)) 0 ∗ semVal (cellAt cc (⟨78, Nat.le_of_ble_eq_true rfl⟩ : Fin 140)) 0 ∗ semVal (cellAt cc (⟨79, Nat.le_of_ble_eq_true rfl⟩ : Fin 140)) 0 ∗ semVal (cellAt cc (⟨80, Nat.le_of_ble_eq_true rfl⟩ : Fin 140)) 0 ∗ semVal (cellAt cc (⟨81, Nat.le_of_ble_eq_true rfl⟩ : Fin 140)) 0 ∗ semVal (cellAt cc (⟨82, Nat.le_of_ble_eq_true rfl⟩ : Fin 140)) 0 ∗ semVal (cellAt cc (⟨83, Nat.le_of_ble_eq_true rfl⟩ : Fin 140)) 0 ∗ semVal (cellAt cc (⟨84, Nat.le_of_ble_eq_true rfl⟩ : Fin 140)) 0 ∗ semVal (cellAt cc (⟨85, Nat.le_of_ble_eq_true rfl⟩ : Fin 140)) 0 ∗ semVal (cellAt cc (⟨86, Nat.le_of_ble_eq_true rfl⟩ : Fin 140)) 0 ∗ semVal (cellAt cc (⟨87, Nat.le_of_ble_eq_true rfl⟩ : Fin 140)) 0 ∗ semVal (cellAt cc (⟨88, Nat.le_of_ble_eq_true rfl⟩ : Fin 140)) 0 ∗ semVal (cellAt cc (⟨89, Nat.le_of_ble_eq_true rfl⟩ : Fin 140)) 0 ∗ semVal (cellAt cc (⟨90, Nat.le_of_ble_eq_true rfl⟩ : Fin 140)) 0 ∗ semVal (cellAt cc (⟨91, Nat.le_of_ble_eq_true rfl⟩ : Fin 140)) 0 ∗ semVal (cellAt cc (⟨92, Nat.le_of_ble_eq_true rfl⟩ : Fin 140)) 0 ∗ semVal (cellAt cc (⟨93, Nat.le_of_ble_eq_true rfl⟩ : Fin 140)) 0 ∗ semVal (cellAt cc (⟨94, Nat.le_of_ble_eq_true rfl⟩ : Fin 140)) 0 ∗ semVal (cellAt cc (⟨95, Nat.le_of_ble_eq_true rfl⟩ : Fin 140)) 0 ∗ semVal (cellAt cc (⟨96, Nat.le_of_ble_eq_true rfl⟩ : Fin 140)) 0 ∗ semVal (cellAt cc (⟨97, Nat.le_of_ble_eq_true rfl⟩ : Fin 140)) 0 ∗ semVal (cellAt cc (⟨98, Nat.le_of_ble_eq_true rfl⟩ : Fin 140)) 0 ∗ semVal (cellAt cc (⟨99, Nat.le_of_ble_eq_true rfl⟩ : Fin 140)) 0 ∗ semVal (cellAt cc (⟨100, Nat.le_of_ble_eq_true rfl⟩ : Fin 140)) 0 ∗ semVal (cellAt cc (⟨101, Nat.le_of_ble_eq_true rfl⟩ : Fin 140)) 0 ∗ semVal (cellAt cc (⟨102, Nat.le_of_ble_eq_true rfl⟩ : Fin 140)) 0 ∗ semVal (cellAt cc (⟨103, Nat.le_of_ble_eq_true rfl⟩ : Fin 140)) 0 ∗ semVal (cellAt cc (⟨104, Nat.le_of_ble_eq_true rfl⟩ : Fin 140)) 0 ∗ semVal (cellAt cc (⟨105, Nat.le_of_ble_eq_true rfl⟩ : Fin 140)) 0 ∗ semVal (cellAt cc (⟨106, Nat.le_of_ble_eq_true rfl⟩ : Fin 140)) 0 ∗ semVal (cellAt cc (⟨107, Nat.le_of_ble_eq_true rfl⟩ : Fin 140)) 0 ∗ semVal (cellAt cc (⟨108, Nat.le_of_ble_eq_true rfl⟩ : Fin 140)) 0 ∗ semVal (cellAt cc (⟨109, Nat.le_of_ble_eq_true rfl⟩ : Fin 140)) 0 ∗ semVal (cellAt cc (⟨110, Nat.le_of_ble_eq_true rfl⟩ : Fin 140)) 0 ∗ semVal (cellAt cc (⟨111, Nat.le_of_ble_eq_true rfl⟩ : Fin 140)) 0 ∗ semVal (cellAt cc (⟨112, Nat.le_of_ble_eq_true rfl⟩ : Fin 140)) 0 ∗ semVal (cellAt cc (⟨113, Nat.le_of_ble_eq_true rfl⟩ : Fin 140)) 0 ∗ semVal (cellAt cc (⟨114, Nat.le_of_ble_eq_true rfl⟩ : Fin 140)) 0 ∗ semVal (cellAt cc (⟨115, Nat.le_of_ble_eq_true rfl⟩ : Fin 140)) 0 ∗ semVal (cellAt cc (⟨116, Nat.le_of_ble_eq_true rfl⟩ : Fin 140)) 0 ∗ semVal (cellAt cc (⟨117, Nat.le_of_ble_eq_true rfl⟩ : Fin 140)) 0 ∗ semVal (cellAt cc (⟨118, Nat.le_of_ble_eq_true rfl⟩ : Fin 140)) 0 ∗ semVal (cellAt cc (⟨119, Nat.le_of_ble_eq_true rfl⟩ : Fin 140)) 0 ∗ semVal (cellAt cc (⟨120, Nat.le_of_ble_eq_true rfl⟩ : Fin 140)) 0 ∗ semVal (cellAt cc (⟨121, Nat.le_of_ble_eq_true rfl⟩ : Fin 140)) 0 ∗ semVal (cellAt cc (⟨122, Nat.le_of_ble_eq_true rfl⟩ : Fin 140)) 0 ∗ semVal (cellAt cc (⟨123, Nat.le_of_ble_eq_true rfl⟩ : Fin 140)) 0 ∗ semVal (cellAt cc (⟨124, Nat.le_of_ble_eq_true rfl⟩ : Fin 140)) 0 ∗ semVal (cellAt cc (⟨125, Nat.le_of_ble_eq_true rfl⟩ : Fin 140)) 0 ∗ semVal (cellAt cc (⟨126, Nat.le_of_ble_eq_true rfl⟩ : Fin 140)) 0 ∗ semVal (cellAt cc (⟨127, Nat.le_of_ble_eq_true rfl⟩ : Fin 140)) 0 ∗ semVal (cellAt cc (⟨128, Nat.le_of_ble_eq_true rfl⟩ : Fin 140)) 0 ∗ semVal (cellAt cc (⟨129, Nat.le_of_ble_eq_true rfl⟩ : Fin 140)) 0 ∗ semVal (cellAt cc (⟨130, Nat.le_of_ble_eq_true rfl⟩ : Fin 140)) 0 ∗ semVal (cellAt cc (⟨131, Nat.le_of_ble_eq_true rfl⟩ : Fin 140)) 0 ∗ semVal (cellAt cc (⟨132, Nat.le_of_ble_eq_true rfl⟩ : Fin 140)) 0 ∗ semVal (cellAt cc (⟨133, Nat.le_of_ble_eq_true rfl⟩ : Fin 140)) 0 ∗ semVal (cellAt cc (⟨134, Nat.le_of_ble_eq_true rfl⟩ : Fin 140)) 0 ∗ semVal (cellAt cc (⟨135, Nat.le_of_ble_eq_true rfl⟩ : Fin 140)) 0 ∗ semVal (cellAt cc (⟨136, Nat.le_of_ble_eq_true rfl⟩ : Fin 140)) 0 ∗ semVal (cellAt cc (⟨137, Nat.le_of_ble_eq_true rfl⟩ : Fin 140)) 0 ∗ semVal (cellAt cc (⟨138, Nat.le_of_ble_eq_true rfl⟩ : Fin 140)) 0 ∗ semVal (cellAt cc (⟨139, Nat.le_of_ble_eq_true rfl⟩ : Fin 140)) 0) : sProp 𝕄) = (bigSepL allJ fun j => semVal (cellAt cc j) 0) from rfl))
    isplitl [Hv0]
    · iexact Hv0
    isplitl [Hv1]
    · iexact Hv1
    isplitl [Hv2]
    · iexact Hv2
    isplitl [Hv3]
    · iexact Hv3
    isplitl [Hv4]
    · iexact Hv4
    isplitl [Hv5]
    · iexact Hv5
    isplitl [Hv6]
    · iexact Hv6
    isplitl [Hv7]
    · iexact Hv7
    isplitl [Hv8]
    · iexact Hv8
    isplitl [Hv9]
    · iexact Hv9
    isplitl [Hv10]
    · iexact Hv10
    isplitl [Hv11]
    · iexact Hv11
    isplitl [Hv12]
    · iexact Hv12
    isplitl [Hv13]
    · iexact Hv13
    isplitl [Hv14]
    · iexact Hv14
    isplitl [Hv15]
    · iexact Hv15
    isplitl [Hv16]
    · iexact Hv16
    isplitl [Hv17]
    · iexact Hv17
    isplitl [Hv18]
    · iexact Hv18
    isplitl [Hv19]
    · iexact Hv19
    isplitl [Hv20]
    · iexact Hv20
    isplitl [Hv21]
    · iexact Hv21
    isplitl [Hv22]
    · iexact Hv22
    isplitl [Hv23]
    · iexact Hv23
    isplitl [Hv24]
    · iexact Hv24
    isplitl [Hv25]
    · iexact Hv25
    isplitl [Hv26]
    · iexact Hv26
    isplitl [Hv27]
    · iexact Hv27
    isplitl [Hv28]
    · iexact Hv28
    isplitl [Hv29]
    · iexact Hv29
    isplitl [Hv30]
    · iexact Hv30
    isplitl [Hv31]
    · iexact Hv31
    isplitl [Hv32]
    · iexact Hv32
    isplitl [Hv33]
    · iexact Hv33
    isplitl [Hv34]
    · iexact Hv34
    isplitl [Hv35]
    · iexact Hv35
    isplitl [Hv36]
    · iexact Hv36
    isplitl [Hv37]
    · iexact Hv37
    isplitl [Hv38]
    · iexact Hv38
    isplitl [Hv39]
    · iexact Hv39
    isplitl [Hv40]
    · iexact Hv40
    isplitl [Hv41]
    · iexact Hv41
    isplitl [Hv42]
    · iexact Hv42
    isplitl [Hv43]
    · iexact Hv43
    isplitl [Hv44]
    · iexact Hv44
    isplitl [Hv45]
    · iexact Hv45
    isplitl [Hv46]
    · iexact Hv46
    isplitl [Hv47]
    · iexact Hv47
    isplitl [Hv48]
    · iexact Hv48
    isplitl [Hv49]
    · iexact Hv49
    isplitl [Hv50]
    · iexact Hv50
    isplitl [Hv51]
    · iexact Hv51
    isplitl [Hv52]
    · iexact Hv52
    isplitl [Hv53]
    · iexact Hv53
    isplitl [Hv54]
    · iexact Hv54
    isplitl [Hv55]
    · iexact Hv55
    isplitl [Hv56]
    · iexact Hv56
    isplitl [Hv57]
    · iexact Hv57
    isplitl [Hv58]
    · iexact Hv58
    isplitl [Hv59]
    · iexact Hv59
    isplitl [Hv60]
    · iexact Hv60
    isplitl [Hv61]
    · iexact Hv61
    isplitl [Hv62]
    · iexact Hv62
    isplitl [Hv63]
    · iexact Hv63
    isplitl [Hv64]
    · iexact Hv64
    isplitl [Hv65]
    · iexact Hv65
    isplitl [Hv66]
    · iexact Hv66
    isplitl [Hv67]
    · iexact Hv67
    isplitl [Hv68]
    · iexact Hv68
    isplitl [Hv69]
    · iexact Hv69
    isplitl [Hv70]
    · iexact Hv70
    isplitl [Hv71]
    · iexact Hv71
    isplitl [Hv72]
    · iexact Hv72
    isplitl [Hv73]
    · iexact Hv73
    isplitl [Hv74]
    · iexact Hv74
    isplitl [Hv75]
    · iexact Hv75
    isplitl [Hu76]
    · iexact Hu76
    isplitl [Hu77]
    · iexact Hu77
    isplitl [Hu78]
    · iexact Hu78
    isplitl [Hv79]
    · iexact Hv79
    isplitl [Hv80]
    · iexact Hv80
    isplitl [Hv81]
    · iexact Hv81
    isplitl [Hv82]
    · iexact Hv82
    isplitl [Hv83]
    · iexact Hv83
    isplitl [Hu84]
    · iexact Hu84
    isplitl [Hu85]
    · iexact Hu85
    isplitl [Hu86]
    · iexact Hu86
    isplitl [Hv87]
    · iexact Hv87
    isplitl [Hv88]
    · iexact Hv88
    isplitl [Hv89]
    · iexact Hv89
    isplitl [Hv90]
    · iexact Hv90
    isplitl [Hv91]
    · iexact Hv91
    isplitl [Hu92]
    · iexact Hu92
    isplitl [Hu93]
    · iexact Hu93
    isplitl [Hu94]
    · iexact Hu94
    isplitl [Hv95]
    · iexact Hv95
    isplitl [Hv96]
    · iexact Hv96
    isplitl [Hv97]
    · iexact Hv97
    isplitl [Hv98]
    · iexact Hv98
    isplitl [Hv99]
    · iexact Hv99
    isplitl [Hu100]
    · iexact Hu100
    isplitl [Hu101]
    · iexact Hu101
    isplitl [Hu102]
    · iexact Hu102
    isplitl [Hv103]
    · iexact Hv103
    isplitl [Hv104]
    · iexact Hv104
    isplitl [Hv105]
    · iexact Hv105
    isplitl [Hv106]
    · iexact Hv106
    isplitl [Hv107]
    · iexact Hv107
    isplitl [Hw0a]
    · iexact Hw0a
    isplitl [Hw0b]
    · iexact Hw0b
    isplitl [Hw0c]
    · iexact Hw0c
    isplitl [Hw0d]
    · iexact Hw0d
    isplitl [Hw1a]
    · iexact Hw1a
    isplitl [Hw1b]
    · iexact Hw1b
    isplitl [Hw1c]
    · iexact Hw1c
    isplitl [Hw1d]
    · iexact Hw1d
    isplitl [Hw2a]
    · iexact Hw2a
    isplitl [Hw2b]
    · iexact Hw2b
    isplitl [Hw2c]
    · iexact Hw2c
    isplitl [Hw2d]
    · iexact Hw2d
    isplitl [Hw3a]
    · iexact Hw3a
    isplitl [Hw3b]
    · iexact Hw3b
    isplitl [Hw3c]
    · iexact Hw3c
    isplitl [Hw3d]
    · iexact Hw3d
    isplitl [Hw4a]
    · iexact Hw4a
    isplitl [Hw4b]
    · iexact Hw4b
    isplitl [Hw4c]
    · iexact Hw4c
    isplitl [Hw4d]
    · iexact Hw4d
    isplitl [Hw5a]
    · iexact Hw5a
    isplitl [Hw5b]
    · iexact Hw5b
    isplitl [Hw5c]
    · iexact Hw5c
    isplitl [Hw5d]
    · iexact Hw5d
    isplitl [Hw6a]
    · iexact Hw6a
    isplitl [Hw6b]
    · iexact Hw6b
    isplitl [Hw6c]
    · iexact Hw6c
    isplitl [Hw6d]
    · iexact Hw6d
    isplitl [Hw7a]
    · iexact Hw7a
    isplitl [Hw7b]
    · iexact Hw7b
    isplitl [Hw7c]
    · iexact Hw7c
    iexact Hw7d
  iexists _; iexact HO

end Cert.Kernel.RS.D7

end
-- ==== Proof.K.BodyAll.lean ====
import proofs.«901022_g7700000000001023_dist_rs_v7x_xyz2x2x2_x_m4096_n1024_bf16_1_alg».proof.Proof.K.Body0
import proofs.«901022_g7700000000001023_dist_rs_v7x_xyz2x2x2_x_m4096_n1024_bf16_1_alg».proof.Proof.K.Body1
import proofs.«901022_g7700000000001023_dist_rs_v7x_xyz2x2x2_x_m4096_n1024_bf16_1_alg».proof.Proof.K.Body2
import proofs.«901022_g7700000000001023_dist_rs_v7x_xyz2x2x2_x_m4096_n1024_bf16_1_alg».proof.Proof.K.Body3
import proofs.«901022_g7700000000001023_dist_rs_v7x_xyz2x2x2_x_m4096_n1024_bf16_1_alg».proof.Proof.K.Body4
import proofs.«901022_g7700000000001023_dist_rs_v7x_xyz2x2x2_x_m4096_n1024_bf16_1_alg».proof.Proof.K.Body5
import proofs.«901022_g7700000000001023_dist_rs_v7x_xyz2x2x2_x_m4096_n1024_bf16_1_alg».proof.Proof.K.Body6
import proofs.«901022_g7700000000001023_dist_rs_v7x_xyz2x2x2_x_m4096_n1024_bf16_1_alg».proof.Proof.K.Body7
import proofs.«901022_g7700000000001023_dist_rs_v7x_xyz2x2x2_x_m4096_n1024_bf16_1_alg».proof.Proof.K.FrameOf

/-! The body's statement on every device, from the eight devices' one by one. -/

noncomputable section

namespace Cert.Kernel.RS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The body's statement on every device: the eight devices one by one. -/
theorem sound_body (m : (ℓ : Loc nD τ sig) → Buf (Elt F) ℓ) : BodySound (F := F) m := by
  intro K c W Kt
  have hc : c.val < 8 := c.isLt
  by_cases h0 : c.val = 0
  · obtain rfl : c = @Fin.mk nD 0 (Nat.le_of_ble_eq_true rfl) := Fin.ext h0
    exact D0.dev m K W Kt
  by_cases h1 : c.val = 1
  · obtain rfl : c = @Fin.mk nD 1 (Nat.le_of_ble_eq_true rfl) := Fin.ext h1
    exact D1.dev m K W Kt
  by_cases h2 : c.val = 2
  · obtain rfl : c = @Fin.mk nD 2 (Nat.le_of_ble_eq_true rfl) := Fin.ext h2
    exact D2.dev m K W Kt
  by_cases h3 : c.val = 3
  · obtain rfl : c = @Fin.mk nD 3 (Nat.le_of_ble_eq_true rfl) := Fin.ext h3
    exact D3.dev m K W Kt
  by_cases h4 : c.val = 4
  · obtain rfl : c = @Fin.mk nD 4 (Nat.le_of_ble_eq_true rfl) := Fin.ext h4
    exact D4.dev m K W Kt
  by_cases h5 : c.val = 5
  · obtain rfl : c = @Fin.mk nD 5 (Nat.le_of_ble_eq_true rfl) := Fin.ext h5
    exact D5.dev m K W Kt
  by_cases h6 : c.val = 6
  · obtain rfl : c = @Fin.mk nD 6 (Nat.le_of_ble_eq_true rfl) := Fin.ext h6
    exact D6.dev m K W Kt
  by_cases h7 : c.val = 7
  · obtain rfl : c = @Fin.mk nD 7 (Nat.le_of_ble_eq_true rfl) := Fin.ext h7
    exact D7.dev m K W Kt
  exfalso; omega

end Cert.Kernel.RS

end
-- ==== Proof.lean ====
/- The proof of `Cert.Claim` (proofs.«901022_g7700000000001023_dist_rs_v7x_xyz2x2x2_x_m4096_n1024_bf16_1_alg».proof.Defs) — frame_Kernel ∧ frame_KernelIdeal ∧ frame_ReferenceIdeal ∧ preserves_Kernel_KernelIdeal ∧ algebraic_KernelIdeal_ReferenceIdeal.

   THE KERNEL. Eight devices on a mesh of three axes of two (device id 4x + 2y + z). Device c holds slab x of the whole
   array X : [2, 4096, 2048] and must end with columns 1024x … 1024x + 1023 of X[0] + X[1], in quarters of 256 columns.
   Each device adds up one quarter, q = 2y + z, of its half of the columns: its own slab's columns plus the same columns of
   the device across x, which that device rounds and sends it chunk by chunk (512 rows); the first 1536 rows of the
   diagonal quarter it adds up itself in the same way. A finished chunk of its own quarter goes to its neighbours across
   z and across y; a chunk received from one of them is forwarded, half its columns, to the other, so that the diagonal
   device's quarter arrives in two halves. Every remote copy has a send semaphore on the sender and a receive semaphore
   on the receiver, each used once; the devices meet at entry on the barrier semaphore, each signalling its three
   neighbours and waiting for three.

   THE PROOF. (1) Every buffer of every device is written once per element, so its final contents are a pure function of
   the devices' argument blocks: Proof/Spec.lean (`out m c` is device c's result). (2) The protocol is a schedule of
   rounds (Proof/Sched.lean): every cell has one round; a barrier cell three duties, a send or receive cell one; what a
   landing hands the waiter is the chunk at its final contents, what a departure hands back is the share of the source
   it lent; with its barrier signal a neighbour hands over the parts of its buffers the device will write. What a device
   owes its neighbours, in the order it pays, and the levels that order the waits — a receive cell's level is its place in
   its owner's order of waits, and every copy into a cell is started before the place where its owner waits for it — are
   Proof/Owed.lean. (3) The body is stepped once per device from one statement (Proof/BodyPre.lean, Proof/BodyGlue.lean:
   the records of the cells it uses, its credits, positions and tokens, its buffers) to the buffers at their final
   contents, every own semaphore back at zero, nothing owed (Proof/Body0.lean … Body7.lean, Proof/BodyAll.lean). (4) The
   launch (Proof/LaunchCells.lean … LaunchRS.lean): all cells and tokens funded from one launch element, every cell's
   invariant allocated under one update from the counters at zero, the tokens dealt to the devices that pay with them
   (crossing to a neighbour is an involution), the launch credit of a device's waits computed from what the others owe
   it; the library's launch theorem for cores that owe at launch then gives the run with each result at `out m c` and the
   arguments unchanged (Proof/FrameOf.lean), at any float instance: the word-level program's modules under Proof/K/ are
   the same texts over its names. (5) The value (Proof/LaySide.lean, RefSide.lean, ValueSide.lean, Assemble.lean): device
   c's block of the argument is slab c / 4, its block of the result columns 1024 (c / 4) + j; the reference is
   X[0] + X[1]; every device that adds up a quarter of c's result has c's x coordinate, the device across x the other, so
   on the extended reals an entry of `out m c` is the sum of the two slabs' entries in one order or the other, changes of
   format being the identity: no finiteness is used. -/
import proofs.«901022_g7700000000001023_dist_rs_v7x_xyz2x2x2_x_m4096_n1024_bf16_1_alg».proof.Defs
import proofs.«901022_g7700000000001023_dist_rs_v7x_xyz2x2x2_x_m4096_n1024_bf16_1_alg».proof.Proof.Gen.Kernel
import proofs.«901022_g7700000000001023_dist_rs_v7x_xyz2x2x2_x_m4096_n1024_bf16_1_alg».proof.Proof.Gen.Kernel.Skeleton
import proofs.«901022_g7700000000001023_dist_rs_v7x_xyz2x2x2_x_m4096_n1024_bf16_1_alg».proof.Proof.Gen.Kernel.Launch
import proofs.«901022_g7700000000001023_dist_rs_v7x_xyz2x2x2_x_m4096_n1024_bf16_1_alg».proof.Proof.Gen.Kernel.Points
import proofs.«901022_g7700000000001023_dist_rs_v7x_xyz2x2x2_x_m4096_n1024_bf16_1_alg».proof.Proof.Gen.Kernel.Frame
import proofs.«901022_g7700000000001023_dist_rs_v7x_xyz2x2x2_x_m4096_n1024_bf16_1_alg».proof.Proof.Gen.KernelIdeal
import proofs.«901022_g7700000000001023_dist_rs_v7x_xyz2x2x2_x_m4096_n1024_bf16_1_alg».proof.Proof.Gen.KernelIdeal.Skeleton
import proofs.«901022_g7700000000001023_dist_rs_v7x_xyz2x2x2_x_m4096_n1024_bf16_1_alg».proof.Proof.Gen.KernelIdeal.Launch
import proofs.«901022_g7700000000001023_dist_rs_v7x_xyz2x2x2_x_m4096_n1024_bf16_1_alg».proof.Proof.Gen.KernelIdeal.Points
import proofs.«901022_g7700000000001023_dist_rs_v7x_xyz2x2x2_x_m4096_n1024_bf16_1_alg».proof.Proof.Gen.KernelIdeal.Frame
import proofs.«901022_g7700000000001023_dist_rs_v7x_xyz2x2x2_x_m4096_n1024_bf16_1_alg».proof.Proof.Gen.ReferenceIdeal
import proofs.«901022_g7700000000001023_dist_rs_v7x_xyz2x2x2_x_m4096_n1024_bf16_1_alg».proof.Proof.Gen.ReferenceIdeal.Run
import proofs.«901022_g7700000000001023_dist_rs_v7x_xyz2x2x2_x_m4096_n1024_bf16_1_alg».proof.Proof.Gen.ReferenceIdeal.Read
import proofs.«901022_g7700000000001023_dist_rs_v7x_xyz2x2x2_x_m4096_n1024_bf16_1_alg».proof.Proof.Gen.Pre_finite_inputs_Kernel
import proofs.«901022_g7700000000001023_dist_rs_v7x_xyz2x2x2_x_m4096_n1024_bf16_1_alg».proof.Proof.Gen.Pre_finite_inputs_ReferenceIdeal
import proofs.«901022_g7700000000001023_dist_rs_v7x_xyz2x2x2_x_m4096_n1024_bf16_1_alg».proof.Proof.Assemble
import proofs.«901022_g7700000000001023_dist_rs_v7x_xyz2x2x2_x_m4096_n1024_bf16_1_alg».proof.Proof.BodyAll
import proofs.«901022_g7700000000001023_dist_rs_v7x_xyz2x2x2_x_m4096_n1024_bf16_1_alg».proof.Proof.K.FrameOf
import proofs.«901022_g7700000000001023_dist_rs_v7x_xyz2x2x2_x_m4096_n1024_bf16_1_alg».proof.Proof.K.BodyAll
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  (fun m g _ => Cert.Kernel.RS.frame_of_sound (F := Bits) (fun m' => Cert.Kernel.RS.sound_body m') m g),
  Cert.KernelIdeal.RS.frame_ideal (fun m => Cert.KernelIdeal.RS.sound_body m),
  Cert.RS.Ref.frame,
  trivial,
  Cert.KernelIdeal.RS.algebraic_ideal (fun m => Cert.KernelIdeal.RS.sound_body m)⟩

end Cert.Proof

end
